-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v89)) (v1 : (c : Dev Cert.KernelIdeal.nD) → Buf (Elt Ideal) ((c.tc : Thread Cert.KernelIdeal.nD Cert.KernelIdeal.τ).loc Cert.KernelIdeal.main_v127)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v89) = v0 c
          ∧ r.2.mem ((c.tc : Thread Cert.KernelIdeal.nD Cert.KernelIdeal.τ).loc Cert.KernelIdeal.main_v127) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v67) = v0 c
          ∧ r.2.mem ((c.tc : Thread Cert.ReferenceIdeal.nD Cert.ReferenceIdeal.τ).loc Cert.ReferenceIdeal.main_v92) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S256x2 : Shape := ⟨2, ![256, 2]⟩
abbrev S2 : Shape := ⟨1, ![2]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S256x2 : S_.BroadcastsInDim S256x2 (![] : Fin 0 → Fin S256x2.rank)
  reducesTo_S256x2_S_d0_1 : S256x2.ReducesTo [0, 1] S_
  bcast_S_S2 : S_.BroadcastsInDim S2 (![] : Fin 0 → Fin S2.rank)
  reducesTo_S2_S_d0 : S2.ReducesTo [0] S_
  bcast_S_S2x800000 : S_.BroadcastsInDim S2x800000 (![] : Fin 0 → Fin S2x800000.rank)
  reducesTo_S2x800000_S_d0_1 : S2x800000.ReducesTo [0, 1] S_

variable [Facts]

def fn_part2 {F : FTy → Type} [FloatOps F] (main_arg1 : IVec S2x800000 32) (main_v33 : IVec S_ 1) : IVec S_ 1 :=
  let main_c_12 : IVec S_ 32 := constantI S_ 32 0#32
  let main_v34 : IVec S2x800000 32 := broadcastInDim S2x800000 ![] bcast_S_S2x800000 main_c_12
  let main_v35 : IVec S2x800000 1 := cmpi .sge main_arg1 main_v34
  let main_c_13 : IVec S_ 1 := constantI S_ 1 1#1
  let main_v36 : IVec S_ 1 := (fun x v => Host.reduce IntOp.andi x v reducesTo_S2x800000_S_d0_1 h_S_) main_v35 main_c_13
  let main_v37 : IVec S_ 1 := andi main_v33 main_v36
  let main_c_14 : IVec S_ 32 := constantI S_ 32 50000#32
  let main_v38 : IVec S2x800000 32 := broadcastInDim S2x800000 ![] bcast_S_S2x800000 main_c_14
  let main_v39 : IVec S2x800000 1 := cmpi .slt main_arg1 main_v38
  let main_c_15 : IVec S_ 1 := constantI S_ 1 1#1
  let main_v40 : IVec S_ 1 := (fun x v => Host.reduce IntOp.andi x v reducesTo_S2x800000_S_d0_1 h_S_) main_v39 main_c_15
  let main_v41 : IVec S_ 1 := andi main_v37 main_v40
  main_v41

def fn_part1 {F : FTy → Type} [FloatOps F] (main_arg1 : IVec S2x800000 32) (main_arg5 : FVec F S128 .f32) (main_arg6 : FVec F S256x2 .f32) (main_arg7 : FVec F S2 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S256x2 .f32 := Host.absf main_arg6
  let main_cst_8 : FVec F S_ .f32 := constant S_ .f32 0x7F800000#32
  let main_v25 : FVec F S256x2 .f32 := broadcastInDim S256x2 ![] bcast_S_S256x2 main_cst_8
  let main_v26 : IVec S256x2 1 := cmpf .olt main_v24 main_v25
  let main_c_9 : IVec S_ 1 := constantI S_ 1 1#1
  let main_v27 : IVec S_ 1 := (fun x v => Host.reduce IntOp.andi x v reducesTo_S256x2_S_d0_1 h_S_) main_v26 main_c_9
  let main_v28 : IVec S_ 1 := andi main_v23 main_v27
  let main_v29 : FVec F S2 .f32 := Host.absf main_arg7
  let main_cst_10 : FVec F S_ .f32 := constant S_ .f32 0x7F800000#32
  let main_v30 : FVec F S2 .f32 := broadcastInDim S2 ![] bcast_S_S2 main_cst_10
  let main_v31 : IVec S2 1 := cmpf .olt main_v29 main_v30
  let main_c_11 : IVec S_ 1 := constantI S_ 1 1#1
  let main_v32 : IVec S_ 1 := (fun x v => Host.reduce IntOp.andi x v reducesTo_S2_S_d0 h_S_) main_v31 main_c_11
  let main_v33 : IVec S_ 1 := andi main_v28 main_v32
  fn_part2 (F := F) main_arg1 main_v33

def fn {F : FTy → Type} [FloatOps F] (main_arg0 : FVec F S50000x128 .f32) (main_arg1 : IVec S2x800000 32) (main_arg2 : FVec F S128x128 .f32) (main_arg3 : FVec F S128 .f32) (main_arg4 : FVec F S128x128 .f32) (main_arg5 : FVec F S128 .f32) (main_arg6 : FVec F S256x2 .f32) (main_arg7 : FVec F S2 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg1 main_arg5 main_arg6 main_arg7 main_v13 main_v16
-- ==== Kernel.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S256x2 : Shape := ⟨2, ![256, 2]⟩
abbrev S2 : Shape := ⟨1, ![2]⟩
abbrev S1x800000 : Shape := ⟨2, ![1, 800000]⟩
abbrev S800000 : Shape := ⟨1, ![800000]⟩
abbrev S50000 : Shape := ⟨1, ![50000]⟩
abbrev S850000 : Shape := ⟨1, ![850000]⟩
abbrev S_ : Shape := ⟨0, ![]⟩
abbrev S850000x1 : Shape := ⟨2, ![850000, 1]⟩
abbrev S5000x128 : Shape := ⟨2, ![5000, 128]⟩
abbrev S85000 : Shape := ⟨1, ![85000]⟩
abbrev S85000x128 : Shape := ⟨2, ![85000, 128]⟩
abbrev S8x128 : Shape := ⟨2, ![8, 128]⟩
abbrev S8 : Shape := ⟨1, ![8]⟩
abbrev S1 : Shape := ⟨1, ![1]⟩
abbrev S1x128 : Shape := ⟨2, ![1, 128]⟩
abbrev S850000x128 : Shape := ⟨2, ![850000, 128]⟩
abbrev S100000 : Shape := ⟨1, ![100000]⟩
abbrev S100000x128 : Shape := ⟨2, ![100000, 128]⟩
abbrev S800000x128 : Shape := ⟨2, ![800000, 128]⟩
abbrev S128x2 : Shape := ⟨2, ![128, 2]⟩
abbrev S1x2 : Shape := ⟨2, ![1, 2]⟩
abbrev S800000x2 : Shape := ⟨2, ![800000, 2]⟩
abbrev S6400x128 : Shape := ⟨2, ![6400, 128]⟩
abbrev S6400x2 : Shape := ⟨2, ![6400, 2]⟩

abbrev nBuf : Space → Nat
  | .hbm => 113
  | .vmem => 97
  | .smem => 36
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S256x2, .f32⟩
  | .hbm, ⟨7, _⟩ => ⟨S2, .f32⟩
  | .hbm, ⟨8, _⟩ => ⟨S1x800000, .i32⟩
  | .hbm, ⟨9, _⟩ => ⟨S800000, .i32⟩
  | .hbm, ⟨10, _⟩ => ⟨S1x800000, .i32⟩
  | .hbm, ⟨11, _⟩ => ⟨S800000, .i32⟩
  | .hbm, ⟨12, _⟩ => ⟨S50000, .i32⟩
  | .hbm, ⟨13, _⟩ => ⟨S850000, .i32⟩
  | .hbm, ⟨14, _⟩ => ⟨S850000, .i32⟩
  | .hbm, ⟨15, _⟩ => ⟨S_, .f32⟩
  | .hbm, ⟨16, _⟩ => ⟨S850000, .f32⟩
  | .hbm, ⟨17, _⟩ => ⟨S_, .f32⟩
  | .hbm, ⟨18, _⟩ => ⟨S50000, .f32⟩
  | .hbm, ⟨19, _⟩ => ⟨S850000x1, .i32⟩
  | .hbm, ⟨20, _⟩ => ⟨S50000, .f32⟩
  | .hbm, ⟨21, _⟩ => ⟨S_, .f32⟩
  | .hbm, ⟨22, _⟩ => ⟨S50000, .f32⟩
  | .hbm, ⟨23, _⟩ => ⟨S50000, .i1⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S50000, .f32⟩
  | .hbm, ⟨28, _⟩ => ⟨S_, .f32⟩
  | .hbm, ⟨29, _⟩ => ⟨S_, .f32⟩
  | .hbm, ⟨30, _⟩ => ⟨S50000, .f32⟩
  | .hbm, ⟨31, _⟩ => ⟨S50000, .f32⟩
  | .hbm, ⟨32, _⟩ => ⟨S_, .i32⟩
  | .hbm, ⟨33, _⟩ => ⟨S850000, .i32⟩
  | .hbm, ⟨34, _⟩ => ⟨S850000, .i1⟩
  | .hbm, ⟨35, _⟩ => ⟨S_, .i32⟩
  | .hbm, ⟨36, _⟩ => ⟨S850000, .i32⟩
  | .hbm, ⟨37, _⟩ => ⟨S850000, .i32⟩
  | .hbm, ⟨38, _⟩ => ⟨S850000, .i32⟩
  | .hbm, ⟨39, _⟩ => ⟨S850000x1, .i32⟩
  | .hbm, ⟨40, _⟩ => ⟨S850000, .f32⟩
  | .hbm, ⟨41, _⟩ => ⟨S_, .i32⟩
  | .hbm, ⟨42, _⟩ => ⟨S850000, .i32⟩
  | .hbm, ⟨43, _⟩ => ⟨S850000, .i1⟩
  | .hbm, ⟨44, _⟩ => ⟨S_, .i32⟩
  | .hbm, ⟨45, _⟩ => ⟨S850000, .i32⟩
  | .hbm, ⟨46, _⟩ => ⟨S850000, .i32⟩
  | .hbm, ⟨47, _⟩ => ⟨S850000, .i32⟩
  | .hbm, ⟨48, _⟩ => ⟨S850000x1, .i32⟩
  | .hbm, ⟨49, _⟩ => ⟨S850000, .f32⟩
  | .hbm, ⟨50, _⟩ => ⟨S850000, .f32⟩
  | .hbm, ⟨51, _⟩ => ⟨S850000x1, .f32⟩
  | .hbm, ⟨52, _⟩ => ⟨S50000x128, .f32⟩
  | .hbm, ⟨53, _⟩ => ⟨S85000x128, .f32⟩
  | .hbm, ⟨54, _⟩ => ⟨S85000x128, .f32⟩
  | .hbm, ⟨55, _⟩ => ⟨S85000x128, .f32⟩
  | .hbm, ⟨56, _⟩ => ⟨S85000x128, .f32⟩
  | .hbm, ⟨57, _⟩ => ⟨S85000x128, .f32⟩
  | .hbm, ⟨58, _⟩ => ⟨S85000x128, .f32⟩
  | .hbm, ⟨59, _⟩ => ⟨S85000x128, .f32⟩
  | .hbm, ⟨60, _⟩ => ⟨S85000x128, .f32⟩
  | .hbm, ⟨61, _⟩ => ⟨S85000x128, .f32⟩
  | .hbm, ⟨62, _⟩ => ⟨S85000x128, .f32⟩
  | .hbm, ⟨63, _⟩ => ⟨S850000x128, .f32⟩
  | .hbm, ⟨64, _⟩ => ⟨S850000x128, .f32⟩
  | .hbm, ⟨65, _⟩ => ⟨S850000x128, .f32⟩
  | .hbm, ⟨66, _⟩ => ⟨S_, .f32⟩
  | .hbm, ⟨67, _⟩ => ⟨S50000x128, .f32⟩
  | .hbm, ⟨68, _⟩ => ⟨S850000x1, .i32⟩
  | .hbm, ⟨69, _⟩ => ⟨S50000x128, .f32⟩
  | .hbm, ⟨70, _⟩ => ⟨S1x128, .f32⟩
  | .hbm, ⟨71, _⟩ => ⟨S50000x128, .f32⟩
  | .hbm, ⟨72, _⟩ => ⟨S85000x128, .f32⟩
  | .hbm, ⟨73, _⟩ => ⟨S85000x128, .f32⟩
  | .hbm, ⟨74, _⟩ => ⟨S85000x128, .f32⟩
  | .hbm, ⟨75, _⟩ => ⟨S85000x128, .f32⟩
  | .hbm, ⟨76, _⟩ => ⟨S85000x128, .f32⟩
  | .hbm, ⟨77, _⟩ => ⟨S85000x128, .f32⟩
  | .hbm, ⟨78, _⟩ => ⟨S85000x128, .f32⟩
  | .hbm, ⟨79, _⟩ => ⟨S85000x128, .f32⟩
  | .hbm, ⟨80, _⟩ => ⟨S85000x128, .f32⟩
  | .hbm, ⟨81, _⟩ => ⟨S85000x128, .f32⟩
  | .hbm, ⟨82, _⟩ => ⟨S850000x128, .f32⟩
  | .hbm, ⟨83, _⟩ => ⟨S850000x128, .f32⟩
  | .hbm, ⟨84, _⟩ => ⟨S850000x128, .f32⟩
  | .hbm, ⟨85, _⟩ => ⟨S_, .f32⟩
  | .hbm, ⟨86, _⟩ => ⟨S50000x128, .f32⟩
  | .hbm, ⟨87, _⟩ => ⟨S850000x1, .i32⟩
  | .hbm, ⟨88, _⟩ => ⟨S50000x128, .f32⟩
  | .hbm, ⟨89, _⟩ => ⟨S1x128, .f32⟩
  | .hbm, ⟨90, _⟩ => ⟨S50000x128, .f32⟩
  | .hbm, ⟨91, _⟩ => ⟨S100000x128, .f32⟩
  | .hbm, ⟨92, _⟩ => ⟨S100000x128, .f32⟩
  | .hbm, ⟨93, _⟩ => ⟨S100000x128, .f32⟩
  | .hbm, ⟨94, _⟩ => ⟨S100000x128, .f32⟩
  | .hbm, ⟨95, _⟩ => ⟨S100000x128, .f32⟩
  | .hbm, ⟨96, _⟩ => ⟨S100000x128, .f32⟩
  | .hbm, ⟨97, _⟩ => ⟨S100000x128, .f32⟩
  | .hbm, ⟨98, _⟩ => ⟨S100000x128, .f32⟩
  | .hbm, ⟨99, _⟩ => ⟨S800000x128, .f32⟩
  | .hbm, ⟨100, _⟩ => ⟨S100000x128, .f32⟩
  | .hbm, ⟨101, _⟩ => ⟨S100000x128, .f32⟩
  | .hbm, ⟨102, _⟩ => ⟨S100000x128, .f32⟩
  | .hbm, ⟨103, _⟩ => ⟨S100000x128, .f32⟩
  | .hbm, ⟨104, _⟩ => ⟨S100000x128, .f32⟩
  | .hbm, ⟨105, _⟩ => ⟨S100000x128, .f32⟩
  | .hbm, ⟨106, _⟩ => ⟨S100000x128, .f32⟩
  | .hbm, ⟨107, _⟩ => ⟨S100000x128, .f32⟩
  | .hbm, ⟨108, _⟩ => ⟨S800000x128, .f32⟩
  | .hbm, ⟨109, _⟩ => ⟨S128x2, .f32⟩
  | .hbm, ⟨110, _⟩ => ⟨S128x2, .f32⟩
  | .hbm, ⟨111, _⟩ => ⟨S1x2, .f32⟩
  | .hbm, ⟨112, _⟩ => ⟨S800000x2, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S8x128, .f32⟩
  | .local _ .vmem, ⟨6, _⟩ => ⟨S8x128, .f32⟩
  | .local _ .vmem, ⟨7, _⟩ => ⟨S8x128, .f32⟩
  | .local _ .vmem, ⟨8, _⟩ => ⟨S8x128, .f32⟩
  | .local _ .vmem, ⟨9, _⟩ => ⟨S8x128, .f32⟩
  | .local _ .vmem, ⟨10, _⟩ => ⟨S8x128, .f32⟩
  | .local _ .vmem, ⟨11, _⟩ => ⟨S8x128, .f32⟩
  | .local _ .vmem, ⟨12, _⟩ => ⟨S8x128, .f32⟩
  | .local _ .vmem, ⟨13, _⟩ => ⟨S8x128, .f32⟩
  | .local _ .vmem, ⟨14, _⟩ => ⟨S8x128, .f32⟩
  | .local _ .vmem, ⟨15, _⟩ => ⟨S8x128, .f32⟩
  | .local _ .vmem, ⟨16, _⟩ => ⟨S8x128, .f32⟩
  | .local _ .vmem, ⟨17, _⟩ => ⟨S8x128, .f32⟩
  | .local _ .vmem, ⟨18, _⟩ => ⟨S8x128, .f32⟩
  | .local _ .vmem, ⟨19, _⟩ => ⟨S8x128, .f32⟩
  | .local _ .vmem, ⟨20, _⟩ => ⟨S8x128, .f32⟩
  | .local _ .vmem, ⟨21, _⟩ => ⟨S8x128, .f32⟩
  | .local _ .vmem, ⟨22, _⟩ => ⟨S8x128, .f32⟩
  | .local _ .vmem, ⟨23, _⟩ => ⟨S8x128, .f32⟩
  | .local _ .vmem, ⟨24, _⟩ => ⟨S8x128, .f32⟩
  | .local _ .vmem, ⟨25, _⟩ => ⟨S5000x128, .f32⟩
  | .local _ .vmem, ⟨26, _⟩ => ⟨S5000x128, .f32⟩
  | .local _ .vmem, ⟨27, _⟩ => ⟨S1x128, .f32⟩
  | .local _ .vmem, ⟨28, _⟩ => ⟨S128x128, .f32⟩
  | .local _ .vmem, ⟨29, _⟩ => ⟨S5000x128, .f32⟩
  | .local _ .vmem, ⟨30, _⟩ => ⟨S5000x128, .f32⟩
  | .local _ .vmem, ⟨31, _⟩ => ⟨S8x128, .f32⟩
  | .local _ .vmem, ⟨32, _⟩ => ⟨S8x128, .f32⟩
  | .local _ .vmem, ⟨33, _⟩ => ⟨S8x128, .f32⟩
  | .local _ .vmem, ⟨34, _⟩ => ⟨S8x128, .f32⟩
  | .local _ .vmem, ⟨35, _⟩ => ⟨S8x128, .f32⟩
  | .local _ .vmem, ⟨36, _⟩ => ⟨S8x128, .f32⟩
  | .local _ .vmem, ⟨37, _⟩ => ⟨S8x128, .f32⟩
  | .local _ .vmem, ⟨38, _⟩ => ⟨S8x128, .f32⟩
  | .local _ .vmem, ⟨39, _⟩ => ⟨S8x128, .f32⟩
  | .local _ .vmem, ⟨40, _⟩ => ⟨S8x128, .f32⟩
  | .local _ .vmem, ⟨41, _⟩ => ⟨S8x128, .f32⟩
  | .local _ .vmem, ⟨42, _⟩ => ⟨S8x128, .f32⟩
  | .local _ .vmem, ⟨43, _⟩ => ⟨S8x128, .f32⟩
  | .local _ .vmem, ⟨44, _⟩ => ⟨S8x128, .f32⟩
  | .local _ .vmem, ⟨45, _⟩ => ⟨S8x128, .f32⟩
  | .local _ .vmem, ⟨46, _⟩ => ⟨S8x128, .f32⟩
  | .local _ .vmem, ⟨47, _⟩ => ⟨S8x128, .f32⟩
  | .local _ .vmem, ⟨48, _⟩ => ⟨S8x128, .f32⟩
  | .local _ .vmem, ⟨49, _⟩ => ⟨S8x128, .f32⟩
  | .local _ .vmem, ⟨50, _⟩ => ⟨S8x128, .f32⟩
  | .local _ .vmem, ⟨51, _⟩ => ⟨S5000x128, .f32⟩
  | .local _ .vmem, ⟨52, _⟩ => ⟨S5000x128, .f32⟩
  | .local _ .vmem, ⟨53, _⟩ => ⟨S1x128, .f32⟩
  | .local _ .vmem, ⟨54, _⟩ => ⟨S5000x128, .f32⟩
  | .local _ .vmem, ⟨55, _⟩ => ⟨S5000x128, .f32⟩
  | .local _ .vmem, ⟨56, _⟩ => ⟨S8x128, .f32⟩
  | .local _ .vmem, ⟨57, _⟩ => ⟨S8x128, .f32⟩
  | .local _ .vmem, ⟨58, _⟩ => ⟨S8x128, .f32⟩
  | .local _ .vmem, ⟨59, _⟩ => ⟨S8x128, .f32⟩
  | .local _ .vmem, ⟨60, _⟩ => ⟨S8x128, .f32⟩
  | .local _ .vmem, ⟨61, _⟩ => ⟨S8x128, .f32⟩
  | .local _ .vmem, ⟨62, _⟩ => ⟨S8x128, .f32⟩
  | .local _ .vmem, ⟨63, _⟩ => ⟨S8x128, .f32⟩
  | .local _ .vmem, ⟨64, _⟩ => ⟨S8x128, .f32⟩
  | .local _ .vmem, ⟨65, _⟩ => ⟨S8x128, .f32⟩
  | .local _ .vmem, ⟨66, _⟩ => ⟨S8x128, .f32⟩
  | .local _ .vmem, ⟨67, _⟩ => ⟨S8x128, .f32⟩
  | .local _ .vmem, ⟨68, _⟩ => ⟨S8x128, .f32⟩
  | .local _ .vmem, ⟨69, _⟩ => ⟨S8x128, .f32⟩
  | .local _ .vmem, ⟨70, _⟩ => ⟨S8x128, .f32⟩
  | .local _ .vmem, ⟨71, _⟩ => ⟨S8x128, .f32⟩
  | .local _ .vmem, ⟨72, _⟩ => ⟨S8x128, .f32⟩
  | .local _ .vmem, ⟨73, _⟩ => ⟨S8x128, .f32⟩
  | .local _ .vmem, ⟨74, _⟩ => ⟨S8x128, .f32⟩
  | .local _ .vmem, ⟨75, _⟩ => ⟨S8x128, .f32⟩
  | .local _ .vmem, ⟨76, _⟩ => ⟨S8x128, .f32⟩
  | .local _ .vmem, ⟨77, _⟩ => ⟨S8x128, .f32⟩
  | .local _ .vmem, ⟨78, _⟩ => ⟨S8x128, .f32⟩
  | .local _ .vmem, ⟨79, _⟩ => ⟨S8x128, .f32⟩
  | .local _ .vmem, ⟨80, _⟩ => ⟨S8x128, .f32⟩
  | .local _ .vmem, ⟨81, _⟩ => ⟨S8x128, .f32⟩
  | .local _ .vmem, ⟨82, _⟩ => ⟨S8x128, .f32⟩
  | .local _ .vmem, ⟨83, _⟩ => ⟨S8x128, .f32⟩
  | .local _ .vmem, ⟨84, _⟩ => ⟨S8x128, .f32⟩
  | .local _ .vmem, ⟨85, _⟩ => ⟨S8x128, .f32⟩
  | .local _ .vmem, ⟨86, _⟩ => ⟨S8x128, .f32⟩
  | .local _ .vmem, ⟨87, _⟩ => ⟨S8x128, .f32⟩
  | .local _ .vmem, ⟨88, _⟩ => ⟨S6400x128, .f32⟩
  | .local _ .vmem, ⟨89, _⟩ => ⟨S6400x128, .f32⟩
  | .local _ .vmem, ⟨90, _⟩ => ⟨S6400x128, .f32⟩
  | .local _ .vmem, ⟨91, _⟩ => ⟨S6400x128, .f32⟩
  | .local _ .vmem, ⟨92, _⟩ => ⟨S128x2, .f32⟩
  | .local _ .vmem, ⟨93, _⟩ => ⟨S128x2, .f32⟩
  | .local _ .vmem, ⟨94, _⟩ => ⟨S1x2, .f32⟩
  | .local _ .vmem, ⟨95, _⟩ => ⟨S6400x2, .f32⟩
  | .local _ .vmem, ⟨96, _⟩ => ⟨S6400x2, .f32⟩
  | .local _ .smem, ⟨0, _⟩ => ⟨S85000, .i32⟩
  | .local _ .smem, ⟨1, _⟩ => ⟨S85000, .i32⟩
  | .local _ .smem, ⟨2, _⟩ => ⟨S85000, .i32⟩
  | .local _ .smem, ⟨3, _⟩ => ⟨S85000, .i32⟩
  | .local _ .smem, ⟨4, _⟩ => ⟨S85000, .i32⟩
  | .local _ .smem, ⟨5, _⟩ => ⟨S85000, .i32⟩
  | .local _ .smem, ⟨6, _⟩ => ⟨S85000, .i32⟩
  | .local _ .smem, ⟨7, _⟩ => ⟨S85000, .i32⟩
  | .local _ .smem, ⟨8, _⟩ => ⟨S85000, .i32⟩
  | .local _ .smem, ⟨9, _⟩ => ⟨S85000, .i32⟩
  | .local _ .smem, ⟨10, _⟩ => ⟨S85000, .i32⟩
  | .local _ .smem, ⟨11, _⟩ => ⟨S85000, .i32⟩
  | .local _ .smem, ⟨12, _⟩ => ⟨S85000, .i32⟩
  | .local _ .smem, ⟨13, _⟩ => ⟨S85000, .i32⟩
  | .local _ .smem, ⟨14, _⟩ => ⟨S85000, .i32⟩
  | .local _ .smem, ⟨15, _⟩ => ⟨S85000, .i32⟩
  | .local _ .smem, ⟨16, _⟩ => ⟨S85000, .i32⟩
  | .local _ .smem, ⟨17, _⟩ => ⟨S85000, .i32⟩
  | .local _ .smem, ⟨18, _⟩ => ⟨S85000, .i32⟩
  | .local _ .smem, ⟨19, _⟩ => ⟨S85000, .i32⟩
  | .local _ .smem, ⟨20, _⟩ => ⟨S100000, .i32⟩
  | .local _ .smem, ⟨21, _⟩ => ⟨S100000, .i32⟩
  | .local _ .smem, ⟨22, _⟩ => ⟨S100000, .i32⟩
  | .local _ .smem, ⟨23, _⟩ => ⟨S100000, .i32⟩
  | .local _ .smem, ⟨24, _⟩ => ⟨S100000, .i32⟩
  | .local _ .smem, ⟨25, _⟩ => ⟨S100000, .i32⟩
  | .local _ .smem, ⟨26, _⟩ => ⟨S100000, .i32⟩
  | .local _ .smem, ⟨27, _⟩ => ⟨S100000, .i32⟩
  | .local _ .smem, ⟨28, _⟩ => ⟨S100000, .i32⟩
  | .local _ .smem, ⟨29, _⟩ => ⟨S100000, .i32⟩
  | .local _ .smem, ⟨30, _⟩ => ⟨S100000, .i32⟩
  | .local _ .smem, ⟨31, _⟩ => ⟨S100000, .i32⟩
  | .local _ .smem, ⟨32, _⟩ => ⟨S100000, .i32⟩
  | .local _ .smem, ⟨33, _⟩ => ⟨S100000, .i32⟩
  | .local _ .smem, ⟨34, _⟩ => ⟨S100000, .i32⟩
  | .local _ .smem, ⟨35, _⟩ => ⟨S100000, .i32⟩
  | _, _ => ⟨S50000x128, .f32⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_2 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_3 (i : Nat) : Bool := match i % 128 with
  | 0 => true
  | _ => false

abbrev dmaSemScopedAt (i : Nat) : Bool := match i / 128 with
  | 0 => dmaSemScopedAt0_0 i
  | 1 => dmaSemScopedAt0_1 i
  | 2 => dmaSemScopedAt0_2 i
  | 3 => dmaSemScopedAt0_3 i
  | _ => false

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | .vmem, ⟨84, _⟩ => true
  | .vmem, ⟨85, _⟩ => true
  | .vmem, ⟨86, _⟩ => true
  | .vmem, ⟨87, _⟩ => true
  | .vmem, ⟨88, _⟩ => true
  | .vmem, ⟨89, _⟩ => true
  | .vmem, ⟨90, _⟩ => true
  | .vmem, ⟨91, _⟩ => true
  | .vmem, ⟨92, _⟩ => true
  | .vmem, ⟨93, _⟩ => true
  | .vmem, ⟨94, _⟩ => true
  | .vmem, ⟨95, _⟩ => true
  | .vmem, ⟨96, _⟩ => true
  | _, _ => false

abbrev semScoped : Fin 0 → Bool
  | ⟨_, h⟩ => absurd h (Nat.not_lt_zero _)

abbrev dmaSemScoped : Fin 385 → Bool
  | ⟨i, _⟩ => dmaSemScopedAt i

abbrev sig : RefSig :=
  ofTc nBuf bufTy 0 385 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_3 : Ref sig .tc := ⟨.hbm, 28, rfl⟩
abbrev main_call0_v0 : Ref sig .tc := ⟨.hbm, 29, rfl⟩
abbrev main_call0_v1 : Ref sig .tc := ⟨.hbm, 30, rfl⟩
abbrev main_v16 : Ref sig .tc := ⟨.hbm, 31, rfl⟩
abbrev main_c : Ref sig .tc := ⟨.hbm, 32, rfl⟩
abbrev main_v17 : Ref sig .tc := ⟨.hbm, 33, rfl⟩
abbrev main_v18 : Ref sig .tc := ⟨.hbm, 34, rfl⟩
abbrev main_c_4 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_c_6 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v35 : Ref sig .tc := ⟨.hbm, 53, rfl⟩
abbrev main_v37 : Ref sig .tc := ⟨.hbm, 54, rfl⟩
abbrev main_v39 : Ref sig .tc := ⟨.hbm, 55, rfl⟩
abbrev main_v41 : Ref sig .tc := ⟨.hbm, 56, rfl⟩
abbrev main_v43 : Ref sig .tc := ⟨.hbm, 57, rfl⟩
abbrev main_v45 : Ref sig .tc := ⟨.hbm, 58, rfl⟩
abbrev main_v47 : Ref sig .tc := ⟨.hbm, 59, rfl⟩
abbrev main_v49 : Ref sig .tc := ⟨.hbm, 60, rfl⟩
abbrev main_v51 : Ref sig .tc := ⟨.hbm, 61, rfl⟩
abbrev main_v53 : Ref sig .tc := ⟨.hbm, 62, rfl⟩
abbrev main_v54 : Ref sig .tc := ⟨.hbm, 63, rfl⟩
abbrev main_v55 : Ref sig .tc := ⟨.hbm, 64, rfl⟩
abbrev main_v56 : Ref sig .tc := ⟨.hbm, 65, rfl⟩
abbrev main_cst_7 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v63 : Ref sig .tc := ⟨.hbm, 72, rfl⟩
abbrev main_v65 : Ref sig .tc := ⟨.hbm, 73, rfl⟩
abbrev main_v67 : Ref sig .tc := ⟨.hbm, 74, rfl⟩
abbrev main_v69 : Ref sig .tc := ⟨.hbm, 75, rfl⟩
abbrev main_v71 : Ref sig .tc := ⟨.hbm, 76, rfl⟩
abbrev main_v73 : Ref sig .tc := ⟨.hbm, 77, rfl⟩
abbrev main_v75 : Ref sig .tc := ⟨.hbm, 78, rfl⟩
abbrev main_v77 : Ref sig .tc := ⟨.hbm, 79, rfl⟩
abbrev main_v79 : Ref sig .tc := ⟨.hbm, 80, rfl⟩
abbrev main_v81 : Ref sig .tc := ⟨.hbm, 81, rfl⟩
abbrev main_v82 : Ref sig .tc := ⟨.hbm, 82, rfl⟩
abbrev main_v83 : Ref sig .tc := ⟨.hbm, 83, rfl⟩
abbrev main_v84 : Ref sig .tc := ⟨.hbm, 84, rfl⟩
abbrev main_cst_8 : Ref sig .tc := ⟨.hbm, 85, rfl⟩
abbrev main_v85 : Ref sig .tc := ⟨.hbm, 86, rfl⟩
abbrev main_v86 : Ref sig .tc := ⟨.hbm, 87, rfl⟩
abbrev main_v87 : Ref sig .tc := ⟨.hbm, 88, rfl⟩
abbrev main_v88 : Ref sig .tc := ⟨.hbm, 89, rfl⟩
abbrev main_v89 : Ref sig .tc := ⟨.hbm, 90, rfl⟩
abbrev main_v91 : Ref sig .tc := ⟨.hbm, 91, rfl⟩
abbrev main_v93 : Ref sig .tc := ⟨.hbm, 92, rfl⟩
abbrev main_v95 : Ref sig .tc := ⟨.hbm, 93, rfl⟩
abbrev main_v97 : Ref sig .tc := ⟨.hbm, 94, rfl⟩
abbrev main_v99 : Ref sig .tc := ⟨.hbm, 95, rfl⟩
abbrev main_v101 : Ref sig .tc := ⟨.hbm, 96, rfl⟩
abbrev main_v103 : Ref sig .tc := ⟨.hbm, 97, rfl⟩
abbrev main_v105 : Ref sig .tc := ⟨.hbm, 98, rfl⟩
abbrev main_v106 : Ref sig .tc := ⟨.hbm, 99, rfl⟩
abbrev main_v108 : Ref sig .tc := ⟨.hbm, 100, rfl⟩
abbrev main_v110 : Ref sig .tc := ⟨.hbm, 101, rfl⟩
abbrev main_v112 : Ref sig .tc := ⟨.hbm, 102, rfl⟩
abbrev main_v114 : Ref sig .tc := ⟨.hbm, 103, rfl⟩
abbrev main_v116 : Ref sig .tc := ⟨.hbm, 104, rfl⟩
abbrev main_v118 : Ref sig .tc := ⟨.hbm, 105, rfl⟩
abbrev main_v120 : Ref sig .tc := ⟨.hbm, 106, rfl⟩
abbrev main_v122 : Ref sig .tc := ⟨.hbm, 107, rfl⟩
abbrev main_v123 : Ref sig .tc := ⟨.hbm, 108, rfl⟩
abbrev main_v124 : Ref sig .tc := ⟨.hbm, 109, rfl⟩
abbrev main_v125 : Ref sig .tc := ⟨.hbm, 110, rfl⟩
abbrev main_v126 : Ref sig .tc := ⟨.hbm, 111, rfl⟩
abbrev main_v127 : Ref sig .tc := ⟨.hbm, 112, rfl⟩
abbrev main_v34 : Ref sig .tc := ⟨.smem, 0, rfl⟩
abbrev main_v36 : Ref sig .tc := ⟨.smem, 1, rfl⟩
abbrev main_v38 : Ref sig .tc := ⟨.smem, 2, rfl⟩
abbrev main_v40 : Ref sig .tc := ⟨.smem, 3, rfl⟩
abbrev main_v42 : Ref sig .tc := ⟨.smem, 4, rfl⟩
abbrev main_v44 : Ref sig .tc := ⟨.smem, 5, rfl⟩
abbrev main_v46 : Ref sig .tc := ⟨.smem, 6, rfl⟩
abbrev main_v48 : Ref sig .tc := ⟨.smem, 7, rfl⟩
abbrev main_v50 : Ref sig .tc := ⟨.smem, 8, rfl⟩
abbrev main_v52 : Ref sig .tc := ⟨.smem, 9, rfl⟩
abbrev main_v62 : Ref sig .tc := ⟨.smem, 10, rfl⟩
abbrev main_v64 : Ref sig .tc := ⟨.smem, 11, rfl⟩
abbrev main_v66 : Ref sig .tc := ⟨.smem, 12, rfl⟩
abbrev main_v68 : Ref sig .tc := ⟨.smem, 13, rfl⟩
abbrev main_v70 : Ref sig .tc := ⟨.smem, 14, rfl⟩
abbrev main_v72 : Ref sig .tc := ⟨.smem, 15, rfl⟩
abbrev main_v74 : Ref sig .tc := ⟨.smem, 16, rfl⟩
abbrev main_v76 : Ref sig .tc := ⟨.smem, 17, rfl⟩
abbrev main_v78 : Ref sig .tc := ⟨.smem, 18, rfl⟩
abbrev main_v80 : Ref sig .tc := ⟨.smem, 19, rfl⟩
abbrev main_v90 : Ref sig .tc := ⟨.smem, 20, rfl⟩
abbrev main_v92 : Ref sig .tc := ⟨.smem, 21, rfl⟩
abbrev main_v94 : Ref sig .tc := ⟨.smem, 22, rfl⟩
abbrev main_v96 : Ref sig .tc := ⟨.smem, 23, rfl⟩
abbrev main_v98 : Ref sig .tc := ⟨.smem, 24, rfl⟩
abbrev main_v100 : Ref sig .tc := ⟨.smem, 25, rfl⟩
abbrev main_v102 : Ref sig .tc := ⟨.smem, 26, rfl⟩
abbrev main_v104 : Ref sig .tc := ⟨.smem, 27, rfl⟩
abbrev main_v107 : Ref sig .tc := ⟨.smem, 28, rfl⟩
abbrev main_v109 : Ref sig .tc := ⟨.smem, 29, rfl⟩
abbrev main_v111 : Ref sig .tc := ⟨.smem, 30, rfl⟩
abbrev main_v113 : Ref sig .tc := ⟨.smem, 31, rfl⟩
abbrev main_v115 : Ref sig .tc := ⟨.smem, 32, rfl⟩
abbrev main_v117 : Ref sig .tc := ⟨.smem, 33, rfl⟩
abbrev main_v119 : Ref sig .tc := ⟨.smem, 34, rfl⟩
abbrev main_v121 : Ref sig .tc := ⟨.smem, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc2_stg0_0 : Ref sig .tc := ⟨.vmem, 7, rfl⟩
abbrev cc2_stg0_1 : Ref sig .tc := ⟨.vmem, 8, rfl⟩
abbrev cc3_stg0_0 : Ref sig .tc := ⟨.vmem, 9, rfl⟩
abbrev cc3_stg0_1 : Ref sig .tc := ⟨.vmem, 10, rfl⟩
abbrev cc4_stg0_0 : Ref sig .tc := ⟨.vmem, 11, rfl⟩
abbrev cc4_stg0_1 : Ref sig .tc := ⟨.vmem, 12, rfl⟩
abbrev cc5_stg0_0 : Ref sig .tc := ⟨.vmem, 13, rfl⟩
abbrev cc5_stg0_1 : Ref sig .tc := ⟨.vmem, 14, rfl⟩
abbrev cc6_stg0_0 : Ref sig .tc := ⟨.vmem, 15, rfl⟩
abbrev cc6_stg0_1 : Ref sig .tc := ⟨.vmem, 16, rfl⟩
abbrev cc7_stg0_0 : Ref sig .tc := ⟨.vmem, 17, rfl⟩
abbrev cc7_stg0_1 : Ref sig .tc := ⟨.vmem, 18, rfl⟩
abbrev cc8_stg0_0 : Ref sig .tc := ⟨.vmem, 19, rfl⟩
abbrev cc8_stg0_1 : Ref sig .tc := ⟨.vmem, 20, rfl⟩
abbrev cc9_stg0_0 : Ref sig .tc := ⟨.vmem, 21, rfl⟩
abbrev cc9_stg0_1 : Ref sig .tc := ⟨.vmem, 22, rfl⟩
abbrev cc10_stg0_0 : Ref sig .tc := ⟨.vmem, 23, rfl⟩
abbrev cc10_stg0_1 : Ref sig .tc := ⟨.vmem, 24, rfl⟩
abbrev cc11_stg0_0 : Ref sig .tc := ⟨.vmem, 25, rfl⟩
abbrev cc11_stg0_1 : Ref sig .tc := ⟨.vmem, 26, rfl⟩
abbrev cc11_stg1_0 : Ref sig .tc := ⟨.vmem, 27, rfl⟩
abbrev cc11_stg2_0 : Ref sig .tc := ⟨.vmem, 28, rfl⟩
abbrev cc11_stg3_0 : Ref sig .tc := ⟨.vmem, 29, rfl⟩
abbrev cc11_stg3_1 : Ref sig .tc := ⟨.vmem, 30, rfl⟩
abbrev cc12_stg0_0 : Ref sig .tc := ⟨.vmem, 31, rfl⟩
abbrev cc12_stg0_1 : Ref sig .tc := ⟨.vmem, 32, rfl⟩
abbrev cc13_stg0_0 : Ref sig .tc := ⟨.vmem, 33, rfl⟩
abbrev cc13_stg0_1 : Ref sig .tc := ⟨.vmem, 34, rfl⟩
abbrev cc14_stg0_0 : Ref sig .tc := ⟨.vmem, 35, rfl⟩
abbrev cc14_stg0_1 : Ref sig .tc := ⟨.vmem, 36, rfl⟩
abbrev cc15_stg0_0 : Ref sig .tc := ⟨.vmem, 37, rfl⟩
abbrev cc15_stg0_1 : Ref sig .tc := ⟨.vmem, 38, rfl⟩
abbrev cc16_stg0_0 : Ref sig .tc := ⟨.vmem, 39, rfl⟩
abbrev cc16_stg0_1 : Ref sig .tc := ⟨.vmem, 40, rfl⟩
abbrev cc17_stg0_0 : Ref sig .tc := ⟨.vmem, 41, rfl⟩
abbrev cc17_stg0_1 : Ref sig .tc := ⟨.vmem, 42, rfl⟩
abbrev cc18_stg0_0 : Ref sig .tc := ⟨.vmem, 43, rfl⟩
abbrev cc18_stg0_1 : Ref sig .tc := ⟨.vmem, 44, rfl⟩
abbrev cc19_stg0_0 : Ref sig .tc := ⟨.vmem, 45, rfl⟩
abbrev cc19_stg0_1 : Ref sig .tc := ⟨.vmem, 46, rfl⟩
abbrev cc20_stg0_0 : Ref sig .tc := ⟨.vmem, 47, rfl⟩
abbrev cc20_stg0_1 : Ref sig .tc := ⟨.vmem, 48, rfl⟩
abbrev cc21_stg0_0 : Ref sig .tc := ⟨.vmem, 49, rfl⟩
abbrev cc21_stg0_1 : Ref sig .tc := ⟨.vmem, 50, rfl⟩
abbrev cc22_stg0_0 : Ref sig .tc := ⟨.vmem, 51, rfl⟩
abbrev cc22_stg0_1 : Ref sig .tc := ⟨.vmem, 52, rfl⟩
abbrev cc22_stg1_0 : Ref sig .tc := ⟨.vmem, 53, rfl⟩
abbrev cc22_stg2_0 : Ref sig .tc := ⟨.vmem, 54, rfl⟩
abbrev cc22_stg2_1 : Ref sig .tc := ⟨.vmem, 55, rfl⟩
abbrev cc23_stg0_0 : Ref sig .tc := ⟨.vmem, 56, rfl⟩
abbrev cc23_stg0_1 : Ref sig .tc := ⟨.vmem, 57, rfl⟩
abbrev cc24_stg0_0 : Ref sig .tc := ⟨.vmem, 58, rfl⟩
abbrev cc24_stg0_1 : Ref sig .tc := ⟨.vmem, 59, rfl⟩
abbrev cc25_stg0_0 : Ref sig .tc := ⟨.vmem, 60, rfl⟩
abbrev cc25_stg0_1 : Ref sig .tc := ⟨.vmem, 61, rfl⟩
abbrev cc26_stg0_0 : Ref sig .tc := ⟨.vmem, 62, rfl⟩
abbrev cc26_stg0_1 : Ref sig .tc := ⟨.vmem, 63, rfl⟩
abbrev cc27_stg0_0 : Ref sig .tc := ⟨.vmem, 64, rfl⟩
abbrev cc27_stg0_1 : Ref sig .tc := ⟨.vmem, 65, rfl⟩
abbrev cc28_stg0_0 : Ref sig .tc := ⟨.vmem, 66, rfl⟩
abbrev cc28_stg0_1 : Ref sig .tc := ⟨.vmem, 67, rfl⟩
abbrev cc29_stg0_0 : Ref sig .tc := ⟨.vmem, 68, rfl⟩
abbrev cc29_stg0_1 : Ref sig .tc := ⟨.vmem, 69, rfl⟩
abbrev cc30_stg0_0 : Ref sig .tc := ⟨.vmem, 70, rfl⟩
abbrev cc30_stg0_1 : Ref sig .tc := ⟨.vmem, 71, rfl⟩
abbrev cc31_stg0_0 : Ref sig .tc := ⟨.vmem, 72, rfl⟩
abbrev cc31_stg0_1 : Ref sig .tc := ⟨.vmem, 73, rfl⟩
abbrev cc32_stg0_0 : Ref sig .tc := ⟨.vmem, 74, rfl⟩
abbrev cc32_stg0_1 : Ref sig .tc := ⟨.vmem, 75, rfl⟩
abbrev cc33_stg0_0 : Ref sig .tc := ⟨.vmem, 76, rfl⟩
abbrev cc33_stg0_1 : Ref sig .tc := ⟨.vmem, 77, rfl⟩
abbrev cc34_stg0_0 : Ref sig .tc := ⟨.vmem, 78, rfl⟩
abbrev cc34_stg0_1 : Ref sig .tc := ⟨.vmem, 79, rfl⟩
abbrev cc35_stg0_0 : Ref sig .tc := ⟨.vmem, 80, rfl⟩
abbrev cc35_stg0_1 : Ref sig .tc := ⟨.vmem, 81, rfl⟩
abbrev cc36_stg0_0 : Ref sig .tc := ⟨.vmem, 82, rfl⟩
abbrev cc36_stg0_1 : Ref sig .tc := ⟨.vmem, 83, rfl⟩
abbrev cc37_stg0_0 : Ref sig .tc := ⟨.vmem, 84, rfl⟩
abbrev cc37_stg0_1 : Ref sig .tc := ⟨.vmem, 85, rfl⟩
abbrev cc38_stg0_0 : Ref sig .tc := ⟨.vmem, 86, rfl⟩
abbrev cc38_stg0_1 : Ref sig .tc := ⟨.vmem, 87, rfl⟩
abbrev cc39_stg0_0 : Ref sig .tc := ⟨.vmem, 88, rfl⟩
abbrev cc39_stg0_1 : Ref sig .tc := ⟨.vmem, 89, rfl⟩
abbrev cc39_stg1_0 : Ref sig .tc := ⟨.vmem, 90, rfl⟩
abbrev cc39_stg1_1 : Ref sig .tc := ⟨.vmem, 91, rfl⟩
abbrev cc39_stg2_0 : Ref sig .tc := ⟨.vmem, 92, rfl⟩
abbrev cc39_stg3_0 : Ref sig .tc := ⟨.vmem, 93, rfl⟩
abbrev cc39_stg4_0 : Ref sig .tc := ⟨.vmem, 94, rfl⟩
abbrev cc39_stg5_0 : Ref sig .tc := ⟨.vmem, 95, rfl⟩
abbrev cc39_stg5_1 : Ref sig .tc := ⟨.vmem, 96, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc2_sem0_0 : DmaSem sig := 15
abbrev cc2_sem0_1 : DmaSem sig := 16
abbrev cc3_sem0_0 : DmaSem sig := 25
abbrev cc3_sem0_1 : DmaSem sig := 26
abbrev cc4_sem0_0 : DmaSem sig := 35
abbrev cc4_sem0_1 : DmaSem sig := 36
abbrev cc5_sem0_0 : DmaSem sig := 45
abbrev cc5_sem0_1 : DmaSem sig := 46
abbrev cc6_sem0_0 : DmaSem sig := 55
abbrev cc6_sem0_1 : DmaSem sig := 56
abbrev cc7_sem0_0 : DmaSem sig := 65
abbrev cc7_sem0_1 : DmaSem sig := 66
abbrev cc8_sem0_0 : DmaSem sig := 75
abbrev cc8_sem0_1 : DmaSem sig := 76
abbrev cc9_sem0_0 : DmaSem sig := 85
abbrev cc9_sem0_1 : DmaSem sig := 86
abbrev cc10_sem0_0 : DmaSem sig := 95
abbrev cc10_sem0_1 : DmaSem sig := 96
abbrev cc11_sem0_0 : DmaSem sig := 105
abbrev cc11_sem0_1 : DmaSem sig := 106
abbrev cc11_sem1_0 : DmaSem sig := 107
abbrev cc11_sem2_0 : DmaSem sig := 108
abbrev cc11_sem3_0 : DmaSem sig := 109
abbrev cc11_sem3_1 : DmaSem sig := 110
abbrev cc12_sem0_0 : DmaSem sig := 111
abbrev cc12_sem0_1 : DmaSem sig := 112
abbrev cc13_sem0_0 : DmaSem sig := 121
abbrev cc13_sem0_1 : DmaSem sig := 122
abbrev cc14_sem0_0 : DmaSem sig := 131
abbrev cc14_sem0_1 : DmaSem sig := 132
abbrev cc15_sem0_0 : DmaSem sig := 141
abbrev cc15_sem0_1 : DmaSem sig := 142
abbrev cc16_sem0_0 : DmaSem sig := 151
abbrev cc16_sem0_1 : DmaSem sig := 152
abbrev cc17_sem0_0 : DmaSem sig := 161
abbrev cc17_sem0_1 : DmaSem sig := 162
abbrev cc18_sem0_0 : DmaSem sig := 171
abbrev cc18_sem0_1 : DmaSem sig := 172
abbrev cc19_sem0_0 : DmaSem sig := 181
abbrev cc19_sem0_1 : DmaSem sig := 182
abbrev cc20_sem0_0 : DmaSem sig := 191
abbrev cc20_sem0_1 : DmaSem sig := 192
abbrev cc21_sem0_0 : DmaSem sig := 201
abbrev cc21_sem0_1 : DmaSem sig := 202
abbrev cc22_sem0_0 : DmaSem sig := 211
abbrev cc22_sem0_1 : DmaSem sig := 212
abbrev cc22_sem1_0 : DmaSem sig := 213
abbrev cc22_sem2_0 : DmaSem sig := 214
abbrev cc22_sem2_1 : DmaSem sig := 215
abbrev cc23_sem0_0 : DmaSem sig := 216
abbrev cc23_sem0_1 : DmaSem sig := 217
abbrev cc24_sem0_0 : DmaSem sig := 226
abbrev cc24_sem0_1 : DmaSem sig := 227
abbrev cc25_sem0_0 : DmaSem sig := 236
abbrev cc25_sem0_1 : DmaSem sig := 237
abbrev cc26_sem0_0 : DmaSem sig := 246
abbrev cc26_sem0_1 : DmaSem sig := 247
abbrev cc27_sem0_0 : DmaSem sig := 256
abbrev cc27_sem0_1 : DmaSem sig := 257
abbrev cc28_sem0_0 : DmaSem sig := 266
abbrev cc28_sem0_1 : DmaSem sig := 267
abbrev cc29_sem0_0 : DmaSem sig := 276
abbrev cc29_sem0_1 : DmaSem sig := 277
abbrev cc30_sem0_0 : DmaSem sig := 286
abbrev cc30_sem0_1 : DmaSem sig := 287
abbrev cc31_sem0_0 : DmaSem sig := 296
abbrev cc31_sem0_1 : DmaSem sig := 297
abbrev cc32_sem0_0 : DmaSem sig := 306
abbrev cc32_sem0_1 : DmaSem sig := 307
abbrev cc33_sem0_0 : DmaSem sig := 316
abbrev cc33_sem0_1 : DmaSem sig := 317
abbrev cc34_sem0_0 : DmaSem sig := 326
abbrev cc34_sem0_1 : DmaSem sig := 327
abbrev cc35_sem0_0 : DmaSem sig := 336
abbrev cc35_sem0_1 : DmaSem sig := 337
abbrev cc36_sem0_0 : DmaSem sig := 346
abbrev cc36_sem0_1 : DmaSem sig := 347
abbrev cc37_sem0_0 : DmaSem sig := 356
abbrev cc37_sem0_1 : DmaSem sig := 357
abbrev cc38_sem0_0 : DmaSem sig := 366
abbrev cc38_sem0_1 : DmaSem sig := 367
abbrev cc39_sem0_0 : DmaSem sig := 376
abbrev cc39_sem0_1 : DmaSem sig := 377
abbrev cc39_sem1_0 : DmaSem sig := 378
abbrev cc39_sem1_1 : DmaSem sig := 379
abbrev cc39_sem2_0 : DmaSem sig := 380
abbrev cc39_sem3_0 : DmaSem sig := 381
abbrev cc39_sem4_0 : DmaSem sig := 382
abbrev cc39_sem5_0 : DmaSem sig := 383
abbrev cc39_sem5_1 : DmaSem sig := 384

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10625], ![false]⟩

abbrev pre1 : Pipeline.Prefetch sig := ⟨1, ![main_v34.idx], fun | 0 => main_v34.names | ⟨_ + 1, h⟩ => absurd h (Nat.not_lt.2 (Nat.le_add_left _ _)), fun | 0 => rfl | ⟨_ + 1, h⟩ => absurd h (Nat.not_lt.2 (Nat.le_add_left _ _))⟩

def k1_off1 (i : grid1.Coords) : Fin 1 → Nat :=
  let arg0 : BitVec 32 := BitVec.ofNat 32 (i 0).val
  let c8_i32 : BitVec 32 := 8#32
  let v0 : BitVec 32 := Scalar.muli arg0 c8_i32
  let c0_i32 : BitVec 32 := 0#32
  let v1 : BitVec 32 := Scalar.addi v0 c0_i32
  let v2 : Index := Scalar.indexCast v1
  ![v2.toNat]
def k1_off2 (v3 : BitVec 32) : Fin 2 → Nat :=
  let c0_i32_3 : BitVec 32 := 0#32
  ![v3.toNat, 0]

def k1_off3 (i : grid1.Coords) : Fin 1 → Nat :=
  let arg0 : BitVec 32 := BitVec.ofNat 32 (i 0).val
  let c8_i32 : BitVec 32 := 8#32
  let v0 : BitVec 32 := Scalar.muli arg0 c8_i32
  let c1_i32 : BitVec 32 := 1#32
  let v10 : BitVec 32 := Scalar.addi v0 c1_i32
  let v11 : Index := Scalar.indexCast v10
  ![v11.toNat]
def k1_off4 (v12 : BitVec 32) : Fin 2 → Nat :=
  let c0_i32_7 : BitVec 32 := 0#32
  ![v12.toNat, 0]

def k1_off5 (i : grid1.Coords) : Fin 1 → Nat :=
  let arg0 : BitVec 32 := BitVec.ofNat 32 (i 0).val
  let c8_i32 : BitVec 32 := 8#32
  let v0 : BitVec 32 := Scalar.muli arg0 c8_i32
  let c2_i32 : BitVec 32 := 2#32
  let v19 : BitVec 32 := Scalar.addi v0 c2_i32
  let v20 : Index := Scalar.indexCast v19
  ![v20.toNat]
def k1_off6 (v21 : BitVec 32) : Fin 2 → Nat :=
  let c0_i32_11 : BitVec 32 := 0#32
  ![v21.toNat, 0]

def k1_off7 (i : grid1.Coords) : Fin 1 → Nat :=
  let arg0 : BitVec 32 := BitVec.ofNat 32 (i 0).val
  let c8_i32 : BitVec 32 := 8#32
  let v0 : BitVec 32 := Scalar.muli arg0 c8_i32
  let c3_i32 : BitVec 32 := 3#32
  let v28 : BitVec 32 := Scalar.addi v0 c3_i32
  let v29 : Index := Scalar.indexCast v28
  ![v29.toNat]
def k1_off8 (v30 : BitVec 32) : Fin 2 → Nat :=
  let c0_i32_15 : BitVec 32 := 0#32
  ![v30.toNat, 0]

def k1_off9 (i : grid1.Coords) : Fin 1 → Nat :=
  let arg0 : BitVec 32 := BitVec.ofNat 32 (i 0).val
  let c8_i32 : BitVec 32 := 8#32
  let v0 : BitVec 32 := Scalar.muli arg0 c8_i32
  let c4_i32 : BitVec 32 := 4#32
  let v37 : BitVec 32 := Scalar.addi v0 c4_i32
  let v38 : Index := Scalar.indexCast v37
  ![v38.toNat]
def k1_off10 (v39 : BitVec 32) : Fin 2 → Nat :=
  let c0_i32_19 : BitVec 32 := 0#32
  ![v39.toNat, 0]

def k1_off11 (i : grid1.Coords) : Fin 1 → Nat :=
  let arg0 : BitVec 32 := BitVec.ofNat 32 (i 0).val
  let c8_i32 : BitVec 32 := 8#32
  let v0 : BitVec 32 := Scalar.muli arg0 c8_i32
  let c5_i32 : BitVec 32 := 5#32
  let v46 : BitVec 32 := Scalar.addi v0 c5_i32
  let v47 : Index := Scalar.indexCast v46
  ![v47.toNat]
def k1_off12 (v48 : BitVec 32) : Fin 2 → Nat :=
  let c0_i32_23 : BitVec 32 := 0#32
  ![v48.toNat, 0]

def k1_off13 (i : grid1.Coords) : Fin 1 → Nat :=
  let arg0 : BitVec 32 := BitVec.ofNat 32 (i 0).val
  let c8_i32 : BitVec 32 := 8#32
  let v0 : BitVec 32 := Scalar.muli arg0 c8_i32
  let c6_i32 : BitVec 32 := 6#32
  let v55 : BitVec 32 := Scalar.addi v0 c6_i32
  let v56 : Index := Scalar.indexCast v55
  ![v56.toNat]
def k1_off14 (v57 : BitVec 32) : Fin 2 → Nat :=
  let c0_i32_27 : BitVec 32 := 0#32
  ![v57.toNat, 0]

def k1_off15 (i : grid1.Coords) : Fin 1 → Nat :=
  let arg0 : BitVec 32 := BitVec.ofNat 32 (i 0).val
  let c8_i32 : BitVec 32 := 8#32
  let v0 : BitVec 32 := Scalar.muli arg0 c8_i32
  let c7_i32 : BitVec 32 := 7#32
  let v64 : BitVec 32 := Scalar.addi v0 c7_i32
  let v65 : Index := Scalar.indexCast v64
  ![v65.toNat]
def k1_off16 (v66 : BitVec 32) : Fin 2 → Nat :=
  let c0_i32_31 : BitVec 32 := 0#32
  ![v66.toNat, 0]

def k1_chk8 (v66 : BitVec 32) : Prop :=
  (∀ a, (k1_off16 v66) a + S1x128.size a ≤ S50000x128.size a)
instance k1_chk8.dec : ∀ (v66 : BitVec 32), Decidable (k1_chk8 v66) := fun v66 => decidable_of_iff' _ (Iff.of_eq (k1_chk8.eq_1 v66))
theorem k1_off16_inb : ∀ (v66 : BitVec 32) (k1_hw8 : k1_chk8 v66), ∀ a, (k1_off16 v66) a + S1x128.size a ≤ S50000x128.size a := fun v66 k1_hw8 => k1_hw8

def k1_off17 (v3 : BitVec 32) : Fin 2 → Nat :=
  let c0_i32_35 : BitVec 32 := 0#32
  ![v3.toNat, 0]

def k1_chk1 (v3 : BitVec 32) : Prop :=
  (∀ a, (k1_off2 v3) a + S1x128.size a ≤ S50000x128.size a) ∧
  (∀ a, (k1_off17 v3) a + S1x128.size a ≤ S50000x128.size a)
instance k1_chk1.dec : ∀ (v3 : BitVec 32), Decidable (k1_chk1 v3) := fun v3 => decidable_of_iff' _ (Iff.of_eq (k1_chk1.eq_1 v3))
theorem k1_off2_inb : ∀ (v3 : BitVec 32) (k1_hw1 : k1_chk1 v3), ∀ a, (k1_off2 v3) a + S1x128.size a ≤ S50000x128.size a := fun v3 k1_hw1 => k1_hw1.1
theorem k1_off17_inb : ∀ (v3 : BitVec 32) (k1_hw1 : k1_chk1 v3), ∀ a, (k1_off17 v3) a + S1x128.size a ≤ S50000x128.size a := fun v3 k1_hw1 => k1_hw1.2

def k1_off18 (v12 : BitVec 32) : Fin 2 → Nat :=
  let c0_i32_39 : BitVec 32 := 0#32
  ![v12.toNat, 0]

def k1_chk2 (v12 : BitVec 32) : Prop :=
  (∀ a, (k1_off4 v12) a + S1x128.size a ≤ S50000x128.size a) ∧
  (∀ a, (k1_off18 v12) a + S1x128.size a ≤ S50000x128.size a)
instance k1_chk2.dec : ∀ (v12 : BitVec 32), Decidable (k1_chk2 v12) := fun v12 => decidable_of_iff' _ (Iff.of_eq (k1_chk2.eq_1 v12))
theorem k1_off4_inb : ∀ (v12 : BitVec 32) (k1_hw2 : k1_chk2 v12), ∀ a, (k1_off4 v12) a + S1x128.size a ≤ S50000x128.size a := fun v12 k1_hw2 => k1_hw2.1
theorem k1_off18_inb : ∀ (v12 : BitVec 32) (k1_hw2 : k1_chk2 v12), ∀ a, (k1_off18 v12) a + S1x128.size a ≤ S50000x128.size a := fun v12 k1_hw2 => k1_hw2.2

def k1_off19 (v21 : BitVec 32) : Fin 2 → Nat :=
  let c0_i32_43 : BitVec 32 := 0#32
  ![v21.toNat, 0]

def k1_chk3 (v21 : BitVec 32) : Prop :=
  (∀ a, (k1_off6 v21) a + S1x128.size a ≤ S50000x128.size a) ∧
  (∀ a, (k1_off19 v21) a + S1x128.size a ≤ S50000x128.size a)
instance k1_chk3.dec : ∀ (v21 : BitVec 32), Decidable (k1_chk3 v21) := fun v21 => decidable_of_iff' _ (Iff.of_eq (k1_chk3.eq_1 v21))
theorem k1_off6_inb : ∀ (v21 : BitVec 32) (k1_hw3 : k1_chk3 v21), ∀ a, (k1_off6 v21) a + S1x128.size a ≤ S50000x128.size a := fun v21 k1_hw3 => k1_hw3.1
theorem k1_off19_inb : ∀ (v21 : BitVec 32) (k1_hw3 : k1_chk3 v21), ∀ a, (k1_off19 v21) a + S1x128.size a ≤ S50000x128.size a := fun v21 k1_hw3 => k1_hw3.2

def k1_off20 (v30 : BitVec 32) : Fin 2 → Nat :=
  let c0_i32_47 : BitVec 32 := 0#32
  ![v30.toNat, 0]

def k1_chk4 (v30 : BitVec 32) : Prop :=
  (∀ a, (k1_off8 v30) a + S1x128.size a ≤ S50000x128.size a) ∧
  (∀ a, (k1_off20 v30) a + S1x128.size a ≤ S50000x128.size a)
instance k1_chk4.dec : ∀ (v30 : BitVec 32), Decidable (k1_chk4 v30) := fun v30 => decidable_of_iff' _ (Iff.of_eq (k1_chk4.eq_1 v30))
theorem k1_off8_inb : ∀ (v30 : BitVec 32) (k1_hw4 : k1_chk4 v30), ∀ a, (k1_off8 v30) a + S1x128.size a ≤ S50000x128.size a := fun v30 k1_hw4 => k1_hw4.1
theorem k1_off20_inb : ∀ (v30 : BitVec 32) (k1_hw4 : k1_chk4 v30), ∀ a, (k1_off20 v30) a + S1x128.size a ≤ S50000x128.size a := fun v30 k1_hw4 => k1_hw4.2

def k1_off21 (v39 : BitVec 32) : Fin 2 → Nat :=
  let c0_i32_51 : BitVec 32 := 0#32
  ![v39.toNat, 0]

def k1_chk5 (v39 : BitVec 32) : Prop :=
  (∀ a, (k1_off10 v39) a + S1x128.size a ≤ S50000x128.size a) ∧
  (∀ a, (k1_off21 v39) a + S1x128.size a ≤ S50000x128.size a)
instance k1_chk5.dec : ∀ (v39 : BitVec 32), Decidable (k1_chk5 v39) := fun v39 => decidable_of_iff' _ (Iff.of_eq (k1_chk5.eq_1 v39))
theorem k1_off10_inb : ∀ (v39 : BitVec 32) (k1_hw5 : k1_chk5 v39), ∀ a, (k1_off10 v39) a + S1x128.size a ≤ S50000x128.size a := fun v39 k1_hw5 => k1_hw5.1
theorem k1_off21_inb : ∀ (v39 : BitVec 32) (k1_hw5 : k1_chk5 v39), ∀ a, (k1_off21 v39) a + S1x128.size a ≤ S50000x128.size a := fun v39 k1_hw5 => k1_hw5.2

def k1_off22 (v48 : BitVec 32) : Fin 2 → Nat :=
  let c0_i32_55 : BitVec 32 := 0#32
  ![v48.toNat, 0]

def k1_chk6 (v48 : BitVec 32) : Prop :=
  (∀ a, (k1_off12 v48) a + S1x128.size a ≤ S50000x128.size a) ∧
  (∀ a, (k1_off22 v48) a + S1x128.size a ≤ S50000x128.size a)
instance k1_chk6.dec : ∀ (v48 : BitVec 32), Decidable (k1_chk6 v48) := fun v48 => decidable_of_iff' _ (Iff.of_eq (k1_chk6.eq_1 v48))
theorem k1_off12_inb : ∀ (v48 : BitVec 32) (k1_hw6 : k1_chk6 v48), ∀ a, (k1_off12 v48) a + S1x128.size a ≤ S50000x128.size a := fun v48 k1_hw6 => k1_hw6.1
theorem k1_off22_inb : ∀ (v48 : BitVec 32) (k1_hw6 : k1_chk6 v48), ∀ a, (k1_off22 v48) a + S1x128.size a ≤ S50000x128.size a := fun v48 k1_hw6 => k1_hw6.2

def k1_off23 (v57 : BitVec 32) : Fin 2 → Nat :=
  let c0_i32_59 : BitVec 32 := 0#32
  ![v57.toNat, 0]

def k1_chk7 (v57 : BitVec 32) : Prop :=
  (∀ a, (k1_off14 v57) a + S1x128.size a ≤ S50000x128.size a) ∧
  (∀ a, (k1_off23 v57) a + S1x128.size a ≤ S50000x128.size a)
instance k1_chk7.dec : ∀ (v57 : BitVec 32), Decidable (k1_chk7 v57) := fun v57 => decidable_of_iff' _ (Iff.of_eq (k1_chk7.eq_1 v57))
theorem k1_off14_inb : ∀ (v57 : BitVec 32) (k1_hw7 : k1_chk7 v57), ∀ a, (k1_off14 v57) a + S1x128.size a ≤ S50000x128.size a := fun v57 k1_hw7 => k1_hw7.1
theorem k1_off23_inb : ∀ (v57 : BitVec 32) (k1_hw7 : k1_chk7 v57), ∀ a, (k1_off23 v57) a + S1x128.size a ≤ S50000x128.size a := fun v57 k1_hw7 => k1_hw7.2

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S8x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev grid2 : Pipeline.Grid := ⟨1, ![10625], ![false]⟩

abbrev pre2 : Pipeline.Prefetch sig := ⟨1, ![main_v36.idx], fun | 0 => main_v36.names | ⟨_ + 1, h⟩ => absurd h (Nat.not_lt.2 (Nat.le_add_left _ _)), fun | 0 => rfl | ⟨_ + 1, h⟩ => absurd h (Nat.not_lt.2 (Nat.le_add_left _ _))⟩

def k2_off1 (i : grid2.Coords) : Fin 1 → Nat :=
  let arg0 : BitVec 32 := BitVec.ofNat 32 (i 0).val
  let c8_i32 : BitVec 32 := 8#32
  let v0 : BitVec 32 := Scalar.muli arg0 c8_i32
  let c0_i32 : BitVec 32 := 0#32
  let v1 : BitVec 32 := Scalar.addi v0 c0_i32
  let v2 : Index := Scalar.indexCast v1
  ![v2.toNat]
def k2_off2 (v3 : BitVec 32) : Fin 2 → Nat :=
  let c0_i32_3 : BitVec 32 := 0#32
  ![v3.toNat, 0]

def k2_off3 (i : grid2.Coords) : Fin 1 → Nat :=
  let arg0 : BitVec 32 := BitVec.ofNat 32 (i 0).val
  let c8_i32 : BitVec 32 := 8#32
  let v0 : BitVec 32 := Scalar.muli arg0 c8_i32
  let c1_i32 : BitVec 32 := 1#32
  let v10 : BitVec 32 := Scalar.addi v0 c1_i32
  let v11 : Index := Scalar.indexCast v10
  ![v11.toNat]
def k2_off4 (v12 : BitVec 32) : Fin 2 → Nat :=
  let c0_i32_7 : BitVec 32 := 0#32
  ![v12.toNat, 0]

def k2_off5 (i : grid2.Coords) : Fin 1 → Nat :=
  let arg0 : BitVec 32 := BitVec.ofNat 32 (i 0).val
  let c8_i32 : BitVec 32 := 8#32
  let v0 : BitVec 32 := Scalar.muli arg0 c8_i32
  let c2_i32 : BitVec 32 := 2#32
  let v19 : BitVec 32 := Scalar.addi v0 c2_i32
  let v20 : Index := Scalar.indexCast v19
  ![v20.toNat]
def k2_off6 (v21 : BitVec 32) : Fin 2 → Nat :=
  let c0_i32_11 : BitVec 32 := 0#32
  ![v21.toNat, 0]

def k2_off7 (i : grid2.Coords) : Fin 1 → Nat :=
  let arg0 : BitVec 32 := BitVec.ofNat 32 (i 0).val
  let c8_i32 : BitVec 32 := 8#32
  let v0 : BitVec 32 := Scalar.muli arg0 c8_i32
  let c3_i32 : BitVec 32 := 3#32
  let v28 : BitVec 32 := Scalar.addi v0 c3_i32
  let v29 : Index := Scalar.indexCast v28
  ![v29.toNat]
def k2_off8 (v30 : BitVec 32) : Fin 2 → Nat :=
  let c0_i32_15 : BitVec 32 := 0#32
  ![v30.toNat, 0]

def k2_off9 (i : grid2.Coords) : Fin 1 → Nat :=
  let arg0 : BitVec 32 := BitVec.ofNat 32 (i 0).val
  let c8_i32 : BitVec 32 := 8#32
  let v0 : BitVec 32 := Scalar.muli arg0 c8_i32
  let c4_i32 : BitVec 32 := 4#32
  let v37 : BitVec 32 := Scalar.addi v0 c4_i32
  let v38 : Index := Scalar.indexCast v37
  ![v38.toNat]
def k2_off10 (v39 : BitVec 32) : Fin 2 → Nat :=
  let c0_i32_19 : BitVec 32 := 0#32
  ![v39.toNat, 0]

def k2_off11 (i : grid2.Coords) : Fin 1 → Nat :=
  let arg0 : BitVec 32 := BitVec.ofNat 32 (i 0).val
  let c8_i32 : BitVec 32 := 8#32
  let v0 : BitVec 32 := Scalar.muli arg0 c8_i32
  let c5_i32 : BitVec 32 := 5#32
  let v46 : BitVec 32 := Scalar.addi v0 c5_i32
  let v47 : Index := Scalar.indexCast v46
  ![v47.toNat]
def k2_off12 (v48 : BitVec 32) : Fin 2 → Nat :=
  let c0_i32_23 : BitVec 32 := 0#32
  ![v48.toNat, 0]

def k2_off13 (i : grid2.Coords) : Fin 1 → Nat :=
  let arg0 : BitVec 32 := BitVec.ofNat 32 (i 0).val
  let c8_i32 : BitVec 32 := 8#32
  let v0 : BitVec 32 := Scalar.muli arg0 c8_i32
  let c6_i32 : BitVec 32 := 6#32
  let v55 : BitVec 32 := Scalar.addi v0 c6_i32
  let v56 : Index := Scalar.indexCast v55
  ![v56.toNat]
def k2_off14 (v57 : BitVec 32) : Fin 2 → Nat :=
  let c0_i32_27 : BitVec 32 := 0#32
  ![v57.toNat, 0]

def k2_off15 (i : grid2.Coords) : Fin 1 → Nat :=
  let arg0 : BitVec 32 := BitVec.ofNat 32 (i 0).val
  let c8_i32 : BitVec 32 := 8#32
  let v0 : BitVec 32 := Scalar.muli arg0 c8_i32
  let c7_i32 : BitVec 32 := 7#32
  let v64 : BitVec 32 := Scalar.addi v0 c7_i32
  let v65 : Index := Scalar.indexCast v64
  ![v65.toNat]
def k2_off16 (v66 : BitVec 32) : Fin 2 → Nat :=
  let c0_i32_31 : BitVec 32 := 0#32
  ![v66.toNat, 0]

def k2_chk8 (v66 : BitVec 32) : Prop :=
  (∀ a, (k2_off16 v66) a + S1x128.size a ≤ S50000x128.size a)
instance k2_chk8.dec : ∀ (v66 : BitVec 32), Decidable (k2_chk8 v66) := fun v66 => decidable_of_iff' _ (Iff.of_eq (k2_chk8.eq_1 v66))
theorem k2_off16_inb : ∀ (v66 : BitVec 32) (k2_hw8 : k2_chk8 v66), ∀ a, (k2_off16 v66) a + S1x128.size a ≤ S50000x128.size a := fun v66 k2_hw8 => k2_hw8

def k2_off17 (v3 : BitVec 32) : Fin 2 → Nat :=
  let c0_i32_35 : BitVec 32 := 0#32
  ![v3.toNat, 0]

def k2_chk1 (v3 : BitVec 32) : Prop :=
  (∀ a, (k2_off2 v3) a + S1x128.size a ≤ S50000x128.size a) ∧
  (∀ a, (k2_off17 v3) a + S1x128.size a ≤ S50000x128.size a)
instance k2_chk1.dec : ∀ (v3 : BitVec 32), Decidable (k2_chk1 v3) := fun v3 => decidable_of_iff' _ (Iff.of_eq (k2_chk1.eq_1 v3))
theorem k2_off2_inb : ∀ (v3 : BitVec 32) (k2_hw1 : k2_chk1 v3), ∀ a, (k2_off2 v3) a + S1x128.size a ≤ S50000x128.size a := fun v3 k2_hw1 => k2_hw1.1
theorem k2_off17_inb : ∀ (v3 : BitVec 32) (k2_hw1 : k2_chk1 v3), ∀ a, (k2_off17 v3) a + S1x128.size a ≤ S50000x128.size a := fun v3 k2_hw1 => k2_hw1.2

def k2_off18 (v12 : BitVec 32) : Fin 2 → Nat :=
  let c0_i32_39 : BitVec 32 := 0#32
  ![v12.toNat, 0]

def k2_chk2 (v12 : BitVec 32) : Prop :=
  (∀ a, (k2_off4 v12) a + S1x128.size a ≤ S50000x128.size a) ∧
  (∀ a, (k2_off18 v12) a + S1x128.size a ≤ S50000x128.size a)
instance k2_chk2.dec : ∀ (v12 : BitVec 32), Decidable (k2_chk2 v12) := fun v12 => decidable_of_iff' _ (Iff.of_eq (k2_chk2.eq_1 v12))
theorem k2_off4_inb : ∀ (v12 : BitVec 32) (k2_hw2 : k2_chk2 v12), ∀ a, (k2_off4 v12) a + S1x128.size a ≤ S50000x128.size a := fun v12 k2_hw2 => k2_hw2.1
theorem k2_off18_inb : ∀ (v12 : BitVec 32) (k2_hw2 : k2_chk2 v12), ∀ a, (k2_off18 v12) a + S1x128.size a ≤ S50000x128.size a := fun v12 k2_hw2 => k2_hw2.2

def k2_off19 (v21 : BitVec 32) : Fin 2 → Nat :=
  let c0_i32_43 : BitVec 32 := 0#32
  ![v21.toNat, 0]

def k2_chk3 (v21 : BitVec 32) : Prop :=
  (∀ a, (k2_off6 v21) a + S1x128.size a ≤ S50000x128.size a) ∧
  (∀ a, (k2_off19 v21) a + S1x128.size a ≤ S50000x128.size a)
instance k2_chk3.dec : ∀ (v21 : BitVec 32), Decidable (k2_chk3 v21) := fun v21 => decidable_of_iff' _ (Iff.of_eq (k2_chk3.eq_1 v21))
theorem k2_off6_inb : ∀ (v21 : BitVec 32) (k2_hw3 : k2_chk3 v21), ∀ a, (k2_off6 v21) a + S1x128.size a ≤ S50000x128.size a := fun v21 k2_hw3 => k2_hw3.1
theorem k2_off19_inb : ∀ (v21 : BitVec 32) (k2_hw3 : k2_chk3 v21), ∀ a, (k2_off19 v21) a + S1x128.size a ≤ S50000x128.size a := fun v21 k2_hw3 => k2_hw3.2

def k2_off20 (v30 : BitVec 32) : Fin 2 → Nat :=
  let c0_i32_47 : BitVec 32 := 0#32
  ![v30.toNat, 0]

def k2_chk4 (v30 : BitVec 32) : Prop :=
  (∀ a, (k2_off8 v30) a + S1x128.size a ≤ S50000x128.size a) ∧
  (∀ a, (k2_off20 v30) a + S1x128.size a ≤ S50000x128.size a)
instance k2_chk4.dec : ∀ (v30 : BitVec 32), Decidable (k2_chk4 v30) := fun v30 => decidable_of_iff' _ (Iff.of_eq (k2_chk4.eq_1 v30))
theorem k2_off8_inb : ∀ (v30 : BitVec 32) (k2_hw4 : k2_chk4 v30), ∀ a, (k2_off8 v30) a + S1x128.size a ≤ S50000x128.size a := fun v30 k2_hw4 => k2_hw4.1
theorem k2_off20_inb : ∀ (v30 : BitVec 32) (k2_hw4 : k2_chk4 v30), ∀ a, (k2_off20 v30) a + S1x128.size a ≤ S50000x128.size a := fun v30 k2_hw4 => k2_hw4.2

def k2_off21 (v39 : BitVec 32) : Fin 2 → Nat :=
  let c0_i32_51 : BitVec 32 := 0#32
  ![v39.toNat, 0]

def k2_chk5 (v39 : BitVec 32) : Prop :=
  (∀ a, (k2_off10 v39) a + S1x128.size a ≤ S50000x128.size a) ∧
  (∀ a, (k2_off21 v39) a + S1x128.size a ≤ S50000x128.size a)
instance k2_chk5.dec : ∀ (v39 : BitVec 32), Decidable (k2_chk5 v39) := fun v39 => decidable_of_iff' _ (Iff.of_eq (k2_chk5.eq_1 v39))
theorem k2_off10_inb : ∀ (v39 : BitVec 32) (k2_hw5 : k2_chk5 v39), ∀ a, (k2_off10 v39) a + S1x128.size a ≤ S50000x128.size a := fun v39 k2_hw5 => k2_hw5.1
theorem k2_off21_inb : ∀ (v39 : BitVec 32) (k2_hw5 : k2_chk5 v39), ∀ a, (k2_off21 v39) a + S1x128.size a ≤ S50000x128.size a := fun v39 k2_hw5 => k2_hw5.2

def k2_off22 (v48 : BitVec 32) : Fin 2 → Nat :=
  let c0_i32_55 : BitVec 32 := 0#32
  ![v48.toNat, 0]

def k2_chk6 (v48 : BitVec 32) : Prop :=
  (∀ a, (k2_off12 v48) a + S1x128.size a ≤ S50000x128.size a) ∧
  (∀ a, (k2_off22 v48) a + S1x128.size a ≤ S50000x128.size a)
instance k2_chk6.dec : ∀ (v48 : BitVec 32), Decidable (k2_chk6 v48) := fun v48 => decidable_of_iff' _ (Iff.of_eq (k2_chk6.eq_1 v48))
theorem k2_off12_inb : ∀ (v48 : BitVec 32) (k2_hw6 : k2_chk6 v48), ∀ a, (k2_off12 v48) a + S1x128.size a ≤ S50000x128.size a := fun v48 k2_hw6 => k2_hw6.1
theorem k2_off22_inb : ∀ (v48 : BitVec 32) (k2_hw6 : k2_chk6 v48), ∀ a, (k2_off22 v48) a + S1x128.size a ≤ S50000x128.size a := fun v48 k2_hw6 => k2_hw6.2

def k2_off23 (v57 : BitVec 32) : Fin 2 → Nat :=
  let c0_i32_59 : BitVec 32 := 0#32
  ![v57.toNat, 0]

def k2_chk7 (v57 : BitVec 32) : Prop :=
  (∀ a, (k2_off14 v57) a + S1x128.size a ≤ S50000x128.size a) ∧
  (∀ a, (k2_off23 v57) a + S1x128.size a ≤ S50000x128.size a)
instance k2_chk7.dec : ∀ (v57 : BitVec 32), Decidable (k2_chk7 v57) := fun v57 => decidable_of_iff' _ (Iff.of_eq (k2_chk7.eq_1 v57))
theorem k2_off14_inb : ∀ (v57 : BitVec 32) (k2_hw7 : k2_chk7 v57), ∀ a, (k2_off14 v57) a + S1x128.size a ≤ S50000x128.size a := fun v57 k2_hw7 => k2_hw7.1
theorem k2_off23_inb : ∀ (v57 : BitVec 32) (k2_hw7 : k2_chk7 v57), ∀ a, (k2_off23 v57) a + S1x128.size a ≤ S50000x128.size a := fun v57 k2_hw7 => k2_hw7.2

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S8x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev grid3 : Pipeline.Grid := ⟨1, ![10625], ![false]⟩

abbrev pre3 : Pipeline.Prefetch sig := ⟨1, ![main_v38.idx], fun | 0 => main_v38.names | ⟨_ + 1, h⟩ => absurd h (Nat.not_lt.2 (Nat.le_add_left _ _)), fun | 0 => rfl | ⟨_ + 1, h⟩ => absurd h (Nat.not_lt.2 (Nat.le_add_left _ _))⟩

def k3_off1 (i : grid3.Coords) : Fin 1 → Nat :=
  let arg0 : BitVec 32 := BitVec.ofNat 32 (i 0).val
  let c8_i32 : BitVec 32 := 8#32
  let v0 : BitVec 32 := Scalar.muli arg0 c8_i32
  let c0_i32 : BitVec 32 := 0#32
  let v1 : BitVec 32 := Scalar.addi v0 c0_i32
  let v2 : Index := Scalar.indexCast v1
  ![v2.toNat]
def k3_off2 (v3 : BitVec 32) : Fin 2 → Nat :=
  let c0_i32_3 : BitVec 32 := 0#32
  ![v3.toNat, 0]

def k3_off3 (i : grid3.Coords) : Fin 1 → Nat :=
  let arg0 : BitVec 32 := BitVec.ofNat 32 (i 0).val
  let c8_i32 : BitVec 32 := 8#32
  let v0 : BitVec 32 := Scalar.muli arg0 c8_i32
  let c1_i32 : BitVec 32 := 1#32
  let v10 : BitVec 32 := Scalar.addi v0 c1_i32
  let v11 : Index := Scalar.indexCast v10
  ![v11.toNat]
def k3_off4 (v12 : BitVec 32) : Fin 2 → Nat :=
  let c0_i32_7 : BitVec 32 := 0#32
  ![v12.toNat, 0]

def k3_off5 (i : grid3.Coords) : Fin 1 → Nat :=
  let arg0 : BitVec 32 := BitVec.ofNat 32 (i 0).val
  let c8_i32 : BitVec 32 := 8#32
  let v0 : BitVec 32 := Scalar.muli arg0 c8_i32
  let c2_i32 : BitVec 32 := 2#32
  let v19 : BitVec 32 := Scalar.addi v0 c2_i32
  let v20 : Index := Scalar.indexCast v19
  ![v20.toNat]
def k3_off6 (v21 : BitVec 32) : Fin 2 → Nat :=
  let c0_i32_11 : BitVec 32 := 0#32
  ![v21.toNat, 0]

def k3_off7 (i : grid3.Coords) : Fin 1 → Nat :=
  let arg0 : BitVec 32 := BitVec.ofNat 32 (i 0).val
  let c8_i32 : BitVec 32 := 8#32
  let v0 : BitVec 32 := Scalar.muli arg0 c8_i32
  let c3_i32 : BitVec 32 := 3#32
  let v28 : BitVec 32 := Scalar.addi v0 c3_i32
  let v29 : Index := Scalar.indexCast v28
  ![v29.toNat]
def k3_off8 (v30 : BitVec 32) : Fin 2 → Nat :=
  let c0_i32_15 : BitVec 32 := 0#32
  ![v30.toNat, 0]

def k3_off9 (i : grid3.Coords) : Fin 1 → Nat :=
  let arg0 : BitVec 32 := BitVec.ofNat 32 (i 0).val
  let c8_i32 : BitVec 32 := 8#32
  let v0 : BitVec 32 := Scalar.muli arg0 c8_i32
  let c4_i32 : BitVec 32 := 4#32
  let v37 : BitVec 32 := Scalar.addi v0 c4_i32
  let v38 : Index := Scalar.indexCast v37
  ![v38.toNat]
def k3_off10 (v39 : BitVec 32) : Fin 2 → Nat :=
  let c0_i32_19 : BitVec 32 := 0#32
  ![v39.toNat, 0]

def k3_off11 (i : grid3.Coords) : Fin 1 → Nat :=
  let arg0 : BitVec 32 := BitVec.ofNat 32 (i 0).val
  let c8_i32 : BitVec 32 := 8#32
  let v0 : BitVec 32 := Scalar.muli arg0 c8_i32
  let c5_i32 : BitVec 32 := 5#32
  let v46 : BitVec 32 := Scalar.addi v0 c5_i32
  let v47 : Index := Scalar.indexCast v46
  ![v47.toNat]
def k3_off12 (v48 : BitVec 32) : Fin 2 → Nat :=
  let c0_i32_23 : BitVec 32 := 0#32
  ![v48.toNat, 0]

def k3_off13 (i : grid3.Coords) : Fin 1 → Nat :=
  let arg0 : BitVec 32 := BitVec.ofNat 32 (i 0).val
  let c8_i32 : BitVec 32 := 8#32
  let v0 : BitVec 32 := Scalar.muli arg0 c8_i32
  let c6_i32 : BitVec 32 := 6#32
  let v55 : BitVec 32 := Scalar.addi v0 c6_i32
  let v56 : Index := Scalar.indexCast v55
  ![v56.toNat]
def k3_off14 (v57 : BitVec 32) : Fin 2 → Nat :=
  let c0_i32_27 : BitVec 32 := 0#32
  ![v57.toNat, 0]

def k3_off15 (i : grid3.Coords) : Fin 1 → Nat :=
  let arg0 : BitVec 32 := BitVec.ofNat 32 (i 0).val
  let c8_i32 : BitVec 32 := 8#32
  let v0 : BitVec 32 := Scalar.muli arg0 c8_i32
  let c7_i32 : BitVec 32 := 7#32
  let v64 : BitVec 32 := Scalar.addi v0 c7_i32
  let v65 : Index := Scalar.indexCast v64
  ![v65.toNat]
def k3_off16 (v66 : BitVec 32) : Fin 2 → Nat :=
  let c0_i32_31 : BitVec 32 := 0#32
  ![v66.toNat, 0]

def k3_chk8 (v66 : BitVec 32) : Prop :=
  (∀ a, (k3_off16 v66) a + S1x128.size a ≤ S50000x128.size a)
instance k3_chk8.dec : ∀ (v66 : BitVec 32), Decidable (k3_chk8 v66) := fun v66 => decidable_of_iff' _ (Iff.of_eq (k3_chk8.eq_1 v66))
theorem k3_off16_inb : ∀ (v66 : BitVec 32) (k3_hw8 : k3_chk8 v66), ∀ a, (k3_off16 v66) a + S1x128.size a ≤ S50000x128.size a := fun v66 k3_hw8 => k3_hw8

def k3_off17 (v3 : BitVec 32) : Fin 2 → Nat :=
  let c0_i32_35 : BitVec 32 := 0#32
  ![v3.toNat, 0]

def k3_chk1 (v3 : BitVec 32) : Prop :=
  (∀ a, (k3_off2 v3) a + S1x128.size a ≤ S50000x128.size a) ∧
  (∀ a, (k3_off17 v3) a + S1x128.size a ≤ S50000x128.size a)
instance k3_chk1.dec : ∀ (v3 : BitVec 32), Decidable (k3_chk1 v3) := fun v3 => decidable_of_iff' _ (Iff.of_eq (k3_chk1.eq_1 v3))
theorem k3_off2_inb : ∀ (v3 : BitVec 32) (k3_hw1 : k3_chk1 v3), ∀ a, (k3_off2 v3) a + S1x128.size a ≤ S50000x128.size a := fun v3 k3_hw1 => k3_hw1.1
theorem k3_off17_inb : ∀ (v3 : BitVec 32) (k3_hw1 : k3_chk1 v3), ∀ a, (k3_off17 v3) a + S1x128.size a ≤ S50000x128.size a := fun v3 k3_hw1 => k3_hw1.2

def k3_off18 (v12 : BitVec 32) : Fin 2 → Nat :=
  let c0_i32_39 : BitVec 32 := 0#32
  ![v12.toNat, 0]

def k3_chk2 (v12 : BitVec 32) : Prop :=
  (∀ a, (k3_off4 v12) a + S1x128.size a ≤ S50000x128.size a) ∧
  (∀ a, (k3_off18 v12) a + S1x128.size a ≤ S50000x128.size a)
instance k3_chk2.dec : ∀ (v12 : BitVec 32), Decidable (k3_chk2 v12) := fun v12 => decidable_of_iff' _ (Iff.of_eq (k3_chk2.eq_1 v12))
theorem k3_off4_inb : ∀ (v12 : BitVec 32) (k3_hw2 : k3_chk2 v12), ∀ a, (k3_off4 v12) a + S1x128.size a ≤ S50000x128.size a := fun v12 k3_hw2 => k3_hw2.1
theorem k3_off18_inb : ∀ (v12 : BitVec 32) (k3_hw2 : k3_chk2 v12), ∀ a, (k3_off18 v12) a + S1x128.size a ≤ S50000x128.size a := fun v12 k3_hw2 => k3_hw2.2

def k3_off19 (v21 : BitVec 32) : Fin 2 → Nat :=
  let c0_i32_43 : BitVec 32 := 0#32
  ![v21.toNat, 0]

def k3_chk3 (v21 : BitVec 32) : Prop :=
  (∀ a, (k3_off6 v21) a + S1x128.size a ≤ S50000x128.size a) ∧
  (∀ a, (k3_off19 v21) a + S1x128.size a ≤ S50000x128.size a)
instance k3_chk3.dec : ∀ (v21 : BitVec 32), Decidable (k3_chk3 v21) := fun v21 => decidable_of_iff' _ (Iff.of_eq (k3_chk3.eq_1 v21))
theorem k3_off6_inb : ∀ (v21 : BitVec 32) (k3_hw3 : k3_chk3 v21), ∀ a, (k3_off6 v21) a + S1x128.size a ≤ S50000x128.size a := fun v21 k3_hw3 => k3_hw3.1
theorem k3_off19_inb : ∀ (v21 : BitVec 32) (k3_hw3 : k3_chk3 v21), ∀ a, (k3_off19 v21) a + S1x128.size a ≤ S50000x128.size a := fun v21 k3_hw3 => k3_hw3.2

def k3_off20 (v30 : BitVec 32) : Fin 2 → Nat :=
  let c0_i32_47 : BitVec 32 := 0#32
  ![v30.toNat, 0]

def k3_chk4 (v30 : BitVec 32) : Prop :=
  (∀ a, (k3_off8 v30) a + S1x128.size a ≤ S50000x128.size a) ∧
  (∀ a, (k3_off20 v30) a + S1x128.size a ≤ S50000x128.size a)
instance k3_chk4.dec : ∀ (v30 : BitVec 32), Decidable (k3_chk4 v30) := fun v30 => decidable_of_iff' _ (Iff.of_eq (k3_chk4.eq_1 v30))
theorem k3_off8_inb : ∀ (v30 : BitVec 32) (k3_hw4 : k3_chk4 v30), ∀ a, (k3_off8 v30) a + S1x128.size a ≤ S50000x128.size a := fun v30 k3_hw4 => k3_hw4.1
theorem k3_off20_inb : ∀ (v30 : BitVec 32) (k3_hw4 : k3_chk4 v30), ∀ a, (k3_off20 v30) a + S1x128.size a ≤ S50000x128.size a := fun v30 k3_hw4 => k3_hw4.2

def k3_off21 (v39 : BitVec 32) : Fin 2 → Nat :=
  let c0_i32_51 : BitVec 32 := 0#32
  ![v39.toNat, 0]

def k3_chk5 (v39 : BitVec 32) : Prop :=
  (∀ a, (k3_off10 v39) a + S1x128.size a ≤ S50000x128.size a) ∧
  (∀ a, (k3_off21 v39) a + S1x128.size a ≤ S50000x128.size a)
instance k3_chk5.dec : ∀ (v39 : BitVec 32), Decidable (k3_chk5 v39) := fun v39 => decidable_of_iff' _ (Iff.of_eq (k3_chk5.eq_1 v39))
theorem k3_off10_inb : ∀ (v39 : BitVec 32) (k3_hw5 : k3_chk5 v39), ∀ a, (k3_off10 v39) a + S1x128.size a ≤ S50000x128.size a := fun v39 k3_hw5 => k3_hw5.1
theorem k3_off21_inb : ∀ (v39 : BitVec 32) (k3_hw5 : k3_chk5 v39), ∀ a, (k3_off21 v39) a + S1x128.size a ≤ S50000x128.size a := fun v39 k3_hw5 => k3_hw5.2

def k3_off22 (v48 : BitVec 32) : Fin 2 → Nat :=
  let c0_i32_55 : BitVec 32 := 0#32
  ![v48.toNat, 0]

def k3_chk6 (v48 : BitVec 32) : Prop :=
  (∀ a, (k3_off12 v48) a + S1x128.size a ≤ S50000x128.size a) ∧
  (∀ a, (k3_off22 v48) a + S1x128.size a ≤ S50000x128.size a)
instance k3_chk6.dec : ∀ (v48 : BitVec 32), Decidable (k3_chk6 v48) := fun v48 => decidable_of_iff' _ (Iff.of_eq (k3_chk6.eq_1 v48))
theorem k3_off12_inb : ∀ (v48 : BitVec 32) (k3_hw6 : k3_chk6 v48), ∀ a, (k3_off12 v48) a + S1x128.size a ≤ S50000x128.size a := fun v48 k3_hw6 => k3_hw6.1
theorem k3_off22_inb : ∀ (v48 : BitVec 32) (k3_hw6 : k3_chk6 v48), ∀ a, (k3_off22 v48) a + S1x128.size a ≤ S50000x128.size a := fun v48 k3_hw6 => k3_hw6.2

def k3_off23 (v57 : BitVec 32) : Fin 2 → Nat :=
  let c0_i32_59 : BitVec 32 := 0#32
  ![v57.toNat, 0]

def k3_chk7 (v57 : BitVec 32) : Prop :=
  (∀ a, (k3_off14 v57) a + S1x128.size a ≤ S50000x128.size a) ∧
  (∀ a, (k3_off23 v57) a + S1x128.size a ≤ S50000x128.size a)
instance k3_chk7.dec : ∀ (v57 : BitVec 32), Decidable (k3_chk7 v57) := fun v57 => decidable_of_iff' _ (Iff.of_eq (k3_chk7.eq_1 v57))
theorem k3_off14_inb : ∀ (v57 : BitVec 32) (k3_hw7 : k3_chk7 v57), ∀ a, (k3_off14 v57) a + S1x128.size a ≤ S50000x128.size a := fun v57 k3_hw7 => k3_hw7.1
theorem k3_off23_inb : ∀ (v57 : BitVec 32) (k3_hw7 : k3_chk7 v57), ∀ a, (k3_off23 v57) a + S1x128.size a ≤ S50000x128.size a := fun v57 k3_hw7 => k3_hw7.2

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S8x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev grid4 : Pipeline.Grid := ⟨1, ![10625], ![false]⟩

abbrev pre4 : Pipeline.Prefetch sig := ⟨1, ![main_v40.idx], fun | 0 => main_v40.names | ⟨_ + 1, h⟩ => absurd h (Nat.not_lt.2 (Nat.le_add_left _ _)), fun | 0 => rfl | ⟨_ + 1, h⟩ => absurd h (Nat.not_lt.2 (Nat.le_add_left _ _))⟩

def k4_off1 (i : grid4.Coords) : Fin 1 → Nat :=
  let arg0 : BitVec 32 := BitVec.ofNat 32 (i 0).val
  let c8_i32 : BitVec 32 := 8#32
  let v0 : BitVec 32 := Scalar.muli arg0 c8_i32
  let c0_i32 : BitVec 32 := 0#32
  let v1 : BitVec 32 := Scalar.addi v0 c0_i32
  let v2 : Index := Scalar.indexCast v1
  ![v2.toNat]
def k4_off2 (v3 : BitVec 32) : Fin 2 → Nat :=
  let c0_i32_3 : BitVec 32 := 0#32
  ![v3.toNat, 0]

def k4_off3 (i : grid4.Coords) : Fin 1 → Nat :=
  let arg0 : BitVec 32 := BitVec.ofNat 32 (i 0).val
  let c8_i32 : BitVec 32 := 8#32
  let v0 : BitVec 32 := Scalar.muli arg0 c8_i32
  let c1_i32 : BitVec 32 := 1#32
  let v10 : BitVec 32 := Scalar.addi v0 c1_i32
  let v11 : Index := Scalar.indexCast v10
  ![v11.toNat]
def k4_off4 (v12 : BitVec 32) : Fin 2 → Nat :=
  let c0_i32_7 : BitVec 32 := 0#32
  ![v12.toNat, 0]

def k4_off5 (i : grid4.Coords) : Fin 1 → Nat :=
  let arg0 : BitVec 32 := BitVec.ofNat 32 (i 0).val
  let c8_i32 : BitVec 32 := 8#32
  let v0 : BitVec 32 := Scalar.muli arg0 c8_i32
  let c2_i32 : BitVec 32 := 2#32
  let v19 : BitVec 32 := Scalar.addi v0 c2_i32
  let v20 : Index := Scalar.indexCast v19
  ![v20.toNat]
def k4_off6 (v21 : BitVec 32) : Fin 2 → Nat :=
  let c0_i32_11 : BitVec 32 := 0#32
  ![v21.toNat, 0]

def k4_off7 (i : grid4.Coords) : Fin 1 → Nat :=
  let arg0 : BitVec 32 := BitVec.ofNat 32 (i 0).val
  let c8_i32 : BitVec 32 := 8#32
  let v0 : BitVec 32 := Scalar.muli arg0 c8_i32
  let c3_i32 : BitVec 32 := 3#32
  let v28 : BitVec 32 := Scalar.addi v0 c3_i32
  let v29 : Index := Scalar.indexCast v28
  ![v29.toNat]
def k4_off8 (v30 : BitVec 32) : Fin 2 → Nat :=
  let c0_i32_15 : BitVec 32 := 0#32
  ![v30.toNat, 0]

def k4_off9 (i : grid4.Coords) : Fin 1 → Nat :=
  let arg0 : BitVec 32 := BitVec.ofNat 32 (i 0).val
  let c8_i32 : BitVec 32 := 8#32
  let v0 : BitVec 32 := Scalar.muli arg0 c8_i32
  let c4_i32 : BitVec 32 := 4#32
  let v37 : BitVec 32 := Scalar.addi v0 c4_i32
  let v38 : Index := Scalar.indexCast v37
  ![v38.toNat]
def k4_off10 (v39 : BitVec 32) : Fin 2 → Nat :=
  let c0_i32_19 : BitVec 32 := 0#32
  ![v39.toNat, 0]

def k4_off11 (i : grid4.Coords) : Fin 1 → Nat :=
  let arg0 : BitVec 32 := BitVec.ofNat 32 (i 0).val
  let c8_i32 : BitVec 32 := 8#32
  let v0 : BitVec 32 := Scalar.muli arg0 c8_i32
  let c5_i32 : BitVec 32 := 5#32
  let v46 : BitVec 32 := Scalar.addi v0 c5_i32
  let v47 : Index := Scalar.indexCast v46
  ![v47.toNat]
def k4_off12 (v48 : BitVec 32) : Fin 2 → Nat :=
  let c0_i32_23 : BitVec 32 := 0#32
  ![v48.toNat, 0]

def k4_off13 (i : grid4.Coords) : Fin 1 → Nat :=
  let arg0 : BitVec 32 := BitVec.ofNat 32 (i 0).val
  let c8_i32 : BitVec 32 := 8#32
  let v0 : BitVec 32 := Scalar.muli arg0 c8_i32
  let c6_i32 : BitVec 32 := 6#32
  let v55 : BitVec 32 := Scalar.addi v0 c6_i32
  let v56 : Index := Scalar.indexCast v55
  ![v56.toNat]
def k4_off14 (v57 : BitVec 32) : Fin 2 → Nat :=
  let c0_i32_27 : BitVec 32 := 0#32
  ![v57.toNat, 0]

def k4_off15 (i : grid4.Coords) : Fin 1 → Nat :=
  let arg0 : BitVec 32 := BitVec.ofNat 32 (i 0).val
  let c8_i32 : BitVec 32 := 8#32
  let v0 : BitVec 32 := Scalar.muli arg0 c8_i32
  let c7_i32 : BitVec 32 := 7#32
  let v64 : BitVec 32 := Scalar.addi v0 c7_i32
  let v65 : Index := Scalar.indexCast v64
  ![v65.toNat]
def k4_off16 (v66 : BitVec 32) : Fin 2 → Nat :=
  let c0_i32_31 : BitVec 32 := 0#32
  ![v66.toNat, 0]

def k4_chk8 (v66 : BitVec 32) : Prop :=
  (∀ a, (k4_off16 v66) a + S1x128.size a ≤ S50000x128.size a)
instance k4_chk8.dec : ∀ (v66 : BitVec 32), Decidable (k4_chk8 v66) := fun v66 => decidable_of_iff' _ (Iff.of_eq (k4_chk8.eq_1 v66))
theorem k4_off16_inb : ∀ (v66 : BitVec 32) (k4_hw8 : k4_chk8 v66), ∀ a, (k4_off16 v66) a + S1x128.size a ≤ S50000x128.size a := fun v66 k4_hw8 => k4_hw8

def k4_off17 (v3 : BitVec 32) : Fin 2 → Nat :=
  let c0_i32_35 : BitVec 32 := 0#32
  ![v3.toNat, 0]

def k4_chk1 (v3 : BitVec 32) : Prop :=
  (∀ a, (k4_off2 v3) a + S1x128.size a ≤ S50000x128.size a) ∧
  (∀ a, (k4_off17 v3) a + S1x128.size a ≤ S50000x128.size a)
instance k4_chk1.dec : ∀ (v3 : BitVec 32), Decidable (k4_chk1 v3) := fun v3 => decidable_of_iff' _ (Iff.of_eq (k4_chk1.eq_1 v3))
theorem k4_off2_inb : ∀ (v3 : BitVec 32) (k4_hw1 : k4_chk1 v3), ∀ a, (k4_off2 v3) a + S1x128.size a ≤ S50000x128.size a := fun v3 k4_hw1 => k4_hw1.1
theorem k4_off17_inb : ∀ (v3 : BitVec 32) (k4_hw1 : k4_chk1 v3), ∀ a, (k4_off17 v3) a + S1x128.size a ≤ S50000x128.size a := fun v3 k4_hw1 => k4_hw1.2

def k4_off18 (v12 : BitVec 32) : Fin 2 → Nat :=
  let c0_i32_39 : BitVec 32 := 0#32
  ![v12.toNat, 0]

def k4_chk2 (v12 : BitVec 32) : Prop :=
  (∀ a, (k4_off4 v12) a + S1x128.size a ≤ S50000x128.size a) ∧
  (∀ a, (k4_off18 v12) a + S1x128.size a ≤ S50000x128.size a)
instance k4_chk2.dec : ∀ (v12 : BitVec 32), Decidable (k4_chk2 v12) := fun v12 => decidable_of_iff' _ (Iff.of_eq (k4_chk2.eq_1 v12))
theorem k4_off4_inb : ∀ (v12 : BitVec 32) (k4_hw2 : k4_chk2 v12), ∀ a, (k4_off4 v12) a + S1x128.size a ≤ S50000x128.size a := fun v12 k4_hw2 => k4_hw2.1
theorem k4_off18_inb : ∀ (v12 : BitVec 32) (k4_hw2 : k4_chk2 v12), ∀ a, (k4_off18 v12) a + S1x128.size a ≤ S50000x128.size a := fun v12 k4_hw2 => k4_hw2.2

def k4_off19 (v21 : BitVec 32) : Fin 2 → Nat :=
  let c0_i32_43 : BitVec 32 := 0#32
  ![v21.toNat, 0]

def k4_chk3 (v21 : BitVec 32) : Prop :=
  (∀ a, (k4_off6 v21) a + S1x128.size a ≤ S50000x128.size a) ∧
  (∀ a, (k4_off19 v21) a + S1x128.size a ≤ S50000x128.size a)
instance k4_chk3.dec : ∀ (v21 : BitVec 32), Decidable (k4_chk3 v21) := fun v21 => decidable_of_iff' _ (Iff.of_eq (k4_chk3.eq_1 v21))
theorem k4_off6_inb : ∀ (v21 : BitVec 32) (k4_hw3 : k4_chk3 v21), ∀ a, (k4_off6 v21) a + S1x128.size a ≤ S50000x128.size a := fun v21 k4_hw3 => k4_hw3.1
theorem k4_off19_inb : ∀ (v21 : BitVec 32) (k4_hw3 : k4_chk3 v21), ∀ a, (k4_off19 v21) a + S1x128.size a ≤ S50000x128.size a := fun v21 k4_hw3 => k4_hw3.2

def k4_off20 (v30 : BitVec 32) : Fin 2 → Nat :=
  let c0_i32_47 : BitVec 32 := 0#32
  ![v30.toNat, 0]

def k4_chk4 (v30 : BitVec 32) : Prop :=
  (∀ a, (k4_off8 v30) a + S1x128.size a ≤ S50000x128.size a) ∧
  (∀ a, (k4_off20 v30) a + S1x128.size a ≤ S50000x128.size a)
instance k4_chk4.dec : ∀ (v30 : BitVec 32), Decidable (k4_chk4 v30) := fun v30 => decidable_of_iff' _ (Iff.of_eq (k4_chk4.eq_1 v30))
theorem k4_off8_inb : ∀ (v30 : BitVec 32) (k4_hw4 : k4_chk4 v30), ∀ a, (k4_off8 v30) a + S1x128.size a ≤ S50000x128.size a := fun v30 k4_hw4 => k4_hw4.1
theorem k4_off20_inb : ∀ (v30 : BitVec 32) (k4_hw4 : k4_chk4 v30), ∀ a, (k4_off20 v30) a + S1x128.size a ≤ S50000x128.size a := fun v30 k4_hw4 => k4_hw4.2

def k4_off21 (v39 : BitVec 32) : Fin 2 → Nat :=
  let c0_i32_51 : BitVec 32 := 0#32
  ![v39.toNat, 0]

def k4_chk5 (v39 : BitVec 32) : Prop :=
  (∀ a, (k4_off10 v39) a + S1x128.size a ≤ S50000x128.size a) ∧
  (∀ a, (k4_off21 v39) a + S1x128.size a ≤ S50000x128.size a)
instance k4_chk5.dec : ∀ (v39 : BitVec 32), Decidable (k4_chk5 v39) := fun v39 => decidable_of_iff' _ (Iff.of_eq (k4_chk5.eq_1 v39))
theorem k4_off10_inb : ∀ (v39 : BitVec 32) (k4_hw5 : k4_chk5 v39), ∀ a, (k4_off10 v39) a + S1x128.size a ≤ S50000x128.size a := fun v39 k4_hw5 => k4_hw5.1
theorem k4_off21_inb : ∀ (v39 : BitVec 32) (k4_hw5 : k4_chk5 v39), ∀ a, (k4_off21 v39) a + S1x128.size a ≤ S50000x128.size a := fun v39 k4_hw5 => k4_hw5.2

def k4_off22 (v48 : BitVec 32) : Fin 2 → Nat :=
  let c0_i32_55 : BitVec 32 := 0#32
  ![v48.toNat, 0]

def k4_chk6 (v48 : BitVec 32) : Prop :=
  (∀ a, (k4_off12 v48) a + S1x128.size a ≤ S50000x128.size a) ∧
  (∀ a, (k4_off22 v48) a + S1x128.size a ≤ S50000x128.size a)
instance k4_chk6.dec : ∀ (v48 : BitVec 32), Decidable (k4_chk6 v48) := fun v48 => decidable_of_iff' _ (Iff.of_eq (k4_chk6.eq_1 v48))
theorem k4_off12_inb : ∀ (v48 : BitVec 32) (k4_hw6 : k4_chk6 v48), ∀ a, (k4_off12 v48) a + S1x128.size a ≤ S50000x128.size a := fun v48 k4_hw6 => k4_hw6.1
theorem k4_off22_inb : ∀ (v48 : BitVec 32) (k4_hw6 : k4_chk6 v48), ∀ a, (k4_off22 v48) a + S1x128.size a ≤ S50000x128.size a := fun v48 k4_hw6 => k4_hw6.2

def k4_off23 (v57 : BitVec 32) : Fin 2 → Nat :=
  let c0_i32_59 : BitVec 32 := 0#32
  ![v57.toNat, 0]

def k4_chk7 (v57 : BitVec 32) : Prop :=
  (∀ a, (k4_off14 v57) a + S1x128.size a ≤ S50000x128.size a) ∧
  (∀ a, (k4_off23 v57) a + S1x128.size a ≤ S50000x128.size a)
instance k4_chk7.dec : ∀ (v57 : BitVec 32), Decidable (k4_chk7 v57) := fun v57 => decidable_of_iff' _ (Iff.of_eq (k4_chk7.eq_1 v57))
theorem k4_off14_inb : ∀ (v57 : BitVec 32) (k4_hw7 : k4_chk7 v57), ∀ a, (k4_off14 v57) a + S1x128.size a ≤ S50000x128.size a := fun v57 k4_hw7 => k4_hw7.1
theorem k4_off23_inb : ∀ (v57 : BitVec 32) (k4_hw7 : k4_chk7 v57), ∀ a, (k4_off23 v57) a + S1x128.size a ≤ S50000x128.size a := fun v57 k4_hw7 => k4_hw7.2

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S8x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev grid5 : Pipeline.Grid := ⟨1, ![10625], ![false]⟩

abbrev pre5 : Pipeline.Prefetch sig := ⟨1, ![main_v42.idx], fun | 0 => main_v42.names | ⟨_ + 1, h⟩ => absurd h (Nat.not_lt.2 (Nat.le_add_left _ _)), fun | 0 => rfl | ⟨_ + 1, h⟩ => absurd h (Nat.not_lt.2 (Nat.le_add_left _ _))⟩

def k5_off1 (i : grid5.Coords) : Fin 1 → Nat :=
  let arg0 : BitVec 32 := BitVec.ofNat 32 (i 0).val
  let c8_i32 : BitVec 32 := 8#32
  let v0 : BitVec 32 := Scalar.muli arg0 c8_i32
  let c0_i32 : BitVec 32 := 0#32
  let v1 : BitVec 32 := Scalar.addi v0 c0_i32
  let v2 : Index := Scalar.indexCast v1
  ![v2.toNat]
def k5_off2 (v3 : BitVec 32) : Fin 2 → Nat :=
  let c0_i32_3 : BitVec 32 := 0#32
  ![v3.toNat, 0]

def k5_off3 (i : grid5.Coords) : Fin 1 → Nat :=
  let arg0 : BitVec 32 := BitVec.ofNat 32 (i 0).val
  let c8_i32 : BitVec 32 := 8#32
  let v0 : BitVec 32 := Scalar.muli arg0 c8_i32
  let c1_i32 : BitVec 32 := 1#32
  let v10 : BitVec 32 := Scalar.addi v0 c1_i32
  let v11 : Index := Scalar.indexCast v10
  ![v11.toNat]
def k5_off4 (v12 : BitVec 32) : Fin 2 → Nat :=
  let c0_i32_7 : BitVec 32 := 0#32
  ![v12.toNat, 0]

def k5_off5 (i : grid5.Coords) : Fin 1 → Nat :=
  let arg0 : BitVec 32 := BitVec.ofNat 32 (i 0).val
  let c8_i32 : BitVec 32 := 8#32
  let v0 : BitVec 32 := Scalar.muli arg0 c8_i32
  let c2_i32 : BitVec 32 := 2#32
  let v19 : BitVec 32 := Scalar.addi v0 c2_i32
  let v20 : Index := Scalar.indexCast v19
  ![v20.toNat]
def k5_off6 (v21 : BitVec 32) : Fin 2 → Nat :=
  let c0_i32_11 : BitVec 32 := 0#32
  ![v21.toNat, 0]

def k5_off7 (i : grid5.Coords) : Fin 1 → Nat :=
  let arg0 : BitVec 32 := BitVec.ofNat 32 (i 0).val
  let c8_i32 : BitVec 32 := 8#32
  let v0 : BitVec 32 := Scalar.muli arg0 c8_i32
  let c3_i32 : BitVec 32 := 3#32
  let v28 : BitVec 32 := Scalar.addi v0 c3_i32
  let v29 : Index := Scalar.indexCast v28
  ![v29.toNat]
def k5_off8 (v30 : BitVec 32) : Fin 2 → Nat :=
  let c0_i32_15 : BitVec 32 := 0#32
  ![v30.toNat, 0]

def k5_off9 (i : grid5.Coords) : Fin 1 → Nat :=
  let arg0 : BitVec 32 := BitVec.ofNat 32 (i 0).val
  let c8_i32 : BitVec 32 := 8#32
  let v0 : BitVec 32 := Scalar.muli arg0 c8_i32
  let c4_i32 : BitVec 32 := 4#32
  let v37 : BitVec 32 := Scalar.addi v0 c4_i32
  let v38 : Index := Scalar.indexCast v37
  ![v38.toNat]
def k5_off10 (v39 : BitVec 32) : Fin 2 → Nat :=
  let c0_i32_19 : BitVec 32 := 0#32
  ![v39.toNat, 0]

def k5_off11 (i : grid5.Coords) : Fin 1 → Nat :=
  let arg0 : BitVec 32 := BitVec.ofNat 32 (i 0).val
  let c8_i32 : BitVec 32 := 8#32
  let v0 : BitVec 32 := Scalar.muli arg0 c8_i32
  let c5_i32 : BitVec 32 := 5#32
  let v46 : BitVec 32 := Scalar.addi v0 c5_i32
  let v47 : Index := Scalar.indexCast v46
  ![v47.toNat]
def k5_off12 (v48 : BitVec 32) : Fin 2 → Nat :=
  let c0_i32_23 : BitVec 32 := 0#32
  ![v48.toNat, 0]

def k5_off13 (i : grid5.Coords) : Fin 1 → Nat :=
  let arg0 : BitVec 32 := BitVec.ofNat 32 (i 0).val
  let c8_i32 : BitVec 32 := 8#32
  let v0 : BitVec 32 := Scalar.muli arg0 c8_i32
  let c6_i32 : BitVec 32 := 6#32
  let v55 : BitVec 32 := Scalar.addi v0 c6_i32
  let v56 : Index := Scalar.indexCast v55
  ![v56.toNat]
def k5_off14 (v57 : BitVec 32) : Fin 2 → Nat :=
  let c0_i32_27 : BitVec 32 := 0#32
  ![v57.toNat, 0]

def k5_off15 (i : grid5.Coords) : Fin 1 → Nat :=
  let arg0 : BitVec 32 := BitVec.ofNat 32 (i 0).val
  let c8_i32 : BitVec 32 := 8#32
  let v0 : BitVec 32 := Scalar.muli arg0 c8_i32
  let c7_i32 : BitVec 32 := 7#32
  let v64 : BitVec 32 := Scalar.addi v0 c7_i32
  let v65 : Index := Scalar.indexCast v64
  ![v65.toNat]
def k5_off16 (v66 : BitVec 32) : Fin 2 → Nat :=
  let c0_i32_31 : BitVec 32 := 0#32
  ![v66.toNat, 0]

def k5_chk8 (v66 : BitVec 32) : Prop :=
  (∀ a, (k5_off16 v66) a + S1x128.size a ≤ S50000x128.size a)
instance k5_chk8.dec : ∀ (v66 : BitVec 32), Decidable (k5_chk8 v66) := fun v66 => decidable_of_iff' _ (Iff.of_eq (k5_chk8.eq_1 v66))
theorem k5_off16_inb : ∀ (v66 : BitVec 32) (k5_hw8 : k5_chk8 v66), ∀ a, (k5_off16 v66) a + S1x128.size a ≤ S50000x128.size a := fun v66 k5_hw8 => k5_hw8

def k5_off17 (v3 : BitVec 32) : Fin 2 → Nat :=
  let c0_i32_35 : BitVec 32 := 0#32
  ![v3.toNat, 0]

def k5_chk1 (v3 : BitVec 32) : Prop :=
  (∀ a, (k5_off2 v3) a + S1x128.size a ≤ S50000x128.size a) ∧
  (∀ a, (k5_off17 v3) a + S1x128.size a ≤ S50000x128.size a)
instance k5_chk1.dec : ∀ (v3 : BitVec 32), Decidable (k5_chk1 v3) := fun v3 => decidable_of_iff' _ (Iff.of_eq (k5_chk1.eq_1 v3))
theorem k5_off2_inb : ∀ (v3 : BitVec 32) (k5_hw1 : k5_chk1 v3), ∀ a, (k5_off2 v3) a + S1x128.size a ≤ S50000x128.size a := fun v3 k5_hw1 => k5_hw1.1
theorem k5_off17_inb : ∀ (v3 : BitVec 32) (k5_hw1 : k5_chk1 v3), ∀ a, (k5_off17 v3) a + S1x128.size a ≤ S50000x128.size a := fun v3 k5_hw1 => k5_hw1.2

def k5_off18 (v12 : BitVec 32) : Fin 2 → Nat :=
  let c0_i32_39 : BitVec 32 := 0#32
  ![v12.toNat, 0]

def k5_chk2 (v12 : BitVec 32) : Prop :=
  (∀ a, (k5_off4 v12) a + S1x128.size a ≤ S50000x128.size a) ∧
  (∀ a, (k5_off18 v12) a + S1x128.size a ≤ S50000x128.size a)
instance k5_chk2.dec : ∀ (v12 : BitVec 32), Decidable (k5_chk2 v12) := fun v12 => decidable_of_iff' _ (Iff.of_eq (k5_chk2.eq_1 v12))
theorem k5_off4_inb : ∀ (v12 : BitVec 32) (k5_hw2 : k5_chk2 v12), ∀ a, (k5_off4 v12) a + S1x128.size a ≤ S50000x128.size a := fun v12 k5_hw2 => k5_hw2.1
theorem k5_off18_inb : ∀ (v12 : BitVec 32) (k5_hw2 : k5_chk2 v12), ∀ a, (k5_off18 v12) a + S1x128.size a ≤ S50000x128.size a := fun v12 k5_hw2 => k5_hw2.2

def k5_off19 (v21 : BitVec 32) : Fin 2 → Nat :=
  let c0_i32_43 : BitVec 32 := 0#32
  ![v21.toNat, 0]

def k5_chk3 (v21 : BitVec 32) : Prop :=
  (∀ a, (k5_off6 v21) a + S1x128.size a ≤ S50000x128.size a) ∧
  (∀ a, (k5_off19 v21) a + S1x128.size a ≤ S50000x128.size a)
instance k5_chk3.dec : ∀ (v21 : BitVec 32), Decidable (k5_chk3 v21) := fun v21 => decidable_of_iff' _ (Iff.of_eq (k5_chk3.eq_1 v21))
theorem k5_off6_inb : ∀ (v21 : BitVec 32) (k5_hw3 : k5_chk3 v21), ∀ a, (k5_off6 v21) a + S1x128.size a ≤ S50000x128.size a := fun v21 k5_hw3 => k5_hw3.1
theorem k5_off19_inb : ∀ (v21 : BitVec 32) (k5_hw3 : k5_chk3 v21), ∀ a, (k5_off19 v21) a + S1x128.size a ≤ S50000x128.size a := fun v21 k5_hw3 => k5_hw3.2

def k5_off20 (v30 : BitVec 32) : Fin 2 → Nat :=
  let c0_i32_47 : BitVec 32 := 0#32
  ![v30.toNat, 0]

def k5_chk4 (v30 : BitVec 32) : Prop :=
  (∀ a, (k5_off8 v30) a + S1x128.size a ≤ S50000x128.size a) ∧
  (∀ a, (k5_off20 v30) a + S1x128.size a ≤ S50000x128.size a)
instance k5_chk4.dec : ∀ (v30 : BitVec 32), Decidable (k5_chk4 v30) := fun v30 => decidable_of_iff' _ (Iff.of_eq (k5_chk4.eq_1 v30))
theorem k5_off8_inb : ∀ (v30 : BitVec 32) (k5_hw4 : k5_chk4 v30), ∀ a, (k5_off8 v30) a + S1x128.size a ≤ S50000x128.size a := fun v30 k5_hw4 => k5_hw4.1
theorem k5_off20_inb : ∀ (v30 : BitVec 32) (k5_hw4 : k5_chk4 v30), ∀ a, (k5_off20 v30) a + S1x128.size a ≤ S50000x128.size a := fun v30 k5_hw4 => k5_hw4.2

def k5_off21 (v39 : BitVec 32) : Fin 2 → Nat :=
  let c0_i32_51 : BitVec 32 := 0#32
  ![v39.toNat, 0]

def k5_chk5 (v39 : BitVec 32) : Prop :=
  (∀ a, (k5_off10 v39) a + S1x128.size a ≤ S50000x128.size a) ∧
  (∀ a, (k5_off21 v39) a + S1x128.size a ≤ S50000x128.size a)
instance k5_chk5.dec : ∀ (v39 : BitVec 32), Decidable (k5_chk5 v39) := fun v39 => decidable_of_iff' _ (Iff.of_eq (k5_chk5.eq_1 v39))
theorem k5_off10_inb : ∀ (v39 : BitVec 32) (k5_hw5 : k5_chk5 v39), ∀ a, (k5_off10 v39) a + S1x128.size a ≤ S50000x128.size a := fun v39 k5_hw5 => k5_hw5.1
theorem k5_off21_inb : ∀ (v39 : BitVec 32) (k5_hw5 : k5_chk5 v39), ∀ a, (k5_off21 v39) a + S1x128.size a ≤ S50000x128.size a := fun v39 k5_hw5 => k5_hw5.2

def k5_off22 (v48 : BitVec 32) : Fin 2 → Nat :=
  let c0_i32_55 : BitVec 32 := 0#32
  ![v48.toNat, 0]

def k5_chk6 (v48 : BitVec 32) : Prop :=
  (∀ a, (k5_off12 v48) a + S1x128.size a ≤ S50000x128.size a) ∧
  (∀ a, (k5_off22 v48) a + S1x128.size a ≤ S50000x128.size a)
instance k5_chk6.dec : ∀ (v48 : BitVec 32), Decidable (k5_chk6 v48) := fun v48 => decidable_of_iff' _ (Iff.of_eq (k5_chk6.eq_1 v48))
theorem k5_off12_inb : ∀ (v48 : BitVec 32) (k5_hw6 : k5_chk6 v48), ∀ a, (k5_off12 v48) a + S1x128.size a ≤ S50000x128.size a := fun v48 k5_hw6 => k5_hw6.1
theorem k5_off22_inb : ∀ (v48 : BitVec 32) (k5_hw6 : k5_chk6 v48), ∀ a, (k5_off22 v48) a + S1x128.size a ≤ S50000x128.size a := fun v48 k5_hw6 => k5_hw6.2

def k5_off23 (v57 : BitVec 32) : Fin 2 → Nat :=
  let c0_i32_59 : BitVec 32 := 0#32
  ![v57.toNat, 0]

def k5_chk7 (v57 : BitVec 32) : Prop :=
  (∀ a, (k5_off14 v57) a + S1x128.size a ≤ S50000x128.size a) ∧
  (∀ a, (k5_off23 v57) a + S1x128.size a ≤ S50000x128.size a)
instance k5_chk7.dec : ∀ (v57 : BitVec 32), Decidable (k5_chk7 v57) := fun v57 => decidable_of_iff' _ (Iff.of_eq (k5_chk7.eq_1 v57))
theorem k5_off14_inb : ∀ (v57 : BitVec 32) (k5_hw7 : k5_chk7 v57), ∀ a, (k5_off14 v57) a + S1x128.size a ≤ S50000x128.size a := fun v57 k5_hw7 => k5_hw7.1
theorem k5_off23_inb : ∀ (v57 : BitVec 32) (k5_hw7 : k5_chk7 v57), ∀ a, (k5_off23 v57) a + S1x128.size a ≤ S50000x128.size a := fun v57 k5_hw7 => k5_hw7.2

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S8x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev grid6 : Pipeline.Grid := ⟨1, ![10625], ![false]⟩

abbrev pre6 : Pipeline.Prefetch sig := ⟨1, ![main_v44.idx], fun | 0 => main_v44.names | ⟨_ + 1, h⟩ => absurd h (Nat.not_lt.2 (Nat.le_add_left _ _)), fun | 0 => rfl | ⟨_ + 1, h⟩ => absurd h (Nat.not_lt.2 (Nat.le_add_left _ _))⟩

def k6_off1 (i : grid6.Coords) : Fin 1 → Nat :=
  let arg0 : BitVec 32 := BitVec.ofNat 32 (i 0).val
  let c8_i32 : BitVec 32 := 8#32
  let v0 : BitVec 32 := Scalar.muli arg0 c8_i32
  let c0_i32 : BitVec 32 := 0#32
  let v1 : BitVec 32 := Scalar.addi v0 c0_i32
  let v2 : Index := Scalar.indexCast v1
  ![v2.toNat]
def k6_off2 (v3 : BitVec 32) : Fin 2 → Nat :=
  let c0_i32_3 : BitVec 32 := 0#32
  ![v3.toNat, 0]

def k6_off3 (i : grid6.Coords) : Fin 1 → Nat :=
  let arg0 : BitVec 32 := BitVec.ofNat 32 (i 0).val
  let c8_i32 : BitVec 32 := 8#32
  let v0 : BitVec 32 := Scalar.muli arg0 c8_i32
  let c1_i32 : BitVec 32 := 1#32
  let v10 : BitVec 32 := Scalar.addi v0 c1_i32
  let v11 : Index := Scalar.indexCast v10
  ![v11.toNat]
def k6_off4 (v12 : BitVec 32) : Fin 2 → Nat :=
  let c0_i32_7 : BitVec 32 := 0#32
  ![v12.toNat, 0]

def k6_off5 (i : grid6.Coords) : Fin 1 → Nat :=
  let arg0 : BitVec 32 := BitVec.ofNat 32 (i 0).val
  let c8_i32 : BitVec 32 := 8#32
  let v0 : BitVec 32 := Scalar.muli arg0 c8_i32
  let c2_i32 : BitVec 32 := 2#32
  let v19 : BitVec 32 := Scalar.addi v0 c2_i32
  let v20 : Index := Scalar.indexCast v19
  ![v20.toNat]
def k6_off6 (v21 : BitVec 32) : Fin 2 → Nat :=
  let c0_i32_11 : BitVec 32 := 0#32
  ![v21.toNat, 0]

def k6_off7 (i : grid6.Coords) : Fin 1 → Nat :=
  let arg0 : BitVec 32 := BitVec.ofNat 32 (i 0).val
  let c8_i32 : BitVec 32 := 8#32
  let v0 : BitVec 32 := Scalar.muli arg0 c8_i32
  let c3_i32 : BitVec 32 := 3#32
  let v28 : BitVec 32 := Scalar.addi v0 c3_i32
  let v29 : Index := Scalar.indexCast v28
  ![v29.toNat]
def k6_off8 (v30 : BitVec 32) : Fin 2 → Nat :=
  let c0_i32_15 : BitVec 32 := 0#32
  ![v30.toNat, 0]

def k6_off9 (i : grid6.Coords) : Fin 1 → Nat :=
  let arg0 : BitVec 32 := BitVec.ofNat 32 (i 0).val
  let c8_i32 : BitVec 32 := 8#32
  let v0 : BitVec 32 := Scalar.muli arg0 c8_i32
  let c4_i32 : BitVec 32 := 4#32
  let v37 : BitVec 32 := Scalar.addi v0 c4_i32
  let v38 : Index := Scalar.indexCast v37
  ![v38.toNat]
def k6_off10 (v39 : BitVec 32) : Fin 2 → Nat :=
  let c0_i32_19 : BitVec 32 := 0#32
  ![v39.toNat, 0]

def k6_off11 (i : grid6.Coords) : Fin 1 → Nat :=
  let arg0 : BitVec 32 := BitVec.ofNat 32 (i 0).val
  let c8_i32 : BitVec 32 := 8#32
  let v0 : BitVec 32 := Scalar.muli arg0 c8_i32
  let c5_i32 : BitVec 32 := 5#32
  let v46 : BitVec 32 := Scalar.addi v0 c5_i32
  let v47 : Index := Scalar.indexCast v46
  ![v47.toNat]
def k6_off12 (v48 : BitVec 32) : Fin 2 → Nat :=
  let c0_i32_23 : BitVec 32 := 0#32
  ![v48.toNat, 0]

def k6_off13 (i : grid6.Coords) : Fin 1 → Nat :=
  let arg0 : BitVec 32 := BitVec.ofNat 32 (i 0).val
  let c8_i32 : BitVec 32 := 8#32
  let v0 : BitVec 32 := Scalar.muli arg0 c8_i32
  let c6_i32 : BitVec 32 := 6#32
  let v55 : BitVec 32 := Scalar.addi v0 c6_i32
  let v56 : Index := Scalar.indexCast v55
  ![v56.toNat]
def k6_off14 (v57 : BitVec 32) : Fin 2 → Nat :=
  let c0_i32_27 : BitVec 32 := 0#32
  ![v57.toNat, 0]

def k6_off15 (i : grid6.Coords) : Fin 1 → Nat :=
  let arg0 : BitVec 32 := BitVec.ofNat 32 (i 0).val
  let c8_i32 : BitVec 32 := 8#32
  let v0 : BitVec 32 := Scalar.muli arg0 c8_i32
  let c7_i32 : BitVec 32 := 7#32
  let v64 : BitVec 32 := Scalar.addi v0 c7_i32
  let v65 : Index := Scalar.indexCast v64
  ![v65.toNat]
def k6_off16 (v66 : BitVec 32) : Fin 2 → Nat :=
  let c0_i32_31 : BitVec 32 := 0#32
  ![v66.toNat, 0]

def k6_chk8 (v66 : BitVec 32) : Prop :=
  (∀ a, (k6_off16 v66) a + S1x128.size a ≤ S50000x128.size a)
instance k6_chk8.dec : ∀ (v66 : BitVec 32), Decidable (k6_chk8 v66) := fun v66 => decidable_of_iff' _ (Iff.of_eq (k6_chk8.eq_1 v66))
theorem k6_off16_inb : ∀ (v66 : BitVec 32) (k6_hw8 : k6_chk8 v66), ∀ a, (k6_off16 v66) a + S1x128.size a ≤ S50000x128.size a := fun v66 k6_hw8 => k6_hw8

def k6_off17 (v3 : BitVec 32) : Fin 2 → Nat :=
  let c0_i32_35 : BitVec 32 := 0#32
  ![v3.toNat, 0]

def k6_chk1 (v3 : BitVec 32) : Prop :=
  (∀ a, (k6_off2 v3) a + S1x128.size a ≤ S50000x128.size a) ∧
  (∀ a, (k6_off17 v3) a + S1x128.size a ≤ S50000x128.size a)
instance k6_chk1.dec : ∀ (v3 : BitVec 32), Decidable (k6_chk1 v3) := fun v3 => decidable_of_iff' _ (Iff.of_eq (k6_chk1.eq_1 v3))
theorem k6_off2_inb : ∀ (v3 : BitVec 32) (k6_hw1 : k6_chk1 v3), ∀ a, (k6_off2 v3) a + S1x128.size a ≤ S50000x128.size a := fun v3 k6_hw1 => k6_hw1.1
theorem k6_off17_inb : ∀ (v3 : BitVec 32) (k6_hw1 : k6_chk1 v3), ∀ a, (k6_off17 v3) a + S1x128.size a ≤ S50000x128.size a := fun v3 k6_hw1 => k6_hw1.2

def k6_off18 (v12 : BitVec 32) : Fin 2 → Nat :=
  let c0_i32_39 : BitVec 32 := 0#32
  ![v12.toNat, 0]

def k6_chk2 (v12 : BitVec 32) : Prop :=
  (∀ a, (k6_off4 v12) a + S1x128.size a ≤ S50000x128.size a) ∧
  (∀ a, (k6_off18 v12) a + S1x128.size a ≤ S50000x128.size a)
instance k6_chk2.dec : ∀ (v12 : BitVec 32), Decidable (k6_chk2 v12) := fun v12 => decidable_of_iff' _ (Iff.of_eq (k6_chk2.eq_1 v12))
theorem k6_off4_inb : ∀ (v12 : BitVec 32) (k6_hw2 : k6_chk2 v12), ∀ a, (k6_off4 v12) a + S1x128.size a ≤ S50000x128.size a := fun v12 k6_hw2 => k6_hw2.1
theorem k6_off18_inb : ∀ (v12 : BitVec 32) (k6_hw2 : k6_chk2 v12), ∀ a, (k6_off18 v12) a + S1x128.size a ≤ S50000x128.size a := fun v12 k6_hw2 => k6_hw2.2

def k6_off19 (v21 : BitVec 32) : Fin 2 → Nat :=
  let c0_i32_43 : BitVec 32 := 0#32
  ![v21.toNat, 0]

def k6_chk3 (v21 : BitVec 32) : Prop :=
  (∀ a, (k6_off6 v21) a + S1x128.size a ≤ S50000x128.size a) ∧
  (∀ a, (k6_off19 v21) a + S1x128.size a ≤ S50000x128.size a)
instance k6_chk3.dec : ∀ (v21 : BitVec 32), Decidable (k6_chk3 v21) := fun v21 => decidable_of_iff' _ (Iff.of_eq (k6_chk3.eq_1 v21))
theorem k6_off6_inb : ∀ (v21 : BitVec 32) (k6_hw3 : k6_chk3 v21), ∀ a, (k6_off6 v21) a + S1x128.size a ≤ S50000x128.size a := fun v21 k6_hw3 => k6_hw3.1
theorem k6_off19_inb : ∀ (v21 : BitVec 32) (k6_hw3 : k6_chk3 v21), ∀ a, (k6_off19 v21) a + S1x128.size a ≤ S50000x128.size a := fun v21 k6_hw3 => k6_hw3.2

def k6_off20 (v30 : BitVec 32) : Fin 2 → Nat :=
  let c0_i32_47 : BitVec 32 := 0#32
  ![v30.toNat, 0]

def k6_chk4 (v30 : BitVec 32) : Prop :=
  (∀ a, (k6_off8 v30) a + S1x128.size a ≤ S50000x128.size a) ∧
  (∀ a, (k6_off20 v30) a + S1x128.size a ≤ S50000x128.size a)
instance k6_chk4.dec : ∀ (v30 : BitVec 32), Decidable (k6_chk4 v30) := fun v30 => decidable_of_iff' _ (Iff.of_eq (k6_chk4.eq_1 v30))
theorem k6_off8_inb : ∀ (v30 : BitVec 32) (k6_hw4 : k6_chk4 v30), ∀ a, (k6_off8 v30) a + S1x128.size a ≤ S50000x128.size a := fun v30 k6_hw4 => k6_hw4.1
theorem k6_off20_inb : ∀ (v30 : BitVec 32) (k6_hw4 : k6_chk4 v30), ∀ a, (k6_off20 v30) a + S1x128.size a ≤ S50000x128.size a := fun v30 k6_hw4 => k6_hw4.2

def k6_off21 (v39 : BitVec 32) : Fin 2 → Nat :=
  let c0_i32_51 : BitVec 32 := 0#32
  ![v39.toNat, 0]

def k6_chk5 (v39 : BitVec 32) : Prop :=
  (∀ a, (k6_off10 v39) a + S1x128.size a ≤ S50000x128.size a) ∧
  (∀ a, (k6_off21 v39) a + S1x128.size a ≤ S50000x128.size a)
instance k6_chk5.dec : ∀ (v39 : BitVec 32), Decidable (k6_chk5 v39) := fun v39 => decidable_of_iff' _ (Iff.of_eq (k6_chk5.eq_1 v39))
theorem k6_off10_inb : ∀ (v39 : BitVec 32) (k6_hw5 : k6_chk5 v39), ∀ a, (k6_off10 v39) a + S1x128.size a ≤ S50000x128.size a := fun v39 k6_hw5 => k6_hw5.1
theorem k6_off21_inb : ∀ (v39 : BitVec 32) (k6_hw5 : k6_chk5 v39), ∀ a, (k6_off21 v39) a + S1x128.size a ≤ S50000x128.size a := fun v39 k6_hw5 => k6_hw5.2

def k6_off22 (v48 : BitVec 32) : Fin 2 → Nat :=
  let c0_i32_55 : BitVec 32 := 0#32
  ![v48.toNat, 0]

def k6_chk6 (v48 : BitVec 32) : Prop :=
  (∀ a, (k6_off12 v48) a + S1x128.size a ≤ S50000x128.size a) ∧
  (∀ a, (k6_off22 v48) a + S1x128.size a ≤ S50000x128.size a)
instance k6_chk6.dec : ∀ (v48 : BitVec 32), Decidable (k6_chk6 v48) := fun v48 => decidable_of_iff' _ (Iff.of_eq (k6_chk6.eq_1 v48))
theorem k6_off12_inb : ∀ (v48 : BitVec 32) (k6_hw6 : k6_chk6 v48), ∀ a, (k6_off12 v48) a + S1x128.size a ≤ S50000x128.size a := fun v48 k6_hw6 => k6_hw6.1
theorem k6_off22_inb : ∀ (v48 : BitVec 32) (k6_hw6 : k6_chk6 v48), ∀ a, (k6_off22 v48) a + S1x128.size a ≤ S50000x128.size a := fun v48 k6_hw6 => k6_hw6.2

def k6_off23 (v57 : BitVec 32) : Fin 2 → Nat :=
  let c0_i32_59 : BitVec 32 := 0#32
  ![v57.toNat, 0]

def k6_chk7 (v57 : BitVec 32) : Prop :=
  (∀ a, (k6_off14 v57) a + S1x128.size a ≤ S50000x128.size a) ∧
  (∀ a, (k6_off23 v57) a + S1x128.size a ≤ S50000x128.size a)
instance k6_chk7.dec : ∀ (v57 : BitVec 32), Decidable (k6_chk7 v57) := fun v57 => decidable_of_iff' _ (Iff.of_eq (k6_chk7.eq_1 v57))
theorem k6_off14_inb : ∀ (v57 : BitVec 32) (k6_hw7 : k6_chk7 v57), ∀ a, (k6_off14 v57) a + S1x128.size a ≤ S50000x128.size a := fun v57 k6_hw7 => k6_hw7.1
theorem k6_off23_inb : ∀ (v57 : BitVec 32) (k6_hw7 : k6_chk7 v57), ∀ a, (k6_off23 v57) a + S1x128.size a ≤ S50000x128.size a := fun v57 k6_hw7 => k6_hw7.2

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S8x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev grid7 : Pipeline.Grid := ⟨1, ![10625], ![false]⟩

abbrev pre7 : Pipeline.Prefetch sig := ⟨1, ![main_v46.idx], fun | 0 => main_v46.names | ⟨_ + 1, h⟩ => absurd h (Nat.not_lt.2 (Nat.le_add_left _ _)), fun | 0 => rfl | ⟨_ + 1, h⟩ => absurd h (Nat.not_lt.2 (Nat.le_add_left _ _))⟩

def k7_off1 (i : grid7.Coords) : Fin 1 → Nat :=
  let arg0 : BitVec 32 := BitVec.ofNat 32 (i 0).val
  let c8_i32 : BitVec 32 := 8#32
  let v0 : BitVec 32 := Scalar.muli arg0 c8_i32
  let c0_i32 : BitVec 32 := 0#32
  let v1 : BitVec 32 := Scalar.addi v0 c0_i32
  let v2 : Index := Scalar.indexCast v1
  ![v2.toNat]
def k7_off2 (v3 : BitVec 32) : Fin 2 → Nat :=
  let c0_i32_3 : BitVec 32 := 0#32
  ![v3.toNat, 0]

def k7_off3 (i : grid7.Coords) : Fin 1 → Nat :=
  let arg0 : BitVec 32 := BitVec.ofNat 32 (i 0).val
  let c8_i32 : BitVec 32 := 8#32
  let v0 : BitVec 32 := Scalar.muli arg0 c8_i32
  let c1_i32 : BitVec 32 := 1#32
  let v10 : BitVec 32 := Scalar.addi v0 c1_i32
  let v11 : Index := Scalar.indexCast v10
  ![v11.toNat]
def k7_off4 (v12 : BitVec 32) : Fin 2 → Nat :=
  let c0_i32_7 : BitVec 32 := 0#32
  ![v12.toNat, 0]

def k7_off5 (i : grid7.Coords) : Fin 1 → Nat :=
  let arg0 : BitVec 32 := BitVec.ofNat 32 (i 0).val
  let c8_i32 : BitVec 32 := 8#32
  let v0 : BitVec 32 := Scalar.muli arg0 c8_i32
  let c2_i32 : BitVec 32 := 2#32
  let v19 : BitVec 32 := Scalar.addi v0 c2_i32
  let v20 : Index := Scalar.indexCast v19
  ![v20.toNat]
def k7_off6 (v21 : BitVec 32) : Fin 2 → Nat :=
  let c0_i32_11 : BitVec 32 := 0#32
  ![v21.toNat, 0]

def k7_off7 (i : grid7.Coords) : Fin 1 → Nat :=
  let arg0 : BitVec 32 := BitVec.ofNat 32 (i 0).val
  let c8_i32 : BitVec 32 := 8#32
  let v0 : BitVec 32 := Scalar.muli arg0 c8_i32
  let c3_i32 : BitVec 32 := 3#32
  let v28 : BitVec 32 := Scalar.addi v0 c3_i32
  let v29 : Index := Scalar.indexCast v28
  ![v29.toNat]
def k7_off8 (v30 : BitVec 32) : Fin 2 → Nat :=
  let c0_i32_15 : BitVec 32 := 0#32
  ![v30.toNat, 0]

def k7_off9 (i : grid7.Coords) : Fin 1 → Nat :=
  let arg0 : BitVec 32 := BitVec.ofNat 32 (i 0).val
  let c8_i32 : BitVec 32 := 8#32
  let v0 : BitVec 32 := Scalar.muli arg0 c8_i32
  let c4_i32 : BitVec 32 := 4#32
  let v37 : BitVec 32 := Scalar.addi v0 c4_i32
  let v38 : Index := Scalar.indexCast v37
  ![v38.toNat]
def k7_off10 (v39 : BitVec 32) : Fin 2 → Nat :=
  let c0_i32_19 : BitVec 32 := 0#32
  ![v39.toNat, 0]

def k7_off11 (i : grid7.Coords) : Fin 1 → Nat :=
  let arg0 : BitVec 32 := BitVec.ofNat 32 (i 0).val
  let c8_i32 : BitVec 32 := 8#32
  let v0 : BitVec 32 := Scalar.muli arg0 c8_i32
  let c5_i32 : BitVec 32 := 5#32
  let v46 : BitVec 32 := Scalar.addi v0 c5_i32
  let v47 : Index := Scalar.indexCast v46
  ![v47.toNat]
def k7_off12 (v48 : BitVec 32) : Fin 2 → Nat :=
  let c0_i32_23 : BitVec 32 := 0#32
  ![v48.toNat, 0]

def k7_off13 (i : grid7.Coords) : Fin 1 → Nat :=
  let arg0 : BitVec 32 := BitVec.ofNat 32 (i 0).val
  let c8_i32 : BitVec 32 := 8#32
  let v0 : BitVec 32 := Scalar.muli arg0 c8_i32
  let c6_i32 : BitVec 32 := 6#32
  let v55 : BitVec 32 := Scalar.addi v0 c6_i32
  let v56 : Index := Scalar.indexCast v55
  ![v56.toNat]
def k7_off14 (v57 : BitVec 32) : Fin 2 → Nat :=
  let c0_i32_27 : BitVec 32 := 0#32
  ![v57.toNat, 0]

def k7_off15 (i : grid7.Coords) : Fin 1 → Nat :=
  let arg0 : BitVec 32 := BitVec.ofNat 32 (i 0).val
  let c8_i32 : BitVec 32 := 8#32
  let v0 : BitVec 32 := Scalar.muli arg0 c8_i32
  let c7_i32 : BitVec 32 := 7#32
  let v64 : BitVec 32 := Scalar.addi v0 c7_i32
  let v65 : Index := Scalar.indexCast v64
  ![v65.toNat]
def k7_off16 (v66 : BitVec 32) : Fin 2 → Nat :=
  let c0_i32_31 : BitVec 32 := 0#32
  ![v66.toNat, 0]

def k7_chk8 (v66 : BitVec 32) : Prop :=
  (∀ a, (k7_off16 v66) a + S1x128.size a ≤ S50000x128.size a)
instance k7_chk8.dec : ∀ (v66 : BitVec 32), Decidable (k7_chk8 v66) := fun v66 => decidable_of_iff' _ (Iff.of_eq (k7_chk8.eq_1 v66))
theorem k7_off16_inb : ∀ (v66 : BitVec 32) (k7_hw8 : k7_chk8 v66), ∀ a, (k7_off16 v66) a + S1x128.size a ≤ S50000x128.size a := fun v66 k7_hw8 => k7_hw8

def k7_off17 (v3 : BitVec 32) : Fin 2 → Nat :=
  let c0_i32_35 : BitVec 32 := 0#32
  ![v3.toNat, 0]

def k7_chk1 (v3 : BitVec 32) : Prop :=
  (∀ a, (k7_off2 v3) a + S1x128.size a ≤ S50000x128.size a) ∧
  (∀ a, (k7_off17 v3) a + S1x128.size a ≤ S50000x128.size a)
instance k7_chk1.dec : ∀ (v3 : BitVec 32), Decidable (k7_chk1 v3) := fun v3 => decidable_of_iff' _ (Iff.of_eq (k7_chk1.eq_1 v3))
theorem k7_off2_inb : ∀ (v3 : BitVec 32) (k7_hw1 : k7_chk1 v3), ∀ a, (k7_off2 v3) a + S1x128.size a ≤ S50000x128.size a := fun v3 k7_hw1 => k7_hw1.1
theorem k7_off17_inb : ∀ (v3 : BitVec 32) (k7_hw1 : k7_chk1 v3), ∀ a, (k7_off17 v3) a + S1x128.size a ≤ S50000x128.size a := fun v3 k7_hw1 => k7_hw1.2

def k7_off18 (v12 : BitVec 32) : Fin 2 → Nat :=
  let c0_i32_39 : BitVec 32 := 0#32
  ![v12.toNat, 0]

def k7_chk2 (v12 : BitVec 32) : Prop :=
  (∀ a, (k7_off4 v12) a + S1x128.size a ≤ S50000x128.size a) ∧
  (∀ a, (k7_off18 v12) a + S1x128.size a ≤ S50000x128.size a)
instance k7_chk2.dec : ∀ (v12 : BitVec 32), Decidable (k7_chk2 v12) := fun v12 => decidable_of_iff' _ (Iff.of_eq (k7_chk2.eq_1 v12))
theorem k7_off4_inb : ∀ (v12 : BitVec 32) (k7_hw2 : k7_chk2 v12), ∀ a, (k7_off4 v12) a + S1x128.size a ≤ S50000x128.size a := fun v12 k7_hw2 => k7_hw2.1
theorem k7_off18_inb : ∀ (v12 : BitVec 32) (k7_hw2 : k7_chk2 v12), ∀ a, (k7_off18 v12) a + S1x128.size a ≤ S50000x128.size a := fun v12 k7_hw2 => k7_hw2.2

def k7_off19 (v21 : BitVec 32) : Fin 2 → Nat :=
  let c0_i32_43 : BitVec 32 := 0#32
  ![v21.toNat, 0]

def k7_chk3 (v21 : BitVec 32) : Prop :=
  (∀ a, (k7_off6 v21) a + S1x128.size a ≤ S50000x128.size a) ∧
  (∀ a, (k7_off19 v21) a + S1x128.size a ≤ S50000x128.size a)
instance k7_chk3.dec : ∀ (v21 : BitVec 32), Decidable (k7_chk3 v21) := fun v21 => decidable_of_iff' _ (Iff.of_eq (k7_chk3.eq_1 v21))
theorem k7_off6_inb : ∀ (v21 : BitVec 32) (k7_hw3 : k7_chk3 v21), ∀ a, (k7_off6 v21) a + S1x128.size a ≤ S50000x128.size a := fun v21 k7_hw3 => k7_hw3.1
theorem k7_off19_inb : ∀ (v21 : BitVec 32) (k7_hw3 : k7_chk3 v21), ∀ a, (k7_off19 v21) a + S1x128.size a ≤ S50000x128.size a := fun v21 k7_hw3 => k7_hw3.2

def k7_off20 (v30 : BitVec 32) : Fin 2 → Nat :=
  let c0_i32_47 : BitVec 32 := 0#32
  ![v30.toNat, 0]

def k7_chk4 (v30 : BitVec 32) : Prop :=
  (∀ a, (k7_off8 v30) a + S1x128.size a ≤ S50000x128.size a) ∧
  (∀ a, (k7_off20 v30) a + S1x128.size a ≤ S50000x128.size a)
instance k7_chk4.dec : ∀ (v30 : BitVec 32), Decidable (k7_chk4 v30) := fun v30 => decidable_of_iff' _ (Iff.of_eq (k7_chk4.eq_1 v30))
theorem k7_off8_inb : ∀ (v30 : BitVec 32) (k7_hw4 : k7_chk4 v30), ∀ a, (k7_off8 v30) a + S1x128.size a ≤ S50000x128.size a := fun v30 k7_hw4 => k7_hw4.1
theorem k7_off20_inb : ∀ (v30 : BitVec 32) (k7_hw4 : k7_chk4 v30), ∀ a, (k7_off20 v30) a + S1x128.size a ≤ S50000x128.size a := fun v30 k7_hw4 => k7_hw4.2

def k7_off21 (v39 : BitVec 32) : Fin 2 → Nat :=
  let c0_i32_51 : BitVec 32 := 0#32
  ![v39.toNat, 0]

def k7_chk5 (v39 : BitVec 32) : Prop :=
  (∀ a, (k7_off10 v39) a + S1x128.size a ≤ S50000x128.size a) ∧
  (∀ a, (k7_off21 v39) a + S1x128.size a ≤ S50000x128.size a)
instance k7_chk5.dec : ∀ (v39 : BitVec 32), Decidable (k7_chk5 v39) := fun v39 => decidable_of_iff' _ (Iff.of_eq (k7_chk5.eq_1 v39))
theorem k7_off10_inb : ∀ (v39 : BitVec 32) (k7_hw5 : k7_chk5 v39), ∀ a, (k7_off10 v39) a + S1x128.size a ≤ S50000x128.size a := fun v39 k7_hw5 => k7_hw5.1
theorem k7_off21_inb : ∀ (v39 : BitVec 32) (k7_hw5 : k7_chk5 v39), ∀ a, (k7_off21 v39) a + S1x128.size a ≤ S50000x128.size a := fun v39 k7_hw5 => k7_hw5.2

def k7_off22 (v48 : BitVec 32) : Fin 2 → Nat :=
  let c0_i32_55 : BitVec 32 := 0#32
  ![v48.toNat, 0]

def k7_chk6 (v48 : BitVec 32) : Prop :=
  (∀ a, (k7_off12 v48) a + S1x128.size a ≤ S50000x128.size a) ∧
  (∀ a, (k7_off22 v48) a + S1x128.size a ≤ S50000x128.size a)
instance k7_chk6.dec : ∀ (v48 : BitVec 32), Decidable (k7_chk6 v48) := fun v48 => decidable_of_iff' _ (Iff.of_eq (k7_chk6.eq_1 v48))
theorem k7_off12_inb : ∀ (v48 : BitVec 32) (k7_hw6 : k7_chk6 v48), ∀ a, (k7_off12 v48) a + S1x128.size a ≤ S50000x128.size a := fun v48 k7_hw6 => k7_hw6.1
theorem k7_off22_inb : ∀ (v48 : BitVec 32) (k7_hw6 : k7_chk6 v48), ∀ a, (k7_off22 v48) a + S1x128.size a ≤ S50000x128.size a := fun v48 k7_hw6 => k7_hw6.2

def k7_off23 (v57 : BitVec 32) : Fin 2 → Nat :=
  let c0_i32_59 : BitVec 32 := 0#32
  ![v57.toNat, 0]

def k7_chk7 (v57 : BitVec 32) : Prop :=
  (∀ a, (k7_off14 v57) a + S1x128.size a ≤ S50000x128.size a) ∧
  (∀ a, (k7_off23 v57) a + S1x128.size a ≤ S50000x128.size a)
instance k7_chk7.dec : ∀ (v57 : BitVec 32), Decidable (k7_chk7 v57) := fun v57 => decidable_of_iff' _ (Iff.of_eq (k7_chk7.eq_1 v57))
theorem k7_off14_inb : ∀ (v57 : BitVec 32) (k7_hw7 : k7_chk7 v57), ∀ a, (k7_off14 v57) a + S1x128.size a ≤ S50000x128.size a := fun v57 k7_hw7 => k7_hw7.1
theorem k7_off23_inb : ∀ (v57 : BitVec 32) (k7_hw7 : k7_chk7 v57), ∀ a, (k7_off23 v57) a + S1x128.size a ≤ S50000x128.size a := fun v57 k7_hw7 => k7_hw7.2

def cc7_transform_1 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S8x128 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev grid8 : Pipeline.Grid := ⟨1, ![10625], ![false]⟩

abbrev pre8 : Pipeline.Prefetch sig := ⟨1, ![main_v48.idx], fun | 0 => main_v48.names | ⟨_ + 1, h⟩ => absurd h (Nat.not_lt.2 (Nat.le_add_left _ _)), fun | 0 => rfl | ⟨_ + 1, h⟩ => absurd h (Nat.not_lt.2 (Nat.le_add_left _ _))⟩

def k8_off1 (i : grid8.Coords) : Fin 1 → Nat :=
  let arg0 : BitVec 32 := BitVec.ofNat 32 (i 0).val
  let c8_i32 : BitVec 32 := 8#32
  let v0 : BitVec 32 := Scalar.muli arg0 c8_i32
  let c0_i32 : BitVec 32 := 0#32
  let v1 : BitVec 32 := Scalar.addi v0 c0_i32
  let v2 : Index := Scalar.indexCast v1
  ![v2.toNat]
def k8_off2 (v3 : BitVec 32) : Fin 2 → Nat :=
  let c0_i32_3 : BitVec 32 := 0#32
  ![v3.toNat, 0]

def k8_off3 (i : grid8.Coords) : Fin 1 → Nat :=
  let arg0 : BitVec 32 := BitVec.ofNat 32 (i 0).val
  let c8_i32 : BitVec 32 := 8#32
  let v0 : BitVec 32 := Scalar.muli arg0 c8_i32
  let c1_i32 : BitVec 32 := 1#32
  let v10 : BitVec 32 := Scalar.addi v0 c1_i32
  let v11 : Index := Scalar.indexCast v10
  ![v11.toNat]
def k8_off4 (v12 : BitVec 32) : Fin 2 → Nat :=
  let c0_i32_7 : BitVec 32 := 0#32
  ![v12.toNat, 0]

def k8_off5 (i : grid8.Coords) : Fin 1 → Nat :=
  let arg0 : BitVec 32 := BitVec.ofNat 32 (i 0).val
  let c8_i32 : BitVec 32 := 8#32
  let v0 : BitVec 32 := Scalar.muli arg0 c8_i32
  let c2_i32 : BitVec 32 := 2#32
  let v19 : BitVec 32 := Scalar.addi v0 c2_i32
  let v20 : Index := Scalar.indexCast v19
  ![v20.toNat]
def k8_off6 (v21 : BitVec 32) : Fin 2 → Nat :=
  let c0_i32_11 : BitVec 32 := 0#32
  ![v21.toNat, 0]

def k8_off7 (i : grid8.Coords) : Fin 1 → Nat :=
  let arg0 : BitVec 32 := BitVec.ofNat 32 (i 0).val
  let c8_i32 : BitVec 32 := 8#32
  let v0 : BitVec 32 := Scalar.muli arg0 c8_i32
  let c3_i32 : BitVec 32 := 3#32
  let v28 : BitVec 32 := Scalar.addi v0 c3_i32
  let v29 : Index := Scalar.indexCast v28
  ![v29.toNat]
def k8_off8 (v30 : BitVec 32) : Fin 2 → Nat :=
  let c0_i32_15 : BitVec 32 := 0#32
  ![v30.toNat, 0]

def k8_off9 (i : grid8.Coords) : Fin 1 → Nat :=
  let arg0 : BitVec 32 := BitVec.ofNat 32 (i 0).val
  let c8_i32 : BitVec 32 := 8#32
  let v0 : BitVec 32 := Scalar.muli arg0 c8_i32
  let c4_i32 : BitVec 32 := 4#32
  let v37 : BitVec 32 := Scalar.addi v0 c4_i32
  let v38 : Index := Scalar.indexCast v37
  ![v38.toNat]
def k8_off10 (v39 : BitVec 32) : Fin 2 → Nat :=
  let c0_i32_19 : BitVec 32 := 0#32
  ![v39.toNat, 0]

def k8_off11 (i : grid8.Coords) : Fin 1 → Nat :=
  let arg0 : BitVec 32 := BitVec.ofNat 32 (i 0).val
  let c8_i32 : BitVec 32 := 8#32
  let v0 : BitVec 32 := Scalar.muli arg0 c8_i32
  let c5_i32 : BitVec 32 := 5#32
  let v46 : BitVec 32 := Scalar.addi v0 c5_i32
  let v47 : Index := Scalar.indexCast v46
  ![v47.toNat]
def k8_off12 (v48 : BitVec 32) : Fin 2 → Nat :=
  let c0_i32_23 : BitVec 32 := 0#32
  ![v48.toNat, 0]

def k8_off13 (i : grid8.Coords) : Fin 1 → Nat :=
  let arg0 : BitVec 32 := BitVec.ofNat 32 (i 0).val
  let c8_i32 : BitVec 32 := 8#32
  let v0 : BitVec 32 := Scalar.muli arg0 c8_i32
  let c6_i32 : BitVec 32 := 6#32
  let v55 : BitVec 32 := Scalar.addi v0 c6_i32
  let v56 : Index := Scalar.indexCast v55
  ![v56.toNat]
def k8_off14 (v57 : BitVec 32) : Fin 2 → Nat :=
  let c0_i32_27 : BitVec 32 := 0#32
  ![v57.toNat, 0]

def k8_off15 (i : grid8.Coords) : Fin 1 → Nat :=
  let arg0 : BitVec 32 := BitVec.ofNat 32 (i 0).val
  let c8_i32 : BitVec 32 := 8#32
  let v0 : BitVec 32 := Scalar.muli arg0 c8_i32
  let c7_i32 : BitVec 32 := 7#32
  let v64 : BitVec 32 := Scalar.addi v0 c7_i32
  let v65 : Index := Scalar.indexCast v64
  ![v65.toNat]
def k8_off16 (v66 : BitVec 32) : Fin 2 → Nat :=
  let c0_i32_31 : BitVec 32 := 0#32
  ![v66.toNat, 0]

def k8_chk8 (v66 : BitVec 32) : Prop :=
  (∀ a, (k8_off16 v66) a + S1x128.size a ≤ S50000x128.size a)
instance k8_chk8.dec : ∀ (v66 : BitVec 32), Decidable (k8_chk8 v66) := fun v66 => decidable_of_iff' _ (Iff.of_eq (k8_chk8.eq_1 v66))
theorem k8_off16_inb : ∀ (v66 : BitVec 32) (k8_hw8 : k8_chk8 v66), ∀ a, (k8_off16 v66) a + S1x128.size a ≤ S50000x128.size a := fun v66 k8_hw8 => k8_hw8

def k8_off17 (v3 : BitVec 32) : Fin 2 → Nat :=
  let c0_i32_35 : BitVec 32 := 0#32
  ![v3.toNat, 0]

def k8_chk1 (v3 : BitVec 32) : Prop :=
  (∀ a, (k8_off2 v3) a + S1x128.size a ≤ S50000x128.size a) ∧
  (∀ a, (k8_off17 v3) a + S1x128.size a ≤ S50000x128.size a)
instance k8_chk1.dec : ∀ (v3 : BitVec 32), Decidable (k8_chk1 v3) := fun v3 => decidable_of_iff' _ (Iff.of_eq (k8_chk1.eq_1 v3))
theorem k8_off2_inb : ∀ (v3 : BitVec 32) (k8_hw1 : k8_chk1 v3), ∀ a, (k8_off2 v3) a + S1x128.size a ≤ S50000x128.size a := fun v3 k8_hw1 => k8_hw1.1
theorem k8_off17_inb : ∀ (v3 : BitVec 32) (k8_hw1 : k8_chk1 v3), ∀ a, (k8_off17 v3) a + S1x128.size a ≤ S50000x128.size a := fun v3 k8_hw1 => k8_hw1.2

def k8_off18 (v12 : BitVec 32) : Fin 2 → Nat :=
  let c0_i32_39 : BitVec 32 := 0#32
  ![v12.toNat, 0]

def k8_chk2 (v12 : BitVec 32) : Prop :=
  (∀ a, (k8_off4 v12) a + S1x128.size a ≤ S50000x128.size a) ∧
  (∀ a, (k8_off18 v12) a + S1x128.size a ≤ S50000x128.size a)
instance k8_chk2.dec : ∀ (v12 : BitVec 32), Decidable (k8_chk2 v12) := fun v12 => decidable_of_iff' _ (Iff.of_eq (k8_chk2.eq_1 v12))
theorem k8_off4_inb : ∀ (v12 : BitVec 32) (k8_hw2 : k8_chk2 v12), ∀ a, (k8_off4 v12) a + S1x128.size a ≤ S50000x128.size a := fun v12 k8_hw2 => k8_hw2.1
theorem k8_off18_inb : ∀ (v12 : BitVec 32) (k8_hw2 : k8_chk2 v12), ∀ a, (k8_off18 v12) a + S1x128.size a ≤ S50000x128.size a := fun v12 k8_hw2 => k8_hw2.2

def k8_off19 (v21 : BitVec 32) : Fin 2 → Nat :=
  let c0_i32_43 : BitVec 32 := 0#32
  ![v21.toNat, 0]

def k8_chk3 (v21 : BitVec 32) : Prop :=
  (∀ a, (k8_off6 v21) a + S1x128.size a ≤ S50000x128.size a) ∧
  (∀ a, (k8_off19 v21) a + S1x128.size a ≤ S50000x128.size a)
instance k8_chk3.dec : ∀ (v21 : BitVec 32), Decidable (k8_chk3 v21) := fun v21 => decidable_of_iff' _ (Iff.of_eq (k8_chk3.eq_1 v21))
theorem k8_off6_inb : ∀ (v21 : BitVec 32) (k8_hw3 : k8_chk3 v21), ∀ a, (k8_off6 v21) a + S1x128.size a ≤ S50000x128.size a := fun v21 k8_hw3 => k8_hw3.1
theorem k8_off19_inb : ∀ (v21 : BitVec 32) (k8_hw3 : k8_chk3 v21), ∀ a, (k8_off19 v21) a + S1x128.size a ≤ S50000x128.size a := fun v21 k8_hw3 => k8_hw3.2

def k8_off20 (v30 : BitVec 32) : Fin 2 → Nat :=
  let c0_i32_47 : BitVec 32 := 0#32
  ![v30.toNat, 0]

def k8_chk4 (v30 : BitVec 32) : Prop :=
  (∀ a, (k8_off8 v30) a + S1x128.size a ≤ S50000x128.size a) ∧
  (∀ a, (k8_off20 v30) a + S1x128.size a ≤ S50000x128.size a)
instance k8_chk4.dec : ∀ (v30 : BitVec 32), Decidable (k8_chk4 v30) := fun v30 => decidable_of_iff' _ (Iff.of_eq (k8_chk4.eq_1 v30))
theorem k8_off8_inb : ∀ (v30 : BitVec 32) (k8_hw4 : k8_chk4 v30), ∀ a, (k8_off8 v30) a + S1x128.size a ≤ S50000x128.size a := fun v30 k8_hw4 => k8_hw4.1
theorem k8_off20_inb : ∀ (v30 : BitVec 32) (k8_hw4 : k8_chk4 v30), ∀ a, (k8_off20 v30) a + S1x128.size a ≤ S50000x128.size a := fun v30 k8_hw4 => k8_hw4.2

def k8_off21 (v39 : BitVec 32) : Fin 2 → Nat :=
  let c0_i32_51 : BitVec 32 := 0#32
  ![v39.toNat, 0]

def k8_chk5 (v39 : BitVec 32) : Prop :=
  (∀ a, (k8_off10 v39) a + S1x128.size a ≤ S50000x128.size a) ∧
  (∀ a, (k8_off21 v39) a + S1x128.size a ≤ S50000x128.size a)
instance k8_chk5.dec : ∀ (v39 : BitVec 32), Decidable (k8_chk5 v39) := fun v39 => decidable_of_iff' _ (Iff.of_eq (k8_chk5.eq_1 v39))
theorem k8_off10_inb : ∀ (v39 : BitVec 32) (k8_hw5 : k8_chk5 v39), ∀ a, (k8_off10 v39) a + S1x128.size a ≤ S50000x128.size a := fun v39 k8_hw5 => k8_hw5.1
theorem k8_off21_inb : ∀ (v39 : BitVec 32) (k8_hw5 : k8_chk5 v39), ∀ a, (k8_off21 v39) a + S1x128.size a ≤ S50000x128.size a := fun v39 k8_hw5 => k8_hw5.2

def k8_off22 (v48 : BitVec 32) : Fin 2 → Nat :=
  let c0_i32_55 : BitVec 32 := 0#32
  ![v48.toNat, 0]

def k8_chk6 (v48 : BitVec 32) : Prop :=
  (∀ a, (k8_off12 v48) a + S1x128.size a ≤ S50000x128.size a) ∧
  (∀ a, (k8_off22 v48) a + S1x128.size a ≤ S50000x128.size a)
instance k8_chk6.dec : ∀ (v48 : BitVec 32), Decidable (k8_chk6 v48) := fun v48 => decidable_of_iff' _ (Iff.of_eq (k8_chk6.eq_1 v48))
theorem k8_off12_inb : ∀ (v48 : BitVec 32) (k8_hw6 : k8_chk6 v48), ∀ a, (k8_off12 v48) a + S1x128.size a ≤ S50000x128.size a := fun v48 k8_hw6 => k8_hw6.1
theorem k8_off22_inb : ∀ (v48 : BitVec 32) (k8_hw6 : k8_chk6 v48), ∀ a, (k8_off22 v48) a + S1x128.size a ≤ S50000x128.size a := fun v48 k8_hw6 => k8_hw6.2

def k8_off23 (v57 : BitVec 32) : Fin 2 → Nat :=
  let c0_i32_59 : BitVec 32 := 0#32
  ![v57.toNat, 0]

def k8_chk7 (v57 : BitVec 32) : Prop :=
  (∀ a, (k8_off14 v57) a + S1x128.size a ≤ S50000x128.size a) ∧
  (∀ a, (k8_off23 v57) a + S1x128.size a ≤ S50000x128.size a)
instance k8_chk7.dec : ∀ (v57 : BitVec 32), Decidable (k8_chk7 v57) := fun v57 => decidable_of_iff' _ (Iff.of_eq (k8_chk7.eq_1 v57))
theorem k8_off14_inb : ∀ (v57 : BitVec 32) (k8_hw7 : k8_chk7 v57), ∀ a, (k8_off14 v57) a + S1x128.size a ≤ S50000x128.size a := fun v57 k8_hw7 => k8_hw7.1
theorem k8_off23_inb : ∀ (v57 : BitVec 32) (k8_hw7 : k8_chk7 v57), ∀ a, (k8_off23 v57) a + S1x128.size a ≤ S50000x128.size a := fun v57 k8_hw7 => k8_hw7.2

def cc8_transform_1 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S8x128 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev grid9 : Pipeline.Grid := ⟨1, ![10625], ![false]⟩

abbrev pre9 : Pipeline.Prefetch sig := ⟨1, ![main_v50.idx], fun | 0 => main_v50.names | ⟨_ + 1, h⟩ => absurd h (Nat.not_lt.2 (Nat.le_add_left _ _)), fun | 0 => rfl | ⟨_ + 1, h⟩ => absurd h (Nat.not_lt.2 (Nat.le_add_left _ _))⟩

def k9_off1 (i : grid9.Coords) : Fin 1 → Nat :=
  let arg0 : BitVec 32 := BitVec.ofNat 32 (i 0).val
  let c8_i32 : BitVec 32 := 8#32
  let v0 : BitVec 32 := Scalar.muli arg0 c8_i32
  let c0_i32 : BitVec 32 := 0#32
  let v1 : BitVec 32 := Scalar.addi v0 c0_i32
  let v2 : Index := Scalar.indexCast v1
  ![v2.toNat]
def k9_off2 (v3 : BitVec 32) : Fin 2 → Nat :=
  let c0_i32_3 : BitVec 32 := 0#32
  ![v3.toNat, 0]

def k9_off3 (i : grid9.Coords) : Fin 1 → Nat :=
  let arg0 : BitVec 32 := BitVec.ofNat 32 (i 0).val
  let c8_i32 : BitVec 32 := 8#32
  let v0 : BitVec 32 := Scalar.muli arg0 c8_i32
  let c1_i32 : BitVec 32 := 1#32
  let v10 : BitVec 32 := Scalar.addi v0 c1_i32
  let v11 : Index := Scalar.indexCast v10
  ![v11.toNat]
def k9_off4 (v12 : BitVec 32) : Fin 2 → Nat :=
  let c0_i32_7 : BitVec 32 := 0#32
  ![v12.toNat, 0]

def k9_off5 (i : grid9.Coords) : Fin 1 → Nat :=
  let arg0 : BitVec 32 := BitVec.ofNat 32 (i 0).val
  let c8_i32 : BitVec 32 := 8#32
  let v0 : BitVec 32 := Scalar.muli arg0 c8_i32
  let c2_i32 : BitVec 32 := 2#32
  let v19 : BitVec 32 := Scalar.addi v0 c2_i32
  let v20 : Index := Scalar.indexCast v19
  ![v20.toNat]
def k9_off6 (v21 : BitVec 32) : Fin 2 → Nat :=
  let c0_i32_11 : BitVec 32 := 0#32
  ![v21.toNat, 0]

def k9_off7 (i : grid9.Coords) : Fin 1 → Nat :=
  let arg0 : BitVec 32 := BitVec.ofNat 32 (i 0).val
  let c8_i32 : BitVec 32 := 8#32
  let v0 : BitVec 32 := Scalar.muli arg0 c8_i32
  let c3_i32 : BitVec 32 := 3#32
  let v28 : BitVec 32 := Scalar.addi v0 c3_i32
  let v29 : Index := Scalar.indexCast v28
  ![v29.toNat]
def k9_off8 (v30 : BitVec 32) : Fin 2 → Nat :=
  let c0_i32_15 : BitVec 32 := 0#32
  ![v30.toNat, 0]

def k9_off9 (i : grid9.Coords) : Fin 1 → Nat :=
  let arg0 : BitVec 32 := BitVec.ofNat 32 (i 0).val
  let c8_i32 : BitVec 32 := 8#32
  let v0 : BitVec 32 := Scalar.muli arg0 c8_i32
  let c4_i32 : BitVec 32 := 4#32
  let v37 : BitVec 32 := Scalar.addi v0 c4_i32
  let v38 : Index := Scalar.indexCast v37
  ![v38.toNat]
def k9_off10 (v39 : BitVec 32) : Fin 2 → Nat :=
  let c0_i32_19 : BitVec 32 := 0#32
  ![v39.toNat, 0]

def k9_off11 (i : grid9.Coords) : Fin 1 → Nat :=
  let arg0 : BitVec 32 := BitVec.ofNat 32 (i 0).val
  let c8_i32 : BitVec 32 := 8#32
  let v0 : BitVec 32 := Scalar.muli arg0 c8_i32
  let c5_i32 : BitVec 32 := 5#32
  let v46 : BitVec 32 := Scalar.addi v0 c5_i32
  let v47 : Index := Scalar.indexCast v46
  ![v47.toNat]
def k9_off12 (v48 : BitVec 32) : Fin 2 → Nat :=
  let c0_i32_23 : BitVec 32 := 0#32
  ![v48.toNat, 0]

def k9_off13 (i : grid9.Coords) : Fin 1 → Nat :=
  let arg0 : BitVec 32 := BitVec.ofNat 32 (i 0).val
  let c8_i32 : BitVec 32 := 8#32
  let v0 : BitVec 32 := Scalar.muli arg0 c8_i32
  let c6_i32 : BitVec 32 := 6#32
  let v55 : BitVec 32 := Scalar.addi v0 c6_i32
  let v56 : Index := Scalar.indexCast v55
  ![v56.toNat]
def k9_off14 (v57 : BitVec 32) : Fin 2 → Nat :=
  let c0_i32_27 : BitVec 32 := 0#32
  ![v57.toNat, 0]

def k9_off15 (i : grid9.Coords) : Fin 1 → Nat :=
  let arg0 : BitVec 32 := BitVec.ofNat 32 (i 0).val
  let c8_i32 : BitVec 32 := 8#32
  let v0 : BitVec 32 := Scalar.muli arg0 c8_i32
  let c7_i32 : BitVec 32 := 7#32
  let v64 : BitVec 32 := Scalar.addi v0 c7_i32
  let v65 : Index := Scalar.indexCast v64
  ![v65.toNat]
def k9_off16 (v66 : BitVec 32) : Fin 2 → Nat :=
  let c0_i32_31 : BitVec 32 := 0#32
  ![v66.toNat, 0]

def k9_chk8 (v66 : BitVec 32) : Prop :=
  (∀ a, (k9_off16 v66) a + S1x128.size a ≤ S50000x128.size a)
instance k9_chk8.dec : ∀ (v66 : BitVec 32), Decidable (k9_chk8 v66) := fun v66 => decidable_of_iff' _ (Iff.of_eq (k9_chk8.eq_1 v66))
theorem k9_off16_inb : ∀ (v66 : BitVec 32) (k9_hw8 : k9_chk8 v66), ∀ a, (k9_off16 v66) a + S1x128.size a ≤ S50000x128.size a := fun v66 k9_hw8 => k9_hw8

def k9_off17 (v3 : BitVec 32) : Fin 2 → Nat :=
  let c0_i32_35 : BitVec 32 := 0#32
  ![v3.toNat, 0]

def k9_chk1 (v3 : BitVec 32) : Prop :=
  (∀ a, (k9_off2 v3) a + S1x128.size a ≤ S50000x128.size a) ∧
  (∀ a, (k9_off17 v3) a + S1x128.size a ≤ S50000x128.size a)
instance k9_chk1.dec : ∀ (v3 : BitVec 32), Decidable (k9_chk1 v3) := fun v3 => decidable_of_iff' _ (Iff.of_eq (k9_chk1.eq_1 v3))
theorem k9_off2_inb : ∀ (v3 : BitVec 32) (k9_hw1 : k9_chk1 v3), ∀ a, (k9_off2 v3) a + S1x128.size a ≤ S50000x128.size a := fun v3 k9_hw1 => k9_hw1.1
theorem k9_off17_inb : ∀ (v3 : BitVec 32) (k9_hw1 : k9_chk1 v3), ∀ a, (k9_off17 v3) a + S1x128.size a ≤ S50000x128.size a := fun v3 k9_hw1 => k9_hw1.2

def k9_off18 (v12 : BitVec 32) : Fin 2 → Nat :=
  let c0_i32_39 : BitVec 32 := 0#32
  ![v12.toNat, 0]

def k9_chk2 (v12 : BitVec 32) : Prop :=
  (∀ a, (k9_off4 v12) a + S1x128.size a ≤ S50000x128.size a) ∧
  (∀ a, (k9_off18 v12) a + S1x128.size a ≤ S50000x128.size a)
instance k9_chk2.dec : ∀ (v12 : BitVec 32), Decidable (k9_chk2 v12) := fun v12 => decidable_of_iff' _ (Iff.of_eq (k9_chk2.eq_1 v12))
theorem k9_off4_inb : ∀ (v12 : BitVec 32) (k9_hw2 : k9_chk2 v12), ∀ a, (k9_off4 v12) a + S1x128.size a ≤ S50000x128.size a := fun v12 k9_hw2 => k9_hw2.1
theorem k9_off18_inb : ∀ (v12 : BitVec 32) (k9_hw2 : k9_chk2 v12), ∀ a, (k9_off18 v12) a + S1x128.size a ≤ S50000x128.size a := fun v12 k9_hw2 => k9_hw2.2

def k9_off19 (v21 : BitVec 32) : Fin 2 → Nat :=
  let c0_i32_43 : BitVec 32 := 0#32
  ![v21.toNat, 0]

def k9_chk3 (v21 : BitVec 32) : Prop :=
  (∀ a, (k9_off6 v21) a + S1x128.size a ≤ S50000x128.size a) ∧
  (∀ a, (k9_off19 v21) a + S1x128.size a ≤ S50000x128.size a)
instance k9_chk3.dec : ∀ (v21 : BitVec 32), Decidable (k9_chk3 v21) := fun v21 => decidable_of_iff' _ (Iff.of_eq (k9_chk3.eq_1 v21))
theorem k9_off6_inb : ∀ (v21 : BitVec 32) (k9_hw3 : k9_chk3 v21), ∀ a, (k9_off6 v21) a + S1x128.size a ≤ S50000x128.size a := fun v21 k9_hw3 => k9_hw3.1
theorem k9_off19_inb : ∀ (v21 : BitVec 32) (k9_hw3 : k9_chk3 v21), ∀ a, (k9_off19 v21) a + S1x128.size a ≤ S50000x128.size a := fun v21 k9_hw3 => k9_hw3.2

def k9_off20 (v30 : BitVec 32) : Fin 2 → Nat :=
  let c0_i32_47 : BitVec 32 := 0#32
  ![v30.toNat, 0]

def k9_chk4 (v30 : BitVec 32) : Prop :=
  (∀ a, (k9_off8 v30) a + S1x128.size a ≤ S50000x128.size a) ∧
  (∀ a, (k9_off20 v30) a + S1x128.size a ≤ S50000x128.size a)
instance k9_chk4.dec : ∀ (v30 : BitVec 32), Decidable (k9_chk4 v30) := fun v30 => decidable_of_iff' _ (Iff.of_eq (k9_chk4.eq_1 v30))
theorem k9_off8_inb : ∀ (v30 : BitVec 32) (k9_hw4 : k9_chk4 v30), ∀ a, (k9_off8 v30) a + S1x128.size a ≤ S50000x128.size a := fun v30 k9_hw4 => k9_hw4.1
theorem k9_off20_inb : ∀ (v30 : BitVec 32) (k9_hw4 : k9_chk4 v30), ∀ a, (k9_off20 v30) a + S1x128.size a ≤ S50000x128.size a := fun v30 k9_hw4 => k9_hw4.2

def k9_off21 (v39 : BitVec 32) : Fin 2 → Nat :=
  let c0_i32_51 : BitVec 32 := 0#32
  ![v39.toNat, 0]

def k9_chk5 (v39 : BitVec 32) : Prop :=
  (∀ a, (k9_off10 v39) a + S1x128.size a ≤ S50000x128.size a) ∧
  (∀ a, (k9_off21 v39) a + S1x128.size a ≤ S50000x128.size a)
instance k9_chk5.dec : ∀ (v39 : BitVec 32), Decidable (k9_chk5 v39) := fun v39 => decidable_of_iff' _ (Iff.of_eq (k9_chk5.eq_1 v39))
theorem k9_off10_inb : ∀ (v39 : BitVec 32) (k9_hw5 : k9_chk5 v39), ∀ a, (k9_off10 v39) a + S1x128.size a ≤ S50000x128.size a := fun v39 k9_hw5 => k9_hw5.1
theorem k9_off21_inb : ∀ (v39 : BitVec 32) (k9_hw5 : k9_chk5 v39), ∀ a, (k9_off21 v39) a + S1x128.size a ≤ S50000x128.size a := fun v39 k9_hw5 => k9_hw5.2

def k9_off22 (v48 : BitVec 32) : Fin 2 → Nat :=
  let c0_i32_55 : BitVec 32 := 0#32
  ![v48.toNat, 0]

def k9_chk6 (v48 : BitVec 32) : Prop :=
  (∀ a, (k9_off12 v48) a + S1x128.size a ≤ S50000x128.size a) ∧
  (∀ a, (k9_off22 v48) a + S1x128.size a ≤ S50000x128.size a)
instance k9_chk6.dec : ∀ (v48 : BitVec 32), Decidable (k9_chk6 v48) := fun v48 => decidable_of_iff' _ (Iff.of_eq (k9_chk6.eq_1 v48))
theorem k9_off12_inb : ∀ (v48 : BitVec 32) (k9_hw6 : k9_chk6 v48), ∀ a, (k9_off12 v48) a + S1x128.size a ≤ S50000x128.size a := fun v48 k9_hw6 => k9_hw6.1
theorem k9_off22_inb : ∀ (v48 : BitVec 32) (k9_hw6 : k9_chk6 v48), ∀ a, (k9_off22 v48) a + S1x128.size a ≤ S50000x128.size a := fun v48 k9_hw6 => k9_hw6.2

def k9_off23 (v57 : BitVec 32) : Fin 2 → Nat :=
  let c0_i32_59 : BitVec 32 := 0#32
  ![v57.toNat, 0]

def k9_chk7 (v57 : BitVec 32) : Prop :=
  (∀ a, (k9_off14 v57) a + S1x128.size a ≤ S50000x128.size a) ∧
  (∀ a, (k9_off23 v57) a + S1x128.size a ≤ S50000x128.size a)
instance k9_chk7.dec : ∀ (v57 : BitVec 32), Decidable (k9_chk7 v57) := fun v57 => decidable_of_iff' _ (Iff.of_eq (k9_chk7.eq_1 v57))
theorem k9_off14_inb : ∀ (v57 : BitVec 32) (k9_hw7 : k9_chk7 v57), ∀ a, (k9_off14 v57) a + S1x128.size a ≤ S50000x128.size a := fun v57 k9_hw7 => k9_hw7.1
theorem k9_off23_inb : ∀ (v57 : BitVec 32) (k9_hw7 : k9_chk7 v57), ∀ a, (k9_off23 v57) a + S1x128.size a ≤ S50000x128.size a := fun v57 k9_hw7 => k9_hw7.2

def cc9_transform_1 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage9_0 : Fin 2 → Memref sig .tc .vmem S8x128 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev grid10 : Pipeline.Grid := ⟨1, ![10625], ![false]⟩

abbrev pre10 : Pipeline.Prefetch sig := ⟨1, ![main_v52.idx], fun | 0 => main_v52.names | ⟨_ + 1, h⟩ => absurd h (Nat.not_lt.2 (Nat.le_add_left _ _)), fun | 0 => rfl | ⟨_ + 1, h⟩ => absurd h (Nat.not_lt.2 (Nat.le_add_left _ _))⟩

def k10_off1 (i : grid10.Coords) : Fin 1 → Nat :=
  let arg0 : BitVec 32 := BitVec.ofNat 32 (i 0).val
  let c8_i32 : BitVec 32 := 8#32
  let v0 : BitVec 32 := Scalar.muli arg0 c8_i32
  let c0_i32 : BitVec 32 := 0#32
  let v1 : BitVec 32 := Scalar.addi v0 c0_i32
  let v2 : Index := Scalar.indexCast v1
  ![v2.toNat]
def k10_off2 (v3 : BitVec 32) : Fin 2 → Nat :=
  let c0_i32_3 : BitVec 32 := 0#32
  ![v3.toNat, 0]

def k10_off3 (i : grid10.Coords) : Fin 1 → Nat :=
  let arg0 : BitVec 32 := BitVec.ofNat 32 (i 0).val
  let c8_i32 : BitVec 32 := 8#32
  let v0 : BitVec 32 := Scalar.muli arg0 c8_i32
  let c1_i32 : BitVec 32 := 1#32
  let v10 : BitVec 32 := Scalar.addi v0 c1_i32
  let v11 : Index := Scalar.indexCast v10
  ![v11.toNat]
def k10_off4 (v12 : BitVec 32) : Fin 2 → Nat :=
  let c0_i32_7 : BitVec 32 := 0#32
  ![v12.toNat, 0]

def k10_off5 (i : grid10.Coords) : Fin 1 → Nat :=
  let arg0 : BitVec 32 := BitVec.ofNat 32 (i 0).val
  let c8_i32 : BitVec 32 := 8#32
  let v0 : BitVec 32 := Scalar.muli arg0 c8_i32
  let c2_i32 : BitVec 32 := 2#32
  let v19 : BitVec 32 := Scalar.addi v0 c2_i32
  let v20 : Index := Scalar.indexCast v19
  ![v20.toNat]
def k10_off6 (v21 : BitVec 32) : Fin 2 → Nat :=
  let c0_i32_11 : BitVec 32 := 0#32
  ![v21.toNat, 0]

def k10_off7 (i : grid10.Coords) : Fin 1 → Nat :=
  let arg0 : BitVec 32 := BitVec.ofNat 32 (i 0).val
  let c8_i32 : BitVec 32 := 8#32
  let v0 : BitVec 32 := Scalar.muli arg0 c8_i32
  let c3_i32 : BitVec 32 := 3#32
  let v28 : BitVec 32 := Scalar.addi v0 c3_i32
  let v29 : Index := Scalar.indexCast v28
  ![v29.toNat]
def k10_off8 (v30 : BitVec 32) : Fin 2 → Nat :=
  let c0_i32_15 : BitVec 32 := 0#32
  ![v30.toNat, 0]

def k10_off9 (i : grid10.Coords) : Fin 1 → Nat :=
  let arg0 : BitVec 32 := BitVec.ofNat 32 (i 0).val
  let c8_i32 : BitVec 32 := 8#32
  let v0 : BitVec 32 := Scalar.muli arg0 c8_i32
  let c4_i32 : BitVec 32 := 4#32
  let v37 : BitVec 32 := Scalar.addi v0 c4_i32
  let v38 : Index := Scalar.indexCast v37
  ![v38.toNat]
def k10_off10 (v39 : BitVec 32) : Fin 2 → Nat :=
  let c0_i32_19 : BitVec 32 := 0#32
  ![v39.toNat, 0]

def k10_off11 (i : grid10.Coords) : Fin 1 → Nat :=
  let arg0 : BitVec 32 := BitVec.ofNat 32 (i 0).val
  let c8_i32 : BitVec 32 := 8#32
  let v0 : BitVec 32 := Scalar.muli arg0 c8_i32
  let c5_i32 : BitVec 32 := 5#32
  let v46 : BitVec 32 := Scalar.addi v0 c5_i32
  let v47 : Index := Scalar.indexCast v46
  ![v47.toNat]
def k10_off12 (v48 : BitVec 32) : Fin 2 → Nat :=
  let c0_i32_23 : BitVec 32 := 0#32
  ![v48.toNat, 0]

def k10_off13 (i : grid10.Coords) : Fin 1 → Nat :=
  let arg0 : BitVec 32 := BitVec.ofNat 32 (i 0).val
  let c8_i32 : BitVec 32 := 8#32
  let v0 : BitVec 32 := Scalar.muli arg0 c8_i32
  let c6_i32 : BitVec 32 := 6#32
  let v55 : BitVec 32 := Scalar.addi v0 c6_i32
  let v56 : Index := Scalar.indexCast v55
  ![v56.toNat]
def k10_off14 (v57 : BitVec 32) : Fin 2 → Nat :=
  let c0_i32_27 : BitVec 32 := 0#32
  ![v57.toNat, 0]

def k10_off15 (i : grid10.Coords) : Fin 1 → Nat :=
  let arg0 : BitVec 32 := BitVec.ofNat 32 (i 0).val
  let c8_i32 : BitVec 32 := 8#32
  let v0 : BitVec 32 := Scalar.muli arg0 c8_i32
  let c7_i32 : BitVec 32 := 7#32
  let v64 : BitVec 32 := Scalar.addi v0 c7_i32
  let v65 : Index := Scalar.indexCast v64
  ![v65.toNat]
def k10_off16 (v66 : BitVec 32) : Fin 2 → Nat :=
  let c0_i32_31 : BitVec 32 := 0#32
  ![v66.toNat, 0]

def k10_chk8 (v66 : BitVec 32) : Prop :=
  (∀ a, (k10_off16 v66) a + S1x128.size a ≤ S50000x128.size a)
instance k10_chk8.dec : ∀ (v66 : BitVec 32), Decidable (k10_chk8 v66) := fun v66 => decidable_of_iff' _ (Iff.of_eq (k10_chk8.eq_1 v66))
theorem k10_off16_inb : ∀ (v66 : BitVec 32) (k10_hw8 : k10_chk8 v66), ∀ a, (k10_off16 v66) a + S1x128.size a ≤ S50000x128.size a := fun v66 k10_hw8 => k10_hw8

def k10_off17 (v3 : BitVec 32) : Fin 2 → Nat :=
  let c0_i32_35 : BitVec 32 := 0#32
  ![v3.toNat, 0]

def k10_chk1 (v3 : BitVec 32) : Prop :=
  (∀ a, (k10_off2 v3) a + S1x128.size a ≤ S50000x128.size a) ∧
  (∀ a, (k10_off17 v3) a + S1x128.size a ≤ S50000x128.size a)
instance k10_chk1.dec : ∀ (v3 : BitVec 32), Decidable (k10_chk1 v3) := fun v3 => decidable_of_iff' _ (Iff.of_eq (k10_chk1.eq_1 v3))
theorem k10_off2_inb : ∀ (v3 : BitVec 32) (k10_hw1 : k10_chk1 v3), ∀ a, (k10_off2 v3) a + S1x128.size a ≤ S50000x128.size a := fun v3 k10_hw1 => k10_hw1.1
theorem k10_off17_inb : ∀ (v3 : BitVec 32) (k10_hw1 : k10_chk1 v3), ∀ a, (k10_off17 v3) a + S1x128.size a ≤ S50000x128.size a := fun v3 k10_hw1 => k10_hw1.2

def k10_off18 (v12 : BitVec 32) : Fin 2 → Nat :=
  let c0_i32_39 : BitVec 32 := 0#32
  ![v12.toNat, 0]

def k10_chk2 (v12 : BitVec 32) : Prop :=
  (∀ a, (k10_off4 v12) a + S1x128.size a ≤ S50000x128.size a) ∧
  (∀ a, (k10_off18 v12) a + S1x128.size a ≤ S50000x128.size a)
instance k10_chk2.dec : ∀ (v12 : BitVec 32), Decidable (k10_chk2 v12) := fun v12 => decidable_of_iff' _ (Iff.of_eq (k10_chk2.eq_1 v12))
theorem k10_off4_inb : ∀ (v12 : BitVec 32) (k10_hw2 : k10_chk2 v12), ∀ a, (k10_off4 v12) a + S1x128.size a ≤ S50000x128.size a := fun v12 k10_hw2 => k10_hw2.1
theorem k10_off18_inb : ∀ (v12 : BitVec 32) (k10_hw2 : k10_chk2 v12), ∀ a, (k10_off18 v12) a + S1x128.size a ≤ S50000x128.size a := fun v12 k10_hw2 => k10_hw2.2

def k10_off19 (v21 : BitVec 32) : Fin 2 → Nat :=
  let c0_i32_43 : BitVec 32 := 0#32
  ![v21.toNat, 0]

def k10_chk3 (v21 : BitVec 32) : Prop :=
  (∀ a, (k10_off6 v21) a + S1x128.size a ≤ S50000x128.size a) ∧
  (∀ a, (k10_off19 v21) a + S1x128.size a ≤ S50000x128.size a)
instance k10_chk3.dec : ∀ (v21 : BitVec 32), Decidable (k10_chk3 v21) := fun v21 => decidable_of_iff' _ (Iff.of_eq (k10_chk3.eq_1 v21))
theorem k10_off6_inb : ∀ (v21 : BitVec 32) (k10_hw3 : k10_chk3 v21), ∀ a, (k10_off6 v21) a + S1x128.size a ≤ S50000x128.size a := fun v21 k10_hw3 => k10_hw3.1
theorem k10_off19_inb : ∀ (v21 : BitVec 32) (k10_hw3 : k10_chk3 v21), ∀ a, (k10_off19 v21) a + S1x128.size a ≤ S50000x128.size a := fun v21 k10_hw3 => k10_hw3.2

def k10_off20 (v30 : BitVec 32) : Fin 2 → Nat :=
  let c0_i32_47 : BitVec 32 := 0#32
  ![v30.toNat, 0]

def k10_chk4 (v30 : BitVec 32) : Prop :=
  (∀ a, (k10_off8 v30) a + S1x128.size a ≤ S50000x128.size a) ∧
  (∀ a, (k10_off20 v30) a + S1x128.size a ≤ S50000x128.size a)
instance k10_chk4.dec : ∀ (v30 : BitVec 32), Decidable (k10_chk4 v30) := fun v30 => decidable_of_iff' _ (Iff.of_eq (k10_chk4.eq_1 v30))
theorem k10_off8_inb : ∀ (v30 : BitVec 32) (k10_hw4 : k10_chk4 v30), ∀ a, (k10_off8 v30) a + S1x128.size a ≤ S50000x128.size a := fun v30 k10_hw4 => k10_hw4.1
theorem k10_off20_inb : ∀ (v30 : BitVec 32) (k10_hw4 : k10_chk4 v30), ∀ a, (k10_off20 v30) a + S1x128.size a ≤ S50000x128.size a := fun v30 k10_hw4 => k10_hw4.2

def k10_off21 (v39 : BitVec 32) : Fin 2 → Nat :=
  let c0_i32_51 : BitVec 32 := 0#32
  ![v39.toNat, 0]

def k10_chk5 (v39 : BitVec 32) : Prop :=
  (∀ a, (k10_off10 v39) a + S1x128.size a ≤ S50000x128.size a) ∧
  (∀ a, (k10_off21 v39) a + S1x128.size a ≤ S50000x128.size a)
instance k10_chk5.dec : ∀ (v39 : BitVec 32), Decidable (k10_chk5 v39) := fun v39 => decidable_of_iff' _ (Iff.of_eq (k10_chk5.eq_1 v39))
theorem k10_off10_inb : ∀ (v39 : BitVec 32) (k10_hw5 : k10_chk5 v39), ∀ a, (k10_off10 v39) a + S1x128.size a ≤ S50000x128.size a := fun v39 k10_hw5 => k10_hw5.1
theorem k10_off21_inb : ∀ (v39 : BitVec 32) (k10_hw5 : k10_chk5 v39), ∀ a, (k10_off21 v39) a + S1x128.size a ≤ S50000x128.size a := fun v39 k10_hw5 => k10_hw5.2

def k10_off22 (v48 : BitVec 32) : Fin 2 → Nat :=
  let c0_i32_55 : BitVec 32 := 0#32
  ![v48.toNat, 0]

def k10_chk6 (v48 : BitVec 32) : Prop :=
  (∀ a, (k10_off12 v48) a + S1x128.size a ≤ S50000x128.size a) ∧
  (∀ a, (k10_off22 v48) a + S1x128.size a ≤ S50000x128.size a)
instance k10_chk6.dec : ∀ (v48 : BitVec 32), Decidable (k10_chk6 v48) := fun v48 => decidable_of_iff' _ (Iff.of_eq (k10_chk6.eq_1 v48))
theorem k10_off12_inb : ∀ (v48 : BitVec 32) (k10_hw6 : k10_chk6 v48), ∀ a, (k10_off12 v48) a + S1x128.size a ≤ S50000x128.size a := fun v48 k10_hw6 => k10_hw6.1
theorem k10_off22_inb : ∀ (v48 : BitVec 32) (k10_hw6 : k10_chk6 v48), ∀ a, (k10_off22 v48) a + S1x128.size a ≤ S50000x128.size a := fun v48 k10_hw6 => k10_hw6.2

def k10_off23 (v57 : BitVec 32) : Fin 2 → Nat :=
  let c0_i32_59 : BitVec 32 := 0#32
  ![v57.toNat, 0]

def k10_chk7 (v57 : BitVec 32) : Prop :=
  (∀ a, (k10_off14 v57) a + S1x128.size a ≤ S50000x128.size a) ∧
  (∀ a, (k10_off23 v57) a + S1x128.size a ≤ S50000x128.size a)
instance k10_chk7.dec : ∀ (v57 : BitVec 32), Decidable (k10_chk7 v57) := fun v57 => decidable_of_iff' _ (Iff.of_eq (k10_chk7.eq_1 v57))
theorem k10_off14_inb : ∀ (v57 : BitVec 32) (k10_hw7 : k10_chk7 v57), ∀ a, (k10_off14 v57) a + S1x128.size a ≤ S50000x128.size a := fun v57 k10_hw7 => k10_hw7.1
theorem k10_off23_inb : ∀ (v57 : BitVec 32) (k10_hw7 : k10_chk7 v57), ∀ a, (k10_off23 v57) a + S1x128.size a ≤ S50000x128.size a := fun v57 k10_hw7 => k10_hw7.2

def cc10_transform_1 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage10_0 : Fin 2 → Memref sig .tc .vmem S8x128 .f32 := fun | 0 => Memref.whole cc10_stg0_0 | 1 => Memref.whole cc10_stg0_1 | ⟨_ + 2, h⟩ => absurd h (Nat.not_lt.2 (Nat.le_add_left _ _))
abbrev sem10_0 : Fin 2 → DmaSem sig := fun | 0 => cc10_sem0_0 | 1 => cc10_sem0_1 | ⟨_ + 2, h⟩ => absurd h (Nat.not_lt.2 (Nat.le_add_left _ _))
abbrev reads10_0 : Fin grid10.rank → Bool := ![true]

abbrev grid11 : Pipeline.Grid := ⟨1, ![10], ![false]⟩

def cc11_transform_0 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_1 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_2 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_3 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage11_0 : Fin 2 → Memref sig .tc .vmem S5000x128 .f32 := fun | 0 => Memref.whole cc11_stg0_0 | 1 => Memref.whole cc11_stg0_1 | ⟨_ + 2, h⟩ => absurd h (Nat.not_lt.2 (Nat.le_add_left _ _))
abbrev sem11_0 : Fin 2 → DmaSem sig := fun | 0 => cc11_sem0_0 | 1 => cc11_sem0_1 | ⟨_ + 2, h⟩ => absurd h (Nat.not_lt.2 (Nat.le_add_left _ _))
abbrev reads11_0 : Fin grid11.rank → Bool := ![true]

abbrev stage11_1 : Fin 1 → Memref sig .tc .vmem S1x128 .f32 := fun | 0 => Memref.whole cc11_stg1_0 | ⟨_ + 1, h⟩ => absurd h (Nat.not_lt.2 (Nat.le_add_left _ _))
abbrev sem11_1 : Fin 1 → DmaSem sig := fun | 0 => cc11_sem1_0 | ⟨_ + 1, h⟩ => absurd h (Nat.not_lt.2 (Nat.le_add_left _ _))
abbrev reads11_1 : Fin grid11.rank → Bool := ![false]

abbrev stage11_2 : Fin 1 → Memref sig .tc .vmem S128x128 .f32 := fun | 0 => Memref.whole cc11_stg2_0 | ⟨_ + 1, h⟩ => absurd h (Nat.not_lt.2 (Nat.le_add_left _ _))
abbrev sem11_2 : Fin 1 → DmaSem sig := fun | 0 => cc11_sem2_0 | ⟨_ + 1, h⟩ => absurd h (Nat.not_lt.2 (Nat.le_add_left _ _))
abbrev reads11_2 : Fin grid11.rank → Bool := ![false]

abbrev stage11_3 : Fin 2 → Memref sig .tc .vmem S5000x128 .f32 := fun | 0 => Memref.whole cc11_stg3_0 | 1 => Memref.whole cc11_stg3_1 | ⟨_ + 2, h⟩ => absurd h (Nat.not_lt.2 (Nat.le_add_left _ _))
abbrev sem11_3 : Fin 2 → DmaSem sig := fun | 0 => cc11_sem3_0 | 1 => cc11_sem3_1 | ⟨_ + 2, h⟩ => absurd h (Nat.not_lt.2 (Nat.le_add_left _ _))
abbrev reads11_3 : Fin grid11.rank → Bool := ![true]

abbrev grid12 : Pipeline.Grid := ⟨1, ![10625], ![false]⟩

abbrev pre12 : Pipeline.Prefetch sig := ⟨1, ![main_v62.idx], fun | 0 => main_v62.names | ⟨_ + 1, h⟩ => absurd h (Nat.not_lt.2 (Nat.le_add_left _ _)), fun | 0 => rfl | ⟨_ + 1, h⟩ => absurd h (Nat.not_lt.2 (Nat.le_add_left _ _))⟩

def k12_off1 (i : grid12.Coords) : Fin 1 → Nat :=
  let arg0 : BitVec 32 := BitVec.ofNat 32 (i 0).val
  let c8_i32 : BitVec 32 := 8#32
  let v0 : BitVec 32 := Scalar.muli arg0 c8_i32
  let c0_i32 : BitVec 32 := 0#32
  let v1 : BitVec 32 := Scalar.addi v0 c0_i32
  let v2 : Index := Scalar.indexCast v1
  ![v2.toNat]
def k12_off2 (v3 : BitVec 32) : Fin 2 → Nat :=
  let c0_i32_3 : BitVec 32 := 0#32
  ![v3.toNat, 0]

def k12_off3 (i : grid12.Coords) : Fin 1 → Nat :=
  let arg0 : BitVec 32 := BitVec.ofNat 32 (i 0).val
  let c8_i32 : BitVec 32 := 8#32
  let v0 : BitVec 32 := Scalar.muli arg0 c8_i32
  let c1_i32 : BitVec 32 := 1#32
  let v10 : BitVec 32 := Scalar.addi v0 c1_i32
  let v11 : Index := Scalar.indexCast v10
  ![v11.toNat]
def k12_off4 (v12 : BitVec 32) : Fin 2 → Nat :=
  let c0_i32_7 : BitVec 32 := 0#32
  ![v12.toNat, 0]

def k12_off5 (i : grid12.Coords) : Fin 1 → Nat :=
  let arg0 : BitVec 32 := BitVec.ofNat 32 (i 0).val
  let c8_i32 : BitVec 32 := 8#32
  let v0 : BitVec 32 := Scalar.muli arg0 c8_i32
  let c2_i32 : BitVec 32 := 2#32
  let v19 : BitVec 32 := Scalar.addi v0 c2_i32
  let v20 : Index := Scalar.indexCast v19
  ![v20.toNat]
def k12_off6 (v21 : BitVec 32) : Fin 2 → Nat :=
  let c0_i32_11 : BitVec 32 := 0#32
  ![v21.toNat, 0]

def k12_off7 (i : grid12.Coords) : Fin 1 → Nat :=
  let arg0 : BitVec 32 := BitVec.ofNat 32 (i 0).val
  let c8_i32 : BitVec 32 := 8#32
  let v0 : BitVec 32 := Scalar.muli arg0 c8_i32
  let c3_i32 : BitVec 32 := 3#32
  let v28 : BitVec 32 := Scalar.addi v0 c3_i32
  let v29 : Index := Scalar.indexCast v28
  ![v29.toNat]
def k12_off8 (v30 : BitVec 32) : Fin 2 → Nat :=
  let c0_i32_15 : BitVec 32 := 0#32
  ![v30.toNat, 0]

def k12_off9 (i : grid12.Coords) : Fin 1 → Nat :=
  let arg0 : BitVec 32 := BitVec.ofNat 32 (i 0).val
  let c8_i32 : BitVec 32 := 8#32
  let v0 : BitVec 32 := Scalar.muli arg0 c8_i32
  let c4_i32 : BitVec 32 := 4#32
  let v37 : BitVec 32 := Scalar.addi v0 c4_i32
  let v38 : Index := Scalar.indexCast v37
  ![v38.toNat]
def k12_off10 (v39 : BitVec 32) : Fin 2 → Nat :=
  let c0_i32_19 : BitVec 32 := 0#32
  ![v39.toNat, 0]

def k12_off11 (i : grid12.Coords) : Fin 1 → Nat :=
  let arg0 : BitVec 32 := BitVec.ofNat 32 (i 0).val
  let c8_i32 : BitVec 32 := 8#32
  let v0 : BitVec 32 := Scalar.muli arg0 c8_i32
  let c5_i32 : BitVec 32 := 5#32
  let v46 : BitVec 32 := Scalar.addi v0 c5_i32
  let v47 : Index := Scalar.indexCast v46
  ![v47.toNat]
def k12_off12 (v48 : BitVec 32) : Fin 2 → Nat :=
  let c0_i32_23 : BitVec 32 := 0#32
  ![v48.toNat, 0]

def k12_off13 (i : grid12.Coords) : Fin 1 → Nat :=
  let arg0 : BitVec 32 := BitVec.ofNat 32 (i 0).val
  let c8_i32 : BitVec 32 := 8#32
  let v0 : BitVec 32 := Scalar.muli arg0 c8_i32
  let c6_i32 : BitVec 32 := 6#32
  let v55 : BitVec 32 := Scalar.addi v0 c6_i32
  let v56 : Index := Scalar.indexCast v55
  ![v56.toNat]
def k12_off14 (v57 : BitVec 32) : Fin 2 → Nat :=
  let c0_i32_27 : BitVec 32 := 0#32
  ![v57.toNat, 0]

def k12_off15 (i : grid12.Coords) : Fin 1 → Nat :=
  let arg0 : BitVec 32 := BitVec.ofNat 32 (i 0).val
  let c8_i32 : BitVec 32 := 8#32
  let v0 : BitVec 32 := Scalar.muli arg0 c8_i32
  let c7_i32 : BitVec 32 := 7#32
  let v64 : BitVec 32 := Scalar.addi v0 c7_i32
  let v65 : Index := Scalar.indexCast v64
  ![v65.toNat]
def k12_off16 (v66 : BitVec 32) : Fin 2 → Nat :=
  let c0_i32_31 : BitVec 32 := 0#32
  ![v66.toNat, 0]

def k12_chk8 (v66 : BitVec 32) : Prop :=
  (∀ a, (k12_off16 v66) a + S1x128.size a ≤ S50000x128.size a)
instance k12_chk8.dec : ∀ (v66 : BitVec 32), Decidable (k12_chk8 v66) := fun v66 => decidable_of_iff' _ (Iff.of_eq (k12_chk8.eq_1 v66))
theorem k12_off16_inb : ∀ (v66 : BitVec 32) (k12_hw8 : k12_chk8 v66), ∀ a, (k12_off16 v66) a + S1x128.size a ≤ S50000x128.size a := fun v66 k12_hw8 => k12_hw8

def k12_off17 (v3 : BitVec 32) : Fin 2 → Nat :=
  let c0_i32_35 : BitVec 32 := 0#32
  ![v3.toNat, 0]

def k12_chk1 (v3 : BitVec 32) : Prop :=
  (∀ a, (k12_off2 v3) a + S1x128.size a ≤ S50000x128.size a) ∧
  (∀ a, (k12_off17 v3) a + S1x128.size a ≤ S50000x128.size a)
instance k12_chk1.dec : ∀ (v3 : BitVec 32), Decidable (k12_chk1 v3) := fun v3 => decidable_of_iff' _ (Iff.of_eq (k12_chk1.eq_1 v3))
theorem k12_off2_inb : ∀ (v3 : BitVec 32) (k12_hw1 : k12_chk1 v3), ∀ a, (k12_off2 v3) a + S1x128.size a ≤ S50000x128.size a := fun v3 k12_hw1 => k12_hw1.1
theorem k12_off17_inb : ∀ (v3 : BitVec 32) (k12_hw1 : k12_chk1 v3), ∀ a, (k12_off17 v3) a + S1x128.size a ≤ S50000x128.size a := fun v3 k12_hw1 => k12_hw1.2

def k12_off18 (v12 : BitVec 32) : Fin 2 → Nat :=
  let c0_i32_39 : BitVec 32 := 0#32
  ![v12.toNat, 0]

def k12_chk2 (v12 : BitVec 32) : Prop :=
  (∀ a, (k12_off4 v12) a + S1x128.size a ≤ S50000x128.size a) ∧
  (∀ a, (k12_off18 v12) a + S1x128.size a ≤ S50000x128.size a)
instance k12_chk2.dec : ∀ (v12 : BitVec 32), Decidable (k12_chk2 v12) := fun v12 => decidable_of_iff' _ (Iff.of_eq (k12_chk2.eq_1 v12))
theorem k12_off4_inb : ∀ (v12 : BitVec 32) (k12_hw2 : k12_chk2 v12), ∀ a, (k12_off4 v12) a + S1x128.size a ≤ S50000x128.size a := fun v12 k12_hw2 => k12_hw2.1
theorem k12_off18_inb : ∀ (v12 : BitVec 32) (k12_hw2 : k12_chk2 v12), ∀ a, (k12_off18 v12) a + S1x128.size a ≤ S50000x128.size a := fun v12 k12_hw2 => k12_hw2.2

def k12_off19 (v21 : BitVec 32) : Fin 2 → Nat :=
  let c0_i32_43 : BitVec 32 := 0#32
  ![v21.toNat, 0]

def k12_chk3 (v21 : BitVec 32) : Prop :=
  (∀ a, (k12_off6 v21) a + S1x128.size a ≤ S50000x128.size a) ∧
  (∀ a, (k12_off19 v21) a + S1x128.size a ≤ S50000x128.size a)
instance k12_chk3.dec : ∀ (v21 : BitVec 32), Decidable (k12_chk3 v21) := fun v21 => decidable_of_iff' _ (Iff.of_eq (k12_chk3.eq_1 v21))
theorem k12_off6_inb : ∀ (v21 : BitVec 32) (k12_hw3 : k12_chk3 v21), ∀ a, (k12_off6 v21) a + S1x128.size a ≤ S50000x128.size a := fun v21 k12_hw3 => k12_hw3.1
theorem k12_off19_inb : ∀ (v21 : BitVec 32) (k12_hw3 : k12_chk3 v21), ∀ a, (k12_off19 v21) a + S1x128.size a ≤ S50000x128.size a := fun v21 k12_hw3 => k12_hw3.2

def k12_off20 (v30 : BitVec 32) : Fin 2 → Nat :=
  let c0_i32_47 : BitVec 32 := 0#32
  ![v30.toNat, 0]

def k12_chk4 (v30 : BitVec 32) : Prop :=
  (∀ a, (k12_off8 v30) a + S1x128.size a ≤ S50000x128.size a) ∧
  (∀ a, (k12_off20 v30) a + S1x128.size a ≤ S50000x128.size a)
instance k12_chk4.dec : ∀ (v30 : BitVec 32), Decidable (k12_chk4 v30) := fun v30 => decidable_of_iff' _ (Iff.of_eq (k12_chk4.eq_1 v30))
theorem k12_off8_inb : ∀ (v30 : BitVec 32) (k12_hw4 : k12_chk4 v30), ∀ a, (k12_off8 v30) a + S1x128.size a ≤ S50000x128.size a := fun v30 k12_hw4 => k12_hw4.1
theorem k12_off20_inb : ∀ (v30 : BitVec 32) (k12_hw4 : k12_chk4 v30), ∀ a, (k12_off20 v30) a + S1x128.size a ≤ S50000x128.size a := fun v30 k12_hw4 => k12_hw4.2

def k12_off21 (v39 : BitVec 32) : Fin 2 → Nat :=
  let c0_i32_51 : BitVec 32 := 0#32
  ![v39.toNat, 0]

def k12_chk5 (v39 : BitVec 32) : Prop :=
  (∀ a, (k12_off10 v39) a + S1x128.size a ≤ S50000x128.size a) ∧
  (∀ a, (k12_off21 v39) a + S1x128.size a ≤ S50000x128.size a)
instance k12_chk5.dec : ∀ (v39 : BitVec 32), Decidable (k12_chk5 v39) := fun v39 => decidable_of_iff' _ (Iff.of_eq (k12_chk5.eq_1 v39))
theorem k12_off10_inb : ∀ (v39 : BitVec 32) (k12_hw5 : k12_chk5 v39), ∀ a, (k12_off10 v39) a + S1x128.size a ≤ S50000x128.size a := fun v39 k12_hw5 => k12_hw5.1
theorem k12_off21_inb : ∀ (v39 : BitVec 32) (k12_hw5 : k12_chk5 v39), ∀ a, (k12_off21 v39) a + S1x128.size a ≤ S50000x128.size a := fun v39 k12_hw5 => k12_hw5.2

def k12_off22 (v48 : BitVec 32) : Fin 2 → Nat :=
  let c0_i32_55 : BitVec 32 := 0#32
  ![v48.toNat, 0]

def k12_chk6 (v48 : BitVec 32) : Prop :=
  (∀ a, (k12_off12 v48) a + S1x128.size a ≤ S50000x128.size a) ∧
  (∀ a, (k12_off22 v48) a + S1x128.size a ≤ S50000x128.size a)
instance k12_chk6.dec : ∀ (v48 : BitVec 32), Decidable (k12_chk6 v48) := fun v48 => decidable_of_iff' _ (Iff.of_eq (k12_chk6.eq_1 v48))
theorem k12_off12_inb : ∀ (v48 : BitVec 32) (k12_hw6 : k12_chk6 v48), ∀ a, (k12_off12 v48) a + S1x128.size a ≤ S50000x128.size a := fun v48 k12_hw6 => k12_hw6.1
theorem k12_off22_inb : ∀ (v48 : BitVec 32) (k12_hw6 : k12_chk6 v48), ∀ a, (k12_off22 v48) a + S1x128.size a ≤ S50000x128.size a := fun v48 k12_hw6 => k12_hw6.2

def k12_off23 (v57 : BitVec 32) : Fin 2 → Nat :=
  let c0_i32_59 : BitVec 32 := 0#32
  ![v57.toNat, 0]

def k12_chk7 (v57 : BitVec 32) : Prop :=
  (∀ a, (k12_off14 v57) a + S1x128.size a ≤ S50000x128.size a) ∧
  (∀ a, (k12_off23 v57) a + S1x128.size a ≤ S50000x128.size a)
instance k12_chk7.dec : ∀ (v57 : BitVec 32), Decidable (k12_chk7 v57) := fun v57 => decidable_of_iff' _ (Iff.of_eq (k12_chk7.eq_1 v57))
theorem k12_off14_inb : ∀ (v57 : BitVec 32) (k12_hw7 : k12_chk7 v57), ∀ a, (k12_off14 v57) a + S1x128.size a ≤ S50000x128.size a := fun v57 k12_hw7 => k12_hw7.1
theorem k12_off23_inb : ∀ (v57 : BitVec 32) (k12_hw7 : k12_chk7 v57), ∀ a, (k12_off23 v57) a + S1x128.size a ≤ S50000x128.size a := fun v57 k12_hw7 => k12_hw7.2

def cc12_transform_1 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage12_0 : Fin 2 → Memref sig .tc .vmem S8x128 .f32 := fun | 0 => Memref.whole cc12_stg0_0 | 1 => Memref.whole cc12_stg0_1 | ⟨_ + 2, h⟩ => absurd h (Nat.not_lt.2 (Nat.le_add_left _ _))
abbrev sem12_0 : Fin 2 → DmaSem sig := fun | 0 => cc12_sem0_0 | 1 => cc12_sem0_1 | ⟨_ + 2, h⟩ => absurd h (Nat.not_lt.2 (Nat.le_add_left _ _))
abbrev reads12_0 : Fin grid12.rank → Bool := ![true]

abbrev grid13 : Pipeline.Grid := ⟨1, ![10625], ![false]⟩

abbrev pre13 : Pipeline.Prefetch sig := ⟨1, ![main_v64.idx], fun | 0 => main_v64.names | ⟨_ + 1, h⟩ => absurd h (Nat.not_lt.2 (Nat.le_add_left _ _)), fun | 0 => rfl | ⟨_ + 1, h⟩ => absurd h (Nat.not_lt.2 (Nat.le_add_left _ _))⟩

def k13_off1 (i : grid13.Coords) : Fin 1 → Nat :=
  let arg0 : BitVec 32 := BitVec.ofNat 32 (i 0).val
  let c8_i32 : BitVec 32 := 8#32
  let v0 : BitVec 32 := Scalar.muli arg0 c8_i32
  let c0_i32 : BitVec 32 := 0#32
  let v1 : BitVec 32 := Scalar.addi v0 c0_i32
  let v2 : Index := Scalar.indexCast v1
  ![v2.toNat]
def k13_off2 (v3 : BitVec 32) : Fin 2 → Nat :=
  let c0_i32_3 : BitVec 32 := 0#32
  ![v3.toNat, 0]

def k13_off3 (i : grid13.Coords) : Fin 1 → Nat :=
  let arg0 : BitVec 32 := BitVec.ofNat 32 (i 0).val
  let c8_i32 : BitVec 32 := 8#32
  let v0 : BitVec 32 := Scalar.muli arg0 c8_i32
  let c1_i32 : BitVec 32 := 1#32
  let v10 : BitVec 32 := Scalar.addi v0 c1_i32
  let v11 : Index := Scalar.indexCast v10
  ![v11.toNat]
def k13_off4 (v12 : BitVec 32) : Fin 2 → Nat :=
  let c0_i32_7 : BitVec 32 := 0#32
  ![v12.toNat, 0]

def k13_off5 (i : grid13.Coords) : Fin 1 → Nat :=
  let arg0 : BitVec 32 := BitVec.ofNat 32 (i 0).val
  let c8_i32 : BitVec 32 := 8#32
  let v0 : BitVec 32 := Scalar.muli arg0 c8_i32
  let c2_i32 : BitVec 32 := 2#32
  let v19 : BitVec 32 := Scalar.addi v0 c2_i32
  let v20 : Index := Scalar.indexCast v19
  ![v20.toNat]
def k13_off6 (v21 : BitVec 32) : Fin 2 → Nat :=
  let c0_i32_11 : BitVec 32 := 0#32
  ![v21.toNat, 0]

def k13_off7 (i : grid13.Coords) : Fin 1 → Nat :=
  let arg0 : BitVec 32 := BitVec.ofNat 32 (i 0).val
  let c8_i32 : BitVec 32 := 8#32
  let v0 : BitVec 32 := Scalar.muli arg0 c8_i32
  let c3_i32 : BitVec 32 := 3#32
  let v28 : BitVec 32 := Scalar.addi v0 c3_i32
  let v29 : Index := Scalar.indexCast v28
  ![v29.toNat]
def k13_off8 (v30 : BitVec 32) : Fin 2 → Nat :=
  let c0_i32_15 : BitVec 32 := 0#32
  ![v30.toNat, 0]

def k13_off9 (i : grid13.Coords) : Fin 1 → Nat :=
  let arg0 : BitVec 32 := BitVec.ofNat 32 (i 0).val
  let c8_i32 : BitVec 32 := 8#32
  let v0 : BitVec 32 := Scalar.muli arg0 c8_i32
  let c4_i32 : BitVec 32 := 4#32
  let v37 : BitVec 32 := Scalar.addi v0 c4_i32
  let v38 : Index := Scalar.indexCast v37
  ![v38.toNat]
def k13_off10 (v39 : BitVec 32) : Fin 2 → Nat :=
  let c0_i32_19 : BitVec 32 := 0#32
  ![v39.toNat, 0]

def k13_off11 (i : grid13.Coords) : Fin 1 → Nat :=
  let arg0 : BitVec 32 := BitVec.ofNat 32 (i 0).val
  let c8_i32 : BitVec 32 := 8#32
  let v0 : BitVec 32 := Scalar.muli arg0 c8_i32
  let c5_i32 : BitVec 32 := 5#32
  let v46 : BitVec 32 := Scalar.addi v0 c5_i32
  let v47 : Index := Scalar.indexCast v46
  ![v47.toNat]
def k13_off12 (v48 : BitVec 32) : Fin 2 → Nat :=
  let c0_i32_23 : BitVec 32 := 0#32
  ![v48.toNat, 0]

def k13_off13 (i : grid13.Coords) : Fin 1 → Nat :=
  let arg0 : BitVec 32 := BitVec.ofNat 32 (i 0).val
  let c8_i32 : BitVec 32 := 8#32
  let v0 : BitVec 32 := Scalar.muli arg0 c8_i32
  let c6_i32 : BitVec 32 := 6#32
  let v55 : BitVec 32 := Scalar.addi v0 c6_i32
  let v56 : Index := Scalar.indexCast v55
  ![v56.toNat]
def k13_off14 (v57 : BitVec 32) : Fin 2 → Nat :=
  let c0_i32_27 : BitVec 32 := 0#32
  ![v57.toNat, 0]

def k13_off15 (i : grid13.Coords) : Fin 1 → Nat :=
  let arg0 : BitVec 32 := BitVec.ofNat 32 (i 0).val
  let c8_i32 : BitVec 32 := 8#32
  let v0 : BitVec 32 := Scalar.muli arg0 c8_i32
  let c7_i32 : BitVec 32 := 7#32
  let v64 : BitVec 32 := Scalar.addi v0 c7_i32
  let v65 : Index := Scalar.indexCast v64
  ![v65.toNat]
def k13_off16 (v66 : BitVec 32) : Fin 2 → Nat :=
  let c0_i32_31 : BitVec 32 := 0#32
  ![v66.toNat, 0]

def k13_chk8 (v66 : BitVec 32) : Prop :=
  (∀ a, (k13_off16 v66) a + S1x128.size a ≤ S50000x128.size a)
instance k13_chk8.dec : ∀ (v66 : BitVec 32), Decidable (k13_chk8 v66) := fun v66 => decidable_of_iff' _ (Iff.of_eq (k13_chk8.eq_1 v66))
theorem k13_off16_inb : ∀ (v66 : BitVec 32) (k13_hw8 : k13_chk8 v66), ∀ a, (k13_off16 v66) a + S1x128.size a ≤ S50000x128.size a := fun v66 k13_hw8 => k13_hw8

def k13_off17 (v3 : BitVec 32) : Fin 2 → Nat :=
  let c0_i32_35 : BitVec 32 := 0#32
  ![v3.toNat, 0]

def k13_chk1 (v3 : BitVec 32) : Prop :=
  (∀ a, (k13_off2 v3) a + S1x128.size a ≤ S50000x128.size a) ∧
  (∀ a, (k13_off17 v3) a + S1x128.size a ≤ S50000x128.size a)
instance k13_chk1.dec : ∀ (v3 : BitVec 32), Decidable (k13_chk1 v3) := fun v3 => decidable_of_iff' _ (Iff.of_eq (k13_chk1.eq_1 v3))
theorem k13_off2_inb : ∀ (v3 : BitVec 32) (k13_hw1 : k13_chk1 v3), ∀ a, (k13_off2 v3) a + S1x128.size a ≤ S50000x128.size a := fun v3 k13_hw1 => k13_hw1.1
theorem k13_off17_inb : ∀ (v3 : BitVec 32) (k13_hw1 : k13_chk1 v3), ∀ a, (k13_off17 v3) a + S1x128.size a ≤ S50000x128.size a := fun v3 k13_hw1 => k13_hw1.2

def k13_off18 (v12 : BitVec 32) : Fin 2 → Nat :=
  let c0_i32_39 : BitVec 32 := 0#32
  ![v12.toNat, 0]

def k13_chk2 (v12 : BitVec 32) : Prop :=
  (∀ a, (k13_off4 v12) a + S1x128.size a ≤ S50000x128.size a) ∧
  (∀ a, (k13_off18 v12) a + S1x128.size a ≤ S50000x128.size a)
instance k13_chk2.dec : ∀ (v12 : BitVec 32), Decidable (k13_chk2 v12) := fun v12 => decidable_of_iff' _ (Iff.of_eq (k13_chk2.eq_1 v12))
theorem k13_off4_inb : ∀ (v12 : BitVec 32) (k13_hw2 : k13_chk2 v12), ∀ a, (k13_off4 v12) a + S1x128.size a ≤ S50000x128.size a := fun v12 k13_hw2 => k13_hw2.1
theorem k13_off18_inb : ∀ (v12 : BitVec 32) (k13_hw2 : k13_chk2 v12), ∀ a, (k13_off18 v12) a + S1x128.size a ≤ S50000x128.size a := fun v12 k13_hw2 => k13_hw2.2

def k13_off19 (v21 : BitVec 32) : Fin 2 → Nat :=
  let c0_i32_43 : BitVec 32 := 0#32
  ![v21.toNat, 0]

def k13_chk3 (v21 : BitVec 32) : Prop :=
  (∀ a, (k13_off6 v21) a + S1x128.size a ≤ S50000x128.size a) ∧
  (∀ a, (k13_off19 v21) a + S1x128.size a ≤ S50000x128.size a)
instance k13_chk3.dec : ∀ (v21 : BitVec 32), Decidable (k13_chk3 v21) := fun v21 => decidable_of_iff' _ (Iff.of_eq (k13_chk3.eq_1 v21))
theorem k13_off6_inb : ∀ (v21 : BitVec 32) (k13_hw3 : k13_chk3 v21), ∀ a, (k13_off6 v21) a + S1x128.size a ≤ S50000x128.size a := fun v21 k13_hw3 => k13_hw3.1
theorem k13_off19_inb : ∀ (v21 : BitVec 32) (k13_hw3 : k13_chk3 v21), ∀ a, (k13_off19 v21) a + S1x128.size a ≤ S50000x128.size a := fun v21 k13_hw3 => k13_hw3.2

def k13_off20 (v30 : BitVec 32) : Fin 2 → Nat :=
  let c0_i32_47 : BitVec 32 := 0#32
  ![v30.toNat, 0]

def k13_chk4 (v30 : BitVec 32) : Prop :=
  (∀ a, (k13_off8 v30) a + S1x128.size a ≤ S50000x128.size a) ∧
  (∀ a, (k13_off20 v30) a + S1x128.size a ≤ S50000x128.size a)
instance k13_chk4.dec : ∀ (v30 : BitVec 32), Decidable (k13_chk4 v30) := fun v30 => decidable_of_iff' _ (Iff.of_eq (k13_chk4.eq_1 v30))
theorem k13_off8_inb : ∀ (v30 : BitVec 32) (k13_hw4 : k13_chk4 v30), ∀ a, (k13_off8 v30) a + S1x128.size a ≤ S50000x128.size a := fun v30 k13_hw4 => k13_hw4.1
theorem k13_off20_inb : ∀ (v30 : BitVec 32) (k13_hw4 : k13_chk4 v30), ∀ a, (k13_off20 v30) a + S1x128.size a ≤ S50000x128.size a := fun v30 k13_hw4 => k13_hw4.2

def k13_off21 (v39 : BitVec 32) : Fin 2 → Nat :=
  let c0_i32_51 : BitVec 32 := 0#32
  ![v39.toNat, 0]

def k13_chk5 (v39 : BitVec 32) : Prop :=
  (∀ a, (k13_off10 v39) a + S1x128.size a ≤ S50000x128.size a) ∧
  (∀ a, (k13_off21 v39) a + S1x128.size a ≤ S50000x128.size a)
instance k13_chk5.dec : ∀ (v39 : BitVec 32), Decidable (k13_chk5 v39) := fun v39 => decidable_of_iff' _ (Iff.of_eq (k13_chk5.eq_1 v39))
theorem k13_off10_inb : ∀ (v39 : BitVec 32) (k13_hw5 : k13_chk5 v39), ∀ a, (k13_off10 v39) a + S1x128.size a ≤ S50000x128.size a := fun v39 k13_hw5 => k13_hw5.1
theorem k13_off21_inb : ∀ (v39 : BitVec 32) (k13_hw5 : k13_chk5 v39), ∀ a, (k13_off21 v39) a + S1x128.size a ≤ S50000x128.size a := fun v39 k13_hw5 => k13_hw5.2

def k13_off22 (v48 : BitVec 32) : Fin 2 → Nat :=
  let c0_i32_55 : BitVec 32 := 0#32
  ![v48.toNat, 0]

def k13_chk6 (v48 : BitVec 32) : Prop :=
  (∀ a, (k13_off12 v48) a + S1x128.size a ≤ S50000x128.size a) ∧
  (∀ a, (k13_off22 v48) a + S1x128.size a ≤ S50000x128.size a)
instance k13_chk6.dec : ∀ (v48 : BitVec 32), Decidable (k13_chk6 v48) := fun v48 => decidable_of_iff' _ (Iff.of_eq (k13_chk6.eq_1 v48))
theorem k13_off12_inb : ∀ (v48 : BitVec 32) (k13_hw6 : k13_chk6 v48), ∀ a, (k13_off12 v48) a + S1x128.size a ≤ S50000x128.size a := fun v48 k13_hw6 => k13_hw6.1
theorem k13_off22_inb : ∀ (v48 : BitVec 32) (k13_hw6 : k13_chk6 v48), ∀ a, (k13_off22 v48) a + S1x128.size a ≤ S50000x128.size a := fun v48 k13_hw6 => k13_hw6.2

def k13_off23 (v57 : BitVec 32) : Fin 2 → Nat :=
  let c0_i32_59 : BitVec 32 := 0#32
  ![v57.toNat, 0]

def k13_chk7 (v57 : BitVec 32) : Prop :=
  (∀ a, (k13_off14 v57) a + S1x128.size a ≤ S50000x128.size a) ∧
  (∀ a, (k13_off23 v57) a + S1x128.size a ≤ S50000x128.size a)
instance k13_chk7.dec : ∀ (v57 : BitVec 32), Decidable (k13_chk7 v57) := fun v57 => decidable_of_iff' _ (Iff.of_eq (k13_chk7.eq_1 v57))
theorem k13_off14_inb : ∀ (v57 : BitVec 32) (k13_hw7 : k13_chk7 v57), ∀ a, (k13_off14 v57) a + S1x128.size a ≤ S50000x128.size a := fun v57 k13_hw7 => k13_hw7.1
theorem k13_off23_inb : ∀ (v57 : BitVec 32) (k13_hw7 : k13_chk7 v57), ∀ a, (k13_off23 v57) a + S1x128.size a ≤ S50000x128.size a := fun v57 k13_hw7 => k13_hw7.2

def cc13_transform_1 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage13_0 : Fin 2 → Memref sig .tc .vmem S8x128 .f32 := fun | 0 => Memref.whole cc13_stg0_0 | 1 => Memref.whole cc13_stg0_1 | ⟨_ + 2, h⟩ => absurd h (Nat.not_lt.2 (Nat.le_add_left _ _))
abbrev sem13_0 : Fin 2 → DmaSem sig := fun | 0 => cc13_sem0_0 | 1 => cc13_sem0_1 | ⟨_ + 2, h⟩ => absurd h (Nat.not_lt.2 (Nat.le_add_left _ _))
abbrev reads13_0 : Fin grid13.rank → Bool := ![true]

abbrev grid14 : Pipeline.Grid := ⟨1, ![10625], ![false]⟩

abbrev pre14 : Pipeline.Prefetch sig := ⟨1, ![main_v66.idx], fun | 0 => main_v66.names | ⟨_ + 1, h⟩ => absurd h (Nat.not_lt.2 (Nat.le_add_left _ _)), fun | 0 => rfl | ⟨_ + 1, h⟩ => absurd h (Nat.not_lt.2 (Nat.le_add_left _ _))⟩

def k14_off1 (i : grid14.Coords) : Fin 1 → Nat :=
  let arg0 : BitVec 32 := BitVec.ofNat 32 (i 0).val
  let c8_i32 : BitVec 32 := 8#32
  let v0 : BitVec 32 := Scalar.muli arg0 c8_i32
  let c0_i32 : BitVec 32 := 0#32
  let v1 : BitVec 32 := Scalar.addi v0 c0_i32
  let v2 : Index := Scalar.indexCast v1
  ![v2.toNat]
def k14_off2 (v3 : BitVec 32) : Fin 2 → Nat :=
  let c0_i32_3 : BitVec 32 := 0#32
  ![v3.toNat, 0]

def k14_off3 (i : grid14.Coords) : Fin 1 → Nat :=
  let arg0 : BitVec 32 := BitVec.ofNat 32 (i 0).val
  let c8_i32 : BitVec 32 := 8#32
  let v0 : BitVec 32 := Scalar.muli arg0 c8_i32
  let c1_i32 : BitVec 32 := 1#32
  let v10 : BitVec 32 := Scalar.addi v0 c1_i32
  let v11 : Index := Scalar.indexCast v10
  ![v11.toNat]
def k14_off4 (v12 : BitVec 32) : Fin 2 → Nat :=
  let c0_i32_7 : BitVec 32 := 0#32
  ![v12.toNat, 0]

def k14_off5 (i : grid14.Coords) : Fin 1 → Nat :=
  let arg0 : BitVec 32 := BitVec.ofNat 32 (i 0).val
  let c8_i32 : BitVec 32 := 8#32
  let v0 : BitVec 32 := Scalar.muli arg0 c8_i32
  let c2_i32 : BitVec 32 := 2#32
  let v19 : BitVec 32 := Scalar.addi v0 c2_i32
  let v20 : Index := Scalar.indexCast v19
  ![v20.toNat]
def k14_off6 (v21 : BitVec 32) : Fin 2 → Nat :=
  let c0_i32_11 : BitVec 32 := 0#32
  ![v21.toNat, 0]

def k14_off7 (i : grid14.Coords) : Fin 1 → Nat :=
  let arg0 : BitVec 32 := BitVec.ofNat 32 (i 0).val
  let c8_i32 : BitVec 32 := 8#32
  let v0 : BitVec 32 := Scalar.muli arg0 c8_i32
  let c3_i32 : BitVec 32 := 3#32
  let v28 : BitVec 32 := Scalar.addi v0 c3_i32
  let v29 : Index := Scalar.indexCast v28
  ![v29.toNat]
def k14_off8 (v30 : BitVec 32) : Fin 2 → Nat :=
  let c0_i32_15 : BitVec 32 := 0#32
  ![v30.toNat, 0]

def k14_off9 (i : grid14.Coords) : Fin 1 → Nat :=
  let arg0 : BitVec 32 := BitVec.ofNat 32 (i 0).val
  let c8_i32 : BitVec 32 := 8#32
  let v0 : BitVec 32 := Scalar.muli arg0 c8_i32
  let c4_i32 : BitVec 32 := 4#32
  let v37 : BitVec 32 := Scalar.addi v0 c4_i32
  let v38 : Index := Scalar.indexCast v37
  ![v38.toNat]
def k14_off10 (v39 : BitVec 32) : Fin 2 → Nat :=
  let c0_i32_19 : BitVec 32 := 0#32
  ![v39.toNat, 0]

def k14_off11 (i : grid14.Coords) : Fin 1 → Nat :=
  let arg0 : BitVec 32 := BitVec.ofNat 32 (i 0).val
  let c8_i32 : BitVec 32 := 8#32
  let v0 : BitVec 32 := Scalar.muli arg0 c8_i32
  let c5_i32 : BitVec 32 := 5#32
  let v46 : BitVec 32 := Scalar.addi v0 c5_i32
  let v47 : Index := Scalar.indexCast v46
  ![v47.toNat]
def k14_off12 (v48 : BitVec 32) : Fin 2 → Nat :=
  let c0_i32_23 : BitVec 32 := 0#32
  ![v48.toNat, 0]

def k14_off13 (i : grid14.Coords) : Fin 1 → Nat :=
  let arg0 : BitVec 32 := BitVec.ofNat 32 (i 0).val
  let c8_i32 : BitVec 32 := 8#32
  let v0 : BitVec 32 := Scalar.muli arg0 c8_i32
  let c6_i32 : BitVec 32 := 6#32
  let v55 : BitVec 32 := Scalar.addi v0 c6_i32
  let v56 : Index := Scalar.indexCast v55
  ![v56.toNat]
def k14_off14 (v57 : BitVec 32) : Fin 2 → Nat :=
  let c0_i32_27 : BitVec 32 := 0#32
  ![v57.toNat, 0]

def k14_off15 (i : grid14.Coords) : Fin 1 → Nat :=
  let arg0 : BitVec 32 := BitVec.ofNat 32 (i 0).val
  let c8_i32 : BitVec 32 := 8#32
  let v0 : BitVec 32 := Scalar.muli arg0 c8_i32
  let c7_i32 : BitVec 32 := 7#32
  let v64 : BitVec 32 := Scalar.addi v0 c7_i32
  let v65 : Index := Scalar.indexCast v64
  ![v65.toNat]
def k14_off16 (v66 : BitVec 32) : Fin 2 → Nat :=
  let c0_i32_31 : BitVec 32 := 0#32
  ![v66.toNat, 0]

def k14_chk8 (v66 : BitVec 32) : Prop :=
  (∀ a, (k14_off16 v66) a + S1x128.size a ≤ S50000x128.size a)
instance k14_chk8.dec : ∀ (v66 : BitVec 32), Decidable (k14_chk8 v66) := fun v66 => decidable_of_iff' _ (Iff.of_eq (k14_chk8.eq_1 v66))
theorem k14_off16_inb : ∀ (v66 : BitVec 32) (k14_hw8 : k14_chk8 v66), ∀ a, (k14_off16 v66) a + S1x128.size a ≤ S50000x128.size a := fun v66 k14_hw8 => k14_hw8

def k14_off17 (v3 : BitVec 32) : Fin 2 → Nat :=
  let c0_i32_35 : BitVec 32 := 0#32
  ![v3.toNat, 0]

def k14_chk1 (v3 : BitVec 32) : Prop :=
  (∀ a, (k14_off2 v3) a + S1x128.size a ≤ S50000x128.size a) ∧
  (∀ a, (k14_off17 v3) a + S1x128.size a ≤ S50000x128.size a)
instance k14_chk1.dec : ∀ (v3 : BitVec 32), Decidable (k14_chk1 v3) := fun v3 => decidable_of_iff' _ (Iff.of_eq (k14_chk1.eq_1 v3))
theorem k14_off2_inb : ∀ (v3 : BitVec 32) (k14_hw1 : k14_chk1 v3), ∀ a, (k14_off2 v3) a + S1x128.size a ≤ S50000x128.size a := fun v3 k14_hw1 => k14_hw1.1
theorem k14_off17_inb : ∀ (v3 : BitVec 32) (k14_hw1 : k14_chk1 v3), ∀ a, (k14_off17 v3) a + S1x128.size a ≤ S50000x128.size a := fun v3 k14_hw1 => k14_hw1.2

def k14_off18 (v12 : BitVec 32) : Fin 2 → Nat :=
  let c0_i32_39 : BitVec 32 := 0#32
  ![v12.toNat, 0]

def k14_chk2 (v12 : BitVec 32) : Prop :=
  (∀ a, (k14_off4 v12) a + S1x128.size a ≤ S50000x128.size a) ∧
  (∀ a, (k14_off18 v12) a + S1x128.size a ≤ S50000x128.size a)
instance k14_chk2.dec : ∀ (v12 : BitVec 32), Decidable (k14_chk2 v12) := fun v12 => decidable_of_iff' _ (Iff.of_eq (k14_chk2.eq_1 v12))
theorem k14_off4_inb : ∀ (v12 : BitVec 32) (k14_hw2 : k14_chk2 v12), ∀ a, (k14_off4 v12) a + S1x128.size a ≤ S50000x128.size a := fun v12 k14_hw2 => k14_hw2.1
theorem k14_off18_inb : ∀ (v12 : BitVec 32) (k14_hw2 : k14_chk2 v12), ∀ a, (k14_off18 v12) a + S1x128.size a ≤ S50000x128.size a := fun v12 k14_hw2 => k14_hw2.2

def k14_off19 (v21 : BitVec 32) : Fin 2 → Nat :=
  let c0_i32_43 : BitVec 32 := 0#32
  ![v21.toNat, 0]

def k14_chk3 (v21 : BitVec 32) : Prop :=
  (∀ a, (k14_off6 v21) a + S1x128.size a ≤ S50000x128.size a) ∧
  (∀ a, (k14_off19 v21) a + S1x128.size a ≤ S50000x128.size a)
instance k14_chk3.dec : ∀ (v21 : BitVec 32), Decidable (k14_chk3 v21) := fun v21 => decidable_of_iff' _ (Iff.of_eq (k14_chk3.eq_1 v21))
theorem k14_off6_inb : ∀ (v21 : BitVec 32) (k14_hw3 : k14_chk3 v21), ∀ a, (k14_off6 v21) a + S1x128.size a ≤ S50000x128.size a := fun v21 k14_hw3 => k14_hw3.1
theorem k14_off19_inb : ∀ (v21 : BitVec 32) (k14_hw3 : k14_chk3 v21), ∀ a, (k14_off19 v21) a + S1x128.size a ≤ S50000x128.size a := fun v21 k14_hw3 => k14_hw3.2

def k14_off20 (v30 : BitVec 32) : Fin 2 → Nat :=
  let c0_i32_47 : BitVec 32 := 0#32
  ![v30.toNat, 0]

def k14_chk4 (v30 : BitVec 32) : Prop :=
  (∀ a, (k14_off8 v30) a + S1x128.size a ≤ S50000x128.size a) ∧
  (∀ a, (k14_off20 v30) a + S1x128.size a ≤ S50000x128.size a)
instance k14_chk4.dec : ∀ (v30 : BitVec 32), Decidable (k14_chk4 v30) := fun v30 => decidable_of_iff' _ (Iff.of_eq (k14_chk4.eq_1 v30))
theorem k14_off8_inb : ∀ (v30 : BitVec 32) (k14_hw4 : k14_chk4 v30), ∀ a, (k14_off8 v30) a + S1x128.size a ≤ S50000x128.size a := fun v30 k14_hw4 => k14_hw4.1
theorem k14_off20_inb : ∀ (v30 : BitVec 32) (k14_hw4 : k14_chk4 v30), ∀ a, (k14_off20 v30) a + S1x128.size a ≤ S50000x128.size a := fun v30 k14_hw4 => k14_hw4.2

def k14_off21 (v39 : BitVec 32) : Fin 2 → Nat :=
  let c0_i32_51 : BitVec 32 := 0#32
  ![v39.toNat, 0]

def k14_chk5 (v39 : BitVec 32) : Prop :=
  (∀ a, (k14_off10 v39) a + S1x128.size a ≤ S50000x128.size a) ∧
  (∀ a, (k14_off21 v39) a + S1x128.size a ≤ S50000x128.size a)
instance k14_chk5.dec : ∀ (v39 : BitVec 32), Decidable (k14_chk5 v39) := fun v39 => decidable_of_iff' _ (Iff.of_eq (k14_chk5.eq_1 v39))
theorem k14_off10_inb : ∀ (v39 : BitVec 32) (k14_hw5 : k14_chk5 v39), ∀ a, (k14_off10 v39) a + S1x128.size a ≤ S50000x128.size a := fun v39 k14_hw5 => k14_hw5.1
theorem k14_off21_inb : ∀ (v39 : BitVec 32) (k14_hw5 : k14_chk5 v39), ∀ a, (k14_off21 v39) a + S1x128.size a ≤ S50000x128.size a := fun v39 k14_hw5 => k14_hw5.2

def k14_off22 (v48 : BitVec 32) : Fin 2 → Nat :=
  let c0_i32_55 : BitVec 32 := 0#32
  ![v48.toNat, 0]

def k14_chk6 (v48 : BitVec 32) : Prop :=
  (∀ a, (k14_off12 v48) a + S1x128.size a ≤ S50000x128.size a) ∧
  (∀ a, (k14_off22 v48) a + S1x128.size a ≤ S50000x128.size a)
instance k14_chk6.dec : ∀ (v48 : BitVec 32), Decidable (k14_chk6 v48) := fun v48 => decidable_of_iff' _ (Iff.of_eq (k14_chk6.eq_1 v48))
theorem k14_off12_inb : ∀ (v48 : BitVec 32) (k14_hw6 : k14_chk6 v48), ∀ a, (k14_off12 v48) a + S1x128.size a ≤ S50000x128.size a := fun v48 k14_hw6 => k14_hw6.1
theorem k14_off22_inb : ∀ (v48 : BitVec 32) (k14_hw6 : k14_chk6 v48), ∀ a, (k14_off22 v48) a + S1x128.size a ≤ S50000x128.size a := fun v48 k14_hw6 => k14_hw6.2

def k14_off23 (v57 : BitVec 32) : Fin 2 → Nat :=
  let c0_i32_59 : BitVec 32 := 0#32
  ![v57.toNat, 0]

def k14_chk7 (v57 : BitVec 32) : Prop :=
  (∀ a, (k14_off14 v57) a + S1x128.size a ≤ S50000x128.size a) ∧
  (∀ a, (k14_off23 v57) a + S1x128.size a ≤ S50000x128.size a)
instance k14_chk7.dec : ∀ (v57 : BitVec 32), Decidable (k14_chk7 v57) := fun v57 => decidable_of_iff' _ (Iff.of_eq (k14_chk7.eq_1 v57))
theorem k14_off14_inb : ∀ (v57 : BitVec 32) (k14_hw7 : k14_chk7 v57), ∀ a, (k14_off14 v57) a + S1x128.size a ≤ S50000x128.size a := fun v57 k14_hw7 => k14_hw7.1
theorem k14_off23_inb : ∀ (v57 : BitVec 32) (k14_hw7 : k14_chk7 v57), ∀ a, (k14_off23 v57) a + S1x128.size a ≤ S50000x128.size a := fun v57 k14_hw7 => k14_hw7.2

def cc14_transform_1 (i : grid14.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage14_0 : Fin 2 → Memref sig .tc .vmem S8x128 .f32 := fun | 0 => Memref.whole cc14_stg0_0 | 1 => Memref.whole cc14_stg0_1 | ⟨_ + 2, h⟩ => absurd h (Nat.not_lt.2 (Nat.le_add_left _ _))
abbrev sem14_0 : Fin 2 → DmaSem sig := fun | 0 => cc14_sem0_0 | 1 => cc14_sem0_1 | ⟨_ + 2, h⟩ => absurd h (Nat.not_lt.2 (Nat.le_add_left _ _))
abbrev reads14_0 : Fin grid14.rank → Bool := ![true]

abbrev grid15 : Pipeline.Grid := ⟨1, ![10625], ![false]⟩

abbrev pre15 : Pipeline.Prefetch sig := ⟨1, ![main_v68.idx], fun | 0 => main_v68.names | ⟨_ + 1, h⟩ => absurd h (Nat.not_lt.2 (Nat.le_add_left _ _)), fun | 0 => rfl | ⟨_ + 1, h⟩ => absurd h (Nat.not_lt.2 (Nat.le_add_left _ _))⟩

def k15_off1 (i : grid15.Coords) : Fin 1 → Nat :=
  let arg0 : BitVec 32 := BitVec.ofNat 32 (i 0).val
  let c8_i32 : BitVec 32 := 8#32
  let v0 : BitVec 32 := Scalar.muli arg0 c8_i32
  let c0_i32 : BitVec 32 := 0#32
  let v1 : BitVec 32 := Scalar.addi v0 c0_i32
  let v2 : Index := Scalar.indexCast v1
  ![v2.toNat]
def k15_off2 (v3 : BitVec 32) : Fin 2 → Nat :=
  let c0_i32_3 : BitVec 32 := 0#32
  ![v3.toNat, 0]

def k15_off3 (i : grid15.Coords) : Fin 1 → Nat :=
  let arg0 : BitVec 32 := BitVec.ofNat 32 (i 0).val
  let c8_i32 : BitVec 32 := 8#32
  let v0 : BitVec 32 := Scalar.muli arg0 c8_i32
  let c1_i32 : BitVec 32 := 1#32
  let v10 : BitVec 32 := Scalar.addi v0 c1_i32
  let v11 : Index := Scalar.indexCast v10
  ![v11.toNat]
def k15_off4 (v12 : BitVec 32) : Fin 2 → Nat :=
  let c0_i32_7 : BitVec 32 := 0#32
  ![v12.toNat, 0]

def k15_off5 (i : grid15.Coords) : Fin 1 → Nat :=
  let arg0 : BitVec 32 := BitVec.ofNat 32 (i 0).val
  let c8_i32 : BitVec 32 := 8#32
  let v0 : BitVec 32 := Scalar.muli arg0 c8_i32
  let c2_i32 : BitVec 32 := 2#32
  let v19 : BitVec 32 := Scalar.addi v0 c2_i32
  let v20 : Index := Scalar.indexCast v19
  ![v20.toNat]
def k15_off6 (v21 : BitVec 32) : Fin 2 → Nat :=
  let c0_i32_11 : BitVec 32 := 0#32
  ![v21.toNat, 0]

def k15_off7 (i : grid15.Coords) : Fin 1 → Nat :=
  let arg0 : BitVec 32 := BitVec.ofNat 32 (i 0).val
  let c8_i32 : BitVec 32 := 8#32
  let v0 : BitVec 32 := Scalar.muli arg0 c8_i32
  let c3_i32 : BitVec 32 := 3#32
  let v28 : BitVec 32 := Scalar.addi v0 c3_i32
  let v29 : Index := Scalar.indexCast v28
  ![v29.toNat]
def k15_off8 (v30 : BitVec 32) : Fin 2 → Nat :=
  let c0_i32_15 : BitVec 32 := 0#32
  ![v30.toNat, 0]

def k15_off9 (i : grid15.Coords) : Fin 1 → Nat :=
  let arg0 : BitVec 32 := BitVec.ofNat 32 (i 0).val
  let c8_i32 : BitVec 32 := 8#32
  let v0 : BitVec 32 := Scalar.muli arg0 c8_i32
  let c4_i32 : BitVec 32 := 4#32
  let v37 : BitVec 32 := Scalar.addi v0 c4_i32
  let v38 : Index := Scalar.indexCast v37
  ![v38.toNat]
def k15_off10 (v39 : BitVec 32) : Fin 2 → Nat :=
  let c0_i32_19 : BitVec 32 := 0#32
  ![v39.toNat, 0]

def k15_off11 (i : grid15.Coords) : Fin 1 → Nat :=
  let arg0 : BitVec 32 := BitVec.ofNat 32 (i 0).val
  let c8_i32 : BitVec 32 := 8#32
  let v0 : BitVec 32 := Scalar.muli arg0 c8_i32
  let c5_i32 : BitVec 32 := 5#32
  let v46 : BitVec 32 := Scalar.addi v0 c5_i32
  let v47 : Index := Scalar.indexCast v46
  ![v47.toNat]
def k15_off12 (v48 : BitVec 32) : Fin 2 → Nat :=
  let c0_i32_23 : BitVec 32 := 0#32
  ![v48.toNat, 0]

def k15_off13 (i : grid15.Coords) : Fin 1 → Nat :=
  let arg0 : BitVec 32 := BitVec.ofNat 32 (i 0).val
  let c8_i32 : BitVec 32 := 8#32
  let v0 : BitVec 32 := Scalar.muli arg0 c8_i32
  let c6_i32 : BitVec 32 := 6#32
  let v55 : BitVec 32 := Scalar.addi v0 c6_i32
  let v56 : Index := Scalar.indexCast v55
  ![v56.toNat]
def k15_off14 (v57 : BitVec 32) : Fin 2 → Nat :=
  let c0_i32_27 : BitVec 32 := 0#32
  ![v57.toNat, 0]

def k15_off15 (i : grid15.Coords) : Fin 1 → Nat :=
  let arg0 : BitVec 32 := BitVec.ofNat 32 (i 0).val
  let c8_i32 : BitVec 32 := 8#32
  let v0 : BitVec 32 := Scalar.muli arg0 c8_i32
  let c7_i32 : BitVec 32 := 7#32
  let v64 : BitVec 32 := Scalar.addi v0 c7_i32
  let v65 : Index := Scalar.indexCast v64
  ![v65.toNat]
def k15_off16 (v66 : BitVec 32) : Fin 2 → Nat :=
  let c0_i32_31 : BitVec 32 := 0#32
  ![v66.toNat, 0]

def k15_chk8 (v66 : BitVec 32) : Prop :=
  (∀ a, (k15_off16 v66) a + S1x128.size a ≤ S50000x128.size a)
instance k15_chk8.dec : ∀ (v66 : BitVec 32), Decidable (k15_chk8 v66) := fun v66 => decidable_of_iff' _ (Iff.of_eq (k15_chk8.eq_1 v66))
theorem k15_off16_inb : ∀ (v66 : BitVec 32) (k15_hw8 : k15_chk8 v66), ∀ a, (k15_off16 v66) a + S1x128.size a ≤ S50000x128.size a := fun v66 k15_hw8 => k15_hw8

def k15_off17 (v3 : BitVec 32) : Fin 2 → Nat :=
  let c0_i32_35 : BitVec 32 := 0#32
  ![v3.toNat, 0]

def k15_chk1 (v3 : BitVec 32) : Prop :=
  (∀ a, (k15_off2 v3) a + S1x128.size a ≤ S50000x128.size a) ∧
  (∀ a, (k15_off17 v3) a + S1x128.size a ≤ S50000x128.size a)
instance k15_chk1.dec : ∀ (v3 : BitVec 32), Decidable (k15_chk1 v3) := fun v3 => decidable_of_iff' _ (Iff.of_eq (k15_chk1.eq_1 v3))
theorem k15_off2_inb : ∀ (v3 : BitVec 32) (k15_hw1 : k15_chk1 v3), ∀ a, (k15_off2 v3) a + S1x128.size a ≤ S50000x128.size a := fun v3 k15_hw1 => k15_hw1.1
theorem k15_off17_inb : ∀ (v3 : BitVec 32) (k15_hw1 : k15_chk1 v3), ∀ a, (k15_off17 v3) a + S1x128.size a ≤ S50000x128.size a := fun v3 k15_hw1 => k15_hw1.2

def k15_off18 (v12 : BitVec 32) : Fin 2 → Nat :=
  let c0_i32_39 : BitVec 32 := 0#32
  ![v12.toNat, 0]

def k15_chk2 (v12 : BitVec 32) : Prop :=
  (∀ a, (k15_off4 v12) a + S1x128.size a ≤ S50000x128.size a) ∧
  (∀ a, (k15_off18 v12) a + S1x128.size a ≤ S50000x128.size a)
instance k15_chk2.dec : ∀ (v12 : BitVec 32), Decidable (k15_chk2 v12) := fun v12 => decidable_of_iff' _ (Iff.of_eq (k15_chk2.eq_1 v12))
theorem k15_off4_inb : ∀ (v12 : BitVec 32) (k15_hw2 : k15_chk2 v12), ∀ a, (k15_off4 v12) a + S1x128.size a ≤ S50000x128.size a := fun v12 k15_hw2 => k15_hw2.1
theorem k15_off18_inb : ∀ (v12 : BitVec 32) (k15_hw2 : k15_chk2 v12), ∀ a, (k15_off18 v12) a + S1x128.size a ≤ S50000x128.size a := fun v12 k15_hw2 => k15_hw2.2

def k15_off19 (v21 : BitVec 32) : Fin 2 → Nat :=
  let c0_i32_43 : BitVec 32 := 0#32
  ![v21.toNat, 0]

def k15_chk3 (v21 : BitVec 32) : Prop :=
  (∀ a, (k15_off6 v21) a + S1x128.size a ≤ S50000x128.size a) ∧
  (∀ a, (k15_off19 v21) a + S1x128.size a ≤ S50000x128.size a)
instance k15_chk3.dec : ∀ (v21 : BitVec 32), Decidable (k15_chk3 v21) := fun v21 => decidable_of_iff' _ (Iff.of_eq (k15_chk3.eq_1 v21))
theorem k15_off6_inb : ∀ (v21 : BitVec 32) (k15_hw3 : k15_chk3 v21), ∀ a, (k15_off6 v21) a + S1x128.size a ≤ S50000x128.size a := fun v21 k15_hw3 => k15_hw3.1
theorem k15_off19_inb : ∀ (v21 : BitVec 32) (k15_hw3 : k15_chk3 v21), ∀ a, (k15_off19 v21) a + S1x128.size a ≤ S50000x128.size a := fun v21 k15_hw3 => k15_hw3.2

def k15_off20 (v30 : BitVec 32) : Fin 2 → Nat :=
  let c0_i32_47 : BitVec 32 := 0#32
  ![v30.toNat, 0]

def k15_chk4 (v30 : BitVec 32) : Prop :=
  (∀ a, (k15_off8 v30) a + S1x128.size a ≤ S50000x128.size a) ∧
  (∀ a, (k15_off20 v30) a + S1x128.size a ≤ S50000x128.size a)
instance k15_chk4.dec : ∀ (v30 : BitVec 32), Decidable (k15_chk4 v30) := fun v30 => decidable_of_iff' _ (Iff.of_eq (k15_chk4.eq_1 v30))
theorem k15_off8_inb : ∀ (v30 : BitVec 32) (k15_hw4 : k15_chk4 v30), ∀ a, (k15_off8 v30) a + S1x128.size a ≤ S50000x128.size a := fun v30 k15_hw4 => k15_hw4.1
theorem k15_off20_inb : ∀ (v30 : BitVec 32) (k15_hw4 : k15_chk4 v30), ∀ a, (k15_off20 v30) a + S1x128.size a ≤ S50000x128.size a := fun v30 k15_hw4 => k15_hw4.2

def k15_off21 (v39 : BitVec 32) : Fin 2 → Nat :=
  let c0_i32_51 : BitVec 32 := 0#32
  ![v39.toNat, 0]

def k15_chk5 (v39 : BitVec 32) : Prop :=
  (∀ a, (k15_off10 v39) a + S1x128.size a ≤ S50000x128.size a) ∧
  (∀ a, (k15_off21 v39) a + S1x128.size a ≤ S50000x128.size a)
instance k15_chk5.dec : ∀ (v39 : BitVec 32), Decidable (k15_chk5 v39) := fun v39 => decidable_of_iff' _ (Iff.of_eq (k15_chk5.eq_1 v39))
theorem k15_off10_inb : ∀ (v39 : BitVec 32) (k15_hw5 : k15_chk5 v39), ∀ a, (k15_off10 v39) a + S1x128.size a ≤ S50000x128.size a := fun v39 k15_hw5 => k15_hw5.1
theorem k15_off21_inb : ∀ (v39 : BitVec 32) (k15_hw5 : k15_chk5 v39), ∀ a, (k15_off21 v39) a + S1x128.size a ≤ S50000x128.size a := fun v39 k15_hw5 => k15_hw5.2

def k15_off22 (v48 : BitVec 32) : Fin 2 → Nat :=
  let c0_i32_55 : BitVec 32 := 0#32
  ![v48.toNat, 0]

def k15_chk6 (v48 : BitVec 32) : Prop :=
  (∀ a, (k15_off12 v48) a + S1x128.size a ≤ S50000x128.size a) ∧
  (∀ a, (k15_off22 v48) a + S1x128.size a ≤ S50000x128.size a)
instance k15_chk6.dec : ∀ (v48 : BitVec 32), Decidable (k15_chk6 v48) := fun v48 => decidable_of_iff' _ (Iff.of_eq (k15_chk6.eq_1 v48))
theorem k15_off12_inb : ∀ (v48 : BitVec 32) (k15_hw6 : k15_chk6 v48), ∀ a, (k15_off12 v48) a + S1x128.size a ≤ S50000x128.size a := fun v48 k15_hw6 => k15_hw6.1
theorem k15_off22_inb : ∀ (v48 : BitVec 32) (k15_hw6 : k15_chk6 v48), ∀ a, (k15_off22 v48) a + S1x128.size a ≤ S50000x128.size a := fun v48 k15_hw6 => k15_hw6.2

def k15_off23 (v57 : BitVec 32) : Fin 2 → Nat :=
  let c0_i32_59 : BitVec 32 := 0#32
  ![v57.toNat, 0]

def k15_chk7 (v57 : BitVec 32) : Prop :=
  (∀ a, (k15_off14 v57) a + S1x128.size a ≤ S50000x128.size a) ∧
  (∀ a, (k15_off23 v57) a + S1x128.size a ≤ S50000x128.size a)
instance k15_chk7.dec : ∀ (v57 : BitVec 32), Decidable (k15_chk7 v57) := fun v57 => decidable_of_iff' _ (Iff.of_eq (k15_chk7.eq_1 v57))
theorem k15_off14_inb : ∀ (v57 : BitVec 32) (k15_hw7 : k15_chk7 v57), ∀ a, (k15_off14 v57) a + S1x128.size a ≤ S50000x128.size a := fun v57 k15_hw7 => k15_hw7.1
theorem k15_off23_inb : ∀ (v57 : BitVec 32) (k15_hw7 : k15_chk7 v57), ∀ a, (k15_off23 v57) a + S1x128.size a ≤ S50000x128.size a := fun v57 k15_hw7 => k15_hw7.2

def cc15_transform_1 (i : grid15.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage15_0 : Fin 2 → Memref sig .tc .vmem S8x128 .f32 := fun | 0 => Memref.whole cc15_stg0_0 | 1 => Memref.whole cc15_stg0_1 | ⟨_ + 2, h⟩ => absurd h (Nat.not_lt.2 (Nat.le_add_left _ _))
abbrev sem15_0 : Fin 2 → DmaSem sig := fun | 0 => cc15_sem0_0 | 1 => cc15_sem0_1 | ⟨_ + 2, h⟩ => absurd h (Nat.not_lt.2 (Nat.le_add_left _ _))
abbrev reads15_0 : Fin grid15.rank → Bool := ![true]

abbrev grid16 : Pipeline.Grid := ⟨1, ![10625], ![false]⟩

abbrev pre16 : Pipeline.Prefetch sig := ⟨1, ![main_v70.idx], fun | 0 => main_v70.names | ⟨_ + 1, h⟩ => absurd h (Nat.not_lt.2 (Nat.le_add_left _ _)), fun | 0 => rfl | ⟨_ + 1, h⟩ => absurd h (Nat.not_lt.2 (Nat.le_add_left _ _))⟩

def k16_off1 (i : grid16.Coords) : Fin 1 → Nat :=
  let arg0 : BitVec 32 := BitVec.ofNat 32 (i 0).val
  let c8_i32 : BitVec 32 := 8#32
  let v0 : BitVec 32 := Scalar.muli arg0 c8_i32
  let c0_i32 : BitVec 32 := 0#32
  let v1 : BitVec 32 := Scalar.addi v0 c0_i32
  let v2 : Index := Scalar.indexCast v1
  ![v2.toNat]
def k16_off2 (v3 : BitVec 32) : Fin 2 → Nat :=
  let c0_i32_3 : BitVec 32 := 0#32
  ![v3.toNat, 0]

def k16_off3 (i : grid16.Coords) : Fin 1 → Nat :=
  let arg0 : BitVec 32 := BitVec.ofNat 32 (i 0).val
  let c8_i32 : BitVec 32 := 8#32
  let v0 : BitVec 32 := Scalar.muli arg0 c8_i32
  let c1_i32 : BitVec 32 := 1#32
  let v10 : BitVec 32 := Scalar.addi v0 c1_i32
  let v11 : Index := Scalar.indexCast v10
  ![v11.toNat]
def k16_off4 (v12 : BitVec 32) : Fin 2 → Nat :=
  let c0_i32_7 : BitVec 32 := 0#32
  ![v12.toNat, 0]

def k16_off5 (i : grid16.Coords) : Fin 1 → Nat :=
  let arg0 : BitVec 32 := BitVec.ofNat 32 (i 0).val
  let c8_i32 : BitVec 32 := 8#32
  let v0 : BitVec 32 := Scalar.muli arg0 c8_i32
  let c2_i32 : BitVec 32 := 2#32
  let v19 : BitVec 32 := Scalar.addi v0 c2_i32
  let v20 : Index := Scalar.indexCast v19
  ![v20.toNat]
def k16_off6 (v21 : BitVec 32) : Fin 2 → Nat :=
  let c0_i32_11 : BitVec 32 := 0#32
  ![v21.toNat, 0]

def k16_off7 (i : grid16.Coords) : Fin 1 → Nat :=
  let arg0 : BitVec 32 := BitVec.ofNat 32 (i 0).val
  let c8_i32 : BitVec 32 := 8#32
  let v0 : BitVec 32 := Scalar.muli arg0 c8_i32
  let c3_i32 : BitVec 32 := 3#32
  let v28 : BitVec 32 := Scalar.addi v0 c3_i32
  let v29 : Index := Scalar.indexCast v28
  ![v29.toNat]
def k16_off8 (v30 : BitVec 32) : Fin 2 → Nat :=
  let c0_i32_15 : BitVec 32 := 0#32
  ![v30.toNat, 0]

def k16_off9 (i : grid16.Coords) : Fin 1 → Nat :=
  let arg0 : BitVec 32 := BitVec.ofNat 32 (i 0).val
  let c8_i32 : BitVec 32 := 8#32
  let v0 : BitVec 32 := Scalar.muli arg0 c8_i32
  let c4_i32 : BitVec 32 := 4#32
  let v37 : BitVec 32 := Scalar.addi v0 c4_i32
  let v38 : Index := Scalar.indexCast v37
  ![v38.toNat]
def k16_off10 (v39 : BitVec 32) : Fin 2 → Nat :=
  let c0_i32_19 : BitVec 32 := 0#32
  ![v39.toNat, 0]

def k16_off11 (i : grid16.Coords) : Fin 1 → Nat :=
  let arg0 : BitVec 32 := BitVec.ofNat 32 (i 0).val
  let c8_i32 : BitVec 32 := 8#32
  let v0 : BitVec 32 := Scalar.muli arg0 c8_i32
  let c5_i32 : BitVec 32 := 5#32
  let v46 : BitVec 32 := Scalar.addi v0 c5_i32
  let v47 : Index := Scalar.indexCast v46
  ![v47.toNat]
def k16_off12 (v48 : BitVec 32) : Fin 2 → Nat :=
  let c0_i32_23 : BitVec 32 := 0#32
  ![v48.toNat, 0]

def k16_off13 (i : grid16.Coords) : Fin 1 → Nat :=
  let arg0 : BitVec 32 := BitVec.ofNat 32 (i 0).val
  let c8_i32 : BitVec 32 := 8#32
  let v0 : BitVec 32 := Scalar.muli arg0 c8_i32
  let c6_i32 : BitVec 32 := 6#32
  let v55 : BitVec 32 := Scalar.addi v0 c6_i32
  let v56 : Index := Scalar.indexCast v55
  ![v56.toNat]
def k16_off14 (v57 : BitVec 32) : Fin 2 → Nat :=
  let c0_i32_27 : BitVec 32 := 0#32
  ![v57.toNat, 0]

def k16_off15 (i : grid16.Coords) : Fin 1 → Nat :=
  let arg0 : BitVec 32 := BitVec.ofNat 32 (i 0).val
  let c8_i32 : BitVec 32 := 8#32
  let v0 : BitVec 32 := Scalar.muli arg0 c8_i32
  let c7_i32 : BitVec 32 := 7#32
  let v64 : BitVec 32 := Scalar.addi v0 c7_i32
  let v65 : Index := Scalar.indexCast v64
  ![v65.toNat]
def k16_off16 (v66 : BitVec 32) : Fin 2 → Nat :=
  let c0_i32_31 : BitVec 32 := 0#32
  ![v66.toNat, 0]

def k16_chk8 (v66 : BitVec 32) : Prop :=
  (∀ a, (k16_off16 v66) a + S1x128.size a ≤ S50000x128.size a)
instance k16_chk8.dec : ∀ (v66 : BitVec 32), Decidable (k16_chk8 v66) := fun v66 => decidable_of_iff' _ (Iff.of_eq (k16_chk8.eq_1 v66))
theorem k16_off16_inb : ∀ (v66 : BitVec 32) (k16_hw8 : k16_chk8 v66), ∀ a, (k16_off16 v66) a + S1x128.size a ≤ S50000x128.size a := fun v66 k16_hw8 => k16_hw8

def k16_off17 (v3 : BitVec 32) : Fin 2 → Nat :=
  let c0_i32_35 : BitVec 32 := 0#32
  ![v3.toNat, 0]

def k16_chk1 (v3 : BitVec 32) : Prop :=
  (∀ a, (k16_off2 v3) a + S1x128.size a ≤ S50000x128.size a) ∧
  (∀ a, (k16_off17 v3) a + S1x128.size a ≤ S50000x128.size a)
instance k16_chk1.dec : ∀ (v3 : BitVec 32), Decidable (k16_chk1 v3) := fun v3 => decidable_of_iff' _ (Iff.of_eq (k16_chk1.eq_1 v3))
theorem k16_off2_inb : ∀ (v3 : BitVec 32) (k16_hw1 : k16_chk1 v3), ∀ a, (k16_off2 v3) a + S1x128.size a ≤ S50000x128.size a := fun v3 k16_hw1 => k16_hw1.1
theorem k16_off17_inb : ∀ (v3 : BitVec 32) (k16_hw1 : k16_chk1 v3), ∀ a, (k16_off17 v3) a + S1x128.size a ≤ S50000x128.size a := fun v3 k16_hw1 => k16_hw1.2

def k16_off18 (v12 : BitVec 32) : Fin 2 → Nat :=
  let c0_i32_39 : BitVec 32 := 0#32
  ![v12.toNat, 0]

def k16_chk2 (v12 : BitVec 32) : Prop :=
  (∀ a, (k16_off4 v12) a + S1x128.size a ≤ S50000x128.size a) ∧
  (∀ a, (k16_off18 v12) a + S1x128.size a ≤ S50000x128.size a)
instance k16_chk2.dec : ∀ (v12 : BitVec 32), Decidable (k16_chk2 v12) := fun v12 => decidable_of_iff' _ (Iff.of_eq (k16_chk2.eq_1 v12))
theorem k16_off4_inb : ∀ (v12 : BitVec 32) (k16_hw2 : k16_chk2 v12), ∀ a, (k16_off4 v12) a + S1x128.size a ≤ S50000x128.size a := fun v12 k16_hw2 => k16_hw2.1
theorem k16_off18_inb : ∀ (v12 : BitVec 32) (k16_hw2 : k16_chk2 v12), ∀ a, (k16_off18 v12) a + S1x128.size a ≤ S50000x128.size a := fun v12 k16_hw2 => k16_hw2.2

def k16_off19 (v21 : BitVec 32) : Fin 2 → Nat :=
  let c0_i32_43 : BitVec 32 := 0#32
  ![v21.toNat, 0]

def k16_chk3 (v21 : BitVec 32) : Prop :=
  (∀ a, (k16_off6 v21) a + S1x128.size a ≤ S50000x128.size a) ∧
  (∀ a, (k16_off19 v21) a + S1x128.size a ≤ S50000x128.size a)
instance k16_chk3.dec : ∀ (v21 : BitVec 32), Decidable (k16_chk3 v21) := fun v21 => decidable_of_iff' _ (Iff.of_eq (k16_chk3.eq_1 v21))
theorem k16_off6_inb : ∀ (v21 : BitVec 32) (k16_hw3 : k16_chk3 v21), ∀ a, (k16_off6 v21) a + S1x128.size a ≤ S50000x128.size a := fun v21 k16_hw3 => k16_hw3.1
theorem k16_off19_inb : ∀ (v21 : BitVec 32) (k16_hw3 : k16_chk3 v21), ∀ a, (k16_off19 v21) a + S1x128.size a ≤ S50000x128.size a := fun v21 k16_hw3 => k16_hw3.2

def k16_off20 (v30 : BitVec 32) : Fin 2 → Nat :=
  let c0_i32_47 : BitVec 32 := 0#32
  ![v30.toNat, 0]

def k16_chk4 (v30 : BitVec 32) : Prop :=
  (∀ a, (k16_off8 v30) a + S1x128.size a ≤ S50000x128.size a) ∧
  (∀ a, (k16_off20 v30) a + S1x128.size a ≤ S50000x128.size a)
instance k16_chk4.dec : ∀ (v30 : BitVec 32), Decidable (k16_chk4 v30) := fun v30 => decidable_of_iff' _ (Iff.of_eq (k16_chk4.eq_1 v30))
theorem k16_off8_inb : ∀ (v30 : BitVec 32) (k16_hw4 : k16_chk4 v30), ∀ a, (k16_off8 v30) a + S1x128.size a ≤ S50000x128.size a := fun v30 k16_hw4 => k16_hw4.1
theorem k16_off20_inb : ∀ (v30 : BitVec 32) (k16_hw4 : k16_chk4 v30), ∀ a, (k16_off20 v30) a + S1x128.size a ≤ S50000x128.size a := fun v30 k16_hw4 => k16_hw4.2

def k16_off21 (v39 : BitVec 32) : Fin 2 → Nat :=
  let c0_i32_51 : BitVec 32 := 0#32
  ![v39.toNat, 0]

def k16_chk5 (v39 : BitVec 32) : Prop :=
  (∀ a, (k16_off10 v39) a + S1x128.size a ≤ S50000x128.size a) ∧
  (∀ a, (k16_off21 v39) a + S1x128.size a ≤ S50000x128.size a)
instance k16_chk5.dec : ∀ (v39 : BitVec 32), Decidable (k16_chk5 v39) := fun v39 => decidable_of_iff' _ (Iff.of_eq (k16_chk5.eq_1 v39))
theorem k16_off10_inb : ∀ (v39 : BitVec 32) (k16_hw5 : k16_chk5 v39), ∀ a, (k16_off10 v39) a + S1x128.size a ≤ S50000x128.size a := fun v39 k16_hw5 => k16_hw5.1
theorem k16_off21_inb : ∀ (v39 : BitVec 32) (k16_hw5 : k16_chk5 v39), ∀ a, (k16_off21 v39) a + S1x128.size a ≤ S50000x128.size a := fun v39 k16_hw5 => k16_hw5.2

def k16_off22 (v48 : BitVec 32) : Fin 2 → Nat :=
  let c0_i32_55 : BitVec 32 := 0#32
  ![v48.toNat, 0]

def k16_chk6 (v48 : BitVec 32) : Prop :=
  (∀ a, (k16_off12 v48) a + S1x128.size a ≤ S50000x128.size a) ∧
  (∀ a, (k16_off22 v48) a + S1x128.size a ≤ S50000x128.size a)
instance k16_chk6.dec : ∀ (v48 : BitVec 32), Decidable (k16_chk6 v48) := fun v48 => decidable_of_iff' _ (Iff.of_eq (k16_chk6.eq_1 v48))
theorem k16_off12_inb : ∀ (v48 : BitVec 32) (k16_hw6 : k16_chk6 v48), ∀ a, (k16_off12 v48) a + S1x128.size a ≤ S50000x128.size a := fun v48 k16_hw6 => k16_hw6.1
theorem k16_off22_inb : ∀ (v48 : BitVec 32) (k16_hw6 : k16_chk6 v48), ∀ a, (k16_off22 v48) a + S1x128.size a ≤ S50000x128.size a := fun v48 k16_hw6 => k16_hw6.2

def k16_off23 (v57 : BitVec 32) : Fin 2 → Nat :=
  let c0_i32_59 : BitVec 32 := 0#32
  ![v57.toNat, 0]

def k16_chk7 (v57 : BitVec 32) : Prop :=
  (∀ a, (k16_off14 v57) a + S1x128.size a ≤ S50000x128.size a) ∧
  (∀ a, (k16_off23 v57) a + S1x128.size a ≤ S50000x128.size a)
instance k16_chk7.dec : ∀ (v57 : BitVec 32), Decidable (k16_chk7 v57) := fun v57 => decidable_of_iff' _ (Iff.of_eq (k16_chk7.eq_1 v57))
theorem k16_off14_inb : ∀ (v57 : BitVec 32) (k16_hw7 : k16_chk7 v57), ∀ a, (k16_off14 v57) a + S1x128.size a ≤ S50000x128.size a := fun v57 k16_hw7 => k16_hw7.1
theorem k16_off23_inb : ∀ (v57 : BitVec 32) (k16_hw7 : k16_chk7 v57), ∀ a, (k16_off23 v57) a + S1x128.size a ≤ S50000x128.size a := fun v57 k16_hw7 => k16_hw7.2

def cc16_transform_1 (i : grid16.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage16_0 : Fin 2 → Memref sig .tc .vmem S8x128 .f32 := fun | 0 => Memref.whole cc16_stg0_0 | 1 => Memref.whole cc16_stg0_1 | ⟨_ + 2, h⟩ => absurd h (Nat.not_lt.2 (Nat.le_add_left _ _))
abbrev sem16_0 : Fin 2 → DmaSem sig := fun | 0 => cc16_sem0_0 | 1 => cc16_sem0_1 | ⟨_ + 2, h⟩ => absurd h (Nat.not_lt.2 (Nat.le_add_left _ _))
abbrev reads16_0 : Fin grid16.rank → Bool := ![true]

abbrev grid17 : Pipeline.Grid := ⟨1, ![10625], ![false]⟩

abbrev pre17 : Pipeline.Prefetch sig := ⟨1, ![main_v72.idx], fun | 0 => main_v72.names | ⟨_ + 1, h⟩ => absurd h (Nat.not_lt.2 (Nat.le_add_left _ _)), fun | 0 => rfl | ⟨_ + 1, h⟩ => absurd h (Nat.not_lt.2 (Nat.le_add_left _ _))⟩

def k17_off1 (i : grid17.Coords) : Fin 1 → Nat :=
  let arg0 : BitVec 32 := BitVec.ofNat 32 (i 0).val
  let c8_i32 : BitVec 32 := 8#32
  let v0 : BitVec 32 := Scalar.muli arg0 c8_i32
  let c0_i32 : BitVec 32 := 0#32
  let v1 : BitVec 32 := Scalar.addi v0 c0_i32
  let v2 : Index := Scalar.indexCast v1
  ![v2.toNat]
def k17_off2 (v3 : BitVec 32) : Fin 2 → Nat :=
  let c0_i32_3 : BitVec 32 := 0#32
  ![v3.toNat, 0]

def k17_off3 (i : grid17.Coords) : Fin 1 → Nat :=
  let arg0 : BitVec 32 := BitVec.ofNat 32 (i 0).val
  let c8_i32 : BitVec 32 := 8#32
  let v0 : BitVec 32 := Scalar.muli arg0 c8_i32
  let c1_i32 : BitVec 32 := 1#32
  let v10 : BitVec 32 := Scalar.addi v0 c1_i32
  let v11 : Index := Scalar.indexCast v10
  ![v11.toNat]
def k17_off4 (v12 : BitVec 32) : Fin 2 → Nat :=
  let c0_i32_7 : BitVec 32 := 0#32
  ![v12.toNat, 0]

def k17_off5 (i : grid17.Coords) : Fin 1 → Nat :=
  let arg0 : BitVec 32 := BitVec.ofNat 32 (i 0).val
  let c8_i32 : BitVec 32 := 8#32
  let v0 : BitVec 32 := Scalar.muli arg0 c8_i32
  let c2_i32 : BitVec 32 := 2#32
  let v19 : BitVec 32 := Scalar.addi v0 c2_i32
  let v20 : Index := Scalar.indexCast v19
  ![v20.toNat]
def k17_off6 (v21 : BitVec 32) : Fin 2 → Nat :=
  let c0_i32_11 : BitVec 32 := 0#32
  ![v21.toNat, 0]

def k17_off7 (i : grid17.Coords) : Fin 1 → Nat :=
  let arg0 : BitVec 32 := BitVec.ofNat 32 (i 0).val
  let c8_i32 : BitVec 32 := 8#32
  let v0 : BitVec 32 := Scalar.muli arg0 c8_i32
  let c3_i32 : BitVec 32 := 3#32
  let v28 : BitVec 32 := Scalar.addi v0 c3_i32
  let v29 : Index := Scalar.indexCast v28
  ![v29.toNat]
def k17_off8 (v30 : BitVec 32) : Fin 2 → Nat :=
  let c0_i32_15 : BitVec 32 := 0#32
  ![v30.toNat, 0]

def k17_off9 (i : grid17.Coords) : Fin 1 → Nat :=
  let arg0 : BitVec 32 := BitVec.ofNat 32 (i 0).val
  let c8_i32 : BitVec 32 := 8#32
  let v0 : BitVec 32 := Scalar.muli arg0 c8_i32
  let c4_i32 : BitVec 32 := 4#32
  let v37 : BitVec 32 := Scalar.addi v0 c4_i32
  let v38 : Index := Scalar.indexCast v37
  ![v38.toNat]
def k17_off10 (v39 : BitVec 32) : Fin 2 → Nat :=
  let c0_i32_19 : BitVec 32 := 0#32
  ![v39.toNat, 0]

def k17_off11 (i : grid17.Coords) : Fin 1 → Nat :=
  let arg0 : BitVec 32 := BitVec.ofNat 32 (i 0).val
  let c8_i32 : BitVec 32 := 8#32
  let v0 : BitVec 32 := Scalar.muli arg0 c8_i32
  let c5_i32 : BitVec 32 := 5#32
  let v46 : BitVec 32 := Scalar.addi v0 c5_i32
  let v47 : Index := Scalar.indexCast v46
  ![v47.toNat]
def k17_off12 (v48 : BitVec 32) : Fin 2 → Nat :=
  let c0_i32_23 : BitVec 32 := 0#32
  ![v48.toNat, 0]

def k17_off13 (i : grid17.Coords) : Fin 1 → Nat :=
  let arg0 : BitVec 32 := BitVec.ofNat 32 (i 0).val
  let c8_i32 : BitVec 32 := 8#32
  let v0 : BitVec 32 := Scalar.muli arg0 c8_i32
  let c6_i32 : BitVec 32 := 6#32
  let v55 : BitVec 32 := Scalar.addi v0 c6_i32
  let v56 : Index := Scalar.indexCast v55
  ![v56.toNat]
def k17_off14 (v57 : BitVec 32) : Fin 2 → Nat :=
  let c0_i32_27 : BitVec 32 := 0#32
  ![v57.toNat, 0]

def k17_off15 (i : grid17.Coords) : Fin 1 → Nat :=
  let arg0 : BitVec 32 := BitVec.ofNat 32 (i 0).val
  let c8_i32 : BitVec 32 := 8#32
  let v0 : BitVec 32 := Scalar.muli arg0 c8_i32
  let c7_i32 : BitVec 32 := 7#32
  let v64 : BitVec 32 := Scalar.addi v0 c7_i32
  let v65 : Index := Scalar.indexCast v64
  ![v65.toNat]
def k17_off16 (v66 : BitVec 32) : Fin 2 → Nat :=
  let c0_i32_31 : BitVec 32 := 0#32
  ![v66.toNat, 0]

def k17_chk8 (v66 : BitVec 32) : Prop :=
  (∀ a, (k17_off16 v66) a + S1x128.size a ≤ S50000x128.size a)
instance k17_chk8.dec : ∀ (v66 : BitVec 32), Decidable (k17_chk8 v66) := fun v66 => decidable_of_iff' _ (Iff.of_eq (k17_chk8.eq_1 v66))
theorem k17_off16_inb : ∀ (v66 : BitVec 32) (k17_hw8 : k17_chk8 v66), ∀ a, (k17_off16 v66) a + S1x128.size a ≤ S50000x128.size a := fun v66 k17_hw8 => k17_hw8

def k17_off17 (v3 : BitVec 32) : Fin 2 → Nat :=
  let c0_i32_35 : BitVec 32 := 0#32
  ![v3.toNat, 0]

def k17_chk1 (v3 : BitVec 32) : Prop :=
  (∀ a, (k17_off2 v3) a + S1x128.size a ≤ S50000x128.size a) ∧
  (∀ a, (k17_off17 v3) a + S1x128.size a ≤ S50000x128.size a)
instance k17_chk1.dec : ∀ (v3 : BitVec 32), Decidable (k17_chk1 v3) := fun v3 => decidable_of_iff' _ (Iff.of_eq (k17_chk1.eq_1 v3))
theorem k17_off2_inb : ∀ (v3 : BitVec 32) (k17_hw1 : k17_chk1 v3), ∀ a, (k17_off2 v3) a + S1x128.size a ≤ S50000x128.size a := fun v3 k17_hw1 => k17_hw1.1
theorem k17_off17_inb : ∀ (v3 : BitVec 32) (k17_hw1 : k17_chk1 v3), ∀ a, (k17_off17 v3) a + S1x128.size a ≤ S50000x128.size a := fun v3 k17_hw1 => k17_hw1.2

def k17_off18 (v12 : BitVec 32) : Fin 2 → Nat :=
  let c0_i32_39 : BitVec 32 := 0#32
  ![v12.toNat, 0]

def k17_chk2 (v12 : BitVec 32) : Prop :=
  (∀ a, (k17_off4 v12) a + S1x128.size a ≤ S50000x128.size a) ∧
  (∀ a, (k17_off18 v12) a + S1x128.size a ≤ S50000x128.size a)
instance k17_chk2.dec : ∀ (v12 : BitVec 32), Decidable (k17_chk2 v12) := fun v12 => decidable_of_iff' _ (Iff.of_eq (k17_chk2.eq_1 v12))
theorem k17_off4_inb : ∀ (v12 : BitVec 32) (k17_hw2 : k17_chk2 v12), ∀ a, (k17_off4 v12) a + S1x128.size a ≤ S50000x128.size a := fun v12 k17_hw2 => k17_hw2.1
theorem k17_off18_inb : ∀ (v12 : BitVec 32) (k17_hw2 : k17_chk2 v12), ∀ a, (k17_off18 v12) a + S1x128.size a ≤ S50000x128.size a := fun v12 k17_hw2 => k17_hw2.2

def k17_off19 (v21 : BitVec 32) : Fin 2 → Nat :=
  let c0_i32_43 : BitVec 32 := 0#32
  ![v21.toNat, 0]

def k17_chk3 (v21 : BitVec 32) : Prop :=
  (∀ a, (k17_off6 v21) a + S1x128.size a ≤ S50000x128.size a) ∧
  (∀ a, (k17_off19 v21) a + S1x128.size a ≤ S50000x128.size a)
instance k17_chk3.dec : ∀ (v21 : BitVec 32), Decidable (k17_chk3 v21) := fun v21 => decidable_of_iff' _ (Iff.of_eq (k17_chk3.eq_1 v21))
theorem k17_off6_inb : ∀ (v21 : BitVec 32) (k17_hw3 : k17_chk3 v21), ∀ a, (k17_off6 v21) a + S1x128.size a ≤ S50000x128.size a := fun v21 k17_hw3 => k17_hw3.1
theorem k17_off19_inb : ∀ (v21 : BitVec 32) (k17_hw3 : k17_chk3 v21), ∀ a, (k17_off19 v21) a + S1x128.size a ≤ S50000x128.size a := fun v21 k17_hw3 => k17_hw3.2

def k17_off20 (v30 : BitVec 32) : Fin 2 → Nat :=
  let c0_i32_47 : BitVec 32 := 0#32
  ![v30.toNat, 0]

def k17_chk4 (v30 : BitVec 32) : Prop :=
  (∀ a, (k17_off8 v30) a + S1x128.size a ≤ S50000x128.size a) ∧
  (∀ a, (k17_off20 v30) a + S1x128.size a ≤ S50000x128.size a)
instance k17_chk4.dec : ∀ (v30 : BitVec 32), Decidable (k17_chk4 v30) := fun v30 => decidable_of_iff' _ (Iff.of_eq (k17_chk4.eq_1 v30))
theorem k17_off8_inb : ∀ (v30 : BitVec 32) (k17_hw4 : k17_chk4 v30), ∀ a, (k17_off8 v30) a + S1x128.size a ≤ S50000x128.size a := fun v30 k17_hw4 => k17_hw4.1
theorem k17_off20_inb : ∀ (v30 : BitVec 32) (k17_hw4 : k17_chk4 v30), ∀ a, (k17_off20 v30) a + S1x128.size a ≤ S50000x128.size a := fun v30 k17_hw4 => k17_hw4.2

def k17_off21 (v39 : BitVec 32) : Fin 2 → Nat :=
  let c0_i32_51 : BitVec 32 := 0#32
  ![v39.toNat, 0]

def k17_chk5 (v39 : BitVec 32) : Prop :=
  (∀ a, (k17_off10 v39) a + S1x128.size a ≤ S50000x128.size a) ∧
  (∀ a, (k17_off21 v39) a + S1x128.size a ≤ S50000x128.size a)
instance k17_chk5.dec : ∀ (v39 : BitVec 32), Decidable (k17_chk5 v39) := fun v39 => decidable_of_iff' _ (Iff.of_eq (k17_chk5.eq_1 v39))
theorem k17_off10_inb : ∀ (v39 : BitVec 32) (k17_hw5 : k17_chk5 v39), ∀ a, (k17_off10 v39) a + S1x128.size a ≤ S50000x128.size a := fun v39 k17_hw5 => k17_hw5.1
theorem k17_off21_inb : ∀ (v39 : BitVec 32) (k17_hw5 : k17_chk5 v39), ∀ a, (k17_off21 v39) a + S1x128.size a ≤ S50000x128.size a := fun v39 k17_hw5 => k17_hw5.2

def k17_off22 (v48 : BitVec 32) : Fin 2 → Nat :=
  let c0_i32_55 : BitVec 32 := 0#32
  ![v48.toNat, 0]

def k17_chk6 (v48 : BitVec 32) : Prop :=
  (∀ a, (k17_off12 v48) a + S1x128.size a ≤ S50000x128.size a) ∧
  (∀ a, (k17_off22 v48) a + S1x128.size a ≤ S50000x128.size a)
instance k17_chk6.dec : ∀ (v48 : BitVec 32), Decidable (k17_chk6 v48) := fun v48 => decidable_of_iff' _ (Iff.of_eq (k17_chk6.eq_1 v48))
theorem k17_off12_inb : ∀ (v48 : BitVec 32) (k17_hw6 : k17_chk6 v48), ∀ a, (k17_off12 v48) a + S1x128.size a ≤ S50000x128.size a := fun v48 k17_hw6 => k17_hw6.1
theorem k17_off22_inb : ∀ (v48 : BitVec 32) (k17_hw6 : k17_chk6 v48), ∀ a, (k17_off22 v48) a + S1x128.size a ≤ S50000x128.size a := fun v48 k17_hw6 => k17_hw6.2

def k17_off23 (v57 : BitVec 32) : Fin 2 → Nat :=
  let c0_i32_59 : BitVec 32 := 0#32
  ![v57.toNat, 0]

def k17_chk7 (v57 : BitVec 32) : Prop :=
  (∀ a, (k17_off14 v57) a + S1x128.size a ≤ S50000x128.size a) ∧
  (∀ a, (k17_off23 v57) a + S1x128.size a ≤ S50000x128.size a)
instance k17_chk7.dec : ∀ (v57 : BitVec 32), Decidable (k17_chk7 v57) := fun v57 => decidable_of_iff' _ (Iff.of_eq (k17_chk7.eq_1 v57))
theorem k17_off14_inb : ∀ (v57 : BitVec 32) (k17_hw7 : k17_chk7 v57), ∀ a, (k17_off14 v57) a + S1x128.size a ≤ S50000x128.size a := fun v57 k17_hw7 => k17_hw7.1
theorem k17_off23_inb : ∀ (v57 : BitVec 32) (k17_hw7 : k17_chk7 v57), ∀ a, (k17_off23 v57) a + S1x128.size a ≤ S50000x128.size a := fun v57 k17_hw7 => k17_hw7.2

def cc17_transform_1 (i : grid17.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage17_0 : Fin 2 → Memref sig .tc .vmem S8x128 .f32 := fun | 0 => Memref.whole cc17_stg0_0 | 1 => Memref.whole cc17_stg0_1 | ⟨_ + 2, h⟩ => absurd h (Nat.not_lt.2 (Nat.le_add_left _ _))
abbrev sem17_0 : Fin 2 → DmaSem sig := fun | 0 => cc17_sem0_0 | 1 => cc17_sem0_1 | ⟨_ + 2, h⟩ => absurd h (Nat.not_lt.2 (Nat.le_add_left _ _))
abbrev reads17_0 : Fin grid17.rank → Bool := ![true]

abbrev grid18 : Pipeline.Grid := ⟨1, ![10625], ![false]⟩

abbrev pre18 : Pipeline.Prefetch sig := ⟨1, ![main_v74.idx], fun | 0 => main_v74.names | ⟨_ + 1, h⟩ => absurd h (Nat.not_lt.2 (Nat.le_add_left _ _)), fun | 0 => rfl | ⟨_ + 1, h⟩ => absurd h (Nat.not_lt.2 (Nat.le_add_left _ _))⟩

def k18_off1 (i : grid18.Coords) : Fin 1 → Nat :=
  let arg0 : BitVec 32 := BitVec.ofNat 32 (i 0).val
  let c8_i32 : BitVec 32 := 8#32
  let v0 : BitVec 32 := Scalar.muli arg0 c8_i32
  let c0_i32 : BitVec 32 := 0#32
  let v1 : BitVec 32 := Scalar.addi v0 c0_i32
  let v2 : Index := Scalar.indexCast v1
  ![v2.toNat]
def k18_off2 (v3 : BitVec 32) : Fin 2 → Nat :=
  let c0_i32_3 : BitVec 32 := 0#32
  ![v3.toNat, 0]

def k18_off3 (i : grid18.Coords) : Fin 1 → Nat :=
  let arg0 : BitVec 32 := BitVec.ofNat 32 (i 0).val
  let c8_i32 : BitVec 32 := 8#32
  let v0 : BitVec 32 := Scalar.muli arg0 c8_i32
  let c1_i32 : BitVec 32 := 1#32
  let v10 : BitVec 32 := Scalar.addi v0 c1_i32
  let v11 : Index := Scalar.indexCast v10
  ![v11.toNat]
def k18_off4 (v12 : BitVec 32) : Fin 2 → Nat :=
  let c0_i32_7 : BitVec 32 := 0#32
  ![v12.toNat, 0]

def k18_off5 (i : grid18.Coords) : Fin 1 → Nat :=
  let arg0 : BitVec 32 := BitVec.ofNat 32 (i 0).val
  let c8_i32 : BitVec 32 := 8#32
  let v0 : BitVec 32 := Scalar.muli arg0 c8_i32
  let c2_i32 : BitVec 32 := 2#32
  let v19 : BitVec 32 := Scalar.addi v0 c2_i32
  let v20 : Index := Scalar.indexCast v19
  ![v20.toNat]
def k18_off6 (v21 : BitVec 32) : Fin 2 → Nat :=
  let c0_i32_11 : BitVec 32 := 0#32
  ![v21.toNat, 0]

def k18_off7 (i : grid18.Coords) : Fin 1 → Nat :=
  let arg0 : BitVec 32 := BitVec.ofNat 32 (i 0).val
  let c8_i32 : BitVec 32 := 8#32
  let v0 : BitVec 32 := Scalar.muli arg0 c8_i32
  let c3_i32 : BitVec 32 := 3#32
  let v28 : BitVec 32 := Scalar.addi v0 c3_i32
  let v29 : Index := Scalar.indexCast v28
  ![v29.toNat]
def k18_off8 (v30 : BitVec 32) : Fin 2 → Nat :=
  let c0_i32_15 : BitVec 32 := 0#32
  ![v30.toNat, 0]

def k18_off9 (i : grid18.Coords) : Fin 1 → Nat :=
  let arg0 : BitVec 32 := BitVec.ofNat 32 (i 0).val
  let c8_i32 : BitVec 32 := 8#32
  let v0 : BitVec 32 := Scalar.muli arg0 c8_i32
  let c4_i32 : BitVec 32 := 4#32
  let v37 : BitVec 32 := Scalar.addi v0 c4_i32
  let v38 : Index := Scalar.indexCast v37
  ![v38.toNat]
def k18_off10 (v39 : BitVec 32) : Fin 2 → Nat :=
  let c0_i32_19 : BitVec 32 := 0#32
  ![v39.toNat, 0]

def k18_off11 (i : grid18.Coords) : Fin 1 → Nat :=
  let arg0 : BitVec 32 := BitVec.ofNat 32 (i 0).val
  let c8_i32 : BitVec 32 := 8#32
  let v0 : BitVec 32 := Scalar.muli arg0 c8_i32
  let c5_i32 : BitVec 32 := 5#32
  let v46 : BitVec 32 := Scalar.addi v0 c5_i32
  let v47 : Index := Scalar.indexCast v46
  ![v47.toNat]
def k18_off12 (v48 : BitVec 32) : Fin 2 → Nat :=
  let c0_i32_23 : BitVec 32 := 0#32
  ![v48.toNat, 0]

def k18_off13 (i : grid18.Coords) : Fin 1 → Nat :=
  let arg0 : BitVec 32 := BitVec.ofNat 32 (i 0).val
  let c8_i32 : BitVec 32 := 8#32
  let v0 : BitVec 32 := Scalar.muli arg0 c8_i32
  let c6_i32 : BitVec 32 := 6#32
  let v55 : BitVec 32 := Scalar.addi v0 c6_i32
  let v56 : Index := Scalar.indexCast v55
  ![v56.toNat]
def k18_off14 (v57 : BitVec 32) : Fin 2 → Nat :=
  let c0_i32_27 : BitVec 32 := 0#32
  ![v57.toNat, 0]

def k18_off15 (i : grid18.Coords) : Fin 1 → Nat :=
  let arg0 : BitVec 32 := BitVec.ofNat 32 (i 0).val
  let c8_i32 : BitVec 32 := 8#32
  let v0 : BitVec 32 := Scalar.muli arg0 c8_i32
  let c7_i32 : BitVec 32 := 7#32
  let v64 : BitVec 32 := Scalar.addi v0 c7_i32
  let v65 : Index := Scalar.indexCast v64
  ![v65.toNat]
def k18_off16 (v66 : BitVec 32) : Fin 2 → Nat :=
  let c0_i32_31 : BitVec 32 := 0#32
  ![v66.toNat, 0]

def k18_chk8 (v66 : BitVec 32) : Prop :=
  (∀ a, (k18_off16 v66) a + S1x128.size a ≤ S50000x128.size a)
instance k18_chk8.dec : ∀ (v66 : BitVec 32), Decidable (k18_chk8 v66) := fun v66 => decidable_of_iff' _ (Iff.of_eq (k18_chk8.eq_1 v66))
theorem k18_off16_inb : ∀ (v66 : BitVec 32) (k18_hw8 : k18_chk8 v66), ∀ a, (k18_off16 v66) a + S1x128.size a ≤ S50000x128.size a := fun v66 k18_hw8 => k18_hw8

def k18_off17 (v3 : BitVec 32) : Fin 2 → Nat :=
  let c0_i32_35 : BitVec 32 := 0#32
  ![v3.toNat, 0]

def k18_chk1 (v3 : BitVec 32) : Prop :=
  (∀ a, (k18_off2 v3) a + S1x128.size a ≤ S50000x128.size a) ∧
  (∀ a, (k18_off17 v3) a + S1x128.size a ≤ S50000x128.size a)
instance k18_chk1.dec : ∀ (v3 : BitVec 32), Decidable (k18_chk1 v3) := fun v3 => decidable_of_iff' _ (Iff.of_eq (k18_chk1.eq_1 v3))
theorem k18_off2_inb : ∀ (v3 : BitVec 32) (k18_hw1 : k18_chk1 v3), ∀ a, (k18_off2 v3) a + S1x128.size a ≤ S50000x128.size a := fun v3 k18_hw1 => k18_hw1.1
theorem k18_off17_inb : ∀ (v3 : BitVec 32) (k18_hw1 : k18_chk1 v3), ∀ a, (k18_off17 v3) a + S1x128.size a ≤ S50000x128.size a := fun v3 k18_hw1 => k18_hw1.2

def k18_off18 (v12 : BitVec 32) : Fin 2 → Nat :=
  let c0_i32_39 : BitVec 32 := 0#32
  ![v12.toNat, 0]

def k18_chk2 (v12 : BitVec 32) : Prop :=
  (∀ a, (k18_off4 v12) a + S1x128.size a ≤ S50000x128.size a) ∧
  (∀ a, (k18_off18 v12) a + S1x128.size a ≤ S50000x128.size a)
instance k18_chk2.dec : ∀ (v12 : BitVec 32), Decidable (k18_chk2 v12) := fun v12 => decidable_of_iff' _ (Iff.of_eq (k18_chk2.eq_1 v12))
theorem k18_off4_inb : ∀ (v12 : BitVec 32) (k18_hw2 : k18_chk2 v12), ∀ a, (k18_off4 v12) a + S1x128.size a ≤ S50000x128.size a := fun v12 k18_hw2 => k18_hw2.1
theorem k18_off18_inb : ∀ (v12 : BitVec 32) (k18_hw2 : k18_chk2 v12), ∀ a, (k18_off18 v12) a + S1x128.size a ≤ S50000x128.size a := fun v12 k18_hw2 => k18_hw2.2

def k18_off19 (v21 : BitVec 32) : Fin 2 → Nat :=
  let c0_i32_43 : BitVec 32 := 0#32
  ![v21.toNat, 0]

def k18_chk3 (v21 : BitVec 32) : Prop :=
  (∀ a, (k18_off6 v21) a + S1x128.size a ≤ S50000x128.size a) ∧
  (∀ a, (k18_off19 v21) a + S1x128.size a ≤ S50000x128.size a)
instance k18_chk3.dec : ∀ (v21 : BitVec 32), Decidable (k18_chk3 v21) := fun v21 => decidable_of_iff' _ (Iff.of_eq (k18_chk3.eq_1 v21))
theorem k18_off6_inb : ∀ (v21 : BitVec 32) (k18_hw3 : k18_chk3 v21), ∀ a, (k18_off6 v21) a + S1x128.size a ≤ S50000x128.size a := fun v21 k18_hw3 => k18_hw3.1
theorem k18_off19_inb : ∀ (v21 : BitVec 32) (k18_hw3 : k18_chk3 v21), ∀ a, (k18_off19 v21) a + S1x128.size a ≤ S50000x128.size a := fun v21 k18_hw3 => k18_hw3.2

def k18_off20 (v30 : BitVec 32) : Fin 2 → Nat :=
  let c0_i32_47 : BitVec 32 := 0#32
  ![v30.toNat, 0]

def k18_chk4 (v30 : BitVec 32) : Prop :=
  (∀ a, (k18_off8 v30) a + S1x128.size a ≤ S50000x128.size a) ∧
  (∀ a, (k18_off20 v30) a + S1x128.size a ≤ S50000x128.size a)
instance k18_chk4.dec : ∀ (v30 : BitVec 32), Decidable (k18_chk4 v30) := fun v30 => decidable_of_iff' _ (Iff.of_eq (k18_chk4.eq_1 v30))
theorem k18_off8_inb : ∀ (v30 : BitVec 32) (k18_hw4 : k18_chk4 v30), ∀ a, (k18_off8 v30) a + S1x128.size a ≤ S50000x128.size a := fun v30 k18_hw4 => k18_hw4.1
theorem k18_off20_inb : ∀ (v30 : BitVec 32) (k18_hw4 : k18_chk4 v30), ∀ a, (k18_off20 v30) a + S1x128.size a ≤ S50000x128.size a := fun v30 k18_hw4 => k18_hw4.2

def k18_off21 (v39 : BitVec 32) : Fin 2 → Nat :=
  let c0_i32_51 : BitVec 32 := 0#32
  ![v39.toNat, 0]

def k18_chk5 (v39 : BitVec 32) : Prop :=
  (∀ a, (k18_off10 v39) a + S1x128.size a ≤ S50000x128.size a) ∧
  (∀ a, (k18_off21 v39) a + S1x128.size a ≤ S50000x128.size a)
instance k18_chk5.dec : ∀ (v39 : BitVec 32), Decidable (k18_chk5 v39) := fun v39 => decidable_of_iff' _ (Iff.of_eq (k18_chk5.eq_1 v39))
theorem k18_off10_inb : ∀ (v39 : BitVec 32) (k18_hw5 : k18_chk5 v39), ∀ a, (k18_off10 v39) a + S1x128.size a ≤ S50000x128.size a := fun v39 k18_hw5 => k18_hw5.1
theorem k18_off21_inb : ∀ (v39 : BitVec 32) (k18_hw5 : k18_chk5 v39), ∀ a, (k18_off21 v39) a + S1x128.size a ≤ S50000x128.size a := fun v39 k18_hw5 => k18_hw5.2

def k18_off22 (v48 : BitVec 32) : Fin 2 → Nat :=
  let c0_i32_55 : BitVec 32 := 0#32
  ![v48.toNat, 0]

def k18_chk6 (v48 : BitVec 32) : Prop :=
  (∀ a, (k18_off12 v48) a + S1x128.size a ≤ S50000x128.size a) ∧
  (∀ a, (k18_off22 v48) a + S1x128.size a ≤ S50000x128.size a)
instance k18_chk6.dec : ∀ (v48 : BitVec 32), Decidable (k18_chk6 v48) := fun v48 => decidable_of_iff' _ (Iff.of_eq (k18_chk6.eq_1 v48))
theorem k18_off12_inb : ∀ (v48 : BitVec 32) (k18_hw6 : k18_chk6 v48), ∀ a, (k18_off12 v48) a + S1x128.size a ≤ S50000x128.size a := fun v48 k18_hw6 => k18_hw6.1
theorem k18_off22_inb : ∀ (v48 : BitVec 32) (k18_hw6 : k18_chk6 v48), ∀ a, (k18_off22 v48) a + S1x128.size a ≤ S50000x128.size a := fun v48 k18_hw6 => k18_hw6.2

def k18_off23 (v57 : BitVec 32) : Fin 2 → Nat :=
  let c0_i32_59 : BitVec 32 := 0#32
  ![v57.toNat, 0]

def k18_chk7 (v57 : BitVec 32) : Prop :=
  (∀ a, (k18_off14 v57) a + S1x128.size a ≤ S50000x128.size a) ∧
  (∀ a, (k18_off23 v57) a + S1x128.size a ≤ S50000x128.size a)
instance k18_chk7.dec : ∀ (v57 : BitVec 32), Decidable (k18_chk7 v57) := fun v57 => decidable_of_iff' _ (Iff.of_eq (k18_chk7.eq_1 v57))
theorem k18_off14_inb : ∀ (v57 : BitVec 32) (k18_hw7 : k18_chk7 v57), ∀ a, (k18_off14 v57) a + S1x128.size a ≤ S50000x128.size a := fun v57 k18_hw7 => k18_hw7.1
theorem k18_off23_inb : ∀ (v57 : BitVec 32) (k18_hw7 : k18_chk7 v57), ∀ a, (k18_off23 v57) a + S1x128.size a ≤ S50000x128.size a := fun v57 k18_hw7 => k18_hw7.2

def cc18_transform_1 (i : grid18.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage18_0 : Fin 2 → Memref sig .tc .vmem S8x128 .f32 := fun | 0 => Memref.whole cc18_stg0_0 | 1 => Memref.whole cc18_stg0_1 | ⟨_ + 2, h⟩ => absurd h (Nat.not_lt.2 (Nat.le_add_left _ _))
abbrev sem18_0 : Fin 2 → DmaSem sig := fun | 0 => cc18_sem0_0 | 1 => cc18_sem0_1 | ⟨_ + 2, h⟩ => absurd h (Nat.not_lt.2 (Nat.le_add_left _ _))
abbrev reads18_0 : Fin grid18.rank → Bool := ![true]

abbrev grid19 : Pipeline.Grid := ⟨1, ![10625], ![false]⟩

abbrev pre19 : Pipeline.Prefetch sig := ⟨1, ![main_v76.idx], fun | 0 => main_v76.names | ⟨_ + 1, h⟩ => absurd h (Nat.not_lt.2 (Nat.le_add_left _ _)), fun | 0 => rfl | ⟨_ + 1, h⟩ => absurd h (Nat.not_lt.2 (Nat.le_add_left _ _))⟩

def k19_off1 (i : grid19.Coords) : Fin 1 → Nat :=
  let arg0 : BitVec 32 := BitVec.ofNat 32 (i 0).val
  let c8_i32 : BitVec 32 := 8#32
  let v0 : BitVec 32 := Scalar.muli arg0 c8_i32
  let c0_i32 : BitVec 32 := 0#32
  let v1 : BitVec 32 := Scalar.addi v0 c0_i32
  let v2 : Index := Scalar.indexCast v1
  ![v2.toNat]
def k19_off2 (v3 : BitVec 32) : Fin 2 → Nat :=
  let c0_i32_3 : BitVec 32 := 0#32
  ![v3.toNat, 0]

def k19_off3 (i : grid19.Coords) : Fin 1 → Nat :=
  let arg0 : BitVec 32 := BitVec.ofNat 32 (i 0).val
  let c8_i32 : BitVec 32 := 8#32
  let v0 : BitVec 32 := Scalar.muli arg0 c8_i32
  let c1_i32 : BitVec 32 := 1#32
  let v10 : BitVec 32 := Scalar.addi v0 c1_i32
  let v11 : Index := Scalar.indexCast v10
  ![v11.toNat]
def k19_off4 (v12 : BitVec 32) : Fin 2 → Nat :=
  let c0_i32_7 : BitVec 32 := 0#32
  ![v12.toNat, 0]

def k19_off5 (i : grid19.Coords) : Fin 1 → Nat :=
  let arg0 : BitVec 32 := BitVec.ofNat 32 (i 0).val
  let c8_i32 : BitVec 32 := 8#32
  let v0 : BitVec 32 := Scalar.muli arg0 c8_i32
  let c2_i32 : BitVec 32 := 2#32
  let v19 : BitVec 32 := Scalar.addi v0 c2_i32
  let v20 : Index := Scalar.indexCast v19
  ![v20.toNat]
def k19_off6 (v21 : BitVec 32) : Fin 2 → Nat :=
  let c0_i32_11 : BitVec 32 := 0#32
  ![v21.toNat, 0]

def k19_off7 (i : grid19.Coords) : Fin 1 → Nat :=
  let arg0 : BitVec 32 := BitVec.ofNat 32 (i 0).val
  let c8_i32 : BitVec 32 := 8#32
  let v0 : BitVec 32 := Scalar.muli arg0 c8_i32
  let c3_i32 : BitVec 32 := 3#32
  let v28 : BitVec 32 := Scalar.addi v0 c3_i32
  let v29 : Index := Scalar.indexCast v28
  ![v29.toNat]
def k19_off8 (v30 : BitVec 32) : Fin 2 → Nat :=
  let c0_i32_15 : BitVec 32 := 0#32
  ![v30.toNat, 0]

def k19_off9 (i : grid19.Coords) : Fin 1 → Nat :=
  let arg0 : BitVec 32 := BitVec.ofNat 32 (i 0).val
  let c8_i32 : BitVec 32 := 8#32
  let v0 : BitVec 32 := Scalar.muli arg0 c8_i32
  let c4_i32 : BitVec 32 := 4#32
  let v37 : BitVec 32 := Scalar.addi v0 c4_i32
  let v38 : Index := Scalar.indexCast v37
  ![v38.toNat]
def k19_off10 (v39 : BitVec 32) : Fin 2 → Nat :=
  let c0_i32_19 : BitVec 32 := 0#32
  ![v39.toNat, 0]

def k19_off11 (i : grid19.Coords) : Fin 1 → Nat :=
  let arg0 : BitVec 32 := BitVec.ofNat 32 (i 0).val
  let c8_i32 : BitVec 32 := 8#32
  let v0 : BitVec 32 := Scalar.muli arg0 c8_i32
  let c5_i32 : BitVec 32 := 5#32
  let v46 : BitVec 32 := Scalar.addi v0 c5_i32
  let v47 : Index := Scalar.indexCast v46
  ![v47.toNat]
def k19_off12 (v48 : BitVec 32) : Fin 2 → Nat :=
  let c0_i32_23 : BitVec 32 := 0#32
  ![v48.toNat, 0]

def k19_off13 (i : grid19.Coords) : Fin 1 → Nat :=
  let arg0 : BitVec 32 := BitVec.ofNat 32 (i 0).val
  let c8_i32 : BitVec 32 := 8#32
  let v0 : BitVec 32 := Scalar.muli arg0 c8_i32
  let c6_i32 : BitVec 32 := 6#32
  let v55 : BitVec 32 := Scalar.addi v0 c6_i32
  let v56 : Index := Scalar.indexCast v55
  ![v56.toNat]
def k19_off14 (v57 : BitVec 32) : Fin 2 → Nat :=
  let c0_i32_27 : BitVec 32 := 0#32
  ![v57.toNat, 0]

def k19_off15 (i : grid19.Coords) : Fin 1 → Nat :=
  let arg0 : BitVec 32 := BitVec.ofNat 32 (i 0).val
  let c8_i32 : BitVec 32 := 8#32
  let v0 : BitVec 32 := Scalar.muli arg0 c8_i32
  let c7_i32 : BitVec 32 := 7#32
  let v64 : BitVec 32 := Scalar.addi v0 c7_i32
  let v65 : Index := Scalar.indexCast v64
  ![v65.toNat]
def k19_off16 (v66 : BitVec 32) : Fin 2 → Nat :=
  let c0_i32_31 : BitVec 32 := 0#32
  ![v66.toNat, 0]

def k19_chk8 (v66 : BitVec 32) : Prop :=
  (∀ a, (k19_off16 v66) a + S1x128.size a ≤ S50000x128.size a)
instance k19_chk8.dec : ∀ (v66 : BitVec 32), Decidable (k19_chk8 v66) := fun v66 => decidable_of_iff' _ (Iff.of_eq (k19_chk8.eq_1 v66))
theorem k19_off16_inb : ∀ (v66 : BitVec 32) (k19_hw8 : k19_chk8 v66), ∀ a, (k19_off16 v66) a + S1x128.size a ≤ S50000x128.size a := fun v66 k19_hw8 => k19_hw8

def k19_off17 (v3 : BitVec 32) : Fin 2 → Nat :=
  let c0_i32_35 : BitVec 32 := 0#32
  ![v3.toNat, 0]

def k19_chk1 (v3 : BitVec 32) : Prop :=
  (∀ a, (k19_off2 v3) a + S1x128.size a ≤ S50000x128.size a) ∧
  (∀ a, (k19_off17 v3) a + S1x128.size a ≤ S50000x128.size a)
instance k19_chk1.dec : ∀ (v3 : BitVec 32), Decidable (k19_chk1 v3) := fun v3 => decidable_of_iff' _ (Iff.of_eq (k19_chk1.eq_1 v3))
theorem k19_off2_inb : ∀ (v3 : BitVec 32) (k19_hw1 : k19_chk1 v3), ∀ a, (k19_off2 v3) a + S1x128.size a ≤ S50000x128.size a := fun v3 k19_hw1 => k19_hw1.1
theorem k19_off17_inb : ∀ (v3 : BitVec 32) (k19_hw1 : k19_chk1 v3), ∀ a, (k19_off17 v3) a + S1x128.size a ≤ S50000x128.size a := fun v3 k19_hw1 => k19_hw1.2

def k19_off18 (v12 : BitVec 32) : Fin 2 → Nat :=
  let c0_i32_39 : BitVec 32 := 0#32
  ![v12.toNat, 0]

def k19_chk2 (v12 : BitVec 32) : Prop :=
  (∀ a, (k19_off4 v12) a + S1x128.size a ≤ S50000x128.size a) ∧
  (∀ a, (k19_off18 v12) a + S1x128.size a ≤ S50000x128.size a)
instance k19_chk2.dec : ∀ (v12 : BitVec 32), Decidable (k19_chk2 v12) := fun v12 => decidable_of_iff' _ (Iff.of_eq (k19_chk2.eq_1 v12))
theorem k19_off4_inb : ∀ (v12 : BitVec 32) (k19_hw2 : k19_chk2 v12), ∀ a, (k19_off4 v12) a + S1x128.size a ≤ S50000x128.size a := fun v12 k19_hw2 => k19_hw2.1
theorem k19_off18_inb : ∀ (v12 : BitVec 32) (k19_hw2 : k19_chk2 v12), ∀ a, (k19_off18 v12) a + S1x128.size a ≤ S50000x128.size a := fun v12 k19_hw2 => k19_hw2.2

def k19_off19 (v21 : BitVec 32) : Fin 2 → Nat :=
  let c0_i32_43 : BitVec 32 := 0#32
  ![v21.toNat, 0]

def k19_chk3 (v21 : BitVec 32) : Prop :=
  (∀ a, (k19_off6 v21) a + S1x128.size a ≤ S50000x128.size a) ∧
  (∀ a, (k19_off19 v21) a + S1x128.size a ≤ S50000x128.size a)
instance k19_chk3.dec : ∀ (v21 : BitVec 32), Decidable (k19_chk3 v21) := fun v21 => decidable_of_iff' _ (Iff.of_eq (k19_chk3.eq_1 v21))
theorem k19_off6_inb : ∀ (v21 : BitVec 32) (k19_hw3 : k19_chk3 v21), ∀ a, (k19_off6 v21) a + S1x128.size a ≤ S50000x128.size a := fun v21 k19_hw3 => k19_hw3.1
theorem k19_off19_inb : ∀ (v21 : BitVec 32) (k19_hw3 : k19_chk3 v21), ∀ a, (k19_off19 v21) a + S1x128.size a ≤ S50000x128.size a := fun v21 k19_hw3 => k19_hw3.2

def k19_off20 (v30 : BitVec 32) : Fin 2 → Nat :=
  let c0_i32_47 : BitVec 32 := 0#32
  ![v30.toNat, 0]

def k19_chk4 (v30 : BitVec 32) : Prop :=
  (∀ a, (k19_off8 v30) a + S1x128.size a ≤ S50000x128.size a) ∧
  (∀ a, (k19_off20 v30) a + S1x128.size a ≤ S50000x128.size a)
instance k19_chk4.dec : ∀ (v30 : BitVec 32), Decidable (k19_chk4 v30) := fun v30 => decidable_of_iff' _ (Iff.of_eq (k19_chk4.eq_1 v30))
theorem k19_off8_inb : ∀ (v30 : BitVec 32) (k19_hw4 : k19_chk4 v30), ∀ a, (k19_off8 v30) a + S1x128.size a ≤ S50000x128.size a := fun v30 k19_hw4 => k19_hw4.1
theorem k19_off20_inb : ∀ (v30 : BitVec 32) (k19_hw4 : k19_chk4 v30), ∀ a, (k19_off20 v30) a + S1x128.size a ≤ S50000x128.size a := fun v30 k19_hw4 => k19_hw4.2

def k19_off21 (v39 : BitVec 32) : Fin 2 → Nat :=
  let c0_i32_51 : BitVec 32 := 0#32
  ![v39.toNat, 0]

def k19_chk5 (v39 : BitVec 32) : Prop :=
  (∀ a, (k19_off10 v39) a + S1x128.size a ≤ S50000x128.size a) ∧
  (∀ a, (k19_off21 v39) a + S1x128.size a ≤ S50000x128.size a)
instance k19_chk5.dec : ∀ (v39 : BitVec 32), Decidable (k19_chk5 v39) := fun v39 => decidable_of_iff' _ (Iff.of_eq (k19_chk5.eq_1 v39))
theorem k19_off10_inb : ∀ (v39 : BitVec 32) (k19_hw5 : k19_chk5 v39), ∀ a, (k19_off10 v39) a + S1x128.size a ≤ S50000x128.size a := fun v39 k19_hw5 => k19_hw5.1
theorem k19_off21_inb : ∀ (v39 : BitVec 32) (k19_hw5 : k19_chk5 v39), ∀ a, (k19_off21 v39) a + S1x128.size a ≤ S50000x128.size a := fun v39 k19_hw5 => k19_hw5.2

def k19_off22 (v48 : BitVec 32) : Fin 2 → Nat :=
  let c0_i32_55 : BitVec 32 := 0#32
  ![v48.toNat, 0]

def k19_chk6 (v48 : BitVec 32) : Prop :=
  (∀ a, (k19_off12 v48) a + S1x128.size a ≤ S50000x128.size a) ∧
  (∀ a, (k19_off22 v48) a + S1x128.size a ≤ S50000x128.size a)
instance k19_chk6.dec : ∀ (v48 : BitVec 32), Decidable (k19_chk6 v48) := fun v48 => decidable_of_iff' _ (Iff.of_eq (k19_chk6.eq_1 v48))
theorem k19_off12_inb : ∀ (v48 : BitVec 32) (k19_hw6 : k19_chk6 v48), ∀ a, (k19_off12 v48) a + S1x128.size a ≤ S50000x128.size a := fun v48 k19_hw6 => k19_hw6.1
theorem k19_off22_inb : ∀ (v48 : BitVec 32) (k19_hw6 : k19_chk6 v48), ∀ a, (k19_off22 v48) a + S1x128.size a ≤ S50000x128.size a := fun v48 k19_hw6 => k19_hw6.2

def k19_off23 (v57 : BitVec 32) : Fin 2 → Nat :=
  let c0_i32_59 : BitVec 32 := 0#32
  ![v57.toNat, 0]

def k19_chk7 (v57 : BitVec 32) : Prop :=
  (∀ a, (k19_off14 v57) a + S1x128.size a ≤ S50000x128.size a) ∧
  (∀ a, (k19_off23 v57) a + S1x128.size a ≤ S50000x128.size a)
instance k19_chk7.dec : ∀ (v57 : BitVec 32), Decidable (k19_chk7 v57) := fun v57 => decidable_of_iff' _ (Iff.of_eq (k19_chk7.eq_1 v57))
theorem k19_off14_inb : ∀ (v57 : BitVec 32) (k19_hw7 : k19_chk7 v57), ∀ a, (k19_off14 v57) a + S1x128.size a ≤ S50000x128.size a := fun v57 k19_hw7 => k19_hw7.1
theorem k19_off23_inb : ∀ (v57 : BitVec 32) (k19_hw7 : k19_chk7 v57), ∀ a, (k19_off23 v57) a + S1x128.size a ≤ S50000x128.size a := fun v57 k19_hw7 => k19_hw7.2

def cc19_transform_1 (i : grid19.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage19_0 : Fin 2 → Memref sig .tc .vmem S8x128 .f32 := fun | 0 => Memref.whole cc19_stg0_0 | 1 => Memref.whole cc19_stg0_1 | ⟨_ + 2, h⟩ => absurd h (Nat.not_lt.2 (Nat.le_add_left _ _))
abbrev sem19_0 : Fin 2 → DmaSem sig := fun | 0 => cc19_sem0_0 | 1 => cc19_sem0_1 | ⟨_ + 2, h⟩ => absurd h (Nat.not_lt.2 (Nat.le_add_left _ _))
abbrev reads19_0 : Fin grid19.rank → Bool := ![true]

abbrev grid20 : Pipeline.Grid := ⟨1, ![10625], ![false]⟩

abbrev pre20 : Pipeline.Prefetch sig := ⟨1, ![main_v78.idx], fun | 0 => main_v78.names | ⟨_ + 1, h⟩ => absurd h (Nat.not_lt.2 (Nat.le_add_left _ _)), fun | 0 => rfl | ⟨_ + 1, h⟩ => absurd h (Nat.not_lt.2 (Nat.le_add_left _ _))⟩

def k20_off1 (i : grid20.Coords) : Fin 1 → Nat :=
  let arg0 : BitVec 32 := BitVec.ofNat 32 (i 0).val
  let c8_i32 : BitVec 32 := 8#32
  let v0 : BitVec 32 := Scalar.muli arg0 c8_i32
  let c0_i32 : BitVec 32 := 0#32
  let v1 : BitVec 32 := Scalar.addi v0 c0_i32
  let v2 : Index := Scalar.indexCast v1
  ![v2.toNat]
def k20_off2 (v3 : BitVec 32) : Fin 2 → Nat :=
  let c0_i32_3 : BitVec 32 := 0#32
  ![v3.toNat, 0]

def k20_off3 (i : grid20.Coords) : Fin 1 → Nat :=
  let arg0 : BitVec 32 := BitVec.ofNat 32 (i 0).val
  let c8_i32 : BitVec 32 := 8#32
  let v0 : BitVec 32 := Scalar.muli arg0 c8_i32
  let c1_i32 : BitVec 32 := 1#32
  let v10 : BitVec 32 := Scalar.addi v0 c1_i32
  let v11 : Index := Scalar.indexCast v10
  ![v11.toNat]
def k20_off4 (v12 : BitVec 32) : Fin 2 → Nat :=
  let c0_i32_7 : BitVec 32 := 0#32
  ![v12.toNat, 0]

def k20_off5 (i : grid20.Coords) : Fin 1 → Nat :=
  let arg0 : BitVec 32 := BitVec.ofNat 32 (i 0).val
  let c8_i32 : BitVec 32 := 8#32
  let v0 : BitVec 32 := Scalar.muli arg0 c8_i32
  let c2_i32 : BitVec 32 := 2#32
  let v19 : BitVec 32 := Scalar.addi v0 c2_i32
  let v20 : Index := Scalar.indexCast v19
  ![v20.toNat]
def k20_off6 (v21 : BitVec 32) : Fin 2 → Nat :=
  let c0_i32_11 : BitVec 32 := 0#32
  ![v21.toNat, 0]

def k20_off7 (i : grid20.Coords) : Fin 1 → Nat :=
  let arg0 : BitVec 32 := BitVec.ofNat 32 (i 0).val
  let c8_i32 : BitVec 32 := 8#32
  let v0 : BitVec 32 := Scalar.muli arg0 c8_i32
  let c3_i32 : BitVec 32 := 3#32
  let v28 : BitVec 32 := Scalar.addi v0 c3_i32
  let v29 : Index := Scalar.indexCast v28
  ![v29.toNat]
def k20_off8 (v30 : BitVec 32) : Fin 2 → Nat :=
  let c0_i32_15 : BitVec 32 := 0#32
  ![v30.toNat, 0]

def k20_off9 (i : grid20.Coords) : Fin 1 → Nat :=
  let arg0 : BitVec 32 := BitVec.ofNat 32 (i 0).val
  let c8_i32 : BitVec 32 := 8#32
  let v0 : BitVec 32 := Scalar.muli arg0 c8_i32
  let c4_i32 : BitVec 32 := 4#32
  let v37 : BitVec 32 := Scalar.addi v0 c4_i32
  let v38 : Index := Scalar.indexCast v37
  ![v38.toNat]
def k20_off10 (v39 : BitVec 32) : Fin 2 → Nat :=
  let c0_i32_19 : BitVec 32 := 0#32
  ![v39.toNat, 0]

def k20_off11 (i : grid20.Coords) : Fin 1 → Nat :=
  let arg0 : BitVec 32 := BitVec.ofNat 32 (i 0).val
  let c8_i32 : BitVec 32 := 8#32
  let v0 : BitVec 32 := Scalar.muli arg0 c8_i32
  let c5_i32 : BitVec 32 := 5#32
  let v46 : BitVec 32 := Scalar.addi v0 c5_i32
  let v47 : Index := Scalar.indexCast v46
  ![v47.toNat]
def k20_off12 (v48 : BitVec 32) : Fin 2 → Nat :=
  let c0_i32_23 : BitVec 32 := 0#32
  ![v48.toNat, 0]

def k20_off13 (i : grid20.Coords) : Fin 1 → Nat :=
  let arg0 : BitVec 32 := BitVec.ofNat 32 (i 0).val
  let c8_i32 : BitVec 32 := 8#32
  let v0 : BitVec 32 := Scalar.muli arg0 c8_i32
  let c6_i32 : BitVec 32 := 6#32
  let v55 : BitVec 32 := Scalar.addi v0 c6_i32
  let v56 : Index := Scalar.indexCast v55
  ![v56.toNat]
def k20_off14 (v57 : BitVec 32) : Fin 2 → Nat :=
  let c0_i32_27 : BitVec 32 := 0#32
  ![v57.toNat, 0]

def k20_off15 (i : grid20.Coords) : Fin 1 → Nat :=
  let arg0 : BitVec 32 := BitVec.ofNat 32 (i 0).val
  let c8_i32 : BitVec 32 := 8#32
  let v0 : BitVec 32 := Scalar.muli arg0 c8_i32
  let c7_i32 : BitVec 32 := 7#32
  let v64 : BitVec 32 := Scalar.addi v0 c7_i32
  let v65 : Index := Scalar.indexCast v64
  ![v65.toNat]
def k20_off16 (v66 : BitVec 32) : Fin 2 → Nat :=
  let c0_i32_31 : BitVec 32 := 0#32
  ![v66.toNat, 0]

def k20_chk8 (v66 : BitVec 32) : Prop :=
  (∀ a, (k20_off16 v66) a + S1x128.size a ≤ S50000x128.size a)
instance k20_chk8.dec : ∀ (v66 : BitVec 32), Decidable (k20_chk8 v66) := fun v66 => decidable_of_iff' _ (Iff.of_eq (k20_chk8.eq_1 v66))
theorem k20_off16_inb : ∀ (v66 : BitVec 32) (k20_hw8 : k20_chk8 v66), ∀ a, (k20_off16 v66) a + S1x128.size a ≤ S50000x128.size a := fun v66 k20_hw8 => k20_hw8

def k20_off17 (v3 : BitVec 32) : Fin 2 → Nat :=
  let c0_i32_35 : BitVec 32 := 0#32
  ![v3.toNat, 0]

def k20_chk1 (v3 : BitVec 32) : Prop :=
  (∀ a, (k20_off2 v3) a + S1x128.size a ≤ S50000x128.size a) ∧
  (∀ a, (k20_off17 v3) a + S1x128.size a ≤ S50000x128.size a)
instance k20_chk1.dec : ∀ (v3 : BitVec 32), Decidable (k20_chk1 v3) := fun v3 => decidable_of_iff' _ (Iff.of_eq (k20_chk1.eq_1 v3))
theorem k20_off2_inb : ∀ (v3 : BitVec 32) (k20_hw1 : k20_chk1 v3), ∀ a, (k20_off2 v3) a + S1x128.size a ≤ S50000x128.size a := fun v3 k20_hw1 => k20_hw1.1
theorem k20_off17_inb : ∀ (v3 : BitVec 32) (k20_hw1 : k20_chk1 v3), ∀ a, (k20_off17 v3) a + S1x128.size a ≤ S50000x128.size a := fun v3 k20_hw1 => k20_hw1.2

def k20_off18 (v12 : BitVec 32) : Fin 2 → Nat :=
  let c0_i32_39 : BitVec 32 := 0#32
  ![v12.toNat, 0]

def k20_chk2 (v12 : BitVec 32) : Prop :=
  (∀ a, (k20_off4 v12) a + S1x128.size a ≤ S50000x128.size a) ∧
  (∀ a, (k20_off18 v12) a + S1x128.size a ≤ S50000x128.size a)
instance k20_chk2.dec : ∀ (v12 : BitVec 32), Decidable (k20_chk2 v12) := fun v12 => decidable_of_iff' _ (Iff.of_eq (k20_chk2.eq_1 v12))
theorem k20_off4_inb : ∀ (v12 : BitVec 32) (k20_hw2 : k20_chk2 v12), ∀ a, (k20_off4 v12) a + S1x128.size a ≤ S50000x128.size a := fun v12 k20_hw2 => k20_hw2.1
theorem k20_off18_inb : ∀ (v12 : BitVec 32) (k20_hw2 : k20_chk2 v12), ∀ a, (k20_off18 v12) a + S1x128.size a ≤ S50000x128.size a := fun v12 k20_hw2 => k20_hw2.2

def k20_off19 (v21 : BitVec 32) : Fin 2 → Nat :=
  let c0_i32_43 : BitVec 32 := 0#32
  ![v21.toNat, 0]

def k20_chk3 (v21 : BitVec 32) : Prop :=
  (∀ a, (k20_off6 v21) a + S1x128.size a ≤ S50000x128.size a) ∧
  (∀ a, (k20_off19 v21) a + S1x128.size a ≤ S50000x128.size a)
instance k20_chk3.dec : ∀ (v21 : BitVec 32), Decidable (k20_chk3 v21) := fun v21 => decidable_of_iff' _ (Iff.of_eq (k20_chk3.eq_1 v21))
theorem k20_off6_inb : ∀ (v21 : BitVec 32) (k20_hw3 : k20_chk3 v21), ∀ a, (k20_off6 v21) a + S1x128.size a ≤ S50000x128.size a := fun v21 k20_hw3 => k20_hw3.1
theorem k20_off19_inb : ∀ (v21 : BitVec 32) (k20_hw3 : k20_chk3 v21), ∀ a, (k20_off19 v21) a + S1x128.size a ≤ S50000x128.size a := fun v21 k20_hw3 => k20_hw3.2

def k20_off20 (v30 : BitVec 32) : Fin 2 → Nat :=
  let c0_i32_47 : BitVec 32 := 0#32
  ![v30.toNat, 0]

def k20_chk4 (v30 : BitVec 32) : Prop :=
  (∀ a, (k20_off8 v30) a + S1x128.size a ≤ S50000x128.size a) ∧
  (∀ a, (k20_off20 v30) a + S1x128.size a ≤ S50000x128.size a)
instance k20_chk4.dec : ∀ (v30 : BitVec 32), Decidable (k20_chk4 v30) := fun v30 => decidable_of_iff' _ (Iff.of_eq (k20_chk4.eq_1 v30))
theorem k20_off8_inb : ∀ (v30 : BitVec 32) (k20_hw4 : k20_chk4 v30), ∀ a, (k20_off8 v30) a + S1x128.size a ≤ S50000x128.size a := fun v30 k20_hw4 => k20_hw4.1
theorem k20_off20_inb : ∀ (v30 : BitVec 32) (k20_hw4 : k20_chk4 v30), ∀ a, (k20_off20 v30) a + S1x128.size a ≤ S50000x128.size a := fun v30 k20_hw4 => k20_hw4.2

def k20_off21 (v39 : BitVec 32) : Fin 2 → Nat :=
  let c0_i32_51 : BitVec 32 := 0#32
  ![v39.toNat, 0]

def k20_chk5 (v39 : BitVec 32) : Prop :=
  (∀ a, (k20_off10 v39) a + S1x128.size a ≤ S50000x128.size a) ∧
  (∀ a, (k20_off21 v39) a + S1x128.size a ≤ S50000x128.size a)
instance k20_chk5.dec : ∀ (v39 : BitVec 32), Decidable (k20_chk5 v39) := fun v39 => decidable_of_iff' _ (Iff.of_eq (k20_chk5.eq_1 v39))
theorem k20_off10_inb : ∀ (v39 : BitVec 32) (k20_hw5 : k20_chk5 v39), ∀ a, (k20_off10 v39) a + S1x128.size a ≤ S50000x128.size a := fun v39 k20_hw5 => k20_hw5.1
theorem k20_off21_inb : ∀ (v39 : BitVec 32) (k20_hw5 : k20_chk5 v39), ∀ a, (k20_off21 v39) a + S1x128.size a ≤ S50000x128.size a := fun v39 k20_hw5 => k20_hw5.2

def k20_off22 (v48 : BitVec 32) : Fin 2 → Nat :=
  let c0_i32_55 : BitVec 32 := 0#32
  ![v48.toNat, 0]

def k20_chk6 (v48 : BitVec 32) : Prop :=
  (∀ a, (k20_off12 v48) a + S1x128.size a ≤ S50000x128.size a) ∧
  (∀ a, (k20_off22 v48) a + S1x128.size a ≤ S50000x128.size a)
instance k20_chk6.dec : ∀ (v48 : BitVec 32), Decidable (k20_chk6 v48) := fun v48 => decidable_of_iff' _ (Iff.of_eq (k20_chk6.eq_1 v48))
theorem k20_off12_inb : ∀ (v48 : BitVec 32) (k20_hw6 : k20_chk6 v48), ∀ a, (k20_off12 v48) a + S1x128.size a ≤ S50000x128.size a := fun v48 k20_hw6 => k20_hw6.1
theorem k20_off22_inb : ∀ (v48 : BitVec 32) (k20_hw6 : k20_chk6 v48), ∀ a, (k20_off22 v48) a + S1x128.size a ≤ S50000x128.size a := fun v48 k20_hw6 => k20_hw6.2

def k20_off23 (v57 : BitVec 32) : Fin 2 → Nat :=
  let c0_i32_59 : BitVec 32 := 0#32
  ![v57.toNat, 0]

def k20_chk7 (v57 : BitVec 32) : Prop :=
  (∀ a, (k20_off14 v57) a + S1x128.size a ≤ S50000x128.size a) ∧
  (∀ a, (k20_off23 v57) a + S1x128.size a ≤ S50000x128.size a)
instance k20_chk7.dec : ∀ (v57 : BitVec 32), Decidable (k20_chk7 v57) := fun v57 => decidable_of_iff' _ (Iff.of_eq (k20_chk7.eq_1 v57))
theorem k20_off14_inb : ∀ (v57 : BitVec 32) (k20_hw7 : k20_chk7 v57), ∀ a, (k20_off14 v57) a + S1x128.size a ≤ S50000x128.size a := fun v57 k20_hw7 => k20_hw7.1
theorem k20_off23_inb : ∀ (v57 : BitVec 32) (k20_hw7 : k20_chk7 v57), ∀ a, (k20_off23 v57) a + S1x128.size a ≤ S50000x128.size a := fun v57 k20_hw7 => k20_hw7.2

def cc20_transform_1 (i : grid20.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage20_0 : Fin 2 → Memref sig .tc .vmem S8x128 .f32 := fun | 0 => Memref.whole cc20_stg0_0 | 1 => Memref.whole cc20_stg0_1 | ⟨_ + 2, h⟩ => absurd h (Nat.not_lt.2 (Nat.le_add_left _ _))
abbrev sem20_0 : Fin 2 → DmaSem sig := fun | 0 => cc20_sem0_0 | 1 => cc20_sem0_1 | ⟨_ + 2, h⟩ => absurd h (Nat.not_lt.2 (Nat.le_add_left _ _))
abbrev reads20_0 : Fin grid20.rank → Bool := ![true]

abbrev grid21 : Pipeline.Grid := ⟨1, ![10625], ![false]⟩

abbrev pre21 : Pipeline.Prefetch sig := ⟨1, ![main_v80.idx], fun | 0 => main_v80.names | ⟨_ + 1, h⟩ => absurd h (Nat.not_lt.2 (Nat.le_add_left _ _)), fun | 0 => rfl | ⟨_ + 1, h⟩ => absurd h (Nat.not_lt.2 (Nat.le_add_left _ _))⟩

def k21_off1 (i : grid21.Coords) : Fin 1 → Nat :=
  let arg0 : BitVec 32 := BitVec.ofNat 32 (i 0).val
  let c8_i32 : BitVec 32 := 8#32
  let v0 : BitVec 32 := Scalar.muli arg0 c8_i32
  let c0_i32 : BitVec 32 := 0#32
  let v1 : BitVec 32 := Scalar.addi v0 c0_i32
  let v2 : Index := Scalar.indexCast v1
  ![v2.toNat]
def k21_off2 (v3 : BitVec 32) : Fin 2 → Nat :=
  let c0_i32_3 : BitVec 32 := 0#32
  ![v3.toNat, 0]

def k21_off3 (i : grid21.Coords) : Fin 1 → Nat :=
  let arg0 : BitVec 32 := BitVec.ofNat 32 (i 0).val
  let c8_i32 : BitVec 32 := 8#32
  let v0 : BitVec 32 := Scalar.muli arg0 c8_i32
  let c1_i32 : BitVec 32 := 1#32
  let v10 : BitVec 32 := Scalar.addi v0 c1_i32
  let v11 : Index := Scalar.indexCast v10
  ![v11.toNat]
def k21_off4 (v12 : BitVec 32) : Fin 2 → Nat :=
  let c0_i32_7 : BitVec 32 := 0#32
  ![v12.toNat, 0]

def k21_off5 (i : grid21.Coords) : Fin 1 → Nat :=
  let arg0 : BitVec 32 := BitVec.ofNat 32 (i 0).val
  let c8_i32 : BitVec 32 := 8#32
  let v0 : BitVec 32 := Scalar.muli arg0 c8_i32
  let c2_i32 : BitVec 32 := 2#32
  let v19 : BitVec 32 := Scalar.addi v0 c2_i32
  let v20 : Index := Scalar.indexCast v19
  ![v20.toNat]
def k21_off6 (v21 : BitVec 32) : Fin 2 → Nat :=
  let c0_i32_11 : BitVec 32 := 0#32
  ![v21.toNat, 0]

def k21_off7 (i : grid21.Coords) : Fin 1 → Nat :=
  let arg0 : BitVec 32 := BitVec.ofNat 32 (i 0).val
  let c8_i32 : BitVec 32 := 8#32
  let v0 : BitVec 32 := Scalar.muli arg0 c8_i32
  let c3_i32 : BitVec 32 := 3#32
  let v28 : BitVec 32 := Scalar.addi v0 c3_i32
  let v29 : Index := Scalar.indexCast v28
  ![v29.toNat]
def k21_off8 (v30 : BitVec 32) : Fin 2 → Nat :=
  let c0_i32_15 : BitVec 32 := 0#32
  ![v30.toNat, 0]

def k21_off9 (i : grid21.Coords) : Fin 1 → Nat :=
  let arg0 : BitVec 32 := BitVec.ofNat 32 (i 0).val
  let c8_i32 : BitVec 32 := 8#32
  let v0 : BitVec 32 := Scalar.muli arg0 c8_i32
  let c4_i32 : BitVec 32 := 4#32
  let v37 : BitVec 32 := Scalar.addi v0 c4_i32
  let v38 : Index := Scalar.indexCast v37
  ![v38.toNat]
def k21_off10 (v39 : BitVec 32) : Fin 2 → Nat :=
  let c0_i32_19 : BitVec 32 := 0#32
  ![v39.toNat, 0]

def k21_off11 (i : grid21.Coords) : Fin 1 → Nat :=
  let arg0 : BitVec 32 := BitVec.ofNat 32 (i 0).val
  let c8_i32 : BitVec 32 := 8#32
  let v0 : BitVec 32 := Scalar.muli arg0 c8_i32
  let c5_i32 : BitVec 32 := 5#32
  let v46 : BitVec 32 := Scalar.addi v0 c5_i32
  let v47 : Index := Scalar.indexCast v46
  ![v47.toNat]
def k21_off12 (v48 : BitVec 32) : Fin 2 → Nat :=
  let c0_i32_23 : BitVec 32 := 0#32
  ![v48.toNat, 0]

def k21_off13 (i : grid21.Coords) : Fin 1 → Nat :=
  let arg0 : BitVec 32 := BitVec.ofNat 32 (i 0).val
  let c8_i32 : BitVec 32 := 8#32
  let v0 : BitVec 32 := Scalar.muli arg0 c8_i32
  let c6_i32 : BitVec 32 := 6#32
  let v55 : BitVec 32 := Scalar.addi v0 c6_i32
  let v56 : Index := Scalar.indexCast v55
  ![v56.toNat]
def k21_off14 (v57 : BitVec 32) : Fin 2 → Nat :=
  let c0_i32_27 : BitVec 32 := 0#32
  ![v57.toNat, 0]

def k21_off15 (i : grid21.Coords) : Fin 1 → Nat :=
  let arg0 : BitVec 32 := BitVec.ofNat 32 (i 0).val
  let c8_i32 : BitVec 32 := 8#32
  let v0 : BitVec 32 := Scalar.muli arg0 c8_i32
  let c7_i32 : BitVec 32 := 7#32
  let v64 : BitVec 32 := Scalar.addi v0 c7_i32
  let v65 : Index := Scalar.indexCast v64
  ![v65.toNat]
def k21_off16 (v66 : BitVec 32) : Fin 2 → Nat :=
  let c0_i32_31 : BitVec 32 := 0#32
  ![v66.toNat, 0]

def k21_chk8 (v66 : BitVec 32) : Prop :=
  (∀ a, (k21_off16 v66) a + S1x128.size a ≤ S50000x128.size a)
instance k21_chk8.dec : ∀ (v66 : BitVec 32), Decidable (k21_chk8 v66) := fun v66 => decidable_of_iff' _ (Iff.of_eq (k21_chk8.eq_1 v66))
theorem k21_off16_inb : ∀ (v66 : BitVec 32) (k21_hw8 : k21_chk8 v66), ∀ a, (k21_off16 v66) a + S1x128.size a ≤ S50000x128.size a := fun v66 k21_hw8 => k21_hw8

def k21_off17 (v3 : BitVec 32) : Fin 2 → Nat :=
  let c0_i32_35 : BitVec 32 := 0#32
  ![v3.toNat, 0]

def k21_chk1 (v3 : BitVec 32) : Prop :=
  (∀ a, (k21_off2 v3) a + S1x128.size a ≤ S50000x128.size a) ∧
  (∀ a, (k21_off17 v3) a + S1x128.size a ≤ S50000x128.size a)
instance k21_chk1.dec : ∀ (v3 : BitVec 32), Decidable (k21_chk1 v3) := fun v3 => decidable_of_iff' _ (Iff.of_eq (k21_chk1.eq_1 v3))
theorem k21_off2_inb : ∀ (v3 : BitVec 32) (k21_hw1 : k21_chk1 v3), ∀ a, (k21_off2 v3) a + S1x128.size a ≤ S50000x128.size a := fun v3 k21_hw1 => k21_hw1.1
theorem k21_off17_inb : ∀ (v3 : BitVec 32) (k21_hw1 : k21_chk1 v3), ∀ a, (k21_off17 v3) a + S1x128.size a ≤ S50000x128.size a := fun v3 k21_hw1 => k21_hw1.2

def k21_off18 (v12 : BitVec 32) : Fin 2 → Nat :=
  let c0_i32_39 : BitVec 32 := 0#32
  ![v12.toNat, 0]

def k21_chk2 (v12 : BitVec 32) : Prop :=
  (∀ a, (k21_off4 v12) a + S1x128.size a ≤ S50000x128.size a) ∧
  (∀ a, (k21_off18 v12) a + S1x128.size a ≤ S50000x128.size a)
instance k21_chk2.dec : ∀ (v12 : BitVec 32), Decidable (k21_chk2 v12) := fun v12 => decidable_of_iff' _ (Iff.of_eq (k21_chk2.eq_1 v12))
theorem k21_off4_inb : ∀ (v12 : BitVec 32) (k21_hw2 : k21_chk2 v12), ∀ a, (k21_off4 v12) a + S1x128.size a ≤ S50000x128.size a := fun v12 k21_hw2 => k21_hw2.1
theorem k21_off18_inb : ∀ (v12 : BitVec 32) (k21_hw2 : k21_chk2 v12), ∀ a, (k21_off18 v12) a + S1x128.size a ≤ S50000x128.size a := fun v12 k21_hw2 => k21_hw2.2

def k21_off19 (v21 : BitVec 32) : Fin 2 → Nat :=
  let c0_i32_43 : BitVec 32 := 0#32
  ![v21.toNat, 0]

def k21_chk3 (v21 : BitVec 32) : Prop :=
  (∀ a, (k21_off6 v21) a + S1x128.size a ≤ S50000x128.size a) ∧
  (∀ a, (k21_off19 v21) a + S1x128.size a ≤ S50000x128.size a)
instance k21_chk3.dec : ∀ (v21 : BitVec 32), Decidable (k21_chk3 v21) := fun v21 => decidable_of_iff' _ (Iff.of_eq (k21_chk3.eq_1 v21))
theorem k21_off6_inb : ∀ (v21 : BitVec 32) (k21_hw3 : k21_chk3 v21), ∀ a, (k21_off6 v21) a + S1x128.size a ≤ S50000x128.size a := fun v21 k21_hw3 => k21_hw3.1
theorem k21_off19_inb : ∀ (v21 : BitVec 32) (k21_hw3 : k21_chk3 v21), ∀ a, (k21_off19 v21) a + S1x128.size a ≤ S50000x128.size a := fun v21 k21_hw3 => k21_hw3.2

def k21_off20 (v30 : BitVec 32) : Fin 2 → Nat :=
  let c0_i32_47 : BitVec 32 := 0#32
  ![v30.toNat, 0]

def k21_chk4 (v30 : BitVec 32) : Prop :=
  (∀ a, (k21_off8 v30) a + S1x128.size a ≤ S50000x128.size a) ∧
  (∀ a, (k21_off20 v30) a + S1x128.size a ≤ S50000x128.size a)
instance k21_chk4.dec : ∀ (v30 : BitVec 32), Decidable (k21_chk4 v30) := fun v30 => decidable_of_iff' _ (Iff.of_eq (k21_chk4.eq_1 v30))
theorem k21_off8_inb : ∀ (v30 : BitVec 32) (k21_hw4 : k21_chk4 v30), ∀ a, (k21_off8 v30) a + S1x128.size a ≤ S50000x128.size a := fun v30 k21_hw4 => k21_hw4.1
theorem k21_off20_inb : ∀ (v30 : BitVec 32) (k21_hw4 : k21_chk4 v30), ∀ a, (k21_off20 v30) a + S1x128.size a ≤ S50000x128.size a := fun v30 k21_hw4 => k21_hw4.2

def k21_off21 (v39 : BitVec 32) : Fin 2 → Nat :=
  let c0_i32_51 : BitVec 32 := 0#32
  ![v39.toNat, 0]

def k21_chk5 (v39 : BitVec 32) : Prop :=
  (∀ a, (k21_off10 v39) a + S1x128.size a ≤ S50000x128.size a) ∧
  (∀ a, (k21_off21 v39) a + S1x128.size a ≤ S50000x128.size a)
instance k21_chk5.dec : ∀ (v39 : BitVec 32), Decidable (k21_chk5 v39) := fun v39 => decidable_of_iff' _ (Iff.of_eq (k21_chk5.eq_1 v39))
theorem k21_off10_inb : ∀ (v39 : BitVec 32) (k21_hw5 : k21_chk5 v39), ∀ a, (k21_off10 v39) a + S1x128.size a ≤ S50000x128.size a := fun v39 k21_hw5 => k21_hw5.1
theorem k21_off21_inb : ∀ (v39 : BitVec 32) (k21_hw5 : k21_chk5 v39), ∀ a, (k21_off21 v39) a + S1x128.size a ≤ S50000x128.size a := fun v39 k21_hw5 => k21_hw5.2

def k21_off22 (v48 : BitVec 32) : Fin 2 → Nat :=
  let c0_i32_55 : BitVec 32 := 0#32
  ![v48.toNat, 0]

def k21_chk6 (v48 : BitVec 32) : Prop :=
  (∀ a, (k21_off12 v48) a + S1x128.size a ≤ S50000x128.size a) ∧
  (∀ a, (k21_off22 v48) a + S1x128.size a ≤ S50000x128.size a)
instance k21_chk6.dec : ∀ (v48 : BitVec 32), Decidable (k21_chk6 v48) := fun v48 => decidable_of_iff' _ (Iff.of_eq (k21_chk6.eq_1 v48))
theorem k21_off12_inb : ∀ (v48 : BitVec 32) (k21_hw6 : k21_chk6 v48), ∀ a, (k21_off12 v48) a + S1x128.size a ≤ S50000x128.size a := fun v48 k21_hw6 => k21_hw6.1
theorem k21_off22_inb : ∀ (v48 : BitVec 32) (k21_hw6 : k21_chk6 v48), ∀ a, (k21_off22 v48) a + S1x128.size a ≤ S50000x128.size a := fun v48 k21_hw6 => k21_hw6.2

def k21_off23 (v57 : BitVec 32) : Fin 2 → Nat :=
  let c0_i32_59 : BitVec 32 := 0#32
  ![v57.toNat, 0]

def k21_chk7 (v57 : BitVec 32) : Prop :=
  (∀ a, (k21_off14 v57) a + S1x128.size a ≤ S50000x128.size a) ∧
  (∀ a, (k21_off23 v57) a + S1x128.size a ≤ S50000x128.size a)
instance k21_chk7.dec : ∀ (v57 : BitVec 32), Decidable (k21_chk7 v57) := fun v57 => decidable_of_iff' _ (Iff.of_eq (k21_chk7.eq_1 v57))
theorem k21_off14_inb : ∀ (v57 : BitVec 32) (k21_hw7 : k21_chk7 v57), ∀ a, (k21_off14 v57) a + S1x128.size a ≤ S50000x128.size a := fun v57 k21_hw7 => k21_hw7.1
theorem k21_off23_inb : ∀ (v57 : BitVec 32) (k21_hw7 : k21_chk7 v57), ∀ a, (k21_off23 v57) a + S1x128.size a ≤ S50000x128.size a := fun v57 k21_hw7 => k21_hw7.2

def cc21_transform_1 (i : grid21.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage21_0 : Fin 2 → Memref sig .tc .vmem S8x128 .f32 := fun | 0 => Memref.whole cc21_stg0_0 | 1 => Memref.whole cc21_stg0_1 | ⟨_ + 2, h⟩ => absurd h (Nat.not_lt.2 (Nat.le_add_left _ _))
abbrev sem21_0 : Fin 2 → DmaSem sig := fun | 0 => cc21_sem0_0 | 1 => cc21_sem0_1 | ⟨_ + 2, h⟩ => absurd h (Nat.not_lt.2 (Nat.le_add_left _ _))
abbrev reads21_0 : Fin grid21.rank → Bool := ![true]

abbrev grid22 : Pipeline.Grid := ⟨1, ![10], ![false]⟩

def cc22_transform_0 (i : grid22.Coords) : Fin 2 → Nat :=
  let arg0 : BitVec 32 := BitVec.ofNat 32 (i 0).val
  let c0_i32 : BitVec 32 := 0#32
  let c0_i32_0 : BitVec 32 := 0#32
  ![arg0.toNat, c0_i32.toNat]

def cc22_transform_1 (i : grid22.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc22_transform_2 (i : grid22.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage22_0 : Fin 2 → Memref sig .tc .vmem S5000x128 .f32 := fun | 0 => Memref.whole cc22_stg0_0 | 1 => Memref.whole cc22_stg0_1 | ⟨_ + 2, h⟩ => absurd h (Nat.not_lt.2 (Nat.le_add_left _ _))
abbrev sem22_0 : Fin 2 → DmaSem sig := fun | 0 => cc22_sem0_0 | 1 => cc22_sem0_1 | ⟨_ + 2, h⟩ => absurd h (Nat.not_lt.2 (Nat.le_add_left _ _))
abbrev reads22_0 : Fin grid22.rank → Bool := ![true]

abbrev stage22_1 : Fin 1 → Memref sig .tc .vmem S1x128 .f32 := fun | 0 => Memref.whole cc22_stg1_0 | ⟨_ + 1, h⟩ => absurd h (Nat.not_lt.2 (Nat.le_add_left _ _))
abbrev sem22_1 : Fin 1 → DmaSem sig := fun | 0 => cc22_sem1_0 | ⟨_ + 1, h⟩ => absurd h (Nat.not_lt.2 (Nat.le_add_left _ _))
abbrev reads22_1 : Fin grid22.rank → Bool := ![false]

abbrev stage22_2 : Fin 2 → Memref sig .tc .vmem S5000x128 .f32 := fun | 0 => Memref.whole cc22_stg2_0 | 1 => Memref.whole cc22_stg2_1 | ⟨_ + 2, h⟩ => absurd h (Nat.not_lt.2 (Nat.le_add_left _ _))
abbrev sem22_2 : Fin 2 → DmaSem sig := fun | 0 => cc22_sem2_0 | 1 => cc22_sem2_1 | ⟨_ + 2, h⟩ => absurd h (Nat.not_lt.2 (Nat.le_add_left _ _))
abbrev reads22_2 : Fin grid22.rank → Bool := ![true]

abbrev grid23 : Pipeline.Grid := ⟨1, ![12500], ![false]⟩

abbrev pre23 : Pipeline.Prefetch sig := ⟨1, ![main_v90.idx], fun | 0 => main_v90.names | ⟨_ + 1, h⟩ => absurd h (Nat.not_lt.2 (Nat.le_add_left _ _)), fun | 0 => rfl | ⟨_ + 1, h⟩ => absurd h (Nat.not_lt.2 (Nat.le_add_left _ _))⟩

def k23_off1 (i : grid23.Coords) : Fin 1 → Nat :=
  let arg0 : BitVec 32 := BitVec.ofNat 32 (i 0).val
  let c8_i32 : BitVec 32 := 8#32
  let v0 : BitVec 32 := Scalar.muli arg0 c8_i32
  let c0_i32 : BitVec 32 := 0#32
  let v1 : BitVec 32 := Scalar.addi v0 c0_i32
  let v2 : Index := Scalar.indexCast v1
  ![v2.toNat]
def k23_off2 (v3 : BitVec 32) : Fin 2 → Nat :=
  let c0_i32_3 : BitVec 32 := 0#32
  ![v3.toNat, 0]

def k23_off3 (i : grid23.Coords) : Fin 1 → Nat :=
  let arg0 : BitVec 32 := BitVec.ofNat 32 (i 0).val
  let c8_i32 : BitVec 32 := 8#32
  let v0 : BitVec 32 := Scalar.muli arg0 c8_i32
  let c1_i32 : BitVec 32 := 1#32
  let v10 : BitVec 32 := Scalar.addi v0 c1_i32
  let v11 : Index := Scalar.indexCast v10
  ![v11.toNat]
def k23_off4 (v12 : BitVec 32) : Fin 2 → Nat :=
  let c0_i32_7 : BitVec 32 := 0#32
  ![v12.toNat, 0]

def k23_off5 (i : grid23.Coords) : Fin 1 → Nat :=
  let arg0 : BitVec 32 := BitVec.ofNat 32 (i 0).val
  let c8_i32 : BitVec 32 := 8#32
  let v0 : BitVec 32 := Scalar.muli arg0 c8_i32
  let c2_i32 : BitVec 32 := 2#32
  let v19 : BitVec 32 := Scalar.addi v0 c2_i32
  let v20 : Index := Scalar.indexCast v19
  ![v20.toNat]
def k23_off6 (v21 : BitVec 32) : Fin 2 → Nat :=
  let c0_i32_11 : BitVec 32 := 0#32
  ![v21.toNat, 0]

def k23_off7 (i : grid23.Coords) : Fin 1 → Nat :=
  let arg0 : BitVec 32 := BitVec.ofNat 32 (i 0).val
  let c8_i32 : BitVec 32 := 8#32
  let v0 : BitVec 32 := Scalar.muli arg0 c8_i32
  let c3_i32 : BitVec 32 := 3#32
  let v28 : BitVec 32 := Scalar.addi v0 c3_i32
  let v29 : Index := Scalar.indexCast v28
  ![v29.toNat]
def k23_off8 (v30 : BitVec 32) : Fin 2 → Nat :=
  let c0_i32_15 : BitVec 32 := 0#32
  ![v30.toNat, 0]

def k23_off9 (i : grid23.Coords) : Fin 1 → Nat :=
  let arg0 : BitVec 32 := BitVec.ofNat 32 (i 0).val
  let c8_i32 : BitVec 32 := 8#32
  let v0 : BitVec 32 := Scalar.muli arg0 c8_i32
  let c4_i32 : BitVec 32 := 4#32
  let v37 : BitVec 32 := Scalar.addi v0 c4_i32
  let v38 : Index := Scalar.indexCast v37
  ![v38.toNat]
def k23_off10 (v39 : BitVec 32) : Fin 2 → Nat :=
  let c0_i32_19 : BitVec 32 := 0#32
  ![v39.toNat, 0]

def k23_off11 (i : grid23.Coords) : Fin 1 → Nat :=
  let arg0 : BitVec 32 := BitVec.ofNat 32 (i 0).val
  let c8_i32 : BitVec 32 := 8#32
  let v0 : BitVec 32 := Scalar.muli arg0 c8_i32
  let c5_i32 : BitVec 32 := 5#32
  let v46 : BitVec 32 := Scalar.addi v0 c5_i32
  let v47 : Index := Scalar.indexCast v46
  ![v47.toNat]
def k23_off12 (v48 : BitVec 32) : Fin 2 → Nat :=
  let c0_i32_23 : BitVec 32 := 0#32
  ![v48.toNat, 0]

def k23_off13 (i : grid23.Coords) : Fin 1 → Nat :=
  let arg0 : BitVec 32 := BitVec.ofNat 32 (i 0).val
  let c8_i32 : BitVec 32 := 8#32
  let v0 : BitVec 32 := Scalar.muli arg0 c8_i32
  let c6_i32 : BitVec 32 := 6#32
  let v55 : BitVec 32 := Scalar.addi v0 c6_i32
  let v56 : Index := Scalar.indexCast v55
  ![v56.toNat]
def k23_off14 (v57 : BitVec 32) : Fin 2 → Nat :=
  let c0_i32_27 : BitVec 32 := 0#32
  ![v57.toNat, 0]

def k23_off15 (i : grid23.Coords) : Fin 1 → Nat :=
  let arg0 : BitVec 32 := BitVec.ofNat 32 (i 0).val
  let c8_i32 : BitVec 32 := 8#32
  let v0 : BitVec 32 := Scalar.muli arg0 c8_i32
  let c7_i32 : BitVec 32 := 7#32
  let v64 : BitVec 32 := Scalar.addi v0 c7_i32
  let v65 : Index := Scalar.indexCast v64
  ![v65.toNat]
def k23_off16 (v66 : BitVec 32) : Fin 2 → Nat :=
  let c0_i32_31 : BitVec 32 := 0#32
  ![v66.toNat, 0]

def k23_chk8 (v66 : BitVec 32) : Prop :=
  (∀ a, (k23_off16 v66) a + S1x128.size a ≤ S50000x128.size a)
instance k23_chk8.dec : ∀ (v66 : BitVec 32), Decidable (k23_chk8 v66) := fun v66 => decidable_of_iff' _ (Iff.of_eq (k23_chk8.eq_1 v66))
theorem k23_off16_inb : ∀ (v66 : BitVec 32) (k23_hw8 : k23_chk8 v66), ∀ a, (k23_off16 v66) a + S1x128.size a ≤ S50000x128.size a := fun v66 k23_hw8 => k23_hw8

def k23_off17 (v3 : BitVec 32) : Fin 2 → Nat :=
  let c0_i32_35 : BitVec 32 := 0#32
  ![v3.toNat, 0]

def k23_chk1 (v3 : BitVec 32) : Prop :=
  (∀ a, (k23_off2 v3) a + S1x128.size a ≤ S50000x128.size a) ∧
  (∀ a, (k23_off17 v3) a + S1x128.size a ≤ S50000x128.size a)
instance k23_chk1.dec : ∀ (v3 : BitVec 32), Decidable (k23_chk1 v3) := fun v3 => decidable_of_iff' _ (Iff.of_eq (k23_chk1.eq_1 v3))
theorem k23_off2_inb : ∀ (v3 : BitVec 32) (k23_hw1 : k23_chk1 v3), ∀ a, (k23_off2 v3) a + S1x128.size a ≤ S50000x128.size a := fun v3 k23_hw1 => k23_hw1.1
theorem k23_off17_inb : ∀ (v3 : BitVec 32) (k23_hw1 : k23_chk1 v3), ∀ a, (k23_off17 v3) a + S1x128.size a ≤ S50000x128.size a := fun v3 k23_hw1 => k23_hw1.2

def k23_off18 (v12 : BitVec 32) : Fin 2 → Nat :=
  let c0_i32_39 : BitVec 32 := 0#32
  ![v12.toNat, 0]

def k23_chk2 (v12 : BitVec 32) : Prop :=
  (∀ a, (k23_off4 v12) a + S1x128.size a ≤ S50000x128.size a) ∧
  (∀ a, (k23_off18 v12) a + S1x128.size a ≤ S50000x128.size a)
instance k23_chk2.dec : ∀ (v12 : BitVec 32), Decidable (k23_chk2 v12) := fun v12 => decidable_of_iff' _ (Iff.of_eq (k23_chk2.eq_1 v12))
theorem k23_off4_inb : ∀ (v12 : BitVec 32) (k23_hw2 : k23_chk2 v12), ∀ a, (k23_off4 v12) a + S1x128.size a ≤ S50000x128.size a := fun v12 k23_hw2 => k23_hw2.1
theorem k23_off18_inb : ∀ (v12 : BitVec 32) (k23_hw2 : k23_chk2 v12), ∀ a, (k23_off18 v12) a + S1x128.size a ≤ S50000x128.size a := fun v12 k23_hw2 => k23_hw2.2

def k23_off19 (v21 : BitVec 32) : Fin 2 → Nat :=
  let c0_i32_43 : BitVec 32 := 0#32
  ![v21.toNat, 0]

def k23_chk3 (v21 : BitVec 32) : Prop :=
  (∀ a, (k23_off6 v21) a + S1x128.size a ≤ S50000x128.size a) ∧
  (∀ a, (k23_off19 v21) a + S1x128.size a ≤ S50000x128.size a)
instance k23_chk3.dec : ∀ (v21 : BitVec 32), Decidable (k23_chk3 v21) := fun v21 => decidable_of_iff' _ (Iff.of_eq (k23_chk3.eq_1 v21))
theorem k23_off6_inb : ∀ (v21 : BitVec 32) (k23_hw3 : k23_chk3 v21), ∀ a, (k23_off6 v21) a + S1x128.size a ≤ S50000x128.size a := fun v21 k23_hw3 => k23_hw3.1
theorem k23_off19_inb : ∀ (v21 : BitVec 32) (k23_hw3 : k23_chk3 v21), ∀ a, (k23_off19 v21) a + S1x128.size a ≤ S50000x128.size a := fun v21 k23_hw3 => k23_hw3.2

def k23_off20 (v30 : BitVec 32) : Fin 2 → Nat :=
  let c0_i32_47 : BitVec 32 := 0#32
  ![v30.toNat, 0]

def k23_chk4 (v30 : BitVec 32) : Prop :=
  (∀ a, (k23_off8 v30) a + S1x128.size a ≤ S50000x128.size a) ∧
  (∀ a, (k23_off20 v30) a + S1x128.size a ≤ S50000x128.size a)
instance k23_chk4.dec : ∀ (v30 : BitVec 32), Decidable (k23_chk4 v30) := fun v30 => decidable_of_iff' _ (Iff.of_eq (k23_chk4.eq_1 v30))
theorem k23_off8_inb : ∀ (v30 : BitVec 32) (k23_hw4 : k23_chk4 v30), ∀ a, (k23_off8 v30) a + S1x128.size a ≤ S50000x128.size a := fun v30 k23_hw4 => k23_hw4.1
theorem k23_off20_inb : ∀ (v30 : BitVec 32) (k23_hw4 : k23_chk4 v30), ∀ a, (k23_off20 v30) a + S1x128.size a ≤ S50000x128.size a := fun v30 k23_hw4 => k23_hw4.2

def k23_off21 (v39 : BitVec 32) : Fin 2 → Nat :=
  let c0_i32_51 : BitVec 32 := 0#32
  ![v39.toNat, 0]

def k23_chk5 (v39 : BitVec 32) : Prop :=
  (∀ a, (k23_off10 v39) a + S1x128.size a ≤ S50000x128.size a) ∧
  (∀ a, (k23_off21 v39) a + S1x128.size a ≤ S50000x128.size a)
instance k23_chk5.dec : ∀ (v39 : BitVec 32), Decidable (k23_chk5 v39) := fun v39 => decidable_of_iff' _ (Iff.of_eq (k23_chk5.eq_1 v39))
theorem k23_off10_inb : ∀ (v39 : BitVec 32) (k23_hw5 : k23_chk5 v39), ∀ a, (k23_off10 v39) a + S1x128.size a ≤ S50000x128.size a := fun v39 k23_hw5 => k23_hw5.1
theorem k23_off21_inb : ∀ (v39 : BitVec 32) (k23_hw5 : k23_chk5 v39), ∀ a, (k23_off21 v39) a + S1x128.size a ≤ S50000x128.size a := fun v39 k23_hw5 => k23_hw5.2

def k23_off22 (v48 : BitVec 32) : Fin 2 → Nat :=
  let c0_i32_55 : BitVec 32 := 0#32
  ![v48.toNat, 0]

def k23_chk6 (v48 : BitVec 32) : Prop :=
  (∀ a, (k23_off12 v48) a + S1x128.size a ≤ S50000x128.size a) ∧
  (∀ a, (k23_off22 v48) a + S1x128.size a ≤ S50000x128.size a)
instance k23_chk6.dec : ∀ (v48 : BitVec 32), Decidable (k23_chk6 v48) := fun v48 => decidable_of_iff' _ (Iff.of_eq (k23_chk6.eq_1 v48))
theorem k23_off12_inb : ∀ (v48 : BitVec 32) (k23_hw6 : k23_chk6 v48), ∀ a, (k23_off12 v48) a + S1x128.size a ≤ S50000x128.size a := fun v48 k23_hw6 => k23_hw6.1
theorem k23_off22_inb : ∀ (v48 : BitVec 32) (k23_hw6 : k23_chk6 v48), ∀ a, (k23_off22 v48) a + S1x128.size a ≤ S50000x128.size a := fun v48 k23_hw6 => k23_hw6.2

def k23_off23 (v57 : BitVec 32) : Fin 2 → Nat :=
  let c0_i32_59 : BitVec 32 := 0#32
  ![v57.toNat, 0]

def k23_chk7 (v57 : BitVec 32) : Prop :=
  (∀ a, (k23_off14 v57) a + S1x128.size a ≤ S50000x128.size a) ∧
  (∀ a, (k23_off23 v57) a + S1x128.size a ≤ S50000x128.size a)
instance k23_chk7.dec : ∀ (v57 : BitVec 32), Decidable (k23_chk7 v57) := fun v57 => decidable_of_iff' _ (Iff.of_eq (k23_chk7.eq_1 v57))
theorem k23_off14_inb : ∀ (v57 : BitVec 32) (k23_hw7 : k23_chk7 v57), ∀ a, (k23_off14 v57) a + S1x128.size a ≤ S50000x128.size a := fun v57 k23_hw7 => k23_hw7.1
theorem k23_off23_inb : ∀ (v57 : BitVec 32) (k23_hw7 : k23_chk7 v57), ∀ a, (k23_off23 v57) a + S1x128.size a ≤ S50000x128.size a := fun v57 k23_hw7 => k23_hw7.2

def cc23_transform_1 (i : grid23.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage23_0 : Fin 2 → Memref sig .tc .vmem S8x128 .f32 := fun | 0 => Memref.whole cc23_stg0_0 | 1 => Memref.whole cc23_stg0_1 | ⟨_ + 2, h⟩ => absurd h (Nat.not_lt.2 (Nat.le_add_left _ _))
abbrev sem23_0 : Fin 2 → DmaSem sig := fun | 0 => cc23_sem0_0 | 1 => cc23_sem0_1 | ⟨_ + 2, h⟩ => absurd h (Nat.not_lt.2 (Nat.le_add_left _ _))
abbrev reads23_0 : Fin grid23.rank → Bool := ![true]

abbrev grid24 : Pipeline.Grid := ⟨1, ![12500], ![false]⟩

abbrev pre24 : Pipeline.Prefetch sig := ⟨1, ![main_v92.idx], fun | 0 => main_v92.names | ⟨_ + 1, h⟩ => absurd h (Nat.not_lt.2 (Nat.le_add_left _ _)), fun | 0 => rfl | ⟨_ + 1, h⟩ => absurd h (Nat.not_lt.2 (Nat.le_add_left _ _))⟩

def k24_off1 (i : grid24.Coords) : Fin 1 → Nat :=
  let arg0 : BitVec 32 := BitVec.ofNat 32 (i 0).val
  let c8_i32 : BitVec 32 := 8#32
  let v0 : BitVec 32 := Scalar.muli arg0 c8_i32
  let c0_i32 : BitVec 32 := 0#32
  let v1 : BitVec 32 := Scalar.addi v0 c0_i32
  let v2 : Index := Scalar.indexCast v1
  ![v2.toNat]
def k24_off2 (v3 : BitVec 32) : Fin 2 → Nat :=
  let c0_i32_3 : BitVec 32 := 0#32
  ![v3.toNat, 0]

def k24_off3 (i : grid24.Coords) : Fin 1 → Nat :=
  let arg0 : BitVec 32 := BitVec.ofNat 32 (i 0).val
  let c8_i32 : BitVec 32 := 8#32
  let v0 : BitVec 32 := Scalar.muli arg0 c8_i32
  let c1_i32 : BitVec 32 := 1#32
  let v10 : BitVec 32 := Scalar.addi v0 c1_i32
  let v11 : Index := Scalar.indexCast v10
  ![v11.toNat]
def k24_off4 (v12 : BitVec 32) : Fin 2 → Nat :=
  let c0_i32_7 : BitVec 32 := 0#32
  ![v12.toNat, 0]

def k24_off5 (i : grid24.Coords) : Fin 1 → Nat :=
  let arg0 : BitVec 32 := BitVec.ofNat 32 (i 0).val
  let c8_i32 : BitVec 32 := 8#32
  let v0 : BitVec 32 := Scalar.muli arg0 c8_i32
  let c2_i32 : BitVec 32 := 2#32
  let v19 : BitVec 32 := Scalar.addi v0 c2_i32
  let v20 : Index := Scalar.indexCast v19
  ![v20.toNat]
def k24_off6 (v21 : BitVec 32) : Fin 2 → Nat :=
  let c0_i32_11 : BitVec 32 := 0#32
  ![v21.toNat, 0]

def k24_off7 (i : grid24.Coords) : Fin 1 → Nat :=
  let arg0 : BitVec 32 := BitVec.ofNat 32 (i 0).val
  let c8_i32 : BitVec 32 := 8#32
  let v0 : BitVec 32 := Scalar.muli arg0 c8_i32
  let c3_i32 : BitVec 32 := 3#32
  let v28 : BitVec 32 := Scalar.addi v0 c3_i32
  let v29 : Index := Scalar.indexCast v28
  ![v29.toNat]
def k24_off8 (v30 : BitVec 32) : Fin 2 → Nat :=
  let c0_i32_15 : BitVec 32 := 0#32
  ![v30.toNat, 0]

def k24_off9 (i : grid24.Coords) : Fin 1 → Nat :=
  let arg0 : BitVec 32 := BitVec.ofNat 32 (i 0).val
  let c8_i32 : BitVec 32 := 8#32
  let v0 : BitVec 32 := Scalar.muli arg0 c8_i32
  let c4_i32 : BitVec 32 := 4#32
  let v37 : BitVec 32 := Scalar.addi v0 c4_i32
  let v38 : Index := Scalar.indexCast v37
  ![v38.toNat]
def k24_off10 (v39 : BitVec 32) : Fin 2 → Nat :=
  let c0_i32_19 : BitVec 32 := 0#32
  ![v39.toNat, 0]

def k24_off11 (i : grid24.Coords) : Fin 1 → Nat :=
  let arg0 : BitVec 32 := BitVec.ofNat 32 (i 0).val
  let c8_i32 : BitVec 32 := 8#32
  let v0 : BitVec 32 := Scalar.muli arg0 c8_i32
  let c5_i32 : BitVec 32 := 5#32
  let v46 : BitVec 32 := Scalar.addi v0 c5_i32
  let v47 : Index := Scalar.indexCast v46
  ![v47.toNat]
def k24_off12 (v48 : BitVec 32) : Fin 2 → Nat :=
  let c0_i32_23 : BitVec 32 := 0#32
  ![v48.toNat, 0]

def k24_off13 (i : grid24.Coords) : Fin 1 → Nat :=
  let arg0 : BitVec 32 := BitVec.ofNat 32 (i 0).val
  let c8_i32 : BitVec 32 := 8#32
  let v0 : BitVec 32 := Scalar.muli arg0 c8_i32
  let c6_i32 : BitVec 32 := 6#32
  let v55 : BitVec 32 := Scalar.addi v0 c6_i32
  let v56 : Index := Scalar.indexCast v55
  ![v56.toNat]
def k24_off14 (v57 : BitVec 32) : Fin 2 → Nat :=
  let c0_i32_27 : BitVec 32 := 0#32
  ![v57.toNat, 0]

def k24_off15 (i : grid24.Coords) : Fin 1 → Nat :=
  let arg0 : BitVec 32 := BitVec.ofNat 32 (i 0).val
  let c8_i32 : BitVec 32 := 8#32
  let v0 : BitVec 32 := Scalar.muli arg0 c8_i32
  let c7_i32 : BitVec 32 := 7#32
  let v64 : BitVec 32 := Scalar.addi v0 c7_i32
  let v65 : Index := Scalar.indexCast v64
  ![v65.toNat]
def k24_off16 (v66 : BitVec 32) : Fin 2 → Nat :=
  let c0_i32_31 : BitVec 32 := 0#32
  ![v66.toNat, 0]

def k24_chk8 (v66 : BitVec 32) : Prop :=
  (∀ a, (k24_off16 v66) a + S1x128.size a ≤ S50000x128.size a)
instance k24_chk8.dec : ∀ (v66 : BitVec 32), Decidable (k24_chk8 v66) := fun v66 => decidable_of_iff' _ (Iff.of_eq (k24_chk8.eq_1 v66))
theorem k24_off16_inb : ∀ (v66 : BitVec 32) (k24_hw8 : k24_chk8 v66), ∀ a, (k24_off16 v66) a + S1x128.size a ≤ S50000x128.size a := fun v66 k24_hw8 => k24_hw8

def k24_off17 (v3 : BitVec 32) : Fin 2 → Nat :=
  let c0_i32_35 : BitVec 32 := 0#32
  ![v3.toNat, 0]

def k24_chk1 (v3 : BitVec 32) : Prop :=
  (∀ a, (k24_off2 v3) a + S1x128.size a ≤ S50000x128.size a) ∧
  (∀ a, (k24_off17 v3) a + S1x128.size a ≤ S50000x128.size a)
instance k24_chk1.dec : ∀ (v3 : BitVec 32), Decidable (k24_chk1 v3) := fun v3 => decidable_of_iff' _ (Iff.of_eq (k24_chk1.eq_1 v3))
theorem k24_off2_inb : ∀ (v3 : BitVec 32) (k24_hw1 : k24_chk1 v3), ∀ a, (k24_off2 v3) a + S1x128.size a ≤ S50000x128.size a := fun v3 k24_hw1 => k24_hw1.1
theorem k24_off17_inb : ∀ (v3 : BitVec 32) (k24_hw1 : k24_chk1 v3), ∀ a, (k24_off17 v3) a + S1x128.size a ≤ S50000x128.size a := fun v3 k24_hw1 => k24_hw1.2

def k24_off18 (v12 : BitVec 32) : Fin 2 → Nat :=
  let c0_i32_39 : BitVec 32 := 0#32
  ![v12.toNat, 0]

def k24_chk2 (v12 : BitVec 32) : Prop :=
  (∀ a, (k24_off4 v12) a + S1x128.size a ≤ S50000x128.size a) ∧
  (∀ a, (k24_off18 v12) a + S1x128.size a ≤ S50000x128.size a)
instance k24_chk2.dec : ∀ (v12 : BitVec 32), Decidable (k24_chk2 v12) := fun v12 => decidable_of_iff' _ (Iff.of_eq (k24_chk2.eq_1 v12))
theorem k24_off4_inb : ∀ (v12 : BitVec 32) (k24_hw2 : k24_chk2 v12), ∀ a, (k24_off4 v12) a + S1x128.size a ≤ S50000x128.size a := fun v12 k24_hw2 => k24_hw2.1
theorem k24_off18_inb : ∀ (v12 : BitVec 32) (k24_hw2 : k24_chk2 v12), ∀ a, (k24_off18 v12) a + S1x128.size a ≤ S50000x128.size a := fun v12 k24_hw2 => k24_hw2.2

def k24_off19 (v21 : BitVec 32) : Fin 2 → Nat :=
  let c0_i32_43 : BitVec 32 := 0#32
  ![v21.toNat, 0]

def k24_chk3 (v21 : BitVec 32) : Prop :=
  (∀ a, (k24_off6 v21) a + S1x128.size a ≤ S50000x128.size a) ∧
  (∀ a, (k24_off19 v21) a + S1x128.size a ≤ S50000x128.size a)
instance k24_chk3.dec : ∀ (v21 : BitVec 32), Decidable (k24_chk3 v21) := fun v21 => decidable_of_iff' _ (Iff.of_eq (k24_chk3.eq_1 v21))
theorem k24_off6_inb : ∀ (v21 : BitVec 32) (k24_hw3 : k24_chk3 v21), ∀ a, (k24_off6 v21) a + S1x128.size a ≤ S50000x128.size a := fun v21 k24_hw3 => k24_hw3.1
theorem k24_off19_inb : ∀ (v21 : BitVec 32) (k24_hw3 : k24_chk3 v21), ∀ a, (k24_off19 v21) a + S1x128.size a ≤ S50000x128.size a := fun v21 k24_hw3 => k24_hw3.2

def k24_off20 (v30 : BitVec 32) : Fin 2 → Nat :=
  let c0_i32_47 : BitVec 32 := 0#32
  ![v30.toNat, 0]

def k24_chk4 (v30 : BitVec 32) : Prop :=
  (∀ a, (k24_off8 v30) a + S1x128.size a ≤ S50000x128.size a) ∧
  (∀ a, (k24_off20 v30) a + S1x128.size a ≤ S50000x128.size a)
instance k24_chk4.dec : ∀ (v30 : BitVec 32), Decidable (k24_chk4 v30) := fun v30 => decidable_of_iff' _ (Iff.of_eq (k24_chk4.eq_1 v30))
theorem k24_off8_inb : ∀ (v30 : BitVec 32) (k24_hw4 : k24_chk4 v30), ∀ a, (k24_off8 v30) a + S1x128.size a ≤ S50000x128.size a := fun v30 k24_hw4 => k24_hw4.1
theorem k24_off20_inb : ∀ (v30 : BitVec 32) (k24_hw4 : k24_chk4 v30), ∀ a, (k24_off20 v30) a + S1x128.size a ≤ S50000x128.size a := fun v30 k24_hw4 => k24_hw4.2

def k24_off21 (v39 : BitVec 32) : Fin 2 → Nat :=
  let c0_i32_51 : BitVec 32 := 0#32
  ![v39.toNat, 0]

def k24_chk5 (v39 : BitVec 32) : Prop :=
  (∀ a, (k24_off10 v39) a + S1x128.size a ≤ S50000x128.size a) ∧
  (∀ a, (k24_off21 v39) a + S1x128.size a ≤ S50000x128.size a)
instance k24_chk5.dec : ∀ (v39 : BitVec 32), Decidable (k24_chk5 v39) := fun v39 => decidable_of_iff' _ (Iff.of_eq (k24_chk5.eq_1 v39))
theorem k24_off10_inb : ∀ (v39 : BitVec 32) (k24_hw5 : k24_chk5 v39), ∀ a, (k24_off10 v39) a + S1x128.size a ≤ S50000x128.size a := fun v39 k24_hw5 => k24_hw5.1
theorem k24_off21_inb : ∀ (v39 : BitVec 32) (k24_hw5 : k24_chk5 v39), ∀ a, (k24_off21 v39) a + S1x128.size a ≤ S50000x128.size a := fun v39 k24_hw5 => k24_hw5.2

def k24_off22 (v48 : BitVec 32) : Fin 2 → Nat :=
  let c0_i32_55 : BitVec 32 := 0#32
  ![v48.toNat, 0]

def k24_chk6 (v48 : BitVec 32) : Prop :=
  (∀ a, (k24_off12 v48) a + S1x128.size a ≤ S50000x128.size a) ∧
  (∀ a, (k24_off22 v48) a + S1x128.size a ≤ S50000x128.size a)
instance k24_chk6.dec : ∀ (v48 : BitVec 32), Decidable (k24_chk6 v48) := fun v48 => decidable_of_iff' _ (Iff.of_eq (k24_chk6.eq_1 v48))
theorem k24_off12_inb : ∀ (v48 : BitVec 32) (k24_hw6 : k24_chk6 v48), ∀ a, (k24_off12 v48) a + S1x128.size a ≤ S50000x128.size a := fun v48 k24_hw6 => k24_hw6.1
theorem k24_off22_inb : ∀ (v48 : BitVec 32) (k24_hw6 : k24_chk6 v48), ∀ a, (k24_off22 v48) a + S1x128.size a ≤ S50000x128.size a := fun v48 k24_hw6 => k24_hw6.2

def k24_off23 (v57 : BitVec 32) : Fin 2 → Nat :=
  let c0_i32_59 : BitVec 32 := 0#32
  ![v57.toNat, 0]

def k24_chk7 (v57 : BitVec 32) : Prop :=
  (∀ a, (k24_off14 v57) a + S1x128.size a ≤ S50000x128.size a) ∧
  (∀ a, (k24_off23 v57) a + S1x128.size a ≤ S50000x128.size a)
instance k24_chk7.dec : ∀ (v57 : BitVec 32), Decidable (k24_chk7 v57) := fun v57 => decidable_of_iff' _ (Iff.of_eq (k24_chk7.eq_1 v57))
theorem k24_off14_inb : ∀ (v57 : BitVec 32) (k24_hw7 : k24_chk7 v57), ∀ a, (k24_off14 v57) a + S1x128.size a ≤ S50000x128.size a := fun v57 k24_hw7 => k24_hw7.1
theorem k24_off23_inb : ∀ (v57 : BitVec 32) (k24_hw7 : k24_chk7 v57), ∀ a, (k24_off23 v57) a + S1x128.size a ≤ S50000x128.size a := fun v57 k24_hw7 => k24_hw7.2

def cc24_transform_1 (i : grid24.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage24_0 : Fin 2 → Memref sig .tc .vmem S8x128 .f32 := fun | 0 => Memref.whole cc24_stg0_0 | 1 => Memref.whole cc24_stg0_1 | ⟨_ + 2, h⟩ => absurd h (Nat.not_lt.2 (Nat.le_add_left _ _))
abbrev sem24_0 : Fin 2 → DmaSem sig := fun | 0 => cc24_sem0_0 | 1 => cc24_sem0_1 | ⟨_ + 2, h⟩ => absurd h (Nat.not_lt.2 (Nat.le_add_left _ _))
abbrev reads24_0 : Fin grid24.rank → Bool := ![true]

abbrev grid25 : Pipeline.Grid := ⟨1, ![12500], ![false]⟩

abbrev pre25 : Pipeline.Prefetch sig := ⟨1, ![main_v94.idx], fun | 0 => main_v94.names | ⟨_ + 1, h⟩ => absurd h (Nat.not_lt.2 (Nat.le_add_left _ _)), fun | 0 => rfl | ⟨_ + 1, h⟩ => absurd h (Nat.not_lt.2 (Nat.le_add_left _ _))⟩

def k25_off1 (i : grid25.Coords) : Fin 1 → Nat :=
  let arg0 : BitVec 32 := BitVec.ofNat 32 (i 0).val
  let c8_i32 : BitVec 32 := 8#32
  let v0 : BitVec 32 := Scalar.muli arg0 c8_i32
  let c0_i32 : BitVec 32 := 0#32
  let v1 : BitVec 32 := Scalar.addi v0 c0_i32
  let v2 : Index := Scalar.indexCast v1
  ![v2.toNat]
def k25_off2 (v3 : BitVec 32) : Fin 2 → Nat :=
  let c0_i32_3 : BitVec 32 := 0#32
  ![v3.toNat, 0]

def k25_off3 (i : grid25.Coords) : Fin 1 → Nat :=
  let arg0 : BitVec 32 := BitVec.ofNat 32 (i 0).val
  let c8_i32 : BitVec 32 := 8#32
  let v0 : BitVec 32 := Scalar.muli arg0 c8_i32
  let c1_i32 : BitVec 32 := 1#32
  let v10 : BitVec 32 := Scalar.addi v0 c1_i32
  let v11 : Index := Scalar.indexCast v10
  ![v11.toNat]
def k25_off4 (v12 : BitVec 32) : Fin 2 → Nat :=
  let c0_i32_7 : BitVec 32 := 0#32
  ![v12.toNat, 0]

def k25_off5 (i : grid25.Coords) : Fin 1 → Nat :=
  let arg0 : BitVec 32 := BitVec.ofNat 32 (i 0).val
  let c8_i32 : BitVec 32 := 8#32
  let v0 : BitVec 32 := Scalar.muli arg0 c8_i32
  let c2_i32 : BitVec 32 := 2#32
  let v19 : BitVec 32 := Scalar.addi v0 c2_i32
  let v20 : Index := Scalar.indexCast v19
  ![v20.toNat]
def k25_off6 (v21 : BitVec 32) : Fin 2 → Nat :=
  let c0_i32_11 : BitVec 32 := 0#32
  ![v21.toNat, 0]

def k25_off7 (i : grid25.Coords) : Fin 1 → Nat :=
  let arg0 : BitVec 32 := BitVec.ofNat 32 (i 0).val
  let c8_i32 : BitVec 32 := 8#32
  let v0 : BitVec 32 := Scalar.muli arg0 c8_i32
  let c3_i32 : BitVec 32 := 3#32
  let v28 : BitVec 32 := Scalar.addi v0 c3_i32
  let v29 : Index := Scalar.indexCast v28
  ![v29.toNat]
def k25_off8 (v30 : BitVec 32) : Fin 2 → Nat :=
  let c0_i32_15 : BitVec 32 := 0#32
  ![v30.toNat, 0]

def k25_off9 (i : grid25.Coords) : Fin 1 → Nat :=
  let arg0 : BitVec 32 := BitVec.ofNat 32 (i 0).val
  let c8_i32 : BitVec 32 := 8#32
  let v0 : BitVec 32 := Scalar.muli arg0 c8_i32
  let c4_i32 : BitVec 32 := 4#32
  let v37 : BitVec 32 := Scalar.addi v0 c4_i32
  let v38 : Index := Scalar.indexCast v37
  ![v38.toNat]
def k25_off10 (v39 : BitVec 32) : Fin 2 → Nat :=
  let c0_i32_19 : BitVec 32 := 0#32
  ![v39.toNat, 0]

def k25_off11 (i : grid25.Coords) : Fin 1 → Nat :=
  let arg0 : BitVec 32 := BitVec.ofNat 32 (i 0).val
  let c8_i32 : BitVec 32 := 8#32
  let v0 : BitVec 32 := Scalar.muli arg0 c8_i32
  let c5_i32 : BitVec 32 := 5#32
  let v46 : BitVec 32 := Scalar.addi v0 c5_i32
  let v47 : Index := Scalar.indexCast v46
  ![v47.toNat]
def k25_off12 (v48 : BitVec 32) : Fin 2 → Nat :=
  let c0_i32_23 : BitVec 32 := 0#32
  ![v48.toNat, 0]

def k25_off13 (i : grid25.Coords) : Fin 1 → Nat :=
  let arg0 : BitVec 32 := BitVec.ofNat 32 (i 0).val
  let c8_i32 : BitVec 32 := 8#32
  let v0 : BitVec 32 := Scalar.muli arg0 c8_i32
  let c6_i32 : BitVec 32 := 6#32
  let v55 : BitVec 32 := Scalar.addi v0 c6_i32
  let v56 : Index := Scalar.indexCast v55
  ![v56.toNat]
def k25_off14 (v57 : BitVec 32) : Fin 2 → Nat :=
  let c0_i32_27 : BitVec 32 := 0#32
  ![v57.toNat, 0]

def k25_off15 (i : grid25.Coords) : Fin 1 → Nat :=
  let arg0 : BitVec 32 := BitVec.ofNat 32 (i 0).val
  let c8_i32 : BitVec 32 := 8#32
  let v0 : BitVec 32 := Scalar.muli arg0 c8_i32
  let c7_i32 : BitVec 32 := 7#32
  let v64 : BitVec 32 := Scalar.addi v0 c7_i32
  let v65 : Index := Scalar.indexCast v64
  ![v65.toNat]
def k25_off16 (v66 : BitVec 32) : Fin 2 → Nat :=
  let c0_i32_31 : BitVec 32 := 0#32
  ![v66.toNat, 0]

def k25_chk8 (v66 : BitVec 32) : Prop :=
  (∀ a, (k25_off16 v66) a + S1x128.size a ≤ S50000x128.size a)
instance k25_chk8.dec : ∀ (v66 : BitVec 32), Decidable (k25_chk8 v66) := fun v66 => decidable_of_iff' _ (Iff.of_eq (k25_chk8.eq_1 v66))
theorem k25_off16_inb : ∀ (v66 : BitVec 32) (k25_hw8 : k25_chk8 v66), ∀ a, (k25_off16 v66) a + S1x128.size a ≤ S50000x128.size a := fun v66 k25_hw8 => k25_hw8

def k25_off17 (v3 : BitVec 32) : Fin 2 → Nat :=
  let c0_i32_35 : BitVec 32 := 0#32
  ![v3.toNat, 0]

def k25_chk1 (v3 : BitVec 32) : Prop :=
  (∀ a, (k25_off2 v3) a + S1x128.size a ≤ S50000x128.size a) ∧
  (∀ a, (k25_off17 v3) a + S1x128.size a ≤ S50000x128.size a)
instance k25_chk1.dec : ∀ (v3 : BitVec 32), Decidable (k25_chk1 v3) := fun v3 => decidable_of_iff' _ (Iff.of_eq (k25_chk1.eq_1 v3))
theorem k25_off2_inb : ∀ (v3 : BitVec 32) (k25_hw1 : k25_chk1 v3), ∀ a, (k25_off2 v3) a + S1x128.size a ≤ S50000x128.size a := fun v3 k25_hw1 => k25_hw1.1
theorem k25_off17_inb : ∀ (v3 : BitVec 32) (k25_hw1 : k25_chk1 v3), ∀ a, (k25_off17 v3) a + S1x128.size a ≤ S50000x128.size a := fun v3 k25_hw1 => k25_hw1.2

def k25_off18 (v12 : BitVec 32) : Fin 2 → Nat :=
  let c0_i32_39 : BitVec 32 := 0#32
  ![v12.toNat, 0]

def k25_chk2 (v12 : BitVec 32) : Prop :=
  (∀ a, (k25_off4 v12) a + S1x128.size a ≤ S50000x128.size a) ∧
  (∀ a, (k25_off18 v12) a + S1x128.size a ≤ S50000x128.size a)
instance k25_chk2.dec : ∀ (v12 : BitVec 32), Decidable (k25_chk2 v12) := fun v12 => decidable_of_iff' _ (Iff.of_eq (k25_chk2.eq_1 v12))
theorem k25_off4_inb : ∀ (v12 : BitVec 32) (k25_hw2 : k25_chk2 v12), ∀ a, (k25_off4 v12) a + S1x128.size a ≤ S50000x128.size a := fun v12 k25_hw2 => k25_hw2.1
theorem k25_off18_inb : ∀ (v12 : BitVec 32) (k25_hw2 : k25_chk2 v12), ∀ a, (k25_off18 v12) a + S1x128.size a ≤ S50000x128.size a := fun v12 k25_hw2 => k25_hw2.2

def k25_off19 (v21 : BitVec 32) : Fin 2 → Nat :=
  let c0_i32_43 : BitVec 32 := 0#32
  ![v21.toNat, 0]

def k25_chk3 (v21 : BitVec 32) : Prop :=
  (∀ a, (k25_off6 v21) a + S1x128.size a ≤ S50000x128.size a) ∧
  (∀ a, (k25_off19 v21) a + S1x128.size a ≤ S50000x128.size a)
instance k25_chk3.dec : ∀ (v21 : BitVec 32), Decidable (k25_chk3 v21) := fun v21 => decidable_of_iff' _ (Iff.of_eq (k25_chk3.eq_1 v21))
theorem k25_off6_inb : ∀ (v21 : BitVec 32) (k25_hw3 : k25_chk3 v21), ∀ a, (k25_off6 v21) a + S1x128.size a ≤ S50000x128.size a := fun v21 k25_hw3 => k25_hw3.1
theorem k25_off19_inb : ∀ (v21 : BitVec 32) (k25_hw3 : k25_chk3 v21), ∀ a, (k25_off19 v21) a + S1x128.size a ≤ S50000x128.size a := fun v21 k25_hw3 => k25_hw3.2

def k25_off20 (v30 : BitVec 32) : Fin 2 → Nat :=
  let c0_i32_47 : BitVec 32 := 0#32
  ![v30.toNat, 0]

def k25_chk4 (v30 : BitVec 32) : Prop :=
  (∀ a, (k25_off8 v30) a + S1x128.size a ≤ S50000x128.size a) ∧
  (∀ a, (k25_off20 v30) a + S1x128.size a ≤ S50000x128.size a)
instance k25_chk4.dec : ∀ (v30 : BitVec 32), Decidable (k25_chk4 v30) := fun v30 => decidable_of_iff' _ (Iff.of_eq (k25_chk4.eq_1 v30))
theorem k25_off8_inb : ∀ (v30 : BitVec 32) (k25_hw4 : k25_chk4 v30), ∀ a, (k25_off8 v30) a + S1x128.size a ≤ S50000x128.size a := fun v30 k25_hw4 => k25_hw4.1
theorem k25_off20_inb : ∀ (v30 : BitVec 32) (k25_hw4 : k25_chk4 v30), ∀ a, (k25_off20 v30) a + S1x128.size a ≤ S50000x128.size a := fun v30 k25_hw4 => k25_hw4.2

def k25_off21 (v39 : BitVec 32) : Fin 2 → Nat :=
  let c0_i32_51 : BitVec 32 := 0#32
  ![v39.toNat, 0]

def k25_chk5 (v39 : BitVec 32) : Prop :=
  (∀ a, (k25_off10 v39) a + S1x128.size a ≤ S50000x128.size a) ∧
  (∀ a, (k25_off21 v39) a + S1x128.size a ≤ S50000x128.size a)
instance k25_chk5.dec : ∀ (v39 : BitVec 32), Decidable (k25_chk5 v39) := fun v39 => decidable_of_iff' _ (Iff.of_eq (k25_chk5.eq_1 v39))
theorem k25_off10_inb : ∀ (v39 : BitVec 32) (k25_hw5 : k25_chk5 v39), ∀ a, (k25_off10 v39) a + S1x128.size a ≤ S50000x128.size a := fun v39 k25_hw5 => k25_hw5.1
theorem k25_off21_inb : ∀ (v39 : BitVec 32) (k25_hw5 : k25_chk5 v39), ∀ a, (k25_off21 v39) a + S1x128.size a ≤ S50000x128.size a := fun v39 k25_hw5 => k25_hw5.2

def k25_off22 (v48 : BitVec 32) : Fin 2 → Nat :=
  let c0_i32_55 : BitVec 32 := 0#32
  ![v48.toNat, 0]

def k25_chk6 (v48 : BitVec 32) : Prop :=
  (∀ a, (k25_off12 v48) a + S1x128.size a ≤ S50000x128.size a) ∧
  (∀ a, (k25_off22 v48) a + S1x128.size a ≤ S50000x128.size a)
instance k25_chk6.dec : ∀ (v48 : BitVec 32), Decidable (k25_chk6 v48) := fun v48 => decidable_of_iff' _ (Iff.of_eq (k25_chk6.eq_1 v48))
theorem k25_off12_inb : ∀ (v48 : BitVec 32) (k25_hw6 : k25_chk6 v48), ∀ a, (k25_off12 v48) a + S1x128.size a ≤ S50000x128.size a := fun v48 k25_hw6 => k25_hw6.1
theorem k25_off22_inb : ∀ (v48 : BitVec 32) (k25_hw6 : k25_chk6 v48), ∀ a, (k25_off22 v48) a + S1x128.size a ≤ S50000x128.size a := fun v48 k25_hw6 => k25_hw6.2

def k25_off23 (v57 : BitVec 32) : Fin 2 → Nat :=
  let c0_i32_59 : BitVec 32 := 0#32
  ![v57.toNat, 0]

def k25_chk7 (v57 : BitVec 32) : Prop :=
  (∀ a, (k25_off14 v57) a + S1x128.size a ≤ S50000x128.size a) ∧
  (∀ a, (k25_off23 v57) a + S1x128.size a ≤ S50000x128.size a)
instance k25_chk7.dec : ∀ (v57 : BitVec 32), Decidable (k25_chk7 v57) := fun v57 => decidable_of_iff' _ (Iff.of_eq (k25_chk7.eq_1 v57))
theorem k25_off14_inb : ∀ (v57 : BitVec 32) (k25_hw7 : k25_chk7 v57), ∀ a, (k25_off14 v57) a + S1x128.size a ≤ S50000x128.size a := fun v57 k25_hw7 => k25_hw7.1
theorem k25_off23_inb : ∀ (v57 : BitVec 32) (k25_hw7 : k25_chk7 v57), ∀ a, (k25_off23 v57) a + S1x128.size a ≤ S50000x128.size a := fun v57 k25_hw7 => k25_hw7.2

def cc25_transform_1 (i : grid25.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage25_0 : Fin 2 → Memref sig .tc .vmem S8x128 .f32 := fun | 0 => Memref.whole cc25_stg0_0 | 1 => Memref.whole cc25_stg0_1 | ⟨_ + 2, h⟩ => absurd h (Nat.not_lt.2 (Nat.le_add_left _ _))
abbrev sem25_0 : Fin 2 → DmaSem sig := fun | 0 => cc25_sem0_0 | 1 => cc25_sem0_1 | ⟨_ + 2, h⟩ => absurd h (Nat.not_lt.2 (Nat.le_add_left _ _))
abbrev reads25_0 : Fin grid25.rank → Bool := ![true]

abbrev grid26 : Pipeline.Grid := ⟨1, ![12500], ![false]⟩

abbrev pre26 : Pipeline.Prefetch sig := ⟨1, ![main_v96.idx], fun | 0 => main_v96.names | ⟨_ + 1, h⟩ => absurd h (Nat.not_lt.2 (Nat.le_add_left _ _)), fun | 0 => rfl | ⟨_ + 1, h⟩ => absurd h (Nat.not_lt.2 (Nat.le_add_left _ _))⟩

def k26_off1 (i : grid26.Coords) : Fin 1 → Nat :=
  let arg0 : BitVec 32 := BitVec.ofNat 32 (i 0).val
  let c8_i32 : BitVec 32 := 8#32
  let v0 : BitVec 32 := Scalar.muli arg0 c8_i32
  let c0_i32 : BitVec 32 := 0#32
  let v1 : BitVec 32 := Scalar.addi v0 c0_i32
  let v2 : Index := Scalar.indexCast v1
  ![v2.toNat]
def k26_off2 (v3 : BitVec 32) : Fin 2 → Nat :=
  let c0_i32_3 : BitVec 32 := 0#32
  ![v3.toNat, 0]

def k26_off3 (i : grid26.Coords) : Fin 1 → Nat :=
  let arg0 : BitVec 32 := BitVec.ofNat 32 (i 0).val
  let c8_i32 : BitVec 32 := 8#32
  let v0 : BitVec 32 := Scalar.muli arg0 c8_i32
  let c1_i32 : BitVec 32 := 1#32
  let v10 : BitVec 32 := Scalar.addi v0 c1_i32
  let v11 : Index := Scalar.indexCast v10
  ![v11.toNat]
def k26_off4 (v12 : BitVec 32) : Fin 2 → Nat :=
  let c0_i32_7 : BitVec 32 := 0#32
  ![v12.toNat, 0]

def k26_off5 (i : grid26.Coords) : Fin 1 → Nat :=
  let arg0 : BitVec 32 := BitVec.ofNat 32 (i 0).val
  let c8_i32 : BitVec 32 := 8#32
  let v0 : BitVec 32 := Scalar.muli arg0 c8_i32
  let c2_i32 : BitVec 32 := 2#32
  let v19 : BitVec 32 := Scalar.addi v0 c2_i32
  let v20 : Index := Scalar.indexCast v19
  ![v20.toNat]
def k26_off6 (v21 : BitVec 32) : Fin 2 → Nat :=
  let c0_i32_11 : BitVec 32 := 0#32
  ![v21.toNat, 0]

def k26_off7 (i : grid26.Coords) : Fin 1 → Nat :=
  let arg0 : BitVec 32 := BitVec.ofNat 32 (i 0).val
  let c8_i32 : BitVec 32 := 8#32
  let v0 : BitVec 32 := Scalar.muli arg0 c8_i32
  let c3_i32 : BitVec 32 := 3#32
  let v28 : BitVec 32 := Scalar.addi v0 c3_i32
  let v29 : Index := Scalar.indexCast v28
  ![v29.toNat]
def k26_off8 (v30 : BitVec 32) : Fin 2 → Nat :=
  let c0_i32_15 : BitVec 32 := 0#32
  ![v30.toNat, 0]

def k26_off9 (i : grid26.Coords) : Fin 1 → Nat :=
  let arg0 : BitVec 32 := BitVec.ofNat 32 (i 0).val
  let c8_i32 : BitVec 32 := 8#32
  let v0 : BitVec 32 := Scalar.muli arg0 c8_i32
  let c4_i32 : BitVec 32 := 4#32
  let v37 : BitVec 32 := Scalar.addi v0 c4_i32
  let v38 : Index := Scalar.indexCast v37
  ![v38.toNat]
def k26_off10 (v39 : BitVec 32) : Fin 2 → Nat :=
  let c0_i32_19 : BitVec 32 := 0#32
  ![v39.toNat, 0]

def k26_off11 (i : grid26.Coords) : Fin 1 → Nat :=
  let arg0 : BitVec 32 := BitVec.ofNat 32 (i 0).val
  let c8_i32 : BitVec 32 := 8#32
  let v0 : BitVec 32 := Scalar.muli arg0 c8_i32
  let c5_i32 : BitVec 32 := 5#32
  let v46 : BitVec 32 := Scalar.addi v0 c5_i32
  let v47 : Index := Scalar.indexCast v46
  ![v47.toNat]
def k26_off12 (v48 : BitVec 32) : Fin 2 → Nat :=
  let c0_i32_23 : BitVec 32 := 0#32
  ![v48.toNat, 0]

def k26_off13 (i : grid26.Coords) : Fin 1 → Nat :=
  let arg0 : BitVec 32 := BitVec.ofNat 32 (i 0).val
  let c8_i32 : BitVec 32 := 8#32
  let v0 : BitVec 32 := Scalar.muli arg0 c8_i32
  let c6_i32 : BitVec 32 := 6#32
  let v55 : BitVec 32 := Scalar.addi v0 c6_i32
  let v56 : Index := Scalar.indexCast v55
  ![v56.toNat]
def k26_off14 (v57 : BitVec 32) : Fin 2 → Nat :=
  let c0_i32_27 : BitVec 32 := 0#32
  ![v57.toNat, 0]

def k26_off15 (i : grid26.Coords) : Fin 1 → Nat :=
  let arg0 : BitVec 32 := BitVec.ofNat 32 (i 0).val
  let c8_i32 : BitVec 32 := 8#32
  let v0 : BitVec 32 := Scalar.muli arg0 c8_i32
  let c7_i32 : BitVec 32 := 7#32
  let v64 : BitVec 32 := Scalar.addi v0 c7_i32
  let v65 : Index := Scalar.indexCast v64
  ![v65.toNat]
def k26_off16 (v66 : BitVec 32) : Fin 2 → Nat :=
  let c0_i32_31 : BitVec 32 := 0#32
  ![v66.toNat, 0]

def k26_chk8 (v66 : BitVec 32) : Prop :=
  (∀ a, (k26_off16 v66) a + S1x128.size a ≤ S50000x128.size a)
instance k26_chk8.dec : ∀ (v66 : BitVec 32), Decidable (k26_chk8 v66) := fun v66 => decidable_of_iff' _ (Iff.of_eq (k26_chk8.eq_1 v66))
theorem k26_off16_inb : ∀ (v66 : BitVec 32) (k26_hw8 : k26_chk8 v66), ∀ a, (k26_off16 v66) a + S1x128.size a ≤ S50000x128.size a := fun v66 k26_hw8 => k26_hw8

def k26_off17 (v3 : BitVec 32) : Fin 2 → Nat :=
  let c0_i32_35 : BitVec 32 := 0#32
  ![v3.toNat, 0]

def k26_chk1 (v3 : BitVec 32) : Prop :=
  (∀ a, (k26_off2 v3) a + S1x128.size a ≤ S50000x128.size a) ∧
  (∀ a, (k26_off17 v3) a + S1x128.size a ≤ S50000x128.size a)
instance k26_chk1.dec : ∀ (v3 : BitVec 32), Decidable (k26_chk1 v3) := fun v3 => decidable_of_iff' _ (Iff.of_eq (k26_chk1.eq_1 v3))
theorem k26_off2_inb : ∀ (v3 : BitVec 32) (k26_hw1 : k26_chk1 v3), ∀ a, (k26_off2 v3) a + S1x128.size a ≤ S50000x128.size a := fun v3 k26_hw1 => k26_hw1.1
theorem k26_off17_inb : ∀ (v3 : BitVec 32) (k26_hw1 : k26_chk1 v3), ∀ a, (k26_off17 v3) a + S1x128.size a ≤ S50000x128.size a := fun v3 k26_hw1 => k26_hw1.2

def k26_off18 (v12 : BitVec 32) : Fin 2 → Nat :=
  let c0_i32_39 : BitVec 32 := 0#32
  ![v12.toNat, 0]

def k26_chk2 (v12 : BitVec 32) : Prop :=
  (∀ a, (k26_off4 v12) a + S1x128.size a ≤ S50000x128.size a) ∧
  (∀ a, (k26_off18 v12) a + S1x128.size a ≤ S50000x128.size a)
instance k26_chk2.dec : ∀ (v12 : BitVec 32), Decidable (k26_chk2 v12) := fun v12 => decidable_of_iff' _ (Iff.of_eq (k26_chk2.eq_1 v12))
theorem k26_off4_inb : ∀ (v12 : BitVec 32) (k26_hw2 : k26_chk2 v12), ∀ a, (k26_off4 v12) a + S1x128.size a ≤ S50000x128.size a := fun v12 k26_hw2 => k26_hw2.1
theorem k26_off18_inb : ∀ (v12 : BitVec 32) (k26_hw2 : k26_chk2 v12), ∀ a, (k26_off18 v12) a + S1x128.size a ≤ S50000x128.size a := fun v12 k26_hw2 => k26_hw2.2

def k26_off19 (v21 : BitVec 32) : Fin 2 → Nat :=
  let c0_i32_43 : BitVec 32 := 0#32
  ![v21.toNat, 0]

def k26_chk3 (v21 : BitVec 32) : Prop :=
  (∀ a, (k26_off6 v21) a + S1x128.size a ≤ S50000x128.size a) ∧
  (∀ a, (k26_off19 v21) a + S1x128.size a ≤ S50000x128.size a)
instance k26_chk3.dec : ∀ (v21 : BitVec 32), Decidable (k26_chk3 v21) := fun v21 => decidable_of_iff' _ (Iff.of_eq (k26_chk3.eq_1 v21))
theorem k26_off6_inb : ∀ (v21 : BitVec 32) (k26_hw3 : k26_chk3 v21), ∀ a, (k26_off6 v21) a + S1x128.size a ≤ S50000x128.size a := fun v21 k26_hw3 => k26_hw3.1
theorem k26_off19_inb : ∀ (v21 : BitVec 32) (k26_hw3 : k26_chk3 v21), ∀ a, (k26_off19 v21) a + S1x128.size a ≤ S50000x128.size a := fun v21 k26_hw3 => k26_hw3.2

def k26_off20 (v30 : BitVec 32) : Fin 2 → Nat :=
  let c0_i32_47 : BitVec 32 := 0#32
  ![v30.toNat, 0]

def k26_chk4 (v30 : BitVec 32) : Prop :=
  (∀ a, (k26_off8 v30) a + S1x128.size a ≤ S50000x128.size a) ∧
  (∀ a, (k26_off20 v30) a + S1x128.size a ≤ S50000x128.size a)
instance k26_chk4.dec : ∀ (v30 : BitVec 32), Decidable (k26_chk4 v30) := fun v30 => decidable_of_iff' _ (Iff.of_eq (k26_chk4.eq_1 v30))
theorem k26_off8_inb : ∀ (v30 : BitVec 32) (k26_hw4 : k26_chk4 v30), ∀ a, (k26_off8 v30) a + S1x128.size a ≤ S50000x128.size a := fun v30 k26_hw4 => k26_hw4.1
theorem k26_off20_inb : ∀ (v30 : BitVec 32) (k26_hw4 : k26_chk4 v30), ∀ a, (k26_off20 v30) a + S1x128.size a ≤ S50000x128.size a := fun v30 k26_hw4 => k26_hw4.2

def k26_off21 (v39 : BitVec 32) : Fin 2 → Nat :=
  let c0_i32_51 : BitVec 32 := 0#32
  ![v39.toNat, 0]

def k26_chk5 (v39 : BitVec 32) : Prop :=
  (∀ a, (k26_off10 v39) a + S1x128.size a ≤ S50000x128.size a) ∧
  (∀ a, (k26_off21 v39) a + S1x128.size a ≤ S50000x128.size a)
instance k26_chk5.dec : ∀ (v39 : BitVec 32), Decidable (k26_chk5 v39) := fun v39 => decidable_of_iff' _ (Iff.of_eq (k26_chk5.eq_1 v39))
theorem k26_off10_inb : ∀ (v39 : BitVec 32) (k26_hw5 : k26_chk5 v39), ∀ a, (k26_off10 v39) a + S1x128.size a ≤ S50000x128.size a := fun v39 k26_hw5 => k26_hw5.1
theorem k26_off21_inb : ∀ (v39 : BitVec 32) (k26_hw5 : k26_chk5 v39), ∀ a, (k26_off21 v39) a + S1x128.size a ≤ S50000x128.size a := fun v39 k26_hw5 => k26_hw5.2

def k26_off22 (v48 : BitVec 32) : Fin 2 → Nat :=
  let c0_i32_55 : BitVec 32 := 0#32
  ![v48.toNat, 0]

def k26_chk6 (v48 : BitVec 32) : Prop :=
  (∀ a, (k26_off12 v48) a + S1x128.size a ≤ S50000x128.size a) ∧
  (∀ a, (k26_off22 v48) a + S1x128.size a ≤ S50000x128.size a)
instance k26_chk6.dec : ∀ (v48 : BitVec 32), Decidable (k26_chk6 v48) := fun v48 => decidable_of_iff' _ (Iff.of_eq (k26_chk6.eq_1 v48))
theorem k26_off12_inb : ∀ (v48 : BitVec 32) (k26_hw6 : k26_chk6 v48), ∀ a, (k26_off12 v48) a + S1x128.size a ≤ S50000x128.size a := fun v48 k26_hw6 => k26_hw6.1
theorem k26_off22_inb : ∀ (v48 : BitVec 32) (k26_hw6 : k26_chk6 v48), ∀ a, (k26_off22 v48) a + S1x128.size a ≤ S50000x128.size a := fun v48 k26_hw6 => k26_hw6.2

def k26_off23 (v57 : BitVec 32) : Fin 2 → Nat :=
  let c0_i32_59 : BitVec 32 := 0#32
  ![v57.toNat, 0]

def k26_chk7 (v57 : BitVec 32) : Prop :=
  (∀ a, (k26_off14 v57) a + S1x128.size a ≤ S50000x128.size a) ∧
  (∀ a, (k26_off23 v57) a + S1x128.size a ≤ S50000x128.size a)
instance k26_chk7.dec : ∀ (v57 : BitVec 32), Decidable (k26_chk7 v57) := fun v57 => decidable_of_iff' _ (Iff.of_eq (k26_chk7.eq_1 v57))
theorem k26_off14_inb : ∀ (v57 : BitVec 32) (k26_hw7 : k26_chk7 v57), ∀ a, (k26_off14 v57) a + S1x128.size a ≤ S50000x128.size a := fun v57 k26_hw7 => k26_hw7.1
theorem k26_off23_inb : ∀ (v57 : BitVec 32) (k26_hw7 : k26_chk7 v57), ∀ a, (k26_off23 v57) a + S1x128.size a ≤ S50000x128.size a := fun v57 k26_hw7 => k26_hw7.2

def cc26_transform_1 (i : grid26.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage26_0 : Fin 2 → Memref sig .tc .vmem S8x128 .f32 := fun | 0 => Memref.whole cc26_stg0_0 | 1 => Memref.whole cc26_stg0_1 | ⟨_ + 2, h⟩ => absurd h (Nat.not_lt.2 (Nat.le_add_left _ _))
abbrev sem26_0 : Fin 2 → DmaSem sig := fun | 0 => cc26_sem0_0 | 1 => cc26_sem0_1 | ⟨_ + 2, h⟩ => absurd h (Nat.not_lt.2 (Nat.le_add_left _ _))
abbrev reads26_0 : Fin grid26.rank → Bool := ![true]

abbrev grid27 : Pipeline.Grid := ⟨1, ![12500], ![false]⟩

abbrev pre27 : Pipeline.Prefetch sig := ⟨1, ![main_v98.idx], fun | 0 => main_v98.names | ⟨_ + 1, h⟩ => absurd h (Nat.not_lt.2 (Nat.le_add_left _ _)), fun | 0 => rfl | ⟨_ + 1, h⟩ => absurd h (Nat.not_lt.2 (Nat.le_add_left _ _))⟩

def k27_off1 (i : grid27.Coords) : Fin 1 → Nat :=
  let arg0 : BitVec 32 := BitVec.ofNat 32 (i 0).val
  let c8_i32 : BitVec 32 := 8#32
  let v0 : BitVec 32 := Scalar.muli arg0 c8_i32
  let c0_i32 : BitVec 32 := 0#32
  let v1 : BitVec 32 := Scalar.addi v0 c0_i32
  let v2 : Index := Scalar.indexCast v1
  ![v2.toNat]
def k27_off2 (v3 : BitVec 32) : Fin 2 → Nat :=
  let c0_i32_3 : BitVec 32 := 0#32
  ![v3.toNat, 0]

def k27_off3 (i : grid27.Coords) : Fin 1 → Nat :=
  let arg0 : BitVec 32 := BitVec.ofNat 32 (i 0).val
  let c8_i32 : BitVec 32 := 8#32
  let v0 : BitVec 32 := Scalar.muli arg0 c8_i32
  let c1_i32 : BitVec 32 := 1#32
  let v10 : BitVec 32 := Scalar.addi v0 c1_i32
  let v11 : Index := Scalar.indexCast v10
  ![v11.toNat]
def k27_off4 (v12 : BitVec 32) : Fin 2 → Nat :=
  let c0_i32_7 : BitVec 32 := 0#32
  ![v12.toNat, 0]

def k27_off5 (i : grid27.Coords) : Fin 1 → Nat :=
  let arg0 : BitVec 32 := BitVec.ofNat 32 (i 0).val
  let c8_i32 : BitVec 32 := 8#32
  let v0 : BitVec 32 := Scalar.muli arg0 c8_i32
  let c2_i32 : BitVec 32 := 2#32
  let v19 : BitVec 32 := Scalar.addi v0 c2_i32
  let v20 : Index := Scalar.indexCast v19
  ![v20.toNat]
def k27_off6 (v21 : BitVec 32) : Fin 2 → Nat :=
  let c0_i32_11 : BitVec 32 := 0#32
  ![v21.toNat, 0]

def k27_off7 (i : grid27.Coords) : Fin 1 → Nat :=
  let arg0 : BitVec 32 := BitVec.ofNat 32 (i 0).val
  let c8_i32 : BitVec 32 := 8#32
  let v0 : BitVec 32 := Scalar.muli arg0 c8_i32
  let c3_i32 : BitVec 32 := 3#32
  let v28 : BitVec 32 := Scalar.addi v0 c3_i32
  let v29 : Index := Scalar.indexCast v28
  ![v29.toNat]
def k27_off8 (v30 : BitVec 32) : Fin 2 → Nat :=
  let c0_i32_15 : BitVec 32 := 0#32
  ![v30.toNat, 0]

def k27_off9 (i : grid27.Coords) : Fin 1 → Nat :=
  let arg0 : BitVec 32 := BitVec.ofNat 32 (i 0).val
  let c8_i32 : BitVec 32 := 8#32
  let v0 : BitVec 32 := Scalar.muli arg0 c8_i32
  let c4_i32 : BitVec 32 := 4#32
  let v37 : BitVec 32 := Scalar.addi v0 c4_i32
  let v38 : Index := Scalar.indexCast v37
  ![v38.toNat]
def k27_off10 (v39 : BitVec 32) : Fin 2 → Nat :=
  let c0_i32_19 : BitVec 32 := 0#32
  ![v39.toNat, 0]

def k27_off11 (i : grid27.Coords) : Fin 1 → Nat :=
  let arg0 : BitVec 32 := BitVec.ofNat 32 (i 0).val
  let c8_i32 : BitVec 32 := 8#32
  let v0 : BitVec 32 := Scalar.muli arg0 c8_i32
  let c5_i32 : BitVec 32 := 5#32
  let v46 : BitVec 32 := Scalar.addi v0 c5_i32
  let v47 : Index := Scalar.indexCast v46
  ![v47.toNat]
def k27_off12 (v48 : BitVec 32) : Fin 2 → Nat :=
  let c0_i32_23 : BitVec 32 := 0#32
  ![v48.toNat, 0]

def k27_off13 (i : grid27.Coords) : Fin 1 → Nat :=
  let arg0 : BitVec 32 := BitVec.ofNat 32 (i 0).val
  let c8_i32 : BitVec 32 := 8#32
  let v0 : BitVec 32 := Scalar.muli arg0 c8_i32
  let c6_i32 : BitVec 32 := 6#32
  let v55 : BitVec 32 := Scalar.addi v0 c6_i32
  let v56 : Index := Scalar.indexCast v55
  ![v56.toNat]
def k27_off14 (v57 : BitVec 32) : Fin 2 → Nat :=
  let c0_i32_27 : BitVec 32 := 0#32
  ![v57.toNat, 0]

def k27_off15 (i : grid27.Coords) : Fin 1 → Nat :=
  let arg0 : BitVec 32 := BitVec.ofNat 32 (i 0).val
  let c8_i32 : BitVec 32 := 8#32
  let v0 : BitVec 32 := Scalar.muli arg0 c8_i32
  let c7_i32 : BitVec 32 := 7#32
  let v64 : BitVec 32 := Scalar.addi v0 c7_i32
  let v65 : Index := Scalar.indexCast v64
  ![v65.toNat]
def k27_off16 (v66 : BitVec 32) : Fin 2 → Nat :=
  let c0_i32_31 : BitVec 32 := 0#32
  ![v66.toNat, 0]

def k27_chk8 (v66 : BitVec 32) : Prop :=
  (∀ a, (k27_off16 v66) a + S1x128.size a ≤ S50000x128.size a)
instance k27_chk8.dec : ∀ (v66 : BitVec 32), Decidable (k27_chk8 v66) := fun v66 => decidable_of_iff' _ (Iff.of_eq (k27_chk8.eq_1 v66))
theorem k27_off16_inb : ∀ (v66 : BitVec 32) (k27_hw8 : k27_chk8 v66), ∀ a, (k27_off16 v66) a + S1x128.size a ≤ S50000x128.size a := fun v66 k27_hw8 => k27_hw8

def k27_off17 (v3 : BitVec 32) : Fin 2 → Nat :=
  let c0_i32_35 : BitVec 32 := 0#32
  ![v3.toNat, 0]

def k27_chk1 (v3 : BitVec 32) : Prop :=
  (∀ a, (k27_off2 v3) a + S1x128.size a ≤ S50000x128.size a) ∧
  (∀ a, (k27_off17 v3) a + S1x128.size a ≤ S50000x128.size a)
instance k27_chk1.dec : ∀ (v3 : BitVec 32), Decidable (k27_chk1 v3) := fun v3 => decidable_of_iff' _ (Iff.of_eq (k27_chk1.eq_1 v3))
theorem k27_off2_inb : ∀ (v3 : BitVec 32) (k27_hw1 : k27_chk1 v3), ∀ a, (k27_off2 v3) a + S1x128.size a ≤ S50000x128.size a := fun v3 k27_hw1 => k27_hw1.1
theorem k27_off17_inb : ∀ (v3 : BitVec 32) (k27_hw1 : k27_chk1 v3), ∀ a, (k27_off17 v3) a + S1x128.size a ≤ S50000x128.size a := fun v3 k27_hw1 => k27_hw1.2

def k27_off18 (v12 : BitVec 32) : Fin 2 → Nat :=
  let c0_i32_39 : BitVec 32 := 0#32
  ![v12.toNat, 0]

def k27_chk2 (v12 : BitVec 32) : Prop :=
  (∀ a, (k27_off4 v12) a + S1x128.size a ≤ S50000x128.size a) ∧
  (∀ a, (k27_off18 v12) a + S1x128.size a ≤ S50000x128.size a)
instance k27_chk2.dec : ∀ (v12 : BitVec 32), Decidable (k27_chk2 v12) := fun v12 => decidable_of_iff' _ (Iff.of_eq (k27_chk2.eq_1 v12))
theorem k27_off4_inb : ∀ (v12 : BitVec 32) (k27_hw2 : k27_chk2 v12), ∀ a, (k27_off4 v12) a + S1x128.size a ≤ S50000x128.size a := fun v12 k27_hw2 => k27_hw2.1
theorem k27_off18_inb : ∀ (v12 : BitVec 32) (k27_hw2 : k27_chk2 v12), ∀ a, (k27_off18 v12) a + S1x128.size a ≤ S50000x128.size a := fun v12 k27_hw2 => k27_hw2.2

def k27_off19 (v21 : BitVec 32) : Fin 2 → Nat :=
  let c0_i32_43 : BitVec 32 := 0#32
  ![v21.toNat, 0]

def k27_chk3 (v21 : BitVec 32) : Prop :=
  (∀ a, (k27_off6 v21) a + S1x128.size a ≤ S50000x128.size a) ∧
  (∀ a, (k27_off19 v21) a + S1x128.size a ≤ S50000x128.size a)
instance k27_chk3.dec : ∀ (v21 : BitVec 32), Decidable (k27_chk3 v21) := fun v21 => decidable_of_iff' _ (Iff.of_eq (k27_chk3.eq_1 v21))
theorem k27_off6_inb : ∀ (v21 : BitVec 32) (k27_hw3 : k27_chk3 v21), ∀ a, (k27_off6 v21) a + S1x128.size a ≤ S50000x128.size a := fun v21 k27_hw3 => k27_hw3.1
theorem k27_off19_inb : ∀ (v21 : BitVec 32) (k27_hw3 : k27_chk3 v21), ∀ a, (k27_off19 v21) a + S1x128.size a ≤ S50000x128.size a := fun v21 k27_hw3 => k27_hw3.2

def k27_off20 (v30 : BitVec 32) : Fin 2 → Nat :=
  let c0_i32_47 : BitVec 32 := 0#32
  ![v30.toNat, 0]

def k27_chk4 (v30 : BitVec 32) : Prop :=
  (∀ a, (k27_off8 v30) a + S1x128.size a ≤ S50000x128.size a) ∧
  (∀ a, (k27_off20 v30) a + S1x128.size a ≤ S50000x128.size a)
instance k27_chk4.dec : ∀ (v30 : BitVec 32), Decidable (k27_chk4 v30) := fun v30 => decidable_of_iff' _ (Iff.of_eq (k27_chk4.eq_1 v30))
theorem k27_off8_inb : ∀ (v30 : BitVec 32) (k27_hw4 : k27_chk4 v30), ∀ a, (k27_off8 v30) a + S1x128.size a ≤ S50000x128.size a := fun v30 k27_hw4 => k27_hw4.1
theorem k27_off20_inb : ∀ (v30 : BitVec 32) (k27_hw4 : k27_chk4 v30), ∀ a, (k27_off20 v30) a + S1x128.size a ≤ S50000x128.size a := fun v30 k27_hw4 => k27_hw4.2

def k27_off21 (v39 : BitVec 32) : Fin 2 → Nat :=
  let c0_i32_51 : BitVec 32 := 0#32
  ![v39.toNat, 0]

def k27_chk5 (v39 : BitVec 32) : Prop :=
  (∀ a, (k27_off10 v39) a + S1x128.size a ≤ S50000x128.size a) ∧
  (∀ a, (k27_off21 v39) a + S1x128.size a ≤ S50000x128.size a)
instance k27_chk5.dec : ∀ (v39 : BitVec 32), Decidable (k27_chk5 v39) := fun v39 => decidable_of_iff' _ (Iff.of_eq (k27_chk5.eq_1 v39))
theorem k27_off10_inb : ∀ (v39 : BitVec 32) (k27_hw5 : k27_chk5 v39), ∀ a, (k27_off10 v39) a + S1x128.size a ≤ S50000x128.size a := fun v39 k27_hw5 => k27_hw5.1
theorem k27_off21_inb : ∀ (v39 : BitVec 32) (k27_hw5 : k27_chk5 v39), ∀ a, (k27_off21 v39) a + S1x128.size a ≤ S50000x128.size a := fun v39 k27_hw5 => k27_hw5.2

def k27_off22 (v48 : BitVec 32) : Fin 2 → Nat :=
  let c0_i32_55 : BitVec 32 := 0#32
  ![v48.toNat, 0]

def k27_chk6 (v48 : BitVec 32) : Prop :=
  (∀ a, (k27_off12 v48) a + S1x128.size a ≤ S50000x128.size a) ∧
  (∀ a, (k27_off22 v48) a + S1x128.size a ≤ S50000x128.size a)
instance k27_chk6.dec : ∀ (v48 : BitVec 32), Decidable (k27_chk6 v48) := fun v48 => decidable_of_iff' _ (Iff.of_eq (k27_chk6.eq_1 v48))
theorem k27_off12_inb : ∀ (v48 : BitVec 32) (k27_hw6 : k27_chk6 v48), ∀ a, (k27_off12 v48) a + S1x128.size a ≤ S50000x128.size a := fun v48 k27_hw6 => k27_hw6.1
theorem k27_off22_inb : ∀ (v48 : BitVec 32) (k27_hw6 : k27_chk6 v48), ∀ a, (k27_off22 v48) a + S1x128.size a ≤ S50000x128.size a := fun v48 k27_hw6 => k27_hw6.2

def k27_off23 (v57 : BitVec 32) : Fin 2 → Nat :=
  let c0_i32_59 : BitVec 32 := 0#32
  ![v57.toNat, 0]

def k27_chk7 (v57 : BitVec 32) : Prop :=
  (∀ a, (k27_off14 v57) a + S1x128.size a ≤ S50000x128.size a) ∧
  (∀ a, (k27_off23 v57) a + S1x128.size a ≤ S50000x128.size a)
instance k27_chk7.dec : ∀ (v57 : BitVec 32), Decidable (k27_chk7 v57) := fun v57 => decidable_of_iff' _ (Iff.of_eq (k27_chk7.eq_1 v57))
theorem k27_off14_inb : ∀ (v57 : BitVec 32) (k27_hw7 : k27_chk7 v57), ∀ a, (k27_off14 v57) a + S1x128.size a ≤ S50000x128.size a := fun v57 k27_hw7 => k27_hw7.1
theorem k27_off23_inb : ∀ (v57 : BitVec 32) (k27_hw7 : k27_chk7 v57), ∀ a, (k27_off23 v57) a + S1x128.size a ≤ S50000x128.size a := fun v57 k27_hw7 => k27_hw7.2

def cc27_transform_1 (i : grid27.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage27_0 : Fin 2 → Memref sig .tc .vmem S8x128 .f32 := fun | 0 => Memref.whole cc27_stg0_0 | 1 => Memref.whole cc27_stg0_1 | ⟨_ + 2, h⟩ => absurd h (Nat.not_lt.2 (Nat.le_add_left _ _))
abbrev sem27_0 : Fin 2 → DmaSem sig := fun | 0 => cc27_sem0_0 | 1 => cc27_sem0_1 | ⟨_ + 2, h⟩ => absurd h (Nat.not_lt.2 (Nat.le_add_left _ _))
abbrev reads27_0 : Fin grid27.rank → Bool := ![true]

abbrev grid28 : Pipeline.Grid := ⟨1, ![12500], ![false]⟩

abbrev pre28 : Pipeline.Prefetch sig := ⟨1, ![main_v100.idx], fun | 0 => main_v100.names | ⟨_ + 1, h⟩ => absurd h (Nat.not_lt.2 (Nat.le_add_left _ _)), fun | 0 => rfl | ⟨_ + 1, h⟩ => absurd h (Nat.not_lt.2 (Nat.le_add_left _ _))⟩

def k28_off1 (i : grid28.Coords) : Fin 1 → Nat :=
  let arg0 : BitVec 32 := BitVec.ofNat 32 (i 0).val
  let c8_i32 : BitVec 32 := 8#32
  let v0 : BitVec 32 := Scalar.muli arg0 c8_i32
  let c0_i32 : BitVec 32 := 0#32
  let v1 : BitVec 32 := Scalar.addi v0 c0_i32
  let v2 : Index := Scalar.indexCast v1
  ![v2.toNat]
def k28_off2 (v3 : BitVec 32) : Fin 2 → Nat :=
  let c0_i32_3 : BitVec 32 := 0#32
  ![v3.toNat, 0]

def k28_off3 (i : grid28.Coords) : Fin 1 → Nat :=
  let arg0 : BitVec 32 := BitVec.ofNat 32 (i 0).val
  let c8_i32 : BitVec 32 := 8#32
  let v0 : BitVec 32 := Scalar.muli arg0 c8_i32
  let c1_i32 : BitVec 32 := 1#32
  let v10 : BitVec 32 := Scalar.addi v0 c1_i32
  let v11 : Index := Scalar.indexCast v10
  ![v11.toNat]
def k28_off4 (v12 : BitVec 32) : Fin 2 → Nat :=
  let c0_i32_7 : BitVec 32 := 0#32
  ![v12.toNat, 0]

def k28_off5 (i : grid28.Coords) : Fin 1 → Nat :=
  let arg0 : BitVec 32 := BitVec.ofNat 32 (i 0).val
  let c8_i32 : BitVec 32 := 8#32
  let v0 : BitVec 32 := Scalar.muli arg0 c8_i32
  let c2_i32 : BitVec 32 := 2#32
  let v19 : BitVec 32 := Scalar.addi v0 c2_i32
  let v20 : Index := Scalar.indexCast v19
  ![v20.toNat]
def k28_off6 (v21 : BitVec 32) : Fin 2 → Nat :=
  let c0_i32_11 : BitVec 32 := 0#32
  ![v21.toNat, 0]

def k28_off7 (i : grid28.Coords) : Fin 1 → Nat :=
  let arg0 : BitVec 32 := BitVec.ofNat 32 (i 0).val
  let c8_i32 : BitVec 32 := 8#32
  let v0 : BitVec 32 := Scalar.muli arg0 c8_i32
  let c3_i32 : BitVec 32 := 3#32
  let v28 : BitVec 32 := Scalar.addi v0 c3_i32
  let v29 : Index := Scalar.indexCast v28
  ![v29.toNat]
def k28_off8 (v30 : BitVec 32) : Fin 2 → Nat :=
  let c0_i32_15 : BitVec 32 := 0#32
  ![v30.toNat, 0]

def k28_off9 (i : grid28.Coords) : Fin 1 → Nat :=
  let arg0 : BitVec 32 := BitVec.ofNat 32 (i 0).val
  let c8_i32 : BitVec 32 := 8#32
  let v0 : BitVec 32 := Scalar.muli arg0 c8_i32
  let c4_i32 : BitVec 32 := 4#32
  let v37 : BitVec 32 := Scalar.addi v0 c4_i32
  let v38 : Index := Scalar.indexCast v37
  ![v38.toNat]
def k28_off10 (v39 : BitVec 32) : Fin 2 → Nat :=
  let c0_i32_19 : BitVec 32 := 0#32
  ![v39.toNat, 0]

def k28_off11 (i : grid28.Coords) : Fin 1 → Nat :=
  let arg0 : BitVec 32 := BitVec.ofNat 32 (i 0).val
  let c8_i32 : BitVec 32 := 8#32
  let v0 : BitVec 32 := Scalar.muli arg0 c8_i32
  let c5_i32 : BitVec 32 := 5#32
  let v46 : BitVec 32 := Scalar.addi v0 c5_i32
  let v47 : Index := Scalar.indexCast v46
  ![v47.toNat]
def k28_off12 (v48 : BitVec 32) : Fin 2 → Nat :=
  let c0_i32_23 : BitVec 32 := 0#32
  ![v48.toNat, 0]

def k28_off13 (i : grid28.Coords) : Fin 1 → Nat :=
  let arg0 : BitVec 32 := BitVec.ofNat 32 (i 0).val
  let c8_i32 : BitVec 32 := 8#32
  let v0 : BitVec 32 := Scalar.muli arg0 c8_i32
  let c6_i32 : BitVec 32 := 6#32
  let v55 : BitVec 32 := Scalar.addi v0 c6_i32
  let v56 : Index := Scalar.indexCast v55
  ![v56.toNat]
def k28_off14 (v57 : BitVec 32) : Fin 2 → Nat :=
  let c0_i32_27 : BitVec 32 := 0#32
  ![v57.toNat, 0]

def k28_off15 (i : grid28.Coords) : Fin 1 → Nat :=
  let arg0 : BitVec 32 := BitVec.ofNat 32 (i 0).val
  let c8_i32 : BitVec 32 := 8#32
  let v0 : BitVec 32 := Scalar.muli arg0 c8_i32
  let c7_i32 : BitVec 32 := 7#32
  let v64 : BitVec 32 := Scalar.addi v0 c7_i32
  let v65 : Index := Scalar.indexCast v64
  ![v65.toNat]
def k28_off16 (v66 : BitVec 32) : Fin 2 → Nat :=
  let c0_i32_31 : BitVec 32 := 0#32
  ![v66.toNat, 0]

def k28_chk8 (v66 : BitVec 32) : Prop :=
  (∀ a, (k28_off16 v66) a + S1x128.size a ≤ S50000x128.size a)
instance k28_chk8.dec : ∀ (v66 : BitVec 32), Decidable (k28_chk8 v66) := fun v66 => decidable_of_iff' _ (Iff.of_eq (k28_chk8.eq_1 v66))
theorem k28_off16_inb : ∀ (v66 : BitVec 32) (k28_hw8 : k28_chk8 v66), ∀ a, (k28_off16 v66) a + S1x128.size a ≤ S50000x128.size a := fun v66 k28_hw8 => k28_hw8

def k28_off17 (v3 : BitVec 32) : Fin 2 → Nat :=
  let c0_i32_35 : BitVec 32 := 0#32
  ![v3.toNat, 0]

def k28_chk1 (v3 : BitVec 32) : Prop :=
  (∀ a, (k28_off2 v3) a + S1x128.size a ≤ S50000x128.size a) ∧
  (∀ a, (k28_off17 v3) a + S1x128.size a ≤ S50000x128.size a)
instance k28_chk1.dec : ∀ (v3 : BitVec 32), Decidable (k28_chk1 v3) := fun v3 => decidable_of_iff' _ (Iff.of_eq (k28_chk1.eq_1 v3))
theorem k28_off2_inb : ∀ (v3 : BitVec 32) (k28_hw1 : k28_chk1 v3), ∀ a, (k28_off2 v3) a + S1x128.size a ≤ S50000x128.size a := fun v3 k28_hw1 => k28_hw1.1
theorem k28_off17_inb : ∀ (v3 : BitVec 32) (k28_hw1 : k28_chk1 v3), ∀ a, (k28_off17 v3) a + S1x128.size a ≤ S50000x128.size a := fun v3 k28_hw1 => k28_hw1.2

def k28_off18 (v12 : BitVec 32) : Fin 2 → Nat :=
  let c0_i32_39 : BitVec 32 := 0#32
  ![v12.toNat, 0]

def k28_chk2 (v12 : BitVec 32) : Prop :=
  (∀ a, (k28_off4 v12) a + S1x128.size a ≤ S50000x128.size a) ∧
  (∀ a, (k28_off18 v12) a + S1x128.size a ≤ S50000x128.size a)
instance k28_chk2.dec : ∀ (v12 : BitVec 32), Decidable (k28_chk2 v12) := fun v12 => decidable_of_iff' _ (Iff.of_eq (k28_chk2.eq_1 v12))
theorem k28_off4_inb : ∀ (v12 : BitVec 32) (k28_hw2 : k28_chk2 v12), ∀ a, (k28_off4 v12) a + S1x128.size a ≤ S50000x128.size a := fun v12 k28_hw2 => k28_hw2.1
theorem k28_off18_inb : ∀ (v12 : BitVec 32) (k28_hw2 : k28_chk2 v12), ∀ a, (k28_off18 v12) a + S1x128.size a ≤ S50000x128.size a := fun v12 k28_hw2 => k28_hw2.2

def k28_off19 (v21 : BitVec 32) : Fin 2 → Nat :=
  let c0_i32_43 : BitVec 32 := 0#32
  ![v21.toNat, 0]

def k28_chk3 (v21 : BitVec 32) : Prop :=
  (∀ a, (k28_off6 v21) a + S1x128.size a ≤ S50000x128.size a) ∧
  (∀ a, (k28_off19 v21) a + S1x128.size a ≤ S50000x128.size a)
instance k28_chk3.dec : ∀ (v21 : BitVec 32), Decidable (k28_chk3 v21) := fun v21 => decidable_of_iff' _ (Iff.of_eq (k28_chk3.eq_1 v21))
theorem k28_off6_inb : ∀ (v21 : BitVec 32) (k28_hw3 : k28_chk3 v21), ∀ a, (k28_off6 v21) a + S1x128.size a ≤ S50000x128.size a := fun v21 k28_hw3 => k28_hw3.1
theorem k28_off19_inb : ∀ (v21 : BitVec 32) (k28_hw3 : k28_chk3 v21), ∀ a, (k28_off19 v21) a + S1x128.size a ≤ S50000x128.size a := fun v21 k28_hw3 => k28_hw3.2

def k28_off20 (v30 : BitVec 32) : Fin 2 → Nat :=
  let c0_i32_47 : BitVec 32 := 0#32
  ![v30.toNat, 0]

def k28_chk4 (v30 : BitVec 32) : Prop :=
  (∀ a, (k28_off8 v30) a + S1x128.size a ≤ S50000x128.size a) ∧
  (∀ a, (k28_off20 v30) a + S1x128.size a ≤ S50000x128.size a)
instance k28_chk4.dec : ∀ (v30 : BitVec 32), Decidable (k28_chk4 v30) := fun v30 => decidable_of_iff' _ (Iff.of_eq (k28_chk4.eq_1 v30))
theorem k28_off8_inb : ∀ (v30 : BitVec 32) (k28_hw4 : k28_chk4 v30), ∀ a, (k28_off8 v30) a + S1x128.size a ≤ S50000x128.size a := fun v30 k28_hw4 => k28_hw4.1
theorem k28_off20_inb : ∀ (v30 : BitVec 32) (k28_hw4 : k28_chk4 v30), ∀ a, (k28_off20 v30) a + S1x128.size a ≤ S50000x128.size a := fun v30 k28_hw4 => k28_hw4.2

def k28_off21 (v39 : BitVec 32) : Fin 2 → Nat :=
  let c0_i32_51 : BitVec 32 := 0#32
  ![v39.toNat, 0]

def k28_chk5 (v39 : BitVec 32) : Prop :=
  (∀ a, (k28_off10 v39) a + S1x128.size a ≤ S50000x128.size a) ∧
  (∀ a, (k28_off21 v39) a + S1x128.size a ≤ S50000x128.size a)
instance k28_chk5.dec : ∀ (v39 : BitVec 32), Decidable (k28_chk5 v39) := fun v39 => decidable_of_iff' _ (Iff.of_eq (k28_chk5.eq_1 v39))
theorem k28_off10_inb : ∀ (v39 : BitVec 32) (k28_hw5 : k28_chk5 v39), ∀ a, (k28_off10 v39) a + S1x128.size a ≤ S50000x128.size a := fun v39 k28_hw5 => k28_hw5.1
theorem k28_off21_inb : ∀ (v39 : BitVec 32) (k28_hw5 : k28_chk5 v39), ∀ a, (k28_off21 v39) a + S1x128.size a ≤ S50000x128.size a := fun v39 k28_hw5 => k28_hw5.2

def k28_off22 (v48 : BitVec 32) : Fin 2 → Nat :=
  let c0_i32_55 : BitVec 32 := 0#32
  ![v48.toNat, 0]

def k28_chk6 (v48 : BitVec 32) : Prop :=
  (∀ a, (k28_off12 v48) a + S1x128.size a ≤ S50000x128.size a) ∧
  (∀ a, (k28_off22 v48) a + S1x128.size a ≤ S50000x128.size a)
instance k28_chk6.dec : ∀ (v48 : BitVec 32), Decidable (k28_chk6 v48) := fun v48 => decidable_of_iff' _ (Iff.of_eq (k28_chk6.eq_1 v48))
theorem k28_off12_inb : ∀ (v48 : BitVec 32) (k28_hw6 : k28_chk6 v48), ∀ a, (k28_off12 v48) a + S1x128.size a ≤ S50000x128.size a := fun v48 k28_hw6 => k28_hw6.1
theorem k28_off22_inb : ∀ (v48 : BitVec 32) (k28_hw6 : k28_chk6 v48), ∀ a, (k28_off22 v48) a + S1x128.size a ≤ S50000x128.size a := fun v48 k28_hw6 => k28_hw6.2

def k28_off23 (v57 : BitVec 32) : Fin 2 → Nat :=
  let c0_i32_59 : BitVec 32 := 0#32
  ![v57.toNat, 0]

def k28_chk7 (v57 : BitVec 32) : Prop :=
  (∀ a, (k28_off14 v57) a + S1x128.size a ≤ S50000x128.size a) ∧
  (∀ a, (k28_off23 v57) a + S1x128.size a ≤ S50000x128.size a)
instance k28_chk7.dec : ∀ (v57 : BitVec 32), Decidable (k28_chk7 v57) := fun v57 => decidable_of_iff' _ (Iff.of_eq (k28_chk7.eq_1 v57))
theorem k28_off14_inb : ∀ (v57 : BitVec 32) (k28_hw7 : k28_chk7 v57), ∀ a, (k28_off14 v57) a + S1x128.size a ≤ S50000x128.size a := fun v57 k28_hw7 => k28_hw7.1
theorem k28_off23_inb : ∀ (v57 : BitVec 32) (k28_hw7 : k28_chk7 v57), ∀ a, (k28_off23 v57) a + S1x128.size a ≤ S50000x128.size a := fun v57 k28_hw7 => k28_hw7.2

def cc28_transform_1 (i : grid28.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage28_0 : Fin 2 → Memref sig .tc .vmem S8x128 .f32 := fun | 0 => Memref.whole cc28_stg0_0 | 1 => Memref.whole cc28_stg0_1 | ⟨_ + 2, h⟩ => absurd h (Nat.not_lt.2 (Nat.le_add_left _ _))
abbrev sem28_0 : Fin 2 → DmaSem sig := fun | 0 => cc28_sem0_0 | 1 => cc28_sem0_1 | ⟨_ + 2, h⟩ => absurd h (Nat.not_lt.2 (Nat.le_add_left _ _))
abbrev reads28_0 : Fin grid28.rank → Bool := ![true]

abbrev grid29 : Pipeline.Grid := ⟨1, ![12500], ![false]⟩

abbrev pre29 : Pipeline.Prefetch sig := ⟨1, ![main_v102.idx], fun | 0 => main_v102.names | ⟨_ + 1, h⟩ => absurd h (Nat.not_lt.2 (Nat.le_add_left _ _)), fun | 0 => rfl | ⟨_ + 1, h⟩ => absurd h (Nat.not_lt.2 (Nat.le_add_left _ _))⟩

def k29_off1 (i : grid29.Coords) : Fin 1 → Nat :=
  let arg0 : BitVec 32 := BitVec.ofNat 32 (i 0).val
  let c8_i32 : BitVec 32 := 8#32
  let v0 : BitVec 32 := Scalar.muli arg0 c8_i32
  let c0_i32 : BitVec 32 := 0#32
  let v1 : BitVec 32 := Scalar.addi v0 c0_i32
  let v2 : Index := Scalar.indexCast v1
  ![v2.toNat]
def k29_off2 (v3 : BitVec 32) : Fin 2 → Nat :=
  let c0_i32_3 : BitVec 32 := 0#32
  ![v3.toNat, 0]

def k29_off3 (i : grid29.Coords) : Fin 1 → Nat :=
  let arg0 : BitVec 32 := BitVec.ofNat 32 (i 0).val
  let c8_i32 : BitVec 32 := 8#32
  let v0 : BitVec 32 := Scalar.muli arg0 c8_i32
  let c1_i32 : BitVec 32 := 1#32
  let v10 : BitVec 32 := Scalar.addi v0 c1_i32
  let v11 : Index := Scalar.indexCast v10
  ![v11.toNat]
def k29_off4 (v12 : BitVec 32) : Fin 2 → Nat :=
  let c0_i32_7 : BitVec 32 := 0#32
  ![v12.toNat, 0]

def k29_off5 (i : grid29.Coords) : Fin 1 → Nat :=
  let arg0 : BitVec 32 := BitVec.ofNat 32 (i 0).val
  let c8_i32 : BitVec 32 := 8#32
  let v0 : BitVec 32 := Scalar.muli arg0 c8_i32
  let c2_i32 : BitVec 32 := 2#32
  let v19 : BitVec 32 := Scalar.addi v0 c2_i32
  let v20 : Index := Scalar.indexCast v19
  ![v20.toNat]
def k29_off6 (v21 : BitVec 32) : Fin 2 → Nat :=
  let c0_i32_11 : BitVec 32 := 0#32
  ![v21.toNat, 0]

def k29_off7 (i : grid29.Coords) : Fin 1 → Nat :=
  let arg0 : BitVec 32 := BitVec.ofNat 32 (i 0).val
  let c8_i32 : BitVec 32 := 8#32
  let v0 : BitVec 32 := Scalar.muli arg0 c8_i32
  let c3_i32 : BitVec 32 := 3#32
  let v28 : BitVec 32 := Scalar.addi v0 c3_i32
  let v29 : Index := Scalar.indexCast v28
  ![v29.toNat]
def k29_off8 (v30 : BitVec 32) : Fin 2 → Nat :=
  let c0_i32_15 : BitVec 32 := 0#32
  ![v30.toNat, 0]

def k29_off9 (i : grid29.Coords) : Fin 1 → Nat :=
  let arg0 : BitVec 32 := BitVec.ofNat 32 (i 0).val
  let c8_i32 : BitVec 32 := 8#32
  let v0 : BitVec 32 := Scalar.muli arg0 c8_i32
  let c4_i32 : BitVec 32 := 4#32
  let v37 : BitVec 32 := Scalar.addi v0 c4_i32
  let v38 : Index := Scalar.indexCast v37
  ![v38.toNat]
def k29_off10 (v39 : BitVec 32) : Fin 2 → Nat :=
  let c0_i32_19 : BitVec 32 := 0#32
  ![v39.toNat, 0]

def k29_off11 (i : grid29.Coords) : Fin 1 → Nat :=
  let arg0 : BitVec 32 := BitVec.ofNat 32 (i 0).val
  let c8_i32 : BitVec 32 := 8#32
  let v0 : BitVec 32 := Scalar.muli arg0 c8_i32
  let c5_i32 : BitVec 32 := 5#32
  let v46 : BitVec 32 := Scalar.addi v0 c5_i32
  let v47 : Index := Scalar.indexCast v46
  ![v47.toNat]
def k29_off12 (v48 : BitVec 32) : Fin 2 → Nat :=
  let c0_i32_23 : BitVec 32 := 0#32
  ![v48.toNat, 0]

def k29_off13 (i : grid29.Coords) : Fin 1 → Nat :=
  let arg0 : BitVec 32 := BitVec.ofNat 32 (i 0).val
  let c8_i32 : BitVec 32 := 8#32
  let v0 : BitVec 32 := Scalar.muli arg0 c8_i32
  let c6_i32 : BitVec 32 := 6#32
  let v55 : BitVec 32 := Scalar.addi v0 c6_i32
  let v56 : Index := Scalar.indexCast v55
  ![v56.toNat]
def k29_off14 (v57 : BitVec 32) : Fin 2 → Nat :=
  let c0_i32_27 : BitVec 32 := 0#32
  ![v57.toNat, 0]

def k29_off15 (i : grid29.Coords) : Fin 1 → Nat :=
  let arg0 : BitVec 32 := BitVec.ofNat 32 (i 0).val
  let c8_i32 : BitVec 32 := 8#32
  let v0 : BitVec 32 := Scalar.muli arg0 c8_i32
  let c7_i32 : BitVec 32 := 7#32
  let v64 : BitVec 32 := Scalar.addi v0 c7_i32
  let v65 : Index := Scalar.indexCast v64
  ![v65.toNat]
def k29_off16 (v66 : BitVec 32) : Fin 2 → Nat :=
  let c0_i32_31 : BitVec 32 := 0#32
  ![v66.toNat, 0]

def k29_chk8 (v66 : BitVec 32) : Prop :=
  (∀ a, (k29_off16 v66) a + S1x128.size a ≤ S50000x128.size a)
instance k29_chk8.dec : ∀ (v66 : BitVec 32), Decidable (k29_chk8 v66) := fun v66 => decidable_of_iff' _ (Iff.of_eq (k29_chk8.eq_1 v66))
theorem k29_off16_inb : ∀ (v66 : BitVec 32) (k29_hw8 : k29_chk8 v66), ∀ a, (k29_off16 v66) a + S1x128.size a ≤ S50000x128.size a := fun v66 k29_hw8 => k29_hw8

def k29_off17 (v3 : BitVec 32) : Fin 2 → Nat :=
  let c0_i32_35 : BitVec 32 := 0#32
  ![v3.toNat, 0]

def k29_chk1 (v3 : BitVec 32) : Prop :=
  (∀ a, (k29_off2 v3) a + S1x128.size a ≤ S50000x128.size a) ∧
  (∀ a, (k29_off17 v3) a + S1x128.size a ≤ S50000x128.size a)
instance k29_chk1.dec : ∀ (v3 : BitVec 32), Decidable (k29_chk1 v3) := fun v3 => decidable_of_iff' _ (Iff.of_eq (k29_chk1.eq_1 v3))
theorem k29_off2_inb : ∀ (v3 : BitVec 32) (k29_hw1 : k29_chk1 v3), ∀ a, (k29_off2 v3) a + S1x128.size a ≤ S50000x128.size a := fun v3 k29_hw1 => k29_hw1.1
theorem k29_off17_inb : ∀ (v3 : BitVec 32) (k29_hw1 : k29_chk1 v3), ∀ a, (k29_off17 v3) a + S1x128.size a ≤ S50000x128.size a := fun v3 k29_hw1 => k29_hw1.2

def k29_off18 (v12 : BitVec 32) : Fin 2 → Nat :=
  let c0_i32_39 : BitVec 32 := 0#32
  ![v12.toNat, 0]

def k29_chk2 (v12 : BitVec 32) : Prop :=
  (∀ a, (k29_off4 v12) a + S1x128.size a ≤ S50000x128.size a) ∧
  (∀ a, (k29_off18 v12) a + S1x128.size a ≤ S50000x128.size a)
instance k29_chk2.dec : ∀ (v12 : BitVec 32), Decidable (k29_chk2 v12) := fun v12 => decidable_of_iff' _ (Iff.of_eq (k29_chk2.eq_1 v12))
theorem k29_off4_inb : ∀ (v12 : BitVec 32) (k29_hw2 : k29_chk2 v12), ∀ a, (k29_off4 v12) a + S1x128.size a ≤ S50000x128.size a := fun v12 k29_hw2 => k29_hw2.1
theorem k29_off18_inb : ∀ (v12 : BitVec 32) (k29_hw2 : k29_chk2 v12), ∀ a, (k29_off18 v12) a + S1x128.size a ≤ S50000x128.size a := fun v12 k29_hw2 => k29_hw2.2

def k29_off19 (v21 : BitVec 32) : Fin 2 → Nat :=
  let c0_i32_43 : BitVec 32 := 0#32
  ![v21.toNat, 0]

def k29_chk3 (v21 : BitVec 32) : Prop :=
  (∀ a, (k29_off6 v21) a + S1x128.size a ≤ S50000x128.size a) ∧
  (∀ a, (k29_off19 v21) a + S1x128.size a ≤ S50000x128.size a)
instance k29_chk3.dec : ∀ (v21 : BitVec 32), Decidable (k29_chk3 v21) := fun v21 => decidable_of_iff' _ (Iff.of_eq (k29_chk3.eq_1 v21))
theorem k29_off6_inb : ∀ (v21 : BitVec 32) (k29_hw3 : k29_chk3 v21), ∀ a, (k29_off6 v21) a + S1x128.size a ≤ S50000x128.size a := fun v21 k29_hw3 => k29_hw3.1
theorem k29_off19_inb : ∀ (v21 : BitVec 32) (k29_hw3 : k29_chk3 v21), ∀ a, (k29_off19 v21) a + S1x128.size a ≤ S50000x128.size a := fun v21 k29_hw3 => k29_hw3.2

def k29_off20 (v30 : BitVec 32) : Fin 2 → Nat :=
  let c0_i32_47 : BitVec 32 := 0#32
  ![v30.toNat, 0]

def k29_chk4 (v30 : BitVec 32) : Prop :=
  (∀ a, (k29_off8 v30) a + S1x128.size a ≤ S50000x128.size a) ∧
  (∀ a, (k29_off20 v30) a + S1x128.size a ≤ S50000x128.size a)
instance k29_chk4.dec : ∀ (v30 : BitVec 32), Decidable (k29_chk4 v30) := fun v30 => decidable_of_iff' _ (Iff.of_eq (k29_chk4.eq_1 v30))
theorem k29_off8_inb : ∀ (v30 : BitVec 32) (k29_hw4 : k29_chk4 v30), ∀ a, (k29_off8 v30) a + S1x128.size a ≤ S50000x128.size a := fun v30 k29_hw4 => k29_hw4.1
theorem k29_off20_inb : ∀ (v30 : BitVec 32) (k29_hw4 : k29_chk4 v30), ∀ a, (k29_off20 v30) a + S1x128.size a ≤ S50000x128.size a := fun v30 k29_hw4 => k29_hw4.2

def k29_off21 (v39 : BitVec 32) : Fin 2 → Nat :=
  let c0_i32_51 : BitVec 32 := 0#32
  ![v39.toNat, 0]

def k29_chk5 (v39 : BitVec 32) : Prop :=
  (∀ a, (k29_off10 v39) a + S1x128.size a ≤ S50000x128.size a) ∧
  (∀ a, (k29_off21 v39) a + S1x128.size a ≤ S50000x128.size a)
instance k29_chk5.dec : ∀ (v39 : BitVec 32), Decidable (k29_chk5 v39) := fun v39 => decidable_of_iff' _ (Iff.of_eq (k29_chk5.eq_1 v39))
theorem k29_off10_inb : ∀ (v39 : BitVec 32) (k29_hw5 : k29_chk5 v39), ∀ a, (k29_off10 v39) a + S1x128.size a ≤ S50000x128.size a := fun v39 k29_hw5 => k29_hw5.1
theorem k29_off21_inb : ∀ (v39 : BitVec 32) (k29_hw5 : k29_chk5 v39), ∀ a, (k29_off21 v39) a + S1x128.size a ≤ S50000x128.size a := fun v39 k29_hw5 => k29_hw5.2

def k29_off22 (v48 : BitVec 32) : Fin 2 → Nat :=
  let c0_i32_55 : BitVec 32 := 0#32
  ![v48.toNat, 0]

def k29_chk6 (v48 : BitVec 32) : Prop :=
  (∀ a, (k29_off12 v48) a + S1x128.size a ≤ S50000x128.size a) ∧
  (∀ a, (k29_off22 v48) a + S1x128.size a ≤ S50000x128.size a)
instance k29_chk6.dec : ∀ (v48 : BitVec 32), Decidable (k29_chk6 v48) := fun v48 => decidable_of_iff' _ (Iff.of_eq (k29_chk6.eq_1 v48))
theorem k29_off12_inb : ∀ (v48 : BitVec 32) (k29_hw6 : k29_chk6 v48), ∀ a, (k29_off12 v48) a + S1x128.size a ≤ S50000x128.size a := fun v48 k29_hw6 => k29_hw6.1
theorem k29_off22_inb : ∀ (v48 : BitVec 32) (k29_hw6 : k29_chk6 v48), ∀ a, (k29_off22 v48) a + S1x128.size a ≤ S50000x128.size a := fun v48 k29_hw6 => k29_hw6.2

def k29_off23 (v57 : BitVec 32) : Fin 2 → Nat :=
  let c0_i32_59 : BitVec 32 := 0#32
  ![v57.toNat, 0]

def k29_chk7 (v57 : BitVec 32) : Prop :=
  (∀ a, (k29_off14 v57) a + S1x128.size a ≤ S50000x128.size a) ∧
  (∀ a, (k29_off23 v57) a + S1x128.size a ≤ S50000x128.size a)
instance k29_chk7.dec : ∀ (v57 : BitVec 32), Decidable (k29_chk7 v57) := fun v57 => decidable_of_iff' _ (Iff.of_eq (k29_chk7.eq_1 v57))
theorem k29_off14_inb : ∀ (v57 : BitVec 32) (k29_hw7 : k29_chk7 v57), ∀ a, (k29_off14 v57) a + S1x128.size a ≤ S50000x128.size a := fun v57 k29_hw7 => k29_hw7.1
theorem k29_off23_inb : ∀ (v57 : BitVec 32) (k29_hw7 : k29_chk7 v57), ∀ a, (k29_off23 v57) a + S1x128.size a ≤ S50000x128.size a := fun v57 k29_hw7 => k29_hw7.2

def cc29_transform_1 (i : grid29.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage29_0 : Fin 2 → Memref sig .tc .vmem S8x128 .f32 := fun | 0 => Memref.whole cc29_stg0_0 | 1 => Memref.whole cc29_stg0_1 | ⟨_ + 2, h⟩ => absurd h (Nat.not_lt.2 (Nat.le_add_left _ _))
abbrev sem29_0 : Fin 2 → DmaSem sig := fun | 0 => cc29_sem0_0 | 1 => cc29_sem0_1 | ⟨_ + 2, h⟩ => absurd h (Nat.not_lt.2 (Nat.le_add_left _ _))
abbrev reads29_0 : Fin grid29.rank → Bool := ![true]

abbrev grid30 : Pipeline.Grid := ⟨1, ![12500], ![false]⟩

abbrev pre30 : Pipeline.Prefetch sig := ⟨1, ![main_v104.idx], fun | 0 => main_v104.names | ⟨_ + 1, h⟩ => absurd h (Nat.not_lt.2 (Nat.le_add_left _ _)), fun | 0 => rfl | ⟨_ + 1, h⟩ => absurd h (Nat.not_lt.2 (Nat.le_add_left _ _))⟩

def k30_off1 (i : grid30.Coords) : Fin 1 → Nat :=
  let arg0 : BitVec 32 := BitVec.ofNat 32 (i 0).val
  let c8_i32 : BitVec 32 := 8#32
  let v0 : BitVec 32 := Scalar.muli arg0 c8_i32
  let c0_i32 : BitVec 32 := 0#32
  let v1 : BitVec 32 := Scalar.addi v0 c0_i32
  let v2 : Index := Scalar.indexCast v1
  ![v2.toNat]
def k30_off2 (v3 : BitVec 32) : Fin 2 → Nat :=
  let c0_i32_3 : BitVec 32 := 0#32
  ![v3.toNat, 0]

def k30_off3 (i : grid30.Coords) : Fin 1 → Nat :=
  let arg0 : BitVec 32 := BitVec.ofNat 32 (i 0).val
  let c8_i32 : BitVec 32 := 8#32
  let v0 : BitVec 32 := Scalar.muli arg0 c8_i32
  let c1_i32 : BitVec 32 := 1#32
  let v10 : BitVec 32 := Scalar.addi v0 c1_i32
  let v11 : Index := Scalar.indexCast v10
  ![v11.toNat]
def k30_off4 (v12 : BitVec 32) : Fin 2 → Nat :=
  let c0_i32_7 : BitVec 32 := 0#32
  ![v12.toNat, 0]

def k30_off5 (i : grid30.Coords) : Fin 1 → Nat :=
  let arg0 : BitVec 32 := BitVec.ofNat 32 (i 0).val
  let c8_i32 : BitVec 32 := 8#32
  let v0 : BitVec 32 := Scalar.muli arg0 c8_i32
  let c2_i32 : BitVec 32 := 2#32
  let v19 : BitVec 32 := Scalar.addi v0 c2_i32
  let v20 : Index := Scalar.indexCast v19
  ![v20.toNat]
def k30_off6 (v21 : BitVec 32) : Fin 2 → Nat :=
  let c0_i32_11 : BitVec 32 := 0#32
  ![v21.toNat, 0]

def k30_off7 (i : grid30.Coords) : Fin 1 → Nat :=
  let arg0 : BitVec 32 := BitVec.ofNat 32 (i 0).val
  let c8_i32 : BitVec 32 := 8#32
  let v0 : BitVec 32 := Scalar.muli arg0 c8_i32
  let c3_i32 : BitVec 32 := 3#32
  let v28 : BitVec 32 := Scalar.addi v0 c3_i32
  let v29 : Index := Scalar.indexCast v28
  ![v29.toNat]
def k30_off8 (v30 : BitVec 32) : Fin 2 → Nat :=
  let c0_i32_15 : BitVec 32 := 0#32
  ![v30.toNat, 0]

def k30_off9 (i : grid30.Coords) : Fin 1 → Nat :=
  let arg0 : BitVec 32 := BitVec.ofNat 32 (i 0).val
  let c8_i32 : BitVec 32 := 8#32
  let v0 : BitVec 32 := Scalar.muli arg0 c8_i32
  let c4_i32 : BitVec 32 := 4#32
  let v37 : BitVec 32 := Scalar.addi v0 c4_i32
  let v38 : Index := Scalar.indexCast v37
  ![v38.toNat]
def k30_off10 (v39 : BitVec 32) : Fin 2 → Nat :=
  let c0_i32_19 : BitVec 32 := 0#32
  ![v39.toNat, 0]

def k30_off11 (i : grid30.Coords) : Fin 1 → Nat :=
  let arg0 : BitVec 32 := BitVec.ofNat 32 (i 0).val
  let c8_i32 : BitVec 32 := 8#32
  let v0 : BitVec 32 := Scalar.muli arg0 c8_i32
  let c5_i32 : BitVec 32 := 5#32
  let v46 : BitVec 32 := Scalar.addi v0 c5_i32
  let v47 : Index := Scalar.indexCast v46
  ![v47.toNat]
def k30_off12 (v48 : BitVec 32) : Fin 2 → Nat :=
  let c0_i32_23 : BitVec 32 := 0#32
  ![v48.toNat, 0]

def k30_off13 (i : grid30.Coords) : Fin 1 → Nat :=
  let arg0 : BitVec 32 := BitVec.ofNat 32 (i 0).val
  let c8_i32 : BitVec 32 := 8#32
  let v0 : BitVec 32 := Scalar.muli arg0 c8_i32
  let c6_i32 : BitVec 32 := 6#32
  let v55 : BitVec 32 := Scalar.addi v0 c6_i32
  let v56 : Index := Scalar.indexCast v55
  ![v56.toNat]
def k30_off14 (v57 : BitVec 32) : Fin 2 → Nat :=
  let c0_i32_27 : BitVec 32 := 0#32
  ![v57.toNat, 0]

def k30_off15 (i : grid30.Coords) : Fin 1 → Nat :=
  let arg0 : BitVec 32 := BitVec.ofNat 32 (i 0).val
  let c8_i32 : BitVec 32 := 8#32
  let v0 : BitVec 32 := Scalar.muli arg0 c8_i32
  let c7_i32 : BitVec 32 := 7#32
  let v64 : BitVec 32 := Scalar.addi v0 c7_i32
  let v65 : Index := Scalar.indexCast v64
  ![v65.toNat]
def k30_off16 (v66 : BitVec 32) : Fin 2 → Nat :=
  let c0_i32_31 : BitVec 32 := 0#32
  ![v66.toNat, 0]

def k30_chk8 (v66 : BitVec 32) : Prop :=
  (∀ a, (k30_off16 v66) a + S1x128.size a ≤ S50000x128.size a)
instance k30_chk8.dec : ∀ (v66 : BitVec 32), Decidable (k30_chk8 v66) := fun v66 => decidable_of_iff' _ (Iff.of_eq (k30_chk8.eq_1 v66))
theorem k30_off16_inb : ∀ (v66 : BitVec 32) (k30_hw8 : k30_chk8 v66), ∀ a, (k30_off16 v66) a + S1x128.size a ≤ S50000x128.size a := fun v66 k30_hw8 => k30_hw8

def k30_off17 (v3 : BitVec 32) : Fin 2 → Nat :=
  let c0_i32_35 : BitVec 32 := 0#32
  ![v3.toNat, 0]

def k30_chk1 (v3 : BitVec 32) : Prop :=
  (∀ a, (k30_off2 v3) a + S1x128.size a ≤ S50000x128.size a) ∧
  (∀ a, (k30_off17 v3) a + S1x128.size a ≤ S50000x128.size a)
instance k30_chk1.dec : ∀ (v3 : BitVec 32), Decidable (k30_chk1 v3) := fun v3 => decidable_of_iff' _ (Iff.of_eq (k30_chk1.eq_1 v3))
theorem k30_off2_inb : ∀ (v3 : BitVec 32) (k30_hw1 : k30_chk1 v3), ∀ a, (k30_off2 v3) a + S1x128.size a ≤ S50000x128.size a := fun v3 k30_hw1 => k30_hw1.1
theorem k30_off17_inb : ∀ (v3 : BitVec 32) (k30_hw1 : k30_chk1 v3), ∀ a, (k30_off17 v3) a + S1x128.size a ≤ S50000x128.size a := fun v3 k30_hw1 => k30_hw1.2

def k30_off18 (v12 : BitVec 32) : Fin 2 → Nat :=
  let c0_i32_39 : BitVec 32 := 0#32
  ![v12.toNat, 0]

def k30_chk2 (v12 : BitVec 32) : Prop :=
  (∀ a, (k30_off4 v12) a + S1x128.size a ≤ S50000x128.size a) ∧
  (∀ a, (k30_off18 v12) a + S1x128.size a ≤ S50000x128.size a)
instance k30_chk2.dec : ∀ (v12 : BitVec 32), Decidable (k30_chk2 v12) := fun v12 => decidable_of_iff' _ (Iff.of_eq (k30_chk2.eq_1 v12))
theorem k30_off4_inb : ∀ (v12 : BitVec 32) (k30_hw2 : k30_chk2 v12), ∀ a, (k30_off4 v12) a + S1x128.size a ≤ S50000x128.size a := fun v12 k30_hw2 => k30_hw2.1
theorem k30_off18_inb : ∀ (v12 : BitVec 32) (k30_hw2 : k30_chk2 v12), ∀ a, (k30_off18 v12) a + S1x128.size a ≤ S50000x128.size a := fun v12 k30_hw2 => k30_hw2.2

def k30_off19 (v21 : BitVec 32) : Fin 2 → Nat :=
  let c0_i32_43 : BitVec 32 := 0#32
  ![v21.toNat, 0]

def k30_chk3 (v21 : BitVec 32) : Prop :=
  (∀ a, (k30_off6 v21) a + S1x128.size a ≤ S50000x128.size a) ∧
  (∀ a, (k30_off19 v21) a + S1x128.size a ≤ S50000x128.size a)
instance k30_chk3.dec : ∀ (v21 : BitVec 32), Decidable (k30_chk3 v21) := fun v21 => decidable_of_iff' _ (Iff.of_eq (k30_chk3.eq_1 v21))
theorem k30_off6_inb : ∀ (v21 : BitVec 32) (k30_hw3 : k30_chk3 v21), ∀ a, (k30_off6 v21) a + S1x128.size a ≤ S50000x128.size a := fun v21 k30_hw3 => k30_hw3.1
theorem k30_off19_inb : ∀ (v21 : BitVec 32) (k30_hw3 : k30_chk3 v21), ∀ a, (k30_off19 v21) a + S1x128.size a ≤ S50000x128.size a := fun v21 k30_hw3 => k30_hw3.2

def k30_off20 (v30 : BitVec 32) : Fin 2 → Nat :=
  let c0_i32_47 : BitVec 32 := 0#32
  ![v30.toNat, 0]

def k30_chk4 (v30 : BitVec 32) : Prop :=
  (∀ a, (k30_off8 v30) a + S1x128.size a ≤ S50000x128.size a) ∧
  (∀ a, (k30_off20 v30) a + S1x128.size a ≤ S50000x128.size a)
instance k30_chk4.dec : ∀ (v30 : BitVec 32), Decidable (k30_chk4 v30) := fun v30 => decidable_of_iff' _ (Iff.of_eq (k30_chk4.eq_1 v30))
theorem k30_off8_inb : ∀ (v30 : BitVec 32) (k30_hw4 : k30_chk4 v30), ∀ a, (k30_off8 v30) a + S1x128.size a ≤ S50000x128.size a := fun v30 k30_hw4 => k30_hw4.1
theorem k30_off20_inb : ∀ (v30 : BitVec 32) (k30_hw4 : k30_chk4 v30), ∀ a, (k30_off20 v30) a + S1x128.size a ≤ S50000x128.size a := fun v30 k30_hw4 => k30_hw4.2

def k30_off21 (v39 : BitVec 32) : Fin 2 → Nat :=
  let c0_i32_51 : BitVec 32 := 0#32
  ![v39.toNat, 0]

def k30_chk5 (v39 : BitVec 32) : Prop :=
  (∀ a, (k30_off10 v39) a + S1x128.size a ≤ S50000x128.size a) ∧
  (∀ a, (k30_off21 v39) a + S1x128.size a ≤ S50000x128.size a)
instance k30_chk5.dec : ∀ (v39 : BitVec 32), Decidable (k30_chk5 v39) := fun v39 => decidable_of_iff' _ (Iff.of_eq (k30_chk5.eq_1 v39))
theorem k30_off10_inb : ∀ (v39 : BitVec 32) (k30_hw5 : k30_chk5 v39), ∀ a, (k30_off10 v39) a + S1x128.size a ≤ S50000x128.size a := fun v39 k30_hw5 => k30_hw5.1
theorem k30_off21_inb : ∀ (v39 : BitVec 32) (k30_hw5 : k30_chk5 v39), ∀ a, (k30_off21 v39) a + S1x128.size a ≤ S50000x128.size a := fun v39 k30_hw5 => k30_hw5.2

def k30_off22 (v48 : BitVec 32) : Fin 2 → Nat :=
  let c0_i32_55 : BitVec 32 := 0#32
  ![v48.toNat, 0]

def k30_chk6 (v48 : BitVec 32) : Prop :=
  (∀ a, (k30_off12 v48) a + S1x128.size a ≤ S50000x128.size a) ∧
  (∀ a, (k30_off22 v48) a + S1x128.size a ≤ S50000x128.size a)
instance k30_chk6.dec : ∀ (v48 : BitVec 32), Decidable (k30_chk6 v48) := fun v48 => decidable_of_iff' _ (Iff.of_eq (k30_chk6.eq_1 v48))
theorem k30_off12_inb : ∀ (v48 : BitVec 32) (k30_hw6 : k30_chk6 v48), ∀ a, (k30_off12 v48) a + S1x128.size a ≤ S50000x128.size a := fun v48 k30_hw6 => k30_hw6.1
theorem k30_off22_inb : ∀ (v48 : BitVec 32) (k30_hw6 : k30_chk6 v48), ∀ a, (k30_off22 v48) a + S1x128.size a ≤ S50000x128.size a := fun v48 k30_hw6 => k30_hw6.2

def k30_off23 (v57 : BitVec 32) : Fin 2 → Nat :=
  let c0_i32_59 : BitVec 32 := 0#32
  ![v57.toNat, 0]

def k30_chk7 (v57 : BitVec 32) : Prop :=
  (∀ a, (k30_off14 v57) a + S1x128.size a ≤ S50000x128.size a) ∧
  (∀ a, (k30_off23 v57) a + S1x128.size a ≤ S50000x128.size a)
instance k30_chk7.dec : ∀ (v57 : BitVec 32), Decidable (k30_chk7 v57) := fun v57 => decidable_of_iff' _ (Iff.of_eq (k30_chk7.eq_1 v57))
theorem k30_off14_inb : ∀ (v57 : BitVec 32) (k30_hw7 : k30_chk7 v57), ∀ a, (k30_off14 v57) a + S1x128.size a ≤ S50000x128.size a := fun v57 k30_hw7 => k30_hw7.1
theorem k30_off23_inb : ∀ (v57 : BitVec 32) (k30_hw7 : k30_chk7 v57), ∀ a, (k30_off23 v57) a + S1x128.size a ≤ S50000x128.size a := fun v57 k30_hw7 => k30_hw7.2

def cc30_transform_1 (i : grid30.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage30_0 : Fin 2 → Memref sig .tc .vmem S8x128 .f32 := fun | 0 => Memref.whole cc30_stg0_0 | 1 => Memref.whole cc30_stg0_1 | ⟨_ + 2, h⟩ => absurd h (Nat.not_lt.2 (Nat.le_add_left _ _))
abbrev sem30_0 : Fin 2 → DmaSem sig := fun | 0 => cc30_sem0_0 | 1 => cc30_sem0_1 | ⟨_ + 2, h⟩ => absurd h (Nat.not_lt.2 (Nat.le_add_left _ _))
abbrev reads30_0 : Fin grid30.rank → Bool := ![true]

abbrev grid31 : Pipeline.Grid := ⟨1, ![12500], ![false]⟩

abbrev pre31 : Pipeline.Prefetch sig := ⟨1, ![main_v107.idx], fun | 0 => main_v107.names | ⟨_ + 1, h⟩ => absurd h (Nat.not_lt.2 (Nat.le_add_left _ _)), fun | 0 => rfl | ⟨_ + 1, h⟩ => absurd h (Nat.not_lt.2 (Nat.le_add_left _ _))⟩

def k31_off1 (i : grid31.Coords) : Fin 1 → Nat :=
  let arg0 : BitVec 32 := BitVec.ofNat 32 (i 0).val
  let c8_i32 : BitVec 32 := 8#32
  let v0 : BitVec 32 := Scalar.muli arg0 c8_i32
  let c0_i32 : BitVec 32 := 0#32
  let v1 : BitVec 32 := Scalar.addi v0 c0_i32
  let v2 : Index := Scalar.indexCast v1
  ![v2.toNat]
def k31_off2 (v3 : BitVec 32) : Fin 2 → Nat :=
  let c0_i32_3 : BitVec 32 := 0#32
  ![v3.toNat, 0]

def k31_off3 (i : grid31.Coords) : Fin 1 → Nat :=
  let arg0 : BitVec 32 := BitVec.ofNat 32 (i 0).val
  let c8_i32 : BitVec 32 := 8#32
  let v0 : BitVec 32 := Scalar.muli arg0 c8_i32
  let c1_i32 : BitVec 32 := 1#32
  let v10 : BitVec 32 := Scalar.addi v0 c1_i32
  let v11 : Index := Scalar.indexCast v10
  ![v11.toNat]
def k31_off4 (v12 : BitVec 32) : Fin 2 → Nat :=
  let c0_i32_7 : BitVec 32 := 0#32
  ![v12.toNat, 0]

def k31_off5 (i : grid31.Coords) : Fin 1 → Nat :=
  let arg0 : BitVec 32 := BitVec.ofNat 32 (i 0).val
  let c8_i32 : BitVec 32 := 8#32
  let v0 : BitVec 32 := Scalar.muli arg0 c8_i32
  let c2_i32 : BitVec 32 := 2#32
  let v19 : BitVec 32 := Scalar.addi v0 c2_i32
  let v20 : Index := Scalar.indexCast v19
  ![v20.toNat]
def k31_off6 (v21 : BitVec 32) : Fin 2 → Nat :=
  let c0_i32_11 : BitVec 32 := 0#32
  ![v21.toNat, 0]

def k31_off7 (i : grid31.Coords) : Fin 1 → Nat :=
  let arg0 : BitVec 32 := BitVec.ofNat 32 (i 0).val
  let c8_i32 : BitVec 32 := 8#32
  let v0 : BitVec 32 := Scalar.muli arg0 c8_i32
  let c3_i32 : BitVec 32 := 3#32
  let v28 : BitVec 32 := Scalar.addi v0 c3_i32
  let v29 : Index := Scalar.indexCast v28
  ![v29.toNat]
def k31_off8 (v30 : BitVec 32) : Fin 2 → Nat :=
  let c0_i32_15 : BitVec 32 := 0#32
  ![v30.toNat, 0]

def k31_off9 (i : grid31.Coords) : Fin 1 → Nat :=
  let arg0 : BitVec 32 := BitVec.ofNat 32 (i 0).val
  let c8_i32 : BitVec 32 := 8#32
  let v0 : BitVec 32 := Scalar.muli arg0 c8_i32
  let c4_i32 : BitVec 32 := 4#32
  let v37 : BitVec 32 := Scalar.addi v0 c4_i32
  let v38 : Index := Scalar.indexCast v37
  ![v38.toNat]
def k31_off10 (v39 : BitVec 32) : Fin 2 → Nat :=
  let c0_i32_19 : BitVec 32 := 0#32
  ![v39.toNat, 0]

def k31_off11 (i : grid31.Coords) : Fin 1 → Nat :=
  let arg0 : BitVec 32 := BitVec.ofNat 32 (i 0).val
  let c8_i32 : BitVec 32 := 8#32
  let v0 : BitVec 32 := Scalar.muli arg0 c8_i32
  let c5_i32 : BitVec 32 := 5#32
  let v46 : BitVec 32 := Scalar.addi v0 c5_i32
  let v47 : Index := Scalar.indexCast v46
  ![v47.toNat]
def k31_off12 (v48 : BitVec 32) : Fin 2 → Nat :=
  let c0_i32_23 : BitVec 32 := 0#32
  ![v48.toNat, 0]

def k31_off13 (i : grid31.Coords) : Fin 1 → Nat :=
  let arg0 : BitVec 32 := BitVec.ofNat 32 (i 0).val
  let c8_i32 : BitVec 32 := 8#32
  let v0 : BitVec 32 := Scalar.muli arg0 c8_i32
  let c6_i32 : BitVec 32 := 6#32
  let v55 : BitVec 32 := Scalar.addi v0 c6_i32
  let v56 : Index := Scalar.indexCast v55
  ![v56.toNat]
def k31_off14 (v57 : BitVec 32) : Fin 2 → Nat :=
  let c0_i32_27 : BitVec 32 := 0#32
  ![v57.toNat, 0]

def k31_off15 (i : grid31.Coords) : Fin 1 → Nat :=
  let arg0 : BitVec 32 := BitVec.ofNat 32 (i 0).val
  let c8_i32 : BitVec 32 := 8#32
  let v0 : BitVec 32 := Scalar.muli arg0 c8_i32
  let c7_i32 : BitVec 32 := 7#32
  let v64 : BitVec 32 := Scalar.addi v0 c7_i32
  let v65 : Index := Scalar.indexCast v64
  ![v65.toNat]
def k31_off16 (v66 : BitVec 32) : Fin 2 → Nat :=
  let c0_i32_31 : BitVec 32 := 0#32
  ![v66.toNat, 0]

def k31_chk8 (v66 : BitVec 32) : Prop :=
  (∀ a, (k31_off16 v66) a + S1x128.size a ≤ S50000x128.size a)
instance k31_chk8.dec : ∀ (v66 : BitVec 32), Decidable (k31_chk8 v66) := fun v66 => decidable_of_iff' _ (Iff.of_eq (k31_chk8.eq_1 v66))
theorem k31_off16_inb : ∀ (v66 : BitVec 32) (k31_hw8 : k31_chk8 v66), ∀ a, (k31_off16 v66) a + S1x128.size a ≤ S50000x128.size a := fun v66 k31_hw8 => k31_hw8

def k31_off17 (v3 : BitVec 32) : Fin 2 → Nat :=
  let c0_i32_35 : BitVec 32 := 0#32
  ![v3.toNat, 0]

def k31_chk1 (v3 : BitVec 32) : Prop :=
  (∀ a, (k31_off2 v3) a + S1x128.size a ≤ S50000x128.size a) ∧
  (∀ a, (k31_off17 v3) a + S1x128.size a ≤ S50000x128.size a)
instance k31_chk1.dec : ∀ (v3 : BitVec 32), Decidable (k31_chk1 v3) := fun v3 => decidable_of_iff' _ (Iff.of_eq (k31_chk1.eq_1 v3))
theorem k31_off2_inb : ∀ (v3 : BitVec 32) (k31_hw1 : k31_chk1 v3), ∀ a, (k31_off2 v3) a + S1x128.size a ≤ S50000x128.size a := fun v3 k31_hw1 => k31_hw1.1
theorem k31_off17_inb : ∀ (v3 : BitVec 32) (k31_hw1 : k31_chk1 v3), ∀ a, (k31_off17 v3) a + S1x128.size a ≤ S50000x128.size a := fun v3 k31_hw1 => k31_hw1.2

def k31_off18 (v12 : BitVec 32) : Fin 2 → Nat :=
  let c0_i32_39 : BitVec 32 := 0#32
  ![v12.toNat, 0]

def k31_chk2 (v12 : BitVec 32) : Prop :=
  (∀ a, (k31_off4 v12) a + S1x128.size a ≤ S50000x128.size a) ∧
  (∀ a, (k31_off18 v12) a + S1x128.size a ≤ S50000x128.size a)
instance k31_chk2.dec : ∀ (v12 : BitVec 32), Decidable (k31_chk2 v12) := fun v12 => decidable_of_iff' _ (Iff.of_eq (k31_chk2.eq_1 v12))
theorem k31_off4_inb : ∀ (v12 : BitVec 32) (k31_hw2 : k31_chk2 v12), ∀ a, (k31_off4 v12) a + S1x128.size a ≤ S50000x128.size a := fun v12 k31_hw2 => k31_hw2.1
theorem k31_off18_inb : ∀ (v12 : BitVec 32) (k31_hw2 : k31_chk2 v12), ∀ a, (k31_off18 v12) a + S1x128.size a ≤ S50000x128.size a := fun v12 k31_hw2 => k31_hw2.2

def k31_off19 (v21 : BitVec 32) : Fin 2 → Nat :=
  let c0_i32_43 : BitVec 32 := 0#32
  ![v21.toNat, 0]

def k31_chk3 (v21 : BitVec 32) : Prop :=
  (∀ a, (k31_off6 v21) a + S1x128.size a ≤ S50000x128.size a) ∧
  (∀ a, (k31_off19 v21) a + S1x128.size a ≤ S50000x128.size a)
instance k31_chk3.dec : ∀ (v21 : BitVec 32), Decidable (k31_chk3 v21) := fun v21 => decidable_of_iff' _ (Iff.of_eq (k31_chk3.eq_1 v21))
theorem k31_off6_inb : ∀ (v21 : BitVec 32) (k31_hw3 : k31_chk3 v21), ∀ a, (k31_off6 v21) a + S1x128.size a ≤ S50000x128.size a := fun v21 k31_hw3 => k31_hw3.1
theorem k31_off19_inb : ∀ (v21 : BitVec 32) (k31_hw3 : k31_chk3 v21), ∀ a, (k31_off19 v21) a + S1x128.size a ≤ S50000x128.size a := fun v21 k31_hw3 => k31_hw3.2

def k31_off20 (v30 : BitVec 32) : Fin 2 → Nat :=
  let c0_i32_47 : BitVec 32 := 0#32
  ![v30.toNat, 0]

def k31_chk4 (v30 : BitVec 32) : Prop :=
  (∀ a, (k31_off8 v30) a + S1x128.size a ≤ S50000x128.size a) ∧
  (∀ a, (k31_off20 v30) a + S1x128.size a ≤ S50000x128.size a)
instance k31_chk4.dec : ∀ (v30 : BitVec 32), Decidable (k31_chk4 v30) := fun v30 => decidable_of_iff' _ (Iff.of_eq (k31_chk4.eq_1 v30))
theorem k31_off8_inb : ∀ (v30 : BitVec 32) (k31_hw4 : k31_chk4 v30), ∀ a, (k31_off8 v30) a + S1x128.size a ≤ S50000x128.size a := fun v30 k31_hw4 => k31_hw4.1
theorem k31_off20_inb : ∀ (v30 : BitVec 32) (k31_hw4 : k31_chk4 v30), ∀ a, (k31_off20 v30) a + S1x128.size a ≤ S50000x128.size a := fun v30 k31_hw4 => k31_hw4.2

def k31_off21 (v39 : BitVec 32) : Fin 2 → Nat :=
  let c0_i32_51 : BitVec 32 := 0#32
  ![v39.toNat, 0]

def k31_chk5 (v39 : BitVec 32) : Prop :=
  (∀ a, (k31_off10 v39) a + S1x128.size a ≤ S50000x128.size a) ∧
  (∀ a, (k31_off21 v39) a + S1x128.size a ≤ S50000x128.size a)
instance k31_chk5.dec : ∀ (v39 : BitVec 32), Decidable (k31_chk5 v39) := fun v39 => decidable_of_iff' _ (Iff.of_eq (k31_chk5.eq_1 v39))
theorem k31_off10_inb : ∀ (v39 : BitVec 32) (k31_hw5 : k31_chk5 v39), ∀ a, (k31_off10 v39) a + S1x128.size a ≤ S50000x128.size a := fun v39 k31_hw5 => k31_hw5.1
theorem k31_off21_inb : ∀ (v39 : BitVec 32) (k31_hw5 : k31_chk5 v39), ∀ a, (k31_off21 v39) a + S1x128.size a ≤ S50000x128.size a := fun v39 k31_hw5 => k31_hw5.2

def k31_off22 (v48 : BitVec 32) : Fin 2 → Nat :=
  let c0_i32_55 : BitVec 32 := 0#32
  ![v48.toNat, 0]

def k31_chk6 (v48 : BitVec 32) : Prop :=
  (∀ a, (k31_off12 v48) a + S1x128.size a ≤ S50000x128.size a) ∧
  (∀ a, (k31_off22 v48) a + S1x128.size a ≤ S50000x128.size a)
instance k31_chk6.dec : ∀ (v48 : BitVec 32), Decidable (k31_chk6 v48) := fun v48 => decidable_of_iff' _ (Iff.of_eq (k31_chk6.eq_1 v48))
theorem k31_off12_inb : ∀ (v48 : BitVec 32) (k31_hw6 : k31_chk6 v48), ∀ a, (k31_off12 v48) a + S1x128.size a ≤ S50000x128.size a := fun v48 k31_hw6 => k31_hw6.1
theorem k31_off22_inb : ∀ (v48 : BitVec 32) (k31_hw6 : k31_chk6 v48), ∀ a, (k31_off22 v48) a + S1x128.size a ≤ S50000x128.size a := fun v48 k31_hw6 => k31_hw6.2

def k31_off23 (v57 : BitVec 32) : Fin 2 → Nat :=
  let c0_i32_59 : BitVec 32 := 0#32
  ![v57.toNat, 0]

def k31_chk7 (v57 : BitVec 32) : Prop :=
  (∀ a, (k31_off14 v57) a + S1x128.size a ≤ S50000x128.size a) ∧
  (∀ a, (k31_off23 v57) a + S1x128.size a ≤ S50000x128.size a)
instance k31_chk7.dec : ∀ (v57 : BitVec 32), Decidable (k31_chk7 v57) := fun v57 => decidable_of_iff' _ (Iff.of_eq (k31_chk7.eq_1 v57))
theorem k31_off14_inb : ∀ (v57 : BitVec 32) (k31_hw7 : k31_chk7 v57), ∀ a, (k31_off14 v57) a + S1x128.size a ≤ S50000x128.size a := fun v57 k31_hw7 => k31_hw7.1
theorem k31_off23_inb : ∀ (v57 : BitVec 32) (k31_hw7 : k31_chk7 v57), ∀ a, (k31_off23 v57) a + S1x128.size a ≤ S50000x128.size a := fun v57 k31_hw7 => k31_hw7.2

def cc31_transform_1 (i : grid31.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage31_0 : Fin 2 → Memref sig .tc .vmem S8x128 .f32 := fun | 0 => Memref.whole cc31_stg0_0 | 1 => Memref.whole cc31_stg0_1 | ⟨_ + 2, h⟩ => absurd h (Nat.not_lt.2 (Nat.le_add_left _ _))
abbrev sem31_0 : Fin 2 → DmaSem sig := fun | 0 => cc31_sem0_0 | 1 => cc31_sem0_1 | ⟨_ + 2, h⟩ => absurd h (Nat.not_lt.2 (Nat.le_add_left _ _))
abbrev reads31_0 : Fin grid31.rank → Bool := ![true]

abbrev grid32 : Pipeline.Grid := ⟨1, ![12500], ![false]⟩

abbrev pre32 : Pipeline.Prefetch sig := ⟨1, ![main_v109.idx], fun | 0 => main_v109.names | ⟨_ + 1, h⟩ => absurd h (Nat.not_lt.2 (Nat.le_add_left _ _)), fun | 0 => rfl | ⟨_ + 1, h⟩ => absurd h (Nat.not_lt.2 (Nat.le_add_left _ _))⟩

def k32_off1 (i : grid32.Coords) : Fin 1 → Nat :=
  let arg0 : BitVec 32 := BitVec.ofNat 32 (i 0).val
  let c8_i32 : BitVec 32 := 8#32
  let v0 : BitVec 32 := Scalar.muli arg0 c8_i32
  let c0_i32 : BitVec 32 := 0#32
  let v1 : BitVec 32 := Scalar.addi v0 c0_i32
  let v2 : Index := Scalar.indexCast v1
  ![v2.toNat]
def k32_off2 (v3 : BitVec 32) : Fin 2 → Nat :=
  let c0_i32_3 : BitVec 32 := 0#32
  ![v3.toNat, 0]

def k32_off3 (i : grid32.Coords) : Fin 1 → Nat :=
  let arg0 : BitVec 32 := BitVec.ofNat 32 (i 0).val
  let c8_i32 : BitVec 32 := 8#32
  let v0 : BitVec 32 := Scalar.muli arg0 c8_i32
  let c1_i32 : BitVec 32 := 1#32
  let v10 : BitVec 32 := Scalar.addi v0 c1_i32
  let v11 : Index := Scalar.indexCast v10
  ![v11.toNat]
def k32_off4 (v12 : BitVec 32) : Fin 2 → Nat :=
  let c0_i32_7 : BitVec 32 := 0#32
  ![v12.toNat, 0]

def k32_off5 (i : grid32.Coords) : Fin 1 → Nat :=
  let arg0 : BitVec 32 := BitVec.ofNat 32 (i 0).val
  let c8_i32 : BitVec 32 := 8#32
  let v0 : BitVec 32 := Scalar.muli arg0 c8_i32
  let c2_i32 : BitVec 32 := 2#32
  let v19 : BitVec 32 := Scalar.addi v0 c2_i32
  let v20 : Index := Scalar.indexCast v19
  ![v20.toNat]
def k32_off6 (v21 : BitVec 32) : Fin 2 → Nat :=
  let c0_i32_11 : BitVec 32 := 0#32
  ![v21.toNat, 0]

def k32_off7 (i : grid32.Coords) : Fin 1 → Nat :=
  let arg0 : BitVec 32 := BitVec.ofNat 32 (i 0).val
  let c8_i32 : BitVec 32 := 8#32
  let v0 : BitVec 32 := Scalar.muli arg0 c8_i32
  let c3_i32 : BitVec 32 := 3#32
  let v28 : BitVec 32 := Scalar.addi v0 c3_i32
  let v29 : Index := Scalar.indexCast v28
  ![v29.toNat]
def k32_off8 (v30 : BitVec 32) : Fin 2 → Nat :=
  let c0_i32_15 : BitVec 32 := 0#32
  ![v30.toNat, 0]

def k32_off9 (i : grid32.Coords) : Fin 1 → Nat :=
  let arg0 : BitVec 32 := BitVec.ofNat 32 (i 0).val
  let c8_i32 : BitVec 32 := 8#32
  let v0 : BitVec 32 := Scalar.muli arg0 c8_i32
  let c4_i32 : BitVec 32 := 4#32
  let v37 : BitVec 32 := Scalar.addi v0 c4_i32
  let v38 : Index := Scalar.indexCast v37
  ![v38.toNat]
def k32_off10 (v39 : BitVec 32) : Fin 2 → Nat :=
  let c0_i32_19 : BitVec 32 := 0#32
  ![v39.toNat, 0]

def k32_off11 (i : grid32.Coords) : Fin 1 → Nat :=
  let arg0 : BitVec 32 := BitVec.ofNat 32 (i 0).val
  let c8_i32 : BitVec 32 := 8#32
  let v0 : BitVec 32 := Scalar.muli arg0 c8_i32
  let c5_i32 : BitVec 32 := 5#32
  let v46 : BitVec 32 := Scalar.addi v0 c5_i32
  let v47 : Index := Scalar.indexCast v46
  ![v47.toNat]
def k32_off12 (v48 : BitVec 32) : Fin 2 → Nat :=
  let c0_i32_23 : BitVec 32 := 0#32
  ![v48.toNat, 0]

def k32_off13 (i : grid32.Coords) : Fin 1 → Nat :=
  let arg0 : BitVec 32 := BitVec.ofNat 32 (i 0).val
  let c8_i32 : BitVec 32 := 8#32
  let v0 : BitVec 32 := Scalar.muli arg0 c8_i32
  let c6_i32 : BitVec 32 := 6#32
  let v55 : BitVec 32 := Scalar.addi v0 c6_i32
  let v56 : Index := Scalar.indexCast v55
  ![v56.toNat]
def k32_off14 (v57 : BitVec 32) : Fin 2 → Nat :=
  let c0_i32_27 : BitVec 32 := 0#32
  ![v57.toNat, 0]

def k32_off15 (i : grid32.Coords) : Fin 1 → Nat :=
  let arg0 : BitVec 32 := BitVec.ofNat 32 (i 0).val
  let c8_i32 : BitVec 32 := 8#32
  let v0 : BitVec 32 := Scalar.muli arg0 c8_i32
  let c7_i32 : BitVec 32 := 7#32
  let v64 : BitVec 32 := Scalar.addi v0 c7_i32
  let v65 : Index := Scalar.indexCast v64
  ![v65.toNat]
def k32_off16 (v66 : BitVec 32) : Fin 2 → Nat :=
  let c0_i32_31 : BitVec 32 := 0#32
  ![v66.toNat, 0]

def k32_chk8 (v66 : BitVec 32) : Prop :=
  (∀ a, (k32_off16 v66) a + S1x128.size a ≤ S50000x128.size a)
instance k32_chk8.dec : ∀ (v66 : BitVec 32), Decidable (k32_chk8 v66) := fun v66 => decidable_of_iff' _ (Iff.of_eq (k32_chk8.eq_1 v66))
theorem k32_off16_inb : ∀ (v66 : BitVec 32) (k32_hw8 : k32_chk8 v66), ∀ a, (k32_off16 v66) a + S1x128.size a ≤ S50000x128.size a := fun v66 k32_hw8 => k32_hw8

def k32_off17 (v3 : BitVec 32) : Fin 2 → Nat :=
  let c0_i32_35 : BitVec 32 := 0#32
  ![v3.toNat, 0]

def k32_chk1 (v3 : BitVec 32) : Prop :=
  (∀ a, (k32_off2 v3) a + S1x128.size a ≤ S50000x128.size a) ∧
  (∀ a, (k32_off17 v3) a + S1x128.size a ≤ S50000x128.size a)
instance k32_chk1.dec : ∀ (v3 : BitVec 32), Decidable (k32_chk1 v3) := fun v3 => decidable_of_iff' _ (Iff.of_eq (k32_chk1.eq_1 v3))
theorem k32_off2_inb : ∀ (v3 : BitVec 32) (k32_hw1 : k32_chk1 v3), ∀ a, (k32_off2 v3) a + S1x128.size a ≤ S50000x128.size a := fun v3 k32_hw1 => k32_hw1.1
theorem k32_off17_inb : ∀ (v3 : BitVec 32) (k32_hw1 : k32_chk1 v3), ∀ a, (k32_off17 v3) a + S1x128.size a ≤ S50000x128.size a := fun v3 k32_hw1 => k32_hw1.2

def k32_off18 (v12 : BitVec 32) : Fin 2 → Nat :=
  let c0_i32_39 : BitVec 32 := 0#32
  ![v12.toNat, 0]

def k32_chk2 (v12 : BitVec 32) : Prop :=
  (∀ a, (k32_off4 v12) a + S1x128.size a ≤ S50000x128.size a) ∧
  (∀ a, (k32_off18 v12) a + S1x128.size a ≤ S50000x128.size a)
instance k32_chk2.dec : ∀ (v12 : BitVec 32), Decidable (k32_chk2 v12) := fun v12 => decidable_of_iff' _ (Iff.of_eq (k32_chk2.eq_1 v12))
theorem k32_off4_inb : ∀ (v12 : BitVec 32) (k32_hw2 : k32_chk2 v12), ∀ a, (k32_off4 v12) a + S1x128.size a ≤ S50000x128.size a := fun v12 k32_hw2 => k32_hw2.1
theorem k32_off18_inb : ∀ (v12 : BitVec 32) (k32_hw2 : k32_chk2 v12), ∀ a, (k32_off18 v12) a + S1x128.size a ≤ S50000x128.size a := fun v12 k32_hw2 => k32_hw2.2

def k32_off19 (v21 : BitVec 32) : Fin 2 → Nat :=
  let c0_i32_43 : BitVec 32 := 0#32
  ![v21.toNat, 0]

def k32_chk3 (v21 : BitVec 32) : Prop :=
  (∀ a, (k32_off6 v21) a + S1x128.size a ≤ S50000x128.size a) ∧
  (∀ a, (k32_off19 v21) a + S1x128.size a ≤ S50000x128.size a)
instance k32_chk3.dec : ∀ (v21 : BitVec 32), Decidable (k32_chk3 v21) := fun v21 => decidable_of_iff' _ (Iff.of_eq (k32_chk3.eq_1 v21))
theorem k32_off6_inb : ∀ (v21 : BitVec 32) (k32_hw3 : k32_chk3 v21), ∀ a, (k32_off6 v21) a + S1x128.size a ≤ S50000x128.size a := fun v21 k32_hw3 => k32_hw3.1
theorem k32_off19_inb : ∀ (v21 : BitVec 32) (k32_hw3 : k32_chk3 v21), ∀ a, (k32_off19 v21) a + S1x128.size a ≤ S50000x128.size a := fun v21 k32_hw3 => k32_hw3.2

def k32_off20 (v30 : BitVec 32) : Fin 2 → Nat :=
  let c0_i32_47 : BitVec 32 := 0#32
  ![v30.toNat, 0]

def k32_chk4 (v30 : BitVec 32) : Prop :=
  (∀ a, (k32_off8 v30) a + S1x128.size a ≤ S50000x128.size a) ∧
  (∀ a, (k32_off20 v30) a + S1x128.size a ≤ S50000x128.size a)
instance k32_chk4.dec : ∀ (v30 : BitVec 32), Decidable (k32_chk4 v30) := fun v30 => decidable_of_iff' _ (Iff.of_eq (k32_chk4.eq_1 v30))
theorem k32_off8_inb : ∀ (v30 : BitVec 32) (k32_hw4 : k32_chk4 v30), ∀ a, (k32_off8 v30) a + S1x128.size a ≤ S50000x128.size a := fun v30 k32_hw4 => k32_hw4.1
theorem k32_off20_inb : ∀ (v30 : BitVec 32) (k32_hw4 : k32_chk4 v30), ∀ a, (k32_off20 v30) a + S1x128.size a ≤ S50000x128.size a := fun v30 k32_hw4 => k32_hw4.2

def k32_off21 (v39 : BitVec 32) : Fin 2 → Nat :=
  let c0_i32_51 : BitVec 32 := 0#32
  ![v39.toNat, 0]

def k32_chk5 (v39 : BitVec 32) : Prop :=
  (∀ a, (k32_off10 v39) a + S1x128.size a ≤ S50000x128.size a) ∧
  (∀ a, (k32_off21 v39) a + S1x128.size a ≤ S50000x128.size a)
instance k32_chk5.dec : ∀ (v39 : BitVec 32), Decidable (k32_chk5 v39) := fun v39 => decidable_of_iff' _ (Iff.of_eq (k32_chk5.eq_1 v39))
theorem k32_off10_inb : ∀ (v39 : BitVec 32) (k32_hw5 : k32_chk5 v39), ∀ a, (k32_off10 v39) a + S1x128.size a ≤ S50000x128.size a := fun v39 k32_hw5 => k32_hw5.1
theorem k32_off21_inb : ∀ (v39 : BitVec 32) (k32_hw5 : k32_chk5 v39), ∀ a, (k32_off21 v39) a + S1x128.size a ≤ S50000x128.size a := fun v39 k32_hw5 => k32_hw5.2

def k32_off22 (v48 : BitVec 32) : Fin 2 → Nat :=
  let c0_i32_55 : BitVec 32 := 0#32
  ![v48.toNat, 0]

def k32_chk6 (v48 : BitVec 32) : Prop :=
  (∀ a, (k32_off12 v48) a + S1x128.size a ≤ S50000x128.size a) ∧
  (∀ a, (k32_off22 v48) a + S1x128.size a ≤ S50000x128.size a)
instance k32_chk6.dec : ∀ (v48 : BitVec 32), Decidable (k32_chk6 v48) := fun v48 => decidable_of_iff' _ (Iff.of_eq (k32_chk6.eq_1 v48))
theorem k32_off12_inb : ∀ (v48 : BitVec 32) (k32_hw6 : k32_chk6 v48), ∀ a, (k32_off12 v48) a + S1x128.size a ≤ S50000x128.size a := fun v48 k32_hw6 => k32_hw6.1
theorem k32_off22_inb : ∀ (v48 : BitVec 32) (k32_hw6 : k32_chk6 v48), ∀ a, (k32_off22 v48) a + S1x128.size a ≤ S50000x128.size a := fun v48 k32_hw6 => k32_hw6.2

def k32_off23 (v57 : BitVec 32) : Fin 2 → Nat :=
  let c0_i32_59 : BitVec 32 := 0#32
  ![v57.toNat, 0]

def k32_chk7 (v57 : BitVec 32) : Prop :=
  (∀ a, (k32_off14 v57) a + S1x128.size a ≤ S50000x128.size a) ∧
  (∀ a, (k32_off23 v57) a + S1x128.size a ≤ S50000x128.size a)
instance k32_chk7.dec : ∀ (v57 : BitVec 32), Decidable (k32_chk7 v57) := fun v57 => decidable_of_iff' _ (Iff.of_eq (k32_chk7.eq_1 v57))
theorem k32_off14_inb : ∀ (v57 : BitVec 32) (k32_hw7 : k32_chk7 v57), ∀ a, (k32_off14 v57) a + S1x128.size a ≤ S50000x128.size a := fun v57 k32_hw7 => k32_hw7.1
theorem k32_off23_inb : ∀ (v57 : BitVec 32) (k32_hw7 : k32_chk7 v57), ∀ a, (k32_off23 v57) a + S1x128.size a ≤ S50000x128.size a := fun v57 k32_hw7 => k32_hw7.2

def cc32_transform_1 (i : grid32.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage32_0 : Fin 2 → Memref sig .tc .vmem S8x128 .f32 := fun | 0 => Memref.whole cc32_stg0_0 | 1 => Memref.whole cc32_stg0_1 | ⟨_ + 2, h⟩ => absurd h (Nat.not_lt.2 (Nat.le_add_left _ _))
abbrev sem32_0 : Fin 2 → DmaSem sig := fun | 0 => cc32_sem0_0 | 1 => cc32_sem0_1 | ⟨_ + 2, h⟩ => absurd h (Nat.not_lt.2 (Nat.le_add_left _ _))
abbrev reads32_0 : Fin grid32.rank → Bool := ![true]

abbrev grid33 : Pipeline.Grid := ⟨1, ![12500], ![false]⟩

abbrev pre33 : Pipeline.Prefetch sig := ⟨1, ![main_v111.idx], fun | 0 => main_v111.names | ⟨_ + 1, h⟩ => absurd h (Nat.not_lt.2 (Nat.le_add_left _ _)), fun | 0 => rfl | ⟨_ + 1, h⟩ => absurd h (Nat.not_lt.2 (Nat.le_add_left _ _))⟩

def k33_off1 (i : grid33.Coords) : Fin 1 → Nat :=
  let arg0 : BitVec 32 := BitVec.ofNat 32 (i 0).val
  let c8_i32 : BitVec 32 := 8#32
  let v0 : BitVec 32 := Scalar.muli arg0 c8_i32
  let c0_i32 : BitVec 32 := 0#32
  let v1 : BitVec 32 := Scalar.addi v0 c0_i32
  let v2 : Index := Scalar.indexCast v1
  ![v2.toNat]
def k33_off2 (v3 : BitVec 32) : Fin 2 → Nat :=
  let c0_i32_3 : BitVec 32 := 0#32
  ![v3.toNat, 0]

def k33_off3 (i : grid33.Coords) : Fin 1 → Nat :=
  let arg0 : BitVec 32 := BitVec.ofNat 32 (i 0).val
  let c8_i32 : BitVec 32 := 8#32
  let v0 : BitVec 32 := Scalar.muli arg0 c8_i32
  let c1_i32 : BitVec 32 := 1#32
  let v10 : BitVec 32 := Scalar.addi v0 c1_i32
  let v11 : Index := Scalar.indexCast v10
  ![v11.toNat]
def k33_off4 (v12 : BitVec 32) : Fin 2 → Nat :=
  let c0_i32_7 : BitVec 32 := 0#32
  ![v12.toNat, 0]

def k33_off5 (i : grid33.Coords) : Fin 1 → Nat :=
  let arg0 : BitVec 32 := BitVec.ofNat 32 (i 0).val
  let c8_i32 : BitVec 32 := 8#32
  let v0 : BitVec 32 := Scalar.muli arg0 c8_i32
  let c2_i32 : BitVec 32 := 2#32
  let v19 : BitVec 32 := Scalar.addi v0 c2_i32
  let v20 : Index := Scalar.indexCast v19
  ![v20.toNat]
def k33_off6 (v21 : BitVec 32) : Fin 2 → Nat :=
  let c0_i32_11 : BitVec 32 := 0#32
  ![v21.toNat, 0]

def k33_off7 (i : grid33.Coords) : Fin 1 → Nat :=
  let arg0 : BitVec 32 := BitVec.ofNat 32 (i 0).val
  let c8_i32 : BitVec 32 := 8#32
  let v0 : BitVec 32 := Scalar.muli arg0 c8_i32
  let c3_i32 : BitVec 32 := 3#32
  let v28 : BitVec 32 := Scalar.addi v0 c3_i32
  let v29 : Index := Scalar.indexCast v28
  ![v29.toNat]
def k33_off8 (v30 : BitVec 32) : Fin 2 → Nat :=
  let c0_i32_15 : BitVec 32 := 0#32
  ![v30.toNat, 0]

def k33_off9 (i : grid33.Coords) : Fin 1 → Nat :=
  let arg0 : BitVec 32 := BitVec.ofNat 32 (i 0).val
  let c8_i32 : BitVec 32 := 8#32
  let v0 : BitVec 32 := Scalar.muli arg0 c8_i32
  let c4_i32 : BitVec 32 := 4#32
  let v37 : BitVec 32 := Scalar.addi v0 c4_i32
  let v38 : Index := Scalar.indexCast v37
  ![v38.toNat]
def k33_off10 (v39 : BitVec 32) : Fin 2 → Nat :=
  let c0_i32_19 : BitVec 32 := 0#32
  ![v39.toNat, 0]

def k33_off11 (i : grid33.Coords) : Fin 1 → Nat :=
  let arg0 : BitVec 32 := BitVec.ofNat 32 (i 0).val
  let c8_i32 : BitVec 32 := 8#32
  let v0 : BitVec 32 := Scalar.muli arg0 c8_i32
  let c5_i32 : BitVec 32 := 5#32
  let v46 : BitVec 32 := Scalar.addi v0 c5_i32
  let v47 : Index := Scalar.indexCast v46
  ![v47.toNat]
def k33_off12 (v48 : BitVec 32) : Fin 2 → Nat :=
  let c0_i32_23 : BitVec 32 := 0#32
  ![v48.toNat, 0]

def k33_off13 (i : grid33.Coords) : Fin 1 → Nat :=
  let arg0 : BitVec 32 := BitVec.ofNat 32 (i 0).val
  let c8_i32 : BitVec 32 := 8#32
  let v0 : BitVec 32 := Scalar.muli arg0 c8_i32
  let c6_i32 : BitVec 32 := 6#32
  let v55 : BitVec 32 := Scalar.addi v0 c6_i32
  let v56 : Index := Scalar.indexCast v55
  ![v56.toNat]
def k33_off14 (v57 : BitVec 32) : Fin 2 → Nat :=
  let c0_i32_27 : BitVec 32 := 0#32
  ![v57.toNat, 0]

def k33_off15 (i : grid33.Coords) : Fin 1 → Nat :=
  let arg0 : BitVec 32 := BitVec.ofNat 32 (i 0).val
  let c8_i32 : BitVec 32 := 8#32
  let v0 : BitVec 32 := Scalar.muli arg0 c8_i32
  let c7_i32 : BitVec 32 := 7#32
  let v64 : BitVec 32 := Scalar.addi v0 c7_i32
  let v65 : Index := Scalar.indexCast v64
  ![v65.toNat]
def k33_off16 (v66 : BitVec 32) : Fin 2 → Nat :=
  let c0_i32_31 : BitVec 32 := 0#32
  ![v66.toNat, 0]

def k33_chk8 (v66 : BitVec 32) : Prop :=
  (∀ a, (k33_off16 v66) a + S1x128.size a ≤ S50000x128.size a)
instance k33_chk8.dec : ∀ (v66 : BitVec 32), Decidable (k33_chk8 v66) := fun v66 => decidable_of_iff' _ (Iff.of_eq (k33_chk8.eq_1 v66))
theorem k33_off16_inb : ∀ (v66 : BitVec 32) (k33_hw8 : k33_chk8 v66), ∀ a, (k33_off16 v66) a + S1x128.size a ≤ S50000x128.size a := fun v66 k33_hw8 => k33_hw8

def k33_off17 (v3 : BitVec 32) : Fin 2 → Nat :=
  let c0_i32_35 : BitVec 32 := 0#32
  ![v3.toNat, 0]

def k33_chk1 (v3 : BitVec 32) : Prop :=
  (∀ a, (k33_off2 v3) a + S1x128.size a ≤ S50000x128.size a) ∧
  (∀ a, (k33_off17 v3) a + S1x128.size a ≤ S50000x128.size a)
instance k33_chk1.dec : ∀ (v3 : BitVec 32), Decidable (k33_chk1 v3) := fun v3 => decidable_of_iff' _ (Iff.of_eq (k33_chk1.eq_1 v3))
theorem k33_off2_inb : ∀ (v3 : BitVec 32) (k33_hw1 : k33_chk1 v3), ∀ a, (k33_off2 v3) a + S1x128.size a ≤ S50000x128.size a := fun v3 k33_hw1 => k33_hw1.1
theorem k33_off17_inb : ∀ (v3 : BitVec 32) (k33_hw1 : k33_chk1 v3), ∀ a, (k33_off17 v3) a + S1x128.size a ≤ S50000x128.size a := fun v3 k33_hw1 => k33_hw1.2

def k33_off18 (v12 : BitVec 32) : Fin 2 → Nat :=
  let c0_i32_39 : BitVec 32 := 0#32
  ![v12.toNat, 0]

def k33_chk2 (v12 : BitVec 32) : Prop :=
  (∀ a, (k33_off4 v12) a + S1x128.size a ≤ S50000x128.size a) ∧
  (∀ a, (k33_off18 v12) a + S1x128.size a ≤ S50000x128.size a)
instance k33_chk2.dec : ∀ (v12 : BitVec 32), Decidable (k33_chk2 v12) := fun v12 => decidable_of_iff' _ (Iff.of_eq (k33_chk2.eq_1 v12))
theorem k33_off4_inb : ∀ (v12 : BitVec 32) (k33_hw2 : k33_chk2 v12), ∀ a, (k33_off4 v12) a + S1x128.size a ≤ S50000x128.size a := fun v12 k33_hw2 => k33_hw2.1
theorem k33_off18_inb : ∀ (v12 : BitVec 32) (k33_hw2 : k33_chk2 v12), ∀ a, (k33_off18 v12) a + S1x128.size a ≤ S50000x128.size a := fun v12 k33_hw2 => k33_hw2.2

def k33_off19 (v21 : BitVec 32) : Fin 2 → Nat :=
  let c0_i32_43 : BitVec 32 := 0#32
  ![v21.toNat, 0]

def k33_chk3 (v21 : BitVec 32) : Prop :=
  (∀ a, (k33_off6 v21) a + S1x128.size a ≤ S50000x128.size a) ∧
  (∀ a, (k33_off19 v21) a + S1x128.size a ≤ S50000x128.size a)
instance k33_chk3.dec : ∀ (v21 : BitVec 32), Decidable (k33_chk3 v21) := fun v21 => decidable_of_iff' _ (Iff.of_eq (k33_chk3.eq_1 v21))
theorem k33_off6_inb : ∀ (v21 : BitVec 32) (k33_hw3 : k33_chk3 v21), ∀ a, (k33_off6 v21) a + S1x128.size a ≤ S50000x128.size a := fun v21 k33_hw3 => k33_hw3.1
theorem k33_off19_inb : ∀ (v21 : BitVec 32) (k33_hw3 : k33_chk3 v21), ∀ a, (k33_off19 v21) a + S1x128.size a ≤ S50000x128.size a := fun v21 k33_hw3 => k33_hw3.2

def k33_off20 (v30 : BitVec 32) : Fin 2 → Nat :=
  let c0_i32_47 : BitVec 32 := 0#32
  ![v30.toNat, 0]

def k33_chk4 (v30 : BitVec 32) : Prop :=
  (∀ a, (k33_off8 v30) a + S1x128.size a ≤ S50000x128.size a) ∧
  (∀ a, (k33_off20 v30) a + S1x128.size a ≤ S50000x128.size a)
instance k33_chk4.dec : ∀ (v30 : BitVec 32), Decidable (k33_chk4 v30) := fun v30 => decidable_of_iff' _ (Iff.of_eq (k33_chk4.eq_1 v30))
theorem k33_off8_inb : ∀ (v30 : BitVec 32) (k33_hw4 : k33_chk4 v30), ∀ a, (k33_off8 v30) a + S1x128.size a ≤ S50000x128.size a := fun v30 k33_hw4 => k33_hw4.1
theorem k33_off20_inb : ∀ (v30 : BitVec 32) (k33_hw4 : k33_chk4 v30), ∀ a, (k33_off20 v30) a + S1x128.size a ≤ S50000x128.size a := fun v30 k33_hw4 => k33_hw4.2

def k33_off21 (v39 : BitVec 32) : Fin 2 → Nat :=
  let c0_i32_51 : BitVec 32 := 0#32
  ![v39.toNat, 0]

def k33_chk5 (v39 : BitVec 32) : Prop :=
  (∀ a, (k33_off10 v39) a + S1x128.size a ≤ S50000x128.size a) ∧
  (∀ a, (k33_off21 v39) a + S1x128.size a ≤ S50000x128.size a)
instance k33_chk5.dec : ∀ (v39 : BitVec 32), Decidable (k33_chk5 v39) := fun v39 => decidable_of_iff' _ (Iff.of_eq (k33_chk5.eq_1 v39))
theorem k33_off10_inb : ∀ (v39 : BitVec 32) (k33_hw5 : k33_chk5 v39), ∀ a, (k33_off10 v39) a + S1x128.size a ≤ S50000x128.size a := fun v39 k33_hw5 => k33_hw5.1
theorem k33_off21_inb : ∀ (v39 : BitVec 32) (k33_hw5 : k33_chk5 v39), ∀ a, (k33_off21 v39) a + S1x128.size a ≤ S50000x128.size a := fun v39 k33_hw5 => k33_hw5.2

def k33_off22 (v48 : BitVec 32) : Fin 2 → Nat :=
  let c0_i32_55 : BitVec 32 := 0#32
  ![v48.toNat, 0]

def k33_chk6 (v48 : BitVec 32) : Prop :=
  (∀ a, (k33_off12 v48) a + S1x128.size a ≤ S50000x128.size a) ∧
  (∀ a, (k33_off22 v48) a + S1x128.size a ≤ S50000x128.size a)
instance k33_chk6.dec : ∀ (v48 : BitVec 32), Decidable (k33_chk6 v48) := fun v48 => decidable_of_iff' _ (Iff.of_eq (k33_chk6.eq_1 v48))
theorem k33_off12_inb : ∀ (v48 : BitVec 32) (k33_hw6 : k33_chk6 v48), ∀ a, (k33_off12 v48) a + S1x128.size a ≤ S50000x128.size a := fun v48 k33_hw6 => k33_hw6.1
theorem k33_off22_inb : ∀ (v48 : BitVec 32) (k33_hw6 : k33_chk6 v48), ∀ a, (k33_off22 v48) a + S1x128.size a ≤ S50000x128.size a := fun v48 k33_hw6 => k33_hw6.2

def k33_off23 (v57 : BitVec 32) : Fin 2 → Nat :=
  let c0_i32_59 : BitVec 32 := 0#32
  ![v57.toNat, 0]

def k33_chk7 (v57 : BitVec 32) : Prop :=
  (∀ a, (k33_off14 v57) a + S1x128.size a ≤ S50000x128.size a) ∧
  (∀ a, (k33_off23 v57) a + S1x128.size a ≤ S50000x128.size a)
instance k33_chk7.dec : ∀ (v57 : BitVec 32), Decidable (k33_chk7 v57) := fun v57 => decidable_of_iff' _ (Iff.of_eq (k33_chk7.eq_1 v57))
theorem k33_off14_inb : ∀ (v57 : BitVec 32) (k33_hw7 : k33_chk7 v57), ∀ a, (k33_off14 v57) a + S1x128.size a ≤ S50000x128.size a := fun v57 k33_hw7 => k33_hw7.1
theorem k33_off23_inb : ∀ (v57 : BitVec 32) (k33_hw7 : k33_chk7 v57), ∀ a, (k33_off23 v57) a + S1x128.size a ≤ S50000x128.size a := fun v57 k33_hw7 => k33_hw7.2

def cc33_transform_1 (i : grid33.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage33_0 : Fin 2 → Memref sig .tc .vmem S8x128 .f32 := fun | 0 => Memref.whole cc33_stg0_0 | 1 => Memref.whole cc33_stg0_1 | ⟨_ + 2, h⟩ => absurd h (Nat.not_lt.2 (Nat.le_add_left _ _))
abbrev sem33_0 : Fin 2 → DmaSem sig := fun | 0 => cc33_sem0_0 | 1 => cc33_sem0_1 | ⟨_ + 2, h⟩ => absurd h (Nat.not_lt.2 (Nat.le_add_left _ _))
abbrev reads33_0 : Fin grid33.rank → Bool := ![true]

abbrev grid34 : Pipeline.Grid := ⟨1, ![12500], ![false]⟩

abbrev pre34 : Pipeline.Prefetch sig := ⟨1, ![main_v113.idx], fun | 0 => main_v113.names | ⟨_ + 1, h⟩ => absurd h (Nat.not_lt.2 (Nat.le_add_left _ _)), fun | 0 => rfl | ⟨_ + 1, h⟩ => absurd h (Nat.not_lt.2 (Nat.le_add_left _ _))⟩

def k34_off1 (i : grid34.Coords) : Fin 1 → Nat :=
  let arg0 : BitVec 32 := BitVec.ofNat 32 (i 0).val
  let c8_i32 : BitVec 32 := 8#32
  let v0 : BitVec 32 := Scalar.muli arg0 c8_i32
  let c0_i32 : BitVec 32 := 0#32
  let v1 : BitVec 32 := Scalar.addi v0 c0_i32
  let v2 : Index := Scalar.indexCast v1
  ![v2.toNat]
def k34_off2 (v3 : BitVec 32) : Fin 2 → Nat :=
  let c0_i32_3 : BitVec 32 := 0#32
  ![v3.toNat, 0]

def k34_off3 (i : grid34.Coords) : Fin 1 → Nat :=
  let arg0 : BitVec 32 := BitVec.ofNat 32 (i 0).val
  let c8_i32 : BitVec 32 := 8#32
  let v0 : BitVec 32 := Scalar.muli arg0 c8_i32
  let c1_i32 : BitVec 32 := 1#32
  let v10 : BitVec 32 := Scalar.addi v0 c1_i32
  let v11 : Index := Scalar.indexCast v10
  ![v11.toNat]
def k34_off4 (v12 : BitVec 32) : Fin 2 → Nat :=
  let c0_i32_7 : BitVec 32 := 0#32
  ![v12.toNat, 0]

def k34_off5 (i : grid34.Coords) : Fin 1 → Nat :=
  let arg0 : BitVec 32 := BitVec.ofNat 32 (i 0).val
  let c8_i32 : BitVec 32 := 8#32
  let v0 : BitVec 32 := Scalar.muli arg0 c8_i32
  let c2_i32 : BitVec 32 := 2#32
  let v19 : BitVec 32 := Scalar.addi v0 c2_i32
  let v20 : Index := Scalar.indexCast v19
  ![v20.toNat]
def k34_off6 (v21 : BitVec 32) : Fin 2 → Nat :=
  let c0_i32_11 : BitVec 32 := 0#32
  ![v21.toNat, 0]

def k34_off7 (i : grid34.Coords) : Fin 1 → Nat :=
  let arg0 : BitVec 32 := BitVec.ofNat 32 (i 0).val
  let c8_i32 : BitVec 32 := 8#32
  let v0 : BitVec 32 := Scalar.muli arg0 c8_i32
  let c3_i32 : BitVec 32 := 3#32
  let v28 : BitVec 32 := Scalar.addi v0 c3_i32
  let v29 : Index := Scalar.indexCast v28
  ![v29.toNat]
def k34_off8 (v30 : BitVec 32) : Fin 2 → Nat :=
  let c0_i32_15 : BitVec 32 := 0#32
  ![v30.toNat, 0]

def k34_off9 (i : grid34.Coords) : Fin 1 → Nat :=
  let arg0 : BitVec 32 := BitVec.ofNat 32 (i 0).val
  let c8_i32 : BitVec 32 := 8#32
  let v0 : BitVec 32 := Scalar.muli arg0 c8_i32
  let c4_i32 : BitVec 32 := 4#32
  let v37 : BitVec 32 := Scalar.addi v0 c4_i32
  let v38 : Index := Scalar.indexCast v37
  ![v38.toNat]
def k34_off10 (v39 : BitVec 32) : Fin 2 → Nat :=
  let c0_i32_19 : BitVec 32 := 0#32
  ![v39.toNat, 0]

def k34_off11 (i : grid34.Coords) : Fin 1 → Nat :=
  let arg0 : BitVec 32 := BitVec.ofNat 32 (i 0).val
  let c8_i32 : BitVec 32 := 8#32
  let v0 : BitVec 32 := Scalar.muli arg0 c8_i32
  let c5_i32 : BitVec 32 := 5#32
  let v46 : BitVec 32 := Scalar.addi v0 c5_i32
  let v47 : Index := Scalar.indexCast v46
  ![v47.toNat]
def k34_off12 (v48 : BitVec 32) : Fin 2 → Nat :=
  let c0_i32_23 : BitVec 32 := 0#32
  ![v48.toNat, 0]

def k34_off13 (i : grid34.Coords) : Fin 1 → Nat :=
  let arg0 : BitVec 32 := BitVec.ofNat 32 (i 0).val
  let c8_i32 : BitVec 32 := 8#32
  let v0 : BitVec 32 := Scalar.muli arg0 c8_i32
  let c6_i32 : BitVec 32 := 6#32
  let v55 : BitVec 32 := Scalar.addi v0 c6_i32
  let v56 : Index := Scalar.indexCast v55
  ![v56.toNat]
def k34_off14 (v57 : BitVec 32) : Fin 2 → Nat :=
  let c0_i32_27 : BitVec 32 := 0#32
  ![v57.toNat, 0]

def k34_off15 (i : grid34.Coords) : Fin 1 → Nat :=
  let arg0 : BitVec 32 := BitVec.ofNat 32 (i 0).val
  let c8_i32 : BitVec 32 := 8#32
  let v0 : BitVec 32 := Scalar.muli arg0 c8_i32
  let c7_i32 : BitVec 32 := 7#32
  let v64 : BitVec 32 := Scalar.addi v0 c7_i32
  let v65 : Index := Scalar.indexCast v64
  ![v65.toNat]
def k34_off16 (v66 : BitVec 32) : Fin 2 → Nat :=
  let c0_i32_31 : BitVec 32 := 0#32
  ![v66.toNat, 0]

def k34_chk8 (v66 : BitVec 32) : Prop :=
  (∀ a, (k34_off16 v66) a + S1x128.size a ≤ S50000x128.size a)
instance k34_chk8.dec : ∀ (v66 : BitVec 32), Decidable (k34_chk8 v66) := fun v66 => decidable_of_iff' _ (Iff.of_eq (k34_chk8.eq_1 v66))
theorem k34_off16_inb : ∀ (v66 : BitVec 32) (k34_hw8 : k34_chk8 v66), ∀ a, (k34_off16 v66) a + S1x128.size a ≤ S50000x128.size a := fun v66 k34_hw8 => k34_hw8

def k34_off17 (v3 : BitVec 32) : Fin 2 → Nat :=
  let c0_i32_35 : BitVec 32 := 0#32
  ![v3.toNat, 0]

def k34_chk1 (v3 : BitVec 32) : Prop :=
  (∀ a, (k34_off2 v3) a + S1x128.size a ≤ S50000x128.size a) ∧
  (∀ a, (k34_off17 v3) a + S1x128.size a ≤ S50000x128.size a)
instance k34_chk1.dec : ∀ (v3 : BitVec 32), Decidable (k34_chk1 v3) := fun v3 => decidable_of_iff' _ (Iff.of_eq (k34_chk1.eq_1 v3))
theorem k34_off2_inb : ∀ (v3 : BitVec 32) (k34_hw1 : k34_chk1 v3), ∀ a, (k34_off2 v3) a + S1x128.size a ≤ S50000x128.size a := fun v3 k34_hw1 => k34_hw1.1
theorem k34_off17_inb : ∀ (v3 : BitVec 32) (k34_hw1 : k34_chk1 v3), ∀ a, (k34_off17 v3) a + S1x128.size a ≤ S50000x128.size a := fun v3 k34_hw1 => k34_hw1.2

def k34_off18 (v12 : BitVec 32) : Fin 2 → Nat :=
  let c0_i32_39 : BitVec 32 := 0#32
  ![v12.toNat, 0]

def k34_chk2 (v12 : BitVec 32) : Prop :=
  (∀ a, (k34_off4 v12) a + S1x128.size a ≤ S50000x128.size a) ∧
  (∀ a, (k34_off18 v12) a + S1x128.size a ≤ S50000x128.size a)
instance k34_chk2.dec : ∀ (v12 : BitVec 32), Decidable (k34_chk2 v12) := fun v12 => decidable_of_iff' _ (Iff.of_eq (k34_chk2.eq_1 v12))
theorem k34_off4_inb : ∀ (v12 : BitVec 32) (k34_hw2 : k34_chk2 v12), ∀ a, (k34_off4 v12) a + S1x128.size a ≤ S50000x128.size a := fun v12 k34_hw2 => k34_hw2.1
theorem k34_off18_inb : ∀ (v12 : BitVec 32) (k34_hw2 : k34_chk2 v12), ∀ a, (k34_off18 v12) a + S1x128.size a ≤ S50000x128.size a := fun v12 k34_hw2 => k34_hw2.2

def k34_off19 (v21 : BitVec 32) : Fin 2 → Nat :=
  let c0_i32_43 : BitVec 32 := 0#32
  ![v21.toNat, 0]

def k34_chk3 (v21 : BitVec 32) : Prop :=
  (∀ a, (k34_off6 v21) a + S1x128.size a ≤ S50000x128.size a) ∧
  (∀ a, (k34_off19 v21) a + S1x128.size a ≤ S50000x128.size a)
instance k34_chk3.dec : ∀ (v21 : BitVec 32), Decidable (k34_chk3 v21) := fun v21 => decidable_of_iff' _ (Iff.of_eq (k34_chk3.eq_1 v21))
theorem k34_off6_inb : ∀ (v21 : BitVec 32) (k34_hw3 : k34_chk3 v21), ∀ a, (k34_off6 v21) a + S1x128.size a ≤ S50000x128.size a := fun v21 k34_hw3 => k34_hw3.1
theorem k34_off19_inb : ∀ (v21 : BitVec 32) (k34_hw3 : k34_chk3 v21), ∀ a, (k34_off19 v21) a + S1x128.size a ≤ S50000x128.size a := fun v21 k34_hw3 => k34_hw3.2

def k34_off20 (v30 : BitVec 32) : Fin 2 → Nat :=
  let c0_i32_47 : BitVec 32 := 0#32
  ![v30.toNat, 0]

def k34_chk4 (v30 : BitVec 32) : Prop :=
  (∀ a, (k34_off8 v30) a + S1x128.size a ≤ S50000x128.size a) ∧
  (∀ a, (k34_off20 v30) a + S1x128.size a ≤ S50000x128.size a)
instance k34_chk4.dec : ∀ (v30 : BitVec 32), Decidable (k34_chk4 v30) := fun v30 => decidable_of_iff' _ (Iff.of_eq (k34_chk4.eq_1 v30))
theorem k34_off8_inb : ∀ (v30 : BitVec 32) (k34_hw4 : k34_chk4 v30), ∀ a, (k34_off8 v30) a + S1x128.size a ≤ S50000x128.size a := fun v30 k34_hw4 => k34_hw4.1
theorem k34_off20_inb : ∀ (v30 : BitVec 32) (k34_hw4 : k34_chk4 v30), ∀ a, (k34_off20 v30) a + S1x128.size a ≤ S50000x128.size a := fun v30 k34_hw4 => k34_hw4.2

def k34_off21 (v39 : BitVec 32) : Fin 2 → Nat :=
  let c0_i32_51 : BitVec 32 := 0#32
  ![v39.toNat, 0]

def k34_chk5 (v39 : BitVec 32) : Prop :=
  (∀ a, (k34_off10 v39) a + S1x128.size a ≤ S50000x128.size a) ∧
  (∀ a, (k34_off21 v39) a + S1x128.size a ≤ S50000x128.size a)
instance k34_chk5.dec : ∀ (v39 : BitVec 32), Decidable (k34_chk5 v39) := fun v39 => decidable_of_iff' _ (Iff.of_eq (k34_chk5.eq_1 v39))
theorem k34_off10_inb : ∀ (v39 : BitVec 32) (k34_hw5 : k34_chk5 v39), ∀ a, (k34_off10 v39) a + S1x128.size a ≤ S50000x128.size a := fun v39 k34_hw5 => k34_hw5.1
theorem k34_off21_inb : ∀ (v39 : BitVec 32) (k34_hw5 : k34_chk5 v39), ∀ a, (k34_off21 v39) a + S1x128.size a ≤ S50000x128.size a := fun v39 k34_hw5 => k34_hw5.2

def k34_off22 (v48 : BitVec 32) : Fin 2 → Nat :=
  let c0_i32_55 : BitVec 32 := 0#32
  ![v48.toNat, 0]

def k34_chk6 (v48 : BitVec 32) : Prop :=
  (∀ a, (k34_off12 v48) a + S1x128.size a ≤ S50000x128.size a) ∧
  (∀ a, (k34_off22 v48) a + S1x128.size a ≤ S50000x128.size a)
instance k34_chk6.dec : ∀ (v48 : BitVec 32), Decidable (k34_chk6 v48) := fun v48 => decidable_of_iff' _ (Iff.of_eq (k34_chk6.eq_1 v48))
theorem k34_off12_inb : ∀ (v48 : BitVec 32) (k34_hw6 : k34_chk6 v48), ∀ a, (k34_off12 v48) a + S1x128.size a ≤ S50000x128.size a := fun v48 k34_hw6 => k34_hw6.1
theorem k34_off22_inb : ∀ (v48 : BitVec 32) (k34_hw6 : k34_chk6 v48), ∀ a, (k34_off22 v48) a + S1x128.size a ≤ S50000x128.size a := fun v48 k34_hw6 => k34_hw6.2

def k34_off23 (v57 : BitVec 32) : Fin 2 → Nat :=
  let c0_i32_59 : BitVec 32 := 0#32
  ![v57.toNat, 0]

def k34_chk7 (v57 : BitVec 32) : Prop :=
  (∀ a, (k34_off14 v57) a + S1x128.size a ≤ S50000x128.size a) ∧
  (∀ a, (k34_off23 v57) a + S1x128.size a ≤ S50000x128.size a)
instance k34_chk7.dec : ∀ (v57 : BitVec 32), Decidable (k34_chk7 v57) := fun v57 => decidable_of_iff' _ (Iff.of_eq (k34_chk7.eq_1 v57))
theorem k34_off14_inb : ∀ (v57 : BitVec 32) (k34_hw7 : k34_chk7 v57), ∀ a, (k34_off14 v57) a + S1x128.size a ≤ S50000x128.size a := fun v57 k34_hw7 => k34_hw7.1
theorem k34_off23_inb : ∀ (v57 : BitVec 32) (k34_hw7 : k34_chk7 v57), ∀ a, (k34_off23 v57) a + S1x128.size a ≤ S50000x128.size a := fun v57 k34_hw7 => k34_hw7.2

def cc34_transform_1 (i : grid34.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage34_0 : Fin 2 → Memref sig .tc .vmem S8x128 .f32 := fun | 0 => Memref.whole cc34_stg0_0 | 1 => Memref.whole cc34_stg0_1 | ⟨_ + 2, h⟩ => absurd h (Nat.not_lt.2 (Nat.le_add_left _ _))
abbrev sem34_0 : Fin 2 → DmaSem sig := fun | 0 => cc34_sem0_0 | 1 => cc34_sem0_1 | ⟨_ + 2, h⟩ => absurd h (Nat.not_lt.2 (Nat.le_add_left _ _))
abbrev reads34_0 : Fin grid34.rank → Bool := ![true]

abbrev grid35 : Pipeline.Grid := ⟨1, ![12500], ![false]⟩

abbrev pre35 : Pipeline.Prefetch sig := ⟨1, ![main_v115.idx], fun | 0 => main_v115.names | ⟨_ + 1, h⟩ => absurd h (Nat.not_lt.2 (Nat.le_add_left _ _)), fun | 0 => rfl | ⟨_ + 1, h⟩ => absurd h (Nat.not_lt.2 (Nat.le_add_left _ _))⟩

def k35_off1 (i : grid35.Coords) : Fin 1 → Nat :=
  let arg0 : BitVec 32 := BitVec.ofNat 32 (i 0).val
  let c8_i32 : BitVec 32 := 8#32
  let v0 : BitVec 32 := Scalar.muli arg0 c8_i32
  let c0_i32 : BitVec 32 := 0#32
  let v1 : BitVec 32 := Scalar.addi v0 c0_i32
  let v2 : Index := Scalar.indexCast v1
  ![v2.toNat]
def k35_off2 (v3 : BitVec 32) : Fin 2 → Nat :=
  let c0_i32_3 : BitVec 32 := 0#32
  ![v3.toNat, 0]

def k35_off3 (i : grid35.Coords) : Fin 1 → Nat :=
  let arg0 : BitVec 32 := BitVec.ofNat 32 (i 0).val
  let c8_i32 : BitVec 32 := 8#32
  let v0 : BitVec 32 := Scalar.muli arg0 c8_i32
  let c1_i32 : BitVec 32 := 1#32
  let v10 : BitVec 32 := Scalar.addi v0 c1_i32
  let v11 : Index := Scalar.indexCast v10
  ![v11.toNat]
def k35_off4 (v12 : BitVec 32) : Fin 2 → Nat :=
  let c0_i32_7 : BitVec 32 := 0#32
  ![v12.toNat, 0]

def k35_off5 (i : grid35.Coords) : Fin 1 → Nat :=
  let arg0 : BitVec 32 := BitVec.ofNat 32 (i 0).val
  let c8_i32 : BitVec 32 := 8#32
  let v0 : BitVec 32 := Scalar.muli arg0 c8_i32
  let c2_i32 : BitVec 32 := 2#32
  let v19 : BitVec 32 := Scalar.addi v0 c2_i32
  let v20 : Index := Scalar.indexCast v19
  ![v20.toNat]
def k35_off6 (v21 : BitVec 32) : Fin 2 → Nat :=
  let c0_i32_11 : BitVec 32 := 0#32
  ![v21.toNat, 0]

def k35_off7 (i : grid35.Coords) : Fin 1 → Nat :=
  let arg0 : BitVec 32 := BitVec.ofNat 32 (i 0).val
  let c8_i32 : BitVec 32 := 8#32
  let v0 : BitVec 32 := Scalar.muli arg0 c8_i32
  let c3_i32 : BitVec 32 := 3#32
  let v28 : BitVec 32 := Scalar.addi v0 c3_i32
  let v29 : Index := Scalar.indexCast v28
  ![v29.toNat]
def k35_off8 (v30 : BitVec 32) : Fin 2 → Nat :=
  let c0_i32_15 : BitVec 32 := 0#32
  ![v30.toNat, 0]

def k35_off9 (i : grid35.Coords) : Fin 1 → Nat :=
  let arg0 : BitVec 32 := BitVec.ofNat 32 (i 0).val
  let c8_i32 : BitVec 32 := 8#32
  let v0 : BitVec 32 := Scalar.muli arg0 c8_i32
  let c4_i32 : BitVec 32 := 4#32
  let v37 : BitVec 32 := Scalar.addi v0 c4_i32
  let v38 : Index := Scalar.indexCast v37
  ![v38.toNat]
def k35_off10 (v39 : BitVec 32) : Fin 2 → Nat :=
  let c0_i32_19 : BitVec 32 := 0#32
  ![v39.toNat, 0]

def k35_off11 (i : grid35.Coords) : Fin 1 → Nat :=
  let arg0 : BitVec 32 := BitVec.ofNat 32 (i 0).val
  let c8_i32 : BitVec 32 := 8#32
  let v0 : BitVec 32 := Scalar.muli arg0 c8_i32
  let c5_i32 : BitVec 32 := 5#32
  let v46 : BitVec 32 := Scalar.addi v0 c5_i32
  let v47 : Index := Scalar.indexCast v46
  ![v47.toNat]
def k35_off12 (v48 : BitVec 32) : Fin 2 → Nat :=
  let c0_i32_23 : BitVec 32 := 0#32
  ![v48.toNat, 0]

def k35_off13 (i : grid35.Coords) : Fin 1 → Nat :=
  let arg0 : BitVec 32 := BitVec.ofNat 32 (i 0).val
  let c8_i32 : BitVec 32 := 8#32
  let v0 : BitVec 32 := Scalar.muli arg0 c8_i32
  let c6_i32 : BitVec 32 := 6#32
  let v55 : BitVec 32 := Scalar.addi v0 c6_i32
  let v56 : Index := Scalar.indexCast v55
  ![v56.toNat]
def k35_off14 (v57 : BitVec 32) : Fin 2 → Nat :=
  let c0_i32_27 : BitVec 32 := 0#32
  ![v57.toNat, 0]

def k35_off15 (i : grid35.Coords) : Fin 1 → Nat :=
  let arg0 : BitVec 32 := BitVec.ofNat 32 (i 0).val
  let c8_i32 : BitVec 32 := 8#32
  let v0 : BitVec 32 := Scalar.muli arg0 c8_i32
  let c7_i32 : BitVec 32 := 7#32
  let v64 : BitVec 32 := Scalar.addi v0 c7_i32
  let v65 : Index := Scalar.indexCast v64
  ![v65.toNat]
def k35_off16 (v66 : BitVec 32) : Fin 2 → Nat :=
  let c0_i32_31 : BitVec 32 := 0#32
  ![v66.toNat, 0]

def k35_chk8 (v66 : BitVec 32) : Prop :=
  (∀ a, (k35_off16 v66) a + S1x128.size a ≤ S50000x128.size a)
instance k35_chk8.dec : ∀ (v66 : BitVec 32), Decidable (k35_chk8 v66) := fun v66 => decidable_of_iff' _ (Iff.of_eq (k35_chk8.eq_1 v66))
theorem k35_off16_inb : ∀ (v66 : BitVec 32) (k35_hw8 : k35_chk8 v66), ∀ a, (k35_off16 v66) a + S1x128.size a ≤ S50000x128.size a := fun v66 k35_hw8 => k35_hw8

def k35_off17 (v3 : BitVec 32) : Fin 2 → Nat :=
  let c0_i32_35 : BitVec 32 := 0#32
  ![v3.toNat, 0]

def k35_chk1 (v3 : BitVec 32) : Prop :=
  (∀ a, (k35_off2 v3) a + S1x128.size a ≤ S50000x128.size a) ∧
  (∀ a, (k35_off17 v3) a + S1x128.size a ≤ S50000x128.size a)
instance k35_chk1.dec : ∀ (v3 : BitVec 32), Decidable (k35_chk1 v3) := fun v3 => decidable_of_iff' _ (Iff.of_eq (k35_chk1.eq_1 v3))
theorem k35_off2_inb : ∀ (v3 : BitVec 32) (k35_hw1 : k35_chk1 v3), ∀ a, (k35_off2 v3) a + S1x128.size a ≤ S50000x128.size a := fun v3 k35_hw1 => k35_hw1.1
theorem k35_off17_inb : ∀ (v3 : BitVec 32) (k35_hw1 : k35_chk1 v3), ∀ a, (k35_off17 v3) a + S1x128.size a ≤ S50000x128.size a := fun v3 k35_hw1 => k35_hw1.2

def k35_off18 (v12 : BitVec 32) : Fin 2 → Nat :=
  let c0_i32_39 : BitVec 32 := 0#32
  ![v12.toNat, 0]

def k35_chk2 (v12 : BitVec 32) : Prop :=
  (∀ a, (k35_off4 v12) a + S1x128.size a ≤ S50000x128.size a) ∧
  (∀ a, (k35_off18 v12) a + S1x128.size a ≤ S50000x128.size a)
instance k35_chk2.dec : ∀ (v12 : BitVec 32), Decidable (k35_chk2 v12) := fun v12 => decidable_of_iff' _ (Iff.of_eq (k35_chk2.eq_1 v12))
theorem k35_off4_inb : ∀ (v12 : BitVec 32) (k35_hw2 : k35_chk2 v12), ∀ a, (k35_off4 v12) a + S1x128.size a ≤ S50000x128.size a := fun v12 k35_hw2 => k35_hw2.1
theorem k35_off18_inb : ∀ (v12 : BitVec 32) (k35_hw2 : k35_chk2 v12), ∀ a, (k35_off18 v12) a + S1x128.size a ≤ S50000x128.size a := fun v12 k35_hw2 => k35_hw2.2

def k35_off19 (v21 : BitVec 32) : Fin 2 → Nat :=
  let c0_i32_43 : BitVec 32 := 0#32
  ![v21.toNat, 0]

def k35_chk3 (v21 : BitVec 32) : Prop :=
  (∀ a, (k35_off6 v21) a + S1x128.size a ≤ S50000x128.size a) ∧
  (∀ a, (k35_off19 v21) a + S1x128.size a ≤ S50000x128.size a)
instance k35_chk3.dec : ∀ (v21 : BitVec 32), Decidable (k35_chk3 v21) := fun v21 => decidable_of_iff' _ (Iff.of_eq (k35_chk3.eq_1 v21))
theorem k35_off6_inb : ∀ (v21 : BitVec 32) (k35_hw3 : k35_chk3 v21), ∀ a, (k35_off6 v21) a + S1x128.size a ≤ S50000x128.size a := fun v21 k35_hw3 => k35_hw3.1
theorem k35_off19_inb : ∀ (v21 : BitVec 32) (k35_hw3 : k35_chk3 v21), ∀ a, (k35_off19 v21) a + S1x128.size a ≤ S50000x128.size a := fun v21 k35_hw3 => k35_hw3.2

def k35_off20 (v30 : BitVec 32) : Fin 2 → Nat :=
  let c0_i32_47 : BitVec 32 := 0#32
  ![v30.toNat, 0]

def k35_chk4 (v30 : BitVec 32) : Prop :=
  (∀ a, (k35_off8 v30) a + S1x128.size a ≤ S50000x128.size a) ∧
  (∀ a, (k35_off20 v30) a + S1x128.size a ≤ S50000x128.size a)
instance k35_chk4.dec : ∀ (v30 : BitVec 32), Decidable (k35_chk4 v30) := fun v30 => decidable_of_iff' _ (Iff.of_eq (k35_chk4.eq_1 v30))
theorem k35_off8_inb : ∀ (v30 : BitVec 32) (k35_hw4 : k35_chk4 v30), ∀ a, (k35_off8 v30) a + S1x128.size a ≤ S50000x128.size a := fun v30 k35_hw4 => k35_hw4.1
theorem k35_off20_inb : ∀ (v30 : BitVec 32) (k35_hw4 : k35_chk4 v30), ∀ a, (k35_off20 v30) a + S1x128.size a ≤ S50000x128.size a := fun v30 k35_hw4 => k35_hw4.2

def k35_off21 (v39 : BitVec 32) : Fin 2 → Nat :=
  let c0_i32_51 : BitVec 32 := 0#32
  ![v39.toNat, 0]

def k35_chk5 (v39 : BitVec 32) : Prop :=
  (∀ a, (k35_off10 v39) a + S1x128.size a ≤ S50000x128.size a) ∧
  (∀ a, (k35_off21 v39) a + S1x128.size a ≤ S50000x128.size a)
instance k35_chk5.dec : ∀ (v39 : BitVec 32), Decidable (k35_chk5 v39) := fun v39 => decidable_of_iff' _ (Iff.of_eq (k35_chk5.eq_1 v39))
theorem k35_off10_inb : ∀ (v39 : BitVec 32) (k35_hw5 : k35_chk5 v39), ∀ a, (k35_off10 v39) a + S1x128.size a ≤ S50000x128.size a := fun v39 k35_hw5 => k35_hw5.1
theorem k35_off21_inb : ∀ (v39 : BitVec 32) (k35_hw5 : k35_chk5 v39), ∀ a, (k35_off21 v39) a + S1x128.size a ≤ S50000x128.size a := fun v39 k35_hw5 => k35_hw5.2

def k35_off22 (v48 : BitVec 32) : Fin 2 → Nat :=
  let c0_i32_55 : BitVec 32 := 0#32
  ![v48.toNat, 0]

def k35_chk6 (v48 : BitVec 32) : Prop :=
  (∀ a, (k35_off12 v48) a + S1x128.size a ≤ S50000x128.size a) ∧
  (∀ a, (k35_off22 v48) a + S1x128.size a ≤ S50000x128.size a)
instance k35_chk6.dec : ∀ (v48 : BitVec 32), Decidable (k35_chk6 v48) := fun v48 => decidable_of_iff' _ (Iff.of_eq (k35_chk6.eq_1 v48))
theorem k35_off12_inb : ∀ (v48 : BitVec 32) (k35_hw6 : k35_chk6 v48), ∀ a, (k35_off12 v48) a + S1x128.size a ≤ S50000x128.size a := fun v48 k35_hw6 => k35_hw6.1
theorem k35_off22_inb : ∀ (v48 : BitVec 32) (k35_hw6 : k35_chk6 v48), ∀ a, (k35_off22 v48) a + S1x128.size a ≤ S50000x128.size a := fun v48 k35_hw6 => k35_hw6.2

def k35_off23 (v57 : BitVec 32) : Fin 2 → Nat :=
  let c0_i32_59 : BitVec 32 := 0#32
  ![v57.toNat, 0]

def k35_chk7 (v57 : BitVec 32) : Prop :=
  (∀ a, (k35_off14 v57) a + S1x128.size a ≤ S50000x128.size a) ∧
  (∀ a, (k35_off23 v57) a + S1x128.size a ≤ S50000x128.size a)
instance k35_chk7.dec : ∀ (v57 : BitVec 32), Decidable (k35_chk7 v57) := fun v57 => decidable_of_iff' _ (Iff.of_eq (k35_chk7.eq_1 v57))
theorem k35_off14_inb : ∀ (v57 : BitVec 32) (k35_hw7 : k35_chk7 v57), ∀ a, (k35_off14 v57) a + S1x128.size a ≤ S50000x128.size a := fun v57 k35_hw7 => k35_hw7.1
theorem k35_off23_inb : ∀ (v57 : BitVec 32) (k35_hw7 : k35_chk7 v57), ∀ a, (k35_off23 v57) a + S1x128.size a ≤ S50000x128.size a := fun v57 k35_hw7 => k35_hw7.2

def cc35_transform_1 (i : grid35.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage35_0 : Fin 2 → Memref sig .tc .vmem S8x128 .f32 := fun | 0 => Memref.whole cc35_stg0_0 | 1 => Memref.whole cc35_stg0_1 | ⟨_ + 2, h⟩ => absurd h (Nat.not_lt.2 (Nat.le_add_left _ _))
abbrev sem35_0 : Fin 2 → DmaSem sig := fun | 0 => cc35_sem0_0 | 1 => cc35_sem0_1 | ⟨_ + 2, h⟩ => absurd h (Nat.not_lt.2 (Nat.le_add_left _ _))
abbrev reads35_0 : Fin grid35.rank → Bool := ![true]

abbrev grid36 : Pipeline.Grid := ⟨1, ![12500], ![false]⟩

abbrev pre36 : Pipeline.Prefetch sig := ⟨1, ![main_v117.idx], fun | 0 => main_v117.names | ⟨_ + 1, h⟩ => absurd h (Nat.not_lt.2 (Nat.le_add_left _ _)), fun | 0 => rfl | ⟨_ + 1, h⟩ => absurd h (Nat.not_lt.2 (Nat.le_add_left _ _))⟩

def k36_off1 (i : grid36.Coords) : Fin 1 → Nat :=
  let arg0 : BitVec 32 := BitVec.ofNat 32 (i 0).val
  let c8_i32 : BitVec 32 := 8#32
  let v0 : BitVec 32 := Scalar.muli arg0 c8_i32
  let c0_i32 : BitVec 32 := 0#32
  let v1 : BitVec 32 := Scalar.addi v0 c0_i32
  let v2 : Index := Scalar.indexCast v1
  ![v2.toNat]
def k36_off2 (v3 : BitVec 32) : Fin 2 → Nat :=
  let c0_i32_3 : BitVec 32 := 0#32
  ![v3.toNat, 0]

def k36_off3 (i : grid36.Coords) : Fin 1 → Nat :=
  let arg0 : BitVec 32 := BitVec.ofNat 32 (i 0).val
  let c8_i32 : BitVec 32 := 8#32
  let v0 : BitVec 32 := Scalar.muli arg0 c8_i32
  let c1_i32 : BitVec 32 := 1#32
  let v10 : BitVec 32 := Scalar.addi v0 c1_i32
  let v11 : Index := Scalar.indexCast v10
  ![v11.toNat]
def k36_off4 (v12 : BitVec 32) : Fin 2 → Nat :=
  let c0_i32_7 : BitVec 32 := 0#32
  ![v12.toNat, 0]

def k36_off5 (i : grid36.Coords) : Fin 1 → Nat :=
  let arg0 : BitVec 32 := BitVec.ofNat 32 (i 0).val
  let c8_i32 : BitVec 32 := 8#32
  let v0 : BitVec 32 := Scalar.muli arg0 c8_i32
  let c2_i32 : BitVec 32 := 2#32
  let v19 : BitVec 32 := Scalar.addi v0 c2_i32
  let v20 : Index := Scalar.indexCast v19
  ![v20.toNat]
def k36_off6 (v21 : BitVec 32) : Fin 2 → Nat :=
  let c0_i32_11 : BitVec 32 := 0#32
  ![v21.toNat, 0]

def k36_off7 (i : grid36.Coords) : Fin 1 → Nat :=
  let arg0 : BitVec 32 := BitVec.ofNat 32 (i 0).val
  let c8_i32 : BitVec 32 := 8#32
  let v0 : BitVec 32 := Scalar.muli arg0 c8_i32
  let c3_i32 : BitVec 32 := 3#32
  let v28 : BitVec 32 := Scalar.addi v0 c3_i32
  let v29 : Index := Scalar.indexCast v28
  ![v29.toNat]
def k36_off8 (v30 : BitVec 32) : Fin 2 → Nat :=
  let c0_i32_15 : BitVec 32 := 0#32
  ![v30.toNat, 0]

def k36_off9 (i : grid36.Coords) : Fin 1 → Nat :=
  let arg0 : BitVec 32 := BitVec.ofNat 32 (i 0).val
  let c8_i32 : BitVec 32 := 8#32
  let v0 : BitVec 32 := Scalar.muli arg0 c8_i32
  let c4_i32 : BitVec 32 := 4#32
  let v37 : BitVec 32 := Scalar.addi v0 c4_i32
  let v38 : Index := Scalar.indexCast v37
  ![v38.toNat]
def k36_off10 (v39 : BitVec 32) : Fin 2 → Nat :=
  let c0_i32_19 : BitVec 32 := 0#32
  ![v39.toNat, 0]

def k36_off11 (i : grid36.Coords) : Fin 1 → Nat :=
  let arg0 : BitVec 32 := BitVec.ofNat 32 (i 0).val
  let c8_i32 : BitVec 32 := 8#32
  let v0 : BitVec 32 := Scalar.muli arg0 c8_i32
  let c5_i32 : BitVec 32 := 5#32
  let v46 : BitVec 32 := Scalar.addi v0 c5_i32
  let v47 : Index := Scalar.indexCast v46
  ![v47.toNat]
def k36_off12 (v48 : BitVec 32) : Fin 2 → Nat :=
  let c0_i32_23 : BitVec 32 := 0#32
  ![v48.toNat, 0]

def k36_off13 (i : grid36.Coords) : Fin 1 → Nat :=
  let arg0 : BitVec 32 := BitVec.ofNat 32 (i 0).val
  let c8_i32 : BitVec 32 := 8#32
  let v0 : BitVec 32 := Scalar.muli arg0 c8_i32
  let c6_i32 : BitVec 32 := 6#32
  let v55 : BitVec 32 := Scalar.addi v0 c6_i32
  let v56 : Index := Scalar.indexCast v55
  ![v56.toNat]
def k36_off14 (v57 : BitVec 32) : Fin 2 → Nat :=
  let c0_i32_27 : BitVec 32 := 0#32
  ![v57.toNat, 0]

def k36_off15 (i : grid36.Coords) : Fin 1 → Nat :=
  let arg0 : BitVec 32 := BitVec.ofNat 32 (i 0).val
  let c8_i32 : BitVec 32 := 8#32
  let v0 : BitVec 32 := Scalar.muli arg0 c8_i32
  let c7_i32 : BitVec 32 := 7#32
  let v64 : BitVec 32 := Scalar.addi v0 c7_i32
  let v65 : Index := Scalar.indexCast v64
  ![v65.toNat]
def k36_off16 (v66 : BitVec 32) : Fin 2 → Nat :=
  let c0_i32_31 : BitVec 32 := 0#32
  ![v66.toNat, 0]

def k36_chk8 (v66 : BitVec 32) : Prop :=
  (∀ a, (k36_off16 v66) a + S1x128.size a ≤ S50000x128.size a)
instance k36_chk8.dec : ∀ (v66 : BitVec 32), Decidable (k36_chk8 v66) := fun v66 => decidable_of_iff' _ (Iff.of_eq (k36_chk8.eq_1 v66))
theorem k36_off16_inb : ∀ (v66 : BitVec 32) (k36_hw8 : k36_chk8 v66), ∀ a, (k36_off16 v66) a + S1x128.size a ≤ S50000x128.size a := fun v66 k36_hw8 => k36_hw8

def k36_off17 (v3 : BitVec 32) : Fin 2 → Nat :=
  let c0_i32_35 : BitVec 32 := 0#32
  ![v3.toNat, 0]

def k36_chk1 (v3 : BitVec 32) : Prop :=
  (∀ a, (k36_off2 v3) a + S1x128.size a ≤ S50000x128.size a) ∧
  (∀ a, (k36_off17 v3) a + S1x128.size a ≤ S50000x128.size a)
instance k36_chk1.dec : ∀ (v3 : BitVec 32), Decidable (k36_chk1 v3) := fun v3 => decidable_of_iff' _ (Iff.of_eq (k36_chk1.eq_1 v3))
theorem k36_off2_inb : ∀ (v3 : BitVec 32) (k36_hw1 : k36_chk1 v3), ∀ a, (k36_off2 v3) a + S1x128.size a ≤ S50000x128.size a := fun v3 k36_hw1 => k36_hw1.1
theorem k36_off17_inb : ∀ (v3 : BitVec 32) (k36_hw1 : k36_chk1 v3), ∀ a, (k36_off17 v3) a + S1x128.size a ≤ S50000x128.size a := fun v3 k36_hw1 => k36_hw1.2

def k36_off18 (v12 : BitVec 32) : Fin 2 → Nat :=
  let c0_i32_39 : BitVec 32 := 0#32
  ![v12.toNat, 0]

def k36_chk2 (v12 : BitVec 32) : Prop :=
  (∀ a, (k36_off4 v12) a + S1x128.size a ≤ S50000x128.size a) ∧
  (∀ a, (k36_off18 v12) a + S1x128.size a ≤ S50000x128.size a)
instance k36_chk2.dec : ∀ (v12 : BitVec 32), Decidable (k36_chk2 v12) := fun v12 => decidable_of_iff' _ (Iff.of_eq (k36_chk2.eq_1 v12))
theorem k36_off4_inb : ∀ (v12 : BitVec 32) (k36_hw2 : k36_chk2 v12), ∀ a, (k36_off4 v12) a + S1x128.size a ≤ S50000x128.size a := fun v12 k36_hw2 => k36_hw2.1
theorem k36_off18_inb : ∀ (v12 : BitVec 32) (k36_hw2 : k36_chk2 v12), ∀ a, (k36_off18 v12) a + S1x128.size a ≤ S50000x128.size a := fun v12 k36_hw2 => k36_hw2.2

def k36_off19 (v21 : BitVec 32) : Fin 2 → Nat :=
  let c0_i32_43 : BitVec 32 := 0#32
  ![v21.toNat, 0]

def k36_chk3 (v21 : BitVec 32) : Prop :=
  (∀ a, (k36_off6 v21) a + S1x128.size a ≤ S50000x128.size a) ∧
  (∀ a, (k36_off19 v21) a + S1x128.size a ≤ S50000x128.size a)
instance k36_chk3.dec : ∀ (v21 : BitVec 32), Decidable (k36_chk3 v21) := fun v21 => decidable_of_iff' _ (Iff.of_eq (k36_chk3.eq_1 v21))
theorem k36_off6_inb : ∀ (v21 : BitVec 32) (k36_hw3 : k36_chk3 v21), ∀ a, (k36_off6 v21) a + S1x128.size a ≤ S50000x128.size a := fun v21 k36_hw3 => k36_hw3.1
theorem k36_off19_inb : ∀ (v21 : BitVec 32) (k36_hw3 : k36_chk3 v21), ∀ a, (k36_off19 v21) a + S1x128.size a ≤ S50000x128.size a := fun v21 k36_hw3 => k36_hw3.2

def k36_off20 (v30 : BitVec 32) : Fin 2 → Nat :=
  let c0_i32_47 : BitVec 32 := 0#32
  ![v30.toNat, 0]

def k36_chk4 (v30 : BitVec 32) : Prop :=
  (∀ a, (k36_off8 v30) a + S1x128.size a ≤ S50000x128.size a) ∧
  (∀ a, (k36_off20 v30) a + S1x128.size a ≤ S50000x128.size a)
instance k36_chk4.dec : ∀ (v30 : BitVec 32), Decidable (k36_chk4 v30) := fun v30 => decidable_of_iff' _ (Iff.of_eq (k36_chk4.eq_1 v30))
theorem k36_off8_inb : ∀ (v30 : BitVec 32) (k36_hw4 : k36_chk4 v30), ∀ a, (k36_off8 v30) a + S1x128.size a ≤ S50000x128.size a := fun v30 k36_hw4 => k36_hw4.1
theorem k36_off20_inb : ∀ (v30 : BitVec 32) (k36_hw4 : k36_chk4 v30), ∀ a, (k36_off20 v30) a + S1x128.size a ≤ S50000x128.size a := fun v30 k36_hw4 => k36_hw4.2

def k36_off21 (v39 : BitVec 32) : Fin 2 → Nat :=
  let c0_i32_51 : BitVec 32 := 0#32
  ![v39.toNat, 0]

def k36_chk5 (v39 : BitVec 32) : Prop :=
  (∀ a, (k36_off10 v39) a + S1x128.size a ≤ S50000x128.size a) ∧
  (∀ a, (k36_off21 v39) a + S1x128.size a ≤ S50000x128.size a)
instance k36_chk5.dec : ∀ (v39 : BitVec 32), Decidable (k36_chk5 v39) := fun v39 => decidable_of_iff' _ (Iff.of_eq (k36_chk5.eq_1 v39))
theorem k36_off10_inb : ∀ (v39 : BitVec 32) (k36_hw5 : k36_chk5 v39), ∀ a, (k36_off10 v39) a + S1x128.size a ≤ S50000x128.size a := fun v39 k36_hw5 => k36_hw5.1
theorem k36_off21_inb : ∀ (v39 : BitVec 32) (k36_hw5 : k36_chk5 v39), ∀ a, (k36_off21 v39) a + S1x128.size a ≤ S50000x128.size a := fun v39 k36_hw5 => k36_hw5.2

def k36_off22 (v48 : BitVec 32) : Fin 2 → Nat :=
  let c0_i32_55 : BitVec 32 := 0#32
  ![v48.toNat, 0]

def k36_chk6 (v48 : BitVec 32) : Prop :=
  (∀ a, (k36_off12 v48) a + S1x128.size a ≤ S50000x128.size a) ∧
  (∀ a, (k36_off22 v48) a + S1x128.size a ≤ S50000x128.size a)
instance k36_chk6.dec : ∀ (v48 : BitVec 32), Decidable (k36_chk6 v48) := fun v48 => decidable_of_iff' _ (Iff.of_eq (k36_chk6.eq_1 v48))
theorem k36_off12_inb : ∀ (v48 : BitVec 32) (k36_hw6 : k36_chk6 v48), ∀ a, (k36_off12 v48) a + S1x128.size a ≤ S50000x128.size a := fun v48 k36_hw6 => k36_hw6.1
theorem k36_off22_inb : ∀ (v48 : BitVec 32) (k36_hw6 : k36_chk6 v48), ∀ a, (k36_off22 v48) a + S1x128.size a ≤ S50000x128.size a := fun v48 k36_hw6 => k36_hw6.2

def k36_off23 (v57 : BitVec 32) : Fin 2 → Nat :=
  let c0_i32_59 : BitVec 32 := 0#32
  ![v57.toNat, 0]

def k36_chk7 (v57 : BitVec 32) : Prop :=
  (∀ a, (k36_off14 v57) a + S1x128.size a ≤ S50000x128.size a) ∧
  (∀ a, (k36_off23 v57) a + S1x128.size a ≤ S50000x128.size a)
instance k36_chk7.dec : ∀ (v57 : BitVec 32), Decidable (k36_chk7 v57) := fun v57 => decidable_of_iff' _ (Iff.of_eq (k36_chk7.eq_1 v57))
theorem k36_off14_inb : ∀ (v57 : BitVec 32) (k36_hw7 : k36_chk7 v57), ∀ a, (k36_off14 v57) a + S1x128.size a ≤ S50000x128.size a := fun v57 k36_hw7 => k36_hw7.1
theorem k36_off23_inb : ∀ (v57 : BitVec 32) (k36_hw7 : k36_chk7 v57), ∀ a, (k36_off23 v57) a + S1x128.size a ≤ S50000x128.size a := fun v57 k36_hw7 => k36_hw7.2

def cc36_transform_1 (i : grid36.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage36_0 : Fin 2 → Memref sig .tc .vmem S8x128 .f32 := fun | 0 => Memref.whole cc36_stg0_0 | 1 => Memref.whole cc36_stg0_1 | ⟨_ + 2, h⟩ => absurd h (Nat.not_lt.2 (Nat.le_add_left _ _))
abbrev sem36_0 : Fin 2 → DmaSem sig := fun | 0 => cc36_sem0_0 | 1 => cc36_sem0_1 | ⟨_ + 2, h⟩ => absurd h (Nat.not_lt.2 (Nat.le_add_left _ _))
abbrev reads36_0 : Fin grid36.rank → Bool := ![true]

abbrev grid37 : Pipeline.Grid := ⟨1, ![12500], ![false]⟩

abbrev pre37 : Pipeline.Prefetch sig := ⟨1, ![main_v119.idx], fun | 0 => main_v119.names | ⟨_ + 1, h⟩ => absurd h (Nat.not_lt.2 (Nat.le_add_left _ _)), fun | 0 => rfl | ⟨_ + 1, h⟩ => absurd h (Nat.not_lt.2 (Nat.le_add_left _ _))⟩

def k37_off1 (i : grid37.Coords) : Fin 1 → Nat :=
  let arg0 : BitVec 32 := BitVec.ofNat 32 (i 0).val
  let c8_i32 : BitVec 32 := 8#32
  let v0 : BitVec 32 := Scalar.muli arg0 c8_i32
  let c0_i32 : BitVec 32 := 0#32
  let v1 : BitVec 32 := Scalar.addi v0 c0_i32
  let v2 : Index := Scalar.indexCast v1
  ![v2.toNat]
def k37_off2 (v3 : BitVec 32) : Fin 2 → Nat :=
  let c0_i32_3 : BitVec 32 := 0#32
  ![v3.toNat, 0]

def k37_off3 (i : grid37.Coords) : Fin 1 → Nat :=
  let arg0 : BitVec 32 := BitVec.ofNat 32 (i 0).val
  let c8_i32 : BitVec 32 := 8#32
  let v0 : BitVec 32 := Scalar.muli arg0 c8_i32
  let c1_i32 : BitVec 32 := 1#32
  let v10 : BitVec 32 := Scalar.addi v0 c1_i32
  let v11 : Index := Scalar.indexCast v10
  ![v11.toNat]
def k37_off4 (v12 : BitVec 32) : Fin 2 → Nat :=
  let c0_i32_7 : BitVec 32 := 0#32
  ![v12.toNat, 0]

def k37_off5 (i : grid37.Coords) : Fin 1 → Nat :=
  let arg0 : BitVec 32 := BitVec.ofNat 32 (i 0).val
  let c8_i32 : BitVec 32 := 8#32
  let v0 : BitVec 32 := Scalar.muli arg0 c8_i32
  let c2_i32 : BitVec 32 := 2#32
  let v19 : BitVec 32 := Scalar.addi v0 c2_i32
  let v20 : Index := Scalar.indexCast v19
  ![v20.toNat]
def k37_off6 (v21 : BitVec 32) : Fin 2 → Nat :=
  let c0_i32_11 : BitVec 32 := 0#32
  ![v21.toNat, 0]

def k37_off7 (i : grid37.Coords) : Fin 1 → Nat :=
  let arg0 : BitVec 32 := BitVec.ofNat 32 (i 0).val
  let c8_i32 : BitVec 32 := 8#32
  let v0 : BitVec 32 := Scalar.muli arg0 c8_i32
  let c3_i32 : BitVec 32 := 3#32
  let v28 : BitVec 32 := Scalar.addi v0 c3_i32
  let v29 : Index := Scalar.indexCast v28
  ![v29.toNat]
def k37_off8 (v30 : BitVec 32) : Fin 2 → Nat :=
  let c0_i32_15 : BitVec 32 := 0#32
  ![v30.toNat, 0]

def k37_off9 (i : grid37.Coords) : Fin 1 → Nat :=
  let arg0 : BitVec 32 := BitVec.ofNat 32 (i 0).val
  let c8_i32 : BitVec 32 := 8#32
  let v0 : BitVec 32 := Scalar.muli arg0 c8_i32
  let c4_i32 : BitVec 32 := 4#32
  let v37 : BitVec 32 := Scalar.addi v0 c4_i32
  let v38 : Index := Scalar.indexCast v37
  ![v38.toNat]
def k37_off10 (v39 : BitVec 32) : Fin 2 → Nat :=
  let c0_i32_19 : BitVec 32 := 0#32
  ![v39.toNat, 0]

def k37_off11 (i : grid37.Coords) : Fin 1 → Nat :=
  let arg0 : BitVec 32 := BitVec.ofNat 32 (i 0).val
  let c8_i32 : BitVec 32 := 8#32
  let v0 : BitVec 32 := Scalar.muli arg0 c8_i32
  let c5_i32 : BitVec 32 := 5#32
  let v46 : BitVec 32 := Scalar.addi v0 c5_i32
  let v47 : Index := Scalar.indexCast v46
  ![v47.toNat]
def k37_off12 (v48 : BitVec 32) : Fin 2 → Nat :=
  let c0_i32_23 : BitVec 32 := 0#32
  ![v48.toNat, 0]

def k37_off13 (i : grid37.Coords) : Fin 1 → Nat :=
  let arg0 : BitVec 32 := BitVec.ofNat 32 (i 0).val
  let c8_i32 : BitVec 32 := 8#32
  let v0 : BitVec 32 := Scalar.muli arg0 c8_i32
  let c6_i32 : BitVec 32 := 6#32
  let v55 : BitVec 32 := Scalar.addi v0 c6_i32
  let v56 : Index := Scalar.indexCast v55
  ![v56.toNat]
def k37_off14 (v57 : BitVec 32) : Fin 2 → Nat :=
  let c0_i32_27 : BitVec 32 := 0#32
  ![v57.toNat, 0]

def k37_off15 (i : grid37.Coords) : Fin 1 → Nat :=
  let arg0 : BitVec 32 := BitVec.ofNat 32 (i 0).val
  let c8_i32 : BitVec 32 := 8#32
  let v0 : BitVec 32 := Scalar.muli arg0 c8_i32
  let c7_i32 : BitVec 32 := 7#32
  let v64 : BitVec 32 := Scalar.addi v0 c7_i32
  let v65 : Index := Scalar.indexCast v64
  ![v65.toNat]
def k37_off16 (v66 : BitVec 32) : Fin 2 → Nat :=
  let c0_i32_31 : BitVec 32 := 0#32
  ![v66.toNat, 0]

def k37_chk8 (v66 : BitVec 32) : Prop :=
  (∀ a, (k37_off16 v66) a + S1x128.size a ≤ S50000x128.size a)
instance k37_chk8.dec : ∀ (v66 : BitVec 32), Decidable (k37_chk8 v66) := fun v66 => decidable_of_iff' _ (Iff.of_eq (k37_chk8.eq_1 v66))
theorem k37_off16_inb : ∀ (v66 : BitVec 32) (k37_hw8 : k37_chk8 v66), ∀ a, (k37_off16 v66) a + S1x128.size a ≤ S50000x128.size a := fun v66 k37_hw8 => k37_hw8

def k37_off17 (v3 : BitVec 32) : Fin 2 → Nat :=
  let c0_i32_35 : BitVec 32 := 0#32
  ![v3.toNat, 0]

def k37_chk1 (v3 : BitVec 32) : Prop :=
  (∀ a, (k37_off2 v3) a + S1x128.size a ≤ S50000x128.size a) ∧
  (∀ a, (k37_off17 v3) a + S1x128.size a ≤ S50000x128.size a)
instance k37_chk1.dec : ∀ (v3 : BitVec 32), Decidable (k37_chk1 v3) := fun v3 => decidable_of_iff' _ (Iff.of_eq (k37_chk1.eq_1 v3))
theorem k37_off2_inb : ∀ (v3 : BitVec 32) (k37_hw1 : k37_chk1 v3), ∀ a, (k37_off2 v3) a + S1x128.size a ≤ S50000x128.size a := fun v3 k37_hw1 => k37_hw1.1
theorem k37_off17_inb : ∀ (v3 : BitVec 32) (k37_hw1 : k37_chk1 v3), ∀ a, (k37_off17 v3) a + S1x128.size a ≤ S50000x128.size a := fun v3 k37_hw1 => k37_hw1.2

def k37_off18 (v12 : BitVec 32) : Fin 2 → Nat :=
  let c0_i32_39 : BitVec 32 := 0#32
  ![v12.toNat, 0]

def k37_chk2 (v12 : BitVec 32) : Prop :=
  (∀ a, (k37_off4 v12) a + S1x128.size a ≤ S50000x128.size a) ∧
  (∀ a, (k37_off18 v12) a + S1x128.size a ≤ S50000x128.size a)
instance k37_chk2.dec : ∀ (v12 : BitVec 32), Decidable (k37_chk2 v12) := fun v12 => decidable_of_iff' _ (Iff.of_eq (k37_chk2.eq_1 v12))
theorem k37_off4_inb : ∀ (v12 : BitVec 32) (k37_hw2 : k37_chk2 v12), ∀ a, (k37_off4 v12) a + S1x128.size a ≤ S50000x128.size a := fun v12 k37_hw2 => k37_hw2.1
theorem k37_off18_inb : ∀ (v12 : BitVec 32) (k37_hw2 : k37_chk2 v12), ∀ a, (k37_off18 v12) a + S1x128.size a ≤ S50000x128.size a := fun v12 k37_hw2 => k37_hw2.2

def k37_off19 (v21 : BitVec 32) : Fin 2 → Nat :=
  let c0_i32_43 : BitVec 32 := 0#32
  ![v21.toNat, 0]

def k37_chk3 (v21 : BitVec 32) : Prop :=
  (∀ a, (k37_off6 v21) a + S1x128.size a ≤ S50000x128.size a) ∧
  (∀ a, (k37_off19 v21) a + S1x128.size a ≤ S50000x128.size a)
instance k37_chk3.dec : ∀ (v21 : BitVec 32), Decidable (k37_chk3 v21) := fun v21 => decidable_of_iff' _ (Iff.of_eq (k37_chk3.eq_1 v21))
theorem k37_off6_inb : ∀ (v21 : BitVec 32) (k37_hw3 : k37_chk3 v21), ∀ a, (k37_off6 v21) a + S1x128.size a ≤ S50000x128.size a := fun v21 k37_hw3 => k37_hw3.1
theorem k37_off19_inb : ∀ (v21 : BitVec 32) (k37_hw3 : k37_chk3 v21), ∀ a, (k37_off19 v21) a + S1x128.size a ≤ S50000x128.size a := fun v21 k37_hw3 => k37_hw3.2

def k37_off20 (v30 : BitVec 32) : Fin 2 → Nat :=
  let c0_i32_47 : BitVec 32 := 0#32
  ![v30.toNat, 0]

def k37_chk4 (v30 : BitVec 32) : Prop :=
  (∀ a, (k37_off8 v30) a + S1x128.size a ≤ S50000x128.size a) ∧
  (∀ a, (k37_off20 v30) a + S1x128.size a ≤ S50000x128.size a)
instance k37_chk4.dec : ∀ (v30 : BitVec 32), Decidable (k37_chk4 v30) := fun v30 => decidable_of_iff' _ (Iff.of_eq (k37_chk4.eq_1 v30))
theorem k37_off8_inb : ∀ (v30 : BitVec 32) (k37_hw4 : k37_chk4 v30), ∀ a, (k37_off8 v30) a + S1x128.size a ≤ S50000x128.size a := fun v30 k37_hw4 => k37_hw4.1
theorem k37_off20_inb : ∀ (v30 : BitVec 32) (k37_hw4 : k37_chk4 v30), ∀ a, (k37_off20 v30) a + S1x128.size a ≤ S50000x128.size a := fun v30 k37_hw4 => k37_hw4.2

def k37_off21 (v39 : BitVec 32) : Fin 2 → Nat :=
  let c0_i32_51 : BitVec 32 := 0#32
  ![v39.toNat, 0]

def k37_chk5 (v39 : BitVec 32) : Prop :=
  (∀ a, (k37_off10 v39) a + S1x128.size a ≤ S50000x128.size a) ∧
  (∀ a, (k37_off21 v39) a + S1x128.size a ≤ S50000x128.size a)
instance k37_chk5.dec : ∀ (v39 : BitVec 32), Decidable (k37_chk5 v39) := fun v39 => decidable_of_iff' _ (Iff.of_eq (k37_chk5.eq_1 v39))
theorem k37_off10_inb : ∀ (v39 : BitVec 32) (k37_hw5 : k37_chk5 v39), ∀ a, (k37_off10 v39) a + S1x128.size a ≤ S50000x128.size a := fun v39 k37_hw5 => k37_hw5.1
theorem k37_off21_inb : ∀ (v39 : BitVec 32) (k37_hw5 : k37_chk5 v39), ∀ a, (k37_off21 v39) a + S1x128.size a ≤ S50000x128.size a := fun v39 k37_hw5 => k37_hw5.2

def k37_off22 (v48 : BitVec 32) : Fin 2 → Nat :=
  let c0_i32_55 : BitVec 32 := 0#32
  ![v48.toNat, 0]

def k37_chk6 (v48 : BitVec 32) : Prop :=
  (∀ a, (k37_off12 v48) a + S1x128.size a ≤ S50000x128.size a) ∧
  (∀ a, (k37_off22 v48) a + S1x128.size a ≤ S50000x128.size a)
instance k37_chk6.dec : ∀ (v48 : BitVec 32), Decidable (k37_chk6 v48) := fun v48 => decidable_of_iff' _ (Iff.of_eq (k37_chk6.eq_1 v48))
theorem k37_off12_inb : ∀ (v48 : BitVec 32) (k37_hw6 : k37_chk6 v48), ∀ a, (k37_off12 v48) a + S1x128.size a ≤ S50000x128.size a := fun v48 k37_hw6 => k37_hw6.1
theorem k37_off22_inb : ∀ (v48 : BitVec 32) (k37_hw6 : k37_chk6 v48), ∀ a, (k37_off22 v48) a + S1x128.size a ≤ S50000x128.size a := fun v48 k37_hw6 => k37_hw6.2

def k37_off23 (v57 : BitVec 32) : Fin 2 → Nat :=
  let c0_i32_59 : BitVec 32 := 0#32
  ![v57.toNat, 0]

def k37_chk7 (v57 : BitVec 32) : Prop :=
  (∀ a, (k37_off14 v57) a + S1x128.size a ≤ S50000x128.size a) ∧
  (∀ a, (k37_off23 v57) a + S1x128.size a ≤ S50000x128.size a)
instance k37_chk7.dec : ∀ (v57 : BitVec 32), Decidable (k37_chk7 v57) := fun v57 => decidable_of_iff' _ (Iff.of_eq (k37_chk7.eq_1 v57))
theorem k37_off14_inb : ∀ (v57 : BitVec 32) (k37_hw7 : k37_chk7 v57), ∀ a, (k37_off14 v57) a + S1x128.size a ≤ S50000x128.size a := fun v57 k37_hw7 => k37_hw7.1
theorem k37_off23_inb : ∀ (v57 : BitVec 32) (k37_hw7 : k37_chk7 v57), ∀ a, (k37_off23 v57) a + S1x128.size a ≤ S50000x128.size a := fun v57 k37_hw7 => k37_hw7.2

def cc37_transform_1 (i : grid37.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage37_0 : Fin 2 → Memref sig .tc .vmem S8x128 .f32 := fun | 0 => Memref.whole cc37_stg0_0 | 1 => Memref.whole cc37_stg0_1 | ⟨_ + 2, h⟩ => absurd h (Nat.not_lt.2 (Nat.le_add_left _ _))
abbrev sem37_0 : Fin 2 → DmaSem sig := fun | 0 => cc37_sem0_0 | 1 => cc37_sem0_1 | ⟨_ + 2, h⟩ => absurd h (Nat.not_lt.2 (Nat.le_add_left _ _))
abbrev reads37_0 : Fin grid37.rank → Bool := ![true]

abbrev grid38 : Pipeline.Grid := ⟨1, ![12500], ![false]⟩

abbrev pre38 : Pipeline.Prefetch sig := ⟨1, ![main_v121.idx], fun | 0 => main_v121.names | ⟨_ + 1, h⟩ => absurd h (Nat.not_lt.2 (Nat.le_add_left _ _)), fun | 0 => rfl | ⟨_ + 1, h⟩ => absurd h (Nat.not_lt.2 (Nat.le_add_left _ _))⟩

def k38_off1 (i : grid38.Coords) : Fin 1 → Nat :=
  let arg0 : BitVec 32 := BitVec.ofNat 32 (i 0).val
  let c8_i32 : BitVec 32 := 8#32
  let v0 : BitVec 32 := Scalar.muli arg0 c8_i32
  let c0_i32 : BitVec 32 := 0#32
  let v1 : BitVec 32 := Scalar.addi v0 c0_i32
  let v2 : Index := Scalar.indexCast v1
  ![v2.toNat]
def k38_off2 (v3 : BitVec 32) : Fin 2 → Nat :=
  let c0_i32_3 : BitVec 32 := 0#32
  ![v3.toNat, 0]

def k38_off3 (i : grid38.Coords) : Fin 1 → Nat :=
  let arg0 : BitVec 32 := BitVec.ofNat 32 (i 0).val
  let c8_i32 : BitVec 32 := 8#32
  let v0 : BitVec 32 := Scalar.muli arg0 c8_i32
  let c1_i32 : BitVec 32 := 1#32
  let v10 : BitVec 32 := Scalar.addi v0 c1_i32
  let v11 : Index := Scalar.indexCast v10
  ![v11.toNat]
def k38_off4 (v12 : BitVec 32) : Fin 2 → Nat :=
  let c0_i32_7 : BitVec 32 := 0#32
  ![v12.toNat, 0]

def k38_off5 (i : grid38.Coords) : Fin 1 → Nat :=
  let arg0 : BitVec 32 := BitVec.ofNat 32 (i 0).val
  let c8_i32 : BitVec 32 := 8#32
  let v0 : BitVec 32 := Scalar.muli arg0 c8_i32
  let c2_i32 : BitVec 32 := 2#32
  let v19 : BitVec 32 := Scalar.addi v0 c2_i32
  let v20 : Index := Scalar.indexCast v19
  ![v20.toNat]
def k38_off6 (v21 : BitVec 32) : Fin 2 → Nat :=
  let c0_i32_11 : BitVec 32 := 0#32
  ![v21.toNat, 0]

def k38_off7 (i : grid38.Coords) : Fin 1 → Nat :=
  let arg0 : BitVec 32 := BitVec.ofNat 32 (i 0).val
  let c8_i32 : BitVec 32 := 8#32
  let v0 : BitVec 32 := Scalar.muli arg0 c8_i32
  let c3_i32 : BitVec 32 := 3#32
  let v28 : BitVec 32 := Scalar.addi v0 c3_i32
  let v29 : Index := Scalar.indexCast v28
  ![v29.toNat]
def k38_off8 (v30 : BitVec 32) : Fin 2 → Nat :=
  let c0_i32_15 : BitVec 32 := 0#32
  ![v30.toNat, 0]

def k38_off9 (i : grid38.Coords) : Fin 1 → Nat :=
  let arg0 : BitVec 32 := BitVec.ofNat 32 (i 0).val
  let c8_i32 : BitVec 32 := 8#32
  let v0 : BitVec 32 := Scalar.muli arg0 c8_i32
  let c4_i32 : BitVec 32 := 4#32
  let v37 : BitVec 32 := Scalar.addi v0 c4_i32
  let v38 : Index := Scalar.indexCast v37
  ![v38.toNat]
def k38_off10 (v39 : BitVec 32) : Fin 2 → Nat :=
  let c0_i32_19 : BitVec 32 := 0#32
  ![v39.toNat, 0]

def k38_off11 (i : grid38.Coords) : Fin 1 → Nat :=
  let arg0 : BitVec 32 := BitVec.ofNat 32 (i 0).val
  let c8_i32 : BitVec 32 := 8#32
  let v0 : BitVec 32 := Scalar.muli arg0 c8_i32
  let c5_i32 : BitVec 32 := 5#32
  let v46 : BitVec 32 := Scalar.addi v0 c5_i32
  let v47 : Index := Scalar.indexCast v46
  ![v47.toNat]
def k38_off12 (v48 : BitVec 32) : Fin 2 → Nat :=
  let c0_i32_23 : BitVec 32 := 0#32
  ![v48.toNat, 0]

def k38_off13 (i : grid38.Coords) : Fin 1 → Nat :=
  let arg0 : BitVec 32 := BitVec.ofNat 32 (i 0).val
  let c8_i32 : BitVec 32 := 8#32
  let v0 : BitVec 32 := Scalar.muli arg0 c8_i32
  let c6_i32 : BitVec 32 := 6#32
  let v55 : BitVec 32 := Scalar.addi v0 c6_i32
  let v56 : Index := Scalar.indexCast v55
  ![v56.toNat]
def k38_off14 (v57 : BitVec 32) : Fin 2 → Nat :=
  let c0_i32_27 : BitVec 32 := 0#32
  ![v57.toNat, 0]

def k38_off15 (i : grid38.Coords) : Fin 1 → Nat :=
  let arg0 : BitVec 32 := BitVec.ofNat 32 (i 0).val
  let c8_i32 : BitVec 32 := 8#32
  let v0 : BitVec 32 := Scalar.muli arg0 c8_i32
  let c7_i32 : BitVec 32 := 7#32
  let v64 : BitVec 32 := Scalar.addi v0 c7_i32
  let v65 : Index := Scalar.indexCast v64
  ![v65.toNat]
def k38_off16 (v66 : BitVec 32) : Fin 2 → Nat :=
  let c0_i32_31 : BitVec 32 := 0#32
  ![v66.toNat, 0]

def k38_chk8 (v66 : BitVec 32) : Prop :=
  (∀ a, (k38_off16 v66) a + S1x128.size a ≤ S50000x128.size a)
instance k38_chk8.dec : ∀ (v66 : BitVec 32), Decidable (k38_chk8 v66) := fun v66 => decidable_of_iff' _ (Iff.of_eq (k38_chk8.eq_1 v66))
theorem k38_off16_inb : ∀ (v66 : BitVec 32) (k38_hw8 : k38_chk8 v66), ∀ a, (k38_off16 v66) a + S1x128.size a ≤ S50000x128.size a := fun v66 k38_hw8 => k38_hw8

def k38_off17 (v3 : BitVec 32) : Fin 2 → Nat :=
  let c0_i32_35 : BitVec 32 := 0#32
  ![v3.toNat, 0]

def k38_chk1 (v3 : BitVec 32) : Prop :=
  (∀ a, (k38_off2 v3) a + S1x128.size a ≤ S50000x128.size a) ∧
  (∀ a, (k38_off17 v3) a + S1x128.size a ≤ S50000x128.size a)
instance k38_chk1.dec : ∀ (v3 : BitVec 32), Decidable (k38_chk1 v3) := fun v3 => decidable_of_iff' _ (Iff.of_eq (k38_chk1.eq_1 v3))
theorem k38_off2_inb : ∀ (v3 : BitVec 32) (k38_hw1 : k38_chk1 v3), ∀ a, (k38_off2 v3) a + S1x128.size a ≤ S50000x128.size a := fun v3 k38_hw1 => k38_hw1.1
theorem k38_off17_inb : ∀ (v3 : BitVec 32) (k38_hw1 : k38_chk1 v3), ∀ a, (k38_off17 v3) a + S1x128.size a ≤ S50000x128.size a := fun v3 k38_hw1 => k38_hw1.2

def k38_off18 (v12 : BitVec 32) : Fin 2 → Nat :=
  let c0_i32_39 : BitVec 32 := 0#32
  ![v12.toNat, 0]

def k38_chk2 (v12 : BitVec 32) : Prop :=
  (∀ a, (k38_off4 v12) a + S1x128.size a ≤ S50000x128.size a) ∧
  (∀ a, (k38_off18 v12) a + S1x128.size a ≤ S50000x128.size a)
instance k38_chk2.dec : ∀ (v12 : BitVec 32), Decidable (k38_chk2 v12) := fun v12 => decidable_of_iff' _ (Iff.of_eq (k38_chk2.eq_1 v12))
theorem k38_off4_inb : ∀ (v12 : BitVec 32) (k38_hw2 : k38_chk2 v12), ∀ a, (k38_off4 v12) a + S1x128.size a ≤ S50000x128.size a := fun v12 k38_hw2 => k38_hw2.1
theorem k38_off18_inb : ∀ (v12 : BitVec 32) (k38_hw2 : k38_chk2 v12), ∀ a, (k38_off18 v12) a + S1x128.size a ≤ S50000x128.size a := fun v12 k38_hw2 => k38_hw2.2

def k38_off19 (v21 : BitVec 32) : Fin 2 → Nat :=
  let c0_i32_43 : BitVec 32 := 0#32
  ![v21.toNat, 0]

def k38_chk3 (v21 : BitVec 32) : Prop :=
  (∀ a, (k38_off6 v21) a + S1x128.size a ≤ S50000x128.size a) ∧
  (∀ a, (k38_off19 v21) a + S1x128.size a ≤ S50000x128.size a)
instance k38_chk3.dec : ∀ (v21 : BitVec 32), Decidable (k38_chk3 v21) := fun v21 => decidable_of_iff' _ (Iff.of_eq (k38_chk3.eq_1 v21))
theorem k38_off6_inb : ∀ (v21 : BitVec 32) (k38_hw3 : k38_chk3 v21), ∀ a, (k38_off6 v21) a + S1x128.size a ≤ S50000x128.size a := fun v21 k38_hw3 => k38_hw3.1
theorem k38_off19_inb : ∀ (v21 : BitVec 32) (k38_hw3 : k38_chk3 v21), ∀ a, (k38_off19 v21) a + S1x128.size a ≤ S50000x128.size a := fun v21 k38_hw3 => k38_hw3.2

def k38_off20 (v30 : BitVec 32) : Fin 2 → Nat :=
  let c0_i32_47 : BitVec 32 := 0#32
  ![v30.toNat, 0]

def k38_chk4 (v30 : BitVec 32) : Prop :=
  (∀ a, (k38_off8 v30) a + S1x128.size a ≤ S50000x128.size a) ∧
  (∀ a, (k38_off20 v30) a + S1x128.size a ≤ S50000x128.size a)
instance k38_chk4.dec : ∀ (v30 : BitVec 32), Decidable (k38_chk4 v30) := fun v30 => decidable_of_iff' _ (Iff.of_eq (k38_chk4.eq_1 v30))
theorem k38_off8_inb : ∀ (v30 : BitVec 32) (k38_hw4 : k38_chk4 v30), ∀ a, (k38_off8 v30) a + S1x128.size a ≤ S50000x128.size a := fun v30 k38_hw4 => k38_hw4.1
theorem k38_off20_inb : ∀ (v30 : BitVec 32) (k38_hw4 : k38_chk4 v30), ∀ a, (k38_off20 v30) a + S1x128.size a ≤ S50000x128.size a := fun v30 k38_hw4 => k38_hw4.2

def k38_off21 (v39 : BitVec 32) : Fin 2 → Nat :=
  let c0_i32_51 : BitVec 32 := 0#32
  ![v39.toNat, 0]

def k38_chk5 (v39 : BitVec 32) : Prop :=
  (∀ a, (k38_off10 v39) a + S1x128.size a ≤ S50000x128.size a) ∧
  (∀ a, (k38_off21 v39) a + S1x128.size a ≤ S50000x128.size a)
instance k38_chk5.dec : ∀ (v39 : BitVec 32), Decidable (k38_chk5 v39) := fun v39 => decidable_of_iff' _ (Iff.of_eq (k38_chk5.eq_1 v39))
theorem k38_off10_inb : ∀ (v39 : BitVec 32) (k38_hw5 : k38_chk5 v39), ∀ a, (k38_off10 v39) a + S1x128.size a ≤ S50000x128.size a := fun v39 k38_hw5 => k38_hw5.1
theorem k38_off21_inb : ∀ (v39 : BitVec 32) (k38_hw5 : k38_chk5 v39), ∀ a, (k38_off21 v39) a + S1x128.size a ≤ S50000x128.size a := fun v39 k38_hw5 => k38_hw5.2

def k38_off22 (v48 : BitVec 32) : Fin 2 → Nat :=
  let c0_i32_55 : BitVec 32 := 0#32
  ![v48.toNat, 0]

def k38_chk6 (v48 : BitVec 32) : Prop :=
  (∀ a, (k38_off12 v48) a + S1x128.size a ≤ S50000x128.size a) ∧
  (∀ a, (k38_off22 v48) a + S1x128.size a ≤ S50000x128.size a)
instance k38_chk6.dec : ∀ (v48 : BitVec 32), Decidable (k38_chk6 v48) := fun v48 => decidable_of_iff' _ (Iff.of_eq (k38_chk6.eq_1 v48))
theorem k38_off12_inb : ∀ (v48 : BitVec 32) (k38_hw6 : k38_chk6 v48), ∀ a, (k38_off12 v48) a + S1x128.size a ≤ S50000x128.size a := fun v48 k38_hw6 => k38_hw6.1
theorem k38_off22_inb : ∀ (v48 : BitVec 32) (k38_hw6 : k38_chk6 v48), ∀ a, (k38_off22 v48) a + S1x128.size a ≤ S50000x128.size a := fun v48 k38_hw6 => k38_hw6.2

def k38_off23 (v57 : BitVec 32) : Fin 2 → Nat :=
  let c0_i32_59 : BitVec 32 := 0#32
  ![v57.toNat, 0]

def k38_chk7 (v57 : BitVec 32) : Prop :=
  (∀ a, (k38_off14 v57) a + S1x128.size a ≤ S50000x128.size a) ∧
  (∀ a, (k38_off23 v57) a + S1x128.size a ≤ S50000x128.size a)
instance k38_chk7.dec : ∀ (v57 : BitVec 32), Decidable (k38_chk7 v57) := fun v57 => decidable_of_iff' _ (Iff.of_eq (k38_chk7.eq_1 v57))
theorem k38_off14_inb : ∀ (v57 : BitVec 32) (k38_hw7 : k38_chk7 v57), ∀ a, (k38_off14 v57) a + S1x128.size a ≤ S50000x128.size a := fun v57 k38_hw7 => k38_hw7.1
theorem k38_off23_inb : ∀ (v57 : BitVec 32) (k38_hw7 : k38_chk7 v57), ∀ a, (k38_off23 v57) a + S1x128.size a ≤ S50000x128.size a := fun v57 k38_hw7 => k38_hw7.2

def cc38_transform_1 (i : grid38.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage38_0 : Fin 2 → Memref sig .tc .vmem S8x128 .f32 := fun | 0 => Memref.whole cc38_stg0_0 | 1 => Memref.whole cc38_stg0_1 | ⟨_ + 2, h⟩ => absurd h (Nat.not_lt.2 (Nat.le_add_left _ _))
abbrev sem38_0 : Fin 2 → DmaSem sig := fun | 0 => cc38_sem0_0 | 1 => cc38_sem0_1 | ⟨_ + 2, h⟩ => absurd h (Nat.not_lt.2 (Nat.le_add_left _ _))
abbrev reads38_0 : Fin grid38.rank → Bool := ![true]

abbrev grid39 : Pipeline.Grid := ⟨1, ![125], ![false]⟩

def cc39_transform_0 (i : grid39.Coords) : Fin 2 → Nat :=
  let arg0 : BitVec 32 := BitVec.ofNat 32 (i 0).val
  let c0_i32 : BitVec 32 := 0#32
  let c0_i32_0 : BitVec 32 := 0#32
  ![arg0.toNat, c0_i32.toNat]

def cc39_transform_1 (i : grid39.Coords) : Fin 2 → Nat :=
  let arg0 : BitVec 32 := BitVec.ofNat 32 (i 0).val
  let c0_i32 : BitVec 32 := 0#32
  let c0_i32_0 : BitVec 32 := 0#32
  ![arg0.toNat, c0_i32.toNat]

def cc39_transform_2 (i : grid39.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc39_transform_3 (i : grid39.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc39_transform_4 (i : grid39.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc39_transform_5 (i : grid39.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage39_0 : Fin 2 → Memref sig .tc .vmem S6400x128 .f32 := fun | 0 => Memref.whole cc39_stg0_0 | 1 => Memref.whole cc39_stg0_1 | ⟨_ + 2, h⟩ => absurd h (Nat.not_lt.2 (Nat.le_add_left _ _))
abbrev sem39_0 : Fin 2 → DmaSem sig := fun | 0 => cc39_sem0_0 | 1 => cc39_sem0_1 | ⟨_ + 2, h⟩ => absurd h (Nat.not_lt.2 (Nat.le_add_left _ _))
abbrev reads39_0 : Fin grid39.rank → Bool := ![true]

abbrev stage39_1 : Fin 2 → Memref sig .tc .vmem S6400x128 .f32 := fun | 0 => Memref.whole cc39_stg1_0 | 1 => Memref.whole cc39_stg1_1 | ⟨_ + 2, h⟩ => absurd h (Nat.not_lt.2 (Nat.le_add_left _ _))
abbrev sem39_1 : Fin 2 → DmaSem sig := fun | 0 => cc39_sem1_0 | 1 => cc39_sem1_1 | ⟨_ + 2, h⟩ => absurd h (Nat.not_lt.2 (Nat.le_add_left _ _))
abbrev reads39_1 : Fin grid39.rank → Bool := ![true]

abbrev stage39_2 : Fin 1 → Memref sig .tc .vmem S128x2 .f32 := fun | 0 => Memref.whole cc39_stg2_0 | ⟨_ + 1, h⟩ => absurd h (Nat.not_lt.2 (Nat.le_add_left _ _))
abbrev sem39_2 : Fin 1 → DmaSem sig := fun | 0 => cc39_sem2_0 | ⟨_ + 1, h⟩ => absurd h (Nat.not_lt.2 (Nat.le_add_left _ _))
abbrev reads39_2 : Fin grid39.rank → Bool := ![false]

abbrev stage39_3 : Fin 1 → Memref sig .tc .vmem S128x2 .f32 := fun | 0 => Memref.whole cc39_stg3_0 | ⟨_ + 1, h⟩ => absurd h (Nat.not_lt.2 (Nat.le_add_left _ _))
abbrev sem39_3 : Fin 1 → DmaSem sig := fun | 0 => cc39_sem3_0 | ⟨_ + 1, h⟩ => absurd h (Nat.not_lt.2 (Nat.le_add_left _ _))
abbrev reads39_3 : Fin grid39.rank → Bool := ![false]

abbrev stage39_4 : Fin 1 → Memref sig .tc .vmem S1x2 .f32 := fun | 0 => Memref.whole cc39_stg4_0 | ⟨_ + 1, h⟩ => absurd h (Nat.not_lt.2 (Nat.le_add_left _ _))
abbrev sem39_4 : Fin 1 → DmaSem sig := fun | 0 => cc39_sem4_0 | ⟨_ + 1, h⟩ => absurd h (Nat.not_lt.2 (Nat.le_add_left _ _))
abbrev reads39_4 : Fin grid39.rank → Bool := ![false]

abbrev stage39_5 : Fin 2 → Memref sig .tc .vmem S6400x2 .f32 := fun | 0 => Memref.whole cc39_stg5_0 | 1 => Memref.whole cc39_stg5_1 | ⟨_ + 2, h⟩ => absurd h (Nat.not_lt.2 (Nat.le_add_left _ _))
abbrev sem39_5 : Fin 2 → DmaSem sig := fun | 0 => cc39_sem5_0 | 1 => cc39_sem5_1 | ⟨_ + 2, h⟩ => absurd h (Nat.not_lt.2 (Nat.le_add_left _ _))
abbrev reads39_5 : Fin grid39.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S800000_S50000_S850000_d0 : Shape.Concatenates [S800000, S50000] S850000 0
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  slices_S850000_S85000_0 : S850000.Slices ![0] S85000
  numel1_S1 : S1.numel = 1
  inb_S8_S1_0 : ∀ a, (![0] : Fin 1 → Nat) a + S1.size a ≤ S8.size a
  squeezes_S1_S_ : S1.Squeezes S_
  inb_S8x128_S1x128_0_0 : ∀ a, (![0, 0] : Fin 2 → Nat) a + S1x128.size a ≤ S8x128.size a
  squeezes_S1x128_S128 : S1x128.Squeezes S128
  inb_S8_S1_1 : ∀ a, (![1] : Fin 1 → Nat) a + S1.size a ≤ S8.size a
  inb_S8x128_S1x128_1_0 : ∀ a, (![1, 0] : Fin 2 → Nat) a + S1x128.size a ≤ S8x128.size a
  inb_S8_S1_2 : ∀ a, (![2] : Fin 1 → Nat) a + S1.size a ≤ S8.size a
  inb_S8x128_S1x128_2_0 : ∀ a, (![2, 0] : Fin 2 → Nat) a + S1x128.size a ≤ S8x128.size a
  inb_S8_S1_3 : ∀ a, (![3] : Fin 1 → Nat) a + S1.size a ≤ S8.size a
  inb_S8x128_S1x128_3_0 : ∀ a, (![3, 0] : Fin 2 → Nat) a + S1x128.size a ≤ S8x128.size a
  inb_S8_S1_4 : ∀ a, (![4] : Fin 1 → Nat) a + S1.size a ≤ S8.size a
  inb_S8x128_S1x128_4_0 : ∀ a, (![4, 0] : Fin 2 → Nat) a + S1x128.size a ≤ S8x128.size a
  inb_S8_S1_5 : ∀ a, (![5] : Fin 1 → Nat) a + S1.size a ≤ S8.size a
  inb_S8x128_S1x128_5_0 : ∀ a, (![5, 0] : Fin 2 → Nat) a + S1x128.size a ≤ S8x128.size a
  inb_S8_S1_6 : ∀ a, (![6] : Fin 1 → Nat) a + S1.size a ≤ S8.size a
  inb_S8x128_S1x128_6_0 : ∀ a, (![6, 0] : Fin 2 → Nat) a + S1x128.size a ≤ S8x128.size a
  inb_S8_S1_7 : ∀ a, (![7] : Fin 1 → Nat) a + S1.size a ≤ S8.size a
  inb_S8x128_S1x128_7_0 : ∀ a, (![7, 0] : Fin 2 → Nat) a + S1x128.size a ≤ S8x128.size a
  slices_S850000_S85000_85000 : S850000.Slices ![85000] S85000
  slices_S850000_S85000_170000 : S850000.Slices ![170000] S85000
  slices_S850000_S85000_255000 : S850000.Slices ![255000] S85000
  slices_S850000_S85000_340000 : S850000.Slices ![340000] S85000
  slices_S850000_S85000_425000 : S850000.Slices ![425000] S85000
  slices_S850000_S85000_510000 : S850000.Slices ![510000] S85000
  slices_S850000_S85000_595000 : S850000.Slices ![595000] S85000
  slices_S850000_S85000_680000 : S850000.Slices ![680000] S85000
  slices_S850000_S85000_765000 : S850000.Slices ![765000] S85000
  concatenates_S85000x128_S85000x128_S85000x128_S85000x128_S85000x128_S85000x128_S85000x128_S85000x128_S85000x128_S85000x128_S850000x128_d0 : Shape.Concatenates [S85000x128, S85000x128, S85000x128, S85000x128, S85000x128, S85000x128, S85000x128, S85000x128, S85000x128, S85000x128] S850000x128 0
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  slices_S800000_S100000_0 : S800000.Slices ![0] S100000
  slices_S800000_S100000_100000 : S800000.Slices ![100000] S100000
  slices_S800000_S100000_200000 : S800000.Slices ![200000] S100000
  slices_S800000_S100000_300000 : S800000.Slices ![300000] S100000
  slices_S800000_S100000_400000 : S800000.Slices ![400000] S100000
  slices_S800000_S100000_500000 : S800000.Slices ![500000] S100000
  slices_S800000_S100000_600000 : S800000.Slices ![600000] S100000
  slices_S800000_S100000_700000 : S800000.Slices ![700000] S100000
  concatenates_S100000x128_S100000x128_S100000x128_S100000x128_S100000x128_S100000x128_S100000x128_S100000x128_S800000x128_d0 : Shape.Concatenates [S100000x128, S100000x128, S100000x128, S100000x128, S100000x128, S100000x128, S100000x128, S100000x128] S800000x128 0
  slices_S256x2_S128x2_0_0 : S256x2.Slices ![0, 0] S128x2
  slices_S256x2_S128x2_128_0 : S256x2.Slices ![128, 0] S128x2
  shapeCasts_S2_S1x2 : S2.ShapeCasts S1x2
  inb_S6400x128_S6400x128_0_0 : ∀ a, (![0, 0] : Fin 2 → Nat) a + S6400x128.size a ≤ S6400x128.size a
  h_S6400x128 : 0 < S6400x128.numel
  shapeCasts_S6400x128_S6400x128 : S6400x128.ShapeCasts S6400x128
  inb_S128x2_S128x2_0_0 : ∀ a, (![0, 0] : Fin 2 → Nat) a + S128x2.size a ≤ S128x2.size a
  h_S128x2 : 0 < S128x2.numel
  shapeCasts_S128x2_S128x2 : S128x2.ShapeCasts S128x2
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S6400x2 : S1x2.Broadcasts S6400x2
  inb_S6400x2_S6400x2_0_0 : ∀ a, (![0, 0] : Fin 2 → Nat) a + S6400x2.size a ≤ S6400x2.size a
  h_S6400x2 : 0 < S6400x2.numel
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S5000x128_S128x128_S5000x128_1_0_0_1_n_n_wf : DotDims.WF S5000x128 S128x128 S5000x128 [1] [0] [0] [1] [] []
  scatter_S50000x128_S850000x1_S850000x128_1_0_0_1_wf : ScatterDims.WF S50000x128 S850000x1 S850000x128 [1] [0] [0] 1
  dot_S6400x128_S128x2_S6400x2_1_0_0_1_n_n_wf : DotDims.WF S6400x128 S128x2 S6400x2 [1] [0] [0] [1] [] []
  hcc1_scratch0 : 7 + S8.numel ≤ 385
  hcc2_scratch0 : 17 + S8.numel ≤ 385
  hcc3_scratch0 : 27 + S8.numel ≤ 385
  hcc4_scratch0 : 37 + S8.numel ≤ 385
  hcc5_scratch0 : 47 + S8.numel ≤ 385
  hcc6_scratch0 : 57 + S8.numel ≤ 385
  hcc7_scratch0 : 67 + S8.numel ≤ 385
  hcc8_scratch0 : 77 + S8.numel ≤ 385
  hcc9_scratch0 : 87 + S8.numel ≤ 385
  hcc10_scratch0 : 97 + S8.numel ≤ 385
  hcc12_scratch0 : 113 + S8.numel ≤ 385
  hcc13_scratch0 : 123 + S8.numel ≤ 385
  hcc14_scratch0 : 133 + S8.numel ≤ 385
  hcc15_scratch0 : 143 + S8.numel ≤ 385
  hcc16_scratch0 : 153 + S8.numel ≤ 385
  hcc17_scratch0 : 163 + S8.numel ≤ 385
  hcc18_scratch0 : 173 + S8.numel ≤ 385
  hcc19_scratch0 : 183 + S8.numel ≤ 385
  hcc20_scratch0 : 193 + S8.numel ≤ 385
  hcc21_scratch0 : 203 + S8.numel ≤ 385
  hcc23_scratch0 : 218 + S8.numel ≤ 385
  hcc24_scratch0 : 228 + S8.numel ≤ 385
  hcc25_scratch0 : 238 + S8.numel ≤ 385
  hcc26_scratch0 : 248 + S8.numel ≤ 385
  hcc27_scratch0 : 258 + S8.numel ≤ 385
  hcc28_scratch0 : 268 + S8.numel ≤ 385
  hcc29_scratch0 : 278 + S8.numel ≤ 385
  hcc30_scratch0 : 288 + S8.numel ≤ 385
  hcc31_scratch0 : 298 + S8.numel ≤ 385
  hcc32_scratch0 : 308 + S8.numel ≤ 385
  hcc33_scratch0 : 318 + S8.numel ≤ 385
  hcc34_scratch0 : 328 + S8.numel ≤ 385
  hcc35_scratch0 : 338 + S8.numel ≤ 385
  hcc36_scratch0 : 348 + S8.numel ≤ 385
  hcc37_scratch0 : 358 + S8.numel ≤ 385
  hcc38_scratch0 : 368 + S8.numel ≤ 385
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .f32 = 32 ∨ (Rect.block (s := S50000x128) S5000x128.size (cc0_transform_2 i) (hinb0_2 i)).WholeWords (EltTy.packing .f32)
  hrank1 : 0 < grid1.rank
  k1_off1_inb : ∀ i : grid1.Coords, ∀ a, (k1_off1 i) a + S1.size a ≤ S85000.size a
  k1_off3_inb : ∀ i : grid1.Coords, ∀ a, (k1_off3 i) a + S1.size a ≤ S85000.size a
  k1_off5_inb : ∀ i : grid1.Coords, ∀ a, (k1_off5 i) a + S1.size a ≤ S85000.size a
  k1_off7_inb : ∀ i : grid1.Coords, ∀ a, (k1_off7 i) a + S1.size a ≤ S85000.size a
  k1_off9_inb : ∀ i : grid1.Coords, ∀ a, (k1_off9 i) a + S1.size a ≤ S85000.size a
  k1_off11_inb : ∀ i : grid1.Coords, ∀ a, (k1_off11 i) a + S1.size a ≤ S85000.size a
  k1_off13_inb : ∀ i : grid1.Coords, ∀ a, (k1_off13 i) a + S1.size a ≤ S85000.size a
  k1_off15_inb : ∀ i : grid1.Coords, ∀ a, (k1_off15 i) a + S1.size a ≤ S85000.size a
  hstage1_0 : ∀ j, (stage1_0 j).IsWhole
  nbuf1_0 : grid1.bufCount reads1_0 false = 2
  hreads1_0 : ∀ i i' : grid1.Coords, (∀ a, reads1_0 a = true → i a = i' a) → cc1_transform_1 i = cc1_transform_1 i'
  hinb1_0 : ∀ (i : grid1.Coords) a, (cc1_transform_1 i a + 1) * S8x128.size a ≤ S85000x128.size a
  hwx1_0 : ∀ i : grid1.Coords, EltTy.bits .f32 = 32 ∨ (Rect.block (s := S85000x128) S8x128.size (cc1_transform_1 i) (hinb1_0 i)).WholeWords (EltTy.packing .f32)
  hrank2 : 0 < grid2.rank
  k2_off1_inb : ∀ i : grid2.Coords, ∀ a, (k2_off1 i) a + S1.size a ≤ S85000.size a
  k2_off3_inb : ∀ i : grid2.Coords, ∀ a, (k2_off3 i) a + S1.size a ≤ S85000.size a
  k2_off5_inb : ∀ i : grid2.Coords, ∀ a, (k2_off5 i) a + S1.size a ≤ S85000.size a
  k2_off7_inb : ∀ i : grid2.Coords, ∀ a, (k2_off7 i) a + S1.size a ≤ S85000.size a
  k2_off9_inb : ∀ i : grid2.Coords, ∀ a, (k2_off9 i) a + S1.size a ≤ S85000.size a
  k2_off11_inb : ∀ i : grid2.Coords, ∀ a, (k2_off11 i) a + S1.size a ≤ S85000.size a
  k2_off13_inb : ∀ i : grid2.Coords, ∀ a, (k2_off13 i) a + S1.size a ≤ S85000.size a
  k2_off15_inb : ∀ i : grid2.Coords, ∀ a, (k2_off15 i) a + S1.size a ≤ S85000.size a
  hstage2_0 : ∀ j, (stage2_0 j).IsWhole
  nbuf2_0 : grid2.bufCount reads2_0 false = 2
  hreads2_0 : ∀ i i' : grid2.Coords, (∀ a, reads2_0 a = true → i a = i' a) → cc2_transform_1 i = cc2_transform_1 i'
  hinb2_0 : ∀ (i : grid2.Coords) a, (cc2_transform_1 i a + 1) * S8x128.size a ≤ S85000x128.size a
  hwx2_0 : ∀ i : grid2.Coords, EltTy.bits .f32 = 32 ∨ (Rect.block (s := S85000x128) S8x128.size (cc2_transform_1 i) (hinb2_0 i)).WholeWords (EltTy.packing .f32)
  hrank3 : 0 < grid3.rank
  k3_off1_inb : ∀ i : grid3.Coords, ∀ a, (k3_off1 i) a + S1.size a ≤ S85000.size a
  k3_off3_inb : ∀ i : grid3.Coords, ∀ a, (k3_off3 i) a + S1.size a ≤ S85000.size a
  k3_off5_inb : ∀ i : grid3.Coords, ∀ a, (k3_off5 i) a + S1.size a ≤ S85000.size a
  k3_off7_inb : ∀ i : grid3.Coords, ∀ a, (k3_off7 i) a + S1.size a ≤ S85000.size a
  k3_off9_inb : ∀ i : grid3.Coords, ∀ a, (k3_off9 i) a + S1.size a ≤ S85000.size a
  k3_off11_inb : ∀ i : grid3.Coords, ∀ a, (k3_off11 i) a + S1.size a ≤ S85000.size a
  k3_off13_inb : ∀ i : grid3.Coords, ∀ a, (k3_off13 i) a + S1.size a ≤ S85000.size a
  k3_off15_inb : ∀ i : grid3.Coords, ∀ a, (k3_off15 i) a + S1.size a ≤ S85000.size a
  hstage3_0 : ∀ j, (stage3_0 j).IsWhole
  nbuf3_0 : grid3.bufCount reads3_0 false = 2
  hreads3_0 : ∀ i i' : grid3.Coords, (∀ a, reads3_0 a = true → i a = i' a) → cc3_transform_1 i = cc3_transform_1 i'
  hinb3_0 : ∀ (i : grid3.Coords) a, (cc3_transform_1 i a + 1) * S8x128.size a ≤ S85000x128.size a
  hwx3_0 : ∀ i : grid3.Coords, EltTy.bits .f32 = 32 ∨ (Rect.block (s := S85000x128) S8x128.size (cc3_transform_1 i) (hinb3_0 i)).WholeWords (EltTy.packing .f32)
  hrank4 : 0 < grid4.rank
  k4_off1_inb : ∀ i : grid4.Coords, ∀ a, (k4_off1 i) a + S1.size a ≤ S85000.size a
  k4_off3_inb : ∀ i : grid4.Coords, ∀ a, (k4_off3 i) a + S1.size a ≤ S85000.size a
  k4_off5_inb : ∀ i : grid4.Coords, ∀ a, (k4_off5 i) a + S1.size a ≤ S85000.size a
  k4_off7_inb : ∀ i : grid4.Coords, ∀ a, (k4_off7 i) a + S1.size a ≤ S85000.size a
  k4_off9_inb : ∀ i : grid4.Coords, ∀ a, (k4_off9 i) a + S1.size a ≤ S85000.size a
  k4_off11_inb : ∀ i : grid4.Coords, ∀ a, (k4_off11 i) a + S1.size a ≤ S85000.size a
  k4_off13_inb : ∀ i : grid4.Coords, ∀ a, (k4_off13 i) a + S1.size a ≤ S85000.size a
  k4_off15_inb : ∀ i : grid4.Coords, ∀ a, (k4_off15 i) a + S1.size a ≤ S85000.size a
  hstage4_0 : ∀ j, (stage4_0 j).IsWhole
  nbuf4_0 : grid4.bufCount reads4_0 false = 2
  hreads4_0 : ∀ i i' : grid4.Coords, (∀ a, reads4_0 a = true → i a = i' a) → cc4_transform_1 i = cc4_transform_1 i'
  hinb4_0 : ∀ (i : grid4.Coords) a, (cc4_transform_1 i a + 1) * S8x128.size a ≤ S85000x128.size a
  hwx4_0 : ∀ i : grid4.Coords, EltTy.bits .f32 = 32 ∨ (Rect.block (s := S85000x128) S8x128.size (cc4_transform_1 i) (hinb4_0 i)).WholeWords (EltTy.packing .f32)
  hrank5 : 0 < grid5.rank
  k5_off1_inb : ∀ i : grid5.Coords, ∀ a, (k5_off1 i) a + S1.size a ≤ S85000.size a
  k5_off3_inb : ∀ i : grid5.Coords, ∀ a, (k5_off3 i) a + S1.size a ≤ S85000.size a
  k5_off5_inb : ∀ i : grid5.Coords, ∀ a, (k5_off5 i) a + S1.size a ≤ S85000.size a
  k5_off7_inb : ∀ i : grid5.Coords, ∀ a, (k5_off7 i) a + S1.size a ≤ S85000.size a
  k5_off9_inb : ∀ i : grid5.Coords, ∀ a, (k5_off9 i) a + S1.size a ≤ S85000.size a
  k5_off11_inb : ∀ i : grid5.Coords, ∀ a, (k5_off11 i) a + S1.size a ≤ S85000.size a
  k5_off13_inb : ∀ i : grid5.Coords, ∀ a, (k5_off13 i) a + S1.size a ≤ S85000.size a
  k5_off15_inb : ∀ i : grid5.Coords, ∀ a, (k5_off15 i) a + S1.size a ≤ S85000.size a
  hstage5_0 : ∀ j, (stage5_0 j).IsWhole
  nbuf5_0 : grid5.bufCount reads5_0 false = 2
  hreads5_0 : ∀ i i' : grid5.Coords, (∀ a, reads5_0 a = true → i a = i' a) → cc5_transform_1 i = cc5_transform_1 i'
  hinb5_0 : ∀ (i : grid5.Coords) a, (cc5_transform_1 i a + 1) * S8x128.size a ≤ S85000x128.size a
  hwx5_0 : ∀ i : grid5.Coords, EltTy.bits .f32 = 32 ∨ (Rect.block (s := S85000x128) S8x128.size (cc5_transform_1 i) (hinb5_0 i)).WholeWords (EltTy.packing .f32)
  hrank6 : 0 < grid6.rank
  k6_off1_inb : ∀ i : grid6.Coords, ∀ a, (k6_off1 i) a + S1.size a ≤ S85000.size a
  k6_off3_inb : ∀ i : grid6.Coords, ∀ a, (k6_off3 i) a + S1.size a ≤ S85000.size a
  k6_off5_inb : ∀ i : grid6.Coords, ∀ a, (k6_off5 i) a + S1.size a ≤ S85000.size a
  k6_off7_inb : ∀ i : grid6.Coords, ∀ a, (k6_off7 i) a + S1.size a ≤ S85000.size a
  k6_off9_inb : ∀ i : grid6.Coords, ∀ a, (k6_off9 i) a + S1.size a ≤ S85000.size a
  k6_off11_inb : ∀ i : grid6.Coords, ∀ a, (k6_off11 i) a + S1.size a ≤ S85000.size a
  k6_off13_inb : ∀ i : grid6.Coords, ∀ a, (k6_off13 i) a + S1.size a ≤ S85000.size a
  k6_off15_inb : ∀ i : grid6.Coords, ∀ a, (k6_off15 i) a + S1.size a ≤ S85000.size a
  hstage6_0 : ∀ j, (stage6_0 j).IsWhole
  nbuf6_0 : grid6.bufCount reads6_0 false = 2
  hreads6_0 : ∀ i i' : grid6.Coords, (∀ a, reads6_0 a = true → i a = i' a) → cc6_transform_1 i = cc6_transform_1 i'
  hinb6_0 : ∀ (i : grid6.Coords) a, (cc6_transform_1 i a + 1) * S8x128.size a ≤ S85000x128.size a
  hwx6_0 : ∀ i : grid6.Coords, EltTy.bits .f32 = 32 ∨ (Rect.block (s := S85000x128) S8x128.size (cc6_transform_1 i) (hinb6_0 i)).WholeWords (EltTy.packing .f32)
  hrank7 : 0 < grid7.rank
  k7_off1_inb : ∀ i : grid7.Coords, ∀ a, (k7_off1 i) a + S1.size a ≤ S85000.size a
  k7_off3_inb : ∀ i : grid7.Coords, ∀ a, (k7_off3 i) a + S1.size a ≤ S85000.size a
  k7_off5_inb : ∀ i : grid7.Coords, ∀ a, (k7_off5 i) a + S1.size a ≤ S85000.size a
  k7_off7_inb : ∀ i : grid7.Coords, ∀ a, (k7_off7 i) a + S1.size a ≤ S85000.size a
  k7_off9_inb : ∀ i : grid7.Coords, ∀ a, (k7_off9 i) a + S1.size a ≤ S85000.size a
  k7_off11_inb : ∀ i : grid7.Coords, ∀ a, (k7_off11 i) a + S1.size a ≤ S85000.size a
  k7_off13_inb : ∀ i : grid7.Coords, ∀ a, (k7_off13 i) a + S1.size a ≤ S85000.size a
  k7_off15_inb : ∀ i : grid7.Coords, ∀ a, (k7_off15 i) a + S1.size a ≤ S85000.size a
  hstage7_0 : ∀ j, (stage7_0 j).IsWhole
  nbuf7_0 : grid7.bufCount reads7_0 false = 2
  hreads7_0 : ∀ i i' : grid7.Coords, (∀ a, reads7_0 a = true → i a = i' a) → cc7_transform_1 i = cc7_transform_1 i'
  hinb7_0 : ∀ (i : grid7.Coords) a, (cc7_transform_1 i a + 1) * S8x128.size a ≤ S85000x128.size a
  hwx7_0 : ∀ i : grid7.Coords, EltTy.bits .f32 = 32 ∨ (Rect.block (s := S85000x128) S8x128.size (cc7_transform_1 i) (hinb7_0 i)).WholeWords (EltTy.packing .f32)
  hrank8 : 0 < grid8.rank
  k8_off1_inb : ∀ i : grid8.Coords, ∀ a, (k8_off1 i) a + S1.size a ≤ S85000.size a
  k8_off3_inb : ∀ i : grid8.Coords, ∀ a, (k8_off3 i) a + S1.size a ≤ S85000.size a
  k8_off5_inb : ∀ i : grid8.Coords, ∀ a, (k8_off5 i) a + S1.size a ≤ S85000.size a
  k8_off7_inb : ∀ i : grid8.Coords, ∀ a, (k8_off7 i) a + S1.size a ≤ S85000.size a
  k8_off9_inb : ∀ i : grid8.Coords, ∀ a, (k8_off9 i) a + S1.size a ≤ S85000.size a
  k8_off11_inb : ∀ i : grid8.Coords, ∀ a, (k8_off11 i) a + S1.size a ≤ S85000.size a
  k8_off13_inb : ∀ i : grid8.Coords, ∀ a, (k8_off13 i) a + S1.size a ≤ S85000.size a
  k8_off15_inb : ∀ i : grid8.Coords, ∀ a, (k8_off15 i) a + S1.size a ≤ S85000.size a
  hstage8_0 : ∀ j, (stage8_0 j).IsWhole
  nbuf8_0 : grid8.bufCount reads8_0 false = 2
  hreads8_0 : ∀ i i' : grid8.Coords, (∀ a, reads8_0 a = true → i a = i' a) → cc8_transform_1 i = cc8_transform_1 i'
  hinb8_0 : ∀ (i : grid8.Coords) a, (cc8_transform_1 i a + 1) * S8x128.size a ≤ S85000x128.size a
  hwx8_0 : ∀ i : grid8.Coords, EltTy.bits .f32 = 32 ∨ (Rect.block (s := S85000x128) S8x128.size (cc8_transform_1 i) (hinb8_0 i)).WholeWords (EltTy.packing .f32)
  hrank9 : 0 < grid9.rank
  k9_off1_inb : ∀ i : grid9.Coords, ∀ a, (k9_off1 i) a + S1.size a ≤ S85000.size a
  k9_off3_inb : ∀ i : grid9.Coords, ∀ a, (k9_off3 i) a + S1.size a ≤ S85000.size a
  k9_off5_inb : ∀ i : grid9.Coords, ∀ a, (k9_off5 i) a + S1.size a ≤ S85000.size a
  k9_off7_inb : ∀ i : grid9.Coords, ∀ a, (k9_off7 i) a + S1.size a ≤ S85000.size a
  k9_off9_inb : ∀ i : grid9.Coords, ∀ a, (k9_off9 i) a + S1.size a ≤ S85000.size a
  k9_off11_inb : ∀ i : grid9.Coords, ∀ a, (k9_off11 i) a + S1.size a ≤ S85000.size a
  k9_off13_inb : ∀ i : grid9.Coords, ∀ a, (k9_off13 i) a + S1.size a ≤ S85000.size a
  k9_off15_inb : ∀ i : grid9.Coords, ∀ a, (k9_off15 i) a + S1.size a ≤ S85000.size a
  hstage9_0 : ∀ j, (stage9_0 j).IsWhole
  nbuf9_0 : grid9.bufCount reads9_0 false = 2
  hreads9_0 : ∀ i i' : grid9.Coords, (∀ a, reads9_0 a = true → i a = i' a) → cc9_transform_1 i = cc9_transform_1 i'
  hinb9_0 : ∀ (i : grid9.Coords) a, (cc9_transform_1 i a + 1) * S8x128.size a ≤ S85000x128.size a
  hwx9_0 : ∀ i : grid9.Coords, EltTy.bits .f32 = 32 ∨ (Rect.block (s := S85000x128) S8x128.size (cc9_transform_1 i) (hinb9_0 i)).WholeWords (EltTy.packing .f32)
  hrank10 : 0 < grid10.rank
  k10_off1_inb : ∀ i : grid10.Coords, ∀ a, (k10_off1 i) a + S1.size a ≤ S85000.size a
  k10_off3_inb : ∀ i : grid10.Coords, ∀ a, (k10_off3 i) a + S1.size a ≤ S85000.size a
  k10_off5_inb : ∀ i : grid10.Coords, ∀ a, (k10_off5 i) a + S1.size a ≤ S85000.size a
  k10_off7_inb : ∀ i : grid10.Coords, ∀ a, (k10_off7 i) a + S1.size a ≤ S85000.size a
  k10_off9_inb : ∀ i : grid10.Coords, ∀ a, (k10_off9 i) a + S1.size a ≤ S85000.size a
  k10_off11_inb : ∀ i : grid10.Coords, ∀ a, (k10_off11 i) a + S1.size a ≤ S85000.size a
  k10_off13_inb : ∀ i : grid10.Coords, ∀ a, (k10_off13 i) a + S1.size a ≤ S85000.size a
  k10_off15_inb : ∀ i : grid10.Coords, ∀ a, (k10_off15 i) a + S1.size a ≤ S85000.size a
  hstage10_0 : ∀ j, (stage10_0 j).IsWhole
  nbuf10_0 : grid10.bufCount reads10_0 false = 2
  hreads10_0 : ∀ i i' : grid10.Coords, (∀ a, reads10_0 a = true → i a = i' a) → cc10_transform_1 i = cc10_transform_1 i'
  hinb10_0 : ∀ (i : grid10.Coords) a, (cc10_transform_1 i a + 1) * S8x128.size a ≤ S85000x128.size a
  hwx10_0 : ∀ i : grid10.Coords, EltTy.bits .f32 = 32 ∨ (Rect.block (s := S85000x128) S8x128.size (cc10_transform_1 i) (hinb10_0 i)).WholeWords (EltTy.packing .f32)
  hrank11 : 0 < grid11.rank
  hstage11_0 : ∀ j, (stage11_0 j).IsWhole
  nbuf11_0 : grid11.bufCount reads11_0 false = 2
  hreads11_0 : ∀ i i' : grid11.Coords, (∀ a, reads11_0 a = true → i a = i' a) → cc11_transform_0 i = cc11_transform_0 i'
  hinb11_0 : ∀ (i : grid11.Coords) a, (cc11_transform_0 i a + 1) * S5000x128.size a ≤ S50000x128.size a
  hwx11_0 : ∀ i : grid11.Coords, EltTy.bits .f32 = 32 ∨ (Rect.block (s := S50000x128) S5000x128.size (cc11_transform_0 i) (hinb11_0 i)).WholeWords (EltTy.packing .f32)
  hstage11_1 : ∀ j, (stage11_1 j).IsWhole
  nbuf11_1 : grid11.bufCount reads11_1 true = 1
  hreads11_1 : ∀ i i' : grid11.Coords, (∀ a, reads11_1 a = true → i a = i' a) → cc11_transform_1 i = cc11_transform_1 i'
  hinb11_1 : ∀ (i : grid11.Coords) a, (cc11_transform_1 i a + 1) * S1x128.size a ≤ S1x128.size a
  hwx11_1 : ∀ i : grid11.Coords, EltTy.bits .f32 = 32 ∨ (Rect.block (s := S1x128) S1x128.size (cc11_transform_1 i) (hinb11_1 i)).WholeWords (EltTy.packing .f32)
  hstage11_2 : ∀ j, (stage11_2 j).IsWhole
  nbuf11_2 : grid11.bufCount reads11_2 true = 1
  hreads11_2 : ∀ i i' : grid11.Coords, (∀ a, reads11_2 a = true → i a = i' a) → cc11_transform_2 i = cc11_transform_2 i'
  hinb11_2 : ∀ (i : grid11.Coords) a, (cc11_transform_2 i a + 1) * S128x128.size a ≤ S128x128.size a
  hwx11_2 : ∀ i : grid11.Coords, EltTy.bits .f32 = 32 ∨ (Rect.block (s := S128x128) S128x128.size (cc11_transform_2 i) (hinb11_2 i)).WholeWords (EltTy.packing .f32)
  hstage11_3 : ∀ j, (stage11_3 j).IsWhole
  nbuf11_3 : grid11.bufCount reads11_3 false = 2
  hreads11_3 : ∀ i i' : grid11.Coords, (∀ a, reads11_3 a = true → i a = i' a) → cc11_transform_3 i = cc11_transform_3 i'
  hinb11_3 : ∀ (i : grid11.Coords) a, (cc11_transform_3 i a + 1) * S5000x128.size a ≤ S50000x128.size a
  hwx11_3 : ∀ i : grid11.Coords, EltTy.bits .f32 = 32 ∨ (Rect.block (s := S50000x128) S5000x128.size (cc11_transform_3 i) (hinb11_3 i)).WholeWords (EltTy.packing .f32)
  hrank12 : 0 < grid12.rank
  k12_off1_inb : ∀ i : grid12.Coords, ∀ a, (k12_off1 i) a + S1.size a ≤ S85000.size a
  k12_off3_inb : ∀ i : grid12.Coords, ∀ a, (k12_off3 i) a + S1.size a ≤ S85000.size a
  k12_off5_inb : ∀ i : grid12.Coords, ∀ a, (k12_off5 i) a + S1.size a ≤ S85000.size a
  k12_off7_inb : ∀ i : grid12.Coords, ∀ a, (k12_off7 i) a + S1.size a ≤ S85000.size a
  k12_off9_inb : ∀ i : grid12.Coords, ∀ a, (k12_off9 i) a + S1.size a ≤ S85000.size a
  k12_off11_inb : ∀ i : grid12.Coords, ∀ a, (k12_off11 i) a + S1.size a ≤ S85000.size a
  k12_off13_inb : ∀ i : grid12.Coords, ∀ a, (k12_off13 i) a + S1.size a ≤ S85000.size a
  k12_off15_inb : ∀ i : grid12.Coords, ∀ a, (k12_off15 i) a + S1.size a ≤ S85000.size a
  hstage12_0 : ∀ j, (stage12_0 j).IsWhole
  nbuf12_0 : grid12.bufCount reads12_0 false = 2
  hreads12_0 : ∀ i i' : grid12.Coords, (∀ a, reads12_0 a = true → i a = i' a) → cc12_transform_1 i = cc12_transform_1 i'
  hinb12_0 : ∀ (i : grid12.Coords) a, (cc12_transform_1 i a + 1) * S8x128.size a ≤ S85000x128.size a
  hwx12_0 : ∀ i : grid12.Coords, EltTy.bits .f32 = 32 ∨ (Rect.block (s := S85000x128) S8x128.size (cc12_transform_1 i) (hinb12_0 i)).WholeWords (EltTy.packing .f32)
  hrank13 : 0 < grid13.rank
  k13_off1_inb : ∀ i : grid13.Coords, ∀ a, (k13_off1 i) a + S1.size a ≤ S85000.size a
  k13_off3_inb : ∀ i : grid13.Coords, ∀ a, (k13_off3 i) a + S1.size a ≤ S85000.size a
  k13_off5_inb : ∀ i : grid13.Coords, ∀ a, (k13_off5 i) a + S1.size a ≤ S85000.size a
  k13_off7_inb : ∀ i : grid13.Coords, ∀ a, (k13_off7 i) a + S1.size a ≤ S85000.size a
  k13_off9_inb : ∀ i : grid13.Coords, ∀ a, (k13_off9 i) a + S1.size a ≤ S85000.size a
  k13_off11_inb : ∀ i : grid13.Coords, ∀ a, (k13_off11 i) a + S1.size a ≤ S85000.size a
  k13_off13_inb : ∀ i : grid13.Coords, ∀ a, (k13_off13 i) a + S1.size a ≤ S85000.size a
  k13_off15_inb : ∀ i : grid13.Coords, ∀ a, (k13_off15 i) a + S1.size a ≤ S85000.size a
  hstage13_0 : ∀ j, (stage13_0 j).IsWhole
  nbuf13_0 : grid13.bufCount reads13_0 false = 2
  hreads13_0 : ∀ i i' : grid13.Coords, (∀ a, reads13_0 a = true → i a = i' a) → cc13_transform_1 i = cc13_transform_1 i'
  hinb13_0 : ∀ (i : grid13.Coords) a, (cc13_transform_1 i a + 1) * S8x128.size a ≤ S85000x128.size a
  hwx13_0 : ∀ i : grid13.Coords, EltTy.bits .f32 = 32 ∨ (Rect.block (s := S85000x128) S8x128.size (cc13_transform_1 i) (hinb13_0 i)).WholeWords (EltTy.packing .f32)
  hrank14 : 0 < grid14.rank
  k14_off1_inb : ∀ i : grid14.Coords, ∀ a, (k14_off1 i) a + S1.size a ≤ S85000.size a
  k14_off3_inb : ∀ i : grid14.Coords, ∀ a, (k14_off3 i) a + S1.size a ≤ S85000.size a
  k14_off5_inb : ∀ i : grid14.Coords, ∀ a, (k14_off5 i) a + S1.size a ≤ S85000.size a
  k14_off7_inb : ∀ i : grid14.Coords, ∀ a, (k14_off7 i) a + S1.size a ≤ S85000.size a
  k14_off9_inb : ∀ i : grid14.Coords, ∀ a, (k14_off9 i) a + S1.size a ≤ S85000.size a
  k14_off11_inb : ∀ i : grid14.Coords, ∀ a, (k14_off11 i) a + S1.size a ≤ S85000.size a
  k14_off13_inb : ∀ i : grid14.Coords, ∀ a, (k14_off13 i) a + S1.size a ≤ S85000.size a
  k14_off15_inb : ∀ i : grid14.Coords, ∀ a, (k14_off15 i) a + S1.size a ≤ S85000.size a
  hstage14_0 : ∀ j, (stage14_0 j).IsWhole
  nbuf14_0 : grid14.bufCount reads14_0 false = 2
  hreads14_0 : ∀ i i' : grid14.Coords, (∀ a, reads14_0 a = true → i a = i' a) → cc14_transform_1 i = cc14_transform_1 i'
  hinb14_0 : ∀ (i : grid14.Coords) a, (cc14_transform_1 i a + 1) * S8x128.size a ≤ S85000x128.size a
  hwx14_0 : ∀ i : grid14.Coords, EltTy.bits .f32 = 32 ∨ (Rect.block (s := S85000x128) S8x128.size (cc14_transform_1 i) (hinb14_0 i)).WholeWords (EltTy.packing .f32)
  hrank15 : 0 < grid15.rank
  k15_off1_inb : ∀ i : grid15.Coords, ∀ a, (k15_off1 i) a + S1.size a ≤ S85000.size a
  k15_off3_inb : ∀ i : grid15.Coords, ∀ a, (k15_off3 i) a + S1.size a ≤ S85000.size a
  k15_off5_inb : ∀ i : grid15.Coords, ∀ a, (k15_off5 i) a + S1.size a ≤ S85000.size a
  k15_off7_inb : ∀ i : grid15.Coords, ∀ a, (k15_off7 i) a + S1.size a ≤ S85000.size a
  k15_off9_inb : ∀ i : grid15.Coords, ∀ a, (k15_off9 i) a + S1.size a ≤ S85000.size a
  k15_off11_inb : ∀ i : grid15.Coords, ∀ a, (k15_off11 i) a + S1.size a ≤ S85000.size a
  k15_off13_inb : ∀ i : grid15.Coords, ∀ a, (k15_off13 i) a + S1.size a ≤ S85000.size a
  k15_off15_inb : ∀ i : grid15.Coords, ∀ a, (k15_off15 i) a + S1.size a ≤ S85000.size a
  hstage15_0 : ∀ j, (stage15_0 j).IsWhole
  nbuf15_0 : grid15.bufCount reads15_0 false = 2
  hreads15_0 : ∀ i i' : grid15.Coords, (∀ a, reads15_0 a = true → i a = i' a) → cc15_transform_1 i = cc15_transform_1 i'
  hinb15_0 : ∀ (i : grid15.Coords) a, (cc15_transform_1 i a + 1) * S8x128.size a ≤ S85000x128.size a
  hwx15_0 : ∀ i : grid15.Coords, EltTy.bits .f32 = 32 ∨ (Rect.block (s := S85000x128) S8x128.size (cc15_transform_1 i) (hinb15_0 i)).WholeWords (EltTy.packing .f32)
  hrank16 : 0 < grid16.rank
  k16_off1_inb : ∀ i : grid16.Coords, ∀ a, (k16_off1 i) a + S1.size a ≤ S85000.size a
  k16_off3_inb : ∀ i : grid16.Coords, ∀ a, (k16_off3 i) a + S1.size a ≤ S85000.size a
  k16_off5_inb : ∀ i : grid16.Coords, ∀ a, (k16_off5 i) a + S1.size a ≤ S85000.size a
  k16_off7_inb : ∀ i : grid16.Coords, ∀ a, (k16_off7 i) a + S1.size a ≤ S85000.size a
  k16_off9_inb : ∀ i : grid16.Coords, ∀ a, (k16_off9 i) a + S1.size a ≤ S85000.size a
  k16_off11_inb : ∀ i : grid16.Coords, ∀ a, (k16_off11 i) a + S1.size a ≤ S85000.size a
  k16_off13_inb : ∀ i : grid16.Coords, ∀ a, (k16_off13 i) a + S1.size a ≤ S85000.size a
  k16_off15_inb : ∀ i : grid16.Coords, ∀ a, (k16_off15 i) a + S1.size a ≤ S85000.size a
  hstage16_0 : ∀ j, (stage16_0 j).IsWhole
  nbuf16_0 : grid16.bufCount reads16_0 false = 2
  hreads16_0 : ∀ i i' : grid16.Coords, (∀ a, reads16_0 a = true → i a = i' a) → cc16_transform_1 i = cc16_transform_1 i'
  hinb16_0 : ∀ (i : grid16.Coords) a, (cc16_transform_1 i a + 1) * S8x128.size a ≤ S85000x128.size a
  hwx16_0 : ∀ i : grid16.Coords, EltTy.bits .f32 = 32 ∨ (Rect.block (s := S85000x128) S8x128.size (cc16_transform_1 i) (hinb16_0 i)).WholeWords (EltTy.packing .f32)
  hrank17 : 0 < grid17.rank
  k17_off1_inb : ∀ i : grid17.Coords, ∀ a, (k17_off1 i) a + S1.size a ≤ S85000.size a
  k17_off3_inb : ∀ i : grid17.Coords, ∀ a, (k17_off3 i) a + S1.size a ≤ S85000.size a
  k17_off5_inb : ∀ i : grid17.Coords, ∀ a, (k17_off5 i) a + S1.size a ≤ S85000.size a
  k17_off7_inb : ∀ i : grid17.Coords, ∀ a, (k17_off7 i) a + S1.size a ≤ S85000.size a
  k17_off9_inb : ∀ i : grid17.Coords, ∀ a, (k17_off9 i) a + S1.size a ≤ S85000.size a
  k17_off11_inb : ∀ i : grid17.Coords, ∀ a, (k17_off11 i) a + S1.size a ≤ S85000.size a
  k17_off13_inb : ∀ i : grid17.Coords, ∀ a, (k17_off13 i) a + S1.size a ≤ S85000.size a
  k17_off15_inb : ∀ i : grid17.Coords, ∀ a, (k17_off15 i) a + S1.size a ≤ S85000.size a
  hstage17_0 : ∀ j, (stage17_0 j).IsWhole
  nbuf17_0 : grid17.bufCount reads17_0 false = 2
  hreads17_0 : ∀ i i' : grid17.Coords, (∀ a, reads17_0 a = true → i a = i' a) → cc17_transform_1 i = cc17_transform_1 i'
  hinb17_0 : ∀ (i : grid17.Coords) a, (cc17_transform_1 i a + 1) * S8x128.size a ≤ S85000x128.size a
  hwx17_0 : ∀ i : grid17.Coords, EltTy.bits .f32 = 32 ∨ (Rect.block (s := S85000x128) S8x128.size (cc17_transform_1 i) (hinb17_0 i)).WholeWords (EltTy.packing .f32)
  hrank18 : 0 < grid18.rank
  k18_off1_inb : ∀ i : grid18.Coords, ∀ a, (k18_off1 i) a + S1.size a ≤ S85000.size a
  k18_off3_inb : ∀ i : grid18.Coords, ∀ a, (k18_off3 i) a + S1.size a ≤ S85000.size a
  k18_off5_inb : ∀ i : grid18.Coords, ∀ a, (k18_off5 i) a + S1.size a ≤ S85000.size a
  k18_off7_inb : ∀ i : grid18.Coords, ∀ a, (k18_off7 i) a + S1.size a ≤ S85000.size a
  k18_off9_inb : ∀ i : grid18.Coords, ∀ a, (k18_off9 i) a + S1.size a ≤ S85000.size a
  k18_off11_inb : ∀ i : grid18.Coords, ∀ a, (k18_off11 i) a + S1.size a ≤ S85000.size a
  k18_off13_inb : ∀ i : grid18.Coords, ∀ a, (k18_off13 i) a + S1.size a ≤ S85000.size a
  k18_off15_inb : ∀ i : grid18.Coords, ∀ a, (k18_off15 i) a + S1.size a ≤ S85000.size a
  hstage18_0 : ∀ j, (stage18_0 j).IsWhole
  nbuf18_0 : grid18.bufCount reads18_0 false = 2
  hreads18_0 : ∀ i i' : grid18.Coords, (∀ a, reads18_0 a = true → i a = i' a) → cc18_transform_1 i = cc18_transform_1 i'
  hinb18_0 : ∀ (i : grid18.Coords) a, (cc18_transform_1 i a + 1) * S8x128.size a ≤ S85000x128.size a
  hwx18_0 : ∀ i : grid18.Coords, EltTy.bits .f32 = 32 ∨ (Rect.block (s := S85000x128) S8x128.size (cc18_transform_1 i) (hinb18_0 i)).WholeWords (EltTy.packing .f32)
  hrank19 : 0 < grid19.rank
  k19_off1_inb : ∀ i : grid19.Coords, ∀ a, (k19_off1 i) a + S1.size a ≤ S85000.size a
  k19_off3_inb : ∀ i : grid19.Coords, ∀ a, (k19_off3 i) a + S1.size a ≤ S85000.size a
  k19_off5_inb : ∀ i : grid19.Coords, ∀ a, (k19_off5 i) a + S1.size a ≤ S85000.size a
  k19_off7_inb : ∀ i : grid19.Coords, ∀ a, (k19_off7 i) a + S1.size a ≤ S85000.size a
  k19_off9_inb : ∀ i : grid19.Coords, ∀ a, (k19_off9 i) a + S1.size a ≤ S85000.size a
  k19_off11_inb : ∀ i : grid19.Coords, ∀ a, (k19_off11 i) a + S1.size a ≤ S85000.size a
  k19_off13_inb : ∀ i : grid19.Coords, ∀ a, (k19_off13 i) a + S1.size a ≤ S85000.size a
  k19_off15_inb : ∀ i : grid19.Coords, ∀ a, (k19_off15 i) a + S1.size a ≤ S85000.size a
  hstage19_0 : ∀ j, (stage19_0 j).IsWhole
  nbuf19_0 : grid19.bufCount reads19_0 false = 2
  hreads19_0 : ∀ i i' : grid19.Coords, (∀ a, reads19_0 a = true → i a = i' a) → cc19_transform_1 i = cc19_transform_1 i'
  hinb19_0 : ∀ (i : grid19.Coords) a, (cc19_transform_1 i a + 1) * S8x128.size a ≤ S85000x128.size a
  hwx19_0 : ∀ i : grid19.Coords, EltTy.bits .f32 = 32 ∨ (Rect.block (s := S85000x128) S8x128.size (cc19_transform_1 i) (hinb19_0 i)).WholeWords (EltTy.packing .f32)
  hrank20 : 0 < grid20.rank
  k20_off1_inb : ∀ i : grid20.Coords, ∀ a, (k20_off1 i) a + S1.size a ≤ S85000.size a
  k20_off3_inb : ∀ i : grid20.Coords, ∀ a, (k20_off3 i) a + S1.size a ≤ S85000.size a
  k20_off5_inb : ∀ i : grid20.Coords, ∀ a, (k20_off5 i) a + S1.size a ≤ S85000.size a
  k20_off7_inb : ∀ i : grid20.Coords, ∀ a, (k20_off7 i) a + S1.size a ≤ S85000.size a
  k20_off9_inb : ∀ i : grid20.Coords, ∀ a, (k20_off9 i) a + S1.size a ≤ S85000.size a
  k20_off11_inb : ∀ i : grid20.Coords, ∀ a, (k20_off11 i) a + S1.size a ≤ S85000.size a
  k20_off13_inb : ∀ i : grid20.Coords, ∀ a, (k20_off13 i) a + S1.size a ≤ S85000.size a
  k20_off15_inb : ∀ i : grid20.Coords, ∀ a, (k20_off15 i) a + S1.size a ≤ S85000.size a
  hstage20_0 : ∀ j, (stage20_0 j).IsWhole
  nbuf20_0 : grid20.bufCount reads20_0 false = 2
  hreads20_0 : ∀ i i' : grid20.Coords, (∀ a, reads20_0 a = true → i a = i' a) → cc20_transform_1 i = cc20_transform_1 i'
  hinb20_0 : ∀ (i : grid20.Coords) a, (cc20_transform_1 i a + 1) * S8x128.size a ≤ S85000x128.size a
  hwx20_0 : ∀ i : grid20.Coords, EltTy.bits .f32 = 32 ∨ (Rect.block (s := S85000x128) S8x128.size (cc20_transform_1 i) (hinb20_0 i)).WholeWords (EltTy.packing .f32)
  hrank21 : 0 < grid21.rank
  k21_off1_inb : ∀ i : grid21.Coords, ∀ a, (k21_off1 i) a + S1.size a ≤ S85000.size a
  k21_off3_inb : ∀ i : grid21.Coords, ∀ a, (k21_off3 i) a + S1.size a ≤ S85000.size a
  k21_off5_inb : ∀ i : grid21.Coords, ∀ a, (k21_off5 i) a + S1.size a ≤ S85000.size a
  k21_off7_inb : ∀ i : grid21.Coords, ∀ a, (k21_off7 i) a + S1.size a ≤ S85000.size a
  k21_off9_inb : ∀ i : grid21.Coords, ∀ a, (k21_off9 i) a + S1.size a ≤ S85000.size a
  k21_off11_inb : ∀ i : grid21.Coords, ∀ a, (k21_off11 i) a + S1.size a ≤ S85000.size a
  k21_off13_inb : ∀ i : grid21.Coords, ∀ a, (k21_off13 i) a + S1.size a ≤ S85000.size a
  k21_off15_inb : ∀ i : grid21.Coords, ∀ a, (k21_off15 i) a + S1.size a ≤ S85000.size a
  hstage21_0 : ∀ j, (stage21_0 j).IsWhole
  nbuf21_0 : grid21.bufCount reads21_0 false = 2
  hreads21_0 : ∀ i i' : grid21.Coords, (∀ a, reads21_0 a = true → i a = i' a) → cc21_transform_1 i = cc21_transform_1 i'
  hinb21_0 : ∀ (i : grid21.Coords) a, (cc21_transform_1 i a + 1) * S8x128.size a ≤ S85000x128.size a
  hwx21_0 : ∀ i : grid21.Coords, EltTy.bits .f32 = 32 ∨ (Rect.block (s := S85000x128) S8x128.size (cc21_transform_1 i) (hinb21_0 i)).WholeWords (EltTy.packing .f32)
  hrank22 : 0 < grid22.rank
  hstage22_0 : ∀ j, (stage22_0 j).IsWhole
  nbuf22_0 : grid22.bufCount reads22_0 false = 2
  hreads22_0 : ∀ i i' : grid22.Coords, (∀ a, reads22_0 a = true → i a = i' a) → cc22_transform_0 i = cc22_transform_0 i'
  hinb22_0 : ∀ (i : grid22.Coords) a, (cc22_transform_0 i a + 1) * S5000x128.size a ≤ S50000x128.size a
  hwx22_0 : ∀ i : grid22.Coords, EltTy.bits .f32 = 32 ∨ (Rect.block (s := S50000x128) S5000x128.size (cc22_transform_0 i) (hinb22_0 i)).WholeWords (EltTy.packing .f32)
  hstage22_1 : ∀ j, (stage22_1 j).IsWhole
  nbuf22_1 : grid22.bufCount reads22_1 true = 1
  hreads22_1 : ∀ i i' : grid22.Coords, (∀ a, reads22_1 a = true → i a = i' a) → cc22_transform_1 i = cc22_transform_1 i'
  hinb22_1 : ∀ (i : grid22.Coords) a, (cc22_transform_1 i a + 1) * S1x128.size a ≤ S1x128.size a
  hwx22_1 : ∀ i : grid22.Coords, EltTy.bits .f32 = 32 ∨ (Rect.block (s := S1x128) S1x128.size (cc22_transform_1 i) (hinb22_1 i)).WholeWords (EltTy.packing .f32)
  hstage22_2 : ∀ j, (stage22_2 j).IsWhole
  nbuf22_2 : grid22.bufCount reads22_2 false = 2
  hreads22_2 : ∀ i i' : grid22.Coords, (∀ a, reads22_2 a = true → i a = i' a) → cc22_transform_2 i = cc22_transform_2 i'
  hinb22_2 : ∀ (i : grid22.Coords) a, (cc22_transform_2 i a + 1) * S5000x128.size a ≤ S50000x128.size a
  hwx22_2 : ∀ i : grid22.Coords, EltTy.bits .f32 = 32 ∨ (Rect.block (s := S50000x128) S5000x128.size (cc22_transform_2 i) (hinb22_2 i)).WholeWords (EltTy.packing .f32)
  hrank23 : 0 < grid23.rank
  k23_off1_inb : ∀ i : grid23.Coords, ∀ a, (k23_off1 i) a + S1.size a ≤ S100000.size a
  k23_off3_inb : ∀ i : grid23.Coords, ∀ a, (k23_off3 i) a + S1.size a ≤ S100000.size a
  k23_off5_inb : ∀ i : grid23.Coords, ∀ a, (k23_off5 i) a + S1.size a ≤ S100000.size a
  k23_off7_inb : ∀ i : grid23.Coords, ∀ a, (k23_off7 i) a + S1.size a ≤ S100000.size a
  k23_off9_inb : ∀ i : grid23.Coords, ∀ a, (k23_off9 i) a + S1.size a ≤ S100000.size a
  k23_off11_inb : ∀ i : grid23.Coords, ∀ a, (k23_off11 i) a + S1.size a ≤ S100000.size a
  k23_off13_inb : ∀ i : grid23.Coords, ∀ a, (k23_off13 i) a + S1.size a ≤ S100000.size a
  k23_off15_inb : ∀ i : grid23.Coords, ∀ a, (k23_off15 i) a + S1.size a ≤ S100000.size a
  hstage23_0 : ∀ j, (stage23_0 j).IsWhole
  nbuf23_0 : grid23.bufCount reads23_0 false = 2
  hreads23_0 : ∀ i i' : grid23.Coords, (∀ a, reads23_0 a = true → i a = i' a) → cc23_transform_1 i = cc23_transform_1 i'
  hinb23_0 : ∀ (i : grid23.Coords) a, (cc23_transform_1 i a + 1) * S8x128.size a ≤ S100000x128.size a
  hwx23_0 : ∀ i : grid23.Coords, EltTy.bits .f32 = 32 ∨ (Rect.block (s := S100000x128) S8x128.size (cc23_transform_1 i) (hinb23_0 i)).WholeWords (EltTy.packing .f32)
  hrank24 : 0 < grid24.rank
  k24_off1_inb : ∀ i : grid24.Coords, ∀ a, (k24_off1 i) a + S1.size a ≤ S100000.size a
  k24_off3_inb : ∀ i : grid24.Coords, ∀ a, (k24_off3 i) a + S1.size a ≤ S100000.size a
  k24_off5_inb : ∀ i : grid24.Coords, ∀ a, (k24_off5 i) a + S1.size a ≤ S100000.size a
  k24_off7_inb : ∀ i : grid24.Coords, ∀ a, (k24_off7 i) a + S1.size a ≤ S100000.size a
  k24_off9_inb : ∀ i : grid24.Coords, ∀ a, (k24_off9 i) a + S1.size a ≤ S100000.size a
  k24_off11_inb : ∀ i : grid24.Coords, ∀ a, (k24_off11 i) a + S1.size a ≤ S100000.size a
  k24_off13_inb : ∀ i : grid24.Coords, ∀ a, (k24_off13 i) a + S1.size a ≤ S100000.size a
  k24_off15_inb : ∀ i : grid24.Coords, ∀ a, (k24_off15 i) a + S1.size a ≤ S100000.size a
  hstage24_0 : ∀ j, (stage24_0 j).IsWhole
  nbuf24_0 : grid24.bufCount reads24_0 false = 2
  hreads24_0 : ∀ i i' : grid24.Coords, (∀ a, reads24_0 a = true → i a = i' a) → cc24_transform_1 i = cc24_transform_1 i'
  hinb24_0 : ∀ (i : grid24.Coords) a, (cc24_transform_1 i a + 1) * S8x128.size a ≤ S100000x128.size a
  hwx24_0 : ∀ i : grid24.Coords, EltTy.bits .f32 = 32 ∨ (Rect.block (s := S100000x128) S8x128.size (cc24_transform_1 i) (hinb24_0 i)).WholeWords (EltTy.packing .f32)
  hrank25 : 0 < grid25.rank
  k25_off1_inb : ∀ i : grid25.Coords, ∀ a, (k25_off1 i) a + S1.size a ≤ S100000.size a
  k25_off3_inb : ∀ i : grid25.Coords, ∀ a, (k25_off3 i) a + S1.size a ≤ S100000.size a
  k25_off5_inb : ∀ i : grid25.Coords, ∀ a, (k25_off5 i) a + S1.size a ≤ S100000.size a
  k25_off7_inb : ∀ i : grid25.Coords, ∀ a, (k25_off7 i) a + S1.size a ≤ S100000.size a
  k25_off9_inb : ∀ i : grid25.Coords, ∀ a, (k25_off9 i) a + S1.size a ≤ S100000.size a
  k25_off11_inb : ∀ i : grid25.Coords, ∀ a, (k25_off11 i) a + S1.size a ≤ S100000.size a
  k25_off13_inb : ∀ i : grid25.Coords, ∀ a, (k25_off13 i) a + S1.size a ≤ S100000.size a
  k25_off15_inb : ∀ i : grid25.Coords, ∀ a, (k25_off15 i) a + S1.size a ≤ S100000.size a
  hstage25_0 : ∀ j, (stage25_0 j).IsWhole
  nbuf25_0 : grid25.bufCount reads25_0 false = 2
  hreads25_0 : ∀ i i' : grid25.Coords, (∀ a, reads25_0 a = true → i a = i' a) → cc25_transform_1 i = cc25_transform_1 i'
  hinb25_0 : ∀ (i : grid25.Coords) a, (cc25_transform_1 i a + 1) * S8x128.size a ≤ S100000x128.size a
  hwx25_0 : ∀ i : grid25.Coords, EltTy.bits .f32 = 32 ∨ (Rect.block (s := S100000x128) S8x128.size (cc25_transform_1 i) (hinb25_0 i)).WholeWords (EltTy.packing .f32)
  hrank26 : 0 < grid26.rank
  k26_off1_inb : ∀ i : grid26.Coords, ∀ a, (k26_off1 i) a + S1.size a ≤ S100000.size a
  k26_off3_inb : ∀ i : grid26.Coords, ∀ a, (k26_off3 i) a + S1.size a ≤ S100000.size a
  k26_off5_inb : ∀ i : grid26.Coords, ∀ a, (k26_off5 i) a + S1.size a ≤ S100000.size a
  k26_off7_inb : ∀ i : grid26.Coords, ∀ a, (k26_off7 i) a + S1.size a ≤ S100000.size a
  k26_off9_inb : ∀ i : grid26.Coords, ∀ a, (k26_off9 i) a + S1.size a ≤ S100000.size a
  k26_off11_inb : ∀ i : grid26.Coords, ∀ a, (k26_off11 i) a + S1.size a ≤ S100000.size a
  k26_off13_inb : ∀ i : grid26.Coords, ∀ a, (k26_off13 i) a + S1.size a ≤ S100000.size a
  k26_off15_inb : ∀ i : grid26.Coords, ∀ a, (k26_off15 i) a + S1.size a ≤ S100000.size a
  hstage26_0 : ∀ j, (stage26_0 j).IsWhole
  nbuf26_0 : grid26.bufCount reads26_0 false = 2
  hreads26_0 : ∀ i i' : grid26.Coords, (∀ a, reads26_0 a = true → i a = i' a) → cc26_transform_1 i = cc26_transform_1 i'
  hinb26_0 : ∀ (i : grid26.Coords) a, (cc26_transform_1 i a + 1) * S8x128.size a ≤ S100000x128.size a
  hwx26_0 : ∀ i : grid26.Coords, EltTy.bits .f32 = 32 ∨ (Rect.block (s := S100000x128) S8x128.size (cc26_transform_1 i) (hinb26_0 i)).WholeWords (EltTy.packing .f32)
  hrank27 : 0 < grid27.rank
  k27_off1_inb : ∀ i : grid27.Coords, ∀ a, (k27_off1 i) a + S1.size a ≤ S100000.size a
  k27_off3_inb : ∀ i : grid27.Coords, ∀ a, (k27_off3 i) a + S1.size a ≤ S100000.size a
  k27_off5_inb : ∀ i : grid27.Coords, ∀ a, (k27_off5 i) a + S1.size a ≤ S100000.size a
  k27_off7_inb : ∀ i : grid27.Coords, ∀ a, (k27_off7 i) a + S1.size a ≤ S100000.size a
  k27_off9_inb : ∀ i : grid27.Coords, ∀ a, (k27_off9 i) a + S1.size a ≤ S100000.size a
  k27_off11_inb : ∀ i : grid27.Coords, ∀ a, (k27_off11 i) a + S1.size a ≤ S100000.size a
  k27_off13_inb : ∀ i : grid27.Coords, ∀ a, (k27_off13 i) a + S1.size a ≤ S100000.size a
  k27_off15_inb : ∀ i : grid27.Coords, ∀ a, (k27_off15 i) a + S1.size a ≤ S100000.size a
  hstage27_0 : ∀ j, (stage27_0 j).IsWhole
  nbuf27_0 : grid27.bufCount reads27_0 false = 2
  hreads27_0 : ∀ i i' : grid27.Coords, (∀ a, reads27_0 a = true → i a = i' a) → cc27_transform_1 i = cc27_transform_1 i'
  hinb27_0 : ∀ (i : grid27.Coords) a, (cc27_transform_1 i a + 1) * S8x128.size a ≤ S100000x128.size a
  hwx27_0 : ∀ i : grid27.Coords, EltTy.bits .f32 = 32 ∨ (Rect.block (s := S100000x128) S8x128.size (cc27_transform_1 i) (hinb27_0 i)).WholeWords (EltTy.packing .f32)
  hrank28 : 0 < grid28.rank
  k28_off1_inb : ∀ i : grid28.Coords, ∀ a, (k28_off1 i) a + S1.size a ≤ S100000.size a
  k28_off3_inb : ∀ i : grid28.Coords, ∀ a, (k28_off3 i) a + S1.size a ≤ S100000.size a
  k28_off5_inb : ∀ i : grid28.Coords, ∀ a, (k28_off5 i) a + S1.size a ≤ S100000.size a
  k28_off7_inb : ∀ i : grid28.Coords, ∀ a, (k28_off7 i) a + S1.size a ≤ S100000.size a
  k28_off9_inb : ∀ i : grid28.Coords, ∀ a, (k28_off9 i) a + S1.size a ≤ S100000.size a
  k28_off11_inb : ∀ i : grid28.Coords, ∀ a, (k28_off11 i) a + S1.size a ≤ S100000.size a
  k28_off13_inb : ∀ i : grid28.Coords, ∀ a, (k28_off13 i) a + S1.size a ≤ S100000.size a
  k28_off15_inb : ∀ i : grid28.Coords, ∀ a, (k28_off15 i) a + S1.size a ≤ S100000.size a
  hstage28_0 : ∀ j, (stage28_0 j).IsWhole
  nbuf28_0 : grid28.bufCount reads28_0 false = 2
  hreads28_0 : ∀ i i' : grid28.Coords, (∀ a, reads28_0 a = true → i a = i' a) → cc28_transform_1 i = cc28_transform_1 i'
  hinb28_0 : ∀ (i : grid28.Coords) a, (cc28_transform_1 i a + 1) * S8x128.size a ≤ S100000x128.size a
  hwx28_0 : ∀ i : grid28.Coords, EltTy.bits .f32 = 32 ∨ (Rect.block (s := S100000x128) S8x128.size (cc28_transform_1 i) (hinb28_0 i)).WholeWords (EltTy.packing .f32)
  hrank29 : 0 < grid29.rank
  k29_off1_inb : ∀ i : grid29.Coords, ∀ a, (k29_off1 i) a + S1.size a ≤ S100000.size a
  k29_off3_inb : ∀ i : grid29.Coords, ∀ a, (k29_off3 i) a + S1.size a ≤ S100000.size a
  k29_off5_inb : ∀ i : grid29.Coords, ∀ a, (k29_off5 i) a + S1.size a ≤ S100000.size a
  k29_off7_inb : ∀ i : grid29.Coords, ∀ a, (k29_off7 i) a + S1.size a ≤ S100000.size a
  k29_off9_inb : ∀ i : grid29.Coords, ∀ a, (k29_off9 i) a + S1.size a ≤ S100000.size a
  k29_off11_inb : ∀ i : grid29.Coords, ∀ a, (k29_off11 i) a + S1.size a ≤ S100000.size a
  k29_off13_inb : ∀ i : grid29.Coords, ∀ a, (k29_off13 i) a + S1.size a ≤ S100000.size a
  k29_off15_inb : ∀ i : grid29.Coords, ∀ a, (k29_off15 i) a + S1.size a ≤ S100000.size a
  hstage29_0 : ∀ j, (stage29_0 j).IsWhole
  nbuf29_0 : grid29.bufCount reads29_0 false = 2
  hreads29_0 : ∀ i i' : grid29.Coords, (∀ a, reads29_0 a = true → i a = i' a) → cc29_transform_1 i = cc29_transform_1 i'
  hinb29_0 : ∀ (i : grid29.Coords) a, (cc29_transform_1 i a + 1) * S8x128.size a ≤ S100000x128.size a
  hwx29_0 : ∀ i : grid29.Coords, EltTy.bits .f32 = 32 ∨ (Rect.block (s := S100000x128) S8x128.size (cc29_transform_1 i) (hinb29_0 i)).WholeWords (EltTy.packing .f32)
  hrank30 : 0 < grid30.rank
  k30_off1_inb : ∀ i : grid30.Coords, ∀ a, (k30_off1 i) a + S1.size a ≤ S100000.size a
  k30_off3_inb : ∀ i : grid30.Coords, ∀ a, (k30_off3 i) a + S1.size a ≤ S100000.size a
  k30_off5_inb : ∀ i : grid30.Coords, ∀ a, (k30_off5 i) a + S1.size a ≤ S100000.size a
  k30_off7_inb : ∀ i : grid30.Coords, ∀ a, (k30_off7 i) a + S1.size a ≤ S100000.size a
  k30_off9_inb : ∀ i : grid30.Coords, ∀ a, (k30_off9 i) a + S1.size a ≤ S100000.size a
  k30_off11_inb : ∀ i : grid30.Coords, ∀ a, (k30_off11 i) a + S1.size a ≤ S100000.size a
  k30_off13_inb : ∀ i : grid30.Coords, ∀ a, (k30_off13 i) a + S1.size a ≤ S100000.size a
  k30_off15_inb : ∀ i : grid30.Coords, ∀ a, (k30_off15 i) a + S1.size a ≤ S100000.size a
  hstage30_0 : ∀ j, (stage30_0 j).IsWhole
  nbuf30_0 : grid30.bufCount reads30_0 false = 2
  hreads30_0 : ∀ i i' : grid30.Coords, (∀ a, reads30_0 a = true → i a = i' a) → cc30_transform_1 i = cc30_transform_1 i'
  hinb30_0 : ∀ (i : grid30.Coords) a, (cc30_transform_1 i a + 1) * S8x128.size a ≤ S100000x128.size a
  hwx30_0 : ∀ i : grid30.Coords, EltTy.bits .f32 = 32 ∨ (Rect.block (s := S100000x128) S8x128.size (cc30_transform_1 i) (hinb30_0 i)).WholeWords (EltTy.packing .f32)
  hrank31 : 0 < grid31.rank
  k31_off1_inb : ∀ i : grid31.Coords, ∀ a, (k31_off1 i) a + S1.size a ≤ S100000.size a
  k31_off3_inb : ∀ i : grid31.Coords, ∀ a, (k31_off3 i) a + S1.size a ≤ S100000.size a
  k31_off5_inb : ∀ i : grid31.Coords, ∀ a, (k31_off5 i) a + S1.size a ≤ S100000.size a
  k31_off7_inb : ∀ i : grid31.Coords, ∀ a, (k31_off7 i) a + S1.size a ≤ S100000.size a
  k31_off9_inb : ∀ i : grid31.Coords, ∀ a, (k31_off9 i) a + S1.size a ≤ S100000.size a
  k31_off11_inb : ∀ i : grid31.Coords, ∀ a, (k31_off11 i) a + S1.size a ≤ S100000.size a
  k31_off13_inb : ∀ i : grid31.Coords, ∀ a, (k31_off13 i) a + S1.size a ≤ S100000.size a
  k31_off15_inb : ∀ i : grid31.Coords, ∀ a, (k31_off15 i) a + S1.size a ≤ S100000.size a
  hstage31_0 : ∀ j, (stage31_0 j).IsWhole
  nbuf31_0 : grid31.bufCount reads31_0 false = 2
  hreads31_0 : ∀ i i' : grid31.Coords, (∀ a, reads31_0 a = true → i a = i' a) → cc31_transform_1 i = cc31_transform_1 i'
  hinb31_0 : ∀ (i : grid31.Coords) a, (cc31_transform_1 i a + 1) * S8x128.size a ≤ S100000x128.size a
  hwx31_0 : ∀ i : grid31.Coords, EltTy.bits .f32 = 32 ∨ (Rect.block (s := S100000x128) S8x128.size (cc31_transform_1 i) (hinb31_0 i)).WholeWords (EltTy.packing .f32)
  hrank32 : 0 < grid32.rank
  k32_off1_inb : ∀ i : grid32.Coords, ∀ a, (k32_off1 i) a + S1.size a ≤ S100000.size a
  k32_off3_inb : ∀ i : grid32.Coords, ∀ a, (k32_off3 i) a + S1.size a ≤ S100000.size a
  k32_off5_inb : ∀ i : grid32.Coords, ∀ a, (k32_off5 i) a + S1.size a ≤ S100000.size a
  k32_off7_inb : ∀ i : grid32.Coords, ∀ a, (k32_off7 i) a + S1.size a ≤ S100000.size a
  k32_off9_inb : ∀ i : grid32.Coords, ∀ a, (k32_off9 i) a + S1.size a ≤ S100000.size a
  k32_off11_inb : ∀ i : grid32.Coords, ∀ a, (k32_off11 i) a + S1.size a ≤ S100000.size a
  k32_off13_inb : ∀ i : grid32.Coords, ∀ a, (k32_off13 i) a + S1.size a ≤ S100000.size a
  k32_off15_inb : ∀ i : grid32.Coords, ∀ a, (k32_off15 i) a + S1.size a ≤ S100000.size a
  hstage32_0 : ∀ j, (stage32_0 j).IsWhole
  nbuf32_0 : grid32.bufCount reads32_0 false = 2
  hreads32_0 : ∀ i i' : grid32.Coords, (∀ a, reads32_0 a = true → i a = i' a) → cc32_transform_1 i = cc32_transform_1 i'
  hinb32_0 : ∀ (i : grid32.Coords) a, (cc32_transform_1 i a + 1) * S8x128.size a ≤ S100000x128.size a
  hwx32_0 : ∀ i : grid32.Coords, EltTy.bits .f32 = 32 ∨ (Rect.block (s := S100000x128) S8x128.size (cc32_transform_1 i) (hinb32_0 i)).WholeWords (EltTy.packing .f32)
  hrank33 : 0 < grid33.rank
  k33_off1_inb : ∀ i : grid33.Coords, ∀ a, (k33_off1 i) a + S1.size a ≤ S100000.size a
  k33_off3_inb : ∀ i : grid33.Coords, ∀ a, (k33_off3 i) a + S1.size a ≤ S100000.size a
  k33_off5_inb : ∀ i : grid33.Coords, ∀ a, (k33_off5 i) a + S1.size a ≤ S100000.size a
  k33_off7_inb : ∀ i : grid33.Coords, ∀ a, (k33_off7 i) a + S1.size a ≤ S100000.size a
  k33_off9_inb : ∀ i : grid33.Coords, ∀ a, (k33_off9 i) a + S1.size a ≤ S100000.size a
  k33_off11_inb : ∀ i : grid33.Coords, ∀ a, (k33_off11 i) a + S1.size a ≤ S100000.size a
  k33_off13_inb : ∀ i : grid33.Coords, ∀ a, (k33_off13 i) a + S1.size a ≤ S100000.size a
  k33_off15_inb : ∀ i : grid33.Coords, ∀ a, (k33_off15 i) a + S1.size a ≤ S100000.size a
  hstage33_0 : ∀ j, (stage33_0 j).IsWhole
  nbuf33_0 : grid33.bufCount reads33_0 false = 2
  hreads33_0 : ∀ i i' : grid33.Coords, (∀ a, reads33_0 a = true → i a = i' a) → cc33_transform_1 i = cc33_transform_1 i'
  hinb33_0 : ∀ (i : grid33.Coords) a, (cc33_transform_1 i a + 1) * S8x128.size a ≤ S100000x128.size a
  hwx33_0 : ∀ i : grid33.Coords, EltTy.bits .f32 = 32 ∨ (Rect.block (s := S100000x128) S8x128.size (cc33_transform_1 i) (hinb33_0 i)).WholeWords (EltTy.packing .f32)
  hrank34 : 0 < grid34.rank
  k34_off1_inb : ∀ i : grid34.Coords, ∀ a, (k34_off1 i) a + S1.size a ≤ S100000.size a
  k34_off3_inb : ∀ i : grid34.Coords, ∀ a, (k34_off3 i) a + S1.size a ≤ S100000.size a
  k34_off5_inb : ∀ i : grid34.Coords, ∀ a, (k34_off5 i) a + S1.size a ≤ S100000.size a
  k34_off7_inb : ∀ i : grid34.Coords, ∀ a, (k34_off7 i) a + S1.size a ≤ S100000.size a
  k34_off9_inb : ∀ i : grid34.Coords, ∀ a, (k34_off9 i) a + S1.size a ≤ S100000.size a
  k34_off11_inb : ∀ i : grid34.Coords, ∀ a, (k34_off11 i) a + S1.size a ≤ S100000.size a
  k34_off13_inb : ∀ i : grid34.Coords, ∀ a, (k34_off13 i) a + S1.size a ≤ S100000.size a
  k34_off15_inb : ∀ i : grid34.Coords, ∀ a, (k34_off15 i) a + S1.size a ≤ S100000.size a
  hstage34_0 : ∀ j, (stage34_0 j).IsWhole
  nbuf34_0 : grid34.bufCount reads34_0 false = 2
  hreads34_0 : ∀ i i' : grid34.Coords, (∀ a, reads34_0 a = true → i a = i' a) → cc34_transform_1 i = cc34_transform_1 i'
  hinb34_0 : ∀ (i : grid34.Coords) a, (cc34_transform_1 i a + 1) * S8x128.size a ≤ S100000x128.size a
  hwx34_0 : ∀ i : grid34.Coords, EltTy.bits .f32 = 32 ∨ (Rect.block (s := S100000x128) S8x128.size (cc34_transform_1 i) (hinb34_0 i)).WholeWords (EltTy.packing .f32)
  hrank35 : 0 < grid35.rank
  k35_off1_inb : ∀ i : grid35.Coords, ∀ a, (k35_off1 i) a + S1.size a ≤ S100000.size a
  k35_off3_inb : ∀ i : grid35.Coords, ∀ a, (k35_off3 i) a + S1.size a ≤ S100000.size a
  k35_off5_inb : ∀ i : grid35.Coords, ∀ a, (k35_off5 i) a + S1.size a ≤ S100000.size a
  k35_off7_inb : ∀ i : grid35.Coords, ∀ a, (k35_off7 i) a + S1.size a ≤ S100000.size a
  k35_off9_inb : ∀ i : grid35.Coords, ∀ a, (k35_off9 i) a + S1.size a ≤ S100000.size a
  k35_off11_inb : ∀ i : grid35.Coords, ∀ a, (k35_off11 i) a + S1.size a ≤ S100000.size a
  k35_off13_inb : ∀ i : grid35.Coords, ∀ a, (k35_off13 i) a + S1.size a ≤ S100000.size a
  k35_off15_inb : ∀ i : grid35.Coords, ∀ a, (k35_off15 i) a + S1.size a ≤ S100000.size a
  hstage35_0 : ∀ j, (stage35_0 j).IsWhole
  nbuf35_0 : grid35.bufCount reads35_0 false = 2
  hreads35_0 : ∀ i i' : grid35.Coords, (∀ a, reads35_0 a = true → i a = i' a) → cc35_transform_1 i = cc35_transform_1 i'
  hinb35_0 : ∀ (i : grid35.Coords) a, (cc35_transform_1 i a + 1) * S8x128.size a ≤ S100000x128.size a
  hwx35_0 : ∀ i : grid35.Coords, EltTy.bits .f32 = 32 ∨ (Rect.block (s := S100000x128) S8x128.size (cc35_transform_1 i) (hinb35_0 i)).WholeWords (EltTy.packing .f32)
  hrank36 : 0 < grid36.rank
  k36_off1_inb : ∀ i : grid36.Coords, ∀ a, (k36_off1 i) a + S1.size a ≤ S100000.size a
  k36_off3_inb : ∀ i : grid36.Coords, ∀ a, (k36_off3 i) a + S1.size a ≤ S100000.size a
  k36_off5_inb : ∀ i : grid36.Coords, ∀ a, (k36_off5 i) a + S1.size a ≤ S100000.size a
  k36_off7_inb : ∀ i : grid36.Coords, ∀ a, (k36_off7 i) a + S1.size a ≤ S100000.size a
  k36_off9_inb : ∀ i : grid36.Coords, ∀ a, (k36_off9 i) a + S1.size a ≤ S100000.size a
  k36_off11_inb : ∀ i : grid36.Coords, ∀ a, (k36_off11 i) a + S1.size a ≤ S100000.size a
  k36_off13_inb : ∀ i : grid36.Coords, ∀ a, (k36_off13 i) a + S1.size a ≤ S100000.size a
  k36_off15_inb : ∀ i : grid36.Coords, ∀ a, (k36_off15 i) a + S1.size a ≤ S100000.size a
  hstage36_0 : ∀ j, (stage36_0 j).IsWhole
  nbuf36_0 : grid36.bufCount reads36_0 false = 2
  hreads36_0 : ∀ i i' : grid36.Coords, (∀ a, reads36_0 a = true → i a = i' a) → cc36_transform_1 i = cc36_transform_1 i'
  hinb36_0 : ∀ (i : grid36.Coords) a, (cc36_transform_1 i a + 1) * S8x128.size a ≤ S100000x128.size a
  hwx36_0 : ∀ i : grid36.Coords, EltTy.bits .f32 = 32 ∨ (Rect.block (s := S100000x128) S8x128.size (cc36_transform_1 i) (hinb36_0 i)).WholeWords (EltTy.packing .f32)
  hrank37 : 0 < grid37.rank
  k37_off1_inb : ∀ i : grid37.Coords, ∀ a, (k37_off1 i) a + S1.size a ≤ S100000.size a
  k37_off3_inb : ∀ i : grid37.Coords, ∀ a, (k37_off3 i) a + S1.size a ≤ S100000.size a
  k37_off5_inb : ∀ i : grid37.Coords, ∀ a, (k37_off5 i) a + S1.size a ≤ S100000.size a
  k37_off7_inb : ∀ i : grid37.Coords, ∀ a, (k37_off7 i) a + S1.size a ≤ S100000.size a
  k37_off9_inb : ∀ i : grid37.Coords, ∀ a, (k37_off9 i) a + S1.size a ≤ S100000.size a
  k37_off11_inb : ∀ i : grid37.Coords, ∀ a, (k37_off11 i) a + S1.size a ≤ S100000.size a
  k37_off13_inb : ∀ i : grid37.Coords, ∀ a, (k37_off13 i) a + S1.size a ≤ S100000.size a
  k37_off15_inb : ∀ i : grid37.Coords, ∀ a, (k37_off15 i) a + S1.size a ≤ S100000.size a
  hstage37_0 : ∀ j, (stage37_0 j).IsWhole
  nbuf37_0 : grid37.bufCount reads37_0 false = 2
  hreads37_0 : ∀ i i' : grid37.Coords, (∀ a, reads37_0 a = true → i a = i' a) → cc37_transform_1 i = cc37_transform_1 i'
  hinb37_0 : ∀ (i : grid37.Coords) a, (cc37_transform_1 i a + 1) * S8x128.size a ≤ S100000x128.size a
  hwx37_0 : ∀ i : grid37.Coords, EltTy.bits .f32 = 32 ∨ (Rect.block (s := S100000x128) S8x128.size (cc37_transform_1 i) (hinb37_0 i)).WholeWords (EltTy.packing .f32)
  hrank38 : 0 < grid38.rank
  k38_off1_inb : ∀ i : grid38.Coords, ∀ a, (k38_off1 i) a + S1.size a ≤ S100000.size a
  k38_off3_inb : ∀ i : grid38.Coords, ∀ a, (k38_off3 i) a + S1.size a ≤ S100000.size a
  k38_off5_inb : ∀ i : grid38.Coords, ∀ a, (k38_off5 i) a + S1.size a ≤ S100000.size a
  k38_off7_inb : ∀ i : grid38.Coords, ∀ a, (k38_off7 i) a + S1.size a ≤ S100000.size a
  k38_off9_inb : ∀ i : grid38.Coords, ∀ a, (k38_off9 i) a + S1.size a ≤ S100000.size a
  k38_off11_inb : ∀ i : grid38.Coords, ∀ a, (k38_off11 i) a + S1.size a ≤ S100000.size a
  k38_off13_inb : ∀ i : grid38.Coords, ∀ a, (k38_off13 i) a + S1.size a ≤ S100000.size a
  k38_off15_inb : ∀ i : grid38.Coords, ∀ a, (k38_off15 i) a + S1.size a ≤ S100000.size a
  hstage38_0 : ∀ j, (stage38_0 j).IsWhole
  nbuf38_0 : grid38.bufCount reads38_0 false = 2
  hreads38_0 : ∀ i i' : grid38.Coords, (∀ a, reads38_0 a = true → i a = i' a) → cc38_transform_1 i = cc38_transform_1 i'
  hinb38_0 : ∀ (i : grid38.Coords) a, (cc38_transform_1 i a + 1) * S8x128.size a ≤ S100000x128.size a
  hwx38_0 : ∀ i : grid38.Coords, EltTy.bits .f32 = 32 ∨ (Rect.block (s := S100000x128) S8x128.size (cc38_transform_1 i) (hinb38_0 i)).WholeWords (EltTy.packing .f32)
  hrank39 : 0 < grid39.rank
  hstage39_0 : ∀ j, (stage39_0 j).IsWhole
  nbuf39_0 : grid39.bufCount reads39_0 false = 2
  hreads39_0 : ∀ i i' : grid39.Coords, (∀ a, reads39_0 a = true → i a = i' a) → cc39_transform_0 i = cc39_transform_0 i'
  hinb39_0 : ∀ (i : grid39.Coords) a, (cc39_transform_0 i a + 1) * S6400x128.size a ≤ S800000x128.size a
  hwx39_0 : ∀ i : grid39.Coords, EltTy.bits .f32 = 32 ∨ (Rect.block (s := S800000x128) S6400x128.size (cc39_transform_0 i) (hinb39_0 i)).WholeWords (EltTy.packing .f32)
  hstage39_1 : ∀ j, (stage39_1 j).IsWhole
  nbuf39_1 : grid39.bufCount reads39_1 false = 2
  hreads39_1 : ∀ i i' : grid39.Coords, (∀ a, reads39_1 a = true → i a = i' a) → cc39_transform_1 i = cc39_transform_1 i'
  hinb39_1 : ∀ (i : grid39.Coords) a, (cc39_transform_1 i a + 1) * S6400x128.size a ≤ S800000x128.size a
  hwx39_1 : ∀ i : grid39.Coords, EltTy.bits .f32 = 32 ∨ (Rect.block (s := S800000x128) S6400x128.size (cc39_transform_1 i) (hinb39_1 i)).WholeWords (EltTy.packing .f32)
  hstage39_2 : ∀ j, (stage39_2 j).IsWhole
  nbuf39_2 : grid39.bufCount reads39_2 true = 1
  hreads39_2 : ∀ i i' : grid39.Coords, (∀ a, reads39_2 a = true → i a = i' a) → cc39_transform_2 i = cc39_transform_2 i'
  hinb39_2 : ∀ (i : grid39.Coords) a, (cc39_transform_2 i a + 1) * S128x2.size a ≤ S128x2.size a
  hwx39_2 : ∀ i : grid39.Coords, EltTy.bits .f32 = 32 ∨ (Rect.block (s := S128x2) S128x2.size (cc39_transform_2 i) (hinb39_2 i)).WholeWords (EltTy.packing .f32)
  hstage39_3 : ∀ j, (stage39_3 j).IsWhole
  nbuf39_3 : grid39.bufCount reads39_3 true = 1
  hreads39_3 : ∀ i i' : grid39.Coords, (∀ a, reads39_3 a = true → i a = i' a) → cc39_transform_3 i = cc39_transform_3 i'
  hinb39_3 : ∀ (i : grid39.Coords) a, (cc39_transform_3 i a + 1) * S128x2.size a ≤ S128x2.size a
  hwx39_3 : ∀ i : grid39.Coords, EltTy.bits .f32 = 32 ∨ (Rect.block (s := S128x2) S128x2.size (cc39_transform_3 i) (hinb39_3 i)).WholeWords (EltTy.packing .f32)
  hstage39_4 : ∀ j, (stage39_4 j).IsWhole
  nbuf39_4 : grid39.bufCount reads39_4 true = 1
  hreads39_4 : ∀ i i' : grid39.Coords, (∀ a, reads39_4 a = true → i a = i' a) → cc39_transform_4 i = cc39_transform_4 i'
  hinb39_4 : ∀ (i : grid39.Coords) a, (cc39_transform_4 i a + 1) * S1x2.size a ≤ S1x2.size a
  hwx39_4 : ∀ i : grid39.Coords, EltTy.bits .f32 = 32 ∨ (Rect.block (s := S1x2) S1x2.size (cc39_transform_4 i) (hinb39_4 i)).WholeWords (EltTy.packing .f32)
  hstage39_5 : ∀ j, (stage39_5 j).IsWhole
  nbuf39_5 : grid39.bufCount reads39_5 false = 2
  hreads39_5 : ∀ i i' : grid39.Coords, (∀ a, reads39_5 a = true → i a = i' a) → cc39_transform_5 i = cc39_transform_5 i'
  hinb39_5 : ∀ (i : grid39.Coords) a, (cc39_transform_5 i a + 1) * S6400x2.size a ≤ S800000x2.size a
  hwx39_5 : ∀ i : grid39.Coords, EltTy.bits .f32 = 32 ∨ (Rect.block (s := S800000x2) S6400x2.size (cc39_transform_5 i) (hinb39_5 i)).WholeWords (EltTy.packing .f32)

variable [Facts₀]

abbrev cc1_scratch0 : DmaSems sig S8 := SemArray.consecutive 7 S8 hcc1_scratch0
abbrev cc2_scratch0 : DmaSems sig S8 := SemArray.consecutive 17 S8 hcc2_scratch0
abbrev cc3_scratch0 : DmaSems sig S8 := SemArray.consecutive 27 S8 hcc3_scratch0
abbrev cc4_scratch0 : DmaSems sig S8 := SemArray.consecutive 37 S8 hcc4_scratch0
abbrev cc5_scratch0 : DmaSems sig S8 := SemArray.consecutive 47 S8 hcc5_scratch0
abbrev cc6_scratch0 : DmaSems sig S8 := SemArray.consecutive 57 S8 hcc6_scratch0
abbrev cc7_scratch0 : DmaSems sig S8 := SemArray.consecutive 67 S8 hcc7_scratch0
abbrev cc8_scratch0 : DmaSems sig S8 := SemArray.consecutive 77 S8 hcc8_scratch0
abbrev cc9_scratch0 : DmaSems sig S8 := SemArray.consecutive 87 S8 hcc9_scratch0
abbrev cc10_scratch0 : DmaSems sig S8 := SemArray.consecutive 97 S8 hcc10_scratch0
abbrev cc12_scratch0 : DmaSems sig S8 := SemArray.consecutive 113 S8 hcc12_scratch0
abbrev cc13_scratch0 : DmaSems sig S8 := SemArray.consecutive 123 S8 hcc13_scratch0
abbrev cc14_scratch0 : DmaSems sig S8 := SemArray.consecutive 133 S8 hcc14_scratch0
abbrev cc15_scratch0 : DmaSems sig S8 := SemArray.consecutive 143 S8 hcc15_scratch0
abbrev cc16_scratch0 : DmaSems sig S8 := SemArray.consecutive 153 S8 hcc16_scratch0
abbrev cc17_scratch0 : DmaSems sig S8 := SemArray.consecutive 163 S8 hcc17_scratch0
abbrev cc18_scratch0 : DmaSems sig S8 := SemArray.consecutive 173 S8 hcc18_scratch0
abbrev cc19_scratch0 : DmaSems sig S8 := SemArray.consecutive 183 S8 hcc19_scratch0
abbrev cc20_scratch0 : DmaSems sig S8 := SemArray.consecutive 193 S8 hcc20_scratch0
abbrev cc21_scratch0 : DmaSems sig S8 := SemArray.consecutive 203 S8 hcc21_scratch0
abbrev cc23_scratch0 : DmaSems sig S8 := SemArray.consecutive 218 S8 hcc23_scratch0
abbrev cc24_scratch0 : DmaSems sig S8 := SemArray.consecutive 228 S8 hcc24_scratch0
abbrev cc25_scratch0 : DmaSems sig S8 := SemArray.consecutive 238 S8 hcc25_scratch0
abbrev cc26_scratch0 : DmaSems sig S8 := SemArray.consecutive 248 S8 hcc26_scratch0
abbrev cc27_scratch0 : DmaSems sig S8 := SemArray.consecutive 258 S8 hcc27_scratch0
abbrev cc28_scratch0 : DmaSems sig S8 := SemArray.consecutive 268 S8 hcc28_scratch0
abbrev cc29_scratch0 : DmaSems sig S8 := SemArray.consecutive 278 S8 hcc29_scratch0
abbrev cc30_scratch0 : DmaSems sig S8 := SemArray.consecutive 288 S8 hcc30_scratch0
abbrev cc31_scratch0 : DmaSems sig S8 := SemArray.consecutive 298 S8 hcc31_scratch0
abbrev cc32_scratch0 : DmaSems sig S8 := SemArray.consecutive 308 S8 hcc32_scratch0
abbrev cc33_scratch0 : DmaSems sig S8 := SemArray.consecutive 318 S8 hcc33_scratch0
abbrev cc34_scratch0 : DmaSems sig S8 := SemArray.consecutive 328 S8 hcc34_scratch0
abbrev cc35_scratch0 : DmaSems sig S8 := SemArray.consecutive 338 S8 hcc35_scratch0
abbrev cc36_scratch0 : DmaSems sig S8 := SemArray.consecutive 348 S8 hcc36_scratch0
abbrev cc37_scratch0 : DmaSems sig S8 := SemArray.consecutive 358 S8 hcc37_scratch0
abbrev cc38_scratch0 : DmaSems sig S8 := SemArray.consecutive 368 S8 hcc38_scratch0
def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S6400x128_S128x2_S6400x2_1_0_0_1_n_n : DotDims S6400x128 S128x2 S6400x2 where
  lhsContracting := [1]
  rhsContracting := [0]
  lhsNonContracting := [0]
  rhsNonContracting := [1]
  lhsBatch := []
  rhsBatch := []
  wf := dot_S6400x128_S128x2_S6400x2_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v33) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev spec1_0 : Pipeline.WinSpec sig grid1.rank :=
  Pipeline.WinSpec.ofSpec (Memref.whole main_v35) S8x128.size reads1_0 true false 2 stage1_0 sem1_0 nbuf1_0 hstage1_0

abbrev spec1 : Fin 1 → Pipeline.WinSpec sig grid1.rank := fun | 0 => spec1_0 | ⟨_ + 1, h⟩ => absurd h (Nat.not_lt.2 (Nat.le_add_left _ _))
theorem hcount1 : ∀ w, grid1.bufCount (spec1 w).reads (spec1 w).sync = (spec1 w).nbuf := fun | 0 => nbuf1_0 | ⟨_ + 1, h⟩ => absurd h (Nat.not_lt.2 (Nat.le_add_left _ _))
abbrev ix1 (pf : pre1.Contents (Elt F)) : (w : Fin 1) → grid1.Coords → Fin (spec1 w).shape.rank → Nat := fun | 0 => cc1_transform_1 | ⟨_ + 1, h⟩ => absurd h (Nat.not_lt.2 (Nat.le_add_left _ _))
theorem hreads1 : ∀ (pf : pre1.Contents (Elt F)) w (i i' : grid1.Coords), (∀ a, (spec1 w).reads a = true → i a = i' a) → ix1 pf w i = ix1 pf w i' := fun pf => fun | 0 => hreads1_0 | ⟨_ + 1, h⟩ => absurd h (Nat.not_lt.2 (Nat.le_add_left _ _))
def ok1 (_ : pre1.Contents (Elt F)) : Prop :=
  True
instance (pf : pre1.Contents (Elt F)) : Decidable (ok1 pf) := decidable_of_iff' _ (Iff.of_eq (ok1.eq_1 pf))
theorem hinb1 : ∀ (pf : pre1.Contents (Elt F)), ok1 pf → ∀ w (i : grid1.Coords) a, (ix1 pf w i a + 1) * (spec1 w).size a ≤ (spec1 w).shape.size a :=
  fun _ _ => fun | 0 => hinb1_0 | ⟨_ + 1, h⟩ => absurd h (Nat.not_lt.2 (Nat.le_add_left _ _))
theorem hwx1 : ∀ (pf : pre1.Contents (Elt F)) (hok : ok1 pf) w (i : grid1.Coords), (spec1 w).elt.bits = 32 ∨ (Rect.block (spec1 w).size (ix1 pf w i) (hinb1 pf hok w i)).WholeWords (spec1 w).elt.packing :=
  fun _ _ => fun | 0 => hwx1_0 | ⟨_ + 1, h⟩ => absurd h (Nat.not_lt.2 (Nat.le_add_left _ _))
abbrev spec2_0 : Pipeline.WinSpec sig grid2.rank :=
  Pipeline.WinSpec.ofSpec (Memref.whole main_v37) S8x128.size reads2_0 true false 2 stage2_0 sem2_0 nbuf2_0 hstage2_0

abbrev spec2 : Fin 1 → Pipeline.WinSpec sig grid2.rank := fun | 0 => spec2_0 | ⟨_ + 1, h⟩ => absurd h (Nat.not_lt.2 (Nat.le_add_left _ _))
theorem hcount2 : ∀ w, grid2.bufCount (spec2 w).reads (spec2 w).sync = (spec2 w).nbuf := fun | 0 => nbuf2_0 | ⟨_ + 1, h⟩ => absurd h (Nat.not_lt.2 (Nat.le_add_left _ _))
abbrev ix2 (pf : pre2.Contents (Elt F)) : (w : Fin 1) → grid2.Coords → Fin (spec2 w).shape.rank → Nat := fun | 0 => cc2_transform_1 | ⟨_ + 1, h⟩ => absurd h (Nat.not_lt.2 (Nat.le_add_left _ _))
theorem hreads2 : ∀ (pf : pre2.Contents (Elt F)) w (i i' : grid2.Coords), (∀ a, (spec2 w).reads a = true → i a = i' a) → ix2 pf w i = ix2 pf w i' := fun pf => fun | 0 => hreads2_0 | ⟨_ + 1, h⟩ => absurd h (Nat.not_lt.2 (Nat.le_add_left _ _))
def ok2 (_ : pre2.Contents (Elt F)) : Prop :=
  True
instance (pf : pre2.Contents (Elt F)) : Decidable (ok2 pf) := decidable_of_iff' _ (Iff.of_eq (ok2.eq_1 pf))
theorem hinb2 : ∀ (pf : pre2.Contents (Elt F)), ok2 pf → ∀ w (i : grid2.Coords) a, (ix2 pf w i a + 1) * (spec2 w).size a ≤ (spec2 w).shape.size a :=
  fun _ _ => fun | 0 => hinb2_0 | ⟨_ + 1, h⟩ => absurd h (Nat.not_lt.2 (Nat.le_add_left _ _))
theorem hwx2 : ∀ (pf : pre2.Contents (Elt F)) (hok : ok2 pf) w (i : grid2.Coords), (spec2 w).elt.bits = 32 ∨ (Rect.block (spec2 w).size (ix2 pf w i) (hinb2 pf hok w i)).WholeWords (spec2 w).elt.packing :=
  fun _ _ => fun | 0 => hwx2_0 | ⟨_ + 1, h⟩ => absurd h (Nat.not_lt.2 (Nat.le_add_left _ _))
abbrev spec3_0 : Pipeline.WinSpec sig grid3.rank :=
  Pipeline.WinSpec.ofSpec (Memref.whole main_v39) S8x128.size reads3_0 true false 2 stage3_0 sem3_0 nbuf3_0 hstage3_0

abbrev spec3 : Fin 1 → Pipeline.WinSpec sig grid3.rank := fun | 0 => spec3_0 | ⟨_ + 1, h⟩ => absurd h (Nat.not_lt.2 (Nat.le_add_left _ _))
theorem hcount3 : ∀ w, grid3.bufCount (spec3 w).reads (spec3 w).sync = (spec3 w).nbuf := fun | 0 => nbuf3_0 | ⟨_ + 1, h⟩ => absurd h (Nat.not_lt.2 (Nat.le_add_left _ _))
abbrev ix3 (pf : pre3.Contents (Elt F)) : (w : Fin 1) → grid3.Coords → Fin (spec3 w).shape.rank → Nat := fun | 0 => cc3_transform_1 | ⟨_ + 1, h⟩ => absurd h (Nat.not_lt.2 (Nat.le_add_left _ _))
theorem hreads3 : ∀ (pf : pre3.Contents (Elt F)) w (i i' : grid3.Coords), (∀ a, (spec3 w).reads a = true → i a = i' a) → ix3 pf w i = ix3 pf w i' := fun pf => fun | 0 => hreads3_0 | ⟨_ + 1, h⟩ => absurd h (Nat.not_lt.2 (Nat.le_add_left _ _))
def ok3 (_ : pre3.Contents (Elt F)) : Prop :=
  True
instance (pf : pre3.Contents (Elt F)) : Decidable (ok3 pf) := decidable_of_iff' _ (Iff.of_eq (ok3.eq_1 pf))
theorem hinb3 : ∀ (pf : pre3.Contents (Elt F)), ok3 pf → ∀ w (i : grid3.Coords) a, (ix3 pf w i a + 1) * (spec3 w).size a ≤ (spec3 w).shape.size a :=
  fun _ _ => fun | 0 => hinb3_0 | ⟨_ + 1, h⟩ => absurd h (Nat.not_lt.2 (Nat.le_add_left _ _))
theorem hwx3 : ∀ (pf : pre3.Contents (Elt F)) (hok : ok3 pf) w (i : grid3.Coords), (spec3 w).elt.bits = 32 ∨ (Rect.block (spec3 w).size (ix3 pf w i) (hinb3 pf hok w i)).WholeWords (spec3 w).elt.packing :=
  fun _ _ => fun | 0 => hwx3_0 | ⟨_ + 1, h⟩ => absurd h (Nat.not_lt.2 (Nat.le_add_left _ _))
abbrev spec4_0 : Pipeline.WinSpec sig grid4.rank :=
  Pipeline.WinSpec.ofSpec (Memref.whole main_v41) S8x128.size reads4_0 true false 2 stage4_0 sem4_0 nbuf4_0 hstage4_0

abbrev spec4 : Fin 1 → Pipeline.WinSpec sig grid4.rank := fun | 0 => spec4_0 | ⟨_ + 1, h⟩ => absurd h (Nat.not_lt.2 (Nat.le_add_left _ _))
theorem hcount4 : ∀ w, grid4.bufCount (spec4 w).reads (spec4 w).sync = (spec4 w).nbuf := fun | 0 => nbuf4_0 | ⟨_ + 1, h⟩ => absurd h (Nat.not_lt.2 (Nat.le_add_left _ _))
abbrev ix4 (pf : pre4.Contents (Elt F)) : (w : Fin 1) → grid4.Coords → Fin (spec4 w).shape.rank → Nat := fun | 0 => cc4_transform_1 | ⟨_ + 1, h⟩ => absurd h (Nat.not_lt.2 (Nat.le_add_left _ _))
theorem hreads4 : ∀ (pf : pre4.Contents (Elt F)) w (i i' : grid4.Coords), (∀ a, (spec4 w).reads a = true → i a = i' a) → ix4 pf w i = ix4 pf w i' := fun pf => fun | 0 => hreads4_0 | ⟨_ + 1, h⟩ => absurd h (Nat.not_lt.2 (Nat.le_add_left _ _))
def ok4 (_ : pre4.Contents (Elt F)) : Prop :=
  True
instance (pf : pre4.Contents (Elt F)) : Decidable (ok4 pf) := decidable_of_iff' _ (Iff.of_eq (ok4.eq_1 pf))
theorem hinb4 : ∀ (pf : pre4.Contents (Elt F)), ok4 pf → ∀ w (i : grid4.Coords) a, (ix4 pf w i a + 1) * (spec4 w).size a ≤ (spec4 w).shape.size a :=
  fun _ _ => fun | 0 => hinb4_0 | ⟨_ + 1, h⟩ => absurd h (Nat.not_lt.2 (Nat.le_add_left _ _))
theorem hwx4 : ∀ (pf : pre4.Contents (Elt F)) (hok : ok4 pf) w (i : grid4.Coords), (spec4 w).elt.bits = 32 ∨ (Rect.block (spec4 w).size (ix4 pf w i) (hinb4 pf hok w i)).WholeWords (spec4 w).elt.packing :=
  fun _ _ => fun | 0 => hwx4_0 | ⟨_ + 1, h⟩ => absurd h (Nat.not_lt.2 (Nat.le_add_left _ _))
abbrev spec5_0 : Pipeline.WinSpec sig grid5.rank :=
  Pipeline.WinSpec.ofSpec (Memref.whole main_v43) S8x128.size reads5_0 true false 2 stage5_0 sem5_0 nbuf5_0 hstage5_0

abbrev spec5 : Fin 1 → Pipeline.WinSpec sig grid5.rank := fun | 0 => spec5_0 | ⟨_ + 1, h⟩ => absurd h (Nat.not_lt.2 (Nat.le_add_left _ _))
theorem hcount5 : ∀ w, grid5.bufCount (spec5 w).reads (spec5 w).sync = (spec5 w).nbuf := fun | 0 => nbuf5_0 | ⟨_ + 1, h⟩ => absurd h (Nat.not_lt.2 (Nat.le_add_left _ _))
abbrev ix5 (pf : pre5.Contents (Elt F)) : (w : Fin 1) → grid5.Coords → Fin (spec5 w).shape.rank → Nat := fun | 0 => cc5_transform_1 | ⟨_ + 1, h⟩ => absurd h (Nat.not_lt.2 (Nat.le_add_left _ _))
theorem hreads5 : ∀ (pf : pre5.Contents (Elt F)) w (i i' : grid5.Coords), (∀ a, (spec5 w).reads a = true → i a = i' a) → ix5 pf w i = ix5 pf w i' := fun pf => fun | 0 => hreads5_0 | ⟨_ + 1, h⟩ => absurd h (Nat.not_lt.2 (Nat.le_add_left _ _))
def ok5 (_ : pre5.Contents (Elt F)) : Prop :=
  True
instance (pf : pre5.Contents (Elt F)) : Decidable (ok5 pf) := decidable_of_iff' _ (Iff.of_eq (ok5.eq_1 pf))
theorem hinb5 : ∀ (pf : pre5.Contents (Elt F)), ok5 pf → ∀ w (i : grid5.Coords) a, (ix5 pf w i a + 1) * (spec5 w).size a ≤ (spec5 w).shape.size a :=
  fun _ _ => fun | 0 => hinb5_0 | ⟨_ + 1, h⟩ => absurd h (Nat.not_lt.2 (Nat.le_add_left _ _))
theorem hwx5 : ∀ (pf : pre5.Contents (Elt F)) (hok : ok5 pf) w (i : grid5.Coords), (spec5 w).elt.bits = 32 ∨ (Rect.block (spec5 w).size (ix5 pf w i) (hinb5 pf hok w i)).WholeWords (spec5 w).elt.packing :=
  fun _ _ => fun | 0 => hwx5_0 | ⟨_ + 1, h⟩ => absurd h (Nat.not_lt.2 (Nat.le_add_left _ _))
abbrev spec6_0 : Pipeline.WinSpec sig grid6.rank :=
  Pipeline.WinSpec.ofSpec (Memref.whole main_v45) S8x128.size reads6_0 true false 2 stage6_0 sem6_0 nbuf6_0 hstage6_0

abbrev spec6 : Fin 1 → Pipeline.WinSpec sig grid6.rank := fun | 0 => spec6_0 | ⟨_ + 1, h⟩ => absurd h (Nat.not_lt.2 (Nat.le_add_left _ _))
theorem hcount6 : ∀ w, grid6.bufCount (spec6 w).reads (spec6 w).sync = (spec6 w).nbuf := fun | 0 => nbuf6_0 | ⟨_ + 1, h⟩ => absurd h (Nat.not_lt.2 (Nat.le_add_left _ _))
abbrev ix6 (pf : pre6.Contents (Elt F)) : (w : Fin 1) → grid6.Coords → Fin (spec6 w).shape.rank → Nat := fun | 0 => cc6_transform_1 | ⟨_ + 1, h⟩ => absurd h (Nat.not_lt.2 (Nat.le_add_left _ _))
theorem hreads6 : ∀ (pf : pre6.Contents (Elt F)) w (i i' : grid6.Coords), (∀ a, (spec6 w).reads a = true → i a = i' a) → ix6 pf w i = ix6 pf w i' := fun pf => fun | 0 => hreads6_0 | ⟨_ + 1, h⟩ => absurd h (Nat.not_lt.2 (Nat.le_add_left _ _))
def ok6 (_ : pre6.Contents (Elt F)) : Prop :=
  True
instance (pf : pre6.Contents (Elt F)) : Decidable (ok6 pf) := decidable_of_iff' _ (Iff.of_eq (ok6.eq_1 pf))
theorem hinb6 : ∀ (pf : pre6.Contents (Elt F)), ok6 pf → ∀ w (i : grid6.Coords) a, (ix6 pf w i a + 1) * (spec6 w).size a ≤ (spec6 w).shape.size a :=
  fun _ _ => fun | 0 => hinb6_0 | ⟨_ + 1, h⟩ => absurd h (Nat.not_lt.2 (Nat.le_add_left _ _))
theorem hwx6 : ∀ (pf : pre6.Contents (Elt F)) (hok : ok6 pf) w (i : grid6.Coords), (spec6 w).elt.bits = 32 ∨ (Rect.block (spec6 w).size (ix6 pf w i) (hinb6 pf hok w i)).WholeWords (spec6 w).elt.packing :=
  fun _ _ => fun | 0 => hwx6_0 | ⟨_ + 1, h⟩ => absurd h (Nat.not_lt.2 (Nat.le_add_left _ _))
abbrev spec7_0 : Pipeline.WinSpec sig grid7.rank :=
  Pipeline.WinSpec.ofSpec (Memref.whole main_v47) S8x128.size reads7_0 true false 2 stage7_0 sem7_0 nbuf7_0 hstage7_0

abbrev spec7 : Fin 1 → Pipeline.WinSpec sig grid7.rank := fun | 0 => spec7_0 | ⟨_ + 1, h⟩ => absurd h (Nat.not_lt.2 (Nat.le_add_left _ _))
theorem hcount7 : ∀ w, grid7.bufCount (spec7 w).reads (spec7 w).sync = (spec7 w).nbuf := fun | 0 => nbuf7_0 | ⟨_ + 1, h⟩ => absurd h (Nat.not_lt.2 (Nat.le_add_left _ _))
abbrev ix7 (pf : pre7.Contents (Elt F)) : (w : Fin 1) → grid7.Coords → Fin (spec7 w).shape.rank → Nat := fun | 0 => cc7_transform_1 | ⟨_ + 1, h⟩ => absurd h (Nat.not_lt.2 (Nat.le_add_left _ _))
theorem hreads7 : ∀ (pf : pre7.Contents (Elt F)) w (i i' : grid7.Coords), (∀ a, (spec7 w).reads a = true → i a = i' a) → ix7 pf w i = ix7 pf w i' := fun pf => fun | 0 => hreads7_0 | ⟨_ + 1, h⟩ => absurd h (Nat.not_lt.2 (Nat.le_add_left _ _))
def ok7 (_ : pre7.Contents (Elt F)) : Prop :=
  True
instance (pf : pre7.Contents (Elt F)) : Decidable (ok7 pf) := decidable_of_iff' _ (Iff.of_eq (ok7.eq_1 pf))
theorem hinb7 : ∀ (pf : pre7.Contents (Elt F)), ok7 pf → ∀ w (i : grid7.Coords) a, (ix7 pf w i a + 1) * (spec7 w).size a ≤ (spec7 w).shape.size a :=
  fun _ _ => fun | 0 => hinb7_0 | ⟨_ + 1, h⟩ => absurd h (Nat.not_lt.2 (Nat.le_add_left _ _))
theorem hwx7 : ∀ (pf : pre7.Contents (Elt F)) (hok : ok7 pf) w (i : grid7.Coords), (spec7 w).elt.bits = 32 ∨ (Rect.block (spec7 w).size (ix7 pf w i) (hinb7 pf hok w i)).WholeWords (spec7 w).elt.packing :=
  fun _ _ => fun | 0 => hwx7_0 | ⟨_ + 1, h⟩ => absurd h (Nat.not_lt.2 (Nat.le_add_left _ _))
abbrev spec8_0 : Pipeline.WinSpec sig grid8.rank :=
  Pipeline.WinSpec.ofSpec (Memref.whole main_v49) S8x128.size reads8_0 true false 2 stage8_0 sem8_0 nbuf8_0 hstage8_0

abbrev spec8 : Fin 1 → Pipeline.WinSpec sig grid8.rank := fun | 0 => spec8_0 | ⟨_ + 1, h⟩ => absurd h (Nat.not_lt.2 (Nat.le_add_left _ _))
theorem hcount8 : ∀ w, grid8.bufCount (spec8 w).reads (spec8 w).sync = (spec8 w).nbuf := fun | 0 => nbuf8_0 | ⟨_ + 1, h⟩ => absurd h (Nat.not_lt.2 (Nat.le_add_left _ _))
abbrev ix8 (pf : pre8.Contents (Elt F)) : (w : Fin 1) → grid8.Coords → Fin (spec8 w).shape.rank → Nat := fun | 0 => cc8_transform_1 | ⟨_ + 1, h⟩ => absurd h (Nat.not_lt.2 (Nat.le_add_left _ _))
theorem hreads8 : ∀ (pf : pre8.Contents (Elt F)) w (i i' : grid8.Coords), (∀ a, (spec8 w).reads a = true → i a = i' a) → ix8 pf w i = ix8 pf w i' := fun pf => fun | 0 => hreads8_0 | ⟨_ + 1, h⟩ => absurd h (Nat.not_lt.2 (Nat.le_add_left _ _))
def ok8 (_ : pre8.Contents (Elt F)) : Prop :=
  True
instance (pf : pre8.Contents (Elt F)) : Decidable (ok8 pf) := decidable_of_iff' _ (Iff.of_eq (ok8.eq_1 pf))
theorem hinb8 : ∀ (pf : pre8.Contents (Elt F)), ok8 pf → ∀ w (i : grid8.Coords) a, (ix8 pf w i a + 1) * (spec8 w).size a ≤ (spec8 w).shape.size a :=
  fun _ _ => fun | 0 => hinb8_0 | ⟨_ + 1, h⟩ => absurd h (Nat.not_lt.2 (Nat.le_add_left _ _))
theorem hwx8 : ∀ (pf : pre8.Contents (Elt F)) (hok : ok8 pf) w (i : grid8.Coords), (spec8 w).elt.bits = 32 ∨ (Rect.block (spec8 w).size (ix8 pf w i) (hinb8 pf hok w i)).WholeWords (spec8 w).elt.packing :=
  fun _ _ => fun | 0 => hwx8_0 | ⟨_ + 1, h⟩ => absurd h (Nat.not_lt.2 (Nat.le_add_left _ _))
abbrev spec9_0 : Pipeline.WinSpec sig grid9.rank :=
  Pipeline.WinSpec.ofSpec (Memref.whole main_v51) S8x128.size reads9_0 true false 2 stage9_0 sem9_0 nbuf9_0 hstage9_0

abbrev spec9 : Fin 1 → Pipeline.WinSpec sig grid9.rank := fun | 0 => spec9_0 | ⟨_ + 1, h⟩ => absurd h (Nat.not_lt.2 (Nat.le_add_left _ _))
theorem hcount9 : ∀ w, grid9.bufCount (spec9 w).reads (spec9 w).sync = (spec9 w).nbuf := fun | 0 => nbuf9_0 | ⟨_ + 1, h⟩ => absurd h (Nat.not_lt.2 (Nat.le_add_left _ _))
abbrev ix9 (pf : pre9.Contents (Elt F)) : (w : Fin 1) → grid9.Coords → Fin (spec9 w).shape.rank → Nat := fun | 0 => cc9_transform_1 | ⟨_ + 1, h⟩ => absurd h (Nat.not_lt.2 (Nat.le_add_left _ _))
theorem hreads9 : ∀ (pf : pre9.Contents (Elt F)) w (i i' : grid9.Coords), (∀ a, (spec9 w).reads a = true → i a = i' a) → ix9 pf w i = ix9 pf w i' := fun pf => fun | 0 => hreads9_0 | ⟨_ + 1, h⟩ => absurd h (Nat.not_lt.2 (Nat.le_add_left _ _))
def ok9 (_ : pre9.Contents (Elt F)) : Prop :=
  True
instance (pf : pre9.Contents (Elt F)) : Decidable (ok9 pf) := decidable_of_iff' _ (Iff.of_eq (ok9.eq_1 pf))
theorem hinb9 : ∀ (pf : pre9.Contents (Elt F)), ok9 pf → ∀ w (i : grid9.Coords) a, (ix9 pf w i a + 1) * (spec9 w).size a ≤ (spec9 w).shape.size a :=
  fun _ _ => fun | 0 => hinb9_0 | ⟨_ + 1, h⟩ => absurd h (Nat.not_lt.2 (Nat.le_add_left _ _))
theorem hwx9 : ∀ (pf : pre9.Contents (Elt F)) (hok : ok9 pf) w (i : grid9.Coords), (spec9 w).elt.bits = 32 ∨ (Rect.block (spec9 w).size (ix9 pf w i) (hinb9 pf hok w i)).WholeWords (spec9 w).elt.packing :=
  fun _ _ => fun | 0 => hwx9_0 | ⟨_ + 1, h⟩ => absurd h (Nat.not_lt.2 (Nat.le_add_left _ _))
abbrev spec10_0 : Pipeline.WinSpec sig grid10.rank :=
  Pipeline.WinSpec.ofSpec (Memref.whole main_v53) S8x128.size reads10_0 true false 2 stage10_0 sem10_0 nbuf10_0 hstage10_0

abbrev spec10 : Fin 1 → Pipeline.WinSpec sig grid10.rank := fun | 0 => spec10_0 | ⟨_ + 1, h⟩ => absurd h (Nat.not_lt.2 (Nat.le_add_left _ _))
theorem hcount10 : ∀ w, grid10.bufCount (spec10 w).reads (spec10 w).sync = (spec10 w).nbuf := fun | 0 => nbuf10_0 | ⟨_ + 1, h⟩ => absurd h (Nat.not_lt.2 (Nat.le_add_left _ _))
abbrev ix10 (pf : pre10.Contents (Elt F)) : (w : Fin 1) → grid10.Coords → Fin (spec10 w).shape.rank → Nat := fun | 0 => cc10_transform_1 | ⟨_ + 1, h⟩ => absurd h (Nat.not_lt.2 (Nat.le_add_left _ _))
theorem hreads10 : ∀ (pf : pre10.Contents (Elt F)) w (i i' : grid10.Coords), (∀ a, (spec10 w).reads a = true → i a = i' a) → ix10 pf w i = ix10 pf w i' := fun pf => fun | 0 => hreads10_0 | ⟨_ + 1, h⟩ => absurd h (Nat.not_lt.2 (Nat.le_add_left _ _))
def ok10 (_ : pre10.Contents (Elt F)) : Prop :=
  True
instance (pf : pre10.Contents (Elt F)) : Decidable (ok10 pf) := decidable_of_iff' _ (Iff.of_eq (ok10.eq_1 pf))
theorem hinb10 : ∀ (pf : pre10.Contents (Elt F)), ok10 pf → ∀ w (i : grid10.Coords) a, (ix10 pf w i a + 1) * (spec10 w).size a ≤ (spec10 w).shape.size a :=
  fun _ _ => fun | 0 => hinb10_0 | ⟨_ + 1, h⟩ => absurd h (Nat.not_lt.2 (Nat.le_add_left _ _))
theorem hwx10 : ∀ (pf : pre10.Contents (Elt F)) (hok : ok10 pf) w (i : grid10.Coords), (spec10 w).elt.bits = 32 ∨ (Rect.block (spec10 w).size (ix10 pf w i) (hinb10 pf hok w i)).WholeWords (spec10 w).elt.packing :=
  fun _ _ => fun | 0 => hwx10_0 | ⟨_ + 1, h⟩ => absurd h (Nat.not_lt.2 (Nat.le_add_left _ _))
abbrev win11_0 : Pipeline.Window sig grid11 :=
  Pipeline.Window.ofSpec (Memref.whole main_v59) S5000x128.size cc11_transform_0 reads11_0 false false 2 stage11_0 sem11_0
    hrank11 hreads11_0 hinb11_0 nbuf11_0 (Memref.isWhole_whole _) hwx11_0 hstage11_0

abbrev win11_1 : Pipeline.Window sig grid11 :=
  Pipeline.Window.ofSpec (Memref.whole main_v60) S1x128.size cc11_transform_1 reads11_1 false true 1 stage11_1 sem11_1
    hrank11 hreads11_1 hinb11_1 nbuf11_1 (Memref.isWhole_whole _) hwx11_1 hstage11_1

abbrev win11_2 : Pipeline.Window sig grid11 :=
  Pipeline.Window.ofSpec (Memref.whole main_arg4) S128x128.size cc11_transform_2 reads11_2 false true 1 stage11_2 sem11_2
    hrank11 hreads11_2 hinb11_2 nbuf11_2 (Memref.isWhole_whole _) hwx11_2 hstage11_2

abbrev win11_3 : Pipeline.Window sig grid11 :=
  Pipeline.Window.ofSpec (Memref.whole main_v61) S5000x128.size cc11_transform_3 reads11_3 true false 2 stage11_3 sem11_3
    hrank11 hreads11_3 hinb11_3 nbuf11_3 (Memref.isWhole_whole _) hwx11_3 hstage11_3

abbrev win11 : Fin 4 → Pipeline.Window sig grid11 := fun | 0 => win11_0 | 1 => win11_1 | 2 => win11_2 | 3 => win11_3 | ⟨_ + 4, h⟩ => absurd h (Nat.not_lt.2 (Nat.le_add_left _ _))
abbrev spec11 : Fin 4 → Pipeline.WinSpec sig grid11.rank := fun w => (win11 w).toWinSpec

abbrev spec12_0 : Pipeline.WinSpec sig grid12.rank :=
  Pipeline.WinSpec.ofSpec (Memref.whole main_v63) S8x128.size reads12_0 true false 2 stage12_0 sem12_0 nbuf12_0 hstage12_0

abbrev spec12 : Fin 1 → Pipeline.WinSpec sig grid12.rank := fun | 0 => spec12_0 | ⟨_ + 1, h⟩ => absurd h (Nat.not_lt.2 (Nat.le_add_left _ _))
theorem hcount12 : ∀ w, grid12.bufCount (spec12 w).reads (spec12 w).sync = (spec12 w).nbuf := fun | 0 => nbuf12_0 | ⟨_ + 1, h⟩ => absurd h (Nat.not_lt.2 (Nat.le_add_left _ _))
abbrev ix12 (pf : pre12.Contents (Elt F)) : (w : Fin 1) → grid12.Coords → Fin (spec12 w).shape.rank → Nat := fun | 0 => cc12_transform_1 | ⟨_ + 1, h⟩ => absurd h (Nat.not_lt.2 (Nat.le_add_left _ _))
theorem hreads12 : ∀ (pf : pre12.Contents (Elt F)) w (i i' : grid12.Coords), (∀ a, (spec12 w).reads a = true → i a = i' a) → ix12 pf w i = ix12 pf w i' := fun pf => fun | 0 => hreads12_0 | ⟨_ + 1, h⟩ => absurd h (Nat.not_lt.2 (Nat.le_add_left _ _))
def ok12 (_ : pre12.Contents (Elt F)) : Prop :=
  True
instance (pf : pre12.Contents (Elt F)) : Decidable (ok12 pf) := decidable_of_iff' _ (Iff.of_eq (ok12.eq_1 pf))
theorem hinb12 : ∀ (pf : pre12.Contents (Elt F)), ok12 pf → ∀ w (i : grid12.Coords) a, (ix12 pf w i a + 1) * (spec12 w).size a ≤ (spec12 w).shape.size a :=
  fun _ _ => fun | 0 => hinb12_0 | ⟨_ + 1, h⟩ => absurd h (Nat.not_lt.2 (Nat.le_add_left _ _))
theorem hwx12 : ∀ (pf : pre12.Contents (Elt F)) (hok : ok12 pf) w (i : grid12.Coords), (spec12 w).elt.bits = 32 ∨ (Rect.block (spec12 w).size (ix12 pf w i) (hinb12 pf hok w i)).WholeWords (spec12 w).elt.packing :=
  fun _ _ => fun | 0 => hwx12_0 | ⟨_ + 1, h⟩ => absurd h (Nat.not_lt.2 (Nat.le_add_left _ _))
abbrev spec13_0 : Pipeline.WinSpec sig grid13.rank :=
  Pipeline.WinSpec.ofSpec (Memref.whole main_v65) S8x128.size reads13_0 true false 2 stage13_0 sem13_0 nbuf13_0 hstage13_0

abbrev spec13 : Fin 1 → Pipeline.WinSpec sig grid13.rank := fun | 0 => spec13_0 | ⟨_ + 1, h⟩ => absurd h (Nat.not_lt.2 (Nat.le_add_left _ _))
theorem hcount13 : ∀ w, grid13.bufCount (spec13 w).reads (spec13 w).sync = (spec13 w).nbuf := fun | 0 => nbuf13_0 | ⟨_ + 1, h⟩ => absurd h (Nat.not_lt.2 (Nat.le_add_left _ _))
abbrev ix13 (pf : pre13.Contents (Elt F)) : (w : Fin 1) → grid13.Coords → Fin (spec13 w).shape.rank → Nat := fun | 0 => cc13_transform_1 | ⟨_ + 1, h⟩ => absurd h (Nat.not_lt.2 (Nat.le_add_left _ _))
theorem hreads13 : ∀ (pf : pre13.Contents (Elt F)) w (i i' : grid13.Coords), (∀ a, (spec13 w).reads a = true → i a = i' a) → ix13 pf w i = ix13 pf w i' := fun pf => fun | 0 => hreads13_0 | ⟨_ + 1, h⟩ => absurd h (Nat.not_lt.2 (Nat.le_add_left _ _))
def ok13 (_ : pre13.Contents (Elt F)) : Prop :=
  True
instance (pf : pre13.Contents (Elt F)) : Decidable (ok13 pf) := decidable_of_iff' _ (Iff.of_eq (ok13.eq_1 pf))
theorem hinb13 : ∀ (pf : pre13.Contents (Elt F)), ok13 pf → ∀ w (i : grid13.Coords) a, (ix13 pf w i a + 1) * (spec13 w).size a ≤ (spec13 w).shape.size a :=
  fun _ _ => fun | 0 => hinb13_0 | ⟨_ + 1, h⟩ => absurd h (Nat.not_lt.2 (Nat.le_add_left _ _))
theorem hwx13 : ∀ (pf : pre13.Contents (Elt F)) (hok : ok13 pf) w (i : grid13.Coords), (spec13 w).elt.bits = 32 ∨ (Rect.block (spec13 w).size (ix13 pf w i) (hinb13 pf hok w i)).WholeWords (spec13 w).elt.packing :=
  fun _ _ => fun | 0 => hwx13_0 | ⟨_ + 1, h⟩ => absurd h (Nat.not_lt.2 (Nat.le_add_left _ _))
abbrev spec14_0 : Pipeline.WinSpec sig grid14.rank :=
  Pipeline.WinSpec.ofSpec (Memref.whole main_v67) S8x128.size reads14_0 true false 2 stage14_0 sem14_0 nbuf14_0 hstage14_0

abbrev spec14 : Fin 1 → Pipeline.WinSpec sig grid14.rank := fun | 0 => spec14_0 | ⟨_ + 1, h⟩ => absurd h (Nat.not_lt.2 (Nat.le_add_left _ _))
theorem hcount14 : ∀ w, grid14.bufCount (spec14 w).reads (spec14 w).sync = (spec14 w).nbuf := fun | 0 => nbuf14_0 | ⟨_ + 1, h⟩ => absurd h (Nat.not_lt.2 (Nat.le_add_left _ _))
abbrev ix14 (pf : pre14.Contents (Elt F)) : (w : Fin 1) → grid14.Coords → Fin (spec14 w).shape.rank → Nat := fun | 0 => cc14_transform_1 | ⟨_ + 1, h⟩ => absurd h (Nat.not_lt.2 (Nat.le_add_left _ _))
theorem hreads14 : ∀ (pf : pre14.Contents (Elt F)) w (i i' : grid14.Coords), (∀ a, (spec14 w).reads a = true → i a = i' a) → ix14 pf w i = ix14 pf w i' := fun pf => fun | 0 => hreads14_0 | ⟨_ + 1, h⟩ => absurd h (Nat.not_lt.2 (Nat.le_add_left _ _))
def ok14 (_ : pre14.Contents (Elt F)) : Prop :=
  True
instance (pf : pre14.Contents (Elt F)) : Decidable (ok14 pf) := decidable_of_iff' _ (Iff.of_eq (ok14.eq_1 pf))
theorem hinb14 : ∀ (pf : pre14.Contents (Elt F)), ok14 pf → ∀ w (i : grid14.Coords) a, (ix14 pf w i a + 1) * (spec14 w).size a ≤ (spec14 w).shape.size a :=
  fun _ _ => fun | 0 => hinb14_0 | ⟨_ + 1, h⟩ => absurd h (Nat.not_lt.2 (Nat.le_add_left _ _))
theorem hwx14 : ∀ (pf : pre14.Contents (Elt F)) (hok : ok14 pf) w (i : grid14.Coords), (spec14 w).elt.bits = 32 ∨ (Rect.block (spec14 w).size (ix14 pf w i) (hinb14 pf hok w i)).WholeWords (spec14 w).elt.packing :=
  fun _ _ => fun | 0 => hwx14_0 | ⟨_ + 1, h⟩ => absurd h (Nat.not_lt.2 (Nat.le_add_left _ _))
abbrev spec15_0 : Pipeline.WinSpec sig grid15.rank :=
  Pipeline.WinSpec.ofSpec (Memref.whole main_v69) S8x128.size reads15_0 true false 2 stage15_0 sem15_0 nbuf15_0 hstage15_0

abbrev spec15 : Fin 1 → Pipeline.WinSpec sig grid15.rank := fun | 0 => spec15_0 | ⟨_ + 1, h⟩ => absurd h (Nat.not_lt.2 (Nat.le_add_left _ _))
theorem hcount15 : ∀ w, grid15.bufCount (spec15 w).reads (spec15 w).sync = (spec15 w).nbuf := fun | 0 => nbuf15_0 | ⟨_ + 1, h⟩ => absurd h (Nat.not_lt.2 (Nat.le_add_left _ _))
abbrev ix15 (pf : pre15.Contents (Elt F)) : (w : Fin 1) → grid15.Coords → Fin (spec15 w).shape.rank → Nat := fun | 0 => cc15_transform_1 | ⟨_ + 1, h⟩ => absurd h (Nat.not_lt.2 (Nat.le_add_left _ _))
theorem hreads15 : ∀ (pf : pre15.Contents (Elt F)) w (i i' : grid15.Coords), (∀ a, (spec15 w).reads a = true → i a = i' a) → ix15 pf w i = ix15 pf w i' := fun pf => fun | 0 => hreads15_0 | ⟨_ + 1, h⟩ => absurd h (Nat.not_lt.2 (Nat.le_add_left _ _))
def ok15 (_ : pre15.Contents (Elt F)) : Prop :=
  True
instance (pf : pre15.Contents (Elt F)) : Decidable (ok15 pf) := decidable_of_iff' _ (Iff.of_eq (ok15.eq_1 pf))
theorem hinb15 : ∀ (pf : pre15.Contents (Elt F)), ok15 pf → ∀ w (i : grid15.Coords) a, (ix15 pf w i a + 1) * (spec15 w).size a ≤ (spec15 w).shape.size a :=
  fun _ _ => fun | 0 => hinb15_0 | ⟨_ + 1, h⟩ => absurd h (Nat.not_lt.2 (Nat.le_add_left _ _))
theorem hwx15 : ∀ (pf : pre15.Contents (Elt F)) (hok : ok15 pf) w (i : grid15.Coords), (spec15 w).elt.bits = 32 ∨ (Rect.block (spec15 w).size (ix15 pf w i) (hinb15 pf hok w i)).WholeWords (spec15 w).elt.packing :=
  fun _ _ => fun | 0 => hwx15_0 | ⟨_ + 1, h⟩ => absurd h (Nat.not_lt.2 (Nat.le_add_left _ _))
abbrev spec16_0 : Pipeline.WinSpec sig grid16.rank :=
  Pipeline.WinSpec.ofSpec (Memref.whole main_v71) S8x128.size reads16_0 true false 2 stage16_0 sem16_0 nbuf16_0 hstage16_0

abbrev spec16 : Fin 1 → Pipeline.WinSpec sig grid16.rank := fun | 0 => spec16_0 | ⟨_ + 1, h⟩ => absurd h (Nat.not_lt.2 (Nat.le_add_left _ _))
theorem hcount16 : ∀ w, grid16.bufCount (spec16 w).reads (spec16 w).sync = (spec16 w).nbuf := fun | 0 => nbuf16_0 | ⟨_ + 1, h⟩ => absurd h (Nat.not_lt.2 (Nat.le_add_left _ _))
abbrev ix16 (pf : pre16.Contents (Elt F)) : (w : Fin 1) → grid16.Coords → Fin (spec16 w).shape.rank → Nat := fun | 0 => cc16_transform_1 | ⟨_ + 1, h⟩ => absurd h (Nat.not_lt.2 (Nat.le_add_left _ _))
theorem hreads16 : ∀ (pf : pre16.Contents (Elt F)) w (i i' : grid16.Coords), (∀ a, (spec16 w).reads a = true → i a = i' a) → ix16 pf w i = ix16 pf w i' := fun pf => fun | 0 => hreads16_0 | ⟨_ + 1, h⟩ => absurd h (Nat.not_lt.2 (Nat.le_add_left _ _))
def ok16 (_ : pre16.Contents (Elt F)) : Prop :=
  True
instance (pf : pre16.Contents (Elt F)) : Decidable (ok16 pf) := decidable_of_iff' _ (Iff.of_eq (ok16.eq_1 pf))
theorem hinb16 : ∀ (pf : pre16.Contents (Elt F)), ok16 pf → ∀ w (i : grid16.Coords) a, (ix16 pf w i a + 1) * (spec16 w).size a ≤ (spec16 w).shape.size a :=
  fun _ _ => fun | 0 => hinb16_0 | ⟨_ + 1, h⟩ => absurd h (Nat.not_lt.2 (Nat.le_add_left _ _))
theorem hwx16 : ∀ (pf : pre16.Contents (Elt F)) (hok : ok16 pf) w (i : grid16.Coords), (spec16 w).elt.bits = 32 ∨ (Rect.block (spec16 w).size (ix16 pf w i) (hinb16 pf hok w i)).WholeWords (spec16 w).elt.packing :=
  fun _ _ => fun | 0 => hwx16_0 | ⟨_ + 1, h⟩ => absurd h (Nat.not_lt.2 (Nat.le_add_left _ _))
abbrev spec17_0 : Pipeline.WinSpec sig grid17.rank :=
  Pipeline.WinSpec.ofSpec (Memref.whole main_v73) S8x128.size reads17_0 true false 2 stage17_0 sem17_0 nbuf17_0 hstage17_0

abbrev spec17 : Fin 1 → Pipeline.WinSpec sig grid17.rank := fun | 0 => spec17_0 | ⟨_ + 1, h⟩ => absurd h (Nat.not_lt.2 (Nat.le_add_left _ _))
theorem hcount17 : ∀ w, grid17.bufCount (spec17 w).reads (spec17 w).sync = (spec17 w).nbuf := fun | 0 => nbuf17_0 | ⟨_ + 1, h⟩ => absurd h (Nat.not_lt.2 (Nat.le_add_left _ _))
abbrev ix17 (pf : pre17.Contents (Elt F)) : (w : Fin 1) → grid17.Coords → Fin (spec17 w).shape.rank → Nat := fun | 0 => cc17_transform_1 | ⟨_ + 1, h⟩ => absurd h (Nat.not_lt.2 (Nat.le_add_left _ _))
theorem hreads17 : ∀ (pf : pre17.Contents (Elt F)) w (i i' : grid17.Coords), (∀ a, (spec17 w).reads a = true → i a = i' a) → ix17 pf w i = ix17 pf w i' := fun pf => fun | 0 => hreads17_0 | ⟨_ + 1, h⟩ => absurd h (Nat.not_lt.2 (Nat.le_add_left _ _))
def ok17 (_ : pre17.Contents (Elt F)) : Prop :=
  True
instance (pf : pre17.Contents (Elt F)) : Decidable (ok17 pf) := decidable_of_iff' _ (Iff.of_eq (ok17.eq_1 pf))
theorem hinb17 : ∀ (pf : pre17.Contents (Elt F)), ok17 pf → ∀ w (i : grid17.Coords) a, (ix17 pf w i a + 1) * (spec17 w).size a ≤ (spec17 w).shape.size a :=
  fun _ _ => fun | 0 => hinb17_0 | ⟨_ + 1, h⟩ => absurd h (Nat.not_lt.2 (Nat.le_add_left _ _))
theorem hwx17 : ∀ (pf : pre17.Contents (Elt F)) (hok : ok17 pf) w (i : grid17.Coords), (spec17 w).elt.bits = 32 ∨ (Rect.block (spec17 w).size (ix17 pf w i) (hinb17 pf hok w i)).WholeWords (spec17 w).elt.packing :=
  fun _ _ => fun | 0 => hwx17_0 | ⟨_ + 1, h⟩ => absurd h (Nat.not_lt.2 (Nat.le_add_left _ _))
abbrev spec18_0 : Pipeline.WinSpec sig grid18.rank :=
  Pipeline.WinSpec.ofSpec (Memref.whole main_v75) S8x128.size reads18_0 true false 2 stage18_0 sem18_0 nbuf18_0 hstage18_0

abbrev spec18 : Fin 1 → Pipeline.WinSpec sig grid18.rank := fun | 0 => spec18_0 | ⟨_ + 1, h⟩ => absurd h (Nat.not_lt.2 (Nat.le_add_left _ _))
theorem hcount18 : ∀ w, grid18.bufCount (spec18 w).reads (spec18 w).sync = (spec18 w).nbuf := fun | 0 => nbuf18_0 | ⟨_ + 1, h⟩ => absurd h (Nat.not_lt.2 (Nat.le_add_left _ _))
abbrev ix18 (pf : pre18.Contents (Elt F)) : (w : Fin 1) → grid18.Coords → Fin (spec18 w).shape.rank → Nat := fun | 0 => cc18_transform_1 | ⟨_ + 1, h⟩ => absurd h (Nat.not_lt.2 (Nat.le_add_left _ _))
theorem hreads18 : ∀ (pf : pre18.Contents (Elt F)) w (i i' : grid18.Coords), (∀ a, (spec18 w).reads a = true → i a = i' a) → ix18 pf w i = ix18 pf w i' := fun pf => fun | 0 => hreads18_0 | ⟨_ + 1, h⟩ => absurd h (Nat.not_lt.2 (Nat.le_add_left _ _))
def ok18 (_ : pre18.Contents (Elt F)) : Prop :=
  True
instance (pf : pre18.Contents (Elt F)) : Decidable (ok18 pf) := decidable_of_iff' _ (Iff.of_eq (ok18.eq_1 pf))
theorem hinb18 : ∀ (pf : pre18.Contents (Elt F)), ok18 pf → ∀ w (i : grid18.Coords) a, (ix18 pf w i a + 1) * (spec18 w).size a ≤ (spec18 w).shape.size a :=
  fun _ _ => fun | 0 => hinb18_0 | ⟨_ + 1, h⟩ => absurd h (Nat.not_lt.2 (Nat.le_add_left _ _))
theorem hwx18 : ∀ (pf : pre18.Contents (Elt F)) (hok : ok18 pf) w (i : grid18.Coords), (spec18 w).elt.bits = 32 ∨ (Rect.block (spec18 w).size (ix18 pf w i) (hinb18 pf hok w i)).WholeWords (spec18 w).elt.packing :=
  fun _ _ => fun | 0 => hwx18_0 | ⟨_ + 1, h⟩ => absurd h (Nat.not_lt.2 (Nat.le_add_left _ _))
abbrev spec19_0 : Pipeline.WinSpec sig grid19.rank :=
  Pipeline.WinSpec.ofSpec (Memref.whole main_v77) S8x128.size reads19_0 true false 2 stage19_0 sem19_0 nbuf19_0 hstage19_0

abbrev spec19 : Fin 1 → Pipeline.WinSpec sig grid19.rank := fun | 0 => spec19_0 | ⟨_ + 1, h⟩ => absurd h (Nat.not_lt.2 (Nat.le_add_left _ _))
theorem hcount19 : ∀ w, grid19.bufCount (spec19 w).reads (spec19 w).sync = (spec19 w).nbuf := fun | 0 => nbuf19_0 | ⟨_ + 1, h⟩ => absurd h (Nat.not_lt.2 (Nat.le_add_left _ _))
abbrev ix19 (pf : pre19.Contents (Elt F)) : (w : Fin 1) → grid19.Coords → Fin (spec19 w).shape.rank → Nat := fun | 0 => cc19_transform_1 | ⟨_ + 1, h⟩ => absurd h (Nat.not_lt.2 (Nat.le_add_left _ _))
theorem hreads19 : ∀ (pf : pre19.Contents (Elt F)) w (i i' : grid19.Coords), (∀ a, (spec19 w).reads a = true → i a = i' a) → ix19 pf w i = ix19 pf w i' := fun pf => fun | 0 => hreads19_0 | ⟨_ + 1, h⟩ => absurd h (Nat.not_lt.2 (Nat.le_add_left _ _))
def ok19 (_ : pre19.Contents (Elt F)) : Prop :=
  True
instance (pf : pre19.Contents (Elt F)) : Decidable (ok19 pf) := decidable_of_iff' _ (Iff.of_eq (ok19.eq_1 pf))
theorem hinb19 : ∀ (pf : pre19.Contents (Elt F)), ok19 pf → ∀ w (i : grid19.Coords) a, (ix19 pf w i a + 1) * (spec19 w).size a ≤ (spec19 w).shape.size a :=
  fun _ _ => fun | 0 => hinb19_0 | ⟨_ + 1, h⟩ => absurd h (Nat.not_lt.2 (Nat.le_add_left _ _))
theorem hwx19 : ∀ (pf : pre19.Contents (Elt F)) (hok : ok19 pf) w (i : grid19.Coords), (spec19 w).elt.bits = 32 ∨ (Rect.block (spec19 w).size (ix19 pf w i) (hinb19 pf hok w i)).WholeWords (spec19 w).elt.packing :=
  fun _ _ => fun | 0 => hwx19_0 | ⟨_ + 1, h⟩ => absurd h (Nat.not_lt.2 (Nat.le_add_left _ _))
abbrev spec20_0 : Pipeline.WinSpec sig grid20.rank :=
  Pipeline.WinSpec.ofSpec (Memref.whole main_v79) S8x128.size reads20_0 true false 2 stage20_0 sem20_0 nbuf20_0 hstage20_0

abbrev spec20 : Fin 1 → Pipeline.WinSpec sig grid20.rank := fun | 0 => spec20_0 | ⟨_ + 1, h⟩ => absurd h (Nat.not_lt.2 (Nat.le_add_left _ _))
theorem hcount20 : ∀ w, grid20.bufCount (spec20 w).reads (spec20 w).sync = (spec20 w).nbuf := fun | 0 => nbuf20_0 | ⟨_ + 1, h⟩ => absurd h (Nat.not_lt.2 (Nat.le_add_left _ _))
abbrev ix20 (pf : pre20.Contents (Elt F)) : (w : Fin 1) → grid20.Coords → Fin (spec20 w).shape.rank → Nat := fun | 0 => cc20_transform_1 | ⟨_ + 1, h⟩ => absurd h (Nat.not_lt.2 (Nat.le_add_left _ _))
theorem hreads20 : ∀ (pf : pre20.Contents (Elt F)) w (i i' : grid20.Coords), (∀ a, (spec20 w).reads a = true → i a = i' a) → ix20 pf w i = ix20 pf w i' := fun pf => fun | 0 => hreads20_0 | ⟨_ + 1, h⟩ => absurd h (Nat.not_lt.2 (Nat.le_add_left _ _))
def ok20 (_ : pre20.Contents (Elt F)) : Prop :=
  True
instance (pf : pre20.Contents (Elt F)) : Decidable (ok20 pf) := decidable_of_iff' _ (Iff.of_eq (ok20.eq_1 pf))
theorem hinb20 : ∀ (pf : pre20.Contents (Elt F)), ok20 pf → ∀ w (i : grid20.Coords) a, (ix20 pf w i a + 1) * (spec20 w).size a ≤ (spec20 w).shape.size a :=
  fun _ _ => fun | 0 => hinb20_0 | ⟨_ + 1, h⟩ => absurd h (Nat.not_lt.2 (Nat.le_add_left _ _))
theorem hwx20 : ∀ (pf : pre20.Contents (Elt F)) (hok : ok20 pf) w (i : grid20.Coords), (spec20 w).elt.bits = 32 ∨ (Rect.block (spec20 w).size (ix20 pf w i) (hinb20 pf hok w i)).WholeWords (spec20 w).elt.packing :=
  fun _ _ => fun | 0 => hwx20_0 | ⟨_ + 1, h⟩ => absurd h (Nat.not_lt.2 (Nat.le_add_left _ _))
abbrev spec21_0 : Pipeline.WinSpec sig grid21.rank :=
  Pipeline.WinSpec.ofSpec (Memref.whole main_v81) S8x128.size reads21_0 true false 2 stage21_0 sem21_0 nbuf21_0 hstage21_0

abbrev spec21 : Fin 1 → Pipeline.WinSpec sig grid21.rank := fun | 0 => spec21_0 | ⟨_ + 1, h⟩ => absurd h (Nat.not_lt.2 (Nat.le_add_left _ _))
theorem hcount21 : ∀ w, grid21.bufCount (spec21 w).reads (spec21 w).sync = (spec21 w).nbuf := fun | 0 => nbuf21_0 | ⟨_ + 1, h⟩ => absurd h (Nat.not_lt.2 (Nat.le_add_left _ _))
abbrev ix21 (pf : pre21.Contents (Elt F)) : (w : Fin 1) → grid21.Coords → Fin (spec21 w).shape.rank → Nat := fun | 0 => cc21_transform_1 | ⟨_ + 1, h⟩ => absurd h (Nat.not_lt.2 (Nat.le_add_left _ _))
theorem hreads21 : ∀ (pf : pre21.Contents (Elt F)) w (i i' : grid21.Coords), (∀ a, (spec21 w).reads a = true → i a = i' a) → ix21 pf w i = ix21 pf w i' := fun pf => fun | 0 => hreads21_0 | ⟨_ + 1, h⟩ => absurd h (Nat.not_lt.2 (Nat.le_add_left _ _))
def ok21 (_ : pre21.Contents (Elt F)) : Prop :=
  True
instance (pf : pre21.Contents (Elt F)) : Decidable (ok21 pf) := decidable_of_iff' _ (Iff.of_eq (ok21.eq_1 pf))
theorem hinb21 : ∀ (pf : pre21.Contents (Elt F)), ok21 pf → ∀ w (i : grid21.Coords) a, (ix21 pf w i a + 1) * (spec21 w).size a ≤ (spec21 w).shape.size a :=
  fun _ _ => fun | 0 => hinb21_0 | ⟨_ + 1, h⟩ => absurd h (Nat.not_lt.2 (Nat.le_add_left _ _))
theorem hwx21 : ∀ (pf : pre21.Contents (Elt F)) (hok : ok21 pf) w (i : grid21.Coords), (spec21 w).elt.bits = 32 ∨ (Rect.block (spec21 w).size (ix21 pf w i) (hinb21 pf hok w i)).WholeWords (spec21 w).elt.packing :=
  fun _ _ => fun | 0 => hwx21_0 | ⟨_ + 1, h⟩ => absurd h (Nat.not_lt.2 (Nat.le_add_left _ _))
abbrev win22_0 : Pipeline.Window sig grid22 :=
  Pipeline.Window.ofSpec (Memref.whole main_v87) S5000x128.size cc22_transform_0 reads22_0 false false 2 stage22_0 sem22_0
    hrank22 hreads22_0 hinb22_0 nbuf22_0 (Memref.isWhole_whole _) hwx22_0 hstage22_0

abbrev win22_1 : Pipeline.Window sig grid22 :=
  Pipeline.Window.ofSpec (Memref.whole main_v88) S1x128.size cc22_transform_1 reads22_1 false true 1 stage22_1 sem22_1
    hrank22 hreads22_1 hinb22_1 nbuf22_1 (Memref.isWhole_whole _) hwx22_1 hstage22_1

abbrev win22_2 : Pipeline.Window sig grid22 :=
  Pipeline.Window.ofSpec (Memref.whole main_v89) S5000x128.size cc22_transform_2 reads22_2 true false 2 stage22_2 sem22_2
    hrank22 hreads22_2 hinb22_2 nbuf22_2 (Memref.isWhole_whole _) hwx22_2 hstage22_2

abbrev win22 : Fin 3 → Pipeline.Window sig grid22 := fun | 0 => win22_0 | 1 => win22_1 | 2 => win22_2 | ⟨_ + 3, h⟩ => absurd h (Nat.not_lt.2 (Nat.le_add_left _ _))
abbrev spec22 : Fin 3 → Pipeline.WinSpec sig grid22.rank := fun w => (win22 w).toWinSpec

abbrev spec23_0 : Pipeline.WinSpec sig grid23.rank :=
  Pipeline.WinSpec.ofSpec (Memref.whole main_v91) S8x128.size reads23_0 true false 2 stage23_0 sem23_0 nbuf23_0 hstage23_0

abbrev spec23 : Fin 1 → Pipeline.WinSpec sig grid23.rank := fun | 0 => spec23_0 | ⟨_ + 1, h⟩ => absurd h (Nat.not_lt.2 (Nat.le_add_left _ _))
theorem hcount23 : ∀ w, grid23.bufCount (spec23 w).reads (spec23 w).sync = (spec23 w).nbuf := fun | 0 => nbuf23_0 | ⟨_ + 1, h⟩ => absurd h (Nat.not_lt.2 (Nat.le_add_left _ _))
abbrev ix23 (pf : pre23.Contents (Elt F)) : (w : Fin 1) → grid23.Coords → Fin (spec23 w).shape.rank → Nat := fun | 0 => cc23_transform_1 | ⟨_ + 1, h⟩ => absurd h (Nat.not_lt.2 (Nat.le_add_left _ _))
theorem hreads23 : ∀ (pf : pre23.Contents (Elt F)) w (i i' : grid23.Coords), (∀ a, (spec23 w).reads a = true → i a = i' a) → ix23 pf w i = ix23 pf w i' := fun pf => fun | 0 => hreads23_0 | ⟨_ + 1, h⟩ => absurd h (Nat.not_lt.2 (Nat.le_add_left _ _))
def ok23 (_ : pre23.Contents (Elt F)) : Prop :=
  True
instance (pf : pre23.Contents (Elt F)) : Decidable (ok23 pf) := decidable_of_iff' _ (Iff.of_eq (ok23.eq_1 pf))
theorem hinb23 : ∀ (pf : pre23.Contents (Elt F)), ok23 pf → ∀ w (i : grid23.Coords) a, (ix23 pf w i a + 1) * (spec23 w).size a ≤ (spec23 w).shape.size a :=
  fun _ _ => fun | 0 => hinb23_0 | ⟨_ + 1, h⟩ => absurd h (Nat.not_lt.2 (Nat.le_add_left _ _))
theorem hwx23 : ∀ (pf : pre23.Contents (Elt F)) (hok : ok23 pf) w (i : grid23.Coords), (spec23 w).elt.bits = 32 ∨ (Rect.block (spec23 w).size (ix23 pf w i) (hinb23 pf hok w i)).WholeWords (spec23 w).elt.packing :=
  fun _ _ => fun | 0 => hwx23_0 | ⟨_ + 1, h⟩ => absurd h (Nat.not_lt.2 (Nat.le_add_left _ _))
abbrev spec24_0 : Pipeline.WinSpec sig grid24.rank :=
  Pipeline.WinSpec.ofSpec (Memref.whole main_v93) S8x128.size reads24_0 true false 2 stage24_0 sem24_0 nbuf24_0 hstage24_0

abbrev spec24 : Fin 1 → Pipeline.WinSpec sig grid24.rank := fun | 0 => spec24_0 | ⟨_ + 1, h⟩ => absurd h (Nat.not_lt.2 (Nat.le_add_left _ _))
theorem hcount24 : ∀ w, grid24.bufCount (spec24 w).reads (spec24 w).sync = (spec24 w).nbuf := fun | 0 => nbuf24_0 | ⟨_ + 1, h⟩ => absurd h (Nat.not_lt.2 (Nat.le_add_left _ _))
abbrev ix24 (pf : pre24.Contents (Elt F)) : (w : Fin 1) → grid24.Coords → Fin (spec24 w).shape.rank → Nat := fun | 0 => cc24_transform_1 | ⟨_ + 1, h⟩ => absurd h (Nat.not_lt.2 (Nat.le_add_left _ _))
theorem hreads24 : ∀ (pf : pre24.Contents (Elt F)) w (i i' : grid24.Coords), (∀ a, (spec24 w).reads a = true → i a = i' a) → ix24 pf w i = ix24 pf w i' := fun pf => fun | 0 => hreads24_0 | ⟨_ + 1, h⟩ => absurd h (Nat.not_lt.2 (Nat.le_add_left _ _))
def ok24 (_ : pre24.Contents (Elt F)) : Prop :=
  True
instance (pf : pre24.Contents (Elt F)) : Decidable (ok24 pf) := decidable_of_iff' _ (Iff.of_eq (ok24.eq_1 pf))
theorem hinb24 : ∀ (pf : pre24.Contents (Elt F)), ok24 pf → ∀ w (i : grid24.Coords) a, (ix24 pf w i a + 1) * (spec24 w).size a ≤ (spec24 w).shape.size a :=
  fun _ _ => fun | 0 => hinb24_0 | ⟨_ + 1, h⟩ => absurd h (Nat.not_lt.2 (Nat.le_add_left _ _))
theorem hwx24 : ∀ (pf : pre24.Contents (Elt F)) (hok : ok24 pf) w (i : grid24.Coords), (spec24 w).elt.bits = 32 ∨ (Rect.block (spec24 w).size (ix24 pf w i) (hinb24 pf hok w i)).WholeWords (spec24 w).elt.packing :=
  fun _ _ => fun | 0 => hwx24_0 | ⟨_ + 1, h⟩ => absurd h (Nat.not_lt.2 (Nat.le_add_left _ _))
abbrev spec25_0 : Pipeline.WinSpec sig grid25.rank :=
  Pipeline.WinSpec.ofSpec (Memref.whole main_v95) S8x128.size reads25_0 true false 2 stage25_0 sem25_0 nbuf25_0 hstage25_0

abbrev spec25 : Fin 1 → Pipeline.WinSpec sig grid25.rank := fun | 0 => spec25_0 | ⟨_ + 1, h⟩ => absurd h (Nat.not_lt.2 (Nat.le_add_left _ _))
theorem hcount25 : ∀ w, grid25.bufCount (spec25 w).reads (spec25 w).sync = (spec25 w).nbuf := fun | 0 => nbuf25_0 | ⟨_ + 1, h⟩ => absurd h (Nat.not_lt.2 (Nat.le_add_left _ _))
abbrev ix25 (pf : pre25.Contents (Elt F)) : (w : Fin 1) → grid25.Coords → Fin (spec25 w).shape.rank → Nat := fun | 0 => cc25_transform_1 | ⟨_ + 1, h⟩ => absurd h (Nat.not_lt.2 (Nat.le_add_left _ _))
theorem hreads25 : ∀ (pf : pre25.Contents (Elt F)) w (i i' : grid25.Coords), (∀ a, (spec25 w).reads a = true → i a = i' a) → ix25 pf w i = ix25 pf w i' := fun pf => fun | 0 => hreads25_0 | ⟨_ + 1, h⟩ => absurd h (Nat.not_lt.2 (Nat.le_add_left _ _))
def ok25 (_ : pre25.Contents (Elt F)) : Prop :=
  True
instance (pf : pre25.Contents (Elt F)) : Decidable (ok25 pf) := decidable_of_iff' _ (Iff.of_eq (ok25.eq_1 pf))
theorem hinb25 : ∀ (pf : pre25.Contents (Elt F)), ok25 pf → ∀ w (i : grid25.Coords) a, (ix25 pf w i a + 1) * (spec25 w).size a ≤ (spec25 w).shape.size a :=
  fun _ _ => fun | 0 => hinb25_0 | ⟨_ + 1, h⟩ => absurd h (Nat.not_lt.2 (Nat.le_add_left _ _))
theorem hwx25 : ∀ (pf : pre25.Contents (Elt F)) (hok : ok25 pf) w (i : grid25.Coords), (spec25 w).elt.bits = 32 ∨ (Rect.block (spec25 w).size (ix25 pf w i) (hinb25 pf hok w i)).WholeWords (spec25 w).elt.packing :=
  fun _ _ => fun | 0 => hwx25_0 | ⟨_ + 1, h⟩ => absurd h (Nat.not_lt.2 (Nat.le_add_left _ _))
abbrev spec26_0 : Pipeline.WinSpec sig grid26.rank :=
  Pipeline.WinSpec.ofSpec (Memref.whole main_v97) S8x128.size reads26_0 true false 2 stage26_0 sem26_0 nbuf26_0 hstage26_0

abbrev spec26 : Fin 1 → Pipeline.WinSpec sig grid26.rank := fun | 0 => spec26_0 | ⟨_ + 1, h⟩ => absurd h (Nat.not_lt.2 (Nat.le_add_left _ _))
theorem hcount26 : ∀ w, grid26.bufCount (spec26 w).reads (spec26 w).sync = (spec26 w).nbuf := fun | 0 => nbuf26_0 | ⟨_ + 1, h⟩ => absurd h (Nat.not_lt.2 (Nat.le_add_left _ _))
abbrev ix26 (pf : pre26.Contents (Elt F)) : (w : Fin 1) → grid26.Coords → Fin (spec26 w).shape.rank → Nat := fun | 0 => cc26_transform_1 | ⟨_ + 1, h⟩ => absurd h (Nat.not_lt.2 (Nat.le_add_left _ _))
theorem hreads26 : ∀ (pf : pre26.Contents (Elt F)) w (i i' : grid26.Coords), (∀ a, (spec26 w).reads a = true → i a = i' a) → ix26 pf w i = ix26 pf w i' := fun pf => fun | 0 => hreads26_0 | ⟨_ + 1, h⟩ => absurd h (Nat.not_lt.2 (Nat.le_add_left _ _))
def ok26 (_ : pre26.Contents (Elt F)) : Prop :=
  True
instance (pf : pre26.Contents (Elt F)) : Decidable (ok26 pf) := decidable_of_iff' _ (Iff.of_eq (ok26.eq_1 pf))
theorem hinb26 : ∀ (pf : pre26.Contents (Elt F)), ok26 pf → ∀ w (i : grid26.Coords) a, (ix26 pf w i a + 1) * (spec26 w).size a ≤ (spec26 w).shape.size a :=
  fun _ _ => fun | 0 => hinb26_0 | ⟨_ + 1, h⟩ => absurd h (Nat.not_lt.2 (Nat.le_add_left _ _))
theorem hwx26 : ∀ (pf : pre26.Contents (Elt F)) (hok : ok26 pf) w (i : grid26.Coords), (spec26 w).elt.bits = 32 ∨ (Rect.block (spec26 w).size (ix26 pf w i) (hinb26 pf hok w i)).WholeWords (spec26 w).elt.packing :=
  fun _ _ => fun | 0 => hwx26_0 | ⟨_ + 1, h⟩ => absurd h (Nat.not_lt.2 (Nat.le_add_left _ _))
abbrev spec27_0 : Pipeline.WinSpec sig grid27.rank :=
  Pipeline.WinSpec.ofSpec (Memref.whole main_v99) S8x128.size reads27_0 true false 2 stage27_0 sem27_0 nbuf27_0 hstage27_0

abbrev spec27 : Fin 1 → Pipeline.WinSpec sig grid27.rank := fun | 0 => spec27_0 | ⟨_ + 1, h⟩ => absurd h (Nat.not_lt.2 (Nat.le_add_left _ _))
theorem hcount27 : ∀ w, grid27.bufCount (spec27 w).reads (spec27 w).sync = (spec27 w).nbuf := fun | 0 => nbuf27_0 | ⟨_ + 1, h⟩ => absurd h (Nat.not_lt.2 (Nat.le_add_left _ _))
abbrev ix27 (pf : pre27.Contents (Elt F)) : (w : Fin 1) → grid27.Coords → Fin (spec27 w).shape.rank → Nat := fun | 0 => cc27_transform_1 | ⟨_ + 1, h⟩ => absurd h (Nat.not_lt.2 (Nat.le_add_left _ _))
theorem hreads27 : ∀ (pf : pre27.Contents (Elt F)) w (i i' : grid27.Coords), (∀ a, (spec27 w).reads a = true → i a = i' a) → ix27 pf w i = ix27 pf w i' := fun pf => fun | 0 => hreads27_0 | ⟨_ + 1, h⟩ => absurd h (Nat.not_lt.2 (Nat.le_add_left _ _))
def ok27 (_ : pre27.Contents (Elt F)) : Prop :=
  True
instance (pf : pre27.Contents (Elt F)) : Decidable (ok27 pf) := decidable_of_iff' _ (Iff.of_eq (ok27.eq_1 pf))
theorem hinb27 : ∀ (pf : pre27.Contents (Elt F)), ok27 pf → ∀ w (i : grid27.Coords) a, (ix27 pf w i a + 1) * (spec27 w).size a ≤ (spec27 w).shape.size a :=
  fun _ _ => fun | 0 => hinb27_0 | ⟨_ + 1, h⟩ => absurd h (Nat.not_lt.2 (Nat.le_add_left _ _))
theorem hwx27 : ∀ (pf : pre27.Contents (Elt F)) (hok : ok27 pf) w (i : grid27.Coords), (spec27 w).elt.bits = 32 ∨ (Rect.block (spec27 w).size (ix27 pf w i) (hinb27 pf hok w i)).WholeWords (spec27 w).elt.packing :=
  fun _ _ => fun | 0 => hwx27_0 | ⟨_ + 1, h⟩ => absurd h (Nat.not_lt.2 (Nat.le_add_left _ _))
abbrev spec28_0 : Pipeline.WinSpec sig grid28.rank :=
  Pipeline.WinSpec.ofSpec (Memref.whole main_v101) S8x128.size reads28_0 true false 2 stage28_0 sem28_0 nbuf28_0 hstage28_0

abbrev spec28 : Fin 1 → Pipeline.WinSpec sig grid28.rank := fun | 0 => spec28_0 | ⟨_ + 1, h⟩ => absurd h (Nat.not_lt.2 (Nat.le_add_left _ _))
theorem hcount28 : ∀ w, grid28.bufCount (spec28 w).reads (spec28 w).sync = (spec28 w).nbuf := fun | 0 => nbuf28_0 | ⟨_ + 1, h⟩ => absurd h (Nat.not_lt.2 (Nat.le_add_left _ _))
abbrev ix28 (pf : pre28.Contents (Elt F)) : (w : Fin 1) → grid28.Coords → Fin (spec28 w).shape.rank → Nat := fun | 0 => cc28_transform_1 | ⟨_ + 1, h⟩ => absurd h (Nat.not_lt.2 (Nat.le_add_left _ _))
theorem hreads28 : ∀ (pf : pre28.Contents (Elt F)) w (i i' : grid28.Coords), (∀ a, (spec28 w).reads a = true → i a = i' a) → ix28 pf w i = ix28 pf w i' := fun pf => fun | 0 => hreads28_0 | ⟨_ + 1, h⟩ => absurd h (Nat.not_lt.2 (Nat.le_add_left _ _))
def ok28 (_ : pre28.Contents (Elt F)) : Prop :=
  True
instance (pf : pre28.Contents (Elt F)) : Decidable (ok28 pf) := decidable_of_iff' _ (Iff.of_eq (ok28.eq_1 pf))
theorem hinb28 : ∀ (pf : pre28.Contents (Elt F)), ok28 pf → ∀ w (i : grid28.Coords) a, (ix28 pf w i a + 1) * (spec28 w).size a ≤ (spec28 w).shape.size a :=
  fun _ _ => fun | 0 => hinb28_0 | ⟨_ + 1, h⟩ => absurd h (Nat.not_lt.2 (Nat.le_add_left _ _))
theorem hwx28 : ∀ (pf : pre28.Contents (Elt F)) (hok : ok28 pf) w (i : grid28.Coords), (spec28 w).elt.bits = 32 ∨ (Rect.block (spec28 w).size (ix28 pf w i) (hinb28 pf hok w i)).WholeWords (spec28 w).elt.packing :=
  fun _ _ => fun | 0 => hwx28_0 | ⟨_ + 1, h⟩ => absurd h (Nat.not_lt.2 (Nat.le_add_left _ _))
abbrev spec29_0 : Pipeline.WinSpec sig grid29.rank :=
  Pipeline.WinSpec.ofSpec (Memref.whole main_v103) S8x128.size reads29_0 true false 2 stage29_0 sem29_0 nbuf29_0 hstage29_0

abbrev spec29 : Fin 1 → Pipeline.WinSpec sig grid29.rank := fun | 0 => spec29_0 | ⟨_ + 1, h⟩ => absurd h (Nat.not_lt.2 (Nat.le_add_left _ _))
theorem hcount29 : ∀ w, grid29.bufCount (spec29 w).reads (spec29 w).sync = (spec29 w).nbuf := fun | 0 => nbuf29_0 | ⟨_ + 1, h⟩ => absurd h (Nat.not_lt.2 (Nat.le_add_left _ _))
abbrev ix29 (pf : pre29.Contents (Elt F)) : (w : Fin 1) → grid29.Coords → Fin (spec29 w).shape.rank → Nat := fun | 0 => cc29_transform_1 | ⟨_ + 1, h⟩ => absurd h (Nat.not_lt.2 (Nat.le_add_left _ _))
theorem hreads29 : ∀ (pf : pre29.Contents (Elt F)) w (i i' : grid29.Coords), (∀ a, (spec29 w).reads a = true → i a = i' a) → ix29 pf w i = ix29 pf w i' := fun pf => fun | 0 => hreads29_0 | ⟨_ + 1, h⟩ => absurd h (Nat.not_lt.2 (Nat.le_add_left _ _))
def ok29 (_ : pre29.Contents (Elt F)) : Prop :=
  True
instance (pf : pre29.Contents (Elt F)) : Decidable (ok29 pf) := decidable_of_iff' _ (Iff.of_eq (ok29.eq_1 pf))
theorem hinb29 : ∀ (pf : pre29.Contents (Elt F)), ok29 pf → ∀ w (i : grid29.Coords) a, (ix29 pf w i a + 1) * (spec29 w).size a ≤ (spec29 w).shape.size a :=
  fun _ _ => fun | 0 => hinb29_0 | ⟨_ + 1, h⟩ => absurd h (Nat.not_lt.2 (Nat.le_add_left _ _))
theorem hwx29 : ∀ (pf : pre29.Contents (Elt F)) (hok : ok29 pf) w (i : grid29.Coords), (spec29 w).elt.bits = 32 ∨ (Rect.block (spec29 w).size (ix29 pf w i) (hinb29 pf hok w i)).WholeWords (spec29 w).elt.packing :=
  fun _ _ => fun | 0 => hwx29_0 | ⟨_ + 1, h⟩ => absurd h (Nat.not_lt.2 (Nat.le_add_left _ _))
abbrev spec30_0 : Pipeline.WinSpec sig grid30.rank :=
  Pipeline.WinSpec.ofSpec (Memref.whole main_v105) S8x128.size reads30_0 true false 2 stage30_0 sem30_0 nbuf30_0 hstage30_0

abbrev spec30 : Fin 1 → Pipeline.WinSpec sig grid30.rank := fun | 0 => spec30_0 | ⟨_ + 1, h⟩ => absurd h (Nat.not_lt.2 (Nat.le_add_left _ _))
theorem hcount30 : ∀ w, grid30.bufCount (spec30 w).reads (spec30 w).sync = (spec30 w).nbuf := fun | 0 => nbuf30_0 | ⟨_ + 1, h⟩ => absurd h (Nat.not_lt.2 (Nat.le_add_left _ _))
abbrev ix30 (pf : pre30.Contents (Elt F)) : (w : Fin 1) → grid30.Coords → Fin (spec30 w).shape.rank → Nat := fun | 0 => cc30_transform_1 | ⟨_ + 1, h⟩ => absurd h (Nat.not_lt.2 (Nat.le_add_left _ _))
theorem hreads30 : ∀ (pf : pre30.Contents (Elt F)) w (i i' : grid30.Coords), (∀ a, (spec30 w).reads a = true → i a = i' a) → ix30 pf w i = ix30 pf w i' := fun pf => fun | 0 => hreads30_0 | ⟨_ + 1, h⟩ => absurd h (Nat.not_lt.2 (Nat.le_add_left _ _))
def ok30 (_ : pre30.Contents (Elt F)) : Prop :=
  True
instance (pf : pre30.Contents (Elt F)) : Decidable (ok30 pf) := decidable_of_iff' _ (Iff.of_eq (ok30.eq_1 pf))
theorem hinb30 : ∀ (pf : pre30.Contents (Elt F)), ok30 pf → ∀ w (i : grid30.Coords) a, (ix30 pf w i a + 1) * (spec30 w).size a ≤ (spec30 w).shape.size a :=
  fun _ _ => fun | 0 => hinb30_0 | ⟨_ + 1, h⟩ => absurd h (Nat.not_lt.2 (Nat.le_add_left _ _))
theorem hwx30 : ∀ (pf : pre30.Contents (Elt F)) (hok : ok30 pf) w (i : grid30.Coords), (spec30 w).elt.bits = 32 ∨ (Rect.block (spec30 w).size (ix30 pf w i) (hinb30 pf hok w i)).WholeWords (spec30 w).elt.packing :=
  fun _ _ => fun | 0 => hwx30_0 | ⟨_ + 1, h⟩ => absurd h (Nat.not_lt.2 (Nat.le_add_left _ _))
abbrev spec31_0 : Pipeline.WinSpec sig grid31.rank :=
  Pipeline.WinSpec.ofSpec (Memref.whole main_v108) S8x128.size reads31_0 true false 2 stage31_0 sem31_0 nbuf31_0 hstage31_0

abbrev spec31 : Fin 1 → Pipeline.WinSpec sig grid31.rank := fun | 0 => spec31_0 | ⟨_ + 1, h⟩ => absurd h (Nat.not_lt.2 (Nat.le_add_left _ _))
theorem hcount31 : ∀ w, grid31.bufCount (spec31 w).reads (spec31 w).sync = (spec31 w).nbuf := fun | 0 => nbuf31_0 | ⟨_ + 1, h⟩ => absurd h (Nat.not_lt.2 (Nat.le_add_left _ _))
abbrev ix31 (pf : pre31.Contents (Elt F)) : (w : Fin 1) → grid31.Coords → Fin (spec31 w).shape.rank → Nat := fun | 0 => cc31_transform_1 | ⟨_ + 1, h⟩ => absurd h (Nat.not_lt.2 (Nat.le_add_left _ _))
theorem hreads31 : ∀ (pf : pre31.Contents (Elt F)) w (i i' : grid31.Coords), (∀ a, (spec31 w).reads a = true → i a = i' a) → ix31 pf w i = ix31 pf w i' := fun pf => fun | 0 => hreads31_0 | ⟨_ + 1, h⟩ => absurd h (Nat.not_lt.2 (Nat.le_add_left _ _))
def ok31 (_ : pre31.Contents (Elt F)) : Prop :=
  True
instance (pf : pre31.Contents (Elt F)) : Decidable (ok31 pf) := decidable_of_iff' _ (Iff.of_eq (ok31.eq_1 pf))
theorem hinb31 : ∀ (pf : pre31.Contents (Elt F)), ok31 pf → ∀ w (i : grid31.Coords) a, (ix31 pf w i a + 1) * (spec31 w).size a ≤ (spec31 w).shape.size a :=
  fun _ _ => fun | 0 => hinb31_0 | ⟨_ + 1, h⟩ => absurd h (Nat.not_lt.2 (Nat.le_add_left _ _))
theorem hwx31 : ∀ (pf : pre31.Contents (Elt F)) (hok : ok31 pf) w (i : grid31.Coords), (spec31 w).elt.bits = 32 ∨ (Rect.block (spec31 w).size (ix31 pf w i) (hinb31 pf hok w i)).WholeWords (spec31 w).elt.packing :=
  fun _ _ => fun | 0 => hwx31_0 | ⟨_ + 1, h⟩ => absurd h (Nat.not_lt.2 (Nat.le_add_left _ _))
abbrev spec32_0 : Pipeline.WinSpec sig grid32.rank :=
  Pipeline.WinSpec.ofSpec (Memref.whole main_v110) S8x128.size reads32_0 true false 2 stage32_0 sem32_0 nbuf32_0 hstage32_0

abbrev spec32 : Fin 1 → Pipeline.WinSpec sig grid32.rank := fun | 0 => spec32_0 | ⟨_ + 1, h⟩ => absurd h (Nat.not_lt.2 (Nat.le_add_left _ _))
theorem hcount32 : ∀ w, grid32.bufCount (spec32 w).reads (spec32 w).sync = (spec32 w).nbuf := fun | 0 => nbuf32_0 | ⟨_ + 1, h⟩ => absurd h (Nat.not_lt.2 (Nat.le_add_left _ _))
abbrev ix32 (pf : pre32.Contents (Elt F)) : (w : Fin 1) → grid32.Coords → Fin (spec32 w).shape.rank → Nat := fun | 0 => cc32_transform_1 | ⟨_ + 1, h⟩ => absurd h (Nat.not_lt.2 (Nat.le_add_left _ _))
theorem hreads32 : ∀ (pf : pre32.Contents (Elt F)) w (i i' : grid32.Coords), (∀ a, (spec32 w).reads a = true → i a = i' a) → ix32 pf w i = ix32 pf w i' := fun pf => fun | 0 => hreads32_0 | ⟨_ + 1, h⟩ => absurd h (Nat.not_lt.2 (Nat.le_add_left _ _))
def ok32 (_ : pre32.Contents (Elt F)) : Prop :=
  True
instance (pf : pre32.Contents (Elt F)) : Decidable (ok32 pf) := decidable_of_iff' _ (Iff.of_eq (ok32.eq_1 pf))
theorem hinb32 : ∀ (pf : pre32.Contents (Elt F)), ok32 pf → ∀ w (i : grid32.Coords) a, (ix32 pf w i a + 1) * (spec32 w).size a ≤ (spec32 w).shape.size a :=
  fun _ _ => fun | 0 => hinb32_0 | ⟨_ + 1, h⟩ => absurd h (Nat.not_lt.2 (Nat.le_add_left _ _))
theorem hwx32 : ∀ (pf : pre32.Contents (Elt F)) (hok : ok32 pf) w (i : grid32.Coords), (spec32 w).elt.bits = 32 ∨ (Rect.block (spec32 w).size (ix32 pf w i) (hinb32 pf hok w i)).WholeWords (spec32 w).elt.packing :=
  fun _ _ => fun | 0 => hwx32_0 | ⟨_ + 1, h⟩ => absurd h (Nat.not_lt.2 (Nat.le_add_left _ _))
abbrev spec33_0 : Pipeline.WinSpec sig grid33.rank :=
  Pipeline.WinSpec.ofSpec (Memref.whole main_v112) S8x128.size reads33_0 true false 2 stage33_0 sem33_0 nbuf33_0 hstage33_0

abbrev spec33 : Fin 1 → Pipeline.WinSpec sig grid33.rank := fun | 0 => spec33_0 | ⟨_ + 1, h⟩ => absurd h (Nat.not_lt.2 (Nat.le_add_left _ _))
theorem hcount33 : ∀ w, grid33.bufCount (spec33 w).reads (spec33 w).sync = (spec33 w).nbuf := fun | 0 => nbuf33_0 | ⟨_ + 1, h⟩ => absurd h (Nat.not_lt.2 (Nat.le_add_left _ _))
abbrev ix33 (pf : pre33.Contents (Elt F)) : (w : Fin 1) → grid33.Coords → Fin (spec33 w).shape.rank → Nat := fun | 0 => cc33_transform_1 | ⟨_ + 1, h⟩ => absurd h (Nat.not_lt.2 (Nat.le_add_left _ _))
theorem hreads33 : ∀ (pf : pre33.Contents (Elt F)) w (i i' : grid33.Coords), (∀ a, (spec33 w).reads a = true → i a = i' a) → ix33 pf w i = ix33 pf w i' := fun pf => fun | 0 => hreads33_0 | ⟨_ + 1, h⟩ => absurd h (Nat.not_lt.2 (Nat.le_add_left _ _))
def ok33 (_ : pre33.Contents (Elt F)) : Prop :=
  True
instance (pf : pre33.Contents (Elt F)) : Decidable (ok33 pf) := decidable_of_iff' _ (Iff.of_eq (ok33.eq_1 pf))
theorem hinb33 : ∀ (pf : pre33.Contents (Elt F)), ok33 pf → ∀ w (i : grid33.Coords) a, (ix33 pf w i a + 1) * (spec33 w).size a ≤ (spec33 w).shape.size a :=
  fun _ _ => fun | 0 => hinb33_0 | ⟨_ + 1, h⟩ => absurd h (Nat.not_lt.2 (Nat.le_add_left _ _))
theorem hwx33 : ∀ (pf : pre33.Contents (Elt F)) (hok : ok33 pf) w (i : grid33.Coords), (spec33 w).elt.bits = 32 ∨ (Rect.block (spec33 w).size (ix33 pf w i) (hinb33 pf hok w i)).WholeWords (spec33 w).elt.packing :=
  fun _ _ => fun | 0 => hwx33_0 | ⟨_ + 1, h⟩ => absurd h (Nat.not_lt.2 (Nat.le_add_left _ _))
abbrev spec34_0 : Pipeline.WinSpec sig grid34.rank :=
  Pipeline.WinSpec.ofSpec (Memref.whole main_v114) S8x128.size reads34_0 true false 2 stage34_0 sem34_0 nbuf34_0 hstage34_0

abbrev spec34 : Fin 1 → Pipeline.WinSpec sig grid34.rank := fun | 0 => spec34_0 | ⟨_ + 1, h⟩ => absurd h (Nat.not_lt.2 (Nat.le_add_left _ _))
theorem hcount34 : ∀ w, grid34.bufCount (spec34 w).reads (spec34 w).sync = (spec34 w).nbuf := fun | 0 => nbuf34_0 | ⟨_ + 1, h⟩ => absurd h (Nat.not_lt.2 (Nat.le_add_left _ _))
abbrev ix34 (pf : pre34.Contents (Elt F)) : (w : Fin 1) → grid34.Coords → Fin (spec34 w).shape.rank → Nat := fun | 0 => cc34_transform_1 | ⟨_ + 1, h⟩ => absurd h (Nat.not_lt.2 (Nat.le_add_left _ _))
theorem hreads34 : ∀ (pf : pre34.Contents (Elt F)) w (i i' : grid34.Coords), (∀ a, (spec34 w).reads a = true → i a = i' a) → ix34 pf w i = ix34 pf w i' := fun pf => fun | 0 => hreads34_0 | ⟨_ + 1, h⟩ => absurd h (Nat.not_lt.2 (Nat.le_add_left _ _))
def ok34 (_ : pre34.Contents (Elt F)) : Prop :=
  True
instance (pf : pre34.Contents (Elt F)) : Decidable (ok34 pf) := decidable_of_iff' _ (Iff.of_eq (ok34.eq_1 pf))
theorem hinb34 : ∀ (pf : pre34.Contents (Elt F)), ok34 pf → ∀ w (i : grid34.Coords) a, (ix34 pf w i a + 1) * (spec34 w).size a ≤ (spec34 w).shape.size a :=
  fun _ _ => fun | 0 => hinb34_0 | ⟨_ + 1, h⟩ => absurd h (Nat.not_lt.2 (Nat.le_add_left _ _))
theorem hwx34 : ∀ (pf : pre34.Contents (Elt F)) (hok : ok34 pf) w (i : grid34.Coords), (spec34 w).elt.bits = 32 ∨ (Rect.block (spec34 w).size (ix34 pf w i) (hinb34 pf hok w i)).WholeWords (spec34 w).elt.packing :=
  fun _ _ => fun | 0 => hwx34_0 | ⟨_ + 1, h⟩ => absurd h (Nat.not_lt.2 (Nat.le_add_left _ _))
abbrev spec35_0 : Pipeline.WinSpec sig grid35.rank :=
  Pipeline.WinSpec.ofSpec (Memref.whole main_v116) S8x128.size reads35_0 true false 2 stage35_0 sem35_0 nbuf35_0 hstage35_0

abbrev spec35 : Fin 1 → Pipeline.WinSpec sig grid35.rank := fun | 0 => spec35_0 | ⟨_ + 1, h⟩ => absurd h (Nat.not_lt.2 (Nat.le_add_left _ _))
theorem hcount35 : ∀ w, grid35.bufCount (spec35 w).reads (spec35 w).sync = (spec35 w).nbuf := fun | 0 => nbuf35_0 | ⟨_ + 1, h⟩ => absurd h (Nat.not_lt.2 (Nat.le_add_left _ _))
abbrev ix35 (pf : pre35.Contents (Elt F)) : (w : Fin 1) → grid35.Coords → Fin (spec35 w).shape.rank → Nat := fun | 0 => cc35_transform_1 | ⟨_ + 1, h⟩ => absurd h (Nat.not_lt.2 (Nat.le_add_left _ _))
theorem hreads35 : ∀ (pf : pre35.Contents (Elt F)) w (i i' : grid35.Coords), (∀ a, (spec35 w).reads a = true → i a = i' a) → ix35 pf w i = ix35 pf w i' := fun pf => fun | 0 => hreads35_0 | ⟨_ + 1, h⟩ => absurd h (Nat.not_lt.2 (Nat.le_add_left _ _))
def ok35 (_ : pre35.Contents (Elt F)) : Prop :=
  True
instance (pf : pre35.Contents (Elt F)) : Decidable (ok35 pf) := decidable_of_iff' _ (Iff.of_eq (ok35.eq_1 pf))
theorem hinb35 : ∀ (pf : pre35.Contents (Elt F)), ok35 pf → ∀ w (i : grid35.Coords) a, (ix35 pf w i a + 1) * (spec35 w).size a ≤ (spec35 w).shape.size a :=
  fun _ _ => fun | 0 => hinb35_0 | ⟨_ + 1, h⟩ => absurd h (Nat.not_lt.2 (Nat.le_add_left _ _))
theorem hwx35 : ∀ (pf : pre35.Contents (Elt F)) (hok : ok35 pf) w (i : grid35.Coords), (spec35 w).elt.bits = 32 ∨ (Rect.block (spec35 w).size (ix35 pf w i) (hinb35 pf hok w i)).WholeWords (spec35 w).elt.packing :=
  fun _ _ => fun | 0 => hwx35_0 | ⟨_ + 1, h⟩ => absurd h (Nat.not_lt.2 (Nat.le_add_left _ _))
abbrev spec36_0 : Pipeline.WinSpec sig grid36.rank :=
  Pipeline.WinSpec.ofSpec (Memref.whole main_v118) S8x128.size reads36_0 true false 2 stage36_0 sem36_0 nbuf36_0 hstage36_0

abbrev spec36 : Fin 1 → Pipeline.WinSpec sig grid36.rank := fun | 0 => spec36_0 | ⟨_ + 1, h⟩ => absurd h (Nat.not_lt.2 (Nat.le_add_left _ _))
theorem hcount36 : ∀ w, grid36.bufCount (spec36 w).reads (spec36 w).sync = (spec36 w).nbuf := fun | 0 => nbuf36_0 | ⟨_ + 1, h⟩ => absurd h (Nat.not_lt.2 (Nat.le_add_left _ _))
abbrev ix36 (pf : pre36.Contents (Elt F)) : (w : Fin 1) → grid36.Coords → Fin (spec36 w).shape.rank → Nat := fun | 0 => cc36_transform_1 | ⟨_ + 1, h⟩ => absurd h (Nat.not_lt.2 (Nat.le_add_left _ _))
theorem hreads36 : ∀ (pf : pre36.Contents (Elt F)) w (i i' : grid36.Coords), (∀ a, (spec36 w).reads a = true → i a = i' a) → ix36 pf w i = ix36 pf w i' := fun pf => fun | 0 => hreads36_0 | ⟨_ + 1, h⟩ => absurd h (Nat.not_lt.2 (Nat.le_add_left _ _))
def ok36 (_ : pre36.Contents (Elt F)) : Prop :=
  True
instance (pf : pre36.Contents (Elt F)) : Decidable (ok36 pf) := decidable_of_iff' _ (Iff.of_eq (ok36.eq_1 pf))
theorem hinb36 : ∀ (pf : pre36.Contents (Elt F)), ok36 pf → ∀ w (i : grid36.Coords) a, (ix36 pf w i a + 1) * (spec36 w).size a ≤ (spec36 w).shape.size a :=
  fun _ _ => fun | 0 => hinb36_0 | ⟨_ + 1, h⟩ => absurd h (Nat.not_lt.2 (Nat.le_add_left _ _))
theorem hwx36 : ∀ (pf : pre36.Contents (Elt F)) (hok : ok36 pf) w (i : grid36.Coords), (spec36 w).elt.bits = 32 ∨ (Rect.block (spec36 w).size (ix36 pf w i) (hinb36 pf hok w i)).WholeWords (spec36 w).elt.packing :=
  fun _ _ => fun | 0 => hwx36_0 | ⟨_ + 1, h⟩ => absurd h (Nat.not_lt.2 (Nat.le_add_left _ _))
abbrev spec37_0 : Pipeline.WinSpec sig grid37.rank :=
  Pipeline.WinSpec.ofSpec (Memref.whole main_v120) S8x128.size reads37_0 true false 2 stage37_0 sem37_0 nbuf37_0 hstage37_0

abbrev spec37 : Fin 1 → Pipeline.WinSpec sig grid37.rank := fun | 0 => spec37_0 | ⟨_ + 1, h⟩ => absurd h (Nat.not_lt.2 (Nat.le_add_left _ _))
theorem hcount37 : ∀ w, grid37.bufCount (spec37 w).reads (spec37 w).sync = (spec37 w).nbuf := fun | 0 => nbuf37_0 | ⟨_ + 1, h⟩ => absurd h (Nat.not_lt.2 (Nat.le_add_left _ _))
abbrev ix37 (pf : pre37.Contents (Elt F)) : (w : Fin 1) → grid37.Coords → Fin (spec37 w).shape.rank → Nat := fun | 0 => cc37_transform_1 | ⟨_ + 1, h⟩ => absurd h (Nat.not_lt.2 (Nat.le_add_left _ _))
theorem hreads37 : ∀ (pf : pre37.Contents (Elt F)) w (i i' : grid37.Coords), (∀ a, (spec37 w).reads a = true → i a = i' a) → ix37 pf w i = ix37 pf w i' := fun pf => fun | 0 => hreads37_0 | ⟨_ + 1, h⟩ => absurd h (Nat.not_lt.2 (Nat.le_add_left _ _))
def ok37 (_ : pre37.Contents (Elt F)) : Prop :=
  True
instance (pf : pre37.Contents (Elt F)) : Decidable (ok37 pf) := decidable_of_iff' _ (Iff.of_eq (ok37.eq_1 pf))
theorem hinb37 : ∀ (pf : pre37.Contents (Elt F)), ok37 pf → ∀ w (i : grid37.Coords) a, (ix37 pf w i a + 1) * (spec37 w).size a ≤ (spec37 w).shape.size a :=
  fun _ _ => fun | 0 => hinb37_0 | ⟨_ + 1, h⟩ => absurd h (Nat.not_lt.2 (Nat.le_add_left _ _))
theorem hwx37 : ∀ (pf : pre37.Contents (Elt F)) (hok : ok37 pf) w (i : grid37.Coords), (spec37 w).elt.bits = 32 ∨ (Rect.block (spec37 w).size (ix37 pf w i) (hinb37 pf hok w i)).WholeWords (spec37 w).elt.packing :=
  fun _ _ => fun | 0 => hwx37_0 | ⟨_ + 1, h⟩ => absurd h (Nat.not_lt.2 (Nat.le_add_left _ _))
abbrev spec38_0 : Pipeline.WinSpec sig grid38.rank :=
  Pipeline.WinSpec.ofSpec (Memref.whole main_v122) S8x128.size reads38_0 true false 2 stage38_0 sem38_0 nbuf38_0 hstage38_0

abbrev spec38 : Fin 1 → Pipeline.WinSpec sig grid38.rank := fun | 0 => spec38_0 | ⟨_ + 1, h⟩ => absurd h (Nat.not_lt.2 (Nat.le_add_left _ _))
theorem hcount38 : ∀ w, grid38.bufCount (spec38 w).reads (spec38 w).sync = (spec38 w).nbuf := fun | 0 => nbuf38_0 | ⟨_ + 1, h⟩ => absurd h (Nat.not_lt.2 (Nat.le_add_left _ _))
abbrev ix38 (pf : pre38.Contents (Elt F)) : (w : Fin 1) → grid38.Coords → Fin (spec38 w).shape.rank → Nat := fun | 0 => cc38_transform_1 | ⟨_ + 1, h⟩ => absurd h (Nat.not_lt.2 (Nat.le_add_left _ _))
theorem hreads38 : ∀ (pf : pre38.Contents (Elt F)) w (i i' : grid38.Coords), (∀ a, (spec38 w).reads a = true → i a = i' a) → ix38 pf w i = ix38 pf w i' := fun pf => fun | 0 => hreads38_0 | ⟨_ + 1, h⟩ => absurd h (Nat.not_lt.2 (Nat.le_add_left _ _))
def ok38 (_ : pre38.Contents (Elt F)) : Prop :=
  True
instance (pf : pre38.Contents (Elt F)) : Decidable (ok38 pf) := decidable_of_iff' _ (Iff.of_eq (ok38.eq_1 pf))
theorem hinb38 : ∀ (pf : pre38.Contents (Elt F)), ok38 pf → ∀ w (i : grid38.Coords) a, (ix38 pf w i a + 1) * (spec38 w).size a ≤ (spec38 w).shape.size a :=
  fun _ _ => fun | 0 => hinb38_0 | ⟨_ + 1, h⟩ => absurd h (Nat.not_lt.2 (Nat.le_add_left _ _))
theorem hwx38 : ∀ (pf : pre38.Contents (Elt F)) (hok : ok38 pf) w (i : grid38.Coords), (spec38 w).elt.bits = 32 ∨ (Rect.block (spec38 w).size (ix38 pf w i) (hinb38 pf hok w i)).WholeWords (spec38 w).elt.packing :=
  fun _ _ => fun | 0 => hwx38_0 | ⟨_ + 1, h⟩ => absurd h (Nat.not_lt.2 (Nat.le_add_left _ _))
abbrev win39_0 : Pipeline.Window sig grid39 :=
  Pipeline.Window.ofSpec (Memref.whole main_v106) S6400x128.size cc39_transform_0 reads39_0 false false 2 stage39_0 sem39_0
    hrank39 hreads39_0 hinb39_0 nbuf39_0 (Memref.isWhole_whole _) hwx39_0 hstage39_0

abbrev win39_1 : Pipeline.Window sig grid39 :=
  Pipeline.Window.ofSpec (Memref.whole main_v123) S6400x128.size cc39_transform_1 reads39_1 false false 2 stage39_1 sem39_1
    hrank39 hreads39_1 hinb39_1 nbuf39_1 (Memref.isWhole_whole _) hwx39_1 hstage39_1

abbrev win39_2 : Pipeline.Window sig grid39 :=
  Pipeline.Window.ofSpec (Memref.whole main_v124) S128x2.size cc39_transform_2 reads39_2 false true 1 stage39_2 sem39_2
    hrank39 hreads39_2 hinb39_2 nbuf39_2 (Memref.isWhole_whole _) hwx39_2 hstage39_2

abbrev win39_3 : Pipeline.Window sig grid39 :=
  Pipeline.Window.ofSpec (Memref.whole main_v125) S128x2.size cc39_transform_3 reads39_3 false true 1 stage39_3 sem39_3
    hrank39 hreads39_3 hinb39_3 nbuf39_3 (Memref.isWhole_whole _) hwx39_3 hstage39_3

abbrev win39_4 : Pipeline.Window sig grid39 :=
  Pipeline.Window.ofSpec (Memref.whole main_v126) S1x2.size cc39_transform_4 reads39_4 false true 1 stage39_4 sem39_4
    hrank39 hreads39_4 hinb39_4 nbuf39_4 (Memref.isWhole_whole _) hwx39_4 hstage39_4

abbrev win39_5 : Pipeline.Window sig grid39 :=
  Pipeline.Window.ofSpec (Memref.whole main_v127) S6400x2.size cc39_transform_5 reads39_5 true false 2 stage39_5 sem39_5
    hrank39 hreads39_5 hinb39_5 nbuf39_5 (Memref.isWhole_whole _) hwx39_5 hstage39_5

abbrev win39 : Fin 6 → Pipeline.Window sig grid39 := fun | 0 => win39_0 | 1 => win39_1 | 2 => win39_2 | 3 => win39_3 | 4 => win39_4 | 5 => win39_5 | ⟨_ + 6, h⟩ => absurd h (Nat.not_lt.2 (Nat.le_add_left _ _))
abbrev spec39 : Fin 6 → Pipeline.WinSpec sig grid39.rank := fun w => (win39 w).toWinSpec

class Facts : Prop extends Facts₀ where
  harr1 : ∀ w, (spec1 w).arr.IsWhole
  harr2 : ∀ w, (spec2 w).arr.IsWhole
  harr3 : ∀ w, (spec3 w).arr.IsWhole
  harr4 : ∀ w, (spec4 w).arr.IsWhole
  harr5 : ∀ w, (spec5 w).arr.IsWhole
  harr6 : ∀ w, (spec6 w).arr.IsWhole
  harr7 : ∀ w, (spec7 w).arr.IsWhole
  harr8 : ∀ w, (spec8 w).arr.IsWhole
  harr9 : ∀ w, (spec9 w).arr.IsWhole
  harr10 : ∀ w, (spec10 w).arr.IsWhole
  harr12 : ∀ w, (spec12 w).arr.IsWhole
  harr13 : ∀ w, (spec13 w).arr.IsWhole
  harr14 : ∀ w, (spec14 w).arr.IsWhole
  harr15 : ∀ w, (spec15 w).arr.IsWhole
  harr16 : ∀ w, (spec16 w).arr.IsWhole
  harr17 : ∀ w, (spec17 w).arr.IsWhole
  harr18 : ∀ w, (spec18 w).arr.IsWhole
  harr19 : ∀ w, (spec19 w).arr.IsWhole
  harr20 : ∀ w, (spec20 w).arr.IsWhole
  harr21 : ∀ w, (spec21 w).arr.IsWhole
  harr23 : ∀ w, (spec23 w).arr.IsWhole
  harr24 : ∀ w, (spec24 w).arr.IsWhole
  harr25 : ∀ w, (spec25 w).arr.IsWhole
  harr26 : ∀ w, (spec26 w).arr.IsWhole
  harr27 : ∀ w, (spec27 w).arr.IsWhole
  harr28 : ∀ w, (spec28 w).arr.IsWhole
  harr29 : ∀ w, (spec29 w).arr.IsWhole
  harr30 : ∀ w, (spec30 w).arr.IsWhole
  harr31 : ∀ w, (spec31 w).arr.IsWhole
  harr32 : ∀ w, (spec32 w).arr.IsWhole
  harr33 : ∀ w, (spec33 w).arr.IsWhole
  harr34 : ∀ w, (spec34 w).arr.IsWhole
  harr35 : ∀ w, (spec35 w).arr.IsWhole
  harr36 : ∀ w, (spec36 w).arr.IsWhole
  harr37 : ∀ w, (spec37 w).arr.IsWhole
  harr38 : ∀ w, (spec38 w).arr.IsWhole

variable [Facts]
-- ==== ReferenceIdeal.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S256x2 : Shape := ⟨2, ![256, 2]⟩
abbrev S2 : Shape := ⟨1, ![2]⟩
abbrev S1x800000 : Shape := ⟨2, ![1, 800000]⟩
abbrev S800000 : Shape := ⟨1, ![800000]⟩
abbrev S50000 : Shape := ⟨1, ![50000]⟩
abbrev S850000 : Shape := ⟨1, ![850000]⟩
abbrev S_ : Shape := ⟨0, ![]⟩
abbrev S850000x1 : Shape := ⟨2, ![850000, 1]⟩
abbrev S850000x128 : Shape := ⟨2, ![850000, 128]⟩
abbrev S1x128 : Shape := ⟨2, ![1, 128]⟩
abbrev S800000x1 : Shape := ⟨2, ![800000, 1]⟩
abbrev S800000x128 : Shape := ⟨2, ![800000, 128]⟩
abbrev S800000x256 : Shape := ⟨2, ![800000, 256]⟩
abbrev S800000x2 : Shape := ⟨2, ![800000, 2]⟩
abbrev S1x2 : Shape := ⟨2, ![1, 2]⟩

abbrev nBuf : Space → Nat
  | .hbm => 128
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S256x2, .f32⟩
  | .hbm, ⟨7, _⟩ => ⟨S2, .f32⟩
  | .hbm, ⟨8, _⟩ => ⟨S1x800000, .i32⟩
  | .hbm, ⟨9, _⟩ => ⟨S800000, .i32⟩
  | .hbm, ⟨10, _⟩ => ⟨S1x800000, .i32⟩
  | .hbm, ⟨11, _⟩ => ⟨S800000, .i32⟩
  | .hbm, ⟨12, _⟩ => ⟨S50000, .i32⟩
  | .hbm, ⟨13, _⟩ => ⟨S850000, .i32⟩
  | .hbm, ⟨14, _⟩ => ⟨S850000, .i32⟩
  | .hbm, ⟨15, _⟩ => ⟨S_, .f32⟩
  | .hbm, ⟨16, _⟩ => ⟨S850000, .f32⟩
  | .hbm, ⟨17, _⟩ => ⟨S_, .f32⟩
  | .hbm, ⟨18, _⟩ => ⟨S50000, .f32⟩
  | .hbm, ⟨19, _⟩ => ⟨S850000x1, .i32⟩
  | .hbm, ⟨20, _⟩ => ⟨S50000, .f32⟩
  | .hbm, ⟨21, _⟩ => ⟨S_, .f32⟩
  | .hbm, ⟨22, _⟩ => ⟨S50000, .f32⟩
  | .hbm, ⟨23, _⟩ => ⟨S50000, .i1⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S50000, .f32⟩
  | .hbm, ⟨28, _⟩ => ⟨S_, .f32⟩
  | .hbm, ⟨29, _⟩ => ⟨S_, .f32⟩
  | .hbm, ⟨30, _⟩ => ⟨S50000, .f32⟩
  | .hbm, ⟨31, _⟩ => ⟨S50000, .f32⟩
  | .hbm, ⟨32, _⟩ => ⟨S_, .i32⟩
  | .hbm, ⟨33, _⟩ => ⟨S850000, .i32⟩
  | .hbm, ⟨34, _⟩ => ⟨S850000, .i1⟩
  | .hbm, ⟨35, _⟩ => ⟨S_, .i32⟩
  | .hbm, ⟨36, _⟩ => ⟨S850000, .i32⟩
  | .hbm, ⟨37, _⟩ => ⟨S850000, .i32⟩
  | .hbm, ⟨38, _⟩ => ⟨S850000, .i32⟩
  | .hbm, ⟨39, _⟩ => ⟨S850000x1, .i32⟩
  | .hbm, ⟨40, _⟩ => ⟨S850000, .f32⟩
  | .hbm, ⟨41, _⟩ => ⟨S_, .i32⟩
  | .hbm, ⟨42, _⟩ => ⟨S850000, .i32⟩
  | .hbm, ⟨43, _⟩ => ⟨S850000, .i1⟩
  | .hbm, ⟨44, _⟩ => ⟨S_, .i32⟩
  | .hbm, ⟨45, _⟩ => ⟨S850000, .i32⟩
  | .hbm, ⟨46, _⟩ => ⟨S850000, .i32⟩
  | .hbm, ⟨47, _⟩ => ⟨S850000, .i32⟩
  | .hbm, ⟨48, _⟩ => ⟨S850000x1, .i32⟩
  | .hbm, ⟨49, _⟩ => ⟨S850000, .f32⟩
  | .hbm, ⟨50, _⟩ => ⟨S850000, .f32⟩
  | .hbm, ⟨51, _⟩ => ⟨S50000x128, .f32⟩
  | .hbm, ⟨52, _⟩ => ⟨S_, .i32⟩
  | .hbm, ⟨53, _⟩ => ⟨S850000, .i32⟩
  | .hbm, ⟨54, _⟩ => ⟨S850000, .i1⟩
  | .hbm, ⟨55, _⟩ => ⟨S_, .i32⟩
  | .hbm, ⟨56, _⟩ => ⟨S850000, .i32⟩
  | .hbm, ⟨57, _⟩ => ⟨S850000, .i32⟩
  | .hbm, ⟨58, _⟩ => ⟨S850000, .i32⟩
  | .hbm, ⟨59, _⟩ => ⟨S850000x1, .i32⟩
  | .hbm, ⟨60, _⟩ => ⟨S850000x128, .f32⟩
  | .hbm, ⟨61, _⟩ => ⟨S850000x1, .f32⟩
  | .hbm, ⟨62, _⟩ => ⟨S850000x128, .f32⟩
  | .hbm, ⟨63, _⟩ => ⟨S850000x128, .f32⟩
  | .hbm, ⟨64, _⟩ => ⟨S_, .f32⟩
  | .hbm, ⟨65, _⟩ => ⟨S50000x128, .f32⟩
  | .hbm, ⟨66, _⟩ => ⟨S850000x1, .i32⟩
  | .hbm, ⟨67, _⟩ => ⟨S50000x128, .f32⟩
  | .hbm, ⟨68, _⟩ => ⟨S1x128, .f32⟩
  | .hbm, ⟨69, _⟩ => ⟨S50000x128, .f32⟩
  | .hbm, ⟨70, _⟩ => ⟨S50000x128, .f32⟩
  | .hbm, ⟨71, _⟩ => ⟨S_, .f32⟩
  | .hbm, ⟨72, _⟩ => ⟨S50000x128, .f32⟩
  | .hbm, ⟨73, _⟩ => ⟨S50000x128, .f32⟩
  | .hbm, ⟨74, _⟩ => ⟨S50000x128, .f32⟩
  | .hbm, ⟨75, _⟩ => ⟨S_, .i32⟩
  | .hbm, ⟨76, _⟩ => ⟨S850000, .i32⟩
  | .hbm, ⟨77, _⟩ => ⟨S850000, .i1⟩
  | .hbm, ⟨78, _⟩ => ⟨S_, .i32⟩
  | .hbm, ⟨79, _⟩ => ⟨S850000, .i32⟩
  | .hbm, ⟨80, _⟩ => ⟨S850000, .i32⟩
  | .hbm, ⟨81, _⟩ => ⟨S850000, .i32⟩
  | .hbm, ⟨82, _⟩ => ⟨S850000x1, .i32⟩
  | .hbm, ⟨83, _⟩ => ⟨S850000x128, .f32⟩
  | .hbm, ⟨84, _⟩ => ⟨S850000x1, .f32⟩
  | .hbm, ⟨85, _⟩ => ⟨S850000x128, .f32⟩
  | .hbm, ⟨86, _⟩ => ⟨S850000x128, .f32⟩
  | .hbm, ⟨87, _⟩ => ⟨S_, .f32⟩
  | .hbm, ⟨88, _⟩ => ⟨S50000x128, .f32⟩
  | .hbm, ⟨89, _⟩ => ⟨S850000x1, .i32⟩
  | .hbm, ⟨90, _⟩ => ⟨S50000x128, .f32⟩
  | .hbm, ⟨91, _⟩ => ⟨S1x128, .f32⟩
  | .hbm, ⟨92, _⟩ => ⟨S50000x128, .f32⟩
  | .hbm, ⟨93, _⟩ => ⟨S50000x128, .f32⟩
  | .hbm, ⟨94, _⟩ => ⟨S_, .f32⟩
  | .hbm, ⟨95, _⟩ => ⟨S50000x128, .f32⟩
  | .hbm, ⟨96, _⟩ => ⟨S50000x128, .f32⟩
  | .hbm, ⟨97, _⟩ => ⟨S_, .i32⟩
  | .hbm, ⟨98, _⟩ => ⟨S800000, .i32⟩
  | .hbm, ⟨99, _⟩ => ⟨S800000, .i1⟩
  | .hbm, ⟨100, _⟩ => ⟨S_, .i32⟩
  | .hbm, ⟨101, _⟩ => ⟨S800000, .i32⟩
  | .hbm, ⟨102, _⟩ => ⟨S800000, .i32⟩
  | .hbm, ⟨103, _⟩ => ⟨S800000, .i32⟩
  | .hbm, ⟨104, _⟩ => ⟨S800000x1, .i32⟩
  | .hbm, ⟨105, _⟩ => ⟨S800000x128, .f32⟩
  | .hbm, ⟨106, _⟩ => ⟨S_, .i32⟩
  | .hbm, ⟨107, _⟩ => ⟨S800000, .i32⟩
  | .hbm, ⟨108, _⟩ => ⟨S800000, .i1⟩
  | .hbm, ⟨109, _⟩ => ⟨S_, .i32⟩
  | .hbm, ⟨110, _⟩ => ⟨S800000, .i32⟩
  | .hbm, ⟨111, _⟩ => ⟨S800000, .i32⟩
  | .hbm, ⟨112, _⟩ => ⟨S800000, .i32⟩
  | .hbm, ⟨113, _⟩ => ⟨S800000x1, .i32⟩
  | .hbm, ⟨114, _⟩ => ⟨S800000x128, .f32⟩
  | .hbm, ⟨115, _⟩ => ⟨S800000x256, .f32⟩
  | .hbm, ⟨116, _⟩ => ⟨S800000x2, .f32⟩
  | .hbm, ⟨117, _⟩ => ⟨S1x2, .f32⟩
  | .hbm, ⟨118, _⟩ => ⟨S800000x2, .f32⟩
  | .hbm, ⟨119, _⟩ => ⟨S800000x2, .f32⟩
  | .hbm, ⟨120, _⟩ => ⟨S800000x2, .f32⟩
  | .hbm, ⟨121, _⟩ => ⟨S800000x2, .f32⟩
  | .hbm, ⟨122, _⟩ => ⟨S_, .f32⟩
  | .hbm, ⟨123, _⟩ => ⟨S800000x2, .f32⟩
  | .hbm, ⟨124, _⟩ => ⟨S800000x2, .f32⟩
  | .hbm, ⟨125, _⟩ => ⟨S_, .f32⟩
  | .hbm, ⟨126, _⟩ => ⟨S800000x2, .f32⟩
  | .hbm, ⟨127, _⟩ => ⟨S800000x2, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_3 : Ref sig .tc := ⟨.hbm, 28, rfl⟩
abbrev main_call0_v0 : Ref sig .tc := ⟨.hbm, 29, rfl⟩
abbrev main_call0_v1 : Ref sig .tc := ⟨.hbm, 30, rfl⟩
abbrev main_v16 : Ref sig .tc := ⟨.hbm, 31, rfl⟩
abbrev main_c : Ref sig .tc := ⟨.hbm, 32, rfl⟩
abbrev main_v17 : Ref sig .tc := ⟨.hbm, 33, rfl⟩
abbrev main_v18 : Ref sig .tc := ⟨.hbm, 34, rfl⟩
abbrev main_c_4 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_c_6 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_c_7 : Ref sig .tc := ⟨.hbm, 52, rfl⟩
abbrev main_v33 : Ref sig .tc := ⟨.hbm, 53, rfl⟩
abbrev main_v34 : Ref sig .tc := ⟨.hbm, 54, rfl⟩
abbrev main_c_8 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_cst_9 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_call1_cst : Ref sig .tc := ⟨.hbm, 71, rfl⟩
abbrev main_call1_v0 : Ref sig .tc := ⟨.hbm, 72, rfl⟩
abbrev main_v49 : Ref sig .tc := ⟨.hbm, 73, rfl⟩
abbrev main_v50 : Ref sig .tc := ⟨.hbm, 74, rfl⟩
abbrev main_c_10 : Ref sig .tc := ⟨.hbm, 75, rfl⟩
abbrev main_v51 : Ref sig .tc := ⟨.hbm, 76, rfl⟩
abbrev main_v52 : Ref sig .tc := ⟨.hbm, 77, rfl⟩
abbrev main_c_11 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_cst_12 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_call2_cst : Ref sig .tc := ⟨.hbm, 94, rfl⟩
abbrev main_call2_v0 : Ref sig .tc := ⟨.hbm, 95, rfl⟩
abbrev main_v67 : Ref sig .tc := ⟨.hbm, 96, rfl⟩
abbrev main_c_13 : Ref sig .tc := ⟨.hbm, 97, rfl⟩
abbrev main_v68 : Ref sig .tc := ⟨.hbm, 98, rfl⟩
abbrev main_v69 : Ref sig .tc := ⟨.hbm, 99, rfl⟩
abbrev main_c_14 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_c_15 : Ref sig .tc := ⟨.hbm, 106, rfl⟩
abbrev main_v75 : Ref sig .tc := ⟨.hbm, 107, rfl⟩
abbrev main_v76 : Ref sig .tc := ⟨.hbm, 108, rfl⟩
abbrev main_c_16 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_cst_17 : Ref sig .tc := ⟨.hbm, 122, rfl⟩
abbrev main_v89 : Ref sig .tc := ⟨.hbm, 123, rfl⟩
abbrev main_v90 : Ref sig .tc := ⟨.hbm, 124, rfl⟩
abbrev main_cst_18 : Ref sig .tc := ⟨.hbm, 125, rfl⟩
abbrev main_v91 : Ref sig .tc := ⟨.hbm, 126, rfl⟩
abbrev main_v92 : Ref sig .tc := ⟨.hbm, 127, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S800000_S50000_S850000_d0 : Shape.Concatenates [S800000, S50000] S850000 0
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S800000 : S_.BroadcastsInDim S800000 (![] : Fin 0 → Fin S800000.rank)
  bcast_S800000_S800000x1_0 : S800000.BroadcastsInDim S800000x1 (![0] : Fin 1 → Fin S800000x1.rank)
  concatenates_S800000x128_S800000x128_S800000x256_d1 : Shape.Concatenates [S800000x128, S800000x128] S800000x256 1
  bcast_S2_S1x2_1 : S2.BroadcastsInDim S1x2 (![1] : Fin 1 → Fin S1x2.rank)
  bcast_S1x2_S800000x2_0_1 : S1x2.BroadcastsInDim S800000x2 (![0, 1] : Fin 2 → Fin S800000x2.rank)
  bcast_S_S800000x2 : S_.BroadcastsInDim S800000x2 (![] : Fin 0 → Fin S800000x2.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x128_S128x128_S50000x128_1_0_0_1_n_n_wf : DotDims.WF S50000x128 S128x128 S50000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  gather_S50000x128_S800000x1_S800000x128_1_0_n_n_0_1_1128_wf : GatherDims.WF S50000x128 S800000x1 S800000x128 [1] [0] [] [0] [] 1 ![1, 128]
  dot_S800000x256_S256x2_S800000x2_1_0_0_1_n_n_wf : DotDims.WF S800000x256 S256x2 S800000x2 [1] [0] [0] [1] [] []

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def dot_S800000x256_S256x2_S800000x2_1_0_0_1_n_n : DotDims S800000x256 S256x2 S800000x2 where
  lhsContracting := [1]
  rhsContracting := [0]
  lhsNonContracting := [0]
  rhsNonContracting := [1]
  lhsBatch := []
  rhsBatch := []
  wf := dot_S800000x256_S256x2_S800000x2_1_0_0_1_n_n_wf

class Facts : Prop extends Facts₀ where

variable [Facts]
-- ==== Proof.PreRange.lean ====
/-
  The precondition read as index ranges. The printed predicate is a chain of `and`s: one `jnp.all (|x| < +inf)` per float
  argument, then `jnp.all (0 ≤ w)` and `jnp.all (w < 50000)` over the edge table, both comparisons signed. The whole chain
  being 1 gives each `jnp.all` is 1, hence each element test is 1; and a word in [0, 50000) signed is below 50000
  unsigned. Everything here holds at any float instance: only the integer operations are read.
-/
import proofs.«402049_j87351044866139_2_alg».proof.Pre_finite_inputs
import proofs.«402049_j87351044866139_2_alg».proof.Proof.Gen.Pre_finite_inputs
import Idealize.ShloMosaic.Lib.ReduceAll
import Idealize.ShloMosaic.Lib.StableHlo.Predicate

noncomputable section

namespace Cert.PreRange

open Idealize.ShloMosaic Cert.Pre_finite_inputs

variable [Cert.Pre_finite_inputs.Facts]

/-- The scalar shape has one index. -/
instance : Subsingleton S_.Idx := ⟨fun a b => funext fun d => d.elim0⟩

/-- The one index of the scalar shape. -/
abbrev j0 : S_.Idx := fun a => a.elim0

/-- A word in [0, n) signed is below n unsigned: nonnegative signed means the top bit is clear, and then the signed and
    the unsigned readings agree. -/
theorem toNat_lt_of_signed (w : BitVec 32) (n : Nat) (hn : n < 2 ^ 31) (h0 : IntOp.cmpi .sge w 0#32 = 1#1)
    (h1 : IntOp.cmpi .slt w (BitVec.ofNat 32 n) = 1#1) : w.toNat < n := by
  rw [IntOp.cmpi_sge, show (0#32 : BitVec 32).toInt = 0 from by decide, BitVec.toInt_pos_iff] at h0
  rw [IntOp.cmpi_slt, StableHlo.Predicate.toInt_ofNat_small n hn, BitVec.toInt_eq_toNat_of_lt h0] at h1
  exact_mod_cast h1

/-- The last two conjuncts of the chain, decoded: the chain's head `v` is 1 and every edge word is below 50000. -/
theorem part2_decode {F : FTy → Type} [FloatOps F] (a1 : IVec S2x800000 32) (v : IVec S_ 1) (j : S_.Idx)
    (e : fn_part2 (F := F) a1 v j = 1#1) : v j = 1#1 ∧ ∀ i : S2x800000.Idx, (a1 i).toNat < 50000 := by
  dsimp only [fn_part2] at e
  obtain ⟨e1, elt⟩ := IntOp.andi_eq_one.1 e
  obtain ⟨hv, ege⟩ := IntOp.andi_eq_one.1 e1
  refine ⟨hv, fun i => ?_⟩
  have g0 := Host.reduce_andi_all _ _ _ _ j ege i
  have g1 := Host.reduce_andi_all _ _ _ _ j elt i
  exact toNat_lt_of_signed (a1 i) 50000 (by decide) g0 g1

/-- THE EDGE TABLE IN RANGE: under the precondition every word of the edge table names a node, w < 50000 unsigned. -/
theorem edge_lt {F : FTy → Type} [FloatOps F] (a0 : FVec F S50000x128 .f32) (a1 : IVec S2x800000 32)
    (a2 : FVec F S128x128 .f32) (a3 : FVec F S128 .f32) (a4 : FVec F S128x128 .f32) (a5 : FVec F S128 .f32)
    (a6 : FVec F S256x2 .f32) (a7 : FVec F S2 .f32)
    (h : Cert.Pre_finite_inputs.fn (F := F) a0 a1 a2 a3 a4 a5 a6 a7 = (fun _ => 1#1)) :
    ∀ i : S2x800000.Idx, (a1 i).toNat < 50000 := by
  have e := congrFun h j0
  dsimp only [fn, fn_part1] at e
  exact (part2_decode a1 _ j0 e).2

/-- The element test a float conjunct makes, as the predicate spells it: |x| < +inf, the bound the f32 pattern of +inf. -/
def IsFin {F : FTy → Type} [FloatOps F] (x : F .f32) : Prop :=
  FloatOps.cmpf .olt (FloatOps.hostAbsf x) (FloatOps.ofBits .f32 0x7F800000#32) = 1#1

/-- THE FLOAT ARGUMENTS PASS THE TEST: under the precondition every element of every float argument has |x| < +inf, at
    any float instance. The chain's seven `jnp.all`s, one per float argument, in the order the predicate joins them. -/
theorem float_fin {F : FTy → Type} [FloatOps F] (a0 : FVec F S50000x128 .f32) (a1 : IVec S2x800000 32)
    (a2 : FVec F S128x128 .f32) (a3 : FVec F S128 .f32) (a4 : FVec F S128x128 .f32) (a5 : FVec F S128 .f32)
    (a6 : FVec F S256x2 .f32) (a7 : FVec F S2 .f32)
    (h : Cert.Pre_finite_inputs.fn (F := F) a0 a1 a2 a3 a4 a5 a6 a7 = (fun _ => 1#1)) :
    (∀ i, IsFin (a0 i)) ∧ (∀ i, IsFin (a2 i)) ∧ (∀ i, IsFin (a3 i)) ∧ (∀ i, IsFin (a4 i)) ∧ (∀ i, IsFin (a5 i))
      ∧ (∀ i, IsFin (a6 i)) ∧ (∀ i, IsFin (a7 i)) := by
  have e := congrFun h j0
  dsimp only [fn, fn_part1] at e
  have e33 := (part2_decode a1 _ j0 e).1
  obtain ⟨e28, r7⟩ := IntOp.andi_eq_one.1 e33
  obtain ⟨e23, r6⟩ := IntOp.andi_eq_one.1 e28
  obtain ⟨e18, r5⟩ := IntOp.andi_eq_one.1 e23
  obtain ⟨e13, r4⟩ := IntOp.andi_eq_one.1 e18
  obtain ⟨e8, r3⟩ := IntOp.andi_eq_one.1 e13
  obtain ⟨r0, r2⟩ := IntOp.andi_eq_one.1 e8
  exact ⟨fun i => Host.reduce_andi_all _ _ _ _ j0 r0 i, fun i => Host.reduce_andi_all _ _ _ _ j0 r2 i,
    fun i => Host.reduce_andi_all _ _ _ _ j0 r3 i, fun i => Host.reduce_andi_all _ _ _ _ j0 r4 i,
    fun i => Host.reduce_andi_all _ _ _ _ j0 r5 i, fun i => Host.reduce_andi_all _ _ _ _ j0 r6 i,
    fun i => Host.reduce_andi_all _ _ _ _ j0 r7 i⟩

end Cert.PreRange

end
-- ==== Proof.Spec.lean ====
/- The graph network's two results as functions of its eight arguments, over the extended reals.

   An edge list of 800000 (source, target) pairs over 50000 nodes is extended by one self loop per node.
   The degree of a node counts the extended edges that end in it; an extended edge from u to v weighs
   1/sqrt(deg u) * 1/sqrt(deg v). One layer sends a table of node rows T to
       relu (A + b),   A v = the sum, over the extended edges u -> v, of weight * (row u of T),
   and the sum over edges is carried as the scatter-add it is, never opened. Two layers give the first
   result; the second is the logistic of a linear form in the rows of the first result at the two ends of
   each edge. Index words name nodes as a gather reads them: signed, clamped into the table. -/
import Idealize.ShloMosaic.PureOps
import Idealize.ShloMosaic.PureOps.Ideal
import Idealize.ShloMosaic.PureOps.Ideal.Laws
import Idealize.ShloMosaic.Lib.ValueIdx
import Idealize.ShloMosaic.Lib.Pipeline.Value

set_option synthInstance.maxSize 4096
set_option Elab.async false

noncomputable section

open scoped BigOperators

namespace Cert.Spec

open Idealize.ShloMosaic Idealize.ShloMosaic.ValueIdx

/-! ## Shapes -/

/-- node rows: 50000 x 128 -/
abbrev ShX : Shape := ⟨2, ![50000, 128]⟩
/-- the edge list: 2 x 800000 -/
abbrev ShE2 : Shape := ⟨2, ![2, 800000]⟩
abbrev ShE1 : Shape := ⟨2, ![1, 800000]⟩
abbrev ShW : Shape := ⟨2, ![128, 128]⟩
abbrev ShB : Shape := ⟨1, ![128]⟩
abbrev ShWc : Shape := ⟨2, ![256, 2]⟩
abbrev ShBc : Shape := ⟨1, ![2]⟩
/-- one entry per node -/
abbrev ShN : Shape := ⟨1, ![50000]⟩
/-- one entry per edge -/
abbrev ShE : Shape := ⟨1, ![800000]⟩
/-- one entry per edge or self loop -/
abbrev ShL : Shape := ⟨1, ![850000]⟩
abbrev ShLc : Shape := ⟨2, ![850000, 1]⟩
abbrev ShLx : Shape := ⟨2, ![850000, 128]⟩
abbrev ShEx : Shape := ⟨2, ![800000, 128]⟩
/-- the second result: 800000 x 2 -/
abbrev ShP : Shape := ⟨2, ![800000, 2]⟩
abbrev Sh0 : Shape := ⟨0, ![]⟩

/-! ## The shape relations the stages cite -/

theorem slice_src : ShE2.Slices ![0, 0] ShE1 := by decide
theorem slice_dst : ShE2.Slices ![1, 0] ShE1 := by decide
theorem cast_row : ShE1.ShapeCasts ShE := by decide
theorem cat_loops : Shape.Concatenates [ShE, ShN] ShL 0 := by decide
theorem bc0_L : Sh0.BroadcastsInDim ShL (![] : Fin 0 → Fin ShL.rank) := by decide
theorem bc0_N : Sh0.BroadcastsInDim ShN (![] : Fin 0 → Fin ShN.rank) := by decide
theorem bc0_X : Sh0.BroadcastsInDim ShX (![] : Fin 0 → Fin ShX.rank) := by decide
theorem bc_col : ShL.BroadcastsInDim ShLc (![0] : Fin 1 → Fin ShLc.rank) := by decide
theorem bc_wide : ShLc.BroadcastsInDim ShLx (![0, 1] : Fin 2 → Fin ShLx.rank) := by decide
theorem degScatter_wf : ScatterDims.WF ShN ShLc ShL [] [0] [0] 1 := by decide
theorem nodeGather_wf : GatherDims.WF ShN ShLc ShL [] [0] [] [0] [] 1 ![1] := by decide
theorem rowScatter_wf : ScatterDims.WF ShX ShLc ShLx [1] [0] [0] 1 := by decide

/-- Scatter of one number per extended edge into one number per node. -/
def degScatter : ScatterDims ShN ShLc ShL where
  updateWindowDims := []
  insertedWindowDims := [0]
  scatterDimsToOperandDims := [0]
  indexVectorDim := 1
  wf := degScatter_wf

/-- Gather of one number per extended edge out of one number per node. -/
def nodeGather : GatherDims ShN ShLc ShL where
  offsetDims := []
  collapsedSliceDims := [0]
  operandBatchingDims := []
  startIndicesBatchingDims := []
  startIndexMap := [0]
  indexVectorDim := 1
  sliceSizes := ![1]
  wf := nodeGather_wf

/-- Scatter of one row per extended edge into one row per node. -/
def rowScatter : ScatterDims ShX ShLc ShLx where
  updateWindowDims := [1]
  insertedWindowDims := [0]
  scatterDimsToOperandDims := [0]
  indexVectorDim := 1
  wf := rowScatter_wf

/-! ## Index words -/

/-- The node an index word names: the word read signed and clamped into the 50000 nodes. -/
def node (w : BitVec 32) : Fin 50000 := ⟨min w.toInt.toNat (50000 - 1), by omega⟩

theorem node_of_lt {w : BitVec 32} (h : w.toNat < 50000) : node w = ⟨w.toNat, h⟩ := by
  have e : w.toInt = (w.toNat : Int) := BitVec.toInt_eq_toNat_of_lt (by omega)
  refine Fin.ext ?_
  show min w.toInt.toNat (50000 - 1) = w.toNat
  rw [e, Int.toNat_natCast]; omega

/-- A word below 50000 is not negative: the wrap of a negative index leaves it alone. -/
theorem wrap_word {w : BitVec 32} (h : w.toNat < 50000) (a : BitVec 32) :
    Scalar.select (IntOp.cmpi .slt w 0#32) a w = w := by
  have e : w.toInt = (w.toNat : Int) := BitVec.toInt_eq_toNat_of_lt (by omega)
  have hs : w.slt 0#32 = false := by
    simp only [BitVec.slt, e, BitVec.toInt_zero, decide_eq_false_iff_not, not_lt]; omega
  show Scalar.select (BitVec.ofBool (w.slt 0#32)) a w = w
  rw [hs]; exact select_zero a w

/-- The wrap of negative indices over a vector of index words. -/
def wrap {s : Shape} (h0 : Sh0.BroadcastsInDim s (![] : Fin 0 → Fin s.rank)) (v : IVec s 32) : IVec s 32 :=
  select (cmpi .slt v (broadcastInDim s ![] h0 (constantI Sh0 32 0#32)))
    (addi v (broadcastInDim s ![] h0 (constantI Sh0 32 50000#32))) v

theorem wrap_eq {s : Shape} (h0 : Sh0.BroadcastsInDim s (![] : Fin 0 → Fin s.rank)) (v : IVec s 32)
    (hv : ∀ i, (v i).toNat < 50000) : wrap h0 v = v :=
  funext fun i => wrap_word (hv i) _

/-- The sources of the edges. -/
def srcRow (e : IVec ShE2 32) : IVec ShE 32 := shapeCast ShE (extractStridedSlice ShE1 ![0, 0] e slice_src) cast_row
/-- The targets of the edges. -/
def dstRow (e : IVec ShE2 32) : IVec ShE 32 := shapeCast ShE (extractStridedSlice ShE1 ![1, 0] e slice_dst) cast_row
/-- The sources of the edges, then each node once: the self loops. -/
def srcSl (e : IVec ShE2 32) : IVec ShL 32 := concatenate ShL 0 [⟨ShE, srcRow e⟩, ⟨ShN, iotaInDim ShN 32 0⟩] cat_loops
/-- The targets of the edges, then each node once. -/
def dstSl (e : IVec ShE2 32) : IVec ShL 32 := concatenate ShL 0 [⟨ShE, dstRow e⟩, ⟨ShN, iotaInDim ShN 32 0⟩] cat_loops

/-- A vector over the extended edges as a one-column array of scatter or gather indices. -/
def col {α : Type} (v : ShL.Idx → α) : ShLc.Idx → α := broadcastInDim ShLc ![0] bc_col v

/-! ## Degree and edge weights -/

/-- The degree: one for every extended edge, summed into its target. -/
def deg (e : IVec ShE2 32) : FVec Ideal ShN .f32 :=
  Host.scatterAdd (F := Ideal) degScatter (broadcastInDim ShN ![] bc0_N (constant (F := Ideal) Sh0 .f32 0x00000000#32)) (col (dstSl e))
    (broadcastInDim ShL ![] bc0_L (constant (F := Ideal) Sh0 .f32 0x3F800000#32))

/-- 1/sqrt(deg) where the degree is positive (it is floored before the root), else 0. -/
def dinv (e : IVec ShE2 32) : FVec Ideal ShN .f32 := fun i =>
  Scalar.select (Ideal.cmp .ogt (deg e i) (Ideal.ofBits .f32 0x00000000#32))
    (Ideal.rsqrt (max (deg e i) (Ideal.ofBits .f32 0x2B8CBCCC#32))) (Ideal.ofBits .f32 0x00000000#32)

/-- The weight of each extended edge: 1/sqrt(deg) at its source times 1/sqrt(deg) at its target. -/
def norm (e : IVec ShE2 32) : FVec Ideal ShL .f32 :=
  mulf (Host.gather nodeGather (dinv e) (col (wrap bc0_L (srcSl e)))) (Host.gather nodeGather (dinv e) (col (wrap bc0_L (dstSl e))))

/-! ## One layer -/

/-- The rows of a node table at the extended edges' index words. -/
def rowsL (T : FVec Ideal ShX .f32) (idx : IVec ShL 32) : FVec Ideal ShLx .f32 :=
  fun j => T (ix2 (node (idx (ix1 (j 0)))) (j 1))

/-- The rows of a node table at the edges' index words. -/
def rowsE (T : FVec Ideal ShX .f32) (idx : IVec ShE 32) : FVec Ideal ShEx .f32 :=
  fun j => T (ix2 (node (idx (ix1 (j 0)))) (j 1))

/-- A node table times a square weight matrix. -/
def matmul (X : FVec Ideal ShX .f32) (W : FVec Ideal ShW .f32) : FVec Ideal ShX .f32 :=
  fun i => ∑ k : Fin 128, X (ix2 (i 0) k) * W (ix2 k (i 1))

/-- The aggregation: every extended edge's weighted source row, summed into the edge's target. -/
def agg (e : IVec ShE2 32) (T : FVec Ideal ShX .f32) : FVec Ideal ShX .f32 :=
  Host.scatterAdd (F := Ideal) rowScatter (broadcastInDim ShX ![] bc0_X (constant (F := Ideal) Sh0 .f32 0x00000000#32)) (col (dstSl e))
    (mulf (rowsL T (srcSl e)) (broadcastInDim ShLx ![0, 1] bc_wide (col (norm e))))

/-- Bias along the rows, then the positive part. -/
def biasRelu (A : FVec Ideal ShX .f32) (b : FVec Ideal ShB .f32) : FVec Ideal ShX .f32 :=
  fun i => max (A i + b (ix1 (i 1))) (Ideal.ofBits .f32 0x00000000#32)

/-- One layer. -/
def conv (e : IVec ShE2 32) (X : FVec Ideal ShX .f32) (W : FVec Ideal ShW .f32) (b : FVec Ideal ShB .f32) : FVec Ideal ShX .f32 :=
  biasRelu (agg e (matmul X W)) b

/-! ## The two results -/

/-- The first result: two layers. -/
def h2 (x0 : FVec Ideal ShX .f32) (x1 : IVec ShE2 32) (x2 : FVec Ideal ShW .f32) (x3 : FVec Ideal ShB .f32)
    (x4 : FVec Ideal ShW .f32) (x5 : FVec Ideal ShB .f32) : FVec Ideal ShX .f32 :=
  conv x1 (conv x1 x0 x2 x3) x4 x5

/-- The linear form in the two end rows of an edge: the upper half of the weights meets the source's row, the lower
    half the target's. -/
def logits (H : FVec Ideal ShX .f32) (e : IVec ShE2 32) (Wc : FVec Ideal ShWc .f32) (bc : FVec Ideal ShBc .f32) : FVec Ideal ShP .f32 :=
  fun i => ((∑ k : Fin 128, rowsE H (srcRow e) (ix2 (i 0) k) * Wc (ix2 (Fin.castAdd 128 k) (i 1)))
      + (∑ k : Fin 128, rowsE H (dstRow e) (ix2 (i 0) k) * Wc (ix2 (Fin.natAdd 128 k) (i 1))))
    + bc (ix1 (i 1))

/-- The second result: the logistic of the linear form. -/
def probs (x0 : FVec Ideal ShX .f32) (x1 : IVec ShE2 32) (x2 : FVec Ideal ShW .f32) (x3 : FVec Ideal ShB .f32)
    (x4 : FVec Ideal ShW .f32) (x5 : FVec Ideal ShB .f32) (x6 : FVec Ideal ShWc .f32) (x7 : FVec Ideal ShBc .f32) : FVec Ideal ShP .f32 :=
  fun i => Ideal.logistic (logits (h2 x0 x1 x2 x3 x4 x5) x1 x6 x7 i)

/-! ## The index words read at a position -/

theorem srcRow_apply (e : IVec ShE2 32) (r : Fin 800000) : srcRow e (ix1 r) = e (ix2 0 r) := by
  unfold srcRow
  rw [shapeCast_apply _ cast_row (ix1 r) (ix2 (0 : Fin 1) r)
    (by rw [Shape.rowMajor_val_two, Shape.rowMajor_val_one]; show 0 * 800000 + r.val = r.val; omega)]
  exact extractStridedSlice_apply ![0, 0] e slice_src (ix2 (0 : Fin 1) r) (ix2 (0 : Fin 2) r) (fun a => match a with
    | ⟨0, _⟩ => by show 0 = 0 + 0; rfl
    | ⟨1, _⟩ => by show r.val = 0 + r.val; omega)

theorem dstRow_apply (e : IVec ShE2 32) (r : Fin 800000) : dstRow e (ix1 r) = e (ix2 1 r) := by
  unfold dstRow
  rw [shapeCast_apply _ cast_row (ix1 r) (ix2 (0 : Fin 1) r)
    (by rw [Shape.rowMajor_val_two, Shape.rowMajor_val_one]; show 0 * 800000 + r.val = r.val; omega)]
  exact extractStridedSlice_apply ![1, 0] e slice_dst (ix2 (0 : Fin 1) r) (ix2 (1 : Fin 2) r) (fun a => match a with
    | ⟨0, _⟩ => by show 1 = 1 + 0; rfl
    | ⟨1, _⟩ => by show r.val = 0 + r.val; omega)

/-- Below 800000 the extended list is the edge list. -/
theorem withLoops_edge (v : IVec ShE 32) (r : Fin 850000) (h : r.val < 800000) :
    concatenate ShL 0 [⟨ShE, v⟩, ⟨ShN, iotaInDim ShN 32 0⟩] cat_loops (ix1 r) = v (ix1 ⟨r.val, h⟩) :=
  concatenate_pair_apply_left 0 v _ cat_loops (ix1 r) rfl (ix1 ⟨r.val, h⟩) (fun b => match b with | ⟨0, _⟩ => rfl)

/-- From 800000 on it is the self loops: position 800000 + n holds node n. -/
theorem withLoops_loop (v : IVec ShE 32) (r : Fin 850000) (h : 800000 ≤ r.val) :
    concatenate ShL 0 [⟨ShE, v⟩, ⟨ShN, iotaInDim ShN 32 0⟩] cat_loops (ix1 r) = BitVec.ofNat 32 (r.val - 800000) := by
  have hr : r.val < 850000 := r.isLt
  rw [concatenate_pair_apply_right 0 v (iotaInDim ShN 32 0) cat_loops (ix1 r) rfl rfl (ix1 ⟨r.val - 800000, by omega⟩)
    (fun b hb => absurd (Subsingleton.elim _ _) hb) (by show r.val - 800000 + 800000 = r.val; omega)]
  rfl

theorem srcSl_edge (e : IVec ShE2 32) (r : Fin 850000) (h : r.val < 800000) : srcSl e (ix1 r) = e (ix2 0 ⟨r.val, h⟩) := by
  unfold srcSl; rw [withLoops_edge _ r h, srcRow_apply]
theorem srcSl_loop (e : IVec ShE2 32) (r : Fin 850000) (h : 800000 ≤ r.val) : srcSl e (ix1 r) = BitVec.ofNat 32 (r.val - 800000) := by
  unfold srcSl; exact withLoops_loop _ r h
theorem dstSl_edge (e : IVec ShE2 32) (r : Fin 850000) (h : r.val < 800000) : dstSl e (ix1 r) = e (ix2 1 ⟨r.val, h⟩) := by
  unfold dstSl; rw [withLoops_edge _ r h, dstRow_apply]
theorem dstSl_loop (e : IVec ShE2 32) (r : Fin 850000) (h : 800000 ≤ r.val) : dstSl e (ix1 r) = BitVec.ofNat 32 (r.val - 800000) := by
  unfold dstSl; exact withLoops_loop _ r h

/-! ## Every index word names a node, when every word of the edge list does -/

theorem srcRow_lt (e : IVec ShE2 32) (hb : ∀ i, (e i).toNat < 50000) (i : ShE.Idx) : (srcRow e i).toNat < 50000 := by
  obtain ⟨r, rfl⟩ : ∃ r : Fin 800000, i = ix1 r := ⟨i 0, eq_ix1 i⟩
  rw [srcRow_apply]; exact hb _
theorem dstRow_lt (e : IVec ShE2 32) (hb : ∀ i, (e i).toNat < 50000) (i : ShE.Idx) : (dstRow e i).toNat < 50000 := by
  obtain ⟨r, rfl⟩ : ∃ r : Fin 800000, i = ix1 r := ⟨i 0, eq_ix1 i⟩
  rw [dstRow_apply]; exact hb _

theorem loop_lt (r : Fin 850000) (h : 800000 ≤ r.val) : (BitVec.ofNat 32 (r.val - 800000)).toNat < 50000 := by
  have hr : r.val < 850000 := r.isLt
  rw [BitVec.toNat_ofNat]; omega

theorem srcSl_lt (e : IVec ShE2 32) (hb : ∀ i, (e i).toNat < 50000) (i : ShL.Idx) : (srcSl e i).toNat < 50000 := by
  obtain ⟨r, rfl⟩ : ∃ r : Fin 850000, i = ix1 r := ⟨i 0, eq_ix1 i⟩
  by_cases h : r.val < 800000
  · rw [srcSl_edge e r h]; exact hb _
  · rw [srcSl_loop e r (Nat.le_of_not_lt h)]; exact loop_lt _ (Nat.le_of_not_lt h)
theorem dstSl_lt (e : IVec ShE2 32) (hb : ∀ i, (e i).toNat < 50000) (i : ShL.Idx) : (dstSl e i).toNat < 50000 := by
  obtain ⟨r, rfl⟩ : ∃ r : Fin 850000, i = ix1 r := ⟨i 0, eq_ix1 i⟩
  by_cases h : r.val < 800000
  · rw [dstSl_edge e r h]; exact hb _
  · rw [dstSl_loop e r (Nat.le_of_not_lt h)]; exact loop_lt _ (Nat.le_of_not_lt h)

/-- The word 0x3F800000 is the number one. -/
theorem ofBits_one_f32 : Ideal.ofBits .f32 0x3F800000#32 = 1 := by
  simp [Ideal.ofBits, Ideal.ieee, -EReal.coe_mul]; norm_num

end Cert.Spec

end
-- ==== Proof.K.RunCond.lean ====
import proofs.«402049_j87351044866139_2_alg».proof.Proof.K.RegionsP

/-! The run of @main with its two results named: the several-regions launch over the segment list of the conditional
    frame, the last thread state read back at EVERY unscoped buffer, so that the post names, beside the eight
    arguments at their launch contents, the two result buffers at the last valuation. -/

-- decided memberships among 246 references recurse past the default depth
set_option maxRecDepth 1496

noncomputable section

namespace Cert.Kernel.Hand

open Cert.Kernel.Gen Cert.Kernel.GenP

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

variable (m : (ℓ : Loc nD τ sig) → Buf (Elt F) ℓ)

/-- An unscoped TensorCore reference is among those the thread states hold. -/
theorem mem_uc (b : Ref sig .tc) (h : ¬ (Proc.devRef .tc b : DevRef τ sig).isScoped) :
    Proc.devRef .tc b ∈ Pipeline.ucRefs τ sig :=
  Finset.mem_filter.mpr ⟨StableHlo.devRef_mem_tcRefs b, h⟩

-- the launch theorem's implicit arguments are found by unifying its conclusion with this one, which takes unfolding
-- plain definitions in a metavariable's type
set_option backward.isDefEq.respectTransparency.types false in
/-- THE RUN, RESULTS NAMED. Under the conditional frame's hypotheses, every weakly fair execution of @main from
    memory `m` with zero counters terminates, and every final memory holds the two result buffers at the last
    valuation `V82` and each argument as launched. The last thread state holds every unscoped buffer whole at `V82`;
    reading all of them against the final state gives the results as it gives the arguments, which no item writes. -/
theorem run_cond {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F)) (a : (p : Fin 40) → (pcfgs (F := F) p).Adm)
    (pdats : (p : Fin 40) → (c : Dev nD) → Dat τ (Elt F) Ix ℕ U Lvl (Pipeline.pin (pcfgs (F := F)) a p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells (Pipeline.pin (pcfgs (F := F)) a) (cellOf_inj a)) (Pipeline.launchToks (Pipeline.pin (pcfgs (F := F)) a) (cellOf_inj a)))) ∗ bigSep Finset.univ G))
    (E : Fin 41 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE40 : ∀ c : Dev nD, E 40 c ⊢ (iprop(∃ W, owes (c : Thread nD τ) (0 : CellTallies nD τ sig Ix) W) : sProp (MT nD τ sig Ix (Elt F) ℕ U Lvl)))
    (R0 : RegionSeg (pcfgs (F := F)) a pdats ι defs₀ 𝒱₀ L lv 0)
    (hpre0 : ∀ c : Dev nD, iprop(StableHlo.held (c : Thread nD τ) (Pipeline.ucRefs τ sig) (V3 m c) ∗ E 0 c) ⊢ R0.pre c)
    (hpost0 : ∀ c : Dev nD, R0.post c ⊢ iprop(StableHlo.held (c : Thread nD τ) (Pipeline.ucRefs τ sig) (V4 m outs c) ∗ E 1 c))
    (R1 : RegionSeg (pcfgs (F := F)) a pdats ι defs₀ 𝒱₀ L lv 1)
    (hpre1 : ∀ c : Dev nD, iprop(StableHlo.held (c : Thread nD τ) (Pipeline.ucRefs τ sig) (V5 m outs c) ∗ E 1 c) ⊢ R1.pre c)
    (hpost1 : ∀ c : Dev nD, R1.post c ⊢ iprop(StableHlo.held (c : Thread nD τ) (Pipeline.ucRefs τ sig) (V6 m outs c) ∗ E 2 c))
    (R2 : RegionSeg (pcfgs (F := F)) a pdats ι defs₀ 𝒱₀ L lv 2)
    (hpre2 : ∀ c : Dev nD, iprop(StableHlo.held (c : Thread nD τ) (Pipeline.ucRefs τ sig) (V7 m outs c) ∗ E 2 c) ⊢ R2.pre c)
    (hpost2 : ∀ c : Dev nD, R2.post c ⊢ iprop(StableHlo.held (c : Thread nD τ) (Pipeline.ucRefs τ sig) (V8 m outs c) ∗ E 3 c))
    (R3 : RegionSeg (pcfgs (F := F)) a pdats ι defs₀ 𝒱₀ L lv 3)
    (hpre3 : ∀ c : Dev nD, iprop(StableHlo.held (c : Thread nD τ) (Pipeline.ucRefs τ sig) (V9 m outs c) ∗ E 3 c) ⊢ R3.pre c)
    (hpost3 : ∀ c : Dev nD, R3.post c ⊢ iprop(StableHlo.held (c : Thread nD τ) (Pipeline.ucRefs τ sig) (V10 m outs c) ∗ E 4 c))
    (R4 : RegionSeg (pcfgs (F := F)) a pdats ι defs₀ 𝒱₀ L lv 4)
    (hpre4 : ∀ c : Dev nD, iprop(StableHlo.held (c : Thread nD τ) (Pipeline.ucRefs τ sig) (V11 m outs c) ∗ E 4 c) ⊢ R4.pre c)
    (hpost4 : ∀ c : Dev nD, R4.post c ⊢ iprop(StableHlo.held (c : Thread nD τ) (Pipeline.ucRefs τ sig) (V12 m outs c) ∗ E 5 c))
    (R5 : RegionSeg (pcfgs (F := F)) a pdats ι defs₀ 𝒱₀ L lv 5)
    (hpre5 : ∀ c : Dev nD, iprop(StableHlo.held (c : Thread nD τ) (Pipeline.ucRefs τ sig) (V13 m outs c) ∗ E 5 c) ⊢ R5.pre c)
    (hpost5 : ∀ c : Dev nD, R5.post c ⊢ iprop(StableHlo.held (c : Thread nD τ) (Pipeline.ucRefs τ sig) (V14 m outs c) ∗ E 6 c))
    (R6 : RegionSeg (pcfgs (F := F)) a pdats ι defs₀ 𝒱₀ L lv 6)
    (hpre6 : ∀ c : Dev nD, iprop(StableHlo.held (c : Thread nD τ) (Pipeline.ucRefs τ sig) (V15 m outs c) ∗ E 6 c) ⊢ R6.pre c)
    (hpost6 : ∀ c : Dev nD, R6.post c ⊢ iprop(StableHlo.held (c : Thread nD τ) (Pipeline.ucRefs τ sig) (V16 m outs c) ∗ E 7 c))
    (R7 : RegionSeg (pcfgs (F := F)) a pdats ι defs₀ 𝒱₀ L lv 7)
    (hpre7 : ∀ c : Dev nD, iprop(StableHlo.held (c : Thread nD τ) (Pipeline.ucRefs τ sig) (V17 m outs c) ∗ E 7 c) ⊢ R7.pre c)
    (hpost7 : ∀ c : Dev nD, R7.post c ⊢ iprop(StableHlo.held (c : Thread nD τ) (Pipeline.ucRefs τ sig) (V18 m outs c) ∗ E 8 c))
    (R8 : RegionSeg (pcfgs (F := F)) a pdats ι defs₀ 𝒱₀ L lv 8)
    (hpre8 : ∀ c : Dev nD, iprop(StableHlo.held (c : Thread nD τ) (Pipeline.ucRefs τ sig) (V19 m outs c) ∗ E 8 c) ⊢ R8.pre c)
    (hpost8 : ∀ c : Dev nD, R8.post c ⊢ iprop(StableHlo.held (c : Thread nD τ) (Pipeline.ucRefs τ sig) (V20 m outs c) ∗ E 9 c))
    (R9 : RegionSeg (pcfgs (F := F)) a pdats ι defs₀ 𝒱₀ L lv 9)
    (hpre9 : ∀ c : Dev nD, iprop(StableHlo.held (c : Thread nD τ) (Pipeline.ucRefs τ sig) (V21 m outs c) ∗ E 9 c) ⊢ R9.pre c)
    (hpost9 : ∀ c : Dev nD, R9.post c ⊢ iprop(StableHlo.held (c : Thread nD τ) (Pipeline.ucRefs τ sig) (V22 m outs c) ∗ E 10 c))
    (R10 : RegionSeg (pcfgs (F := F)) a pdats ι defs₀ 𝒱₀ L lv 10)
    (hpre10 : ∀ c : Dev nD, iprop(StableHlo.held (c : Thread nD τ) (Pipeline.ucRefs τ sig) (V23 m outs c) ∗ E 10 c) ⊢ R10.pre c)
    (hpost10 : ∀ c : Dev nD, R10.post c ⊢ iprop(StableHlo.held (c : Thread nD τ) (Pipeline.ucRefs τ sig) (V24 m outs c) ∗ E 11 c))
    (R11 : RegionSeg (pcfgs (F := F)) a pdats ι defs₀ 𝒱₀ L lv 11)
    (hpre11 : ∀ c : Dev nD, iprop(StableHlo.held (c : Thread nD τ) (Pipeline.ucRefs τ sig) (V25 m outs c) ∗ E 11 c) ⊢ R11.pre c)
    (hpost11 : ∀ c : Dev nD, R11.post c ⊢ iprop(StableHlo.held (c : Thread nD τ) (Pipeline.ucRefs τ sig) (V26 m outs c) ∗ E 12 c))
    (R12 : RegionSeg (pcfgs (F := F)) a pdats ι defs₀ 𝒱₀ L lv 12)
    (hpre12 : ∀ c : Dev nD, iprop(StableHlo.held (c : Thread nD τ) (Pipeline.ucRefs τ sig) (V27 m outs c) ∗ E 12 c) ⊢ R12.pre c)
    (hpost12 : ∀ c : Dev nD, R12.post c ⊢ iprop(StableHlo.held (c : Thread nD τ) (Pipeline.ucRefs τ sig) (V28 m outs c) ∗ E 13 c))
    (R13 : RegionSeg (pcfgs (F := F)) a pdats ι defs₀ 𝒱₀ L lv 13)
    (hpre13 : ∀ c : Dev nD, iprop(StableHlo.held (c : Thread nD τ) (Pipeline.ucRefs τ sig) (V29 m outs c) ∗ E 13 c) ⊢ R13.pre c)
    (hpost13 : ∀ c : Dev nD, R13.post c ⊢ iprop(StableHlo.held (c : Thread nD τ) (Pipeline.ucRefs τ sig) (V30 m outs c) ∗ E 14 c))
    (R14 : RegionSeg (pcfgs (F := F)) a pdats ι defs₀ 𝒱₀ L lv 14)
    (hpre14 : ∀ c : Dev nD, iprop(StableHlo.held (c : Thread nD τ) (Pipeline.ucRefs τ sig) (V31 m outs c) ∗ E 14 c) ⊢ R14.pre c)
    (hpost14 : ∀ c : Dev nD, R14.post c ⊢ iprop(StableHlo.held (c : Thread nD τ) (Pipeline.ucRefs τ sig) (V32 m outs c) ∗ E 15 c))
    (R15 : RegionSeg (pcfgs (F := F)) a pdats ι defs₀ 𝒱₀ L lv 15)
    (hpre15 : ∀ c : Dev nD, iprop(StableHlo.held (c : Thread nD τ) (Pipeline.ucRefs τ sig) (V33 m outs c) ∗ E 15 c) ⊢ R15.pre c)
    (hpost15 : ∀ c : Dev nD, R15.post c ⊢ iprop(StableHlo.held (c : Thread nD τ) (Pipeline.ucRefs τ sig) (V34 m outs c) ∗ E 16 c))
    (R16 : RegionSeg (pcfgs (F := F)) a pdats ι defs₀ 𝒱₀ L lv 16)
    (hpre16 : ∀ c : Dev nD, iprop(StableHlo.held (c : Thread nD τ) (Pipeline.ucRefs τ sig) (V35 m outs c) ∗ E 16 c) ⊢ R16.pre c)
    (hpost16 : ∀ c : Dev nD, R16.post c ⊢ iprop(StableHlo.held (c : Thread nD τ) (Pipeline.ucRefs τ sig) (V36 m outs c) ∗ E 17 c))
    (R17 : RegionSeg (pcfgs (F := F)) a pdats ι defs₀ 𝒱₀ L lv 17)
    (hpre17 : ∀ c : Dev nD, iprop(StableHlo.held (c : Thread nD τ) (Pipeline.ucRefs τ sig) (V37 m outs c) ∗ E 17 c) ⊢ R17.pre c)
    (hpost17 : ∀ c : Dev nD, R17.post c ⊢ iprop(StableHlo.held (c : Thread nD τ) (Pipeline.ucRefs τ sig) (V38 m outs c) ∗ E 18 c))
    (R18 : RegionSeg (pcfgs (F := F)) a pdats ι defs₀ 𝒱₀ L lv 18)
    (hpre18 : ∀ c : Dev nD, iprop(StableHlo.held (c : Thread nD τ) (Pipeline.ucRefs τ sig) (V39 m outs c) ∗ E 18 c) ⊢ R18.pre c)
    (hpost18 : ∀ c : Dev nD, R18.post c ⊢ iprop(StableHlo.held (c : Thread nD τ) (Pipeline.ucRefs τ sig) (V40 m outs c) ∗ E 19 c))
    (R19 : RegionSeg (pcfgs (F := F)) a pdats ι defs₀ 𝒱₀ L lv 19)
    (hpre19 : ∀ c : Dev nD, iprop(StableHlo.held (c : Thread nD τ) (Pipeline.ucRefs τ sig) (V41 m outs c) ∗ E 19 c) ⊢ R19.pre c)
    (hpost19 : ∀ c : Dev nD, R19.post c ⊢ iprop(StableHlo.held (c : Thread nD τ) (Pipeline.ucRefs τ sig) (V42 m outs c) ∗ E 20 c))
    (R20 : RegionSeg (pcfgs (F := F)) a pdats ι defs₀ 𝒱₀ L lv 20)
    (hpre20 : ∀ c : Dev nD, iprop(StableHlo.held (c : Thread nD τ) (Pipeline.ucRefs τ sig) (V43 m outs c) ∗ E 20 c) ⊢ R20.pre c)
    (hpost20 : ∀ c : Dev nD, R20.post c ⊢ iprop(StableHlo.held (c : Thread nD τ) (Pipeline.ucRefs τ sig) (V44 m outs c) ∗ E 21 c))
    (R21 : RegionSeg (pcfgs (F := F)) a pdats ι defs₀ 𝒱₀ L lv 21)
    (hpre21 : ∀ c : Dev nD, iprop(StableHlo.held (c : Thread nD τ) (Pipeline.ucRefs τ sig) (V45 m outs c) ∗ E 21 c) ⊢ R21.pre c)
    (hpost21 : ∀ c : Dev nD, R21.post c ⊢ iprop(StableHlo.held (c : Thread nD τ) (Pipeline.ucRefs τ sig) (V46 m outs c) ∗ E 22 c))
    (R22 : RegionSeg (pcfgs (F := F)) a pdats ι defs₀ 𝒱₀ L lv 22)
    (hpre22 : ∀ c : Dev nD, iprop(StableHlo.held (c : Thread nD τ) (Pipeline.ucRefs τ sig) (V47 m outs c) ∗ E 22 c) ⊢ R22.pre c)
    (hpost22 : ∀ c : Dev nD, R22.post c ⊢ iprop(StableHlo.held (c : Thread nD τ) (Pipeline.ucRefs τ sig) (V48 m outs c) ∗ E 23 c))
    (R23 : RegionSeg (pcfgs (F := F)) a pdats ι defs₀ 𝒱₀ L lv 23)
    (hpre23 : ∀ c : Dev nD, iprop(StableHlo.held (c : Thread nD τ) (Pipeline.ucRefs τ sig) (V49 m outs c) ∗ E 23 c) ⊢ R23.pre c)
    (hpost23 : ∀ c : Dev nD, R23.post c ⊢ iprop(StableHlo.held (c : Thread nD τ) (Pipeline.ucRefs τ sig) (V50 m outs c) ∗ E 24 c))
    (R24 : RegionSeg (pcfgs (F := F)) a pdats ι defs₀ 𝒱₀ L lv 24)
    (hpre24 : ∀ c : Dev nD, iprop(StableHlo.held (c : Thread nD τ) (Pipeline.ucRefs τ sig) (V51 m outs c) ∗ E 24 c) ⊢ R24.pre c)
    (hpost24 : ∀ c : Dev nD, R24.post c ⊢ iprop(StableHlo.held (c : Thread nD τ) (Pipeline.ucRefs τ sig) (V52 m outs c) ∗ E 25 c))
    (R25 : RegionSeg (pcfgs (F := F)) a pdats ι defs₀ 𝒱₀ L lv 25)
    (hpre25 : ∀ c : Dev nD, iprop(StableHlo.held (c : Thread nD τ) (Pipeline.ucRefs τ sig) (V53 m outs c) ∗ E 25 c) ⊢ R25.pre c)
    (hpost25 : ∀ c : Dev nD, R25.post c ⊢ iprop(StableHlo.held (c : Thread nD τ) (Pipeline.ucRefs τ sig) (V54 m outs c) ∗ E 26 c))
    (R26 : RegionSeg (pcfgs (F := F)) a pdats ι defs₀ 𝒱₀ L lv 26)
    (hpre26 : ∀ c : Dev nD, iprop(StableHlo.held (c : Thread nD τ) (Pipeline.ucRefs τ sig) (V55 m outs c) ∗ E 26 c) ⊢ R26.pre c)
    (hpost26 : ∀ c : Dev nD, R26.post c ⊢ iprop(StableHlo.held (c : Thread nD τ) (Pipeline.ucRefs τ sig) (V56 m outs c) ∗ E 27 c))
    (R27 : RegionSeg (pcfgs (F := F)) a pdats ι defs₀ 𝒱₀ L lv 27)
    (hpre27 : ∀ c : Dev nD, iprop(StableHlo.held (c : Thread nD τ) (Pipeline.ucRefs τ sig) (V57 m outs c) ∗ E 27 c) ⊢ R27.pre c)
    (hpost27 : ∀ c : Dev nD, R27.post c ⊢ iprop(StableHlo.held (c : Thread nD τ) (Pipeline.ucRefs τ sig) (V58 m outs c) ∗ E 28 c))
    (R28 : RegionSeg (pcfgs (F := F)) a pdats ι defs₀ 𝒱₀ L lv 28)
    (hpre28 : ∀ c : Dev nD, iprop(StableHlo.held (c : Thread nD τ) (Pipeline.ucRefs τ sig) (V59 m outs c) ∗ E 28 c) ⊢ R28.pre c)
    (hpost28 : ∀ c : Dev nD, R28.post c ⊢ iprop(StableHlo.held (c : Thread nD τ) (Pipeline.ucRefs τ sig) (V60 m outs c) ∗ E 29 c))
    (R29 : RegionSeg (pcfgs (F := F)) a pdats ι defs₀ 𝒱₀ L lv 29)
    (hpre29 : ∀ c : Dev nD, iprop(StableHlo.held (c : Thread nD τ) (Pipeline.ucRefs τ sig) (V61 m outs c) ∗ E 29 c) ⊢ R29.pre c)
    (hpost29 : ∀ c : Dev nD, R29.post c ⊢ iprop(StableHlo.held (c : Thread nD τ) (Pipeline.ucRefs τ sig) (V62 m outs c) ∗ E 30 c))
    (R30 : RegionSeg (pcfgs (F := F)) a pdats ι defs₀ 𝒱₀ L lv 30)
    (hpre30 : ∀ c : Dev nD, iprop(StableHlo.held (c : Thread nD τ) (Pipeline.ucRefs τ sig) (V63 m outs c) ∗ E 30 c) ⊢ R30.pre c)
    (hpost30 : ∀ c : Dev nD, R30.post c ⊢ iprop(StableHlo.held (c : Thread nD τ) (Pipeline.ucRefs τ sig) (V64 m outs c) ∗ E 31 c))
    (R31 : RegionSeg (pcfgs (F := F)) a pdats ι defs₀ 𝒱₀ L lv 31)
    (hpre31 : ∀ c : Dev nD, iprop(StableHlo.held (c : Thread nD τ) (Pipeline.ucRefs τ sig) (V65 m outs c) ∗ E 31 c) ⊢ R31.pre c)
    (hpost31 : ∀ c : Dev nD, R31.post c ⊢ iprop(StableHlo.held (c : Thread nD τ) (Pipeline.ucRefs τ sig) (V66 m outs c) ∗ E 32 c))
    (R32 : RegionSeg (pcfgs (F := F)) a pdats ι defs₀ 𝒱₀ L lv 32)
    (hpre32 : ∀ c : Dev nD, iprop(StableHlo.held (c : Thread nD τ) (Pipeline.ucRefs τ sig) (V67 m outs c) ∗ E 32 c) ⊢ R32.pre c)
    (hpost32 : ∀ c : Dev nD, R32.post c ⊢ iprop(StableHlo.held (c : Thread nD τ) (Pipeline.ucRefs τ sig) (V68 m outs c) ∗ E 33 c))
    (R33 : RegionSeg (pcfgs (F := F)) a pdats ι defs₀ 𝒱₀ L lv 33)
    (hpre33 : ∀ c : Dev nD, iprop(StableHlo.held (c : Thread nD τ) (Pipeline.ucRefs τ sig) (V69 m outs c) ∗ E 33 c) ⊢ R33.pre c)
    (hpost33 : ∀ c : Dev nD, R33.post c ⊢ iprop(StableHlo.held (c : Thread nD τ) (Pipeline.ucRefs τ sig) (V70 m outs c) ∗ E 34 c))
    (R34 : RegionSeg (pcfgs (F := F)) a pdats ι defs₀ 𝒱₀ L lv 34)
    (hpre34 : ∀ c : Dev nD, iprop(StableHlo.held (c : Thread nD τ) (Pipeline.ucRefs τ sig) (V71 m outs c) ∗ E 34 c) ⊢ R34.pre c)
    (hpost34 : ∀ c : Dev nD, R34.post c ⊢ iprop(StableHlo.held (c : Thread nD τ) (Pipeline.ucRefs τ sig) (V72 m outs c) ∗ E 35 c))
    (R35 : RegionSeg (pcfgs (F := F)) a pdats ι defs₀ 𝒱₀ L lv 35)
    (hpre35 : ∀ c : Dev nD, iprop(StableHlo.held (c : Thread nD τ) (Pipeline.ucRefs τ sig) (V73 m outs c) ∗ E 35 c) ⊢ R35.pre c)
    (hpost35 : ∀ c : Dev nD, R35.post c ⊢ iprop(StableHlo.held (c : Thread nD τ) (Pipeline.ucRefs τ sig) (V74 m outs c) ∗ E 36 c))
    (R36 : RegionSeg (pcfgs (F := F)) a pdats ι defs₀ 𝒱₀ L lv 36)
    (hpre36 : ∀ c : Dev nD, iprop(StableHlo.held (c : Thread nD τ) (Pipeline.ucRefs τ sig) (V75 m outs c) ∗ E 36 c) ⊢ R36.pre c)
    (hpost36 : ∀ c : Dev nD, R36.post c ⊢ iprop(StableHlo.held (c : Thread nD τ) (Pipeline.ucRefs τ sig) (V76 m outs c) ∗ E 37 c))
    (R37 : RegionSeg (pcfgs (F := F)) a pdats ι defs₀ 𝒱₀ L lv 37)
    (hpre37 : ∀ c : Dev nD, iprop(StableHlo.held (c : Thread nD τ) (Pipeline.ucRefs τ sig) (V77 m outs c) ∗ E 37 c) ⊢ R37.pre c)
    (hpost37 : ∀ c : Dev nD, R37.post c ⊢ iprop(StableHlo.held (c : Thread nD τ) (Pipeline.ucRefs τ sig) (V78 m outs c) ∗ E 38 c))
    (R38 : RegionSeg (pcfgs (F := F)) a pdats ι defs₀ 𝒱₀ L lv 38)
    (hpre38 : ∀ c : Dev nD, iprop(StableHlo.held (c : Thread nD τ) (Pipeline.ucRefs τ sig) (V79 m outs c) ∗ E 38 c) ⊢ R38.pre c)
    (hpost38 : ∀ c : Dev nD, R38.post c ⊢ iprop(StableHlo.held (c : Thread nD τ) (Pipeline.ucRefs τ sig) (V80 m outs c) ∗ E 39 c))
    (R39 : RegionSeg (pcfgs (F := F)) a pdats ι defs₀ 𝒱₀ L lv 39)
    (hpre39 : ∀ c : Dev nD, iprop(StableHlo.held (c : Thread nD τ) (Pipeline.ucRefs τ sig) (V81 m outs c) ∗ E 39 c) ⊢ R39.pre c)
    (hpost39 : ∀ c : Dev nD, R39.post c ⊢ iprop(StableHlo.held (c : Thread nD τ) (Pipeline.ucRefs τ sig) (V82 m outs c) ∗ E 40 c)) :
    θ_run defs (onTc (τ := τ) (main (F := F))) ⟨m, fun _ => 0, ρ⟩ (fun r => ∀ c : Dev nD,
      r.2.mem ((c.tc : Thread nD τ).loc main_v89) = V82 m outs c main_v89
      ∧ r.2.mem ((c.tc : Thread nD τ).loc main_v127) = V82 m outs c main_v127
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) := by
  refine Pipeline.θ_run_regions_kit_dev (pcfgs (F := F)) a pdats ι (cellOf_inj a) EP defs₀ 𝒱₀ L lv m ρ main
    (segs m outs 𝒱₀ L lv E ι a pdats R0 R1 R2 R3 R4 R5 R6 R7 R8 R9 R10 R11 R12 R13 R14 R15 R16 R17 R18 R19 R20 R21 R22 R23 R24 R25 R26 R27 R28 R29 R30 R31 R32 R33 R34 R35 R36 R37 R38 R39)
    (fun c Q => by
      rewrite [main_chain c, Seg.run_eq_chain,
        show (segs m outs 𝒱₀ L lv E ι a pdats R0 R1 R2 R3 R4 R5 R6 R7 R8 R9 R10 R11 R12 R13 R14 R15 R16 R17 R18 R19 R20 R21 R22 R23 R24 R25 R26 R27 R28 R29 R30 R31 R32 R33 R34 R35 R36 R37 R38 R39 c).map Seg.prog = [
          StableHlo.seq hostOps0,
          StableHlo.seq hostOps0_1,
          StableHlo.seq hostOps0_2,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3,
          Prog.lift (.customCall (Pipeline.entry 3) ()),
          StableHlo.seq hostOps4,
          Prog.lift (.customCall (Pipeline.entry 4) ()),
          StableHlo.seq hostOps5,
          Prog.lift (.customCall (Pipeline.entry 5) ()),
          StableHlo.seq hostOps6,
          Prog.lift (.customCall (Pipeline.entry 6) ()),
          StableHlo.seq hostOps7,
          Prog.lift (.customCall (Pipeline.entry 7) ()),
          StableHlo.seq hostOps8,
          Prog.lift (.customCall (Pipeline.entry 8) ()),
          StableHlo.seq hostOps9,
          Prog.lift (.customCall (Pipeline.entry 9) ()),
          StableHlo.seq hostOps10,
          Prog.lift (.customCall (Pipeline.entry 10) ()),
          StableHlo.seq hostOps11,
          Prog.lift (.customCall (Pipeline.entry 11) ()),
          StableHlo.seq hostOps12,
          Prog.lift (.customCall (Pipeline.entry 12) ()),
          StableHlo.seq hostOps13,
          Prog.lift (.customCall (Pipeline.entry 13) ()),
          StableHlo.seq hostOps14,
          Prog.lift (.customCall (Pipeline.entry 14) ()),
          StableHlo.seq hostOps15,
          Prog.lift (.customCall (Pipeline.entry 15) ()),
          StableHlo.seq hostOps16,
          Prog.lift (.customCall (Pipeline.entry 16) ()),
          StableHlo.seq hostOps17,
          Prog.lift (.customCall (Pipeline.entry 17) ()),
          StableHlo.seq hostOps18,
          Prog.lift (.customCall (Pipeline.entry 18) ()),
          StableHlo.seq hostOps19,
          Prog.lift (.customCall (Pipeline.entry 19) ()),
          StableHlo.seq hostOps20,
          Prog.lift (.customCall (Pipeline.entry 20) ()),
          StableHlo.seq hostOps21,
          Prog.lift (.customCall (Pipeline.entry 21) ()),
          StableHlo.seq hostOps22,
          Prog.lift (.customCall (Pipeline.entry 22) ()),
          StableHlo.seq hostOps23,
          Prog.lift (.customCall (Pipeline.entry 23) ()),
          StableHlo.seq hostOps24,
          Prog.lift (.customCall (Pipeline.entry 24) ()),
          StableHlo.seq hostOps25,
          Prog.lift (.customCall (Pipeline.entry 25) ()),
          StableHlo.seq hostOps26,
          Prog.lift (.customCall (Pipeline.entry 26) ()),
          StableHlo.seq hostOps27,
          Prog.lift (.customCall (Pipeline.entry 27) ()),
          StableHlo.seq hostOps28,
          Prog.lift (.customCall (Pipeline.entry 28) ()),
          StableHlo.seq hostOps29,
          Prog.lift (.customCall (Pipeline.entry 29) ()),
          StableHlo.seq hostOps30,
          Prog.lift (.customCall (Pipeline.entry 30) ()),
          StableHlo.seq hostOps31,
          Prog.lift (.customCall (Pipeline.entry 31) ()),
          StableHlo.seq hostOps32,
          Prog.lift (.customCall (Pipeline.entry 32) ()),
          StableHlo.seq hostOps33,
          Prog.lift (.customCall (Pipeline.entry 33) ()),
          StableHlo.seq hostOps34,
          Prog.lift (.customCall (Pipeline.entry 34) ()),
          StableHlo.seq hostOps35,
          Prog.lift (.customCall (Pipeline.entry 35) ()),
          StableHlo.seq hostOps36,
          Prog.lift (.customCall (Pipeline.entry 36) ()),
          StableHlo.seq hostOps37,
          Prog.lift (.customCall (Pipeline.entry 37) ()),
          StableHlo.seq hostOps38,
          Prog.lift (.customCall (Pipeline.entry 38) ()),
          StableHlo.seq hostOps39,
          Prog.lift (.customCall (Pipeline.entry 39) ()) ] from rfl]
      with_reducible exact .rfl)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V82 m outs c))
    (hch := fun c => ⟨.rfl, .rfl, .rfl, hpre0 c, hpost0 c, hpre1 c, hpost1 c, hpre2 c, hpost2 c, hpre3 c, hpost3 c, hpre4 c, hpost4 c, hpre5 c, hpost5 c, hpre6 c, hpost6 c, hpre7 c, hpost7 c, hpre8 c, hpost8 c, hpre9 c, hpost9 c, hpre10 c, hpost10 c, hpre11 c, hpost11 c, hpre12 c, hpost12 c, hpre13 c, hpost13 c, hpre14 c, hpost14 c, hpre15 c, hpost15 c, hpre16 c, hpost16 c, hpre17 c, hpost17 c, hpre18 c, hpost18 c, hpre19 c, hpost19 c, hpre20 c, hpost20 c, hpre21 c, hpost21 c, hpre22 c, hpost22 c, hpre23 c, hpost23 c, hpre24 c, hpost24 c, hpre25 c, hpost25 c, hpre26 c, hpost26 c, hpre27 c, hpost27 c, hpre28 c, hpost28 c, hpre29 c, hpost29 c, hpre30 c, hpost30 c, hpre31 c, hpost31 c, hpre32 c, hpost32 c, hpre33 c, hpost33 c, hpre34 c, hpost34 c, hpre35 c, hpost35 c, hpre36 c, hpost36 c, hpre37 c, hpost37 c, hpre38 c, hpost38 c, hpre39 c, (hpost39 c).trans (sep_mono .rfl (hE40 c))⟩)
    (hinit := ?_) (QY := fun c s => ∀ b ∈ Pipeline.ucRefs τ sig, s.mem ((c.tc : Thread nD τ).1, b) = V82 m outs c b)
    (hfin := fun c s' => ?_)
    (hQ := fun s h c =>
      ⟨h c _ (mem_uc main_v89 (by decide)),
       h c _ (mem_uc main_v127 (by decide)),
       (h c _ (mem_uc main_arg0 (by decide))).trans (V82_main_arg0 m outs c),
       (h c _ (mem_uc main_arg1 (by decide))).trans (V82_main_arg1 m outs c),
       (h c _ (mem_uc main_arg2 (by decide))).trans (V82_main_arg2 m outs c),
       (h c _ (mem_uc main_arg3 (by decide))).trans (V82_main_arg3 m outs c),
       (h c _ (mem_uc main_arg4 (by decide))).trans (V82_main_arg4 m outs c),
       (h c _ (mem_uc main_arg5 (by decide))).trans (V82_main_arg5 m outs c),
       (h c _ (mem_uc main_arg6 (by decide))).trans (V82_main_arg6 m outs c),
       (h c _ (mem_uc main_arg7 (by decide))).trans (V82_main_arg7 m outs c)⟩)
  · -- the launch: the unscoped buffers are `held` at `V0`; the rest makes `E 0` on every core at once
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  · -- the end: every unscoped buffer read off the last valuation
    unfold StableHlo.held
    iintro ⟨Hh, HSI⟩
    imodintro
    iapply (pointsTo_read_all (Pipeline.ucRefs τ sig) (fun b => ((c : Thread nD τ).1, b)) (V82 m outs c) s')
    isplitl [Hh] <;> iassumption

end Cert.Kernel.Hand

end
-- ==== Proof.K.Inst.lean ====
import proofs.«402049_j87351044866139_2_alg».proof.Proof.Gen.Kernel.Launch
import Idealize.ShloMosaic.Lib.Pipeline.Frame
import Idealize.ShloMosaic.Lib.Pipeline.Regions

/-! The parameters the several-regions launch is instantiated at, for a program whose gather regions move rows by
    transfers of their own on semaphores of their own, and the state that rides beside the unscoped buffers between
    two items of @main. -/

noncomputable section

namespace Cert.Kernel.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel.Gen

variable {F : FTy → Type} [FloatOps F]

/-- The user algebra: the rounds algebra that funds every pipeline's staging cells, beside the counters the
    bodies' own transfers take their tokens from. -/
abbrev UU : Type := Pipeline.UD sig nD τ

local notation "𝕄" => MT nD τ sig Unit (Elt F) ℕ UU ℕ

/-- The pipelines' component of the user algebra: the left of the pair. -/
abbrev EPd : Emb (URounds (GSem nD τ sig) Unit) 𝕄 := embL

/-- No variant is declared. -/
abbrev 𝒱₀ : Variants := Variants.none
/-- No core owes another anything: no level is assigned. -/
abbrev L : GSem nD τ sig → Finset Unit := fun _ => ∅
abbrev lv : GSem nD τ sig → Unit → ℕ := fun _ _ => 0
theorem hL : ∀ g : GSem nD τ sig, g.1.2 ≠ .tc → (L g : Finset Unit) = ∅ := fun _ _ => rfl

/-- The launch element: the pipelines' cells and launch tokens on the left, nothing on the right. -/
abbrev u₀ (a : (p : Fin 40) → (pcfgs (F := F) p).Adm) : UU :=
  (initOf (Pipeline.cells (Pipeline.pin (pcfgs (F := F)) a) (cellOf_inj a))
      (Pipeline.launchToks (Pipeline.pin (pcfgs (F := F)) a) (cellOf_inj a)), 1)

/-- The launch element yields the pipelines' share; no core takes a ghost resource of its own. -/
theorem hu₀ (a : (p : Fin 40) → (pcfgs (F := F) p).Adm) :
    (ownU (u₀ a) : sProp 𝕄)
      ⊢ |={Set.univ}=> iprop(BI.own ((EPd (F := F)) (initOf (Pipeline.cells (Pipeline.pin (pcfgs (F := F)) a) (cellOf_inj a))
            (Pipeline.launchToks (Pipeline.pin (pcfgs (F := F)) a) (cellOf_inj a))))
          ∗ bigSep Finset.univ (fun _ : Dev nD => (iprop(emp) : sProp 𝕄))) := by
  iintro Hu
  ihave H' := (ownU_pair _ _) $$ Hu
  icases H' with ⟨HP, -⟩
  imodintro
  isplitl [HP]; · iexact HP
  iapply (show (BI.emp : sProp 𝕄) ⊢ bigSep Finset.univ (fun _ : Dev nD => (BI.emp : sProp 𝕄)) from by rw [BI.bigSep_emp_const])
  iempintro

/-- What rides beside the unscoped buffers through every item of @main: the core's generator register at some
    state, and the core owing nothing. -/
abbrev R (c : Dev nD) : sProp 𝕄 :=
  iprop((∃ r, prngReg c r) ∗ ∃ W, owes (c : Thread nD τ) (0 : CellTallies nD τ sig Unit) W)

/-- The same state between any two items: no region leaves a transfer in flight or a unit owed. -/
abbrev E : Fin 41 → Dev nD → sProp 𝕄 := fun _ c => R (F := F) c

/-- The launch makes the first rest state on every core: the register it deals, at the state it deals it; the
    core's dues, which are none. -/
theorem hE0 (ρ : Dev nD → PrngReg) :
    iprop((bigSep Finset.univ fun c : Dev nD => iprop(unscopedSems0 c ∗ owes (c : Thread nD τ) (0 : CellTallies nD τ sig Unit) ∅
        ∗ Pipeline.launchCred (fun _ : Dev nD => (0 : CellTallies nD τ sig Unit)) c ∗ prngReg c (ρ c) ∗ (iprop(emp) : sProp 𝕄))) ∗ levAts L lv)
      ⊢ (|={Set.univ}=> bigSep Finset.univ (E (F := F) 0) : sProp 𝕄) := by
  refine Pipeline.initEach L lv fun c => ?_
  iintro ⟨⟨-, HO, -, Hp, -⟩, -⟩
  imodintro
  isplitl [Hp]; · iexists _; iexact Hp
  iexists ∅; iexact HO

/-- The last rest state owes nothing. -/
theorem hE40 (c : Dev nD) :
    E (F := F) 40 c ⊢ (iprop(∃ W, owes (c : Thread nD τ) (0 : CellTallies nD τ sig Unit) W) : sProp 𝕄) := by
  iintro ⟨-, HO⟩; iexact HO

end Cert.Kernel.Hand

end
-- ==== Proof.K.Dense0.lean ====
/-
  Region 0 of @main — the first feature transform, the pallas_call of `cc0__matmul_kernel` — as a pipeline of
  the plainest class: at each of its 10 grid points the body reads a 5000 x 128 block of the feature matrix and the
  whole 128 x 128 weight matrix, and stores into the output's 5000 x 128 block the product of the two operands
  rounded to bf16, accumulated in f32 from zero. It keeps nothing from point to point and names no semaphore.

  Stated at a PARAMETER `V`, the core's buffer contents when the region is entered:
  * `iblk0`: a window's block at a grid point, read off its array at `V`;
  * `out0_2`: the output block as a function of the two input blocks — the one store's payload laid over the
    whole block;
  * `sound_kernel0`: the body's triple on whole staging buffers;
  * `dat0`: the pipeline's proof data (arrays at `V`; after the body each input buffer at its block, the
    output buffer at `out0_2` of them; the invariant the scoped rest and the core's random-number generator register; nothing owed);
  * `A_eq0`, `after0_0`, `after0_1`, `after0_2`: the data's fields, projected;
  * `before0_0`, `before0_1`: an input's buffer holds its block at every point — the weight matrix is fetched
    at the first point only, and its block index never moves;
  * `body_obligation0`: the body obligation at every point.
-/
import proofs.«402049_j87351044866139_2_alg».proof.Proof.Gen.Kernel.Launch
import proofs.«402049_j87351044866139_2_alg».proof.Proof.Gen.Kernel.Skeleton
import proofs.«402049_j87351044866139_2_alg».proof.Proof.Gen.Kernel.Points
import Idealize.ShloMosaic.Lib.Pipeline.FrameBody
import Idealize.ShloMosaic.Lib.Tactic

-- a block's extent (5000 rows) is the depth of the structural checks on its rectangle
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

-- the resource algebra every kernel-side region of this program is stated at
local notation "𝕄" => MT nD τ sig Unit (Elt F) ℕ (Pipeline.UD sig nD τ) ℕ

-- the core's buffer contents when the region is entered
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! ## The body's accesses: each a whole staging buffer -/

abbrev r0_0 : Rect S5000x128 := Rect.unit (s := S5000x128) ![0, 0] S5000x128.size inb_S5000x128_S5000x128_0_0
abbrev r0_1 : Rect S128x128 := Rect.unit (s := S128x128) ![0, 0] S128x128.size inb_S128x128_S128x128_0_0
abbrev r0_2 : Rect S5000x128 := Rect.unit (s := S5000x128) ![0, 0] S5000x128.size inb_S5000x128_S5000x128_0_0

/-! ## What the body leaves in the output window's buffer -/

/-- The output block from the feature block `x0` and the weight matrix `x1`: the body's one store, whose payload
    is the matrix product of the two, each rounded to bf16, accumulated in f32 from zero. -/
def out0_2 (x0 : Vec F S5000x128 .f32) (x1 : Vec F S128x128 .f32) : Vec F S5000x128 .f32 :=
  View.canon [⟨r0_2, k0_pay1 (View.ld x0 r0_0) (View.ld x1 r0_1)⟩]

/-- The store is the whole block, so every element of the block lies in it. -/
theorem cover0_2 (p0 : Vec F S5000x128 .f32) (y : S5000x128.Idx) :
    ∃ pc ∈ ([⟨r0_2, p0⟩] : List (View.Piece (Elt F) S5000x128 .f32)), y ∈ pc.1.set :=
  View.cover_of_tiled [⟨r0_2, p0⟩] S5000x128.size (by rfl) y

/-! ## The body's triple -/

set_option maxHeartbeats 1000000 in
/-- The body on whole staging buffers — the two inputs' reading `x0` and `x1`, the output's holding anything — runs
    to the inputs' as they were and the output's reading `out0_2 x0 x1`: two loads, a load of the output buffer whose
    value nothing reads, and one store over the whole output buffer. -/
theorem sound_kernel0 (c : Dev nD) (E : Set ℕ) (i : grid0.Coords)
    (arg1 : Memref sig .tc .vmem S5000x128 .f32) (harg1 : arg1.IsWhole)
    (arg2 : Memref sig .tc .vmem S128x128 .f32) (harg2 : arg2.IsWhole)
    (arg3 : Memref sig .tc .vmem S5000x128 .f32) (harg3 : arg3.IsWhole)
    (x0 : Vec F S5000x128 .f32) (x1 : Vec F S128x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__matmul_kernel i arg1 harg1 arg2 harg2 arg3 harg3) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The pipeline's proof data -/

/-- The proof data of pipeline 0 on core `c`: the arrays as the region finds them; after the body at point `t` each
    input's buffer at its block and the output's at `out0_2` of the two; the invariant the core's scoped buffers that
    are no staging buffer and its random-number generator register, untouched; nothing owed; full shares. -/
def dat0 (c : Dev nD) : Dat τ (Elt F) Unit ℕ (Pipeline.UD sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

/-- The data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

/-- The feature window's current buffer holds its block at every point: the body leaves the block in place, and where
    the pipeline does not fetch, the block index has not moved. -/
theorem before0_0 (c : Dev nD) (t : Fin cfg0.N) (d) : (dat0 V c).before 0 t d = iblk0 V c 0 t :=
  ((dat0 V c).before_in_eq_fetched 0 rfl (fun _ => rfl) (fun _ _ _ => rfl)
      (fun t => by rw [after0_0]; unfold Dat.blockOf iblk0; rw [A_eq0]; try rfl) t d).trans
    (by unfold Dat.fetched Dat.blockOf iblk0; rw [A_eq0]; try rfl)

/-- The weight window's likewise: fetched at the first point only, its one block is every point's. -/
theorem before0_1 (c : Dev nD) (t : Fin cfg0.N) (d) : (dat0 V c).before 1 t d = iblk0 V c 1 t :=
  ((dat0 V c).before_in_eq_fetched 1 rfl (fun _ => rfl) (fun _ _ _ => rfl)
      (fun t => by rw [after0_1]; unfold Dat.blockOf iblk0; rw [A_eq0]; try rfl) t d).trans
    (by unfold Dat.fetched Dat.blockOf iblk0; rw [A_eq0]; try rfl)

/-! ## The body obligation, at a generic point -/

/-- What the body is called with at point `t`: the invariant, the core's dues, each window's current buffer, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' buffers hold their blocks, so the body's triple applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation of pipeline 0, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.K.Dense11.lean ====
/-
  Region 11 of @main — the first layer's bias and rectifier fused with the second feature transform, the pallas_call
  of `cc11__fused_bias_relu_matmul_kernel` — as a pipeline of the plainest class: at each of its 10 grid points the
  body reads a 5000 x 128 block of the aggregated features, the whole 1 x 128 bias row and the whole 128 x 128 weight
  matrix, and stores into the output's 5000 x 128 block the product of the rectified block (the larger of zero and the
  block plus the bias row repeated down its rows) and the weight matrix, both rounded to bf16, accumulated in f32
  from zero. It keeps nothing from point to point and names no semaphore.

  Stated at a PARAMETER `V`, the core's buffer contents when the region is entered:
  * `iblk11`: a window's block at a grid point, read off its array at `V`;
  * `out11_3`: the output block as a function of the three input blocks — the one store's payload laid over the
    whole block;
  * `sound_kernel11`: the body's triple on whole staging buffers;
  * `dat11`: the pipeline's proof data (arrays at `V`; after the body each input buffer at its block, the
    output buffer at `out11_3` of them; the invariant the scoped rest and the core's random-number generator
    register; nothing owed);
  * `A_eq11`, `after11_0` … `after11_3`: the data's fields, projected;
  * `before11_0`, `before11_1`, `before11_2`: an input's buffer holds its block at every point — the bias row and
    the weight matrix are fetched at the first point only, and their block indices never move;
  * `body_obligation11`: the body obligation at every point.
-/
import proofs.«402049_j87351044866139_2_alg».proof.Proof.Gen.Kernel.Launch
import proofs.«402049_j87351044866139_2_alg».proof.Proof.Gen.Kernel.Skeleton
import proofs.«402049_j87351044866139_2_alg».proof.Proof.Gen.Kernel.Points
import Idealize.ShloMosaic.Lib.Pipeline.FrameBody
import Idealize.ShloMosaic.Lib.Tactic

-- a block's extent (5000 rows) is the depth of the structural checks on its rectangle
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

-- the resource algebra every kernel-side region of this program is stated at
local notation "𝕄" => MT nD τ sig Unit (Elt F) ℕ (Pipeline.UD sig nD τ) ℕ

-- the core's buffer contents when the region is entered
variable (V : (c : Dev nD) → (b : Ref sig .tc) → Buf (Elt F) ((c : Thread nD τ).loc b))

/-! ## The windows' blocks -/

/-- Window `w`'s block at point `t`, read off its array as the region finds it. -/
def iblk11 (c : Dev nD) (w : Fin cfg11.W) (t : Fin cfg11.N) : ((cfg11.win w).xblock (cfg11.grid.coords t)).Idx → Elt F (cfg11.win w).elt :=
  ((cfg11.win w).blk t).view.read (Elt F) (V c (Pipeline.arrRef spec11 w))

/-! ## The body's accesses: each a whole staging buffer -/

abbrev r11_0 : Rect S5000x128 := Rect.unit (s := S5000x128) ![0, 0] S5000x128.size inb_S5000x128_S5000x128_0_0
abbrev r11_1 : Rect S1x128 := Rect.unit (s := S1x128) ![0, 0] S1x128.size inb_S1x128_S1x128_0_0
abbrev r11_2 : Rect S128x128 := Rect.unit (s := S128x128) ![0, 0] S128x128.size inb_S128x128_S128x128_0_0
abbrev r11_3 : Rect S5000x128 := Rect.unit (s := S5000x128) ![0, 0] S5000x128.size inb_S5000x128_S5000x128_0_0

/-! ## What the body leaves in the output window's buffer -/

/-- The output block from the feature block `x0`, the bias row `x1` and the weight matrix `x2`: the body's one
    store, whose payload is the matrix product of the rectified biased block and the weight matrix, each rounded to
    bf16, accumulated in f32 from zero. -/
def out11_3 (x0 : Vec F S5000x128 .f32) (x1 : Vec F S1x128 .f32) (x2 : Vec F S128x128 .f32) : Vec F S5000x128 .f32 :=
  View.canon [⟨r11_3, k11_pay1 (View.ld x0 r11_0) (View.ld x1 r11_1) (View.ld x2 r11_2)⟩]

/-- The store is the whole block, so every element of the block lies in it. -/
theorem cover11_3 (p0 : Vec F S5000x128 .f32) (y : S5000x128.Idx) :
    ∃ pc ∈ ([⟨r11_3, p0⟩] : List (View.Piece (Elt F) S5000x128 .f32)), y ∈ pc.1.set :=
  View.cover_of_tiled [⟨r11_3, p0⟩] S5000x128.size (by rfl) y

/-! ## The body's triple -/

set_option maxHeartbeats 1000000 in
/-- The body on whole staging buffers — the three inputs' reading `x0`, `x1` and `x2`, the output's holding
    anything — runs to the inputs' as they were and the output's reading `out11_3 x0 x1 x2`: three loads, a load of the
    output buffer whose value nothing reads, and one store over the whole output buffer. -/
theorem sound_kernel11 (c : Dev nD) (E : Set ℕ) (i : grid11.Coords)
    (arg1 : Memref sig .tc .vmem S5000x128 .f32) (harg1 : arg1.IsWhole)
    (arg2 : Memref sig .tc .vmem S1x128 .f32) (harg2 : arg2.IsWhole)
    (arg3 : Memref sig .tc .vmem S128x128 .f32) (harg3 : arg3.IsWhole)
    (arg4 : Memref sig .tc .vmem S5000x128 .f32) (harg4 : arg4.IsWhole)
    (x0 : Vec F S5000x128 .f32) (x1 : Vec F S1x128 .f32) (x2 : Vec F S128x128 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out11_3 x0 x1 x2)) -∗ K ⟨⟩))
      ⊢ wp frame (wpE (defs₀ (F := F)) Variants.none c none) E (cc11__fused_bias_relu_matmul_kernel i arg1 harg1 arg2 harg2 arg3 harg3 arg4 harg4) K := by
  simp only [cc11__fused_bias_relu_matmul_kernel_eq_skeleton]; unfold cc11__fused_bias_relu_matmul_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover11_3 _)

/-! ## The pipeline's proof data -/

/-- The proof data of pipeline 11 on core `c`: the arrays as the region finds them; after the body at point `t` each
    input's buffer at its block and the output's at `out11_3` of the three; the invariant the core's scoped buffers
    that are no staging buffer and its random-number generator register, untouched; nothing owed; full shares. -/
def dat11 (c : Dev nD) : Dat τ (Elt F) Unit ℕ (Pipeline.UD sig nD τ) ℕ cfg11 c where
  A w := V c (Pipeline.arrRef spec11 w)
  after w t := match w with
    | ⟨0, _⟩ => iblk11 V c 0 t
    | ⟨1, _⟩ => iblk11 V c 1 t
    | ⟨2, _⟩ => iblk11 V c 2 t
    | ⟨3, _⟩ => out11_3 (iblk11 V c 0 t) (iblk11 V c 1 t) (iblk11 V c 2 t)
  Φ _ := Pipeline.ΦA spec11 c
  q _ := fullShare
  owed _ := 0

/-- The data's arrays are the region-entry contents. -/
theorem A_eq11 (c : Dev nD) (w : Fin cfg11.W) : (dat11 V c).A w = V c (Pipeline.arrRef spec11 w) := by
  dsimp only [dat11]

/-- What the body leaves, window by window. -/
theorem after11_0 (c : Dev nD) (t : Fin cfg11.N) : (dat11 V c).after 0 t = iblk11 V c 0 t := by dsimp only [dat11]
theorem after11_1 (c : Dev nD) (t : Fin cfg11.N) : (dat11 V c).after 1 t = iblk11 V c 1 t := by dsimp only [dat11]
theorem after11_2 (c : Dev nD) (t : Fin cfg11.N) : (dat11 V c).after 2 t = iblk11 V c 2 t := by dsimp only [dat11]
theorem after11_3 (c : Dev nD) (t : Fin cfg11.N) :
    (dat11 V c).after 3 t = out11_3 (iblk11 V c 0 t) (iblk11 V c 1 t) (iblk11 V c 2 t) := by dsimp only [dat11]

/-- The feature window's current buffer holds its block at every point: the body leaves the block in place, and where
    the pipeline does not fetch, the block index has not moved. -/
theorem before11_0 (c : Dev nD) (t : Fin cfg11.N) (d) : (dat11 V c).before 0 t d = iblk11 V c 0 t :=
  ((dat11 V c).before_in_eq_fetched 0 rfl (fun _ => rfl) (fun _ _ _ => rfl)
      (fun t => by rw [after11_0]; unfold Dat.blockOf iblk11; rw [A_eq11]; try rfl) t d).trans
    (by unfold Dat.fetched Dat.blockOf iblk11; rw [A_eq11]; try rfl)

/-- The bias window's likewise: fetched at the first point only, its one block is every point's. -/
theorem before11_1 (c : Dev nD) (t : Fin cfg11.N) (d) : (dat11 V c).before 1 t d = iblk11 V c 1 t :=
  ((dat11 V c).before_in_eq_fetched 1 rfl (fun _ => rfl) (fun _ _ _ => rfl)
      (fun t => by rw [after11_1]; unfold Dat.blockOf iblk11; rw [A_eq11]; try rfl) t d).trans
    (by unfold Dat.fetched Dat.blockOf iblk11; rw [A_eq11]; try rfl)

/-- The weight window's likewise. -/
theorem before11_2 (c : Dev nD) (t : Fin cfg11.N) (d) : (dat11 V c).before 2 t d = iblk11 V c 2 t :=
  ((dat11 V c).before_in_eq_fetched 2 rfl (fun _ => rfl) (fun _ _ _ => rfl)
      (fun t => by rw [after11_2]; unfold Dat.blockOf iblk11; rw [A_eq11]; try rfl) t d).trans
    (by unfold Dat.fetched Dat.blockOf iblk11; rw [A_eq11]; try rfl)

/-! ## The body obligation, at a generic point -/

/-- What the body is called with at point `t`: the invariant, the core's dues, each window's current buffer, -/
def bodyPre11 (c : Dev nD) (t : Fin cfg11.N) : sProp 𝕄 :=
  iprop((dat11 V c).Φ t.castSucc ∗ (dat11 V c).owesAt () t.castSucc
    ∗ (∃ d, owns (c : Thread nD τ) (st11_0 t) fullShare ((dat11 V c).before 0 t d))
    ∗ (∃ d, owns (c : Thread nD τ) (st11_1 t) fullShare ((dat11 V c).before 1 t d))
    ∗ (∃ d, owns (c : Thread nD τ) (st11_2 t) fullShare ((dat11 V c).before 2 t d))
    ∗ (∃ d, owns (c : Thread nD τ) (st11_3 t) fullShare ((dat11 V c).before 3 t d)))

/-- and what it returns. -/
def bodyPost11 (c : Dev nD) (t : Fin cfg11.N) : sProp 𝕄 :=
  iprop((dat11 V c).Φ t.succ ∗ (dat11 V c).owesAt () t.succ
    ∗ owns (c : Thread nD τ) (st11_0 t) fullShare ((dat11 V c).after 0 t)
    ∗ owns (c : Thread nD τ) (st11_1 t) fullShare ((dat11 V c).after 1 t)
    ∗ owns (c : Thread nD τ) (st11_2 t) fullShare ((dat11 V c).after 2 t)
    ∗ owns (c : Thread nD τ) (st11_3 t) fullShare ((dat11 V c).after 3 t))

/-- The body at any point: the inputs' buffers hold their blocks, so the body's triple applies; the invariant and the
    core's dues pass through unread. -/
theorem sound_body11 (c : Dev nD) (t : Fin cfg11.N) :
    bodyPre11 V c t ⊢ wp frame (wpE (defs₀ (F := F)) Variants.none c none) Set.univ (bodyAt11 t) (fun _ => bodyPost11 V c t) := by
  unfold bodyPre11 bodyPost11 bodyAt11
  simp only [before11_0, before11_1, before11_2]
  rw [show (dat11 V c).Φ t.succ = (dat11 V c).Φ t.castSucc from rfl,
    show (dat11 V c).owesAt () t.succ = (dat11 V c).owesAt () t.castSucc from rfl,
    after11_0, after11_1, after11_2, after11_3]
  iintro ⟨HΦ, Ho, ⟨%d0, H0⟩, ⟨%d1, H1⟩, ⟨%d2, H2⟩, ⟨%d3, H3⟩⟩
  iapply (sound_kernel11 c Set.univ _ _ _ _ _ _ _ _ _ (iblk11 V c 0 t) (iblk11 V c 1 t) (iblk11 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation of pipeline 11, at every point. -/
theorem body_obligation11 (c : Dev nD) : BodyObligation (dat11 (F := F) V c) (defs₀ (F := F)) Variants.none () Set.univ := fun t => by
  rw [bigSep_W11, bigSep_W11]
  exact sound_body11 V c t

end Cert.Kernel.Hand

end
-- ==== Proof.K.Dense22.lean ====
/-
  Region 22 of @main — the second layer's bias and rectifier, the pallas_call of `cc22__bias_relu_kernel` — as a
  pipeline of the plainest class: at each of its 10 grid points the body reads a 5000 x 128 block of the aggregated
  features and the whole 1 x 128 bias row, and stores into the output's 5000 x 128 block the larger of zero and the
  block plus the bias row repeated down its rows. It keeps nothing from point to point and names no semaphore.

  Stated at a PARAMETER `V`, the core's buffer contents when the region is entered:
  * `iblk22`: a window's block at a grid point, read off its array at `V`;
  * `out22_2`: the output block as a function of the two input blocks — the one store's payload laid over the
    whole block;
  * `sound_kernel22`: the body's triple on whole staging buffers;
  * `dat22`: the pipeline's proof data (arrays at `V`; after the body each input buffer at its block, the
    output buffer at `out22_2` of them; the invariant the scoped rest and the core's random-number generator
    register; nothing owed);
  * `A_eq22`, `after22_0`, `after22_1`, `after22_2`: the data's fields, projected;
  * `before22_0`, `before22_1`: an input's buffer holds its block at every point — the bias row is fetched at the
    first point only, and its block index never moves;
  * `body_obligation22`: the body obligation at every point.
-/
import proofs.«402049_j87351044866139_2_alg».proof.Proof.Gen.Kernel.Launch
import proofs.«402049_j87351044866139_2_alg».proof.Proof.Gen.Kernel.Skeleton
import proofs.«402049_j87351044866139_2_alg».proof.Proof.Gen.Kernel.Points
import Idealize.ShloMosaic.Lib.Pipeline.FrameBody
import Idealize.ShloMosaic.Lib.Tactic

-- a block's extent (5000 rows) is the depth of the structural checks on its rectangle
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

-- the resource algebra every kernel-side region of this program is stated at
local notation "𝕄" => MT nD τ sig Unit (Elt F) ℕ (Pipeline.UD sig nD τ) ℕ

-- the core's buffer contents when the region is entered
variable (V : (c : Dev nD) → (b : Ref sig .tc) → Buf (Elt F) ((c : Thread nD τ).loc b))

/-! ## The windows' blocks -/

/-- Window `w`'s block at point `t`, read off its array as the region finds it. -/
def iblk22 (c : Dev nD) (w : Fin cfg22.W) (t : Fin cfg22.N) : ((cfg22.win w).xblock (cfg22.grid.coords t)).Idx → Elt F (cfg22.win w).elt :=
  ((cfg22.win w).blk t).view.read (Elt F) (V c (Pipeline.arrRef spec22 w))

/-! ## The body's accesses: each a whole staging buffer -/

abbrev r22_0 : Rect S5000x128 := Rect.unit (s := S5000x128) ![0, 0] S5000x128.size inb_S5000x128_S5000x128_0_0
abbrev r22_1 : Rect S1x128 := Rect.unit (s := S1x128) ![0, 0] S1x128.size inb_S1x128_S1x128_0_0
abbrev r22_2 : Rect S5000x128 := Rect.unit (s := S5000x128) ![0, 0] S5000x128.size inb_S5000x128_S5000x128_0_0

/-! ## What the body leaves in the output window's buffer -/

/-- The output block from the feature block `x0` and the bias row `x1`: the body's one store, whose payload is,
    elementwise, the maximum of zero and the block's element plus the bias of its column. -/
def out22_2 (x0 : Vec F S5000x128 .f32) (x1 : Vec F S1x128 .f32) : Vec F S5000x128 .f32 :=
  View.canon [⟨r22_2, k22_pay1 (View.ld x0 r22_0) (View.ld x1 r22_1)⟩]

/-- The store is the whole block, so every element of the block lies in it. -/
theorem cover22_2 (p0 : Vec F S5000x128 .f32) (y : S5000x128.Idx) :
    ∃ pc ∈ ([⟨r22_2, p0⟩] : List (View.Piece (Elt F) S5000x128 .f32)), y ∈ pc.1.set :=
  View.cover_of_tiled [⟨r22_2, p0⟩] S5000x128.size (by rfl) y

/-! ## The body's triple -/

set_option maxHeartbeats 1000000 in
/-- The body on whole staging buffers — the two inputs' reading `x0` and `x1`, the output's holding anything — runs
    to the inputs' as they were and the output's reading `out22_2 x0 x1`: two loads, a load of the output buffer whose
    value nothing reads, and one store over the whole output buffer. -/
theorem sound_kernel22 (c : Dev nD) (E : Set ℕ) (i : grid22.Coords)
    (arg1 : Memref sig .tc .vmem S5000x128 .f32) (harg1 : arg1.IsWhole)
    (arg2 : Memref sig .tc .vmem S1x128 .f32) (harg2 : arg2.IsWhole)
    (arg3 : Memref sig .tc .vmem S5000x128 .f32) (harg3 : arg3.IsWhole)
    (x0 : Vec F S5000x128 .f32) (x1 : Vec F S1x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out22_2 x0 x1)) -∗ K ⟨⟩))
      ⊢ wp frame (wpE (defs₀ (F := F)) Variants.none c none) E (cc22__bias_relu_kernel i arg1 harg1 arg2 harg2 arg3 harg3) K := by
  simp only [cc22__bias_relu_kernel_eq_skeleton]; unfold cc22__bias_relu_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover22_2 _)

/-! ## The pipeline's proof data -/

/-- The proof data of pipeline 22 on core `c`: the arrays as the region finds them; after the body at point `t` each
    input's buffer at its block and the output's at `out22_2` of the two; the invariant the core's scoped buffers
    that are no staging buffer and its random-number generator register, untouched; nothing owed; full shares. -/
def dat22 (c : Dev nD) : Dat τ (Elt F) Unit ℕ (Pipeline.UD sig nD τ) ℕ cfg22 c where
  A w := V c (Pipeline.arrRef spec22 w)
  after w t := match w with
    | ⟨0, _⟩ => iblk22 V c 0 t
    | ⟨1, _⟩ => iblk22 V c 1 t
    | ⟨2, _⟩ => out22_2 (iblk22 V c 0 t) (iblk22 V c 1 t)
  Φ _ := Pipeline.ΦA spec22 c
  q _ := fullShare
  owed _ := 0

/-- The data's arrays are the region-entry contents. -/
theorem A_eq22 (c : Dev nD) (w : Fin cfg22.W) : (dat22 V c).A w = V c (Pipeline.arrRef spec22 w) := by
  dsimp only [dat22]

/-- What the body leaves, window by window. -/
theorem after22_0 (c : Dev nD) (t : Fin cfg22.N) : (dat22 V c).after 0 t = iblk22 V c 0 t := by dsimp only [dat22]
theorem after22_1 (c : Dev nD) (t : Fin cfg22.N) : (dat22 V c).after 1 t = iblk22 V c 1 t := by dsimp only [dat22]
theorem after22_2 (c : Dev nD) (t : Fin cfg22.N) : (dat22 V c).after 2 t = out22_2 (iblk22 V c 0 t) (iblk22 V c 1 t) := by dsimp only [dat22]

/-- The feature window's current buffer holds its block at every point: the body leaves the block in place, and where
    the pipeline does not fetch, the block index has not moved. -/
theorem before22_0 (c : Dev nD) (t : Fin cfg22.N) (d) : (dat22 V c).before 0 t d = iblk22 V c 0 t :=
  ((dat22 V c).before_in_eq_fetched 0 rfl (fun _ => rfl) (fun _ _ _ => rfl)
      (fun t => by rw [after22_0]; unfold Dat.blockOf iblk22; rw [A_eq22]; try rfl) t d).trans
    (by unfold Dat.fetched Dat.blockOf iblk22; rw [A_eq22]; try rfl)

/-- The bias window's likewise: fetched at the first point only, its one block is every point's. -/
theorem before22_1 (c : Dev nD) (t : Fin cfg22.N) (d) : (dat22 V c).before 1 t d = iblk22 V c 1 t :=
  ((dat22 V c).before_in_eq_fetched 1 rfl (fun _ => rfl) (fun _ _ _ => rfl)
      (fun t => by rw [after22_1]; unfold Dat.blockOf iblk22; rw [A_eq22]; try rfl) t d).trans
    (by unfold Dat.fetched Dat.blockOf iblk22; rw [A_eq22]; try rfl)

/-! ## The body obligation, at a generic point -/

/-- What the body is called with at point `t`: the invariant, the core's dues, each window's current buffer, -/
def bodyPre22 (c : Dev nD) (t : Fin cfg22.N) : sProp 𝕄 :=
  iprop((dat22 V c).Φ t.castSucc ∗ (dat22 V c).owesAt () t.castSucc
    ∗ (∃ d, owns (c : Thread nD τ) (st22_0 t) fullShare ((dat22 V c).before 0 t d))
    ∗ (∃ d, owns (c : Thread nD τ) (st22_1 t) fullShare ((dat22 V c).before 1 t d))
    ∗ (∃ d, owns (c : Thread nD τ) (st22_2 t) fullShare ((dat22 V c).before 2 t d)))

/-- and what it returns. -/
def bodyPost22 (c : Dev nD) (t : Fin cfg22.N) : sProp 𝕄 :=
  iprop((dat22 V c).Φ t.succ ∗ (dat22 V c).owesAt () t.succ
    ∗ owns (c : Thread nD τ) (st22_0 t) fullShare ((dat22 V c).after 0 t)
    ∗ owns (c : Thread nD τ) (st22_1 t) fullShare ((dat22 V c).after 1 t)
    ∗ owns (c : Thread nD τ) (st22_2 t) fullShare ((dat22 V c).after 2 t))

/-- The body at any point: the inputs' buffers hold their blocks, so the body's triple applies; the invariant and the
    core's dues pass through unread. -/
theorem sound_body22 (c : Dev nD) (t : Fin cfg22.N) :
    bodyPre22 V c t ⊢ wp frame (wpE (defs₀ (F := F)) Variants.none c none) Set.univ (bodyAt22 t) (fun _ => bodyPost22 V c t) := by
  unfold bodyPre22 bodyPost22 bodyAt22
  simp only [before22_0, before22_1]
  rw [show (dat22 V c).Φ t.succ = (dat22 V c).Φ t.castSucc from rfl,
    show (dat22 V c).owesAt () t.succ = (dat22 V c).owesAt () t.castSucc from rfl,
    after22_0, after22_1, after22_2]
  iintro ⟨HΦ, Ho, ⟨%d0, H0⟩, ⟨%d1, H1⟩, ⟨%d2, H2⟩⟩
  iapply (sound_kernel22 c Set.univ _ _ _ _ _ _ _ (iblk22 V c 0 t) (iblk22 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation of pipeline 22, at every point. -/
theorem body_obligation22 (c : Dev nD) : BodyObligation (dat22 (F := F) V c) (defs₀ (F := F)) Variants.none () Set.univ := fun t => by
  rw [bigSep_W22, bigSep_W22]
  exact sound_body22 V c t

end Cert.Kernel.Hand

end
-- ==== Proof.K.Dense39.lean ====
/-
  Region 39 of @main — the edge classifier, the pallas_call of `cc39__classify_kernel` — as a pipeline of the plainest
  class: at each of its 125 grid points the body reads a 6400 x 128 block of the gathered source-node features, the
  6400 x 128 block of the gathered destination-node features, the two whole 128 x 2 halves of the classifier's weight
  matrix and its whole 1 x 2 bias row, and stores into the output's 6400 x 2 block the logistic function of: the source
  block times the first half plus the destination block times the second half (operands rounded to bf16, each product
  accumulated in f32 from zero) plus the bias row repeated down the rows. It keeps nothing from point to point and
  names no semaphore.

  Stated at a PARAMETER `V`, the core's buffer contents when the region is entered:
  * `iblk39`: a window's block at a grid point, read off its array at `V`;
  * `out39_5`: the output block as a function of the five input blocks — the one store's payload laid over the
    whole block;
  * `sound_kernel39`: the body's triple on whole staging buffers;
  * `dat39`: the pipeline's proof data (arrays at `V`; after the body each input buffer at its block, the
    output buffer at `out39_5` of them; the invariant the scoped rest and the core's random-number generator
    register; nothing owed);
  * `A_eq39`, `after39_0` … `after39_5`: the data's fields, projected;
  * `before39_0` … `before39_4`: an input's buffer holds its block at every point — the two weight halves and the
    bias row are fetched at the first point only, and their block indices never move;
  * `body_obligation39`: the body obligation at every point.
-/
import proofs.«402049_j87351044866139_2_alg».proof.Proof.Gen.Kernel.Launch
import proofs.«402049_j87351044866139_2_alg».proof.Proof.Gen.Kernel.Skeleton
import proofs.«402049_j87351044866139_2_alg».proof.Proof.Gen.Kernel.Points
import Idealize.ShloMosaic.Lib.Pipeline.FrameBody
import Idealize.ShloMosaic.Lib.Tactic

-- a block's extent (6400 rows) is the depth of the structural checks on its rectangle
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

-- the resource algebra every kernel-side region of this program is stated at
local notation "𝕄" => MT nD τ sig Unit (Elt F) ℕ (Pipeline.UD sig nD τ) ℕ

-- the core's buffer contents when the region is entered
variable (V : (c : Dev nD) → (b : Ref sig .tc) → Buf (Elt F) ((c : Thread nD τ).loc b))

/-! ## The windows' blocks -/

/-- Window `w`'s block at point `t`, read off its array as the region finds it. -/
def iblk39 (c : Dev nD) (w : Fin cfg39.W) (t : Fin cfg39.N) : ((cfg39.win w).xblock (cfg39.grid.coords t)).Idx → Elt F (cfg39.win w).elt :=
  ((cfg39.win w).blk t).view.read (Elt F) (V c (Pipeline.arrRef spec39 w))

/-! ## The body's accesses: each a whole staging buffer -/

abbrev r39_0 : Rect S6400x128 := Rect.unit (s := S6400x128) ![0, 0] S6400x128.size inb_S6400x128_S6400x128_0_0
abbrev r39_1 : Rect S6400x128 := Rect.unit (s := S6400x128) ![0, 0] S6400x128.size inb_S6400x128_S6400x128_0_0
abbrev r39_2 : Rect S128x2 := Rect.unit (s := S128x2) ![0, 0] S128x2.size inb_S128x2_S128x2_0_0
abbrev r39_3 : Rect S128x2 := Rect.unit (s := S128x2) ![0, 0] S128x2.size inb_S128x2_S128x2_0_0
abbrev r39_4 : Rect S1x2 := Rect.unit (s := S1x2) ![0, 0] S1x2.size inb_S1x2_S1x2_0_0
abbrev r39_5 : Rect S6400x2 := Rect.unit (s := S6400x2) ![0, 0] S6400x2.size inb_S6400x2_S6400x2_0_0

/-! ## What the body leaves in the output window's buffer -/

/-- The output block from the source block `x0`, the destination block `x1`, the weight halves `x2` and `x3` and the
    bias row `x4`: the body's one store, whose payload is the logistic function of `x0 · x2 + x1 · x3` plus the bias of
    each column, the products' operands rounded to bf16 and each product accumulated in f32 from zero. -/
def out39_5 (x0 : Vec F S6400x128 .f32) (x1 : Vec F S6400x128 .f32) (x2 : Vec F S128x2 .f32) (x3 : Vec F S128x2 .f32)
    (x4 : Vec F S1x2 .f32) : Vec F S6400x2 .f32 :=
  View.canon [⟨r39_5, k39_pay1 (View.ld x0 r39_0) (View.ld x1 r39_1) (View.ld x2 r39_2) (View.ld x3 r39_3) (View.ld x4 r39_4)⟩]

/-- The store is the whole block, so every element of the block lies in it. -/
theorem cover39_5 (p0 : Vec F S6400x2 .f32) (y : S6400x2.Idx) :
    ∃ pc ∈ ([⟨r39_5, p0⟩] : List (View.Piece (Elt F) S6400x2 .f32)), y ∈ pc.1.set :=
  View.cover_of_tiled [⟨r39_5, p0⟩] S6400x2.size (by rfl) y

/-! ## The body's triple -/

set_option maxHeartbeats 1000000 in
/-- The body on whole staging buffers — the five inputs' reading `x0` … `x4`, the output's holding anything — runs to
    the inputs' as they were and the output's reading `out39_5 x0 x1 x2 x3 x4`: five loads, a load of the output buffer
    whose value nothing reads, and one store over the whole output buffer. -/
theorem sound_kernel39 (c : Dev nD) (E : Set ℕ) (i : grid39.Coords)
    (arg1 : Memref sig .tc .vmem S6400x128 .f32) (harg1 : arg1.IsWhole)
    (arg2 : Memref sig .tc .vmem S6400x128 .f32) (harg2 : arg2.IsWhole)
    (arg3 : Memref sig .tc .vmem S128x2 .f32) (harg3 : arg3.IsWhole)
    (arg4 : Memref sig .tc .vmem S128x2 .f32) (harg4 : arg4.IsWhole)
    (arg5 : Memref sig .tc .vmem S1x2 .f32) (harg5 : arg5.IsWhole)
    (arg6 : Memref sig .tc .vmem S6400x2 .f32) (harg6 : arg6.IsWhole)
    (x0 : Vec F S6400x128 .f32) (x1 : Vec F S6400x128 .f32) (x2 : Vec F S128x2 .f32) (x3 : Vec F S128x2 .f32)
    (x4 : Vec F S1x2 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out39_5 x0 x1 x2 x3 x4)) -∗ K ⟨⟩))
      ⊢ wp frame (wpE (defs₀ (F := F)) Variants.none c none) E
          (cc39__classify_kernel i arg1 harg1 arg2 harg2 arg3 harg3 arg4 harg4 arg5 harg5 arg6 harg6) K := by
  simp only [cc39__classify_kernel_eq_skeleton]; unfold cc39__classify_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover39_5 _)

/-! ## The pipeline's proof data -/

/-- The proof data of pipeline 39 on core `c`: the arrays as the region finds them; after the body at point `t` each
    input's buffer at its block and the output's at `out39_5` of the five; the invariant the core's scoped buffers that
    are no staging buffer and its random-number generator register, untouched; nothing owed; full shares. -/
def dat39 (c : Dev nD) : Dat τ (Elt F) Unit ℕ (Pipeline.UD sig nD τ) ℕ cfg39 c where
  A w := V c (Pipeline.arrRef spec39 w)
  after w t := match w with
    | ⟨0, _⟩ => iblk39 V c 0 t
    | ⟨1, _⟩ => iblk39 V c 1 t
    | ⟨2, _⟩ => iblk39 V c 2 t
    | ⟨3, _⟩ => iblk39 V c 3 t
    | ⟨4, _⟩ => iblk39 V c 4 t
    | ⟨5, _⟩ => out39_5 (iblk39 V c 0 t) (iblk39 V c 1 t) (iblk39 V c 2 t) (iblk39 V c 3 t) (iblk39 V c 4 t)
  Φ _ := Pipeline.ΦA spec39 c
  q _ := fullShare
  owed _ := 0

/-- The data's arrays are the region-entry contents. -/
theorem A_eq39 (c : Dev nD) (w : Fin cfg39.W) : (dat39 V c).A w = V c (Pipeline.arrRef spec39 w) := by
  dsimp only [dat39]

/-- What the body leaves, window by window. -/
theorem after39_0 (c : Dev nD) (t : Fin cfg39.N) : (dat39 V c).after 0 t = iblk39 V c 0 t := by dsimp only [dat39]
theorem after39_1 (c : Dev nD) (t : Fin cfg39.N) : (dat39 V c).after 1 t = iblk39 V c 1 t := by dsimp only [dat39]
theorem after39_2 (c : Dev nD) (t : Fin cfg39.N) : (dat39 V c).after 2 t = iblk39 V c 2 t := by dsimp only [dat39]
theorem after39_3 (c : Dev nD) (t : Fin cfg39.N) : (dat39 V c).after 3 t = iblk39 V c 3 t := by dsimp only [dat39]
theorem after39_4 (c : Dev nD) (t : Fin cfg39.N) : (dat39 V c).after 4 t = iblk39 V c 4 t := by dsimp only [dat39]
theorem after39_5 (c : Dev nD) (t : Fin cfg39.N) :
    (dat39 V c).after 5 t = out39_5 (iblk39 V c 0 t) (iblk39 V c 1 t) (iblk39 V c 2 t) (iblk39 V c 3 t) (iblk39 V c 4 t) := by
  dsimp only [dat39]

/-- The source window's current buffer holds its block at every point: the body leaves the block in place, and where
    the pipeline does not fetch, the block index has not moved. -/
theorem before39_0 (c : Dev nD) (t : Fin cfg39.N) (d) : (dat39 V c).before 0 t d = iblk39 V c 0 t :=
  ((dat39 V c).before_in_eq_fetched 0 rfl (fun _ => rfl) (fun _ _ _ => rfl)
      (fun t => by rw [after39_0]; unfold Dat.blockOf iblk39; rw [A_eq39]; try rfl) t d).trans
    (by unfold Dat.fetched Dat.blockOf iblk39; rw [A_eq39]; try rfl)

/-- The destination window's likewise. -/
theorem before39_1 (c : Dev nD) (t : Fin cfg39.N) (d) : (dat39 V c).before 1 t d = iblk39 V c 1 t :=
  ((dat39 V c).before_in_eq_fetched 1 rfl (fun _ => rfl) (fun _ _ _ => rfl)
      (fun t => by rw [after39_1]; unfold Dat.blockOf iblk39; rw [A_eq39]; try rfl) t d).trans
    (by unfold Dat.fetched Dat.blockOf iblk39; rw [A_eq39]; try rfl)

/-- The first weight half's: fetched at the first point only, its one block is every point's. -/
theorem before39_2 (c : Dev nD) (t : Fin cfg39.N) (d) : (dat39 V c).before 2 t d = iblk39 V c 2 t :=
  ((dat39 V c).before_in_eq_fetched 2 rfl (fun _ => rfl) (fun _ _ _ => rfl)
      (fun t => by rw [after39_2]; unfold Dat.blockOf iblk39; rw [A_eq39]; try rfl) t d).trans
    (by unfold Dat.fetched Dat.blockOf iblk39; rw [A_eq39]; try rfl)

/-- The second weight half's likewise. -/
theorem before39_3 (c : Dev nD) (t : Fin cfg39.N) (d) : (dat39 V c).before 3 t d = iblk39 V c 3 t :=
  ((dat39 V c).before_in_eq_fetched 3 rfl (fun _ => rfl) (fun _ _ _ => rfl)
      (fun t => by rw [after39_3]; unfold Dat.blockOf iblk39; rw [A_eq39]; try rfl) t d).trans
    (by unfold Dat.fetched Dat.blockOf iblk39; rw [A_eq39]; try rfl)

/-- The bias window's likewise. -/
theorem before39_4 (c : Dev nD) (t : Fin cfg39.N) (d) : (dat39 V c).before 4 t d = iblk39 V c 4 t :=
  ((dat39 V c).before_in_eq_fetched 4 rfl (fun _ => rfl) (fun _ _ _ => rfl)
      (fun t => by rw [after39_4]; unfold Dat.blockOf iblk39; rw [A_eq39]; try rfl) t d).trans
    (by unfold Dat.fetched Dat.blockOf iblk39; rw [A_eq39]; try rfl)

/-! ## The body obligation, at a generic point -/

/-- What the body is called with at point `t`: the invariant, the core's dues, each window's current buffer, -/
def bodyPre39 (c : Dev nD) (t : Fin cfg39.N) : sProp 𝕄 :=
  iprop((dat39 V c).Φ t.castSucc ∗ (dat39 V c).owesAt () t.castSucc
    ∗ (∃ d, owns (c : Thread nD τ) (st39_0 t) fullShare ((dat39 V c).before 0 t d))
    ∗ (∃ d, owns (c : Thread nD τ) (st39_1 t) fullShare ((dat39 V c).before 1 t d))
    ∗ (∃ d, owns (c : Thread nD τ) (st39_2 t) fullShare ((dat39 V c).before 2 t d))
    ∗ (∃ d, owns (c : Thread nD τ) (st39_3 t) fullShare ((dat39 V c).before 3 t d))
    ∗ (∃ d, owns (c : Thread nD τ) (st39_4 t) fullShare ((dat39 V c).before 4 t d))
    ∗ (∃ d, owns (c : Thread nD τ) (st39_5 t) fullShare ((dat39 V c).before 5 t d)))

/-- and what it returns. -/
def bodyPost39 (c : Dev nD) (t : Fin cfg39.N) : sProp 𝕄 :=
  iprop((dat39 V c).Φ t.succ ∗ (dat39 V c).owesAt () t.succ
    ∗ owns (c : Thread nD τ) (st39_0 t) fullShare ((dat39 V c).after 0 t)
    ∗ owns (c : Thread nD τ) (st39_1 t) fullShare ((dat39 V c).after 1 t)
    ∗ owns (c : Thread nD τ) (st39_2 t) fullShare ((dat39 V c).after 2 t)
    ∗ owns (c : Thread nD τ) (st39_3 t) fullShare ((dat39 V c).after 3 t)
    ∗ owns (c : Thread nD τ) (st39_4 t) fullShare ((dat39 V c).after 4 t)
    ∗ owns (c : Thread nD τ) (st39_5 t) fullShare ((dat39 V c).after 5 t))

/-- The body at any point: the inputs' buffers hold their blocks, so the body's triple applies; the invariant and the
    core's dues pass through unread. -/
theorem sound_body39 (c : Dev nD) (t : Fin cfg39.N) :
    bodyPre39 V c t ⊢ wp frame (wpE (defs₀ (F := F)) Variants.none c none) Set.univ (bodyAt39 t) (fun _ => bodyPost39 V c t) := by
  unfold bodyPre39 bodyPost39 bodyAt39
  simp only [before39_0, before39_1, before39_2, before39_3, before39_4]
  rw [show (dat39 V c).Φ t.succ = (dat39 V c).Φ t.castSucc from rfl,
    show (dat39 V c).owesAt () t.succ = (dat39 V c).owesAt () t.castSucc from rfl,
    after39_0, after39_1, after39_2, after39_3, after39_4, after39_5]
  iintro ⟨HΦ, Ho, ⟨%d0, H0⟩, ⟨%d1, H1⟩, ⟨%d2, H2⟩, ⟨%d3, H3⟩, ⟨%d4, H4⟩, ⟨%d5, H5⟩⟩
  iapply (sound_kernel39 c Set.univ _ _ _ _ _ _ _ _ _ _ _ _ _
    (iblk39 V c 0 t) (iblk39 V c 1 t) (iblk39 V c 2 t) (iblk39 V c 3 t) (iblk39 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation of pipeline 39, at every point. -/
theorem body_obligation39 (c : Dev nD) : BodyObligation (dat39 (F := F) V c) (defs₀ (F := F)) Variants.none () Set.univ := fun t => by
  rw [bigSep_W39, bigSep_W39]
  exact sound_body39 V c t

end Cert.Kernel.Hand

end
-- ==== Proof.K.Gather1.lean ====
/-
  The row-gather region 1 of the kernel's program: its proof data and the facts the launch takes.

  Region 1 copies, at grid point t, the eight rows  A[tbl (8 t + j)]  (j < 8) of the 50000 x 128 array A it finds in
  HBM into the eight rows of its 8 x 128 output block; tbl is the region's index table of 85000 words, held in SMEM, and
  A is read only. So after the region the output array's row r is A's row tbl r. The body moves the rows by transfers
  of its own on eight semaphores of its own, all waited for before the point ends: between two points nothing is in
  flight, the table and A are as the region found them, and the semaphores are at zero. That is the region's invariant.
-/
import proofs.«402049_j87351044866139_2_alg».proof.Proof.Gen.Kernel.Launch
import proofs.«402049_j87351044866139_2_alg».proof.Proof.Gen.Kernel.Skeleton
import proofs.«402049_j87351044866139_2_alg».proof.Proof.Gen.Kernel.Points
import Idealize.ShloMosaic.Lib.Pipeline.Frame
import Idealize.ShloMosaic.Lib.Pipeline.FrameBody
import Idealize.ShloMosaic.Lib.Pipeline.RegionsLoop
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.Kernel Cert.Kernel.Gen

variable {F : FTy → Type} [FloatOps F]

local notation "𝕄" => MT nD τ sig Unit (Elt F) ℕ (Pipeline.UD sig nD τ) ℕ

/-- The eight semaphores the body's row transfers signal. -/
abbrev osem1 : Fin 8 → SemLoc sig := fun j =>
  (![SemLoc.dma 7, SemLoc.dma 8, SemLoc.dma 9, SemLoc.dma 10, SemLoc.dma 11, SemLoc.dma 12, SemLoc.dma 13, SemLoc.dma 14] : Fin 8 → SemLoc sig) j
theorem ownSemFacts1 : Pipeline.OwnSemFacts spec1 osem1 := by decide

/-- The array the rows are read from: left in HBM, no window's array and no table. -/
def H1 : Finset (Ref sig .tc) := {main_v33}
theorem H1_sub : H1 ⊆ Pipeline.restRefsP sig pre1 spec1 := by decide

variable (V : (c : Dev nD) → (b : Ref sig .tc) → Buf (Elt F) ((c : Thread nD τ).loc b))
variable (a1 : (pcfg1 (F := F)).Adm)
variable (gblk : (c : Dev nD) → Fin (cfg1 a1).N → S8x128.Idx → Elt F .f32)

/-- The region's proof data on core c: the output array as the region finds it; after point t the output block holds
    the eight gathered rows; the invariant above; full shares; nothing owed. -/
def datG1 (c : Dev nD) : Dat τ (Elt F) Unit ℕ (Pipeline.UD sig nD τ) ℕ (cfg1 a1) c where
  A w := V c (Pipeline.arrRef spec1 w)
  after w t := match w with
    | ⟨0, _⟩ => gblk c t
  Φ _ := iprop(Pipeline.ΦD osem1 spec1 H1 V c ∗ Pipeline.prefHeld pre1 c (fun _ => fullShare) a1.1)
  q _ := fullShare
  owed _ := 0

theorem A_eqG1 (c : Dev nD) (w : Fin (cfg1 a1).W) : (datG1 V a1 gblk c).A w = V c (Pipeline.arrRef spec1 w) := by
  dsimp only [datG1]
theorem afterG1_0 (c : Dev nD) (t : Fin (cfg1 a1).N) : (datG1 V a1 gblk c).after 0 t = gblk c t := rfl

/-! ## The region's protocol around the thread states

  Between two items of the program core c holds every unscoped buffer whole, beside its generator register and a record
  that it owes nothing. Entering the region, the output array goes to the pipeline, the table is handed over at its
  contents, the array A and the eight semaphores join the register in what the invariant takes (X), and the other
  buffers wait outside (Z). Leaving it, everything comes back: A and the table as they were. -/

/-- What the invariant takes at the first point beside the table and the scoped buffers. -/
def XG1 (c : Dev nD) : sProp 𝕄 :=
  iprop((∃ r, prngReg c r)
    ∗ Pipeline.ownSems0 (Ix := Unit) (Name := ℕ) (U := Pipeline.UD sig nD τ) (Lvl := ℕ) (Val := Elt F) (τ := τ) osem1 c
    ∗ bigSep H1 fun b => ((c.tc : Thread nD τ).loc b) ↦{fullShare} V c b)
/-- What it gives back at the last point beside the semaphores and the scoped buffers. -/
def YG1 (c : Dev nD) : sProp 𝕄 :=
  iprop((∃ r, prngReg c r) ∗ (bigSep H1 fun b => ((c.tc : Thread nD τ).loc b) ↦{fullShare} V c b)
    ∗ Pipeline.prefHeld pre1 c (fun _ => fullShare) a1.1)
/-- The unscoped buffers the region does not touch. -/
def ZG1 (c : Dev nD) : sProp 𝕄 :=
  bigSep (Pipeline.restRefsP sig pre1 spec1 \ H1) fun b => ((c.tc : Thread nD τ).loc b) ↦{fullShare} V c b

theorem hinG1 (c : Dev nD) :
    iprop(XG1 V c ∗ Pipeline.prefHeld pre1 c (fun _ => fullShare) a1.1
        ∗ Pipeline.scopedRest (Ix := Unit) (Name := ℕ) (U := Pipeline.UD sig nD τ) (Lvl := ℕ) (Val := Elt F) spec1 c)
      ⊢ (datG1 V a1 gblk c).Φ 0 := by
  rw [show (datG1 V a1 gblk c).Φ 0 = iprop(Pipeline.ΦD osem1 spec1 H1 V c ∗ Pipeline.prefHeld pre1 c (fun _ => fullShare) a1.1) from rfl,
    Pipeline.ΦD_eq]
  unfold XG1
  iintro ⟨⟨Hp, Hs, Hh⟩, Ht, Hr⟩
  isplitl [Hr Hp Hs Hh]
  · isplitl [Hr]; · iexact Hr
    isplitl [Hp]; · iexact Hp
    isplitl [Hs]; · iexact Hs
    iexact Hh
  iexact Ht

theorem houtG1 (c : Dev nD) :
    (datG1 V a1 gblk c).Φ (Fin.last (cfg1 a1).N)
      ⊢ iprop(YG1 V a1 c
          ∗ Pipeline.ownSems0 (Ix := Unit) (Name := ℕ) (U := Pipeline.UD sig nD τ) (Lvl := ℕ) (Val := Elt F) (τ := τ) osem1 c
          ∗ Pipeline.scopedRest (Ix := Unit) (Name := ℕ) (U := Pipeline.UD sig nD τ) (Lvl := ℕ) (Val := Elt F) spec1 c) := by
  rw [show (datG1 V a1 gblk c).Φ (Fin.last (cfg1 a1).N) = iprop(Pipeline.ΦD osem1 spec1 H1 V c ∗ Pipeline.prefHeld pre1 c (fun _ => fullShare) a1.1) from rfl,
    Pipeline.ΦD_eq]
  unfold YG1
  iintro ⟨⟨Hr, Hp, Hs, Hh⟩, Ht⟩
  isplitl [Hp Hh Ht]
  · isplitl [Hp]; · iexact Hp
    isplitl [Hh]; · iexact Hh
    iexact Ht
  isplitl [Hs]; · iexact Hs
  iexact Hr

/-- ENTRY. `hsplit` is the library's split of the held buffers into the pipeline's array and the rest, at this data. -/
theorem hentryG1 (c : Dev nD) (hpf : (fun k => V c (pre1.ref k)) = a1.1)
    (hsplit : (unscopedBufs c (V c) : sProp 𝕄)
      ⊢ iprop((datG1 V a1 gblk c).arrays ((datG1 V a1 gblk c).arrAt · 0) ∗ Pipeline.unscopedRest spec1 c (V c))) :
    iprop((unscopedBufs c (V c) ∗ (∃ r, prngReg c r) ∗ ∃ W, owes (c : Thread nD τ) (0 : CellTallies nD τ sig Unit) W)
        ∗ Pipeline.ownSems0 (Ix := Unit) (Name := ℕ) (U := Pipeline.UD sig nD τ) (Lvl := ℕ) (Val := Elt F) (τ := τ) osem1 c
        ∗ levAts (fun _ : GSem nD τ sig => (∅ : Finset Unit)) (fun _ _ => (0 : ℕ)))
      ⊢ (|={Set.univ}=> iprop((datG1 V a1 gblk c).arrays ((datG1 V a1 gblk c).arrAt · 0)
          ∗ Pipeline.prefHeld pre1 c (fun _ => fullShare) a1.1
          ∗ (datG1 V a1 gblk c).owesAt () 0 ∗ XG1 V c ∗ ZG1 V c) : sProp 𝕄) := by
  have hrest := Pipeline.unscopedRest_split (Ix := Unit) (Name := ℕ) (U := Pipeline.UD sig nD τ) (Lvl := ℕ) preFacts1 c (V c)
  rw [hpf, Pipeline.unscopedRestP_sdiff pre1 spec1 H1 H1_sub c (V c)] at hrest
  rw [hrest] at hsplit
  iintro ⟨⟨Hub, Hp, HO⟩, Hs, -⟩
  ihave H := hsplit $$ Hub
  icases H with ⟨Ha, Ht, Hh, Hz⟩
  imodintro
  isplitl [Ha]; · iexact Ha
  isplitl [Ht]; · iexact Ht
  isplitl [HO]
  · unfold Pipeline.Dat.owesAt Pipeline.owesWithin
    icases HO with ⟨%W, HO⟩; iexists W; isplitr; · ipureintro; exact fun _ _ => Or.inl trivial
    iexact HO
  unfold XG1 ZG1
  isplitl [Hp Hs Hh]
  · isplitl [Hp]; · iexact Hp
    isplitl [Hs]; · iexact Hs
    iexact Hh
  iexact Hz

variable (Vn : (c : Dev nD) → (b : Ref sig .tc) → Buf (Elt F) ((c : Thread nD τ).loc b))

/-- EXIT. `hjoin` is the library's rejoining of the pipeline's array at its final contents with the rest, at this data. -/
theorem hexitG1 (c : Dev nD) (hpf : (fun k => V c (pre1.ref k)) = a1.1)
    (hjoin : iprop((datG1 V a1 gblk c).arrays ((datG1 V a1 gblk c).arrAt · (cfg1 a1).N) ∗ Pipeline.unscopedRest spec1 c (V c))
      ⊢ (unscopedBufs c (Vn c) : sProp 𝕄)) :
    iprop((datG1 V a1 gblk c).arrays ((datG1 V a1 gblk c).arrAt · (cfg1 a1).N)
        ∗ (datG1 V a1 gblk c).owesAt () (Fin.last (cfg1 a1).N) ∗ YG1 V a1 c ∗ ZG1 V c)
      ⊢ (|={Set.univ}=> iprop(unscopedBufs c (Vn c) ∗ (∃ r, prngReg c r) ∗ ∃ W, owes (c : Thread nD τ) (0 : CellTallies nD τ sig Unit) W) : sProp 𝕄) := by
  have hrest := Pipeline.unscopedRest_split (Ix := Unit) (Name := ℕ) (U := Pipeline.UD sig nD τ) (Lvl := ℕ) preFacts1 c (V c)
  rw [hpf, Pipeline.unscopedRestP_sdiff pre1 spec1 H1 H1_sub c (V c)] at hrest
  rw [hrest] at hjoin
  unfold YG1 ZG1
  iintro ⟨Ha, HO, ⟨Hp, Hh, Ht⟩, Hz⟩
  imodintro
  isplitl [Ha Hh Ht Hz]
  · iapply hjoin
    isplitl [Ha]; · iexact Ha
    isplitl [Ht]; · iexact Ht
    isplitl [Hh]; · iexact Hh
    iexact Hz
  isplitl [Hp]; · iexact Hp
  unfold Pipeline.Dat.owesAt Pipeline.owesWithin
  icases HO with ⟨%W, -, HO⟩; iexists W; iexact HO

end Cert.Kernel.Hand

end
-- ==== Proof.K.Gather2.lean ====
/-
  The row-gather region 2 of the kernel's program: its proof data and the facts the launch takes.

  Region 2 copies, at grid point t, the eight rows  A[tbl (8 t + j)]  (j < 8) of the 50000 x 128 array A it finds in
  HBM into the eight rows of its 8 x 128 output block; tbl is the region's index table of 85000 words, held in SMEM, and
  A is read only. So after the region the output array's row r is A's row tbl r. The body moves the rows by transfers
  of its own on eight semaphores of its own, all waited for before the point ends: between two points nothing is in
  flight, the table and A are as the region found them, and the semaphores are at zero. That is the region's invariant.
-/
import proofs.«402049_j87351044866139_2_alg».proof.Proof.Gen.Kernel.Launch
import proofs.«402049_j87351044866139_2_alg».proof.Proof.Gen.Kernel.Skeleton
import proofs.«402049_j87351044866139_2_alg».proof.Proof.Gen.Kernel.Points
import Idealize.ShloMosaic.Lib.Pipeline.Frame
import Idealize.ShloMosaic.Lib.Pipeline.FrameBody
import Idealize.ShloMosaic.Lib.Pipeline.RegionsLoop
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.Kernel Cert.Kernel.Gen

variable {F : FTy → Type} [FloatOps F]

local notation "𝕄" => MT nD τ sig Unit (Elt F) ℕ (Pipeline.UD sig nD τ) ℕ

/-- The eight semaphores the body's row transfers signal. -/
abbrev osem2 : Fin 8 → SemLoc sig := fun j =>
  (![SemLoc.dma 17, SemLoc.dma 18, SemLoc.dma 19, SemLoc.dma 20, SemLoc.dma 21, SemLoc.dma 22, SemLoc.dma 23, SemLoc.dma 24] : Fin 8 → SemLoc sig) j
theorem ownSemFacts2 : Pipeline.OwnSemFacts spec2 osem2 := by decide

/-- The array the rows are read from: left in HBM, no window's array and no table. -/
def H2 : Finset (Ref sig .tc) := {main_v33}
theorem H2_sub : H2 ⊆ Pipeline.restRefsP sig pre2 spec2 := by decide

variable (V : (c : Dev nD) → (b : Ref sig .tc) → Buf (Elt F) ((c : Thread nD τ).loc b))
variable (a2 : (pcfg2 (F := F)).Adm)
variable (gblk : (c : Dev nD) → Fin (cfg2 a2).N → S8x128.Idx → Elt F .f32)

/-- The region's proof data on core c: the output array as the region finds it; after point t the output block holds
    the eight gathered rows; the invariant above; full shares; nothing owed. -/
def datG2 (c : Dev nD) : Dat τ (Elt F) Unit ℕ (Pipeline.UD sig nD τ) ℕ (cfg2 a2) c where
  A w := V c (Pipeline.arrRef spec2 w)
  after w t := match w with
    | ⟨0, _⟩ => gblk c t
  Φ _ := iprop(Pipeline.ΦD osem2 spec2 H2 V c ∗ Pipeline.prefHeld pre2 c (fun _ => fullShare) a2.1)
  q _ := fullShare
  owed _ := 0

theorem A_eqG2 (c : Dev nD) (w : Fin (cfg2 a2).W) : (datG2 V a2 gblk c).A w = V c (Pipeline.arrRef spec2 w) := by
  dsimp only [datG2]
theorem afterG2_0 (c : Dev nD) (t : Fin (cfg2 a2).N) : (datG2 V a2 gblk c).after 0 t = gblk c t := rfl

/-! ## The region's protocol around the thread states

  Between two items of the program core c holds every unscoped buffer whole, beside its generator register and a record
  that it owes nothing. Entering the region, the output array goes to the pipeline, the table is handed over at its
  contents, the array A and the eight semaphores join the register in what the invariant takes (X), and the other
  buffers wait outside (Z). Leaving it, everything comes back: A and the table as they were. -/

/-- What the invariant takes at the first point beside the table and the scoped buffers. -/
def XG2 (c : Dev nD) : sProp 𝕄 :=
  iprop((∃ r, prngReg c r)
    ∗ Pipeline.ownSems0 (Ix := Unit) (Name := ℕ) (U := Pipeline.UD sig nD τ) (Lvl := ℕ) (Val := Elt F) (τ := τ) osem2 c
    ∗ bigSep H2 fun b => ((c.tc : Thread nD τ).loc b) ↦{fullShare} V c b)
/-- What it gives back at the last point beside the semaphores and the scoped buffers. -/
def YG2 (c : Dev nD) : sProp 𝕄 :=
  iprop((∃ r, prngReg c r) ∗ (bigSep H2 fun b => ((c.tc : Thread nD τ).loc b) ↦{fullShare} V c b)
    ∗ Pipeline.prefHeld pre2 c (fun _ => fullShare) a2.1)
/-- The unscoped buffers the region does not touch. -/
def ZG2 (c : Dev nD) : sProp 𝕄 :=
  bigSep (Pipeline.restRefsP sig pre2 spec2 \ H2) fun b => ((c.tc : Thread nD τ).loc b) ↦{fullShare} V c b

theorem hinG2 (c : Dev nD) :
    iprop(XG2 V c ∗ Pipeline.prefHeld pre2 c (fun _ => fullShare) a2.1
        ∗ Pipeline.scopedRest (Ix := Unit) (Name := ℕ) (U := Pipeline.UD sig nD τ) (Lvl := ℕ) (Val := Elt F) spec2 c)
      ⊢ (datG2 V a2 gblk c).Φ 0 := by
  rw [show (datG2 V a2 gblk c).Φ 0 = iprop(Pipeline.ΦD osem2 spec2 H2 V c ∗ Pipeline.prefHeld pre2 c (fun _ => fullShare) a2.1) from rfl,
    Pipeline.ΦD_eq]
  unfold XG2
  iintro ⟨⟨Hp, Hs, Hh⟩, Ht, Hr⟩
  isplitl [Hr Hp Hs Hh]
  · isplitl [Hr]; · iexact Hr
    isplitl [Hp]; · iexact Hp
    isplitl [Hs]; · iexact Hs
    iexact Hh
  iexact Ht

theorem houtG2 (c : Dev nD) :
    (datG2 V a2 gblk c).Φ (Fin.last (cfg2 a2).N)
      ⊢ iprop(YG2 V a2 c
          ∗ Pipeline.ownSems0 (Ix := Unit) (Name := ℕ) (U := Pipeline.UD sig nD τ) (Lvl := ℕ) (Val := Elt F) (τ := τ) osem2 c
          ∗ Pipeline.scopedRest (Ix := Unit) (Name := ℕ) (U := Pipeline.UD sig nD τ) (Lvl := ℕ) (Val := Elt F) spec2 c) := by
  rw [show (datG2 V a2 gblk c).Φ (Fin.last (cfg2 a2).N) = iprop(Pipeline.ΦD osem2 spec2 H2 V c ∗ Pipeline.prefHeld pre2 c (fun _ => fullShare) a2.1) from rfl,
    Pipeline.ΦD_eq]
  unfold YG2
  iintro ⟨⟨Hr, Hp, Hs, Hh⟩, Ht⟩
  isplitl [Hp Hh Ht]
  · isplitl [Hp]; · iexact Hp
    isplitl [Hh]; · iexact Hh
    iexact Ht
  isplitl [Hs]; · iexact Hs
  iexact Hr

/-- ENTRY. `hsplit` is the library's split of the held buffers into the pipeline's array and the rest, at this data. -/
theorem hentryG2 (c : Dev nD) (hpf : (fun k => V c (pre2.ref k)) = a2.1)
    (hsplit : (unscopedBufs c (V c) : sProp 𝕄)
      ⊢ iprop((datG2 V a2 gblk c).arrays ((datG2 V a2 gblk c).arrAt · 0) ∗ Pipeline.unscopedRest spec2 c (V c))) :
    iprop((unscopedBufs c (V c) ∗ (∃ r, prngReg c r) ∗ ∃ W, owes (c : Thread nD τ) (0 : CellTallies nD τ sig Unit) W)
        ∗ Pipeline.ownSems0 (Ix := Unit) (Name := ℕ) (U := Pipeline.UD sig nD τ) (Lvl := ℕ) (Val := Elt F) (τ := τ) osem2 c
        ∗ levAts (fun _ : GSem nD τ sig => (∅ : Finset Unit)) (fun _ _ => (0 : ℕ)))
      ⊢ (|={Set.univ}=> iprop((datG2 V a2 gblk c).arrays ((datG2 V a2 gblk c).arrAt · 0)
          ∗ Pipeline.prefHeld pre2 c (fun _ => fullShare) a2.1
          ∗ (datG2 V a2 gblk c).owesAt () 0 ∗ XG2 V c ∗ ZG2 V c) : sProp 𝕄) := by
  have hrest := Pipeline.unscopedRest_split (Ix := Unit) (Name := ℕ) (U := Pipeline.UD sig nD τ) (Lvl := ℕ) preFacts2 c (V c)
  rw [hpf, Pipeline.unscopedRestP_sdiff pre2 spec2 H2 H2_sub c (V c)] at hrest
  rw [hrest] at hsplit
  iintro ⟨⟨Hub, Hp, HO⟩, Hs, -⟩
  ihave H := hsplit $$ Hub
  icases H with ⟨Ha, Ht, Hh, Hz⟩
  imodintro
  isplitl [Ha]; · iexact Ha
  isplitl [Ht]; · iexact Ht
  isplitl [HO]
  · unfold Pipeline.Dat.owesAt Pipeline.owesWithin
    icases HO with ⟨%W, HO⟩; iexists W; isplitr; · ipureintro; exact fun _ _ => Or.inl trivial
    iexact HO
  unfold XG2 ZG2
  isplitl [Hp Hs Hh]
  · isplitl [Hp]; · iexact Hp
    isplitl [Hs]; · iexact Hs
    iexact Hh
  iexact Hz

variable (Vn : (c : Dev nD) → (b : Ref sig .tc) → Buf (Elt F) ((c : Thread nD τ).loc b))

/-- EXIT. `hjoin` is the library's rejoining of the pipeline's array at its final contents with the rest, at this data. -/
theorem hexitG2 (c : Dev nD) (hpf : (fun k => V c (pre2.ref k)) = a2.1)
    (hjoin : iprop((datG2 V a2 gblk c).arrays ((datG2 V a2 gblk c).arrAt · (cfg2 a2).N) ∗ Pipeline.unscopedRest spec2 c (V c))
      ⊢ (unscopedBufs c (Vn c) : sProp 𝕄)) :
    iprop((datG2 V a2 gblk c).arrays ((datG2 V a2 gblk c).arrAt · (cfg2 a2).N)
        ∗ (datG2 V a2 gblk c).owesAt () (Fin.last (cfg2 a2).N) ∗ YG2 V a2 c ∗ ZG2 V c)
      ⊢ (|={Set.univ}=> iprop(unscopedBufs c (Vn c) ∗ (∃ r, prngReg c r) ∗ ∃ W, owes (c : Thread nD τ) (0 : CellTallies nD τ sig Unit) W) : sProp 𝕄) := by
  have hrest := Pipeline.unscopedRest_split (Ix := Unit) (Name := ℕ) (U := Pipeline.UD sig nD τ) (Lvl := ℕ) preFacts2 c (V c)
  rw [hpf, Pipeline.unscopedRestP_sdiff pre2 spec2 H2 H2_sub c (V c)] at hrest
  rw [hrest] at hjoin
  unfold YG2 ZG2
  iintro ⟨Ha, HO, ⟨Hp, Hh, Ht⟩, Hz⟩
  imodintro
  isplitl [Ha Hh Ht Hz]
  · iapply hjoin
    isplitl [Ha]; · iexact Ha
    isplitl [Ht]; · iexact Ht
    isplitl [Hh]; · iexact Hh
    iexact Hz
  isplitl [Hp]; · iexact Hp
  unfold Pipeline.Dat.owesAt Pipeline.owesWithin
  icases HO with ⟨%W, -, HO⟩; iexists W; iexact HO

end Cert.Kernel.Hand

end
-- ==== Proof.K.Gather3.lean ====
/-
  The row-gather region 3 of the kernel's program: its proof data and the facts the launch takes.

  Region 3 copies, at grid point t, the eight rows  A[tbl (8 t + j)]  (j < 8) of the 50000 x 128 array A it finds in
  HBM into the eight rows of its 8 x 128 output block; tbl is the region's index table of 85000 words, held in SMEM, and
  A is read only. So after the region the output array's row r is A's row tbl r. The body moves the rows by transfers
  of its own on eight semaphores of its own, all waited for before the point ends: between two points nothing is in
  flight, the table and A are as the region found them, and the semaphores are at zero. That is the region's invariant.
-/
import proofs.«402049_j87351044866139_2_alg».proof.Proof.Gen.Kernel.Launch
import proofs.«402049_j87351044866139_2_alg».proof.Proof.Gen.Kernel.Skeleton
import proofs.«402049_j87351044866139_2_alg».proof.Proof.Gen.Kernel.Points
import Idealize.ShloMosaic.Lib.Pipeline.Frame
import Idealize.ShloMosaic.Lib.Pipeline.FrameBody
import Idealize.ShloMosaic.Lib.Pipeline.RegionsLoop
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.Kernel Cert.Kernel.Gen

variable {F : FTy → Type} [FloatOps F]

local notation "𝕄" => MT nD τ sig Unit (Elt F) ℕ (Pipeline.UD sig nD τ) ℕ

/-- The eight semaphores the body's row transfers signal. -/
abbrev osem3 : Fin 8 → SemLoc sig := fun j =>
  (![SemLoc.dma 27, SemLoc.dma 28, SemLoc.dma 29, SemLoc.dma 30, SemLoc.dma 31, SemLoc.dma 32, SemLoc.dma 33, SemLoc.dma 34] : Fin 8 → SemLoc sig) j
theorem ownSemFacts3 : Pipeline.OwnSemFacts spec3 osem3 := by decide

/-- The array the rows are read from: left in HBM, no window's array and no table. -/
def H3 : Finset (Ref sig .tc) := {main_v33}
theorem H3_sub : H3 ⊆ Pipeline.restRefsP sig pre3 spec3 := by decide

variable (V : (c : Dev nD) → (b : Ref sig .tc) → Buf (Elt F) ((c : Thread nD τ).loc b))
variable (a3 : (pcfg3 (F := F)).Adm)
variable (gblk : (c : Dev nD) → Fin (cfg3 a3).N → S8x128.Idx → Elt F .f32)

/-- The region's proof data on core c: the output array as the region finds it; after point t the output block holds
    the eight gathered rows; the invariant above; full shares; nothing owed. -/
def datG3 (c : Dev nD) : Dat τ (Elt F) Unit ℕ (Pipeline.UD sig nD τ) ℕ (cfg3 a3) c where
  A w := V c (Pipeline.arrRef spec3 w)
  after w t := match w with
    | ⟨0, _⟩ => gblk c t
  Φ _ := iprop(Pipeline.ΦD osem3 spec3 H3 V c ∗ Pipeline.prefHeld pre3 c (fun _ => fullShare) a3.1)
  q _ := fullShare
  owed _ := 0

theorem A_eqG3 (c : Dev nD) (w : Fin (cfg3 a3).W) : (datG3 V a3 gblk c).A w = V c (Pipeline.arrRef spec3 w) := by
  dsimp only [datG3]
theorem afterG3_0 (c : Dev nD) (t : Fin (cfg3 a3).N) : (datG3 V a3 gblk c).after 0 t = gblk c t := rfl

/-! ## The region's protocol around the thread states

  Between two items of the program core c holds every unscoped buffer whole, beside its generator register and a record
  that it owes nothing. Entering the region, the output array goes to the pipeline, the table is handed over at its
  contents, the array A and the eight semaphores join the register in what the invariant takes (X), and the other
  buffers wait outside (Z). Leaving it, everything comes back: A and the table as they were. -/

/-- What the invariant takes at the first point beside the table and the scoped buffers. -/
def XG3 (c : Dev nD) : sProp 𝕄 :=
  iprop((∃ r, prngReg c r)
    ∗ Pipeline.ownSems0 (Ix := Unit) (Name := ℕ) (U := Pipeline.UD sig nD τ) (Lvl := ℕ) (Val := Elt F) (τ := τ) osem3 c
    ∗ bigSep H3 fun b => ((c.tc : Thread nD τ).loc b) ↦{fullShare} V c b)
/-- What it gives back at the last point beside the semaphores and the scoped buffers. -/
def YG3 (c : Dev nD) : sProp 𝕄 :=
  iprop((∃ r, prngReg c r) ∗ (bigSep H3 fun b => ((c.tc : Thread nD τ).loc b) ↦{fullShare} V c b)
    ∗ Pipeline.prefHeld pre3 c (fun _ => fullShare) a3.1)
/-- The unscoped buffers the region does not touch. -/
def ZG3 (c : Dev nD) : sProp 𝕄 :=
  bigSep (Pipeline.restRefsP sig pre3 spec3 \ H3) fun b => ((c.tc : Thread nD τ).loc b) ↦{fullShare} V c b

theorem hinG3 (c : Dev nD) :
    iprop(XG3 V c ∗ Pipeline.prefHeld pre3 c (fun _ => fullShare) a3.1
        ∗ Pipeline.scopedRest (Ix := Unit) (Name := ℕ) (U := Pipeline.UD sig nD τ) (Lvl := ℕ) (Val := Elt F) spec3 c)
      ⊢ (datG3 V a3 gblk c).Φ 0 := by
  rw [show (datG3 V a3 gblk c).Φ 0 = iprop(Pipeline.ΦD osem3 spec3 H3 V c ∗ Pipeline.prefHeld pre3 c (fun _ => fullShare) a3.1) from rfl,
    Pipeline.ΦD_eq]
  unfold XG3
  iintro ⟨⟨Hp, Hs, Hh⟩, Ht, Hr⟩
  isplitl [Hr Hp Hs Hh]
  · isplitl [Hr]; · iexact Hr
    isplitl [Hp]; · iexact Hp
    isplitl [Hs]; · iexact Hs
    iexact Hh
  iexact Ht

theorem houtG3 (c : Dev nD) :
    (datG3 V a3 gblk c).Φ (Fin.last (cfg3 a3).N)
      ⊢ iprop(YG3 V a3 c
          ∗ Pipeline.ownSems0 (Ix := Unit) (Name := ℕ) (U := Pipeline.UD sig nD τ) (Lvl := ℕ) (Val := Elt F) (τ := τ) osem3 c
          ∗ Pipeline.scopedRest (Ix := Unit) (Name := ℕ) (U := Pipeline.UD sig nD τ) (Lvl := ℕ) (Val := Elt F) spec3 c) := by
  rw [show (datG3 V a3 gblk c).Φ (Fin.last (cfg3 a3).N) = iprop(Pipeline.ΦD osem3 spec3 H3 V c ∗ Pipeline.prefHeld pre3 c (fun _ => fullShare) a3.1) from rfl,
    Pipeline.ΦD_eq]
  unfold YG3
  iintro ⟨⟨Hr, Hp, Hs, Hh⟩, Ht⟩
  isplitl [Hp Hh Ht]
  · isplitl [Hp]; · iexact Hp
    isplitl [Hh]; · iexact Hh
    iexact Ht
  isplitl [Hs]; · iexact Hs
  iexact Hr

/-- ENTRY. `hsplit` is the library's split of the held buffers into the pipeline's array and the rest, at this data. -/
theorem hentryG3 (c : Dev nD) (hpf : (fun k => V c (pre3.ref k)) = a3.1)
    (hsplit : (unscopedBufs c (V c) : sProp 𝕄)
      ⊢ iprop((datG3 V a3 gblk c).arrays ((datG3 V a3 gblk c).arrAt · 0) ∗ Pipeline.unscopedRest spec3 c (V c))) :
    iprop((unscopedBufs c (V c) ∗ (∃ r, prngReg c r) ∗ ∃ W, owes (c : Thread nD τ) (0 : CellTallies nD τ sig Unit) W)
        ∗ Pipeline.ownSems0 (Ix := Unit) (Name := ℕ) (U := Pipeline.UD sig nD τ) (Lvl := ℕ) (Val := Elt F) (τ := τ) osem3 c
        ∗ levAts (fun _ : GSem nD τ sig => (∅ : Finset Unit)) (fun _ _ => (0 : ℕ)))
      ⊢ (|={Set.univ}=> iprop((datG3 V a3 gblk c).arrays ((datG3 V a3 gblk c).arrAt · 0)
          ∗ Pipeline.prefHeld pre3 c (fun _ => fullShare) a3.1
          ∗ (datG3 V a3 gblk c).owesAt () 0 ∗ XG3 V c ∗ ZG3 V c) : sProp 𝕄) := by
  have hrest := Pipeline.unscopedRest_split (Ix := Unit) (Name := ℕ) (U := Pipeline.UD sig nD τ) (Lvl := ℕ) preFacts3 c (V c)
  rw [hpf, Pipeline.unscopedRestP_sdiff pre3 spec3 H3 H3_sub c (V c)] at hrest
  rw [hrest] at hsplit
  iintro ⟨⟨Hub, Hp, HO⟩, Hs, -⟩
  ihave H := hsplit $$ Hub
  icases H with ⟨Ha, Ht, Hh, Hz⟩
  imodintro
  isplitl [Ha]; · iexact Ha
  isplitl [Ht]; · iexact Ht
  isplitl [HO]
  · unfold Pipeline.Dat.owesAt Pipeline.owesWithin
    icases HO with ⟨%W, HO⟩; iexists W; isplitr; · ipureintro; exact fun _ _ => Or.inl trivial
    iexact HO
  unfold XG3 ZG3
  isplitl [Hp Hs Hh]
  · isplitl [Hp]; · iexact Hp
    isplitl [Hs]; · iexact Hs
    iexact Hh
  iexact Hz

variable (Vn : (c : Dev nD) → (b : Ref sig .tc) → Buf (Elt F) ((c : Thread nD τ).loc b))

/-- EXIT. `hjoin` is the library's rejoining of the pipeline's array at its final contents with the rest, at this data. -/
theorem hexitG3 (c : Dev nD) (hpf : (fun k => V c (pre3.ref k)) = a3.1)
    (hjoin : iprop((datG3 V a3 gblk c).arrays ((datG3 V a3 gblk c).arrAt · (cfg3 a3).N) ∗ Pipeline.unscopedRest spec3 c (V c))
      ⊢ (unscopedBufs c (Vn c) : sProp 𝕄)) :
    iprop((datG3 V a3 gblk c).arrays ((datG3 V a3 gblk c).arrAt · (cfg3 a3).N)
        ∗ (datG3 V a3 gblk c).owesAt () (Fin.last (cfg3 a3).N) ∗ YG3 V a3 c ∗ ZG3 V c)
      ⊢ (|={Set.univ}=> iprop(unscopedBufs c (Vn c) ∗ (∃ r, prngReg c r) ∗ ∃ W, owes (c : Thread nD τ) (0 : CellTallies nD τ sig Unit) W) : sProp 𝕄) := by
  have hrest := Pipeline.unscopedRest_split (Ix := Unit) (Name := ℕ) (U := Pipeline.UD sig nD τ) (Lvl := ℕ) preFacts3 c (V c)
  rw [hpf, Pipeline.unscopedRestP_sdiff pre3 spec3 H3 H3_sub c (V c)] at hrest
  rw [hrest] at hjoin
  unfold YG3 ZG3
  iintro ⟨Ha, HO, ⟨Hp, Hh, Ht⟩, Hz⟩
  imodintro
  isplitl [Ha Hh Ht Hz]
  · iapply hjoin
    isplitl [Ha]; · iexact Ha
    isplitl [Ht]; · iexact Ht
    isplitl [Hh]; · iexact Hh
    iexact Hz
  isplitl [Hp]; · iexact Hp
  unfold Pipeline.Dat.owesAt Pipeline.owesWithin
  icases HO with ⟨%W, -, HO⟩; iexists W; iexact HO

end Cert.Kernel.Hand

end
-- ==== Proof.K.Gather4.lean ====
/-
  The row-gather region 4 of the kernel's program: its proof data and the facts the launch takes.

  Region 4 copies, at grid point t, the eight rows  A[tbl (8 t + j)]  (j < 8) of the 50000 x 128 array A it finds in
  HBM into the eight rows of its 8 x 128 output block; tbl is the region's index table of 85000 words, held in SMEM, and
  A is read only. So after the region the output array's row r is A's row tbl r. The body moves the rows by transfers
  of its own on eight semaphores of its own, all waited for before the point ends: between two points nothing is in
  flight, the table and A are as the region found them, and the semaphores are at zero. That is the region's invariant.
-/
import proofs.«402049_j87351044866139_2_alg».proof.Proof.Gen.Kernel.Launch
import proofs.«402049_j87351044866139_2_alg».proof.Proof.Gen.Kernel.Skeleton
import proofs.«402049_j87351044866139_2_alg».proof.Proof.Gen.Kernel.Points
import Idealize.ShloMosaic.Lib.Pipeline.Frame
import Idealize.ShloMosaic.Lib.Pipeline.FrameBody
import Idealize.ShloMosaic.Lib.Pipeline.RegionsLoop
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.Kernel Cert.Kernel.Gen

variable {F : FTy → Type} [FloatOps F]

local notation "𝕄" => MT nD τ sig Unit (Elt F) ℕ (Pipeline.UD sig nD τ) ℕ

/-- The eight semaphores the body's row transfers signal. -/
abbrev osem4 : Fin 8 → SemLoc sig := fun j =>
  (![SemLoc.dma 37, SemLoc.dma 38, SemLoc.dma 39, SemLoc.dma 40, SemLoc.dma 41, SemLoc.dma 42, SemLoc.dma 43, SemLoc.dma 44] : Fin 8 → SemLoc sig) j
theorem ownSemFacts4 : Pipeline.OwnSemFacts spec4 osem4 := by decide

/-- The array the rows are read from: left in HBM, no window's array and no table. -/
def H4 : Finset (Ref sig .tc) := {main_v33}
theorem H4_sub : H4 ⊆ Pipeline.restRefsP sig pre4 spec4 := by decide

variable (V : (c : Dev nD) → (b : Ref sig .tc) → Buf (Elt F) ((c : Thread nD τ).loc b))
variable (a4 : (pcfg4 (F := F)).Adm)
variable (gblk : (c : Dev nD) → Fin (cfg4 a4).N → S8x128.Idx → Elt F .f32)

/-- The region's proof data on core c: the output array as the region finds it; after point t the output block holds
    the eight gathered rows; the invariant above; full shares; nothing owed. -/
def datG4 (c : Dev nD) : Dat τ (Elt F) Unit ℕ (Pipeline.UD sig nD τ) ℕ (cfg4 a4) c where
  A w := V c (Pipeline.arrRef spec4 w)
  after w t := match w with
    | ⟨0, _⟩ => gblk c t
  Φ _ := iprop(Pipeline.ΦD osem4 spec4 H4 V c ∗ Pipeline.prefHeld pre4 c (fun _ => fullShare) a4.1)
  q _ := fullShare
  owed _ := 0

theorem A_eqG4 (c : Dev nD) (w : Fin (cfg4 a4).W) : (datG4 V a4 gblk c).A w = V c (Pipeline.arrRef spec4 w) := by
  dsimp only [datG4]
theorem afterG4_0 (c : Dev nD) (t : Fin (cfg4 a4).N) : (datG4 V a4 gblk c).after 0 t = gblk c t := rfl

/-! ## The region's protocol around the thread states

  Between two items of the program core c holds every unscoped buffer whole, beside its generator register and a record
  that it owes nothing. Entering the region, the output array goes to the pipeline, the table is handed over at its
  contents, the array A and the eight semaphores join the register in what the invariant takes (X), and the other
  buffers wait outside (Z). Leaving it, everything comes back: A and the table as they were. -/

/-- What the invariant takes at the first point beside the table and the scoped buffers. -/
def XG4 (c : Dev nD) : sProp 𝕄 :=
  iprop((∃ r, prngReg c r)
    ∗ Pipeline.ownSems0 (Ix := Unit) (Name := ℕ) (U := Pipeline.UD sig nD τ) (Lvl := ℕ) (Val := Elt F) (τ := τ) osem4 c
    ∗ bigSep H4 fun b => ((c.tc : Thread nD τ).loc b) ↦{fullShare} V c b)
/-- What it gives back at the last point beside the semaphores and the scoped buffers. -/
def YG4 (c : Dev nD) : sProp 𝕄 :=
  iprop((∃ r, prngReg c r) ∗ (bigSep H4 fun b => ((c.tc : Thread nD τ).loc b) ↦{fullShare} V c b)
    ∗ Pipeline.prefHeld pre4 c (fun _ => fullShare) a4.1)
/-- The unscoped buffers the region does not touch. -/
def ZG4 (c : Dev nD) : sProp 𝕄 :=
  bigSep (Pipeline.restRefsP sig pre4 spec4 \ H4) fun b => ((c.tc : Thread nD τ).loc b) ↦{fullShare} V c b

theorem hinG4 (c : Dev nD) :
    iprop(XG4 V c ∗ Pipeline.prefHeld pre4 c (fun _ => fullShare) a4.1
        ∗ Pipeline.scopedRest (Ix := Unit) (Name := ℕ) (U := Pipeline.UD sig nD τ) (Lvl := ℕ) (Val := Elt F) spec4 c)
      ⊢ (datG4 V a4 gblk c).Φ 0 := by
  rw [show (datG4 V a4 gblk c).Φ 0 = iprop(Pipeline.ΦD osem4 spec4 H4 V c ∗ Pipeline.prefHeld pre4 c (fun _ => fullShare) a4.1) from rfl,
    Pipeline.ΦD_eq]
  unfold XG4
  iintro ⟨⟨Hp, Hs, Hh⟩, Ht, Hr⟩
  isplitl [Hr Hp Hs Hh]
  · isplitl [Hr]; · iexact Hr
    isplitl [Hp]; · iexact Hp
    isplitl [Hs]; · iexact Hs
    iexact Hh
  iexact Ht

theorem houtG4 (c : Dev nD) :
    (datG4 V a4 gblk c).Φ (Fin.last (cfg4 a4).N)
      ⊢ iprop(YG4 V a4 c
          ∗ Pipeline.ownSems0 (Ix := Unit) (Name := ℕ) (U := Pipeline.UD sig nD τ) (Lvl := ℕ) (Val := Elt F) (τ := τ) osem4 c
          ∗ Pipeline.scopedRest (Ix := Unit) (Name := ℕ) (U := Pipeline.UD sig nD τ) (Lvl := ℕ) (Val := Elt F) spec4 c) := by
  rw [show (datG4 V a4 gblk c).Φ (Fin.last (cfg4 a4).N) = iprop(Pipeline.ΦD osem4 spec4 H4 V c ∗ Pipeline.prefHeld pre4 c (fun _ => fullShare) a4.1) from rfl,
    Pipeline.ΦD_eq]
  unfold YG4
  iintro ⟨⟨Hr, Hp, Hs, Hh⟩, Ht⟩
  isplitl [Hp Hh Ht]
  · isplitl [Hp]; · iexact Hp
    isplitl [Hh]; · iexact Hh
    iexact Ht
  isplitl [Hs]; · iexact Hs
  iexact Hr

/-- ENTRY. `hsplit` is the library's split of the held buffers into the pipeline's array and the rest, at this data. -/
theorem hentryG4 (c : Dev nD) (hpf : (fun k => V c (pre4.ref k)) = a4.1)
    (hsplit : (unscopedBufs c (V c) : sProp 𝕄)
      ⊢ iprop((datG4 V a4 gblk c).arrays ((datG4 V a4 gblk c).arrAt · 0) ∗ Pipeline.unscopedRest spec4 c (V c))) :
    iprop((unscopedBufs c (V c) ∗ (∃ r, prngReg c r) ∗ ∃ W, owes (c : Thread nD τ) (0 : CellTallies nD τ sig Unit) W)
        ∗ Pipeline.ownSems0 (Ix := Unit) (Name := ℕ) (U := Pipeline.UD sig nD τ) (Lvl := ℕ) (Val := Elt F) (τ := τ) osem4 c
        ∗ levAts (fun _ : GSem nD τ sig => (∅ : Finset Unit)) (fun _ _ => (0 : ℕ)))
      ⊢ (|={Set.univ}=> iprop((datG4 V a4 gblk c).arrays ((datG4 V a4 gblk c).arrAt · 0)
          ∗ Pipeline.prefHeld pre4 c (fun _ => fullShare) a4.1
          ∗ (datG4 V a4 gblk c).owesAt () 0 ∗ XG4 V c ∗ ZG4 V c) : sProp 𝕄) := by
  have hrest := Pipeline.unscopedRest_split (Ix := Unit) (Name := ℕ) (U := Pipeline.UD sig nD τ) (Lvl := ℕ) preFacts4 c (V c)
  rw [hpf, Pipeline.unscopedRestP_sdiff pre4 spec4 H4 H4_sub c (V c)] at hrest
  rw [hrest] at hsplit
  iintro ⟨⟨Hub, Hp, HO⟩, Hs, -⟩
  ihave H := hsplit $$ Hub
  icases H with ⟨Ha, Ht, Hh, Hz⟩
  imodintro
  isplitl [Ha]; · iexact Ha
  isplitl [Ht]; · iexact Ht
  isplitl [HO]
  · unfold Pipeline.Dat.owesAt Pipeline.owesWithin
    icases HO with ⟨%W, HO⟩; iexists W; isplitr; · ipureintro; exact fun _ _ => Or.inl trivial
    iexact HO
  unfold XG4 ZG4
  isplitl [Hp Hs Hh]
  · isplitl [Hp]; · iexact Hp
    isplitl [Hs]; · iexact Hs
    iexact Hh
  iexact Hz

variable (Vn : (c : Dev nD) → (b : Ref sig .tc) → Buf (Elt F) ((c : Thread nD τ).loc b))

/-- EXIT. `hjoin` is the library's rejoining of the pipeline's array at its final contents with the rest, at this data. -/
theorem hexitG4 (c : Dev nD) (hpf : (fun k => V c (pre4.ref k)) = a4.1)
    (hjoin : iprop((datG4 V a4 gblk c).arrays ((datG4 V a4 gblk c).arrAt · (cfg4 a4).N) ∗ Pipeline.unscopedRest spec4 c (V c))
      ⊢ (unscopedBufs c (Vn c) : sProp 𝕄)) :
    iprop((datG4 V a4 gblk c).arrays ((datG4 V a4 gblk c).arrAt · (cfg4 a4).N)
        ∗ (datG4 V a4 gblk c).owesAt () (Fin.last (cfg4 a4).N) ∗ YG4 V a4 c ∗ ZG4 V c)
      ⊢ (|={Set.univ}=> iprop(unscopedBufs c (Vn c) ∗ (∃ r, prngReg c r) ∗ ∃ W, owes (c : Thread nD τ) (0 : CellTallies nD τ sig Unit) W) : sProp 𝕄) := by
  have hrest := Pipeline.unscopedRest_split (Ix := Unit) (Name := ℕ) (U := Pipeline.UD sig nD τ) (Lvl := ℕ) preFacts4 c (V c)
  rw [hpf, Pipeline.unscopedRestP_sdiff pre4 spec4 H4 H4_sub c (V c)] at hrest
  rw [hrest] at hjoin
  unfold YG4 ZG4
  iintro ⟨Ha, HO, ⟨Hp, Hh, Ht⟩, Hz⟩
  imodintro
  isplitl [Ha Hh Ht Hz]
  · iapply hjoin
    isplitl [Ha]; · iexact Ha
    isplitl [Ht]; · iexact Ht
    isplitl [Hh]; · iexact Hh
    iexact Hz
  isplitl [Hp]; · iexact Hp
  unfold Pipeline.Dat.owesAt Pipeline.owesWithin
  icases HO with ⟨%W, -, HO⟩; iexists W; iexact HO

end Cert.Kernel.Hand

end
-- ==== Proof.K.Gather5.lean ====
/-
  The row-gather region 5 of the kernel's program: its proof data and the facts the launch takes.

  Region 5 copies, at grid point t, the eight rows  A[tbl (8 t + j)]  (j < 8) of the 50000 x 128 array A it finds in
  HBM into the eight rows of its 8 x 128 output block; tbl is the region's index table of 85000 words, held in SMEM, and
  A is read only. So after the region the output array's row r is A's row tbl r. The body moves the rows by transfers
  of its own on eight semaphores of its own, all waited for before the point ends: between two points nothing is in
  flight, the table and A are as the region found them, and the semaphores are at zero. That is the region's invariant.
-/
import proofs.«402049_j87351044866139_2_alg».proof.Proof.Gen.Kernel.Launch
import proofs.«402049_j87351044866139_2_alg».proof.Proof.Gen.Kernel.Skeleton
import proofs.«402049_j87351044866139_2_alg».proof.Proof.Gen.Kernel.Points
import Idealize.ShloMosaic.Lib.Pipeline.Frame
import Idealize.ShloMosaic.Lib.Pipeline.FrameBody
import Idealize.ShloMosaic.Lib.Pipeline.RegionsLoop
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.Kernel Cert.Kernel.Gen

variable {F : FTy → Type} [FloatOps F]

local notation "𝕄" => MT nD τ sig Unit (Elt F) ℕ (Pipeline.UD sig nD τ) ℕ

/-- The eight semaphores the body's row transfers signal. -/
abbrev osem5 : Fin 8 → SemLoc sig := fun j =>
  (![SemLoc.dma 47, SemLoc.dma 48, SemLoc.dma 49, SemLoc.dma 50, SemLoc.dma 51, SemLoc.dma 52, SemLoc.dma 53, SemLoc.dma 54] : Fin 8 → SemLoc sig) j
theorem ownSemFacts5 : Pipeline.OwnSemFacts spec5 osem5 := by decide

/-- The array the rows are read from: left in HBM, no window's array and no table. -/
def H5 : Finset (Ref sig .tc) := {main_v33}
theorem H5_sub : H5 ⊆ Pipeline.restRefsP sig pre5 spec5 := by decide

variable (V : (c : Dev nD) → (b : Ref sig .tc) → Buf (Elt F) ((c : Thread nD τ).loc b))
variable (a5 : (pcfg5 (F := F)).Adm)
variable (gblk : (c : Dev nD) → Fin (cfg5 a5).N → S8x128.Idx → Elt F .f32)

/-- The region's proof data on core c: the output array as the region finds it; after point t the output block holds
    the eight gathered rows; the invariant above; full shares; nothing owed. -/
def datG5 (c : Dev nD) : Dat τ (Elt F) Unit ℕ (Pipeline.UD sig nD τ) ℕ (cfg5 a5) c where
  A w := V c (Pipeline.arrRef spec5 w)
  after w t := match w with
    | ⟨0, _⟩ => gblk c t
  Φ _ := iprop(Pipeline.ΦD osem5 spec5 H5 V c ∗ Pipeline.prefHeld pre5 c (fun _ => fullShare) a5.1)
  q _ := fullShare
  owed _ := 0

theorem A_eqG5 (c : Dev nD) (w : Fin (cfg5 a5).W) : (datG5 V a5 gblk c).A w = V c (Pipeline.arrRef spec5 w) := by
  dsimp only [datG5]
theorem afterG5_0 (c : Dev nD) (t : Fin (cfg5 a5).N) : (datG5 V a5 gblk c).after 0 t = gblk c t := rfl

/-! ## The region's protocol around the thread states

  Between two items of the program core c holds every unscoped buffer whole, beside its generator register and a record
  that it owes nothing. Entering the region, the output array goes to the pipeline, the table is handed over at its
  contents, the array A and the eight semaphores join the register in what the invariant takes (X), and the other
  buffers wait outside (Z). Leaving it, everything comes back: A and the table as they were. -/

/-- What the invariant takes at the first point beside the table and the scoped buffers. -/
def XG5 (c : Dev nD) : sProp 𝕄 :=
  iprop((∃ r, prngReg c r)
    ∗ Pipeline.ownSems0 (Ix := Unit) (Name := ℕ) (U := Pipeline.UD sig nD τ) (Lvl := ℕ) (Val := Elt F) (τ := τ) osem5 c
    ∗ bigSep H5 fun b => ((c.tc : Thread nD τ).loc b) ↦{fullShare} V c b)
/-- What it gives back at the last point beside the semaphores and the scoped buffers. -/
def YG5 (c : Dev nD) : sProp 𝕄 :=
  iprop((∃ r, prngReg c r) ∗ (bigSep H5 fun b => ((c.tc : Thread nD τ).loc b) ↦{fullShare} V c b)
    ∗ Pipeline.prefHeld pre5 c (fun _ => fullShare) a5.1)
/-- The unscoped buffers the region does not touch. -/
def ZG5 (c : Dev nD) : sProp 𝕄 :=
  bigSep (Pipeline.restRefsP sig pre5 spec5 \ H5) fun b => ((c.tc : Thread nD τ).loc b) ↦{fullShare} V c b

theorem hinG5 (c : Dev nD) :
    iprop(XG5 V c ∗ Pipeline.prefHeld pre5 c (fun _ => fullShare) a5.1
        ∗ Pipeline.scopedRest (Ix := Unit) (Name := ℕ) (U := Pipeline.UD sig nD τ) (Lvl := ℕ) (Val := Elt F) spec5 c)
      ⊢ (datG5 V a5 gblk c).Φ 0 := by
  rw [show (datG5 V a5 gblk c).Φ 0 = iprop(Pipeline.ΦD osem5 spec5 H5 V c ∗ Pipeline.prefHeld pre5 c (fun _ => fullShare) a5.1) from rfl,
    Pipeline.ΦD_eq]
  unfold XG5
  iintro ⟨⟨Hp, Hs, Hh⟩, Ht, Hr⟩
  isplitl [Hr Hp Hs Hh]
  · isplitl [Hr]; · iexact Hr
    isplitl [Hp]; · iexact Hp
    isplitl [Hs]; · iexact Hs
    iexact Hh
  iexact Ht

theorem houtG5 (c : Dev nD) :
    (datG5 V a5 gblk c).Φ (Fin.last (cfg5 a5).N)
      ⊢ iprop(YG5 V a5 c
          ∗ Pipeline.ownSems0 (Ix := Unit) (Name := ℕ) (U := Pipeline.UD sig nD τ) (Lvl := ℕ) (Val := Elt F) (τ := τ) osem5 c
          ∗ Pipeline.scopedRest (Ix := Unit) (Name := ℕ) (U := Pipeline.UD sig nD τ) (Lvl := ℕ) (Val := Elt F) spec5 c) := by
  rw [show (datG5 V a5 gblk c).Φ (Fin.last (cfg5 a5).N) = iprop(Pipeline.ΦD osem5 spec5 H5 V c ∗ Pipeline.prefHeld pre5 c (fun _ => fullShare) a5.1) from rfl,
    Pipeline.ΦD_eq]
  unfold YG5
  iintro ⟨⟨Hr, Hp, Hs, Hh⟩, Ht⟩
  isplitl [Hp Hh Ht]
  · isplitl [Hp]; · iexact Hp
    isplitl [Hh]; · iexact Hh
    iexact Ht
  isplitl [Hs]; · iexact Hs
  iexact Hr

/-- ENTRY. `hsplit` is the library's split of the held buffers into the pipeline's array and the rest, at this data. -/
theorem hentryG5 (c : Dev nD) (hpf : (fun k => V c (pre5.ref k)) = a5.1)
    (hsplit : (unscopedBufs c (V c) : sProp 𝕄)
      ⊢ iprop((datG5 V a5 gblk c).arrays ((datG5 V a5 gblk c).arrAt · 0) ∗ Pipeline.unscopedRest spec5 c (V c))) :
    iprop((unscopedBufs c (V c) ∗ (∃ r, prngReg c r) ∗ ∃ W, owes (c : Thread nD τ) (0 : CellTallies nD τ sig Unit) W)
        ∗ Pipeline.ownSems0 (Ix := Unit) (Name := ℕ) (U := Pipeline.UD sig nD τ) (Lvl := ℕ) (Val := Elt F) (τ := τ) osem5 c
        ∗ levAts (fun _ : GSem nD τ sig => (∅ : Finset Unit)) (fun _ _ => (0 : ℕ)))
      ⊢ (|={Set.univ}=> iprop((datG5 V a5 gblk c).arrays ((datG5 V a5 gblk c).arrAt · 0)
          ∗ Pipeline.prefHeld pre5 c (fun _ => fullShare) a5.1
          ∗ (datG5 V a5 gblk c).owesAt () 0 ∗ XG5 V c ∗ ZG5 V c) : sProp 𝕄) := by
  have hrest := Pipeline.unscopedRest_split (Ix := Unit) (Name := ℕ) (U := Pipeline.UD sig nD τ) (Lvl := ℕ) preFacts5 c (V c)
  rw [hpf, Pipeline.unscopedRestP_sdiff pre5 spec5 H5 H5_sub c (V c)] at hrest
  rw [hrest] at hsplit
  iintro ⟨⟨Hub, Hp, HO⟩, Hs, -⟩
  ihave H := hsplit $$ Hub
  icases H with ⟨Ha, Ht, Hh, Hz⟩
  imodintro
  isplitl [Ha]; · iexact Ha
  isplitl [Ht]; · iexact Ht
  isplitl [HO]
  · unfold Pipeline.Dat.owesAt Pipeline.owesWithin
    icases HO with ⟨%W, HO⟩; iexists W; isplitr; · ipureintro; exact fun _ _ => Or.inl trivial
    iexact HO
  unfold XG5 ZG5
  isplitl [Hp Hs Hh]
  · isplitl [Hp]; · iexact Hp
    isplitl [Hs]; · iexact Hs
    iexact Hh
  iexact Hz

variable (Vn : (c : Dev nD) → (b : Ref sig .tc) → Buf (Elt F) ((c : Thread nD τ).loc b))

/-- EXIT. `hjoin` is the library's rejoining of the pipeline's array at its final contents with the rest, at this data. -/
theorem hexitG5 (c : Dev nD) (hpf : (fun k => V c (pre5.ref k)) = a5.1)
    (hjoin : iprop((datG5 V a5 gblk c).arrays ((datG5 V a5 gblk c).arrAt · (cfg5 a5).N) ∗ Pipeline.unscopedRest spec5 c (V c))
      ⊢ (unscopedBufs c (Vn c) : sProp 𝕄)) :
    iprop((datG5 V a5 gblk c).arrays ((datG5 V a5 gblk c).arrAt · (cfg5 a5).N)
        ∗ (datG5 V a5 gblk c).owesAt () (Fin.last (cfg5 a5).N) ∗ YG5 V a5 c ∗ ZG5 V c)
      ⊢ (|={Set.univ}=> iprop(unscopedBufs c (Vn c) ∗ (∃ r, prngReg c r) ∗ ∃ W, owes (c : Thread nD τ) (0 : CellTallies nD τ sig Unit) W) : sProp 𝕄) := by
  have hrest := Pipeline.unscopedRest_split (Ix := Unit) (Name := ℕ) (U := Pipeline.UD sig nD τ) (Lvl := ℕ) preFacts5 c (V c)
  rw [hpf, Pipeline.unscopedRestP_sdiff pre5 spec5 H5 H5_sub c (V c)] at hrest
  rw [hrest] at hjoin
  unfold YG5 ZG5
  iintro ⟨Ha, HO, ⟨Hp, Hh, Ht⟩, Hz⟩
  imodintro
  isplitl [Ha Hh Ht Hz]
  · iapply hjoin
    isplitl [Ha]; · iexact Ha
    isplitl [Ht]; · iexact Ht
    isplitl [Hh]; · iexact Hh
    iexact Hz
  isplitl [Hp]; · iexact Hp
  unfold Pipeline.Dat.owesAt Pipeline.owesWithin
  icases HO with ⟨%W, -, HO⟩; iexists W; iexact HO

end Cert.Kernel.Hand

end
-- ==== Proof.K.Gather6.lean ====
/-
  The row-gather region 6 of the kernel's program: its proof data and the facts the launch takes.

  Region 6 copies, at grid point t, the eight rows  A[tbl (8 t + j)]  (j < 8) of the 50000 x 128 array A it finds in
  HBM into the eight rows of its 8 x 128 output block; tbl is the region's index table of 85000 words, held in SMEM, and
  A is read only. So after the region the output array's row r is A's row tbl r. The body moves the rows by transfers
  of its own on eight semaphores of its own, all waited for before the point ends: between two points nothing is in
  flight, the table and A are as the region found them, and the semaphores are at zero. That is the region's invariant.
-/
import proofs.«402049_j87351044866139_2_alg».proof.Proof.Gen.Kernel.Launch
import proofs.«402049_j87351044866139_2_alg».proof.Proof.Gen.Kernel.Skeleton
import proofs.«402049_j87351044866139_2_alg».proof.Proof.Gen.Kernel.Points
import Idealize.ShloMosaic.Lib.Pipeline.Frame
import Idealize.ShloMosaic.Lib.Pipeline.FrameBody
import Idealize.ShloMosaic.Lib.Pipeline.RegionsLoop
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.Kernel Cert.Kernel.Gen

variable {F : FTy → Type} [FloatOps F]

local notation "𝕄" => MT nD τ sig Unit (Elt F) ℕ (Pipeline.UD sig nD τ) ℕ

/-- The eight semaphores the body's row transfers signal. -/
abbrev osem6 : Fin 8 → SemLoc sig := fun j =>
  (![SemLoc.dma 57, SemLoc.dma 58, SemLoc.dma 59, SemLoc.dma 60, SemLoc.dma 61, SemLoc.dma 62, SemLoc.dma 63, SemLoc.dma 64] : Fin 8 → SemLoc sig) j
theorem ownSemFacts6 : Pipeline.OwnSemFacts spec6 osem6 := by decide

/-- The array the rows are read from: left in HBM, no window's array and no table. -/
def H6 : Finset (Ref sig .tc) := {main_v33}
theorem H6_sub : H6 ⊆ Pipeline.restRefsP sig pre6 spec6 := by decide

variable (V : (c : Dev nD) → (b : Ref sig .tc) → Buf (Elt F) ((c : Thread nD τ).loc b))
variable (a6 : (pcfg6 (F := F)).Adm)
variable (gblk : (c : Dev nD) → Fin (cfg6 a6).N → S8x128.Idx → Elt F .f32)

/-- The region's proof data on core c: the output array as the region finds it; after point t the output block holds
    the eight gathered rows; the invariant above; full shares; nothing owed. -/
def datG6 (c : Dev nD) : Dat τ (Elt F) Unit ℕ (Pipeline.UD sig nD τ) ℕ (cfg6 a6) c where
  A w := V c (Pipeline.arrRef spec6 w)
  after w t := match w with
    | ⟨0, _⟩ => gblk c t
  Φ _ := iprop(Pipeline.ΦD osem6 spec6 H6 V c ∗ Pipeline.prefHeld pre6 c (fun _ => fullShare) a6.1)
  q _ := fullShare
  owed _ := 0

theorem A_eqG6 (c : Dev nD) (w : Fin (cfg6 a6).W) : (datG6 V a6 gblk c).A w = V c (Pipeline.arrRef spec6 w) := by
  dsimp only [datG6]
theorem afterG6_0 (c : Dev nD) (t : Fin (cfg6 a6).N) : (datG6 V a6 gblk c).after 0 t = gblk c t := rfl

/-! ## The region's protocol around the thread states

  Between two items of the program core c holds every unscoped buffer whole, beside its generator register and a record
  that it owes nothing. Entering the region, the output array goes to the pipeline, the table is handed over at its
  contents, the array A and the eight semaphores join the register in what the invariant takes (X), and the other
  buffers wait outside (Z). Leaving it, everything comes back: A and the table as they were. -/

/-- What the invariant takes at the first point beside the table and the scoped buffers. -/
def XG6 (c : Dev nD) : sProp 𝕄 :=
  iprop((∃ r, prngReg c r)
    ∗ Pipeline.ownSems0 (Ix := Unit) (Name := ℕ) (U := Pipeline.UD sig nD τ) (Lvl := ℕ) (Val := Elt F) (τ := τ) osem6 c
    ∗ bigSep H6 fun b => ((c.tc : Thread nD τ).loc b) ↦{fullShare} V c b)
/-- What it gives back at the last point beside the semaphores and the scoped buffers. -/
def YG6 (c : Dev nD) : sProp 𝕄 :=
  iprop((∃ r, prngReg c r) ∗ (bigSep H6 fun b => ((c.tc : Thread nD τ).loc b) ↦{fullShare} V c b)
    ∗ Pipeline.prefHeld pre6 c (fun _ => fullShare) a6.1)
/-- The unscoped buffers the region does not touch. -/
def ZG6 (c : Dev nD) : sProp 𝕄 :=
  bigSep (Pipeline.restRefsP sig pre6 spec6 \ H6) fun b => ((c.tc : Thread nD τ).loc b) ↦{fullShare} V c b

theorem hinG6 (c : Dev nD) :
    iprop(XG6 V c ∗ Pipeline.prefHeld pre6 c (fun _ => fullShare) a6.1
        ∗ Pipeline.scopedRest (Ix := Unit) (Name := ℕ) (U := Pipeline.UD sig nD τ) (Lvl := ℕ) (Val := Elt F) spec6 c)
      ⊢ (datG6 V a6 gblk c).Φ 0 := by
  rw [show (datG6 V a6 gblk c).Φ 0 = iprop(Pipeline.ΦD osem6 spec6 H6 V c ∗ Pipeline.prefHeld pre6 c (fun _ => fullShare) a6.1) from rfl,
    Pipeline.ΦD_eq]
  unfold XG6
  iintro ⟨⟨Hp, Hs, Hh⟩, Ht, Hr⟩
  isplitl [Hr Hp Hs Hh]
  · isplitl [Hr]; · iexact Hr
    isplitl [Hp]; · iexact Hp
    isplitl [Hs]; · iexact Hs
    iexact Hh
  iexact Ht

theorem houtG6 (c : Dev nD) :
    (datG6 V a6 gblk c).Φ (Fin.last (cfg6 a6).N)
      ⊢ iprop(YG6 V a6 c
          ∗ Pipeline.ownSems0 (Ix := Unit) (Name := ℕ) (U := Pipeline.UD sig nD τ) (Lvl := ℕ) (Val := Elt F) (τ := τ) osem6 c
          ∗ Pipeline.scopedRest (Ix := Unit) (Name := ℕ) (U := Pipeline.UD sig nD τ) (Lvl := ℕ) (Val := Elt F) spec6 c) := by
  rw [show (datG6 V a6 gblk c).Φ (Fin.last (cfg6 a6).N) = iprop(Pipeline.ΦD osem6 spec6 H6 V c ∗ Pipeline.prefHeld pre6 c (fun _ => fullShare) a6.1) from rfl,
    Pipeline.ΦD_eq]
  unfold YG6
  iintro ⟨⟨Hr, Hp, Hs, Hh⟩, Ht⟩
  isplitl [Hp Hh Ht]
  · isplitl [Hp]; · iexact Hp
    isplitl [Hh]; · iexact Hh
    iexact Ht
  isplitl [Hs]; · iexact Hs
  iexact Hr

/-- ENTRY. `hsplit` is the library's split of the held buffers into the pipeline's array and the rest, at this data. -/
theorem hentryG6 (c : Dev nD) (hpf : (fun k => V c (pre6.ref k)) = a6.1)
    (hsplit : (unscopedBufs c (V c) : sProp 𝕄)
      ⊢ iprop((datG6 V a6 gblk c).arrays ((datG6 V a6 gblk c).arrAt · 0) ∗ Pipeline.unscopedRest spec6 c (V c))) :
    iprop((unscopedBufs c (V c) ∗ (∃ r, prngReg c r) ∗ ∃ W, owes (c : Thread nD τ) (0 : CellTallies nD τ sig Unit) W)
        ∗ Pipeline.ownSems0 (Ix := Unit) (Name := ℕ) (U := Pipeline.UD sig nD τ) (Lvl := ℕ) (Val := Elt F) (τ := τ) osem6 c
        ∗ levAts (fun _ : GSem nD τ sig => (∅ : Finset Unit)) (fun _ _ => (0 : ℕ)))
      ⊢ (|={Set.univ}=> iprop((datG6 V a6 gblk c).arrays ((datG6 V a6 gblk c).arrAt · 0)
          ∗ Pipeline.prefHeld pre6 c (fun _ => fullShare) a6.1
          ∗ (datG6 V a6 gblk c).owesAt () 0 ∗ XG6 V c ∗ ZG6 V c) : sProp 𝕄) := by
  have hrest := Pipeline.unscopedRest_split (Ix := Unit) (Name := ℕ) (U := Pipeline.UD sig nD τ) (Lvl := ℕ) preFacts6 c (V c)
  rw [hpf, Pipeline.unscopedRestP_sdiff pre6 spec6 H6 H6_sub c (V c)] at hrest
  rw [hrest] at hsplit
  iintro ⟨⟨Hub, Hp, HO⟩, Hs, -⟩
  ihave H := hsplit $$ Hub
  icases H with ⟨Ha, Ht, Hh, Hz⟩
  imodintro
  isplitl [Ha]; · iexact Ha
  isplitl [Ht]; · iexact Ht
  isplitl [HO]
  · unfold Pipeline.Dat.owesAt Pipeline.owesWithin
    icases HO with ⟨%W, HO⟩; iexists W; isplitr; · ipureintro; exact fun _ _ => Or.inl trivial
    iexact HO
  unfold XG6 ZG6
  isplitl [Hp Hs Hh]
  · isplitl [Hp]; · iexact Hp
    isplitl [Hs]; · iexact Hs
    iexact Hh
  iexact Hz

variable (Vn : (c : Dev nD) → (b : Ref sig .tc) → Buf (Elt F) ((c : Thread nD τ).loc b))

/-- EXIT. `hjoin` is the library's rejoining of the pipeline's array at its final contents with the rest, at this data. -/
theorem hexitG6 (c : Dev nD) (hpf : (fun k => V c (pre6.ref k)) = a6.1)
    (hjoin : iprop((datG6 V a6 gblk c).arrays ((datG6 V a6 gblk c).arrAt · (cfg6 a6).N) ∗ Pipeline.unscopedRest spec6 c (V c))
      ⊢ (unscopedBufs c (Vn c) : sProp 𝕄)) :
    iprop((datG6 V a6 gblk c).arrays ((datG6 V a6 gblk c).arrAt · (cfg6 a6).N)
        ∗ (datG6 V a6 gblk c).owesAt () (Fin.last (cfg6 a6).N) ∗ YG6 V a6 c ∗ ZG6 V c)
      ⊢ (|={Set.univ}=> iprop(unscopedBufs c (Vn c) ∗ (∃ r, prngReg c r) ∗ ∃ W, owes (c : Thread nD τ) (0 : CellTallies nD τ sig Unit) W) : sProp 𝕄) := by
  have hrest := Pipeline.unscopedRest_split (Ix := Unit) (Name := ℕ) (U := Pipeline.UD sig nD τ) (Lvl := ℕ) preFacts6 c (V c)
  rw [hpf, Pipeline.unscopedRestP_sdiff pre6 spec6 H6 H6_sub c (V c)] at hrest
  rw [hrest] at hjoin
  unfold YG6 ZG6
  iintro ⟨Ha, HO, ⟨Hp, Hh, Ht⟩, Hz⟩
  imodintro
  isplitl [Ha Hh Ht Hz]
  · iapply hjoin
    isplitl [Ha]; · iexact Ha
    isplitl [Ht]; · iexact Ht
    isplitl [Hh]; · iexact Hh
    iexact Hz
  isplitl [Hp]; · iexact Hp
  unfold Pipeline.Dat.owesAt Pipeline.owesWithin
  icases HO with ⟨%W, -, HO⟩; iexists W; iexact HO

end Cert.Kernel.Hand

end
-- ==== Proof.K.Gather7.lean ====
/-
  The row-gather region 7 of the kernel's program: its proof data and the facts the launch takes.

  Region 7 copies, at grid point t, the eight rows  A[tbl (8 t + j)]  (j < 8) of the 50000 x 128 array A it finds in
  HBM into the eight rows of its 8 x 128 output block; tbl is the region's index table of 85000 words, held in SMEM, and
  A is read only. So after the region the output array's row r is A's row tbl r. The body moves the rows by transfers
  of its own on eight semaphores of its own, all waited for before the point ends: between two points nothing is in
  flight, the table and A are as the region found them, and the semaphores are at zero. That is the region's invariant.
-/
import proofs.«402049_j87351044866139_2_alg».proof.Proof.Gen.Kernel.Launch
import proofs.«402049_j87351044866139_2_alg».proof.Proof.Gen.Kernel.Skeleton
import proofs.«402049_j87351044866139_2_alg».proof.Proof.Gen.Kernel.Points
import Idealize.ShloMosaic.Lib.Pipeline.Frame
import Idealize.ShloMosaic.Lib.Pipeline.FrameBody
import Idealize.ShloMosaic.Lib.Pipeline.RegionsLoop
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.Kernel Cert.Kernel.Gen

variable {F : FTy → Type} [FloatOps F]

local notation "𝕄" => MT nD τ sig Unit (Elt F) ℕ (Pipeline.UD sig nD τ) ℕ

/-- The eight semaphores the body's row transfers signal. -/
abbrev osem7 : Fin 8 → SemLoc sig := fun j =>
  (![SemLoc.dma 67, SemLoc.dma 68, SemLoc.dma 69, SemLoc.dma 70, SemLoc.dma 71, SemLoc.dma 72, SemLoc.dma 73, SemLoc.dma 74] : Fin 8 → SemLoc sig) j
theorem ownSemFacts7 : Pipeline.OwnSemFacts spec7 osem7 := by decide

/-- The array the rows are read from: left in HBM, no window's array and no table. -/
def H7 : Finset (Ref sig .tc) := {main_v33}
theorem H7_sub : H7 ⊆ Pipeline.restRefsP sig pre7 spec7 := by decide

variable (V : (c : Dev nD) → (b : Ref sig .tc) → Buf (Elt F) ((c : Thread nD τ).loc b))
variable (a7 : (pcfg7 (F := F)).Adm)
variable (gblk : (c : Dev nD) → Fin (cfg7 a7).N → S8x128.Idx → Elt F .f32)

/-- The region's proof data on core c: the output array as the region finds it; after point t the output block holds
    the eight gathered rows; the invariant above; full shares; nothing owed. -/
def datG7 (c : Dev nD) : Dat τ (Elt F) Unit ℕ (Pipeline.UD sig nD τ) ℕ (cfg7 a7) c where
  A w := V c (Pipeline.arrRef spec7 w)
  after w t := match w with
    | ⟨0, _⟩ => gblk c t
  Φ _ := iprop(Pipeline.ΦD osem7 spec7 H7 V c ∗ Pipeline.prefHeld pre7 c (fun _ => fullShare) a7.1)
  q _ := fullShare
  owed _ := 0

theorem A_eqG7 (c : Dev nD) (w : Fin (cfg7 a7).W) : (datG7 V a7 gblk c).A w = V c (Pipeline.arrRef spec7 w) := by
  dsimp only [datG7]
theorem afterG7_0 (c : Dev nD) (t : Fin (cfg7 a7).N) : (datG7 V a7 gblk c).after 0 t = gblk c t := rfl

/-! ## The region's protocol around the thread states

  Between two items of the program core c holds every unscoped buffer whole, beside its generator register and a record
  that it owes nothing. Entering the region, the output array goes to the pipeline, the table is handed over at its
  contents, the array A and the eight semaphores join the register in what the invariant takes (X), and the other
  buffers wait outside (Z). Leaving it, everything comes back: A and the table as they were. -/

/-- What the invariant takes at the first point beside the table and the scoped buffers. -/
def XG7 (c : Dev nD) : sProp 𝕄 :=
  iprop((∃ r, prngReg c r)
    ∗ Pipeline.ownSems0 (Ix := Unit) (Name := ℕ) (U := Pipeline.UD sig nD τ) (Lvl := ℕ) (Val := Elt F) (τ := τ) osem7 c
    ∗ bigSep H7 fun b => ((c.tc : Thread nD τ).loc b) ↦{fullShare} V c b)
/-- What it gives back at the last point beside the semaphores and the scoped buffers. -/
def YG7 (c : Dev nD) : sProp 𝕄 :=
  iprop((∃ r, prngReg c r) ∗ (bigSep H7 fun b => ((c.tc : Thread nD τ).loc b) ↦{fullShare} V c b)
    ∗ Pipeline.prefHeld pre7 c (fun _ => fullShare) a7.1)
/-- The unscoped buffers the region does not touch. -/
def ZG7 (c : Dev nD) : sProp 𝕄 :=
  bigSep (Pipeline.restRefsP sig pre7 spec7 \ H7) fun b => ((c.tc : Thread nD τ).loc b) ↦{fullShare} V c b

theorem hinG7 (c : Dev nD) :
    iprop(XG7 V c ∗ Pipeline.prefHeld pre7 c (fun _ => fullShare) a7.1
        ∗ Pipeline.scopedRest (Ix := Unit) (Name := ℕ) (U := Pipeline.UD sig nD τ) (Lvl := ℕ) (Val := Elt F) spec7 c)
      ⊢ (datG7 V a7 gblk c).Φ 0 := by
  rw [show (datG7 V a7 gblk c).Φ 0 = iprop(Pipeline.ΦD osem7 spec7 H7 V c ∗ Pipeline.prefHeld pre7 c (fun _ => fullShare) a7.1) from rfl,
    Pipeline.ΦD_eq]
  unfold XG7
  iintro ⟨⟨Hp, Hs, Hh⟩, Ht, Hr⟩
  isplitl [Hr Hp Hs Hh]
  · isplitl [Hr]; · iexact Hr
    isplitl [Hp]; · iexact Hp
    isplitl [Hs]; · iexact Hs
    iexact Hh
  iexact Ht

theorem houtG7 (c : Dev nD) :
    (datG7 V a7 gblk c).Φ (Fin.last (cfg7 a7).N)
      ⊢ iprop(YG7 V a7 c
          ∗ Pipeline.ownSems0 (Ix := Unit) (Name := ℕ) (U := Pipeline.UD sig nD τ) (Lvl := ℕ) (Val := Elt F) (τ := τ) osem7 c
          ∗ Pipeline.scopedRest (Ix := Unit) (Name := ℕ) (U := Pipeline.UD sig nD τ) (Lvl := ℕ) (Val := Elt F) spec7 c) := by
  rw [show (datG7 V a7 gblk c).Φ (Fin.last (cfg7 a7).N) = iprop(Pipeline.ΦD osem7 spec7 H7 V c ∗ Pipeline.prefHeld pre7 c (fun _ => fullShare) a7.1) from rfl,
    Pipeline.ΦD_eq]
  unfold YG7
  iintro ⟨⟨Hr, Hp, Hs, Hh⟩, Ht⟩
  isplitl [Hp Hh Ht]
  · isplitl [Hp]; · iexact Hp
    isplitl [Hh]; · iexact Hh
    iexact Ht
  isplitl [Hs]; · iexact Hs
  iexact Hr

/-- ENTRY. `hsplit` is the library's split of the held buffers into the pipeline's array and the rest, at this data. -/
theorem hentryG7 (c : Dev nD) (hpf : (fun k => V c (pre7.ref k)) = a7.1)
    (hsplit : (unscopedBufs c (V c) : sProp 𝕄)
      ⊢ iprop((datG7 V a7 gblk c).arrays ((datG7 V a7 gblk c).arrAt · 0) ∗ Pipeline.unscopedRest spec7 c (V c))) :
    iprop((unscopedBufs c (V c) ∗ (∃ r, prngReg c r) ∗ ∃ W, owes (c : Thread nD τ) (0 : CellTallies nD τ sig Unit) W)
        ∗ Pipeline.ownSems0 (Ix := Unit) (Name := ℕ) (U := Pipeline.UD sig nD τ) (Lvl := ℕ) (Val := Elt F) (τ := τ) osem7 c
        ∗ levAts (fun _ : GSem nD τ sig => (∅ : Finset Unit)) (fun _ _ => (0 : ℕ)))
      ⊢ (|={Set.univ}=> iprop((datG7 V a7 gblk c).arrays ((datG7 V a7 gblk c).arrAt · 0)
          ∗ Pipeline.prefHeld pre7 c (fun _ => fullShare) a7.1
          ∗ (datG7 V a7 gblk c).owesAt () 0 ∗ XG7 V c ∗ ZG7 V c) : sProp 𝕄) := by
  have hrest := Pipeline.unscopedRest_split (Ix := Unit) (Name := ℕ) (U := Pipeline.UD sig nD τ) (Lvl := ℕ) preFacts7 c (V c)
  rw [hpf, Pipeline.unscopedRestP_sdiff pre7 spec7 H7 H7_sub c (V c)] at hrest
  rw [hrest] at hsplit
  iintro ⟨⟨Hub, Hp, HO⟩, Hs, -⟩
  ihave H := hsplit $$ Hub
  icases H with ⟨Ha, Ht, Hh, Hz⟩
  imodintro
  isplitl [Ha]; · iexact Ha
  isplitl [Ht]; · iexact Ht
  isplitl [HO]
  · unfold Pipeline.Dat.owesAt Pipeline.owesWithin
    icases HO with ⟨%W, HO⟩; iexists W; isplitr; · ipureintro; exact fun _ _ => Or.inl trivial
    iexact HO
  unfold XG7 ZG7
  isplitl [Hp Hs Hh]
  · isplitl [Hp]; · iexact Hp
    isplitl [Hs]; · iexact Hs
    iexact Hh
  iexact Hz

variable (Vn : (c : Dev nD) → (b : Ref sig .tc) → Buf (Elt F) ((c : Thread nD τ).loc b))

/-- EXIT. `hjoin` is the library's rejoining of the pipeline's array at its final contents with the rest, at this data. -/
theorem hexitG7 (c : Dev nD) (hpf : (fun k => V c (pre7.ref k)) = a7.1)
    (hjoin : iprop((datG7 V a7 gblk c).arrays ((datG7 V a7 gblk c).arrAt · (cfg7 a7).N) ∗ Pipeline.unscopedRest spec7 c (V c))
      ⊢ (unscopedBufs c (Vn c) : sProp 𝕄)) :
    iprop((datG7 V a7 gblk c).arrays ((datG7 V a7 gblk c).arrAt · (cfg7 a7).N)
        ∗ (datG7 V a7 gblk c).owesAt () (Fin.last (cfg7 a7).N) ∗ YG7 V a7 c ∗ ZG7 V c)
      ⊢ (|={Set.univ}=> iprop(unscopedBufs c (Vn c) ∗ (∃ r, prngReg c r) ∗ ∃ W, owes (c : Thread nD τ) (0 : CellTallies nD τ sig Unit) W) : sProp 𝕄) := by
  have hrest := Pipeline.unscopedRest_split (Ix := Unit) (Name := ℕ) (U := Pipeline.UD sig nD τ) (Lvl := ℕ) preFacts7 c (V c)
  rw [hpf, Pipeline.unscopedRestP_sdiff pre7 spec7 H7 H7_sub c (V c)] at hrest
  rw [hrest] at hjoin
  unfold YG7 ZG7
  iintro ⟨Ha, HO, ⟨Hp, Hh, Ht⟩, Hz⟩
  imodintro
  isplitl [Ha Hh Ht Hz]
  · iapply hjoin
    isplitl [Ha]; · iexact Ha
    isplitl [Ht]; · iexact Ht
    isplitl [Hh]; · iexact Hh
    iexact Hz
  isplitl [Hp]; · iexact Hp
  unfold Pipeline.Dat.owesAt Pipeline.owesWithin
  icases HO with ⟨%W, -, HO⟩; iexists W; iexact HO

end Cert.Kernel.Hand

end
-- ==== Proof.K.Gather8.lean ====
/-
  The row-gather region 8 of the kernel's program: its proof data and the facts the launch takes.

  Region 8 copies, at grid point t, the eight rows  A[tbl (8 t + j)]  (j < 8) of the 50000 x 128 array A it finds in
  HBM into the eight rows of its 8 x 128 output block; tbl is the region's index table of 85000 words, held in SMEM, and
  A is read only. So after the region the output array's row r is A's row tbl r. The body moves the rows by transfers
  of its own on eight semaphores of its own, all waited for before the point ends: between two points nothing is in
  flight, the table and A are as the region found them, and the semaphores are at zero. That is the region's invariant.
-/
import proofs.«402049_j87351044866139_2_alg».proof.Proof.Gen.Kernel.Launch
import proofs.«402049_j87351044866139_2_alg».proof.Proof.Gen.Kernel.Skeleton
import proofs.«402049_j87351044866139_2_alg».proof.Proof.Gen.Kernel.Points
import Idealize.ShloMosaic.Lib.Pipeline.Frame
import Idealize.ShloMosaic.Lib.Pipeline.FrameBody
import Idealize.ShloMosaic.Lib.Pipeline.RegionsLoop
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.Kernel Cert.Kernel.Gen

variable {F : FTy → Type} [FloatOps F]

local notation "𝕄" => MT nD τ sig Unit (Elt F) ℕ (Pipeline.UD sig nD τ) ℕ

/-- The eight semaphores the body's row transfers signal. -/
abbrev osem8 : Fin 8 → SemLoc sig := fun j =>
  (![SemLoc.dma 77, SemLoc.dma 78, SemLoc.dma 79, SemLoc.dma 80, SemLoc.dma 81, SemLoc.dma 82, SemLoc.dma 83, SemLoc.dma 84] : Fin 8 → SemLoc sig) j
theorem ownSemFacts8 : Pipeline.OwnSemFacts spec8 osem8 := by decide

/-- The array the rows are read from: left in HBM, no window's array and no table. -/
def H8 : Finset (Ref sig .tc) := {main_v33}
theorem H8_sub : H8 ⊆ Pipeline.restRefsP sig pre8 spec8 := by decide

variable (V : (c : Dev nD) → (b : Ref sig .tc) → Buf (Elt F) ((c : Thread nD τ).loc b))
variable (a8 : (pcfg8 (F := F)).Adm)
variable (gblk : (c : Dev nD) → Fin (cfg8 a8).N → S8x128.Idx → Elt F .f32)

/-- The region's proof data on core c: the output array as the region finds it; after point t the output block holds
    the eight gathered rows; the invariant above; full shares; nothing owed. -/
def datG8 (c : Dev nD) : Dat τ (Elt F) Unit ℕ (Pipeline.UD sig nD τ) ℕ (cfg8 a8) c where
  A w := V c (Pipeline.arrRef spec8 w)
  after w t := match w with
    | ⟨0, _⟩ => gblk c t
  Φ _ := iprop(Pipeline.ΦD osem8 spec8 H8 V c ∗ Pipeline.prefHeld pre8 c (fun _ => fullShare) a8.1)
  q _ := fullShare
  owed _ := 0

theorem A_eqG8 (c : Dev nD) (w : Fin (cfg8 a8).W) : (datG8 V a8 gblk c).A w = V c (Pipeline.arrRef spec8 w) := by
  dsimp only [datG8]
theorem afterG8_0 (c : Dev nD) (t : Fin (cfg8 a8).N) : (datG8 V a8 gblk c).after 0 t = gblk c t := rfl

/-! ## The region's protocol around the thread states

  Between two items of the program core c holds every unscoped buffer whole, beside its generator register and a record
  that it owes nothing. Entering the region, the output array goes to the pipeline, the table is handed over at its
  contents, the array A and the eight semaphores join the register in what the invariant takes (X), and the other
  buffers wait outside (Z). Leaving it, everything comes back: A and the table as they were. -/

/-- What the invariant takes at the first point beside the table and the scoped buffers. -/
def XG8 (c : Dev nD) : sProp 𝕄 :=
  iprop((∃ r, prngReg c r)
    ∗ Pipeline.ownSems0 (Ix := Unit) (Name := ℕ) (U := Pipeline.UD sig nD τ) (Lvl := ℕ) (Val := Elt F) (τ := τ) osem8 c
    ∗ bigSep H8 fun b => ((c.tc : Thread nD τ).loc b) ↦{fullShare} V c b)
/-- What it gives back at the last point beside the semaphores and the scoped buffers. -/
def YG8 (c : Dev nD) : sProp 𝕄 :=
  iprop((∃ r, prngReg c r) ∗ (bigSep H8 fun b => ((c.tc : Thread nD τ).loc b) ↦{fullShare} V c b)
    ∗ Pipeline.prefHeld pre8 c (fun _ => fullShare) a8.1)
/-- The unscoped buffers the region does not touch. -/
def ZG8 (c : Dev nD) : sProp 𝕄 :=
  bigSep (Pipeline.restRefsP sig pre8 spec8 \ H8) fun b => ((c.tc : Thread nD τ).loc b) ↦{fullShare} V c b

theorem hinG8 (c : Dev nD) :
    iprop(XG8 V c ∗ Pipeline.prefHeld pre8 c (fun _ => fullShare) a8.1
        ∗ Pipeline.scopedRest (Ix := Unit) (Name := ℕ) (U := Pipeline.UD sig nD τ) (Lvl := ℕ) (Val := Elt F) spec8 c)
      ⊢ (datG8 V a8 gblk c).Φ 0 := by
  rw [show (datG8 V a8 gblk c).Φ 0 = iprop(Pipeline.ΦD osem8 spec8 H8 V c ∗ Pipeline.prefHeld pre8 c (fun _ => fullShare) a8.1) from rfl,
    Pipeline.ΦD_eq]
  unfold XG8
  iintro ⟨⟨Hp, Hs, Hh⟩, Ht, Hr⟩
  isplitl [Hr Hp Hs Hh]
  · isplitl [Hr]; · iexact Hr
    isplitl [Hp]; · iexact Hp
    isplitl [Hs]; · iexact Hs
    iexact Hh
  iexact Ht

theorem houtG8 (c : Dev nD) :
    (datG8 V a8 gblk c).Φ (Fin.last (cfg8 a8).N)
      ⊢ iprop(YG8 V a8 c
          ∗ Pipeline.ownSems0 (Ix := Unit) (Name := ℕ) (U := Pipeline.UD sig nD τ) (Lvl := ℕ) (Val := Elt F) (τ := τ) osem8 c
          ∗ Pipeline.scopedRest (Ix := Unit) (Name := ℕ) (U := Pipeline.UD sig nD τ) (Lvl := ℕ) (Val := Elt F) spec8 c) := by
  rw [show (datG8 V a8 gblk c).Φ (Fin.last (cfg8 a8).N) = iprop(Pipeline.ΦD osem8 spec8 H8 V c ∗ Pipeline.prefHeld pre8 c (fun _ => fullShare) a8.1) from rfl,
    Pipeline.ΦD_eq]
  unfold YG8
  iintro ⟨⟨Hr, Hp, Hs, Hh⟩, Ht⟩
  isplitl [Hp Hh Ht]
  · isplitl [Hp]; · iexact Hp
    isplitl [Hh]; · iexact Hh
    iexact Ht
  isplitl [Hs]; · iexact Hs
  iexact Hr

/-- ENTRY. `hsplit` is the library's split of the held buffers into the pipeline's array and the rest, at this data. -/
theorem hentryG8 (c : Dev nD) (hpf : (fun k => V c (pre8.ref k)) = a8.1)
    (hsplit : (unscopedBufs c (V c) : sProp 𝕄)
      ⊢ iprop((datG8 V a8 gblk c).arrays ((datG8 V a8 gblk c).arrAt · 0) ∗ Pipeline.unscopedRest spec8 c (V c))) :
    iprop((unscopedBufs c (V c) ∗ (∃ r, prngReg c r) ∗ ∃ W, owes (c : Thread nD τ) (0 : CellTallies nD τ sig Unit) W)
        ∗ Pipeline.ownSems0 (Ix := Unit) (Name := ℕ) (U := Pipeline.UD sig nD τ) (Lvl := ℕ) (Val := Elt F) (τ := τ) osem8 c
        ∗ levAts (fun _ : GSem nD τ sig => (∅ : Finset Unit)) (fun _ _ => (0 : ℕ)))
      ⊢ (|={Set.univ}=> iprop((datG8 V a8 gblk c).arrays ((datG8 V a8 gblk c).arrAt · 0)
          ∗ Pipeline.prefHeld pre8 c (fun _ => fullShare) a8.1
          ∗ (datG8 V a8 gblk c).owesAt () 0 ∗ XG8 V c ∗ ZG8 V c) : sProp 𝕄) := by
  have hrest := Pipeline.unscopedRest_split (Ix := Unit) (Name := ℕ) (U := Pipeline.UD sig nD τ) (Lvl := ℕ) preFacts8 c (V c)
  rw [hpf, Pipeline.unscopedRestP_sdiff pre8 spec8 H8 H8_sub c (V c)] at hrest
  rw [hrest] at hsplit
  iintro ⟨⟨Hub, Hp, HO⟩, Hs, -⟩
  ihave H := hsplit $$ Hub
  icases H with ⟨Ha, Ht, Hh, Hz⟩
  imodintro
  isplitl [Ha]; · iexact Ha
  isplitl [Ht]; · iexact Ht
  isplitl [HO]
  · unfold Pipeline.Dat.owesAt Pipeline.owesWithin
    icases HO with ⟨%W, HO⟩; iexists W; isplitr; · ipureintro; exact fun _ _ => Or.inl trivial
    iexact HO
  unfold XG8 ZG8
  isplitl [Hp Hs Hh]
  · isplitl [Hp]; · iexact Hp
    isplitl [Hs]; · iexact Hs
    iexact Hh
  iexact Hz

variable (Vn : (c : Dev nD) → (b : Ref sig .tc) → Buf (Elt F) ((c : Thread nD τ).loc b))

/-- EXIT. `hjoin` is the library's rejoining of the pipeline's array at its final contents with the rest, at this data. -/
theorem hexitG8 (c : Dev nD) (hpf : (fun k => V c (pre8.ref k)) = a8.1)
    (hjoin : iprop((datG8 V a8 gblk c).arrays ((datG8 V a8 gblk c).arrAt · (cfg8 a8).N) ∗ Pipeline.unscopedRest spec8 c (V c))
      ⊢ (unscopedBufs c (Vn c) : sProp 𝕄)) :
    iprop((datG8 V a8 gblk c).arrays ((datG8 V a8 gblk c).arrAt · (cfg8 a8).N)
        ∗ (datG8 V a8 gblk c).owesAt () (Fin.last (cfg8 a8).N) ∗ YG8 V a8 c ∗ ZG8 V c)
      ⊢ (|={Set.univ}=> iprop(unscopedBufs c (Vn c) ∗ (∃ r, prngReg c r) ∗ ∃ W, owes (c : Thread nD τ) (0 : CellTallies nD τ sig Unit) W) : sProp 𝕄) := by
  have hrest := Pipeline.unscopedRest_split (Ix := Unit) (Name := ℕ) (U := Pipeline.UD sig nD τ) (Lvl := ℕ) preFacts8 c (V c)
  rw [hpf, Pipeline.unscopedRestP_sdiff pre8 spec8 H8 H8_sub c (V c)] at hrest
  rw [hrest] at hjoin
  unfold YG8 ZG8
  iintro ⟨Ha, HO, ⟨Hp, Hh, Ht⟩, Hz⟩
  imodintro
  isplitl [Ha Hh Ht Hz]
  · iapply hjoin
    isplitl [Ha]; · iexact Ha
    isplitl [Ht]; · iexact Ht
    isplitl [Hh]; · iexact Hh
    iexact Hz
  isplitl [Hp]; · iexact Hp
  unfold Pipeline.Dat.owesAt Pipeline.owesWithin
  icases HO with ⟨%W, -, HO⟩; iexists W; iexact HO

end Cert.Kernel.Hand

end
-- ==== Proof.K.Gather9.lean ====
/-
  The row-gather region 9 of the kernel's program: its proof data and the facts the launch takes.

  Region 9 copies, at grid point t, the eight rows  A[tbl (8 t + j)]  (j < 8) of the 50000 x 128 array A it finds in
  HBM into the eight rows of its 8 x 128 output block; tbl is the region's index table of 85000 words, held in SMEM, and
  A is read only. So after the region the output array's row r is A's row tbl r. The body moves the rows by transfers
  of its own on eight semaphores of its own, all waited for before the point ends: between two points nothing is in
  flight, the table and A are as the region found them, and the semaphores are at zero. That is the region's invariant.
-/
import proofs.«402049_j87351044866139_2_alg».proof.Proof.Gen.Kernel.Launch
import proofs.«402049_j87351044866139_2_alg».proof.Proof.Gen.Kernel.Skeleton
import proofs.«402049_j87351044866139_2_alg».proof.Proof.Gen.Kernel.Points
import Idealize.ShloMosaic.Lib.Pipeline.Frame
import Idealize.ShloMosaic.Lib.Pipeline.FrameBody
import Idealize.ShloMosaic.Lib.Pipeline.RegionsLoop
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.Kernel Cert.Kernel.Gen

variable {F : FTy → Type} [FloatOps F]

local notation "𝕄" => MT nD τ sig Unit (Elt F) ℕ (Pipeline.UD sig nD τ) ℕ

/-- The eight semaphores the body's row transfers signal. -/
abbrev osem9 : Fin 8 → SemLoc sig := fun j =>
  (![SemLoc.dma 87, SemLoc.dma 88, SemLoc.dma 89, SemLoc.dma 90, SemLoc.dma 91, SemLoc.dma 92, SemLoc.dma 93, SemLoc.dma 94] : Fin 8 → SemLoc sig) j
theorem ownSemFacts9 : Pipeline.OwnSemFacts spec9 osem9 := by decide

/-- The array the rows are read from: left in HBM, no window's array and no table. -/
def H9 : Finset (Ref sig .tc) := {main_v33}
theorem H9_sub : H9 ⊆ Pipeline.restRefsP sig pre9 spec9 := by decide

variable (V : (c : Dev nD) → (b : Ref sig .tc) → Buf (Elt F) ((c : Thread nD τ).loc b))
variable (a9 : (pcfg9 (F := F)).Adm)
variable (gblk : (c : Dev nD) → Fin (cfg9 a9).N → S8x128.Idx → Elt F .f32)

/-- The region's proof data on core c: the output array as the region finds it; after point t the output block holds
    the eight gathered rows; the invariant above; full shares; nothing owed. -/
def datG9 (c : Dev nD) : Dat τ (Elt F) Unit ℕ (Pipeline.UD sig nD τ) ℕ (cfg9 a9) c where
  A w := V c (Pipeline.arrRef spec9 w)
  after w t := match w with
    | ⟨0, _⟩ => gblk c t
  Φ _ := iprop(Pipeline.ΦD osem9 spec9 H9 V c ∗ Pipeline.prefHeld pre9 c (fun _ => fullShare) a9.1)
  q _ := fullShare
  owed _ := 0

theorem A_eqG9 (c : Dev nD) (w : Fin (cfg9 a9).W) : (datG9 V a9 gblk c).A w = V c (Pipeline.arrRef spec9 w) := by
  dsimp only [datG9]
theorem afterG9_0 (c : Dev nD) (t : Fin (cfg9 a9).N) : (datG9 V a9 gblk c).after 0 t = gblk c t := rfl

/-! ## The region's protocol around the thread states

  Between two items of the program core c holds every unscoped buffer whole, beside its generator register and a record
  that it owes nothing. Entering the region, the output array goes to the pipeline, the table is handed over at its
  contents, the array A and the eight semaphores join the register in what the invariant takes (X), and the other
  buffers wait outside (Z). Leaving it, everything comes back: A and the table as they were. -/

/-- What the invariant takes at the first point beside the table and the scoped buffers. -/
def XG9 (c : Dev nD) : sProp 𝕄 :=
  iprop((∃ r, prngReg c r)
    ∗ Pipeline.ownSems0 (Ix := Unit) (Name := ℕ) (U := Pipeline.UD sig nD τ) (Lvl := ℕ) (Val := Elt F) (τ := τ) osem9 c
    ∗ bigSep H9 fun b => ((c.tc : Thread nD τ).loc b) ↦{fullShare} V c b)
/-- What it gives back at the last point beside the semaphores and the scoped buffers. -/
def YG9 (c : Dev nD) : sProp 𝕄 :=
  iprop((∃ r, prngReg c r) ∗ (bigSep H9 fun b => ((c.tc : Thread nD τ).loc b) ↦{fullShare} V c b)
    ∗ Pipeline.prefHeld pre9 c (fun _ => fullShare) a9.1)
/-- The unscoped buffers the region does not touch. -/
def ZG9 (c : Dev nD) : sProp 𝕄 :=
  bigSep (Pipeline.restRefsP sig pre9 spec9 \ H9) fun b => ((c.tc : Thread nD τ).loc b) ↦{fullShare} V c b

theorem hinG9 (c : Dev nD) :
    iprop(XG9 V c ∗ Pipeline.prefHeld pre9 c (fun _ => fullShare) a9.1
        ∗ Pipeline.scopedRest (Ix := Unit) (Name := ℕ) (U := Pipeline.UD sig nD τ) (Lvl := ℕ) (Val := Elt F) spec9 c)
      ⊢ (datG9 V a9 gblk c).Φ 0 := by
  rw [show (datG9 V a9 gblk c).Φ 0 = iprop(Pipeline.ΦD osem9 spec9 H9 V c ∗ Pipeline.prefHeld pre9 c (fun _ => fullShare) a9.1) from rfl,
    Pipeline.ΦD_eq]
  unfold XG9
  iintro ⟨⟨Hp, Hs, Hh⟩, Ht, Hr⟩
  isplitl [Hr Hp Hs Hh]
  · isplitl [Hr]; · iexact Hr
    isplitl [Hp]; · iexact Hp
    isplitl [Hs]; · iexact Hs
    iexact Hh
  iexact Ht

theorem houtG9 (c : Dev nD) :
    (datG9 V a9 gblk c).Φ (Fin.last (cfg9 a9).N)
      ⊢ iprop(YG9 V a9 c
          ∗ Pipeline.ownSems0 (Ix := Unit) (Name := ℕ) (U := Pipeline.UD sig nD τ) (Lvl := ℕ) (Val := Elt F) (τ := τ) osem9 c
          ∗ Pipeline.scopedRest (Ix := Unit) (Name := ℕ) (U := Pipeline.UD sig nD τ) (Lvl := ℕ) (Val := Elt F) spec9 c) := by
  rw [show (datG9 V a9 gblk c).Φ (Fin.last (cfg9 a9).N) = iprop(Pipeline.ΦD osem9 spec9 H9 V c ∗ Pipeline.prefHeld pre9 c (fun _ => fullShare) a9.1) from rfl,
    Pipeline.ΦD_eq]
  unfold YG9
  iintro ⟨⟨Hr, Hp, Hs, Hh⟩, Ht⟩
  isplitl [Hp Hh Ht]
  · isplitl [Hp]; · iexact Hp
    isplitl [Hh]; · iexact Hh
    iexact Ht
  isplitl [Hs]; · iexact Hs
  iexact Hr

/-- ENTRY. `hsplit` is the library's split of the held buffers into the pipeline's array and the rest, at this data. -/
theorem hentryG9 (c : Dev nD) (hpf : (fun k => V c (pre9.ref k)) = a9.1)
    (hsplit : (unscopedBufs c (V c) : sProp 𝕄)
      ⊢ iprop((datG9 V a9 gblk c).arrays ((datG9 V a9 gblk c).arrAt · 0) ∗ Pipeline.unscopedRest spec9 c (V c))) :
    iprop((unscopedBufs c (V c) ∗ (∃ r, prngReg c r) ∗ ∃ W, owes (c : Thread nD τ) (0 : CellTallies nD τ sig Unit) W)
        ∗ Pipeline.ownSems0 (Ix := Unit) (Name := ℕ) (U := Pipeline.UD sig nD τ) (Lvl := ℕ) (Val := Elt F) (τ := τ) osem9 c
        ∗ levAts (fun _ : GSem nD τ sig => (∅ : Finset Unit)) (fun _ _ => (0 : ℕ)))
      ⊢ (|={Set.univ}=> iprop((datG9 V a9 gblk c).arrays ((datG9 V a9 gblk c).arrAt · 0)
          ∗ Pipeline.prefHeld pre9 c (fun _ => fullShare) a9.1
          ∗ (datG9 V a9 gblk c).owesAt () 0 ∗ XG9 V c ∗ ZG9 V c) : sProp 𝕄) := by
  have hrest := Pipeline.unscopedRest_split (Ix := Unit) (Name := ℕ) (U := Pipeline.UD sig nD τ) (Lvl := ℕ) preFacts9 c (V c)
  rw [hpf, Pipeline.unscopedRestP_sdiff pre9 spec9 H9 H9_sub c (V c)] at hrest
  rw [hrest] at hsplit
  iintro ⟨⟨Hub, Hp, HO⟩, Hs, -⟩
  ihave H := hsplit $$ Hub
  icases H with ⟨Ha, Ht, Hh, Hz⟩
  imodintro
  isplitl [Ha]; · iexact Ha
  isplitl [Ht]; · iexact Ht
  isplitl [HO]
  · unfold Pipeline.Dat.owesAt Pipeline.owesWithin
    icases HO with ⟨%W, HO⟩; iexists W; isplitr; · ipureintro; exact fun _ _ => Or.inl trivial
    iexact HO
  unfold XG9 ZG9
  isplitl [Hp Hs Hh]
  · isplitl [Hp]; · iexact Hp
    isplitl [Hs]; · iexact Hs
    iexact Hh
  iexact Hz

variable (Vn : (c : Dev nD) → (b : Ref sig .tc) → Buf (Elt F) ((c : Thread nD τ).loc b))

/-- EXIT. `hjoin` is the library's rejoining of the pipeline's array at its final contents with the rest, at this data. -/
theorem hexitG9 (c : Dev nD) (hpf : (fun k => V c (pre9.ref k)) = a9.1)
    (hjoin : iprop((datG9 V a9 gblk c).arrays ((datG9 V a9 gblk c).arrAt · (cfg9 a9).N) ∗ Pipeline.unscopedRest spec9 c (V c))
      ⊢ (unscopedBufs c (Vn c) : sProp 𝕄)) :
    iprop((datG9 V a9 gblk c).arrays ((datG9 V a9 gblk c).arrAt · (cfg9 a9).N)
        ∗ (datG9 V a9 gblk c).owesAt () (Fin.last (cfg9 a9).N) ∗ YG9 V a9 c ∗ ZG9 V c)
      ⊢ (|={Set.univ}=> iprop(unscopedBufs c (Vn c) ∗ (∃ r, prngReg c r) ∗ ∃ W, owes (c : Thread nD τ) (0 : CellTallies nD τ sig Unit) W) : sProp 𝕄) := by
  have hrest := Pipeline.unscopedRest_split (Ix := Unit) (Name := ℕ) (U := Pipeline.UD sig nD τ) (Lvl := ℕ) preFacts9 c (V c)
  rw [hpf, Pipeline.unscopedRestP_sdiff pre9 spec9 H9 H9_sub c (V c)] at hrest
  rw [hrest] at hjoin
  unfold YG9 ZG9
  iintro ⟨Ha, HO, ⟨Hp, Hh, Ht⟩, Hz⟩
  imodintro
  isplitl [Ha Hh Ht Hz]
  · iapply hjoin
    isplitl [Ha]; · iexact Ha
    isplitl [Ht]; · iexact Ht
    isplitl [Hh]; · iexact Hh
    iexact Hz
  isplitl [Hp]; · iexact Hp
  unfold Pipeline.Dat.owesAt Pipeline.owesWithin
  icases HO with ⟨%W, -, HO⟩; iexists W; iexact HO

end Cert.Kernel.Hand

end
-- ==== Proof.K.Gather10.lean ====
/-
  The row-gather region 10 of the kernel's program: its proof data and the facts the launch takes.

  Region 10 copies, at grid point t, the eight rows  A[tbl (8 t + j)]  (j < 8) of the 50000 x 128 array A it finds in
  HBM into the eight rows of its 8 x 128 output block; tbl is the region's index table of 85000 words, held in SMEM, and
  A is read only. So after the region the output array's row r is A's row tbl r. The body moves the rows by transfers
  of its own on eight semaphores of its own, all waited for before the point ends: between two points nothing is in
  flight, the table and A are as the region found them, and the semaphores are at zero. That is the region's invariant.
-/
import proofs.«402049_j87351044866139_2_alg».proof.Proof.Gen.Kernel.Launch
import proofs.«402049_j87351044866139_2_alg».proof.Proof.Gen.Kernel.Skeleton
import proofs.«402049_j87351044866139_2_alg».proof.Proof.Gen.Kernel.Points
import Idealize.ShloMosaic.Lib.Pipeline.Frame
import Idealize.ShloMosaic.Lib.Pipeline.FrameBody
import Idealize.ShloMosaic.Lib.Pipeline.RegionsLoop
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.Kernel Cert.Kernel.Gen

variable {F : FTy → Type} [FloatOps F]

local notation "𝕄" => MT nD τ sig Unit (Elt F) ℕ (Pipeline.UD sig nD τ) ℕ

/-- The eight semaphores the body's row transfers signal. -/
abbrev osem10 : Fin 8 → SemLoc sig := fun j =>
  (![SemLoc.dma 97, SemLoc.dma 98, SemLoc.dma 99, SemLoc.dma 100, SemLoc.dma 101, SemLoc.dma 102, SemLoc.dma 103, SemLoc.dma 104] : Fin 8 → SemLoc sig) j
theorem ownSemFacts10 : Pipeline.OwnSemFacts spec10 osem10 := by decide

/-- The array the rows are read from: left in HBM, no window's array and no table. -/
def H10 : Finset (Ref sig .tc) := {main_v33}
theorem H10_sub : H10 ⊆ Pipeline.restRefsP sig pre10 spec10 := by decide

variable (V : (c : Dev nD) → (b : Ref sig .tc) → Buf (Elt F) ((c : Thread nD τ).loc b))
variable (a10 : (pcfg10 (F := F)).Adm)
variable (gblk : (c : Dev nD) → Fin (cfg10 a10).N → S8x128.Idx → Elt F .f32)

/-- The region's proof data on core c: the output array as the region finds it; after point t the output block holds
    the eight gathered rows; the invariant above; full shares; nothing owed. -/
def datG10 (c : Dev nD) : Dat τ (Elt F) Unit ℕ (Pipeline.UD sig nD τ) ℕ (cfg10 a10) c where
  A w := V c (Pipeline.arrRef spec10 w)
  after w t := match w with
    | ⟨0, _⟩ => gblk c t
  Φ _ := iprop(Pipeline.ΦD osem10 spec10 H10 V c ∗ Pipeline.prefHeld pre10 c (fun _ => fullShare) a10.1)
  q _ := fullShare
  owed _ := 0

theorem A_eqG10 (c : Dev nD) (w : Fin (cfg10 a10).W) : (datG10 V a10 gblk c).A w = V c (Pipeline.arrRef spec10 w) := by
  dsimp only [datG10]
theorem afterG10_0 (c : Dev nD) (t : Fin (cfg10 a10).N) : (datG10 V a10 gblk c).after 0 t = gblk c t := rfl

/-! ## The region's protocol around the thread states

  Between two items of the program core c holds every unscoped buffer whole, beside its generator register and a record
  that it owes nothing. Entering the region, the output array goes to the pipeline, the table is handed over at its
  contents, the array A and the eight semaphores join the register in what the invariant takes (X), and the other
  buffers wait outside (Z). Leaving it, everything comes back: A and the table as they were. -/

/-- What the invariant takes at the first point beside the table and the scoped buffers. -/
def XG10 (c : Dev nD) : sProp 𝕄 :=
  iprop((∃ r, prngReg c r)
    ∗ Pipeline.ownSems0 (Ix := Unit) (Name := ℕ) (U := Pipeline.UD sig nD τ) (Lvl := ℕ) (Val := Elt F) (τ := τ) osem10 c
    ∗ bigSep H10 fun b => ((c.tc : Thread nD τ).loc b) ↦{fullShare} V c b)
/-- What it gives back at the last point beside the semaphores and the scoped buffers. -/
def YG10 (c : Dev nD) : sProp 𝕄 :=
  iprop((∃ r, prngReg c r) ∗ (bigSep H10 fun b => ((c.tc : Thread nD τ).loc b) ↦{fullShare} V c b)
    ∗ Pipeline.prefHeld pre10 c (fun _ => fullShare) a10.1)
/-- The unscoped buffers the region does not touch. -/
def ZG10 (c : Dev nD) : sProp 𝕄 :=
  bigSep (Pipeline.restRefsP sig pre10 spec10 \ H10) fun b => ((c.tc : Thread nD τ).loc b) ↦{fullShare} V c b

theorem hinG10 (c : Dev nD) :
    iprop(XG10 V c ∗ Pipeline.prefHeld pre10 c (fun _ => fullShare) a10.1
        ∗ Pipeline.scopedRest (Ix := Unit) (Name := ℕ) (U := Pipeline.UD sig nD τ) (Lvl := ℕ) (Val := Elt F) spec10 c)
      ⊢ (datG10 V a10 gblk c).Φ 0 := by
  rw [show (datG10 V a10 gblk c).Φ 0 = iprop(Pipeline.ΦD osem10 spec10 H10 V c ∗ Pipeline.prefHeld pre10 c (fun _ => fullShare) a10.1) from rfl,
    Pipeline.ΦD_eq]
  unfold XG10
  iintro ⟨⟨Hp, Hs, Hh⟩, Ht, Hr⟩
  isplitl [Hr Hp Hs Hh]
  · isplitl [Hr]; · iexact Hr
    isplitl [Hp]; · iexact Hp
    isplitl [Hs]; · iexact Hs
    iexact Hh
  iexact Ht

theorem houtG10 (c : Dev nD) :
    (datG10 V a10 gblk c).Φ (Fin.last (cfg10 a10).N)
      ⊢ iprop(YG10 V a10 c
          ∗ Pipeline.ownSems0 (Ix := Unit) (Name := ℕ) (U := Pipeline.UD sig nD τ) (Lvl := ℕ) (Val := Elt F) (τ := τ) osem10 c
          ∗ Pipeline.scopedRest (Ix := Unit) (Name := ℕ) (U := Pipeline.UD sig nD τ) (Lvl := ℕ) (Val := Elt F) spec10 c) := by
  rw [show (datG10 V a10 gblk c).Φ (Fin.last (cfg10 a10).N) = iprop(Pipeline.ΦD osem10 spec10 H10 V c ∗ Pipeline.prefHeld pre10 c (fun _ => fullShare) a10.1) from rfl,
    Pipeline.ΦD_eq]
  unfold YG10
  iintro ⟨⟨Hr, Hp, Hs, Hh⟩, Ht⟩
  isplitl [Hp Hh Ht]
  · isplitl [Hp]; · iexact Hp
    isplitl [Hh]; · iexact Hh
    iexact Ht
  isplitl [Hs]; · iexact Hs
  iexact Hr

/-- ENTRY. `hsplit` is the library's split of the held buffers into the pipeline's array and the rest, at this data. -/
theorem hentryG10 (c : Dev nD) (hpf : (fun k => V c (pre10.ref k)) = a10.1)
    (hsplit : (unscopedBufs c (V c) : sProp 𝕄)
      ⊢ iprop((datG10 V a10 gblk c).arrays ((datG10 V a10 gblk c).arrAt · 0) ∗ Pipeline.unscopedRest spec10 c (V c))) :
    iprop((unscopedBufs c (V c) ∗ (∃ r, prngReg c r) ∗ ∃ W, owes (c : Thread nD τ) (0 : CellTallies nD τ sig Unit) W)
        ∗ Pipeline.ownSems0 (Ix := Unit) (Name := ℕ) (U := Pipeline.UD sig nD τ) (Lvl := ℕ) (Val := Elt F) (τ := τ) osem10 c
        ∗ levAts (fun _ : GSem nD τ sig => (∅ : Finset Unit)) (fun _ _ => (0 : ℕ)))
      ⊢ (|={Set.univ}=> iprop((datG10 V a10 gblk c).arrays ((datG10 V a10 gblk c).arrAt · 0)
          ∗ Pipeline.prefHeld pre10 c (fun _ => fullShare) a10.1
          ∗ (datG10 V a10 gblk c).owesAt () 0 ∗ XG10 V c ∗ ZG10 V c) : sProp 𝕄) := by
  have hrest := Pipeline.unscopedRest_split (Ix := Unit) (Name := ℕ) (U := Pipeline.UD sig nD τ) (Lvl := ℕ) preFacts10 c (V c)
  rw [hpf, Pipeline.unscopedRestP_sdiff pre10 spec10 H10 H10_sub c (V c)] at hrest
  rw [hrest] at hsplit
  iintro ⟨⟨Hub, Hp, HO⟩, Hs, -⟩
  ihave H := hsplit $$ Hub
  icases H with ⟨Ha, Ht, Hh, Hz⟩
  imodintro
  isplitl [Ha]; · iexact Ha
  isplitl [Ht]; · iexact Ht
  isplitl [HO]
  · unfold Pipeline.Dat.owesAt Pipeline.owesWithin
    icases HO with ⟨%W, HO⟩; iexists W; isplitr; · ipureintro; exact fun _ _ => Or.inl trivial
    iexact HO
  unfold XG10 ZG10
  isplitl [Hp Hs Hh]
  · isplitl [Hp]; · iexact Hp
    isplitl [Hs]; · iexact Hs
    iexact Hh
  iexact Hz

variable (Vn : (c : Dev nD) → (b : Ref sig .tc) → Buf (Elt F) ((c : Thread nD τ).loc b))

/-- EXIT. `hjoin` is the library's rejoining of the pipeline's array at its final contents with the rest, at this data. -/
theorem hexitG10 (c : Dev nD) (hpf : (fun k => V c (pre10.ref k)) = a10.1)
    (hjoin : iprop((datG10 V a10 gblk c).arrays ((datG10 V a10 gblk c).arrAt · (cfg10 a10).N) ∗ Pipeline.unscopedRest spec10 c (V c))
      ⊢ (unscopedBufs c (Vn c) : sProp 𝕄)) :
    iprop((datG10 V a10 gblk c).arrays ((datG10 V a10 gblk c).arrAt · (cfg10 a10).N)
        ∗ (datG10 V a10 gblk c).owesAt () (Fin.last (cfg10 a10).N) ∗ YG10 V a10 c ∗ ZG10 V c)
      ⊢ (|={Set.univ}=> iprop(unscopedBufs c (Vn c) ∗ (∃ r, prngReg c r) ∗ ∃ W, owes (c : Thread nD τ) (0 : CellTallies nD τ sig Unit) W) : sProp 𝕄) := by
  have hrest := Pipeline.unscopedRest_split (Ix := Unit) (Name := ℕ) (U := Pipeline.UD sig nD τ) (Lvl := ℕ) preFacts10 c (V c)
  rw [hpf, Pipeline.unscopedRestP_sdiff pre10 spec10 H10 H10_sub c (V c)] at hrest
  rw [hrest] at hjoin
  unfold YG10 ZG10
  iintro ⟨Ha, HO, ⟨Hp, Hh, Ht⟩, Hz⟩
  imodintro
  isplitl [Ha Hh Ht Hz]
  · iapply hjoin
    isplitl [Ha]; · iexact Ha
    isplitl [Ht]; · iexact Ht
    isplitl [Hh]; · iexact Hh
    iexact Hz
  isplitl [Hp]; · iexact Hp
  unfold Pipeline.Dat.owesAt Pipeline.owesWithin
  icases HO with ⟨%W, -, HO⟩; iexists W; iexact HO

end Cert.Kernel.Hand

end
-- ==== Proof.K.Gather12.lean ====
/-
  The row-gather region 12 of the kernel's program: its proof data and the facts the launch takes.

  Region 12 copies, at grid point t, the eight rows  A[tbl (8 t + j)]  (j < 8) of the 50000 x 128 array A it finds in
  HBM into the eight rows of its 8 x 128 output block; tbl is the region's index table of 85000 words, held in SMEM, and
  A is read only. So after the region the output array's row r is A's row tbl r. The body moves the rows by transfers
  of its own on eight semaphores of its own, all waited for before the point ends: between two points nothing is in
  flight, the table and A are as the region found them, and the semaphores are at zero. That is the region's invariant.
-/
import proofs.«402049_j87351044866139_2_alg».proof.Proof.Gen.Kernel.Launch
import proofs.«402049_j87351044866139_2_alg».proof.Proof.Gen.Kernel.Skeleton
import proofs.«402049_j87351044866139_2_alg».proof.Proof.Gen.Kernel.Points
import Idealize.ShloMosaic.Lib.Pipeline.Frame
import Idealize.ShloMosaic.Lib.Pipeline.FrameBody
import Idealize.ShloMosaic.Lib.Pipeline.RegionsLoop
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.Kernel Cert.Kernel.Gen

variable {F : FTy → Type} [FloatOps F]

local notation "𝕄" => MT nD τ sig Unit (Elt F) ℕ (Pipeline.UD sig nD τ) ℕ

/-- The eight semaphores the body's row transfers signal. -/
abbrev osem12 : Fin 8 → SemLoc sig := fun j =>
  (![SemLoc.dma 113, SemLoc.dma 114, SemLoc.dma 115, SemLoc.dma 116, SemLoc.dma 117, SemLoc.dma 118, SemLoc.dma 119, SemLoc.dma 120] : Fin 8 → SemLoc sig) j
theorem ownSemFacts12 : Pipeline.OwnSemFacts spec12 osem12 := by decide

/-- The array the rows are read from: left in HBM, no window's array and no table. -/
def H12 : Finset (Ref sig .tc) := {main_v61}
theorem H12_sub : H12 ⊆ Pipeline.restRefsP sig pre12 spec12 := by decide

variable (V : (c : Dev nD) → (b : Ref sig .tc) → Buf (Elt F) ((c : Thread nD τ).loc b))
variable (a12 : (pcfg12 (F := F)).Adm)
variable (gblk : (c : Dev nD) → Fin (cfg12 a12).N → S8x128.Idx → Elt F .f32)

/-- The region's proof data on core c: the output array as the region finds it; after point t the output block holds
    the eight gathered rows; the invariant above; full shares; nothing owed. -/
def datG12 (c : Dev nD) : Dat τ (Elt F) Unit ℕ (Pipeline.UD sig nD τ) ℕ (cfg12 a12) c where
  A w := V c (Pipeline.arrRef spec12 w)
  after w t := match w with
    | ⟨0, _⟩ => gblk c t
  Φ _ := iprop(Pipeline.ΦD osem12 spec12 H12 V c ∗ Pipeline.prefHeld pre12 c (fun _ => fullShare) a12.1)
  q _ := fullShare
  owed _ := 0

theorem A_eqG12 (c : Dev nD) (w : Fin (cfg12 a12).W) : (datG12 V a12 gblk c).A w = V c (Pipeline.arrRef spec12 w) := by
  dsimp only [datG12]
theorem afterG12_0 (c : Dev nD) (t : Fin (cfg12 a12).N) : (datG12 V a12 gblk c).after 0 t = gblk c t := rfl

/-! ## The region's protocol around the thread states

  Between two items of the program core c holds every unscoped buffer whole, beside its generator register and a record
  that it owes nothing. Entering the region, the output array goes to the pipeline, the table is handed over at its
  contents, the array A and the eight semaphores join the register in what the invariant takes (X), and the other
  buffers wait outside (Z). Leaving it, everything comes back: A and the table as they were. -/

/-- What the invariant takes at the first point beside the table and the scoped buffers. -/
def XG12 (c : Dev nD) : sProp 𝕄 :=
  iprop((∃ r, prngReg c r)
    ∗ Pipeline.ownSems0 (Ix := Unit) (Name := ℕ) (U := Pipeline.UD sig nD τ) (Lvl := ℕ) (Val := Elt F) (τ := τ) osem12 c
    ∗ bigSep H12 fun b => ((c.tc : Thread nD τ).loc b) ↦{fullShare} V c b)
/-- What it gives back at the last point beside the semaphores and the scoped buffers. -/
def YG12 (c : Dev nD) : sProp 𝕄 :=
  iprop((∃ r, prngReg c r) ∗ (bigSep H12 fun b => ((c.tc : Thread nD τ).loc b) ↦{fullShare} V c b)
    ∗ Pipeline.prefHeld pre12 c (fun _ => fullShare) a12.1)
/-- The unscoped buffers the region does not touch. -/
def ZG12 (c : Dev nD) : sProp 𝕄 :=
  bigSep (Pipeline.restRefsP sig pre12 spec12 \ H12) fun b => ((c.tc : Thread nD τ).loc b) ↦{fullShare} V c b

theorem hinG12 (c : Dev nD) :
    iprop(XG12 V c ∗ Pipeline.prefHeld pre12 c (fun _ => fullShare) a12.1
        ∗ Pipeline.scopedRest (Ix := Unit) (Name := ℕ) (U := Pipeline.UD sig nD τ) (Lvl := ℕ) (Val := Elt F) spec12 c)
      ⊢ (datG12 V a12 gblk c).Φ 0 := by
  rw [show (datG12 V a12 gblk c).Φ 0 = iprop(Pipeline.ΦD osem12 spec12 H12 V c ∗ Pipeline.prefHeld pre12 c (fun _ => fullShare) a12.1) from rfl,
    Pipeline.ΦD_eq]
  unfold XG12
  iintro ⟨⟨Hp, Hs, Hh⟩, Ht, Hr⟩
  isplitl [Hr Hp Hs Hh]
  · isplitl [Hr]; · iexact Hr
    isplitl [Hp]; · iexact Hp
    isplitl [Hs]; · iexact Hs
    iexact Hh
  iexact Ht

theorem houtG12 (c : Dev nD) :
    (datG12 V a12 gblk c).Φ (Fin.last (cfg12 a12).N)
      ⊢ iprop(YG12 V a12 c
          ∗ Pipeline.ownSems0 (Ix := Unit) (Name := ℕ) (U := Pipeline.UD sig nD τ) (Lvl := ℕ) (Val := Elt F) (τ := τ) osem12 c
          ∗ Pipeline.scopedRest (Ix := Unit) (Name := ℕ) (U := Pipeline.UD sig nD τ) (Lvl := ℕ) (Val := Elt F) spec12 c) := by
  rw [show (datG12 V a12 gblk c).Φ (Fin.last (cfg12 a12).N) = iprop(Pipeline.ΦD osem12 spec12 H12 V c ∗ Pipeline.prefHeld pre12 c (fun _ => fullShare) a12.1) from rfl,
    Pipeline.ΦD_eq]
  unfold YG12
  iintro ⟨⟨Hr, Hp, Hs, Hh⟩, Ht⟩
  isplitl [Hp Hh Ht]
  · isplitl [Hp]; · iexact Hp
    isplitl [Hh]; · iexact Hh
    iexact Ht
  isplitl [Hs]; · iexact Hs
  iexact Hr

/-- ENTRY. `hsplit` is the library's split of the held buffers into the pipeline's array and the rest, at this data. -/
theorem hentryG12 (c : Dev nD) (hpf : (fun k => V c (pre12.ref k)) = a12.1)
    (hsplit : (unscopedBufs c (V c) : sProp 𝕄)
      ⊢ iprop((datG12 V a12 gblk c).arrays ((datG12 V a12 gblk c).arrAt · 0) ∗ Pipeline.unscopedRest spec12 c (V c))) :
    iprop((unscopedBufs c (V c) ∗ (∃ r, prngReg c r) ∗ ∃ W, owes (c : Thread nD τ) (0 : CellTallies nD τ sig Unit) W)
        ∗ Pipeline.ownSems0 (Ix := Unit) (Name := ℕ) (U := Pipeline.UD sig nD τ) (Lvl := ℕ) (Val := Elt F) (τ := τ) osem12 c
        ∗ levAts (fun _ : GSem nD τ sig => (∅ : Finset Unit)) (fun _ _ => (0 : ℕ)))
      ⊢ (|={Set.univ}=> iprop((datG12 V a12 gblk c).arrays ((datG12 V a12 gblk c).arrAt · 0)
          ∗ Pipeline.prefHeld pre12 c (fun _ => fullShare) a12.1
          ∗ (datG12 V a12 gblk c).owesAt () 0 ∗ XG12 V c ∗ ZG12 V c) : sProp 𝕄) := by
  have hrest := Pipeline.unscopedRest_split (Ix := Unit) (Name := ℕ) (U := Pipeline.UD sig nD τ) (Lvl := ℕ) preFacts12 c (V c)
  rw [hpf, Pipeline.unscopedRestP_sdiff pre12 spec12 H12 H12_sub c (V c)] at hrest
  rw [hrest] at hsplit
  iintro ⟨⟨Hub, Hp, HO⟩, Hs, -⟩
  ihave H := hsplit $$ Hub
  icases H with ⟨Ha, Ht, Hh, Hz⟩
  imodintro
  isplitl [Ha]; · iexact Ha
  isplitl [Ht]; · iexact Ht
  isplitl [HO]
  · unfold Pipeline.Dat.owesAt Pipeline.owesWithin
    icases HO with ⟨%W, HO⟩; iexists W; isplitr; · ipureintro; exact fun _ _ => Or.inl trivial
    iexact HO
  unfold XG12 ZG12
  isplitl [Hp Hs Hh]
  · isplitl [Hp]; · iexact Hp
    isplitl [Hs]; · iexact Hs
    iexact Hh
  iexact Hz

variable (Vn : (c : Dev nD) → (b : Ref sig .tc) → Buf (Elt F) ((c : Thread nD τ).loc b))

/-- EXIT. `hjoin` is the library's rejoining of the pipeline's array at its final contents with the rest, at this data. -/
theorem hexitG12 (c : Dev nD) (hpf : (fun k => V c (pre12.ref k)) = a12.1)
    (hjoin : iprop((datG12 V a12 gblk c).arrays ((datG12 V a12 gblk c).arrAt · (cfg12 a12).N) ∗ Pipeline.unscopedRest spec12 c (V c))
      ⊢ (unscopedBufs c (Vn c) : sProp 𝕄)) :
    iprop((datG12 V a12 gblk c).arrays ((datG12 V a12 gblk c).arrAt · (cfg12 a12).N)
        ∗ (datG12 V a12 gblk c).owesAt () (Fin.last (cfg12 a12).N) ∗ YG12 V a12 c ∗ ZG12 V c)
      ⊢ (|={Set.univ}=> iprop(unscopedBufs c (Vn c) ∗ (∃ r, prngReg c r) ∗ ∃ W, owes (c : Thread nD τ) (0 : CellTallies nD τ sig Unit) W) : sProp 𝕄) := by
  have hrest := Pipeline.unscopedRest_split (Ix := Unit) (Name := ℕ) (U := Pipeline.UD sig nD τ) (Lvl := ℕ) preFacts12 c (V c)
  rw [hpf, Pipeline.unscopedRestP_sdiff pre12 spec12 H12 H12_sub c (V c)] at hrest
  rw [hrest] at hjoin
  unfold YG12 ZG12
  iintro ⟨Ha, HO, ⟨Hp, Hh, Ht⟩, Hz⟩
  imodintro
  isplitl [Ha Hh Ht Hz]
  · iapply hjoin
    isplitl [Ha]; · iexact Ha
    isplitl [Ht]; · iexact Ht
    isplitl [Hh]; · iexact Hh
    iexact Hz
  isplitl [Hp]; · iexact Hp
  unfold Pipeline.Dat.owesAt Pipeline.owesWithin
  icases HO with ⟨%W, -, HO⟩; iexists W; iexact HO

end Cert.Kernel.Hand

end
-- ==== Proof.K.Gather13.lean ====
/-
  The row-gather region 13 of the kernel's program: its proof data and the facts the launch takes.

  Region 13 copies, at grid point t, the eight rows  A[tbl (8 t + j)]  (j < 8) of the 50000 x 128 array A it finds in
  HBM into the eight rows of its 8 x 128 output block; tbl is the region's index table of 85000 words, held in SMEM, and
  A is read only. So after the region the output array's row r is A's row tbl r. The body moves the rows by transfers
  of its own on eight semaphores of its own, all waited for before the point ends: between two points nothing is in
  flight, the table and A are as the region found them, and the semaphores are at zero. That is the region's invariant.
-/
import proofs.«402049_j87351044866139_2_alg».proof.Proof.Gen.Kernel.Launch
import proofs.«402049_j87351044866139_2_alg».proof.Proof.Gen.Kernel.Skeleton
import proofs.«402049_j87351044866139_2_alg».proof.Proof.Gen.Kernel.Points
import Idealize.ShloMosaic.Lib.Pipeline.Frame
import Idealize.ShloMosaic.Lib.Pipeline.FrameBody
import Idealize.ShloMosaic.Lib.Pipeline.RegionsLoop
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.Kernel Cert.Kernel.Gen

variable {F : FTy → Type} [FloatOps F]

local notation "𝕄" => MT nD τ sig Unit (Elt F) ℕ (Pipeline.UD sig nD τ) ℕ

/-- The eight semaphores the body's row transfers signal. -/
abbrev osem13 : Fin 8 → SemLoc sig := fun j =>
  (![SemLoc.dma 123, SemLoc.dma 124, SemLoc.dma 125, SemLoc.dma 126, SemLoc.dma 127, SemLoc.dma 128, SemLoc.dma 129, SemLoc.dma 130] : Fin 8 → SemLoc sig) j
theorem ownSemFacts13 : Pipeline.OwnSemFacts spec13 osem13 := by decide

/-- The array the rows are read from: left in HBM, no window's array and no table. -/
def H13 : Finset (Ref sig .tc) := {main_v61}
theorem H13_sub : H13 ⊆ Pipeline.restRefsP sig pre13 spec13 := by decide

variable (V : (c : Dev nD) → (b : Ref sig .tc) → Buf (Elt F) ((c : Thread nD τ).loc b))
variable (a13 : (pcfg13 (F := F)).Adm)
variable (gblk : (c : Dev nD) → Fin (cfg13 a13).N → S8x128.Idx → Elt F .f32)

/-- The region's proof data on core c: the output array as the region finds it; after point t the output block holds
    the eight gathered rows; the invariant above; full shares; nothing owed. -/
def datG13 (c : Dev nD) : Dat τ (Elt F) Unit ℕ (Pipeline.UD sig nD τ) ℕ (cfg13 a13) c where
  A w := V c (Pipeline.arrRef spec13 w)
  after w t := match w with
    | ⟨0, _⟩ => gblk c t
  Φ _ := iprop(Pipeline.ΦD osem13 spec13 H13 V c ∗ Pipeline.prefHeld pre13 c (fun _ => fullShare) a13.1)
  q _ := fullShare
  owed _ := 0

theorem A_eqG13 (c : Dev nD) (w : Fin (cfg13 a13).W) : (datG13 V a13 gblk c).A w = V c (Pipeline.arrRef spec13 w) := by
  dsimp only [datG13]
theorem afterG13_0 (c : Dev nD) (t : Fin (cfg13 a13).N) : (datG13 V a13 gblk c).after 0 t = gblk c t := rfl

/-! ## The region's protocol around the thread states

  Between two items of the program core c holds every unscoped buffer whole, beside its generator register and a record
  that it owes nothing. Entering the region, the output array goes to the pipeline, the table is handed over at its
  contents, the array A and the eight semaphores join the register in what the invariant takes (X), and the other
  buffers wait outside (Z). Leaving it, everything comes back: A and the table as they were. -/

/-- What the invariant takes at the first point beside the table and the scoped buffers. -/
def XG13 (c : Dev nD) : sProp 𝕄 :=
  iprop((∃ r, prngReg c r)
    ∗ Pipeline.ownSems0 (Ix := Unit) (Name := ℕ) (U := Pipeline.UD sig nD τ) (Lvl := ℕ) (Val := Elt F) (τ := τ) osem13 c
    ∗ bigSep H13 fun b => ((c.tc : Thread nD τ).loc b) ↦{fullShare} V c b)
/-- What it gives back at the last point beside the semaphores and the scoped buffers. -/
def YG13 (c : Dev nD) : sProp 𝕄 :=
  iprop((∃ r, prngReg c r) ∗ (bigSep H13 fun b => ((c.tc : Thread nD τ).loc b) ↦{fullShare} V c b)
    ∗ Pipeline.prefHeld pre13 c (fun _ => fullShare) a13.1)
/-- The unscoped buffers the region does not touch. -/
def ZG13 (c : Dev nD) : sProp 𝕄 :=
  bigSep (Pipeline.restRefsP sig pre13 spec13 \ H13) fun b => ((c.tc : Thread nD τ).loc b) ↦{fullShare} V c b

theorem hinG13 (c : Dev nD) :
    iprop(XG13 V c ∗ Pipeline.prefHeld pre13 c (fun _ => fullShare) a13.1
        ∗ Pipeline.scopedRest (Ix := Unit) (Name := ℕ) (U := Pipeline.UD sig nD τ) (Lvl := ℕ) (Val := Elt F) spec13 c)
      ⊢ (datG13 V a13 gblk c).Φ 0 := by
  rw [show (datG13 V a13 gblk c).Φ 0 = iprop(Pipeline.ΦD osem13 spec13 H13 V c ∗ Pipeline.prefHeld pre13 c (fun _ => fullShare) a13.1) from rfl,
    Pipeline.ΦD_eq]
  unfold XG13
  iintro ⟨⟨Hp, Hs, Hh⟩, Ht, Hr⟩
  isplitl [Hr Hp Hs Hh]
  · isplitl [Hr]; · iexact Hr
    isplitl [Hp]; · iexact Hp
    isplitl [Hs]; · iexact Hs
    iexact Hh
  iexact Ht

theorem houtG13 (c : Dev nD) :
    (datG13 V a13 gblk c).Φ (Fin.last (cfg13 a13).N)
      ⊢ iprop(YG13 V a13 c
          ∗ Pipeline.ownSems0 (Ix := Unit) (Name := ℕ) (U := Pipeline.UD sig nD τ) (Lvl := ℕ) (Val := Elt F) (τ := τ) osem13 c
          ∗ Pipeline.scopedRest (Ix := Unit) (Name := ℕ) (U := Pipeline.UD sig nD τ) (Lvl := ℕ) (Val := Elt F) spec13 c) := by
  rw [show (datG13 V a13 gblk c).Φ (Fin.last (cfg13 a13).N) = iprop(Pipeline.ΦD osem13 spec13 H13 V c ∗ Pipeline.prefHeld pre13 c (fun _ => fullShare) a13.1) from rfl,
    Pipeline.ΦD_eq]
  unfold YG13
  iintro ⟨⟨Hr, Hp, Hs, Hh⟩, Ht⟩
  isplitl [Hp Hh Ht]
  · isplitl [Hp]; · iexact Hp
    isplitl [Hh]; · iexact Hh
    iexact Ht
  isplitl [Hs]; · iexact Hs
  iexact Hr

/-- ENTRY. `hsplit` is the library's split of the held buffers into the pipeline's array and the rest, at this data. -/
theorem hentryG13 (c : Dev nD) (hpf : (fun k => V c (pre13.ref k)) = a13.1)
    (hsplit : (unscopedBufs c (V c) : sProp 𝕄)
      ⊢ iprop((datG13 V a13 gblk c).arrays ((datG13 V a13 gblk c).arrAt · 0) ∗ Pipeline.unscopedRest spec13 c (V c))) :
    iprop((unscopedBufs c (V c) ∗ (∃ r, prngReg c r) ∗ ∃ W, owes (c : Thread nD τ) (0 : CellTallies nD τ sig Unit) W)
        ∗ Pipeline.ownSems0 (Ix := Unit) (Name := ℕ) (U := Pipeline.UD sig nD τ) (Lvl := ℕ) (Val := Elt F) (τ := τ) osem13 c
        ∗ levAts (fun _ : GSem nD τ sig => (∅ : Finset Unit)) (fun _ _ => (0 : ℕ)))
      ⊢ (|={Set.univ}=> iprop((datG13 V a13 gblk c).arrays ((datG13 V a13 gblk c).arrAt · 0)
          ∗ Pipeline.prefHeld pre13 c (fun _ => fullShare) a13.1
          ∗ (datG13 V a13 gblk c).owesAt () 0 ∗ XG13 V c ∗ ZG13 V c) : sProp 𝕄) := by
  have hrest := Pipeline.unscopedRest_split (Ix := Unit) (Name := ℕ) (U := Pipeline.UD sig nD τ) (Lvl := ℕ) preFacts13 c (V c)
  rw [hpf, Pipeline.unscopedRestP_sdiff pre13 spec13 H13 H13_sub c (V c)] at hrest
  rw [hrest] at hsplit
  iintro ⟨⟨Hub, Hp, HO⟩, Hs, -⟩
  ihave H := hsplit $$ Hub
  icases H with ⟨Ha, Ht, Hh, Hz⟩
  imodintro
  isplitl [Ha]; · iexact Ha
  isplitl [Ht]; · iexact Ht
  isplitl [HO]
  · unfold Pipeline.Dat.owesAt Pipeline.owesWithin
    icases HO with ⟨%W, HO⟩; iexists W; isplitr; · ipureintro; exact fun _ _ => Or.inl trivial
    iexact HO
  unfold XG13 ZG13
  isplitl [Hp Hs Hh]
  · isplitl [Hp]; · iexact Hp
    isplitl [Hs]; · iexact Hs
    iexact Hh
  iexact Hz

variable (Vn : (c : Dev nD) → (b : Ref sig .tc) → Buf (Elt F) ((c : Thread nD τ).loc b))

/-- EXIT. `hjoin` is the library's rejoining of the pipeline's array at its final contents with the rest, at this data. -/
theorem hexitG13 (c : Dev nD) (hpf : (fun k => V c (pre13.ref k)) = a13.1)
    (hjoin : iprop((datG13 V a13 gblk c).arrays ((datG13 V a13 gblk c).arrAt · (cfg13 a13).N) ∗ Pipeline.unscopedRest spec13 c (V c))
      ⊢ (unscopedBufs c (Vn c) : sProp 𝕄)) :
    iprop((datG13 V a13 gblk c).arrays ((datG13 V a13 gblk c).arrAt · (cfg13 a13).N)
        ∗ (datG13 V a13 gblk c).owesAt () (Fin.last (cfg13 a13).N) ∗ YG13 V a13 c ∗ ZG13 V c)
      ⊢ (|={Set.univ}=> iprop(unscopedBufs c (Vn c) ∗ (∃ r, prngReg c r) ∗ ∃ W, owes (c : Thread nD τ) (0 : CellTallies nD τ sig Unit) W) : sProp 𝕄) := by
  have hrest := Pipeline.unscopedRest_split (Ix := Unit) (Name := ℕ) (U := Pipeline.UD sig nD τ) (Lvl := ℕ) preFacts13 c (V c)
  rw [hpf, Pipeline.unscopedRestP_sdiff pre13 spec13 H13 H13_sub c (V c)] at hrest
  rw [hrest] at hjoin
  unfold YG13 ZG13
  iintro ⟨Ha, HO, ⟨Hp, Hh, Ht⟩, Hz⟩
  imodintro
  isplitl [Ha Hh Ht Hz]
  · iapply hjoin
    isplitl [Ha]; · iexact Ha
    isplitl [Ht]; · iexact Ht
    isplitl [Hh]; · iexact Hh
    iexact Hz
  isplitl [Hp]; · iexact Hp
  unfold Pipeline.Dat.owesAt Pipeline.owesWithin
  icases HO with ⟨%W, -, HO⟩; iexists W; iexact HO

end Cert.Kernel.Hand

end
-- ==== Proof.K.Gather14.lean ====
/-
  The row-gather region 14 of the kernel's program: its proof data and the facts the launch takes.

  Region 14 copies, at grid point t, the eight rows  A[tbl (8 t + j)]  (j < 8) of the 50000 x 128 array A it finds in
  HBM into the eight rows of its 8 x 128 output block; tbl is the region's index table of 85000 words, held in SMEM, and
  A is read only. So after the region the output array's row r is A's row tbl r. The body moves the rows by transfers
  of its own on eight semaphores of its own, all waited for before the point ends: between two points nothing is in
  flight, the table and A are as the region found them, and the semaphores are at zero. That is the region's invariant.
-/
import proofs.«402049_j87351044866139_2_alg».proof.Proof.Gen.Kernel.Launch
import proofs.«402049_j87351044866139_2_alg».proof.Proof.Gen.Kernel.Skeleton
import proofs.«402049_j87351044866139_2_alg».proof.Proof.Gen.Kernel.Points
import Idealize.ShloMosaic.Lib.Pipeline.Frame
import Idealize.ShloMosaic.Lib.Pipeline.FrameBody
import Idealize.ShloMosaic.Lib.Pipeline.RegionsLoop
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.Kernel Cert.Kernel.Gen

variable {F : FTy → Type} [FloatOps F]

local notation "𝕄" => MT nD τ sig Unit (Elt F) ℕ (Pipeline.UD sig nD τ) ℕ

/-- The eight semaphores the body's row transfers signal. -/
abbrev osem14 : Fin 8 → SemLoc sig := fun j =>
  (![SemLoc.dma 133, SemLoc.dma 134, SemLoc.dma 135, SemLoc.dma 136, SemLoc.dma 137, SemLoc.dma 138, SemLoc.dma 139, SemLoc.dma 140] : Fin 8 → SemLoc sig) j
theorem ownSemFacts14 : Pipeline.OwnSemFacts spec14 osem14 := by decide

/-- The array the rows are read from: left in HBM, no window's array and no table. -/
def H14 : Finset (Ref sig .tc) := {main_v61}
theorem H14_sub : H14 ⊆ Pipeline.restRefsP sig pre14 spec14 := by decide

variable (V : (c : Dev nD) → (b : Ref sig .tc) → Buf (Elt F) ((c : Thread nD τ).loc b))
variable (a14 : (pcfg14 (F := F)).Adm)
variable (gblk : (c : Dev nD) → Fin (cfg14 a14).N → S8x128.Idx → Elt F .f32)

/-- The region's proof data on core c: the output array as the region finds it; after point t the output block holds
    the eight gathered rows; the invariant above; full shares; nothing owed. -/
def datG14 (c : Dev nD) : Dat τ (Elt F) Unit ℕ (Pipeline.UD sig nD τ) ℕ (cfg14 a14) c where
  A w := V c (Pipeline.arrRef spec14 w)
  after w t := match w with
    | ⟨0, _⟩ => gblk c t
  Φ _ := iprop(Pipeline.ΦD osem14 spec14 H14 V c ∗ Pipeline.prefHeld pre14 c (fun _ => fullShare) a14.1)
  q _ := fullShare
  owed _ := 0

theorem A_eqG14 (c : Dev nD) (w : Fin (cfg14 a14).W) : (datG14 V a14 gblk c).A w = V c (Pipeline.arrRef spec14 w) := by
  dsimp only [datG14]
theorem afterG14_0 (c : Dev nD) (t : Fin (cfg14 a14).N) : (datG14 V a14 gblk c).after 0 t = gblk c t := rfl

/-! ## The region's protocol around the thread states

  Between two items of the program core c holds every unscoped buffer whole, beside its generator register and a record
  that it owes nothing. Entering the region, the output array goes to the pipeline, the table is handed over at its
  contents, the array A and the eight semaphores join the register in what the invariant takes (X), and the other
  buffers wait outside (Z). Leaving it, everything comes back: A and the table as they were. -/

/-- What the invariant takes at the first point beside the table and the scoped buffers. -/
def XG14 (c : Dev nD) : sProp 𝕄 :=
  iprop((∃ r, prngReg c r)
    ∗ Pipeline.ownSems0 (Ix := Unit) (Name := ℕ) (U := Pipeline.UD sig nD τ) (Lvl := ℕ) (Val := Elt F) (τ := τ) osem14 c
    ∗ bigSep H14 fun b => ((c.tc : Thread nD τ).loc b) ↦{fullShare} V c b)
/-- What it gives back at the last point beside the semaphores and the scoped buffers. -/
def YG14 (c : Dev nD) : sProp 𝕄 :=
  iprop((∃ r, prngReg c r) ∗ (bigSep H14 fun b => ((c.tc : Thread nD τ).loc b) ↦{fullShare} V c b)
    ∗ Pipeline.prefHeld pre14 c (fun _ => fullShare) a14.1)
/-- The unscoped buffers the region does not touch. -/
def ZG14 (c : Dev nD) : sProp 𝕄 :=
  bigSep (Pipeline.restRefsP sig pre14 spec14 \ H14) fun b => ((c.tc : Thread nD τ).loc b) ↦{fullShare} V c b

theorem hinG14 (c : Dev nD) :
    iprop(XG14 V c ∗ Pipeline.prefHeld pre14 c (fun _ => fullShare) a14.1
        ∗ Pipeline.scopedRest (Ix := Unit) (Name := ℕ) (U := Pipeline.UD sig nD τ) (Lvl := ℕ) (Val := Elt F) spec14 c)
      ⊢ (datG14 V a14 gblk c).Φ 0 := by
  rw [show (datG14 V a14 gblk c).Φ 0 = iprop(Pipeline.ΦD osem14 spec14 H14 V c ∗ Pipeline.prefHeld pre14 c (fun _ => fullShare) a14.1) from rfl,
    Pipeline.ΦD_eq]
  unfold XG14
  iintro ⟨⟨Hp, Hs, Hh⟩, Ht, Hr⟩
  isplitl [Hr Hp Hs Hh]
  · isplitl [Hr]; · iexact Hr
    isplitl [Hp]; · iexact Hp
    isplitl [Hs]; · iexact Hs
    iexact Hh
  iexact Ht

theorem houtG14 (c : Dev nD) :
    (datG14 V a14 gblk c).Φ (Fin.last (cfg14 a14).N)
      ⊢ iprop(YG14 V a14 c
          ∗ Pipeline.ownSems0 (Ix := Unit) (Name := ℕ) (U := Pipeline.UD sig nD τ) (Lvl := ℕ) (Val := Elt F) (τ := τ) osem14 c
          ∗ Pipeline.scopedRest (Ix := Unit) (Name := ℕ) (U := Pipeline.UD sig nD τ) (Lvl := ℕ) (Val := Elt F) spec14 c) := by
  rw [show (datG14 V a14 gblk c).Φ (Fin.last (cfg14 a14).N) = iprop(Pipeline.ΦD osem14 spec14 H14 V c ∗ Pipeline.prefHeld pre14 c (fun _ => fullShare) a14.1) from rfl,
    Pipeline.ΦD_eq]
  unfold YG14
  iintro ⟨⟨Hr, Hp, Hs, Hh⟩, Ht⟩
  isplitl [Hp Hh Ht]
  · isplitl [Hp]; · iexact Hp
    isplitl [Hh]; · iexact Hh
    iexact Ht
  isplitl [Hs]; · iexact Hs
  iexact Hr

/-- ENTRY. `hsplit` is the library's split of the held buffers into the pipeline's array and the rest, at this data. -/
theorem hentryG14 (c : Dev nD) (hpf : (fun k => V c (pre14.ref k)) = a14.1)
    (hsplit : (unscopedBufs c (V c) : sProp 𝕄)
      ⊢ iprop((datG14 V a14 gblk c).arrays ((datG14 V a14 gblk c).arrAt · 0) ∗ Pipeline.unscopedRest spec14 c (V c))) :
    iprop((unscopedBufs c (V c) ∗ (∃ r, prngReg c r) ∗ ∃ W, owes (c : Thread nD τ) (0 : CellTallies nD τ sig Unit) W)
        ∗ Pipeline.ownSems0 (Ix := Unit) (Name := ℕ) (U := Pipeline.UD sig nD τ) (Lvl := ℕ) (Val := Elt F) (τ := τ) osem14 c
        ∗ levAts (fun _ : GSem nD τ sig => (∅ : Finset Unit)) (fun _ _ => (0 : ℕ)))
      ⊢ (|={Set.univ}=> iprop((datG14 V a14 gblk c).arrays ((datG14 V a14 gblk c).arrAt · 0)
          ∗ Pipeline.prefHeld pre14 c (fun _ => fullShare) a14.1
          ∗ (datG14 V a14 gblk c).owesAt () 0 ∗ XG14 V c ∗ ZG14 V c) : sProp 𝕄) := by
  have hrest := Pipeline.unscopedRest_split (Ix := Unit) (Name := ℕ) (U := Pipeline.UD sig nD τ) (Lvl := ℕ) preFacts14 c (V c)
  rw [hpf, Pipeline.unscopedRestP_sdiff pre14 spec14 H14 H14_sub c (V c)] at hrest
  rw [hrest] at hsplit
  iintro ⟨⟨Hub, Hp, HO⟩, Hs, -⟩
  ihave H := hsplit $$ Hub
  icases H with ⟨Ha, Ht, Hh, Hz⟩
  imodintro
  isplitl [Ha]; · iexact Ha
  isplitl [Ht]; · iexact Ht
  isplitl [HO]
  · unfold Pipeline.Dat.owesAt Pipeline.owesWithin
    icases HO with ⟨%W, HO⟩; iexists W; isplitr; · ipureintro; exact fun _ _ => Or.inl trivial
    iexact HO
  unfold XG14 ZG14
  isplitl [Hp Hs Hh]
  · isplitl [Hp]; · iexact Hp
    isplitl [Hs]; · iexact Hs
    iexact Hh
  iexact Hz

variable (Vn : (c : Dev nD) → (b : Ref sig .tc) → Buf (Elt F) ((c : Thread nD τ).loc b))

/-- EXIT. `hjoin` is the library's rejoining of the pipeline's array at its final contents with the rest, at this data. -/
theorem hexitG14 (c : Dev nD) (hpf : (fun k => V c (pre14.ref k)) = a14.1)
    (hjoin : iprop((datG14 V a14 gblk c).arrays ((datG14 V a14 gblk c).arrAt · (cfg14 a14).N) ∗ Pipeline.unscopedRest spec14 c (V c))
      ⊢ (unscopedBufs c (Vn c) : sProp 𝕄)) :
    iprop((datG14 V a14 gblk c).arrays ((datG14 V a14 gblk c).arrAt · (cfg14 a14).N)
        ∗ (datG14 V a14 gblk c).owesAt () (Fin.last (cfg14 a14).N) ∗ YG14 V a14 c ∗ ZG14 V c)
      ⊢ (|={Set.univ}=> iprop(unscopedBufs c (Vn c) ∗ (∃ r, prngReg c r) ∗ ∃ W, owes (c : Thread nD τ) (0 : CellTallies nD τ sig Unit) W) : sProp 𝕄) := by
  have hrest := Pipeline.unscopedRest_split (Ix := Unit) (Name := ℕ) (U := Pipeline.UD sig nD τ) (Lvl := ℕ) preFacts14 c (V c)
  rw [hpf, Pipeline.unscopedRestP_sdiff pre14 spec14 H14 H14_sub c (V c)] at hrest
  rw [hrest] at hjoin
  unfold YG14 ZG14
  iintro ⟨Ha, HO, ⟨Hp, Hh, Ht⟩, Hz⟩
  imodintro
  isplitl [Ha Hh Ht Hz]
  · iapply hjoin
    isplitl [Ha]; · iexact Ha
    isplitl [Ht]; · iexact Ht
    isplitl [Hh]; · iexact Hh
    iexact Hz
  isplitl [Hp]; · iexact Hp
  unfold Pipeline.Dat.owesAt Pipeline.owesWithin
  icases HO with ⟨%W, -, HO⟩; iexists W; iexact HO

end Cert.Kernel.Hand

end
-- ==== Proof.K.Gather15.lean ====
/-
  The row-gather region 15 of the kernel's program: its proof data and the facts the launch takes.

  Region 15 copies, at grid point t, the eight rows  A[tbl (8 t + j)]  (j < 8) of the 50000 x 128 array A it finds in
  HBM into the eight rows of its 8 x 128 output block; tbl is the region's index table of 85000 words, held in SMEM, and
  A is read only. So after the region the output array's row r is A's row tbl r. The body moves the rows by transfers
  of its own on eight semaphores of its own, all waited for before the point ends: between two points nothing is in
  flight, the table and A are as the region found them, and the semaphores are at zero. That is the region's invariant.
-/
import proofs.«402049_j87351044866139_2_alg».proof.Proof.Gen.Kernel.Launch
import proofs.«402049_j87351044866139_2_alg».proof.Proof.Gen.Kernel.Skeleton
import proofs.«402049_j87351044866139_2_alg».proof.Proof.Gen.Kernel.Points
import Idealize.ShloMosaic.Lib.Pipeline.Frame
import Idealize.ShloMosaic.Lib.Pipeline.FrameBody
import Idealize.ShloMosaic.Lib.Pipeline.RegionsLoop
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.Kernel Cert.Kernel.Gen

variable {F : FTy → Type} [FloatOps F]

local notation "𝕄" => MT nD τ sig Unit (Elt F) ℕ (Pipeline.UD sig nD τ) ℕ

/-- The eight semaphores the body's row transfers signal. -/
abbrev osem15 : Fin 8 → SemLoc sig := fun j =>
  (![SemLoc.dma 143, SemLoc.dma 144, SemLoc.dma 145, SemLoc.dma 146, SemLoc.dma 147, SemLoc.dma 148, SemLoc.dma 149, SemLoc.dma 150] : Fin 8 → SemLoc sig) j
theorem ownSemFacts15 : Pipeline.OwnSemFacts spec15 osem15 := by decide

/-- The array the rows are read from: left in HBM, no window's array and no table. -/
def H15 : Finset (Ref sig .tc) := {main_v61}
theorem H15_sub : H15 ⊆ Pipeline.restRefsP sig pre15 spec15 := by decide

variable (V : (c : Dev nD) → (b : Ref sig .tc) → Buf (Elt F) ((c : Thread nD τ).loc b))
variable (a15 : (pcfg15 (F := F)).Adm)
variable (gblk : (c : Dev nD) → Fin (cfg15 a15).N → S8x128.Idx → Elt F .f32)

/-- The region's proof data on core c: the output array as the region finds it; after point t the output block holds
    the eight gathered rows; the invariant above; full shares; nothing owed. -/
def datG15 (c : Dev nD) : Dat τ (Elt F) Unit ℕ (Pipeline.UD sig nD τ) ℕ (cfg15 a15) c where
  A w := V c (Pipeline.arrRef spec15 w)
  after w t := match w with
    | ⟨0, _⟩ => gblk c t
  Φ _ := iprop(Pipeline.ΦD osem15 spec15 H15 V c ∗ Pipeline.prefHeld pre15 c (fun _ => fullShare) a15.1)
  q _ := fullShare
  owed _ := 0

theorem A_eqG15 (c : Dev nD) (w : Fin (cfg15 a15).W) : (datG15 V a15 gblk c).A w = V c (Pipeline.arrRef spec15 w) := by
  dsimp only [datG15]
theorem afterG15_0 (c : Dev nD) (t : Fin (cfg15 a15).N) : (datG15 V a15 gblk c).after 0 t = gblk c t := rfl

/-! ## The region's protocol around the thread states

  Between two items of the program core c holds every unscoped buffer whole, beside its generator register and a record
  that it owes nothing. Entering the region, the output array goes to the pipeline, the table is handed over at its
  contents, the array A and the eight semaphores join the register in what the invariant takes (X), and the other
  buffers wait outside (Z). Leaving it, everything comes back: A and the table as they were. -/

/-- What the invariant takes at the first point beside the table and the scoped buffers. -/
def XG15 (c : Dev nD) : sProp 𝕄 :=
  iprop((∃ r, prngReg c r)
    ∗ Pipeline.ownSems0 (Ix := Unit) (Name := ℕ) (U := Pipeline.UD sig nD τ) (Lvl := ℕ) (Val := Elt F) (τ := τ) osem15 c
    ∗ bigSep H15 fun b => ((c.tc : Thread nD τ).loc b) ↦{fullShare} V c b)
/-- What it gives back at the last point beside the semaphores and the scoped buffers. -/
def YG15 (c : Dev nD) : sProp 𝕄 :=
  iprop((∃ r, prngReg c r) ∗ (bigSep H15 fun b => ((c.tc : Thread nD τ).loc b) ↦{fullShare} V c b)
    ∗ Pipeline.prefHeld pre15 c (fun _ => fullShare) a15.1)
/-- The unscoped buffers the region does not touch. -/
def ZG15 (c : Dev nD) : sProp 𝕄 :=
  bigSep (Pipeline.restRefsP sig pre15 spec15 \ H15) fun b => ((c.tc : Thread nD τ).loc b) ↦{fullShare} V c b

theorem hinG15 (c : Dev nD) :
    iprop(XG15 V c ∗ Pipeline.prefHeld pre15 c (fun _ => fullShare) a15.1
        ∗ Pipeline.scopedRest (Ix := Unit) (Name := ℕ) (U := Pipeline.UD sig nD τ) (Lvl := ℕ) (Val := Elt F) spec15 c)
      ⊢ (datG15 V a15 gblk c).Φ 0 := by
  rw [show (datG15 V a15 gblk c).Φ 0 = iprop(Pipeline.ΦD osem15 spec15 H15 V c ∗ Pipeline.prefHeld pre15 c (fun _ => fullShare) a15.1) from rfl,
    Pipeline.ΦD_eq]
  unfold XG15
  iintro ⟨⟨Hp, Hs, Hh⟩, Ht, Hr⟩
  isplitl [Hr Hp Hs Hh]
  · isplitl [Hr]; · iexact Hr
    isplitl [Hp]; · iexact Hp
    isplitl [Hs]; · iexact Hs
    iexact Hh
  iexact Ht

theorem houtG15 (c : Dev nD) :
    (datG15 V a15 gblk c).Φ (Fin.last (cfg15 a15).N)
      ⊢ iprop(YG15 V a15 c
          ∗ Pipeline.ownSems0 (Ix := Unit) (Name := ℕ) (U := Pipeline.UD sig nD τ) (Lvl := ℕ) (Val := Elt F) (τ := τ) osem15 c
          ∗ Pipeline.scopedRest (Ix := Unit) (Name := ℕ) (U := Pipeline.UD sig nD τ) (Lvl := ℕ) (Val := Elt F) spec15 c) := by
  rw [show (datG15 V a15 gblk c).Φ (Fin.last (cfg15 a15).N) = iprop(Pipeline.ΦD osem15 spec15 H15 V c ∗ Pipeline.prefHeld pre15 c (fun _ => fullShare) a15.1) from rfl,
    Pipeline.ΦD_eq]
  unfold YG15
  iintro ⟨⟨Hr, Hp, Hs, Hh⟩, Ht⟩
  isplitl [Hp Hh Ht]
  · isplitl [Hp]; · iexact Hp
    isplitl [Hh]; · iexact Hh
    iexact Ht
  isplitl [Hs]; · iexact Hs
  iexact Hr

/-- ENTRY. `hsplit` is the library's split of the held buffers into the pipeline's array and the rest, at this data. -/
theorem hentryG15 (c : Dev nD) (hpf : (fun k => V c (pre15.ref k)) = a15.1)
    (hsplit : (unscopedBufs c (V c) : sProp 𝕄)
      ⊢ iprop((datG15 V a15 gblk c).arrays ((datG15 V a15 gblk c).arrAt · 0) ∗ Pipeline.unscopedRest spec15 c (V c))) :
    iprop((unscopedBufs c (V c) ∗ (∃ r, prngReg c r) ∗ ∃ W, owes (c : Thread nD τ) (0 : CellTallies nD τ sig Unit) W)
        ∗ Pipeline.ownSems0 (Ix := Unit) (Name := ℕ) (U := Pipeline.UD sig nD τ) (Lvl := ℕ) (Val := Elt F) (τ := τ) osem15 c
        ∗ levAts (fun _ : GSem nD τ sig => (∅ : Finset Unit)) (fun _ _ => (0 : ℕ)))
      ⊢ (|={Set.univ}=> iprop((datG15 V a15 gblk c).arrays ((datG15 V a15 gblk c).arrAt · 0)
          ∗ Pipeline.prefHeld pre15 c (fun _ => fullShare) a15.1
          ∗ (datG15 V a15 gblk c).owesAt () 0 ∗ XG15 V c ∗ ZG15 V c) : sProp 𝕄) := by
  have hrest := Pipeline.unscopedRest_split (Ix := Unit) (Name := ℕ) (U := Pipeline.UD sig nD τ) (Lvl := ℕ) preFacts15 c (V c)
  rw [hpf, Pipeline.unscopedRestP_sdiff pre15 spec15 H15 H15_sub c (V c)] at hrest
  rw [hrest] at hsplit
  iintro ⟨⟨Hub, Hp, HO⟩, Hs, -⟩
  ihave H := hsplit $$ Hub
  icases H with ⟨Ha, Ht, Hh, Hz⟩
  imodintro
  isplitl [Ha]; · iexact Ha
  isplitl [Ht]; · iexact Ht
  isplitl [HO]
  · unfold Pipeline.Dat.owesAt Pipeline.owesWithin
    icases HO with ⟨%W, HO⟩; iexists W; isplitr; · ipureintro; exact fun _ _ => Or.inl trivial
    iexact HO
  unfold XG15 ZG15
  isplitl [Hp Hs Hh]
  · isplitl [Hp]; · iexact Hp
    isplitl [Hs]; · iexact Hs
    iexact Hh
  iexact Hz

variable (Vn : (c : Dev nD) → (b : Ref sig .tc) → Buf (Elt F) ((c : Thread nD τ).loc b))

/-- EXIT. `hjoin` is the library's rejoining of the pipeline's array at its final contents with the rest, at this data. -/
theorem hexitG15 (c : Dev nD) (hpf : (fun k => V c (pre15.ref k)) = a15.1)
    (hjoin : iprop((datG15 V a15 gblk c).arrays ((datG15 V a15 gblk c).arrAt · (cfg15 a15).N) ∗ Pipeline.unscopedRest spec15 c (V c))
      ⊢ (unscopedBufs c (Vn c) : sProp 𝕄)) :
    iprop((datG15 V a15 gblk c).arrays ((datG15 V a15 gblk c).arrAt · (cfg15 a15).N)
        ∗ (datG15 V a15 gblk c).owesAt () (Fin.last (cfg15 a15).N) ∗ YG15 V a15 c ∗ ZG15 V c)
      ⊢ (|={Set.univ}=> iprop(unscopedBufs c (Vn c) ∗ (∃ r, prngReg c r) ∗ ∃ W, owes (c : Thread nD τ) (0 : CellTallies nD τ sig Unit) W) : sProp 𝕄) := by
  have hrest := Pipeline.unscopedRest_split (Ix := Unit) (Name := ℕ) (U := Pipeline.UD sig nD τ) (Lvl := ℕ) preFacts15 c (V c)
  rw [hpf, Pipeline.unscopedRestP_sdiff pre15 spec15 H15 H15_sub c (V c)] at hrest
  rw [hrest] at hjoin
  unfold YG15 ZG15
  iintro ⟨Ha, HO, ⟨Hp, Hh, Ht⟩, Hz⟩
  imodintro
  isplitl [Ha Hh Ht Hz]
  · iapply hjoin
    isplitl [Ha]; · iexact Ha
    isplitl [Ht]; · iexact Ht
    isplitl [Hh]; · iexact Hh
    iexact Hz
  isplitl [Hp]; · iexact Hp
  unfold Pipeline.Dat.owesAt Pipeline.owesWithin
  icases HO with ⟨%W, -, HO⟩; iexists W; iexact HO

end Cert.Kernel.Hand

end
-- ==== Proof.K.Gather16.lean ====
/-
  The row-gather region 16 of the kernel's program: its proof data and the facts the launch takes.

  Region 16 copies, at grid point t, the eight rows  A[tbl (8 t + j)]  (j < 8) of the 50000 x 128 array A it finds in
  HBM into the eight rows of its 8 x 128 output block; tbl is the region's index table of 85000 words, held in SMEM, and
  A is read only. So after the region the output array's row r is A's row tbl r. The body moves the rows by transfers
  of its own on eight semaphores of its own, all waited for before the point ends: between two points nothing is in
  flight, the table and A are as the region found them, and the semaphores are at zero. That is the region's invariant.
-/
import proofs.«402049_j87351044866139_2_alg».proof.Proof.Gen.Kernel.Launch
import proofs.«402049_j87351044866139_2_alg».proof.Proof.Gen.Kernel.Skeleton
import proofs.«402049_j87351044866139_2_alg».proof.Proof.Gen.Kernel.Points
import Idealize.ShloMosaic.Lib.Pipeline.Frame
import Idealize.ShloMosaic.Lib.Pipeline.FrameBody
import Idealize.ShloMosaic.Lib.Pipeline.RegionsLoop
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.Kernel Cert.Kernel.Gen

variable {F : FTy → Type} [FloatOps F]

local notation "𝕄" => MT nD τ sig Unit (Elt F) ℕ (Pipeline.UD sig nD τ) ℕ

/-- The eight semaphores the body's row transfers signal. -/
abbrev osem16 : Fin 8 → SemLoc sig := fun j =>
  (![SemLoc.dma 153, SemLoc.dma 154, SemLoc.dma 155, SemLoc.dma 156, SemLoc.dma 157, SemLoc.dma 158, SemLoc.dma 159, SemLoc.dma 160] : Fin 8 → SemLoc sig) j
theorem ownSemFacts16 : Pipeline.OwnSemFacts spec16 osem16 := by decide

/-- The array the rows are read from: left in HBM, no window's array and no table. -/
def H16 : Finset (Ref sig .tc) := {main_v61}
theorem H16_sub : H16 ⊆ Pipeline.restRefsP sig pre16 spec16 := by decide

variable (V : (c : Dev nD) → (b : Ref sig .tc) → Buf (Elt F) ((c : Thread nD τ).loc b))
variable (a16 : (pcfg16 (F := F)).Adm)
variable (gblk : (c : Dev nD) → Fin (cfg16 a16).N → S8x128.Idx → Elt F .f32)

/-- The region's proof data on core c: the output array as the region finds it; after point t the output block holds
    the eight gathered rows; the invariant above; full shares; nothing owed. -/
def datG16 (c : Dev nD) : Dat τ (Elt F) Unit ℕ (Pipeline.UD sig nD τ) ℕ (cfg16 a16) c where
  A w := V c (Pipeline.arrRef spec16 w)
  after w t := match w with
    | ⟨0, _⟩ => gblk c t
  Φ _ := iprop(Pipeline.ΦD osem16 spec16 H16 V c ∗ Pipeline.prefHeld pre16 c (fun _ => fullShare) a16.1)
  q _ := fullShare
  owed _ := 0

theorem A_eqG16 (c : Dev nD) (w : Fin (cfg16 a16).W) : (datG16 V a16 gblk c).A w = V c (Pipeline.arrRef spec16 w) := by
  dsimp only [datG16]
theorem afterG16_0 (c : Dev nD) (t : Fin (cfg16 a16).N) : (datG16 V a16 gblk c).after 0 t = gblk c t := rfl

/-! ## The region's protocol around the thread states

  Between two items of the program core c holds every unscoped buffer whole, beside its generator register and a record
  that it owes nothing. Entering the region, the output array goes to the pipeline, the table is handed over at its
  contents, the array A and the eight semaphores join the register in what the invariant takes (X), and the other
  buffers wait outside (Z). Leaving it, everything comes back: A and the table as they were. -/

/-- What the invariant takes at the first point beside the table and the scoped buffers. -/
def XG16 (c : Dev nD) : sProp 𝕄 :=
  iprop((∃ r, prngReg c r)
    ∗ Pipeline.ownSems0 (Ix := Unit) (Name := ℕ) (U := Pipeline.UD sig nD τ) (Lvl := ℕ) (Val := Elt F) (τ := τ) osem16 c
    ∗ bigSep H16 fun b => ((c.tc : Thread nD τ).loc b) ↦{fullShare} V c b)
/-- What it gives back at the last point beside the semaphores and the scoped buffers. -/
def YG16 (c : Dev nD) : sProp 𝕄 :=
  iprop((∃ r, prngReg c r) ∗ (bigSep H16 fun b => ((c.tc : Thread nD τ).loc b) ↦{fullShare} V c b)
    ∗ Pipeline.prefHeld pre16 c (fun _ => fullShare) a16.1)
/-- The unscoped buffers the region does not touch. -/
def ZG16 (c : Dev nD) : sProp 𝕄 :=
  bigSep (Pipeline.restRefsP sig pre16 spec16 \ H16) fun b => ((c.tc : Thread nD τ).loc b) ↦{fullShare} V c b

theorem hinG16 (c : Dev nD) :
    iprop(XG16 V c ∗ Pipeline.prefHeld pre16 c (fun _ => fullShare) a16.1
        ∗ Pipeline.scopedRest (Ix := Unit) (Name := ℕ) (U := Pipeline.UD sig nD τ) (Lvl := ℕ) (Val := Elt F) spec16 c)
      ⊢ (datG16 V a16 gblk c).Φ 0 := by
  rw [show (datG16 V a16 gblk c).Φ 0 = iprop(Pipeline.ΦD osem16 spec16 H16 V c ∗ Pipeline.prefHeld pre16 c (fun _ => fullShare) a16.1) from rfl,
    Pipeline.ΦD_eq]
  unfold XG16
  iintro ⟨⟨Hp, Hs, Hh⟩, Ht, Hr⟩
  isplitl [Hr Hp Hs Hh]
  · isplitl [Hr]; · iexact Hr
    isplitl [Hp]; · iexact Hp
    isplitl [Hs]; · iexact Hs
    iexact Hh
  iexact Ht

theorem houtG16 (c : Dev nD) :
    (datG16 V a16 gblk c).Φ (Fin.last (cfg16 a16).N)
      ⊢ iprop(YG16 V a16 c
          ∗ Pipeline.ownSems0 (Ix := Unit) (Name := ℕ) (U := Pipeline.UD sig nD τ) (Lvl := ℕ) (Val := Elt F) (τ := τ) osem16 c
          ∗ Pipeline.scopedRest (Ix := Unit) (Name := ℕ) (U := Pipeline.UD sig nD τ) (Lvl := ℕ) (Val := Elt F) spec16 c) := by
  rw [show (datG16 V a16 gblk c).Φ (Fin.last (cfg16 a16).N) = iprop(Pipeline.ΦD osem16 spec16 H16 V c ∗ Pipeline.prefHeld pre16 c (fun _ => fullShare) a16.1) from rfl,
    Pipeline.ΦD_eq]
  unfold YG16
  iintro ⟨⟨Hr, Hp, Hs, Hh⟩, Ht⟩
  isplitl [Hp Hh Ht]
  · isplitl [Hp]; · iexact Hp
    isplitl [Hh]; · iexact Hh
    iexact Ht
  isplitl [Hs]; · iexact Hs
  iexact Hr

/-- ENTRY. `hsplit` is the library's split of the held buffers into the pipeline's array and the rest, at this data. -/
theorem hentryG16 (c : Dev nD) (hpf : (fun k => V c (pre16.ref k)) = a16.1)
    (hsplit : (unscopedBufs c (V c) : sProp 𝕄)
      ⊢ iprop((datG16 V a16 gblk c).arrays ((datG16 V a16 gblk c).arrAt · 0) ∗ Pipeline.unscopedRest spec16 c (V c))) :
    iprop((unscopedBufs c (V c) ∗ (∃ r, prngReg c r) ∗ ∃ W, owes (c : Thread nD τ) (0 : CellTallies nD τ sig Unit) W)
        ∗ Pipeline.ownSems0 (Ix := Unit) (Name := ℕ) (U := Pipeline.UD sig nD τ) (Lvl := ℕ) (Val := Elt F) (τ := τ) osem16 c
        ∗ levAts (fun _ : GSem nD τ sig => (∅ : Finset Unit)) (fun _ _ => (0 : ℕ)))
      ⊢ (|={Set.univ}=> iprop((datG16 V a16 gblk c).arrays ((datG16 V a16 gblk c).arrAt · 0)
          ∗ Pipeline.prefHeld pre16 c (fun _ => fullShare) a16.1
          ∗ (datG16 V a16 gblk c).owesAt () 0 ∗ XG16 V c ∗ ZG16 V c) : sProp 𝕄) := by
  have hrest := Pipeline.unscopedRest_split (Ix := Unit) (Name := ℕ) (U := Pipeline.UD sig nD τ) (Lvl := ℕ) preFacts16 c (V c)
  rw [hpf, Pipeline.unscopedRestP_sdiff pre16 spec16 H16 H16_sub c (V c)] at hrest
  rw [hrest] at hsplit
  iintro ⟨⟨Hub, Hp, HO⟩, Hs, -⟩
  ihave H := hsplit $$ Hub
  icases H with ⟨Ha, Ht, Hh, Hz⟩
  imodintro
  isplitl [Ha]; · iexact Ha
  isplitl [Ht]; · iexact Ht
  isplitl [HO]
  · unfold Pipeline.Dat.owesAt Pipeline.owesWithin
    icases HO with ⟨%W, HO⟩; iexists W; isplitr; · ipureintro; exact fun _ _ => Or.inl trivial
    iexact HO
  unfold XG16 ZG16
  isplitl [Hp Hs Hh]
  · isplitl [Hp]; · iexact Hp
    isplitl [Hs]; · iexact Hs
    iexact Hh
  iexact Hz

variable (Vn : (c : Dev nD) → (b : Ref sig .tc) → Buf (Elt F) ((c : Thread nD τ).loc b))

/-- EXIT. `hjoin` is the library's rejoining of the pipeline's array at its final contents with the rest, at this data. -/
theorem hexitG16 (c : Dev nD) (hpf : (fun k => V c (pre16.ref k)) = a16.1)
    (hjoin : iprop((datG16 V a16 gblk c).arrays ((datG16 V a16 gblk c).arrAt · (cfg16 a16).N) ∗ Pipeline.unscopedRest spec16 c (V c))
      ⊢ (unscopedBufs c (Vn c) : sProp 𝕄)) :
    iprop((datG16 V a16 gblk c).arrays ((datG16 V a16 gblk c).arrAt · (cfg16 a16).N)
        ∗ (datG16 V a16 gblk c).owesAt () (Fin.last (cfg16 a16).N) ∗ YG16 V a16 c ∗ ZG16 V c)
      ⊢ (|={Set.univ}=> iprop(unscopedBufs c (Vn c) ∗ (∃ r, prngReg c r) ∗ ∃ W, owes (c : Thread nD τ) (0 : CellTallies nD τ sig Unit) W) : sProp 𝕄) := by
  have hrest := Pipeline.unscopedRest_split (Ix := Unit) (Name := ℕ) (U := Pipeline.UD sig nD τ) (Lvl := ℕ) preFacts16 c (V c)
  rw [hpf, Pipeline.unscopedRestP_sdiff pre16 spec16 H16 H16_sub c (V c)] at hrest
  rw [hrest] at hjoin
  unfold YG16 ZG16
  iintro ⟨Ha, HO, ⟨Hp, Hh, Ht⟩, Hz⟩
  imodintro
  isplitl [Ha Hh Ht Hz]
  · iapply hjoin
    isplitl [Ha]; · iexact Ha
    isplitl [Ht]; · iexact Ht
    isplitl [Hh]; · iexact Hh
    iexact Hz
  isplitl [Hp]; · iexact Hp
  unfold Pipeline.Dat.owesAt Pipeline.owesWithin
  icases HO with ⟨%W, -, HO⟩; iexists W; iexact HO

end Cert.Kernel.Hand

end
-- ==== Proof.K.Gather17.lean ====
/-
  The row-gather region 17 of the kernel's program: its proof data and the facts the launch takes.

  Region 17 copies, at grid point t, the eight rows  A[tbl (8 t + j)]  (j < 8) of the 50000 x 128 array A it finds in
  HBM into the eight rows of its 8 x 128 output block; tbl is the region's index table of 85000 words, held in SMEM, and
  A is read only. So after the region the output array's row r is A's row tbl r. The body moves the rows by transfers
  of its own on eight semaphores of its own, all waited for before the point ends: between two points nothing is in
  flight, the table and A are as the region found them, and the semaphores are at zero. That is the region's invariant.
-/
import proofs.«402049_j87351044866139_2_alg».proof.Proof.Gen.Kernel.Launch
import proofs.«402049_j87351044866139_2_alg».proof.Proof.Gen.Kernel.Skeleton
import proofs.«402049_j87351044866139_2_alg».proof.Proof.Gen.Kernel.Points
import Idealize.ShloMosaic.Lib.Pipeline.Frame
import Idealize.ShloMosaic.Lib.Pipeline.FrameBody
import Idealize.ShloMosaic.Lib.Pipeline.RegionsLoop
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.Kernel Cert.Kernel.Gen

variable {F : FTy → Type} [FloatOps F]

local notation "𝕄" => MT nD τ sig Unit (Elt F) ℕ (Pipeline.UD sig nD τ) ℕ

/-- The eight semaphores the body's row transfers signal. -/
abbrev osem17 : Fin 8 → SemLoc sig := fun j =>
  (![SemLoc.dma 163, SemLoc.dma 164, SemLoc.dma 165, SemLoc.dma 166, SemLoc.dma 167, SemLoc.dma 168, SemLoc.dma 169, SemLoc.dma 170] : Fin 8 → SemLoc sig) j
theorem ownSemFacts17 : Pipeline.OwnSemFacts spec17 osem17 := by decide

/-- The array the rows are read from: left in HBM, no window's array and no table. -/
def H17 : Finset (Ref sig .tc) := {main_v61}
theorem H17_sub : H17 ⊆ Pipeline.restRefsP sig pre17 spec17 := by decide

variable (V : (c : Dev nD) → (b : Ref sig .tc) → Buf (Elt F) ((c : Thread nD τ).loc b))
variable (a17 : (pcfg17 (F := F)).Adm)
variable (gblk : (c : Dev nD) → Fin (cfg17 a17).N → S8x128.Idx → Elt F .f32)

/-- The region's proof data on core c: the output array as the region finds it; after point t the output block holds
    the eight gathered rows; the invariant above; full shares; nothing owed. -/
def datG17 (c : Dev nD) : Dat τ (Elt F) Unit ℕ (Pipeline.UD sig nD τ) ℕ (cfg17 a17) c where
  A w := V c (Pipeline.arrRef spec17 w)
  after w t := match w with
    | ⟨0, _⟩ => gblk c t
  Φ _ := iprop(Pipeline.ΦD osem17 spec17 H17 V c ∗ Pipeline.prefHeld pre17 c (fun _ => fullShare) a17.1)
  q _ := fullShare
  owed _ := 0

theorem A_eqG17 (c : Dev nD) (w : Fin (cfg17 a17).W) : (datG17 V a17 gblk c).A w = V c (Pipeline.arrRef spec17 w) := by
  dsimp only [datG17]
theorem afterG17_0 (c : Dev nD) (t : Fin (cfg17 a17).N) : (datG17 V a17 gblk c).after 0 t = gblk c t := rfl

/-! ## The region's protocol around the thread states

  Between two items of the program core c holds every unscoped buffer whole, beside its generator register and a record
  that it owes nothing. Entering the region, the output array goes to the pipeline, the table is handed over at its
  contents, the array A and the eight semaphores join the register in what the invariant takes (X), and the other
  buffers wait outside (Z). Leaving it, everything comes back: A and the table as they were. -/

/-- What the invariant takes at the first point beside the table and the scoped buffers. -/
def XG17 (c : Dev nD) : sProp 𝕄 :=
  iprop((∃ r, prngReg c r)
    ∗ Pipeline.ownSems0 (Ix := Unit) (Name := ℕ) (U := Pipeline.UD sig nD τ) (Lvl := ℕ) (Val := Elt F) (τ := τ) osem17 c
    ∗ bigSep H17 fun b => ((c.tc : Thread nD τ).loc b) ↦{fullShare} V c b)
/-- What it gives back at the last point beside the semaphores and the scoped buffers. -/
def YG17 (c : Dev nD) : sProp 𝕄 :=
  iprop((∃ r, prngReg c r) ∗ (bigSep H17 fun b => ((c.tc : Thread nD τ).loc b) ↦{fullShare} V c b)
    ∗ Pipeline.prefHeld pre17 c (fun _ => fullShare) a17.1)
/-- The unscoped buffers the region does not touch. -/
def ZG17 (c : Dev nD) : sProp 𝕄 :=
  bigSep (Pipeline.restRefsP sig pre17 spec17 \ H17) fun b => ((c.tc : Thread nD τ).loc b) ↦{fullShare} V c b

theorem hinG17 (c : Dev nD) :
    iprop(XG17 V c ∗ Pipeline.prefHeld pre17 c (fun _ => fullShare) a17.1
        ∗ Pipeline.scopedRest (Ix := Unit) (Name := ℕ) (U := Pipeline.UD sig nD τ) (Lvl := ℕ) (Val := Elt F) spec17 c)
      ⊢ (datG17 V a17 gblk c).Φ 0 := by
  rw [show (datG17 V a17 gblk c).Φ 0 = iprop(Pipeline.ΦD osem17 spec17 H17 V c ∗ Pipeline.prefHeld pre17 c (fun _ => fullShare) a17.1) from rfl,
    Pipeline.ΦD_eq]
  unfold XG17
  iintro ⟨⟨Hp, Hs, Hh⟩, Ht, Hr⟩
  isplitl [Hr Hp Hs Hh]
  · isplitl [Hr]; · iexact Hr
    isplitl [Hp]; · iexact Hp
    isplitl [Hs]; · iexact Hs
    iexact Hh
  iexact Ht

theorem houtG17 (c : Dev nD) :
    (datG17 V a17 gblk c).Φ (Fin.last (cfg17 a17).N)
      ⊢ iprop(YG17 V a17 c
          ∗ Pipeline.ownSems0 (Ix := Unit) (Name := ℕ) (U := Pipeline.UD sig nD τ) (Lvl := ℕ) (Val := Elt F) (τ := τ) osem17 c
          ∗ Pipeline.scopedRest (Ix := Unit) (Name := ℕ) (U := Pipeline.UD sig nD τ) (Lvl := ℕ) (Val := Elt F) spec17 c) := by
  rw [show (datG17 V a17 gblk c).Φ (Fin.last (cfg17 a17).N) = iprop(Pipeline.ΦD osem17 spec17 H17 V c ∗ Pipeline.prefHeld pre17 c (fun _ => fullShare) a17.1) from rfl,
    Pipeline.ΦD_eq]
  unfold YG17
  iintro ⟨⟨Hr, Hp, Hs, Hh⟩, Ht⟩
  isplitl [Hp Hh Ht]
  · isplitl [Hp]; · iexact Hp
    isplitl [Hh]; · iexact Hh
    iexact Ht
  isplitl [Hs]; · iexact Hs
  iexact Hr

/-- ENTRY. `hsplit` is the library's split of the held buffers into the pipeline's array and the rest, at this data. -/
theorem hentryG17 (c : Dev nD) (hpf : (fun k => V c (pre17.ref k)) = a17.1)
    (hsplit : (unscopedBufs c (V c) : sProp 𝕄)
      ⊢ iprop((datG17 V a17 gblk c).arrays ((datG17 V a17 gblk c).arrAt · 0) ∗ Pipeline.unscopedRest spec17 c (V c))) :
    iprop((unscopedBufs c (V c) ∗ (∃ r, prngReg c r) ∗ ∃ W, owes (c : Thread nD τ) (0 : CellTallies nD τ sig Unit) W)
        ∗ Pipeline.ownSems0 (Ix := Unit) (Name := ℕ) (U := Pipeline.UD sig nD τ) (Lvl := ℕ) (Val := Elt F) (τ := τ) osem17 c
        ∗ levAts (fun _ : GSem nD τ sig => (∅ : Finset Unit)) (fun _ _ => (0 : ℕ)))
      ⊢ (|={Set.univ}=> iprop((datG17 V a17 gblk c).arrays ((datG17 V a17 gblk c).arrAt · 0)
          ∗ Pipeline.prefHeld pre17 c (fun _ => fullShare) a17.1
          ∗ (datG17 V a17 gblk c).owesAt () 0 ∗ XG17 V c ∗ ZG17 V c) : sProp 𝕄) := by
  have hrest := Pipeline.unscopedRest_split (Ix := Unit) (Name := ℕ) (U := Pipeline.UD sig nD τ) (Lvl := ℕ) preFacts17 c (V c)
  rw [hpf, Pipeline.unscopedRestP_sdiff pre17 spec17 H17 H17_sub c (V c)] at hrest
  rw [hrest] at hsplit
  iintro ⟨⟨Hub, Hp, HO⟩, Hs, -⟩
  ihave H := hsplit $$ Hub
  icases H with ⟨Ha, Ht, Hh, Hz⟩
  imodintro
  isplitl [Ha]; · iexact Ha
  isplitl [Ht]; · iexact Ht
  isplitl [HO]
  · unfold Pipeline.Dat.owesAt Pipeline.owesWithin
    icases HO with ⟨%W, HO⟩; iexists W; isplitr; · ipureintro; exact fun _ _ => Or.inl trivial
    iexact HO
  unfold XG17 ZG17
  isplitl [Hp Hs Hh]
  · isplitl [Hp]; · iexact Hp
    isplitl [Hs]; · iexact Hs
    iexact Hh
  iexact Hz

variable (Vn : (c : Dev nD) → (b : Ref sig .tc) → Buf (Elt F) ((c : Thread nD τ).loc b))

/-- EXIT. `hjoin` is the library's rejoining of the pipeline's array at its final contents with the rest, at this data. -/
theorem hexitG17 (c : Dev nD) (hpf : (fun k => V c (pre17.ref k)) = a17.1)
    (hjoin : iprop((datG17 V a17 gblk c).arrays ((datG17 V a17 gblk c).arrAt · (cfg17 a17).N) ∗ Pipeline.unscopedRest spec17 c (V c))
      ⊢ (unscopedBufs c (Vn c) : sProp 𝕄)) :
    iprop((datG17 V a17 gblk c).arrays ((datG17 V a17 gblk c).arrAt · (cfg17 a17).N)
        ∗ (datG17 V a17 gblk c).owesAt () (Fin.last (cfg17 a17).N) ∗ YG17 V a17 c ∗ ZG17 V c)
      ⊢ (|={Set.univ}=> iprop(unscopedBufs c (Vn c) ∗ (∃ r, prngReg c r) ∗ ∃ W, owes (c : Thread nD τ) (0 : CellTallies nD τ sig Unit) W) : sProp 𝕄) := by
  have hrest := Pipeline.unscopedRest_split (Ix := Unit) (Name := ℕ) (U := Pipeline.UD sig nD τ) (Lvl := ℕ) preFacts17 c (V c)
  rw [hpf, Pipeline.unscopedRestP_sdiff pre17 spec17 H17 H17_sub c (V c)] at hrest
  rw [hrest] at hjoin
  unfold YG17 ZG17
  iintro ⟨Ha, HO, ⟨Hp, Hh, Ht⟩, Hz⟩
  imodintro
  isplitl [Ha Hh Ht Hz]
  · iapply hjoin
    isplitl [Ha]; · iexact Ha
    isplitl [Ht]; · iexact Ht
    isplitl [Hh]; · iexact Hh
    iexact Hz
  isplitl [Hp]; · iexact Hp
  unfold Pipeline.Dat.owesAt Pipeline.owesWithin
  icases HO with ⟨%W, -, HO⟩; iexists W; iexact HO

end Cert.Kernel.Hand

end
-- ==== Proof.K.Gather18.lean ====
/-
  The row-gather region 18 of the kernel's program: its proof data and the facts the launch takes.

  Region 18 copies, at grid point t, the eight rows  A[tbl (8 t + j)]  (j < 8) of the 50000 x 128 array A it finds in
  HBM into the eight rows of its 8 x 128 output block; tbl is the region's index table of 85000 words, held in SMEM, and
  A is read only. So after the region the output array's row r is A's row tbl r. The body moves the rows by transfers
  of its own on eight semaphores of its own, all waited for before the point ends: between two points nothing is in
  flight, the table and A are as the region found them, and the semaphores are at zero. That is the region's invariant.
-/
import proofs.«402049_j87351044866139_2_alg».proof.Proof.Gen.Kernel.Launch
import proofs.«402049_j87351044866139_2_alg».proof.Proof.Gen.Kernel.Skeleton
import proofs.«402049_j87351044866139_2_alg».proof.Proof.Gen.Kernel.Points
import Idealize.ShloMosaic.Lib.Pipeline.Frame
import Idealize.ShloMosaic.Lib.Pipeline.FrameBody
import Idealize.ShloMosaic.Lib.Pipeline.RegionsLoop
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.Kernel Cert.Kernel.Gen

variable {F : FTy → Type} [FloatOps F]

local notation "𝕄" => MT nD τ sig Unit (Elt F) ℕ (Pipeline.UD sig nD τ) ℕ

/-- The eight semaphores the body's row transfers signal. -/
abbrev osem18 : Fin 8 → SemLoc sig := fun j =>
  (![SemLoc.dma 173, SemLoc.dma 174, SemLoc.dma 175, SemLoc.dma 176, SemLoc.dma 177, SemLoc.dma 178, SemLoc.dma 179, SemLoc.dma 180] : Fin 8 → SemLoc sig) j
theorem ownSemFacts18 : Pipeline.OwnSemFacts spec18 osem18 := by decide

/-- The array the rows are read from: left in HBM, no window's array and no table. -/
def H18 : Finset (Ref sig .tc) := {main_v61}
theorem H18_sub : H18 ⊆ Pipeline.restRefsP sig pre18 spec18 := by decide

variable (V : (c : Dev nD) → (b : Ref sig .tc) → Buf (Elt F) ((c : Thread nD τ).loc b))
variable (a18 : (pcfg18 (F := F)).Adm)
variable (gblk : (c : Dev nD) → Fin (cfg18 a18).N → S8x128.Idx → Elt F .f32)

/-- The region's proof data on core c: the output array as the region finds it; after point t the output block holds
    the eight gathered rows; the invariant above; full shares; nothing owed. -/
def datG18 (c : Dev nD) : Dat τ (Elt F) Unit ℕ (Pipeline.UD sig nD τ) ℕ (cfg18 a18) c where
  A w := V c (Pipeline.arrRef spec18 w)
  after w t := match w with
    | ⟨0, _⟩ => gblk c t
  Φ _ := iprop(Pipeline.ΦD osem18 spec18 H18 V c ∗ Pipeline.prefHeld pre18 c (fun _ => fullShare) a18.1)
  q _ := fullShare
  owed _ := 0

theorem A_eqG18 (c : Dev nD) (w : Fin (cfg18 a18).W) : (datG18 V a18 gblk c).A w = V c (Pipeline.arrRef spec18 w) := by
  dsimp only [datG18]
theorem afterG18_0 (c : Dev nD) (t : Fin (cfg18 a18).N) : (datG18 V a18 gblk c).after 0 t = gblk c t := rfl

/-! ## The region's protocol around the thread states

  Between two items of the program core c holds every unscoped buffer whole, beside its generator register and a record
  that it owes nothing. Entering the region, the output array goes to the pipeline, the table is handed over at its
  contents, the array A and the eight semaphores join the register in what the invariant takes (X), and the other
  buffers wait outside (Z). Leaving it, everything comes back: A and the table as they were. -/

/-- What the invariant takes at the first point beside the table and the scoped buffers. -/
def XG18 (c : Dev nD) : sProp 𝕄 :=
  iprop((∃ r, prngReg c r)
    ∗ Pipeline.ownSems0 (Ix := Unit) (Name := ℕ) (U := Pipeline.UD sig nD τ) (Lvl := ℕ) (Val := Elt F) (τ := τ) osem18 c
    ∗ bigSep H18 fun b => ((c.tc : Thread nD τ).loc b) ↦{fullShare} V c b)
/-- What it gives back at the last point beside the semaphores and the scoped buffers. -/
def YG18 (c : Dev nD) : sProp 𝕄 :=
  iprop((∃ r, prngReg c r) ∗ (bigSep H18 fun b => ((c.tc : Thread nD τ).loc b) ↦{fullShare} V c b)
    ∗ Pipeline.prefHeld pre18 c (fun _ => fullShare) a18.1)
/-- The unscoped buffers the region does not touch. -/
def ZG18 (c : Dev nD) : sProp 𝕄 :=
  bigSep (Pipeline.restRefsP sig pre18 spec18 \ H18) fun b => ((c.tc : Thread nD τ).loc b) ↦{fullShare} V c b

theorem hinG18 (c : Dev nD) :
    iprop(XG18 V c ∗ Pipeline.prefHeld pre18 c (fun _ => fullShare) a18.1
        ∗ Pipeline.scopedRest (Ix := Unit) (Name := ℕ) (U := Pipeline.UD sig nD τ) (Lvl := ℕ) (Val := Elt F) spec18 c)
      ⊢ (datG18 V a18 gblk c).Φ 0 := by
  rw [show (datG18 V a18 gblk c).Φ 0 = iprop(Pipeline.ΦD osem18 spec18 H18 V c ∗ Pipeline.prefHeld pre18 c (fun _ => fullShare) a18.1) from rfl,
    Pipeline.ΦD_eq]
  unfold XG18
  iintro ⟨⟨Hp, Hs, Hh⟩, Ht, Hr⟩
  isplitl [Hr Hp Hs Hh]
  · isplitl [Hr]; · iexact Hr
    isplitl [Hp]; · iexact Hp
    isplitl [Hs]; · iexact Hs
    iexact Hh
  iexact Ht

theorem houtG18 (c : Dev nD) :
    (datG18 V a18 gblk c).Φ (Fin.last (cfg18 a18).N)
      ⊢ iprop(YG18 V a18 c
          ∗ Pipeline.ownSems0 (Ix := Unit) (Name := ℕ) (U := Pipeline.UD sig nD τ) (Lvl := ℕ) (Val := Elt F) (τ := τ) osem18 c
          ∗ Pipeline.scopedRest (Ix := Unit) (Name := ℕ) (U := Pipeline.UD sig nD τ) (Lvl := ℕ) (Val := Elt F) spec18 c) := by
  rw [show (datG18 V a18 gblk c).Φ (Fin.last (cfg18 a18).N) = iprop(Pipeline.ΦD osem18 spec18 H18 V c ∗ Pipeline.prefHeld pre18 c (fun _ => fullShare) a18.1) from rfl,
    Pipeline.ΦD_eq]
  unfold YG18
  iintro ⟨⟨Hr, Hp, Hs, Hh⟩, Ht⟩
  isplitl [Hp Hh Ht]
  · isplitl [Hp]; · iexact Hp
    isplitl [Hh]; · iexact Hh
    iexact Ht
  isplitl [Hs]; · iexact Hs
  iexact Hr

/-- ENTRY. `hsplit` is the library's split of the held buffers into the pipeline's array and the rest, at this data. -/
theorem hentryG18 (c : Dev nD) (hpf : (fun k => V c (pre18.ref k)) = a18.1)
    (hsplit : (unscopedBufs c (V c) : sProp 𝕄)
      ⊢ iprop((datG18 V a18 gblk c).arrays ((datG18 V a18 gblk c).arrAt · 0) ∗ Pipeline.unscopedRest spec18 c (V c))) :
    iprop((unscopedBufs c (V c) ∗ (∃ r, prngReg c r) ∗ ∃ W, owes (c : Thread nD τ) (0 : CellTallies nD τ sig Unit) W)
        ∗ Pipeline.ownSems0 (Ix := Unit) (Name := ℕ) (U := Pipeline.UD sig nD τ) (Lvl := ℕ) (Val := Elt F) (τ := τ) osem18 c
        ∗ levAts (fun _ : GSem nD τ sig => (∅ : Finset Unit)) (fun _ _ => (0 : ℕ)))
      ⊢ (|={Set.univ}=> iprop((datG18 V a18 gblk c).arrays ((datG18 V a18 gblk c).arrAt · 0)
          ∗ Pipeline.prefHeld pre18 c (fun _ => fullShare) a18.1
          ∗ (datG18 V a18 gblk c).owesAt () 0 ∗ XG18 V c ∗ ZG18 V c) : sProp 𝕄) := by
  have hrest := Pipeline.unscopedRest_split (Ix := Unit) (Name := ℕ) (U := Pipeline.UD sig nD τ) (Lvl := ℕ) preFacts18 c (V c)
  rw [hpf, Pipeline.unscopedRestP_sdiff pre18 spec18 H18 H18_sub c (V c)] at hrest
  rw [hrest] at hsplit
  iintro ⟨⟨Hub, Hp, HO⟩, Hs, -⟩
  ihave H := hsplit $$ Hub
  icases H with ⟨Ha, Ht, Hh, Hz⟩
  imodintro
  isplitl [Ha]; · iexact Ha
  isplitl [Ht]; · iexact Ht
  isplitl [HO]
  · unfold Pipeline.Dat.owesAt Pipeline.owesWithin
    icases HO with ⟨%W, HO⟩; iexists W; isplitr; · ipureintro; exact fun _ _ => Or.inl trivial
    iexact HO
  unfold XG18 ZG18
  isplitl [Hp Hs Hh]
  · isplitl [Hp]; · iexact Hp
    isplitl [Hs]; · iexact Hs
    iexact Hh
  iexact Hz

variable (Vn : (c : Dev nD) → (b : Ref sig .tc) → Buf (Elt F) ((c : Thread nD τ).loc b))

/-- EXIT. `hjoin` is the library's rejoining of the pipeline's array at its final contents with the rest, at this data. -/
theorem hexitG18 (c : Dev nD) (hpf : (fun k => V c (pre18.ref k)) = a18.1)
    (hjoin : iprop((datG18 V a18 gblk c).arrays ((datG18 V a18 gblk c).arrAt · (cfg18 a18).N) ∗ Pipeline.unscopedRest spec18 c (V c))
      ⊢ (unscopedBufs c (Vn c) : sProp 𝕄)) :
    iprop((datG18 V a18 gblk c).arrays ((datG18 V a18 gblk c).arrAt · (cfg18 a18).N)
        ∗ (datG18 V a18 gblk c).owesAt () (Fin.last (cfg18 a18).N) ∗ YG18 V a18 c ∗ ZG18 V c)
      ⊢ (|={Set.univ}=> iprop(unscopedBufs c (Vn c) ∗ (∃ r, prngReg c r) ∗ ∃ W, owes (c : Thread nD τ) (0 : CellTallies nD τ sig Unit) W) : sProp 𝕄) := by
  have hrest := Pipeline.unscopedRest_split (Ix := Unit) (Name := ℕ) (U := Pipeline.UD sig nD τ) (Lvl := ℕ) preFacts18 c (V c)
  rw [hpf, Pipeline.unscopedRestP_sdiff pre18 spec18 H18 H18_sub c (V c)] at hrest
  rw [hrest] at hjoin
  unfold YG18 ZG18
  iintro ⟨Ha, HO, ⟨Hp, Hh, Ht⟩, Hz⟩
  imodintro
  isplitl [Ha Hh Ht Hz]
  · iapply hjoin
    isplitl [Ha]; · iexact Ha
    isplitl [Ht]; · iexact Ht
    isplitl [Hh]; · iexact Hh
    iexact Hz
  isplitl [Hp]; · iexact Hp
  unfold Pipeline.Dat.owesAt Pipeline.owesWithin
  icases HO with ⟨%W, -, HO⟩; iexists W; iexact HO

end Cert.Kernel.Hand

end
-- ==== Proof.K.Gather19.lean ====
/-
  The row-gather region 19 of the kernel's program: its proof data and the facts the launch takes.

  Region 19 copies, at grid point t, the eight rows  A[tbl (8 t + j)]  (j < 8) of the 50000 x 128 array A it finds in
  HBM into the eight rows of its 8 x 128 output block; tbl is the region's index table of 85000 words, held in SMEM, and
  A is read only. So after the region the output array's row r is A's row tbl r. The body moves the rows by transfers
  of its own on eight semaphores of its own, all waited for before the point ends: between two points nothing is in
  flight, the table and A are as the region found them, and the semaphores are at zero. That is the region's invariant.
-/
import proofs.«402049_j87351044866139_2_alg».proof.Proof.Gen.Kernel.Launch
import proofs.«402049_j87351044866139_2_alg».proof.Proof.Gen.Kernel.Skeleton
import proofs.«402049_j87351044866139_2_alg».proof.Proof.Gen.Kernel.Points
import Idealize.ShloMosaic.Lib.Pipeline.Frame
import Idealize.ShloMosaic.Lib.Pipeline.FrameBody
import Idealize.ShloMosaic.Lib.Pipeline.RegionsLoop
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.Kernel Cert.Kernel.Gen

variable {F : FTy → Type} [FloatOps F]

local notation "𝕄" => MT nD τ sig Unit (Elt F) ℕ (Pipeline.UD sig nD τ) ℕ

/-- The eight semaphores the body's row transfers signal. -/
abbrev osem19 : Fin 8 → SemLoc sig := fun j =>
  (![SemLoc.dma 183, SemLoc.dma 184, SemLoc.dma 185, SemLoc.dma 186, SemLoc.dma 187, SemLoc.dma 188, SemLoc.dma 189, SemLoc.dma 190] : Fin 8 → SemLoc sig) j
theorem ownSemFacts19 : Pipeline.OwnSemFacts spec19 osem19 := by decide

/-- The array the rows are read from: left in HBM, no window's array and no table. -/
def H19 : Finset (Ref sig .tc) := {main_v61}
theorem H19_sub : H19 ⊆ Pipeline.restRefsP sig pre19 spec19 := by decide

variable (V : (c : Dev nD) → (b : Ref sig .tc) → Buf (Elt F) ((c : Thread nD τ).loc b))
variable (a19 : (pcfg19 (F := F)).Adm)
variable (gblk : (c : Dev nD) → Fin (cfg19 a19).N → S8x128.Idx → Elt F .f32)

/-- The region's proof data on core c: the output array as the region finds it; after point t the output block holds
    the eight gathered rows; the invariant above; full shares; nothing owed. -/
def datG19 (c : Dev nD) : Dat τ (Elt F) Unit ℕ (Pipeline.UD sig nD τ) ℕ (cfg19 a19) c where
  A w := V c (Pipeline.arrRef spec19 w)
  after w t := match w with
    | ⟨0, _⟩ => gblk c t
  Φ _ := iprop(Pipeline.ΦD osem19 spec19 H19 V c ∗ Pipeline.prefHeld pre19 c (fun _ => fullShare) a19.1)
  q _ := fullShare
  owed _ := 0

theorem A_eqG19 (c : Dev nD) (w : Fin (cfg19 a19).W) : (datG19 V a19 gblk c).A w = V c (Pipeline.arrRef spec19 w) := by
  dsimp only [datG19]
theorem afterG19_0 (c : Dev nD) (t : Fin (cfg19 a19).N) : (datG19 V a19 gblk c).after 0 t = gblk c t := rfl

/-! ## The region's protocol around the thread states

  Between two items of the program core c holds every unscoped buffer whole, beside its generator register and a record
  that it owes nothing. Entering the region, the output array goes to the pipeline, the table is handed over at its
  contents, the array A and the eight semaphores join the register in what the invariant takes (X), and the other
  buffers wait outside (Z). Leaving it, everything comes back: A and the table as they were. -/

/-- What the invariant takes at the first point beside the table and the scoped buffers. -/
def XG19 (c : Dev nD) : sProp 𝕄 :=
  iprop((∃ r, prngReg c r)
    ∗ Pipeline.ownSems0 (Ix := Unit) (Name := ℕ) (U := Pipeline.UD sig nD τ) (Lvl := ℕ) (Val := Elt F) (τ := τ) osem19 c
    ∗ bigSep H19 fun b => ((c.tc : Thread nD τ).loc b) ↦{fullShare} V c b)
/-- What it gives back at the last point beside the semaphores and the scoped buffers. -/
def YG19 (c : Dev nD) : sProp 𝕄 :=
  iprop((∃ r, prngReg c r) ∗ (bigSep H19 fun b => ((c.tc : Thread nD τ).loc b) ↦{fullShare} V c b)
    ∗ Pipeline.prefHeld pre19 c (fun _ => fullShare) a19.1)
/-- The unscoped buffers the region does not touch. -/
def ZG19 (c : Dev nD) : sProp 𝕄 :=
  bigSep (Pipeline.restRefsP sig pre19 spec19 \ H19) fun b => ((c.tc : Thread nD τ).loc b) ↦{fullShare} V c b

theorem hinG19 (c : Dev nD) :
    iprop(XG19 V c ∗ Pipeline.prefHeld pre19 c (fun _ => fullShare) a19.1
        ∗ Pipeline.scopedRest (Ix := Unit) (Name := ℕ) (U := Pipeline.UD sig nD τ) (Lvl := ℕ) (Val := Elt F) spec19 c)
      ⊢ (datG19 V a19 gblk c).Φ 0 := by
  rw [show (datG19 V a19 gblk c).Φ 0 = iprop(Pipeline.ΦD osem19 spec19 H19 V c ∗ Pipeline.prefHeld pre19 c (fun _ => fullShare) a19.1) from rfl,
    Pipeline.ΦD_eq]
  unfold XG19
  iintro ⟨⟨Hp, Hs, Hh⟩, Ht, Hr⟩
  isplitl [Hr Hp Hs Hh]
  · isplitl [Hr]; · iexact Hr
    isplitl [Hp]; · iexact Hp
    isplitl [Hs]; · iexact Hs
    iexact Hh
  iexact Ht

theorem houtG19 (c : Dev nD) :
    (datG19 V a19 gblk c).Φ (Fin.last (cfg19 a19).N)
      ⊢ iprop(YG19 V a19 c
          ∗ Pipeline.ownSems0 (Ix := Unit) (Name := ℕ) (U := Pipeline.UD sig nD τ) (Lvl := ℕ) (Val := Elt F) (τ := τ) osem19 c
          ∗ Pipeline.scopedRest (Ix := Unit) (Name := ℕ) (U := Pipeline.UD sig nD τ) (Lvl := ℕ) (Val := Elt F) spec19 c) := by
  rw [show (datG19 V a19 gblk c).Φ (Fin.last (cfg19 a19).N) = iprop(Pipeline.ΦD osem19 spec19 H19 V c ∗ Pipeline.prefHeld pre19 c (fun _ => fullShare) a19.1) from rfl,
    Pipeline.ΦD_eq]
  unfold YG19
  iintro ⟨⟨Hr, Hp, Hs, Hh⟩, Ht⟩
  isplitl [Hp Hh Ht]
  · isplitl [Hp]; · iexact Hp
    isplitl [Hh]; · iexact Hh
    iexact Ht
  isplitl [Hs]; · iexact Hs
  iexact Hr

/-- ENTRY. `hsplit` is the library's split of the held buffers into the pipeline's array and the rest, at this data. -/
theorem hentryG19 (c : Dev nD) (hpf : (fun k => V c (pre19.ref k)) = a19.1)
    (hsplit : (unscopedBufs c (V c) : sProp 𝕄)
      ⊢ iprop((datG19 V a19 gblk c).arrays ((datG19 V a19 gblk c).arrAt · 0) ∗ Pipeline.unscopedRest spec19 c (V c))) :
    iprop((unscopedBufs c (V c) ∗ (∃ r, prngReg c r) ∗ ∃ W, owes (c : Thread nD τ) (0 : CellTallies nD τ sig Unit) W)
        ∗ Pipeline.ownSems0 (Ix := Unit) (Name := ℕ) (U := Pipeline.UD sig nD τ) (Lvl := ℕ) (Val := Elt F) (τ := τ) osem19 c
        ∗ levAts (fun _ : GSem nD τ sig => (∅ : Finset Unit)) (fun _ _ => (0 : ℕ)))
      ⊢ (|={Set.univ}=> iprop((datG19 V a19 gblk c).arrays ((datG19 V a19 gblk c).arrAt · 0)
          ∗ Pipeline.prefHeld pre19 c (fun _ => fullShare) a19.1
          ∗ (datG19 V a19 gblk c).owesAt () 0 ∗ XG19 V c ∗ ZG19 V c) : sProp 𝕄) := by
  have hrest := Pipeline.unscopedRest_split (Ix := Unit) (Name := ℕ) (U := Pipeline.UD sig nD τ) (Lvl := ℕ) preFacts19 c (V c)
  rw [hpf, Pipeline.unscopedRestP_sdiff pre19 spec19 H19 H19_sub c (V c)] at hrest
  rw [hrest] at hsplit
  iintro ⟨⟨Hub, Hp, HO⟩, Hs, -⟩
  ihave H := hsplit $$ Hub
  icases H with ⟨Ha, Ht, Hh, Hz⟩
  imodintro
  isplitl [Ha]; · iexact Ha
  isplitl [Ht]; · iexact Ht
  isplitl [HO]
  · unfold Pipeline.Dat.owesAt Pipeline.owesWithin
    icases HO with ⟨%W, HO⟩; iexists W; isplitr; · ipureintro; exact fun _ _ => Or.inl trivial
    iexact HO
  unfold XG19 ZG19
  isplitl [Hp Hs Hh]
  · isplitl [Hp]; · iexact Hp
    isplitl [Hs]; · iexact Hs
    iexact Hh
  iexact Hz

variable (Vn : (c : Dev nD) → (b : Ref sig .tc) → Buf (Elt F) ((c : Thread nD τ).loc b))

/-- EXIT. `hjoin` is the library's rejoining of the pipeline's array at its final contents with the rest, at this data. -/
theorem hexitG19 (c : Dev nD) (hpf : (fun k => V c (pre19.ref k)) = a19.1)
    (hjoin : iprop((datG19 V a19 gblk c).arrays ((datG19 V a19 gblk c).arrAt · (cfg19 a19).N) ∗ Pipeline.unscopedRest spec19 c (V c))
      ⊢ (unscopedBufs c (Vn c) : sProp 𝕄)) :
    iprop((datG19 V a19 gblk c).arrays ((datG19 V a19 gblk c).arrAt · (cfg19 a19).N)
        ∗ (datG19 V a19 gblk c).owesAt () (Fin.last (cfg19 a19).N) ∗ YG19 V a19 c ∗ ZG19 V c)
      ⊢ (|={Set.univ}=> iprop(unscopedBufs c (Vn c) ∗ (∃ r, prngReg c r) ∗ ∃ W, owes (c : Thread nD τ) (0 : CellTallies nD τ sig Unit) W) : sProp 𝕄) := by
  have hrest := Pipeline.unscopedRest_split (Ix := Unit) (Name := ℕ) (U := Pipeline.UD sig nD τ) (Lvl := ℕ) preFacts19 c (V c)
  rw [hpf, Pipeline.unscopedRestP_sdiff pre19 spec19 H19 H19_sub c (V c)] at hrest
  rw [hrest] at hjoin
  unfold YG19 ZG19
  iintro ⟨Ha, HO, ⟨Hp, Hh, Ht⟩, Hz⟩
  imodintro
  isplitl [Ha Hh Ht Hz]
  · iapply hjoin
    isplitl [Ha]; · iexact Ha
    isplitl [Ht]; · iexact Ht
    isplitl [Hh]; · iexact Hh
    iexact Hz
  isplitl [Hp]; · iexact Hp
  unfold Pipeline.Dat.owesAt Pipeline.owesWithin
  icases HO with ⟨%W, -, HO⟩; iexists W; iexact HO

end Cert.Kernel.Hand

end
-- ==== Proof.K.Gather20.lean ====
/-
  The row-gather region 20 of the kernel's program: its proof data and the facts the launch takes.

  Region 20 copies, at grid point t, the eight rows  A[tbl (8 t + j)]  (j < 8) of the 50000 x 128 array A it finds in
  HBM into the eight rows of its 8 x 128 output block; tbl is the region's index table of 85000 words, held in SMEM, and
  A is read only. So after the region the output array's row r is A's row tbl r. The body moves the rows by transfers
  of its own on eight semaphores of its own, all waited for before the point ends: between two points nothing is in
  flight, the table and A are as the region found them, and the semaphores are at zero. That is the region's invariant.
-/
import proofs.«402049_j87351044866139_2_alg».proof.Proof.Gen.Kernel.Launch
import proofs.«402049_j87351044866139_2_alg».proof.Proof.Gen.Kernel.Skeleton
import proofs.«402049_j87351044866139_2_alg».proof.Proof.Gen.Kernel.Points
import Idealize.ShloMosaic.Lib.Pipeline.Frame
import Idealize.ShloMosaic.Lib.Pipeline.FrameBody
import Idealize.ShloMosaic.Lib.Pipeline.RegionsLoop
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.Kernel Cert.Kernel.Gen

variable {F : FTy → Type} [FloatOps F]

local notation "𝕄" => MT nD τ sig Unit (Elt F) ℕ (Pipeline.UD sig nD τ) ℕ

/-- The eight semaphores the body's row transfers signal. -/
abbrev osem20 : Fin 8 → SemLoc sig := fun j =>
  (![SemLoc.dma 193, SemLoc.dma 194, SemLoc.dma 195, SemLoc.dma 196, SemLoc.dma 197, SemLoc.dma 198, SemLoc.dma 199, SemLoc.dma 200] : Fin 8 → SemLoc sig) j
theorem ownSemFacts20 : Pipeline.OwnSemFacts spec20 osem20 := by decide

/-- The array the rows are read from: left in HBM, no window's array and no table. -/
def H20 : Finset (Ref sig .tc) := {main_v61}
theorem H20_sub : H20 ⊆ Pipeline.restRefsP sig pre20 spec20 := by decide

variable (V : (c : Dev nD) → (b : Ref sig .tc) → Buf (Elt F) ((c : Thread nD τ).loc b))
variable (a20 : (pcfg20 (F := F)).Adm)
variable (gblk : (c : Dev nD) → Fin (cfg20 a20).N → S8x128.Idx → Elt F .f32)

/-- The region's proof data on core c: the output array as the region finds it; after point t the output block holds
    the eight gathered rows; the invariant above; full shares; nothing owed. -/
def datG20 (c : Dev nD) : Dat τ (Elt F) Unit ℕ (Pipeline.UD sig nD τ) ℕ (cfg20 a20) c where
  A w := V c (Pipeline.arrRef spec20 w)
  after w t := match w with
    | ⟨0, _⟩ => gblk c t
  Φ _ := iprop(Pipeline.ΦD osem20 spec20 H20 V c ∗ Pipeline.prefHeld pre20 c (fun _ => fullShare) a20.1)
  q _ := fullShare
  owed _ := 0

theorem A_eqG20 (c : Dev nD) (w : Fin (cfg20 a20).W) : (datG20 V a20 gblk c).A w = V c (Pipeline.arrRef spec20 w) := by
  dsimp only [datG20]
theorem afterG20_0 (c : Dev nD) (t : Fin (cfg20 a20).N) : (datG20 V a20 gblk c).after 0 t = gblk c t := rfl

/-! ## The region's protocol around the thread states

  Between two items of the program core c holds every unscoped buffer whole, beside its generator register and a record
  that it owes nothing. Entering the region, the output array goes to the pipeline, the table is handed over at its
  contents, the array A and the eight semaphores join the register in what the invariant takes (X), and the other
  buffers wait outside (Z). Leaving it, everything comes back: A and the table as they were. -/

/-- What the invariant takes at the first point beside the table and the scoped buffers. -/
def XG20 (c : Dev nD) : sProp 𝕄 :=
  iprop((∃ r, prngReg c r)
    ∗ Pipeline.ownSems0 (Ix := Unit) (Name := ℕ) (U := Pipeline.UD sig nD τ) (Lvl := ℕ) (Val := Elt F) (τ := τ) osem20 c
    ∗ bigSep H20 fun b => ((c.tc : Thread nD τ).loc b) ↦{fullShare} V c b)
/-- What it gives back at the last point beside the semaphores and the scoped buffers. -/
def YG20 (c : Dev nD) : sProp 𝕄 :=
  iprop((∃ r, prngReg c r) ∗ (bigSep H20 fun b => ((c.tc : Thread nD τ).loc b) ↦{fullShare} V c b)
    ∗ Pipeline.prefHeld pre20 c (fun _ => fullShare) a20.1)
/-- The unscoped buffers the region does not touch. -/
def ZG20 (c : Dev nD) : sProp 𝕄 :=
  bigSep (Pipeline.restRefsP sig pre20 spec20 \ H20) fun b => ((c.tc : Thread nD τ).loc b) ↦{fullShare} V c b

theorem hinG20 (c : Dev nD) :
    iprop(XG20 V c ∗ Pipeline.prefHeld pre20 c (fun _ => fullShare) a20.1
        ∗ Pipeline.scopedRest (Ix := Unit) (Name := ℕ) (U := Pipeline.UD sig nD τ) (Lvl := ℕ) (Val := Elt F) spec20 c)
      ⊢ (datG20 V a20 gblk c).Φ 0 := by
  rw [show (datG20 V a20 gblk c).Φ 0 = iprop(Pipeline.ΦD osem20 spec20 H20 V c ∗ Pipeline.prefHeld pre20 c (fun _ => fullShare) a20.1) from rfl,
    Pipeline.ΦD_eq]
  unfold XG20
  iintro ⟨⟨Hp, Hs, Hh⟩, Ht, Hr⟩
  isplitl [Hr Hp Hs Hh]
  · isplitl [Hr]; · iexact Hr
    isplitl [Hp]; · iexact Hp
    isplitl [Hs]; · iexact Hs
    iexact Hh
  iexact Ht

theorem houtG20 (c : Dev nD) :
    (datG20 V a20 gblk c).Φ (Fin.last (cfg20 a20).N)
      ⊢ iprop(YG20 V a20 c
          ∗ Pipeline.ownSems0 (Ix := Unit) (Name := ℕ) (U := Pipeline.UD sig nD τ) (Lvl := ℕ) (Val := Elt F) (τ := τ) osem20 c
          ∗ Pipeline.scopedRest (Ix := Unit) (Name := ℕ) (U := Pipeline.UD sig nD τ) (Lvl := ℕ) (Val := Elt F) spec20 c) := by
  rw [show (datG20 V a20 gblk c).Φ (Fin.last (cfg20 a20).N) = iprop(Pipeline.ΦD osem20 spec20 H20 V c ∗ Pipeline.prefHeld pre20 c (fun _ => fullShare) a20.1) from rfl,
    Pipeline.ΦD_eq]
  unfold YG20
  iintro ⟨⟨Hr, Hp, Hs, Hh⟩, Ht⟩
  isplitl [Hp Hh Ht]
  · isplitl [Hp]; · iexact Hp
    isplitl [Hh]; · iexact Hh
    iexact Ht
  isplitl [Hs]; · iexact Hs
  iexact Hr

/-- ENTRY. `hsplit` is the library's split of the held buffers into the pipeline's array and the rest, at this data. -/
theorem hentryG20 (c : Dev nD) (hpf : (fun k => V c (pre20.ref k)) = a20.1)
    (hsplit : (unscopedBufs c (V c) : sProp 𝕄)
      ⊢ iprop((datG20 V a20 gblk c).arrays ((datG20 V a20 gblk c).arrAt · 0) ∗ Pipeline.unscopedRest spec20 c (V c))) :
    iprop((unscopedBufs c (V c) ∗ (∃ r, prngReg c r) ∗ ∃ W, owes (c : Thread nD τ) (0 : CellTallies nD τ sig Unit) W)
        ∗ Pipeline.ownSems0 (Ix := Unit) (Name := ℕ) (U := Pipeline.UD sig nD τ) (Lvl := ℕ) (Val := Elt F) (τ := τ) osem20 c
        ∗ levAts (fun _ : GSem nD τ sig => (∅ : Finset Unit)) (fun _ _ => (0 : ℕ)))
      ⊢ (|={Set.univ}=> iprop((datG20 V a20 gblk c).arrays ((datG20 V a20 gblk c).arrAt · 0)
          ∗ Pipeline.prefHeld pre20 c (fun _ => fullShare) a20.1
          ∗ (datG20 V a20 gblk c).owesAt () 0 ∗ XG20 V c ∗ ZG20 V c) : sProp 𝕄) := by
  have hrest := Pipeline.unscopedRest_split (Ix := Unit) (Name := ℕ) (U := Pipeline.UD sig nD τ) (Lvl := ℕ) preFacts20 c (V c)
  rw [hpf, Pipeline.unscopedRestP_sdiff pre20 spec20 H20 H20_sub c (V c)] at hrest
  rw [hrest] at hsplit
  iintro ⟨⟨Hub, Hp, HO⟩, Hs, -⟩
  ihave H := hsplit $$ Hub
  icases H with ⟨Ha, Ht, Hh, Hz⟩
  imodintro
  isplitl [Ha]; · iexact Ha
  isplitl [Ht]; · iexact Ht
  isplitl [HO]
  · unfold Pipeline.Dat.owesAt Pipeline.owesWithin
    icases HO with ⟨%W, HO⟩; iexists W; isplitr; · ipureintro; exact fun _ _ => Or.inl trivial
    iexact HO
  unfold XG20 ZG20
  isplitl [Hp Hs Hh]
  · isplitl [Hp]; · iexact Hp
    isplitl [Hs]; · iexact Hs
    iexact Hh
  iexact Hz

variable (Vn : (c : Dev nD) → (b : Ref sig .tc) → Buf (Elt F) ((c : Thread nD τ).loc b))

/-- EXIT. `hjoin` is the library's rejoining of the pipeline's array at its final contents with the rest, at this data. -/
theorem hexitG20 (c : Dev nD) (hpf : (fun k => V c (pre20.ref k)) = a20.1)
    (hjoin : iprop((datG20 V a20 gblk c).arrays ((datG20 V a20 gblk c).arrAt · (cfg20 a20).N) ∗ Pipeline.unscopedRest spec20 c (V c))
      ⊢ (unscopedBufs c (Vn c) : sProp 𝕄)) :
    iprop((datG20 V a20 gblk c).arrays ((datG20 V a20 gblk c).arrAt · (cfg20 a20).N)
        ∗ (datG20 V a20 gblk c).owesAt () (Fin.last (cfg20 a20).N) ∗ YG20 V a20 c ∗ ZG20 V c)
      ⊢ (|={Set.univ}=> iprop(unscopedBufs c (Vn c) ∗ (∃ r, prngReg c r) ∗ ∃ W, owes (c : Thread nD τ) (0 : CellTallies nD τ sig Unit) W) : sProp 𝕄) := by
  have hrest := Pipeline.unscopedRest_split (Ix := Unit) (Name := ℕ) (U := Pipeline.UD sig nD τ) (Lvl := ℕ) preFacts20 c (V c)
  rw [hpf, Pipeline.unscopedRestP_sdiff pre20 spec20 H20 H20_sub c (V c)] at hrest
  rw [hrest] at hjoin
  unfold YG20 ZG20
  iintro ⟨Ha, HO, ⟨Hp, Hh, Ht⟩, Hz⟩
  imodintro
  isplitl [Ha Hh Ht Hz]
  · iapply hjoin
    isplitl [Ha]; · iexact Ha
    isplitl [Ht]; · iexact Ht
    isplitl [Hh]; · iexact Hh
    iexact Hz
  isplitl [Hp]; · iexact Hp
  unfold Pipeline.Dat.owesAt Pipeline.owesWithin
  icases HO with ⟨%W, -, HO⟩; iexists W; iexact HO

end Cert.Kernel.Hand

end
-- ==== Proof.K.Gather21.lean ====
/-
  The row-gather region 21 of the kernel's program: its proof data and the facts the launch takes.

  Region 21 copies, at grid point t, the eight rows  A[tbl (8 t + j)]  (j < 8) of the 50000 x 128 array A it finds in
  HBM into the eight rows of its 8 x 128 output block; tbl is the region's index table of 85000 words, held in SMEM, and
  A is read only. So after the region the output array's row r is A's row tbl r. The body moves the rows by transfers
  of its own on eight semaphores of its own, all waited for before the point ends: between two points nothing is in
  flight, the table and A are as the region found them, and the semaphores are at zero. That is the region's invariant.
-/
import proofs.«402049_j87351044866139_2_alg».proof.Proof.Gen.Kernel.Launch
import proofs.«402049_j87351044866139_2_alg».proof.Proof.Gen.Kernel.Skeleton
import proofs.«402049_j87351044866139_2_alg».proof.Proof.Gen.Kernel.Points
import Idealize.ShloMosaic.Lib.Pipeline.Frame
import Idealize.ShloMosaic.Lib.Pipeline.FrameBody
import Idealize.ShloMosaic.Lib.Pipeline.RegionsLoop
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.Kernel Cert.Kernel.Gen

variable {F : FTy → Type} [FloatOps F]

local notation "𝕄" => MT nD τ sig Unit (Elt F) ℕ (Pipeline.UD sig nD τ) ℕ

/-- The eight semaphores the body's row transfers signal. -/
abbrev osem21 : Fin 8 → SemLoc sig := fun j =>
  (![SemLoc.dma 203, SemLoc.dma 204, SemLoc.dma 205, SemLoc.dma 206, SemLoc.dma 207, SemLoc.dma 208, SemLoc.dma 209, SemLoc.dma 210] : Fin 8 → SemLoc sig) j
theorem ownSemFacts21 : Pipeline.OwnSemFacts spec21 osem21 := by decide

/-- The array the rows are read from: left in HBM, no window's array and no table. -/
def H21 : Finset (Ref sig .tc) := {main_v61}
theorem H21_sub : H21 ⊆ Pipeline.restRefsP sig pre21 spec21 := by decide

variable (V : (c : Dev nD) → (b : Ref sig .tc) → Buf (Elt F) ((c : Thread nD τ).loc b))
variable (a21 : (pcfg21 (F := F)).Adm)
variable (gblk : (c : Dev nD) → Fin (cfg21 a21).N → S8x128.Idx → Elt F .f32)

/-- The region's proof data on core c: the output array as the region finds it; after point t the output block holds
    the eight gathered rows; the invariant above; full shares; nothing owed. -/
def datG21 (c : Dev nD) : Dat τ (Elt F) Unit ℕ (Pipeline.UD sig nD τ) ℕ (cfg21 a21) c where
  A w := V c (Pipeline.arrRef spec21 w)
  after w t := match w with
    | ⟨0, _⟩ => gblk c t
  Φ _ := iprop(Pipeline.ΦD osem21 spec21 H21 V c ∗ Pipeline.prefHeld pre21 c (fun _ => fullShare) a21.1)
  q _ := fullShare
  owed _ := 0

theorem A_eqG21 (c : Dev nD) (w : Fin (cfg21 a21).W) : (datG21 V a21 gblk c).A w = V c (Pipeline.arrRef spec21 w) := by
  dsimp only [datG21]
theorem afterG21_0 (c : Dev nD) (t : Fin (cfg21 a21).N) : (datG21 V a21 gblk c).after 0 t = gblk c t := rfl

/-! ## The region's protocol around the thread states

  Between two items of the program core c holds every unscoped buffer whole, beside its generator register and a record
  that it owes nothing. Entering the region, the output array goes to the pipeline, the table is handed over at its
  contents, the array A and the eight semaphores join the register in what the invariant takes (X), and the other
  buffers wait outside (Z). Leaving it, everything comes back: A and the table as they were. -/

/-- What the invariant takes at the first point beside the table and the scoped buffers. -/
def XG21 (c : Dev nD) : sProp 𝕄 :=
  iprop((∃ r, prngReg c r)
    ∗ Pipeline.ownSems0 (Ix := Unit) (Name := ℕ) (U := Pipeline.UD sig nD τ) (Lvl := ℕ) (Val := Elt F) (τ := τ) osem21 c
    ∗ bigSep H21 fun b => ((c.tc : Thread nD τ).loc b) ↦{fullShare} V c b)
/-- What it gives back at the last point beside the semaphores and the scoped buffers. -/
def YG21 (c : Dev nD) : sProp 𝕄 :=
  iprop((∃ r, prngReg c r) ∗ (bigSep H21 fun b => ((c.tc : Thread nD τ).loc b) ↦{fullShare} V c b)
    ∗ Pipeline.prefHeld pre21 c (fun _ => fullShare) a21.1)
/-- The unscoped buffers the region does not touch. -/
def ZG21 (c : Dev nD) : sProp 𝕄 :=
  bigSep (Pipeline.restRefsP sig pre21 spec21 \ H21) fun b => ((c.tc : Thread nD τ).loc b) ↦{fullShare} V c b

theorem hinG21 (c : Dev nD) :
    iprop(XG21 V c ∗ Pipeline.prefHeld pre21 c (fun _ => fullShare) a21.1
        ∗ Pipeline.scopedRest (Ix := Unit) (Name := ℕ) (U := Pipeline.UD sig nD τ) (Lvl := ℕ) (Val := Elt F) spec21 c)
      ⊢ (datG21 V a21 gblk c).Φ 0 := by
  rw [show (datG21 V a21 gblk c).Φ 0 = iprop(Pipeline.ΦD osem21 spec21 H21 V c ∗ Pipeline.prefHeld pre21 c (fun _ => fullShare) a21.1) from rfl,
    Pipeline.ΦD_eq]
  unfold XG21
  iintro ⟨⟨Hp, Hs, Hh⟩, Ht, Hr⟩
  isplitl [Hr Hp Hs Hh]
  · isplitl [Hr]; · iexact Hr
    isplitl [Hp]; · iexact Hp
    isplitl [Hs]; · iexact Hs
    iexact Hh
  iexact Ht

theorem houtG21 (c : Dev nD) :
    (datG21 V a21 gblk c).Φ (Fin.last (cfg21 a21).N)
      ⊢ iprop(YG21 V a21 c
          ∗ Pipeline.ownSems0 (Ix := Unit) (Name := ℕ) (U := Pipeline.UD sig nD τ) (Lvl := ℕ) (Val := Elt F) (τ := τ) osem21 c
          ∗ Pipeline.scopedRest (Ix := Unit) (Name := ℕ) (U := Pipeline.UD sig nD τ) (Lvl := ℕ) (Val := Elt F) spec21 c) := by
  rw [show (datG21 V a21 gblk c).Φ (Fin.last (cfg21 a21).N) = iprop(Pipeline.ΦD osem21 spec21 H21 V c ∗ Pipeline.prefHeld pre21 c (fun _ => fullShare) a21.1) from rfl,
    Pipeline.ΦD_eq]
  unfold YG21
  iintro ⟨⟨Hr, Hp, Hs, Hh⟩, Ht⟩
  isplitl [Hp Hh Ht]
  · isplitl [Hp]; · iexact Hp
    isplitl [Hh]; · iexact Hh
    iexact Ht
  isplitl [Hs]; · iexact Hs
  iexact Hr

/-- ENTRY. `hsplit` is the library's split of the held buffers into the pipeline's array and the rest, at this data. -/
theorem hentryG21 (c : Dev nD) (hpf : (fun k => V c (pre21.ref k)) = a21.1)
    (hsplit : (unscopedBufs c (V c) : sProp 𝕄)
      ⊢ iprop((datG21 V a21 gblk c).arrays ((datG21 V a21 gblk c).arrAt · 0) ∗ Pipeline.unscopedRest spec21 c (V c))) :
    iprop((unscopedBufs c (V c) ∗ (∃ r, prngReg c r) ∗ ∃ W, owes (c : Thread nD τ) (0 : CellTallies nD τ sig Unit) W)
        ∗ Pipeline.ownSems0 (Ix := Unit) (Name := ℕ) (U := Pipeline.UD sig nD τ) (Lvl := ℕ) (Val := Elt F) (τ := τ) osem21 c
        ∗ levAts (fun _ : GSem nD τ sig => (∅ : Finset Unit)) (fun _ _ => (0 : ℕ)))
      ⊢ (|={Set.univ}=> iprop((datG21 V a21 gblk c).arrays ((datG21 V a21 gblk c).arrAt · 0)
          ∗ Pipeline.prefHeld pre21 c (fun _ => fullShare) a21.1
          ∗ (datG21 V a21 gblk c).owesAt () 0 ∗ XG21 V c ∗ ZG21 V c) : sProp 𝕄) := by
  have hrest := Pipeline.unscopedRest_split (Ix := Unit) (Name := ℕ) (U := Pipeline.UD sig nD τ) (Lvl := ℕ) preFacts21 c (V c)
  rw [hpf, Pipeline.unscopedRestP_sdiff pre21 spec21 H21 H21_sub c (V c)] at hrest
  rw [hrest] at hsplit
  iintro ⟨⟨Hub, Hp, HO⟩, Hs, -⟩
  ihave H := hsplit $$ Hub
  icases H with ⟨Ha, Ht, Hh, Hz⟩
  imodintro
  isplitl [Ha]; · iexact Ha
  isplitl [Ht]; · iexact Ht
  isplitl [HO]
  · unfold Pipeline.Dat.owesAt Pipeline.owesWithin
    icases HO with ⟨%W, HO⟩; iexists W; isplitr; · ipureintro; exact fun _ _ => Or.inl trivial
    iexact HO
  unfold XG21 ZG21
  isplitl [Hp Hs Hh]
  · isplitl [Hp]; · iexact Hp
    isplitl [Hs]; · iexact Hs
    iexact Hh
  iexact Hz

variable (Vn : (c : Dev nD) → (b : Ref sig .tc) → Buf (Elt F) ((c : Thread nD τ).loc b))

/-- EXIT. `hjoin` is the library's rejoining of the pipeline's array at its final contents with the rest, at this data. -/
theorem hexitG21 (c : Dev nD) (hpf : (fun k => V c (pre21.ref k)) = a21.1)
    (hjoin : iprop((datG21 V a21 gblk c).arrays ((datG21 V a21 gblk c).arrAt · (cfg21 a21).N) ∗ Pipeline.unscopedRest spec21 c (V c))
      ⊢ (unscopedBufs c (Vn c) : sProp 𝕄)) :
    iprop((datG21 V a21 gblk c).arrays ((datG21 V a21 gblk c).arrAt · (cfg21 a21).N)
        ∗ (datG21 V a21 gblk c).owesAt () (Fin.last (cfg21 a21).N) ∗ YG21 V a21 c ∗ ZG21 V c)
      ⊢ (|={Set.univ}=> iprop(unscopedBufs c (Vn c) ∗ (∃ r, prngReg c r) ∗ ∃ W, owes (c : Thread nD τ) (0 : CellTallies nD τ sig Unit) W) : sProp 𝕄) := by
  have hrest := Pipeline.unscopedRest_split (Ix := Unit) (Name := ℕ) (U := Pipeline.UD sig nD τ) (Lvl := ℕ) preFacts21 c (V c)
  rw [hpf, Pipeline.unscopedRestP_sdiff pre21 spec21 H21 H21_sub c (V c)] at hrest
  rw [hrest] at hjoin
  unfold YG21 ZG21
  iintro ⟨Ha, HO, ⟨Hp, Hh, Ht⟩, Hz⟩
  imodintro
  isplitl [Ha Hh Ht Hz]
  · iapply hjoin
    isplitl [Ha]; · iexact Ha
    isplitl [Ht]; · iexact Ht
    isplitl [Hh]; · iexact Hh
    iexact Hz
  isplitl [Hp]; · iexact Hp
  unfold Pipeline.Dat.owesAt Pipeline.owesWithin
  icases HO with ⟨%W, -, HO⟩; iexists W; iexact HO

end Cert.Kernel.Hand

end
-- ==== Proof.K.Gather23.lean ====
/-
  The row-gather region 23 of the kernel's program: its proof data and the facts the launch takes.

  Region 23 copies, at grid point t, the eight rows  A[tbl (8 t + j)]  (j < 8) of the 50000 x 128 array A it finds in
  HBM into the eight rows of its 8 x 128 output block; tbl is the region's index table of 100000 words, held in SMEM, and
  A is read only. So after the region the output array's row r is A's row tbl r. The body moves the rows by transfers
  of its own on eight semaphores of its own, all waited for before the point ends: between two points nothing is in
  flight, the table and A are as the region found them, and the semaphores are at zero. That is the region's invariant.
-/
import proofs.«402049_j87351044866139_2_alg».proof.Proof.Gen.Kernel.Launch
import proofs.«402049_j87351044866139_2_alg».proof.Proof.Gen.Kernel.Skeleton
import proofs.«402049_j87351044866139_2_alg».proof.Proof.Gen.Kernel.Points
import Idealize.ShloMosaic.Lib.Pipeline.Frame
import Idealize.ShloMosaic.Lib.Pipeline.FrameBody
import Idealize.ShloMosaic.Lib.Pipeline.RegionsLoop
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.Kernel Cert.Kernel.Gen

variable {F : FTy → Type} [FloatOps F]

local notation "𝕄" => MT nD τ sig Unit (Elt F) ℕ (Pipeline.UD sig nD τ) ℕ

/-- The eight semaphores the body's row transfers signal. -/
abbrev osem23 : Fin 8 → SemLoc sig := fun j =>
  (![SemLoc.dma 218, SemLoc.dma 219, SemLoc.dma 220, SemLoc.dma 221, SemLoc.dma 222, SemLoc.dma 223, SemLoc.dma 224, SemLoc.dma 225] : Fin 8 → SemLoc sig) j
theorem ownSemFacts23 : Pipeline.OwnSemFacts spec23 osem23 := by decide

/-- The array the rows are read from: left in HBM, no window's array and no table. -/
def H23 : Finset (Ref sig .tc) := {main_v89}
theorem H23_sub : H23 ⊆ Pipeline.restRefsP sig pre23 spec23 := by decide

variable (V : (c : Dev nD) → (b : Ref sig .tc) → Buf (Elt F) ((c : Thread nD τ).loc b))
variable (a23 : (pcfg23 (F := F)).Adm)
variable (gblk : (c : Dev nD) → Fin (cfg23 a23).N → S8x128.Idx → Elt F .f32)

/-- The region's proof data on core c: the output array as the region finds it; after point t the output block holds
    the eight gathered rows; the invariant above; full shares; nothing owed. -/
def datG23 (c : Dev nD) : Dat τ (Elt F) Unit ℕ (Pipeline.UD sig nD τ) ℕ (cfg23 a23) c where
  A w := V c (Pipeline.arrRef spec23 w)
  after w t := match w with
    | ⟨0, _⟩ => gblk c t
  Φ _ := iprop(Pipeline.ΦD osem23 spec23 H23 V c ∗ Pipeline.prefHeld pre23 c (fun _ => fullShare) a23.1)
  q _ := fullShare
  owed _ := 0

theorem A_eqG23 (c : Dev nD) (w : Fin (cfg23 a23).W) : (datG23 V a23 gblk c).A w = V c (Pipeline.arrRef spec23 w) := by
  dsimp only [datG23]
theorem afterG23_0 (c : Dev nD) (t : Fin (cfg23 a23).N) : (datG23 V a23 gblk c).after 0 t = gblk c t := rfl

/-! ## The region's protocol around the thread states

  Between two items of the program core c holds every unscoped buffer whole, beside its generator register and a record
  that it owes nothing. Entering the region, the output array goes to the pipeline, the table is handed over at its
  contents, the array A and the eight semaphores join the register in what the invariant takes (X), and the other
  buffers wait outside (Z). Leaving it, everything comes back: A and the table as they were. -/

/-- What the invariant takes at the first point beside the table and the scoped buffers. -/
def XG23 (c : Dev nD) : sProp 𝕄 :=
  iprop((∃ r, prngReg c r)
    ∗ Pipeline.ownSems0 (Ix := Unit) (Name := ℕ) (U := Pipeline.UD sig nD τ) (Lvl := ℕ) (Val := Elt F) (τ := τ) osem23 c
    ∗ bigSep H23 fun b => ((c.tc : Thread nD τ).loc b) ↦{fullShare} V c b)
/-- What it gives back at the last point beside the semaphores and the scoped buffers. -/
def YG23 (c : Dev nD) : sProp 𝕄 :=
  iprop((∃ r, prngReg c r) ∗ (bigSep H23 fun b => ((c.tc : Thread nD τ).loc b) ↦{fullShare} V c b)
    ∗ Pipeline.prefHeld pre23 c (fun _ => fullShare) a23.1)
/-- The unscoped buffers the region does not touch. -/
def ZG23 (c : Dev nD) : sProp 𝕄 :=
  bigSep (Pipeline.restRefsP sig pre23 spec23 \ H23) fun b => ((c.tc : Thread nD τ).loc b) ↦{fullShare} V c b

theorem hinG23 (c : Dev nD) :
    iprop(XG23 V c ∗ Pipeline.prefHeld pre23 c (fun _ => fullShare) a23.1
        ∗ Pipeline.scopedRest (Ix := Unit) (Name := ℕ) (U := Pipeline.UD sig nD τ) (Lvl := ℕ) (Val := Elt F) spec23 c)
      ⊢ (datG23 V a23 gblk c).Φ 0 := by
  rw [show (datG23 V a23 gblk c).Φ 0 = iprop(Pipeline.ΦD osem23 spec23 H23 V c ∗ Pipeline.prefHeld pre23 c (fun _ => fullShare) a23.1) from rfl,
    Pipeline.ΦD_eq]
  unfold XG23
  iintro ⟨⟨Hp, Hs, Hh⟩, Ht, Hr⟩
  isplitl [Hr Hp Hs Hh]
  · isplitl [Hr]; · iexact Hr
    isplitl [Hp]; · iexact Hp
    isplitl [Hs]; · iexact Hs
    iexact Hh
  iexact Ht

theorem houtG23 (c : Dev nD) :
    (datG23 V a23 gblk c).Φ (Fin.last (cfg23 a23).N)
      ⊢ iprop(YG23 V a23 c
          ∗ Pipeline.ownSems0 (Ix := Unit) (Name := ℕ) (U := Pipeline.UD sig nD τ) (Lvl := ℕ) (Val := Elt F) (τ := τ) osem23 c
          ∗ Pipeline.scopedRest (Ix := Unit) (Name := ℕ) (U := Pipeline.UD sig nD τ) (Lvl := ℕ) (Val := Elt F) spec23 c) := by
  rw [show (datG23 V a23 gblk c).Φ (Fin.last (cfg23 a23).N) = iprop(Pipeline.ΦD osem23 spec23 H23 V c ∗ Pipeline.prefHeld pre23 c (fun _ => fullShare) a23.1) from rfl,
    Pipeline.ΦD_eq]
  unfold YG23
  iintro ⟨⟨Hr, Hp, Hs, Hh⟩, Ht⟩
  isplitl [Hp Hh Ht]
  · isplitl [Hp]; · iexact Hp
    isplitl [Hh]; · iexact Hh
    iexact Ht
  isplitl [Hs]; · iexact Hs
  iexact Hr

/-- ENTRY. `hsplit` is the library's split of the held buffers into the pipeline's array and the rest, at this data. -/
theorem hentryG23 (c : Dev nD) (hpf : (fun k => V c (pre23.ref k)) = a23.1)
    (hsplit : (unscopedBufs c (V c) : sProp 𝕄)
      ⊢ iprop((datG23 V a23 gblk c).arrays ((datG23 V a23 gblk c).arrAt · 0) ∗ Pipeline.unscopedRest spec23 c (V c))) :
    iprop((unscopedBufs c (V c) ∗ (∃ r, prngReg c r) ∗ ∃ W, owes (c : Thread nD τ) (0 : CellTallies nD τ sig Unit) W)
        ∗ Pipeline.ownSems0 (Ix := Unit) (Name := ℕ) (U := Pipeline.UD sig nD τ) (Lvl := ℕ) (Val := Elt F) (τ := τ) osem23 c
        ∗ levAts (fun _ : GSem nD τ sig => (∅ : Finset Unit)) (fun _ _ => (0 : ℕ)))
      ⊢ (|={Set.univ}=> iprop((datG23 V a23 gblk c).arrays ((datG23 V a23 gblk c).arrAt · 0)
          ∗ Pipeline.prefHeld pre23 c (fun _ => fullShare) a23.1
          ∗ (datG23 V a23 gblk c).owesAt () 0 ∗ XG23 V c ∗ ZG23 V c) : sProp 𝕄) := by
  have hrest := Pipeline.unscopedRest_split (Ix := Unit) (Name := ℕ) (U := Pipeline.UD sig nD τ) (Lvl := ℕ) preFacts23 c (V c)
  rw [hpf, Pipeline.unscopedRestP_sdiff pre23 spec23 H23 H23_sub c (V c)] at hrest
  rw [hrest] at hsplit
  iintro ⟨⟨Hub, Hp, HO⟩, Hs, -⟩
  ihave H := hsplit $$ Hub
  icases H with ⟨Ha, Ht, Hh, Hz⟩
  imodintro
  isplitl [Ha]; · iexact Ha
  isplitl [Ht]; · iexact Ht
  isplitl [HO]
  · unfold Pipeline.Dat.owesAt Pipeline.owesWithin
    icases HO with ⟨%W, HO⟩; iexists W; isplitr; · ipureintro; exact fun _ _ => Or.inl trivial
    iexact HO
  unfold XG23 ZG23
  isplitl [Hp Hs Hh]
  · isplitl [Hp]; · iexact Hp
    isplitl [Hs]; · iexact Hs
    iexact Hh
  iexact Hz

variable (Vn : (c : Dev nD) → (b : Ref sig .tc) → Buf (Elt F) ((c : Thread nD τ).loc b))

/-- EXIT. `hjoin` is the library's rejoining of the pipeline's array at its final contents with the rest, at this data. -/
theorem hexitG23 (c : Dev nD) (hpf : (fun k => V c (pre23.ref k)) = a23.1)
    (hjoin : iprop((datG23 V a23 gblk c).arrays ((datG23 V a23 gblk c).arrAt · (cfg23 a23).N) ∗ Pipeline.unscopedRest spec23 c (V c))
      ⊢ (unscopedBufs c (Vn c) : sProp 𝕄)) :
    iprop((datG23 V a23 gblk c).arrays ((datG23 V a23 gblk c).arrAt · (cfg23 a23).N)
        ∗ (datG23 V a23 gblk c).owesAt () (Fin.last (cfg23 a23).N) ∗ YG23 V a23 c ∗ ZG23 V c)
      ⊢ (|={Set.univ}=> iprop(unscopedBufs c (Vn c) ∗ (∃ r, prngReg c r) ∗ ∃ W, owes (c : Thread nD τ) (0 : CellTallies nD τ sig Unit) W) : sProp 𝕄) := by
  have hrest := Pipeline.unscopedRest_split (Ix := Unit) (Name := ℕ) (U := Pipeline.UD sig nD τ) (Lvl := ℕ) preFacts23 c (V c)
  rw [hpf, Pipeline.unscopedRestP_sdiff pre23 spec23 H23 H23_sub c (V c)] at hrest
  rw [hrest] at hjoin
  unfold YG23 ZG23
  iintro ⟨Ha, HO, ⟨Hp, Hh, Ht⟩, Hz⟩
  imodintro
  isplitl [Ha Hh Ht Hz]
  · iapply hjoin
    isplitl [Ha]; · iexact Ha
    isplitl [Ht]; · iexact Ht
    isplitl [Hh]; · iexact Hh
    iexact Hz
  isplitl [Hp]; · iexact Hp
  unfold Pipeline.Dat.owesAt Pipeline.owesWithin
  icases HO with ⟨%W, -, HO⟩; iexists W; iexact HO

end Cert.Kernel.Hand

end
-- ==== Proof.K.Gather24.lean ====
/-
  The row-gather region 24 of the kernel's program: its proof data and the facts the launch takes.

  Region 24 copies, at grid point t, the eight rows  A[tbl (8 t + j)]  (j < 8) of the 50000 x 128 array A it finds in
  HBM into the eight rows of its 8 x 128 output block; tbl is the region's index table of 100000 words, held in SMEM, and
  A is read only. So after the region the output array's row r is A's row tbl r. The body moves the rows by transfers
  of its own on eight semaphores of its own, all waited for before the point ends: between two points nothing is in
  flight, the table and A are as the region found them, and the semaphores are at zero. That is the region's invariant.
-/
import proofs.«402049_j87351044866139_2_alg».proof.Proof.Gen.Kernel.Launch
import proofs.«402049_j87351044866139_2_alg».proof.Proof.Gen.Kernel.Skeleton
import proofs.«402049_j87351044866139_2_alg».proof.Proof.Gen.Kernel.Points
import Idealize.ShloMosaic.Lib.Pipeline.Frame
import Idealize.ShloMosaic.Lib.Pipeline.FrameBody
import Idealize.ShloMosaic.Lib.Pipeline.RegionsLoop
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.Kernel Cert.Kernel.Gen

variable {F : FTy → Type} [FloatOps F]

local notation "𝕄" => MT nD τ sig Unit (Elt F) ℕ (Pipeline.UD sig nD τ) ℕ

/-- The eight semaphores the body's row transfers signal. -/
abbrev osem24 : Fin 8 → SemLoc sig := fun j =>
  (![SemLoc.dma 228, SemLoc.dma 229, SemLoc.dma 230, SemLoc.dma 231, SemLoc.dma 232, SemLoc.dma 233, SemLoc.dma 234, SemLoc.dma 235] : Fin 8 → SemLoc sig) j
theorem ownSemFacts24 : Pipeline.OwnSemFacts spec24 osem24 := by decide

/-- The array the rows are read from: left in HBM, no window's array and no table. -/
def H24 : Finset (Ref sig .tc) := {main_v89}
theorem H24_sub : H24 ⊆ Pipeline.restRefsP sig pre24 spec24 := by decide

variable (V : (c : Dev nD) → (b : Ref sig .tc) → Buf (Elt F) ((c : Thread nD τ).loc b))
variable (a24 : (pcfg24 (F := F)).Adm)
variable (gblk : (c : Dev nD) → Fin (cfg24 a24).N → S8x128.Idx → Elt F .f32)

/-- The region's proof data on core c: the output array as the region finds it; after point t the output block holds
    the eight gathered rows; the invariant above; full shares; nothing owed. -/
def datG24 (c : Dev nD) : Dat τ (Elt F) Unit ℕ (Pipeline.UD sig nD τ) ℕ (cfg24 a24) c where
  A w := V c (Pipeline.arrRef spec24 w)
  after w t := match w with
    | ⟨0, _⟩ => gblk c t
  Φ _ := iprop(Pipeline.ΦD osem24 spec24 H24 V c ∗ Pipeline.prefHeld pre24 c (fun _ => fullShare) a24.1)
  q _ := fullShare
  owed _ := 0

theorem A_eqG24 (c : Dev nD) (w : Fin (cfg24 a24).W) : (datG24 V a24 gblk c).A w = V c (Pipeline.arrRef spec24 w) := by
  dsimp only [datG24]
theorem afterG24_0 (c : Dev nD) (t : Fin (cfg24 a24).N) : (datG24 V a24 gblk c).after 0 t = gblk c t := rfl

/-! ## The region's protocol around the thread states

  Between two items of the program core c holds every unscoped buffer whole, beside its generator register and a record
  that it owes nothing. Entering the region, the output array goes to the pipeline, the table is handed over at its
  contents, the array A and the eight semaphores join the register in what the invariant takes (X), and the other
  buffers wait outside (Z). Leaving it, everything comes back: A and the table as they were. -/

/-- What the invariant takes at the first point beside the table and the scoped buffers. -/
def XG24 (c : Dev nD) : sProp 𝕄 :=
  iprop((∃ r, prngReg c r)
    ∗ Pipeline.ownSems0 (Ix := Unit) (Name := ℕ) (U := Pipeline.UD sig nD τ) (Lvl := ℕ) (Val := Elt F) (τ := τ) osem24 c
    ∗ bigSep H24 fun b => ((c.tc : Thread nD τ).loc b) ↦{fullShare} V c b)
/-- What it gives back at the last point beside the semaphores and the scoped buffers. -/
def YG24 (c : Dev nD) : sProp 𝕄 :=
  iprop((∃ r, prngReg c r) ∗ (bigSep H24 fun b => ((c.tc : Thread nD τ).loc b) ↦{fullShare} V c b)
    ∗ Pipeline.prefHeld pre24 c (fun _ => fullShare) a24.1)
/-- The unscoped buffers the region does not touch. -/
def ZG24 (c : Dev nD) : sProp 𝕄 :=
  bigSep (Pipeline.restRefsP sig pre24 spec24 \ H24) fun b => ((c.tc : Thread nD τ).loc b) ↦{fullShare} V c b

theorem hinG24 (c : Dev nD) :
    iprop(XG24 V c ∗ Pipeline.prefHeld pre24 c (fun _ => fullShare) a24.1
        ∗ Pipeline.scopedRest (Ix := Unit) (Name := ℕ) (U := Pipeline.UD sig nD τ) (Lvl := ℕ) (Val := Elt F) spec24 c)
      ⊢ (datG24 V a24 gblk c).Φ 0 := by
  rw [show (datG24 V a24 gblk c).Φ 0 = iprop(Pipeline.ΦD osem24 spec24 H24 V c ∗ Pipeline.prefHeld pre24 c (fun _ => fullShare) a24.1) from rfl,
    Pipeline.ΦD_eq]
  unfold XG24
  iintro ⟨⟨Hp, Hs, Hh⟩, Ht, Hr⟩
  isplitl [Hr Hp Hs Hh]
  · isplitl [Hr]; · iexact Hr
    isplitl [Hp]; · iexact Hp
    isplitl [Hs]; · iexact Hs
    iexact Hh
  iexact Ht

theorem houtG24 (c : Dev nD) :
    (datG24 V a24 gblk c).Φ (Fin.last (cfg24 a24).N)
      ⊢ iprop(YG24 V a24 c
          ∗ Pipeline.ownSems0 (Ix := Unit) (Name := ℕ) (U := Pipeline.UD sig nD τ) (Lvl := ℕ) (Val := Elt F) (τ := τ) osem24 c
          ∗ Pipeline.scopedRest (Ix := Unit) (Name := ℕ) (U := Pipeline.UD sig nD τ) (Lvl := ℕ) (Val := Elt F) spec24 c) := by
  rw [show (datG24 V a24 gblk c).Φ (Fin.last (cfg24 a24).N) = iprop(Pipeline.ΦD osem24 spec24 H24 V c ∗ Pipeline.prefHeld pre24 c (fun _ => fullShare) a24.1) from rfl,
    Pipeline.ΦD_eq]
  unfold YG24
  iintro ⟨⟨Hr, Hp, Hs, Hh⟩, Ht⟩
  isplitl [Hp Hh Ht]
  · isplitl [Hp]; · iexact Hp
    isplitl [Hh]; · iexact Hh
    iexact Ht
  isplitl [Hs]; · iexact Hs
  iexact Hr

/-- ENTRY. `hsplit` is the library's split of the held buffers into the pipeline's array and the rest, at this data. -/
theorem hentryG24 (c : Dev nD) (hpf : (fun k => V c (pre24.ref k)) = a24.1)
    (hsplit : (unscopedBufs c (V c) : sProp 𝕄)
      ⊢ iprop((datG24 V a24 gblk c).arrays ((datG24 V a24 gblk c).arrAt · 0) ∗ Pipeline.unscopedRest spec24 c (V c))) :
    iprop((unscopedBufs c (V c) ∗ (∃ r, prngReg c r) ∗ ∃ W, owes (c : Thread nD τ) (0 : CellTallies nD τ sig Unit) W)
        ∗ Pipeline.ownSems0 (Ix := Unit) (Name := ℕ) (U := Pipeline.UD sig nD τ) (Lvl := ℕ) (Val := Elt F) (τ := τ) osem24 c
        ∗ levAts (fun _ : GSem nD τ sig => (∅ : Finset Unit)) (fun _ _ => (0 : ℕ)))
      ⊢ (|={Set.univ}=> iprop((datG24 V a24 gblk c).arrays ((datG24 V a24 gblk c).arrAt · 0)
          ∗ Pipeline.prefHeld pre24 c (fun _ => fullShare) a24.1
          ∗ (datG24 V a24 gblk c).owesAt () 0 ∗ XG24 V c ∗ ZG24 V c) : sProp 𝕄) := by
  have hrest := Pipeline.unscopedRest_split (Ix := Unit) (Name := ℕ) (U := Pipeline.UD sig nD τ) (Lvl := ℕ) preFacts24 c (V c)
  rw [hpf, Pipeline.unscopedRestP_sdiff pre24 spec24 H24 H24_sub c (V c)] at hrest
  rw [hrest] at hsplit
  iintro ⟨⟨Hub, Hp, HO⟩, Hs, -⟩
  ihave H := hsplit $$ Hub
  icases H with ⟨Ha, Ht, Hh, Hz⟩
  imodintro
  isplitl [Ha]; · iexact Ha
  isplitl [Ht]; · iexact Ht
  isplitl [HO]
  · unfold Pipeline.Dat.owesAt Pipeline.owesWithin
    icases HO with ⟨%W, HO⟩; iexists W; isplitr; · ipureintro; exact fun _ _ => Or.inl trivial
    iexact HO
  unfold XG24 ZG24
  isplitl [Hp Hs Hh]
  · isplitl [Hp]; · iexact Hp
    isplitl [Hs]; · iexact Hs
    iexact Hh
  iexact Hz

variable (Vn : (c : Dev nD) → (b : Ref sig .tc) → Buf (Elt F) ((c : Thread nD τ).loc b))

/-- EXIT. `hjoin` is the library's rejoining of the pipeline's array at its final contents with the rest, at this data. -/
theorem hexitG24 (c : Dev nD) (hpf : (fun k => V c (pre24.ref k)) = a24.1)
    (hjoin : iprop((datG24 V a24 gblk c).arrays ((datG24 V a24 gblk c).arrAt · (cfg24 a24).N) ∗ Pipeline.unscopedRest spec24 c (V c))
      ⊢ (unscopedBufs c (Vn c) : sProp 𝕄)) :
    iprop((datG24 V a24 gblk c).arrays ((datG24 V a24 gblk c).arrAt · (cfg24 a24).N)
        ∗ (datG24 V a24 gblk c).owesAt () (Fin.last (cfg24 a24).N) ∗ YG24 V a24 c ∗ ZG24 V c)
      ⊢ (|={Set.univ}=> iprop(unscopedBufs c (Vn c) ∗ (∃ r, prngReg c r) ∗ ∃ W, owes (c : Thread nD τ) (0 : CellTallies nD τ sig Unit) W) : sProp 𝕄) := by
  have hrest := Pipeline.unscopedRest_split (Ix := Unit) (Name := ℕ) (U := Pipeline.UD sig nD τ) (Lvl := ℕ) preFacts24 c (V c)
  rw [hpf, Pipeline.unscopedRestP_sdiff pre24 spec24 H24 H24_sub c (V c)] at hrest
  rw [hrest] at hjoin
  unfold YG24 ZG24
  iintro ⟨Ha, HO, ⟨Hp, Hh, Ht⟩, Hz⟩
  imodintro
  isplitl [Ha Hh Ht Hz]
  · iapply hjoin
    isplitl [Ha]; · iexact Ha
    isplitl [Ht]; · iexact Ht
    isplitl [Hh]; · iexact Hh
    iexact Hz
  isplitl [Hp]; · iexact Hp
  unfold Pipeline.Dat.owesAt Pipeline.owesWithin
  icases HO with ⟨%W, -, HO⟩; iexists W; iexact HO

end Cert.Kernel.Hand

end
-- ==== Proof.K.Gather25.lean ====
/-
  The row-gather region 25 of the kernel's program: its proof data and the facts the launch takes.

  Region 25 copies, at grid point t, the eight rows  A[tbl (8 t + j)]  (j < 8) of the 50000 x 128 array A it finds in
  HBM into the eight rows of its 8 x 128 output block; tbl is the region's index table of 100000 words, held in SMEM, and
  A is read only. So after the region the output array's row r is A's row tbl r. The body moves the rows by transfers
  of its own on eight semaphores of its own, all waited for before the point ends: between two points nothing is in
  flight, the table and A are as the region found them, and the semaphores are at zero. That is the region's invariant.
-/
import proofs.«402049_j87351044866139_2_alg».proof.Proof.Gen.Kernel.Launch
import proofs.«402049_j87351044866139_2_alg».proof.Proof.Gen.Kernel.Skeleton
import proofs.«402049_j87351044866139_2_alg».proof.Proof.Gen.Kernel.Points
import Idealize.ShloMosaic.Lib.Pipeline.Frame
import Idealize.ShloMosaic.Lib.Pipeline.FrameBody
import Idealize.ShloMosaic.Lib.Pipeline.RegionsLoop
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.Kernel Cert.Kernel.Gen

variable {F : FTy → Type} [FloatOps F]

local notation "𝕄" => MT nD τ sig Unit (Elt F) ℕ (Pipeline.UD sig nD τ) ℕ

/-- The eight semaphores the body's row transfers signal. -/
abbrev osem25 : Fin 8 → SemLoc sig := fun j =>
  (![SemLoc.dma 238, SemLoc.dma 239, SemLoc.dma 240, SemLoc.dma 241, SemLoc.dma 242, SemLoc.dma 243, SemLoc.dma 244, SemLoc.dma 245] : Fin 8 → SemLoc sig) j
theorem ownSemFacts25 : Pipeline.OwnSemFacts spec25 osem25 := by decide

/-- The array the rows are read from: left in HBM, no window's array and no table. -/
def H25 : Finset (Ref sig .tc) := {main_v89}
theorem H25_sub : H25 ⊆ Pipeline.restRefsP sig pre25 spec25 := by decide

variable (V : (c : Dev nD) → (b : Ref sig .tc) → Buf (Elt F) ((c : Thread nD τ).loc b))
variable (a25 : (pcfg25 (F := F)).Adm)
variable (gblk : (c : Dev nD) → Fin (cfg25 a25).N → S8x128.Idx → Elt F .f32)

/-- The region's proof data on core c: the output array as the region finds it; after point t the output block holds
    the eight gathered rows; the invariant above; full shares; nothing owed. -/
def datG25 (c : Dev nD) : Dat τ (Elt F) Unit ℕ (Pipeline.UD sig nD τ) ℕ (cfg25 a25) c where
  A w := V c (Pipeline.arrRef spec25 w)
  after w t := match w with
    | ⟨0, _⟩ => gblk c t
  Φ _ := iprop(Pipeline.ΦD osem25 spec25 H25 V c ∗ Pipeline.prefHeld pre25 c (fun _ => fullShare) a25.1)
  q _ := fullShare
  owed _ := 0

theorem A_eqG25 (c : Dev nD) (w : Fin (cfg25 a25).W) : (datG25 V a25 gblk c).A w = V c (Pipeline.arrRef spec25 w) := by
  dsimp only [datG25]
theorem afterG25_0 (c : Dev nD) (t : Fin (cfg25 a25).N) : (datG25 V a25 gblk c).after 0 t = gblk c t := rfl

/-! ## The region's protocol around the thread states

  Between two items of the program core c holds every unscoped buffer whole, beside its generator register and a record
  that it owes nothing. Entering the region, the output array goes to the pipeline, the table is handed over at its
  contents, the array A and the eight semaphores join the register in what the invariant takes (X), and the other
  buffers wait outside (Z). Leaving it, everything comes back: A and the table as they were. -/

/-- What the invariant takes at the first point beside the table and the scoped buffers. -/
def XG25 (c : Dev nD) : sProp 𝕄 :=
  iprop((∃ r, prngReg c r)
    ∗ Pipeline.ownSems0 (Ix := Unit) (Name := ℕ) (U := Pipeline.UD sig nD τ) (Lvl := ℕ) (Val := Elt F) (τ := τ) osem25 c
    ∗ bigSep H25 fun b => ((c.tc : Thread nD τ).loc b) ↦{fullShare} V c b)
/-- What it gives back at the last point beside the semaphores and the scoped buffers. -/
def YG25 (c : Dev nD) : sProp 𝕄 :=
  iprop((∃ r, prngReg c r) ∗ (bigSep H25 fun b => ((c.tc : Thread nD τ).loc b) ↦{fullShare} V c b)
    ∗ Pipeline.prefHeld pre25 c (fun _ => fullShare) a25.1)
/-- The unscoped buffers the region does not touch. -/
def ZG25 (c : Dev nD) : sProp 𝕄 :=
  bigSep (Pipeline.restRefsP sig pre25 spec25 \ H25) fun b => ((c.tc : Thread nD τ).loc b) ↦{fullShare} V c b

theorem hinG25 (c : Dev nD) :
    iprop(XG25 V c ∗ Pipeline.prefHeld pre25 c (fun _ => fullShare) a25.1
        ∗ Pipeline.scopedRest (Ix := Unit) (Name := ℕ) (U := Pipeline.UD sig nD τ) (Lvl := ℕ) (Val := Elt F) spec25 c)
      ⊢ (datG25 V a25 gblk c).Φ 0 := by
  rw [show (datG25 V a25 gblk c).Φ 0 = iprop(Pipeline.ΦD osem25 spec25 H25 V c ∗ Pipeline.prefHeld pre25 c (fun _ => fullShare) a25.1) from rfl,
    Pipeline.ΦD_eq]
  unfold XG25
  iintro ⟨⟨Hp, Hs, Hh⟩, Ht, Hr⟩
  isplitl [Hr Hp Hs Hh]
  · isplitl [Hr]; · iexact Hr
    isplitl [Hp]; · iexact Hp
    isplitl [Hs]; · iexact Hs
    iexact Hh
  iexact Ht

theorem houtG25 (c : Dev nD) :
    (datG25 V a25 gblk c).Φ (Fin.last (cfg25 a25).N)
      ⊢ iprop(YG25 V a25 c
          ∗ Pipeline.ownSems0 (Ix := Unit) (Name := ℕ) (U := Pipeline.UD sig nD τ) (Lvl := ℕ) (Val := Elt F) (τ := τ) osem25 c
          ∗ Pipeline.scopedRest (Ix := Unit) (Name := ℕ) (U := Pipeline.UD sig nD τ) (Lvl := ℕ) (Val := Elt F) spec25 c) := by
  rw [show (datG25 V a25 gblk c).Φ (Fin.last (cfg25 a25).N) = iprop(Pipeline.ΦD osem25 spec25 H25 V c ∗ Pipeline.prefHeld pre25 c (fun _ => fullShare) a25.1) from rfl,
    Pipeline.ΦD_eq]
  unfold YG25
  iintro ⟨⟨Hr, Hp, Hs, Hh⟩, Ht⟩
  isplitl [Hp Hh Ht]
  · isplitl [Hp]; · iexact Hp
    isplitl [Hh]; · iexact Hh
    iexact Ht
  isplitl [Hs]; · iexact Hs
  iexact Hr

/-- ENTRY. `hsplit` is the library's split of the held buffers into the pipeline's array and the rest, at this data. -/
theorem hentryG25 (c : Dev nD) (hpf : (fun k => V c (pre25.ref k)) = a25.1)
    (hsplit : (unscopedBufs c (V c) : sProp 𝕄)
      ⊢ iprop((datG25 V a25 gblk c).arrays ((datG25 V a25 gblk c).arrAt · 0) ∗ Pipeline.unscopedRest spec25 c (V c))) :
    iprop((unscopedBufs c (V c) ∗ (∃ r, prngReg c r) ∗ ∃ W, owes (c : Thread nD τ) (0 : CellTallies nD τ sig Unit) W)
        ∗ Pipeline.ownSems0 (Ix := Unit) (Name := ℕ) (U := Pipeline.UD sig nD τ) (Lvl := ℕ) (Val := Elt F) (τ := τ) osem25 c
        ∗ levAts (fun _ : GSem nD τ sig => (∅ : Finset Unit)) (fun _ _ => (0 : ℕ)))
      ⊢ (|={Set.univ}=> iprop((datG25 V a25 gblk c).arrays ((datG25 V a25 gblk c).arrAt · 0)
          ∗ Pipeline.prefHeld pre25 c (fun _ => fullShare) a25.1
          ∗ (datG25 V a25 gblk c).owesAt () 0 ∗ XG25 V c ∗ ZG25 V c) : sProp 𝕄) := by
  have hrest := Pipeline.unscopedRest_split (Ix := Unit) (Name := ℕ) (U := Pipeline.UD sig nD τ) (Lvl := ℕ) preFacts25 c (V c)
  rw [hpf, Pipeline.unscopedRestP_sdiff pre25 spec25 H25 H25_sub c (V c)] at hrest
  rw [hrest] at hsplit
  iintro ⟨⟨Hub, Hp, HO⟩, Hs, -⟩
  ihave H := hsplit $$ Hub
  icases H with ⟨Ha, Ht, Hh, Hz⟩
  imodintro
  isplitl [Ha]; · iexact Ha
  isplitl [Ht]; · iexact Ht
  isplitl [HO]
  · unfold Pipeline.Dat.owesAt Pipeline.owesWithin
    icases HO with ⟨%W, HO⟩; iexists W; isplitr; · ipureintro; exact fun _ _ => Or.inl trivial
    iexact HO
  unfold XG25 ZG25
  isplitl [Hp Hs Hh]
  · isplitl [Hp]; · iexact Hp
    isplitl [Hs]; · iexact Hs
    iexact Hh
  iexact Hz

variable (Vn : (c : Dev nD) → (b : Ref sig .tc) → Buf (Elt F) ((c : Thread nD τ).loc b))

/-- EXIT. `hjoin` is the library's rejoining of the pipeline's array at its final contents with the rest, at this data. -/
theorem hexitG25 (c : Dev nD) (hpf : (fun k => V c (pre25.ref k)) = a25.1)
    (hjoin : iprop((datG25 V a25 gblk c).arrays ((datG25 V a25 gblk c).arrAt · (cfg25 a25).N) ∗ Pipeline.unscopedRest spec25 c (V c))
      ⊢ (unscopedBufs c (Vn c) : sProp 𝕄)) :
    iprop((datG25 V a25 gblk c).arrays ((datG25 V a25 gblk c).arrAt · (cfg25 a25).N)
        ∗ (datG25 V a25 gblk c).owesAt () (Fin.last (cfg25 a25).N) ∗ YG25 V a25 c ∗ ZG25 V c)
      ⊢ (|={Set.univ}=> iprop(unscopedBufs c (Vn c) ∗ (∃ r, prngReg c r) ∗ ∃ W, owes (c : Thread nD τ) (0 : CellTallies nD τ sig Unit) W) : sProp 𝕄) := by
  have hrest := Pipeline.unscopedRest_split (Ix := Unit) (Name := ℕ) (U := Pipeline.UD sig nD τ) (Lvl := ℕ) preFacts25 c (V c)
  rw [hpf, Pipeline.unscopedRestP_sdiff pre25 spec25 H25 H25_sub c (V c)] at hrest
  rw [hrest] at hjoin
  unfold YG25 ZG25
  iintro ⟨Ha, HO, ⟨Hp, Hh, Ht⟩, Hz⟩
  imodintro
  isplitl [Ha Hh Ht Hz]
  · iapply hjoin
    isplitl [Ha]; · iexact Ha
    isplitl [Ht]; · iexact Ht
    isplitl [Hh]; · iexact Hh
    iexact Hz
  isplitl [Hp]; · iexact Hp
  unfold Pipeline.Dat.owesAt Pipeline.owesWithin
  icases HO with ⟨%W, -, HO⟩; iexists W; iexact HO

end Cert.Kernel.Hand

end
-- ==== Proof.K.Gather26.lean ====
/-
  The row-gather region 26 of the kernel's program: its proof data and the facts the launch takes.

  Region 26 copies, at grid point t, the eight rows  A[tbl (8 t + j)]  (j < 8) of the 50000 x 128 array A it finds in
  HBM into the eight rows of its 8 x 128 output block; tbl is the region's index table of 100000 words, held in SMEM, and
  A is read only. So after the region the output array's row r is A's row tbl r. The body moves the rows by transfers
  of its own on eight semaphores of its own, all waited for before the point ends: between two points nothing is in
  flight, the table and A are as the region found them, and the semaphores are at zero. That is the region's invariant.
-/
import proofs.«402049_j87351044866139_2_alg».proof.Proof.Gen.Kernel.Launch
import proofs.«402049_j87351044866139_2_alg».proof.Proof.Gen.Kernel.Skeleton
import proofs.«402049_j87351044866139_2_alg».proof.Proof.Gen.Kernel.Points
import Idealize.ShloMosaic.Lib.Pipeline.Frame
import Idealize.ShloMosaic.Lib.Pipeline.FrameBody
import Idealize.ShloMosaic.Lib.Pipeline.RegionsLoop
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.Kernel Cert.Kernel.Gen

variable {F : FTy → Type} [FloatOps F]

local notation "𝕄" => MT nD τ sig Unit (Elt F) ℕ (Pipeline.UD sig nD τ) ℕ

/-- The eight semaphores the body's row transfers signal. -/
abbrev osem26 : Fin 8 → SemLoc sig := fun j =>
  (![SemLoc.dma 248, SemLoc.dma 249, SemLoc.dma 250, SemLoc.dma 251, SemLoc.dma 252, SemLoc.dma 253, SemLoc.dma 254, SemLoc.dma 255] : Fin 8 → SemLoc sig) j
theorem ownSemFacts26 : Pipeline.OwnSemFacts spec26 osem26 := by decide

/-- The array the rows are read from: left in HBM, no window's array and no table. -/
def H26 : Finset (Ref sig .tc) := {main_v89}
theorem H26_sub : H26 ⊆ Pipeline.restRefsP sig pre26 spec26 := by decide

variable (V : (c : Dev nD) → (b : Ref sig .tc) → Buf (Elt F) ((c : Thread nD τ).loc b))
variable (a26 : (pcfg26 (F := F)).Adm)
variable (gblk : (c : Dev nD) → Fin (cfg26 a26).N → S8x128.Idx → Elt F .f32)

/-- The region's proof data on core c: the output array as the region finds it; after point t the output block holds
    the eight gathered rows; the invariant above; full shares; nothing owed. -/
def datG26 (c : Dev nD) : Dat τ (Elt F) Unit ℕ (Pipeline.UD sig nD τ) ℕ (cfg26 a26) c where
  A w := V c (Pipeline.arrRef spec26 w)
  after w t := match w with
    | ⟨0, _⟩ => gblk c t
  Φ _ := iprop(Pipeline.ΦD osem26 spec26 H26 V c ∗ Pipeline.prefHeld pre26 c (fun _ => fullShare) a26.1)
  q _ := fullShare
  owed _ := 0

theorem A_eqG26 (c : Dev nD) (w : Fin (cfg26 a26).W) : (datG26 V a26 gblk c).A w = V c (Pipeline.arrRef spec26 w) := by
  dsimp only [datG26]
theorem afterG26_0 (c : Dev nD) (t : Fin (cfg26 a26).N) : (datG26 V a26 gblk c).after 0 t = gblk c t := rfl

/-! ## The region's protocol around the thread states

  Between two items of the program core c holds every unscoped buffer whole, beside its generator register and a record
  that it owes nothing. Entering the region, the output array goes to the pipeline, the table is handed over at its
  contents, the array A and the eight semaphores join the register in what the invariant takes (X), and the other
  buffers wait outside (Z). Leaving it, everything comes back: A and the table as they were. -/

/-- What the invariant takes at the first point beside the table and the scoped buffers. -/
def XG26 (c : Dev nD) : sProp 𝕄 :=
  iprop((∃ r, prngReg c r)
    ∗ Pipeline.ownSems0 (Ix := Unit) (Name := ℕ) (U := Pipeline.UD sig nD τ) (Lvl := ℕ) (Val := Elt F) (τ := τ) osem26 c
    ∗ bigSep H26 fun b => ((c.tc : Thread nD τ).loc b) ↦{fullShare} V c b)
/-- What it gives back at the last point beside the semaphores and the scoped buffers. -/
def YG26 (c : Dev nD) : sProp 𝕄 :=
  iprop((∃ r, prngReg c r) ∗ (bigSep H26 fun b => ((c.tc : Thread nD τ).loc b) ↦{fullShare} V c b)
    ∗ Pipeline.prefHeld pre26 c (fun _ => fullShare) a26.1)
/-- The unscoped buffers the region does not touch. -/
def ZG26 (c : Dev nD) : sProp 𝕄 :=
  bigSep (Pipeline.restRefsP sig pre26 spec26 \ H26) fun b => ((c.tc : Thread nD τ).loc b) ↦{fullShare} V c b

theorem hinG26 (c : Dev nD) :
    iprop(XG26 V c ∗ Pipeline.prefHeld pre26 c (fun _ => fullShare) a26.1
        ∗ Pipeline.scopedRest (Ix := Unit) (Name := ℕ) (U := Pipeline.UD sig nD τ) (Lvl := ℕ) (Val := Elt F) spec26 c)
      ⊢ (datG26 V a26 gblk c).Φ 0 := by
  rw [show (datG26 V a26 gblk c).Φ 0 = iprop(Pipeline.ΦD osem26 spec26 H26 V c ∗ Pipeline.prefHeld pre26 c (fun _ => fullShare) a26.1) from rfl,
    Pipeline.ΦD_eq]
  unfold XG26
  iintro ⟨⟨Hp, Hs, Hh⟩, Ht, Hr⟩
  isplitl [Hr Hp Hs Hh]
  · isplitl [Hr]; · iexact Hr
    isplitl [Hp]; · iexact Hp
    isplitl [Hs]; · iexact Hs
    iexact Hh
  iexact Ht

theorem houtG26 (c : Dev nD) :
    (datG26 V a26 gblk c).Φ (Fin.last (cfg26 a26).N)
      ⊢ iprop(YG26 V a26 c
          ∗ Pipeline.ownSems0 (Ix := Unit) (Name := ℕ) (U := Pipeline.UD sig nD τ) (Lvl := ℕ) (Val := Elt F) (τ := τ) osem26 c
          ∗ Pipeline.scopedRest (Ix := Unit) (Name := ℕ) (U := Pipeline.UD sig nD τ) (Lvl := ℕ) (Val := Elt F) spec26 c) := by
  rw [show (datG26 V a26 gblk c).Φ (Fin.last (cfg26 a26).N) = iprop(Pipeline.ΦD osem26 spec26 H26 V c ∗ Pipeline.prefHeld pre26 c (fun _ => fullShare) a26.1) from rfl,
    Pipeline.ΦD_eq]
  unfold YG26
  iintro ⟨⟨Hr, Hp, Hs, Hh⟩, Ht⟩
  isplitl [Hp Hh Ht]
  · isplitl [Hp]; · iexact Hp
    isplitl [Hh]; · iexact Hh
    iexact Ht
  isplitl [Hs]; · iexact Hs
  iexact Hr

/-- ENTRY. `hsplit` is the library's split of the held buffers into the pipeline's array and the rest, at this data. -/
theorem hentryG26 (c : Dev nD) (hpf : (fun k => V c (pre26.ref k)) = a26.1)
    (hsplit : (unscopedBufs c (V c) : sProp 𝕄)
      ⊢ iprop((datG26 V a26 gblk c).arrays ((datG26 V a26 gblk c).arrAt · 0) ∗ Pipeline.unscopedRest spec26 c (V c))) :
    iprop((unscopedBufs c (V c) ∗ (∃ r, prngReg c r) ∗ ∃ W, owes (c : Thread nD τ) (0 : CellTallies nD τ sig Unit) W)
        ∗ Pipeline.ownSems0 (Ix := Unit) (Name := ℕ) (U := Pipeline.UD sig nD τ) (Lvl := ℕ) (Val := Elt F) (τ := τ) osem26 c
        ∗ levAts (fun _ : GSem nD τ sig => (∅ : Finset Unit)) (fun _ _ => (0 : ℕ)))
      ⊢ (|={Set.univ}=> iprop((datG26 V a26 gblk c).arrays ((datG26 V a26 gblk c).arrAt · 0)
          ∗ Pipeline.prefHeld pre26 c (fun _ => fullShare) a26.1
          ∗ (datG26 V a26 gblk c).owesAt () 0 ∗ XG26 V c ∗ ZG26 V c) : sProp 𝕄) := by
  have hrest := Pipeline.unscopedRest_split (Ix := Unit) (Name := ℕ) (U := Pipeline.UD sig nD τ) (Lvl := ℕ) preFacts26 c (V c)
  rw [hpf, Pipeline.unscopedRestP_sdiff pre26 spec26 H26 H26_sub c (V c)] at hrest
  rw [hrest] at hsplit
  iintro ⟨⟨Hub, Hp, HO⟩, Hs, -⟩
  ihave H := hsplit $$ Hub
  icases H with ⟨Ha, Ht, Hh, Hz⟩
  imodintro
  isplitl [Ha]; · iexact Ha
  isplitl [Ht]; · iexact Ht
  isplitl [HO]
  · unfold Pipeline.Dat.owesAt Pipeline.owesWithin
    icases HO with ⟨%W, HO⟩; iexists W; isplitr; · ipureintro; exact fun _ _ => Or.inl trivial
    iexact HO
  unfold XG26 ZG26
  isplitl [Hp Hs Hh]
  · isplitl [Hp]; · iexact Hp
    isplitl [Hs]; · iexact Hs
    iexact Hh
  iexact Hz

variable (Vn : (c : Dev nD) → (b : Ref sig .tc) → Buf (Elt F) ((c : Thread nD τ).loc b))

/-- EXIT. `hjoin` is the library's rejoining of the pipeline's array at its final contents with the rest, at this data. -/
theorem hexitG26 (c : Dev nD) (hpf : (fun k => V c (pre26.ref k)) = a26.1)
    (hjoin : iprop((datG26 V a26 gblk c).arrays ((datG26 V a26 gblk c).arrAt · (cfg26 a26).N) ∗ Pipeline.unscopedRest spec26 c (V c))
      ⊢ (unscopedBufs c (Vn c) : sProp 𝕄)) :
    iprop((datG26 V a26 gblk c).arrays ((datG26 V a26 gblk c).arrAt · (cfg26 a26).N)
        ∗ (datG26 V a26 gblk c).owesAt () (Fin.last (cfg26 a26).N) ∗ YG26 V a26 c ∗ ZG26 V c)
      ⊢ (|={Set.univ}=> iprop(unscopedBufs c (Vn c) ∗ (∃ r, prngReg c r) ∗ ∃ W, owes (c : Thread nD τ) (0 : CellTallies nD τ sig Unit) W) : sProp 𝕄) := by
  have hrest := Pipeline.unscopedRest_split (Ix := Unit) (Name := ℕ) (U := Pipeline.UD sig nD τ) (Lvl := ℕ) preFacts26 c (V c)
  rw [hpf, Pipeline.unscopedRestP_sdiff pre26 spec26 H26 H26_sub c (V c)] at hrest
  rw [hrest] at hjoin
  unfold YG26 ZG26
  iintro ⟨Ha, HO, ⟨Hp, Hh, Ht⟩, Hz⟩
  imodintro
  isplitl [Ha Hh Ht Hz]
  · iapply hjoin
    isplitl [Ha]; · iexact Ha
    isplitl [Ht]; · iexact Ht
    isplitl [Hh]; · iexact Hh
    iexact Hz
  isplitl [Hp]; · iexact Hp
  unfold Pipeline.Dat.owesAt Pipeline.owesWithin
  icases HO with ⟨%W, -, HO⟩; iexists W; iexact HO

end Cert.Kernel.Hand

end
-- ==== Proof.K.Gather27.lean ====
/-
  The row-gather region 27 of the kernel's program: its proof data and the facts the launch takes.

  Region 27 copies, at grid point t, the eight rows  A[tbl (8 t + j)]  (j < 8) of the 50000 x 128 array A it finds in
  HBM into the eight rows of its 8 x 128 output block; tbl is the region's index table of 100000 words, held in SMEM, and
  A is read only. So after the region the output array's row r is A's row tbl r. The body moves the rows by transfers
  of its own on eight semaphores of its own, all waited for before the point ends: between two points nothing is in
  flight, the table and A are as the region found them, and the semaphores are at zero. That is the region's invariant.
-/
import proofs.«402049_j87351044866139_2_alg».proof.Proof.Gen.Kernel.Launch
import proofs.«402049_j87351044866139_2_alg».proof.Proof.Gen.Kernel.Skeleton
import proofs.«402049_j87351044866139_2_alg».proof.Proof.Gen.Kernel.Points
import Idealize.ShloMosaic.Lib.Pipeline.Frame
import Idealize.ShloMosaic.Lib.Pipeline.FrameBody
import Idealize.ShloMosaic.Lib.Pipeline.RegionsLoop
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.Kernel Cert.Kernel.Gen

variable {F : FTy → Type} [FloatOps F]

local notation "𝕄" => MT nD τ sig Unit (Elt F) ℕ (Pipeline.UD sig nD τ) ℕ

/-- The eight semaphores the body's row transfers signal. -/
abbrev osem27 : Fin 8 → SemLoc sig := fun j =>
  (![SemLoc.dma 258, SemLoc.dma 259, SemLoc.dma 260, SemLoc.dma 261, SemLoc.dma 262, SemLoc.dma 263, SemLoc.dma 264, SemLoc.dma 265] : Fin 8 → SemLoc sig) j
theorem ownSemFacts27 : Pipeline.OwnSemFacts spec27 osem27 := by decide

/-- The array the rows are read from: left in HBM, no window's array and no table. -/
def H27 : Finset (Ref sig .tc) := {main_v89}
theorem H27_sub : H27 ⊆ Pipeline.restRefsP sig pre27 spec27 := by decide

variable (V : (c : Dev nD) → (b : Ref sig .tc) → Buf (Elt F) ((c : Thread nD τ).loc b))
variable (a27 : (pcfg27 (F := F)).Adm)
variable (gblk : (c : Dev nD) → Fin (cfg27 a27).N → S8x128.Idx → Elt F .f32)

/-- The region's proof data on core c: the output array as the region finds it; after point t the output block holds
    the eight gathered rows; the invariant above; full shares; nothing owed. -/
def datG27 (c : Dev nD) : Dat τ (Elt F) Unit ℕ (Pipeline.UD sig nD τ) ℕ (cfg27 a27) c where
  A w := V c (Pipeline.arrRef spec27 w)
  after w t := match w with
    | ⟨0, _⟩ => gblk c t
  Φ _ := iprop(Pipeline.ΦD osem27 spec27 H27 V c ∗ Pipeline.prefHeld pre27 c (fun _ => fullShare) a27.1)
  q _ := fullShare
  owed _ := 0

theorem A_eqG27 (c : Dev nD) (w : Fin (cfg27 a27).W) : (datG27 V a27 gblk c).A w = V c (Pipeline.arrRef spec27 w) := by
  dsimp only [datG27]
theorem afterG27_0 (c : Dev nD) (t : Fin (cfg27 a27).N) : (datG27 V a27 gblk c).after 0 t = gblk c t := rfl

/-! ## The region's protocol around the thread states

  Between two items of the program core c holds every unscoped buffer whole, beside its generator register and a record
  that it owes nothing. Entering the region, the output array goes to the pipeline, the table is handed over at its
  contents, the array A and the eight semaphores join the register in what the invariant takes (X), and the other
  buffers wait outside (Z). Leaving it, everything comes back: A and the table as they were. -/

/-- What the invariant takes at the first point beside the table and the scoped buffers. -/
def XG27 (c : Dev nD) : sProp 𝕄 :=
  iprop((∃ r, prngReg c r)
    ∗ Pipeline.ownSems0 (Ix := Unit) (Name := ℕ) (U := Pipeline.UD sig nD τ) (Lvl := ℕ) (Val := Elt F) (τ := τ) osem27 c
    ∗ bigSep H27 fun b => ((c.tc : Thread nD τ).loc b) ↦{fullShare} V c b)
/-- What it gives back at the last point beside the semaphores and the scoped buffers. -/
def YG27 (c : Dev nD) : sProp 𝕄 :=
  iprop((∃ r, prngReg c r) ∗ (bigSep H27 fun b => ((c.tc : Thread nD τ).loc b) ↦{fullShare} V c b)
    ∗ Pipeline.prefHeld pre27 c (fun _ => fullShare) a27.1)
/-- The unscoped buffers the region does not touch. -/
def ZG27 (c : Dev nD) : sProp 𝕄 :=
  bigSep (Pipeline.restRefsP sig pre27 spec27 \ H27) fun b => ((c.tc : Thread nD τ).loc b) ↦{fullShare} V c b

theorem hinG27 (c : Dev nD) :
    iprop(XG27 V c ∗ Pipeline.prefHeld pre27 c (fun _ => fullShare) a27.1
        ∗ Pipeline.scopedRest (Ix := Unit) (Name := ℕ) (U := Pipeline.UD sig nD τ) (Lvl := ℕ) (Val := Elt F) spec27 c)
      ⊢ (datG27 V a27 gblk c).Φ 0 := by
  rw [show (datG27 V a27 gblk c).Φ 0 = iprop(Pipeline.ΦD osem27 spec27 H27 V c ∗ Pipeline.prefHeld pre27 c (fun _ => fullShare) a27.1) from rfl,
    Pipeline.ΦD_eq]
  unfold XG27
  iintro ⟨⟨Hp, Hs, Hh⟩, Ht, Hr⟩
  isplitl [Hr Hp Hs Hh]
  · isplitl [Hr]; · iexact Hr
    isplitl [Hp]; · iexact Hp
    isplitl [Hs]; · iexact Hs
    iexact Hh
  iexact Ht

theorem houtG27 (c : Dev nD) :
    (datG27 V a27 gblk c).Φ (Fin.last (cfg27 a27).N)
      ⊢ iprop(YG27 V a27 c
          ∗ Pipeline.ownSems0 (Ix := Unit) (Name := ℕ) (U := Pipeline.UD sig nD τ) (Lvl := ℕ) (Val := Elt F) (τ := τ) osem27 c
          ∗ Pipeline.scopedRest (Ix := Unit) (Name := ℕ) (U := Pipeline.UD sig nD τ) (Lvl := ℕ) (Val := Elt F) spec27 c) := by
  rw [show (datG27 V a27 gblk c).Φ (Fin.last (cfg27 a27).N) = iprop(Pipeline.ΦD osem27 spec27 H27 V c ∗ Pipeline.prefHeld pre27 c (fun _ => fullShare) a27.1) from rfl,
    Pipeline.ΦD_eq]
  unfold YG27
  iintro ⟨⟨Hr, Hp, Hs, Hh⟩, Ht⟩
  isplitl [Hp Hh Ht]
  · isplitl [Hp]; · iexact Hp
    isplitl [Hh]; · iexact Hh
    iexact Ht
  isplitl [Hs]; · iexact Hs
  iexact Hr

/-- ENTRY. `hsplit` is the library's split of the held buffers into the pipeline's array and the rest, at this data. -/
theorem hentryG27 (c : Dev nD) (hpf : (fun k => V c (pre27.ref k)) = a27.1)
    (hsplit : (unscopedBufs c (V c) : sProp 𝕄)
      ⊢ iprop((datG27 V a27 gblk c).arrays ((datG27 V a27 gblk c).arrAt · 0) ∗ Pipeline.unscopedRest spec27 c (V c))) :
    iprop((unscopedBufs c (V c) ∗ (∃ r, prngReg c r) ∗ ∃ W, owes (c : Thread nD τ) (0 : CellTallies nD τ sig Unit) W)
        ∗ Pipeline.ownSems0 (Ix := Unit) (Name := ℕ) (U := Pipeline.UD sig nD τ) (Lvl := ℕ) (Val := Elt F) (τ := τ) osem27 c
        ∗ levAts (fun _ : GSem nD τ sig => (∅ : Finset Unit)) (fun _ _ => (0 : ℕ)))
      ⊢ (|={Set.univ}=> iprop((datG27 V a27 gblk c).arrays ((datG27 V a27 gblk c).arrAt · 0)
          ∗ Pipeline.prefHeld pre27 c (fun _ => fullShare) a27.1
          ∗ (datG27 V a27 gblk c).owesAt () 0 ∗ XG27 V c ∗ ZG27 V c) : sProp 𝕄) := by
  have hrest := Pipeline.unscopedRest_split (Ix := Unit) (Name := ℕ) (U := Pipeline.UD sig nD τ) (Lvl := ℕ) preFacts27 c (V c)
  rw [hpf, Pipeline.unscopedRestP_sdiff pre27 spec27 H27 H27_sub c (V c)] at hrest
  rw [hrest] at hsplit
  iintro ⟨⟨Hub, Hp, HO⟩, Hs, -⟩
  ihave H := hsplit $$ Hub
  icases H with ⟨Ha, Ht, Hh, Hz⟩
  imodintro
  isplitl [Ha]; · iexact Ha
  isplitl [Ht]; · iexact Ht
  isplitl [HO]
  · unfold Pipeline.Dat.owesAt Pipeline.owesWithin
    icases HO with ⟨%W, HO⟩; iexists W; isplitr; · ipureintro; exact fun _ _ => Or.inl trivial
    iexact HO
  unfold XG27 ZG27
  isplitl [Hp Hs Hh]
  · isplitl [Hp]; · iexact Hp
    isplitl [Hs]; · iexact Hs
    iexact Hh
  iexact Hz

variable (Vn : (c : Dev nD) → (b : Ref sig .tc) → Buf (Elt F) ((c : Thread nD τ).loc b))

/-- EXIT. `hjoin` is the library's rejoining of the pipeline's array at its final contents with the rest, at this data. -/
theorem hexitG27 (c : Dev nD) (hpf : (fun k => V c (pre27.ref k)) = a27.1)
    (hjoin : iprop((datG27 V a27 gblk c).arrays ((datG27 V a27 gblk c).arrAt · (cfg27 a27).N) ∗ Pipeline.unscopedRest spec27 c (V c))
      ⊢ (unscopedBufs c (Vn c) : sProp 𝕄)) :
    iprop((datG27 V a27 gblk c).arrays ((datG27 V a27 gblk c).arrAt · (cfg27 a27).N)
        ∗ (datG27 V a27 gblk c).owesAt () (Fin.last (cfg27 a27).N) ∗ YG27 V a27 c ∗ ZG27 V c)
      ⊢ (|={Set.univ}=> iprop(unscopedBufs c (Vn c) ∗ (∃ r, prngReg c r) ∗ ∃ W, owes (c : Thread nD τ) (0 : CellTallies nD τ sig Unit) W) : sProp 𝕄) := by
  have hrest := Pipeline.unscopedRest_split (Ix := Unit) (Name := ℕ) (U := Pipeline.UD sig nD τ) (Lvl := ℕ) preFacts27 c (V c)
  rw [hpf, Pipeline.unscopedRestP_sdiff pre27 spec27 H27 H27_sub c (V c)] at hrest
  rw [hrest] at hjoin
  unfold YG27 ZG27
  iintro ⟨Ha, HO, ⟨Hp, Hh, Ht⟩, Hz⟩
  imodintro
  isplitl [Ha Hh Ht Hz]
  · iapply hjoin
    isplitl [Ha]; · iexact Ha
    isplitl [Ht]; · iexact Ht
    isplitl [Hh]; · iexact Hh
    iexact Hz
  isplitl [Hp]; · iexact Hp
  unfold Pipeline.Dat.owesAt Pipeline.owesWithin
  icases HO with ⟨%W, -, HO⟩; iexists W; iexact HO

end Cert.Kernel.Hand

end
-- ==== Proof.K.Gather28.lean ====
/-
  The row-gather region 28 of the kernel's program: its proof data and the facts the launch takes.

  Region 28 copies, at grid point t, the eight rows  A[tbl (8 t + j)]  (j < 8) of the 50000 x 128 array A it finds in
  HBM into the eight rows of its 8 x 128 output block; tbl is the region's index table of 100000 words, held in SMEM, and
  A is read only. So after the region the output array's row r is A's row tbl r. The body moves the rows by transfers
  of its own on eight semaphores of its own, all waited for before the point ends: between two points nothing is in
  flight, the table and A are as the region found them, and the semaphores are at zero. That is the region's invariant.
-/
import proofs.«402049_j87351044866139_2_alg».proof.Proof.Gen.Kernel.Launch
import proofs.«402049_j87351044866139_2_alg».proof.Proof.Gen.Kernel.Skeleton
import proofs.«402049_j87351044866139_2_alg».proof.Proof.Gen.Kernel.Points
import Idealize.ShloMosaic.Lib.Pipeline.Frame
import Idealize.ShloMosaic.Lib.Pipeline.FrameBody
import Idealize.ShloMosaic.Lib.Pipeline.RegionsLoop
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.Kernel Cert.Kernel.Gen

variable {F : FTy → Type} [FloatOps F]

local notation "𝕄" => MT nD τ sig Unit (Elt F) ℕ (Pipeline.UD sig nD τ) ℕ

/-- The eight semaphores the body's row transfers signal. -/
abbrev osem28 : Fin 8 → SemLoc sig := fun j =>
  (![SemLoc.dma 268, SemLoc.dma 269, SemLoc.dma 270, SemLoc.dma 271, SemLoc.dma 272, SemLoc.dma 273, SemLoc.dma 274, SemLoc.dma 275] : Fin 8 → SemLoc sig) j
theorem ownSemFacts28 : Pipeline.OwnSemFacts spec28 osem28 := by decide

/-- The array the rows are read from: left in HBM, no window's array and no table. -/
def H28 : Finset (Ref sig .tc) := {main_v89}
theorem H28_sub : H28 ⊆ Pipeline.restRefsP sig pre28 spec28 := by decide

variable (V : (c : Dev nD) → (b : Ref sig .tc) → Buf (Elt F) ((c : Thread nD τ).loc b))
variable (a28 : (pcfg28 (F := F)).Adm)
variable (gblk : (c : Dev nD) → Fin (cfg28 a28).N → S8x128.Idx → Elt F .f32)

/-- The region's proof data on core c: the output array as the region finds it; after point t the output block holds
    the eight gathered rows; the invariant above; full shares; nothing owed. -/
def datG28 (c : Dev nD) : Dat τ (Elt F) Unit ℕ (Pipeline.UD sig nD τ) ℕ (cfg28 a28) c where
  A w := V c (Pipeline.arrRef spec28 w)
  after w t := match w with
    | ⟨0, _⟩ => gblk c t
  Φ _ := iprop(Pipeline.ΦD osem28 spec28 H28 V c ∗ Pipeline.prefHeld pre28 c (fun _ => fullShare) a28.1)
  q _ := fullShare
  owed _ := 0

theorem A_eqG28 (c : Dev nD) (w : Fin (cfg28 a28).W) : (datG28 V a28 gblk c).A w = V c (Pipeline.arrRef spec28 w) := by
  dsimp only [datG28]
theorem afterG28_0 (c : Dev nD) (t : Fin (cfg28 a28).N) : (datG28 V a28 gblk c).after 0 t = gblk c t := rfl

/-! ## The region's protocol around the thread states

  Between two items of the program core c holds every unscoped buffer whole, beside its generator register and a record
  that it owes nothing. Entering the region, the output array goes to the pipeline, the table is handed over at its
  contents, the array A and the eight semaphores join the register in what the invariant takes (X), and the other
  buffers wait outside (Z). Leaving it, everything comes back: A and the table as they were. -/

/-- What the invariant takes at the first point beside the table and the scoped buffers. -/
def XG28 (c : Dev nD) : sProp 𝕄 :=
  iprop((∃ r, prngReg c r)
    ∗ Pipeline.ownSems0 (Ix := Unit) (Name := ℕ) (U := Pipeline.UD sig nD τ) (Lvl := ℕ) (Val := Elt F) (τ := τ) osem28 c
    ∗ bigSep H28 fun b => ((c.tc : Thread nD τ).loc b) ↦{fullShare} V c b)
/-- What it gives back at the last point beside the semaphores and the scoped buffers. -/
def YG28 (c : Dev nD) : sProp 𝕄 :=
  iprop((∃ r, prngReg c r) ∗ (bigSep H28 fun b => ((c.tc : Thread nD τ).loc b) ↦{fullShare} V c b)
    ∗ Pipeline.prefHeld pre28 c (fun _ => fullShare) a28.1)
/-- The unscoped buffers the region does not touch. -/
def ZG28 (c : Dev nD) : sProp 𝕄 :=
  bigSep (Pipeline.restRefsP sig pre28 spec28 \ H28) fun b => ((c.tc : Thread nD τ).loc b) ↦{fullShare} V c b

theorem hinG28 (c : Dev nD) :
    iprop(XG28 V c ∗ Pipeline.prefHeld pre28 c (fun _ => fullShare) a28.1
        ∗ Pipeline.scopedRest (Ix := Unit) (Name := ℕ) (U := Pipeline.UD sig nD τ) (Lvl := ℕ) (Val := Elt F) spec28 c)
      ⊢ (datG28 V a28 gblk c).Φ 0 := by
  rw [show (datG28 V a28 gblk c).Φ 0 = iprop(Pipeline.ΦD osem28 spec28 H28 V c ∗ Pipeline.prefHeld pre28 c (fun _ => fullShare) a28.1) from rfl,
    Pipeline.ΦD_eq]
  unfold XG28
  iintro ⟨⟨Hp, Hs, Hh⟩, Ht, Hr⟩
  isplitl [Hr Hp Hs Hh]
  · isplitl [Hr]; · iexact Hr
    isplitl [Hp]; · iexact Hp
    isplitl [Hs]; · iexact Hs
    iexact Hh
  iexact Ht

theorem houtG28 (c : Dev nD) :
    (datG28 V a28 gblk c).Φ (Fin.last (cfg28 a28).N)
      ⊢ iprop(YG28 V a28 c
          ∗ Pipeline.ownSems0 (Ix := Unit) (Name := ℕ) (U := Pipeline.UD sig nD τ) (Lvl := ℕ) (Val := Elt F) (τ := τ) osem28 c
          ∗ Pipeline.scopedRest (Ix := Unit) (Name := ℕ) (U := Pipeline.UD sig nD τ) (Lvl := ℕ) (Val := Elt F) spec28 c) := by
  rw [show (datG28 V a28 gblk c).Φ (Fin.last (cfg28 a28).N) = iprop(Pipeline.ΦD osem28 spec28 H28 V c ∗ Pipeline.prefHeld pre28 c (fun _ => fullShare) a28.1) from rfl,
    Pipeline.ΦD_eq]
  unfold YG28
  iintro ⟨⟨Hr, Hp, Hs, Hh⟩, Ht⟩
  isplitl [Hp Hh Ht]
  · isplitl [Hp]; · iexact Hp
    isplitl [Hh]; · iexact Hh
    iexact Ht
  isplitl [Hs]; · iexact Hs
  iexact Hr

/-- ENTRY. `hsplit` is the library's split of the held buffers into the pipeline's array and the rest, at this data. -/
theorem hentryG28 (c : Dev nD) (hpf : (fun k => V c (pre28.ref k)) = a28.1)
    (hsplit : (unscopedBufs c (V c) : sProp 𝕄)
      ⊢ iprop((datG28 V a28 gblk c).arrays ((datG28 V a28 gblk c).arrAt · 0) ∗ Pipeline.unscopedRest spec28 c (V c))) :
    iprop((unscopedBufs c (V c) ∗ (∃ r, prngReg c r) ∗ ∃ W, owes (c : Thread nD τ) (0 : CellTallies nD τ sig Unit) W)
        ∗ Pipeline.ownSems0 (Ix := Unit) (Name := ℕ) (U := Pipeline.UD sig nD τ) (Lvl := ℕ) (Val := Elt F) (τ := τ) osem28 c
        ∗ levAts (fun _ : GSem nD τ sig => (∅ : Finset Unit)) (fun _ _ => (0 : ℕ)))
      ⊢ (|={Set.univ}=> iprop((datG28 V a28 gblk c).arrays ((datG28 V a28 gblk c).arrAt · 0)
          ∗ Pipeline.prefHeld pre28 c (fun _ => fullShare) a28.1
          ∗ (datG28 V a28 gblk c).owesAt () 0 ∗ XG28 V c ∗ ZG28 V c) : sProp 𝕄) := by
  have hrest := Pipeline.unscopedRest_split (Ix := Unit) (Name := ℕ) (U := Pipeline.UD sig nD τ) (Lvl := ℕ) preFacts28 c (V c)
  rw [hpf, Pipeline.unscopedRestP_sdiff pre28 spec28 H28 H28_sub c (V c)] at hrest
  rw [hrest] at hsplit
  iintro ⟨⟨Hub, Hp, HO⟩, Hs, -⟩
  ihave H := hsplit $$ Hub
  icases H with ⟨Ha, Ht, Hh, Hz⟩
  imodintro
  isplitl [Ha]; · iexact Ha
  isplitl [Ht]; · iexact Ht
  isplitl [HO]
  · unfold Pipeline.Dat.owesAt Pipeline.owesWithin
    icases HO with ⟨%W, HO⟩; iexists W; isplitr; · ipureintro; exact fun _ _ => Or.inl trivial
    iexact HO
  unfold XG28 ZG28
  isplitl [Hp Hs Hh]
  · isplitl [Hp]; · iexact Hp
    isplitl [Hs]; · iexact Hs
    iexact Hh
  iexact Hz

variable (Vn : (c : Dev nD) → (b : Ref sig .tc) → Buf (Elt F) ((c : Thread nD τ).loc b))

/-- EXIT. `hjoin` is the library's rejoining of the pipeline's array at its final contents with the rest, at this data. -/
theorem hexitG28 (c : Dev nD) (hpf : (fun k => V c (pre28.ref k)) = a28.1)
    (hjoin : iprop((datG28 V a28 gblk c).arrays ((datG28 V a28 gblk c).arrAt · (cfg28 a28).N) ∗ Pipeline.unscopedRest spec28 c (V c))
      ⊢ (unscopedBufs c (Vn c) : sProp 𝕄)) :
    iprop((datG28 V a28 gblk c).arrays ((datG28 V a28 gblk c).arrAt · (cfg28 a28).N)
        ∗ (datG28 V a28 gblk c).owesAt () (Fin.last (cfg28 a28).N) ∗ YG28 V a28 c ∗ ZG28 V c)
      ⊢ (|={Set.univ}=> iprop(unscopedBufs c (Vn c) ∗ (∃ r, prngReg c r) ∗ ∃ W, owes (c : Thread nD τ) (0 : CellTallies nD τ sig Unit) W) : sProp 𝕄) := by
  have hrest := Pipeline.unscopedRest_split (Ix := Unit) (Name := ℕ) (U := Pipeline.UD sig nD τ) (Lvl := ℕ) preFacts28 c (V c)
  rw [hpf, Pipeline.unscopedRestP_sdiff pre28 spec28 H28 H28_sub c (V c)] at hrest
  rw [hrest] at hjoin
  unfold YG28 ZG28
  iintro ⟨Ha, HO, ⟨Hp, Hh, Ht⟩, Hz⟩
  imodintro
  isplitl [Ha Hh Ht Hz]
  · iapply hjoin
    isplitl [Ha]; · iexact Ha
    isplitl [Ht]; · iexact Ht
    isplitl [Hh]; · iexact Hh
    iexact Hz
  isplitl [Hp]; · iexact Hp
  unfold Pipeline.Dat.owesAt Pipeline.owesWithin
  icases HO with ⟨%W, -, HO⟩; iexists W; iexact HO

end Cert.Kernel.Hand

end
-- ==== Proof.K.Gather29.lean ====
/-
  The row-gather region 29 of the kernel's program: its proof data and the facts the launch takes.

  Region 29 copies, at grid point t, the eight rows  A[tbl (8 t + j)]  (j < 8) of the 50000 x 128 array A it finds in
  HBM into the eight rows of its 8 x 128 output block; tbl is the region's index table of 100000 words, held in SMEM, and
  A is read only. So after the region the output array's row r is A's row tbl r. The body moves the rows by transfers
  of its own on eight semaphores of its own, all waited for before the point ends: between two points nothing is in
  flight, the table and A are as the region found them, and the semaphores are at zero. That is the region's invariant.
-/
import proofs.«402049_j87351044866139_2_alg».proof.Proof.Gen.Kernel.Launch
import proofs.«402049_j87351044866139_2_alg».proof.Proof.Gen.Kernel.Skeleton
import proofs.«402049_j87351044866139_2_alg».proof.Proof.Gen.Kernel.Points
import Idealize.ShloMosaic.Lib.Pipeline.Frame
import Idealize.ShloMosaic.Lib.Pipeline.FrameBody
import Idealize.ShloMosaic.Lib.Pipeline.RegionsLoop
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.Kernel Cert.Kernel.Gen

variable {F : FTy → Type} [FloatOps F]

local notation "𝕄" => MT nD τ sig Unit (Elt F) ℕ (Pipeline.UD sig nD τ) ℕ

/-- The eight semaphores the body's row transfers signal. -/
abbrev osem29 : Fin 8 → SemLoc sig := fun j =>
  (![SemLoc.dma 278, SemLoc.dma 279, SemLoc.dma 280, SemLoc.dma 281, SemLoc.dma 282, SemLoc.dma 283, SemLoc.dma 284, SemLoc.dma 285] : Fin 8 → SemLoc sig) j
theorem ownSemFacts29 : Pipeline.OwnSemFacts spec29 osem29 := by decide

/-- The array the rows are read from: left in HBM, no window's array and no table. -/
def H29 : Finset (Ref sig .tc) := {main_v89}
theorem H29_sub : H29 ⊆ Pipeline.restRefsP sig pre29 spec29 := by decide

variable (V : (c : Dev nD) → (b : Ref sig .tc) → Buf (Elt F) ((c : Thread nD τ).loc b))
variable (a29 : (pcfg29 (F := F)).Adm)
variable (gblk : (c : Dev nD) → Fin (cfg29 a29).N → S8x128.Idx → Elt F .f32)

/-- The region's proof data on core c: the output array as the region finds it; after point t the output block holds
    the eight gathered rows; the invariant above; full shares; nothing owed. -/
def datG29 (c : Dev nD) : Dat τ (Elt F) Unit ℕ (Pipeline.UD sig nD τ) ℕ (cfg29 a29) c where
  A w := V c (Pipeline.arrRef spec29 w)
  after w t := match w with
    | ⟨0, _⟩ => gblk c t
  Φ _ := iprop(Pipeline.ΦD osem29 spec29 H29 V c ∗ Pipeline.prefHeld pre29 c (fun _ => fullShare) a29.1)
  q _ := fullShare
  owed _ := 0

theorem A_eqG29 (c : Dev nD) (w : Fin (cfg29 a29).W) : (datG29 V a29 gblk c).A w = V c (Pipeline.arrRef spec29 w) := by
  dsimp only [datG29]
theorem afterG29_0 (c : Dev nD) (t : Fin (cfg29 a29).N) : (datG29 V a29 gblk c).after 0 t = gblk c t := rfl

/-! ## The region's protocol around the thread states

  Between two items of the program core c holds every unscoped buffer whole, beside its generator register and a record
  that it owes nothing. Entering the region, the output array goes to the pipeline, the table is handed over at its
  contents, the array A and the eight semaphores join the register in what the invariant takes (X), and the other
  buffers wait outside (Z). Leaving it, everything comes back: A and the table as they were. -/

/-- What the invariant takes at the first point beside the table and the scoped buffers. -/
def XG29 (c : Dev nD) : sProp 𝕄 :=
  iprop((∃ r, prngReg c r)
    ∗ Pipeline.ownSems0 (Ix := Unit) (Name := ℕ) (U := Pipeline.UD sig nD τ) (Lvl := ℕ) (Val := Elt F) (τ := τ) osem29 c
    ∗ bigSep H29 fun b => ((c.tc : Thread nD τ).loc b) ↦{fullShare} V c b)
/-- What it gives back at the last point beside the semaphores and the scoped buffers. -/
def YG29 (c : Dev nD) : sProp 𝕄 :=
  iprop((∃ r, prngReg c r) ∗ (bigSep H29 fun b => ((c.tc : Thread nD τ).loc b) ↦{fullShare} V c b)
    ∗ Pipeline.prefHeld pre29 c (fun _ => fullShare) a29.1)
/-- The unscoped buffers the region does not touch. -/
def ZG29 (c : Dev nD) : sProp 𝕄 :=
  bigSep (Pipeline.restRefsP sig pre29 spec29 \ H29) fun b => ((c.tc : Thread nD τ).loc b) ↦{fullShare} V c b

theorem hinG29 (c : Dev nD) :
    iprop(XG29 V c ∗ Pipeline.prefHeld pre29 c (fun _ => fullShare) a29.1
        ∗ Pipeline.scopedRest (Ix := Unit) (Name := ℕ) (U := Pipeline.UD sig nD τ) (Lvl := ℕ) (Val := Elt F) spec29 c)
      ⊢ (datG29 V a29 gblk c).Φ 0 := by
  rw [show (datG29 V a29 gblk c).Φ 0 = iprop(Pipeline.ΦD osem29 spec29 H29 V c ∗ Pipeline.prefHeld pre29 c (fun _ => fullShare) a29.1) from rfl,
    Pipeline.ΦD_eq]
  unfold XG29
  iintro ⟨⟨Hp, Hs, Hh⟩, Ht, Hr⟩
  isplitl [Hr Hp Hs Hh]
  · isplitl [Hr]; · iexact Hr
    isplitl [Hp]; · iexact Hp
    isplitl [Hs]; · iexact Hs
    iexact Hh
  iexact Ht

theorem houtG29 (c : Dev nD) :
    (datG29 V a29 gblk c).Φ (Fin.last (cfg29 a29).N)
      ⊢ iprop(YG29 V a29 c
          ∗ Pipeline.ownSems0 (Ix := Unit) (Name := ℕ) (U := Pipeline.UD sig nD τ) (Lvl := ℕ) (Val := Elt F) (τ := τ) osem29 c
          ∗ Pipeline.scopedRest (Ix := Unit) (Name := ℕ) (U := Pipeline.UD sig nD τ) (Lvl := ℕ) (Val := Elt F) spec29 c) := by
  rw [show (datG29 V a29 gblk c).Φ (Fin.last (cfg29 a29).N) = iprop(Pipeline.ΦD osem29 spec29 H29 V c ∗ Pipeline.prefHeld pre29 c (fun _ => fullShare) a29.1) from rfl,
    Pipeline.ΦD_eq]
  unfold YG29
  iintro ⟨⟨Hr, Hp, Hs, Hh⟩, Ht⟩
  isplitl [Hp Hh Ht]
  · isplitl [Hp]; · iexact Hp
    isplitl [Hh]; · iexact Hh
    iexact Ht
  isplitl [Hs]; · iexact Hs
  iexact Hr

/-- ENTRY. `hsplit` is the library's split of the held buffers into the pipeline's array and the rest, at this data. -/
theorem hentryG29 (c : Dev nD) (hpf : (fun k => V c (pre29.ref k)) = a29.1)
    (hsplit : (unscopedBufs c (V c) : sProp 𝕄)
      ⊢ iprop((datG29 V a29 gblk c).arrays ((datG29 V a29 gblk c).arrAt · 0) ∗ Pipeline.unscopedRest spec29 c (V c))) :
    iprop((unscopedBufs c (V c) ∗ (∃ r, prngReg c r) ∗ ∃ W, owes (c : Thread nD τ) (0 : CellTallies nD τ sig Unit) W)
        ∗ Pipeline.ownSems0 (Ix := Unit) (Name := ℕ) (U := Pipeline.UD sig nD τ) (Lvl := ℕ) (Val := Elt F) (τ := τ) osem29 c
        ∗ levAts (fun _ : GSem nD τ sig => (∅ : Finset Unit)) (fun _ _ => (0 : ℕ)))
      ⊢ (|={Set.univ}=> iprop((datG29 V a29 gblk c).arrays ((datG29 V a29 gblk c).arrAt · 0)
          ∗ Pipeline.prefHeld pre29 c (fun _ => fullShare) a29.1
          ∗ (datG29 V a29 gblk c).owesAt () 0 ∗ XG29 V c ∗ ZG29 V c) : sProp 𝕄) := by
  have hrest := Pipeline.unscopedRest_split (Ix := Unit) (Name := ℕ) (U := Pipeline.UD sig nD τ) (Lvl := ℕ) preFacts29 c (V c)
  rw [hpf, Pipeline.unscopedRestP_sdiff pre29 spec29 H29 H29_sub c (V c)] at hrest
  rw [hrest] at hsplit
  iintro ⟨⟨Hub, Hp, HO⟩, Hs, -⟩
  ihave H := hsplit $$ Hub
  icases H with ⟨Ha, Ht, Hh, Hz⟩
  imodintro
  isplitl [Ha]; · iexact Ha
  isplitl [Ht]; · iexact Ht
  isplitl [HO]
  · unfold Pipeline.Dat.owesAt Pipeline.owesWithin
    icases HO with ⟨%W, HO⟩; iexists W; isplitr; · ipureintro; exact fun _ _ => Or.inl trivial
    iexact HO
  unfold XG29 ZG29
  isplitl [Hp Hs Hh]
  · isplitl [Hp]; · iexact Hp
    isplitl [Hs]; · iexact Hs
    iexact Hh
  iexact Hz

variable (Vn : (c : Dev nD) → (b : Ref sig .tc) → Buf (Elt F) ((c : Thread nD τ).loc b))

/-- EXIT. `hjoin` is the library's rejoining of the pipeline's array at its final contents with the rest, at this data. -/
theorem hexitG29 (c : Dev nD) (hpf : (fun k => V c (pre29.ref k)) = a29.1)
    (hjoin : iprop((datG29 V a29 gblk c).arrays ((datG29 V a29 gblk c).arrAt · (cfg29 a29).N) ∗ Pipeline.unscopedRest spec29 c (V c))
      ⊢ (unscopedBufs c (Vn c) : sProp 𝕄)) :
    iprop((datG29 V a29 gblk c).arrays ((datG29 V a29 gblk c).arrAt · (cfg29 a29).N)
        ∗ (datG29 V a29 gblk c).owesAt () (Fin.last (cfg29 a29).N) ∗ YG29 V a29 c ∗ ZG29 V c)
      ⊢ (|={Set.univ}=> iprop(unscopedBufs c (Vn c) ∗ (∃ r, prngReg c r) ∗ ∃ W, owes (c : Thread nD τ) (0 : CellTallies nD τ sig Unit) W) : sProp 𝕄) := by
  have hrest := Pipeline.unscopedRest_split (Ix := Unit) (Name := ℕ) (U := Pipeline.UD sig nD τ) (Lvl := ℕ) preFacts29 c (V c)
  rw [hpf, Pipeline.unscopedRestP_sdiff pre29 spec29 H29 H29_sub c (V c)] at hrest
  rw [hrest] at hjoin
  unfold YG29 ZG29
  iintro ⟨Ha, HO, ⟨Hp, Hh, Ht⟩, Hz⟩
  imodintro
  isplitl [Ha Hh Ht Hz]
  · iapply hjoin
    isplitl [Ha]; · iexact Ha
    isplitl [Ht]; · iexact Ht
    isplitl [Hh]; · iexact Hh
    iexact Hz
  isplitl [Hp]; · iexact Hp
  unfold Pipeline.Dat.owesAt Pipeline.owesWithin
  icases HO with ⟨%W, -, HO⟩; iexists W; iexact HO

end Cert.Kernel.Hand

end
-- ==== Proof.K.Gather30.lean ====
/-
  The row-gather region 30 of the kernel's program: its proof data and the facts the launch takes.

  Region 30 copies, at grid point t, the eight rows  A[tbl (8 t + j)]  (j < 8) of the 50000 x 128 array A it finds in
  HBM into the eight rows of its 8 x 128 output block; tbl is the region's index table of 100000 words, held in SMEM, and
  A is read only. So after the region the output array's row r is A's row tbl r. The body moves the rows by transfers
  of its own on eight semaphores of its own, all waited for before the point ends: between two points nothing is in
  flight, the table and A are as the region found them, and the semaphores are at zero. That is the region's invariant.
-/
import proofs.«402049_j87351044866139_2_alg».proof.Proof.Gen.Kernel.Launch
import proofs.«402049_j87351044866139_2_alg».proof.Proof.Gen.Kernel.Skeleton
import proofs.«402049_j87351044866139_2_alg».proof.Proof.Gen.Kernel.Points
import Idealize.ShloMosaic.Lib.Pipeline.Frame
import Idealize.ShloMosaic.Lib.Pipeline.FrameBody
import Idealize.ShloMosaic.Lib.Pipeline.RegionsLoop
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.Kernel Cert.Kernel.Gen

variable {F : FTy → Type} [FloatOps F]

local notation "𝕄" => MT nD τ sig Unit (Elt F) ℕ (Pipeline.UD sig nD τ) ℕ

/-- The eight semaphores the body's row transfers signal. -/
abbrev osem30 : Fin 8 → SemLoc sig := fun j =>
  (![SemLoc.dma 288, SemLoc.dma 289, SemLoc.dma 290, SemLoc.dma 291, SemLoc.dma 292, SemLoc.dma 293, SemLoc.dma 294, SemLoc.dma 295] : Fin 8 → SemLoc sig) j
theorem ownSemFacts30 : Pipeline.OwnSemFacts spec30 osem30 := by decide

/-- The array the rows are read from: left in HBM, no window's array and no table. -/
def H30 : Finset (Ref sig .tc) := {main_v89}
theorem H30_sub : H30 ⊆ Pipeline.restRefsP sig pre30 spec30 := by decide

variable (V : (c : Dev nD) → (b : Ref sig .tc) → Buf (Elt F) ((c : Thread nD τ).loc b))
variable (a30 : (pcfg30 (F := F)).Adm)
variable (gblk : (c : Dev nD) → Fin (cfg30 a30).N → S8x128.Idx → Elt F .f32)

/-- The region's proof data on core c: the output array as the region finds it; after point t the output block holds
    the eight gathered rows; the invariant above; full shares; nothing owed. -/
def datG30 (c : Dev nD) : Dat τ (Elt F) Unit ℕ (Pipeline.UD sig nD τ) ℕ (cfg30 a30) c where
  A w := V c (Pipeline.arrRef spec30 w)
  after w t := match w with
    | ⟨0, _⟩ => gblk c t
  Φ _ := iprop(Pipeline.ΦD osem30 spec30 H30 V c ∗ Pipeline.prefHeld pre30 c (fun _ => fullShare) a30.1)
  q _ := fullShare
  owed _ := 0

theorem A_eqG30 (c : Dev nD) (w : Fin (cfg30 a30).W) : (datG30 V a30 gblk c).A w = V c (Pipeline.arrRef spec30 w) := by
  dsimp only [datG30]
theorem afterG30_0 (c : Dev nD) (t : Fin (cfg30 a30).N) : (datG30 V a30 gblk c).after 0 t = gblk c t := rfl

/-! ## The region's protocol around the thread states

  Between two items of the program core c holds every unscoped buffer whole, beside its generator register and a record
  that it owes nothing. Entering the region, the output array goes to the pipeline, the table is handed over at its
  contents, the array A and the eight semaphores join the register in what the invariant takes (X), and the other
  buffers wait outside (Z). Leaving it, everything comes back: A and the table as they were. -/

/-- What the invariant takes at the first point beside the table and the scoped buffers. -/
def XG30 (c : Dev nD) : sProp 𝕄 :=
  iprop((∃ r, prngReg c r)
    ∗ Pipeline.ownSems0 (Ix := Unit) (Name := ℕ) (U := Pipeline.UD sig nD τ) (Lvl := ℕ) (Val := Elt F) (τ := τ) osem30 c
    ∗ bigSep H30 fun b => ((c.tc : Thread nD τ).loc b) ↦{fullShare} V c b)
/-- What it gives back at the last point beside the semaphores and the scoped buffers. -/
def YG30 (c : Dev nD) : sProp 𝕄 :=
  iprop((∃ r, prngReg c r) ∗ (bigSep H30 fun b => ((c.tc : Thread nD τ).loc b) ↦{fullShare} V c b)
    ∗ Pipeline.prefHeld pre30 c (fun _ => fullShare) a30.1)
/-- The unscoped buffers the region does not touch. -/
def ZG30 (c : Dev nD) : sProp 𝕄 :=
  bigSep (Pipeline.restRefsP sig pre30 spec30 \ H30) fun b => ((c.tc : Thread nD τ).loc b) ↦{fullShare} V c b

theorem hinG30 (c : Dev nD) :
    iprop(XG30 V c ∗ Pipeline.prefHeld pre30 c (fun _ => fullShare) a30.1
        ∗ Pipeline.scopedRest (Ix := Unit) (Name := ℕ) (U := Pipeline.UD sig nD τ) (Lvl := ℕ) (Val := Elt F) spec30 c)
      ⊢ (datG30 V a30 gblk c).Φ 0 := by
  rw [show (datG30 V a30 gblk c).Φ 0 = iprop(Pipeline.ΦD osem30 spec30 H30 V c ∗ Pipeline.prefHeld pre30 c (fun _ => fullShare) a30.1) from rfl,
    Pipeline.ΦD_eq]
  unfold XG30
  iintro ⟨⟨Hp, Hs, Hh⟩, Ht, Hr⟩
  isplitl [Hr Hp Hs Hh]
  · isplitl [Hr]; · iexact Hr
    isplitl [Hp]; · iexact Hp
    isplitl [Hs]; · iexact Hs
    iexact Hh
  iexact Ht

theorem houtG30 (c : Dev nD) :
    (datG30 V a30 gblk c).Φ (Fin.last (cfg30 a30).N)
      ⊢ iprop(YG30 V a30 c
          ∗ Pipeline.ownSems0 (Ix := Unit) (Name := ℕ) (U := Pipeline.UD sig nD τ) (Lvl := ℕ) (Val := Elt F) (τ := τ) osem30 c
          ∗ Pipeline.scopedRest (Ix := Unit) (Name := ℕ) (U := Pipeline.UD sig nD τ) (Lvl := ℕ) (Val := Elt F) spec30 c) := by
  rw [show (datG30 V a30 gblk c).Φ (Fin.last (cfg30 a30).N) = iprop(Pipeline.ΦD osem30 spec30 H30 V c ∗ Pipeline.prefHeld pre30 c (fun _ => fullShare) a30.1) from rfl,
    Pipeline.ΦD_eq]
  unfold YG30
  iintro ⟨⟨Hr, Hp, Hs, Hh⟩, Ht⟩
  isplitl [Hp Hh Ht]
  · isplitl [Hp]; · iexact Hp
    isplitl [Hh]; · iexact Hh
    iexact Ht
  isplitl [Hs]; · iexact Hs
  iexact Hr

/-- ENTRY. `hsplit` is the library's split of the held buffers into the pipeline's array and the rest, at this data. -/
theorem hentryG30 (c : Dev nD) (hpf : (fun k => V c (pre30.ref k)) = a30.1)
    (hsplit : (unscopedBufs c (V c) : sProp 𝕄)
      ⊢ iprop((datG30 V a30 gblk c).arrays ((datG30 V a30 gblk c).arrAt · 0) ∗ Pipeline.unscopedRest spec30 c (V c))) :
    iprop((unscopedBufs c (V c) ∗ (∃ r, prngReg c r) ∗ ∃ W, owes (c : Thread nD τ) (0 : CellTallies nD τ sig Unit) W)
        ∗ Pipeline.ownSems0 (Ix := Unit) (Name := ℕ) (U := Pipeline.UD sig nD τ) (Lvl := ℕ) (Val := Elt F) (τ := τ) osem30 c
        ∗ levAts (fun _ : GSem nD τ sig => (∅ : Finset Unit)) (fun _ _ => (0 : ℕ)))
      ⊢ (|={Set.univ}=> iprop((datG30 V a30 gblk c).arrays ((datG30 V a30 gblk c).arrAt · 0)
          ∗ Pipeline.prefHeld pre30 c (fun _ => fullShare) a30.1
          ∗ (datG30 V a30 gblk c).owesAt () 0 ∗ XG30 V c ∗ ZG30 V c) : sProp 𝕄) := by
  have hrest := Pipeline.unscopedRest_split (Ix := Unit) (Name := ℕ) (U := Pipeline.UD sig nD τ) (Lvl := ℕ) preFacts30 c (V c)
  rw [hpf, Pipeline.unscopedRestP_sdiff pre30 spec30 H30 H30_sub c (V c)] at hrest
  rw [hrest] at hsplit
  iintro ⟨⟨Hub, Hp, HO⟩, Hs, -⟩
  ihave H := hsplit $$ Hub
  icases H with ⟨Ha, Ht, Hh, Hz⟩
  imodintro
  isplitl [Ha]; · iexact Ha
  isplitl [Ht]; · iexact Ht
  isplitl [HO]
  · unfold Pipeline.Dat.owesAt Pipeline.owesWithin
    icases HO with ⟨%W, HO⟩; iexists W; isplitr; · ipureintro; exact fun _ _ => Or.inl trivial
    iexact HO
  unfold XG30 ZG30
  isplitl [Hp Hs Hh]
  · isplitl [Hp]; · iexact Hp
    isplitl [Hs]; · iexact Hs
    iexact Hh
  iexact Hz

variable (Vn : (c : Dev nD) → (b : Ref sig .tc) → Buf (Elt F) ((c : Thread nD τ).loc b))

/-- EXIT. `hjoin` is the library's rejoining of the pipeline's array at its final contents with the rest, at this data. -/
theorem hexitG30 (c : Dev nD) (hpf : (fun k => V c (pre30.ref k)) = a30.1)
    (hjoin : iprop((datG30 V a30 gblk c).arrays ((datG30 V a30 gblk c).arrAt · (cfg30 a30).N) ∗ Pipeline.unscopedRest spec30 c (V c))
      ⊢ (unscopedBufs c (Vn c) : sProp 𝕄)) :
    iprop((datG30 V a30 gblk c).arrays ((datG30 V a30 gblk c).arrAt · (cfg30 a30).N)
        ∗ (datG30 V a30 gblk c).owesAt () (Fin.last (cfg30 a30).N) ∗ YG30 V a30 c ∗ ZG30 V c)
      ⊢ (|={Set.univ}=> iprop(unscopedBufs c (Vn c) ∗ (∃ r, prngReg c r) ∗ ∃ W, owes (c : Thread nD τ) (0 : CellTallies nD τ sig Unit) W) : sProp 𝕄) := by
  have hrest := Pipeline.unscopedRest_split (Ix := Unit) (Name := ℕ) (U := Pipeline.UD sig nD τ) (Lvl := ℕ) preFacts30 c (V c)
  rw [hpf, Pipeline.unscopedRestP_sdiff pre30 spec30 H30 H30_sub c (V c)] at hrest
  rw [hrest] at hjoin
  unfold YG30 ZG30
  iintro ⟨Ha, HO, ⟨Hp, Hh, Ht⟩, Hz⟩
  imodintro
  isplitl [Ha Hh Ht Hz]
  · iapply hjoin
    isplitl [Ha]; · iexact Ha
    isplitl [Ht]; · iexact Ht
    isplitl [Hh]; · iexact Hh
    iexact Hz
  isplitl [Hp]; · iexact Hp
  unfold Pipeline.Dat.owesAt Pipeline.owesWithin
  icases HO with ⟨%W, -, HO⟩; iexists W; iexact HO

end Cert.Kernel.Hand

end
-- ==== Proof.K.Gather31.lean ====
/-
  The row-gather region 31 of the kernel's program: its proof data and the facts the launch takes.

  Region 31 copies, at grid point t, the eight rows  A[tbl (8 t + j)]  (j < 8) of the 50000 x 128 array A it finds in
  HBM into the eight rows of its 8 x 128 output block; tbl is the region's index table of 100000 words, held in SMEM, and
  A is read only. So after the region the output array's row r is A's row tbl r. The body moves the rows by transfers
  of its own on eight semaphores of its own, all waited for before the point ends: between two points nothing is in
  flight, the table and A are as the region found them, and the semaphores are at zero. That is the region's invariant.
-/
import proofs.«402049_j87351044866139_2_alg».proof.Proof.Gen.Kernel.Launch
import proofs.«402049_j87351044866139_2_alg».proof.Proof.Gen.Kernel.Skeleton
import proofs.«402049_j87351044866139_2_alg».proof.Proof.Gen.Kernel.Points
import Idealize.ShloMosaic.Lib.Pipeline.Frame
import Idealize.ShloMosaic.Lib.Pipeline.FrameBody
import Idealize.ShloMosaic.Lib.Pipeline.RegionsLoop
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.Kernel Cert.Kernel.Gen

variable {F : FTy → Type} [FloatOps F]

local notation "𝕄" => MT nD τ sig Unit (Elt F) ℕ (Pipeline.UD sig nD τ) ℕ

/-- The eight semaphores the body's row transfers signal. -/
abbrev osem31 : Fin 8 → SemLoc sig := fun j =>
  (![SemLoc.dma 298, SemLoc.dma 299, SemLoc.dma 300, SemLoc.dma 301, SemLoc.dma 302, SemLoc.dma 303, SemLoc.dma 304, SemLoc.dma 305] : Fin 8 → SemLoc sig) j
theorem ownSemFacts31 : Pipeline.OwnSemFacts spec31 osem31 := by decide

/-- The array the rows are read from: left in HBM, no window's array and no table. -/
def H31 : Finset (Ref sig .tc) := {main_v89}
theorem H31_sub : H31 ⊆ Pipeline.restRefsP sig pre31 spec31 := by decide

variable (V : (c : Dev nD) → (b : Ref sig .tc) → Buf (Elt F) ((c : Thread nD τ).loc b))
variable (a31 : (pcfg31 (F := F)).Adm)
variable (gblk : (c : Dev nD) → Fin (cfg31 a31).N → S8x128.Idx → Elt F .f32)

/-- The region's proof data on core c: the output array as the region finds it; after point t the output block holds
    the eight gathered rows; the invariant above; full shares; nothing owed. -/
def datG31 (c : Dev nD) : Dat τ (Elt F) Unit ℕ (Pipeline.UD sig nD τ) ℕ (cfg31 a31) c where
  A w := V c (Pipeline.arrRef spec31 w)
  after w t := match w with
    | ⟨0, _⟩ => gblk c t
  Φ _ := iprop(Pipeline.ΦD osem31 spec31 H31 V c ∗ Pipeline.prefHeld pre31 c (fun _ => fullShare) a31.1)
  q _ := fullShare
  owed _ := 0

theorem A_eqG31 (c : Dev nD) (w : Fin (cfg31 a31).W) : (datG31 V a31 gblk c).A w = V c (Pipeline.arrRef spec31 w) := by
  dsimp only [datG31]
theorem afterG31_0 (c : Dev nD) (t : Fin (cfg31 a31).N) : (datG31 V a31 gblk c).after 0 t = gblk c t := rfl

/-! ## The region's protocol around the thread states

  Between two items of the program core c holds every unscoped buffer whole, beside its generator register and a record
  that it owes nothing. Entering the region, the output array goes to the pipeline, the table is handed over at its
  contents, the array A and the eight semaphores join the register in what the invariant takes (X), and the other
  buffers wait outside (Z). Leaving it, everything comes back: A and the table as they were. -/

/-- What the invariant takes at the first point beside the table and the scoped buffers. -/
def XG31 (c : Dev nD) : sProp 𝕄 :=
  iprop((∃ r, prngReg c r)
    ∗ Pipeline.ownSems0 (Ix := Unit) (Name := ℕ) (U := Pipeline.UD sig nD τ) (Lvl := ℕ) (Val := Elt F) (τ := τ) osem31 c
    ∗ bigSep H31 fun b => ((c.tc : Thread nD τ).loc b) ↦{fullShare} V c b)
/-- What it gives back at the last point beside the semaphores and the scoped buffers. -/
def YG31 (c : Dev nD) : sProp 𝕄 :=
  iprop((∃ r, prngReg c r) ∗ (bigSep H31 fun b => ((c.tc : Thread nD τ).loc b) ↦{fullShare} V c b)
    ∗ Pipeline.prefHeld pre31 c (fun _ => fullShare) a31.1)
/-- The unscoped buffers the region does not touch. -/
def ZG31 (c : Dev nD) : sProp 𝕄 :=
  bigSep (Pipeline.restRefsP sig pre31 spec31 \ H31) fun b => ((c.tc : Thread nD τ).loc b) ↦{fullShare} V c b

theorem hinG31 (c : Dev nD) :
    iprop(XG31 V c ∗ Pipeline.prefHeld pre31 c (fun _ => fullShare) a31.1
        ∗ Pipeline.scopedRest (Ix := Unit) (Name := ℕ) (U := Pipeline.UD sig nD τ) (Lvl := ℕ) (Val := Elt F) spec31 c)
      ⊢ (datG31 V a31 gblk c).Φ 0 := by
  rw [show (datG31 V a31 gblk c).Φ 0 = iprop(Pipeline.ΦD osem31 spec31 H31 V c ∗ Pipeline.prefHeld pre31 c (fun _ => fullShare) a31.1) from rfl,
    Pipeline.ΦD_eq]
  unfold XG31
  iintro ⟨⟨Hp, Hs, Hh⟩, Ht, Hr⟩
  isplitl [Hr Hp Hs Hh]
  · isplitl [Hr]; · iexact Hr
    isplitl [Hp]; · iexact Hp
    isplitl [Hs]; · iexact Hs
    iexact Hh
  iexact Ht

theorem houtG31 (c : Dev nD) :
    (datG31 V a31 gblk c).Φ (Fin.last (cfg31 a31).N)
      ⊢ iprop(YG31 V a31 c
          ∗ Pipeline.ownSems0 (Ix := Unit) (Name := ℕ) (U := Pipeline.UD sig nD τ) (Lvl := ℕ) (Val := Elt F) (τ := τ) osem31 c
          ∗ Pipeline.scopedRest (Ix := Unit) (Name := ℕ) (U := Pipeline.UD sig nD τ) (Lvl := ℕ) (Val := Elt F) spec31 c) := by
  rw [show (datG31 V a31 gblk c).Φ (Fin.last (cfg31 a31).N) = iprop(Pipeline.ΦD osem31 spec31 H31 V c ∗ Pipeline.prefHeld pre31 c (fun _ => fullShare) a31.1) from rfl,
    Pipeline.ΦD_eq]
  unfold YG31
  iintro ⟨⟨Hr, Hp, Hs, Hh⟩, Ht⟩
  isplitl [Hp Hh Ht]
  · isplitl [Hp]; · iexact Hp
    isplitl [Hh]; · iexact Hh
    iexact Ht
  isplitl [Hs]; · iexact Hs
  iexact Hr

/-- ENTRY. `hsplit` is the library's split of the held buffers into the pipeline's array and the rest, at this data. -/
theorem hentryG31 (c : Dev nD) (hpf : (fun k => V c (pre31.ref k)) = a31.1)
    (hsplit : (unscopedBufs c (V c) : sProp 𝕄)
      ⊢ iprop((datG31 V a31 gblk c).arrays ((datG31 V a31 gblk c).arrAt · 0) ∗ Pipeline.unscopedRest spec31 c (V c))) :
    iprop((unscopedBufs c (V c) ∗ (∃ r, prngReg c r) ∗ ∃ W, owes (c : Thread nD τ) (0 : CellTallies nD τ sig Unit) W)
        ∗ Pipeline.ownSems0 (Ix := Unit) (Name := ℕ) (U := Pipeline.UD sig nD τ) (Lvl := ℕ) (Val := Elt F) (τ := τ) osem31 c
        ∗ levAts (fun _ : GSem nD τ sig => (∅ : Finset Unit)) (fun _ _ => (0 : ℕ)))
      ⊢ (|={Set.univ}=> iprop((datG31 V a31 gblk c).arrays ((datG31 V a31 gblk c).arrAt · 0)
          ∗ Pipeline.prefHeld pre31 c (fun _ => fullShare) a31.1
          ∗ (datG31 V a31 gblk c).owesAt () 0 ∗ XG31 V c ∗ ZG31 V c) : sProp 𝕄) := by
  have hrest := Pipeline.unscopedRest_split (Ix := Unit) (Name := ℕ) (U := Pipeline.UD sig nD τ) (Lvl := ℕ) preFacts31 c (V c)
  rw [hpf, Pipeline.unscopedRestP_sdiff pre31 spec31 H31 H31_sub c (V c)] at hrest
  rw [hrest] at hsplit
  iintro ⟨⟨Hub, Hp, HO⟩, Hs, -⟩
  ihave H := hsplit $$ Hub
  icases H with ⟨Ha, Ht, Hh, Hz⟩
  imodintro
  isplitl [Ha]; · iexact Ha
  isplitl [Ht]; · iexact Ht
  isplitl [HO]
  · unfold Pipeline.Dat.owesAt Pipeline.owesWithin
    icases HO with ⟨%W, HO⟩; iexists W; isplitr; · ipureintro; exact fun _ _ => Or.inl trivial
    iexact HO
  unfold XG31 ZG31
  isplitl [Hp Hs Hh]
  · isplitl [Hp]; · iexact Hp
    isplitl [Hs]; · iexact Hs
    iexact Hh
  iexact Hz

variable (Vn : (c : Dev nD) → (b : Ref sig .tc) → Buf (Elt F) ((c : Thread nD τ).loc b))

/-- EXIT. `hjoin` is the library's rejoining of the pipeline's array at its final contents with the rest, at this data. -/
theorem hexitG31 (c : Dev nD) (hpf : (fun k => V c (pre31.ref k)) = a31.1)
    (hjoin : iprop((datG31 V a31 gblk c).arrays ((datG31 V a31 gblk c).arrAt · (cfg31 a31).N) ∗ Pipeline.unscopedRest spec31 c (V c))
      ⊢ (unscopedBufs c (Vn c) : sProp 𝕄)) :
    iprop((datG31 V a31 gblk c).arrays ((datG31 V a31 gblk c).arrAt · (cfg31 a31).N)
        ∗ (datG31 V a31 gblk c).owesAt () (Fin.last (cfg31 a31).N) ∗ YG31 V a31 c ∗ ZG31 V c)
      ⊢ (|={Set.univ}=> iprop(unscopedBufs c (Vn c) ∗ (∃ r, prngReg c r) ∗ ∃ W, owes (c : Thread nD τ) (0 : CellTallies nD τ sig Unit) W) : sProp 𝕄) := by
  have hrest := Pipeline.unscopedRest_split (Ix := Unit) (Name := ℕ) (U := Pipeline.UD sig nD τ) (Lvl := ℕ) preFacts31 c (V c)
  rw [hpf, Pipeline.unscopedRestP_sdiff pre31 spec31 H31 H31_sub c (V c)] at hrest
  rw [hrest] at hjoin
  unfold YG31 ZG31
  iintro ⟨Ha, HO, ⟨Hp, Hh, Ht⟩, Hz⟩
  imodintro
  isplitl [Ha Hh Ht Hz]
  · iapply hjoin
    isplitl [Ha]; · iexact Ha
    isplitl [Ht]; · iexact Ht
    isplitl [Hh]; · iexact Hh
    iexact Hz
  isplitl [Hp]; · iexact Hp
  unfold Pipeline.Dat.owesAt Pipeline.owesWithin
  icases HO with ⟨%W, -, HO⟩; iexists W; iexact HO

end Cert.Kernel.Hand

end
-- ==== Proof.K.Gather32.lean ====
/-
  The row-gather region 32 of the kernel's program: its proof data and the facts the launch takes.

  Region 32 copies, at grid point t, the eight rows  A[tbl (8 t + j)]  (j < 8) of the 50000 x 128 array A it finds in
  HBM into the eight rows of its 8 x 128 output block; tbl is the region's index table of 100000 words, held in SMEM, and
  A is read only. So after the region the output array's row r is A's row tbl r. The body moves the rows by transfers
  of its own on eight semaphores of its own, all waited for before the point ends: between two points nothing is in
  flight, the table and A are as the region found them, and the semaphores are at zero. That is the region's invariant.
-/
import proofs.«402049_j87351044866139_2_alg».proof.Proof.Gen.Kernel.Launch
import proofs.«402049_j87351044866139_2_alg».proof.Proof.Gen.Kernel.Skeleton
import proofs.«402049_j87351044866139_2_alg».proof.Proof.Gen.Kernel.Points
import Idealize.ShloMosaic.Lib.Pipeline.Frame
import Idealize.ShloMosaic.Lib.Pipeline.FrameBody
import Idealize.ShloMosaic.Lib.Pipeline.RegionsLoop
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.Kernel Cert.Kernel.Gen

variable {F : FTy → Type} [FloatOps F]

local notation "𝕄" => MT nD τ sig Unit (Elt F) ℕ (Pipeline.UD sig nD τ) ℕ

/-- The eight semaphores the body's row transfers signal. -/
abbrev osem32 : Fin 8 → SemLoc sig := fun j =>
  (![SemLoc.dma 308, SemLoc.dma 309, SemLoc.dma 310, SemLoc.dma 311, SemLoc.dma 312, SemLoc.dma 313, SemLoc.dma 314, SemLoc.dma 315] : Fin 8 → SemLoc sig) j
theorem ownSemFacts32 : Pipeline.OwnSemFacts spec32 osem32 := by decide

/-- The array the rows are read from: left in HBM, no window's array and no table. -/
def H32 : Finset (Ref sig .tc) := {main_v89}
theorem H32_sub : H32 ⊆ Pipeline.restRefsP sig pre32 spec32 := by decide

variable (V : (c : Dev nD) → (b : Ref sig .tc) → Buf (Elt F) ((c : Thread nD τ).loc b))
variable (a32 : (pcfg32 (F := F)).Adm)
variable (gblk : (c : Dev nD) → Fin (cfg32 a32).N → S8x128.Idx → Elt F .f32)

/-- The region's proof data on core c: the output array as the region finds it; after point t the output block holds
    the eight gathered rows; the invariant above; full shares; nothing owed. -/
def datG32 (c : Dev nD) : Dat τ (Elt F) Unit ℕ (Pipeline.UD sig nD τ) ℕ (cfg32 a32) c where
  A w := V c (Pipeline.arrRef spec32 w)
  after w t := match w with
    | ⟨0, _⟩ => gblk c t
  Φ _ := iprop(Pipeline.ΦD osem32 spec32 H32 V c ∗ Pipeline.prefHeld pre32 c (fun _ => fullShare) a32.1)
  q _ := fullShare
  owed _ := 0

theorem A_eqG32 (c : Dev nD) (w : Fin (cfg32 a32).W) : (datG32 V a32 gblk c).A w = V c (Pipeline.arrRef spec32 w) := by
  dsimp only [datG32]
theorem afterG32_0 (c : Dev nD) (t : Fin (cfg32 a32).N) : (datG32 V a32 gblk c).after 0 t = gblk c t := rfl

/-! ## The region's protocol around the thread states

  Between two items of the program core c holds every unscoped buffer whole, beside its generator register and a record
  that it owes nothing. Entering the region, the output array goes to the pipeline, the table is handed over at its
  contents, the array A and the eight semaphores join the register in what the invariant takes (X), and the other
  buffers wait outside (Z). Leaving it, everything comes back: A and the table as they were. -/

/-- What the invariant takes at the first point beside the table and the scoped buffers. -/
def XG32 (c : Dev nD) : sProp 𝕄 :=
  iprop((∃ r, prngReg c r)
    ∗ Pipeline.ownSems0 (Ix := Unit) (Name := ℕ) (U := Pipeline.UD sig nD τ) (Lvl := ℕ) (Val := Elt F) (τ := τ) osem32 c
    ∗ bigSep H32 fun b => ((c.tc : Thread nD τ).loc b) ↦{fullShare} V c b)
/-- What it gives back at the last point beside the semaphores and the scoped buffers. -/
def YG32 (c : Dev nD) : sProp 𝕄 :=
  iprop((∃ r, prngReg c r) ∗ (bigSep H32 fun b => ((c.tc : Thread nD τ).loc b) ↦{fullShare} V c b)
    ∗ Pipeline.prefHeld pre32 c (fun _ => fullShare) a32.1)
/-- The unscoped buffers the region does not touch. -/
def ZG32 (c : Dev nD) : sProp 𝕄 :=
  bigSep (Pipeline.restRefsP sig pre32 spec32 \ H32) fun b => ((c.tc : Thread nD τ).loc b) ↦{fullShare} V c b

theorem hinG32 (c : Dev nD) :
    iprop(XG32 V c ∗ Pipeline.prefHeld pre32 c (fun _ => fullShare) a32.1
        ∗ Pipeline.scopedRest (Ix := Unit) (Name := ℕ) (U := Pipeline.UD sig nD τ) (Lvl := ℕ) (Val := Elt F) spec32 c)
      ⊢ (datG32 V a32 gblk c).Φ 0 := by
  rw [show (datG32 V a32 gblk c).Φ 0 = iprop(Pipeline.ΦD osem32 spec32 H32 V c ∗ Pipeline.prefHeld pre32 c (fun _ => fullShare) a32.1) from rfl,
    Pipeline.ΦD_eq]
  unfold XG32
  iintro ⟨⟨Hp, Hs, Hh⟩, Ht, Hr⟩
  isplitl [Hr Hp Hs Hh]
  · isplitl [Hr]; · iexact Hr
    isplitl [Hp]; · iexact Hp
    isplitl [Hs]; · iexact Hs
    iexact Hh
  iexact Ht

theorem houtG32 (c : Dev nD) :
    (datG32 V a32 gblk c).Φ (Fin.last (cfg32 a32).N)
      ⊢ iprop(YG32 V a32 c
          ∗ Pipeline.ownSems0 (Ix := Unit) (Name := ℕ) (U := Pipeline.UD sig nD τ) (Lvl := ℕ) (Val := Elt F) (τ := τ) osem32 c
          ∗ Pipeline.scopedRest (Ix := Unit) (Name := ℕ) (U := Pipeline.UD sig nD τ) (Lvl := ℕ) (Val := Elt F) spec32 c) := by
  rw [show (datG32 V a32 gblk c).Φ (Fin.last (cfg32 a32).N) = iprop(Pipeline.ΦD osem32 spec32 H32 V c ∗ Pipeline.prefHeld pre32 c (fun _ => fullShare) a32.1) from rfl,
    Pipeline.ΦD_eq]
  unfold YG32
  iintro ⟨⟨Hr, Hp, Hs, Hh⟩, Ht⟩
  isplitl [Hp Hh Ht]
  · isplitl [Hp]; · iexact Hp
    isplitl [Hh]; · iexact Hh
    iexact Ht
  isplitl [Hs]; · iexact Hs
  iexact Hr

/-- ENTRY. `hsplit` is the library's split of the held buffers into the pipeline's array and the rest, at this data. -/
theorem hentryG32 (c : Dev nD) (hpf : (fun k => V c (pre32.ref k)) = a32.1)
    (hsplit : (unscopedBufs c (V c) : sProp 𝕄)
      ⊢ iprop((datG32 V a32 gblk c).arrays ((datG32 V a32 gblk c).arrAt · 0) ∗ Pipeline.unscopedRest spec32 c (V c))) :
    iprop((unscopedBufs c (V c) ∗ (∃ r, prngReg c r) ∗ ∃ W, owes (c : Thread nD τ) (0 : CellTallies nD τ sig Unit) W)
        ∗ Pipeline.ownSems0 (Ix := Unit) (Name := ℕ) (U := Pipeline.UD sig nD τ) (Lvl := ℕ) (Val := Elt F) (τ := τ) osem32 c
        ∗ levAts (fun _ : GSem nD τ sig => (∅ : Finset Unit)) (fun _ _ => (0 : ℕ)))
      ⊢ (|={Set.univ}=> iprop((datG32 V a32 gblk c).arrays ((datG32 V a32 gblk c).arrAt · 0)
          ∗ Pipeline.prefHeld pre32 c (fun _ => fullShare) a32.1
          ∗ (datG32 V a32 gblk c).owesAt () 0 ∗ XG32 V c ∗ ZG32 V c) : sProp 𝕄) := by
  have hrest := Pipeline.unscopedRest_split (Ix := Unit) (Name := ℕ) (U := Pipeline.UD sig nD τ) (Lvl := ℕ) preFacts32 c (V c)
  rw [hpf, Pipeline.unscopedRestP_sdiff pre32 spec32 H32 H32_sub c (V c)] at hrest
  rw [hrest] at hsplit
  iintro ⟨⟨Hub, Hp, HO⟩, Hs, -⟩
  ihave H := hsplit $$ Hub
  icases H with ⟨Ha, Ht, Hh, Hz⟩
  imodintro
  isplitl [Ha]; · iexact Ha
  isplitl [Ht]; · iexact Ht
  isplitl [HO]
  · unfold Pipeline.Dat.owesAt Pipeline.owesWithin
    icases HO with ⟨%W, HO⟩; iexists W; isplitr; · ipureintro; exact fun _ _ => Or.inl trivial
    iexact HO
  unfold XG32 ZG32
  isplitl [Hp Hs Hh]
  · isplitl [Hp]; · iexact Hp
    isplitl [Hs]; · iexact Hs
    iexact Hh
  iexact Hz

variable (Vn : (c : Dev nD) → (b : Ref sig .tc) → Buf (Elt F) ((c : Thread nD τ).loc b))

/-- EXIT. `hjoin` is the library's rejoining of the pipeline's array at its final contents with the rest, at this data. -/
theorem hexitG32 (c : Dev nD) (hpf : (fun k => V c (pre32.ref k)) = a32.1)
    (hjoin : iprop((datG32 V a32 gblk c).arrays ((datG32 V a32 gblk c).arrAt · (cfg32 a32).N) ∗ Pipeline.unscopedRest spec32 c (V c))
      ⊢ (unscopedBufs c (Vn c) : sProp 𝕄)) :
    iprop((datG32 V a32 gblk c).arrays ((datG32 V a32 gblk c).arrAt · (cfg32 a32).N)
        ∗ (datG32 V a32 gblk c).owesAt () (Fin.last (cfg32 a32).N) ∗ YG32 V a32 c ∗ ZG32 V c)
      ⊢ (|={Set.univ}=> iprop(unscopedBufs c (Vn c) ∗ (∃ r, prngReg c r) ∗ ∃ W, owes (c : Thread nD τ) (0 : CellTallies nD τ sig Unit) W) : sProp 𝕄) := by
  have hrest := Pipeline.unscopedRest_split (Ix := Unit) (Name := ℕ) (U := Pipeline.UD sig nD τ) (Lvl := ℕ) preFacts32 c (V c)
  rw [hpf, Pipeline.unscopedRestP_sdiff pre32 spec32 H32 H32_sub c (V c)] at hrest
  rw [hrest] at hjoin
  unfold YG32 ZG32
  iintro ⟨Ha, HO, ⟨Hp, Hh, Ht⟩, Hz⟩
  imodintro
  isplitl [Ha Hh Ht Hz]
  · iapply hjoin
    isplitl [Ha]; · iexact Ha
    isplitl [Ht]; · iexact Ht
    isplitl [Hh]; · iexact Hh
    iexact Hz
  isplitl [Hp]; · iexact Hp
  unfold Pipeline.Dat.owesAt Pipeline.owesWithin
  icases HO with ⟨%W, -, HO⟩; iexists W; iexact HO

end Cert.Kernel.Hand

end
-- ==== Proof.K.Gather33.lean ====
/-
  The row-gather region 33 of the kernel's program: its proof data and the facts the launch takes.

  Region 33 copies, at grid point t, the eight rows  A[tbl (8 t + j)]  (j < 8) of the 50000 x 128 array A it finds in
  HBM into the eight rows of its 8 x 128 output block; tbl is the region's index table of 100000 words, held in SMEM, and
  A is read only. So after the region the output array's row r is A's row tbl r. The body moves the rows by transfers
  of its own on eight semaphores of its own, all waited for before the point ends: between two points nothing is in
  flight, the table and A are as the region found them, and the semaphores are at zero. That is the region's invariant.
-/
import proofs.«402049_j87351044866139_2_alg».proof.Proof.Gen.Kernel.Launch
import proofs.«402049_j87351044866139_2_alg».proof.Proof.Gen.Kernel.Skeleton
import proofs.«402049_j87351044866139_2_alg».proof.Proof.Gen.Kernel.Points
import Idealize.ShloMosaic.Lib.Pipeline.Frame
import Idealize.ShloMosaic.Lib.Pipeline.FrameBody
import Idealize.ShloMosaic.Lib.Pipeline.RegionsLoop
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.Kernel Cert.Kernel.Gen

variable {F : FTy → Type} [FloatOps F]

local notation "𝕄" => MT nD τ sig Unit (Elt F) ℕ (Pipeline.UD sig nD τ) ℕ

/-- The eight semaphores the body's row transfers signal. -/
abbrev osem33 : Fin 8 → SemLoc sig := fun j =>
  (![SemLoc.dma 318, SemLoc.dma 319, SemLoc.dma 320, SemLoc.dma 321, SemLoc.dma 322, SemLoc.dma 323, SemLoc.dma 324, SemLoc.dma 325] : Fin 8 → SemLoc sig) j
theorem ownSemFacts33 : Pipeline.OwnSemFacts spec33 osem33 := by decide

/-- The array the rows are read from: left in HBM, no window's array and no table. -/
def H33 : Finset (Ref sig .tc) := {main_v89}
theorem H33_sub : H33 ⊆ Pipeline.restRefsP sig pre33 spec33 := by decide

variable (V : (c : Dev nD) → (b : Ref sig .tc) → Buf (Elt F) ((c : Thread nD τ).loc b))
variable (a33 : (pcfg33 (F := F)).Adm)
variable (gblk : (c : Dev nD) → Fin (cfg33 a33).N → S8x128.Idx → Elt F .f32)

/-- The region's proof data on core c: the output array as the region finds it; after point t the output block holds
    the eight gathered rows; the invariant above; full shares; nothing owed. -/
def datG33 (c : Dev nD) : Dat τ (Elt F) Unit ℕ (Pipeline.UD sig nD τ) ℕ (cfg33 a33) c where
  A w := V c (Pipeline.arrRef spec33 w)
  after w t := match w with
    | ⟨0, _⟩ => gblk c t
  Φ _ := iprop(Pipeline.ΦD osem33 spec33 H33 V c ∗ Pipeline.prefHeld pre33 c (fun _ => fullShare) a33.1)
  q _ := fullShare
  owed _ := 0

theorem A_eqG33 (c : Dev nD) (w : Fin (cfg33 a33).W) : (datG33 V a33 gblk c).A w = V c (Pipeline.arrRef spec33 w) := by
  dsimp only [datG33]
theorem afterG33_0 (c : Dev nD) (t : Fin (cfg33 a33).N) : (datG33 V a33 gblk c).after 0 t = gblk c t := rfl

/-! ## The region's protocol around the thread states

  Between two items of the program core c holds every unscoped buffer whole, beside its generator register and a record
  that it owes nothing. Entering the region, the output array goes to the pipeline, the table is handed over at its
  contents, the array A and the eight semaphores join the register in what the invariant takes (X), and the other
  buffers wait outside (Z). Leaving it, everything comes back: A and the table as they were. -/

/-- What the invariant takes at the first point beside the table and the scoped buffers. -/
def XG33 (c : Dev nD) : sProp 𝕄 :=
  iprop((∃ r, prngReg c r)
    ∗ Pipeline.ownSems0 (Ix := Unit) (Name := ℕ) (U := Pipeline.UD sig nD τ) (Lvl := ℕ) (Val := Elt F) (τ := τ) osem33 c
    ∗ bigSep H33 fun b => ((c.tc : Thread nD τ).loc b) ↦{fullShare} V c b)
/-- What it gives back at the last point beside the semaphores and the scoped buffers. -/
def YG33 (c : Dev nD) : sProp 𝕄 :=
  iprop((∃ r, prngReg c r) ∗ (bigSep H33 fun b => ((c.tc : Thread nD τ).loc b) ↦{fullShare} V c b)
    ∗ Pipeline.prefHeld pre33 c (fun _ => fullShare) a33.1)
/-- The unscoped buffers the region does not touch. -/
def ZG33 (c : Dev nD) : sProp 𝕄 :=
  bigSep (Pipeline.restRefsP sig pre33 spec33 \ H33) fun b => ((c.tc : Thread nD τ).loc b) ↦{fullShare} V c b

theorem hinG33 (c : Dev nD) :
    iprop(XG33 V c ∗ Pipeline.prefHeld pre33 c (fun _ => fullShare) a33.1
        ∗ Pipeline.scopedRest (Ix := Unit) (Name := ℕ) (U := Pipeline.UD sig nD τ) (Lvl := ℕ) (Val := Elt F) spec33 c)
      ⊢ (datG33 V a33 gblk c).Φ 0 := by
  rw [show (datG33 V a33 gblk c).Φ 0 = iprop(Pipeline.ΦD osem33 spec33 H33 V c ∗ Pipeline.prefHeld pre33 c (fun _ => fullShare) a33.1) from rfl,
    Pipeline.ΦD_eq]
  unfold XG33
  iintro ⟨⟨Hp, Hs, Hh⟩, Ht, Hr⟩
  isplitl [Hr Hp Hs Hh]
  · isplitl [Hr]; · iexact Hr
    isplitl [Hp]; · iexact Hp
    isplitl [Hs]; · iexact Hs
    iexact Hh
  iexact Ht

theorem houtG33 (c : Dev nD) :
    (datG33 V a33 gblk c).Φ (Fin.last (cfg33 a33).N)
      ⊢ iprop(YG33 V a33 c
          ∗ Pipeline.ownSems0 (Ix := Unit) (Name := ℕ) (U := Pipeline.UD sig nD τ) (Lvl := ℕ) (Val := Elt F) (τ := τ) osem33 c
          ∗ Pipeline.scopedRest (Ix := Unit) (Name := ℕ) (U := Pipeline.UD sig nD τ) (Lvl := ℕ) (Val := Elt F) spec33 c) := by
  rw [show (datG33 V a33 gblk c).Φ (Fin.last (cfg33 a33).N) = iprop(Pipeline.ΦD osem33 spec33 H33 V c ∗ Pipeline.prefHeld pre33 c (fun _ => fullShare) a33.1) from rfl,
    Pipeline.ΦD_eq]
  unfold YG33
  iintro ⟨⟨Hr, Hp, Hs, Hh⟩, Ht⟩
  isplitl [Hp Hh Ht]
  · isplitl [Hp]; · iexact Hp
    isplitl [Hh]; · iexact Hh
    iexact Ht
  isplitl [Hs]; · iexact Hs
  iexact Hr

/-- ENTRY. `hsplit` is the library's split of the held buffers into the pipeline's array and the rest, at this data. -/
theorem hentryG33 (c : Dev nD) (hpf : (fun k => V c (pre33.ref k)) = a33.1)
    (hsplit : (unscopedBufs c (V c) : sProp 𝕄)
      ⊢ iprop((datG33 V a33 gblk c).arrays ((datG33 V a33 gblk c).arrAt · 0) ∗ Pipeline.unscopedRest spec33 c (V c))) :
    iprop((unscopedBufs c (V c) ∗ (∃ r, prngReg c r) ∗ ∃ W, owes (c : Thread nD τ) (0 : CellTallies nD τ sig Unit) W)
        ∗ Pipeline.ownSems0 (Ix := Unit) (Name := ℕ) (U := Pipeline.UD sig nD τ) (Lvl := ℕ) (Val := Elt F) (τ := τ) osem33 c
        ∗ levAts (fun _ : GSem nD τ sig => (∅ : Finset Unit)) (fun _ _ => (0 : ℕ)))
      ⊢ (|={Set.univ}=> iprop((datG33 V a33 gblk c).arrays ((datG33 V a33 gblk c).arrAt · 0)
          ∗ Pipeline.prefHeld pre33 c (fun _ => fullShare) a33.1
          ∗ (datG33 V a33 gblk c).owesAt () 0 ∗ XG33 V c ∗ ZG33 V c) : sProp 𝕄) := by
  have hrest := Pipeline.unscopedRest_split (Ix := Unit) (Name := ℕ) (U := Pipeline.UD sig nD τ) (Lvl := ℕ) preFacts33 c (V c)
  rw [hpf, Pipeline.unscopedRestP_sdiff pre33 spec33 H33 H33_sub c (V c)] at hrest
  rw [hrest] at hsplit
  iintro ⟨⟨Hub, Hp, HO⟩, Hs, -⟩
  ihave H := hsplit $$ Hub
  icases H with ⟨Ha, Ht, Hh, Hz⟩
  imodintro
  isplitl [Ha]; · iexact Ha
  isplitl [Ht]; · iexact Ht
  isplitl [HO]
  · unfold Pipeline.Dat.owesAt Pipeline.owesWithin
    icases HO with ⟨%W, HO⟩; iexists W; isplitr; · ipureintro; exact fun _ _ => Or.inl trivial
    iexact HO
  unfold XG33 ZG33
  isplitl [Hp Hs Hh]
  · isplitl [Hp]; · iexact Hp
    isplitl [Hs]; · iexact Hs
    iexact Hh
  iexact Hz

variable (Vn : (c : Dev nD) → (b : Ref sig .tc) → Buf (Elt F) ((c : Thread nD τ).loc b))

/-- EXIT. `hjoin` is the library's rejoining of the pipeline's array at its final contents with the rest, at this data. -/
theorem hexitG33 (c : Dev nD) (hpf : (fun k => V c (pre33.ref k)) = a33.1)
    (hjoin : iprop((datG33 V a33 gblk c).arrays ((datG33 V a33 gblk c).arrAt · (cfg33 a33).N) ∗ Pipeline.unscopedRest spec33 c (V c))
      ⊢ (unscopedBufs c (Vn c) : sProp 𝕄)) :
    iprop((datG33 V a33 gblk c).arrays ((datG33 V a33 gblk c).arrAt · (cfg33 a33).N)
        ∗ (datG33 V a33 gblk c).owesAt () (Fin.last (cfg33 a33).N) ∗ YG33 V a33 c ∗ ZG33 V c)
      ⊢ (|={Set.univ}=> iprop(unscopedBufs c (Vn c) ∗ (∃ r, prngReg c r) ∗ ∃ W, owes (c : Thread nD τ) (0 : CellTallies nD τ sig Unit) W) : sProp 𝕄) := by
  have hrest := Pipeline.unscopedRest_split (Ix := Unit) (Name := ℕ) (U := Pipeline.UD sig nD τ) (Lvl := ℕ) preFacts33 c (V c)
  rw [hpf, Pipeline.unscopedRestP_sdiff pre33 spec33 H33 H33_sub c (V c)] at hrest
  rw [hrest] at hjoin
  unfold YG33 ZG33
  iintro ⟨Ha, HO, ⟨Hp, Hh, Ht⟩, Hz⟩
  imodintro
  isplitl [Ha Hh Ht Hz]
  · iapply hjoin
    isplitl [Ha]; · iexact Ha
    isplitl [Ht]; · iexact Ht
    isplitl [Hh]; · iexact Hh
    iexact Hz
  isplitl [Hp]; · iexact Hp
  unfold Pipeline.Dat.owesAt Pipeline.owesWithin
  icases HO with ⟨%W, -, HO⟩; iexists W; iexact HO

end Cert.Kernel.Hand

end
-- ==== Proof.K.Gather34.lean ====
/-
  The row-gather region 34 of the kernel's program: its proof data and the facts the launch takes.

  Region 34 copies, at grid point t, the eight rows  A[tbl (8 t + j)]  (j < 8) of the 50000 x 128 array A it finds in
  HBM into the eight rows of its 8 x 128 output block; tbl is the region's index table of 100000 words, held in SMEM, and
  A is read only. So after the region the output array's row r is A's row tbl r. The body moves the rows by transfers
  of its own on eight semaphores of its own, all waited for before the point ends: between two points nothing is in
  flight, the table and A are as the region found them, and the semaphores are at zero. That is the region's invariant.
-/
import proofs.«402049_j87351044866139_2_alg».proof.Proof.Gen.Kernel.Launch
import proofs.«402049_j87351044866139_2_alg».proof.Proof.Gen.Kernel.Skeleton
import proofs.«402049_j87351044866139_2_alg».proof.Proof.Gen.Kernel.Points
import Idealize.ShloMosaic.Lib.Pipeline.Frame
import Idealize.ShloMosaic.Lib.Pipeline.FrameBody
import Idealize.ShloMosaic.Lib.Pipeline.RegionsLoop
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.Kernel Cert.Kernel.Gen

variable {F : FTy → Type} [FloatOps F]

local notation "𝕄" => MT nD τ sig Unit (Elt F) ℕ (Pipeline.UD sig nD τ) ℕ

/-- The eight semaphores the body's row transfers signal. -/
abbrev osem34 : Fin 8 → SemLoc sig := fun j =>
  (![SemLoc.dma 328, SemLoc.dma 329, SemLoc.dma 330, SemLoc.dma 331, SemLoc.dma 332, SemLoc.dma 333, SemLoc.dma 334, SemLoc.dma 335] : Fin 8 → SemLoc sig) j
theorem ownSemFacts34 : Pipeline.OwnSemFacts spec34 osem34 := by decide

/-- The array the rows are read from: left in HBM, no window's array and no table. -/
def H34 : Finset (Ref sig .tc) := {main_v89}
theorem H34_sub : H34 ⊆ Pipeline.restRefsP sig pre34 spec34 := by decide

variable (V : (c : Dev nD) → (b : Ref sig .tc) → Buf (Elt F) ((c : Thread nD τ).loc b))
variable (a34 : (pcfg34 (F := F)).Adm)
variable (gblk : (c : Dev nD) → Fin (cfg34 a34).N → S8x128.Idx → Elt F .f32)

/-- The region's proof data on core c: the output array as the region finds it; after point t the output block holds
    the eight gathered rows; the invariant above; full shares; nothing owed. -/
def datG34 (c : Dev nD) : Dat τ (Elt F) Unit ℕ (Pipeline.UD sig nD τ) ℕ (cfg34 a34) c where
  A w := V c (Pipeline.arrRef spec34 w)
  after w t := match w with
    | ⟨0, _⟩ => gblk c t
  Φ _ := iprop(Pipeline.ΦD osem34 spec34 H34 V c ∗ Pipeline.prefHeld pre34 c (fun _ => fullShare) a34.1)
  q _ := fullShare
  owed _ := 0

theorem A_eqG34 (c : Dev nD) (w : Fin (cfg34 a34).W) : (datG34 V a34 gblk c).A w = V c (Pipeline.arrRef spec34 w) := by
  dsimp only [datG34]
theorem afterG34_0 (c : Dev nD) (t : Fin (cfg34 a34).N) : (datG34 V a34 gblk c).after 0 t = gblk c t := rfl

/-! ## The region's protocol around the thread states

  Between two items of the program core c holds every unscoped buffer whole, beside its generator register and a record
  that it owes nothing. Entering the region, the output array goes to the pipeline, the table is handed over at its
  contents, the array A and the eight semaphores join the register in what the invariant takes (X), and the other
  buffers wait outside (Z). Leaving it, everything comes back: A and the table as they were. -/

/-- What the invariant takes at the first point beside the table and the scoped buffers. -/
def XG34 (c : Dev nD) : sProp 𝕄 :=
  iprop((∃ r, prngReg c r)
    ∗ Pipeline.ownSems0 (Ix := Unit) (Name := ℕ) (U := Pipeline.UD sig nD τ) (Lvl := ℕ) (Val := Elt F) (τ := τ) osem34 c
    ∗ bigSep H34 fun b => ((c.tc : Thread nD τ).loc b) ↦{fullShare} V c b)
/-- What it gives back at the last point beside the semaphores and the scoped buffers. -/
def YG34 (c : Dev nD) : sProp 𝕄 :=
  iprop((∃ r, prngReg c r) ∗ (bigSep H34 fun b => ((c.tc : Thread nD τ).loc b) ↦{fullShare} V c b)
    ∗ Pipeline.prefHeld pre34 c (fun _ => fullShare) a34.1)
/-- The unscoped buffers the region does not touch. -/
def ZG34 (c : Dev nD) : sProp 𝕄 :=
  bigSep (Pipeline.restRefsP sig pre34 spec34 \ H34) fun b => ((c.tc : Thread nD τ).loc b) ↦{fullShare} V c b

theorem hinG34 (c : Dev nD) :
    iprop(XG34 V c ∗ Pipeline.prefHeld pre34 c (fun _ => fullShare) a34.1
        ∗ Pipeline.scopedRest (Ix := Unit) (Name := ℕ) (U := Pipeline.UD sig nD τ) (Lvl := ℕ) (Val := Elt F) spec34 c)
      ⊢ (datG34 V a34 gblk c).Φ 0 := by
  rw [show (datG34 V a34 gblk c).Φ 0 = iprop(Pipeline.ΦD osem34 spec34 H34 V c ∗ Pipeline.prefHeld pre34 c (fun _ => fullShare) a34.1) from rfl,
    Pipeline.ΦD_eq]
  unfold XG34
  iintro ⟨⟨Hp, Hs, Hh⟩, Ht, Hr⟩
  isplitl [Hr Hp Hs Hh]
  · isplitl [Hr]; · iexact Hr
    isplitl [Hp]; · iexact Hp
    isplitl [Hs]; · iexact Hs
    iexact Hh
  iexact Ht

theorem houtG34 (c : Dev nD) :
    (datG34 V a34 gblk c).Φ (Fin.last (cfg34 a34).N)
      ⊢ iprop(YG34 V a34 c
          ∗ Pipeline.ownSems0 (Ix := Unit) (Name := ℕ) (U := Pipeline.UD sig nD τ) (Lvl := ℕ) (Val := Elt F) (τ := τ) osem34 c
          ∗ Pipeline.scopedRest (Ix := Unit) (Name := ℕ) (U := Pipeline.UD sig nD τ) (Lvl := ℕ) (Val := Elt F) spec34 c) := by
  rw [show (datG34 V a34 gblk c).Φ (Fin.last (cfg34 a34).N) = iprop(Pipeline.ΦD osem34 spec34 H34 V c ∗ Pipeline.prefHeld pre34 c (fun _ => fullShare) a34.1) from rfl,
    Pipeline.ΦD_eq]
  unfold YG34
  iintro ⟨⟨Hr, Hp, Hs, Hh⟩, Ht⟩
  isplitl [Hp Hh Ht]
  · isplitl [Hp]; · iexact Hp
    isplitl [Hh]; · iexact Hh
    iexact Ht
  isplitl [Hs]; · iexact Hs
  iexact Hr

/-- ENTRY. `hsplit` is the library's split of the held buffers into the pipeline's array and the rest, at this data. -/
theorem hentryG34 (c : Dev nD) (hpf : (fun k => V c (pre34.ref k)) = a34.1)
    (hsplit : (unscopedBufs c (V c) : sProp 𝕄)
      ⊢ iprop((datG34 V a34 gblk c).arrays ((datG34 V a34 gblk c).arrAt · 0) ∗ Pipeline.unscopedRest spec34 c (V c))) :
    iprop((unscopedBufs c (V c) ∗ (∃ r, prngReg c r) ∗ ∃ W, owes (c : Thread nD τ) (0 : CellTallies nD τ sig Unit) W)
        ∗ Pipeline.ownSems0 (Ix := Unit) (Name := ℕ) (U := Pipeline.UD sig nD τ) (Lvl := ℕ) (Val := Elt F) (τ := τ) osem34 c
        ∗ levAts (fun _ : GSem nD τ sig => (∅ : Finset Unit)) (fun _ _ => (0 : ℕ)))
      ⊢ (|={Set.univ}=> iprop((datG34 V a34 gblk c).arrays ((datG34 V a34 gblk c).arrAt · 0)
          ∗ Pipeline.prefHeld pre34 c (fun _ => fullShare) a34.1
          ∗ (datG34 V a34 gblk c).owesAt () 0 ∗ XG34 V c ∗ ZG34 V c) : sProp 𝕄) := by
  have hrest := Pipeline.unscopedRest_split (Ix := Unit) (Name := ℕ) (U := Pipeline.UD sig nD τ) (Lvl := ℕ) preFacts34 c (V c)
  rw [hpf, Pipeline.unscopedRestP_sdiff pre34 spec34 H34 H34_sub c (V c)] at hrest
  rw [hrest] at hsplit
  iintro ⟨⟨Hub, Hp, HO⟩, Hs, -⟩
  ihave H := hsplit $$ Hub
  icases H with ⟨Ha, Ht, Hh, Hz⟩
  imodintro
  isplitl [Ha]; · iexact Ha
  isplitl [Ht]; · iexact Ht
  isplitl [HO]
  · unfold Pipeline.Dat.owesAt Pipeline.owesWithin
    icases HO with ⟨%W, HO⟩; iexists W; isplitr; · ipureintro; exact fun _ _ => Or.inl trivial
    iexact HO
  unfold XG34 ZG34
  isplitl [Hp Hs Hh]
  · isplitl [Hp]; · iexact Hp
    isplitl [Hs]; · iexact Hs
    iexact Hh
  iexact Hz

variable (Vn : (c : Dev nD) → (b : Ref sig .tc) → Buf (Elt F) ((c : Thread nD τ).loc b))

/-- EXIT. `hjoin` is the library's rejoining of the pipeline's array at its final contents with the rest, at this data. -/
theorem hexitG34 (c : Dev nD) (hpf : (fun k => V c (pre34.ref k)) = a34.1)
    (hjoin : iprop((datG34 V a34 gblk c).arrays ((datG34 V a34 gblk c).arrAt · (cfg34 a34).N) ∗ Pipeline.unscopedRest spec34 c (V c))
      ⊢ (unscopedBufs c (Vn c) : sProp 𝕄)) :
    iprop((datG34 V a34 gblk c).arrays ((datG34 V a34 gblk c).arrAt · (cfg34 a34).N)
        ∗ (datG34 V a34 gblk c).owesAt () (Fin.last (cfg34 a34).N) ∗ YG34 V a34 c ∗ ZG34 V c)
      ⊢ (|={Set.univ}=> iprop(unscopedBufs c (Vn c) ∗ (∃ r, prngReg c r) ∗ ∃ W, owes (c : Thread nD τ) (0 : CellTallies nD τ sig Unit) W) : sProp 𝕄) := by
  have hrest := Pipeline.unscopedRest_split (Ix := Unit) (Name := ℕ) (U := Pipeline.UD sig nD τ) (Lvl := ℕ) preFacts34 c (V c)
  rw [hpf, Pipeline.unscopedRestP_sdiff pre34 spec34 H34 H34_sub c (V c)] at hrest
  rw [hrest] at hjoin
  unfold YG34 ZG34
  iintro ⟨Ha, HO, ⟨Hp, Hh, Ht⟩, Hz⟩
  imodintro
  isplitl [Ha Hh Ht Hz]
  · iapply hjoin
    isplitl [Ha]; · iexact Ha
    isplitl [Ht]; · iexact Ht
    isplitl [Hh]; · iexact Hh
    iexact Hz
  isplitl [Hp]; · iexact Hp
  unfold Pipeline.Dat.owesAt Pipeline.owesWithin
  icases HO with ⟨%W, -, HO⟩; iexists W; iexact HO

end Cert.Kernel.Hand

end
-- ==== Proof.K.Gather35.lean ====
/-
  The row-gather region 35 of the kernel's program: its proof data and the facts the launch takes.

  Region 35 copies, at grid point t, the eight rows  A[tbl (8 t + j)]  (j < 8) of the 50000 x 128 array A it finds in
  HBM into the eight rows of its 8 x 128 output block; tbl is the region's index table of 100000 words, held in SMEM, and
  A is read only. So after the region the output array's row r is A's row tbl r. The body moves the rows by transfers
  of its own on eight semaphores of its own, all waited for before the point ends: between two points nothing is in
  flight, the table and A are as the region found them, and the semaphores are at zero. That is the region's invariant.
-/
import proofs.«402049_j87351044866139_2_alg».proof.Proof.Gen.Kernel.Launch
import proofs.«402049_j87351044866139_2_alg».proof.Proof.Gen.Kernel.Skeleton
import proofs.«402049_j87351044866139_2_alg».proof.Proof.Gen.Kernel.Points
import Idealize.ShloMosaic.Lib.Pipeline.Frame
import Idealize.ShloMosaic.Lib.Pipeline.FrameBody
import Idealize.ShloMosaic.Lib.Pipeline.RegionsLoop
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.Kernel Cert.Kernel.Gen

variable {F : FTy → Type} [FloatOps F]

local notation "𝕄" => MT nD τ sig Unit (Elt F) ℕ (Pipeline.UD sig nD τ) ℕ

/-- The eight semaphores the body's row transfers signal. -/
abbrev osem35 : Fin 8 → SemLoc sig := fun j =>
  (![SemLoc.dma 338, SemLoc.dma 339, SemLoc.dma 340, SemLoc.dma 341, SemLoc.dma 342, SemLoc.dma 343, SemLoc.dma 344, SemLoc.dma 345] : Fin 8 → SemLoc sig) j
theorem ownSemFacts35 : Pipeline.OwnSemFacts spec35 osem35 := by decide

/-- The array the rows are read from: left in HBM, no window's array and no table. -/
def H35 : Finset (Ref sig .tc) := {main_v89}
theorem H35_sub : H35 ⊆ Pipeline.restRefsP sig pre35 spec35 := by decide

variable (V : (c : Dev nD) → (b : Ref sig .tc) → Buf (Elt F) ((c : Thread nD τ).loc b))
variable (a35 : (pcfg35 (F := F)).Adm)
variable (gblk : (c : Dev nD) → Fin (cfg35 a35).N → S8x128.Idx → Elt F .f32)

/-- The region's proof data on core c: the output array as the region finds it; after point t the output block holds
    the eight gathered rows; the invariant above; full shares; nothing owed. -/
def datG35 (c : Dev nD) : Dat τ (Elt F) Unit ℕ (Pipeline.UD sig nD τ) ℕ (cfg35 a35) c where
  A w := V c (Pipeline.arrRef spec35 w)
  after w t := match w with
    | ⟨0, _⟩ => gblk c t
  Φ _ := iprop(Pipeline.ΦD osem35 spec35 H35 V c ∗ Pipeline.prefHeld pre35 c (fun _ => fullShare) a35.1)
  q _ := fullShare
  owed _ := 0

theorem A_eqG35 (c : Dev nD) (w : Fin (cfg35 a35).W) : (datG35 V a35 gblk c).A w = V c (Pipeline.arrRef spec35 w) := by
  dsimp only [datG35]
theorem afterG35_0 (c : Dev nD) (t : Fin (cfg35 a35).N) : (datG35 V a35 gblk c).after 0 t = gblk c t := rfl

/-! ## The region's protocol around the thread states

  Between two items of the program core c holds every unscoped buffer whole, beside its generator register and a record
  that it owes nothing. Entering the region, the output array goes to the pipeline, the table is handed over at its
  contents, the array A and the eight semaphores join the register in what the invariant takes (X), and the other
  buffers wait outside (Z). Leaving it, everything comes back: A and the table as they were. -/

/-- What the invariant takes at the first point beside the table and the scoped buffers. -/
def XG35 (c : Dev nD) : sProp 𝕄 :=
  iprop((∃ r, prngReg c r)
    ∗ Pipeline.ownSems0 (Ix := Unit) (Name := ℕ) (U := Pipeline.UD sig nD τ) (Lvl := ℕ) (Val := Elt F) (τ := τ) osem35 c
    ∗ bigSep H35 fun b => ((c.tc : Thread nD τ).loc b) ↦{fullShare} V c b)
/-- What it gives back at the last point beside the semaphores and the scoped buffers. -/
def YG35 (c : Dev nD) : sProp 𝕄 :=
  iprop((∃ r, prngReg c r) ∗ (bigSep H35 fun b => ((c.tc : Thread nD τ).loc b) ↦{fullShare} V c b)
    ∗ Pipeline.prefHeld pre35 c (fun _ => fullShare) a35.1)
/-- The unscoped buffers the region does not touch. -/
def ZG35 (c : Dev nD) : sProp 𝕄 :=
  bigSep (Pipeline.restRefsP sig pre35 spec35 \ H35) fun b => ((c.tc : Thread nD τ).loc b) ↦{fullShare} V c b

theorem hinG35 (c : Dev nD) :
    iprop(XG35 V c ∗ Pipeline.prefHeld pre35 c (fun _ => fullShare) a35.1
        ∗ Pipeline.scopedRest (Ix := Unit) (Name := ℕ) (U := Pipeline.UD sig nD τ) (Lvl := ℕ) (Val := Elt F) spec35 c)
      ⊢ (datG35 V a35 gblk c).Φ 0 := by
  rw [show (datG35 V a35 gblk c).Φ 0 = iprop(Pipeline.ΦD osem35 spec35 H35 V c ∗ Pipeline.prefHeld pre35 c (fun _ => fullShare) a35.1) from rfl,
    Pipeline.ΦD_eq]
  unfold XG35
  iintro ⟨⟨Hp, Hs, Hh⟩, Ht, Hr⟩
  isplitl [Hr Hp Hs Hh]
  · isplitl [Hr]; · iexact Hr
    isplitl [Hp]; · iexact Hp
    isplitl [Hs]; · iexact Hs
    iexact Hh
  iexact Ht

theorem houtG35 (c : Dev nD) :
    (datG35 V a35 gblk c).Φ (Fin.last (cfg35 a35).N)
      ⊢ iprop(YG35 V a35 c
          ∗ Pipeline.ownSems0 (Ix := Unit) (Name := ℕ) (U := Pipeline.UD sig nD τ) (Lvl := ℕ) (Val := Elt F) (τ := τ) osem35 c
          ∗ Pipeline.scopedRest (Ix := Unit) (Name := ℕ) (U := Pipeline.UD sig nD τ) (Lvl := ℕ) (Val := Elt F) spec35 c) := by
  rw [show (datG35 V a35 gblk c).Φ (Fin.last (cfg35 a35).N) = iprop(Pipeline.ΦD osem35 spec35 H35 V c ∗ Pipeline.prefHeld pre35 c (fun _ => fullShare) a35.1) from rfl,
    Pipeline.ΦD_eq]
  unfold YG35
  iintro ⟨⟨Hr, Hp, Hs, Hh⟩, Ht⟩
  isplitl [Hp Hh Ht]
  · isplitl [Hp]; · iexact Hp
    isplitl [Hh]; · iexact Hh
    iexact Ht
  isplitl [Hs]; · iexact Hs
  iexact Hr

/-- ENTRY. `hsplit` is the library's split of the held buffers into the pipeline's array and the rest, at this data. -/
theorem hentryG35 (c : Dev nD) (hpf : (fun k => V c (pre35.ref k)) = a35.1)
    (hsplit : (unscopedBufs c (V c) : sProp 𝕄)
      ⊢ iprop((datG35 V a35 gblk c).arrays ((datG35 V a35 gblk c).arrAt · 0) ∗ Pipeline.unscopedRest spec35 c (V c))) :
    iprop((unscopedBufs c (V c) ∗ (∃ r, prngReg c r) ∗ ∃ W, owes (c : Thread nD τ) (0 : CellTallies nD τ sig Unit) W)
        ∗ Pipeline.ownSems0 (Ix := Unit) (Name := ℕ) (U := Pipeline.UD sig nD τ) (Lvl := ℕ) (Val := Elt F) (τ := τ) osem35 c
        ∗ levAts (fun _ : GSem nD τ sig => (∅ : Finset Unit)) (fun _ _ => (0 : ℕ)))
      ⊢ (|={Set.univ}=> iprop((datG35 V a35 gblk c).arrays ((datG35 V a35 gblk c).arrAt · 0)
          ∗ Pipeline.prefHeld pre35 c (fun _ => fullShare) a35.1
          ∗ (datG35 V a35 gblk c).owesAt () 0 ∗ XG35 V c ∗ ZG35 V c) : sProp 𝕄) := by
  have hrest := Pipeline.unscopedRest_split (Ix := Unit) (Name := ℕ) (U := Pipeline.UD sig nD τ) (Lvl := ℕ) preFacts35 c (V c)
  rw [hpf, Pipeline.unscopedRestP_sdiff pre35 spec35 H35 H35_sub c (V c)] at hrest
  rw [hrest] at hsplit
  iintro ⟨⟨Hub, Hp, HO⟩, Hs, -⟩
  ihave H := hsplit $$ Hub
  icases H with ⟨Ha, Ht, Hh, Hz⟩
  imodintro
  isplitl [Ha]; · iexact Ha
  isplitl [Ht]; · iexact Ht
  isplitl [HO]
  · unfold Pipeline.Dat.owesAt Pipeline.owesWithin
    icases HO with ⟨%W, HO⟩; iexists W; isplitr; · ipureintro; exact fun _ _ => Or.inl trivial
    iexact HO
  unfold XG35 ZG35
  isplitl [Hp Hs Hh]
  · isplitl [Hp]; · iexact Hp
    isplitl [Hs]; · iexact Hs
    iexact Hh
  iexact Hz

variable (Vn : (c : Dev nD) → (b : Ref sig .tc) → Buf (Elt F) ((c : Thread nD τ).loc b))

/-- EXIT. `hjoin` is the library's rejoining of the pipeline's array at its final contents with the rest, at this data. -/
theorem hexitG35 (c : Dev nD) (hpf : (fun k => V c (pre35.ref k)) = a35.1)
    (hjoin : iprop((datG35 V a35 gblk c).arrays ((datG35 V a35 gblk c).arrAt · (cfg35 a35).N) ∗ Pipeline.unscopedRest spec35 c (V c))
      ⊢ (unscopedBufs c (Vn c) : sProp 𝕄)) :
    iprop((datG35 V a35 gblk c).arrays ((datG35 V a35 gblk c).arrAt · (cfg35 a35).N)
        ∗ (datG35 V a35 gblk c).owesAt () (Fin.last (cfg35 a35).N) ∗ YG35 V a35 c ∗ ZG35 V c)
      ⊢ (|={Set.univ}=> iprop(unscopedBufs c (Vn c) ∗ (∃ r, prngReg c r) ∗ ∃ W, owes (c : Thread nD τ) (0 : CellTallies nD τ sig Unit) W) : sProp 𝕄) := by
  have hrest := Pipeline.unscopedRest_split (Ix := Unit) (Name := ℕ) (U := Pipeline.UD sig nD τ) (Lvl := ℕ) preFacts35 c (V c)
  rw [hpf, Pipeline.unscopedRestP_sdiff pre35 spec35 H35 H35_sub c (V c)] at hrest
  rw [hrest] at hjoin
  unfold YG35 ZG35
  iintro ⟨Ha, HO, ⟨Hp, Hh, Ht⟩, Hz⟩
  imodintro
  isplitl [Ha Hh Ht Hz]
  · iapply hjoin
    isplitl [Ha]; · iexact Ha
    isplitl [Ht]; · iexact Ht
    isplitl [Hh]; · iexact Hh
    iexact Hz
  isplitl [Hp]; · iexact Hp
  unfold Pipeline.Dat.owesAt Pipeline.owesWithin
  icases HO with ⟨%W, -, HO⟩; iexists W; iexact HO

end Cert.Kernel.Hand

end
-- ==== Proof.K.Gather36.lean ====
/-
  The row-gather region 36 of the kernel's program: its proof data and the facts the launch takes.

  Region 36 copies, at grid point t, the eight rows  A[tbl (8 t + j)]  (j < 8) of the 50000 x 128 array A it finds in
  HBM into the eight rows of its 8 x 128 output block; tbl is the region's index table of 100000 words, held in SMEM, and
  A is read only. So after the region the output array's row r is A's row tbl r. The body moves the rows by transfers
  of its own on eight semaphores of its own, all waited for before the point ends: between two points nothing is in
  flight, the table and A are as the region found them, and the semaphores are at zero. That is the region's invariant.
-/
import proofs.«402049_j87351044866139_2_alg».proof.Proof.Gen.Kernel.Launch
import proofs.«402049_j87351044866139_2_alg».proof.Proof.Gen.Kernel.Skeleton
import proofs.«402049_j87351044866139_2_alg».proof.Proof.Gen.Kernel.Points
import Idealize.ShloMosaic.Lib.Pipeline.Frame
import Idealize.ShloMosaic.Lib.Pipeline.FrameBody
import Idealize.ShloMosaic.Lib.Pipeline.RegionsLoop
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.Kernel Cert.Kernel.Gen

variable {F : FTy → Type} [FloatOps F]

local notation "𝕄" => MT nD τ sig Unit (Elt F) ℕ (Pipeline.UD sig nD τ) ℕ

/-- The eight semaphores the body's row transfers signal. -/
abbrev osem36 : Fin 8 → SemLoc sig := fun j =>
  (![SemLoc.dma 348, SemLoc.dma 349, SemLoc.dma 350, SemLoc.dma 351, SemLoc.dma 352, SemLoc.dma 353, SemLoc.dma 354, SemLoc.dma 355] : Fin 8 → SemLoc sig) j
theorem ownSemFacts36 : Pipeline.OwnSemFacts spec36 osem36 := by decide

/-- The array the rows are read from: left in HBM, no window's array and no table. -/
def H36 : Finset (Ref sig .tc) := {main_v89}
theorem H36_sub : H36 ⊆ Pipeline.restRefsP sig pre36 spec36 := by decide

variable (V : (c : Dev nD) → (b : Ref sig .tc) → Buf (Elt F) ((c : Thread nD τ).loc b))
variable (a36 : (pcfg36 (F := F)).Adm)
variable (gblk : (c : Dev nD) → Fin (cfg36 a36).N → S8x128.Idx → Elt F .f32)

/-- The region's proof data on core c: the output array as the region finds it; after point t the output block holds
    the eight gathered rows; the invariant above; full shares; nothing owed. -/
def datG36 (c : Dev nD) : Dat τ (Elt F) Unit ℕ (Pipeline.UD sig nD τ) ℕ (cfg36 a36) c where
  A w := V c (Pipeline.arrRef spec36 w)
  after w t := match w with
    | ⟨0, _⟩ => gblk c t
  Φ _ := iprop(Pipeline.ΦD osem36 spec36 H36 V c ∗ Pipeline.prefHeld pre36 c (fun _ => fullShare) a36.1)
  q _ := fullShare
  owed _ := 0

theorem A_eqG36 (c : Dev nD) (w : Fin (cfg36 a36).W) : (datG36 V a36 gblk c).A w = V c (Pipeline.arrRef spec36 w) := by
  dsimp only [datG36]
theorem afterG36_0 (c : Dev nD) (t : Fin (cfg36 a36).N) : (datG36 V a36 gblk c).after 0 t = gblk c t := rfl

/-! ## The region's protocol around the thread states

  Between two items of the program core c holds every unscoped buffer whole, beside its generator register and a record
  that it owes nothing. Entering the region, the output array goes to the pipeline, the table is handed over at its
  contents, the array A and the eight semaphores join the register in what the invariant takes (X), and the other
  buffers wait outside (Z). Leaving it, everything comes back: A and the table as they were. -/

/-- What the invariant takes at the first point beside the table and the scoped buffers. -/
def XG36 (c : Dev nD) : sProp 𝕄 :=
  iprop((∃ r, prngReg c r)
    ∗ Pipeline.ownSems0 (Ix := Unit) (Name := ℕ) (U := Pipeline.UD sig nD τ) (Lvl := ℕ) (Val := Elt F) (τ := τ) osem36 c
    ∗ bigSep H36 fun b => ((c.tc : Thread nD τ).loc b) ↦{fullShare} V c b)
/-- What it gives back at the last point beside the semaphores and the scoped buffers. -/
def YG36 (c : Dev nD) : sProp 𝕄 :=
  iprop((∃ r, prngReg c r) ∗ (bigSep H36 fun b => ((c.tc : Thread nD τ).loc b) ↦{fullShare} V c b)
    ∗ Pipeline.prefHeld pre36 c (fun _ => fullShare) a36.1)
/-- The unscoped buffers the region does not touch. -/
def ZG36 (c : Dev nD) : sProp 𝕄 :=
  bigSep (Pipeline.restRefsP sig pre36 spec36 \ H36) fun b => ((c.tc : Thread nD τ).loc b) ↦{fullShare} V c b

theorem hinG36 (c : Dev nD) :
    iprop(XG36 V c ∗ Pipeline.prefHeld pre36 c (fun _ => fullShare) a36.1
        ∗ Pipeline.scopedRest (Ix := Unit) (Name := ℕ) (U := Pipeline.UD sig nD τ) (Lvl := ℕ) (Val := Elt F) spec36 c)
      ⊢ (datG36 V a36 gblk c).Φ 0 := by
  rw [show (datG36 V a36 gblk c).Φ 0 = iprop(Pipeline.ΦD osem36 spec36 H36 V c ∗ Pipeline.prefHeld pre36 c (fun _ => fullShare) a36.1) from rfl,
    Pipeline.ΦD_eq]
  unfold XG36
  iintro ⟨⟨Hp, Hs, Hh⟩, Ht, Hr⟩
  isplitl [Hr Hp Hs Hh]
  · isplitl [Hr]; · iexact Hr
    isplitl [Hp]; · iexact Hp
    isplitl [Hs]; · iexact Hs
    iexact Hh
  iexact Ht

theorem houtG36 (c : Dev nD) :
    (datG36 V a36 gblk c).Φ (Fin.last (cfg36 a36).N)
      ⊢ iprop(YG36 V a36 c
          ∗ Pipeline.ownSems0 (Ix := Unit) (Name := ℕ) (U := Pipeline.UD sig nD τ) (Lvl := ℕ) (Val := Elt F) (τ := τ) osem36 c
          ∗ Pipeline.scopedRest (Ix := Unit) (Name := ℕ) (U := Pipeline.UD sig nD τ) (Lvl := ℕ) (Val := Elt F) spec36 c) := by
  rw [show (datG36 V a36 gblk c).Φ (Fin.last (cfg36 a36).N) = iprop(Pipeline.ΦD osem36 spec36 H36 V c ∗ Pipeline.prefHeld pre36 c (fun _ => fullShare) a36.1) from rfl,
    Pipeline.ΦD_eq]
  unfold YG36
  iintro ⟨⟨Hr, Hp, Hs, Hh⟩, Ht⟩
  isplitl [Hp Hh Ht]
  · isplitl [Hp]; · iexact Hp
    isplitl [Hh]; · iexact Hh
    iexact Ht
  isplitl [Hs]; · iexact Hs
  iexact Hr

/-- ENTRY. `hsplit` is the library's split of the held buffers into the pipeline's array and the rest, at this data. -/
theorem hentryG36 (c : Dev nD) (hpf : (fun k => V c (pre36.ref k)) = a36.1)
    (hsplit : (unscopedBufs c (V c) : sProp 𝕄)
      ⊢ iprop((datG36 V a36 gblk c).arrays ((datG36 V a36 gblk c).arrAt · 0) ∗ Pipeline.unscopedRest spec36 c (V c))) :
    iprop((unscopedBufs c (V c) ∗ (∃ r, prngReg c r) ∗ ∃ W, owes (c : Thread nD τ) (0 : CellTallies nD τ sig Unit) W)
        ∗ Pipeline.ownSems0 (Ix := Unit) (Name := ℕ) (U := Pipeline.UD sig nD τ) (Lvl := ℕ) (Val := Elt F) (τ := τ) osem36 c
        ∗ levAts (fun _ : GSem nD τ sig => (∅ : Finset Unit)) (fun _ _ => (0 : ℕ)))
      ⊢ (|={Set.univ}=> iprop((datG36 V a36 gblk c).arrays ((datG36 V a36 gblk c).arrAt · 0)
          ∗ Pipeline.prefHeld pre36 c (fun _ => fullShare) a36.1
          ∗ (datG36 V a36 gblk c).owesAt () 0 ∗ XG36 V c ∗ ZG36 V c) : sProp 𝕄) := by
  have hrest := Pipeline.unscopedRest_split (Ix := Unit) (Name := ℕ) (U := Pipeline.UD sig nD τ) (Lvl := ℕ) preFacts36 c (V c)
  rw [hpf, Pipeline.unscopedRestP_sdiff pre36 spec36 H36 H36_sub c (V c)] at hrest
  rw [hrest] at hsplit
  iintro ⟨⟨Hub, Hp, HO⟩, Hs, -⟩
  ihave H := hsplit $$ Hub
  icases H with ⟨Ha, Ht, Hh, Hz⟩
  imodintro
  isplitl [Ha]; · iexact Ha
  isplitl [Ht]; · iexact Ht
  isplitl [HO]
  · unfold Pipeline.Dat.owesAt Pipeline.owesWithin
    icases HO with ⟨%W, HO⟩; iexists W; isplitr; · ipureintro; exact fun _ _ => Or.inl trivial
    iexact HO
  unfold XG36 ZG36
  isplitl [Hp Hs Hh]
  · isplitl [Hp]; · iexact Hp
    isplitl [Hs]; · iexact Hs
    iexact Hh
  iexact Hz

variable (Vn : (c : Dev nD) → (b : Ref sig .tc) → Buf (Elt F) ((c : Thread nD τ).loc b))

/-- EXIT. `hjoin` is the library's rejoining of the pipeline's array at its final contents with the rest, at this data. -/
theorem hexitG36 (c : Dev nD) (hpf : (fun k => V c (pre36.ref k)) = a36.1)
    (hjoin : iprop((datG36 V a36 gblk c).arrays ((datG36 V a36 gblk c).arrAt · (cfg36 a36).N) ∗ Pipeline.unscopedRest spec36 c (V c))
      ⊢ (unscopedBufs c (Vn c) : sProp 𝕄)) :
    iprop((datG36 V a36 gblk c).arrays ((datG36 V a36 gblk c).arrAt · (cfg36 a36).N)
        ∗ (datG36 V a36 gblk c).owesAt () (Fin.last (cfg36 a36).N) ∗ YG36 V a36 c ∗ ZG36 V c)
      ⊢ (|={Set.univ}=> iprop(unscopedBufs c (Vn c) ∗ (∃ r, prngReg c r) ∗ ∃ W, owes (c : Thread nD τ) (0 : CellTallies nD τ sig Unit) W) : sProp 𝕄) := by
  have hrest := Pipeline.unscopedRest_split (Ix := Unit) (Name := ℕ) (U := Pipeline.UD sig nD τ) (Lvl := ℕ) preFacts36 c (V c)
  rw [hpf, Pipeline.unscopedRestP_sdiff pre36 spec36 H36 H36_sub c (V c)] at hrest
  rw [hrest] at hjoin
  unfold YG36 ZG36
  iintro ⟨Ha, HO, ⟨Hp, Hh, Ht⟩, Hz⟩
  imodintro
  isplitl [Ha Hh Ht Hz]
  · iapply hjoin
    isplitl [Ha]; · iexact Ha
    isplitl [Ht]; · iexact Ht
    isplitl [Hh]; · iexact Hh
    iexact Hz
  isplitl [Hp]; · iexact Hp
  unfold Pipeline.Dat.owesAt Pipeline.owesWithin
  icases HO with ⟨%W, -, HO⟩; iexists W; iexact HO

end Cert.Kernel.Hand

end
-- ==== Proof.K.Gather37.lean ====
/-
  The row-gather region 37 of the kernel's program: its proof data and the facts the launch takes.

  Region 37 copies, at grid point t, the eight rows  A[tbl (8 t + j)]  (j < 8) of the 50000 x 128 array A it finds in
  HBM into the eight rows of its 8 x 128 output block; tbl is the region's index table of 100000 words, held in SMEM, and
  A is read only. So after the region the output array's row r is A's row tbl r. The body moves the rows by transfers
  of its own on eight semaphores of its own, all waited for before the point ends: between two points nothing is in
  flight, the table and A are as the region found them, and the semaphores are at zero. That is the region's invariant.
-/
import proofs.«402049_j87351044866139_2_alg».proof.Proof.Gen.Kernel.Launch
import proofs.«402049_j87351044866139_2_alg».proof.Proof.Gen.Kernel.Skeleton
import proofs.«402049_j87351044866139_2_alg».proof.Proof.Gen.Kernel.Points
import Idealize.ShloMosaic.Lib.Pipeline.Frame
import Idealize.ShloMosaic.Lib.Pipeline.FrameBody
import Idealize.ShloMosaic.Lib.Pipeline.RegionsLoop
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.Kernel Cert.Kernel.Gen

variable {F : FTy → Type} [FloatOps F]

local notation "𝕄" => MT nD τ sig Unit (Elt F) ℕ (Pipeline.UD sig nD τ) ℕ

/-- The eight semaphores the body's row transfers signal. -/
abbrev osem37 : Fin 8 → SemLoc sig := fun j =>
  (![SemLoc.dma 358, SemLoc.dma 359, SemLoc.dma 360, SemLoc.dma 361, SemLoc.dma 362, SemLoc.dma 363, SemLoc.dma 364, SemLoc.dma 365] : Fin 8 → SemLoc sig) j
theorem ownSemFacts37 : Pipeline.OwnSemFacts spec37 osem37 := by decide

/-- The array the rows are read from: left in HBM, no window's array and no table. -/
def H37 : Finset (Ref sig .tc) := {main_v89}
theorem H37_sub : H37 ⊆ Pipeline.restRefsP sig pre37 spec37 := by decide

variable (V : (c : Dev nD) → (b : Ref sig .tc) → Buf (Elt F) ((c : Thread nD τ).loc b))
variable (a37 : (pcfg37 (F := F)).Adm)
variable (gblk : (c : Dev nD) → Fin (cfg37 a37).N → S8x128.Idx → Elt F .f32)

/-- The region's proof data on core c: the output array as the region finds it; after point t the output block holds
    the eight gathered rows; the invariant above; full shares; nothing owed. -/
def datG37 (c : Dev nD) : Dat τ (Elt F) Unit ℕ (Pipeline.UD sig nD τ) ℕ (cfg37 a37) c where
  A w := V c (Pipeline.arrRef spec37 w)
  after w t := match w with
    | ⟨0, _⟩ => gblk c t
  Φ _ := iprop(Pipeline.ΦD osem37 spec37 H37 V c ∗ Pipeline.prefHeld pre37 c (fun _ => fullShare) a37.1)
  q _ := fullShare
  owed _ := 0

theorem A_eqG37 (c : Dev nD) (w : Fin (cfg37 a37).W) : (datG37 V a37 gblk c).A w = V c (Pipeline.arrRef spec37 w) := by
  dsimp only [datG37]
theorem afterG37_0 (c : Dev nD) (t : Fin (cfg37 a37).N) : (datG37 V a37 gblk c).after 0 t = gblk c t := rfl

/-! ## The region's protocol around the thread states

  Between two items of the program core c holds every unscoped buffer whole, beside its generator register and a record
  that it owes nothing. Entering the region, the output array goes to the pipeline, the table is handed over at its
  contents, the array A and the eight semaphores join the register in what the invariant takes (X), and the other
  buffers wait outside (Z). Leaving it, everything comes back: A and the table as they were. -/

/-- What the invariant takes at the first point beside the table and the scoped buffers. -/
def XG37 (c : Dev nD) : sProp 𝕄 :=
  iprop((∃ r, prngReg c r)
    ∗ Pipeline.ownSems0 (Ix := Unit) (Name := ℕ) (U := Pipeline.UD sig nD τ) (Lvl := ℕ) (Val := Elt F) (τ := τ) osem37 c
    ∗ bigSep H37 fun b => ((c.tc : Thread nD τ).loc b) ↦{fullShare} V c b)
/-- What it gives back at the last point beside the semaphores and the scoped buffers. -/
def YG37 (c : Dev nD) : sProp 𝕄 :=
  iprop((∃ r, prngReg c r) ∗ (bigSep H37 fun b => ((c.tc : Thread nD τ).loc b) ↦{fullShare} V c b)
    ∗ Pipeline.prefHeld pre37 c (fun _ => fullShare) a37.1)
/-- The unscoped buffers the region does not touch. -/
def ZG37 (c : Dev nD) : sProp 𝕄 :=
  bigSep (Pipeline.restRefsP sig pre37 spec37 \ H37) fun b => ((c.tc : Thread nD τ).loc b) ↦{fullShare} V c b

theorem hinG37 (c : Dev nD) :
    iprop(XG37 V c ∗ Pipeline.prefHeld pre37 c (fun _ => fullShare) a37.1
        ∗ Pipeline.scopedRest (Ix := Unit) (Name := ℕ) (U := Pipeline.UD sig nD τ) (Lvl := ℕ) (Val := Elt F) spec37 c)
      ⊢ (datG37 V a37 gblk c).Φ 0 := by
  rw [show (datG37 V a37 gblk c).Φ 0 = iprop(Pipeline.ΦD osem37 spec37 H37 V c ∗ Pipeline.prefHeld pre37 c (fun _ => fullShare) a37.1) from rfl,
    Pipeline.ΦD_eq]
  unfold XG37
  iintro ⟨⟨Hp, Hs, Hh⟩, Ht, Hr⟩
  isplitl [Hr Hp Hs Hh]
  · isplitl [Hr]; · iexact Hr
    isplitl [Hp]; · iexact Hp
    isplitl [Hs]; · iexact Hs
    iexact Hh
  iexact Ht

theorem houtG37 (c : Dev nD) :
    (datG37 V a37 gblk c).Φ (Fin.last (cfg37 a37).N)
      ⊢ iprop(YG37 V a37 c
          ∗ Pipeline.ownSems0 (Ix := Unit) (Name := ℕ) (U := Pipeline.UD sig nD τ) (Lvl := ℕ) (Val := Elt F) (τ := τ) osem37 c
          ∗ Pipeline.scopedRest (Ix := Unit) (Name := ℕ) (U := Pipeline.UD sig nD τ) (Lvl := ℕ) (Val := Elt F) spec37 c) := by
  rw [show (datG37 V a37 gblk c).Φ (Fin.last (cfg37 a37).N) = iprop(Pipeline.ΦD osem37 spec37 H37 V c ∗ Pipeline.prefHeld pre37 c (fun _ => fullShare) a37.1) from rfl,
    Pipeline.ΦD_eq]
  unfold YG37
  iintro ⟨⟨Hr, Hp, Hs, Hh⟩, Ht⟩
  isplitl [Hp Hh Ht]
  · isplitl [Hp]; · iexact Hp
    isplitl [Hh]; · iexact Hh
    iexact Ht
  isplitl [Hs]; · iexact Hs
  iexact Hr

/-- ENTRY. `hsplit` is the library's split of the held buffers into the pipeline's array and the rest, at this data. -/
theorem hentryG37 (c : Dev nD) (hpf : (fun k => V c (pre37.ref k)) = a37.1)
    (hsplit : (unscopedBufs c (V c) : sProp 𝕄)
      ⊢ iprop((datG37 V a37 gblk c).arrays ((datG37 V a37 gblk c).arrAt · 0) ∗ Pipeline.unscopedRest spec37 c (V c))) :
    iprop((unscopedBufs c (V c) ∗ (∃ r, prngReg c r) ∗ ∃ W, owes (c : Thread nD τ) (0 : CellTallies nD τ sig Unit) W)
        ∗ Pipeline.ownSems0 (Ix := Unit) (Name := ℕ) (U := Pipeline.UD sig nD τ) (Lvl := ℕ) (Val := Elt F) (τ := τ) osem37 c
        ∗ levAts (fun _ : GSem nD τ sig => (∅ : Finset Unit)) (fun _ _ => (0 : ℕ)))
      ⊢ (|={Set.univ}=> iprop((datG37 V a37 gblk c).arrays ((datG37 V a37 gblk c).arrAt · 0)
          ∗ Pipeline.prefHeld pre37 c (fun _ => fullShare) a37.1
          ∗ (datG37 V a37 gblk c).owesAt () 0 ∗ XG37 V c ∗ ZG37 V c) : sProp 𝕄) := by
  have hrest := Pipeline.unscopedRest_split (Ix := Unit) (Name := ℕ) (U := Pipeline.UD sig nD τ) (Lvl := ℕ) preFacts37 c (V c)
  rw [hpf, Pipeline.unscopedRestP_sdiff pre37 spec37 H37 H37_sub c (V c)] at hrest
  rw [hrest] at hsplit
  iintro ⟨⟨Hub, Hp, HO⟩, Hs, -⟩
  ihave H := hsplit $$ Hub
  icases H with ⟨Ha, Ht, Hh, Hz⟩
  imodintro
  isplitl [Ha]; · iexact Ha
  isplitl [Ht]; · iexact Ht
  isplitl [HO]
  · unfold Pipeline.Dat.owesAt Pipeline.owesWithin
    icases HO with ⟨%W, HO⟩; iexists W; isplitr; · ipureintro; exact fun _ _ => Or.inl trivial
    iexact HO
  unfold XG37 ZG37
  isplitl [Hp Hs Hh]
  · isplitl [Hp]; · iexact Hp
    isplitl [Hs]; · iexact Hs
    iexact Hh
  iexact Hz

variable (Vn : (c : Dev nD) → (b : Ref sig .tc) → Buf (Elt F) ((c : Thread nD τ).loc b))

/-- EXIT. `hjoin` is the library's rejoining of the pipeline's array at its final contents with the rest, at this data. -/
theorem hexitG37 (c : Dev nD) (hpf : (fun k => V c (pre37.ref k)) = a37.1)
    (hjoin : iprop((datG37 V a37 gblk c).arrays ((datG37 V a37 gblk c).arrAt · (cfg37 a37).N) ∗ Pipeline.unscopedRest spec37 c (V c))
      ⊢ (unscopedBufs c (Vn c) : sProp 𝕄)) :
    iprop((datG37 V a37 gblk c).arrays ((datG37 V a37 gblk c).arrAt · (cfg37 a37).N)
        ∗ (datG37 V a37 gblk c).owesAt () (Fin.last (cfg37 a37).N) ∗ YG37 V a37 c ∗ ZG37 V c)
      ⊢ (|={Set.univ}=> iprop(unscopedBufs c (Vn c) ∗ (∃ r, prngReg c r) ∗ ∃ W, owes (c : Thread nD τ) (0 : CellTallies nD τ sig Unit) W) : sProp 𝕄) := by
  have hrest := Pipeline.unscopedRest_split (Ix := Unit) (Name := ℕ) (U := Pipeline.UD sig nD τ) (Lvl := ℕ) preFacts37 c (V c)
  rw [hpf, Pipeline.unscopedRestP_sdiff pre37 spec37 H37 H37_sub c (V c)] at hrest
  rw [hrest] at hjoin
  unfold YG37 ZG37
  iintro ⟨Ha, HO, ⟨Hp, Hh, Ht⟩, Hz⟩
  imodintro
  isplitl [Ha Hh Ht Hz]
  · iapply hjoin
    isplitl [Ha]; · iexact Ha
    isplitl [Ht]; · iexact Ht
    isplitl [Hh]; · iexact Hh
    iexact Hz
  isplitl [Hp]; · iexact Hp
  unfold Pipeline.Dat.owesAt Pipeline.owesWithin
  icases HO with ⟨%W, -, HO⟩; iexists W; iexact HO

end Cert.Kernel.Hand

end
-- ==== Proof.K.Gather38.lean ====
/-
  The row-gather region 38 of the kernel's program: its proof data and the facts the launch takes.

  Region 38 copies, at grid point t, the eight rows  A[tbl (8 t + j)]  (j < 8) of the 50000 x 128 array A it finds in
  HBM into the eight rows of its 8 x 128 output block; tbl is the region's index table of 100000 words, held in SMEM, and
  A is read only. So after the region the output array's row r is A's row tbl r. The body moves the rows by transfers
  of its own on eight semaphores of its own, all waited for before the point ends: between two points nothing is in
  flight, the table and A are as the region found them, and the semaphores are at zero. That is the region's invariant.
-/
import proofs.«402049_j87351044866139_2_alg».proof.Proof.Gen.Kernel.Launch
import proofs.«402049_j87351044866139_2_alg».proof.Proof.Gen.Kernel.Skeleton
import proofs.«402049_j87351044866139_2_alg».proof.Proof.Gen.Kernel.Points
import Idealize.ShloMosaic.Lib.Pipeline.Frame
import Idealize.ShloMosaic.Lib.Pipeline.FrameBody
import Idealize.ShloMosaic.Lib.Pipeline.RegionsLoop
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.Kernel Cert.Kernel.Gen

variable {F : FTy → Type} [FloatOps F]

local notation "𝕄" => MT nD τ sig Unit (Elt F) ℕ (Pipeline.UD sig nD τ) ℕ

/-- The eight semaphores the body's row transfers signal. -/
abbrev osem38 : Fin 8 → SemLoc sig := fun j =>
  (![SemLoc.dma 368, SemLoc.dma 369, SemLoc.dma 370, SemLoc.dma 371, SemLoc.dma 372, SemLoc.dma 373, SemLoc.dma 374, SemLoc.dma 375] : Fin 8 → SemLoc sig) j
theorem ownSemFacts38 : Pipeline.OwnSemFacts spec38 osem38 := by decide

/-- The array the rows are read from: left in HBM, no window's array and no table. -/
def H38 : Finset (Ref sig .tc) := {main_v89}
theorem H38_sub : H38 ⊆ Pipeline.restRefsP sig pre38 spec38 := by decide

variable (V : (c : Dev nD) → (b : Ref sig .tc) → Buf (Elt F) ((c : Thread nD τ).loc b))
variable (a38 : (pcfg38 (F := F)).Adm)
variable (gblk : (c : Dev nD) → Fin (cfg38 a38).N → S8x128.Idx → Elt F .f32)

/-- The region's proof data on core c: the output array as the region finds it; after point t the output block holds
    the eight gathered rows; the invariant above; full shares; nothing owed. -/
def datG38 (c : Dev nD) : Dat τ (Elt F) Unit ℕ (Pipeline.UD sig nD τ) ℕ (cfg38 a38) c where
  A w := V c (Pipeline.arrRef spec38 w)
  after w t := match w with
    | ⟨0, _⟩ => gblk c t
  Φ _ := iprop(Pipeline.ΦD osem38 spec38 H38 V c ∗ Pipeline.prefHeld pre38 c (fun _ => fullShare) a38.1)
  q _ := fullShare
  owed _ := 0

theorem A_eqG38 (c : Dev nD) (w : Fin (cfg38 a38).W) : (datG38 V a38 gblk c).A w = V c (Pipeline.arrRef spec38 w) := by
  dsimp only [datG38]
theorem afterG38_0 (c : Dev nD) (t : Fin (cfg38 a38).N) : (datG38 V a38 gblk c).after 0 t = gblk c t := rfl

/-! ## The region's protocol around the thread states

  Between two items of the program core c holds every unscoped buffer whole, beside its generator register and a record
  that it owes nothing. Entering the region, the output array goes to the pipeline, the table is handed over at its
  contents, the array A and the eight semaphores join the register in what the invariant takes (X), and the other
  buffers wait outside (Z). Leaving it, everything comes back: A and the table as they were. -/

/-- What the invariant takes at the first point beside the table and the scoped buffers. -/
def XG38 (c : Dev nD) : sProp 𝕄 :=
  iprop((∃ r, prngReg c r)
    ∗ Pipeline.ownSems0 (Ix := Unit) (Name := ℕ) (U := Pipeline.UD sig nD τ) (Lvl := ℕ) (Val := Elt F) (τ := τ) osem38 c
    ∗ bigSep H38 fun b => ((c.tc : Thread nD τ).loc b) ↦{fullShare} V c b)
/-- What it gives back at the last point beside the semaphores and the scoped buffers. -/
def YG38 (c : Dev nD) : sProp 𝕄 :=
  iprop((∃ r, prngReg c r) ∗ (bigSep H38 fun b => ((c.tc : Thread nD τ).loc b) ↦{fullShare} V c b)
    ∗ Pipeline.prefHeld pre38 c (fun _ => fullShare) a38.1)
/-- The unscoped buffers the region does not touch. -/
def ZG38 (c : Dev nD) : sProp 𝕄 :=
  bigSep (Pipeline.restRefsP sig pre38 spec38 \ H38) fun b => ((c.tc : Thread nD τ).loc b) ↦{fullShare} V c b

theorem hinG38 (c : Dev nD) :
    iprop(XG38 V c ∗ Pipeline.prefHeld pre38 c (fun _ => fullShare) a38.1
        ∗ Pipeline.scopedRest (Ix := Unit) (Name := ℕ) (U := Pipeline.UD sig nD τ) (Lvl := ℕ) (Val := Elt F) spec38 c)
      ⊢ (datG38 V a38 gblk c).Φ 0 := by
  rw [show (datG38 V a38 gblk c).Φ 0 = iprop(Pipeline.ΦD osem38 spec38 H38 V c ∗ Pipeline.prefHeld pre38 c (fun _ => fullShare) a38.1) from rfl,
    Pipeline.ΦD_eq]
  unfold XG38
  iintro ⟨⟨Hp, Hs, Hh⟩, Ht, Hr⟩
  isplitl [Hr Hp Hs Hh]
  · isplitl [Hr]; · iexact Hr
    isplitl [Hp]; · iexact Hp
    isplitl [Hs]; · iexact Hs
    iexact Hh
  iexact Ht

theorem houtG38 (c : Dev nD) :
    (datG38 V a38 gblk c).Φ (Fin.last (cfg38 a38).N)
      ⊢ iprop(YG38 V a38 c
          ∗ Pipeline.ownSems0 (Ix := Unit) (Name := ℕ) (U := Pipeline.UD sig nD τ) (Lvl := ℕ) (Val := Elt F) (τ := τ) osem38 c
          ∗ Pipeline.scopedRest (Ix := Unit) (Name := ℕ) (U := Pipeline.UD sig nD τ) (Lvl := ℕ) (Val := Elt F) spec38 c) := by
  rw [show (datG38 V a38 gblk c).Φ (Fin.last (cfg38 a38).N) = iprop(Pipeline.ΦD osem38 spec38 H38 V c ∗ Pipeline.prefHeld pre38 c (fun _ => fullShare) a38.1) from rfl,
    Pipeline.ΦD_eq]
  unfold YG38
  iintro ⟨⟨Hr, Hp, Hs, Hh⟩, Ht⟩
  isplitl [Hp Hh Ht]
  · isplitl [Hp]; · iexact Hp
    isplitl [Hh]; · iexact Hh
    iexact Ht
  isplitl [Hs]; · iexact Hs
  iexact Hr

/-- ENTRY. `hsplit` is the library's split of the held buffers into the pipeline's array and the rest, at this data. -/
theorem hentryG38 (c : Dev nD) (hpf : (fun k => V c (pre38.ref k)) = a38.1)
    (hsplit : (unscopedBufs c (V c) : sProp 𝕄)
      ⊢ iprop((datG38 V a38 gblk c).arrays ((datG38 V a38 gblk c).arrAt · 0) ∗ Pipeline.unscopedRest spec38 c (V c))) :
    iprop((unscopedBufs c (V c) ∗ (∃ r, prngReg c r) ∗ ∃ W, owes (c : Thread nD τ) (0 : CellTallies nD τ sig Unit) W)
        ∗ Pipeline.ownSems0 (Ix := Unit) (Name := ℕ) (U := Pipeline.UD sig nD τ) (Lvl := ℕ) (Val := Elt F) (τ := τ) osem38 c
        ∗ levAts (fun _ : GSem nD τ sig => (∅ : Finset Unit)) (fun _ _ => (0 : ℕ)))
      ⊢ (|={Set.univ}=> iprop((datG38 V a38 gblk c).arrays ((datG38 V a38 gblk c).arrAt · 0)
          ∗ Pipeline.prefHeld pre38 c (fun _ => fullShare) a38.1
          ∗ (datG38 V a38 gblk c).owesAt () 0 ∗ XG38 V c ∗ ZG38 V c) : sProp 𝕄) := by
  have hrest := Pipeline.unscopedRest_split (Ix := Unit) (Name := ℕ) (U := Pipeline.UD sig nD τ) (Lvl := ℕ) preFacts38 c (V c)
  rw [hpf, Pipeline.unscopedRestP_sdiff pre38 spec38 H38 H38_sub c (V c)] at hrest
  rw [hrest] at hsplit
  iintro ⟨⟨Hub, Hp, HO⟩, Hs, -⟩
  ihave H := hsplit $$ Hub
  icases H with ⟨Ha, Ht, Hh, Hz⟩
  imodintro
  isplitl [Ha]; · iexact Ha
  isplitl [Ht]; · iexact Ht
  isplitl [HO]
  · unfold Pipeline.Dat.owesAt Pipeline.owesWithin
    icases HO with ⟨%W, HO⟩; iexists W; isplitr; · ipureintro; exact fun _ _ => Or.inl trivial
    iexact HO
  unfold XG38 ZG38
  isplitl [Hp Hs Hh]
  · isplitl [Hp]; · iexact Hp
    isplitl [Hs]; · iexact Hs
    iexact Hh
  iexact Hz

variable (Vn : (c : Dev nD) → (b : Ref sig .tc) → Buf (Elt F) ((c : Thread nD τ).loc b))

/-- EXIT. `hjoin` is the library's rejoining of the pipeline's array at its final contents with the rest, at this data. -/
theorem hexitG38 (c : Dev nD) (hpf : (fun k => V c (pre38.ref k)) = a38.1)
    (hjoin : iprop((datG38 V a38 gblk c).arrays ((datG38 V a38 gblk c).arrAt · (cfg38 a38).N) ∗ Pipeline.unscopedRest spec38 c (V c))
      ⊢ (unscopedBufs c (Vn c) : sProp 𝕄)) :
    iprop((datG38 V a38 gblk c).arrays ((datG38 V a38 gblk c).arrAt · (cfg38 a38).N)
        ∗ (datG38 V a38 gblk c).owesAt () (Fin.last (cfg38 a38).N) ∗ YG38 V a38 c ∗ ZG38 V c)
      ⊢ (|={Set.univ}=> iprop(unscopedBufs c (Vn c) ∗ (∃ r, prngReg c r) ∗ ∃ W, owes (c : Thread nD τ) (0 : CellTallies nD τ sig Unit) W) : sProp 𝕄) := by
  have hrest := Pipeline.unscopedRest_split (Ix := Unit) (Name := ℕ) (U := Pipeline.UD sig nD τ) (Lvl := ℕ) preFacts38 c (V c)
  rw [hpf, Pipeline.unscopedRestP_sdiff pre38 spec38 H38 H38_sub c (V c)] at hrest
  rw [hrest] at hjoin
  unfold YG38 ZG38
  iintro ⟨Ha, HO, ⟨Hp, Hh, Ht⟩, Hz⟩
  imodintro
  isplitl [Ha Hh Ht Hz]
  · iapply hjoin
    isplitl [Ha]; · iexact Ha
    isplitl [Ht]; · iexact Ht
    isplitl [Hh]; · iexact Hh
    iexact Hz
  isplitl [Hp]; · iexact Hp
  unfold Pipeline.Dat.owesAt Pipeline.owesWithin
  icases HO with ⟨%W, -, HO⟩; iexists W; iexact HO

end Cert.Kernel.Hand

end
-- ==== Proof.K.GatherDef1.lean ====
/-
  Region 1's gathered block, as a function.

  At grid point i region 1 leaves in its 8 x 128 output block, at row j and column l, the 50000 x 128 array's element at
  row (table word 8 i + j) and column l. gath1 is that block as a function of the point, the table and the array (total:
  a word is clamped to the array's last row, which changes nothing when every word is a row); gblk1 is the block of point
  t at the region's own table and array; gblk1_apply reads it at a row and a column.
-/
import proofs.«402049_j87351044866139_2_alg».proof.Proof.K.Gather1
import Idealize.ShloMosaic.Lib.ValueIdx

set_option maxRecDepth 16384

noncomputable section

namespace Cert.Kernel.Hand

open Idealize.ShloMosaic Idealize.ShloMosaic.TcCoe
open Idealize.ShloMosaic.Pipeline (Dat Cfg Window)
open Cert.Kernel Cert.Kernel.Gen

variable {F : FTy → Type} [FloatOps F]

/-! ## What the point writes -/

/-- The block the body leaves at grid point i: row j, column l is the array's row named by table word 8 i + j, column l.
    The word is clamped to the array's last row, so that the block is a total function of the table; under the table's
    range hypothesis the clamp does nothing. -/
def gath1 (i : grid1.Coords) (tbl : Vec F S85000 .i32) (A : Vec F S50000x128 .f32) : Vec F S8x128 .f32 := fun y =>
  A (ValueIdx.ix2 (⟨min (tbl (ValueIdx.ix1 (⟨8 * (i 0).val + (y 0).val, by
      have hi : (i 0).val < 10625 := (i 0).isLt
      have hy : (y 0).val < 8 := (y 0).isLt
      omega⟩ : Fin 85000))).toNat 49999, by omega⟩ : Fin 50000) (y 1 : Fin 128))

/-- The block at row j, column l, when the table's words are rows of the array: the array at that row and column. The
    table position is given as p with its equation, so that a caller states it in its own spelling. -/
theorem gath1_apply (i : grid1.Coords) (tbl : Vec F S85000 .i32) (A : Vec F S50000x128 .f32)
    (htbl : ∀ k, (tbl k).toNat < 50000) (j : Fin 8) (l : Fin 128) (p : ℕ) (hp : p = 8 * (i 0).val + j.val) (hp' : p < 85000) :
    gath1 i tbl A (ValueIdx.ix2 j l)
      = A (ValueIdx.ix2 (⟨(tbl (ValueIdx.ix1 (⟨p, hp'⟩ : Fin 85000))).toNat, htbl _⟩ : Fin 50000) l) := by
  subst hp
  have hm : min (tbl (ValueIdx.ix1 (⟨8 * (i 0).val + j.val, hp'⟩ : Fin 85000))).toNat 49999
      = (tbl (ValueIdx.ix1 (⟨8 * (i 0).val + j.val, hp'⟩ : Fin 85000))).toNat :=
    Nat.min_eq_left (by have := htbl (ValueIdx.ix1 (⟨8 * (i 0).val + j.val, hp'⟩ : Fin 85000)); omega)
  exact congrArg A (congrArg (fun r : Fin 50000 => ValueIdx.ix2 r l) (Fin.ext hm))

/-- The block on row j is the array on the row table word 8 i + j names: an element of the block on that row and an
    element of the array on that row, in the same column, are equal. -/
theorem gath1_row (i : grid1.Coords) (tbl : Vec F S85000 .i32) (A : Vec F S50000x128 .f32)
    (htbl : ∀ k, (tbl k).toNat < 50000) (j p : ℕ) (hp : p = 8 * (i 0).val + j) (hp' : p < 85000)
    (y : S8x128.Idx) (z : S50000x128.Idx) (hy : (y 0).val = j)
    (hz0 : (z 0).val = (tbl (ValueIdx.ix1 (⟨p, hp'⟩ : Fin 85000))).toNat) (hz1 : (z 1).val = (y 1).val) :
    gath1 i tbl A y = A z := by
  subst hp
  subst hy
  unfold gath1
  refine congrArg A (funext fun a => ?_)
  match a with
  | ⟨0, _⟩ =>
    refine Fin.ext ?_
    show min (tbl (ValueIdx.ix1 (⟨8 * (i 0).val + (y 0).val, _⟩ : Fin 85000))).toNat 49999 = (z 0).val
    rw [hz0]
    exact Nat.min_eq_left (by have := htbl (ValueIdx.ix1 (⟨8 * (i 0).val + (y 0).val, hp'⟩ : Fin 85000)); omega)
  | ⟨1, _⟩ => exact Fin.ext hz1.symm
variable (V : (c : Dev nD) → (b : Ref sig .tc) → Buf (Elt F) ((c : Thread nD τ).loc b))
variable (a1 : (pcfg1 (F := F)).Adm)

/-- The region's index table, as the pipeline holds it. -/
abbrev tblw1 : Vec F S85000 .i32 := a1.1 0

/-- The gathered block of grid point t on core c. -/
def gblk1 (c : Dev nD) (t : Fin (cfg1 a1).N) : S8x128.Idx → Elt F .f32 :=
  gath1 ((cfg1 a1).grid.coords t) (tblw1 a1) (V c main_v33)

/-- The point's number is its one coordinate. -/
theorem coords1_val (t : Fin (cfg1 a1).N) : ((cfg1 a1).grid.coords t 0).val = t.val := by
  have ht : t.val < 10625 := t.isLt
  show t.val / 1 % 10625 = t.val
  rw [Nat.div_one, Nat.mod_eq_of_lt ht]

/-- The gathered block read at row j, column l: the array at the row table word 8 t + j names. -/
theorem gblk1_apply (hlt : ∀ k : S85000.Idx, (tblw1 a1 k).toNat < 50000) (c : Dev nD) (t : Fin (cfg1 a1).N) (j : Fin 8) (l : Fin 128) :
    gblk1 V a1 c t (ValueIdx.ix2 j l)
      = V c main_v33 (ValueIdx.ix2 (⟨(tblw1 a1 (ValueIdx.ix1 (⟨8 * t.val + j.val, by
          have ht : t.val < 10625 := t.isLt
          omega⟩ : Fin 85000))).toNat, hlt _⟩ : Fin 50000) l) :=
  gath1_apply ((cfg1 a1).grid.coords t) (tblw1 a1) (V c main_v33) hlt j l (8 * t.val + j.val) (by rw [coords1_val]) _

end Cert.Kernel.Hand

end
-- ==== Proof.K.GatherDef2.lean ====
/-
  Region 2's gathered block, as a function.

  At grid point i region 2 leaves in its 8 x 128 output block, at row j and column l, the 50000 x 128 array's element at
  row (table word 8 i + j) and column l. gath2 is that block as a function of the point, the table and the array (total:
  a word is clamped to the array's last row, which changes nothing when every word is a row); gblk2 is the block of point
  t at the region's own table and array; gblk2_apply reads it at a row and a column.
-/
import proofs.«402049_j87351044866139_2_alg».proof.Proof.K.Gather2
import Idealize.ShloMosaic.Lib.ValueIdx

set_option maxRecDepth 16384

noncomputable section

namespace Cert.Kernel.Hand

open Idealize.ShloMosaic Idealize.ShloMosaic.TcCoe
open Idealize.ShloMosaic.Pipeline (Dat Cfg Window)
open Cert.Kernel Cert.Kernel.Gen

variable {F : FTy → Type} [FloatOps F]

/-! ## What the point writes -/

/-- The block the body leaves at grid point i: row j, column l is the array's row named by table word 8 i + j, column l.
    The word is clamped to the array's last row, so that the block is a total function of the table; under the table's
    range hypothesis the clamp does nothing. -/
def gath2 (i : grid2.Coords) (tbl : Vec F S85000 .i32) (A : Vec F S50000x128 .f32) : Vec F S8x128 .f32 := fun y =>
  A (ValueIdx.ix2 (⟨min (tbl (ValueIdx.ix1 (⟨8 * (i 0).val + (y 0).val, by
      have hi : (i 0).val < 10625 := (i 0).isLt
      have hy : (y 0).val < 8 := (y 0).isLt
      omega⟩ : Fin 85000))).toNat 49999, by omega⟩ : Fin 50000) (y 1 : Fin 128))

/-- The block at row j, column l, when the table's words are rows of the array: the array at that row and column. The
    table position is given as p with its equation, so that a caller states it in its own spelling. -/
theorem gath2_apply (i : grid2.Coords) (tbl : Vec F S85000 .i32) (A : Vec F S50000x128 .f32)
    (htbl : ∀ k, (tbl k).toNat < 50000) (j : Fin 8) (l : Fin 128) (p : ℕ) (hp : p = 8 * (i 0).val + j.val) (hp' : p < 85000) :
    gath2 i tbl A (ValueIdx.ix2 j l)
      = A (ValueIdx.ix2 (⟨(tbl (ValueIdx.ix1 (⟨p, hp'⟩ : Fin 85000))).toNat, htbl _⟩ : Fin 50000) l) := by
  subst hp
  have hm : min (tbl (ValueIdx.ix1 (⟨8 * (i 0).val + j.val, hp'⟩ : Fin 85000))).toNat 49999
      = (tbl (ValueIdx.ix1 (⟨8 * (i 0).val + j.val, hp'⟩ : Fin 85000))).toNat :=
    Nat.min_eq_left (by have := htbl (ValueIdx.ix1 (⟨8 * (i 0).val + j.val, hp'⟩ : Fin 85000)); omega)
  exact congrArg A (congrArg (fun r : Fin 50000 => ValueIdx.ix2 r l) (Fin.ext hm))

/-- The block on row j is the array on the row table word 8 i + j names: an element of the block on that row and an
    element of the array on that row, in the same column, are equal. -/
theorem gath2_row (i : grid2.Coords) (tbl : Vec F S85000 .i32) (A : Vec F S50000x128 .f32)
    (htbl : ∀ k, (tbl k).toNat < 50000) (j p : ℕ) (hp : p = 8 * (i 0).val + j) (hp' : p < 85000)
    (y : S8x128.Idx) (z : S50000x128.Idx) (hy : (y 0).val = j)
    (hz0 : (z 0).val = (tbl (ValueIdx.ix1 (⟨p, hp'⟩ : Fin 85000))).toNat) (hz1 : (z 1).val = (y 1).val) :
    gath2 i tbl A y = A z := by
  subst hp
  subst hy
  unfold gath2
  refine congrArg A (funext fun a => ?_)
  match a with
  | ⟨0, _⟩ =>
    refine Fin.ext ?_
    show min (tbl (ValueIdx.ix1 (⟨8 * (i 0).val + (y 0).val, _⟩ : Fin 85000))).toNat 49999 = (z 0).val
    rw [hz0]
    exact Nat.min_eq_left (by have := htbl (ValueIdx.ix1 (⟨8 * (i 0).val + (y 0).val, hp'⟩ : Fin 85000)); omega)
  | ⟨1, _⟩ => exact Fin.ext hz1.symm
variable (V : (c : Dev nD) → (b : Ref sig .tc) → Buf (Elt F) ((c : Thread nD τ).loc b))
variable (a2 : (pcfg2 (F := F)).Adm)

/-- The region's index table, as the pipeline holds it. -/
abbrev tblw2 : Vec F S85000 .i32 := a2.1 0

/-- The gathered block of grid point t on core c. -/
def gblk2 (c : Dev nD) (t : Fin (cfg2 a2).N) : S8x128.Idx → Elt F .f32 :=
  gath2 ((cfg2 a2).grid.coords t) (tblw2 a2) (V c main_v33)

/-- The point's number is its one coordinate. -/
theorem coords2_val (t : Fin (cfg2 a2).N) : ((cfg2 a2).grid.coords t 0).val = t.val := by
  have ht : t.val < 10625 := t.isLt
  show t.val / 1 % 10625 = t.val
  rw [Nat.div_one, Nat.mod_eq_of_lt ht]

/-- The gathered block read at row j, column l: the array at the row table word 8 t + j names. -/
theorem gblk2_apply (hlt : ∀ k : S85000.Idx, (tblw2 a2 k).toNat < 50000) (c : Dev nD) (t : Fin (cfg2 a2).N) (j : Fin 8) (l : Fin 128) :
    gblk2 V a2 c t (ValueIdx.ix2 j l)
      = V c main_v33 (ValueIdx.ix2 (⟨(tblw2 a2 (ValueIdx.ix1 (⟨8 * t.val + j.val, by
          have ht : t.val < 10625 := t.isLt
          omega⟩ : Fin 85000))).toNat, hlt _⟩ : Fin 50000) l) :=
  gath2_apply ((cfg2 a2).grid.coords t) (tblw2 a2) (V c main_v33) hlt j l (8 * t.val + j.val) (by rw [coords2_val]) _

end Cert.Kernel.Hand

end
-- ==== Proof.K.GatherDef3.lean ====
/-
  Region 3's gathered block, as a function.

  At grid point i region 3 leaves in its 8 x 128 output block, at row j and column l, the 50000 x 128 array's element at
  row (table word 8 i + j) and column l. gath3 is that block as a function of the point, the table and the array (total:
  a word is clamped to the array's last row, which changes nothing when every word is a row); gblk3 is the block of point
  t at the region's own table and array; gblk3_apply reads it at a row and a column.
-/
import proofs.«402049_j87351044866139_2_alg».proof.Proof.K.Gather3
import Idealize.ShloMosaic.Lib.ValueIdx

set_option maxRecDepth 16384

noncomputable section

namespace Cert.Kernel.Hand

open Idealize.ShloMosaic Idealize.ShloMosaic.TcCoe
open Idealize.ShloMosaic.Pipeline (Dat Cfg Window)
open Cert.Kernel Cert.Kernel.Gen

variable {F : FTy → Type} [FloatOps F]

/-! ## What the point writes -/

/-- The block the body leaves at grid point i: row j, column l is the array's row named by table word 8 i + j, column l.
    The word is clamped to the array's last row, so that the block is a total function of the table; under the table's
    range hypothesis the clamp does nothing. -/
def gath3 (i : grid3.Coords) (tbl : Vec F S85000 .i32) (A : Vec F S50000x128 .f32) : Vec F S8x128 .f32 := fun y =>
  A (ValueIdx.ix2 (⟨min (tbl (ValueIdx.ix1 (⟨8 * (i 0).val + (y 0).val, by
      have hi : (i 0).val < 10625 := (i 0).isLt
      have hy : (y 0).val < 8 := (y 0).isLt
      omega⟩ : Fin 85000))).toNat 49999, by omega⟩ : Fin 50000) (y 1 : Fin 128))

/-- The block at row j, column l, when the table's words are rows of the array: the array at that row and column. The
    table position is given as p with its equation, so that a caller states it in its own spelling. -/
theorem gath3_apply (i : grid3.Coords) (tbl : Vec F S85000 .i32) (A : Vec F S50000x128 .f32)
    (htbl : ∀ k, (tbl k).toNat < 50000) (j : Fin 8) (l : Fin 128) (p : ℕ) (hp : p = 8 * (i 0).val + j.val) (hp' : p < 85000) :
    gath3 i tbl A (ValueIdx.ix2 j l)
      = A (ValueIdx.ix2 (⟨(tbl (ValueIdx.ix1 (⟨p, hp'⟩ : Fin 85000))).toNat, htbl _⟩ : Fin 50000) l) := by
  subst hp
  have hm : min (tbl (ValueIdx.ix1 (⟨8 * (i 0).val + j.val, hp'⟩ : Fin 85000))).toNat 49999
      = (tbl (ValueIdx.ix1 (⟨8 * (i 0).val + j.val, hp'⟩ : Fin 85000))).toNat :=
    Nat.min_eq_left (by have := htbl (ValueIdx.ix1 (⟨8 * (i 0).val + j.val, hp'⟩ : Fin 85000)); omega)
  exact congrArg A (congrArg (fun r : Fin 50000 => ValueIdx.ix2 r l) (Fin.ext hm))

/-- The block on row j is the array on the row table word 8 i + j names: an element of the block on that row and an
    element of the array on that row, in the same column, are equal. -/
theorem gath3_row (i : grid3.Coords) (tbl : Vec F S85000 .i32) (A : Vec F S50000x128 .f32)
    (htbl : ∀ k, (tbl k).toNat < 50000) (j p : ℕ) (hp : p = 8 * (i 0).val + j) (hp' : p < 85000)
    (y : S8x128.Idx) (z : S50000x128.Idx) (hy : (y 0).val = j)
    (hz0 : (z 0).val = (tbl (ValueIdx.ix1 (⟨p, hp'⟩ : Fin 85000))).toNat) (hz1 : (z 1).val = (y 1).val) :
    gath3 i tbl A y = A z := by
  subst hp
  subst hy
  unfold gath3
  refine congrArg A (funext fun a => ?_)
  match a with
  | ⟨0, _⟩ =>
    refine Fin.ext ?_
    show min (tbl (ValueIdx.ix1 (⟨8 * (i 0).val + (y 0).val, _⟩ : Fin 85000))).toNat 49999 = (z 0).val
    rw [hz0]
    exact Nat.min_eq_left (by have := htbl (ValueIdx.ix1 (⟨8 * (i 0).val + (y 0).val, hp'⟩ : Fin 85000)); omega)
  | ⟨1, _⟩ => exact Fin.ext hz1.symm
variable (V : (c : Dev nD) → (b : Ref sig .tc) → Buf (Elt F) ((c : Thread nD τ).loc b))
variable (a3 : (pcfg3 (F := F)).Adm)

/-- The region's index table, as the pipeline holds it. -/
abbrev tblw3 : Vec F S85000 .i32 := a3.1 0

/-- The gathered block of grid point t on core c. -/
def gblk3 (c : Dev nD) (t : Fin (cfg3 a3).N) : S8x128.Idx → Elt F .f32 :=
  gath3 ((cfg3 a3).grid.coords t) (tblw3 a3) (V c main_v33)

/-- The point's number is its one coordinate. -/
theorem coords3_val (t : Fin (cfg3 a3).N) : ((cfg3 a3).grid.coords t 0).val = t.val := by
  have ht : t.val < 10625 := t.isLt
  show t.val / 1 % 10625 = t.val
  rw [Nat.div_one, Nat.mod_eq_of_lt ht]

/-- The gathered block read at row j, column l: the array at the row table word 8 t + j names. -/
theorem gblk3_apply (hlt : ∀ k : S85000.Idx, (tblw3 a3 k).toNat < 50000) (c : Dev nD) (t : Fin (cfg3 a3).N) (j : Fin 8) (l : Fin 128) :
    gblk3 V a3 c t (ValueIdx.ix2 j l)
      = V c main_v33 (ValueIdx.ix2 (⟨(tblw3 a3 (ValueIdx.ix1 (⟨8 * t.val + j.val, by
          have ht : t.val < 10625 := t.isLt
          omega⟩ : Fin 85000))).toNat, hlt _⟩ : Fin 50000) l) :=
  gath3_apply ((cfg3 a3).grid.coords t) (tblw3 a3) (V c main_v33) hlt j l (8 * t.val + j.val) (by rw [coords3_val]) _

end Cert.Kernel.Hand

end
-- ==== Proof.K.GatherDef4.lean ====
/-
  Region 4's gathered block, as a function.

  At grid point i region 4 leaves in its 8 x 128 output block, at row j and column l, the 50000 x 128 array's element at
  row (table word 8 i + j) and column l. gath4 is that block as a function of the point, the table and the array (total:
  a word is clamped to the array's last row, which changes nothing when every word is a row); gblk4 is the block of point
  t at the region's own table and array; gblk4_apply reads it at a row and a column.
-/
import proofs.«402049_j87351044866139_2_alg».proof.Proof.K.Gather4
import Idealize.ShloMosaic.Lib.ValueIdx

set_option maxRecDepth 16384

noncomputable section

namespace Cert.Kernel.Hand

open Idealize.ShloMosaic Idealize.ShloMosaic.TcCoe
open Idealize.ShloMosaic.Pipeline (Dat Cfg Window)
open Cert.Kernel Cert.Kernel.Gen

variable {F : FTy → Type} [FloatOps F]

/-! ## What the point writes -/

/-- The block the body leaves at grid point i: row j, column l is the array's row named by table word 8 i + j, column l.
    The word is clamped to the array's last row, so that the block is a total function of the table; under the table's
    range hypothesis the clamp does nothing. -/
def gath4 (i : grid4.Coords) (tbl : Vec F S85000 .i32) (A : Vec F S50000x128 .f32) : Vec F S8x128 .f32 := fun y =>
  A (ValueIdx.ix2 (⟨min (tbl (ValueIdx.ix1 (⟨8 * (i 0).val + (y 0).val, by
      have hi : (i 0).val < 10625 := (i 0).isLt
      have hy : (y 0).val < 8 := (y 0).isLt
      omega⟩ : Fin 85000))).toNat 49999, by omega⟩ : Fin 50000) (y 1 : Fin 128))

/-- The block at row j, column l, when the table's words are rows of the array: the array at that row and column. The
    table position is given as p with its equation, so that a caller states it in its own spelling. -/
theorem gath4_apply (i : grid4.Coords) (tbl : Vec F S85000 .i32) (A : Vec F S50000x128 .f32)
    (htbl : ∀ k, (tbl k).toNat < 50000) (j : Fin 8) (l : Fin 128) (p : ℕ) (hp : p = 8 * (i 0).val + j.val) (hp' : p < 85000) :
    gath4 i tbl A (ValueIdx.ix2 j l)
      = A (ValueIdx.ix2 (⟨(tbl (ValueIdx.ix1 (⟨p, hp'⟩ : Fin 85000))).toNat, htbl _⟩ : Fin 50000) l) := by
  subst hp
  have hm : min (tbl (ValueIdx.ix1 (⟨8 * (i 0).val + j.val, hp'⟩ : Fin 85000))).toNat 49999
      = (tbl (ValueIdx.ix1 (⟨8 * (i 0).val + j.val, hp'⟩ : Fin 85000))).toNat :=
    Nat.min_eq_left (by have := htbl (ValueIdx.ix1 (⟨8 * (i 0).val + j.val, hp'⟩ : Fin 85000)); omega)
  exact congrArg A (congrArg (fun r : Fin 50000 => ValueIdx.ix2 r l) (Fin.ext hm))

/-- The block on row j is the array on the row table word 8 i + j names: an element of the block on that row and an
    element of the array on that row, in the same column, are equal. -/
theorem gath4_row (i : grid4.Coords) (tbl : Vec F S85000 .i32) (A : Vec F S50000x128 .f32)
    (htbl : ∀ k, (tbl k).toNat < 50000) (j p : ℕ) (hp : p = 8 * (i 0).val + j) (hp' : p < 85000)
    (y : S8x128.Idx) (z : S50000x128.Idx) (hy : (y 0).val = j)
    (hz0 : (z 0).val = (tbl (ValueIdx.ix1 (⟨p, hp'⟩ : Fin 85000))).toNat) (hz1 : (z 1).val = (y 1).val) :
    gath4 i tbl A y = A z := by
  subst hp
  subst hy
  unfold gath4
  refine congrArg A (funext fun a => ?_)
  match a with
  | ⟨0, _⟩ =>
    refine Fin.ext ?_
    show min (tbl (ValueIdx.ix1 (⟨8 * (i 0).val + (y 0).val, _⟩ : Fin 85000))).toNat 49999 = (z 0).val
    rw [hz0]
    exact Nat.min_eq_left (by have := htbl (ValueIdx.ix1 (⟨8 * (i 0).val + (y 0).val, hp'⟩ : Fin 85000)); omega)
  | ⟨1, _⟩ => exact Fin.ext hz1.symm
variable (V : (c : Dev nD) → (b : Ref sig .tc) → Buf (Elt F) ((c : Thread nD τ).loc b))
variable (a4 : (pcfg4 (F := F)).Adm)

/-- The region's index table, as the pipeline holds it. -/
abbrev tblw4 : Vec F S85000 .i32 := a4.1 0

/-- The gathered block of grid point t on core c. -/
def gblk4 (c : Dev nD) (t : Fin (cfg4 a4).N) : S8x128.Idx → Elt F .f32 :=
  gath4 ((cfg4 a4).grid.coords t) (tblw4 a4) (V c main_v33)

/-- The point's number is its one coordinate. -/
theorem coords4_val (t : Fin (cfg4 a4).N) : ((cfg4 a4).grid.coords t 0).val = t.val := by
  have ht : t.val < 10625 := t.isLt
  show t.val / 1 % 10625 = t.val
  rw [Nat.div_one, Nat.mod_eq_of_lt ht]

/-- The gathered block read at row j, column l: the array at the row table word 8 t + j names. -/
theorem gblk4_apply (hlt : ∀ k : S85000.Idx, (tblw4 a4 k).toNat < 50000) (c : Dev nD) (t : Fin (cfg4 a4).N) (j : Fin 8) (l : Fin 128) :
    gblk4 V a4 c t (ValueIdx.ix2 j l)
      = V c main_v33 (ValueIdx.ix2 (⟨(tblw4 a4 (ValueIdx.ix1 (⟨8 * t.val + j.val, by
          have ht : t.val < 10625 := t.isLt
          omega⟩ : Fin 85000))).toNat, hlt _⟩ : Fin 50000) l) :=
  gath4_apply ((cfg4 a4).grid.coords t) (tblw4 a4) (V c main_v33) hlt j l (8 * t.val + j.val) (by rw [coords4_val]) _

end Cert.Kernel.Hand

end
-- ==== Proof.K.GatherDef5.lean ====
/-
  Region 5's gathered block, as a function.

  At grid point i region 5 leaves in its 8 x 128 output block, at row j and column l, the 50000 x 128 array's element at
  row (table word 8 i + j) and column l. gath5 is that block as a function of the point, the table and the array (total:
  a word is clamped to the array's last row, which changes nothing when every word is a row); gblk5 is the block of point
  t at the region's own table and array; gblk5_apply reads it at a row and a column.
-/
import proofs.«402049_j87351044866139_2_alg».proof.Proof.K.Gather5
import Idealize.ShloMosaic.Lib.ValueIdx

set_option maxRecDepth 16384

noncomputable section

namespace Cert.Kernel.Hand

open Idealize.ShloMosaic Idealize.ShloMosaic.TcCoe
open Idealize.ShloMosaic.Pipeline (Dat Cfg Window)
open Cert.Kernel Cert.Kernel.Gen

variable {F : FTy → Type} [FloatOps F]

/-! ## What the point writes -/

/-- The block the body leaves at grid point i: row j, column l is the array's row named by table word 8 i + j, column l.
    The word is clamped to the array's last row, so that the block is a total function of the table; under the table's
    range hypothesis the clamp does nothing. -/
def gath5 (i : grid5.Coords) (tbl : Vec F S85000 .i32) (A : Vec F S50000x128 .f32) : Vec F S8x128 .f32 := fun y =>
  A (ValueIdx.ix2 (⟨min (tbl (ValueIdx.ix1 (⟨8 * (i 0).val + (y 0).val, by
      have hi : (i 0).val < 10625 := (i 0).isLt
      have hy : (y 0).val < 8 := (y 0).isLt
      omega⟩ : Fin 85000))).toNat 49999, by omega⟩ : Fin 50000) (y 1 : Fin 128))

/-- The block at row j, column l, when the table's words are rows of the array: the array at that row and column. The
    table position is given as p with its equation, so that a caller states it in its own spelling. -/
theorem gath5_apply (i : grid5.Coords) (tbl : Vec F S85000 .i32) (A : Vec F S50000x128 .f32)
    (htbl : ∀ k, (tbl k).toNat < 50000) (j : Fin 8) (l : Fin 128) (p : ℕ) (hp : p = 8 * (i 0).val + j.val) (hp' : p < 85000) :
    gath5 i tbl A (ValueIdx.ix2 j l)
      = A (ValueIdx.ix2 (⟨(tbl (ValueIdx.ix1 (⟨p, hp'⟩ : Fin 85000))).toNat, htbl _⟩ : Fin 50000) l) := by
  subst hp
  have hm : min (tbl (ValueIdx.ix1 (⟨8 * (i 0).val + j.val, hp'⟩ : Fin 85000))).toNat 49999
      = (tbl (ValueIdx.ix1 (⟨8 * (i 0).val + j.val, hp'⟩ : Fin 85000))).toNat :=
    Nat.min_eq_left (by have := htbl (ValueIdx.ix1 (⟨8 * (i 0).val + j.val, hp'⟩ : Fin 85000)); omega)
  exact congrArg A (congrArg (fun r : Fin 50000 => ValueIdx.ix2 r l) (Fin.ext hm))

/-- The block on row j is the array on the row table word 8 i + j names: an element of the block on that row and an
    element of the array on that row, in the same column, are equal. -/
theorem gath5_row (i : grid5.Coords) (tbl : Vec F S85000 .i32) (A : Vec F S50000x128 .f32)
    (htbl : ∀ k, (tbl k).toNat < 50000) (j p : ℕ) (hp : p = 8 * (i 0).val + j) (hp' : p < 85000)
    (y : S8x128.Idx) (z : S50000x128.Idx) (hy : (y 0).val = j)
    (hz0 : (z 0).val = (tbl (ValueIdx.ix1 (⟨p, hp'⟩ : Fin 85000))).toNat) (hz1 : (z 1).val = (y 1).val) :
    gath5 i tbl A y = A z := by
  subst hp
  subst hy
  unfold gath5
  refine congrArg A (funext fun a => ?_)
  match a with
  | ⟨0, _⟩ =>
    refine Fin.ext ?_
    show min (tbl (ValueIdx.ix1 (⟨8 * (i 0).val + (y 0).val, _⟩ : Fin 85000))).toNat 49999 = (z 0).val
    rw [hz0]
    exact Nat.min_eq_left (by have := htbl (ValueIdx.ix1 (⟨8 * (i 0).val + (y 0).val, hp'⟩ : Fin 85000)); omega)
  | ⟨1, _⟩ => exact Fin.ext hz1.symm
variable (V : (c : Dev nD) → (b : Ref sig .tc) → Buf (Elt F) ((c : Thread nD τ).loc b))
variable (a5 : (pcfg5 (F := F)).Adm)

/-- The region's index table, as the pipeline holds it. -/
abbrev tblw5 : Vec F S85000 .i32 := a5.1 0

/-- The gathered block of grid point t on core c. -/
def gblk5 (c : Dev nD) (t : Fin (cfg5 a5).N) : S8x128.Idx → Elt F .f32 :=
  gath5 ((cfg5 a5).grid.coords t) (tblw5 a5) (V c main_v33)

/-- The point's number is its one coordinate. -/
theorem coords5_val (t : Fin (cfg5 a5).N) : ((cfg5 a5).grid.coords t 0).val = t.val := by
  have ht : t.val < 10625 := t.isLt
  show t.val / 1 % 10625 = t.val
  rw [Nat.div_one, Nat.mod_eq_of_lt ht]

/-- The gathered block read at row j, column l: the array at the row table word 8 t + j names. -/
theorem gblk5_apply (hlt : ∀ k : S85000.Idx, (tblw5 a5 k).toNat < 50000) (c : Dev nD) (t : Fin (cfg5 a5).N) (j : Fin 8) (l : Fin 128) :
    gblk5 V a5 c t (ValueIdx.ix2 j l)
      = V c main_v33 (ValueIdx.ix2 (⟨(tblw5 a5 (ValueIdx.ix1 (⟨8 * t.val + j.val, by
          have ht : t.val < 10625 := t.isLt
          omega⟩ : Fin 85000))).toNat, hlt _⟩ : Fin 50000) l) :=
  gath5_apply ((cfg5 a5).grid.coords t) (tblw5 a5) (V c main_v33) hlt j l (8 * t.val + j.val) (by rw [coords5_val]) _

end Cert.Kernel.Hand

end
-- ==== Proof.K.GatherDef6.lean ====
/-
  Region 6's gathered block, as a function.

  At grid point i region 6 leaves in its 8 x 128 output block, at row j and column l, the 50000 x 128 array's element at
  row (table word 8 i + j) and column l. gath6 is that block as a function of the point, the table and the array (total:
  a word is clamped to the array's last row, which changes nothing when every word is a row); gblk6 is the block of point
  t at the region's own table and array; gblk6_apply reads it at a row and a column.
-/
import proofs.«402049_j87351044866139_2_alg».proof.Proof.K.Gather6
import Idealize.ShloMosaic.Lib.ValueIdx

set_option maxRecDepth 16384

noncomputable section

namespace Cert.Kernel.Hand

open Idealize.ShloMosaic Idealize.ShloMosaic.TcCoe
open Idealize.ShloMosaic.Pipeline (Dat Cfg Window)
open Cert.Kernel Cert.Kernel.Gen

variable {F : FTy → Type} [FloatOps F]

/-! ## What the point writes -/

/-- The block the body leaves at grid point i: row j, column l is the array's row named by table word 8 i + j, column l.
    The word is clamped to the array's last row, so that the block is a total function of the table; under the table's
    range hypothesis the clamp does nothing. -/
def gath6 (i : grid6.Coords) (tbl : Vec F S85000 .i32) (A : Vec F S50000x128 .f32) : Vec F S8x128 .f32 := fun y =>
  A (ValueIdx.ix2 (⟨min (tbl (ValueIdx.ix1 (⟨8 * (i 0).val + (y 0).val, by
      have hi : (i 0).val < 10625 := (i 0).isLt
      have hy : (y 0).val < 8 := (y 0).isLt
      omega⟩ : Fin 85000))).toNat 49999, by omega⟩ : Fin 50000) (y 1 : Fin 128))

/-- The block at row j, column l, when the table's words are rows of the array: the array at that row and column. The
    table position is given as p with its equation, so that a caller states it in its own spelling. -/
theorem gath6_apply (i : grid6.Coords) (tbl : Vec F S85000 .i32) (A : Vec F S50000x128 .f32)
    (htbl : ∀ k, (tbl k).toNat < 50000) (j : Fin 8) (l : Fin 128) (p : ℕ) (hp : p = 8 * (i 0).val + j.val) (hp' : p < 85000) :
    gath6 i tbl A (ValueIdx.ix2 j l)
      = A (ValueIdx.ix2 (⟨(tbl (ValueIdx.ix1 (⟨p, hp'⟩ : Fin 85000))).toNat, htbl _⟩ : Fin 50000) l) := by
  subst hp
  have hm : min (tbl (ValueIdx.ix1 (⟨8 * (i 0).val + j.val, hp'⟩ : Fin 85000))).toNat 49999
      = (tbl (ValueIdx.ix1 (⟨8 * (i 0).val + j.val, hp'⟩ : Fin 85000))).toNat :=
    Nat.min_eq_left (by have := htbl (ValueIdx.ix1 (⟨8 * (i 0).val + j.val, hp'⟩ : Fin 85000)); omega)
  exact congrArg A (congrArg (fun r : Fin 50000 => ValueIdx.ix2 r l) (Fin.ext hm))

/-- The block on row j is the array on the row table word 8 i + j names: an element of the block on that row and an
    element of the array on that row, in the same column, are equal. -/
theorem gath6_row (i : grid6.Coords) (tbl : Vec F S85000 .i32) (A : Vec F S50000x128 .f32)
    (htbl : ∀ k, (tbl k).toNat < 50000) (j p : ℕ) (hp : p = 8 * (i 0).val + j) (hp' : p < 85000)
    (y : S8x128.Idx) (z : S50000x128.Idx) (hy : (y 0).val = j)
    (hz0 : (z 0).val = (tbl (ValueIdx.ix1 (⟨p, hp'⟩ : Fin 85000))).toNat) (hz1 : (z 1).val = (y 1).val) :
    gath6 i tbl A y = A z := by
  subst hp
  subst hy
  unfold gath6
  refine congrArg A (funext fun a => ?_)
  match a with
  | ⟨0, _⟩ =>
    refine Fin.ext ?_
    show min (tbl (ValueIdx.ix1 (⟨8 * (i 0).val + (y 0).val, _⟩ : Fin 85000))).toNat 49999 = (z 0).val
    rw [hz0]
    exact Nat.min_eq_left (by have := htbl (ValueIdx.ix1 (⟨8 * (i 0).val + (y 0).val, hp'⟩ : Fin 85000)); omega)
  | ⟨1, _⟩ => exact Fin.ext hz1.symm
variable (V : (c : Dev nD) → (b : Ref sig .tc) → Buf (Elt F) ((c : Thread nD τ).loc b))
variable (a6 : (pcfg6 (F := F)).Adm)

/-- The region's index table, as the pipeline holds it. -/
abbrev tblw6 : Vec F S85000 .i32 := a6.1 0

/-- The gathered block of grid point t on core c. -/
def gblk6 (c : Dev nD) (t : Fin (cfg6 a6).N) : S8x128.Idx → Elt F .f32 :=
  gath6 ((cfg6 a6).grid.coords t) (tblw6 a6) (V c main_v33)

/-- The point's number is its one coordinate. -/
theorem coords6_val (t : Fin (cfg6 a6).N) : ((cfg6 a6).grid.coords t 0).val = t.val := by
  have ht : t.val < 10625 := t.isLt
  show t.val / 1 % 10625 = t.val
  rw [Nat.div_one, Nat.mod_eq_of_lt ht]

/-- The gathered block read at row j, column l: the array at the row table word 8 t + j names. -/
theorem gblk6_apply (hlt : ∀ k : S85000.Idx, (tblw6 a6 k).toNat < 50000) (c : Dev nD) (t : Fin (cfg6 a6).N) (j : Fin 8) (l : Fin 128) :
    gblk6 V a6 c t (ValueIdx.ix2 j l)
      = V c main_v33 (ValueIdx.ix2 (⟨(tblw6 a6 (ValueIdx.ix1 (⟨8 * t.val + j.val, by
          have ht : t.val < 10625 := t.isLt
          omega⟩ : Fin 85000))).toNat, hlt _⟩ : Fin 50000) l) :=
  gath6_apply ((cfg6 a6).grid.coords t) (tblw6 a6) (V c main_v33) hlt j l (8 * t.val + j.val) (by rw [coords6_val]) _

end Cert.Kernel.Hand

end
-- ==== Proof.K.GatherDef7.lean ====
/-
  Region 7's gathered block, as a function.

  At grid point i region 7 leaves in its 8 x 128 output block, at row j and column l, the 50000 x 128 array's element at
  row (table word 8 i + j) and column l. gath7 is that block as a function of the point, the table and the array (total:
  a word is clamped to the array's last row, which changes nothing when every word is a row); gblk7 is the block of point
  t at the region's own table and array; gblk7_apply reads it at a row and a column.
-/
import proofs.«402049_j87351044866139_2_alg».proof.Proof.K.Gather7
import Idealize.ShloMosaic.Lib.ValueIdx

set_option maxRecDepth 16384

noncomputable section

namespace Cert.Kernel.Hand

open Idealize.ShloMosaic Idealize.ShloMosaic.TcCoe
open Idealize.ShloMosaic.Pipeline (Dat Cfg Window)
open Cert.Kernel Cert.Kernel.Gen

variable {F : FTy → Type} [FloatOps F]

/-! ## What the point writes -/

/-- The block the body leaves at grid point i: row j, column l is the array's row named by table word 8 i + j, column l.
    The word is clamped to the array's last row, so that the block is a total function of the table; under the table's
    range hypothesis the clamp does nothing. -/
def gath7 (i : grid7.Coords) (tbl : Vec F S85000 .i32) (A : Vec F S50000x128 .f32) : Vec F S8x128 .f32 := fun y =>
  A (ValueIdx.ix2 (⟨min (tbl (ValueIdx.ix1 (⟨8 * (i 0).val + (y 0).val, by
      have hi : (i 0).val < 10625 := (i 0).isLt
      have hy : (y 0).val < 8 := (y 0).isLt
      omega⟩ : Fin 85000))).toNat 49999, by omega⟩ : Fin 50000) (y 1 : Fin 128))

/-- The block at row j, column l, when the table's words are rows of the array: the array at that row and column. The
    table position is given as p with its equation, so that a caller states it in its own spelling. -/
theorem gath7_apply (i : grid7.Coords) (tbl : Vec F S85000 .i32) (A : Vec F S50000x128 .f32)
    (htbl : ∀ k, (tbl k).toNat < 50000) (j : Fin 8) (l : Fin 128) (p : ℕ) (hp : p = 8 * (i 0).val + j.val) (hp' : p < 85000) :
    gath7 i tbl A (ValueIdx.ix2 j l)
      = A (ValueIdx.ix2 (⟨(tbl (ValueIdx.ix1 (⟨p, hp'⟩ : Fin 85000))).toNat, htbl _⟩ : Fin 50000) l) := by
  subst hp
  have hm : min (tbl (ValueIdx.ix1 (⟨8 * (i 0).val + j.val, hp'⟩ : Fin 85000))).toNat 49999
      = (tbl (ValueIdx.ix1 (⟨8 * (i 0).val + j.val, hp'⟩ : Fin 85000))).toNat :=
    Nat.min_eq_left (by have := htbl (ValueIdx.ix1 (⟨8 * (i 0).val + j.val, hp'⟩ : Fin 85000)); omega)
  exact congrArg A (congrArg (fun r : Fin 50000 => ValueIdx.ix2 r l) (Fin.ext hm))

/-- The block on row j is the array on the row table word 8 i + j names: an element of the block on that row and an
    element of the array on that row, in the same column, are equal. -/
theorem gath7_row (i : grid7.Coords) (tbl : Vec F S85000 .i32) (A : Vec F S50000x128 .f32)
    (htbl : ∀ k, (tbl k).toNat < 50000) (j p : ℕ) (hp : p = 8 * (i 0).val + j) (hp' : p < 85000)
    (y : S8x128.Idx) (z : S50000x128.Idx) (hy : (y 0).val = j)
    (hz0 : (z 0).val = (tbl (ValueIdx.ix1 (⟨p, hp'⟩ : Fin 85000))).toNat) (hz1 : (z 1).val = (y 1).val) :
    gath7 i tbl A y = A z := by
  subst hp
  subst hy
  unfold gath7
  refine congrArg A (funext fun a => ?_)
  match a with
  | ⟨0, _⟩ =>
    refine Fin.ext ?_
    show min (tbl (ValueIdx.ix1 (⟨8 * (i 0).val + (y 0).val, _⟩ : Fin 85000))).toNat 49999 = (z 0).val
    rw [hz0]
    exact Nat.min_eq_left (by have := htbl (ValueIdx.ix1 (⟨8 * (i 0).val + (y 0).val, hp'⟩ : Fin 85000)); omega)
  | ⟨1, _⟩ => exact Fin.ext hz1.symm
variable (V : (c : Dev nD) → (b : Ref sig .tc) → Buf (Elt F) ((c : Thread nD τ).loc b))
variable (a7 : (pcfg7 (F := F)).Adm)

/-- The region's index table, as the pipeline holds it. -/
abbrev tblw7 : Vec F S85000 .i32 := a7.1 0

/-- The gathered block of grid point t on core c. -/
def gblk7 (c : Dev nD) (t : Fin (cfg7 a7).N) : S8x128.Idx → Elt F .f32 :=
  gath7 ((cfg7 a7).grid.coords t) (tblw7 a7) (V c main_v33)

/-- The point's number is its one coordinate. -/
theorem coords7_val (t : Fin (cfg7 a7).N) : ((cfg7 a7).grid.coords t 0).val = t.val := by
  have ht : t.val < 10625 := t.isLt
  show t.val / 1 % 10625 = t.val
  rw [Nat.div_one, Nat.mod_eq_of_lt ht]

/-- The gathered block read at row j, column l: the array at the row table word 8 t + j names. -/
theorem gblk7_apply (hlt : ∀ k : S85000.Idx, (tblw7 a7 k).toNat < 50000) (c : Dev nD) (t : Fin (cfg7 a7).N) (j : Fin 8) (l : Fin 128) :
    gblk7 V a7 c t (ValueIdx.ix2 j l)
      = V c main_v33 (ValueIdx.ix2 (⟨(tblw7 a7 (ValueIdx.ix1 (⟨8 * t.val + j.val, by
          have ht : t.val < 10625 := t.isLt
          omega⟩ : Fin 85000))).toNat, hlt _⟩ : Fin 50000) l) :=
  gath7_apply ((cfg7 a7).grid.coords t) (tblw7 a7) (V c main_v33) hlt j l (8 * t.val + j.val) (by rw [coords7_val]) _

end Cert.Kernel.Hand

end
-- ==== Proof.K.GatherDef8.lean ====
/-
  Region 8's gathered block, as a function.

  At grid point i region 8 leaves in its 8 x 128 output block, at row j and column l, the 50000 x 128 array's element at
  row (table word 8 i + j) and column l. gath8 is that block as a function of the point, the table and the array (total:
  a word is clamped to the array's last row, which changes nothing when every word is a row); gblk8 is the block of point
  t at the region's own table and array; gblk8_apply reads it at a row and a column.
-/
import proofs.«402049_j87351044866139_2_alg».proof.Proof.K.Gather8
import Idealize.ShloMosaic.Lib.ValueIdx

set_option maxRecDepth 16384

noncomputable section

namespace Cert.Kernel.Hand

open Idealize.ShloMosaic Idealize.ShloMosaic.TcCoe
open Idealize.ShloMosaic.Pipeline (Dat Cfg Window)
open Cert.Kernel Cert.Kernel.Gen

variable {F : FTy → Type} [FloatOps F]

/-! ## What the point writes -/

/-- The block the body leaves at grid point i: row j, column l is the array's row named by table word 8 i + j, column l.
    The word is clamped to the array's last row, so that the block is a total function of the table; under the table's
    range hypothesis the clamp does nothing. -/
def gath8 (i : grid8.Coords) (tbl : Vec F S85000 .i32) (A : Vec F S50000x128 .f32) : Vec F S8x128 .f32 := fun y =>
  A (ValueIdx.ix2 (⟨min (tbl (ValueIdx.ix1 (⟨8 * (i 0).val + (y 0).val, by
      have hi : (i 0).val < 10625 := (i 0).isLt
      have hy : (y 0).val < 8 := (y 0).isLt
      omega⟩ : Fin 85000))).toNat 49999, by omega⟩ : Fin 50000) (y 1 : Fin 128))

/-- The block at row j, column l, when the table's words are rows of the array: the array at that row and column. The
    table position is given as p with its equation, so that a caller states it in its own spelling. -/
theorem gath8_apply (i : grid8.Coords) (tbl : Vec F S85000 .i32) (A : Vec F S50000x128 .f32)
    (htbl : ∀ k, (tbl k).toNat < 50000) (j : Fin 8) (l : Fin 128) (p : ℕ) (hp : p = 8 * (i 0).val + j.val) (hp' : p < 85000) :
    gath8 i tbl A (ValueIdx.ix2 j l)
      = A (ValueIdx.ix2 (⟨(tbl (ValueIdx.ix1 (⟨p, hp'⟩ : Fin 85000))).toNat, htbl _⟩ : Fin 50000) l) := by
  subst hp
  have hm : min (tbl (ValueIdx.ix1 (⟨8 * (i 0).val + j.val, hp'⟩ : Fin 85000))).toNat 49999
      = (tbl (ValueIdx.ix1 (⟨8 * (i 0).val + j.val, hp'⟩ : Fin 85000))).toNat :=
    Nat.min_eq_left (by have := htbl (ValueIdx.ix1 (⟨8 * (i 0).val + j.val, hp'⟩ : Fin 85000)); omega)
  exact congrArg A (congrArg (fun r : Fin 50000 => ValueIdx.ix2 r l) (Fin.ext hm))

/-- The block on row j is the array on the row table word 8 i + j names: an element of the block on that row and an
    element of the array on that row, in the same column, are equal. -/
theorem gath8_row (i : grid8.Coords) (tbl : Vec F S85000 .i32) (A : Vec F S50000x128 .f32)
    (htbl : ∀ k, (tbl k).toNat < 50000) (j p : ℕ) (hp : p = 8 * (i 0).val + j) (hp' : p < 85000)
    (y : S8x128.Idx) (z : S50000x128.Idx) (hy : (y 0).val = j)
    (hz0 : (z 0).val = (tbl (ValueIdx.ix1 (⟨p, hp'⟩ : Fin 85000))).toNat) (hz1 : (z 1).val = (y 1).val) :
    gath8 i tbl A y = A z := by
  subst hp
  subst hy
  unfold gath8
  refine congrArg A (funext fun a => ?_)
  match a with
  | ⟨0, _⟩ =>
    refine Fin.ext ?_
    show min (tbl (ValueIdx.ix1 (⟨8 * (i 0).val + (y 0).val, _⟩ : Fin 85000))).toNat 49999 = (z 0).val
    rw [hz0]
    exact Nat.min_eq_left (by have := htbl (ValueIdx.ix1 (⟨8 * (i 0).val + (y 0).val, hp'⟩ : Fin 85000)); omega)
  | ⟨1, _⟩ => exact Fin.ext hz1.symm
variable (V : (c : Dev nD) → (b : Ref sig .tc) → Buf (Elt F) ((c : Thread nD τ).loc b))
variable (a8 : (pcfg8 (F := F)).Adm)

/-- The region's index table, as the pipeline holds it. -/
abbrev tblw8 : Vec F S85000 .i32 := a8.1 0

/-- The gathered block of grid point t on core c. -/
def gblk8 (c : Dev nD) (t : Fin (cfg8 a8).N) : S8x128.Idx → Elt F .f32 :=
  gath8 ((cfg8 a8).grid.coords t) (tblw8 a8) (V c main_v33)

/-- The point's number is its one coordinate. -/
theorem coords8_val (t : Fin (cfg8 a8).N) : ((cfg8 a8).grid.coords t 0).val = t.val := by
  have ht : t.val < 10625 := t.isLt
  show t.val / 1 % 10625 = t.val
  rw [Nat.div_one, Nat.mod_eq_of_lt ht]

/-- The gathered block read at row j, column l: the array at the row table word 8 t + j names. -/
theorem gblk8_apply (hlt : ∀ k : S85000.Idx, (tblw8 a8 k).toNat < 50000) (c : Dev nD) (t : Fin (cfg8 a8).N) (j : Fin 8) (l : Fin 128) :
    gblk8 V a8 c t (ValueIdx.ix2 j l)
      = V c main_v33 (ValueIdx.ix2 (⟨(tblw8 a8 (ValueIdx.ix1 (⟨8 * t.val + j.val, by
          have ht : t.val < 10625 := t.isLt
          omega⟩ : Fin 85000))).toNat, hlt _⟩ : Fin 50000) l) :=
  gath8_apply ((cfg8 a8).grid.coords t) (tblw8 a8) (V c main_v33) hlt j l (8 * t.val + j.val) (by rw [coords8_val]) _

end Cert.Kernel.Hand

end
-- ==== Proof.K.GatherDef9.lean ====
/-
  Region 9's gathered block, as a function.

  At grid point i region 9 leaves in its 8 x 128 output block, at row j and column l, the 50000 x 128 array's element at
  row (table word 8 i + j) and column l. gath9 is that block as a function of the point, the table and the array (total:
  a word is clamped to the array's last row, which changes nothing when every word is a row); gblk9 is the block of point
  t at the region's own table and array; gblk9_apply reads it at a row and a column.
-/
import proofs.«402049_j87351044866139_2_alg».proof.Proof.K.Gather9
import Idealize.ShloMosaic.Lib.ValueIdx

set_option maxRecDepth 16384

noncomputable section

namespace Cert.Kernel.Hand

open Idealize.ShloMosaic Idealize.ShloMosaic.TcCoe
open Idealize.ShloMosaic.Pipeline (Dat Cfg Window)
open Cert.Kernel Cert.Kernel.Gen

variable {F : FTy → Type} [FloatOps F]

/-! ## What the point writes -/

/-- The block the body leaves at grid point i: row j, column l is the array's row named by table word 8 i + j, column l.
    The word is clamped to the array's last row, so that the block is a total function of the table; under the table's
    range hypothesis the clamp does nothing. -/
def gath9 (i : grid9.Coords) (tbl : Vec F S85000 .i32) (A : Vec F S50000x128 .f32) : Vec F S8x128 .f32 := fun y =>
  A (ValueIdx.ix2 (⟨min (tbl (ValueIdx.ix1 (⟨8 * (i 0).val + (y 0).val, by
      have hi : (i 0).val < 10625 := (i 0).isLt
      have hy : (y 0).val < 8 := (y 0).isLt
      omega⟩ : Fin 85000))).toNat 49999, by omega⟩ : Fin 50000) (y 1 : Fin 128))

/-- The block at row j, column l, when the table's words are rows of the array: the array at that row and column. The
    table position is given as p with its equation, so that a caller states it in its own spelling. -/
theorem gath9_apply (i : grid9.Coords) (tbl : Vec F S85000 .i32) (A : Vec F S50000x128 .f32)
    (htbl : ∀ k, (tbl k).toNat < 50000) (j : Fin 8) (l : Fin 128) (p : ℕ) (hp : p = 8 * (i 0).val + j.val) (hp' : p < 85000) :
    gath9 i tbl A (ValueIdx.ix2 j l)
      = A (ValueIdx.ix2 (⟨(tbl (ValueIdx.ix1 (⟨p, hp'⟩ : Fin 85000))).toNat, htbl _⟩ : Fin 50000) l) := by
  subst hp
  have hm : min (tbl (ValueIdx.ix1 (⟨8 * (i 0).val + j.val, hp'⟩ : Fin 85000))).toNat 49999
      = (tbl (ValueIdx.ix1 (⟨8 * (i 0).val + j.val, hp'⟩ : Fin 85000))).toNat :=
    Nat.min_eq_left (by have := htbl (ValueIdx.ix1 (⟨8 * (i 0).val + j.val, hp'⟩ : Fin 85000)); omega)
  exact congrArg A (congrArg (fun r : Fin 50000 => ValueIdx.ix2 r l) (Fin.ext hm))

/-- The block on row j is the array on the row table word 8 i + j names: an element of the block on that row and an
    element of the array on that row, in the same column, are equal. -/
theorem gath9_row (i : grid9.Coords) (tbl : Vec F S85000 .i32) (A : Vec F S50000x128 .f32)
    (htbl : ∀ k, (tbl k).toNat < 50000) (j p : ℕ) (hp : p = 8 * (i 0).val + j) (hp' : p < 85000)
    (y : S8x128.Idx) (z : S50000x128.Idx) (hy : (y 0).val = j)
    (hz0 : (z 0).val = (tbl (ValueIdx.ix1 (⟨p, hp'⟩ : Fin 85000))).toNat) (hz1 : (z 1).val = (y 1).val) :
    gath9 i tbl A y = A z := by
  subst hp
  subst hy
  unfold gath9
  refine congrArg A (funext fun a => ?_)
  match a with
  | ⟨0, _⟩ =>
    refine Fin.ext ?_
    show min (tbl (ValueIdx.ix1 (⟨8 * (i 0).val + (y 0).val, _⟩ : Fin 85000))).toNat 49999 = (z 0).val
    rw [hz0]
    exact Nat.min_eq_left (by have := htbl (ValueIdx.ix1 (⟨8 * (i 0).val + (y 0).val, hp'⟩ : Fin 85000)); omega)
  | ⟨1, _⟩ => exact Fin.ext hz1.symm
variable (V : (c : Dev nD) → (b : Ref sig .tc) → Buf (Elt F) ((c : Thread nD τ).loc b))
variable (a9 : (pcfg9 (F := F)).Adm)

/-- The region's index table, as the pipeline holds it. -/
abbrev tblw9 : Vec F S85000 .i32 := a9.1 0

/-- The gathered block of grid point t on core c. -/
def gblk9 (c : Dev nD) (t : Fin (cfg9 a9).N) : S8x128.Idx → Elt F .f32 :=
  gath9 ((cfg9 a9).grid.coords t) (tblw9 a9) (V c main_v33)

/-- The point's number is its one coordinate. -/
theorem coords9_val (t : Fin (cfg9 a9).N) : ((cfg9 a9).grid.coords t 0).val = t.val := by
  have ht : t.val < 10625 := t.isLt
  show t.val / 1 % 10625 = t.val
  rw [Nat.div_one, Nat.mod_eq_of_lt ht]

/-- The gathered block read at row j, column l: the array at the row table word 8 t + j names. -/
theorem gblk9_apply (hlt : ∀ k : S85000.Idx, (tblw9 a9 k).toNat < 50000) (c : Dev nD) (t : Fin (cfg9 a9).N) (j : Fin 8) (l : Fin 128) :
    gblk9 V a9 c t (ValueIdx.ix2 j l)
      = V c main_v33 (ValueIdx.ix2 (⟨(tblw9 a9 (ValueIdx.ix1 (⟨8 * t.val + j.val, by
          have ht : t.val < 10625 := t.isLt
          omega⟩ : Fin 85000))).toNat, hlt _⟩ : Fin 50000) l) :=
  gath9_apply ((cfg9 a9).grid.coords t) (tblw9 a9) (V c main_v33) hlt j l (8 * t.val + j.val) (by rw [coords9_val]) _

end Cert.Kernel.Hand

end
-- ==== Proof.K.GatherDef10.lean ====
/-
  Region 10's gathered block, as a function.

  At grid point i region 10 leaves in its 8 x 128 output block, at row j and column l, the 50000 x 128 array's element at
  row (table word 8 i + j) and column l. gath10 is that block as a function of the point, the table and the array (total:
  a word is clamped to the array's last row, which changes nothing when every word is a row); gblk10 is the block of point
  t at the region's own table and array; gblk10_apply reads it at a row and a column.
-/
import proofs.«402049_j87351044866139_2_alg».proof.Proof.K.Gather10
import Idealize.ShloMosaic.Lib.ValueIdx

set_option maxRecDepth 16384

noncomputable section

namespace Cert.Kernel.Hand

open Idealize.ShloMosaic Idealize.ShloMosaic.TcCoe
open Idealize.ShloMosaic.Pipeline (Dat Cfg Window)
open Cert.Kernel Cert.Kernel.Gen

variable {F : FTy → Type} [FloatOps F]

/-! ## What the point writes -/

/-- The block the body leaves at grid point i: row j, column l is the array's row named by table word 8 i + j, column l.
    The word is clamped to the array's last row, so that the block is a total function of the table; under the table's
    range hypothesis the clamp does nothing. -/
def gath10 (i : grid10.Coords) (tbl : Vec F S85000 .i32) (A : Vec F S50000x128 .f32) : Vec F S8x128 .f32 := fun y =>
  A (ValueIdx.ix2 (⟨min (tbl (ValueIdx.ix1 (⟨8 * (i 0).val + (y 0).val, by
      have hi : (i 0).val < 10625 := (i 0).isLt
      have hy : (y 0).val < 8 := (y 0).isLt
      omega⟩ : Fin 85000))).toNat 49999, by omega⟩ : Fin 50000) (y 1 : Fin 128))

/-- The block at row j, column l, when the table's words are rows of the array: the array at that row and column. The
    table position is given as p with its equation, so that a caller states it in its own spelling. -/
theorem gath10_apply (i : grid10.Coords) (tbl : Vec F S85000 .i32) (A : Vec F S50000x128 .f32)
    (htbl : ∀ k, (tbl k).toNat < 50000) (j : Fin 8) (l : Fin 128) (p : ℕ) (hp : p = 8 * (i 0).val + j.val) (hp' : p < 85000) :
    gath10 i tbl A (ValueIdx.ix2 j l)
      = A (ValueIdx.ix2 (⟨(tbl (ValueIdx.ix1 (⟨p, hp'⟩ : Fin 85000))).toNat, htbl _⟩ : Fin 50000) l) := by
  subst hp
  have hm : min (tbl (ValueIdx.ix1 (⟨8 * (i 0).val + j.val, hp'⟩ : Fin 85000))).toNat 49999
      = (tbl (ValueIdx.ix1 (⟨8 * (i 0).val + j.val, hp'⟩ : Fin 85000))).toNat :=
    Nat.min_eq_left (by have := htbl (ValueIdx.ix1 (⟨8 * (i 0).val + j.val, hp'⟩ : Fin 85000)); omega)
  exact congrArg A (congrArg (fun r : Fin 50000 => ValueIdx.ix2 r l) (Fin.ext hm))

/-- The block on row j is the array on the row table word 8 i + j names: an element of the block on that row and an
    element of the array on that row, in the same column, are equal. -/
theorem gath10_row (i : grid10.Coords) (tbl : Vec F S85000 .i32) (A : Vec F S50000x128 .f32)
    (htbl : ∀ k, (tbl k).toNat < 50000) (j p : ℕ) (hp : p = 8 * (i 0).val + j) (hp' : p < 85000)
    (y : S8x128.Idx) (z : S50000x128.Idx) (hy : (y 0).val = j)
    (hz0 : (z 0).val = (tbl (ValueIdx.ix1 (⟨p, hp'⟩ : Fin 85000))).toNat) (hz1 : (z 1).val = (y 1).val) :
    gath10 i tbl A y = A z := by
  subst hp
  subst hy
  unfold gath10
  refine congrArg A (funext fun a => ?_)
  match a with
  | ⟨0, _⟩ =>
    refine Fin.ext ?_
    show min (tbl (ValueIdx.ix1 (⟨8 * (i 0).val + (y 0).val, _⟩ : Fin 85000))).toNat 49999 = (z 0).val
    rw [hz0]
    exact Nat.min_eq_left (by have := htbl (ValueIdx.ix1 (⟨8 * (i 0).val + (y 0).val, hp'⟩ : Fin 85000)); omega)
  | ⟨1, _⟩ => exact Fin.ext hz1.symm
variable (V : (c : Dev nD) → (b : Ref sig .tc) → Buf (Elt F) ((c : Thread nD τ).loc b))
variable (a10 : (pcfg10 (F := F)).Adm)

/-- The region's index table, as the pipeline holds it. -/
abbrev tblw10 : Vec F S85000 .i32 := a10.1 0

/-- The gathered block of grid point t on core c. -/
def gblk10 (c : Dev nD) (t : Fin (cfg10 a10).N) : S8x128.Idx → Elt F .f32 :=
  gath10 ((cfg10 a10).grid.coords t) (tblw10 a10) (V c main_v33)

/-- The point's number is its one coordinate. -/
theorem coords10_val (t : Fin (cfg10 a10).N) : ((cfg10 a10).grid.coords t 0).val = t.val := by
  have ht : t.val < 10625 := t.isLt
  show t.val / 1 % 10625 = t.val
  rw [Nat.div_one, Nat.mod_eq_of_lt ht]

/-- The gathered block read at row j, column l: the array at the row table word 8 t + j names. -/
theorem gblk10_apply (hlt : ∀ k : S85000.Idx, (tblw10 a10 k).toNat < 50000) (c : Dev nD) (t : Fin (cfg10 a10).N) (j : Fin 8) (l : Fin 128) :
    gblk10 V a10 c t (ValueIdx.ix2 j l)
      = V c main_v33 (ValueIdx.ix2 (⟨(tblw10 a10 (ValueIdx.ix1 (⟨8 * t.val + j.val, by
          have ht : t.val < 10625 := t.isLt
          omega⟩ : Fin 85000))).toNat, hlt _⟩ : Fin 50000) l) :=
  gath10_apply ((cfg10 a10).grid.coords t) (tblw10 a10) (V c main_v33) hlt j l (8 * t.val + j.val) (by rw [coords10_val]) _

end Cert.Kernel.Hand

end
-- ==== Proof.K.GatherDef12.lean ====
/-
  Region 12's gathered block, as a function.

  At grid point i region 12 leaves in its 8 x 128 output block, at row j and column l, the 50000 x 128 array's element at
  row (table word 8 i + j) and column l. gath12 is that block as a function of the point, the table and the array (total:
  a word is clamped to the array's last row, which changes nothing when every word is a row); gblk12 is the block of point
  t at the region's own table and array; gblk12_apply reads it at a row and a column.
-/
import proofs.«402049_j87351044866139_2_alg».proof.Proof.K.Gather12
import Idealize.ShloMosaic.Lib.ValueIdx

set_option maxRecDepth 16384

noncomputable section

namespace Cert.Kernel.Hand

open Idealize.ShloMosaic Idealize.ShloMosaic.TcCoe
open Idealize.ShloMosaic.Pipeline (Dat Cfg Window)
open Cert.Kernel Cert.Kernel.Gen

variable {F : FTy → Type} [FloatOps F]

/-! ## What the point writes -/

/-- The block the body leaves at grid point i: row j, column l is the array's row named by table word 8 i + j, column l.
    The word is clamped to the array's last row, so that the block is a total function of the table; under the table's
    range hypothesis the clamp does nothing. -/
def gath12 (i : grid12.Coords) (tbl : Vec F S85000 .i32) (A : Vec F S50000x128 .f32) : Vec F S8x128 .f32 := fun y =>
  A (ValueIdx.ix2 (⟨min (tbl (ValueIdx.ix1 (⟨8 * (i 0).val + (y 0).val, by
      have hi : (i 0).val < 10625 := (i 0).isLt
      have hy : (y 0).val < 8 := (y 0).isLt
      omega⟩ : Fin 85000))).toNat 49999, by omega⟩ : Fin 50000) (y 1 : Fin 128))

/-- The block at row j, column l, when the table's words are rows of the array: the array at that row and column. The
    table position is given as p with its equation, so that a caller states it in its own spelling. -/
theorem gath12_apply (i : grid12.Coords) (tbl : Vec F S85000 .i32) (A : Vec F S50000x128 .f32)
    (htbl : ∀ k, (tbl k).toNat < 50000) (j : Fin 8) (l : Fin 128) (p : ℕ) (hp : p = 8 * (i 0).val + j.val) (hp' : p < 85000) :
    gath12 i tbl A (ValueIdx.ix2 j l)
      = A (ValueIdx.ix2 (⟨(tbl (ValueIdx.ix1 (⟨p, hp'⟩ : Fin 85000))).toNat, htbl _⟩ : Fin 50000) l) := by
  subst hp
  have hm : min (tbl (ValueIdx.ix1 (⟨8 * (i 0).val + j.val, hp'⟩ : Fin 85000))).toNat 49999
      = (tbl (ValueIdx.ix1 (⟨8 * (i 0).val + j.val, hp'⟩ : Fin 85000))).toNat :=
    Nat.min_eq_left (by have := htbl (ValueIdx.ix1 (⟨8 * (i 0).val + j.val, hp'⟩ : Fin 85000)); omega)
  exact congrArg A (congrArg (fun r : Fin 50000 => ValueIdx.ix2 r l) (Fin.ext hm))

/-- The block on row j is the array on the row table word 8 i + j names: an element of the block on that row and an
    element of the array on that row, in the same column, are equal. -/
theorem gath12_row (i : grid12.Coords) (tbl : Vec F S85000 .i32) (A : Vec F S50000x128 .f32)
    (htbl : ∀ k, (tbl k).toNat < 50000) (j p : ℕ) (hp : p = 8 * (i 0).val + j) (hp' : p < 85000)
    (y : S8x128.Idx) (z : S50000x128.Idx) (hy : (y 0).val = j)
    (hz0 : (z 0).val = (tbl (ValueIdx.ix1 (⟨p, hp'⟩ : Fin 85000))).toNat) (hz1 : (z 1).val = (y 1).val) :
    gath12 i tbl A y = A z := by
  subst hp
  subst hy
  unfold gath12
  refine congrArg A (funext fun a => ?_)
  match a with
  | ⟨0, _⟩ =>
    refine Fin.ext ?_
    show min (tbl (ValueIdx.ix1 (⟨8 * (i 0).val + (y 0).val, _⟩ : Fin 85000))).toNat 49999 = (z 0).val
    rw [hz0]
    exact Nat.min_eq_left (by have := htbl (ValueIdx.ix1 (⟨8 * (i 0).val + (y 0).val, hp'⟩ : Fin 85000)); omega)
  | ⟨1, _⟩ => exact Fin.ext hz1.symm
variable (V : (c : Dev nD) → (b : Ref sig .tc) → Buf (Elt F) ((c : Thread nD τ).loc b))
variable (a12 : (pcfg12 (F := F)).Adm)

/-- The region's index table, as the pipeline holds it. -/
abbrev tblw12 : Vec F S85000 .i32 := a12.1 0

/-- The gathered block of grid point t on core c. -/
def gblk12 (c : Dev nD) (t : Fin (cfg12 a12).N) : S8x128.Idx → Elt F .f32 :=
  gath12 ((cfg12 a12).grid.coords t) (tblw12 a12) (V c main_v61)

/-- The point's number is its one coordinate. -/
theorem coords12_val (t : Fin (cfg12 a12).N) : ((cfg12 a12).grid.coords t 0).val = t.val := by
  have ht : t.val < 10625 := t.isLt
  show t.val / 1 % 10625 = t.val
  rw [Nat.div_one, Nat.mod_eq_of_lt ht]

/-- The gathered block read at row j, column l: the array at the row table word 8 t + j names. -/
theorem gblk12_apply (hlt : ∀ k : S85000.Idx, (tblw12 a12 k).toNat < 50000) (c : Dev nD) (t : Fin (cfg12 a12).N) (j : Fin 8) (l : Fin 128) :
    gblk12 V a12 c t (ValueIdx.ix2 j l)
      = V c main_v61 (ValueIdx.ix2 (⟨(tblw12 a12 (ValueIdx.ix1 (⟨8 * t.val + j.val, by
          have ht : t.val < 10625 := t.isLt
          omega⟩ : Fin 85000))).toNat, hlt _⟩ : Fin 50000) l) :=
  gath12_apply ((cfg12 a12).grid.coords t) (tblw12 a12) (V c main_v61) hlt j l (8 * t.val + j.val) (by rw [coords12_val]) _

end Cert.Kernel.Hand

end
-- ==== Proof.K.GatherDef13.lean ====
/-
  Region 13's gathered block, as a function.

  At grid point i region 13 leaves in its 8 x 128 output block, at row j and column l, the 50000 x 128 array's element at
  row (table word 8 i + j) and column l. gath13 is that block as a function of the point, the table and the array (total:
  a word is clamped to the array's last row, which changes nothing when every word is a row); gblk13 is the block of point
  t at the region's own table and array; gblk13_apply reads it at a row and a column.
-/
import proofs.«402049_j87351044866139_2_alg».proof.Proof.K.Gather13
import Idealize.ShloMosaic.Lib.ValueIdx

set_option maxRecDepth 16384

noncomputable section

namespace Cert.Kernel.Hand

open Idealize.ShloMosaic Idealize.ShloMosaic.TcCoe
open Idealize.ShloMosaic.Pipeline (Dat Cfg Window)
open Cert.Kernel Cert.Kernel.Gen

variable {F : FTy → Type} [FloatOps F]

/-! ## What the point writes -/

/-- The block the body leaves at grid point i: row j, column l is the array's row named by table word 8 i + j, column l.
    The word is clamped to the array's last row, so that the block is a total function of the table; under the table's
    range hypothesis the clamp does nothing. -/
def gath13 (i : grid13.Coords) (tbl : Vec F S85000 .i32) (A : Vec F S50000x128 .f32) : Vec F S8x128 .f32 := fun y =>
  A (ValueIdx.ix2 (⟨min (tbl (ValueIdx.ix1 (⟨8 * (i 0).val + (y 0).val, by
      have hi : (i 0).val < 10625 := (i 0).isLt
      have hy : (y 0).val < 8 := (y 0).isLt
      omega⟩ : Fin 85000))).toNat 49999, by omega⟩ : Fin 50000) (y 1 : Fin 128))

/-- The block at row j, column l, when the table's words are rows of the array: the array at that row and column. The
    table position is given as p with its equation, so that a caller states it in its own spelling. -/
theorem gath13_apply (i : grid13.Coords) (tbl : Vec F S85000 .i32) (A : Vec F S50000x128 .f32)
    (htbl : ∀ k, (tbl k).toNat < 50000) (j : Fin 8) (l : Fin 128) (p : ℕ) (hp : p = 8 * (i 0).val + j.val) (hp' : p < 85000) :
    gath13 i tbl A (ValueIdx.ix2 j l)
      = A (ValueIdx.ix2 (⟨(tbl (ValueIdx.ix1 (⟨p, hp'⟩ : Fin 85000))).toNat, htbl _⟩ : Fin 50000) l) := by
  subst hp
  have hm : min (tbl (ValueIdx.ix1 (⟨8 * (i 0).val + j.val, hp'⟩ : Fin 85000))).toNat 49999
      = (tbl (ValueIdx.ix1 (⟨8 * (i 0).val + j.val, hp'⟩ : Fin 85000))).toNat :=
    Nat.min_eq_left (by have := htbl (ValueIdx.ix1 (⟨8 * (i 0).val + j.val, hp'⟩ : Fin 85000)); omega)
  exact congrArg A (congrArg (fun r : Fin 50000 => ValueIdx.ix2 r l) (Fin.ext hm))

/-- The block on row j is the array on the row table word 8 i + j names: an element of the block on that row and an
    element of the array on that row, in the same column, are equal. -/
theorem gath13_row (i : grid13.Coords) (tbl : Vec F S85000 .i32) (A : Vec F S50000x128 .f32)
    (htbl : ∀ k, (tbl k).toNat < 50000) (j p : ℕ) (hp : p = 8 * (i 0).val + j) (hp' : p < 85000)
    (y : S8x128.Idx) (z : S50000x128.Idx) (hy : (y 0).val = j)
    (hz0 : (z 0).val = (tbl (ValueIdx.ix1 (⟨p, hp'⟩ : Fin 85000))).toNat) (hz1 : (z 1).val = (y 1).val) :
    gath13 i tbl A y = A z := by
  subst hp
  subst hy
  unfold gath13
  refine congrArg A (funext fun a => ?_)
  match a with
  | ⟨0, _⟩ =>
    refine Fin.ext ?_
    show min (tbl (ValueIdx.ix1 (⟨8 * (i 0).val + (y 0).val, _⟩ : Fin 85000))).toNat 49999 = (z 0).val
    rw [hz0]
    exact Nat.min_eq_left (by have := htbl (ValueIdx.ix1 (⟨8 * (i 0).val + (y 0).val, hp'⟩ : Fin 85000)); omega)
  | ⟨1, _⟩ => exact Fin.ext hz1.symm
variable (V : (c : Dev nD) → (b : Ref sig .tc) → Buf (Elt F) ((c : Thread nD τ).loc b))
variable (a13 : (pcfg13 (F := F)).Adm)

/-- The region's index table, as the pipeline holds it. -/
abbrev tblw13 : Vec F S85000 .i32 := a13.1 0

/-- The gathered block of grid point t on core c. -/
def gblk13 (c : Dev nD) (t : Fin (cfg13 a13).N) : S8x128.Idx → Elt F .f32 :=
  gath13 ((cfg13 a13).grid.coords t) (tblw13 a13) (V c main_v61)

/-- The point's number is its one coordinate. -/
theorem coords13_val (t : Fin (cfg13 a13).N) : ((cfg13 a13).grid.coords t 0).val = t.val := by
  have ht : t.val < 10625 := t.isLt
  show t.val / 1 % 10625 = t.val
  rw [Nat.div_one, Nat.mod_eq_of_lt ht]

/-- The gathered block read at row j, column l: the array at the row table word 8 t + j names. -/
theorem gblk13_apply (hlt : ∀ k : S85000.Idx, (tblw13 a13 k).toNat < 50000) (c : Dev nD) (t : Fin (cfg13 a13).N) (j : Fin 8) (l : Fin 128) :
    gblk13 V a13 c t (ValueIdx.ix2 j l)
      = V c main_v61 (ValueIdx.ix2 (⟨(tblw13 a13 (ValueIdx.ix1 (⟨8 * t.val + j.val, by
          have ht : t.val < 10625 := t.isLt
          omega⟩ : Fin 85000))).toNat, hlt _⟩ : Fin 50000) l) :=
  gath13_apply ((cfg13 a13).grid.coords t) (tblw13 a13) (V c main_v61) hlt j l (8 * t.val + j.val) (by rw [coords13_val]) _

end Cert.Kernel.Hand

end
-- ==== Proof.K.GatherDef14.lean ====
/-
  Region 14's gathered block, as a function.

  At grid point i region 14 leaves in its 8 x 128 output block, at row j and column l, the 50000 x 128 array's element at
  row (table word 8 i + j) and column l. gath14 is that block as a function of the point, the table and the array (total:
  a word is clamped to the array's last row, which changes nothing when every word is a row); gblk14 is the block of point
  t at the region's own table and array; gblk14_apply reads it at a row and a column.
-/
import proofs.«402049_j87351044866139_2_alg».proof.Proof.K.Gather14
import Idealize.ShloMosaic.Lib.ValueIdx

set_option maxRecDepth 16384

noncomputable section

namespace Cert.Kernel.Hand

open Idealize.ShloMosaic Idealize.ShloMosaic.TcCoe
open Idealize.ShloMosaic.Pipeline (Dat Cfg Window)
open Cert.Kernel Cert.Kernel.Gen

variable {F : FTy → Type} [FloatOps F]

/-! ## What the point writes -/

/-- The block the body leaves at grid point i: row j, column l is the array's row named by table word 8 i + j, column l.
    The word is clamped to the array's last row, so that the block is a total function of the table; under the table's
    range hypothesis the clamp does nothing. -/
def gath14 (i : grid14.Coords) (tbl : Vec F S85000 .i32) (A : Vec F S50000x128 .f32) : Vec F S8x128 .f32 := fun y =>
  A (ValueIdx.ix2 (⟨min (tbl (ValueIdx.ix1 (⟨8 * (i 0).val + (y 0).val, by
      have hi : (i 0).val < 10625 := (i 0).isLt
      have hy : (y 0).val < 8 := (y 0).isLt
      omega⟩ : Fin 85000))).toNat 49999, by omega⟩ : Fin 50000) (y 1 : Fin 128))

/-- The block at row j, column l, when the table's words are rows of the array: the array at that row and column. The
    table position is given as p with its equation, so that a caller states it in its own spelling. -/
theorem gath14_apply (i : grid14.Coords) (tbl : Vec F S85000 .i32) (A : Vec F S50000x128 .f32)
    (htbl : ∀ k, (tbl k).toNat < 50000) (j : Fin 8) (l : Fin 128) (p : ℕ) (hp : p = 8 * (i 0).val + j.val) (hp' : p < 85000) :
    gath14 i tbl A (ValueIdx.ix2 j l)
      = A (ValueIdx.ix2 (⟨(tbl (ValueIdx.ix1 (⟨p, hp'⟩ : Fin 85000))).toNat, htbl _⟩ : Fin 50000) l) := by
  subst hp
  have hm : min (tbl (ValueIdx.ix1 (⟨8 * (i 0).val + j.val, hp'⟩ : Fin 85000))).toNat 49999
      = (tbl (ValueIdx.ix1 (⟨8 * (i 0).val + j.val, hp'⟩ : Fin 85000))).toNat :=
    Nat.min_eq_left (by have := htbl (ValueIdx.ix1 (⟨8 * (i 0).val + j.val, hp'⟩ : Fin 85000)); omega)
  exact congrArg A (congrArg (fun r : Fin 50000 => ValueIdx.ix2 r l) (Fin.ext hm))

/-- The block on row j is the array on the row table word 8 i + j names: an element of the block on that row and an
    element of the array on that row, in the same column, are equal. -/
theorem gath14_row (i : grid14.Coords) (tbl : Vec F S85000 .i32) (A : Vec F S50000x128 .f32)
    (htbl : ∀ k, (tbl k).toNat < 50000) (j p : ℕ) (hp : p = 8 * (i 0).val + j) (hp' : p < 85000)
    (y : S8x128.Idx) (z : S50000x128.Idx) (hy : (y 0).val = j)
    (hz0 : (z 0).val = (tbl (ValueIdx.ix1 (⟨p, hp'⟩ : Fin 85000))).toNat) (hz1 : (z 1).val = (y 1).val) :
    gath14 i tbl A y = A z := by
  subst hp
  subst hy
  unfold gath14
  refine congrArg A (funext fun a => ?_)
  match a with
  | ⟨0, _⟩ =>
    refine Fin.ext ?_
    show min (tbl (ValueIdx.ix1 (⟨8 * (i 0).val + (y 0).val, _⟩ : Fin 85000))).toNat 49999 = (z 0).val
    rw [hz0]
    exact Nat.min_eq_left (by have := htbl (ValueIdx.ix1 (⟨8 * (i 0).val + (y 0).val, hp'⟩ : Fin 85000)); omega)
  | ⟨1, _⟩ => exact Fin.ext hz1.symm
variable (V : (c : Dev nD) → (b : Ref sig .tc) → Buf (Elt F) ((c : Thread nD τ).loc b))
variable (a14 : (pcfg14 (F := F)).Adm)

/-- The region's index table, as the pipeline holds it. -/
abbrev tblw14 : Vec F S85000 .i32 := a14.1 0

/-- The gathered block of grid point t on core c. -/
def gblk14 (c : Dev nD) (t : Fin (cfg14 a14).N) : S8x128.Idx → Elt F .f32 :=
  gath14 ((cfg14 a14).grid.coords t) (tblw14 a14) (V c main_v61)

/-- The point's number is its one coordinate. -/
theorem coords14_val (t : Fin (cfg14 a14).N) : ((cfg14 a14).grid.coords t 0).val = t.val := by
  have ht : t.val < 10625 := t.isLt
  show t.val / 1 % 10625 = t.val
  rw [Nat.div_one, Nat.mod_eq_of_lt ht]

/-- The gathered block read at row j, column l: the array at the row table word 8 t + j names. -/
theorem gblk14_apply (hlt : ∀ k : S85000.Idx, (tblw14 a14 k).toNat < 50000) (c : Dev nD) (t : Fin (cfg14 a14).N) (j : Fin 8) (l : Fin 128) :
    gblk14 V a14 c t (ValueIdx.ix2 j l)
      = V c main_v61 (ValueIdx.ix2 (⟨(tblw14 a14 (ValueIdx.ix1 (⟨8 * t.val + j.val, by
          have ht : t.val < 10625 := t.isLt
          omega⟩ : Fin 85000))).toNat, hlt _⟩ : Fin 50000) l) :=
  gath14_apply ((cfg14 a14).grid.coords t) (tblw14 a14) (V c main_v61) hlt j l (8 * t.val + j.val) (by rw [coords14_val]) _

end Cert.Kernel.Hand

end
-- ==== Proof.K.GatherDef15.lean ====
/-
  Region 15's gathered block, as a function.

  At grid point i region 15 leaves in its 8 x 128 output block, at row j and column l, the 50000 x 128 array's element at
  row (table word 8 i + j) and column l. gath15 is that block as a function of the point, the table and the array (total:
  a word is clamped to the array's last row, which changes nothing when every word is a row); gblk15 is the block of point
  t at the region's own table and array; gblk15_apply reads it at a row and a column.
-/
import proofs.«402049_j87351044866139_2_alg».proof.Proof.K.Gather15
import Idealize.ShloMosaic.Lib.ValueIdx

set_option maxRecDepth 16384

noncomputable section

namespace Cert.Kernel.Hand

open Idealize.ShloMosaic Idealize.ShloMosaic.TcCoe
open Idealize.ShloMosaic.Pipeline (Dat Cfg Window)
open Cert.Kernel Cert.Kernel.Gen

variable {F : FTy → Type} [FloatOps F]

/-! ## What the point writes -/

/-- The block the body leaves at grid point i: row j, column l is the array's row named by table word 8 i + j, column l.
    The word is clamped to the array's last row, so that the block is a total function of the table; under the table's
    range hypothesis the clamp does nothing. -/
def gath15 (i : grid15.Coords) (tbl : Vec F S85000 .i32) (A : Vec F S50000x128 .f32) : Vec F S8x128 .f32 := fun y =>
  A (ValueIdx.ix2 (⟨min (tbl (ValueIdx.ix1 (⟨8 * (i 0).val + (y 0).val, by
      have hi : (i 0).val < 10625 := (i 0).isLt
      have hy : (y 0).val < 8 := (y 0).isLt
      omega⟩ : Fin 85000))).toNat 49999, by omega⟩ : Fin 50000) (y 1 : Fin 128))

/-- The block at row j, column l, when the table's words are rows of the array: the array at that row and column. The
    table position is given as p with its equation, so that a caller states it in its own spelling. -/
theorem gath15_apply (i : grid15.Coords) (tbl : Vec F S85000 .i32) (A : Vec F S50000x128 .f32)
    (htbl : ∀ k, (tbl k).toNat < 50000) (j : Fin 8) (l : Fin 128) (p : ℕ) (hp : p = 8 * (i 0).val + j.val) (hp' : p < 85000) :
    gath15 i tbl A (ValueIdx.ix2 j l)
      = A (ValueIdx.ix2 (⟨(tbl (ValueIdx.ix1 (⟨p, hp'⟩ : Fin 85000))).toNat, htbl _⟩ : Fin 50000) l) := by
  subst hp
  have hm : min (tbl (ValueIdx.ix1 (⟨8 * (i 0).val + j.val, hp'⟩ : Fin 85000))).toNat 49999
      = (tbl (ValueIdx.ix1 (⟨8 * (i 0).val + j.val, hp'⟩ : Fin 85000))).toNat :=
    Nat.min_eq_left (by have := htbl (ValueIdx.ix1 (⟨8 * (i 0).val + j.val, hp'⟩ : Fin 85000)); omega)
  exact congrArg A (congrArg (fun r : Fin 50000 => ValueIdx.ix2 r l) (Fin.ext hm))

/-- The block on row j is the array on the row table word 8 i + j names: an element of the block on that row and an
    element of the array on that row, in the same column, are equal. -/
theorem gath15_row (i : grid15.Coords) (tbl : Vec F S85000 .i32) (A : Vec F S50000x128 .f32)
    (htbl : ∀ k, (tbl k).toNat < 50000) (j p : ℕ) (hp : p = 8 * (i 0).val + j) (hp' : p < 85000)
    (y : S8x128.Idx) (z : S50000x128.Idx) (hy : (y 0).val = j)
    (hz0 : (z 0).val = (tbl (ValueIdx.ix1 (⟨p, hp'⟩ : Fin 85000))).toNat) (hz1 : (z 1).val = (y 1).val) :
    gath15 i tbl A y = A z := by
  subst hp
  subst hy
  unfold gath15
  refine congrArg A (funext fun a => ?_)
  match a with
  | ⟨0, _⟩ =>
    refine Fin.ext ?_
    show min (tbl (ValueIdx.ix1 (⟨8 * (i 0).val + (y 0).val, _⟩ : Fin 85000))).toNat 49999 = (z 0).val
    rw [hz0]
    exact Nat.min_eq_left (by have := htbl (ValueIdx.ix1 (⟨8 * (i 0).val + (y 0).val, hp'⟩ : Fin 85000)); omega)
  | ⟨1, _⟩ => exact Fin.ext hz1.symm
variable (V : (c : Dev nD) → (b : Ref sig .tc) → Buf (Elt F) ((c : Thread nD τ).loc b))
variable (a15 : (pcfg15 (F := F)).Adm)

/-- The region's index table, as the pipeline holds it. -/
abbrev tblw15 : Vec F S85000 .i32 := a15.1 0

/-- The gathered block of grid point t on core c. -/
def gblk15 (c : Dev nD) (t : Fin (cfg15 a15).N) : S8x128.Idx → Elt F .f32 :=
  gath15 ((cfg15 a15).grid.coords t) (tblw15 a15) (V c main_v61)

/-- The point's number is its one coordinate. -/
theorem coords15_val (t : Fin (cfg15 a15).N) : ((cfg15 a15).grid.coords t 0).val = t.val := by
  have ht : t.val < 10625 := t.isLt
  show t.val / 1 % 10625 = t.val
  rw [Nat.div_one, Nat.mod_eq_of_lt ht]

/-- The gathered block read at row j, column l: the array at the row table word 8 t + j names. -/
theorem gblk15_apply (hlt : ∀ k : S85000.Idx, (tblw15 a15 k).toNat < 50000) (c : Dev nD) (t : Fin (cfg15 a15).N) (j : Fin 8) (l : Fin 128) :
    gblk15 V a15 c t (ValueIdx.ix2 j l)
      = V c main_v61 (ValueIdx.ix2 (⟨(tblw15 a15 (ValueIdx.ix1 (⟨8 * t.val + j.val, by
          have ht : t.val < 10625 := t.isLt
          omega⟩ : Fin 85000))).toNat, hlt _⟩ : Fin 50000) l) :=
  gath15_apply ((cfg15 a15).grid.coords t) (tblw15 a15) (V c main_v61) hlt j l (8 * t.val + j.val) (by rw [coords15_val]) _

end Cert.Kernel.Hand

end
-- ==== Proof.K.GatherDef16.lean ====
/-
  Region 16's gathered block, as a function.

  At grid point i region 16 leaves in its 8 x 128 output block, at row j and column l, the 50000 x 128 array's element at
  row (table word 8 i + j) and column l. gath16 is that block as a function of the point, the table and the array (total:
  a word is clamped to the array's last row, which changes nothing when every word is a row); gblk16 is the block of point
  t at the region's own table and array; gblk16_apply reads it at a row and a column.
-/
import proofs.«402049_j87351044866139_2_alg».proof.Proof.K.Gather16
import Idealize.ShloMosaic.Lib.ValueIdx

set_option maxRecDepth 16384

noncomputable section

namespace Cert.Kernel.Hand

open Idealize.ShloMosaic Idealize.ShloMosaic.TcCoe
open Idealize.ShloMosaic.Pipeline (Dat Cfg Window)
open Cert.Kernel Cert.Kernel.Gen

variable {F : FTy → Type} [FloatOps F]

/-! ## What the point writes -/

/-- The block the body leaves at grid point i: row j, column l is the array's row named by table word 8 i + j, column l.
    The word is clamped to the array's last row, so that the block is a total function of the table; under the table's
    range hypothesis the clamp does nothing. -/
def gath16 (i : grid16.Coords) (tbl : Vec F S85000 .i32) (A : Vec F S50000x128 .f32) : Vec F S8x128 .f32 := fun y =>
  A (ValueIdx.ix2 (⟨min (tbl (ValueIdx.ix1 (⟨8 * (i 0).val + (y 0).val, by
      have hi : (i 0).val < 10625 := (i 0).isLt
      have hy : (y 0).val < 8 := (y 0).isLt
      omega⟩ : Fin 85000))).toNat 49999, by omega⟩ : Fin 50000) (y 1 : Fin 128))

/-- The block at row j, column l, when the table's words are rows of the array: the array at that row and column. The
    table position is given as p with its equation, so that a caller states it in its own spelling. -/
theorem gath16_apply (i : grid16.Coords) (tbl : Vec F S85000 .i32) (A : Vec F S50000x128 .f32)
    (htbl : ∀ k, (tbl k).toNat < 50000) (j : Fin 8) (l : Fin 128) (p : ℕ) (hp : p = 8 * (i 0).val + j.val) (hp' : p < 85000) :
    gath16 i tbl A (ValueIdx.ix2 j l)
      = A (ValueIdx.ix2 (⟨(tbl (ValueIdx.ix1 (⟨p, hp'⟩ : Fin 85000))).toNat, htbl _⟩ : Fin 50000) l) := by
  subst hp
  have hm : min (tbl (ValueIdx.ix1 (⟨8 * (i 0).val + j.val, hp'⟩ : Fin 85000))).toNat 49999
      = (tbl (ValueIdx.ix1 (⟨8 * (i 0).val + j.val, hp'⟩ : Fin 85000))).toNat :=
    Nat.min_eq_left (by have := htbl (ValueIdx.ix1 (⟨8 * (i 0).val + j.val, hp'⟩ : Fin 85000)); omega)
  exact congrArg A (congrArg (fun r : Fin 50000 => ValueIdx.ix2 r l) (Fin.ext hm))

/-- The block on row j is the array on the row table word 8 i + j names: an element of the block on that row and an
    element of the array on that row, in the same column, are equal. -/
theorem gath16_row (i : grid16.Coords) (tbl : Vec F S85000 .i32) (A : Vec F S50000x128 .f32)
    (htbl : ∀ k, (tbl k).toNat < 50000) (j p : ℕ) (hp : p = 8 * (i 0).val + j) (hp' : p < 85000)
    (y : S8x128.Idx) (z : S50000x128.Idx) (hy : (y 0).val = j)
    (hz0 : (z 0).val = (tbl (ValueIdx.ix1 (⟨p, hp'⟩ : Fin 85000))).toNat) (hz1 : (z 1).val = (y 1).val) :
    gath16 i tbl A y = A z := by
  subst hp
  subst hy
  unfold gath16
  refine congrArg A (funext fun a => ?_)
  match a with
  | ⟨0, _⟩ =>
    refine Fin.ext ?_
    show min (tbl (ValueIdx.ix1 (⟨8 * (i 0).val + (y 0).val, _⟩ : Fin 85000))).toNat 49999 = (z 0).val
    rw [hz0]
    exact Nat.min_eq_left (by have := htbl (ValueIdx.ix1 (⟨8 * (i 0).val + (y 0).val, hp'⟩ : Fin 85000)); omega)
  | ⟨1, _⟩ => exact Fin.ext hz1.symm
variable (V : (c : Dev nD) → (b : Ref sig .tc) → Buf (Elt F) ((c : Thread nD τ).loc b))
variable (a16 : (pcfg16 (F := F)).Adm)

/-- The region's index table, as the pipeline holds it. -/
abbrev tblw16 : Vec F S85000 .i32 := a16.1 0

/-- The gathered block of grid point t on core c. -/
def gblk16 (c : Dev nD) (t : Fin (cfg16 a16).N) : S8x128.Idx → Elt F .f32 :=
  gath16 ((cfg16 a16).grid.coords t) (tblw16 a16) (V c main_v61)

/-- The point's number is its one coordinate. -/
theorem coords16_val (t : Fin (cfg16 a16).N) : ((cfg16 a16).grid.coords t 0).val = t.val := by
  have ht : t.val < 10625 := t.isLt
  show t.val / 1 % 10625 = t.val
  rw [Nat.div_one, Nat.mod_eq_of_lt ht]

/-- The gathered block read at row j, column l: the array at the row table word 8 t + j names. -/
theorem gblk16_apply (hlt : ∀ k : S85000.Idx, (tblw16 a16 k).toNat < 50000) (c : Dev nD) (t : Fin (cfg16 a16).N) (j : Fin 8) (l : Fin 128) :
    gblk16 V a16 c t (ValueIdx.ix2 j l)
      = V c main_v61 (ValueIdx.ix2 (⟨(tblw16 a16 (ValueIdx.ix1 (⟨8 * t.val + j.val, by
          have ht : t.val < 10625 := t.isLt
          omega⟩ : Fin 85000))).toNat, hlt _⟩ : Fin 50000) l) :=
  gath16_apply ((cfg16 a16).grid.coords t) (tblw16 a16) (V c main_v61) hlt j l (8 * t.val + j.val) (by rw [coords16_val]) _

end Cert.Kernel.Hand

end
-- ==== Proof.K.GatherDef17.lean ====
/-
  Region 17's gathered block, as a function.

  At grid point i region 17 leaves in its 8 x 128 output block, at row j and column l, the 50000 x 128 array's element at
  row (table word 8 i + j) and column l. gath17 is that block as a function of the point, the table and the array (total:
  a word is clamped to the array's last row, which changes nothing when every word is a row); gblk17 is the block of point
  t at the region's own table and array; gblk17_apply reads it at a row and a column.
-/
import proofs.«402049_j87351044866139_2_alg».proof.Proof.K.Gather17
import Idealize.ShloMosaic.Lib.ValueIdx

set_option maxRecDepth 16384

noncomputable section

namespace Cert.Kernel.Hand

open Idealize.ShloMosaic Idealize.ShloMosaic.TcCoe
open Idealize.ShloMosaic.Pipeline (Dat Cfg Window)
open Cert.Kernel Cert.Kernel.Gen

variable {F : FTy → Type} [FloatOps F]

/-! ## What the point writes -/

/-- The block the body leaves at grid point i: row j, column l is the array's row named by table word 8 i + j, column l.
    The word is clamped to the array's last row, so that the block is a total function of the table; under the table's
    range hypothesis the clamp does nothing. -/
def gath17 (i : grid17.Coords) (tbl : Vec F S85000 .i32) (A : Vec F S50000x128 .f32) : Vec F S8x128 .f32 := fun y =>
  A (ValueIdx.ix2 (⟨min (tbl (ValueIdx.ix1 (⟨8 * (i 0).val + (y 0).val, by
      have hi : (i 0).val < 10625 := (i 0).isLt
      have hy : (y 0).val < 8 := (y 0).isLt
      omega⟩ : Fin 85000))).toNat 49999, by omega⟩ : Fin 50000) (y 1 : Fin 128))

/-- The block at row j, column l, when the table's words are rows of the array: the array at that row and column. The
    table position is given as p with its equation, so that a caller states it in its own spelling. -/
theorem gath17_apply (i : grid17.Coords) (tbl : Vec F S85000 .i32) (A : Vec F S50000x128 .f32)
    (htbl : ∀ k, (tbl k).toNat < 50000) (j : Fin 8) (l : Fin 128) (p : ℕ) (hp : p = 8 * (i 0).val + j.val) (hp' : p < 85000) :
    gath17 i tbl A (ValueIdx.ix2 j l)
      = A (ValueIdx.ix2 (⟨(tbl (ValueIdx.ix1 (⟨p, hp'⟩ : Fin 85000))).toNat, htbl _⟩ : Fin 50000) l) := by
  subst hp
  have hm : min (tbl (ValueIdx.ix1 (⟨8 * (i 0).val + j.val, hp'⟩ : Fin 85000))).toNat 49999
      = (tbl (ValueIdx.ix1 (⟨8 * (i 0).val + j.val, hp'⟩ : Fin 85000))).toNat :=
    Nat.min_eq_left (by have := htbl (ValueIdx.ix1 (⟨8 * (i 0).val + j.val, hp'⟩ : Fin 85000)); omega)
  exact congrArg A (congrArg (fun r : Fin 50000 => ValueIdx.ix2 r l) (Fin.ext hm))

/-- The block on row j is the array on the row table word 8 i + j names: an element of the block on that row and an
    element of the array on that row, in the same column, are equal. -/
theorem gath17_row (i : grid17.Coords) (tbl : Vec F S85000 .i32) (A : Vec F S50000x128 .f32)
    (htbl : ∀ k, (tbl k).toNat < 50000) (j p : ℕ) (hp : p = 8 * (i 0).val + j) (hp' : p < 85000)
    (y : S8x128.Idx) (z : S50000x128.Idx) (hy : (y 0).val = j)
    (hz0 : (z 0).val = (tbl (ValueIdx.ix1 (⟨p, hp'⟩ : Fin 85000))).toNat) (hz1 : (z 1).val = (y 1).val) :
    gath17 i tbl A y = A z := by
  subst hp
  subst hy
  unfold gath17
  refine congrArg A (funext fun a => ?_)
  match a with
  | ⟨0, _⟩ =>
    refine Fin.ext ?_
    show min (tbl (ValueIdx.ix1 (⟨8 * (i 0).val + (y 0).val, _⟩ : Fin 85000))).toNat 49999 = (z 0).val
    rw [hz0]
    exact Nat.min_eq_left (by have := htbl (ValueIdx.ix1 (⟨8 * (i 0).val + (y 0).val, hp'⟩ : Fin 85000)); omega)
  | ⟨1, _⟩ => exact Fin.ext hz1.symm
variable (V : (c : Dev nD) → (b : Ref sig .tc) → Buf (Elt F) ((c : Thread nD τ).loc b))
variable (a17 : (pcfg17 (F := F)).Adm)

/-- The region's index table, as the pipeline holds it. -/
abbrev tblw17 : Vec F S85000 .i32 := a17.1 0

/-- The gathered block of grid point t on core c. -/
def gblk17 (c : Dev nD) (t : Fin (cfg17 a17).N) : S8x128.Idx → Elt F .f32 :=
  gath17 ((cfg17 a17).grid.coords t) (tblw17 a17) (V c main_v61)

/-- The point's number is its one coordinate. -/
theorem coords17_val (t : Fin (cfg17 a17).N) : ((cfg17 a17).grid.coords t 0).val = t.val := by
  have ht : t.val < 10625 := t.isLt
  show t.val / 1 % 10625 = t.val
  rw [Nat.div_one, Nat.mod_eq_of_lt ht]

/-- The gathered block read at row j, column l: the array at the row table word 8 t + j names. -/
theorem gblk17_apply (hlt : ∀ k : S85000.Idx, (tblw17 a17 k).toNat < 50000) (c : Dev nD) (t : Fin (cfg17 a17).N) (j : Fin 8) (l : Fin 128) :
    gblk17 V a17 c t (ValueIdx.ix2 j l)
      = V c main_v61 (ValueIdx.ix2 (⟨(tblw17 a17 (ValueIdx.ix1 (⟨8 * t.val + j.val, by
          have ht : t.val < 10625 := t.isLt
          omega⟩ : Fin 85000))).toNat, hlt _⟩ : Fin 50000) l) :=
  gath17_apply ((cfg17 a17).grid.coords t) (tblw17 a17) (V c main_v61) hlt j l (8 * t.val + j.val) (by rw [coords17_val]) _

end Cert.Kernel.Hand

end
-- ==== Proof.K.GatherDef18.lean ====
/-
  Region 18's gathered block, as a function.

  At grid point i region 18 leaves in its 8 x 128 output block, at row j and column l, the 50000 x 128 array's element at
  row (table word 8 i + j) and column l. gath18 is that block as a function of the point, the table and the array (total:
  a word is clamped to the array's last row, which changes nothing when every word is a row); gblk18 is the block of point
  t at the region's own table and array; gblk18_apply reads it at a row and a column.
-/
import proofs.«402049_j87351044866139_2_alg».proof.Proof.K.Gather18
import Idealize.ShloMosaic.Lib.ValueIdx

set_option maxRecDepth 16384

noncomputable section

namespace Cert.Kernel.Hand

open Idealize.ShloMosaic Idealize.ShloMosaic.TcCoe
open Idealize.ShloMosaic.Pipeline (Dat Cfg Window)
open Cert.Kernel Cert.Kernel.Gen

variable {F : FTy → Type} [FloatOps F]

/-! ## What the point writes -/

/-- The block the body leaves at grid point i: row j, column l is the array's row named by table word 8 i + j, column l.
    The word is clamped to the array's last row, so that the block is a total function of the table; under the table's
    range hypothesis the clamp does nothing. -/
def gath18 (i : grid18.Coords) (tbl : Vec F S85000 .i32) (A : Vec F S50000x128 .f32) : Vec F S8x128 .f32 := fun y =>
  A (ValueIdx.ix2 (⟨min (tbl (ValueIdx.ix1 (⟨8 * (i 0).val + (y 0).val, by
      have hi : (i 0).val < 10625 := (i 0).isLt
      have hy : (y 0).val < 8 := (y 0).isLt
      omega⟩ : Fin 85000))).toNat 49999, by omega⟩ : Fin 50000) (y 1 : Fin 128))

/-- The block at row j, column l, when the table's words are rows of the array: the array at that row and column. The
    table position is given as p with its equation, so that a caller states it in its own spelling. -/
theorem gath18_apply (i : grid18.Coords) (tbl : Vec F S85000 .i32) (A : Vec F S50000x128 .f32)
    (htbl : ∀ k, (tbl k).toNat < 50000) (j : Fin 8) (l : Fin 128) (p : ℕ) (hp : p = 8 * (i 0).val + j.val) (hp' : p < 85000) :
    gath18 i tbl A (ValueIdx.ix2 j l)
      = A (ValueIdx.ix2 (⟨(tbl (ValueIdx.ix1 (⟨p, hp'⟩ : Fin 85000))).toNat, htbl _⟩ : Fin 50000) l) := by
  subst hp
  have hm : min (tbl (ValueIdx.ix1 (⟨8 * (i 0).val + j.val, hp'⟩ : Fin 85000))).toNat 49999
      = (tbl (ValueIdx.ix1 (⟨8 * (i 0).val + j.val, hp'⟩ : Fin 85000))).toNat :=
    Nat.min_eq_left (by have := htbl (ValueIdx.ix1 (⟨8 * (i 0).val + j.val, hp'⟩ : Fin 85000)); omega)
  exact congrArg A (congrArg (fun r : Fin 50000 => ValueIdx.ix2 r l) (Fin.ext hm))

/-- The block on row j is the array on the row table word 8 i + j names: an element of the block on that row and an
    element of the array on that row, in the same column, are equal. -/
theorem gath18_row (i : grid18.Coords) (tbl : Vec F S85000 .i32) (A : Vec F S50000x128 .f32)
    (htbl : ∀ k, (tbl k).toNat < 50000) (j p : ℕ) (hp : p = 8 * (i 0).val + j) (hp' : p < 85000)
    (y : S8x128.Idx) (z : S50000x128.Idx) (hy : (y 0).val = j)
    (hz0 : (z 0).val = (tbl (ValueIdx.ix1 (⟨p, hp'⟩ : Fin 85000))).toNat) (hz1 : (z 1).val = (y 1).val) :
    gath18 i tbl A y = A z := by
  subst hp
  subst hy
  unfold gath18
  refine congrArg A (funext fun a => ?_)
  match a with
  | ⟨0, _⟩ =>
    refine Fin.ext ?_
    show min (tbl (ValueIdx.ix1 (⟨8 * (i 0).val + (y 0).val, _⟩ : Fin 85000))).toNat 49999 = (z 0).val
    rw [hz0]
    exact Nat.min_eq_left (by have := htbl (ValueIdx.ix1 (⟨8 * (i 0).val + (y 0).val, hp'⟩ : Fin 85000)); omega)
  | ⟨1, _⟩ => exact Fin.ext hz1.symm
variable (V : (c : Dev nD) → (b : Ref sig .tc) → Buf (Elt F) ((c : Thread nD τ).loc b))
variable (a18 : (pcfg18 (F := F)).Adm)

/-- The region's index table, as the pipeline holds it. -/
abbrev tblw18 : Vec F S85000 .i32 := a18.1 0

/-- The gathered block of grid point t on core c. -/
def gblk18 (c : Dev nD) (t : Fin (cfg18 a18).N) : S8x128.Idx → Elt F .f32 :=
  gath18 ((cfg18 a18).grid.coords t) (tblw18 a18) (V c main_v61)

/-- The point's number is its one coordinate. -/
theorem coords18_val (t : Fin (cfg18 a18).N) : ((cfg18 a18).grid.coords t 0).val = t.val := by
  have ht : t.val < 10625 := t.isLt
  show t.val / 1 % 10625 = t.val
  rw [Nat.div_one, Nat.mod_eq_of_lt ht]

/-- The gathered block read at row j, column l: the array at the row table word 8 t + j names. -/
theorem gblk18_apply (hlt : ∀ k : S85000.Idx, (tblw18 a18 k).toNat < 50000) (c : Dev nD) (t : Fin (cfg18 a18).N) (j : Fin 8) (l : Fin 128) :
    gblk18 V a18 c t (ValueIdx.ix2 j l)
      = V c main_v61 (ValueIdx.ix2 (⟨(tblw18 a18 (ValueIdx.ix1 (⟨8 * t.val + j.val, by
          have ht : t.val < 10625 := t.isLt
          omega⟩ : Fin 85000))).toNat, hlt _⟩ : Fin 50000) l) :=
  gath18_apply ((cfg18 a18).grid.coords t) (tblw18 a18) (V c main_v61) hlt j l (8 * t.val + j.val) (by rw [coords18_val]) _

end Cert.Kernel.Hand

end
-- ==== Proof.K.GatherDef19.lean ====
/-
  Region 19's gathered block, as a function.

  At grid point i region 19 leaves in its 8 x 128 output block, at row j and column l, the 50000 x 128 array's element at
  row (table word 8 i + j) and column l. gath19 is that block as a function of the point, the table and the array (total:
  a word is clamped to the array's last row, which changes nothing when every word is a row); gblk19 is the block of point
  t at the region's own table and array; gblk19_apply reads it at a row and a column.
-/
import proofs.«402049_j87351044866139_2_alg».proof.Proof.K.Gather19
import Idealize.ShloMosaic.Lib.ValueIdx

set_option maxRecDepth 16384

noncomputable section

namespace Cert.Kernel.Hand

open Idealize.ShloMosaic Idealize.ShloMosaic.TcCoe
open Idealize.ShloMosaic.Pipeline (Dat Cfg Window)
open Cert.Kernel Cert.Kernel.Gen

variable {F : FTy → Type} [FloatOps F]

/-! ## What the point writes -/

/-- The block the body leaves at grid point i: row j, column l is the array's row named by table word 8 i + j, column l.
    The word is clamped to the array's last row, so that the block is a total function of the table; under the table's
    range hypothesis the clamp does nothing. -/
def gath19 (i : grid19.Coords) (tbl : Vec F S85000 .i32) (A : Vec F S50000x128 .f32) : Vec F S8x128 .f32 := fun y =>
  A (ValueIdx.ix2 (⟨min (tbl (ValueIdx.ix1 (⟨8 * (i 0).val + (y 0).val, by
      have hi : (i 0).val < 10625 := (i 0).isLt
      have hy : (y 0).val < 8 := (y 0).isLt
      omega⟩ : Fin 85000))).toNat 49999, by omega⟩ : Fin 50000) (y 1 : Fin 128))

/-- The block at row j, column l, when the table's words are rows of the array: the array at that row and column. The
    table position is given as p with its equation, so that a caller states it in its own spelling. -/
theorem gath19_apply (i : grid19.Coords) (tbl : Vec F S85000 .i32) (A : Vec F S50000x128 .f32)
    (htbl : ∀ k, (tbl k).toNat < 50000) (j : Fin 8) (l : Fin 128) (p : ℕ) (hp : p = 8 * (i 0).val + j.val) (hp' : p < 85000) :
    gath19 i tbl A (ValueIdx.ix2 j l)
      = A (ValueIdx.ix2 (⟨(tbl (ValueIdx.ix1 (⟨p, hp'⟩ : Fin 85000))).toNat, htbl _⟩ : Fin 50000) l) := by
  subst hp
  have hm : min (tbl (ValueIdx.ix1 (⟨8 * (i 0).val + j.val, hp'⟩ : Fin 85000))).toNat 49999
      = (tbl (ValueIdx.ix1 (⟨8 * (i 0).val + j.val, hp'⟩ : Fin 85000))).toNat :=
    Nat.min_eq_left (by have := htbl (ValueIdx.ix1 (⟨8 * (i 0).val + j.val, hp'⟩ : Fin 85000)); omega)
  exact congrArg A (congrArg (fun r : Fin 50000 => ValueIdx.ix2 r l) (Fin.ext hm))

/-- The block on row j is the array on the row table word 8 i + j names: an element of the block on that row and an
    element of the array on that row, in the same column, are equal. -/
theorem gath19_row (i : grid19.Coords) (tbl : Vec F S85000 .i32) (A : Vec F S50000x128 .f32)
    (htbl : ∀ k, (tbl k).toNat < 50000) (j p : ℕ) (hp : p = 8 * (i 0).val + j) (hp' : p < 85000)
    (y : S8x128.Idx) (z : S50000x128.Idx) (hy : (y 0).val = j)
    (hz0 : (z 0).val = (tbl (ValueIdx.ix1 (⟨p, hp'⟩ : Fin 85000))).toNat) (hz1 : (z 1).val = (y 1).val) :
    gath19 i tbl A y = A z := by
  subst hp
  subst hy
  unfold gath19
  refine congrArg A (funext fun a => ?_)
  match a with
  | ⟨0, _⟩ =>
    refine Fin.ext ?_
    show min (tbl (ValueIdx.ix1 (⟨8 * (i 0).val + (y 0).val, _⟩ : Fin 85000))).toNat 49999 = (z 0).val
    rw [hz0]
    exact Nat.min_eq_left (by have := htbl (ValueIdx.ix1 (⟨8 * (i 0).val + (y 0).val, hp'⟩ : Fin 85000)); omega)
  | ⟨1, _⟩ => exact Fin.ext hz1.symm
variable (V : (c : Dev nD) → (b : Ref sig .tc) → Buf (Elt F) ((c : Thread nD τ).loc b))
variable (a19 : (pcfg19 (F := F)).Adm)

/-- The region's index table, as the pipeline holds it. -/
abbrev tblw19 : Vec F S85000 .i32 := a19.1 0

/-- The gathered block of grid point t on core c. -/
def gblk19 (c : Dev nD) (t : Fin (cfg19 a19).N) : S8x128.Idx → Elt F .f32 :=
  gath19 ((cfg19 a19).grid.coords t) (tblw19 a19) (V c main_v61)

/-- The point's number is its one coordinate. -/
theorem coords19_val (t : Fin (cfg19 a19).N) : ((cfg19 a19).grid.coords t 0).val = t.val := by
  have ht : t.val < 10625 := t.isLt
  show t.val / 1 % 10625 = t.val
  rw [Nat.div_one, Nat.mod_eq_of_lt ht]

/-- The gathered block read at row j, column l: the array at the row table word 8 t + j names. -/
theorem gblk19_apply (hlt : ∀ k : S85000.Idx, (tblw19 a19 k).toNat < 50000) (c : Dev nD) (t : Fin (cfg19 a19).N) (j : Fin 8) (l : Fin 128) :
    gblk19 V a19 c t (ValueIdx.ix2 j l)
      = V c main_v61 (ValueIdx.ix2 (⟨(tblw19 a19 (ValueIdx.ix1 (⟨8 * t.val + j.val, by
          have ht : t.val < 10625 := t.isLt
          omega⟩ : Fin 85000))).toNat, hlt _⟩ : Fin 50000) l) :=
  gath19_apply ((cfg19 a19).grid.coords t) (tblw19 a19) (V c main_v61) hlt j l (8 * t.val + j.val) (by rw [coords19_val]) _

end Cert.Kernel.Hand

end
-- ==== Proof.K.GatherDef20.lean ====
/-
  Region 20's gathered block, as a function.

  At grid point i region 20 leaves in its 8 x 128 output block, at row j and column l, the 50000 x 128 array's element at
  row (table word 8 i + j) and column l. gath20 is that block as a function of the point, the table and the array (total:
  a word is clamped to the array's last row, which changes nothing when every word is a row); gblk20 is the block of point
  t at the region's own table and array; gblk20_apply reads it at a row and a column.
-/
import proofs.«402049_j87351044866139_2_alg».proof.Proof.K.Gather20
import Idealize.ShloMosaic.Lib.ValueIdx

set_option maxRecDepth 16384

noncomputable section

namespace Cert.Kernel.Hand

open Idealize.ShloMosaic Idealize.ShloMosaic.TcCoe
open Idealize.ShloMosaic.Pipeline (Dat Cfg Window)
open Cert.Kernel Cert.Kernel.Gen

variable {F : FTy → Type} [FloatOps F]

/-! ## What the point writes -/

/-- The block the body leaves at grid point i: row j, column l is the array's row named by table word 8 i + j, column l.
    The word is clamped to the array's last row, so that the block is a total function of the table; under the table's
    range hypothesis the clamp does nothing. -/
def gath20 (i : grid20.Coords) (tbl : Vec F S85000 .i32) (A : Vec F S50000x128 .f32) : Vec F S8x128 .f32 := fun y =>
  A (ValueIdx.ix2 (⟨min (tbl (ValueIdx.ix1 (⟨8 * (i 0).val + (y 0).val, by
      have hi : (i 0).val < 10625 := (i 0).isLt
      have hy : (y 0).val < 8 := (y 0).isLt
      omega⟩ : Fin 85000))).toNat 49999, by omega⟩ : Fin 50000) (y 1 : Fin 128))

/-- The block at row j, column l, when the table's words are rows of the array: the array at that row and column. The
    table position is given as p with its equation, so that a caller states it in its own spelling. -/
theorem gath20_apply (i : grid20.Coords) (tbl : Vec F S85000 .i32) (A : Vec F S50000x128 .f32)
    (htbl : ∀ k, (tbl k).toNat < 50000) (j : Fin 8) (l : Fin 128) (p : ℕ) (hp : p = 8 * (i 0).val + j.val) (hp' : p < 85000) :
    gath20 i tbl A (ValueIdx.ix2 j l)
      = A (ValueIdx.ix2 (⟨(tbl (ValueIdx.ix1 (⟨p, hp'⟩ : Fin 85000))).toNat, htbl _⟩ : Fin 50000) l) := by
  subst hp
  have hm : min (tbl (ValueIdx.ix1 (⟨8 * (i 0).val + j.val, hp'⟩ : Fin 85000))).toNat 49999
      = (tbl (ValueIdx.ix1 (⟨8 * (i 0).val + j.val, hp'⟩ : Fin 85000))).toNat :=
    Nat.min_eq_left (by have := htbl (ValueIdx.ix1 (⟨8 * (i 0).val + j.val, hp'⟩ : Fin 85000)); omega)
  exact congrArg A (congrArg (fun r : Fin 50000 => ValueIdx.ix2 r l) (Fin.ext hm))

/-- The block on row j is the array on the row table word 8 i + j names: an element of the block on that row and an
    element of the array on that row, in the same column, are equal. -/
theorem gath20_row (i : grid20.Coords) (tbl : Vec F S85000 .i32) (A : Vec F S50000x128 .f32)
    (htbl : ∀ k, (tbl k).toNat < 50000) (j p : ℕ) (hp : p = 8 * (i 0).val + j) (hp' : p < 85000)
    (y : S8x128.Idx) (z : S50000x128.Idx) (hy : (y 0).val = j)
    (hz0 : (z 0).val = (tbl (ValueIdx.ix1 (⟨p, hp'⟩ : Fin 85000))).toNat) (hz1 : (z 1).val = (y 1).val) :
    gath20 i tbl A y = A z := by
  subst hp
  subst hy
  unfold gath20
  refine congrArg A (funext fun a => ?_)
  match a with
  | ⟨0, _⟩ =>
    refine Fin.ext ?_
    show min (tbl (ValueIdx.ix1 (⟨8 * (i 0).val + (y 0).val, _⟩ : Fin 85000))).toNat 49999 = (z 0).val
    rw [hz0]
    exact Nat.min_eq_left (by have := htbl (ValueIdx.ix1 (⟨8 * (i 0).val + (y 0).val, hp'⟩ : Fin 85000)); omega)
  | ⟨1, _⟩ => exact Fin.ext hz1.symm
variable (V : (c : Dev nD) → (b : Ref sig .tc) → Buf (Elt F) ((c : Thread nD τ).loc b))
variable (a20 : (pcfg20 (F := F)).Adm)

/-- The region's index table, as the pipeline holds it. -/
abbrev tblw20 : Vec F S85000 .i32 := a20.1 0

/-- The gathered block of grid point t on core c. -/
def gblk20 (c : Dev nD) (t : Fin (cfg20 a20).N) : S8x128.Idx → Elt F .f32 :=
  gath20 ((cfg20 a20).grid.coords t) (tblw20 a20) (V c main_v61)

/-- The point's number is its one coordinate. -/
theorem coords20_val (t : Fin (cfg20 a20).N) : ((cfg20 a20).grid.coords t 0).val = t.val := by
  have ht : t.val < 10625 := t.isLt
  show t.val / 1 % 10625 = t.val
  rw [Nat.div_one, Nat.mod_eq_of_lt ht]

/-- The gathered block read at row j, column l: the array at the row table word 8 t + j names. -/
theorem gblk20_apply (hlt : ∀ k : S85000.Idx, (tblw20 a20 k).toNat < 50000) (c : Dev nD) (t : Fin (cfg20 a20).N) (j : Fin 8) (l : Fin 128) :
    gblk20 V a20 c t (ValueIdx.ix2 j l)
      = V c main_v61 (ValueIdx.ix2 (⟨(tblw20 a20 (ValueIdx.ix1 (⟨8 * t.val + j.val, by
          have ht : t.val < 10625 := t.isLt
          omega⟩ : Fin 85000))).toNat, hlt _⟩ : Fin 50000) l) :=
  gath20_apply ((cfg20 a20).grid.coords t) (tblw20 a20) (V c main_v61) hlt j l (8 * t.val + j.val) (by rw [coords20_val]) _

end Cert.Kernel.Hand

end
-- ==== Proof.K.GatherDef21.lean ====
/-
  Region 21's gathered block, as a function.

  At grid point i region 21 leaves in its 8 x 128 output block, at row j and column l, the 50000 x 128 array's element at
  row (table word 8 i + j) and column l. gath21 is that block as a function of the point, the table and the array (total:
  a word is clamped to the array's last row, which changes nothing when every word is a row); gblk21 is the block of point
  t at the region's own table and array; gblk21_apply reads it at a row and a column.
-/
import proofs.«402049_j87351044866139_2_alg».proof.Proof.K.Gather21
import Idealize.ShloMosaic.Lib.ValueIdx

set_option maxRecDepth 16384

noncomputable section

namespace Cert.Kernel.Hand

open Idealize.ShloMosaic Idealize.ShloMosaic.TcCoe
open Idealize.ShloMosaic.Pipeline (Dat Cfg Window)
open Cert.Kernel Cert.Kernel.Gen

variable {F : FTy → Type} [FloatOps F]

/-! ## What the point writes -/

/-- The block the body leaves at grid point i: row j, column l is the array's row named by table word 8 i + j, column l.
    The word is clamped to the array's last row, so that the block is a total function of the table; under the table's
    range hypothesis the clamp does nothing. -/
def gath21 (i : grid21.Coords) (tbl : Vec F S85000 .i32) (A : Vec F S50000x128 .f32) : Vec F S8x128 .f32 := fun y =>
  A (ValueIdx.ix2 (⟨min (tbl (ValueIdx.ix1 (⟨8 * (i 0).val + (y 0).val, by
      have hi : (i 0).val < 10625 := (i 0).isLt
      have hy : (y 0).val < 8 := (y 0).isLt
      omega⟩ : Fin 85000))).toNat 49999, by omega⟩ : Fin 50000) (y 1 : Fin 128))

/-- The block at row j, column l, when the table's words are rows of the array: the array at that row and column. The
    table position is given as p with its equation, so that a caller states it in its own spelling. -/
theorem gath21_apply (i : grid21.Coords) (tbl : Vec F S85000 .i32) (A : Vec F S50000x128 .f32)
    (htbl : ∀ k, (tbl k).toNat < 50000) (j : Fin 8) (l : Fin 128) (p : ℕ) (hp : p = 8 * (i 0).val + j.val) (hp' : p < 85000) :
    gath21 i tbl A (ValueIdx.ix2 j l)
      = A (ValueIdx.ix2 (⟨(tbl (ValueIdx.ix1 (⟨p, hp'⟩ : Fin 85000))).toNat, htbl _⟩ : Fin 50000) l) := by
  subst hp
  have hm : min (tbl (ValueIdx.ix1 (⟨8 * (i 0).val + j.val, hp'⟩ : Fin 85000))).toNat 49999
      = (tbl (ValueIdx.ix1 (⟨8 * (i 0).val + j.val, hp'⟩ : Fin 85000))).toNat :=
    Nat.min_eq_left (by have := htbl (ValueIdx.ix1 (⟨8 * (i 0).val + j.val, hp'⟩ : Fin 85000)); omega)
  exact congrArg A (congrArg (fun r : Fin 50000 => ValueIdx.ix2 r l) (Fin.ext hm))

/-- The block on row j is the array on the row table word 8 i + j names: an element of the block on that row and an
    element of the array on that row, in the same column, are equal. -/
theorem gath21_row (i : grid21.Coords) (tbl : Vec F S85000 .i32) (A : Vec F S50000x128 .f32)
    (htbl : ∀ k, (tbl k).toNat < 50000) (j p : ℕ) (hp : p = 8 * (i 0).val + j) (hp' : p < 85000)
    (y : S8x128.Idx) (z : S50000x128.Idx) (hy : (y 0).val = j)
    (hz0 : (z 0).val = (tbl (ValueIdx.ix1 (⟨p, hp'⟩ : Fin 85000))).toNat) (hz1 : (z 1).val = (y 1).val) :
    gath21 i tbl A y = A z := by
  subst hp
  subst hy
  unfold gath21
  refine congrArg A (funext fun a => ?_)
  match a with
  | ⟨0, _⟩ =>
    refine Fin.ext ?_
    show min (tbl (ValueIdx.ix1 (⟨8 * (i 0).val + (y 0).val, _⟩ : Fin 85000))).toNat 49999 = (z 0).val
    rw [hz0]
    exact Nat.min_eq_left (by have := htbl (ValueIdx.ix1 (⟨8 * (i 0).val + (y 0).val, hp'⟩ : Fin 85000)); omega)
  | ⟨1, _⟩ => exact Fin.ext hz1.symm
variable (V : (c : Dev nD) → (b : Ref sig .tc) → Buf (Elt F) ((c : Thread nD τ).loc b))
variable (a21 : (pcfg21 (F := F)).Adm)

/-- The region's index table, as the pipeline holds it. -/
abbrev tblw21 : Vec F S85000 .i32 := a21.1 0

/-- The gathered block of grid point t on core c. -/
def gblk21 (c : Dev nD) (t : Fin (cfg21 a21).N) : S8x128.Idx → Elt F .f32 :=
  gath21 ((cfg21 a21).grid.coords t) (tblw21 a21) (V c main_v61)

/-- The point's number is its one coordinate. -/
theorem coords21_val (t : Fin (cfg21 a21).N) : ((cfg21 a21).grid.coords t 0).val = t.val := by
  have ht : t.val < 10625 := t.isLt
  show t.val / 1 % 10625 = t.val
  rw [Nat.div_one, Nat.mod_eq_of_lt ht]

/-- The gathered block read at row j, column l: the array at the row table word 8 t + j names. -/
theorem gblk21_apply (hlt : ∀ k : S85000.Idx, (tblw21 a21 k).toNat < 50000) (c : Dev nD) (t : Fin (cfg21 a21).N) (j : Fin 8) (l : Fin 128) :
    gblk21 V a21 c t (ValueIdx.ix2 j l)
      = V c main_v61 (ValueIdx.ix2 (⟨(tblw21 a21 (ValueIdx.ix1 (⟨8 * t.val + j.val, by
          have ht : t.val < 10625 := t.isLt
          omega⟩ : Fin 85000))).toNat, hlt _⟩ : Fin 50000) l) :=
  gath21_apply ((cfg21 a21).grid.coords t) (tblw21 a21) (V c main_v61) hlt j l (8 * t.val + j.val) (by rw [coords21_val]) _

end Cert.Kernel.Hand

end
-- ==== Proof.K.GatherDef23.lean ====
/-
  Region 23's gathered block, as a function.

  At grid point i region 23 leaves in its 8 x 128 output block, at row j and column l, the 50000 x 128 array's element at
  row (table word 8 i + j) and column l. gath23 is that block as a function of the point, the table and the array (total:
  a word is clamped to the array's last row, which changes nothing when every word is a row); gblk23 is the block of point
  t at the region's own table and array; gblk23_apply reads it at a row and a column.
-/
import proofs.«402049_j87351044866139_2_alg».proof.Proof.K.Gather23
import Idealize.ShloMosaic.Lib.ValueIdx

set_option maxRecDepth 16384

noncomputable section

namespace Cert.Kernel.Hand

open Idealize.ShloMosaic Idealize.ShloMosaic.TcCoe
open Idealize.ShloMosaic.Pipeline (Dat Cfg Window)
open Cert.Kernel Cert.Kernel.Gen

variable {F : FTy → Type} [FloatOps F]

/-! ## What the point writes -/

/-- The block the body leaves at grid point i: row j, column l is the array's row named by table word 8 i + j, column l.
    The word is clamped to the array's last row, so that the block is a total function of the table; under the table's
    range hypothesis the clamp does nothing. -/
def gath23 (i : grid23.Coords) (tbl : Vec F S100000 .i32) (A : Vec F S50000x128 .f32) : Vec F S8x128 .f32 := fun y =>
  A (ValueIdx.ix2 (⟨min (tbl (ValueIdx.ix1 (⟨8 * (i 0).val + (y 0).val, by
      have hi : (i 0).val < 12500 := (i 0).isLt
      have hy : (y 0).val < 8 := (y 0).isLt
      omega⟩ : Fin 100000))).toNat 49999, by omega⟩ : Fin 50000) (y 1 : Fin 128))

/-- The block at row j, column l, when the table's words are rows of the array: the array at that row and column. The
    table position is given as p with its equation, so that a caller states it in its own spelling. -/
theorem gath23_apply (i : grid23.Coords) (tbl : Vec F S100000 .i32) (A : Vec F S50000x128 .f32)
    (htbl : ∀ k, (tbl k).toNat < 50000) (j : Fin 8) (l : Fin 128) (p : ℕ) (hp : p = 8 * (i 0).val + j.val) (hp' : p < 100000) :
    gath23 i tbl A (ValueIdx.ix2 j l)
      = A (ValueIdx.ix2 (⟨(tbl (ValueIdx.ix1 (⟨p, hp'⟩ : Fin 100000))).toNat, htbl _⟩ : Fin 50000) l) := by
  subst hp
  have hm : min (tbl (ValueIdx.ix1 (⟨8 * (i 0).val + j.val, hp'⟩ : Fin 100000))).toNat 49999
      = (tbl (ValueIdx.ix1 (⟨8 * (i 0).val + j.val, hp'⟩ : Fin 100000))).toNat :=
    Nat.min_eq_left (by have := htbl (ValueIdx.ix1 (⟨8 * (i 0).val + j.val, hp'⟩ : Fin 100000)); omega)
  exact congrArg A (congrArg (fun r : Fin 50000 => ValueIdx.ix2 r l) (Fin.ext hm))

/-- The block on row j is the array on the row table word 8 i + j names: an element of the block on that row and an
    element of the array on that row, in the same column, are equal. -/
theorem gath23_row (i : grid23.Coords) (tbl : Vec F S100000 .i32) (A : Vec F S50000x128 .f32)
    (htbl : ∀ k, (tbl k).toNat < 50000) (j p : ℕ) (hp : p = 8 * (i 0).val + j) (hp' : p < 100000)
    (y : S8x128.Idx) (z : S50000x128.Idx) (hy : (y 0).val = j)
    (hz0 : (z 0).val = (tbl (ValueIdx.ix1 (⟨p, hp'⟩ : Fin 100000))).toNat) (hz1 : (z 1).val = (y 1).val) :
    gath23 i tbl A y = A z := by
  subst hp
  subst hy
  unfold gath23
  refine congrArg A (funext fun a => ?_)
  match a with
  | ⟨0, _⟩ =>
    refine Fin.ext ?_
    show min (tbl (ValueIdx.ix1 (⟨8 * (i 0).val + (y 0).val, _⟩ : Fin 100000))).toNat 49999 = (z 0).val
    rw [hz0]
    exact Nat.min_eq_left (by have := htbl (ValueIdx.ix1 (⟨8 * (i 0).val + (y 0).val, hp'⟩ : Fin 100000)); omega)
  | ⟨1, _⟩ => exact Fin.ext hz1.symm
variable (V : (c : Dev nD) → (b : Ref sig .tc) → Buf (Elt F) ((c : Thread nD τ).loc b))
variable (a23 : (pcfg23 (F := F)).Adm)

/-- The region's index table, as the pipeline holds it. -/
abbrev tblw23 : Vec F S100000 .i32 := a23.1 0

/-- The gathered block of grid point t on core c. -/
def gblk23 (c : Dev nD) (t : Fin (cfg23 a23).N) : S8x128.Idx → Elt F .f32 :=
  gath23 ((cfg23 a23).grid.coords t) (tblw23 a23) (V c main_v89)

/-- The point's number is its one coordinate. -/
theorem coords23_val (t : Fin (cfg23 a23).N) : ((cfg23 a23).grid.coords t 0).val = t.val := by
  have ht : t.val < 12500 := t.isLt
  show t.val / 1 % 12500 = t.val
  rw [Nat.div_one, Nat.mod_eq_of_lt ht]

/-- The gathered block read at row j, column l: the array at the row table word 8 t + j names. -/
theorem gblk23_apply (hlt : ∀ k : S100000.Idx, (tblw23 a23 k).toNat < 50000) (c : Dev nD) (t : Fin (cfg23 a23).N) (j : Fin 8) (l : Fin 128) :
    gblk23 V a23 c t (ValueIdx.ix2 j l)
      = V c main_v89 (ValueIdx.ix2 (⟨(tblw23 a23 (ValueIdx.ix1 (⟨8 * t.val + j.val, by
          have ht : t.val < 12500 := t.isLt
          omega⟩ : Fin 100000))).toNat, hlt _⟩ : Fin 50000) l) :=
  gath23_apply ((cfg23 a23).grid.coords t) (tblw23 a23) (V c main_v89) hlt j l (8 * t.val + j.val) (by rw [coords23_val]) _

end Cert.Kernel.Hand

end
-- ==== Proof.K.GatherDef24.lean ====
/-
  Region 24's gathered block, as a function.

  At grid point i region 24 leaves in its 8 x 128 output block, at row j and column l, the 50000 x 128 array's element at
  row (table word 8 i + j) and column l. gath24 is that block as a function of the point, the table and the array (total:
  a word is clamped to the array's last row, which changes nothing when every word is a row); gblk24 is the block of point
  t at the region's own table and array; gblk24_apply reads it at a row and a column.
-/
import proofs.«402049_j87351044866139_2_alg».proof.Proof.K.Gather24
import Idealize.ShloMosaic.Lib.ValueIdx

set_option maxRecDepth 16384

noncomputable section

namespace Cert.Kernel.Hand

open Idealize.ShloMosaic Idealize.ShloMosaic.TcCoe
open Idealize.ShloMosaic.Pipeline (Dat Cfg Window)
open Cert.Kernel Cert.Kernel.Gen

variable {F : FTy → Type} [FloatOps F]

/-! ## What the point writes -/

/-- The block the body leaves at grid point i: row j, column l is the array's row named by table word 8 i + j, column l.
    The word is clamped to the array's last row, so that the block is a total function of the table; under the table's
    range hypothesis the clamp does nothing. -/
def gath24 (i : grid24.Coords) (tbl : Vec F S100000 .i32) (A : Vec F S50000x128 .f32) : Vec F S8x128 .f32 := fun y =>
  A (ValueIdx.ix2 (⟨min (tbl (ValueIdx.ix1 (⟨8 * (i 0).val + (y 0).val, by
      have hi : (i 0).val < 12500 := (i 0).isLt
      have hy : (y 0).val < 8 := (y 0).isLt
      omega⟩ : Fin 100000))).toNat 49999, by omega⟩ : Fin 50000) (y 1 : Fin 128))

/-- The block at row j, column l, when the table's words are rows of the array: the array at that row and column. The
    table position is given as p with its equation, so that a caller states it in its own spelling. -/
theorem gath24_apply (i : grid24.Coords) (tbl : Vec F S100000 .i32) (A : Vec F S50000x128 .f32)
    (htbl : ∀ k, (tbl k).toNat < 50000) (j : Fin 8) (l : Fin 128) (p : ℕ) (hp : p = 8 * (i 0).val + j.val) (hp' : p < 100000) :
    gath24 i tbl A (ValueIdx.ix2 j l)
      = A (ValueIdx.ix2 (⟨(tbl (ValueIdx.ix1 (⟨p, hp'⟩ : Fin 100000))).toNat, htbl _⟩ : Fin 50000) l) := by
  subst hp
  have hm : min (tbl (ValueIdx.ix1 (⟨8 * (i 0).val + j.val, hp'⟩ : Fin 100000))).toNat 49999
      = (tbl (ValueIdx.ix1 (⟨8 * (i 0).val + j.val, hp'⟩ : Fin 100000))).toNat :=
    Nat.min_eq_left (by have := htbl (ValueIdx.ix1 (⟨8 * (i 0).val + j.val, hp'⟩ : Fin 100000)); omega)
  exact congrArg A (congrArg (fun r : Fin 50000 => ValueIdx.ix2 r l) (Fin.ext hm))

/-- The block on row j is the array on the row table word 8 i + j names: an element of the block on that row and an
    element of the array on that row, in the same column, are equal. -/
theorem gath24_row (i : grid24.Coords) (tbl : Vec F S100000 .i32) (A : Vec F S50000x128 .f32)
    (htbl : ∀ k, (tbl k).toNat < 50000) (j p : ℕ) (hp : p = 8 * (i 0).val + j) (hp' : p < 100000)
    (y : S8x128.Idx) (z : S50000x128.Idx) (hy : (y 0).val = j)
    (hz0 : (z 0).val = (tbl (ValueIdx.ix1 (⟨p, hp'⟩ : Fin 100000))).toNat) (hz1 : (z 1).val = (y 1).val) :
    gath24 i tbl A y = A z := by
  subst hp
  subst hy
  unfold gath24
  refine congrArg A (funext fun a => ?_)
  match a with
  | ⟨0, _⟩ =>
    refine Fin.ext ?_
    show min (tbl (ValueIdx.ix1 (⟨8 * (i 0).val + (y 0).val, _⟩ : Fin 100000))).toNat 49999 = (z 0).val
    rw [hz0]
    exact Nat.min_eq_left (by have := htbl (ValueIdx.ix1 (⟨8 * (i 0).val + (y 0).val, hp'⟩ : Fin 100000)); omega)
  | ⟨1, _⟩ => exact Fin.ext hz1.symm
variable (V : (c : Dev nD) → (b : Ref sig .tc) → Buf (Elt F) ((c : Thread nD τ).loc b))
variable (a24 : (pcfg24 (F := F)).Adm)

/-- The region's index table, as the pipeline holds it. -/
abbrev tblw24 : Vec F S100000 .i32 := a24.1 0

/-- The gathered block of grid point t on core c. -/
def gblk24 (c : Dev nD) (t : Fin (cfg24 a24).N) : S8x128.Idx → Elt F .f32 :=
  gath24 ((cfg24 a24).grid.coords t) (tblw24 a24) (V c main_v89)

/-- The point's number is its one coordinate. -/
theorem coords24_val (t : Fin (cfg24 a24).N) : ((cfg24 a24).grid.coords t 0).val = t.val := by
  have ht : t.val < 12500 := t.isLt
  show t.val / 1 % 12500 = t.val
  rw [Nat.div_one, Nat.mod_eq_of_lt ht]

/-- The gathered block read at row j, column l: the array at the row table word 8 t + j names. -/
theorem gblk24_apply (hlt : ∀ k : S100000.Idx, (tblw24 a24 k).toNat < 50000) (c : Dev nD) (t : Fin (cfg24 a24).N) (j : Fin 8) (l : Fin 128) :
    gblk24 V a24 c t (ValueIdx.ix2 j l)
      = V c main_v89 (ValueIdx.ix2 (⟨(tblw24 a24 (ValueIdx.ix1 (⟨8 * t.val + j.val, by
          have ht : t.val < 12500 := t.isLt
          omega⟩ : Fin 100000))).toNat, hlt _⟩ : Fin 50000) l) :=
  gath24_apply ((cfg24 a24).grid.coords t) (tblw24 a24) (V c main_v89) hlt j l (8 * t.val + j.val) (by rw [coords24_val]) _

end Cert.Kernel.Hand

end
-- ==== Proof.K.GatherDef25.lean ====
/-
  Region 25's gathered block, as a function.

  At grid point i region 25 leaves in its 8 x 128 output block, at row j and column l, the 50000 x 128 array's element at
  row (table word 8 i + j) and column l. gath25 is that block as a function of the point, the table and the array (total:
  a word is clamped to the array's last row, which changes nothing when every word is a row); gblk25 is the block of point
  t at the region's own table and array; gblk25_apply reads it at a row and a column.
-/
import proofs.«402049_j87351044866139_2_alg».proof.Proof.K.Gather25
import Idealize.ShloMosaic.Lib.ValueIdx

set_option maxRecDepth 16384

noncomputable section

namespace Cert.Kernel.Hand

open Idealize.ShloMosaic Idealize.ShloMosaic.TcCoe
open Idealize.ShloMosaic.Pipeline (Dat Cfg Window)
open Cert.Kernel Cert.Kernel.Gen

variable {F : FTy → Type} [FloatOps F]

/-! ## What the point writes -/

/-- The block the body leaves at grid point i: row j, column l is the array's row named by table word 8 i + j, column l.
    The word is clamped to the array's last row, so that the block is a total function of the table; under the table's
    range hypothesis the clamp does nothing. -/
def gath25 (i : grid25.Coords) (tbl : Vec F S100000 .i32) (A : Vec F S50000x128 .f32) : Vec F S8x128 .f32 := fun y =>
  A (ValueIdx.ix2 (⟨min (tbl (ValueIdx.ix1 (⟨8 * (i 0).val + (y 0).val, by
      have hi : (i 0).val < 12500 := (i 0).isLt
      have hy : (y 0).val < 8 := (y 0).isLt
      omega⟩ : Fin 100000))).toNat 49999, by omega⟩ : Fin 50000) (y 1 : Fin 128))

/-- The block at row j, column l, when the table's words are rows of the array: the array at that row and column. The
    table position is given as p with its equation, so that a caller states it in its own spelling. -/
theorem gath25_apply (i : grid25.Coords) (tbl : Vec F S100000 .i32) (A : Vec F S50000x128 .f32)
    (htbl : ∀ k, (tbl k).toNat < 50000) (j : Fin 8) (l : Fin 128) (p : ℕ) (hp : p = 8 * (i 0).val + j.val) (hp' : p < 100000) :
    gath25 i tbl A (ValueIdx.ix2 j l)
      = A (ValueIdx.ix2 (⟨(tbl (ValueIdx.ix1 (⟨p, hp'⟩ : Fin 100000))).toNat, htbl _⟩ : Fin 50000) l) := by
  subst hp
  have hm : min (tbl (ValueIdx.ix1 (⟨8 * (i 0).val + j.val, hp'⟩ : Fin 100000))).toNat 49999
      = (tbl (ValueIdx.ix1 (⟨8 * (i 0).val + j.val, hp'⟩ : Fin 100000))).toNat :=
    Nat.min_eq_left (by have := htbl (ValueIdx.ix1 (⟨8 * (i 0).val + j.val, hp'⟩ : Fin 100000)); omega)
  exact congrArg A (congrArg (fun r : Fin 50000 => ValueIdx.ix2 r l) (Fin.ext hm))

/-- The block on row j is the array on the row table word 8 i + j names: an element of the block on that row and an
    element of the array on that row, in the same column, are equal. -/
theorem gath25_row (i : grid25.Coords) (tbl : Vec F S100000 .i32) (A : Vec F S50000x128 .f32)
    (htbl : ∀ k, (tbl k).toNat < 50000) (j p : ℕ) (hp : p = 8 * (i 0).val + j) (hp' : p < 100000)
    (y : S8x128.Idx) (z : S50000x128.Idx) (hy : (y 0).val = j)
    (hz0 : (z 0).val = (tbl (ValueIdx.ix1 (⟨p, hp'⟩ : Fin 100000))).toNat) (hz1 : (z 1).val = (y 1).val) :
    gath25 i tbl A y = A z := by
  subst hp
  subst hy
  unfold gath25
  refine congrArg A (funext fun a => ?_)
  match a with
  | ⟨0, _⟩ =>
    refine Fin.ext ?_
    show min (tbl (ValueIdx.ix1 (⟨8 * (i 0).val + (y 0).val, _⟩ : Fin 100000))).toNat 49999 = (z 0).val
    rw [hz0]
    exact Nat.min_eq_left (by have := htbl (ValueIdx.ix1 (⟨8 * (i 0).val + (y 0).val, hp'⟩ : Fin 100000)); omega)
  | ⟨1, _⟩ => exact Fin.ext hz1.symm
variable (V : (c : Dev nD) → (b : Ref sig .tc) → Buf (Elt F) ((c : Thread nD τ).loc b))
variable (a25 : (pcfg25 (F := F)).Adm)

/-- The region's index table, as the pipeline holds it. -/
abbrev tblw25 : Vec F S100000 .i32 := a25.1 0

/-- The gathered block of grid point t on core c. -/
def gblk25 (c : Dev nD) (t : Fin (cfg25 a25).N) : S8x128.Idx → Elt F .f32 :=
  gath25 ((cfg25 a25).grid.coords t) (tblw25 a25) (V c main_v89)

/-- The point's number is its one coordinate. -/
theorem coords25_val (t : Fin (cfg25 a25).N) : ((cfg25 a25).grid.coords t 0).val = t.val := by
  have ht : t.val < 12500 := t.isLt
  show t.val / 1 % 12500 = t.val
  rw [Nat.div_one, Nat.mod_eq_of_lt ht]

/-- The gathered block read at row j, column l: the array at the row table word 8 t + j names. -/
theorem gblk25_apply (hlt : ∀ k : S100000.Idx, (tblw25 a25 k).toNat < 50000) (c : Dev nD) (t : Fin (cfg25 a25).N) (j : Fin 8) (l : Fin 128) :
    gblk25 V a25 c t (ValueIdx.ix2 j l)
      = V c main_v89 (ValueIdx.ix2 (⟨(tblw25 a25 (ValueIdx.ix1 (⟨8 * t.val + j.val, by
          have ht : t.val < 12500 := t.isLt
          omega⟩ : Fin 100000))).toNat, hlt _⟩ : Fin 50000) l) :=
  gath25_apply ((cfg25 a25).grid.coords t) (tblw25 a25) (V c main_v89) hlt j l (8 * t.val + j.val) (by rw [coords25_val]) _

end Cert.Kernel.Hand

end
-- ==== Proof.K.GatherDef26.lean ====
/-
  Region 26's gathered block, as a function.

  At grid point i region 26 leaves in its 8 x 128 output block, at row j and column l, the 50000 x 128 array's element at
  row (table word 8 i + j) and column l. gath26 is that block as a function of the point, the table and the array (total:
  a word is clamped to the array's last row, which changes nothing when every word is a row); gblk26 is the block of point
  t at the region's own table and array; gblk26_apply reads it at a row and a column.
-/
import proofs.«402049_j87351044866139_2_alg».proof.Proof.K.Gather26
import Idealize.ShloMosaic.Lib.ValueIdx

set_option maxRecDepth 16384

noncomputable section

namespace Cert.Kernel.Hand

open Idealize.ShloMosaic Idealize.ShloMosaic.TcCoe
open Idealize.ShloMosaic.Pipeline (Dat Cfg Window)
open Cert.Kernel Cert.Kernel.Gen

variable {F : FTy → Type} [FloatOps F]

/-! ## What the point writes -/

/-- The block the body leaves at grid point i: row j, column l is the array's row named by table word 8 i + j, column l.
    The word is clamped to the array's last row, so that the block is a total function of the table; under the table's
    range hypothesis the clamp does nothing. -/
def gath26 (i : grid26.Coords) (tbl : Vec F S100000 .i32) (A : Vec F S50000x128 .f32) : Vec F S8x128 .f32 := fun y =>
  A (ValueIdx.ix2 (⟨min (tbl (ValueIdx.ix1 (⟨8 * (i 0).val + (y 0).val, by
      have hi : (i 0).val < 12500 := (i 0).isLt
      have hy : (y 0).val < 8 := (y 0).isLt
      omega⟩ : Fin 100000))).toNat 49999, by omega⟩ : Fin 50000) (y 1 : Fin 128))

/-- The block at row j, column l, when the table's words are rows of the array: the array at that row and column. The
    table position is given as p with its equation, so that a caller states it in its own spelling. -/
theorem gath26_apply (i : grid26.Coords) (tbl : Vec F S100000 .i32) (A : Vec F S50000x128 .f32)
    (htbl : ∀ k, (tbl k).toNat < 50000) (j : Fin 8) (l : Fin 128) (p : ℕ) (hp : p = 8 * (i 0).val + j.val) (hp' : p < 100000) :
    gath26 i tbl A (ValueIdx.ix2 j l)
      = A (ValueIdx.ix2 (⟨(tbl (ValueIdx.ix1 (⟨p, hp'⟩ : Fin 100000))).toNat, htbl _⟩ : Fin 50000) l) := by
  subst hp
  have hm : min (tbl (ValueIdx.ix1 (⟨8 * (i 0).val + j.val, hp'⟩ : Fin 100000))).toNat 49999
      = (tbl (ValueIdx.ix1 (⟨8 * (i 0).val + j.val, hp'⟩ : Fin 100000))).toNat :=
    Nat.min_eq_left (by have := htbl (ValueIdx.ix1 (⟨8 * (i 0).val + j.val, hp'⟩ : Fin 100000)); omega)
  exact congrArg A (congrArg (fun r : Fin 50000 => ValueIdx.ix2 r l) (Fin.ext hm))

/-- The block on row j is the array on the row table word 8 i + j names: an element of the block on that row and an
    element of the array on that row, in the same column, are equal. -/
theorem gath26_row (i : grid26.Coords) (tbl : Vec F S100000 .i32) (A : Vec F S50000x128 .f32)
    (htbl : ∀ k, (tbl k).toNat < 50000) (j p : ℕ) (hp : p = 8 * (i 0).val + j) (hp' : p < 100000)
    (y : S8x128.Idx) (z : S50000x128.Idx) (hy : (y 0).val = j)
    (hz0 : (z 0).val = (tbl (ValueIdx.ix1 (⟨p, hp'⟩ : Fin 100000))).toNat) (hz1 : (z 1).val = (y 1).val) :
    gath26 i tbl A y = A z := by
  subst hp
  subst hy
  unfold gath26
  refine congrArg A (funext fun a => ?_)
  match a with
  | ⟨0, _⟩ =>
    refine Fin.ext ?_
    show min (tbl (ValueIdx.ix1 (⟨8 * (i 0).val + (y 0).val, _⟩ : Fin 100000))).toNat 49999 = (z 0).val
    rw [hz0]
    exact Nat.min_eq_left (by have := htbl (ValueIdx.ix1 (⟨8 * (i 0).val + (y 0).val, hp'⟩ : Fin 100000)); omega)
  | ⟨1, _⟩ => exact Fin.ext hz1.symm
variable (V : (c : Dev nD) → (b : Ref sig .tc) → Buf (Elt F) ((c : Thread nD τ).loc b))
variable (a26 : (pcfg26 (F := F)).Adm)

/-- The region's index table, as the pipeline holds it. -/
abbrev tblw26 : Vec F S100000 .i32 := a26.1 0

/-- The gathered block of grid point t on core c. -/
def gblk26 (c : Dev nD) (t : Fin (cfg26 a26).N) : S8x128.Idx → Elt F .f32 :=
  gath26 ((cfg26 a26).grid.coords t) (tblw26 a26) (V c main_v89)

/-- The point's number is its one coordinate. -/
theorem coords26_val (t : Fin (cfg26 a26).N) : ((cfg26 a26).grid.coords t 0).val = t.val := by
  have ht : t.val < 12500 := t.isLt
  show t.val / 1 % 12500 = t.val
  rw [Nat.div_one, Nat.mod_eq_of_lt ht]

/-- The gathered block read at row j, column l: the array at the row table word 8 t + j names. -/
theorem gblk26_apply (hlt : ∀ k : S100000.Idx, (tblw26 a26 k).toNat < 50000) (c : Dev nD) (t : Fin (cfg26 a26).N) (j : Fin 8) (l : Fin 128) :
    gblk26 V a26 c t (ValueIdx.ix2 j l)
      = V c main_v89 (ValueIdx.ix2 (⟨(tblw26 a26 (ValueIdx.ix1 (⟨8 * t.val + j.val, by
          have ht : t.val < 12500 := t.isLt
          omega⟩ : Fin 100000))).toNat, hlt _⟩ : Fin 50000) l) :=
  gath26_apply ((cfg26 a26).grid.coords t) (tblw26 a26) (V c main_v89) hlt j l (8 * t.val + j.val) (by rw [coords26_val]) _

end Cert.Kernel.Hand

end
-- ==== Proof.K.GatherDef27.lean ====
/-
  Region 27's gathered block, as a function.

  At grid point i region 27 leaves in its 8 x 128 output block, at row j and column l, the 50000 x 128 array's element at
  row (table word 8 i + j) and column l. gath27 is that block as a function of the point, the table and the array (total:
  a word is clamped to the array's last row, which changes nothing when every word is a row); gblk27 is the block of point
  t at the region's own table and array; gblk27_apply reads it at a row and a column.
-/
import proofs.«402049_j87351044866139_2_alg».proof.Proof.K.Gather27
import Idealize.ShloMosaic.Lib.ValueIdx

set_option maxRecDepth 16384

noncomputable section

namespace Cert.Kernel.Hand

open Idealize.ShloMosaic Idealize.ShloMosaic.TcCoe
open Idealize.ShloMosaic.Pipeline (Dat Cfg Window)
open Cert.Kernel Cert.Kernel.Gen

variable {F : FTy → Type} [FloatOps F]

/-! ## What the point writes -/

/-- The block the body leaves at grid point i: row j, column l is the array's row named by table word 8 i + j, column l.
    The word is clamped to the array's last row, so that the block is a total function of the table; under the table's
    range hypothesis the clamp does nothing. -/
def gath27 (i : grid27.Coords) (tbl : Vec F S100000 .i32) (A : Vec F S50000x128 .f32) : Vec F S8x128 .f32 := fun y =>
  A (ValueIdx.ix2 (⟨min (tbl (ValueIdx.ix1 (⟨8 * (i 0).val + (y 0).val, by
      have hi : (i 0).val < 12500 := (i 0).isLt
      have hy : (y 0).val < 8 := (y 0).isLt
      omega⟩ : Fin 100000))).toNat 49999, by omega⟩ : Fin 50000) (y 1 : Fin 128))

/-- The block at row j, column l, when the table's words are rows of the array: the array at that row and column. The
    table position is given as p with its equation, so that a caller states it in its own spelling. -/
theorem gath27_apply (i : grid27.Coords) (tbl : Vec F S100000 .i32) (A : Vec F S50000x128 .f32)
    (htbl : ∀ k, (tbl k).toNat < 50000) (j : Fin 8) (l : Fin 128) (p : ℕ) (hp : p = 8 * (i 0).val + j.val) (hp' : p < 100000) :
    gath27 i tbl A (ValueIdx.ix2 j l)
      = A (ValueIdx.ix2 (⟨(tbl (ValueIdx.ix1 (⟨p, hp'⟩ : Fin 100000))).toNat, htbl _⟩ : Fin 50000) l) := by
  subst hp
  have hm : min (tbl (ValueIdx.ix1 (⟨8 * (i 0).val + j.val, hp'⟩ : Fin 100000))).toNat 49999
      = (tbl (ValueIdx.ix1 (⟨8 * (i 0).val + j.val, hp'⟩ : Fin 100000))).toNat :=
    Nat.min_eq_left (by have := htbl (ValueIdx.ix1 (⟨8 * (i 0).val + j.val, hp'⟩ : Fin 100000)); omega)
  exact congrArg A (congrArg (fun r : Fin 50000 => ValueIdx.ix2 r l) (Fin.ext hm))

/-- The block on row j is the array on the row table word 8 i + j names: an element of the block on that row and an
    element of the array on that row, in the same column, are equal. -/
theorem gath27_row (i : grid27.Coords) (tbl : Vec F S100000 .i32) (A : Vec F S50000x128 .f32)
    (htbl : ∀ k, (tbl k).toNat < 50000) (j p : ℕ) (hp : p = 8 * (i 0).val + j) (hp' : p < 100000)
    (y : S8x128.Idx) (z : S50000x128.Idx) (hy : (y 0).val = j)
    (hz0 : (z 0).val = (tbl (ValueIdx.ix1 (⟨p, hp'⟩ : Fin 100000))).toNat) (hz1 : (z 1).val = (y 1).val) :
    gath27 i tbl A y = A z := by
  subst hp
  subst hy
  unfold gath27
  refine congrArg A (funext fun a => ?_)
  match a with
  | ⟨0, _⟩ =>
    refine Fin.ext ?_
    show min (tbl (ValueIdx.ix1 (⟨8 * (i 0).val + (y 0).val, _⟩ : Fin 100000))).toNat 49999 = (z 0).val
    rw [hz0]
    exact Nat.min_eq_left (by have := htbl (ValueIdx.ix1 (⟨8 * (i 0).val + (y 0).val, hp'⟩ : Fin 100000)); omega)
  | ⟨1, _⟩ => exact Fin.ext hz1.symm
variable (V : (c : Dev nD) → (b : Ref sig .tc) → Buf (Elt F) ((c : Thread nD τ).loc b))
variable (a27 : (pcfg27 (F := F)).Adm)

/-- The region's index table, as the pipeline holds it. -/
abbrev tblw27 : Vec F S100000 .i32 := a27.1 0

/-- The gathered block of grid point t on core c. -/
def gblk27 (c : Dev nD) (t : Fin (cfg27 a27).N) : S8x128.Idx → Elt F .f32 :=
  gath27 ((cfg27 a27).grid.coords t) (tblw27 a27) (V c main_v89)

/-- The point's number is its one coordinate. -/
theorem coords27_val (t : Fin (cfg27 a27).N) : ((cfg27 a27).grid.coords t 0).val = t.val := by
  have ht : t.val < 12500 := t.isLt
  show t.val / 1 % 12500 = t.val
  rw [Nat.div_one, Nat.mod_eq_of_lt ht]

/-- The gathered block read at row j, column l: the array at the row table word 8 t + j names. -/
theorem gblk27_apply (hlt : ∀ k : S100000.Idx, (tblw27 a27 k).toNat < 50000) (c : Dev nD) (t : Fin (cfg27 a27).N) (j : Fin 8) (l : Fin 128) :
    gblk27 V a27 c t (ValueIdx.ix2 j l)
      = V c main_v89 (ValueIdx.ix2 (⟨(tblw27 a27 (ValueIdx.ix1 (⟨8 * t.val + j.val, by
          have ht : t.val < 12500 := t.isLt
          omega⟩ : Fin 100000))).toNat, hlt _⟩ : Fin 50000) l) :=
  gath27_apply ((cfg27 a27).grid.coords t) (tblw27 a27) (V c main_v89) hlt j l (8 * t.val + j.val) (by rw [coords27_val]) _

end Cert.Kernel.Hand

end
-- ==== Proof.K.GatherDef28.lean ====
/-
  Region 28's gathered block, as a function.

  At grid point i region 28 leaves in its 8 x 128 output block, at row j and column l, the 50000 x 128 array's element at
  row (table word 8 i + j) and column l. gath28 is that block as a function of the point, the table and the array (total:
  a word is clamped to the array's last row, which changes nothing when every word is a row); gblk28 is the block of point
  t at the region's own table and array; gblk28_apply reads it at a row and a column.
-/
import proofs.«402049_j87351044866139_2_alg».proof.Proof.K.Gather28
import Idealize.ShloMosaic.Lib.ValueIdx

set_option maxRecDepth 16384

noncomputable section

namespace Cert.Kernel.Hand

open Idealize.ShloMosaic Idealize.ShloMosaic.TcCoe
open Idealize.ShloMosaic.Pipeline (Dat Cfg Window)
open Cert.Kernel Cert.Kernel.Gen

variable {F : FTy → Type} [FloatOps F]

/-! ## What the point writes -/

/-- The block the body leaves at grid point i: row j, column l is the array's row named by table word 8 i + j, column l.
    The word is clamped to the array's last row, so that the block is a total function of the table; under the table's
    range hypothesis the clamp does nothing. -/
def gath28 (i : grid28.Coords) (tbl : Vec F S100000 .i32) (A : Vec F S50000x128 .f32) : Vec F S8x128 .f32 := fun y =>
  A (ValueIdx.ix2 (⟨min (tbl (ValueIdx.ix1 (⟨8 * (i 0).val + (y 0).val, by
      have hi : (i 0).val < 12500 := (i 0).isLt
      have hy : (y 0).val < 8 := (y 0).isLt
      omega⟩ : Fin 100000))).toNat 49999, by omega⟩ : Fin 50000) (y 1 : Fin 128))

/-- The block at row j, column l, when the table's words are rows of the array: the array at that row and column. The
    table position is given as p with its equation, so that a caller states it in its own spelling. -/
theorem gath28_apply (i : grid28.Coords) (tbl : Vec F S100000 .i32) (A : Vec F S50000x128 .f32)
    (htbl : ∀ k, (tbl k).toNat < 50000) (j : Fin 8) (l : Fin 128) (p : ℕ) (hp : p = 8 * (i 0).val + j.val) (hp' : p < 100000) :
    gath28 i tbl A (ValueIdx.ix2 j l)
      = A (ValueIdx.ix2 (⟨(tbl (ValueIdx.ix1 (⟨p, hp'⟩ : Fin 100000))).toNat, htbl _⟩ : Fin 50000) l) := by
  subst hp
  have hm : min (tbl (ValueIdx.ix1 (⟨8 * (i 0).val + j.val, hp'⟩ : Fin 100000))).toNat 49999
      = (tbl (ValueIdx.ix1 (⟨8 * (i 0).val + j.val, hp'⟩ : Fin 100000))).toNat :=
    Nat.min_eq_left (by have := htbl (ValueIdx.ix1 (⟨8 * (i 0).val + j.val, hp'⟩ : Fin 100000)); omega)
  exact congrArg A (congrArg (fun r : Fin 50000 => ValueIdx.ix2 r l) (Fin.ext hm))

/-- The block on row j is the array on the row table word 8 i + j names: an element of the block on that row and an
    element of the array on that row, in the same column, are equal. -/
theorem gath28_row (i : grid28.Coords) (tbl : Vec F S100000 .i32) (A : Vec F S50000x128 .f32)
    (htbl : ∀ k, (tbl k).toNat < 50000) (j p : ℕ) (hp : p = 8 * (i 0).val + j) (hp' : p < 100000)
    (y : S8x128.Idx) (z : S50000x128.Idx) (hy : (y 0).val = j)
    (hz0 : (z 0).val = (tbl (ValueIdx.ix1 (⟨p, hp'⟩ : Fin 100000))).toNat) (hz1 : (z 1).val = (y 1).val) :
    gath28 i tbl A y = A z := by
  subst hp
  subst hy
  unfold gath28
  refine congrArg A (funext fun a => ?_)
  match a with
  | ⟨0, _⟩ =>
    refine Fin.ext ?_
    show min (tbl (ValueIdx.ix1 (⟨8 * (i 0).val + (y 0).val, _⟩ : Fin 100000))).toNat 49999 = (z 0).val
    rw [hz0]
    exact Nat.min_eq_left (by have := htbl (ValueIdx.ix1 (⟨8 * (i 0).val + (y 0).val, hp'⟩ : Fin 100000)); omega)
  | ⟨1, _⟩ => exact Fin.ext hz1.symm
variable (V : (c : Dev nD) → (b : Ref sig .tc) → Buf (Elt F) ((c : Thread nD τ).loc b))
variable (a28 : (pcfg28 (F := F)).Adm)

/-- The region's index table, as the pipeline holds it. -/
abbrev tblw28 : Vec F S100000 .i32 := a28.1 0

/-- The gathered block of grid point t on core c. -/
def gblk28 (c : Dev nD) (t : Fin (cfg28 a28).N) : S8x128.Idx → Elt F .f32 :=
  gath28 ((cfg28 a28).grid.coords t) (tblw28 a28) (V c main_v89)

/-- The point's number is its one coordinate. -/
theorem coords28_val (t : Fin (cfg28 a28).N) : ((cfg28 a28).grid.coords t 0).val = t.val := by
  have ht : t.val < 12500 := t.isLt
  show t.val / 1 % 12500 = t.val
  rw [Nat.div_one, Nat.mod_eq_of_lt ht]

/-- The gathered block read at row j, column l: the array at the row table word 8 t + j names. -/
theorem gblk28_apply (hlt : ∀ k : S100000.Idx, (tblw28 a28 k).toNat < 50000) (c : Dev nD) (t : Fin (cfg28 a28).N) (j : Fin 8) (l : Fin 128) :
    gblk28 V a28 c t (ValueIdx.ix2 j l)
      = V c main_v89 (ValueIdx.ix2 (⟨(tblw28 a28 (ValueIdx.ix1 (⟨8 * t.val + j.val, by
          have ht : t.val < 12500 := t.isLt
          omega⟩ : Fin 100000))).toNat, hlt _⟩ : Fin 50000) l) :=
  gath28_apply ((cfg28 a28).grid.coords t) (tblw28 a28) (V c main_v89) hlt j l (8 * t.val + j.val) (by rw [coords28_val]) _

end Cert.Kernel.Hand

end
-- ==== Proof.K.GatherDef29.lean ====
/-
  Region 29's gathered block, as a function.

  At grid point i region 29 leaves in its 8 x 128 output block, at row j and column l, the 50000 x 128 array's element at
  row (table word 8 i + j) and column l. gath29 is that block as a function of the point, the table and the array (total:
  a word is clamped to the array's last row, which changes nothing when every word is a row); gblk29 is the block of point
  t at the region's own table and array; gblk29_apply reads it at a row and a column.
-/
import proofs.«402049_j87351044866139_2_alg».proof.Proof.K.Gather29
import Idealize.ShloMosaic.Lib.ValueIdx

set_option maxRecDepth 16384

noncomputable section

namespace Cert.Kernel.Hand

open Idealize.ShloMosaic Idealize.ShloMosaic.TcCoe
open Idealize.ShloMosaic.Pipeline (Dat Cfg Window)
open Cert.Kernel Cert.Kernel.Gen

variable {F : FTy → Type} [FloatOps F]

/-! ## What the point writes -/

/-- The block the body leaves at grid point i: row j, column l is the array's row named by table word 8 i + j, column l.
    The word is clamped to the array's last row, so that the block is a total function of the table; under the table's
    range hypothesis the clamp does nothing. -/
def gath29 (i : grid29.Coords) (tbl : Vec F S100000 .i32) (A : Vec F S50000x128 .f32) : Vec F S8x128 .f32 := fun y =>
  A (ValueIdx.ix2 (⟨min (tbl (ValueIdx.ix1 (⟨8 * (i 0).val + (y 0).val, by
      have hi : (i 0).val < 12500 := (i 0).isLt
      have hy : (y 0).val < 8 := (y 0).isLt
      omega⟩ : Fin 100000))).toNat 49999, by omega⟩ : Fin 50000) (y 1 : Fin 128))

/-- The block at row j, column l, when the table's words are rows of the array: the array at that row and column. The
    table position is given as p with its equation, so that a caller states it in its own spelling. -/
theorem gath29_apply (i : grid29.Coords) (tbl : Vec F S100000 .i32) (A : Vec F S50000x128 .f32)
    (htbl : ∀ k, (tbl k).toNat < 50000) (j : Fin 8) (l : Fin 128) (p : ℕ) (hp : p = 8 * (i 0).val + j.val) (hp' : p < 100000) :
    gath29 i tbl A (ValueIdx.ix2 j l)
      = A (ValueIdx.ix2 (⟨(tbl (ValueIdx.ix1 (⟨p, hp'⟩ : Fin 100000))).toNat, htbl _⟩ : Fin 50000) l) := by
  subst hp
  have hm : min (tbl (ValueIdx.ix1 (⟨8 * (i 0).val + j.val, hp'⟩ : Fin 100000))).toNat 49999
      = (tbl (ValueIdx.ix1 (⟨8 * (i 0).val + j.val, hp'⟩ : Fin 100000))).toNat :=
    Nat.min_eq_left (by have := htbl (ValueIdx.ix1 (⟨8 * (i 0).val + j.val, hp'⟩ : Fin 100000)); omega)
  exact congrArg A (congrArg (fun r : Fin 50000 => ValueIdx.ix2 r l) (Fin.ext hm))

/-- The block on row j is the array on the row table word 8 i + j names: an element of the block on that row and an
    element of the array on that row, in the same column, are equal. -/
theorem gath29_row (i : grid29.Coords) (tbl : Vec F S100000 .i32) (A : Vec F S50000x128 .f32)
    (htbl : ∀ k, (tbl k).toNat < 50000) (j p : ℕ) (hp : p = 8 * (i 0).val + j) (hp' : p < 100000)
    (y : S8x128.Idx) (z : S50000x128.Idx) (hy : (y 0).val = j)
    (hz0 : (z 0).val = (tbl (ValueIdx.ix1 (⟨p, hp'⟩ : Fin 100000))).toNat) (hz1 : (z 1).val = (y 1).val) :
    gath29 i tbl A y = A z := by
  subst hp
  subst hy
  unfold gath29
  refine congrArg A (funext fun a => ?_)
  match a with
  | ⟨0, _⟩ =>
    refine Fin.ext ?_
    show min (tbl (ValueIdx.ix1 (⟨8 * (i 0).val + (y 0).val, _⟩ : Fin 100000))).toNat 49999 = (z 0).val
    rw [hz0]
    exact Nat.min_eq_left (by have := htbl (ValueIdx.ix1 (⟨8 * (i 0).val + (y 0).val, hp'⟩ : Fin 100000)); omega)
  | ⟨1, _⟩ => exact Fin.ext hz1.symm
variable (V : (c : Dev nD) → (b : Ref sig .tc) → Buf (Elt F) ((c : Thread nD τ).loc b))
variable (a29 : (pcfg29 (F := F)).Adm)

/-- The region's index table, as the pipeline holds it. -/
abbrev tblw29 : Vec F S100000 .i32 := a29.1 0

/-- The gathered block of grid point t on core c. -/
def gblk29 (c : Dev nD) (t : Fin (cfg29 a29).N) : S8x128.Idx → Elt F .f32 :=
  gath29 ((cfg29 a29).grid.coords t) (tblw29 a29) (V c main_v89)

/-- The point's number is its one coordinate. -/
theorem coords29_val (t : Fin (cfg29 a29).N) : ((cfg29 a29).grid.coords t 0).val = t.val := by
  have ht : t.val < 12500 := t.isLt
  show t.val / 1 % 12500 = t.val
  rw [Nat.div_one, Nat.mod_eq_of_lt ht]

/-- The gathered block read at row j, column l: the array at the row table word 8 t + j names. -/
theorem gblk29_apply (hlt : ∀ k : S100000.Idx, (tblw29 a29 k).toNat < 50000) (c : Dev nD) (t : Fin (cfg29 a29).N) (j : Fin 8) (l : Fin 128) :
    gblk29 V a29 c t (ValueIdx.ix2 j l)
      = V c main_v89 (ValueIdx.ix2 (⟨(tblw29 a29 (ValueIdx.ix1 (⟨8 * t.val + j.val, by
          have ht : t.val < 12500 := t.isLt
          omega⟩ : Fin 100000))).toNat, hlt _⟩ : Fin 50000) l) :=
  gath29_apply ((cfg29 a29).grid.coords t) (tblw29 a29) (V c main_v89) hlt j l (8 * t.val + j.val) (by rw [coords29_val]) _

end Cert.Kernel.Hand

end
-- ==== Proof.K.GatherDef30.lean ====
/-
  Region 30's gathered block, as a function.

  At grid point i region 30 leaves in its 8 x 128 output block, at row j and column l, the 50000 x 128 array's element at
  row (table word 8 i + j) and column l. gath30 is that block as a function of the point, the table and the array (total:
  a word is clamped to the array's last row, which changes nothing when every word is a row); gblk30 is the block of point
  t at the region's own table and array; gblk30_apply reads it at a row and a column.
-/
import proofs.«402049_j87351044866139_2_alg».proof.Proof.K.Gather30
import Idealize.ShloMosaic.Lib.ValueIdx

set_option maxRecDepth 16384

noncomputable section

namespace Cert.Kernel.Hand

open Idealize.ShloMosaic Idealize.ShloMosaic.TcCoe
open Idealize.ShloMosaic.Pipeline (Dat Cfg Window)
open Cert.Kernel Cert.Kernel.Gen

variable {F : FTy → Type} [FloatOps F]

/-! ## What the point writes -/

/-- The block the body leaves at grid point i: row j, column l is the array's row named by table word 8 i + j, column l.
    The word is clamped to the array's last row, so that the block is a total function of the table; under the table's
    range hypothesis the clamp does nothing. -/
def gath30 (i : grid30.Coords) (tbl : Vec F S100000 .i32) (A : Vec F S50000x128 .f32) : Vec F S8x128 .f32 := fun y =>
  A (ValueIdx.ix2 (⟨min (tbl (ValueIdx.ix1 (⟨8 * (i 0).val + (y 0).val, by
      have hi : (i 0).val < 12500 := (i 0).isLt
      have hy : (y 0).val < 8 := (y 0).isLt
      omega⟩ : Fin 100000))).toNat 49999, by omega⟩ : Fin 50000) (y 1 : Fin 128))

/-- The block at row j, column l, when the table's words are rows of the array: the array at that row and column. The
    table position is given as p with its equation, so that a caller states it in its own spelling. -/
theorem gath30_apply (i : grid30.Coords) (tbl : Vec F S100000 .i32) (A : Vec F S50000x128 .f32)
    (htbl : ∀ k, (tbl k).toNat < 50000) (j : Fin 8) (l : Fin 128) (p : ℕ) (hp : p = 8 * (i 0).val + j.val) (hp' : p < 100000) :
    gath30 i tbl A (ValueIdx.ix2 j l)
      = A (ValueIdx.ix2 (⟨(tbl (ValueIdx.ix1 (⟨p, hp'⟩ : Fin 100000))).toNat, htbl _⟩ : Fin 50000) l) := by
  subst hp
  have hm : min (tbl (ValueIdx.ix1 (⟨8 * (i 0).val + j.val, hp'⟩ : Fin 100000))).toNat 49999
      = (tbl (ValueIdx.ix1 (⟨8 * (i 0).val + j.val, hp'⟩ : Fin 100000))).toNat :=
    Nat.min_eq_left (by have := htbl (ValueIdx.ix1 (⟨8 * (i 0).val + j.val, hp'⟩ : Fin 100000)); omega)
  exact congrArg A (congrArg (fun r : Fin 50000 => ValueIdx.ix2 r l) (Fin.ext hm))

/-- The block on row j is the array on the row table word 8 i + j names: an element of the block on that row and an
    element of the array on that row, in the same column, are equal. -/
theorem gath30_row (i : grid30.Coords) (tbl : Vec F S100000 .i32) (A : Vec F S50000x128 .f32)
    (htbl : ∀ k, (tbl k).toNat < 50000) (j p : ℕ) (hp : p = 8 * (i 0).val + j) (hp' : p < 100000)
    (y : S8x128.Idx) (z : S50000x128.Idx) (hy : (y 0).val = j)
    (hz0 : (z 0).val = (tbl (ValueIdx.ix1 (⟨p, hp'⟩ : Fin 100000))).toNat) (hz1 : (z 1).val = (y 1).val) :
    gath30 i tbl A y = A z := by
  subst hp
  subst hy
  unfold gath30
  refine congrArg A (funext fun a => ?_)
  match a with
  | ⟨0, _⟩ =>
    refine Fin.ext ?_
    show min (tbl (ValueIdx.ix1 (⟨8 * (i 0).val + (y 0).val, _⟩ : Fin 100000))).toNat 49999 = (z 0).val
    rw [hz0]
    exact Nat.min_eq_left (by have := htbl (ValueIdx.ix1 (⟨8 * (i 0).val + (y 0).val, hp'⟩ : Fin 100000)); omega)
  | ⟨1, _⟩ => exact Fin.ext hz1.symm
variable (V : (c : Dev nD) → (b : Ref sig .tc) → Buf (Elt F) ((c : Thread nD τ).loc b))
variable (a30 : (pcfg30 (F := F)).Adm)

/-- The region's index table, as the pipeline holds it. -/
abbrev tblw30 : Vec F S100000 .i32 := a30.1 0

/-- The gathered block of grid point t on core c. -/
def gblk30 (c : Dev nD) (t : Fin (cfg30 a30).N) : S8x128.Idx → Elt F .f32 :=
  gath30 ((cfg30 a30).grid.coords t) (tblw30 a30) (V c main_v89)

/-- The point's number is its one coordinate. -/
theorem coords30_val (t : Fin (cfg30 a30).N) : ((cfg30 a30).grid.coords t 0).val = t.val := by
  have ht : t.val < 12500 := t.isLt
  show t.val / 1 % 12500 = t.val
  rw [Nat.div_one, Nat.mod_eq_of_lt ht]

/-- The gathered block read at row j, column l: the array at the row table word 8 t + j names. -/
theorem gblk30_apply (hlt : ∀ k : S100000.Idx, (tblw30 a30 k).toNat < 50000) (c : Dev nD) (t : Fin (cfg30 a30).N) (j : Fin 8) (l : Fin 128) :
    gblk30 V a30 c t (ValueIdx.ix2 j l)
      = V c main_v89 (ValueIdx.ix2 (⟨(tblw30 a30 (ValueIdx.ix1 (⟨8 * t.val + j.val, by
          have ht : t.val < 12500 := t.isLt
          omega⟩ : Fin 100000))).toNat, hlt _⟩ : Fin 50000) l) :=
  gath30_apply ((cfg30 a30).grid.coords t) (tblw30 a30) (V c main_v89) hlt j l (8 * t.val + j.val) (by rw [coords30_val]) _

end Cert.Kernel.Hand

end
-- ==== Proof.K.GatherDef31.lean ====
/-
  Region 31's gathered block, as a function.

  At grid point i region 31 leaves in its 8 x 128 output block, at row j and column l, the 50000 x 128 array's element at
  row (table word 8 i + j) and column l. gath31 is that block as a function of the point, the table and the array (total:
  a word is clamped to the array's last row, which changes nothing when every word is a row); gblk31 is the block of point
  t at the region's own table and array; gblk31_apply reads it at a row and a column.
-/
import proofs.«402049_j87351044866139_2_alg».proof.Proof.K.Gather31
import Idealize.ShloMosaic.Lib.ValueIdx

set_option maxRecDepth 16384

noncomputable section

namespace Cert.Kernel.Hand

open Idealize.ShloMosaic Idealize.ShloMosaic.TcCoe
open Idealize.ShloMosaic.Pipeline (Dat Cfg Window)
open Cert.Kernel Cert.Kernel.Gen

variable {F : FTy → Type} [FloatOps F]

/-! ## What the point writes -/

/-- The block the body leaves at grid point i: row j, column l is the array's row named by table word 8 i + j, column l.
    The word is clamped to the array's last row, so that the block is a total function of the table; under the table's
    range hypothesis the clamp does nothing. -/
def gath31 (i : grid31.Coords) (tbl : Vec F S100000 .i32) (A : Vec F S50000x128 .f32) : Vec F S8x128 .f32 := fun y =>
  A (ValueIdx.ix2 (⟨min (tbl (ValueIdx.ix1 (⟨8 * (i 0).val + (y 0).val, by
      have hi : (i 0).val < 12500 := (i 0).isLt
      have hy : (y 0).val < 8 := (y 0).isLt
      omega⟩ : Fin 100000))).toNat 49999, by omega⟩ : Fin 50000) (y 1 : Fin 128))

/-- The block at row j, column l, when the table's words are rows of the array: the array at that row and column. The
    table position is given as p with its equation, so that a caller states it in its own spelling. -/
theorem gath31_apply (i : grid31.Coords) (tbl : Vec F S100000 .i32) (A : Vec F S50000x128 .f32)
    (htbl : ∀ k, (tbl k).toNat < 50000) (j : Fin 8) (l : Fin 128) (p : ℕ) (hp : p = 8 * (i 0).val + j.val) (hp' : p < 100000) :
    gath31 i tbl A (ValueIdx.ix2 j l)
      = A (ValueIdx.ix2 (⟨(tbl (ValueIdx.ix1 (⟨p, hp'⟩ : Fin 100000))).toNat, htbl _⟩ : Fin 50000) l) := by
  subst hp
  have hm : min (tbl (ValueIdx.ix1 (⟨8 * (i 0).val + j.val, hp'⟩ : Fin 100000))).toNat 49999
      = (tbl (ValueIdx.ix1 (⟨8 * (i 0).val + j.val, hp'⟩ : Fin 100000))).toNat :=
    Nat.min_eq_left (by have := htbl (ValueIdx.ix1 (⟨8 * (i 0).val + j.val, hp'⟩ : Fin 100000)); omega)
  exact congrArg A (congrArg (fun r : Fin 50000 => ValueIdx.ix2 r l) (Fin.ext hm))

/-- The block on row j is the array on the row table word 8 i + j names: an element of the block on that row and an
    element of the array on that row, in the same column, are equal. -/
theorem gath31_row (i : grid31.Coords) (tbl : Vec F S100000 .i32) (A : Vec F S50000x128 .f32)
    (htbl : ∀ k, (tbl k).toNat < 50000) (j p : ℕ) (hp : p = 8 * (i 0).val + j) (hp' : p < 100000)
    (y : S8x128.Idx) (z : S50000x128.Idx) (hy : (y 0).val = j)
    (hz0 : (z 0).val = (tbl (ValueIdx.ix1 (⟨p, hp'⟩ : Fin 100000))).toNat) (hz1 : (z 1).val = (y 1).val) :
    gath31 i tbl A y = A z := by
  subst hp
  subst hy
  unfold gath31
  refine congrArg A (funext fun a => ?_)
  match a with
  | ⟨0, _⟩ =>
    refine Fin.ext ?_
    show min (tbl (ValueIdx.ix1 (⟨8 * (i 0).val + (y 0).val, _⟩ : Fin 100000))).toNat 49999 = (z 0).val
    rw [hz0]
    exact Nat.min_eq_left (by have := htbl (ValueIdx.ix1 (⟨8 * (i 0).val + (y 0).val, hp'⟩ : Fin 100000)); omega)
  | ⟨1, _⟩ => exact Fin.ext hz1.symm
variable (V : (c : Dev nD) → (b : Ref sig .tc) → Buf (Elt F) ((c : Thread nD τ).loc b))
variable (a31 : (pcfg31 (F := F)).Adm)

/-- The region's index table, as the pipeline holds it. -/
abbrev tblw31 : Vec F S100000 .i32 := a31.1 0

/-- The gathered block of grid point t on core c. -/
def gblk31 (c : Dev nD) (t : Fin (cfg31 a31).N) : S8x128.Idx → Elt F .f32 :=
  gath31 ((cfg31 a31).grid.coords t) (tblw31 a31) (V c main_v89)

/-- The point's number is its one coordinate. -/
theorem coords31_val (t : Fin (cfg31 a31).N) : ((cfg31 a31).grid.coords t 0).val = t.val := by
  have ht : t.val < 12500 := t.isLt
  show t.val / 1 % 12500 = t.val
  rw [Nat.div_one, Nat.mod_eq_of_lt ht]

/-- The gathered block read at row j, column l: the array at the row table word 8 t + j names. -/
theorem gblk31_apply (hlt : ∀ k : S100000.Idx, (tblw31 a31 k).toNat < 50000) (c : Dev nD) (t : Fin (cfg31 a31).N) (j : Fin 8) (l : Fin 128) :
    gblk31 V a31 c t (ValueIdx.ix2 j l)
      = V c main_v89 (ValueIdx.ix2 (⟨(tblw31 a31 (ValueIdx.ix1 (⟨8 * t.val + j.val, by
          have ht : t.val < 12500 := t.isLt
          omega⟩ : Fin 100000))).toNat, hlt _⟩ : Fin 50000) l) :=
  gath31_apply ((cfg31 a31).grid.coords t) (tblw31 a31) (V c main_v89) hlt j l (8 * t.val + j.val) (by rw [coords31_val]) _

end Cert.Kernel.Hand

end
-- ==== Proof.K.GatherDef32.lean ====
/-
  Region 32's gathered block, as a function.

  At grid point i region 32 leaves in its 8 x 128 output block, at row j and column l, the 50000 x 128 array's element at
  row (table word 8 i + j) and column l. gath32 is that block as a function of the point, the table and the array (total:
  a word is clamped to the array's last row, which changes nothing when every word is a row); gblk32 is the block of point
  t at the region's own table and array; gblk32_apply reads it at a row and a column.
-/
import proofs.«402049_j87351044866139_2_alg».proof.Proof.K.Gather32
import Idealize.ShloMosaic.Lib.ValueIdx

set_option maxRecDepth 16384

noncomputable section

namespace Cert.Kernel.Hand

open Idealize.ShloMosaic Idealize.ShloMosaic.TcCoe
open Idealize.ShloMosaic.Pipeline (Dat Cfg Window)
open Cert.Kernel Cert.Kernel.Gen

variable {F : FTy → Type} [FloatOps F]

/-! ## What the point writes -/

/-- The block the body leaves at grid point i: row j, column l is the array's row named by table word 8 i + j, column l.
    The word is clamped to the array's last row, so that the block is a total function of the table; under the table's
    range hypothesis the clamp does nothing. -/
def gath32 (i : grid32.Coords) (tbl : Vec F S100000 .i32) (A : Vec F S50000x128 .f32) : Vec F S8x128 .f32 := fun y =>
  A (ValueIdx.ix2 (⟨min (tbl (ValueIdx.ix1 (⟨8 * (i 0).val + (y 0).val, by
      have hi : (i 0).val < 12500 := (i 0).isLt
      have hy : (y 0).val < 8 := (y 0).isLt
      omega⟩ : Fin 100000))).toNat 49999, by omega⟩ : Fin 50000) (y 1 : Fin 128))

/-- The block at row j, column l, when the table's words are rows of the array: the array at that row and column. The
    table position is given as p with its equation, so that a caller states it in its own spelling. -/
theorem gath32_apply (i : grid32.Coords) (tbl : Vec F S100000 .i32) (A : Vec F S50000x128 .f32)
    (htbl : ∀ k, (tbl k).toNat < 50000) (j : Fin 8) (l : Fin 128) (p : ℕ) (hp : p = 8 * (i 0).val + j.val) (hp' : p < 100000) :
    gath32 i tbl A (ValueIdx.ix2 j l)
      = A (ValueIdx.ix2 (⟨(tbl (ValueIdx.ix1 (⟨p, hp'⟩ : Fin 100000))).toNat, htbl _⟩ : Fin 50000) l) := by
  subst hp
  have hm : min (tbl (ValueIdx.ix1 (⟨8 * (i 0).val + j.val, hp'⟩ : Fin 100000))).toNat 49999
      = (tbl (ValueIdx.ix1 (⟨8 * (i 0).val + j.val, hp'⟩ : Fin 100000))).toNat :=
    Nat.min_eq_left (by have := htbl (ValueIdx.ix1 (⟨8 * (i 0).val + j.val, hp'⟩ : Fin 100000)); omega)
  exact congrArg A (congrArg (fun r : Fin 50000 => ValueIdx.ix2 r l) (Fin.ext hm))

/-- The block on row j is the array on the row table word 8 i + j names: an element of the block on that row and an
    element of the array on that row, in the same column, are equal. -/
theorem gath32_row (i : grid32.Coords) (tbl : Vec F S100000 .i32) (A : Vec F S50000x128 .f32)
    (htbl : ∀ k, (tbl k).toNat < 50000) (j p : ℕ) (hp : p = 8 * (i 0).val + j) (hp' : p < 100000)
    (y : S8x128.Idx) (z : S50000x128.Idx) (hy : (y 0).val = j)
    (hz0 : (z 0).val = (tbl (ValueIdx.ix1 (⟨p, hp'⟩ : Fin 100000))).toNat) (hz1 : (z 1).val = (y 1).val) :
    gath32 i tbl A y = A z := by
  subst hp
  subst hy
  unfold gath32
  refine congrArg A (funext fun a => ?_)
  match a with
  | ⟨0, _⟩ =>
    refine Fin.ext ?_
    show min (tbl (ValueIdx.ix1 (⟨8 * (i 0).val + (y 0).val, _⟩ : Fin 100000))).toNat 49999 = (z 0).val
    rw [hz0]
    exact Nat.min_eq_left (by have := htbl (ValueIdx.ix1 (⟨8 * (i 0).val + (y 0).val, hp'⟩ : Fin 100000)); omega)
  | ⟨1, _⟩ => exact Fin.ext hz1.symm
variable (V : (c : Dev nD) → (b : Ref sig .tc) → Buf (Elt F) ((c : Thread nD τ).loc b))
variable (a32 : (pcfg32 (F := F)).Adm)

/-- The region's index table, as the pipeline holds it. -/
abbrev tblw32 : Vec F S100000 .i32 := a32.1 0

/-- The gathered block of grid point t on core c. -/
def gblk32 (c : Dev nD) (t : Fin (cfg32 a32).N) : S8x128.Idx → Elt F .f32 :=
  gath32 ((cfg32 a32).grid.coords t) (tblw32 a32) (V c main_v89)

/-- The point's number is its one coordinate. -/
theorem coords32_val (t : Fin (cfg32 a32).N) : ((cfg32 a32).grid.coords t 0).val = t.val := by
  have ht : t.val < 12500 := t.isLt
  show t.val / 1 % 12500 = t.val
  rw [Nat.div_one, Nat.mod_eq_of_lt ht]

/-- The gathered block read at row j, column l: the array at the row table word 8 t + j names. -/
theorem gblk32_apply (hlt : ∀ k : S100000.Idx, (tblw32 a32 k).toNat < 50000) (c : Dev nD) (t : Fin (cfg32 a32).N) (j : Fin 8) (l : Fin 128) :
    gblk32 V a32 c t (ValueIdx.ix2 j l)
      = V c main_v89 (ValueIdx.ix2 (⟨(tblw32 a32 (ValueIdx.ix1 (⟨8 * t.val + j.val, by
          have ht : t.val < 12500 := t.isLt
          omega⟩ : Fin 100000))).toNat, hlt _⟩ : Fin 50000) l) :=
  gath32_apply ((cfg32 a32).grid.coords t) (tblw32 a32) (V c main_v89) hlt j l (8 * t.val + j.val) (by rw [coords32_val]) _

end Cert.Kernel.Hand

end
-- ==== Proof.K.GatherDef33.lean ====
/-
  Region 33's gathered block, as a function.

  At grid point i region 33 leaves in its 8 x 128 output block, at row j and column l, the 50000 x 128 array's element at
  row (table word 8 i + j) and column l. gath33 is that block as a function of the point, the table and the array (total:
  a word is clamped to the array's last row, which changes nothing when every word is a row); gblk33 is the block of point
  t at the region's own table and array; gblk33_apply reads it at a row and a column.
-/
import proofs.«402049_j87351044866139_2_alg».proof.Proof.K.Gather33
import Idealize.ShloMosaic.Lib.ValueIdx

set_option maxRecDepth 16384

noncomputable section

namespace Cert.Kernel.Hand

open Idealize.ShloMosaic Idealize.ShloMosaic.TcCoe
open Idealize.ShloMosaic.Pipeline (Dat Cfg Window)
open Cert.Kernel Cert.Kernel.Gen

variable {F : FTy → Type} [FloatOps F]

/-! ## What the point writes -/

/-- The block the body leaves at grid point i: row j, column l is the array's row named by table word 8 i + j, column l.
    The word is clamped to the array's last row, so that the block is a total function of the table; under the table's
    range hypothesis the clamp does nothing. -/
def gath33 (i : grid33.Coords) (tbl : Vec F S100000 .i32) (A : Vec F S50000x128 .f32) : Vec F S8x128 .f32 := fun y =>
  A (ValueIdx.ix2 (⟨min (tbl (ValueIdx.ix1 (⟨8 * (i 0).val + (y 0).val, by
      have hi : (i 0).val < 12500 := (i 0).isLt
      have hy : (y 0).val < 8 := (y 0).isLt
      omega⟩ : Fin 100000))).toNat 49999, by omega⟩ : Fin 50000) (y 1 : Fin 128))

/-- The block at row j, column l, when the table's words are rows of the array: the array at that row and column. The
    table position is given as p with its equation, so that a caller states it in its own spelling. -/
theorem gath33_apply (i : grid33.Coords) (tbl : Vec F S100000 .i32) (A : Vec F S50000x128 .f32)
    (htbl : ∀ k, (tbl k).toNat < 50000) (j : Fin 8) (l : Fin 128) (p : ℕ) (hp : p = 8 * (i 0).val + j.val) (hp' : p < 100000) :
    gath33 i tbl A (ValueIdx.ix2 j l)
      = A (ValueIdx.ix2 (⟨(tbl (ValueIdx.ix1 (⟨p, hp'⟩ : Fin 100000))).toNat, htbl _⟩ : Fin 50000) l) := by
  subst hp
  have hm : min (tbl (ValueIdx.ix1 (⟨8 * (i 0).val + j.val, hp'⟩ : Fin 100000))).toNat 49999
      = (tbl (ValueIdx.ix1 (⟨8 * (i 0).val + j.val, hp'⟩ : Fin 100000))).toNat :=
    Nat.min_eq_left (by have := htbl (ValueIdx.ix1 (⟨8 * (i 0).val + j.val, hp'⟩ : Fin 100000)); omega)
  exact congrArg A (congrArg (fun r : Fin 50000 => ValueIdx.ix2 r l) (Fin.ext hm))

/-- The block on row j is the array on the row table word 8 i + j names: an element of the block on that row and an
    element of the array on that row, in the same column, are equal. -/
theorem gath33_row (i : grid33.Coords) (tbl : Vec F S100000 .i32) (A : Vec F S50000x128 .f32)
    (htbl : ∀ k, (tbl k).toNat < 50000) (j p : ℕ) (hp : p = 8 * (i 0).val + j) (hp' : p < 100000)
    (y : S8x128.Idx) (z : S50000x128.Idx) (hy : (y 0).val = j)
    (hz0 : (z 0).val = (tbl (ValueIdx.ix1 (⟨p, hp'⟩ : Fin 100000))).toNat) (hz1 : (z 1).val = (y 1).val) :
    gath33 i tbl A y = A z := by
  subst hp
  subst hy
  unfold gath33
  refine congrArg A (funext fun a => ?_)
  match a with
  | ⟨0, _⟩ =>
    refine Fin.ext ?_
    show min (tbl (ValueIdx.ix1 (⟨8 * (i 0).val + (y 0).val, _⟩ : Fin 100000))).toNat 49999 = (z 0).val
    rw [hz0]
    exact Nat.min_eq_left (by have := htbl (ValueIdx.ix1 (⟨8 * (i 0).val + (y 0).val, hp'⟩ : Fin 100000)); omega)
  | ⟨1, _⟩ => exact Fin.ext hz1.symm
variable (V : (c : Dev nD) → (b : Ref sig .tc) → Buf (Elt F) ((c : Thread nD τ).loc b))
variable (a33 : (pcfg33 (F := F)).Adm)

/-- The region's index table, as the pipeline holds it. -/
abbrev tblw33 : Vec F S100000 .i32 := a33.1 0

/-- The gathered block of grid point t on core c. -/
def gblk33 (c : Dev nD) (t : Fin (cfg33 a33).N) : S8x128.Idx → Elt F .f32 :=
  gath33 ((cfg33 a33).grid.coords t) (tblw33 a33) (V c main_v89)

/-- The point's number is its one coordinate. -/
theorem coords33_val (t : Fin (cfg33 a33).N) : ((cfg33 a33).grid.coords t 0).val = t.val := by
  have ht : t.val < 12500 := t.isLt
  show t.val / 1 % 12500 = t.val
  rw [Nat.div_one, Nat.mod_eq_of_lt ht]

/-- The gathered block read at row j, column l: the array at the row table word 8 t + j names. -/
theorem gblk33_apply (hlt : ∀ k : S100000.Idx, (tblw33 a33 k).toNat < 50000) (c : Dev nD) (t : Fin (cfg33 a33).N) (j : Fin 8) (l : Fin 128) :
    gblk33 V a33 c t (ValueIdx.ix2 j l)
      = V c main_v89 (ValueIdx.ix2 (⟨(tblw33 a33 (ValueIdx.ix1 (⟨8 * t.val + j.val, by
          have ht : t.val < 12500 := t.isLt
          omega⟩ : Fin 100000))).toNat, hlt _⟩ : Fin 50000) l) :=
  gath33_apply ((cfg33 a33).grid.coords t) (tblw33 a33) (V c main_v89) hlt j l (8 * t.val + j.val) (by rw [coords33_val]) _

end Cert.Kernel.Hand

end
-- ==== Proof.K.GatherDef34.lean ====
/-
  Region 34's gathered block, as a function.

  At grid point i region 34 leaves in its 8 x 128 output block, at row j and column l, the 50000 x 128 array's element at
  row (table word 8 i + j) and column l. gath34 is that block as a function of the point, the table and the array (total:
  a word is clamped to the array's last row, which changes nothing when every word is a row); gblk34 is the block of point
  t at the region's own table and array; gblk34_apply reads it at a row and a column.
-/
import proofs.«402049_j87351044866139_2_alg».proof.Proof.K.Gather34
import Idealize.ShloMosaic.Lib.ValueIdx

set_option maxRecDepth 16384

noncomputable section

namespace Cert.Kernel.Hand

open Idealize.ShloMosaic Idealize.ShloMosaic.TcCoe
open Idealize.ShloMosaic.Pipeline (Dat Cfg Window)
open Cert.Kernel Cert.Kernel.Gen

variable {F : FTy → Type} [FloatOps F]

/-! ## What the point writes -/

/-- The block the body leaves at grid point i: row j, column l is the array's row named by table word 8 i + j, column l.
    The word is clamped to the array's last row, so that the block is a total function of the table; under the table's
    range hypothesis the clamp does nothing. -/
def gath34 (i : grid34.Coords) (tbl : Vec F S100000 .i32) (A : Vec F S50000x128 .f32) : Vec F S8x128 .f32 := fun y =>
  A (ValueIdx.ix2 (⟨min (tbl (ValueIdx.ix1 (⟨8 * (i 0).val + (y 0).val, by
      have hi : (i 0).val < 12500 := (i 0).isLt
      have hy : (y 0).val < 8 := (y 0).isLt
      omega⟩ : Fin 100000))).toNat 49999, by omega⟩ : Fin 50000) (y 1 : Fin 128))

/-- The block at row j, column l, when the table's words are rows of the array: the array at that row and column. The
    table position is given as p with its equation, so that a caller states it in its own spelling. -/
theorem gath34_apply (i : grid34.Coords) (tbl : Vec F S100000 .i32) (A : Vec F S50000x128 .f32)
    (htbl : ∀ k, (tbl k).toNat < 50000) (j : Fin 8) (l : Fin 128) (p : ℕ) (hp : p = 8 * (i 0).val + j.val) (hp' : p < 100000) :
    gath34 i tbl A (ValueIdx.ix2 j l)
      = A (ValueIdx.ix2 (⟨(tbl (ValueIdx.ix1 (⟨p, hp'⟩ : Fin 100000))).toNat, htbl _⟩ : Fin 50000) l) := by
  subst hp
  have hm : min (tbl (ValueIdx.ix1 (⟨8 * (i 0).val + j.val, hp'⟩ : Fin 100000))).toNat 49999
      = (tbl (ValueIdx.ix1 (⟨8 * (i 0).val + j.val, hp'⟩ : Fin 100000))).toNat :=
    Nat.min_eq_left (by have := htbl (ValueIdx.ix1 (⟨8 * (i 0).val + j.val, hp'⟩ : Fin 100000)); omega)
  exact congrArg A (congrArg (fun r : Fin 50000 => ValueIdx.ix2 r l) (Fin.ext hm))

/-- The block on row j is the array on the row table word 8 i + j names: an element of the block on that row and an
    element of the array on that row, in the same column, are equal. -/
theorem gath34_row (i : grid34.Coords) (tbl : Vec F S100000 .i32) (A : Vec F S50000x128 .f32)
    (htbl : ∀ k, (tbl k).toNat < 50000) (j p : ℕ) (hp : p = 8 * (i 0).val + j) (hp' : p < 100000)
    (y : S8x128.Idx) (z : S50000x128.Idx) (hy : (y 0).val = j)
    (hz0 : (z 0).val = (tbl (ValueIdx.ix1 (⟨p, hp'⟩ : Fin 100000))).toNat) (hz1 : (z 1).val = (y 1).val) :
    gath34 i tbl A y = A z := by
  subst hp
  subst hy
  unfold gath34
  refine congrArg A (funext fun a => ?_)
  match a with
  | ⟨0, _⟩ =>
    refine Fin.ext ?_
    show min (tbl (ValueIdx.ix1 (⟨8 * (i 0).val + (y 0).val, _⟩ : Fin 100000))).toNat 49999 = (z 0).val
    rw [hz0]
    exact Nat.min_eq_left (by have := htbl (ValueIdx.ix1 (⟨8 * (i 0).val + (y 0).val, hp'⟩ : Fin 100000)); omega)
  | ⟨1, _⟩ => exact Fin.ext hz1.symm
variable (V : (c : Dev nD) → (b : Ref sig .tc) → Buf (Elt F) ((c : Thread nD τ).loc b))
variable (a34 : (pcfg34 (F := F)).Adm)

/-- The region's index table, as the pipeline holds it. -/
abbrev tblw34 : Vec F S100000 .i32 := a34.1 0

/-- The gathered block of grid point t on core c. -/
def gblk34 (c : Dev nD) (t : Fin (cfg34 a34).N) : S8x128.Idx → Elt F .f32 :=
  gath34 ((cfg34 a34).grid.coords t) (tblw34 a34) (V c main_v89)

/-- The point's number is its one coordinate. -/
theorem coords34_val (t : Fin (cfg34 a34).N) : ((cfg34 a34).grid.coords t 0).val = t.val := by
  have ht : t.val < 12500 := t.isLt
  show t.val / 1 % 12500 = t.val
  rw [Nat.div_one, Nat.mod_eq_of_lt ht]

/-- The gathered block read at row j, column l: the array at the row table word 8 t + j names. -/
theorem gblk34_apply (hlt : ∀ k : S100000.Idx, (tblw34 a34 k).toNat < 50000) (c : Dev nD) (t : Fin (cfg34 a34).N) (j : Fin 8) (l : Fin 128) :
    gblk34 V a34 c t (ValueIdx.ix2 j l)
      = V c main_v89 (ValueIdx.ix2 (⟨(tblw34 a34 (ValueIdx.ix1 (⟨8 * t.val + j.val, by
          have ht : t.val < 12500 := t.isLt
          omega⟩ : Fin 100000))).toNat, hlt _⟩ : Fin 50000) l) :=
  gath34_apply ((cfg34 a34).grid.coords t) (tblw34 a34) (V c main_v89) hlt j l (8 * t.val + j.val) (by rw [coords34_val]) _

end Cert.Kernel.Hand

end
-- ==== Proof.K.GatherDef35.lean ====
/-
  Region 35's gathered block, as a function.

  At grid point i region 35 leaves in its 8 x 128 output block, at row j and column l, the 50000 x 128 array's element at
  row (table word 8 i + j) and column l. gath35 is that block as a function of the point, the table and the array (total:
  a word is clamped to the array's last row, which changes nothing when every word is a row); gblk35 is the block of point
  t at the region's own table and array; gblk35_apply reads it at a row and a column.
-/
import proofs.«402049_j87351044866139_2_alg».proof.Proof.K.Gather35
import Idealize.ShloMosaic.Lib.ValueIdx

set_option maxRecDepth 16384

noncomputable section

namespace Cert.Kernel.Hand

open Idealize.ShloMosaic Idealize.ShloMosaic.TcCoe
open Idealize.ShloMosaic.Pipeline (Dat Cfg Window)
open Cert.Kernel Cert.Kernel.Gen

variable {F : FTy → Type} [FloatOps F]

/-! ## What the point writes -/

/-- The block the body leaves at grid point i: row j, column l is the array's row named by table word 8 i + j, column l.
    The word is clamped to the array's last row, so that the block is a total function of the table; under the table's
    range hypothesis the clamp does nothing. -/
def gath35 (i : grid35.Coords) (tbl : Vec F S100000 .i32) (A : Vec F S50000x128 .f32) : Vec F S8x128 .f32 := fun y =>
  A (ValueIdx.ix2 (⟨min (tbl (ValueIdx.ix1 (⟨8 * (i 0).val + (y 0).val, by
      have hi : (i 0).val < 12500 := (i 0).isLt
      have hy : (y 0).val < 8 := (y 0).isLt
      omega⟩ : Fin 100000))).toNat 49999, by omega⟩ : Fin 50000) (y 1 : Fin 128))

/-- The block at row j, column l, when the table's words are rows of the array: the array at that row and column. The
    table position is given as p with its equation, so that a caller states it in its own spelling. -/
theorem gath35_apply (i : grid35.Coords) (tbl : Vec F S100000 .i32) (A : Vec F S50000x128 .f32)
    (htbl : ∀ k, (tbl k).toNat < 50000) (j : Fin 8) (l : Fin 128) (p : ℕ) (hp : p = 8 * (i 0).val + j.val) (hp' : p < 100000) :
    gath35 i tbl A (ValueIdx.ix2 j l)
      = A (ValueIdx.ix2 (⟨(tbl (ValueIdx.ix1 (⟨p, hp'⟩ : Fin 100000))).toNat, htbl _⟩ : Fin 50000) l) := by
  subst hp
  have hm : min (tbl (ValueIdx.ix1 (⟨8 * (i 0).val + j.val, hp'⟩ : Fin 100000))).toNat 49999
      = (tbl (ValueIdx.ix1 (⟨8 * (i 0).val + j.val, hp'⟩ : Fin 100000))).toNat :=
    Nat.min_eq_left (by have := htbl (ValueIdx.ix1 (⟨8 * (i 0).val + j.val, hp'⟩ : Fin 100000)); omega)
  exact congrArg A (congrArg (fun r : Fin 50000 => ValueIdx.ix2 r l) (Fin.ext hm))

/-- The block on row j is the array on the row table word 8 i + j names: an element of the block on that row and an
    element of the array on that row, in the same column, are equal. -/
theorem gath35_row (i : grid35.Coords) (tbl : Vec F S100000 .i32) (A : Vec F S50000x128 .f32)
    (htbl : ∀ k, (tbl k).toNat < 50000) (j p : ℕ) (hp : p = 8 * (i 0).val + j) (hp' : p < 100000)
    (y : S8x128.Idx) (z : S50000x128.Idx) (hy : (y 0).val = j)
    (hz0 : (z 0).val = (tbl (ValueIdx.ix1 (⟨p, hp'⟩ : Fin 100000))).toNat) (hz1 : (z 1).val = (y 1).val) :
    gath35 i tbl A y = A z := by
  subst hp
  subst hy
  unfold gath35
  refine congrArg A (funext fun a => ?_)
  match a with
  | ⟨0, _⟩ =>
    refine Fin.ext ?_
    show min (tbl (ValueIdx.ix1 (⟨8 * (i 0).val + (y 0).val, _⟩ : Fin 100000))).toNat 49999 = (z 0).val
    rw [hz0]
    exact Nat.min_eq_left (by have := htbl (ValueIdx.ix1 (⟨8 * (i 0).val + (y 0).val, hp'⟩ : Fin 100000)); omega)
  | ⟨1, _⟩ => exact Fin.ext hz1.symm
variable (V : (c : Dev nD) → (b : Ref sig .tc) → Buf (Elt F) ((c : Thread nD τ).loc b))
variable (a35 : (pcfg35 (F := F)).Adm)

/-- The region's index table, as the pipeline holds it. -/
abbrev tblw35 : Vec F S100000 .i32 := a35.1 0

/-- The gathered block of grid point t on core c. -/
def gblk35 (c : Dev nD) (t : Fin (cfg35 a35).N) : S8x128.Idx → Elt F .f32 :=
  gath35 ((cfg35 a35).grid.coords t) (tblw35 a35) (V c main_v89)

/-- The point's number is its one coordinate. -/
theorem coords35_val (t : Fin (cfg35 a35).N) : ((cfg35 a35).grid.coords t 0).val = t.val := by
  have ht : t.val < 12500 := t.isLt
  show t.val / 1 % 12500 = t.val
  rw [Nat.div_one, Nat.mod_eq_of_lt ht]

/-- The gathered block read at row j, column l: the array at the row table word 8 t + j names. -/
theorem gblk35_apply (hlt : ∀ k : S100000.Idx, (tblw35 a35 k).toNat < 50000) (c : Dev nD) (t : Fin (cfg35 a35).N) (j : Fin 8) (l : Fin 128) :
    gblk35 V a35 c t (ValueIdx.ix2 j l)
      = V c main_v89 (ValueIdx.ix2 (⟨(tblw35 a35 (ValueIdx.ix1 (⟨8 * t.val + j.val, by
          have ht : t.val < 12500 := t.isLt
          omega⟩ : Fin 100000))).toNat, hlt _⟩ : Fin 50000) l) :=
  gath35_apply ((cfg35 a35).grid.coords t) (tblw35 a35) (V c main_v89) hlt j l (8 * t.val + j.val) (by rw [coords35_val]) _

end Cert.Kernel.Hand

end
-- ==== Proof.K.GatherDef36.lean ====
/-
  Region 36's gathered block, as a function.

  At grid point i region 36 leaves in its 8 x 128 output block, at row j and column l, the 50000 x 128 array's element at
  row (table word 8 i + j) and column l. gath36 is that block as a function of the point, the table and the array (total:
  a word is clamped to the array's last row, which changes nothing when every word is a row); gblk36 is the block of point
  t at the region's own table and array; gblk36_apply reads it at a row and a column.
-/
import proofs.«402049_j87351044866139_2_alg».proof.Proof.K.Gather36
import Idealize.ShloMosaic.Lib.ValueIdx

set_option maxRecDepth 16384

noncomputable section

namespace Cert.Kernel.Hand

open Idealize.ShloMosaic Idealize.ShloMosaic.TcCoe
open Idealize.ShloMosaic.Pipeline (Dat Cfg Window)
open Cert.Kernel Cert.Kernel.Gen

variable {F : FTy → Type} [FloatOps F]

/-! ## What the point writes -/

/-- The block the body leaves at grid point i: row j, column l is the array's row named by table word 8 i + j, column l.
    The word is clamped to the array's last row, so that the block is a total function of the table; under the table's
    range hypothesis the clamp does nothing. -/
def gath36 (i : grid36.Coords) (tbl : Vec F S100000 .i32) (A : Vec F S50000x128 .f32) : Vec F S8x128 .f32 := fun y =>
  A (ValueIdx.ix2 (⟨min (tbl (ValueIdx.ix1 (⟨8 * (i 0).val + (y 0).val, by
      have hi : (i 0).val < 12500 := (i 0).isLt
      have hy : (y 0).val < 8 := (y 0).isLt
      omega⟩ : Fin 100000))).toNat 49999, by omega⟩ : Fin 50000) (y 1 : Fin 128))

/-- The block at row j, column l, when the table's words are rows of the array: the array at that row and column. The
    table position is given as p with its equation, so that a caller states it in its own spelling. -/
theorem gath36_apply (i : grid36.Coords) (tbl : Vec F S100000 .i32) (A : Vec F S50000x128 .f32)
    (htbl : ∀ k, (tbl k).toNat < 50000) (j : Fin 8) (l : Fin 128) (p : ℕ) (hp : p = 8 * (i 0).val + j.val) (hp' : p < 100000) :
    gath36 i tbl A (ValueIdx.ix2 j l)
      = A (ValueIdx.ix2 (⟨(tbl (ValueIdx.ix1 (⟨p, hp'⟩ : Fin 100000))).toNat, htbl _⟩ : Fin 50000) l) := by
  subst hp
  have hm : min (tbl (ValueIdx.ix1 (⟨8 * (i 0).val + j.val, hp'⟩ : Fin 100000))).toNat 49999
      = (tbl (ValueIdx.ix1 (⟨8 * (i 0).val + j.val, hp'⟩ : Fin 100000))).toNat :=
    Nat.min_eq_left (by have := htbl (ValueIdx.ix1 (⟨8 * (i 0).val + j.val, hp'⟩ : Fin 100000)); omega)
  exact congrArg A (congrArg (fun r : Fin 50000 => ValueIdx.ix2 r l) (Fin.ext hm))

/-- The block on row j is the array on the row table word 8 i + j names: an element of the block on that row and an
    element of the array on that row, in the same column, are equal. -/
theorem gath36_row (i : grid36.Coords) (tbl : Vec F S100000 .i32) (A : Vec F S50000x128 .f32)
    (htbl : ∀ k, (tbl k).toNat < 50000) (j p : ℕ) (hp : p = 8 * (i 0).val + j) (hp' : p < 100000)
    (y : S8x128.Idx) (z : S50000x128.Idx) (hy : (y 0).val = j)
    (hz0 : (z 0).val = (tbl (ValueIdx.ix1 (⟨p, hp'⟩ : Fin 100000))).toNat) (hz1 : (z 1).val = (y 1).val) :
    gath36 i tbl A y = A z := by
  subst hp
  subst hy
  unfold gath36
  refine congrArg A (funext fun a => ?_)
  match a with
  | ⟨0, _⟩ =>
    refine Fin.ext ?_
    show min (tbl (ValueIdx.ix1 (⟨8 * (i 0).val + (y 0).val, _⟩ : Fin 100000))).toNat 49999 = (z 0).val
    rw [hz0]
    exact Nat.min_eq_left (by have := htbl (ValueIdx.ix1 (⟨8 * (i 0).val + (y 0).val, hp'⟩ : Fin 100000)); omega)
  | ⟨1, _⟩ => exact Fin.ext hz1.symm
variable (V : (c : Dev nD) → (b : Ref sig .tc) → Buf (Elt F) ((c : Thread nD τ).loc b))
variable (a36 : (pcfg36 (F := F)).Adm)

/-- The region's index table, as the pipeline holds it. -/
abbrev tblw36 : Vec F S100000 .i32 := a36.1 0

/-- The gathered block of grid point t on core c. -/
def gblk36 (c : Dev nD) (t : Fin (cfg36 a36).N) : S8x128.Idx → Elt F .f32 :=
  gath36 ((cfg36 a36).grid.coords t) (tblw36 a36) (V c main_v89)

/-- The point's number is its one coordinate. -/
theorem coords36_val (t : Fin (cfg36 a36).N) : ((cfg36 a36).grid.coords t 0).val = t.val := by
  have ht : t.val < 12500 := t.isLt
  show t.val / 1 % 12500 = t.val
  rw [Nat.div_one, Nat.mod_eq_of_lt ht]

/-- The gathered block read at row j, column l: the array at the row table word 8 t + j names. -/
theorem gblk36_apply (hlt : ∀ k : S100000.Idx, (tblw36 a36 k).toNat < 50000) (c : Dev nD) (t : Fin (cfg36 a36).N) (j : Fin 8) (l : Fin 128) :
    gblk36 V a36 c t (ValueIdx.ix2 j l)
      = V c main_v89 (ValueIdx.ix2 (⟨(tblw36 a36 (ValueIdx.ix1 (⟨8 * t.val + j.val, by
          have ht : t.val < 12500 := t.isLt
          omega⟩ : Fin 100000))).toNat, hlt _⟩ : Fin 50000) l) :=
  gath36_apply ((cfg36 a36).grid.coords t) (tblw36 a36) (V c main_v89) hlt j l (8 * t.val + j.val) (by rw [coords36_val]) _

end Cert.Kernel.Hand

end
-- ==== Proof.K.GatherDef37.lean ====
/-
  Region 37's gathered block, as a function.

  At grid point i region 37 leaves in its 8 x 128 output block, at row j and column l, the 50000 x 128 array's element at
  row (table word 8 i + j) and column l. gath37 is that block as a function of the point, the table and the array (total:
  a word is clamped to the array's last row, which changes nothing when every word is a row); gblk37 is the block of point
  t at the region's own table and array; gblk37_apply reads it at a row and a column.
-/
import proofs.«402049_j87351044866139_2_alg».proof.Proof.K.Gather37
import Idealize.ShloMosaic.Lib.ValueIdx

set_option maxRecDepth 16384

noncomputable section

namespace Cert.Kernel.Hand

open Idealize.ShloMosaic Idealize.ShloMosaic.TcCoe
open Idealize.ShloMosaic.Pipeline (Dat Cfg Window)
open Cert.Kernel Cert.Kernel.Gen

variable {F : FTy → Type} [FloatOps F]

/-! ## What the point writes -/

/-- The block the body leaves at grid point i: row j, column l is the array's row named by table word 8 i + j, column l.
    The word is clamped to the array's last row, so that the block is a total function of the table; under the table's
    range hypothesis the clamp does nothing. -/
def gath37 (i : grid37.Coords) (tbl : Vec F S100000 .i32) (A : Vec F S50000x128 .f32) : Vec F S8x128 .f32 := fun y =>
  A (ValueIdx.ix2 (⟨min (tbl (ValueIdx.ix1 (⟨8 * (i 0).val + (y 0).val, by
      have hi : (i 0).val < 12500 := (i 0).isLt
      have hy : (y 0).val < 8 := (y 0).isLt
      omega⟩ : Fin 100000))).toNat 49999, by omega⟩ : Fin 50000) (y 1 : Fin 128))

/-- The block at row j, column l, when the table's words are rows of the array: the array at that row and column. The
    table position is given as p with its equation, so that a caller states it in its own spelling. -/
theorem gath37_apply (i : grid37.Coords) (tbl : Vec F S100000 .i32) (A : Vec F S50000x128 .f32)
    (htbl : ∀ k, (tbl k).toNat < 50000) (j : Fin 8) (l : Fin 128) (p : ℕ) (hp : p = 8 * (i 0).val + j.val) (hp' : p < 100000) :
    gath37 i tbl A (ValueIdx.ix2 j l)
      = A (ValueIdx.ix2 (⟨(tbl (ValueIdx.ix1 (⟨p, hp'⟩ : Fin 100000))).toNat, htbl _⟩ : Fin 50000) l) := by
  subst hp
  have hm : min (tbl (ValueIdx.ix1 (⟨8 * (i 0).val + j.val, hp'⟩ : Fin 100000))).toNat 49999
      = (tbl (ValueIdx.ix1 (⟨8 * (i 0).val + j.val, hp'⟩ : Fin 100000))).toNat :=
    Nat.min_eq_left (by have := htbl (ValueIdx.ix1 (⟨8 * (i 0).val + j.val, hp'⟩ : Fin 100000)); omega)
  exact congrArg A (congrArg (fun r : Fin 50000 => ValueIdx.ix2 r l) (Fin.ext hm))

/-- The block on row j is the array on the row table word 8 i + j names: an element of the block on that row and an
    element of the array on that row, in the same column, are equal. -/
theorem gath37_row (i : grid37.Coords) (tbl : Vec F S100000 .i32) (A : Vec F S50000x128 .f32)
    (htbl : ∀ k, (tbl k).toNat < 50000) (j p : ℕ) (hp : p = 8 * (i 0).val + j) (hp' : p < 100000)
    (y : S8x128.Idx) (z : S50000x128.Idx) (hy : (y 0).val = j)
    (hz0 : (z 0).val = (tbl (ValueIdx.ix1 (⟨p, hp'⟩ : Fin 100000))).toNat) (hz1 : (z 1).val = (y 1).val) :
    gath37 i tbl A y = A z := by
  subst hp
  subst hy
  unfold gath37
  refine congrArg A (funext fun a => ?_)
  match a with
  | ⟨0, _⟩ =>
    refine Fin.ext ?_
    show min (tbl (ValueIdx.ix1 (⟨8 * (i 0).val + (y 0).val, _⟩ : Fin 100000))).toNat 49999 = (z 0).val
    rw [hz0]
    exact Nat.min_eq_left (by have := htbl (ValueIdx.ix1 (⟨8 * (i 0).val + (y 0).val, hp'⟩ : Fin 100000)); omega)
  | ⟨1, _⟩ => exact Fin.ext hz1.symm
variable (V : (c : Dev nD) → (b : Ref sig .tc) → Buf (Elt F) ((c : Thread nD τ).loc b))
variable (a37 : (pcfg37 (F := F)).Adm)

/-- The region's index table, as the pipeline holds it. -/
abbrev tblw37 : Vec F S100000 .i32 := a37.1 0

/-- The gathered block of grid point t on core c. -/
def gblk37 (c : Dev nD) (t : Fin (cfg37 a37).N) : S8x128.Idx → Elt F .f32 :=
  gath37 ((cfg37 a37).grid.coords t) (tblw37 a37) (V c main_v89)

/-- The point's number is its one coordinate. -/
theorem coords37_val (t : Fin (cfg37 a37).N) : ((cfg37 a37).grid.coords t 0).val = t.val := by
  have ht : t.val < 12500 := t.isLt
  show t.val / 1 % 12500 = t.val
  rw [Nat.div_one, Nat.mod_eq_of_lt ht]

/-- The gathered block read at row j, column l: the array at the row table word 8 t + j names. -/
theorem gblk37_apply (hlt : ∀ k : S100000.Idx, (tblw37 a37 k).toNat < 50000) (c : Dev nD) (t : Fin (cfg37 a37).N) (j : Fin 8) (l : Fin 128) :
    gblk37 V a37 c t (ValueIdx.ix2 j l)
      = V c main_v89 (ValueIdx.ix2 (⟨(tblw37 a37 (ValueIdx.ix1 (⟨8 * t.val + j.val, by
          have ht : t.val < 12500 := t.isLt
          omega⟩ : Fin 100000))).toNat, hlt _⟩ : Fin 50000) l) :=
  gath37_apply ((cfg37 a37).grid.coords t) (tblw37 a37) (V c main_v89) hlt j l (8 * t.val + j.val) (by rw [coords37_val]) _

end Cert.Kernel.Hand

end
-- ==== Proof.K.GatherDef38.lean ====
/-
  Region 38's gathered block, as a function.

  At grid point i region 38 leaves in its 8 x 128 output block, at row j and column l, the 50000 x 128 array's element at
  row (table word 8 i + j) and column l. gath38 is that block as a function of the point, the table and the array (total:
  a word is clamped to the array's last row, which changes nothing when every word is a row); gblk38 is the block of point
  t at the region's own table and array; gblk38_apply reads it at a row and a column.
-/
import proofs.«402049_j87351044866139_2_alg».proof.Proof.K.Gather38
import Idealize.ShloMosaic.Lib.ValueIdx

set_option maxRecDepth 16384

noncomputable section

namespace Cert.Kernel.Hand

open Idealize.ShloMosaic Idealize.ShloMosaic.TcCoe
open Idealize.ShloMosaic.Pipeline (Dat Cfg Window)
open Cert.Kernel Cert.Kernel.Gen

variable {F : FTy → Type} [FloatOps F]

/-! ## What the point writes -/

/-- The block the body leaves at grid point i: row j, column l is the array's row named by table word 8 i + j, column l.
    The word is clamped to the array's last row, so that the block is a total function of the table; under the table's
    range hypothesis the clamp does nothing. -/
def gath38 (i : grid38.Coords) (tbl : Vec F S100000 .i32) (A : Vec F S50000x128 .f32) : Vec F S8x128 .f32 := fun y =>
  A (ValueIdx.ix2 (⟨min (tbl (ValueIdx.ix1 (⟨8 * (i 0).val + (y 0).val, by
      have hi : (i 0).val < 12500 := (i 0).isLt
      have hy : (y 0).val < 8 := (y 0).isLt
      omega⟩ : Fin 100000))).toNat 49999, by omega⟩ : Fin 50000) (y 1 : Fin 128))

/-- The block at row j, column l, when the table's words are rows of the array: the array at that row and column. The
    table position is given as p with its equation, so that a caller states it in its own spelling. -/
theorem gath38_apply (i : grid38.Coords) (tbl : Vec F S100000 .i32) (A : Vec F S50000x128 .f32)
    (htbl : ∀ k, (tbl k).toNat < 50000) (j : Fin 8) (l : Fin 128) (p : ℕ) (hp : p = 8 * (i 0).val + j.val) (hp' : p < 100000) :
    gath38 i tbl A (ValueIdx.ix2 j l)
      = A (ValueIdx.ix2 (⟨(tbl (ValueIdx.ix1 (⟨p, hp'⟩ : Fin 100000))).toNat, htbl _⟩ : Fin 50000) l) := by
  subst hp
  have hm : min (tbl (ValueIdx.ix1 (⟨8 * (i 0).val + j.val, hp'⟩ : Fin 100000))).toNat 49999
      = (tbl (ValueIdx.ix1 (⟨8 * (i 0).val + j.val, hp'⟩ : Fin 100000))).toNat :=
    Nat.min_eq_left (by have := htbl (ValueIdx.ix1 (⟨8 * (i 0).val + j.val, hp'⟩ : Fin 100000)); omega)
  exact congrArg A (congrArg (fun r : Fin 50000 => ValueIdx.ix2 r l) (Fin.ext hm))

/-- The block on row j is the array on the row table word 8 i + j names: an element of the block on that row and an
    element of the array on that row, in the same column, are equal. -/
theorem gath38_row (i : grid38.Coords) (tbl : Vec F S100000 .i32) (A : Vec F S50000x128 .f32)
    (htbl : ∀ k, (tbl k).toNat < 50000) (j p : ℕ) (hp : p = 8 * (i 0).val + j) (hp' : p < 100000)
    (y : S8x128.Idx) (z : S50000x128.Idx) (hy : (y 0).val = j)
    (hz0 : (z 0).val = (tbl (ValueIdx.ix1 (⟨p, hp'⟩ : Fin 100000))).toNat) (hz1 : (z 1).val = (y 1).val) :
    gath38 i tbl A y = A z := by
  subst hp
  subst hy
  unfold gath38
  refine congrArg A (funext fun a => ?_)
  match a with
  | ⟨0, _⟩ =>
    refine Fin.ext ?_
    show min (tbl (ValueIdx.ix1 (⟨8 * (i 0).val + (y 0).val, _⟩ : Fin 100000))).toNat 49999 = (z 0).val
    rw [hz0]
    exact Nat.min_eq_left (by have := htbl (ValueIdx.ix1 (⟨8 * (i 0).val + (y 0).val, hp'⟩ : Fin 100000)); omega)
  | ⟨1, _⟩ => exact Fin.ext hz1.symm
variable (V : (c : Dev nD) → (b : Ref sig .tc) → Buf (Elt F) ((c : Thread nD τ).loc b))
variable (a38 : (pcfg38 (F := F)).Adm)

/-- The region's index table, as the pipeline holds it. -/
abbrev tblw38 : Vec F S100000 .i32 := a38.1 0

/-- The gathered block of grid point t on core c. -/
def gblk38 (c : Dev nD) (t : Fin (cfg38 a38).N) : S8x128.Idx → Elt F .f32 :=
  gath38 ((cfg38 a38).grid.coords t) (tblw38 a38) (V c main_v89)

/-- The point's number is its one coordinate. -/
theorem coords38_val (t : Fin (cfg38 a38).N) : ((cfg38 a38).grid.coords t 0).val = t.val := by
  have ht : t.val < 12500 := t.isLt
  show t.val / 1 % 12500 = t.val
  rw [Nat.div_one, Nat.mod_eq_of_lt ht]

/-- The gathered block read at row j, column l: the array at the row table word 8 t + j names. -/
theorem gblk38_apply (hlt : ∀ k : S100000.Idx, (tblw38 a38 k).toNat < 50000) (c : Dev nD) (t : Fin (cfg38 a38).N) (j : Fin 8) (l : Fin 128) :
    gblk38 V a38 c t (ValueIdx.ix2 j l)
      = V c main_v89 (ValueIdx.ix2 (⟨(tblw38 a38 (ValueIdx.ix1 (⟨8 * t.val + j.val, by
          have ht : t.val < 12500 := t.isLt
          omega⟩ : Fin 100000))).toNat, hlt _⟩ : Fin 50000) l) :=
  gath38_apply ((cfg38 a38).grid.coords t) (tblw38 a38) (V c main_v89) hlt j l (8 * t.val + j.val) (by rw [coords38_val]) _

end Cert.Kernel.Hand

end
-- ==== Proof.K.Chain.lean ====
import proofs.«402049_j87351044866139_2_alg».proof.Proof.K.RegionsP
import proofs.«402049_j87351044866139_2_alg».proof.Proof.K.Inst
import proofs.«402049_j87351044866139_2_alg».proof.Proof.K.Dense0
import proofs.«402049_j87351044866139_2_alg».proof.Proof.K.Dense11
import proofs.«402049_j87351044866139_2_alg».proof.Proof.K.Dense22
import proofs.«402049_j87351044866139_2_alg».proof.Proof.K.Dense39
import proofs.«402049_j87351044866139_2_alg».proof.Proof.K.Gather1
import proofs.«402049_j87351044866139_2_alg».proof.Proof.K.Gather2
import proofs.«402049_j87351044866139_2_alg».proof.Proof.K.Gather3
import proofs.«402049_j87351044866139_2_alg».proof.Proof.K.Gather4
import proofs.«402049_j87351044866139_2_alg».proof.Proof.K.Gather5
import proofs.«402049_j87351044866139_2_alg».proof.Proof.K.Gather6
import proofs.«402049_j87351044866139_2_alg».proof.Proof.K.Gather7
import proofs.«402049_j87351044866139_2_alg».proof.Proof.K.Gather8
import proofs.«402049_j87351044866139_2_alg».proof.Proof.K.Gather9
import proofs.«402049_j87351044866139_2_alg».proof.Proof.K.Gather10
import proofs.«402049_j87351044866139_2_alg».proof.Proof.K.Gather12
import proofs.«402049_j87351044866139_2_alg».proof.Proof.K.Gather13
import proofs.«402049_j87351044866139_2_alg».proof.Proof.K.Gather14
import proofs.«402049_j87351044866139_2_alg».proof.Proof.K.Gather15
import proofs.«402049_j87351044866139_2_alg».proof.Proof.K.Gather16
import proofs.«402049_j87351044866139_2_alg».proof.Proof.K.Gather17
import proofs.«402049_j87351044866139_2_alg».proof.Proof.K.Gather18
import proofs.«402049_j87351044866139_2_alg».proof.Proof.K.Gather19
import proofs.«402049_j87351044866139_2_alg».proof.Proof.K.Gather20
import proofs.«402049_j87351044866139_2_alg».proof.Proof.K.Gather21
import proofs.«402049_j87351044866139_2_alg».proof.Proof.K.Gather23
import proofs.«402049_j87351044866139_2_alg».proof.Proof.K.Gather24
import proofs.«402049_j87351044866139_2_alg».proof.Proof.K.Gather25
import proofs.«402049_j87351044866139_2_alg».proof.Proof.K.Gather26
import proofs.«402049_j87351044866139_2_alg».proof.Proof.K.Gather27
import proofs.«402049_j87351044866139_2_alg».proof.Proof.K.Gather28
import proofs.«402049_j87351044866139_2_alg».proof.Proof.K.Gather29
import proofs.«402049_j87351044866139_2_alg».proof.Proof.K.Gather30
import proofs.«402049_j87351044866139_2_alg».proof.Proof.K.Gather31
import proofs.«402049_j87351044866139_2_alg».proof.Proof.K.Gather32
import proofs.«402049_j87351044866139_2_alg».proof.Proof.K.Gather33
import proofs.«402049_j87351044866139_2_alg».proof.Proof.K.Gather34
import proofs.«402049_j87351044866139_2_alg».proof.Proof.K.Gather35
import proofs.«402049_j87351044866139_2_alg».proof.Proof.K.Gather36
import proofs.«402049_j87351044866139_2_alg».proof.Proof.K.Gather37
import proofs.«402049_j87351044866139_2_alg».proof.Proof.K.Gather38
import proofs.«402049_j87351044866139_2_alg».proof.Proof.K.GatherDef1
import proofs.«402049_j87351044866139_2_alg».proof.Proof.K.GatherDef2
import proofs.«402049_j87351044866139_2_alg».proof.Proof.K.GatherDef3
import proofs.«402049_j87351044866139_2_alg».proof.Proof.K.GatherDef4
import proofs.«402049_j87351044866139_2_alg».proof.Proof.K.GatherDef5
import proofs.«402049_j87351044866139_2_alg».proof.Proof.K.GatherDef6
import proofs.«402049_j87351044866139_2_alg».proof.Proof.K.GatherDef7
import proofs.«402049_j87351044866139_2_alg».proof.Proof.K.GatherDef8
import proofs.«402049_j87351044866139_2_alg».proof.Proof.K.GatherDef9
import proofs.«402049_j87351044866139_2_alg».proof.Proof.K.GatherDef10
import proofs.«402049_j87351044866139_2_alg».proof.Proof.K.GatherDef12
import proofs.«402049_j87351044866139_2_alg».proof.Proof.K.GatherDef13
import proofs.«402049_j87351044866139_2_alg».proof.Proof.K.GatherDef14
import proofs.«402049_j87351044866139_2_alg».proof.Proof.K.GatherDef15
import proofs.«402049_j87351044866139_2_alg».proof.Proof.K.GatherDef16
import proofs.«402049_j87351044866139_2_alg».proof.Proof.K.GatherDef17
import proofs.«402049_j87351044866139_2_alg».proof.Proof.K.GatherDef18
import proofs.«402049_j87351044866139_2_alg».proof.Proof.K.GatherDef19
import proofs.«402049_j87351044866139_2_alg».proof.Proof.K.GatherDef20
import proofs.«402049_j87351044866139_2_alg».proof.Proof.K.GatherDef21
import proofs.«402049_j87351044866139_2_alg».proof.Proof.K.GatherDef23
import proofs.«402049_j87351044866139_2_alg».proof.Proof.K.GatherDef24
import proofs.«402049_j87351044866139_2_alg».proof.Proof.K.GatherDef25
import proofs.«402049_j87351044866139_2_alg».proof.Proof.K.GatherDef26
import proofs.«402049_j87351044866139_2_alg».proof.Proof.K.GatherDef27
import proofs.«402049_j87351044866139_2_alg».proof.Proof.K.GatherDef28
import proofs.«402049_j87351044866139_2_alg».proof.Proof.K.GatherDef29
import proofs.«402049_j87351044866139_2_alg».proof.Proof.K.GatherDef30
import proofs.«402049_j87351044866139_2_alg».proof.Proof.K.GatherDef31
import proofs.«402049_j87351044866139_2_alg».proof.Proof.K.GatherDef32
import proofs.«402049_j87351044866139_2_alg».proof.Proof.K.GatherDef33
import proofs.«402049_j87351044866139_2_alg».proof.Proof.K.GatherDef34
import proofs.«402049_j87351044866139_2_alg».proof.Proof.K.GatherDef35
import proofs.«402049_j87351044866139_2_alg».proof.Proof.K.GatherDef36
import proofs.«402049_j87351044866139_2_alg».proof.Proof.K.GatherDef37
import proofs.«402049_j87351044866139_2_alg».proof.Proof.K.GatherDef38
import Idealize.ShloMosaic.Lib.Pipeline.RegionsLoop

/-! The kernel side's spine: what core c's unscoped buffers really hold between the items of @main (the launch contents,
    each host stretch applied, each region's output array at what its pipeline's write-backs leave), those contents as
    the conditional frame's unknowns, every pipeline's tables and proof data, every region's record over the thread
    states, and the run with its results named at the last valuation. -/

set_option maxRecDepth 16384

noncomputable section

namespace Cert.Kernel.Hand

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg BodyObligation BodyObligationLoose)

variable {F : FTy → Type} [FloatOps F]

local notation "𝕄" => MT nD τ sig Unit (Elt F) ℕ UU ℕ

/-! ## Moving between the thread state and a region's protocol

  Between two items core c holds every unscoped buffer whole at a valuation, beside its generator register and the
  record that it owes nothing. A region takes its arrays out of the buffers and the register into its invariant, and
  gives them back. -/

section Shuffle

variable (c : Dev nD)

/-- With no table there is nothing to hold. -/
theorem prefHeld_none_intro (q : Fin (Pipeline.Prefetch.none (sig := sig)).K → PosShare TreeShare)
    (v : (Pipeline.Prefetch.none (sig := sig)).Contents (Elt F)) :
    (BI.emp : sProp 𝕄) ⊢ Pipeline.prefHeld Pipeline.Prefetch.none c q v := by
  unfold Pipeline.prefHeld
  rw [show (Finset.univ : Finset (Fin 0)) = ∅ from rfl, BI.bigSep_empty]

/-- A core that owes nothing owes the first point's dues, when those are none and nothing is recorded against it. -/
theorem owesAt_first {cfg : Pipeline.Cfg sig Λ₀} (dat : Dat τ (Elt F) Unit ℕ UU ℕ cfg c)
    (h0 : dat.owed 0 = 0) (hrec : dat.recorded 0 = Set.univ) :
    (iprop(∃ Wd, owes (c : Thread nD τ) (0 : CellTallies nD τ sig Unit) Wd) : sProp 𝕄) ⊢ dat.owesAt () 0 := by
  unfold Pipeline.Dat.owesAt Pipeline.owesWithin
  rw [h0]
  iintro ⟨%Wd, HO⟩
  iexists Wd
  isplitr
  · ipureintro; intro x _; exact Or.inl (hrec ▸ Set.mem_univ x)
  iexact HO

/-- And at the last point, dues that are none leave the core owing nothing. -/
theorem owes_of_owesAt_last {cfg : Pipeline.Cfg sig Λ₀} (dat : Dat τ (Elt F) Unit ℕ UU ℕ cfg c)
    (hN : dat.owed (Fin.last cfg.N) = 0) :
    dat.owesAt () (Fin.last cfg.N) ⊢ (iprop(∃ Wd, owes (c : Thread nD τ) (0 : CellTallies nD τ sig Unit) Wd) : sProp 𝕄) := by
  unfold Pipeline.Dat.owesAt Pipeline.owesWithin
  rw [hN]
  iintro ⟨%Wd, -, HO⟩
  iexists Wd; iexact HO

/-- ENTRY of a region whose invariant keeps, of the thread state, only the generator register: the buffers split
    into the region's arrays and the rest, the dues handed over, the semaphores and level facts not needed. -/
theorem enterA (W : Valuation τ sig (Elt F)) {A T O Zr S Lv : sProp 𝕄}
    (hsplit : (StableHlo.held (c : Thread nD τ) (Pipeline.ucRefs τ sig) W : sProp 𝕄) ⊢ iprop(A ∗ Zr))
    (hT : (BI.emp : sProp 𝕄) ⊢ T)
    (hO : (iprop(∃ Wd, owes (c : Thread nD τ) (0 : CellTallies nD τ sig Unit) Wd) : sProp 𝕄) ⊢ O) :
    iprop((StableHlo.held (c : Thread nD τ) (Pipeline.ucRefs τ sig) W ∗ R (F := F) c) ∗ S ∗ Lv)
      ⊢ (|={Set.univ}=> iprop(A ∗ T ∗ O ∗ (∃ r, prngReg c r) ∗ Zr) : sProp 𝕄) := by
  iintro ⟨⟨Hh, Hp, HO⟩, -, -⟩
  ihave H := hsplit $$ Hh
  icases H with ⟨Ha, Hz⟩
  imodintro
  isplitl [Ha]; · iexact Ha
  isplitr; · iapply hT; iempintro
  isplitl [HO]; · iapply hO; iexact HO
  isplitl [Hp]; · iexact Hp
  iexact Hz

/-- EXIT of such a region: the arrays at their final contents rejoin the rest as the buffers at the next valuation. -/
theorem leaveA (W' : Valuation τ sig (Elt F)) {A O Zr : sProp 𝕄}
    (hjoin : iprop(A ∗ Zr) ⊢ (StableHlo.held (c : Thread nD τ) (Pipeline.ucRefs τ sig) W' : sProp 𝕄))
    (hO : O ⊢ (iprop(∃ Wd, owes (c : Thread nD τ) (0 : CellTallies nD τ sig Unit) Wd) : sProp 𝕄)) :
    iprop(A ∗ O ∗ (∃ r, prngReg c r) ∗ Zr)
      ⊢ (|={Set.univ}=> iprop(StableHlo.held (c : Thread nD τ) (Pipeline.ucRefs τ sig) W' ∗ R (F := F) c) : sProp 𝕄) := by
  iintro ⟨Ha, HO, Hp, Hz⟩
  imodintro
  isplitl [Ha Hz]
  · iapply hjoin; isplitl [Ha] <;> iassumption
  isplitl [Hp]; · iexact Hp
  iapply hO; iexact HO

end Shuffle

/-! ## A function updated at the values of another -/

section Upd

variable {α : Type} [DecidableEq α] {β : α → Type}

/-- A function updated at one point to a value that is another function's there is that function, if the two agree
    elsewhere. -/
theorem upd1_eq (g f : ∀ a, β a) (a : α) (va : β a) (ha : va = g a) (h : ∀ x, x ≠ a → f x = g x) :
    Function.update f a va = g := by
  subst ha
  funext x
  by_cases hx : x = a
  · subst hx; exact Function.update_self _ _ _
  · exact (Function.update_of_ne hx _ _).trans (h x hx)

/-- The same at two points. -/
theorem upd2_eq (g f : ∀ a, β a) (a b : α) (va : β a) (vb : β b) (ha : va = g a) (hb : vb = g b)
    (h : ∀ x, x ≠ a → x ≠ b → f x = g x) :
    Function.update (Function.update f a va) b vb = g :=
  upd1_eq g _ b vb hb fun x hxb => by
    by_cases hxa : x = a
    · subst hxa; exact (Function.update_self _ _ _).trans ha
    · exact (Function.update_of_ne hxa _ _).trans (h x hxa hxb)

end Upd

/-! ## The buffers' real contents between items -/

/-- A valuation read at the TensorCore's references: what a region's proof data take. -/
abbrev atTc (W : Dev nD → Valuation τ sig (Elt F)) : (c : Dev nD) → (b : Ref sig .tc) → Buf (Elt F) ((c : Thread nD τ).loc b) :=
  fun c b => W c b

/-- The one core. -/
abbrev c₀ : Dev nD := ⟨0, Nat.zero_lt_one⟩
theorem eq_c₀ (c : Dev nD) : c = c₀ := Subsingleton.elim _ _

def U0 (m : (ℓ : Loc nD τ sig) → Buf (Elt F) ℓ) (c : Dev nD) : Valuation τ sig (Elt F) := V0 m c
def U1 (m : (ℓ : Loc nD τ sig) → Buf (Elt F) ℓ) (c : Dev nD) : Valuation τ sig (Elt F) := StableHlo.after hostOps0 (U0 m c)
def U2 (m : (ℓ : Loc nD τ sig) → Buf (Elt F) ℓ) (c : Dev nD) : Valuation τ sig (Elt F) := StableHlo.after hostOps0_1 (U1 m c)
def U3 (m : (ℓ : Loc nD τ sig) → Buf (Elt F) ℓ) (c : Dev nD) : Valuation τ sig (Elt F) := StableHlo.after hostOps0_2 (U2 m c)
/-- After region 0: its output array at what the pipeline's write-backs leave. -/
def U4 (m : (ℓ : Loc nD τ sig) → Buf (Elt F) ℓ) (c : Dev nD) : Valuation τ sig (Elt F) :=
  Function.update (U3 m c) main_v33 ((dat0 (atTc (U3 m)) c).arrAt 2 cfg0.N)
def U5 (m : (ℓ : Loc nD τ sig) → Buf (Elt F) ℓ) (c : Dev nD) : Valuation τ sig (Elt F) := StableHlo.after hostOps1 (U4 m c)
/-- Region 1's index table: what the host stretch before it left in the table's buffer. -/
def a1 (m : (ℓ : Loc nD τ sig) → Buf (Elt F) ℓ) : (pcfg1 (F := F)).Adm := ⟨fun k => U5 m c₀ (pre1.ref k), trivial⟩
/-- After region 1: its output array at what the write-backs leave, the array it reads as it was. -/
def U6 (m : (ℓ : Loc nD τ sig) → Buf (Elt F) ℓ) (c : Dev nD) : Valuation τ sig (Elt F) :=
  Function.update (Function.update (U5 m c) main_v35
    ((datG1 (atTc (U5 m)) (a1 m) (gblk1 (atTc (U5 m)) (a1 m)) c).arrAt 0 (cfg1 (a1 m)).N)) main_v33 (U5 m c main_v33)
def U7 (m : (ℓ : Loc nD τ sig) → Buf (Elt F) ℓ) (c : Dev nD) : Valuation τ sig (Elt F) := StableHlo.after hostOps2 (U6 m c)
/-- Region 2's index table: what the host stretch before it left in the table's buffer. -/
def a2 (m : (ℓ : Loc nD τ sig) → Buf (Elt F) ℓ) : (pcfg2 (F := F)).Adm := ⟨fun k => U7 m c₀ (pre2.ref k), trivial⟩
/-- After region 2: its output array at what the write-backs leave, the array it reads as it was. -/
def U8 (m : (ℓ : Loc nD τ sig) → Buf (Elt F) ℓ) (c : Dev nD) : Valuation τ sig (Elt F) :=
  Function.update (Function.update (U7 m c) main_v37
    ((datG2 (atTc (U7 m)) (a2 m) (gblk2 (atTc (U7 m)) (a2 m)) c).arrAt 0 (cfg2 (a2 m)).N)) main_v33 (U7 m c main_v33)
def U9 (m : (ℓ : Loc nD τ sig) → Buf (Elt F) ℓ) (c : Dev nD) : Valuation τ sig (Elt F) := StableHlo.after hostOps3 (U8 m c)
/-- Region 3's index table: what the host stretch before it left in the table's buffer. -/
def a3 (m : (ℓ : Loc nD τ sig) → Buf (Elt F) ℓ) : (pcfg3 (F := F)).Adm := ⟨fun k => U9 m c₀ (pre3.ref k), trivial⟩
/-- After region 3: its output array at what the write-backs leave, the array it reads as it was. -/
def U10 (m : (ℓ : Loc nD τ sig) → Buf (Elt F) ℓ) (c : Dev nD) : Valuation τ sig (Elt F) :=
  Function.update (Function.update (U9 m c) main_v39
    ((datG3 (atTc (U9 m)) (a3 m) (gblk3 (atTc (U9 m)) (a3 m)) c).arrAt 0 (cfg3 (a3 m)).N)) main_v33 (U9 m c main_v33)
def U11 (m : (ℓ : Loc nD τ sig) → Buf (Elt F) ℓ) (c : Dev nD) : Valuation τ sig (Elt F) := StableHlo.after hostOps4 (U10 m c)
/-- Region 4's index table: what the host stretch before it left in the table's buffer. -/
def a4 (m : (ℓ : Loc nD τ sig) → Buf (Elt F) ℓ) : (pcfg4 (F := F)).Adm := ⟨fun k => U11 m c₀ (pre4.ref k), trivial⟩
/-- After region 4: its output array at what the write-backs leave, the array it reads as it was. -/
def U12 (m : (ℓ : Loc nD τ sig) → Buf (Elt F) ℓ) (c : Dev nD) : Valuation τ sig (Elt F) :=
  Function.update (Function.update (U11 m c) main_v41
    ((datG4 (atTc (U11 m)) (a4 m) (gblk4 (atTc (U11 m)) (a4 m)) c).arrAt 0 (cfg4 (a4 m)).N)) main_v33 (U11 m c main_v33)
def U13 (m : (ℓ : Loc nD τ sig) → Buf (Elt F) ℓ) (c : Dev nD) : Valuation τ sig (Elt F) := StableHlo.after hostOps5 (U12 m c)
/-- Region 5's index table: what the host stretch before it left in the table's buffer. -/
def a5 (m : (ℓ : Loc nD τ sig) → Buf (Elt F) ℓ) : (pcfg5 (F := F)).Adm := ⟨fun k => U13 m c₀ (pre5.ref k), trivial⟩
/-- After region 5: its output array at what the write-backs leave, the array it reads as it was. -/
def U14 (m : (ℓ : Loc nD τ sig) → Buf (Elt F) ℓ) (c : Dev nD) : Valuation τ sig (Elt F) :=
  Function.update (Function.update (U13 m c) main_v43
    ((datG5 (atTc (U13 m)) (a5 m) (gblk5 (atTc (U13 m)) (a5 m)) c).arrAt 0 (cfg5 (a5 m)).N)) main_v33 (U13 m c main_v33)
def U15 (m : (ℓ : Loc nD τ sig) → Buf (Elt F) ℓ) (c : Dev nD) : Valuation τ sig (Elt F) := StableHlo.after hostOps6 (U14 m c)
/-- Region 6's index table: what the host stretch before it left in the table's buffer. -/
def a6 (m : (ℓ : Loc nD τ sig) → Buf (Elt F) ℓ) : (pcfg6 (F := F)).Adm := ⟨fun k => U15 m c₀ (pre6.ref k), trivial⟩
/-- After region 6: its output array at what the write-backs leave, the array it reads as it was. -/
def U16 (m : (ℓ : Loc nD τ sig) → Buf (Elt F) ℓ) (c : Dev nD) : Valuation τ sig (Elt F) :=
  Function.update (Function.update (U15 m c) main_v45
    ((datG6 (atTc (U15 m)) (a6 m) (gblk6 (atTc (U15 m)) (a6 m)) c).arrAt 0 (cfg6 (a6 m)).N)) main_v33 (U15 m c main_v33)
def U17 (m : (ℓ : Loc nD τ sig) → Buf (Elt F) ℓ) (c : Dev nD) : Valuation τ sig (Elt F) := StableHlo.after hostOps7 (U16 m c)
/-- Region 7's index table: what the host stretch before it left in the table's buffer. -/
def a7 (m : (ℓ : Loc nD τ sig) → Buf (Elt F) ℓ) : (pcfg7 (F := F)).Adm := ⟨fun k => U17 m c₀ (pre7.ref k), trivial⟩
/-- After region 7: its output array at what the write-backs leave, the array it reads as it was. -/
def U18 (m : (ℓ : Loc nD τ sig) → Buf (Elt F) ℓ) (c : Dev nD) : Valuation τ sig (Elt F) :=
  Function.update (Function.update (U17 m c) main_v47
    ((datG7 (atTc (U17 m)) (a7 m) (gblk7 (atTc (U17 m)) (a7 m)) c).arrAt 0 (cfg7 (a7 m)).N)) main_v33 (U17 m c main_v33)
def U19 (m : (ℓ : Loc nD τ sig) → Buf (Elt F) ℓ) (c : Dev nD) : Valuation τ sig (Elt F) := StableHlo.after hostOps8 (U18 m c)
/-- Region 8's index table: what the host stretch before it left in the table's buffer. -/
def a8 (m : (ℓ : Loc nD τ sig) → Buf (Elt F) ℓ) : (pcfg8 (F := F)).Adm := ⟨fun k => U19 m c₀ (pre8.ref k), trivial⟩
/-- After region 8: its output array at what the write-backs leave, the array it reads as it was. -/
def U20 (m : (ℓ : Loc nD τ sig) → Buf (Elt F) ℓ) (c : Dev nD) : Valuation τ sig (Elt F) :=
  Function.update (Function.update (U19 m c) main_v49
    ((datG8 (atTc (U19 m)) (a8 m) (gblk8 (atTc (U19 m)) (a8 m)) c).arrAt 0 (cfg8 (a8 m)).N)) main_v33 (U19 m c main_v33)
def U21 (m : (ℓ : Loc nD τ sig) → Buf (Elt F) ℓ) (c : Dev nD) : Valuation τ sig (Elt F) := StableHlo.after hostOps9 (U20 m c)
/-- Region 9's index table: what the host stretch before it left in the table's buffer. -/
def a9 (m : (ℓ : Loc nD τ sig) → Buf (Elt F) ℓ) : (pcfg9 (F := F)).Adm := ⟨fun k => U21 m c₀ (pre9.ref k), trivial⟩
/-- After region 9: its output array at what the write-backs leave, the array it reads as it was. -/
def U22 (m : (ℓ : Loc nD τ sig) → Buf (Elt F) ℓ) (c : Dev nD) : Valuation τ sig (Elt F) :=
  Function.update (Function.update (U21 m c) main_v51
    ((datG9 (atTc (U21 m)) (a9 m) (gblk9 (atTc (U21 m)) (a9 m)) c).arrAt 0 (cfg9 (a9 m)).N)) main_v33 (U21 m c main_v33)
def U23 (m : (ℓ : Loc nD τ sig) → Buf (Elt F) ℓ) (c : Dev nD) : Valuation τ sig (Elt F) := StableHlo.after hostOps10 (U22 m c)
/-- Region 10's index table: what the host stretch before it left in the table's buffer. -/
def a10 (m : (ℓ : Loc nD τ sig) → Buf (Elt F) ℓ) : (pcfg10 (F := F)).Adm := ⟨fun k => U23 m c₀ (pre10.ref k), trivial⟩
/-- After region 10: its output array at what the write-backs leave, the array it reads as it was. -/
def U24 (m : (ℓ : Loc nD τ sig) → Buf (Elt F) ℓ) (c : Dev nD) : Valuation τ sig (Elt F) :=
  Function.update (Function.update (U23 m c) main_v53
    ((datG10 (atTc (U23 m)) (a10 m) (gblk10 (atTc (U23 m)) (a10 m)) c).arrAt 0 (cfg10 (a10 m)).N)) main_v33 (U23 m c main_v33)
def U25 (m : (ℓ : Loc nD τ sig) → Buf (Elt F) ℓ) (c : Dev nD) : Valuation τ sig (Elt F) := StableHlo.after hostOps11 (U24 m c)
/-- After region 11: its output array at what the pipeline's write-backs leave. -/
def U26 (m : (ℓ : Loc nD τ sig) → Buf (Elt F) ℓ) (c : Dev nD) : Valuation τ sig (Elt F) :=
  Function.update (U25 m c) main_v61 ((dat11 (atTc (U25 m)) c).arrAt 3 cfg11.N)
def U27 (m : (ℓ : Loc nD τ sig) → Buf (Elt F) ℓ) (c : Dev nD) : Valuation τ sig (Elt F) := StableHlo.after hostOps12 (U26 m c)
/-- Region 12's index table: what the host stretch before it left in the table's buffer. -/
def a12 (m : (ℓ : Loc nD τ sig) → Buf (Elt F) ℓ) : (pcfg12 (F := F)).Adm := ⟨fun k => U27 m c₀ (pre12.ref k), trivial⟩
/-- After region 12: its output array at what the write-backs leave, the array it reads as it was. -/
def U28 (m : (ℓ : Loc nD τ sig) → Buf (Elt F) ℓ) (c : Dev nD) : Valuation τ sig (Elt F) :=
  Function.update (Function.update (U27 m c) main_v63
    ((datG12 (atTc (U27 m)) (a12 m) (gblk12 (atTc (U27 m)) (a12 m)) c).arrAt 0 (cfg12 (a12 m)).N)) main_v61 (U27 m c main_v61)
def U29 (m : (ℓ : Loc nD τ sig) → Buf (Elt F) ℓ) (c : Dev nD) : Valuation τ sig (Elt F) := StableHlo.after hostOps13 (U28 m c)
/-- Region 13's index table: what the host stretch before it left in the table's buffer. -/
def a13 (m : (ℓ : Loc nD τ sig) → Buf (Elt F) ℓ) : (pcfg13 (F := F)).Adm := ⟨fun k => U29 m c₀ (pre13.ref k), trivial⟩
/-- After region 13: its output array at what the write-backs leave, the array it reads as it was. -/
def U30 (m : (ℓ : Loc nD τ sig) → Buf (Elt F) ℓ) (c : Dev nD) : Valuation τ sig (Elt F) :=
  Function.update (Function.update (U29 m c) main_v65
    ((datG13 (atTc (U29 m)) (a13 m) (gblk13 (atTc (U29 m)) (a13 m)) c).arrAt 0 (cfg13 (a13 m)).N)) main_v61 (U29 m c main_v61)
def U31 (m : (ℓ : Loc nD τ sig) → Buf (Elt F) ℓ) (c : Dev nD) : Valuation τ sig (Elt F) := StableHlo.after hostOps14 (U30 m c)
/-- Region 14's index table: what the host stretch before it left in the table's buffer. -/
def a14 (m : (ℓ : Loc nD τ sig) → Buf (Elt F) ℓ) : (pcfg14 (F := F)).Adm := ⟨fun k => U31 m c₀ (pre14.ref k), trivial⟩
/-- After region 14: its output array at what the write-backs leave, the array it reads as it was. -/
def U32 (m : (ℓ : Loc nD τ sig) → Buf (Elt F) ℓ) (c : Dev nD) : Valuation τ sig (Elt F) :=
  Function.update (Function.update (U31 m c) main_v67
    ((datG14 (atTc (U31 m)) (a14 m) (gblk14 (atTc (U31 m)) (a14 m)) c).arrAt 0 (cfg14 (a14 m)).N)) main_v61 (U31 m c main_v61)
def U33 (m : (ℓ : Loc nD τ sig) → Buf (Elt F) ℓ) (c : Dev nD) : Valuation τ sig (Elt F) := StableHlo.after hostOps15 (U32 m c)
/-- Region 15's index table: what the host stretch before it left in the table's buffer. -/
def a15 (m : (ℓ : Loc nD τ sig) → Buf (Elt F) ℓ) : (pcfg15 (F := F)).Adm := ⟨fun k => U33 m c₀ (pre15.ref k), trivial⟩
/-- After region 15: its output array at what the write-backs leave, the array it reads as it was. -/
def U34 (m : (ℓ : Loc nD τ sig) → Buf (Elt F) ℓ) (c : Dev nD) : Valuation τ sig (Elt F) :=
  Function.update (Function.update (U33 m c) main_v69
    ((datG15 (atTc (U33 m)) (a15 m) (gblk15 (atTc (U33 m)) (a15 m)) c).arrAt 0 (cfg15 (a15 m)).N)) main_v61 (U33 m c main_v61)
def U35 (m : (ℓ : Loc nD τ sig) → Buf (Elt F) ℓ) (c : Dev nD) : Valuation τ sig (Elt F) := StableHlo.after hostOps16 (U34 m c)
/-- Region 16's index table: what the host stretch before it left in the table's buffer. -/
def a16 (m : (ℓ : Loc nD τ sig) → Buf (Elt F) ℓ) : (pcfg16 (F := F)).Adm := ⟨fun k => U35 m c₀ (pre16.ref k), trivial⟩
/-- After region 16: its output array at what the write-backs leave, the array it reads as it was. -/
def U36 (m : (ℓ : Loc nD τ sig) → Buf (Elt F) ℓ) (c : Dev nD) : Valuation τ sig (Elt F) :=
  Function.update (Function.update (U35 m c) main_v71
    ((datG16 (atTc (U35 m)) (a16 m) (gblk16 (atTc (U35 m)) (a16 m)) c).arrAt 0 (cfg16 (a16 m)).N)) main_v61 (U35 m c main_v61)
def U37 (m : (ℓ : Loc nD τ sig) → Buf (Elt F) ℓ) (c : Dev nD) : Valuation τ sig (Elt F) := StableHlo.after hostOps17 (U36 m c)
/-- Region 17's index table: what the host stretch before it left in the table's buffer. -/
def a17 (m : (ℓ : Loc nD τ sig) → Buf (Elt F) ℓ) : (pcfg17 (F := F)).Adm := ⟨fun k => U37 m c₀ (pre17.ref k), trivial⟩
/-- After region 17: its output array at what the write-backs leave, the array it reads as it was. -/
def U38 (m : (ℓ : Loc nD τ sig) → Buf (Elt F) ℓ) (c : Dev nD) : Valuation τ sig (Elt F) :=
  Function.update (Function.update (U37 m c) main_v73
    ((datG17 (atTc (U37 m)) (a17 m) (gblk17 (atTc (U37 m)) (a17 m)) c).arrAt 0 (cfg17 (a17 m)).N)) main_v61 (U37 m c main_v61)
def U39 (m : (ℓ : Loc nD τ sig) → Buf (Elt F) ℓ) (c : Dev nD) : Valuation τ sig (Elt F) := StableHlo.after hostOps18 (U38 m c)
/-- Region 18's index table: what the host stretch before it left in the table's buffer. -/
def a18 (m : (ℓ : Loc nD τ sig) → Buf (Elt F) ℓ) : (pcfg18 (F := F)).Adm := ⟨fun k => U39 m c₀ (pre18.ref k), trivial⟩
/-- After region 18: its output array at what the write-backs leave, the array it reads as it was. -/
def U40 (m : (ℓ : Loc nD τ sig) → Buf (Elt F) ℓ) (c : Dev nD) : Valuation τ sig (Elt F) :=
  Function.update (Function.update (U39 m c) main_v75
    ((datG18 (atTc (U39 m)) (a18 m) (gblk18 (atTc (U39 m)) (a18 m)) c).arrAt 0 (cfg18 (a18 m)).N)) main_v61 (U39 m c main_v61)
def U41 (m : (ℓ : Loc nD τ sig) → Buf (Elt F) ℓ) (c : Dev nD) : Valuation τ sig (Elt F) := StableHlo.after hostOps19 (U40 m c)
/-- Region 19's index table: what the host stretch before it left in the table's buffer. -/
def a19 (m : (ℓ : Loc nD τ sig) → Buf (Elt F) ℓ) : (pcfg19 (F := F)).Adm := ⟨fun k => U41 m c₀ (pre19.ref k), trivial⟩
/-- After region 19: its output array at what the write-backs leave, the array it reads as it was. -/
def U42 (m : (ℓ : Loc nD τ sig) → Buf (Elt F) ℓ) (c : Dev nD) : Valuation τ sig (Elt F) :=
  Function.update (Function.update (U41 m c) main_v77
    ((datG19 (atTc (U41 m)) (a19 m) (gblk19 (atTc (U41 m)) (a19 m)) c).arrAt 0 (cfg19 (a19 m)).N)) main_v61 (U41 m c main_v61)
def U43 (m : (ℓ : Loc nD τ sig) → Buf (Elt F) ℓ) (c : Dev nD) : Valuation τ sig (Elt F) := StableHlo.after hostOps20 (U42 m c)
/-- Region 20's index table: what the host stretch before it left in the table's buffer. -/
def a20 (m : (ℓ : Loc nD τ sig) → Buf (Elt F) ℓ) : (pcfg20 (F := F)).Adm := ⟨fun k => U43 m c₀ (pre20.ref k), trivial⟩
/-- After region 20: its output array at what the write-backs leave, the array it reads as it was. -/
def U44 (m : (ℓ : Loc nD τ sig) → Buf (Elt F) ℓ) (c : Dev nD) : Valuation τ sig (Elt F) :=
  Function.update (Function.update (U43 m c) main_v79
    ((datG20 (atTc (U43 m)) (a20 m) (gblk20 (atTc (U43 m)) (a20 m)) c).arrAt 0 (cfg20 (a20 m)).N)) main_v61 (U43 m c main_v61)
def U45 (m : (ℓ : Loc nD τ sig) → Buf (Elt F) ℓ) (c : Dev nD) : Valuation τ sig (Elt F) := StableHlo.after hostOps21 (U44 m c)
/-- Region 21's index table: what the host stretch before it left in the table's buffer. -/
def a21 (m : (ℓ : Loc nD τ sig) → Buf (Elt F) ℓ) : (pcfg21 (F := F)).Adm := ⟨fun k => U45 m c₀ (pre21.ref k), trivial⟩
/-- After region 21: its output array at what the write-backs leave, the array it reads as it was. -/
def U46 (m : (ℓ : Loc nD τ sig) → Buf (Elt F) ℓ) (c : Dev nD) : Valuation τ sig (Elt F) :=
  Function.update (Function.update (U45 m c) main_v81
    ((datG21 (atTc (U45 m)) (a21 m) (gblk21 (atTc (U45 m)) (a21 m)) c).arrAt 0 (cfg21 (a21 m)).N)) main_v61 (U45 m c main_v61)
def U47 (m : (ℓ : Loc nD τ sig) → Buf (Elt F) ℓ) (c : Dev nD) : Valuation τ sig (Elt F) := StableHlo.after hostOps22 (U46 m c)
/-- After region 22: its output array at what the pipeline's write-backs leave. -/
def U48 (m : (ℓ : Loc nD τ sig) → Buf (Elt F) ℓ) (c : Dev nD) : Valuation τ sig (Elt F) :=
  Function.update (U47 m c) main_v89 ((dat22 (atTc (U47 m)) c).arrAt 2 cfg22.N)
def U49 (m : (ℓ : Loc nD τ sig) → Buf (Elt F) ℓ) (c : Dev nD) : Valuation τ sig (Elt F) := StableHlo.after hostOps23 (U48 m c)
/-- Region 23's index table: what the host stretch before it left in the table's buffer. -/
def a23 (m : (ℓ : Loc nD τ sig) → Buf (Elt F) ℓ) : (pcfg23 (F := F)).Adm := ⟨fun k => U49 m c₀ (pre23.ref k), trivial⟩
/-- After region 23: its output array at what the write-backs leave, the array it reads as it was. -/
def U50 (m : (ℓ : Loc nD τ sig) → Buf (Elt F) ℓ) (c : Dev nD) : Valuation τ sig (Elt F) :=
  Function.update (Function.update (U49 m c) main_v91
    ((datG23 (atTc (U49 m)) (a23 m) (gblk23 (atTc (U49 m)) (a23 m)) c).arrAt 0 (cfg23 (a23 m)).N)) main_v89 (U49 m c main_v89)
def U51 (m : (ℓ : Loc nD τ sig) → Buf (Elt F) ℓ) (c : Dev nD) : Valuation τ sig (Elt F) := StableHlo.after hostOps24 (U50 m c)
/-- Region 24's index table: what the host stretch before it left in the table's buffer. -/
def a24 (m : (ℓ : Loc nD τ sig) → Buf (Elt F) ℓ) : (pcfg24 (F := F)).Adm := ⟨fun k => U51 m c₀ (pre24.ref k), trivial⟩
/-- After region 24: its output array at what the write-backs leave, the array it reads as it was. -/
def U52 (m : (ℓ : Loc nD τ sig) → Buf (Elt F) ℓ) (c : Dev nD) : Valuation τ sig (Elt F) :=
  Function.update (Function.update (U51 m c) main_v93
    ((datG24 (atTc (U51 m)) (a24 m) (gblk24 (atTc (U51 m)) (a24 m)) c).arrAt 0 (cfg24 (a24 m)).N)) main_v89 (U51 m c main_v89)
def U53 (m : (ℓ : Loc nD τ sig) → Buf (Elt F) ℓ) (c : Dev nD) : Valuation τ sig (Elt F) := StableHlo.after hostOps25 (U52 m c)
/-- Region 25's index table: what the host stretch before it left in the table's buffer. -/
def a25 (m : (ℓ : Loc nD τ sig) → Buf (Elt F) ℓ) : (pcfg25 (F := F)).Adm := ⟨fun k => U53 m c₀ (pre25.ref k), trivial⟩
/-- After region 25: its output array at what the write-backs leave, the array it reads as it was. -/
def U54 (m : (ℓ : Loc nD τ sig) → Buf (Elt F) ℓ) (c : Dev nD) : Valuation τ sig (Elt F) :=
  Function.update (Function.update (U53 m c) main_v95
    ((datG25 (atTc (U53 m)) (a25 m) (gblk25 (atTc (U53 m)) (a25 m)) c).arrAt 0 (cfg25 (a25 m)).N)) main_v89 (U53 m c main_v89)
def U55 (m : (ℓ : Loc nD τ sig) → Buf (Elt F) ℓ) (c : Dev nD) : Valuation τ sig (Elt F) := StableHlo.after hostOps26 (U54 m c)
/-- Region 26's index table: what the host stretch before it left in the table's buffer. -/
def a26 (m : (ℓ : Loc nD τ sig) → Buf (Elt F) ℓ) : (pcfg26 (F := F)).Adm := ⟨fun k => U55 m c₀ (pre26.ref k), trivial⟩
/-- After region 26: its output array at what the write-backs leave, the array it reads as it was. -/
def U56 (m : (ℓ : Loc nD τ sig) → Buf (Elt F) ℓ) (c : Dev nD) : Valuation τ sig (Elt F) :=
  Function.update (Function.update (U55 m c) main_v97
    ((datG26 (atTc (U55 m)) (a26 m) (gblk26 (atTc (U55 m)) (a26 m)) c).arrAt 0 (cfg26 (a26 m)).N)) main_v89 (U55 m c main_v89)
def U57 (m : (ℓ : Loc nD τ sig) → Buf (Elt F) ℓ) (c : Dev nD) : Valuation τ sig (Elt F) := StableHlo.after hostOps27 (U56 m c)
/-- Region 27's index table: what the host stretch before it left in the table's buffer. -/
def a27 (m : (ℓ : Loc nD τ sig) → Buf (Elt F) ℓ) : (pcfg27 (F := F)).Adm := ⟨fun k => U57 m c₀ (pre27.ref k), trivial⟩
/-- After region 27: its output array at what the write-backs leave, the array it reads as it was. -/
def U58 (m : (ℓ : Loc nD τ sig) → Buf (Elt F) ℓ) (c : Dev nD) : Valuation τ sig (Elt F) :=
  Function.update (Function.update (U57 m c) main_v99
    ((datG27 (atTc (U57 m)) (a27 m) (gblk27 (atTc (U57 m)) (a27 m)) c).arrAt 0 (cfg27 (a27 m)).N)) main_v89 (U57 m c main_v89)
def U59 (m : (ℓ : Loc nD τ sig) → Buf (Elt F) ℓ) (c : Dev nD) : Valuation τ sig (Elt F) := StableHlo.after hostOps28 (U58 m c)
/-- Region 28's index table: what the host stretch before it left in the table's buffer. -/
def a28 (m : (ℓ : Loc nD τ sig) → Buf (Elt F) ℓ) : (pcfg28 (F := F)).Adm := ⟨fun k => U59 m c₀ (pre28.ref k), trivial⟩
/-- After region 28: its output array at what the write-backs leave, the array it reads as it was. -/
def U60 (m : (ℓ : Loc nD τ sig) → Buf (Elt F) ℓ) (c : Dev nD) : Valuation τ sig (Elt F) :=
  Function.update (Function.update (U59 m c) main_v101
    ((datG28 (atTc (U59 m)) (a28 m) (gblk28 (atTc (U59 m)) (a28 m)) c).arrAt 0 (cfg28 (a28 m)).N)) main_v89 (U59 m c main_v89)
def U61 (m : (ℓ : Loc nD τ sig) → Buf (Elt F) ℓ) (c : Dev nD) : Valuation τ sig (Elt F) := StableHlo.after hostOps29 (U60 m c)
/-- Region 29's index table: what the host stretch before it left in the table's buffer. -/
def a29 (m : (ℓ : Loc nD τ sig) → Buf (Elt F) ℓ) : (pcfg29 (F := F)).Adm := ⟨fun k => U61 m c₀ (pre29.ref k), trivial⟩
/-- After region 29: its output array at what the write-backs leave, the array it reads as it was. -/
def U62 (m : (ℓ : Loc nD τ sig) → Buf (Elt F) ℓ) (c : Dev nD) : Valuation τ sig (Elt F) :=
  Function.update (Function.update (U61 m c) main_v103
    ((datG29 (atTc (U61 m)) (a29 m) (gblk29 (atTc (U61 m)) (a29 m)) c).arrAt 0 (cfg29 (a29 m)).N)) main_v89 (U61 m c main_v89)
def U63 (m : (ℓ : Loc nD τ sig) → Buf (Elt F) ℓ) (c : Dev nD) : Valuation τ sig (Elt F) := StableHlo.after hostOps30 (U62 m c)
/-- Region 30's index table: what the host stretch before it left in the table's buffer. -/
def a30 (m : (ℓ : Loc nD τ sig) → Buf (Elt F) ℓ) : (pcfg30 (F := F)).Adm := ⟨fun k => U63 m c₀ (pre30.ref k), trivial⟩
/-- After region 30: its output array at what the write-backs leave, the array it reads as it was. -/
def U64 (m : (ℓ : Loc nD τ sig) → Buf (Elt F) ℓ) (c : Dev nD) : Valuation τ sig (Elt F) :=
  Function.update (Function.update (U63 m c) main_v105
    ((datG30 (atTc (U63 m)) (a30 m) (gblk30 (atTc (U63 m)) (a30 m)) c).arrAt 0 (cfg30 (a30 m)).N)) main_v89 (U63 m c main_v89)
def U65 (m : (ℓ : Loc nD τ sig) → Buf (Elt F) ℓ) (c : Dev nD) : Valuation τ sig (Elt F) := StableHlo.after hostOps31 (U64 m c)
/-- Region 31's index table: what the host stretch before it left in the table's buffer. -/
def a31 (m : (ℓ : Loc nD τ sig) → Buf (Elt F) ℓ) : (pcfg31 (F := F)).Adm := ⟨fun k => U65 m c₀ (pre31.ref k), trivial⟩
/-- After region 31: its output array at what the write-backs leave, the array it reads as it was. -/
def U66 (m : (ℓ : Loc nD τ sig) → Buf (Elt F) ℓ) (c : Dev nD) : Valuation τ sig (Elt F) :=
  Function.update (Function.update (U65 m c) main_v108
    ((datG31 (atTc (U65 m)) (a31 m) (gblk31 (atTc (U65 m)) (a31 m)) c).arrAt 0 (cfg31 (a31 m)).N)) main_v89 (U65 m c main_v89)
def U67 (m : (ℓ : Loc nD τ sig) → Buf (Elt F) ℓ) (c : Dev nD) : Valuation τ sig (Elt F) := StableHlo.after hostOps32 (U66 m c)
/-- Region 32's index table: what the host stretch before it left in the table's buffer. -/
def a32 (m : (ℓ : Loc nD τ sig) → Buf (Elt F) ℓ) : (pcfg32 (F := F)).Adm := ⟨fun k => U67 m c₀ (pre32.ref k), trivial⟩
/-- After region 32: its output array at what the write-backs leave, the array it reads as it was. -/
def U68 (m : (ℓ : Loc nD τ sig) → Buf (Elt F) ℓ) (c : Dev nD) : Valuation τ sig (Elt F) :=
  Function.update (Function.update (U67 m c) main_v110
    ((datG32 (atTc (U67 m)) (a32 m) (gblk32 (atTc (U67 m)) (a32 m)) c).arrAt 0 (cfg32 (a32 m)).N)) main_v89 (U67 m c main_v89)
def U69 (m : (ℓ : Loc nD τ sig) → Buf (Elt F) ℓ) (c : Dev nD) : Valuation τ sig (Elt F) := StableHlo.after hostOps33 (U68 m c)
/-- Region 33's index table: what the host stretch before it left in the table's buffer. -/
def a33 (m : (ℓ : Loc nD τ sig) → Buf (Elt F) ℓ) : (pcfg33 (F := F)).Adm := ⟨fun k => U69 m c₀ (pre33.ref k), trivial⟩
/-- After region 33: its output array at what the write-backs leave, the array it reads as it was. -/
def U70 (m : (ℓ : Loc nD τ sig) → Buf (Elt F) ℓ) (c : Dev nD) : Valuation τ sig (Elt F) :=
  Function.update (Function.update (U69 m c) main_v112
    ((datG33 (atTc (U69 m)) (a33 m) (gblk33 (atTc (U69 m)) (a33 m)) c).arrAt 0 (cfg33 (a33 m)).N)) main_v89 (U69 m c main_v89)
def U71 (m : (ℓ : Loc nD τ sig) → Buf (Elt F) ℓ) (c : Dev nD) : Valuation τ sig (Elt F) := StableHlo.after hostOps34 (U70 m c)
/-- Region 34's index table: what the host stretch before it left in the table's buffer. -/
def a34 (m : (ℓ : Loc nD τ sig) → Buf (Elt F) ℓ) : (pcfg34 (F := F)).Adm := ⟨fun k => U71 m c₀ (pre34.ref k), trivial⟩
/-- After region 34: its output array at what the write-backs leave, the array it reads as it was. -/
def U72 (m : (ℓ : Loc nD τ sig) → Buf (Elt F) ℓ) (c : Dev nD) : Valuation τ sig (Elt F) :=
  Function.update (Function.update (U71 m c) main_v114
    ((datG34 (atTc (U71 m)) (a34 m) (gblk34 (atTc (U71 m)) (a34 m)) c).arrAt 0 (cfg34 (a34 m)).N)) main_v89 (U71 m c main_v89)
def U73 (m : (ℓ : Loc nD τ sig) → Buf (Elt F) ℓ) (c : Dev nD) : Valuation τ sig (Elt F) := StableHlo.after hostOps35 (U72 m c)
/-- Region 35's index table: what the host stretch before it left in the table's buffer. -/
def a35 (m : (ℓ : Loc nD τ sig) → Buf (Elt F) ℓ) : (pcfg35 (F := F)).Adm := ⟨fun k => U73 m c₀ (pre35.ref k), trivial⟩
/-- After region 35: its output array at what the write-backs leave, the array it reads as it was. -/
def U74 (m : (ℓ : Loc nD τ sig) → Buf (Elt F) ℓ) (c : Dev nD) : Valuation τ sig (Elt F) :=
  Function.update (Function.update (U73 m c) main_v116
    ((datG35 (atTc (U73 m)) (a35 m) (gblk35 (atTc (U73 m)) (a35 m)) c).arrAt 0 (cfg35 (a35 m)).N)) main_v89 (U73 m c main_v89)
def U75 (m : (ℓ : Loc nD τ sig) → Buf (Elt F) ℓ) (c : Dev nD) : Valuation τ sig (Elt F) := StableHlo.after hostOps36 (U74 m c)
/-- Region 36's index table: what the host stretch before it left in the table's buffer. -/
def a36 (m : (ℓ : Loc nD τ sig) → Buf (Elt F) ℓ) : (pcfg36 (F := F)).Adm := ⟨fun k => U75 m c₀ (pre36.ref k), trivial⟩
/-- After region 36: its output array at what the write-backs leave, the array it reads as it was. -/
def U76 (m : (ℓ : Loc nD τ sig) → Buf (Elt F) ℓ) (c : Dev nD) : Valuation τ sig (Elt F) :=
  Function.update (Function.update (U75 m c) main_v118
    ((datG36 (atTc (U75 m)) (a36 m) (gblk36 (atTc (U75 m)) (a36 m)) c).arrAt 0 (cfg36 (a36 m)).N)) main_v89 (U75 m c main_v89)
def U77 (m : (ℓ : Loc nD τ sig) → Buf (Elt F) ℓ) (c : Dev nD) : Valuation τ sig (Elt F) := StableHlo.after hostOps37 (U76 m c)
/-- Region 37's index table: what the host stretch before it left in the table's buffer. -/
def a37 (m : (ℓ : Loc nD τ sig) → Buf (Elt F) ℓ) : (pcfg37 (F := F)).Adm := ⟨fun k => U77 m c₀ (pre37.ref k), trivial⟩
/-- After region 37: its output array at what the write-backs leave, the array it reads as it was. -/
def U78 (m : (ℓ : Loc nD τ sig) → Buf (Elt F) ℓ) (c : Dev nD) : Valuation τ sig (Elt F) :=
  Function.update (Function.update (U77 m c) main_v120
    ((datG37 (atTc (U77 m)) (a37 m) (gblk37 (atTc (U77 m)) (a37 m)) c).arrAt 0 (cfg37 (a37 m)).N)) main_v89 (U77 m c main_v89)
def U79 (m : (ℓ : Loc nD τ sig) → Buf (Elt F) ℓ) (c : Dev nD) : Valuation τ sig (Elt F) := StableHlo.after hostOps38 (U78 m c)
/-- Region 38's index table: what the host stretch before it left in the table's buffer. -/
def a38 (m : (ℓ : Loc nD τ sig) → Buf (Elt F) ℓ) : (pcfg38 (F := F)).Adm := ⟨fun k => U79 m c₀ (pre38.ref k), trivial⟩
/-- After region 38: its output array at what the write-backs leave, the array it reads as it was. -/
def U80 (m : (ℓ : Loc nD τ sig) → Buf (Elt F) ℓ) (c : Dev nD) : Valuation τ sig (Elt F) :=
  Function.update (Function.update (U79 m c) main_v122
    ((datG38 (atTc (U79 m)) (a38 m) (gblk38 (atTc (U79 m)) (a38 m)) c).arrAt 0 (cfg38 (a38 m)).N)) main_v89 (U79 m c main_v89)
def U81 (m : (ℓ : Loc nD τ sig) → Buf (Elt F) ℓ) (c : Dev nD) : Valuation τ sig (Elt F) := StableHlo.after hostOps39 (U80 m c)
/-- After region 39: its output array at what the pipeline's write-backs leave. -/
def U82 (m : (ℓ : Loc nD τ sig) → Buf (Elt F) ℓ) (c : Dev nD) : Valuation τ sig (Elt F) :=
  Function.update (U81 m c) main_v127 ((dat39 (atTc (U81 m)) c).arrAt 5 cfg39.N)

/-- What the regions leave, read off the real valuations: the conditional frame's unknowns. -/
def outsU (m : (ℓ : Loc nD τ sig) → Buf (Elt F) ℓ) : Outs (F := F) := fun J r c =>
  if J = 4 then U4 m c r else
  if J = 6 then U6 m c r else
  if J = 8 then U8 m c r else
  if J = 10 then U10 m c r else
  if J = 12 then U12 m c r else
  if J = 14 then U14 m c r else
  if J = 16 then U16 m c r else
  if J = 18 then U18 m c r else
  if J = 20 then U20 m c r else
  if J = 22 then U22 m c r else
  if J = 24 then U24 m c r else
  if J = 26 then U26 m c r else
  if J = 28 then U28 m c r else
  if J = 30 then U30 m c r else
  if J = 32 then U32 m c r else
  if J = 34 then U34 m c r else
  if J = 36 then U36 m c r else
  if J = 38 then U38 m c r else
  if J = 40 then U40 m c r else
  if J = 42 then U42 m c r else
  if J = 44 then U44 m c r else
  if J = 46 then U46 m c r else
  if J = 48 then U48 m c r else
  if J = 50 then U50 m c r else
  if J = 52 then U52 m c r else
  if J = 54 then U54 m c r else
  if J = 56 then U56 m c r else
  if J = 58 then U58 m c r else
  if J = 60 then U60 m c r else
  if J = 62 then U62 m c r else
  if J = 64 then U64 m c r else
  if J = 66 then U66 m c r else
  if J = 68 then U68 m c r else
  if J = 70 then U70 m c r else
  if J = 72 then U72 m c r else
  if J = 74 then U74 m c r else
  if J = 76 then U76 m c r else
  if J = 78 then U78 m c r else
  if J = 80 then U80 m c r else
  if J = 82 then U82 m c r else
  U0 m c r

theorem outsU_4 (m : (ℓ : Loc nD τ sig) → Buf (Elt F) ℓ) (r : Ref sig .tc) (c : Dev nD) : outsU m 4 r c = U4 m c r := by
  unfold outsU
  rw [if_pos rfl]
theorem outsU_6 (m : (ℓ : Loc nD τ sig) → Buf (Elt F) ℓ) (r : Ref sig .tc) (c : Dev nD) : outsU m 6 r c = U6 m c r := by
  unfold outsU
  rw [if_neg (by decide : ¬ ((6 : ℕ) = 4)), if_pos rfl]
theorem outsU_8 (m : (ℓ : Loc nD τ sig) → Buf (Elt F) ℓ) (r : Ref sig .tc) (c : Dev nD) : outsU m 8 r c = U8 m c r := by
  unfold outsU
  rw [if_neg (by decide : ¬ ((8 : ℕ) = 4)), if_neg (by decide : ¬ ((8 : ℕ) = 6)), if_pos rfl]
theorem outsU_10 (m : (ℓ : Loc nD τ sig) → Buf (Elt F) ℓ) (r : Ref sig .tc) (c : Dev nD) : outsU m 10 r c = U10 m c r := by
  unfold outsU
  rw [if_neg (by decide : ¬ ((10 : ℕ) = 4)), if_neg (by decide : ¬ ((10 : ℕ) = 6)), if_neg (by decide : ¬ ((10 : ℕ) = 8)), if_pos rfl]
theorem outsU_12 (m : (ℓ : Loc nD τ sig) → Buf (Elt F) ℓ) (r : Ref sig .tc) (c : Dev nD) : outsU m 12 r c = U12 m c r := by
  unfold outsU
  rw [if_neg (by decide : ¬ ((12 : ℕ) = 4)), if_neg (by decide : ¬ ((12 : ℕ) = 6)), if_neg (by decide : ¬ ((12 : ℕ) = 8)), if_neg (by decide : ¬ ((12 : ℕ) = 10)), if_pos rfl]
theorem outsU_14 (m : (ℓ : Loc nD τ sig) → Buf (Elt F) ℓ) (r : Ref sig .tc) (c : Dev nD) : outsU m 14 r c = U14 m c r := by
  unfold outsU
  rw [if_neg (by decide : ¬ ((14 : ℕ) = 4)), if_neg (by decide : ¬ ((14 : ℕ) = 6)), if_neg (by decide : ¬ ((14 : ℕ) = 8)), if_neg (by decide : ¬ ((14 : ℕ) = 10)), if_neg (by decide : ¬ ((14 : ℕ) = 12)), if_pos rfl]
theorem outsU_16 (m : (ℓ : Loc nD τ sig) → Buf (Elt F) ℓ) (r : Ref sig .tc) (c : Dev nD) : outsU m 16 r c = U16 m c r := by
  unfold outsU
  rw [if_neg (by decide : ¬ ((16 : ℕ) = 4)), if_neg (by decide : ¬ ((16 : ℕ) = 6)), if_neg (by decide : ¬ ((16 : ℕ) = 8)), if_neg (by decide : ¬ ((16 : ℕ) = 10)), if_neg (by decide : ¬ ((16 : ℕ) = 12)), if_neg (by decide : ¬ ((16 : ℕ) = 14)), if_pos rfl]
theorem outsU_18 (m : (ℓ : Loc nD τ sig) → Buf (Elt F) ℓ) (r : Ref sig .tc) (c : Dev nD) : outsU m 18 r c = U18 m c r := by
  unfold outsU
  rw [if_neg (by decide : ¬ ((18 : ℕ) = 4)), if_neg (by decide : ¬ ((18 : ℕ) = 6)), if_neg (by decide : ¬ ((18 : ℕ) = 8)), if_neg (by decide : ¬ ((18 : ℕ) = 10)), if_neg (by decide : ¬ ((18 : ℕ) = 12)), if_neg (by decide : ¬ ((18 : ℕ) = 14)), if_neg (by decide : ¬ ((18 : ℕ) = 16)), if_pos rfl]
theorem outsU_20 (m : (ℓ : Loc nD τ sig) → Buf (Elt F) ℓ) (r : Ref sig .tc) (c : Dev nD) : outsU m 20 r c = U20 m c r := by
  unfold outsU
  rw [if_neg (by decide : ¬ ((20 : ℕ) = 4)), if_neg (by decide : ¬ ((20 : ℕ) = 6)), if_neg (by decide : ¬ ((20 : ℕ) = 8)), if_neg (by decide : ¬ ((20 : ℕ) = 10)), if_neg (by decide : ¬ ((20 : ℕ) = 12)), if_neg (by decide : ¬ ((20 : ℕ) = 14)), if_neg (by decide : ¬ ((20 : ℕ) = 16)), if_neg (by decide : ¬ ((20 : ℕ) = 18)), if_pos rfl]
theorem outsU_22 (m : (ℓ : Loc nD τ sig) → Buf (Elt F) ℓ) (r : Ref sig .tc) (c : Dev nD) : outsU m 22 r c = U22 m c r := by
  unfold outsU
  rw [if_neg (by decide : ¬ ((22 : ℕ) = 4)), if_neg (by decide : ¬ ((22 : ℕ) = 6)), if_neg (by decide : ¬ ((22 : ℕ) = 8)), if_neg (by decide : ¬ ((22 : ℕ) = 10)), if_neg (by decide : ¬ ((22 : ℕ) = 12)), if_neg (by decide : ¬ ((22 : ℕ) = 14)), if_neg (by decide : ¬ ((22 : ℕ) = 16)), if_neg (by decide : ¬ ((22 : ℕ) = 18)), if_neg (by decide : ¬ ((22 : ℕ) = 20)), if_pos rfl]
theorem outsU_24 (m : (ℓ : Loc nD τ sig) → Buf (Elt F) ℓ) (r : Ref sig .tc) (c : Dev nD) : outsU m 24 r c = U24 m c r := by
  unfold outsU
  rw [if_neg (by decide : ¬ ((24 : ℕ) = 4)), if_neg (by decide : ¬ ((24 : ℕ) = 6)), if_neg (by decide : ¬ ((24 : ℕ) = 8)), if_neg (by decide : ¬ ((24 : ℕ) = 10)), if_neg (by decide : ¬ ((24 : ℕ) = 12)), if_neg (by decide : ¬ ((24 : ℕ) = 14)), if_neg (by decide : ¬ ((24 : ℕ) = 16)), if_neg (by decide : ¬ ((24 : ℕ) = 18)), if_neg (by decide : ¬ ((24 : ℕ) = 20)), if_neg (by decide : ¬ ((24 : ℕ) = 22)), if_pos rfl]
theorem outsU_26 (m : (ℓ : Loc nD τ sig) → Buf (Elt F) ℓ) (r : Ref sig .tc) (c : Dev nD) : outsU m 26 r c = U26 m c r := by
  unfold outsU
  rw [if_neg (by decide : ¬ ((26 : ℕ) = 4)), if_neg (by decide : ¬ ((26 : ℕ) = 6)), if_neg (by decide : ¬ ((26 : ℕ) = 8)), if_neg (by decide : ¬ ((26 : ℕ) = 10)), if_neg (by decide : ¬ ((26 : ℕ) = 12)), if_neg (by decide : ¬ ((26 : ℕ) = 14)), if_neg (by decide : ¬ ((26 : ℕ) = 16)), if_neg (by decide : ¬ ((26 : ℕ) = 18)), if_neg (by decide : ¬ ((26 : ℕ) = 20)), if_neg (by decide : ¬ ((26 : ℕ) = 22)), if_neg (by decide : ¬ ((26 : ℕ) = 24)), if_pos rfl]
theorem outsU_28 (m : (ℓ : Loc nD τ sig) → Buf (Elt F) ℓ) (r : Ref sig .tc) (c : Dev nD) : outsU m 28 r c = U28 m c r := by
  unfold outsU
  rw [if_neg (by decide : ¬ ((28 : ℕ) = 4)), if_neg (by decide : ¬ ((28 : ℕ) = 6)), if_neg (by decide : ¬ ((28 : ℕ) = 8)), if_neg (by decide : ¬ ((28 : ℕ) = 10)), if_neg (by decide : ¬ ((28 : ℕ) = 12)), if_neg (by decide : ¬ ((28 : ℕ) = 14)), if_neg (by decide : ¬ ((28 : ℕ) = 16)), if_neg (by decide : ¬ ((28 : ℕ) = 18)), if_neg (by decide : ¬ ((28 : ℕ) = 20)), if_neg (by decide : ¬ ((28 : ℕ) = 22)), if_neg (by decide : ¬ ((28 : ℕ) = 24)), if_neg (by decide : ¬ ((28 : ℕ) = 26)), if_pos rfl]
theorem outsU_30 (m : (ℓ : Loc nD τ sig) → Buf (Elt F) ℓ) (r : Ref sig .tc) (c : Dev nD) : outsU m 30 r c = U30 m c r := by
  unfold outsU
  rw [if_neg (by decide : ¬ ((30 : ℕ) = 4)), if_neg (by decide : ¬ ((30 : ℕ) = 6)), if_neg (by decide : ¬ ((30 : ℕ) = 8)), if_neg (by decide : ¬ ((30 : ℕ) = 10)), if_neg (by decide : ¬ ((30 : ℕ) = 12)), if_neg (by decide : ¬ ((30 : ℕ) = 14)), if_neg (by decide : ¬ ((30 : ℕ) = 16)), if_neg (by decide : ¬ ((30 : ℕ) = 18)), if_neg (by decide : ¬ ((30 : ℕ) = 20)), if_neg (by decide : ¬ ((30 : ℕ) = 22)), if_neg (by decide : ¬ ((30 : ℕ) = 24)), if_neg (by decide : ¬ ((30 : ℕ) = 26)), if_neg (by decide : ¬ ((30 : ℕ) = 28)), if_pos rfl]
theorem outsU_32 (m : (ℓ : Loc nD τ sig) → Buf (Elt F) ℓ) (r : Ref sig .tc) (c : Dev nD) : outsU m 32 r c = U32 m c r := by
  unfold outsU
  rw [if_neg (by decide : ¬ ((32 : ℕ) = 4)), if_neg (by decide : ¬ ((32 : ℕ) = 6)), if_neg (by decide : ¬ ((32 : ℕ) = 8)), if_neg (by decide : ¬ ((32 : ℕ) = 10)), if_neg (by decide : ¬ ((32 : ℕ) = 12)), if_neg (by decide : ¬ ((32 : ℕ) = 14)), if_neg (by decide : ¬ ((32 : ℕ) = 16)), if_neg (by decide : ¬ ((32 : ℕ) = 18)), if_neg (by decide : ¬ ((32 : ℕ) = 20)), if_neg (by decide : ¬ ((32 : ℕ) = 22)), if_neg (by decide : ¬ ((32 : ℕ) = 24)), if_neg (by decide : ¬ ((32 : ℕ) = 26)), if_neg (by decide : ¬ ((32 : ℕ) = 28)), if_neg (by decide : ¬ ((32 : ℕ) = 30)), if_pos rfl]
theorem outsU_34 (m : (ℓ : Loc nD τ sig) → Buf (Elt F) ℓ) (r : Ref sig .tc) (c : Dev nD) : outsU m 34 r c = U34 m c r := by
  unfold outsU
  rw [if_neg (by decide : ¬ ((34 : ℕ) = 4)), if_neg (by decide : ¬ ((34 : ℕ) = 6)), if_neg (by decide : ¬ ((34 : ℕ) = 8)), if_neg (by decide : ¬ ((34 : ℕ) = 10)), if_neg (by decide : ¬ ((34 : ℕ) = 12)), if_neg (by decide : ¬ ((34 : ℕ) = 14)), if_neg (by decide : ¬ ((34 : ℕ) = 16)), if_neg (by decide : ¬ ((34 : ℕ) = 18)), if_neg (by decide : ¬ ((34 : ℕ) = 20)), if_neg (by decide : ¬ ((34 : ℕ) = 22)), if_neg (by decide : ¬ ((34 : ℕ) = 24)), if_neg (by decide : ¬ ((34 : ℕ) = 26)), if_neg (by decide : ¬ ((34 : ℕ) = 28)), if_neg (by decide : ¬ ((34 : ℕ) = 30)), if_neg (by decide : ¬ ((34 : ℕ) = 32)), if_pos rfl]
theorem outsU_36 (m : (ℓ : Loc nD τ sig) → Buf (Elt F) ℓ) (r : Ref sig .tc) (c : Dev nD) : outsU m 36 r c = U36 m c r := by
  unfold outsU
  rw [if_neg (by decide : ¬ ((36 : ℕ) = 4)), if_neg (by decide : ¬ ((36 : ℕ) = 6)), if_neg (by decide : ¬ ((36 : ℕ) = 8)), if_neg (by decide : ¬ ((36 : ℕ) = 10)), if_neg (by decide : ¬ ((36 : ℕ) = 12)), if_neg (by decide : ¬ ((36 : ℕ) = 14)), if_neg (by decide : ¬ ((36 : ℕ) = 16)), if_neg (by decide : ¬ ((36 : ℕ) = 18)), if_neg (by decide : ¬ ((36 : ℕ) = 20)), if_neg (by decide : ¬ ((36 : ℕ) = 22)), if_neg (by decide : ¬ ((36 : ℕ) = 24)), if_neg (by decide : ¬ ((36 : ℕ) = 26)), if_neg (by decide : ¬ ((36 : ℕ) = 28)), if_neg (by decide : ¬ ((36 : ℕ) = 30)), if_neg (by decide : ¬ ((36 : ℕ) = 32)), if_neg (by decide : ¬ ((36 : ℕ) = 34)), if_pos rfl]
theorem outsU_38 (m : (ℓ : Loc nD τ sig) → Buf (Elt F) ℓ) (r : Ref sig .tc) (c : Dev nD) : outsU m 38 r c = U38 m c r := by
  unfold outsU
  rw [if_neg (by decide : ¬ ((38 : ℕ) = 4)), if_neg (by decide : ¬ ((38 : ℕ) = 6)), if_neg (by decide : ¬ ((38 : ℕ) = 8)), if_neg (by decide : ¬ ((38 : ℕ) = 10)), if_neg (by decide : ¬ ((38 : ℕ) = 12)), if_neg (by decide : ¬ ((38 : ℕ) = 14)), if_neg (by decide : ¬ ((38 : ℕ) = 16)), if_neg (by decide : ¬ ((38 : ℕ) = 18)), if_neg (by decide : ¬ ((38 : ℕ) = 20)), if_neg (by decide : ¬ ((38 : ℕ) = 22)), if_neg (by decide : ¬ ((38 : ℕ) = 24)), if_neg (by decide : ¬ ((38 : ℕ) = 26)), if_neg (by decide : ¬ ((38 : ℕ) = 28)), if_neg (by decide : ¬ ((38 : ℕ) = 30)), if_neg (by decide : ¬ ((38 : ℕ) = 32)), if_neg (by decide : ¬ ((38 : ℕ) = 34)), if_neg (by decide : ¬ ((38 : ℕ) = 36)), if_pos rfl]
theorem outsU_40 (m : (ℓ : Loc nD τ sig) → Buf (Elt F) ℓ) (r : Ref sig .tc) (c : Dev nD) : outsU m 40 r c = U40 m c r := by
  unfold outsU
  rw [if_neg (by decide : ¬ ((40 : ℕ) = 4)), if_neg (by decide : ¬ ((40 : ℕ) = 6)), if_neg (by decide : ¬ ((40 : ℕ) = 8)), if_neg (by decide : ¬ ((40 : ℕ) = 10)), if_neg (by decide : ¬ ((40 : ℕ) = 12)), if_neg (by decide : ¬ ((40 : ℕ) = 14)), if_neg (by decide : ¬ ((40 : ℕ) = 16)), if_neg (by decide : ¬ ((40 : ℕ) = 18)), if_neg (by decide : ¬ ((40 : ℕ) = 20)), if_neg (by decide : ¬ ((40 : ℕ) = 22)), if_neg (by decide : ¬ ((40 : ℕ) = 24)), if_neg (by decide : ¬ ((40 : ℕ) = 26)), if_neg (by decide : ¬ ((40 : ℕ) = 28)), if_neg (by decide : ¬ ((40 : ℕ) = 30)), if_neg (by decide : ¬ ((40 : ℕ) = 32)), if_neg (by decide : ¬ ((40 : ℕ) = 34)), if_neg (by decide : ¬ ((40 : ℕ) = 36)), if_neg (by decide : ¬ ((40 : ℕ) = 38)), if_pos rfl]
theorem outsU_42 (m : (ℓ : Loc nD τ sig) → Buf (Elt F) ℓ) (r : Ref sig .tc) (c : Dev nD) : outsU m 42 r c = U42 m c r := by
  unfold outsU
  rw [if_neg (by decide : ¬ ((42 : ℕ) = 4)), if_neg (by decide : ¬ ((42 : ℕ) = 6)), if_neg (by decide : ¬ ((42 : ℕ) = 8)), if_neg (by decide : ¬ ((42 : ℕ) = 10)), if_neg (by decide : ¬ ((42 : ℕ) = 12)), if_neg (by decide : ¬ ((42 : ℕ) = 14)), if_neg (by decide : ¬ ((42 : ℕ) = 16)), if_neg (by decide : ¬ ((42 : ℕ) = 18)), if_neg (by decide : ¬ ((42 : ℕ) = 20)), if_neg (by decide : ¬ ((42 : ℕ) = 22)), if_neg (by decide : ¬ ((42 : ℕ) = 24)), if_neg (by decide : ¬ ((42 : ℕ) = 26)), if_neg (by decide : ¬ ((42 : ℕ) = 28)), if_neg (by decide : ¬ ((42 : ℕ) = 30)), if_neg (by decide : ¬ ((42 : ℕ) = 32)), if_neg (by decide : ¬ ((42 : ℕ) = 34)), if_neg (by decide : ¬ ((42 : ℕ) = 36)), if_neg (by decide : ¬ ((42 : ℕ) = 38)), if_neg (by decide : ¬ ((42 : ℕ) = 40)), if_pos rfl]
theorem outsU_44 (m : (ℓ : Loc nD τ sig) → Buf (Elt F) ℓ) (r : Ref sig .tc) (c : Dev nD) : outsU m 44 r c = U44 m c r := by
  unfold outsU
  rw [if_neg (by decide : ¬ ((44 : ℕ) = 4)), if_neg (by decide : ¬ ((44 : ℕ) = 6)), if_neg (by decide : ¬ ((44 : ℕ) = 8)), if_neg (by decide : ¬ ((44 : ℕ) = 10)), if_neg (by decide : ¬ ((44 : ℕ) = 12)), if_neg (by decide : ¬ ((44 : ℕ) = 14)), if_neg (by decide : ¬ ((44 : ℕ) = 16)), if_neg (by decide : ¬ ((44 : ℕ) = 18)), if_neg (by decide : ¬ ((44 : ℕ) = 20)), if_neg (by decide : ¬ ((44 : ℕ) = 22)), if_neg (by decide : ¬ ((44 : ℕ) = 24)), if_neg (by decide : ¬ ((44 : ℕ) = 26)), if_neg (by decide : ¬ ((44 : ℕ) = 28)), if_neg (by decide : ¬ ((44 : ℕ) = 30)), if_neg (by decide : ¬ ((44 : ℕ) = 32)), if_neg (by decide : ¬ ((44 : ℕ) = 34)), if_neg (by decide : ¬ ((44 : ℕ) = 36)), if_neg (by decide : ¬ ((44 : ℕ) = 38)), if_neg (by decide : ¬ ((44 : ℕ) = 40)), if_neg (by decide : ¬ ((44 : ℕ) = 42)), if_pos rfl]
theorem outsU_46 (m : (ℓ : Loc nD τ sig) → Buf (Elt F) ℓ) (r : Ref sig .tc) (c : Dev nD) : outsU m 46 r c = U46 m c r := by
  unfold outsU
  rw [if_neg (by decide : ¬ ((46 : ℕ) = 4)), if_neg (by decide : ¬ ((46 : ℕ) = 6)), if_neg (by decide : ¬ ((46 : ℕ) = 8)), if_neg (by decide : ¬ ((46 : ℕ) = 10)), if_neg (by decide : ¬ ((46 : ℕ) = 12)), if_neg (by decide : ¬ ((46 : ℕ) = 14)), if_neg (by decide : ¬ ((46 : ℕ) = 16)), if_neg (by decide : ¬ ((46 : ℕ) = 18)), if_neg (by decide : ¬ ((46 : ℕ) = 20)), if_neg (by decide : ¬ ((46 : ℕ) = 22)), if_neg (by decide : ¬ ((46 : ℕ) = 24)), if_neg (by decide : ¬ ((46 : ℕ) = 26)), if_neg (by decide : ¬ ((46 : ℕ) = 28)), if_neg (by decide : ¬ ((46 : ℕ) = 30)), if_neg (by decide : ¬ ((46 : ℕ) = 32)), if_neg (by decide : ¬ ((46 : ℕ) = 34)), if_neg (by decide : ¬ ((46 : ℕ) = 36)), if_neg (by decide : ¬ ((46 : ℕ) = 38)), if_neg (by decide : ¬ ((46 : ℕ) = 40)), if_neg (by decide : ¬ ((46 : ℕ) = 42)), if_neg (by decide : ¬ ((46 : ℕ) = 44)), if_pos rfl]
theorem outsU_48 (m : (ℓ : Loc nD τ sig) → Buf (Elt F) ℓ) (r : Ref sig .tc) (c : Dev nD) : outsU m 48 r c = U48 m c r := by
  unfold outsU
  rw [if_neg (by decide : ¬ ((48 : ℕ) = 4)), if_neg (by decide : ¬ ((48 : ℕ) = 6)), if_neg (by decide : ¬ ((48 : ℕ) = 8)), if_neg (by decide : ¬ ((48 : ℕ) = 10)), if_neg (by decide : ¬ ((48 : ℕ) = 12)), if_neg (by decide : ¬ ((48 : ℕ) = 14)), if_neg (by decide : ¬ ((48 : ℕ) = 16)), if_neg (by decide : ¬ ((48 : ℕ) = 18)), if_neg (by decide : ¬ ((48 : ℕ) = 20)), if_neg (by decide : ¬ ((48 : ℕ) = 22)), if_neg (by decide : ¬ ((48 : ℕ) = 24)), if_neg (by decide : ¬ ((48 : ℕ) = 26)), if_neg (by decide : ¬ ((48 : ℕ) = 28)), if_neg (by decide : ¬ ((48 : ℕ) = 30)), if_neg (by decide : ¬ ((48 : ℕ) = 32)), if_neg (by decide : ¬ ((48 : ℕ) = 34)), if_neg (by decide : ¬ ((48 : ℕ) = 36)), if_neg (by decide : ¬ ((48 : ℕ) = 38)), if_neg (by decide : ¬ ((48 : ℕ) = 40)), if_neg (by decide : ¬ ((48 : ℕ) = 42)), if_neg (by decide : ¬ ((48 : ℕ) = 44)), if_neg (by decide : ¬ ((48 : ℕ) = 46)), if_pos rfl]
theorem outsU_50 (m : (ℓ : Loc nD τ sig) → Buf (Elt F) ℓ) (r : Ref sig .tc) (c : Dev nD) : outsU m 50 r c = U50 m c r := by
  unfold outsU
  rw [if_neg (by decide : ¬ ((50 : ℕ) = 4)), if_neg (by decide : ¬ ((50 : ℕ) = 6)), if_neg (by decide : ¬ ((50 : ℕ) = 8)), if_neg (by decide : ¬ ((50 : ℕ) = 10)), if_neg (by decide : ¬ ((50 : ℕ) = 12)), if_neg (by decide : ¬ ((50 : ℕ) = 14)), if_neg (by decide : ¬ ((50 : ℕ) = 16)), if_neg (by decide : ¬ ((50 : ℕ) = 18)), if_neg (by decide : ¬ ((50 : ℕ) = 20)), if_neg (by decide : ¬ ((50 : ℕ) = 22)), if_neg (by decide : ¬ ((50 : ℕ) = 24)), if_neg (by decide : ¬ ((50 : ℕ) = 26)), if_neg (by decide : ¬ ((50 : ℕ) = 28)), if_neg (by decide : ¬ ((50 : ℕ) = 30)), if_neg (by decide : ¬ ((50 : ℕ) = 32)), if_neg (by decide : ¬ ((50 : ℕ) = 34)), if_neg (by decide : ¬ ((50 : ℕ) = 36)), if_neg (by decide : ¬ ((50 : ℕ) = 38)), if_neg (by decide : ¬ ((50 : ℕ) = 40)), if_neg (by decide : ¬ ((50 : ℕ) = 42)), if_neg (by decide : ¬ ((50 : ℕ) = 44)), if_neg (by decide : ¬ ((50 : ℕ) = 46)), if_neg (by decide : ¬ ((50 : ℕ) = 48)), if_pos rfl]
theorem outsU_52 (m : (ℓ : Loc nD τ sig) → Buf (Elt F) ℓ) (r : Ref sig .tc) (c : Dev nD) : outsU m 52 r c = U52 m c r := by
  unfold outsU
  rw [if_neg (by decide : ¬ ((52 : ℕ) = 4)), if_neg (by decide : ¬ ((52 : ℕ) = 6)), if_neg (by decide : ¬ ((52 : ℕ) = 8)), if_neg (by decide : ¬ ((52 : ℕ) = 10)), if_neg (by decide : ¬ ((52 : ℕ) = 12)), if_neg (by decide : ¬ ((52 : ℕ) = 14)), if_neg (by decide : ¬ ((52 : ℕ) = 16)), if_neg (by decide : ¬ ((52 : ℕ) = 18)), if_neg (by decide : ¬ ((52 : ℕ) = 20)), if_neg (by decide : ¬ ((52 : ℕ) = 22)), if_neg (by decide : ¬ ((52 : ℕ) = 24)), if_neg (by decide : ¬ ((52 : ℕ) = 26)), if_neg (by decide : ¬ ((52 : ℕ) = 28)), if_neg (by decide : ¬ ((52 : ℕ) = 30)), if_neg (by decide : ¬ ((52 : ℕ) = 32)), if_neg (by decide : ¬ ((52 : ℕ) = 34)), if_neg (by decide : ¬ ((52 : ℕ) = 36)), if_neg (by decide : ¬ ((52 : ℕ) = 38)), if_neg (by decide : ¬ ((52 : ℕ) = 40)), if_neg (by decide : ¬ ((52 : ℕ) = 42)), if_neg (by decide : ¬ ((52 : ℕ) = 44)), if_neg (by decide : ¬ ((52 : ℕ) = 46)), if_neg (by decide : ¬ ((52 : ℕ) = 48)), if_neg (by decide : ¬ ((52 : ℕ) = 50)), if_pos rfl]
theorem outsU_54 (m : (ℓ : Loc nD τ sig) → Buf (Elt F) ℓ) (r : Ref sig .tc) (c : Dev nD) : outsU m 54 r c = U54 m c r := by
  unfold outsU
  rw [if_neg (by decide : ¬ ((54 : ℕ) = 4)), if_neg (by decide : ¬ ((54 : ℕ) = 6)), if_neg (by decide : ¬ ((54 : ℕ) = 8)), if_neg (by decide : ¬ ((54 : ℕ) = 10)), if_neg (by decide : ¬ ((54 : ℕ) = 12)), if_neg (by decide : ¬ ((54 : ℕ) = 14)), if_neg (by decide : ¬ ((54 : ℕ) = 16)), if_neg (by decide : ¬ ((54 : ℕ) = 18)), if_neg (by decide : ¬ ((54 : ℕ) = 20)), if_neg (by decide : ¬ ((54 : ℕ) = 22)), if_neg (by decide : ¬ ((54 : ℕ) = 24)), if_neg (by decide : ¬ ((54 : ℕ) = 26)), if_neg (by decide : ¬ ((54 : ℕ) = 28)), if_neg (by decide : ¬ ((54 : ℕ) = 30)), if_neg (by decide : ¬ ((54 : ℕ) = 32)), if_neg (by decide : ¬ ((54 : ℕ) = 34)), if_neg (by decide : ¬ ((54 : ℕ) = 36)), if_neg (by decide : ¬ ((54 : ℕ) = 38)), if_neg (by decide : ¬ ((54 : ℕ) = 40)), if_neg (by decide : ¬ ((54 : ℕ) = 42)), if_neg (by decide : ¬ ((54 : ℕ) = 44)), if_neg (by decide : ¬ ((54 : ℕ) = 46)), if_neg (by decide : ¬ ((54 : ℕ) = 48)), if_neg (by decide : ¬ ((54 : ℕ) = 50)), if_neg (by decide : ¬ ((54 : ℕ) = 52)), if_pos rfl]
theorem outsU_56 (m : (ℓ : Loc nD τ sig) → Buf (Elt F) ℓ) (r : Ref sig .tc) (c : Dev nD) : outsU m 56 r c = U56 m c r := by
  unfold outsU
  rw [if_neg (by decide : ¬ ((56 : ℕ) = 4)), if_neg (by decide : ¬ ((56 : ℕ) = 6)), if_neg (by decide : ¬ ((56 : ℕ) = 8)), if_neg (by decide : ¬ ((56 : ℕ) = 10)), if_neg (by decide : ¬ ((56 : ℕ) = 12)), if_neg (by decide : ¬ ((56 : ℕ) = 14)), if_neg (by decide : ¬ ((56 : ℕ) = 16)), if_neg (by decide : ¬ ((56 : ℕ) = 18)), if_neg (by decide : ¬ ((56 : ℕ) = 20)), if_neg (by decide : ¬ ((56 : ℕ) = 22)), if_neg (by decide : ¬ ((56 : ℕ) = 24)), if_neg (by decide : ¬ ((56 : ℕ) = 26)), if_neg (by decide : ¬ ((56 : ℕ) = 28)), if_neg (by decide : ¬ ((56 : ℕ) = 30)), if_neg (by decide : ¬ ((56 : ℕ) = 32)), if_neg (by decide : ¬ ((56 : ℕ) = 34)), if_neg (by decide : ¬ ((56 : ℕ) = 36)), if_neg (by decide : ¬ ((56 : ℕ) = 38)), if_neg (by decide : ¬ ((56 : ℕ) = 40)), if_neg (by decide : ¬ ((56 : ℕ) = 42)), if_neg (by decide : ¬ ((56 : ℕ) = 44)), if_neg (by decide : ¬ ((56 : ℕ) = 46)), if_neg (by decide : ¬ ((56 : ℕ) = 48)), if_neg (by decide : ¬ ((56 : ℕ) = 50)), if_neg (by decide : ¬ ((56 : ℕ) = 52)), if_neg (by decide : ¬ ((56 : ℕ) = 54)), if_pos rfl]
theorem outsU_58 (m : (ℓ : Loc nD τ sig) → Buf (Elt F) ℓ) (r : Ref sig .tc) (c : Dev nD) : outsU m 58 r c = U58 m c r := by
  unfold outsU
  rw [if_neg (by decide : ¬ ((58 : ℕ) = 4)), if_neg (by decide : ¬ ((58 : ℕ) = 6)), if_neg (by decide : ¬ ((58 : ℕ) = 8)), if_neg (by decide : ¬ ((58 : ℕ) = 10)), if_neg (by decide : ¬ ((58 : ℕ) = 12)), if_neg (by decide : ¬ ((58 : ℕ) = 14)), if_neg (by decide : ¬ ((58 : ℕ) = 16)), if_neg (by decide : ¬ ((58 : ℕ) = 18)), if_neg (by decide : ¬ ((58 : ℕ) = 20)), if_neg (by decide : ¬ ((58 : ℕ) = 22)), if_neg (by decide : ¬ ((58 : ℕ) = 24)), if_neg (by decide : ¬ ((58 : ℕ) = 26)), if_neg (by decide : ¬ ((58 : ℕ) = 28)), if_neg (by decide : ¬ ((58 : ℕ) = 30)), if_neg (by decide : ¬ ((58 : ℕ) = 32)), if_neg (by decide : ¬ ((58 : ℕ) = 34)), if_neg (by decide : ¬ ((58 : ℕ) = 36)), if_neg (by decide : ¬ ((58 : ℕ) = 38)), if_neg (by decide : ¬ ((58 : ℕ) = 40)), if_neg (by decide : ¬ ((58 : ℕ) = 42)), if_neg (by decide : ¬ ((58 : ℕ) = 44)), if_neg (by decide : ¬ ((58 : ℕ) = 46)), if_neg (by decide : ¬ ((58 : ℕ) = 48)), if_neg (by decide : ¬ ((58 : ℕ) = 50)), if_neg (by decide : ¬ ((58 : ℕ) = 52)), if_neg (by decide : ¬ ((58 : ℕ) = 54)), if_neg (by decide : ¬ ((58 : ℕ) = 56)), if_pos rfl]
theorem outsU_60 (m : (ℓ : Loc nD τ sig) → Buf (Elt F) ℓ) (r : Ref sig .tc) (c : Dev nD) : outsU m 60 r c = U60 m c r := by
  unfold outsU
  rw [if_neg (by decide : ¬ ((60 : ℕ) = 4)), if_neg (by decide : ¬ ((60 : ℕ) = 6)), if_neg (by decide : ¬ ((60 : ℕ) = 8)), if_neg (by decide : ¬ ((60 : ℕ) = 10)), if_neg (by decide : ¬ ((60 : ℕ) = 12)), if_neg (by decide : ¬ ((60 : ℕ) = 14)), if_neg (by decide : ¬ ((60 : ℕ) = 16)), if_neg (by decide : ¬ ((60 : ℕ) = 18)), if_neg (by decide : ¬ ((60 : ℕ) = 20)), if_neg (by decide : ¬ ((60 : ℕ) = 22)), if_neg (by decide : ¬ ((60 : ℕ) = 24)), if_neg (by decide : ¬ ((60 : ℕ) = 26)), if_neg (by decide : ¬ ((60 : ℕ) = 28)), if_neg (by decide : ¬ ((60 : ℕ) = 30)), if_neg (by decide : ¬ ((60 : ℕ) = 32)), if_neg (by decide : ¬ ((60 : ℕ) = 34)), if_neg (by decide : ¬ ((60 : ℕ) = 36)), if_neg (by decide : ¬ ((60 : ℕ) = 38)), if_neg (by decide : ¬ ((60 : ℕ) = 40)), if_neg (by decide : ¬ ((60 : ℕ) = 42)), if_neg (by decide : ¬ ((60 : ℕ) = 44)), if_neg (by decide : ¬ ((60 : ℕ) = 46)), if_neg (by decide : ¬ ((60 : ℕ) = 48)), if_neg (by decide : ¬ ((60 : ℕ) = 50)), if_neg (by decide : ¬ ((60 : ℕ) = 52)), if_neg (by decide : ¬ ((60 : ℕ) = 54)), if_neg (by decide : ¬ ((60 : ℕ) = 56)), if_neg (by decide : ¬ ((60 : ℕ) = 58)), if_pos rfl]
theorem outsU_62 (m : (ℓ : Loc nD τ sig) → Buf (Elt F) ℓ) (r : Ref sig .tc) (c : Dev nD) : outsU m 62 r c = U62 m c r := by
  unfold outsU
  rw [if_neg (by decide : ¬ ((62 : ℕ) = 4)), if_neg (by decide : ¬ ((62 : ℕ) = 6)), if_neg (by decide : ¬ ((62 : ℕ) = 8)), if_neg (by decide : ¬ ((62 : ℕ) = 10)), if_neg (by decide : ¬ ((62 : ℕ) = 12)), if_neg (by decide : ¬ ((62 : ℕ) = 14)), if_neg (by decide : ¬ ((62 : ℕ) = 16)), if_neg (by decide : ¬ ((62 : ℕ) = 18)), if_neg (by decide : ¬ ((62 : ℕ) = 20)), if_neg (by decide : ¬ ((62 : ℕ) = 22)), if_neg (by decide : ¬ ((62 : ℕ) = 24)), if_neg (by decide : ¬ ((62 : ℕ) = 26)), if_neg (by decide : ¬ ((62 : ℕ) = 28)), if_neg (by decide : ¬ ((62 : ℕ) = 30)), if_neg (by decide : ¬ ((62 : ℕ) = 32)), if_neg (by decide : ¬ ((62 : ℕ) = 34)), if_neg (by decide : ¬ ((62 : ℕ) = 36)), if_neg (by decide : ¬ ((62 : ℕ) = 38)), if_neg (by decide : ¬ ((62 : ℕ) = 40)), if_neg (by decide : ¬ ((62 : ℕ) = 42)), if_neg (by decide : ¬ ((62 : ℕ) = 44)), if_neg (by decide : ¬ ((62 : ℕ) = 46)), if_neg (by decide : ¬ ((62 : ℕ) = 48)), if_neg (by decide : ¬ ((62 : ℕ) = 50)), if_neg (by decide : ¬ ((62 : ℕ) = 52)), if_neg (by decide : ¬ ((62 : ℕ) = 54)), if_neg (by decide : ¬ ((62 : ℕ) = 56)), if_neg (by decide : ¬ ((62 : ℕ) = 58)), if_neg (by decide : ¬ ((62 : ℕ) = 60)), if_pos rfl]
theorem outsU_64 (m : (ℓ : Loc nD τ sig) → Buf (Elt F) ℓ) (r : Ref sig .tc) (c : Dev nD) : outsU m 64 r c = U64 m c r := by
  unfold outsU
  rw [if_neg (by decide : ¬ ((64 : ℕ) = 4)), if_neg (by decide : ¬ ((64 : ℕ) = 6)), if_neg (by decide : ¬ ((64 : ℕ) = 8)), if_neg (by decide : ¬ ((64 : ℕ) = 10)), if_neg (by decide : ¬ ((64 : ℕ) = 12)), if_neg (by decide : ¬ ((64 : ℕ) = 14)), if_neg (by decide : ¬ ((64 : ℕ) = 16)), if_neg (by decide : ¬ ((64 : ℕ) = 18)), if_neg (by decide : ¬ ((64 : ℕ) = 20)), if_neg (by decide : ¬ ((64 : ℕ) = 22)), if_neg (by decide : ¬ ((64 : ℕ) = 24)), if_neg (by decide : ¬ ((64 : ℕ) = 26)), if_neg (by decide : ¬ ((64 : ℕ) = 28)), if_neg (by decide : ¬ ((64 : ℕ) = 30)), if_neg (by decide : ¬ ((64 : ℕ) = 32)), if_neg (by decide : ¬ ((64 : ℕ) = 34)), if_neg (by decide : ¬ ((64 : ℕ) = 36)), if_neg (by decide : ¬ ((64 : ℕ) = 38)), if_neg (by decide : ¬ ((64 : ℕ) = 40)), if_neg (by decide : ¬ ((64 : ℕ) = 42)), if_neg (by decide : ¬ ((64 : ℕ) = 44)), if_neg (by decide : ¬ ((64 : ℕ) = 46)), if_neg (by decide : ¬ ((64 : ℕ) = 48)), if_neg (by decide : ¬ ((64 : ℕ) = 50)), if_neg (by decide : ¬ ((64 : ℕ) = 52)), if_neg (by decide : ¬ ((64 : ℕ) = 54)), if_neg (by decide : ¬ ((64 : ℕ) = 56)), if_neg (by decide : ¬ ((64 : ℕ) = 58)), if_neg (by decide : ¬ ((64 : ℕ) = 60)), if_neg (by decide : ¬ ((64 : ℕ) = 62)), if_pos rfl]
theorem outsU_66 (m : (ℓ : Loc nD τ sig) → Buf (Elt F) ℓ) (r : Ref sig .tc) (c : Dev nD) : outsU m 66 r c = U66 m c r := by
  unfold outsU
  rw [if_neg (by decide : ¬ ((66 : ℕ) = 4)), if_neg (by decide : ¬ ((66 : ℕ) = 6)), if_neg (by decide : ¬ ((66 : ℕ) = 8)), if_neg (by decide : ¬ ((66 : ℕ) = 10)), if_neg (by decide : ¬ ((66 : ℕ) = 12)), if_neg (by decide : ¬ ((66 : ℕ) = 14)), if_neg (by decide : ¬ ((66 : ℕ) = 16)), if_neg (by decide : ¬ ((66 : ℕ) = 18)), if_neg (by decide : ¬ ((66 : ℕ) = 20)), if_neg (by decide : ¬ ((66 : ℕ) = 22)), if_neg (by decide : ¬ ((66 : ℕ) = 24)), if_neg (by decide : ¬ ((66 : ℕ) = 26)), if_neg (by decide : ¬ ((66 : ℕ) = 28)), if_neg (by decide : ¬ ((66 : ℕ) = 30)), if_neg (by decide : ¬ ((66 : ℕ) = 32)), if_neg (by decide : ¬ ((66 : ℕ) = 34)), if_neg (by decide : ¬ ((66 : ℕ) = 36)), if_neg (by decide : ¬ ((66 : ℕ) = 38)), if_neg (by decide : ¬ ((66 : ℕ) = 40)), if_neg (by decide : ¬ ((66 : ℕ) = 42)), if_neg (by decide : ¬ ((66 : ℕ) = 44)), if_neg (by decide : ¬ ((66 : ℕ) = 46)), if_neg (by decide : ¬ ((66 : ℕ) = 48)), if_neg (by decide : ¬ ((66 : ℕ) = 50)), if_neg (by decide : ¬ ((66 : ℕ) = 52)), if_neg (by decide : ¬ ((66 : ℕ) = 54)), if_neg (by decide : ¬ ((66 : ℕ) = 56)), if_neg (by decide : ¬ ((66 : ℕ) = 58)), if_neg (by decide : ¬ ((66 : ℕ) = 60)), if_neg (by decide : ¬ ((66 : ℕ) = 62)), if_neg (by decide : ¬ ((66 : ℕ) = 64)), if_pos rfl]
theorem outsU_68 (m : (ℓ : Loc nD τ sig) → Buf (Elt F) ℓ) (r : Ref sig .tc) (c : Dev nD) : outsU m 68 r c = U68 m c r := by
  unfold outsU
  rw [if_neg (by decide : ¬ ((68 : ℕ) = 4)), if_neg (by decide : ¬ ((68 : ℕ) = 6)), if_neg (by decide : ¬ ((68 : ℕ) = 8)), if_neg (by decide : ¬ ((68 : ℕ) = 10)), if_neg (by decide : ¬ ((68 : ℕ) = 12)), if_neg (by decide : ¬ ((68 : ℕ) = 14)), if_neg (by decide : ¬ ((68 : ℕ) = 16)), if_neg (by decide : ¬ ((68 : ℕ) = 18)), if_neg (by decide : ¬ ((68 : ℕ) = 20)), if_neg (by decide : ¬ ((68 : ℕ) = 22)), if_neg (by decide : ¬ ((68 : ℕ) = 24)), if_neg (by decide : ¬ ((68 : ℕ) = 26)), if_neg (by decide : ¬ ((68 : ℕ) = 28)), if_neg (by decide : ¬ ((68 : ℕ) = 30)), if_neg (by decide : ¬ ((68 : ℕ) = 32)), if_neg (by decide : ¬ ((68 : ℕ) = 34)), if_neg (by decide : ¬ ((68 : ℕ) = 36)), if_neg (by decide : ¬ ((68 : ℕ) = 38)), if_neg (by decide : ¬ ((68 : ℕ) = 40)), if_neg (by decide : ¬ ((68 : ℕ) = 42)), if_neg (by decide : ¬ ((68 : ℕ) = 44)), if_neg (by decide : ¬ ((68 : ℕ) = 46)), if_neg (by decide : ¬ ((68 : ℕ) = 48)), if_neg (by decide : ¬ ((68 : ℕ) = 50)), if_neg (by decide : ¬ ((68 : ℕ) = 52)), if_neg (by decide : ¬ ((68 : ℕ) = 54)), if_neg (by decide : ¬ ((68 : ℕ) = 56)), if_neg (by decide : ¬ ((68 : ℕ) = 58)), if_neg (by decide : ¬ ((68 : ℕ) = 60)), if_neg (by decide : ¬ ((68 : ℕ) = 62)), if_neg (by decide : ¬ ((68 : ℕ) = 64)), if_neg (by decide : ¬ ((68 : ℕ) = 66)), if_pos rfl]
theorem outsU_70 (m : (ℓ : Loc nD τ sig) → Buf (Elt F) ℓ) (r : Ref sig .tc) (c : Dev nD) : outsU m 70 r c = U70 m c r := by
  unfold outsU
  rw [if_neg (by decide : ¬ ((70 : ℕ) = 4)), if_neg (by decide : ¬ ((70 : ℕ) = 6)), if_neg (by decide : ¬ ((70 : ℕ) = 8)), if_neg (by decide : ¬ ((70 : ℕ) = 10)), if_neg (by decide : ¬ ((70 : ℕ) = 12)), if_neg (by decide : ¬ ((70 : ℕ) = 14)), if_neg (by decide : ¬ ((70 : ℕ) = 16)), if_neg (by decide : ¬ ((70 : ℕ) = 18)), if_neg (by decide : ¬ ((70 : ℕ) = 20)), if_neg (by decide : ¬ ((70 : ℕ) = 22)), if_neg (by decide : ¬ ((70 : ℕ) = 24)), if_neg (by decide : ¬ ((70 : ℕ) = 26)), if_neg (by decide : ¬ ((70 : ℕ) = 28)), if_neg (by decide : ¬ ((70 : ℕ) = 30)), if_neg (by decide : ¬ ((70 : ℕ) = 32)), if_neg (by decide : ¬ ((70 : ℕ) = 34)), if_neg (by decide : ¬ ((70 : ℕ) = 36)), if_neg (by decide : ¬ ((70 : ℕ) = 38)), if_neg (by decide : ¬ ((70 : ℕ) = 40)), if_neg (by decide : ¬ ((70 : ℕ) = 42)), if_neg (by decide : ¬ ((70 : ℕ) = 44)), if_neg (by decide : ¬ ((70 : ℕ) = 46)), if_neg (by decide : ¬ ((70 : ℕ) = 48)), if_neg (by decide : ¬ ((70 : ℕ) = 50)), if_neg (by decide : ¬ ((70 : ℕ) = 52)), if_neg (by decide : ¬ ((70 : ℕ) = 54)), if_neg (by decide : ¬ ((70 : ℕ) = 56)), if_neg (by decide : ¬ ((70 : ℕ) = 58)), if_neg (by decide : ¬ ((70 : ℕ) = 60)), if_neg (by decide : ¬ ((70 : ℕ) = 62)), if_neg (by decide : ¬ ((70 : ℕ) = 64)), if_neg (by decide : ¬ ((70 : ℕ) = 66)), if_neg (by decide : ¬ ((70 : ℕ) = 68)), if_pos rfl]
theorem outsU_72 (m : (ℓ : Loc nD τ sig) → Buf (Elt F) ℓ) (r : Ref sig .tc) (c : Dev nD) : outsU m 72 r c = U72 m c r := by
  unfold outsU
  rw [if_neg (by decide : ¬ ((72 : ℕ) = 4)), if_neg (by decide : ¬ ((72 : ℕ) = 6)), if_neg (by decide : ¬ ((72 : ℕ) = 8)), if_neg (by decide : ¬ ((72 : ℕ) = 10)), if_neg (by decide : ¬ ((72 : ℕ) = 12)), if_neg (by decide : ¬ ((72 : ℕ) = 14)), if_neg (by decide : ¬ ((72 : ℕ) = 16)), if_neg (by decide : ¬ ((72 : ℕ) = 18)), if_neg (by decide : ¬ ((72 : ℕ) = 20)), if_neg (by decide : ¬ ((72 : ℕ) = 22)), if_neg (by decide : ¬ ((72 : ℕ) = 24)), if_neg (by decide : ¬ ((72 : ℕ) = 26)), if_neg (by decide : ¬ ((72 : ℕ) = 28)), if_neg (by decide : ¬ ((72 : ℕ) = 30)), if_neg (by decide : ¬ ((72 : ℕ) = 32)), if_neg (by decide : ¬ ((72 : ℕ) = 34)), if_neg (by decide : ¬ ((72 : ℕ) = 36)), if_neg (by decide : ¬ ((72 : ℕ) = 38)), if_neg (by decide : ¬ ((72 : ℕ) = 40)), if_neg (by decide : ¬ ((72 : ℕ) = 42)), if_neg (by decide : ¬ ((72 : ℕ) = 44)), if_neg (by decide : ¬ ((72 : ℕ) = 46)), if_neg (by decide : ¬ ((72 : ℕ) = 48)), if_neg (by decide : ¬ ((72 : ℕ) = 50)), if_neg (by decide : ¬ ((72 : ℕ) = 52)), if_neg (by decide : ¬ ((72 : ℕ) = 54)), if_neg (by decide : ¬ ((72 : ℕ) = 56)), if_neg (by decide : ¬ ((72 : ℕ) = 58)), if_neg (by decide : ¬ ((72 : ℕ) = 60)), if_neg (by decide : ¬ ((72 : ℕ) = 62)), if_neg (by decide : ¬ ((72 : ℕ) = 64)), if_neg (by decide : ¬ ((72 : ℕ) = 66)), if_neg (by decide : ¬ ((72 : ℕ) = 68)), if_neg (by decide : ¬ ((72 : ℕ) = 70)), if_pos rfl]
theorem outsU_74 (m : (ℓ : Loc nD τ sig) → Buf (Elt F) ℓ) (r : Ref sig .tc) (c : Dev nD) : outsU m 74 r c = U74 m c r := by
  unfold outsU
  rw [if_neg (by decide : ¬ ((74 : ℕ) = 4)), if_neg (by decide : ¬ ((74 : ℕ) = 6)), if_neg (by decide : ¬ ((74 : ℕ) = 8)), if_neg (by decide : ¬ ((74 : ℕ) = 10)), if_neg (by decide : ¬ ((74 : ℕ) = 12)), if_neg (by decide : ¬ ((74 : ℕ) = 14)), if_neg (by decide : ¬ ((74 : ℕ) = 16)), if_neg (by decide : ¬ ((74 : ℕ) = 18)), if_neg (by decide : ¬ ((74 : ℕ) = 20)), if_neg (by decide : ¬ ((74 : ℕ) = 22)), if_neg (by decide : ¬ ((74 : ℕ) = 24)), if_neg (by decide : ¬ ((74 : ℕ) = 26)), if_neg (by decide : ¬ ((74 : ℕ) = 28)), if_neg (by decide : ¬ ((74 : ℕ) = 30)), if_neg (by decide : ¬ ((74 : ℕ) = 32)), if_neg (by decide : ¬ ((74 : ℕ) = 34)), if_neg (by decide : ¬ ((74 : ℕ) = 36)), if_neg (by decide : ¬ ((74 : ℕ) = 38)), if_neg (by decide : ¬ ((74 : ℕ) = 40)), if_neg (by decide : ¬ ((74 : ℕ) = 42)), if_neg (by decide : ¬ ((74 : ℕ) = 44)), if_neg (by decide : ¬ ((74 : ℕ) = 46)), if_neg (by decide : ¬ ((74 : ℕ) = 48)), if_neg (by decide : ¬ ((74 : ℕ) = 50)), if_neg (by decide : ¬ ((74 : ℕ) = 52)), if_neg (by decide : ¬ ((74 : ℕ) = 54)), if_neg (by decide : ¬ ((74 : ℕ) = 56)), if_neg (by decide : ¬ ((74 : ℕ) = 58)), if_neg (by decide : ¬ ((74 : ℕ) = 60)), if_neg (by decide : ¬ ((74 : ℕ) = 62)), if_neg (by decide : ¬ ((74 : ℕ) = 64)), if_neg (by decide : ¬ ((74 : ℕ) = 66)), if_neg (by decide : ¬ ((74 : ℕ) = 68)), if_neg (by decide : ¬ ((74 : ℕ) = 70)), if_neg (by decide : ¬ ((74 : ℕ) = 72)), if_pos rfl]
theorem outsU_76 (m : (ℓ : Loc nD τ sig) → Buf (Elt F) ℓ) (r : Ref sig .tc) (c : Dev nD) : outsU m 76 r c = U76 m c r := by
  unfold outsU
  rw [if_neg (by decide : ¬ ((76 : ℕ) = 4)), if_neg (by decide : ¬ ((76 : ℕ) = 6)), if_neg (by decide : ¬ ((76 : ℕ) = 8)), if_neg (by decide : ¬ ((76 : ℕ) = 10)), if_neg (by decide : ¬ ((76 : ℕ) = 12)), if_neg (by decide : ¬ ((76 : ℕ) = 14)), if_neg (by decide : ¬ ((76 : ℕ) = 16)), if_neg (by decide : ¬ ((76 : ℕ) = 18)), if_neg (by decide : ¬ ((76 : ℕ) = 20)), if_neg (by decide : ¬ ((76 : ℕ) = 22)), if_neg (by decide : ¬ ((76 : ℕ) = 24)), if_neg (by decide : ¬ ((76 : ℕ) = 26)), if_neg (by decide : ¬ ((76 : ℕ) = 28)), if_neg (by decide : ¬ ((76 : ℕ) = 30)), if_neg (by decide : ¬ ((76 : ℕ) = 32)), if_neg (by decide : ¬ ((76 : ℕ) = 34)), if_neg (by decide : ¬ ((76 : ℕ) = 36)), if_neg (by decide : ¬ ((76 : ℕ) = 38)), if_neg (by decide : ¬ ((76 : ℕ) = 40)), if_neg (by decide : ¬ ((76 : ℕ) = 42)), if_neg (by decide : ¬ ((76 : ℕ) = 44)), if_neg (by decide : ¬ ((76 : ℕ) = 46)), if_neg (by decide : ¬ ((76 : ℕ) = 48)), if_neg (by decide : ¬ ((76 : ℕ) = 50)), if_neg (by decide : ¬ ((76 : ℕ) = 52)), if_neg (by decide : ¬ ((76 : ℕ) = 54)), if_neg (by decide : ¬ ((76 : ℕ) = 56)), if_neg (by decide : ¬ ((76 : ℕ) = 58)), if_neg (by decide : ¬ ((76 : ℕ) = 60)), if_neg (by decide : ¬ ((76 : ℕ) = 62)), if_neg (by decide : ¬ ((76 : ℕ) = 64)), if_neg (by decide : ¬ ((76 : ℕ) = 66)), if_neg (by decide : ¬ ((76 : ℕ) = 68)), if_neg (by decide : ¬ ((76 : ℕ) = 70)), if_neg (by decide : ¬ ((76 : ℕ) = 72)), if_neg (by decide : ¬ ((76 : ℕ) = 74)), if_pos rfl]
theorem outsU_78 (m : (ℓ : Loc nD τ sig) → Buf (Elt F) ℓ) (r : Ref sig .tc) (c : Dev nD) : outsU m 78 r c = U78 m c r := by
  unfold outsU
  rw [if_neg (by decide : ¬ ((78 : ℕ) = 4)), if_neg (by decide : ¬ ((78 : ℕ) = 6)), if_neg (by decide : ¬ ((78 : ℕ) = 8)), if_neg (by decide : ¬ ((78 : ℕ) = 10)), if_neg (by decide : ¬ ((78 : ℕ) = 12)), if_neg (by decide : ¬ ((78 : ℕ) = 14)), if_neg (by decide : ¬ ((78 : ℕ) = 16)), if_neg (by decide : ¬ ((78 : ℕ) = 18)), if_neg (by decide : ¬ ((78 : ℕ) = 20)), if_neg (by decide : ¬ ((78 : ℕ) = 22)), if_neg (by decide : ¬ ((78 : ℕ) = 24)), if_neg (by decide : ¬ ((78 : ℕ) = 26)), if_neg (by decide : ¬ ((78 : ℕ) = 28)), if_neg (by decide : ¬ ((78 : ℕ) = 30)), if_neg (by decide : ¬ ((78 : ℕ) = 32)), if_neg (by decide : ¬ ((78 : ℕ) = 34)), if_neg (by decide : ¬ ((78 : ℕ) = 36)), if_neg (by decide : ¬ ((78 : ℕ) = 38)), if_neg (by decide : ¬ ((78 : ℕ) = 40)), if_neg (by decide : ¬ ((78 : ℕ) = 42)), if_neg (by decide : ¬ ((78 : ℕ) = 44)), if_neg (by decide : ¬ ((78 : ℕ) = 46)), if_neg (by decide : ¬ ((78 : ℕ) = 48)), if_neg (by decide : ¬ ((78 : ℕ) = 50)), if_neg (by decide : ¬ ((78 : ℕ) = 52)), if_neg (by decide : ¬ ((78 : ℕ) = 54)), if_neg (by decide : ¬ ((78 : ℕ) = 56)), if_neg (by decide : ¬ ((78 : ℕ) = 58)), if_neg (by decide : ¬ ((78 : ℕ) = 60)), if_neg (by decide : ¬ ((78 : ℕ) = 62)), if_neg (by decide : ¬ ((78 : ℕ) = 64)), if_neg (by decide : ¬ ((78 : ℕ) = 66)), if_neg (by decide : ¬ ((78 : ℕ) = 68)), if_neg (by decide : ¬ ((78 : ℕ) = 70)), if_neg (by decide : ¬ ((78 : ℕ) = 72)), if_neg (by decide : ¬ ((78 : ℕ) = 74)), if_neg (by decide : ¬ ((78 : ℕ) = 76)), if_pos rfl]
theorem outsU_80 (m : (ℓ : Loc nD τ sig) → Buf (Elt F) ℓ) (r : Ref sig .tc) (c : Dev nD) : outsU m 80 r c = U80 m c r := by
  unfold outsU
  rw [if_neg (by decide : ¬ ((80 : ℕ) = 4)), if_neg (by decide : ¬ ((80 : ℕ) = 6)), if_neg (by decide : ¬ ((80 : ℕ) = 8)), if_neg (by decide : ¬ ((80 : ℕ) = 10)), if_neg (by decide : ¬ ((80 : ℕ) = 12)), if_neg (by decide : ¬ ((80 : ℕ) = 14)), if_neg (by decide : ¬ ((80 : ℕ) = 16)), if_neg (by decide : ¬ ((80 : ℕ) = 18)), if_neg (by decide : ¬ ((80 : ℕ) = 20)), if_neg (by decide : ¬ ((80 : ℕ) = 22)), if_neg (by decide : ¬ ((80 : ℕ) = 24)), if_neg (by decide : ¬ ((80 : ℕ) = 26)), if_neg (by decide : ¬ ((80 : ℕ) = 28)), if_neg (by decide : ¬ ((80 : ℕ) = 30)), if_neg (by decide : ¬ ((80 : ℕ) = 32)), if_neg (by decide : ¬ ((80 : ℕ) = 34)), if_neg (by decide : ¬ ((80 : ℕ) = 36)), if_neg (by decide : ¬ ((80 : ℕ) = 38)), if_neg (by decide : ¬ ((80 : ℕ) = 40)), if_neg (by decide : ¬ ((80 : ℕ) = 42)), if_neg (by decide : ¬ ((80 : ℕ) = 44)), if_neg (by decide : ¬ ((80 : ℕ) = 46)), if_neg (by decide : ¬ ((80 : ℕ) = 48)), if_neg (by decide : ¬ ((80 : ℕ) = 50)), if_neg (by decide : ¬ ((80 : ℕ) = 52)), if_neg (by decide : ¬ ((80 : ℕ) = 54)), if_neg (by decide : ¬ ((80 : ℕ) = 56)), if_neg (by decide : ¬ ((80 : ℕ) = 58)), if_neg (by decide : ¬ ((80 : ℕ) = 60)), if_neg (by decide : ¬ ((80 : ℕ) = 62)), if_neg (by decide : ¬ ((80 : ℕ) = 64)), if_neg (by decide : ¬ ((80 : ℕ) = 66)), if_neg (by decide : ¬ ((80 : ℕ) = 68)), if_neg (by decide : ¬ ((80 : ℕ) = 70)), if_neg (by decide : ¬ ((80 : ℕ) = 72)), if_neg (by decide : ¬ ((80 : ℕ) = 74)), if_neg (by decide : ¬ ((80 : ℕ) = 76)), if_neg (by decide : ¬ ((80 : ℕ) = 78)), if_pos rfl]
theorem outsU_82 (m : (ℓ : Loc nD τ sig) → Buf (Elt F) ℓ) (r : Ref sig .tc) (c : Dev nD) : outsU m 82 r c = U82 m c r := by
  unfold outsU
  rw [if_neg (by decide : ¬ ((82 : ℕ) = 4)), if_neg (by decide : ¬ ((82 : ℕ) = 6)), if_neg (by decide : ¬ ((82 : ℕ) = 8)), if_neg (by decide : ¬ ((82 : ℕ) = 10)), if_neg (by decide : ¬ ((82 : ℕ) = 12)), if_neg (by decide : ¬ ((82 : ℕ) = 14)), if_neg (by decide : ¬ ((82 : ℕ) = 16)), if_neg (by decide : ¬ ((82 : ℕ) = 18)), if_neg (by decide : ¬ ((82 : ℕ) = 20)), if_neg (by decide : ¬ ((82 : ℕ) = 22)), if_neg (by decide : ¬ ((82 : ℕ) = 24)), if_neg (by decide : ¬ ((82 : ℕ) = 26)), if_neg (by decide : ¬ ((82 : ℕ) = 28)), if_neg (by decide : ¬ ((82 : ℕ) = 30)), if_neg (by decide : ¬ ((82 : ℕ) = 32)), if_neg (by decide : ¬ ((82 : ℕ) = 34)), if_neg (by decide : ¬ ((82 : ℕ) = 36)), if_neg (by decide : ¬ ((82 : ℕ) = 38)), if_neg (by decide : ¬ ((82 : ℕ) = 40)), if_neg (by decide : ¬ ((82 : ℕ) = 42)), if_neg (by decide : ¬ ((82 : ℕ) = 44)), if_neg (by decide : ¬ ((82 : ℕ) = 46)), if_neg (by decide : ¬ ((82 : ℕ) = 48)), if_neg (by decide : ¬ ((82 : ℕ) = 50)), if_neg (by decide : ¬ ((82 : ℕ) = 52)), if_neg (by decide : ¬ ((82 : ℕ) = 54)), if_neg (by decide : ¬ ((82 : ℕ) = 56)), if_neg (by decide : ¬ ((82 : ℕ) = 58)), if_neg (by decide : ¬ ((82 : ℕ) = 60)), if_neg (by decide : ¬ ((82 : ℕ) = 62)), if_neg (by decide : ¬ ((82 : ℕ) = 64)), if_neg (by decide : ¬ ((82 : ℕ) = 66)), if_neg (by decide : ¬ ((82 : ℕ) = 68)), if_neg (by decide : ¬ ((82 : ℕ) = 70)), if_neg (by decide : ¬ ((82 : ℕ) = 72)), if_neg (by decide : ¬ ((82 : ℕ) = 74)), if_neg (by decide : ¬ ((82 : ℕ) = 76)), if_neg (by decide : ¬ ((82 : ℕ) = 78)), if_neg (by decide : ¬ ((82 : ℕ) = 80)), if_pos rfl]

theorem V0_eq (m : (ℓ : Loc nD τ sig) → Buf (Elt F) ℓ) (c : Dev nD) : V0 m c = U0 m c := rfl
theorem V1_eq (m : (ℓ : Loc nD τ sig) → Buf (Elt F) ℓ) (c : Dev nD) : V1 m c = U1 m c := by
  show StableHlo.after hostOps0 (V0 m c) = _; rw [V0_eq, U1]
theorem V2_eq (m : (ℓ : Loc nD τ sig) → Buf (Elt F) ℓ) (c : Dev nD) : V2 m c = U2 m c := by
  show StableHlo.after hostOps0_1 (V1 m c) = _; rw [V1_eq, U2]
theorem V3_eq (m : (ℓ : Loc nD τ sig) → Buf (Elt F) ℓ) (c : Dev nD) : V3 m c = U3 m c := by
  show StableHlo.after hostOps0_2 (V2 m c) = _; rw [V2_eq, U3]
theorem V4_eq (m : (ℓ : Loc nD τ sig) → Buf (Elt F) ℓ) (c : Dev nD) : V4 m (outsU m) c = U4 m c :=
  upd1_eq (U4 m c) (V3 m c) main_v33 (outsU m 4 main_v33 c) (outsU_4 m main_v33 c)
    fun x hx => (congrFun (V3_eq m c) x).trans (Function.update_of_ne hx _ _).symm
theorem V5_eq (m : (ℓ : Loc nD τ sig) → Buf (Elt F) ℓ) (c : Dev nD) : V5 m (outsU m) c = U5 m c := by
  show StableHlo.after hostOps1 (V4 m (outsU m) c) = _; rw [V4_eq, U5]
theorem V6_eq (m : (ℓ : Loc nD τ sig) → Buf (Elt F) ℓ) (c : Dev nD) : V6 m (outsU m) c = U6 m c :=
  upd2_eq (U6 m c) (V5 m (outsU m) c) main_v35 main_v33 (outsU m 6 main_v35 c) (outsU m 6 main_v33 c)
    (outsU_6 m main_v35 c) (outsU_6 m main_v33 c)
    fun x ha hb => (congrFun (V5_eq m c) x).trans ((Function.update_of_ne hb _ _).trans (Function.update_of_ne ha _ _)).symm
theorem V7_eq (m : (ℓ : Loc nD τ sig) → Buf (Elt F) ℓ) (c : Dev nD) : V7 m (outsU m) c = U7 m c := by
  show StableHlo.after hostOps2 (V6 m (outsU m) c) = _; rw [V6_eq, U7]
theorem V8_eq (m : (ℓ : Loc nD τ sig) → Buf (Elt F) ℓ) (c : Dev nD) : V8 m (outsU m) c = U8 m c :=
  upd2_eq (U8 m c) (V7 m (outsU m) c) main_v37 main_v33 (outsU m 8 main_v37 c) (outsU m 8 main_v33 c)
    (outsU_8 m main_v37 c) (outsU_8 m main_v33 c)
    fun x ha hb => (congrFun (V7_eq m c) x).trans ((Function.update_of_ne hb _ _).trans (Function.update_of_ne ha _ _)).symm
theorem V9_eq (m : (ℓ : Loc nD τ sig) → Buf (Elt F) ℓ) (c : Dev nD) : V9 m (outsU m) c = U9 m c := by
  show StableHlo.after hostOps3 (V8 m (outsU m) c) = _; rw [V8_eq, U9]
theorem V10_eq (m : (ℓ : Loc nD τ sig) → Buf (Elt F) ℓ) (c : Dev nD) : V10 m (outsU m) c = U10 m c :=
  upd2_eq (U10 m c) (V9 m (outsU m) c) main_v39 main_v33 (outsU m 10 main_v39 c) (outsU m 10 main_v33 c)
    (outsU_10 m main_v39 c) (outsU_10 m main_v33 c)
    fun x ha hb => (congrFun (V9_eq m c) x).trans ((Function.update_of_ne hb _ _).trans (Function.update_of_ne ha _ _)).symm
theorem V11_eq (m : (ℓ : Loc nD τ sig) → Buf (Elt F) ℓ) (c : Dev nD) : V11 m (outsU m) c = U11 m c := by
  show StableHlo.after hostOps4 (V10 m (outsU m) c) = _; rw [V10_eq, U11]
theorem V12_eq (m : (ℓ : Loc nD τ sig) → Buf (Elt F) ℓ) (c : Dev nD) : V12 m (outsU m) c = U12 m c :=
  upd2_eq (U12 m c) (V11 m (outsU m) c) main_v41 main_v33 (outsU m 12 main_v41 c) (outsU m 12 main_v33 c)
    (outsU_12 m main_v41 c) (outsU_12 m main_v33 c)
    fun x ha hb => (congrFun (V11_eq m c) x).trans ((Function.update_of_ne hb _ _).trans (Function.update_of_ne ha _ _)).symm
theorem V13_eq (m : (ℓ : Loc nD τ sig) → Buf (Elt F) ℓ) (c : Dev nD) : V13 m (outsU m) c = U13 m c := by
  show StableHlo.after hostOps5 (V12 m (outsU m) c) = _; rw [V12_eq, U13]
theorem V14_eq (m : (ℓ : Loc nD τ sig) → Buf (Elt F) ℓ) (c : Dev nD) : V14 m (outsU m) c = U14 m c :=
  upd2_eq (U14 m c) (V13 m (outsU m) c) main_v43 main_v33 (outsU m 14 main_v43 c) (outsU m 14 main_v33 c)
    (outsU_14 m main_v43 c) (outsU_14 m main_v33 c)
    fun x ha hb => (congrFun (V13_eq m c) x).trans ((Function.update_of_ne hb _ _).trans (Function.update_of_ne ha _ _)).symm
theorem V15_eq (m : (ℓ : Loc nD τ sig) → Buf (Elt F) ℓ) (c : Dev nD) : V15 m (outsU m) c = U15 m c := by
  show StableHlo.after hostOps6 (V14 m (outsU m) c) = _; rw [V14_eq, U15]
theorem V16_eq (m : (ℓ : Loc nD τ sig) → Buf (Elt F) ℓ) (c : Dev nD) : V16 m (outsU m) c = U16 m c :=
  upd2_eq (U16 m c) (V15 m (outsU m) c) main_v45 main_v33 (outsU m 16 main_v45 c) (outsU m 16 main_v33 c)
    (outsU_16 m main_v45 c) (outsU_16 m main_v33 c)
    fun x ha hb => (congrFun (V15_eq m c) x).trans ((Function.update_of_ne hb _ _).trans (Function.update_of_ne ha _ _)).symm
theorem V17_eq (m : (ℓ : Loc nD τ sig) → Buf (Elt F) ℓ) (c : Dev nD) : V17 m (outsU m) c = U17 m c := by
  show StableHlo.after hostOps7 (V16 m (outsU m) c) = _; rw [V16_eq, U17]
theorem V18_eq (m : (ℓ : Loc nD τ sig) → Buf (Elt F) ℓ) (c : Dev nD) : V18 m (outsU m) c = U18 m c :=
  upd2_eq (U18 m c) (V17 m (outsU m) c) main_v47 main_v33 (outsU m 18 main_v47 c) (outsU m 18 main_v33 c)
    (outsU_18 m main_v47 c) (outsU_18 m main_v33 c)
    fun x ha hb => (congrFun (V17_eq m c) x).trans ((Function.update_of_ne hb _ _).trans (Function.update_of_ne ha _ _)).symm
theorem V19_eq (m : (ℓ : Loc nD τ sig) → Buf (Elt F) ℓ) (c : Dev nD) : V19 m (outsU m) c = U19 m c := by
  show StableHlo.after hostOps8 (V18 m (outsU m) c) = _; rw [V18_eq, U19]
theorem V20_eq (m : (ℓ : Loc nD τ sig) → Buf (Elt F) ℓ) (c : Dev nD) : V20 m (outsU m) c = U20 m c :=
  upd2_eq (U20 m c) (V19 m (outsU m) c) main_v49 main_v33 (outsU m 20 main_v49 c) (outsU m 20 main_v33 c)
    (outsU_20 m main_v49 c) (outsU_20 m main_v33 c)
    fun x ha hb => (congrFun (V19_eq m c) x).trans ((Function.update_of_ne hb _ _).trans (Function.update_of_ne ha _ _)).symm
theorem V21_eq (m : (ℓ : Loc nD τ sig) → Buf (Elt F) ℓ) (c : Dev nD) : V21 m (outsU m) c = U21 m c := by
  show StableHlo.after hostOps9 (V20 m (outsU m) c) = _; rw [V20_eq, U21]
theorem V22_eq (m : (ℓ : Loc nD τ sig) → Buf (Elt F) ℓ) (c : Dev nD) : V22 m (outsU m) c = U22 m c :=
  upd2_eq (U22 m c) (V21 m (outsU m) c) main_v51 main_v33 (outsU m 22 main_v51 c) (outsU m 22 main_v33 c)
    (outsU_22 m main_v51 c) (outsU_22 m main_v33 c)
    fun x ha hb => (congrFun (V21_eq m c) x).trans ((Function.update_of_ne hb _ _).trans (Function.update_of_ne ha _ _)).symm
theorem V23_eq (m : (ℓ : Loc nD τ sig) → Buf (Elt F) ℓ) (c : Dev nD) : V23 m (outsU m) c = U23 m c := by
  show StableHlo.after hostOps10 (V22 m (outsU m) c) = _; rw [V22_eq, U23]
theorem V24_eq (m : (ℓ : Loc nD τ sig) → Buf (Elt F) ℓ) (c : Dev nD) : V24 m (outsU m) c = U24 m c :=
  upd2_eq (U24 m c) (V23 m (outsU m) c) main_v53 main_v33 (outsU m 24 main_v53 c) (outsU m 24 main_v33 c)
    (outsU_24 m main_v53 c) (outsU_24 m main_v33 c)
    fun x ha hb => (congrFun (V23_eq m c) x).trans ((Function.update_of_ne hb _ _).trans (Function.update_of_ne ha _ _)).symm
theorem V25_eq (m : (ℓ : Loc nD τ sig) → Buf (Elt F) ℓ) (c : Dev nD) : V25 m (outsU m) c = U25 m c := by
  show StableHlo.after hostOps11 (V24 m (outsU m) c) = _; rw [V24_eq, U25]
theorem V26_eq (m : (ℓ : Loc nD τ sig) → Buf (Elt F) ℓ) (c : Dev nD) : V26 m (outsU m) c = U26 m c :=
  upd1_eq (U26 m c) (V25 m (outsU m) c) main_v61 (outsU m 26 main_v61 c) (outsU_26 m main_v61 c)
    fun x hx => (congrFun (V25_eq m c) x).trans (Function.update_of_ne hx _ _).symm
theorem V27_eq (m : (ℓ : Loc nD τ sig) → Buf (Elt F) ℓ) (c : Dev nD) : V27 m (outsU m) c = U27 m c := by
  show StableHlo.after hostOps12 (V26 m (outsU m) c) = _; rw [V26_eq, U27]
theorem V28_eq (m : (ℓ : Loc nD τ sig) → Buf (Elt F) ℓ) (c : Dev nD) : V28 m (outsU m) c = U28 m c :=
  upd2_eq (U28 m c) (V27 m (outsU m) c) main_v63 main_v61 (outsU m 28 main_v63 c) (outsU m 28 main_v61 c)
    (outsU_28 m main_v63 c) (outsU_28 m main_v61 c)
    fun x ha hb => (congrFun (V27_eq m c) x).trans ((Function.update_of_ne hb _ _).trans (Function.update_of_ne ha _ _)).symm
theorem V29_eq (m : (ℓ : Loc nD τ sig) → Buf (Elt F) ℓ) (c : Dev nD) : V29 m (outsU m) c = U29 m c := by
  show StableHlo.after hostOps13 (V28 m (outsU m) c) = _; rw [V28_eq, U29]
theorem V30_eq (m : (ℓ : Loc nD τ sig) → Buf (Elt F) ℓ) (c : Dev nD) : V30 m (outsU m) c = U30 m c :=
  upd2_eq (U30 m c) (V29 m (outsU m) c) main_v65 main_v61 (outsU m 30 main_v65 c) (outsU m 30 main_v61 c)
    (outsU_30 m main_v65 c) (outsU_30 m main_v61 c)
    fun x ha hb => (congrFun (V29_eq m c) x).trans ((Function.update_of_ne hb _ _).trans (Function.update_of_ne ha _ _)).symm
theorem V31_eq (m : (ℓ : Loc nD τ sig) → Buf (Elt F) ℓ) (c : Dev nD) : V31 m (outsU m) c = U31 m c := by
  show StableHlo.after hostOps14 (V30 m (outsU m) c) = _; rw [V30_eq, U31]
theorem V32_eq (m : (ℓ : Loc nD τ sig) → Buf (Elt F) ℓ) (c : Dev nD) : V32 m (outsU m) c = U32 m c :=
  upd2_eq (U32 m c) (V31 m (outsU m) c) main_v67 main_v61 (outsU m 32 main_v67 c) (outsU m 32 main_v61 c)
    (outsU_32 m main_v67 c) (outsU_32 m main_v61 c)
    fun x ha hb => (congrFun (V31_eq m c) x).trans ((Function.update_of_ne hb _ _).trans (Function.update_of_ne ha _ _)).symm
theorem V33_eq (m : (ℓ : Loc nD τ sig) → Buf (Elt F) ℓ) (c : Dev nD) : V33 m (outsU m) c = U33 m c := by
  show StableHlo.after hostOps15 (V32 m (outsU m) c) = _; rw [V32_eq, U33]
theorem V34_eq (m : (ℓ : Loc nD τ sig) → Buf (Elt F) ℓ) (c : Dev nD) : V34 m (outsU m) c = U34 m c :=
  upd2_eq (U34 m c) (V33 m (outsU m) c) main_v69 main_v61 (outsU m 34 main_v69 c) (outsU m 34 main_v61 c)
    (outsU_34 m main_v69 c) (outsU_34 m main_v61 c)
    fun x ha hb => (congrFun (V33_eq m c) x).trans ((Function.update_of_ne hb _ _).trans (Function.update_of_ne ha _ _)).symm
theorem V35_eq (m : (ℓ : Loc nD τ sig) → Buf (Elt F) ℓ) (c : Dev nD) : V35 m (outsU m) c = U35 m c := by
  show StableHlo.after hostOps16 (V34 m (outsU m) c) = _; rw [V34_eq, U35]
theorem V36_eq (m : (ℓ : Loc nD τ sig) → Buf (Elt F) ℓ) (c : Dev nD) : V36 m (outsU m) c = U36 m c :=
  upd2_eq (U36 m c) (V35 m (outsU m) c) main_v71 main_v61 (outsU m 36 main_v71 c) (outsU m 36 main_v61 c)
    (outsU_36 m main_v71 c) (outsU_36 m main_v61 c)
    fun x ha hb => (congrFun (V35_eq m c) x).trans ((Function.update_of_ne hb _ _).trans (Function.update_of_ne ha _ _)).symm
theorem V37_eq (m : (ℓ : Loc nD τ sig) → Buf (Elt F) ℓ) (c : Dev nD) : V37 m (outsU m) c = U37 m c := by
  show StableHlo.after hostOps17 (V36 m (outsU m) c) = _; rw [V36_eq, U37]
theorem V38_eq (m : (ℓ : Loc nD τ sig) → Buf (Elt F) ℓ) (c : Dev nD) : V38 m (outsU m) c = U38 m c :=
  upd2_eq (U38 m c) (V37 m (outsU m) c) main_v73 main_v61 (outsU m 38 main_v73 c) (outsU m 38 main_v61 c)
    (outsU_38 m main_v73 c) (outsU_38 m main_v61 c)
    fun x ha hb => (congrFun (V37_eq m c) x).trans ((Function.update_of_ne hb _ _).trans (Function.update_of_ne ha _ _)).symm
theorem V39_eq (m : (ℓ : Loc nD τ sig) → Buf (Elt F) ℓ) (c : Dev nD) : V39 m (outsU m) c = U39 m c := by
  show StableHlo.after hostOps18 (V38 m (outsU m) c) = _; rw [V38_eq, U39]
theorem V40_eq (m : (ℓ : Loc nD τ sig) → Buf (Elt F) ℓ) (c : Dev nD) : V40 m (outsU m) c = U40 m c :=
  upd2_eq (U40 m c) (V39 m (outsU m) c) main_v75 main_v61 (outsU m 40 main_v75 c) (outsU m 40 main_v61 c)
    (outsU_40 m main_v75 c) (outsU_40 m main_v61 c)
    fun x ha hb => (congrFun (V39_eq m c) x).trans ((Function.update_of_ne hb _ _).trans (Function.update_of_ne ha _ _)).symm
theorem V41_eq (m : (ℓ : Loc nD τ sig) → Buf (Elt F) ℓ) (c : Dev nD) : V41 m (outsU m) c = U41 m c := by
  show StableHlo.after hostOps19 (V40 m (outsU m) c) = _; rw [V40_eq, U41]
theorem V42_eq (m : (ℓ : Loc nD τ sig) → Buf (Elt F) ℓ) (c : Dev nD) : V42 m (outsU m) c = U42 m c :=
  upd2_eq (U42 m c) (V41 m (outsU m) c) main_v77 main_v61 (outsU m 42 main_v77 c) (outsU m 42 main_v61 c)
    (outsU_42 m main_v77 c) (outsU_42 m main_v61 c)
    fun x ha hb => (congrFun (V41_eq m c) x).trans ((Function.update_of_ne hb _ _).trans (Function.update_of_ne ha _ _)).symm
theorem V43_eq (m : (ℓ : Loc nD τ sig) → Buf (Elt F) ℓ) (c : Dev nD) : V43 m (outsU m) c = U43 m c := by
  show StableHlo.after hostOps20 (V42 m (outsU m) c) = _; rw [V42_eq, U43]
theorem V44_eq (m : (ℓ : Loc nD τ sig) → Buf (Elt F) ℓ) (c : Dev nD) : V44 m (outsU m) c = U44 m c :=
  upd2_eq (U44 m c) (V43 m (outsU m) c) main_v79 main_v61 (outsU m 44 main_v79 c) (outsU m 44 main_v61 c)
    (outsU_44 m main_v79 c) (outsU_44 m main_v61 c)
    fun x ha hb => (congrFun (V43_eq m c) x).trans ((Function.update_of_ne hb _ _).trans (Function.update_of_ne ha _ _)).symm
theorem V45_eq (m : (ℓ : Loc nD τ sig) → Buf (Elt F) ℓ) (c : Dev nD) : V45 m (outsU m) c = U45 m c := by
  show StableHlo.after hostOps21 (V44 m (outsU m) c) = _; rw [V44_eq, U45]
theorem V46_eq (m : (ℓ : Loc nD τ sig) → Buf (Elt F) ℓ) (c : Dev nD) : V46 m (outsU m) c = U46 m c :=
  upd2_eq (U46 m c) (V45 m (outsU m) c) main_v81 main_v61 (outsU m 46 main_v81 c) (outsU m 46 main_v61 c)
    (outsU_46 m main_v81 c) (outsU_46 m main_v61 c)
    fun x ha hb => (congrFun (V45_eq m c) x).trans ((Function.update_of_ne hb _ _).trans (Function.update_of_ne ha _ _)).symm
theorem V47_eq (m : (ℓ : Loc nD τ sig) → Buf (Elt F) ℓ) (c : Dev nD) : V47 m (outsU m) c = U47 m c := by
  show StableHlo.after hostOps22 (V46 m (outsU m) c) = _; rw [V46_eq, U47]
theorem V48_eq (m : (ℓ : Loc nD τ sig) → Buf (Elt F) ℓ) (c : Dev nD) : V48 m (outsU m) c = U48 m c :=
  upd1_eq (U48 m c) (V47 m (outsU m) c) main_v89 (outsU m 48 main_v89 c) (outsU_48 m main_v89 c)
    fun x hx => (congrFun (V47_eq m c) x).trans (Function.update_of_ne hx _ _).symm
theorem V49_eq (m : (ℓ : Loc nD τ sig) → Buf (Elt F) ℓ) (c : Dev nD) : V49 m (outsU m) c = U49 m c := by
  show StableHlo.after hostOps23 (V48 m (outsU m) c) = _; rw [V48_eq, U49]
theorem V50_eq (m : (ℓ : Loc nD τ sig) → Buf (Elt F) ℓ) (c : Dev nD) : V50 m (outsU m) c = U50 m c :=
  upd2_eq (U50 m c) (V49 m (outsU m) c) main_v91 main_v89 (outsU m 50 main_v91 c) (outsU m 50 main_v89 c)
    (outsU_50 m main_v91 c) (outsU_50 m main_v89 c)
    fun x ha hb => (congrFun (V49_eq m c) x).trans ((Function.update_of_ne hb _ _).trans (Function.update_of_ne ha _ _)).symm
theorem V51_eq (m : (ℓ : Loc nD τ sig) → Buf (Elt F) ℓ) (c : Dev nD) : V51 m (outsU m) c = U51 m c := by
  show StableHlo.after hostOps24 (V50 m (outsU m) c) = _; rw [V50_eq, U51]
theorem V52_eq (m : (ℓ : Loc nD τ sig) → Buf (Elt F) ℓ) (c : Dev nD) : V52 m (outsU m) c = U52 m c :=
  upd2_eq (U52 m c) (V51 m (outsU m) c) main_v93 main_v89 (outsU m 52 main_v93 c) (outsU m 52 main_v89 c)
    (outsU_52 m main_v93 c) (outsU_52 m main_v89 c)
    fun x ha hb => (congrFun (V51_eq m c) x).trans ((Function.update_of_ne hb _ _).trans (Function.update_of_ne ha _ _)).symm
theorem V53_eq (m : (ℓ : Loc nD τ sig) → Buf (Elt F) ℓ) (c : Dev nD) : V53 m (outsU m) c = U53 m c := by
  show StableHlo.after hostOps25 (V52 m (outsU m) c) = _; rw [V52_eq, U53]
theorem V54_eq (m : (ℓ : Loc nD τ sig) → Buf (Elt F) ℓ) (c : Dev nD) : V54 m (outsU m) c = U54 m c :=
  upd2_eq (U54 m c) (V53 m (outsU m) c) main_v95 main_v89 (outsU m 54 main_v95 c) (outsU m 54 main_v89 c)
    (outsU_54 m main_v95 c) (outsU_54 m main_v89 c)
    fun x ha hb => (congrFun (V53_eq m c) x).trans ((Function.update_of_ne hb _ _).trans (Function.update_of_ne ha _ _)).symm
theorem V55_eq (m : (ℓ : Loc nD τ sig) → Buf (Elt F) ℓ) (c : Dev nD) : V55 m (outsU m) c = U55 m c := by
  show StableHlo.after hostOps26 (V54 m (outsU m) c) = _; rw [V54_eq, U55]
theorem V56_eq (m : (ℓ : Loc nD τ sig) → Buf (Elt F) ℓ) (c : Dev nD) : V56 m (outsU m) c = U56 m c :=
  upd2_eq (U56 m c) (V55 m (outsU m) c) main_v97 main_v89 (outsU m 56 main_v97 c) (outsU m 56 main_v89 c)
    (outsU_56 m main_v97 c) (outsU_56 m main_v89 c)
    fun x ha hb => (congrFun (V55_eq m c) x).trans ((Function.update_of_ne hb _ _).trans (Function.update_of_ne ha _ _)).symm
theorem V57_eq (m : (ℓ : Loc nD τ sig) → Buf (Elt F) ℓ) (c : Dev nD) : V57 m (outsU m) c = U57 m c := by
  show StableHlo.after hostOps27 (V56 m (outsU m) c) = _; rw [V56_eq, U57]
theorem V58_eq (m : (ℓ : Loc nD τ sig) → Buf (Elt F) ℓ) (c : Dev nD) : V58 m (outsU m) c = U58 m c :=
  upd2_eq (U58 m c) (V57 m (outsU m) c) main_v99 main_v89 (outsU m 58 main_v99 c) (outsU m 58 main_v89 c)
    (outsU_58 m main_v99 c) (outsU_58 m main_v89 c)
    fun x ha hb => (congrFun (V57_eq m c) x).trans ((Function.update_of_ne hb _ _).trans (Function.update_of_ne ha _ _)).symm
theorem V59_eq (m : (ℓ : Loc nD τ sig) → Buf (Elt F) ℓ) (c : Dev nD) : V59 m (outsU m) c = U59 m c := by
  show StableHlo.after hostOps28 (V58 m (outsU m) c) = _; rw [V58_eq, U59]
theorem V60_eq (m : (ℓ : Loc nD τ sig) → Buf (Elt F) ℓ) (c : Dev nD) : V60 m (outsU m) c = U60 m c :=
  upd2_eq (U60 m c) (V59 m (outsU m) c) main_v101 main_v89 (outsU m 60 main_v101 c) (outsU m 60 main_v89 c)
    (outsU_60 m main_v101 c) (outsU_60 m main_v89 c)
    fun x ha hb => (congrFun (V59_eq m c) x).trans ((Function.update_of_ne hb _ _).trans (Function.update_of_ne ha _ _)).symm
theorem V61_eq (m : (ℓ : Loc nD τ sig) → Buf (Elt F) ℓ) (c : Dev nD) : V61 m (outsU m) c = U61 m c := by
  show StableHlo.after hostOps29 (V60 m (outsU m) c) = _; rw [V60_eq, U61]
theorem V62_eq (m : (ℓ : Loc nD τ sig) → Buf (Elt F) ℓ) (c : Dev nD) : V62 m (outsU m) c = U62 m c :=
  upd2_eq (U62 m c) (V61 m (outsU m) c) main_v103 main_v89 (outsU m 62 main_v103 c) (outsU m 62 main_v89 c)
    (outsU_62 m main_v103 c) (outsU_62 m main_v89 c)
    fun x ha hb => (congrFun (V61_eq m c) x).trans ((Function.update_of_ne hb _ _).trans (Function.update_of_ne ha _ _)).symm
theorem V63_eq (m : (ℓ : Loc nD τ sig) → Buf (Elt F) ℓ) (c : Dev nD) : V63 m (outsU m) c = U63 m c := by
  show StableHlo.after hostOps30 (V62 m (outsU m) c) = _; rw [V62_eq, U63]
theorem V64_eq (m : (ℓ : Loc nD τ sig) → Buf (Elt F) ℓ) (c : Dev nD) : V64 m (outsU m) c = U64 m c :=
  upd2_eq (U64 m c) (V63 m (outsU m) c) main_v105 main_v89 (outsU m 64 main_v105 c) (outsU m 64 main_v89 c)
    (outsU_64 m main_v105 c) (outsU_64 m main_v89 c)
    fun x ha hb => (congrFun (V63_eq m c) x).trans ((Function.update_of_ne hb _ _).trans (Function.update_of_ne ha _ _)).symm
theorem V65_eq (m : (ℓ : Loc nD τ sig) → Buf (Elt F) ℓ) (c : Dev nD) : V65 m (outsU m) c = U65 m c := by
  show StableHlo.after hostOps31 (V64 m (outsU m) c) = _; rw [V64_eq, U65]
theorem V66_eq (m : (ℓ : Loc nD τ sig) → Buf (Elt F) ℓ) (c : Dev nD) : V66 m (outsU m) c = U66 m c :=
  upd2_eq (U66 m c) (V65 m (outsU m) c) main_v108 main_v89 (outsU m 66 main_v108 c) (outsU m 66 main_v89 c)
    (outsU_66 m main_v108 c) (outsU_66 m main_v89 c)
    fun x ha hb => (congrFun (V65_eq m c) x).trans ((Function.update_of_ne hb _ _).trans (Function.update_of_ne ha _ _)).symm
theorem V67_eq (m : (ℓ : Loc nD τ sig) → Buf (Elt F) ℓ) (c : Dev nD) : V67 m (outsU m) c = U67 m c := by
  show StableHlo.after hostOps32 (V66 m (outsU m) c) = _; rw [V66_eq, U67]
theorem V68_eq (m : (ℓ : Loc nD τ sig) → Buf (Elt F) ℓ) (c : Dev nD) : V68 m (outsU m) c = U68 m c :=
  upd2_eq (U68 m c) (V67 m (outsU m) c) main_v110 main_v89 (outsU m 68 main_v110 c) (outsU m 68 main_v89 c)
    (outsU_68 m main_v110 c) (outsU_68 m main_v89 c)
    fun x ha hb => (congrFun (V67_eq m c) x).trans ((Function.update_of_ne hb _ _).trans (Function.update_of_ne ha _ _)).symm
theorem V69_eq (m : (ℓ : Loc nD τ sig) → Buf (Elt F) ℓ) (c : Dev nD) : V69 m (outsU m) c = U69 m c := by
  show StableHlo.after hostOps33 (V68 m (outsU m) c) = _; rw [V68_eq, U69]
theorem V70_eq (m : (ℓ : Loc nD τ sig) → Buf (Elt F) ℓ) (c : Dev nD) : V70 m (outsU m) c = U70 m c :=
  upd2_eq (U70 m c) (V69 m (outsU m) c) main_v112 main_v89 (outsU m 70 main_v112 c) (outsU m 70 main_v89 c)
    (outsU_70 m main_v112 c) (outsU_70 m main_v89 c)
    fun x ha hb => (congrFun (V69_eq m c) x).trans ((Function.update_of_ne hb _ _).trans (Function.update_of_ne ha _ _)).symm
theorem V71_eq (m : (ℓ : Loc nD τ sig) → Buf (Elt F) ℓ) (c : Dev nD) : V71 m (outsU m) c = U71 m c := by
  show StableHlo.after hostOps34 (V70 m (outsU m) c) = _; rw [V70_eq, U71]
theorem V72_eq (m : (ℓ : Loc nD τ sig) → Buf (Elt F) ℓ) (c : Dev nD) : V72 m (outsU m) c = U72 m c :=
  upd2_eq (U72 m c) (V71 m (outsU m) c) main_v114 main_v89 (outsU m 72 main_v114 c) (outsU m 72 main_v89 c)
    (outsU_72 m main_v114 c) (outsU_72 m main_v89 c)
    fun x ha hb => (congrFun (V71_eq m c) x).trans ((Function.update_of_ne hb _ _).trans (Function.update_of_ne ha _ _)).symm
theorem V73_eq (m : (ℓ : Loc nD τ sig) → Buf (Elt F) ℓ) (c : Dev nD) : V73 m (outsU m) c = U73 m c := by
  show StableHlo.after hostOps35 (V72 m (outsU m) c) = _; rw [V72_eq, U73]
theorem V74_eq (m : (ℓ : Loc nD τ sig) → Buf (Elt F) ℓ) (c : Dev nD) : V74 m (outsU m) c = U74 m c :=
  upd2_eq (U74 m c) (V73 m (outsU m) c) main_v116 main_v89 (outsU m 74 main_v116 c) (outsU m 74 main_v89 c)
    (outsU_74 m main_v116 c) (outsU_74 m main_v89 c)
    fun x ha hb => (congrFun (V73_eq m c) x).trans ((Function.update_of_ne hb _ _).trans (Function.update_of_ne ha _ _)).symm
theorem V75_eq (m : (ℓ : Loc nD τ sig) → Buf (Elt F) ℓ) (c : Dev nD) : V75 m (outsU m) c = U75 m c := by
  show StableHlo.after hostOps36 (V74 m (outsU m) c) = _; rw [V74_eq, U75]
theorem V76_eq (m : (ℓ : Loc nD τ sig) → Buf (Elt F) ℓ) (c : Dev nD) : V76 m (outsU m) c = U76 m c :=
  upd2_eq (U76 m c) (V75 m (outsU m) c) main_v118 main_v89 (outsU m 76 main_v118 c) (outsU m 76 main_v89 c)
    (outsU_76 m main_v118 c) (outsU_76 m main_v89 c)
    fun x ha hb => (congrFun (V75_eq m c) x).trans ((Function.update_of_ne hb _ _).trans (Function.update_of_ne ha _ _)).symm
theorem V77_eq (m : (ℓ : Loc nD τ sig) → Buf (Elt F) ℓ) (c : Dev nD) : V77 m (outsU m) c = U77 m c := by
  show StableHlo.after hostOps37 (V76 m (outsU m) c) = _; rw [V76_eq, U77]
theorem V78_eq (m : (ℓ : Loc nD τ sig) → Buf (Elt F) ℓ) (c : Dev nD) : V78 m (outsU m) c = U78 m c :=
  upd2_eq (U78 m c) (V77 m (outsU m) c) main_v120 main_v89 (outsU m 78 main_v120 c) (outsU m 78 main_v89 c)
    (outsU_78 m main_v120 c) (outsU_78 m main_v89 c)
    fun x ha hb => (congrFun (V77_eq m c) x).trans ((Function.update_of_ne hb _ _).trans (Function.update_of_ne ha _ _)).symm
theorem V79_eq (m : (ℓ : Loc nD τ sig) → Buf (Elt F) ℓ) (c : Dev nD) : V79 m (outsU m) c = U79 m c := by
  show StableHlo.after hostOps38 (V78 m (outsU m) c) = _; rw [V78_eq, U79]
theorem V80_eq (m : (ℓ : Loc nD τ sig) → Buf (Elt F) ℓ) (c : Dev nD) : V80 m (outsU m) c = U80 m c :=
  upd2_eq (U80 m c) (V79 m (outsU m) c) main_v122 main_v89 (outsU m 80 main_v122 c) (outsU m 80 main_v89 c)
    (outsU_80 m main_v122 c) (outsU_80 m main_v89 c)
    fun x ha hb => (congrFun (V79_eq m c) x).trans ((Function.update_of_ne hb _ _).trans (Function.update_of_ne ha _ _)).symm
theorem V81_eq (m : (ℓ : Loc nD τ sig) → Buf (Elt F) ℓ) (c : Dev nD) : V81 m (outsU m) c = U81 m c := by
  show StableHlo.after hostOps39 (V80 m (outsU m) c) = _; rw [V80_eq, U81]
theorem V82_eq (m : (ℓ : Loc nD τ sig) → Buf (Elt F) ℓ) (c : Dev nD) : V82 m (outsU m) c = U82 m c :=
  upd1_eq (U82 m c) (V81 m (outsU m) c) main_v127 (outsU m 82 main_v127 c) (outsU_82 m main_v127 c)
    fun x hx => (congrFun (V81_eq m c) x).trans (Function.update_of_ne hx _ _).symm

/-! ## What a region's exit valuation holds -/

theorem U4_out (m : (ℓ : Loc nD τ sig) → Buf (Elt F) ℓ) (c : Dev nD) : U4 m c main_v33 = (dat0 (atTc (U3 m)) c).arrAt 2 cfg0.N := Function.update_self _ _ _
theorem U4_of_ne (m : (ℓ : Loc nD τ sig) → Buf (Elt F) ℓ) (c : Dev nD) (b : Ref sig .tc) (hb : b ≠ main_v33) : U4 m c b = U3 m c b :=
  Function.update_of_ne (StableHlo.devRef_ne_of_ne hb) _ _
theorem U6_out (m : (ℓ : Loc nD τ sig) → Buf (Elt F) ℓ) (c : Dev nD) : U6 m c main_v35
    = (datG1 (atTc (U5 m)) (a1 m) (gblk1 (atTc (U5 m)) (a1 m)) c).arrAt 0 (cfg1 (a1 m)).N :=
  (Function.update_of_ne (StableHlo.devRef_ne_of_ne (by decide : main_v35 ≠ main_v33)) _ _).trans (Function.update_self _ _ _)
theorem U6_hbm (m : (ℓ : Loc nD τ sig) → Buf (Elt F) ℓ) (c : Dev nD) : U6 m c main_v33 = U5 m c main_v33 := Function.update_self _ _ _
theorem U6_of_ne (m : (ℓ : Loc nD τ sig) → Buf (Elt F) ℓ) (c : Dev nD) (b : Ref sig .tc) (h1 : b ≠ main_v35) (h2 : b ≠ main_v33) : U6 m c b = U5 m c b :=
  (Function.update_of_ne (StableHlo.devRef_ne_of_ne h2) _ _).trans (Function.update_of_ne (StableHlo.devRef_ne_of_ne h1) _ _)
theorem U8_out (m : (ℓ : Loc nD τ sig) → Buf (Elt F) ℓ) (c : Dev nD) : U8 m c main_v37
    = (datG2 (atTc (U7 m)) (a2 m) (gblk2 (atTc (U7 m)) (a2 m)) c).arrAt 0 (cfg2 (a2 m)).N :=
  (Function.update_of_ne (StableHlo.devRef_ne_of_ne (by decide : main_v37 ≠ main_v33)) _ _).trans (Function.update_self _ _ _)
theorem U8_hbm (m : (ℓ : Loc nD τ sig) → Buf (Elt F) ℓ) (c : Dev nD) : U8 m c main_v33 = U7 m c main_v33 := Function.update_self _ _ _
theorem U8_of_ne (m : (ℓ : Loc nD τ sig) → Buf (Elt F) ℓ) (c : Dev nD) (b : Ref sig .tc) (h1 : b ≠ main_v37) (h2 : b ≠ main_v33) : U8 m c b = U7 m c b :=
  (Function.update_of_ne (StableHlo.devRef_ne_of_ne h2) _ _).trans (Function.update_of_ne (StableHlo.devRef_ne_of_ne h1) _ _)
theorem U10_out (m : (ℓ : Loc nD τ sig) → Buf (Elt F) ℓ) (c : Dev nD) : U10 m c main_v39
    = (datG3 (atTc (U9 m)) (a3 m) (gblk3 (atTc (U9 m)) (a3 m)) c).arrAt 0 (cfg3 (a3 m)).N :=
  (Function.update_of_ne (StableHlo.devRef_ne_of_ne (by decide : main_v39 ≠ main_v33)) _ _).trans (Function.update_self _ _ _)
theorem U10_hbm (m : (ℓ : Loc nD τ sig) → Buf (Elt F) ℓ) (c : Dev nD) : U10 m c main_v33 = U9 m c main_v33 := Function.update_self _ _ _
theorem U10_of_ne (m : (ℓ : Loc nD τ sig) → Buf (Elt F) ℓ) (c : Dev nD) (b : Ref sig .tc) (h1 : b ≠ main_v39) (h2 : b ≠ main_v33) : U10 m c b = U9 m c b :=
  (Function.update_of_ne (StableHlo.devRef_ne_of_ne h2) _ _).trans (Function.update_of_ne (StableHlo.devRef_ne_of_ne h1) _ _)
theorem U12_out (m : (ℓ : Loc nD τ sig) → Buf (Elt F) ℓ) (c : Dev nD) : U12 m c main_v41
    = (datG4 (atTc (U11 m)) (a4 m) (gblk4 (atTc (U11 m)) (a4 m)) c).arrAt 0 (cfg4 (a4 m)).N :=
  (Function.update_of_ne (StableHlo.devRef_ne_of_ne (by decide : main_v41 ≠ main_v33)) _ _).trans (Function.update_self _ _ _)
theorem U12_hbm (m : (ℓ : Loc nD τ sig) → Buf (Elt F) ℓ) (c : Dev nD) : U12 m c main_v33 = U11 m c main_v33 := Function.update_self _ _ _
theorem U12_of_ne (m : (ℓ : Loc nD τ sig) → Buf (Elt F) ℓ) (c : Dev nD) (b : Ref sig .tc) (h1 : b ≠ main_v41) (h2 : b ≠ main_v33) : U12 m c b = U11 m c b :=
  (Function.update_of_ne (StableHlo.devRef_ne_of_ne h2) _ _).trans (Function.update_of_ne (StableHlo.devRef_ne_of_ne h1) _ _)
theorem U14_out (m : (ℓ : Loc nD τ sig) → Buf (Elt F) ℓ) (c : Dev nD) : U14 m c main_v43
    = (datG5 (atTc (U13 m)) (a5 m) (gblk5 (atTc (U13 m)) (a5 m)) c).arrAt 0 (cfg5 (a5 m)).N :=
  (Function.update_of_ne (StableHlo.devRef_ne_of_ne (by decide : main_v43 ≠ main_v33)) _ _).trans (Function.update_self _ _ _)
theorem U14_hbm (m : (ℓ : Loc nD τ sig) → Buf (Elt F) ℓ) (c : Dev nD) : U14 m c main_v33 = U13 m c main_v33 := Function.update_self _ _ _
theorem U14_of_ne (m : (ℓ : Loc nD τ sig) → Buf (Elt F) ℓ) (c : Dev nD) (b : Ref sig .tc) (h1 : b ≠ main_v43) (h2 : b ≠ main_v33) : U14 m c b = U13 m c b :=
  (Function.update_of_ne (StableHlo.devRef_ne_of_ne h2) _ _).trans (Function.update_of_ne (StableHlo.devRef_ne_of_ne h1) _ _)
theorem U16_out (m : (ℓ : Loc nD τ sig) → Buf (Elt F) ℓ) (c : Dev nD) : U16 m c main_v45
    = (datG6 (atTc (U15 m)) (a6 m) (gblk6 (atTc (U15 m)) (a6 m)) c).arrAt 0 (cfg6 (a6 m)).N :=
  (Function.update_of_ne (StableHlo.devRef_ne_of_ne (by decide : main_v45 ≠ main_v33)) _ _).trans (Function.update_self _ _ _)
theorem U16_hbm (m : (ℓ : Loc nD τ sig) → Buf (Elt F) ℓ) (c : Dev nD) : U16 m c main_v33 = U15 m c main_v33 := Function.update_self _ _ _
theorem U16_of_ne (m : (ℓ : Loc nD τ sig) → Buf (Elt F) ℓ) (c : Dev nD) (b : Ref sig .tc) (h1 : b ≠ main_v45) (h2 : b ≠ main_v33) : U16 m c b = U15 m c b :=
  (Function.update_of_ne (StableHlo.devRef_ne_of_ne h2) _ _).trans (Function.update_of_ne (StableHlo.devRef_ne_of_ne h1) _ _)
theorem U18_out (m : (ℓ : Loc nD τ sig) → Buf (Elt F) ℓ) (c : Dev nD) : U18 m c main_v47
    = (datG7 (atTc (U17 m)) (a7 m) (gblk7 (atTc (U17 m)) (a7 m)) c).arrAt 0 (cfg7 (a7 m)).N :=
  (Function.update_of_ne (StableHlo.devRef_ne_of_ne (by decide : main_v47 ≠ main_v33)) _ _).trans (Function.update_self _ _ _)
theorem U18_hbm (m : (ℓ : Loc nD τ sig) → Buf (Elt F) ℓ) (c : Dev nD) : U18 m c main_v33 = U17 m c main_v33 := Function.update_self _ _ _
theorem U18_of_ne (m : (ℓ : Loc nD τ sig) → Buf (Elt F) ℓ) (c : Dev nD) (b : Ref sig .tc) (h1 : b ≠ main_v47) (h2 : b ≠ main_v33) : U18 m c b = U17 m c b :=
  (Function.update_of_ne (StableHlo.devRef_ne_of_ne h2) _ _).trans (Function.update_of_ne (StableHlo.devRef_ne_of_ne h1) _ _)
theorem U20_out (m : (ℓ : Loc nD τ sig) → Buf (Elt F) ℓ) (c : Dev nD) : U20 m c main_v49
    = (datG8 (atTc (U19 m)) (a8 m) (gblk8 (atTc (U19 m)) (a8 m)) c).arrAt 0 (cfg8 (a8 m)).N :=
  (Function.update_of_ne (StableHlo.devRef_ne_of_ne (by decide : main_v49 ≠ main_v33)) _ _).trans (Function.update_self _ _ _)
theorem U20_hbm (m : (ℓ : Loc nD τ sig) → Buf (Elt F) ℓ) (c : Dev nD) : U20 m c main_v33 = U19 m c main_v33 := Function.update_self _ _ _
theorem U20_of_ne (m : (ℓ : Loc nD τ sig) → Buf (Elt F) ℓ) (c : Dev nD) (b : Ref sig .tc) (h1 : b ≠ main_v49) (h2 : b ≠ main_v33) : U20 m c b = U19 m c b :=
  (Function.update_of_ne (StableHlo.devRef_ne_of_ne h2) _ _).trans (Function.update_of_ne (StableHlo.devRef_ne_of_ne h1) _ _)
theorem U22_out (m : (ℓ : Loc nD τ sig) → Buf (Elt F) ℓ) (c : Dev nD) : U22 m c main_v51
    = (datG9 (atTc (U21 m)) (a9 m) (gblk9 (atTc (U21 m)) (a9 m)) c).arrAt 0 (cfg9 (a9 m)).N :=
  (Function.update_of_ne (StableHlo.devRef_ne_of_ne (by decide : main_v51 ≠ main_v33)) _ _).trans (Function.update_self _ _ _)
theorem U22_hbm (m : (ℓ : Loc nD τ sig) → Buf (Elt F) ℓ) (c : Dev nD) : U22 m c main_v33 = U21 m c main_v33 := Function.update_self _ _ _
theorem U22_of_ne (m : (ℓ : Loc nD τ sig) → Buf (Elt F) ℓ) (c : Dev nD) (b : Ref sig .tc) (h1 : b ≠ main_v51) (h2 : b ≠ main_v33) : U22 m c b = U21 m c b :=
  (Function.update_of_ne (StableHlo.devRef_ne_of_ne h2) _ _).trans (Function.update_of_ne (StableHlo.devRef_ne_of_ne h1) _ _)
theorem U24_out (m : (ℓ : Loc nD τ sig) → Buf (Elt F) ℓ) (c : Dev nD) : U24 m c main_v53
    = (datG10 (atTc (U23 m)) (a10 m) (gblk10 (atTc (U23 m)) (a10 m)) c).arrAt 0 (cfg10 (a10 m)).N :=
  (Function.update_of_ne (StableHlo.devRef_ne_of_ne (by decide : main_v53 ≠ main_v33)) _ _).trans (Function.update_self _ _ _)
theorem U24_hbm (m : (ℓ : Loc nD τ sig) → Buf (Elt F) ℓ) (c : Dev nD) : U24 m c main_v33 = U23 m c main_v33 := Function.update_self _ _ _
theorem U24_of_ne (m : (ℓ : Loc nD τ sig) → Buf (Elt F) ℓ) (c : Dev nD) (b : Ref sig .tc) (h1 : b ≠ main_v53) (h2 : b ≠ main_v33) : U24 m c b = U23 m c b :=
  (Function.update_of_ne (StableHlo.devRef_ne_of_ne h2) _ _).trans (Function.update_of_ne (StableHlo.devRef_ne_of_ne h1) _ _)
theorem U26_out (m : (ℓ : Loc nD τ sig) → Buf (Elt F) ℓ) (c : Dev nD) : U26 m c main_v61 = (dat11 (atTc (U25 m)) c).arrAt 3 cfg11.N := Function.update_self _ _ _
theorem U26_of_ne (m : (ℓ : Loc nD τ sig) → Buf (Elt F) ℓ) (c : Dev nD) (b : Ref sig .tc) (hb : b ≠ main_v61) : U26 m c b = U25 m c b :=
  Function.update_of_ne (StableHlo.devRef_ne_of_ne hb) _ _
theorem U28_out (m : (ℓ : Loc nD τ sig) → Buf (Elt F) ℓ) (c : Dev nD) : U28 m c main_v63
    = (datG12 (atTc (U27 m)) (a12 m) (gblk12 (atTc (U27 m)) (a12 m)) c).arrAt 0 (cfg12 (a12 m)).N :=
  (Function.update_of_ne (StableHlo.devRef_ne_of_ne (by decide : main_v63 ≠ main_v61)) _ _).trans (Function.update_self _ _ _)
theorem U28_hbm (m : (ℓ : Loc nD τ sig) → Buf (Elt F) ℓ) (c : Dev nD) : U28 m c main_v61 = U27 m c main_v61 := Function.update_self _ _ _
theorem U28_of_ne (m : (ℓ : Loc nD τ sig) → Buf (Elt F) ℓ) (c : Dev nD) (b : Ref sig .tc) (h1 : b ≠ main_v63) (h2 : b ≠ main_v61) : U28 m c b = U27 m c b :=
  (Function.update_of_ne (StableHlo.devRef_ne_of_ne h2) _ _).trans (Function.update_of_ne (StableHlo.devRef_ne_of_ne h1) _ _)
theorem U30_out (m : (ℓ : Loc nD τ sig) → Buf (Elt F) ℓ) (c : Dev nD) : U30 m c main_v65
    = (datG13 (atTc (U29 m)) (a13 m) (gblk13 (atTc (U29 m)) (a13 m)) c).arrAt 0 (cfg13 (a13 m)).N :=
  (Function.update_of_ne (StableHlo.devRef_ne_of_ne (by decide : main_v65 ≠ main_v61)) _ _).trans (Function.update_self _ _ _)
theorem U30_hbm (m : (ℓ : Loc nD τ sig) → Buf (Elt F) ℓ) (c : Dev nD) : U30 m c main_v61 = U29 m c main_v61 := Function.update_self _ _ _
theorem U30_of_ne (m : (ℓ : Loc nD τ sig) → Buf (Elt F) ℓ) (c : Dev nD) (b : Ref sig .tc) (h1 : b ≠ main_v65) (h2 : b ≠ main_v61) : U30 m c b = U29 m c b :=
  (Function.update_of_ne (StableHlo.devRef_ne_of_ne h2) _ _).trans (Function.update_of_ne (StableHlo.devRef_ne_of_ne h1) _ _)
theorem U32_out (m : (ℓ : Loc nD τ sig) → Buf (Elt F) ℓ) (c : Dev nD) : U32 m c main_v67
    = (datG14 (atTc (U31 m)) (a14 m) (gblk14 (atTc (U31 m)) (a14 m)) c).arrAt 0 (cfg14 (a14 m)).N :=
  (Function.update_of_ne (StableHlo.devRef_ne_of_ne (by decide : main_v67 ≠ main_v61)) _ _).trans (Function.update_self _ _ _)
theorem U32_hbm (m : (ℓ : Loc nD τ sig) → Buf (Elt F) ℓ) (c : Dev nD) : U32 m c main_v61 = U31 m c main_v61 := Function.update_self _ _ _
theorem U32_of_ne (m : (ℓ : Loc nD τ sig) → Buf (Elt F) ℓ) (c : Dev nD) (b : Ref sig .tc) (h1 : b ≠ main_v67) (h2 : b ≠ main_v61) : U32 m c b = U31 m c b :=
  (Function.update_of_ne (StableHlo.devRef_ne_of_ne h2) _ _).trans (Function.update_of_ne (StableHlo.devRef_ne_of_ne h1) _ _)
theorem U34_out (m : (ℓ : Loc nD τ sig) → Buf (Elt F) ℓ) (c : Dev nD) : U34 m c main_v69
    = (datG15 (atTc (U33 m)) (a15 m) (gblk15 (atTc (U33 m)) (a15 m)) c).arrAt 0 (cfg15 (a15 m)).N :=
  (Function.update_of_ne (StableHlo.devRef_ne_of_ne (by decide : main_v69 ≠ main_v61)) _ _).trans (Function.update_self _ _ _)
theorem U34_hbm (m : (ℓ : Loc nD τ sig) → Buf (Elt F) ℓ) (c : Dev nD) : U34 m c main_v61 = U33 m c main_v61 := Function.update_self _ _ _
theorem U34_of_ne (m : (ℓ : Loc nD τ sig) → Buf (Elt F) ℓ) (c : Dev nD) (b : Ref sig .tc) (h1 : b ≠ main_v69) (h2 : b ≠ main_v61) : U34 m c b = U33 m c b :=
  (Function.update_of_ne (StableHlo.devRef_ne_of_ne h2) _ _).trans (Function.update_of_ne (StableHlo.devRef_ne_of_ne h1) _ _)
theorem U36_out (m : (ℓ : Loc nD τ sig) → Buf (Elt F) ℓ) (c : Dev nD) : U36 m c main_v71
    = (datG16 (atTc (U35 m)) (a16 m) (gblk16 (atTc (U35 m)) (a16 m)) c).arrAt 0 (cfg16 (a16 m)).N :=
  (Function.update_of_ne (StableHlo.devRef_ne_of_ne (by decide : main_v71 ≠ main_v61)) _ _).trans (Function.update_self _ _ _)
theorem U36_hbm (m : (ℓ : Loc nD τ sig) → Buf (Elt F) ℓ) (c : Dev nD) : U36 m c main_v61 = U35 m c main_v61 := Function.update_self _ _ _
theorem U36_of_ne (m : (ℓ : Loc nD τ sig) → Buf (Elt F) ℓ) (c : Dev nD) (b : Ref sig .tc) (h1 : b ≠ main_v71) (h2 : b ≠ main_v61) : U36 m c b = U35 m c b :=
  (Function.update_of_ne (StableHlo.devRef_ne_of_ne h2) _ _).trans (Function.update_of_ne (StableHlo.devRef_ne_of_ne h1) _ _)
theorem U38_out (m : (ℓ : Loc nD τ sig) → Buf (Elt F) ℓ) (c : Dev nD) : U38 m c main_v73
    = (datG17 (atTc (U37 m)) (a17 m) (gblk17 (atTc (U37 m)) (a17 m)) c).arrAt 0 (cfg17 (a17 m)).N :=
  (Function.update_of_ne (StableHlo.devRef_ne_of_ne (by decide : main_v73 ≠ main_v61)) _ _).trans (Function.update_self _ _ _)
theorem U38_hbm (m : (ℓ : Loc nD τ sig) → Buf (Elt F) ℓ) (c : Dev nD) : U38 m c main_v61 = U37 m c main_v61 := Function.update_self _ _ _
theorem U38_of_ne (m : (ℓ : Loc nD τ sig) → Buf (Elt F) ℓ) (c : Dev nD) (b : Ref sig .tc) (h1 : b ≠ main_v73) (h2 : b ≠ main_v61) : U38 m c b = U37 m c b :=
  (Function.update_of_ne (StableHlo.devRef_ne_of_ne h2) _ _).trans (Function.update_of_ne (StableHlo.devRef_ne_of_ne h1) _ _)
theorem U40_out (m : (ℓ : Loc nD τ sig) → Buf (Elt F) ℓ) (c : Dev nD) : U40 m c main_v75
    = (datG18 (atTc (U39 m)) (a18 m) (gblk18 (atTc (U39 m)) (a18 m)) c).arrAt 0 (cfg18 (a18 m)).N :=
  (Function.update_of_ne (StableHlo.devRef_ne_of_ne (by decide : main_v75 ≠ main_v61)) _ _).trans (Function.update_self _ _ _)
theorem U40_hbm (m : (ℓ : Loc nD τ sig) → Buf (Elt F) ℓ) (c : Dev nD) : U40 m c main_v61 = U39 m c main_v61 := Function.update_self _ _ _
theorem U40_of_ne (m : (ℓ : Loc nD τ sig) → Buf (Elt F) ℓ) (c : Dev nD) (b : Ref sig .tc) (h1 : b ≠ main_v75) (h2 : b ≠ main_v61) : U40 m c b = U39 m c b :=
  (Function.update_of_ne (StableHlo.devRef_ne_of_ne h2) _ _).trans (Function.update_of_ne (StableHlo.devRef_ne_of_ne h1) _ _)
theorem U42_out (m : (ℓ : Loc nD τ sig) → Buf (Elt F) ℓ) (c : Dev nD) : U42 m c main_v77
    = (datG19 (atTc (U41 m)) (a19 m) (gblk19 (atTc (U41 m)) (a19 m)) c).arrAt 0 (cfg19 (a19 m)).N :=
  (Function.update_of_ne (StableHlo.devRef_ne_of_ne (by decide : main_v77 ≠ main_v61)) _ _).trans (Function.update_self _ _ _)
theorem U42_hbm (m : (ℓ : Loc nD τ sig) → Buf (Elt F) ℓ) (c : Dev nD) : U42 m c main_v61 = U41 m c main_v61 := Function.update_self _ _ _
theorem U42_of_ne (m : (ℓ : Loc nD τ sig) → Buf (Elt F) ℓ) (c : Dev nD) (b : Ref sig .tc) (h1 : b ≠ main_v77) (h2 : b ≠ main_v61) : U42 m c b = U41 m c b :=
  (Function.update_of_ne (StableHlo.devRef_ne_of_ne h2) _ _).trans (Function.update_of_ne (StableHlo.devRef_ne_of_ne h1) _ _)
theorem U44_out (m : (ℓ : Loc nD τ sig) → Buf (Elt F) ℓ) (c : Dev nD) : U44 m c main_v79
    = (datG20 (atTc (U43 m)) (a20 m) (gblk20 (atTc (U43 m)) (a20 m)) c).arrAt 0 (cfg20 (a20 m)).N :=
  (Function.update_of_ne (StableHlo.devRef_ne_of_ne (by decide : main_v79 ≠ main_v61)) _ _).trans (Function.update_self _ _ _)
theorem U44_hbm (m : (ℓ : Loc nD τ sig) → Buf (Elt F) ℓ) (c : Dev nD) : U44 m c main_v61 = U43 m c main_v61 := Function.update_self _ _ _
theorem U44_of_ne (m : (ℓ : Loc nD τ sig) → Buf (Elt F) ℓ) (c : Dev nD) (b : Ref sig .tc) (h1 : b ≠ main_v79) (h2 : b ≠ main_v61) : U44 m c b = U43 m c b :=
  (Function.update_of_ne (StableHlo.devRef_ne_of_ne h2) _ _).trans (Function.update_of_ne (StableHlo.devRef_ne_of_ne h1) _ _)
theorem U46_out (m : (ℓ : Loc nD τ sig) → Buf (Elt F) ℓ) (c : Dev nD) : U46 m c main_v81
    = (datG21 (atTc (U45 m)) (a21 m) (gblk21 (atTc (U45 m)) (a21 m)) c).arrAt 0 (cfg21 (a21 m)).N :=
  (Function.update_of_ne (StableHlo.devRef_ne_of_ne (by decide : main_v81 ≠ main_v61)) _ _).trans (Function.update_self _ _ _)
theorem U46_hbm (m : (ℓ : Loc nD τ sig) → Buf (Elt F) ℓ) (c : Dev nD) : U46 m c main_v61 = U45 m c main_v61 := Function.update_self _ _ _
theorem U46_of_ne (m : (ℓ : Loc nD τ sig) → Buf (Elt F) ℓ) (c : Dev nD) (b : Ref sig .tc) (h1 : b ≠ main_v81) (h2 : b ≠ main_v61) : U46 m c b = U45 m c b :=
  (Function.update_of_ne (StableHlo.devRef_ne_of_ne h2) _ _).trans (Function.update_of_ne (StableHlo.devRef_ne_of_ne h1) _ _)
theorem U48_out (m : (ℓ : Loc nD τ sig) → Buf (Elt F) ℓ) (c : Dev nD) : U48 m c main_v89 = (dat22 (atTc (U47 m)) c).arrAt 2 cfg22.N := Function.update_self _ _ _
theorem U48_of_ne (m : (ℓ : Loc nD τ sig) → Buf (Elt F) ℓ) (c : Dev nD) (b : Ref sig .tc) (hb : b ≠ main_v89) : U48 m c b = U47 m c b :=
  Function.update_of_ne (StableHlo.devRef_ne_of_ne hb) _ _
theorem U50_out (m : (ℓ : Loc nD τ sig) → Buf (Elt F) ℓ) (c : Dev nD) : U50 m c main_v91
    = (datG23 (atTc (U49 m)) (a23 m) (gblk23 (atTc (U49 m)) (a23 m)) c).arrAt 0 (cfg23 (a23 m)).N :=
  (Function.update_of_ne (StableHlo.devRef_ne_of_ne (by decide : main_v91 ≠ main_v89)) _ _).trans (Function.update_self _ _ _)
theorem U50_hbm (m : (ℓ : Loc nD τ sig) → Buf (Elt F) ℓ) (c : Dev nD) : U50 m c main_v89 = U49 m c main_v89 := Function.update_self _ _ _
theorem U50_of_ne (m : (ℓ : Loc nD τ sig) → Buf (Elt F) ℓ) (c : Dev nD) (b : Ref sig .tc) (h1 : b ≠ main_v91) (h2 : b ≠ main_v89) : U50 m c b = U49 m c b :=
  (Function.update_of_ne (StableHlo.devRef_ne_of_ne h2) _ _).trans (Function.update_of_ne (StableHlo.devRef_ne_of_ne h1) _ _)
theorem U52_out (m : (ℓ : Loc nD τ sig) → Buf (Elt F) ℓ) (c : Dev nD) : U52 m c main_v93
    = (datG24 (atTc (U51 m)) (a24 m) (gblk24 (atTc (U51 m)) (a24 m)) c).arrAt 0 (cfg24 (a24 m)).N :=
  (Function.update_of_ne (StableHlo.devRef_ne_of_ne (by decide : main_v93 ≠ main_v89)) _ _).trans (Function.update_self _ _ _)
theorem U52_hbm (m : (ℓ : Loc nD τ sig) → Buf (Elt F) ℓ) (c : Dev nD) : U52 m c main_v89 = U51 m c main_v89 := Function.update_self _ _ _
theorem U52_of_ne (m : (ℓ : Loc nD τ sig) → Buf (Elt F) ℓ) (c : Dev nD) (b : Ref sig .tc) (h1 : b ≠ main_v93) (h2 : b ≠ main_v89) : U52 m c b = U51 m c b :=
  (Function.update_of_ne (StableHlo.devRef_ne_of_ne h2) _ _).trans (Function.update_of_ne (StableHlo.devRef_ne_of_ne h1) _ _)
theorem U54_out (m : (ℓ : Loc nD τ sig) → Buf (Elt F) ℓ) (c : Dev nD) : U54 m c main_v95
    = (datG25 (atTc (U53 m)) (a25 m) (gblk25 (atTc (U53 m)) (a25 m)) c).arrAt 0 (cfg25 (a25 m)).N :=
  (Function.update_of_ne (StableHlo.devRef_ne_of_ne (by decide : main_v95 ≠ main_v89)) _ _).trans (Function.update_self _ _ _)
theorem U54_hbm (m : (ℓ : Loc nD τ sig) → Buf (Elt F) ℓ) (c : Dev nD) : U54 m c main_v89 = U53 m c main_v89 := Function.update_self _ _ _
theorem U54_of_ne (m : (ℓ : Loc nD τ sig) → Buf (Elt F) ℓ) (c : Dev nD) (b : Ref sig .tc) (h1 : b ≠ main_v95) (h2 : b ≠ main_v89) : U54 m c b = U53 m c b :=
  (Function.update_of_ne (StableHlo.devRef_ne_of_ne h2) _ _).trans (Function.update_of_ne (StableHlo.devRef_ne_of_ne h1) _ _)
theorem U56_out (m : (ℓ : Loc nD τ sig) → Buf (Elt F) ℓ) (c : Dev nD) : U56 m c main_v97
    = (datG26 (atTc (U55 m)) (a26 m) (gblk26 (atTc (U55 m)) (a26 m)) c).arrAt 0 (cfg26 (a26 m)).N :=
  (Function.update_of_ne (StableHlo.devRef_ne_of_ne (by decide : main_v97 ≠ main_v89)) _ _).trans (Function.update_self _ _ _)
theorem U56_hbm (m : (ℓ : Loc nD τ sig) → Buf (Elt F) ℓ) (c : Dev nD) : U56 m c main_v89 = U55 m c main_v89 := Function.update_self _ _ _
theorem U56_of_ne (m : (ℓ : Loc nD τ sig) → Buf (Elt F) ℓ) (c : Dev nD) (b : Ref sig .tc) (h1 : b ≠ main_v97) (h2 : b ≠ main_v89) : U56 m c b = U55 m c b :=
  (Function.update_of_ne (StableHlo.devRef_ne_of_ne h2) _ _).trans (Function.update_of_ne (StableHlo.devRef_ne_of_ne h1) _ _)
theorem U58_out (m : (ℓ : Loc nD τ sig) → Buf (Elt F) ℓ) (c : Dev nD) : U58 m c main_v99
    = (datG27 (atTc (U57 m)) (a27 m) (gblk27 (atTc (U57 m)) (a27 m)) c).arrAt 0 (cfg27 (a27 m)).N :=
  (Function.update_of_ne (StableHlo.devRef_ne_of_ne (by decide : main_v99 ≠ main_v89)) _ _).trans (Function.update_self _ _ _)
theorem U58_hbm (m : (ℓ : Loc nD τ sig) → Buf (Elt F) ℓ) (c : Dev nD) : U58 m c main_v89 = U57 m c main_v89 := Function.update_self _ _ _
theorem U58_of_ne (m : (ℓ : Loc nD τ sig) → Buf (Elt F) ℓ) (c : Dev nD) (b : Ref sig .tc) (h1 : b ≠ main_v99) (h2 : b ≠ main_v89) : U58 m c b = U57 m c b :=
  (Function.update_of_ne (StableHlo.devRef_ne_of_ne h2) _ _).trans (Function.update_of_ne (StableHlo.devRef_ne_of_ne h1) _ _)
theorem U60_out (m : (ℓ : Loc nD τ sig) → Buf (Elt F) ℓ) (c : Dev nD) : U60 m c main_v101
    = (datG28 (atTc (U59 m)) (a28 m) (gblk28 (atTc (U59 m)) (a28 m)) c).arrAt 0 (cfg28 (a28 m)).N :=
  (Function.update_of_ne (StableHlo.devRef_ne_of_ne (by decide : main_v101 ≠ main_v89)) _ _).trans (Function.update_self _ _ _)
theorem U60_hbm (m : (ℓ : Loc nD τ sig) → Buf (Elt F) ℓ) (c : Dev nD) : U60 m c main_v89 = U59 m c main_v89 := Function.update_self _ _ _
theorem U60_of_ne (m : (ℓ : Loc nD τ sig) → Buf (Elt F) ℓ) (c : Dev nD) (b : Ref sig .tc) (h1 : b ≠ main_v101) (h2 : b ≠ main_v89) : U60 m c b = U59 m c b :=
  (Function.update_of_ne (StableHlo.devRef_ne_of_ne h2) _ _).trans (Function.update_of_ne (StableHlo.devRef_ne_of_ne h1) _ _)
theorem U62_out (m : (ℓ : Loc nD τ sig) → Buf (Elt F) ℓ) (c : Dev nD) : U62 m c main_v103
    = (datG29 (atTc (U61 m)) (a29 m) (gblk29 (atTc (U61 m)) (a29 m)) c).arrAt 0 (cfg29 (a29 m)).N :=
  (Function.update_of_ne (StableHlo.devRef_ne_of_ne (by decide : main_v103 ≠ main_v89)) _ _).trans (Function.update_self _ _ _)
theorem U62_hbm (m : (ℓ : Loc nD τ sig) → Buf (Elt F) ℓ) (c : Dev nD) : U62 m c main_v89 = U61 m c main_v89 := Function.update_self _ _ _
theorem U62_of_ne (m : (ℓ : Loc nD τ sig) → Buf (Elt F) ℓ) (c : Dev nD) (b : Ref sig .tc) (h1 : b ≠ main_v103) (h2 : b ≠ main_v89) : U62 m c b = U61 m c b :=
  (Function.update_of_ne (StableHlo.devRef_ne_of_ne h2) _ _).trans (Function.update_of_ne (StableHlo.devRef_ne_of_ne h1) _ _)
theorem U64_out (m : (ℓ : Loc nD τ sig) → Buf (Elt F) ℓ) (c : Dev nD) : U64 m c main_v105
    = (datG30 (atTc (U63 m)) (a30 m) (gblk30 (atTc (U63 m)) (a30 m)) c).arrAt 0 (cfg30 (a30 m)).N :=
  (Function.update_of_ne (StableHlo.devRef_ne_of_ne (by decide : main_v105 ≠ main_v89)) _ _).trans (Function.update_self _ _ _)
theorem U64_hbm (m : (ℓ : Loc nD τ sig) → Buf (Elt F) ℓ) (c : Dev nD) : U64 m c main_v89 = U63 m c main_v89 := Function.update_self _ _ _
theorem U64_of_ne (m : (ℓ : Loc nD τ sig) → Buf (Elt F) ℓ) (c : Dev nD) (b : Ref sig .tc) (h1 : b ≠ main_v105) (h2 : b ≠ main_v89) : U64 m c b = U63 m c b :=
  (Function.update_of_ne (StableHlo.devRef_ne_of_ne h2) _ _).trans (Function.update_of_ne (StableHlo.devRef_ne_of_ne h1) _ _)
theorem U66_out (m : (ℓ : Loc nD τ sig) → Buf (Elt F) ℓ) (c : Dev nD) : U66 m c main_v108
    = (datG31 (atTc (U65 m)) (a31 m) (gblk31 (atTc (U65 m)) (a31 m)) c).arrAt 0 (cfg31 (a31 m)).N :=
  (Function.update_of_ne (StableHlo.devRef_ne_of_ne (by decide : main_v108 ≠ main_v89)) _ _).trans (Function.update_self _ _ _)
theorem U66_hbm (m : (ℓ : Loc nD τ sig) → Buf (Elt F) ℓ) (c : Dev nD) : U66 m c main_v89 = U65 m c main_v89 := Function.update_self _ _ _
theorem U66_of_ne (m : (ℓ : Loc nD τ sig) → Buf (Elt F) ℓ) (c : Dev nD) (b : Ref sig .tc) (h1 : b ≠ main_v108) (h2 : b ≠ main_v89) : U66 m c b = U65 m c b :=
  (Function.update_of_ne (StableHlo.devRef_ne_of_ne h2) _ _).trans (Function.update_of_ne (StableHlo.devRef_ne_of_ne h1) _ _)
theorem U68_out (m : (ℓ : Loc nD τ sig) → Buf (Elt F) ℓ) (c : Dev nD) : U68 m c main_v110
    = (datG32 (atTc (U67 m)) (a32 m) (gblk32 (atTc (U67 m)) (a32 m)) c).arrAt 0 (cfg32 (a32 m)).N :=
  (Function.update_of_ne (StableHlo.devRef_ne_of_ne (by decide : main_v110 ≠ main_v89)) _ _).trans (Function.update_self _ _ _)
theorem U68_hbm (m : (ℓ : Loc nD τ sig) → Buf (Elt F) ℓ) (c : Dev nD) : U68 m c main_v89 = U67 m c main_v89 := Function.update_self _ _ _
theorem U68_of_ne (m : (ℓ : Loc nD τ sig) → Buf (Elt F) ℓ) (c : Dev nD) (b : Ref sig .tc) (h1 : b ≠ main_v110) (h2 : b ≠ main_v89) : U68 m c b = U67 m c b :=
  (Function.update_of_ne (StableHlo.devRef_ne_of_ne h2) _ _).trans (Function.update_of_ne (StableHlo.devRef_ne_of_ne h1) _ _)
theorem U70_out (m : (ℓ : Loc nD τ sig) → Buf (Elt F) ℓ) (c : Dev nD) : U70 m c main_v112
    = (datG33 (atTc (U69 m)) (a33 m) (gblk33 (atTc (U69 m)) (a33 m)) c).arrAt 0 (cfg33 (a33 m)).N :=
  (Function.update_of_ne (StableHlo.devRef_ne_of_ne (by decide : main_v112 ≠ main_v89)) _ _).trans (Function.update_self _ _ _)
theorem U70_hbm (m : (ℓ : Loc nD τ sig) → Buf (Elt F) ℓ) (c : Dev nD) : U70 m c main_v89 = U69 m c main_v89 := Function.update_self _ _ _
theorem U70_of_ne (m : (ℓ : Loc nD τ sig) → Buf (Elt F) ℓ) (c : Dev nD) (b : Ref sig .tc) (h1 : b ≠ main_v112) (h2 : b ≠ main_v89) : U70 m c b = U69 m c b :=
  (Function.update_of_ne (StableHlo.devRef_ne_of_ne h2) _ _).trans (Function.update_of_ne (StableHlo.devRef_ne_of_ne h1) _ _)
theorem U72_out (m : (ℓ : Loc nD τ sig) → Buf (Elt F) ℓ) (c : Dev nD) : U72 m c main_v114
    = (datG34 (atTc (U71 m)) (a34 m) (gblk34 (atTc (U71 m)) (a34 m)) c).arrAt 0 (cfg34 (a34 m)).N :=
  (Function.update_of_ne (StableHlo.devRef_ne_of_ne (by decide : main_v114 ≠ main_v89)) _ _).trans (Function.update_self _ _ _)
theorem U72_hbm (m : (ℓ : Loc nD τ sig) → Buf (Elt F) ℓ) (c : Dev nD) : U72 m c main_v89 = U71 m c main_v89 := Function.update_self _ _ _
theorem U72_of_ne (m : (ℓ : Loc nD τ sig) → Buf (Elt F) ℓ) (c : Dev nD) (b : Ref sig .tc) (h1 : b ≠ main_v114) (h2 : b ≠ main_v89) : U72 m c b = U71 m c b :=
  (Function.update_of_ne (StableHlo.devRef_ne_of_ne h2) _ _).trans (Function.update_of_ne (StableHlo.devRef_ne_of_ne h1) _ _)
theorem U74_out (m : (ℓ : Loc nD τ sig) → Buf (Elt F) ℓ) (c : Dev nD) : U74 m c main_v116
    = (datG35 (atTc (U73 m)) (a35 m) (gblk35 (atTc (U73 m)) (a35 m)) c).arrAt 0 (cfg35 (a35 m)).N :=
  (Function.update_of_ne (StableHlo.devRef_ne_of_ne (by decide : main_v116 ≠ main_v89)) _ _).trans (Function.update_self _ _ _)
theorem U74_hbm (m : (ℓ : Loc nD τ sig) → Buf (Elt F) ℓ) (c : Dev nD) : U74 m c main_v89 = U73 m c main_v89 := Function.update_self _ _ _
theorem U74_of_ne (m : (ℓ : Loc nD τ sig) → Buf (Elt F) ℓ) (c : Dev nD) (b : Ref sig .tc) (h1 : b ≠ main_v116) (h2 : b ≠ main_v89) : U74 m c b = U73 m c b :=
  (Function.update_of_ne (StableHlo.devRef_ne_of_ne h2) _ _).trans (Function.update_of_ne (StableHlo.devRef_ne_of_ne h1) _ _)
theorem U76_out (m : (ℓ : Loc nD τ sig) → Buf (Elt F) ℓ) (c : Dev nD) : U76 m c main_v118
    = (datG36 (atTc (U75 m)) (a36 m) (gblk36 (atTc (U75 m)) (a36 m)) c).arrAt 0 (cfg36 (a36 m)).N :=
  (Function.update_of_ne (StableHlo.devRef_ne_of_ne (by decide : main_v118 ≠ main_v89)) _ _).trans (Function.update_self _ _ _)
theorem U76_hbm (m : (ℓ : Loc nD τ sig) → Buf (Elt F) ℓ) (c : Dev nD) : U76 m c main_v89 = U75 m c main_v89 := Function.update_self _ _ _
theorem U76_of_ne (m : (ℓ : Loc nD τ sig) → Buf (Elt F) ℓ) (c : Dev nD) (b : Ref sig .tc) (h1 : b ≠ main_v118) (h2 : b ≠ main_v89) : U76 m c b = U75 m c b :=
  (Function.update_of_ne (StableHlo.devRef_ne_of_ne h2) _ _).trans (Function.update_of_ne (StableHlo.devRef_ne_of_ne h1) _ _)
theorem U78_out (m : (ℓ : Loc nD τ sig) → Buf (Elt F) ℓ) (c : Dev nD) : U78 m c main_v120
    = (datG37 (atTc (U77 m)) (a37 m) (gblk37 (atTc (U77 m)) (a37 m)) c).arrAt 0 (cfg37 (a37 m)).N :=
  (Function.update_of_ne (StableHlo.devRef_ne_of_ne (by decide : main_v120 ≠ main_v89)) _ _).trans (Function.update_self _ _ _)
theorem U78_hbm (m : (ℓ : Loc nD τ sig) → Buf (Elt F) ℓ) (c : Dev nD) : U78 m c main_v89 = U77 m c main_v89 := Function.update_self _ _ _
theorem U78_of_ne (m : (ℓ : Loc nD τ sig) → Buf (Elt F) ℓ) (c : Dev nD) (b : Ref sig .tc) (h1 : b ≠ main_v120) (h2 : b ≠ main_v89) : U78 m c b = U77 m c b :=
  (Function.update_of_ne (StableHlo.devRef_ne_of_ne h2) _ _).trans (Function.update_of_ne (StableHlo.devRef_ne_of_ne h1) _ _)
theorem U80_out (m : (ℓ : Loc nD τ sig) → Buf (Elt F) ℓ) (c : Dev nD) : U80 m c main_v122
    = (datG38 (atTc (U79 m)) (a38 m) (gblk38 (atTc (U79 m)) (a38 m)) c).arrAt 0 (cfg38 (a38 m)).N :=
  (Function.update_of_ne (StableHlo.devRef_ne_of_ne (by decide : main_v122 ≠ main_v89)) _ _).trans (Function.update_self _ _ _)
theorem U80_hbm (m : (ℓ : Loc nD τ sig) → Buf (Elt F) ℓ) (c : Dev nD) : U80 m c main_v89 = U79 m c main_v89 := Function.update_self _ _ _
theorem U80_of_ne (m : (ℓ : Loc nD τ sig) → Buf (Elt F) ℓ) (c : Dev nD) (b : Ref sig .tc) (h1 : b ≠ main_v122) (h2 : b ≠ main_v89) : U80 m c b = U79 m c b :=
  (Function.update_of_ne (StableHlo.devRef_ne_of_ne h2) _ _).trans (Function.update_of_ne (StableHlo.devRef_ne_of_ne h1) _ _)
theorem U82_out (m : (ℓ : Loc nD τ sig) → Buf (Elt F) ℓ) (c : Dev nD) : U82 m c main_v127 = (dat39 (atTc (U81 m)) c).arrAt 5 cfg39.N := Function.update_self _ _ _
theorem U82_of_ne (m : (ℓ : Loc nD τ sig) → Buf (Elt F) ℓ) (c : Dev nD) (b : Ref sig .tc) (hb : b ≠ main_v127) : U82 m c b = U81 m c b :=
  Function.update_of_ne (StableHlo.devRef_ne_of_ne hb) _ _

end Cert.Kernel.Hand

end
-- ==== Proof.K.Fam.lean ====
import proofs.«402049_j87351044866139_2_alg».proof.Proof.K.Chain

/-! The tables' admissible contents and the pipelines' proof data over the real valuations, as literal matches on the
    pipeline's number. -/

set_option maxRecDepth 16384

noncomputable section

namespace Cert.Kernel.Hand

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg BodyObligation BodyObligationLoose)

variable {F : FTy → Type} [FloatOps F]

local notation "𝕄" => MT nD τ sig Unit (Elt F) ℕ UU ℕ

set_option maxHeartbeats 2000000 in
theorem hF0 (m : (ℓ : Loc nD τ sig) → Buf (Elt F) ℓ) (c : Dev nD) : ∀ w : Fin cfg0.W,
    (dat0 (atTc (U3 m)) c).arrAt w cfg0.N = atTc (U4 m) c (Pipeline.arrRef spec0 w)
  | ⟨0, _⟩ => (((dat0 (atTc (U3 m)) c).arrAt_in 0 rfl _).trans (A_eq0 (atTc (U3 m)) c 0)).trans (U4_of_ne m c _ (by decide : Pipeline.arrRef spec0 0 ≠ main_v33)).symm
  | ⟨1, _⟩ => (((dat0 (atTc (U3 m)) c).arrAt_in 1 rfl _).trans (A_eq0 (atTc (U3 m)) c 1)).trans (U4_of_ne m c _ (by decide : Pipeline.arrRef spec0 1 ≠ main_v33)).symm
  | ⟨2, _⟩ => (U4_out m c).symm
  | ⟨_ + 3, h⟩ => absurd h (Nat.not_lt.2 (Nat.le_add_left _ _))
theorem hrest0 (m : (ℓ : Loc nD τ sig) → Buf (Elt F) ℓ) (c : Dev nD) (b : Ref sig .tc) (hb : b ∉ Finset.univ.image (Pipeline.arrRef spec0)) :
    atTc (U4 m) c b = atTc (U3 m) c b :=
  U4_of_ne m c b fun e => hb (Finset.mem_image.mpr ⟨2, Finset.mem_univ _, e.symm ▸ (by decide : Pipeline.arrRef spec0 2 = main_v33)⟩)
set_option maxHeartbeats 2000000 in
theorem hF1 (m : (ℓ : Loc nD τ sig) → Buf (Elt F) ℓ) (c : Dev nD) : ∀ w : Fin (cfg1 (a1 m)).W,
    (datG1 (atTc (U5 m)) (a1 m) (gblk1 (atTc (U5 m)) (a1 m)) c).arrAt w (cfg1 (a1 m)).N = atTc (U6 m) c (Pipeline.arrRef spec1 w)
  | ⟨0, _⟩ => (U6_out m c).symm
  | ⟨_ + 1, h⟩ => absurd h (Nat.not_lt.2 (Nat.le_add_left _ _))
theorem hrest1 (m : (ℓ : Loc nD τ sig) → Buf (Elt F) ℓ) (c : Dev nD) (b : Ref sig .tc) (hb : b ∉ Finset.univ.image (Pipeline.arrRef spec1)) :
    atTc (U6 m) c b = atTc (U5 m) c b := by
  by_cases e : b = main_v33
  · subst e; exact U6_hbm m c
  · exact U6_of_ne m c b (fun e' => hb (Finset.mem_image.mpr ⟨0, Finset.mem_univ _, e'.symm ▸ (by decide : Pipeline.arrRef spec1 0 = main_v35)⟩)) e
/-- The table region 1 is handed is what the buffers hold when it is entered. -/
theorem hpf1 (m : (ℓ : Loc nD τ sig) → Buf (Elt F) ℓ) (c : Dev nD) : (fun k => atTc (U5 m) c (pre1.ref k)) = (a1 m).1 := by
  rw [eq_c₀ c]; rfl
set_option maxHeartbeats 2000000 in
theorem hF2 (m : (ℓ : Loc nD τ sig) → Buf (Elt F) ℓ) (c : Dev nD) : ∀ w : Fin (cfg2 (a2 m)).W,
    (datG2 (atTc (U7 m)) (a2 m) (gblk2 (atTc (U7 m)) (a2 m)) c).arrAt w (cfg2 (a2 m)).N = atTc (U8 m) c (Pipeline.arrRef spec2 w)
  | ⟨0, _⟩ => (U8_out m c).symm
  | ⟨_ + 1, h⟩ => absurd h (Nat.not_lt.2 (Nat.le_add_left _ _))
theorem hrest2 (m : (ℓ : Loc nD τ sig) → Buf (Elt F) ℓ) (c : Dev nD) (b : Ref sig .tc) (hb : b ∉ Finset.univ.image (Pipeline.arrRef spec2)) :
    atTc (U8 m) c b = atTc (U7 m) c b := by
  by_cases e : b = main_v33
  · subst e; exact U8_hbm m c
  · exact U8_of_ne m c b (fun e' => hb (Finset.mem_image.mpr ⟨0, Finset.mem_univ _, e'.symm ▸ (by decide : Pipeline.arrRef spec2 0 = main_v37)⟩)) e
/-- The table region 2 is handed is what the buffers hold when it is entered. -/
theorem hpf2 (m : (ℓ : Loc nD τ sig) → Buf (Elt F) ℓ) (c : Dev nD) : (fun k => atTc (U7 m) c (pre2.ref k)) = (a2 m).1 := by
  rw [eq_c₀ c]; rfl
set_option maxHeartbeats 2000000 in
theorem hF3 (m : (ℓ : Loc nD τ sig) → Buf (Elt F) ℓ) (c : Dev nD) : ∀ w : Fin (cfg3 (a3 m)).W,
    (datG3 (atTc (U9 m)) (a3 m) (gblk3 (atTc (U9 m)) (a3 m)) c).arrAt w (cfg3 (a3 m)).N = atTc (U10 m) c (Pipeline.arrRef spec3 w)
  | ⟨0, _⟩ => (U10_out m c).symm
  | ⟨_ + 1, h⟩ => absurd h (Nat.not_lt.2 (Nat.le_add_left _ _))
theorem hrest3 (m : (ℓ : Loc nD τ sig) → Buf (Elt F) ℓ) (c : Dev nD) (b : Ref sig .tc) (hb : b ∉ Finset.univ.image (Pipeline.arrRef spec3)) :
    atTc (U10 m) c b = atTc (U9 m) c b := by
  by_cases e : b = main_v33
  · subst e; exact U10_hbm m c
  · exact U10_of_ne m c b (fun e' => hb (Finset.mem_image.mpr ⟨0, Finset.mem_univ _, e'.symm ▸ (by decide : Pipeline.arrRef spec3 0 = main_v39)⟩)) e
/-- The table region 3 is handed is what the buffers hold when it is entered. -/
theorem hpf3 (m : (ℓ : Loc nD τ sig) → Buf (Elt F) ℓ) (c : Dev nD) : (fun k => atTc (U9 m) c (pre3.ref k)) = (a3 m).1 := by
  rw [eq_c₀ c]; rfl
set_option maxHeartbeats 2000000 in
theorem hF4 (m : (ℓ : Loc nD τ sig) → Buf (Elt F) ℓ) (c : Dev nD) : ∀ w : Fin (cfg4 (a4 m)).W,
    (datG4 (atTc (U11 m)) (a4 m) (gblk4 (atTc (U11 m)) (a4 m)) c).arrAt w (cfg4 (a4 m)).N = atTc (U12 m) c (Pipeline.arrRef spec4 w)
  | ⟨0, _⟩ => (U12_out m c).symm
  | ⟨_ + 1, h⟩ => absurd h (Nat.not_lt.2 (Nat.le_add_left _ _))
theorem hrest4 (m : (ℓ : Loc nD τ sig) → Buf (Elt F) ℓ) (c : Dev nD) (b : Ref sig .tc) (hb : b ∉ Finset.univ.image (Pipeline.arrRef spec4)) :
    atTc (U12 m) c b = atTc (U11 m) c b := by
  by_cases e : b = main_v33
  · subst e; exact U12_hbm m c
  · exact U12_of_ne m c b (fun e' => hb (Finset.mem_image.mpr ⟨0, Finset.mem_univ _, e'.symm ▸ (by decide : Pipeline.arrRef spec4 0 = main_v41)⟩)) e
/-- The table region 4 is handed is what the buffers hold when it is entered. -/
theorem hpf4 (m : (ℓ : Loc nD τ sig) → Buf (Elt F) ℓ) (c : Dev nD) : (fun k => atTc (U11 m) c (pre4.ref k)) = (a4 m).1 := by
  rw [eq_c₀ c]; rfl
set_option maxHeartbeats 2000000 in
theorem hF5 (m : (ℓ : Loc nD τ sig) → Buf (Elt F) ℓ) (c : Dev nD) : ∀ w : Fin (cfg5 (a5 m)).W,
    (datG5 (atTc (U13 m)) (a5 m) (gblk5 (atTc (U13 m)) (a5 m)) c).arrAt w (cfg5 (a5 m)).N = atTc (U14 m) c (Pipeline.arrRef spec5 w)
  | ⟨0, _⟩ => (U14_out m c).symm
  | ⟨_ + 1, h⟩ => absurd h (Nat.not_lt.2 (Nat.le_add_left _ _))
theorem hrest5 (m : (ℓ : Loc nD τ sig) → Buf (Elt F) ℓ) (c : Dev nD) (b : Ref sig .tc) (hb : b ∉ Finset.univ.image (Pipeline.arrRef spec5)) :
    atTc (U14 m) c b = atTc (U13 m) c b := by
  by_cases e : b = main_v33
  · subst e; exact U14_hbm m c
  · exact U14_of_ne m c b (fun e' => hb (Finset.mem_image.mpr ⟨0, Finset.mem_univ _, e'.symm ▸ (by decide : Pipeline.arrRef spec5 0 = main_v43)⟩)) e
/-- The table region 5 is handed is what the buffers hold when it is entered. -/
theorem hpf5 (m : (ℓ : Loc nD τ sig) → Buf (Elt F) ℓ) (c : Dev nD) : (fun k => atTc (U13 m) c (pre5.ref k)) = (a5 m).1 := by
  rw [eq_c₀ c]; rfl
set_option maxHeartbeats 2000000 in
theorem hF6 (m : (ℓ : Loc nD τ sig) → Buf (Elt F) ℓ) (c : Dev nD) : ∀ w : Fin (cfg6 (a6 m)).W,
    (datG6 (atTc (U15 m)) (a6 m) (gblk6 (atTc (U15 m)) (a6 m)) c).arrAt w (cfg6 (a6 m)).N = atTc (U16 m) c (Pipeline.arrRef spec6 w)
  | ⟨0, _⟩ => (U16_out m c).symm
  | ⟨_ + 1, h⟩ => absurd h (Nat.not_lt.2 (Nat.le_add_left _ _))
theorem hrest6 (m : (ℓ : Loc nD τ sig) → Buf (Elt F) ℓ) (c : Dev nD) (b : Ref sig .tc) (hb : b ∉ Finset.univ.image (Pipeline.arrRef spec6)) :
    atTc (U16 m) c b = atTc (U15 m) c b := by
  by_cases e : b = main_v33
  · subst e; exact U16_hbm m c
  · exact U16_of_ne m c b (fun e' => hb (Finset.mem_image.mpr ⟨0, Finset.mem_univ _, e'.symm ▸ (by decide : Pipeline.arrRef spec6 0 = main_v45)⟩)) e
/-- The table region 6 is handed is what the buffers hold when it is entered. -/
theorem hpf6 (m : (ℓ : Loc nD τ sig) → Buf (Elt F) ℓ) (c : Dev nD) : (fun k => atTc (U15 m) c (pre6.ref k)) = (a6 m).1 := by
  rw [eq_c₀ c]; rfl
set_option maxHeartbeats 2000000 in
theorem hF7 (m : (ℓ : Loc nD τ sig) → Buf (Elt F) ℓ) (c : Dev nD) : ∀ w : Fin (cfg7 (a7 m)).W,
    (datG7 (atTc (U17 m)) (a7 m) (gblk7 (atTc (U17 m)) (a7 m)) c).arrAt w (cfg7 (a7 m)).N = atTc (U18 m) c (Pipeline.arrRef spec7 w)
  | ⟨0, _⟩ => (U18_out m c).symm
  | ⟨_ + 1, h⟩ => absurd h (Nat.not_lt.2 (Nat.le_add_left _ _))
theorem hrest7 (m : (ℓ : Loc nD τ sig) → Buf (Elt F) ℓ) (c : Dev nD) (b : Ref sig .tc) (hb : b ∉ Finset.univ.image (Pipeline.arrRef spec7)) :
    atTc (U18 m) c b = atTc (U17 m) c b := by
  by_cases e : b = main_v33
  · subst e; exact U18_hbm m c
  · exact U18_of_ne m c b (fun e' => hb (Finset.mem_image.mpr ⟨0, Finset.mem_univ _, e'.symm ▸ (by decide : Pipeline.arrRef spec7 0 = main_v47)⟩)) e
/-- The table region 7 is handed is what the buffers hold when it is entered. -/
theorem hpf7 (m : (ℓ : Loc nD τ sig) → Buf (Elt F) ℓ) (c : Dev nD) : (fun k => atTc (U17 m) c (pre7.ref k)) = (a7 m).1 := by
  rw [eq_c₀ c]; rfl
set_option maxHeartbeats 2000000 in
theorem hF8 (m : (ℓ : Loc nD τ sig) → Buf (Elt F) ℓ) (c : Dev nD) : ∀ w : Fin (cfg8 (a8 m)).W,
    (datG8 (atTc (U19 m)) (a8 m) (gblk8 (atTc (U19 m)) (a8 m)) c).arrAt w (cfg8 (a8 m)).N = atTc (U20 m) c (Pipeline.arrRef spec8 w)
  | ⟨0, _⟩ => (U20_out m c).symm
  | ⟨_ + 1, h⟩ => absurd h (Nat.not_lt.2 (Nat.le_add_left _ _))
theorem hrest8 (m : (ℓ : Loc nD τ sig) → Buf (Elt F) ℓ) (c : Dev nD) (b : Ref sig .tc) (hb : b ∉ Finset.univ.image (Pipeline.arrRef spec8)) :
    atTc (U20 m) c b = atTc (U19 m) c b := by
  by_cases e : b = main_v33
  · subst e; exact U20_hbm m c
  · exact U20_of_ne m c b (fun e' => hb (Finset.mem_image.mpr ⟨0, Finset.mem_univ _, e'.symm ▸ (by decide : Pipeline.arrRef spec8 0 = main_v49)⟩)) e
/-- The table region 8 is handed is what the buffers hold when it is entered. -/
theorem hpf8 (m : (ℓ : Loc nD τ sig) → Buf (Elt F) ℓ) (c : Dev nD) : (fun k => atTc (U19 m) c (pre8.ref k)) = (a8 m).1 := by
  rw [eq_c₀ c]; rfl
set_option maxHeartbeats 2000000 in
theorem hF9 (m : (ℓ : Loc nD τ sig) → Buf (Elt F) ℓ) (c : Dev nD) : ∀ w : Fin (cfg9 (a9 m)).W,
    (datG9 (atTc (U21 m)) (a9 m) (gblk9 (atTc (U21 m)) (a9 m)) c).arrAt w (cfg9 (a9 m)).N = atTc (U22 m) c (Pipeline.arrRef spec9 w)
  | ⟨0, _⟩ => (U22_out m c).symm
  | ⟨_ + 1, h⟩ => absurd h (Nat.not_lt.2 (Nat.le_add_left _ _))
theorem hrest9 (m : (ℓ : Loc nD τ sig) → Buf (Elt F) ℓ) (c : Dev nD) (b : Ref sig .tc) (hb : b ∉ Finset.univ.image (Pipeline.arrRef spec9)) :
    atTc (U22 m) c b = atTc (U21 m) c b := by
  by_cases e : b = main_v33
  · subst e; exact U22_hbm m c
  · exact U22_of_ne m c b (fun e' => hb (Finset.mem_image.mpr ⟨0, Finset.mem_univ _, e'.symm ▸ (by decide : Pipeline.arrRef spec9 0 = main_v51)⟩)) e
/-- The table region 9 is handed is what the buffers hold when it is entered. -/
theorem hpf9 (m : (ℓ : Loc nD τ sig) → Buf (Elt F) ℓ) (c : Dev nD) : (fun k => atTc (U21 m) c (pre9.ref k)) = (a9 m).1 := by
  rw [eq_c₀ c]; rfl
set_option maxHeartbeats 2000000 in
theorem hF10 (m : (ℓ : Loc nD τ sig) → Buf (Elt F) ℓ) (c : Dev nD) : ∀ w : Fin (cfg10 (a10 m)).W,
    (datG10 (atTc (U23 m)) (a10 m) (gblk10 (atTc (U23 m)) (a10 m)) c).arrAt w (cfg10 (a10 m)).N = atTc (U24 m) c (Pipeline.arrRef spec10 w)
  | ⟨0, _⟩ => (U24_out m c).symm
  | ⟨_ + 1, h⟩ => absurd h (Nat.not_lt.2 (Nat.le_add_left _ _))
theorem hrest10 (m : (ℓ : Loc nD τ sig) → Buf (Elt F) ℓ) (c : Dev nD) (b : Ref sig .tc) (hb : b ∉ Finset.univ.image (Pipeline.arrRef spec10)) :
    atTc (U24 m) c b = atTc (U23 m) c b := by
  by_cases e : b = main_v33
  · subst e; exact U24_hbm m c
  · exact U24_of_ne m c b (fun e' => hb (Finset.mem_image.mpr ⟨0, Finset.mem_univ _, e'.symm ▸ (by decide : Pipeline.arrRef spec10 0 = main_v53)⟩)) e
/-- The table region 10 is handed is what the buffers hold when it is entered. -/
theorem hpf10 (m : (ℓ : Loc nD τ sig) → Buf (Elt F) ℓ) (c : Dev nD) : (fun k => atTc (U23 m) c (pre10.ref k)) = (a10 m).1 := by
  rw [eq_c₀ c]; rfl
set_option maxHeartbeats 2000000 in
theorem hF11 (m : (ℓ : Loc nD τ sig) → Buf (Elt F) ℓ) (c : Dev nD) : ∀ w : Fin cfg11.W,
    (dat11 (atTc (U25 m)) c).arrAt w cfg11.N = atTc (U26 m) c (Pipeline.arrRef spec11 w)
  | ⟨0, _⟩ => (((dat11 (atTc (U25 m)) c).arrAt_in 0 rfl _).trans (A_eq11 (atTc (U25 m)) c 0)).trans (U26_of_ne m c _ (by decide : Pipeline.arrRef spec11 0 ≠ main_v61)).symm
  | ⟨1, _⟩ => (((dat11 (atTc (U25 m)) c).arrAt_in 1 rfl _).trans (A_eq11 (atTc (U25 m)) c 1)).trans (U26_of_ne m c _ (by decide : Pipeline.arrRef spec11 1 ≠ main_v61)).symm
  | ⟨2, _⟩ => (((dat11 (atTc (U25 m)) c).arrAt_in 2 rfl _).trans (A_eq11 (atTc (U25 m)) c 2)).trans (U26_of_ne m c _ (by decide : Pipeline.arrRef spec11 2 ≠ main_v61)).symm
  | ⟨3, _⟩ => (U26_out m c).symm
  | ⟨_ + 4, h⟩ => absurd h (Nat.not_lt.2 (Nat.le_add_left _ _))
theorem hrest11 (m : (ℓ : Loc nD τ sig) → Buf (Elt F) ℓ) (c : Dev nD) (b : Ref sig .tc) (hb : b ∉ Finset.univ.image (Pipeline.arrRef spec11)) :
    atTc (U26 m) c b = atTc (U25 m) c b :=
  U26_of_ne m c b fun e => hb (Finset.mem_image.mpr ⟨3, Finset.mem_univ _, e.symm ▸ (by decide : Pipeline.arrRef spec11 3 = main_v61)⟩)
set_option maxHeartbeats 2000000 in
theorem hF12 (m : (ℓ : Loc nD τ sig) → Buf (Elt F) ℓ) (c : Dev nD) : ∀ w : Fin (cfg12 (a12 m)).W,
    (datG12 (atTc (U27 m)) (a12 m) (gblk12 (atTc (U27 m)) (a12 m)) c).arrAt w (cfg12 (a12 m)).N = atTc (U28 m) c (Pipeline.arrRef spec12 w)
  | ⟨0, _⟩ => (U28_out m c).symm
  | ⟨_ + 1, h⟩ => absurd h (Nat.not_lt.2 (Nat.le_add_left _ _))
theorem hrest12 (m : (ℓ : Loc nD τ sig) → Buf (Elt F) ℓ) (c : Dev nD) (b : Ref sig .tc) (hb : b ∉ Finset.univ.image (Pipeline.arrRef spec12)) :
    atTc (U28 m) c b = atTc (U27 m) c b := by
  by_cases e : b = main_v61
  · subst e; exact U28_hbm m c
  · exact U28_of_ne m c b (fun e' => hb (Finset.mem_image.mpr ⟨0, Finset.mem_univ _, e'.symm ▸ (by decide : Pipeline.arrRef spec12 0 = main_v63)⟩)) e
/-- The table region 12 is handed is what the buffers hold when it is entered. -/
theorem hpf12 (m : (ℓ : Loc nD τ sig) → Buf (Elt F) ℓ) (c : Dev nD) : (fun k => atTc (U27 m) c (pre12.ref k)) = (a12 m).1 := by
  rw [eq_c₀ c]; rfl
set_option maxHeartbeats 2000000 in
theorem hF13 (m : (ℓ : Loc nD τ sig) → Buf (Elt F) ℓ) (c : Dev nD) : ∀ w : Fin (cfg13 (a13 m)).W,
    (datG13 (atTc (U29 m)) (a13 m) (gblk13 (atTc (U29 m)) (a13 m)) c).arrAt w (cfg13 (a13 m)).N = atTc (U30 m) c (Pipeline.arrRef spec13 w)
  | ⟨0, _⟩ => (U30_out m c).symm
  | ⟨_ + 1, h⟩ => absurd h (Nat.not_lt.2 (Nat.le_add_left _ _))
theorem hrest13 (m : (ℓ : Loc nD τ sig) → Buf (Elt F) ℓ) (c : Dev nD) (b : Ref sig .tc) (hb : b ∉ Finset.univ.image (Pipeline.arrRef spec13)) :
    atTc (U30 m) c b = atTc (U29 m) c b := by
  by_cases e : b = main_v61
  · subst e; exact U30_hbm m c
  · exact U30_of_ne m c b (fun e' => hb (Finset.mem_image.mpr ⟨0, Finset.mem_univ _, e'.symm ▸ (by decide : Pipeline.arrRef spec13 0 = main_v65)⟩)) e
/-- The table region 13 is handed is what the buffers hold when it is entered. -/
theorem hpf13 (m : (ℓ : Loc nD τ sig) → Buf (Elt F) ℓ) (c : Dev nD) : (fun k => atTc (U29 m) c (pre13.ref k)) = (a13 m).1 := by
  rw [eq_c₀ c]; rfl
set_option maxHeartbeats 2000000 in
theorem hF14 (m : (ℓ : Loc nD τ sig) → Buf (Elt F) ℓ) (c : Dev nD) : ∀ w : Fin (cfg14 (a14 m)).W,
    (datG14 (atTc (U31 m)) (a14 m) (gblk14 (atTc (U31 m)) (a14 m)) c).arrAt w (cfg14 (a14 m)).N = atTc (U32 m) c (Pipeline.arrRef spec14 w)
  | ⟨0, _⟩ => (U32_out m c).symm
  | ⟨_ + 1, h⟩ => absurd h (Nat.not_lt.2 (Nat.le_add_left _ _))
theorem hrest14 (m : (ℓ : Loc nD τ sig) → Buf (Elt F) ℓ) (c : Dev nD) (b : Ref sig .tc) (hb : b ∉ Finset.univ.image (Pipeline.arrRef spec14)) :
    atTc (U32 m) c b = atTc (U31 m) c b := by
  by_cases e : b = main_v61
  · subst e; exact U32_hbm m c
  · exact U32_of_ne m c b (fun e' => hb (Finset.mem_image.mpr ⟨0, Finset.mem_univ _, e'.symm ▸ (by decide : Pipeline.arrRef spec14 0 = main_v67)⟩)) e
/-- The table region 14 is handed is what the buffers hold when it is entered. -/
theorem hpf14 (m : (ℓ : Loc nD τ sig) → Buf (Elt F) ℓ) (c : Dev nD) : (fun k => atTc (U31 m) c (pre14.ref k)) = (a14 m).1 := by
  rw [eq_c₀ c]; rfl
set_option maxHeartbeats 2000000 in
theorem hF15 (m : (ℓ : Loc nD τ sig) → Buf (Elt F) ℓ) (c : Dev nD) : ∀ w : Fin (cfg15 (a15 m)).W,
    (datG15 (atTc (U33 m)) (a15 m) (gblk15 (atTc (U33 m)) (a15 m)) c).arrAt w (cfg15 (a15 m)).N = atTc (U34 m) c (Pipeline.arrRef spec15 w)
  | ⟨0, _⟩ => (U34_out m c).symm
  | ⟨_ + 1, h⟩ => absurd h (Nat.not_lt.2 (Nat.le_add_left _ _))
theorem hrest15 (m : (ℓ : Loc nD τ sig) → Buf (Elt F) ℓ) (c : Dev nD) (b : Ref sig .tc) (hb : b ∉ Finset.univ.image (Pipeline.arrRef spec15)) :
    atTc (U34 m) c b = atTc (U33 m) c b := by
  by_cases e : b = main_v61
  · subst e; exact U34_hbm m c
  · exact U34_of_ne m c b (fun e' => hb (Finset.mem_image.mpr ⟨0, Finset.mem_univ _, e'.symm ▸ (by decide : Pipeline.arrRef spec15 0 = main_v69)⟩)) e
/-- The table region 15 is handed is what the buffers hold when it is entered. -/
theorem hpf15 (m : (ℓ : Loc nD τ sig) → Buf (Elt F) ℓ) (c : Dev nD) : (fun k => atTc (U33 m) c (pre15.ref k)) = (a15 m).1 := by
  rw [eq_c₀ c]; rfl
set_option maxHeartbeats 2000000 in
theorem hF16 (m : (ℓ : Loc nD τ sig) → Buf (Elt F) ℓ) (c : Dev nD) : ∀ w : Fin (cfg16 (a16 m)).W,
    (datG16 (atTc (U35 m)) (a16 m) (gblk16 (atTc (U35 m)) (a16 m)) c).arrAt w (cfg16 (a16 m)).N = atTc (U36 m) c (Pipeline.arrRef spec16 w)
  | ⟨0, _⟩ => (U36_out m c).symm
  | ⟨_ + 1, h⟩ => absurd h (Nat.not_lt.2 (Nat.le_add_left _ _))
theorem hrest16 (m : (ℓ : Loc nD τ sig) → Buf (Elt F) ℓ) (c : Dev nD) (b : Ref sig .tc) (hb : b ∉ Finset.univ.image (Pipeline.arrRef spec16)) :
    atTc (U36 m) c b = atTc (U35 m) c b := by
  by_cases e : b = main_v61
  · subst e; exact U36_hbm m c
  · exact U36_of_ne m c b (fun e' => hb (Finset.mem_image.mpr ⟨0, Finset.mem_univ _, e'.symm ▸ (by decide : Pipeline.arrRef spec16 0 = main_v71)⟩)) e
/-- The table region 16 is handed is what the buffers hold when it is entered. -/
theorem hpf16 (m : (ℓ : Loc nD τ sig) → Buf (Elt F) ℓ) (c : Dev nD) : (fun k => atTc (U35 m) c (pre16.ref k)) = (a16 m).1 := by
  rw [eq_c₀ c]; rfl
set_option maxHeartbeats 2000000 in
theorem hF17 (m : (ℓ : Loc nD τ sig) → Buf (Elt F) ℓ) (c : Dev nD) : ∀ w : Fin (cfg17 (a17 m)).W,
    (datG17 (atTc (U37 m)) (a17 m) (gblk17 (atTc (U37 m)) (a17 m)) c).arrAt w (cfg17 (a17 m)).N = atTc (U38 m) c (Pipeline.arrRef spec17 w)
  | ⟨0, _⟩ => (U38_out m c).symm
  | ⟨_ + 1, h⟩ => absurd h (Nat.not_lt.2 (Nat.le_add_left _ _))
theorem hrest17 (m : (ℓ : Loc nD τ sig) → Buf (Elt F) ℓ) (c : Dev nD) (b : Ref sig .tc) (hb : b ∉ Finset.univ.image (Pipeline.arrRef spec17)) :
    atTc (U38 m) c b = atTc (U37 m) c b := by
  by_cases e : b = main_v61
  · subst e; exact U38_hbm m c
  · exact U38_of_ne m c b (fun e' => hb (Finset.mem_image.mpr ⟨0, Finset.mem_univ _, e'.symm ▸ (by decide : Pipeline.arrRef spec17 0 = main_v73)⟩)) e
/-- The table region 17 is handed is what the buffers hold when it is entered. -/
theorem hpf17 (m : (ℓ : Loc nD τ sig) → Buf (Elt F) ℓ) (c : Dev nD) : (fun k => atTc (U37 m) c (pre17.ref k)) = (a17 m).1 := by
  rw [eq_c₀ c]; rfl
set_option maxHeartbeats 2000000 in
theorem hF18 (m : (ℓ : Loc nD τ sig) → Buf (Elt F) ℓ) (c : Dev nD) : ∀ w : Fin (cfg18 (a18 m)).W,
    (datG18 (atTc (U39 m)) (a18 m) (gblk18 (atTc (U39 m)) (a18 m)) c).arrAt w (cfg18 (a18 m)).N = atTc (U40 m) c (Pipeline.arrRef spec18 w)
  | ⟨0, _⟩ => (U40_out m c).symm
  | ⟨_ + 1, h⟩ => absurd h (Nat.not_lt.2 (Nat.le_add_left _ _))
theorem hrest18 (m : (ℓ : Loc nD τ sig) → Buf (Elt F) ℓ) (c : Dev nD) (b : Ref sig .tc) (hb : b ∉ Finset.univ.image (Pipeline.arrRef spec18)) :
    atTc (U40 m) c b = atTc (U39 m) c b := by
  by_cases e : b = main_v61
  · subst e; exact U40_hbm m c
  · exact U40_of_ne m c b (fun e' => hb (Finset.mem_image.mpr ⟨0, Finset.mem_univ _, e'.symm ▸ (by decide : Pipeline.arrRef spec18 0 = main_v75)⟩)) e
/-- The table region 18 is handed is what the buffers hold when it is entered. -/
theorem hpf18 (m : (ℓ : Loc nD τ sig) → Buf (Elt F) ℓ) (c : Dev nD) : (fun k => atTc (U39 m) c (pre18.ref k)) = (a18 m).1 := by
  rw [eq_c₀ c]; rfl
set_option maxHeartbeats 2000000 in
theorem hF19 (m : (ℓ : Loc nD τ sig) → Buf (Elt F) ℓ) (c : Dev nD) : ∀ w : Fin (cfg19 (a19 m)).W,
    (datG19 (atTc (U41 m)) (a19 m) (gblk19 (atTc (U41 m)) (a19 m)) c).arrAt w (cfg19 (a19 m)).N = atTc (U42 m) c (Pipeline.arrRef spec19 w)
  | ⟨0, _⟩ => (U42_out m c).symm
  | ⟨_ + 1, h⟩ => absurd h (Nat.not_lt.2 (Nat.le_add_left _ _))
theorem hrest19 (m : (ℓ : Loc nD τ sig) → Buf (Elt F) ℓ) (c : Dev nD) (b : Ref sig .tc) (hb : b ∉ Finset.univ.image (Pipeline.arrRef spec19)) :
    atTc (U42 m) c b = atTc (U41 m) c b := by
  by_cases e : b = main_v61
  · subst e; exact U42_hbm m c
  · exact U42_of_ne m c b (fun e' => hb (Finset.mem_image.mpr ⟨0, Finset.mem_univ _, e'.symm ▸ (by decide : Pipeline.arrRef spec19 0 = main_v77)⟩)) e
/-- The table region 19 is handed is what the buffers hold when it is entered. -/
theorem hpf19 (m : (ℓ : Loc nD τ sig) → Buf (Elt F) ℓ) (c : Dev nD) : (fun k => atTc (U41 m) c (pre19.ref k)) = (a19 m).1 := by
  rw [eq_c₀ c]; rfl
set_option maxHeartbeats 2000000 in
theorem hF20 (m : (ℓ : Loc nD τ sig) → Buf (Elt F) ℓ) (c : Dev nD) : ∀ w : Fin (cfg20 (a20 m)).W,
    (datG20 (atTc (U43 m)) (a20 m) (gblk20 (atTc (U43 m)) (a20 m)) c).arrAt w (cfg20 (a20 m)).N = atTc (U44 m) c (Pipeline.arrRef spec20 w)
  | ⟨0, _⟩ => (U44_out m c).symm
  | ⟨_ + 1, h⟩ => absurd h (Nat.not_lt.2 (Nat.le_add_left _ _))
theorem hrest20 (m : (ℓ : Loc nD τ sig) → Buf (Elt F) ℓ) (c : Dev nD) (b : Ref sig .tc) (hb : b ∉ Finset.univ.image (Pipeline.arrRef spec20)) :
    atTc (U44 m) c b = atTc (U43 m) c b := by
  by_cases e : b = main_v61
  · subst e; exact U44_hbm m c
  · exact U44_of_ne m c b (fun e' => hb (Finset.mem_image.mpr ⟨0, Finset.mem_univ _, e'.symm ▸ (by decide : Pipeline.arrRef spec20 0 = main_v79)⟩)) e
/-- The table region 20 is handed is what the buffers hold when it is entered. -/
theorem hpf20 (m : (ℓ : Loc nD τ sig) → Buf (Elt F) ℓ) (c : Dev nD) : (fun k => atTc (U43 m) c (pre20.ref k)) = (a20 m).1 := by
  rw [eq_c₀ c]; rfl
set_option maxHeartbeats 2000000 in
theorem hF21 (m : (ℓ : Loc nD τ sig) → Buf (Elt F) ℓ) (c : Dev nD) : ∀ w : Fin (cfg21 (a21 m)).W,
    (datG21 (atTc (U45 m)) (a21 m) (gblk21 (atTc (U45 m)) (a21 m)) c).arrAt w (cfg21 (a21 m)).N = atTc (U46 m) c (Pipeline.arrRef spec21 w)
  | ⟨0, _⟩ => (U46_out m c).symm
  | ⟨_ + 1, h⟩ => absurd h (Nat.not_lt.2 (Nat.le_add_left _ _))
theorem hrest21 (m : (ℓ : Loc nD τ sig) → Buf (Elt F) ℓ) (c : Dev nD) (b : Ref sig .tc) (hb : b ∉ Finset.univ.image (Pipeline.arrRef spec21)) :
    atTc (U46 m) c b = atTc (U45 m) c b := by
  by_cases e : b = main_v61
  · subst e; exact U46_hbm m c
  · exact U46_of_ne m c b (fun e' => hb (Finset.mem_image.mpr ⟨0, Finset.mem_univ _, e'.symm ▸ (by decide : Pipeline.arrRef spec21 0 = main_v81)⟩)) e
/-- The table region 21 is handed is what the buffers hold when it is entered. -/
theorem hpf21 (m : (ℓ : Loc nD τ sig) → Buf (Elt F) ℓ) (c : Dev nD) : (fun k => atTc (U45 m) c (pre21.ref k)) = (a21 m).1 := by
  rw [eq_c₀ c]; rfl
set_option maxHeartbeats 2000000 in
theorem hF22 (m : (ℓ : Loc nD τ sig) → Buf (Elt F) ℓ) (c : Dev nD) : ∀ w : Fin cfg22.W,
    (dat22 (atTc (U47 m)) c).arrAt w cfg22.N = atTc (U48 m) c (Pipeline.arrRef spec22 w)
  | ⟨0, _⟩ => (((dat22 (atTc (U47 m)) c).arrAt_in 0 rfl _).trans (A_eq22 (atTc (U47 m)) c 0)).trans (U48_of_ne m c _ (by decide : Pipeline.arrRef spec22 0 ≠ main_v89)).symm
  | ⟨1, _⟩ => (((dat22 (atTc (U47 m)) c).arrAt_in 1 rfl _).trans (A_eq22 (atTc (U47 m)) c 1)).trans (U48_of_ne m c _ (by decide : Pipeline.arrRef spec22 1 ≠ main_v89)).symm
  | ⟨2, _⟩ => (U48_out m c).symm
  | ⟨_ + 3, h⟩ => absurd h (Nat.not_lt.2 (Nat.le_add_left _ _))
theorem hrest22 (m : (ℓ : Loc nD τ sig) → Buf (Elt F) ℓ) (c : Dev nD) (b : Ref sig .tc) (hb : b ∉ Finset.univ.image (Pipeline.arrRef spec22)) :
    atTc (U48 m) c b = atTc (U47 m) c b :=
  U48_of_ne m c b fun e => hb (Finset.mem_image.mpr ⟨2, Finset.mem_univ _, e.symm ▸ (by decide : Pipeline.arrRef spec22 2 = main_v89)⟩)
set_option maxHeartbeats 2000000 in
theorem hF23 (m : (ℓ : Loc nD τ sig) → Buf (Elt F) ℓ) (c : Dev nD) : ∀ w : Fin (cfg23 (a23 m)).W,
    (datG23 (atTc (U49 m)) (a23 m) (gblk23 (atTc (U49 m)) (a23 m)) c).arrAt w (cfg23 (a23 m)).N = atTc (U50 m) c (Pipeline.arrRef spec23 w)
  | ⟨0, _⟩ => (U50_out m c).symm
  | ⟨_ + 1, h⟩ => absurd h (Nat.not_lt.2 (Nat.le_add_left _ _))
theorem hrest23 (m : (ℓ : Loc nD τ sig) → Buf (Elt F) ℓ) (c : Dev nD) (b : Ref sig .tc) (hb : b ∉ Finset.univ.image (Pipeline.arrRef spec23)) :
    atTc (U50 m) c b = atTc (U49 m) c b := by
  by_cases e : b = main_v89
  · subst e; exact U50_hbm m c
  · exact U50_of_ne m c b (fun e' => hb (Finset.mem_image.mpr ⟨0, Finset.mem_univ _, e'.symm ▸ (by decide : Pipeline.arrRef spec23 0 = main_v91)⟩)) e
/-- The table region 23 is handed is what the buffers hold when it is entered. -/
theorem hpf23 (m : (ℓ : Loc nD τ sig) → Buf (Elt F) ℓ) (c : Dev nD) : (fun k => atTc (U49 m) c (pre23.ref k)) = (a23 m).1 := by
  rw [eq_c₀ c]; rfl
set_option maxHeartbeats 2000000 in
theorem hF24 (m : (ℓ : Loc nD τ sig) → Buf (Elt F) ℓ) (c : Dev nD) : ∀ w : Fin (cfg24 (a24 m)).W,
    (datG24 (atTc (U51 m)) (a24 m) (gblk24 (atTc (U51 m)) (a24 m)) c).arrAt w (cfg24 (a24 m)).N = atTc (U52 m) c (Pipeline.arrRef spec24 w)
  | ⟨0, _⟩ => (U52_out m c).symm
  | ⟨_ + 1, h⟩ => absurd h (Nat.not_lt.2 (Nat.le_add_left _ _))
theorem hrest24 (m : (ℓ : Loc nD τ sig) → Buf (Elt F) ℓ) (c : Dev nD) (b : Ref sig .tc) (hb : b ∉ Finset.univ.image (Pipeline.arrRef spec24)) :
    atTc (U52 m) c b = atTc (U51 m) c b := by
  by_cases e : b = main_v89
  · subst e; exact U52_hbm m c
  · exact U52_of_ne m c b (fun e' => hb (Finset.mem_image.mpr ⟨0, Finset.mem_univ _, e'.symm ▸ (by decide : Pipeline.arrRef spec24 0 = main_v93)⟩)) e
/-- The table region 24 is handed is what the buffers hold when it is entered. -/
theorem hpf24 (m : (ℓ : Loc nD τ sig) → Buf (Elt F) ℓ) (c : Dev nD) : (fun k => atTc (U51 m) c (pre24.ref k)) = (a24 m).1 := by
  rw [eq_c₀ c]; rfl
set_option maxHeartbeats 2000000 in
theorem hF25 (m : (ℓ : Loc nD τ sig) → Buf (Elt F) ℓ) (c : Dev nD) : ∀ w : Fin (cfg25 (a25 m)).W,
    (datG25 (atTc (U53 m)) (a25 m) (gblk25 (atTc (U53 m)) (a25 m)) c).arrAt w (cfg25 (a25 m)).N = atTc (U54 m) c (Pipeline.arrRef spec25 w)
  | ⟨0, _⟩ => (U54_out m c).symm
  | ⟨_ + 1, h⟩ => absurd h (Nat.not_lt.2 (Nat.le_add_left _ _))
theorem hrest25 (m : (ℓ : Loc nD τ sig) → Buf (Elt F) ℓ) (c : Dev nD) (b : Ref sig .tc) (hb : b ∉ Finset.univ.image (Pipeline.arrRef spec25)) :
    atTc (U54 m) c b = atTc (U53 m) c b := by
  by_cases e : b = main_v89
  · subst e; exact U54_hbm m c
  · exact U54_of_ne m c b (fun e' => hb (Finset.mem_image.mpr ⟨0, Finset.mem_univ _, e'.symm ▸ (by decide : Pipeline.arrRef spec25 0 = main_v95)⟩)) e
/-- The table region 25 is handed is what the buffers hold when it is entered. -/
theorem hpf25 (m : (ℓ : Loc nD τ sig) → Buf (Elt F) ℓ) (c : Dev nD) : (fun k => atTc (U53 m) c (pre25.ref k)) = (a25 m).1 := by
  rw [eq_c₀ c]; rfl
set_option maxHeartbeats 2000000 in
theorem hF26 (m : (ℓ : Loc nD τ sig) → Buf (Elt F) ℓ) (c : Dev nD) : ∀ w : Fin (cfg26 (a26 m)).W,
    (datG26 (atTc (U55 m)) (a26 m) (gblk26 (atTc (U55 m)) (a26 m)) c).arrAt w (cfg26 (a26 m)).N = atTc (U56 m) c (Pipeline.arrRef spec26 w)
  | ⟨0, _⟩ => (U56_out m c).symm
  | ⟨_ + 1, h⟩ => absurd h (Nat.not_lt.2 (Nat.le_add_left _ _))
theorem hrest26 (m : (ℓ : Loc nD τ sig) → Buf (Elt F) ℓ) (c : Dev nD) (b : Ref sig .tc) (hb : b ∉ Finset.univ.image (Pipeline.arrRef spec26)) :
    atTc (U56 m) c b = atTc (U55 m) c b := by
  by_cases e : b = main_v89
  · subst e; exact U56_hbm m c
  · exact U56_of_ne m c b (fun e' => hb (Finset.mem_image.mpr ⟨0, Finset.mem_univ _, e'.symm ▸ (by decide : Pipeline.arrRef spec26 0 = main_v97)⟩)) e
/-- The table region 26 is handed is what the buffers hold when it is entered. -/
theorem hpf26 (m : (ℓ : Loc nD τ sig) → Buf (Elt F) ℓ) (c : Dev nD) : (fun k => atTc (U55 m) c (pre26.ref k)) = (a26 m).1 := by
  rw [eq_c₀ c]; rfl
set_option maxHeartbeats 2000000 in
theorem hF27 (m : (ℓ : Loc nD τ sig) → Buf (Elt F) ℓ) (c : Dev nD) : ∀ w : Fin (cfg27 (a27 m)).W,
    (datG27 (atTc (U57 m)) (a27 m) (gblk27 (atTc (U57 m)) (a27 m)) c).arrAt w (cfg27 (a27 m)).N = atTc (U58 m) c (Pipeline.arrRef spec27 w)
  | ⟨0, _⟩ => (U58_out m c).symm
  | ⟨_ + 1, h⟩ => absurd h (Nat.not_lt.2 (Nat.le_add_left _ _))
theorem hrest27 (m : (ℓ : Loc nD τ sig) → Buf (Elt F) ℓ) (c : Dev nD) (b : Ref sig .tc) (hb : b ∉ Finset.univ.image (Pipeline.arrRef spec27)) :
    atTc (U58 m) c b = atTc (U57 m) c b := by
  by_cases e : b = main_v89
  · subst e; exact U58_hbm m c
  · exact U58_of_ne m c b (fun e' => hb (Finset.mem_image.mpr ⟨0, Finset.mem_univ _, e'.symm ▸ (by decide : Pipeline.arrRef spec27 0 = main_v99)⟩)) e
/-- The table region 27 is handed is what the buffers hold when it is entered. -/
theorem hpf27 (m : (ℓ : Loc nD τ sig) → Buf (Elt F) ℓ) (c : Dev nD) : (fun k => atTc (U57 m) c (pre27.ref k)) = (a27 m).1 := by
  rw [eq_c₀ c]; rfl
set_option maxHeartbeats 2000000 in
theorem hF28 (m : (ℓ : Loc nD τ sig) → Buf (Elt F) ℓ) (c : Dev nD) : ∀ w : Fin (cfg28 (a28 m)).W,
    (datG28 (atTc (U59 m)) (a28 m) (gblk28 (atTc (U59 m)) (a28 m)) c).arrAt w (cfg28 (a28 m)).N = atTc (U60 m) c (Pipeline.arrRef spec28 w)
  | ⟨0, _⟩ => (U60_out m c).symm
  | ⟨_ + 1, h⟩ => absurd h (Nat.not_lt.2 (Nat.le_add_left _ _))
theorem hrest28 (m : (ℓ : Loc nD τ sig) → Buf (Elt F) ℓ) (c : Dev nD) (b : Ref sig .tc) (hb : b ∉ Finset.univ.image (Pipeline.arrRef spec28)) :
    atTc (U60 m) c b = atTc (U59 m) c b := by
  by_cases e : b = main_v89
  · subst e; exact U60_hbm m c
  · exact U60_of_ne m c b (fun e' => hb (Finset.mem_image.mpr ⟨0, Finset.mem_univ _, e'.symm ▸ (by decide : Pipeline.arrRef spec28 0 = main_v101)⟩)) e
/-- The table region 28 is handed is what the buffers hold when it is entered. -/
theorem hpf28 (m : (ℓ : Loc nD τ sig) → Buf (Elt F) ℓ) (c : Dev nD) : (fun k => atTc (U59 m) c (pre28.ref k)) = (a28 m).1 := by
  rw [eq_c₀ c]; rfl
set_option maxHeartbeats 2000000 in
theorem hF29 (m : (ℓ : Loc nD τ sig) → Buf (Elt F) ℓ) (c : Dev nD) : ∀ w : Fin (cfg29 (a29 m)).W,
    (datG29 (atTc (U61 m)) (a29 m) (gblk29 (atTc (U61 m)) (a29 m)) c).arrAt w (cfg29 (a29 m)).N = atTc (U62 m) c (Pipeline.arrRef spec29 w)
  | ⟨0, _⟩ => (U62_out m c).symm
  | ⟨_ + 1, h⟩ => absurd h (Nat.not_lt.2 (Nat.le_add_left _ _))
theorem hrest29 (m : (ℓ : Loc nD τ sig) → Buf (Elt F) ℓ) (c : Dev nD) (b : Ref sig .tc) (hb : b ∉ Finset.univ.image (Pipeline.arrRef spec29)) :
    atTc (U62 m) c b = atTc (U61 m) c b := by
  by_cases e : b = main_v89
  · subst e; exact U62_hbm m c
  · exact U62_of_ne m c b (fun e' => hb (Finset.mem_image.mpr ⟨0, Finset.mem_univ _, e'.symm ▸ (by decide : Pipeline.arrRef spec29 0 = main_v103)⟩)) e
/-- The table region 29 is handed is what the buffers hold when it is entered. -/
theorem hpf29 (m : (ℓ : Loc nD τ sig) → Buf (Elt F) ℓ) (c : Dev nD) : (fun k => atTc (U61 m) c (pre29.ref k)) = (a29 m).1 := by
  rw [eq_c₀ c]; rfl
set_option maxHeartbeats 2000000 in
theorem hF30 (m : (ℓ : Loc nD τ sig) → Buf (Elt F) ℓ) (c : Dev nD) : ∀ w : Fin (cfg30 (a30 m)).W,
    (datG30 (atTc (U63 m)) (a30 m) (gblk30 (atTc (U63 m)) (a30 m)) c).arrAt w (cfg30 (a30 m)).N = atTc (U64 m) c (Pipeline.arrRef spec30 w)
  | ⟨0, _⟩ => (U64_out m c).symm
  | ⟨_ + 1, h⟩ => absurd h (Nat.not_lt.2 (Nat.le_add_left _ _))
theorem hrest30 (m : (ℓ : Loc nD τ sig) → Buf (Elt F) ℓ) (c : Dev nD) (b : Ref sig .tc) (hb : b ∉ Finset.univ.image (Pipeline.arrRef spec30)) :
    atTc (U64 m) c b = atTc (U63 m) c b := by
  by_cases e : b = main_v89
  · subst e; exact U64_hbm m c
  · exact U64_of_ne m c b (fun e' => hb (Finset.mem_image.mpr ⟨0, Finset.mem_univ _, e'.symm ▸ (by decide : Pipeline.arrRef spec30 0 = main_v105)⟩)) e
/-- The table region 30 is handed is what the buffers hold when it is entered. -/
theorem hpf30 (m : (ℓ : Loc nD τ sig) → Buf (Elt F) ℓ) (c : Dev nD) : (fun k => atTc (U63 m) c (pre30.ref k)) = (a30 m).1 := by
  rw [eq_c₀ c]; rfl
set_option maxHeartbeats 2000000 in
theorem hF31 (m : (ℓ : Loc nD τ sig) → Buf (Elt F) ℓ) (c : Dev nD) : ∀ w : Fin (cfg31 (a31 m)).W,
    (datG31 (atTc (U65 m)) (a31 m) (gblk31 (atTc (U65 m)) (a31 m)) c).arrAt w (cfg31 (a31 m)).N = atTc (U66 m) c (Pipeline.arrRef spec31 w)
  | ⟨0, _⟩ => (U66_out m c).symm
  | ⟨_ + 1, h⟩ => absurd h (Nat.not_lt.2 (Nat.le_add_left _ _))
theorem hrest31 (m : (ℓ : Loc nD τ sig) → Buf (Elt F) ℓ) (c : Dev nD) (b : Ref sig .tc) (hb : b ∉ Finset.univ.image (Pipeline.arrRef spec31)) :
    atTc (U66 m) c b = atTc (U65 m) c b := by
  by_cases e : b = main_v89
  · subst e; exact U66_hbm m c
  · exact U66_of_ne m c b (fun e' => hb (Finset.mem_image.mpr ⟨0, Finset.mem_univ _, e'.symm ▸ (by decide : Pipeline.arrRef spec31 0 = main_v108)⟩)) e
/-- The table region 31 is handed is what the buffers hold when it is entered. -/
theorem hpf31 (m : (ℓ : Loc nD τ sig) → Buf (Elt F) ℓ) (c : Dev nD) : (fun k => atTc (U65 m) c (pre31.ref k)) = (a31 m).1 := by
  rw [eq_c₀ c]; rfl
set_option maxHeartbeats 2000000 in
theorem hF32 (m : (ℓ : Loc nD τ sig) → Buf (Elt F) ℓ) (c : Dev nD) : ∀ w : Fin (cfg32 (a32 m)).W,
    (datG32 (atTc (U67 m)) (a32 m) (gblk32 (atTc (U67 m)) (a32 m)) c).arrAt w (cfg32 (a32 m)).N = atTc (U68 m) c (Pipeline.arrRef spec32 w)
  | ⟨0, _⟩ => (U68_out m c).symm
  | ⟨_ + 1, h⟩ => absurd h (Nat.not_lt.2 (Nat.le_add_left _ _))
theorem hrest32 (m : (ℓ : Loc nD τ sig) → Buf (Elt F) ℓ) (c : Dev nD) (b : Ref sig .tc) (hb : b ∉ Finset.univ.image (Pipeline.arrRef spec32)) :
    atTc (U68 m) c b = atTc (U67 m) c b := by
  by_cases e : b = main_v89
  · subst e; exact U68_hbm m c
  · exact U68_of_ne m c b (fun e' => hb (Finset.mem_image.mpr ⟨0, Finset.mem_univ _, e'.symm ▸ (by decide : Pipeline.arrRef spec32 0 = main_v110)⟩)) e
/-- The table region 32 is handed is what the buffers hold when it is entered. -/
theorem hpf32 (m : (ℓ : Loc nD τ sig) → Buf (Elt F) ℓ) (c : Dev nD) : (fun k => atTc (U67 m) c (pre32.ref k)) = (a32 m).1 := by
  rw [eq_c₀ c]; rfl
set_option maxHeartbeats 2000000 in
theorem hF33 (m : (ℓ : Loc nD τ sig) → Buf (Elt F) ℓ) (c : Dev nD) : ∀ w : Fin (cfg33 (a33 m)).W,
    (datG33 (atTc (U69 m)) (a33 m) (gblk33 (atTc (U69 m)) (a33 m)) c).arrAt w (cfg33 (a33 m)).N = atTc (U70 m) c (Pipeline.arrRef spec33 w)
  | ⟨0, _⟩ => (U70_out m c).symm
  | ⟨_ + 1, h⟩ => absurd h (Nat.not_lt.2 (Nat.le_add_left _ _))
theorem hrest33 (m : (ℓ : Loc nD τ sig) → Buf (Elt F) ℓ) (c : Dev nD) (b : Ref sig .tc) (hb : b ∉ Finset.univ.image (Pipeline.arrRef spec33)) :
    atTc (U70 m) c b = atTc (U69 m) c b := by
  by_cases e : b = main_v89
  · subst e; exact U70_hbm m c
  · exact U70_of_ne m c b (fun e' => hb (Finset.mem_image.mpr ⟨0, Finset.mem_univ _, e'.symm ▸ (by decide : Pipeline.arrRef spec33 0 = main_v112)⟩)) e
/-- The table region 33 is handed is what the buffers hold when it is entered. -/
theorem hpf33 (m : (ℓ : Loc nD τ sig) → Buf (Elt F) ℓ) (c : Dev nD) : (fun k => atTc (U69 m) c (pre33.ref k)) = (a33 m).1 := by
  rw [eq_c₀ c]; rfl
set_option maxHeartbeats 2000000 in
theorem hF34 (m : (ℓ : Loc nD τ sig) → Buf (Elt F) ℓ) (c : Dev nD) : ∀ w : Fin (cfg34 (a34 m)).W,
    (datG34 (atTc (U71 m)) (a34 m) (gblk34 (atTc (U71 m)) (a34 m)) c).arrAt w (cfg34 (a34 m)).N = atTc (U72 m) c (Pipeline.arrRef spec34 w)
  | ⟨0, _⟩ => (U72_out m c).symm
  | ⟨_ + 1, h⟩ => absurd h (Nat.not_lt.2 (Nat.le_add_left _ _))
theorem hrest34 (m : (ℓ : Loc nD τ sig) → Buf (Elt F) ℓ) (c : Dev nD) (b : Ref sig .tc) (hb : b ∉ Finset.univ.image (Pipeline.arrRef spec34)) :
    atTc (U72 m) c b = atTc (U71 m) c b := by
  by_cases e : b = main_v89
  · subst e; exact U72_hbm m c
  · exact U72_of_ne m c b (fun e' => hb (Finset.mem_image.mpr ⟨0, Finset.mem_univ _, e'.symm ▸ (by decide : Pipeline.arrRef spec34 0 = main_v114)⟩)) e
/-- The table region 34 is handed is what the buffers hold when it is entered. -/
theorem hpf34 (m : (ℓ : Loc nD τ sig) → Buf (Elt F) ℓ) (c : Dev nD) : (fun k => atTc (U71 m) c (pre34.ref k)) = (a34 m).1 := by
  rw [eq_c₀ c]; rfl
set_option maxHeartbeats 2000000 in
theorem hF35 (m : (ℓ : Loc nD τ sig) → Buf (Elt F) ℓ) (c : Dev nD) : ∀ w : Fin (cfg35 (a35 m)).W,
    (datG35 (atTc (U73 m)) (a35 m) (gblk35 (atTc (U73 m)) (a35 m)) c).arrAt w (cfg35 (a35 m)).N = atTc (U74 m) c (Pipeline.arrRef spec35 w)
  | ⟨0, _⟩ => (U74_out m c).symm
  | ⟨_ + 1, h⟩ => absurd h (Nat.not_lt.2 (Nat.le_add_left _ _))
theorem hrest35 (m : (ℓ : Loc nD τ sig) → Buf (Elt F) ℓ) (c : Dev nD) (b : Ref sig .tc) (hb : b ∉ Finset.univ.image (Pipeline.arrRef spec35)) :
    atTc (U74 m) c b = atTc (U73 m) c b := by
  by_cases e : b = main_v89
  · subst e; exact U74_hbm m c
  · exact U74_of_ne m c b (fun e' => hb (Finset.mem_image.mpr ⟨0, Finset.mem_univ _, e'.symm ▸ (by decide : Pipeline.arrRef spec35 0 = main_v116)⟩)) e
/-- The table region 35 is handed is what the buffers hold when it is entered. -/
theorem hpf35 (m : (ℓ : Loc nD τ sig) → Buf (Elt F) ℓ) (c : Dev nD) : (fun k => atTc (U73 m) c (pre35.ref k)) = (a35 m).1 := by
  rw [eq_c₀ c]; rfl
set_option maxHeartbeats 2000000 in
theorem hF36 (m : (ℓ : Loc nD τ sig) → Buf (Elt F) ℓ) (c : Dev nD) : ∀ w : Fin (cfg36 (a36 m)).W,
    (datG36 (atTc (U75 m)) (a36 m) (gblk36 (atTc (U75 m)) (a36 m)) c).arrAt w (cfg36 (a36 m)).N = atTc (U76 m) c (Pipeline.arrRef spec36 w)
  | ⟨0, _⟩ => (U76_out m c).symm
  | ⟨_ + 1, h⟩ => absurd h (Nat.not_lt.2 (Nat.le_add_left _ _))
theorem hrest36 (m : (ℓ : Loc nD τ sig) → Buf (Elt F) ℓ) (c : Dev nD) (b : Ref sig .tc) (hb : b ∉ Finset.univ.image (Pipeline.arrRef spec36)) :
    atTc (U76 m) c b = atTc (U75 m) c b := by
  by_cases e : b = main_v89
  · subst e; exact U76_hbm m c
  · exact U76_of_ne m c b (fun e' => hb (Finset.mem_image.mpr ⟨0, Finset.mem_univ _, e'.symm ▸ (by decide : Pipeline.arrRef spec36 0 = main_v118)⟩)) e
/-- The table region 36 is handed is what the buffers hold when it is entered. -/
theorem hpf36 (m : (ℓ : Loc nD τ sig) → Buf (Elt F) ℓ) (c : Dev nD) : (fun k => atTc (U75 m) c (pre36.ref k)) = (a36 m).1 := by
  rw [eq_c₀ c]; rfl
set_option maxHeartbeats 2000000 in
theorem hF37 (m : (ℓ : Loc nD τ sig) → Buf (Elt F) ℓ) (c : Dev nD) : ∀ w : Fin (cfg37 (a37 m)).W,
    (datG37 (atTc (U77 m)) (a37 m) (gblk37 (atTc (U77 m)) (a37 m)) c).arrAt w (cfg37 (a37 m)).N = atTc (U78 m) c (Pipeline.arrRef spec37 w)
  | ⟨0, _⟩ => (U78_out m c).symm
  | ⟨_ + 1, h⟩ => absurd h (Nat.not_lt.2 (Nat.le_add_left _ _))
theorem hrest37 (m : (ℓ : Loc nD τ sig) → Buf (Elt F) ℓ) (c : Dev nD) (b : Ref sig .tc) (hb : b ∉ Finset.univ.image (Pipeline.arrRef spec37)) :
    atTc (U78 m) c b = atTc (U77 m) c b := by
  by_cases e : b = main_v89
  · subst e; exact U78_hbm m c
  · exact U78_of_ne m c b (fun e' => hb (Finset.mem_image.mpr ⟨0, Finset.mem_univ _, e'.symm ▸ (by decide : Pipeline.arrRef spec37 0 = main_v120)⟩)) e
/-- The table region 37 is handed is what the buffers hold when it is entered. -/
theorem hpf37 (m : (ℓ : Loc nD τ sig) → Buf (Elt F) ℓ) (c : Dev nD) : (fun k => atTc (U77 m) c (pre37.ref k)) = (a37 m).1 := by
  rw [eq_c₀ c]; rfl
set_option maxHeartbeats 2000000 in
theorem hF38 (m : (ℓ : Loc nD τ sig) → Buf (Elt F) ℓ) (c : Dev nD) : ∀ w : Fin (cfg38 (a38 m)).W,
    (datG38 (atTc (U79 m)) (a38 m) (gblk38 (atTc (U79 m)) (a38 m)) c).arrAt w (cfg38 (a38 m)).N = atTc (U80 m) c (Pipeline.arrRef spec38 w)
  | ⟨0, _⟩ => (U80_out m c).symm
  | ⟨_ + 1, h⟩ => absurd h (Nat.not_lt.2 (Nat.le_add_left _ _))
theorem hrest38 (m : (ℓ : Loc nD τ sig) → Buf (Elt F) ℓ) (c : Dev nD) (b : Ref sig .tc) (hb : b ∉ Finset.univ.image (Pipeline.arrRef spec38)) :
    atTc (U80 m) c b = atTc (U79 m) c b := by
  by_cases e : b = main_v89
  · subst e; exact U80_hbm m c
  · exact U80_of_ne m c b (fun e' => hb (Finset.mem_image.mpr ⟨0, Finset.mem_univ _, e'.symm ▸ (by decide : Pipeline.arrRef spec38 0 = main_v122)⟩)) e
/-- The table region 38 is handed is what the buffers hold when it is entered. -/
theorem hpf38 (m : (ℓ : Loc nD τ sig) → Buf (Elt F) ℓ) (c : Dev nD) : (fun k => atTc (U79 m) c (pre38.ref k)) = (a38 m).1 := by
  rw [eq_c₀ c]; rfl
set_option maxHeartbeats 2000000 in
theorem hF39 (m : (ℓ : Loc nD τ sig) → Buf (Elt F) ℓ) (c : Dev nD) : ∀ w : Fin cfg39.W,
    (dat39 (atTc (U81 m)) c).arrAt w cfg39.N = atTc (U82 m) c (Pipeline.arrRef spec39 w)
  | ⟨0, _⟩ => (((dat39 (atTc (U81 m)) c).arrAt_in 0 rfl _).trans (A_eq39 (atTc (U81 m)) c 0)).trans (U82_of_ne m c _ (by decide : Pipeline.arrRef spec39 0 ≠ main_v127)).symm
  | ⟨1, _⟩ => (((dat39 (atTc (U81 m)) c).arrAt_in 1 rfl _).trans (A_eq39 (atTc (U81 m)) c 1)).trans (U82_of_ne m c _ (by decide : Pipeline.arrRef spec39 1 ≠ main_v127)).symm
  | ⟨2, _⟩ => (((dat39 (atTc (U81 m)) c).arrAt_in 2 rfl _).trans (A_eq39 (atTc (U81 m)) c 2)).trans (U82_of_ne m c _ (by decide : Pipeline.arrRef spec39 2 ≠ main_v127)).symm
  | ⟨3, _⟩ => (((dat39 (atTc (U81 m)) c).arrAt_in 3 rfl _).trans (A_eq39 (atTc (U81 m)) c 3)).trans (U82_of_ne m c _ (by decide : Pipeline.arrRef spec39 3 ≠ main_v127)).symm
  | ⟨4, _⟩ => (((dat39 (atTc (U81 m)) c).arrAt_in 4 rfl _).trans (A_eq39 (atTc (U81 m)) c 4)).trans (U82_of_ne m c _ (by decide : Pipeline.arrRef spec39 4 ≠ main_v127)).symm
  | ⟨5, _⟩ => (U82_out m c).symm
  | ⟨_ + 6, h⟩ => absurd h (Nat.not_lt.2 (Nat.le_add_left _ _))
theorem hrest39 (m : (ℓ : Loc nD τ sig) → Buf (Elt F) ℓ) (c : Dev nD) (b : Ref sig .tc) (hb : b ∉ Finset.univ.image (Pipeline.arrRef spec39)) :
    atTc (U82 m) c b = atTc (U81 m) c b :=
  U82_of_ne m c b fun e => hb (Finset.mem_image.mpr ⟨5, Finset.mem_univ _, e.symm ▸ (by decide : Pipeline.arrRef spec39 5 = main_v127)⟩)

/-! ## The tables and the proof data -/

set_option maxHeartbeats 8000000 in
/-- The tables' admissible contents, pipeline by pipeline. -/
def adm (m : (ℓ : Loc nD τ sig) → Buf (Elt F) ℓ) : (p : Fin 40) → (pcfgs (F := F) p).Adm
  | ⟨0, _⟩ => cfg0.toPCfg_adm
  | ⟨1, _⟩ => a1 m
  | ⟨2, _⟩ => a2 m
  | ⟨3, _⟩ => a3 m
  | ⟨4, _⟩ => a4 m
  | ⟨5, _⟩ => a5 m
  | ⟨6, _⟩ => a6 m
  | ⟨7, _⟩ => a7 m
  | ⟨8, _⟩ => a8 m
  | ⟨9, _⟩ => a9 m
  | ⟨10, _⟩ => a10 m
  | ⟨11, _⟩ => cfg11.toPCfg_adm
  | ⟨12, _⟩ => a12 m
  | ⟨13, _⟩ => a13 m
  | ⟨14, _⟩ => a14 m
  | ⟨15, _⟩ => a15 m
  | ⟨16, _⟩ => a16 m
  | ⟨17, _⟩ => a17 m
  | ⟨18, _⟩ => a18 m
  | ⟨19, _⟩ => a19 m
  | ⟨20, _⟩ => a20 m
  | ⟨21, _⟩ => a21 m
  | ⟨22, _⟩ => cfg22.toPCfg_adm
  | ⟨23, _⟩ => a23 m
  | ⟨24, _⟩ => a24 m
  | ⟨25, _⟩ => a25 m
  | ⟨26, _⟩ => a26 m
  | ⟨27, _⟩ => a27 m
  | ⟨28, _⟩ => a28 m
  | ⟨29, _⟩ => a29 m
  | ⟨30, _⟩ => a30 m
  | ⟨31, _⟩ => a31 m
  | ⟨32, _⟩ => a32 m
  | ⟨33, _⟩ => a33 m
  | ⟨34, _⟩ => a34 m
  | ⟨35, _⟩ => a35 m
  | ⟨36, _⟩ => a36 m
  | ⟨37, _⟩ => a37 m
  | ⟨38, _⟩ => a38 m
  | ⟨39, _⟩ => cfg39.toPCfg_adm
  | ⟨_ + 40, h⟩ => absurd h (Nat.not_lt.2 (Nat.le_add_left _ _))

set_option maxHeartbeats 8000000 in
/-- Every pipeline's proof data, each at its region's entry contents. -/
def pdats (m : (ℓ : Loc nD τ sig) → Buf (Elt F) ℓ) : (p : Fin 40) → (c : Dev nD) → Dat τ (Elt F) Unit ℕ UU ℕ (Pipeline.pin (pcfgs (F := F)) (adm m) p) c
  | ⟨0, _⟩ => fun c => dat0 (atTc (U3 m)) c
  | ⟨1, _⟩ => fun c => datG1 (atTc (U5 m)) (a1 m) (gblk1 (atTc (U5 m)) (a1 m)) c
  | ⟨2, _⟩ => fun c => datG2 (atTc (U7 m)) (a2 m) (gblk2 (atTc (U7 m)) (a2 m)) c
  | ⟨3, _⟩ => fun c => datG3 (atTc (U9 m)) (a3 m) (gblk3 (atTc (U9 m)) (a3 m)) c
  | ⟨4, _⟩ => fun c => datG4 (atTc (U11 m)) (a4 m) (gblk4 (atTc (U11 m)) (a4 m)) c
  | ⟨5, _⟩ => fun c => datG5 (atTc (U13 m)) (a5 m) (gblk5 (atTc (U13 m)) (a5 m)) c
  | ⟨6, _⟩ => fun c => datG6 (atTc (U15 m)) (a6 m) (gblk6 (atTc (U15 m)) (a6 m)) c
  | ⟨7, _⟩ => fun c => datG7 (atTc (U17 m)) (a7 m) (gblk7 (atTc (U17 m)) (a7 m)) c
  | ⟨8, _⟩ => fun c => datG8 (atTc (U19 m)) (a8 m) (gblk8 (atTc (U19 m)) (a8 m)) c
  | ⟨9, _⟩ => fun c => datG9 (atTc (U21 m)) (a9 m) (gblk9 (atTc (U21 m)) (a9 m)) c
  | ⟨10, _⟩ => fun c => datG10 (atTc (U23 m)) (a10 m) (gblk10 (atTc (U23 m)) (a10 m)) c
  | ⟨11, _⟩ => fun c => dat11 (atTc (U25 m)) c
  | ⟨12, _⟩ => fun c => datG12 (atTc (U27 m)) (a12 m) (gblk12 (atTc (U27 m)) (a12 m)) c
  | ⟨13, _⟩ => fun c => datG13 (atTc (U29 m)) (a13 m) (gblk13 (atTc (U29 m)) (a13 m)) c
  | ⟨14, _⟩ => fun c => datG14 (atTc (U31 m)) (a14 m) (gblk14 (atTc (U31 m)) (a14 m)) c
  | ⟨15, _⟩ => fun c => datG15 (atTc (U33 m)) (a15 m) (gblk15 (atTc (U33 m)) (a15 m)) c
  | ⟨16, _⟩ => fun c => datG16 (atTc (U35 m)) (a16 m) (gblk16 (atTc (U35 m)) (a16 m)) c
  | ⟨17, _⟩ => fun c => datG17 (atTc (U37 m)) (a17 m) (gblk17 (atTc (U37 m)) (a17 m)) c
  | ⟨18, _⟩ => fun c => datG18 (atTc (U39 m)) (a18 m) (gblk18 (atTc (U39 m)) (a18 m)) c
  | ⟨19, _⟩ => fun c => datG19 (atTc (U41 m)) (a19 m) (gblk19 (atTc (U41 m)) (a19 m)) c
  | ⟨20, _⟩ => fun c => datG20 (atTc (U43 m)) (a20 m) (gblk20 (atTc (U43 m)) (a20 m)) c
  | ⟨21, _⟩ => fun c => datG21 (atTc (U45 m)) (a21 m) (gblk21 (atTc (U45 m)) (a21 m)) c
  | ⟨22, _⟩ => fun c => dat22 (atTc (U47 m)) c
  | ⟨23, _⟩ => fun c => datG23 (atTc (U49 m)) (a23 m) (gblk23 (atTc (U49 m)) (a23 m)) c
  | ⟨24, _⟩ => fun c => datG24 (atTc (U51 m)) (a24 m) (gblk24 (atTc (U51 m)) (a24 m)) c
  | ⟨25, _⟩ => fun c => datG25 (atTc (U53 m)) (a25 m) (gblk25 (atTc (U53 m)) (a25 m)) c
  | ⟨26, _⟩ => fun c => datG26 (atTc (U55 m)) (a26 m) (gblk26 (atTc (U55 m)) (a26 m)) c
  | ⟨27, _⟩ => fun c => datG27 (atTc (U57 m)) (a27 m) (gblk27 (atTc (U57 m)) (a27 m)) c
  | ⟨28, _⟩ => fun c => datG28 (atTc (U59 m)) (a28 m) (gblk28 (atTc (U59 m)) (a28 m)) c
  | ⟨29, _⟩ => fun c => datG29 (atTc (U61 m)) (a29 m) (gblk29 (atTc (U61 m)) (a29 m)) c
  | ⟨30, _⟩ => fun c => datG30 (atTc (U63 m)) (a30 m) (gblk30 (atTc (U63 m)) (a30 m)) c
  | ⟨31, _⟩ => fun c => datG31 (atTc (U65 m)) (a31 m) (gblk31 (atTc (U65 m)) (a31 m)) c
  | ⟨32, _⟩ => fun c => datG32 (atTc (U67 m)) (a32 m) (gblk32 (atTc (U67 m)) (a32 m)) c
  | ⟨33, _⟩ => fun c => datG33 (atTc (U69 m)) (a33 m) (gblk33 (atTc (U69 m)) (a33 m)) c
  | ⟨34, _⟩ => fun c => datG34 (atTc (U71 m)) (a34 m) (gblk34 (atTc (U71 m)) (a34 m)) c
  | ⟨35, _⟩ => fun c => datG35 (atTc (U73 m)) (a35 m) (gblk35 (atTc (U73 m)) (a35 m)) c
  | ⟨36, _⟩ => fun c => datG36 (atTc (U75 m)) (a36 m) (gblk36 (atTc (U75 m)) (a36 m)) c
  | ⟨37, _⟩ => fun c => datG37 (atTc (U77 m)) (a37 m) (gblk37 (atTc (U77 m)) (a37 m)) c
  | ⟨38, _⟩ => fun c => datG38 (atTc (U79 m)) (a38 m) (gblk38 (atTc (U79 m)) (a38 m)) c
  | ⟨39, _⟩ => fun c => dat39 (atTc (U81 m)) c
  | ⟨_ + 40, h⟩ => absurd h (Nat.not_lt.2 (Nat.le_add_left _ _))

end Cert.Kernel.Hand

end
-- ==== Proof.K.Tables.lean ====
/-
  THE GATHER REGIONS' INDEX TABLES. Each of the 36 row-gather regions reads its row indices from a prefetched table that a
  host slice wrote just before it: 85000 words of the source row followed by the self-loop words 0 … 49999 (regions 1–10
  and 12–21), or 100000 words of the source row (regions 23–30) or of the destination row (regions 31–38). No region and
  no later host operation writes a table's buffer or the vectors it is cut from, so at its region's entry each table is a
  closed term of the launch memory: `tbl<K>_eq`. Read at a position it is the vector it was cut from, further along by
  its chunk's offset: `tbl<K>_apply`. And when every word of the edge table is below 50000, so is every word of every
  table (the self-loop words are below 50000 outright): `tbl<K>_lt`.
-/
import proofs.«402049_j87351044866139_2_alg».proof.Proof.K.RegionsP
import Idealize.ShloMosaic.Lib.Pipeline.Value
import Idealize.ShloMosaic.Lib.StableHlo.Run
import Idealize.ShloMosaic.Lib.ValueLayout

set_option maxRecDepth 1496

noncomputable section

namespace Cert.Kernel.Hand

open Cert.Kernel Cert.Kernel.Gen Cert.Kernel.GenP
open Idealize.ShloMosaic Idealize.ShloMosaic.TcCoe Idealize.ShloMosaic.StableHlo
open Idealize.SL.Sem

variable {F : FTy → Type} [FloatOps F]
variable (m : (ℓ : Loc nD τ sig) → Buf (Elt F) ℓ) (outs : Outs (F := F))

/-- The edge table on core `c` at launch. -/
abbrev edges (c : Dev nD) : IVec S2x800000 32 := V0 m c main_arg1

/-- Row 0 of the edge table as a vector of 800000 words: the slice of the row, its unit axis dropped. -/
def src (c : Dev nD) : IVec S800000 32 :=
  shapeCast S800000 (extractStridedSlice S1x800000 ![0, 0] (edges m c) slices_S2x800000_S1x800000_0_0) shapeCasts_S1x800000_S800000

/-- Row 1 of the edge table, likewise. -/
def dst (c : Dev nD) : IVec S800000 32 :=
  shapeCast S800000 (extractStridedSlice S1x800000 ![1, 0] (edges m c) slices_S2x800000_S1x800000_1_0) shapeCasts_S1x800000_S800000

/-- The source row followed by the 50000 self-loop words 0, 1, …, 49999. -/
def srcSl (c : Dev nD) : IVec S850000 32 :=
  concatenate S850000 0 [⟨S800000, src m c⟩, ⟨S50000, iotaInDim S50000 32 0⟩] concatenates_S800000_S50000_S850000_d0

theorem V1_v1 (c : Dev nD) : (V1 m c main_v1 : IVec S800000 32) = src m c := by
  dsimp only [V1, hostOps0]; after_results; rfl

theorem V1_v3 (c : Dev nD) : (V1 m c main_v3 : IVec S800000 32) = dst m c := by
  dsimp only [V1, hostOps0]; after_results; rfl

theorem V1_v5 (c : Dev nD) : (V1 m c main_v5 : IVec S850000 32) = srcSl m c := by
  dsimp only [V1, hostOps0]; after_results; rfl

/-! ## Reads at a position -/

/-- Word `p` of the source row is the edge table at (0, p). -/
theorem src_apply (c : Dev nD) (p : Fin 800000) : src m c (ValueIdx.ix1 p) = edges m c (ValueIdx.ix2 (0 : Fin 2) p) := by
  unfold src
  rw [ValueIdx.shapeCast_1a_a_apply]
  exact extractStridedSlice_apply _ _ _ _ _ (fun a => match a with | ⟨0, _⟩ => rfl | ⟨1, _⟩ => (Nat.zero_add _).symm)

/-- Word `p` of the destination row is the edge table at (1, p). -/
theorem dst_apply (c : Dev nD) (p : Fin 800000) : dst m c (ValueIdx.ix1 p) = edges m c (ValueIdx.ix2 (1 : Fin 2) p) := by
  unfold dst
  rw [ValueIdx.shapeCast_1a_a_apply]
  exact extractStridedSlice_apply _ _ _ _ _ (fun a => match a with | ⟨0, _⟩ => rfl | ⟨1, _⟩ => (Nat.zero_add _).symm)

/-- Below 800000 the concatenation reads the source row. -/
theorem srcSl_apply_lt (c : Dev nD) (p : Fin 850000) (hp : p.val < 800000) :
    srcSl m c (ValueIdx.ix1 p) = src m c (ValueIdx.ix1 ⟨p.val, hp⟩) := by
  unfold srcSl
  exact concatenate_pair_apply_left (t := S850000) (s₁ := S800000) (s₂ := S50000) 0 _ _ _ _ rfl _
    (fun b => match b with | ⟨0, _⟩ => rfl)

/-- From 800000 on it reads the self-loop words: position p holds p − 800000. -/
theorem srcSl_apply_ge (c : Dev nD) (p : Fin 850000) (hp : 800000 ≤ p.val) :
    srcSl m c (ValueIdx.ix1 p) = BitVec.ofNat 32 (p.val - 800000) := by
  unfold srcSl
  rw [concatenate_pair_apply_right (t := S850000) (s₁ := S800000) (s₂ := S50000) 0 _ _ _ (ValueIdx.ix1 p) rfl rfl
    (ValueIdx.ix1 ⟨p.val - 800000, by have := p.isLt; omega⟩)
    (fun b hb => absurd (Subsingleton.elim _ _) hb) (by show (p.val - 800000) + 800000 = p.val; omega)]
  rfl

/-- A slice of a vector read at position `k` is the vector at `off + k`. -/
theorem slice1_apply {α : Type} {n N : Nat} (off : Nat) (x : (⟨1, ![N]⟩ : Shape).Idx → α)
    (h : (⟨1, ![N]⟩ : Shape).Slices ![off] ⟨1, ![n]⟩) (k : Fin n) (hb : off + k.val < N) :
    extractStridedSlice ⟨1, ![n]⟩ ![off] x h (ValueIdx.ix1 k) = x (ValueIdx.ix1 ⟨off + k.val, hb⟩) :=
  extractStridedSlice_apply _ _ _ _ _ (fun a => match a with | ⟨0, _⟩ => rfl)

/-! ## Every word names a node -/

section Range
variable (c : Dev nD) (hm : ∀ i : S2x800000.Idx, ((V0 m c main_arg1 : IVec S2x800000 32) i).toNat < 50000)
include hm

theorem src_lt (k : S800000.Idx) : (src m c k).toNat < 50000 := by
  obtain ⟨p, rfl⟩ : ∃ p : Fin 800000, k = ValueIdx.ix1 p := ⟨k 0, ValueIdx.eq_ix1 k⟩
  rw [src_apply]; exact hm _

theorem dst_lt (k : S800000.Idx) : (dst m c k).toNat < 50000 := by
  obtain ⟨p, rfl⟩ : ∃ p : Fin 800000, k = ValueIdx.ix1 p := ⟨k 0, ValueIdx.eq_ix1 k⟩
  rw [dst_apply]; exact hm _

theorem srcSl_lt (k : S850000.Idx) : (srcSl m c k).toNat < 50000 := by
  obtain ⟨p, rfl⟩ : ∃ p : Fin 850000, k = ValueIdx.ix1 p := ⟨k 0, ValueIdx.eq_ix1 k⟩
  by_cases hp : p.val < 800000
  · rw [srcSl_apply_lt m c p hp]; exact src_lt m c hm _
  · rw [srcSl_apply_ge m c p (Nat.le_of_not_lt hp), BitVec.toNat_ofNat]
    have := p.isLt; omega

end Range

/-! ## The three vectors reach every region unchanged

No host stretch after the first writes `main_v1`, `main_v3` or `main_v5`, and no region may change them: one step per
valuation, each from the one before. -/

theorem v5_at2 (c : Dev nD) : V2 m c main_v5 = V1 m c main_v5 := V2_of m c main_v5 (by decide)
theorem v5_at3 (c : Dev nD) : V3 m c main_v5 = V1 m c main_v5 := (V3_of m c main_v5 (by decide)).trans (v5_at2 m c)
theorem v5_at4 (c : Dev nD) : V4 m outs c main_v5 = V1 m c main_v5 := (V4_of m outs c main_v5 (by decide)).trans (v5_at3 m c)
theorem v5_at5 (c : Dev nD) : V5 m outs c main_v5 = V1 m c main_v5 := (V5_of m outs c main_v5 (by decide)).trans (v5_at4 m outs c)
theorem v5_at6 (c : Dev nD) : V6 m outs c main_v5 = V1 m c main_v5 := (V6_of m outs c main_v5 (by decide)).trans (v5_at5 m outs c)
theorem v5_at7 (c : Dev nD) : V7 m outs c main_v5 = V1 m c main_v5 := (V7_of m outs c main_v5 (by decide)).trans (v5_at6 m outs c)
theorem v5_at8 (c : Dev nD) : V8 m outs c main_v5 = V1 m c main_v5 := (V8_of m outs c main_v5 (by decide)).trans (v5_at7 m outs c)
theorem v5_at9 (c : Dev nD) : V9 m outs c main_v5 = V1 m c main_v5 := (V9_of m outs c main_v5 (by decide)).trans (v5_at8 m outs c)
theorem v5_at10 (c : Dev nD) : V10 m outs c main_v5 = V1 m c main_v5 := (V10_of m outs c main_v5 (by decide)).trans (v5_at9 m outs c)
theorem v5_at11 (c : Dev nD) : V11 m outs c main_v5 = V1 m c main_v5 := (V11_of m outs c main_v5 (by decide)).trans (v5_at10 m outs c)
theorem v5_at12 (c : Dev nD) : V12 m outs c main_v5 = V1 m c main_v5 := (V12_of m outs c main_v5 (by decide)).trans (v5_at11 m outs c)
theorem v5_at13 (c : Dev nD) : V13 m outs c main_v5 = V1 m c main_v5 := (V13_of m outs c main_v5 (by decide)).trans (v5_at12 m outs c)
theorem v5_at14 (c : Dev nD) : V14 m outs c main_v5 = V1 m c main_v5 := (V14_of m outs c main_v5 (by decide)).trans (v5_at13 m outs c)
theorem v5_at15 (c : Dev nD) : V15 m outs c main_v5 = V1 m c main_v5 := (V15_of m outs c main_v5 (by decide)).trans (v5_at14 m outs c)
theorem v5_at16 (c : Dev nD) : V16 m outs c main_v5 = V1 m c main_v5 := (V16_of m outs c main_v5 (by decide)).trans (v5_at15 m outs c)
theorem v5_at17 (c : Dev nD) : V17 m outs c main_v5 = V1 m c main_v5 := (V17_of m outs c main_v5 (by decide)).trans (v5_at16 m outs c)
theorem v5_at18 (c : Dev nD) : V18 m outs c main_v5 = V1 m c main_v5 := (V18_of m outs c main_v5 (by decide)).trans (v5_at17 m outs c)
theorem v5_at19 (c : Dev nD) : V19 m outs c main_v5 = V1 m c main_v5 := (V19_of m outs c main_v5 (by decide)).trans (v5_at18 m outs c)
theorem v5_at20 (c : Dev nD) : V20 m outs c main_v5 = V1 m c main_v5 := (V20_of m outs c main_v5 (by decide)).trans (v5_at19 m outs c)
theorem v5_at21 (c : Dev nD) : V21 m outs c main_v5 = V1 m c main_v5 := (V21_of m outs c main_v5 (by decide)).trans (v5_at20 m outs c)
theorem v5_at22 (c : Dev nD) : V22 m outs c main_v5 = V1 m c main_v5 := (V22_of m outs c main_v5 (by decide)).trans (v5_at21 m outs c)
theorem v5_at23 (c : Dev nD) : V23 m outs c main_v5 = V1 m c main_v5 := (V23_of m outs c main_v5 (by decide)).trans (v5_at22 m outs c)
theorem v5_at24 (c : Dev nD) : V24 m outs c main_v5 = V1 m c main_v5 := (V24_of m outs c main_v5 (by decide)).trans (v5_at23 m outs c)
theorem v5_at25 (c : Dev nD) : V25 m outs c main_v5 = V1 m c main_v5 := (V25_of m outs c main_v5 (by decide)).trans (v5_at24 m outs c)
theorem v5_at26 (c : Dev nD) : V26 m outs c main_v5 = V1 m c main_v5 := (V26_of m outs c main_v5 (by decide)).trans (v5_at25 m outs c)
theorem v5_at27 (c : Dev nD) : V27 m outs c main_v5 = V1 m c main_v5 := (V27_of m outs c main_v5 (by decide)).trans (v5_at26 m outs c)
theorem v5_at28 (c : Dev nD) : V28 m outs c main_v5 = V1 m c main_v5 := (V28_of m outs c main_v5 (by decide)).trans (v5_at27 m outs c)
theorem v5_at29 (c : Dev nD) : V29 m outs c main_v5 = V1 m c main_v5 := (V29_of m outs c main_v5 (by decide)).trans (v5_at28 m outs c)
theorem v5_at30 (c : Dev nD) : V30 m outs c main_v5 = V1 m c main_v5 := (V30_of m outs c main_v5 (by decide)).trans (v5_at29 m outs c)
theorem v5_at31 (c : Dev nD) : V31 m outs c main_v5 = V1 m c main_v5 := (V31_of m outs c main_v5 (by decide)).trans (v5_at30 m outs c)
theorem v5_at32 (c : Dev nD) : V32 m outs c main_v5 = V1 m c main_v5 := (V32_of m outs c main_v5 (by decide)).trans (v5_at31 m outs c)
theorem v5_at33 (c : Dev nD) : V33 m outs c main_v5 = V1 m c main_v5 := (V33_of m outs c main_v5 (by decide)).trans (v5_at32 m outs c)
theorem v5_at34 (c : Dev nD) : V34 m outs c main_v5 = V1 m c main_v5 := (V34_of m outs c main_v5 (by decide)).trans (v5_at33 m outs c)
theorem v5_at35 (c : Dev nD) : V35 m outs c main_v5 = V1 m c main_v5 := (V35_of m outs c main_v5 (by decide)).trans (v5_at34 m outs c)
theorem v5_at36 (c : Dev nD) : V36 m outs c main_v5 = V1 m c main_v5 := (V36_of m outs c main_v5 (by decide)).trans (v5_at35 m outs c)
theorem v5_at37 (c : Dev nD) : V37 m outs c main_v5 = V1 m c main_v5 := (V37_of m outs c main_v5 (by decide)).trans (v5_at36 m outs c)
theorem v5_at38 (c : Dev nD) : V38 m outs c main_v5 = V1 m c main_v5 := (V38_of m outs c main_v5 (by decide)).trans (v5_at37 m outs c)
theorem v5_at39 (c : Dev nD) : V39 m outs c main_v5 = V1 m c main_v5 := (V39_of m outs c main_v5 (by decide)).trans (v5_at38 m outs c)
theorem v5_at40 (c : Dev nD) : V40 m outs c main_v5 = V1 m c main_v5 := (V40_of m outs c main_v5 (by decide)).trans (v5_at39 m outs c)
theorem v5_at41 (c : Dev nD) : V41 m outs c main_v5 = V1 m c main_v5 := (V41_of m outs c main_v5 (by decide)).trans (v5_at40 m outs c)
theorem v5_at42 (c : Dev nD) : V42 m outs c main_v5 = V1 m c main_v5 := (V42_of m outs c main_v5 (by decide)).trans (v5_at41 m outs c)
theorem v5_at43 (c : Dev nD) : V43 m outs c main_v5 = V1 m c main_v5 := (V43_of m outs c main_v5 (by decide)).trans (v5_at42 m outs c)
theorem v5_at44 (c : Dev nD) : V44 m outs c main_v5 = V1 m c main_v5 := (V44_of m outs c main_v5 (by decide)).trans (v5_at43 m outs c)
theorem v1_at2 (c : Dev nD) : V2 m c main_v1 = V1 m c main_v1 := V2_of m c main_v1 (by decide)
theorem v1_at3 (c : Dev nD) : V3 m c main_v1 = V1 m c main_v1 := (V3_of m c main_v1 (by decide)).trans (v1_at2 m c)
theorem v1_at4 (c : Dev nD) : V4 m outs c main_v1 = V1 m c main_v1 := (V4_of m outs c main_v1 (by decide)).trans (v1_at3 m c)
theorem v1_at5 (c : Dev nD) : V5 m outs c main_v1 = V1 m c main_v1 := (V5_of m outs c main_v1 (by decide)).trans (v1_at4 m outs c)
theorem v1_at6 (c : Dev nD) : V6 m outs c main_v1 = V1 m c main_v1 := (V6_of m outs c main_v1 (by decide)).trans (v1_at5 m outs c)
theorem v1_at7 (c : Dev nD) : V7 m outs c main_v1 = V1 m c main_v1 := (V7_of m outs c main_v1 (by decide)).trans (v1_at6 m outs c)
theorem v1_at8 (c : Dev nD) : V8 m outs c main_v1 = V1 m c main_v1 := (V8_of m outs c main_v1 (by decide)).trans (v1_at7 m outs c)
theorem v1_at9 (c : Dev nD) : V9 m outs c main_v1 = V1 m c main_v1 := (V9_of m outs c main_v1 (by decide)).trans (v1_at8 m outs c)
theorem v1_at10 (c : Dev nD) : V10 m outs c main_v1 = V1 m c main_v1 := (V10_of m outs c main_v1 (by decide)).trans (v1_at9 m outs c)
theorem v1_at11 (c : Dev nD) : V11 m outs c main_v1 = V1 m c main_v1 := (V11_of m outs c main_v1 (by decide)).trans (v1_at10 m outs c)
theorem v1_at12 (c : Dev nD) : V12 m outs c main_v1 = V1 m c main_v1 := (V12_of m outs c main_v1 (by decide)).trans (v1_at11 m outs c)
theorem v1_at13 (c : Dev nD) : V13 m outs c main_v1 = V1 m c main_v1 := (V13_of m outs c main_v1 (by decide)).trans (v1_at12 m outs c)
theorem v1_at14 (c : Dev nD) : V14 m outs c main_v1 = V1 m c main_v1 := (V14_of m outs c main_v1 (by decide)).trans (v1_at13 m outs c)
theorem v1_at15 (c : Dev nD) : V15 m outs c main_v1 = V1 m c main_v1 := (V15_of m outs c main_v1 (by decide)).trans (v1_at14 m outs c)
theorem v1_at16 (c : Dev nD) : V16 m outs c main_v1 = V1 m c main_v1 := (V16_of m outs c main_v1 (by decide)).trans (v1_at15 m outs c)
theorem v1_at17 (c : Dev nD) : V17 m outs c main_v1 = V1 m c main_v1 := (V17_of m outs c main_v1 (by decide)).trans (v1_at16 m outs c)
theorem v1_at18 (c : Dev nD) : V18 m outs c main_v1 = V1 m c main_v1 := (V18_of m outs c main_v1 (by decide)).trans (v1_at17 m outs c)
theorem v1_at19 (c : Dev nD) : V19 m outs c main_v1 = V1 m c main_v1 := (V19_of m outs c main_v1 (by decide)).trans (v1_at18 m outs c)
theorem v1_at20 (c : Dev nD) : V20 m outs c main_v1 = V1 m c main_v1 := (V20_of m outs c main_v1 (by decide)).trans (v1_at19 m outs c)
theorem v1_at21 (c : Dev nD) : V21 m outs c main_v1 = V1 m c main_v1 := (V21_of m outs c main_v1 (by decide)).trans (v1_at20 m outs c)
theorem v1_at22 (c : Dev nD) : V22 m outs c main_v1 = V1 m c main_v1 := (V22_of m outs c main_v1 (by decide)).trans (v1_at21 m outs c)
theorem v1_at23 (c : Dev nD) : V23 m outs c main_v1 = V1 m c main_v1 := (V23_of m outs c main_v1 (by decide)).trans (v1_at22 m outs c)
theorem v1_at24 (c : Dev nD) : V24 m outs c main_v1 = V1 m c main_v1 := (V24_of m outs c main_v1 (by decide)).trans (v1_at23 m outs c)
theorem v1_at25 (c : Dev nD) : V25 m outs c main_v1 = V1 m c main_v1 := (V25_of m outs c main_v1 (by decide)).trans (v1_at24 m outs c)
theorem v1_at26 (c : Dev nD) : V26 m outs c main_v1 = V1 m c main_v1 := (V26_of m outs c main_v1 (by decide)).trans (v1_at25 m outs c)
theorem v1_at27 (c : Dev nD) : V27 m outs c main_v1 = V1 m c main_v1 := (V27_of m outs c main_v1 (by decide)).trans (v1_at26 m outs c)
theorem v1_at28 (c : Dev nD) : V28 m outs c main_v1 = V1 m c main_v1 := (V28_of m outs c main_v1 (by decide)).trans (v1_at27 m outs c)
theorem v1_at29 (c : Dev nD) : V29 m outs c main_v1 = V1 m c main_v1 := (V29_of m outs c main_v1 (by decide)).trans (v1_at28 m outs c)
theorem v1_at30 (c : Dev nD) : V30 m outs c main_v1 = V1 m c main_v1 := (V30_of m outs c main_v1 (by decide)).trans (v1_at29 m outs c)
theorem v1_at31 (c : Dev nD) : V31 m outs c main_v1 = V1 m c main_v1 := (V31_of m outs c main_v1 (by decide)).trans (v1_at30 m outs c)
theorem v1_at32 (c : Dev nD) : V32 m outs c main_v1 = V1 m c main_v1 := (V32_of m outs c main_v1 (by decide)).trans (v1_at31 m outs c)
theorem v1_at33 (c : Dev nD) : V33 m outs c main_v1 = V1 m c main_v1 := (V33_of m outs c main_v1 (by decide)).trans (v1_at32 m outs c)
theorem v1_at34 (c : Dev nD) : V34 m outs c main_v1 = V1 m c main_v1 := (V34_of m outs c main_v1 (by decide)).trans (v1_at33 m outs c)
theorem v1_at35 (c : Dev nD) : V35 m outs c main_v1 = V1 m c main_v1 := (V35_of m outs c main_v1 (by decide)).trans (v1_at34 m outs c)
theorem v1_at36 (c : Dev nD) : V36 m outs c main_v1 = V1 m c main_v1 := (V36_of m outs c main_v1 (by decide)).trans (v1_at35 m outs c)
theorem v1_at37 (c : Dev nD) : V37 m outs c main_v1 = V1 m c main_v1 := (V37_of m outs c main_v1 (by decide)).trans (v1_at36 m outs c)
theorem v1_at38 (c : Dev nD) : V38 m outs c main_v1 = V1 m c main_v1 := (V38_of m outs c main_v1 (by decide)).trans (v1_at37 m outs c)
theorem v1_at39 (c : Dev nD) : V39 m outs c main_v1 = V1 m c main_v1 := (V39_of m outs c main_v1 (by decide)).trans (v1_at38 m outs c)
theorem v1_at40 (c : Dev nD) : V40 m outs c main_v1 = V1 m c main_v1 := (V40_of m outs c main_v1 (by decide)).trans (v1_at39 m outs c)
theorem v1_at41 (c : Dev nD) : V41 m outs c main_v1 = V1 m c main_v1 := (V41_of m outs c main_v1 (by decide)).trans (v1_at40 m outs c)
theorem v1_at42 (c : Dev nD) : V42 m outs c main_v1 = V1 m c main_v1 := (V42_of m outs c main_v1 (by decide)).trans (v1_at41 m outs c)
theorem v1_at43 (c : Dev nD) : V43 m outs c main_v1 = V1 m c main_v1 := (V43_of m outs c main_v1 (by decide)).trans (v1_at42 m outs c)
theorem v1_at44 (c : Dev nD) : V44 m outs c main_v1 = V1 m c main_v1 := (V44_of m outs c main_v1 (by decide)).trans (v1_at43 m outs c)
theorem v1_at45 (c : Dev nD) : V45 m outs c main_v1 = V1 m c main_v1 := (V45_of m outs c main_v1 (by decide)).trans (v1_at44 m outs c)
theorem v1_at46 (c : Dev nD) : V46 m outs c main_v1 = V1 m c main_v1 := (V46_of m outs c main_v1 (by decide)).trans (v1_at45 m outs c)
theorem v1_at47 (c : Dev nD) : V47 m outs c main_v1 = V1 m c main_v1 := (V47_of m outs c main_v1 (by decide)).trans (v1_at46 m outs c)
theorem v1_at48 (c : Dev nD) : V48 m outs c main_v1 = V1 m c main_v1 := (V48_of m outs c main_v1 (by decide)).trans (v1_at47 m outs c)
theorem v1_at49 (c : Dev nD) : V49 m outs c main_v1 = V1 m c main_v1 := (V49_of m outs c main_v1 (by decide)).trans (v1_at48 m outs c)
theorem v1_at50 (c : Dev nD) : V50 m outs c main_v1 = V1 m c main_v1 := (V50_of m outs c main_v1 (by decide)).trans (v1_at49 m outs c)
theorem v1_at51 (c : Dev nD) : V51 m outs c main_v1 = V1 m c main_v1 := (V51_of m outs c main_v1 (by decide)).trans (v1_at50 m outs c)
theorem v1_at52 (c : Dev nD) : V52 m outs c main_v1 = V1 m c main_v1 := (V52_of m outs c main_v1 (by decide)).trans (v1_at51 m outs c)
theorem v1_at53 (c : Dev nD) : V53 m outs c main_v1 = V1 m c main_v1 := (V53_of m outs c main_v1 (by decide)).trans (v1_at52 m outs c)
theorem v1_at54 (c : Dev nD) : V54 m outs c main_v1 = V1 m c main_v1 := (V54_of m outs c main_v1 (by decide)).trans (v1_at53 m outs c)
theorem v1_at55 (c : Dev nD) : V55 m outs c main_v1 = V1 m c main_v1 := (V55_of m outs c main_v1 (by decide)).trans (v1_at54 m outs c)
theorem v1_at56 (c : Dev nD) : V56 m outs c main_v1 = V1 m c main_v1 := (V56_of m outs c main_v1 (by decide)).trans (v1_at55 m outs c)
theorem v1_at57 (c : Dev nD) : V57 m outs c main_v1 = V1 m c main_v1 := (V57_of m outs c main_v1 (by decide)).trans (v1_at56 m outs c)
theorem v1_at58 (c : Dev nD) : V58 m outs c main_v1 = V1 m c main_v1 := (V58_of m outs c main_v1 (by decide)).trans (v1_at57 m outs c)
theorem v1_at59 (c : Dev nD) : V59 m outs c main_v1 = V1 m c main_v1 := (V59_of m outs c main_v1 (by decide)).trans (v1_at58 m outs c)
theorem v1_at60 (c : Dev nD) : V60 m outs c main_v1 = V1 m c main_v1 := (V60_of m outs c main_v1 (by decide)).trans (v1_at59 m outs c)
theorem v1_at61 (c : Dev nD) : V61 m outs c main_v1 = V1 m c main_v1 := (V61_of m outs c main_v1 (by decide)).trans (v1_at60 m outs c)
theorem v1_at62 (c : Dev nD) : V62 m outs c main_v1 = V1 m c main_v1 := (V62_of m outs c main_v1 (by decide)).trans (v1_at61 m outs c)
theorem v3_at2 (c : Dev nD) : V2 m c main_v3 = V1 m c main_v3 := V2_of m c main_v3 (by decide)
theorem v3_at3 (c : Dev nD) : V3 m c main_v3 = V1 m c main_v3 := (V3_of m c main_v3 (by decide)).trans (v3_at2 m c)
theorem v3_at4 (c : Dev nD) : V4 m outs c main_v3 = V1 m c main_v3 := (V4_of m outs c main_v3 (by decide)).trans (v3_at3 m c)
theorem v3_at5 (c : Dev nD) : V5 m outs c main_v3 = V1 m c main_v3 := (V5_of m outs c main_v3 (by decide)).trans (v3_at4 m outs c)
theorem v3_at6 (c : Dev nD) : V6 m outs c main_v3 = V1 m c main_v3 := (V6_of m outs c main_v3 (by decide)).trans (v3_at5 m outs c)
theorem v3_at7 (c : Dev nD) : V7 m outs c main_v3 = V1 m c main_v3 := (V7_of m outs c main_v3 (by decide)).trans (v3_at6 m outs c)
theorem v3_at8 (c : Dev nD) : V8 m outs c main_v3 = V1 m c main_v3 := (V8_of m outs c main_v3 (by decide)).trans (v3_at7 m outs c)
theorem v3_at9 (c : Dev nD) : V9 m outs c main_v3 = V1 m c main_v3 := (V9_of m outs c main_v3 (by decide)).trans (v3_at8 m outs c)
theorem v3_at10 (c : Dev nD) : V10 m outs c main_v3 = V1 m c main_v3 := (V10_of m outs c main_v3 (by decide)).trans (v3_at9 m outs c)
theorem v3_at11 (c : Dev nD) : V11 m outs c main_v3 = V1 m c main_v3 := (V11_of m outs c main_v3 (by decide)).trans (v3_at10 m outs c)
theorem v3_at12 (c : Dev nD) : V12 m outs c main_v3 = V1 m c main_v3 := (V12_of m outs c main_v3 (by decide)).trans (v3_at11 m outs c)
theorem v3_at13 (c : Dev nD) : V13 m outs c main_v3 = V1 m c main_v3 := (V13_of m outs c main_v3 (by decide)).trans (v3_at12 m outs c)
theorem v3_at14 (c : Dev nD) : V14 m outs c main_v3 = V1 m c main_v3 := (V14_of m outs c main_v3 (by decide)).trans (v3_at13 m outs c)
theorem v3_at15 (c : Dev nD) : V15 m outs c main_v3 = V1 m c main_v3 := (V15_of m outs c main_v3 (by decide)).trans (v3_at14 m outs c)
theorem v3_at16 (c : Dev nD) : V16 m outs c main_v3 = V1 m c main_v3 := (V16_of m outs c main_v3 (by decide)).trans (v3_at15 m outs c)
theorem v3_at17 (c : Dev nD) : V17 m outs c main_v3 = V1 m c main_v3 := (V17_of m outs c main_v3 (by decide)).trans (v3_at16 m outs c)
theorem v3_at18 (c : Dev nD) : V18 m outs c main_v3 = V1 m c main_v3 := (V18_of m outs c main_v3 (by decide)).trans (v3_at17 m outs c)
theorem v3_at19 (c : Dev nD) : V19 m outs c main_v3 = V1 m c main_v3 := (V19_of m outs c main_v3 (by decide)).trans (v3_at18 m outs c)
theorem v3_at20 (c : Dev nD) : V20 m outs c main_v3 = V1 m c main_v3 := (V20_of m outs c main_v3 (by decide)).trans (v3_at19 m outs c)
theorem v3_at21 (c : Dev nD) : V21 m outs c main_v3 = V1 m c main_v3 := (V21_of m outs c main_v3 (by decide)).trans (v3_at20 m outs c)
theorem v3_at22 (c : Dev nD) : V22 m outs c main_v3 = V1 m c main_v3 := (V22_of m outs c main_v3 (by decide)).trans (v3_at21 m outs c)
theorem v3_at23 (c : Dev nD) : V23 m outs c main_v3 = V1 m c main_v3 := (V23_of m outs c main_v3 (by decide)).trans (v3_at22 m outs c)
theorem v3_at24 (c : Dev nD) : V24 m outs c main_v3 = V1 m c main_v3 := (V24_of m outs c main_v3 (by decide)).trans (v3_at23 m outs c)
theorem v3_at25 (c : Dev nD) : V25 m outs c main_v3 = V1 m c main_v3 := (V25_of m outs c main_v3 (by decide)).trans (v3_at24 m outs c)
theorem v3_at26 (c : Dev nD) : V26 m outs c main_v3 = V1 m c main_v3 := (V26_of m outs c main_v3 (by decide)).trans (v3_at25 m outs c)
theorem v3_at27 (c : Dev nD) : V27 m outs c main_v3 = V1 m c main_v3 := (V27_of m outs c main_v3 (by decide)).trans (v3_at26 m outs c)
theorem v3_at28 (c : Dev nD) : V28 m outs c main_v3 = V1 m c main_v3 := (V28_of m outs c main_v3 (by decide)).trans (v3_at27 m outs c)
theorem v3_at29 (c : Dev nD) : V29 m outs c main_v3 = V1 m c main_v3 := (V29_of m outs c main_v3 (by decide)).trans (v3_at28 m outs c)
theorem v3_at30 (c : Dev nD) : V30 m outs c main_v3 = V1 m c main_v3 := (V30_of m outs c main_v3 (by decide)).trans (v3_at29 m outs c)
theorem v3_at31 (c : Dev nD) : V31 m outs c main_v3 = V1 m c main_v3 := (V31_of m outs c main_v3 (by decide)).trans (v3_at30 m outs c)
theorem v3_at32 (c : Dev nD) : V32 m outs c main_v3 = V1 m c main_v3 := (V32_of m outs c main_v3 (by decide)).trans (v3_at31 m outs c)
theorem v3_at33 (c : Dev nD) : V33 m outs c main_v3 = V1 m c main_v3 := (V33_of m outs c main_v3 (by decide)).trans (v3_at32 m outs c)
theorem v3_at34 (c : Dev nD) : V34 m outs c main_v3 = V1 m c main_v3 := (V34_of m outs c main_v3 (by decide)).trans (v3_at33 m outs c)
theorem v3_at35 (c : Dev nD) : V35 m outs c main_v3 = V1 m c main_v3 := (V35_of m outs c main_v3 (by decide)).trans (v3_at34 m outs c)
theorem v3_at36 (c : Dev nD) : V36 m outs c main_v3 = V1 m c main_v3 := (V36_of m outs c main_v3 (by decide)).trans (v3_at35 m outs c)
theorem v3_at37 (c : Dev nD) : V37 m outs c main_v3 = V1 m c main_v3 := (V37_of m outs c main_v3 (by decide)).trans (v3_at36 m outs c)
theorem v3_at38 (c : Dev nD) : V38 m outs c main_v3 = V1 m c main_v3 := (V38_of m outs c main_v3 (by decide)).trans (v3_at37 m outs c)
theorem v3_at39 (c : Dev nD) : V39 m outs c main_v3 = V1 m c main_v3 := (V39_of m outs c main_v3 (by decide)).trans (v3_at38 m outs c)
theorem v3_at40 (c : Dev nD) : V40 m outs c main_v3 = V1 m c main_v3 := (V40_of m outs c main_v3 (by decide)).trans (v3_at39 m outs c)
theorem v3_at41 (c : Dev nD) : V41 m outs c main_v3 = V1 m c main_v3 := (V41_of m outs c main_v3 (by decide)).trans (v3_at40 m outs c)
theorem v3_at42 (c : Dev nD) : V42 m outs c main_v3 = V1 m c main_v3 := (V42_of m outs c main_v3 (by decide)).trans (v3_at41 m outs c)
theorem v3_at43 (c : Dev nD) : V43 m outs c main_v3 = V1 m c main_v3 := (V43_of m outs c main_v3 (by decide)).trans (v3_at42 m outs c)
theorem v3_at44 (c : Dev nD) : V44 m outs c main_v3 = V1 m c main_v3 := (V44_of m outs c main_v3 (by decide)).trans (v3_at43 m outs c)
theorem v3_at45 (c : Dev nD) : V45 m outs c main_v3 = V1 m c main_v3 := (V45_of m outs c main_v3 (by decide)).trans (v3_at44 m outs c)
theorem v3_at46 (c : Dev nD) : V46 m outs c main_v3 = V1 m c main_v3 := (V46_of m outs c main_v3 (by decide)).trans (v3_at45 m outs c)
theorem v3_at47 (c : Dev nD) : V47 m outs c main_v3 = V1 m c main_v3 := (V47_of m outs c main_v3 (by decide)).trans (v3_at46 m outs c)
theorem v3_at48 (c : Dev nD) : V48 m outs c main_v3 = V1 m c main_v3 := (V48_of m outs c main_v3 (by decide)).trans (v3_at47 m outs c)
theorem v3_at49 (c : Dev nD) : V49 m outs c main_v3 = V1 m c main_v3 := (V49_of m outs c main_v3 (by decide)).trans (v3_at48 m outs c)
theorem v3_at50 (c : Dev nD) : V50 m outs c main_v3 = V1 m c main_v3 := (V50_of m outs c main_v3 (by decide)).trans (v3_at49 m outs c)
theorem v3_at51 (c : Dev nD) : V51 m outs c main_v3 = V1 m c main_v3 := (V51_of m outs c main_v3 (by decide)).trans (v3_at50 m outs c)
theorem v3_at52 (c : Dev nD) : V52 m outs c main_v3 = V1 m c main_v3 := (V52_of m outs c main_v3 (by decide)).trans (v3_at51 m outs c)
theorem v3_at53 (c : Dev nD) : V53 m outs c main_v3 = V1 m c main_v3 := (V53_of m outs c main_v3 (by decide)).trans (v3_at52 m outs c)
theorem v3_at54 (c : Dev nD) : V54 m outs c main_v3 = V1 m c main_v3 := (V54_of m outs c main_v3 (by decide)).trans (v3_at53 m outs c)
theorem v3_at55 (c : Dev nD) : V55 m outs c main_v3 = V1 m c main_v3 := (V55_of m outs c main_v3 (by decide)).trans (v3_at54 m outs c)
theorem v3_at56 (c : Dev nD) : V56 m outs c main_v3 = V1 m c main_v3 := (V56_of m outs c main_v3 (by decide)).trans (v3_at55 m outs c)
theorem v3_at57 (c : Dev nD) : V57 m outs c main_v3 = V1 m c main_v3 := (V57_of m outs c main_v3 (by decide)).trans (v3_at56 m outs c)
theorem v3_at58 (c : Dev nD) : V58 m outs c main_v3 = V1 m c main_v3 := (V58_of m outs c main_v3 (by decide)).trans (v3_at57 m outs c)
theorem v3_at59 (c : Dev nD) : V59 m outs c main_v3 = V1 m c main_v3 := (V59_of m outs c main_v3 (by decide)).trans (v3_at58 m outs c)
theorem v3_at60 (c : Dev nD) : V60 m outs c main_v3 = V1 m c main_v3 := (V60_of m outs c main_v3 (by decide)).trans (v3_at59 m outs c)
theorem v3_at61 (c : Dev nD) : V61 m outs c main_v3 = V1 m c main_v3 := (V61_of m outs c main_v3 (by decide)).trans (v3_at60 m outs c)
theorem v3_at62 (c : Dev nD) : V62 m outs c main_v3 = V1 m c main_v3 := (V62_of m outs c main_v3 (by decide)).trans (v3_at61 m outs c)
theorem v3_at63 (c : Dev nD) : V63 m outs c main_v3 = V1 m c main_v3 := (V63_of m outs c main_v3 (by decide)).trans (v3_at62 m outs c)
theorem v3_at64 (c : Dev nD) : V64 m outs c main_v3 = V1 m c main_v3 := (V64_of m outs c main_v3 (by decide)).trans (v3_at63 m outs c)
theorem v3_at65 (c : Dev nD) : V65 m outs c main_v3 = V1 m c main_v3 := (V65_of m outs c main_v3 (by decide)).trans (v3_at64 m outs c)
theorem v3_at66 (c : Dev nD) : V66 m outs c main_v3 = V1 m c main_v3 := (V66_of m outs c main_v3 (by decide)).trans (v3_at65 m outs c)
theorem v3_at67 (c : Dev nD) : V67 m outs c main_v3 = V1 m c main_v3 := (V67_of m outs c main_v3 (by decide)).trans (v3_at66 m outs c)
theorem v3_at68 (c : Dev nD) : V68 m outs c main_v3 = V1 m c main_v3 := (V68_of m outs c main_v3 (by decide)).trans (v3_at67 m outs c)
theorem v3_at69 (c : Dev nD) : V69 m outs c main_v3 = V1 m c main_v3 := (V69_of m outs c main_v3 (by decide)).trans (v3_at68 m outs c)
theorem v3_at70 (c : Dev nD) : V70 m outs c main_v3 = V1 m c main_v3 := (V70_of m outs c main_v3 (by decide)).trans (v3_at69 m outs c)
theorem v3_at71 (c : Dev nD) : V71 m outs c main_v3 = V1 m c main_v3 := (V71_of m outs c main_v3 (by decide)).trans (v3_at70 m outs c)
theorem v3_at72 (c : Dev nD) : V72 m outs c main_v3 = V1 m c main_v3 := (V72_of m outs c main_v3 (by decide)).trans (v3_at71 m outs c)
theorem v3_at73 (c : Dev nD) : V73 m outs c main_v3 = V1 m c main_v3 := (V73_of m outs c main_v3 (by decide)).trans (v3_at72 m outs c)
theorem v3_at74 (c : Dev nD) : V74 m outs c main_v3 = V1 m c main_v3 := (V74_of m outs c main_v3 (by decide)).trans (v3_at73 m outs c)
theorem v3_at75 (c : Dev nD) : V75 m outs c main_v3 = V1 m c main_v3 := (V75_of m outs c main_v3 (by decide)).trans (v3_at74 m outs c)
theorem v3_at76 (c : Dev nD) : V76 m outs c main_v3 = V1 m c main_v3 := (V76_of m outs c main_v3 (by decide)).trans (v3_at75 m outs c)
theorem v3_at77 (c : Dev nD) : V77 m outs c main_v3 = V1 m c main_v3 := (V77_of m outs c main_v3 (by decide)).trans (v3_at76 m outs c)
theorem v3_at78 (c : Dev nD) : V78 m outs c main_v3 = V1 m c main_v3 := (V78_of m outs c main_v3 (by decide)).trans (v3_at77 m outs c)

/-! ## Region 1 -/

/-- What region 1's index table holds: words 0 … 84999 of the source row with self-loops. -/
def tbl1 (c : Dev nD) : IVec S85000 32 := extractStridedSlice S85000 ![0] (srcSl m c) slices_S850000_S85000_0

theorem tbl1_eq (c : Dev nD) : (V5 m outs c main_v34 : IVec S85000 32) = tbl1 m c := by
  have e : (V5 m outs c main_v34 : IVec S85000 32)
      = extractStridedSlice S85000 ![0] (V4 m outs c main_v5 : IVec S850000 32) slices_S850000_S85000_0 := by
    dsimp only [V5, hostOps1]; after_results <;> rfl
  rw [e, v5_at4, V1_v5]; rfl

theorem tbl1_apply (c : Dev nD) (k : Fin 85000) :
    tbl1 m c (ValueIdx.ix1 k) = srcSl m c (ValueIdx.ix1 ⟨0 + k.val, by have := k.isLt; omega⟩) :=
  slice1_apply 0 _ _ k _

theorem tbl1_lt (c : Dev nD) (hm : ∀ i : S2x800000.Idx, ((V0 m c main_arg1 : IVec S2x800000 32) i).toNat < 50000) :
    ∀ k, (tbl1 m c k).toNat < 50000 := by
  intro k
  obtain ⟨p, rfl⟩ : ∃ p : Fin 85000, k = ValueIdx.ix1 p := ⟨k 0, ValueIdx.eq_ix1 k⟩
  rw [tbl1_apply]; exact srcSl_lt m c hm _

/-! ## Region 2 -/

/-- What region 2's index table holds: words 85000 … 169999 of the source row with self-loops. -/
def tbl2 (c : Dev nD) : IVec S85000 32 := extractStridedSlice S85000 ![85000] (srcSl m c) slices_S850000_S85000_85000

theorem tbl2_eq (c : Dev nD) : (V7 m outs c main_v36 : IVec S85000 32) = tbl2 m c := by
  have e : (V7 m outs c main_v36 : IVec S85000 32)
      = extractStridedSlice S85000 ![85000] (V6 m outs c main_v5 : IVec S850000 32) slices_S850000_S85000_85000 := by
    dsimp only [V7, hostOps2]; after_results <;> rfl
  rw [e, v5_at6, V1_v5]; rfl

theorem tbl2_apply (c : Dev nD) (k : Fin 85000) :
    tbl2 m c (ValueIdx.ix1 k) = srcSl m c (ValueIdx.ix1 ⟨85000 + k.val, by have := k.isLt; omega⟩) :=
  slice1_apply 85000 _ _ k _

theorem tbl2_lt (c : Dev nD) (hm : ∀ i : S2x800000.Idx, ((V0 m c main_arg1 : IVec S2x800000 32) i).toNat < 50000) :
    ∀ k, (tbl2 m c k).toNat < 50000 := by
  intro k
  obtain ⟨p, rfl⟩ : ∃ p : Fin 85000, k = ValueIdx.ix1 p := ⟨k 0, ValueIdx.eq_ix1 k⟩
  rw [tbl2_apply]; exact srcSl_lt m c hm _

/-! ## Region 3 -/

/-- What region 3's index table holds: words 170000 … 254999 of the source row with self-loops. -/
def tbl3 (c : Dev nD) : IVec S85000 32 := extractStridedSlice S85000 ![170000] (srcSl m c) slices_S850000_S85000_170000

theorem tbl3_eq (c : Dev nD) : (V9 m outs c main_v38 : IVec S85000 32) = tbl3 m c := by
  have e : (V9 m outs c main_v38 : IVec S85000 32)
      = extractStridedSlice S85000 ![170000] (V8 m outs c main_v5 : IVec S850000 32) slices_S850000_S85000_170000 := by
    dsimp only [V9, hostOps3]; after_results <;> rfl
  rw [e, v5_at8, V1_v5]; rfl

theorem tbl3_apply (c : Dev nD) (k : Fin 85000) :
    tbl3 m c (ValueIdx.ix1 k) = srcSl m c (ValueIdx.ix1 ⟨170000 + k.val, by have := k.isLt; omega⟩) :=
  slice1_apply 170000 _ _ k _

theorem tbl3_lt (c : Dev nD) (hm : ∀ i : S2x800000.Idx, ((V0 m c main_arg1 : IVec S2x800000 32) i).toNat < 50000) :
    ∀ k, (tbl3 m c k).toNat < 50000 := by
  intro k
  obtain ⟨p, rfl⟩ : ∃ p : Fin 85000, k = ValueIdx.ix1 p := ⟨k 0, ValueIdx.eq_ix1 k⟩
  rw [tbl3_apply]; exact srcSl_lt m c hm _

/-! ## Region 4 -/

/-- What region 4's index table holds: words 255000 … 339999 of the source row with self-loops. -/
def tbl4 (c : Dev nD) : IVec S85000 32 := extractStridedSlice S85000 ![255000] (srcSl m c) slices_S850000_S85000_255000

theorem tbl4_eq (c : Dev nD) : (V11 m outs c main_v40 : IVec S85000 32) = tbl4 m c := by
  have e : (V11 m outs c main_v40 : IVec S85000 32)
      = extractStridedSlice S85000 ![255000] (V10 m outs c main_v5 : IVec S850000 32) slices_S850000_S85000_255000 := by
    dsimp only [V11, hostOps4]; after_results <;> rfl
  rw [e, v5_at10, V1_v5]; rfl

theorem tbl4_apply (c : Dev nD) (k : Fin 85000) :
    tbl4 m c (ValueIdx.ix1 k) = srcSl m c (ValueIdx.ix1 ⟨255000 + k.val, by have := k.isLt; omega⟩) :=
  slice1_apply 255000 _ _ k _

theorem tbl4_lt (c : Dev nD) (hm : ∀ i : S2x800000.Idx, ((V0 m c main_arg1 : IVec S2x800000 32) i).toNat < 50000) :
    ∀ k, (tbl4 m c k).toNat < 50000 := by
  intro k
  obtain ⟨p, rfl⟩ : ∃ p : Fin 85000, k = ValueIdx.ix1 p := ⟨k 0, ValueIdx.eq_ix1 k⟩
  rw [tbl4_apply]; exact srcSl_lt m c hm _

/-! ## Region 5 -/

/-- What region 5's index table holds: words 340000 … 424999 of the source row with self-loops. -/
def tbl5 (c : Dev nD) : IVec S85000 32 := extractStridedSlice S85000 ![340000] (srcSl m c) slices_S850000_S85000_340000

theorem tbl5_eq (c : Dev nD) : (V13 m outs c main_v42 : IVec S85000 32) = tbl5 m c := by
  have e : (V13 m outs c main_v42 : IVec S85000 32)
      = extractStridedSlice S85000 ![340000] (V12 m outs c main_v5 : IVec S850000 32) slices_S850000_S85000_340000 := by
    dsimp only [V13, hostOps5]; after_results <;> rfl
  rw [e, v5_at12, V1_v5]; rfl

theorem tbl5_apply (c : Dev nD) (k : Fin 85000) :
    tbl5 m c (ValueIdx.ix1 k) = srcSl m c (ValueIdx.ix1 ⟨340000 + k.val, by have := k.isLt; omega⟩) :=
  slice1_apply 340000 _ _ k _

theorem tbl5_lt (c : Dev nD) (hm : ∀ i : S2x800000.Idx, ((V0 m c main_arg1 : IVec S2x800000 32) i).toNat < 50000) :
    ∀ k, (tbl5 m c k).toNat < 50000 := by
  intro k
  obtain ⟨p, rfl⟩ : ∃ p : Fin 85000, k = ValueIdx.ix1 p := ⟨k 0, ValueIdx.eq_ix1 k⟩
  rw [tbl5_apply]; exact srcSl_lt m c hm _

/-! ## Region 6 -/

/-- What region 6's index table holds: words 425000 … 509999 of the source row with self-loops. -/
def tbl6 (c : Dev nD) : IVec S85000 32 := extractStridedSlice S85000 ![425000] (srcSl m c) slices_S850000_S85000_425000

theorem tbl6_eq (c : Dev nD) : (V15 m outs c main_v44 : IVec S85000 32) = tbl6 m c := by
  have e : (V15 m outs c main_v44 : IVec S85000 32)
      = extractStridedSlice S85000 ![425000] (V14 m outs c main_v5 : IVec S850000 32) slices_S850000_S85000_425000 := by
    dsimp only [V15, hostOps6]; after_results <;> rfl
  rw [e, v5_at14, V1_v5]; rfl

theorem tbl6_apply (c : Dev nD) (k : Fin 85000) :
    tbl6 m c (ValueIdx.ix1 k) = srcSl m c (ValueIdx.ix1 ⟨425000 + k.val, by have := k.isLt; omega⟩) :=
  slice1_apply 425000 _ _ k _

theorem tbl6_lt (c : Dev nD) (hm : ∀ i : S2x800000.Idx, ((V0 m c main_arg1 : IVec S2x800000 32) i).toNat < 50000) :
    ∀ k, (tbl6 m c k).toNat < 50000 := by
  intro k
  obtain ⟨p, rfl⟩ : ∃ p : Fin 85000, k = ValueIdx.ix1 p := ⟨k 0, ValueIdx.eq_ix1 k⟩
  rw [tbl6_apply]; exact srcSl_lt m c hm _

/-! ## Region 7 -/

/-- What region 7's index table holds: words 510000 … 594999 of the source row with self-loops. -/
def tbl7 (c : Dev nD) : IVec S85000 32 := extractStridedSlice S85000 ![510000] (srcSl m c) slices_S850000_S85000_510000

theorem tbl7_eq (c : Dev nD) : (V17 m outs c main_v46 : IVec S85000 32) = tbl7 m c := by
  have e : (V17 m outs c main_v46 : IVec S85000 32)
      = extractStridedSlice S85000 ![510000] (V16 m outs c main_v5 : IVec S850000 32) slices_S850000_S85000_510000 := by
    dsimp only [V17, hostOps7]; after_results <;> rfl
  rw [e, v5_at16, V1_v5]; rfl

theorem tbl7_apply (c : Dev nD) (k : Fin 85000) :
    tbl7 m c (ValueIdx.ix1 k) = srcSl m c (ValueIdx.ix1 ⟨510000 + k.val, by have := k.isLt; omega⟩) :=
  slice1_apply 510000 _ _ k _

theorem tbl7_lt (c : Dev nD) (hm : ∀ i : S2x800000.Idx, ((V0 m c main_arg1 : IVec S2x800000 32) i).toNat < 50000) :
    ∀ k, (tbl7 m c k).toNat < 50000 := by
  intro k
  obtain ⟨p, rfl⟩ : ∃ p : Fin 85000, k = ValueIdx.ix1 p := ⟨k 0, ValueIdx.eq_ix1 k⟩
  rw [tbl7_apply]; exact srcSl_lt m c hm _

/-! ## Region 8 -/

/-- What region 8's index table holds: words 595000 … 679999 of the source row with self-loops. -/
def tbl8 (c : Dev nD) : IVec S85000 32 := extractStridedSlice S85000 ![595000] (srcSl m c) slices_S850000_S85000_595000

theorem tbl8_eq (c : Dev nD) : (V19 m outs c main_v48 : IVec S85000 32) = tbl8 m c := by
  have e : (V19 m outs c main_v48 : IVec S85000 32)
      = extractStridedSlice S85000 ![595000] (V18 m outs c main_v5 : IVec S850000 32) slices_S850000_S85000_595000 := by
    dsimp only [V19, hostOps8]; after_results <;> rfl
  rw [e, v5_at18, V1_v5]; rfl

theorem tbl8_apply (c : Dev nD) (k : Fin 85000) :
    tbl8 m c (ValueIdx.ix1 k) = srcSl m c (ValueIdx.ix1 ⟨595000 + k.val, by have := k.isLt; omega⟩) :=
  slice1_apply 595000 _ _ k _

theorem tbl8_lt (c : Dev nD) (hm : ∀ i : S2x800000.Idx, ((V0 m c main_arg1 : IVec S2x800000 32) i).toNat < 50000) :
    ∀ k, (tbl8 m c k).toNat < 50000 := by
  intro k
  obtain ⟨p, rfl⟩ : ∃ p : Fin 85000, k = ValueIdx.ix1 p := ⟨k 0, ValueIdx.eq_ix1 k⟩
  rw [tbl8_apply]; exact srcSl_lt m c hm _

/-! ## Region 9 -/

/-- What region 9's index table holds: words 680000 … 764999 of the source row with self-loops. -/
def tbl9 (c : Dev nD) : IVec S85000 32 := extractStridedSlice S85000 ![680000] (srcSl m c) slices_S850000_S85000_680000

theorem tbl9_eq (c : Dev nD) : (V21 m outs c main_v50 : IVec S85000 32) = tbl9 m c := by
  have e : (V21 m outs c main_v50 : IVec S85000 32)
      = extractStridedSlice S85000 ![680000] (V20 m outs c main_v5 : IVec S850000 32) slices_S850000_S85000_680000 := by
    dsimp only [V21, hostOps9]; after_results <;> rfl
  rw [e, v5_at20, V1_v5]; rfl

theorem tbl9_apply (c : Dev nD) (k : Fin 85000) :
    tbl9 m c (ValueIdx.ix1 k) = srcSl m c (ValueIdx.ix1 ⟨680000 + k.val, by have := k.isLt; omega⟩) :=
  slice1_apply 680000 _ _ k _

theorem tbl9_lt (c : Dev nD) (hm : ∀ i : S2x800000.Idx, ((V0 m c main_arg1 : IVec S2x800000 32) i).toNat < 50000) :
    ∀ k, (tbl9 m c k).toNat < 50000 := by
  intro k
  obtain ⟨p, rfl⟩ : ∃ p : Fin 85000, k = ValueIdx.ix1 p := ⟨k 0, ValueIdx.eq_ix1 k⟩
  rw [tbl9_apply]; exact srcSl_lt m c hm _

/-! ## Region 10 -/

/-- What region 10's index table holds: words 765000 … 849999 of the source row with self-loops. -/
def tbl10 (c : Dev nD) : IVec S85000 32 := extractStridedSlice S85000 ![765000] (srcSl m c) slices_S850000_S85000_765000

theorem tbl10_eq (c : Dev nD) : (V23 m outs c main_v52 : IVec S85000 32) = tbl10 m c := by
  have e : (V23 m outs c main_v52 : IVec S85000 32)
      = extractStridedSlice S85000 ![765000] (V22 m outs c main_v5 : IVec S850000 32) slices_S850000_S85000_765000 := by
    dsimp only [V23, hostOps10]; after_results <;> rfl
  rw [e, v5_at22, V1_v5]; rfl

theorem tbl10_apply (c : Dev nD) (k : Fin 85000) :
    tbl10 m c (ValueIdx.ix1 k) = srcSl m c (ValueIdx.ix1 ⟨765000 + k.val, by have := k.isLt; omega⟩) :=
  slice1_apply 765000 _ _ k _

theorem tbl10_lt (c : Dev nD) (hm : ∀ i : S2x800000.Idx, ((V0 m c main_arg1 : IVec S2x800000 32) i).toNat < 50000) :
    ∀ k, (tbl10 m c k).toNat < 50000 := by
  intro k
  obtain ⟨p, rfl⟩ : ∃ p : Fin 85000, k = ValueIdx.ix1 p := ⟨k 0, ValueIdx.eq_ix1 k⟩
  rw [tbl10_apply]; exact srcSl_lt m c hm _

/-! ## Region 12 -/

/-- What region 12's index table holds: words 0 … 84999 of the source row with self-loops. -/
def tbl12 (c : Dev nD) : IVec S85000 32 := extractStridedSlice S85000 ![0] (srcSl m c) slices_S850000_S85000_0

theorem tbl12_eq (c : Dev nD) : (V27 m outs c main_v62 : IVec S85000 32) = tbl12 m c := by
  have e : (V27 m outs c main_v62 : IVec S85000 32)
      = extractStridedSlice S85000 ![0] (V26 m outs c main_v5 : IVec S850000 32) slices_S850000_S85000_0 := by
    dsimp only [V27, hostOps12]; after_results <;> rfl
  rw [e, v5_at26, V1_v5]; rfl

theorem tbl12_apply (c : Dev nD) (k : Fin 85000) :
    tbl12 m c (ValueIdx.ix1 k) = srcSl m c (ValueIdx.ix1 ⟨0 + k.val, by have := k.isLt; omega⟩) :=
  slice1_apply 0 _ _ k _

theorem tbl12_lt (c : Dev nD) (hm : ∀ i : S2x800000.Idx, ((V0 m c main_arg1 : IVec S2x800000 32) i).toNat < 50000) :
    ∀ k, (tbl12 m c k).toNat < 50000 := by
  intro k
  obtain ⟨p, rfl⟩ : ∃ p : Fin 85000, k = ValueIdx.ix1 p := ⟨k 0, ValueIdx.eq_ix1 k⟩
  rw [tbl12_apply]; exact srcSl_lt m c hm _

/-! ## Region 13 -/

/-- What region 13's index table holds: words 85000 … 169999 of the source row with self-loops. -/
def tbl13 (c : Dev nD) : IVec S85000 32 := extractStridedSlice S85000 ![85000] (srcSl m c) slices_S850000_S85000_85000

theorem tbl13_eq (c : Dev nD) : (V29 m outs c main_v64 : IVec S85000 32) = tbl13 m c := by
  have e : (V29 m outs c main_v64 : IVec S85000 32)
      = extractStridedSlice S85000 ![85000] (V28 m outs c main_v5 : IVec S850000 32) slices_S850000_S85000_85000 := by
    dsimp only [V29, hostOps13]; after_results <;> rfl
  rw [e, v5_at28, V1_v5]; rfl

theorem tbl13_apply (c : Dev nD) (k : Fin 85000) :
    tbl13 m c (ValueIdx.ix1 k) = srcSl m c (ValueIdx.ix1 ⟨85000 + k.val, by have := k.isLt; omega⟩) :=
  slice1_apply 85000 _ _ k _

theorem tbl13_lt (c : Dev nD) (hm : ∀ i : S2x800000.Idx, ((V0 m c main_arg1 : IVec S2x800000 32) i).toNat < 50000) :
    ∀ k, (tbl13 m c k).toNat < 50000 := by
  intro k
  obtain ⟨p, rfl⟩ : ∃ p : Fin 85000, k = ValueIdx.ix1 p := ⟨k 0, ValueIdx.eq_ix1 k⟩
  rw [tbl13_apply]; exact srcSl_lt m c hm _

/-! ## Region 14 -/

/-- What region 14's index table holds: words 170000 … 254999 of the source row with self-loops. -/
def tbl14 (c : Dev nD) : IVec S85000 32 := extractStridedSlice S85000 ![170000] (srcSl m c) slices_S850000_S85000_170000

theorem tbl14_eq (c : Dev nD) : (V31 m outs c main_v66 : IVec S85000 32) = tbl14 m c := by
  have e : (V31 m outs c main_v66 : IVec S85000 32)
      = extractStridedSlice S85000 ![170000] (V30 m outs c main_v5 : IVec S850000 32) slices_S850000_S85000_170000 := by
    dsimp only [V31, hostOps14]; after_results <;> rfl
  rw [e, v5_at30, V1_v5]; rfl

theorem tbl14_apply (c : Dev nD) (k : Fin 85000) :
    tbl14 m c (ValueIdx.ix1 k) = srcSl m c (ValueIdx.ix1 ⟨170000 + k.val, by have := k.isLt; omega⟩) :=
  slice1_apply 170000 _ _ k _

theorem tbl14_lt (c : Dev nD) (hm : ∀ i : S2x800000.Idx, ((V0 m c main_arg1 : IVec S2x800000 32) i).toNat < 50000) :
    ∀ k, (tbl14 m c k).toNat < 50000 := by
  intro k
  obtain ⟨p, rfl⟩ : ∃ p : Fin 85000, k = ValueIdx.ix1 p := ⟨k 0, ValueIdx.eq_ix1 k⟩
  rw [tbl14_apply]; exact srcSl_lt m c hm _

/-! ## Region 15 -/

/-- What region 15's index table holds: words 255000 … 339999 of the source row with self-loops. -/
def tbl15 (c : Dev nD) : IVec S85000 32 := extractStridedSlice S85000 ![255000] (srcSl m c) slices_S850000_S85000_255000

theorem tbl15_eq (c : Dev nD) : (V33 m outs c main_v68 : IVec S85000 32) = tbl15 m c := by
  have e : (V33 m outs c main_v68 : IVec S85000 32)
      = extractStridedSlice S85000 ![255000] (V32 m outs c main_v5 : IVec S850000 32) slices_S850000_S85000_255000 := by
    dsimp only [V33, hostOps15]; after_results <;> rfl
  rw [e, v5_at32, V1_v5]; rfl

theorem tbl15_apply (c : Dev nD) (k : Fin 85000) :
    tbl15 m c (ValueIdx.ix1 k) = srcSl m c (ValueIdx.ix1 ⟨255000 + k.val, by have := k.isLt; omega⟩) :=
  slice1_apply 255000 _ _ k _

theorem tbl15_lt (c : Dev nD) (hm : ∀ i : S2x800000.Idx, ((V0 m c main_arg1 : IVec S2x800000 32) i).toNat < 50000) :
    ∀ k, (tbl15 m c k).toNat < 50000 := by
  intro k
  obtain ⟨p, rfl⟩ : ∃ p : Fin 85000, k = ValueIdx.ix1 p := ⟨k 0, ValueIdx.eq_ix1 k⟩
  rw [tbl15_apply]; exact srcSl_lt m c hm _

/-! ## Region 16 -/

/-- What region 16's index table holds: words 340000 … 424999 of the source row with self-loops. -/
def tbl16 (c : Dev nD) : IVec S85000 32 := extractStridedSlice S85000 ![340000] (srcSl m c) slices_S850000_S85000_340000

theorem tbl16_eq (c : Dev nD) : (V35 m outs c main_v70 : IVec S85000 32) = tbl16 m c := by
  have e : (V35 m outs c main_v70 : IVec S85000 32)
      = extractStridedSlice S85000 ![340000] (V34 m outs c main_v5 : IVec S850000 32) slices_S850000_S85000_340000 := by
    dsimp only [V35, hostOps16]; after_results <;> rfl
  rw [e, v5_at34, V1_v5]; rfl

theorem tbl16_apply (c : Dev nD) (k : Fin 85000) :
    tbl16 m c (ValueIdx.ix1 k) = srcSl m c (ValueIdx.ix1 ⟨340000 + k.val, by have := k.isLt; omega⟩) :=
  slice1_apply 340000 _ _ k _

theorem tbl16_lt (c : Dev nD) (hm : ∀ i : S2x800000.Idx, ((V0 m c main_arg1 : IVec S2x800000 32) i).toNat < 50000) :
    ∀ k, (tbl16 m c k).toNat < 50000 := by
  intro k
  obtain ⟨p, rfl⟩ : ∃ p : Fin 85000, k = ValueIdx.ix1 p := ⟨k 0, ValueIdx.eq_ix1 k⟩
  rw [tbl16_apply]; exact srcSl_lt m c hm _

/-! ## Region 17 -/

/-- What region 17's index table holds: words 425000 … 509999 of the source row with self-loops. -/
def tbl17 (c : Dev nD) : IVec S85000 32 := extractStridedSlice S85000 ![425000] (srcSl m c) slices_S850000_S85000_425000

theorem tbl17_eq (c : Dev nD) : (V37 m outs c main_v72 : IVec S85000 32) = tbl17 m c := by
  have e : (V37 m outs c main_v72 : IVec S85000 32)
      = extractStridedSlice S85000 ![425000] (V36 m outs c main_v5 : IVec S850000 32) slices_S850000_S85000_425000 := by
    dsimp only [V37, hostOps17]; after_results <;> rfl
  rw [e, v5_at36, V1_v5]; rfl

theorem tbl17_apply (c : Dev nD) (k : Fin 85000) :
    tbl17 m c (ValueIdx.ix1 k) = srcSl m c (ValueIdx.ix1 ⟨425000 + k.val, by have := k.isLt; omega⟩) :=
  slice1_apply 425000 _ _ k _

theorem tbl17_lt (c : Dev nD) (hm : ∀ i : S2x800000.Idx, ((V0 m c main_arg1 : IVec S2x800000 32) i).toNat < 50000) :
    ∀ k, (tbl17 m c k).toNat < 50000 := by
  intro k
  obtain ⟨p, rfl⟩ : ∃ p : Fin 85000, k = ValueIdx.ix1 p := ⟨k 0, ValueIdx.eq_ix1 k⟩
  rw [tbl17_apply]; exact srcSl_lt m c hm _

/-! ## Region 18 -/

/-- What region 18's index table holds: words 510000 … 594999 of the source row with self-loops. -/
def tbl18 (c : Dev nD) : IVec S85000 32 := extractStridedSlice S85000 ![510000] (srcSl m c) slices_S850000_S85000_510000

theorem tbl18_eq (c : Dev nD) : (V39 m outs c main_v74 : IVec S85000 32) = tbl18 m c := by
  have e : (V39 m outs c main_v74 : IVec S85000 32)
      = extractStridedSlice S85000 ![510000] (V38 m outs c main_v5 : IVec S850000 32) slices_S850000_S85000_510000 := by
    dsimp only [V39, hostOps18]; after_results <;> rfl
  rw [e, v5_at38, V1_v5]; rfl

theorem tbl18_apply (c : Dev nD) (k : Fin 85000) :
    tbl18 m c (ValueIdx.ix1 k) = srcSl m c (ValueIdx.ix1 ⟨510000 + k.val, by have := k.isLt; omega⟩) :=
  slice1_apply 510000 _ _ k _

theorem tbl18_lt (c : Dev nD) (hm : ∀ i : S2x800000.Idx, ((V0 m c main_arg1 : IVec S2x800000 32) i).toNat < 50000) :
    ∀ k, (tbl18 m c k).toNat < 50000 := by
  intro k
  obtain ⟨p, rfl⟩ : ∃ p : Fin 85000, k = ValueIdx.ix1 p := ⟨k 0, ValueIdx.eq_ix1 k⟩
  rw [tbl18_apply]; exact srcSl_lt m c hm _

/-! ## Region 19 -/

/-- What region 19's index table holds: words 595000 … 679999 of the source row with self-loops. -/
def tbl19 (c : Dev nD) : IVec S85000 32 := extractStridedSlice S85000 ![595000] (srcSl m c) slices_S850000_S85000_595000

theorem tbl19_eq (c : Dev nD) : (V41 m outs c main_v76 : IVec S85000 32) = tbl19 m c := by
  have e : (V41 m outs c main_v76 : IVec S85000 32)
      = extractStridedSlice S85000 ![595000] (V40 m outs c main_v5 : IVec S850000 32) slices_S850000_S85000_595000 := by
    dsimp only [V41, hostOps19]; after_results <;> rfl
  rw [e, v5_at40, V1_v5]; rfl

theorem tbl19_apply (c : Dev nD) (k : Fin 85000) :
    tbl19 m c (ValueIdx.ix1 k) = srcSl m c (ValueIdx.ix1 ⟨595000 + k.val, by have := k.isLt; omega⟩) :=
  slice1_apply 595000 _ _ k _

theorem tbl19_lt (c : Dev nD) (hm : ∀ i : S2x800000.Idx, ((V0 m c main_arg1 : IVec S2x800000 32) i).toNat < 50000) :
    ∀ k, (tbl19 m c k).toNat < 50000 := by
  intro k
  obtain ⟨p, rfl⟩ : ∃ p : Fin 85000, k = ValueIdx.ix1 p := ⟨k 0, ValueIdx.eq_ix1 k⟩
  rw [tbl19_apply]; exact srcSl_lt m c hm _

/-! ## Region 20 -/

/-- What region 20's index table holds: words 680000 … 764999 of the source row with self-loops. -/
def tbl20 (c : Dev nD) : IVec S85000 32 := extractStridedSlice S85000 ![680000] (srcSl m c) slices_S850000_S85000_680000

theorem tbl20_eq (c : Dev nD) : (V43 m outs c main_v78 : IVec S85000 32) = tbl20 m c := by
  have e : (V43 m outs c main_v78 : IVec S85000 32)
      = extractStridedSlice S85000 ![680000] (V42 m outs c main_v5 : IVec S850000 32) slices_S850000_S85000_680000 := by
    dsimp only [V43, hostOps20]; after_results <;> rfl
  rw [e, v5_at42, V1_v5]; rfl

theorem tbl20_apply (c : Dev nD) (k : Fin 85000) :
    tbl20 m c (ValueIdx.ix1 k) = srcSl m c (ValueIdx.ix1 ⟨680000 + k.val, by have := k.isLt; omega⟩) :=
  slice1_apply 680000 _ _ k _

theorem tbl20_lt (c : Dev nD) (hm : ∀ i : S2x800000.Idx, ((V0 m c main_arg1 : IVec S2x800000 32) i).toNat < 50000) :
    ∀ k, (tbl20 m c k).toNat < 50000 := by
  intro k
  obtain ⟨p, rfl⟩ : ∃ p : Fin 85000, k = ValueIdx.ix1 p := ⟨k 0, ValueIdx.eq_ix1 k⟩
  rw [tbl20_apply]; exact srcSl_lt m c hm _

/-! ## Region 21 -/

/-- What region 21's index table holds: words 765000 … 849999 of the source row with self-loops. -/
def tbl21 (c : Dev nD) : IVec S85000 32 := extractStridedSlice S85000 ![765000] (srcSl m c) slices_S850000_S85000_765000

theorem tbl21_eq (c : Dev nD) : (V45 m outs c main_v80 : IVec S85000 32) = tbl21 m c := by
  have e : (V45 m outs c main_v80 : IVec S85000 32)
      = extractStridedSlice S85000 ![765000] (V44 m outs c main_v5 : IVec S850000 32) slices_S850000_S85000_765000 := by
    dsimp only [V45, hostOps21]; after_results <;> rfl
  rw [e, v5_at44, V1_v5]; rfl

theorem tbl21_apply (c : Dev nD) (k : Fin 85000) :
    tbl21 m c (ValueIdx.ix1 k) = srcSl m c (ValueIdx.ix1 ⟨765000 + k.val, by have := k.isLt; omega⟩) :=
  slice1_apply 765000 _ _ k _

theorem tbl21_lt (c : Dev nD) (hm : ∀ i : S2x800000.Idx, ((V0 m c main_arg1 : IVec S2x800000 32) i).toNat < 50000) :
    ∀ k, (tbl21 m c k).toNat < 50000 := by
  intro k
  obtain ⟨p, rfl⟩ : ∃ p : Fin 85000, k = ValueIdx.ix1 p := ⟨k 0, ValueIdx.eq_ix1 k⟩
  rw [tbl21_apply]; exact srcSl_lt m c hm _

/-! ## Region 23 -/

/-- What region 23's index table holds: words 0 … 99999 of the source row. -/
def tbl23 (c : Dev nD) : IVec S100000 32 := extractStridedSlice S100000 ![0] (src m c) slices_S800000_S100000_0

theorem tbl23_eq (c : Dev nD) : (V49 m outs c main_v90 : IVec S100000 32) = tbl23 m c := by
  have e : (V49 m outs c main_v90 : IVec S100000 32)
      = extractStridedSlice S100000 ![0] (V48 m outs c main_v1 : IVec S800000 32) slices_S800000_S100000_0 := by
    dsimp only [V49, hostOps23]; after_results <;> rfl
  rw [e, v1_at48, V1_v1]; rfl

theorem tbl23_apply (c : Dev nD) (k : Fin 100000) :
    tbl23 m c (ValueIdx.ix1 k) = src m c (ValueIdx.ix1 ⟨0 + k.val, by have := k.isLt; omega⟩) :=
  slice1_apply 0 _ _ k _

theorem tbl23_lt (c : Dev nD) (hm : ∀ i : S2x800000.Idx, ((V0 m c main_arg1 : IVec S2x800000 32) i).toNat < 50000) :
    ∀ k, (tbl23 m c k).toNat < 50000 := by
  intro k
  obtain ⟨p, rfl⟩ : ∃ p : Fin 100000, k = ValueIdx.ix1 p := ⟨k 0, ValueIdx.eq_ix1 k⟩
  rw [tbl23_apply]; exact src_lt m c hm _

/-! ## Region 24 -/

/-- What region 24's index table holds: words 100000 … 199999 of the source row. -/
def tbl24 (c : Dev nD) : IVec S100000 32 := extractStridedSlice S100000 ![100000] (src m c) slices_S800000_S100000_100000

theorem tbl24_eq (c : Dev nD) : (V51 m outs c main_v92 : IVec S100000 32) = tbl24 m c := by
  have e : (V51 m outs c main_v92 : IVec S100000 32)
      = extractStridedSlice S100000 ![100000] (V50 m outs c main_v1 : IVec S800000 32) slices_S800000_S100000_100000 := by
    dsimp only [V51, hostOps24]; after_results <;> rfl
  rw [e, v1_at50, V1_v1]; rfl

theorem tbl24_apply (c : Dev nD) (k : Fin 100000) :
    tbl24 m c (ValueIdx.ix1 k) = src m c (ValueIdx.ix1 ⟨100000 + k.val, by have := k.isLt; omega⟩) :=
  slice1_apply 100000 _ _ k _

theorem tbl24_lt (c : Dev nD) (hm : ∀ i : S2x800000.Idx, ((V0 m c main_arg1 : IVec S2x800000 32) i).toNat < 50000) :
    ∀ k, (tbl24 m c k).toNat < 50000 := by
  intro k
  obtain ⟨p, rfl⟩ : ∃ p : Fin 100000, k = ValueIdx.ix1 p := ⟨k 0, ValueIdx.eq_ix1 k⟩
  rw [tbl24_apply]; exact src_lt m c hm _

/-! ## Region 25 -/

/-- What region 25's index table holds: words 200000 … 299999 of the source row. -/
def tbl25 (c : Dev nD) : IVec S100000 32 := extractStridedSlice S100000 ![200000] (src m c) slices_S800000_S100000_200000

theorem tbl25_eq (c : Dev nD) : (V53 m outs c main_v94 : IVec S100000 32) = tbl25 m c := by
  have e : (V53 m outs c main_v94 : IVec S100000 32)
      = extractStridedSlice S100000 ![200000] (V52 m outs c main_v1 : IVec S800000 32) slices_S800000_S100000_200000 := by
    dsimp only [V53, hostOps25]; after_results <;> rfl
  rw [e, v1_at52, V1_v1]; rfl

theorem tbl25_apply (c : Dev nD) (k : Fin 100000) :
    tbl25 m c (ValueIdx.ix1 k) = src m c (ValueIdx.ix1 ⟨200000 + k.val, by have := k.isLt; omega⟩) :=
  slice1_apply 200000 _ _ k _

theorem tbl25_lt (c : Dev nD) (hm : ∀ i : S2x800000.Idx, ((V0 m c main_arg1 : IVec S2x800000 32) i).toNat < 50000) :
    ∀ k, (tbl25 m c k).toNat < 50000 := by
  intro k
  obtain ⟨p, rfl⟩ : ∃ p : Fin 100000, k = ValueIdx.ix1 p := ⟨k 0, ValueIdx.eq_ix1 k⟩
  rw [tbl25_apply]; exact src_lt m c hm _

/-! ## Region 26 -/

/-- What region 26's index table holds: words 300000 … 399999 of the source row. -/
def tbl26 (c : Dev nD) : IVec S100000 32 := extractStridedSlice S100000 ![300000] (src m c) slices_S800000_S100000_300000

theorem tbl26_eq (c : Dev nD) : (V55 m outs c main_v96 : IVec S100000 32) = tbl26 m c := by
  have e : (V55 m outs c main_v96 : IVec S100000 32)
      = extractStridedSlice S100000 ![300000] (V54 m outs c main_v1 : IVec S800000 32) slices_S800000_S100000_300000 := by
    dsimp only [V55, hostOps26]; after_results <;> rfl
  rw [e, v1_at54, V1_v1]; rfl

theorem tbl26_apply (c : Dev nD) (k : Fin 100000) :
    tbl26 m c (ValueIdx.ix1 k) = src m c (ValueIdx.ix1 ⟨300000 + k.val, by have := k.isLt; omega⟩) :=
  slice1_apply 300000 _ _ k _

theorem tbl26_lt (c : Dev nD) (hm : ∀ i : S2x800000.Idx, ((V0 m c main_arg1 : IVec S2x800000 32) i).toNat < 50000) :
    ∀ k, (tbl26 m c k).toNat < 50000 := by
  intro k
  obtain ⟨p, rfl⟩ : ∃ p : Fin 100000, k = ValueIdx.ix1 p := ⟨k 0, ValueIdx.eq_ix1 k⟩
  rw [tbl26_apply]; exact src_lt m c hm _

/-! ## Region 27 -/

/-- What region 27's index table holds: words 400000 … 499999 of the source row. -/
def tbl27 (c : Dev nD) : IVec S100000 32 := extractStridedSlice S100000 ![400000] (src m c) slices_S800000_S100000_400000

theorem tbl27_eq (c : Dev nD) : (V57 m outs c main_v98 : IVec S100000 32) = tbl27 m c := by
  have e : (V57 m outs c main_v98 : IVec S100000 32)
      = extractStridedSlice S100000 ![400000] (V56 m outs c main_v1 : IVec S800000 32) slices_S800000_S100000_400000 := by
    dsimp only [V57, hostOps27]; after_results <;> rfl
  rw [e, v1_at56, V1_v1]; rfl

theorem tbl27_apply (c : Dev nD) (k : Fin 100000) :
    tbl27 m c (ValueIdx.ix1 k) = src m c (ValueIdx.ix1 ⟨400000 + k.val, by have := k.isLt; omega⟩) :=
  slice1_apply 400000 _ _ k _

theorem tbl27_lt (c : Dev nD) (hm : ∀ i : S2x800000.Idx, ((V0 m c main_arg1 : IVec S2x800000 32) i).toNat < 50000) :
    ∀ k, (tbl27 m c k).toNat < 50000 := by
  intro k
  obtain ⟨p, rfl⟩ : ∃ p : Fin 100000, k = ValueIdx.ix1 p := ⟨k 0, ValueIdx.eq_ix1 k⟩
  rw [tbl27_apply]; exact src_lt m c hm _

/-! ## Region 28 -/

/-- What region 28's index table holds: words 500000 … 599999 of the source row. -/
def tbl28 (c : Dev nD) : IVec S100000 32 := extractStridedSlice S100000 ![500000] (src m c) slices_S800000_S100000_500000

theorem tbl28_eq (c : Dev nD) : (V59 m outs c main_v100 : IVec S100000 32) = tbl28 m c := by
  have e : (V59 m outs c main_v100 : IVec S100000 32)
      = extractStridedSlice S100000 ![500000] (V58 m outs c main_v1 : IVec S800000 32) slices_S800000_S100000_500000 := by
    dsimp only [V59, hostOps28]; after_results <;> rfl
  rw [e, v1_at58, V1_v1]; rfl

theorem tbl28_apply (c : Dev nD) (k : Fin 100000) :
    tbl28 m c (ValueIdx.ix1 k) = src m c (ValueIdx.ix1 ⟨500000 + k.val, by have := k.isLt; omega⟩) :=
  slice1_apply 500000 _ _ k _

theorem tbl28_lt (c : Dev nD) (hm : ∀ i : S2x800000.Idx, ((V0 m c main_arg1 : IVec S2x800000 32) i).toNat < 50000) :
    ∀ k, (tbl28 m c k).toNat < 50000 := by
  intro k
  obtain ⟨p, rfl⟩ : ∃ p : Fin 100000, k = ValueIdx.ix1 p := ⟨k 0, ValueIdx.eq_ix1 k⟩
  rw [tbl28_apply]; exact src_lt m c hm _

/-! ## Region 29 -/

/-- What region 29's index table holds: words 600000 … 699999 of the source row. -/
def tbl29 (c : Dev nD) : IVec S100000 32 := extractStridedSlice S100000 ![600000] (src m c) slices_S800000_S100000_600000

theorem tbl29_eq (c : Dev nD) : (V61 m outs c main_v102 : IVec S100000 32) = tbl29 m c := by
  have e : (V61 m outs c main_v102 : IVec S100000 32)
      = extractStridedSlice S100000 ![600000] (V60 m outs c main_v1 : IVec S800000 32) slices_S800000_S100000_600000 := by
    dsimp only [V61, hostOps29]; after_results <;> rfl
  rw [e, v1_at60, V1_v1]; rfl

theorem tbl29_apply (c : Dev nD) (k : Fin 100000) :
    tbl29 m c (ValueIdx.ix1 k) = src m c (ValueIdx.ix1 ⟨600000 + k.val, by have := k.isLt; omega⟩) :=
  slice1_apply 600000 _ _ k _

theorem tbl29_lt (c : Dev nD) (hm : ∀ i : S2x800000.Idx, ((V0 m c main_arg1 : IVec S2x800000 32) i).toNat < 50000) :
    ∀ k, (tbl29 m c k).toNat < 50000 := by
  intro k
  obtain ⟨p, rfl⟩ : ∃ p : Fin 100000, k = ValueIdx.ix1 p := ⟨k 0, ValueIdx.eq_ix1 k⟩
  rw [tbl29_apply]; exact src_lt m c hm _

/-! ## Region 30 -/

/-- What region 30's index table holds: words 700000 … 799999 of the source row. -/
def tbl30 (c : Dev nD) : IVec S100000 32 := extractStridedSlice S100000 ![700000] (src m c) slices_S800000_S100000_700000

theorem tbl30_eq (c : Dev nD) : (V63 m outs c main_v104 : IVec S100000 32) = tbl30 m c := by
  have e : (V63 m outs c main_v104 : IVec S100000 32)
      = extractStridedSlice S100000 ![700000] (V62 m outs c main_v1 : IVec S800000 32) slices_S800000_S100000_700000 := by
    dsimp only [V63, hostOps30]; after_results <;> rfl
  rw [e, v1_at62, V1_v1]; rfl

theorem tbl30_apply (c : Dev nD) (k : Fin 100000) :
    tbl30 m c (ValueIdx.ix1 k) = src m c (ValueIdx.ix1 ⟨700000 + k.val, by have := k.isLt; omega⟩) :=
  slice1_apply 700000 _ _ k _

theorem tbl30_lt (c : Dev nD) (hm : ∀ i : S2x800000.Idx, ((V0 m c main_arg1 : IVec S2x800000 32) i).toNat < 50000) :
    ∀ k, (tbl30 m c k).toNat < 50000 := by
  intro k
  obtain ⟨p, rfl⟩ : ∃ p : Fin 100000, k = ValueIdx.ix1 p := ⟨k 0, ValueIdx.eq_ix1 k⟩
  rw [tbl30_apply]; exact src_lt m c hm _

/-! ## Region 31 -/

/-- What region 31's index table holds: words 0 … 99999 of the destination row. -/
def tbl31 (c : Dev nD) : IVec S100000 32 := extractStridedSlice S100000 ![0] (dst m c) slices_S800000_S100000_0

theorem tbl31_eq (c : Dev nD) : (V65 m outs c main_v107 : IVec S100000 32) = tbl31 m c := by
  have e : (V65 m outs c main_v107 : IVec S100000 32)
      = extractStridedSlice S100000 ![0] (V64 m outs c main_v3 : IVec S800000 32) slices_S800000_S100000_0 := by
    dsimp only [V65, hostOps31]; after_results <;> rfl
  rw [e, v3_at64, V1_v3]; rfl

theorem tbl31_apply (c : Dev nD) (k : Fin 100000) :
    tbl31 m c (ValueIdx.ix1 k) = dst m c (ValueIdx.ix1 ⟨0 + k.val, by have := k.isLt; omega⟩) :=
  slice1_apply 0 _ _ k _

theorem tbl31_lt (c : Dev nD) (hm : ∀ i : S2x800000.Idx, ((V0 m c main_arg1 : IVec S2x800000 32) i).toNat < 50000) :
    ∀ k, (tbl31 m c k).toNat < 50000 := by
  intro k
  obtain ⟨p, rfl⟩ : ∃ p : Fin 100000, k = ValueIdx.ix1 p := ⟨k 0, ValueIdx.eq_ix1 k⟩
  rw [tbl31_apply]; exact dst_lt m c hm _

/-! ## Region 32 -/

/-- What region 32's index table holds: words 100000 … 199999 of the destination row. -/
def tbl32 (c : Dev nD) : IVec S100000 32 := extractStridedSlice S100000 ![100000] (dst m c) slices_S800000_S100000_100000

theorem tbl32_eq (c : Dev nD) : (V67 m outs c main_v109 : IVec S100000 32) = tbl32 m c := by
  have e : (V67 m outs c main_v109 : IVec S100000 32)
      = extractStridedSlice S100000 ![100000] (V66 m outs c main_v3 : IVec S800000 32) slices_S800000_S100000_100000 := by
    dsimp only [V67, hostOps32]; after_results <;> rfl
  rw [e, v3_at66, V1_v3]; rfl

theorem tbl32_apply (c : Dev nD) (k : Fin 100000) :
    tbl32 m c (ValueIdx.ix1 k) = dst m c (ValueIdx.ix1 ⟨100000 + k.val, by have := k.isLt; omega⟩) :=
  slice1_apply 100000 _ _ k _

theorem tbl32_lt (c : Dev nD) (hm : ∀ i : S2x800000.Idx, ((V0 m c main_arg1 : IVec S2x800000 32) i).toNat < 50000) :
    ∀ k, (tbl32 m c k).toNat < 50000 := by
  intro k
  obtain ⟨p, rfl⟩ : ∃ p : Fin 100000, k = ValueIdx.ix1 p := ⟨k 0, ValueIdx.eq_ix1 k⟩
  rw [tbl32_apply]; exact dst_lt m c hm _

/-! ## Region 33 -/

/-- What region 33's index table holds: words 200000 … 299999 of the destination row. -/
def tbl33 (c : Dev nD) : IVec S100000 32 := extractStridedSlice S100000 ![200000] (dst m c) slices_S800000_S100000_200000

theorem tbl33_eq (c : Dev nD) : (V69 m outs c main_v111 : IVec S100000 32) = tbl33 m c := by
  have e : (V69 m outs c main_v111 : IVec S100000 32)
      = extractStridedSlice S100000 ![200000] (V68 m outs c main_v3 : IVec S800000 32) slices_S800000_S100000_200000 := by
    dsimp only [V69, hostOps33]; after_results <;> rfl
  rw [e, v3_at68, V1_v3]; rfl

theorem tbl33_apply (c : Dev nD) (k : Fin 100000) :
    tbl33 m c (ValueIdx.ix1 k) = dst m c (ValueIdx.ix1 ⟨200000 + k.val, by have := k.isLt; omega⟩) :=
  slice1_apply 200000 _ _ k _

theorem tbl33_lt (c : Dev nD) (hm : ∀ i : S2x800000.Idx, ((V0 m c main_arg1 : IVec S2x800000 32) i).toNat < 50000) :
    ∀ k, (tbl33 m c k).toNat < 50000 := by
  intro k
  obtain ⟨p, rfl⟩ : ∃ p : Fin 100000, k = ValueIdx.ix1 p := ⟨k 0, ValueIdx.eq_ix1 k⟩
  rw [tbl33_apply]; exact dst_lt m c hm _

/-! ## Region 34 -/

/-- What region 34's index table holds: words 300000 … 399999 of the destination row. -/
def tbl34 (c : Dev nD) : IVec S100000 32 := extractStridedSlice S100000 ![300000] (dst m c) slices_S800000_S100000_300000

theorem tbl34_eq (c : Dev nD) : (V71 m outs c main_v113 : IVec S100000 32) = tbl34 m c := by
  have e : (V71 m outs c main_v113 : IVec S100000 32)
      = extractStridedSlice S100000 ![300000] (V70 m outs c main_v3 : IVec S800000 32) slices_S800000_S100000_300000 := by
    dsimp only [V71, hostOps34]; after_results <;> rfl
  rw [e, v3_at70, V1_v3]; rfl

theorem tbl34_apply (c : Dev nD) (k : Fin 100000) :
    tbl34 m c (ValueIdx.ix1 k) = dst m c (ValueIdx.ix1 ⟨300000 + k.val, by have := k.isLt; omega⟩) :=
  slice1_apply 300000 _ _ k _

theorem tbl34_lt (c : Dev nD) (hm : ∀ i : S2x800000.Idx, ((V0 m c main_arg1 : IVec S2x800000 32) i).toNat < 50000) :
    ∀ k, (tbl34 m c k).toNat < 50000 := by
  intro k
  obtain ⟨p, rfl⟩ : ∃ p : Fin 100000, k = ValueIdx.ix1 p := ⟨k 0, ValueIdx.eq_ix1 k⟩
  rw [tbl34_apply]; exact dst_lt m c hm _

/-! ## Region 35 -/

/-- What region 35's index table holds: words 400000 … 499999 of the destination row. -/
def tbl35 (c : Dev nD) : IVec S100000 32 := extractStridedSlice S100000 ![400000] (dst m c) slices_S800000_S100000_400000

theorem tbl35_eq (c : Dev nD) : (V73 m outs c main_v115 : IVec S100000 32) = tbl35 m c := by
  have e : (V73 m outs c main_v115 : IVec S100000 32)
      = extractStridedSlice S100000 ![400000] (V72 m outs c main_v3 : IVec S800000 32) slices_S800000_S100000_400000 := by
    dsimp only [V73, hostOps35]; after_results <;> rfl
  rw [e, v3_at72, V1_v3]; rfl

theorem tbl35_apply (c : Dev nD) (k : Fin 100000) :
    tbl35 m c (ValueIdx.ix1 k) = dst m c (ValueIdx.ix1 ⟨400000 + k.val, by have := k.isLt; omega⟩) :=
  slice1_apply 400000 _ _ k _

theorem tbl35_lt (c : Dev nD) (hm : ∀ i : S2x800000.Idx, ((V0 m c main_arg1 : IVec S2x800000 32) i).toNat < 50000) :
    ∀ k, (tbl35 m c k).toNat < 50000 := by
  intro k
  obtain ⟨p, rfl⟩ : ∃ p : Fin 100000, k = ValueIdx.ix1 p := ⟨k 0, ValueIdx.eq_ix1 k⟩
  rw [tbl35_apply]; exact dst_lt m c hm _

/-! ## Region 36 -/

/-- What region 36's index table holds: words 500000 … 599999 of the destination row. -/
def tbl36 (c : Dev nD) : IVec S100000 32 := extractStridedSlice S100000 ![500000] (dst m c) slices_S800000_S100000_500000

theorem tbl36_eq (c : Dev nD) : (V75 m outs c main_v117 : IVec S100000 32) = tbl36 m c := by
  have e : (V75 m outs c main_v117 : IVec S100000 32)
      = extractStridedSlice S100000 ![500000] (V74 m outs c main_v3 : IVec S800000 32) slices_S800000_S100000_500000 := by
    dsimp only [V75, hostOps36]; after_results <;> rfl
  rw [e, v3_at74, V1_v3]; rfl

theorem tbl36_apply (c : Dev nD) (k : Fin 100000) :
    tbl36 m c (ValueIdx.ix1 k) = dst m c (ValueIdx.ix1 ⟨500000 + k.val, by have := k.isLt; omega⟩) :=
  slice1_apply 500000 _ _ k _

theorem tbl36_lt (c : Dev nD) (hm : ∀ i : S2x800000.Idx, ((V0 m c main_arg1 : IVec S2x800000 32) i).toNat < 50000) :
    ∀ k, (tbl36 m c k).toNat < 50000 := by
  intro k
  obtain ⟨p, rfl⟩ : ∃ p : Fin 100000, k = ValueIdx.ix1 p := ⟨k 0, ValueIdx.eq_ix1 k⟩
  rw [tbl36_apply]; exact dst_lt m c hm _

/-! ## Region 37 -/

/-- What region 37's index table holds: words 600000 … 699999 of the destination row. -/
def tbl37 (c : Dev nD) : IVec S100000 32 := extractStridedSlice S100000 ![600000] (dst m c) slices_S800000_S100000_600000

theorem tbl37_eq (c : Dev nD) : (V77 m outs c main_v119 : IVec S100000 32) = tbl37 m c := by
  have e : (V77 m outs c main_v119 : IVec S100000 32)
      = extractStridedSlice S100000 ![600000] (V76 m outs c main_v3 : IVec S800000 32) slices_S800000_S100000_600000 := by
    dsimp only [V77, hostOps37]; after_results <;> rfl
  rw [e, v3_at76, V1_v3]; rfl

theorem tbl37_apply (c : Dev nD) (k : Fin 100000) :
    tbl37 m c (ValueIdx.ix1 k) = dst m c (ValueIdx.ix1 ⟨600000 + k.val, by have := k.isLt; omega⟩) :=
  slice1_apply 600000 _ _ k _

theorem tbl37_lt (c : Dev nD) (hm : ∀ i : S2x800000.Idx, ((V0 m c main_arg1 : IVec S2x800000 32) i).toNat < 50000) :
    ∀ k, (tbl37 m c k).toNat < 50000 := by
  intro k
  obtain ⟨p, rfl⟩ : ∃ p : Fin 100000, k = ValueIdx.ix1 p := ⟨k 0, ValueIdx.eq_ix1 k⟩
  rw [tbl37_apply]; exact dst_lt m c hm _

/-! ## Region 38 -/

/-- What region 38's index table holds: words 700000 … 799999 of the destination row. -/
def tbl38 (c : Dev nD) : IVec S100000 32 := extractStridedSlice S100000 ![700000] (dst m c) slices_S800000_S100000_700000

theorem tbl38_eq (c : Dev nD) : (V79 m outs c main_v121 : IVec S100000 32) = tbl38 m c := by
  have e : (V79 m outs c main_v121 : IVec S100000 32)
      = extractStridedSlice S100000 ![700000] (V78 m outs c main_v3 : IVec S800000 32) slices_S800000_S100000_700000 := by
    dsimp only [V79, hostOps38]; after_results <;> rfl
  rw [e, v3_at78, V1_v3]; rfl

theorem tbl38_apply (c : Dev nD) (k : Fin 100000) :
    tbl38 m c (ValueIdx.ix1 k) = dst m c (ValueIdx.ix1 ⟨700000 + k.val, by have := k.isLt; omega⟩) :=
  slice1_apply 700000 _ _ k _

theorem tbl38_lt (c : Dev nD) (hm : ∀ i : S2x800000.Idx, ((V0 m c main_arg1 : IVec S2x800000 32) i).toNat < 50000) :
    ∀ k, (tbl38 m c k).toNat < 50000 := by
  intro k
  obtain ⟨p, rfl⟩ : ∃ p : Fin 100000, k = ValueIdx.ix1 p := ⟨k 0, ValueIdx.eq_ix1 k⟩
  rw [tbl38_apply]; exact dst_lt m c hm _

end Cert.Kernel.Hand

end
-- ==== Proof.K.GatherLib.lean ====
/-
  Rows of a block moved one at a time: what the row-gather regions' bodies share.

  A gather body reads eight words of an index table, and for each word w copies row w of a 50000 x 128 array into one row
  of its 8 x 128 output block, all eight copies in flight at once. Three facts carry its proof and none depends on the
  region. (1) A share of a points-to can be cut into as many read shares as there are copies, so that two copies may read
  the same row. (2) Writes through the eight rows of the block, each row squeezed to its 128 words, are eight pieces that
  tile the block: rows are pairwise separated, so a row holds after all eight writes what its own write left, the eight
  rows held apart join to the block held whole, and the block then reads, row by row, the payloads. (3) A one-word load at
  offset p through a whole table reads the table at p, and a copy's payload read at a column is the array at the word's
  row and that column.
-/
import proofs.«402049_j87351044866139_2_alg».proof.Proof.Gen.Kernel
import Idealize.ShloMosaic.Lib.Pipeline.Frame
import Idealize.ShloMosaic.Lib.Pipeline.FrameBody
import Idealize.ShloMosaic.Lib.WholeRead
import Idealize.ShloMosaic.Lib.ValueIdx
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Transfers (shareDrop shareTokN)
open Cert.Kernel Cert.Kernel.Gen

variable {F : FTy → Type} [FloatOps F]

local notation "𝕄" => MT nD τ sig Unit (Elt F) ℕ (Pipeline.UD sig nD τ) ℕ

/-! ## Read shares -/

/-- A points-to at share q is what is left after b + 8 read shares, the eight read shares b + 7 … b one by one, and the
    first b read shares together: the share halved b + 8 times, each right half split off. -/
theorem toks_at {ℓ : Loc nD τ sig} {S : Finset (Idx ℓ)} {f : Buf (Elt F) ℓ} (q : PosShare TreeShare) (b : ℕ) :
    (ℓ ↦[S]{q} f : sProp 𝕄) ⊣⊢ iprop((ℓ ↦[S]{shareDrop q (b + 8)} f)
      ∗ (ℓ ↦[S]{shareTokN q (b + 7)} f) ∗ (ℓ ↦[S]{shareTokN q (b + 6)} f) ∗ (ℓ ↦[S]{shareTokN q (b + 5)} f) ∗ (ℓ ↦[S]{shareTokN q (b + 4)} f)
      ∗ (ℓ ↦[S]{shareTokN q (b + 3)} f) ∗ (ℓ ↦[S]{shareTokN q (b + 2)} f) ∗ (ℓ ↦[S]{shareTokN q (b + 1)} f) ∗ (ℓ ↦[S]{shareTokN q b} f)
      ∗ BI.bigSep (Finset.range b) (fun i => ℓ ↦[S]{shareTokN q i} f)) := by
  have h : (ℓ ↦[S]{q} f : sProp 𝕄) ⊣⊢ iprop((ℓ ↦[S]{shareDrop q (b + 8)} f) ∗ BI.bigSep (Finset.range (b + 8)) (fun i => ℓ ↦[S]{shareTokN q i} f)) :=
    Transfers.pointsTo_toks_range q (b + 8)
  have hb : ∀ k : ℕ, BI.bigSep (Finset.range (k + 1)) (fun i => (ℓ ↦[S]{shareTokN q i} f : sProp 𝕄))
      = iprop((ℓ ↦[S]{shareTokN q k} f) ∗ BI.bigSep (Finset.range k) (fun i => ℓ ↦[S]{shareTokN q i} f)) := fun k => by
    rw [Finset.range_add_one, BI.bigSep_insert Finset.notMem_range_self]; rfl
  rw [(hb (b + 7) : BI.bigSep (Finset.range (b + 8)) _ = _), (hb (b + 6) : BI.bigSep (Finset.range (b + 7)) _ = _),
    (hb (b + 5) : BI.bigSep (Finset.range (b + 6)) _ = _), (hb (b + 4) : BI.bigSep (Finset.range (b + 5)) _ = _),
    (hb (b + 3) : BI.bigSep (Finset.range (b + 4)) _ = _), (hb (b + 2) : BI.bigSep (Finset.range (b + 3)) _ = _),
    (hb (b + 1) : BI.bigSep (Finset.range (b + 2)) _ = _), hb b] at h
  exact h

/-! ## Words and rows -/

/-- Memref M's raw buffer on core c. -/
abbrev Bf (c : Dev nD) {sp : Space} {S : Shape} {e : EltTy} (M : Memref sig .tc sp S e) : Type := Buf (Elt F) (M.view.loc (c : Thread nD τ))

/-- The one index of a one-word load. -/
abbrev i0 : S1.Idx := Shape.Idx.first (s := S1) (numel1_S1.symm ▸ Nat.one_pos)

/-- A row index below 50000 names a whole row inside the 50000 x 128 array: what the body assumes of each word it loads. -/
theorem row_inb (w : BitVec 32) (hw : w.toNat < 50000) : ∀ a, (![w.toNat, 0] : Fin 2 → ℕ) a + S1x128.size a ≤ S50000x128.size a := by
  intro a; fin_cases a
  · show w.toNat + 1 ≤ 50000; omega
  · show 0 + 128 ≤ 128; omega

/-! ## The block's eight rows as the transfers address them -/

section Rows

/-- A write through one rectangle of a view leaves the elements under a rectangle separated from it as they were. -/
theorem write_slice_of_disj {κ : Kind} {sp : Space} {s : Shape} {e : EltTy} (v : View sig κ sp s e) (R R' : Rect s)
    (h : LoadRect.disj R' R.toLoadRect = true) (g : v.ty.Contents (Elt F)) (w : R'.shape.Idx → Elt F e) {i : v.ty.Idx}
    (hi : i ∈ (v.slice R).set) : (v.slice R').write (Elt F) g w Finset.univ i = g i :=
  View.write_of_not_mem _ _ _ (by
    rw [View.setOn_univ]
    exact fun hm => Finset.disjoint_left.mp (View.disjoint_slice_of_disj v R' R h) hm hi)

/-- Later writes through rectangles all separated from R leave R's elements at what the earlier writes left. -/
theorem writes_append_of_disj {κ : Kind} {sp : Space} {s : Shape} {e : EltTy} (v : View sig κ sp s e) (f : v.ty.Contents (Elt F))
    (R : Rect s) (Q L : List (View.Piece (Elt F) s e)) (Rs : List (Rect s)) (hRs : Q.map Sigma.fst = Rs)
    (h : LoadRect.disjAll Rs R.toLoadRect = true) {i : v.ty.Idx}
    (hi : i ∈ (v.slice R).set) : v.writes (Elt F) f (Q ++ L) i = v.writes (Elt F) f L i := by
  subst hRs
  induction Q with
  | nil => rfl
  | cons q Q ih =>
    simp only [LoadRect.disjAll, List.map_cons, List.all_cons, Bool.and_eq_true] at h
    rw [List.cons_append, View.writes_cons, write_slice_of_disj v R q.1 h.1 _ _ hi]
    exact ih (by simpa only [LoadRect.disjAll] using h.2)

variable (arg3 : Memref sig .tc .vmem S8x128 .f32)

abbrev rowR0 : Rect S8x128 := Rect.unit (s := S8x128) ![0, 0] S1x128.size inb_S8x128_S1x128_0_0
abbrev rowM0 : Memref sig .tc .vmem S128 .f32 := (arg3.slice rowR0 (fun _ => rfl)).squeeze S128 squeezes_S1x128_S128
abbrev rowP0 (p : S128.Idx → Elt F .f32) : View.Piece (Elt F) S8x128 .f32 :=
  ⟨rowR0, fun x => p ((Shape.reshapeEquiv (squeezes_S1x128_S128.numel_eq : S128.numel = S1x128.numel)).symm x)⟩
abbrev rowR1 : Rect S8x128 := Rect.unit (s := S8x128) ![1, 0] S1x128.size inb_S8x128_S1x128_1_0
abbrev rowM1 : Memref sig .tc .vmem S128 .f32 := (arg3.slice rowR1 (fun _ => rfl)).squeeze S128 squeezes_S1x128_S128
abbrev rowP1 (p : S128.Idx → Elt F .f32) : View.Piece (Elt F) S8x128 .f32 :=
  ⟨rowR1, fun x => p ((Shape.reshapeEquiv (squeezes_S1x128_S128.numel_eq : S128.numel = S1x128.numel)).symm x)⟩
abbrev rowR2 : Rect S8x128 := Rect.unit (s := S8x128) ![2, 0] S1x128.size inb_S8x128_S1x128_2_0
abbrev rowM2 : Memref sig .tc .vmem S128 .f32 := (arg3.slice rowR2 (fun _ => rfl)).squeeze S128 squeezes_S1x128_S128
abbrev rowP2 (p : S128.Idx → Elt F .f32) : View.Piece (Elt F) S8x128 .f32 :=
  ⟨rowR2, fun x => p ((Shape.reshapeEquiv (squeezes_S1x128_S128.numel_eq : S128.numel = S1x128.numel)).symm x)⟩
abbrev rowR3 : Rect S8x128 := Rect.unit (s := S8x128) ![3, 0] S1x128.size inb_S8x128_S1x128_3_0
abbrev rowM3 : Memref sig .tc .vmem S128 .f32 := (arg3.slice rowR3 (fun _ => rfl)).squeeze S128 squeezes_S1x128_S128
abbrev rowP3 (p : S128.Idx → Elt F .f32) : View.Piece (Elt F) S8x128 .f32 :=
  ⟨rowR3, fun x => p ((Shape.reshapeEquiv (squeezes_S1x128_S128.numel_eq : S128.numel = S1x128.numel)).symm x)⟩
abbrev rowR4 : Rect S8x128 := Rect.unit (s := S8x128) ![4, 0] S1x128.size inb_S8x128_S1x128_4_0
abbrev rowM4 : Memref sig .tc .vmem S128 .f32 := (arg3.slice rowR4 (fun _ => rfl)).squeeze S128 squeezes_S1x128_S128
abbrev rowP4 (p : S128.Idx → Elt F .f32) : View.Piece (Elt F) S8x128 .f32 :=
  ⟨rowR4, fun x => p ((Shape.reshapeEquiv (squeezes_S1x128_S128.numel_eq : S128.numel = S1x128.numel)).symm x)⟩
abbrev rowR5 : Rect S8x128 := Rect.unit (s := S8x128) ![5, 0] S1x128.size inb_S8x128_S1x128_5_0
abbrev rowM5 : Memref sig .tc .vmem S128 .f32 := (arg3.slice rowR5 (fun _ => rfl)).squeeze S128 squeezes_S1x128_S128
abbrev rowP5 (p : S128.Idx → Elt F .f32) : View.Piece (Elt F) S8x128 .f32 :=
  ⟨rowR5, fun x => p ((Shape.reshapeEquiv (squeezes_S1x128_S128.numel_eq : S128.numel = S1x128.numel)).symm x)⟩
abbrev rowR6 : Rect S8x128 := Rect.unit (s := S8x128) ![6, 0] S1x128.size inb_S8x128_S1x128_6_0
abbrev rowM6 : Memref sig .tc .vmem S128 .f32 := (arg3.slice rowR6 (fun _ => rfl)).squeeze S128 squeezes_S1x128_S128
abbrev rowP6 (p : S128.Idx → Elt F .f32) : View.Piece (Elt F) S8x128 .f32 :=
  ⟨rowR6, fun x => p ((Shape.reshapeEquiv (squeezes_S1x128_S128.numel_eq : S128.numel = S1x128.numel)).symm x)⟩
abbrev rowR7 : Rect S8x128 := Rect.unit (s := S8x128) ![7, 0] S1x128.size inb_S8x128_S1x128_7_0
abbrev rowM7 : Memref sig .tc .vmem S128 .f32 := (arg3.slice rowR7 (fun _ => rfl)).squeeze S128 squeezes_S1x128_S128
abbrev rowP7 (p : S128.Idx → Elt F .f32) : View.Piece (Elt F) S8x128 .f32 :=
  ⟨rowR7, fun x => p ((Shape.reshapeEquiv (squeezes_S1x128_S128.numel_eq : S128.numel = S1x128.numel)).symm x)⟩

variable (f3 : arg3.view.ty.Contents (Elt F)) (p0 p1 p2 p3 p4 p5 p6 p7 : S128.Idx → Elt F .f32)

abbrev lay1 : arg3.view.ty.Contents (Elt F) := (rowM0 arg3).view.write (Elt F) f3 p0 Finset.univ
abbrev lay2 : arg3.view.ty.Contents (Elt F) := (rowM1 arg3).view.write (Elt F) (lay1 arg3 f3 p0) p1 Finset.univ
abbrev lay3 : arg3.view.ty.Contents (Elt F) := (rowM2 arg3).view.write (Elt F) (lay2 arg3 f3 p0 p1) p2 Finset.univ
abbrev lay4 : arg3.view.ty.Contents (Elt F) := (rowM3 arg3).view.write (Elt F) (lay3 arg3 f3 p0 p1 p2) p3 Finset.univ
abbrev lay5 : arg3.view.ty.Contents (Elt F) := (rowM4 arg3).view.write (Elt F) (lay4 arg3 f3 p0 p1 p2 p3) p4 Finset.univ
abbrev lay6 : arg3.view.ty.Contents (Elt F) := (rowM5 arg3).view.write (Elt F) (lay5 arg3 f3 p0 p1 p2 p3 p4) p5 Finset.univ
abbrev lay7 : arg3.view.ty.Contents (Elt F) := (rowM6 arg3).view.write (Elt F) (lay6 arg3 f3 p0 p1 p2 p3 p4 p5) p6 Finset.univ
abbrev lay8 : arg3.view.ty.Contents (Elt F) := (rowM7 arg3).view.write (Elt F) (lay7 arg3 f3 p0 p1 p2 p3 p4 p5 p6) p7 Finset.univ

end Rows

section RowsBack

variable (arg3 : Memref sig .tc .vmem S8x128 .f32) (f3 : arg3.view.ty.Contents (Elt F)) (p0 p1 p2 p3 p4 p5 p6 p7 : S128.Idx → Elt F .f32)

set_option maxHeartbeats 4000000 in
/-- The eight rows back together. After the eight transfers the block is held row by row, rows 0 to 6 each at what the
    transfers up to its own left, the rest at what all eight left. Rows are pairwise separated, so every row holds what
    all eight left; joined, the block is held whole at the eight writes, one piece a row. -/
theorem rows_join (c : Dev nD) :
    iprop((arg3.view.loc (c : Thread nD τ) ↦[(rowM0 arg3).view.set]{fullShare} lay1 arg3 f3 p0)
        ∗ (arg3.view.loc (c : Thread nD τ) ↦[(rowM1 arg3).view.set]{fullShare} lay2 arg3 f3 p0 p1)
        ∗ (arg3.view.loc (c : Thread nD τ) ↦[(rowM2 arg3).view.set]{fullShare} lay3 arg3 f3 p0 p1 p2)
        ∗ (arg3.view.loc (c : Thread nD τ) ↦[(rowM3 arg3).view.set]{fullShare} lay4 arg3 f3 p0 p1 p2 p3)
        ∗ (arg3.view.loc (c : Thread nD τ) ↦[(rowM4 arg3).view.set]{fullShare} lay5 arg3 f3 p0 p1 p2 p3 p4)
        ∗ (arg3.view.loc (c : Thread nD τ) ↦[(rowM5 arg3).view.set]{fullShare} lay6 arg3 f3 p0 p1 p2 p3 p4 p5)
        ∗ (arg3.view.loc (c : Thread nD τ) ↦[(rowM6 arg3).view.set]{fullShare} lay7 arg3 f3 p0 p1 p2 p3 p4 p5 p6)
        ∗ (arg3.view.loc (c : Thread nD τ) ↦[(((((((arg3.view.set \ (rowM0 arg3).view.set) \ (rowM1 arg3).view.set) \ (rowM2 arg3).view.set) \ (rowM3 arg3).view.set) \ (rowM4 arg3).view.set) \ (rowM5 arg3).view.set) \ (rowM6 arg3).view.set)]{fullShare} lay8 arg3 f3 p0 p1 p2 p3 p4 p5 p6 p7))
      ⊢ (arg3.view.loc (c : Thread nD τ) ↦[arg3.view.set]{fullShare} arg3.view.writes (Elt F) f3 [rowP7 p7, rowP6 p6, rowP5 p5, rowP4 p4, rowP3 p3, rowP2 p2, rowP1 p1, rowP0 p0] : sProp 𝕄) := by
  have e1 : lay1 arg3 f3 p0 = arg3.view.writes (Elt F) f3 [rowP0 p0] := View.write_reshape_univ (arg3.view.slice rowR0) (squeezes_S1x128_S128.numel_eq : S128.numel = S1x128.numel) f3 p0
  have e2 : lay2 arg3 f3 p0 p1 = arg3.view.writes (Elt F) f3 [rowP1 p1, rowP0 p0] :=
    (View.write_reshape_univ (arg3.view.slice rowR1) (squeezes_S1x128_S128.numel_eq : S128.numel = S1x128.numel) (lay1 arg3 f3 p0) p1).trans
      (congrArg (fun g => (arg3.view.slice rowR1).write (Elt F) g (rowP1 p1).2 Finset.univ) e1)
  have e3 : lay3 arg3 f3 p0 p1 p2 = arg3.view.writes (Elt F) f3 [rowP2 p2, rowP1 p1, rowP0 p0] :=
    (View.write_reshape_univ (arg3.view.slice rowR2) (squeezes_S1x128_S128.numel_eq : S128.numel = S1x128.numel) (lay2 arg3 f3 p0 p1) p2).trans
      (congrArg (fun g => (arg3.view.slice rowR2).write (Elt F) g (rowP2 p2).2 Finset.univ) e2)
  have e4 : lay4 arg3 f3 p0 p1 p2 p3 = arg3.view.writes (Elt F) f3 [rowP3 p3, rowP2 p2, rowP1 p1, rowP0 p0] :=
    (View.write_reshape_univ (arg3.view.slice rowR3) (squeezes_S1x128_S128.numel_eq : S128.numel = S1x128.numel) (lay3 arg3 f3 p0 p1 p2) p3).trans
      (congrArg (fun g => (arg3.view.slice rowR3).write (Elt F) g (rowP3 p3).2 Finset.univ) e3)
  have e5 : lay5 arg3 f3 p0 p1 p2 p3 p4 = arg3.view.writes (Elt F) f3 [rowP4 p4, rowP3 p3, rowP2 p2, rowP1 p1, rowP0 p0] :=
    (View.write_reshape_univ (arg3.view.slice rowR4) (squeezes_S1x128_S128.numel_eq : S128.numel = S1x128.numel) (lay4 arg3 f3 p0 p1 p2 p3) p4).trans
      (congrArg (fun g => (arg3.view.slice rowR4).write (Elt F) g (rowP4 p4).2 Finset.univ) e4)
  have e6 : lay6 arg3 f3 p0 p1 p2 p3 p4 p5 = arg3.view.writes (Elt F) f3 [rowP5 p5, rowP4 p4, rowP3 p3, rowP2 p2, rowP1 p1, rowP0 p0] :=
    (View.write_reshape_univ (arg3.view.slice rowR5) (squeezes_S1x128_S128.numel_eq : S128.numel = S1x128.numel) (lay5 arg3 f3 p0 p1 p2 p3 p4) p5).trans
      (congrArg (fun g => (arg3.view.slice rowR5).write (Elt F) g (rowP5 p5).2 Finset.univ) e5)
  have e7 : lay7 arg3 f3 p0 p1 p2 p3 p4 p5 p6 = arg3.view.writes (Elt F) f3 [rowP6 p6, rowP5 p5, rowP4 p4, rowP3 p3, rowP2 p2, rowP1 p1, rowP0 p0] :=
    (View.write_reshape_univ (arg3.view.slice rowR6) (squeezes_S1x128_S128.numel_eq : S128.numel = S1x128.numel) (lay6 arg3 f3 p0 p1 p2 p3 p4 p5) p6).trans
      (congrArg (fun g => (arg3.view.slice rowR6).write (Elt F) g (rowP6 p6).2 Finset.univ) e6)
  have e8 : lay8 arg3 f3 p0 p1 p2 p3 p4 p5 p6 p7 = arg3.view.writes (Elt F) f3 [rowP7 p7, rowP6 p6, rowP5 p5, rowP4 p4, rowP3 p3, rowP2 p2, rowP1 p1, rowP0 p0] :=
    (View.write_reshape_univ (arg3.view.slice rowR7) (squeezes_S1x128_S128.numel_eq : S128.numel = S1x128.numel) (lay7 arg3 f3 p0 p1 p2 p3 p4 p5 p6) p7).trans
      (congrArg (fun g => (arg3.view.slice rowR7).write (Elt F) g (rowP7 p7).2 Finset.univ) e7)
  have s0 : (rowM0 arg3).view.set = (arg3.view.slice rowR0).set :=
    View.set_reshape (arg3.view.slice rowR0) (squeezes_S1x128_S128.numel_eq : S128.numel = S1x128.numel)
  have s1 : (rowM1 arg3).view.set = (arg3.view.slice rowR1).set :=
    View.set_reshape (arg3.view.slice rowR1) (squeezes_S1x128_S128.numel_eq : S128.numel = S1x128.numel)
  have s2 : (rowM2 arg3).view.set = (arg3.view.slice rowR2).set :=
    View.set_reshape (arg3.view.slice rowR2) (squeezes_S1x128_S128.numel_eq : S128.numel = S1x128.numel)
  have s3 : (rowM3 arg3).view.set = (arg3.view.slice rowR3).set :=
    View.set_reshape (arg3.view.slice rowR3) (squeezes_S1x128_S128.numel_eq : S128.numel = S1x128.numel)
  have s4 : (rowM4 arg3).view.set = (arg3.view.slice rowR4).set :=
    View.set_reshape (arg3.view.slice rowR4) (squeezes_S1x128_S128.numel_eq : S128.numel = S1x128.numel)
  have s5 : (rowM5 arg3).view.set = (arg3.view.slice rowR5).set :=
    View.set_reshape (arg3.view.slice rowR5) (squeezes_S1x128_S128.numel_eq : S128.numel = S1x128.numel)
  have s6 : (rowM6 arg3).view.set = (arg3.view.slice rowR6).set :=
    View.set_reshape (arg3.view.slice rowR6) (squeezes_S1x128_S128.numel_eq : S128.numel = S1x128.numel)
  have sub0 := View.set_slice_subset arg3.view rowR0
  have sub1 := View.set_slice_subset_sdiff arg3.view rowR0 rowR1 (View.set_slice_subset arg3.view rowR1) (by decide)
  have sub2 := View.set_slice_subset_sdiff arg3.view rowR1 rowR2 (View.set_slice_subset_sdiff arg3.view rowR0 rowR2 (View.set_slice_subset arg3.view rowR2) (by decide)) (by decide)
  have sub3 := View.set_slice_subset_sdiff arg3.view rowR2 rowR3 (View.set_slice_subset_sdiff arg3.view rowR1 rowR3 (View.set_slice_subset_sdiff arg3.view rowR0 rowR3 (View.set_slice_subset arg3.view rowR3) (by decide)) (by decide)) (by decide)
  have sub4 := View.set_slice_subset_sdiff arg3.view rowR3 rowR4 (View.set_slice_subset_sdiff arg3.view rowR2 rowR4 (View.set_slice_subset_sdiff arg3.view rowR1 rowR4 (View.set_slice_subset_sdiff arg3.view rowR0 rowR4 (View.set_slice_subset arg3.view rowR4) (by decide)) (by decide)) (by decide)) (by decide)
  have sub5 := View.set_slice_subset_sdiff arg3.view rowR4 rowR5 (View.set_slice_subset_sdiff arg3.view rowR3 rowR5 (View.set_slice_subset_sdiff arg3.view rowR2 rowR5 (View.set_slice_subset_sdiff arg3.view rowR1 rowR5 (View.set_slice_subset_sdiff arg3.view rowR0 rowR5 (View.set_slice_subset arg3.view rowR5) (by decide)) (by decide)) (by decide)) (by decide)) (by decide)
  have sub6 := View.set_slice_subset_sdiff arg3.view rowR5 rowR6 (View.set_slice_subset_sdiff arg3.view rowR4 rowR6 (View.set_slice_subset_sdiff arg3.view rowR3 rowR6 (View.set_slice_subset_sdiff arg3.view rowR2 rowR6 (View.set_slice_subset_sdiff arg3.view rowR1 rowR6 (View.set_slice_subset_sdiff arg3.view rowR0 rowR6 (View.set_slice_subset arg3.view rowR6) (by decide)) (by decide)) (by decide)) (by decide)) (by decide)) (by decide)
  rw [e1, e2, e3, e4, e5, e6, e7, e8, s0, s1, s2, s3, s4, s5, s6]
  iintro ⟨H0, H1, H2, H3, H4, H5, H6, Hr⟩
  ihave H0 := (Entails.of_eq (show (arg3.view.loc (c : Thread nD τ) ↦[(arg3.view.slice rowR0).set]{fullShare} arg3.view.writes (Elt F) f3 [rowP0 p0] : sProp 𝕄)
      = (arg3.view.loc (c : Thread nD τ) ↦[(arg3.view.slice rowR0).set]{fullShare} arg3.view.writes (Elt F) f3 [rowP7 p7, rowP6 p6, rowP5 p5, rowP4 p4, rowP3 p3, rowP2 p2, rowP1 p1, rowP0 p0]) from
    pointsTo_congr fun i hi => (writes_append_of_disj arg3.view f3 rowR0 [rowP7 p7, rowP6 p6, rowP5 p5, rowP4 p4, rowP3 p3, rowP2 p2, rowP1 p1] [rowP0 p0] [rowR7, rowR6, rowR5, rowR4, rowR3, rowR2, rowR1] rfl (by decide) hi).symm)) $$ H0
  ihave H1 := (Entails.of_eq (show (arg3.view.loc (c : Thread nD τ) ↦[(arg3.view.slice rowR1).set]{fullShare} arg3.view.writes (Elt F) f3 [rowP1 p1, rowP0 p0] : sProp 𝕄)
      = (arg3.view.loc (c : Thread nD τ) ↦[(arg3.view.slice rowR1).set]{fullShare} arg3.view.writes (Elt F) f3 [rowP7 p7, rowP6 p6, rowP5 p5, rowP4 p4, rowP3 p3, rowP2 p2, rowP1 p1, rowP0 p0]) from
    pointsTo_congr fun i hi => (writes_append_of_disj arg3.view f3 rowR1 [rowP7 p7, rowP6 p6, rowP5 p5, rowP4 p4, rowP3 p3, rowP2 p2] [rowP1 p1, rowP0 p0] [rowR7, rowR6, rowR5, rowR4, rowR3, rowR2] rfl (by decide) hi).symm)) $$ H1
  ihave H2 := (Entails.of_eq (show (arg3.view.loc (c : Thread nD τ) ↦[(arg3.view.slice rowR2).set]{fullShare} arg3.view.writes (Elt F) f3 [rowP2 p2, rowP1 p1, rowP0 p0] : sProp 𝕄)
      = (arg3.view.loc (c : Thread nD τ) ↦[(arg3.view.slice rowR2).set]{fullShare} arg3.view.writes (Elt F) f3 [rowP7 p7, rowP6 p6, rowP5 p5, rowP4 p4, rowP3 p3, rowP2 p2, rowP1 p1, rowP0 p0]) from
    pointsTo_congr fun i hi => (writes_append_of_disj arg3.view f3 rowR2 [rowP7 p7, rowP6 p6, rowP5 p5, rowP4 p4, rowP3 p3] [rowP2 p2, rowP1 p1, rowP0 p0] [rowR7, rowR6, rowR5, rowR4, rowR3] rfl (by decide) hi).symm)) $$ H2
  ihave H3 := (Entails.of_eq (show (arg3.view.loc (c : Thread nD τ) ↦[(arg3.view.slice rowR3).set]{fullShare} arg3.view.writes (Elt F) f3 [rowP3 p3, rowP2 p2, rowP1 p1, rowP0 p0] : sProp 𝕄)
      = (arg3.view.loc (c : Thread nD τ) ↦[(arg3.view.slice rowR3).set]{fullShare} arg3.view.writes (Elt F) f3 [rowP7 p7, rowP6 p6, rowP5 p5, rowP4 p4, rowP3 p3, rowP2 p2, rowP1 p1, rowP0 p0]) from
    pointsTo_congr fun i hi => (writes_append_of_disj arg3.view f3 rowR3 [rowP7 p7, rowP6 p6, rowP5 p5, rowP4 p4] [rowP3 p3, rowP2 p2, rowP1 p1, rowP0 p0] [rowR7, rowR6, rowR5, rowR4] rfl (by decide) hi).symm)) $$ H3
  ihave H4 := (Entails.of_eq (show (arg3.view.loc (c : Thread nD τ) ↦[(arg3.view.slice rowR4).set]{fullShare} arg3.view.writes (Elt F) f3 [rowP4 p4, rowP3 p3, rowP2 p2, rowP1 p1, rowP0 p0] : sProp 𝕄)
      = (arg3.view.loc (c : Thread nD τ) ↦[(arg3.view.slice rowR4).set]{fullShare} arg3.view.writes (Elt F) f3 [rowP7 p7, rowP6 p6, rowP5 p5, rowP4 p4, rowP3 p3, rowP2 p2, rowP1 p1, rowP0 p0]) from
    pointsTo_congr fun i hi => (writes_append_of_disj arg3.view f3 rowR4 [rowP7 p7, rowP6 p6, rowP5 p5] [rowP4 p4, rowP3 p3, rowP2 p2, rowP1 p1, rowP0 p0] [rowR7, rowR6, rowR5] rfl (by decide) hi).symm)) $$ H4
  ihave H5 := (Entails.of_eq (show (arg3.view.loc (c : Thread nD τ) ↦[(arg3.view.slice rowR5).set]{fullShare} arg3.view.writes (Elt F) f3 [rowP5 p5, rowP4 p4, rowP3 p3, rowP2 p2, rowP1 p1, rowP0 p0] : sProp 𝕄)
      = (arg3.view.loc (c : Thread nD τ) ↦[(arg3.view.slice rowR5).set]{fullShare} arg3.view.writes (Elt F) f3 [rowP7 p7, rowP6 p6, rowP5 p5, rowP4 p4, rowP3 p3, rowP2 p2, rowP1 p1, rowP0 p0]) from
    pointsTo_congr fun i hi => (writes_append_of_disj arg3.view f3 rowR5 [rowP7 p7, rowP6 p6] [rowP5 p5, rowP4 p4, rowP3 p3, rowP2 p2, rowP1 p1, rowP0 p0] [rowR7, rowR6] rfl (by decide) hi).symm)) $$ H5
  ihave H6 := (Entails.of_eq (show (arg3.view.loc (c : Thread nD τ) ↦[(arg3.view.slice rowR6).set]{fullShare} arg3.view.writes (Elt F) f3 [rowP6 p6, rowP5 p5, rowP4 p4, rowP3 p3, rowP2 p2, rowP1 p1, rowP0 p0] : sProp 𝕄)
      = (arg3.view.loc (c : Thread nD τ) ↦[(arg3.view.slice rowR6).set]{fullShare} arg3.view.writes (Elt F) f3 [rowP7 p7, rowP6 p6, rowP5 p5, rowP4 p4, rowP3 p3, rowP2 p2, rowP1 p1, rowP0 p0]) from
    pointsTo_congr fun i hi => (writes_append_of_disj arg3.view f3 rowR6 [rowP7 p7] [rowP6 p6, rowP5 p5, rowP4 p4, rowP3 p3, rowP2 p2, rowP1 p1, rowP0 p0] [rowR7] rfl (by decide) hi).symm)) $$ H6
  iapply (pointsTo_split_subset sub0).2
  isplitl [H0]; · iexact H0
  iapply (pointsTo_split_subset sub1).2
  isplitl [H1]; · iexact H1
  iapply (pointsTo_split_subset sub2).2
  isplitl [H2]; · iexact H2
  iapply (pointsTo_split_subset sub3).2
  isplitl [H3]; · iexact H3
  iapply (pointsTo_split_subset sub4).2
  isplitl [H4]; · iexact H4
  iapply (pointsTo_split_subset sub5).2
  isplitl [H5]; · iexact H5
  iapply (pointsTo_split_subset sub6).2
  isplitl [H6]; · iexact H6
  iexact Hr

/-- What the block reads after the eight writes: the function G the eight payloads are the rows of. The rows tile the
    block, so every element is under exactly the piece of its row. -/
theorem rows_read [∀ e, Nonempty (Elt F e)] (G : Vec F S8x128 .f32)
    (hG0 : ∀ x : (rowR0).shape.Idx, (rowP0 p0).2 x = G ((rowR0).emb x))
    (hG1 : ∀ x : (rowR1).shape.Idx, (rowP1 p1).2 x = G ((rowR1).emb x))
    (hG2 : ∀ x : (rowR2).shape.Idx, (rowP2 p2).2 x = G ((rowR2).emb x))
    (hG3 : ∀ x : (rowR3).shape.Idx, (rowP3 p3).2 x = G ((rowR3).emb x))
    (hG4 : ∀ x : (rowR4).shape.Idx, (rowP4 p4).2 x = G ((rowR4).emb x))
    (hG5 : ∀ x : (rowR5).shape.Idx, (rowP5 p5).2 x = G ((rowR5).emb x))
    (hG6 : ∀ x : (rowR6).shape.Idx, (rowP6 p6).2 x = G ((rowR6).emb x))
    (hG7 : ∀ x : (rowR7).shape.Idx, (rowP7 p7).2 x = G ((rowR7).emb x)) :
    arg3.view.read (Elt F) (arg3.view.writes (Elt F) f3 [rowP7 p7, rowP6 p6, rowP5 p5, rowP4 p4, rowP3 p3, rowP2 p2, rowP1 p1, rowP0 p0]) = G := by
  funext y
  refine View.read_writes_apply_of_pieces arg3.view f3 G [rowP7 p7, rowP6 p6, rowP5 p5, rowP4 p4, rowP3 p3, rowP2 p2, rowP1 p1, rowP0 p0] ?_ y (View.cover_of_tiled [rowP7 p7, rowP6 p6, rowP5 p5, rowP4 p4, rowP3 p3, rowP2 p2, rowP1 p1, rowP0 p0] S1x128.size rfl y)
  intro p hp x
  simp only [List.mem_cons, List.not_mem_nil, _root_.or_false] at hp
  rcases hp with rfl | rfl | rfl | rfl | rfl | rfl | rfl | rfl
  · exact hG7 x
  · exact hG6 x
  · exact hG5 x
  · exact hG4 x
  · exact hG3 x
  · exact hG2 x
  · exact hG1 x
  · exact hG0 x

end RowsBack

/-! ## One word of the table, one row of the array -/

/-- The word a one-word load at offsets ![p] reads through a whole memref held at the contents that read tbl: tbl at p. -/
theorem word_at {n : ℕ} (arg1 : Memref sig .tc .smem (⟨1, ![n]⟩ : Shape) .i32) (harg1 : arg1.IsWhole) (tbl : Vec F (⟨1, ![n]⟩ : Shape) .i32)
    (off : Fin 1 → ℕ) (inb : ∀ a, off a + S1.size a ≤ (⟨1, ![n]⟩ : Shape).size a) (p : ℕ) (hoff : off = ![p]) (hp : p < n) :
    arg1.view.readAt (Elt F) (Rect.unit (s := (⟨1, ![n]⟩ : Shape)) off S1.size inb).toLoadRect (harg1.unread tbl) i0
      = tbl (ValueIdx.ix1 (⟨p, hp⟩ : Fin n)) := by
  subst hoff
  rw [Memref.IsWhole.readAt_unread harg1]
  refine congrArg tbl (funext fun a => ?_)
  match a with
  | ⟨0, _⟩ => exact Fin.ext (show p + 1 * 0 = p by omega)

/-- Row r of the block after a transfer of the array's row w. The transfer's payload — the array read through its row w,
    squeezed to 128 words — taken as a piece of the block at row r is the function G there, whenever G on row r is the
    array on row w, column by column. -/
theorem row_piece (arg2 : Memref sig .tc .hbm S50000x128 .f32) {c : Dev nD} (fA : Bf (F := F) c arg2) (w : BitVec 32)
    (hinb : ∀ a, (![w.toNat, 0] : Fin 2 → ℕ) a + S1x128.size a ≤ S50000x128.size a)
    (r : ℕ) (inbR : ∀ a, (![r, 0] : Fin 2 → ℕ) a + S1x128.size a ≤ S8x128.size a) (G : Vec F S8x128 .f32)
    (hG : ∀ (y : S8x128.Idx) (z : S50000x128.Idx), (y 0).val = r → (z 0).val = w.toNat → (z 1).val = (y 1).val →
      G y = arg2.view.read (Elt F) fA z)
    (x : (Rect.unit (s := S8x128) ![r, 0] S1x128.size inbR).shape.Idx) :
    ReadAs.same.apply (View.read (Elt F)
        ((arg2.slice (Rect.unit (s := S50000x128) ![w.toNat, 0] S1x128.size hinb) (fun _ => rfl)).squeeze S128 squeezes_S1x128_S128).view fA)
        ((Shape.reshapeEquiv (squeezes_S1x128_S128.numel_eq : S128.numel = S1x128.numel)).symm x)
      = G ((Rect.unit (s := S8x128) ![r, 0] S1x128.size inbR).emb x) := by
  have hx0 : (x 0).val = 0 := by
    have h : (x 0).val < 1 := (x 0).isLt
    omega
  have e : (Shape.reshapeEquiv (squeezes_S1x128_S128.numel_eq : S128.numel = S1x128.numel))
      ((Shape.reshapeEquiv (squeezes_S1x128_S128.numel_eq : S128.numel = S1x128.numel)).symm x) = x := Equiv.apply_symm_apply _ x
  show arg2.view.read (Elt F) fA ((Rect.unit (s := S50000x128) ![w.toNat, 0] S1x128.size hinb).emb
      ((Shape.reshapeEquiv (squeezes_S1x128_S128.numel_eq : S128.numel = S1x128.numel))
        ((Shape.reshapeEquiv (squeezes_S1x128_S128.numel_eq : S128.numel = S1x128.numel)).symm x))) = _
  rw [e]
  exact (hG _ _ (show r + 1 * (x 0).val = r by rw [hx0]; omega) (show w.toNat + 1 * (x 0).val = w.toNat by rw [hx0]; omega)
    (show 0 + 1 * (x 1).val = 0 + 1 * (x 1).val from rfl)).symm

end Cert.Kernel.Hand

end
-- ==== Proof.K.GatherBody1.lean ====
/-
  Region 1's body: eight rows gathered at every grid point.

  At grid point i the body loads the table's words 8 i … 8 i + 7, and for each word w copies row w of the 50000 x 128 array
  it finds in HBM into one row of its 8 x 128 output block, by eight transfers of its own on eight semaphores of its own,
  all waited for before the point ends. Every word is assumed a row of the array; the hypothesis on the table makes it so.
  So the point leaves the block reading, at row j and column l, the array at row (table word 8 i + j) and column l
  (gath1), the table and the array as they were, and the semaphores at zero (kernelRun1, stated for any array of eight semaphores: the regions that run the same body
  on other semaphores cite it). Read with the region's invariant
  that is the pipeline's body obligation for the region's proof data (hbodyG1), whose output block at point t is gblk1.
-/
import proofs.«402049_j87351044866139_2_alg».proof.Proof.K.GatherDef1
import proofs.«402049_j87351044866139_2_alg».proof.Proof.K.GatherLib

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Idealize.ShloMosaic.Transfers (shareDrop shareTokN)
open Cert.Kernel Cert.Kernel.Gen

variable {F : FTy → Type} [FloatOps F]

local notation "𝕄" => MT nD τ sig Unit (Elt F) ℕ (Pipeline.UD sig nD τ) ℕ

/-! ## The body's run -/

/-- Cell 0 of a body's eight semaphores, as the body names it. -/
abbrev cell1_0 (arg4 : DmaSems sig S8) : SemLoc sig := SemLoc.dma ((arg4.slice (Rect.unit (s := S8) ![0] S1.size inb_S8_S1_0)).squeeze S_ squeezes_S1_S_).sem
/-- Cell 1 of a body's eight semaphores, as the body names it. -/
abbrev cell1_1 (arg4 : DmaSems sig S8) : SemLoc sig := SemLoc.dma ((arg4.slice (Rect.unit (s := S8) ![1] S1.size inb_S8_S1_1)).squeeze S_ squeezes_S1_S_).sem
/-- Cell 2 of a body's eight semaphores, as the body names it. -/
abbrev cell1_2 (arg4 : DmaSems sig S8) : SemLoc sig := SemLoc.dma ((arg4.slice (Rect.unit (s := S8) ![2] S1.size inb_S8_S1_2)).squeeze S_ squeezes_S1_S_).sem
/-- Cell 3 of a body's eight semaphores, as the body names it. -/
abbrev cell1_3 (arg4 : DmaSems sig S8) : SemLoc sig := SemLoc.dma ((arg4.slice (Rect.unit (s := S8) ![3] S1.size inb_S8_S1_3)).squeeze S_ squeezes_S1_S_).sem
/-- Cell 4 of a body's eight semaphores, as the body names it. -/
abbrev cell1_4 (arg4 : DmaSems sig S8) : SemLoc sig := SemLoc.dma ((arg4.slice (Rect.unit (s := S8) ![4] S1.size inb_S8_S1_4)).squeeze S_ squeezes_S1_S_).sem
/-- Cell 5 of a body's eight semaphores, as the body names it. -/
abbrev cell1_5 (arg4 : DmaSems sig S8) : SemLoc sig := SemLoc.dma ((arg4.slice (Rect.unit (s := S8) ![5] S1.size inb_S8_S1_5)).squeeze S_ squeezes_S1_S_).sem
/-- Cell 6 of a body's eight semaphores, as the body names it. -/
abbrev cell1_6 (arg4 : DmaSems sig S8) : SemLoc sig := SemLoc.dma ((arg4.slice (Rect.unit (s := S8) ![6] S1.size inb_S8_S1_6)).squeeze S_ squeezes_S1_S_).sem
/-- Cell 7 of a body's eight semaphores, as the body names it. -/
abbrev cell1_7 (arg4 : DmaSems sig S8) : SemLoc sig := SemLoc.dma ((arg4.slice (Rect.unit (s := S8) ![7] S1.size inb_S8_S1_7)).squeeze S_ squeezes_S1_S_).sem

/-- Word 0 of the point's eight, as the body's load reads it off contents f1 of the table's memref. -/
abbrev wd1_0 (i : grid1.Coords) (arg1 : Memref sig .tc .smem S85000 .i32) (f1 : arg1.view.ty.Contents (Elt F)) : BitVec 32 :=
  arg1.view.readAt (Elt F) (Rect.unit (s := S85000) (k1_off1 i) S1.size (k1_off1_inb i)).toLoadRect f1 i0
/-- Word 1 of the point's eight, as the body's load reads it off contents f1 of the table's memref. -/
abbrev wd1_1 (i : grid1.Coords) (arg1 : Memref sig .tc .smem S85000 .i32) (f1 : arg1.view.ty.Contents (Elt F)) : BitVec 32 :=
  arg1.view.readAt (Elt F) (Rect.unit (s := S85000) (k1_off3 i) S1.size (k1_off3_inb i)).toLoadRect f1 i0
/-- Word 2 of the point's eight, as the body's load reads it off contents f1 of the table's memref. -/
abbrev wd1_2 (i : grid1.Coords) (arg1 : Memref sig .tc .smem S85000 .i32) (f1 : arg1.view.ty.Contents (Elt F)) : BitVec 32 :=
  arg1.view.readAt (Elt F) (Rect.unit (s := S85000) (k1_off5 i) S1.size (k1_off5_inb i)).toLoadRect f1 i0
/-- Word 3 of the point's eight, as the body's load reads it off contents f1 of the table's memref. -/
abbrev wd1_3 (i : grid1.Coords) (arg1 : Memref sig .tc .smem S85000 .i32) (f1 : arg1.view.ty.Contents (Elt F)) : BitVec 32 :=
  arg1.view.readAt (Elt F) (Rect.unit (s := S85000) (k1_off7 i) S1.size (k1_off7_inb i)).toLoadRect f1 i0
/-- Word 4 of the point's eight, as the body's load reads it off contents f1 of the table's memref. -/
abbrev wd1_4 (i : grid1.Coords) (arg1 : Memref sig .tc .smem S85000 .i32) (f1 : arg1.view.ty.Contents (Elt F)) : BitVec 32 :=
  arg1.view.readAt (Elt F) (Rect.unit (s := S85000) (k1_off9 i) S1.size (k1_off9_inb i)).toLoadRect f1 i0
/-- Word 5 of the point's eight, as the body's load reads it off contents f1 of the table's memref. -/
abbrev wd1_5 (i : grid1.Coords) (arg1 : Memref sig .tc .smem S85000 .i32) (f1 : arg1.view.ty.Contents (Elt F)) : BitVec 32 :=
  arg1.view.readAt (Elt F) (Rect.unit (s := S85000) (k1_off11 i) S1.size (k1_off11_inb i)).toLoadRect f1 i0
/-- Word 6 of the point's eight, as the body's load reads it off contents f1 of the table's memref. -/
abbrev wd1_6 (i : grid1.Coords) (arg1 : Memref sig .tc .smem S85000 .i32) (f1 : arg1.view.ty.Contents (Elt F)) : BitVec 32 :=
  arg1.view.readAt (Elt F) (Rect.unit (s := S85000) (k1_off13 i) S1.size (k1_off13_inb i)).toLoadRect f1 i0
/-- Word 7 of the point's eight, as the body's load reads it off contents f1 of the table's memref. -/
abbrev wd1_7 (i : grid1.Coords) (arg1 : Memref sig .tc .smem S85000 .i32) (f1 : arg1.view.ty.Contents (Elt F)) : BitVec 32 :=
  arg1.view.readAt (Elt F) (Rect.unit (s := S85000) (k1_off15 i) S1.size (k1_off15_inb i)).toLoadRect f1 i0

set_option sl_exec.dmaWindow true in
set_option sl_exec.dmaWindowSet true in
set_option sl_exec.rejoinHeartbeats 1 in
set_option maxHeartbeats 16000000 in
/-- THE BODY'S RUN at grid point i, on whole memrefs: the table held at contents that read tbl, every word of it a row of
    the array; the array held whole at any share; the output block at anything; the eight cells of ANY semaphore array at zero; the core's
    record of waits. Eight words are loaded, each assumed a row (it is), eight rows are sent for on the eight cells and all
    eight waited for. The array is read through eight shares of its share, one a cell, since two transfers in flight may
    read one row; the block is lent row by row and joined again. The run returns the table and the array as they were, the
    cells at zero, the eight waits recorded, and the block reading gath1. -/
theorem kernelRun1 [∀ e, Nonempty (Elt F e)] (c : Dev nD) (i : grid1.Coords)
    (arg1 : Memref sig .tc .smem S85000 .i32) (harg1 : arg1.IsWhole)
    (arg2 : Memref sig .tc .hbm S50000x128 .f32) (harg2 : arg2.IsWhole)
    (arg3 : Memref sig .tc .vmem S8x128 .f32) (harg3 : arg3.IsWhole)
    (tbl : Vec F S85000 .i32) (htbl : ∀ k, (tbl k).toNat < 50000)
    (q qA : PosShare TreeShare) (fA : Bf (F := F) c arg2) (arg4 : DmaSems sig S8)
    (W : Waits sig Unit) (K : PUnit → sProp 𝕄) :
    iprop(owns (c : Thread nD τ) arg1 q tbl ∗ (arg2.view.loc (c : Thread nD τ) ↦{qA} fA) ∗ (∃ d, owns (c : Thread nD τ) arg3 fullShare d)
        ∗ semVal ((c : Thread nD τ), cell1_0 arg4) 0 ∗ semVal ((c : Thread nD τ), cell1_1 arg4) 0 ∗ semVal ((c : Thread nD τ), cell1_2 arg4) 0 ∗ semVal ((c : Thread nD τ), cell1_3 arg4) 0 ∗ semVal ((c : Thread nD τ), cell1_4 arg4) 0 ∗ semVal ((c : Thread nD τ), cell1_5 arg4) 0 ∗ semVal ((c : Thread nD τ), cell1_6 arg4) 0 ∗ semVal ((c : Thread nD τ), cell1_7 arg4) 0
        ∗ owes (c : Thread nD τ) 0 W
        ∗ (iprop(owns (c : Thread nD τ) arg1 q tbl ∗ (arg2.view.loc (c : Thread nD τ) ↦{qA} fA)
              ∗ owns (c : Thread nD τ) arg3 fullShare (gath1 i tbl (arg2.view.read (Elt F) fA))
              ∗ semVal ((c : Thread nD τ), cell1_0 arg4) 0 ∗ semVal ((c : Thread nD τ), cell1_1 arg4) 0 ∗ semVal ((c : Thread nD τ), cell1_2 arg4) 0 ∗ semVal ((c : Thread nD τ), cell1_3 arg4) 0 ∗ semVal ((c : Thread nD τ), cell1_4 arg4) 0 ∗ semVal ((c : Thread nD τ), cell1_5 arg4) 0 ∗ semVal ((c : Thread nD τ), cell1_6 arg4) 0 ∗ semVal ((c : Thread nD τ), cell1_7 arg4) 0
              ∗ (∃ W', owes (c : Thread nD τ) 0 W')) -∗ K ⟨⟩))
      ⊢ wp frame (wpE (defs₀ (F := F)) Variants.none c none) Set.univ (cc1__gather_kernel i arg1 harg1 arg2 harg2 arg3 harg3 arg4) K := by
  have hi : (i 0).val < 10625 := (i 0).isLt
  have hw : ∀ (B : LoadRect S85000) (x : B.shape.Idx), (arg1.view.readAt (Elt F) B (harg1.unread tbl) x).toNat < 50000 := fun B x => by
    rw [Memref.IsWhole.readAt_unread harg1]; exact htbl _
  have hc1 : k1_chk1 (wd1_0 i arg1 (harg1.unread tbl)) := ⟨row_inb _ (hw _ _), row_inb _ (hw _ _)⟩
  have hc2 : k1_chk2 (wd1_1 i arg1 (harg1.unread tbl)) := ⟨row_inb _ (hw _ _), row_inb _ (hw _ _)⟩
  have hc3 : k1_chk3 (wd1_2 i arg1 (harg1.unread tbl)) := ⟨row_inb _ (hw _ _), row_inb _ (hw _ _)⟩
  have hc4 : k1_chk4 (wd1_3 i arg1 (harg1.unread tbl)) := ⟨row_inb _ (hw _ _), row_inb _ (hw _ _)⟩
  have hc5 : k1_chk5 (wd1_4 i arg1 (harg1.unread tbl)) := ⟨row_inb _ (hw _ _), row_inb _ (hw _ _)⟩
  have hc6 : k1_chk6 (wd1_5 i arg1 (harg1.unread tbl)) := ⟨row_inb _ (hw _ _), row_inb _ (hw _ _)⟩
  have hc7 : k1_chk7 (wd1_6 i arg1 (harg1.unread tbl)) := ⟨row_inb _ (hw _ _), row_inb _ (hw _ _)⟩
  have hc8 : k1_chk8 (wd1_7 i arg1 (harg1.unread tbl)) := row_inb _ (hw _ _)
  have hwd0 : wd1_0 i arg1 (harg1.unread tbl) = tbl (ValueIdx.ix1 (⟨8 * (i 0).val, by omega⟩ : Fin 85000)) :=
    word_at arg1 harg1 tbl (k1_off1 i) (k1_off1_inb i) (8 * (i 0).val) (Gen.k1_off1_eq i) (by omega)
  have hwd1 : wd1_1 i arg1 (harg1.unread tbl) = tbl (ValueIdx.ix1 (⟨8 * (i 0).val + 1, by omega⟩ : Fin 85000)) :=
    word_at arg1 harg1 tbl (k1_off3 i) (k1_off3_inb i) (8 * (i 0).val + 1) (Gen.k1_off3_eq i) (by omega)
  have hwd2 : wd1_2 i arg1 (harg1.unread tbl) = tbl (ValueIdx.ix1 (⟨8 * (i 0).val + 2, by omega⟩ : Fin 85000)) :=
    word_at arg1 harg1 tbl (k1_off5 i) (k1_off5_inb i) (8 * (i 0).val + 2) (Gen.k1_off5_eq i) (by omega)
  have hwd3 : wd1_3 i arg1 (harg1.unread tbl) = tbl (ValueIdx.ix1 (⟨8 * (i 0).val + 3, by omega⟩ : Fin 85000)) :=
    word_at arg1 harg1 tbl (k1_off7 i) (k1_off7_inb i) (8 * (i 0).val + 3) (Gen.k1_off7_eq i) (by omega)
  have hwd4 : wd1_4 i arg1 (harg1.unread tbl) = tbl (ValueIdx.ix1 (⟨8 * (i 0).val + 4, by omega⟩ : Fin 85000)) :=
    word_at arg1 harg1 tbl (k1_off9 i) (k1_off9_inb i) (8 * (i 0).val + 4) (Gen.k1_off9_eq i) (by omega)
  have hwd5 : wd1_5 i arg1 (harg1.unread tbl) = tbl (ValueIdx.ix1 (⟨8 * (i 0).val + 5, by omega⟩ : Fin 85000)) :=
    word_at arg1 harg1 tbl (k1_off11 i) (k1_off11_inb i) (8 * (i 0).val + 5) (Gen.k1_off11_eq i) (by omega)
  have hwd6 : wd1_6 i arg1 (harg1.unread tbl) = tbl (ValueIdx.ix1 (⟨8 * (i 0).val + 6, by omega⟩ : Fin 85000)) :=
    word_at arg1 harg1 tbl (k1_off13 i) (k1_off13_inb i) (8 * (i 0).val + 6) (Gen.k1_off13_eq i) (by omega)
  have hwd7 : wd1_7 i arg1 (harg1.unread tbl) = tbl (ValueIdx.ix1 (⟨8 * (i 0).val + 7, by omega⟩ : Fin 85000)) :=
    word_at arg1 harg1 tbl (k1_off15 i) (k1_off15_inb i) (8 * (i 0).val + 7) (Gen.k1_off15_eq i) (by omega)
  simp only [cc1__gather_kernel_eq_skeleton]; unfold cc1__gather_kernel_skel
  simp only [k1_part1_eq_skeleton, k1_part2_eq_skeleton, k1_part3_eq_skeleton]; unfold k1_part1_skel k1_part2_skel k1_part3_skel
  unfold owns
  iintro ⟨⟨%f1, %hf1, Htb⟩, HA, ⟨%d3, %f3, -, Hob⟩, Hq0, Hq1, Hq2, Hq3, Hq4, Hq5, Hq6, Hq7, HW, Hk⟩
  obtain rfl := harg1.eq_unread hf1
  ihave HA' := (toks_at (F := F) qA 7).1 $$ HA
  icases HA' with ⟨HAd, HA7, HA6, HA5, HA4, HA3, HA2, HA1, HA0, HAr⟩
  sl_exec (disch := first | exact hc1 | exact hc2 | exact hc3 | exact hc4 | exact hc5 | exact hc6 | exact hc7 | exact hc8)
  sl_step
  iapply Hk
  isplitl [Htb]
  · iexists _; isplitr; · ipureintro; exact harg1.read_unread _
    iexact Htb
  isplitl [HAd HA7 HA6 HA5 HA4 HA3 HA2 HA1 HA0 HAr]
  · iapply (toks_at (F := F) qA 7).2
    isplitl [HAd]; · iexact HAd
    isplitl [HA7]; · iexact HA7
    isplitl [HA6]; · iexact HA6
    isplitl [HA5]; · iexact HA5
    isplitl [HA4]; · iexact HA4
    isplitl [HA3]; · iexact HA3
    isplitl [HA2]; · iexact HA2
    isplitl [HA1]; · iexact HA1
    isplitl [HA0]; · iexact HA0
    iexact HAr
  isplitl [Hob_2 Hob_3 Hob_4 Hob_5 Hob_6 Hob_7 Hob_8 Hob]
  · iexists _
    isplitr
    swap
    · iapply (rows_join arg3 f3 _ _ _ _ _ _ _ _ c)
      isplitl [Hob_2]; · iexact Hob_2
      isplitl [Hob_3]; · iexact Hob_3
      isplitl [Hob_4]; · iexact Hob_4
      isplitl [Hob_5]; · iexact Hob_5
      isplitl [Hob_6]; · iexact Hob_6
      isplitl [Hob_7]; · iexact Hob_7
      isplitl [Hob_8]; · iexact Hob_8
      iexact Hob
    ipureintro
    refine rows_read arg3 f3 _ _ _ _ _ _ _ _ (gath1 i tbl (arg2.view.read (Elt F) fA)) ?_ ?_ ?_ ?_ ?_ ?_ ?_ ?_
    · intro x
      exact row_piece arg2 fA (wd1_0 i arg1 (harg1.unread tbl)) _ 0 _ (gath1 i tbl (arg2.view.read (Elt F) fA))
        (fun y z hy hz0 hz1 => gath1_row i tbl (arg2.view.read (Elt F) fA) htbl 0 (8 * (i 0).val) (Nat.add_zero _).symm (by omega) y z hy
          (hz0.trans (congrArg BitVec.toNat hwd0)) hz1) x
    · intro x
      exact row_piece arg2 fA (wd1_1 i arg1 (harg1.unread tbl)) _ 1 _ (gath1 i tbl (arg2.view.read (Elt F) fA))
        (fun y z hy hz0 hz1 => gath1_row i tbl (arg2.view.read (Elt F) fA) htbl 1 (8 * (i 0).val + 1) rfl (by omega) y z hy
          (hz0.trans (congrArg BitVec.toNat hwd1)) hz1) x
    · intro x
      exact row_piece arg2 fA (wd1_2 i arg1 (harg1.unread tbl)) _ 2 _ (gath1 i tbl (arg2.view.read (Elt F) fA))
        (fun y z hy hz0 hz1 => gath1_row i tbl (arg2.view.read (Elt F) fA) htbl 2 (8 * (i 0).val + 2) rfl (by omega) y z hy
          (hz0.trans (congrArg BitVec.toNat hwd2)) hz1) x
    · intro x
      exact row_piece arg2 fA (wd1_3 i arg1 (harg1.unread tbl)) _ 3 _ (gath1 i tbl (arg2.view.read (Elt F) fA))
        (fun y z hy hz0 hz1 => gath1_row i tbl (arg2.view.read (Elt F) fA) htbl 3 (8 * (i 0).val + 3) rfl (by omega) y z hy
          (hz0.trans (congrArg BitVec.toNat hwd3)) hz1) x
    · intro x
      exact row_piece arg2 fA (wd1_4 i arg1 (harg1.unread tbl)) _ 4 _ (gath1 i tbl (arg2.view.read (Elt F) fA))
        (fun y z hy hz0 hz1 => gath1_row i tbl (arg2.view.read (Elt F) fA) htbl 4 (8 * (i 0).val + 4) rfl (by omega) y z hy
          (hz0.trans (congrArg BitVec.toNat hwd4)) hz1) x
    · intro x
      exact row_piece arg2 fA (wd1_5 i arg1 (harg1.unread tbl)) _ 5 _ (gath1 i tbl (arg2.view.read (Elt F) fA))
        (fun y z hy hz0 hz1 => gath1_row i tbl (arg2.view.read (Elt F) fA) htbl 5 (8 * (i 0).val + 5) rfl (by omega) y z hy
          (hz0.trans (congrArg BitVec.toNat hwd5)) hz1) x
    · intro x
      exact row_piece arg2 fA (wd1_6 i arg1 (harg1.unread tbl)) _ 6 _ (gath1 i tbl (arg2.view.read (Elt F) fA))
        (fun y z hy hz0 hz1 => gath1_row i tbl (arg2.view.read (Elt F) fA) htbl 6 (8 * (i 0).val + 6) rfl (by omega) y z hy
          (hz0.trans (congrArg BitVec.toNat hwd6)) hz1) x
    · intro x
      exact row_piece arg2 fA (wd1_7 i arg1 (harg1.unread tbl)) _ 7 _ (gath1 i tbl (arg2.view.read (Elt F) fA))
        (fun y z hy hz0 hz1 => gath1_row i tbl (arg2.view.read (Elt F) fA) htbl 7 (8 * (i 0).val + 7) rfl (by omega) y z hy
          (hz0.trans (congrArg BitVec.toNat hwd7)) hz1) x
  isplitl [Hq0]; · iexact Hq0
  isplitl [Hq1]; · iexact Hq1
  isplitl [Hq2]; · iexact Hq2
  isplitl [Hq3]; · iexact Hq3
  isplitl [Hq4]; · iexact Hq4
  isplitl [Hq5]; · iexact Hq5
  isplitl [Hq6]; · iexact Hq6
  isplitl [Hq7]; · iexact Hq7
  iexists _; iexact HW

/-! ## The body obligation -/

variable (V : (c : Dev nD) → (b : Ref sig .tc) → Buf (Elt F) ((c : Thread nD τ).loc b))
variable (a1 : (pcfg1 (F := F)).Adm)

/-- The eight cells at zero, listed, each as the body names it. -/
theorem ownSems1_eq (c : Dev nD) :
    (Pipeline.ownSems0 (Ix := Unit) (Name := ℕ) (U := Pipeline.UD sig nD τ) (Lvl := ℕ) (Val := Elt F) (τ := τ) osem1 c : sProp 𝕄)
      = iprop(semVal ((c : Thread nD τ), cell1_0 cc1_scratch0) 0 ∗ semVal ((c : Thread nD τ), cell1_1 cc1_scratch0) 0 ∗ semVal ((c : Thread nD τ), cell1_2 cc1_scratch0) 0 ∗ semVal ((c : Thread nD τ), cell1_3 cc1_scratch0) 0 ∗ semVal ((c : Thread nD τ), cell1_4 cc1_scratch0) 0 ∗ semVal ((c : Thread nD τ), cell1_5 cc1_scratch0) 0 ∗ semVal ((c : Thread nD τ), cell1_6 cc1_scratch0) 0 ∗ semVal ((c : Thread nD τ), cell1_7 cc1_scratch0) 0) := by
  rw [Pipeline.ownSems0_eq_of_list c osem1 [0, 1, 2, 3, 4, 5, 6, 7] (by decide) (by decide)]; rfl

/-- The array the rows are read from, at the contents the region found it with. -/
theorem hbm1_eq (c : Dev nD) :
    (bigSep H1 (fun b => ((c : Thread nD τ).loc b) ↦{fullShare} V c b) : sProp 𝕄)
      = ((Memref.whole main_v33 : Memref sig .tc .hbm S50000x128 .f32).view.loc (c : Thread nD τ) ↦{fullShare} V c main_v33) := by
  unfold H1
  rw [BI.bigSep_eq_bigSepL_of_eq [main_v33] (by decide) (by decide)]; rfl

/-- The table, held whole at the full share, is owned at its contents. -/
theorem tblw1_eq (c : Dev nD) :
    (Pipeline.prefHeld pre1 c (fun _ => fullShare) a1.1 : sProp 𝕄)
      = owns (c : Thread nD τ) (Memref.whole main_v34 : Memref sig .tc .smem S85000 .i32) fullShare (tblw1 a1) := by
  unfold Pipeline.prefHeld
  rw [bigSep_W1, owns_whole]; rfl

set_option maxHeartbeats 4000000 in
/-- The body at every point: the invariant hands the run its table, the array, the eight cells at zero (the scoped rest and
    the generator register ride along), the core's record of waits goes in at whatever the points before left and comes
    back with this point's eight, and the output block, at anything, comes back reading the gathered rows. -/
theorem hbodyG1 [∀ e, Nonempty (Elt F e)] (hlt : ∀ k : S85000.Idx, (tblw1 a1 k).toNat < 50000) (c : Dev nD) :
    BodyObligationLoose (datG1 V a1 (gblk1 V a1) c) (defs₀ (F := F)) Variants.none () Set.univ := by
  refine BodyObligation.loose _ fun t => ?_
  rw [bigSep_W1, bigSep_W1]
  show iprop(iprop(Pipeline.ΦD osem1 spec1 H1 V c ∗ Pipeline.prefHeld pre1 c (fun _ => fullShare) a1.1)
        ∗ (datG1 V a1 (gblk1 V a1) c).owesAt () t.castSucc
        ∗ (∃ d, owns (c : Thread nD τ) (spec1_0.stage ((cfg1 a1).slots t 0)) fullShare ((datG1 V a1 (gblk1 V a1) c).before 0 t d)))
      ⊢ wp frame (wpE (defs₀ (F := F)) Variants.none c none) Set.univ
          (cc1__gather_kernel ((cfg1 a1).grid.coords t) (Memref.whole main_v34) (Memref.isWhole_whole _) (Memref.whole main_v33) (Memref.isWhole_whole _)
            (spec1_0.stage ((cfg1 a1).slots t 0)) (hstage1_0 (((cfg1 a1).slots t 0).cast nbuf1_0)) cc1_scratch0)
          (fun _ => iprop(iprop(Pipeline.ΦD osem1 spec1 H1 V c ∗ Pipeline.prefHeld pre1 c (fun _ => fullShare) a1.1)
            ∗ (datG1 V a1 (gblk1 V a1) c).owesAt () t.succ
            ∗ owns (c : Thread nD τ) (spec1_0.stage ((cfg1 a1).slots t 0)) fullShare (gblk1 V a1 c t)))
  rw [Pipeline.ΦD_eq, ownSems1_eq, hbm1_eq, tblw1_eq]
  unfold Dat.owesAt Pipeline.owesWithin
  rw [show (datG1 V a1 (gblk1 V a1) c).owed t.castSucc = 0 from rfl, show (datG1 V a1 (gblk1 V a1) c).owed t.succ = 0 from rfl]
  have hr : (Memref.whole main_v33 : Memref sig .tc .hbm S50000x128 .f32).view.read (Elt F) (V c main_v33) = V c main_v33 := by
    simp only [Memref.view_whole, View.read_whole]
  iintro ⟨⟨⟨Hsc, Hg, ⟨Hq0, Hq1, Hq2, Hq3, Hq4, Hq5, Hq6, Hq7⟩, Hh⟩, Ht⟩, ⟨%W, -, HW⟩, ⟨%d, Hob⟩⟩
  iapply (kernelRun1 c ((cfg1 a1).grid.coords t) (Memref.whole main_v34) (Memref.isWhole_whole _) (Memref.whole main_v33) (Memref.isWhole_whole _)
    (spec1_0.stage ((cfg1 a1).slots t 0)) (hstage1_0 (((cfg1 a1).slots t 0).cast nbuf1_0)) (tblw1 a1) hlt fullShare fullShare (V c main_v33) cc1_scratch0 W _)
  isplitl [Ht]; · iexact Ht
  isplitl [Hh]; · iexact Hh
  isplitl [Hob]; · iexists _; iexact Hob
  isplitl [Hq0]; · iexact Hq0
  isplitl [Hq1]; · iexact Hq1
  isplitl [Hq2]; · iexact Hq2
  isplitl [Hq3]; · iexact Hq3
  isplitl [Hq4]; · iexact Hq4
  isplitl [Hq5]; · iexact Hq5
  isplitl [Hq6]; · iexact Hq6
  isplitl [Hq7]; · iexact Hq7
  isplitl [HW]; · iexact HW
  iintro ⟨Ht, Hh, Hob, Hq0, Hq1, Hq2, Hq3, Hq4, Hq5, Hq6, Hq7, ⟨%W', HW'⟩⟩
  isplitl [Hsc Hg Hq0 Hq1 Hq2 Hq3 Hq4 Hq5 Hq6 Hq7 Hh Ht]
  · isplitl [Hsc Hg Hq0 Hq1 Hq2 Hq3 Hq4 Hq5 Hq6 Hq7 Hh]
    · isplitl [Hsc]; · iexact Hsc
      isplitl [Hg]; · iexact Hg
      isplitl [Hq0 Hq1 Hq2 Hq3 Hq4 Hq5 Hq6 Hq7]
      · isplitl [Hq0]; · iexact Hq0
        isplitl [Hq1]; · iexact Hq1
        isplitl [Hq2]; · iexact Hq2
        isplitl [Hq3]; · iexact Hq3
        isplitl [Hq4]; · iexact Hq4
        isplitl [Hq5]; · iexact Hq5
        isplitl [Hq6]; · iexact Hq6
        iexact Hq7
      iexact Hh
    iexact Ht
  isplitl [HW']
  · iexists W'; isplitr; · ipureintro; exact fun _ _ => Or.inl trivial
    iexact HW'
  rw [hr]
  iexact Hob

end Cert.Kernel.Hand

end
-- ==== Proof.K.GatherBody2.lean ====
/-
  Region 2's body obligation. The region runs the body of region 1 on its own table, array, output block and
  semaphores (the two kernel functions are one function), so the body's run is region 1's, cited at this region's eight
  semaphores; read with this region's invariant it is the pipeline's body obligation for the region's proof data.
-/
import proofs.«402049_j87351044866139_2_alg».proof.Proof.K.GatherDef2
import proofs.«402049_j87351044866139_2_alg».proof.Proof.K.GatherBody1

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Idealize.ShloMosaic.Transfers (shareDrop shareTokN)
open Cert.Kernel Cert.Kernel.Gen

variable {F : FTy → Type} [FloatOps F]

local notation "𝕄" => MT nD τ sig Unit (Elt F) ℕ (Pipeline.UD sig nD τ) ℕ

/-! ## The body obligation -/

variable (V : (c : Dev nD) → (b : Ref sig .tc) → Buf (Elt F) ((c : Thread nD τ).loc b))
variable (a1 : (pcfg2 (F := F)).Adm)

/-- The eight cells at zero, listed, each as the body names it. -/
theorem ownSems2_eq (c : Dev nD) :
    (Pipeline.ownSems0 (Ix := Unit) (Name := ℕ) (U := Pipeline.UD sig nD τ) (Lvl := ℕ) (Val := Elt F) (τ := τ) osem2 c : sProp 𝕄)
      = iprop(semVal ((c : Thread nD τ), cell1_0 cc2_scratch0) 0 ∗ semVal ((c : Thread nD τ), cell1_1 cc2_scratch0) 0 ∗ semVal ((c : Thread nD τ), cell1_2 cc2_scratch0) 0 ∗ semVal ((c : Thread nD τ), cell1_3 cc2_scratch0) 0 ∗ semVal ((c : Thread nD τ), cell1_4 cc2_scratch0) 0 ∗ semVal ((c : Thread nD τ), cell1_5 cc2_scratch0) 0 ∗ semVal ((c : Thread nD τ), cell1_6 cc2_scratch0) 0 ∗ semVal ((c : Thread nD τ), cell1_7 cc2_scratch0) 0) := by
  rw [Pipeline.ownSems0_eq_of_list c osem2 [0, 1, 2, 3, 4, 5, 6, 7] (by decide) (by decide)]; rfl

/-- The array the rows are read from, at the contents the region found it with. -/
theorem hbm2_eq (c : Dev nD) :
    (bigSep H2 (fun b => ((c : Thread nD τ).loc b) ↦{fullShare} V c b) : sProp 𝕄)
      = ((Memref.whole main_v33 : Memref sig .tc .hbm S50000x128 .f32).view.loc (c : Thread nD τ) ↦{fullShare} V c main_v33) := by
  unfold H2
  rw [BI.bigSep_eq_bigSepL_of_eq [main_v33] (by decide) (by decide)]; rfl

/-- The table, held whole at the full share, is owned at its contents. -/
theorem tblw2_eq (c : Dev nD) :
    (Pipeline.prefHeld pre2 c (fun _ => fullShare) a1.1 : sProp 𝕄)
      = owns (c : Thread nD τ) (Memref.whole main_v36 : Memref sig .tc .smem S85000 .i32) fullShare (tblw2 a1) := by
  unfold Pipeline.prefHeld
  rw [bigSep_W2, owns_whole]; rfl

set_option maxHeartbeats 4000000 in
/-- The body at every point: the invariant hands the run its table, the array, the eight cells at zero (the scoped rest and
    the generator register ride along), the core's record of waits goes in at whatever the points before left and comes
    back with this point's eight, and the output block, at anything, comes back reading the gathered rows. -/
theorem hbodyG2 [∀ e, Nonempty (Elt F e)] (hlt : ∀ k : S85000.Idx, (tblw2 a1 k).toNat < 50000) (c : Dev nD) :
    BodyObligationLoose (datG2 V a1 (gblk2 V a1) c) (defs₀ (F := F)) Variants.none () Set.univ := by
  refine BodyObligation.loose _ fun t => ?_
  rw [bigSep_W2, bigSep_W2]
  show iprop(iprop(Pipeline.ΦD osem2 spec2 H2 V c ∗ Pipeline.prefHeld pre2 c (fun _ => fullShare) a1.1)
        ∗ (datG2 V a1 (gblk2 V a1) c).owesAt () t.castSucc
        ∗ (∃ d, owns (c : Thread nD τ) (spec2_0.stage ((cfg2 a1).slots t 0)) fullShare ((datG2 V a1 (gblk2 V a1) c).before 0 t d)))
      ⊢ wp frame (wpE (defs₀ (F := F)) Variants.none c none) Set.univ
          (cc2__gather_kernel ((cfg2 a1).grid.coords t) (Memref.whole main_v36) (Memref.isWhole_whole _) (Memref.whole main_v33) (Memref.isWhole_whole _)
            (spec2_0.stage ((cfg2 a1).slots t 0)) (hstage2_0 (((cfg2 a1).slots t 0).cast nbuf2_0)) cc2_scratch0)
          (fun _ => iprop(iprop(Pipeline.ΦD osem2 spec2 H2 V c ∗ Pipeline.prefHeld pre2 c (fun _ => fullShare) a1.1)
            ∗ (datG2 V a1 (gblk2 V a1) c).owesAt () t.succ
            ∗ owns (c : Thread nD τ) (spec2_0.stage ((cfg2 a1).slots t 0)) fullShare (gblk2 V a1 c t)))
  rw [Pipeline.ΦD_eq, ownSems2_eq, hbm2_eq, tblw2_eq]
  unfold Dat.owesAt Pipeline.owesWithin
  rw [show (datG2 V a1 (gblk2 V a1) c).owed t.castSucc = 0 from rfl, show (datG2 V a1 (gblk2 V a1) c).owed t.succ = 0 from rfl]
  have hr : (Memref.whole main_v33 : Memref sig .tc .hbm S50000x128 .f32).view.read (Elt F) (V c main_v33) = V c main_v33 := by
    simp only [Memref.view_whole, View.read_whole]
  iintro ⟨⟨⟨Hsc, Hg, ⟨Hq0, Hq1, Hq2, Hq3, Hq4, Hq5, Hq6, Hq7⟩, Hh⟩, Ht⟩, ⟨%W, -, HW⟩, ⟨%d, Hob⟩⟩
  iapply (kernelRun1 c ((cfg2 a1).grid.coords t) (Memref.whole main_v36) (Memref.isWhole_whole _) (Memref.whole main_v33) (Memref.isWhole_whole _)
    (spec2_0.stage ((cfg2 a1).slots t 0)) (hstage2_0 (((cfg2 a1).slots t 0).cast nbuf2_0)) (tblw2 a1) hlt fullShare fullShare (V c main_v33) cc2_scratch0 W _)
  isplitl [Ht]; · iexact Ht
  isplitl [Hh]; · iexact Hh
  isplitl [Hob]; · iexists _; iexact Hob
  isplitl [Hq0]; · iexact Hq0
  isplitl [Hq1]; · iexact Hq1
  isplitl [Hq2]; · iexact Hq2
  isplitl [Hq3]; · iexact Hq3
  isplitl [Hq4]; · iexact Hq4
  isplitl [Hq5]; · iexact Hq5
  isplitl [Hq6]; · iexact Hq6
  isplitl [Hq7]; · iexact Hq7
  isplitl [HW]; · iexact HW
  iintro ⟨Ht, Hh, Hob, Hq0, Hq1, Hq2, Hq3, Hq4, Hq5, Hq6, Hq7, ⟨%W', HW'⟩⟩
  isplitl [Hsc Hg Hq0 Hq1 Hq2 Hq3 Hq4 Hq5 Hq6 Hq7 Hh Ht]
  · isplitl [Hsc Hg Hq0 Hq1 Hq2 Hq3 Hq4 Hq5 Hq6 Hq7 Hh]
    · isplitl [Hsc]; · iexact Hsc
      isplitl [Hg]; · iexact Hg
      isplitl [Hq0 Hq1 Hq2 Hq3 Hq4 Hq5 Hq6 Hq7]
      · isplitl [Hq0]; · iexact Hq0
        isplitl [Hq1]; · iexact Hq1
        isplitl [Hq2]; · iexact Hq2
        isplitl [Hq3]; · iexact Hq3
        isplitl [Hq4]; · iexact Hq4
        isplitl [Hq5]; · iexact Hq5
        isplitl [Hq6]; · iexact Hq6
        iexact Hq7
      iexact Hh
    iexact Ht
  isplitl [HW']
  · iexists W'; isplitr; · ipureintro; exact fun _ _ => Or.inl trivial
    iexact HW'
  rw [hr]
  iexact Hob

end Cert.Kernel.Hand

end
-- ==== Proof.K.GatherBody3.lean ====
/-
  Region 3's body obligation. The region runs the body of region 1 on its own table, array, output block and
  semaphores (the two kernel functions are one function), so the body's run is region 1's, cited at this region's eight
  semaphores; read with this region's invariant it is the pipeline's body obligation for the region's proof data.
-/
import proofs.«402049_j87351044866139_2_alg».proof.Proof.K.GatherDef3
import proofs.«402049_j87351044866139_2_alg».proof.Proof.K.GatherBody1

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Idealize.ShloMosaic.Transfers (shareDrop shareTokN)
open Cert.Kernel Cert.Kernel.Gen

variable {F : FTy → Type} [FloatOps F]

local notation "𝕄" => MT nD τ sig Unit (Elt F) ℕ (Pipeline.UD sig nD τ) ℕ

/-! ## The body obligation -/

variable (V : (c : Dev nD) → (b : Ref sig .tc) → Buf (Elt F) ((c : Thread nD τ).loc b))
variable (a1 : (pcfg3 (F := F)).Adm)

/-- The eight cells at zero, listed, each as the body names it. -/
theorem ownSems3_eq (c : Dev nD) :
    (Pipeline.ownSems0 (Ix := Unit) (Name := ℕ) (U := Pipeline.UD sig nD τ) (Lvl := ℕ) (Val := Elt F) (τ := τ) osem3 c : sProp 𝕄)
      = iprop(semVal ((c : Thread nD τ), cell1_0 cc3_scratch0) 0 ∗ semVal ((c : Thread nD τ), cell1_1 cc3_scratch0) 0 ∗ semVal ((c : Thread nD τ), cell1_2 cc3_scratch0) 0 ∗ semVal ((c : Thread nD τ), cell1_3 cc3_scratch0) 0 ∗ semVal ((c : Thread nD τ), cell1_4 cc3_scratch0) 0 ∗ semVal ((c : Thread nD τ), cell1_5 cc3_scratch0) 0 ∗ semVal ((c : Thread nD τ), cell1_6 cc3_scratch0) 0 ∗ semVal ((c : Thread nD τ), cell1_7 cc3_scratch0) 0) := by
  rw [Pipeline.ownSems0_eq_of_list c osem3 [0, 1, 2, 3, 4, 5, 6, 7] (by decide) (by decide)]; rfl

/-- The array the rows are read from, at the contents the region found it with. -/
theorem hbm3_eq (c : Dev nD) :
    (bigSep H3 (fun b => ((c : Thread nD τ).loc b) ↦{fullShare} V c b) : sProp 𝕄)
      = ((Memref.whole main_v33 : Memref sig .tc .hbm S50000x128 .f32).view.loc (c : Thread nD τ) ↦{fullShare} V c main_v33) := by
  unfold H3
  rw [BI.bigSep_eq_bigSepL_of_eq [main_v33] (by decide) (by decide)]; rfl

/-- The table, held whole at the full share, is owned at its contents. -/
theorem tblw3_eq (c : Dev nD) :
    (Pipeline.prefHeld pre3 c (fun _ => fullShare) a1.1 : sProp 𝕄)
      = owns (c : Thread nD τ) (Memref.whole main_v38 : Memref sig .tc .smem S85000 .i32) fullShare (tblw3 a1) := by
  unfold Pipeline.prefHeld
  rw [bigSep_W3, owns_whole]; rfl

set_option maxHeartbeats 4000000 in
/-- The body at every point: the invariant hands the run its table, the array, the eight cells at zero (the scoped rest and
    the generator register ride along), the core's record of waits goes in at whatever the points before left and comes
    back with this point's eight, and the output block, at anything, comes back reading the gathered rows. -/
theorem hbodyG3 [∀ e, Nonempty (Elt F e)] (hlt : ∀ k : S85000.Idx, (tblw3 a1 k).toNat < 50000) (c : Dev nD) :
    BodyObligationLoose (datG3 V a1 (gblk3 V a1) c) (defs₀ (F := F)) Variants.none () Set.univ := by
  refine BodyObligation.loose _ fun t => ?_
  rw [bigSep_W3, bigSep_W3]
  show iprop(iprop(Pipeline.ΦD osem3 spec3 H3 V c ∗ Pipeline.prefHeld pre3 c (fun _ => fullShare) a1.1)
        ∗ (datG3 V a1 (gblk3 V a1) c).owesAt () t.castSucc
        ∗ (∃ d, owns (c : Thread nD τ) (spec3_0.stage ((cfg3 a1).slots t 0)) fullShare ((datG3 V a1 (gblk3 V a1) c).before 0 t d)))
      ⊢ wp frame (wpE (defs₀ (F := F)) Variants.none c none) Set.univ
          (cc3__gather_kernel ((cfg3 a1).grid.coords t) (Memref.whole main_v38) (Memref.isWhole_whole _) (Memref.whole main_v33) (Memref.isWhole_whole _)
            (spec3_0.stage ((cfg3 a1).slots t 0)) (hstage3_0 (((cfg3 a1).slots t 0).cast nbuf3_0)) cc3_scratch0)
          (fun _ => iprop(iprop(Pipeline.ΦD osem3 spec3 H3 V c ∗ Pipeline.prefHeld pre3 c (fun _ => fullShare) a1.1)
            ∗ (datG3 V a1 (gblk3 V a1) c).owesAt () t.succ
            ∗ owns (c : Thread nD τ) (spec3_0.stage ((cfg3 a1).slots t 0)) fullShare (gblk3 V a1 c t)))
  rw [Pipeline.ΦD_eq, ownSems3_eq, hbm3_eq, tblw3_eq]
  unfold Dat.owesAt Pipeline.owesWithin
  rw [show (datG3 V a1 (gblk3 V a1) c).owed t.castSucc = 0 from rfl, show (datG3 V a1 (gblk3 V a1) c).owed t.succ = 0 from rfl]
  have hr : (Memref.whole main_v33 : Memref sig .tc .hbm S50000x128 .f32).view.read (Elt F) (V c main_v33) = V c main_v33 := by
    simp only [Memref.view_whole, View.read_whole]
  iintro ⟨⟨⟨Hsc, Hg, ⟨Hq0, Hq1, Hq2, Hq3, Hq4, Hq5, Hq6, Hq7⟩, Hh⟩, Ht⟩, ⟨%W, -, HW⟩, ⟨%d, Hob⟩⟩
  iapply (kernelRun1 c ((cfg3 a1).grid.coords t) (Memref.whole main_v38) (Memref.isWhole_whole _) (Memref.whole main_v33) (Memref.isWhole_whole _)
    (spec3_0.stage ((cfg3 a1).slots t 0)) (hstage3_0 (((cfg3 a1).slots t 0).cast nbuf3_0)) (tblw3 a1) hlt fullShare fullShare (V c main_v33) cc3_scratch0 W _)
  isplitl [Ht]; · iexact Ht
  isplitl [Hh]; · iexact Hh
  isplitl [Hob]; · iexists _; iexact Hob
  isplitl [Hq0]; · iexact Hq0
  isplitl [Hq1]; · iexact Hq1
  isplitl [Hq2]; · iexact Hq2
  isplitl [Hq3]; · iexact Hq3
  isplitl [Hq4]; · iexact Hq4
  isplitl [Hq5]; · iexact Hq5
  isplitl [Hq6]; · iexact Hq6
  isplitl [Hq7]; · iexact Hq7
  isplitl [HW]; · iexact HW
  iintro ⟨Ht, Hh, Hob, Hq0, Hq1, Hq2, Hq3, Hq4, Hq5, Hq6, Hq7, ⟨%W', HW'⟩⟩
  isplitl [Hsc Hg Hq0 Hq1 Hq2 Hq3 Hq4 Hq5 Hq6 Hq7 Hh Ht]
  · isplitl [Hsc Hg Hq0 Hq1 Hq2 Hq3 Hq4 Hq5 Hq6 Hq7 Hh]
    · isplitl [Hsc]; · iexact Hsc
      isplitl [Hg]; · iexact Hg
      isplitl [Hq0 Hq1 Hq2 Hq3 Hq4 Hq5 Hq6 Hq7]
      · isplitl [Hq0]; · iexact Hq0
        isplitl [Hq1]; · iexact Hq1
        isplitl [Hq2]; · iexact Hq2
        isplitl [Hq3]; · iexact Hq3
        isplitl [Hq4]; · iexact Hq4
        isplitl [Hq5]; · iexact Hq5
        isplitl [Hq6]; · iexact Hq6
        iexact Hq7
      iexact Hh
    iexact Ht
  isplitl [HW']
  · iexists W'; isplitr; · ipureintro; exact fun _ _ => Or.inl trivial
    iexact HW'
  rw [hr]
  iexact Hob

end Cert.Kernel.Hand

end
-- ==== Proof.K.GatherBody4.lean ====
/-
  Region 4's body obligation. The region runs the body of region 1 on its own table, array, output block and
  semaphores (the two kernel functions are one function), so the body's run is region 1's, cited at this region's eight
  semaphores; read with this region's invariant it is the pipeline's body obligation for the region's proof data.
-/
import proofs.«402049_j87351044866139_2_alg».proof.Proof.K.GatherDef4
import proofs.«402049_j87351044866139_2_alg».proof.Proof.K.GatherBody1

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Idealize.ShloMosaic.Transfers (shareDrop shareTokN)
open Cert.Kernel Cert.Kernel.Gen

variable {F : FTy → Type} [FloatOps F]

local notation "𝕄" => MT nD τ sig Unit (Elt F) ℕ (Pipeline.UD sig nD τ) ℕ

/-! ## The body obligation -/

variable (V : (c : Dev nD) → (b : Ref sig .tc) → Buf (Elt F) ((c : Thread nD τ).loc b))
variable (a1 : (pcfg4 (F := F)).Adm)

/-- The eight cells at zero, listed, each as the body names it. -/
theorem ownSems4_eq (c : Dev nD) :
    (Pipeline.ownSems0 (Ix := Unit) (Name := ℕ) (U := Pipeline.UD sig nD τ) (Lvl := ℕ) (Val := Elt F) (τ := τ) osem4 c : sProp 𝕄)
      = iprop(semVal ((c : Thread nD τ), cell1_0 cc4_scratch0) 0 ∗ semVal ((c : Thread nD τ), cell1_1 cc4_scratch0) 0 ∗ semVal ((c : Thread nD τ), cell1_2 cc4_scratch0) 0 ∗ semVal ((c : Thread nD τ), cell1_3 cc4_scratch0) 0 ∗ semVal ((c : Thread nD τ), cell1_4 cc4_scratch0) 0 ∗ semVal ((c : Thread nD τ), cell1_5 cc4_scratch0) 0 ∗ semVal ((c : Thread nD τ), cell1_6 cc4_scratch0) 0 ∗ semVal ((c : Thread nD τ), cell1_7 cc4_scratch0) 0) := by
  rw [Pipeline.ownSems0_eq_of_list c osem4 [0, 1, 2, 3, 4, 5, 6, 7] (by decide) (by decide)]; rfl

/-- The array the rows are read from, at the contents the region found it with. -/
theorem hbm4_eq (c : Dev nD) :
    (bigSep H4 (fun b => ((c : Thread nD τ).loc b) ↦{fullShare} V c b) : sProp 𝕄)
      = ((Memref.whole main_v33 : Memref sig .tc .hbm S50000x128 .f32).view.loc (c : Thread nD τ) ↦{fullShare} V c main_v33) := by
  unfold H4
  rw [BI.bigSep_eq_bigSepL_of_eq [main_v33] (by decide) (by decide)]; rfl

/-- The table, held whole at the full share, is owned at its contents. -/
theorem tblw4_eq (c : Dev nD) :
    (Pipeline.prefHeld pre4 c (fun _ => fullShare) a1.1 : sProp 𝕄)
      = owns (c : Thread nD τ) (Memref.whole main_v40 : Memref sig .tc .smem S85000 .i32) fullShare (tblw4 a1) := by
  unfold Pipeline.prefHeld
  rw [bigSep_W4, owns_whole]; rfl

set_option maxHeartbeats 4000000 in
/-- The body at every point: the invariant hands the run its table, the array, the eight cells at zero (the scoped rest and
    the generator register ride along), the core's record of waits goes in at whatever the points before left and comes
    back with this point's eight, and the output block, at anything, comes back reading the gathered rows. -/
theorem hbodyG4 [∀ e, Nonempty (Elt F e)] (hlt : ∀ k : S85000.Idx, (tblw4 a1 k).toNat < 50000) (c : Dev nD) :
    BodyObligationLoose (datG4 V a1 (gblk4 V a1) c) (defs₀ (F := F)) Variants.none () Set.univ := by
  refine BodyObligation.loose _ fun t => ?_
  rw [bigSep_W4, bigSep_W4]
  show iprop(iprop(Pipeline.ΦD osem4 spec4 H4 V c ∗ Pipeline.prefHeld pre4 c (fun _ => fullShare) a1.1)
        ∗ (datG4 V a1 (gblk4 V a1) c).owesAt () t.castSucc
        ∗ (∃ d, owns (c : Thread nD τ) (spec4_0.stage ((cfg4 a1).slots t 0)) fullShare ((datG4 V a1 (gblk4 V a1) c).before 0 t d)))
      ⊢ wp frame (wpE (defs₀ (F := F)) Variants.none c none) Set.univ
          (cc4__gather_kernel ((cfg4 a1).grid.coords t) (Memref.whole main_v40) (Memref.isWhole_whole _) (Memref.whole main_v33) (Memref.isWhole_whole _)
            (spec4_0.stage ((cfg4 a1).slots t 0)) (hstage4_0 (((cfg4 a1).slots t 0).cast nbuf4_0)) cc4_scratch0)
          (fun _ => iprop(iprop(Pipeline.ΦD osem4 spec4 H4 V c ∗ Pipeline.prefHeld pre4 c (fun _ => fullShare) a1.1)
            ∗ (datG4 V a1 (gblk4 V a1) c).owesAt () t.succ
            ∗ owns (c : Thread nD τ) (spec4_0.stage ((cfg4 a1).slots t 0)) fullShare (gblk4 V a1 c t)))
  rw [Pipeline.ΦD_eq, ownSems4_eq, hbm4_eq, tblw4_eq]
  unfold Dat.owesAt Pipeline.owesWithin
  rw [show (datG4 V a1 (gblk4 V a1) c).owed t.castSucc = 0 from rfl, show (datG4 V a1 (gblk4 V a1) c).owed t.succ = 0 from rfl]
  have hr : (Memref.whole main_v33 : Memref sig .tc .hbm S50000x128 .f32).view.read (Elt F) (V c main_v33) = V c main_v33 := by
    simp only [Memref.view_whole, View.read_whole]
  iintro ⟨⟨⟨Hsc, Hg, ⟨Hq0, Hq1, Hq2, Hq3, Hq4, Hq5, Hq6, Hq7⟩, Hh⟩, Ht⟩, ⟨%W, -, HW⟩, ⟨%d, Hob⟩⟩
  iapply (kernelRun1 c ((cfg4 a1).grid.coords t) (Memref.whole main_v40) (Memref.isWhole_whole _) (Memref.whole main_v33) (Memref.isWhole_whole _)
    (spec4_0.stage ((cfg4 a1).slots t 0)) (hstage4_0 (((cfg4 a1).slots t 0).cast nbuf4_0)) (tblw4 a1) hlt fullShare fullShare (V c main_v33) cc4_scratch0 W _)
  isplitl [Ht]; · iexact Ht
  isplitl [Hh]; · iexact Hh
  isplitl [Hob]; · iexists _; iexact Hob
  isplitl [Hq0]; · iexact Hq0
  isplitl [Hq1]; · iexact Hq1
  isplitl [Hq2]; · iexact Hq2
  isplitl [Hq3]; · iexact Hq3
  isplitl [Hq4]; · iexact Hq4
  isplitl [Hq5]; · iexact Hq5
  isplitl [Hq6]; · iexact Hq6
  isplitl [Hq7]; · iexact Hq7
  isplitl [HW]; · iexact HW
  iintro ⟨Ht, Hh, Hob, Hq0, Hq1, Hq2, Hq3, Hq4, Hq5, Hq6, Hq7, ⟨%W', HW'⟩⟩
  isplitl [Hsc Hg Hq0 Hq1 Hq2 Hq3 Hq4 Hq5 Hq6 Hq7 Hh Ht]
  · isplitl [Hsc Hg Hq0 Hq1 Hq2 Hq3 Hq4 Hq5 Hq6 Hq7 Hh]
    · isplitl [Hsc]; · iexact Hsc
      isplitl [Hg]; · iexact Hg
      isplitl [Hq0 Hq1 Hq2 Hq3 Hq4 Hq5 Hq6 Hq7]
      · isplitl [Hq0]; · iexact Hq0
        isplitl [Hq1]; · iexact Hq1
        isplitl [Hq2]; · iexact Hq2
        isplitl [Hq3]; · iexact Hq3
        isplitl [Hq4]; · iexact Hq4
        isplitl [Hq5]; · iexact Hq5
        isplitl [Hq6]; · iexact Hq6
        iexact Hq7
      iexact Hh
    iexact Ht
  isplitl [HW']
  · iexists W'; isplitr; · ipureintro; exact fun _ _ => Or.inl trivial
    iexact HW'
  rw [hr]
  iexact Hob

end Cert.Kernel.Hand

end
-- ==== Proof.K.Regs0.lean ====
import proofs.«402049_j87351044866139_2_alg».proof.Proof.K.Fam
import proofs.«402049_j87351044866139_2_alg».proof.Proof.K.Tables
import proofs.«402049_j87351044866139_2_alg».proof.Proof.K.GatherBody1
import proofs.«402049_j87351044866139_2_alg».proof.Proof.K.GatherBody2
import proofs.«402049_j87351044866139_2_alg».proof.Proof.K.GatherBody3
import proofs.«402049_j87351044866139_2_alg».proof.Proof.K.GatherBody4
import Idealize.ShloMosaic.Lib.Pipeline.RegionsLoop

/-! The records of regions 0 to 4 over the thread states: each entered from every unscoped buffer at the real valuation
    before it and left at the one after it; for a gather region, first that every word of its table is a node's number. -/

set_option maxRecDepth 16384

noncomputable section

namespace Cert.Kernel.Hand

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg BodyObligation BodyObligationLoose)

variable {F : FTy → Type} [FloatOps F]

local notation "𝕄" => MT nD τ sig Unit (Elt F) ℕ UU ℕ

set_option maxHeartbeats 1000000 in
set_option backward.isDefEq.respectTransparency.types false in
/-- REGION 0 over the thread state: entered from every unscoped buffer at `U3`, left at `U4`. -/
def reg0 (m : (ℓ : Loc nD τ sig) → Buf (Elt F) ℓ) : RegionSeg (pcfgs (F := F)) (adm m) (pdats m) () defs₀ 𝒱₀ L lv 0 where
  win := (launch0 (F := F)).win.to₀
  block_pos := (launch0 (F := F)).block_pos
  stage_whole := (launch0 (F := F)).stage_whole
  K := PEmpty
  osem k := k.elim
  ho := Pipeline.OwnSemFacts.none _
  hbody c := (body_obligation0 (atTc (U3 m)) c).loose
  hwaits := Pipeline.hwaits_of_owed_zero _ _ _ _ L lv 0 fun _ _ => rfl
  pre c := iprop(StableHlo.held (c : Thread nD τ) (Pipeline.ucRefs τ sig) (U3 m c) ∗ R (F := F) c)
  post c := iprop(StableHlo.held (c : Thread nD τ) (Pipeline.ucRefs τ sig) (U4 m c) ∗ R (F := F) c)
  X c := iprop(∃ r, prngReg c r)
  Y c := iprop(∃ r, prngReg c r)
  Z c := Pipeline.unscopedRest (Ix := Unit) (Name := ℕ) (U := UU) (Lvl := ℕ) spec0 c (atTc (U3 m) c)
  hentry c := by
    have hsplit := Pipeline.arrays_of_unscopedBufs (p := 0) (pcfgs (F := F)) (adm m) (pdats m) (launch0 (F := F)).win (launch0 (F := F)).arr_whole c
      ((pdats m 0 c).share_full fun _ => rfl) (atTc (U3 m) c) (fun _ => rfl)
    rw [Pipeline.unscopedBufs_held] at hsplit
    exact enterA c (U3 m c) hsplit (prefHeld_none_intro c _ _) (owesAt_first c _ rfl rfl)
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) (adm m) (Ix := Unit) (Name := ℕ) (U := UU) (Lvl := ℕ)
      (launch0 (F := F)).win (launch0 (F := F)).arr_whole c (pdats m) ((pdats m 0 c).share_full fun _ => rfl)
      (atTc (U3 m) c) (atTc (U4 m) c) ((pdats m 0 c).arrAt · cfg0.N) (hF0 m c) (hrest0 m c)
    rw [Pipeline.unscopedBufs_held] at hjoin
    exact leaveA c (U4 m c) hjoin (owes_of_owesAt_last c _ rfl)

set_option maxHeartbeats 1000000 in
/-- Every word of region 1's table is a node's number: the data's table is what the real valuation at the region's entry
    holds in the table's buffer; that valuation is the run's own, whose table is the closed one of the launch memory. -/
theorem hlt1 (m : (ℓ : Loc nD τ sig) → Buf (Elt F) ℓ) (hm : ∀ i : S2x800000.Idx, ((V0 m c₀ main_arg1 : IVec S2x800000 32) i).toNat < 50000) :
    ∀ k : S85000.Idx, (tblw1 (a1 m) k).toNat < 50000 := by
  have h1 : tblw1 (a1 m) = (U5 m c₀ main_v34 : IVec S85000 32) := by
    unfold a1
    rfl
  have h2 : ∀ W : Valuation τ sig (Elt F), V5 m (outsU m) c₀ = W → (W main_v34 : IVec S85000 32) = tbl1 m c₀ :=
    fun W hW => by subst hW; exact tbl1_eq m (outsU m) c₀
  have e : tblw1 (a1 m) = tbl1 m c₀ := h1.trans (h2 (U5 m c₀) (V5_eq m c₀))
  intro k
  rw [e]; exact tbl1_lt m c₀ hm k
set_option maxHeartbeats 1000000 in
set_option backward.isDefEq.respectTransparency.types false in
/-- REGION 1 over the thread state: entered from every unscoped buffer at `U5`, left at `U6`. -/
def reg1 (m : (ℓ : Loc nD τ sig) → Buf (Elt F) ℓ) (hm : ∀ i : S2x800000.Idx, ((V0 m c₀ main_arg1 : IVec S2x800000 32) i).toNat < 50000) :
    RegionSeg (pcfgs (F := F)) (adm m) (pdats m) () defs₀ 𝒱₀ L lv 1 where
  win := (launch1 (F := F)).win.to₀
  block_pos := (launch1 (F := F)).block_pos
  stage_whole := (launch1 (F := F)).stage_whole
  K := Fin 8
  osem := osem1
  ho := ownSemFacts1
  hbody c := hbodyG1 (atTc (U5 m)) (a1 m) (hlt1 m hm) c
  hwaits := Pipeline.hwaits_of_owed_zero _ _ _ _ L lv 1 fun _ _ => rfl
  pre c := iprop(StableHlo.held (c : Thread nD τ) (Pipeline.ucRefs τ sig) (U5 m c) ∗ R (F := F) c)
  post c := iprop(StableHlo.held (c : Thread nD τ) (Pipeline.ucRefs τ sig) (U6 m c) ∗ R (F := F) c)
  X c := XG1 (atTc (U5 m)) c
  Y c := YG1 (atTc (U5 m)) (a1 m) c
  Z c := ZG1 (atTc (U5 m)) c
  hentry c := by
    have hsplit := Pipeline.arrays_of_unscopedBufs (p := 1) (pcfgs (F := F)) (adm m) (pdats m) (launch1 (F := F)).win (launch1 (F := F)).arr_whole c
      ((pdats m 1 c).share_full fun _ => rfl) (atTc (U5 m) c) (fun _ => rfl)
    have h := hentryG1 (atTc (U5 m)) (a1 m) (gblk1 (atTc (U5 m)) (a1 m)) c (hpf1 m c) hsplit
    rw [Pipeline.unscopedBufs_held] at h
    exact h
  hin c := hinG1 (atTc (U5 m)) (a1 m) (gblk1 (atTc (U5 m)) (a1 m)) c
  hout c := houtG1 (atTc (U5 m)) (a1 m) (gblk1 (atTc (U5 m)) (a1 m)) c
  hexit c := by
    have hjoin := Pipeline.unscopedBufs_of_arrays (p := 1) (pcfgs (F := F)) (adm m) (Ix := Unit) (Name := ℕ) (U := UU) (Lvl := ℕ)
      (launch1 (F := F)).win (launch1 (F := F)).arr_whole c (pdats m) ((pdats m 1 c).share_full fun _ => rfl)
      (atTc (U5 m) c) (atTc (U6 m) c) ((pdats m 1 c).arrAt · (cfg1 (a1 m)).N) (hF1 m c) (hrest1 m c)
    have h := hexitG1 (atTc (U5 m)) (a1 m) (gblk1 (atTc (U5 m)) (a1 m)) (atTc (U6 m)) c (hpf1 m c) hjoin
    rw [Pipeline.unscopedBufs_held] at h
    exact h

set_option maxHeartbeats 1000000 in
/-- Every word of region 2's table is a node's number: the data's table is what the real valuation at the region's entry
    holds in the table's buffer; that valuation is the run's own, whose table is the closed one of the launch memory. -/
theorem hlt2 (m : (ℓ : Loc nD τ sig) → Buf (Elt F) ℓ) (hm : ∀ i : S2x800000.Idx, ((V0 m c₀ main_arg1 : IVec S2x800000 32) i).toNat < 50000) :
    ∀ k : S85000.Idx, (tblw2 (a2 m) k).toNat < 50000 := by
  have h1 : tblw2 (a2 m) = (U7 m c₀ main_v36 : IVec S85000 32) := by
    unfold a2
    rfl
  have h2 : ∀ W : Valuation τ sig (Elt F), V7 m (outsU m) c₀ = W → (W main_v36 : IVec S85000 32) = tbl2 m c₀ :=
    fun W hW => by subst hW; exact tbl2_eq m (outsU m) c₀
  have e : tblw2 (a2 m) = tbl2 m c₀ := h1.trans (h2 (U7 m c₀) (V7_eq m c₀))
  intro k
  rw [e]; exact tbl2_lt m c₀ hm k
set_option maxHeartbeats 1000000 in
set_option backward.isDefEq.respectTransparency.types false in
/-- REGION 2 over the thread state: entered from every unscoped buffer at `U7`, left at `U8`. -/
def reg2 (m : (ℓ : Loc nD τ sig) → Buf (Elt F) ℓ) (hm : ∀ i : S2x800000.Idx, ((V0 m c₀ main_arg1 : IVec S2x800000 32) i).toNat < 50000) :
    RegionSeg (pcfgs (F := F)) (adm m) (pdats m) () defs₀ 𝒱₀ L lv 2 where
  win := (launch2 (F := F)).win.to₀
  block_pos := (launch2 (F := F)).block_pos
  stage_whole := (launch2 (F := F)).stage_whole
  K := Fin 8
  osem := osem2
  ho := ownSemFacts2
  hbody c := hbodyG2 (atTc (U7 m)) (a2 m) (hlt2 m hm) c
  hwaits := Pipeline.hwaits_of_owed_zero _ _ _ _ L lv 2 fun _ _ => rfl
  pre c := iprop(StableHlo.held (c : Thread nD τ) (Pipeline.ucRefs τ sig) (U7 m c) ∗ R (F := F) c)
  post c := iprop(StableHlo.held (c : Thread nD τ) (Pipeline.ucRefs τ sig) (U8 m c) ∗ R (F := F) c)
  X c := XG2 (atTc (U7 m)) c
  Y c := YG2 (atTc (U7 m)) (a2 m) c
  Z c := ZG2 (atTc (U7 m)) c
  hentry c := by
    have hsplit := Pipeline.arrays_of_unscopedBufs (p := 2) (pcfgs (F := F)) (adm m) (pdats m) (launch2 (F := F)).win (launch2 (F := F)).arr_whole c
      ((pdats m 2 c).share_full fun _ => rfl) (atTc (U7 m) c) (fun _ => rfl)
    have h := hentryG2 (atTc (U7 m)) (a2 m) (gblk2 (atTc (U7 m)) (a2 m)) c (hpf2 m c) hsplit
    rw [Pipeline.unscopedBufs_held] at h
    exact h
  hin c := hinG2 (atTc (U7 m)) (a2 m) (gblk2 (atTc (U7 m)) (a2 m)) c
  hout c := houtG2 (atTc (U7 m)) (a2 m) (gblk2 (atTc (U7 m)) (a2 m)) c
  hexit c := by
    have hjoin := Pipeline.unscopedBufs_of_arrays (p := 2) (pcfgs (F := F)) (adm m) (Ix := Unit) (Name := ℕ) (U := UU) (Lvl := ℕ)
      (launch2 (F := F)).win (launch2 (F := F)).arr_whole c (pdats m) ((pdats m 2 c).share_full fun _ => rfl)
      (atTc (U7 m) c) (atTc (U8 m) c) ((pdats m 2 c).arrAt · (cfg2 (a2 m)).N) (hF2 m c) (hrest2 m c)
    have h := hexitG2 (atTc (U7 m)) (a2 m) (gblk2 (atTc (U7 m)) (a2 m)) (atTc (U8 m)) c (hpf2 m c) hjoin
    rw [Pipeline.unscopedBufs_held] at h
    exact h

set_option maxHeartbeats 1000000 in
/-- Every word of region 3's table is a node's number: the data's table is what the real valuation at the region's entry
    holds in the table's buffer; that valuation is the run's own, whose table is the closed one of the launch memory. -/
theorem hlt3 (m : (ℓ : Loc nD τ sig) → Buf (Elt F) ℓ) (hm : ∀ i : S2x800000.Idx, ((V0 m c₀ main_arg1 : IVec S2x800000 32) i).toNat < 50000) :
    ∀ k : S85000.Idx, (tblw3 (a3 m) k).toNat < 50000 := by
  have h1 : tblw3 (a3 m) = (U9 m c₀ main_v38 : IVec S85000 32) := by
    unfold a3
    rfl
  have h2 : ∀ W : Valuation τ sig (Elt F), V9 m (outsU m) c₀ = W → (W main_v38 : IVec S85000 32) = tbl3 m c₀ :=
    fun W hW => by subst hW; exact tbl3_eq m (outsU m) c₀
  have e : tblw3 (a3 m) = tbl3 m c₀ := h1.trans (h2 (U9 m c₀) (V9_eq m c₀))
  intro k
  rw [e]; exact tbl3_lt m c₀ hm k
set_option maxHeartbeats 1000000 in
set_option backward.isDefEq.respectTransparency.types false in
/-- REGION 3 over the thread state: entered from every unscoped buffer at `U9`, left at `U10`. -/
def reg3 (m : (ℓ : Loc nD τ sig) → Buf (Elt F) ℓ) (hm : ∀ i : S2x800000.Idx, ((V0 m c₀ main_arg1 : IVec S2x800000 32) i).toNat < 50000) :
    RegionSeg (pcfgs (F := F)) (adm m) (pdats m) () defs₀ 𝒱₀ L lv 3 where
  win := (launch3 (F := F)).win.to₀
  block_pos := (launch3 (F := F)).block_pos
  stage_whole := (launch3 (F := F)).stage_whole
  K := Fin 8
  osem := osem3
  ho := ownSemFacts3
  hbody c := hbodyG3 (atTc (U9 m)) (a3 m) (hlt3 m hm) c
  hwaits := Pipeline.hwaits_of_owed_zero _ _ _ _ L lv 3 fun _ _ => rfl
  pre c := iprop(StableHlo.held (c : Thread nD τ) (Pipeline.ucRefs τ sig) (U9 m c) ∗ R (F := F) c)
  post c := iprop(StableHlo.held (c : Thread nD τ) (Pipeline.ucRefs τ sig) (U10 m c) ∗ R (F := F) c)
  X c := XG3 (atTc (U9 m)) c
  Y c := YG3 (atTc (U9 m)) (a3 m) c
  Z c := ZG3 (atTc (U9 m)) c
  hentry c := by
    have hsplit := Pipeline.arrays_of_unscopedBufs (p := 3) (pcfgs (F := F)) (adm m) (pdats m) (launch3 (F := F)).win (launch3 (F := F)).arr_whole c
      ((pdats m 3 c).share_full fun _ => rfl) (atTc (U9 m) c) (fun _ => rfl)
    have h := hentryG3 (atTc (U9 m)) (a3 m) (gblk3 (atTc (U9 m)) (a3 m)) c (hpf3 m c) hsplit
    rw [Pipeline.unscopedBufs_held] at h
    exact h
  hin c := hinG3 (atTc (U9 m)) (a3 m) (gblk3 (atTc (U9 m)) (a3 m)) c
  hout c := houtG3 (atTc (U9 m)) (a3 m) (gblk3 (atTc (U9 m)) (a3 m)) c
  hexit c := by
    have hjoin := Pipeline.unscopedBufs_of_arrays (p := 3) (pcfgs (F := F)) (adm m) (Ix := Unit) (Name := ℕ) (U := UU) (Lvl := ℕ)
      (launch3 (F := F)).win (launch3 (F := F)).arr_whole c (pdats m) ((pdats m 3 c).share_full fun _ => rfl)
      (atTc (U9 m) c) (atTc (U10 m) c) ((pdats m 3 c).arrAt · (cfg3 (a3 m)).N) (hF3 m c) (hrest3 m c)
    have h := hexitG3 (atTc (U9 m)) (a3 m) (gblk3 (atTc (U9 m)) (a3 m)) (atTc (U10 m)) c (hpf3 m c) hjoin
    rw [Pipeline.unscopedBufs_held] at h
    exact h

set_option maxHeartbeats 1000000 in
/-- Every word of region 4's table is a node's number: the data's table is what the real valuation at the region's entry
    holds in the table's buffer; that valuation is the run's own, whose table is the closed one of the launch memory. -/
theorem hlt4 (m : (ℓ : Loc nD τ sig) → Buf (Elt F) ℓ) (hm : ∀ i : S2x800000.Idx, ((V0 m c₀ main_arg1 : IVec S2x800000 32) i).toNat < 50000) :
    ∀ k : S85000.Idx, (tblw4 (a4 m) k).toNat < 50000 := by
  have h1 : tblw4 (a4 m) = (U11 m c₀ main_v40 : IVec S85000 32) := by
    unfold a4
    rfl
  have h2 : ∀ W : Valuation τ sig (Elt F), V11 m (outsU m) c₀ = W → (W main_v40 : IVec S85000 32) = tbl4 m c₀ :=
    fun W hW => by subst hW; exact tbl4_eq m (outsU m) c₀
  have e : tblw4 (a4 m) = tbl4 m c₀ := h1.trans (h2 (U11 m c₀) (V11_eq m c₀))
  intro k
  rw [e]; exact tbl4_lt m c₀ hm k
set_option maxHeartbeats 1000000 in
set_option backward.isDefEq.respectTransparency.types false in
/-- REGION 4 over the thread state: entered from every unscoped buffer at `U11`, left at `U12`. -/
def reg4 (m : (ℓ : Loc nD τ sig) → Buf (Elt F) ℓ) (hm : ∀ i : S2x800000.Idx, ((V0 m c₀ main_arg1 : IVec S2x800000 32) i).toNat < 50000) :
    RegionSeg (pcfgs (F := F)) (adm m) (pdats m) () defs₀ 𝒱₀ L lv 4 where
  win := (launch4 (F := F)).win.to₀
  block_pos := (launch4 (F := F)).block_pos
  stage_whole := (launch4 (F := F)).stage_whole
  K := Fin 8
  osem := osem4
  ho := ownSemFacts4
  hbody c := hbodyG4 (atTc (U11 m)) (a4 m) (hlt4 m hm) c
  hwaits := Pipeline.hwaits_of_owed_zero _ _ _ _ L lv 4 fun _ _ => rfl
  pre c := iprop(StableHlo.held (c : Thread nD τ) (Pipeline.ucRefs τ sig) (U11 m c) ∗ R (F := F) c)
  post c := iprop(StableHlo.held (c : Thread nD τ) (Pipeline.ucRefs τ sig) (U12 m c) ∗ R (F := F) c)
  X c := XG4 (atTc (U11 m)) c
  Y c := YG4 (atTc (U11 m)) (a4 m) c
  Z c := ZG4 (atTc (U11 m)) c
  hentry c := by
    have hsplit := Pipeline.arrays_of_unscopedBufs (p := 4) (pcfgs (F := F)) (adm m) (pdats m) (launch4 (F := F)).win (launch4 (F := F)).arr_whole c
      ((pdats m 4 c).share_full fun _ => rfl) (atTc (U11 m) c) (fun _ => rfl)
    have h := hentryG4 (atTc (U11 m)) (a4 m) (gblk4 (atTc (U11 m)) (a4 m)) c (hpf4 m c) hsplit
    rw [Pipeline.unscopedBufs_held] at h
    exact h
  hin c := hinG4 (atTc (U11 m)) (a4 m) (gblk4 (atTc (U11 m)) (a4 m)) c
  hout c := houtG4 (atTc (U11 m)) (a4 m) (gblk4 (atTc (U11 m)) (a4 m)) c
  hexit c := by
    have hjoin := Pipeline.unscopedBufs_of_arrays (p := 4) (pcfgs (F := F)) (adm m) (Ix := Unit) (Name := ℕ) (U := UU) (Lvl := ℕ)
      (launch4 (F := F)).win (launch4 (F := F)).arr_whole c (pdats m) ((pdats m 4 c).share_full fun _ => rfl)
      (atTc (U11 m) c) (atTc (U12 m) c) ((pdats m 4 c).arrAt · (cfg4 (a4 m)).N) (hF4 m c) (hrest4 m c)
    have h := hexitG4 (atTc (U11 m)) (a4 m) (gblk4 (atTc (U11 m)) (a4 m)) (atTc (U12 m)) c (hpf4 m c) hjoin
    rw [Pipeline.unscopedBufs_held] at h
    exact h

end Cert.Kernel.Hand

end
-- ==== Proof.K.GatherBody5.lean ====
/-
  Region 5's body obligation. The region runs the body of region 1 on its own table, array, output block and
  semaphores (the two kernel functions are one function), so the body's run is region 1's, cited at this region's eight
  semaphores; read with this region's invariant it is the pipeline's body obligation for the region's proof data.
-/
import proofs.«402049_j87351044866139_2_alg».proof.Proof.K.GatherDef5
import proofs.«402049_j87351044866139_2_alg».proof.Proof.K.GatherBody1

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Idealize.ShloMosaic.Transfers (shareDrop shareTokN)
open Cert.Kernel Cert.Kernel.Gen

variable {F : FTy → Type} [FloatOps F]

local notation "𝕄" => MT nD τ sig Unit (Elt F) ℕ (Pipeline.UD sig nD τ) ℕ

/-! ## The body obligation -/

variable (V : (c : Dev nD) → (b : Ref sig .tc) → Buf (Elt F) ((c : Thread nD τ).loc b))
variable (a1 : (pcfg5 (F := F)).Adm)

/-- The eight cells at zero, listed, each as the body names it. -/
theorem ownSems5_eq (c : Dev nD) :
    (Pipeline.ownSems0 (Ix := Unit) (Name := ℕ) (U := Pipeline.UD sig nD τ) (Lvl := ℕ) (Val := Elt F) (τ := τ) osem5 c : sProp 𝕄)
      = iprop(semVal ((c : Thread nD τ), cell1_0 cc5_scratch0) 0 ∗ semVal ((c : Thread nD τ), cell1_1 cc5_scratch0) 0 ∗ semVal ((c : Thread nD τ), cell1_2 cc5_scratch0) 0 ∗ semVal ((c : Thread nD τ), cell1_3 cc5_scratch0) 0 ∗ semVal ((c : Thread nD τ), cell1_4 cc5_scratch0) 0 ∗ semVal ((c : Thread nD τ), cell1_5 cc5_scratch0) 0 ∗ semVal ((c : Thread nD τ), cell1_6 cc5_scratch0) 0 ∗ semVal ((c : Thread nD τ), cell1_7 cc5_scratch0) 0) := by
  rw [Pipeline.ownSems0_eq_of_list c osem5 [0, 1, 2, 3, 4, 5, 6, 7] (by decide) (by decide)]; rfl

/-- The array the rows are read from, at the contents the region found it with. -/
theorem hbm5_eq (c : Dev nD) :
    (bigSep H5 (fun b => ((c : Thread nD τ).loc b) ↦{fullShare} V c b) : sProp 𝕄)
      = ((Memref.whole main_v33 : Memref sig .tc .hbm S50000x128 .f32).view.loc (c : Thread nD τ) ↦{fullShare} V c main_v33) := by
  unfold H5
  rw [BI.bigSep_eq_bigSepL_of_eq [main_v33] (by decide) (by decide)]; rfl

/-- The table, held whole at the full share, is owned at its contents. -/
theorem tblw5_eq (c : Dev nD) :
    (Pipeline.prefHeld pre5 c (fun _ => fullShare) a1.1 : sProp 𝕄)
      = owns (c : Thread nD τ) (Memref.whole main_v42 : Memref sig .tc .smem S85000 .i32) fullShare (tblw5 a1) := by
  unfold Pipeline.prefHeld
  rw [bigSep_W5, owns_whole]; rfl

set_option maxHeartbeats 4000000 in
/-- The body at every point: the invariant hands the run its table, the array, the eight cells at zero (the scoped rest and
    the generator register ride along), the core's record of waits goes in at whatever the points before left and comes
    back with this point's eight, and the output block, at anything, comes back reading the gathered rows. -/
theorem hbodyG5 [∀ e, Nonempty (Elt F e)] (hlt : ∀ k : S85000.Idx, (tblw5 a1 k).toNat < 50000) (c : Dev nD) :
    BodyObligationLoose (datG5 V a1 (gblk5 V a1) c) (defs₀ (F := F)) Variants.none () Set.univ := by
  refine BodyObligation.loose _ fun t => ?_
  rw [bigSep_W5, bigSep_W5]
  show iprop(iprop(Pipeline.ΦD osem5 spec5 H5 V c ∗ Pipeline.prefHeld pre5 c (fun _ => fullShare) a1.1)
        ∗ (datG5 V a1 (gblk5 V a1) c).owesAt () t.castSucc
        ∗ (∃ d, owns (c : Thread nD τ) (spec5_0.stage ((cfg5 a1).slots t 0)) fullShare ((datG5 V a1 (gblk5 V a1) c).before 0 t d)))
      ⊢ wp frame (wpE (defs₀ (F := F)) Variants.none c none) Set.univ
          (cc5__gather_kernel ((cfg5 a1).grid.coords t) (Memref.whole main_v42) (Memref.isWhole_whole _) (Memref.whole main_v33) (Memref.isWhole_whole _)
            (spec5_0.stage ((cfg5 a1).slots t 0)) (hstage5_0 (((cfg5 a1).slots t 0).cast nbuf5_0)) cc5_scratch0)
          (fun _ => iprop(iprop(Pipeline.ΦD osem5 spec5 H5 V c ∗ Pipeline.prefHeld pre5 c (fun _ => fullShare) a1.1)
            ∗ (datG5 V a1 (gblk5 V a1) c).owesAt () t.succ
            ∗ owns (c : Thread nD τ) (spec5_0.stage ((cfg5 a1).slots t 0)) fullShare (gblk5 V a1 c t)))
  rw [Pipeline.ΦD_eq, ownSems5_eq, hbm5_eq, tblw5_eq]
  unfold Dat.owesAt Pipeline.owesWithin
  rw [show (datG5 V a1 (gblk5 V a1) c).owed t.castSucc = 0 from rfl, show (datG5 V a1 (gblk5 V a1) c).owed t.succ = 0 from rfl]
  have hr : (Memref.whole main_v33 : Memref sig .tc .hbm S50000x128 .f32).view.read (Elt F) (V c main_v33) = V c main_v33 := by
    simp only [Memref.view_whole, View.read_whole]
  iintro ⟨⟨⟨Hsc, Hg, ⟨Hq0, Hq1, Hq2, Hq3, Hq4, Hq5, Hq6, Hq7⟩, Hh⟩, Ht⟩, ⟨%W, -, HW⟩, ⟨%d, Hob⟩⟩
  iapply (kernelRun1 c ((cfg5 a1).grid.coords t) (Memref.whole main_v42) (Memref.isWhole_whole _) (Memref.whole main_v33) (Memref.isWhole_whole _)
    (spec5_0.stage ((cfg5 a1).slots t 0)) (hstage5_0 (((cfg5 a1).slots t 0).cast nbuf5_0)) (tblw5 a1) hlt fullShare fullShare (V c main_v33) cc5_scratch0 W _)
  isplitl [Ht]; · iexact Ht
  isplitl [Hh]; · iexact Hh
  isplitl [Hob]; · iexists _; iexact Hob
  isplitl [Hq0]; · iexact Hq0
  isplitl [Hq1]; · iexact Hq1
  isplitl [Hq2]; · iexact Hq2
  isplitl [Hq3]; · iexact Hq3
  isplitl [Hq4]; · iexact Hq4
  isplitl [Hq5]; · iexact Hq5
  isplitl [Hq6]; · iexact Hq6
  isplitl [Hq7]; · iexact Hq7
  isplitl [HW]; · iexact HW
  iintro ⟨Ht, Hh, Hob, Hq0, Hq1, Hq2, Hq3, Hq4, Hq5, Hq6, Hq7, ⟨%W', HW'⟩⟩
  isplitl [Hsc Hg Hq0 Hq1 Hq2 Hq3 Hq4 Hq5 Hq6 Hq7 Hh Ht]
  · isplitl [Hsc Hg Hq0 Hq1 Hq2 Hq3 Hq4 Hq5 Hq6 Hq7 Hh]
    · isplitl [Hsc]; · iexact Hsc
      isplitl [Hg]; · iexact Hg
      isplitl [Hq0 Hq1 Hq2 Hq3 Hq4 Hq5 Hq6 Hq7]
      · isplitl [Hq0]; · iexact Hq0
        isplitl [Hq1]; · iexact Hq1
        isplitl [Hq2]; · iexact Hq2
        isplitl [Hq3]; · iexact Hq3
        isplitl [Hq4]; · iexact Hq4
        isplitl [Hq5]; · iexact Hq5
        isplitl [Hq6]; · iexact Hq6
        iexact Hq7
      iexact Hh
    iexact Ht
  isplitl [HW']
  · iexists W'; isplitr; · ipureintro; exact fun _ _ => Or.inl trivial
    iexact HW'
  rw [hr]
  iexact Hob

end Cert.Kernel.Hand

end
-- ==== Proof.K.GatherBody6.lean ====
/-
  Region 6's body obligation. The region runs the body of region 1 on its own table, array, output block and
  semaphores (the two kernel functions are one function), so the body's run is region 1's, cited at this region's eight
  semaphores; read with this region's invariant it is the pipeline's body obligation for the region's proof data.
-/
import proofs.«402049_j87351044866139_2_alg».proof.Proof.K.GatherDef6
import proofs.«402049_j87351044866139_2_alg».proof.Proof.K.GatherBody1

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Idealize.ShloMosaic.Transfers (shareDrop shareTokN)
open Cert.Kernel Cert.Kernel.Gen

variable {F : FTy → Type} [FloatOps F]

local notation "𝕄" => MT nD τ sig Unit (Elt F) ℕ (Pipeline.UD sig nD τ) ℕ

/-! ## The body obligation -/

variable (V : (c : Dev nD) → (b : Ref sig .tc) → Buf (Elt F) ((c : Thread nD τ).loc b))
variable (a1 : (pcfg6 (F := F)).Adm)

/-- The eight cells at zero, listed, each as the body names it. -/
theorem ownSems6_eq (c : Dev nD) :
    (Pipeline.ownSems0 (Ix := Unit) (Name := ℕ) (U := Pipeline.UD sig nD τ) (Lvl := ℕ) (Val := Elt F) (τ := τ) osem6 c : sProp 𝕄)
      = iprop(semVal ((c : Thread nD τ), cell1_0 cc6_scratch0) 0 ∗ semVal ((c : Thread nD τ), cell1_1 cc6_scratch0) 0 ∗ semVal ((c : Thread nD τ), cell1_2 cc6_scratch0) 0 ∗ semVal ((c : Thread nD τ), cell1_3 cc6_scratch0) 0 ∗ semVal ((c : Thread nD τ), cell1_4 cc6_scratch0) 0 ∗ semVal ((c : Thread nD τ), cell1_5 cc6_scratch0) 0 ∗ semVal ((c : Thread nD τ), cell1_6 cc6_scratch0) 0 ∗ semVal ((c : Thread nD τ), cell1_7 cc6_scratch0) 0) := by
  rw [Pipeline.ownSems0_eq_of_list c osem6 [0, 1, 2, 3, 4, 5, 6, 7] (by decide) (by decide)]; rfl

/-- The array the rows are read from, at the contents the region found it with. -/
theorem hbm6_eq (c : Dev nD) :
    (bigSep H6 (fun b => ((c : Thread nD τ).loc b) ↦{fullShare} V c b) : sProp 𝕄)
      = ((Memref.whole main_v33 : Memref sig .tc .hbm S50000x128 .f32).view.loc (c : Thread nD τ) ↦{fullShare} V c main_v33) := by
  unfold H6
  rw [BI.bigSep_eq_bigSepL_of_eq [main_v33] (by decide) (by decide)]; rfl

/-- The table, held whole at the full share, is owned at its contents. -/
theorem tblw6_eq (c : Dev nD) :
    (Pipeline.prefHeld pre6 c (fun _ => fullShare) a1.1 : sProp 𝕄)
      = owns (c : Thread nD τ) (Memref.whole main_v44 : Memref sig .tc .smem S85000 .i32) fullShare (tblw6 a1) := by
  unfold Pipeline.prefHeld
  rw [bigSep_W6, owns_whole]; rfl

set_option maxHeartbeats 4000000 in
/-- The body at every point: the invariant hands the run its table, the array, the eight cells at zero (the scoped rest and
    the generator register ride along), the core's record of waits goes in at whatever the points before left and comes
    back with this point's eight, and the output block, at anything, comes back reading the gathered rows. -/
theorem hbodyG6 [∀ e, Nonempty (Elt F e)] (hlt : ∀ k : S85000.Idx, (tblw6 a1 k).toNat < 50000) (c : Dev nD) :
    BodyObligationLoose (datG6 V a1 (gblk6 V a1) c) (defs₀ (F := F)) Variants.none () Set.univ := by
  refine BodyObligation.loose _ fun t => ?_
  rw [bigSep_W6, bigSep_W6]
  show iprop(iprop(Pipeline.ΦD osem6 spec6 H6 V c ∗ Pipeline.prefHeld pre6 c (fun _ => fullShare) a1.1)
        ∗ (datG6 V a1 (gblk6 V a1) c).owesAt () t.castSucc
        ∗ (∃ d, owns (c : Thread nD τ) (spec6_0.stage ((cfg6 a1).slots t 0)) fullShare ((datG6 V a1 (gblk6 V a1) c).before 0 t d)))
      ⊢ wp frame (wpE (defs₀ (F := F)) Variants.none c none) Set.univ
          (cc6__gather_kernel ((cfg6 a1).grid.coords t) (Memref.whole main_v44) (Memref.isWhole_whole _) (Memref.whole main_v33) (Memref.isWhole_whole _)
            (spec6_0.stage ((cfg6 a1).slots t 0)) (hstage6_0 (((cfg6 a1).slots t 0).cast nbuf6_0)) cc6_scratch0)
          (fun _ => iprop(iprop(Pipeline.ΦD osem6 spec6 H6 V c ∗ Pipeline.prefHeld pre6 c (fun _ => fullShare) a1.1)
            ∗ (datG6 V a1 (gblk6 V a1) c).owesAt () t.succ
            ∗ owns (c : Thread nD τ) (spec6_0.stage ((cfg6 a1).slots t 0)) fullShare (gblk6 V a1 c t)))
  rw [Pipeline.ΦD_eq, ownSems6_eq, hbm6_eq, tblw6_eq]
  unfold Dat.owesAt Pipeline.owesWithin
  rw [show (datG6 V a1 (gblk6 V a1) c).owed t.castSucc = 0 from rfl, show (datG6 V a1 (gblk6 V a1) c).owed t.succ = 0 from rfl]
  have hr : (Memref.whole main_v33 : Memref sig .tc .hbm S50000x128 .f32).view.read (Elt F) (V c main_v33) = V c main_v33 := by
    simp only [Memref.view_whole, View.read_whole]
  iintro ⟨⟨⟨Hsc, Hg, ⟨Hq0, Hq1, Hq2, Hq3, Hq4, Hq5, Hq6, Hq7⟩, Hh⟩, Ht⟩, ⟨%W, -, HW⟩, ⟨%d, Hob⟩⟩
  iapply (kernelRun1 c ((cfg6 a1).grid.coords t) (Memref.whole main_v44) (Memref.isWhole_whole _) (Memref.whole main_v33) (Memref.isWhole_whole _)
    (spec6_0.stage ((cfg6 a1).slots t 0)) (hstage6_0 (((cfg6 a1).slots t 0).cast nbuf6_0)) (tblw6 a1) hlt fullShare fullShare (V c main_v33) cc6_scratch0 W _)
  isplitl [Ht]; · iexact Ht
  isplitl [Hh]; · iexact Hh
  isplitl [Hob]; · iexists _; iexact Hob
  isplitl [Hq0]; · iexact Hq0
  isplitl [Hq1]; · iexact Hq1
  isplitl [Hq2]; · iexact Hq2
  isplitl [Hq3]; · iexact Hq3
  isplitl [Hq4]; · iexact Hq4
  isplitl [Hq5]; · iexact Hq5
  isplitl [Hq6]; · iexact Hq6
  isplitl [Hq7]; · iexact Hq7
  isplitl [HW]; · iexact HW
  iintro ⟨Ht, Hh, Hob, Hq0, Hq1, Hq2, Hq3, Hq4, Hq5, Hq6, Hq7, ⟨%W', HW'⟩⟩
  isplitl [Hsc Hg Hq0 Hq1 Hq2 Hq3 Hq4 Hq5 Hq6 Hq7 Hh Ht]
  · isplitl [Hsc Hg Hq0 Hq1 Hq2 Hq3 Hq4 Hq5 Hq6 Hq7 Hh]
    · isplitl [Hsc]; · iexact Hsc
      isplitl [Hg]; · iexact Hg
      isplitl [Hq0 Hq1 Hq2 Hq3 Hq4 Hq5 Hq6 Hq7]
      · isplitl [Hq0]; · iexact Hq0
        isplitl [Hq1]; · iexact Hq1
        isplitl [Hq2]; · iexact Hq2
        isplitl [Hq3]; · iexact Hq3
        isplitl [Hq4]; · iexact Hq4
        isplitl [Hq5]; · iexact Hq5
        isplitl [Hq6]; · iexact Hq6
        iexact Hq7
      iexact Hh
    iexact Ht
  isplitl [HW']
  · iexists W'; isplitr; · ipureintro; exact fun _ _ => Or.inl trivial
    iexact HW'
  rw [hr]
  iexact Hob

end Cert.Kernel.Hand

end
-- ==== Proof.K.GatherBody7.lean ====
/-
  Region 7's body obligation. The region runs the body of region 1 on its own table, array, output block and
  semaphores (the two kernel functions are one function), so the body's run is region 1's, cited at this region's eight
  semaphores; read with this region's invariant it is the pipeline's body obligation for the region's proof data.
-/
import proofs.«402049_j87351044866139_2_alg».proof.Proof.K.GatherDef7
import proofs.«402049_j87351044866139_2_alg».proof.Proof.K.GatherBody1

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Idealize.ShloMosaic.Transfers (shareDrop shareTokN)
open Cert.Kernel Cert.Kernel.Gen

variable {F : FTy → Type} [FloatOps F]

local notation "𝕄" => MT nD τ sig Unit (Elt F) ℕ (Pipeline.UD sig nD τ) ℕ

/-! ## The body obligation -/

variable (V : (c : Dev nD) → (b : Ref sig .tc) → Buf (Elt F) ((c : Thread nD τ).loc b))
variable (a1 : (pcfg7 (F := F)).Adm)

/-- The eight cells at zero, listed, each as the body names it. -/
theorem ownSems7_eq (c : Dev nD) :
    (Pipeline.ownSems0 (Ix := Unit) (Name := ℕ) (U := Pipeline.UD sig nD τ) (Lvl := ℕ) (Val := Elt F) (τ := τ) osem7 c : sProp 𝕄)
      = iprop(semVal ((c : Thread nD τ), cell1_0 cc7_scratch0) 0 ∗ semVal ((c : Thread nD τ), cell1_1 cc7_scratch0) 0 ∗ semVal ((c : Thread nD τ), cell1_2 cc7_scratch0) 0 ∗ semVal ((c : Thread nD τ), cell1_3 cc7_scratch0) 0 ∗ semVal ((c : Thread nD τ), cell1_4 cc7_scratch0) 0 ∗ semVal ((c : Thread nD τ), cell1_5 cc7_scratch0) 0 ∗ semVal ((c : Thread nD τ), cell1_6 cc7_scratch0) 0 ∗ semVal ((c : Thread nD τ), cell1_7 cc7_scratch0) 0) := by
  rw [Pipeline.ownSems0_eq_of_list c osem7 [0, 1, 2, 3, 4, 5, 6, 7] (by decide) (by decide)]; rfl

/-- The array the rows are read from, at the contents the region found it with. -/
theorem hbm7_eq (c : Dev nD) :
    (bigSep H7 (fun b => ((c : Thread nD τ).loc b) ↦{fullShare} V c b) : sProp 𝕄)
      = ((Memref.whole main_v33 : Memref sig .tc .hbm S50000x128 .f32).view.loc (c : Thread nD τ) ↦{fullShare} V c main_v33) := by
  unfold H7
  rw [BI.bigSep_eq_bigSepL_of_eq [main_v33] (by decide) (by decide)]; rfl

/-- The table, held whole at the full share, is owned at its contents. -/
theorem tblw7_eq (c : Dev nD) :
    (Pipeline.prefHeld pre7 c (fun _ => fullShare) a1.1 : sProp 𝕄)
      = owns (c : Thread nD τ) (Memref.whole main_v46 : Memref sig .tc .smem S85000 .i32) fullShare (tblw7 a1) := by
  unfold Pipeline.prefHeld
  rw [bigSep_W7, owns_whole]; rfl

set_option maxHeartbeats 4000000 in
/-- The body at every point: the invariant hands the run its table, the array, the eight cells at zero (the scoped rest and
    the generator register ride along), the core's record of waits goes in at whatever the points before left and comes
    back with this point's eight, and the output block, at anything, comes back reading the gathered rows. -/
theorem hbodyG7 [∀ e, Nonempty (Elt F e)] (hlt : ∀ k : S85000.Idx, (tblw7 a1 k).toNat < 50000) (c : Dev nD) :
    BodyObligationLoose (datG7 V a1 (gblk7 V a1) c) (defs₀ (F := F)) Variants.none () Set.univ := by
  refine BodyObligation.loose _ fun t => ?_
  rw [bigSep_W7, bigSep_W7]
  show iprop(iprop(Pipeline.ΦD osem7 spec7 H7 V c ∗ Pipeline.prefHeld pre7 c (fun _ => fullShare) a1.1)
        ∗ (datG7 V a1 (gblk7 V a1) c).owesAt () t.castSucc
        ∗ (∃ d, owns (c : Thread nD τ) (spec7_0.stage ((cfg7 a1).slots t 0)) fullShare ((datG7 V a1 (gblk7 V a1) c).before 0 t d)))
      ⊢ wp frame (wpE (defs₀ (F := F)) Variants.none c none) Set.univ
          (cc7__gather_kernel ((cfg7 a1).grid.coords t) (Memref.whole main_v46) (Memref.isWhole_whole _) (Memref.whole main_v33) (Memref.isWhole_whole _)
            (spec7_0.stage ((cfg7 a1).slots t 0)) (hstage7_0 (((cfg7 a1).slots t 0).cast nbuf7_0)) cc7_scratch0)
          (fun _ => iprop(iprop(Pipeline.ΦD osem7 spec7 H7 V c ∗ Pipeline.prefHeld pre7 c (fun _ => fullShare) a1.1)
            ∗ (datG7 V a1 (gblk7 V a1) c).owesAt () t.succ
            ∗ owns (c : Thread nD τ) (spec7_0.stage ((cfg7 a1).slots t 0)) fullShare (gblk7 V a1 c t)))
  rw [Pipeline.ΦD_eq, ownSems7_eq, hbm7_eq, tblw7_eq]
  unfold Dat.owesAt Pipeline.owesWithin
  rw [show (datG7 V a1 (gblk7 V a1) c).owed t.castSucc = 0 from rfl, show (datG7 V a1 (gblk7 V a1) c).owed t.succ = 0 from rfl]
  have hr : (Memref.whole main_v33 : Memref sig .tc .hbm S50000x128 .f32).view.read (Elt F) (V c main_v33) = V c main_v33 := by
    simp only [Memref.view_whole, View.read_whole]
  iintro ⟨⟨⟨Hsc, Hg, ⟨Hq0, Hq1, Hq2, Hq3, Hq4, Hq5, Hq6, Hq7⟩, Hh⟩, Ht⟩, ⟨%W, -, HW⟩, ⟨%d, Hob⟩⟩
  iapply (kernelRun1 c ((cfg7 a1).grid.coords t) (Memref.whole main_v46) (Memref.isWhole_whole _) (Memref.whole main_v33) (Memref.isWhole_whole _)
    (spec7_0.stage ((cfg7 a1).slots t 0)) (hstage7_0 (((cfg7 a1).slots t 0).cast nbuf7_0)) (tblw7 a1) hlt fullShare fullShare (V c main_v33) cc7_scratch0 W _)
  isplitl [Ht]; · iexact Ht
  isplitl [Hh]; · iexact Hh
  isplitl [Hob]; · iexists _; iexact Hob
  isplitl [Hq0]; · iexact Hq0
  isplitl [Hq1]; · iexact Hq1
  isplitl [Hq2]; · iexact Hq2
  isplitl [Hq3]; · iexact Hq3
  isplitl [Hq4]; · iexact Hq4
  isplitl [Hq5]; · iexact Hq5
  isplitl [Hq6]; · iexact Hq6
  isplitl [Hq7]; · iexact Hq7
  isplitl [HW]; · iexact HW
  iintro ⟨Ht, Hh, Hob, Hq0, Hq1, Hq2, Hq3, Hq4, Hq5, Hq6, Hq7, ⟨%W', HW'⟩⟩
  isplitl [Hsc Hg Hq0 Hq1 Hq2 Hq3 Hq4 Hq5 Hq6 Hq7 Hh Ht]
  · isplitl [Hsc Hg Hq0 Hq1 Hq2 Hq3 Hq4 Hq5 Hq6 Hq7 Hh]
    · isplitl [Hsc]; · iexact Hsc
      isplitl [Hg]; · iexact Hg
      isplitl [Hq0 Hq1 Hq2 Hq3 Hq4 Hq5 Hq6 Hq7]
      · isplitl [Hq0]; · iexact Hq0
        isplitl [Hq1]; · iexact Hq1
        isplitl [Hq2]; · iexact Hq2
        isplitl [Hq3]; · iexact Hq3
        isplitl [Hq4]; · iexact Hq4
        isplitl [Hq5]; · iexact Hq5
        isplitl [Hq6]; · iexact Hq6
        iexact Hq7
      iexact Hh
    iexact Ht
  isplitl [HW']
  · iexists W'; isplitr; · ipureintro; exact fun _ _ => Or.inl trivial
    iexact HW'
  rw [hr]
  iexact Hob

end Cert.Kernel.Hand

end
-- ==== Proof.K.GatherBody8.lean ====
/-
  Region 8's body obligation. The region runs the body of region 1 on its own table, array, output block and
  semaphores (the two kernel functions are one function), so the body's run is region 1's, cited at this region's eight
  semaphores; read with this region's invariant it is the pipeline's body obligation for the region's proof data.
-/
import proofs.«402049_j87351044866139_2_alg».proof.Proof.K.GatherDef8
import proofs.«402049_j87351044866139_2_alg».proof.Proof.K.GatherBody1

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Idealize.ShloMosaic.Transfers (shareDrop shareTokN)
open Cert.Kernel Cert.Kernel.Gen

variable {F : FTy → Type} [FloatOps F]

local notation "𝕄" => MT nD τ sig Unit (Elt F) ℕ (Pipeline.UD sig nD τ) ℕ

/-! ## The body obligation -/

variable (V : (c : Dev nD) → (b : Ref sig .tc) → Buf (Elt F) ((c : Thread nD τ).loc b))
variable (a1 : (pcfg8 (F := F)).Adm)

/-- The eight cells at zero, listed, each as the body names it. -/
theorem ownSems8_eq (c : Dev nD) :
    (Pipeline.ownSems0 (Ix := Unit) (Name := ℕ) (U := Pipeline.UD sig nD τ) (Lvl := ℕ) (Val := Elt F) (τ := τ) osem8 c : sProp 𝕄)
      = iprop(semVal ((c : Thread nD τ), cell1_0 cc8_scratch0) 0 ∗ semVal ((c : Thread nD τ), cell1_1 cc8_scratch0) 0 ∗ semVal ((c : Thread nD τ), cell1_2 cc8_scratch0) 0 ∗ semVal ((c : Thread nD τ), cell1_3 cc8_scratch0) 0 ∗ semVal ((c : Thread nD τ), cell1_4 cc8_scratch0) 0 ∗ semVal ((c : Thread nD τ), cell1_5 cc8_scratch0) 0 ∗ semVal ((c : Thread nD τ), cell1_6 cc8_scratch0) 0 ∗ semVal ((c : Thread nD τ), cell1_7 cc8_scratch0) 0) := by
  rw [Pipeline.ownSems0_eq_of_list c osem8 [0, 1, 2, 3, 4, 5, 6, 7] (by decide) (by decide)]; rfl

/-- The array the rows are read from, at the contents the region found it with. -/
theorem hbm8_eq (c : Dev nD) :
    (bigSep H8 (fun b => ((c : Thread nD τ).loc b) ↦{fullShare} V c b) : sProp 𝕄)
      = ((Memref.whole main_v33 : Memref sig .tc .hbm S50000x128 .f32).view.loc (c : Thread nD τ) ↦{fullShare} V c main_v33) := by
  unfold H8
  rw [BI.bigSep_eq_bigSepL_of_eq [main_v33] (by decide) (by decide)]; rfl

/-- The table, held whole at the full share, is owned at its contents. -/
theorem tblw8_eq (c : Dev nD) :
    (Pipeline.prefHeld pre8 c (fun _ => fullShare) a1.1 : sProp 𝕄)
      = owns (c : Thread nD τ) (Memref.whole main_v48 : Memref sig .tc .smem S85000 .i32) fullShare (tblw8 a1) := by
  unfold Pipeline.prefHeld
  rw [bigSep_W8, owns_whole]; rfl

set_option maxHeartbeats 4000000 in
/-- The body at every point: the invariant hands the run its table, the array, the eight cells at zero (the scoped rest and
    the generator register ride along), the core's record of waits goes in at whatever the points before left and comes
    back with this point's eight, and the output block, at anything, comes back reading the gathered rows. -/
theorem hbodyG8 [∀ e, Nonempty (Elt F e)] (hlt : ∀ k : S85000.Idx, (tblw8 a1 k).toNat < 50000) (c : Dev nD) :
    BodyObligationLoose (datG8 V a1 (gblk8 V a1) c) (defs₀ (F := F)) Variants.none () Set.univ := by
  refine BodyObligation.loose _ fun t => ?_
  rw [bigSep_W8, bigSep_W8]
  show iprop(iprop(Pipeline.ΦD osem8 spec8 H8 V c ∗ Pipeline.prefHeld pre8 c (fun _ => fullShare) a1.1)
        ∗ (datG8 V a1 (gblk8 V a1) c).owesAt () t.castSucc
        ∗ (∃ d, owns (c : Thread nD τ) (spec8_0.stage ((cfg8 a1).slots t 0)) fullShare ((datG8 V a1 (gblk8 V a1) c).before 0 t d)))
      ⊢ wp frame (wpE (defs₀ (F := F)) Variants.none c none) Set.univ
          (cc8__gather_kernel ((cfg8 a1).grid.coords t) (Memref.whole main_v48) (Memref.isWhole_whole _) (Memref.whole main_v33) (Memref.isWhole_whole _)
            (spec8_0.stage ((cfg8 a1).slots t 0)) (hstage8_0 (((cfg8 a1).slots t 0).cast nbuf8_0)) cc8_scratch0)
          (fun _ => iprop(iprop(Pipeline.ΦD osem8 spec8 H8 V c ∗ Pipeline.prefHeld pre8 c (fun _ => fullShare) a1.1)
            ∗ (datG8 V a1 (gblk8 V a1) c).owesAt () t.succ
            ∗ owns (c : Thread nD τ) (spec8_0.stage ((cfg8 a1).slots t 0)) fullShare (gblk8 V a1 c t)))
  rw [Pipeline.ΦD_eq, ownSems8_eq, hbm8_eq, tblw8_eq]
  unfold Dat.owesAt Pipeline.owesWithin
  rw [show (datG8 V a1 (gblk8 V a1) c).owed t.castSucc = 0 from rfl, show (datG8 V a1 (gblk8 V a1) c).owed t.succ = 0 from rfl]
  have hr : (Memref.whole main_v33 : Memref sig .tc .hbm S50000x128 .f32).view.read (Elt F) (V c main_v33) = V c main_v33 := by
    simp only [Memref.view_whole, View.read_whole]
  iintro ⟨⟨⟨Hsc, Hg, ⟨Hq0, Hq1, Hq2, Hq3, Hq4, Hq5, Hq6, Hq7⟩, Hh⟩, Ht⟩, ⟨%W, -, HW⟩, ⟨%d, Hob⟩⟩
  iapply (kernelRun1 c ((cfg8 a1).grid.coords t) (Memref.whole main_v48) (Memref.isWhole_whole _) (Memref.whole main_v33) (Memref.isWhole_whole _)
    (spec8_0.stage ((cfg8 a1).slots t 0)) (hstage8_0 (((cfg8 a1).slots t 0).cast nbuf8_0)) (tblw8 a1) hlt fullShare fullShare (V c main_v33) cc8_scratch0 W _)
  isplitl [Ht]; · iexact Ht
  isplitl [Hh]; · iexact Hh
  isplitl [Hob]; · iexists _; iexact Hob
  isplitl [Hq0]; · iexact Hq0
  isplitl [Hq1]; · iexact Hq1
  isplitl [Hq2]; · iexact Hq2
  isplitl [Hq3]; · iexact Hq3
  isplitl [Hq4]; · iexact Hq4
  isplitl [Hq5]; · iexact Hq5
  isplitl [Hq6]; · iexact Hq6
  isplitl [Hq7]; · iexact Hq7
  isplitl [HW]; · iexact HW
  iintro ⟨Ht, Hh, Hob, Hq0, Hq1, Hq2, Hq3, Hq4, Hq5, Hq6, Hq7, ⟨%W', HW'⟩⟩
  isplitl [Hsc Hg Hq0 Hq1 Hq2 Hq3 Hq4 Hq5 Hq6 Hq7 Hh Ht]
  · isplitl [Hsc Hg Hq0 Hq1 Hq2 Hq3 Hq4 Hq5 Hq6 Hq7 Hh]
    · isplitl [Hsc]; · iexact Hsc
      isplitl [Hg]; · iexact Hg
      isplitl [Hq0 Hq1 Hq2 Hq3 Hq4 Hq5 Hq6 Hq7]
      · isplitl [Hq0]; · iexact Hq0
        isplitl [Hq1]; · iexact Hq1
        isplitl [Hq2]; · iexact Hq2
        isplitl [Hq3]; · iexact Hq3
        isplitl [Hq4]; · iexact Hq4
        isplitl [Hq5]; · iexact Hq5
        isplitl [Hq6]; · iexact Hq6
        iexact Hq7
      iexact Hh
    iexact Ht
  isplitl [HW']
  · iexists W'; isplitr; · ipureintro; exact fun _ _ => Or.inl trivial
    iexact HW'
  rw [hr]
  iexact Hob

end Cert.Kernel.Hand

end
-- ==== Proof.K.GatherBody9.lean ====
/-
  Region 9's body obligation. The region runs the body of region 1 on its own table, array, output block and
  semaphores (the two kernel functions are one function), so the body's run is region 1's, cited at this region's eight
  semaphores; read with this region's invariant it is the pipeline's body obligation for the region's proof data.
-/
import proofs.«402049_j87351044866139_2_alg».proof.Proof.K.GatherDef9
import proofs.«402049_j87351044866139_2_alg».proof.Proof.K.GatherBody1

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Idealize.ShloMosaic.Transfers (shareDrop shareTokN)
open Cert.Kernel Cert.Kernel.Gen

variable {F : FTy → Type} [FloatOps F]

local notation "𝕄" => MT nD τ sig Unit (Elt F) ℕ (Pipeline.UD sig nD τ) ℕ

/-! ## The body obligation -/

variable (V : (c : Dev nD) → (b : Ref sig .tc) → Buf (Elt F) ((c : Thread nD τ).loc b))
variable (a1 : (pcfg9 (F := F)).Adm)

/-- The eight cells at zero, listed, each as the body names it. -/
theorem ownSems9_eq (c : Dev nD) :
    (Pipeline.ownSems0 (Ix := Unit) (Name := ℕ) (U := Pipeline.UD sig nD τ) (Lvl := ℕ) (Val := Elt F) (τ := τ) osem9 c : sProp 𝕄)
      = iprop(semVal ((c : Thread nD τ), cell1_0 cc9_scratch0) 0 ∗ semVal ((c : Thread nD τ), cell1_1 cc9_scratch0) 0 ∗ semVal ((c : Thread nD τ), cell1_2 cc9_scratch0) 0 ∗ semVal ((c : Thread nD τ), cell1_3 cc9_scratch0) 0 ∗ semVal ((c : Thread nD τ), cell1_4 cc9_scratch0) 0 ∗ semVal ((c : Thread nD τ), cell1_5 cc9_scratch0) 0 ∗ semVal ((c : Thread nD τ), cell1_6 cc9_scratch0) 0 ∗ semVal ((c : Thread nD τ), cell1_7 cc9_scratch0) 0) := by
  rw [Pipeline.ownSems0_eq_of_list c osem9 [0, 1, 2, 3, 4, 5, 6, 7] (by decide) (by decide)]; rfl

/-- The array the rows are read from, at the contents the region found it with. -/
theorem hbm9_eq (c : Dev nD) :
    (bigSep H9 (fun b => ((c : Thread nD τ).loc b) ↦{fullShare} V c b) : sProp 𝕄)
      = ((Memref.whole main_v33 : Memref sig .tc .hbm S50000x128 .f32).view.loc (c : Thread nD τ) ↦{fullShare} V c main_v33) := by
  unfold H9
  rw [BI.bigSep_eq_bigSepL_of_eq [main_v33] (by decide) (by decide)]; rfl

/-- The table, held whole at the full share, is owned at its contents. -/
theorem tblw9_eq (c : Dev nD) :
    (Pipeline.prefHeld pre9 c (fun _ => fullShare) a1.1 : sProp 𝕄)
      = owns (c : Thread nD τ) (Memref.whole main_v50 : Memref sig .tc .smem S85000 .i32) fullShare (tblw9 a1) := by
  unfold Pipeline.prefHeld
  rw [bigSep_W9, owns_whole]; rfl

set_option maxHeartbeats 4000000 in
/-- The body at every point: the invariant hands the run its table, the array, the eight cells at zero (the scoped rest and
    the generator register ride along), the core's record of waits goes in at whatever the points before left and comes
    back with this point's eight, and the output block, at anything, comes back reading the gathered rows. -/
theorem hbodyG9 [∀ e, Nonempty (Elt F e)] (hlt : ∀ k : S85000.Idx, (tblw9 a1 k).toNat < 50000) (c : Dev nD) :
    BodyObligationLoose (datG9 V a1 (gblk9 V a1) c) (defs₀ (F := F)) Variants.none () Set.univ := by
  refine BodyObligation.loose _ fun t => ?_
  rw [bigSep_W9, bigSep_W9]
  show iprop(iprop(Pipeline.ΦD osem9 spec9 H9 V c ∗ Pipeline.prefHeld pre9 c (fun _ => fullShare) a1.1)
        ∗ (datG9 V a1 (gblk9 V a1) c).owesAt () t.castSucc
        ∗ (∃ d, owns (c : Thread nD τ) (spec9_0.stage ((cfg9 a1).slots t 0)) fullShare ((datG9 V a1 (gblk9 V a1) c).before 0 t d)))
      ⊢ wp frame (wpE (defs₀ (F := F)) Variants.none c none) Set.univ
          (cc9__gather_kernel ((cfg9 a1).grid.coords t) (Memref.whole main_v50) (Memref.isWhole_whole _) (Memref.whole main_v33) (Memref.isWhole_whole _)
            (spec9_0.stage ((cfg9 a1).slots t 0)) (hstage9_0 (((cfg9 a1).slots t 0).cast nbuf9_0)) cc9_scratch0)
          (fun _ => iprop(iprop(Pipeline.ΦD osem9 spec9 H9 V c ∗ Pipeline.prefHeld pre9 c (fun _ => fullShare) a1.1)
            ∗ (datG9 V a1 (gblk9 V a1) c).owesAt () t.succ
            ∗ owns (c : Thread nD τ) (spec9_0.stage ((cfg9 a1).slots t 0)) fullShare (gblk9 V a1 c t)))
  rw [Pipeline.ΦD_eq, ownSems9_eq, hbm9_eq, tblw9_eq]
  unfold Dat.owesAt Pipeline.owesWithin
  rw [show (datG9 V a1 (gblk9 V a1) c).owed t.castSucc = 0 from rfl, show (datG9 V a1 (gblk9 V a1) c).owed t.succ = 0 from rfl]
  have hr : (Memref.whole main_v33 : Memref sig .tc .hbm S50000x128 .f32).view.read (Elt F) (V c main_v33) = V c main_v33 := by
    simp only [Memref.view_whole, View.read_whole]
  iintro ⟨⟨⟨Hsc, Hg, ⟨Hq0, Hq1, Hq2, Hq3, Hq4, Hq5, Hq6, Hq7⟩, Hh⟩, Ht⟩, ⟨%W, -, HW⟩, ⟨%d, Hob⟩⟩
  iapply (kernelRun1 c ((cfg9 a1).grid.coords t) (Memref.whole main_v50) (Memref.isWhole_whole _) (Memref.whole main_v33) (Memref.isWhole_whole _)
    (spec9_0.stage ((cfg9 a1).slots t 0)) (hstage9_0 (((cfg9 a1).slots t 0).cast nbuf9_0)) (tblw9 a1) hlt fullShare fullShare (V c main_v33) cc9_scratch0 W _)
  isplitl [Ht]; · iexact Ht
  isplitl [Hh]; · iexact Hh
  isplitl [Hob]; · iexists _; iexact Hob
  isplitl [Hq0]; · iexact Hq0
  isplitl [Hq1]; · iexact Hq1
  isplitl [Hq2]; · iexact Hq2
  isplitl [Hq3]; · iexact Hq3
  isplitl [Hq4]; · iexact Hq4
  isplitl [Hq5]; · iexact Hq5
  isplitl [Hq6]; · iexact Hq6
  isplitl [Hq7]; · iexact Hq7
  isplitl [HW]; · iexact HW
  iintro ⟨Ht, Hh, Hob, Hq0, Hq1, Hq2, Hq3, Hq4, Hq5, Hq6, Hq7, ⟨%W', HW'⟩⟩
  isplitl [Hsc Hg Hq0 Hq1 Hq2 Hq3 Hq4 Hq5 Hq6 Hq7 Hh Ht]
  · isplitl [Hsc Hg Hq0 Hq1 Hq2 Hq3 Hq4 Hq5 Hq6 Hq7 Hh]
    · isplitl [Hsc]; · iexact Hsc
      isplitl [Hg]; · iexact Hg
      isplitl [Hq0 Hq1 Hq2 Hq3 Hq4 Hq5 Hq6 Hq7]
      · isplitl [Hq0]; · iexact Hq0
        isplitl [Hq1]; · iexact Hq1
        isplitl [Hq2]; · iexact Hq2
        isplitl [Hq3]; · iexact Hq3
        isplitl [Hq4]; · iexact Hq4
        isplitl [Hq5]; · iexact Hq5
        isplitl [Hq6]; · iexact Hq6
        iexact Hq7
      iexact Hh
    iexact Ht
  isplitl [HW']
  · iexists W'; isplitr; · ipureintro; exact fun _ _ => Or.inl trivial
    iexact HW'
  rw [hr]
  iexact Hob

end Cert.Kernel.Hand

end
-- ==== Proof.K.Regs1.lean ====
import proofs.«402049_j87351044866139_2_alg».proof.Proof.K.Fam
import proofs.«402049_j87351044866139_2_alg».proof.Proof.K.Tables
import proofs.«402049_j87351044866139_2_alg».proof.Proof.K.GatherBody5
import proofs.«402049_j87351044866139_2_alg».proof.Proof.K.GatherBody6
import proofs.«402049_j87351044866139_2_alg».proof.Proof.K.GatherBody7
import proofs.«402049_j87351044866139_2_alg».proof.Proof.K.GatherBody8
import proofs.«402049_j87351044866139_2_alg».proof.Proof.K.GatherBody9
import Idealize.ShloMosaic.Lib.Pipeline.RegionsLoop

/-! The records of regions 5 to 9 over the thread states: each entered from every unscoped buffer at the real valuation
    before it and left at the one after it; for a gather region, first that every word of its table is a node's number. -/

set_option maxRecDepth 16384

noncomputable section

namespace Cert.Kernel.Hand

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg BodyObligation BodyObligationLoose)

variable {F : FTy → Type} [FloatOps F]

local notation "𝕄" => MT nD τ sig Unit (Elt F) ℕ UU ℕ

set_option maxHeartbeats 1000000 in
/-- Every word of region 5's table is a node's number: the data's table is what the real valuation at the region's entry
    holds in the table's buffer; that valuation is the run's own, whose table is the closed one of the launch memory. -/
theorem hlt5 (m : (ℓ : Loc nD τ sig) → Buf (Elt F) ℓ) (hm : ∀ i : S2x800000.Idx, ((V0 m c₀ main_arg1 : IVec S2x800000 32) i).toNat < 50000) :
    ∀ k : S85000.Idx, (tblw5 (a5 m) k).toNat < 50000 := by
  have h1 : tblw5 (a5 m) = (U13 m c₀ main_v42 : IVec S85000 32) := by
    unfold a5
    rfl
  have h2 : ∀ W : Valuation τ sig (Elt F), V13 m (outsU m) c₀ = W → (W main_v42 : IVec S85000 32) = tbl5 m c₀ :=
    fun W hW => by subst hW; exact tbl5_eq m (outsU m) c₀
  have e : tblw5 (a5 m) = tbl5 m c₀ := h1.trans (h2 (U13 m c₀) (V13_eq m c₀))
  intro k
  rw [e]; exact tbl5_lt m c₀ hm k
set_option maxHeartbeats 1000000 in
set_option backward.isDefEq.respectTransparency.types false in
/-- REGION 5 over the thread state: entered from every unscoped buffer at `U13`, left at `U14`. -/
def reg5 (m : (ℓ : Loc nD τ sig) → Buf (Elt F) ℓ) (hm : ∀ i : S2x800000.Idx, ((V0 m c₀ main_arg1 : IVec S2x800000 32) i).toNat < 50000) :
    RegionSeg (pcfgs (F := F)) (adm m) (pdats m) () defs₀ 𝒱₀ L lv 5 where
  win := (launch5 (F := F)).win.to₀
  block_pos := (launch5 (F := F)).block_pos
  stage_whole := (launch5 (F := F)).stage_whole
  K := Fin 8
  osem := osem5
  ho := ownSemFacts5
  hbody c := hbodyG5 (atTc (U13 m)) (a5 m) (hlt5 m hm) c
  hwaits := Pipeline.hwaits_of_owed_zero _ _ _ _ L lv 5 fun _ _ => rfl
  pre c := iprop(StableHlo.held (c : Thread nD τ) (Pipeline.ucRefs τ sig) (U13 m c) ∗ R (F := F) c)
  post c := iprop(StableHlo.held (c : Thread nD τ) (Pipeline.ucRefs τ sig) (U14 m c) ∗ R (F := F) c)
  X c := XG5 (atTc (U13 m)) c
  Y c := YG5 (atTc (U13 m)) (a5 m) c
  Z c := ZG5 (atTc (U13 m)) c
  hentry c := by
    have hsplit := Pipeline.arrays_of_unscopedBufs (p := 5) (pcfgs (F := F)) (adm m) (pdats m) (launch5 (F := F)).win (launch5 (F := F)).arr_whole c
      ((pdats m 5 c).share_full fun _ => rfl) (atTc (U13 m) c) (fun _ => rfl)
    have h := hentryG5 (atTc (U13 m)) (a5 m) (gblk5 (atTc (U13 m)) (a5 m)) c (hpf5 m c) hsplit
    rw [Pipeline.unscopedBufs_held] at h
    exact h
  hin c := hinG5 (atTc (U13 m)) (a5 m) (gblk5 (atTc (U13 m)) (a5 m)) c
  hout c := houtG5 (atTc (U13 m)) (a5 m) (gblk5 (atTc (U13 m)) (a5 m)) c
  hexit c := by
    have hjoin := Pipeline.unscopedBufs_of_arrays (p := 5) (pcfgs (F := F)) (adm m) (Ix := Unit) (Name := ℕ) (U := UU) (Lvl := ℕ)
      (launch5 (F := F)).win (launch5 (F := F)).arr_whole c (pdats m) ((pdats m 5 c).share_full fun _ => rfl)
      (atTc (U13 m) c) (atTc (U14 m) c) ((pdats m 5 c).arrAt · (cfg5 (a5 m)).N) (hF5 m c) (hrest5 m c)
    have h := hexitG5 (atTc (U13 m)) (a5 m) (gblk5 (atTc (U13 m)) (a5 m)) (atTc (U14 m)) c (hpf5 m c) hjoin
    rw [Pipeline.unscopedBufs_held] at h
    exact h

set_option maxHeartbeats 1000000 in
/-- Every word of region 6's table is a node's number: the data's table is what the real valuation at the region's entry
    holds in the table's buffer; that valuation is the run's own, whose table is the closed one of the launch memory. -/
theorem hlt6 (m : (ℓ : Loc nD τ sig) → Buf (Elt F) ℓ) (hm : ∀ i : S2x800000.Idx, ((V0 m c₀ main_arg1 : IVec S2x800000 32) i).toNat < 50000) :
    ∀ k : S85000.Idx, (tblw6 (a6 m) k).toNat < 50000 := by
  have h1 : tblw6 (a6 m) = (U15 m c₀ main_v44 : IVec S85000 32) := by
    unfold a6
    rfl
  have h2 : ∀ W : Valuation τ sig (Elt F), V15 m (outsU m) c₀ = W → (W main_v44 : IVec S85000 32) = tbl6 m c₀ :=
    fun W hW => by subst hW; exact tbl6_eq m (outsU m) c₀
  have e : tblw6 (a6 m) = tbl6 m c₀ := h1.trans (h2 (U15 m c₀) (V15_eq m c₀))
  intro k
  rw [e]; exact tbl6_lt m c₀ hm k
set_option maxHeartbeats 1000000 in
set_option backward.isDefEq.respectTransparency.types false in
/-- REGION 6 over the thread state: entered from every unscoped buffer at `U15`, left at `U16`. -/
def reg6 (m : (ℓ : Loc nD τ sig) → Buf (Elt F) ℓ) (hm : ∀ i : S2x800000.Idx, ((V0 m c₀ main_arg1 : IVec S2x800000 32) i).toNat < 50000) :
    RegionSeg (pcfgs (F := F)) (adm m) (pdats m) () defs₀ 𝒱₀ L lv 6 where
  win := (launch6 (F := F)).win.to₀
  block_pos := (launch6 (F := F)).block_pos
  stage_whole := (launch6 (F := F)).stage_whole
  K := Fin 8
  osem := osem6
  ho := ownSemFacts6
  hbody c := hbodyG6 (atTc (U15 m)) (a6 m) (hlt6 m hm) c
  hwaits := Pipeline.hwaits_of_owed_zero _ _ _ _ L lv 6 fun _ _ => rfl
  pre c := iprop(StableHlo.held (c : Thread nD τ) (Pipeline.ucRefs τ sig) (U15 m c) ∗ R (F := F) c)
  post c := iprop(StableHlo.held (c : Thread nD τ) (Pipeline.ucRefs τ sig) (U16 m c) ∗ R (F := F) c)
  X c := XG6 (atTc (U15 m)) c
  Y c := YG6 (atTc (U15 m)) (a6 m) c
  Z c := ZG6 (atTc (U15 m)) c
  hentry c := by
    have hsplit := Pipeline.arrays_of_unscopedBufs (p := 6) (pcfgs (F := F)) (adm m) (pdats m) (launch6 (F := F)).win (launch6 (F := F)).arr_whole c
      ((pdats m 6 c).share_full fun _ => rfl) (atTc (U15 m) c) (fun _ => rfl)
    have h := hentryG6 (atTc (U15 m)) (a6 m) (gblk6 (atTc (U15 m)) (a6 m)) c (hpf6 m c) hsplit
    rw [Pipeline.unscopedBufs_held] at h
    exact h
  hin c := hinG6 (atTc (U15 m)) (a6 m) (gblk6 (atTc (U15 m)) (a6 m)) c
  hout c := houtG6 (atTc (U15 m)) (a6 m) (gblk6 (atTc (U15 m)) (a6 m)) c
  hexit c := by
    have hjoin := Pipeline.unscopedBufs_of_arrays (p := 6) (pcfgs (F := F)) (adm m) (Ix := Unit) (Name := ℕ) (U := UU) (Lvl := ℕ)
      (launch6 (F := F)).win (launch6 (F := F)).arr_whole c (pdats m) ((pdats m 6 c).share_full fun _ => rfl)
      (atTc (U15 m) c) (atTc (U16 m) c) ((pdats m 6 c).arrAt · (cfg6 (a6 m)).N) (hF6 m c) (hrest6 m c)
    have h := hexitG6 (atTc (U15 m)) (a6 m) (gblk6 (atTc (U15 m)) (a6 m)) (atTc (U16 m)) c (hpf6 m c) hjoin
    rw [Pipeline.unscopedBufs_held] at h
    exact h

set_option maxHeartbeats 1000000 in
/-- Every word of region 7's table is a node's number: the data's table is what the real valuation at the region's entry
    holds in the table's buffer; that valuation is the run's own, whose table is the closed one of the launch memory. -/
theorem hlt7 (m : (ℓ : Loc nD τ sig) → Buf (Elt F) ℓ) (hm : ∀ i : S2x800000.Idx, ((V0 m c₀ main_arg1 : IVec S2x800000 32) i).toNat < 50000) :
    ∀ k : S85000.Idx, (tblw7 (a7 m) k).toNat < 50000 := by
  have h1 : tblw7 (a7 m) = (U17 m c₀ main_v46 : IVec S85000 32) := by
    unfold a7
    rfl
  have h2 : ∀ W : Valuation τ sig (Elt F), V17 m (outsU m) c₀ = W → (W main_v46 : IVec S85000 32) = tbl7 m c₀ :=
    fun W hW => by subst hW; exact tbl7_eq m (outsU m) c₀
  have e : tblw7 (a7 m) = tbl7 m c₀ := h1.trans (h2 (U17 m c₀) (V17_eq m c₀))
  intro k
  rw [e]; exact tbl7_lt m c₀ hm k
set_option maxHeartbeats 1000000 in
set_option backward.isDefEq.respectTransparency.types false in
/-- REGION 7 over the thread state: entered from every unscoped buffer at `U17`, left at `U18`. -/
def reg7 (m : (ℓ : Loc nD τ sig) → Buf (Elt F) ℓ) (hm : ∀ i : S2x800000.Idx, ((V0 m c₀ main_arg1 : IVec S2x800000 32) i).toNat < 50000) :
    RegionSeg (pcfgs (F := F)) (adm m) (pdats m) () defs₀ 𝒱₀ L lv 7 where
  win := (launch7 (F := F)).win.to₀
  block_pos := (launch7 (F := F)).block_pos
  stage_whole := (launch7 (F := F)).stage_whole
  K := Fin 8
  osem := osem7
  ho := ownSemFacts7
  hbody c := hbodyG7 (atTc (U17 m)) (a7 m) (hlt7 m hm) c
  hwaits := Pipeline.hwaits_of_owed_zero _ _ _ _ L lv 7 fun _ _ => rfl
  pre c := iprop(StableHlo.held (c : Thread nD τ) (Pipeline.ucRefs τ sig) (U17 m c) ∗ R (F := F) c)
  post c := iprop(StableHlo.held (c : Thread nD τ) (Pipeline.ucRefs τ sig) (U18 m c) ∗ R (F := F) c)
  X c := XG7 (atTc (U17 m)) c
  Y c := YG7 (atTc (U17 m)) (a7 m) c
  Z c := ZG7 (atTc (U17 m)) c
  hentry c := by
    have hsplit := Pipeline.arrays_of_unscopedBufs (p := 7) (pcfgs (F := F)) (adm m) (pdats m) (launch7 (F := F)).win (launch7 (F := F)).arr_whole c
      ((pdats m 7 c).share_full fun _ => rfl) (atTc (U17 m) c) (fun _ => rfl)
    have h := hentryG7 (atTc (U17 m)) (a7 m) (gblk7 (atTc (U17 m)) (a7 m)) c (hpf7 m c) hsplit
    rw [Pipeline.unscopedBufs_held] at h
    exact h
  hin c := hinG7 (atTc (U17 m)) (a7 m) (gblk7 (atTc (U17 m)) (a7 m)) c
  hout c := houtG7 (atTc (U17 m)) (a7 m) (gblk7 (atTc (U17 m)) (a7 m)) c
  hexit c := by
    have hjoin := Pipeline.unscopedBufs_of_arrays (p := 7) (pcfgs (F := F)) (adm m) (Ix := Unit) (Name := ℕ) (U := UU) (Lvl := ℕ)
      (launch7 (F := F)).win (launch7 (F := F)).arr_whole c (pdats m) ((pdats m 7 c).share_full fun _ => rfl)
      (atTc (U17 m) c) (atTc (U18 m) c) ((pdats m 7 c).arrAt · (cfg7 (a7 m)).N) (hF7 m c) (hrest7 m c)
    have h := hexitG7 (atTc (U17 m)) (a7 m) (gblk7 (atTc (U17 m)) (a7 m)) (atTc (U18 m)) c (hpf7 m c) hjoin
    rw [Pipeline.unscopedBufs_held] at h
    exact h

set_option maxHeartbeats 1000000 in
/-- Every word of region 8's table is a node's number: the data's table is what the real valuation at the region's entry
    holds in the table's buffer; that valuation is the run's own, whose table is the closed one of the launch memory. -/
theorem hlt8 (m : (ℓ : Loc nD τ sig) → Buf (Elt F) ℓ) (hm : ∀ i : S2x800000.Idx, ((V0 m c₀ main_arg1 : IVec S2x800000 32) i).toNat < 50000) :
    ∀ k : S85000.Idx, (tblw8 (a8 m) k).toNat < 50000 := by
  have h1 : tblw8 (a8 m) = (U19 m c₀ main_v48 : IVec S85000 32) := by
    unfold a8
    rfl
  have h2 : ∀ W : Valuation τ sig (Elt F), V19 m (outsU m) c₀ = W → (W main_v48 : IVec S85000 32) = tbl8 m c₀ :=
    fun W hW => by subst hW; exact tbl8_eq m (outsU m) c₀
  have e : tblw8 (a8 m) = tbl8 m c₀ := h1.trans (h2 (U19 m c₀) (V19_eq m c₀))
  intro k
  rw [e]; exact tbl8_lt m c₀ hm k
set_option maxHeartbeats 1000000 in
set_option backward.isDefEq.respectTransparency.types false in
/-- REGION 8 over the thread state: entered from every unscoped buffer at `U19`, left at `U20`. -/
def reg8 (m : (ℓ : Loc nD τ sig) → Buf (Elt F) ℓ) (hm : ∀ i : S2x800000.Idx, ((V0 m c₀ main_arg1 : IVec S2x800000 32) i).toNat < 50000) :
    RegionSeg (pcfgs (F := F)) (adm m) (pdats m) () defs₀ 𝒱₀ L lv 8 where
  win := (launch8 (F := F)).win.to₀
  block_pos := (launch8 (F := F)).block_pos
  stage_whole := (launch8 (F := F)).stage_whole
  K := Fin 8
  osem := osem8
  ho := ownSemFacts8
  hbody c := hbodyG8 (atTc (U19 m)) (a8 m) (hlt8 m hm) c
  hwaits := Pipeline.hwaits_of_owed_zero _ _ _ _ L lv 8 fun _ _ => rfl
  pre c := iprop(StableHlo.held (c : Thread nD τ) (Pipeline.ucRefs τ sig) (U19 m c) ∗ R (F := F) c)
  post c := iprop(StableHlo.held (c : Thread nD τ) (Pipeline.ucRefs τ sig) (U20 m c) ∗ R (F := F) c)
  X c := XG8 (atTc (U19 m)) c
  Y c := YG8 (atTc (U19 m)) (a8 m) c
  Z c := ZG8 (atTc (U19 m)) c
  hentry c := by
    have hsplit := Pipeline.arrays_of_unscopedBufs (p := 8) (pcfgs (F := F)) (adm m) (pdats m) (launch8 (F := F)).win (launch8 (F := F)).arr_whole c
      ((pdats m 8 c).share_full fun _ => rfl) (atTc (U19 m) c) (fun _ => rfl)
    have h := hentryG8 (atTc (U19 m)) (a8 m) (gblk8 (atTc (U19 m)) (a8 m)) c (hpf8 m c) hsplit
    rw [Pipeline.unscopedBufs_held] at h
    exact h
  hin c := hinG8 (atTc (U19 m)) (a8 m) (gblk8 (atTc (U19 m)) (a8 m)) c
  hout c := houtG8 (atTc (U19 m)) (a8 m) (gblk8 (atTc (U19 m)) (a8 m)) c
  hexit c := by
    have hjoin := Pipeline.unscopedBufs_of_arrays (p := 8) (pcfgs (F := F)) (adm m) (Ix := Unit) (Name := ℕ) (U := UU) (Lvl := ℕ)
      (launch8 (F := F)).win (launch8 (F := F)).arr_whole c (pdats m) ((pdats m 8 c).share_full fun _ => rfl)
      (atTc (U19 m) c) (atTc (U20 m) c) ((pdats m 8 c).arrAt · (cfg8 (a8 m)).N) (hF8 m c) (hrest8 m c)
    have h := hexitG8 (atTc (U19 m)) (a8 m) (gblk8 (atTc (U19 m)) (a8 m)) (atTc (U20 m)) c (hpf8 m c) hjoin
    rw [Pipeline.unscopedBufs_held] at h
    exact h

set_option maxHeartbeats 1000000 in
/-- Every word of region 9's table is a node's number: the data's table is what the real valuation at the region's entry
    holds in the table's buffer; that valuation is the run's own, whose table is the closed one of the launch memory. -/
theorem hlt9 (m : (ℓ : Loc nD τ sig) → Buf (Elt F) ℓ) (hm : ∀ i : S2x800000.Idx, ((V0 m c₀ main_arg1 : IVec S2x800000 32) i).toNat < 50000) :
    ∀ k : S85000.Idx, (tblw9 (a9 m) k).toNat < 50000 := by
  have h1 : tblw9 (a9 m) = (U21 m c₀ main_v50 : IVec S85000 32) := by
    unfold a9
    rfl
  have h2 : ∀ W : Valuation τ sig (Elt F), V21 m (outsU m) c₀ = W → (W main_v50 : IVec S85000 32) = tbl9 m c₀ :=
    fun W hW => by subst hW; exact tbl9_eq m (outsU m) c₀
  have e : tblw9 (a9 m) = tbl9 m c₀ := h1.trans (h2 (U21 m c₀) (V21_eq m c₀))
  intro k
  rw [e]; exact tbl9_lt m c₀ hm k
set_option maxHeartbeats 1000000 in
set_option backward.isDefEq.respectTransparency.types false in
/-- REGION 9 over the thread state: entered from every unscoped buffer at `U21`, left at `U22`. -/
def reg9 (m : (ℓ : Loc nD τ sig) → Buf (Elt F) ℓ) (hm : ∀ i : S2x800000.Idx, ((V0 m c₀ main_arg1 : IVec S2x800000 32) i).toNat < 50000) :
    RegionSeg (pcfgs (F := F)) (adm m) (pdats m) () defs₀ 𝒱₀ L lv 9 where
  win := (launch9 (F := F)).win.to₀
  block_pos := (launch9 (F := F)).block_pos
  stage_whole := (launch9 (F := F)).stage_whole
  K := Fin 8
  osem := osem9
  ho := ownSemFacts9
  hbody c := hbodyG9 (atTc (U21 m)) (a9 m) (hlt9 m hm) c
  hwaits := Pipeline.hwaits_of_owed_zero _ _ _ _ L lv 9 fun _ _ => rfl
  pre c := iprop(StableHlo.held (c : Thread nD τ) (Pipeline.ucRefs τ sig) (U21 m c) ∗ R (F := F) c)
  post c := iprop(StableHlo.held (c : Thread nD τ) (Pipeline.ucRefs τ sig) (U22 m c) ∗ R (F := F) c)
  X c := XG9 (atTc (U21 m)) c
  Y c := YG9 (atTc (U21 m)) (a9 m) c
  Z c := ZG9 (atTc (U21 m)) c
  hentry c := by
    have hsplit := Pipeline.arrays_of_unscopedBufs (p := 9) (pcfgs (F := F)) (adm m) (pdats m) (launch9 (F := F)).win (launch9 (F := F)).arr_whole c
      ((pdats m 9 c).share_full fun _ => rfl) (atTc (U21 m) c) (fun _ => rfl)
    have h := hentryG9 (atTc (U21 m)) (a9 m) (gblk9 (atTc (U21 m)) (a9 m)) c (hpf9 m c) hsplit
    rw [Pipeline.unscopedBufs_held] at h
    exact h
  hin c := hinG9 (atTc (U21 m)) (a9 m) (gblk9 (atTc (U21 m)) (a9 m)) c
  hout c := houtG9 (atTc (U21 m)) (a9 m) (gblk9 (atTc (U21 m)) (a9 m)) c
  hexit c := by
    have hjoin := Pipeline.unscopedBufs_of_arrays (p := 9) (pcfgs (F := F)) (adm m) (Ix := Unit) (Name := ℕ) (U := UU) (Lvl := ℕ)
      (launch9 (F := F)).win (launch9 (F := F)).arr_whole c (pdats m) ((pdats m 9 c).share_full fun _ => rfl)
      (atTc (U21 m) c) (atTc (U22 m) c) ((pdats m 9 c).arrAt · (cfg9 (a9 m)).N) (hF9 m c) (hrest9 m c)
    have h := hexitG9 (atTc (U21 m)) (a9 m) (gblk9 (atTc (U21 m)) (a9 m)) (atTc (U22 m)) c (hpf9 m c) hjoin
    rw [Pipeline.unscopedBufs_held] at h
    exact h

end Cert.Kernel.Hand

end
-- ==== Proof.K.GatherBody10.lean ====
/-
  Region 10's body obligation. The region runs the body of region 1 on its own table, array, output block and
  semaphores (the two kernel functions are one function), so the body's run is region 1's, cited at this region's eight
  semaphores; read with this region's invariant it is the pipeline's body obligation for the region's proof data.
-/
import proofs.«402049_j87351044866139_2_alg».proof.Proof.K.GatherDef10
import proofs.«402049_j87351044866139_2_alg».proof.Proof.K.GatherBody1

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Idealize.ShloMosaic.Transfers (shareDrop shareTokN)
open Cert.Kernel Cert.Kernel.Gen

variable {F : FTy → Type} [FloatOps F]

local notation "𝕄" => MT nD τ sig Unit (Elt F) ℕ (Pipeline.UD sig nD τ) ℕ

/-! ## The body obligation -/

variable (V : (c : Dev nD) → (b : Ref sig .tc) → Buf (Elt F) ((c : Thread nD τ).loc b))
variable (a1 : (pcfg10 (F := F)).Adm)

/-- The eight cells at zero, listed, each as the body names it. -/
theorem ownSems10_eq (c : Dev nD) :
    (Pipeline.ownSems0 (Ix := Unit) (Name := ℕ) (U := Pipeline.UD sig nD τ) (Lvl := ℕ) (Val := Elt F) (τ := τ) osem10 c : sProp 𝕄)
      = iprop(semVal ((c : Thread nD τ), cell1_0 cc10_scratch0) 0 ∗ semVal ((c : Thread nD τ), cell1_1 cc10_scratch0) 0 ∗ semVal ((c : Thread nD τ), cell1_2 cc10_scratch0) 0 ∗ semVal ((c : Thread nD τ), cell1_3 cc10_scratch0) 0 ∗ semVal ((c : Thread nD τ), cell1_4 cc10_scratch0) 0 ∗ semVal ((c : Thread nD τ), cell1_5 cc10_scratch0) 0 ∗ semVal ((c : Thread nD τ), cell1_6 cc10_scratch0) 0 ∗ semVal ((c : Thread nD τ), cell1_7 cc10_scratch0) 0) := by
  rw [Pipeline.ownSems0_eq_of_list c osem10 [0, 1, 2, 3, 4, 5, 6, 7] (by decide) (by decide)]; rfl

/-- The array the rows are read from, at the contents the region found it with. -/
theorem hbm10_eq (c : Dev nD) :
    (bigSep H10 (fun b => ((c : Thread nD τ).loc b) ↦{fullShare} V c b) : sProp 𝕄)
      = ((Memref.whole main_v33 : Memref sig .tc .hbm S50000x128 .f32).view.loc (c : Thread nD τ) ↦{fullShare} V c main_v33) := by
  unfold H10
  rw [BI.bigSep_eq_bigSepL_of_eq [main_v33] (by decide) (by decide)]; rfl

/-- The table, held whole at the full share, is owned at its contents. -/
theorem tblw10_eq (c : Dev nD) :
    (Pipeline.prefHeld pre10 c (fun _ => fullShare) a1.1 : sProp 𝕄)
      = owns (c : Thread nD τ) (Memref.whole main_v52 : Memref sig .tc .smem S85000 .i32) fullShare (tblw10 a1) := by
  unfold Pipeline.prefHeld
  rw [bigSep_W10, owns_whole]; rfl

set_option maxHeartbeats 4000000 in
/-- The body at every point: the invariant hands the run its table, the array, the eight cells at zero (the scoped rest and
    the generator register ride along), the core's record of waits goes in at whatever the points before left and comes
    back with this point's eight, and the output block, at anything, comes back reading the gathered rows. -/
theorem hbodyG10 [∀ e, Nonempty (Elt F e)] (hlt : ∀ k : S85000.Idx, (tblw10 a1 k).toNat < 50000) (c : Dev nD) :
    BodyObligationLoose (datG10 V a1 (gblk10 V a1) c) (defs₀ (F := F)) Variants.none () Set.univ := by
  refine BodyObligation.loose _ fun t => ?_
  rw [bigSep_W10, bigSep_W10]
  show iprop(iprop(Pipeline.ΦD osem10 spec10 H10 V c ∗ Pipeline.prefHeld pre10 c (fun _ => fullShare) a1.1)
        ∗ (datG10 V a1 (gblk10 V a1) c).owesAt () t.castSucc
        ∗ (∃ d, owns (c : Thread nD τ) (spec10_0.stage ((cfg10 a1).slots t 0)) fullShare ((datG10 V a1 (gblk10 V a1) c).before 0 t d)))
      ⊢ wp frame (wpE (defs₀ (F := F)) Variants.none c none) Set.univ
          (cc10__gather_kernel ((cfg10 a1).grid.coords t) (Memref.whole main_v52) (Memref.isWhole_whole _) (Memref.whole main_v33) (Memref.isWhole_whole _)
            (spec10_0.stage ((cfg10 a1).slots t 0)) (hstage10_0 (((cfg10 a1).slots t 0).cast nbuf10_0)) cc10_scratch0)
          (fun _ => iprop(iprop(Pipeline.ΦD osem10 spec10 H10 V c ∗ Pipeline.prefHeld pre10 c (fun _ => fullShare) a1.1)
            ∗ (datG10 V a1 (gblk10 V a1) c).owesAt () t.succ
            ∗ owns (c : Thread nD τ) (spec10_0.stage ((cfg10 a1).slots t 0)) fullShare (gblk10 V a1 c t)))
  rw [Pipeline.ΦD_eq, ownSems10_eq, hbm10_eq, tblw10_eq]
  unfold Dat.owesAt Pipeline.owesWithin
  rw [show (datG10 V a1 (gblk10 V a1) c).owed t.castSucc = 0 from rfl, show (datG10 V a1 (gblk10 V a1) c).owed t.succ = 0 from rfl]
  have hr : (Memref.whole main_v33 : Memref sig .tc .hbm S50000x128 .f32).view.read (Elt F) (V c main_v33) = V c main_v33 := by
    simp only [Memref.view_whole, View.read_whole]
  iintro ⟨⟨⟨Hsc, Hg, ⟨Hq0, Hq1, Hq2, Hq3, Hq4, Hq5, Hq6, Hq7⟩, Hh⟩, Ht⟩, ⟨%W, -, HW⟩, ⟨%d, Hob⟩⟩
  iapply (kernelRun1 c ((cfg10 a1).grid.coords t) (Memref.whole main_v52) (Memref.isWhole_whole _) (Memref.whole main_v33) (Memref.isWhole_whole _)
    (spec10_0.stage ((cfg10 a1).slots t 0)) (hstage10_0 (((cfg10 a1).slots t 0).cast nbuf10_0)) (tblw10 a1) hlt fullShare fullShare (V c main_v33) cc10_scratch0 W _)
  isplitl [Ht]; · iexact Ht
  isplitl [Hh]; · iexact Hh
  isplitl [Hob]; · iexists _; iexact Hob
  isplitl [Hq0]; · iexact Hq0
  isplitl [Hq1]; · iexact Hq1
  isplitl [Hq2]; · iexact Hq2
  isplitl [Hq3]; · iexact Hq3
  isplitl [Hq4]; · iexact Hq4
  isplitl [Hq5]; · iexact Hq5
  isplitl [Hq6]; · iexact Hq6
  isplitl [Hq7]; · iexact Hq7
  isplitl [HW]; · iexact HW
  iintro ⟨Ht, Hh, Hob, Hq0, Hq1, Hq2, Hq3, Hq4, Hq5, Hq6, Hq7, ⟨%W', HW'⟩⟩
  isplitl [Hsc Hg Hq0 Hq1 Hq2 Hq3 Hq4 Hq5 Hq6 Hq7 Hh Ht]
  · isplitl [Hsc Hg Hq0 Hq1 Hq2 Hq3 Hq4 Hq5 Hq6 Hq7 Hh]
    · isplitl [Hsc]; · iexact Hsc
      isplitl [Hg]; · iexact Hg
      isplitl [Hq0 Hq1 Hq2 Hq3 Hq4 Hq5 Hq6 Hq7]
      · isplitl [Hq0]; · iexact Hq0
        isplitl [Hq1]; · iexact Hq1
        isplitl [Hq2]; · iexact Hq2
        isplitl [Hq3]; · iexact Hq3
        isplitl [Hq4]; · iexact Hq4
        isplitl [Hq5]; · iexact Hq5
        isplitl [Hq6]; · iexact Hq6
        iexact Hq7
      iexact Hh
    iexact Ht
  isplitl [HW']
  · iexists W'; isplitr; · ipureintro; exact fun _ _ => Or.inl trivial
    iexact HW'
  rw [hr]
  iexact Hob

end Cert.Kernel.Hand

end
-- ==== Proof.K.GatherBody12.lean ====
/-
  Region 12's body obligation. The region runs the body of region 1 on its own table, array, output block and
  semaphores (the two kernel functions are one function), so the body's run is region 1's, cited at this region's eight
  semaphores; read with this region's invariant it is the pipeline's body obligation for the region's proof data.
-/
import proofs.«402049_j87351044866139_2_alg».proof.Proof.K.GatherDef12
import proofs.«402049_j87351044866139_2_alg».proof.Proof.K.GatherBody1

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Idealize.ShloMosaic.Transfers (shareDrop shareTokN)
open Cert.Kernel Cert.Kernel.Gen

variable {F : FTy → Type} [FloatOps F]

local notation "𝕄" => MT nD τ sig Unit (Elt F) ℕ (Pipeline.UD sig nD τ) ℕ

/-! ## The body obligation -/

variable (V : (c : Dev nD) → (b : Ref sig .tc) → Buf (Elt F) ((c : Thread nD τ).loc b))
variable (a1 : (pcfg12 (F := F)).Adm)

/-- The eight cells at zero, listed, each as the body names it. -/
theorem ownSems12_eq (c : Dev nD) :
    (Pipeline.ownSems0 (Ix := Unit) (Name := ℕ) (U := Pipeline.UD sig nD τ) (Lvl := ℕ) (Val := Elt F) (τ := τ) osem12 c : sProp 𝕄)
      = iprop(semVal ((c : Thread nD τ), cell1_0 cc12_scratch0) 0 ∗ semVal ((c : Thread nD τ), cell1_1 cc12_scratch0) 0 ∗ semVal ((c : Thread nD τ), cell1_2 cc12_scratch0) 0 ∗ semVal ((c : Thread nD τ), cell1_3 cc12_scratch0) 0 ∗ semVal ((c : Thread nD τ), cell1_4 cc12_scratch0) 0 ∗ semVal ((c : Thread nD τ), cell1_5 cc12_scratch0) 0 ∗ semVal ((c : Thread nD τ), cell1_6 cc12_scratch0) 0 ∗ semVal ((c : Thread nD τ), cell1_7 cc12_scratch0) 0) := by
  rw [Pipeline.ownSems0_eq_of_list c osem12 [0, 1, 2, 3, 4, 5, 6, 7] (by decide) (by decide)]; rfl

/-- The array the rows are read from, at the contents the region found it with. -/
theorem hbm12_eq (c : Dev nD) :
    (bigSep H12 (fun b => ((c : Thread nD τ).loc b) ↦{fullShare} V c b) : sProp 𝕄)
      = ((Memref.whole main_v61 : Memref sig .tc .hbm S50000x128 .f32).view.loc (c : Thread nD τ) ↦{fullShare} V c main_v61) := by
  unfold H12
  rw [BI.bigSep_eq_bigSepL_of_eq [main_v61] (by decide) (by decide)]; rfl

/-- The table, held whole at the full share, is owned at its contents. -/
theorem tblw12_eq (c : Dev nD) :
    (Pipeline.prefHeld pre12 c (fun _ => fullShare) a1.1 : sProp 𝕄)
      = owns (c : Thread nD τ) (Memref.whole main_v62 : Memref sig .tc .smem S85000 .i32) fullShare (tblw12 a1) := by
  unfold Pipeline.prefHeld
  rw [bigSep_W12, owns_whole]; rfl

set_option maxHeartbeats 4000000 in
/-- The body at every point: the invariant hands the run its table, the array, the eight cells at zero (the scoped rest and
    the generator register ride along), the core's record of waits goes in at whatever the points before left and comes
    back with this point's eight, and the output block, at anything, comes back reading the gathered rows. -/
theorem hbodyG12 [∀ e, Nonempty (Elt F e)] (hlt : ∀ k : S85000.Idx, (tblw12 a1 k).toNat < 50000) (c : Dev nD) :
    BodyObligationLoose (datG12 V a1 (gblk12 V a1) c) (defs₀ (F := F)) Variants.none () Set.univ := by
  refine BodyObligation.loose _ fun t => ?_
  rw [bigSep_W12, bigSep_W12]
  show iprop(iprop(Pipeline.ΦD osem12 spec12 H12 V c ∗ Pipeline.prefHeld pre12 c (fun _ => fullShare) a1.1)
        ∗ (datG12 V a1 (gblk12 V a1) c).owesAt () t.castSucc
        ∗ (∃ d, owns (c : Thread nD τ) (spec12_0.stage ((cfg12 a1).slots t 0)) fullShare ((datG12 V a1 (gblk12 V a1) c).before 0 t d)))
      ⊢ wp frame (wpE (defs₀ (F := F)) Variants.none c none) Set.univ
          (cc12__gather_kernel ((cfg12 a1).grid.coords t) (Memref.whole main_v62) (Memref.isWhole_whole _) (Memref.whole main_v61) (Memref.isWhole_whole _)
            (spec12_0.stage ((cfg12 a1).slots t 0)) (hstage12_0 (((cfg12 a1).slots t 0).cast nbuf12_0)) cc12_scratch0)
          (fun _ => iprop(iprop(Pipeline.ΦD osem12 spec12 H12 V c ∗ Pipeline.prefHeld pre12 c (fun _ => fullShare) a1.1)
            ∗ (datG12 V a1 (gblk12 V a1) c).owesAt () t.succ
            ∗ owns (c : Thread nD τ) (spec12_0.stage ((cfg12 a1).slots t 0)) fullShare (gblk12 V a1 c t)))
  rw [Pipeline.ΦD_eq, ownSems12_eq, hbm12_eq, tblw12_eq]
  unfold Dat.owesAt Pipeline.owesWithin
  rw [show (datG12 V a1 (gblk12 V a1) c).owed t.castSucc = 0 from rfl, show (datG12 V a1 (gblk12 V a1) c).owed t.succ = 0 from rfl]
  have hr : (Memref.whole main_v61 : Memref sig .tc .hbm S50000x128 .f32).view.read (Elt F) (V c main_v61) = V c main_v61 := by
    simp only [Memref.view_whole, View.read_whole]
  iintro ⟨⟨⟨Hsc, Hg, ⟨Hq0, Hq1, Hq2, Hq3, Hq4, Hq5, Hq6, Hq7⟩, Hh⟩, Ht⟩, ⟨%W, -, HW⟩, ⟨%d, Hob⟩⟩
  iapply (kernelRun1 c ((cfg12 a1).grid.coords t) (Memref.whole main_v62) (Memref.isWhole_whole _) (Memref.whole main_v61) (Memref.isWhole_whole _)
    (spec12_0.stage ((cfg12 a1).slots t 0)) (hstage12_0 (((cfg12 a1).slots t 0).cast nbuf12_0)) (tblw12 a1) hlt fullShare fullShare (V c main_v61) cc12_scratch0 W _)
  isplitl [Ht]; · iexact Ht
  isplitl [Hh]; · iexact Hh
  isplitl [Hob]; · iexists _; iexact Hob
  isplitl [Hq0]; · iexact Hq0
  isplitl [Hq1]; · iexact Hq1
  isplitl [Hq2]; · iexact Hq2
  isplitl [Hq3]; · iexact Hq3
  isplitl [Hq4]; · iexact Hq4
  isplitl [Hq5]; · iexact Hq5
  isplitl [Hq6]; · iexact Hq6
  isplitl [Hq7]; · iexact Hq7
  isplitl [HW]; · iexact HW
  iintro ⟨Ht, Hh, Hob, Hq0, Hq1, Hq2, Hq3, Hq4, Hq5, Hq6, Hq7, ⟨%W', HW'⟩⟩
  isplitl [Hsc Hg Hq0 Hq1 Hq2 Hq3 Hq4 Hq5 Hq6 Hq7 Hh Ht]
  · isplitl [Hsc Hg Hq0 Hq1 Hq2 Hq3 Hq4 Hq5 Hq6 Hq7 Hh]
    · isplitl [Hsc]; · iexact Hsc
      isplitl [Hg]; · iexact Hg
      isplitl [Hq0 Hq1 Hq2 Hq3 Hq4 Hq5 Hq6 Hq7]
      · isplitl [Hq0]; · iexact Hq0
        isplitl [Hq1]; · iexact Hq1
        isplitl [Hq2]; · iexact Hq2
        isplitl [Hq3]; · iexact Hq3
        isplitl [Hq4]; · iexact Hq4
        isplitl [Hq5]; · iexact Hq5
        isplitl [Hq6]; · iexact Hq6
        iexact Hq7
      iexact Hh
    iexact Ht
  isplitl [HW']
  · iexists W'; isplitr; · ipureintro; exact fun _ _ => Or.inl trivial
    iexact HW'
  rw [hr]
  iexact Hob

end Cert.Kernel.Hand

end
-- ==== Proof.K.GatherBody13.lean ====
/-
  Region 13's body obligation. The region runs the body of region 1 on its own table, array, output block and
  semaphores (the two kernel functions are one function), so the body's run is region 1's, cited at this region's eight
  semaphores; read with this region's invariant it is the pipeline's body obligation for the region's proof data.
-/
import proofs.«402049_j87351044866139_2_alg».proof.Proof.K.GatherDef13
import proofs.«402049_j87351044866139_2_alg».proof.Proof.K.GatherBody1

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Idealize.ShloMosaic.Transfers (shareDrop shareTokN)
open Cert.Kernel Cert.Kernel.Gen

variable {F : FTy → Type} [FloatOps F]

local notation "𝕄" => MT nD τ sig Unit (Elt F) ℕ (Pipeline.UD sig nD τ) ℕ

/-! ## The body obligation -/

variable (V : (c : Dev nD) → (b : Ref sig .tc) → Buf (Elt F) ((c : Thread nD τ).loc b))
variable (a1 : (pcfg13 (F := F)).Adm)

/-- The eight cells at zero, listed, each as the body names it. -/
theorem ownSems13_eq (c : Dev nD) :
    (Pipeline.ownSems0 (Ix := Unit) (Name := ℕ) (U := Pipeline.UD sig nD τ) (Lvl := ℕ) (Val := Elt F) (τ := τ) osem13 c : sProp 𝕄)
      = iprop(semVal ((c : Thread nD τ), cell1_0 cc13_scratch0) 0 ∗ semVal ((c : Thread nD τ), cell1_1 cc13_scratch0) 0 ∗ semVal ((c : Thread nD τ), cell1_2 cc13_scratch0) 0 ∗ semVal ((c : Thread nD τ), cell1_3 cc13_scratch0) 0 ∗ semVal ((c : Thread nD τ), cell1_4 cc13_scratch0) 0 ∗ semVal ((c : Thread nD τ), cell1_5 cc13_scratch0) 0 ∗ semVal ((c : Thread nD τ), cell1_6 cc13_scratch0) 0 ∗ semVal ((c : Thread nD τ), cell1_7 cc13_scratch0) 0) := by
  rw [Pipeline.ownSems0_eq_of_list c osem13 [0, 1, 2, 3, 4, 5, 6, 7] (by decide) (by decide)]; rfl

/-- The array the rows are read from, at the contents the region found it with. -/
theorem hbm13_eq (c : Dev nD) :
    (bigSep H13 (fun b => ((c : Thread nD τ).loc b) ↦{fullShare} V c b) : sProp 𝕄)
      = ((Memref.whole main_v61 : Memref sig .tc .hbm S50000x128 .f32).view.loc (c : Thread nD τ) ↦{fullShare} V c main_v61) := by
  unfold H13
  rw [BI.bigSep_eq_bigSepL_of_eq [main_v61] (by decide) (by decide)]; rfl

/-- The table, held whole at the full share, is owned at its contents. -/
theorem tblw13_eq (c : Dev nD) :
    (Pipeline.prefHeld pre13 c (fun _ => fullShare) a1.1 : sProp 𝕄)
      = owns (c : Thread nD τ) (Memref.whole main_v64 : Memref sig .tc .smem S85000 .i32) fullShare (tblw13 a1) := by
  unfold Pipeline.prefHeld
  rw [bigSep_W13, owns_whole]; rfl

set_option maxHeartbeats 4000000 in
/-- The body at every point: the invariant hands the run its table, the array, the eight cells at zero (the scoped rest and
    the generator register ride along), the core's record of waits goes in at whatever the points before left and comes
    back with this point's eight, and the output block, at anything, comes back reading the gathered rows. -/
theorem hbodyG13 [∀ e, Nonempty (Elt F e)] (hlt : ∀ k : S85000.Idx, (tblw13 a1 k).toNat < 50000) (c : Dev nD) :
    BodyObligationLoose (datG13 V a1 (gblk13 V a1) c) (defs₀ (F := F)) Variants.none () Set.univ := by
  refine BodyObligation.loose _ fun t => ?_
  rw [bigSep_W13, bigSep_W13]
  show iprop(iprop(Pipeline.ΦD osem13 spec13 H13 V c ∗ Pipeline.prefHeld pre13 c (fun _ => fullShare) a1.1)
        ∗ (datG13 V a1 (gblk13 V a1) c).owesAt () t.castSucc
        ∗ (∃ d, owns (c : Thread nD τ) (spec13_0.stage ((cfg13 a1).slots t 0)) fullShare ((datG13 V a1 (gblk13 V a1) c).before 0 t d)))
      ⊢ wp frame (wpE (defs₀ (F := F)) Variants.none c none) Set.univ
          (cc13__gather_kernel ((cfg13 a1).grid.coords t) (Memref.whole main_v64) (Memref.isWhole_whole _) (Memref.whole main_v61) (Memref.isWhole_whole _)
            (spec13_0.stage ((cfg13 a1).slots t 0)) (hstage13_0 (((cfg13 a1).slots t 0).cast nbuf13_0)) cc13_scratch0)
          (fun _ => iprop(iprop(Pipeline.ΦD osem13 spec13 H13 V c ∗ Pipeline.prefHeld pre13 c (fun _ => fullShare) a1.1)
            ∗ (datG13 V a1 (gblk13 V a1) c).owesAt () t.succ
            ∗ owns (c : Thread nD τ) (spec13_0.stage ((cfg13 a1).slots t 0)) fullShare (gblk13 V a1 c t)))
  rw [Pipeline.ΦD_eq, ownSems13_eq, hbm13_eq, tblw13_eq]
  unfold Dat.owesAt Pipeline.owesWithin
  rw [show (datG13 V a1 (gblk13 V a1) c).owed t.castSucc = 0 from rfl, show (datG13 V a1 (gblk13 V a1) c).owed t.succ = 0 from rfl]
  have hr : (Memref.whole main_v61 : Memref sig .tc .hbm S50000x128 .f32).view.read (Elt F) (V c main_v61) = V c main_v61 := by
    simp only [Memref.view_whole, View.read_whole]
  iintro ⟨⟨⟨Hsc, Hg, ⟨Hq0, Hq1, Hq2, Hq3, Hq4, Hq5, Hq6, Hq7⟩, Hh⟩, Ht⟩, ⟨%W, -, HW⟩, ⟨%d, Hob⟩⟩
  iapply (kernelRun1 c ((cfg13 a1).grid.coords t) (Memref.whole main_v64) (Memref.isWhole_whole _) (Memref.whole main_v61) (Memref.isWhole_whole _)
    (spec13_0.stage ((cfg13 a1).slots t 0)) (hstage13_0 (((cfg13 a1).slots t 0).cast nbuf13_0)) (tblw13 a1) hlt fullShare fullShare (V c main_v61) cc13_scratch0 W _)
  isplitl [Ht]; · iexact Ht
  isplitl [Hh]; · iexact Hh
  isplitl [Hob]; · iexists _; iexact Hob
  isplitl [Hq0]; · iexact Hq0
  isplitl [Hq1]; · iexact Hq1
  isplitl [Hq2]; · iexact Hq2
  isplitl [Hq3]; · iexact Hq3
  isplitl [Hq4]; · iexact Hq4
  isplitl [Hq5]; · iexact Hq5
  isplitl [Hq6]; · iexact Hq6
  isplitl [Hq7]; · iexact Hq7
  isplitl [HW]; · iexact HW
  iintro ⟨Ht, Hh, Hob, Hq0, Hq1, Hq2, Hq3, Hq4, Hq5, Hq6, Hq7, ⟨%W', HW'⟩⟩
  isplitl [Hsc Hg Hq0 Hq1 Hq2 Hq3 Hq4 Hq5 Hq6 Hq7 Hh Ht]
  · isplitl [Hsc Hg Hq0 Hq1 Hq2 Hq3 Hq4 Hq5 Hq6 Hq7 Hh]
    · isplitl [Hsc]; · iexact Hsc
      isplitl [Hg]; · iexact Hg
      isplitl [Hq0 Hq1 Hq2 Hq3 Hq4 Hq5 Hq6 Hq7]
      · isplitl [Hq0]; · iexact Hq0
        isplitl [Hq1]; · iexact Hq1
        isplitl [Hq2]; · iexact Hq2
        isplitl [Hq3]; · iexact Hq3
        isplitl [Hq4]; · iexact Hq4
        isplitl [Hq5]; · iexact Hq5
        isplitl [Hq6]; · iexact Hq6
        iexact Hq7
      iexact Hh
    iexact Ht
  isplitl [HW']
  · iexists W'; isplitr; · ipureintro; exact fun _ _ => Or.inl trivial
    iexact HW'
  rw [hr]
  iexact Hob

end Cert.Kernel.Hand

end
-- ==== Proof.K.GatherBody14.lean ====
/-
  Region 14's body obligation. The region runs the body of region 1 on its own table, array, output block and
  semaphores (the two kernel functions are one function), so the body's run is region 1's, cited at this region's eight
  semaphores; read with this region's invariant it is the pipeline's body obligation for the region's proof data.
-/
import proofs.«402049_j87351044866139_2_alg».proof.Proof.K.GatherDef14
import proofs.«402049_j87351044866139_2_alg».proof.Proof.K.GatherBody1

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Idealize.ShloMosaic.Transfers (shareDrop shareTokN)
open Cert.Kernel Cert.Kernel.Gen

variable {F : FTy → Type} [FloatOps F]

local notation "𝕄" => MT nD τ sig Unit (Elt F) ℕ (Pipeline.UD sig nD τ) ℕ

/-! ## The body obligation -/

variable (V : (c : Dev nD) → (b : Ref sig .tc) → Buf (Elt F) ((c : Thread nD τ).loc b))
variable (a1 : (pcfg14 (F := F)).Adm)

/-- The eight cells at zero, listed, each as the body names it. -/
theorem ownSems14_eq (c : Dev nD) :
    (Pipeline.ownSems0 (Ix := Unit) (Name := ℕ) (U := Pipeline.UD sig nD τ) (Lvl := ℕ) (Val := Elt F) (τ := τ) osem14 c : sProp 𝕄)
      = iprop(semVal ((c : Thread nD τ), cell1_0 cc14_scratch0) 0 ∗ semVal ((c : Thread nD τ), cell1_1 cc14_scratch0) 0 ∗ semVal ((c : Thread nD τ), cell1_2 cc14_scratch0) 0 ∗ semVal ((c : Thread nD τ), cell1_3 cc14_scratch0) 0 ∗ semVal ((c : Thread nD τ), cell1_4 cc14_scratch0) 0 ∗ semVal ((c : Thread nD τ), cell1_5 cc14_scratch0) 0 ∗ semVal ((c : Thread nD τ), cell1_6 cc14_scratch0) 0 ∗ semVal ((c : Thread nD τ), cell1_7 cc14_scratch0) 0) := by
  rw [Pipeline.ownSems0_eq_of_list c osem14 [0, 1, 2, 3, 4, 5, 6, 7] (by decide) (by decide)]; rfl

/-- The array the rows are read from, at the contents the region found it with. -/
theorem hbm14_eq (c : Dev nD) :
    (bigSep H14 (fun b => ((c : Thread nD τ).loc b) ↦{fullShare} V c b) : sProp 𝕄)
      = ((Memref.whole main_v61 : Memref sig .tc .hbm S50000x128 .f32).view.loc (c : Thread nD τ) ↦{fullShare} V c main_v61) := by
  unfold H14
  rw [BI.bigSep_eq_bigSepL_of_eq [main_v61] (by decide) (by decide)]; rfl

/-- The table, held whole at the full share, is owned at its contents. -/
theorem tblw14_eq (c : Dev nD) :
    (Pipeline.prefHeld pre14 c (fun _ => fullShare) a1.1 : sProp 𝕄)
      = owns (c : Thread nD τ) (Memref.whole main_v66 : Memref sig .tc .smem S85000 .i32) fullShare (tblw14 a1) := by
  unfold Pipeline.prefHeld
  rw [bigSep_W14, owns_whole]; rfl

set_option maxHeartbeats 4000000 in
/-- The body at every point: the invariant hands the run its table, the array, the eight cells at zero (the scoped rest and
    the generator register ride along), the core's record of waits goes in at whatever the points before left and comes
    back with this point's eight, and the output block, at anything, comes back reading the gathered rows. -/
theorem hbodyG14 [∀ e, Nonempty (Elt F e)] (hlt : ∀ k : S85000.Idx, (tblw14 a1 k).toNat < 50000) (c : Dev nD) :
    BodyObligationLoose (datG14 V a1 (gblk14 V a1) c) (defs₀ (F := F)) Variants.none () Set.univ := by
  refine BodyObligation.loose _ fun t => ?_
  rw [bigSep_W14, bigSep_W14]
  show iprop(iprop(Pipeline.ΦD osem14 spec14 H14 V c ∗ Pipeline.prefHeld pre14 c (fun _ => fullShare) a1.1)
        ∗ (datG14 V a1 (gblk14 V a1) c).owesAt () t.castSucc
        ∗ (∃ d, owns (c : Thread nD τ) (spec14_0.stage ((cfg14 a1).slots t 0)) fullShare ((datG14 V a1 (gblk14 V a1) c).before 0 t d)))
      ⊢ wp frame (wpE (defs₀ (F := F)) Variants.none c none) Set.univ
          (cc14__gather_kernel ((cfg14 a1).grid.coords t) (Memref.whole main_v66) (Memref.isWhole_whole _) (Memref.whole main_v61) (Memref.isWhole_whole _)
            (spec14_0.stage ((cfg14 a1).slots t 0)) (hstage14_0 (((cfg14 a1).slots t 0).cast nbuf14_0)) cc14_scratch0)
          (fun _ => iprop(iprop(Pipeline.ΦD osem14 spec14 H14 V c ∗ Pipeline.prefHeld pre14 c (fun _ => fullShare) a1.1)
            ∗ (datG14 V a1 (gblk14 V a1) c).owesAt () t.succ
            ∗ owns (c : Thread nD τ) (spec14_0.stage ((cfg14 a1).slots t 0)) fullShare (gblk14 V a1 c t)))
  rw [Pipeline.ΦD_eq, ownSems14_eq, hbm14_eq, tblw14_eq]
  unfold Dat.owesAt Pipeline.owesWithin
  rw [show (datG14 V a1 (gblk14 V a1) c).owed t.castSucc = 0 from rfl, show (datG14 V a1 (gblk14 V a1) c).owed t.succ = 0 from rfl]
  have hr : (Memref.whole main_v61 : Memref sig .tc .hbm S50000x128 .f32).view.read (Elt F) (V c main_v61) = V c main_v61 := by
    simp only [Memref.view_whole, View.read_whole]
  iintro ⟨⟨⟨Hsc, Hg, ⟨Hq0, Hq1, Hq2, Hq3, Hq4, Hq5, Hq6, Hq7⟩, Hh⟩, Ht⟩, ⟨%W, -, HW⟩, ⟨%d, Hob⟩⟩
  iapply (kernelRun1 c ((cfg14 a1).grid.coords t) (Memref.whole main_v66) (Memref.isWhole_whole _) (Memref.whole main_v61) (Memref.isWhole_whole _)
    (spec14_0.stage ((cfg14 a1).slots t 0)) (hstage14_0 (((cfg14 a1).slots t 0).cast nbuf14_0)) (tblw14 a1) hlt fullShare fullShare (V c main_v61) cc14_scratch0 W _)
  isplitl [Ht]; · iexact Ht
  isplitl [Hh]; · iexact Hh
  isplitl [Hob]; · iexists _; iexact Hob
  isplitl [Hq0]; · iexact Hq0
  isplitl [Hq1]; · iexact Hq1
  isplitl [Hq2]; · iexact Hq2
  isplitl [Hq3]; · iexact Hq3
  isplitl [Hq4]; · iexact Hq4
  isplitl [Hq5]; · iexact Hq5
  isplitl [Hq6]; · iexact Hq6
  isplitl [Hq7]; · iexact Hq7
  isplitl [HW]; · iexact HW
  iintro ⟨Ht, Hh, Hob, Hq0, Hq1, Hq2, Hq3, Hq4, Hq5, Hq6, Hq7, ⟨%W', HW'⟩⟩
  isplitl [Hsc Hg Hq0 Hq1 Hq2 Hq3 Hq4 Hq5 Hq6 Hq7 Hh Ht]
  · isplitl [Hsc Hg Hq0 Hq1 Hq2 Hq3 Hq4 Hq5 Hq6 Hq7 Hh]
    · isplitl [Hsc]; · iexact Hsc
      isplitl [Hg]; · iexact Hg
      isplitl [Hq0 Hq1 Hq2 Hq3 Hq4 Hq5 Hq6 Hq7]
      · isplitl [Hq0]; · iexact Hq0
        isplitl [Hq1]; · iexact Hq1
        isplitl [Hq2]; · iexact Hq2
        isplitl [Hq3]; · iexact Hq3
        isplitl [Hq4]; · iexact Hq4
        isplitl [Hq5]; · iexact Hq5
        isplitl [Hq6]; · iexact Hq6
        iexact Hq7
      iexact Hh
    iexact Ht
  isplitl [HW']
  · iexists W'; isplitr; · ipureintro; exact fun _ _ => Or.inl trivial
    iexact HW'
  rw [hr]
  iexact Hob

end Cert.Kernel.Hand

end
-- ==== Proof.K.Regs2.lean ====
import proofs.«402049_j87351044866139_2_alg».proof.Proof.K.Fam
import proofs.«402049_j87351044866139_2_alg».proof.Proof.K.Tables
import proofs.«402049_j87351044866139_2_alg».proof.Proof.K.GatherBody10
import proofs.«402049_j87351044866139_2_alg».proof.Proof.K.GatherBody12
import proofs.«402049_j87351044866139_2_alg».proof.Proof.K.GatherBody13
import proofs.«402049_j87351044866139_2_alg».proof.Proof.K.GatherBody14
import Idealize.ShloMosaic.Lib.Pipeline.RegionsLoop

/-! The records of regions 10 to 14 over the thread states: each entered from every unscoped buffer at the real valuation
    before it and left at the one after it; for a gather region, first that every word of its table is a node's number. -/

set_option maxRecDepth 16384

noncomputable section

namespace Cert.Kernel.Hand

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg BodyObligation BodyObligationLoose)

variable {F : FTy → Type} [FloatOps F]

local notation "𝕄" => MT nD τ sig Unit (Elt F) ℕ UU ℕ

set_option maxHeartbeats 1000000 in
/-- Every word of region 10's table is a node's number: the data's table is what the real valuation at the region's entry
    holds in the table's buffer; that valuation is the run's own, whose table is the closed one of the launch memory. -/
theorem hlt10 (m : (ℓ : Loc nD τ sig) → Buf (Elt F) ℓ) (hm : ∀ i : S2x800000.Idx, ((V0 m c₀ main_arg1 : IVec S2x800000 32) i).toNat < 50000) :
    ∀ k : S85000.Idx, (tblw10 (a10 m) k).toNat < 50000 := by
  have h1 : tblw10 (a10 m) = (U23 m c₀ main_v52 : IVec S85000 32) := by
    unfold a10
    rfl
  have h2 : ∀ W : Valuation τ sig (Elt F), V23 m (outsU m) c₀ = W → (W main_v52 : IVec S85000 32) = tbl10 m c₀ :=
    fun W hW => by subst hW; exact tbl10_eq m (outsU m) c₀
  have e : tblw10 (a10 m) = tbl10 m c₀ := h1.trans (h2 (U23 m c₀) (V23_eq m c₀))
  intro k
  rw [e]; exact tbl10_lt m c₀ hm k
set_option maxHeartbeats 1000000 in
set_option backward.isDefEq.respectTransparency.types false in
/-- REGION 10 over the thread state: entered from every unscoped buffer at `U23`, left at `U24`. -/
def reg10 (m : (ℓ : Loc nD τ sig) → Buf (Elt F) ℓ) (hm : ∀ i : S2x800000.Idx, ((V0 m c₀ main_arg1 : IVec S2x800000 32) i).toNat < 50000) :
    RegionSeg (pcfgs (F := F)) (adm m) (pdats m) () defs₀ 𝒱₀ L lv 10 where
  win := (launch10 (F := F)).win.to₀
  block_pos := (launch10 (F := F)).block_pos
  stage_whole := (launch10 (F := F)).stage_whole
  K := Fin 8
  osem := osem10
  ho := ownSemFacts10
  hbody c := hbodyG10 (atTc (U23 m)) (a10 m) (hlt10 m hm) c
  hwaits := Pipeline.hwaits_of_owed_zero _ _ _ _ L lv 10 fun _ _ => rfl
  pre c := iprop(StableHlo.held (c : Thread nD τ) (Pipeline.ucRefs τ sig) (U23 m c) ∗ R (F := F) c)
  post c := iprop(StableHlo.held (c : Thread nD τ) (Pipeline.ucRefs τ sig) (U24 m c) ∗ R (F := F) c)
  X c := XG10 (atTc (U23 m)) c
  Y c := YG10 (atTc (U23 m)) (a10 m) c
  Z c := ZG10 (atTc (U23 m)) c
  hentry c := by
    have hsplit := Pipeline.arrays_of_unscopedBufs (p := 10) (pcfgs (F := F)) (adm m) (pdats m) (launch10 (F := F)).win (launch10 (F := F)).arr_whole c
      ((pdats m 10 c).share_full fun _ => rfl) (atTc (U23 m) c) (fun _ => rfl)
    have h := hentryG10 (atTc (U23 m)) (a10 m) (gblk10 (atTc (U23 m)) (a10 m)) c (hpf10 m c) hsplit
    rw [Pipeline.unscopedBufs_held] at h
    exact h
  hin c := hinG10 (atTc (U23 m)) (a10 m) (gblk10 (atTc (U23 m)) (a10 m)) c
  hout c := houtG10 (atTc (U23 m)) (a10 m) (gblk10 (atTc (U23 m)) (a10 m)) c
  hexit c := by
    have hjoin := Pipeline.unscopedBufs_of_arrays (p := 10) (pcfgs (F := F)) (adm m) (Ix := Unit) (Name := ℕ) (U := UU) (Lvl := ℕ)
      (launch10 (F := F)).win (launch10 (F := F)).arr_whole c (pdats m) ((pdats m 10 c).share_full fun _ => rfl)
      (atTc (U23 m) c) (atTc (U24 m) c) ((pdats m 10 c).arrAt · (cfg10 (a10 m)).N) (hF10 m c) (hrest10 m c)
    have h := hexitG10 (atTc (U23 m)) (a10 m) (gblk10 (atTc (U23 m)) (a10 m)) (atTc (U24 m)) c (hpf10 m c) hjoin
    rw [Pipeline.unscopedBufs_held] at h
    exact h

set_option maxHeartbeats 1000000 in
set_option backward.isDefEq.respectTransparency.types false in
/-- REGION 11 over the thread state: entered from every unscoped buffer at `U25`, left at `U26`. -/
def reg11 (m : (ℓ : Loc nD τ sig) → Buf (Elt F) ℓ) : RegionSeg (pcfgs (F := F)) (adm m) (pdats m) () defs₀ 𝒱₀ L lv 11 where
  win := (launch11 (F := F)).win.to₀
  block_pos := (launch11 (F := F)).block_pos
  stage_whole := (launch11 (F := F)).stage_whole
  K := PEmpty
  osem k := k.elim
  ho := Pipeline.OwnSemFacts.none _
  hbody c := (body_obligation11 (atTc (U25 m)) c).loose
  hwaits := Pipeline.hwaits_of_owed_zero _ _ _ _ L lv 11 fun _ _ => rfl
  pre c := iprop(StableHlo.held (c : Thread nD τ) (Pipeline.ucRefs τ sig) (U25 m c) ∗ R (F := F) c)
  post c := iprop(StableHlo.held (c : Thread nD τ) (Pipeline.ucRefs τ sig) (U26 m c) ∗ R (F := F) c)
  X c := iprop(∃ r, prngReg c r)
  Y c := iprop(∃ r, prngReg c r)
  Z c := Pipeline.unscopedRest (Ix := Unit) (Name := ℕ) (U := UU) (Lvl := ℕ) spec11 c (atTc (U25 m) c)
  hentry c := by
    have hsplit := Pipeline.arrays_of_unscopedBufs (p := 11) (pcfgs (F := F)) (adm m) (pdats m) (launch11 (F := F)).win (launch11 (F := F)).arr_whole c
      ((pdats m 11 c).share_full fun _ => rfl) (atTc (U25 m) c) (fun _ => rfl)
    rw [Pipeline.unscopedBufs_held] at hsplit
    exact enterA c (U25 m c) hsplit (prefHeld_none_intro c _ _) (owesAt_first c _ rfl rfl)
  hin c := by
    rw [show (pdats m 11 c).Φ 0 = Pipeline.ΦA spec11 c from rfl]; unfold Pipeline.ΦA
    iintro ⟨Hp, -, Hr⟩
    isplitl [Hr]; · iexact Hr
    iexact Hp
  hout c := by
    rw [Pipeline.ownSems0_none, show (pdats m 11 c).Φ (Fin.last _) = Pipeline.ΦA spec11 c from rfl]; unfold Pipeline.ΦA
    iintro ⟨Hr, Hp⟩
    isplitl [Hp]; · iexact Hp
    isplitr; · iempintro
    iexact Hr
  hexit c := by
    have hjoin := Pipeline.unscopedBufs_of_arrays (p := 11) (pcfgs (F := F)) (adm m) (Ix := Unit) (Name := ℕ) (U := UU) (Lvl := ℕ)
      (launch11 (F := F)).win (launch11 (F := F)).arr_whole c (pdats m) ((pdats m 11 c).share_full fun _ => rfl)
      (atTc (U25 m) c) (atTc (U26 m) c) ((pdats m 11 c).arrAt · cfg11.N) (hF11 m c) (hrest11 m c)
    rw [Pipeline.unscopedBufs_held] at hjoin
    exact leaveA c (U26 m c) hjoin (owes_of_owesAt_last c _ rfl)

set_option maxHeartbeats 1000000 in
/-- Every word of region 12's table is a node's number: the data's table is what the real valuation at the region's entry
    holds in the table's buffer; that valuation is the run's own, whose table is the closed one of the launch memory. -/
theorem hlt12 (m : (ℓ : Loc nD τ sig) → Buf (Elt F) ℓ) (hm : ∀ i : S2x800000.Idx, ((V0 m c₀ main_arg1 : IVec S2x800000 32) i).toNat < 50000) :
    ∀ k : S85000.Idx, (tblw12 (a12 m) k).toNat < 50000 := by
  have h1 : tblw12 (a12 m) = (U27 m c₀ main_v62 : IVec S85000 32) := by
    unfold a12
    rfl
  have h2 : ∀ W : Valuation τ sig (Elt F), V27 m (outsU m) c₀ = W → (W main_v62 : IVec S85000 32) = tbl12 m c₀ :=
    fun W hW => by subst hW; exact tbl12_eq m (outsU m) c₀
  have e : tblw12 (a12 m) = tbl12 m c₀ := h1.trans (h2 (U27 m c₀) (V27_eq m c₀))
  intro k
  rw [e]; exact tbl12_lt m c₀ hm k
set_option maxHeartbeats 1000000 in
set_option backward.isDefEq.respectTransparency.types false in
/-- REGION 12 over the thread state: entered from every unscoped buffer at `U27`, left at `U28`. -/
def reg12 (m : (ℓ : Loc nD τ sig) → Buf (Elt F) ℓ) (hm : ∀ i : S2x800000.Idx, ((V0 m c₀ main_arg1 : IVec S2x800000 32) i).toNat < 50000) :
    RegionSeg (pcfgs (F := F)) (adm m) (pdats m) () defs₀ 𝒱₀ L lv 12 where
  win := (launch12 (F := F)).win.to₀
  block_pos := (launch12 (F := F)).block_pos
  stage_whole := (launch12 (F := F)).stage_whole
  K := Fin 8
  osem := osem12
  ho := ownSemFacts12
  hbody c := hbodyG12 (atTc (U27 m)) (a12 m) (hlt12 m hm) c
  hwaits := Pipeline.hwaits_of_owed_zero _ _ _ _ L lv 12 fun _ _ => rfl
  pre c := iprop(StableHlo.held (c : Thread nD τ) (Pipeline.ucRefs τ sig) (U27 m c) ∗ R (F := F) c)
  post c := iprop(StableHlo.held (c : Thread nD τ) (Pipeline.ucRefs τ sig) (U28 m c) ∗ R (F := F) c)
  X c := XG12 (atTc (U27 m)) c
  Y c := YG12 (atTc (U27 m)) (a12 m) c
  Z c := ZG12 (atTc (U27 m)) c
  hentry c := by
    have hsplit := Pipeline.arrays_of_unscopedBufs (p := 12) (pcfgs (F := F)) (adm m) (pdats m) (launch12 (F := F)).win (launch12 (F := F)).arr_whole c
      ((pdats m 12 c).share_full fun _ => rfl) (atTc (U27 m) c) (fun _ => rfl)
    have h := hentryG12 (atTc (U27 m)) (a12 m) (gblk12 (atTc (U27 m)) (a12 m)) c (hpf12 m c) hsplit
    rw [Pipeline.unscopedBufs_held] at h
    exact h
  hin c := hinG12 (atTc (U27 m)) (a12 m) (gblk12 (atTc (U27 m)) (a12 m)) c
  hout c := houtG12 (atTc (U27 m)) (a12 m) (gblk12 (atTc (U27 m)) (a12 m)) c
  hexit c := by
    have hjoin := Pipeline.unscopedBufs_of_arrays (p := 12) (pcfgs (F := F)) (adm m) (Ix := Unit) (Name := ℕ) (U := UU) (Lvl := ℕ)
      (launch12 (F := F)).win (launch12 (F := F)).arr_whole c (pdats m) ((pdats m 12 c).share_full fun _ => rfl)
      (atTc (U27 m) c) (atTc (U28 m) c) ((pdats m 12 c).arrAt · (cfg12 (a12 m)).N) (hF12 m c) (hrest12 m c)
    have h := hexitG12 (atTc (U27 m)) (a12 m) (gblk12 (atTc (U27 m)) (a12 m)) (atTc (U28 m)) c (hpf12 m c) hjoin
    rw [Pipeline.unscopedBufs_held] at h
    exact h

set_option maxHeartbeats 1000000 in
/-- Every word of region 13's table is a node's number: the data's table is what the real valuation at the region's entry
    holds in the table's buffer; that valuation is the run's own, whose table is the closed one of the launch memory. -/
theorem hlt13 (m : (ℓ : Loc nD τ sig) → Buf (Elt F) ℓ) (hm : ∀ i : S2x800000.Idx, ((V0 m c₀ main_arg1 : IVec S2x800000 32) i).toNat < 50000) :
    ∀ k : S85000.Idx, (tblw13 (a13 m) k).toNat < 50000 := by
  have h1 : tblw13 (a13 m) = (U29 m c₀ main_v64 : IVec S85000 32) := by
    unfold a13
    rfl
  have h2 : ∀ W : Valuation τ sig (Elt F), V29 m (outsU m) c₀ = W → (W main_v64 : IVec S85000 32) = tbl13 m c₀ :=
    fun W hW => by subst hW; exact tbl13_eq m (outsU m) c₀
  have e : tblw13 (a13 m) = tbl13 m c₀ := h1.trans (h2 (U29 m c₀) (V29_eq m c₀))
  intro k
  rw [e]; exact tbl13_lt m c₀ hm k
set_option maxHeartbeats 1000000 in
set_option backward.isDefEq.respectTransparency.types false in
/-- REGION 13 over the thread state: entered from every unscoped buffer at `U29`, left at `U30`. -/
def reg13 (m : (ℓ : Loc nD τ sig) → Buf (Elt F) ℓ) (hm : ∀ i : S2x800000.Idx, ((V0 m c₀ main_arg1 : IVec S2x800000 32) i).toNat < 50000) :
    RegionSeg (pcfgs (F := F)) (adm m) (pdats m) () defs₀ 𝒱₀ L lv 13 where
  win := (launch13 (F := F)).win.to₀
  block_pos := (launch13 (F := F)).block_pos
  stage_whole := (launch13 (F := F)).stage_whole
  K := Fin 8
  osem := osem13
  ho := ownSemFacts13
  hbody c := hbodyG13 (atTc (U29 m)) (a13 m) (hlt13 m hm) c
  hwaits := Pipeline.hwaits_of_owed_zero _ _ _ _ L lv 13 fun _ _ => rfl
  pre c := iprop(StableHlo.held (c : Thread nD τ) (Pipeline.ucRefs τ sig) (U29 m c) ∗ R (F := F) c)
  post c := iprop(StableHlo.held (c : Thread nD τ) (Pipeline.ucRefs τ sig) (U30 m c) ∗ R (F := F) c)
  X c := XG13 (atTc (U29 m)) c
  Y c := YG13 (atTc (U29 m)) (a13 m) c
  Z c := ZG13 (atTc (U29 m)) c
  hentry c := by
    have hsplit := Pipeline.arrays_of_unscopedBufs (p := 13) (pcfgs (F := F)) (adm m) (pdats m) (launch13 (F := F)).win (launch13 (F := F)).arr_whole c
      ((pdats m 13 c).share_full fun _ => rfl) (atTc (U29 m) c) (fun _ => rfl)
    have h := hentryG13 (atTc (U29 m)) (a13 m) (gblk13 (atTc (U29 m)) (a13 m)) c (hpf13 m c) hsplit
    rw [Pipeline.unscopedBufs_held] at h
    exact h
  hin c := hinG13 (atTc (U29 m)) (a13 m) (gblk13 (atTc (U29 m)) (a13 m)) c
  hout c := houtG13 (atTc (U29 m)) (a13 m) (gblk13 (atTc (U29 m)) (a13 m)) c
  hexit c := by
    have hjoin := Pipeline.unscopedBufs_of_arrays (p := 13) (pcfgs (F := F)) (adm m) (Ix := Unit) (Name := ℕ) (U := UU) (Lvl := ℕ)
      (launch13 (F := F)).win (launch13 (F := F)).arr_whole c (pdats m) ((pdats m 13 c).share_full fun _ => rfl)
      (atTc (U29 m) c) (atTc (U30 m) c) ((pdats m 13 c).arrAt · (cfg13 (a13 m)).N) (hF13 m c) (hrest13 m c)
    have h := hexitG13 (atTc (U29 m)) (a13 m) (gblk13 (atTc (U29 m)) (a13 m)) (atTc (U30 m)) c (hpf13 m c) hjoin
    rw [Pipeline.unscopedBufs_held] at h
    exact h

set_option maxHeartbeats 1000000 in
/-- Every word of region 14's table is a node's number: the data's table is what the real valuation at the region's entry
    holds in the table's buffer; that valuation is the run's own, whose table is the closed one of the launch memory. -/
theorem hlt14 (m : (ℓ : Loc nD τ sig) → Buf (Elt F) ℓ) (hm : ∀ i : S2x800000.Idx, ((V0 m c₀ main_arg1 : IVec S2x800000 32) i).toNat < 50000) :
    ∀ k : S85000.Idx, (tblw14 (a14 m) k).toNat < 50000 := by
  have h1 : tblw14 (a14 m) = (U31 m c₀ main_v66 : IVec S85000 32) := by
    unfold a14
    rfl
  have h2 : ∀ W : Valuation τ sig (Elt F), V31 m (outsU m) c₀ = W → (W main_v66 : IVec S85000 32) = tbl14 m c₀ :=
    fun W hW => by subst hW; exact tbl14_eq m (outsU m) c₀
  have e : tblw14 (a14 m) = tbl14 m c₀ := h1.trans (h2 (U31 m c₀) (V31_eq m c₀))
  intro k
  rw [e]; exact tbl14_lt m c₀ hm k
set_option maxHeartbeats 1000000 in
set_option backward.isDefEq.respectTransparency.types false in
/-- REGION 14 over the thread state: entered from every unscoped buffer at `U31`, left at `U32`. -/
def reg14 (m : (ℓ : Loc nD τ sig) → Buf (Elt F) ℓ) (hm : ∀ i : S2x800000.Idx, ((V0 m c₀ main_arg1 : IVec S2x800000 32) i).toNat < 50000) :
    RegionSeg (pcfgs (F := F)) (adm m) (pdats m) () defs₀ 𝒱₀ L lv 14 where
  win := (launch14 (F := F)).win.to₀
  block_pos := (launch14 (F := F)).block_pos
  stage_whole := (launch14 (F := F)).stage_whole
  K := Fin 8
  osem := osem14
  ho := ownSemFacts14
  hbody c := hbodyG14 (atTc (U31 m)) (a14 m) (hlt14 m hm) c
  hwaits := Pipeline.hwaits_of_owed_zero _ _ _ _ L lv 14 fun _ _ => rfl
  pre c := iprop(StableHlo.held (c : Thread nD τ) (Pipeline.ucRefs τ sig) (U31 m c) ∗ R (F := F) c)
  post c := iprop(StableHlo.held (c : Thread nD τ) (Pipeline.ucRefs τ sig) (U32 m c) ∗ R (F := F) c)
  X c := XG14 (atTc (U31 m)) c
  Y c := YG14 (atTc (U31 m)) (a14 m) c
  Z c := ZG14 (atTc (U31 m)) c
  hentry c := by
    have hsplit := Pipeline.arrays_of_unscopedBufs (p := 14) (pcfgs (F := F)) (adm m) (pdats m) (launch14 (F := F)).win (launch14 (F := F)).arr_whole c
      ((pdats m 14 c).share_full fun _ => rfl) (atTc (U31 m) c) (fun _ => rfl)
    have h := hentryG14 (atTc (U31 m)) (a14 m) (gblk14 (atTc (U31 m)) (a14 m)) c (hpf14 m c) hsplit
    rw [Pipeline.unscopedBufs_held] at h
    exact h
  hin c := hinG14 (atTc (U31 m)) (a14 m) (gblk14 (atTc (U31 m)) (a14 m)) c
  hout c := houtG14 (atTc (U31 m)) (a14 m) (gblk14 (atTc (U31 m)) (a14 m)) c
  hexit c := by
    have hjoin := Pipeline.unscopedBufs_of_arrays (p := 14) (pcfgs (F := F)) (adm m) (Ix := Unit) (Name := ℕ) (U := UU) (Lvl := ℕ)
      (launch14 (F := F)).win (launch14 (F := F)).arr_whole c (pdats m) ((pdats m 14 c).share_full fun _ => rfl)
      (atTc (U31 m) c) (atTc (U32 m) c) ((pdats m 14 c).arrAt · (cfg14 (a14 m)).N) (hF14 m c) (hrest14 m c)
    have h := hexitG14 (atTc (U31 m)) (a14 m) (gblk14 (atTc (U31 m)) (a14 m)) (atTc (U32 m)) c (hpf14 m c) hjoin
    rw [Pipeline.unscopedBufs_held] at h
    exact h

end Cert.Kernel.Hand

end
-- ==== Proof.K.GatherBody15.lean ====
/-
  Region 15's body obligation. The region runs the body of region 1 on its own table, array, output block and
  semaphores (the two kernel functions are one function), so the body's run is region 1's, cited at this region's eight
  semaphores; read with this region's invariant it is the pipeline's body obligation for the region's proof data.
-/
import proofs.«402049_j87351044866139_2_alg».proof.Proof.K.GatherDef15
import proofs.«402049_j87351044866139_2_alg».proof.Proof.K.GatherBody1

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Idealize.ShloMosaic.Transfers (shareDrop shareTokN)
open Cert.Kernel Cert.Kernel.Gen

variable {F : FTy → Type} [FloatOps F]

local notation "𝕄" => MT nD τ sig Unit (Elt F) ℕ (Pipeline.UD sig nD τ) ℕ

/-! ## The body obligation -/

variable (V : (c : Dev nD) → (b : Ref sig .tc) → Buf (Elt F) ((c : Thread nD τ).loc b))
variable (a1 : (pcfg15 (F := F)).Adm)

/-- The eight cells at zero, listed, each as the body names it. -/
theorem ownSems15_eq (c : Dev nD) :
    (Pipeline.ownSems0 (Ix := Unit) (Name := ℕ) (U := Pipeline.UD sig nD τ) (Lvl := ℕ) (Val := Elt F) (τ := τ) osem15 c : sProp 𝕄)
      = iprop(semVal ((c : Thread nD τ), cell1_0 cc15_scratch0) 0 ∗ semVal ((c : Thread nD τ), cell1_1 cc15_scratch0) 0 ∗ semVal ((c : Thread nD τ), cell1_2 cc15_scratch0) 0 ∗ semVal ((c : Thread nD τ), cell1_3 cc15_scratch0) 0 ∗ semVal ((c : Thread nD τ), cell1_4 cc15_scratch0) 0 ∗ semVal ((c : Thread nD τ), cell1_5 cc15_scratch0) 0 ∗ semVal ((c : Thread nD τ), cell1_6 cc15_scratch0) 0 ∗ semVal ((c : Thread nD τ), cell1_7 cc15_scratch0) 0) := by
  rw [Pipeline.ownSems0_eq_of_list c osem15 [0, 1, 2, 3, 4, 5, 6, 7] (by decide) (by decide)]; rfl

/-- The array the rows are read from, at the contents the region found it with. -/
theorem hbm15_eq (c : Dev nD) :
    (bigSep H15 (fun b => ((c : Thread nD τ).loc b) ↦{fullShare} V c b) : sProp 𝕄)
      = ((Memref.whole main_v61 : Memref sig .tc .hbm S50000x128 .f32).view.loc (c : Thread nD τ) ↦{fullShare} V c main_v61) := by
  unfold H15
  rw [BI.bigSep_eq_bigSepL_of_eq [main_v61] (by decide) (by decide)]; rfl

/-- The table, held whole at the full share, is owned at its contents. -/
theorem tblw15_eq (c : Dev nD) :
    (Pipeline.prefHeld pre15 c (fun _ => fullShare) a1.1 : sProp 𝕄)
      = owns (c : Thread nD τ) (Memref.whole main_v68 : Memref sig .tc .smem S85000 .i32) fullShare (tblw15 a1) := by
  unfold Pipeline.prefHeld
  rw [bigSep_W15, owns_whole]; rfl

set_option maxHeartbeats 4000000 in
/-- The body at every point: the invariant hands the run its table, the array, the eight cells at zero (the scoped rest and
    the generator register ride along), the core's record of waits goes in at whatever the points before left and comes
    back with this point's eight, and the output block, at anything, comes back reading the gathered rows. -/
theorem hbodyG15 [∀ e, Nonempty (Elt F e)] (hlt : ∀ k : S85000.Idx, (tblw15 a1 k).toNat < 50000) (c : Dev nD) :
    BodyObligationLoose (datG15 V a1 (gblk15 V a1) c) (defs₀ (F := F)) Variants.none () Set.univ := by
  refine BodyObligation.loose _ fun t => ?_
  rw [bigSep_W15, bigSep_W15]
  show iprop(iprop(Pipeline.ΦD osem15 spec15 H15 V c ∗ Pipeline.prefHeld pre15 c (fun _ => fullShare) a1.1)
        ∗ (datG15 V a1 (gblk15 V a1) c).owesAt () t.castSucc
        ∗ (∃ d, owns (c : Thread nD τ) (spec15_0.stage ((cfg15 a1).slots t 0)) fullShare ((datG15 V a1 (gblk15 V a1) c).before 0 t d)))
      ⊢ wp frame (wpE (defs₀ (F := F)) Variants.none c none) Set.univ
          (cc15__gather_kernel ((cfg15 a1).grid.coords t) (Memref.whole main_v68) (Memref.isWhole_whole _) (Memref.whole main_v61) (Memref.isWhole_whole _)
            (spec15_0.stage ((cfg15 a1).slots t 0)) (hstage15_0 (((cfg15 a1).slots t 0).cast nbuf15_0)) cc15_scratch0)
          (fun _ => iprop(iprop(Pipeline.ΦD osem15 spec15 H15 V c ∗ Pipeline.prefHeld pre15 c (fun _ => fullShare) a1.1)
            ∗ (datG15 V a1 (gblk15 V a1) c).owesAt () t.succ
            ∗ owns (c : Thread nD τ) (spec15_0.stage ((cfg15 a1).slots t 0)) fullShare (gblk15 V a1 c t)))
  rw [Pipeline.ΦD_eq, ownSems15_eq, hbm15_eq, tblw15_eq]
  unfold Dat.owesAt Pipeline.owesWithin
  rw [show (datG15 V a1 (gblk15 V a1) c).owed t.castSucc = 0 from rfl, show (datG15 V a1 (gblk15 V a1) c).owed t.succ = 0 from rfl]
  have hr : (Memref.whole main_v61 : Memref sig .tc .hbm S50000x128 .f32).view.read (Elt F) (V c main_v61) = V c main_v61 := by
    simp only [Memref.view_whole, View.read_whole]
  iintro ⟨⟨⟨Hsc, Hg, ⟨Hq0, Hq1, Hq2, Hq3, Hq4, Hq5, Hq6, Hq7⟩, Hh⟩, Ht⟩, ⟨%W, -, HW⟩, ⟨%d, Hob⟩⟩
  iapply (kernelRun1 c ((cfg15 a1).grid.coords t) (Memref.whole main_v68) (Memref.isWhole_whole _) (Memref.whole main_v61) (Memref.isWhole_whole _)
    (spec15_0.stage ((cfg15 a1).slots t 0)) (hstage15_0 (((cfg15 a1).slots t 0).cast nbuf15_0)) (tblw15 a1) hlt fullShare fullShare (V c main_v61) cc15_scratch0 W _)
  isplitl [Ht]; · iexact Ht
  isplitl [Hh]; · iexact Hh
  isplitl [Hob]; · iexists _; iexact Hob
  isplitl [Hq0]; · iexact Hq0
  isplitl [Hq1]; · iexact Hq1
  isplitl [Hq2]; · iexact Hq2
  isplitl [Hq3]; · iexact Hq3
  isplitl [Hq4]; · iexact Hq4
  isplitl [Hq5]; · iexact Hq5
  isplitl [Hq6]; · iexact Hq6
  isplitl [Hq7]; · iexact Hq7
  isplitl [HW]; · iexact HW
  iintro ⟨Ht, Hh, Hob, Hq0, Hq1, Hq2, Hq3, Hq4, Hq5, Hq6, Hq7, ⟨%W', HW'⟩⟩
  isplitl [Hsc Hg Hq0 Hq1 Hq2 Hq3 Hq4 Hq5 Hq6 Hq7 Hh Ht]
  · isplitl [Hsc Hg Hq0 Hq1 Hq2 Hq3 Hq4 Hq5 Hq6 Hq7 Hh]
    · isplitl [Hsc]; · iexact Hsc
      isplitl [Hg]; · iexact Hg
      isplitl [Hq0 Hq1 Hq2 Hq3 Hq4 Hq5 Hq6 Hq7]
      · isplitl [Hq0]; · iexact Hq0
        isplitl [Hq1]; · iexact Hq1
        isplitl [Hq2]; · iexact Hq2
        isplitl [Hq3]; · iexact Hq3
        isplitl [Hq4]; · iexact Hq4
        isplitl [Hq5]; · iexact Hq5
        isplitl [Hq6]; · iexact Hq6
        iexact Hq7
      iexact Hh
    iexact Ht
  isplitl [HW']
  · iexists W'; isplitr; · ipureintro; exact fun _ _ => Or.inl trivial
    iexact HW'
  rw [hr]
  iexact Hob

end Cert.Kernel.Hand

end
-- ==== Proof.K.GatherBody16.lean ====
/-
  Region 16's body obligation. The region runs the body of region 1 on its own table, array, output block and
  semaphores (the two kernel functions are one function), so the body's run is region 1's, cited at this region's eight
  semaphores; read with this region's invariant it is the pipeline's body obligation for the region's proof data.
-/
import proofs.«402049_j87351044866139_2_alg».proof.Proof.K.GatherDef16
import proofs.«402049_j87351044866139_2_alg».proof.Proof.K.GatherBody1

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Idealize.ShloMosaic.Transfers (shareDrop shareTokN)
open Cert.Kernel Cert.Kernel.Gen

variable {F : FTy → Type} [FloatOps F]

local notation "𝕄" => MT nD τ sig Unit (Elt F) ℕ (Pipeline.UD sig nD τ) ℕ

/-! ## The body obligation -/

variable (V : (c : Dev nD) → (b : Ref sig .tc) → Buf (Elt F) ((c : Thread nD τ).loc b))
variable (a1 : (pcfg16 (F := F)).Adm)

/-- The eight cells at zero, listed, each as the body names it. -/
theorem ownSems16_eq (c : Dev nD) :
    (Pipeline.ownSems0 (Ix := Unit) (Name := ℕ) (U := Pipeline.UD sig nD τ) (Lvl := ℕ) (Val := Elt F) (τ := τ) osem16 c : sProp 𝕄)
      = iprop(semVal ((c : Thread nD τ), cell1_0 cc16_scratch0) 0 ∗ semVal ((c : Thread nD τ), cell1_1 cc16_scratch0) 0 ∗ semVal ((c : Thread nD τ), cell1_2 cc16_scratch0) 0 ∗ semVal ((c : Thread nD τ), cell1_3 cc16_scratch0) 0 ∗ semVal ((c : Thread nD τ), cell1_4 cc16_scratch0) 0 ∗ semVal ((c : Thread nD τ), cell1_5 cc16_scratch0) 0 ∗ semVal ((c : Thread nD τ), cell1_6 cc16_scratch0) 0 ∗ semVal ((c : Thread nD τ), cell1_7 cc16_scratch0) 0) := by
  rw [Pipeline.ownSems0_eq_of_list c osem16 [0, 1, 2, 3, 4, 5, 6, 7] (by decide) (by decide)]; rfl

/-- The array the rows are read from, at the contents the region found it with. -/
theorem hbm16_eq (c : Dev nD) :
    (bigSep H16 (fun b => ((c : Thread nD τ).loc b) ↦{fullShare} V c b) : sProp 𝕄)
      = ((Memref.whole main_v61 : Memref sig .tc .hbm S50000x128 .f32).view.loc (c : Thread nD τ) ↦{fullShare} V c main_v61) := by
  unfold H16
  rw [BI.bigSep_eq_bigSepL_of_eq [main_v61] (by decide) (by decide)]; rfl

/-- The table, held whole at the full share, is owned at its contents. -/
theorem tblw16_eq (c : Dev nD) :
    (Pipeline.prefHeld pre16 c (fun _ => fullShare) a1.1 : sProp 𝕄)
      = owns (c : Thread nD τ) (Memref.whole main_v70 : Memref sig .tc .smem S85000 .i32) fullShare (tblw16 a1) := by
  unfold Pipeline.prefHeld
  rw [bigSep_W16, owns_whole]; rfl

set_option maxHeartbeats 4000000 in
/-- The body at every point: the invariant hands the run its table, the array, the eight cells at zero (the scoped rest and
    the generator register ride along), the core's record of waits goes in at whatever the points before left and comes
    back with this point's eight, and the output block, at anything, comes back reading the gathered rows. -/
theorem hbodyG16 [∀ e, Nonempty (Elt F e)] (hlt : ∀ k : S85000.Idx, (tblw16 a1 k).toNat < 50000) (c : Dev nD) :
    BodyObligationLoose (datG16 V a1 (gblk16 V a1) c) (defs₀ (F := F)) Variants.none () Set.univ := by
  refine BodyObligation.loose _ fun t => ?_
  rw [bigSep_W16, bigSep_W16]
  show iprop(iprop(Pipeline.ΦD osem16 spec16 H16 V c ∗ Pipeline.prefHeld pre16 c (fun _ => fullShare) a1.1)
        ∗ (datG16 V a1 (gblk16 V a1) c).owesAt () t.castSucc
        ∗ (∃ d, owns (c : Thread nD τ) (spec16_0.stage ((cfg16 a1).slots t 0)) fullShare ((datG16 V a1 (gblk16 V a1) c).before 0 t d)))
      ⊢ wp frame (wpE (defs₀ (F := F)) Variants.none c none) Set.univ
          (cc16__gather_kernel ((cfg16 a1).grid.coords t) (Memref.whole main_v70) (Memref.isWhole_whole _) (Memref.whole main_v61) (Memref.isWhole_whole _)
            (spec16_0.stage ((cfg16 a1).slots t 0)) (hstage16_0 (((cfg16 a1).slots t 0).cast nbuf16_0)) cc16_scratch0)
          (fun _ => iprop(iprop(Pipeline.ΦD osem16 spec16 H16 V c ∗ Pipeline.prefHeld pre16 c (fun _ => fullShare) a1.1)
            ∗ (datG16 V a1 (gblk16 V a1) c).owesAt () t.succ
            ∗ owns (c : Thread nD τ) (spec16_0.stage ((cfg16 a1).slots t 0)) fullShare (gblk16 V a1 c t)))
  rw [Pipeline.ΦD_eq, ownSems16_eq, hbm16_eq, tblw16_eq]
  unfold Dat.owesAt Pipeline.owesWithin
  rw [show (datG16 V a1 (gblk16 V a1) c).owed t.castSucc = 0 from rfl, show (datG16 V a1 (gblk16 V a1) c).owed t.succ = 0 from rfl]
  have hr : (Memref.whole main_v61 : Memref sig .tc .hbm S50000x128 .f32).view.read (Elt F) (V c main_v61) = V c main_v61 := by
    simp only [Memref.view_whole, View.read_whole]
  iintro ⟨⟨⟨Hsc, Hg, ⟨Hq0, Hq1, Hq2, Hq3, Hq4, Hq5, Hq6, Hq7⟩, Hh⟩, Ht⟩, ⟨%W, -, HW⟩, ⟨%d, Hob⟩⟩
  iapply (kernelRun1 c ((cfg16 a1).grid.coords t) (Memref.whole main_v70) (Memref.isWhole_whole _) (Memref.whole main_v61) (Memref.isWhole_whole _)
    (spec16_0.stage ((cfg16 a1).slots t 0)) (hstage16_0 (((cfg16 a1).slots t 0).cast nbuf16_0)) (tblw16 a1) hlt fullShare fullShare (V c main_v61) cc16_scratch0 W _)
  isplitl [Ht]; · iexact Ht
  isplitl [Hh]; · iexact Hh
  isplitl [Hob]; · iexists _; iexact Hob
  isplitl [Hq0]; · iexact Hq0
  isplitl [Hq1]; · iexact Hq1
  isplitl [Hq2]; · iexact Hq2
  isplitl [Hq3]; · iexact Hq3
  isplitl [Hq4]; · iexact Hq4
  isplitl [Hq5]; · iexact Hq5
  isplitl [Hq6]; · iexact Hq6
  isplitl [Hq7]; · iexact Hq7
  isplitl [HW]; · iexact HW
  iintro ⟨Ht, Hh, Hob, Hq0, Hq1, Hq2, Hq3, Hq4, Hq5, Hq6, Hq7, ⟨%W', HW'⟩⟩
  isplitl [Hsc Hg Hq0 Hq1 Hq2 Hq3 Hq4 Hq5 Hq6 Hq7 Hh Ht]
  · isplitl [Hsc Hg Hq0 Hq1 Hq2 Hq3 Hq4 Hq5 Hq6 Hq7 Hh]
    · isplitl [Hsc]; · iexact Hsc
      isplitl [Hg]; · iexact Hg
      isplitl [Hq0 Hq1 Hq2 Hq3 Hq4 Hq5 Hq6 Hq7]
      · isplitl [Hq0]; · iexact Hq0
        isplitl [Hq1]; · iexact Hq1
        isplitl [Hq2]; · iexact Hq2
        isplitl [Hq3]; · iexact Hq3
        isplitl [Hq4]; · iexact Hq4
        isplitl [Hq5]; · iexact Hq5
        isplitl [Hq6]; · iexact Hq6
        iexact Hq7
      iexact Hh
    iexact Ht
  isplitl [HW']
  · iexists W'; isplitr; · ipureintro; exact fun _ _ => Or.inl trivial
    iexact HW'
  rw [hr]
  iexact Hob

end Cert.Kernel.Hand

end
-- ==== Proof.K.GatherBody17.lean ====
/-
  Region 17's body obligation. The region runs the body of region 1 on its own table, array, output block and
  semaphores (the two kernel functions are one function), so the body's run is region 1's, cited at this region's eight
  semaphores; read with this region's invariant it is the pipeline's body obligation for the region's proof data.
-/
import proofs.«402049_j87351044866139_2_alg».proof.Proof.K.GatherDef17
import proofs.«402049_j87351044866139_2_alg».proof.Proof.K.GatherBody1

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Idealize.ShloMosaic.Transfers (shareDrop shareTokN)
open Cert.Kernel Cert.Kernel.Gen

variable {F : FTy → Type} [FloatOps F]

local notation "𝕄" => MT nD τ sig Unit (Elt F) ℕ (Pipeline.UD sig nD τ) ℕ

/-! ## The body obligation -/

variable (V : (c : Dev nD) → (b : Ref sig .tc) → Buf (Elt F) ((c : Thread nD τ).loc b))
variable (a1 : (pcfg17 (F := F)).Adm)

/-- The eight cells at zero, listed, each as the body names it. -/
theorem ownSems17_eq (c : Dev nD) :
    (Pipeline.ownSems0 (Ix := Unit) (Name := ℕ) (U := Pipeline.UD sig nD τ) (Lvl := ℕ) (Val := Elt F) (τ := τ) osem17 c : sProp 𝕄)
      = iprop(semVal ((c : Thread nD τ), cell1_0 cc17_scratch0) 0 ∗ semVal ((c : Thread nD τ), cell1_1 cc17_scratch0) 0 ∗ semVal ((c : Thread nD τ), cell1_2 cc17_scratch0) 0 ∗ semVal ((c : Thread nD τ), cell1_3 cc17_scratch0) 0 ∗ semVal ((c : Thread nD τ), cell1_4 cc17_scratch0) 0 ∗ semVal ((c : Thread nD τ), cell1_5 cc17_scratch0) 0 ∗ semVal ((c : Thread nD τ), cell1_6 cc17_scratch0) 0 ∗ semVal ((c : Thread nD τ), cell1_7 cc17_scratch0) 0) := by
  rw [Pipeline.ownSems0_eq_of_list c osem17 [0, 1, 2, 3, 4, 5, 6, 7] (by decide) (by decide)]; rfl

/-- The array the rows are read from, at the contents the region found it with. -/
theorem hbm17_eq (c : Dev nD) :
    (bigSep H17 (fun b => ((c : Thread nD τ).loc b) ↦{fullShare} V c b) : sProp 𝕄)
      = ((Memref.whole main_v61 : Memref sig .tc .hbm S50000x128 .f32).view.loc (c : Thread nD τ) ↦{fullShare} V c main_v61) := by
  unfold H17
  rw [BI.bigSep_eq_bigSepL_of_eq [main_v61] (by decide) (by decide)]; rfl

/-- The table, held whole at the full share, is owned at its contents. -/
theorem tblw17_eq (c : Dev nD) :
    (Pipeline.prefHeld pre17 c (fun _ => fullShare) a1.1 : sProp 𝕄)
      = owns (c : Thread nD τ) (Memref.whole main_v72 : Memref sig .tc .smem S85000 .i32) fullShare (tblw17 a1) := by
  unfold Pipeline.prefHeld
  rw [bigSep_W17, owns_whole]; rfl

set_option maxHeartbeats 4000000 in
/-- The body at every point: the invariant hands the run its table, the array, the eight cells at zero (the scoped rest and
    the generator register ride along), the core's record of waits goes in at whatever the points before left and comes
    back with this point's eight, and the output block, at anything, comes back reading the gathered rows. -/
theorem hbodyG17 [∀ e, Nonempty (Elt F e)] (hlt : ∀ k : S85000.Idx, (tblw17 a1 k).toNat < 50000) (c : Dev nD) :
    BodyObligationLoose (datG17 V a1 (gblk17 V a1) c) (defs₀ (F := F)) Variants.none () Set.univ := by
  refine BodyObligation.loose _ fun t => ?_
  rw [bigSep_W17, bigSep_W17]
  show iprop(iprop(Pipeline.ΦD osem17 spec17 H17 V c ∗ Pipeline.prefHeld pre17 c (fun _ => fullShare) a1.1)
        ∗ (datG17 V a1 (gblk17 V a1) c).owesAt () t.castSucc
        ∗ (∃ d, owns (c : Thread nD τ) (spec17_0.stage ((cfg17 a1).slots t 0)) fullShare ((datG17 V a1 (gblk17 V a1) c).before 0 t d)))
      ⊢ wp frame (wpE (defs₀ (F := F)) Variants.none c none) Set.univ
          (cc17__gather_kernel ((cfg17 a1).grid.coords t) (Memref.whole main_v72) (Memref.isWhole_whole _) (Memref.whole main_v61) (Memref.isWhole_whole _)
            (spec17_0.stage ((cfg17 a1).slots t 0)) (hstage17_0 (((cfg17 a1).slots t 0).cast nbuf17_0)) cc17_scratch0)
          (fun _ => iprop(iprop(Pipeline.ΦD osem17 spec17 H17 V c ∗ Pipeline.prefHeld pre17 c (fun _ => fullShare) a1.1)
            ∗ (datG17 V a1 (gblk17 V a1) c).owesAt () t.succ
            ∗ owns (c : Thread nD τ) (spec17_0.stage ((cfg17 a1).slots t 0)) fullShare (gblk17 V a1 c t)))
  rw [Pipeline.ΦD_eq, ownSems17_eq, hbm17_eq, tblw17_eq]
  unfold Dat.owesAt Pipeline.owesWithin
  rw [show (datG17 V a1 (gblk17 V a1) c).owed t.castSucc = 0 from rfl, show (datG17 V a1 (gblk17 V a1) c).owed t.succ = 0 from rfl]
  have hr : (Memref.whole main_v61 : Memref sig .tc .hbm S50000x128 .f32).view.read (Elt F) (V c main_v61) = V c main_v61 := by
    simp only [Memref.view_whole, View.read_whole]
  iintro ⟨⟨⟨Hsc, Hg, ⟨Hq0, Hq1, Hq2, Hq3, Hq4, Hq5, Hq6, Hq7⟩, Hh⟩, Ht⟩, ⟨%W, -, HW⟩, ⟨%d, Hob⟩⟩
  iapply (kernelRun1 c ((cfg17 a1).grid.coords t) (Memref.whole main_v72) (Memref.isWhole_whole _) (Memref.whole main_v61) (Memref.isWhole_whole _)
    (spec17_0.stage ((cfg17 a1).slots t 0)) (hstage17_0 (((cfg17 a1).slots t 0).cast nbuf17_0)) (tblw17 a1) hlt fullShare fullShare (V c main_v61) cc17_scratch0 W _)
  isplitl [Ht]; · iexact Ht
  isplitl [Hh]; · iexact Hh
  isplitl [Hob]; · iexists _; iexact Hob
  isplitl [Hq0]; · iexact Hq0
  isplitl [Hq1]; · iexact Hq1
  isplitl [Hq2]; · iexact Hq2
  isplitl [Hq3]; · iexact Hq3
  isplitl [Hq4]; · iexact Hq4
  isplitl [Hq5]; · iexact Hq5
  isplitl [Hq6]; · iexact Hq6
  isplitl [Hq7]; · iexact Hq7
  isplitl [HW]; · iexact HW
  iintro ⟨Ht, Hh, Hob, Hq0, Hq1, Hq2, Hq3, Hq4, Hq5, Hq6, Hq7, ⟨%W', HW'⟩⟩
  isplitl [Hsc Hg Hq0 Hq1 Hq2 Hq3 Hq4 Hq5 Hq6 Hq7 Hh Ht]
  · isplitl [Hsc Hg Hq0 Hq1 Hq2 Hq3 Hq4 Hq5 Hq6 Hq7 Hh]
    · isplitl [Hsc]; · iexact Hsc
      isplitl [Hg]; · iexact Hg
      isplitl [Hq0 Hq1 Hq2 Hq3 Hq4 Hq5 Hq6 Hq7]
      · isplitl [Hq0]; · iexact Hq0
        isplitl [Hq1]; · iexact Hq1
        isplitl [Hq2]; · iexact Hq2
        isplitl [Hq3]; · iexact Hq3
        isplitl [Hq4]; · iexact Hq4
        isplitl [Hq5]; · iexact Hq5
        isplitl [Hq6]; · iexact Hq6
        iexact Hq7
      iexact Hh
    iexact Ht
  isplitl [HW']
  · iexists W'; isplitr; · ipureintro; exact fun _ _ => Or.inl trivial
    iexact HW'
  rw [hr]
  iexact Hob

end Cert.Kernel.Hand

end
-- ==== Proof.K.GatherBody18.lean ====
/-
  Region 18's body obligation. The region runs the body of region 1 on its own table, array, output block and
  semaphores (the two kernel functions are one function), so the body's run is region 1's, cited at this region's eight
  semaphores; read with this region's invariant it is the pipeline's body obligation for the region's proof data.
-/
import proofs.«402049_j87351044866139_2_alg».proof.Proof.K.GatherDef18
import proofs.«402049_j87351044866139_2_alg».proof.Proof.K.GatherBody1

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Idealize.ShloMosaic.Transfers (shareDrop shareTokN)
open Cert.Kernel Cert.Kernel.Gen

variable {F : FTy → Type} [FloatOps F]

local notation "𝕄" => MT nD τ sig Unit (Elt F) ℕ (Pipeline.UD sig nD τ) ℕ

/-! ## The body obligation -/

variable (V : (c : Dev nD) → (b : Ref sig .tc) → Buf (Elt F) ((c : Thread nD τ).loc b))
variable (a1 : (pcfg18 (F := F)).Adm)

/-- The eight cells at zero, listed, each as the body names it. -/
theorem ownSems18_eq (c : Dev nD) :
    (Pipeline.ownSems0 (Ix := Unit) (Name := ℕ) (U := Pipeline.UD sig nD τ) (Lvl := ℕ) (Val := Elt F) (τ := τ) osem18 c : sProp 𝕄)
      = iprop(semVal ((c : Thread nD τ), cell1_0 cc18_scratch0) 0 ∗ semVal ((c : Thread nD τ), cell1_1 cc18_scratch0) 0 ∗ semVal ((c : Thread nD τ), cell1_2 cc18_scratch0) 0 ∗ semVal ((c : Thread nD τ), cell1_3 cc18_scratch0) 0 ∗ semVal ((c : Thread nD τ), cell1_4 cc18_scratch0) 0 ∗ semVal ((c : Thread nD τ), cell1_5 cc18_scratch0) 0 ∗ semVal ((c : Thread nD τ), cell1_6 cc18_scratch0) 0 ∗ semVal ((c : Thread nD τ), cell1_7 cc18_scratch0) 0) := by
  rw [Pipeline.ownSems0_eq_of_list c osem18 [0, 1, 2, 3, 4, 5, 6, 7] (by decide) (by decide)]; rfl

/-- The array the rows are read from, at the contents the region found it with. -/
theorem hbm18_eq (c : Dev nD) :
    (bigSep H18 (fun b => ((c : Thread nD τ).loc b) ↦{fullShare} V c b) : sProp 𝕄)
      = ((Memref.whole main_v61 : Memref sig .tc .hbm S50000x128 .f32).view.loc (c : Thread nD τ) ↦{fullShare} V c main_v61) := by
  unfold H18
  rw [BI.bigSep_eq_bigSepL_of_eq [main_v61] (by decide) (by decide)]; rfl

/-- The table, held whole at the full share, is owned at its contents. -/
theorem tblw18_eq (c : Dev nD) :
    (Pipeline.prefHeld pre18 c (fun _ => fullShare) a1.1 : sProp 𝕄)
      = owns (c : Thread nD τ) (Memref.whole main_v74 : Memref sig .tc .smem S85000 .i32) fullShare (tblw18 a1) := by
  unfold Pipeline.prefHeld
  rw [bigSep_W18, owns_whole]; rfl

set_option maxHeartbeats 4000000 in
/-- The body at every point: the invariant hands the run its table, the array, the eight cells at zero (the scoped rest and
    the generator register ride along), the core's record of waits goes in at whatever the points before left and comes
    back with this point's eight, and the output block, at anything, comes back reading the gathered rows. -/
theorem hbodyG18 [∀ e, Nonempty (Elt F e)] (hlt : ∀ k : S85000.Idx, (tblw18 a1 k).toNat < 50000) (c : Dev nD) :
    BodyObligationLoose (datG18 V a1 (gblk18 V a1) c) (defs₀ (F := F)) Variants.none () Set.univ := by
  refine BodyObligation.loose _ fun t => ?_
  rw [bigSep_W18, bigSep_W18]
  show iprop(iprop(Pipeline.ΦD osem18 spec18 H18 V c ∗ Pipeline.prefHeld pre18 c (fun _ => fullShare) a1.1)
        ∗ (datG18 V a1 (gblk18 V a1) c).owesAt () t.castSucc
        ∗ (∃ d, owns (c : Thread nD τ) (spec18_0.stage ((cfg18 a1).slots t 0)) fullShare ((datG18 V a1 (gblk18 V a1) c).before 0 t d)))
      ⊢ wp frame (wpE (defs₀ (F := F)) Variants.none c none) Set.univ
          (cc18__gather_kernel ((cfg18 a1).grid.coords t) (Memref.whole main_v74) (Memref.isWhole_whole _) (Memref.whole main_v61) (Memref.isWhole_whole _)
            (spec18_0.stage ((cfg18 a1).slots t 0)) (hstage18_0 (((cfg18 a1).slots t 0).cast nbuf18_0)) cc18_scratch0)
          (fun _ => iprop(iprop(Pipeline.ΦD osem18 spec18 H18 V c ∗ Pipeline.prefHeld pre18 c (fun _ => fullShare) a1.1)
            ∗ (datG18 V a1 (gblk18 V a1) c).owesAt () t.succ
            ∗ owns (c : Thread nD τ) (spec18_0.stage ((cfg18 a1).slots t 0)) fullShare (gblk18 V a1 c t)))
  rw [Pipeline.ΦD_eq, ownSems18_eq, hbm18_eq, tblw18_eq]
  unfold Dat.owesAt Pipeline.owesWithin
  rw [show (datG18 V a1 (gblk18 V a1) c).owed t.castSucc = 0 from rfl, show (datG18 V a1 (gblk18 V a1) c).owed t.succ = 0 from rfl]
  have hr : (Memref.whole main_v61 : Memref sig .tc .hbm S50000x128 .f32).view.read (Elt F) (V c main_v61) = V c main_v61 := by
    simp only [Memref.view_whole, View.read_whole]
  iintro ⟨⟨⟨Hsc, Hg, ⟨Hq0, Hq1, Hq2, Hq3, Hq4, Hq5, Hq6, Hq7⟩, Hh⟩, Ht⟩, ⟨%W, -, HW⟩, ⟨%d, Hob⟩⟩
  iapply (kernelRun1 c ((cfg18 a1).grid.coords t) (Memref.whole main_v74) (Memref.isWhole_whole _) (Memref.whole main_v61) (Memref.isWhole_whole _)
    (spec18_0.stage ((cfg18 a1).slots t 0)) (hstage18_0 (((cfg18 a1).slots t 0).cast nbuf18_0)) (tblw18 a1) hlt fullShare fullShare (V c main_v61) cc18_scratch0 W _)
  isplitl [Ht]; · iexact Ht
  isplitl [Hh]; · iexact Hh
  isplitl [Hob]; · iexists _; iexact Hob
  isplitl [Hq0]; · iexact Hq0
  isplitl [Hq1]; · iexact Hq1
  isplitl [Hq2]; · iexact Hq2
  isplitl [Hq3]; · iexact Hq3
  isplitl [Hq4]; · iexact Hq4
  isplitl [Hq5]; · iexact Hq5
  isplitl [Hq6]; · iexact Hq6
  isplitl [Hq7]; · iexact Hq7
  isplitl [HW]; · iexact HW
  iintro ⟨Ht, Hh, Hob, Hq0, Hq1, Hq2, Hq3, Hq4, Hq5, Hq6, Hq7, ⟨%W', HW'⟩⟩
  isplitl [Hsc Hg Hq0 Hq1 Hq2 Hq3 Hq4 Hq5 Hq6 Hq7 Hh Ht]
  · isplitl [Hsc Hg Hq0 Hq1 Hq2 Hq3 Hq4 Hq5 Hq6 Hq7 Hh]
    · isplitl [Hsc]; · iexact Hsc
      isplitl [Hg]; · iexact Hg
      isplitl [Hq0 Hq1 Hq2 Hq3 Hq4 Hq5 Hq6 Hq7]
      · isplitl [Hq0]; · iexact Hq0
        isplitl [Hq1]; · iexact Hq1
        isplitl [Hq2]; · iexact Hq2
        isplitl [Hq3]; · iexact Hq3
        isplitl [Hq4]; · iexact Hq4
        isplitl [Hq5]; · iexact Hq5
        isplitl [Hq6]; · iexact Hq6
        iexact Hq7
      iexact Hh
    iexact Ht
  isplitl [HW']
  · iexists W'; isplitr; · ipureintro; exact fun _ _ => Or.inl trivial
    iexact HW'
  rw [hr]
  iexact Hob

end Cert.Kernel.Hand

end
-- ==== Proof.K.GatherBody19.lean ====
/-
  Region 19's body obligation. The region runs the body of region 1 on its own table, array, output block and
  semaphores (the two kernel functions are one function), so the body's run is region 1's, cited at this region's eight
  semaphores; read with this region's invariant it is the pipeline's body obligation for the region's proof data.
-/
import proofs.«402049_j87351044866139_2_alg».proof.Proof.K.GatherDef19
import proofs.«402049_j87351044866139_2_alg».proof.Proof.K.GatherBody1

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Idealize.ShloMosaic.Transfers (shareDrop shareTokN)
open Cert.Kernel Cert.Kernel.Gen

variable {F : FTy → Type} [FloatOps F]

local notation "𝕄" => MT nD τ sig Unit (Elt F) ℕ (Pipeline.UD sig nD τ) ℕ

/-! ## The body obligation -/

variable (V : (c : Dev nD) → (b : Ref sig .tc) → Buf (Elt F) ((c : Thread nD τ).loc b))
variable (a1 : (pcfg19 (F := F)).Adm)

/-- The eight cells at zero, listed, each as the body names it. -/
theorem ownSems19_eq (c : Dev nD) :
    (Pipeline.ownSems0 (Ix := Unit) (Name := ℕ) (U := Pipeline.UD sig nD τ) (Lvl := ℕ) (Val := Elt F) (τ := τ) osem19 c : sProp 𝕄)
      = iprop(semVal ((c : Thread nD τ), cell1_0 cc19_scratch0) 0 ∗ semVal ((c : Thread nD τ), cell1_1 cc19_scratch0) 0 ∗ semVal ((c : Thread nD τ), cell1_2 cc19_scratch0) 0 ∗ semVal ((c : Thread nD τ), cell1_3 cc19_scratch0) 0 ∗ semVal ((c : Thread nD τ), cell1_4 cc19_scratch0) 0 ∗ semVal ((c : Thread nD τ), cell1_5 cc19_scratch0) 0 ∗ semVal ((c : Thread nD τ), cell1_6 cc19_scratch0) 0 ∗ semVal ((c : Thread nD τ), cell1_7 cc19_scratch0) 0) := by
  rw [Pipeline.ownSems0_eq_of_list c osem19 [0, 1, 2, 3, 4, 5, 6, 7] (by decide) (by decide)]; rfl

/-- The array the rows are read from, at the contents the region found it with. -/
theorem hbm19_eq (c : Dev nD) :
    (bigSep H19 (fun b => ((c : Thread nD τ).loc b) ↦{fullShare} V c b) : sProp 𝕄)
      = ((Memref.whole main_v61 : Memref sig .tc .hbm S50000x128 .f32).view.loc (c : Thread nD τ) ↦{fullShare} V c main_v61) := by
  unfold H19
  rw [BI.bigSep_eq_bigSepL_of_eq [main_v61] (by decide) (by decide)]; rfl

/-- The table, held whole at the full share, is owned at its contents. -/
theorem tblw19_eq (c : Dev nD) :
    (Pipeline.prefHeld pre19 c (fun _ => fullShare) a1.1 : sProp 𝕄)
      = owns (c : Thread nD τ) (Memref.whole main_v76 : Memref sig .tc .smem S85000 .i32) fullShare (tblw19 a1) := by
  unfold Pipeline.prefHeld
  rw [bigSep_W19, owns_whole]; rfl

set_option maxHeartbeats 4000000 in
/-- The body at every point: the invariant hands the run its table, the array, the eight cells at zero (the scoped rest and
    the generator register ride along), the core's record of waits goes in at whatever the points before left and comes
    back with this point's eight, and the output block, at anything, comes back reading the gathered rows. -/
theorem hbodyG19 [∀ e, Nonempty (Elt F e)] (hlt : ∀ k : S85000.Idx, (tblw19 a1 k).toNat < 50000) (c : Dev nD) :
    BodyObligationLoose (datG19 V a1 (gblk19 V a1) c) (defs₀ (F := F)) Variants.none () Set.univ := by
  refine BodyObligation.loose _ fun t => ?_
  rw [bigSep_W19, bigSep_W19]
  show iprop(iprop(Pipeline.ΦD osem19 spec19 H19 V c ∗ Pipeline.prefHeld pre19 c (fun _ => fullShare) a1.1)
        ∗ (datG19 V a1 (gblk19 V a1) c).owesAt () t.castSucc
        ∗ (∃ d, owns (c : Thread nD τ) (spec19_0.stage ((cfg19 a1).slots t 0)) fullShare ((datG19 V a1 (gblk19 V a1) c).before 0 t d)))
      ⊢ wp frame (wpE (defs₀ (F := F)) Variants.none c none) Set.univ
          (cc19__gather_kernel ((cfg19 a1).grid.coords t) (Memref.whole main_v76) (Memref.isWhole_whole _) (Memref.whole main_v61) (Memref.isWhole_whole _)
            (spec19_0.stage ((cfg19 a1).slots t 0)) (hstage19_0 (((cfg19 a1).slots t 0).cast nbuf19_0)) cc19_scratch0)
          (fun _ => iprop(iprop(Pipeline.ΦD osem19 spec19 H19 V c ∗ Pipeline.prefHeld pre19 c (fun _ => fullShare) a1.1)
            ∗ (datG19 V a1 (gblk19 V a1) c).owesAt () t.succ
            ∗ owns (c : Thread nD τ) (spec19_0.stage ((cfg19 a1).slots t 0)) fullShare (gblk19 V a1 c t)))
  rw [Pipeline.ΦD_eq, ownSems19_eq, hbm19_eq, tblw19_eq]
  unfold Dat.owesAt Pipeline.owesWithin
  rw [show (datG19 V a1 (gblk19 V a1) c).owed t.castSucc = 0 from rfl, show (datG19 V a1 (gblk19 V a1) c).owed t.succ = 0 from rfl]
  have hr : (Memref.whole main_v61 : Memref sig .tc .hbm S50000x128 .f32).view.read (Elt F) (V c main_v61) = V c main_v61 := by
    simp only [Memref.view_whole, View.read_whole]
  iintro ⟨⟨⟨Hsc, Hg, ⟨Hq0, Hq1, Hq2, Hq3, Hq4, Hq5, Hq6, Hq7⟩, Hh⟩, Ht⟩, ⟨%W, -, HW⟩, ⟨%d, Hob⟩⟩
  iapply (kernelRun1 c ((cfg19 a1).grid.coords t) (Memref.whole main_v76) (Memref.isWhole_whole _) (Memref.whole main_v61) (Memref.isWhole_whole _)
    (spec19_0.stage ((cfg19 a1).slots t 0)) (hstage19_0 (((cfg19 a1).slots t 0).cast nbuf19_0)) (tblw19 a1) hlt fullShare fullShare (V c main_v61) cc19_scratch0 W _)
  isplitl [Ht]; · iexact Ht
  isplitl [Hh]; · iexact Hh
  isplitl [Hob]; · iexists _; iexact Hob
  isplitl [Hq0]; · iexact Hq0
  isplitl [Hq1]; · iexact Hq1
  isplitl [Hq2]; · iexact Hq2
  isplitl [Hq3]; · iexact Hq3
  isplitl [Hq4]; · iexact Hq4
  isplitl [Hq5]; · iexact Hq5
  isplitl [Hq6]; · iexact Hq6
  isplitl [Hq7]; · iexact Hq7
  isplitl [HW]; · iexact HW
  iintro ⟨Ht, Hh, Hob, Hq0, Hq1, Hq2, Hq3, Hq4, Hq5, Hq6, Hq7, ⟨%W', HW'⟩⟩
  isplitl [Hsc Hg Hq0 Hq1 Hq2 Hq3 Hq4 Hq5 Hq6 Hq7 Hh Ht]
  · isplitl [Hsc Hg Hq0 Hq1 Hq2 Hq3 Hq4 Hq5 Hq6 Hq7 Hh]
    · isplitl [Hsc]; · iexact Hsc
      isplitl [Hg]; · iexact Hg
      isplitl [Hq0 Hq1 Hq2 Hq3 Hq4 Hq5 Hq6 Hq7]
      · isplitl [Hq0]; · iexact Hq0
        isplitl [Hq1]; · iexact Hq1
        isplitl [Hq2]; · iexact Hq2
        isplitl [Hq3]; · iexact Hq3
        isplitl [Hq4]; · iexact Hq4
        isplitl [Hq5]; · iexact Hq5
        isplitl [Hq6]; · iexact Hq6
        iexact Hq7
      iexact Hh
    iexact Ht
  isplitl [HW']
  · iexists W'; isplitr; · ipureintro; exact fun _ _ => Or.inl trivial
    iexact HW'
  rw [hr]
  iexact Hob

end Cert.Kernel.Hand

end
-- ==== Proof.K.Regs3.lean ====
import proofs.«402049_j87351044866139_2_alg».proof.Proof.K.Fam
import proofs.«402049_j87351044866139_2_alg».proof.Proof.K.Tables
import proofs.«402049_j87351044866139_2_alg».proof.Proof.K.GatherBody15
import proofs.«402049_j87351044866139_2_alg».proof.Proof.K.GatherBody16
import proofs.«402049_j87351044866139_2_alg».proof.Proof.K.GatherBody17
import proofs.«402049_j87351044866139_2_alg».proof.Proof.K.GatherBody18
import proofs.«402049_j87351044866139_2_alg».proof.Proof.K.GatherBody19
import Idealize.ShloMosaic.Lib.Pipeline.RegionsLoop

/-! The records of regions 15 to 19 over the thread states: each entered from every unscoped buffer at the real valuation
    before it and left at the one after it; for a gather region, first that every word of its table is a node's number. -/

set_option maxRecDepth 16384

noncomputable section

namespace Cert.Kernel.Hand

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg BodyObligation BodyObligationLoose)

variable {F : FTy → Type} [FloatOps F]

local notation "𝕄" => MT nD τ sig Unit (Elt F) ℕ UU ℕ

set_option maxHeartbeats 1000000 in
/-- Every word of region 15's table is a node's number: the data's table is what the real valuation at the region's entry
    holds in the table's buffer; that valuation is the run's own, whose table is the closed one of the launch memory. -/
theorem hlt15 (m : (ℓ : Loc nD τ sig) → Buf (Elt F) ℓ) (hm : ∀ i : S2x800000.Idx, ((V0 m c₀ main_arg1 : IVec S2x800000 32) i).toNat < 50000) :
    ∀ k : S85000.Idx, (tblw15 (a15 m) k).toNat < 50000 := by
  have h1 : tblw15 (a15 m) = (U33 m c₀ main_v68 : IVec S85000 32) := by
    unfold a15
    rfl
  have h2 : ∀ W : Valuation τ sig (Elt F), V33 m (outsU m) c₀ = W → (W main_v68 : IVec S85000 32) = tbl15 m c₀ :=
    fun W hW => by subst hW; exact tbl15_eq m (outsU m) c₀
  have e : tblw15 (a15 m) = tbl15 m c₀ := h1.trans (h2 (U33 m c₀) (V33_eq m c₀))
  intro k
  rw [e]; exact tbl15_lt m c₀ hm k
set_option maxHeartbeats 1000000 in
set_option backward.isDefEq.respectTransparency.types false in
/-- REGION 15 over the thread state: entered from every unscoped buffer at `U33`, left at `U34`. -/
def reg15 (m : (ℓ : Loc nD τ sig) → Buf (Elt F) ℓ) (hm : ∀ i : S2x800000.Idx, ((V0 m c₀ main_arg1 : IVec S2x800000 32) i).toNat < 50000) :
    RegionSeg (pcfgs (F := F)) (adm m) (pdats m) () defs₀ 𝒱₀ L lv 15 where
  win := (launch15 (F := F)).win.to₀
  block_pos := (launch15 (F := F)).block_pos
  stage_whole := (launch15 (F := F)).stage_whole
  K := Fin 8
  osem := osem15
  ho := ownSemFacts15
  hbody c := hbodyG15 (atTc (U33 m)) (a15 m) (hlt15 m hm) c
  hwaits := Pipeline.hwaits_of_owed_zero _ _ _ _ L lv 15 fun _ _ => rfl
  pre c := iprop(StableHlo.held (c : Thread nD τ) (Pipeline.ucRefs τ sig) (U33 m c) ∗ R (F := F) c)
  post c := iprop(StableHlo.held (c : Thread nD τ) (Pipeline.ucRefs τ sig) (U34 m c) ∗ R (F := F) c)
  X c := XG15 (atTc (U33 m)) c
  Y c := YG15 (atTc (U33 m)) (a15 m) c
  Z c := ZG15 (atTc (U33 m)) c
  hentry c := by
    have hsplit := Pipeline.arrays_of_unscopedBufs (p := 15) (pcfgs (F := F)) (adm m) (pdats m) (launch15 (F := F)).win (launch15 (F := F)).arr_whole c
      ((pdats m 15 c).share_full fun _ => rfl) (atTc (U33 m) c) (fun _ => rfl)
    have h := hentryG15 (atTc (U33 m)) (a15 m) (gblk15 (atTc (U33 m)) (a15 m)) c (hpf15 m c) hsplit
    rw [Pipeline.unscopedBufs_held] at h
    exact h
  hin c := hinG15 (atTc (U33 m)) (a15 m) (gblk15 (atTc (U33 m)) (a15 m)) c
  hout c := houtG15 (atTc (U33 m)) (a15 m) (gblk15 (atTc (U33 m)) (a15 m)) c
  hexit c := by
    have hjoin := Pipeline.unscopedBufs_of_arrays (p := 15) (pcfgs (F := F)) (adm m) (Ix := Unit) (Name := ℕ) (U := UU) (Lvl := ℕ)
      (launch15 (F := F)).win (launch15 (F := F)).arr_whole c (pdats m) ((pdats m 15 c).share_full fun _ => rfl)
      (atTc (U33 m) c) (atTc (U34 m) c) ((pdats m 15 c).arrAt · (cfg15 (a15 m)).N) (hF15 m c) (hrest15 m c)
    have h := hexitG15 (atTc (U33 m)) (a15 m) (gblk15 (atTc (U33 m)) (a15 m)) (atTc (U34 m)) c (hpf15 m c) hjoin
    rw [Pipeline.unscopedBufs_held] at h
    exact h

set_option maxHeartbeats 1000000 in
/-- Every word of region 16's table is a node's number: the data's table is what the real valuation at the region's entry
    holds in the table's buffer; that valuation is the run's own, whose table is the closed one of the launch memory. -/
theorem hlt16 (m : (ℓ : Loc nD τ sig) → Buf (Elt F) ℓ) (hm : ∀ i : S2x800000.Idx, ((V0 m c₀ main_arg1 : IVec S2x800000 32) i).toNat < 50000) :
    ∀ k : S85000.Idx, (tblw16 (a16 m) k).toNat < 50000 := by
  have h1 : tblw16 (a16 m) = (U35 m c₀ main_v70 : IVec S85000 32) := by
    unfold a16
    rfl
  have h2 : ∀ W : Valuation τ sig (Elt F), V35 m (outsU m) c₀ = W → (W main_v70 : IVec S85000 32) = tbl16 m c₀ :=
    fun W hW => by subst hW; exact tbl16_eq m (outsU m) c₀
  have e : tblw16 (a16 m) = tbl16 m c₀ := h1.trans (h2 (U35 m c₀) (V35_eq m c₀))
  intro k
  rw [e]; exact tbl16_lt m c₀ hm k
set_option maxHeartbeats 1000000 in
set_option backward.isDefEq.respectTransparency.types false in
/-- REGION 16 over the thread state: entered from every unscoped buffer at `U35`, left at `U36`. -/
def reg16 (m : (ℓ : Loc nD τ sig) → Buf (Elt F) ℓ) (hm : ∀ i : S2x800000.Idx, ((V0 m c₀ main_arg1 : IVec S2x800000 32) i).toNat < 50000) :
    RegionSeg (pcfgs (F := F)) (adm m) (pdats m) () defs₀ 𝒱₀ L lv 16 where
  win := (launch16 (F := F)).win.to₀
  block_pos := (launch16 (F := F)).block_pos
  stage_whole := (launch16 (F := F)).stage_whole
  K := Fin 8
  osem := osem16
  ho := ownSemFacts16
  hbody c := hbodyG16 (atTc (U35 m)) (a16 m) (hlt16 m hm) c
  hwaits := Pipeline.hwaits_of_owed_zero _ _ _ _ L lv 16 fun _ _ => rfl
  pre c := iprop(StableHlo.held (c : Thread nD τ) (Pipeline.ucRefs τ sig) (U35 m c) ∗ R (F := F) c)
  post c := iprop(StableHlo.held (c : Thread nD τ) (Pipeline.ucRefs τ sig) (U36 m c) ∗ R (F := F) c)
  X c := XG16 (atTc (U35 m)) c
  Y c := YG16 (atTc (U35 m)) (a16 m) c
  Z c := ZG16 (atTc (U35 m)) c
  hentry c := by
    have hsplit := Pipeline.arrays_of_unscopedBufs (p := 16) (pcfgs (F := F)) (adm m) (pdats m) (launch16 (F := F)).win (launch16 (F := F)).arr_whole c
      ((pdats m 16 c).share_full fun _ => rfl) (atTc (U35 m) c) (fun _ => rfl)
    have h := hentryG16 (atTc (U35 m)) (a16 m) (gblk16 (atTc (U35 m)) (a16 m)) c (hpf16 m c) hsplit
    rw [Pipeline.unscopedBufs_held] at h
    exact h
  hin c := hinG16 (atTc (U35 m)) (a16 m) (gblk16 (atTc (U35 m)) (a16 m)) c
  hout c := houtG16 (atTc (U35 m)) (a16 m) (gblk16 (atTc (U35 m)) (a16 m)) c
  hexit c := by
    have hjoin := Pipeline.unscopedBufs_of_arrays (p := 16) (pcfgs (F := F)) (adm m) (Ix := Unit) (Name := ℕ) (U := UU) (Lvl := ℕ)
      (launch16 (F := F)).win (launch16 (F := F)).arr_whole c (pdats m) ((pdats m 16 c).share_full fun _ => rfl)
      (atTc (U35 m) c) (atTc (U36 m) c) ((pdats m 16 c).arrAt · (cfg16 (a16 m)).N) (hF16 m c) (hrest16 m c)
    have h := hexitG16 (atTc (U35 m)) (a16 m) (gblk16 (atTc (U35 m)) (a16 m)) (atTc (U36 m)) c (hpf16 m c) hjoin
    rw [Pipeline.unscopedBufs_held] at h
    exact h

set_option maxHeartbeats 1000000 in
/-- Every word of region 17's table is a node's number: the data's table is what the real valuation at the region's entry
    holds in the table's buffer; that valuation is the run's own, whose table is the closed one of the launch memory. -/
theorem hlt17 (m : (ℓ : Loc nD τ sig) → Buf (Elt F) ℓ) (hm : ∀ i : S2x800000.Idx, ((V0 m c₀ main_arg1 : IVec S2x800000 32) i).toNat < 50000) :
    ∀ k : S85000.Idx, (tblw17 (a17 m) k).toNat < 50000 := by
  have h1 : tblw17 (a17 m) = (U37 m c₀ main_v72 : IVec S85000 32) := by
    unfold a17
    rfl
  have h2 : ∀ W : Valuation τ sig (Elt F), V37 m (outsU m) c₀ = W → (W main_v72 : IVec S85000 32) = tbl17 m c₀ :=
    fun W hW => by subst hW; exact tbl17_eq m (outsU m) c₀
  have e : tblw17 (a17 m) = tbl17 m c₀ := h1.trans (h2 (U37 m c₀) (V37_eq m c₀))
  intro k
  rw [e]; exact tbl17_lt m c₀ hm k
set_option maxHeartbeats 1000000 in
set_option backward.isDefEq.respectTransparency.types false in
/-- REGION 17 over the thread state: entered from every unscoped buffer at `U37`, left at `U38`. -/
def reg17 (m : (ℓ : Loc nD τ sig) → Buf (Elt F) ℓ) (hm : ∀ i : S2x800000.Idx, ((V0 m c₀ main_arg1 : IVec S2x800000 32) i).toNat < 50000) :
    RegionSeg (pcfgs (F := F)) (adm m) (pdats m) () defs₀ 𝒱₀ L lv 17 where
  win := (launch17 (F := F)).win.to₀
  block_pos := (launch17 (F := F)).block_pos
  stage_whole := (launch17 (F := F)).stage_whole
  K := Fin 8
  osem := osem17
  ho := ownSemFacts17
  hbody c := hbodyG17 (atTc (U37 m)) (a17 m) (hlt17 m hm) c
  hwaits := Pipeline.hwaits_of_owed_zero _ _ _ _ L lv 17 fun _ _ => rfl
  pre c := iprop(StableHlo.held (c : Thread nD τ) (Pipeline.ucRefs τ sig) (U37 m c) ∗ R (F := F) c)
  post c := iprop(StableHlo.held (c : Thread nD τ) (Pipeline.ucRefs τ sig) (U38 m c) ∗ R (F := F) c)
  X c := XG17 (atTc (U37 m)) c
  Y c := YG17 (atTc (U37 m)) (a17 m) c
  Z c := ZG17 (atTc (U37 m)) c
  hentry c := by
    have hsplit := Pipeline.arrays_of_unscopedBufs (p := 17) (pcfgs (F := F)) (adm m) (pdats m) (launch17 (F := F)).win (launch17 (F := F)).arr_whole c
      ((pdats m 17 c).share_full fun _ => rfl) (atTc (U37 m) c) (fun _ => rfl)
    have h := hentryG17 (atTc (U37 m)) (a17 m) (gblk17 (atTc (U37 m)) (a17 m)) c (hpf17 m c) hsplit
    rw [Pipeline.unscopedBufs_held] at h
    exact h
  hin c := hinG17 (atTc (U37 m)) (a17 m) (gblk17 (atTc (U37 m)) (a17 m)) c
  hout c := houtG17 (atTc (U37 m)) (a17 m) (gblk17 (atTc (U37 m)) (a17 m)) c
  hexit c := by
    have hjoin := Pipeline.unscopedBufs_of_arrays (p := 17) (pcfgs (F := F)) (adm m) (Ix := Unit) (Name := ℕ) (U := UU) (Lvl := ℕ)
      (launch17 (F := F)).win (launch17 (F := F)).arr_whole c (pdats m) ((pdats m 17 c).share_full fun _ => rfl)
      (atTc (U37 m) c) (atTc (U38 m) c) ((pdats m 17 c).arrAt · (cfg17 (a17 m)).N) (hF17 m c) (hrest17 m c)
    have h := hexitG17 (atTc (U37 m)) (a17 m) (gblk17 (atTc (U37 m)) (a17 m)) (atTc (U38 m)) c (hpf17 m c) hjoin
    rw [Pipeline.unscopedBufs_held] at h
    exact h

set_option maxHeartbeats 1000000 in
/-- Every word of region 18's table is a node's number: the data's table is what the real valuation at the region's entry
    holds in the table's buffer; that valuation is the run's own, whose table is the closed one of the launch memory. -/
theorem hlt18 (m : (ℓ : Loc nD τ sig) → Buf (Elt F) ℓ) (hm : ∀ i : S2x800000.Idx, ((V0 m c₀ main_arg1 : IVec S2x800000 32) i).toNat < 50000) :
    ∀ k : S85000.Idx, (tblw18 (a18 m) k).toNat < 50000 := by
  have h1 : tblw18 (a18 m) = (U39 m c₀ main_v74 : IVec S85000 32) := by
    unfold a18
    rfl
  have h2 : ∀ W : Valuation τ sig (Elt F), V39 m (outsU m) c₀ = W → (W main_v74 : IVec S85000 32) = tbl18 m c₀ :=
    fun W hW => by subst hW; exact tbl18_eq m (outsU m) c₀
  have e : tblw18 (a18 m) = tbl18 m c₀ := h1.trans (h2 (U39 m c₀) (V39_eq m c₀))
  intro k
  rw [e]; exact tbl18_lt m c₀ hm k
set_option maxHeartbeats 1000000 in
set_option backward.isDefEq.respectTransparency.types false in
/-- REGION 18 over the thread state: entered from every unscoped buffer at `U39`, left at `U40`. -/
def reg18 (m : (ℓ : Loc nD τ sig) → Buf (Elt F) ℓ) (hm : ∀ i : S2x800000.Idx, ((V0 m c₀ main_arg1 : IVec S2x800000 32) i).toNat < 50000) :
    RegionSeg (pcfgs (F := F)) (adm m) (pdats m) () defs₀ 𝒱₀ L lv 18 where
  win := (launch18 (F := F)).win.to₀
  block_pos := (launch18 (F := F)).block_pos
  stage_whole := (launch18 (F := F)).stage_whole
  K := Fin 8
  osem := osem18
  ho := ownSemFacts18
  hbody c := hbodyG18 (atTc (U39 m)) (a18 m) (hlt18 m hm) c
  hwaits := Pipeline.hwaits_of_owed_zero _ _ _ _ L lv 18 fun _ _ => rfl
  pre c := iprop(StableHlo.held (c : Thread nD τ) (Pipeline.ucRefs τ sig) (U39 m c) ∗ R (F := F) c)
  post c := iprop(StableHlo.held (c : Thread nD τ) (Pipeline.ucRefs τ sig) (U40 m c) ∗ R (F := F) c)
  X c := XG18 (atTc (U39 m)) c
  Y c := YG18 (atTc (U39 m)) (a18 m) c
  Z c := ZG18 (atTc (U39 m)) c
  hentry c := by
    have hsplit := Pipeline.arrays_of_unscopedBufs (p := 18) (pcfgs (F := F)) (adm m) (pdats m) (launch18 (F := F)).win (launch18 (F := F)).arr_whole c
      ((pdats m 18 c).share_full fun _ => rfl) (atTc (U39 m) c) (fun _ => rfl)
    have h := hentryG18 (atTc (U39 m)) (a18 m) (gblk18 (atTc (U39 m)) (a18 m)) c (hpf18 m c) hsplit
    rw [Pipeline.unscopedBufs_held] at h
    exact h
  hin c := hinG18 (atTc (U39 m)) (a18 m) (gblk18 (atTc (U39 m)) (a18 m)) c
  hout c := houtG18 (atTc (U39 m)) (a18 m) (gblk18 (atTc (U39 m)) (a18 m)) c
  hexit c := by
    have hjoin := Pipeline.unscopedBufs_of_arrays (p := 18) (pcfgs (F := F)) (adm m) (Ix := Unit) (Name := ℕ) (U := UU) (Lvl := ℕ)
      (launch18 (F := F)).win (launch18 (F := F)).arr_whole c (pdats m) ((pdats m 18 c).share_full fun _ => rfl)
      (atTc (U39 m) c) (atTc (U40 m) c) ((pdats m 18 c).arrAt · (cfg18 (a18 m)).N) (hF18 m c) (hrest18 m c)
    have h := hexitG18 (atTc (U39 m)) (a18 m) (gblk18 (atTc (U39 m)) (a18 m)) (atTc (U40 m)) c (hpf18 m c) hjoin
    rw [Pipeline.unscopedBufs_held] at h
    exact h

set_option maxHeartbeats 1000000 in
/-- Every word of region 19's table is a node's number: the data's table is what the real valuation at the region's entry
    holds in the table's buffer; that valuation is the run's own, whose table is the closed one of the launch memory. -/
theorem hlt19 (m : (ℓ : Loc nD τ sig) → Buf (Elt F) ℓ) (hm : ∀ i : S2x800000.Idx, ((V0 m c₀ main_arg1 : IVec S2x800000 32) i).toNat < 50000) :
    ∀ k : S85000.Idx, (tblw19 (a19 m) k).toNat < 50000 := by
  have h1 : tblw19 (a19 m) = (U41 m c₀ main_v76 : IVec S85000 32) := by
    unfold a19
    rfl
  have h2 : ∀ W : Valuation τ sig (Elt F), V41 m (outsU m) c₀ = W → (W main_v76 : IVec S85000 32) = tbl19 m c₀ :=
    fun W hW => by subst hW; exact tbl19_eq m (outsU m) c₀
  have e : tblw19 (a19 m) = tbl19 m c₀ := h1.trans (h2 (U41 m c₀) (V41_eq m c₀))
  intro k
  rw [e]; exact tbl19_lt m c₀ hm k
set_option maxHeartbeats 1000000 in
set_option backward.isDefEq.respectTransparency.types false in
/-- REGION 19 over the thread state: entered from every unscoped buffer at `U41`, left at `U42`. -/
def reg19 (m : (ℓ : Loc nD τ sig) → Buf (Elt F) ℓ) (hm : ∀ i : S2x800000.Idx, ((V0 m c₀ main_arg1 : IVec S2x800000 32) i).toNat < 50000) :
    RegionSeg (pcfgs (F := F)) (adm m) (pdats m) () defs₀ 𝒱₀ L lv 19 where
  win := (launch19 (F := F)).win.to₀
  block_pos := (launch19 (F := F)).block_pos
  stage_whole := (launch19 (F := F)).stage_whole
  K := Fin 8
  osem := osem19
  ho := ownSemFacts19
  hbody c := hbodyG19 (atTc (U41 m)) (a19 m) (hlt19 m hm) c
  hwaits := Pipeline.hwaits_of_owed_zero _ _ _ _ L lv 19 fun _ _ => rfl
  pre c := iprop(StableHlo.held (c : Thread nD τ) (Pipeline.ucRefs τ sig) (U41 m c) ∗ R (F := F) c)
  post c := iprop(StableHlo.held (c : Thread nD τ) (Pipeline.ucRefs τ sig) (U42 m c) ∗ R (F := F) c)
  X c := XG19 (atTc (U41 m)) c
  Y c := YG19 (atTc (U41 m)) (a19 m) c
  Z c := ZG19 (atTc (U41 m)) c
  hentry c := by
    have hsplit := Pipeline.arrays_of_unscopedBufs (p := 19) (pcfgs (F := F)) (adm m) (pdats m) (launch19 (F := F)).win (launch19 (F := F)).arr_whole c
      ((pdats m 19 c).share_full fun _ => rfl) (atTc (U41 m) c) (fun _ => rfl)
    have h := hentryG19 (atTc (U41 m)) (a19 m) (gblk19 (atTc (U41 m)) (a19 m)) c (hpf19 m c) hsplit
    rw [Pipeline.unscopedBufs_held] at h
    exact h
  hin c := hinG19 (atTc (U41 m)) (a19 m) (gblk19 (atTc (U41 m)) (a19 m)) c
  hout c := houtG19 (atTc (U41 m)) (a19 m) (gblk19 (atTc (U41 m)) (a19 m)) c
  hexit c := by
    have hjoin := Pipeline.unscopedBufs_of_arrays (p := 19) (pcfgs (F := F)) (adm m) (Ix := Unit) (Name := ℕ) (U := UU) (Lvl := ℕ)
      (launch19 (F := F)).win (launch19 (F := F)).arr_whole c (pdats m) ((pdats m 19 c).share_full fun _ => rfl)
      (atTc (U41 m) c) (atTc (U42 m) c) ((pdats m 19 c).arrAt · (cfg19 (a19 m)).N) (hF19 m c) (hrest19 m c)
    have h := hexitG19 (atTc (U41 m)) (a19 m) (gblk19 (atTc (U41 m)) (a19 m)) (atTc (U42 m)) c (hpf19 m c) hjoin
    rw [Pipeline.unscopedBufs_held] at h
    exact h

end Cert.Kernel.Hand

end
-- ==== Proof.K.GatherBody20.lean ====
/-
  Region 20's body obligation. The region runs the body of region 1 on its own table, array, output block and
  semaphores (the two kernel functions are one function), so the body's run is region 1's, cited at this region's eight
  semaphores; read with this region's invariant it is the pipeline's body obligation for the region's proof data.
-/
import proofs.«402049_j87351044866139_2_alg».proof.Proof.K.GatherDef20
import proofs.«402049_j87351044866139_2_alg».proof.Proof.K.GatherBody1

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Idealize.ShloMosaic.Transfers (shareDrop shareTokN)
open Cert.Kernel Cert.Kernel.Gen

variable {F : FTy → Type} [FloatOps F]

local notation "𝕄" => MT nD τ sig Unit (Elt F) ℕ (Pipeline.UD sig nD τ) ℕ

/-! ## The body obligation -/

variable (V : (c : Dev nD) → (b : Ref sig .tc) → Buf (Elt F) ((c : Thread nD τ).loc b))
variable (a1 : (pcfg20 (F := F)).Adm)

/-- The eight cells at zero, listed, each as the body names it. -/
theorem ownSems20_eq (c : Dev nD) :
    (Pipeline.ownSems0 (Ix := Unit) (Name := ℕ) (U := Pipeline.UD sig nD τ) (Lvl := ℕ) (Val := Elt F) (τ := τ) osem20 c : sProp 𝕄)
      = iprop(semVal ((c : Thread nD τ), cell1_0 cc20_scratch0) 0 ∗ semVal ((c : Thread nD τ), cell1_1 cc20_scratch0) 0 ∗ semVal ((c : Thread nD τ), cell1_2 cc20_scratch0) 0 ∗ semVal ((c : Thread nD τ), cell1_3 cc20_scratch0) 0 ∗ semVal ((c : Thread nD τ), cell1_4 cc20_scratch0) 0 ∗ semVal ((c : Thread nD τ), cell1_5 cc20_scratch0) 0 ∗ semVal ((c : Thread nD τ), cell1_6 cc20_scratch0) 0 ∗ semVal ((c : Thread nD τ), cell1_7 cc20_scratch0) 0) := by
  rw [Pipeline.ownSems0_eq_of_list c osem20 [0, 1, 2, 3, 4, 5, 6, 7] (by decide) (by decide)]; rfl

/-- The array the rows are read from, at the contents the region found it with. -/
theorem hbm20_eq (c : Dev nD) :
    (bigSep H20 (fun b => ((c : Thread nD τ).loc b) ↦{fullShare} V c b) : sProp 𝕄)
      = ((Memref.whole main_v61 : Memref sig .tc .hbm S50000x128 .f32).view.loc (c : Thread nD τ) ↦{fullShare} V c main_v61) := by
  unfold H20
  rw [BI.bigSep_eq_bigSepL_of_eq [main_v61] (by decide) (by decide)]; rfl

/-- The table, held whole at the full share, is owned at its contents. -/
theorem tblw20_eq (c : Dev nD) :
    (Pipeline.prefHeld pre20 c (fun _ => fullShare) a1.1 : sProp 𝕄)
      = owns (c : Thread nD τ) (Memref.whole main_v78 : Memref sig .tc .smem S85000 .i32) fullShare (tblw20 a1) := by
  unfold Pipeline.prefHeld
  rw [bigSep_W20, owns_whole]; rfl

set_option maxHeartbeats 4000000 in
/-- The body at every point: the invariant hands the run its table, the array, the eight cells at zero (the scoped rest and
    the generator register ride along), the core's record of waits goes in at whatever the points before left and comes
    back with this point's eight, and the output block, at anything, comes back reading the gathered rows. -/
theorem hbodyG20 [∀ e, Nonempty (Elt F e)] (hlt : ∀ k : S85000.Idx, (tblw20 a1 k).toNat < 50000) (c : Dev nD) :
    BodyObligationLoose (datG20 V a1 (gblk20 V a1) c) (defs₀ (F := F)) Variants.none () Set.univ := by
  refine BodyObligation.loose _ fun t => ?_
  rw [bigSep_W20, bigSep_W20]
  show iprop(iprop(Pipeline.ΦD osem20 spec20 H20 V c ∗ Pipeline.prefHeld pre20 c (fun _ => fullShare) a1.1)
        ∗ (datG20 V a1 (gblk20 V a1) c).owesAt () t.castSucc
        ∗ (∃ d, owns (c : Thread nD τ) (spec20_0.stage ((cfg20 a1).slots t 0)) fullShare ((datG20 V a1 (gblk20 V a1) c).before 0 t d)))
      ⊢ wp frame (wpE (defs₀ (F := F)) Variants.none c none) Set.univ
          (cc20__gather_kernel ((cfg20 a1).grid.coords t) (Memref.whole main_v78) (Memref.isWhole_whole _) (Memref.whole main_v61) (Memref.isWhole_whole _)
            (spec20_0.stage ((cfg20 a1).slots t 0)) (hstage20_0 (((cfg20 a1).slots t 0).cast nbuf20_0)) cc20_scratch0)
          (fun _ => iprop(iprop(Pipeline.ΦD osem20 spec20 H20 V c ∗ Pipeline.prefHeld pre20 c (fun _ => fullShare) a1.1)
            ∗ (datG20 V a1 (gblk20 V a1) c).owesAt () t.succ
            ∗ owns (c : Thread nD τ) (spec20_0.stage ((cfg20 a1).slots t 0)) fullShare (gblk20 V a1 c t)))
  rw [Pipeline.ΦD_eq, ownSems20_eq, hbm20_eq, tblw20_eq]
  unfold Dat.owesAt Pipeline.owesWithin
  rw [show (datG20 V a1 (gblk20 V a1) c).owed t.castSucc = 0 from rfl, show (datG20 V a1 (gblk20 V a1) c).owed t.succ = 0 from rfl]
  have hr : (Memref.whole main_v61 : Memref sig .tc .hbm S50000x128 .f32).view.read (Elt F) (V c main_v61) = V c main_v61 := by
    simp only [Memref.view_whole, View.read_whole]
  iintro ⟨⟨⟨Hsc, Hg, ⟨Hq0, Hq1, Hq2, Hq3, Hq4, Hq5, Hq6, Hq7⟩, Hh⟩, Ht⟩, ⟨%W, -, HW⟩, ⟨%d, Hob⟩⟩
  iapply (kernelRun1 c ((cfg20 a1).grid.coords t) (Memref.whole main_v78) (Memref.isWhole_whole _) (Memref.whole main_v61) (Memref.isWhole_whole _)
    (spec20_0.stage ((cfg20 a1).slots t 0)) (hstage20_0 (((cfg20 a1).slots t 0).cast nbuf20_0)) (tblw20 a1) hlt fullShare fullShare (V c main_v61) cc20_scratch0 W _)
  isplitl [Ht]; · iexact Ht
  isplitl [Hh]; · iexact Hh
  isplitl [Hob]; · iexists _; iexact Hob
  isplitl [Hq0]; · iexact Hq0
  isplitl [Hq1]; · iexact Hq1
  isplitl [Hq2]; · iexact Hq2
  isplitl [Hq3]; · iexact Hq3
  isplitl [Hq4]; · iexact Hq4
  isplitl [Hq5]; · iexact Hq5
  isplitl [Hq6]; · iexact Hq6
  isplitl [Hq7]; · iexact Hq7
  isplitl [HW]; · iexact HW
  iintro ⟨Ht, Hh, Hob, Hq0, Hq1, Hq2, Hq3, Hq4, Hq5, Hq6, Hq7, ⟨%W', HW'⟩⟩
  isplitl [Hsc Hg Hq0 Hq1 Hq2 Hq3 Hq4 Hq5 Hq6 Hq7 Hh Ht]
  · isplitl [Hsc Hg Hq0 Hq1 Hq2 Hq3 Hq4 Hq5 Hq6 Hq7 Hh]
    · isplitl [Hsc]; · iexact Hsc
      isplitl [Hg]; · iexact Hg
      isplitl [Hq0 Hq1 Hq2 Hq3 Hq4 Hq5 Hq6 Hq7]
      · isplitl [Hq0]; · iexact Hq0
        isplitl [Hq1]; · iexact Hq1
        isplitl [Hq2]; · iexact Hq2
        isplitl [Hq3]; · iexact Hq3
        isplitl [Hq4]; · iexact Hq4
        isplitl [Hq5]; · iexact Hq5
        isplitl [Hq6]; · iexact Hq6
        iexact Hq7
      iexact Hh
    iexact Ht
  isplitl [HW']
  · iexists W'; isplitr; · ipureintro; exact fun _ _ => Or.inl trivial
    iexact HW'
  rw [hr]
  iexact Hob

end Cert.Kernel.Hand

end
-- ==== Proof.K.GatherBody21.lean ====
/-
  Region 21's body obligation. The region runs the body of region 1 on its own table, array, output block and
  semaphores (the two kernel functions are one function), so the body's run is region 1's, cited at this region's eight
  semaphores; read with this region's invariant it is the pipeline's body obligation for the region's proof data.
-/
import proofs.«402049_j87351044866139_2_alg».proof.Proof.K.GatherDef21
import proofs.«402049_j87351044866139_2_alg».proof.Proof.K.GatherBody1

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Idealize.ShloMosaic.Transfers (shareDrop shareTokN)
open Cert.Kernel Cert.Kernel.Gen

variable {F : FTy → Type} [FloatOps F]

local notation "𝕄" => MT nD τ sig Unit (Elt F) ℕ (Pipeline.UD sig nD τ) ℕ

/-! ## The body obligation -/

variable (V : (c : Dev nD) → (b : Ref sig .tc) → Buf (Elt F) ((c : Thread nD τ).loc b))
variable (a1 : (pcfg21 (F := F)).Adm)

/-- The eight cells at zero, listed, each as the body names it. -/
theorem ownSems21_eq (c : Dev nD) :
    (Pipeline.ownSems0 (Ix := Unit) (Name := ℕ) (U := Pipeline.UD sig nD τ) (Lvl := ℕ) (Val := Elt F) (τ := τ) osem21 c : sProp 𝕄)
      = iprop(semVal ((c : Thread nD τ), cell1_0 cc21_scratch0) 0 ∗ semVal ((c : Thread nD τ), cell1_1 cc21_scratch0) 0 ∗ semVal ((c : Thread nD τ), cell1_2 cc21_scratch0) 0 ∗ semVal ((c : Thread nD τ), cell1_3 cc21_scratch0) 0 ∗ semVal ((c : Thread nD τ), cell1_4 cc21_scratch0) 0 ∗ semVal ((c : Thread nD τ), cell1_5 cc21_scratch0) 0 ∗ semVal ((c : Thread nD τ), cell1_6 cc21_scratch0) 0 ∗ semVal ((c : Thread nD τ), cell1_7 cc21_scratch0) 0) := by
  rw [Pipeline.ownSems0_eq_of_list c osem21 [0, 1, 2, 3, 4, 5, 6, 7] (by decide) (by decide)]; rfl

/-- The array the rows are read from, at the contents the region found it with. -/
theorem hbm21_eq (c : Dev nD) :
    (bigSep H21 (fun b => ((c : Thread nD τ).loc b) ↦{fullShare} V c b) : sProp 𝕄)
      = ((Memref.whole main_v61 : Memref sig .tc .hbm S50000x128 .f32).view.loc (c : Thread nD τ) ↦{fullShare} V c main_v61) := by
  unfold H21
  rw [BI.bigSep_eq_bigSepL_of_eq [main_v61] (by decide) (by decide)]; rfl

/-- The table, held whole at the full share, is owned at its contents. -/
theorem tblw21_eq (c : Dev nD) :
    (Pipeline.prefHeld pre21 c (fun _ => fullShare) a1.1 : sProp 𝕄)
      = owns (c : Thread nD τ) (Memref.whole main_v80 : Memref sig .tc .smem S85000 .i32) fullShare (tblw21 a1) := by
  unfold Pipeline.prefHeld
  rw [bigSep_W21, owns_whole]; rfl

set_option maxHeartbeats 4000000 in
/-- The body at every point: the invariant hands the run its table, the array, the eight cells at zero (the scoped rest and
    the generator register ride along), the core's record of waits goes in at whatever the points before left and comes
    back with this point's eight, and the output block, at anything, comes back reading the gathered rows. -/
theorem hbodyG21 [∀ e, Nonempty (Elt F e)] (hlt : ∀ k : S85000.Idx, (tblw21 a1 k).toNat < 50000) (c : Dev nD) :
    BodyObligationLoose (datG21 V a1 (gblk21 V a1) c) (defs₀ (F := F)) Variants.none () Set.univ := by
  refine BodyObligation.loose _ fun t => ?_
  rw [bigSep_W21, bigSep_W21]
  show iprop(iprop(Pipeline.ΦD osem21 spec21 H21 V c ∗ Pipeline.prefHeld pre21 c (fun _ => fullShare) a1.1)
        ∗ (datG21 V a1 (gblk21 V a1) c).owesAt () t.castSucc
        ∗ (∃ d, owns (c : Thread nD τ) (spec21_0.stage ((cfg21 a1).slots t 0)) fullShare ((datG21 V a1 (gblk21 V a1) c).before 0 t d)))
      ⊢ wp frame (wpE (defs₀ (F := F)) Variants.none c none) Set.univ
          (cc21__gather_kernel ((cfg21 a1).grid.coords t) (Memref.whole main_v80) (Memref.isWhole_whole _) (Memref.whole main_v61) (Memref.isWhole_whole _)
            (spec21_0.stage ((cfg21 a1).slots t 0)) (hstage21_0 (((cfg21 a1).slots t 0).cast nbuf21_0)) cc21_scratch0)
          (fun _ => iprop(iprop(Pipeline.ΦD osem21 spec21 H21 V c ∗ Pipeline.prefHeld pre21 c (fun _ => fullShare) a1.1)
            ∗ (datG21 V a1 (gblk21 V a1) c).owesAt () t.succ
            ∗ owns (c : Thread nD τ) (spec21_0.stage ((cfg21 a1).slots t 0)) fullShare (gblk21 V a1 c t)))
  rw [Pipeline.ΦD_eq, ownSems21_eq, hbm21_eq, tblw21_eq]
  unfold Dat.owesAt Pipeline.owesWithin
  rw [show (datG21 V a1 (gblk21 V a1) c).owed t.castSucc = 0 from rfl, show (datG21 V a1 (gblk21 V a1) c).owed t.succ = 0 from rfl]
  have hr : (Memref.whole main_v61 : Memref sig .tc .hbm S50000x128 .f32).view.read (Elt F) (V c main_v61) = V c main_v61 := by
    simp only [Memref.view_whole, View.read_whole]
  iintro ⟨⟨⟨Hsc, Hg, ⟨Hq0, Hq1, Hq2, Hq3, Hq4, Hq5, Hq6, Hq7⟩, Hh⟩, Ht⟩, ⟨%W, -, HW⟩, ⟨%d, Hob⟩⟩
  iapply (kernelRun1 c ((cfg21 a1).grid.coords t) (Memref.whole main_v80) (Memref.isWhole_whole _) (Memref.whole main_v61) (Memref.isWhole_whole _)
    (spec21_0.stage ((cfg21 a1).slots t 0)) (hstage21_0 (((cfg21 a1).slots t 0).cast nbuf21_0)) (tblw21 a1) hlt fullShare fullShare (V c main_v61) cc21_scratch0 W _)
  isplitl [Ht]; · iexact Ht
  isplitl [Hh]; · iexact Hh
  isplitl [Hob]; · iexists _; iexact Hob
  isplitl [Hq0]; · iexact Hq0
  isplitl [Hq1]; · iexact Hq1
  isplitl [Hq2]; · iexact Hq2
  isplitl [Hq3]; · iexact Hq3
  isplitl [Hq4]; · iexact Hq4
  isplitl [Hq5]; · iexact Hq5
  isplitl [Hq6]; · iexact Hq6
  isplitl [Hq7]; · iexact Hq7
  isplitl [HW]; · iexact HW
  iintro ⟨Ht, Hh, Hob, Hq0, Hq1, Hq2, Hq3, Hq4, Hq5, Hq6, Hq7, ⟨%W', HW'⟩⟩
  isplitl [Hsc Hg Hq0 Hq1 Hq2 Hq3 Hq4 Hq5 Hq6 Hq7 Hh Ht]
  · isplitl [Hsc Hg Hq0 Hq1 Hq2 Hq3 Hq4 Hq5 Hq6 Hq7 Hh]
    · isplitl [Hsc]; · iexact Hsc
      isplitl [Hg]; · iexact Hg
      isplitl [Hq0 Hq1 Hq2 Hq3 Hq4 Hq5 Hq6 Hq7]
      · isplitl [Hq0]; · iexact Hq0
        isplitl [Hq1]; · iexact Hq1
        isplitl [Hq2]; · iexact Hq2
        isplitl [Hq3]; · iexact Hq3
        isplitl [Hq4]; · iexact Hq4
        isplitl [Hq5]; · iexact Hq5
        isplitl [Hq6]; · iexact Hq6
        iexact Hq7
      iexact Hh
    iexact Ht
  isplitl [HW']
  · iexists W'; isplitr; · ipureintro; exact fun _ _ => Or.inl trivial
    iexact HW'
  rw [hr]
  iexact Hob

end Cert.Kernel.Hand

end
-- ==== Proof.K.GatherBody23.lean ====
/-
  Region 23's body: eight rows gathered at every grid point.

  At grid point i the body loads the table's words 8 i … 8 i + 7, and for each word w copies row w of the 50000 x 128 array
  it finds in HBM into one row of its 8 x 128 output block, by eight transfers of its own on eight semaphores of its own,
  all waited for before the point ends. Every word is assumed a row of the array; the hypothesis on the table makes it so.
  So the point leaves the block reading, at row j and column l, the array at row (table word 8 i + j) and column l
  (gath23), the table and the array as they were, and the semaphores at zero (kernelRun23, stated for any array of eight semaphores: the regions that run the same body
  on other semaphores cite it). Read with the region's invariant
  that is the pipeline's body obligation for the region's proof data (hbodyG23), whose output block at point t is gblk23.
-/
import proofs.«402049_j87351044866139_2_alg».proof.Proof.K.GatherDef23
import proofs.«402049_j87351044866139_2_alg».proof.Proof.K.GatherLib

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Idealize.ShloMosaic.Transfers (shareDrop shareTokN)
open Cert.Kernel Cert.Kernel.Gen

variable {F : FTy → Type} [FloatOps F]

local notation "𝕄" => MT nD τ sig Unit (Elt F) ℕ (Pipeline.UD sig nD τ) ℕ

/-! ## The body's run -/

/-- Cell 0 of a body's eight semaphores, as the body names it. -/
abbrev cell23_0 (arg4 : DmaSems sig S8) : SemLoc sig := SemLoc.dma ((arg4.slice (Rect.unit (s := S8) ![0] S1.size inb_S8_S1_0)).squeeze S_ squeezes_S1_S_).sem
/-- Cell 1 of a body's eight semaphores, as the body names it. -/
abbrev cell23_1 (arg4 : DmaSems sig S8) : SemLoc sig := SemLoc.dma ((arg4.slice (Rect.unit (s := S8) ![1] S1.size inb_S8_S1_1)).squeeze S_ squeezes_S1_S_).sem
/-- Cell 2 of a body's eight semaphores, as the body names it. -/
abbrev cell23_2 (arg4 : DmaSems sig S8) : SemLoc sig := SemLoc.dma ((arg4.slice (Rect.unit (s := S8) ![2] S1.size inb_S8_S1_2)).squeeze S_ squeezes_S1_S_).sem
/-- Cell 3 of a body's eight semaphores, as the body names it. -/
abbrev cell23_3 (arg4 : DmaSems sig S8) : SemLoc sig := SemLoc.dma ((arg4.slice (Rect.unit (s := S8) ![3] S1.size inb_S8_S1_3)).squeeze S_ squeezes_S1_S_).sem
/-- Cell 4 of a body's eight semaphores, as the body names it. -/
abbrev cell23_4 (arg4 : DmaSems sig S8) : SemLoc sig := SemLoc.dma ((arg4.slice (Rect.unit (s := S8) ![4] S1.size inb_S8_S1_4)).squeeze S_ squeezes_S1_S_).sem
/-- Cell 5 of a body's eight semaphores, as the body names it. -/
abbrev cell23_5 (arg4 : DmaSems sig S8) : SemLoc sig := SemLoc.dma ((arg4.slice (Rect.unit (s := S8) ![5] S1.size inb_S8_S1_5)).squeeze S_ squeezes_S1_S_).sem
/-- Cell 6 of a body's eight semaphores, as the body names it. -/
abbrev cell23_6 (arg4 : DmaSems sig S8) : SemLoc sig := SemLoc.dma ((arg4.slice (Rect.unit (s := S8) ![6] S1.size inb_S8_S1_6)).squeeze S_ squeezes_S1_S_).sem
/-- Cell 7 of a body's eight semaphores, as the body names it. -/
abbrev cell23_7 (arg4 : DmaSems sig S8) : SemLoc sig := SemLoc.dma ((arg4.slice (Rect.unit (s := S8) ![7] S1.size inb_S8_S1_7)).squeeze S_ squeezes_S1_S_).sem

/-- Word 0 of the point's eight, as the body's load reads it off contents f1 of the table's memref. -/
abbrev wd23_0 (i : grid23.Coords) (arg1 : Memref sig .tc .smem S100000 .i32) (f1 : arg1.view.ty.Contents (Elt F)) : BitVec 32 :=
  arg1.view.readAt (Elt F) (Rect.unit (s := S100000) (k23_off1 i) S1.size (k23_off1_inb i)).toLoadRect f1 i0
/-- Word 1 of the point's eight, as the body's load reads it off contents f1 of the table's memref. -/
abbrev wd23_1 (i : grid23.Coords) (arg1 : Memref sig .tc .smem S100000 .i32) (f1 : arg1.view.ty.Contents (Elt F)) : BitVec 32 :=
  arg1.view.readAt (Elt F) (Rect.unit (s := S100000) (k23_off3 i) S1.size (k23_off3_inb i)).toLoadRect f1 i0
/-- Word 2 of the point's eight, as the body's load reads it off contents f1 of the table's memref. -/
abbrev wd23_2 (i : grid23.Coords) (arg1 : Memref sig .tc .smem S100000 .i32) (f1 : arg1.view.ty.Contents (Elt F)) : BitVec 32 :=
  arg1.view.readAt (Elt F) (Rect.unit (s := S100000) (k23_off5 i) S1.size (k23_off5_inb i)).toLoadRect f1 i0
/-- Word 3 of the point's eight, as the body's load reads it off contents f1 of the table's memref. -/
abbrev wd23_3 (i : grid23.Coords) (arg1 : Memref sig .tc .smem S100000 .i32) (f1 : arg1.view.ty.Contents (Elt F)) : BitVec 32 :=
  arg1.view.readAt (Elt F) (Rect.unit (s := S100000) (k23_off7 i) S1.size (k23_off7_inb i)).toLoadRect f1 i0
/-- Word 4 of the point's eight, as the body's load reads it off contents f1 of the table's memref. -/
abbrev wd23_4 (i : grid23.Coords) (arg1 : Memref sig .tc .smem S100000 .i32) (f1 : arg1.view.ty.Contents (Elt F)) : BitVec 32 :=
  arg1.view.readAt (Elt F) (Rect.unit (s := S100000) (k23_off9 i) S1.size (k23_off9_inb i)).toLoadRect f1 i0
/-- Word 5 of the point's eight, as the body's load reads it off contents f1 of the table's memref. -/
abbrev wd23_5 (i : grid23.Coords) (arg1 : Memref sig .tc .smem S100000 .i32) (f1 : arg1.view.ty.Contents (Elt F)) : BitVec 32 :=
  arg1.view.readAt (Elt F) (Rect.unit (s := S100000) (k23_off11 i) S1.size (k23_off11_inb i)).toLoadRect f1 i0
/-- Word 6 of the point's eight, as the body's load reads it off contents f1 of the table's memref. -/
abbrev wd23_6 (i : grid23.Coords) (arg1 : Memref sig .tc .smem S100000 .i32) (f1 : arg1.view.ty.Contents (Elt F)) : BitVec 32 :=
  arg1.view.readAt (Elt F) (Rect.unit (s := S100000) (k23_off13 i) S1.size (k23_off13_inb i)).toLoadRect f1 i0
/-- Word 7 of the point's eight, as the body's load reads it off contents f1 of the table's memref. -/
abbrev wd23_7 (i : grid23.Coords) (arg1 : Memref sig .tc .smem S100000 .i32) (f1 : arg1.view.ty.Contents (Elt F)) : BitVec 32 :=
  arg1.view.readAt (Elt F) (Rect.unit (s := S100000) (k23_off15 i) S1.size (k23_off15_inb i)).toLoadRect f1 i0

set_option sl_exec.dmaWindow true in
set_option sl_exec.dmaWindowSet true in
set_option sl_exec.rejoinHeartbeats 1 in
set_option maxHeartbeats 16000000 in
/-- THE BODY'S RUN at grid point i, on whole memrefs: the table held at contents that read tbl, every word of it a row of
    the array; the array held whole at any share; the output block at anything; the eight cells of ANY semaphore array at zero; the core's
    record of waits. Eight words are loaded, each assumed a row (it is), eight rows are sent for on the eight cells and all
    eight waited for. The array is read through eight shares of its share, one a cell, since two transfers in flight may
    read one row; the block is lent row by row and joined again. The run returns the table and the array as they were, the
    cells at zero, the eight waits recorded, and the block reading gath23. -/
theorem kernelRun23 [∀ e, Nonempty (Elt F e)] (c : Dev nD) (i : grid23.Coords)
    (arg1 : Memref sig .tc .smem S100000 .i32) (harg1 : arg1.IsWhole)
    (arg2 : Memref sig .tc .hbm S50000x128 .f32) (harg2 : arg2.IsWhole)
    (arg3 : Memref sig .tc .vmem S8x128 .f32) (harg3 : arg3.IsWhole)
    (tbl : Vec F S100000 .i32) (htbl : ∀ k, (tbl k).toNat < 50000)
    (q qA : PosShare TreeShare) (fA : Bf (F := F) c arg2) (arg4 : DmaSems sig S8)
    (W : Waits sig Unit) (K : PUnit → sProp 𝕄) :
    iprop(owns (c : Thread nD τ) arg1 q tbl ∗ (arg2.view.loc (c : Thread nD τ) ↦{qA} fA) ∗ (∃ d, owns (c : Thread nD τ) arg3 fullShare d)
        ∗ semVal ((c : Thread nD τ), cell23_0 arg4) 0 ∗ semVal ((c : Thread nD τ), cell23_1 arg4) 0 ∗ semVal ((c : Thread nD τ), cell23_2 arg4) 0 ∗ semVal ((c : Thread nD τ), cell23_3 arg4) 0 ∗ semVal ((c : Thread nD τ), cell23_4 arg4) 0 ∗ semVal ((c : Thread nD τ), cell23_5 arg4) 0 ∗ semVal ((c : Thread nD τ), cell23_6 arg4) 0 ∗ semVal ((c : Thread nD τ), cell23_7 arg4) 0
        ∗ owes (c : Thread nD τ) 0 W
        ∗ (iprop(owns (c : Thread nD τ) arg1 q tbl ∗ (arg2.view.loc (c : Thread nD τ) ↦{qA} fA)
              ∗ owns (c : Thread nD τ) arg3 fullShare (gath23 i tbl (arg2.view.read (Elt F) fA))
              ∗ semVal ((c : Thread nD τ), cell23_0 arg4) 0 ∗ semVal ((c : Thread nD τ), cell23_1 arg4) 0 ∗ semVal ((c : Thread nD τ), cell23_2 arg4) 0 ∗ semVal ((c : Thread nD τ), cell23_3 arg4) 0 ∗ semVal ((c : Thread nD τ), cell23_4 arg4) 0 ∗ semVal ((c : Thread nD τ), cell23_5 arg4) 0 ∗ semVal ((c : Thread nD τ), cell23_6 arg4) 0 ∗ semVal ((c : Thread nD τ), cell23_7 arg4) 0
              ∗ (∃ W', owes (c : Thread nD τ) 0 W')) -∗ K ⟨⟩))
      ⊢ wp frame (wpE (defs₀ (F := F)) Variants.none c none) Set.univ (cc23__gather_kernel i arg1 harg1 arg2 harg2 arg3 harg3 arg4) K := by
  have hi : (i 0).val < 12500 := (i 0).isLt
  have hw : ∀ (B : LoadRect S100000) (x : B.shape.Idx), (arg1.view.readAt (Elt F) B (harg1.unread tbl) x).toNat < 50000 := fun B x => by
    rw [Memref.IsWhole.readAt_unread harg1]; exact htbl _
  have hc1 : k23_chk1 (wd23_0 i arg1 (harg1.unread tbl)) := ⟨row_inb _ (hw _ _), row_inb _ (hw _ _)⟩
  have hc2 : k23_chk2 (wd23_1 i arg1 (harg1.unread tbl)) := ⟨row_inb _ (hw _ _), row_inb _ (hw _ _)⟩
  have hc3 : k23_chk3 (wd23_2 i arg1 (harg1.unread tbl)) := ⟨row_inb _ (hw _ _), row_inb _ (hw _ _)⟩
  have hc4 : k23_chk4 (wd23_3 i arg1 (harg1.unread tbl)) := ⟨row_inb _ (hw _ _), row_inb _ (hw _ _)⟩
  have hc5 : k23_chk5 (wd23_4 i arg1 (harg1.unread tbl)) := ⟨row_inb _ (hw _ _), row_inb _ (hw _ _)⟩
  have hc6 : k23_chk6 (wd23_5 i arg1 (harg1.unread tbl)) := ⟨row_inb _ (hw _ _), row_inb _ (hw _ _)⟩
  have hc7 : k23_chk7 (wd23_6 i arg1 (harg1.unread tbl)) := ⟨row_inb _ (hw _ _), row_inb _ (hw _ _)⟩
  have hc8 : k23_chk8 (wd23_7 i arg1 (harg1.unread tbl)) := row_inb _ (hw _ _)
  have hwd0 : wd23_0 i arg1 (harg1.unread tbl) = tbl (ValueIdx.ix1 (⟨8 * (i 0).val, by omega⟩ : Fin 100000)) :=
    word_at arg1 harg1 tbl (k23_off1 i) (k23_off1_inb i) (8 * (i 0).val) (Gen.k23_off1_eq i) (by omega)
  have hwd1 : wd23_1 i arg1 (harg1.unread tbl) = tbl (ValueIdx.ix1 (⟨8 * (i 0).val + 1, by omega⟩ : Fin 100000)) :=
    word_at arg1 harg1 tbl (k23_off3 i) (k23_off3_inb i) (8 * (i 0).val + 1) (Gen.k23_off3_eq i) (by omega)
  have hwd2 : wd23_2 i arg1 (harg1.unread tbl) = tbl (ValueIdx.ix1 (⟨8 * (i 0).val + 2, by omega⟩ : Fin 100000)) :=
    word_at arg1 harg1 tbl (k23_off5 i) (k23_off5_inb i) (8 * (i 0).val + 2) (Gen.k23_off5_eq i) (by omega)
  have hwd3 : wd23_3 i arg1 (harg1.unread tbl) = tbl (ValueIdx.ix1 (⟨8 * (i 0).val + 3, by omega⟩ : Fin 100000)) :=
    word_at arg1 harg1 tbl (k23_off7 i) (k23_off7_inb i) (8 * (i 0).val + 3) (Gen.k23_off7_eq i) (by omega)
  have hwd4 : wd23_4 i arg1 (harg1.unread tbl) = tbl (ValueIdx.ix1 (⟨8 * (i 0).val + 4, by omega⟩ : Fin 100000)) :=
    word_at arg1 harg1 tbl (k23_off9 i) (k23_off9_inb i) (8 * (i 0).val + 4) (Gen.k23_off9_eq i) (by omega)
  have hwd5 : wd23_5 i arg1 (harg1.unread tbl) = tbl (ValueIdx.ix1 (⟨8 * (i 0).val + 5, by omega⟩ : Fin 100000)) :=
    word_at arg1 harg1 tbl (k23_off11 i) (k23_off11_inb i) (8 * (i 0).val + 5) (Gen.k23_off11_eq i) (by omega)
  have hwd6 : wd23_6 i arg1 (harg1.unread tbl) = tbl (ValueIdx.ix1 (⟨8 * (i 0).val + 6, by omega⟩ : Fin 100000)) :=
    word_at arg1 harg1 tbl (k23_off13 i) (k23_off13_inb i) (8 * (i 0).val + 6) (Gen.k23_off13_eq i) (by omega)
  have hwd7 : wd23_7 i arg1 (harg1.unread tbl) = tbl (ValueIdx.ix1 (⟨8 * (i 0).val + 7, by omega⟩ : Fin 100000)) :=
    word_at arg1 harg1 tbl (k23_off15 i) (k23_off15_inb i) (8 * (i 0).val + 7) (Gen.k23_off15_eq i) (by omega)
  simp only [cc23__gather_kernel_eq_skeleton]; unfold cc23__gather_kernel_skel
  simp only [k23_part1_eq_skeleton, k23_part2_eq_skeleton, k23_part3_eq_skeleton]; unfold k23_part1_skel k23_part2_skel k23_part3_skel
  unfold owns
  iintro ⟨⟨%f1, %hf1, Htb⟩, HA, ⟨%d3, %f3, -, Hob⟩, Hq0, Hq1, Hq2, Hq3, Hq4, Hq5, Hq6, Hq7, HW, Hk⟩
  obtain rfl := harg1.eq_unread hf1
  ihave HA' := (toks_at (F := F) qA 7).1 $$ HA
  icases HA' with ⟨HAd, HA7, HA6, HA5, HA4, HA3, HA2, HA1, HA0, HAr⟩
  sl_exec (disch := first | exact hc1 | exact hc2 | exact hc3 | exact hc4 | exact hc5 | exact hc6 | exact hc7 | exact hc8)
  sl_step
  iapply Hk
  isplitl [Htb]
  · iexists _; isplitr; · ipureintro; exact harg1.read_unread _
    iexact Htb
  isplitl [HAd HA7 HA6 HA5 HA4 HA3 HA2 HA1 HA0 HAr]
  · iapply (toks_at (F := F) qA 7).2
    isplitl [HAd]; · iexact HAd
    isplitl [HA7]; · iexact HA7
    isplitl [HA6]; · iexact HA6
    isplitl [HA5]; · iexact HA5
    isplitl [HA4]; · iexact HA4
    isplitl [HA3]; · iexact HA3
    isplitl [HA2]; · iexact HA2
    isplitl [HA1]; · iexact HA1
    isplitl [HA0]; · iexact HA0
    iexact HAr
  isplitl [Hob_2 Hob_3 Hob_4 Hob_5 Hob_6 Hob_7 Hob_8 Hob]
  · iexists _
    isplitr
    swap
    · iapply (rows_join arg3 f3 _ _ _ _ _ _ _ _ c)
      isplitl [Hob_2]; · iexact Hob_2
      isplitl [Hob_3]; · iexact Hob_3
      isplitl [Hob_4]; · iexact Hob_4
      isplitl [Hob_5]; · iexact Hob_5
      isplitl [Hob_6]; · iexact Hob_6
      isplitl [Hob_7]; · iexact Hob_7
      isplitl [Hob_8]; · iexact Hob_8
      iexact Hob
    ipureintro
    refine rows_read arg3 f3 _ _ _ _ _ _ _ _ (gath23 i tbl (arg2.view.read (Elt F) fA)) ?_ ?_ ?_ ?_ ?_ ?_ ?_ ?_
    · intro x
      exact row_piece arg2 fA (wd23_0 i arg1 (harg1.unread tbl)) _ 0 _ (gath23 i tbl (arg2.view.read (Elt F) fA))
        (fun y z hy hz0 hz1 => gath23_row i tbl (arg2.view.read (Elt F) fA) htbl 0 (8 * (i 0).val) (Nat.add_zero _).symm (by omega) y z hy
          (hz0.trans (congrArg BitVec.toNat hwd0)) hz1) x
    · intro x
      exact row_piece arg2 fA (wd23_1 i arg1 (harg1.unread tbl)) _ 1 _ (gath23 i tbl (arg2.view.read (Elt F) fA))
        (fun y z hy hz0 hz1 => gath23_row i tbl (arg2.view.read (Elt F) fA) htbl 1 (8 * (i 0).val + 1) rfl (by omega) y z hy
          (hz0.trans (congrArg BitVec.toNat hwd1)) hz1) x
    · intro x
      exact row_piece arg2 fA (wd23_2 i arg1 (harg1.unread tbl)) _ 2 _ (gath23 i tbl (arg2.view.read (Elt F) fA))
        (fun y z hy hz0 hz1 => gath23_row i tbl (arg2.view.read (Elt F) fA) htbl 2 (8 * (i 0).val + 2) rfl (by omega) y z hy
          (hz0.trans (congrArg BitVec.toNat hwd2)) hz1) x
    · intro x
      exact row_piece arg2 fA (wd23_3 i arg1 (harg1.unread tbl)) _ 3 _ (gath23 i tbl (arg2.view.read (Elt F) fA))
        (fun y z hy hz0 hz1 => gath23_row i tbl (arg2.view.read (Elt F) fA) htbl 3 (8 * (i 0).val + 3) rfl (by omega) y z hy
          (hz0.trans (congrArg BitVec.toNat hwd3)) hz1) x
    · intro x
      exact row_piece arg2 fA (wd23_4 i arg1 (harg1.unread tbl)) _ 4 _ (gath23 i tbl (arg2.view.read (Elt F) fA))
        (fun y z hy hz0 hz1 => gath23_row i tbl (arg2.view.read (Elt F) fA) htbl 4 (8 * (i 0).val + 4) rfl (by omega) y z hy
          (hz0.trans (congrArg BitVec.toNat hwd4)) hz1) x
    · intro x
      exact row_piece arg2 fA (wd23_5 i arg1 (harg1.unread tbl)) _ 5 _ (gath23 i tbl (arg2.view.read (Elt F) fA))
        (fun y z hy hz0 hz1 => gath23_row i tbl (arg2.view.read (Elt F) fA) htbl 5 (8 * (i 0).val + 5) rfl (by omega) y z hy
          (hz0.trans (congrArg BitVec.toNat hwd5)) hz1) x
    · intro x
      exact row_piece arg2 fA (wd23_6 i arg1 (harg1.unread tbl)) _ 6 _ (gath23 i tbl (arg2.view.read (Elt F) fA))
        (fun y z hy hz0 hz1 => gath23_row i tbl (arg2.view.read (Elt F) fA) htbl 6 (8 * (i 0).val + 6) rfl (by omega) y z hy
          (hz0.trans (congrArg BitVec.toNat hwd6)) hz1) x
    · intro x
      exact row_piece arg2 fA (wd23_7 i arg1 (harg1.unread tbl)) _ 7 _ (gath23 i tbl (arg2.view.read (Elt F) fA))
        (fun y z hy hz0 hz1 => gath23_row i tbl (arg2.view.read (Elt F) fA) htbl 7 (8 * (i 0).val + 7) rfl (by omega) y z hy
          (hz0.trans (congrArg BitVec.toNat hwd7)) hz1) x
  isplitl [Hq0]; · iexact Hq0
  isplitl [Hq1]; · iexact Hq1
  isplitl [Hq2]; · iexact Hq2
  isplitl [Hq3]; · iexact Hq3
  isplitl [Hq4]; · iexact Hq4
  isplitl [Hq5]; · iexact Hq5
  isplitl [Hq6]; · iexact Hq6
  isplitl [Hq7]; · iexact Hq7
  iexists _; iexact HW

/-! ## The body obligation -/

variable (V : (c : Dev nD) → (b : Ref sig .tc) → Buf (Elt F) ((c : Thread nD τ).loc b))
variable (a1 : (pcfg23 (F := F)).Adm)

/-- The eight cells at zero, listed, each as the body names it. -/
theorem ownSems23_eq (c : Dev nD) :
    (Pipeline.ownSems0 (Ix := Unit) (Name := ℕ) (U := Pipeline.UD sig nD τ) (Lvl := ℕ) (Val := Elt F) (τ := τ) osem23 c : sProp 𝕄)
      = iprop(semVal ((c : Thread nD τ), cell23_0 cc23_scratch0) 0 ∗ semVal ((c : Thread nD τ), cell23_1 cc23_scratch0) 0 ∗ semVal ((c : Thread nD τ), cell23_2 cc23_scratch0) 0 ∗ semVal ((c : Thread nD τ), cell23_3 cc23_scratch0) 0 ∗ semVal ((c : Thread nD τ), cell23_4 cc23_scratch0) 0 ∗ semVal ((c : Thread nD τ), cell23_5 cc23_scratch0) 0 ∗ semVal ((c : Thread nD τ), cell23_6 cc23_scratch0) 0 ∗ semVal ((c : Thread nD τ), cell23_7 cc23_scratch0) 0) := by
  rw [Pipeline.ownSems0_eq_of_list c osem23 [0, 1, 2, 3, 4, 5, 6, 7] (by decide) (by decide)]; rfl

/-- The array the rows are read from, at the contents the region found it with. -/
theorem hbm23_eq (c : Dev nD) :
    (bigSep H23 (fun b => ((c : Thread nD τ).loc b) ↦{fullShare} V c b) : sProp 𝕄)
      = ((Memref.whole main_v89 : Memref sig .tc .hbm S50000x128 .f32).view.loc (c : Thread nD τ) ↦{fullShare} V c main_v89) := by
  unfold H23
  rw [BI.bigSep_eq_bigSepL_of_eq [main_v89] (by decide) (by decide)]; rfl

/-- The table, held whole at the full share, is owned at its contents. -/
theorem tblw23_eq (c : Dev nD) :
    (Pipeline.prefHeld pre23 c (fun _ => fullShare) a1.1 : sProp 𝕄)
      = owns (c : Thread nD τ) (Memref.whole main_v90 : Memref sig .tc .smem S100000 .i32) fullShare (tblw23 a1) := by
  unfold Pipeline.prefHeld
  rw [bigSep_W23, owns_whole]; rfl

set_option maxHeartbeats 4000000 in
/-- The body at every point: the invariant hands the run its table, the array, the eight cells at zero (the scoped rest and
    the generator register ride along), the core's record of waits goes in at whatever the points before left and comes
    back with this point's eight, and the output block, at anything, comes back reading the gathered rows. -/
theorem hbodyG23 [∀ e, Nonempty (Elt F e)] (hlt : ∀ k : S100000.Idx, (tblw23 a1 k).toNat < 50000) (c : Dev nD) :
    BodyObligationLoose (datG23 V a1 (gblk23 V a1) c) (defs₀ (F := F)) Variants.none () Set.univ := by
  refine BodyObligation.loose _ fun t => ?_
  rw [bigSep_W23, bigSep_W23]
  show iprop(iprop(Pipeline.ΦD osem23 spec23 H23 V c ∗ Pipeline.prefHeld pre23 c (fun _ => fullShare) a1.1)
        ∗ (datG23 V a1 (gblk23 V a1) c).owesAt () t.castSucc
        ∗ (∃ d, owns (c : Thread nD τ) (spec23_0.stage ((cfg23 a1).slots t 0)) fullShare ((datG23 V a1 (gblk23 V a1) c).before 0 t d)))
      ⊢ wp frame (wpE (defs₀ (F := F)) Variants.none c none) Set.univ
          (cc23__gather_kernel ((cfg23 a1).grid.coords t) (Memref.whole main_v90) (Memref.isWhole_whole _) (Memref.whole main_v89) (Memref.isWhole_whole _)
            (spec23_0.stage ((cfg23 a1).slots t 0)) (hstage23_0 (((cfg23 a1).slots t 0).cast nbuf23_0)) cc23_scratch0)
          (fun _ => iprop(iprop(Pipeline.ΦD osem23 spec23 H23 V c ∗ Pipeline.prefHeld pre23 c (fun _ => fullShare) a1.1)
            ∗ (datG23 V a1 (gblk23 V a1) c).owesAt () t.succ
            ∗ owns (c : Thread nD τ) (spec23_0.stage ((cfg23 a1).slots t 0)) fullShare (gblk23 V a1 c t)))
  rw [Pipeline.ΦD_eq, ownSems23_eq, hbm23_eq, tblw23_eq]
  unfold Dat.owesAt Pipeline.owesWithin
  rw [show (datG23 V a1 (gblk23 V a1) c).owed t.castSucc = 0 from rfl, show (datG23 V a1 (gblk23 V a1) c).owed t.succ = 0 from rfl]
  have hr : (Memref.whole main_v89 : Memref sig .tc .hbm S50000x128 .f32).view.read (Elt F) (V c main_v89) = V c main_v89 := by
    simp only [Memref.view_whole, View.read_whole]
  iintro ⟨⟨⟨Hsc, Hg, ⟨Hq0, Hq1, Hq2, Hq3, Hq4, Hq5, Hq6, Hq7⟩, Hh⟩, Ht⟩, ⟨%W, -, HW⟩, ⟨%d, Hob⟩⟩
  iapply (kernelRun23 c ((cfg23 a1).grid.coords t) (Memref.whole main_v90) (Memref.isWhole_whole _) (Memref.whole main_v89) (Memref.isWhole_whole _)
    (spec23_0.stage ((cfg23 a1).slots t 0)) (hstage23_0 (((cfg23 a1).slots t 0).cast nbuf23_0)) (tblw23 a1) hlt fullShare fullShare (V c main_v89) cc23_scratch0 W _)
  isplitl [Ht]; · iexact Ht
  isplitl [Hh]; · iexact Hh
  isplitl [Hob]; · iexists _; iexact Hob
  isplitl [Hq0]; · iexact Hq0
  isplitl [Hq1]; · iexact Hq1
  isplitl [Hq2]; · iexact Hq2
  isplitl [Hq3]; · iexact Hq3
  isplitl [Hq4]; · iexact Hq4
  isplitl [Hq5]; · iexact Hq5
  isplitl [Hq6]; · iexact Hq6
  isplitl [Hq7]; · iexact Hq7
  isplitl [HW]; · iexact HW
  iintro ⟨Ht, Hh, Hob, Hq0, Hq1, Hq2, Hq3, Hq4, Hq5, Hq6, Hq7, ⟨%W', HW'⟩⟩
  isplitl [Hsc Hg Hq0 Hq1 Hq2 Hq3 Hq4 Hq5 Hq6 Hq7 Hh Ht]
  · isplitl [Hsc Hg Hq0 Hq1 Hq2 Hq3 Hq4 Hq5 Hq6 Hq7 Hh]
    · isplitl [Hsc]; · iexact Hsc
      isplitl [Hg]; · iexact Hg
      isplitl [Hq0 Hq1 Hq2 Hq3 Hq4 Hq5 Hq6 Hq7]
      · isplitl [Hq0]; · iexact Hq0
        isplitl [Hq1]; · iexact Hq1
        isplitl [Hq2]; · iexact Hq2
        isplitl [Hq3]; · iexact Hq3
        isplitl [Hq4]; · iexact Hq4
        isplitl [Hq5]; · iexact Hq5
        isplitl [Hq6]; · iexact Hq6
        iexact Hq7
      iexact Hh
    iexact Ht
  isplitl [HW']
  · iexists W'; isplitr; · ipureintro; exact fun _ _ => Or.inl trivial
    iexact HW'
  rw [hr]
  iexact Hob

end Cert.Kernel.Hand

end
-- ==== Proof.K.GatherBody24.lean ====
/-
  Region 24's body obligation. The region runs the body of region 23 on its own table, array, output block and
  semaphores (the two kernel functions are one function), so the body's run is region 23's, cited at this region's eight
  semaphores; read with this region's invariant it is the pipeline's body obligation for the region's proof data.
-/
import proofs.«402049_j87351044866139_2_alg».proof.Proof.K.GatherDef24
import proofs.«402049_j87351044866139_2_alg».proof.Proof.K.GatherBody23

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Idealize.ShloMosaic.Transfers (shareDrop shareTokN)
open Cert.Kernel Cert.Kernel.Gen

variable {F : FTy → Type} [FloatOps F]

local notation "𝕄" => MT nD τ sig Unit (Elt F) ℕ (Pipeline.UD sig nD τ) ℕ

/-! ## The body obligation -/

variable (V : (c : Dev nD) → (b : Ref sig .tc) → Buf (Elt F) ((c : Thread nD τ).loc b))
variable (a1 : (pcfg24 (F := F)).Adm)

/-- The eight cells at zero, listed, each as the body names it. -/
theorem ownSems24_eq (c : Dev nD) :
    (Pipeline.ownSems0 (Ix := Unit) (Name := ℕ) (U := Pipeline.UD sig nD τ) (Lvl := ℕ) (Val := Elt F) (τ := τ) osem24 c : sProp 𝕄)
      = iprop(semVal ((c : Thread nD τ), cell23_0 cc24_scratch0) 0 ∗ semVal ((c : Thread nD τ), cell23_1 cc24_scratch0) 0 ∗ semVal ((c : Thread nD τ), cell23_2 cc24_scratch0) 0 ∗ semVal ((c : Thread nD τ), cell23_3 cc24_scratch0) 0 ∗ semVal ((c : Thread nD τ), cell23_4 cc24_scratch0) 0 ∗ semVal ((c : Thread nD τ), cell23_5 cc24_scratch0) 0 ∗ semVal ((c : Thread nD τ), cell23_6 cc24_scratch0) 0 ∗ semVal ((c : Thread nD τ), cell23_7 cc24_scratch0) 0) := by
  rw [Pipeline.ownSems0_eq_of_list c osem24 [0, 1, 2, 3, 4, 5, 6, 7] (by decide) (by decide)]; rfl

/-- The array the rows are read from, at the contents the region found it with. -/
theorem hbm24_eq (c : Dev nD) :
    (bigSep H24 (fun b => ((c : Thread nD τ).loc b) ↦{fullShare} V c b) : sProp 𝕄)
      = ((Memref.whole main_v89 : Memref sig .tc .hbm S50000x128 .f32).view.loc (c : Thread nD τ) ↦{fullShare} V c main_v89) := by
  unfold H24
  rw [BI.bigSep_eq_bigSepL_of_eq [main_v89] (by decide) (by decide)]; rfl

/-- The table, held whole at the full share, is owned at its contents. -/
theorem tblw24_eq (c : Dev nD) :
    (Pipeline.prefHeld pre24 c (fun _ => fullShare) a1.1 : sProp 𝕄)
      = owns (c : Thread nD τ) (Memref.whole main_v92 : Memref sig .tc .smem S100000 .i32) fullShare (tblw24 a1) := by
  unfold Pipeline.prefHeld
  rw [bigSep_W24, owns_whole]; rfl

set_option maxHeartbeats 4000000 in
/-- The body at every point: the invariant hands the run its table, the array, the eight cells at zero (the scoped rest and
    the generator register ride along), the core's record of waits goes in at whatever the points before left and comes
    back with this point's eight, and the output block, at anything, comes back reading the gathered rows. -/
theorem hbodyG24 [∀ e, Nonempty (Elt F e)] (hlt : ∀ k : S100000.Idx, (tblw24 a1 k).toNat < 50000) (c : Dev nD) :
    BodyObligationLoose (datG24 V a1 (gblk24 V a1) c) (defs₀ (F := F)) Variants.none () Set.univ := by
  refine BodyObligation.loose _ fun t => ?_
  rw [bigSep_W24, bigSep_W24]
  show iprop(iprop(Pipeline.ΦD osem24 spec24 H24 V c ∗ Pipeline.prefHeld pre24 c (fun _ => fullShare) a1.1)
        ∗ (datG24 V a1 (gblk24 V a1) c).owesAt () t.castSucc
        ∗ (∃ d, owns (c : Thread nD τ) (spec24_0.stage ((cfg24 a1).slots t 0)) fullShare ((datG24 V a1 (gblk24 V a1) c).before 0 t d)))
      ⊢ wp frame (wpE (defs₀ (F := F)) Variants.none c none) Set.univ
          (cc24__gather_kernel ((cfg24 a1).grid.coords t) (Memref.whole main_v92) (Memref.isWhole_whole _) (Memref.whole main_v89) (Memref.isWhole_whole _)
            (spec24_0.stage ((cfg24 a1).slots t 0)) (hstage24_0 (((cfg24 a1).slots t 0).cast nbuf24_0)) cc24_scratch0)
          (fun _ => iprop(iprop(Pipeline.ΦD osem24 spec24 H24 V c ∗ Pipeline.prefHeld pre24 c (fun _ => fullShare) a1.1)
            ∗ (datG24 V a1 (gblk24 V a1) c).owesAt () t.succ
            ∗ owns (c : Thread nD τ) (spec24_0.stage ((cfg24 a1).slots t 0)) fullShare (gblk24 V a1 c t)))
  rw [Pipeline.ΦD_eq, ownSems24_eq, hbm24_eq, tblw24_eq]
  unfold Dat.owesAt Pipeline.owesWithin
  rw [show (datG24 V a1 (gblk24 V a1) c).owed t.castSucc = 0 from rfl, show (datG24 V a1 (gblk24 V a1) c).owed t.succ = 0 from rfl]
  have hr : (Memref.whole main_v89 : Memref sig .tc .hbm S50000x128 .f32).view.read (Elt F) (V c main_v89) = V c main_v89 := by
    simp only [Memref.view_whole, View.read_whole]
  iintro ⟨⟨⟨Hsc, Hg, ⟨Hq0, Hq1, Hq2, Hq3, Hq4, Hq5, Hq6, Hq7⟩, Hh⟩, Ht⟩, ⟨%W, -, HW⟩, ⟨%d, Hob⟩⟩
  iapply (kernelRun23 c ((cfg24 a1).grid.coords t) (Memref.whole main_v92) (Memref.isWhole_whole _) (Memref.whole main_v89) (Memref.isWhole_whole _)
    (spec24_0.stage ((cfg24 a1).slots t 0)) (hstage24_0 (((cfg24 a1).slots t 0).cast nbuf24_0)) (tblw24 a1) hlt fullShare fullShare (V c main_v89) cc24_scratch0 W _)
  isplitl [Ht]; · iexact Ht
  isplitl [Hh]; · iexact Hh
  isplitl [Hob]; · iexists _; iexact Hob
  isplitl [Hq0]; · iexact Hq0
  isplitl [Hq1]; · iexact Hq1
  isplitl [Hq2]; · iexact Hq2
  isplitl [Hq3]; · iexact Hq3
  isplitl [Hq4]; · iexact Hq4
  isplitl [Hq5]; · iexact Hq5
  isplitl [Hq6]; · iexact Hq6
  isplitl [Hq7]; · iexact Hq7
  isplitl [HW]; · iexact HW
  iintro ⟨Ht, Hh, Hob, Hq0, Hq1, Hq2, Hq3, Hq4, Hq5, Hq6, Hq7, ⟨%W', HW'⟩⟩
  isplitl [Hsc Hg Hq0 Hq1 Hq2 Hq3 Hq4 Hq5 Hq6 Hq7 Hh Ht]
  · isplitl [Hsc Hg Hq0 Hq1 Hq2 Hq3 Hq4 Hq5 Hq6 Hq7 Hh]
    · isplitl [Hsc]; · iexact Hsc
      isplitl [Hg]; · iexact Hg
      isplitl [Hq0 Hq1 Hq2 Hq3 Hq4 Hq5 Hq6 Hq7]
      · isplitl [Hq0]; · iexact Hq0
        isplitl [Hq1]; · iexact Hq1
        isplitl [Hq2]; · iexact Hq2
        isplitl [Hq3]; · iexact Hq3
        isplitl [Hq4]; · iexact Hq4
        isplitl [Hq5]; · iexact Hq5
        isplitl [Hq6]; · iexact Hq6
        iexact Hq7
      iexact Hh
    iexact Ht
  isplitl [HW']
  · iexists W'; isplitr; · ipureintro; exact fun _ _ => Or.inl trivial
    iexact HW'
  rw [hr]
  iexact Hob

end Cert.Kernel.Hand

end
-- ==== Proof.K.Regs4.lean ====
import proofs.«402049_j87351044866139_2_alg».proof.Proof.K.Fam
import proofs.«402049_j87351044866139_2_alg».proof.Proof.K.Tables
import proofs.«402049_j87351044866139_2_alg».proof.Proof.K.GatherBody20
import proofs.«402049_j87351044866139_2_alg».proof.Proof.K.GatherBody21
import proofs.«402049_j87351044866139_2_alg».proof.Proof.K.GatherBody23
import proofs.«402049_j87351044866139_2_alg».proof.Proof.K.GatherBody24
import Idealize.ShloMosaic.Lib.Pipeline.RegionsLoop

/-! The records of regions 20 to 24 over the thread states: each entered from every unscoped buffer at the real valuation
    before it and left at the one after it; for a gather region, first that every word of its table is a node's number. -/

set_option maxRecDepth 16384

noncomputable section

namespace Cert.Kernel.Hand

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg BodyObligation BodyObligationLoose)

variable {F : FTy → Type} [FloatOps F]

local notation "𝕄" => MT nD τ sig Unit (Elt F) ℕ UU ℕ

set_option maxHeartbeats 1000000 in
/-- Every word of region 20's table is a node's number: the data's table is what the real valuation at the region's entry
    holds in the table's buffer; that valuation is the run's own, whose table is the closed one of the launch memory. -/
theorem hlt20 (m : (ℓ : Loc nD τ sig) → Buf (Elt F) ℓ) (hm : ∀ i : S2x800000.Idx, ((V0 m c₀ main_arg1 : IVec S2x800000 32) i).toNat < 50000) :
    ∀ k : S85000.Idx, (tblw20 (a20 m) k).toNat < 50000 := by
  have h1 : tblw20 (a20 m) = (U43 m c₀ main_v78 : IVec S85000 32) := by
    unfold a20
    rfl
  have h2 : ∀ W : Valuation τ sig (Elt F), V43 m (outsU m) c₀ = W → (W main_v78 : IVec S85000 32) = tbl20 m c₀ :=
    fun W hW => by subst hW; exact tbl20_eq m (outsU m) c₀
  have e : tblw20 (a20 m) = tbl20 m c₀ := h1.trans (h2 (U43 m c₀) (V43_eq m c₀))
  intro k
  rw [e]; exact tbl20_lt m c₀ hm k
set_option maxHeartbeats 1000000 in
set_option backward.isDefEq.respectTransparency.types false in
/-- REGION 20 over the thread state: entered from every unscoped buffer at `U43`, left at `U44`. -/
def reg20 (m : (ℓ : Loc nD τ sig) → Buf (Elt F) ℓ) (hm : ∀ i : S2x800000.Idx, ((V0 m c₀ main_arg1 : IVec S2x800000 32) i).toNat < 50000) :
    RegionSeg (pcfgs (F := F)) (adm m) (pdats m) () defs₀ 𝒱₀ L lv 20 where
  win := (launch20 (F := F)).win.to₀
  block_pos := (launch20 (F := F)).block_pos
  stage_whole := (launch20 (F := F)).stage_whole
  K := Fin 8
  osem := osem20
  ho := ownSemFacts20
  hbody c := hbodyG20 (atTc (U43 m)) (a20 m) (hlt20 m hm) c
  hwaits := Pipeline.hwaits_of_owed_zero _ _ _ _ L lv 20 fun _ _ => rfl
  pre c := iprop(StableHlo.held (c : Thread nD τ) (Pipeline.ucRefs τ sig) (U43 m c) ∗ R (F := F) c)
  post c := iprop(StableHlo.held (c : Thread nD τ) (Pipeline.ucRefs τ sig) (U44 m c) ∗ R (F := F) c)
  X c := XG20 (atTc (U43 m)) c
  Y c := YG20 (atTc (U43 m)) (a20 m) c
  Z c := ZG20 (atTc (U43 m)) c
  hentry c := by
    have hsplit := Pipeline.arrays_of_unscopedBufs (p := 20) (pcfgs (F := F)) (adm m) (pdats m) (launch20 (F := F)).win (launch20 (F := F)).arr_whole c
      ((pdats m 20 c).share_full fun _ => rfl) (atTc (U43 m) c) (fun _ => rfl)
    have h := hentryG20 (atTc (U43 m)) (a20 m) (gblk20 (atTc (U43 m)) (a20 m)) c (hpf20 m c) hsplit
    rw [Pipeline.unscopedBufs_held] at h
    exact h
  hin c := hinG20 (atTc (U43 m)) (a20 m) (gblk20 (atTc (U43 m)) (a20 m)) c
  hout c := houtG20 (atTc (U43 m)) (a20 m) (gblk20 (atTc (U43 m)) (a20 m)) c
  hexit c := by
    have hjoin := Pipeline.unscopedBufs_of_arrays (p := 20) (pcfgs (F := F)) (adm m) (Ix := Unit) (Name := ℕ) (U := UU) (Lvl := ℕ)
      (launch20 (F := F)).win (launch20 (F := F)).arr_whole c (pdats m) ((pdats m 20 c).share_full fun _ => rfl)
      (atTc (U43 m) c) (atTc (U44 m) c) ((pdats m 20 c).arrAt · (cfg20 (a20 m)).N) (hF20 m c) (hrest20 m c)
    have h := hexitG20 (atTc (U43 m)) (a20 m) (gblk20 (atTc (U43 m)) (a20 m)) (atTc (U44 m)) c (hpf20 m c) hjoin
    rw [Pipeline.unscopedBufs_held] at h
    exact h

set_option maxHeartbeats 1000000 in
/-- Every word of region 21's table is a node's number: the data's table is what the real valuation at the region's entry
    holds in the table's buffer; that valuation is the run's own, whose table is the closed one of the launch memory. -/
theorem hlt21 (m : (ℓ : Loc nD τ sig) → Buf (Elt F) ℓ) (hm : ∀ i : S2x800000.Idx, ((V0 m c₀ main_arg1 : IVec S2x800000 32) i).toNat < 50000) :
    ∀ k : S85000.Idx, (tblw21 (a21 m) k).toNat < 50000 := by
  have h1 : tblw21 (a21 m) = (U45 m c₀ main_v80 : IVec S85000 32) := by
    unfold a21
    rfl
  have h2 : ∀ W : Valuation τ sig (Elt F), V45 m (outsU m) c₀ = W → (W main_v80 : IVec S85000 32) = tbl21 m c₀ :=
    fun W hW => by subst hW; exact tbl21_eq m (outsU m) c₀
  have e : tblw21 (a21 m) = tbl21 m c₀ := h1.trans (h2 (U45 m c₀) (V45_eq m c₀))
  intro k
  rw [e]; exact tbl21_lt m c₀ hm k
set_option maxHeartbeats 1000000 in
set_option backward.isDefEq.respectTransparency.types false in
/-- REGION 21 over the thread state: entered from every unscoped buffer at `U45`, left at `U46`. -/
def reg21 (m : (ℓ : Loc nD τ sig) → Buf (Elt F) ℓ) (hm : ∀ i : S2x800000.Idx, ((V0 m c₀ main_arg1 : IVec S2x800000 32) i).toNat < 50000) :
    RegionSeg (pcfgs (F := F)) (adm m) (pdats m) () defs₀ 𝒱₀ L lv 21 where
  win := (launch21 (F := F)).win.to₀
  block_pos := (launch21 (F := F)).block_pos
  stage_whole := (launch21 (F := F)).stage_whole
  K := Fin 8
  osem := osem21
  ho := ownSemFacts21
  hbody c := hbodyG21 (atTc (U45 m)) (a21 m) (hlt21 m hm) c
  hwaits := Pipeline.hwaits_of_owed_zero _ _ _ _ L lv 21 fun _ _ => rfl
  pre c := iprop(StableHlo.held (c : Thread nD τ) (Pipeline.ucRefs τ sig) (U45 m c) ∗ R (F := F) c)
  post c := iprop(StableHlo.held (c : Thread nD τ) (Pipeline.ucRefs τ sig) (U46 m c) ∗ R (F := F) c)
  X c := XG21 (atTc (U45 m)) c
  Y c := YG21 (atTc (U45 m)) (a21 m) c
  Z c := ZG21 (atTc (U45 m)) c
  hentry c := by
    have hsplit := Pipeline.arrays_of_unscopedBufs (p := 21) (pcfgs (F := F)) (adm m) (pdats m) (launch21 (F := F)).win (launch21 (F := F)).arr_whole c
      ((pdats m 21 c).share_full fun _ => rfl) (atTc (U45 m) c) (fun _ => rfl)
    have h := hentryG21 (atTc (U45 m)) (a21 m) (gblk21 (atTc (U45 m)) (a21 m)) c (hpf21 m c) hsplit
    rw [Pipeline.unscopedBufs_held] at h
    exact h
  hin c := hinG21 (atTc (U45 m)) (a21 m) (gblk21 (atTc (U45 m)) (a21 m)) c
  hout c := houtG21 (atTc (U45 m)) (a21 m) (gblk21 (atTc (U45 m)) (a21 m)) c
  hexit c := by
    have hjoin := Pipeline.unscopedBufs_of_arrays (p := 21) (pcfgs (F := F)) (adm m) (Ix := Unit) (Name := ℕ) (U := UU) (Lvl := ℕ)
      (launch21 (F := F)).win (launch21 (F := F)).arr_whole c (pdats m) ((pdats m 21 c).share_full fun _ => rfl)
      (atTc (U45 m) c) (atTc (U46 m) c) ((pdats m 21 c).arrAt · (cfg21 (a21 m)).N) (hF21 m c) (hrest21 m c)
    have h := hexitG21 (atTc (U45 m)) (a21 m) (gblk21 (atTc (U45 m)) (a21 m)) (atTc (U46 m)) c (hpf21 m c) hjoin
    rw [Pipeline.unscopedBufs_held] at h
    exact h

set_option maxHeartbeats 1000000 in
set_option backward.isDefEq.respectTransparency.types false in
/-- REGION 22 over the thread state: entered from every unscoped buffer at `U47`, left at `U48`. -/
def reg22 (m : (ℓ : Loc nD τ sig) → Buf (Elt F) ℓ) : RegionSeg (pcfgs (F := F)) (adm m) (pdats m) () defs₀ 𝒱₀ L lv 22 where
  win := (launch22 (F := F)).win.to₀
  block_pos := (launch22 (F := F)).block_pos
  stage_whole := (launch22 (F := F)).stage_whole
  K := PEmpty
  osem k := k.elim
  ho := Pipeline.OwnSemFacts.none _
  hbody c := (body_obligation22 (atTc (U47 m)) c).loose
  hwaits := Pipeline.hwaits_of_owed_zero _ _ _ _ L lv 22 fun _ _ => rfl
  pre c := iprop(StableHlo.held (c : Thread nD τ) (Pipeline.ucRefs τ sig) (U47 m c) ∗ R (F := F) c)
  post c := iprop(StableHlo.held (c : Thread nD τ) (Pipeline.ucRefs τ sig) (U48 m c) ∗ R (F := F) c)
  X c := iprop(∃ r, prngReg c r)
  Y c := iprop(∃ r, prngReg c r)
  Z c := Pipeline.unscopedRest (Ix := Unit) (Name := ℕ) (U := UU) (Lvl := ℕ) spec22 c (atTc (U47 m) c)
  hentry c := by
    have hsplit := Pipeline.arrays_of_unscopedBufs (p := 22) (pcfgs (F := F)) (adm m) (pdats m) (launch22 (F := F)).win (launch22 (F := F)).arr_whole c
      ((pdats m 22 c).share_full fun _ => rfl) (atTc (U47 m) c) (fun _ => rfl)
    rw [Pipeline.unscopedBufs_held] at hsplit
    exact enterA c (U47 m c) hsplit (prefHeld_none_intro c _ _) (owesAt_first c _ rfl rfl)
  hin c := by
    rw [show (pdats m 22 c).Φ 0 = Pipeline.ΦA spec22 c from rfl]; unfold Pipeline.ΦA
    iintro ⟨Hp, -, Hr⟩
    isplitl [Hr]; · iexact Hr
    iexact Hp
  hout c := by
    rw [Pipeline.ownSems0_none, show (pdats m 22 c).Φ (Fin.last _) = Pipeline.ΦA spec22 c from rfl]; unfold Pipeline.ΦA
    iintro ⟨Hr, Hp⟩
    isplitl [Hp]; · iexact Hp
    isplitr; · iempintro
    iexact Hr
  hexit c := by
    have hjoin := Pipeline.unscopedBufs_of_arrays (p := 22) (pcfgs (F := F)) (adm m) (Ix := Unit) (Name := ℕ) (U := UU) (Lvl := ℕ)
      (launch22 (F := F)).win (launch22 (F := F)).arr_whole c (pdats m) ((pdats m 22 c).share_full fun _ => rfl)
      (atTc (U47 m) c) (atTc (U48 m) c) ((pdats m 22 c).arrAt · cfg22.N) (hF22 m c) (hrest22 m c)
    rw [Pipeline.unscopedBufs_held] at hjoin
    exact leaveA c (U48 m c) hjoin (owes_of_owesAt_last c _ rfl)

set_option maxHeartbeats 1000000 in
/-- Every word of region 23's table is a node's number: the data's table is what the real valuation at the region's entry
    holds in the table's buffer; that valuation is the run's own, whose table is the closed one of the launch memory. -/
theorem hlt23 (m : (ℓ : Loc nD τ sig) → Buf (Elt F) ℓ) (hm : ∀ i : S2x800000.Idx, ((V0 m c₀ main_arg1 : IVec S2x800000 32) i).toNat < 50000) :
    ∀ k : S100000.Idx, (tblw23 (a23 m) k).toNat < 50000 := by
  have h1 : tblw23 (a23 m) = (U49 m c₀ main_v90 : IVec S100000 32) := by
    unfold a23
    rfl
  have h2 : ∀ W : Valuation τ sig (Elt F), V49 m (outsU m) c₀ = W → (W main_v90 : IVec S100000 32) = tbl23 m c₀ :=
    fun W hW => by subst hW; exact tbl23_eq m (outsU m) c₀
  have e : tblw23 (a23 m) = tbl23 m c₀ := h1.trans (h2 (U49 m c₀) (V49_eq m c₀))
  intro k
  rw [e]; exact tbl23_lt m c₀ hm k
set_option maxHeartbeats 1000000 in
set_option backward.isDefEq.respectTransparency.types false in
/-- REGION 23 over the thread state: entered from every unscoped buffer at `U49`, left at `U50`. -/
def reg23 (m : (ℓ : Loc nD τ sig) → Buf (Elt F) ℓ) (hm : ∀ i : S2x800000.Idx, ((V0 m c₀ main_arg1 : IVec S2x800000 32) i).toNat < 50000) :
    RegionSeg (pcfgs (F := F)) (adm m) (pdats m) () defs₀ 𝒱₀ L lv 23 where
  win := (launch23 (F := F)).win.to₀
  block_pos := (launch23 (F := F)).block_pos
  stage_whole := (launch23 (F := F)).stage_whole
  K := Fin 8
  osem := osem23
  ho := ownSemFacts23
  hbody c := hbodyG23 (atTc (U49 m)) (a23 m) (hlt23 m hm) c
  hwaits := Pipeline.hwaits_of_owed_zero _ _ _ _ L lv 23 fun _ _ => rfl
  pre c := iprop(StableHlo.held (c : Thread nD τ) (Pipeline.ucRefs τ sig) (U49 m c) ∗ R (F := F) c)
  post c := iprop(StableHlo.held (c : Thread nD τ) (Pipeline.ucRefs τ sig) (U50 m c) ∗ R (F := F) c)
  X c := XG23 (atTc (U49 m)) c
  Y c := YG23 (atTc (U49 m)) (a23 m) c
  Z c := ZG23 (atTc (U49 m)) c
  hentry c := by
    have hsplit := Pipeline.arrays_of_unscopedBufs (p := 23) (pcfgs (F := F)) (adm m) (pdats m) (launch23 (F := F)).win (launch23 (F := F)).arr_whole c
      ((pdats m 23 c).share_full fun _ => rfl) (atTc (U49 m) c) (fun _ => rfl)
    have h := hentryG23 (atTc (U49 m)) (a23 m) (gblk23 (atTc (U49 m)) (a23 m)) c (hpf23 m c) hsplit
    rw [Pipeline.unscopedBufs_held] at h
    exact h
  hin c := hinG23 (atTc (U49 m)) (a23 m) (gblk23 (atTc (U49 m)) (a23 m)) c
  hout c := houtG23 (atTc (U49 m)) (a23 m) (gblk23 (atTc (U49 m)) (a23 m)) c
  hexit c := by
    have hjoin := Pipeline.unscopedBufs_of_arrays (p := 23) (pcfgs (F := F)) (adm m) (Ix := Unit) (Name := ℕ) (U := UU) (Lvl := ℕ)
      (launch23 (F := F)).win (launch23 (F := F)).arr_whole c (pdats m) ((pdats m 23 c).share_full fun _ => rfl)
      (atTc (U49 m) c) (atTc (U50 m) c) ((pdats m 23 c).arrAt · (cfg23 (a23 m)).N) (hF23 m c) (hrest23 m c)
    have h := hexitG23 (atTc (U49 m)) (a23 m) (gblk23 (atTc (U49 m)) (a23 m)) (atTc (U50 m)) c (hpf23 m c) hjoin
    rw [Pipeline.unscopedBufs_held] at h
    exact h

set_option maxHeartbeats 1000000 in
/-- Every word of region 24's table is a node's number: the data's table is what the real valuation at the region's entry
    holds in the table's buffer; that valuation is the run's own, whose table is the closed one of the launch memory. -/
theorem hlt24 (m : (ℓ : Loc nD τ sig) → Buf (Elt F) ℓ) (hm : ∀ i : S2x800000.Idx, ((V0 m c₀ main_arg1 : IVec S2x800000 32) i).toNat < 50000) :
    ∀ k : S100000.Idx, (tblw24 (a24 m) k).toNat < 50000 := by
  have h1 : tblw24 (a24 m) = (U51 m c₀ main_v92 : IVec S100000 32) := by
    unfold a24
    rfl
  have h2 : ∀ W : Valuation τ sig (Elt F), V51 m (outsU m) c₀ = W → (W main_v92 : IVec S100000 32) = tbl24 m c₀ :=
    fun W hW => by subst hW; exact tbl24_eq m (outsU m) c₀
  have e : tblw24 (a24 m) = tbl24 m c₀ := h1.trans (h2 (U51 m c₀) (V51_eq m c₀))
  intro k
  rw [e]; exact tbl24_lt m c₀ hm k
set_option maxHeartbeats 1000000 in
set_option backward.isDefEq.respectTransparency.types false in
/-- REGION 24 over the thread state: entered from every unscoped buffer at `U51`, left at `U52`. -/
def reg24 (m : (ℓ : Loc nD τ sig) → Buf (Elt F) ℓ) (hm : ∀ i : S2x800000.Idx, ((V0 m c₀ main_arg1 : IVec S2x800000 32) i).toNat < 50000) :
    RegionSeg (pcfgs (F := F)) (adm m) (pdats m) () defs₀ 𝒱₀ L lv 24 where
  win := (launch24 (F := F)).win.to₀
  block_pos := (launch24 (F := F)).block_pos
  stage_whole := (launch24 (F := F)).stage_whole
  K := Fin 8
  osem := osem24
  ho := ownSemFacts24
  hbody c := hbodyG24 (atTc (U51 m)) (a24 m) (hlt24 m hm) c
  hwaits := Pipeline.hwaits_of_owed_zero _ _ _ _ L lv 24 fun _ _ => rfl
  pre c := iprop(StableHlo.held (c : Thread nD τ) (Pipeline.ucRefs τ sig) (U51 m c) ∗ R (F := F) c)
  post c := iprop(StableHlo.held (c : Thread nD τ) (Pipeline.ucRefs τ sig) (U52 m c) ∗ R (F := F) c)
  X c := XG24 (atTc (U51 m)) c
  Y c := YG24 (atTc (U51 m)) (a24 m) c
  Z c := ZG24 (atTc (U51 m)) c
  hentry c := by
    have hsplit := Pipeline.arrays_of_unscopedBufs (p := 24) (pcfgs (F := F)) (adm m) (pdats m) (launch24 (F := F)).win (launch24 (F := F)).arr_whole c
      ((pdats m 24 c).share_full fun _ => rfl) (atTc (U51 m) c) (fun _ => rfl)
    have h := hentryG24 (atTc (U51 m)) (a24 m) (gblk24 (atTc (U51 m)) (a24 m)) c (hpf24 m c) hsplit
    rw [Pipeline.unscopedBufs_held] at h
    exact h
  hin c := hinG24 (atTc (U51 m)) (a24 m) (gblk24 (atTc (U51 m)) (a24 m)) c
  hout c := houtG24 (atTc (U51 m)) (a24 m) (gblk24 (atTc (U51 m)) (a24 m)) c
  hexit c := by
    have hjoin := Pipeline.unscopedBufs_of_arrays (p := 24) (pcfgs (F := F)) (adm m) (Ix := Unit) (Name := ℕ) (U := UU) (Lvl := ℕ)
      (launch24 (F := F)).win (launch24 (F := F)).arr_whole c (pdats m) ((pdats m 24 c).share_full fun _ => rfl)
      (atTc (U51 m) c) (atTc (U52 m) c) ((pdats m 24 c).arrAt · (cfg24 (a24 m)).N) (hF24 m c) (hrest24 m c)
    have h := hexitG24 (atTc (U51 m)) (a24 m) (gblk24 (atTc (U51 m)) (a24 m)) (atTc (U52 m)) c (hpf24 m c) hjoin
    rw [Pipeline.unscopedBufs_held] at h
    exact h

end Cert.Kernel.Hand

end
-- ==== Proof.K.GatherBody25.lean ====
/-
  Region 25's body obligation. The region runs the body of region 23 on its own table, array, output block and
  semaphores (the two kernel functions are one function), so the body's run is region 23's, cited at this region's eight
  semaphores; read with this region's invariant it is the pipeline's body obligation for the region's proof data.
-/
import proofs.«402049_j87351044866139_2_alg».proof.Proof.K.GatherDef25
import proofs.«402049_j87351044866139_2_alg».proof.Proof.K.GatherBody23

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Idealize.ShloMosaic.Transfers (shareDrop shareTokN)
open Cert.Kernel Cert.Kernel.Gen

variable {F : FTy → Type} [FloatOps F]

local notation "𝕄" => MT nD τ sig Unit (Elt F) ℕ (Pipeline.UD sig nD τ) ℕ

/-! ## The body obligation -/

variable (V : (c : Dev nD) → (b : Ref sig .tc) → Buf (Elt F) ((c : Thread nD τ).loc b))
variable (a1 : (pcfg25 (F := F)).Adm)

/-- The eight cells at zero, listed, each as the body names it. -/
theorem ownSems25_eq (c : Dev nD) :
    (Pipeline.ownSems0 (Ix := Unit) (Name := ℕ) (U := Pipeline.UD sig nD τ) (Lvl := ℕ) (Val := Elt F) (τ := τ) osem25 c : sProp 𝕄)
      = iprop(semVal ((c : Thread nD τ), cell23_0 cc25_scratch0) 0 ∗ semVal ((c : Thread nD τ), cell23_1 cc25_scratch0) 0 ∗ semVal ((c : Thread nD τ), cell23_2 cc25_scratch0) 0 ∗ semVal ((c : Thread nD τ), cell23_3 cc25_scratch0) 0 ∗ semVal ((c : Thread nD τ), cell23_4 cc25_scratch0) 0 ∗ semVal ((c : Thread nD τ), cell23_5 cc25_scratch0) 0 ∗ semVal ((c : Thread nD τ), cell23_6 cc25_scratch0) 0 ∗ semVal ((c : Thread nD τ), cell23_7 cc25_scratch0) 0) := by
  rw [Pipeline.ownSems0_eq_of_list c osem25 [0, 1, 2, 3, 4, 5, 6, 7] (by decide) (by decide)]; rfl

/-- The array the rows are read from, at the contents the region found it with. -/
theorem hbm25_eq (c : Dev nD) :
    (bigSep H25 (fun b => ((c : Thread nD τ).loc b) ↦{fullShare} V c b) : sProp 𝕄)
      = ((Memref.whole main_v89 : Memref sig .tc .hbm S50000x128 .f32).view.loc (c : Thread nD τ) ↦{fullShare} V c main_v89) := by
  unfold H25
  rw [BI.bigSep_eq_bigSepL_of_eq [main_v89] (by decide) (by decide)]; rfl

/-- The table, held whole at the full share, is owned at its contents. -/
theorem tblw25_eq (c : Dev nD) :
    (Pipeline.prefHeld pre25 c (fun _ => fullShare) a1.1 : sProp 𝕄)
      = owns (c : Thread nD τ) (Memref.whole main_v94 : Memref sig .tc .smem S100000 .i32) fullShare (tblw25 a1) := by
  unfold Pipeline.prefHeld
  rw [bigSep_W25, owns_whole]; rfl

set_option maxHeartbeats 4000000 in
/-- The body at every point: the invariant hands the run its table, the array, the eight cells at zero (the scoped rest and
    the generator register ride along), the core's record of waits goes in at whatever the points before left and comes
    back with this point's eight, and the output block, at anything, comes back reading the gathered rows. -/
theorem hbodyG25 [∀ e, Nonempty (Elt F e)] (hlt : ∀ k : S100000.Idx, (tblw25 a1 k).toNat < 50000) (c : Dev nD) :
    BodyObligationLoose (datG25 V a1 (gblk25 V a1) c) (defs₀ (F := F)) Variants.none () Set.univ := by
  refine BodyObligation.loose _ fun t => ?_
  rw [bigSep_W25, bigSep_W25]
  show iprop(iprop(Pipeline.ΦD osem25 spec25 H25 V c ∗ Pipeline.prefHeld pre25 c (fun _ => fullShare) a1.1)
        ∗ (datG25 V a1 (gblk25 V a1) c).owesAt () t.castSucc
        ∗ (∃ d, owns (c : Thread nD τ) (spec25_0.stage ((cfg25 a1).slots t 0)) fullShare ((datG25 V a1 (gblk25 V a1) c).before 0 t d)))
      ⊢ wp frame (wpE (defs₀ (F := F)) Variants.none c none) Set.univ
          (cc25__gather_kernel ((cfg25 a1).grid.coords t) (Memref.whole main_v94) (Memref.isWhole_whole _) (Memref.whole main_v89) (Memref.isWhole_whole _)
            (spec25_0.stage ((cfg25 a1).slots t 0)) (hstage25_0 (((cfg25 a1).slots t 0).cast nbuf25_0)) cc25_scratch0)
          (fun _ => iprop(iprop(Pipeline.ΦD osem25 spec25 H25 V c ∗ Pipeline.prefHeld pre25 c (fun _ => fullShare) a1.1)
            ∗ (datG25 V a1 (gblk25 V a1) c).owesAt () t.succ
            ∗ owns (c : Thread nD τ) (spec25_0.stage ((cfg25 a1).slots t 0)) fullShare (gblk25 V a1 c t)))
  rw [Pipeline.ΦD_eq, ownSems25_eq, hbm25_eq, tblw25_eq]
  unfold Dat.owesAt Pipeline.owesWithin
  rw [show (datG25 V a1 (gblk25 V a1) c).owed t.castSucc = 0 from rfl, show (datG25 V a1 (gblk25 V a1) c).owed t.succ = 0 from rfl]
  have hr : (Memref.whole main_v89 : Memref sig .tc .hbm S50000x128 .f32).view.read (Elt F) (V c main_v89) = V c main_v89 := by
    simp only [Memref.view_whole, View.read_whole]
  iintro ⟨⟨⟨Hsc, Hg, ⟨Hq0, Hq1, Hq2, Hq3, Hq4, Hq5, Hq6, Hq7⟩, Hh⟩, Ht⟩, ⟨%W, -, HW⟩, ⟨%d, Hob⟩⟩
  iapply (kernelRun23 c ((cfg25 a1).grid.coords t) (Memref.whole main_v94) (Memref.isWhole_whole _) (Memref.whole main_v89) (Memref.isWhole_whole _)
    (spec25_0.stage ((cfg25 a1).slots t 0)) (hstage25_0 (((cfg25 a1).slots t 0).cast nbuf25_0)) (tblw25 a1) hlt fullShare fullShare (V c main_v89) cc25_scratch0 W _)
  isplitl [Ht]; · iexact Ht
  isplitl [Hh]; · iexact Hh
  isplitl [Hob]; · iexists _; iexact Hob
  isplitl [Hq0]; · iexact Hq0
  isplitl [Hq1]; · iexact Hq1
  isplitl [Hq2]; · iexact Hq2
  isplitl [Hq3]; · iexact Hq3
  isplitl [Hq4]; · iexact Hq4
  isplitl [Hq5]; · iexact Hq5
  isplitl [Hq6]; · iexact Hq6
  isplitl [Hq7]; · iexact Hq7
  isplitl [HW]; · iexact HW
  iintro ⟨Ht, Hh, Hob, Hq0, Hq1, Hq2, Hq3, Hq4, Hq5, Hq6, Hq7, ⟨%W', HW'⟩⟩
  isplitl [Hsc Hg Hq0 Hq1 Hq2 Hq3 Hq4 Hq5 Hq6 Hq7 Hh Ht]
  · isplitl [Hsc Hg Hq0 Hq1 Hq2 Hq3 Hq4 Hq5 Hq6 Hq7 Hh]
    · isplitl [Hsc]; · iexact Hsc
      isplitl [Hg]; · iexact Hg
      isplitl [Hq0 Hq1 Hq2 Hq3 Hq4 Hq5 Hq6 Hq7]
      · isplitl [Hq0]; · iexact Hq0
        isplitl [Hq1]; · iexact Hq1
        isplitl [Hq2]; · iexact Hq2
        isplitl [Hq3]; · iexact Hq3
        isplitl [Hq4]; · iexact Hq4
        isplitl [Hq5]; · iexact Hq5
        isplitl [Hq6]; · iexact Hq6
        iexact Hq7
      iexact Hh
    iexact Ht
  isplitl [HW']
  · iexists W'; isplitr; · ipureintro; exact fun _ _ => Or.inl trivial
    iexact HW'
  rw [hr]
  iexact Hob

end Cert.Kernel.Hand

end
-- ==== Proof.K.GatherBody26.lean ====
/-
  Region 26's body obligation. The region runs the body of region 23 on its own table, array, output block and
  semaphores (the two kernel functions are one function), so the body's run is region 23's, cited at this region's eight
  semaphores; read with this region's invariant it is the pipeline's body obligation for the region's proof data.
-/
import proofs.«402049_j87351044866139_2_alg».proof.Proof.K.GatherDef26
import proofs.«402049_j87351044866139_2_alg».proof.Proof.K.GatherBody23

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Idealize.ShloMosaic.Transfers (shareDrop shareTokN)
open Cert.Kernel Cert.Kernel.Gen

variable {F : FTy → Type} [FloatOps F]

local notation "𝕄" => MT nD τ sig Unit (Elt F) ℕ (Pipeline.UD sig nD τ) ℕ

/-! ## The body obligation -/

variable (V : (c : Dev nD) → (b : Ref sig .tc) → Buf (Elt F) ((c : Thread nD τ).loc b))
variable (a1 : (pcfg26 (F := F)).Adm)

/-- The eight cells at zero, listed, each as the body names it. -/
theorem ownSems26_eq (c : Dev nD) :
    (Pipeline.ownSems0 (Ix := Unit) (Name := ℕ) (U := Pipeline.UD sig nD τ) (Lvl := ℕ) (Val := Elt F) (τ := τ) osem26 c : sProp 𝕄)
      = iprop(semVal ((c : Thread nD τ), cell23_0 cc26_scratch0) 0 ∗ semVal ((c : Thread nD τ), cell23_1 cc26_scratch0) 0 ∗ semVal ((c : Thread nD τ), cell23_2 cc26_scratch0) 0 ∗ semVal ((c : Thread nD τ), cell23_3 cc26_scratch0) 0 ∗ semVal ((c : Thread nD τ), cell23_4 cc26_scratch0) 0 ∗ semVal ((c : Thread nD τ), cell23_5 cc26_scratch0) 0 ∗ semVal ((c : Thread nD τ), cell23_6 cc26_scratch0) 0 ∗ semVal ((c : Thread nD τ), cell23_7 cc26_scratch0) 0) := by
  rw [Pipeline.ownSems0_eq_of_list c osem26 [0, 1, 2, 3, 4, 5, 6, 7] (by decide) (by decide)]; rfl

/-- The array the rows are read from, at the contents the region found it with. -/
theorem hbm26_eq (c : Dev nD) :
    (bigSep H26 (fun b => ((c : Thread nD τ).loc b) ↦{fullShare} V c b) : sProp 𝕄)
      = ((Memref.whole main_v89 : Memref sig .tc .hbm S50000x128 .f32).view.loc (c : Thread nD τ) ↦{fullShare} V c main_v89) := by
  unfold H26
  rw [BI.bigSep_eq_bigSepL_of_eq [main_v89] (by decide) (by decide)]; rfl

/-- The table, held whole at the full share, is owned at its contents. -/
theorem tblw26_eq (c : Dev nD) :
    (Pipeline.prefHeld pre26 c (fun _ => fullShare) a1.1 : sProp 𝕄)
      = owns (c : Thread nD τ) (Memref.whole main_v96 : Memref sig .tc .smem S100000 .i32) fullShare (tblw26 a1) := by
  unfold Pipeline.prefHeld
  rw [bigSep_W26, owns_whole]; rfl

set_option maxHeartbeats 4000000 in
/-- The body at every point: the invariant hands the run its table, the array, the eight cells at zero (the scoped rest and
    the generator register ride along), the core's record of waits goes in at whatever the points before left and comes
    back with this point's eight, and the output block, at anything, comes back reading the gathered rows. -/
theorem hbodyG26 [∀ e, Nonempty (Elt F e)] (hlt : ∀ k : S100000.Idx, (tblw26 a1 k).toNat < 50000) (c : Dev nD) :
    BodyObligationLoose (datG26 V a1 (gblk26 V a1) c) (defs₀ (F := F)) Variants.none () Set.univ := by
  refine BodyObligation.loose _ fun t => ?_
  rw [bigSep_W26, bigSep_W26]
  show iprop(iprop(Pipeline.ΦD osem26 spec26 H26 V c ∗ Pipeline.prefHeld pre26 c (fun _ => fullShare) a1.1)
        ∗ (datG26 V a1 (gblk26 V a1) c).owesAt () t.castSucc
        ∗ (∃ d, owns (c : Thread nD τ) (spec26_0.stage ((cfg26 a1).slots t 0)) fullShare ((datG26 V a1 (gblk26 V a1) c).before 0 t d)))
      ⊢ wp frame (wpE (defs₀ (F := F)) Variants.none c none) Set.univ
          (cc26__gather_kernel ((cfg26 a1).grid.coords t) (Memref.whole main_v96) (Memref.isWhole_whole _) (Memref.whole main_v89) (Memref.isWhole_whole _)
            (spec26_0.stage ((cfg26 a1).slots t 0)) (hstage26_0 (((cfg26 a1).slots t 0).cast nbuf26_0)) cc26_scratch0)
          (fun _ => iprop(iprop(Pipeline.ΦD osem26 spec26 H26 V c ∗ Pipeline.prefHeld pre26 c (fun _ => fullShare) a1.1)
            ∗ (datG26 V a1 (gblk26 V a1) c).owesAt () t.succ
            ∗ owns (c : Thread nD τ) (spec26_0.stage ((cfg26 a1).slots t 0)) fullShare (gblk26 V a1 c t)))
  rw [Pipeline.ΦD_eq, ownSems26_eq, hbm26_eq, tblw26_eq]
  unfold Dat.owesAt Pipeline.owesWithin
  rw [show (datG26 V a1 (gblk26 V a1) c).owed t.castSucc = 0 from rfl, show (datG26 V a1 (gblk26 V a1) c).owed t.succ = 0 from rfl]
  have hr : (Memref.whole main_v89 : Memref sig .tc .hbm S50000x128 .f32).view.read (Elt F) (V c main_v89) = V c main_v89 := by
    simp only [Memref.view_whole, View.read_whole]
  iintro ⟨⟨⟨Hsc, Hg, ⟨Hq0, Hq1, Hq2, Hq3, Hq4, Hq5, Hq6, Hq7⟩, Hh⟩, Ht⟩, ⟨%W, -, HW⟩, ⟨%d, Hob⟩⟩
  iapply (kernelRun23 c ((cfg26 a1).grid.coords t) (Memref.whole main_v96) (Memref.isWhole_whole _) (Memref.whole main_v89) (Memref.isWhole_whole _)
    (spec26_0.stage ((cfg26 a1).slots t 0)) (hstage26_0 (((cfg26 a1).slots t 0).cast nbuf26_0)) (tblw26 a1) hlt fullShare fullShare (V c main_v89) cc26_scratch0 W _)
  isplitl [Ht]; · iexact Ht
  isplitl [Hh]; · iexact Hh
  isplitl [Hob]; · iexists _; iexact Hob
  isplitl [Hq0]; · iexact Hq0
  isplitl [Hq1]; · iexact Hq1
  isplitl [Hq2]; · iexact Hq2
  isplitl [Hq3]; · iexact Hq3
  isplitl [Hq4]; · iexact Hq4
  isplitl [Hq5]; · iexact Hq5
  isplitl [Hq6]; · iexact Hq6
  isplitl [Hq7]; · iexact Hq7
  isplitl [HW]; · iexact HW
  iintro ⟨Ht, Hh, Hob, Hq0, Hq1, Hq2, Hq3, Hq4, Hq5, Hq6, Hq7, ⟨%W', HW'⟩⟩
  isplitl [Hsc Hg Hq0 Hq1 Hq2 Hq3 Hq4 Hq5 Hq6 Hq7 Hh Ht]
  · isplitl [Hsc Hg Hq0 Hq1 Hq2 Hq3 Hq4 Hq5 Hq6 Hq7 Hh]
    · isplitl [Hsc]; · iexact Hsc
      isplitl [Hg]; · iexact Hg
      isplitl [Hq0 Hq1 Hq2 Hq3 Hq4 Hq5 Hq6 Hq7]
      · isplitl [Hq0]; · iexact Hq0
        isplitl [Hq1]; · iexact Hq1
        isplitl [Hq2]; · iexact Hq2
        isplitl [Hq3]; · iexact Hq3
        isplitl [Hq4]; · iexact Hq4
        isplitl [Hq5]; · iexact Hq5
        isplitl [Hq6]; · iexact Hq6
        iexact Hq7
      iexact Hh
    iexact Ht
  isplitl [HW']
  · iexists W'; isplitr; · ipureintro; exact fun _ _ => Or.inl trivial
    iexact HW'
  rw [hr]
  iexact Hob

end Cert.Kernel.Hand

end
-- ==== Proof.K.GatherBody27.lean ====
/-
  Region 27's body obligation. The region runs the body of region 23 on its own table, array, output block and
  semaphores (the two kernel functions are one function), so the body's run is region 23's, cited at this region's eight
  semaphores; read with this region's invariant it is the pipeline's body obligation for the region's proof data.
-/
import proofs.«402049_j87351044866139_2_alg».proof.Proof.K.GatherDef27
import proofs.«402049_j87351044866139_2_alg».proof.Proof.K.GatherBody23

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Idealize.ShloMosaic.Transfers (shareDrop shareTokN)
open Cert.Kernel Cert.Kernel.Gen

variable {F : FTy → Type} [FloatOps F]

local notation "𝕄" => MT nD τ sig Unit (Elt F) ℕ (Pipeline.UD sig nD τ) ℕ

/-! ## The body obligation -/

variable (V : (c : Dev nD) → (b : Ref sig .tc) → Buf (Elt F) ((c : Thread nD τ).loc b))
variable (a1 : (pcfg27 (F := F)).Adm)

/-- The eight cells at zero, listed, each as the body names it. -/
theorem ownSems27_eq (c : Dev nD) :
    (Pipeline.ownSems0 (Ix := Unit) (Name := ℕ) (U := Pipeline.UD sig nD τ) (Lvl := ℕ) (Val := Elt F) (τ := τ) osem27 c : sProp 𝕄)
      = iprop(semVal ((c : Thread nD τ), cell23_0 cc27_scratch0) 0 ∗ semVal ((c : Thread nD τ), cell23_1 cc27_scratch0) 0 ∗ semVal ((c : Thread nD τ), cell23_2 cc27_scratch0) 0 ∗ semVal ((c : Thread nD τ), cell23_3 cc27_scratch0) 0 ∗ semVal ((c : Thread nD τ), cell23_4 cc27_scratch0) 0 ∗ semVal ((c : Thread nD τ), cell23_5 cc27_scratch0) 0 ∗ semVal ((c : Thread nD τ), cell23_6 cc27_scratch0) 0 ∗ semVal ((c : Thread nD τ), cell23_7 cc27_scratch0) 0) := by
  rw [Pipeline.ownSems0_eq_of_list c osem27 [0, 1, 2, 3, 4, 5, 6, 7] (by decide) (by decide)]; rfl

/-- The array the rows are read from, at the contents the region found it with. -/
theorem hbm27_eq (c : Dev nD) :
    (bigSep H27 (fun b => ((c : Thread nD τ).loc b) ↦{fullShare} V c b) : sProp 𝕄)
      = ((Memref.whole main_v89 : Memref sig .tc .hbm S50000x128 .f32).view.loc (c : Thread nD τ) ↦{fullShare} V c main_v89) := by
  unfold H27
  rw [BI.bigSep_eq_bigSepL_of_eq [main_v89] (by decide) (by decide)]; rfl

/-- The table, held whole at the full share, is owned at its contents. -/
theorem tblw27_eq (c : Dev nD) :
    (Pipeline.prefHeld pre27 c (fun _ => fullShare) a1.1 : sProp 𝕄)
      = owns (c : Thread nD τ) (Memref.whole main_v98 : Memref sig .tc .smem S100000 .i32) fullShare (tblw27 a1) := by
  unfold Pipeline.prefHeld
  rw [bigSep_W27, owns_whole]; rfl

set_option maxHeartbeats 4000000 in
/-- The body at every point: the invariant hands the run its table, the array, the eight cells at zero (the scoped rest and
    the generator register ride along), the core's record of waits goes in at whatever the points before left and comes
    back with this point's eight, and the output block, at anything, comes back reading the gathered rows. -/
theorem hbodyG27 [∀ e, Nonempty (Elt F e)] (hlt : ∀ k : S100000.Idx, (tblw27 a1 k).toNat < 50000) (c : Dev nD) :
    BodyObligationLoose (datG27 V a1 (gblk27 V a1) c) (defs₀ (F := F)) Variants.none () Set.univ := by
  refine BodyObligation.loose _ fun t => ?_
  rw [bigSep_W27, bigSep_W27]
  show iprop(iprop(Pipeline.ΦD osem27 spec27 H27 V c ∗ Pipeline.prefHeld pre27 c (fun _ => fullShare) a1.1)
        ∗ (datG27 V a1 (gblk27 V a1) c).owesAt () t.castSucc
        ∗ (∃ d, owns (c : Thread nD τ) (spec27_0.stage ((cfg27 a1).slots t 0)) fullShare ((datG27 V a1 (gblk27 V a1) c).before 0 t d)))
      ⊢ wp frame (wpE (defs₀ (F := F)) Variants.none c none) Set.univ
          (cc27__gather_kernel ((cfg27 a1).grid.coords t) (Memref.whole main_v98) (Memref.isWhole_whole _) (Memref.whole main_v89) (Memref.isWhole_whole _)
            (spec27_0.stage ((cfg27 a1).slots t 0)) (hstage27_0 (((cfg27 a1).slots t 0).cast nbuf27_0)) cc27_scratch0)
          (fun _ => iprop(iprop(Pipeline.ΦD osem27 spec27 H27 V c ∗ Pipeline.prefHeld pre27 c (fun _ => fullShare) a1.1)
            ∗ (datG27 V a1 (gblk27 V a1) c).owesAt () t.succ
            ∗ owns (c : Thread nD τ) (spec27_0.stage ((cfg27 a1).slots t 0)) fullShare (gblk27 V a1 c t)))
  rw [Pipeline.ΦD_eq, ownSems27_eq, hbm27_eq, tblw27_eq]
  unfold Dat.owesAt Pipeline.owesWithin
  rw [show (datG27 V a1 (gblk27 V a1) c).owed t.castSucc = 0 from rfl, show (datG27 V a1 (gblk27 V a1) c).owed t.succ = 0 from rfl]
  have hr : (Memref.whole main_v89 : Memref sig .tc .hbm S50000x128 .f32).view.read (Elt F) (V c main_v89) = V c main_v89 := by
    simp only [Memref.view_whole, View.read_whole]
  iintro ⟨⟨⟨Hsc, Hg, ⟨Hq0, Hq1, Hq2, Hq3, Hq4, Hq5, Hq6, Hq7⟩, Hh⟩, Ht⟩, ⟨%W, -, HW⟩, ⟨%d, Hob⟩⟩
  iapply (kernelRun23 c ((cfg27 a1).grid.coords t) (Memref.whole main_v98) (Memref.isWhole_whole _) (Memref.whole main_v89) (Memref.isWhole_whole _)
    (spec27_0.stage ((cfg27 a1).slots t 0)) (hstage27_0 (((cfg27 a1).slots t 0).cast nbuf27_0)) (tblw27 a1) hlt fullShare fullShare (V c main_v89) cc27_scratch0 W _)
  isplitl [Ht]; · iexact Ht
  isplitl [Hh]; · iexact Hh
  isplitl [Hob]; · iexists _; iexact Hob
  isplitl [Hq0]; · iexact Hq0
  isplitl [Hq1]; · iexact Hq1
  isplitl [Hq2]; · iexact Hq2
  isplitl [Hq3]; · iexact Hq3
  isplitl [Hq4]; · iexact Hq4
  isplitl [Hq5]; · iexact Hq5
  isplitl [Hq6]; · iexact Hq6
  isplitl [Hq7]; · iexact Hq7
  isplitl [HW]; · iexact HW
  iintro ⟨Ht, Hh, Hob, Hq0, Hq1, Hq2, Hq3, Hq4, Hq5, Hq6, Hq7, ⟨%W', HW'⟩⟩
  isplitl [Hsc Hg Hq0 Hq1 Hq2 Hq3 Hq4 Hq5 Hq6 Hq7 Hh Ht]
  · isplitl [Hsc Hg Hq0 Hq1 Hq2 Hq3 Hq4 Hq5 Hq6 Hq7 Hh]
    · isplitl [Hsc]; · iexact Hsc
      isplitl [Hg]; · iexact Hg
      isplitl [Hq0 Hq1 Hq2 Hq3 Hq4 Hq5 Hq6 Hq7]
      · isplitl [Hq0]; · iexact Hq0
        isplitl [Hq1]; · iexact Hq1
        isplitl [Hq2]; · iexact Hq2
        isplitl [Hq3]; · iexact Hq3
        isplitl [Hq4]; · iexact Hq4
        isplitl [Hq5]; · iexact Hq5
        isplitl [Hq6]; · iexact Hq6
        iexact Hq7
      iexact Hh
    iexact Ht
  isplitl [HW']
  · iexists W'; isplitr; · ipureintro; exact fun _ _ => Or.inl trivial
    iexact HW'
  rw [hr]
  iexact Hob

end Cert.Kernel.Hand

end
-- ==== Proof.K.GatherBody28.lean ====
/-
  Region 28's body obligation. The region runs the body of region 23 on its own table, array, output block and
  semaphores (the two kernel functions are one function), so the body's run is region 23's, cited at this region's eight
  semaphores; read with this region's invariant it is the pipeline's body obligation for the region's proof data.
-/
import proofs.«402049_j87351044866139_2_alg».proof.Proof.K.GatherDef28
import proofs.«402049_j87351044866139_2_alg».proof.Proof.K.GatherBody23

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Idealize.ShloMosaic.Transfers (shareDrop shareTokN)
open Cert.Kernel Cert.Kernel.Gen

variable {F : FTy → Type} [FloatOps F]

local notation "𝕄" => MT nD τ sig Unit (Elt F) ℕ (Pipeline.UD sig nD τ) ℕ

/-! ## The body obligation -/

variable (V : (c : Dev nD) → (b : Ref sig .tc) → Buf (Elt F) ((c : Thread nD τ).loc b))
variable (a1 : (pcfg28 (F := F)).Adm)

/-- The eight cells at zero, listed, each as the body names it. -/
theorem ownSems28_eq (c : Dev nD) :
    (Pipeline.ownSems0 (Ix := Unit) (Name := ℕ) (U := Pipeline.UD sig nD τ) (Lvl := ℕ) (Val := Elt F) (τ := τ) osem28 c : sProp 𝕄)
      = iprop(semVal ((c : Thread nD τ), cell23_0 cc28_scratch0) 0 ∗ semVal ((c : Thread nD τ), cell23_1 cc28_scratch0) 0 ∗ semVal ((c : Thread nD τ), cell23_2 cc28_scratch0) 0 ∗ semVal ((c : Thread nD τ), cell23_3 cc28_scratch0) 0 ∗ semVal ((c : Thread nD τ), cell23_4 cc28_scratch0) 0 ∗ semVal ((c : Thread nD τ), cell23_5 cc28_scratch0) 0 ∗ semVal ((c : Thread nD τ), cell23_6 cc28_scratch0) 0 ∗ semVal ((c : Thread nD τ), cell23_7 cc28_scratch0) 0) := by
  rw [Pipeline.ownSems0_eq_of_list c osem28 [0, 1, 2, 3, 4, 5, 6, 7] (by decide) (by decide)]; rfl

/-- The array the rows are read from, at the contents the region found it with. -/
theorem hbm28_eq (c : Dev nD) :
    (bigSep H28 (fun b => ((c : Thread nD τ).loc b) ↦{fullShare} V c b) : sProp 𝕄)
      = ((Memref.whole main_v89 : Memref sig .tc .hbm S50000x128 .f32).view.loc (c : Thread nD τ) ↦{fullShare} V c main_v89) := by
  unfold H28
  rw [BI.bigSep_eq_bigSepL_of_eq [main_v89] (by decide) (by decide)]; rfl

/-- The table, held whole at the full share, is owned at its contents. -/
theorem tblw28_eq (c : Dev nD) :
    (Pipeline.prefHeld pre28 c (fun _ => fullShare) a1.1 : sProp 𝕄)
      = owns (c : Thread nD τ) (Memref.whole main_v100 : Memref sig .tc .smem S100000 .i32) fullShare (tblw28 a1) := by
  unfold Pipeline.prefHeld
  rw [bigSep_W28, owns_whole]; rfl

set_option maxHeartbeats 4000000 in
/-- The body at every point: the invariant hands the run its table, the array, the eight cells at zero (the scoped rest and
    the generator register ride along), the core's record of waits goes in at whatever the points before left and comes
    back with this point's eight, and the output block, at anything, comes back reading the gathered rows. -/
theorem hbodyG28 [∀ e, Nonempty (Elt F e)] (hlt : ∀ k : S100000.Idx, (tblw28 a1 k).toNat < 50000) (c : Dev nD) :
    BodyObligationLoose (datG28 V a1 (gblk28 V a1) c) (defs₀ (F := F)) Variants.none () Set.univ := by
  refine BodyObligation.loose _ fun t => ?_
  rw [bigSep_W28, bigSep_W28]
  show iprop(iprop(Pipeline.ΦD osem28 spec28 H28 V c ∗ Pipeline.prefHeld pre28 c (fun _ => fullShare) a1.1)
        ∗ (datG28 V a1 (gblk28 V a1) c).owesAt () t.castSucc
        ∗ (∃ d, owns (c : Thread nD τ) (spec28_0.stage ((cfg28 a1).slots t 0)) fullShare ((datG28 V a1 (gblk28 V a1) c).before 0 t d)))
      ⊢ wp frame (wpE (defs₀ (F := F)) Variants.none c none) Set.univ
          (cc28__gather_kernel ((cfg28 a1).grid.coords t) (Memref.whole main_v100) (Memref.isWhole_whole _) (Memref.whole main_v89) (Memref.isWhole_whole _)
            (spec28_0.stage ((cfg28 a1).slots t 0)) (hstage28_0 (((cfg28 a1).slots t 0).cast nbuf28_0)) cc28_scratch0)
          (fun _ => iprop(iprop(Pipeline.ΦD osem28 spec28 H28 V c ∗ Pipeline.prefHeld pre28 c (fun _ => fullShare) a1.1)
            ∗ (datG28 V a1 (gblk28 V a1) c).owesAt () t.succ
            ∗ owns (c : Thread nD τ) (spec28_0.stage ((cfg28 a1).slots t 0)) fullShare (gblk28 V a1 c t)))
  rw [Pipeline.ΦD_eq, ownSems28_eq, hbm28_eq, tblw28_eq]
  unfold Dat.owesAt Pipeline.owesWithin
  rw [show (datG28 V a1 (gblk28 V a1) c).owed t.castSucc = 0 from rfl, show (datG28 V a1 (gblk28 V a1) c).owed t.succ = 0 from rfl]
  have hr : (Memref.whole main_v89 : Memref sig .tc .hbm S50000x128 .f32).view.read (Elt F) (V c main_v89) = V c main_v89 := by
    simp only [Memref.view_whole, View.read_whole]
  iintro ⟨⟨⟨Hsc, Hg, ⟨Hq0, Hq1, Hq2, Hq3, Hq4, Hq5, Hq6, Hq7⟩, Hh⟩, Ht⟩, ⟨%W, -, HW⟩, ⟨%d, Hob⟩⟩
  iapply (kernelRun23 c ((cfg28 a1).grid.coords t) (Memref.whole main_v100) (Memref.isWhole_whole _) (Memref.whole main_v89) (Memref.isWhole_whole _)
    (spec28_0.stage ((cfg28 a1).slots t 0)) (hstage28_0 (((cfg28 a1).slots t 0).cast nbuf28_0)) (tblw28 a1) hlt fullShare fullShare (V c main_v89) cc28_scratch0 W _)
  isplitl [Ht]; · iexact Ht
  isplitl [Hh]; · iexact Hh
  isplitl [Hob]; · iexists _; iexact Hob
  isplitl [Hq0]; · iexact Hq0
  isplitl [Hq1]; · iexact Hq1
  isplitl [Hq2]; · iexact Hq2
  isplitl [Hq3]; · iexact Hq3
  isplitl [Hq4]; · iexact Hq4
  isplitl [Hq5]; · iexact Hq5
  isplitl [Hq6]; · iexact Hq6
  isplitl [Hq7]; · iexact Hq7
  isplitl [HW]; · iexact HW
  iintro ⟨Ht, Hh, Hob, Hq0, Hq1, Hq2, Hq3, Hq4, Hq5, Hq6, Hq7, ⟨%W', HW'⟩⟩
  isplitl [Hsc Hg Hq0 Hq1 Hq2 Hq3 Hq4 Hq5 Hq6 Hq7 Hh Ht]
  · isplitl [Hsc Hg Hq0 Hq1 Hq2 Hq3 Hq4 Hq5 Hq6 Hq7 Hh]
    · isplitl [Hsc]; · iexact Hsc
      isplitl [Hg]; · iexact Hg
      isplitl [Hq0 Hq1 Hq2 Hq3 Hq4 Hq5 Hq6 Hq7]
      · isplitl [Hq0]; · iexact Hq0
        isplitl [Hq1]; · iexact Hq1
        isplitl [Hq2]; · iexact Hq2
        isplitl [Hq3]; · iexact Hq3
        isplitl [Hq4]; · iexact Hq4
        isplitl [Hq5]; · iexact Hq5
        isplitl [Hq6]; · iexact Hq6
        iexact Hq7
      iexact Hh
    iexact Ht
  isplitl [HW']
  · iexists W'; isplitr; · ipureintro; exact fun _ _ => Or.inl trivial
    iexact HW'
  rw [hr]
  iexact Hob

end Cert.Kernel.Hand

end
-- ==== Proof.K.GatherBody29.lean ====
/-
  Region 29's body obligation. The region runs the body of region 23 on its own table, array, output block and
  semaphores (the two kernel functions are one function), so the body's run is region 23's, cited at this region's eight
  semaphores; read with this region's invariant it is the pipeline's body obligation for the region's proof data.
-/
import proofs.«402049_j87351044866139_2_alg».proof.Proof.K.GatherDef29
import proofs.«402049_j87351044866139_2_alg».proof.Proof.K.GatherBody23

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Idealize.ShloMosaic.Transfers (shareDrop shareTokN)
open Cert.Kernel Cert.Kernel.Gen

variable {F : FTy → Type} [FloatOps F]

local notation "𝕄" => MT nD τ sig Unit (Elt F) ℕ (Pipeline.UD sig nD τ) ℕ

/-! ## The body obligation -/

variable (V : (c : Dev nD) → (b : Ref sig .tc) → Buf (Elt F) ((c : Thread nD τ).loc b))
variable (a1 : (pcfg29 (F := F)).Adm)

/-- The eight cells at zero, listed, each as the body names it. -/
theorem ownSems29_eq (c : Dev nD) :
    (Pipeline.ownSems0 (Ix := Unit) (Name := ℕ) (U := Pipeline.UD sig nD τ) (Lvl := ℕ) (Val := Elt F) (τ := τ) osem29 c : sProp 𝕄)
      = iprop(semVal ((c : Thread nD τ), cell23_0 cc29_scratch0) 0 ∗ semVal ((c : Thread nD τ), cell23_1 cc29_scratch0) 0 ∗ semVal ((c : Thread nD τ), cell23_2 cc29_scratch0) 0 ∗ semVal ((c : Thread nD τ), cell23_3 cc29_scratch0) 0 ∗ semVal ((c : Thread nD τ), cell23_4 cc29_scratch0) 0 ∗ semVal ((c : Thread nD τ), cell23_5 cc29_scratch0) 0 ∗ semVal ((c : Thread nD τ), cell23_6 cc29_scratch0) 0 ∗ semVal ((c : Thread nD τ), cell23_7 cc29_scratch0) 0) := by
  rw [Pipeline.ownSems0_eq_of_list c osem29 [0, 1, 2, 3, 4, 5, 6, 7] (by decide) (by decide)]; rfl

/-- The array the rows are read from, at the contents the region found it with. -/
theorem hbm29_eq (c : Dev nD) :
    (bigSep H29 (fun b => ((c : Thread nD τ).loc b) ↦{fullShare} V c b) : sProp 𝕄)
      = ((Memref.whole main_v89 : Memref sig .tc .hbm S50000x128 .f32).view.loc (c : Thread nD τ) ↦{fullShare} V c main_v89) := by
  unfold H29
  rw [BI.bigSep_eq_bigSepL_of_eq [main_v89] (by decide) (by decide)]; rfl

/-- The table, held whole at the full share, is owned at its contents. -/
theorem tblw29_eq (c : Dev nD) :
    (Pipeline.prefHeld pre29 c (fun _ => fullShare) a1.1 : sProp 𝕄)
      = owns (c : Thread nD τ) (Memref.whole main_v102 : Memref sig .tc .smem S100000 .i32) fullShare (tblw29 a1) := by
  unfold Pipeline.prefHeld
  rw [bigSep_W29, owns_whole]; rfl

set_option maxHeartbeats 4000000 in
/-- The body at every point: the invariant hands the run its table, the array, the eight cells at zero (the scoped rest and
    the generator register ride along), the core's record of waits goes in at whatever the points before left and comes
    back with this point's eight, and the output block, at anything, comes back reading the gathered rows. -/
theorem hbodyG29 [∀ e, Nonempty (Elt F e)] (hlt : ∀ k : S100000.Idx, (tblw29 a1 k).toNat < 50000) (c : Dev nD) :
    BodyObligationLoose (datG29 V a1 (gblk29 V a1) c) (defs₀ (F := F)) Variants.none () Set.univ := by
  refine BodyObligation.loose _ fun t => ?_
  rw [bigSep_W29, bigSep_W29]
  show iprop(iprop(Pipeline.ΦD osem29 spec29 H29 V c ∗ Pipeline.prefHeld pre29 c (fun _ => fullShare) a1.1)
        ∗ (datG29 V a1 (gblk29 V a1) c).owesAt () t.castSucc
        ∗ (∃ d, owns (c : Thread nD τ) (spec29_0.stage ((cfg29 a1).slots t 0)) fullShare ((datG29 V a1 (gblk29 V a1) c).before 0 t d)))
      ⊢ wp frame (wpE (defs₀ (F := F)) Variants.none c none) Set.univ
          (cc29__gather_kernel ((cfg29 a1).grid.coords t) (Memref.whole main_v102) (Memref.isWhole_whole _) (Memref.whole main_v89) (Memref.isWhole_whole _)
            (spec29_0.stage ((cfg29 a1).slots t 0)) (hstage29_0 (((cfg29 a1).slots t 0).cast nbuf29_0)) cc29_scratch0)
          (fun _ => iprop(iprop(Pipeline.ΦD osem29 spec29 H29 V c ∗ Pipeline.prefHeld pre29 c (fun _ => fullShare) a1.1)
            ∗ (datG29 V a1 (gblk29 V a1) c).owesAt () t.succ
            ∗ owns (c : Thread nD τ) (spec29_0.stage ((cfg29 a1).slots t 0)) fullShare (gblk29 V a1 c t)))
  rw [Pipeline.ΦD_eq, ownSems29_eq, hbm29_eq, tblw29_eq]
  unfold Dat.owesAt Pipeline.owesWithin
  rw [show (datG29 V a1 (gblk29 V a1) c).owed t.castSucc = 0 from rfl, show (datG29 V a1 (gblk29 V a1) c).owed t.succ = 0 from rfl]
  have hr : (Memref.whole main_v89 : Memref sig .tc .hbm S50000x128 .f32).view.read (Elt F) (V c main_v89) = V c main_v89 := by
    simp only [Memref.view_whole, View.read_whole]
  iintro ⟨⟨⟨Hsc, Hg, ⟨Hq0, Hq1, Hq2, Hq3, Hq4, Hq5, Hq6, Hq7⟩, Hh⟩, Ht⟩, ⟨%W, -, HW⟩, ⟨%d, Hob⟩⟩
  iapply (kernelRun23 c ((cfg29 a1).grid.coords t) (Memref.whole main_v102) (Memref.isWhole_whole _) (Memref.whole main_v89) (Memref.isWhole_whole _)
    (spec29_0.stage ((cfg29 a1).slots t 0)) (hstage29_0 (((cfg29 a1).slots t 0).cast nbuf29_0)) (tblw29 a1) hlt fullShare fullShare (V c main_v89) cc29_scratch0 W _)
  isplitl [Ht]; · iexact Ht
  isplitl [Hh]; · iexact Hh
  isplitl [Hob]; · iexists _; iexact Hob
  isplitl [Hq0]; · iexact Hq0
  isplitl [Hq1]; · iexact Hq1
  isplitl [Hq2]; · iexact Hq2
  isplitl [Hq3]; · iexact Hq3
  isplitl [Hq4]; · iexact Hq4
  isplitl [Hq5]; · iexact Hq5
  isplitl [Hq6]; · iexact Hq6
  isplitl [Hq7]; · iexact Hq7
  isplitl [HW]; · iexact HW
  iintro ⟨Ht, Hh, Hob, Hq0, Hq1, Hq2, Hq3, Hq4, Hq5, Hq6, Hq7, ⟨%W', HW'⟩⟩
  isplitl [Hsc Hg Hq0 Hq1 Hq2 Hq3 Hq4 Hq5 Hq6 Hq7 Hh Ht]
  · isplitl [Hsc Hg Hq0 Hq1 Hq2 Hq3 Hq4 Hq5 Hq6 Hq7 Hh]
    · isplitl [Hsc]; · iexact Hsc
      isplitl [Hg]; · iexact Hg
      isplitl [Hq0 Hq1 Hq2 Hq3 Hq4 Hq5 Hq6 Hq7]
      · isplitl [Hq0]; · iexact Hq0
        isplitl [Hq1]; · iexact Hq1
        isplitl [Hq2]; · iexact Hq2
        isplitl [Hq3]; · iexact Hq3
        isplitl [Hq4]; · iexact Hq4
        isplitl [Hq5]; · iexact Hq5
        isplitl [Hq6]; · iexact Hq6
        iexact Hq7
      iexact Hh
    iexact Ht
  isplitl [HW']
  · iexists W'; isplitr; · ipureintro; exact fun _ _ => Or.inl trivial
    iexact HW'
  rw [hr]
  iexact Hob

end Cert.Kernel.Hand

end
-- ==== Proof.K.Regs5.lean ====
import proofs.«402049_j87351044866139_2_alg».proof.Proof.K.Fam
import proofs.«402049_j87351044866139_2_alg».proof.Proof.K.Tables
import proofs.«402049_j87351044866139_2_alg».proof.Proof.K.GatherBody25
import proofs.«402049_j87351044866139_2_alg».proof.Proof.K.GatherBody26
import proofs.«402049_j87351044866139_2_alg».proof.Proof.K.GatherBody27
import proofs.«402049_j87351044866139_2_alg».proof.Proof.K.GatherBody28
import proofs.«402049_j87351044866139_2_alg».proof.Proof.K.GatherBody29
import Idealize.ShloMosaic.Lib.Pipeline.RegionsLoop

/-! The records of regions 25 to 29 over the thread states: each entered from every unscoped buffer at the real valuation
    before it and left at the one after it; for a gather region, first that every word of its table is a node's number. -/

set_option maxRecDepth 16384

noncomputable section

namespace Cert.Kernel.Hand

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg BodyObligation BodyObligationLoose)

variable {F : FTy → Type} [FloatOps F]

local notation "𝕄" => MT nD τ sig Unit (Elt F) ℕ UU ℕ

set_option maxHeartbeats 1000000 in
/-- Every word of region 25's table is a node's number: the data's table is what the real valuation at the region's entry
    holds in the table's buffer; that valuation is the run's own, whose table is the closed one of the launch memory. -/
theorem hlt25 (m : (ℓ : Loc nD τ sig) → Buf (Elt F) ℓ) (hm : ∀ i : S2x800000.Idx, ((V0 m c₀ main_arg1 : IVec S2x800000 32) i).toNat < 50000) :
    ∀ k : S100000.Idx, (tblw25 (a25 m) k).toNat < 50000 := by
  have h1 : tblw25 (a25 m) = (U53 m c₀ main_v94 : IVec S100000 32) := by
    unfold a25
    rfl
  have h2 : ∀ W : Valuation τ sig (Elt F), V53 m (outsU m) c₀ = W → (W main_v94 : IVec S100000 32) = tbl25 m c₀ :=
    fun W hW => by subst hW; exact tbl25_eq m (outsU m) c₀
  have e : tblw25 (a25 m) = tbl25 m c₀ := h1.trans (h2 (U53 m c₀) (V53_eq m c₀))
  intro k
  rw [e]; exact tbl25_lt m c₀ hm k
set_option maxHeartbeats 1000000 in
set_option backward.isDefEq.respectTransparency.types false in
/-- REGION 25 over the thread state: entered from every unscoped buffer at `U53`, left at `U54`. -/
def reg25 (m : (ℓ : Loc nD τ sig) → Buf (Elt F) ℓ) (hm : ∀ i : S2x800000.Idx, ((V0 m c₀ main_arg1 : IVec S2x800000 32) i).toNat < 50000) :
    RegionSeg (pcfgs (F := F)) (adm m) (pdats m) () defs₀ 𝒱₀ L lv 25 where
  win := (launch25 (F := F)).win.to₀
  block_pos := (launch25 (F := F)).block_pos
  stage_whole := (launch25 (F := F)).stage_whole
  K := Fin 8
  osem := osem25
  ho := ownSemFacts25
  hbody c := hbodyG25 (atTc (U53 m)) (a25 m) (hlt25 m hm) c
  hwaits := Pipeline.hwaits_of_owed_zero _ _ _ _ L lv 25 fun _ _ => rfl
  pre c := iprop(StableHlo.held (c : Thread nD τ) (Pipeline.ucRefs τ sig) (U53 m c) ∗ R (F := F) c)
  post c := iprop(StableHlo.held (c : Thread nD τ) (Pipeline.ucRefs τ sig) (U54 m c) ∗ R (F := F) c)
  X c := XG25 (atTc (U53 m)) c
  Y c := YG25 (atTc (U53 m)) (a25 m) c
  Z c := ZG25 (atTc (U53 m)) c
  hentry c := by
    have hsplit := Pipeline.arrays_of_unscopedBufs (p := 25) (pcfgs (F := F)) (adm m) (pdats m) (launch25 (F := F)).win (launch25 (F := F)).arr_whole c
      ((pdats m 25 c).share_full fun _ => rfl) (atTc (U53 m) c) (fun _ => rfl)
    have h := hentryG25 (atTc (U53 m)) (a25 m) (gblk25 (atTc (U53 m)) (a25 m)) c (hpf25 m c) hsplit
    rw [Pipeline.unscopedBufs_held] at h
    exact h
  hin c := hinG25 (atTc (U53 m)) (a25 m) (gblk25 (atTc (U53 m)) (a25 m)) c
  hout c := houtG25 (atTc (U53 m)) (a25 m) (gblk25 (atTc (U53 m)) (a25 m)) c
  hexit c := by
    have hjoin := Pipeline.unscopedBufs_of_arrays (p := 25) (pcfgs (F := F)) (adm m) (Ix := Unit) (Name := ℕ) (U := UU) (Lvl := ℕ)
      (launch25 (F := F)).win (launch25 (F := F)).arr_whole c (pdats m) ((pdats m 25 c).share_full fun _ => rfl)
      (atTc (U53 m) c) (atTc (U54 m) c) ((pdats m 25 c).arrAt · (cfg25 (a25 m)).N) (hF25 m c) (hrest25 m c)
    have h := hexitG25 (atTc (U53 m)) (a25 m) (gblk25 (atTc (U53 m)) (a25 m)) (atTc (U54 m)) c (hpf25 m c) hjoin
    rw [Pipeline.unscopedBufs_held] at h
    exact h

set_option maxHeartbeats 1000000 in
/-- Every word of region 26's table is a node's number: the data's table is what the real valuation at the region's entry
    holds in the table's buffer; that valuation is the run's own, whose table is the closed one of the launch memory. -/
theorem hlt26 (m : (ℓ : Loc nD τ sig) → Buf (Elt F) ℓ) (hm : ∀ i : S2x800000.Idx, ((V0 m c₀ main_arg1 : IVec S2x800000 32) i).toNat < 50000) :
    ∀ k : S100000.Idx, (tblw26 (a26 m) k).toNat < 50000 := by
  have h1 : tblw26 (a26 m) = (U55 m c₀ main_v96 : IVec S100000 32) := by
    unfold a26
    rfl
  have h2 : ∀ W : Valuation τ sig (Elt F), V55 m (outsU m) c₀ = W → (W main_v96 : IVec S100000 32) = tbl26 m c₀ :=
    fun W hW => by subst hW; exact tbl26_eq m (outsU m) c₀
  have e : tblw26 (a26 m) = tbl26 m c₀ := h1.trans (h2 (U55 m c₀) (V55_eq m c₀))
  intro k
  rw [e]; exact tbl26_lt m c₀ hm k
set_option maxHeartbeats 1000000 in
set_option backward.isDefEq.respectTransparency.types false in
/-- REGION 26 over the thread state: entered from every unscoped buffer at `U55`, left at `U56`. -/
def reg26 (m : (ℓ : Loc nD τ sig) → Buf (Elt F) ℓ) (hm : ∀ i : S2x800000.Idx, ((V0 m c₀ main_arg1 : IVec S2x800000 32) i).toNat < 50000) :
    RegionSeg (pcfgs (F := F)) (adm m) (pdats m) () defs₀ 𝒱₀ L lv 26 where
  win := (launch26 (F := F)).win.to₀
  block_pos := (launch26 (F := F)).block_pos
  stage_whole := (launch26 (F := F)).stage_whole
  K := Fin 8
  osem := osem26
  ho := ownSemFacts26
  hbody c := hbodyG26 (atTc (U55 m)) (a26 m) (hlt26 m hm) c
  hwaits := Pipeline.hwaits_of_owed_zero _ _ _ _ L lv 26 fun _ _ => rfl
  pre c := iprop(StableHlo.held (c : Thread nD τ) (Pipeline.ucRefs τ sig) (U55 m c) ∗ R (F := F) c)
  post c := iprop(StableHlo.held (c : Thread nD τ) (Pipeline.ucRefs τ sig) (U56 m c) ∗ R (F := F) c)
  X c := XG26 (atTc (U55 m)) c
  Y c := YG26 (atTc (U55 m)) (a26 m) c
  Z c := ZG26 (atTc (U55 m)) c
  hentry c := by
    have hsplit := Pipeline.arrays_of_unscopedBufs (p := 26) (pcfgs (F := F)) (adm m) (pdats m) (launch26 (F := F)).win (launch26 (F := F)).arr_whole c
      ((pdats m 26 c).share_full fun _ => rfl) (atTc (U55 m) c) (fun _ => rfl)
    have h := hentryG26 (atTc (U55 m)) (a26 m) (gblk26 (atTc (U55 m)) (a26 m)) c (hpf26 m c) hsplit
    rw [Pipeline.unscopedBufs_held] at h
    exact h
  hin c := hinG26 (atTc (U55 m)) (a26 m) (gblk26 (atTc (U55 m)) (a26 m)) c
  hout c := houtG26 (atTc (U55 m)) (a26 m) (gblk26 (atTc (U55 m)) (a26 m)) c
  hexit c := by
    have hjoin := Pipeline.unscopedBufs_of_arrays (p := 26) (pcfgs (F := F)) (adm m) (Ix := Unit) (Name := ℕ) (U := UU) (Lvl := ℕ)
      (launch26 (F := F)).win (launch26 (F := F)).arr_whole c (pdats m) ((pdats m 26 c).share_full fun _ => rfl)
      (atTc (U55 m) c) (atTc (U56 m) c) ((pdats m 26 c).arrAt · (cfg26 (a26 m)).N) (hF26 m c) (hrest26 m c)
    have h := hexitG26 (atTc (U55 m)) (a26 m) (gblk26 (atTc (U55 m)) (a26 m)) (atTc (U56 m)) c (hpf26 m c) hjoin
    rw [Pipeline.unscopedBufs_held] at h
    exact h

set_option maxHeartbeats 1000000 in
/-- Every word of region 27's table is a node's number: the data's table is what the real valuation at the region's entry
    holds in the table's buffer; that valuation is the run's own, whose table is the closed one of the launch memory. -/
theorem hlt27 (m : (ℓ : Loc nD τ sig) → Buf (Elt F) ℓ) (hm : ∀ i : S2x800000.Idx, ((V0 m c₀ main_arg1 : IVec S2x800000 32) i).toNat < 50000) :
    ∀ k : S100000.Idx, (tblw27 (a27 m) k).toNat < 50000 := by
  have h1 : tblw27 (a27 m) = (U57 m c₀ main_v98 : IVec S100000 32) := by
    unfold a27
    rfl
  have h2 : ∀ W : Valuation τ sig (Elt F), V57 m (outsU m) c₀ = W → (W main_v98 : IVec S100000 32) = tbl27 m c₀ :=
    fun W hW => by subst hW; exact tbl27_eq m (outsU m) c₀
  have e : tblw27 (a27 m) = tbl27 m c₀ := h1.trans (h2 (U57 m c₀) (V57_eq m c₀))
  intro k
  rw [e]; exact tbl27_lt m c₀ hm k
set_option maxHeartbeats 1000000 in
set_option backward.isDefEq.respectTransparency.types false in
/-- REGION 27 over the thread state: entered from every unscoped buffer at `U57`, left at `U58`. -/
def reg27 (m : (ℓ : Loc nD τ sig) → Buf (Elt F) ℓ) (hm : ∀ i : S2x800000.Idx, ((V0 m c₀ main_arg1 : IVec S2x800000 32) i).toNat < 50000) :
    RegionSeg (pcfgs (F := F)) (adm m) (pdats m) () defs₀ 𝒱₀ L lv 27 where
  win := (launch27 (F := F)).win.to₀
  block_pos := (launch27 (F := F)).block_pos
  stage_whole := (launch27 (F := F)).stage_whole
  K := Fin 8
  osem := osem27
  ho := ownSemFacts27
  hbody c := hbodyG27 (atTc (U57 m)) (a27 m) (hlt27 m hm) c
  hwaits := Pipeline.hwaits_of_owed_zero _ _ _ _ L lv 27 fun _ _ => rfl
  pre c := iprop(StableHlo.held (c : Thread nD τ) (Pipeline.ucRefs τ sig) (U57 m c) ∗ R (F := F) c)
  post c := iprop(StableHlo.held (c : Thread nD τ) (Pipeline.ucRefs τ sig) (U58 m c) ∗ R (F := F) c)
  X c := XG27 (atTc (U57 m)) c
  Y c := YG27 (atTc (U57 m)) (a27 m) c
  Z c := ZG27 (atTc (U57 m)) c
  hentry c := by
    have hsplit := Pipeline.arrays_of_unscopedBufs (p := 27) (pcfgs (F := F)) (adm m) (pdats m) (launch27 (F := F)).win (launch27 (F := F)).arr_whole c
      ((pdats m 27 c).share_full fun _ => rfl) (atTc (U57 m) c) (fun _ => rfl)
    have h := hentryG27 (atTc (U57 m)) (a27 m) (gblk27 (atTc (U57 m)) (a27 m)) c (hpf27 m c) hsplit
    rw [Pipeline.unscopedBufs_held] at h
    exact h
  hin c := hinG27 (atTc (U57 m)) (a27 m) (gblk27 (atTc (U57 m)) (a27 m)) c
  hout c := houtG27 (atTc (U57 m)) (a27 m) (gblk27 (atTc (U57 m)) (a27 m)) c
  hexit c := by
    have hjoin := Pipeline.unscopedBufs_of_arrays (p := 27) (pcfgs (F := F)) (adm m) (Ix := Unit) (Name := ℕ) (U := UU) (Lvl := ℕ)
      (launch27 (F := F)).win (launch27 (F := F)).arr_whole c (pdats m) ((pdats m 27 c).share_full fun _ => rfl)
      (atTc (U57 m) c) (atTc (U58 m) c) ((pdats m 27 c).arrAt · (cfg27 (a27 m)).N) (hF27 m c) (hrest27 m c)
    have h := hexitG27 (atTc (U57 m)) (a27 m) (gblk27 (atTc (U57 m)) (a27 m)) (atTc (U58 m)) c (hpf27 m c) hjoin
    rw [Pipeline.unscopedBufs_held] at h
    exact h

set_option maxHeartbeats 1000000 in
/-- Every word of region 28's table is a node's number: the data's table is what the real valuation at the region's entry
    holds in the table's buffer; that valuation is the run's own, whose table is the closed one of the launch memory. -/
theorem hlt28 (m : (ℓ : Loc nD τ sig) → Buf (Elt F) ℓ) (hm : ∀ i : S2x800000.Idx, ((V0 m c₀ main_arg1 : IVec S2x800000 32) i).toNat < 50000) :
    ∀ k : S100000.Idx, (tblw28 (a28 m) k).toNat < 50000 := by
  have h1 : tblw28 (a28 m) = (U59 m c₀ main_v100 : IVec S100000 32) := by
    unfold a28
    rfl
  have h2 : ∀ W : Valuation τ sig (Elt F), V59 m (outsU m) c₀ = W → (W main_v100 : IVec S100000 32) = tbl28 m c₀ :=
    fun W hW => by subst hW; exact tbl28_eq m (outsU m) c₀
  have e : tblw28 (a28 m) = tbl28 m c₀ := h1.trans (h2 (U59 m c₀) (V59_eq m c₀))
  intro k
  rw [e]; exact tbl28_lt m c₀ hm k
set_option maxHeartbeats 1000000 in
set_option backward.isDefEq.respectTransparency.types false in
/-- REGION 28 over the thread state: entered from every unscoped buffer at `U59`, left at `U60`. -/
def reg28 (m : (ℓ : Loc nD τ sig) → Buf (Elt F) ℓ) (hm : ∀ i : S2x800000.Idx, ((V0 m c₀ main_arg1 : IVec S2x800000 32) i).toNat < 50000) :
    RegionSeg (pcfgs (F := F)) (adm m) (pdats m) () defs₀ 𝒱₀ L lv 28 where
  win := (launch28 (F := F)).win.to₀
  block_pos := (launch28 (F := F)).block_pos
  stage_whole := (launch28 (F := F)).stage_whole
  K := Fin 8
  osem := osem28
  ho := ownSemFacts28
  hbody c := hbodyG28 (atTc (U59 m)) (a28 m) (hlt28 m hm) c
  hwaits := Pipeline.hwaits_of_owed_zero _ _ _ _ L lv 28 fun _ _ => rfl
  pre c := iprop(StableHlo.held (c : Thread nD τ) (Pipeline.ucRefs τ sig) (U59 m c) ∗ R (F := F) c)
  post c := iprop(StableHlo.held (c : Thread nD τ) (Pipeline.ucRefs τ sig) (U60 m c) ∗ R (F := F) c)
  X c := XG28 (atTc (U59 m)) c
  Y c := YG28 (atTc (U59 m)) (a28 m) c
  Z c := ZG28 (atTc (U59 m)) c
  hentry c := by
    have hsplit := Pipeline.arrays_of_unscopedBufs (p := 28) (pcfgs (F := F)) (adm m) (pdats m) (launch28 (F := F)).win (launch28 (F := F)).arr_whole c
      ((pdats m 28 c).share_full fun _ => rfl) (atTc (U59 m) c) (fun _ => rfl)
    have h := hentryG28 (atTc (U59 m)) (a28 m) (gblk28 (atTc (U59 m)) (a28 m)) c (hpf28 m c) hsplit
    rw [Pipeline.unscopedBufs_held] at h
    exact h
  hin c := hinG28 (atTc (U59 m)) (a28 m) (gblk28 (atTc (U59 m)) (a28 m)) c
  hout c := houtG28 (atTc (U59 m)) (a28 m) (gblk28 (atTc (U59 m)) (a28 m)) c
  hexit c := by
    have hjoin := Pipeline.unscopedBufs_of_arrays (p := 28) (pcfgs (F := F)) (adm m) (Ix := Unit) (Name := ℕ) (U := UU) (Lvl := ℕ)
      (launch28 (F := F)).win (launch28 (F := F)).arr_whole c (pdats m) ((pdats m 28 c).share_full fun _ => rfl)
      (atTc (U59 m) c) (atTc (U60 m) c) ((pdats m 28 c).arrAt · (cfg28 (a28 m)).N) (hF28 m c) (hrest28 m c)
    have h := hexitG28 (atTc (U59 m)) (a28 m) (gblk28 (atTc (U59 m)) (a28 m)) (atTc (U60 m)) c (hpf28 m c) hjoin
    rw [Pipeline.unscopedBufs_held] at h
    exact h

set_option maxHeartbeats 1000000 in
/-- Every word of region 29's table is a node's number: the data's table is what the real valuation at the region's entry
    holds in the table's buffer; that valuation is the run's own, whose table is the closed one of the launch memory. -/
theorem hlt29 (m : (ℓ : Loc nD τ sig) → Buf (Elt F) ℓ) (hm : ∀ i : S2x800000.Idx, ((V0 m c₀ main_arg1 : IVec S2x800000 32) i).toNat < 50000) :
    ∀ k : S100000.Idx, (tblw29 (a29 m) k).toNat < 50000 := by
  have h1 : tblw29 (a29 m) = (U61 m c₀ main_v102 : IVec S100000 32) := by
    unfold a29
    rfl
  have h2 : ∀ W : Valuation τ sig (Elt F), V61 m (outsU m) c₀ = W → (W main_v102 : IVec S100000 32) = tbl29 m c₀ :=
    fun W hW => by subst hW; exact tbl29_eq m (outsU m) c₀
  have e : tblw29 (a29 m) = tbl29 m c₀ := h1.trans (h2 (U61 m c₀) (V61_eq m c₀))
  intro k
  rw [e]; exact tbl29_lt m c₀ hm k
set_option maxHeartbeats 1000000 in
set_option backward.isDefEq.respectTransparency.types false in
/-- REGION 29 over the thread state: entered from every unscoped buffer at `U61`, left at `U62`. -/
def reg29 (m : (ℓ : Loc nD τ sig) → Buf (Elt F) ℓ) (hm : ∀ i : S2x800000.Idx, ((V0 m c₀ main_arg1 : IVec S2x800000 32) i).toNat < 50000) :
    RegionSeg (pcfgs (F := F)) (adm m) (pdats m) () defs₀ 𝒱₀ L lv 29 where
  win := (launch29 (F := F)).win.to₀
  block_pos := (launch29 (F := F)).block_pos
  stage_whole := (launch29 (F := F)).stage_whole
  K := Fin 8
  osem := osem29
  ho := ownSemFacts29
  hbody c := hbodyG29 (atTc (U61 m)) (a29 m) (hlt29 m hm) c
  hwaits := Pipeline.hwaits_of_owed_zero _ _ _ _ L lv 29 fun _ _ => rfl
  pre c := iprop(StableHlo.held (c : Thread nD τ) (Pipeline.ucRefs τ sig) (U61 m c) ∗ R (F := F) c)
  post c := iprop(StableHlo.held (c : Thread nD τ) (Pipeline.ucRefs τ sig) (U62 m c) ∗ R (F := F) c)
  X c := XG29 (atTc (U61 m)) c
  Y c := YG29 (atTc (U61 m)) (a29 m) c
  Z c := ZG29 (atTc (U61 m)) c
  hentry c := by
    have hsplit := Pipeline.arrays_of_unscopedBufs (p := 29) (pcfgs (F := F)) (adm m) (pdats m) (launch29 (F := F)).win (launch29 (F := F)).arr_whole c
      ((pdats m 29 c).share_full fun _ => rfl) (atTc (U61 m) c) (fun _ => rfl)
    have h := hentryG29 (atTc (U61 m)) (a29 m) (gblk29 (atTc (U61 m)) (a29 m)) c (hpf29 m c) hsplit
    rw [Pipeline.unscopedBufs_held] at h
    exact h
  hin c := hinG29 (atTc (U61 m)) (a29 m) (gblk29 (atTc (U61 m)) (a29 m)) c
  hout c := houtG29 (atTc (U61 m)) (a29 m) (gblk29 (atTc (U61 m)) (a29 m)) c
  hexit c := by
    have hjoin := Pipeline.unscopedBufs_of_arrays (p := 29) (pcfgs (F := F)) (adm m) (Ix := Unit) (Name := ℕ) (U := UU) (Lvl := ℕ)
      (launch29 (F := F)).win (launch29 (F := F)).arr_whole c (pdats m) ((pdats m 29 c).share_full fun _ => rfl)
      (atTc (U61 m) c) (atTc (U62 m) c) ((pdats m 29 c).arrAt · (cfg29 (a29 m)).N) (hF29 m c) (hrest29 m c)
    have h := hexitG29 (atTc (U61 m)) (a29 m) (gblk29 (atTc (U61 m)) (a29 m)) (atTc (U62 m)) c (hpf29 m c) hjoin
    rw [Pipeline.unscopedBufs_held] at h
    exact h

end Cert.Kernel.Hand

end
-- ==== Proof.K.GatherBody30.lean ====
/-
  Region 30's body obligation. The region runs the body of region 23 on its own table, array, output block and
  semaphores (the two kernel functions are one function), so the body's run is region 23's, cited at this region's eight
  semaphores; read with this region's invariant it is the pipeline's body obligation for the region's proof data.
-/
import proofs.«402049_j87351044866139_2_alg».proof.Proof.K.GatherDef30
import proofs.«402049_j87351044866139_2_alg».proof.Proof.K.GatherBody23

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Idealize.ShloMosaic.Transfers (shareDrop shareTokN)
open Cert.Kernel Cert.Kernel.Gen

variable {F : FTy → Type} [FloatOps F]

local notation "𝕄" => MT nD τ sig Unit (Elt F) ℕ (Pipeline.UD sig nD τ) ℕ

/-! ## The body obligation -/

variable (V : (c : Dev nD) → (b : Ref sig .tc) → Buf (Elt F) ((c : Thread nD τ).loc b))
variable (a1 : (pcfg30 (F := F)).Adm)

/-- The eight cells at zero, listed, each as the body names it. -/
theorem ownSems30_eq (c : Dev nD) :
    (Pipeline.ownSems0 (Ix := Unit) (Name := ℕ) (U := Pipeline.UD sig nD τ) (Lvl := ℕ) (Val := Elt F) (τ := τ) osem30 c : sProp 𝕄)
      = iprop(semVal ((c : Thread nD τ), cell23_0 cc30_scratch0) 0 ∗ semVal ((c : Thread nD τ), cell23_1 cc30_scratch0) 0 ∗ semVal ((c : Thread nD τ), cell23_2 cc30_scratch0) 0 ∗ semVal ((c : Thread nD τ), cell23_3 cc30_scratch0) 0 ∗ semVal ((c : Thread nD τ), cell23_4 cc30_scratch0) 0 ∗ semVal ((c : Thread nD τ), cell23_5 cc30_scratch0) 0 ∗ semVal ((c : Thread nD τ), cell23_6 cc30_scratch0) 0 ∗ semVal ((c : Thread nD τ), cell23_7 cc30_scratch0) 0) := by
  rw [Pipeline.ownSems0_eq_of_list c osem30 [0, 1, 2, 3, 4, 5, 6, 7] (by decide) (by decide)]; rfl

/-- The array the rows are read from, at the contents the region found it with. -/
theorem hbm30_eq (c : Dev nD) :
    (bigSep H30 (fun b => ((c : Thread nD τ).loc b) ↦{fullShare} V c b) : sProp 𝕄)
      = ((Memref.whole main_v89 : Memref sig .tc .hbm S50000x128 .f32).view.loc (c : Thread nD τ) ↦{fullShare} V c main_v89) := by
  unfold H30
  rw [BI.bigSep_eq_bigSepL_of_eq [main_v89] (by decide) (by decide)]; rfl

/-- The table, held whole at the full share, is owned at its contents. -/
theorem tblw30_eq (c : Dev nD) :
    (Pipeline.prefHeld pre30 c (fun _ => fullShare) a1.1 : sProp 𝕄)
      = owns (c : Thread nD τ) (Memref.whole main_v104 : Memref sig .tc .smem S100000 .i32) fullShare (tblw30 a1) := by
  unfold Pipeline.prefHeld
  rw [bigSep_W30, owns_whole]; rfl

set_option maxHeartbeats 4000000 in
/-- The body at every point: the invariant hands the run its table, the array, the eight cells at zero (the scoped rest and
    the generator register ride along), the core's record of waits goes in at whatever the points before left and comes
    back with this point's eight, and the output block, at anything, comes back reading the gathered rows. -/
theorem hbodyG30 [∀ e, Nonempty (Elt F e)] (hlt : ∀ k : S100000.Idx, (tblw30 a1 k).toNat < 50000) (c : Dev nD) :
    BodyObligationLoose (datG30 V a1 (gblk30 V a1) c) (defs₀ (F := F)) Variants.none () Set.univ := by
  refine BodyObligation.loose _ fun t => ?_
  rw [bigSep_W30, bigSep_W30]
  show iprop(iprop(Pipeline.ΦD osem30 spec30 H30 V c ∗ Pipeline.prefHeld pre30 c (fun _ => fullShare) a1.1)
        ∗ (datG30 V a1 (gblk30 V a1) c).owesAt () t.castSucc
        ∗ (∃ d, owns (c : Thread nD τ) (spec30_0.stage ((cfg30 a1).slots t 0)) fullShare ((datG30 V a1 (gblk30 V a1) c).before 0 t d)))
      ⊢ wp frame (wpE (defs₀ (F := F)) Variants.none c none) Set.univ
          (cc30__gather_kernel ((cfg30 a1).grid.coords t) (Memref.whole main_v104) (Memref.isWhole_whole _) (Memref.whole main_v89) (Memref.isWhole_whole _)
            (spec30_0.stage ((cfg30 a1).slots t 0)) (hstage30_0 (((cfg30 a1).slots t 0).cast nbuf30_0)) cc30_scratch0)
          (fun _ => iprop(iprop(Pipeline.ΦD osem30 spec30 H30 V c ∗ Pipeline.prefHeld pre30 c (fun _ => fullShare) a1.1)
            ∗ (datG30 V a1 (gblk30 V a1) c).owesAt () t.succ
            ∗ owns (c : Thread nD τ) (spec30_0.stage ((cfg30 a1).slots t 0)) fullShare (gblk30 V a1 c t)))
  rw [Pipeline.ΦD_eq, ownSems30_eq, hbm30_eq, tblw30_eq]
  unfold Dat.owesAt Pipeline.owesWithin
  rw [show (datG30 V a1 (gblk30 V a1) c).owed t.castSucc = 0 from rfl, show (datG30 V a1 (gblk30 V a1) c).owed t.succ = 0 from rfl]
  have hr : (Memref.whole main_v89 : Memref sig .tc .hbm S50000x128 .f32).view.read (Elt F) (V c main_v89) = V c main_v89 := by
    simp only [Memref.view_whole, View.read_whole]
  iintro ⟨⟨⟨Hsc, Hg, ⟨Hq0, Hq1, Hq2, Hq3, Hq4, Hq5, Hq6, Hq7⟩, Hh⟩, Ht⟩, ⟨%W, -, HW⟩, ⟨%d, Hob⟩⟩
  iapply (kernelRun23 c ((cfg30 a1).grid.coords t) (Memref.whole main_v104) (Memref.isWhole_whole _) (Memref.whole main_v89) (Memref.isWhole_whole _)
    (spec30_0.stage ((cfg30 a1).slots t 0)) (hstage30_0 (((cfg30 a1).slots t 0).cast nbuf30_0)) (tblw30 a1) hlt fullShare fullShare (V c main_v89) cc30_scratch0 W _)
  isplitl [Ht]; · iexact Ht
  isplitl [Hh]; · iexact Hh
  isplitl [Hob]; · iexists _; iexact Hob
  isplitl [Hq0]; · iexact Hq0
  isplitl [Hq1]; · iexact Hq1
  isplitl [Hq2]; · iexact Hq2
  isplitl [Hq3]; · iexact Hq3
  isplitl [Hq4]; · iexact Hq4
  isplitl [Hq5]; · iexact Hq5
  isplitl [Hq6]; · iexact Hq6
  isplitl [Hq7]; · iexact Hq7
  isplitl [HW]; · iexact HW
  iintro ⟨Ht, Hh, Hob, Hq0, Hq1, Hq2, Hq3, Hq4, Hq5, Hq6, Hq7, ⟨%W', HW'⟩⟩
  isplitl [Hsc Hg Hq0 Hq1 Hq2 Hq3 Hq4 Hq5 Hq6 Hq7 Hh Ht]
  · isplitl [Hsc Hg Hq0 Hq1 Hq2 Hq3 Hq4 Hq5 Hq6 Hq7 Hh]
    · isplitl [Hsc]; · iexact Hsc
      isplitl [Hg]; · iexact Hg
      isplitl [Hq0 Hq1 Hq2 Hq3 Hq4 Hq5 Hq6 Hq7]
      · isplitl [Hq0]; · iexact Hq0
        isplitl [Hq1]; · iexact Hq1
        isplitl [Hq2]; · iexact Hq2
        isplitl [Hq3]; · iexact Hq3
        isplitl [Hq4]; · iexact Hq4
        isplitl [Hq5]; · iexact Hq5
        isplitl [Hq6]; · iexact Hq6
        iexact Hq7
      iexact Hh
    iexact Ht
  isplitl [HW']
  · iexists W'; isplitr; · ipureintro; exact fun _ _ => Or.inl trivial
    iexact HW'
  rw [hr]
  iexact Hob

end Cert.Kernel.Hand

end
-- ==== Proof.K.GatherBody31.lean ====
/-
  Region 31's body obligation. The region runs the body of region 23 on its own table, array, output block and
  semaphores (the two kernel functions are one function), so the body's run is region 23's, cited at this region's eight
  semaphores; read with this region's invariant it is the pipeline's body obligation for the region's proof data.
-/
import proofs.«402049_j87351044866139_2_alg».proof.Proof.K.GatherDef31
import proofs.«402049_j87351044866139_2_alg».proof.Proof.K.GatherBody23

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Idealize.ShloMosaic.Transfers (shareDrop shareTokN)
open Cert.Kernel Cert.Kernel.Gen

variable {F : FTy → Type} [FloatOps F]

local notation "𝕄" => MT nD τ sig Unit (Elt F) ℕ (Pipeline.UD sig nD τ) ℕ

/-! ## The body obligation -/

variable (V : (c : Dev nD) → (b : Ref sig .tc) → Buf (Elt F) ((c : Thread nD τ).loc b))
variable (a1 : (pcfg31 (F := F)).Adm)

/-- The eight cells at zero, listed, each as the body names it. -/
theorem ownSems31_eq (c : Dev nD) :
    (Pipeline.ownSems0 (Ix := Unit) (Name := ℕ) (U := Pipeline.UD sig nD τ) (Lvl := ℕ) (Val := Elt F) (τ := τ) osem31 c : sProp 𝕄)
      = iprop(semVal ((c : Thread nD τ), cell23_0 cc31_scratch0) 0 ∗ semVal ((c : Thread nD τ), cell23_1 cc31_scratch0) 0 ∗ semVal ((c : Thread nD τ), cell23_2 cc31_scratch0) 0 ∗ semVal ((c : Thread nD τ), cell23_3 cc31_scratch0) 0 ∗ semVal ((c : Thread nD τ), cell23_4 cc31_scratch0) 0 ∗ semVal ((c : Thread nD τ), cell23_5 cc31_scratch0) 0 ∗ semVal ((c : Thread nD τ), cell23_6 cc31_scratch0) 0 ∗ semVal ((c : Thread nD τ), cell23_7 cc31_scratch0) 0) := by
  rw [Pipeline.ownSems0_eq_of_list c osem31 [0, 1, 2, 3, 4, 5, 6, 7] (by decide) (by decide)]; rfl

/-- The array the rows are read from, at the contents the region found it with. -/
theorem hbm31_eq (c : Dev nD) :
    (bigSep H31 (fun b => ((c : Thread nD τ).loc b) ↦{fullShare} V c b) : sProp 𝕄)
      = ((Memref.whole main_v89 : Memref sig .tc .hbm S50000x128 .f32).view.loc (c : Thread nD τ) ↦{fullShare} V c main_v89) := by
  unfold H31
  rw [BI.bigSep_eq_bigSepL_of_eq [main_v89] (by decide) (by decide)]; rfl

/-- The table, held whole at the full share, is owned at its contents. -/
theorem tblw31_eq (c : Dev nD) :
    (Pipeline.prefHeld pre31 c (fun _ => fullShare) a1.1 : sProp 𝕄)
      = owns (c : Thread nD τ) (Memref.whole main_v107 : Memref sig .tc .smem S100000 .i32) fullShare (tblw31 a1) := by
  unfold Pipeline.prefHeld
  rw [bigSep_W31, owns_whole]; rfl

set_option maxHeartbeats 4000000 in
/-- The body at every point: the invariant hands the run its table, the array, the eight cells at zero (the scoped rest and
    the generator register ride along), the core's record of waits goes in at whatever the points before left and comes
    back with this point's eight, and the output block, at anything, comes back reading the gathered rows. -/
theorem hbodyG31 [∀ e, Nonempty (Elt F e)] (hlt : ∀ k : S100000.Idx, (tblw31 a1 k).toNat < 50000) (c : Dev nD) :
    BodyObligationLoose (datG31 V a1 (gblk31 V a1) c) (defs₀ (F := F)) Variants.none () Set.univ := by
  refine BodyObligation.loose _ fun t => ?_
  rw [bigSep_W31, bigSep_W31]
  show iprop(iprop(Pipeline.ΦD osem31 spec31 H31 V c ∗ Pipeline.prefHeld pre31 c (fun _ => fullShare) a1.1)
        ∗ (datG31 V a1 (gblk31 V a1) c).owesAt () t.castSucc
        ∗ (∃ d, owns (c : Thread nD τ) (spec31_0.stage ((cfg31 a1).slots t 0)) fullShare ((datG31 V a1 (gblk31 V a1) c).before 0 t d)))
      ⊢ wp frame (wpE (defs₀ (F := F)) Variants.none c none) Set.univ
          (cc31__gather_kernel ((cfg31 a1).grid.coords t) (Memref.whole main_v107) (Memref.isWhole_whole _) (Memref.whole main_v89) (Memref.isWhole_whole _)
            (spec31_0.stage ((cfg31 a1).slots t 0)) (hstage31_0 (((cfg31 a1).slots t 0).cast nbuf31_0)) cc31_scratch0)
          (fun _ => iprop(iprop(Pipeline.ΦD osem31 spec31 H31 V c ∗ Pipeline.prefHeld pre31 c (fun _ => fullShare) a1.1)
            ∗ (datG31 V a1 (gblk31 V a1) c).owesAt () t.succ
            ∗ owns (c : Thread nD τ) (spec31_0.stage ((cfg31 a1).slots t 0)) fullShare (gblk31 V a1 c t)))
  rw [Pipeline.ΦD_eq, ownSems31_eq, hbm31_eq, tblw31_eq]
  unfold Dat.owesAt Pipeline.owesWithin
  rw [show (datG31 V a1 (gblk31 V a1) c).owed t.castSucc = 0 from rfl, show (datG31 V a1 (gblk31 V a1) c).owed t.succ = 0 from rfl]
  have hr : (Memref.whole main_v89 : Memref sig .tc .hbm S50000x128 .f32).view.read (Elt F) (V c main_v89) = V c main_v89 := by
    simp only [Memref.view_whole, View.read_whole]
  iintro ⟨⟨⟨Hsc, Hg, ⟨Hq0, Hq1, Hq2, Hq3, Hq4, Hq5, Hq6, Hq7⟩, Hh⟩, Ht⟩, ⟨%W, -, HW⟩, ⟨%d, Hob⟩⟩
  iapply (kernelRun23 c ((cfg31 a1).grid.coords t) (Memref.whole main_v107) (Memref.isWhole_whole _) (Memref.whole main_v89) (Memref.isWhole_whole _)
    (spec31_0.stage ((cfg31 a1).slots t 0)) (hstage31_0 (((cfg31 a1).slots t 0).cast nbuf31_0)) (tblw31 a1) hlt fullShare fullShare (V c main_v89) cc31_scratch0 W _)
  isplitl [Ht]; · iexact Ht
  isplitl [Hh]; · iexact Hh
  isplitl [Hob]; · iexists _; iexact Hob
  isplitl [Hq0]; · iexact Hq0
  isplitl [Hq1]; · iexact Hq1
  isplitl [Hq2]; · iexact Hq2
  isplitl [Hq3]; · iexact Hq3
  isplitl [Hq4]; · iexact Hq4
  isplitl [Hq5]; · iexact Hq5
  isplitl [Hq6]; · iexact Hq6
  isplitl [Hq7]; · iexact Hq7
  isplitl [HW]; · iexact HW
  iintro ⟨Ht, Hh, Hob, Hq0, Hq1, Hq2, Hq3, Hq4, Hq5, Hq6, Hq7, ⟨%W', HW'⟩⟩
  isplitl [Hsc Hg Hq0 Hq1 Hq2 Hq3 Hq4 Hq5 Hq6 Hq7 Hh Ht]
  · isplitl [Hsc Hg Hq0 Hq1 Hq2 Hq3 Hq4 Hq5 Hq6 Hq7 Hh]
    · isplitl [Hsc]; · iexact Hsc
      isplitl [Hg]; · iexact Hg
      isplitl [Hq0 Hq1 Hq2 Hq3 Hq4 Hq5 Hq6 Hq7]
      · isplitl [Hq0]; · iexact Hq0
        isplitl [Hq1]; · iexact Hq1
        isplitl [Hq2]; · iexact Hq2
        isplitl [Hq3]; · iexact Hq3
        isplitl [Hq4]; · iexact Hq4
        isplitl [Hq5]; · iexact Hq5
        isplitl [Hq6]; · iexact Hq6
        iexact Hq7
      iexact Hh
    iexact Ht
  isplitl [HW']
  · iexists W'; isplitr; · ipureintro; exact fun _ _ => Or.inl trivial
    iexact HW'
  rw [hr]
  iexact Hob

end Cert.Kernel.Hand

end
-- ==== Proof.K.GatherBody32.lean ====
/-
  Region 32's body obligation. The region runs the body of region 23 on its own table, array, output block and
  semaphores (the two kernel functions are one function), so the body's run is region 23's, cited at this region's eight
  semaphores; read with this region's invariant it is the pipeline's body obligation for the region's proof data.
-/
import proofs.«402049_j87351044866139_2_alg».proof.Proof.K.GatherDef32
import proofs.«402049_j87351044866139_2_alg».proof.Proof.K.GatherBody23

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Idealize.ShloMosaic.Transfers (shareDrop shareTokN)
open Cert.Kernel Cert.Kernel.Gen

variable {F : FTy → Type} [FloatOps F]

local notation "𝕄" => MT nD τ sig Unit (Elt F) ℕ (Pipeline.UD sig nD τ) ℕ

/-! ## The body obligation -/

variable (V : (c : Dev nD) → (b : Ref sig .tc) → Buf (Elt F) ((c : Thread nD τ).loc b))
variable (a1 : (pcfg32 (F := F)).Adm)

/-- The eight cells at zero, listed, each as the body names it. -/
theorem ownSems32_eq (c : Dev nD) :
    (Pipeline.ownSems0 (Ix := Unit) (Name := ℕ) (U := Pipeline.UD sig nD τ) (Lvl := ℕ) (Val := Elt F) (τ := τ) osem32 c : sProp 𝕄)
      = iprop(semVal ((c : Thread nD τ), cell23_0 cc32_scratch0) 0 ∗ semVal ((c : Thread nD τ), cell23_1 cc32_scratch0) 0 ∗ semVal ((c : Thread nD τ), cell23_2 cc32_scratch0) 0 ∗ semVal ((c : Thread nD τ), cell23_3 cc32_scratch0) 0 ∗ semVal ((c : Thread nD τ), cell23_4 cc32_scratch0) 0 ∗ semVal ((c : Thread nD τ), cell23_5 cc32_scratch0) 0 ∗ semVal ((c : Thread nD τ), cell23_6 cc32_scratch0) 0 ∗ semVal ((c : Thread nD τ), cell23_7 cc32_scratch0) 0) := by
  rw [Pipeline.ownSems0_eq_of_list c osem32 [0, 1, 2, 3, 4, 5, 6, 7] (by decide) (by decide)]; rfl

/-- The array the rows are read from, at the contents the region found it with. -/
theorem hbm32_eq (c : Dev nD) :
    (bigSep H32 (fun b => ((c : Thread nD τ).loc b) ↦{fullShare} V c b) : sProp 𝕄)
      = ((Memref.whole main_v89 : Memref sig .tc .hbm S50000x128 .f32).view.loc (c : Thread nD τ) ↦{fullShare} V c main_v89) := by
  unfold H32
  rw [BI.bigSep_eq_bigSepL_of_eq [main_v89] (by decide) (by decide)]; rfl

/-- The table, held whole at the full share, is owned at its contents. -/
theorem tblw32_eq (c : Dev nD) :
    (Pipeline.prefHeld pre32 c (fun _ => fullShare) a1.1 : sProp 𝕄)
      = owns (c : Thread nD τ) (Memref.whole main_v109 : Memref sig .tc .smem S100000 .i32) fullShare (tblw32 a1) := by
  unfold Pipeline.prefHeld
  rw [bigSep_W32, owns_whole]; rfl

set_option maxHeartbeats 4000000 in
/-- The body at every point: the invariant hands the run its table, the array, the eight cells at zero (the scoped rest and
    the generator register ride along), the core's record of waits goes in at whatever the points before left and comes
    back with this point's eight, and the output block, at anything, comes back reading the gathered rows. -/
theorem hbodyG32 [∀ e, Nonempty (Elt F e)] (hlt : ∀ k : S100000.Idx, (tblw32 a1 k).toNat < 50000) (c : Dev nD) :
    BodyObligationLoose (datG32 V a1 (gblk32 V a1) c) (defs₀ (F := F)) Variants.none () Set.univ := by
  refine BodyObligation.loose _ fun t => ?_
  rw [bigSep_W32, bigSep_W32]
  show iprop(iprop(Pipeline.ΦD osem32 spec32 H32 V c ∗ Pipeline.prefHeld pre32 c (fun _ => fullShare) a1.1)
        ∗ (datG32 V a1 (gblk32 V a1) c).owesAt () t.castSucc
        ∗ (∃ d, owns (c : Thread nD τ) (spec32_0.stage ((cfg32 a1).slots t 0)) fullShare ((datG32 V a1 (gblk32 V a1) c).before 0 t d)))
      ⊢ wp frame (wpE (defs₀ (F := F)) Variants.none c none) Set.univ
          (cc32__gather_kernel ((cfg32 a1).grid.coords t) (Memref.whole main_v109) (Memref.isWhole_whole _) (Memref.whole main_v89) (Memref.isWhole_whole _)
            (spec32_0.stage ((cfg32 a1).slots t 0)) (hstage32_0 (((cfg32 a1).slots t 0).cast nbuf32_0)) cc32_scratch0)
          (fun _ => iprop(iprop(Pipeline.ΦD osem32 spec32 H32 V c ∗ Pipeline.prefHeld pre32 c (fun _ => fullShare) a1.1)
            ∗ (datG32 V a1 (gblk32 V a1) c).owesAt () t.succ
            ∗ owns (c : Thread nD τ) (spec32_0.stage ((cfg32 a1).slots t 0)) fullShare (gblk32 V a1 c t)))
  rw [Pipeline.ΦD_eq, ownSems32_eq, hbm32_eq, tblw32_eq]
  unfold Dat.owesAt Pipeline.owesWithin
  rw [show (datG32 V a1 (gblk32 V a1) c).owed t.castSucc = 0 from rfl, show (datG32 V a1 (gblk32 V a1) c).owed t.succ = 0 from rfl]
  have hr : (Memref.whole main_v89 : Memref sig .tc .hbm S50000x128 .f32).view.read (Elt F) (V c main_v89) = V c main_v89 := by
    simp only [Memref.view_whole, View.read_whole]
  iintro ⟨⟨⟨Hsc, Hg, ⟨Hq0, Hq1, Hq2, Hq3, Hq4, Hq5, Hq6, Hq7⟩, Hh⟩, Ht⟩, ⟨%W, -, HW⟩, ⟨%d, Hob⟩⟩
  iapply (kernelRun23 c ((cfg32 a1).grid.coords t) (Memref.whole main_v109) (Memref.isWhole_whole _) (Memref.whole main_v89) (Memref.isWhole_whole _)
    (spec32_0.stage ((cfg32 a1).slots t 0)) (hstage32_0 (((cfg32 a1).slots t 0).cast nbuf32_0)) (tblw32 a1) hlt fullShare fullShare (V c main_v89) cc32_scratch0 W _)
  isplitl [Ht]; · iexact Ht
  isplitl [Hh]; · iexact Hh
  isplitl [Hob]; · iexists _; iexact Hob
  isplitl [Hq0]; · iexact Hq0
  isplitl [Hq1]; · iexact Hq1
  isplitl [Hq2]; · iexact Hq2
  isplitl [Hq3]; · iexact Hq3
  isplitl [Hq4]; · iexact Hq4
  isplitl [Hq5]; · iexact Hq5
  isplitl [Hq6]; · iexact Hq6
  isplitl [Hq7]; · iexact Hq7
  isplitl [HW]; · iexact HW
  iintro ⟨Ht, Hh, Hob, Hq0, Hq1, Hq2, Hq3, Hq4, Hq5, Hq6, Hq7, ⟨%W', HW'⟩⟩
  isplitl [Hsc Hg Hq0 Hq1 Hq2 Hq3 Hq4 Hq5 Hq6 Hq7 Hh Ht]
  · isplitl [Hsc Hg Hq0 Hq1 Hq2 Hq3 Hq4 Hq5 Hq6 Hq7 Hh]
    · isplitl [Hsc]; · iexact Hsc
      isplitl [Hg]; · iexact Hg
      isplitl [Hq0 Hq1 Hq2 Hq3 Hq4 Hq5 Hq6 Hq7]
      · isplitl [Hq0]; · iexact Hq0
        isplitl [Hq1]; · iexact Hq1
        isplitl [Hq2]; · iexact Hq2
        isplitl [Hq3]; · iexact Hq3
        isplitl [Hq4]; · iexact Hq4
        isplitl [Hq5]; · iexact Hq5
        isplitl [Hq6]; · iexact Hq6
        iexact Hq7
      iexact Hh
    iexact Ht
  isplitl [HW']
  · iexists W'; isplitr; · ipureintro; exact fun _ _ => Or.inl trivial
    iexact HW'
  rw [hr]
  iexact Hob

end Cert.Kernel.Hand

end
-- ==== Proof.K.GatherBody33.lean ====
/-
  Region 33's body obligation. The region runs the body of region 23 on its own table, array, output block and
  semaphores (the two kernel functions are one function), so the body's run is region 23's, cited at this region's eight
  semaphores; read with this region's invariant it is the pipeline's body obligation for the region's proof data.
-/
import proofs.«402049_j87351044866139_2_alg».proof.Proof.K.GatherDef33
import proofs.«402049_j87351044866139_2_alg».proof.Proof.K.GatherBody23

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Idealize.ShloMosaic.Transfers (shareDrop shareTokN)
open Cert.Kernel Cert.Kernel.Gen

variable {F : FTy → Type} [FloatOps F]

local notation "𝕄" => MT nD τ sig Unit (Elt F) ℕ (Pipeline.UD sig nD τ) ℕ

/-! ## The body obligation -/

variable (V : (c : Dev nD) → (b : Ref sig .tc) → Buf (Elt F) ((c : Thread nD τ).loc b))
variable (a1 : (pcfg33 (F := F)).Adm)

/-- The eight cells at zero, listed, each as the body names it. -/
theorem ownSems33_eq (c : Dev nD) :
    (Pipeline.ownSems0 (Ix := Unit) (Name := ℕ) (U := Pipeline.UD sig nD τ) (Lvl := ℕ) (Val := Elt F) (τ := τ) osem33 c : sProp 𝕄)
      = iprop(semVal ((c : Thread nD τ), cell23_0 cc33_scratch0) 0 ∗ semVal ((c : Thread nD τ), cell23_1 cc33_scratch0) 0 ∗ semVal ((c : Thread nD τ), cell23_2 cc33_scratch0) 0 ∗ semVal ((c : Thread nD τ), cell23_3 cc33_scratch0) 0 ∗ semVal ((c : Thread nD τ), cell23_4 cc33_scratch0) 0 ∗ semVal ((c : Thread nD τ), cell23_5 cc33_scratch0) 0 ∗ semVal ((c : Thread nD τ), cell23_6 cc33_scratch0) 0 ∗ semVal ((c : Thread nD τ), cell23_7 cc33_scratch0) 0) := by
  rw [Pipeline.ownSems0_eq_of_list c osem33 [0, 1, 2, 3, 4, 5, 6, 7] (by decide) (by decide)]; rfl

/-- The array the rows are read from, at the contents the region found it with. -/
theorem hbm33_eq (c : Dev nD) :
    (bigSep H33 (fun b => ((c : Thread nD τ).loc b) ↦{fullShare} V c b) : sProp 𝕄)
      = ((Memref.whole main_v89 : Memref sig .tc .hbm S50000x128 .f32).view.loc (c : Thread nD τ) ↦{fullShare} V c main_v89) := by
  unfold H33
  rw [BI.bigSep_eq_bigSepL_of_eq [main_v89] (by decide) (by decide)]; rfl

/-- The table, held whole at the full share, is owned at its contents. -/
theorem tblw33_eq (c : Dev nD) :
    (Pipeline.prefHeld pre33 c (fun _ => fullShare) a1.1 : sProp 𝕄)
      = owns (c : Thread nD τ) (Memref.whole main_v111 : Memref sig .tc .smem S100000 .i32) fullShare (tblw33 a1) := by
  unfold Pipeline.prefHeld
  rw [bigSep_W33, owns_whole]; rfl

set_option maxHeartbeats 4000000 in
/-- The body at every point: the invariant hands the run its table, the array, the eight cells at zero (the scoped rest and
    the generator register ride along), the core's record of waits goes in at whatever the points before left and comes
    back with this point's eight, and the output block, at anything, comes back reading the gathered rows. -/
theorem hbodyG33 [∀ e, Nonempty (Elt F e)] (hlt : ∀ k : S100000.Idx, (tblw33 a1 k).toNat < 50000) (c : Dev nD) :
    BodyObligationLoose (datG33 V a1 (gblk33 V a1) c) (defs₀ (F := F)) Variants.none () Set.univ := by
  refine BodyObligation.loose _ fun t => ?_
  rw [bigSep_W33, bigSep_W33]
  show iprop(iprop(Pipeline.ΦD osem33 spec33 H33 V c ∗ Pipeline.prefHeld pre33 c (fun _ => fullShare) a1.1)
        ∗ (datG33 V a1 (gblk33 V a1) c).owesAt () t.castSucc
        ∗ (∃ d, owns (c : Thread nD τ) (spec33_0.stage ((cfg33 a1).slots t 0)) fullShare ((datG33 V a1 (gblk33 V a1) c).before 0 t d)))
      ⊢ wp frame (wpE (defs₀ (F := F)) Variants.none c none) Set.univ
          (cc33__gather_kernel ((cfg33 a1).grid.coords t) (Memref.whole main_v111) (Memref.isWhole_whole _) (Memref.whole main_v89) (Memref.isWhole_whole _)
            (spec33_0.stage ((cfg33 a1).slots t 0)) (hstage33_0 (((cfg33 a1).slots t 0).cast nbuf33_0)) cc33_scratch0)
          (fun _ => iprop(iprop(Pipeline.ΦD osem33 spec33 H33 V c ∗ Pipeline.prefHeld pre33 c (fun _ => fullShare) a1.1)
            ∗ (datG33 V a1 (gblk33 V a1) c).owesAt () t.succ
            ∗ owns (c : Thread nD τ) (spec33_0.stage ((cfg33 a1).slots t 0)) fullShare (gblk33 V a1 c t)))
  rw [Pipeline.ΦD_eq, ownSems33_eq, hbm33_eq, tblw33_eq]
  unfold Dat.owesAt Pipeline.owesWithin
  rw [show (datG33 V a1 (gblk33 V a1) c).owed t.castSucc = 0 from rfl, show (datG33 V a1 (gblk33 V a1) c).owed t.succ = 0 from rfl]
  have hr : (Memref.whole main_v89 : Memref sig .tc .hbm S50000x128 .f32).view.read (Elt F) (V c main_v89) = V c main_v89 := by
    simp only [Memref.view_whole, View.read_whole]
  iintro ⟨⟨⟨Hsc, Hg, ⟨Hq0, Hq1, Hq2, Hq3, Hq4, Hq5, Hq6, Hq7⟩, Hh⟩, Ht⟩, ⟨%W, -, HW⟩, ⟨%d, Hob⟩⟩
  iapply (kernelRun23 c ((cfg33 a1).grid.coords t) (Memref.whole main_v111) (Memref.isWhole_whole _) (Memref.whole main_v89) (Memref.isWhole_whole _)
    (spec33_0.stage ((cfg33 a1).slots t 0)) (hstage33_0 (((cfg33 a1).slots t 0).cast nbuf33_0)) (tblw33 a1) hlt fullShare fullShare (V c main_v89) cc33_scratch0 W _)
  isplitl [Ht]; · iexact Ht
  isplitl [Hh]; · iexact Hh
  isplitl [Hob]; · iexists _; iexact Hob
  isplitl [Hq0]; · iexact Hq0
  isplitl [Hq1]; · iexact Hq1
  isplitl [Hq2]; · iexact Hq2
  isplitl [Hq3]; · iexact Hq3
  isplitl [Hq4]; · iexact Hq4
  isplitl [Hq5]; · iexact Hq5
  isplitl [Hq6]; · iexact Hq6
  isplitl [Hq7]; · iexact Hq7
  isplitl [HW]; · iexact HW
  iintro ⟨Ht, Hh, Hob, Hq0, Hq1, Hq2, Hq3, Hq4, Hq5, Hq6, Hq7, ⟨%W', HW'⟩⟩
  isplitl [Hsc Hg Hq0 Hq1 Hq2 Hq3 Hq4 Hq5 Hq6 Hq7 Hh Ht]
  · isplitl [Hsc Hg Hq0 Hq1 Hq2 Hq3 Hq4 Hq5 Hq6 Hq7 Hh]
    · isplitl [Hsc]; · iexact Hsc
      isplitl [Hg]; · iexact Hg
      isplitl [Hq0 Hq1 Hq2 Hq3 Hq4 Hq5 Hq6 Hq7]
      · isplitl [Hq0]; · iexact Hq0
        isplitl [Hq1]; · iexact Hq1
        isplitl [Hq2]; · iexact Hq2
        isplitl [Hq3]; · iexact Hq3
        isplitl [Hq4]; · iexact Hq4
        isplitl [Hq5]; · iexact Hq5
        isplitl [Hq6]; · iexact Hq6
        iexact Hq7
      iexact Hh
    iexact Ht
  isplitl [HW']
  · iexists W'; isplitr; · ipureintro; exact fun _ _ => Or.inl trivial
    iexact HW'
  rw [hr]
  iexact Hob

end Cert.Kernel.Hand

end
-- ==== Proof.K.GatherBody34.lean ====
/-
  Region 34's body obligation. The region runs the body of region 23 on its own table, array, output block and
  semaphores (the two kernel functions are one function), so the body's run is region 23's, cited at this region's eight
  semaphores; read with this region's invariant it is the pipeline's body obligation for the region's proof data.
-/
import proofs.«402049_j87351044866139_2_alg».proof.Proof.K.GatherDef34
import proofs.«402049_j87351044866139_2_alg».proof.Proof.K.GatherBody23

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Idealize.ShloMosaic.Transfers (shareDrop shareTokN)
open Cert.Kernel Cert.Kernel.Gen

variable {F : FTy → Type} [FloatOps F]

local notation "𝕄" => MT nD τ sig Unit (Elt F) ℕ (Pipeline.UD sig nD τ) ℕ

/-! ## The body obligation -/

variable (V : (c : Dev nD) → (b : Ref sig .tc) → Buf (Elt F) ((c : Thread nD τ).loc b))
variable (a1 : (pcfg34 (F := F)).Adm)

/-- The eight cells at zero, listed, each as the body names it. -/
theorem ownSems34_eq (c : Dev nD) :
    (Pipeline.ownSems0 (Ix := Unit) (Name := ℕ) (U := Pipeline.UD sig nD τ) (Lvl := ℕ) (Val := Elt F) (τ := τ) osem34 c : sProp 𝕄)
      = iprop(semVal ((c : Thread nD τ), cell23_0 cc34_scratch0) 0 ∗ semVal ((c : Thread nD τ), cell23_1 cc34_scratch0) 0 ∗ semVal ((c : Thread nD τ), cell23_2 cc34_scratch0) 0 ∗ semVal ((c : Thread nD τ), cell23_3 cc34_scratch0) 0 ∗ semVal ((c : Thread nD τ), cell23_4 cc34_scratch0) 0 ∗ semVal ((c : Thread nD τ), cell23_5 cc34_scratch0) 0 ∗ semVal ((c : Thread nD τ), cell23_6 cc34_scratch0) 0 ∗ semVal ((c : Thread nD τ), cell23_7 cc34_scratch0) 0) := by
  rw [Pipeline.ownSems0_eq_of_list c osem34 [0, 1, 2, 3, 4, 5, 6, 7] (by decide) (by decide)]; rfl

/-- The array the rows are read from, at the contents the region found it with. -/
theorem hbm34_eq (c : Dev nD) :
    (bigSep H34 (fun b => ((c : Thread nD τ).loc b) ↦{fullShare} V c b) : sProp 𝕄)
      = ((Memref.whole main_v89 : Memref sig .tc .hbm S50000x128 .f32).view.loc (c : Thread nD τ) ↦{fullShare} V c main_v89) := by
  unfold H34
  rw [BI.bigSep_eq_bigSepL_of_eq [main_v89] (by decide) (by decide)]; rfl

/-- The table, held whole at the full share, is owned at its contents. -/
theorem tblw34_eq (c : Dev nD) :
    (Pipeline.prefHeld pre34 c (fun _ => fullShare) a1.1 : sProp 𝕄)
      = owns (c : Thread nD τ) (Memref.whole main_v113 : Memref sig .tc .smem S100000 .i32) fullShare (tblw34 a1) := by
  unfold Pipeline.prefHeld
  rw [bigSep_W34, owns_whole]; rfl

set_option maxHeartbeats 4000000 in
/-- The body at every point: the invariant hands the run its table, the array, the eight cells at zero (the scoped rest and
    the generator register ride along), the core's record of waits goes in at whatever the points before left and comes
    back with this point's eight, and the output block, at anything, comes back reading the gathered rows. -/
theorem hbodyG34 [∀ e, Nonempty (Elt F e)] (hlt : ∀ k : S100000.Idx, (tblw34 a1 k).toNat < 50000) (c : Dev nD) :
    BodyObligationLoose (datG34 V a1 (gblk34 V a1) c) (defs₀ (F := F)) Variants.none () Set.univ := by
  refine BodyObligation.loose _ fun t => ?_
  rw [bigSep_W34, bigSep_W34]
  show iprop(iprop(Pipeline.ΦD osem34 spec34 H34 V c ∗ Pipeline.prefHeld pre34 c (fun _ => fullShare) a1.1)
        ∗ (datG34 V a1 (gblk34 V a1) c).owesAt () t.castSucc
        ∗ (∃ d, owns (c : Thread nD τ) (spec34_0.stage ((cfg34 a1).slots t 0)) fullShare ((datG34 V a1 (gblk34 V a1) c).before 0 t d)))
      ⊢ wp frame (wpE (defs₀ (F := F)) Variants.none c none) Set.univ
          (cc34__gather_kernel ((cfg34 a1).grid.coords t) (Memref.whole main_v113) (Memref.isWhole_whole _) (Memref.whole main_v89) (Memref.isWhole_whole _)
            (spec34_0.stage ((cfg34 a1).slots t 0)) (hstage34_0 (((cfg34 a1).slots t 0).cast nbuf34_0)) cc34_scratch0)
          (fun _ => iprop(iprop(Pipeline.ΦD osem34 spec34 H34 V c ∗ Pipeline.prefHeld pre34 c (fun _ => fullShare) a1.1)
            ∗ (datG34 V a1 (gblk34 V a1) c).owesAt () t.succ
            ∗ owns (c : Thread nD τ) (spec34_0.stage ((cfg34 a1).slots t 0)) fullShare (gblk34 V a1 c t)))
  rw [Pipeline.ΦD_eq, ownSems34_eq, hbm34_eq, tblw34_eq]
  unfold Dat.owesAt Pipeline.owesWithin
  rw [show (datG34 V a1 (gblk34 V a1) c).owed t.castSucc = 0 from rfl, show (datG34 V a1 (gblk34 V a1) c).owed t.succ = 0 from rfl]
  have hr : (Memref.whole main_v89 : Memref sig .tc .hbm S50000x128 .f32).view.read (Elt F) (V c main_v89) = V c main_v89 := by
    simp only [Memref.view_whole, View.read_whole]
  iintro ⟨⟨⟨Hsc, Hg, ⟨Hq0, Hq1, Hq2, Hq3, Hq4, Hq5, Hq6, Hq7⟩, Hh⟩, Ht⟩, ⟨%W, -, HW⟩, ⟨%d, Hob⟩⟩
  iapply (kernelRun23 c ((cfg34 a1).grid.coords t) (Memref.whole main_v113) (Memref.isWhole_whole _) (Memref.whole main_v89) (Memref.isWhole_whole _)
    (spec34_0.stage ((cfg34 a1).slots t 0)) (hstage34_0 (((cfg34 a1).slots t 0).cast nbuf34_0)) (tblw34 a1) hlt fullShare fullShare (V c main_v89) cc34_scratch0 W _)
  isplitl [Ht]; · iexact Ht
  isplitl [Hh]; · iexact Hh
  isplitl [Hob]; · iexists _; iexact Hob
  isplitl [Hq0]; · iexact Hq0
  isplitl [Hq1]; · iexact Hq1
  isplitl [Hq2]; · iexact Hq2
  isplitl [Hq3]; · iexact Hq3
  isplitl [Hq4]; · iexact Hq4
  isplitl [Hq5]; · iexact Hq5
  isplitl [Hq6]; · iexact Hq6
  isplitl [Hq7]; · iexact Hq7
  isplitl [HW]; · iexact HW
  iintro ⟨Ht, Hh, Hob, Hq0, Hq1, Hq2, Hq3, Hq4, Hq5, Hq6, Hq7, ⟨%W', HW'⟩⟩
  isplitl [Hsc Hg Hq0 Hq1 Hq2 Hq3 Hq4 Hq5 Hq6 Hq7 Hh Ht]
  · isplitl [Hsc Hg Hq0 Hq1 Hq2 Hq3 Hq4 Hq5 Hq6 Hq7 Hh]
    · isplitl [Hsc]; · iexact Hsc
      isplitl [Hg]; · iexact Hg
      isplitl [Hq0 Hq1 Hq2 Hq3 Hq4 Hq5 Hq6 Hq7]
      · isplitl [Hq0]; · iexact Hq0
        isplitl [Hq1]; · iexact Hq1
        isplitl [Hq2]; · iexact Hq2
        isplitl [Hq3]; · iexact Hq3
        isplitl [Hq4]; · iexact Hq4
        isplitl [Hq5]; · iexact Hq5
        isplitl [Hq6]; · iexact Hq6
        iexact Hq7
      iexact Hh
    iexact Ht
  isplitl [HW']
  · iexists W'; isplitr; · ipureintro; exact fun _ _ => Or.inl trivial
    iexact HW'
  rw [hr]
  iexact Hob

end Cert.Kernel.Hand

end
-- ==== Proof.K.Regs6.lean ====
import proofs.«402049_j87351044866139_2_alg».proof.Proof.K.Fam
import proofs.«402049_j87351044866139_2_alg».proof.Proof.K.Tables
import proofs.«402049_j87351044866139_2_alg».proof.Proof.K.GatherBody30
import proofs.«402049_j87351044866139_2_alg».proof.Proof.K.GatherBody31
import proofs.«402049_j87351044866139_2_alg».proof.Proof.K.GatherBody32
import proofs.«402049_j87351044866139_2_alg».proof.Proof.K.GatherBody33
import proofs.«402049_j87351044866139_2_alg».proof.Proof.K.GatherBody34
import Idealize.ShloMosaic.Lib.Pipeline.RegionsLoop

/-! The records of regions 30 to 34 over the thread states: each entered from every unscoped buffer at the real valuation
    before it and left at the one after it; for a gather region, first that every word of its table is a node's number. -/

set_option maxRecDepth 16384

noncomputable section

namespace Cert.Kernel.Hand

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg BodyObligation BodyObligationLoose)

variable {F : FTy → Type} [FloatOps F]

local notation "𝕄" => MT nD τ sig Unit (Elt F) ℕ UU ℕ

set_option maxHeartbeats 1000000 in
/-- Every word of region 30's table is a node's number: the data's table is what the real valuation at the region's entry
    holds in the table's buffer; that valuation is the run's own, whose table is the closed one of the launch memory. -/
theorem hlt30 (m : (ℓ : Loc nD τ sig) → Buf (Elt F) ℓ) (hm : ∀ i : S2x800000.Idx, ((V0 m c₀ main_arg1 : IVec S2x800000 32) i).toNat < 50000) :
    ∀ k : S100000.Idx, (tblw30 (a30 m) k).toNat < 50000 := by
  have h1 : tblw30 (a30 m) = (U63 m c₀ main_v104 : IVec S100000 32) := by
    unfold a30
    rfl
  have h2 : ∀ W : Valuation τ sig (Elt F), V63 m (outsU m) c₀ = W → (W main_v104 : IVec S100000 32) = tbl30 m c₀ :=
    fun W hW => by subst hW; exact tbl30_eq m (outsU m) c₀
  have e : tblw30 (a30 m) = tbl30 m c₀ := h1.trans (h2 (U63 m c₀) (V63_eq m c₀))
  intro k
  rw [e]; exact tbl30_lt m c₀ hm k
set_option maxHeartbeats 1000000 in
set_option backward.isDefEq.respectTransparency.types false in
/-- REGION 30 over the thread state: entered from every unscoped buffer at `U63`, left at `U64`. -/
def reg30 (m : (ℓ : Loc nD τ sig) → Buf (Elt F) ℓ) (hm : ∀ i : S2x800000.Idx, ((V0 m c₀ main_arg1 : IVec S2x800000 32) i).toNat < 50000) :
    RegionSeg (pcfgs (F := F)) (adm m) (pdats m) () defs₀ 𝒱₀ L lv 30 where
  win := (launch30 (F := F)).win.to₀
  block_pos := (launch30 (F := F)).block_pos
  stage_whole := (launch30 (F := F)).stage_whole
  K := Fin 8
  osem := osem30
  ho := ownSemFacts30
  hbody c := hbodyG30 (atTc (U63 m)) (a30 m) (hlt30 m hm) c
  hwaits := Pipeline.hwaits_of_owed_zero _ _ _ _ L lv 30 fun _ _ => rfl
  pre c := iprop(StableHlo.held (c : Thread nD τ) (Pipeline.ucRefs τ sig) (U63 m c) ∗ R (F := F) c)
  post c := iprop(StableHlo.held (c : Thread nD τ) (Pipeline.ucRefs τ sig) (U64 m c) ∗ R (F := F) c)
  X c := XG30 (atTc (U63 m)) c
  Y c := YG30 (atTc (U63 m)) (a30 m) c
  Z c := ZG30 (atTc (U63 m)) c
  hentry c := by
    have hsplit := Pipeline.arrays_of_unscopedBufs (p := 30) (pcfgs (F := F)) (adm m) (pdats m) (launch30 (F := F)).win (launch30 (F := F)).arr_whole c
      ((pdats m 30 c).share_full fun _ => rfl) (atTc (U63 m) c) (fun _ => rfl)
    have h := hentryG30 (atTc (U63 m)) (a30 m) (gblk30 (atTc (U63 m)) (a30 m)) c (hpf30 m c) hsplit
    rw [Pipeline.unscopedBufs_held] at h
    exact h
  hin c := hinG30 (atTc (U63 m)) (a30 m) (gblk30 (atTc (U63 m)) (a30 m)) c
  hout c := houtG30 (atTc (U63 m)) (a30 m) (gblk30 (atTc (U63 m)) (a30 m)) c
  hexit c := by
    have hjoin := Pipeline.unscopedBufs_of_arrays (p := 30) (pcfgs (F := F)) (adm m) (Ix := Unit) (Name := ℕ) (U := UU) (Lvl := ℕ)
      (launch30 (F := F)).win (launch30 (F := F)).arr_whole c (pdats m) ((pdats m 30 c).share_full fun _ => rfl)
      (atTc (U63 m) c) (atTc (U64 m) c) ((pdats m 30 c).arrAt · (cfg30 (a30 m)).N) (hF30 m c) (hrest30 m c)
    have h := hexitG30 (atTc (U63 m)) (a30 m) (gblk30 (atTc (U63 m)) (a30 m)) (atTc (U64 m)) c (hpf30 m c) hjoin
    rw [Pipeline.unscopedBufs_held] at h
    exact h

set_option maxHeartbeats 1000000 in
/-- Every word of region 31's table is a node's number: the data's table is what the real valuation at the region's entry
    holds in the table's buffer; that valuation is the run's own, whose table is the closed one of the launch memory. -/
theorem hlt31 (m : (ℓ : Loc nD τ sig) → Buf (Elt F) ℓ) (hm : ∀ i : S2x800000.Idx, ((V0 m c₀ main_arg1 : IVec S2x800000 32) i).toNat < 50000) :
    ∀ k : S100000.Idx, (tblw31 (a31 m) k).toNat < 50000 := by
  have h1 : tblw31 (a31 m) = (U65 m c₀ main_v107 : IVec S100000 32) := by
    unfold a31
    rfl
  have h2 : ∀ W : Valuation τ sig (Elt F), V65 m (outsU m) c₀ = W → (W main_v107 : IVec S100000 32) = tbl31 m c₀ :=
    fun W hW => by subst hW; exact tbl31_eq m (outsU m) c₀
  have e : tblw31 (a31 m) = tbl31 m c₀ := h1.trans (h2 (U65 m c₀) (V65_eq m c₀))
  intro k
  rw [e]; exact tbl31_lt m c₀ hm k
set_option maxHeartbeats 1000000 in
set_option backward.isDefEq.respectTransparency.types false in
/-- REGION 31 over the thread state: entered from every unscoped buffer at `U65`, left at `U66`. -/
def reg31 (m : (ℓ : Loc nD τ sig) → Buf (Elt F) ℓ) (hm : ∀ i : S2x800000.Idx, ((V0 m c₀ main_arg1 : IVec S2x800000 32) i).toNat < 50000) :
    RegionSeg (pcfgs (F := F)) (adm m) (pdats m) () defs₀ 𝒱₀ L lv 31 where
  win := (launch31 (F := F)).win.to₀
  block_pos := (launch31 (F := F)).block_pos
  stage_whole := (launch31 (F := F)).stage_whole
  K := Fin 8
  osem := osem31
  ho := ownSemFacts31
  hbody c := hbodyG31 (atTc (U65 m)) (a31 m) (hlt31 m hm) c
  hwaits := Pipeline.hwaits_of_owed_zero _ _ _ _ L lv 31 fun _ _ => rfl
  pre c := iprop(StableHlo.held (c : Thread nD τ) (Pipeline.ucRefs τ sig) (U65 m c) ∗ R (F := F) c)
  post c := iprop(StableHlo.held (c : Thread nD τ) (Pipeline.ucRefs τ sig) (U66 m c) ∗ R (F := F) c)
  X c := XG31 (atTc (U65 m)) c
  Y c := YG31 (atTc (U65 m)) (a31 m) c
  Z c := ZG31 (atTc (U65 m)) c
  hentry c := by
    have hsplit := Pipeline.arrays_of_unscopedBufs (p := 31) (pcfgs (F := F)) (adm m) (pdats m) (launch31 (F := F)).win (launch31 (F := F)).arr_whole c
      ((pdats m 31 c).share_full fun _ => rfl) (atTc (U65 m) c) (fun _ => rfl)
    have h := hentryG31 (atTc (U65 m)) (a31 m) (gblk31 (atTc (U65 m)) (a31 m)) c (hpf31 m c) hsplit
    rw [Pipeline.unscopedBufs_held] at h
    exact h
  hin c := hinG31 (atTc (U65 m)) (a31 m) (gblk31 (atTc (U65 m)) (a31 m)) c
  hout c := houtG31 (atTc (U65 m)) (a31 m) (gblk31 (atTc (U65 m)) (a31 m)) c
  hexit c := by
    have hjoin := Pipeline.unscopedBufs_of_arrays (p := 31) (pcfgs (F := F)) (adm m) (Ix := Unit) (Name := ℕ) (U := UU) (Lvl := ℕ)
      (launch31 (F := F)).win (launch31 (F := F)).arr_whole c (pdats m) ((pdats m 31 c).share_full fun _ => rfl)
      (atTc (U65 m) c) (atTc (U66 m) c) ((pdats m 31 c).arrAt · (cfg31 (a31 m)).N) (hF31 m c) (hrest31 m c)
    have h := hexitG31 (atTc (U65 m)) (a31 m) (gblk31 (atTc (U65 m)) (a31 m)) (atTc (U66 m)) c (hpf31 m c) hjoin
    rw [Pipeline.unscopedBufs_held] at h
    exact h

set_option maxHeartbeats 1000000 in
/-- Every word of region 32's table is a node's number: the data's table is what the real valuation at the region's entry
    holds in the table's buffer; that valuation is the run's own, whose table is the closed one of the launch memory. -/
theorem hlt32 (m : (ℓ : Loc nD τ sig) → Buf (Elt F) ℓ) (hm : ∀ i : S2x800000.Idx, ((V0 m c₀ main_arg1 : IVec S2x800000 32) i).toNat < 50000) :
    ∀ k : S100000.Idx, (tblw32 (a32 m) k).toNat < 50000 := by
  have h1 : tblw32 (a32 m) = (U67 m c₀ main_v109 : IVec S100000 32) := by
    unfold a32
    rfl
  have h2 : ∀ W : Valuation τ sig (Elt F), V67 m (outsU m) c₀ = W → (W main_v109 : IVec S100000 32) = tbl32 m c₀ :=
    fun W hW => by subst hW; exact tbl32_eq m (outsU m) c₀
  have e : tblw32 (a32 m) = tbl32 m c₀ := h1.trans (h2 (U67 m c₀) (V67_eq m c₀))
  intro k
  rw [e]; exact tbl32_lt m c₀ hm k
set_option maxHeartbeats 1000000 in
set_option backward.isDefEq.respectTransparency.types false in
/-- REGION 32 over the thread state: entered from every unscoped buffer at `U67`, left at `U68`. -/
def reg32 (m : (ℓ : Loc nD τ sig) → Buf (Elt F) ℓ) (hm : ∀ i : S2x800000.Idx, ((V0 m c₀ main_arg1 : IVec S2x800000 32) i).toNat < 50000) :
    RegionSeg (pcfgs (F := F)) (adm m) (pdats m) () defs₀ 𝒱₀ L lv 32 where
  win := (launch32 (F := F)).win.to₀
  block_pos := (launch32 (F := F)).block_pos
  stage_whole := (launch32 (F := F)).stage_whole
  K := Fin 8
  osem := osem32
  ho := ownSemFacts32
  hbody c := hbodyG32 (atTc (U67 m)) (a32 m) (hlt32 m hm) c
  hwaits := Pipeline.hwaits_of_owed_zero _ _ _ _ L lv 32 fun _ _ => rfl
  pre c := iprop(StableHlo.held (c : Thread nD τ) (Pipeline.ucRefs τ sig) (U67 m c) ∗ R (F := F) c)
  post c := iprop(StableHlo.held (c : Thread nD τ) (Pipeline.ucRefs τ sig) (U68 m c) ∗ R (F := F) c)
  X c := XG32 (atTc (U67 m)) c
  Y c := YG32 (atTc (U67 m)) (a32 m) c
  Z c := ZG32 (atTc (U67 m)) c
  hentry c := by
    have hsplit := Pipeline.arrays_of_unscopedBufs (p := 32) (pcfgs (F := F)) (adm m) (pdats m) (launch32 (F := F)).win (launch32 (F := F)).arr_whole c
      ((pdats m 32 c).share_full fun _ => rfl) (atTc (U67 m) c) (fun _ => rfl)
    have h := hentryG32 (atTc (U67 m)) (a32 m) (gblk32 (atTc (U67 m)) (a32 m)) c (hpf32 m c) hsplit
    rw [Pipeline.unscopedBufs_held] at h
    exact h
  hin c := hinG32 (atTc (U67 m)) (a32 m) (gblk32 (atTc (U67 m)) (a32 m)) c
  hout c := houtG32 (atTc (U67 m)) (a32 m) (gblk32 (atTc (U67 m)) (a32 m)) c
  hexit c := by
    have hjoin := Pipeline.unscopedBufs_of_arrays (p := 32) (pcfgs (F := F)) (adm m) (Ix := Unit) (Name := ℕ) (U := UU) (Lvl := ℕ)
      (launch32 (F := F)).win (launch32 (F := F)).arr_whole c (pdats m) ((pdats m 32 c).share_full fun _ => rfl)
      (atTc (U67 m) c) (atTc (U68 m) c) ((pdats m 32 c).arrAt · (cfg32 (a32 m)).N) (hF32 m c) (hrest32 m c)
    have h := hexitG32 (atTc (U67 m)) (a32 m) (gblk32 (atTc (U67 m)) (a32 m)) (atTc (U68 m)) c (hpf32 m c) hjoin
    rw [Pipeline.unscopedBufs_held] at h
    exact h

set_option maxHeartbeats 1000000 in
/-- Every word of region 33's table is a node's number: the data's table is what the real valuation at the region's entry
    holds in the table's buffer; that valuation is the run's own, whose table is the closed one of the launch memory. -/
theorem hlt33 (m : (ℓ : Loc nD τ sig) → Buf (Elt F) ℓ) (hm : ∀ i : S2x800000.Idx, ((V0 m c₀ main_arg1 : IVec S2x800000 32) i).toNat < 50000) :
    ∀ k : S100000.Idx, (tblw33 (a33 m) k).toNat < 50000 := by
  have h1 : tblw33 (a33 m) = (U69 m c₀ main_v111 : IVec S100000 32) := by
    unfold a33
    rfl
  have h2 : ∀ W : Valuation τ sig (Elt F), V69 m (outsU m) c₀ = W → (W main_v111 : IVec S100000 32) = tbl33 m c₀ :=
    fun W hW => by subst hW; exact tbl33_eq m (outsU m) c₀
  have e : tblw33 (a33 m) = tbl33 m c₀ := h1.trans (h2 (U69 m c₀) (V69_eq m c₀))
  intro k
  rw [e]; exact tbl33_lt m c₀ hm k
set_option maxHeartbeats 1000000 in
set_option backward.isDefEq.respectTransparency.types false in
/-- REGION 33 over the thread state: entered from every unscoped buffer at `U69`, left at `U70`. -/
def reg33 (m : (ℓ : Loc nD τ sig) → Buf (Elt F) ℓ) (hm : ∀ i : S2x800000.Idx, ((V0 m c₀ main_arg1 : IVec S2x800000 32) i).toNat < 50000) :
    RegionSeg (pcfgs (F := F)) (adm m) (pdats m) () defs₀ 𝒱₀ L lv 33 where
  win := (launch33 (F := F)).win.to₀
  block_pos := (launch33 (F := F)).block_pos
  stage_whole := (launch33 (F := F)).stage_whole
  K := Fin 8
  osem := osem33
  ho := ownSemFacts33
  hbody c := hbodyG33 (atTc (U69 m)) (a33 m) (hlt33 m hm) c
  hwaits := Pipeline.hwaits_of_owed_zero _ _ _ _ L lv 33 fun _ _ => rfl
  pre c := iprop(StableHlo.held (c : Thread nD τ) (Pipeline.ucRefs τ sig) (U69 m c) ∗ R (F := F) c)
  post c := iprop(StableHlo.held (c : Thread nD τ) (Pipeline.ucRefs τ sig) (U70 m c) ∗ R (F := F) c)
  X c := XG33 (atTc (U69 m)) c
  Y c := YG33 (atTc (U69 m)) (a33 m) c
  Z c := ZG33 (atTc (U69 m)) c
  hentry c := by
    have hsplit := Pipeline.arrays_of_unscopedBufs (p := 33) (pcfgs (F := F)) (adm m) (pdats m) (launch33 (F := F)).win (launch33 (F := F)).arr_whole c
      ((pdats m 33 c).share_full fun _ => rfl) (atTc (U69 m) c) (fun _ => rfl)
    have h := hentryG33 (atTc (U69 m)) (a33 m) (gblk33 (atTc (U69 m)) (a33 m)) c (hpf33 m c) hsplit
    rw [Pipeline.unscopedBufs_held] at h
    exact h
  hin c := hinG33 (atTc (U69 m)) (a33 m) (gblk33 (atTc (U69 m)) (a33 m)) c
  hout c := houtG33 (atTc (U69 m)) (a33 m) (gblk33 (atTc (U69 m)) (a33 m)) c
  hexit c := by
    have hjoin := Pipeline.unscopedBufs_of_arrays (p := 33) (pcfgs (F := F)) (adm m) (Ix := Unit) (Name := ℕ) (U := UU) (Lvl := ℕ)
      (launch33 (F := F)).win (launch33 (F := F)).arr_whole c (pdats m) ((pdats m 33 c).share_full fun _ => rfl)
      (atTc (U69 m) c) (atTc (U70 m) c) ((pdats m 33 c).arrAt · (cfg33 (a33 m)).N) (hF33 m c) (hrest33 m c)
    have h := hexitG33 (atTc (U69 m)) (a33 m) (gblk33 (atTc (U69 m)) (a33 m)) (atTc (U70 m)) c (hpf33 m c) hjoin
    rw [Pipeline.unscopedBufs_held] at h
    exact h

set_option maxHeartbeats 1000000 in
/-- Every word of region 34's table is a node's number: the data's table is what the real valuation at the region's entry
    holds in the table's buffer; that valuation is the run's own, whose table is the closed one of the launch memory. -/
theorem hlt34 (m : (ℓ : Loc nD τ sig) → Buf (Elt F) ℓ) (hm : ∀ i : S2x800000.Idx, ((V0 m c₀ main_arg1 : IVec S2x800000 32) i).toNat < 50000) :
    ∀ k : S100000.Idx, (tblw34 (a34 m) k).toNat < 50000 := by
  have h1 : tblw34 (a34 m) = (U71 m c₀ main_v113 : IVec S100000 32) := by
    unfold a34
    rfl
  have h2 : ∀ W : Valuation τ sig (Elt F), V71 m (outsU m) c₀ = W → (W main_v113 : IVec S100000 32) = tbl34 m c₀ :=
    fun W hW => by subst hW; exact tbl34_eq m (outsU m) c₀
  have e : tblw34 (a34 m) = tbl34 m c₀ := h1.trans (h2 (U71 m c₀) (V71_eq m c₀))
  intro k
  rw [e]; exact tbl34_lt m c₀ hm k
set_option maxHeartbeats 1000000 in
set_option backward.isDefEq.respectTransparency.types false in
/-- REGION 34 over the thread state: entered from every unscoped buffer at `U71`, left at `U72`. -/
def reg34 (m : (ℓ : Loc nD τ sig) → Buf (Elt F) ℓ) (hm : ∀ i : S2x800000.Idx, ((V0 m c₀ main_arg1 : IVec S2x800000 32) i).toNat < 50000) :
    RegionSeg (pcfgs (F := F)) (adm m) (pdats m) () defs₀ 𝒱₀ L lv 34 where
  win := (launch34 (F := F)).win.to₀
  block_pos := (launch34 (F := F)).block_pos
  stage_whole := (launch34 (F := F)).stage_whole
  K := Fin 8
  osem := osem34
  ho := ownSemFacts34
  hbody c := hbodyG34 (atTc (U71 m)) (a34 m) (hlt34 m hm) c
  hwaits := Pipeline.hwaits_of_owed_zero _ _ _ _ L lv 34 fun _ _ => rfl
  pre c := iprop(StableHlo.held (c : Thread nD τ) (Pipeline.ucRefs τ sig) (U71 m c) ∗ R (F := F) c)
  post c := iprop(StableHlo.held (c : Thread nD τ) (Pipeline.ucRefs τ sig) (U72 m c) ∗ R (F := F) c)
  X c := XG34 (atTc (U71 m)) c
  Y c := YG34 (atTc (U71 m)) (a34 m) c
  Z c := ZG34 (atTc (U71 m)) c
  hentry c := by
    have hsplit := Pipeline.arrays_of_unscopedBufs (p := 34) (pcfgs (F := F)) (adm m) (pdats m) (launch34 (F := F)).win (launch34 (F := F)).arr_whole c
      ((pdats m 34 c).share_full fun _ => rfl) (atTc (U71 m) c) (fun _ => rfl)
    have h := hentryG34 (atTc (U71 m)) (a34 m) (gblk34 (atTc (U71 m)) (a34 m)) c (hpf34 m c) hsplit
    rw [Pipeline.unscopedBufs_held] at h
    exact h
  hin c := hinG34 (atTc (U71 m)) (a34 m) (gblk34 (atTc (U71 m)) (a34 m)) c
  hout c := houtG34 (atTc (U71 m)) (a34 m) (gblk34 (atTc (U71 m)) (a34 m)) c
  hexit c := by
    have hjoin := Pipeline.unscopedBufs_of_arrays (p := 34) (pcfgs (F := F)) (adm m) (Ix := Unit) (Name := ℕ) (U := UU) (Lvl := ℕ)
      (launch34 (F := F)).win (launch34 (F := F)).arr_whole c (pdats m) ((pdats m 34 c).share_full fun _ => rfl)
      (atTc (U71 m) c) (atTc (U72 m) c) ((pdats m 34 c).arrAt · (cfg34 (a34 m)).N) (hF34 m c) (hrest34 m c)
    have h := hexitG34 (atTc (U71 m)) (a34 m) (gblk34 (atTc (U71 m)) (a34 m)) (atTc (U72 m)) c (hpf34 m c) hjoin
    rw [Pipeline.unscopedBufs_held] at h
    exact h

end Cert.Kernel.Hand

end
-- ==== Proof.K.GatherBody35.lean ====
/-
  Region 35's body obligation. The region runs the body of region 23 on its own table, array, output block and
  semaphores (the two kernel functions are one function), so the body's run is region 23's, cited at this region's eight
  semaphores; read with this region's invariant it is the pipeline's body obligation for the region's proof data.
-/
import proofs.«402049_j87351044866139_2_alg».proof.Proof.K.GatherDef35
import proofs.«402049_j87351044866139_2_alg».proof.Proof.K.GatherBody23

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Idealize.ShloMosaic.Transfers (shareDrop shareTokN)
open Cert.Kernel Cert.Kernel.Gen

variable {F : FTy → Type} [FloatOps F]

local notation "𝕄" => MT nD τ sig Unit (Elt F) ℕ (Pipeline.UD sig nD τ) ℕ

/-! ## The body obligation -/

variable (V : (c : Dev nD) → (b : Ref sig .tc) → Buf (Elt F) ((c : Thread nD τ).loc b))
variable (a1 : (pcfg35 (F := F)).Adm)

/-- The eight cells at zero, listed, each as the body names it. -/
theorem ownSems35_eq (c : Dev nD) :
    (Pipeline.ownSems0 (Ix := Unit) (Name := ℕ) (U := Pipeline.UD sig nD τ) (Lvl := ℕ) (Val := Elt F) (τ := τ) osem35 c : sProp 𝕄)
      = iprop(semVal ((c : Thread nD τ), cell23_0 cc35_scratch0) 0 ∗ semVal ((c : Thread nD τ), cell23_1 cc35_scratch0) 0 ∗ semVal ((c : Thread nD τ), cell23_2 cc35_scratch0) 0 ∗ semVal ((c : Thread nD τ), cell23_3 cc35_scratch0) 0 ∗ semVal ((c : Thread nD τ), cell23_4 cc35_scratch0) 0 ∗ semVal ((c : Thread nD τ), cell23_5 cc35_scratch0) 0 ∗ semVal ((c : Thread nD τ), cell23_6 cc35_scratch0) 0 ∗ semVal ((c : Thread nD τ), cell23_7 cc35_scratch0) 0) := by
  rw [Pipeline.ownSems0_eq_of_list c osem35 [0, 1, 2, 3, 4, 5, 6, 7] (by decide) (by decide)]; rfl

/-- The array the rows are read from, at the contents the region found it with. -/
theorem hbm35_eq (c : Dev nD) :
    (bigSep H35 (fun b => ((c : Thread nD τ).loc b) ↦{fullShare} V c b) : sProp 𝕄)
      = ((Memref.whole main_v89 : Memref sig .tc .hbm S50000x128 .f32).view.loc (c : Thread nD τ) ↦{fullShare} V c main_v89) := by
  unfold H35
  rw [BI.bigSep_eq_bigSepL_of_eq [main_v89] (by decide) (by decide)]; rfl

/-- The table, held whole at the full share, is owned at its contents. -/
theorem tblw35_eq (c : Dev nD) :
    (Pipeline.prefHeld pre35 c (fun _ => fullShare) a1.1 : sProp 𝕄)
      = owns (c : Thread nD τ) (Memref.whole main_v115 : Memref sig .tc .smem S100000 .i32) fullShare (tblw35 a1) := by
  unfold Pipeline.prefHeld
  rw [bigSep_W35, owns_whole]; rfl

set_option maxHeartbeats 4000000 in
/-- The body at every point: the invariant hands the run its table, the array, the eight cells at zero (the scoped rest and
    the generator register ride along), the core's record of waits goes in at whatever the points before left and comes
    back with this point's eight, and the output block, at anything, comes back reading the gathered rows. -/
theorem hbodyG35 [∀ e, Nonempty (Elt F e)] (hlt : ∀ k : S100000.Idx, (tblw35 a1 k).toNat < 50000) (c : Dev nD) :
    BodyObligationLoose (datG35 V a1 (gblk35 V a1) c) (defs₀ (F := F)) Variants.none () Set.univ := by
  refine BodyObligation.loose _ fun t => ?_
  rw [bigSep_W35, bigSep_W35]
  show iprop(iprop(Pipeline.ΦD osem35 spec35 H35 V c ∗ Pipeline.prefHeld pre35 c (fun _ => fullShare) a1.1)
        ∗ (datG35 V a1 (gblk35 V a1) c).owesAt () t.castSucc
        ∗ (∃ d, owns (c : Thread nD τ) (spec35_0.stage ((cfg35 a1).slots t 0)) fullShare ((datG35 V a1 (gblk35 V a1) c).before 0 t d)))
      ⊢ wp frame (wpE (defs₀ (F := F)) Variants.none c none) Set.univ
          (cc35__gather_kernel ((cfg35 a1).grid.coords t) (Memref.whole main_v115) (Memref.isWhole_whole _) (Memref.whole main_v89) (Memref.isWhole_whole _)
            (spec35_0.stage ((cfg35 a1).slots t 0)) (hstage35_0 (((cfg35 a1).slots t 0).cast nbuf35_0)) cc35_scratch0)
          (fun _ => iprop(iprop(Pipeline.ΦD osem35 spec35 H35 V c ∗ Pipeline.prefHeld pre35 c (fun _ => fullShare) a1.1)
            ∗ (datG35 V a1 (gblk35 V a1) c).owesAt () t.succ
            ∗ owns (c : Thread nD τ) (spec35_0.stage ((cfg35 a1).slots t 0)) fullShare (gblk35 V a1 c t)))
  rw [Pipeline.ΦD_eq, ownSems35_eq, hbm35_eq, tblw35_eq]
  unfold Dat.owesAt Pipeline.owesWithin
  rw [show (datG35 V a1 (gblk35 V a1) c).owed t.castSucc = 0 from rfl, show (datG35 V a1 (gblk35 V a1) c).owed t.succ = 0 from rfl]
  have hr : (Memref.whole main_v89 : Memref sig .tc .hbm S50000x128 .f32).view.read (Elt F) (V c main_v89) = V c main_v89 := by
    simp only [Memref.view_whole, View.read_whole]
  iintro ⟨⟨⟨Hsc, Hg, ⟨Hq0, Hq1, Hq2, Hq3, Hq4, Hq5, Hq6, Hq7⟩, Hh⟩, Ht⟩, ⟨%W, -, HW⟩, ⟨%d, Hob⟩⟩
  iapply (kernelRun23 c ((cfg35 a1).grid.coords t) (Memref.whole main_v115) (Memref.isWhole_whole _) (Memref.whole main_v89) (Memref.isWhole_whole _)
    (spec35_0.stage ((cfg35 a1).slots t 0)) (hstage35_0 (((cfg35 a1).slots t 0).cast nbuf35_0)) (tblw35 a1) hlt fullShare fullShare (V c main_v89) cc35_scratch0 W _)
  isplitl [Ht]; · iexact Ht
  isplitl [Hh]; · iexact Hh
  isplitl [Hob]; · iexists _; iexact Hob
  isplitl [Hq0]; · iexact Hq0
  isplitl [Hq1]; · iexact Hq1
  isplitl [Hq2]; · iexact Hq2
  isplitl [Hq3]; · iexact Hq3
  isplitl [Hq4]; · iexact Hq4
  isplitl [Hq5]; · iexact Hq5
  isplitl [Hq6]; · iexact Hq6
  isplitl [Hq7]; · iexact Hq7
  isplitl [HW]; · iexact HW
  iintro ⟨Ht, Hh, Hob, Hq0, Hq1, Hq2, Hq3, Hq4, Hq5, Hq6, Hq7, ⟨%W', HW'⟩⟩
  isplitl [Hsc Hg Hq0 Hq1 Hq2 Hq3 Hq4 Hq5 Hq6 Hq7 Hh Ht]
  · isplitl [Hsc Hg Hq0 Hq1 Hq2 Hq3 Hq4 Hq5 Hq6 Hq7 Hh]
    · isplitl [Hsc]; · iexact Hsc
      isplitl [Hg]; · iexact Hg
      isplitl [Hq0 Hq1 Hq2 Hq3 Hq4 Hq5 Hq6 Hq7]
      · isplitl [Hq0]; · iexact Hq0
        isplitl [Hq1]; · iexact Hq1
        isplitl [Hq2]; · iexact Hq2
        isplitl [Hq3]; · iexact Hq3
        isplitl [Hq4]; · iexact Hq4
        isplitl [Hq5]; · iexact Hq5
        isplitl [Hq6]; · iexact Hq6
        iexact Hq7
      iexact Hh
    iexact Ht
  isplitl [HW']
  · iexists W'; isplitr; · ipureintro; exact fun _ _ => Or.inl trivial
    iexact HW'
  rw [hr]
  iexact Hob

end Cert.Kernel.Hand

end
-- ==== Proof.K.GatherBody36.lean ====
/-
  Region 36's body obligation. The region runs the body of region 23 on its own table, array, output block and
  semaphores (the two kernel functions are one function), so the body's run is region 23's, cited at this region's eight
  semaphores; read with this region's invariant it is the pipeline's body obligation for the region's proof data.
-/
import proofs.«402049_j87351044866139_2_alg».proof.Proof.K.GatherDef36
import proofs.«402049_j87351044866139_2_alg».proof.Proof.K.GatherBody23

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Idealize.ShloMosaic.Transfers (shareDrop shareTokN)
open Cert.Kernel Cert.Kernel.Gen

variable {F : FTy → Type} [FloatOps F]

local notation "𝕄" => MT nD τ sig Unit (Elt F) ℕ (Pipeline.UD sig nD τ) ℕ

/-! ## The body obligation -/

variable (V : (c : Dev nD) → (b : Ref sig .tc) → Buf (Elt F) ((c : Thread nD τ).loc b))
variable (a1 : (pcfg36 (F := F)).Adm)

/-- The eight cells at zero, listed, each as the body names it. -/
theorem ownSems36_eq (c : Dev nD) :
    (Pipeline.ownSems0 (Ix := Unit) (Name := ℕ) (U := Pipeline.UD sig nD τ) (Lvl := ℕ) (Val := Elt F) (τ := τ) osem36 c : sProp 𝕄)
      = iprop(semVal ((c : Thread nD τ), cell23_0 cc36_scratch0) 0 ∗ semVal ((c : Thread nD τ), cell23_1 cc36_scratch0) 0 ∗ semVal ((c : Thread nD τ), cell23_2 cc36_scratch0) 0 ∗ semVal ((c : Thread nD τ), cell23_3 cc36_scratch0) 0 ∗ semVal ((c : Thread nD τ), cell23_4 cc36_scratch0) 0 ∗ semVal ((c : Thread nD τ), cell23_5 cc36_scratch0) 0 ∗ semVal ((c : Thread nD τ), cell23_6 cc36_scratch0) 0 ∗ semVal ((c : Thread nD τ), cell23_7 cc36_scratch0) 0) := by
  rw [Pipeline.ownSems0_eq_of_list c osem36 [0, 1, 2, 3, 4, 5, 6, 7] (by decide) (by decide)]; rfl

/-- The array the rows are read from, at the contents the region found it with. -/
theorem hbm36_eq (c : Dev nD) :
    (bigSep H36 (fun b => ((c : Thread nD τ).loc b) ↦{fullShare} V c b) : sProp 𝕄)
      = ((Memref.whole main_v89 : Memref sig .tc .hbm S50000x128 .f32).view.loc (c : Thread nD τ) ↦{fullShare} V c main_v89) := by
  unfold H36
  rw [BI.bigSep_eq_bigSepL_of_eq [main_v89] (by decide) (by decide)]; rfl

/-- The table, held whole at the full share, is owned at its contents. -/
theorem tblw36_eq (c : Dev nD) :
    (Pipeline.prefHeld pre36 c (fun _ => fullShare) a1.1 : sProp 𝕄)
      = owns (c : Thread nD τ) (Memref.whole main_v117 : Memref sig .tc .smem S100000 .i32) fullShare (tblw36 a1) := by
  unfold Pipeline.prefHeld
  rw [bigSep_W36, owns_whole]; rfl

set_option maxHeartbeats 4000000 in
/-- The body at every point: the invariant hands the run its table, the array, the eight cells at zero (the scoped rest and
    the generator register ride along), the core's record of waits goes in at whatever the points before left and comes
    back with this point's eight, and the output block, at anything, comes back reading the gathered rows. -/
theorem hbodyG36 [∀ e, Nonempty (Elt F e)] (hlt : ∀ k : S100000.Idx, (tblw36 a1 k).toNat < 50000) (c : Dev nD) :
    BodyObligationLoose (datG36 V a1 (gblk36 V a1) c) (defs₀ (F := F)) Variants.none () Set.univ := by
  refine BodyObligation.loose _ fun t => ?_
  rw [bigSep_W36, bigSep_W36]
  show iprop(iprop(Pipeline.ΦD osem36 spec36 H36 V c ∗ Pipeline.prefHeld pre36 c (fun _ => fullShare) a1.1)
        ∗ (datG36 V a1 (gblk36 V a1) c).owesAt () t.castSucc
        ∗ (∃ d, owns (c : Thread nD τ) (spec36_0.stage ((cfg36 a1).slots t 0)) fullShare ((datG36 V a1 (gblk36 V a1) c).before 0 t d)))
      ⊢ wp frame (wpE (defs₀ (F := F)) Variants.none c none) Set.univ
          (cc36__gather_kernel ((cfg36 a1).grid.coords t) (Memref.whole main_v117) (Memref.isWhole_whole _) (Memref.whole main_v89) (Memref.isWhole_whole _)
            (spec36_0.stage ((cfg36 a1).slots t 0)) (hstage36_0 (((cfg36 a1).slots t 0).cast nbuf36_0)) cc36_scratch0)
          (fun _ => iprop(iprop(Pipeline.ΦD osem36 spec36 H36 V c ∗ Pipeline.prefHeld pre36 c (fun _ => fullShare) a1.1)
            ∗ (datG36 V a1 (gblk36 V a1) c).owesAt () t.succ
            ∗ owns (c : Thread nD τ) (spec36_0.stage ((cfg36 a1).slots t 0)) fullShare (gblk36 V a1 c t)))
  rw [Pipeline.ΦD_eq, ownSems36_eq, hbm36_eq, tblw36_eq]
  unfold Dat.owesAt Pipeline.owesWithin
  rw [show (datG36 V a1 (gblk36 V a1) c).owed t.castSucc = 0 from rfl, show (datG36 V a1 (gblk36 V a1) c).owed t.succ = 0 from rfl]
  have hr : (Memref.whole main_v89 : Memref sig .tc .hbm S50000x128 .f32).view.read (Elt F) (V c main_v89) = V c main_v89 := by
    simp only [Memref.view_whole, View.read_whole]
  iintro ⟨⟨⟨Hsc, Hg, ⟨Hq0, Hq1, Hq2, Hq3, Hq4, Hq5, Hq6, Hq7⟩, Hh⟩, Ht⟩, ⟨%W, -, HW⟩, ⟨%d, Hob⟩⟩
  iapply (kernelRun23 c ((cfg36 a1).grid.coords t) (Memref.whole main_v117) (Memref.isWhole_whole _) (Memref.whole main_v89) (Memref.isWhole_whole _)
    (spec36_0.stage ((cfg36 a1).slots t 0)) (hstage36_0 (((cfg36 a1).slots t 0).cast nbuf36_0)) (tblw36 a1) hlt fullShare fullShare (V c main_v89) cc36_scratch0 W _)
  isplitl [Ht]; · iexact Ht
  isplitl [Hh]; · iexact Hh
  isplitl [Hob]; · iexists _; iexact Hob
  isplitl [Hq0]; · iexact Hq0
  isplitl [Hq1]; · iexact Hq1
  isplitl [Hq2]; · iexact Hq2
  isplitl [Hq3]; · iexact Hq3
  isplitl [Hq4]; · iexact Hq4
  isplitl [Hq5]; · iexact Hq5
  isplitl [Hq6]; · iexact Hq6
  isplitl [Hq7]; · iexact Hq7
  isplitl [HW]; · iexact HW
  iintro ⟨Ht, Hh, Hob, Hq0, Hq1, Hq2, Hq3, Hq4, Hq5, Hq6, Hq7, ⟨%W', HW'⟩⟩
  isplitl [Hsc Hg Hq0 Hq1 Hq2 Hq3 Hq4 Hq5 Hq6 Hq7 Hh Ht]
  · isplitl [Hsc Hg Hq0 Hq1 Hq2 Hq3 Hq4 Hq5 Hq6 Hq7 Hh]
    · isplitl [Hsc]; · iexact Hsc
      isplitl [Hg]; · iexact Hg
      isplitl [Hq0 Hq1 Hq2 Hq3 Hq4 Hq5 Hq6 Hq7]
      · isplitl [Hq0]; · iexact Hq0
        isplitl [Hq1]; · iexact Hq1
        isplitl [Hq2]; · iexact Hq2
        isplitl [Hq3]; · iexact Hq3
        isplitl [Hq4]; · iexact Hq4
        isplitl [Hq5]; · iexact Hq5
        isplitl [Hq6]; · iexact Hq6
        iexact Hq7
      iexact Hh
    iexact Ht
  isplitl [HW']
  · iexists W'; isplitr; · ipureintro; exact fun _ _ => Or.inl trivial
    iexact HW'
  rw [hr]
  iexact Hob

end Cert.Kernel.Hand

end
-- ==== Proof.K.GatherBody37.lean ====
/-
  Region 37's body obligation. The region runs the body of region 23 on its own table, array, output block and
  semaphores (the two kernel functions are one function), so the body's run is region 23's, cited at this region's eight
  semaphores; read with this region's invariant it is the pipeline's body obligation for the region's proof data.
-/
import proofs.«402049_j87351044866139_2_alg».proof.Proof.K.GatherDef37
import proofs.«402049_j87351044866139_2_alg».proof.Proof.K.GatherBody23

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Idealize.ShloMosaic.Transfers (shareDrop shareTokN)
open Cert.Kernel Cert.Kernel.Gen

variable {F : FTy → Type} [FloatOps F]

local notation "𝕄" => MT nD τ sig Unit (Elt F) ℕ (Pipeline.UD sig nD τ) ℕ

/-! ## The body obligation -/

variable (V : (c : Dev nD) → (b : Ref sig .tc) → Buf (Elt F) ((c : Thread nD τ).loc b))
variable (a1 : (pcfg37 (F := F)).Adm)

/-- The eight cells at zero, listed, each as the body names it. -/
theorem ownSems37_eq (c : Dev nD) :
    (Pipeline.ownSems0 (Ix := Unit) (Name := ℕ) (U := Pipeline.UD sig nD τ) (Lvl := ℕ) (Val := Elt F) (τ := τ) osem37 c : sProp 𝕄)
      = iprop(semVal ((c : Thread nD τ), cell23_0 cc37_scratch0) 0 ∗ semVal ((c : Thread nD τ), cell23_1 cc37_scratch0) 0 ∗ semVal ((c : Thread nD τ), cell23_2 cc37_scratch0) 0 ∗ semVal ((c : Thread nD τ), cell23_3 cc37_scratch0) 0 ∗ semVal ((c : Thread nD τ), cell23_4 cc37_scratch0) 0 ∗ semVal ((c : Thread nD τ), cell23_5 cc37_scratch0) 0 ∗ semVal ((c : Thread nD τ), cell23_6 cc37_scratch0) 0 ∗ semVal ((c : Thread nD τ), cell23_7 cc37_scratch0) 0) := by
  rw [Pipeline.ownSems0_eq_of_list c osem37 [0, 1, 2, 3, 4, 5, 6, 7] (by decide) (by decide)]; rfl

/-- The array the rows are read from, at the contents the region found it with. -/
theorem hbm37_eq (c : Dev nD) :
    (bigSep H37 (fun b => ((c : Thread nD τ).loc b) ↦{fullShare} V c b) : sProp 𝕄)
      = ((Memref.whole main_v89 : Memref sig .tc .hbm S50000x128 .f32).view.loc (c : Thread nD τ) ↦{fullShare} V c main_v89) := by
  unfold H37
  rw [BI.bigSep_eq_bigSepL_of_eq [main_v89] (by decide) (by decide)]; rfl

/-- The table, held whole at the full share, is owned at its contents. -/
theorem tblw37_eq (c : Dev nD) :
    (Pipeline.prefHeld pre37 c (fun _ => fullShare) a1.1 : sProp 𝕄)
      = owns (c : Thread nD τ) (Memref.whole main_v119 : Memref sig .tc .smem S100000 .i32) fullShare (tblw37 a1) := by
  unfold Pipeline.prefHeld
  rw [bigSep_W37, owns_whole]; rfl

set_option maxHeartbeats 4000000 in
/-- The body at every point: the invariant hands the run its table, the array, the eight cells at zero (the scoped rest and
    the generator register ride along), the core's record of waits goes in at whatever the points before left and comes
    back with this point's eight, and the output block, at anything, comes back reading the gathered rows. -/
theorem hbodyG37 [∀ e, Nonempty (Elt F e)] (hlt : ∀ k : S100000.Idx, (tblw37 a1 k).toNat < 50000) (c : Dev nD) :
    BodyObligationLoose (datG37 V a1 (gblk37 V a1) c) (defs₀ (F := F)) Variants.none () Set.univ := by
  refine BodyObligation.loose _ fun t => ?_
  rw [bigSep_W37, bigSep_W37]
  show iprop(iprop(Pipeline.ΦD osem37 spec37 H37 V c ∗ Pipeline.prefHeld pre37 c (fun _ => fullShare) a1.1)
        ∗ (datG37 V a1 (gblk37 V a1) c).owesAt () t.castSucc
        ∗ (∃ d, owns (c : Thread nD τ) (spec37_0.stage ((cfg37 a1).slots t 0)) fullShare ((datG37 V a1 (gblk37 V a1) c).before 0 t d)))
      ⊢ wp frame (wpE (defs₀ (F := F)) Variants.none c none) Set.univ
          (cc37__gather_kernel ((cfg37 a1).grid.coords t) (Memref.whole main_v119) (Memref.isWhole_whole _) (Memref.whole main_v89) (Memref.isWhole_whole _)
            (spec37_0.stage ((cfg37 a1).slots t 0)) (hstage37_0 (((cfg37 a1).slots t 0).cast nbuf37_0)) cc37_scratch0)
          (fun _ => iprop(iprop(Pipeline.ΦD osem37 spec37 H37 V c ∗ Pipeline.prefHeld pre37 c (fun _ => fullShare) a1.1)
            ∗ (datG37 V a1 (gblk37 V a1) c).owesAt () t.succ
            ∗ owns (c : Thread nD τ) (spec37_0.stage ((cfg37 a1).slots t 0)) fullShare (gblk37 V a1 c t)))
  rw [Pipeline.ΦD_eq, ownSems37_eq, hbm37_eq, tblw37_eq]
  unfold Dat.owesAt Pipeline.owesWithin
  rw [show (datG37 V a1 (gblk37 V a1) c).owed t.castSucc = 0 from rfl, show (datG37 V a1 (gblk37 V a1) c).owed t.succ = 0 from rfl]
  have hr : (Memref.whole main_v89 : Memref sig .tc .hbm S50000x128 .f32).view.read (Elt F) (V c main_v89) = V c main_v89 := by
    simp only [Memref.view_whole, View.read_whole]
  iintro ⟨⟨⟨Hsc, Hg, ⟨Hq0, Hq1, Hq2, Hq3, Hq4, Hq5, Hq6, Hq7⟩, Hh⟩, Ht⟩, ⟨%W, -, HW⟩, ⟨%d, Hob⟩⟩
  iapply (kernelRun23 c ((cfg37 a1).grid.coords t) (Memref.whole main_v119) (Memref.isWhole_whole _) (Memref.whole main_v89) (Memref.isWhole_whole _)
    (spec37_0.stage ((cfg37 a1).slots t 0)) (hstage37_0 (((cfg37 a1).slots t 0).cast nbuf37_0)) (tblw37 a1) hlt fullShare fullShare (V c main_v89) cc37_scratch0 W _)
  isplitl [Ht]; · iexact Ht
  isplitl [Hh]; · iexact Hh
  isplitl [Hob]; · iexists _; iexact Hob
  isplitl [Hq0]; · iexact Hq0
  isplitl [Hq1]; · iexact Hq1
  isplitl [Hq2]; · iexact Hq2
  isplitl [Hq3]; · iexact Hq3
  isplitl [Hq4]; · iexact Hq4
  isplitl [Hq5]; · iexact Hq5
  isplitl [Hq6]; · iexact Hq6
  isplitl [Hq7]; · iexact Hq7
  isplitl [HW]; · iexact HW
  iintro ⟨Ht, Hh, Hob, Hq0, Hq1, Hq2, Hq3, Hq4, Hq5, Hq6, Hq7, ⟨%W', HW'⟩⟩
  isplitl [Hsc Hg Hq0 Hq1 Hq2 Hq3 Hq4 Hq5 Hq6 Hq7 Hh Ht]
  · isplitl [Hsc Hg Hq0 Hq1 Hq2 Hq3 Hq4 Hq5 Hq6 Hq7 Hh]
    · isplitl [Hsc]; · iexact Hsc
      isplitl [Hg]; · iexact Hg
      isplitl [Hq0 Hq1 Hq2 Hq3 Hq4 Hq5 Hq6 Hq7]
      · isplitl [Hq0]; · iexact Hq0
        isplitl [Hq1]; · iexact Hq1
        isplitl [Hq2]; · iexact Hq2
        isplitl [Hq3]; · iexact Hq3
        isplitl [Hq4]; · iexact Hq4
        isplitl [Hq5]; · iexact Hq5
        isplitl [Hq6]; · iexact Hq6
        iexact Hq7
      iexact Hh
    iexact Ht
  isplitl [HW']
  · iexists W'; isplitr; · ipureintro; exact fun _ _ => Or.inl trivial
    iexact HW'
  rw [hr]
  iexact Hob

end Cert.Kernel.Hand

end
-- ==== Proof.K.GatherBody38.lean ====
/-
  Region 38's body obligation. The region runs the body of region 23 on its own table, array, output block and
  semaphores (the two kernel functions are one function), so the body's run is region 23's, cited at this region's eight
  semaphores; read with this region's invariant it is the pipeline's body obligation for the region's proof data.
-/
import proofs.«402049_j87351044866139_2_alg».proof.Proof.K.GatherDef38
import proofs.«402049_j87351044866139_2_alg».proof.Proof.K.GatherBody23

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Idealize.ShloMosaic.Transfers (shareDrop shareTokN)
open Cert.Kernel Cert.Kernel.Gen

variable {F : FTy → Type} [FloatOps F]

local notation "𝕄" => MT nD τ sig Unit (Elt F) ℕ (Pipeline.UD sig nD τ) ℕ

/-! ## The body obligation -/

variable (V : (c : Dev nD) → (b : Ref sig .tc) → Buf (Elt F) ((c : Thread nD τ).loc b))
variable (a1 : (pcfg38 (F := F)).Adm)

/-- The eight cells at zero, listed, each as the body names it. -/
theorem ownSems38_eq (c : Dev nD) :
    (Pipeline.ownSems0 (Ix := Unit) (Name := ℕ) (U := Pipeline.UD sig nD τ) (Lvl := ℕ) (Val := Elt F) (τ := τ) osem38 c : sProp 𝕄)
      = iprop(semVal ((c : Thread nD τ), cell23_0 cc38_scratch0) 0 ∗ semVal ((c : Thread nD τ), cell23_1 cc38_scratch0) 0 ∗ semVal ((c : Thread nD τ), cell23_2 cc38_scratch0) 0 ∗ semVal ((c : Thread nD τ), cell23_3 cc38_scratch0) 0 ∗ semVal ((c : Thread nD τ), cell23_4 cc38_scratch0) 0 ∗ semVal ((c : Thread nD τ), cell23_5 cc38_scratch0) 0 ∗ semVal ((c : Thread nD τ), cell23_6 cc38_scratch0) 0 ∗ semVal ((c : Thread nD τ), cell23_7 cc38_scratch0) 0) := by
  rw [Pipeline.ownSems0_eq_of_list c osem38 [0, 1, 2, 3, 4, 5, 6, 7] (by decide) (by decide)]; rfl

/-- The array the rows are read from, at the contents the region found it with. -/
theorem hbm38_eq (c : Dev nD) :
    (bigSep H38 (fun b => ((c : Thread nD τ).loc b) ↦{fullShare} V c b) : sProp 𝕄)
      = ((Memref.whole main_v89 : Memref sig .tc .hbm S50000x128 .f32).view.loc (c : Thread nD τ) ↦{fullShare} V c main_v89) := by
  unfold H38
  rw [BI.bigSep_eq_bigSepL_of_eq [main_v89] (by decide) (by decide)]; rfl

/-- The table, held whole at the full share, is owned at its contents. -/
theorem tblw38_eq (c : Dev nD) :
    (Pipeline.prefHeld pre38 c (fun _ => fullShare) a1.1 : sProp 𝕄)
      = owns (c : Thread nD τ) (Memref.whole main_v121 : Memref sig .tc .smem S100000 .i32) fullShare (tblw38 a1) := by
  unfold Pipeline.prefHeld
  rw [bigSep_W38, owns_whole]; rfl

set_option maxHeartbeats 4000000 in
/-- The body at every point: the invariant hands the run its table, the array, the eight cells at zero (the scoped rest and
    the generator register ride along), the core's record of waits goes in at whatever the points before left and comes
    back with this point's eight, and the output block, at anything, comes back reading the gathered rows. -/
theorem hbodyG38 [∀ e, Nonempty (Elt F e)] (hlt : ∀ k : S100000.Idx, (tblw38 a1 k).toNat < 50000) (c : Dev nD) :
    BodyObligationLoose (datG38 V a1 (gblk38 V a1) c) (defs₀ (F := F)) Variants.none () Set.univ := by
  refine BodyObligation.loose _ fun t => ?_
  rw [bigSep_W38, bigSep_W38]
  show iprop(iprop(Pipeline.ΦD osem38 spec38 H38 V c ∗ Pipeline.prefHeld pre38 c (fun _ => fullShare) a1.1)
        ∗ (datG38 V a1 (gblk38 V a1) c).owesAt () t.castSucc
        ∗ (∃ d, owns (c : Thread nD τ) (spec38_0.stage ((cfg38 a1).slots t 0)) fullShare ((datG38 V a1 (gblk38 V a1) c).before 0 t d)))
      ⊢ wp frame (wpE (defs₀ (F := F)) Variants.none c none) Set.univ
          (cc38__gather_kernel ((cfg38 a1).grid.coords t) (Memref.whole main_v121) (Memref.isWhole_whole _) (Memref.whole main_v89) (Memref.isWhole_whole _)
            (spec38_0.stage ((cfg38 a1).slots t 0)) (hstage38_0 (((cfg38 a1).slots t 0).cast nbuf38_0)) cc38_scratch0)
          (fun _ => iprop(iprop(Pipeline.ΦD osem38 spec38 H38 V c ∗ Pipeline.prefHeld pre38 c (fun _ => fullShare) a1.1)
            ∗ (datG38 V a1 (gblk38 V a1) c).owesAt () t.succ
            ∗ owns (c : Thread nD τ) (spec38_0.stage ((cfg38 a1).slots t 0)) fullShare (gblk38 V a1 c t)))
  rw [Pipeline.ΦD_eq, ownSems38_eq, hbm38_eq, tblw38_eq]
  unfold Dat.owesAt Pipeline.owesWithin
  rw [show (datG38 V a1 (gblk38 V a1) c).owed t.castSucc = 0 from rfl, show (datG38 V a1 (gblk38 V a1) c).owed t.succ = 0 from rfl]
  have hr : (Memref.whole main_v89 : Memref sig .tc .hbm S50000x128 .f32).view.read (Elt F) (V c main_v89) = V c main_v89 := by
    simp only [Memref.view_whole, View.read_whole]
  iintro ⟨⟨⟨Hsc, Hg, ⟨Hq0, Hq1, Hq2, Hq3, Hq4, Hq5, Hq6, Hq7⟩, Hh⟩, Ht⟩, ⟨%W, -, HW⟩, ⟨%d, Hob⟩⟩
  iapply (kernelRun23 c ((cfg38 a1).grid.coords t) (Memref.whole main_v121) (Memref.isWhole_whole _) (Memref.whole main_v89) (Memref.isWhole_whole _)
    (spec38_0.stage ((cfg38 a1).slots t 0)) (hstage38_0 (((cfg38 a1).slots t 0).cast nbuf38_0)) (tblw38 a1) hlt fullShare fullShare (V c main_v89) cc38_scratch0 W _)
  isplitl [Ht]; · iexact Ht
  isplitl [Hh]; · iexact Hh
  isplitl [Hob]; · iexists _; iexact Hob
  isplitl [Hq0]; · iexact Hq0
  isplitl [Hq1]; · iexact Hq1
  isplitl [Hq2]; · iexact Hq2
  isplitl [Hq3]; · iexact Hq3
  isplitl [Hq4]; · iexact Hq4
  isplitl [Hq5]; · iexact Hq5
  isplitl [Hq6]; · iexact Hq6
  isplitl [Hq7]; · iexact Hq7
  isplitl [HW]; · iexact HW
  iintro ⟨Ht, Hh, Hob, Hq0, Hq1, Hq2, Hq3, Hq4, Hq5, Hq6, Hq7, ⟨%W', HW'⟩⟩
  isplitl [Hsc Hg Hq0 Hq1 Hq2 Hq3 Hq4 Hq5 Hq6 Hq7 Hh Ht]
  · isplitl [Hsc Hg Hq0 Hq1 Hq2 Hq3 Hq4 Hq5 Hq6 Hq7 Hh]
    · isplitl [Hsc]; · iexact Hsc
      isplitl [Hg]; · iexact Hg
      isplitl [Hq0 Hq1 Hq2 Hq3 Hq4 Hq5 Hq6 Hq7]
      · isplitl [Hq0]; · iexact Hq0
        isplitl [Hq1]; · iexact Hq1
        isplitl [Hq2]; · iexact Hq2
        isplitl [Hq3]; · iexact Hq3
        isplitl [Hq4]; · iexact Hq4
        isplitl [Hq5]; · iexact Hq5
        isplitl [Hq6]; · iexact Hq6
        iexact Hq7
      iexact Hh
    iexact Ht
  isplitl [HW']
  · iexists W'; isplitr; · ipureintro; exact fun _ _ => Or.inl trivial
    iexact HW'
  rw [hr]
  iexact Hob

end Cert.Kernel.Hand

end
-- ==== Proof.K.Regs7.lean ====
import proofs.«402049_j87351044866139_2_alg».proof.Proof.K.Fam
import proofs.«402049_j87351044866139_2_alg».proof.Proof.K.Tables
import proofs.«402049_j87351044866139_2_alg».proof.Proof.K.GatherBody35
import proofs.«402049_j87351044866139_2_alg».proof.Proof.K.GatherBody36
import proofs.«402049_j87351044866139_2_alg».proof.Proof.K.GatherBody37
import proofs.«402049_j87351044866139_2_alg».proof.Proof.K.GatherBody38
import Idealize.ShloMosaic.Lib.Pipeline.RegionsLoop

/-! The records of regions 35 to 39 over the thread states: each entered from every unscoped buffer at the real valuation
    before it and left at the one after it; for a gather region, first that every word of its table is a node's number. -/

set_option maxRecDepth 16384

noncomputable section

namespace Cert.Kernel.Hand

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg BodyObligation BodyObligationLoose)

variable {F : FTy → Type} [FloatOps F]

local notation "𝕄" => MT nD τ sig Unit (Elt F) ℕ UU ℕ

set_option maxHeartbeats 1000000 in
/-- Every word of region 35's table is a node's number: the data's table is what the real valuation at the region's entry
    holds in the table's buffer; that valuation is the run's own, whose table is the closed one of the launch memory. -/
theorem hlt35 (m : (ℓ : Loc nD τ sig) → Buf (Elt F) ℓ) (hm : ∀ i : S2x800000.Idx, ((V0 m c₀ main_arg1 : IVec S2x800000 32) i).toNat < 50000) :
    ∀ k : S100000.Idx, (tblw35 (a35 m) k).toNat < 50000 := by
  have h1 : tblw35 (a35 m) = (U73 m c₀ main_v115 : IVec S100000 32) := by
    unfold a35
    rfl
  have h2 : ∀ W : Valuation τ sig (Elt F), V73 m (outsU m) c₀ = W → (W main_v115 : IVec S100000 32) = tbl35 m c₀ :=
    fun W hW => by subst hW; exact tbl35_eq m (outsU m) c₀
  have e : tblw35 (a35 m) = tbl35 m c₀ := h1.trans (h2 (U73 m c₀) (V73_eq m c₀))
  intro k
  rw [e]; exact tbl35_lt m c₀ hm k
set_option maxHeartbeats 1000000 in
set_option backward.isDefEq.respectTransparency.types false in
/-- REGION 35 over the thread state: entered from every unscoped buffer at `U73`, left at `U74`. -/
def reg35 (m : (ℓ : Loc nD τ sig) → Buf (Elt F) ℓ) (hm : ∀ i : S2x800000.Idx, ((V0 m c₀ main_arg1 : IVec S2x800000 32) i).toNat < 50000) :
    RegionSeg (pcfgs (F := F)) (adm m) (pdats m) () defs₀ 𝒱₀ L lv 35 where
  win := (launch35 (F := F)).win.to₀
  block_pos := (launch35 (F := F)).block_pos
  stage_whole := (launch35 (F := F)).stage_whole
  K := Fin 8
  osem := osem35
  ho := ownSemFacts35
  hbody c := hbodyG35 (atTc (U73 m)) (a35 m) (hlt35 m hm) c
  hwaits := Pipeline.hwaits_of_owed_zero _ _ _ _ L lv 35 fun _ _ => rfl
  pre c := iprop(StableHlo.held (c : Thread nD τ) (Pipeline.ucRefs τ sig) (U73 m c) ∗ R (F := F) c)
  post c := iprop(StableHlo.held (c : Thread nD τ) (Pipeline.ucRefs τ sig) (U74 m c) ∗ R (F := F) c)
  X c := XG35 (atTc (U73 m)) c
  Y c := YG35 (atTc (U73 m)) (a35 m) c
  Z c := ZG35 (atTc (U73 m)) c
  hentry c := by
    have hsplit := Pipeline.arrays_of_unscopedBufs (p := 35) (pcfgs (F := F)) (adm m) (pdats m) (launch35 (F := F)).win (launch35 (F := F)).arr_whole c
      ((pdats m 35 c).share_full fun _ => rfl) (atTc (U73 m) c) (fun _ => rfl)
    have h := hentryG35 (atTc (U73 m)) (a35 m) (gblk35 (atTc (U73 m)) (a35 m)) c (hpf35 m c) hsplit
    rw [Pipeline.unscopedBufs_held] at h
    exact h
  hin c := hinG35 (atTc (U73 m)) (a35 m) (gblk35 (atTc (U73 m)) (a35 m)) c
  hout c := houtG35 (atTc (U73 m)) (a35 m) (gblk35 (atTc (U73 m)) (a35 m)) c
  hexit c := by
    have hjoin := Pipeline.unscopedBufs_of_arrays (p := 35) (pcfgs (F := F)) (adm m) (Ix := Unit) (Name := ℕ) (U := UU) (Lvl := ℕ)
      (launch35 (F := F)).win (launch35 (F := F)).arr_whole c (pdats m) ((pdats m 35 c).share_full fun _ => rfl)
      (atTc (U73 m) c) (atTc (U74 m) c) ((pdats m 35 c).arrAt · (cfg35 (a35 m)).N) (hF35 m c) (hrest35 m c)
    have h := hexitG35 (atTc (U73 m)) (a35 m) (gblk35 (atTc (U73 m)) (a35 m)) (atTc (U74 m)) c (hpf35 m c) hjoin
    rw [Pipeline.unscopedBufs_held] at h
    exact h

set_option maxHeartbeats 1000000 in
/-- Every word of region 36's table is a node's number: the data's table is what the real valuation at the region's entry
    holds in the table's buffer; that valuation is the run's own, whose table is the closed one of the launch memory. -/
theorem hlt36 (m : (ℓ : Loc nD τ sig) → Buf (Elt F) ℓ) (hm : ∀ i : S2x800000.Idx, ((V0 m c₀ main_arg1 : IVec S2x800000 32) i).toNat < 50000) :
    ∀ k : S100000.Idx, (tblw36 (a36 m) k).toNat < 50000 := by
  have h1 : tblw36 (a36 m) = (U75 m c₀ main_v117 : IVec S100000 32) := by
    unfold a36
    rfl
  have h2 : ∀ W : Valuation τ sig (Elt F), V75 m (outsU m) c₀ = W → (W main_v117 : IVec S100000 32) = tbl36 m c₀ :=
    fun W hW => by subst hW; exact tbl36_eq m (outsU m) c₀
  have e : tblw36 (a36 m) = tbl36 m c₀ := h1.trans (h2 (U75 m c₀) (V75_eq m c₀))
  intro k
  rw [e]; exact tbl36_lt m c₀ hm k
set_option maxHeartbeats 1000000 in
set_option backward.isDefEq.respectTransparency.types false in
/-- REGION 36 over the thread state: entered from every unscoped buffer at `U75`, left at `U76`. -/
def reg36 (m : (ℓ : Loc nD τ sig) → Buf (Elt F) ℓ) (hm : ∀ i : S2x800000.Idx, ((V0 m c₀ main_arg1 : IVec S2x800000 32) i).toNat < 50000) :
    RegionSeg (pcfgs (F := F)) (adm m) (pdats m) () defs₀ 𝒱₀ L lv 36 where
  win := (launch36 (F := F)).win.to₀
  block_pos := (launch36 (F := F)).block_pos
  stage_whole := (launch36 (F := F)).stage_whole
  K := Fin 8
  osem := osem36
  ho := ownSemFacts36
  hbody c := hbodyG36 (atTc (U75 m)) (a36 m) (hlt36 m hm) c
  hwaits := Pipeline.hwaits_of_owed_zero _ _ _ _ L lv 36 fun _ _ => rfl
  pre c := iprop(StableHlo.held (c : Thread nD τ) (Pipeline.ucRefs τ sig) (U75 m c) ∗ R (F := F) c)
  post c := iprop(StableHlo.held (c : Thread nD τ) (Pipeline.ucRefs τ sig) (U76 m c) ∗ R (F := F) c)
  X c := XG36 (atTc (U75 m)) c
  Y c := YG36 (atTc (U75 m)) (a36 m) c
  Z c := ZG36 (atTc (U75 m)) c
  hentry c := by
    have hsplit := Pipeline.arrays_of_unscopedBufs (p := 36) (pcfgs (F := F)) (adm m) (pdats m) (launch36 (F := F)).win (launch36 (F := F)).arr_whole c
      ((pdats m 36 c).share_full fun _ => rfl) (atTc (U75 m) c) (fun _ => rfl)
    have h := hentryG36 (atTc (U75 m)) (a36 m) (gblk36 (atTc (U75 m)) (a36 m)) c (hpf36 m c) hsplit
    rw [Pipeline.unscopedBufs_held] at h
    exact h
  hin c := hinG36 (atTc (U75 m)) (a36 m) (gblk36 (atTc (U75 m)) (a36 m)) c
  hout c := houtG36 (atTc (U75 m)) (a36 m) (gblk36 (atTc (U75 m)) (a36 m)) c
  hexit c := by
    have hjoin := Pipeline.unscopedBufs_of_arrays (p := 36) (pcfgs (F := F)) (adm m) (Ix := Unit) (Name := ℕ) (U := UU) (Lvl := ℕ)
      (launch36 (F := F)).win (launch36 (F := F)).arr_whole c (pdats m) ((pdats m 36 c).share_full fun _ => rfl)
      (atTc (U75 m) c) (atTc (U76 m) c) ((pdats m 36 c).arrAt · (cfg36 (a36 m)).N) (hF36 m c) (hrest36 m c)
    have h := hexitG36 (atTc (U75 m)) (a36 m) (gblk36 (atTc (U75 m)) (a36 m)) (atTc (U76 m)) c (hpf36 m c) hjoin
    rw [Pipeline.unscopedBufs_held] at h
    exact h

set_option maxHeartbeats 1000000 in
/-- Every word of region 37's table is a node's number: the data's table is what the real valuation at the region's entry
    holds in the table's buffer; that valuation is the run's own, whose table is the closed one of the launch memory. -/
theorem hlt37 (m : (ℓ : Loc nD τ sig) → Buf (Elt F) ℓ) (hm : ∀ i : S2x800000.Idx, ((V0 m c₀ main_arg1 : IVec S2x800000 32) i).toNat < 50000) :
    ∀ k : S100000.Idx, (tblw37 (a37 m) k).toNat < 50000 := by
  have h1 : tblw37 (a37 m) = (U77 m c₀ main_v119 : IVec S100000 32) := by
    unfold a37
    rfl
  have h2 : ∀ W : Valuation τ sig (Elt F), V77 m (outsU m) c₀ = W → (W main_v119 : IVec S100000 32) = tbl37 m c₀ :=
    fun W hW => by subst hW; exact tbl37_eq m (outsU m) c₀
  have e : tblw37 (a37 m) = tbl37 m c₀ := h1.trans (h2 (U77 m c₀) (V77_eq m c₀))
  intro k
  rw [e]; exact tbl37_lt m c₀ hm k
set_option maxHeartbeats 1000000 in
set_option backward.isDefEq.respectTransparency.types false in
/-- REGION 37 over the thread state: entered from every unscoped buffer at `U77`, left at `U78`. -/
def reg37 (m : (ℓ : Loc nD τ sig) → Buf (Elt F) ℓ) (hm : ∀ i : S2x800000.Idx, ((V0 m c₀ main_arg1 : IVec S2x800000 32) i).toNat < 50000) :
    RegionSeg (pcfgs (F := F)) (adm m) (pdats m) () defs₀ 𝒱₀ L lv 37 where
  win := (launch37 (F := F)).win.to₀
  block_pos := (launch37 (F := F)).block_pos
  stage_whole := (launch37 (F := F)).stage_whole
  K := Fin 8
  osem := osem37
  ho := ownSemFacts37
  hbody c := hbodyG37 (atTc (U77 m)) (a37 m) (hlt37 m hm) c
  hwaits := Pipeline.hwaits_of_owed_zero _ _ _ _ L lv 37 fun _ _ => rfl
  pre c := iprop(StableHlo.held (c : Thread nD τ) (Pipeline.ucRefs τ sig) (U77 m c) ∗ R (F := F) c)
  post c := iprop(StableHlo.held (c : Thread nD τ) (Pipeline.ucRefs τ sig) (U78 m c) ∗ R (F := F) c)
  X c := XG37 (atTc (U77 m)) c
  Y c := YG37 (atTc (U77 m)) (a37 m) c
  Z c := ZG37 (atTc (U77 m)) c
  hentry c := by
    have hsplit := Pipeline.arrays_of_unscopedBufs (p := 37) (pcfgs (F := F)) (adm m) (pdats m) (launch37 (F := F)).win (launch37 (F := F)).arr_whole c
      ((pdats m 37 c).share_full fun _ => rfl) (atTc (U77 m) c) (fun _ => rfl)
    have h := hentryG37 (atTc (U77 m)) (a37 m) (gblk37 (atTc (U77 m)) (a37 m)) c (hpf37 m c) hsplit
    rw [Pipeline.unscopedBufs_held] at h
    exact h
  hin c := hinG37 (atTc (U77 m)) (a37 m) (gblk37 (atTc (U77 m)) (a37 m)) c
  hout c := houtG37 (atTc (U77 m)) (a37 m) (gblk37 (atTc (U77 m)) (a37 m)) c
  hexit c := by
    have hjoin := Pipeline.unscopedBufs_of_arrays (p := 37) (pcfgs (F := F)) (adm m) (Ix := Unit) (Name := ℕ) (U := UU) (Lvl := ℕ)
      (launch37 (F := F)).win (launch37 (F := F)).arr_whole c (pdats m) ((pdats m 37 c).share_full fun _ => rfl)
      (atTc (U77 m) c) (atTc (U78 m) c) ((pdats m 37 c).arrAt · (cfg37 (a37 m)).N) (hF37 m c) (hrest37 m c)
    have h := hexitG37 (atTc (U77 m)) (a37 m) (gblk37 (atTc (U77 m)) (a37 m)) (atTc (U78 m)) c (hpf37 m c) hjoin
    rw [Pipeline.unscopedBufs_held] at h
    exact h

set_option maxHeartbeats 1000000 in
/-- Every word of region 38's table is a node's number: the data's table is what the real valuation at the region's entry
    holds in the table's buffer; that valuation is the run's own, whose table is the closed one of the launch memory. -/
theorem hlt38 (m : (ℓ : Loc nD τ sig) → Buf (Elt F) ℓ) (hm : ∀ i : S2x800000.Idx, ((V0 m c₀ main_arg1 : IVec S2x800000 32) i).toNat < 50000) :
    ∀ k : S100000.Idx, (tblw38 (a38 m) k).toNat < 50000 := by
  have h1 : tblw38 (a38 m) = (U79 m c₀ main_v121 : IVec S100000 32) := by
    unfold a38
    rfl
  have h2 : ∀ W : Valuation τ sig (Elt F), V79 m (outsU m) c₀ = W → (W main_v121 : IVec S100000 32) = tbl38 m c₀ :=
    fun W hW => by subst hW; exact tbl38_eq m (outsU m) c₀
  have e : tblw38 (a38 m) = tbl38 m c₀ := h1.trans (h2 (U79 m c₀) (V79_eq m c₀))
  intro k
  rw [e]; exact tbl38_lt m c₀ hm k
set_option maxHeartbeats 1000000 in
set_option backward.isDefEq.respectTransparency.types false in
/-- REGION 38 over the thread state: entered from every unscoped buffer at `U79`, left at `U80`. -/
def reg38 (m : (ℓ : Loc nD τ sig) → Buf (Elt F) ℓ) (hm : ∀ i : S2x800000.Idx, ((V0 m c₀ main_arg1 : IVec S2x800000 32) i).toNat < 50000) :
    RegionSeg (pcfgs (F := F)) (adm m) (pdats m) () defs₀ 𝒱₀ L lv 38 where
  win := (launch38 (F := F)).win.to₀
  block_pos := (launch38 (F := F)).block_pos
  stage_whole := (launch38 (F := F)).stage_whole
  K := Fin 8
  osem := osem38
  ho := ownSemFacts38
  hbody c := hbodyG38 (atTc (U79 m)) (a38 m) (hlt38 m hm) c
  hwaits := Pipeline.hwaits_of_owed_zero _ _ _ _ L lv 38 fun _ _ => rfl
  pre c := iprop(StableHlo.held (c : Thread nD τ) (Pipeline.ucRefs τ sig) (U79 m c) ∗ R (F := F) c)
  post c := iprop(StableHlo.held (c : Thread nD τ) (Pipeline.ucRefs τ sig) (U80 m c) ∗ R (F := F) c)
  X c := XG38 (atTc (U79 m)) c
  Y c := YG38 (atTc (U79 m)) (a38 m) c
  Z c := ZG38 (atTc (U79 m)) c
  hentry c := by
    have hsplit := Pipeline.arrays_of_unscopedBufs (p := 38) (pcfgs (F := F)) (adm m) (pdats m) (launch38 (F := F)).win (launch38 (F := F)).arr_whole c
      ((pdats m 38 c).share_full fun _ => rfl) (atTc (U79 m) c) (fun _ => rfl)
    have h := hentryG38 (atTc (U79 m)) (a38 m) (gblk38 (atTc (U79 m)) (a38 m)) c (hpf38 m c) hsplit
    rw [Pipeline.unscopedBufs_held] at h
    exact h
  hin c := hinG38 (atTc (U79 m)) (a38 m) (gblk38 (atTc (U79 m)) (a38 m)) c
  hout c := houtG38 (atTc (U79 m)) (a38 m) (gblk38 (atTc (U79 m)) (a38 m)) c
  hexit c := by
    have hjoin := Pipeline.unscopedBufs_of_arrays (p := 38) (pcfgs (F := F)) (adm m) (Ix := Unit) (Name := ℕ) (U := UU) (Lvl := ℕ)
      (launch38 (F := F)).win (launch38 (F := F)).arr_whole c (pdats m) ((pdats m 38 c).share_full fun _ => rfl)
      (atTc (U79 m) c) (atTc (U80 m) c) ((pdats m 38 c).arrAt · (cfg38 (a38 m)).N) (hF38 m c) (hrest38 m c)
    have h := hexitG38 (atTc (U79 m)) (a38 m) (gblk38 (atTc (U79 m)) (a38 m)) (atTc (U80 m)) c (hpf38 m c) hjoin
    rw [Pipeline.unscopedBufs_held] at h
    exact h

set_option maxHeartbeats 1000000 in
set_option backward.isDefEq.respectTransparency.types false in
/-- REGION 39 over the thread state: entered from every unscoped buffer at `U81`, left at `U82`. -/
def reg39 (m : (ℓ : Loc nD τ sig) → Buf (Elt F) ℓ) : RegionSeg (pcfgs (F := F)) (adm m) (pdats m) () defs₀ 𝒱₀ L lv 39 where
  win := (launch39 (F := F)).win.to₀
  block_pos := (launch39 (F := F)).block_pos
  stage_whole := (launch39 (F := F)).stage_whole
  K := PEmpty
  osem k := k.elim
  ho := Pipeline.OwnSemFacts.none _
  hbody c := (body_obligation39 (atTc (U81 m)) c).loose
  hwaits := Pipeline.hwaits_of_owed_zero _ _ _ _ L lv 39 fun _ _ => rfl
  pre c := iprop(StableHlo.held (c : Thread nD τ) (Pipeline.ucRefs τ sig) (U81 m c) ∗ R (F := F) c)
  post c := iprop(StableHlo.held (c : Thread nD τ) (Pipeline.ucRefs τ sig) (U82 m c) ∗ R (F := F) c)
  X c := iprop(∃ r, prngReg c r)
  Y c := iprop(∃ r, prngReg c r)
  Z c := Pipeline.unscopedRest (Ix := Unit) (Name := ℕ) (U := UU) (Lvl := ℕ) spec39 c (atTc (U81 m) c)
  hentry c := by
    have hsplit := Pipeline.arrays_of_unscopedBufs (p := 39) (pcfgs (F := F)) (adm m) (pdats m) (launch39 (F := F)).win (launch39 (F := F)).arr_whole c
      ((pdats m 39 c).share_full fun _ => rfl) (atTc (U81 m) c) (fun _ => rfl)
    rw [Pipeline.unscopedBufs_held] at hsplit
    exact enterA c (U81 m c) hsplit (prefHeld_none_intro c _ _) (owesAt_first c _ rfl rfl)
  hin c := by
    rw [show (pdats m 39 c).Φ 0 = Pipeline.ΦA spec39 c from rfl]; unfold Pipeline.ΦA
    iintro ⟨Hp, -, Hr⟩
    isplitl [Hr]; · iexact Hr
    iexact Hp
  hout c := by
    rw [Pipeline.ownSems0_none, show (pdats m 39 c).Φ (Fin.last _) = Pipeline.ΦA spec39 c from rfl]; unfold Pipeline.ΦA
    iintro ⟨Hr, Hp⟩
    isplitl [Hp]; · iexact Hp
    isplitr; · iempintro
    iexact Hr
  hexit c := by
    have hjoin := Pipeline.unscopedBufs_of_arrays (p := 39) (pcfgs (F := F)) (adm m) (Ix := Unit) (Name := ℕ) (U := UU) (Lvl := ℕ)
      (launch39 (F := F)).win (launch39 (F := F)).arr_whole c (pdats m) ((pdats m 39 c).share_full fun _ => rfl)
      (atTc (U81 m) c) (atTc (U82 m) c) ((pdats m 39 c).arrAt · cfg39.N) (hF39 m c) (hrest39 m c)
    rw [Pipeline.unscopedBufs_held] at hjoin
    exact leaveA c (U82 m c) hjoin (owes_of_owesAt_last c _ rfl)

end Cert.Kernel.Hand

end
-- ==== Proof.K.RunAll.lean ====
import proofs.«402049_j87351044866139_2_alg».proof.Proof.K.RunCond
import proofs.«402049_j87351044866139_2_alg».proof.Proof.K.Regs0
import proofs.«402049_j87351044866139_2_alg».proof.Proof.K.Regs1
import proofs.«402049_j87351044866139_2_alg».proof.Proof.K.Regs2
import proofs.«402049_j87351044866139_2_alg».proof.Proof.K.Regs3
import proofs.«402049_j87351044866139_2_alg».proof.Proof.K.Regs4
import proofs.«402049_j87351044866139_2_alg».proof.Proof.K.Regs5
import proofs.«402049_j87351044866139_2_alg».proof.Proof.K.Regs6
import proofs.«402049_j87351044866139_2_alg».proof.Proof.K.Regs7

/-! The run of @main on the kernel side, its two results named at the last real valuation. -/

set_option maxRecDepth 16384

noncomputable section

namespace Cert.Kernel.Hand

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg BodyObligation BodyObligationLoose)

variable {F : FTy → Type} [FloatOps F]

local notation "𝕄" => MT nD τ sig Unit (Elt F) ℕ UU ℕ

/-! ## The run -/

set_option maxHeartbeats 4000000 in
/-- THE RUN. Every weakly fair execution of @main from memory `m` with zero counters terminates, and every final memory
    holds the two result buffers at the last real valuation and each argument as launched: the conditional run at the
    contents `outsU` names, every region's record entered from and left at this module's valuations. -/
theorem run_all (m : (ℓ : Loc nD τ sig) → Buf (Elt F) ℓ) (ρ : Dev nD → PrngReg)
    (hm : ∀ i : S2x800000.Idx, ((V0 m c₀ main_arg1 : IVec S2x800000 32) i).toNat < 50000)
    : θ_run defs (onTc (τ := τ) (main (F := F))) ⟨m, fun _ => 0, ρ⟩ (fun r => ∀ c : Dev nD,
      r.2.mem ((c.tc : Thread nD τ).loc main_v89) = U82 m c main_v89
      ∧ r.2.mem ((c.tc : Thread nD τ).loc main_v127) = U82 m c main_v127
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ) := by
  have h := run_cond m (EPd (F := F)) () 𝒱₀ L lv hL ρ (outsU m) (adm m) (pdats m) (fun _ => 0) (fun _ => iprop(emp))
    (u₀ (adm m)) (hu₀ (adm m)) (E (F := F)) (hE0 ρ) hE40
    (reg0 m) (fun c => by rw [V3_eq]; exact .rfl) (fun c => by rw [V4_eq]; exact .rfl)
    (reg1 m hm) (fun c => by rw [V5_eq]; exact .rfl) (fun c => by rw [V6_eq]; exact .rfl)
    (reg2 m hm) (fun c => by rw [V7_eq]; exact .rfl) (fun c => by rw [V8_eq]; exact .rfl)
    (reg3 m hm) (fun c => by rw [V9_eq]; exact .rfl) (fun c => by rw [V10_eq]; exact .rfl)
    (reg4 m hm) (fun c => by rw [V11_eq]; exact .rfl) (fun c => by rw [V12_eq]; exact .rfl)
    (reg5 m hm) (fun c => by rw [V13_eq]; exact .rfl) (fun c => by rw [V14_eq]; exact .rfl)
    (reg6 m hm) (fun c => by rw [V15_eq]; exact .rfl) (fun c => by rw [V16_eq]; exact .rfl)
    (reg7 m hm) (fun c => by rw [V17_eq]; exact .rfl) (fun c => by rw [V18_eq]; exact .rfl)
    (reg8 m hm) (fun c => by rw [V19_eq]; exact .rfl) (fun c => by rw [V20_eq]; exact .rfl)
    (reg9 m hm) (fun c => by rw [V21_eq]; exact .rfl) (fun c => by rw [V22_eq]; exact .rfl)
    (reg10 m hm) (fun c => by rw [V23_eq]; exact .rfl) (fun c => by rw [V24_eq]; exact .rfl)
    (reg11 m) (fun c => by rw [V25_eq]; exact .rfl) (fun c => by rw [V26_eq]; exact .rfl)
    (reg12 m hm) (fun c => by rw [V27_eq]; exact .rfl) (fun c => by rw [V28_eq]; exact .rfl)
    (reg13 m hm) (fun c => by rw [V29_eq]; exact .rfl) (fun c => by rw [V30_eq]; exact .rfl)
    (reg14 m hm) (fun c => by rw [V31_eq]; exact .rfl) (fun c => by rw [V32_eq]; exact .rfl)
    (reg15 m hm) (fun c => by rw [V33_eq]; exact .rfl) (fun c => by rw [V34_eq]; exact .rfl)
    (reg16 m hm) (fun c => by rw [V35_eq]; exact .rfl) (fun c => by rw [V36_eq]; exact .rfl)
    (reg17 m hm) (fun c => by rw [V37_eq]; exact .rfl) (fun c => by rw [V38_eq]; exact .rfl)
    (reg18 m hm) (fun c => by rw [V39_eq]; exact .rfl) (fun c => by rw [V40_eq]; exact .rfl)
    (reg19 m hm) (fun c => by rw [V41_eq]; exact .rfl) (fun c => by rw [V42_eq]; exact .rfl)
    (reg20 m hm) (fun c => by rw [V43_eq]; exact .rfl) (fun c => by rw [V44_eq]; exact .rfl)
    (reg21 m hm) (fun c => by rw [V45_eq]; exact .rfl) (fun c => by rw [V46_eq]; exact .rfl)
    (reg22 m) (fun c => by rw [V47_eq]; exact .rfl) (fun c => by rw [V48_eq]; exact .rfl)
    (reg23 m hm) (fun c => by rw [V49_eq]; exact .rfl) (fun c => by rw [V50_eq]; exact .rfl)
    (reg24 m hm) (fun c => by rw [V51_eq]; exact .rfl) (fun c => by rw [V52_eq]; exact .rfl)
    (reg25 m hm) (fun c => by rw [V53_eq]; exact .rfl) (fun c => by rw [V54_eq]; exact .rfl)
    (reg26 m hm) (fun c => by rw [V55_eq]; exact .rfl) (fun c => by rw [V56_eq]; exact .rfl)
    (reg27 m hm) (fun c => by rw [V57_eq]; exact .rfl) (fun c => by rw [V58_eq]; exact .rfl)
    (reg28 m hm) (fun c => by rw [V59_eq]; exact .rfl) (fun c => by rw [V60_eq]; exact .rfl)
    (reg29 m hm) (fun c => by rw [V61_eq]; exact .rfl) (fun c => by rw [V62_eq]; exact .rfl)
    (reg30 m hm) (fun c => by rw [V63_eq]; exact .rfl) (fun c => by rw [V64_eq]; exact .rfl)
    (reg31 m hm) (fun c => by rw [V65_eq]; exact .rfl) (fun c => by rw [V66_eq]; exact .rfl)
    (reg32 m hm) (fun c => by rw [V67_eq]; exact .rfl) (fun c => by rw [V68_eq]; exact .rfl)
    (reg33 m hm) (fun c => by rw [V69_eq]; exact .rfl) (fun c => by rw [V70_eq]; exact .rfl)
    (reg34 m hm) (fun c => by rw [V71_eq]; exact .rfl) (fun c => by rw [V72_eq]; exact .rfl)
    (reg35 m hm) (fun c => by rw [V73_eq]; exact .rfl) (fun c => by rw [V74_eq]; exact .rfl)
    (reg36 m hm) (fun c => by rw [V75_eq]; exact .rfl) (fun c => by rw [V76_eq]; exact .rfl)
    (reg37 m hm) (fun c => by rw [V77_eq]; exact .rfl) (fun c => by rw [V78_eq]; exact .rfl)
    (reg38 m hm) (fun c => by rw [V79_eq]; exact .rfl) (fun c => by rw [V80_eq]; exact .rfl)
    (reg39 m) (fun c => by rw [V81_eq]; exact .rfl) (fun c => by rw [V82_eq]; exact .rfl)
  exact (θ_run defs _ _).mono (fun r hr c => by have hc := hr c; rw [V82_eq] at hc; exact hc) h

end Cert.Kernel.Hand

end
-- ==== Proof.KI.RunCond.lean ====
import proofs.«402049_j87351044866139_2_alg».proof.Proof.KI.RegionsP

/-! The run of @main with its two results named: the several-regions launch over the segment list of the conditional
    frame, the last thread state read back at EVERY unscoped buffer, so that the post names, beside the eight
    arguments at their launch contents, the two result buffers at the last valuation. -/

-- decided memberships among 246 references recurse past the default depth
set_option maxRecDepth 1496

noncomputable section

namespace Cert.KernelIdeal.Hand

open Cert.KernelIdeal.Gen Cert.KernelIdeal.GenP

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

variable (m : (ℓ : Loc nD τ sig) → Buf (Elt F) ℓ)

/-- An unscoped TensorCore reference is among those the thread states hold. -/
theorem mem_uc (b : Ref sig .tc) (h : ¬ (Proc.devRef .tc b : DevRef τ sig).isScoped) :
    Proc.devRef .tc b ∈ Pipeline.ucRefs τ sig :=
  Finset.mem_filter.mpr ⟨StableHlo.devRef_mem_tcRefs b, h⟩

-- the launch theorem's implicit arguments are found by unifying its conclusion with this one, which takes unfolding
-- plain definitions in a metavariable's type
set_option backward.isDefEq.respectTransparency.types false in
/-- THE RUN, RESULTS NAMED. Under the conditional frame's hypotheses, every weakly fair execution of @main from
    memory `m` with zero counters terminates, and every final memory holds the two result buffers at the last
    valuation `V82` and each argument as launched. The last thread state holds every unscoped buffer whole at `V82`;
    reading all of them against the final state gives the results as it gives the arguments, which no item writes. -/
theorem run_cond {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F)) (a : (p : Fin 40) → (pcfgs (F := F) p).Adm)
    (pdats : (p : Fin 40) → (c : Dev nD) → Dat τ (Elt F) Ix ℕ U Lvl (Pipeline.pin (pcfgs (F := F)) a p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells (Pipeline.pin (pcfgs (F := F)) a) (cellOf_inj a)) (Pipeline.launchToks (Pipeline.pin (pcfgs (F := F)) a) (cellOf_inj a)))) ∗ bigSep Finset.univ G))
    (E : Fin 41 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE40 : ∀ c : Dev nD, E 40 c ⊢ (iprop(∃ W, owes (c : Thread nD τ) (0 : CellTallies nD τ sig Ix) W) : sProp (MT nD τ sig Ix (Elt F) ℕ U Lvl)))
    (R0 : RegionSeg (pcfgs (F := F)) a pdats ι defs₀ 𝒱₀ L lv 0)
    (hpre0 : ∀ c : Dev nD, iprop(StableHlo.held (c : Thread nD τ) (Pipeline.ucRefs τ sig) (V3 m c) ∗ E 0 c) ⊢ R0.pre c)
    (hpost0 : ∀ c : Dev nD, R0.post c ⊢ iprop(StableHlo.held (c : Thread nD τ) (Pipeline.ucRefs τ sig) (V4 m outs c) ∗ E 1 c))
    (R1 : RegionSeg (pcfgs (F := F)) a pdats ι defs₀ 𝒱₀ L lv 1)
    (hpre1 : ∀ c : Dev nD, iprop(StableHlo.held (c : Thread nD τ) (Pipeline.ucRefs τ sig) (V5 m outs c) ∗ E 1 c) ⊢ R1.pre c)
    (hpost1 : ∀ c : Dev nD, R1.post c ⊢ iprop(StableHlo.held (c : Thread nD τ) (Pipeline.ucRefs τ sig) (V6 m outs c) ∗ E 2 c))
    (R2 : RegionSeg (pcfgs (F := F)) a pdats ι defs₀ 𝒱₀ L lv 2)
    (hpre2 : ∀ c : Dev nD, iprop(StableHlo.held (c : Thread nD τ) (Pipeline.ucRefs τ sig) (V7 m outs c) ∗ E 2 c) ⊢ R2.pre c)
    (hpost2 : ∀ c : Dev nD, R2.post c ⊢ iprop(StableHlo.held (c : Thread nD τ) (Pipeline.ucRefs τ sig) (V8 m outs c) ∗ E 3 c))
    (R3 : RegionSeg (pcfgs (F := F)) a pdats ι defs₀ 𝒱₀ L lv 3)
    (hpre3 : ∀ c : Dev nD, iprop(StableHlo.held (c : Thread nD τ) (Pipeline.ucRefs τ sig) (V9 m outs c) ∗ E 3 c) ⊢ R3.pre c)
    (hpost3 : ∀ c : Dev nD, R3.post c ⊢ iprop(StableHlo.held (c : Thread nD τ) (Pipeline.ucRefs τ sig) (V10 m outs c) ∗ E 4 c))
    (R4 : RegionSeg (pcfgs (F := F)) a pdats ι defs₀ 𝒱₀ L lv 4)
    (hpre4 : ∀ c : Dev nD, iprop(StableHlo.held (c : Thread nD τ) (Pipeline.ucRefs τ sig) (V11 m outs c) ∗ E 4 c) ⊢ R4.pre c)
    (hpost4 : ∀ c : Dev nD, R4.post c ⊢ iprop(StableHlo.held (c : Thread nD τ) (Pipeline.ucRefs τ sig) (V12 m outs c) ∗ E 5 c))
    (R5 : RegionSeg (pcfgs (F := F)) a pdats ι defs₀ 𝒱₀ L lv 5)
    (hpre5 : ∀ c : Dev nD, iprop(StableHlo.held (c : Thread nD τ) (Pipeline.ucRefs τ sig) (V13 m outs c) ∗ E 5 c) ⊢ R5.pre c)
    (hpost5 : ∀ c : Dev nD, R5.post c ⊢ iprop(StableHlo.held (c : Thread nD τ) (Pipeline.ucRefs τ sig) (V14 m outs c) ∗ E 6 c))
    (R6 : RegionSeg (pcfgs (F := F)) a pdats ι defs₀ 𝒱₀ L lv 6)
    (hpre6 : ∀ c : Dev nD, iprop(StableHlo.held (c : Thread nD τ) (Pipeline.ucRefs τ sig) (V15 m outs c) ∗ E 6 c) ⊢ R6.pre c)
    (hpost6 : ∀ c : Dev nD, R6.post c ⊢ iprop(StableHlo.held (c : Thread nD τ) (Pipeline.ucRefs τ sig) (V16 m outs c) ∗ E 7 c))
    (R7 : RegionSeg (pcfgs (F := F)) a pdats ι defs₀ 𝒱₀ L lv 7)
    (hpre7 : ∀ c : Dev nD, iprop(StableHlo.held (c : Thread nD τ) (Pipeline.ucRefs τ sig) (V17 m outs c) ∗ E 7 c) ⊢ R7.pre c)
    (hpost7 : ∀ c : Dev nD, R7.post c ⊢ iprop(StableHlo.held (c : Thread nD τ) (Pipeline.ucRefs τ sig) (V18 m outs c) ∗ E 8 c))
    (R8 : RegionSeg (pcfgs (F := F)) a pdats ι defs₀ 𝒱₀ L lv 8)
    (hpre8 : ∀ c : Dev nD, iprop(StableHlo.held (c : Thread nD τ) (Pipeline.ucRefs τ sig) (V19 m outs c) ∗ E 8 c) ⊢ R8.pre c)
    (hpost8 : ∀ c : Dev nD, R8.post c ⊢ iprop(StableHlo.held (c : Thread nD τ) (Pipeline.ucRefs τ sig) (V20 m outs c) ∗ E 9 c))
    (R9 : RegionSeg (pcfgs (F := F)) a pdats ι defs₀ 𝒱₀ L lv 9)
    (hpre9 : ∀ c : Dev nD, iprop(StableHlo.held (c : Thread nD τ) (Pipeline.ucRefs τ sig) (V21 m outs c) ∗ E 9 c) ⊢ R9.pre c)
    (hpost9 : ∀ c : Dev nD, R9.post c ⊢ iprop(StableHlo.held (c : Thread nD τ) (Pipeline.ucRefs τ sig) (V22 m outs c) ∗ E 10 c))
    (R10 : RegionSeg (pcfgs (F := F)) a pdats ι defs₀ 𝒱₀ L lv 10)
    (hpre10 : ∀ c : Dev nD, iprop(StableHlo.held (c : Thread nD τ) (Pipeline.ucRefs τ sig) (V23 m outs c) ∗ E 10 c) ⊢ R10.pre c)
    (hpost10 : ∀ c : Dev nD, R10.post c ⊢ iprop(StableHlo.held (c : Thread nD τ) (Pipeline.ucRefs τ sig) (V24 m outs c) ∗ E 11 c))
    (R11 : RegionSeg (pcfgs (F := F)) a pdats ι defs₀ 𝒱₀ L lv 11)
    (hpre11 : ∀ c : Dev nD, iprop(StableHlo.held (c : Thread nD τ) (Pipeline.ucRefs τ sig) (V25 m outs c) ∗ E 11 c) ⊢ R11.pre c)
    (hpost11 : ∀ c : Dev nD, R11.post c ⊢ iprop(StableHlo.held (c : Thread nD τ) (Pipeline.ucRefs τ sig) (V26 m outs c) ∗ E 12 c))
    (R12 : RegionSeg (pcfgs (F := F)) a pdats ι defs₀ 𝒱₀ L lv 12)
    (hpre12 : ∀ c : Dev nD, iprop(StableHlo.held (c : Thread nD τ) (Pipeline.ucRefs τ sig) (V27 m outs c) ∗ E 12 c) ⊢ R12.pre c)
    (hpost12 : ∀ c : Dev nD, R12.post c ⊢ iprop(StableHlo.held (c : Thread nD τ) (Pipeline.ucRefs τ sig) (V28 m outs c) ∗ E 13 c))
    (R13 : RegionSeg (pcfgs (F := F)) a pdats ι defs₀ 𝒱₀ L lv 13)
    (hpre13 : ∀ c : Dev nD, iprop(StableHlo.held (c : Thread nD τ) (Pipeline.ucRefs τ sig) (V29 m outs c) ∗ E 13 c) ⊢ R13.pre c)
    (hpost13 : ∀ c : Dev nD, R13.post c ⊢ iprop(StableHlo.held (c : Thread nD τ) (Pipeline.ucRefs τ sig) (V30 m outs c) ∗ E 14 c))
    (R14 : RegionSeg (pcfgs (F := F)) a pdats ι defs₀ 𝒱₀ L lv 14)
    (hpre14 : ∀ c : Dev nD, iprop(StableHlo.held (c : Thread nD τ) (Pipeline.ucRefs τ sig) (V31 m outs c) ∗ E 14 c) ⊢ R14.pre c)
    (hpost14 : ∀ c : Dev nD, R14.post c ⊢ iprop(StableHlo.held (c : Thread nD τ) (Pipeline.ucRefs τ sig) (V32 m outs c) ∗ E 15 c))
    (R15 : RegionSeg (pcfgs (F := F)) a pdats ι defs₀ 𝒱₀ L lv 15)
    (hpre15 : ∀ c : Dev nD, iprop(StableHlo.held (c : Thread nD τ) (Pipeline.ucRefs τ sig) (V33 m outs c) ∗ E 15 c) ⊢ R15.pre c)
    (hpost15 : ∀ c : Dev nD, R15.post c ⊢ iprop(StableHlo.held (c : Thread nD τ) (Pipeline.ucRefs τ sig) (V34 m outs c) ∗ E 16 c))
    (R16 : RegionSeg (pcfgs (F := F)) a pdats ι defs₀ 𝒱₀ L lv 16)
    (hpre16 : ∀ c : Dev nD, iprop(StableHlo.held (c : Thread nD τ) (Pipeline.ucRefs τ sig) (V35 m outs c) ∗ E 16 c) ⊢ R16.pre c)
    (hpost16 : ∀ c : Dev nD, R16.post c ⊢ iprop(StableHlo.held (c : Thread nD τ) (Pipeline.ucRefs τ sig) (V36 m outs c) ∗ E 17 c))
    (R17 : RegionSeg (pcfgs (F := F)) a pdats ι defs₀ 𝒱₀ L lv 17)
    (hpre17 : ∀ c : Dev nD, iprop(StableHlo.held (c : Thread nD τ) (Pipeline.ucRefs τ sig) (V37 m outs c) ∗ E 17 c) ⊢ R17.pre c)
    (hpost17 : ∀ c : Dev nD, R17.post c ⊢ iprop(StableHlo.held (c : Thread nD τ) (Pipeline.ucRefs τ sig) (V38 m outs c) ∗ E 18 c))
    (R18 : RegionSeg (pcfgs (F := F)) a pdats ι defs₀ 𝒱₀ L lv 18)
    (hpre18 : ∀ c : Dev nD, iprop(StableHlo.held (c : Thread nD τ) (Pipeline.ucRefs τ sig) (V39 m outs c) ∗ E 18 c) ⊢ R18.pre c)
    (hpost18 : ∀ c : Dev nD, R18.post c ⊢ iprop(StableHlo.held (c : Thread nD τ) (Pipeline.ucRefs τ sig) (V40 m outs c) ∗ E 19 c))
    (R19 : RegionSeg (pcfgs (F := F)) a pdats ι defs₀ 𝒱₀ L lv 19)
    (hpre19 : ∀ c : Dev nD, iprop(StableHlo.held (c : Thread nD τ) (Pipeline.ucRefs τ sig) (V41 m outs c) ∗ E 19 c) ⊢ R19.pre c)
    (hpost19 : ∀ c : Dev nD, R19.post c ⊢ iprop(StableHlo.held (c : Thread nD τ) (Pipeline.ucRefs τ sig) (V42 m outs c) ∗ E 20 c))
    (R20 : RegionSeg (pcfgs (F := F)) a pdats ι defs₀ 𝒱₀ L lv 20)
    (hpre20 : ∀ c : Dev nD, iprop(StableHlo.held (c : Thread nD τ) (Pipeline.ucRefs τ sig) (V43 m outs c) ∗ E 20 c) ⊢ R20.pre c)
    (hpost20 : ∀ c : Dev nD, R20.post c ⊢ iprop(StableHlo.held (c : Thread nD τ) (Pipeline.ucRefs τ sig) (V44 m outs c) ∗ E 21 c))
    (R21 : RegionSeg (pcfgs (F := F)) a pdats ι defs₀ 𝒱₀ L lv 21)
    (hpre21 : ∀ c : Dev nD, iprop(StableHlo.held (c : Thread nD τ) (Pipeline.ucRefs τ sig) (V45 m outs c) ∗ E 21 c) ⊢ R21.pre c)
    (hpost21 : ∀ c : Dev nD, R21.post c ⊢ iprop(StableHlo.held (c : Thread nD τ) (Pipeline.ucRefs τ sig) (V46 m outs c) ∗ E 22 c))
    (R22 : RegionSeg (pcfgs (F := F)) a pdats ι defs₀ 𝒱₀ L lv 22)
    (hpre22 : ∀ c : Dev nD, iprop(StableHlo.held (c : Thread nD τ) (Pipeline.ucRefs τ sig) (V47 m outs c) ∗ E 22 c) ⊢ R22.pre c)
    (hpost22 : ∀ c : Dev nD, R22.post c ⊢ iprop(StableHlo.held (c : Thread nD τ) (Pipeline.ucRefs τ sig) (V48 m outs c) ∗ E 23 c))
    (R23 : RegionSeg (pcfgs (F := F)) a pdats ι defs₀ 𝒱₀ L lv 23)
    (hpre23 : ∀ c : Dev nD, iprop(StableHlo.held (c : Thread nD τ) (Pipeline.ucRefs τ sig) (V49 m outs c) ∗ E 23 c) ⊢ R23.pre c)
    (hpost23 : ∀ c : Dev nD, R23.post c ⊢ iprop(StableHlo.held (c : Thread nD τ) (Pipeline.ucRefs τ sig) (V50 m outs c) ∗ E 24 c))
    (R24 : RegionSeg (pcfgs (F := F)) a pdats ι defs₀ 𝒱₀ L lv 24)
    (hpre24 : ∀ c : Dev nD, iprop(StableHlo.held (c : Thread nD τ) (Pipeline.ucRefs τ sig) (V51 m outs c) ∗ E 24 c) ⊢ R24.pre c)
    (hpost24 : ∀ c : Dev nD, R24.post c ⊢ iprop(StableHlo.held (c : Thread nD τ) (Pipeline.ucRefs τ sig) (V52 m outs c) ∗ E 25 c))
    (R25 : RegionSeg (pcfgs (F := F)) a pdats ι defs₀ 𝒱₀ L lv 25)
    (hpre25 : ∀ c : Dev nD, iprop(StableHlo.held (c : Thread nD τ) (Pipeline.ucRefs τ sig) (V53 m outs c) ∗ E 25 c) ⊢ R25.pre c)
    (hpost25 : ∀ c : Dev nD, R25.post c ⊢ iprop(StableHlo.held (c : Thread nD τ) (Pipeline.ucRefs τ sig) (V54 m outs c) ∗ E 26 c))
    (R26 : RegionSeg (pcfgs (F := F)) a pdats ι defs₀ 𝒱₀ L lv 26)
    (hpre26 : ∀ c : Dev nD, iprop(StableHlo.held (c : Thread nD τ) (Pipeline.ucRefs τ sig) (V55 m outs c) ∗ E 26 c) ⊢ R26.pre c)
    (hpost26 : ∀ c : Dev nD, R26.post c ⊢ iprop(StableHlo.held (c : Thread nD τ) (Pipeline.ucRefs τ sig) (V56 m outs c) ∗ E 27 c))
    (R27 : RegionSeg (pcfgs (F := F)) a pdats ι defs₀ 𝒱₀ L lv 27)
    (hpre27 : ∀ c : Dev nD, iprop(StableHlo.held (c : Thread nD τ) (Pipeline.ucRefs τ sig) (V57 m outs c) ∗ E 27 c) ⊢ R27.pre c)
    (hpost27 : ∀ c : Dev nD, R27.post c ⊢ iprop(StableHlo.held (c : Thread nD τ) (Pipeline.ucRefs τ sig) (V58 m outs c) ∗ E 28 c))
    (R28 : RegionSeg (pcfgs (F := F)) a pdats ι defs₀ 𝒱₀ L lv 28)
    (hpre28 : ∀ c : Dev nD, iprop(StableHlo.held (c : Thread nD τ) (Pipeline.ucRefs τ sig) (V59 m outs c) ∗ E 28 c) ⊢ R28.pre c)
    (hpost28 : ∀ c : Dev nD, R28.post c ⊢ iprop(StableHlo.held (c : Thread nD τ) (Pipeline.ucRefs τ sig) (V60 m outs c) ∗ E 29 c))
    (R29 : RegionSeg (pcfgs (F := F)) a pdats ι defs₀ 𝒱₀ L lv 29)
    (hpre29 : ∀ c : Dev nD, iprop(StableHlo.held (c : Thread nD τ) (Pipeline.ucRefs τ sig) (V61 m outs c) ∗ E 29 c) ⊢ R29.pre c)
    (hpost29 : ∀ c : Dev nD, R29.post c ⊢ iprop(StableHlo.held (c : Thread nD τ) (Pipeline.ucRefs τ sig) (V62 m outs c) ∗ E 30 c))
    (R30 : RegionSeg (pcfgs (F := F)) a pdats ι defs₀ 𝒱₀ L lv 30)
    (hpre30 : ∀ c : Dev nD, iprop(StableHlo.held (c : Thread nD τ) (Pipeline.ucRefs τ sig) (V63 m outs c) ∗ E 30 c) ⊢ R30.pre c)
    (hpost30 : ∀ c : Dev nD, R30.post c ⊢ iprop(StableHlo.held (c : Thread nD τ) (Pipeline.ucRefs τ sig) (V64 m outs c) ∗ E 31 c))
    (R31 : RegionSeg (pcfgs (F := F)) a pdats ι defs₀ 𝒱₀ L lv 31)
    (hpre31 : ∀ c : Dev nD, iprop(StableHlo.held (c : Thread nD τ) (Pipeline.ucRefs τ sig) (V65 m outs c) ∗ E 31 c) ⊢ R31.pre c)
    (hpost31 : ∀ c : Dev nD, R31.post c ⊢ iprop(StableHlo.held (c : Thread nD τ) (Pipeline.ucRefs τ sig) (V66 m outs c) ∗ E 32 c))
    (R32 : RegionSeg (pcfgs (F := F)) a pdats ι defs₀ 𝒱₀ L lv 32)
    (hpre32 : ∀ c : Dev nD, iprop(StableHlo.held (c : Thread nD τ) (Pipeline.ucRefs τ sig) (V67 m outs c) ∗ E 32 c) ⊢ R32.pre c)
    (hpost32 : ∀ c : Dev nD, R32.post c ⊢ iprop(StableHlo.held (c : Thread nD τ) (Pipeline.ucRefs τ sig) (V68 m outs c) ∗ E 33 c))
    (R33 : RegionSeg (pcfgs (F := F)) a pdats ι defs₀ 𝒱₀ L lv 33)
    (hpre33 : ∀ c : Dev nD, iprop(StableHlo.held (c : Thread nD τ) (Pipeline.ucRefs τ sig) (V69 m outs c) ∗ E 33 c) ⊢ R33.pre c)
    (hpost33 : ∀ c : Dev nD, R33.post c ⊢ iprop(StableHlo.held (c : Thread nD τ) (Pipeline.ucRefs τ sig) (V70 m outs c) ∗ E 34 c))
    (R34 : RegionSeg (pcfgs (F := F)) a pdats ι defs₀ 𝒱₀ L lv 34)
    (hpre34 : ∀ c : Dev nD, iprop(StableHlo.held (c : Thread nD τ) (Pipeline.ucRefs τ sig) (V71 m outs c) ∗ E 34 c) ⊢ R34.pre c)
    (hpost34 : ∀ c : Dev nD, R34.post c ⊢ iprop(StableHlo.held (c : Thread nD τ) (Pipeline.ucRefs τ sig) (V72 m outs c) ∗ E 35 c))
    (R35 : RegionSeg (pcfgs (F := F)) a pdats ι defs₀ 𝒱₀ L lv 35)
    (hpre35 : ∀ c : Dev nD, iprop(StableHlo.held (c : Thread nD τ) (Pipeline.ucRefs τ sig) (V73 m outs c) ∗ E 35 c) ⊢ R35.pre c)
    (hpost35 : ∀ c : Dev nD, R35.post c ⊢ iprop(StableHlo.held (c : Thread nD τ) (Pipeline.ucRefs τ sig) (V74 m outs c) ∗ E 36 c))
    (R36 : RegionSeg (pcfgs (F := F)) a pdats ι defs₀ 𝒱₀ L lv 36)
    (hpre36 : ∀ c : Dev nD, iprop(StableHlo.held (c : Thread nD τ) (Pipeline.ucRefs τ sig) (V75 m outs c) ∗ E 36 c) ⊢ R36.pre c)
    (hpost36 : ∀ c : Dev nD, R36.post c ⊢ iprop(StableHlo.held (c : Thread nD τ) (Pipeline.ucRefs τ sig) (V76 m outs c) ∗ E 37 c))
    (R37 : RegionSeg (pcfgs (F := F)) a pdats ι defs₀ 𝒱₀ L lv 37)
    (hpre37 : ∀ c : Dev nD, iprop(StableHlo.held (c : Thread nD τ) (Pipeline.ucRefs τ sig) (V77 m outs c) ∗ E 37 c) ⊢ R37.pre c)
    (hpost37 : ∀ c : Dev nD, R37.post c ⊢ iprop(StableHlo.held (c : Thread nD τ) (Pipeline.ucRefs τ sig) (V78 m outs c) ∗ E 38 c))
    (R38 : RegionSeg (pcfgs (F := F)) a pdats ι defs₀ 𝒱₀ L lv 38)
    (hpre38 : ∀ c : Dev nD, iprop(StableHlo.held (c : Thread nD τ) (Pipeline.ucRefs τ sig) (V79 m outs c) ∗ E 38 c) ⊢ R38.pre c)
    (hpost38 : ∀ c : Dev nD, R38.post c ⊢ iprop(StableHlo.held (c : Thread nD τ) (Pipeline.ucRefs τ sig) (V80 m outs c) ∗ E 39 c))
    (R39 : RegionSeg (pcfgs (F := F)) a pdats ι defs₀ 𝒱₀ L lv 39)
    (hpre39 : ∀ c : Dev nD, iprop(StableHlo.held (c : Thread nD τ) (Pipeline.ucRefs τ sig) (V81 m outs c) ∗ E 39 c) ⊢ R39.pre c)
    (hpost39 : ∀ c : Dev nD, R39.post c ⊢ iprop(StableHlo.held (c : Thread nD τ) (Pipeline.ucRefs τ sig) (V82 m outs c) ∗ E 40 c)) :
    θ_run defs (onTc (τ := τ) (main (F := F))) ⟨m, fun _ => 0, ρ⟩ (fun r => ∀ c : Dev nD,
      r.2.mem ((c.tc : Thread nD τ).loc main_v89) = V82 m outs c main_v89
      ∧ r.2.mem ((c.tc : Thread nD τ).loc main_v127) = V82 m outs c main_v127
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) := by
  refine Pipeline.θ_run_regions_kit_dev (pcfgs (F := F)) a pdats ι (cellOf_inj a) EP defs₀ 𝒱₀ L lv m ρ main
    (segs m outs 𝒱₀ L lv E ι a pdats R0 R1 R2 R3 R4 R5 R6 R7 R8 R9 R10 R11 R12 R13 R14 R15 R16 R17 R18 R19 R20 R21 R22 R23 R24 R25 R26 R27 R28 R29 R30 R31 R32 R33 R34 R35 R36 R37 R38 R39)
    (fun c Q => by
      rewrite [main_chain c, Seg.run_eq_chain,
        show (segs m outs 𝒱₀ L lv E ι a pdats R0 R1 R2 R3 R4 R5 R6 R7 R8 R9 R10 R11 R12 R13 R14 R15 R16 R17 R18 R19 R20 R21 R22 R23 R24 R25 R26 R27 R28 R29 R30 R31 R32 R33 R34 R35 R36 R37 R38 R39 c).map Seg.prog = [
          StableHlo.seq hostOps0,
          StableHlo.seq hostOps0_1,
          StableHlo.seq hostOps0_2,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3,
          Prog.lift (.customCall (Pipeline.entry 3) ()),
          StableHlo.seq hostOps4,
          Prog.lift (.customCall (Pipeline.entry 4) ()),
          StableHlo.seq hostOps5,
          Prog.lift (.customCall (Pipeline.entry 5) ()),
          StableHlo.seq hostOps6,
          Prog.lift (.customCall (Pipeline.entry 6) ()),
          StableHlo.seq hostOps7,
          Prog.lift (.customCall (Pipeline.entry 7) ()),
          StableHlo.seq hostOps8,
          Prog.lift (.customCall (Pipeline.entry 8) ()),
          StableHlo.seq hostOps9,
          Prog.lift (.customCall (Pipeline.entry 9) ()),
          StableHlo.seq hostOps10,
          Prog.lift (.customCall (Pipeline.entry 10) ()),
          StableHlo.seq hostOps11,
          Prog.lift (.customCall (Pipeline.entry 11) ()),
          StableHlo.seq hostOps12,
          Prog.lift (.customCall (Pipeline.entry 12) ()),
          StableHlo.seq hostOps13,
          Prog.lift (.customCall (Pipeline.entry 13) ()),
          StableHlo.seq hostOps14,
          Prog.lift (.customCall (Pipeline.entry 14) ()),
          StableHlo.seq hostOps15,
          Prog.lift (.customCall (Pipeline.entry 15) ()),
          StableHlo.seq hostOps16,
          Prog.lift (.customCall (Pipeline.entry 16) ()),
          StableHlo.seq hostOps17,
          Prog.lift (.customCall (Pipeline.entry 17) ()),
          StableHlo.seq hostOps18,
          Prog.lift (.customCall (Pipeline.entry 18) ()),
          StableHlo.seq hostOps19,
          Prog.lift (.customCall (Pipeline.entry 19) ()),
          StableHlo.seq hostOps20,
          Prog.lift (.customCall (Pipeline.entry 20) ()),
          StableHlo.seq hostOps21,
          Prog.lift (.customCall (Pipeline.entry 21) ()),
          StableHlo.seq hostOps22,
          Prog.lift (.customCall (Pipeline.entry 22) ()),
          StableHlo.seq hostOps23,
          Prog.lift (.customCall (Pipeline.entry 23) ()),
          StableHlo.seq hostOps24,
          Prog.lift (.customCall (Pipeline.entry 24) ()),
          StableHlo.seq hostOps25,
          Prog.lift (.customCall (Pipeline.entry 25) ()),
          StableHlo.seq hostOps26,
          Prog.lift (.customCall (Pipeline.entry 26) ()),
          StableHlo.seq hostOps27,
          Prog.lift (.customCall (Pipeline.entry 27) ()),
          StableHlo.seq hostOps28,
          Prog.lift (.customCall (Pipeline.entry 28) ()),
          StableHlo.seq hostOps29,
          Prog.lift (.customCall (Pipeline.entry 29) ()),
          StableHlo.seq hostOps30,
          Prog.lift (.customCall (Pipeline.entry 30) ()),
          StableHlo.seq hostOps31,
          Prog.lift (.customCall (Pipeline.entry 31) ()),
          StableHlo.seq hostOps32,
          Prog.lift (.customCall (Pipeline.entry 32) ()),
          StableHlo.seq hostOps33,
          Prog.lift (.customCall (Pipeline.entry 33) ()),
          StableHlo.seq hostOps34,
          Prog.lift (.customCall (Pipeline.entry 34) ()),
          StableHlo.seq hostOps35,
          Prog.lift (.customCall (Pipeline.entry 35) ()),
          StableHlo.seq hostOps36,
          Prog.lift (.customCall (Pipeline.entry 36) ()),
          StableHlo.seq hostOps37,
          Prog.lift (.customCall (Pipeline.entry 37) ()),
          StableHlo.seq hostOps38,
          Prog.lift (.customCall (Pipeline.entry 38) ()),
          StableHlo.seq hostOps39,
          Prog.lift (.customCall (Pipeline.entry 39) ()) ] from rfl]
      with_reducible exact .rfl)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V82 m outs c))
    (hch := fun c => ⟨.rfl, .rfl, .rfl, hpre0 c, hpost0 c, hpre1 c, hpost1 c, hpre2 c, hpost2 c, hpre3 c, hpost3 c, hpre4 c, hpost4 c, hpre5 c, hpost5 c, hpre6 c, hpost6 c, hpre7 c, hpost7 c, hpre8 c, hpost8 c, hpre9 c, hpost9 c, hpre10 c, hpost10 c, hpre11 c, hpost11 c, hpre12 c, hpost12 c, hpre13 c, hpost13 c, hpre14 c, hpost14 c, hpre15 c, hpost15 c, hpre16 c, hpost16 c, hpre17 c, hpost17 c, hpre18 c, hpost18 c, hpre19 c, hpost19 c, hpre20 c, hpost20 c, hpre21 c, hpost21 c, hpre22 c, hpost22 c, hpre23 c, hpost23 c, hpre24 c, hpost24 c, hpre25 c, hpost25 c, hpre26 c, hpost26 c, hpre27 c, hpost27 c, hpre28 c, hpost28 c, hpre29 c, hpost29 c, hpre30 c, hpost30 c, hpre31 c, hpost31 c, hpre32 c, hpost32 c, hpre33 c, hpost33 c, hpre34 c, hpost34 c, hpre35 c, hpost35 c, hpre36 c, hpost36 c, hpre37 c, hpost37 c, hpre38 c, hpost38 c, hpre39 c, (hpost39 c).trans (sep_mono .rfl (hE40 c))⟩)
    (hinit := ?_) (QY := fun c s => ∀ b ∈ Pipeline.ucRefs τ sig, s.mem ((c.tc : Thread nD τ).1, b) = V82 m outs c b)
    (hfin := fun c s' => ?_)
    (hQ := fun s h c =>
      ⟨h c _ (mem_uc main_v89 (by decide)),
       h c _ (mem_uc main_v127 (by decide)),
       (h c _ (mem_uc main_arg0 (by decide))).trans (V82_main_arg0 m outs c),
       (h c _ (mem_uc main_arg1 (by decide))).trans (V82_main_arg1 m outs c),
       (h c _ (mem_uc main_arg2 (by decide))).trans (V82_main_arg2 m outs c),
       (h c _ (mem_uc main_arg3 (by decide))).trans (V82_main_arg3 m outs c),
       (h c _ (mem_uc main_arg4 (by decide))).trans (V82_main_arg4 m outs c),
       (h c _ (mem_uc main_arg5 (by decide))).trans (V82_main_arg5 m outs c),
       (h c _ (mem_uc main_arg6 (by decide))).trans (V82_main_arg6 m outs c),
       (h c _ (mem_uc main_arg7 (by decide))).trans (V82_main_arg7 m outs c)⟩)
  · -- the launch: the unscoped buffers are `held` at `V0`; the rest makes `E 0` on every core at once
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  · -- the end: every unscoped buffer read off the last valuation
    unfold StableHlo.held
    iintro ⟨Hh, HSI⟩
    imodintro
    iapply (pointsTo_read_all (Pipeline.ucRefs τ sig) (fun b => ((c : Thread nD τ).1, b)) (V82 m outs c) s')
    isplitl [Hh] <;> iassumption

end Cert.KernelIdeal.Hand

end
-- ==== Proof.KI.Inst.lean ====
import proofs.«402049_j87351044866139_2_alg».proof.Proof.Gen.KernelIdeal.Launch
import Idealize.ShloMosaic.Lib.Pipeline.Frame
import Idealize.ShloMosaic.Lib.Pipeline.Regions

/-! The parameters the several-regions launch is instantiated at, for a program whose gather regions move rows by
    transfers of their own on semaphores of their own, and the state that rides beside the unscoped buffers between
    two items of @main. -/

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

/-- The user algebra: the rounds algebra that funds every pipeline's staging cells, beside the counters the
    bodies' own transfers take their tokens from. -/
abbrev UU : Type := Pipeline.UD sig nD τ

local notation "𝕄" => MT nD τ sig Unit (Elt F) ℕ UU ℕ

/-- The pipelines' component of the user algebra: the left of the pair. -/
abbrev EPd : Emb (URounds (GSem nD τ sig) Unit) 𝕄 := embL

/-- No variant is declared. -/
abbrev 𝒱₀ : Variants := Variants.none
/-- No core owes another anything: no level is assigned. -/
abbrev L : GSem nD τ sig → Finset Unit := fun _ => ∅
abbrev lv : GSem nD τ sig → Unit → ℕ := fun _ _ => 0
theorem hL : ∀ g : GSem nD τ sig, g.1.2 ≠ .tc → (L g : Finset Unit) = ∅ := fun _ _ => rfl

/-- The launch element: the pipelines' cells and launch tokens on the left, nothing on the right. -/
abbrev u₀ (a : (p : Fin 40) → (pcfgs (F := F) p).Adm) : UU :=
  (initOf (Pipeline.cells (Pipeline.pin (pcfgs (F := F)) a) (cellOf_inj a))
      (Pipeline.launchToks (Pipeline.pin (pcfgs (F := F)) a) (cellOf_inj a)), 1)

/-- The launch element yields the pipelines' share; no core takes a ghost resource of its own. -/
theorem hu₀ (a : (p : Fin 40) → (pcfgs (F := F) p).Adm) :
    (ownU (u₀ a) : sProp 𝕄)
      ⊢ |={Set.univ}=> iprop(BI.own ((EPd (F := F)) (initOf (Pipeline.cells (Pipeline.pin (pcfgs (F := F)) a) (cellOf_inj a))
            (Pipeline.launchToks (Pipeline.pin (pcfgs (F := F)) a) (cellOf_inj a))))
          ∗ bigSep Finset.univ (fun _ : Dev nD => (iprop(emp) : sProp 𝕄))) := by
  iintro Hu
  ihave H' := (ownU_pair _ _) $$ Hu
  icases H' with ⟨HP, -⟩
  imodintro
  isplitl [HP]; · iexact HP
  iapply (show (BI.emp : sProp 𝕄) ⊢ bigSep Finset.univ (fun _ : Dev nD => (BI.emp : sProp 𝕄)) from by rw [BI.bigSep_emp_const])
  iempintro

/-- What rides beside the unscoped buffers through every item of @main: the core's generator register at some
    state, and the core owing nothing. -/
abbrev R (c : Dev nD) : sProp 𝕄 :=
  iprop((∃ r, prngReg c r) ∗ ∃ W, owes (c : Thread nD τ) (0 : CellTallies nD τ sig Unit) W)

/-- The same state between any two items: no region leaves a transfer in flight or a unit owed. -/
abbrev E : Fin 41 → Dev nD → sProp 𝕄 := fun _ c => R (F := F) c

/-- The launch makes the first rest state on every core: the register it deals, at the state it deals it; the
    core's dues, which are none. -/
theorem hE0 (ρ : Dev nD → PrngReg) :
    iprop((bigSep Finset.univ fun c : Dev nD => iprop(unscopedSems0 c ∗ owes (c : Thread nD τ) (0 : CellTallies nD τ sig Unit) ∅
        ∗ Pipeline.launchCred (fun _ : Dev nD => (0 : CellTallies nD τ sig Unit)) c ∗ prngReg c (ρ c) ∗ (iprop(emp) : sProp 𝕄))) ∗ levAts L lv)
      ⊢ (|={Set.univ}=> bigSep Finset.univ (E (F := F) 0) : sProp 𝕄) := by
  refine Pipeline.initEach L lv fun c => ?_
  iintro ⟨⟨-, HO, -, Hp, -⟩, -⟩
  imodintro
  isplitl [Hp]; · iexists _; iexact Hp
  iexists ∅; iexact HO

/-- The last rest state owes nothing. -/
theorem hE40 (c : Dev nD) :
    E (F := F) 40 c ⊢ (iprop(∃ W, owes (c : Thread nD τ) (0 : CellTallies nD τ sig Unit) W) : sProp 𝕄) := by
  iintro ⟨-, HO⟩; iexact HO

end Cert.KernelIdeal.Hand

end
-- ==== Proof.KI.Dense0.lean ====
/-
  Region 0 of @main — the first feature transform, the pallas_call of `cc0__matmul_kernel` — as a pipeline of
  the plainest class: at each of its 10 grid points the body reads a 5000 x 128 block of the feature matrix and the
  whole 128 x 128 weight matrix, and stores into the output's 5000 x 128 block the product of the two operands
  rounded to bf16, accumulated in f32 from zero. It keeps nothing from point to point and names no semaphore.

  Stated at a PARAMETER `V`, the core's buffer contents when the region is entered:
  * `iblk0`: a window's block at a grid point, read off its array at `V`;
  * `out0_2`: the output block as a function of the two input blocks — the one store's payload laid over the
    whole block;
  * `sound_kernel0`: the body's triple on whole staging buffers;
  * `dat0`: the pipeline's proof data (arrays at `V`; after the body each input buffer at its block, the
    output buffer at `out0_2` of them; the invariant the scoped rest and the core's random-number generator register; nothing owed);
  * `A_eq0`, `after0_0`, `after0_1`, `after0_2`: the data's fields, projected;
  * `before0_0`, `before0_1`: an input's buffer holds its block at every point — the weight matrix is fetched
    at the first point only, and its block index never moves;
  * `body_obligation0`: the body obligation at every point.
-/
import proofs.«402049_j87351044866139_2_alg».proof.Proof.Gen.KernelIdeal.Launch
import proofs.«402049_j87351044866139_2_alg».proof.Proof.Gen.KernelIdeal.Skeleton
import proofs.«402049_j87351044866139_2_alg».proof.Proof.Gen.KernelIdeal.Points
import Idealize.ShloMosaic.Lib.Pipeline.FrameBody
import Idealize.ShloMosaic.Lib.Tactic

-- a block's extent (5000 rows) is the depth of the structural checks on its rectangle
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

-- the resource algebra every kernel-side region of this program is stated at
local notation "𝕄" => MT nD τ sig Unit (Elt F) ℕ (Pipeline.UD sig nD τ) ℕ

-- the core's buffer contents when the region is entered
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! ## The body's accesses: each a whole staging buffer -/

abbrev r0_0 : Rect S5000x128 := Rect.unit (s := S5000x128) ![0, 0] S5000x128.size inb_S5000x128_S5000x128_0_0
abbrev r0_1 : Rect S128x128 := Rect.unit (s := S128x128) ![0, 0] S128x128.size inb_S128x128_S128x128_0_0
abbrev r0_2 : Rect S5000x128 := Rect.unit (s := S5000x128) ![0, 0] S5000x128.size inb_S5000x128_S5000x128_0_0

/-! ## What the body leaves in the output window's buffer -/

/-- The output block from the feature block `x0` and the weight matrix `x1`: the body's one store, whose payload
    is the matrix product of the two, each rounded to bf16, accumulated in f32 from zero. -/
def out0_2 (x0 : Vec F S5000x128 .f32) (x1 : Vec F S128x128 .f32) : Vec F S5000x128 .f32 :=
  View.canon [⟨r0_2, k0_pay1 (View.ld x0 r0_0) (View.ld x1 r0_1)⟩]

/-- The store is the whole block, so every element of the block lies in it. -/
theorem cover0_2 (p0 : Vec F S5000x128 .f32) (y : S5000x128.Idx) :
    ∃ pc ∈ ([⟨r0_2, p0⟩] : List (View.Piece (Elt F) S5000x128 .f32)), y ∈ pc.1.set :=
  View.cover_of_tiled [⟨r0_2, p0⟩] S5000x128.size (by rfl) y

/-! ## The body's triple -/

set_option maxHeartbeats 1000000 in
/-- The body on whole staging buffers — the two inputs' reading `x0` and `x1`, the output's holding anything — runs
    to the inputs' as they were and the output's reading `out0_2 x0 x1`: two loads, a load of the output buffer whose
    value nothing reads, and one store over the whole output buffer. -/
theorem sound_kernel0 (c : Dev nD) (E : Set ℕ) (i : grid0.Coords)
    (arg1 : Memref sig .tc .vmem S5000x128 .f32) (harg1 : arg1.IsWhole)
    (arg2 : Memref sig .tc .vmem S128x128 .f32) (harg2 : arg2.IsWhole)
    (arg3 : Memref sig .tc .vmem S5000x128 .f32) (harg3 : arg3.IsWhole)
    (x0 : Vec F S5000x128 .f32) (x1 : Vec F S128x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__matmul_kernel i arg1 harg1 arg2 harg2 arg3 harg3) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The pipeline's proof data -/

/-- The proof data of pipeline 0 on core `c`: the arrays as the region finds them; after the body at point `t` each
    input's buffer at its block and the output's at `out0_2` of the two; the invariant the core's scoped buffers that
    are no staging buffer and its random-number generator register, untouched; nothing owed; full shares. -/
def dat0 (c : Dev nD) : Dat τ (Elt F) Unit ℕ (Pipeline.UD sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

/-- The data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

/-- The feature window's current buffer holds its block at every point: the body leaves the block in place, and where
    the pipeline does not fetch, the block index has not moved. -/
theorem before0_0 (c : Dev nD) (t : Fin cfg0.N) (d) : (dat0 V c).before 0 t d = iblk0 V c 0 t :=
  ((dat0 V c).before_in_eq_fetched 0 rfl (fun _ => rfl) (fun _ _ _ => rfl)
      (fun t => by rw [after0_0]; unfold Dat.blockOf iblk0; rw [A_eq0]; try rfl) t d).trans
    (by unfold Dat.fetched Dat.blockOf iblk0; rw [A_eq0]; try rfl)

/-- The weight window's likewise: fetched at the first point only, its one block is every point's. -/
theorem before0_1 (c : Dev nD) (t : Fin cfg0.N) (d) : (dat0 V c).before 1 t d = iblk0 V c 1 t :=
  ((dat0 V c).before_in_eq_fetched 1 rfl (fun _ => rfl) (fun _ _ _ => rfl)
      (fun t => by rw [after0_1]; unfold Dat.blockOf iblk0; rw [A_eq0]; try rfl) t d).trans
    (by unfold Dat.fetched Dat.blockOf iblk0; rw [A_eq0]; try rfl)

/-! ## The body obligation, at a generic point -/

/-- What the body is called with at point `t`: the invariant, the core's dues, each window's current buffer, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' buffers hold their blocks, so the body's triple applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation of pipeline 0, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.Dense11.lean ====
/-
  Region 11 of @main — the first layer's bias and rectifier fused with the second feature transform, the pallas_call
  of `cc11__fused_bias_relu_matmul_kernel` — as a pipeline of the plainest class: at each of its 10 grid points the
  body reads a 5000 x 128 block of the aggregated features, the whole 1 x 128 bias row and the whole 128 x 128 weight
  matrix, and stores into the output's 5000 x 128 block the product of the rectified block (the larger of zero and the
  block plus the bias row repeated down its rows) and the weight matrix, both rounded to bf16, accumulated in f32
  from zero. It keeps nothing from point to point and names no semaphore.

  Stated at a PARAMETER `V`, the core's buffer contents when the region is entered:
  * `iblk11`: a window's block at a grid point, read off its array at `V`;
  * `out11_3`: the output block as a function of the three input blocks — the one store's payload laid over the
    whole block;
  * `sound_kernel11`: the body's triple on whole staging buffers;
  * `dat11`: the pipeline's proof data (arrays at `V`; after the body each input buffer at its block, the
    output buffer at `out11_3` of them; the invariant the scoped rest and the core's random-number generator
    register; nothing owed);
  * `A_eq11`, `after11_0` … `after11_3`: the data's fields, projected;
  * `before11_0`, `before11_1`, `before11_2`: an input's buffer holds its block at every point — the bias row and
    the weight matrix are fetched at the first point only, and their block indices never move;
  * `body_obligation11`: the body obligation at every point.
-/
import proofs.«402049_j87351044866139_2_alg».proof.Proof.Gen.KernelIdeal.Launch
import proofs.«402049_j87351044866139_2_alg».proof.Proof.Gen.KernelIdeal.Skeleton
import proofs.«402049_j87351044866139_2_alg».proof.Proof.Gen.KernelIdeal.Points
import Idealize.ShloMosaic.Lib.Pipeline.FrameBody
import Idealize.ShloMosaic.Lib.Tactic

-- a block's extent (5000 rows) is the depth of the structural checks on its rectangle
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

-- the resource algebra every kernel-side region of this program is stated at
local notation "𝕄" => MT nD τ sig Unit (Elt F) ℕ (Pipeline.UD sig nD τ) ℕ

-- the core's buffer contents when the region is entered
variable (V : (c : Dev nD) → (b : Ref sig .tc) → Buf (Elt F) ((c : Thread nD τ).loc b))

/-! ## The windows' blocks -/

/-- Window `w`'s block at point `t`, read off its array as the region finds it. -/
def iblk11 (c : Dev nD) (w : Fin cfg11.W) (t : Fin cfg11.N) : ((cfg11.win w).xblock (cfg11.grid.coords t)).Idx → Elt F (cfg11.win w).elt :=
  ((cfg11.win w).blk t).view.read (Elt F) (V c (Pipeline.arrRef spec11 w))

/-! ## The body's accesses: each a whole staging buffer -/

abbrev r11_0 : Rect S5000x128 := Rect.unit (s := S5000x128) ![0, 0] S5000x128.size inb_S5000x128_S5000x128_0_0
abbrev r11_1 : Rect S1x128 := Rect.unit (s := S1x128) ![0, 0] S1x128.size inb_S1x128_S1x128_0_0
abbrev r11_2 : Rect S128x128 := Rect.unit (s := S128x128) ![0, 0] S128x128.size inb_S128x128_S128x128_0_0
abbrev r11_3 : Rect S5000x128 := Rect.unit (s := S5000x128) ![0, 0] S5000x128.size inb_S5000x128_S5000x128_0_0

/-! ## What the body leaves in the output window's buffer -/

/-- The output block from the feature block `x0`, the bias row `x1` and the weight matrix `x2`: the body's one
    store, whose payload is the matrix product of the rectified biased block and the weight matrix, each rounded to
    bf16, accumulated in f32 from zero. -/
def out11_3 (x0 : Vec F S5000x128 .f32) (x1 : Vec F S1x128 .f32) (x2 : Vec F S128x128 .f32) : Vec F S5000x128 .f32 :=
  View.canon [⟨r11_3, k11_pay1 (View.ld x0 r11_0) (View.ld x1 r11_1) (View.ld x2 r11_2)⟩]

/-- The store is the whole block, so every element of the block lies in it. -/
theorem cover11_3 (p0 : Vec F S5000x128 .f32) (y : S5000x128.Idx) :
    ∃ pc ∈ ([⟨r11_3, p0⟩] : List (View.Piece (Elt F) S5000x128 .f32)), y ∈ pc.1.set :=
  View.cover_of_tiled [⟨r11_3, p0⟩] S5000x128.size (by rfl) y

/-! ## The body's triple -/

set_option maxHeartbeats 1000000 in
/-- The body on whole staging buffers — the three inputs' reading `x0`, `x1` and `x2`, the output's holding
    anything — runs to the inputs' as they were and the output's reading `out11_3 x0 x1 x2`: three loads, a load of the
    output buffer whose value nothing reads, and one store over the whole output buffer. -/
theorem sound_kernel11 (c : Dev nD) (E : Set ℕ) (i : grid11.Coords)
    (arg1 : Memref sig .tc .vmem S5000x128 .f32) (harg1 : arg1.IsWhole)
    (arg2 : Memref sig .tc .vmem S1x128 .f32) (harg2 : arg2.IsWhole)
    (arg3 : Memref sig .tc .vmem S128x128 .f32) (harg3 : arg3.IsWhole)
    (arg4 : Memref sig .tc .vmem S5000x128 .f32) (harg4 : arg4.IsWhole)
    (x0 : Vec F S5000x128 .f32) (x1 : Vec F S1x128 .f32) (x2 : Vec F S128x128 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out11_3 x0 x1 x2)) -∗ K ⟨⟩))
      ⊢ wp frame (wpE (defs₀ (F := F)) Variants.none c none) E (cc11__fused_bias_relu_matmul_kernel i arg1 harg1 arg2 harg2 arg3 harg3 arg4 harg4) K := by
  simp only [cc11__fused_bias_relu_matmul_kernel_eq_skeleton]; unfold cc11__fused_bias_relu_matmul_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover11_3 _)

/-! ## The pipeline's proof data -/

/-- The proof data of pipeline 11 on core `c`: the arrays as the region finds them; after the body at point `t` each
    input's buffer at its block and the output's at `out11_3` of the three; the invariant the core's scoped buffers
    that are no staging buffer and its random-number generator register, untouched; nothing owed; full shares. -/
def dat11 (c : Dev nD) : Dat τ (Elt F) Unit ℕ (Pipeline.UD sig nD τ) ℕ cfg11 c where
  A w := V c (Pipeline.arrRef spec11 w)
  after w t := match w with
    | ⟨0, _⟩ => iblk11 V c 0 t
    | ⟨1, _⟩ => iblk11 V c 1 t
    | ⟨2, _⟩ => iblk11 V c 2 t
    | ⟨3, _⟩ => out11_3 (iblk11 V c 0 t) (iblk11 V c 1 t) (iblk11 V c 2 t)
  Φ _ := Pipeline.ΦA spec11 c
  q _ := fullShare
  owed _ := 0

/-- The data's arrays are the region-entry contents. -/
theorem A_eq11 (c : Dev nD) (w : Fin cfg11.W) : (dat11 V c).A w = V c (Pipeline.arrRef spec11 w) := by
  dsimp only [dat11]

/-- What the body leaves, window by window. -/
theorem after11_0 (c : Dev nD) (t : Fin cfg11.N) : (dat11 V c).after 0 t = iblk11 V c 0 t := by dsimp only [dat11]
theorem after11_1 (c : Dev nD) (t : Fin cfg11.N) : (dat11 V c).after 1 t = iblk11 V c 1 t := by dsimp only [dat11]
theorem after11_2 (c : Dev nD) (t : Fin cfg11.N) : (dat11 V c).after 2 t = iblk11 V c 2 t := by dsimp only [dat11]
theorem after11_3 (c : Dev nD) (t : Fin cfg11.N) :
    (dat11 V c).after 3 t = out11_3 (iblk11 V c 0 t) (iblk11 V c 1 t) (iblk11 V c 2 t) := by dsimp only [dat11]

/-- The feature window's current buffer holds its block at every point: the body leaves the block in place, and where
    the pipeline does not fetch, the block index has not moved. -/
theorem before11_0 (c : Dev nD) (t : Fin cfg11.N) (d) : (dat11 V c).before 0 t d = iblk11 V c 0 t :=
  ((dat11 V c).before_in_eq_fetched 0 rfl (fun _ => rfl) (fun _ _ _ => rfl)
      (fun t => by rw [after11_0]; unfold Dat.blockOf iblk11; rw [A_eq11]; try rfl) t d).trans
    (by unfold Dat.fetched Dat.blockOf iblk11; rw [A_eq11]; try rfl)

/-- The bias window's likewise: fetched at the first point only, its one block is every point's. -/
theorem before11_1 (c : Dev nD) (t : Fin cfg11.N) (d) : (dat11 V c).before 1 t d = iblk11 V c 1 t :=
  ((dat11 V c).before_in_eq_fetched 1 rfl (fun _ => rfl) (fun _ _ _ => rfl)
      (fun t => by rw [after11_1]; unfold Dat.blockOf iblk11; rw [A_eq11]; try rfl) t d).trans
    (by unfold Dat.fetched Dat.blockOf iblk11; rw [A_eq11]; try rfl)

/-- The weight window's likewise. -/
theorem before11_2 (c : Dev nD) (t : Fin cfg11.N) (d) : (dat11 V c).before 2 t d = iblk11 V c 2 t :=
  ((dat11 V c).before_in_eq_fetched 2 rfl (fun _ => rfl) (fun _ _ _ => rfl)
      (fun t => by rw [after11_2]; unfold Dat.blockOf iblk11; rw [A_eq11]; try rfl) t d).trans
    (by unfold Dat.fetched Dat.blockOf iblk11; rw [A_eq11]; try rfl)

/-! ## The body obligation, at a generic point -/

/-- What the body is called with at point `t`: the invariant, the core's dues, each window's current buffer, -/
def bodyPre11 (c : Dev nD) (t : Fin cfg11.N) : sProp 𝕄 :=
  iprop((dat11 V c).Φ t.castSucc ∗ (dat11 V c).owesAt () t.castSucc
    ∗ (∃ d, owns (c : Thread nD τ) (st11_0 t) fullShare ((dat11 V c).before 0 t d))
    ∗ (∃ d, owns (c : Thread nD τ) (st11_1 t) fullShare ((dat11 V c).before 1 t d))
    ∗ (∃ d, owns (c : Thread nD τ) (st11_2 t) fullShare ((dat11 V c).before 2 t d))
    ∗ (∃ d, owns (c : Thread nD τ) (st11_3 t) fullShare ((dat11 V c).before 3 t d)))

/-- and what it returns. -/
def bodyPost11 (c : Dev nD) (t : Fin cfg11.N) : sProp 𝕄 :=
  iprop((dat11 V c).Φ t.succ ∗ (dat11 V c).owesAt () t.succ
    ∗ owns (c : Thread nD τ) (st11_0 t) fullShare ((dat11 V c).after 0 t)
    ∗ owns (c : Thread nD τ) (st11_1 t) fullShare ((dat11 V c).after 1 t)
    ∗ owns (c : Thread nD τ) (st11_2 t) fullShare ((dat11 V c).after 2 t)
    ∗ owns (c : Thread nD τ) (st11_3 t) fullShare ((dat11 V c).after 3 t))

/-- The body at any point: the inputs' buffers hold their blocks, so the body's triple applies; the invariant and the
    core's dues pass through unread. -/
theorem sound_body11 (c : Dev nD) (t : Fin cfg11.N) :
    bodyPre11 V c t ⊢ wp frame (wpE (defs₀ (F := F)) Variants.none c none) Set.univ (bodyAt11 t) (fun _ => bodyPost11 V c t) := by
  unfold bodyPre11 bodyPost11 bodyAt11
  simp only [before11_0, before11_1, before11_2]
  rw [show (dat11 V c).Φ t.succ = (dat11 V c).Φ t.castSucc from rfl,
    show (dat11 V c).owesAt () t.succ = (dat11 V c).owesAt () t.castSucc from rfl,
    after11_0, after11_1, after11_2, after11_3]
  iintro ⟨HΦ, Ho, ⟨%d0, H0⟩, ⟨%d1, H1⟩, ⟨%d2, H2⟩, ⟨%d3, H3⟩⟩
  iapply (sound_kernel11 c Set.univ _ _ _ _ _ _ _ _ _ (iblk11 V c 0 t) (iblk11 V c 1 t) (iblk11 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation of pipeline 11, at every point. -/
theorem body_obligation11 (c : Dev nD) : BodyObligation (dat11 (F := F) V c) (defs₀ (F := F)) Variants.none () Set.univ := fun t => by
  rw [bigSep_W11, bigSep_W11]
  exact sound_body11 V c t

end Cert.KernelIdeal.Hand

end
-- ==== Proof.KI.Dense22.lean ====
/-
  Region 22 of @main — the second layer's bias and rectifier, the pallas_call of `cc22__bias_relu_kernel` — as a
  pipeline of the plainest class: at each of its 10 grid points the body reads a 5000 x 128 block of the aggregated
  features and the whole 1 x 128 bias row, and stores into the output's 5000 x 128 block the larger of zero and the
  block plus the bias row repeated down its rows. It keeps nothing from point to point and names no semaphore.

  Stated at a PARAMETER `V`, the core's buffer contents when the region is entered:
  * `iblk22`: a window's block at a grid point, read off its array at `V`;
  * `out22_2`: the output block as a function of the two input blocks — the one store's payload laid over the
    whole block;
  * `sound_kernel22`: the body's triple on whole staging buffers;
  * `dat22`: the pipeline's proof data (arrays at `V`; after the body each input buffer at its block, the
    output buffer at `out22_2` of them; the invariant the scoped rest and the core's random-number generator
    register; nothing owed);
  * `A_eq22`, `after22_0`, `after22_1`, `after22_2`: the data's fields, projected;
  * `before22_0`, `before22_1`: an input's buffer holds its block at every point — the bias row is fetched at the
    first point only, and its block index never moves;
  * `body_obligation22`: the body obligation at every point.
-/
import proofs.«402049_j87351044866139_2_alg».proof.Proof.Gen.KernelIdeal.Launch
import proofs.«402049_j87351044866139_2_alg».proof.Proof.Gen.KernelIdeal.Skeleton
import proofs.«402049_j87351044866139_2_alg».proof.Proof.Gen.KernelIdeal.Points
import Idealize.ShloMosaic.Lib.Pipeline.FrameBody
import Idealize.ShloMosaic.Lib.Tactic

-- a block's extent (5000 rows) is the depth of the structural checks on its rectangle
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

-- the resource algebra every kernel-side region of this program is stated at
local notation "𝕄" => MT nD τ sig Unit (Elt F) ℕ (Pipeline.UD sig nD τ) ℕ

-- the core's buffer contents when the region is entered
variable (V : (c : Dev nD) → (b : Ref sig .tc) → Buf (Elt F) ((c : Thread nD τ).loc b))

/-! ## The windows' blocks -/

/-- Window `w`'s block at point `t`, read off its array as the region finds it. -/
def iblk22 (c : Dev nD) (w : Fin cfg22.W) (t : Fin cfg22.N) : ((cfg22.win w).xblock (cfg22.grid.coords t)).Idx → Elt F (cfg22.win w).elt :=
  ((cfg22.win w).blk t).view.read (Elt F) (V c (Pipeline.arrRef spec22 w))

/-! ## The body's accesses: each a whole staging buffer -/

abbrev r22_0 : Rect S5000x128 := Rect.unit (s := S5000x128) ![0, 0] S5000x128.size inb_S5000x128_S5000x128_0_0
abbrev r22_1 : Rect S1x128 := Rect.unit (s := S1x128) ![0, 0] S1x128.size inb_S1x128_S1x128_0_0
abbrev r22_2 : Rect S5000x128 := Rect.unit (s := S5000x128) ![0, 0] S5000x128.size inb_S5000x128_S5000x128_0_0

/-! ## What the body leaves in the output window's buffer -/

/-- The output block from the feature block `x0` and the bias row `x1`: the body's one store, whose payload is,
    elementwise, the maximum of zero and the block's element plus the bias of its column. -/
def out22_2 (x0 : Vec F S5000x128 .f32) (x1 : Vec F S1x128 .f32) : Vec F S5000x128 .f32 :=
  View.canon [⟨r22_2, k22_pay1 (View.ld x0 r22_0) (View.ld x1 r22_1)⟩]

/-- The store is the whole block, so every element of the block lies in it. -/
theorem cover22_2 (p0 : Vec F S5000x128 .f32) (y : S5000x128.Idx) :
    ∃ pc ∈ ([⟨r22_2, p0⟩] : List (View.Piece (Elt F) S5000x128 .f32)), y ∈ pc.1.set :=
  View.cover_of_tiled [⟨r22_2, p0⟩] S5000x128.size (by rfl) y

/-! ## The body's triple -/

set_option maxHeartbeats 1000000 in
/-- The body on whole staging buffers — the two inputs' reading `x0` and `x1`, the output's holding anything — runs
    to the inputs' as they were and the output's reading `out22_2 x0 x1`: two loads, a load of the output buffer whose
    value nothing reads, and one store over the whole output buffer. -/
theorem sound_kernel22 (c : Dev nD) (E : Set ℕ) (i : grid22.Coords)
    (arg1 : Memref sig .tc .vmem S5000x128 .f32) (harg1 : arg1.IsWhole)
    (arg2 : Memref sig .tc .vmem S1x128 .f32) (harg2 : arg2.IsWhole)
    (arg3 : Memref sig .tc .vmem S5000x128 .f32) (harg3 : arg3.IsWhole)
    (x0 : Vec F S5000x128 .f32) (x1 : Vec F S1x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out22_2 x0 x1)) -∗ K ⟨⟩))
      ⊢ wp frame (wpE (defs₀ (F := F)) Variants.none c none) E (cc22__bias_relu_kernel i arg1 harg1 arg2 harg2 arg3 harg3) K := by
  simp only [cc22__bias_relu_kernel_eq_skeleton]; unfold cc22__bias_relu_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover22_2 _)

/-! ## The pipeline's proof data -/

/-- The proof data of pipeline 22 on core `c`: the arrays as the region finds them; after the body at point `t` each
    input's buffer at its block and the output's at `out22_2` of the two; the invariant the core's scoped buffers
    that are no staging buffer and its random-number generator register, untouched; nothing owed; full shares. -/
def dat22 (c : Dev nD) : Dat τ (Elt F) Unit ℕ (Pipeline.UD sig nD τ) ℕ cfg22 c where
  A w := V c (Pipeline.arrRef spec22 w)
  after w t := match w with
    | ⟨0, _⟩ => iblk22 V c 0 t
    | ⟨1, _⟩ => iblk22 V c 1 t
    | ⟨2, _⟩ => out22_2 (iblk22 V c 0 t) (iblk22 V c 1 t)
  Φ _ := Pipeline.ΦA spec22 c
  q _ := fullShare
  owed _ := 0

/-- The data's arrays are the region-entry contents. -/
theorem A_eq22 (c : Dev nD) (w : Fin cfg22.W) : (dat22 V c).A w = V c (Pipeline.arrRef spec22 w) := by
  dsimp only [dat22]

/-- What the body leaves, window by window. -/
theorem after22_0 (c : Dev nD) (t : Fin cfg22.N) : (dat22 V c).after 0 t = iblk22 V c 0 t := by dsimp only [dat22]
theorem after22_1 (c : Dev nD) (t : Fin cfg22.N) : (dat22 V c).after 1 t = iblk22 V c 1 t := by dsimp only [dat22]
theorem after22_2 (c : Dev nD) (t : Fin cfg22.N) : (dat22 V c).after 2 t = out22_2 (iblk22 V c 0 t) (iblk22 V c 1 t) := by dsimp only [dat22]

/-- The feature window's current buffer holds its block at every point: the body leaves the block in place, and where
    the pipeline does not fetch, the block index has not moved. -/
theorem before22_0 (c : Dev nD) (t : Fin cfg22.N) (d) : (dat22 V c).before 0 t d = iblk22 V c 0 t :=
  ((dat22 V c).before_in_eq_fetched 0 rfl (fun _ => rfl) (fun _ _ _ => rfl)
      (fun t => by rw [after22_0]; unfold Dat.blockOf iblk22; rw [A_eq22]; try rfl) t d).trans
    (by unfold Dat.fetched Dat.blockOf iblk22; rw [A_eq22]; try rfl)

/-- The bias window's likewise: fetched at the first point only, its one block is every point's. -/
theorem before22_1 (c : Dev nD) (t : Fin cfg22.N) (d) : (dat22 V c).before 1 t d = iblk22 V c 1 t :=
  ((dat22 V c).before_in_eq_fetched 1 rfl (fun _ => rfl) (fun _ _ _ => rfl)
      (fun t => by rw [after22_1]; unfold Dat.blockOf iblk22; rw [A_eq22]; try rfl) t d).trans
    (by unfold Dat.fetched Dat.blockOf iblk22; rw [A_eq22]; try rfl)

/-! ## The body obligation, at a generic point -/

/-- What the body is called with at point `t`: the invariant, the core's dues, each window's current buffer, -/
def bodyPre22 (c : Dev nD) (t : Fin cfg22.N) : sProp 𝕄 :=
  iprop((dat22 V c).Φ t.castSucc ∗ (dat22 V c).owesAt () t.castSucc
    ∗ (∃ d, owns (c : Thread nD τ) (st22_0 t) fullShare ((dat22 V c).before 0 t d))
    ∗ (∃ d, owns (c : Thread nD τ) (st22_1 t) fullShare ((dat22 V c).before 1 t d))
    ∗ (∃ d, owns (c : Thread nD τ) (st22_2 t) fullShare ((dat22 V c).before 2 t d)))

/-- and what it returns. -/
def bodyPost22 (c : Dev nD) (t : Fin cfg22.N) : sProp 𝕄 :=
  iprop((dat22 V c).Φ t.succ ∗ (dat22 V c).owesAt () t.succ
    ∗ owns (c : Thread nD τ) (st22_0 t) fullShare ((dat22 V c).after 0 t)
    ∗ owns (c : Thread nD τ) (st22_1 t) fullShare ((dat22 V c).after 1 t)
    ∗ owns (c : Thread nD τ) (st22_2 t) fullShare ((dat22 V c).after 2 t))

/-- The body at any point: the inputs' buffers hold their blocks, so the body's triple applies; the invariant and the
    core's dues pass through unread. -/
theorem sound_body22 (c : Dev nD) (t : Fin cfg22.N) :
    bodyPre22 V c t ⊢ wp frame (wpE (defs₀ (F := F)) Variants.none c none) Set.univ (bodyAt22 t) (fun _ => bodyPost22 V c t) := by
  unfold bodyPre22 bodyPost22 bodyAt22
  simp only [before22_0, before22_1]
  rw [show (dat22 V c).Φ t.succ = (dat22 V c).Φ t.castSucc from rfl,
    show (dat22 V c).owesAt () t.succ = (dat22 V c).owesAt () t.castSucc from rfl,
    after22_0, after22_1, after22_2]
  iintro ⟨HΦ, Ho, ⟨%d0, H0⟩, ⟨%d1, H1⟩, ⟨%d2, H2⟩⟩
  iapply (sound_kernel22 c Set.univ _ _ _ _ _ _ _ (iblk22 V c 0 t) (iblk22 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation of pipeline 22, at every point. -/
theorem body_obligation22 (c : Dev nD) : BodyObligation (dat22 (F := F) V c) (defs₀ (F := F)) Variants.none () Set.univ := fun t => by
  rw [bigSep_W22, bigSep_W22]
  exact sound_body22 V c t

end Cert.KernelIdeal.Hand

end
-- ==== Proof.KI.Dense39.lean ====
/-
  Region 39 of @main — the edge classifier, the pallas_call of `cc39__classify_kernel` — as a pipeline of the plainest
  class: at each of its 125 grid points the body reads a 6400 x 128 block of the gathered source-node features, the
  6400 x 128 block of the gathered destination-node features, the two whole 128 x 2 halves of the classifier's weight
  matrix and its whole 1 x 2 bias row, and stores into the output's 6400 x 2 block the logistic function of: the source
  block times the first half plus the destination block times the second half (operands rounded to bf16, each product
  accumulated in f32 from zero) plus the bias row repeated down the rows. It keeps nothing from point to point and
  names no semaphore.

  Stated at a PARAMETER `V`, the core's buffer contents when the region is entered:
  * `iblk39`: a window's block at a grid point, read off its array at `V`;
  * `out39_5`: the output block as a function of the five input blocks — the one store's payload laid over the
    whole block;
  * `sound_kernel39`: the body's triple on whole staging buffers;
  * `dat39`: the pipeline's proof data (arrays at `V`; after the body each input buffer at its block, the
    output buffer at `out39_5` of them; the invariant the scoped rest and the core's random-number generator
    register; nothing owed);
  * `A_eq39`, `after39_0` … `after39_5`: the data's fields, projected;
  * `before39_0` … `before39_4`: an input's buffer holds its block at every point — the two weight halves and the
    bias row are fetched at the first point only, and their block indices never move;
  * `body_obligation39`: the body obligation at every point.
-/
import proofs.«402049_j87351044866139_2_alg».proof.Proof.Gen.KernelIdeal.Launch
import proofs.«402049_j87351044866139_2_alg».proof.Proof.Gen.KernelIdeal.Skeleton
import proofs.«402049_j87351044866139_2_alg».proof.Proof.Gen.KernelIdeal.Points
import Idealize.ShloMosaic.Lib.Pipeline.FrameBody
import Idealize.ShloMosaic.Lib.Tactic

-- a block's extent (6400 rows) is the depth of the structural checks on its rectangle
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

-- the resource algebra every kernel-side region of this program is stated at
local notation "𝕄" => MT nD τ sig Unit (Elt F) ℕ (Pipeline.UD sig nD τ) ℕ

-- the core's buffer contents when the region is entered
variable (V : (c : Dev nD) → (b : Ref sig .tc) → Buf (Elt F) ((c : Thread nD τ).loc b))

/-! ## The windows' blocks -/

/-- Window `w`'s block at point `t`, read off its array as the region finds it. -/
def iblk39 (c : Dev nD) (w : Fin cfg39.W) (t : Fin cfg39.N) : ((cfg39.win w).xblock (cfg39.grid.coords t)).Idx → Elt F (cfg39.win w).elt :=
  ((cfg39.win w).blk t).view.read (Elt F) (V c (Pipeline.arrRef spec39 w))

/-! ## The body's accesses: each a whole staging buffer -/

abbrev r39_0 : Rect S6400x128 := Rect.unit (s := S6400x128) ![0, 0] S6400x128.size inb_S6400x128_S6400x128_0_0
abbrev r39_1 : Rect S6400x128 := Rect.unit (s := S6400x128) ![0, 0] S6400x128.size inb_S6400x128_S6400x128_0_0
abbrev r39_2 : Rect S128x2 := Rect.unit (s := S128x2) ![0, 0] S128x2.size inb_S128x2_S128x2_0_0
abbrev r39_3 : Rect S128x2 := Rect.unit (s := S128x2) ![0, 0] S128x2.size inb_S128x2_S128x2_0_0
abbrev r39_4 : Rect S1x2 := Rect.unit (s := S1x2) ![0, 0] S1x2.size inb_S1x2_S1x2_0_0
abbrev r39_5 : Rect S6400x2 := Rect.unit (s := S6400x2) ![0, 0] S6400x2.size inb_S6400x2_S6400x2_0_0

/-! ## What the body leaves in the output window's buffer -/

/-- The output block from the source block `x0`, the destination block `x1`, the weight halves `x2` and `x3` and the
    bias row `x4`: the body's one store, whose payload is the logistic function of `x0 · x2 + x1 · x3` plus the bias of
    each column, the products' operands rounded to bf16 and each product accumulated in f32 from zero. -/
def out39_5 (x0 : Vec F S6400x128 .f32) (x1 : Vec F S6400x128 .f32) (x2 : Vec F S128x2 .f32) (x3 : Vec F S128x2 .f32)
    (x4 : Vec F S1x2 .f32) : Vec F S6400x2 .f32 :=
  View.canon [⟨r39_5, k39_pay1 (View.ld x0 r39_0) (View.ld x1 r39_1) (View.ld x2 r39_2) (View.ld x3 r39_3) (View.ld x4 r39_4)⟩]

/-- The store is the whole block, so every element of the block lies in it. -/
theorem cover39_5 (p0 : Vec F S6400x2 .f32) (y : S6400x2.Idx) :
    ∃ pc ∈ ([⟨r39_5, p0⟩] : List (View.Piece (Elt F) S6400x2 .f32)), y ∈ pc.1.set :=
  View.cover_of_tiled [⟨r39_5, p0⟩] S6400x2.size (by rfl) y

/-! ## The body's triple -/

set_option maxHeartbeats 1000000 in
/-- The body on whole staging buffers — the five inputs' reading `x0` … `x4`, the output's holding anything — runs to
    the inputs' as they were and the output's reading `out39_5 x0 x1 x2 x3 x4`: five loads, a load of the output buffer
    whose value nothing reads, and one store over the whole output buffer. -/
theorem sound_kernel39 (c : Dev nD) (E : Set ℕ) (i : grid39.Coords)
    (arg1 : Memref sig .tc .vmem S6400x128 .f32) (harg1 : arg1.IsWhole)
    (arg2 : Memref sig .tc .vmem S6400x128 .f32) (harg2 : arg2.IsWhole)
    (arg3 : Memref sig .tc .vmem S128x2 .f32) (harg3 : arg3.IsWhole)
    (arg4 : Memref sig .tc .vmem S128x2 .f32) (harg4 : arg4.IsWhole)
    (arg5 : Memref sig .tc .vmem S1x2 .f32) (harg5 : arg5.IsWhole)
    (arg6 : Memref sig .tc .vmem S6400x2 .f32) (harg6 : arg6.IsWhole)
    (x0 : Vec F S6400x128 .f32) (x1 : Vec F S6400x128 .f32) (x2 : Vec F S128x2 .f32) (x3 : Vec F S128x2 .f32)
    (x4 : Vec F S1x2 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out39_5 x0 x1 x2 x3 x4)) -∗ K ⟨⟩))
      ⊢ wp frame (wpE (defs₀ (F := F)) Variants.none c none) E
          (cc39__classify_kernel i arg1 harg1 arg2 harg2 arg3 harg3 arg4 harg4 arg5 harg5 arg6 harg6) K := by
  simp only [cc39__classify_kernel_eq_skeleton]; unfold cc39__classify_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover39_5 _)

/-! ## The pipeline's proof data -/

/-- The proof data of pipeline 39 on core `c`: the arrays as the region finds them; after the body at point `t` each
    input's buffer at its block and the output's at `out39_5` of the five; the invariant the core's scoped buffers that
    are no staging buffer and its random-number generator register, untouched; nothing owed; full shares. -/
def dat39 (c : Dev nD) : Dat τ (Elt F) Unit ℕ (Pipeline.UD sig nD τ) ℕ cfg39 c where
  A w := V c (Pipeline.arrRef spec39 w)
  after w t := match w with
    | ⟨0, _⟩ => iblk39 V c 0 t
    | ⟨1, _⟩ => iblk39 V c 1 t
    | ⟨2, _⟩ => iblk39 V c 2 t
    | ⟨3, _⟩ => iblk39 V c 3 t
    | ⟨4, _⟩ => iblk39 V c 4 t
    | ⟨5, _⟩ => out39_5 (iblk39 V c 0 t) (iblk39 V c 1 t) (iblk39 V c 2 t) (iblk39 V c 3 t) (iblk39 V c 4 t)
  Φ _ := Pipeline.ΦA spec39 c
  q _ := fullShare
  owed _ := 0

/-- The data's arrays are the region-entry contents. -/
theorem A_eq39 (c : Dev nD) (w : Fin cfg39.W) : (dat39 V c).A w = V c (Pipeline.arrRef spec39 w) := by
  dsimp only [dat39]

/-- What the body leaves, window by window. -/
theorem after39_0 (c : Dev nD) (t : Fin cfg39.N) : (dat39 V c).after 0 t = iblk39 V c 0 t := by dsimp only [dat39]
theorem after39_1 (c : Dev nD) (t : Fin cfg39.N) : (dat39 V c).after 1 t = iblk39 V c 1 t := by dsimp only [dat39]
theorem after39_2 (c : Dev nD) (t : Fin cfg39.N) : (dat39 V c).after 2 t = iblk39 V c 2 t := by dsimp only [dat39]
theorem after39_3 (c : Dev nD) (t : Fin cfg39.N) : (dat39 V c).after 3 t = iblk39 V c 3 t := by dsimp only [dat39]
theorem after39_4 (c : Dev nD) (t : Fin cfg39.N) : (dat39 V c).after 4 t = iblk39 V c 4 t := by dsimp only [dat39]
theorem after39_5 (c : Dev nD) (t : Fin cfg39.N) :
    (dat39 V c).after 5 t = out39_5 (iblk39 V c 0 t) (iblk39 V c 1 t) (iblk39 V c 2 t) (iblk39 V c 3 t) (iblk39 V c 4 t) := by
  dsimp only [dat39]

/-- The source window's current buffer holds its block at every point: the body leaves the block in place, and where
    the pipeline does not fetch, the block index has not moved. -/
theorem before39_0 (c : Dev nD) (t : Fin cfg39.N) (d) : (dat39 V c).before 0 t d = iblk39 V c 0 t :=
  ((dat39 V c).before_in_eq_fetched 0 rfl (fun _ => rfl) (fun _ _ _ => rfl)
      (fun t => by rw [after39_0]; unfold Dat.blockOf iblk39; rw [A_eq39]; try rfl) t d).trans
    (by unfold Dat.fetched Dat.blockOf iblk39; rw [A_eq39]; try rfl)

/-- The destination window's likewise. -/
theorem before39_1 (c : Dev nD) (t : Fin cfg39.N) (d) : (dat39 V c).before 1 t d = iblk39 V c 1 t :=
  ((dat39 V c).before_in_eq_fetched 1 rfl (fun _ => rfl) (fun _ _ _ => rfl)
      (fun t => by rw [after39_1]; unfold Dat.blockOf iblk39; rw [A_eq39]; try rfl) t d).trans
    (by unfold Dat.fetched Dat.blockOf iblk39; rw [A_eq39]; try rfl)

/-- The first weight half's: fetched at the first point only, its one block is every point's. -/
theorem before39_2 (c : Dev nD) (t : Fin cfg39.N) (d) : (dat39 V c).before 2 t d = iblk39 V c 2 t :=
  ((dat39 V c).before_in_eq_fetched 2 rfl (fun _ => rfl) (fun _ _ _ => rfl)
      (fun t => by rw [after39_2]; unfold Dat.blockOf iblk39; rw [A_eq39]; try rfl) t d).trans
    (by unfold Dat.fetched Dat.blockOf iblk39; rw [A_eq39]; try rfl)

/-- The second weight half's likewise. -/
theorem before39_3 (c : Dev nD) (t : Fin cfg39.N) (d) : (dat39 V c).before 3 t d = iblk39 V c 3 t :=
  ((dat39 V c).before_in_eq_fetched 3 rfl (fun _ => rfl) (fun _ _ _ => rfl)
      (fun t => by rw [after39_3]; unfold Dat.blockOf iblk39; rw [A_eq39]; try rfl) t d).trans
    (by unfold Dat.fetched Dat.blockOf iblk39; rw [A_eq39]; try rfl)

/-- The bias window's likewise. -/
theorem before39_4 (c : Dev nD) (t : Fin cfg39.N) (d) : (dat39 V c).before 4 t d = iblk39 V c 4 t :=
  ((dat39 V c).before_in_eq_fetched 4 rfl (fun _ => rfl) (fun _ _ _ => rfl)
      (fun t => by rw [after39_4]; unfold Dat.blockOf iblk39; rw [A_eq39]; try rfl) t d).trans
    (by unfold Dat.fetched Dat.blockOf iblk39; rw [A_eq39]; try rfl)

/-! ## The body obligation, at a generic point -/

/-- What the body is called with at point `t`: the invariant, the core's dues, each window's current buffer, -/
def bodyPre39 (c : Dev nD) (t : Fin cfg39.N) : sProp 𝕄 :=
  iprop((dat39 V c).Φ t.castSucc ∗ (dat39 V c).owesAt () t.castSucc
    ∗ (∃ d, owns (c : Thread nD τ) (st39_0 t) fullShare ((dat39 V c).before 0 t d))
    ∗ (∃ d, owns (c : Thread nD τ) (st39_1 t) fullShare ((dat39 V c).before 1 t d))
    ∗ (∃ d, owns (c : Thread nD τ) (st39_2 t) fullShare ((dat39 V c).before 2 t d))
    ∗ (∃ d, owns (c : Thread nD τ) (st39_3 t) fullShare ((dat39 V c).before 3 t d))
    ∗ (∃ d, owns (c : Thread nD τ) (st39_4 t) fullShare ((dat39 V c).before 4 t d))
    ∗ (∃ d, owns (c : Thread nD τ) (st39_5 t) fullShare ((dat39 V c).before 5 t d)))

/-- and what it returns. -/
def bodyPost39 (c : Dev nD) (t : Fin cfg39.N) : sProp 𝕄 :=
  iprop((dat39 V c).Φ t.succ ∗ (dat39 V c).owesAt () t.succ
    ∗ owns (c : Thread nD τ) (st39_0 t) fullShare ((dat39 V c).after 0 t)
    ∗ owns (c : Thread nD τ) (st39_1 t) fullShare ((dat39 V c).after 1 t)
    ∗ owns (c : Thread nD τ) (st39_2 t) fullShare ((dat39 V c).after 2 t)
    ∗ owns (c : Thread nD τ) (st39_3 t) fullShare ((dat39 V c).after 3 t)
    ∗ owns (c : Thread nD τ) (st39_4 t) fullShare ((dat39 V c).after 4 t)
    ∗ owns (c : Thread nD τ) (st39_5 t) fullShare ((dat39 V c).after 5 t))

/-- The body at any point: the inputs' buffers hold their blocks, so the body's triple applies; the invariant and the
    core's dues pass through unread. -/
theorem sound_body39 (c : Dev nD) (t : Fin cfg39.N) :
    bodyPre39 V c t ⊢ wp frame (wpE (defs₀ (F := F)) Variants.none c none) Set.univ (bodyAt39 t) (fun _ => bodyPost39 V c t) := by
  unfold bodyPre39 bodyPost39 bodyAt39
  simp only [before39_0, before39_1, before39_2, before39_3, before39_4]
  rw [show (dat39 V c).Φ t.succ = (dat39 V c).Φ t.castSucc from rfl,
    show (dat39 V c).owesAt () t.succ = (dat39 V c).owesAt () t.castSucc from rfl,
    after39_0, after39_1, after39_2, after39_3, after39_4, after39_5]
  iintro ⟨HΦ, Ho, ⟨%d0, H0⟩, ⟨%d1, H1⟩, ⟨%d2, H2⟩, ⟨%d3, H3⟩, ⟨%d4, H4⟩, ⟨%d5, H5⟩⟩
  iapply (sound_kernel39 c Set.univ _ _ _ _ _ _ _ _ _ _ _ _ _
    (iblk39 V c 0 t) (iblk39 V c 1 t) (iblk39 V c 2 t) (iblk39 V c 3 t) (iblk39 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation of pipeline 39, at every point. -/
theorem body_obligation39 (c : Dev nD) : BodyObligation (dat39 (F := F) V c) (defs₀ (F := F)) Variants.none () Set.univ := fun t => by
  rw [bigSep_W39, bigSep_W39]
  exact sound_body39 V c t

end Cert.KernelIdeal.Hand

end
-- ==== Proof.KI.Gather1.lean ====
/-
  The row-gather region 1 of the kernel's program: its proof data and the facts the launch takes.

  Region 1 copies, at grid point t, the eight rows  A[tbl (8 t + j)]  (j < 8) of the 50000 x 128 array A it finds in
  HBM into the eight rows of its 8 x 128 output block; tbl is the region's index table of 85000 words, held in SMEM, and
  A is read only. So after the region the output array's row r is A's row tbl r. The body moves the rows by transfers
  of its own on eight semaphores of its own, all waited for before the point ends: between two points nothing is in
  flight, the table and A are as the region found them, and the semaphores are at zero. That is the region's invariant.
-/
import proofs.«402049_j87351044866139_2_alg».proof.Proof.Gen.KernelIdeal.Launch
import proofs.«402049_j87351044866139_2_alg».proof.Proof.Gen.KernelIdeal.Skeleton
import proofs.«402049_j87351044866139_2_alg».proof.Proof.Gen.KernelIdeal.Points
import Idealize.ShloMosaic.Lib.Pipeline.Frame
import Idealize.ShloMosaic.Lib.Pipeline.FrameBody
import Idealize.ShloMosaic.Lib.Pipeline.RegionsLoop
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.KernelIdeal Cert.KernelIdeal.Gen

variable {F : FTy → Type} [FloatOps F]

local notation "𝕄" => MT nD τ sig Unit (Elt F) ℕ (Pipeline.UD sig nD τ) ℕ

/-- The eight semaphores the body's row transfers signal. -/
abbrev osem1 : Fin 8 → SemLoc sig := fun j =>
  (![SemLoc.dma 7, SemLoc.dma 8, SemLoc.dma 9, SemLoc.dma 10, SemLoc.dma 11, SemLoc.dma 12, SemLoc.dma 13, SemLoc.dma 14] : Fin 8 → SemLoc sig) j
theorem ownSemFacts1 : Pipeline.OwnSemFacts spec1 osem1 := by decide

/-- The array the rows are read from: left in HBM, no window's array and no table. -/
def H1 : Finset (Ref sig .tc) := {main_v33}
theorem H1_sub : H1 ⊆ Pipeline.restRefsP sig pre1 spec1 := by decide

variable (V : (c : Dev nD) → (b : Ref sig .tc) → Buf (Elt F) ((c : Thread nD τ).loc b))
variable (a1 : (pcfg1 (F := F)).Adm)
variable (gblk : (c : Dev nD) → Fin (cfg1 a1).N → S8x128.Idx → Elt F .f32)

/-- The region's proof data on core c: the output array as the region finds it; after point t the output block holds
    the eight gathered rows; the invariant above; full shares; nothing owed. -/
def datG1 (c : Dev nD) : Dat τ (Elt F) Unit ℕ (Pipeline.UD sig nD τ) ℕ (cfg1 a1) c where
  A w := V c (Pipeline.arrRef spec1 w)
  after w t := match w with
    | ⟨0, _⟩ => gblk c t
  Φ _ := iprop(Pipeline.ΦD osem1 spec1 H1 V c ∗ Pipeline.prefHeld pre1 c (fun _ => fullShare) a1.1)
  q _ := fullShare
  owed _ := 0

theorem A_eqG1 (c : Dev nD) (w : Fin (cfg1 a1).W) : (datG1 V a1 gblk c).A w = V c (Pipeline.arrRef spec1 w) := by
  dsimp only [datG1]
theorem afterG1_0 (c : Dev nD) (t : Fin (cfg1 a1).N) : (datG1 V a1 gblk c).after 0 t = gblk c t := rfl

/-! ## The region's protocol around the thread states

  Between two items of the program core c holds every unscoped buffer whole, beside its generator register and a record
  that it owes nothing. Entering the region, the output array goes to the pipeline, the table is handed over at its
  contents, the array A and the eight semaphores join the register in what the invariant takes (X), and the other
  buffers wait outside (Z). Leaving it, everything comes back: A and the table as they were. -/

/-- What the invariant takes at the first point beside the table and the scoped buffers. -/
def XG1 (c : Dev nD) : sProp 𝕄 :=
  iprop((∃ r, prngReg c r)
    ∗ Pipeline.ownSems0 (Ix := Unit) (Name := ℕ) (U := Pipeline.UD sig nD τ) (Lvl := ℕ) (Val := Elt F) (τ := τ) osem1 c
    ∗ bigSep H1 fun b => ((c.tc : Thread nD τ).loc b) ↦{fullShare} V c b)
/-- What it gives back at the last point beside the semaphores and the scoped buffers. -/
def YG1 (c : Dev nD) : sProp 𝕄 :=
  iprop((∃ r, prngReg c r) ∗ (bigSep H1 fun b => ((c.tc : Thread nD τ).loc b) ↦{fullShare} V c b)
    ∗ Pipeline.prefHeld pre1 c (fun _ => fullShare) a1.1)
/-- The unscoped buffers the region does not touch. -/
def ZG1 (c : Dev nD) : sProp 𝕄 :=
  bigSep (Pipeline.restRefsP sig pre1 spec1 \ H1) fun b => ((c.tc : Thread nD τ).loc b) ↦{fullShare} V c b

theorem hinG1 (c : Dev nD) :
    iprop(XG1 V c ∗ Pipeline.prefHeld pre1 c (fun _ => fullShare) a1.1
        ∗ Pipeline.scopedRest (Ix := Unit) (Name := ℕ) (U := Pipeline.UD sig nD τ) (Lvl := ℕ) (Val := Elt F) spec1 c)
      ⊢ (datG1 V a1 gblk c).Φ 0 := by
  rw [show (datG1 V a1 gblk c).Φ 0 = iprop(Pipeline.ΦD osem1 spec1 H1 V c ∗ Pipeline.prefHeld pre1 c (fun _ => fullShare) a1.1) from rfl,
    Pipeline.ΦD_eq]
  unfold XG1
  iintro ⟨⟨Hp, Hs, Hh⟩, Ht, Hr⟩
  isplitl [Hr Hp Hs Hh]
  · isplitl [Hr]; · iexact Hr
    isplitl [Hp]; · iexact Hp
    isplitl [Hs]; · iexact Hs
    iexact Hh
  iexact Ht

theorem houtG1 (c : Dev nD) :
    (datG1 V a1 gblk c).Φ (Fin.last (cfg1 a1).N)
      ⊢ iprop(YG1 V a1 c
          ∗ Pipeline.ownSems0 (Ix := Unit) (Name := ℕ) (U := Pipeline.UD sig nD τ) (Lvl := ℕ) (Val := Elt F) (τ := τ) osem1 c
          ∗ Pipeline.scopedRest (Ix := Unit) (Name := ℕ) (U := Pipeline.UD sig nD τ) (Lvl := ℕ) (Val := Elt F) spec1 c) := by
  rw [show (datG1 V a1 gblk c).Φ (Fin.last (cfg1 a1).N) = iprop(Pipeline.ΦD osem1 spec1 H1 V c ∗ Pipeline.prefHeld pre1 c (fun _ => fullShare) a1.1) from rfl,
    Pipeline.ΦD_eq]
  unfold YG1
  iintro ⟨⟨Hr, Hp, Hs, Hh⟩, Ht⟩
  isplitl [Hp Hh Ht]
  · isplitl [Hp]; · iexact Hp
    isplitl [Hh]; · iexact Hh
    iexact Ht
  isplitl [Hs]; · iexact Hs
  iexact Hr

/-- ENTRY. `hsplit` is the library's split of the held buffers into the pipeline's array and the rest, at this data. -/
theorem hentryG1 (c : Dev nD) (hpf : (fun k => V c (pre1.ref k)) = a1.1)
    (hsplit : (unscopedBufs c (V c) : sProp 𝕄)
      ⊢ iprop((datG1 V a1 gblk c).arrays ((datG1 V a1 gblk c).arrAt · 0) ∗ Pipeline.unscopedRest spec1 c (V c))) :
    iprop((unscopedBufs c (V c) ∗ (∃ r, prngReg c r) ∗ ∃ W, owes (c : Thread nD τ) (0 : CellTallies nD τ sig Unit) W)
        ∗ Pipeline.ownSems0 (Ix := Unit) (Name := ℕ) (U := Pipeline.UD sig nD τ) (Lvl := ℕ) (Val := Elt F) (τ := τ) osem1 c
        ∗ levAts (fun _ : GSem nD τ sig => (∅ : Finset Unit)) (fun _ _ => (0 : ℕ)))
      ⊢ (|={Set.univ}=> iprop((datG1 V a1 gblk c).arrays ((datG1 V a1 gblk c).arrAt · 0)
          ∗ Pipeline.prefHeld pre1 c (fun _ => fullShare) a1.1
          ∗ (datG1 V a1 gblk c).owesAt () 0 ∗ XG1 V c ∗ ZG1 V c) : sProp 𝕄) := by
  have hrest := Pipeline.unscopedRest_split (Ix := Unit) (Name := ℕ) (U := Pipeline.UD sig nD τ) (Lvl := ℕ) preFacts1 c (V c)
  rw [hpf, Pipeline.unscopedRestP_sdiff pre1 spec1 H1 H1_sub c (V c)] at hrest
  rw [hrest] at hsplit
  iintro ⟨⟨Hub, Hp, HO⟩, Hs, -⟩
  ihave H := hsplit $$ Hub
  icases H with ⟨Ha, Ht, Hh, Hz⟩
  imodintro
  isplitl [Ha]; · iexact Ha
  isplitl [Ht]; · iexact Ht
  isplitl [HO]
  · unfold Pipeline.Dat.owesAt Pipeline.owesWithin
    icases HO with ⟨%W, HO⟩; iexists W; isplitr; · ipureintro; exact fun _ _ => Or.inl trivial
    iexact HO
  unfold XG1 ZG1
  isplitl [Hp Hs Hh]
  · isplitl [Hp]; · iexact Hp
    isplitl [Hs]; · iexact Hs
    iexact Hh
  iexact Hz

variable (Vn : (c : Dev nD) → (b : Ref sig .tc) → Buf (Elt F) ((c : Thread nD τ).loc b))

/-- EXIT. `hjoin` is the library's rejoining of the pipeline's array at its final contents with the rest, at this data. -/
theorem hexitG1 (c : Dev nD) (hpf : (fun k => V c (pre1.ref k)) = a1.1)
    (hjoin : iprop((datG1 V a1 gblk c).arrays ((datG1 V a1 gblk c).arrAt · (cfg1 a1).N) ∗ Pipeline.unscopedRest spec1 c (V c))
      ⊢ (unscopedBufs c (Vn c) : sProp 𝕄)) :
    iprop((datG1 V a1 gblk c).arrays ((datG1 V a1 gblk c).arrAt · (cfg1 a1).N)
        ∗ (datG1 V a1 gblk c).owesAt () (Fin.last (cfg1 a1).N) ∗ YG1 V a1 c ∗ ZG1 V c)
      ⊢ (|={Set.univ}=> iprop(unscopedBufs c (Vn c) ∗ (∃ r, prngReg c r) ∗ ∃ W, owes (c : Thread nD τ) (0 : CellTallies nD τ sig Unit) W) : sProp 𝕄) := by
  have hrest := Pipeline.unscopedRest_split (Ix := Unit) (Name := ℕ) (U := Pipeline.UD sig nD τ) (Lvl := ℕ) preFacts1 c (V c)
  rw [hpf, Pipeline.unscopedRestP_sdiff pre1 spec1 H1 H1_sub c (V c)] at hrest
  rw [hrest] at hjoin
  unfold YG1 ZG1
  iintro ⟨Ha, HO, ⟨Hp, Hh, Ht⟩, Hz⟩
  imodintro
  isplitl [Ha Hh Ht Hz]
  · iapply hjoin
    isplitl [Ha]; · iexact Ha
    isplitl [Ht]; · iexact Ht
    isplitl [Hh]; · iexact Hh
    iexact Hz
  isplitl [Hp]; · iexact Hp
  unfold Pipeline.Dat.owesAt Pipeline.owesWithin
  icases HO with ⟨%W, -, HO⟩; iexists W; iexact HO

end Cert.KernelIdeal.Hand

end
-- ==== Proof.KI.Gather2.lean ====
/-
  The row-gather region 2 of the kernel's program: its proof data and the facts the launch takes.

  Region 2 copies, at grid point t, the eight rows  A[tbl (8 t + j)]  (j < 8) of the 50000 x 128 array A it finds in
  HBM into the eight rows of its 8 x 128 output block; tbl is the region's index table of 85000 words, held in SMEM, and
  A is read only. So after the region the output array's row r is A's row tbl r. The body moves the rows by transfers
  of its own on eight semaphores of its own, all waited for before the point ends: between two points nothing is in
  flight, the table and A are as the region found them, and the semaphores are at zero. That is the region's invariant.
-/
import proofs.«402049_j87351044866139_2_alg».proof.Proof.Gen.KernelIdeal.Launch
import proofs.«402049_j87351044866139_2_alg».proof.Proof.Gen.KernelIdeal.Skeleton
import proofs.«402049_j87351044866139_2_alg».proof.Proof.Gen.KernelIdeal.Points
import Idealize.ShloMosaic.Lib.Pipeline.Frame
import Idealize.ShloMosaic.Lib.Pipeline.FrameBody
import Idealize.ShloMosaic.Lib.Pipeline.RegionsLoop
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.KernelIdeal Cert.KernelIdeal.Gen

variable {F : FTy → Type} [FloatOps F]

local notation "𝕄" => MT nD τ sig Unit (Elt F) ℕ (Pipeline.UD sig nD τ) ℕ

/-- The eight semaphores the body's row transfers signal. -/
abbrev osem2 : Fin 8 → SemLoc sig := fun j =>
  (![SemLoc.dma 17, SemLoc.dma 18, SemLoc.dma 19, SemLoc.dma 20, SemLoc.dma 21, SemLoc.dma 22, SemLoc.dma 23, SemLoc.dma 24] : Fin 8 → SemLoc sig) j
theorem ownSemFacts2 : Pipeline.OwnSemFacts spec2 osem2 := by decide

/-- The array the rows are read from: left in HBM, no window's array and no table. -/
def H2 : Finset (Ref sig .tc) := {main_v33}
theorem H2_sub : H2 ⊆ Pipeline.restRefsP sig pre2 spec2 := by decide

variable (V : (c : Dev nD) → (b : Ref sig .tc) → Buf (Elt F) ((c : Thread nD τ).loc b))
variable (a2 : (pcfg2 (F := F)).Adm)
variable (gblk : (c : Dev nD) → Fin (cfg2 a2).N → S8x128.Idx → Elt F .f32)

/-- The region's proof data on core c: the output array as the region finds it; after point t the output block holds
    the eight gathered rows; the invariant above; full shares; nothing owed. -/
def datG2 (c : Dev nD) : Dat τ (Elt F) Unit ℕ (Pipeline.UD sig nD τ) ℕ (cfg2 a2) c where
  A w := V c (Pipeline.arrRef spec2 w)
  after w t := match w with
    | ⟨0, _⟩ => gblk c t
  Φ _ := iprop(Pipeline.ΦD osem2 spec2 H2 V c ∗ Pipeline.prefHeld pre2 c (fun _ => fullShare) a2.1)
  q _ := fullShare
  owed _ := 0

theorem A_eqG2 (c : Dev nD) (w : Fin (cfg2 a2).W) : (datG2 V a2 gblk c).A w = V c (Pipeline.arrRef spec2 w) := by
  dsimp only [datG2]
theorem afterG2_0 (c : Dev nD) (t : Fin (cfg2 a2).N) : (datG2 V a2 gblk c).after 0 t = gblk c t := rfl

/-! ## The region's protocol around the thread states

  Between two items of the program core c holds every unscoped buffer whole, beside its generator register and a record
  that it owes nothing. Entering the region, the output array goes to the pipeline, the table is handed over at its
  contents, the array A and the eight semaphores join the register in what the invariant takes (X), and the other
  buffers wait outside (Z). Leaving it, everything comes back: A and the table as they were. -/

/-- What the invariant takes at the first point beside the table and the scoped buffers. -/
def XG2 (c : Dev nD) : sProp 𝕄 :=
  iprop((∃ r, prngReg c r)
    ∗ Pipeline.ownSems0 (Ix := Unit) (Name := ℕ) (U := Pipeline.UD sig nD τ) (Lvl := ℕ) (Val := Elt F) (τ := τ) osem2 c
    ∗ bigSep H2 fun b => ((c.tc : Thread nD τ).loc b) ↦{fullShare} V c b)
/-- What it gives back at the last point beside the semaphores and the scoped buffers. -/
def YG2 (c : Dev nD) : sProp 𝕄 :=
  iprop((∃ r, prngReg c r) ∗ (bigSep H2 fun b => ((c.tc : Thread nD τ).loc b) ↦{fullShare} V c b)
    ∗ Pipeline.prefHeld pre2 c (fun _ => fullShare) a2.1)
/-- The unscoped buffers the region does not touch. -/
def ZG2 (c : Dev nD) : sProp 𝕄 :=
  bigSep (Pipeline.restRefsP sig pre2 spec2 \ H2) fun b => ((c.tc : Thread nD τ).loc b) ↦{fullShare} V c b

theorem hinG2 (c : Dev nD) :
    iprop(XG2 V c ∗ Pipeline.prefHeld pre2 c (fun _ => fullShare) a2.1
        ∗ Pipeline.scopedRest (Ix := Unit) (Name := ℕ) (U := Pipeline.UD sig nD τ) (Lvl := ℕ) (Val := Elt F) spec2 c)
      ⊢ (datG2 V a2 gblk c).Φ 0 := by
  rw [show (datG2 V a2 gblk c).Φ 0 = iprop(Pipeline.ΦD osem2 spec2 H2 V c ∗ Pipeline.prefHeld pre2 c (fun _ => fullShare) a2.1) from rfl,
    Pipeline.ΦD_eq]
  unfold XG2
  iintro ⟨⟨Hp, Hs, Hh⟩, Ht, Hr⟩
  isplitl [Hr Hp Hs Hh]
  · isplitl [Hr]; · iexact Hr
    isplitl [Hp]; · iexact Hp
    isplitl [Hs]; · iexact Hs
    iexact Hh
  iexact Ht

theorem houtG2 (c : Dev nD) :
    (datG2 V a2 gblk c).Φ (Fin.last (cfg2 a2).N)
      ⊢ iprop(YG2 V a2 c
          ∗ Pipeline.ownSems0 (Ix := Unit) (Name := ℕ) (U := Pipeline.UD sig nD τ) (Lvl := ℕ) (Val := Elt F) (τ := τ) osem2 c
          ∗ Pipeline.scopedRest (Ix := Unit) (Name := ℕ) (U := Pipeline.UD sig nD τ) (Lvl := ℕ) (Val := Elt F) spec2 c) := by
  rw [show (datG2 V a2 gblk c).Φ (Fin.last (cfg2 a2).N) = iprop(Pipeline.ΦD osem2 spec2 H2 V c ∗ Pipeline.prefHeld pre2 c (fun _ => fullShare) a2.1) from rfl,
    Pipeline.ΦD_eq]
  unfold YG2
  iintro ⟨⟨Hr, Hp, Hs, Hh⟩, Ht⟩
  isplitl [Hp Hh Ht]
  · isplitl [Hp]; · iexact Hp
    isplitl [Hh]; · iexact Hh
    iexact Ht
  isplitl [Hs]; · iexact Hs
  iexact Hr

/-- ENTRY. `hsplit` is the library's split of the held buffers into the pipeline's array and the rest, at this data. -/
theorem hentryG2 (c : Dev nD) (hpf : (fun k => V c (pre2.ref k)) = a2.1)
    (hsplit : (unscopedBufs c (V c) : sProp 𝕄)
      ⊢ iprop((datG2 V a2 gblk c).arrays ((datG2 V a2 gblk c).arrAt · 0) ∗ Pipeline.unscopedRest spec2 c (V c))) :
    iprop((unscopedBufs c (V c) ∗ (∃ r, prngReg c r) ∗ ∃ W, owes (c : Thread nD τ) (0 : CellTallies nD τ sig Unit) W)
        ∗ Pipeline.ownSems0 (Ix := Unit) (Name := ℕ) (U := Pipeline.UD sig nD τ) (Lvl := ℕ) (Val := Elt F) (τ := τ) osem2 c
        ∗ levAts (fun _ : GSem nD τ sig => (∅ : Finset Unit)) (fun _ _ => (0 : ℕ)))
      ⊢ (|={Set.univ}=> iprop((datG2 V a2 gblk c).arrays ((datG2 V a2 gblk c).arrAt · 0)
          ∗ Pipeline.prefHeld pre2 c (fun _ => fullShare) a2.1
          ∗ (datG2 V a2 gblk c).owesAt () 0 ∗ XG2 V c ∗ ZG2 V c) : sProp 𝕄) := by
  have hrest := Pipeline.unscopedRest_split (Ix := Unit) (Name := ℕ) (U := Pipeline.UD sig nD τ) (Lvl := ℕ) preFacts2 c (V c)
  rw [hpf, Pipeline.unscopedRestP_sdiff pre2 spec2 H2 H2_sub c (V c)] at hrest
  rw [hrest] at hsplit
  iintro ⟨⟨Hub, Hp, HO⟩, Hs, -⟩
  ihave H := hsplit $$ Hub
  icases H with ⟨Ha, Ht, Hh, Hz⟩
  imodintro
  isplitl [Ha]; · iexact Ha
  isplitl [Ht]; · iexact Ht
  isplitl [HO]
  · unfold Pipeline.Dat.owesAt Pipeline.owesWithin
    icases HO with ⟨%W, HO⟩; iexists W; isplitr; · ipureintro; exact fun _ _ => Or.inl trivial
    iexact HO
  unfold XG2 ZG2
  isplitl [Hp Hs Hh]
  · isplitl [Hp]; · iexact Hp
    isplitl [Hs]; · iexact Hs
    iexact Hh
  iexact Hz

variable (Vn : (c : Dev nD) → (b : Ref sig .tc) → Buf (Elt F) ((c : Thread nD τ).loc b))

/-- EXIT. `hjoin` is the library's rejoining of the pipeline's array at its final contents with the rest, at this data. -/
theorem hexitG2 (c : Dev nD) (hpf : (fun k => V c (pre2.ref k)) = a2.1)
    (hjoin : iprop((datG2 V a2 gblk c).arrays ((datG2 V a2 gblk c).arrAt · (cfg2 a2).N) ∗ Pipeline.unscopedRest spec2 c (V c))
      ⊢ (unscopedBufs c (Vn c) : sProp 𝕄)) :
    iprop((datG2 V a2 gblk c).arrays ((datG2 V a2 gblk c).arrAt · (cfg2 a2).N)
        ∗ (datG2 V a2 gblk c).owesAt () (Fin.last (cfg2 a2).N) ∗ YG2 V a2 c ∗ ZG2 V c)
      ⊢ (|={Set.univ}=> iprop(unscopedBufs c (Vn c) ∗ (∃ r, prngReg c r) ∗ ∃ W, owes (c : Thread nD τ) (0 : CellTallies nD τ sig Unit) W) : sProp 𝕄) := by
  have hrest := Pipeline.unscopedRest_split (Ix := Unit) (Name := ℕ) (U := Pipeline.UD sig nD τ) (Lvl := ℕ) preFacts2 c (V c)
  rw [hpf, Pipeline.unscopedRestP_sdiff pre2 spec2 H2 H2_sub c (V c)] at hrest
  rw [hrest] at hjoin
  unfold YG2 ZG2
  iintro ⟨Ha, HO, ⟨Hp, Hh, Ht⟩, Hz⟩
  imodintro
  isplitl [Ha Hh Ht Hz]
  · iapply hjoin
    isplitl [Ha]; · iexact Ha
    isplitl [Ht]; · iexact Ht
    isplitl [Hh]; · iexact Hh
    iexact Hz
  isplitl [Hp]; · iexact Hp
  unfold Pipeline.Dat.owesAt Pipeline.owesWithin
  icases HO with ⟨%W, -, HO⟩; iexists W; iexact HO

end Cert.KernelIdeal.Hand

end
-- ==== Proof.KI.Gather3.lean ====
/-
  The row-gather region 3 of the kernel's program: its proof data and the facts the launch takes.

  Region 3 copies, at grid point t, the eight rows  A[tbl (8 t + j)]  (j < 8) of the 50000 x 128 array A it finds in
  HBM into the eight rows of its 8 x 128 output block; tbl is the region's index table of 85000 words, held in SMEM, and
  A is read only. So after the region the output array's row r is A's row tbl r. The body moves the rows by transfers
  of its own on eight semaphores of its own, all waited for before the point ends: between two points nothing is in
  flight, the table and A are as the region found them, and the semaphores are at zero. That is the region's invariant.
-/
import proofs.«402049_j87351044866139_2_alg».proof.Proof.Gen.KernelIdeal.Launch
import proofs.«402049_j87351044866139_2_alg».proof.Proof.Gen.KernelIdeal.Skeleton
import proofs.«402049_j87351044866139_2_alg».proof.Proof.Gen.KernelIdeal.Points
import Idealize.ShloMosaic.Lib.Pipeline.Frame
import Idealize.ShloMosaic.Lib.Pipeline.FrameBody
import Idealize.ShloMosaic.Lib.Pipeline.RegionsLoop
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.KernelIdeal Cert.KernelIdeal.Gen

variable {F : FTy → Type} [FloatOps F]

local notation "𝕄" => MT nD τ sig Unit (Elt F) ℕ (Pipeline.UD sig nD τ) ℕ

/-- The eight semaphores the body's row transfers signal. -/
abbrev osem3 : Fin 8 → SemLoc sig := fun j =>
  (![SemLoc.dma 27, SemLoc.dma 28, SemLoc.dma 29, SemLoc.dma 30, SemLoc.dma 31, SemLoc.dma 32, SemLoc.dma 33, SemLoc.dma 34] : Fin 8 → SemLoc sig) j
theorem ownSemFacts3 : Pipeline.OwnSemFacts spec3 osem3 := by decide

/-- The array the rows are read from: left in HBM, no window's array and no table. -/
def H3 : Finset (Ref sig .tc) := {main_v33}
theorem H3_sub : H3 ⊆ Pipeline.restRefsP sig pre3 spec3 := by decide

variable (V : (c : Dev nD) → (b : Ref sig .tc) → Buf (Elt F) ((c : Thread nD τ).loc b))
variable (a3 : (pcfg3 (F := F)).Adm)
variable (gblk : (c : Dev nD) → Fin (cfg3 a3).N → S8x128.Idx → Elt F .f32)

/-- The region's proof data on core c: the output array as the region finds it; after point t the output block holds
    the eight gathered rows; the invariant above; full shares; nothing owed. -/
def datG3 (c : Dev nD) : Dat τ (Elt F) Unit ℕ (Pipeline.UD sig nD τ) ℕ (cfg3 a3) c where
  A w := V c (Pipeline.arrRef spec3 w)
  after w t := match w with
    | ⟨0, _⟩ => gblk c t
  Φ _ := iprop(Pipeline.ΦD osem3 spec3 H3 V c ∗ Pipeline.prefHeld pre3 c (fun _ => fullShare) a3.1)
  q _ := fullShare
  owed _ := 0

theorem A_eqG3 (c : Dev nD) (w : Fin (cfg3 a3).W) : (datG3 V a3 gblk c).A w = V c (Pipeline.arrRef spec3 w) := by
  dsimp only [datG3]
theorem afterG3_0 (c : Dev nD) (t : Fin (cfg3 a3).N) : (datG3 V a3 gblk c).after 0 t = gblk c t := rfl

/-! ## The region's protocol around the thread states

  Between two items of the program core c holds every unscoped buffer whole, beside its generator register and a record
  that it owes nothing. Entering the region, the output array goes to the pipeline, the table is handed over at its
  contents, the array A and the eight semaphores join the register in what the invariant takes (X), and the other
  buffers wait outside (Z). Leaving it, everything comes back: A and the table as they were. -/

/-- What the invariant takes at the first point beside the table and the scoped buffers. -/
def XG3 (c : Dev nD) : sProp 𝕄 :=
  iprop((∃ r, prngReg c r)
    ∗ Pipeline.ownSems0 (Ix := Unit) (Name := ℕ) (U := Pipeline.UD sig nD τ) (Lvl := ℕ) (Val := Elt F) (τ := τ) osem3 c
    ∗ bigSep H3 fun b => ((c.tc : Thread nD τ).loc b) ↦{fullShare} V c b)
/-- What it gives back at the last point beside the semaphores and the scoped buffers. -/
def YG3 (c : Dev nD) : sProp 𝕄 :=
  iprop((∃ r, prngReg c r) ∗ (bigSep H3 fun b => ((c.tc : Thread nD τ).loc b) ↦{fullShare} V c b)
    ∗ Pipeline.prefHeld pre3 c (fun _ => fullShare) a3.1)
/-- The unscoped buffers the region does not touch. -/
def ZG3 (c : Dev nD) : sProp 𝕄 :=
  bigSep (Pipeline.restRefsP sig pre3 spec3 \ H3) fun b => ((c.tc : Thread nD τ).loc b) ↦{fullShare} V c b

theorem hinG3 (c : Dev nD) :
    iprop(XG3 V c ∗ Pipeline.prefHeld pre3 c (fun _ => fullShare) a3.1
        ∗ Pipeline.scopedRest (Ix := Unit) (Name := ℕ) (U := Pipeline.UD sig nD τ) (Lvl := ℕ) (Val := Elt F) spec3 c)
      ⊢ (datG3 V a3 gblk c).Φ 0 := by
  rw [show (datG3 V a3 gblk c).Φ 0 = iprop(Pipeline.ΦD osem3 spec3 H3 V c ∗ Pipeline.prefHeld pre3 c (fun _ => fullShare) a3.1) from rfl,
    Pipeline.ΦD_eq]
  unfold XG3
  iintro ⟨⟨Hp, Hs, Hh⟩, Ht, Hr⟩
  isplitl [Hr Hp Hs Hh]
  · isplitl [Hr]; · iexact Hr
    isplitl [Hp]; · iexact Hp
    isplitl [Hs]; · iexact Hs
    iexact Hh
  iexact Ht

theorem houtG3 (c : Dev nD) :
    (datG3 V a3 gblk c).Φ (Fin.last (cfg3 a3).N)
      ⊢ iprop(YG3 V a3 c
          ∗ Pipeline.ownSems0 (Ix := Unit) (Name := ℕ) (U := Pipeline.UD sig nD τ) (Lvl := ℕ) (Val := Elt F) (τ := τ) osem3 c
          ∗ Pipeline.scopedRest (Ix := Unit) (Name := ℕ) (U := Pipeline.UD sig nD τ) (Lvl := ℕ) (Val := Elt F) spec3 c) := by
  rw [show (datG3 V a3 gblk c).Φ (Fin.last (cfg3 a3).N) = iprop(Pipeline.ΦD osem3 spec3 H3 V c ∗ Pipeline.prefHeld pre3 c (fun _ => fullShare) a3.1) from rfl,
    Pipeline.ΦD_eq]
  unfold YG3
  iintro ⟨⟨Hr, Hp, Hs, Hh⟩, Ht⟩
  isplitl [Hp Hh Ht]
  · isplitl [Hp]; · iexact Hp
    isplitl [Hh]; · iexact Hh
    iexact Ht
  isplitl [Hs]; · iexact Hs
  iexact Hr

/-- ENTRY. `hsplit` is the library's split of the held buffers into the pipeline's array and the rest, at this data. -/
theorem hentryG3 (c : Dev nD) (hpf : (fun k => V c (pre3.ref k)) = a3.1)
    (hsplit : (unscopedBufs c (V c) : sProp 𝕄)
      ⊢ iprop((datG3 V a3 gblk c).arrays ((datG3 V a3 gblk c).arrAt · 0) ∗ Pipeline.unscopedRest spec3 c (V c))) :
    iprop((unscopedBufs c (V c) ∗ (∃ r, prngReg c r) ∗ ∃ W, owes (c : Thread nD τ) (0 : CellTallies nD τ sig Unit) W)
        ∗ Pipeline.ownSems0 (Ix := Unit) (Name := ℕ) (U := Pipeline.UD sig nD τ) (Lvl := ℕ) (Val := Elt F) (τ := τ) osem3 c
        ∗ levAts (fun _ : GSem nD τ sig => (∅ : Finset Unit)) (fun _ _ => (0 : ℕ)))
      ⊢ (|={Set.univ}=> iprop((datG3 V a3 gblk c).arrays ((datG3 V a3 gblk c).arrAt · 0)
          ∗ Pipeline.prefHeld pre3 c (fun _ => fullShare) a3.1
          ∗ (datG3 V a3 gblk c).owesAt () 0 ∗ XG3 V c ∗ ZG3 V c) : sProp 𝕄) := by
  have hrest := Pipeline.unscopedRest_split (Ix := Unit) (Name := ℕ) (U := Pipeline.UD sig nD τ) (Lvl := ℕ) preFacts3 c (V c)
  rw [hpf, Pipeline.unscopedRestP_sdiff pre3 spec3 H3 H3_sub c (V c)] at hrest
  rw [hrest] at hsplit
  iintro ⟨⟨Hub, Hp, HO⟩, Hs, -⟩
  ihave H := hsplit $$ Hub
  icases H with ⟨Ha, Ht, Hh, Hz⟩
  imodintro
  isplitl [Ha]; · iexact Ha
  isplitl [Ht]; · iexact Ht
  isplitl [HO]
  · unfold Pipeline.Dat.owesAt Pipeline.owesWithin
    icases HO with ⟨%W, HO⟩; iexists W; isplitr; · ipureintro; exact fun _ _ => Or.inl trivial
    iexact HO
  unfold XG3 ZG3
  isplitl [Hp Hs Hh]
  · isplitl [Hp]; · iexact Hp
    isplitl [Hs]; · iexact Hs
    iexact Hh
  iexact Hz

variable (Vn : (c : Dev nD) → (b : Ref sig .tc) → Buf (Elt F) ((c : Thread nD τ).loc b))

/-- EXIT. `hjoin` is the library's rejoining of the pipeline's array at its final contents with the rest, at this data. -/
theorem hexitG3 (c : Dev nD) (hpf : (fun k => V c (pre3.ref k)) = a3.1)
    (hjoin : iprop((datG3 V a3 gblk c).arrays ((datG3 V a3 gblk c).arrAt · (cfg3 a3).N) ∗ Pipeline.unscopedRest spec3 c (V c))
      ⊢ (unscopedBufs c (Vn c) : sProp 𝕄)) :
    iprop((datG3 V a3 gblk c).arrays ((datG3 V a3 gblk c).arrAt · (cfg3 a3).N)
        ∗ (datG3 V a3 gblk c).owesAt () (Fin.last (cfg3 a3).N) ∗ YG3 V a3 c ∗ ZG3 V c)
      ⊢ (|={Set.univ}=> iprop(unscopedBufs c (Vn c) ∗ (∃ r, prngReg c r) ∗ ∃ W, owes (c : Thread nD τ) (0 : CellTallies nD τ sig Unit) W) : sProp 𝕄) := by
  have hrest := Pipeline.unscopedRest_split (Ix := Unit) (Name := ℕ) (U := Pipeline.UD sig nD τ) (Lvl := ℕ) preFacts3 c (V c)
  rw [hpf, Pipeline.unscopedRestP_sdiff pre3 spec3 H3 H3_sub c (V c)] at hrest
  rw [hrest] at hjoin
  unfold YG3 ZG3
  iintro ⟨Ha, HO, ⟨Hp, Hh, Ht⟩, Hz⟩
  imodintro
  isplitl [Ha Hh Ht Hz]
  · iapply hjoin
    isplitl [Ha]; · iexact Ha
    isplitl [Ht]; · iexact Ht
    isplitl [Hh]; · iexact Hh
    iexact Hz
  isplitl [Hp]; · iexact Hp
  unfold Pipeline.Dat.owesAt Pipeline.owesWithin
  icases HO with ⟨%W, -, HO⟩; iexists W; iexact HO

end Cert.KernelIdeal.Hand

end
-- ==== Proof.KI.Gather4.lean ====
/-
  The row-gather region 4 of the kernel's program: its proof data and the facts the launch takes.

  Region 4 copies, at grid point t, the eight rows  A[tbl (8 t + j)]  (j < 8) of the 50000 x 128 array A it finds in
  HBM into the eight rows of its 8 x 128 output block; tbl is the region's index table of 85000 words, held in SMEM, and
  A is read only. So after the region the output array's row r is A's row tbl r. The body moves the rows by transfers
  of its own on eight semaphores of its own, all waited for before the point ends: between two points nothing is in
  flight, the table and A are as the region found them, and the semaphores are at zero. That is the region's invariant.
-/
import proofs.«402049_j87351044866139_2_alg».proof.Proof.Gen.KernelIdeal.Launch
import proofs.«402049_j87351044866139_2_alg».proof.Proof.Gen.KernelIdeal.Skeleton
import proofs.«402049_j87351044866139_2_alg».proof.Proof.Gen.KernelIdeal.Points
import Idealize.ShloMosaic.Lib.Pipeline.Frame
import Idealize.ShloMosaic.Lib.Pipeline.FrameBody
import Idealize.ShloMosaic.Lib.Pipeline.RegionsLoop
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.KernelIdeal Cert.KernelIdeal.Gen

variable {F : FTy → Type} [FloatOps F]

local notation "𝕄" => MT nD τ sig Unit (Elt F) ℕ (Pipeline.UD sig nD τ) ℕ

/-- The eight semaphores the body's row transfers signal. -/
abbrev osem4 : Fin 8 → SemLoc sig := fun j =>
  (![SemLoc.dma 37, SemLoc.dma 38, SemLoc.dma 39, SemLoc.dma 40, SemLoc.dma 41, SemLoc.dma 42, SemLoc.dma 43, SemLoc.dma 44] : Fin 8 → SemLoc sig) j
theorem ownSemFacts4 : Pipeline.OwnSemFacts spec4 osem4 := by decide

/-- The array the rows are read from: left in HBM, no window's array and no table. -/
def H4 : Finset (Ref sig .tc) := {main_v33}
theorem H4_sub : H4 ⊆ Pipeline.restRefsP sig pre4 spec4 := by decide

variable (V : (c : Dev nD) → (b : Ref sig .tc) → Buf (Elt F) ((c : Thread nD τ).loc b))
variable (a4 : (pcfg4 (F := F)).Adm)
variable (gblk : (c : Dev nD) → Fin (cfg4 a4).N → S8x128.Idx → Elt F .f32)

/-- The region's proof data on core c: the output array as the region finds it; after point t the output block holds
    the eight gathered rows; the invariant above; full shares; nothing owed. -/
def datG4 (c : Dev nD) : Dat τ (Elt F) Unit ℕ (Pipeline.UD sig nD τ) ℕ (cfg4 a4) c where
  A w := V c (Pipeline.arrRef spec4 w)
  after w t := match w with
    | ⟨0, _⟩ => gblk c t
  Φ _ := iprop(Pipeline.ΦD osem4 spec4 H4 V c ∗ Pipeline.prefHeld pre4 c (fun _ => fullShare) a4.1)
  q _ := fullShare
  owed _ := 0

theorem A_eqG4 (c : Dev nD) (w : Fin (cfg4 a4).W) : (datG4 V a4 gblk c).A w = V c (Pipeline.arrRef spec4 w) := by
  dsimp only [datG4]
theorem afterG4_0 (c : Dev nD) (t : Fin (cfg4 a4).N) : (datG4 V a4 gblk c).after 0 t = gblk c t := rfl

/-! ## The region's protocol around the thread states

  Between two items of the program core c holds every unscoped buffer whole, beside its generator register and a record
  that it owes nothing. Entering the region, the output array goes to the pipeline, the table is handed over at its
  contents, the array A and the eight semaphores join the register in what the invariant takes (X), and the other
  buffers wait outside (Z). Leaving it, everything comes back: A and the table as they were. -/

/-- What the invariant takes at the first point beside the table and the scoped buffers. -/
def XG4 (c : Dev nD) : sProp 𝕄 :=
  iprop((∃ r, prngReg c r)
    ∗ Pipeline.ownSems0 (Ix := Unit) (Name := ℕ) (U := Pipeline.UD sig nD τ) (Lvl := ℕ) (Val := Elt F) (τ := τ) osem4 c
    ∗ bigSep H4 fun b => ((c.tc : Thread nD τ).loc b) ↦{fullShare} V c b)
/-- What it gives back at the last point beside the semaphores and the scoped buffers. -/
def YG4 (c : Dev nD) : sProp 𝕄 :=
  iprop((∃ r, prngReg c r) ∗ (bigSep H4 fun b => ((c.tc : Thread nD τ).loc b) ↦{fullShare} V c b)
    ∗ Pipeline.prefHeld pre4 c (fun _ => fullShare) a4.1)
/-- The unscoped buffers the region does not touch. -/
def ZG4 (c : Dev nD) : sProp 𝕄 :=
  bigSep (Pipeline.restRefsP sig pre4 spec4 \ H4) fun b => ((c.tc : Thread nD τ).loc b) ↦{fullShare} V c b

theorem hinG4 (c : Dev nD) :
    iprop(XG4 V c ∗ Pipeline.prefHeld pre4 c (fun _ => fullShare) a4.1
        ∗ Pipeline.scopedRest (Ix := Unit) (Name := ℕ) (U := Pipeline.UD sig nD τ) (Lvl := ℕ) (Val := Elt F) spec4 c)
      ⊢ (datG4 V a4 gblk c).Φ 0 := by
  rw [show (datG4 V a4 gblk c).Φ 0 = iprop(Pipeline.ΦD osem4 spec4 H4 V c ∗ Pipeline.prefHeld pre4 c (fun _ => fullShare) a4.1) from rfl,
    Pipeline.ΦD_eq]
  unfold XG4
  iintro ⟨⟨Hp, Hs, Hh⟩, Ht, Hr⟩
  isplitl [Hr Hp Hs Hh]
  · isplitl [Hr]; · iexact Hr
    isplitl [Hp]; · iexact Hp
    isplitl [Hs]; · iexact Hs
    iexact Hh
  iexact Ht

theorem houtG4 (c : Dev nD) :
    (datG4 V a4 gblk c).Φ (Fin.last (cfg4 a4).N)
      ⊢ iprop(YG4 V a4 c
          ∗ Pipeline.ownSems0 (Ix := Unit) (Name := ℕ) (U := Pipeline.UD sig nD τ) (Lvl := ℕ) (Val := Elt F) (τ := τ) osem4 c
          ∗ Pipeline.scopedRest (Ix := Unit) (Name := ℕ) (U := Pipeline.UD sig nD τ) (Lvl := ℕ) (Val := Elt F) spec4 c) := by
  rw [show (datG4 V a4 gblk c).Φ (Fin.last (cfg4 a4).N) = iprop(Pipeline.ΦD osem4 spec4 H4 V c ∗ Pipeline.prefHeld pre4 c (fun _ => fullShare) a4.1) from rfl,
    Pipeline.ΦD_eq]
  unfold YG4
  iintro ⟨⟨Hr, Hp, Hs, Hh⟩, Ht⟩
  isplitl [Hp Hh Ht]
  · isplitl [Hp]; · iexact Hp
    isplitl [Hh]; · iexact Hh
    iexact Ht
  isplitl [Hs]; · iexact Hs
  iexact Hr

/-- ENTRY. `hsplit` is the library's split of the held buffers into the pipeline's array and the rest, at this data. -/
theorem hentryG4 (c : Dev nD) (hpf : (fun k => V c (pre4.ref k)) = a4.1)
    (hsplit : (unscopedBufs c (V c) : sProp 𝕄)
      ⊢ iprop((datG4 V a4 gblk c).arrays ((datG4 V a4 gblk c).arrAt · 0) ∗ Pipeline.unscopedRest spec4 c (V c))) :
    iprop((unscopedBufs c (V c) ∗ (∃ r, prngReg c r) ∗ ∃ W, owes (c : Thread nD τ) (0 : CellTallies nD τ sig Unit) W)
        ∗ Pipeline.ownSems0 (Ix := Unit) (Name := ℕ) (U := Pipeline.UD sig nD τ) (Lvl := ℕ) (Val := Elt F) (τ := τ) osem4 c
        ∗ levAts (fun _ : GSem nD τ sig => (∅ : Finset Unit)) (fun _ _ => (0 : ℕ)))
      ⊢ (|={Set.univ}=> iprop((datG4 V a4 gblk c).arrays ((datG4 V a4 gblk c).arrAt · 0)
          ∗ Pipeline.prefHeld pre4 c (fun _ => fullShare) a4.1
          ∗ (datG4 V a4 gblk c).owesAt () 0 ∗ XG4 V c ∗ ZG4 V c) : sProp 𝕄) := by
  have hrest := Pipeline.unscopedRest_split (Ix := Unit) (Name := ℕ) (U := Pipeline.UD sig nD τ) (Lvl := ℕ) preFacts4 c (V c)
  rw [hpf, Pipeline.unscopedRestP_sdiff pre4 spec4 H4 H4_sub c (V c)] at hrest
  rw [hrest] at hsplit
  iintro ⟨⟨Hub, Hp, HO⟩, Hs, -⟩
  ihave H := hsplit $$ Hub
  icases H with ⟨Ha, Ht, Hh, Hz⟩
  imodintro
  isplitl [Ha]; · iexact Ha
  isplitl [Ht]; · iexact Ht
  isplitl [HO]
  · unfold Pipeline.Dat.owesAt Pipeline.owesWithin
    icases HO with ⟨%W, HO⟩; iexists W; isplitr; · ipureintro; exact fun _ _ => Or.inl trivial
    iexact HO
  unfold XG4 ZG4
  isplitl [Hp Hs Hh]
  · isplitl [Hp]; · iexact Hp
    isplitl [Hs]; · iexact Hs
    iexact Hh
  iexact Hz

variable (Vn : (c : Dev nD) → (b : Ref sig .tc) → Buf (Elt F) ((c : Thread nD τ).loc b))

/-- EXIT. `hjoin` is the library's rejoining of the pipeline's array at its final contents with the rest, at this data. -/
theorem hexitG4 (c : Dev nD) (hpf : (fun k => V c (pre4.ref k)) = a4.1)
    (hjoin : iprop((datG4 V a4 gblk c).arrays ((datG4 V a4 gblk c).arrAt · (cfg4 a4).N) ∗ Pipeline.unscopedRest spec4 c (V c))
      ⊢ (unscopedBufs c (Vn c) : sProp 𝕄)) :
    iprop((datG4 V a4 gblk c).arrays ((datG4 V a4 gblk c).arrAt · (cfg4 a4).N)
        ∗ (datG4 V a4 gblk c).owesAt () (Fin.last (cfg4 a4).N) ∗ YG4 V a4 c ∗ ZG4 V c)
      ⊢ (|={Set.univ}=> iprop(unscopedBufs c (Vn c) ∗ (∃ r, prngReg c r) ∗ ∃ W, owes (c : Thread nD τ) (0 : CellTallies nD τ sig Unit) W) : sProp 𝕄) := by
  have hrest := Pipeline.unscopedRest_split (Ix := Unit) (Name := ℕ) (U := Pipeline.UD sig nD τ) (Lvl := ℕ) preFacts4 c (V c)
  rw [hpf, Pipeline.unscopedRestP_sdiff pre4 spec4 H4 H4_sub c (V c)] at hrest
  rw [hrest] at hjoin
  unfold YG4 ZG4
  iintro ⟨Ha, HO, ⟨Hp, Hh, Ht⟩, Hz⟩
  imodintro
  isplitl [Ha Hh Ht Hz]
  · iapply hjoin
    isplitl [Ha]; · iexact Ha
    isplitl [Ht]; · iexact Ht
    isplitl [Hh]; · iexact Hh
    iexact Hz
  isplitl [Hp]; · iexact Hp
  unfold Pipeline.Dat.owesAt Pipeline.owesWithin
  icases HO with ⟨%W, -, HO⟩; iexists W; iexact HO

end Cert.KernelIdeal.Hand

end
-- ==== Proof.KI.Gather5.lean ====
/-
  The row-gather region 5 of the kernel's program: its proof data and the facts the launch takes.

  Region 5 copies, at grid point t, the eight rows  A[tbl (8 t + j)]  (j < 8) of the 50000 x 128 array A it finds in
  HBM into the eight rows of its 8 x 128 output block; tbl is the region's index table of 85000 words, held in SMEM, and
  A is read only. So after the region the output array's row r is A's row tbl r. The body moves the rows by transfers
  of its own on eight semaphores of its own, all waited for before the point ends: between two points nothing is in
  flight, the table and A are as the region found them, and the semaphores are at zero. That is the region's invariant.
-/
import proofs.«402049_j87351044866139_2_alg».proof.Proof.Gen.KernelIdeal.Launch
import proofs.«402049_j87351044866139_2_alg».proof.Proof.Gen.KernelIdeal.Skeleton
import proofs.«402049_j87351044866139_2_alg».proof.Proof.Gen.KernelIdeal.Points
import Idealize.ShloMosaic.Lib.Pipeline.Frame
import Idealize.ShloMosaic.Lib.Pipeline.FrameBody
import Idealize.ShloMosaic.Lib.Pipeline.RegionsLoop
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.KernelIdeal Cert.KernelIdeal.Gen

variable {F : FTy → Type} [FloatOps F]

local notation "𝕄" => MT nD τ sig Unit (Elt F) ℕ (Pipeline.UD sig nD τ) ℕ

/-- The eight semaphores the body's row transfers signal. -/
abbrev osem5 : Fin 8 → SemLoc sig := fun j =>
  (![SemLoc.dma 47, SemLoc.dma 48, SemLoc.dma 49, SemLoc.dma 50, SemLoc.dma 51, SemLoc.dma 52, SemLoc.dma 53, SemLoc.dma 54] : Fin 8 → SemLoc sig) j
theorem ownSemFacts5 : Pipeline.OwnSemFacts spec5 osem5 := by decide

/-- The array the rows are read from: left in HBM, no window's array and no table. -/
def H5 : Finset (Ref sig .tc) := {main_v33}
theorem H5_sub : H5 ⊆ Pipeline.restRefsP sig pre5 spec5 := by decide

variable (V : (c : Dev nD) → (b : Ref sig .tc) → Buf (Elt F) ((c : Thread nD τ).loc b))
variable (a5 : (pcfg5 (F := F)).Adm)
variable (gblk : (c : Dev nD) → Fin (cfg5 a5).N → S8x128.Idx → Elt F .f32)

/-- The region's proof data on core c: the output array as the region finds it; after point t the output block holds
    the eight gathered rows; the invariant above; full shares; nothing owed. -/
def datG5 (c : Dev nD) : Dat τ (Elt F) Unit ℕ (Pipeline.UD sig nD τ) ℕ (cfg5 a5) c where
  A w := V c (Pipeline.arrRef spec5 w)
  after w t := match w with
    | ⟨0, _⟩ => gblk c t
  Φ _ := iprop(Pipeline.ΦD osem5 spec5 H5 V c ∗ Pipeline.prefHeld pre5 c (fun _ => fullShare) a5.1)
  q _ := fullShare
  owed _ := 0

theorem A_eqG5 (c : Dev nD) (w : Fin (cfg5 a5).W) : (datG5 V a5 gblk c).A w = V c (Pipeline.arrRef spec5 w) := by
  dsimp only [datG5]
theorem afterG5_0 (c : Dev nD) (t : Fin (cfg5 a5).N) : (datG5 V a5 gblk c).after 0 t = gblk c t := rfl

/-! ## The region's protocol around the thread states

  Between two items of the program core c holds every unscoped buffer whole, beside its generator register and a record
  that it owes nothing. Entering the region, the output array goes to the pipeline, the table is handed over at its
  contents, the array A and the eight semaphores join the register in what the invariant takes (X), and the other
  buffers wait outside (Z). Leaving it, everything comes back: A and the table as they were. -/

/-- What the invariant takes at the first point beside the table and the scoped buffers. -/
def XG5 (c : Dev nD) : sProp 𝕄 :=
  iprop((∃ r, prngReg c r)
    ∗ Pipeline.ownSems0 (Ix := Unit) (Name := ℕ) (U := Pipeline.UD sig nD τ) (Lvl := ℕ) (Val := Elt F) (τ := τ) osem5 c
    ∗ bigSep H5 fun b => ((c.tc : Thread nD τ).loc b) ↦{fullShare} V c b)
/-- What it gives back at the last point beside the semaphores and the scoped buffers. -/
def YG5 (c : Dev nD) : sProp 𝕄 :=
  iprop((∃ r, prngReg c r) ∗ (bigSep H5 fun b => ((c.tc : Thread nD τ).loc b) ↦{fullShare} V c b)
    ∗ Pipeline.prefHeld pre5 c (fun _ => fullShare) a5.1)
/-- The unscoped buffers the region does not touch. -/
def ZG5 (c : Dev nD) : sProp 𝕄 :=
  bigSep (Pipeline.restRefsP sig pre5 spec5 \ H5) fun b => ((c.tc : Thread nD τ).loc b) ↦{fullShare} V c b

theorem hinG5 (c : Dev nD) :
    iprop(XG5 V c ∗ Pipeline.prefHeld pre5 c (fun _ => fullShare) a5.1
        ∗ Pipeline.scopedRest (Ix := Unit) (Name := ℕ) (U := Pipeline.UD sig nD τ) (Lvl := ℕ) (Val := Elt F) spec5 c)
      ⊢ (datG5 V a5 gblk c).Φ 0 := by
  rw [show (datG5 V a5 gblk c).Φ 0 = iprop(Pipeline.ΦD osem5 spec5 H5 V c ∗ Pipeline.prefHeld pre5 c (fun _ => fullShare) a5.1) from rfl,
    Pipeline.ΦD_eq]
  unfold XG5
  iintro ⟨⟨Hp, Hs, Hh⟩, Ht, Hr⟩
  isplitl [Hr Hp Hs Hh]
  · isplitl [Hr]; · iexact Hr
    isplitl [Hp]; · iexact Hp
    isplitl [Hs]; · iexact Hs
    iexact Hh
  iexact Ht

theorem houtG5 (c : Dev nD) :
    (datG5 V a5 gblk c).Φ (Fin.last (cfg5 a5).N)
      ⊢ iprop(YG5 V a5 c
          ∗ Pipeline.ownSems0 (Ix := Unit) (Name := ℕ) (U := Pipeline.UD sig nD τ) (Lvl := ℕ) (Val := Elt F) (τ := τ) osem5 c
          ∗ Pipeline.scopedRest (Ix := Unit) (Name := ℕ) (U := Pipeline.UD sig nD τ) (Lvl := ℕ) (Val := Elt F) spec5 c) := by
  rw [show (datG5 V a5 gblk c).Φ (Fin.last (cfg5 a5).N) = iprop(Pipeline.ΦD osem5 spec5 H5 V c ∗ Pipeline.prefHeld pre5 c (fun _ => fullShare) a5.1) from rfl,
    Pipeline.ΦD_eq]
  unfold YG5
  iintro ⟨⟨Hr, Hp, Hs, Hh⟩, Ht⟩
  isplitl [Hp Hh Ht]
  · isplitl [Hp]; · iexact Hp
    isplitl [Hh]; · iexact Hh
    iexact Ht
  isplitl [Hs]; · iexact Hs
  iexact Hr

/-- ENTRY. `hsplit` is the library's split of the held buffers into the pipeline's array and the rest, at this data. -/
theorem hentryG5 (c : Dev nD) (hpf : (fun k => V c (pre5.ref k)) = a5.1)
    (hsplit : (unscopedBufs c (V c) : sProp 𝕄)
      ⊢ iprop((datG5 V a5 gblk c).arrays ((datG5 V a5 gblk c).arrAt · 0) ∗ Pipeline.unscopedRest spec5 c (V c))) :
    iprop((unscopedBufs c (V c) ∗ (∃ r, prngReg c r) ∗ ∃ W, owes (c : Thread nD τ) (0 : CellTallies nD τ sig Unit) W)
        ∗ Pipeline.ownSems0 (Ix := Unit) (Name := ℕ) (U := Pipeline.UD sig nD τ) (Lvl := ℕ) (Val := Elt F) (τ := τ) osem5 c
        ∗ levAts (fun _ : GSem nD τ sig => (∅ : Finset Unit)) (fun _ _ => (0 : ℕ)))
      ⊢ (|={Set.univ}=> iprop((datG5 V a5 gblk c).arrays ((datG5 V a5 gblk c).arrAt · 0)
          ∗ Pipeline.prefHeld pre5 c (fun _ => fullShare) a5.1
          ∗ (datG5 V a5 gblk c).owesAt () 0 ∗ XG5 V c ∗ ZG5 V c) : sProp 𝕄) := by
  have hrest := Pipeline.unscopedRest_split (Ix := Unit) (Name := ℕ) (U := Pipeline.UD sig nD τ) (Lvl := ℕ) preFacts5 c (V c)
  rw [hpf, Pipeline.unscopedRestP_sdiff pre5 spec5 H5 H5_sub c (V c)] at hrest
  rw [hrest] at hsplit
  iintro ⟨⟨Hub, Hp, HO⟩, Hs, -⟩
  ihave H := hsplit $$ Hub
  icases H with ⟨Ha, Ht, Hh, Hz⟩
  imodintro
  isplitl [Ha]; · iexact Ha
  isplitl [Ht]; · iexact Ht
  isplitl [HO]
  · unfold Pipeline.Dat.owesAt Pipeline.owesWithin
    icases HO with ⟨%W, HO⟩; iexists W; isplitr; · ipureintro; exact fun _ _ => Or.inl trivial
    iexact HO
  unfold XG5 ZG5
  isplitl [Hp Hs Hh]
  · isplitl [Hp]; · iexact Hp
    isplitl [Hs]; · iexact Hs
    iexact Hh
  iexact Hz

variable (Vn : (c : Dev nD) → (b : Ref sig .tc) → Buf (Elt F) ((c : Thread nD τ).loc b))

/-- EXIT. `hjoin` is the library's rejoining of the pipeline's array at its final contents with the rest, at this data. -/
theorem hexitG5 (c : Dev nD) (hpf : (fun k => V c (pre5.ref k)) = a5.1)
    (hjoin : iprop((datG5 V a5 gblk c).arrays ((datG5 V a5 gblk c).arrAt · (cfg5 a5).N) ∗ Pipeline.unscopedRest spec5 c (V c))
      ⊢ (unscopedBufs c (Vn c) : sProp 𝕄)) :
    iprop((datG5 V a5 gblk c).arrays ((datG5 V a5 gblk c).arrAt · (cfg5 a5).N)
        ∗ (datG5 V a5 gblk c).owesAt () (Fin.last (cfg5 a5).N) ∗ YG5 V a5 c ∗ ZG5 V c)
      ⊢ (|={Set.univ}=> iprop(unscopedBufs c (Vn c) ∗ (∃ r, prngReg c r) ∗ ∃ W, owes (c : Thread nD τ) (0 : CellTallies nD τ sig Unit) W) : sProp 𝕄) := by
  have hrest := Pipeline.unscopedRest_split (Ix := Unit) (Name := ℕ) (U := Pipeline.UD sig nD τ) (Lvl := ℕ) preFacts5 c (V c)
  rw [hpf, Pipeline.unscopedRestP_sdiff pre5 spec5 H5 H5_sub c (V c)] at hrest
  rw [hrest] at hjoin
  unfold YG5 ZG5
  iintro ⟨Ha, HO, ⟨Hp, Hh, Ht⟩, Hz⟩
  imodintro
  isplitl [Ha Hh Ht Hz]
  · iapply hjoin
    isplitl [Ha]; · iexact Ha
    isplitl [Ht]; · iexact Ht
    isplitl [Hh]; · iexact Hh
    iexact Hz
  isplitl [Hp]; · iexact Hp
  unfold Pipeline.Dat.owesAt Pipeline.owesWithin
  icases HO with ⟨%W, -, HO⟩; iexists W; iexact HO

end Cert.KernelIdeal.Hand

end
-- ==== Proof.KI.Gather6.lean ====
/-
  The row-gather region 6 of the kernel's program: its proof data and the facts the launch takes.

  Region 6 copies, at grid point t, the eight rows  A[tbl (8 t + j)]  (j < 8) of the 50000 x 128 array A it finds in
  HBM into the eight rows of its 8 x 128 output block; tbl is the region's index table of 85000 words, held in SMEM, and
  A is read only. So after the region the output array's row r is A's row tbl r. The body moves the rows by transfers
  of its own on eight semaphores of its own, all waited for before the point ends: between two points nothing is in
  flight, the table and A are as the region found them, and the semaphores are at zero. That is the region's invariant.
-/
import proofs.«402049_j87351044866139_2_alg».proof.Proof.Gen.KernelIdeal.Launch
import proofs.«402049_j87351044866139_2_alg».proof.Proof.Gen.KernelIdeal.Skeleton
import proofs.«402049_j87351044866139_2_alg».proof.Proof.Gen.KernelIdeal.Points
import Idealize.ShloMosaic.Lib.Pipeline.Frame
import Idealize.ShloMosaic.Lib.Pipeline.FrameBody
import Idealize.ShloMosaic.Lib.Pipeline.RegionsLoop
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.KernelIdeal Cert.KernelIdeal.Gen

variable {F : FTy → Type} [FloatOps F]

local notation "𝕄" => MT nD τ sig Unit (Elt F) ℕ (Pipeline.UD sig nD τ) ℕ

/-- The eight semaphores the body's row transfers signal. -/
abbrev osem6 : Fin 8 → SemLoc sig := fun j =>
  (![SemLoc.dma 57, SemLoc.dma 58, SemLoc.dma 59, SemLoc.dma 60, SemLoc.dma 61, SemLoc.dma 62, SemLoc.dma 63, SemLoc.dma 64] : Fin 8 → SemLoc sig) j
theorem ownSemFacts6 : Pipeline.OwnSemFacts spec6 osem6 := by decide

/-- The array the rows are read from: left in HBM, no window's array and no table. -/
def H6 : Finset (Ref sig .tc) := {main_v33}
theorem H6_sub : H6 ⊆ Pipeline.restRefsP sig pre6 spec6 := by decide

variable (V : (c : Dev nD) → (b : Ref sig .tc) → Buf (Elt F) ((c : Thread nD τ).loc b))
variable (a6 : (pcfg6 (F := F)).Adm)
variable (gblk : (c : Dev nD) → Fin (cfg6 a6).N → S8x128.Idx → Elt F .f32)

/-- The region's proof data on core c: the output array as the region finds it; after point t the output block holds
    the eight gathered rows; the invariant above; full shares; nothing owed. -/
def datG6 (c : Dev nD) : Dat τ (Elt F) Unit ℕ (Pipeline.UD sig nD τ) ℕ (cfg6 a6) c where
  A w := V c (Pipeline.arrRef spec6 w)
  after w t := match w with
    | ⟨0, _⟩ => gblk c t
  Φ _ := iprop(Pipeline.ΦD osem6 spec6 H6 V c ∗ Pipeline.prefHeld pre6 c (fun _ => fullShare) a6.1)
  q _ := fullShare
  owed _ := 0

theorem A_eqG6 (c : Dev nD) (w : Fin (cfg6 a6).W) : (datG6 V a6 gblk c).A w = V c (Pipeline.arrRef spec6 w) := by
  dsimp only [datG6]
theorem afterG6_0 (c : Dev nD) (t : Fin (cfg6 a6).N) : (datG6 V a6 gblk c).after 0 t = gblk c t := rfl

/-! ## The region's protocol around the thread states

  Between two items of the program core c holds every unscoped buffer whole, beside its generator register and a record
  that it owes nothing. Entering the region, the output array goes to the pipeline, the table is handed over at its
  contents, the array A and the eight semaphores join the register in what the invariant takes (X), and the other
  buffers wait outside (Z). Leaving it, everything comes back: A and the table as they were. -/

/-- What the invariant takes at the first point beside the table and the scoped buffers. -/
def XG6 (c : Dev nD) : sProp 𝕄 :=
  iprop((∃ r, prngReg c r)
    ∗ Pipeline.ownSems0 (Ix := Unit) (Name := ℕ) (U := Pipeline.UD sig nD τ) (Lvl := ℕ) (Val := Elt F) (τ := τ) osem6 c
    ∗ bigSep H6 fun b => ((c.tc : Thread nD τ).loc b) ↦{fullShare} V c b)
/-- What it gives back at the last point beside the semaphores and the scoped buffers. -/
def YG6 (c : Dev nD) : sProp 𝕄 :=
  iprop((∃ r, prngReg c r) ∗ (bigSep H6 fun b => ((c.tc : Thread nD τ).loc b) ↦{fullShare} V c b)
    ∗ Pipeline.prefHeld pre6 c (fun _ => fullShare) a6.1)
/-- The unscoped buffers the region does not touch. -/
def ZG6 (c : Dev nD) : sProp 𝕄 :=
  bigSep (Pipeline.restRefsP sig pre6 spec6 \ H6) fun b => ((c.tc : Thread nD τ).loc b) ↦{fullShare} V c b

theorem hinG6 (c : Dev nD) :
    iprop(XG6 V c ∗ Pipeline.prefHeld pre6 c (fun _ => fullShare) a6.1
        ∗ Pipeline.scopedRest (Ix := Unit) (Name := ℕ) (U := Pipeline.UD sig nD τ) (Lvl := ℕ) (Val := Elt F) spec6 c)
      ⊢ (datG6 V a6 gblk c).Φ 0 := by
  rw [show (datG6 V a6 gblk c).Φ 0 = iprop(Pipeline.ΦD osem6 spec6 H6 V c ∗ Pipeline.prefHeld pre6 c (fun _ => fullShare) a6.1) from rfl,
    Pipeline.ΦD_eq]
  unfold XG6
  iintro ⟨⟨Hp, Hs, Hh⟩, Ht, Hr⟩
  isplitl [Hr Hp Hs Hh]
  · isplitl [Hr]; · iexact Hr
    isplitl [Hp]; · iexact Hp
    isplitl [Hs]; · iexact Hs
    iexact Hh
  iexact Ht

theorem houtG6 (c : Dev nD) :
    (datG6 V a6 gblk c).Φ (Fin.last (cfg6 a6).N)
      ⊢ iprop(YG6 V a6 c
          ∗ Pipeline.ownSems0 (Ix := Unit) (Name := ℕ) (U := Pipeline.UD sig nD τ) (Lvl := ℕ) (Val := Elt F) (τ := τ) osem6 c
          ∗ Pipeline.scopedRest (Ix := Unit) (Name := ℕ) (U := Pipeline.UD sig nD τ) (Lvl := ℕ) (Val := Elt F) spec6 c) := by
  rw [show (datG6 V a6 gblk c).Φ (Fin.last (cfg6 a6).N) = iprop(Pipeline.ΦD osem6 spec6 H6 V c ∗ Pipeline.prefHeld pre6 c (fun _ => fullShare) a6.1) from rfl,
    Pipeline.ΦD_eq]
  unfold YG6
  iintro ⟨⟨Hr, Hp, Hs, Hh⟩, Ht⟩
  isplitl [Hp Hh Ht]
  · isplitl [Hp]; · iexact Hp
    isplitl [Hh]; · iexact Hh
    iexact Ht
  isplitl [Hs]; · iexact Hs
  iexact Hr

/-- ENTRY. `hsplit` is the library's split of the held buffers into the pipeline's array and the rest, at this data. -/
theorem hentryG6 (c : Dev nD) (hpf : (fun k => V c (pre6.ref k)) = a6.1)
    (hsplit : (unscopedBufs c (V c) : sProp 𝕄)
      ⊢ iprop((datG6 V a6 gblk c).arrays ((datG6 V a6 gblk c).arrAt · 0) ∗ Pipeline.unscopedRest spec6 c (V c))) :
    iprop((unscopedBufs c (V c) ∗ (∃ r, prngReg c r) ∗ ∃ W, owes (c : Thread nD τ) (0 : CellTallies nD τ sig Unit) W)
        ∗ Pipeline.ownSems0 (Ix := Unit) (Name := ℕ) (U := Pipeline.UD sig nD τ) (Lvl := ℕ) (Val := Elt F) (τ := τ) osem6 c
        ∗ levAts (fun _ : GSem nD τ sig => (∅ : Finset Unit)) (fun _ _ => (0 : ℕ)))
      ⊢ (|={Set.univ}=> iprop((datG6 V a6 gblk c).arrays ((datG6 V a6 gblk c).arrAt · 0)
          ∗ Pipeline.prefHeld pre6 c (fun _ => fullShare) a6.1
          ∗ (datG6 V a6 gblk c).owesAt () 0 ∗ XG6 V c ∗ ZG6 V c) : sProp 𝕄) := by
  have hrest := Pipeline.unscopedRest_split (Ix := Unit) (Name := ℕ) (U := Pipeline.UD sig nD τ) (Lvl := ℕ) preFacts6 c (V c)
  rw [hpf, Pipeline.unscopedRestP_sdiff pre6 spec6 H6 H6_sub c (V c)] at hrest
  rw [hrest] at hsplit
  iintro ⟨⟨Hub, Hp, HO⟩, Hs, -⟩
  ihave H := hsplit $$ Hub
  icases H with ⟨Ha, Ht, Hh, Hz⟩
  imodintro
  isplitl [Ha]; · iexact Ha
  isplitl [Ht]; · iexact Ht
  isplitl [HO]
  · unfold Pipeline.Dat.owesAt Pipeline.owesWithin
    icases HO with ⟨%W, HO⟩; iexists W; isplitr; · ipureintro; exact fun _ _ => Or.inl trivial
    iexact HO
  unfold XG6 ZG6
  isplitl [Hp Hs Hh]
  · isplitl [Hp]; · iexact Hp
    isplitl [Hs]; · iexact Hs
    iexact Hh
  iexact Hz

variable (Vn : (c : Dev nD) → (b : Ref sig .tc) → Buf (Elt F) ((c : Thread nD τ).loc b))

/-- EXIT. `hjoin` is the library's rejoining of the pipeline's array at its final contents with the rest, at this data. -/
theorem hexitG6 (c : Dev nD) (hpf : (fun k => V c (pre6.ref k)) = a6.1)
    (hjoin : iprop((datG6 V a6 gblk c).arrays ((datG6 V a6 gblk c).arrAt · (cfg6 a6).N) ∗ Pipeline.unscopedRest spec6 c (V c))
      ⊢ (unscopedBufs c (Vn c) : sProp 𝕄)) :
    iprop((datG6 V a6 gblk c).arrays ((datG6 V a6 gblk c).arrAt · (cfg6 a6).N)
        ∗ (datG6 V a6 gblk c).owesAt () (Fin.last (cfg6 a6).N) ∗ YG6 V a6 c ∗ ZG6 V c)
      ⊢ (|={Set.univ}=> iprop(unscopedBufs c (Vn c) ∗ (∃ r, prngReg c r) ∗ ∃ W, owes (c : Thread nD τ) (0 : CellTallies nD τ sig Unit) W) : sProp 𝕄) := by
  have hrest := Pipeline.unscopedRest_split (Ix := Unit) (Name := ℕ) (U := Pipeline.UD sig nD τ) (Lvl := ℕ) preFacts6 c (V c)
  rw [hpf, Pipeline.unscopedRestP_sdiff pre6 spec6 H6 H6_sub c (V c)] at hrest
  rw [hrest] at hjoin
  unfold YG6 ZG6
  iintro ⟨Ha, HO, ⟨Hp, Hh, Ht⟩, Hz⟩
  imodintro
  isplitl [Ha Hh Ht Hz]
  · iapply hjoin
    isplitl [Ha]; · iexact Ha
    isplitl [Ht]; · iexact Ht
    isplitl [Hh]; · iexact Hh
    iexact Hz
  isplitl [Hp]; · iexact Hp
  unfold Pipeline.Dat.owesAt Pipeline.owesWithin
  icases HO with ⟨%W, -, HO⟩; iexists W; iexact HO

end Cert.KernelIdeal.Hand

end
-- ==== Proof.KI.Gather7.lean ====
/-
  The row-gather region 7 of the kernel's program: its proof data and the facts the launch takes.

  Region 7 copies, at grid point t, the eight rows  A[tbl (8 t + j)]  (j < 8) of the 50000 x 128 array A it finds in
  HBM into the eight rows of its 8 x 128 output block; tbl is the region's index table of 85000 words, held in SMEM, and
  A is read only. So after the region the output array's row r is A's row tbl r. The body moves the rows by transfers
  of its own on eight semaphores of its own, all waited for before the point ends: between two points nothing is in
  flight, the table and A are as the region found them, and the semaphores are at zero. That is the region's invariant.
-/
import proofs.«402049_j87351044866139_2_alg».proof.Proof.Gen.KernelIdeal.Launch
import proofs.«402049_j87351044866139_2_alg».proof.Proof.Gen.KernelIdeal.Skeleton
import proofs.«402049_j87351044866139_2_alg».proof.Proof.Gen.KernelIdeal.Points
import Idealize.ShloMosaic.Lib.Pipeline.Frame
import Idealize.ShloMosaic.Lib.Pipeline.FrameBody
import Idealize.ShloMosaic.Lib.Pipeline.RegionsLoop
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.KernelIdeal Cert.KernelIdeal.Gen

variable {F : FTy → Type} [FloatOps F]

local notation "𝕄" => MT nD τ sig Unit (Elt F) ℕ (Pipeline.UD sig nD τ) ℕ

/-- The eight semaphores the body's row transfers signal. -/
abbrev osem7 : Fin 8 → SemLoc sig := fun j =>
  (![SemLoc.dma 67, SemLoc.dma 68, SemLoc.dma 69, SemLoc.dma 70, SemLoc.dma 71, SemLoc.dma 72, SemLoc.dma 73, SemLoc.dma 74] : Fin 8 → SemLoc sig) j
theorem ownSemFacts7 : Pipeline.OwnSemFacts spec7 osem7 := by decide

/-- The array the rows are read from: left in HBM, no window's array and no table. -/
def H7 : Finset (Ref sig .tc) := {main_v33}
theorem H7_sub : H7 ⊆ Pipeline.restRefsP sig pre7 spec7 := by decide

variable (V : (c : Dev nD) → (b : Ref sig .tc) → Buf (Elt F) ((c : Thread nD τ).loc b))
variable (a7 : (pcfg7 (F := F)).Adm)
variable (gblk : (c : Dev nD) → Fin (cfg7 a7).N → S8x128.Idx → Elt F .f32)

/-- The region's proof data on core c: the output array as the region finds it; after point t the output block holds
    the eight gathered rows; the invariant above; full shares; nothing owed. -/
def datG7 (c : Dev nD) : Dat τ (Elt F) Unit ℕ (Pipeline.UD sig nD τ) ℕ (cfg7 a7) c where
  A w := V c (Pipeline.arrRef spec7 w)
  after w t := match w with
    | ⟨0, _⟩ => gblk c t
  Φ _ := iprop(Pipeline.ΦD osem7 spec7 H7 V c ∗ Pipeline.prefHeld pre7 c (fun _ => fullShare) a7.1)
  q _ := fullShare
  owed _ := 0

theorem A_eqG7 (c : Dev nD) (w : Fin (cfg7 a7).W) : (datG7 V a7 gblk c).A w = V c (Pipeline.arrRef spec7 w) := by
  dsimp only [datG7]
theorem afterG7_0 (c : Dev nD) (t : Fin (cfg7 a7).N) : (datG7 V a7 gblk c).after 0 t = gblk c t := rfl

/-! ## The region's protocol around the thread states

  Between two items of the program core c holds every unscoped buffer whole, beside its generator register and a record
  that it owes nothing. Entering the region, the output array goes to the pipeline, the table is handed over at its
  contents, the array A and the eight semaphores join the register in what the invariant takes (X), and the other
  buffers wait outside (Z). Leaving it, everything comes back: A and the table as they were. -/

/-- What the invariant takes at the first point beside the table and the scoped buffers. -/
def XG7 (c : Dev nD) : sProp 𝕄 :=
  iprop((∃ r, prngReg c r)
    ∗ Pipeline.ownSems0 (Ix := Unit) (Name := ℕ) (U := Pipeline.UD sig nD τ) (Lvl := ℕ) (Val := Elt F) (τ := τ) osem7 c
    ∗ bigSep H7 fun b => ((c.tc : Thread nD τ).loc b) ↦{fullShare} V c b)
/-- What it gives back at the last point beside the semaphores and the scoped buffers. -/
def YG7 (c : Dev nD) : sProp 𝕄 :=
  iprop((∃ r, prngReg c r) ∗ (bigSep H7 fun b => ((c.tc : Thread nD τ).loc b) ↦{fullShare} V c b)
    ∗ Pipeline.prefHeld pre7 c (fun _ => fullShare) a7.1)
/-- The unscoped buffers the region does not touch. -/
def ZG7 (c : Dev nD) : sProp 𝕄 :=
  bigSep (Pipeline.restRefsP sig pre7 spec7 \ H7) fun b => ((c.tc : Thread nD τ).loc b) ↦{fullShare} V c b

theorem hinG7 (c : Dev nD) :
    iprop(XG7 V c ∗ Pipeline.prefHeld pre7 c (fun _ => fullShare) a7.1
        ∗ Pipeline.scopedRest (Ix := Unit) (Name := ℕ) (U := Pipeline.UD sig nD τ) (Lvl := ℕ) (Val := Elt F) spec7 c)
      ⊢ (datG7 V a7 gblk c).Φ 0 := by
  rw [show (datG7 V a7 gblk c).Φ 0 = iprop(Pipeline.ΦD osem7 spec7 H7 V c ∗ Pipeline.prefHeld pre7 c (fun _ => fullShare) a7.1) from rfl,
    Pipeline.ΦD_eq]
  unfold XG7
  iintro ⟨⟨Hp, Hs, Hh⟩, Ht, Hr⟩
  isplitl [Hr Hp Hs Hh]
  · isplitl [Hr]; · iexact Hr
    isplitl [Hp]; · iexact Hp
    isplitl [Hs]; · iexact Hs
    iexact Hh
  iexact Ht

theorem houtG7 (c : Dev nD) :
    (datG7 V a7 gblk c).Φ (Fin.last (cfg7 a7).N)
      ⊢ iprop(YG7 V a7 c
          ∗ Pipeline.ownSems0 (Ix := Unit) (Name := ℕ) (U := Pipeline.UD sig nD τ) (Lvl := ℕ) (Val := Elt F) (τ := τ) osem7 c
          ∗ Pipeline.scopedRest (Ix := Unit) (Name := ℕ) (U := Pipeline.UD sig nD τ) (Lvl := ℕ) (Val := Elt F) spec7 c) := by
  rw [show (datG7 V a7 gblk c).Φ (Fin.last (cfg7 a7).N) = iprop(Pipeline.ΦD osem7 spec7 H7 V c ∗ Pipeline.prefHeld pre7 c (fun _ => fullShare) a7.1) from rfl,
    Pipeline.ΦD_eq]
  unfold YG7
  iintro ⟨⟨Hr, Hp, Hs, Hh⟩, Ht⟩
  isplitl [Hp Hh Ht]
  · isplitl [Hp]; · iexact Hp
    isplitl [Hh]; · iexact Hh
    iexact Ht
  isplitl [Hs]; · iexact Hs
  iexact Hr

/-- ENTRY. `hsplit` is the library's split of the held buffers into the pipeline's array and the rest, at this data. -/
theorem hentryG7 (c : Dev nD) (hpf : (fun k => V c (pre7.ref k)) = a7.1)
    (hsplit : (unscopedBufs c (V c) : sProp 𝕄)
      ⊢ iprop((datG7 V a7 gblk c).arrays ((datG7 V a7 gblk c).arrAt · 0) ∗ Pipeline.unscopedRest spec7 c (V c))) :
    iprop((unscopedBufs c (V c) ∗ (∃ r, prngReg c r) ∗ ∃ W, owes (c : Thread nD τ) (0 : CellTallies nD τ sig Unit) W)
        ∗ Pipeline.ownSems0 (Ix := Unit) (Name := ℕ) (U := Pipeline.UD sig nD τ) (Lvl := ℕ) (Val := Elt F) (τ := τ) osem7 c
        ∗ levAts (fun _ : GSem nD τ sig => (∅ : Finset Unit)) (fun _ _ => (0 : ℕ)))
      ⊢ (|={Set.univ}=> iprop((datG7 V a7 gblk c).arrays ((datG7 V a7 gblk c).arrAt · 0)
          ∗ Pipeline.prefHeld pre7 c (fun _ => fullShare) a7.1
          ∗ (datG7 V a7 gblk c).owesAt () 0 ∗ XG7 V c ∗ ZG7 V c) : sProp 𝕄) := by
  have hrest := Pipeline.unscopedRest_split (Ix := Unit) (Name := ℕ) (U := Pipeline.UD sig nD τ) (Lvl := ℕ) preFacts7 c (V c)
  rw [hpf, Pipeline.unscopedRestP_sdiff pre7 spec7 H7 H7_sub c (V c)] at hrest
  rw [hrest] at hsplit
  iintro ⟨⟨Hub, Hp, HO⟩, Hs, -⟩
  ihave H := hsplit $$ Hub
  icases H with ⟨Ha, Ht, Hh, Hz⟩
  imodintro
  isplitl [Ha]; · iexact Ha
  isplitl [Ht]; · iexact Ht
  isplitl [HO]
  · unfold Pipeline.Dat.owesAt Pipeline.owesWithin
    icases HO with ⟨%W, HO⟩; iexists W; isplitr; · ipureintro; exact fun _ _ => Or.inl trivial
    iexact HO
  unfold XG7 ZG7
  isplitl [Hp Hs Hh]
  · isplitl [Hp]; · iexact Hp
    isplitl [Hs]; · iexact Hs
    iexact Hh
  iexact Hz

variable (Vn : (c : Dev nD) → (b : Ref sig .tc) → Buf (Elt F) ((c : Thread nD τ).loc b))

/-- EXIT. `hjoin` is the library's rejoining of the pipeline's array at its final contents with the rest, at this data. -/
theorem hexitG7 (c : Dev nD) (hpf : (fun k => V c (pre7.ref k)) = a7.1)
    (hjoin : iprop((datG7 V a7 gblk c).arrays ((datG7 V a7 gblk c).arrAt · (cfg7 a7).N) ∗ Pipeline.unscopedRest spec7 c (V c))
      ⊢ (unscopedBufs c (Vn c) : sProp 𝕄)) :
    iprop((datG7 V a7 gblk c).arrays ((datG7 V a7 gblk c).arrAt · (cfg7 a7).N)
        ∗ (datG7 V a7 gblk c).owesAt () (Fin.last (cfg7 a7).N) ∗ YG7 V a7 c ∗ ZG7 V c)
      ⊢ (|={Set.univ}=> iprop(unscopedBufs c (Vn c) ∗ (∃ r, prngReg c r) ∗ ∃ W, owes (c : Thread nD τ) (0 : CellTallies nD τ sig Unit) W) : sProp 𝕄) := by
  have hrest := Pipeline.unscopedRest_split (Ix := Unit) (Name := ℕ) (U := Pipeline.UD sig nD τ) (Lvl := ℕ) preFacts7 c (V c)
  rw [hpf, Pipeline.unscopedRestP_sdiff pre7 spec7 H7 H7_sub c (V c)] at hrest
  rw [hrest] at hjoin
  unfold YG7 ZG7
  iintro ⟨Ha, HO, ⟨Hp, Hh, Ht⟩, Hz⟩
  imodintro
  isplitl [Ha Hh Ht Hz]
  · iapply hjoin
    isplitl [Ha]; · iexact Ha
    isplitl [Ht]; · iexact Ht
    isplitl [Hh]; · iexact Hh
    iexact Hz
  isplitl [Hp]; · iexact Hp
  unfold Pipeline.Dat.owesAt Pipeline.owesWithin
  icases HO with ⟨%W, -, HO⟩; iexists W; iexact HO

end Cert.KernelIdeal.Hand

end
-- ==== Proof.KI.Gather8.lean ====
/-
  The row-gather region 8 of the kernel's program: its proof data and the facts the launch takes.

  Region 8 copies, at grid point t, the eight rows  A[tbl (8 t + j)]  (j < 8) of the 50000 x 128 array A it finds in
  HBM into the eight rows of its 8 x 128 output block; tbl is the region's index table of 85000 words, held in SMEM, and
  A is read only. So after the region the output array's row r is A's row tbl r. The body moves the rows by transfers
  of its own on eight semaphores of its own, all waited for before the point ends: between two points nothing is in
  flight, the table and A are as the region found them, and the semaphores are at zero. That is the region's invariant.
-/
import proofs.«402049_j87351044866139_2_alg».proof.Proof.Gen.KernelIdeal.Launch
import proofs.«402049_j87351044866139_2_alg».proof.Proof.Gen.KernelIdeal.Skeleton
import proofs.«402049_j87351044866139_2_alg».proof.Proof.Gen.KernelIdeal.Points
import Idealize.ShloMosaic.Lib.Pipeline.Frame
import Idealize.ShloMosaic.Lib.Pipeline.FrameBody
import Idealize.ShloMosaic.Lib.Pipeline.RegionsLoop
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.KernelIdeal Cert.KernelIdeal.Gen

variable {F : FTy → Type} [FloatOps F]

local notation "𝕄" => MT nD τ sig Unit (Elt F) ℕ (Pipeline.UD sig nD τ) ℕ

/-- The eight semaphores the body's row transfers signal. -/
abbrev osem8 : Fin 8 → SemLoc sig := fun j =>
  (![SemLoc.dma 77, SemLoc.dma 78, SemLoc.dma 79, SemLoc.dma 80, SemLoc.dma 81, SemLoc.dma 82, SemLoc.dma 83, SemLoc.dma 84] : Fin 8 → SemLoc sig) j
theorem ownSemFacts8 : Pipeline.OwnSemFacts spec8 osem8 := by decide

/-- The array the rows are read from: left in HBM, no window's array and no table. -/
def H8 : Finset (Ref sig .tc) := {main_v33}
theorem H8_sub : H8 ⊆ Pipeline.restRefsP sig pre8 spec8 := by decide

variable (V : (c : Dev nD) → (b : Ref sig .tc) → Buf (Elt F) ((c : Thread nD τ).loc b))
variable (a8 : (pcfg8 (F := F)).Adm)
variable (gblk : (c : Dev nD) → Fin (cfg8 a8).N → S8x128.Idx → Elt F .f32)

/-- The region's proof data on core c: the output array as the region finds it; after point t the output block holds
    the eight gathered rows; the invariant above; full shares; nothing owed. -/
def datG8 (c : Dev nD) : Dat τ (Elt F) Unit ℕ (Pipeline.UD sig nD τ) ℕ (cfg8 a8) c where
  A w := V c (Pipeline.arrRef spec8 w)
  after w t := match w with
    | ⟨0, _⟩ => gblk c t
  Φ _ := iprop(Pipeline.ΦD osem8 spec8 H8 V c ∗ Pipeline.prefHeld pre8 c (fun _ => fullShare) a8.1)
  q _ := fullShare
  owed _ := 0

theorem A_eqG8 (c : Dev nD) (w : Fin (cfg8 a8).W) : (datG8 V a8 gblk c).A w = V c (Pipeline.arrRef spec8 w) := by
  dsimp only [datG8]
theorem afterG8_0 (c : Dev nD) (t : Fin (cfg8 a8).N) : (datG8 V a8 gblk c).after 0 t = gblk c t := rfl

/-! ## The region's protocol around the thread states

  Between two items of the program core c holds every unscoped buffer whole, beside its generator register and a record
  that it owes nothing. Entering the region, the output array goes to the pipeline, the table is handed over at its
  contents, the array A and the eight semaphores join the register in what the invariant takes (X), and the other
  buffers wait outside (Z). Leaving it, everything comes back: A and the table as they were. -/

/-- What the invariant takes at the first point beside the table and the scoped buffers. -/
def XG8 (c : Dev nD) : sProp 𝕄 :=
  iprop((∃ r, prngReg c r)
    ∗ Pipeline.ownSems0 (Ix := Unit) (Name := ℕ) (U := Pipeline.UD sig nD τ) (Lvl := ℕ) (Val := Elt F) (τ := τ) osem8 c
    ∗ bigSep H8 fun b => ((c.tc : Thread nD τ).loc b) ↦{fullShare} V c b)
/-- What it gives back at the last point beside the semaphores and the scoped buffers. -/
def YG8 (c : Dev nD) : sProp 𝕄 :=
  iprop((∃ r, prngReg c r) ∗ (bigSep H8 fun b => ((c.tc : Thread nD τ).loc b) ↦{fullShare} V c b)
    ∗ Pipeline.prefHeld pre8 c (fun _ => fullShare) a8.1)
/-- The unscoped buffers the region does not touch. -/
def ZG8 (c : Dev nD) : sProp 𝕄 :=
  bigSep (Pipeline.restRefsP sig pre8 spec8 \ H8) fun b => ((c.tc : Thread nD τ).loc b) ↦{fullShare} V c b

theorem hinG8 (c : Dev nD) :
    iprop(XG8 V c ∗ Pipeline.prefHeld pre8 c (fun _ => fullShare) a8.1
        ∗ Pipeline.scopedRest (Ix := Unit) (Name := ℕ) (U := Pipeline.UD sig nD τ) (Lvl := ℕ) (Val := Elt F) spec8 c)
      ⊢ (datG8 V a8 gblk c).Φ 0 := by
  rw [show (datG8 V a8 gblk c).Φ 0 = iprop(Pipeline.ΦD osem8 spec8 H8 V c ∗ Pipeline.prefHeld pre8 c (fun _ => fullShare) a8.1) from rfl,
    Pipeline.ΦD_eq]
  unfold XG8
  iintro ⟨⟨Hp, Hs, Hh⟩, Ht, Hr⟩
  isplitl [Hr Hp Hs Hh]
  · isplitl [Hr]; · iexact Hr
    isplitl [Hp]; · iexact Hp
    isplitl [Hs]; · iexact Hs
    iexact Hh
  iexact Ht

theorem houtG8 (c : Dev nD) :
    (datG8 V a8 gblk c).Φ (Fin.last (cfg8 a8).N)
      ⊢ iprop(YG8 V a8 c
          ∗ Pipeline.ownSems0 (Ix := Unit) (Name := ℕ) (U := Pipeline.UD sig nD τ) (Lvl := ℕ) (Val := Elt F) (τ := τ) osem8 c
          ∗ Pipeline.scopedRest (Ix := Unit) (Name := ℕ) (U := Pipeline.UD sig nD τ) (Lvl := ℕ) (Val := Elt F) spec8 c) := by
  rw [show (datG8 V a8 gblk c).Φ (Fin.last (cfg8 a8).N) = iprop(Pipeline.ΦD osem8 spec8 H8 V c ∗ Pipeline.prefHeld pre8 c (fun _ => fullShare) a8.1) from rfl,
    Pipeline.ΦD_eq]
  unfold YG8
  iintro ⟨⟨Hr, Hp, Hs, Hh⟩, Ht⟩
  isplitl [Hp Hh Ht]
  · isplitl [Hp]; · iexact Hp
    isplitl [Hh]; · iexact Hh
    iexact Ht
  isplitl [Hs]; · iexact Hs
  iexact Hr

/-- ENTRY. `hsplit` is the library's split of the held buffers into the pipeline's array and the rest, at this data. -/
theorem hentryG8 (c : Dev nD) (hpf : (fun k => V c (pre8.ref k)) = a8.1)
    (hsplit : (unscopedBufs c (V c) : sProp 𝕄)
      ⊢ iprop((datG8 V a8 gblk c).arrays ((datG8 V a8 gblk c).arrAt · 0) ∗ Pipeline.unscopedRest spec8 c (V c))) :
    iprop((unscopedBufs c (V c) ∗ (∃ r, prngReg c r) ∗ ∃ W, owes (c : Thread nD τ) (0 : CellTallies nD τ sig Unit) W)
        ∗ Pipeline.ownSems0 (Ix := Unit) (Name := ℕ) (U := Pipeline.UD sig nD τ) (Lvl := ℕ) (Val := Elt F) (τ := τ) osem8 c
        ∗ levAts (fun _ : GSem nD τ sig => (∅ : Finset Unit)) (fun _ _ => (0 : ℕ)))
      ⊢ (|={Set.univ}=> iprop((datG8 V a8 gblk c).arrays ((datG8 V a8 gblk c).arrAt · 0)
          ∗ Pipeline.prefHeld pre8 c (fun _ => fullShare) a8.1
          ∗ (datG8 V a8 gblk c).owesAt () 0 ∗ XG8 V c ∗ ZG8 V c) : sProp 𝕄) := by
  have hrest := Pipeline.unscopedRest_split (Ix := Unit) (Name := ℕ) (U := Pipeline.UD sig nD τ) (Lvl := ℕ) preFacts8 c (V c)
  rw [hpf, Pipeline.unscopedRestP_sdiff pre8 spec8 H8 H8_sub c (V c)] at hrest
  rw [hrest] at hsplit
  iintro ⟨⟨Hub, Hp, HO⟩, Hs, -⟩
  ihave H := hsplit $$ Hub
  icases H with ⟨Ha, Ht, Hh, Hz⟩
  imodintro
  isplitl [Ha]; · iexact Ha
  isplitl [Ht]; · iexact Ht
  isplitl [HO]
  · unfold Pipeline.Dat.owesAt Pipeline.owesWithin
    icases HO with ⟨%W, HO⟩; iexists W; isplitr; · ipureintro; exact fun _ _ => Or.inl trivial
    iexact HO
  unfold XG8 ZG8
  isplitl [Hp Hs Hh]
  · isplitl [Hp]; · iexact Hp
    isplitl [Hs]; · iexact Hs
    iexact Hh
  iexact Hz

variable (Vn : (c : Dev nD) → (b : Ref sig .tc) → Buf (Elt F) ((c : Thread nD τ).loc b))

/-- EXIT. `hjoin` is the library's rejoining of the pipeline's array at its final contents with the rest, at this data. -/
theorem hexitG8 (c : Dev nD) (hpf : (fun k => V c (pre8.ref k)) = a8.1)
    (hjoin : iprop((datG8 V a8 gblk c).arrays ((datG8 V a8 gblk c).arrAt · (cfg8 a8).N) ∗ Pipeline.unscopedRest spec8 c (V c))
      ⊢ (unscopedBufs c (Vn c) : sProp 𝕄)) :
    iprop((datG8 V a8 gblk c).arrays ((datG8 V a8 gblk c).arrAt · (cfg8 a8).N)
        ∗ (datG8 V a8 gblk c).owesAt () (Fin.last (cfg8 a8).N) ∗ YG8 V a8 c ∗ ZG8 V c)
      ⊢ (|={Set.univ}=> iprop(unscopedBufs c (Vn c) ∗ (∃ r, prngReg c r) ∗ ∃ W, owes (c : Thread nD τ) (0 : CellTallies nD τ sig Unit) W) : sProp 𝕄) := by
  have hrest := Pipeline.unscopedRest_split (Ix := Unit) (Name := ℕ) (U := Pipeline.UD sig nD τ) (Lvl := ℕ) preFacts8 c (V c)
  rw [hpf, Pipeline.unscopedRestP_sdiff pre8 spec8 H8 H8_sub c (V c)] at hrest
  rw [hrest] at hjoin
  unfold YG8 ZG8
  iintro ⟨Ha, HO, ⟨Hp, Hh, Ht⟩, Hz⟩
  imodintro
  isplitl [Ha Hh Ht Hz]
  · iapply hjoin
    isplitl [Ha]; · iexact Ha
    isplitl [Ht]; · iexact Ht
    isplitl [Hh]; · iexact Hh
    iexact Hz
  isplitl [Hp]; · iexact Hp
  unfold Pipeline.Dat.owesAt Pipeline.owesWithin
  icases HO with ⟨%W, -, HO⟩; iexists W; iexact HO

end Cert.KernelIdeal.Hand

end
-- ==== Proof.KI.Gather9.lean ====
/-
  The row-gather region 9 of the kernel's program: its proof data and the facts the launch takes.

  Region 9 copies, at grid point t, the eight rows  A[tbl (8 t + j)]  (j < 8) of the 50000 x 128 array A it finds in
  HBM into the eight rows of its 8 x 128 output block; tbl is the region's index table of 85000 words, held in SMEM, and
  A is read only. So after the region the output array's row r is A's row tbl r. The body moves the rows by transfers
  of its own on eight semaphores of its own, all waited for before the point ends: between two points nothing is in
  flight, the table and A are as the region found them, and the semaphores are at zero. That is the region's invariant.
-/
import proofs.«402049_j87351044866139_2_alg».proof.Proof.Gen.KernelIdeal.Launch
import proofs.«402049_j87351044866139_2_alg».proof.Proof.Gen.KernelIdeal.Skeleton
import proofs.«402049_j87351044866139_2_alg».proof.Proof.Gen.KernelIdeal.Points
import Idealize.ShloMosaic.Lib.Pipeline.Frame
import Idealize.ShloMosaic.Lib.Pipeline.FrameBody
import Idealize.ShloMosaic.Lib.Pipeline.RegionsLoop
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.KernelIdeal Cert.KernelIdeal.Gen

variable {F : FTy → Type} [FloatOps F]

local notation "𝕄" => MT nD τ sig Unit (Elt F) ℕ (Pipeline.UD sig nD τ) ℕ

/-- The eight semaphores the body's row transfers signal. -/
abbrev osem9 : Fin 8 → SemLoc sig := fun j =>
  (![SemLoc.dma 87, SemLoc.dma 88, SemLoc.dma 89, SemLoc.dma 90, SemLoc.dma 91, SemLoc.dma 92, SemLoc.dma 93, SemLoc.dma 94] : Fin 8 → SemLoc sig) j
theorem ownSemFacts9 : Pipeline.OwnSemFacts spec9 osem9 := by decide

/-- The array the rows are read from: left in HBM, no window's array and no table. -/
def H9 : Finset (Ref sig .tc) := {main_v33}
theorem H9_sub : H9 ⊆ Pipeline.restRefsP sig pre9 spec9 := by decide

variable (V : (c : Dev nD) → (b : Ref sig .tc) → Buf (Elt F) ((c : Thread nD τ).loc b))
variable (a9 : (pcfg9 (F := F)).Adm)
variable (gblk : (c : Dev nD) → Fin (cfg9 a9).N → S8x128.Idx → Elt F .f32)

/-- The region's proof data on core c: the output array as the region finds it; after point t the output block holds
    the eight gathered rows; the invariant above; full shares; nothing owed. -/
def datG9 (c : Dev nD) : Dat τ (Elt F) Unit ℕ (Pipeline.UD sig nD τ) ℕ (cfg9 a9) c where
  A w := V c (Pipeline.arrRef spec9 w)
  after w t := match w with
    | ⟨0, _⟩ => gblk c t
  Φ _ := iprop(Pipeline.ΦD osem9 spec9 H9 V c ∗ Pipeline.prefHeld pre9 c (fun _ => fullShare) a9.1)
  q _ := fullShare
  owed _ := 0

theorem A_eqG9 (c : Dev nD) (w : Fin (cfg9 a9).W) : (datG9 V a9 gblk c).A w = V c (Pipeline.arrRef spec9 w) := by
  dsimp only [datG9]
theorem afterG9_0 (c : Dev nD) (t : Fin (cfg9 a9).N) : (datG9 V a9 gblk c).after 0 t = gblk c t := rfl

/-! ## The region's protocol around the thread states

  Between two items of the program core c holds every unscoped buffer whole, beside its generator register and a record
  that it owes nothing. Entering the region, the output array goes to the pipeline, the table is handed over at its
  contents, the array A and the eight semaphores join the register in what the invariant takes (X), and the other
  buffers wait outside (Z). Leaving it, everything comes back: A and the table as they were. -/

/-- What the invariant takes at the first point beside the table and the scoped buffers. -/
def XG9 (c : Dev nD) : sProp 𝕄 :=
  iprop((∃ r, prngReg c r)
    ∗ Pipeline.ownSems0 (Ix := Unit) (Name := ℕ) (U := Pipeline.UD sig nD τ) (Lvl := ℕ) (Val := Elt F) (τ := τ) osem9 c
    ∗ bigSep H9 fun b => ((c.tc : Thread nD τ).loc b) ↦{fullShare} V c b)
/-- What it gives back at the last point beside the semaphores and the scoped buffers. -/
def YG9 (c : Dev nD) : sProp 𝕄 :=
  iprop((∃ r, prngReg c r) ∗ (bigSep H9 fun b => ((c.tc : Thread nD τ).loc b) ↦{fullShare} V c b)
    ∗ Pipeline.prefHeld pre9 c (fun _ => fullShare) a9.1)
/-- The unscoped buffers the region does not touch. -/
def ZG9 (c : Dev nD) : sProp 𝕄 :=
  bigSep (Pipeline.restRefsP sig pre9 spec9 \ H9) fun b => ((c.tc : Thread nD τ).loc b) ↦{fullShare} V c b

theorem hinG9 (c : Dev nD) :
    iprop(XG9 V c ∗ Pipeline.prefHeld pre9 c (fun _ => fullShare) a9.1
        ∗ Pipeline.scopedRest (Ix := Unit) (Name := ℕ) (U := Pipeline.UD sig nD τ) (Lvl := ℕ) (Val := Elt F) spec9 c)
      ⊢ (datG9 V a9 gblk c).Φ 0 := by
  rw [show (datG9 V a9 gblk c).Φ 0 = iprop(Pipeline.ΦD osem9 spec9 H9 V c ∗ Pipeline.prefHeld pre9 c (fun _ => fullShare) a9.1) from rfl,
    Pipeline.ΦD_eq]
  unfold XG9
  iintro ⟨⟨Hp, Hs, Hh⟩, Ht, Hr⟩
  isplitl [Hr Hp Hs Hh]
  · isplitl [Hr]; · iexact Hr
    isplitl [Hp]; · iexact Hp
    isplitl [Hs]; · iexact Hs
    iexact Hh
  iexact Ht

theorem houtG9 (c : Dev nD) :
    (datG9 V a9 gblk c).Φ (Fin.last (cfg9 a9).N)
      ⊢ iprop(YG9 V a9 c
          ∗ Pipeline.ownSems0 (Ix := Unit) (Name := ℕ) (U := Pipeline.UD sig nD τ) (Lvl := ℕ) (Val := Elt F) (τ := τ) osem9 c
          ∗ Pipeline.scopedRest (Ix := Unit) (Name := ℕ) (U := Pipeline.UD sig nD τ) (Lvl := ℕ) (Val := Elt F) spec9 c) := by
  rw [show (datG9 V a9 gblk c).Φ (Fin.last (cfg9 a9).N) = iprop(Pipeline.ΦD osem9 spec9 H9 V c ∗ Pipeline.prefHeld pre9 c (fun _ => fullShare) a9.1) from rfl,
    Pipeline.ΦD_eq]
  unfold YG9
  iintro ⟨⟨Hr, Hp, Hs, Hh⟩, Ht⟩
  isplitl [Hp Hh Ht]
  · isplitl [Hp]; · iexact Hp
    isplitl [Hh]; · iexact Hh
    iexact Ht
  isplitl [Hs]; · iexact Hs
  iexact Hr

/-- ENTRY. `hsplit` is the library's split of the held buffers into the pipeline's array and the rest, at this data. -/
theorem hentryG9 (c : Dev nD) (hpf : (fun k => V c (pre9.ref k)) = a9.1)
    (hsplit : (unscopedBufs c (V c) : sProp 𝕄)
      ⊢ iprop((datG9 V a9 gblk c).arrays ((datG9 V a9 gblk c).arrAt · 0) ∗ Pipeline.unscopedRest spec9 c (V c))) :
    iprop((unscopedBufs c (V c) ∗ (∃ r, prngReg c r) ∗ ∃ W, owes (c : Thread nD τ) (0 : CellTallies nD τ sig Unit) W)
        ∗ Pipeline.ownSems0 (Ix := Unit) (Name := ℕ) (U := Pipeline.UD sig nD τ) (Lvl := ℕ) (Val := Elt F) (τ := τ) osem9 c
        ∗ levAts (fun _ : GSem nD τ sig => (∅ : Finset Unit)) (fun _ _ => (0 : ℕ)))
      ⊢ (|={Set.univ}=> iprop((datG9 V a9 gblk c).arrays ((datG9 V a9 gblk c).arrAt · 0)
          ∗ Pipeline.prefHeld pre9 c (fun _ => fullShare) a9.1
          ∗ (datG9 V a9 gblk c).owesAt () 0 ∗ XG9 V c ∗ ZG9 V c) : sProp 𝕄) := by
  have hrest := Pipeline.unscopedRest_split (Ix := Unit) (Name := ℕ) (U := Pipeline.UD sig nD τ) (Lvl := ℕ) preFacts9 c (V c)
  rw [hpf, Pipeline.unscopedRestP_sdiff pre9 spec9 H9 H9_sub c (V c)] at hrest
  rw [hrest] at hsplit
  iintro ⟨⟨Hub, Hp, HO⟩, Hs, -⟩
  ihave H := hsplit $$ Hub
  icases H with ⟨Ha, Ht, Hh, Hz⟩
  imodintro
  isplitl [Ha]; · iexact Ha
  isplitl [Ht]; · iexact Ht
  isplitl [HO]
  · unfold Pipeline.Dat.owesAt Pipeline.owesWithin
    icases HO with ⟨%W, HO⟩; iexists W; isplitr; · ipureintro; exact fun _ _ => Or.inl trivial
    iexact HO
  unfold XG9 ZG9
  isplitl [Hp Hs Hh]
  · isplitl [Hp]; · iexact Hp
    isplitl [Hs]; · iexact Hs
    iexact Hh
  iexact Hz

variable (Vn : (c : Dev nD) → (b : Ref sig .tc) → Buf (Elt F) ((c : Thread nD τ).loc b))

/-- EXIT. `hjoin` is the library's rejoining of the pipeline's array at its final contents with the rest, at this data. -/
theorem hexitG9 (c : Dev nD) (hpf : (fun k => V c (pre9.ref k)) = a9.1)
    (hjoin : iprop((datG9 V a9 gblk c).arrays ((datG9 V a9 gblk c).arrAt · (cfg9 a9).N) ∗ Pipeline.unscopedRest spec9 c (V c))
      ⊢ (unscopedBufs c (Vn c) : sProp 𝕄)) :
    iprop((datG9 V a9 gblk c).arrays ((datG9 V a9 gblk c).arrAt · (cfg9 a9).N)
        ∗ (datG9 V a9 gblk c).owesAt () (Fin.last (cfg9 a9).N) ∗ YG9 V a9 c ∗ ZG9 V c)
      ⊢ (|={Set.univ}=> iprop(unscopedBufs c (Vn c) ∗ (∃ r, prngReg c r) ∗ ∃ W, owes (c : Thread nD τ) (0 : CellTallies nD τ sig Unit) W) : sProp 𝕄) := by
  have hrest := Pipeline.unscopedRest_split (Ix := Unit) (Name := ℕ) (U := Pipeline.UD sig nD τ) (Lvl := ℕ) preFacts9 c (V c)
  rw [hpf, Pipeline.unscopedRestP_sdiff pre9 spec9 H9 H9_sub c (V c)] at hrest
  rw [hrest] at hjoin
  unfold YG9 ZG9
  iintro ⟨Ha, HO, ⟨Hp, Hh, Ht⟩, Hz⟩
  imodintro
  isplitl [Ha Hh Ht Hz]
  · iapply hjoin
    isplitl [Ha]; · iexact Ha
    isplitl [Ht]; · iexact Ht
    isplitl [Hh]; · iexact Hh
    iexact Hz
  isplitl [Hp]; · iexact Hp
  unfold Pipeline.Dat.owesAt Pipeline.owesWithin
  icases HO with ⟨%W, -, HO⟩; iexists W; iexact HO

end Cert.KernelIdeal.Hand

end
-- ==== Proof.KI.Gather10.lean ====
/-
  The row-gather region 10 of the kernel's program: its proof data and the facts the launch takes.

  Region 10 copies, at grid point t, the eight rows  A[tbl (8 t + j)]  (j < 8) of the 50000 x 128 array A it finds in
  HBM into the eight rows of its 8 x 128 output block; tbl is the region's index table of 85000 words, held in SMEM, and
  A is read only. So after the region the output array's row r is A's row tbl r. The body moves the rows by transfers
  of its own on eight semaphores of its own, all waited for before the point ends: between two points nothing is in
  flight, the table and A are as the region found them, and the semaphores are at zero. That is the region's invariant.
-/
import proofs.«402049_j87351044866139_2_alg».proof.Proof.Gen.KernelIdeal.Launch
import proofs.«402049_j87351044866139_2_alg».proof.Proof.Gen.KernelIdeal.Skeleton
import proofs.«402049_j87351044866139_2_alg».proof.Proof.Gen.KernelIdeal.Points
import Idealize.ShloMosaic.Lib.Pipeline.Frame
import Idealize.ShloMosaic.Lib.Pipeline.FrameBody
import Idealize.ShloMosaic.Lib.Pipeline.RegionsLoop
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.KernelIdeal Cert.KernelIdeal.Gen

variable {F : FTy → Type} [FloatOps F]

local notation "𝕄" => MT nD τ sig Unit (Elt F) ℕ (Pipeline.UD sig nD τ) ℕ

/-- The eight semaphores the body's row transfers signal. -/
abbrev osem10 : Fin 8 → SemLoc sig := fun j =>
  (![SemLoc.dma 97, SemLoc.dma 98, SemLoc.dma 99, SemLoc.dma 100, SemLoc.dma 101, SemLoc.dma 102, SemLoc.dma 103, SemLoc.dma 104] : Fin 8 → SemLoc sig) j
theorem ownSemFacts10 : Pipeline.OwnSemFacts spec10 osem10 := by decide

/-- The array the rows are read from: left in HBM, no window's array and no table. -/
def H10 : Finset (Ref sig .tc) := {main_v33}
theorem H10_sub : H10 ⊆ Pipeline.restRefsP sig pre10 spec10 := by decide

variable (V : (c : Dev nD) → (b : Ref sig .tc) → Buf (Elt F) ((c : Thread nD τ).loc b))
variable (a10 : (pcfg10 (F := F)).Adm)
variable (gblk : (c : Dev nD) → Fin (cfg10 a10).N → S8x128.Idx → Elt F .f32)

/-- The region's proof data on core c: the output array as the region finds it; after point t the output block holds
    the eight gathered rows; the invariant above; full shares; nothing owed. -/
def datG10 (c : Dev nD) : Dat τ (Elt F) Unit ℕ (Pipeline.UD sig nD τ) ℕ (cfg10 a10) c where
  A w := V c (Pipeline.arrRef spec10 w)
  after w t := match w with
    | ⟨0, _⟩ => gblk c t
  Φ _ := iprop(Pipeline.ΦD osem10 spec10 H10 V c ∗ Pipeline.prefHeld pre10 c (fun _ => fullShare) a10.1)
  q _ := fullShare
  owed _ := 0

theorem A_eqG10 (c : Dev nD) (w : Fin (cfg10 a10).W) : (datG10 V a10 gblk c).A w = V c (Pipeline.arrRef spec10 w) := by
  dsimp only [datG10]
theorem afterG10_0 (c : Dev nD) (t : Fin (cfg10 a10).N) : (datG10 V a10 gblk c).after 0 t = gblk c t := rfl

/-! ## The region's protocol around the thread states

  Between two items of the program core c holds every unscoped buffer whole, beside its generator register and a record
  that it owes nothing. Entering the region, the output array goes to the pipeline, the table is handed over at its
  contents, the array A and the eight semaphores join the register in what the invariant takes (X), and the other
  buffers wait outside (Z). Leaving it, everything comes back: A and the table as they were. -/

/-- What the invariant takes at the first point beside the table and the scoped buffers. -/
def XG10 (c : Dev nD) : sProp 𝕄 :=
  iprop((∃ r, prngReg c r)
    ∗ Pipeline.ownSems0 (Ix := Unit) (Name := ℕ) (U := Pipeline.UD sig nD τ) (Lvl := ℕ) (Val := Elt F) (τ := τ) osem10 c
    ∗ bigSep H10 fun b => ((c.tc : Thread nD τ).loc b) ↦{fullShare} V c b)
/-- What it gives back at the last point beside the semaphores and the scoped buffers. -/
def YG10 (c : Dev nD) : sProp 𝕄 :=
  iprop((∃ r, prngReg c r) ∗ (bigSep H10 fun b => ((c.tc : Thread nD τ).loc b) ↦{fullShare} V c b)
    ∗ Pipeline.prefHeld pre10 c (fun _ => fullShare) a10.1)
/-- The unscoped buffers the region does not touch. -/
def ZG10 (c : Dev nD) : sProp 𝕄 :=
  bigSep (Pipeline.restRefsP sig pre10 spec10 \ H10) fun b => ((c.tc : Thread nD τ).loc b) ↦{fullShare} V c b

theorem hinG10 (c : Dev nD) :
    iprop(XG10 V c ∗ Pipeline.prefHeld pre10 c (fun _ => fullShare) a10.1
        ∗ Pipeline.scopedRest (Ix := Unit) (Name := ℕ) (U := Pipeline.UD sig nD τ) (Lvl := ℕ) (Val := Elt F) spec10 c)
      ⊢ (datG10 V a10 gblk c).Φ 0 := by
  rw [show (datG10 V a10 gblk c).Φ 0 = iprop(Pipeline.ΦD osem10 spec10 H10 V c ∗ Pipeline.prefHeld pre10 c (fun _ => fullShare) a10.1) from rfl,
    Pipeline.ΦD_eq]
  unfold XG10
  iintro ⟨⟨Hp, Hs, Hh⟩, Ht, Hr⟩
  isplitl [Hr Hp Hs Hh]
  · isplitl [Hr]; · iexact Hr
    isplitl [Hp]; · iexact Hp
    isplitl [Hs]; · iexact Hs
    iexact Hh
  iexact Ht

theorem houtG10 (c : Dev nD) :
    (datG10 V a10 gblk c).Φ (Fin.last (cfg10 a10).N)
      ⊢ iprop(YG10 V a10 c
          ∗ Pipeline.ownSems0 (Ix := Unit) (Name := ℕ) (U := Pipeline.UD sig nD τ) (Lvl := ℕ) (Val := Elt F) (τ := τ) osem10 c
          ∗ Pipeline.scopedRest (Ix := Unit) (Name := ℕ) (U := Pipeline.UD sig nD τ) (Lvl := ℕ) (Val := Elt F) spec10 c) := by
  rw [show (datG10 V a10 gblk c).Φ (Fin.last (cfg10 a10).N) = iprop(Pipeline.ΦD osem10 spec10 H10 V c ∗ Pipeline.prefHeld pre10 c (fun _ => fullShare) a10.1) from rfl,
    Pipeline.ΦD_eq]
  unfold YG10
  iintro ⟨⟨Hr, Hp, Hs, Hh⟩, Ht⟩
  isplitl [Hp Hh Ht]
  · isplitl [Hp]; · iexact Hp
    isplitl [Hh]; · iexact Hh
    iexact Ht
  isplitl [Hs]; · iexact Hs
  iexact Hr

/-- ENTRY. `hsplit` is the library's split of the held buffers into the pipeline's array and the rest, at this data. -/
theorem hentryG10 (c : Dev nD) (hpf : (fun k => V c (pre10.ref k)) = a10.1)
    (hsplit : (unscopedBufs c (V c) : sProp 𝕄)
      ⊢ iprop((datG10 V a10 gblk c).arrays ((datG10 V a10 gblk c).arrAt · 0) ∗ Pipeline.unscopedRest spec10 c (V c))) :
    iprop((unscopedBufs c (V c) ∗ (∃ r, prngReg c r) ∗ ∃ W, owes (c : Thread nD τ) (0 : CellTallies nD τ sig Unit) W)
        ∗ Pipeline.ownSems0 (Ix := Unit) (Name := ℕ) (U := Pipeline.UD sig nD τ) (Lvl := ℕ) (Val := Elt F) (τ := τ) osem10 c
        ∗ levAts (fun _ : GSem nD τ sig => (∅ : Finset Unit)) (fun _ _ => (0 : ℕ)))
      ⊢ (|={Set.univ}=> iprop((datG10 V a10 gblk c).arrays ((datG10 V a10 gblk c).arrAt · 0)
          ∗ Pipeline.prefHeld pre10 c (fun _ => fullShare) a10.1
          ∗ (datG10 V a10 gblk c).owesAt () 0 ∗ XG10 V c ∗ ZG10 V c) : sProp 𝕄) := by
  have hrest := Pipeline.unscopedRest_split (Ix := Unit) (Name := ℕ) (U := Pipeline.UD sig nD τ) (Lvl := ℕ) preFacts10 c (V c)
  rw [hpf, Pipeline.unscopedRestP_sdiff pre10 spec10 H10 H10_sub c (V c)] at hrest
  rw [hrest] at hsplit
  iintro ⟨⟨Hub, Hp, HO⟩, Hs, -⟩
  ihave H := hsplit $$ Hub
  icases H with ⟨Ha, Ht, Hh, Hz⟩
  imodintro
  isplitl [Ha]; · iexact Ha
  isplitl [Ht]; · iexact Ht
  isplitl [HO]
  · unfold Pipeline.Dat.owesAt Pipeline.owesWithin
    icases HO with ⟨%W, HO⟩; iexists W; isplitr; · ipureintro; exact fun _ _ => Or.inl trivial
    iexact HO
  unfold XG10 ZG10
  isplitl [Hp Hs Hh]
  · isplitl [Hp]; · iexact Hp
    isplitl [Hs]; · iexact Hs
    iexact Hh
  iexact Hz

variable (Vn : (c : Dev nD) → (b : Ref sig .tc) → Buf (Elt F) ((c : Thread nD τ).loc b))

/-- EXIT. `hjoin` is the library's rejoining of the pipeline's array at its final contents with the rest, at this data. -/
theorem hexitG10 (c : Dev nD) (hpf : (fun k => V c (pre10.ref k)) = a10.1)
    (hjoin : iprop((datG10 V a10 gblk c).arrays ((datG10 V a10 gblk c).arrAt · (cfg10 a10).N) ∗ Pipeline.unscopedRest spec10 c (V c))
      ⊢ (unscopedBufs c (Vn c) : sProp 𝕄)) :
    iprop((datG10 V a10 gblk c).arrays ((datG10 V a10 gblk c).arrAt · (cfg10 a10).N)
        ∗ (datG10 V a10 gblk c).owesAt () (Fin.last (cfg10 a10).N) ∗ YG10 V a10 c ∗ ZG10 V c)
      ⊢ (|={Set.univ}=> iprop(unscopedBufs c (Vn c) ∗ (∃ r, prngReg c r) ∗ ∃ W, owes (c : Thread nD τ) (0 : CellTallies nD τ sig Unit) W) : sProp 𝕄) := by
  have hrest := Pipeline.unscopedRest_split (Ix := Unit) (Name := ℕ) (U := Pipeline.UD sig nD τ) (Lvl := ℕ) preFacts10 c (V c)
  rw [hpf, Pipeline.unscopedRestP_sdiff pre10 spec10 H10 H10_sub c (V c)] at hrest
  rw [hrest] at hjoin
  unfold YG10 ZG10
  iintro ⟨Ha, HO, ⟨Hp, Hh, Ht⟩, Hz⟩
  imodintro
  isplitl [Ha Hh Ht Hz]
  · iapply hjoin
    isplitl [Ha]; · iexact Ha
    isplitl [Ht]; · iexact Ht
    isplitl [Hh]; · iexact Hh
    iexact Hz
  isplitl [Hp]; · iexact Hp
  unfold Pipeline.Dat.owesAt Pipeline.owesWithin
  icases HO with ⟨%W, -, HO⟩; iexists W; iexact HO

end Cert.KernelIdeal.Hand

end
-- ==== Proof.KI.Gather12.lean ====
/-
  The row-gather region 12 of the kernel's program: its proof data and the facts the launch takes.

  Region 12 copies, at grid point t, the eight rows  A[tbl (8 t + j)]  (j < 8) of the 50000 x 128 array A it finds in
  HBM into the eight rows of its 8 x 128 output block; tbl is the region's index table of 85000 words, held in SMEM, and
  A is read only. So after the region the output array's row r is A's row tbl r. The body moves the rows by transfers
  of its own on eight semaphores of its own, all waited for before the point ends: between two points nothing is in
  flight, the table and A are as the region found them, and the semaphores are at zero. That is the region's invariant.
-/
import proofs.«402049_j87351044866139_2_alg».proof.Proof.Gen.KernelIdeal.Launch
import proofs.«402049_j87351044866139_2_alg».proof.Proof.Gen.KernelIdeal.Skeleton
import proofs.«402049_j87351044866139_2_alg».proof.Proof.Gen.KernelIdeal.Points
import Idealize.ShloMosaic.Lib.Pipeline.Frame
import Idealize.ShloMosaic.Lib.Pipeline.FrameBody
import Idealize.ShloMosaic.Lib.Pipeline.RegionsLoop
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.KernelIdeal Cert.KernelIdeal.Gen

variable {F : FTy → Type} [FloatOps F]

local notation "𝕄" => MT nD τ sig Unit (Elt F) ℕ (Pipeline.UD sig nD τ) ℕ

/-- The eight semaphores the body's row transfers signal. -/
abbrev osem12 : Fin 8 → SemLoc sig := fun j =>
  (![SemLoc.dma 113, SemLoc.dma 114, SemLoc.dma 115, SemLoc.dma 116, SemLoc.dma 117, SemLoc.dma 118, SemLoc.dma 119, SemLoc.dma 120] : Fin 8 → SemLoc sig) j
theorem ownSemFacts12 : Pipeline.OwnSemFacts spec12 osem12 := by decide

/-- The array the rows are read from: left in HBM, no window's array and no table. -/
def H12 : Finset (Ref sig .tc) := {main_v61}
theorem H12_sub : H12 ⊆ Pipeline.restRefsP sig pre12 spec12 := by decide

variable (V : (c : Dev nD) → (b : Ref sig .tc) → Buf (Elt F) ((c : Thread nD τ).loc b))
variable (a12 : (pcfg12 (F := F)).Adm)
variable (gblk : (c : Dev nD) → Fin (cfg12 a12).N → S8x128.Idx → Elt F .f32)

/-- The region's proof data on core c: the output array as the region finds it; after point t the output block holds
    the eight gathered rows; the invariant above; full shares; nothing owed. -/
def datG12 (c : Dev nD) : Dat τ (Elt F) Unit ℕ (Pipeline.UD sig nD τ) ℕ (cfg12 a12) c where
  A w := V c (Pipeline.arrRef spec12 w)
  after w t := match w with
    | ⟨0, _⟩ => gblk c t
  Φ _ := iprop(Pipeline.ΦD osem12 spec12 H12 V c ∗ Pipeline.prefHeld pre12 c (fun _ => fullShare) a12.1)
  q _ := fullShare
  owed _ := 0

theorem A_eqG12 (c : Dev nD) (w : Fin (cfg12 a12).W) : (datG12 V a12 gblk c).A w = V c (Pipeline.arrRef spec12 w) := by
  dsimp only [datG12]
theorem afterG12_0 (c : Dev nD) (t : Fin (cfg12 a12).N) : (datG12 V a12 gblk c).after 0 t = gblk c t := rfl

/-! ## The region's protocol around the thread states

  Between two items of the program core c holds every unscoped buffer whole, beside its generator register and a record
  that it owes nothing. Entering the region, the output array goes to the pipeline, the table is handed over at its
  contents, the array A and the eight semaphores join the register in what the invariant takes (X), and the other
  buffers wait outside (Z). Leaving it, everything comes back: A and the table as they were. -/

/-- What the invariant takes at the first point beside the table and the scoped buffers. -/
def XG12 (c : Dev nD) : sProp 𝕄 :=
  iprop((∃ r, prngReg c r)
    ∗ Pipeline.ownSems0 (Ix := Unit) (Name := ℕ) (U := Pipeline.UD sig nD τ) (Lvl := ℕ) (Val := Elt F) (τ := τ) osem12 c
    ∗ bigSep H12 fun b => ((c.tc : Thread nD τ).loc b) ↦{fullShare} V c b)
/-- What it gives back at the last point beside the semaphores and the scoped buffers. -/
def YG12 (c : Dev nD) : sProp 𝕄 :=
  iprop((∃ r, prngReg c r) ∗ (bigSep H12 fun b => ((c.tc : Thread nD τ).loc b) ↦{fullShare} V c b)
    ∗ Pipeline.prefHeld pre12 c (fun _ => fullShare) a12.1)
/-- The unscoped buffers the region does not touch. -/
def ZG12 (c : Dev nD) : sProp 𝕄 :=
  bigSep (Pipeline.restRefsP sig pre12 spec12 \ H12) fun b => ((c.tc : Thread nD τ).loc b) ↦{fullShare} V c b

theorem hinG12 (c : Dev nD) :
    iprop(XG12 V c ∗ Pipeline.prefHeld pre12 c (fun _ => fullShare) a12.1
        ∗ Pipeline.scopedRest (Ix := Unit) (Name := ℕ) (U := Pipeline.UD sig nD τ) (Lvl := ℕ) (Val := Elt F) spec12 c)
      ⊢ (datG12 V a12 gblk c).Φ 0 := by
  rw [show (datG12 V a12 gblk c).Φ 0 = iprop(Pipeline.ΦD osem12 spec12 H12 V c ∗ Pipeline.prefHeld pre12 c (fun _ => fullShare) a12.1) from rfl,
    Pipeline.ΦD_eq]
  unfold XG12
  iintro ⟨⟨Hp, Hs, Hh⟩, Ht, Hr⟩
  isplitl [Hr Hp Hs Hh]
  · isplitl [Hr]; · iexact Hr
    isplitl [Hp]; · iexact Hp
    isplitl [Hs]; · iexact Hs
    iexact Hh
  iexact Ht

theorem houtG12 (c : Dev nD) :
    (datG12 V a12 gblk c).Φ (Fin.last (cfg12 a12).N)
      ⊢ iprop(YG12 V a12 c
          ∗ Pipeline.ownSems0 (Ix := Unit) (Name := ℕ) (U := Pipeline.UD sig nD τ) (Lvl := ℕ) (Val := Elt F) (τ := τ) osem12 c
          ∗ Pipeline.scopedRest (Ix := Unit) (Name := ℕ) (U := Pipeline.UD sig nD τ) (Lvl := ℕ) (Val := Elt F) spec12 c) := by
  rw [show (datG12 V a12 gblk c).Φ (Fin.last (cfg12 a12).N) = iprop(Pipeline.ΦD osem12 spec12 H12 V c ∗ Pipeline.prefHeld pre12 c (fun _ => fullShare) a12.1) from rfl,
    Pipeline.ΦD_eq]
  unfold YG12
  iintro ⟨⟨Hr, Hp, Hs, Hh⟩, Ht⟩
  isplitl [Hp Hh Ht]
  · isplitl [Hp]; · iexact Hp
    isplitl [Hh]; · iexact Hh
    iexact Ht
  isplitl [Hs]; · iexact Hs
  iexact Hr

/-- ENTRY. `hsplit` is the library's split of the held buffers into the pipeline's array and the rest, at this data. -/
theorem hentryG12 (c : Dev nD) (hpf : (fun k => V c (pre12.ref k)) = a12.1)
    (hsplit : (unscopedBufs c (V c) : sProp 𝕄)
      ⊢ iprop((datG12 V a12 gblk c).arrays ((datG12 V a12 gblk c).arrAt · 0) ∗ Pipeline.unscopedRest spec12 c (V c))) :
    iprop((unscopedBufs c (V c) ∗ (∃ r, prngReg c r) ∗ ∃ W, owes (c : Thread nD τ) (0 : CellTallies nD τ sig Unit) W)
        ∗ Pipeline.ownSems0 (Ix := Unit) (Name := ℕ) (U := Pipeline.UD sig nD τ) (Lvl := ℕ) (Val := Elt F) (τ := τ) osem12 c
        ∗ levAts (fun _ : GSem nD τ sig => (∅ : Finset Unit)) (fun _ _ => (0 : ℕ)))
      ⊢ (|={Set.univ}=> iprop((datG12 V a12 gblk c).arrays ((datG12 V a12 gblk c).arrAt · 0)
          ∗ Pipeline.prefHeld pre12 c (fun _ => fullShare) a12.1
          ∗ (datG12 V a12 gblk c).owesAt () 0 ∗ XG12 V c ∗ ZG12 V c) : sProp 𝕄) := by
  have hrest := Pipeline.unscopedRest_split (Ix := Unit) (Name := ℕ) (U := Pipeline.UD sig nD τ) (Lvl := ℕ) preFacts12 c (V c)
  rw [hpf, Pipeline.unscopedRestP_sdiff pre12 spec12 H12 H12_sub c (V c)] at hrest
  rw [hrest] at hsplit
  iintro ⟨⟨Hub, Hp, HO⟩, Hs, -⟩
  ihave H := hsplit $$ Hub
  icases H with ⟨Ha, Ht, Hh, Hz⟩
  imodintro
  isplitl [Ha]; · iexact Ha
  isplitl [Ht]; · iexact Ht
  isplitl [HO]
  · unfold Pipeline.Dat.owesAt Pipeline.owesWithin
    icases HO with ⟨%W, HO⟩; iexists W; isplitr; · ipureintro; exact fun _ _ => Or.inl trivial
    iexact HO
  unfold XG12 ZG12
  isplitl [Hp Hs Hh]
  · isplitl [Hp]; · iexact Hp
    isplitl [Hs]; · iexact Hs
    iexact Hh
  iexact Hz

variable (Vn : (c : Dev nD) → (b : Ref sig .tc) → Buf (Elt F) ((c : Thread nD τ).loc b))

/-- EXIT. `hjoin` is the library's rejoining of the pipeline's array at its final contents with the rest, at this data. -/
theorem hexitG12 (c : Dev nD) (hpf : (fun k => V c (pre12.ref k)) = a12.1)
    (hjoin : iprop((datG12 V a12 gblk c).arrays ((datG12 V a12 gblk c).arrAt · (cfg12 a12).N) ∗ Pipeline.unscopedRest spec12 c (V c))
      ⊢ (unscopedBufs c (Vn c) : sProp 𝕄)) :
    iprop((datG12 V a12 gblk c).arrays ((datG12 V a12 gblk c).arrAt · (cfg12 a12).N)
        ∗ (datG12 V a12 gblk c).owesAt () (Fin.last (cfg12 a12).N) ∗ YG12 V a12 c ∗ ZG12 V c)
      ⊢ (|={Set.univ}=> iprop(unscopedBufs c (Vn c) ∗ (∃ r, prngReg c r) ∗ ∃ W, owes (c : Thread nD τ) (0 : CellTallies nD τ sig Unit) W) : sProp 𝕄) := by
  have hrest := Pipeline.unscopedRest_split (Ix := Unit) (Name := ℕ) (U := Pipeline.UD sig nD τ) (Lvl := ℕ) preFacts12 c (V c)
  rw [hpf, Pipeline.unscopedRestP_sdiff pre12 spec12 H12 H12_sub c (V c)] at hrest
  rw [hrest] at hjoin
  unfold YG12 ZG12
  iintro ⟨Ha, HO, ⟨Hp, Hh, Ht⟩, Hz⟩
  imodintro
  isplitl [Ha Hh Ht Hz]
  · iapply hjoin
    isplitl [Ha]; · iexact Ha
    isplitl [Ht]; · iexact Ht
    isplitl [Hh]; · iexact Hh
    iexact Hz
  isplitl [Hp]; · iexact Hp
  unfold Pipeline.Dat.owesAt Pipeline.owesWithin
  icases HO with ⟨%W, -, HO⟩; iexists W; iexact HO

end Cert.KernelIdeal.Hand

end
-- ==== Proof.KI.Gather13.lean ====
/-
  The row-gather region 13 of the kernel's program: its proof data and the facts the launch takes.

  Region 13 copies, at grid point t, the eight rows  A[tbl (8 t + j)]  (j < 8) of the 50000 x 128 array A it finds in
  HBM into the eight rows of its 8 x 128 output block; tbl is the region's index table of 85000 words, held in SMEM, and
  A is read only. So after the region the output array's row r is A's row tbl r. The body moves the rows by transfers
  of its own on eight semaphores of its own, all waited for before the point ends: between two points nothing is in
  flight, the table and A are as the region found them, and the semaphores are at zero. That is the region's invariant.
-/
import proofs.«402049_j87351044866139_2_alg».proof.Proof.Gen.KernelIdeal.Launch
import proofs.«402049_j87351044866139_2_alg».proof.Proof.Gen.KernelIdeal.Skeleton
import proofs.«402049_j87351044866139_2_alg».proof.Proof.Gen.KernelIdeal.Points
import Idealize.ShloMosaic.Lib.Pipeline.Frame
import Idealize.ShloMosaic.Lib.Pipeline.FrameBody
import Idealize.ShloMosaic.Lib.Pipeline.RegionsLoop
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.KernelIdeal Cert.KernelIdeal.Gen

variable {F : FTy → Type} [FloatOps F]

local notation "𝕄" => MT nD τ sig Unit (Elt F) ℕ (Pipeline.UD sig nD τ) ℕ

/-- The eight semaphores the body's row transfers signal. -/
abbrev osem13 : Fin 8 → SemLoc sig := fun j =>
  (![SemLoc.dma 123, SemLoc.dma 124, SemLoc.dma 125, SemLoc.dma 126, SemLoc.dma 127, SemLoc.dma 128, SemLoc.dma 129, SemLoc.dma 130] : Fin 8 → SemLoc sig) j
theorem ownSemFacts13 : Pipeline.OwnSemFacts spec13 osem13 := by decide

/-- The array the rows are read from: left in HBM, no window's array and no table. -/
def H13 : Finset (Ref sig .tc) := {main_v61}
theorem H13_sub : H13 ⊆ Pipeline.restRefsP sig pre13 spec13 := by decide

variable (V : (c : Dev nD) → (b : Ref sig .tc) → Buf (Elt F) ((c : Thread nD τ).loc b))
variable (a13 : (pcfg13 (F := F)).Adm)
variable (gblk : (c : Dev nD) → Fin (cfg13 a13).N → S8x128.Idx → Elt F .f32)

/-- The region's proof data on core c: the output array as the region finds it; after point t the output block holds
    the eight gathered rows; the invariant above; full shares; nothing owed. -/
def datG13 (c : Dev nD) : Dat τ (Elt F) Unit ℕ (Pipeline.UD sig nD τ) ℕ (cfg13 a13) c where
  A w := V c (Pipeline.arrRef spec13 w)
  after w t := match w with
    | ⟨0, _⟩ => gblk c t
  Φ _ := iprop(Pipeline.ΦD osem13 spec13 H13 V c ∗ Pipeline.prefHeld pre13 c (fun _ => fullShare) a13.1)
  q _ := fullShare
  owed _ := 0

theorem A_eqG13 (c : Dev nD) (w : Fin (cfg13 a13).W) : (datG13 V a13 gblk c).A w = V c (Pipeline.arrRef spec13 w) := by
  dsimp only [datG13]
theorem afterG13_0 (c : Dev nD) (t : Fin (cfg13 a13).N) : (datG13 V a13 gblk c).after 0 t = gblk c t := rfl

/-! ## The region's protocol around the thread states

  Between two items of the program core c holds every unscoped buffer whole, beside its generator register and a record
  that it owes nothing. Entering the region, the output array goes to the pipeline, the table is handed over at its
  contents, the array A and the eight semaphores join the register in what the invariant takes (X), and the other
  buffers wait outside (Z). Leaving it, everything comes back: A and the table as they were. -/

/-- What the invariant takes at the first point beside the table and the scoped buffers. -/
def XG13 (c : Dev nD) : sProp 𝕄 :=
  iprop((∃ r, prngReg c r)
    ∗ Pipeline.ownSems0 (Ix := Unit) (Name := ℕ) (U := Pipeline.UD sig nD τ) (Lvl := ℕ) (Val := Elt F) (τ := τ) osem13 c
    ∗ bigSep H13 fun b => ((c.tc : Thread nD τ).loc b) ↦{fullShare} V c b)
/-- What it gives back at the last point beside the semaphores and the scoped buffers. -/
def YG13 (c : Dev nD) : sProp 𝕄 :=
  iprop((∃ r, prngReg c r) ∗ (bigSep H13 fun b => ((c.tc : Thread nD τ).loc b) ↦{fullShare} V c b)
    ∗ Pipeline.prefHeld pre13 c (fun _ => fullShare) a13.1)
/-- The unscoped buffers the region does not touch. -/
def ZG13 (c : Dev nD) : sProp 𝕄 :=
  bigSep (Pipeline.restRefsP sig pre13 spec13 \ H13) fun b => ((c.tc : Thread nD τ).loc b) ↦{fullShare} V c b

theorem hinG13 (c : Dev nD) :
    iprop(XG13 V c ∗ Pipeline.prefHeld pre13 c (fun _ => fullShare) a13.1
        ∗ Pipeline.scopedRest (Ix := Unit) (Name := ℕ) (U := Pipeline.UD sig nD τ) (Lvl := ℕ) (Val := Elt F) spec13 c)
      ⊢ (datG13 V a13 gblk c).Φ 0 := by
  rw [show (datG13 V a13 gblk c).Φ 0 = iprop(Pipeline.ΦD osem13 spec13 H13 V c ∗ Pipeline.prefHeld pre13 c (fun _ => fullShare) a13.1) from rfl,
    Pipeline.ΦD_eq]
  unfold XG13
  iintro ⟨⟨Hp, Hs, Hh⟩, Ht, Hr⟩
  isplitl [Hr Hp Hs Hh]
  · isplitl [Hr]; · iexact Hr
    isplitl [Hp]; · iexact Hp
    isplitl [Hs]; · iexact Hs
    iexact Hh
  iexact Ht

theorem houtG13 (c : Dev nD) :
    (datG13 V a13 gblk c).Φ (Fin.last (cfg13 a13).N)
      ⊢ iprop(YG13 V a13 c
          ∗ Pipeline.ownSems0 (Ix := Unit) (Name := ℕ) (U := Pipeline.UD sig nD τ) (Lvl := ℕ) (Val := Elt F) (τ := τ) osem13 c
          ∗ Pipeline.scopedRest (Ix := Unit) (Name := ℕ) (U := Pipeline.UD sig nD τ) (Lvl := ℕ) (Val := Elt F) spec13 c) := by
  rw [show (datG13 V a13 gblk c).Φ (Fin.last (cfg13 a13).N) = iprop(Pipeline.ΦD osem13 spec13 H13 V c ∗ Pipeline.prefHeld pre13 c (fun _ => fullShare) a13.1) from rfl,
    Pipeline.ΦD_eq]
  unfold YG13
  iintro ⟨⟨Hr, Hp, Hs, Hh⟩, Ht⟩
  isplitl [Hp Hh Ht]
  · isplitl [Hp]; · iexact Hp
    isplitl [Hh]; · iexact Hh
    iexact Ht
  isplitl [Hs]; · iexact Hs
  iexact Hr

/-- ENTRY. `hsplit` is the library's split of the held buffers into the pipeline's array and the rest, at this data. -/
theorem hentryG13 (c : Dev nD) (hpf : (fun k => V c (pre13.ref k)) = a13.1)
    (hsplit : (unscopedBufs c (V c) : sProp 𝕄)
      ⊢ iprop((datG13 V a13 gblk c).arrays ((datG13 V a13 gblk c).arrAt · 0) ∗ Pipeline.unscopedRest spec13 c (V c))) :
    iprop((unscopedBufs c (V c) ∗ (∃ r, prngReg c r) ∗ ∃ W, owes (c : Thread nD τ) (0 : CellTallies nD τ sig Unit) W)
        ∗ Pipeline.ownSems0 (Ix := Unit) (Name := ℕ) (U := Pipeline.UD sig nD τ) (Lvl := ℕ) (Val := Elt F) (τ := τ) osem13 c
        ∗ levAts (fun _ : GSem nD τ sig => (∅ : Finset Unit)) (fun _ _ => (0 : ℕ)))
      ⊢ (|={Set.univ}=> iprop((datG13 V a13 gblk c).arrays ((datG13 V a13 gblk c).arrAt · 0)
          ∗ Pipeline.prefHeld pre13 c (fun _ => fullShare) a13.1
          ∗ (datG13 V a13 gblk c).owesAt () 0 ∗ XG13 V c ∗ ZG13 V c) : sProp 𝕄) := by
  have hrest := Pipeline.unscopedRest_split (Ix := Unit) (Name := ℕ) (U := Pipeline.UD sig nD τ) (Lvl := ℕ) preFacts13 c (V c)
  rw [hpf, Pipeline.unscopedRestP_sdiff pre13 spec13 H13 H13_sub c (V c)] at hrest
  rw [hrest] at hsplit
  iintro ⟨⟨Hub, Hp, HO⟩, Hs, -⟩
  ihave H := hsplit $$ Hub
  icases H with ⟨Ha, Ht, Hh, Hz⟩
  imodintro
  isplitl [Ha]; · iexact Ha
  isplitl [Ht]; · iexact Ht
  isplitl [HO]
  · unfold Pipeline.Dat.owesAt Pipeline.owesWithin
    icases HO with ⟨%W, HO⟩; iexists W; isplitr; · ipureintro; exact fun _ _ => Or.inl trivial
    iexact HO
  unfold XG13 ZG13
  isplitl [Hp Hs Hh]
  · isplitl [Hp]; · iexact Hp
    isplitl [Hs]; · iexact Hs
    iexact Hh
  iexact Hz

variable (Vn : (c : Dev nD) → (b : Ref sig .tc) → Buf (Elt F) ((c : Thread nD τ).loc b))

/-- EXIT. `hjoin` is the library's rejoining of the pipeline's array at its final contents with the rest, at this data. -/
theorem hexitG13 (c : Dev nD) (hpf : (fun k => V c (pre13.ref k)) = a13.1)
    (hjoin : iprop((datG13 V a13 gblk c).arrays ((datG13 V a13 gblk c).arrAt · (cfg13 a13).N) ∗ Pipeline.unscopedRest spec13 c (V c))
      ⊢ (unscopedBufs c (Vn c) : sProp 𝕄)) :
    iprop((datG13 V a13 gblk c).arrays ((datG13 V a13 gblk c).arrAt · (cfg13 a13).N)
        ∗ (datG13 V a13 gblk c).owesAt () (Fin.last (cfg13 a13).N) ∗ YG13 V a13 c ∗ ZG13 V c)
      ⊢ (|={Set.univ}=> iprop(unscopedBufs c (Vn c) ∗ (∃ r, prngReg c r) ∗ ∃ W, owes (c : Thread nD τ) (0 : CellTallies nD τ sig Unit) W) : sProp 𝕄) := by
  have hrest := Pipeline.unscopedRest_split (Ix := Unit) (Name := ℕ) (U := Pipeline.UD sig nD τ) (Lvl := ℕ) preFacts13 c (V c)
  rw [hpf, Pipeline.unscopedRestP_sdiff pre13 spec13 H13 H13_sub c (V c)] at hrest
  rw [hrest] at hjoin
  unfold YG13 ZG13
  iintro ⟨Ha, HO, ⟨Hp, Hh, Ht⟩, Hz⟩
  imodintro
  isplitl [Ha Hh Ht Hz]
  · iapply hjoin
    isplitl [Ha]; · iexact Ha
    isplitl [Ht]; · iexact Ht
    isplitl [Hh]; · iexact Hh
    iexact Hz
  isplitl [Hp]; · iexact Hp
  unfold Pipeline.Dat.owesAt Pipeline.owesWithin
  icases HO with ⟨%W, -, HO⟩; iexists W; iexact HO

end Cert.KernelIdeal.Hand

end
-- ==== Proof.KI.Gather14.lean ====
/-
  The row-gather region 14 of the kernel's program: its proof data and the facts the launch takes.

  Region 14 copies, at grid point t, the eight rows  A[tbl (8 t + j)]  (j < 8) of the 50000 x 128 array A it finds in
  HBM into the eight rows of its 8 x 128 output block; tbl is the region's index table of 85000 words, held in SMEM, and
  A is read only. So after the region the output array's row r is A's row tbl r. The body moves the rows by transfers
  of its own on eight semaphores of its own, all waited for before the point ends: between two points nothing is in
  flight, the table and A are as the region found them, and the semaphores are at zero. That is the region's invariant.
-/
import proofs.«402049_j87351044866139_2_alg».proof.Proof.Gen.KernelIdeal.Launch
import proofs.«402049_j87351044866139_2_alg».proof.Proof.Gen.KernelIdeal.Skeleton
import proofs.«402049_j87351044866139_2_alg».proof.Proof.Gen.KernelIdeal.Points
import Idealize.ShloMosaic.Lib.Pipeline.Frame
import Idealize.ShloMosaic.Lib.Pipeline.FrameBody
import Idealize.ShloMosaic.Lib.Pipeline.RegionsLoop
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.KernelIdeal Cert.KernelIdeal.Gen

variable {F : FTy → Type} [FloatOps F]

local notation "𝕄" => MT nD τ sig Unit (Elt F) ℕ (Pipeline.UD sig nD τ) ℕ

/-- The eight semaphores the body's row transfers signal. -/
abbrev osem14 : Fin 8 → SemLoc sig := fun j =>
  (![SemLoc.dma 133, SemLoc.dma 134, SemLoc.dma 135, SemLoc.dma 136, SemLoc.dma 137, SemLoc.dma 138, SemLoc.dma 139, SemLoc.dma 140] : Fin 8 → SemLoc sig) j
theorem ownSemFacts14 : Pipeline.OwnSemFacts spec14 osem14 := by decide

/-- The array the rows are read from: left in HBM, no window's array and no table. -/
def H14 : Finset (Ref sig .tc) := {main_v61}
theorem H14_sub : H14 ⊆ Pipeline.restRefsP sig pre14 spec14 := by decide

variable (V : (c : Dev nD) → (b : Ref sig .tc) → Buf (Elt F) ((c : Thread nD τ).loc b))
variable (a14 : (pcfg14 (F := F)).Adm)
variable (gblk : (c : Dev nD) → Fin (cfg14 a14).N → S8x128.Idx → Elt F .f32)

/-- The region's proof data on core c: the output array as the region finds it; after point t the output block holds
    the eight gathered rows; the invariant above; full shares; nothing owed. -/
def datG14 (c : Dev nD) : Dat τ (Elt F) Unit ℕ (Pipeline.UD sig nD τ) ℕ (cfg14 a14) c where
  A w := V c (Pipeline.arrRef spec14 w)
  after w t := match w with
    | ⟨0, _⟩ => gblk c t
  Φ _ := iprop(Pipeline.ΦD osem14 spec14 H14 V c ∗ Pipeline.prefHeld pre14 c (fun _ => fullShare) a14.1)
  q _ := fullShare
  owed _ := 0

theorem A_eqG14 (c : Dev nD) (w : Fin (cfg14 a14).W) : (datG14 V a14 gblk c).A w = V c (Pipeline.arrRef spec14 w) := by
  dsimp only [datG14]
theorem afterG14_0 (c : Dev nD) (t : Fin (cfg14 a14).N) : (datG14 V a14 gblk c).after 0 t = gblk c t := rfl

/-! ## The region's protocol around the thread states

  Between two items of the program core c holds every unscoped buffer whole, beside its generator register and a record
  that it owes nothing. Entering the region, the output array goes to the pipeline, the table is handed over at its
  contents, the array A and the eight semaphores join the register in what the invariant takes (X), and the other
  buffers wait outside (Z). Leaving it, everything comes back: A and the table as they were. -/

/-- What the invariant takes at the first point beside the table and the scoped buffers. -/
def XG14 (c : Dev nD) : sProp 𝕄 :=
  iprop((∃ r, prngReg c r)
    ∗ Pipeline.ownSems0 (Ix := Unit) (Name := ℕ) (U := Pipeline.UD sig nD τ) (Lvl := ℕ) (Val := Elt F) (τ := τ) osem14 c
    ∗ bigSep H14 fun b => ((c.tc : Thread nD τ).loc b) ↦{fullShare} V c b)
/-- What it gives back at the last point beside the semaphores and the scoped buffers. -/
def YG14 (c : Dev nD) : sProp 𝕄 :=
  iprop((∃ r, prngReg c r) ∗ (bigSep H14 fun b => ((c.tc : Thread nD τ).loc b) ↦{fullShare} V c b)
    ∗ Pipeline.prefHeld pre14 c (fun _ => fullShare) a14.1)
/-- The unscoped buffers the region does not touch. -/
def ZG14 (c : Dev nD) : sProp 𝕄 :=
  bigSep (Pipeline.restRefsP sig pre14 spec14 \ H14) fun b => ((c.tc : Thread nD τ).loc b) ↦{fullShare} V c b

theorem hinG14 (c : Dev nD) :
    iprop(XG14 V c ∗ Pipeline.prefHeld pre14 c (fun _ => fullShare) a14.1
        ∗ Pipeline.scopedRest (Ix := Unit) (Name := ℕ) (U := Pipeline.UD sig nD τ) (Lvl := ℕ) (Val := Elt F) spec14 c)
      ⊢ (datG14 V a14 gblk c).Φ 0 := by
  rw [show (datG14 V a14 gblk c).Φ 0 = iprop(Pipeline.ΦD osem14 spec14 H14 V c ∗ Pipeline.prefHeld pre14 c (fun _ => fullShare) a14.1) from rfl,
    Pipeline.ΦD_eq]
  unfold XG14
  iintro ⟨⟨Hp, Hs, Hh⟩, Ht, Hr⟩
  isplitl [Hr Hp Hs Hh]
  · isplitl [Hr]; · iexact Hr
    isplitl [Hp]; · iexact Hp
    isplitl [Hs]; · iexact Hs
    iexact Hh
  iexact Ht

theorem houtG14 (c : Dev nD) :
    (datG14 V a14 gblk c).Φ (Fin.last (cfg14 a14).N)
      ⊢ iprop(YG14 V a14 c
          ∗ Pipeline.ownSems0 (Ix := Unit) (Name := ℕ) (U := Pipeline.UD sig nD τ) (Lvl := ℕ) (Val := Elt F) (τ := τ) osem14 c
          ∗ Pipeline.scopedRest (Ix := Unit) (Name := ℕ) (U := Pipeline.UD sig nD τ) (Lvl := ℕ) (Val := Elt F) spec14 c) := by
  rw [show (datG14 V a14 gblk c).Φ (Fin.last (cfg14 a14).N) = iprop(Pipeline.ΦD osem14 spec14 H14 V c ∗ Pipeline.prefHeld pre14 c (fun _ => fullShare) a14.1) from rfl,
    Pipeline.ΦD_eq]
  unfold YG14
  iintro ⟨⟨Hr, Hp, Hs, Hh⟩, Ht⟩
  isplitl [Hp Hh Ht]
  · isplitl [Hp]; · iexact Hp
    isplitl [Hh]; · iexact Hh
    iexact Ht
  isplitl [Hs]; · iexact Hs
  iexact Hr

/-- ENTRY. `hsplit` is the library's split of the held buffers into the pipeline's array and the rest, at this data. -/
theorem hentryG14 (c : Dev nD) (hpf : (fun k => V c (pre14.ref k)) = a14.1)
    (hsplit : (unscopedBufs c (V c) : sProp 𝕄)
      ⊢ iprop((datG14 V a14 gblk c).arrays ((datG14 V a14 gblk c).arrAt · 0) ∗ Pipeline.unscopedRest spec14 c (V c))) :
    iprop((unscopedBufs c (V c) ∗ (∃ r, prngReg c r) ∗ ∃ W, owes (c : Thread nD τ) (0 : CellTallies nD τ sig Unit) W)
        ∗ Pipeline.ownSems0 (Ix := Unit) (Name := ℕ) (U := Pipeline.UD sig nD τ) (Lvl := ℕ) (Val := Elt F) (τ := τ) osem14 c
        ∗ levAts (fun _ : GSem nD τ sig => (∅ : Finset Unit)) (fun _ _ => (0 : ℕ)))
      ⊢ (|={Set.univ}=> iprop((datG14 V a14 gblk c).arrays ((datG14 V a14 gblk c).arrAt · 0)
          ∗ Pipeline.prefHeld pre14 c (fun _ => fullShare) a14.1
          ∗ (datG14 V a14 gblk c).owesAt () 0 ∗ XG14 V c ∗ ZG14 V c) : sProp 𝕄) := by
  have hrest := Pipeline.unscopedRest_split (Ix := Unit) (Name := ℕ) (U := Pipeline.UD sig nD τ) (Lvl := ℕ) preFacts14 c (V c)
  rw [hpf, Pipeline.unscopedRestP_sdiff pre14 spec14 H14 H14_sub c (V c)] at hrest
  rw [hrest] at hsplit
  iintro ⟨⟨Hub, Hp, HO⟩, Hs, -⟩
  ihave H := hsplit $$ Hub
  icases H with ⟨Ha, Ht, Hh, Hz⟩
  imodintro
  isplitl [Ha]; · iexact Ha
  isplitl [Ht]; · iexact Ht
  isplitl [HO]
  · unfold Pipeline.Dat.owesAt Pipeline.owesWithin
    icases HO with ⟨%W, HO⟩; iexists W; isplitr; · ipureintro; exact fun _ _ => Or.inl trivial
    iexact HO
  unfold XG14 ZG14
  isplitl [Hp Hs Hh]
  · isplitl [Hp]; · iexact Hp
    isplitl [Hs]; · iexact Hs
    iexact Hh
  iexact Hz

variable (Vn : (c : Dev nD) → (b : Ref sig .tc) → Buf (Elt F) ((c : Thread nD τ).loc b))

/-- EXIT. `hjoin` is the library's rejoining of the pipeline's array at its final contents with the rest, at this data. -/
theorem hexitG14 (c : Dev nD) (hpf : (fun k => V c (pre14.ref k)) = a14.1)
    (hjoin : iprop((datG14 V a14 gblk c).arrays ((datG14 V a14 gblk c).arrAt · (cfg14 a14).N) ∗ Pipeline.unscopedRest spec14 c (V c))
      ⊢ (unscopedBufs c (Vn c) : sProp 𝕄)) :
    iprop((datG14 V a14 gblk c).arrays ((datG14 V a14 gblk c).arrAt · (cfg14 a14).N)
        ∗ (datG14 V a14 gblk c).owesAt () (Fin.last (cfg14 a14).N) ∗ YG14 V a14 c ∗ ZG14 V c)
      ⊢ (|={Set.univ}=> iprop(unscopedBufs c (Vn c) ∗ (∃ r, prngReg c r) ∗ ∃ W, owes (c : Thread nD τ) (0 : CellTallies nD τ sig Unit) W) : sProp 𝕄) := by
  have hrest := Pipeline.unscopedRest_split (Ix := Unit) (Name := ℕ) (U := Pipeline.UD sig nD τ) (Lvl := ℕ) preFacts14 c (V c)
  rw [hpf, Pipeline.unscopedRestP_sdiff pre14 spec14 H14 H14_sub c (V c)] at hrest
  rw [hrest] at hjoin
  unfold YG14 ZG14
  iintro ⟨Ha, HO, ⟨Hp, Hh, Ht⟩, Hz⟩
  imodintro
  isplitl [Ha Hh Ht Hz]
  · iapply hjoin
    isplitl [Ha]; · iexact Ha
    isplitl [Ht]; · iexact Ht
    isplitl [Hh]; · iexact Hh
    iexact Hz
  isplitl [Hp]; · iexact Hp
  unfold Pipeline.Dat.owesAt Pipeline.owesWithin
  icases HO with ⟨%W, -, HO⟩; iexists W; iexact HO

end Cert.KernelIdeal.Hand

end
-- ==== Proof.KI.Gather15.lean ====
/-
  The row-gather region 15 of the kernel's program: its proof data and the facts the launch takes.

  Region 15 copies, at grid point t, the eight rows  A[tbl (8 t + j)]  (j < 8) of the 50000 x 128 array A it finds in
  HBM into the eight rows of its 8 x 128 output block; tbl is the region's index table of 85000 words, held in SMEM, and
  A is read only. So after the region the output array's row r is A's row tbl r. The body moves the rows by transfers
  of its own on eight semaphores of its own, all waited for before the point ends: between two points nothing is in
  flight, the table and A are as the region found them, and the semaphores are at zero. That is the region's invariant.
-/
import proofs.«402049_j87351044866139_2_alg».proof.Proof.Gen.KernelIdeal.Launch
import proofs.«402049_j87351044866139_2_alg».proof.Proof.Gen.KernelIdeal.Skeleton
import proofs.«402049_j87351044866139_2_alg».proof.Proof.Gen.KernelIdeal.Points
import Idealize.ShloMosaic.Lib.Pipeline.Frame
import Idealize.ShloMosaic.Lib.Pipeline.FrameBody
import Idealize.ShloMosaic.Lib.Pipeline.RegionsLoop
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.KernelIdeal Cert.KernelIdeal.Gen

variable {F : FTy → Type} [FloatOps F]

local notation "𝕄" => MT nD τ sig Unit (Elt F) ℕ (Pipeline.UD sig nD τ) ℕ

/-- The eight semaphores the body's row transfers signal. -/
abbrev osem15 : Fin 8 → SemLoc sig := fun j =>
  (![SemLoc.dma 143, SemLoc.dma 144, SemLoc.dma 145, SemLoc.dma 146, SemLoc.dma 147, SemLoc.dma 148, SemLoc.dma 149, SemLoc.dma 150] : Fin 8 → SemLoc sig) j
theorem ownSemFacts15 : Pipeline.OwnSemFacts spec15 osem15 := by decide

/-- The array the rows are read from: left in HBM, no window's array and no table. -/
def H15 : Finset (Ref sig .tc) := {main_v61}
theorem H15_sub : H15 ⊆ Pipeline.restRefsP sig pre15 spec15 := by decide

variable (V : (c : Dev nD) → (b : Ref sig .tc) → Buf (Elt F) ((c : Thread nD τ).loc b))
variable (a15 : (pcfg15 (F := F)).Adm)
variable (gblk : (c : Dev nD) → Fin (cfg15 a15).N → S8x128.Idx → Elt F .f32)

/-- The region's proof data on core c: the output array as the region finds it; after point t the output block holds
    the eight gathered rows; the invariant above; full shares; nothing owed. -/
def datG15 (c : Dev nD) : Dat τ (Elt F) Unit ℕ (Pipeline.UD sig nD τ) ℕ (cfg15 a15) c where
  A w := V c (Pipeline.arrRef spec15 w)
  after w t := match w with
    | ⟨0, _⟩ => gblk c t
  Φ _ := iprop(Pipeline.ΦD osem15 spec15 H15 V c ∗ Pipeline.prefHeld pre15 c (fun _ => fullShare) a15.1)
  q _ := fullShare
  owed _ := 0

theorem A_eqG15 (c : Dev nD) (w : Fin (cfg15 a15).W) : (datG15 V a15 gblk c).A w = V c (Pipeline.arrRef spec15 w) := by
  dsimp only [datG15]
theorem afterG15_0 (c : Dev nD) (t : Fin (cfg15 a15).N) : (datG15 V a15 gblk c).after 0 t = gblk c t := rfl

/-! ## The region's protocol around the thread states

  Between two items of the program core c holds every unscoped buffer whole, beside its generator register and a record
  that it owes nothing. Entering the region, the output array goes to the pipeline, the table is handed over at its
  contents, the array A and the eight semaphores join the register in what the invariant takes (X), and the other
  buffers wait outside (Z). Leaving it, everything comes back: A and the table as they were. -/

/-- What the invariant takes at the first point beside the table and the scoped buffers. -/
def XG15 (c : Dev nD) : sProp 𝕄 :=
  iprop((∃ r, prngReg c r)
    ∗ Pipeline.ownSems0 (Ix := Unit) (Name := ℕ) (U := Pipeline.UD sig nD τ) (Lvl := ℕ) (Val := Elt F) (τ := τ) osem15 c
    ∗ bigSep H15 fun b => ((c.tc : Thread nD τ).loc b) ↦{fullShare} V c b)
/-- What it gives back at the last point beside the semaphores and the scoped buffers. -/
def YG15 (c : Dev nD) : sProp 𝕄 :=
  iprop((∃ r, prngReg c r) ∗ (bigSep H15 fun b => ((c.tc : Thread nD τ).loc b) ↦{fullShare} V c b)
    ∗ Pipeline.prefHeld pre15 c (fun _ => fullShare) a15.1)
/-- The unscoped buffers the region does not touch. -/
def ZG15 (c : Dev nD) : sProp 𝕄 :=
  bigSep (Pipeline.restRefsP sig pre15 spec15 \ H15) fun b => ((c.tc : Thread nD τ).loc b) ↦{fullShare} V c b

theorem hinG15 (c : Dev nD) :
    iprop(XG15 V c ∗ Pipeline.prefHeld pre15 c (fun _ => fullShare) a15.1
        ∗ Pipeline.scopedRest (Ix := Unit) (Name := ℕ) (U := Pipeline.UD sig nD τ) (Lvl := ℕ) (Val := Elt F) spec15 c)
      ⊢ (datG15 V a15 gblk c).Φ 0 := by
  rw [show (datG15 V a15 gblk c).Φ 0 = iprop(Pipeline.ΦD osem15 spec15 H15 V c ∗ Pipeline.prefHeld pre15 c (fun _ => fullShare) a15.1) from rfl,
    Pipeline.ΦD_eq]
  unfold XG15
  iintro ⟨⟨Hp, Hs, Hh⟩, Ht, Hr⟩
  isplitl [Hr Hp Hs Hh]
  · isplitl [Hr]; · iexact Hr
    isplitl [Hp]; · iexact Hp
    isplitl [Hs]; · iexact Hs
    iexact Hh
  iexact Ht

theorem houtG15 (c : Dev nD) :
    (datG15 V a15 gblk c).Φ (Fin.last (cfg15 a15).N)
      ⊢ iprop(YG15 V a15 c
          ∗ Pipeline.ownSems0 (Ix := Unit) (Name := ℕ) (U := Pipeline.UD sig nD τ) (Lvl := ℕ) (Val := Elt F) (τ := τ) osem15 c
          ∗ Pipeline.scopedRest (Ix := Unit) (Name := ℕ) (U := Pipeline.UD sig nD τ) (Lvl := ℕ) (Val := Elt F) spec15 c) := by
  rw [show (datG15 V a15 gblk c).Φ (Fin.last (cfg15 a15).N) = iprop(Pipeline.ΦD osem15 spec15 H15 V c ∗ Pipeline.prefHeld pre15 c (fun _ => fullShare) a15.1) from rfl,
    Pipeline.ΦD_eq]
  unfold YG15
  iintro ⟨⟨Hr, Hp, Hs, Hh⟩, Ht⟩
  isplitl [Hp Hh Ht]
  · isplitl [Hp]; · iexact Hp
    isplitl [Hh]; · iexact Hh
    iexact Ht
  isplitl [Hs]; · iexact Hs
  iexact Hr

/-- ENTRY. `hsplit` is the library's split of the held buffers into the pipeline's array and the rest, at this data. -/
theorem hentryG15 (c : Dev nD) (hpf : (fun k => V c (pre15.ref k)) = a15.1)
    (hsplit : (unscopedBufs c (V c) : sProp 𝕄)
      ⊢ iprop((datG15 V a15 gblk c).arrays ((datG15 V a15 gblk c).arrAt · 0) ∗ Pipeline.unscopedRest spec15 c (V c))) :
    iprop((unscopedBufs c (V c) ∗ (∃ r, prngReg c r) ∗ ∃ W, owes (c : Thread nD τ) (0 : CellTallies nD τ sig Unit) W)
        ∗ Pipeline.ownSems0 (Ix := Unit) (Name := ℕ) (U := Pipeline.UD sig nD τ) (Lvl := ℕ) (Val := Elt F) (τ := τ) osem15 c
        ∗ levAts (fun _ : GSem nD τ sig => (∅ : Finset Unit)) (fun _ _ => (0 : ℕ)))
      ⊢ (|={Set.univ}=> iprop((datG15 V a15 gblk c).arrays ((datG15 V a15 gblk c).arrAt · 0)
          ∗ Pipeline.prefHeld pre15 c (fun _ => fullShare) a15.1
          ∗ (datG15 V a15 gblk c).owesAt () 0 ∗ XG15 V c ∗ ZG15 V c) : sProp 𝕄) := by
  have hrest := Pipeline.unscopedRest_split (Ix := Unit) (Name := ℕ) (U := Pipeline.UD sig nD τ) (Lvl := ℕ) preFacts15 c (V c)
  rw [hpf, Pipeline.unscopedRestP_sdiff pre15 spec15 H15 H15_sub c (V c)] at hrest
  rw [hrest] at hsplit
  iintro ⟨⟨Hub, Hp, HO⟩, Hs, -⟩
  ihave H := hsplit $$ Hub
  icases H with ⟨Ha, Ht, Hh, Hz⟩
  imodintro
  isplitl [Ha]; · iexact Ha
  isplitl [Ht]; · iexact Ht
  isplitl [HO]
  · unfold Pipeline.Dat.owesAt Pipeline.owesWithin
    icases HO with ⟨%W, HO⟩; iexists W; isplitr; · ipureintro; exact fun _ _ => Or.inl trivial
    iexact HO
  unfold XG15 ZG15
  isplitl [Hp Hs Hh]
  · isplitl [Hp]; · iexact Hp
    isplitl [Hs]; · iexact Hs
    iexact Hh
  iexact Hz

variable (Vn : (c : Dev nD) → (b : Ref sig .tc) → Buf (Elt F) ((c : Thread nD τ).loc b))

/-- EXIT. `hjoin` is the library's rejoining of the pipeline's array at its final contents with the rest, at this data. -/
theorem hexitG15 (c : Dev nD) (hpf : (fun k => V c (pre15.ref k)) = a15.1)
    (hjoin : iprop((datG15 V a15 gblk c).arrays ((datG15 V a15 gblk c).arrAt · (cfg15 a15).N) ∗ Pipeline.unscopedRest spec15 c (V c))
      ⊢ (unscopedBufs c (Vn c) : sProp 𝕄)) :
    iprop((datG15 V a15 gblk c).arrays ((datG15 V a15 gblk c).arrAt · (cfg15 a15).N)
        ∗ (datG15 V a15 gblk c).owesAt () (Fin.last (cfg15 a15).N) ∗ YG15 V a15 c ∗ ZG15 V c)
      ⊢ (|={Set.univ}=> iprop(unscopedBufs c (Vn c) ∗ (∃ r, prngReg c r) ∗ ∃ W, owes (c : Thread nD τ) (0 : CellTallies nD τ sig Unit) W) : sProp 𝕄) := by
  have hrest := Pipeline.unscopedRest_split (Ix := Unit) (Name := ℕ) (U := Pipeline.UD sig nD τ) (Lvl := ℕ) preFacts15 c (V c)
  rw [hpf, Pipeline.unscopedRestP_sdiff pre15 spec15 H15 H15_sub c (V c)] at hrest
  rw [hrest] at hjoin
  unfold YG15 ZG15
  iintro ⟨Ha, HO, ⟨Hp, Hh, Ht⟩, Hz⟩
  imodintro
  isplitl [Ha Hh Ht Hz]
  · iapply hjoin
    isplitl [Ha]; · iexact Ha
    isplitl [Ht]; · iexact Ht
    isplitl [Hh]; · iexact Hh
    iexact Hz
  isplitl [Hp]; · iexact Hp
  unfold Pipeline.Dat.owesAt Pipeline.owesWithin
  icases HO with ⟨%W, -, HO⟩; iexists W; iexact HO

end Cert.KernelIdeal.Hand

end
-- ==== Proof.KI.Gather16.lean ====
/-
  The row-gather region 16 of the kernel's program: its proof data and the facts the launch takes.

  Region 16 copies, at grid point t, the eight rows  A[tbl (8 t + j)]  (j < 8) of the 50000 x 128 array A it finds in
  HBM into the eight rows of its 8 x 128 output block; tbl is the region's index table of 85000 words, held in SMEM, and
  A is read only. So after the region the output array's row r is A's row tbl r. The body moves the rows by transfers
  of its own on eight semaphores of its own, all waited for before the point ends: between two points nothing is in
  flight, the table and A are as the region found them, and the semaphores are at zero. That is the region's invariant.
-/
import proofs.«402049_j87351044866139_2_alg».proof.Proof.Gen.KernelIdeal.Launch
import proofs.«402049_j87351044866139_2_alg».proof.Proof.Gen.KernelIdeal.Skeleton
import proofs.«402049_j87351044866139_2_alg».proof.Proof.Gen.KernelIdeal.Points
import Idealize.ShloMosaic.Lib.Pipeline.Frame
import Idealize.ShloMosaic.Lib.Pipeline.FrameBody
import Idealize.ShloMosaic.Lib.Pipeline.RegionsLoop
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.KernelIdeal Cert.KernelIdeal.Gen

variable {F : FTy → Type} [FloatOps F]

local notation "𝕄" => MT nD τ sig Unit (Elt F) ℕ (Pipeline.UD sig nD τ) ℕ

/-- The eight semaphores the body's row transfers signal. -/
abbrev osem16 : Fin 8 → SemLoc sig := fun j =>
  (![SemLoc.dma 153, SemLoc.dma 154, SemLoc.dma 155, SemLoc.dma 156, SemLoc.dma 157, SemLoc.dma 158, SemLoc.dma 159, SemLoc.dma 160] : Fin 8 → SemLoc sig) j
theorem ownSemFacts16 : Pipeline.OwnSemFacts spec16 osem16 := by decide

/-- The array the rows are read from: left in HBM, no window's array and no table. -/
def H16 : Finset (Ref sig .tc) := {main_v61}
theorem H16_sub : H16 ⊆ Pipeline.restRefsP sig pre16 spec16 := by decide

variable (V : (c : Dev nD) → (b : Ref sig .tc) → Buf (Elt F) ((c : Thread nD τ).loc b))
variable (a16 : (pcfg16 (F := F)).Adm)
variable (gblk : (c : Dev nD) → Fin (cfg16 a16).N → S8x128.Idx → Elt F .f32)

/-- The region's proof data on core c: the output array as the region finds it; after point t the output block holds
    the eight gathered rows; the invariant above; full shares; nothing owed. -/
def datG16 (c : Dev nD) : Dat τ (Elt F) Unit ℕ (Pipeline.UD sig nD τ) ℕ (cfg16 a16) c where
  A w := V c (Pipeline.arrRef spec16 w)
  after w t := match w with
    | ⟨0, _⟩ => gblk c t
  Φ _ := iprop(Pipeline.ΦD osem16 spec16 H16 V c ∗ Pipeline.prefHeld pre16 c (fun _ => fullShare) a16.1)
  q _ := fullShare
  owed _ := 0

theorem A_eqG16 (c : Dev nD) (w : Fin (cfg16 a16).W) : (datG16 V a16 gblk c).A w = V c (Pipeline.arrRef spec16 w) := by
  dsimp only [datG16]
theorem afterG16_0 (c : Dev nD) (t : Fin (cfg16 a16).N) : (datG16 V a16 gblk c).after 0 t = gblk c t := rfl

/-! ## The region's protocol around the thread states

  Between two items of the program core c holds every unscoped buffer whole, beside its generator register and a record
  that it owes nothing. Entering the region, the output array goes to the pipeline, the table is handed over at its
  contents, the array A and the eight semaphores join the register in what the invariant takes (X), and the other
  buffers wait outside (Z). Leaving it, everything comes back: A and the table as they were. -/

/-- What the invariant takes at the first point beside the table and the scoped buffers. -/
def XG16 (c : Dev nD) : sProp 𝕄 :=
  iprop((∃ r, prngReg c r)
    ∗ Pipeline.ownSems0 (Ix := Unit) (Name := ℕ) (U := Pipeline.UD sig nD τ) (Lvl := ℕ) (Val := Elt F) (τ := τ) osem16 c
    ∗ bigSep H16 fun b => ((c.tc : Thread nD τ).loc b) ↦{fullShare} V c b)
/-- What it gives back at the last point beside the semaphores and the scoped buffers. -/
def YG16 (c : Dev nD) : sProp 𝕄 :=
  iprop((∃ r, prngReg c r) ∗ (bigSep H16 fun b => ((c.tc : Thread nD τ).loc b) ↦{fullShare} V c b)
    ∗ Pipeline.prefHeld pre16 c (fun _ => fullShare) a16.1)
/-- The unscoped buffers the region does not touch. -/
def ZG16 (c : Dev nD) : sProp 𝕄 :=
  bigSep (Pipeline.restRefsP sig pre16 spec16 \ H16) fun b => ((c.tc : Thread nD τ).loc b) ↦{fullShare} V c b

theorem hinG16 (c : Dev nD) :
    iprop(XG16 V c ∗ Pipeline.prefHeld pre16 c (fun _ => fullShare) a16.1
        ∗ Pipeline.scopedRest (Ix := Unit) (Name := ℕ) (U := Pipeline.UD sig nD τ) (Lvl := ℕ) (Val := Elt F) spec16 c)
      ⊢ (datG16 V a16 gblk c).Φ 0 := by
  rw [show (datG16 V a16 gblk c).Φ 0 = iprop(Pipeline.ΦD osem16 spec16 H16 V c ∗ Pipeline.prefHeld pre16 c (fun _ => fullShare) a16.1) from rfl,
    Pipeline.ΦD_eq]
  unfold XG16
  iintro ⟨⟨Hp, Hs, Hh⟩, Ht, Hr⟩
  isplitl [Hr Hp Hs Hh]
  · isplitl [Hr]; · iexact Hr
    isplitl [Hp]; · iexact Hp
    isplitl [Hs]; · iexact Hs
    iexact Hh
  iexact Ht

theorem houtG16 (c : Dev nD) :
    (datG16 V a16 gblk c).Φ (Fin.last (cfg16 a16).N)
      ⊢ iprop(YG16 V a16 c
          ∗ Pipeline.ownSems0 (Ix := Unit) (Name := ℕ) (U := Pipeline.UD sig nD τ) (Lvl := ℕ) (Val := Elt F) (τ := τ) osem16 c
          ∗ Pipeline.scopedRest (Ix := Unit) (Name := ℕ) (U := Pipeline.UD sig nD τ) (Lvl := ℕ) (Val := Elt F) spec16 c) := by
  rw [show (datG16 V a16 gblk c).Φ (Fin.last (cfg16 a16).N) = iprop(Pipeline.ΦD osem16 spec16 H16 V c ∗ Pipeline.prefHeld pre16 c (fun _ => fullShare) a16.1) from rfl,
    Pipeline.ΦD_eq]
  unfold YG16
  iintro ⟨⟨Hr, Hp, Hs, Hh⟩, Ht⟩
  isplitl [Hp Hh Ht]
  · isplitl [Hp]; · iexact Hp
    isplitl [Hh]; · iexact Hh
    iexact Ht
  isplitl [Hs]; · iexact Hs
  iexact Hr

/-- ENTRY. `hsplit` is the library's split of the held buffers into the pipeline's array and the rest, at this data. -/
theorem hentryG16 (c : Dev nD) (hpf : (fun k => V c (pre16.ref k)) = a16.1)
    (hsplit : (unscopedBufs c (V c) : sProp 𝕄)
      ⊢ iprop((datG16 V a16 gblk c).arrays ((datG16 V a16 gblk c).arrAt · 0) ∗ Pipeline.unscopedRest spec16 c (V c))) :
    iprop((unscopedBufs c (V c) ∗ (∃ r, prngReg c r) ∗ ∃ W, owes (c : Thread nD τ) (0 : CellTallies nD τ sig Unit) W)
        ∗ Pipeline.ownSems0 (Ix := Unit) (Name := ℕ) (U := Pipeline.UD sig nD τ) (Lvl := ℕ) (Val := Elt F) (τ := τ) osem16 c
        ∗ levAts (fun _ : GSem nD τ sig => (∅ : Finset Unit)) (fun _ _ => (0 : ℕ)))
      ⊢ (|={Set.univ}=> iprop((datG16 V a16 gblk c).arrays ((datG16 V a16 gblk c).arrAt · 0)
          ∗ Pipeline.prefHeld pre16 c (fun _ => fullShare) a16.1
          ∗ (datG16 V a16 gblk c).owesAt () 0 ∗ XG16 V c ∗ ZG16 V c) : sProp 𝕄) := by
  have hrest := Pipeline.unscopedRest_split (Ix := Unit) (Name := ℕ) (U := Pipeline.UD sig nD τ) (Lvl := ℕ) preFacts16 c (V c)
  rw [hpf, Pipeline.unscopedRestP_sdiff pre16 spec16 H16 H16_sub c (V c)] at hrest
  rw [hrest] at hsplit
  iintro ⟨⟨Hub, Hp, HO⟩, Hs, -⟩
  ihave H := hsplit $$ Hub
  icases H with ⟨Ha, Ht, Hh, Hz⟩
  imodintro
  isplitl [Ha]; · iexact Ha
  isplitl [Ht]; · iexact Ht
  isplitl [HO]
  · unfold Pipeline.Dat.owesAt Pipeline.owesWithin
    icases HO with ⟨%W, HO⟩; iexists W; isplitr; · ipureintro; exact fun _ _ => Or.inl trivial
    iexact HO
  unfold XG16 ZG16
  isplitl [Hp Hs Hh]
  · isplitl [Hp]; · iexact Hp
    isplitl [Hs]; · iexact Hs
    iexact Hh
  iexact Hz

variable (Vn : (c : Dev nD) → (b : Ref sig .tc) → Buf (Elt F) ((c : Thread nD τ).loc b))

/-- EXIT. `hjoin` is the library's rejoining of the pipeline's array at its final contents with the rest, at this data. -/
theorem hexitG16 (c : Dev nD) (hpf : (fun k => V c (pre16.ref k)) = a16.1)
    (hjoin : iprop((datG16 V a16 gblk c).arrays ((datG16 V a16 gblk c).arrAt · (cfg16 a16).N) ∗ Pipeline.unscopedRest spec16 c (V c))
      ⊢ (unscopedBufs c (Vn c) : sProp 𝕄)) :
    iprop((datG16 V a16 gblk c).arrays ((datG16 V a16 gblk c).arrAt · (cfg16 a16).N)
        ∗ (datG16 V a16 gblk c).owesAt () (Fin.last (cfg16 a16).N) ∗ YG16 V a16 c ∗ ZG16 V c)
      ⊢ (|={Set.univ}=> iprop(unscopedBufs c (Vn c) ∗ (∃ r, prngReg c r) ∗ ∃ W, owes (c : Thread nD τ) (0 : CellTallies nD τ sig Unit) W) : sProp 𝕄) := by
  have hrest := Pipeline.unscopedRest_split (Ix := Unit) (Name := ℕ) (U := Pipeline.UD sig nD τ) (Lvl := ℕ) preFacts16 c (V c)
  rw [hpf, Pipeline.unscopedRestP_sdiff pre16 spec16 H16 H16_sub c (V c)] at hrest
  rw [hrest] at hjoin
  unfold YG16 ZG16
  iintro ⟨Ha, HO, ⟨Hp, Hh, Ht⟩, Hz⟩
  imodintro
  isplitl [Ha Hh Ht Hz]
  · iapply hjoin
    isplitl [Ha]; · iexact Ha
    isplitl [Ht]; · iexact Ht
    isplitl [Hh]; · iexact Hh
    iexact Hz
  isplitl [Hp]; · iexact Hp
  unfold Pipeline.Dat.owesAt Pipeline.owesWithin
  icases HO with ⟨%W, -, HO⟩; iexists W; iexact HO

end Cert.KernelIdeal.Hand

end
-- ==== Proof.KI.Gather17.lean ====
/-
  The row-gather region 17 of the kernel's program: its proof data and the facts the launch takes.

  Region 17 copies, at grid point t, the eight rows  A[tbl (8 t + j)]  (j < 8) of the 50000 x 128 array A it finds in
  HBM into the eight rows of its 8 x 128 output block; tbl is the region's index table of 85000 words, held in SMEM, and
  A is read only. So after the region the output array's row r is A's row tbl r. The body moves the rows by transfers
  of its own on eight semaphores of its own, all waited for before the point ends: between two points nothing is in
  flight, the table and A are as the region found them, and the semaphores are at zero. That is the region's invariant.
-/
import proofs.«402049_j87351044866139_2_alg».proof.Proof.Gen.KernelIdeal.Launch
import proofs.«402049_j87351044866139_2_alg».proof.Proof.Gen.KernelIdeal.Skeleton
import proofs.«402049_j87351044866139_2_alg».proof.Proof.Gen.KernelIdeal.Points
import Idealize.ShloMosaic.Lib.Pipeline.Frame
import Idealize.ShloMosaic.Lib.Pipeline.FrameBody
import Idealize.ShloMosaic.Lib.Pipeline.RegionsLoop
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.KernelIdeal Cert.KernelIdeal.Gen

variable {F : FTy → Type} [FloatOps F]

local notation "𝕄" => MT nD τ sig Unit (Elt F) ℕ (Pipeline.UD sig nD τ) ℕ

/-- The eight semaphores the body's row transfers signal. -/
abbrev osem17 : Fin 8 → SemLoc sig := fun j =>
  (![SemLoc.dma 163, SemLoc.dma 164, SemLoc.dma 165, SemLoc.dma 166, SemLoc.dma 167, SemLoc.dma 168, SemLoc.dma 169, SemLoc.dma 170] : Fin 8 → SemLoc sig) j
theorem ownSemFacts17 : Pipeline.OwnSemFacts spec17 osem17 := by decide

/-- The array the rows are read from: left in HBM, no window's array and no table. -/
def H17 : Finset (Ref sig .tc) := {main_v61}
theorem H17_sub : H17 ⊆ Pipeline.restRefsP sig pre17 spec17 := by decide

variable (V : (c : Dev nD) → (b : Ref sig .tc) → Buf (Elt F) ((c : Thread nD τ).loc b))
variable (a17 : (pcfg17 (F := F)).Adm)
variable (gblk : (c : Dev nD) → Fin (cfg17 a17).N → S8x128.Idx → Elt F .f32)

/-- The region's proof data on core c: the output array as the region finds it; after point t the output block holds
    the eight gathered rows; the invariant above; full shares; nothing owed. -/
def datG17 (c : Dev nD) : Dat τ (Elt F) Unit ℕ (Pipeline.UD sig nD τ) ℕ (cfg17 a17) c where
  A w := V c (Pipeline.arrRef spec17 w)
  after w t := match w with
    | ⟨0, _⟩ => gblk c t
  Φ _ := iprop(Pipeline.ΦD osem17 spec17 H17 V c ∗ Pipeline.prefHeld pre17 c (fun _ => fullShare) a17.1)
  q _ := fullShare
  owed _ := 0

theorem A_eqG17 (c : Dev nD) (w : Fin (cfg17 a17).W) : (datG17 V a17 gblk c).A w = V c (Pipeline.arrRef spec17 w) := by
  dsimp only [datG17]
theorem afterG17_0 (c : Dev nD) (t : Fin (cfg17 a17).N) : (datG17 V a17 gblk c).after 0 t = gblk c t := rfl

/-! ## The region's protocol around the thread states

  Between two items of the program core c holds every unscoped buffer whole, beside its generator register and a record
  that it owes nothing. Entering the region, the output array goes to the pipeline, the table is handed over at its
  contents, the array A and the eight semaphores join the register in what the invariant takes (X), and the other
  buffers wait outside (Z). Leaving it, everything comes back: A and the table as they were. -/

/-- What the invariant takes at the first point beside the table and the scoped buffers. -/
def XG17 (c : Dev nD) : sProp 𝕄 :=
  iprop((∃ r, prngReg c r)
    ∗ Pipeline.ownSems0 (Ix := Unit) (Name := ℕ) (U := Pipeline.UD sig nD τ) (Lvl := ℕ) (Val := Elt F) (τ := τ) osem17 c
    ∗ bigSep H17 fun b => ((c.tc : Thread nD τ).loc b) ↦{fullShare} V c b)
/-- What it gives back at the last point beside the semaphores and the scoped buffers. -/
def YG17 (c : Dev nD) : sProp 𝕄 :=
  iprop((∃ r, prngReg c r) ∗ (bigSep H17 fun b => ((c.tc : Thread nD τ).loc b) ↦{fullShare} V c b)
    ∗ Pipeline.prefHeld pre17 c (fun _ => fullShare) a17.1)
/-- The unscoped buffers the region does not touch. -/
def ZG17 (c : Dev nD) : sProp 𝕄 :=
  bigSep (Pipeline.restRefsP sig pre17 spec17 \ H17) fun b => ((c.tc : Thread nD τ).loc b) ↦{fullShare} V c b

theorem hinG17 (c : Dev nD) :
    iprop(XG17 V c ∗ Pipeline.prefHeld pre17 c (fun _ => fullShare) a17.1
        ∗ Pipeline.scopedRest (Ix := Unit) (Name := ℕ) (U := Pipeline.UD sig nD τ) (Lvl := ℕ) (Val := Elt F) spec17 c)
      ⊢ (datG17 V a17 gblk c).Φ 0 := by
  rw [show (datG17 V a17 gblk c).Φ 0 = iprop(Pipeline.ΦD osem17 spec17 H17 V c ∗ Pipeline.prefHeld pre17 c (fun _ => fullShare) a17.1) from rfl,
    Pipeline.ΦD_eq]
  unfold XG17
  iintro ⟨⟨Hp, Hs, Hh⟩, Ht, Hr⟩
  isplitl [Hr Hp Hs Hh]
  · isplitl [Hr]; · iexact Hr
    isplitl [Hp]; · iexact Hp
    isplitl [Hs]; · iexact Hs
    iexact Hh
  iexact Ht

theorem houtG17 (c : Dev nD) :
    (datG17 V a17 gblk c).Φ (Fin.last (cfg17 a17).N)
      ⊢ iprop(YG17 V a17 c
          ∗ Pipeline.ownSems0 (Ix := Unit) (Name := ℕ) (U := Pipeline.UD sig nD τ) (Lvl := ℕ) (Val := Elt F) (τ := τ) osem17 c
          ∗ Pipeline.scopedRest (Ix := Unit) (Name := ℕ) (U := Pipeline.UD sig nD τ) (Lvl := ℕ) (Val := Elt F) spec17 c) := by
  rw [show (datG17 V a17 gblk c).Φ (Fin.last (cfg17 a17).N) = iprop(Pipeline.ΦD osem17 spec17 H17 V c ∗ Pipeline.prefHeld pre17 c (fun _ => fullShare) a17.1) from rfl,
    Pipeline.ΦD_eq]
  unfold YG17
  iintro ⟨⟨Hr, Hp, Hs, Hh⟩, Ht⟩
  isplitl [Hp Hh Ht]
  · isplitl [Hp]; · iexact Hp
    isplitl [Hh]; · iexact Hh
    iexact Ht
  isplitl [Hs]; · iexact Hs
  iexact Hr

/-- ENTRY. `hsplit` is the library's split of the held buffers into the pipeline's array and the rest, at this data. -/
theorem hentryG17 (c : Dev nD) (hpf : (fun k => V c (pre17.ref k)) = a17.1)
    (hsplit : (unscopedBufs c (V c) : sProp 𝕄)
      ⊢ iprop((datG17 V a17 gblk c).arrays ((datG17 V a17 gblk c).arrAt · 0) ∗ Pipeline.unscopedRest spec17 c (V c))) :
    iprop((unscopedBufs c (V c) ∗ (∃ r, prngReg c r) ∗ ∃ W, owes (c : Thread nD τ) (0 : CellTallies nD τ sig Unit) W)
        ∗ Pipeline.ownSems0 (Ix := Unit) (Name := ℕ) (U := Pipeline.UD sig nD τ) (Lvl := ℕ) (Val := Elt F) (τ := τ) osem17 c
        ∗ levAts (fun _ : GSem nD τ sig => (∅ : Finset Unit)) (fun _ _ => (0 : ℕ)))
      ⊢ (|={Set.univ}=> iprop((datG17 V a17 gblk c).arrays ((datG17 V a17 gblk c).arrAt · 0)
          ∗ Pipeline.prefHeld pre17 c (fun _ => fullShare) a17.1
          ∗ (datG17 V a17 gblk c).owesAt () 0 ∗ XG17 V c ∗ ZG17 V c) : sProp 𝕄) := by
  have hrest := Pipeline.unscopedRest_split (Ix := Unit) (Name := ℕ) (U := Pipeline.UD sig nD τ) (Lvl := ℕ) preFacts17 c (V c)
  rw [hpf, Pipeline.unscopedRestP_sdiff pre17 spec17 H17 H17_sub c (V c)] at hrest
  rw [hrest] at hsplit
  iintro ⟨⟨Hub, Hp, HO⟩, Hs, -⟩
  ihave H := hsplit $$ Hub
  icases H with ⟨Ha, Ht, Hh, Hz⟩
  imodintro
  isplitl [Ha]; · iexact Ha
  isplitl [Ht]; · iexact Ht
  isplitl [HO]
  · unfold Pipeline.Dat.owesAt Pipeline.owesWithin
    icases HO with ⟨%W, HO⟩; iexists W; isplitr; · ipureintro; exact fun _ _ => Or.inl trivial
    iexact HO
  unfold XG17 ZG17
  isplitl [Hp Hs Hh]
  · isplitl [Hp]; · iexact Hp
    isplitl [Hs]; · iexact Hs
    iexact Hh
  iexact Hz

variable (Vn : (c : Dev nD) → (b : Ref sig .tc) → Buf (Elt F) ((c : Thread nD τ).loc b))

/-- EXIT. `hjoin` is the library's rejoining of the pipeline's array at its final contents with the rest, at this data. -/
theorem hexitG17 (c : Dev nD) (hpf : (fun k => V c (pre17.ref k)) = a17.1)
    (hjoin : iprop((datG17 V a17 gblk c).arrays ((datG17 V a17 gblk c).arrAt · (cfg17 a17).N) ∗ Pipeline.unscopedRest spec17 c (V c))
      ⊢ (unscopedBufs c (Vn c) : sProp 𝕄)) :
    iprop((datG17 V a17 gblk c).arrays ((datG17 V a17 gblk c).arrAt · (cfg17 a17).N)
        ∗ (datG17 V a17 gblk c).owesAt () (Fin.last (cfg17 a17).N) ∗ YG17 V a17 c ∗ ZG17 V c)
      ⊢ (|={Set.univ}=> iprop(unscopedBufs c (Vn c) ∗ (∃ r, prngReg c r) ∗ ∃ W, owes (c : Thread nD τ) (0 : CellTallies nD τ sig Unit) W) : sProp 𝕄) := by
  have hrest := Pipeline.unscopedRest_split (Ix := Unit) (Name := ℕ) (U := Pipeline.UD sig nD τ) (Lvl := ℕ) preFacts17 c (V c)
  rw [hpf, Pipeline.unscopedRestP_sdiff pre17 spec17 H17 H17_sub c (V c)] at hrest
  rw [hrest] at hjoin
  unfold YG17 ZG17
  iintro ⟨Ha, HO, ⟨Hp, Hh, Ht⟩, Hz⟩
  imodintro
  isplitl [Ha Hh Ht Hz]
  · iapply hjoin
    isplitl [Ha]; · iexact Ha
    isplitl [Ht]; · iexact Ht
    isplitl [Hh]; · iexact Hh
    iexact Hz
  isplitl [Hp]; · iexact Hp
  unfold Pipeline.Dat.owesAt Pipeline.owesWithin
  icases HO with ⟨%W, -, HO⟩; iexists W; iexact HO

end Cert.KernelIdeal.Hand

end
-- ==== Proof.KI.Gather18.lean ====
/-
  The row-gather region 18 of the kernel's program: its proof data and the facts the launch takes.

  Region 18 copies, at grid point t, the eight rows  A[tbl (8 t + j)]  (j < 8) of the 50000 x 128 array A it finds in
  HBM into the eight rows of its 8 x 128 output block; tbl is the region's index table of 85000 words, held in SMEM, and
  A is read only. So after the region the output array's row r is A's row tbl r. The body moves the rows by transfers
  of its own on eight semaphores of its own, all waited for before the point ends: between two points nothing is in
  flight, the table and A are as the region found them, and the semaphores are at zero. That is the region's invariant.
-/
import proofs.«402049_j87351044866139_2_alg».proof.Proof.Gen.KernelIdeal.Launch
import proofs.«402049_j87351044866139_2_alg».proof.Proof.Gen.KernelIdeal.Skeleton
import proofs.«402049_j87351044866139_2_alg».proof.Proof.Gen.KernelIdeal.Points
import Idealize.ShloMosaic.Lib.Pipeline.Frame
import Idealize.ShloMosaic.Lib.Pipeline.FrameBody
import Idealize.ShloMosaic.Lib.Pipeline.RegionsLoop
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.KernelIdeal Cert.KernelIdeal.Gen

variable {F : FTy → Type} [FloatOps F]

local notation "𝕄" => MT nD τ sig Unit (Elt F) ℕ (Pipeline.UD sig nD τ) ℕ

/-- The eight semaphores the body's row transfers signal. -/
abbrev osem18 : Fin 8 → SemLoc sig := fun j =>
  (![SemLoc.dma 173, SemLoc.dma 174, SemLoc.dma 175, SemLoc.dma 176, SemLoc.dma 177, SemLoc.dma 178, SemLoc.dma 179, SemLoc.dma 180] : Fin 8 → SemLoc sig) j
theorem ownSemFacts18 : Pipeline.OwnSemFacts spec18 osem18 := by decide

/-- The array the rows are read from: left in HBM, no window's array and no table. -/
def H18 : Finset (Ref sig .tc) := {main_v61}
theorem H18_sub : H18 ⊆ Pipeline.restRefsP sig pre18 spec18 := by decide

variable (V : (c : Dev nD) → (b : Ref sig .tc) → Buf (Elt F) ((c : Thread nD τ).loc b))
variable (a18 : (pcfg18 (F := F)).Adm)
variable (gblk : (c : Dev nD) → Fin (cfg18 a18).N → S8x128.Idx → Elt F .f32)

/-- The region's proof data on core c: the output array as the region finds it; after point t the output block holds
    the eight gathered rows; the invariant above; full shares; nothing owed. -/
def datG18 (c : Dev nD) : Dat τ (Elt F) Unit ℕ (Pipeline.UD sig nD τ) ℕ (cfg18 a18) c where
  A w := V c (Pipeline.arrRef spec18 w)
  after w t := match w with
    | ⟨0, _⟩ => gblk c t
  Φ _ := iprop(Pipeline.ΦD osem18 spec18 H18 V c ∗ Pipeline.prefHeld pre18 c (fun _ => fullShare) a18.1)
  q _ := fullShare
  owed _ := 0

theorem A_eqG18 (c : Dev nD) (w : Fin (cfg18 a18).W) : (datG18 V a18 gblk c).A w = V c (Pipeline.arrRef spec18 w) := by
  dsimp only [datG18]
theorem afterG18_0 (c : Dev nD) (t : Fin (cfg18 a18).N) : (datG18 V a18 gblk c).after 0 t = gblk c t := rfl

/-! ## The region's protocol around the thread states

  Between two items of the program core c holds every unscoped buffer whole, beside its generator register and a record
  that it owes nothing. Entering the region, the output array goes to the pipeline, the table is handed over at its
  contents, the array A and the eight semaphores join the register in what the invariant takes (X), and the other
  buffers wait outside (Z). Leaving it, everything comes back: A and the table as they were. -/

/-- What the invariant takes at the first point beside the table and the scoped buffers. -/
def XG18 (c : Dev nD) : sProp 𝕄 :=
  iprop((∃ r, prngReg c r)
    ∗ Pipeline.ownSems0 (Ix := Unit) (Name := ℕ) (U := Pipeline.UD sig nD τ) (Lvl := ℕ) (Val := Elt F) (τ := τ) osem18 c
    ∗ bigSep H18 fun b => ((c.tc : Thread nD τ).loc b) ↦{fullShare} V c b)
/-- What it gives back at the last point beside the semaphores and the scoped buffers. -/
def YG18 (c : Dev nD) : sProp 𝕄 :=
  iprop((∃ r, prngReg c r) ∗ (bigSep H18 fun b => ((c.tc : Thread nD τ).loc b) ↦{fullShare} V c b)
    ∗ Pipeline.prefHeld pre18 c (fun _ => fullShare) a18.1)
/-- The unscoped buffers the region does not touch. -/
def ZG18 (c : Dev nD) : sProp 𝕄 :=
  bigSep (Pipeline.restRefsP sig pre18 spec18 \ H18) fun b => ((c.tc : Thread nD τ).loc b) ↦{fullShare} V c b

theorem hinG18 (c : Dev nD) :
    iprop(XG18 V c ∗ Pipeline.prefHeld pre18 c (fun _ => fullShare) a18.1
        ∗ Pipeline.scopedRest (Ix := Unit) (Name := ℕ) (U := Pipeline.UD sig nD τ) (Lvl := ℕ) (Val := Elt F) spec18 c)
      ⊢ (datG18 V a18 gblk c).Φ 0 := by
  rw [show (datG18 V a18 gblk c).Φ 0 = iprop(Pipeline.ΦD osem18 spec18 H18 V c ∗ Pipeline.prefHeld pre18 c (fun _ => fullShare) a18.1) from rfl,
    Pipeline.ΦD_eq]
  unfold XG18
  iintro ⟨⟨Hp, Hs, Hh⟩, Ht, Hr⟩
  isplitl [Hr Hp Hs Hh]
  · isplitl [Hr]; · iexact Hr
    isplitl [Hp]; · iexact Hp
    isplitl [Hs]; · iexact Hs
    iexact Hh
  iexact Ht

theorem houtG18 (c : Dev nD) :
    (datG18 V a18 gblk c).Φ (Fin.last (cfg18 a18).N)
      ⊢ iprop(YG18 V a18 c
          ∗ Pipeline.ownSems0 (Ix := Unit) (Name := ℕ) (U := Pipeline.UD sig nD τ) (Lvl := ℕ) (Val := Elt F) (τ := τ) osem18 c
          ∗ Pipeline.scopedRest (Ix := Unit) (Name := ℕ) (U := Pipeline.UD sig nD τ) (Lvl := ℕ) (Val := Elt F) spec18 c) := by
  rw [show (datG18 V a18 gblk c).Φ (Fin.last (cfg18 a18).N) = iprop(Pipeline.ΦD osem18 spec18 H18 V c ∗ Pipeline.prefHeld pre18 c (fun _ => fullShare) a18.1) from rfl,
    Pipeline.ΦD_eq]
  unfold YG18
  iintro ⟨⟨Hr, Hp, Hs, Hh⟩, Ht⟩
  isplitl [Hp Hh Ht]
  · isplitl [Hp]; · iexact Hp
    isplitl [Hh]; · iexact Hh
    iexact Ht
  isplitl [Hs]; · iexact Hs
  iexact Hr

/-- ENTRY. `hsplit` is the library's split of the held buffers into the pipeline's array and the rest, at this data. -/
theorem hentryG18 (c : Dev nD) (hpf : (fun k => V c (pre18.ref k)) = a18.1)
    (hsplit : (unscopedBufs c (V c) : sProp 𝕄)
      ⊢ iprop((datG18 V a18 gblk c).arrays ((datG18 V a18 gblk c).arrAt · 0) ∗ Pipeline.unscopedRest spec18 c (V c))) :
    iprop((unscopedBufs c (V c) ∗ (∃ r, prngReg c r) ∗ ∃ W, owes (c : Thread nD τ) (0 : CellTallies nD τ sig Unit) W)
        ∗ Pipeline.ownSems0 (Ix := Unit) (Name := ℕ) (U := Pipeline.UD sig nD τ) (Lvl := ℕ) (Val := Elt F) (τ := τ) osem18 c
        ∗ levAts (fun _ : GSem nD τ sig => (∅ : Finset Unit)) (fun _ _ => (0 : ℕ)))
      ⊢ (|={Set.univ}=> iprop((datG18 V a18 gblk c).arrays ((datG18 V a18 gblk c).arrAt · 0)
          ∗ Pipeline.prefHeld pre18 c (fun _ => fullShare) a18.1
          ∗ (datG18 V a18 gblk c).owesAt () 0 ∗ XG18 V c ∗ ZG18 V c) : sProp 𝕄) := by
  have hrest := Pipeline.unscopedRest_split (Ix := Unit) (Name := ℕ) (U := Pipeline.UD sig nD τ) (Lvl := ℕ) preFacts18 c (V c)
  rw [hpf, Pipeline.unscopedRestP_sdiff pre18 spec18 H18 H18_sub c (V c)] at hrest
  rw [hrest] at hsplit
  iintro ⟨⟨Hub, Hp, HO⟩, Hs, -⟩
  ihave H := hsplit $$ Hub
  icases H with ⟨Ha, Ht, Hh, Hz⟩
  imodintro
  isplitl [Ha]; · iexact Ha
  isplitl [Ht]; · iexact Ht
  isplitl [HO]
  · unfold Pipeline.Dat.owesAt Pipeline.owesWithin
    icases HO with ⟨%W, HO⟩; iexists W; isplitr; · ipureintro; exact fun _ _ => Or.inl trivial
    iexact HO
  unfold XG18 ZG18
  isplitl [Hp Hs Hh]
  · isplitl [Hp]; · iexact Hp
    isplitl [Hs]; · iexact Hs
    iexact Hh
  iexact Hz

variable (Vn : (c : Dev nD) → (b : Ref sig .tc) → Buf (Elt F) ((c : Thread nD τ).loc b))

/-- EXIT. `hjoin` is the library's rejoining of the pipeline's array at its final contents with the rest, at this data. -/
theorem hexitG18 (c : Dev nD) (hpf : (fun k => V c (pre18.ref k)) = a18.1)
    (hjoin : iprop((datG18 V a18 gblk c).arrays ((datG18 V a18 gblk c).arrAt · (cfg18 a18).N) ∗ Pipeline.unscopedRest spec18 c (V c))
      ⊢ (unscopedBufs c (Vn c) : sProp 𝕄)) :
    iprop((datG18 V a18 gblk c).arrays ((datG18 V a18 gblk c).arrAt · (cfg18 a18).N)
        ∗ (datG18 V a18 gblk c).owesAt () (Fin.last (cfg18 a18).N) ∗ YG18 V a18 c ∗ ZG18 V c)
      ⊢ (|={Set.univ}=> iprop(unscopedBufs c (Vn c) ∗ (∃ r, prngReg c r) ∗ ∃ W, owes (c : Thread nD τ) (0 : CellTallies nD τ sig Unit) W) : sProp 𝕄) := by
  have hrest := Pipeline.unscopedRest_split (Ix := Unit) (Name := ℕ) (U := Pipeline.UD sig nD τ) (Lvl := ℕ) preFacts18 c (V c)
  rw [hpf, Pipeline.unscopedRestP_sdiff pre18 spec18 H18 H18_sub c (V c)] at hrest
  rw [hrest] at hjoin
  unfold YG18 ZG18
  iintro ⟨Ha, HO, ⟨Hp, Hh, Ht⟩, Hz⟩
  imodintro
  isplitl [Ha Hh Ht Hz]
  · iapply hjoin
    isplitl [Ha]; · iexact Ha
    isplitl [Ht]; · iexact Ht
    isplitl [Hh]; · iexact Hh
    iexact Hz
  isplitl [Hp]; · iexact Hp
  unfold Pipeline.Dat.owesAt Pipeline.owesWithin
  icases HO with ⟨%W, -, HO⟩; iexists W; iexact HO

end Cert.KernelIdeal.Hand

end
-- ==== Proof.KI.Gather19.lean ====
/-
  The row-gather region 19 of the kernel's program: its proof data and the facts the launch takes.

  Region 19 copies, at grid point t, the eight rows  A[tbl (8 t + j)]  (j < 8) of the 50000 x 128 array A it finds in
  HBM into the eight rows of its 8 x 128 output block; tbl is the region's index table of 85000 words, held in SMEM, and
  A is read only. So after the region the output array's row r is A's row tbl r. The body moves the rows by transfers
  of its own on eight semaphores of its own, all waited for before the point ends: between two points nothing is in
  flight, the table and A are as the region found them, and the semaphores are at zero. That is the region's invariant.
-/
import proofs.«402049_j87351044866139_2_alg».proof.Proof.Gen.KernelIdeal.Launch
import proofs.«402049_j87351044866139_2_alg».proof.Proof.Gen.KernelIdeal.Skeleton
import proofs.«402049_j87351044866139_2_alg».proof.Proof.Gen.KernelIdeal.Points
import Idealize.ShloMosaic.Lib.Pipeline.Frame
import Idealize.ShloMosaic.Lib.Pipeline.FrameBody
import Idealize.ShloMosaic.Lib.Pipeline.RegionsLoop
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.KernelIdeal Cert.KernelIdeal.Gen

variable {F : FTy → Type} [FloatOps F]

local notation "𝕄" => MT nD τ sig Unit (Elt F) ℕ (Pipeline.UD sig nD τ) ℕ

/-- The eight semaphores the body's row transfers signal. -/
abbrev osem19 : Fin 8 → SemLoc sig := fun j =>
  (![SemLoc.dma 183, SemLoc.dma 184, SemLoc.dma 185, SemLoc.dma 186, SemLoc.dma 187, SemLoc.dma 188, SemLoc.dma 189, SemLoc.dma 190] : Fin 8 → SemLoc sig) j
theorem ownSemFacts19 : Pipeline.OwnSemFacts spec19 osem19 := by decide

/-- The array the rows are read from: left in HBM, no window's array and no table. -/
def H19 : Finset (Ref sig .tc) := {main_v61}
theorem H19_sub : H19 ⊆ Pipeline.restRefsP sig pre19 spec19 := by decide

variable (V : (c : Dev nD) → (b : Ref sig .tc) → Buf (Elt F) ((c : Thread nD τ).loc b))
variable (a19 : (pcfg19 (F := F)).Adm)
variable (gblk : (c : Dev nD) → Fin (cfg19 a19).N → S8x128.Idx → Elt F .f32)

/-- The region's proof data on core c: the output array as the region finds it; after point t the output block holds
    the eight gathered rows; the invariant above; full shares; nothing owed. -/
def datG19 (c : Dev nD) : Dat τ (Elt F) Unit ℕ (Pipeline.UD sig nD τ) ℕ (cfg19 a19) c where
  A w := V c (Pipeline.arrRef spec19 w)
  after w t := match w with
    | ⟨0, _⟩ => gblk c t
  Φ _ := iprop(Pipeline.ΦD osem19 spec19 H19 V c ∗ Pipeline.prefHeld pre19 c (fun _ => fullShare) a19.1)
  q _ := fullShare
  owed _ := 0

theorem A_eqG19 (c : Dev nD) (w : Fin (cfg19 a19).W) : (datG19 V a19 gblk c).A w = V c (Pipeline.arrRef spec19 w) := by
  dsimp only [datG19]
theorem afterG19_0 (c : Dev nD) (t : Fin (cfg19 a19).N) : (datG19 V a19 gblk c).after 0 t = gblk c t := rfl

/-! ## The region's protocol around the thread states

  Between two items of the program core c holds every unscoped buffer whole, beside its generator register and a record
  that it owes nothing. Entering the region, the output array goes to the pipeline, the table is handed over at its
  contents, the array A and the eight semaphores join the register in what the invariant takes (X), and the other
  buffers wait outside (Z). Leaving it, everything comes back: A and the table as they were. -/

/-- What the invariant takes at the first point beside the table and the scoped buffers. -/
def XG19 (c : Dev nD) : sProp 𝕄 :=
  iprop((∃ r, prngReg c r)
    ∗ Pipeline.ownSems0 (Ix := Unit) (Name := ℕ) (U := Pipeline.UD sig nD τ) (Lvl := ℕ) (Val := Elt F) (τ := τ) osem19 c
    ∗ bigSep H19 fun b => ((c.tc : Thread nD τ).loc b) ↦{fullShare} V c b)
/-- What it gives back at the last point beside the semaphores and the scoped buffers. -/
def YG19 (c : Dev nD) : sProp 𝕄 :=
  iprop((∃ r, prngReg c r) ∗ (bigSep H19 fun b => ((c.tc : Thread nD τ).loc b) ↦{fullShare} V c b)
    ∗ Pipeline.prefHeld pre19 c (fun _ => fullShare) a19.1)
/-- The unscoped buffers the region does not touch. -/
def ZG19 (c : Dev nD) : sProp 𝕄 :=
  bigSep (Pipeline.restRefsP sig pre19 spec19 \ H19) fun b => ((c.tc : Thread nD τ).loc b) ↦{fullShare} V c b

theorem hinG19 (c : Dev nD) :
    iprop(XG19 V c ∗ Pipeline.prefHeld pre19 c (fun _ => fullShare) a19.1
        ∗ Pipeline.scopedRest (Ix := Unit) (Name := ℕ) (U := Pipeline.UD sig nD τ) (Lvl := ℕ) (Val := Elt F) spec19 c)
      ⊢ (datG19 V a19 gblk c).Φ 0 := by
  rw [show (datG19 V a19 gblk c).Φ 0 = iprop(Pipeline.ΦD osem19 spec19 H19 V c ∗ Pipeline.prefHeld pre19 c (fun _ => fullShare) a19.1) from rfl,
    Pipeline.ΦD_eq]
  unfold XG19
  iintro ⟨⟨Hp, Hs, Hh⟩, Ht, Hr⟩
  isplitl [Hr Hp Hs Hh]
  · isplitl [Hr]; · iexact Hr
    isplitl [Hp]; · iexact Hp
    isplitl [Hs]; · iexact Hs
    iexact Hh
  iexact Ht

theorem houtG19 (c : Dev nD) :
    (datG19 V a19 gblk c).Φ (Fin.last (cfg19 a19).N)
      ⊢ iprop(YG19 V a19 c
          ∗ Pipeline.ownSems0 (Ix := Unit) (Name := ℕ) (U := Pipeline.UD sig nD τ) (Lvl := ℕ) (Val := Elt F) (τ := τ) osem19 c
          ∗ Pipeline.scopedRest (Ix := Unit) (Name := ℕ) (U := Pipeline.UD sig nD τ) (Lvl := ℕ) (Val := Elt F) spec19 c) := by
  rw [show (datG19 V a19 gblk c).Φ (Fin.last (cfg19 a19).N) = iprop(Pipeline.ΦD osem19 spec19 H19 V c ∗ Pipeline.prefHeld pre19 c (fun _ => fullShare) a19.1) from rfl,
    Pipeline.ΦD_eq]
  unfold YG19
  iintro ⟨⟨Hr, Hp, Hs, Hh⟩, Ht⟩
  isplitl [Hp Hh Ht]
  · isplitl [Hp]; · iexact Hp
    isplitl [Hh]; · iexact Hh
    iexact Ht
  isplitl [Hs]; · iexact Hs
  iexact Hr

/-- ENTRY. `hsplit` is the library's split of the held buffers into the pipeline's array and the rest, at this data. -/
theorem hentryG19 (c : Dev nD) (hpf : (fun k => V c (pre19.ref k)) = a19.1)
    (hsplit : (unscopedBufs c (V c) : sProp 𝕄)
      ⊢ iprop((datG19 V a19 gblk c).arrays ((datG19 V a19 gblk c).arrAt · 0) ∗ Pipeline.unscopedRest spec19 c (V c))) :
    iprop((unscopedBufs c (V c) ∗ (∃ r, prngReg c r) ∗ ∃ W, owes (c : Thread nD τ) (0 : CellTallies nD τ sig Unit) W)
        ∗ Pipeline.ownSems0 (Ix := Unit) (Name := ℕ) (U := Pipeline.UD sig nD τ) (Lvl := ℕ) (Val := Elt F) (τ := τ) osem19 c
        ∗ levAts (fun _ : GSem nD τ sig => (∅ : Finset Unit)) (fun _ _ => (0 : ℕ)))
      ⊢ (|={Set.univ}=> iprop((datG19 V a19 gblk c).arrays ((datG19 V a19 gblk c).arrAt · 0)
          ∗ Pipeline.prefHeld pre19 c (fun _ => fullShare) a19.1
          ∗ (datG19 V a19 gblk c).owesAt () 0 ∗ XG19 V c ∗ ZG19 V c) : sProp 𝕄) := by
  have hrest := Pipeline.unscopedRest_split (Ix := Unit) (Name := ℕ) (U := Pipeline.UD sig nD τ) (Lvl := ℕ) preFacts19 c (V c)
  rw [hpf, Pipeline.unscopedRestP_sdiff pre19 spec19 H19 H19_sub c (V c)] at hrest
  rw [hrest] at hsplit
  iintro ⟨⟨Hub, Hp, HO⟩, Hs, -⟩
  ihave H := hsplit $$ Hub
  icases H with ⟨Ha, Ht, Hh, Hz⟩
  imodintro
  isplitl [Ha]; · iexact Ha
  isplitl [Ht]; · iexact Ht
  isplitl [HO]
  · unfold Pipeline.Dat.owesAt Pipeline.owesWithin
    icases HO with ⟨%W, HO⟩; iexists W; isplitr; · ipureintro; exact fun _ _ => Or.inl trivial
    iexact HO
  unfold XG19 ZG19
  isplitl [Hp Hs Hh]
  · isplitl [Hp]; · iexact Hp
    isplitl [Hs]; · iexact Hs
    iexact Hh
  iexact Hz

variable (Vn : (c : Dev nD) → (b : Ref sig .tc) → Buf (Elt F) ((c : Thread nD τ).loc b))

/-- EXIT. `hjoin` is the library's rejoining of the pipeline's array at its final contents with the rest, at this data. -/
theorem hexitG19 (c : Dev nD) (hpf : (fun k => V c (pre19.ref k)) = a19.1)
    (hjoin : iprop((datG19 V a19 gblk c).arrays ((datG19 V a19 gblk c).arrAt · (cfg19 a19).N) ∗ Pipeline.unscopedRest spec19 c (V c))
      ⊢ (unscopedBufs c (Vn c) : sProp 𝕄)) :
    iprop((datG19 V a19 gblk c).arrays ((datG19 V a19 gblk c).arrAt · (cfg19 a19).N)
        ∗ (datG19 V a19 gblk c).owesAt () (Fin.last (cfg19 a19).N) ∗ YG19 V a19 c ∗ ZG19 V c)
      ⊢ (|={Set.univ}=> iprop(unscopedBufs c (Vn c) ∗ (∃ r, prngReg c r) ∗ ∃ W, owes (c : Thread nD τ) (0 : CellTallies nD τ sig Unit) W) : sProp 𝕄) := by
  have hrest := Pipeline.unscopedRest_split (Ix := Unit) (Name := ℕ) (U := Pipeline.UD sig nD τ) (Lvl := ℕ) preFacts19 c (V c)
  rw [hpf, Pipeline.unscopedRestP_sdiff pre19 spec19 H19 H19_sub c (V c)] at hrest
  rw [hrest] at hjoin
  unfold YG19 ZG19
  iintro ⟨Ha, HO, ⟨Hp, Hh, Ht⟩, Hz⟩
  imodintro
  isplitl [Ha Hh Ht Hz]
  · iapply hjoin
    isplitl [Ha]; · iexact Ha
    isplitl [Ht]; · iexact Ht
    isplitl [Hh]; · iexact Hh
    iexact Hz
  isplitl [Hp]; · iexact Hp
  unfold Pipeline.Dat.owesAt Pipeline.owesWithin
  icases HO with ⟨%W, -, HO⟩; iexists W; iexact HO

end Cert.KernelIdeal.Hand

end
-- ==== Proof.KI.Gather20.lean ====
/-
  The row-gather region 20 of the kernel's program: its proof data and the facts the launch takes.

  Region 20 copies, at grid point t, the eight rows  A[tbl (8 t + j)]  (j < 8) of the 50000 x 128 array A it finds in
  HBM into the eight rows of its 8 x 128 output block; tbl is the region's index table of 85000 words, held in SMEM, and
  A is read only. So after the region the output array's row r is A's row tbl r. The body moves the rows by transfers
  of its own on eight semaphores of its own, all waited for before the point ends: between two points nothing is in
  flight, the table and A are as the region found them, and the semaphores are at zero. That is the region's invariant.
-/
import proofs.«402049_j87351044866139_2_alg».proof.Proof.Gen.KernelIdeal.Launch
import proofs.«402049_j87351044866139_2_alg».proof.Proof.Gen.KernelIdeal.Skeleton
import proofs.«402049_j87351044866139_2_alg».proof.Proof.Gen.KernelIdeal.Points
import Idealize.ShloMosaic.Lib.Pipeline.Frame
import Idealize.ShloMosaic.Lib.Pipeline.FrameBody
import Idealize.ShloMosaic.Lib.Pipeline.RegionsLoop
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.KernelIdeal Cert.KernelIdeal.Gen

variable {F : FTy → Type} [FloatOps F]

local notation "𝕄" => MT nD τ sig Unit (Elt F) ℕ (Pipeline.UD sig nD τ) ℕ

/-- The eight semaphores the body's row transfers signal. -/
abbrev osem20 : Fin 8 → SemLoc sig := fun j =>
  (![SemLoc.dma 193, SemLoc.dma 194, SemLoc.dma 195, SemLoc.dma 196, SemLoc.dma 197, SemLoc.dma 198, SemLoc.dma 199, SemLoc.dma 200] : Fin 8 → SemLoc sig) j
theorem ownSemFacts20 : Pipeline.OwnSemFacts spec20 osem20 := by decide

/-- The array the rows are read from: left in HBM, no window's array and no table. -/
def H20 : Finset (Ref sig .tc) := {main_v61}
theorem H20_sub : H20 ⊆ Pipeline.restRefsP sig pre20 spec20 := by decide

variable (V : (c : Dev nD) → (b : Ref sig .tc) → Buf (Elt F) ((c : Thread nD τ).loc b))
variable (a20 : (pcfg20 (F := F)).Adm)
variable (gblk : (c : Dev nD) → Fin (cfg20 a20).N → S8x128.Idx → Elt F .f32)

/-- The region's proof data on core c: the output array as the region finds it; after point t the output block holds
    the eight gathered rows; the invariant above; full shares; nothing owed. -/
def datG20 (c : Dev nD) : Dat τ (Elt F) Unit ℕ (Pipeline.UD sig nD τ) ℕ (cfg20 a20) c where
  A w := V c (Pipeline.arrRef spec20 w)
  after w t := match w with
    | ⟨0, _⟩ => gblk c t
  Φ _ := iprop(Pipeline.ΦD osem20 spec20 H20 V c ∗ Pipeline.prefHeld pre20 c (fun _ => fullShare) a20.1)
  q _ := fullShare
  owed _ := 0

theorem A_eqG20 (c : Dev nD) (w : Fin (cfg20 a20).W) : (datG20 V a20 gblk c).A w = V c (Pipeline.arrRef spec20 w) := by
  dsimp only [datG20]
theorem afterG20_0 (c : Dev nD) (t : Fin (cfg20 a20).N) : (datG20 V a20 gblk c).after 0 t = gblk c t := rfl

/-! ## The region's protocol around the thread states

  Between two items of the program core c holds every unscoped buffer whole, beside its generator register and a record
  that it owes nothing. Entering the region, the output array goes to the pipeline, the table is handed over at its
  contents, the array A and the eight semaphores join the register in what the invariant takes (X), and the other
  buffers wait outside (Z). Leaving it, everything comes back: A and the table as they were. -/

/-- What the invariant takes at the first point beside the table and the scoped buffers. -/
def XG20 (c : Dev nD) : sProp 𝕄 :=
  iprop((∃ r, prngReg c r)
    ∗ Pipeline.ownSems0 (Ix := Unit) (Name := ℕ) (U := Pipeline.UD sig nD τ) (Lvl := ℕ) (Val := Elt F) (τ := τ) osem20 c
    ∗ bigSep H20 fun b => ((c.tc : Thread nD τ).loc b) ↦{fullShare} V c b)
/-- What it gives back at the last point beside the semaphores and the scoped buffers. -/
def YG20 (c : Dev nD) : sProp 𝕄 :=
  iprop((∃ r, prngReg c r) ∗ (bigSep H20 fun b => ((c.tc : Thread nD τ).loc b) ↦{fullShare} V c b)
    ∗ Pipeline.prefHeld pre20 c (fun _ => fullShare) a20.1)
/-- The unscoped buffers the region does not touch. -/
def ZG20 (c : Dev nD) : sProp 𝕄 :=
  bigSep (Pipeline.restRefsP sig pre20 spec20 \ H20) fun b => ((c.tc : Thread nD τ).loc b) ↦{fullShare} V c b

theorem hinG20 (c : Dev nD) :
    iprop(XG20 V c ∗ Pipeline.prefHeld pre20 c (fun _ => fullShare) a20.1
        ∗ Pipeline.scopedRest (Ix := Unit) (Name := ℕ) (U := Pipeline.UD sig nD τ) (Lvl := ℕ) (Val := Elt F) spec20 c)
      ⊢ (datG20 V a20 gblk c).Φ 0 := by
  rw [show (datG20 V a20 gblk c).Φ 0 = iprop(Pipeline.ΦD osem20 spec20 H20 V c ∗ Pipeline.prefHeld pre20 c (fun _ => fullShare) a20.1) from rfl,
    Pipeline.ΦD_eq]
  unfold XG20
  iintro ⟨⟨Hp, Hs, Hh⟩, Ht, Hr⟩
  isplitl [Hr Hp Hs Hh]
  · isplitl [Hr]; · iexact Hr
    isplitl [Hp]; · iexact Hp
    isplitl [Hs]; · iexact Hs
    iexact Hh
  iexact Ht

theorem houtG20 (c : Dev nD) :
    (datG20 V a20 gblk c).Φ (Fin.last (cfg20 a20).N)
      ⊢ iprop(YG20 V a20 c
          ∗ Pipeline.ownSems0 (Ix := Unit) (Name := ℕ) (U := Pipeline.UD sig nD τ) (Lvl := ℕ) (Val := Elt F) (τ := τ) osem20 c
          ∗ Pipeline.scopedRest (Ix := Unit) (Name := ℕ) (U := Pipeline.UD sig nD τ) (Lvl := ℕ) (Val := Elt F) spec20 c) := by
  rw [show (datG20 V a20 gblk c).Φ (Fin.last (cfg20 a20).N) = iprop(Pipeline.ΦD osem20 spec20 H20 V c ∗ Pipeline.prefHeld pre20 c (fun _ => fullShare) a20.1) from rfl,
    Pipeline.ΦD_eq]
  unfold YG20
  iintro ⟨⟨Hr, Hp, Hs, Hh⟩, Ht⟩
  isplitl [Hp Hh Ht]
  · isplitl [Hp]; · iexact Hp
    isplitl [Hh]; · iexact Hh
    iexact Ht
  isplitl [Hs]; · iexact Hs
  iexact Hr

/-- ENTRY. `hsplit` is the library's split of the held buffers into the pipeline's array and the rest, at this data. -/
theorem hentryG20 (c : Dev nD) (hpf : (fun k => V c (pre20.ref k)) = a20.1)
    (hsplit : (unscopedBufs c (V c) : sProp 𝕄)
      ⊢ iprop((datG20 V a20 gblk c).arrays ((datG20 V a20 gblk c).arrAt · 0) ∗ Pipeline.unscopedRest spec20 c (V c))) :
    iprop((unscopedBufs c (V c) ∗ (∃ r, prngReg c r) ∗ ∃ W, owes (c : Thread nD τ) (0 : CellTallies nD τ sig Unit) W)
        ∗ Pipeline.ownSems0 (Ix := Unit) (Name := ℕ) (U := Pipeline.UD sig nD τ) (Lvl := ℕ) (Val := Elt F) (τ := τ) osem20 c
        ∗ levAts (fun _ : GSem nD τ sig => (∅ : Finset Unit)) (fun _ _ => (0 : ℕ)))
      ⊢ (|={Set.univ}=> iprop((datG20 V a20 gblk c).arrays ((datG20 V a20 gblk c).arrAt · 0)
          ∗ Pipeline.prefHeld pre20 c (fun _ => fullShare) a20.1
          ∗ (datG20 V a20 gblk c).owesAt () 0 ∗ XG20 V c ∗ ZG20 V c) : sProp 𝕄) := by
  have hrest := Pipeline.unscopedRest_split (Ix := Unit) (Name := ℕ) (U := Pipeline.UD sig nD τ) (Lvl := ℕ) preFacts20 c (V c)
  rw [hpf, Pipeline.unscopedRestP_sdiff pre20 spec20 H20 H20_sub c (V c)] at hrest
  rw [hrest] at hsplit
  iintro ⟨⟨Hub, Hp, HO⟩, Hs, -⟩
  ihave H := hsplit $$ Hub
  icases H with ⟨Ha, Ht, Hh, Hz⟩
  imodintro
  isplitl [Ha]; · iexact Ha
  isplitl [Ht]; · iexact Ht
  isplitl [HO]
  · unfold Pipeline.Dat.owesAt Pipeline.owesWithin
    icases HO with ⟨%W, HO⟩; iexists W; isplitr; · ipureintro; exact fun _ _ => Or.inl trivial
    iexact HO
  unfold XG20 ZG20
  isplitl [Hp Hs Hh]
  · isplitl [Hp]; · iexact Hp
    isplitl [Hs]; · iexact Hs
    iexact Hh
  iexact Hz

variable (Vn : (c : Dev nD) → (b : Ref sig .tc) → Buf (Elt F) ((c : Thread nD τ).loc b))

/-- EXIT. `hjoin` is the library's rejoining of the pipeline's array at its final contents with the rest, at this data. -/
theorem hexitG20 (c : Dev nD) (hpf : (fun k => V c (pre20.ref k)) = a20.1)
    (hjoin : iprop((datG20 V a20 gblk c).arrays ((datG20 V a20 gblk c).arrAt · (cfg20 a20).N) ∗ Pipeline.unscopedRest spec20 c (V c))
      ⊢ (unscopedBufs c (Vn c) : sProp 𝕄)) :
    iprop((datG20 V a20 gblk c).arrays ((datG20 V a20 gblk c).arrAt · (cfg20 a20).N)
        ∗ (datG20 V a20 gblk c).owesAt () (Fin.last (cfg20 a20).N) ∗ YG20 V a20 c ∗ ZG20 V c)
      ⊢ (|={Set.univ}=> iprop(unscopedBufs c (Vn c) ∗ (∃ r, prngReg c r) ∗ ∃ W, owes (c : Thread nD τ) (0 : CellTallies nD τ sig Unit) W) : sProp 𝕄) := by
  have hrest := Pipeline.unscopedRest_split (Ix := Unit) (Name := ℕ) (U := Pipeline.UD sig nD τ) (Lvl := ℕ) preFacts20 c (V c)
  rw [hpf, Pipeline.unscopedRestP_sdiff pre20 spec20 H20 H20_sub c (V c)] at hrest
  rw [hrest] at hjoin
  unfold YG20 ZG20
  iintro ⟨Ha, HO, ⟨Hp, Hh, Ht⟩, Hz⟩
  imodintro
  isplitl [Ha Hh Ht Hz]
  · iapply hjoin
    isplitl [Ha]; · iexact Ha
    isplitl [Ht]; · iexact Ht
    isplitl [Hh]; · iexact Hh
    iexact Hz
  isplitl [Hp]; · iexact Hp
  unfold Pipeline.Dat.owesAt Pipeline.owesWithin
  icases HO with ⟨%W, -, HO⟩; iexists W; iexact HO

end Cert.KernelIdeal.Hand

end
-- ==== Proof.KI.Gather21.lean ====
/-
  The row-gather region 21 of the kernel's program: its proof data and the facts the launch takes.

  Region 21 copies, at grid point t, the eight rows  A[tbl (8 t + j)]  (j < 8) of the 50000 x 128 array A it finds in
  HBM into the eight rows of its 8 x 128 output block; tbl is the region's index table of 85000 words, held in SMEM, and
  A is read only. So after the region the output array's row r is A's row tbl r. The body moves the rows by transfers
  of its own on eight semaphores of its own, all waited for before the point ends: between two points nothing is in
  flight, the table and A are as the region found them, and the semaphores are at zero. That is the region's invariant.
-/
import proofs.«402049_j87351044866139_2_alg».proof.Proof.Gen.KernelIdeal.Launch
import proofs.«402049_j87351044866139_2_alg».proof.Proof.Gen.KernelIdeal.Skeleton
import proofs.«402049_j87351044866139_2_alg».proof.Proof.Gen.KernelIdeal.Points
import Idealize.ShloMosaic.Lib.Pipeline.Frame
import Idealize.ShloMosaic.Lib.Pipeline.FrameBody
import Idealize.ShloMosaic.Lib.Pipeline.RegionsLoop
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.KernelIdeal Cert.KernelIdeal.Gen

variable {F : FTy → Type} [FloatOps F]

local notation "𝕄" => MT nD τ sig Unit (Elt F) ℕ (Pipeline.UD sig nD τ) ℕ

/-- The eight semaphores the body's row transfers signal. -/
abbrev osem21 : Fin 8 → SemLoc sig := fun j =>
  (![SemLoc.dma 203, SemLoc.dma 204, SemLoc.dma 205, SemLoc.dma 206, SemLoc.dma 207, SemLoc.dma 208, SemLoc.dma 209, SemLoc.dma 210] : Fin 8 → SemLoc sig) j
theorem ownSemFacts21 : Pipeline.OwnSemFacts spec21 osem21 := by decide

/-- The array the rows are read from: left in HBM, no window's array and no table. -/
def H21 : Finset (Ref sig .tc) := {main_v61}
theorem H21_sub : H21 ⊆ Pipeline.restRefsP sig pre21 spec21 := by decide

variable (V : (c : Dev nD) → (b : Ref sig .tc) → Buf (Elt F) ((c : Thread nD τ).loc b))
variable (a21 : (pcfg21 (F := F)).Adm)
variable (gblk : (c : Dev nD) → Fin (cfg21 a21).N → S8x128.Idx → Elt F .f32)

/-- The region's proof data on core c: the output array as the region finds it; after point t the output block holds
    the eight gathered rows; the invariant above; full shares; nothing owed. -/
def datG21 (c : Dev nD) : Dat τ (Elt F) Unit ℕ (Pipeline.UD sig nD τ) ℕ (cfg21 a21) c where
  A w := V c (Pipeline.arrRef spec21 w)
  after w t := match w with
    | ⟨0, _⟩ => gblk c t
  Φ _ := iprop(Pipeline.ΦD osem21 spec21 H21 V c ∗ Pipeline.prefHeld pre21 c (fun _ => fullShare) a21.1)
  q _ := fullShare
  owed _ := 0

theorem A_eqG21 (c : Dev nD) (w : Fin (cfg21 a21).W) : (datG21 V a21 gblk c).A w = V c (Pipeline.arrRef spec21 w) := by
  dsimp only [datG21]
theorem afterG21_0 (c : Dev nD) (t : Fin (cfg21 a21).N) : (datG21 V a21 gblk c).after 0 t = gblk c t := rfl

/-! ## The region's protocol around the thread states

  Between two items of the program core c holds every unscoped buffer whole, beside its generator register and a record
  that it owes nothing. Entering the region, the output array goes to the pipeline, the table is handed over at its
  contents, the array A and the eight semaphores join the register in what the invariant takes (X), and the other
  buffers wait outside (Z). Leaving it, everything comes back: A and the table as they were. -/

/-- What the invariant takes at the first point beside the table and the scoped buffers. -/
def XG21 (c : Dev nD) : sProp 𝕄 :=
  iprop((∃ r, prngReg c r)
    ∗ Pipeline.ownSems0 (Ix := Unit) (Name := ℕ) (U := Pipeline.UD sig nD τ) (Lvl := ℕ) (Val := Elt F) (τ := τ) osem21 c
    ∗ bigSep H21 fun b => ((c.tc : Thread nD τ).loc b) ↦{fullShare} V c b)
/-- What it gives back at the last point beside the semaphores and the scoped buffers. -/
def YG21 (c : Dev nD) : sProp 𝕄 :=
  iprop((∃ r, prngReg c r) ∗ (bigSep H21 fun b => ((c.tc : Thread nD τ).loc b) ↦{fullShare} V c b)
    ∗ Pipeline.prefHeld pre21 c (fun _ => fullShare) a21.1)
/-- The unscoped buffers the region does not touch. -/
def ZG21 (c : Dev nD) : sProp 𝕄 :=
  bigSep (Pipeline.restRefsP sig pre21 spec21 \ H21) fun b => ((c.tc : Thread nD τ).loc b) ↦{fullShare} V c b

theorem hinG21 (c : Dev nD) :
    iprop(XG21 V c ∗ Pipeline.prefHeld pre21 c (fun _ => fullShare) a21.1
        ∗ Pipeline.scopedRest (Ix := Unit) (Name := ℕ) (U := Pipeline.UD sig nD τ) (Lvl := ℕ) (Val := Elt F) spec21 c)
      ⊢ (datG21 V a21 gblk c).Φ 0 := by
  rw [show (datG21 V a21 gblk c).Φ 0 = iprop(Pipeline.ΦD osem21 spec21 H21 V c ∗ Pipeline.prefHeld pre21 c (fun _ => fullShare) a21.1) from rfl,
    Pipeline.ΦD_eq]
  unfold XG21
  iintro ⟨⟨Hp, Hs, Hh⟩, Ht, Hr⟩
  isplitl [Hr Hp Hs Hh]
  · isplitl [Hr]; · iexact Hr
    isplitl [Hp]; · iexact Hp
    isplitl [Hs]; · iexact Hs
    iexact Hh
  iexact Ht

theorem houtG21 (c : Dev nD) :
    (datG21 V a21 gblk c).Φ (Fin.last (cfg21 a21).N)
      ⊢ iprop(YG21 V a21 c
          ∗ Pipeline.ownSems0 (Ix := Unit) (Name := ℕ) (U := Pipeline.UD sig nD τ) (Lvl := ℕ) (Val := Elt F) (τ := τ) osem21 c
          ∗ Pipeline.scopedRest (Ix := Unit) (Name := ℕ) (U := Pipeline.UD sig nD τ) (Lvl := ℕ) (Val := Elt F) spec21 c) := by
  rw [show (datG21 V a21 gblk c).Φ (Fin.last (cfg21 a21).N) = iprop(Pipeline.ΦD osem21 spec21 H21 V c ∗ Pipeline.prefHeld pre21 c (fun _ => fullShare) a21.1) from rfl,
    Pipeline.ΦD_eq]
  unfold YG21
  iintro ⟨⟨Hr, Hp, Hs, Hh⟩, Ht⟩
  isplitl [Hp Hh Ht]
  · isplitl [Hp]; · iexact Hp
    isplitl [Hh]; · iexact Hh
    iexact Ht
  isplitl [Hs]; · iexact Hs
  iexact Hr

/-- ENTRY. `hsplit` is the library's split of the held buffers into the pipeline's array and the rest, at this data. -/
theorem hentryG21 (c : Dev nD) (hpf : (fun k => V c (pre21.ref k)) = a21.1)
    (hsplit : (unscopedBufs c (V c) : sProp 𝕄)
      ⊢ iprop((datG21 V a21 gblk c).arrays ((datG21 V a21 gblk c).arrAt · 0) ∗ Pipeline.unscopedRest spec21 c (V c))) :
    iprop((unscopedBufs c (V c) ∗ (∃ r, prngReg c r) ∗ ∃ W, owes (c : Thread nD τ) (0 : CellTallies nD τ sig Unit) W)
        ∗ Pipeline.ownSems0 (Ix := Unit) (Name := ℕ) (U := Pipeline.UD sig nD τ) (Lvl := ℕ) (Val := Elt F) (τ := τ) osem21 c
        ∗ levAts (fun _ : GSem nD τ sig => (∅ : Finset Unit)) (fun _ _ => (0 : ℕ)))
      ⊢ (|={Set.univ}=> iprop((datG21 V a21 gblk c).arrays ((datG21 V a21 gblk c).arrAt · 0)
          ∗ Pipeline.prefHeld pre21 c (fun _ => fullShare) a21.1
          ∗ (datG21 V a21 gblk c).owesAt () 0 ∗ XG21 V c ∗ ZG21 V c) : sProp 𝕄) := by
  have hrest := Pipeline.unscopedRest_split (Ix := Unit) (Name := ℕ) (U := Pipeline.UD sig nD τ) (Lvl := ℕ) preFacts21 c (V c)
  rw [hpf, Pipeline.unscopedRestP_sdiff pre21 spec21 H21 H21_sub c (V c)] at hrest
  rw [hrest] at hsplit
  iintro ⟨⟨Hub, Hp, HO⟩, Hs, -⟩
  ihave H := hsplit $$ Hub
  icases H with ⟨Ha, Ht, Hh, Hz⟩
  imodintro
  isplitl [Ha]; · iexact Ha
  isplitl [Ht]; · iexact Ht
  isplitl [HO]
  · unfold Pipeline.Dat.owesAt Pipeline.owesWithin
    icases HO with ⟨%W, HO⟩; iexists W; isplitr; · ipureintro; exact fun _ _ => Or.inl trivial
    iexact HO
  unfold XG21 ZG21
  isplitl [Hp Hs Hh]
  · isplitl [Hp]; · iexact Hp
    isplitl [Hs]; · iexact Hs
    iexact Hh
  iexact Hz

variable (Vn : (c : Dev nD) → (b : Ref sig .tc) → Buf (Elt F) ((c : Thread nD τ).loc b))

/-- EXIT. `hjoin` is the library's rejoining of the pipeline's array at its final contents with the rest, at this data. -/
theorem hexitG21 (c : Dev nD) (hpf : (fun k => V c (pre21.ref k)) = a21.1)
    (hjoin : iprop((datG21 V a21 gblk c).arrays ((datG21 V a21 gblk c).arrAt · (cfg21 a21).N) ∗ Pipeline.unscopedRest spec21 c (V c))
      ⊢ (unscopedBufs c (Vn c) : sProp 𝕄)) :
    iprop((datG21 V a21 gblk c).arrays ((datG21 V a21 gblk c).arrAt · (cfg21 a21).N)
        ∗ (datG21 V a21 gblk c).owesAt () (Fin.last (cfg21 a21).N) ∗ YG21 V a21 c ∗ ZG21 V c)
      ⊢ (|={Set.univ}=> iprop(unscopedBufs c (Vn c) ∗ (∃ r, prngReg c r) ∗ ∃ W, owes (c : Thread nD τ) (0 : CellTallies nD τ sig Unit) W) : sProp 𝕄) := by
  have hrest := Pipeline.unscopedRest_split (Ix := Unit) (Name := ℕ) (U := Pipeline.UD sig nD τ) (Lvl := ℕ) preFacts21 c (V c)
  rw [hpf, Pipeline.unscopedRestP_sdiff pre21 spec21 H21 H21_sub c (V c)] at hrest
  rw [hrest] at hjoin
  unfold YG21 ZG21
  iintro ⟨Ha, HO, ⟨Hp, Hh, Ht⟩, Hz⟩
  imodintro
  isplitl [Ha Hh Ht Hz]
  · iapply hjoin
    isplitl [Ha]; · iexact Ha
    isplitl [Ht]; · iexact Ht
    isplitl [Hh]; · iexact Hh
    iexact Hz
  isplitl [Hp]; · iexact Hp
  unfold Pipeline.Dat.owesAt Pipeline.owesWithin
  icases HO with ⟨%W, -, HO⟩; iexists W; iexact HO

end Cert.KernelIdeal.Hand

end
-- ==== Proof.KI.Gather23.lean ====
/-
  The row-gather region 23 of the kernel's program: its proof data and the facts the launch takes.

  Region 23 copies, at grid point t, the eight rows  A[tbl (8 t + j)]  (j < 8) of the 50000 x 128 array A it finds in
  HBM into the eight rows of its 8 x 128 output block; tbl is the region's index table of 100000 words, held in SMEM, and
  A is read only. So after the region the output array's row r is A's row tbl r. The body moves the rows by transfers
  of its own on eight semaphores of its own, all waited for before the point ends: between two points nothing is in
  flight, the table and A are as the region found them, and the semaphores are at zero. That is the region's invariant.
-/
import proofs.«402049_j87351044866139_2_alg».proof.Proof.Gen.KernelIdeal.Launch
import proofs.«402049_j87351044866139_2_alg».proof.Proof.Gen.KernelIdeal.Skeleton
import proofs.«402049_j87351044866139_2_alg».proof.Proof.Gen.KernelIdeal.Points
import Idealize.ShloMosaic.Lib.Pipeline.Frame
import Idealize.ShloMosaic.Lib.Pipeline.FrameBody
import Idealize.ShloMosaic.Lib.Pipeline.RegionsLoop
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.KernelIdeal Cert.KernelIdeal.Gen

variable {F : FTy → Type} [FloatOps F]

local notation "𝕄" => MT nD τ sig Unit (Elt F) ℕ (Pipeline.UD sig nD τ) ℕ

/-- The eight semaphores the body's row transfers signal. -/
abbrev osem23 : Fin 8 → SemLoc sig := fun j =>
  (![SemLoc.dma 218, SemLoc.dma 219, SemLoc.dma 220, SemLoc.dma 221, SemLoc.dma 222, SemLoc.dma 223, SemLoc.dma 224, SemLoc.dma 225] : Fin 8 → SemLoc sig) j
theorem ownSemFacts23 : Pipeline.OwnSemFacts spec23 osem23 := by decide

/-- The array the rows are read from: left in HBM, no window's array and no table. -/
def H23 : Finset (Ref sig .tc) := {main_v89}
theorem H23_sub : H23 ⊆ Pipeline.restRefsP sig pre23 spec23 := by decide

variable (V : (c : Dev nD) → (b : Ref sig .tc) → Buf (Elt F) ((c : Thread nD τ).loc b))
variable (a23 : (pcfg23 (F := F)).Adm)
variable (gblk : (c : Dev nD) → Fin (cfg23 a23).N → S8x128.Idx → Elt F .f32)

/-- The region's proof data on core c: the output array as the region finds it; after point t the output block holds
    the eight gathered rows; the invariant above; full shares; nothing owed. -/
def datG23 (c : Dev nD) : Dat τ (Elt F) Unit ℕ (Pipeline.UD sig nD τ) ℕ (cfg23 a23) c where
  A w := V c (Pipeline.arrRef spec23 w)
  after w t := match w with
    | ⟨0, _⟩ => gblk c t
  Φ _ := iprop(Pipeline.ΦD osem23 spec23 H23 V c ∗ Pipeline.prefHeld pre23 c (fun _ => fullShare) a23.1)
  q _ := fullShare
  owed _ := 0

theorem A_eqG23 (c : Dev nD) (w : Fin (cfg23 a23).W) : (datG23 V a23 gblk c).A w = V c (Pipeline.arrRef spec23 w) := by
  dsimp only [datG23]
theorem afterG23_0 (c : Dev nD) (t : Fin (cfg23 a23).N) : (datG23 V a23 gblk c).after 0 t = gblk c t := rfl

/-! ## The region's protocol around the thread states

  Between two items of the program core c holds every unscoped buffer whole, beside its generator register and a record
  that it owes nothing. Entering the region, the output array goes to the pipeline, the table is handed over at its
  contents, the array A and the eight semaphores join the register in what the invariant takes (X), and the other
  buffers wait outside (Z). Leaving it, everything comes back: A and the table as they were. -/

/-- What the invariant takes at the first point beside the table and the scoped buffers. -/
def XG23 (c : Dev nD) : sProp 𝕄 :=
  iprop((∃ r, prngReg c r)
    ∗ Pipeline.ownSems0 (Ix := Unit) (Name := ℕ) (U := Pipeline.UD sig nD τ) (Lvl := ℕ) (Val := Elt F) (τ := τ) osem23 c
    ∗ bigSep H23 fun b => ((c.tc : Thread nD τ).loc b) ↦{fullShare} V c b)
/-- What it gives back at the last point beside the semaphores and the scoped buffers. -/
def YG23 (c : Dev nD) : sProp 𝕄 :=
  iprop((∃ r, prngReg c r) ∗ (bigSep H23 fun b => ((c.tc : Thread nD τ).loc b) ↦{fullShare} V c b)
    ∗ Pipeline.prefHeld pre23 c (fun _ => fullShare) a23.1)
/-- The unscoped buffers the region does not touch. -/
def ZG23 (c : Dev nD) : sProp 𝕄 :=
  bigSep (Pipeline.restRefsP sig pre23 spec23 \ H23) fun b => ((c.tc : Thread nD τ).loc b) ↦{fullShare} V c b

theorem hinG23 (c : Dev nD) :
    iprop(XG23 V c ∗ Pipeline.prefHeld pre23 c (fun _ => fullShare) a23.1
        ∗ Pipeline.scopedRest (Ix := Unit) (Name := ℕ) (U := Pipeline.UD sig nD τ) (Lvl := ℕ) (Val := Elt F) spec23 c)
      ⊢ (datG23 V a23 gblk c).Φ 0 := by
  rw [show (datG23 V a23 gblk c).Φ 0 = iprop(Pipeline.ΦD osem23 spec23 H23 V c ∗ Pipeline.prefHeld pre23 c (fun _ => fullShare) a23.1) from rfl,
    Pipeline.ΦD_eq]
  unfold XG23
  iintro ⟨⟨Hp, Hs, Hh⟩, Ht, Hr⟩
  isplitl [Hr Hp Hs Hh]
  · isplitl [Hr]; · iexact Hr
    isplitl [Hp]; · iexact Hp
    isplitl [Hs]; · iexact Hs
    iexact Hh
  iexact Ht

theorem houtG23 (c : Dev nD) :
    (datG23 V a23 gblk c).Φ (Fin.last (cfg23 a23).N)
      ⊢ iprop(YG23 V a23 c
          ∗ Pipeline.ownSems0 (Ix := Unit) (Name := ℕ) (U := Pipeline.UD sig nD τ) (Lvl := ℕ) (Val := Elt F) (τ := τ) osem23 c
          ∗ Pipeline.scopedRest (Ix := Unit) (Name := ℕ) (U := Pipeline.UD sig nD τ) (Lvl := ℕ) (Val := Elt F) spec23 c) := by
  rw [show (datG23 V a23 gblk c).Φ (Fin.last (cfg23 a23).N) = iprop(Pipeline.ΦD osem23 spec23 H23 V c ∗ Pipeline.prefHeld pre23 c (fun _ => fullShare) a23.1) from rfl,
    Pipeline.ΦD_eq]
  unfold YG23
  iintro ⟨⟨Hr, Hp, Hs, Hh⟩, Ht⟩
  isplitl [Hp Hh Ht]
  · isplitl [Hp]; · iexact Hp
    isplitl [Hh]; · iexact Hh
    iexact Ht
  isplitl [Hs]; · iexact Hs
  iexact Hr

/-- ENTRY. `hsplit` is the library's split of the held buffers into the pipeline's array and the rest, at this data. -/
theorem hentryG23 (c : Dev nD) (hpf : (fun k => V c (pre23.ref k)) = a23.1)
    (hsplit : (unscopedBufs c (V c) : sProp 𝕄)
      ⊢ iprop((datG23 V a23 gblk c).arrays ((datG23 V a23 gblk c).arrAt · 0) ∗ Pipeline.unscopedRest spec23 c (V c))) :
    iprop((unscopedBufs c (V c) ∗ (∃ r, prngReg c r) ∗ ∃ W, owes (c : Thread nD τ) (0 : CellTallies nD τ sig Unit) W)
        ∗ Pipeline.ownSems0 (Ix := Unit) (Name := ℕ) (U := Pipeline.UD sig nD τ) (Lvl := ℕ) (Val := Elt F) (τ := τ) osem23 c
        ∗ levAts (fun _ : GSem nD τ sig => (∅ : Finset Unit)) (fun _ _ => (0 : ℕ)))
      ⊢ (|={Set.univ}=> iprop((datG23 V a23 gblk c).arrays ((datG23 V a23 gblk c).arrAt · 0)
          ∗ Pipeline.prefHeld pre23 c (fun _ => fullShare) a23.1
          ∗ (datG23 V a23 gblk c).owesAt () 0 ∗ XG23 V c ∗ ZG23 V c) : sProp 𝕄) := by
  have hrest := Pipeline.unscopedRest_split (Ix := Unit) (Name := ℕ) (U := Pipeline.UD sig nD τ) (Lvl := ℕ) preFacts23 c (V c)
  rw [hpf, Pipeline.unscopedRestP_sdiff pre23 spec23 H23 H23_sub c (V c)] at hrest
  rw [hrest] at hsplit
  iintro ⟨⟨Hub, Hp, HO⟩, Hs, -⟩
  ihave H := hsplit $$ Hub
  icases H with ⟨Ha, Ht, Hh, Hz⟩
  imodintro
  isplitl [Ha]; · iexact Ha
  isplitl [Ht]; · iexact Ht
  isplitl [HO]
  · unfold Pipeline.Dat.owesAt Pipeline.owesWithin
    icases HO with ⟨%W, HO⟩; iexists W; isplitr; · ipureintro; exact fun _ _ => Or.inl trivial
    iexact HO
  unfold XG23 ZG23
  isplitl [Hp Hs Hh]
  · isplitl [Hp]; · iexact Hp
    isplitl [Hs]; · iexact Hs
    iexact Hh
  iexact Hz

variable (Vn : (c : Dev nD) → (b : Ref sig .tc) → Buf (Elt F) ((c : Thread nD τ).loc b))

/-- EXIT. `hjoin` is the library's rejoining of the pipeline's array at its final contents with the rest, at this data. -/
theorem hexitG23 (c : Dev nD) (hpf : (fun k => V c (pre23.ref k)) = a23.1)
    (hjoin : iprop((datG23 V a23 gblk c).arrays ((datG23 V a23 gblk c).arrAt · (cfg23 a23).N) ∗ Pipeline.unscopedRest spec23 c (V c))
      ⊢ (unscopedBufs c (Vn c) : sProp 𝕄)) :
    iprop((datG23 V a23 gblk c).arrays ((datG23 V a23 gblk c).arrAt · (cfg23 a23).N)
        ∗ (datG23 V a23 gblk c).owesAt () (Fin.last (cfg23 a23).N) ∗ YG23 V a23 c ∗ ZG23 V c)
      ⊢ (|={Set.univ}=> iprop(unscopedBufs c (Vn c) ∗ (∃ r, prngReg c r) ∗ ∃ W, owes (c : Thread nD τ) (0 : CellTallies nD τ sig Unit) W) : sProp 𝕄) := by
  have hrest := Pipeline.unscopedRest_split (Ix := Unit) (Name := ℕ) (U := Pipeline.UD sig nD τ) (Lvl := ℕ) preFacts23 c (V c)
  rw [hpf, Pipeline.unscopedRestP_sdiff pre23 spec23 H23 H23_sub c (V c)] at hrest
  rw [hrest] at hjoin
  unfold YG23 ZG23
  iintro ⟨Ha, HO, ⟨Hp, Hh, Ht⟩, Hz⟩
  imodintro
  isplitl [Ha Hh Ht Hz]
  · iapply hjoin
    isplitl [Ha]; · iexact Ha
    isplitl [Ht]; · iexact Ht
    isplitl [Hh]; · iexact Hh
    iexact Hz
  isplitl [Hp]; · iexact Hp
  unfold Pipeline.Dat.owesAt Pipeline.owesWithin
  icases HO with ⟨%W, -, HO⟩; iexists W; iexact HO

end Cert.KernelIdeal.Hand

end
-- ==== Proof.KI.Gather24.lean ====
/-
  The row-gather region 24 of the kernel's program: its proof data and the facts the launch takes.

  Region 24 copies, at grid point t, the eight rows  A[tbl (8 t + j)]  (j < 8) of the 50000 x 128 array A it finds in
  HBM into the eight rows of its 8 x 128 output block; tbl is the region's index table of 100000 words, held in SMEM, and
  A is read only. So after the region the output array's row r is A's row tbl r. The body moves the rows by transfers
  of its own on eight semaphores of its own, all waited for before the point ends: between two points nothing is in
  flight, the table and A are as the region found them, and the semaphores are at zero. That is the region's invariant.
-/
import proofs.«402049_j87351044866139_2_alg».proof.Proof.Gen.KernelIdeal.Launch
import proofs.«402049_j87351044866139_2_alg».proof.Proof.Gen.KernelIdeal.Skeleton
import proofs.«402049_j87351044866139_2_alg».proof.Proof.Gen.KernelIdeal.Points
import Idealize.ShloMosaic.Lib.Pipeline.Frame
import Idealize.ShloMosaic.Lib.Pipeline.FrameBody
import Idealize.ShloMosaic.Lib.Pipeline.RegionsLoop
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.KernelIdeal Cert.KernelIdeal.Gen

variable {F : FTy → Type} [FloatOps F]

local notation "𝕄" => MT nD τ sig Unit (Elt F) ℕ (Pipeline.UD sig nD τ) ℕ

/-- The eight semaphores the body's row transfers signal. -/
abbrev osem24 : Fin 8 → SemLoc sig := fun j =>
  (![SemLoc.dma 228, SemLoc.dma 229, SemLoc.dma 230, SemLoc.dma 231, SemLoc.dma 232, SemLoc.dma 233, SemLoc.dma 234, SemLoc.dma 235] : Fin 8 → SemLoc sig) j
theorem ownSemFacts24 : Pipeline.OwnSemFacts spec24 osem24 := by decide

/-- The array the rows are read from: left in HBM, no window's array and no table. -/
def H24 : Finset (Ref sig .tc) := {main_v89}
theorem H24_sub : H24 ⊆ Pipeline.restRefsP sig pre24 spec24 := by decide

variable (V : (c : Dev nD) → (b : Ref sig .tc) → Buf (Elt F) ((c : Thread nD τ).loc b))
variable (a24 : (pcfg24 (F := F)).Adm)
variable (gblk : (c : Dev nD) → Fin (cfg24 a24).N → S8x128.Idx → Elt F .f32)

/-- The region's proof data on core c: the output array as the region finds it; after point t the output block holds
    the eight gathered rows; the invariant above; full shares; nothing owed. -/
def datG24 (c : Dev nD) : Dat τ (Elt F) Unit ℕ (Pipeline.UD sig nD τ) ℕ (cfg24 a24) c where
  A w := V c (Pipeline.arrRef spec24 w)
  after w t := match w with
    | ⟨0, _⟩ => gblk c t
  Φ _ := iprop(Pipeline.ΦD osem24 spec24 H24 V c ∗ Pipeline.prefHeld pre24 c (fun _ => fullShare) a24.1)
  q _ := fullShare
  owed _ := 0

theorem A_eqG24 (c : Dev nD) (w : Fin (cfg24 a24).W) : (datG24 V a24 gblk c).A w = V c (Pipeline.arrRef spec24 w) := by
  dsimp only [datG24]
theorem afterG24_0 (c : Dev nD) (t : Fin (cfg24 a24).N) : (datG24 V a24 gblk c).after 0 t = gblk c t := rfl

/-! ## The region's protocol around the thread states

  Between two items of the program core c holds every unscoped buffer whole, beside its generator register and a record
  that it owes nothing. Entering the region, the output array goes to the pipeline, the table is handed over at its
  contents, the array A and the eight semaphores join the register in what the invariant takes (X), and the other
  buffers wait outside (Z). Leaving it, everything comes back: A and the table as they were. -/

/-- What the invariant takes at the first point beside the table and the scoped buffers. -/
def XG24 (c : Dev nD) : sProp 𝕄 :=
  iprop((∃ r, prngReg c r)
    ∗ Pipeline.ownSems0 (Ix := Unit) (Name := ℕ) (U := Pipeline.UD sig nD τ) (Lvl := ℕ) (Val := Elt F) (τ := τ) osem24 c
    ∗ bigSep H24 fun b => ((c.tc : Thread nD τ).loc b) ↦{fullShare} V c b)
/-- What it gives back at the last point beside the semaphores and the scoped buffers. -/
def YG24 (c : Dev nD) : sProp 𝕄 :=
  iprop((∃ r, prngReg c r) ∗ (bigSep H24 fun b => ((c.tc : Thread nD τ).loc b) ↦{fullShare} V c b)
    ∗ Pipeline.prefHeld pre24 c (fun _ => fullShare) a24.1)
/-- The unscoped buffers the region does not touch. -/
def ZG24 (c : Dev nD) : sProp 𝕄 :=
  bigSep (Pipeline.restRefsP sig pre24 spec24 \ H24) fun b => ((c.tc : Thread nD τ).loc b) ↦{fullShare} V c b

theorem hinG24 (c : Dev nD) :
    iprop(XG24 V c ∗ Pipeline.prefHeld pre24 c (fun _ => fullShare) a24.1
        ∗ Pipeline.scopedRest (Ix := Unit) (Name := ℕ) (U := Pipeline.UD sig nD τ) (Lvl := ℕ) (Val := Elt F) spec24 c)
      ⊢ (datG24 V a24 gblk c).Φ 0 := by
  rw [show (datG24 V a24 gblk c).Φ 0 = iprop(Pipeline.ΦD osem24 spec24 H24 V c ∗ Pipeline.prefHeld pre24 c (fun _ => fullShare) a24.1) from rfl,
    Pipeline.ΦD_eq]
  unfold XG24
  iintro ⟨⟨Hp, Hs, Hh⟩, Ht, Hr⟩
  isplitl [Hr Hp Hs Hh]
  · isplitl [Hr]; · iexact Hr
    isplitl [Hp]; · iexact Hp
    isplitl [Hs]; · iexact Hs
    iexact Hh
  iexact Ht

theorem houtG24 (c : Dev nD) :
    (datG24 V a24 gblk c).Φ (Fin.last (cfg24 a24).N)
      ⊢ iprop(YG24 V a24 c
          ∗ Pipeline.ownSems0 (Ix := Unit) (Name := ℕ) (U := Pipeline.UD sig nD τ) (Lvl := ℕ) (Val := Elt F) (τ := τ) osem24 c
          ∗ Pipeline.scopedRest (Ix := Unit) (Name := ℕ) (U := Pipeline.UD sig nD τ) (Lvl := ℕ) (Val := Elt F) spec24 c) := by
  rw [show (datG24 V a24 gblk c).Φ (Fin.last (cfg24 a24).N) = iprop(Pipeline.ΦD osem24 spec24 H24 V c ∗ Pipeline.prefHeld pre24 c (fun _ => fullShare) a24.1) from rfl,
    Pipeline.ΦD_eq]
  unfold YG24
  iintro ⟨⟨Hr, Hp, Hs, Hh⟩, Ht⟩
  isplitl [Hp Hh Ht]
  · isplitl [Hp]; · iexact Hp
    isplitl [Hh]; · iexact Hh
    iexact Ht
  isplitl [Hs]; · iexact Hs
  iexact Hr

/-- ENTRY. `hsplit` is the library's split of the held buffers into the pipeline's array and the rest, at this data. -/
theorem hentryG24 (c : Dev nD) (hpf : (fun k => V c (pre24.ref k)) = a24.1)
    (hsplit : (unscopedBufs c (V c) : sProp 𝕄)
      ⊢ iprop((datG24 V a24 gblk c).arrays ((datG24 V a24 gblk c).arrAt · 0) ∗ Pipeline.unscopedRest spec24 c (V c))) :
    iprop((unscopedBufs c (V c) ∗ (∃ r, prngReg c r) ∗ ∃ W, owes (c : Thread nD τ) (0 : CellTallies nD τ sig Unit) W)
        ∗ Pipeline.ownSems0 (Ix := Unit) (Name := ℕ) (U := Pipeline.UD sig nD τ) (Lvl := ℕ) (Val := Elt F) (τ := τ) osem24 c
        ∗ levAts (fun _ : GSem nD τ sig => (∅ : Finset Unit)) (fun _ _ => (0 : ℕ)))
      ⊢ (|={Set.univ}=> iprop((datG24 V a24 gblk c).arrays ((datG24 V a24 gblk c).arrAt · 0)
          ∗ Pipeline.prefHeld pre24 c (fun _ => fullShare) a24.1
          ∗ (datG24 V a24 gblk c).owesAt () 0 ∗ XG24 V c ∗ ZG24 V c) : sProp 𝕄) := by
  have hrest := Pipeline.unscopedRest_split (Ix := Unit) (Name := ℕ) (U := Pipeline.UD sig nD τ) (Lvl := ℕ) preFacts24 c (V c)
  rw [hpf, Pipeline.unscopedRestP_sdiff pre24 spec24 H24 H24_sub c (V c)] at hrest
  rw [hrest] at hsplit
  iintro ⟨⟨Hub, Hp, HO⟩, Hs, -⟩
  ihave H := hsplit $$ Hub
  icases H with ⟨Ha, Ht, Hh, Hz⟩
  imodintro
  isplitl [Ha]; · iexact Ha
  isplitl [Ht]; · iexact Ht
  isplitl [HO]
  · unfold Pipeline.Dat.owesAt Pipeline.owesWithin
    icases HO with ⟨%W, HO⟩; iexists W; isplitr; · ipureintro; exact fun _ _ => Or.inl trivial
    iexact HO
  unfold XG24 ZG24
  isplitl [Hp Hs Hh]
  · isplitl [Hp]; · iexact Hp
    isplitl [Hs]; · iexact Hs
    iexact Hh
  iexact Hz

variable (Vn : (c : Dev nD) → (b : Ref sig .tc) → Buf (Elt F) ((c : Thread nD τ).loc b))

/-- EXIT. `hjoin` is the library's rejoining of the pipeline's array at its final contents with the rest, at this data. -/
theorem hexitG24 (c : Dev nD) (hpf : (fun k => V c (pre24.ref k)) = a24.1)
    (hjoin : iprop((datG24 V a24 gblk c).arrays ((datG24 V a24 gblk c).arrAt · (cfg24 a24).N) ∗ Pipeline.unscopedRest spec24 c (V c))
      ⊢ (unscopedBufs c (Vn c) : sProp 𝕄)) :
    iprop((datG24 V a24 gblk c).arrays ((datG24 V a24 gblk c).arrAt · (cfg24 a24).N)
        ∗ (datG24 V a24 gblk c).owesAt () (Fin.last (cfg24 a24).N) ∗ YG24 V a24 c ∗ ZG24 V c)
      ⊢ (|={Set.univ}=> iprop(unscopedBufs c (Vn c) ∗ (∃ r, prngReg c r) ∗ ∃ W, owes (c : Thread nD τ) (0 : CellTallies nD τ sig Unit) W) : sProp 𝕄) := by
  have hrest := Pipeline.unscopedRest_split (Ix := Unit) (Name := ℕ) (U := Pipeline.UD sig nD τ) (Lvl := ℕ) preFacts24 c (V c)
  rw [hpf, Pipeline.unscopedRestP_sdiff pre24 spec24 H24 H24_sub c (V c)] at hrest
  rw [hrest] at hjoin
  unfold YG24 ZG24
  iintro ⟨Ha, HO, ⟨Hp, Hh, Ht⟩, Hz⟩
  imodintro
  isplitl [Ha Hh Ht Hz]
  · iapply hjoin
    isplitl [Ha]; · iexact Ha
    isplitl [Ht]; · iexact Ht
    isplitl [Hh]; · iexact Hh
    iexact Hz
  isplitl [Hp]; · iexact Hp
  unfold Pipeline.Dat.owesAt Pipeline.owesWithin
  icases HO with ⟨%W, -, HO⟩; iexists W; iexact HO

end Cert.KernelIdeal.Hand

end
-- ==== Proof.KI.Gather25.lean ====
/-
  The row-gather region 25 of the kernel's program: its proof data and the facts the launch takes.

  Region 25 copies, at grid point t, the eight rows  A[tbl (8 t + j)]  (j < 8) of the 50000 x 128 array A it finds in
  HBM into the eight rows of its 8 x 128 output block; tbl is the region's index table of 100000 words, held in SMEM, and
  A is read only. So after the region the output array's row r is A's row tbl r. The body moves the rows by transfers
  of its own on eight semaphores of its own, all waited for before the point ends: between two points nothing is in
  flight, the table and A are as the region found them, and the semaphores are at zero. That is the region's invariant.
-/
import proofs.«402049_j87351044866139_2_alg».proof.Proof.Gen.KernelIdeal.Launch
import proofs.«402049_j87351044866139_2_alg».proof.Proof.Gen.KernelIdeal.Skeleton
import proofs.«402049_j87351044866139_2_alg».proof.Proof.Gen.KernelIdeal.Points
import Idealize.ShloMosaic.Lib.Pipeline.Frame
import Idealize.ShloMosaic.Lib.Pipeline.FrameBody
import Idealize.ShloMosaic.Lib.Pipeline.RegionsLoop
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.KernelIdeal Cert.KernelIdeal.Gen

variable {F : FTy → Type} [FloatOps F]

local notation "𝕄" => MT nD τ sig Unit (Elt F) ℕ (Pipeline.UD sig nD τ) ℕ

/-- The eight semaphores the body's row transfers signal. -/
abbrev osem25 : Fin 8 → SemLoc sig := fun j =>
  (![SemLoc.dma 238, SemLoc.dma 239, SemLoc.dma 240, SemLoc.dma 241, SemLoc.dma 242, SemLoc.dma 243, SemLoc.dma 244, SemLoc.dma 245] : Fin 8 → SemLoc sig) j
theorem ownSemFacts25 : Pipeline.OwnSemFacts spec25 osem25 := by decide

/-- The array the rows are read from: left in HBM, no window's array and no table. -/
def H25 : Finset (Ref sig .tc) := {main_v89}
theorem H25_sub : H25 ⊆ Pipeline.restRefsP sig pre25 spec25 := by decide

variable (V : (c : Dev nD) → (b : Ref sig .tc) → Buf (Elt F) ((c : Thread nD τ).loc b))
variable (a25 : (pcfg25 (F := F)).Adm)
variable (gblk : (c : Dev nD) → Fin (cfg25 a25).N → S8x128.Idx → Elt F .f32)

/-- The region's proof data on core c: the output array as the region finds it; after point t the output block holds
    the eight gathered rows; the invariant above; full shares; nothing owed. -/
def datG25 (c : Dev nD) : Dat τ (Elt F) Unit ℕ (Pipeline.UD sig nD τ) ℕ (cfg25 a25) c where
  A w := V c (Pipeline.arrRef spec25 w)
  after w t := match w with
    | ⟨0, _⟩ => gblk c t
  Φ _ := iprop(Pipeline.ΦD osem25 spec25 H25 V c ∗ Pipeline.prefHeld pre25 c (fun _ => fullShare) a25.1)
  q _ := fullShare
  owed _ := 0

theorem A_eqG25 (c : Dev nD) (w : Fin (cfg25 a25).W) : (datG25 V a25 gblk c).A w = V c (Pipeline.arrRef spec25 w) := by
  dsimp only [datG25]
theorem afterG25_0 (c : Dev nD) (t : Fin (cfg25 a25).N) : (datG25 V a25 gblk c).after 0 t = gblk c t := rfl

/-! ## The region's protocol around the thread states

  Between two items of the program core c holds every unscoped buffer whole, beside its generator register and a record
  that it owes nothing. Entering the region, the output array goes to the pipeline, the table is handed over at its
  contents, the array A and the eight semaphores join the register in what the invariant takes (X), and the other
  buffers wait outside (Z). Leaving it, everything comes back: A and the table as they were. -/

/-- What the invariant takes at the first point beside the table and the scoped buffers. -/
def XG25 (c : Dev nD) : sProp 𝕄 :=
  iprop((∃ r, prngReg c r)
    ∗ Pipeline.ownSems0 (Ix := Unit) (Name := ℕ) (U := Pipeline.UD sig nD τ) (Lvl := ℕ) (Val := Elt F) (τ := τ) osem25 c
    ∗ bigSep H25 fun b => ((c.tc : Thread nD τ).loc b) ↦{fullShare} V c b)
/-- What it gives back at the last point beside the semaphores and the scoped buffers. -/
def YG25 (c : Dev nD) : sProp 𝕄 :=
  iprop((∃ r, prngReg c r) ∗ (bigSep H25 fun b => ((c.tc : Thread nD τ).loc b) ↦{fullShare} V c b)
    ∗ Pipeline.prefHeld pre25 c (fun _ => fullShare) a25.1)
/-- The unscoped buffers the region does not touch. -/
def ZG25 (c : Dev nD) : sProp 𝕄 :=
  bigSep (Pipeline.restRefsP sig pre25 spec25 \ H25) fun b => ((c.tc : Thread nD τ).loc b) ↦{fullShare} V c b

theorem hinG25 (c : Dev nD) :
    iprop(XG25 V c ∗ Pipeline.prefHeld pre25 c (fun _ => fullShare) a25.1
        ∗ Pipeline.scopedRest (Ix := Unit) (Name := ℕ) (U := Pipeline.UD sig nD τ) (Lvl := ℕ) (Val := Elt F) spec25 c)
      ⊢ (datG25 V a25 gblk c).Φ 0 := by
  rw [show (datG25 V a25 gblk c).Φ 0 = iprop(Pipeline.ΦD osem25 spec25 H25 V c ∗ Pipeline.prefHeld pre25 c (fun _ => fullShare) a25.1) from rfl,
    Pipeline.ΦD_eq]
  unfold XG25
  iintro ⟨⟨Hp, Hs, Hh⟩, Ht, Hr⟩
  isplitl [Hr Hp Hs Hh]
  · isplitl [Hr]; · iexact Hr
    isplitl [Hp]; · iexact Hp
    isplitl [Hs]; · iexact Hs
    iexact Hh
  iexact Ht

theorem houtG25 (c : Dev nD) :
    (datG25 V a25 gblk c).Φ (Fin.last (cfg25 a25).N)
      ⊢ iprop(YG25 V a25 c
          ∗ Pipeline.ownSems0 (Ix := Unit) (Name := ℕ) (U := Pipeline.UD sig nD τ) (Lvl := ℕ) (Val := Elt F) (τ := τ) osem25 c
          ∗ Pipeline.scopedRest (Ix := Unit) (Name := ℕ) (U := Pipeline.UD sig nD τ) (Lvl := ℕ) (Val := Elt F) spec25 c) := by
  rw [show (datG25 V a25 gblk c).Φ (Fin.last (cfg25 a25).N) = iprop(Pipeline.ΦD osem25 spec25 H25 V c ∗ Pipeline.prefHeld pre25 c (fun _ => fullShare) a25.1) from rfl,
    Pipeline.ΦD_eq]
  unfold YG25
  iintro ⟨⟨Hr, Hp, Hs, Hh⟩, Ht⟩
  isplitl [Hp Hh Ht]
  · isplitl [Hp]; · iexact Hp
    isplitl [Hh]; · iexact Hh
    iexact Ht
  isplitl [Hs]; · iexact Hs
  iexact Hr

/-- ENTRY. `hsplit` is the library's split of the held buffers into the pipeline's array and the rest, at this data. -/
theorem hentryG25 (c : Dev nD) (hpf : (fun k => V c (pre25.ref k)) = a25.1)
    (hsplit : (unscopedBufs c (V c) : sProp 𝕄)
      ⊢ iprop((datG25 V a25 gblk c).arrays ((datG25 V a25 gblk c).arrAt · 0) ∗ Pipeline.unscopedRest spec25 c (V c))) :
    iprop((unscopedBufs c (V c) ∗ (∃ r, prngReg c r) ∗ ∃ W, owes (c : Thread nD τ) (0 : CellTallies nD τ sig Unit) W)
        ∗ Pipeline.ownSems0 (Ix := Unit) (Name := ℕ) (U := Pipeline.UD sig nD τ) (Lvl := ℕ) (Val := Elt F) (τ := τ) osem25 c
        ∗ levAts (fun _ : GSem nD τ sig => (∅ : Finset Unit)) (fun _ _ => (0 : ℕ)))
      ⊢ (|={Set.univ}=> iprop((datG25 V a25 gblk c).arrays ((datG25 V a25 gblk c).arrAt · 0)
          ∗ Pipeline.prefHeld pre25 c (fun _ => fullShare) a25.1
          ∗ (datG25 V a25 gblk c).owesAt () 0 ∗ XG25 V c ∗ ZG25 V c) : sProp 𝕄) := by
  have hrest := Pipeline.unscopedRest_split (Ix := Unit) (Name := ℕ) (U := Pipeline.UD sig nD τ) (Lvl := ℕ) preFacts25 c (V c)
  rw [hpf, Pipeline.unscopedRestP_sdiff pre25 spec25 H25 H25_sub c (V c)] at hrest
  rw [hrest] at hsplit
  iintro ⟨⟨Hub, Hp, HO⟩, Hs, -⟩
  ihave H := hsplit $$ Hub
  icases H with ⟨Ha, Ht, Hh, Hz⟩
  imodintro
  isplitl [Ha]; · iexact Ha
  isplitl [Ht]; · iexact Ht
  isplitl [HO]
  · unfold Pipeline.Dat.owesAt Pipeline.owesWithin
    icases HO with ⟨%W, HO⟩; iexists W; isplitr; · ipureintro; exact fun _ _ => Or.inl trivial
    iexact HO
  unfold XG25 ZG25
  isplitl [Hp Hs Hh]
  · isplitl [Hp]; · iexact Hp
    isplitl [Hs]; · iexact Hs
    iexact Hh
  iexact Hz

variable (Vn : (c : Dev nD) → (b : Ref sig .tc) → Buf (Elt F) ((c : Thread nD τ).loc b))

/-- EXIT. `hjoin` is the library's rejoining of the pipeline's array at its final contents with the rest, at this data. -/
theorem hexitG25 (c : Dev nD) (hpf : (fun k => V c (pre25.ref k)) = a25.1)
    (hjoin : iprop((datG25 V a25 gblk c).arrays ((datG25 V a25 gblk c).arrAt · (cfg25 a25).N) ∗ Pipeline.unscopedRest spec25 c (V c))
      ⊢ (unscopedBufs c (Vn c) : sProp 𝕄)) :
    iprop((datG25 V a25 gblk c).arrays ((datG25 V a25 gblk c).arrAt · (cfg25 a25).N)
        ∗ (datG25 V a25 gblk c).owesAt () (Fin.last (cfg25 a25).N) ∗ YG25 V a25 c ∗ ZG25 V c)
      ⊢ (|={Set.univ}=> iprop(unscopedBufs c (Vn c) ∗ (∃ r, prngReg c r) ∗ ∃ W, owes (c : Thread nD τ) (0 : CellTallies nD τ sig Unit) W) : sProp 𝕄) := by
  have hrest := Pipeline.unscopedRest_split (Ix := Unit) (Name := ℕ) (U := Pipeline.UD sig nD τ) (Lvl := ℕ) preFacts25 c (V c)
  rw [hpf, Pipeline.unscopedRestP_sdiff pre25 spec25 H25 H25_sub c (V c)] at hrest
  rw [hrest] at hjoin
  unfold YG25 ZG25
  iintro ⟨Ha, HO, ⟨Hp, Hh, Ht⟩, Hz⟩
  imodintro
  isplitl [Ha Hh Ht Hz]
  · iapply hjoin
    isplitl [Ha]; · iexact Ha
    isplitl [Ht]; · iexact Ht
    isplitl [Hh]; · iexact Hh
    iexact Hz
  isplitl [Hp]; · iexact Hp
  unfold Pipeline.Dat.owesAt Pipeline.owesWithin
  icases HO with ⟨%W, -, HO⟩; iexists W; iexact HO

end Cert.KernelIdeal.Hand

end
-- ==== Proof.KI.Gather26.lean ====
/-
  The row-gather region 26 of the kernel's program: its proof data and the facts the launch takes.

  Region 26 copies, at grid point t, the eight rows  A[tbl (8 t + j)]  (j < 8) of the 50000 x 128 array A it finds in
  HBM into the eight rows of its 8 x 128 output block; tbl is the region's index table of 100000 words, held in SMEM, and
  A is read only. So after the region the output array's row r is A's row tbl r. The body moves the rows by transfers
  of its own on eight semaphores of its own, all waited for before the point ends: between two points nothing is in
  flight, the table and A are as the region found them, and the semaphores are at zero. That is the region's invariant.
-/
import proofs.«402049_j87351044866139_2_alg».proof.Proof.Gen.KernelIdeal.Launch
import proofs.«402049_j87351044866139_2_alg».proof.Proof.Gen.KernelIdeal.Skeleton
import proofs.«402049_j87351044866139_2_alg».proof.Proof.Gen.KernelIdeal.Points
import Idealize.ShloMosaic.Lib.Pipeline.Frame
import Idealize.ShloMosaic.Lib.Pipeline.FrameBody
import Idealize.ShloMosaic.Lib.Pipeline.RegionsLoop
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.KernelIdeal Cert.KernelIdeal.Gen

variable {F : FTy → Type} [FloatOps F]

local notation "𝕄" => MT nD τ sig Unit (Elt F) ℕ (Pipeline.UD sig nD τ) ℕ

/-- The eight semaphores the body's row transfers signal. -/
abbrev osem26 : Fin 8 → SemLoc sig := fun j =>
  (![SemLoc.dma 248, SemLoc.dma 249, SemLoc.dma 250, SemLoc.dma 251, SemLoc.dma 252, SemLoc.dma 253, SemLoc.dma 254, SemLoc.dma 255] : Fin 8 → SemLoc sig) j
theorem ownSemFacts26 : Pipeline.OwnSemFacts spec26 osem26 := by decide

/-- The array the rows are read from: left in HBM, no window's array and no table. -/
def H26 : Finset (Ref sig .tc) := {main_v89}
theorem H26_sub : H26 ⊆ Pipeline.restRefsP sig pre26 spec26 := by decide

variable (V : (c : Dev nD) → (b : Ref sig .tc) → Buf (Elt F) ((c : Thread nD τ).loc b))
variable (a26 : (pcfg26 (F := F)).Adm)
variable (gblk : (c : Dev nD) → Fin (cfg26 a26).N → S8x128.Idx → Elt F .f32)

/-- The region's proof data on core c: the output array as the region finds it; after point t the output block holds
    the eight gathered rows; the invariant above; full shares; nothing owed. -/
def datG26 (c : Dev nD) : Dat τ (Elt F) Unit ℕ (Pipeline.UD sig nD τ) ℕ (cfg26 a26) c where
  A w := V c (Pipeline.arrRef spec26 w)
  after w t := match w with
    | ⟨0, _⟩ => gblk c t
  Φ _ := iprop(Pipeline.ΦD osem26 spec26 H26 V c ∗ Pipeline.prefHeld pre26 c (fun _ => fullShare) a26.1)
  q _ := fullShare
  owed _ := 0

theorem A_eqG26 (c : Dev nD) (w : Fin (cfg26 a26).W) : (datG26 V a26 gblk c).A w = V c (Pipeline.arrRef spec26 w) := by
  dsimp only [datG26]
theorem afterG26_0 (c : Dev nD) (t : Fin (cfg26 a26).N) : (datG26 V a26 gblk c).after 0 t = gblk c t := rfl

/-! ## The region's protocol around the thread states

  Between two items of the program core c holds every unscoped buffer whole, beside its generator register and a record
  that it owes nothing. Entering the region, the output array goes to the pipeline, the table is handed over at its
  contents, the array A and the eight semaphores join the register in what the invariant takes (X), and the other
  buffers wait outside (Z). Leaving it, everything comes back: A and the table as they were. -/

/-- What the invariant takes at the first point beside the table and the scoped buffers. -/
def XG26 (c : Dev nD) : sProp 𝕄 :=
  iprop((∃ r, prngReg c r)
    ∗ Pipeline.ownSems0 (Ix := Unit) (Name := ℕ) (U := Pipeline.UD sig nD τ) (Lvl := ℕ) (Val := Elt F) (τ := τ) osem26 c
    ∗ bigSep H26 fun b => ((c.tc : Thread nD τ).loc b) ↦{fullShare} V c b)
/-- What it gives back at the last point beside the semaphores and the scoped buffers. -/
def YG26 (c : Dev nD) : sProp 𝕄 :=
  iprop((∃ r, prngReg c r) ∗ (bigSep H26 fun b => ((c.tc : Thread nD τ).loc b) ↦{fullShare} V c b)
    ∗ Pipeline.prefHeld pre26 c (fun _ => fullShare) a26.1)
/-- The unscoped buffers the region does not touch. -/
def ZG26 (c : Dev nD) : sProp 𝕄 :=
  bigSep (Pipeline.restRefsP sig pre26 spec26 \ H26) fun b => ((c.tc : Thread nD τ).loc b) ↦{fullShare} V c b

theorem hinG26 (c : Dev nD) :
    iprop(XG26 V c ∗ Pipeline.prefHeld pre26 c (fun _ => fullShare) a26.1
        ∗ Pipeline.scopedRest (Ix := Unit) (Name := ℕ) (U := Pipeline.UD sig nD τ) (Lvl := ℕ) (Val := Elt F) spec26 c)
      ⊢ (datG26 V a26 gblk c).Φ 0 := by
  rw [show (datG26 V a26 gblk c).Φ 0 = iprop(Pipeline.ΦD osem26 spec26 H26 V c ∗ Pipeline.prefHeld pre26 c (fun _ => fullShare) a26.1) from rfl,
    Pipeline.ΦD_eq]
  unfold XG26
  iintro ⟨⟨Hp, Hs, Hh⟩, Ht, Hr⟩
  isplitl [Hr Hp Hs Hh]
  · isplitl [Hr]; · iexact Hr
    isplitl [Hp]; · iexact Hp
    isplitl [Hs]; · iexact Hs
    iexact Hh
  iexact Ht

theorem houtG26 (c : Dev nD) :
    (datG26 V a26 gblk c).Φ (Fin.last (cfg26 a26).N)
      ⊢ iprop(YG26 V a26 c
          ∗ Pipeline.ownSems0 (Ix := Unit) (Name := ℕ) (U := Pipeline.UD sig nD τ) (Lvl := ℕ) (Val := Elt F) (τ := τ) osem26 c
          ∗ Pipeline.scopedRest (Ix := Unit) (Name := ℕ) (U := Pipeline.UD sig nD τ) (Lvl := ℕ) (Val := Elt F) spec26 c) := by
  rw [show (datG26 V a26 gblk c).Φ (Fin.last (cfg26 a26).N) = iprop(Pipeline.ΦD osem26 spec26 H26 V c ∗ Pipeline.prefHeld pre26 c (fun _ => fullShare) a26.1) from rfl,
    Pipeline.ΦD_eq]
  unfold YG26
  iintro ⟨⟨Hr, Hp, Hs, Hh⟩, Ht⟩
  isplitl [Hp Hh Ht]
  · isplitl [Hp]; · iexact Hp
    isplitl [Hh]; · iexact Hh
    iexact Ht
  isplitl [Hs]; · iexact Hs
  iexact Hr

/-- ENTRY. `hsplit` is the library's split of the held buffers into the pipeline's array and the rest, at this data. -/
theorem hentryG26 (c : Dev nD) (hpf : (fun k => V c (pre26.ref k)) = a26.1)
    (hsplit : (unscopedBufs c (V c) : sProp 𝕄)
      ⊢ iprop((datG26 V a26 gblk c).arrays ((datG26 V a26 gblk c).arrAt · 0) ∗ Pipeline.unscopedRest spec26 c (V c))) :
    iprop((unscopedBufs c (V c) ∗ (∃ r, prngReg c r) ∗ ∃ W, owes (c : Thread nD τ) (0 : CellTallies nD τ sig Unit) W)
        ∗ Pipeline.ownSems0 (Ix := Unit) (Name := ℕ) (U := Pipeline.UD sig nD τ) (Lvl := ℕ) (Val := Elt F) (τ := τ) osem26 c
        ∗ levAts (fun _ : GSem nD τ sig => (∅ : Finset Unit)) (fun _ _ => (0 : ℕ)))
      ⊢ (|={Set.univ}=> iprop((datG26 V a26 gblk c).arrays ((datG26 V a26 gblk c).arrAt · 0)
          ∗ Pipeline.prefHeld pre26 c (fun _ => fullShare) a26.1
          ∗ (datG26 V a26 gblk c).owesAt () 0 ∗ XG26 V c ∗ ZG26 V c) : sProp 𝕄) := by
  have hrest := Pipeline.unscopedRest_split (Ix := Unit) (Name := ℕ) (U := Pipeline.UD sig nD τ) (Lvl := ℕ) preFacts26 c (V c)
  rw [hpf, Pipeline.unscopedRestP_sdiff pre26 spec26 H26 H26_sub c (V c)] at hrest
  rw [hrest] at hsplit
  iintro ⟨⟨Hub, Hp, HO⟩, Hs, -⟩
  ihave H := hsplit $$ Hub
  icases H with ⟨Ha, Ht, Hh, Hz⟩
  imodintro
  isplitl [Ha]; · iexact Ha
  isplitl [Ht]; · iexact Ht
  isplitl [HO]
  · unfold Pipeline.Dat.owesAt Pipeline.owesWithin
    icases HO with ⟨%W, HO⟩; iexists W; isplitr; · ipureintro; exact fun _ _ => Or.inl trivial
    iexact HO
  unfold XG26 ZG26
  isplitl [Hp Hs Hh]
  · isplitl [Hp]; · iexact Hp
    isplitl [Hs]; · iexact Hs
    iexact Hh
  iexact Hz

variable (Vn : (c : Dev nD) → (b : Ref sig .tc) → Buf (Elt F) ((c : Thread nD τ).loc b))

/-- EXIT. `hjoin` is the library's rejoining of the pipeline's array at its final contents with the rest, at this data. -/
theorem hexitG26 (c : Dev nD) (hpf : (fun k => V c (pre26.ref k)) = a26.1)
    (hjoin : iprop((datG26 V a26 gblk c).arrays ((datG26 V a26 gblk c).arrAt · (cfg26 a26).N) ∗ Pipeline.unscopedRest spec26 c (V c))
      ⊢ (unscopedBufs c (Vn c) : sProp 𝕄)) :
    iprop((datG26 V a26 gblk c).arrays ((datG26 V a26 gblk c).arrAt · (cfg26 a26).N)
        ∗ (datG26 V a26 gblk c).owesAt () (Fin.last (cfg26 a26).N) ∗ YG26 V a26 c ∗ ZG26 V c)
      ⊢ (|={Set.univ}=> iprop(unscopedBufs c (Vn c) ∗ (∃ r, prngReg c r) ∗ ∃ W, owes (c : Thread nD τ) (0 : CellTallies nD τ sig Unit) W) : sProp 𝕄) := by
  have hrest := Pipeline.unscopedRest_split (Ix := Unit) (Name := ℕ) (U := Pipeline.UD sig nD τ) (Lvl := ℕ) preFacts26 c (V c)
  rw [hpf, Pipeline.unscopedRestP_sdiff pre26 spec26 H26 H26_sub c (V c)] at hrest
  rw [hrest] at hjoin
  unfold YG26 ZG26
  iintro ⟨Ha, HO, ⟨Hp, Hh, Ht⟩, Hz⟩
  imodintro
  isplitl [Ha Hh Ht Hz]
  · iapply hjoin
    isplitl [Ha]; · iexact Ha
    isplitl [Ht]; · iexact Ht
    isplitl [Hh]; · iexact Hh
    iexact Hz
  isplitl [Hp]; · iexact Hp
  unfold Pipeline.Dat.owesAt Pipeline.owesWithin
  icases HO with ⟨%W, -, HO⟩; iexists W; iexact HO

end Cert.KernelIdeal.Hand

end
-- ==== Proof.KI.Gather27.lean ====
/-
  The row-gather region 27 of the kernel's program: its proof data and the facts the launch takes.

  Region 27 copies, at grid point t, the eight rows  A[tbl (8 t + j)]  (j < 8) of the 50000 x 128 array A it finds in
  HBM into the eight rows of its 8 x 128 output block; tbl is the region's index table of 100000 words, held in SMEM, and
  A is read only. So after the region the output array's row r is A's row tbl r. The body moves the rows by transfers
  of its own on eight semaphores of its own, all waited for before the point ends: between two points nothing is in
  flight, the table and A are as the region found them, and the semaphores are at zero. That is the region's invariant.
-/
import proofs.«402049_j87351044866139_2_alg».proof.Proof.Gen.KernelIdeal.Launch
import proofs.«402049_j87351044866139_2_alg».proof.Proof.Gen.KernelIdeal.Skeleton
import proofs.«402049_j87351044866139_2_alg».proof.Proof.Gen.KernelIdeal.Points
import Idealize.ShloMosaic.Lib.Pipeline.Frame
import Idealize.ShloMosaic.Lib.Pipeline.FrameBody
import Idealize.ShloMosaic.Lib.Pipeline.RegionsLoop
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.KernelIdeal Cert.KernelIdeal.Gen

variable {F : FTy → Type} [FloatOps F]

local notation "𝕄" => MT nD τ sig Unit (Elt F) ℕ (Pipeline.UD sig nD τ) ℕ

/-- The eight semaphores the body's row transfers signal. -/
abbrev osem27 : Fin 8 → SemLoc sig := fun j =>
  (![SemLoc.dma 258, SemLoc.dma 259, SemLoc.dma 260, SemLoc.dma 261, SemLoc.dma 262, SemLoc.dma 263, SemLoc.dma 264, SemLoc.dma 265] : Fin 8 → SemLoc sig) j
theorem ownSemFacts27 : Pipeline.OwnSemFacts spec27 osem27 := by decide

/-- The array the rows are read from: left in HBM, no window's array and no table. -/
def H27 : Finset (Ref sig .tc) := {main_v89}
theorem H27_sub : H27 ⊆ Pipeline.restRefsP sig pre27 spec27 := by decide

variable (V : (c : Dev nD) → (b : Ref sig .tc) → Buf (Elt F) ((c : Thread nD τ).loc b))
variable (a27 : (pcfg27 (F := F)).Adm)
variable (gblk : (c : Dev nD) → Fin (cfg27 a27).N → S8x128.Idx → Elt F .f32)

/-- The region's proof data on core c: the output array as the region finds it; after point t the output block holds
    the eight gathered rows; the invariant above; full shares; nothing owed. -/
def datG27 (c : Dev nD) : Dat τ (Elt F) Unit ℕ (Pipeline.UD sig nD τ) ℕ (cfg27 a27) c where
  A w := V c (Pipeline.arrRef spec27 w)
  after w t := match w with
    | ⟨0, _⟩ => gblk c t
  Φ _ := iprop(Pipeline.ΦD osem27 spec27 H27 V c ∗ Pipeline.prefHeld pre27 c (fun _ => fullShare) a27.1)
  q _ := fullShare
  owed _ := 0

theorem A_eqG27 (c : Dev nD) (w : Fin (cfg27 a27).W) : (datG27 V a27 gblk c).A w = V c (Pipeline.arrRef spec27 w) := by
  dsimp only [datG27]
theorem afterG27_0 (c : Dev nD) (t : Fin (cfg27 a27).N) : (datG27 V a27 gblk c).after 0 t = gblk c t := rfl

/-! ## The region's protocol around the thread states

  Between two items of the program core c holds every unscoped buffer whole, beside its generator register and a record
  that it owes nothing. Entering the region, the output array goes to the pipeline, the table is handed over at its
  contents, the array A and the eight semaphores join the register in what the invariant takes (X), and the other
  buffers wait outside (Z). Leaving it, everything comes back: A and the table as they were. -/

/-- What the invariant takes at the first point beside the table and the scoped buffers. -/
def XG27 (c : Dev nD) : sProp 𝕄 :=
  iprop((∃ r, prngReg c r)
    ∗ Pipeline.ownSems0 (Ix := Unit) (Name := ℕ) (U := Pipeline.UD sig nD τ) (Lvl := ℕ) (Val := Elt F) (τ := τ) osem27 c
    ∗ bigSep H27 fun b => ((c.tc : Thread nD τ).loc b) ↦{fullShare} V c b)
/-- What it gives back at the last point beside the semaphores and the scoped buffers. -/
def YG27 (c : Dev nD) : sProp 𝕄 :=
  iprop((∃ r, prngReg c r) ∗ (bigSep H27 fun b => ((c.tc : Thread nD τ).loc b) ↦{fullShare} V c b)
    ∗ Pipeline.prefHeld pre27 c (fun _ => fullShare) a27.1)
/-- The unscoped buffers the region does not touch. -/
def ZG27 (c : Dev nD) : sProp 𝕄 :=
  bigSep (Pipeline.restRefsP sig pre27 spec27 \ H27) fun b => ((c.tc : Thread nD τ).loc b) ↦{fullShare} V c b

theorem hinG27 (c : Dev nD) :
    iprop(XG27 V c ∗ Pipeline.prefHeld pre27 c (fun _ => fullShare) a27.1
        ∗ Pipeline.scopedRest (Ix := Unit) (Name := ℕ) (U := Pipeline.UD sig nD τ) (Lvl := ℕ) (Val := Elt F) spec27 c)
      ⊢ (datG27 V a27 gblk c).Φ 0 := by
  rw [show (datG27 V a27 gblk c).Φ 0 = iprop(Pipeline.ΦD osem27 spec27 H27 V c ∗ Pipeline.prefHeld pre27 c (fun _ => fullShare) a27.1) from rfl,
    Pipeline.ΦD_eq]
  unfold XG27
  iintro ⟨⟨Hp, Hs, Hh⟩, Ht, Hr⟩
  isplitl [Hr Hp Hs Hh]
  · isplitl [Hr]; · iexact Hr
    isplitl [Hp]; · iexact Hp
    isplitl [Hs]; · iexact Hs
    iexact Hh
  iexact Ht

theorem houtG27 (c : Dev nD) :
    (datG27 V a27 gblk c).Φ (Fin.last (cfg27 a27).N)
      ⊢ iprop(YG27 V a27 c
          ∗ Pipeline.ownSems0 (Ix := Unit) (Name := ℕ) (U := Pipeline.UD sig nD τ) (Lvl := ℕ) (Val := Elt F) (τ := τ) osem27 c
          ∗ Pipeline.scopedRest (Ix := Unit) (Name := ℕ) (U := Pipeline.UD sig nD τ) (Lvl := ℕ) (Val := Elt F) spec27 c) := by
  rw [show (datG27 V a27 gblk c).Φ (Fin.last (cfg27 a27).N) = iprop(Pipeline.ΦD osem27 spec27 H27 V c ∗ Pipeline.prefHeld pre27 c (fun _ => fullShare) a27.1) from rfl,
    Pipeline.ΦD_eq]
  unfold YG27
  iintro ⟨⟨Hr, Hp, Hs, Hh⟩, Ht⟩
  isplitl [Hp Hh Ht]
  · isplitl [Hp]; · iexact Hp
    isplitl [Hh]; · iexact Hh
    iexact Ht
  isplitl [Hs]; · iexact Hs
  iexact Hr

/-- ENTRY. `hsplit` is the library's split of the held buffers into the pipeline's array and the rest, at this data. -/
theorem hentryG27 (c : Dev nD) (hpf : (fun k => V c (pre27.ref k)) = a27.1)
    (hsplit : (unscopedBufs c (V c) : sProp 𝕄)
      ⊢ iprop((datG27 V a27 gblk c).arrays ((datG27 V a27 gblk c).arrAt · 0) ∗ Pipeline.unscopedRest spec27 c (V c))) :
    iprop((unscopedBufs c (V c) ∗ (∃ r, prngReg c r) ∗ ∃ W, owes (c : Thread nD τ) (0 : CellTallies nD τ sig Unit) W)
        ∗ Pipeline.ownSems0 (Ix := Unit) (Name := ℕ) (U := Pipeline.UD sig nD τ) (Lvl := ℕ) (Val := Elt F) (τ := τ) osem27 c
        ∗ levAts (fun _ : GSem nD τ sig => (∅ : Finset Unit)) (fun _ _ => (0 : ℕ)))
      ⊢ (|={Set.univ}=> iprop((datG27 V a27 gblk c).arrays ((datG27 V a27 gblk c).arrAt · 0)
          ∗ Pipeline.prefHeld pre27 c (fun _ => fullShare) a27.1
          ∗ (datG27 V a27 gblk c).owesAt () 0 ∗ XG27 V c ∗ ZG27 V c) : sProp 𝕄) := by
  have hrest := Pipeline.unscopedRest_split (Ix := Unit) (Name := ℕ) (U := Pipeline.UD sig nD τ) (Lvl := ℕ) preFacts27 c (V c)
  rw [hpf, Pipeline.unscopedRestP_sdiff pre27 spec27 H27 H27_sub c (V c)] at hrest
  rw [hrest] at hsplit
  iintro ⟨⟨Hub, Hp, HO⟩, Hs, -⟩
  ihave H := hsplit $$ Hub
  icases H with ⟨Ha, Ht, Hh, Hz⟩
  imodintro
  isplitl [Ha]; · iexact Ha
  isplitl [Ht]; · iexact Ht
  isplitl [HO]
  · unfold Pipeline.Dat.owesAt Pipeline.owesWithin
    icases HO with ⟨%W, HO⟩; iexists W; isplitr; · ipureintro; exact fun _ _ => Or.inl trivial
    iexact HO
  unfold XG27 ZG27
  isplitl [Hp Hs Hh]
  · isplitl [Hp]; · iexact Hp
    isplitl [Hs]; · iexact Hs
    iexact Hh
  iexact Hz

variable (Vn : (c : Dev nD) → (b : Ref sig .tc) → Buf (Elt F) ((c : Thread nD τ).loc b))

/-- EXIT. `hjoin` is the library's rejoining of the pipeline's array at its final contents with the rest, at this data. -/
theorem hexitG27 (c : Dev nD) (hpf : (fun k => V c (pre27.ref k)) = a27.1)
    (hjoin : iprop((datG27 V a27 gblk c).arrays ((datG27 V a27 gblk c).arrAt · (cfg27 a27).N) ∗ Pipeline.unscopedRest spec27 c (V c))
      ⊢ (unscopedBufs c (Vn c) : sProp 𝕄)) :
    iprop((datG27 V a27 gblk c).arrays ((datG27 V a27 gblk c).arrAt · (cfg27 a27).N)
        ∗ (datG27 V a27 gblk c).owesAt () (Fin.last (cfg27 a27).N) ∗ YG27 V a27 c ∗ ZG27 V c)
      ⊢ (|={Set.univ}=> iprop(unscopedBufs c (Vn c) ∗ (∃ r, prngReg c r) ∗ ∃ W, owes (c : Thread nD τ) (0 : CellTallies nD τ sig Unit) W) : sProp 𝕄) := by
  have hrest := Pipeline.unscopedRest_split (Ix := Unit) (Name := ℕ) (U := Pipeline.UD sig nD τ) (Lvl := ℕ) preFacts27 c (V c)
  rw [hpf, Pipeline.unscopedRestP_sdiff pre27 spec27 H27 H27_sub c (V c)] at hrest
  rw [hrest] at hjoin
  unfold YG27 ZG27
  iintro ⟨Ha, HO, ⟨Hp, Hh, Ht⟩, Hz⟩
  imodintro
  isplitl [Ha Hh Ht Hz]
  · iapply hjoin
    isplitl [Ha]; · iexact Ha
    isplitl [Ht]; · iexact Ht
    isplitl [Hh]; · iexact Hh
    iexact Hz
  isplitl [Hp]; · iexact Hp
  unfold Pipeline.Dat.owesAt Pipeline.owesWithin
  icases HO with ⟨%W, -, HO⟩; iexists W; iexact HO

end Cert.KernelIdeal.Hand

end
-- ==== Proof.KI.Gather28.lean ====
/-
  The row-gather region 28 of the kernel's program: its proof data and the facts the launch takes.

  Region 28 copies, at grid point t, the eight rows  A[tbl (8 t + j)]  (j < 8) of the 50000 x 128 array A it finds in
  HBM into the eight rows of its 8 x 128 output block; tbl is the region's index table of 100000 words, held in SMEM, and
  A is read only. So after the region the output array's row r is A's row tbl r. The body moves the rows by transfers
  of its own on eight semaphores of its own, all waited for before the point ends: between two points nothing is in
  flight, the table and A are as the region found them, and the semaphores are at zero. That is the region's invariant.
-/
import proofs.«402049_j87351044866139_2_alg».proof.Proof.Gen.KernelIdeal.Launch
import proofs.«402049_j87351044866139_2_alg».proof.Proof.Gen.KernelIdeal.Skeleton
import proofs.«402049_j87351044866139_2_alg».proof.Proof.Gen.KernelIdeal.Points
import Idealize.ShloMosaic.Lib.Pipeline.Frame
import Idealize.ShloMosaic.Lib.Pipeline.FrameBody
import Idealize.ShloMosaic.Lib.Pipeline.RegionsLoop
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.KernelIdeal Cert.KernelIdeal.Gen

variable {F : FTy → Type} [FloatOps F]

local notation "𝕄" => MT nD τ sig Unit (Elt F) ℕ (Pipeline.UD sig nD τ) ℕ

/-- The eight semaphores the body's row transfers signal. -/
abbrev osem28 : Fin 8 → SemLoc sig := fun j =>
  (![SemLoc.dma 268, SemLoc.dma 269, SemLoc.dma 270, SemLoc.dma 271, SemLoc.dma 272, SemLoc.dma 273, SemLoc.dma 274, SemLoc.dma 275] : Fin 8 → SemLoc sig) j
theorem ownSemFacts28 : Pipeline.OwnSemFacts spec28 osem28 := by decide

/-- The array the rows are read from: left in HBM, no window's array and no table. -/
def H28 : Finset (Ref sig .tc) := {main_v89}
theorem H28_sub : H28 ⊆ Pipeline.restRefsP sig pre28 spec28 := by decide

variable (V : (c : Dev nD) → (b : Ref sig .tc) → Buf (Elt F) ((c : Thread nD τ).loc b))
variable (a28 : (pcfg28 (F := F)).Adm)
variable (gblk : (c : Dev nD) → Fin (cfg28 a28).N → S8x128.Idx → Elt F .f32)

/-- The region's proof data on core c: the output array as the region finds it; after point t the output block holds
    the eight gathered rows; the invariant above; full shares; nothing owed. -/
def datG28 (c : Dev nD) : Dat τ (Elt F) Unit ℕ (Pipeline.UD sig nD τ) ℕ (cfg28 a28) c where
  A w := V c (Pipeline.arrRef spec28 w)
  after w t := match w with
    | ⟨0, _⟩ => gblk c t
  Φ _ := iprop(Pipeline.ΦD osem28 spec28 H28 V c ∗ Pipeline.prefHeld pre28 c (fun _ => fullShare) a28.1)
  q _ := fullShare
  owed _ := 0

theorem A_eqG28 (c : Dev nD) (w : Fin (cfg28 a28).W) : (datG28 V a28 gblk c).A w = V c (Pipeline.arrRef spec28 w) := by
  dsimp only [datG28]
theorem afterG28_0 (c : Dev nD) (t : Fin (cfg28 a28).N) : (datG28 V a28 gblk c).after 0 t = gblk c t := rfl

/-! ## The region's protocol around the thread states

  Between two items of the program core c holds every unscoped buffer whole, beside its generator register and a record
  that it owes nothing. Entering the region, the output array goes to the pipeline, the table is handed over at its
  contents, the array A and the eight semaphores join the register in what the invariant takes (X), and the other
  buffers wait outside (Z). Leaving it, everything comes back: A and the table as they were. -/

/-- What the invariant takes at the first point beside the table and the scoped buffers. -/
def XG28 (c : Dev nD) : sProp 𝕄 :=
  iprop((∃ r, prngReg c r)
    ∗ Pipeline.ownSems0 (Ix := Unit) (Name := ℕ) (U := Pipeline.UD sig nD τ) (Lvl := ℕ) (Val := Elt F) (τ := τ) osem28 c
    ∗ bigSep H28 fun b => ((c.tc : Thread nD τ).loc b) ↦{fullShare} V c b)
/-- What it gives back at the last point beside the semaphores and the scoped buffers. -/
def YG28 (c : Dev nD) : sProp 𝕄 :=
  iprop((∃ r, prngReg c r) ∗ (bigSep H28 fun b => ((c.tc : Thread nD τ).loc b) ↦{fullShare} V c b)
    ∗ Pipeline.prefHeld pre28 c (fun _ => fullShare) a28.1)
/-- The unscoped buffers the region does not touch. -/
def ZG28 (c : Dev nD) : sProp 𝕄 :=
  bigSep (Pipeline.restRefsP sig pre28 spec28 \ H28) fun b => ((c.tc : Thread nD τ).loc b) ↦{fullShare} V c b

theorem hinG28 (c : Dev nD) :
    iprop(XG28 V c ∗ Pipeline.prefHeld pre28 c (fun _ => fullShare) a28.1
        ∗ Pipeline.scopedRest (Ix := Unit) (Name := ℕ) (U := Pipeline.UD sig nD τ) (Lvl := ℕ) (Val := Elt F) spec28 c)
      ⊢ (datG28 V a28 gblk c).Φ 0 := by
  rw [show (datG28 V a28 gblk c).Φ 0 = iprop(Pipeline.ΦD osem28 spec28 H28 V c ∗ Pipeline.prefHeld pre28 c (fun _ => fullShare) a28.1) from rfl,
    Pipeline.ΦD_eq]
  unfold XG28
  iintro ⟨⟨Hp, Hs, Hh⟩, Ht, Hr⟩
  isplitl [Hr Hp Hs Hh]
  · isplitl [Hr]; · iexact Hr
    isplitl [Hp]; · iexact Hp
    isplitl [Hs]; · iexact Hs
    iexact Hh
  iexact Ht

theorem houtG28 (c : Dev nD) :
    (datG28 V a28 gblk c).Φ (Fin.last (cfg28 a28).N)
      ⊢ iprop(YG28 V a28 c
          ∗ Pipeline.ownSems0 (Ix := Unit) (Name := ℕ) (U := Pipeline.UD sig nD τ) (Lvl := ℕ) (Val := Elt F) (τ := τ) osem28 c
          ∗ Pipeline.scopedRest (Ix := Unit) (Name := ℕ) (U := Pipeline.UD sig nD τ) (Lvl := ℕ) (Val := Elt F) spec28 c) := by
  rw [show (datG28 V a28 gblk c).Φ (Fin.last (cfg28 a28).N) = iprop(Pipeline.ΦD osem28 spec28 H28 V c ∗ Pipeline.prefHeld pre28 c (fun _ => fullShare) a28.1) from rfl,
    Pipeline.ΦD_eq]
  unfold YG28
  iintro ⟨⟨Hr, Hp, Hs, Hh⟩, Ht⟩
  isplitl [Hp Hh Ht]
  · isplitl [Hp]; · iexact Hp
    isplitl [Hh]; · iexact Hh
    iexact Ht
  isplitl [Hs]; · iexact Hs
  iexact Hr

/-- ENTRY. `hsplit` is the library's split of the held buffers into the pipeline's array and the rest, at this data. -/
theorem hentryG28 (c : Dev nD) (hpf : (fun k => V c (pre28.ref k)) = a28.1)
    (hsplit : (unscopedBufs c (V c) : sProp 𝕄)
      ⊢ iprop((datG28 V a28 gblk c).arrays ((datG28 V a28 gblk c).arrAt · 0) ∗ Pipeline.unscopedRest spec28 c (V c))) :
    iprop((unscopedBufs c (V c) ∗ (∃ r, prngReg c r) ∗ ∃ W, owes (c : Thread nD τ) (0 : CellTallies nD τ sig Unit) W)
        ∗ Pipeline.ownSems0 (Ix := Unit) (Name := ℕ) (U := Pipeline.UD sig nD τ) (Lvl := ℕ) (Val := Elt F) (τ := τ) osem28 c
        ∗ levAts (fun _ : GSem nD τ sig => (∅ : Finset Unit)) (fun _ _ => (0 : ℕ)))
      ⊢ (|={Set.univ}=> iprop((datG28 V a28 gblk c).arrays ((datG28 V a28 gblk c).arrAt · 0)
          ∗ Pipeline.prefHeld pre28 c (fun _ => fullShare) a28.1
          ∗ (datG28 V a28 gblk c).owesAt () 0 ∗ XG28 V c ∗ ZG28 V c) : sProp 𝕄) := by
  have hrest := Pipeline.unscopedRest_split (Ix := Unit) (Name := ℕ) (U := Pipeline.UD sig nD τ) (Lvl := ℕ) preFacts28 c (V c)
  rw [hpf, Pipeline.unscopedRestP_sdiff pre28 spec28 H28 H28_sub c (V c)] at hrest
  rw [hrest] at hsplit
  iintro ⟨⟨Hub, Hp, HO⟩, Hs, -⟩
  ihave H := hsplit $$ Hub
  icases H with ⟨Ha, Ht, Hh, Hz⟩
  imodintro
  isplitl [Ha]; · iexact Ha
  isplitl [Ht]; · iexact Ht
  isplitl [HO]
  · unfold Pipeline.Dat.owesAt Pipeline.owesWithin
    icases HO with ⟨%W, HO⟩; iexists W; isplitr; · ipureintro; exact fun _ _ => Or.inl trivial
    iexact HO
  unfold XG28 ZG28
  isplitl [Hp Hs Hh]
  · isplitl [Hp]; · iexact Hp
    isplitl [Hs]; · iexact Hs
    iexact Hh
  iexact Hz

variable (Vn : (c : Dev nD) → (b : Ref sig .tc) → Buf (Elt F) ((c : Thread nD τ).loc b))

/-- EXIT. `hjoin` is the library's rejoining of the pipeline's array at its final contents with the rest, at this data. -/
theorem hexitG28 (c : Dev nD) (hpf : (fun k => V c (pre28.ref k)) = a28.1)
    (hjoin : iprop((datG28 V a28 gblk c).arrays ((datG28 V a28 gblk c).arrAt · (cfg28 a28).N) ∗ Pipeline.unscopedRest spec28 c (V c))
      ⊢ (unscopedBufs c (Vn c) : sProp 𝕄)) :
    iprop((datG28 V a28 gblk c).arrays ((datG28 V a28 gblk c).arrAt · (cfg28 a28).N)
        ∗ (datG28 V a28 gblk c).owesAt () (Fin.last (cfg28 a28).N) ∗ YG28 V a28 c ∗ ZG28 V c)
      ⊢ (|={Set.univ}=> iprop(unscopedBufs c (Vn c) ∗ (∃ r, prngReg c r) ∗ ∃ W, owes (c : Thread nD τ) (0 : CellTallies nD τ sig Unit) W) : sProp 𝕄) := by
  have hrest := Pipeline.unscopedRest_split (Ix := Unit) (Name := ℕ) (U := Pipeline.UD sig nD τ) (Lvl := ℕ) preFacts28 c (V c)
  rw [hpf, Pipeline.unscopedRestP_sdiff pre28 spec28 H28 H28_sub c (V c)] at hrest
  rw [hrest] at hjoin
  unfold YG28 ZG28
  iintro ⟨Ha, HO, ⟨Hp, Hh, Ht⟩, Hz⟩
  imodintro
  isplitl [Ha Hh Ht Hz]
  · iapply hjoin
    isplitl [Ha]; · iexact Ha
    isplitl [Ht]; · iexact Ht
    isplitl [Hh]; · iexact Hh
    iexact Hz
  isplitl [Hp]; · iexact Hp
  unfold Pipeline.Dat.owesAt Pipeline.owesWithin
  icases HO with ⟨%W, -, HO⟩; iexists W; iexact HO

end Cert.KernelIdeal.Hand

end
-- ==== Proof.KI.Gather29.lean ====
/-
  The row-gather region 29 of the kernel's program: its proof data and the facts the launch takes.

  Region 29 copies, at grid point t, the eight rows  A[tbl (8 t + j)]  (j < 8) of the 50000 x 128 array A it finds in
  HBM into the eight rows of its 8 x 128 output block; tbl is the region's index table of 100000 words, held in SMEM, and
  A is read only. So after the region the output array's row r is A's row tbl r. The body moves the rows by transfers
  of its own on eight semaphores of its own, all waited for before the point ends: between two points nothing is in
  flight, the table and A are as the region found them, and the semaphores are at zero. That is the region's invariant.
-/
import proofs.«402049_j87351044866139_2_alg».proof.Proof.Gen.KernelIdeal.Launch
import proofs.«402049_j87351044866139_2_alg».proof.Proof.Gen.KernelIdeal.Skeleton
import proofs.«402049_j87351044866139_2_alg».proof.Proof.Gen.KernelIdeal.Points
import Idealize.ShloMosaic.Lib.Pipeline.Frame
import Idealize.ShloMosaic.Lib.Pipeline.FrameBody
import Idealize.ShloMosaic.Lib.Pipeline.RegionsLoop
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.KernelIdeal Cert.KernelIdeal.Gen

variable {F : FTy → Type} [FloatOps F]

local notation "𝕄" => MT nD τ sig Unit (Elt F) ℕ (Pipeline.UD sig nD τ) ℕ

/-- The eight semaphores the body's row transfers signal. -/
abbrev osem29 : Fin 8 → SemLoc sig := fun j =>
  (![SemLoc.dma 278, SemLoc.dma 279, SemLoc.dma 280, SemLoc.dma 281, SemLoc.dma 282, SemLoc.dma 283, SemLoc.dma 284, SemLoc.dma 285] : Fin 8 → SemLoc sig) j
theorem ownSemFacts29 : Pipeline.OwnSemFacts spec29 osem29 := by decide

/-- The array the rows are read from: left in HBM, no window's array and no table. -/
def H29 : Finset (Ref sig .tc) := {main_v89}
theorem H29_sub : H29 ⊆ Pipeline.restRefsP sig pre29 spec29 := by decide

variable (V : (c : Dev nD) → (b : Ref sig .tc) → Buf (Elt F) ((c : Thread nD τ).loc b))
variable (a29 : (pcfg29 (F := F)).Adm)
variable (gblk : (c : Dev nD) → Fin (cfg29 a29).N → S8x128.Idx → Elt F .f32)

/-- The region's proof data on core c: the output array as the region finds it; after point t the output block holds
    the eight gathered rows; the invariant above; full shares; nothing owed. -/
def datG29 (c : Dev nD) : Dat τ (Elt F) Unit ℕ (Pipeline.UD sig nD τ) ℕ (cfg29 a29) c where
  A w := V c (Pipeline.arrRef spec29 w)
  after w t := match w with
    | ⟨0, _⟩ => gblk c t
  Φ _ := iprop(Pipeline.ΦD osem29 spec29 H29 V c ∗ Pipeline.prefHeld pre29 c (fun _ => fullShare) a29.1)
  q _ := fullShare
  owed _ := 0

theorem A_eqG29 (c : Dev nD) (w : Fin (cfg29 a29).W) : (datG29 V a29 gblk c).A w = V c (Pipeline.arrRef spec29 w) := by
  dsimp only [datG29]
theorem afterG29_0 (c : Dev nD) (t : Fin (cfg29 a29).N) : (datG29 V a29 gblk c).after 0 t = gblk c t := rfl

/-! ## The region's protocol around the thread states

  Between two items of the program core c holds every unscoped buffer whole, beside its generator register and a record
  that it owes nothing. Entering the region, the output array goes to the pipeline, the table is handed over at its
  contents, the array A and the eight semaphores join the register in what the invariant takes (X), and the other
  buffers wait outside (Z). Leaving it, everything comes back: A and the table as they were. -/

/-- What the invariant takes at the first point beside the table and the scoped buffers. -/
def XG29 (c : Dev nD) : sProp 𝕄 :=
  iprop((∃ r, prngReg c r)
    ∗ Pipeline.ownSems0 (Ix := Unit) (Name := ℕ) (U := Pipeline.UD sig nD τ) (Lvl := ℕ) (Val := Elt F) (τ := τ) osem29 c
    ∗ bigSep H29 fun b => ((c.tc : Thread nD τ).loc b) ↦{fullShare} V c b)
/-- What it gives back at the last point beside the semaphores and the scoped buffers. -/
def YG29 (c : Dev nD) : sProp 𝕄 :=
  iprop((∃ r, prngReg c r) ∗ (bigSep H29 fun b => ((c.tc : Thread nD τ).loc b) ↦{fullShare} V c b)
    ∗ Pipeline.prefHeld pre29 c (fun _ => fullShare) a29.1)
/-- The unscoped buffers the region does not touch. -/
def ZG29 (c : Dev nD) : sProp 𝕄 :=
  bigSep (Pipeline.restRefsP sig pre29 spec29 \ H29) fun b => ((c.tc : Thread nD τ).loc b) ↦{fullShare} V c b

theorem hinG29 (c : Dev nD) :
    iprop(XG29 V c ∗ Pipeline.prefHeld pre29 c (fun _ => fullShare) a29.1
        ∗ Pipeline.scopedRest (Ix := Unit) (Name := ℕ) (U := Pipeline.UD sig nD τ) (Lvl := ℕ) (Val := Elt F) spec29 c)
      ⊢ (datG29 V a29 gblk c).Φ 0 := by
  rw [show (datG29 V a29 gblk c).Φ 0 = iprop(Pipeline.ΦD osem29 spec29 H29 V c ∗ Pipeline.prefHeld pre29 c (fun _ => fullShare) a29.1) from rfl,
    Pipeline.ΦD_eq]
  unfold XG29
  iintro ⟨⟨Hp, Hs, Hh⟩, Ht, Hr⟩
  isplitl [Hr Hp Hs Hh]
  · isplitl [Hr]; · iexact Hr
    isplitl [Hp]; · iexact Hp
    isplitl [Hs]; · iexact Hs
    iexact Hh
  iexact Ht

theorem houtG29 (c : Dev nD) :
    (datG29 V a29 gblk c).Φ (Fin.last (cfg29 a29).N)
      ⊢ iprop(YG29 V a29 c
          ∗ Pipeline.ownSems0 (Ix := Unit) (Name := ℕ) (U := Pipeline.UD sig nD τ) (Lvl := ℕ) (Val := Elt F) (τ := τ) osem29 c
          ∗ Pipeline.scopedRest (Ix := Unit) (Name := ℕ) (U := Pipeline.UD sig nD τ) (Lvl := ℕ) (Val := Elt F) spec29 c) := by
  rw [show (datG29 V a29 gblk c).Φ (Fin.last (cfg29 a29).N) = iprop(Pipeline.ΦD osem29 spec29 H29 V c ∗ Pipeline.prefHeld pre29 c (fun _ => fullShare) a29.1) from rfl,
    Pipeline.ΦD_eq]
  unfold YG29
  iintro ⟨⟨Hr, Hp, Hs, Hh⟩, Ht⟩
  isplitl [Hp Hh Ht]
  · isplitl [Hp]; · iexact Hp
    isplitl [Hh]; · iexact Hh
    iexact Ht
  isplitl [Hs]; · iexact Hs
  iexact Hr

/-- ENTRY. `hsplit` is the library's split of the held buffers into the pipeline's array and the rest, at this data. -/
theorem hentryG29 (c : Dev nD) (hpf : (fun k => V c (pre29.ref k)) = a29.1)
    (hsplit : (unscopedBufs c (V c) : sProp 𝕄)
      ⊢ iprop((datG29 V a29 gblk c).arrays ((datG29 V a29 gblk c).arrAt · 0) ∗ Pipeline.unscopedRest spec29 c (V c))) :
    iprop((unscopedBufs c (V c) ∗ (∃ r, prngReg c r) ∗ ∃ W, owes (c : Thread nD τ) (0 : CellTallies nD τ sig Unit) W)
        ∗ Pipeline.ownSems0 (Ix := Unit) (Name := ℕ) (U := Pipeline.UD sig nD τ) (Lvl := ℕ) (Val := Elt F) (τ := τ) osem29 c
        ∗ levAts (fun _ : GSem nD τ sig => (∅ : Finset Unit)) (fun _ _ => (0 : ℕ)))
      ⊢ (|={Set.univ}=> iprop((datG29 V a29 gblk c).arrays ((datG29 V a29 gblk c).arrAt · 0)
          ∗ Pipeline.prefHeld pre29 c (fun _ => fullShare) a29.1
          ∗ (datG29 V a29 gblk c).owesAt () 0 ∗ XG29 V c ∗ ZG29 V c) : sProp 𝕄) := by
  have hrest := Pipeline.unscopedRest_split (Ix := Unit) (Name := ℕ) (U := Pipeline.UD sig nD τ) (Lvl := ℕ) preFacts29 c (V c)
  rw [hpf, Pipeline.unscopedRestP_sdiff pre29 spec29 H29 H29_sub c (V c)] at hrest
  rw [hrest] at hsplit
  iintro ⟨⟨Hub, Hp, HO⟩, Hs, -⟩
  ihave H := hsplit $$ Hub
  icases H with ⟨Ha, Ht, Hh, Hz⟩
  imodintro
  isplitl [Ha]; · iexact Ha
  isplitl [Ht]; · iexact Ht
  isplitl [HO]
  · unfold Pipeline.Dat.owesAt Pipeline.owesWithin
    icases HO with ⟨%W, HO⟩; iexists W; isplitr; · ipureintro; exact fun _ _ => Or.inl trivial
    iexact HO
  unfold XG29 ZG29
  isplitl [Hp Hs Hh]
  · isplitl [Hp]; · iexact Hp
    isplitl [Hs]; · iexact Hs
    iexact Hh
  iexact Hz

variable (Vn : (c : Dev nD) → (b : Ref sig .tc) → Buf (Elt F) ((c : Thread nD τ).loc b))

/-- EXIT. `hjoin` is the library's rejoining of the pipeline's array at its final contents with the rest, at this data. -/
theorem hexitG29 (c : Dev nD) (hpf : (fun k => V c (pre29.ref k)) = a29.1)
    (hjoin : iprop((datG29 V a29 gblk c).arrays ((datG29 V a29 gblk c).arrAt · (cfg29 a29).N) ∗ Pipeline.unscopedRest spec29 c (V c))
      ⊢ (unscopedBufs c (Vn c) : sProp 𝕄)) :
    iprop((datG29 V a29 gblk c).arrays ((datG29 V a29 gblk c).arrAt · (cfg29 a29).N)
        ∗ (datG29 V a29 gblk c).owesAt () (Fin.last (cfg29 a29).N) ∗ YG29 V a29 c ∗ ZG29 V c)
      ⊢ (|={Set.univ}=> iprop(unscopedBufs c (Vn c) ∗ (∃ r, prngReg c r) ∗ ∃ W, owes (c : Thread nD τ) (0 : CellTallies nD τ sig Unit) W) : sProp 𝕄) := by
  have hrest := Pipeline.unscopedRest_split (Ix := Unit) (Name := ℕ) (U := Pipeline.UD sig nD τ) (Lvl := ℕ) preFacts29 c (V c)
  rw [hpf, Pipeline.unscopedRestP_sdiff pre29 spec29 H29 H29_sub c (V c)] at hrest
  rw [hrest] at hjoin
  unfold YG29 ZG29
  iintro ⟨Ha, HO, ⟨Hp, Hh, Ht⟩, Hz⟩
  imodintro
  isplitl [Ha Hh Ht Hz]
  · iapply hjoin
    isplitl [Ha]; · iexact Ha
    isplitl [Ht]; · iexact Ht
    isplitl [Hh]; · iexact Hh
    iexact Hz
  isplitl [Hp]; · iexact Hp
  unfold Pipeline.Dat.owesAt Pipeline.owesWithin
  icases HO with ⟨%W, -, HO⟩; iexists W; iexact HO

end Cert.KernelIdeal.Hand

end
-- ==== Proof.KI.Gather30.lean ====
/-
  The row-gather region 30 of the kernel's program: its proof data and the facts the launch takes.

  Region 30 copies, at grid point t, the eight rows  A[tbl (8 t + j)]  (j < 8) of the 50000 x 128 array A it finds in
  HBM into the eight rows of its 8 x 128 output block; tbl is the region's index table of 100000 words, held in SMEM, and
  A is read only. So after the region the output array's row r is A's row tbl r. The body moves the rows by transfers
  of its own on eight semaphores of its own, all waited for before the point ends: between two points nothing is in
  flight, the table and A are as the region found them, and the semaphores are at zero. That is the region's invariant.
-/
import proofs.«402049_j87351044866139_2_alg».proof.Proof.Gen.KernelIdeal.Launch
import proofs.«402049_j87351044866139_2_alg».proof.Proof.Gen.KernelIdeal.Skeleton
import proofs.«402049_j87351044866139_2_alg».proof.Proof.Gen.KernelIdeal.Points
import Idealize.ShloMosaic.Lib.Pipeline.Frame
import Idealize.ShloMosaic.Lib.Pipeline.FrameBody
import Idealize.ShloMosaic.Lib.Pipeline.RegionsLoop
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.KernelIdeal Cert.KernelIdeal.Gen

variable {F : FTy → Type} [FloatOps F]

local notation "𝕄" => MT nD τ sig Unit (Elt F) ℕ (Pipeline.UD sig nD τ) ℕ

/-- The eight semaphores the body's row transfers signal. -/
abbrev osem30 : Fin 8 → SemLoc sig := fun j =>
  (![SemLoc.dma 288, SemLoc.dma 289, SemLoc.dma 290, SemLoc.dma 291, SemLoc.dma 292, SemLoc.dma 293, SemLoc.dma 294, SemLoc.dma 295] : Fin 8 → SemLoc sig) j
theorem ownSemFacts30 : Pipeline.OwnSemFacts spec30 osem30 := by decide

/-- The array the rows are read from: left in HBM, no window's array and no table. -/
def H30 : Finset (Ref sig .tc) := {main_v89}
theorem H30_sub : H30 ⊆ Pipeline.restRefsP sig pre30 spec30 := by decide

variable (V : (c : Dev nD) → (b : Ref sig .tc) → Buf (Elt F) ((c : Thread nD τ).loc b))
variable (a30 : (pcfg30 (F := F)).Adm)
variable (gblk : (c : Dev nD) → Fin (cfg30 a30).N → S8x128.Idx → Elt F .f32)

/-- The region's proof data on core c: the output array as the region finds it; after point t the output block holds
    the eight gathered rows; the invariant above; full shares; nothing owed. -/
def datG30 (c : Dev nD) : Dat τ (Elt F) Unit ℕ (Pipeline.UD sig nD τ) ℕ (cfg30 a30) c where
  A w := V c (Pipeline.arrRef spec30 w)
  after w t := match w with
    | ⟨0, _⟩ => gblk c t
  Φ _ := iprop(Pipeline.ΦD osem30 spec30 H30 V c ∗ Pipeline.prefHeld pre30 c (fun _ => fullShare) a30.1)
  q _ := fullShare
  owed _ := 0

theorem A_eqG30 (c : Dev nD) (w : Fin (cfg30 a30).W) : (datG30 V a30 gblk c).A w = V c (Pipeline.arrRef spec30 w) := by
  dsimp only [datG30]
theorem afterG30_0 (c : Dev nD) (t : Fin (cfg30 a30).N) : (datG30 V a30 gblk c).after 0 t = gblk c t := rfl

/-! ## The region's protocol around the thread states

  Between two items of the program core c holds every unscoped buffer whole, beside its generator register and a record
  that it owes nothing. Entering the region, the output array goes to the pipeline, the table is handed over at its
  contents, the array A and the eight semaphores join the register in what the invariant takes (X), and the other
  buffers wait outside (Z). Leaving it, everything comes back: A and the table as they were. -/

/-- What the invariant takes at the first point beside the table and the scoped buffers. -/
def XG30 (c : Dev nD) : sProp 𝕄 :=
  iprop((∃ r, prngReg c r)
    ∗ Pipeline.ownSems0 (Ix := Unit) (Name := ℕ) (U := Pipeline.UD sig nD τ) (Lvl := ℕ) (Val := Elt F) (τ := τ) osem30 c
    ∗ bigSep H30 fun b => ((c.tc : Thread nD τ).loc b) ↦{fullShare} V c b)
/-- What it gives back at the last point beside the semaphores and the scoped buffers. -/
def YG30 (c : Dev nD) : sProp 𝕄 :=
  iprop((∃ r, prngReg c r) ∗ (bigSep H30 fun b => ((c.tc : Thread nD τ).loc b) ↦{fullShare} V c b)
    ∗ Pipeline.prefHeld pre30 c (fun _ => fullShare) a30.1)
/-- The unscoped buffers the region does not touch. -/
def ZG30 (c : Dev nD) : sProp 𝕄 :=
  bigSep (Pipeline.restRefsP sig pre30 spec30 \ H30) fun b => ((c.tc : Thread nD τ).loc b) ↦{fullShare} V c b

theorem hinG30 (c : Dev nD) :
    iprop(XG30 V c ∗ Pipeline.prefHeld pre30 c (fun _ => fullShare) a30.1
        ∗ Pipeline.scopedRest (Ix := Unit) (Name := ℕ) (U := Pipeline.UD sig nD τ) (Lvl := ℕ) (Val := Elt F) spec30 c)
      ⊢ (datG30 V a30 gblk c).Φ 0 := by
  rw [show (datG30 V a30 gblk c).Φ 0 = iprop(Pipeline.ΦD osem30 spec30 H30 V c ∗ Pipeline.prefHeld pre30 c (fun _ => fullShare) a30.1) from rfl,
    Pipeline.ΦD_eq]
  unfold XG30
  iintro ⟨⟨Hp, Hs, Hh⟩, Ht, Hr⟩
  isplitl [Hr Hp Hs Hh]
  · isplitl [Hr]; · iexact Hr
    isplitl [Hp]; · iexact Hp
    isplitl [Hs]; · iexact Hs
    iexact Hh
  iexact Ht

theorem houtG30 (c : Dev nD) :
    (datG30 V a30 gblk c).Φ (Fin.last (cfg30 a30).N)
      ⊢ iprop(YG30 V a30 c
          ∗ Pipeline.ownSems0 (Ix := Unit) (Name := ℕ) (U := Pipeline.UD sig nD τ) (Lvl := ℕ) (Val := Elt F) (τ := τ) osem30 c
          ∗ Pipeline.scopedRest (Ix := Unit) (Name := ℕ) (U := Pipeline.UD sig nD τ) (Lvl := ℕ) (Val := Elt F) spec30 c) := by
  rw [show (datG30 V a30 gblk c).Φ (Fin.last (cfg30 a30).N) = iprop(Pipeline.ΦD osem30 spec30 H30 V c ∗ Pipeline.prefHeld pre30 c (fun _ => fullShare) a30.1) from rfl,
    Pipeline.ΦD_eq]
  unfold YG30
  iintro ⟨⟨Hr, Hp, Hs, Hh⟩, Ht⟩
  isplitl [Hp Hh Ht]
  · isplitl [Hp]; · iexact Hp
    isplitl [Hh]; · iexact Hh
    iexact Ht
  isplitl [Hs]; · iexact Hs
  iexact Hr

/-- ENTRY. `hsplit` is the library's split of the held buffers into the pipeline's array and the rest, at this data. -/
theorem hentryG30 (c : Dev nD) (hpf : (fun k => V c (pre30.ref k)) = a30.1)
    (hsplit : (unscopedBufs c (V c) : sProp 𝕄)
      ⊢ iprop((datG30 V a30 gblk c).arrays ((datG30 V a30 gblk c).arrAt · 0) ∗ Pipeline.unscopedRest spec30 c (V c))) :
    iprop((unscopedBufs c (V c) ∗ (∃ r, prngReg c r) ∗ ∃ W, owes (c : Thread nD τ) (0 : CellTallies nD τ sig Unit) W)
        ∗ Pipeline.ownSems0 (Ix := Unit) (Name := ℕ) (U := Pipeline.UD sig nD τ) (Lvl := ℕ) (Val := Elt F) (τ := τ) osem30 c
        ∗ levAts (fun _ : GSem nD τ sig => (∅ : Finset Unit)) (fun _ _ => (0 : ℕ)))
      ⊢ (|={Set.univ}=> iprop((datG30 V a30 gblk c).arrays ((datG30 V a30 gblk c).arrAt · 0)
          ∗ Pipeline.prefHeld pre30 c (fun _ => fullShare) a30.1
          ∗ (datG30 V a30 gblk c).owesAt () 0 ∗ XG30 V c ∗ ZG30 V c) : sProp 𝕄) := by
  have hrest := Pipeline.unscopedRest_split (Ix := Unit) (Name := ℕ) (U := Pipeline.UD sig nD τ) (Lvl := ℕ) preFacts30 c (V c)
  rw [hpf, Pipeline.unscopedRestP_sdiff pre30 spec30 H30 H30_sub c (V c)] at hrest
  rw [hrest] at hsplit
  iintro ⟨⟨Hub, Hp, HO⟩, Hs, -⟩
  ihave H := hsplit $$ Hub
  icases H with ⟨Ha, Ht, Hh, Hz⟩
  imodintro
  isplitl [Ha]; · iexact Ha
  isplitl [Ht]; · iexact Ht
  isplitl [HO]
  · unfold Pipeline.Dat.owesAt Pipeline.owesWithin
    icases HO with ⟨%W, HO⟩; iexists W; isplitr; · ipureintro; exact fun _ _ => Or.inl trivial
    iexact HO
  unfold XG30 ZG30
  isplitl [Hp Hs Hh]
  · isplitl [Hp]; · iexact Hp
    isplitl [Hs]; · iexact Hs
    iexact Hh
  iexact Hz

variable (Vn : (c : Dev nD) → (b : Ref sig .tc) → Buf (Elt F) ((c : Thread nD τ).loc b))

/-- EXIT. `hjoin` is the library's rejoining of the pipeline's array at its final contents with the rest, at this data. -/
theorem hexitG30 (c : Dev nD) (hpf : (fun k => V c (pre30.ref k)) = a30.1)
    (hjoin : iprop((datG30 V a30 gblk c).arrays ((datG30 V a30 gblk c).arrAt · (cfg30 a30).N) ∗ Pipeline.unscopedRest spec30 c (V c))
      ⊢ (unscopedBufs c (Vn c) : sProp 𝕄)) :
    iprop((datG30 V a30 gblk c).arrays ((datG30 V a30 gblk c).arrAt · (cfg30 a30).N)
        ∗ (datG30 V a30 gblk c).owesAt () (Fin.last (cfg30 a30).N) ∗ YG30 V a30 c ∗ ZG30 V c)
      ⊢ (|={Set.univ}=> iprop(unscopedBufs c (Vn c) ∗ (∃ r, prngReg c r) ∗ ∃ W, owes (c : Thread nD τ) (0 : CellTallies nD τ sig Unit) W) : sProp 𝕄) := by
  have hrest := Pipeline.unscopedRest_split (Ix := Unit) (Name := ℕ) (U := Pipeline.UD sig nD τ) (Lvl := ℕ) preFacts30 c (V c)
  rw [hpf, Pipeline.unscopedRestP_sdiff pre30 spec30 H30 H30_sub c (V c)] at hrest
  rw [hrest] at hjoin
  unfold YG30 ZG30
  iintro ⟨Ha, HO, ⟨Hp, Hh, Ht⟩, Hz⟩
  imodintro
  isplitl [Ha Hh Ht Hz]
  · iapply hjoin
    isplitl [Ha]; · iexact Ha
    isplitl [Ht]; · iexact Ht
    isplitl [Hh]; · iexact Hh
    iexact Hz
  isplitl [Hp]; · iexact Hp
  unfold Pipeline.Dat.owesAt Pipeline.owesWithin
  icases HO with ⟨%W, -, HO⟩; iexists W; iexact HO

end Cert.KernelIdeal.Hand

end
-- ==== Proof.KI.Gather31.lean ====
/-
  The row-gather region 31 of the kernel's program: its proof data and the facts the launch takes.

  Region 31 copies, at grid point t, the eight rows  A[tbl (8 t + j)]  (j < 8) of the 50000 x 128 array A it finds in
  HBM into the eight rows of its 8 x 128 output block; tbl is the region's index table of 100000 words, held in SMEM, and
  A is read only. So after the region the output array's row r is A's row tbl r. The body moves the rows by transfers
  of its own on eight semaphores of its own, all waited for before the point ends: between two points nothing is in
  flight, the table and A are as the region found them, and the semaphores are at zero. That is the region's invariant.
-/
import proofs.«402049_j87351044866139_2_alg».proof.Proof.Gen.KernelIdeal.Launch
import proofs.«402049_j87351044866139_2_alg».proof.Proof.Gen.KernelIdeal.Skeleton
import proofs.«402049_j87351044866139_2_alg».proof.Proof.Gen.KernelIdeal.Points
import Idealize.ShloMosaic.Lib.Pipeline.Frame
import Idealize.ShloMosaic.Lib.Pipeline.FrameBody
import Idealize.ShloMosaic.Lib.Pipeline.RegionsLoop
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.KernelIdeal Cert.KernelIdeal.Gen

variable {F : FTy → Type} [FloatOps F]

local notation "𝕄" => MT nD τ sig Unit (Elt F) ℕ (Pipeline.UD sig nD τ) ℕ

/-- The eight semaphores the body's row transfers signal. -/
abbrev osem31 : Fin 8 → SemLoc sig := fun j =>
  (![SemLoc.dma 298, SemLoc.dma 299, SemLoc.dma 300, SemLoc.dma 301, SemLoc.dma 302, SemLoc.dma 303, SemLoc.dma 304, SemLoc.dma 305] : Fin 8 → SemLoc sig) j
theorem ownSemFacts31 : Pipeline.OwnSemFacts spec31 osem31 := by decide

/-- The array the rows are read from: left in HBM, no window's array and no table. -/
def H31 : Finset (Ref sig .tc) := {main_v89}
theorem H31_sub : H31 ⊆ Pipeline.restRefsP sig pre31 spec31 := by decide

variable (V : (c : Dev nD) → (b : Ref sig .tc) → Buf (Elt F) ((c : Thread nD τ).loc b))
variable (a31 : (pcfg31 (F := F)).Adm)
variable (gblk : (c : Dev nD) → Fin (cfg31 a31).N → S8x128.Idx → Elt F .f32)

/-- The region's proof data on core c: the output array as the region finds it; after point t the output block holds
    the eight gathered rows; the invariant above; full shares; nothing owed. -/
def datG31 (c : Dev nD) : Dat τ (Elt F) Unit ℕ (Pipeline.UD sig nD τ) ℕ (cfg31 a31) c where
  A w := V c (Pipeline.arrRef spec31 w)
  after w t := match w with
    | ⟨0, _⟩ => gblk c t
  Φ _ := iprop(Pipeline.ΦD osem31 spec31 H31 V c ∗ Pipeline.prefHeld pre31 c (fun _ => fullShare) a31.1)
  q _ := fullShare
  owed _ := 0

theorem A_eqG31 (c : Dev nD) (w : Fin (cfg31 a31).W) : (datG31 V a31 gblk c).A w = V c (Pipeline.arrRef spec31 w) := by
  dsimp only [datG31]
theorem afterG31_0 (c : Dev nD) (t : Fin (cfg31 a31).N) : (datG31 V a31 gblk c).after 0 t = gblk c t := rfl

/-! ## The region's protocol around the thread states

  Between two items of the program core c holds every unscoped buffer whole, beside its generator register and a record
  that it owes nothing. Entering the region, the output array goes to the pipeline, the table is handed over at its
  contents, the array A and the eight semaphores join the register in what the invariant takes (X), and the other
  buffers wait outside (Z). Leaving it, everything comes back: A and the table as they were. -/

/-- What the invariant takes at the first point beside the table and the scoped buffers. -/
def XG31 (c : Dev nD) : sProp 𝕄 :=
  iprop((∃ r, prngReg c r)
    ∗ Pipeline.ownSems0 (Ix := Unit) (Name := ℕ) (U := Pipeline.UD sig nD τ) (Lvl := ℕ) (Val := Elt F) (τ := τ) osem31 c
    ∗ bigSep H31 fun b => ((c.tc : Thread nD τ).loc b) ↦{fullShare} V c b)
/-- What it gives back at the last point beside the semaphores and the scoped buffers. -/
def YG31 (c : Dev nD) : sProp 𝕄 :=
  iprop((∃ r, prngReg c r) ∗ (bigSep H31 fun b => ((c.tc : Thread nD τ).loc b) ↦{fullShare} V c b)
    ∗ Pipeline.prefHeld pre31 c (fun _ => fullShare) a31.1)
/-- The unscoped buffers the region does not touch. -/
def ZG31 (c : Dev nD) : sProp 𝕄 :=
  bigSep (Pipeline.restRefsP sig pre31 spec31 \ H31) fun b => ((c.tc : Thread nD τ).loc b) ↦{fullShare} V c b

theorem hinG31 (c : Dev nD) :
    iprop(XG31 V c ∗ Pipeline.prefHeld pre31 c (fun _ => fullShare) a31.1
        ∗ Pipeline.scopedRest (Ix := Unit) (Name := ℕ) (U := Pipeline.UD sig nD τ) (Lvl := ℕ) (Val := Elt F) spec31 c)
      ⊢ (datG31 V a31 gblk c).Φ 0 := by
  rw [show (datG31 V a31 gblk c).Φ 0 = iprop(Pipeline.ΦD osem31 spec31 H31 V c ∗ Pipeline.prefHeld pre31 c (fun _ => fullShare) a31.1) from rfl,
    Pipeline.ΦD_eq]
  unfold XG31
  iintro ⟨⟨Hp, Hs, Hh⟩, Ht, Hr⟩
  isplitl [Hr Hp Hs Hh]
  · isplitl [Hr]; · iexact Hr
    isplitl [Hp]; · iexact Hp
    isplitl [Hs]; · iexact Hs
    iexact Hh
  iexact Ht

theorem houtG31 (c : Dev nD) :
    (datG31 V a31 gblk c).Φ (Fin.last (cfg31 a31).N)
      ⊢ iprop(YG31 V a31 c
          ∗ Pipeline.ownSems0 (Ix := Unit) (Name := ℕ) (U := Pipeline.UD sig nD τ) (Lvl := ℕ) (Val := Elt F) (τ := τ) osem31 c
          ∗ Pipeline.scopedRest (Ix := Unit) (Name := ℕ) (U := Pipeline.UD sig nD τ) (Lvl := ℕ) (Val := Elt F) spec31 c) := by
  rw [show (datG31 V a31 gblk c).Φ (Fin.last (cfg31 a31).N) = iprop(Pipeline.ΦD osem31 spec31 H31 V c ∗ Pipeline.prefHeld pre31 c (fun _ => fullShare) a31.1) from rfl,
    Pipeline.ΦD_eq]
  unfold YG31
  iintro ⟨⟨Hr, Hp, Hs, Hh⟩, Ht⟩
  isplitl [Hp Hh Ht]
  · isplitl [Hp]; · iexact Hp
    isplitl [Hh]; · iexact Hh
    iexact Ht
  isplitl [Hs]; · iexact Hs
  iexact Hr

/-- ENTRY. `hsplit` is the library's split of the held buffers into the pipeline's array and the rest, at this data. -/
theorem hentryG31 (c : Dev nD) (hpf : (fun k => V c (pre31.ref k)) = a31.1)
    (hsplit : (unscopedBufs c (V c) : sProp 𝕄)
      ⊢ iprop((datG31 V a31 gblk c).arrays ((datG31 V a31 gblk c).arrAt · 0) ∗ Pipeline.unscopedRest spec31 c (V c))) :
    iprop((unscopedBufs c (V c) ∗ (∃ r, prngReg c r) ∗ ∃ W, owes (c : Thread nD τ) (0 : CellTallies nD τ sig Unit) W)
        ∗ Pipeline.ownSems0 (Ix := Unit) (Name := ℕ) (U := Pipeline.UD sig nD τ) (Lvl := ℕ) (Val := Elt F) (τ := τ) osem31 c
        ∗ levAts (fun _ : GSem nD τ sig => (∅ : Finset Unit)) (fun _ _ => (0 : ℕ)))
      ⊢ (|={Set.univ}=> iprop((datG31 V a31 gblk c).arrays ((datG31 V a31 gblk c).arrAt · 0)
          ∗ Pipeline.prefHeld pre31 c (fun _ => fullShare) a31.1
          ∗ (datG31 V a31 gblk c).owesAt () 0 ∗ XG31 V c ∗ ZG31 V c) : sProp 𝕄) := by
  have hrest := Pipeline.unscopedRest_split (Ix := Unit) (Name := ℕ) (U := Pipeline.UD sig nD τ) (Lvl := ℕ) preFacts31 c (V c)
  rw [hpf, Pipeline.unscopedRestP_sdiff pre31 spec31 H31 H31_sub c (V c)] at hrest
  rw [hrest] at hsplit
  iintro ⟨⟨Hub, Hp, HO⟩, Hs, -⟩
  ihave H := hsplit $$ Hub
  icases H with ⟨Ha, Ht, Hh, Hz⟩
  imodintro
  isplitl [Ha]; · iexact Ha
  isplitl [Ht]; · iexact Ht
  isplitl [HO]
  · unfold Pipeline.Dat.owesAt Pipeline.owesWithin
    icases HO with ⟨%W, HO⟩; iexists W; isplitr; · ipureintro; exact fun _ _ => Or.inl trivial
    iexact HO
  unfold XG31 ZG31
  isplitl [Hp Hs Hh]
  · isplitl [Hp]; · iexact Hp
    isplitl [Hs]; · iexact Hs
    iexact Hh
  iexact Hz

variable (Vn : (c : Dev nD) → (b : Ref sig .tc) → Buf (Elt F) ((c : Thread nD τ).loc b))

/-- EXIT. `hjoin` is the library's rejoining of the pipeline's array at its final contents with the rest, at this data. -/
theorem hexitG31 (c : Dev nD) (hpf : (fun k => V c (pre31.ref k)) = a31.1)
    (hjoin : iprop((datG31 V a31 gblk c).arrays ((datG31 V a31 gblk c).arrAt · (cfg31 a31).N) ∗ Pipeline.unscopedRest spec31 c (V c))
      ⊢ (unscopedBufs c (Vn c) : sProp 𝕄)) :
    iprop((datG31 V a31 gblk c).arrays ((datG31 V a31 gblk c).arrAt · (cfg31 a31).N)
        ∗ (datG31 V a31 gblk c).owesAt () (Fin.last (cfg31 a31).N) ∗ YG31 V a31 c ∗ ZG31 V c)
      ⊢ (|={Set.univ}=> iprop(unscopedBufs c (Vn c) ∗ (∃ r, prngReg c r) ∗ ∃ W, owes (c : Thread nD τ) (0 : CellTallies nD τ sig Unit) W) : sProp 𝕄) := by
  have hrest := Pipeline.unscopedRest_split (Ix := Unit) (Name := ℕ) (U := Pipeline.UD sig nD τ) (Lvl := ℕ) preFacts31 c (V c)
  rw [hpf, Pipeline.unscopedRestP_sdiff pre31 spec31 H31 H31_sub c (V c)] at hrest
  rw [hrest] at hjoin
  unfold YG31 ZG31
  iintro ⟨Ha, HO, ⟨Hp, Hh, Ht⟩, Hz⟩
  imodintro
  isplitl [Ha Hh Ht Hz]
  · iapply hjoin
    isplitl [Ha]; · iexact Ha
    isplitl [Ht]; · iexact Ht
    isplitl [Hh]; · iexact Hh
    iexact Hz
  isplitl [Hp]; · iexact Hp
  unfold Pipeline.Dat.owesAt Pipeline.owesWithin
  icases HO with ⟨%W, -, HO⟩; iexists W; iexact HO

end Cert.KernelIdeal.Hand

end
-- ==== Proof.KI.Gather32.lean ====
/-
  The row-gather region 32 of the kernel's program: its proof data and the facts the launch takes.

  Region 32 copies, at grid point t, the eight rows  A[tbl (8 t + j)]  (j < 8) of the 50000 x 128 array A it finds in
  HBM into the eight rows of its 8 x 128 output block; tbl is the region's index table of 100000 words, held in SMEM, and
  A is read only. So after the region the output array's row r is A's row tbl r. The body moves the rows by transfers
  of its own on eight semaphores of its own, all waited for before the point ends: between two points nothing is in
  flight, the table and A are as the region found them, and the semaphores are at zero. That is the region's invariant.
-/
import proofs.«402049_j87351044866139_2_alg».proof.Proof.Gen.KernelIdeal.Launch
import proofs.«402049_j87351044866139_2_alg».proof.Proof.Gen.KernelIdeal.Skeleton
import proofs.«402049_j87351044866139_2_alg».proof.Proof.Gen.KernelIdeal.Points
import Idealize.ShloMosaic.Lib.Pipeline.Frame
import Idealize.ShloMosaic.Lib.Pipeline.FrameBody
import Idealize.ShloMosaic.Lib.Pipeline.RegionsLoop
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.KernelIdeal Cert.KernelIdeal.Gen

variable {F : FTy → Type} [FloatOps F]

local notation "𝕄" => MT nD τ sig Unit (Elt F) ℕ (Pipeline.UD sig nD τ) ℕ

/-- The eight semaphores the body's row transfers signal. -/
abbrev osem32 : Fin 8 → SemLoc sig := fun j =>
  (![SemLoc.dma 308, SemLoc.dma 309, SemLoc.dma 310, SemLoc.dma 311, SemLoc.dma 312, SemLoc.dma 313, SemLoc.dma 314, SemLoc.dma 315] : Fin 8 → SemLoc sig) j
theorem ownSemFacts32 : Pipeline.OwnSemFacts spec32 osem32 := by decide

/-- The array the rows are read from: left in HBM, no window's array and no table. -/
def H32 : Finset (Ref sig .tc) := {main_v89}
theorem H32_sub : H32 ⊆ Pipeline.restRefsP sig pre32 spec32 := by decide

variable (V : (c : Dev nD) → (b : Ref sig .tc) → Buf (Elt F) ((c : Thread nD τ).loc b))
variable (a32 : (pcfg32 (F := F)).Adm)
variable (gblk : (c : Dev nD) → Fin (cfg32 a32).N → S8x128.Idx → Elt F .f32)

/-- The region's proof data on core c: the output array as the region finds it; after point t the output block holds
    the eight gathered rows; the invariant above; full shares; nothing owed. -/
def datG32 (c : Dev nD) : Dat τ (Elt F) Unit ℕ (Pipeline.UD sig nD τ) ℕ (cfg32 a32) c where
  A w := V c (Pipeline.arrRef spec32 w)
  after w t := match w with
    | ⟨0, _⟩ => gblk c t
  Φ _ := iprop(Pipeline.ΦD osem32 spec32 H32 V c ∗ Pipeline.prefHeld pre32 c (fun _ => fullShare) a32.1)
  q _ := fullShare
  owed _ := 0

theorem A_eqG32 (c : Dev nD) (w : Fin (cfg32 a32).W) : (datG32 V a32 gblk c).A w = V c (Pipeline.arrRef spec32 w) := by
  dsimp only [datG32]
theorem afterG32_0 (c : Dev nD) (t : Fin (cfg32 a32).N) : (datG32 V a32 gblk c).after 0 t = gblk c t := rfl

/-! ## The region's protocol around the thread states

  Between two items of the program core c holds every unscoped buffer whole, beside its generator register and a record
  that it owes nothing. Entering the region, the output array goes to the pipeline, the table is handed over at its
  contents, the array A and the eight semaphores join the register in what the invariant takes (X), and the other
  buffers wait outside (Z). Leaving it, everything comes back: A and the table as they were. -/

/-- What the invariant takes at the first point beside the table and the scoped buffers. -/
def XG32 (c : Dev nD) : sProp 𝕄 :=
  iprop((∃ r, prngReg c r)
    ∗ Pipeline.ownSems0 (Ix := Unit) (Name := ℕ) (U := Pipeline.UD sig nD τ) (Lvl := ℕ) (Val := Elt F) (τ := τ) osem32 c
    ∗ bigSep H32 fun b => ((c.tc : Thread nD τ).loc b) ↦{fullShare} V c b)
/-- What it gives back at the last point beside the semaphores and the scoped buffers. -/
def YG32 (c : Dev nD) : sProp 𝕄 :=
  iprop((∃ r, prngReg c r) ∗ (bigSep H32 fun b => ((c.tc : Thread nD τ).loc b) ↦{fullShare} V c b)
    ∗ Pipeline.prefHeld pre32 c (fun _ => fullShare) a32.1)
/-- The unscoped buffers the region does not touch. -/
def ZG32 (c : Dev nD) : sProp 𝕄 :=
  bigSep (Pipeline.restRefsP sig pre32 spec32 \ H32) fun b => ((c.tc : Thread nD τ).loc b) ↦{fullShare} V c b

theorem hinG32 (c : Dev nD) :
    iprop(XG32 V c ∗ Pipeline.prefHeld pre32 c (fun _ => fullShare) a32.1
        ∗ Pipeline.scopedRest (Ix := Unit) (Name := ℕ) (U := Pipeline.UD sig nD τ) (Lvl := ℕ) (Val := Elt F) spec32 c)
      ⊢ (datG32 V a32 gblk c).Φ 0 := by
  rw [show (datG32 V a32 gblk c).Φ 0 = iprop(Pipeline.ΦD osem32 spec32 H32 V c ∗ Pipeline.prefHeld pre32 c (fun _ => fullShare) a32.1) from rfl,
    Pipeline.ΦD_eq]
  unfold XG32
  iintro ⟨⟨Hp, Hs, Hh⟩, Ht, Hr⟩
  isplitl [Hr Hp Hs Hh]
  · isplitl [Hr]; · iexact Hr
    isplitl [Hp]; · iexact Hp
    isplitl [Hs]; · iexact Hs
    iexact Hh
  iexact Ht

theorem houtG32 (c : Dev nD) :
    (datG32 V a32 gblk c).Φ (Fin.last (cfg32 a32).N)
      ⊢ iprop(YG32 V a32 c
          ∗ Pipeline.ownSems0 (Ix := Unit) (Name := ℕ) (U := Pipeline.UD sig nD τ) (Lvl := ℕ) (Val := Elt F) (τ := τ) osem32 c
          ∗ Pipeline.scopedRest (Ix := Unit) (Name := ℕ) (U := Pipeline.UD sig nD τ) (Lvl := ℕ) (Val := Elt F) spec32 c) := by
  rw [show (datG32 V a32 gblk c).Φ (Fin.last (cfg32 a32).N) = iprop(Pipeline.ΦD osem32 spec32 H32 V c ∗ Pipeline.prefHeld pre32 c (fun _ => fullShare) a32.1) from rfl,
    Pipeline.ΦD_eq]
  unfold YG32
  iintro ⟨⟨Hr, Hp, Hs, Hh⟩, Ht⟩
  isplitl [Hp Hh Ht]
  · isplitl [Hp]; · iexact Hp
    isplitl [Hh]; · iexact Hh
    iexact Ht
  isplitl [Hs]; · iexact Hs
  iexact Hr

/-- ENTRY. `hsplit` is the library's split of the held buffers into the pipeline's array and the rest, at this data. -/
theorem hentryG32 (c : Dev nD) (hpf : (fun k => V c (pre32.ref k)) = a32.1)
    (hsplit : (unscopedBufs c (V c) : sProp 𝕄)
      ⊢ iprop((datG32 V a32 gblk c).arrays ((datG32 V a32 gblk c).arrAt · 0) ∗ Pipeline.unscopedRest spec32 c (V c))) :
    iprop((unscopedBufs c (V c) ∗ (∃ r, prngReg c r) ∗ ∃ W, owes (c : Thread nD τ) (0 : CellTallies nD τ sig Unit) W)
        ∗ Pipeline.ownSems0 (Ix := Unit) (Name := ℕ) (U := Pipeline.UD sig nD τ) (Lvl := ℕ) (Val := Elt F) (τ := τ) osem32 c
        ∗ levAts (fun _ : GSem nD τ sig => (∅ : Finset Unit)) (fun _ _ => (0 : ℕ)))
      ⊢ (|={Set.univ}=> iprop((datG32 V a32 gblk c).arrays ((datG32 V a32 gblk c).arrAt · 0)
          ∗ Pipeline.prefHeld pre32 c (fun _ => fullShare) a32.1
          ∗ (datG32 V a32 gblk c).owesAt () 0 ∗ XG32 V c ∗ ZG32 V c) : sProp 𝕄) := by
  have hrest := Pipeline.unscopedRest_split (Ix := Unit) (Name := ℕ) (U := Pipeline.UD sig nD τ) (Lvl := ℕ) preFacts32 c (V c)
  rw [hpf, Pipeline.unscopedRestP_sdiff pre32 spec32 H32 H32_sub c (V c)] at hrest
  rw [hrest] at hsplit
  iintro ⟨⟨Hub, Hp, HO⟩, Hs, -⟩
  ihave H := hsplit $$ Hub
  icases H with ⟨Ha, Ht, Hh, Hz⟩
  imodintro
  isplitl [Ha]; · iexact Ha
  isplitl [Ht]; · iexact Ht
  isplitl [HO]
  · unfold Pipeline.Dat.owesAt Pipeline.owesWithin
    icases HO with ⟨%W, HO⟩; iexists W; isplitr; · ipureintro; exact fun _ _ => Or.inl trivial
    iexact HO
  unfold XG32 ZG32
  isplitl [Hp Hs Hh]
  · isplitl [Hp]; · iexact Hp
    isplitl [Hs]; · iexact Hs
    iexact Hh
  iexact Hz

variable (Vn : (c : Dev nD) → (b : Ref sig .tc) → Buf (Elt F) ((c : Thread nD τ).loc b))

/-- EXIT. `hjoin` is the library's rejoining of the pipeline's array at its final contents with the rest, at this data. -/
theorem hexitG32 (c : Dev nD) (hpf : (fun k => V c (pre32.ref k)) = a32.1)
    (hjoin : iprop((datG32 V a32 gblk c).arrays ((datG32 V a32 gblk c).arrAt · (cfg32 a32).N) ∗ Pipeline.unscopedRest spec32 c (V c))
      ⊢ (unscopedBufs c (Vn c) : sProp 𝕄)) :
    iprop((datG32 V a32 gblk c).arrays ((datG32 V a32 gblk c).arrAt · (cfg32 a32).N)
        ∗ (datG32 V a32 gblk c).owesAt () (Fin.last (cfg32 a32).N) ∗ YG32 V a32 c ∗ ZG32 V c)
      ⊢ (|={Set.univ}=> iprop(unscopedBufs c (Vn c) ∗ (∃ r, prngReg c r) ∗ ∃ W, owes (c : Thread nD τ) (0 : CellTallies nD τ sig Unit) W) : sProp 𝕄) := by
  have hrest := Pipeline.unscopedRest_split (Ix := Unit) (Name := ℕ) (U := Pipeline.UD sig nD τ) (Lvl := ℕ) preFacts32 c (V c)
  rw [hpf, Pipeline.unscopedRestP_sdiff pre32 spec32 H32 H32_sub c (V c)] at hrest
  rw [hrest] at hjoin
  unfold YG32 ZG32
  iintro ⟨Ha, HO, ⟨Hp, Hh, Ht⟩, Hz⟩
  imodintro
  isplitl [Ha Hh Ht Hz]
  · iapply hjoin
    isplitl [Ha]; · iexact Ha
    isplitl [Ht]; · iexact Ht
    isplitl [Hh]; · iexact Hh
    iexact Hz
  isplitl [Hp]; · iexact Hp
  unfold Pipeline.Dat.owesAt Pipeline.owesWithin
  icases HO with ⟨%W, -, HO⟩; iexists W; iexact HO

end Cert.KernelIdeal.Hand

end
-- ==== Proof.KI.Gather33.lean ====
/-
  The row-gather region 33 of the kernel's program: its proof data and the facts the launch takes.

  Region 33 copies, at grid point t, the eight rows  A[tbl (8 t + j)]  (j < 8) of the 50000 x 128 array A it finds in
  HBM into the eight rows of its 8 x 128 output block; tbl is the region's index table of 100000 words, held in SMEM, and
  A is read only. So after the region the output array's row r is A's row tbl r. The body moves the rows by transfers
  of its own on eight semaphores of its own, all waited for before the point ends: between two points nothing is in
  flight, the table and A are as the region found them, and the semaphores are at zero. That is the region's invariant.
-/
import proofs.«402049_j87351044866139_2_alg».proof.Proof.Gen.KernelIdeal.Launch
import proofs.«402049_j87351044866139_2_alg».proof.Proof.Gen.KernelIdeal.Skeleton
import proofs.«402049_j87351044866139_2_alg».proof.Proof.Gen.KernelIdeal.Points
import Idealize.ShloMosaic.Lib.Pipeline.Frame
import Idealize.ShloMosaic.Lib.Pipeline.FrameBody
import Idealize.ShloMosaic.Lib.Pipeline.RegionsLoop
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.KernelIdeal Cert.KernelIdeal.Gen

variable {F : FTy → Type} [FloatOps F]

local notation "𝕄" => MT nD τ sig Unit (Elt F) ℕ (Pipeline.UD sig nD τ) ℕ

/-- The eight semaphores the body's row transfers signal. -/
abbrev osem33 : Fin 8 → SemLoc sig := fun j =>
  (![SemLoc.dma 318, SemLoc.dma 319, SemLoc.dma 320, SemLoc.dma 321, SemLoc.dma 322, SemLoc.dma 323, SemLoc.dma 324, SemLoc.dma 325] : Fin 8 → SemLoc sig) j
theorem ownSemFacts33 : Pipeline.OwnSemFacts spec33 osem33 := by decide

/-- The array the rows are read from: left in HBM, no window's array and no table. -/
def H33 : Finset (Ref sig .tc) := {main_v89}
theorem H33_sub : H33 ⊆ Pipeline.restRefsP sig pre33 spec33 := by decide

variable (V : (c : Dev nD) → (b : Ref sig .tc) → Buf (Elt F) ((c : Thread nD τ).loc b))
variable (a33 : (pcfg33 (F := F)).Adm)
variable (gblk : (c : Dev nD) → Fin (cfg33 a33).N → S8x128.Idx → Elt F .f32)

/-- The region's proof data on core c: the output array as the region finds it; after point t the output block holds
    the eight gathered rows; the invariant above; full shares; nothing owed. -/
def datG33 (c : Dev nD) : Dat τ (Elt F) Unit ℕ (Pipeline.UD sig nD τ) ℕ (cfg33 a33) c where
  A w := V c (Pipeline.arrRef spec33 w)
  after w t := match w with
    | ⟨0, _⟩ => gblk c t
  Φ _ := iprop(Pipeline.ΦD osem33 spec33 H33 V c ∗ Pipeline.prefHeld pre33 c (fun _ => fullShare) a33.1)
  q _ := fullShare
  owed _ := 0

theorem A_eqG33 (c : Dev nD) (w : Fin (cfg33 a33).W) : (datG33 V a33 gblk c).A w = V c (Pipeline.arrRef spec33 w) := by
  dsimp only [datG33]
theorem afterG33_0 (c : Dev nD) (t : Fin (cfg33 a33).N) : (datG33 V a33 gblk c).after 0 t = gblk c t := rfl

/-! ## The region's protocol around the thread states

  Between two items of the program core c holds every unscoped buffer whole, beside its generator register and a record
  that it owes nothing. Entering the region, the output array goes to the pipeline, the table is handed over at its
  contents, the array A and the eight semaphores join the register in what the invariant takes (X), and the other
  buffers wait outside (Z). Leaving it, everything comes back: A and the table as they were. -/

/-- What the invariant takes at the first point beside the table and the scoped buffers. -/
def XG33 (c : Dev nD) : sProp 𝕄 :=
  iprop((∃ r, prngReg c r)
    ∗ Pipeline.ownSems0 (Ix := Unit) (Name := ℕ) (U := Pipeline.UD sig nD τ) (Lvl := ℕ) (Val := Elt F) (τ := τ) osem33 c
    ∗ bigSep H33 fun b => ((c.tc : Thread nD τ).loc b) ↦{fullShare} V c b)
/-- What it gives back at the last point beside the semaphores and the scoped buffers. -/
def YG33 (c : Dev nD) : sProp 𝕄 :=
  iprop((∃ r, prngReg c r) ∗ (bigSep H33 fun b => ((c.tc : Thread nD τ).loc b) ↦{fullShare} V c b)
    ∗ Pipeline.prefHeld pre33 c (fun _ => fullShare) a33.1)
/-- The unscoped buffers the region does not touch. -/
def ZG33 (c : Dev nD) : sProp 𝕄 :=
  bigSep (Pipeline.restRefsP sig pre33 spec33 \ H33) fun b => ((c.tc : Thread nD τ).loc b) ↦{fullShare} V c b

theorem hinG33 (c : Dev nD) :
    iprop(XG33 V c ∗ Pipeline.prefHeld pre33 c (fun _ => fullShare) a33.1
        ∗ Pipeline.scopedRest (Ix := Unit) (Name := ℕ) (U := Pipeline.UD sig nD τ) (Lvl := ℕ) (Val := Elt F) spec33 c)
      ⊢ (datG33 V a33 gblk c).Φ 0 := by
  rw [show (datG33 V a33 gblk c).Φ 0 = iprop(Pipeline.ΦD osem33 spec33 H33 V c ∗ Pipeline.prefHeld pre33 c (fun _ => fullShare) a33.1) from rfl,
    Pipeline.ΦD_eq]
  unfold XG33
  iintro ⟨⟨Hp, Hs, Hh⟩, Ht, Hr⟩
  isplitl [Hr Hp Hs Hh]
  · isplitl [Hr]; · iexact Hr
    isplitl [Hp]; · iexact Hp
    isplitl [Hs]; · iexact Hs
    iexact Hh
  iexact Ht

theorem houtG33 (c : Dev nD) :
    (datG33 V a33 gblk c).Φ (Fin.last (cfg33 a33).N)
      ⊢ iprop(YG33 V a33 c
          ∗ Pipeline.ownSems0 (Ix := Unit) (Name := ℕ) (U := Pipeline.UD sig nD τ) (Lvl := ℕ) (Val := Elt F) (τ := τ) osem33 c
          ∗ Pipeline.scopedRest (Ix := Unit) (Name := ℕ) (U := Pipeline.UD sig nD τ) (Lvl := ℕ) (Val := Elt F) spec33 c) := by
  rw [show (datG33 V a33 gblk c).Φ (Fin.last (cfg33 a33).N) = iprop(Pipeline.ΦD osem33 spec33 H33 V c ∗ Pipeline.prefHeld pre33 c (fun _ => fullShare) a33.1) from rfl,
    Pipeline.ΦD_eq]
  unfold YG33
  iintro ⟨⟨Hr, Hp, Hs, Hh⟩, Ht⟩
  isplitl [Hp Hh Ht]
  · isplitl [Hp]; · iexact Hp
    isplitl [Hh]; · iexact Hh
    iexact Ht
  isplitl [Hs]; · iexact Hs
  iexact Hr

/-- ENTRY. `hsplit` is the library's split of the held buffers into the pipeline's array and the rest, at this data. -/
theorem hentryG33 (c : Dev nD) (hpf : (fun k => V c (pre33.ref k)) = a33.1)
    (hsplit : (unscopedBufs c (V c) : sProp 𝕄)
      ⊢ iprop((datG33 V a33 gblk c).arrays ((datG33 V a33 gblk c).arrAt · 0) ∗ Pipeline.unscopedRest spec33 c (V c))) :
    iprop((unscopedBufs c (V c) ∗ (∃ r, prngReg c r) ∗ ∃ W, owes (c : Thread nD τ) (0 : CellTallies nD τ sig Unit) W)
        ∗ Pipeline.ownSems0 (Ix := Unit) (Name := ℕ) (U := Pipeline.UD sig nD τ) (Lvl := ℕ) (Val := Elt F) (τ := τ) osem33 c
        ∗ levAts (fun _ : GSem nD τ sig => (∅ : Finset Unit)) (fun _ _ => (0 : ℕ)))
      ⊢ (|={Set.univ}=> iprop((datG33 V a33 gblk c).arrays ((datG33 V a33 gblk c).arrAt · 0)
          ∗ Pipeline.prefHeld pre33 c (fun _ => fullShare) a33.1
          ∗ (datG33 V a33 gblk c).owesAt () 0 ∗ XG33 V c ∗ ZG33 V c) : sProp 𝕄) := by
  have hrest := Pipeline.unscopedRest_split (Ix := Unit) (Name := ℕ) (U := Pipeline.UD sig nD τ) (Lvl := ℕ) preFacts33 c (V c)
  rw [hpf, Pipeline.unscopedRestP_sdiff pre33 spec33 H33 H33_sub c (V c)] at hrest
  rw [hrest] at hsplit
  iintro ⟨⟨Hub, Hp, HO⟩, Hs, -⟩
  ihave H := hsplit $$ Hub
  icases H with ⟨Ha, Ht, Hh, Hz⟩
  imodintro
  isplitl [Ha]; · iexact Ha
  isplitl [Ht]; · iexact Ht
  isplitl [HO]
  · unfold Pipeline.Dat.owesAt Pipeline.owesWithin
    icases HO with ⟨%W, HO⟩; iexists W; isplitr; · ipureintro; exact fun _ _ => Or.inl trivial
    iexact HO
  unfold XG33 ZG33
  isplitl [Hp Hs Hh]
  · isplitl [Hp]; · iexact Hp
    isplitl [Hs]; · iexact Hs
    iexact Hh
  iexact Hz

variable (Vn : (c : Dev nD) → (b : Ref sig .tc) → Buf (Elt F) ((c : Thread nD τ).loc b))

/-- EXIT. `hjoin` is the library's rejoining of the pipeline's array at its final contents with the rest, at this data. -/
theorem hexitG33 (c : Dev nD) (hpf : (fun k => V c (pre33.ref k)) = a33.1)
    (hjoin : iprop((datG33 V a33 gblk c).arrays ((datG33 V a33 gblk c).arrAt · (cfg33 a33).N) ∗ Pipeline.unscopedRest spec33 c (V c))
      ⊢ (unscopedBufs c (Vn c) : sProp 𝕄)) :
    iprop((datG33 V a33 gblk c).arrays ((datG33 V a33 gblk c).arrAt · (cfg33 a33).N)
        ∗ (datG33 V a33 gblk c).owesAt () (Fin.last (cfg33 a33).N) ∗ YG33 V a33 c ∗ ZG33 V c)
      ⊢ (|={Set.univ}=> iprop(unscopedBufs c (Vn c) ∗ (∃ r, prngReg c r) ∗ ∃ W, owes (c : Thread nD τ) (0 : CellTallies nD τ sig Unit) W) : sProp 𝕄) := by
  have hrest := Pipeline.unscopedRest_split (Ix := Unit) (Name := ℕ) (U := Pipeline.UD sig nD τ) (Lvl := ℕ) preFacts33 c (V c)
  rw [hpf, Pipeline.unscopedRestP_sdiff pre33 spec33 H33 H33_sub c (V c)] at hrest
  rw [hrest] at hjoin
  unfold YG33 ZG33
  iintro ⟨Ha, HO, ⟨Hp, Hh, Ht⟩, Hz⟩
  imodintro
  isplitl [Ha Hh Ht Hz]
  · iapply hjoin
    isplitl [Ha]; · iexact Ha
    isplitl [Ht]; · iexact Ht
    isplitl [Hh]; · iexact Hh
    iexact Hz
  isplitl [Hp]; · iexact Hp
  unfold Pipeline.Dat.owesAt Pipeline.owesWithin
  icases HO with ⟨%W, -, HO⟩; iexists W; iexact HO

end Cert.KernelIdeal.Hand

end
-- ==== Proof.KI.Gather34.lean ====
/-
  The row-gather region 34 of the kernel's program: its proof data and the facts the launch takes.

  Region 34 copies, at grid point t, the eight rows  A[tbl (8 t + j)]  (j < 8) of the 50000 x 128 array A it finds in
  HBM into the eight rows of its 8 x 128 output block; tbl is the region's index table of 100000 words, held in SMEM, and
  A is read only. So after the region the output array's row r is A's row tbl r. The body moves the rows by transfers
  of its own on eight semaphores of its own, all waited for before the point ends: between two points nothing is in
  flight, the table and A are as the region found them, and the semaphores are at zero. That is the region's invariant.
-/
import proofs.«402049_j87351044866139_2_alg».proof.Proof.Gen.KernelIdeal.Launch
import proofs.«402049_j87351044866139_2_alg».proof.Proof.Gen.KernelIdeal.Skeleton
import proofs.«402049_j87351044866139_2_alg».proof.Proof.Gen.KernelIdeal.Points
import Idealize.ShloMosaic.Lib.Pipeline.Frame
import Idealize.ShloMosaic.Lib.Pipeline.FrameBody
import Idealize.ShloMosaic.Lib.Pipeline.RegionsLoop
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.KernelIdeal Cert.KernelIdeal.Gen

variable {F : FTy → Type} [FloatOps F]

local notation "𝕄" => MT nD τ sig Unit (Elt F) ℕ (Pipeline.UD sig nD τ) ℕ

/-- The eight semaphores the body's row transfers signal. -/
abbrev osem34 : Fin 8 → SemLoc sig := fun j =>
  (![SemLoc.dma 328, SemLoc.dma 329, SemLoc.dma 330, SemLoc.dma 331, SemLoc.dma 332, SemLoc.dma 333, SemLoc.dma 334, SemLoc.dma 335] : Fin 8 → SemLoc sig) j
theorem ownSemFacts34 : Pipeline.OwnSemFacts spec34 osem34 := by decide

/-- The array the rows are read from: left in HBM, no window's array and no table. -/
def H34 : Finset (Ref sig .tc) := {main_v89}
theorem H34_sub : H34 ⊆ Pipeline.restRefsP sig pre34 spec34 := by decide

variable (V : (c : Dev nD) → (b : Ref sig .tc) → Buf (Elt F) ((c : Thread nD τ).loc b))
variable (a34 : (pcfg34 (F := F)).Adm)
variable (gblk : (c : Dev nD) → Fin (cfg34 a34).N → S8x128.Idx → Elt F .f32)

/-- The region's proof data on core c: the output array as the region finds it; after point t the output block holds
    the eight gathered rows; the invariant above; full shares; nothing owed. -/
def datG34 (c : Dev nD) : Dat τ (Elt F) Unit ℕ (Pipeline.UD sig nD τ) ℕ (cfg34 a34) c where
  A w := V c (Pipeline.arrRef spec34 w)
  after w t := match w with
    | ⟨0, _⟩ => gblk c t
  Φ _ := iprop(Pipeline.ΦD osem34 spec34 H34 V c ∗ Pipeline.prefHeld pre34 c (fun _ => fullShare) a34.1)
  q _ := fullShare
  owed _ := 0

theorem A_eqG34 (c : Dev nD) (w : Fin (cfg34 a34).W) : (datG34 V a34 gblk c).A w = V c (Pipeline.arrRef spec34 w) := by
  dsimp only [datG34]
theorem afterG34_0 (c : Dev nD) (t : Fin (cfg34 a34).N) : (datG34 V a34 gblk c).after 0 t = gblk c t := rfl

/-! ## The region's protocol around the thread states

  Between two items of the program core c holds every unscoped buffer whole, beside its generator register and a record
  that it owes nothing. Entering the region, the output array goes to the pipeline, the table is handed over at its
  contents, the array A and the eight semaphores join the register in what the invariant takes (X), and the other
  buffers wait outside (Z). Leaving it, everything comes back: A and the table as they were. -/

/-- What the invariant takes at the first point beside the table and the scoped buffers. -/
def XG34 (c : Dev nD) : sProp 𝕄 :=
  iprop((∃ r, prngReg c r)
    ∗ Pipeline.ownSems0 (Ix := Unit) (Name := ℕ) (U := Pipeline.UD sig nD τ) (Lvl := ℕ) (Val := Elt F) (τ := τ) osem34 c
    ∗ bigSep H34 fun b => ((c.tc : Thread nD τ).loc b) ↦{fullShare} V c b)
/-- What it gives back at the last point beside the semaphores and the scoped buffers. -/
def YG34 (c : Dev nD) : sProp 𝕄 :=
  iprop((∃ r, prngReg c r) ∗ (bigSep H34 fun b => ((c.tc : Thread nD τ).loc b) ↦{fullShare} V c b)
    ∗ Pipeline.prefHeld pre34 c (fun _ => fullShare) a34.1)
/-- The unscoped buffers the region does not touch. -/
def ZG34 (c : Dev nD) : sProp 𝕄 :=
  bigSep (Pipeline.restRefsP sig pre34 spec34 \ H34) fun b => ((c.tc : Thread nD τ).loc b) ↦{fullShare} V c b

theorem hinG34 (c : Dev nD) :
    iprop(XG34 V c ∗ Pipeline.prefHeld pre34 c (fun _ => fullShare) a34.1
        ∗ Pipeline.scopedRest (Ix := Unit) (Name := ℕ) (U := Pipeline.UD sig nD τ) (Lvl := ℕ) (Val := Elt F) spec34 c)
      ⊢ (datG34 V a34 gblk c).Φ 0 := by
  rw [show (datG34 V a34 gblk c).Φ 0 = iprop(Pipeline.ΦD osem34 spec34 H34 V c ∗ Pipeline.prefHeld pre34 c (fun _ => fullShare) a34.1) from rfl,
    Pipeline.ΦD_eq]
  unfold XG34
  iintro ⟨⟨Hp, Hs, Hh⟩, Ht, Hr⟩
  isplitl [Hr Hp Hs Hh]
  · isplitl [Hr]; · iexact Hr
    isplitl [Hp]; · iexact Hp
    isplitl [Hs]; · iexact Hs
    iexact Hh
  iexact Ht

theorem houtG34 (c : Dev nD) :
    (datG34 V a34 gblk c).Φ (Fin.last (cfg34 a34).N)
      ⊢ iprop(YG34 V a34 c
          ∗ Pipeline.ownSems0 (Ix := Unit) (Name := ℕ) (U := Pipeline.UD sig nD τ) (Lvl := ℕ) (Val := Elt F) (τ := τ) osem34 c
          ∗ Pipeline.scopedRest (Ix := Unit) (Name := ℕ) (U := Pipeline.UD sig nD τ) (Lvl := ℕ) (Val := Elt F) spec34 c) := by
  rw [show (datG34 V a34 gblk c).Φ (Fin.last (cfg34 a34).N) = iprop(Pipeline.ΦD osem34 spec34 H34 V c ∗ Pipeline.prefHeld pre34 c (fun _ => fullShare) a34.1) from rfl,
    Pipeline.ΦD_eq]
  unfold YG34
  iintro ⟨⟨Hr, Hp, Hs, Hh⟩, Ht⟩
  isplitl [Hp Hh Ht]
  · isplitl [Hp]; · iexact Hp
    isplitl [Hh]; · iexact Hh
    iexact Ht
  isplitl [Hs]; · iexact Hs
  iexact Hr

/-- ENTRY. `hsplit` is the library's split of the held buffers into the pipeline's array and the rest, at this data. -/
theorem hentryG34 (c : Dev nD) (hpf : (fun k => V c (pre34.ref k)) = a34.1)
    (hsplit : (unscopedBufs c (V c) : sProp 𝕄)
      ⊢ iprop((datG34 V a34 gblk c).arrays ((datG34 V a34 gblk c).arrAt · 0) ∗ Pipeline.unscopedRest spec34 c (V c))) :
    iprop((unscopedBufs c (V c) ∗ (∃ r, prngReg c r) ∗ ∃ W, owes (c : Thread nD τ) (0 : CellTallies nD τ sig Unit) W)
        ∗ Pipeline.ownSems0 (Ix := Unit) (Name := ℕ) (U := Pipeline.UD sig nD τ) (Lvl := ℕ) (Val := Elt F) (τ := τ) osem34 c
        ∗ levAts (fun _ : GSem nD τ sig => (∅ : Finset Unit)) (fun _ _ => (0 : ℕ)))
      ⊢ (|={Set.univ}=> iprop((datG34 V a34 gblk c).arrays ((datG34 V a34 gblk c).arrAt · 0)
          ∗ Pipeline.prefHeld pre34 c (fun _ => fullShare) a34.1
          ∗ (datG34 V a34 gblk c).owesAt () 0 ∗ XG34 V c ∗ ZG34 V c) : sProp 𝕄) := by
  have hrest := Pipeline.unscopedRest_split (Ix := Unit) (Name := ℕ) (U := Pipeline.UD sig nD τ) (Lvl := ℕ) preFacts34 c (V c)
  rw [hpf, Pipeline.unscopedRestP_sdiff pre34 spec34 H34 H34_sub c (V c)] at hrest
  rw [hrest] at hsplit
  iintro ⟨⟨Hub, Hp, HO⟩, Hs, -⟩
  ihave H := hsplit $$ Hub
  icases H with ⟨Ha, Ht, Hh, Hz⟩
  imodintro
  isplitl [Ha]; · iexact Ha
  isplitl [Ht]; · iexact Ht
  isplitl [HO]
  · unfold Pipeline.Dat.owesAt Pipeline.owesWithin
    icases HO with ⟨%W, HO⟩; iexists W; isplitr; · ipureintro; exact fun _ _ => Or.inl trivial
    iexact HO
  unfold XG34 ZG34
  isplitl [Hp Hs Hh]
  · isplitl [Hp]; · iexact Hp
    isplitl [Hs]; · iexact Hs
    iexact Hh
  iexact Hz

variable (Vn : (c : Dev nD) → (b : Ref sig .tc) → Buf (Elt F) ((c : Thread nD τ).loc b))

/-- EXIT. `hjoin` is the library's rejoining of the pipeline's array at its final contents with the rest, at this data. -/
theorem hexitG34 (c : Dev nD) (hpf : (fun k => V c (pre34.ref k)) = a34.1)
    (hjoin : iprop((datG34 V a34 gblk c).arrays ((datG34 V a34 gblk c).arrAt · (cfg34 a34).N) ∗ Pipeline.unscopedRest spec34 c (V c))
      ⊢ (unscopedBufs c (Vn c) : sProp 𝕄)) :
    iprop((datG34 V a34 gblk c).arrays ((datG34 V a34 gblk c).arrAt · (cfg34 a34).N)
        ∗ (datG34 V a34 gblk c).owesAt () (Fin.last (cfg34 a34).N) ∗ YG34 V a34 c ∗ ZG34 V c)
      ⊢ (|={Set.univ}=> iprop(unscopedBufs c (Vn c) ∗ (∃ r, prngReg c r) ∗ ∃ W, owes (c : Thread nD τ) (0 : CellTallies nD τ sig Unit) W) : sProp 𝕄) := by
  have hrest := Pipeline.unscopedRest_split (Ix := Unit) (Name := ℕ) (U := Pipeline.UD sig nD τ) (Lvl := ℕ) preFacts34 c (V c)
  rw [hpf, Pipeline.unscopedRestP_sdiff pre34 spec34 H34 H34_sub c (V c)] at hrest
  rw [hrest] at hjoin
  unfold YG34 ZG34
  iintro ⟨Ha, HO, ⟨Hp, Hh, Ht⟩, Hz⟩
  imodintro
  isplitl [Ha Hh Ht Hz]
  · iapply hjoin
    isplitl [Ha]; · iexact Ha
    isplitl [Ht]; · iexact Ht
    isplitl [Hh]; · iexact Hh
    iexact Hz
  isplitl [Hp]; · iexact Hp
  unfold Pipeline.Dat.owesAt Pipeline.owesWithin
  icases HO with ⟨%W, -, HO⟩; iexists W; iexact HO

end Cert.KernelIdeal.Hand

end
-- ==== Proof.KI.Gather35.lean ====
/-
  The row-gather region 35 of the kernel's program: its proof data and the facts the launch takes.

  Region 35 copies, at grid point t, the eight rows  A[tbl (8 t + j)]  (j < 8) of the 50000 x 128 array A it finds in
  HBM into the eight rows of its 8 x 128 output block; tbl is the region's index table of 100000 words, held in SMEM, and
  A is read only. So after the region the output array's row r is A's row tbl r. The body moves the rows by transfers
  of its own on eight semaphores of its own, all waited for before the point ends: between two points nothing is in
  flight, the table and A are as the region found them, and the semaphores are at zero. That is the region's invariant.
-/
import proofs.«402049_j87351044866139_2_alg».proof.Proof.Gen.KernelIdeal.Launch
import proofs.«402049_j87351044866139_2_alg».proof.Proof.Gen.KernelIdeal.Skeleton
import proofs.«402049_j87351044866139_2_alg».proof.Proof.Gen.KernelIdeal.Points
import Idealize.ShloMosaic.Lib.Pipeline.Frame
import Idealize.ShloMosaic.Lib.Pipeline.FrameBody
import Idealize.ShloMosaic.Lib.Pipeline.RegionsLoop
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.KernelIdeal Cert.KernelIdeal.Gen

variable {F : FTy → Type} [FloatOps F]

local notation "𝕄" => MT nD τ sig Unit (Elt F) ℕ (Pipeline.UD sig nD τ) ℕ

/-- The eight semaphores the body's row transfers signal. -/
abbrev osem35 : Fin 8 → SemLoc sig := fun j =>
  (![SemLoc.dma 338, SemLoc.dma 339, SemLoc.dma 340, SemLoc.dma 341, SemLoc.dma 342, SemLoc.dma 343, SemLoc.dma 344, SemLoc.dma 345] : Fin 8 → SemLoc sig) j
theorem ownSemFacts35 : Pipeline.OwnSemFacts spec35 osem35 := by decide

/-- The array the rows are read from: left in HBM, no window's array and no table. -/
def H35 : Finset (Ref sig .tc) := {main_v89}
theorem H35_sub : H35 ⊆ Pipeline.restRefsP sig pre35 spec35 := by decide

variable (V : (c : Dev nD) → (b : Ref sig .tc) → Buf (Elt F) ((c : Thread nD τ).loc b))
variable (a35 : (pcfg35 (F := F)).Adm)
variable (gblk : (c : Dev nD) → Fin (cfg35 a35).N → S8x128.Idx → Elt F .f32)

/-- The region's proof data on core c: the output array as the region finds it; after point t the output block holds
    the eight gathered rows; the invariant above; full shares; nothing owed. -/
def datG35 (c : Dev nD) : Dat τ (Elt F) Unit ℕ (Pipeline.UD sig nD τ) ℕ (cfg35 a35) c where
  A w := V c (Pipeline.arrRef spec35 w)
  after w t := match w with
    | ⟨0, _⟩ => gblk c t
  Φ _ := iprop(Pipeline.ΦD osem35 spec35 H35 V c ∗ Pipeline.prefHeld pre35 c (fun _ => fullShare) a35.1)
  q _ := fullShare
  owed _ := 0

theorem A_eqG35 (c : Dev nD) (w : Fin (cfg35 a35).W) : (datG35 V a35 gblk c).A w = V c (Pipeline.arrRef spec35 w) := by
  dsimp only [datG35]
theorem afterG35_0 (c : Dev nD) (t : Fin (cfg35 a35).N) : (datG35 V a35 gblk c).after 0 t = gblk c t := rfl

/-! ## The region's protocol around the thread states

  Between two items of the program core c holds every unscoped buffer whole, beside its generator register and a record
  that it owes nothing. Entering the region, the output array goes to the pipeline, the table is handed over at its
  contents, the array A and the eight semaphores join the register in what the invariant takes (X), and the other
  buffers wait outside (Z). Leaving it, everything comes back: A and the table as they were. -/

/-- What the invariant takes at the first point beside the table and the scoped buffers. -/
def XG35 (c : Dev nD) : sProp 𝕄 :=
  iprop((∃ r, prngReg c r)
    ∗ Pipeline.ownSems0 (Ix := Unit) (Name := ℕ) (U := Pipeline.UD sig nD τ) (Lvl := ℕ) (Val := Elt F) (τ := τ) osem35 c
    ∗ bigSep H35 fun b => ((c.tc : Thread nD τ).loc b) ↦{fullShare} V c b)
/-- What it gives back at the last point beside the semaphores and the scoped buffers. -/
def YG35 (c : Dev nD) : sProp 𝕄 :=
  iprop((∃ r, prngReg c r) ∗ (bigSep H35 fun b => ((c.tc : Thread nD τ).loc b) ↦{fullShare} V c b)
    ∗ Pipeline.prefHeld pre35 c (fun _ => fullShare) a35.1)
/-- The unscoped buffers the region does not touch. -/
def ZG35 (c : Dev nD) : sProp 𝕄 :=
  bigSep (Pipeline.restRefsP sig pre35 spec35 \ H35) fun b => ((c.tc : Thread nD τ).loc b) ↦{fullShare} V c b

theorem hinG35 (c : Dev nD) :
    iprop(XG35 V c ∗ Pipeline.prefHeld pre35 c (fun _ => fullShare) a35.1
        ∗ Pipeline.scopedRest (Ix := Unit) (Name := ℕ) (U := Pipeline.UD sig nD τ) (Lvl := ℕ) (Val := Elt F) spec35 c)
      ⊢ (datG35 V a35 gblk c).Φ 0 := by
  rw [show (datG35 V a35 gblk c).Φ 0 = iprop(Pipeline.ΦD osem35 spec35 H35 V c ∗ Pipeline.prefHeld pre35 c (fun _ => fullShare) a35.1) from rfl,
    Pipeline.ΦD_eq]
  unfold XG35
  iintro ⟨⟨Hp, Hs, Hh⟩, Ht, Hr⟩
  isplitl [Hr Hp Hs Hh]
  · isplitl [Hr]; · iexact Hr
    isplitl [Hp]; · iexact Hp
    isplitl [Hs]; · iexact Hs
    iexact Hh
  iexact Ht

theorem houtG35 (c : Dev nD) :
    (datG35 V a35 gblk c).Φ (Fin.last (cfg35 a35).N)
      ⊢ iprop(YG35 V a35 c
          ∗ Pipeline.ownSems0 (Ix := Unit) (Name := ℕ) (U := Pipeline.UD sig nD τ) (Lvl := ℕ) (Val := Elt F) (τ := τ) osem35 c
          ∗ Pipeline.scopedRest (Ix := Unit) (Name := ℕ) (U := Pipeline.UD sig nD τ) (Lvl := ℕ) (Val := Elt F) spec35 c) := by
  rw [show (datG35 V a35 gblk c).Φ (Fin.last (cfg35 a35).N) = iprop(Pipeline.ΦD osem35 spec35 H35 V c ∗ Pipeline.prefHeld pre35 c (fun _ => fullShare) a35.1) from rfl,
    Pipeline.ΦD_eq]
  unfold YG35
  iintro ⟨⟨Hr, Hp, Hs, Hh⟩, Ht⟩
  isplitl [Hp Hh Ht]
  · isplitl [Hp]; · iexact Hp
    isplitl [Hh]; · iexact Hh
    iexact Ht
  isplitl [Hs]; · iexact Hs
  iexact Hr

/-- ENTRY. `hsplit` is the library's split of the held buffers into the pipeline's array and the rest, at this data. -/
theorem hentryG35 (c : Dev nD) (hpf : (fun k => V c (pre35.ref k)) = a35.1)
    (hsplit : (unscopedBufs c (V c) : sProp 𝕄)
      ⊢ iprop((datG35 V a35 gblk c).arrays ((datG35 V a35 gblk c).arrAt · 0) ∗ Pipeline.unscopedRest spec35 c (V c))) :
    iprop((unscopedBufs c (V c) ∗ (∃ r, prngReg c r) ∗ ∃ W, owes (c : Thread nD τ) (0 : CellTallies nD τ sig Unit) W)
        ∗ Pipeline.ownSems0 (Ix := Unit) (Name := ℕ) (U := Pipeline.UD sig nD τ) (Lvl := ℕ) (Val := Elt F) (τ := τ) osem35 c
        ∗ levAts (fun _ : GSem nD τ sig => (∅ : Finset Unit)) (fun _ _ => (0 : ℕ)))
      ⊢ (|={Set.univ}=> iprop((datG35 V a35 gblk c).arrays ((datG35 V a35 gblk c).arrAt · 0)
          ∗ Pipeline.prefHeld pre35 c (fun _ => fullShare) a35.1
          ∗ (datG35 V a35 gblk c).owesAt () 0 ∗ XG35 V c ∗ ZG35 V c) : sProp 𝕄) := by
  have hrest := Pipeline.unscopedRest_split (Ix := Unit) (Name := ℕ) (U := Pipeline.UD sig nD τ) (Lvl := ℕ) preFacts35 c (V c)
  rw [hpf, Pipeline.unscopedRestP_sdiff pre35 spec35 H35 H35_sub c (V c)] at hrest
  rw [hrest] at hsplit
  iintro ⟨⟨Hub, Hp, HO⟩, Hs, -⟩
  ihave H := hsplit $$ Hub
  icases H with ⟨Ha, Ht, Hh, Hz⟩
  imodintro
  isplitl [Ha]; · iexact Ha
  isplitl [Ht]; · iexact Ht
  isplitl [HO]
  · unfold Pipeline.Dat.owesAt Pipeline.owesWithin
    icases HO with ⟨%W, HO⟩; iexists W; isplitr; · ipureintro; exact fun _ _ => Or.inl trivial
    iexact HO
  unfold XG35 ZG35
  isplitl [Hp Hs Hh]
  · isplitl [Hp]; · iexact Hp
    isplitl [Hs]; · iexact Hs
    iexact Hh
  iexact Hz

variable (Vn : (c : Dev nD) → (b : Ref sig .tc) → Buf (Elt F) ((c : Thread nD τ).loc b))

/-- EXIT. `hjoin` is the library's rejoining of the pipeline's array at its final contents with the rest, at this data. -/
theorem hexitG35 (c : Dev nD) (hpf : (fun k => V c (pre35.ref k)) = a35.1)
    (hjoin : iprop((datG35 V a35 gblk c).arrays ((datG35 V a35 gblk c).arrAt · (cfg35 a35).N) ∗ Pipeline.unscopedRest spec35 c (V c))
      ⊢ (unscopedBufs c (Vn c) : sProp 𝕄)) :
    iprop((datG35 V a35 gblk c).arrays ((datG35 V a35 gblk c).arrAt · (cfg35 a35).N)
        ∗ (datG35 V a35 gblk c).owesAt () (Fin.last (cfg35 a35).N) ∗ YG35 V a35 c ∗ ZG35 V c)
      ⊢ (|={Set.univ}=> iprop(unscopedBufs c (Vn c) ∗ (∃ r, prngReg c r) ∗ ∃ W, owes (c : Thread nD τ) (0 : CellTallies nD τ sig Unit) W) : sProp 𝕄) := by
  have hrest := Pipeline.unscopedRest_split (Ix := Unit) (Name := ℕ) (U := Pipeline.UD sig nD τ) (Lvl := ℕ) preFacts35 c (V c)
  rw [hpf, Pipeline.unscopedRestP_sdiff pre35 spec35 H35 H35_sub c (V c)] at hrest
  rw [hrest] at hjoin
  unfold YG35 ZG35
  iintro ⟨Ha, HO, ⟨Hp, Hh, Ht⟩, Hz⟩
  imodintro
  isplitl [Ha Hh Ht Hz]
  · iapply hjoin
    isplitl [Ha]; · iexact Ha
    isplitl [Ht]; · iexact Ht
    isplitl [Hh]; · iexact Hh
    iexact Hz
  isplitl [Hp]; · iexact Hp
  unfold Pipeline.Dat.owesAt Pipeline.owesWithin
  icases HO with ⟨%W, -, HO⟩; iexists W; iexact HO

end Cert.KernelIdeal.Hand

end
-- ==== Proof.KI.Gather36.lean ====
/-
  The row-gather region 36 of the kernel's program: its proof data and the facts the launch takes.

  Region 36 copies, at grid point t, the eight rows  A[tbl (8 t + j)]  (j < 8) of the 50000 x 128 array A it finds in
  HBM into the eight rows of its 8 x 128 output block; tbl is the region's index table of 100000 words, held in SMEM, and
  A is read only. So after the region the output array's row r is A's row tbl r. The body moves the rows by transfers
  of its own on eight semaphores of its own, all waited for before the point ends: between two points nothing is in
  flight, the table and A are as the region found them, and the semaphores are at zero. That is the region's invariant.
-/
import proofs.«402049_j87351044866139_2_alg».proof.Proof.Gen.KernelIdeal.Launch
import proofs.«402049_j87351044866139_2_alg».proof.Proof.Gen.KernelIdeal.Skeleton
import proofs.«402049_j87351044866139_2_alg».proof.Proof.Gen.KernelIdeal.Points
import Idealize.ShloMosaic.Lib.Pipeline.Frame
import Idealize.ShloMosaic.Lib.Pipeline.FrameBody
import Idealize.ShloMosaic.Lib.Pipeline.RegionsLoop
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.KernelIdeal Cert.KernelIdeal.Gen

variable {F : FTy → Type} [FloatOps F]

local notation "𝕄" => MT nD τ sig Unit (Elt F) ℕ (Pipeline.UD sig nD τ) ℕ

/-- The eight semaphores the body's row transfers signal. -/
abbrev osem36 : Fin 8 → SemLoc sig := fun j =>
  (![SemLoc.dma 348, SemLoc.dma 349, SemLoc.dma 350, SemLoc.dma 351, SemLoc.dma 352, SemLoc.dma 353, SemLoc.dma 354, SemLoc.dma 355] : Fin 8 → SemLoc sig) j
theorem ownSemFacts36 : Pipeline.OwnSemFacts spec36 osem36 := by decide

/-- The array the rows are read from: left in HBM, no window's array and no table. -/
def H36 : Finset (Ref sig .tc) := {main_v89}
theorem H36_sub : H36 ⊆ Pipeline.restRefsP sig pre36 spec36 := by decide

variable (V : (c : Dev nD) → (b : Ref sig .tc) → Buf (Elt F) ((c : Thread nD τ).loc b))
variable (a36 : (pcfg36 (F := F)).Adm)
variable (gblk : (c : Dev nD) → Fin (cfg36 a36).N → S8x128.Idx → Elt F .f32)

/-- The region's proof data on core c: the output array as the region finds it; after point t the output block holds
    the eight gathered rows; the invariant above; full shares; nothing owed. -/
def datG36 (c : Dev nD) : Dat τ (Elt F) Unit ℕ (Pipeline.UD sig nD τ) ℕ (cfg36 a36) c where
  A w := V c (Pipeline.arrRef spec36 w)
  after w t := match w with
    | ⟨0, _⟩ => gblk c t
  Φ _ := iprop(Pipeline.ΦD osem36 spec36 H36 V c ∗ Pipeline.prefHeld pre36 c (fun _ => fullShare) a36.1)
  q _ := fullShare
  owed _ := 0

theorem A_eqG36 (c : Dev nD) (w : Fin (cfg36 a36).W) : (datG36 V a36 gblk c).A w = V c (Pipeline.arrRef spec36 w) := by
  dsimp only [datG36]
theorem afterG36_0 (c : Dev nD) (t : Fin (cfg36 a36).N) : (datG36 V a36 gblk c).after 0 t = gblk c t := rfl

/-! ## The region's protocol around the thread states

  Between two items of the program core c holds every unscoped buffer whole, beside its generator register and a record
  that it owes nothing. Entering the region, the output array goes to the pipeline, the table is handed over at its
  contents, the array A and the eight semaphores join the register in what the invariant takes (X), and the other
  buffers wait outside (Z). Leaving it, everything comes back: A and the table as they were. -/

/-- What the invariant takes at the first point beside the table and the scoped buffers. -/
def XG36 (c : Dev nD) : sProp 𝕄 :=
  iprop((∃ r, prngReg c r)
    ∗ Pipeline.ownSems0 (Ix := Unit) (Name := ℕ) (U := Pipeline.UD sig nD τ) (Lvl := ℕ) (Val := Elt F) (τ := τ) osem36 c
    ∗ bigSep H36 fun b => ((c.tc : Thread nD τ).loc b) ↦{fullShare} V c b)
/-- What it gives back at the last point beside the semaphores and the scoped buffers. -/
def YG36 (c : Dev nD) : sProp 𝕄 :=
  iprop((∃ r, prngReg c r) ∗ (bigSep H36 fun b => ((c.tc : Thread nD τ).loc b) ↦{fullShare} V c b)
    ∗ Pipeline.prefHeld pre36 c (fun _ => fullShare) a36.1)
/-- The unscoped buffers the region does not touch. -/
def ZG36 (c : Dev nD) : sProp 𝕄 :=
  bigSep (Pipeline.restRefsP sig pre36 spec36 \ H36) fun b => ((c.tc : Thread nD τ).loc b) ↦{fullShare} V c b

theorem hinG36 (c : Dev nD) :
    iprop(XG36 V c ∗ Pipeline.prefHeld pre36 c (fun _ => fullShare) a36.1
        ∗ Pipeline.scopedRest (Ix := Unit) (Name := ℕ) (U := Pipeline.UD sig nD τ) (Lvl := ℕ) (Val := Elt F) spec36 c)
      ⊢ (datG36 V a36 gblk c).Φ 0 := by
  rw [show (datG36 V a36 gblk c).Φ 0 = iprop(Pipeline.ΦD osem36 spec36 H36 V c ∗ Pipeline.prefHeld pre36 c (fun _ => fullShare) a36.1) from rfl,
    Pipeline.ΦD_eq]
  unfold XG36
  iintro ⟨⟨Hp, Hs, Hh⟩, Ht, Hr⟩
  isplitl [Hr Hp Hs Hh]
  · isplitl [Hr]; · iexact Hr
    isplitl [Hp]; · iexact Hp
    isplitl [Hs]; · iexact Hs
    iexact Hh
  iexact Ht

theorem houtG36 (c : Dev nD) :
    (datG36 V a36 gblk c).Φ (Fin.last (cfg36 a36).N)
      ⊢ iprop(YG36 V a36 c
          ∗ Pipeline.ownSems0 (Ix := Unit) (Name := ℕ) (U := Pipeline.UD sig nD τ) (Lvl := ℕ) (Val := Elt F) (τ := τ) osem36 c
          ∗ Pipeline.scopedRest (Ix := Unit) (Name := ℕ) (U := Pipeline.UD sig nD τ) (Lvl := ℕ) (Val := Elt F) spec36 c) := by
  rw [show (datG36 V a36 gblk c).Φ (Fin.last (cfg36 a36).N) = iprop(Pipeline.ΦD osem36 spec36 H36 V c ∗ Pipeline.prefHeld pre36 c (fun _ => fullShare) a36.1) from rfl,
    Pipeline.ΦD_eq]
  unfold YG36
  iintro ⟨⟨Hr, Hp, Hs, Hh⟩, Ht⟩
  isplitl [Hp Hh Ht]
  · isplitl [Hp]; · iexact Hp
    isplitl [Hh]; · iexact Hh
    iexact Ht
  isplitl [Hs]; · iexact Hs
  iexact Hr

/-- ENTRY. `hsplit` is the library's split of the held buffers into the pipeline's array and the rest, at this data. -/
theorem hentryG36 (c : Dev nD) (hpf : (fun k => V c (pre36.ref k)) = a36.1)
    (hsplit : (unscopedBufs c (V c) : sProp 𝕄)
      ⊢ iprop((datG36 V a36 gblk c).arrays ((datG36 V a36 gblk c).arrAt · 0) ∗ Pipeline.unscopedRest spec36 c (V c))) :
    iprop((unscopedBufs c (V c) ∗ (∃ r, prngReg c r) ∗ ∃ W, owes (c : Thread nD τ) (0 : CellTallies nD τ sig Unit) W)
        ∗ Pipeline.ownSems0 (Ix := Unit) (Name := ℕ) (U := Pipeline.UD sig nD τ) (Lvl := ℕ) (Val := Elt F) (τ := τ) osem36 c
        ∗ levAts (fun _ : GSem nD τ sig => (∅ : Finset Unit)) (fun _ _ => (0 : ℕ)))
      ⊢ (|={Set.univ}=> iprop((datG36 V a36 gblk c).arrays ((datG36 V a36 gblk c).arrAt · 0)
          ∗ Pipeline.prefHeld pre36 c (fun _ => fullShare) a36.1
          ∗ (datG36 V a36 gblk c).owesAt () 0 ∗ XG36 V c ∗ ZG36 V c) : sProp 𝕄) := by
  have hrest := Pipeline.unscopedRest_split (Ix := Unit) (Name := ℕ) (U := Pipeline.UD sig nD τ) (Lvl := ℕ) preFacts36 c (V c)
  rw [hpf, Pipeline.unscopedRestP_sdiff pre36 spec36 H36 H36_sub c (V c)] at hrest
  rw [hrest] at hsplit
  iintro ⟨⟨Hub, Hp, HO⟩, Hs, -⟩
  ihave H := hsplit $$ Hub
  icases H with ⟨Ha, Ht, Hh, Hz⟩
  imodintro
  isplitl [Ha]; · iexact Ha
  isplitl [Ht]; · iexact Ht
  isplitl [HO]
  · unfold Pipeline.Dat.owesAt Pipeline.owesWithin
    icases HO with ⟨%W, HO⟩; iexists W; isplitr; · ipureintro; exact fun _ _ => Or.inl trivial
    iexact HO
  unfold XG36 ZG36
  isplitl [Hp Hs Hh]
  · isplitl [Hp]; · iexact Hp
    isplitl [Hs]; · iexact Hs
    iexact Hh
  iexact Hz

variable (Vn : (c : Dev nD) → (b : Ref sig .tc) → Buf (Elt F) ((c : Thread nD τ).loc b))

/-- EXIT. `hjoin` is the library's rejoining of the pipeline's array at its final contents with the rest, at this data. -/
theorem hexitG36 (c : Dev nD) (hpf : (fun k => V c (pre36.ref k)) = a36.1)
    (hjoin : iprop((datG36 V a36 gblk c).arrays ((datG36 V a36 gblk c).arrAt · (cfg36 a36).N) ∗ Pipeline.unscopedRest spec36 c (V c))
      ⊢ (unscopedBufs c (Vn c) : sProp 𝕄)) :
    iprop((datG36 V a36 gblk c).arrays ((datG36 V a36 gblk c).arrAt · (cfg36 a36).N)
        ∗ (datG36 V a36 gblk c).owesAt () (Fin.last (cfg36 a36).N) ∗ YG36 V a36 c ∗ ZG36 V c)
      ⊢ (|={Set.univ}=> iprop(unscopedBufs c (Vn c) ∗ (∃ r, prngReg c r) ∗ ∃ W, owes (c : Thread nD τ) (0 : CellTallies nD τ sig Unit) W) : sProp 𝕄) := by
  have hrest := Pipeline.unscopedRest_split (Ix := Unit) (Name := ℕ) (U := Pipeline.UD sig nD τ) (Lvl := ℕ) preFacts36 c (V c)
  rw [hpf, Pipeline.unscopedRestP_sdiff pre36 spec36 H36 H36_sub c (V c)] at hrest
  rw [hrest] at hjoin
  unfold YG36 ZG36
  iintro ⟨Ha, HO, ⟨Hp, Hh, Ht⟩, Hz⟩
  imodintro
  isplitl [Ha Hh Ht Hz]
  · iapply hjoin
    isplitl [Ha]; · iexact Ha
    isplitl [Ht]; · iexact Ht
    isplitl [Hh]; · iexact Hh
    iexact Hz
  isplitl [Hp]; · iexact Hp
  unfold Pipeline.Dat.owesAt Pipeline.owesWithin
  icases HO with ⟨%W, -, HO⟩; iexists W; iexact HO

end Cert.KernelIdeal.Hand

end
-- ==== Proof.KI.Gather37.lean ====
/-
  The row-gather region 37 of the kernel's program: its proof data and the facts the launch takes.

  Region 37 copies, at grid point t, the eight rows  A[tbl (8 t + j)]  (j < 8) of the 50000 x 128 array A it finds in
  HBM into the eight rows of its 8 x 128 output block; tbl is the region's index table of 100000 words, held in SMEM, and
  A is read only. So after the region the output array's row r is A's row tbl r. The body moves the rows by transfers
  of its own on eight semaphores of its own, all waited for before the point ends: between two points nothing is in
  flight, the table and A are as the region found them, and the semaphores are at zero. That is the region's invariant.
-/
import proofs.«402049_j87351044866139_2_alg».proof.Proof.Gen.KernelIdeal.Launch
import proofs.«402049_j87351044866139_2_alg».proof.Proof.Gen.KernelIdeal.Skeleton
import proofs.«402049_j87351044866139_2_alg».proof.Proof.Gen.KernelIdeal.Points
import Idealize.ShloMosaic.Lib.Pipeline.Frame
import Idealize.ShloMosaic.Lib.Pipeline.FrameBody
import Idealize.ShloMosaic.Lib.Pipeline.RegionsLoop
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.KernelIdeal Cert.KernelIdeal.Gen

variable {F : FTy → Type} [FloatOps F]

local notation "𝕄" => MT nD τ sig Unit (Elt F) ℕ (Pipeline.UD sig nD τ) ℕ

/-- The eight semaphores the body's row transfers signal. -/
abbrev osem37 : Fin 8 → SemLoc sig := fun j =>
  (![SemLoc.dma 358, SemLoc.dma 359, SemLoc.dma 360, SemLoc.dma 361, SemLoc.dma 362, SemLoc.dma 363, SemLoc.dma 364, SemLoc.dma 365] : Fin 8 → SemLoc sig) j
theorem ownSemFacts37 : Pipeline.OwnSemFacts spec37 osem37 := by decide

/-- The array the rows are read from: left in HBM, no window's array and no table. -/
def H37 : Finset (Ref sig .tc) := {main_v89}
theorem H37_sub : H37 ⊆ Pipeline.restRefsP sig pre37 spec37 := by decide

variable (V : (c : Dev nD) → (b : Ref sig .tc) → Buf (Elt F) ((c : Thread nD τ).loc b))
variable (a37 : (pcfg37 (F := F)).Adm)
variable (gblk : (c : Dev nD) → Fin (cfg37 a37).N → S8x128.Idx → Elt F .f32)

/-- The region's proof data on core c: the output array as the region finds it; after point t the output block holds
    the eight gathered rows; the invariant above; full shares; nothing owed. -/
def datG37 (c : Dev nD) : Dat τ (Elt F) Unit ℕ (Pipeline.UD sig nD τ) ℕ (cfg37 a37) c where
  A w := V c (Pipeline.arrRef spec37 w)
  after w t := match w with
    | ⟨0, _⟩ => gblk c t
  Φ _ := iprop(Pipeline.ΦD osem37 spec37 H37 V c ∗ Pipeline.prefHeld pre37 c (fun _ => fullShare) a37.1)
  q _ := fullShare
  owed _ := 0

theorem A_eqG37 (c : Dev nD) (w : Fin (cfg37 a37).W) : (datG37 V a37 gblk c).A w = V c (Pipeline.arrRef spec37 w) := by
  dsimp only [datG37]
theorem afterG37_0 (c : Dev nD) (t : Fin (cfg37 a37).N) : (datG37 V a37 gblk c).after 0 t = gblk c t := rfl

/-! ## The region's protocol around the thread states

  Between two items of the program core c holds every unscoped buffer whole, beside its generator register and a record
  that it owes nothing. Entering the region, the output array goes to the pipeline, the table is handed over at its
  contents, the array A and the eight semaphores join the register in what the invariant takes (X), and the other
  buffers wait outside (Z). Leaving it, everything comes back: A and the table as they were. -/

/-- What the invariant takes at the first point beside the table and the scoped buffers. -/
def XG37 (c : Dev nD) : sProp 𝕄 :=
  iprop((∃ r, prngReg c r)
    ∗ Pipeline.ownSems0 (Ix := Unit) (Name := ℕ) (U := Pipeline.UD sig nD τ) (Lvl := ℕ) (Val := Elt F) (τ := τ) osem37 c
    ∗ bigSep H37 fun b => ((c.tc : Thread nD τ).loc b) ↦{fullShare} V c b)
/-- What it gives back at the last point beside the semaphores and the scoped buffers. -/
def YG37 (c : Dev nD) : sProp 𝕄 :=
  iprop((∃ r, prngReg c r) ∗ (bigSep H37 fun b => ((c.tc : Thread nD τ).loc b) ↦{fullShare} V c b)
    ∗ Pipeline.prefHeld pre37 c (fun _ => fullShare) a37.1)
/-- The unscoped buffers the region does not touch. -/
def ZG37 (c : Dev nD) : sProp 𝕄 :=
  bigSep (Pipeline.restRefsP sig pre37 spec37 \ H37) fun b => ((c.tc : Thread nD τ).loc b) ↦{fullShare} V c b

theorem hinG37 (c : Dev nD) :
    iprop(XG37 V c ∗ Pipeline.prefHeld pre37 c (fun _ => fullShare) a37.1
        ∗ Pipeline.scopedRest (Ix := Unit) (Name := ℕ) (U := Pipeline.UD sig nD τ) (Lvl := ℕ) (Val := Elt F) spec37 c)
      ⊢ (datG37 V a37 gblk c).Φ 0 := by
  rw [show (datG37 V a37 gblk c).Φ 0 = iprop(Pipeline.ΦD osem37 spec37 H37 V c ∗ Pipeline.prefHeld pre37 c (fun _ => fullShare) a37.1) from rfl,
    Pipeline.ΦD_eq]
  unfold XG37
  iintro ⟨⟨Hp, Hs, Hh⟩, Ht, Hr⟩
  isplitl [Hr Hp Hs Hh]
  · isplitl [Hr]; · iexact Hr
    isplitl [Hp]; · iexact Hp
    isplitl [Hs]; · iexact Hs
    iexact Hh
  iexact Ht

theorem houtG37 (c : Dev nD) :
    (datG37 V a37 gblk c).Φ (Fin.last (cfg37 a37).N)
      ⊢ iprop(YG37 V a37 c
          ∗ Pipeline.ownSems0 (Ix := Unit) (Name := ℕ) (U := Pipeline.UD sig nD τ) (Lvl := ℕ) (Val := Elt F) (τ := τ) osem37 c
          ∗ Pipeline.scopedRest (Ix := Unit) (Name := ℕ) (U := Pipeline.UD sig nD τ) (Lvl := ℕ) (Val := Elt F) spec37 c) := by
  rw [show (datG37 V a37 gblk c).Φ (Fin.last (cfg37 a37).N) = iprop(Pipeline.ΦD osem37 spec37 H37 V c ∗ Pipeline.prefHeld pre37 c (fun _ => fullShare) a37.1) from rfl,
    Pipeline.ΦD_eq]
  unfold YG37
  iintro ⟨⟨Hr, Hp, Hs, Hh⟩, Ht⟩
  isplitl [Hp Hh Ht]
  · isplitl [Hp]; · iexact Hp
    isplitl [Hh]; · iexact Hh
    iexact Ht
  isplitl [Hs]; · iexact Hs
  iexact Hr

/-- ENTRY. `hsplit` is the library's split of the held buffers into the pipeline's array and the rest, at this data. -/
theorem hentryG37 (c : Dev nD) (hpf : (fun k => V c (pre37.ref k)) = a37.1)
    (hsplit : (unscopedBufs c (V c) : sProp 𝕄)
      ⊢ iprop((datG37 V a37 gblk c).arrays ((datG37 V a37 gblk c).arrAt · 0) ∗ Pipeline.unscopedRest spec37 c (V c))) :
    iprop((unscopedBufs c (V c) ∗ (∃ r, prngReg c r) ∗ ∃ W, owes (c : Thread nD τ) (0 : CellTallies nD τ sig Unit) W)
        ∗ Pipeline.ownSems0 (Ix := Unit) (Name := ℕ) (U := Pipeline.UD sig nD τ) (Lvl := ℕ) (Val := Elt F) (τ := τ) osem37 c
        ∗ levAts (fun _ : GSem nD τ sig => (∅ : Finset Unit)) (fun _ _ => (0 : ℕ)))
      ⊢ (|={Set.univ}=> iprop((datG37 V a37 gblk c).arrays ((datG37 V a37 gblk c).arrAt · 0)
          ∗ Pipeline.prefHeld pre37 c (fun _ => fullShare) a37.1
          ∗ (datG37 V a37 gblk c).owesAt () 0 ∗ XG37 V c ∗ ZG37 V c) : sProp 𝕄) := by
  have hrest := Pipeline.unscopedRest_split (Ix := Unit) (Name := ℕ) (U := Pipeline.UD sig nD τ) (Lvl := ℕ) preFacts37 c (V c)
  rw [hpf, Pipeline.unscopedRestP_sdiff pre37 spec37 H37 H37_sub c (V c)] at hrest
  rw [hrest] at hsplit
  iintro ⟨⟨Hub, Hp, HO⟩, Hs, -⟩
  ihave H := hsplit $$ Hub
  icases H with ⟨Ha, Ht, Hh, Hz⟩
  imodintro
  isplitl [Ha]; · iexact Ha
  isplitl [Ht]; · iexact Ht
  isplitl [HO]
  · unfold Pipeline.Dat.owesAt Pipeline.owesWithin
    icases HO with ⟨%W, HO⟩; iexists W; isplitr; · ipureintro; exact fun _ _ => Or.inl trivial
    iexact HO
  unfold XG37 ZG37
  isplitl [Hp Hs Hh]
  · isplitl [Hp]; · iexact Hp
    isplitl [Hs]; · iexact Hs
    iexact Hh
  iexact Hz

variable (Vn : (c : Dev nD) → (b : Ref sig .tc) → Buf (Elt F) ((c : Thread nD τ).loc b))

/-- EXIT. `hjoin` is the library's rejoining of the pipeline's array at its final contents with the rest, at this data. -/
theorem hexitG37 (c : Dev nD) (hpf : (fun k => V c (pre37.ref k)) = a37.1)
    (hjoin : iprop((datG37 V a37 gblk c).arrays ((datG37 V a37 gblk c).arrAt · (cfg37 a37).N) ∗ Pipeline.unscopedRest spec37 c (V c))
      ⊢ (unscopedBufs c (Vn c) : sProp 𝕄)) :
    iprop((datG37 V a37 gblk c).arrays ((datG37 V a37 gblk c).arrAt · (cfg37 a37).N)
        ∗ (datG37 V a37 gblk c).owesAt () (Fin.last (cfg37 a37).N) ∗ YG37 V a37 c ∗ ZG37 V c)
      ⊢ (|={Set.univ}=> iprop(unscopedBufs c (Vn c) ∗ (∃ r, prngReg c r) ∗ ∃ W, owes (c : Thread nD τ) (0 : CellTallies nD τ sig Unit) W) : sProp 𝕄) := by
  have hrest := Pipeline.unscopedRest_split (Ix := Unit) (Name := ℕ) (U := Pipeline.UD sig nD τ) (Lvl := ℕ) preFacts37 c (V c)
  rw [hpf, Pipeline.unscopedRestP_sdiff pre37 spec37 H37 H37_sub c (V c)] at hrest
  rw [hrest] at hjoin
  unfold YG37 ZG37
  iintro ⟨Ha, HO, ⟨Hp, Hh, Ht⟩, Hz⟩
  imodintro
  isplitl [Ha Hh Ht Hz]
  · iapply hjoin
    isplitl [Ha]; · iexact Ha
    isplitl [Ht]; · iexact Ht
    isplitl [Hh]; · iexact Hh
    iexact Hz
  isplitl [Hp]; · iexact Hp
  unfold Pipeline.Dat.owesAt Pipeline.owesWithin
  icases HO with ⟨%W, -, HO⟩; iexists W; iexact HO

end Cert.KernelIdeal.Hand

end
-- ==== Proof.KI.Gather38.lean ====
/-
  The row-gather region 38 of the kernel's program: its proof data and the facts the launch takes.

  Region 38 copies, at grid point t, the eight rows  A[tbl (8 t + j)]  (j < 8) of the 50000 x 128 array A it finds in
  HBM into the eight rows of its 8 x 128 output block; tbl is the region's index table of 100000 words, held in SMEM, and
  A is read only. So after the region the output array's row r is A's row tbl r. The body moves the rows by transfers
  of its own on eight semaphores of its own, all waited for before the point ends: between two points nothing is in
  flight, the table and A are as the region found them, and the semaphores are at zero. That is the region's invariant.
-/
import proofs.«402049_j87351044866139_2_alg».proof.Proof.Gen.KernelIdeal.Launch
import proofs.«402049_j87351044866139_2_alg».proof.Proof.Gen.KernelIdeal.Skeleton
import proofs.«402049_j87351044866139_2_alg».proof.Proof.Gen.KernelIdeal.Points
import Idealize.ShloMosaic.Lib.Pipeline.Frame
import Idealize.ShloMosaic.Lib.Pipeline.FrameBody
import Idealize.ShloMosaic.Lib.Pipeline.RegionsLoop
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.KernelIdeal Cert.KernelIdeal.Gen

variable {F : FTy → Type} [FloatOps F]

local notation "𝕄" => MT nD τ sig Unit (Elt F) ℕ (Pipeline.UD sig nD τ) ℕ

/-- The eight semaphores the body's row transfers signal. -/
abbrev osem38 : Fin 8 → SemLoc sig := fun j =>
  (![SemLoc.dma 368, SemLoc.dma 369, SemLoc.dma 370, SemLoc.dma 371, SemLoc.dma 372, SemLoc.dma 373, SemLoc.dma 374, SemLoc.dma 375] : Fin 8 → SemLoc sig) j
theorem ownSemFacts38 : Pipeline.OwnSemFacts spec38 osem38 := by decide

/-- The array the rows are read from: left in HBM, no window's array and no table. -/
def H38 : Finset (Ref sig .tc) := {main_v89}
theorem H38_sub : H38 ⊆ Pipeline.restRefsP sig pre38 spec38 := by decide

variable (V : (c : Dev nD) → (b : Ref sig .tc) → Buf (Elt F) ((c : Thread nD τ).loc b))
variable (a38 : (pcfg38 (F := F)).Adm)
variable (gblk : (c : Dev nD) → Fin (cfg38 a38).N → S8x128.Idx → Elt F .f32)

/-- The region's proof data on core c: the output array as the region finds it; after point t the output block holds
    the eight gathered rows; the invariant above; full shares; nothing owed. -/
def datG38 (c : Dev nD) : Dat τ (Elt F) Unit ℕ (Pipeline.UD sig nD τ) ℕ (cfg38 a38) c where
  A w := V c (Pipeline.arrRef spec38 w)
  after w t := match w with
    | ⟨0, _⟩ => gblk c t
  Φ _ := iprop(Pipeline.ΦD osem38 spec38 H38 V c ∗ Pipeline.prefHeld pre38 c (fun _ => fullShare) a38.1)
  q _ := fullShare
  owed _ := 0

theorem A_eqG38 (c : Dev nD) (w : Fin (cfg38 a38).W) : (datG38 V a38 gblk c).A w = V c (Pipeline.arrRef spec38 w) := by
  dsimp only [datG38]
theorem afterG38_0 (c : Dev nD) (t : Fin (cfg38 a38).N) : (datG38 V a38 gblk c).after 0 t = gblk c t := rfl

/-! ## The region's protocol around the thread states

  Between two items of the program core c holds every unscoped buffer whole, beside its generator register and a record
  that it owes nothing. Entering the region, the output array goes to the pipeline, the table is handed over at its
  contents, the array A and the eight semaphores join the register in what the invariant takes (X), and the other
  buffers wait outside (Z). Leaving it, everything comes back: A and the table as they were. -/

/-- What the invariant takes at the first point beside the table and the scoped buffers. -/
def XG38 (c : Dev nD) : sProp 𝕄 :=
  iprop((∃ r, prngReg c r)
    ∗ Pipeline.ownSems0 (Ix := Unit) (Name := ℕ) (U := Pipeline.UD sig nD τ) (Lvl := ℕ) (Val := Elt F) (τ := τ) osem38 c
    ∗ bigSep H38 fun b => ((c.tc : Thread nD τ).loc b) ↦{fullShare} V c b)
/-- What it gives back at the last point beside the semaphores and the scoped buffers. -/
def YG38 (c : Dev nD) : sProp 𝕄 :=
  iprop((∃ r, prngReg c r) ∗ (bigSep H38 fun b => ((c.tc : Thread nD τ).loc b) ↦{fullShare} V c b)
    ∗ Pipeline.prefHeld pre38 c (fun _ => fullShare) a38.1)
/-- The unscoped buffers the region does not touch. -/
def ZG38 (c : Dev nD) : sProp 𝕄 :=
  bigSep (Pipeline.restRefsP sig pre38 spec38 \ H38) fun b => ((c.tc : Thread nD τ).loc b) ↦{fullShare} V c b

theorem hinG38 (c : Dev nD) :
    iprop(XG38 V c ∗ Pipeline.prefHeld pre38 c (fun _ => fullShare) a38.1
        ∗ Pipeline.scopedRest (Ix := Unit) (Name := ℕ) (U := Pipeline.UD sig nD τ) (Lvl := ℕ) (Val := Elt F) spec38 c)
      ⊢ (datG38 V a38 gblk c).Φ 0 := by
  rw [show (datG38 V a38 gblk c).Φ 0 = iprop(Pipeline.ΦD osem38 spec38 H38 V c ∗ Pipeline.prefHeld pre38 c (fun _ => fullShare) a38.1) from rfl,
    Pipeline.ΦD_eq]
  unfold XG38
  iintro ⟨⟨Hp, Hs, Hh⟩, Ht, Hr⟩
  isplitl [Hr Hp Hs Hh]
  · isplitl [Hr]; · iexact Hr
    isplitl [Hp]; · iexact Hp
    isplitl [Hs]; · iexact Hs
    iexact Hh
  iexact Ht

theorem houtG38 (c : Dev nD) :
    (datG38 V a38 gblk c).Φ (Fin.last (cfg38 a38).N)
      ⊢ iprop(YG38 V a38 c
          ∗ Pipeline.ownSems0 (Ix := Unit) (Name := ℕ) (U := Pipeline.UD sig nD τ) (Lvl := ℕ) (Val := Elt F) (τ := τ) osem38 c
          ∗ Pipeline.scopedRest (Ix := Unit) (Name := ℕ) (U := Pipeline.UD sig nD τ) (Lvl := ℕ) (Val := Elt F) spec38 c) := by
  rw [show (datG38 V a38 gblk c).Φ (Fin.last (cfg38 a38).N) = iprop(Pipeline.ΦD osem38 spec38 H38 V c ∗ Pipeline.prefHeld pre38 c (fun _ => fullShare) a38.1) from rfl,
    Pipeline.ΦD_eq]
  unfold YG38
  iintro ⟨⟨Hr, Hp, Hs, Hh⟩, Ht⟩
  isplitl [Hp Hh Ht]
  · isplitl [Hp]; · iexact Hp
    isplitl [Hh]; · iexact Hh
    iexact Ht
  isplitl [Hs]; · iexact Hs
  iexact Hr

/-- ENTRY. `hsplit` is the library's split of the held buffers into the pipeline's array and the rest, at this data. -/
theorem hentryG38 (c : Dev nD) (hpf : (fun k => V c (pre38.ref k)) = a38.1)
    (hsplit : (unscopedBufs c (V c) : sProp 𝕄)
      ⊢ iprop((datG38 V a38 gblk c).arrays ((datG38 V a38 gblk c).arrAt · 0) ∗ Pipeline.unscopedRest spec38 c (V c))) :
    iprop((unscopedBufs c (V c) ∗ (∃ r, prngReg c r) ∗ ∃ W, owes (c : Thread nD τ) (0 : CellTallies nD τ sig Unit) W)
        ∗ Pipeline.ownSems0 (Ix := Unit) (Name := ℕ) (U := Pipeline.UD sig nD τ) (Lvl := ℕ) (Val := Elt F) (τ := τ) osem38 c
        ∗ levAts (fun _ : GSem nD τ sig => (∅ : Finset Unit)) (fun _ _ => (0 : ℕ)))
      ⊢ (|={Set.univ}=> iprop((datG38 V a38 gblk c).arrays ((datG38 V a38 gblk c).arrAt · 0)
          ∗ Pipeline.prefHeld pre38 c (fun _ => fullShare) a38.1
          ∗ (datG38 V a38 gblk c).owesAt () 0 ∗ XG38 V c ∗ ZG38 V c) : sProp 𝕄) := by
  have hrest := Pipeline.unscopedRest_split (Ix := Unit) (Name := ℕ) (U := Pipeline.UD sig nD τ) (Lvl := ℕ) preFacts38 c (V c)
  rw [hpf, Pipeline.unscopedRestP_sdiff pre38 spec38 H38 H38_sub c (V c)] at hrest
  rw [hrest] at hsplit
  iintro ⟨⟨Hub, Hp, HO⟩, Hs, -⟩
  ihave H := hsplit $$ Hub
  icases H with ⟨Ha, Ht, Hh, Hz⟩
  imodintro
  isplitl [Ha]; · iexact Ha
  isplitl [Ht]; · iexact Ht
  isplitl [HO]
  · unfold Pipeline.Dat.owesAt Pipeline.owesWithin
    icases HO with ⟨%W, HO⟩; iexists W; isplitr; · ipureintro; exact fun _ _ => Or.inl trivial
    iexact HO
  unfold XG38 ZG38
  isplitl [Hp Hs Hh]
  · isplitl [Hp]; · iexact Hp
    isplitl [Hs]; · iexact Hs
    iexact Hh
  iexact Hz

variable (Vn : (c : Dev nD) → (b : Ref sig .tc) → Buf (Elt F) ((c : Thread nD τ).loc b))

/-- EXIT. `hjoin` is the library's rejoining of the pipeline's array at its final contents with the rest, at this data. -/
theorem hexitG38 (c : Dev nD) (hpf : (fun k => V c (pre38.ref k)) = a38.1)
    (hjoin : iprop((datG38 V a38 gblk c).arrays ((datG38 V a38 gblk c).arrAt · (cfg38 a38).N) ∗ Pipeline.unscopedRest spec38 c (V c))
      ⊢ (unscopedBufs c (Vn c) : sProp 𝕄)) :
    iprop((datG38 V a38 gblk c).arrays ((datG38 V a38 gblk c).arrAt · (cfg38 a38).N)
        ∗ (datG38 V a38 gblk c).owesAt () (Fin.last (cfg38 a38).N) ∗ YG38 V a38 c ∗ ZG38 V c)
      ⊢ (|={Set.univ}=> iprop(unscopedBufs c (Vn c) ∗ (∃ r, prngReg c r) ∗ ∃ W, owes (c : Thread nD τ) (0 : CellTallies nD τ sig Unit) W) : sProp 𝕄) := by
  have hrest := Pipeline.unscopedRest_split (Ix := Unit) (Name := ℕ) (U := Pipeline.UD sig nD τ) (Lvl := ℕ) preFacts38 c (V c)
  rw [hpf, Pipeline.unscopedRestP_sdiff pre38 spec38 H38 H38_sub c (V c)] at hrest
  rw [hrest] at hjoin
  unfold YG38 ZG38
  iintro ⟨Ha, HO, ⟨Hp, Hh, Ht⟩, Hz⟩
  imodintro
  isplitl [Ha Hh Ht Hz]
  · iapply hjoin
    isplitl [Ha]; · iexact Ha
    isplitl [Ht]; · iexact Ht
    isplitl [Hh]; · iexact Hh
    iexact Hz
  isplitl [Hp]; · iexact Hp
  unfold Pipeline.Dat.owesAt Pipeline.owesWithin
  icases HO with ⟨%W, -, HO⟩; iexists W; iexact HO

end Cert.KernelIdeal.Hand

end
-- ==== Proof.KI.GatherDef1.lean ====
/-
  Region 1's gathered block, as a function.

  At grid point i region 1 leaves in its 8 x 128 output block, at row j and column l, the 50000 x 128 array's element at
  row (table word 8 i + j) and column l. gath1 is that block as a function of the point, the table and the array (total:
  a word is clamped to the array's last row, which changes nothing when every word is a row); gblk1 is the block of point
  t at the region's own table and array; gblk1_apply reads it at a row and a column.
-/
import proofs.«402049_j87351044866139_2_alg».proof.Proof.KI.Gather1
import Idealize.ShloMosaic.Lib.ValueIdx

set_option maxRecDepth 16384

noncomputable section

namespace Cert.KernelIdeal.Hand

open Idealize.ShloMosaic Idealize.ShloMosaic.TcCoe
open Idealize.ShloMosaic.Pipeline (Dat Cfg Window)
open Cert.KernelIdeal Cert.KernelIdeal.Gen

variable {F : FTy → Type} [FloatOps F]

/-! ## What the point writes -/

/-- The block the body leaves at grid point i: row j, column l is the array's row named by table word 8 i + j, column l.
    The word is clamped to the array's last row, so that the block is a total function of the table; under the table's
    range hypothesis the clamp does nothing. -/
def gath1 (i : grid1.Coords) (tbl : Vec F S85000 .i32) (A : Vec F S50000x128 .f32) : Vec F S8x128 .f32 := fun y =>
  A (ValueIdx.ix2 (⟨min (tbl (ValueIdx.ix1 (⟨8 * (i 0).val + (y 0).val, by
      have hi : (i 0).val < 10625 := (i 0).isLt
      have hy : (y 0).val < 8 := (y 0).isLt
      omega⟩ : Fin 85000))).toNat 49999, by omega⟩ : Fin 50000) (y 1 : Fin 128))

/-- The block at row j, column l, when the table's words are rows of the array: the array at that row and column. The
    table position is given as p with its equation, so that a caller states it in its own spelling. -/
theorem gath1_apply (i : grid1.Coords) (tbl : Vec F S85000 .i32) (A : Vec F S50000x128 .f32)
    (htbl : ∀ k, (tbl k).toNat < 50000) (j : Fin 8) (l : Fin 128) (p : ℕ) (hp : p = 8 * (i 0).val + j.val) (hp' : p < 85000) :
    gath1 i tbl A (ValueIdx.ix2 j l)
      = A (ValueIdx.ix2 (⟨(tbl (ValueIdx.ix1 (⟨p, hp'⟩ : Fin 85000))).toNat, htbl _⟩ : Fin 50000) l) := by
  subst hp
  have hm : min (tbl (ValueIdx.ix1 (⟨8 * (i 0).val + j.val, hp'⟩ : Fin 85000))).toNat 49999
      = (tbl (ValueIdx.ix1 (⟨8 * (i 0).val + j.val, hp'⟩ : Fin 85000))).toNat :=
    Nat.min_eq_left (by have := htbl (ValueIdx.ix1 (⟨8 * (i 0).val + j.val, hp'⟩ : Fin 85000)); omega)
  exact congrArg A (congrArg (fun r : Fin 50000 => ValueIdx.ix2 r l) (Fin.ext hm))

/-- The block on row j is the array on the row table word 8 i + j names: an element of the block on that row and an
    element of the array on that row, in the same column, are equal. -/
theorem gath1_row (i : grid1.Coords) (tbl : Vec F S85000 .i32) (A : Vec F S50000x128 .f32)
    (htbl : ∀ k, (tbl k).toNat < 50000) (j p : ℕ) (hp : p = 8 * (i 0).val + j) (hp' : p < 85000)
    (y : S8x128.Idx) (z : S50000x128.Idx) (hy : (y 0).val = j)
    (hz0 : (z 0).val = (tbl (ValueIdx.ix1 (⟨p, hp'⟩ : Fin 85000))).toNat) (hz1 : (z 1).val = (y 1).val) :
    gath1 i tbl A y = A z := by
  subst hp
  subst hy
  unfold gath1
  refine congrArg A (funext fun a => ?_)
  match a with
  | ⟨0, _⟩ =>
    refine Fin.ext ?_
    show min (tbl (ValueIdx.ix1 (⟨8 * (i 0).val + (y 0).val, _⟩ : Fin 85000))).toNat 49999 = (z 0).val
    rw [hz0]
    exact Nat.min_eq_left (by have := htbl (ValueIdx.ix1 (⟨8 * (i 0).val + (y 0).val, hp'⟩ : Fin 85000)); omega)
  | ⟨1, _⟩ => exact Fin.ext hz1.symm
variable (V : (c : Dev nD) → (b : Ref sig .tc) → Buf (Elt F) ((c : Thread nD τ).loc b))
variable (a1 : (pcfg1 (F := F)).Adm)

/-- The region's index table, as the pipeline holds it. -/
abbrev tblw1 : Vec F S85000 .i32 := a1.1 0

/-- The gathered block of grid point t on core c. -/
def gblk1 (c : Dev nD) (t : Fin (cfg1 a1).N) : S8x128.Idx → Elt F .f32 :=
  gath1 ((cfg1 a1).grid.coords t) (tblw1 a1) (V c main_v33)

/-- The point's number is its one coordinate. -/
theorem coords1_val (t : Fin (cfg1 a1).N) : ((cfg1 a1).grid.coords t 0).val = t.val := by
  have ht : t.val < 10625 := t.isLt
  show t.val / 1 % 10625 = t.val
  rw [Nat.div_one, Nat.mod_eq_of_lt ht]

/-- The gathered block read at row j, column l: the array at the row table word 8 t + j names. -/
theorem gblk1_apply (hlt : ∀ k : S85000.Idx, (tblw1 a1 k).toNat < 50000) (c : Dev nD) (t : Fin (cfg1 a1).N) (j : Fin 8) (l : Fin 128) :
    gblk1 V a1 c t (ValueIdx.ix2 j l)
      = V c main_v33 (ValueIdx.ix2 (⟨(tblw1 a1 (ValueIdx.ix1 (⟨8 * t.val + j.val, by
          have ht : t.val < 10625 := t.isLt
          omega⟩ : Fin 85000))).toNat, hlt _⟩ : Fin 50000) l) :=
  gath1_apply ((cfg1 a1).grid.coords t) (tblw1 a1) (V c main_v33) hlt j l (8 * t.val + j.val) (by rw [coords1_val]) _

end Cert.KernelIdeal.Hand

end
-- ==== Proof.KI.GatherDef2.lean ====
/-
  Region 2's gathered block, as a function.

  At grid point i region 2 leaves in its 8 x 128 output block, at row j and column l, the 50000 x 128 array's element at
  row (table word 8 i + j) and column l. gath2 is that block as a function of the point, the table and the array (total:
  a word is clamped to the array's last row, which changes nothing when every word is a row); gblk2 is the block of point
  t at the region's own table and array; gblk2_apply reads it at a row and a column.
-/
import proofs.«402049_j87351044866139_2_alg».proof.Proof.KI.Gather2
import Idealize.ShloMosaic.Lib.ValueIdx

set_option maxRecDepth 16384

noncomputable section

namespace Cert.KernelIdeal.Hand

open Idealize.ShloMosaic Idealize.ShloMosaic.TcCoe
open Idealize.ShloMosaic.Pipeline (Dat Cfg Window)
open Cert.KernelIdeal Cert.KernelIdeal.Gen

variable {F : FTy → Type} [FloatOps F]

/-! ## What the point writes -/

/-- The block the body leaves at grid point i: row j, column l is the array's row named by table word 8 i + j, column l.
    The word is clamped to the array's last row, so that the block is a total function of the table; under the table's
    range hypothesis the clamp does nothing. -/
def gath2 (i : grid2.Coords) (tbl : Vec F S85000 .i32) (A : Vec F S50000x128 .f32) : Vec F S8x128 .f32 := fun y =>
  A (ValueIdx.ix2 (⟨min (tbl (ValueIdx.ix1 (⟨8 * (i 0).val + (y 0).val, by
      have hi : (i 0).val < 10625 := (i 0).isLt
      have hy : (y 0).val < 8 := (y 0).isLt
      omega⟩ : Fin 85000))).toNat 49999, by omega⟩ : Fin 50000) (y 1 : Fin 128))

/-- The block at row j, column l, when the table's words are rows of the array: the array at that row and column. The
    table position is given as p with its equation, so that a caller states it in its own spelling. -/
theorem gath2_apply (i : grid2.Coords) (tbl : Vec F S85000 .i32) (A : Vec F S50000x128 .f32)
    (htbl : ∀ k, (tbl k).toNat < 50000) (j : Fin 8) (l : Fin 128) (p : ℕ) (hp : p = 8 * (i 0).val + j.val) (hp' : p < 85000) :
    gath2 i tbl A (ValueIdx.ix2 j l)
      = A (ValueIdx.ix2 (⟨(tbl (ValueIdx.ix1 (⟨p, hp'⟩ : Fin 85000))).toNat, htbl _⟩ : Fin 50000) l) := by
  subst hp
  have hm : min (tbl (ValueIdx.ix1 (⟨8 * (i 0).val + j.val, hp'⟩ : Fin 85000))).toNat 49999
      = (tbl (ValueIdx.ix1 (⟨8 * (i 0).val + j.val, hp'⟩ : Fin 85000))).toNat :=
    Nat.min_eq_left (by have := htbl (ValueIdx.ix1 (⟨8 * (i 0).val + j.val, hp'⟩ : Fin 85000)); omega)
  exact congrArg A (congrArg (fun r : Fin 50000 => ValueIdx.ix2 r l) (Fin.ext hm))

/-- The block on row j is the array on the row table word 8 i + j names: an element of the block on that row and an
    element of the array on that row, in the same column, are equal. -/
theorem gath2_row (i : grid2.Coords) (tbl : Vec F S85000 .i32) (A : Vec F S50000x128 .f32)
    (htbl : ∀ k, (tbl k).toNat < 50000) (j p : ℕ) (hp : p = 8 * (i 0).val + j) (hp' : p < 85000)
    (y : S8x128.Idx) (z : S50000x128.Idx) (hy : (y 0).val = j)
    (hz0 : (z 0).val = (tbl (ValueIdx.ix1 (⟨p, hp'⟩ : Fin 85000))).toNat) (hz1 : (z 1).val = (y 1).val) :
    gath2 i tbl A y = A z := by
  subst hp
  subst hy
  unfold gath2
  refine congrArg A (funext fun a => ?_)
  match a with
  | ⟨0, _⟩ =>
    refine Fin.ext ?_
    show min (tbl (ValueIdx.ix1 (⟨8 * (i 0).val + (y 0).val, _⟩ : Fin 85000))).toNat 49999 = (z 0).val
    rw [hz0]
    exact Nat.min_eq_left (by have := htbl (ValueIdx.ix1 (⟨8 * (i 0).val + (y 0).val, hp'⟩ : Fin 85000)); omega)
  | ⟨1, _⟩ => exact Fin.ext hz1.symm
variable (V : (c : Dev nD) → (b : Ref sig .tc) → Buf (Elt F) ((c : Thread nD τ).loc b))
variable (a2 : (pcfg2 (F := F)).Adm)

/-- The region's index table, as the pipeline holds it. -/
abbrev tblw2 : Vec F S85000 .i32 := a2.1 0

/-- The gathered block of grid point t on core c. -/
def gblk2 (c : Dev nD) (t : Fin (cfg2 a2).N) : S8x128.Idx → Elt F .f32 :=
  gath2 ((cfg2 a2).grid.coords t) (tblw2 a2) (V c main_v33)

/-- The point's number is its one coordinate. -/
theorem coords2_val (t : Fin (cfg2 a2).N) : ((cfg2 a2).grid.coords t 0).val = t.val := by
  have ht : t.val < 10625 := t.isLt
  show t.val / 1 % 10625 = t.val
  rw [Nat.div_one, Nat.mod_eq_of_lt ht]

/-- The gathered block read at row j, column l: the array at the row table word 8 t + j names. -/
theorem gblk2_apply (hlt : ∀ k : S85000.Idx, (tblw2 a2 k).toNat < 50000) (c : Dev nD) (t : Fin (cfg2 a2).N) (j : Fin 8) (l : Fin 128) :
    gblk2 V a2 c t (ValueIdx.ix2 j l)
      = V c main_v33 (ValueIdx.ix2 (⟨(tblw2 a2 (ValueIdx.ix1 (⟨8 * t.val + j.val, by
          have ht : t.val < 10625 := t.isLt
          omega⟩ : Fin 85000))).toNat, hlt _⟩ : Fin 50000) l) :=
  gath2_apply ((cfg2 a2).grid.coords t) (tblw2 a2) (V c main_v33) hlt j l (8 * t.val + j.val) (by rw [coords2_val]) _

end Cert.KernelIdeal.Hand

end
-- ==== Proof.KI.GatherDef3.lean ====
/-
  Region 3's gathered block, as a function.

  At grid point i region 3 leaves in its 8 x 128 output block, at row j and column l, the 50000 x 128 array's element at
  row (table word 8 i + j) and column l. gath3 is that block as a function of the point, the table and the array (total:
  a word is clamped to the array's last row, which changes nothing when every word is a row); gblk3 is the block of point
  t at the region's own table and array; gblk3_apply reads it at a row and a column.
-/
import proofs.«402049_j87351044866139_2_alg».proof.Proof.KI.Gather3
import Idealize.ShloMosaic.Lib.ValueIdx

set_option maxRecDepth 16384

noncomputable section

namespace Cert.KernelIdeal.Hand

open Idealize.ShloMosaic Idealize.ShloMosaic.TcCoe
open Idealize.ShloMosaic.Pipeline (Dat Cfg Window)
open Cert.KernelIdeal Cert.KernelIdeal.Gen

variable {F : FTy → Type} [FloatOps F]

/-! ## What the point writes -/

/-- The block the body leaves at grid point i: row j, column l is the array's row named by table word 8 i + j, column l.
    The word is clamped to the array's last row, so that the block is a total function of the table; under the table's
    range hypothesis the clamp does nothing. -/
def gath3 (i : grid3.Coords) (tbl : Vec F S85000 .i32) (A : Vec F S50000x128 .f32) : Vec F S8x128 .f32 := fun y =>
  A (ValueIdx.ix2 (⟨min (tbl (ValueIdx.ix1 (⟨8 * (i 0).val + (y 0).val, by
      have hi : (i 0).val < 10625 := (i 0).isLt
      have hy : (y 0).val < 8 := (y 0).isLt
      omega⟩ : Fin 85000))).toNat 49999, by omega⟩ : Fin 50000) (y 1 : Fin 128))

/-- The block at row j, column l, when the table's words are rows of the array: the array at that row and column. The
    table position is given as p with its equation, so that a caller states it in its own spelling. -/
theorem gath3_apply (i : grid3.Coords) (tbl : Vec F S85000 .i32) (A : Vec F S50000x128 .f32)
    (htbl : ∀ k, (tbl k).toNat < 50000) (j : Fin 8) (l : Fin 128) (p : ℕ) (hp : p = 8 * (i 0).val + j.val) (hp' : p < 85000) :
    gath3 i tbl A (ValueIdx.ix2 j l)
      = A (ValueIdx.ix2 (⟨(tbl (ValueIdx.ix1 (⟨p, hp'⟩ : Fin 85000))).toNat, htbl _⟩ : Fin 50000) l) := by
  subst hp
  have hm : min (tbl (ValueIdx.ix1 (⟨8 * (i 0).val + j.val, hp'⟩ : Fin 85000))).toNat 49999
      = (tbl (ValueIdx.ix1 (⟨8 * (i 0).val + j.val, hp'⟩ : Fin 85000))).toNat :=
    Nat.min_eq_left (by have := htbl (ValueIdx.ix1 (⟨8 * (i 0).val + j.val, hp'⟩ : Fin 85000)); omega)
  exact congrArg A (congrArg (fun r : Fin 50000 => ValueIdx.ix2 r l) (Fin.ext hm))

/-- The block on row j is the array on the row table word 8 i + j names: an element of the block on that row and an
    element of the array on that row, in the same column, are equal. -/
theorem gath3_row (i : grid3.Coords) (tbl : Vec F S85000 .i32) (A : Vec F S50000x128 .f32)
    (htbl : ∀ k, (tbl k).toNat < 50000) (j p : ℕ) (hp : p = 8 * (i 0).val + j) (hp' : p < 85000)
    (y : S8x128.Idx) (z : S50000x128.Idx) (hy : (y 0).val = j)
    (hz0 : (z 0).val = (tbl (ValueIdx.ix1 (⟨p, hp'⟩ : Fin 85000))).toNat) (hz1 : (z 1).val = (y 1).val) :
    gath3 i tbl A y = A z := by
  subst hp
  subst hy
  unfold gath3
  refine congrArg A (funext fun a => ?_)
  match a with
  | ⟨0, _⟩ =>
    refine Fin.ext ?_
    show min (tbl (ValueIdx.ix1 (⟨8 * (i 0).val + (y 0).val, _⟩ : Fin 85000))).toNat 49999 = (z 0).val
    rw [hz0]
    exact Nat.min_eq_left (by have := htbl (ValueIdx.ix1 (⟨8 * (i 0).val + (y 0).val, hp'⟩ : Fin 85000)); omega)
  | ⟨1, _⟩ => exact Fin.ext hz1.symm
variable (V : (c : Dev nD) → (b : Ref sig .tc) → Buf (Elt F) ((c : Thread nD τ).loc b))
variable (a3 : (pcfg3 (F := F)).Adm)

/-- The region's index table, as the pipeline holds it. -/
abbrev tblw3 : Vec F S85000 .i32 := a3.1 0

/-- The gathered block of grid point t on core c. -/
def gblk3 (c : Dev nD) (t : Fin (cfg3 a3).N) : S8x128.Idx → Elt F .f32 :=
  gath3 ((cfg3 a3).grid.coords t) (tblw3 a3) (V c main_v33)

/-- The point's number is its one coordinate. -/
theorem coords3_val (t : Fin (cfg3 a3).N) : ((cfg3 a3).grid.coords t 0).val = t.val := by
  have ht : t.val < 10625 := t.isLt
  show t.val / 1 % 10625 = t.val
  rw [Nat.div_one, Nat.mod_eq_of_lt ht]

/-- The gathered block read at row j, column l: the array at the row table word 8 t + j names. -/
theorem gblk3_apply (hlt : ∀ k : S85000.Idx, (tblw3 a3 k).toNat < 50000) (c : Dev nD) (t : Fin (cfg3 a3).N) (j : Fin 8) (l : Fin 128) :
    gblk3 V a3 c t (ValueIdx.ix2 j l)
      = V c main_v33 (ValueIdx.ix2 (⟨(tblw3 a3 (ValueIdx.ix1 (⟨8 * t.val + j.val, by
          have ht : t.val < 10625 := t.isLt
          omega⟩ : Fin 85000))).toNat, hlt _⟩ : Fin 50000) l) :=
  gath3_apply ((cfg3 a3).grid.coords t) (tblw3 a3) (V c main_v33) hlt j l (8 * t.val + j.val) (by rw [coords3_val]) _

end Cert.KernelIdeal.Hand

end
-- ==== Proof.KI.GatherDef4.lean ====
/-
  Region 4's gathered block, as a function.

  At grid point i region 4 leaves in its 8 x 128 output block, at row j and column l, the 50000 x 128 array's element at
  row (table word 8 i + j) and column l. gath4 is that block as a function of the point, the table and the array (total:
  a word is clamped to the array's last row, which changes nothing when every word is a row); gblk4 is the block of point
  t at the region's own table and array; gblk4_apply reads it at a row and a column.
-/
import proofs.«402049_j87351044866139_2_alg».proof.Proof.KI.Gather4
import Idealize.ShloMosaic.Lib.ValueIdx

set_option maxRecDepth 16384

noncomputable section

namespace Cert.KernelIdeal.Hand

open Idealize.ShloMosaic Idealize.ShloMosaic.TcCoe
open Idealize.ShloMosaic.Pipeline (Dat Cfg Window)
open Cert.KernelIdeal Cert.KernelIdeal.Gen

variable {F : FTy → Type} [FloatOps F]

/-! ## What the point writes -/

/-- The block the body leaves at grid point i: row j, column l is the array's row named by table word 8 i + j, column l.
    The word is clamped to the array's last row, so that the block is a total function of the table; under the table's
    range hypothesis the clamp does nothing. -/
def gath4 (i : grid4.Coords) (tbl : Vec F S85000 .i32) (A : Vec F S50000x128 .f32) : Vec F S8x128 .f32 := fun y =>
  A (ValueIdx.ix2 (⟨min (tbl (ValueIdx.ix1 (⟨8 * (i 0).val + (y 0).val, by
      have hi : (i 0).val < 10625 := (i 0).isLt
      have hy : (y 0).val < 8 := (y 0).isLt
      omega⟩ : Fin 85000))).toNat 49999, by omega⟩ : Fin 50000) (y 1 : Fin 128))

/-- The block at row j, column l, when the table's words are rows of the array: the array at that row and column. The
    table position is given as p with its equation, so that a caller states it in its own spelling. -/
theorem gath4_apply (i : grid4.Coords) (tbl : Vec F S85000 .i32) (A : Vec F S50000x128 .f32)
    (htbl : ∀ k, (tbl k).toNat < 50000) (j : Fin 8) (l : Fin 128) (p : ℕ) (hp : p = 8 * (i 0).val + j.val) (hp' : p < 85000) :
    gath4 i tbl A (ValueIdx.ix2 j l)
      = A (ValueIdx.ix2 (⟨(tbl (ValueIdx.ix1 (⟨p, hp'⟩ : Fin 85000))).toNat, htbl _⟩ : Fin 50000) l) := by
  subst hp
  have hm : min (tbl (ValueIdx.ix1 (⟨8 * (i 0).val + j.val, hp'⟩ : Fin 85000))).toNat 49999
      = (tbl (ValueIdx.ix1 (⟨8 * (i 0).val + j.val, hp'⟩ : Fin 85000))).toNat :=
    Nat.min_eq_left (by have := htbl (ValueIdx.ix1 (⟨8 * (i 0).val + j.val, hp'⟩ : Fin 85000)); omega)
  exact congrArg A (congrArg (fun r : Fin 50000 => ValueIdx.ix2 r l) (Fin.ext hm))

/-- The block on row j is the array on the row table word 8 i + j names: an element of the block on that row and an
    element of the array on that row, in the same column, are equal. -/
theorem gath4_row (i : grid4.Coords) (tbl : Vec F S85000 .i32) (A : Vec F S50000x128 .f32)
    (htbl : ∀ k, (tbl k).toNat < 50000) (j p : ℕ) (hp : p = 8 * (i 0).val + j) (hp' : p < 85000)
    (y : S8x128.Idx) (z : S50000x128.Idx) (hy : (y 0).val = j)
    (hz0 : (z 0).val = (tbl (ValueIdx.ix1 (⟨p, hp'⟩ : Fin 85000))).toNat) (hz1 : (z 1).val = (y 1).val) :
    gath4 i tbl A y = A z := by
  subst hp
  subst hy
  unfold gath4
  refine congrArg A (funext fun a => ?_)
  match a with
  | ⟨0, _⟩ =>
    refine Fin.ext ?_
    show min (tbl (ValueIdx.ix1 (⟨8 * (i 0).val + (y 0).val, _⟩ : Fin 85000))).toNat 49999 = (z 0).val
    rw [hz0]
    exact Nat.min_eq_left (by have := htbl (ValueIdx.ix1 (⟨8 * (i 0).val + (y 0).val, hp'⟩ : Fin 85000)); omega)
  | ⟨1, _⟩ => exact Fin.ext hz1.symm
variable (V : (c : Dev nD) → (b : Ref sig .tc) → Buf (Elt F) ((c : Thread nD τ).loc b))
variable (a4 : (pcfg4 (F := F)).Adm)

/-- The region's index table, as the pipeline holds it. -/
abbrev tblw4 : Vec F S85000 .i32 := a4.1 0

/-- The gathered block of grid point t on core c. -/
def gblk4 (c : Dev nD) (t : Fin (cfg4 a4).N) : S8x128.Idx → Elt F .f32 :=
  gath4 ((cfg4 a4).grid.coords t) (tblw4 a4) (V c main_v33)

/-- The point's number is its one coordinate. -/
theorem coords4_val (t : Fin (cfg4 a4).N) : ((cfg4 a4).grid.coords t 0).val = t.val := by
  have ht : t.val < 10625 := t.isLt
  show t.val / 1 % 10625 = t.val
  rw [Nat.div_one, Nat.mod_eq_of_lt ht]

/-- The gathered block read at row j, column l: the array at the row table word 8 t + j names. -/
theorem gblk4_apply (hlt : ∀ k : S85000.Idx, (tblw4 a4 k).toNat < 50000) (c : Dev nD) (t : Fin (cfg4 a4).N) (j : Fin 8) (l : Fin 128) :
    gblk4 V a4 c t (ValueIdx.ix2 j l)
      = V c main_v33 (ValueIdx.ix2 (⟨(tblw4 a4 (ValueIdx.ix1 (⟨8 * t.val + j.val, by
          have ht : t.val < 10625 := t.isLt
          omega⟩ : Fin 85000))).toNat, hlt _⟩ : Fin 50000) l) :=
  gath4_apply ((cfg4 a4).grid.coords t) (tblw4 a4) (V c main_v33) hlt j l (8 * t.val + j.val) (by rw [coords4_val]) _

end Cert.KernelIdeal.Hand

end
-- ==== Proof.KI.GatherDef5.lean ====
/-
  Region 5's gathered block, as a function.

  At grid point i region 5 leaves in its 8 x 128 output block, at row j and column l, the 50000 x 128 array's element at
  row (table word 8 i + j) and column l. gath5 is that block as a function of the point, the table and the array (total:
  a word is clamped to the array's last row, which changes nothing when every word is a row); gblk5 is the block of point
  t at the region's own table and array; gblk5_apply reads it at a row and a column.
-/
import proofs.«402049_j87351044866139_2_alg».proof.Proof.KI.Gather5
import Idealize.ShloMosaic.Lib.ValueIdx

set_option maxRecDepth 16384

noncomputable section

namespace Cert.KernelIdeal.Hand

open Idealize.ShloMosaic Idealize.ShloMosaic.TcCoe
open Idealize.ShloMosaic.Pipeline (Dat Cfg Window)
open Cert.KernelIdeal Cert.KernelIdeal.Gen

variable {F : FTy → Type} [FloatOps F]

/-! ## What the point writes -/

/-- The block the body leaves at grid point i: row j, column l is the array's row named by table word 8 i + j, column l.
    The word is clamped to the array's last row, so that the block is a total function of the table; under the table's
    range hypothesis the clamp does nothing. -/
def gath5 (i : grid5.Coords) (tbl : Vec F S85000 .i32) (A : Vec F S50000x128 .f32) : Vec F S8x128 .f32 := fun y =>
  A (ValueIdx.ix2 (⟨min (tbl (ValueIdx.ix1 (⟨8 * (i 0).val + (y 0).val, by
      have hi : (i 0).val < 10625 := (i 0).isLt
      have hy : (y 0).val < 8 := (y 0).isLt
      omega⟩ : Fin 85000))).toNat 49999, by omega⟩ : Fin 50000) (y 1 : Fin 128))

/-- The block at row j, column l, when the table's words are rows of the array: the array at that row and column. The
    table position is given as p with its equation, so that a caller states it in its own spelling. -/
theorem gath5_apply (i : grid5.Coords) (tbl : Vec F S85000 .i32) (A : Vec F S50000x128 .f32)
    (htbl : ∀ k, (tbl k).toNat < 50000) (j : Fin 8) (l : Fin 128) (p : ℕ) (hp : p = 8 * (i 0).val + j.val) (hp' : p < 85000) :
    gath5 i tbl A (ValueIdx.ix2 j l)
      = A (ValueIdx.ix2 (⟨(tbl (ValueIdx.ix1 (⟨p, hp'⟩ : Fin 85000))).toNat, htbl _⟩ : Fin 50000) l) := by
  subst hp
  have hm : min (tbl (ValueIdx.ix1 (⟨8 * (i 0).val + j.val, hp'⟩ : Fin 85000))).toNat 49999
      = (tbl (ValueIdx.ix1 (⟨8 * (i 0).val + j.val, hp'⟩ : Fin 85000))).toNat :=
    Nat.min_eq_left (by have := htbl (ValueIdx.ix1 (⟨8 * (i 0).val + j.val, hp'⟩ : Fin 85000)); omega)
  exact congrArg A (congrArg (fun r : Fin 50000 => ValueIdx.ix2 r l) (Fin.ext hm))

/-- The block on row j is the array on the row table word 8 i + j names: an element of the block on that row and an
    element of the array on that row, in the same column, are equal. -/
theorem gath5_row (i : grid5.Coords) (tbl : Vec F S85000 .i32) (A : Vec F S50000x128 .f32)
    (htbl : ∀ k, (tbl k).toNat < 50000) (j p : ℕ) (hp : p = 8 * (i 0).val + j) (hp' : p < 85000)
    (y : S8x128.Idx) (z : S50000x128.Idx) (hy : (y 0).val = j)
    (hz0 : (z 0).val = (tbl (ValueIdx.ix1 (⟨p, hp'⟩ : Fin 85000))).toNat) (hz1 : (z 1).val = (y 1).val) :
    gath5 i tbl A y = A z := by
  subst hp
  subst hy
  unfold gath5
  refine congrArg A (funext fun a => ?_)
  match a with
  | ⟨0, _⟩ =>
    refine Fin.ext ?_
    show min (tbl (ValueIdx.ix1 (⟨8 * (i 0).val + (y 0).val, _⟩ : Fin 85000))).toNat 49999 = (z 0).val
    rw [hz0]
    exact Nat.min_eq_left (by have := htbl (ValueIdx.ix1 (⟨8 * (i 0).val + (y 0).val, hp'⟩ : Fin 85000)); omega)
  | ⟨1, _⟩ => exact Fin.ext hz1.symm
variable (V : (c : Dev nD) → (b : Ref sig .tc) → Buf (Elt F) ((c : Thread nD τ).loc b))
variable (a5 : (pcfg5 (F := F)).Adm)

/-- The region's index table, as the pipeline holds it. -/
abbrev tblw5 : Vec F S85000 .i32 := a5.1 0

/-- The gathered block of grid point t on core c. -/
def gblk5 (c : Dev nD) (t : Fin (cfg5 a5).N) : S8x128.Idx → Elt F .f32 :=
  gath5 ((cfg5 a5).grid.coords t) (tblw5 a5) (V c main_v33)

/-- The point's number is its one coordinate. -/
theorem coords5_val (t : Fin (cfg5 a5).N) : ((cfg5 a5).grid.coords t 0).val = t.val := by
  have ht : t.val < 10625 := t.isLt
  show t.val / 1 % 10625 = t.val
  rw [Nat.div_one, Nat.mod_eq_of_lt ht]

/-- The gathered block read at row j, column l: the array at the row table word 8 t + j names. -/
theorem gblk5_apply (hlt : ∀ k : S85000.Idx, (tblw5 a5 k).toNat < 50000) (c : Dev nD) (t : Fin (cfg5 a5).N) (j : Fin 8) (l : Fin 128) :
    gblk5 V a5 c t (ValueIdx.ix2 j l)
      = V c main_v33 (ValueIdx.ix2 (⟨(tblw5 a5 (ValueIdx.ix1 (⟨8 * t.val + j.val, by
          have ht : t.val < 10625 := t.isLt
          omega⟩ : Fin 85000))).toNat, hlt _⟩ : Fin 50000) l) :=
  gath5_apply ((cfg5 a5).grid.coords t) (tblw5 a5) (V c main_v33) hlt j l (8 * t.val + j.val) (by rw [coords5_val]) _

end Cert.KernelIdeal.Hand

end
-- ==== Proof.KI.GatherDef6.lean ====
/-
  Region 6's gathered block, as a function.

  At grid point i region 6 leaves in its 8 x 128 output block, at row j and column l, the 50000 x 128 array's element at
  row (table word 8 i + j) and column l. gath6 is that block as a function of the point, the table and the array (total:
  a word is clamped to the array's last row, which changes nothing when every word is a row); gblk6 is the block of point
  t at the region's own table and array; gblk6_apply reads it at a row and a column.
-/
import proofs.«402049_j87351044866139_2_alg».proof.Proof.KI.Gather6
import Idealize.ShloMosaic.Lib.ValueIdx

set_option maxRecDepth 16384

noncomputable section

namespace Cert.KernelIdeal.Hand

open Idealize.ShloMosaic Idealize.ShloMosaic.TcCoe
open Idealize.ShloMosaic.Pipeline (Dat Cfg Window)
open Cert.KernelIdeal Cert.KernelIdeal.Gen

variable {F : FTy → Type} [FloatOps F]

/-! ## What the point writes -/

/-- The block the body leaves at grid point i: row j, column l is the array's row named by table word 8 i + j, column l.
    The word is clamped to the array's last row, so that the block is a total function of the table; under the table's
    range hypothesis the clamp does nothing. -/
def gath6 (i : grid6.Coords) (tbl : Vec F S85000 .i32) (A : Vec F S50000x128 .f32) : Vec F S8x128 .f32 := fun y =>
  A (ValueIdx.ix2 (⟨min (tbl (ValueIdx.ix1 (⟨8 * (i 0).val + (y 0).val, by
      have hi : (i 0).val < 10625 := (i 0).isLt
      have hy : (y 0).val < 8 := (y 0).isLt
      omega⟩ : Fin 85000))).toNat 49999, by omega⟩ : Fin 50000) (y 1 : Fin 128))

/-- The block at row j, column l, when the table's words are rows of the array: the array at that row and column. The
    table position is given as p with its equation, so that a caller states it in its own spelling. -/
theorem gath6_apply (i : grid6.Coords) (tbl : Vec F S85000 .i32) (A : Vec F S50000x128 .f32)
    (htbl : ∀ k, (tbl k).toNat < 50000) (j : Fin 8) (l : Fin 128) (p : ℕ) (hp : p = 8 * (i 0).val + j.val) (hp' : p < 85000) :
    gath6 i tbl A (ValueIdx.ix2 j l)
      = A (ValueIdx.ix2 (⟨(tbl (ValueIdx.ix1 (⟨p, hp'⟩ : Fin 85000))).toNat, htbl _⟩ : Fin 50000) l) := by
  subst hp
  have hm : min (tbl (ValueIdx.ix1 (⟨8 * (i 0).val + j.val, hp'⟩ : Fin 85000))).toNat 49999
      = (tbl (ValueIdx.ix1 (⟨8 * (i 0).val + j.val, hp'⟩ : Fin 85000))).toNat :=
    Nat.min_eq_left (by have := htbl (ValueIdx.ix1 (⟨8 * (i 0).val + j.val, hp'⟩ : Fin 85000)); omega)
  exact congrArg A (congrArg (fun r : Fin 50000 => ValueIdx.ix2 r l) (Fin.ext hm))

/-- The block on row j is the array on the row table word 8 i + j names: an element of the block on that row and an
    element of the array on that row, in the same column, are equal. -/
theorem gath6_row (i : grid6.Coords) (tbl : Vec F S85000 .i32) (A : Vec F S50000x128 .f32)
    (htbl : ∀ k, (tbl k).toNat < 50000) (j p : ℕ) (hp : p = 8 * (i 0).val + j) (hp' : p < 85000)
    (y : S8x128.Idx) (z : S50000x128.Idx) (hy : (y 0).val = j)
    (hz0 : (z 0).val = (tbl (ValueIdx.ix1 (⟨p, hp'⟩ : Fin 85000))).toNat) (hz1 : (z 1).val = (y 1).val) :
    gath6 i tbl A y = A z := by
  subst hp
  subst hy
  unfold gath6
  refine congrArg A (funext fun a => ?_)
  match a with
  | ⟨0, _⟩ =>
    refine Fin.ext ?_
    show min (tbl (ValueIdx.ix1 (⟨8 * (i 0).val + (y 0).val, _⟩ : Fin 85000))).toNat 49999 = (z 0).val
    rw [hz0]
    exact Nat.min_eq_left (by have := htbl (ValueIdx.ix1 (⟨8 * (i 0).val + (y 0).val, hp'⟩ : Fin 85000)); omega)
  | ⟨1, _⟩ => exact Fin.ext hz1.symm
variable (V : (c : Dev nD) → (b : Ref sig .tc) → Buf (Elt F) ((c : Thread nD τ).loc b))
variable (a6 : (pcfg6 (F := F)).Adm)

/-- The region's index table, as the pipeline holds it. -/
abbrev tblw6 : Vec F S85000 .i32 := a6.1 0

/-- The gathered block of grid point t on core c. -/
def gblk6 (c : Dev nD) (t : Fin (cfg6 a6).N) : S8x128.Idx → Elt F .f32 :=
  gath6 ((cfg6 a6).grid.coords t) (tblw6 a6) (V c main_v33)

/-- The point's number is its one coordinate. -/
theorem coords6_val (t : Fin (cfg6 a6).N) : ((cfg6 a6).grid.coords t 0).val = t.val := by
  have ht : t.val < 10625 := t.isLt
  show t.val / 1 % 10625 = t.val
  rw [Nat.div_one, Nat.mod_eq_of_lt ht]

/-- The gathered block read at row j, column l: the array at the row table word 8 t + j names. -/
theorem gblk6_apply (hlt : ∀ k : S85000.Idx, (tblw6 a6 k).toNat < 50000) (c : Dev nD) (t : Fin (cfg6 a6).N) (j : Fin 8) (l : Fin 128) :
    gblk6 V a6 c t (ValueIdx.ix2 j l)
      = V c main_v33 (ValueIdx.ix2 (⟨(tblw6 a6 (ValueIdx.ix1 (⟨8 * t.val + j.val, by
          have ht : t.val < 10625 := t.isLt
          omega⟩ : Fin 85000))).toNat, hlt _⟩ : Fin 50000) l) :=
  gath6_apply ((cfg6 a6).grid.coords t) (tblw6 a6) (V c main_v33) hlt j l (8 * t.val + j.val) (by rw [coords6_val]) _

end Cert.KernelIdeal.Hand

end
-- ==== Proof.KI.GatherDef7.lean ====
/-
  Region 7's gathered block, as a function.

  At grid point i region 7 leaves in its 8 x 128 output block, at row j and column l, the 50000 x 128 array's element at
  row (table word 8 i + j) and column l. gath7 is that block as a function of the point, the table and the array (total:
  a word is clamped to the array's last row, which changes nothing when every word is a row); gblk7 is the block of point
  t at the region's own table and array; gblk7_apply reads it at a row and a column.
-/
import proofs.«402049_j87351044866139_2_alg».proof.Proof.KI.Gather7
import Idealize.ShloMosaic.Lib.ValueIdx

set_option maxRecDepth 16384

noncomputable section

namespace Cert.KernelIdeal.Hand

open Idealize.ShloMosaic Idealize.ShloMosaic.TcCoe
open Idealize.ShloMosaic.Pipeline (Dat Cfg Window)
open Cert.KernelIdeal Cert.KernelIdeal.Gen

variable {F : FTy → Type} [FloatOps F]

/-! ## What the point writes -/

/-- The block the body leaves at grid point i: row j, column l is the array's row named by table word 8 i + j, column l.
    The word is clamped to the array's last row, so that the block is a total function of the table; under the table's
    range hypothesis the clamp does nothing. -/
def gath7 (i : grid7.Coords) (tbl : Vec F S85000 .i32) (A : Vec F S50000x128 .f32) : Vec F S8x128 .f32 := fun y =>
  A (ValueIdx.ix2 (⟨min (tbl (ValueIdx.ix1 (⟨8 * (i 0).val + (y 0).val, by
      have hi : (i 0).val < 10625 := (i 0).isLt
      have hy : (y 0).val < 8 := (y 0).isLt
      omega⟩ : Fin 85000))).toNat 49999, by omega⟩ : Fin 50000) (y 1 : Fin 128))

/-- The block at row j, column l, when the table's words are rows of the array: the array at that row and column. The
    table position is given as p with its equation, so that a caller states it in its own spelling. -/
theorem gath7_apply (i : grid7.Coords) (tbl : Vec F S85000 .i32) (A : Vec F S50000x128 .f32)
    (htbl : ∀ k, (tbl k).toNat < 50000) (j : Fin 8) (l : Fin 128) (p : ℕ) (hp : p = 8 * (i 0).val + j.val) (hp' : p < 85000) :
    gath7 i tbl A (ValueIdx.ix2 j l)
      = A (ValueIdx.ix2 (⟨(tbl (ValueIdx.ix1 (⟨p, hp'⟩ : Fin 85000))).toNat, htbl _⟩ : Fin 50000) l) := by
  subst hp
  have hm : min (tbl (ValueIdx.ix1 (⟨8 * (i 0).val + j.val, hp'⟩ : Fin 85000))).toNat 49999
      = (tbl (ValueIdx.ix1 (⟨8 * (i 0).val + j.val, hp'⟩ : Fin 85000))).toNat :=
    Nat.min_eq_left (by have := htbl (ValueIdx.ix1 (⟨8 * (i 0).val + j.val, hp'⟩ : Fin 85000)); omega)
  exact congrArg A (congrArg (fun r : Fin 50000 => ValueIdx.ix2 r l) (Fin.ext hm))

/-- The block on row j is the array on the row table word 8 i + j names: an element of the block on that row and an
    element of the array on that row, in the same column, are equal. -/
theorem gath7_row (i : grid7.Coords) (tbl : Vec F S85000 .i32) (A : Vec F S50000x128 .f32)
    (htbl : ∀ k, (tbl k).toNat < 50000) (j p : ℕ) (hp : p = 8 * (i 0).val + j) (hp' : p < 85000)
    (y : S8x128.Idx) (z : S50000x128.Idx) (hy : (y 0).val = j)
    (hz0 : (z 0).val = (tbl (ValueIdx.ix1 (⟨p, hp'⟩ : Fin 85000))).toNat) (hz1 : (z 1).val = (y 1).val) :
    gath7 i tbl A y = A z := by
  subst hp
  subst hy
  unfold gath7
  refine congrArg A (funext fun a => ?_)
  match a with
  | ⟨0, _⟩ =>
    refine Fin.ext ?_
    show min (tbl (ValueIdx.ix1 (⟨8 * (i 0).val + (y 0).val, _⟩ : Fin 85000))).toNat 49999 = (z 0).val
    rw [hz0]
    exact Nat.min_eq_left (by have := htbl (ValueIdx.ix1 (⟨8 * (i 0).val + (y 0).val, hp'⟩ : Fin 85000)); omega)
  | ⟨1, _⟩ => exact Fin.ext hz1.symm
variable (V : (c : Dev nD) → (b : Ref sig .tc) → Buf (Elt F) ((c : Thread nD τ).loc b))
variable (a7 : (pcfg7 (F := F)).Adm)

/-- The region's index table, as the pipeline holds it. -/
abbrev tblw7 : Vec F S85000 .i32 := a7.1 0

/-- The gathered block of grid point t on core c. -/
def gblk7 (c : Dev nD) (t : Fin (cfg7 a7).N) : S8x128.Idx → Elt F .f32 :=
  gath7 ((cfg7 a7).grid.coords t) (tblw7 a7) (V c main_v33)

/-- The point's number is its one coordinate. -/
theorem coords7_val (t : Fin (cfg7 a7).N) : ((cfg7 a7).grid.coords t 0).val = t.val := by
  have ht : t.val < 10625 := t.isLt
  show t.val / 1 % 10625 = t.val
  rw [Nat.div_one, Nat.mod_eq_of_lt ht]

/-- The gathered block read at row j, column l: the array at the row table word 8 t + j names. -/
theorem gblk7_apply (hlt : ∀ k : S85000.Idx, (tblw7 a7 k).toNat < 50000) (c : Dev nD) (t : Fin (cfg7 a7).N) (j : Fin 8) (l : Fin 128) :
    gblk7 V a7 c t (ValueIdx.ix2 j l)
      = V c main_v33 (ValueIdx.ix2 (⟨(tblw7 a7 (ValueIdx.ix1 (⟨8 * t.val + j.val, by
          have ht : t.val < 10625 := t.isLt
          omega⟩ : Fin 85000))).toNat, hlt _⟩ : Fin 50000) l) :=
  gath7_apply ((cfg7 a7).grid.coords t) (tblw7 a7) (V c main_v33) hlt j l (8 * t.val + j.val) (by rw [coords7_val]) _

end Cert.KernelIdeal.Hand

end
-- ==== Proof.KI.GatherDef8.lean ====
/-
  Region 8's gathered block, as a function.

  At grid point i region 8 leaves in its 8 x 128 output block, at row j and column l, the 50000 x 128 array's element at
  row (table word 8 i + j) and column l. gath8 is that block as a function of the point, the table and the array (total:
  a word is clamped to the array's last row, which changes nothing when every word is a row); gblk8 is the block of point
  t at the region's own table and array; gblk8_apply reads it at a row and a column.
-/
import proofs.«402049_j87351044866139_2_alg».proof.Proof.KI.Gather8
import Idealize.ShloMosaic.Lib.ValueIdx

set_option maxRecDepth 16384

noncomputable section

namespace Cert.KernelIdeal.Hand

open Idealize.ShloMosaic Idealize.ShloMosaic.TcCoe
open Idealize.ShloMosaic.Pipeline (Dat Cfg Window)
open Cert.KernelIdeal Cert.KernelIdeal.Gen

variable {F : FTy → Type} [FloatOps F]

/-! ## What the point writes -/

/-- The block the body leaves at grid point i: row j, column l is the array's row named by table word 8 i + j, column l.
    The word is clamped to the array's last row, so that the block is a total function of the table; under the table's
    range hypothesis the clamp does nothing. -/
def gath8 (i : grid8.Coords) (tbl : Vec F S85000 .i32) (A : Vec F S50000x128 .f32) : Vec F S8x128 .f32 := fun y =>
  A (ValueIdx.ix2 (⟨min (tbl (ValueIdx.ix1 (⟨8 * (i 0).val + (y 0).val, by
      have hi : (i 0).val < 10625 := (i 0).isLt
      have hy : (y 0).val < 8 := (y 0).isLt
      omega⟩ : Fin 85000))).toNat 49999, by omega⟩ : Fin 50000) (y 1 : Fin 128))

/-- The block at row j, column l, when the table's words are rows of the array: the array at that row and column. The
    table position is given as p with its equation, so that a caller states it in its own spelling. -/
theorem gath8_apply (i : grid8.Coords) (tbl : Vec F S85000 .i32) (A : Vec F S50000x128 .f32)
    (htbl : ∀ k, (tbl k).toNat < 50000) (j : Fin 8) (l : Fin 128) (p : ℕ) (hp : p = 8 * (i 0).val + j.val) (hp' : p < 85000) :
    gath8 i tbl A (ValueIdx.ix2 j l)
      = A (ValueIdx.ix2 (⟨(tbl (ValueIdx.ix1 (⟨p, hp'⟩ : Fin 85000))).toNat, htbl _⟩ : Fin 50000) l) := by
  subst hp
  have hm : min (tbl (ValueIdx.ix1 (⟨8 * (i 0).val + j.val, hp'⟩ : Fin 85000))).toNat 49999
      = (tbl (ValueIdx.ix1 (⟨8 * (i 0).val + j.val, hp'⟩ : Fin 85000))).toNat :=
    Nat.min_eq_left (by have := htbl (ValueIdx.ix1 (⟨8 * (i 0).val + j.val, hp'⟩ : Fin 85000)); omega)
  exact congrArg A (congrArg (fun r : Fin 50000 => ValueIdx.ix2 r l) (Fin.ext hm))

/-- The block on row j is the array on the row table word 8 i + j names: an element of the block on that row and an
    element of the array on that row, in the same column, are equal. -/
theorem gath8_row (i : grid8.Coords) (tbl : Vec F S85000 .i32) (A : Vec F S50000x128 .f32)
    (htbl : ∀ k, (tbl k).toNat < 50000) (j p : ℕ) (hp : p = 8 * (i 0).val + j) (hp' : p < 85000)
    (y : S8x128.Idx) (z : S50000x128.Idx) (hy : (y 0).val = j)
    (hz0 : (z 0).val = (tbl (ValueIdx.ix1 (⟨p, hp'⟩ : Fin 85000))).toNat) (hz1 : (z 1).val = (y 1).val) :
    gath8 i tbl A y = A z := by
  subst hp
  subst hy
  unfold gath8
  refine congrArg A (funext fun a => ?_)
  match a with
  | ⟨0, _⟩ =>
    refine Fin.ext ?_
    show min (tbl (ValueIdx.ix1 (⟨8 * (i 0).val + (y 0).val, _⟩ : Fin 85000))).toNat 49999 = (z 0).val
    rw [hz0]
    exact Nat.min_eq_left (by have := htbl (ValueIdx.ix1 (⟨8 * (i 0).val + (y 0).val, hp'⟩ : Fin 85000)); omega)
  | ⟨1, _⟩ => exact Fin.ext hz1.symm
variable (V : (c : Dev nD) → (b : Ref sig .tc) → Buf (Elt F) ((c : Thread nD τ).loc b))
variable (a8 : (pcfg8 (F := F)).Adm)

/-- The region's index table, as the pipeline holds it. -/
abbrev tblw8 : Vec F S85000 .i32 := a8.1 0

/-- The gathered block of grid point t on core c. -/
def gblk8 (c : Dev nD) (t : Fin (cfg8 a8).N) : S8x128.Idx → Elt F .f32 :=
  gath8 ((cfg8 a8).grid.coords t) (tblw8 a8) (V c main_v33)

/-- The point's number is its one coordinate. -/
theorem coords8_val (t : Fin (cfg8 a8).N) : ((cfg8 a8).grid.coords t 0).val = t.val := by
  have ht : t.val < 10625 := t.isLt
  show t.val / 1 % 10625 = t.val
  rw [Nat.div_one, Nat.mod_eq_of_lt ht]

/-- The gathered block read at row j, column l: the array at the row table word 8 t + j names. -/
theorem gblk8_apply (hlt : ∀ k : S85000.Idx, (tblw8 a8 k).toNat < 50000) (c : Dev nD) (t : Fin (cfg8 a8).N) (j : Fin 8) (l : Fin 128) :
    gblk8 V a8 c t (ValueIdx.ix2 j l)
      = V c main_v33 (ValueIdx.ix2 (⟨(tblw8 a8 (ValueIdx.ix1 (⟨8 * t.val + j.val, by
          have ht : t.val < 10625 := t.isLt
          omega⟩ : Fin 85000))).toNat, hlt _⟩ : Fin 50000) l) :=
  gath8_apply ((cfg8 a8).grid.coords t) (tblw8 a8) (V c main_v33) hlt j l (8 * t.val + j.val) (by rw [coords8_val]) _

end Cert.KernelIdeal.Hand

end
-- ==== Proof.KI.GatherDef9.lean ====
/-
  Region 9's gathered block, as a function.

  At grid point i region 9 leaves in its 8 x 128 output block, at row j and column l, the 50000 x 128 array's element at
  row (table word 8 i + j) and column l. gath9 is that block as a function of the point, the table and the array (total:
  a word is clamped to the array's last row, which changes nothing when every word is a row); gblk9 is the block of point
  t at the region's own table and array; gblk9_apply reads it at a row and a column.
-/
import proofs.«402049_j87351044866139_2_alg».proof.Proof.KI.Gather9
import Idealize.ShloMosaic.Lib.ValueIdx

set_option maxRecDepth 16384

noncomputable section

namespace Cert.KernelIdeal.Hand

open Idealize.ShloMosaic Idealize.ShloMosaic.TcCoe
open Idealize.ShloMosaic.Pipeline (Dat Cfg Window)
open Cert.KernelIdeal Cert.KernelIdeal.Gen

variable {F : FTy → Type} [FloatOps F]

/-! ## What the point writes -/

/-- The block the body leaves at grid point i: row j, column l is the array's row named by table word 8 i + j, column l.
    The word is clamped to the array's last row, so that the block is a total function of the table; under the table's
    range hypothesis the clamp does nothing. -/
def gath9 (i : grid9.Coords) (tbl : Vec F S85000 .i32) (A : Vec F S50000x128 .f32) : Vec F S8x128 .f32 := fun y =>
  A (ValueIdx.ix2 (⟨min (tbl (ValueIdx.ix1 (⟨8 * (i 0).val + (y 0).val, by
      have hi : (i 0).val < 10625 := (i 0).isLt
      have hy : (y 0).val < 8 := (y 0).isLt
      omega⟩ : Fin 85000))).toNat 49999, by omega⟩ : Fin 50000) (y 1 : Fin 128))

/-- The block at row j, column l, when the table's words are rows of the array: the array at that row and column. The
    table position is given as p with its equation, so that a caller states it in its own spelling. -/
theorem gath9_apply (i : grid9.Coords) (tbl : Vec F S85000 .i32) (A : Vec F S50000x128 .f32)
    (htbl : ∀ k, (tbl k).toNat < 50000) (j : Fin 8) (l : Fin 128) (p : ℕ) (hp : p = 8 * (i 0).val + j.val) (hp' : p < 85000) :
    gath9 i tbl A (ValueIdx.ix2 j l)
      = A (ValueIdx.ix2 (⟨(tbl (ValueIdx.ix1 (⟨p, hp'⟩ : Fin 85000))).toNat, htbl _⟩ : Fin 50000) l) := by
  subst hp
  have hm : min (tbl (ValueIdx.ix1 (⟨8 * (i 0).val + j.val, hp'⟩ : Fin 85000))).toNat 49999
      = (tbl (ValueIdx.ix1 (⟨8 * (i 0).val + j.val, hp'⟩ : Fin 85000))).toNat :=
    Nat.min_eq_left (by have := htbl (ValueIdx.ix1 (⟨8 * (i 0).val + j.val, hp'⟩ : Fin 85000)); omega)
  exact congrArg A (congrArg (fun r : Fin 50000 => ValueIdx.ix2 r l) (Fin.ext hm))

/-- The block on row j is the array on the row table word 8 i + j names: an element of the block on that row and an
    element of the array on that row, in the same column, are equal. -/
theorem gath9_row (i : grid9.Coords) (tbl : Vec F S85000 .i32) (A : Vec F S50000x128 .f32)
    (htbl : ∀ k, (tbl k).toNat < 50000) (j p : ℕ) (hp : p = 8 * (i 0).val + j) (hp' : p < 85000)
    (y : S8x128.Idx) (z : S50000x128.Idx) (hy : (y 0).val = j)
    (hz0 : (z 0).val = (tbl (ValueIdx.ix1 (⟨p, hp'⟩ : Fin 85000))).toNat) (hz1 : (z 1).val = (y 1).val) :
    gath9 i tbl A y = A z := by
  subst hp
  subst hy
  unfold gath9
  refine congrArg A (funext fun a => ?_)
  match a with
  | ⟨0, _⟩ =>
    refine Fin.ext ?_
    show min (tbl (ValueIdx.ix1 (⟨8 * (i 0).val + (y 0).val, _⟩ : Fin 85000))).toNat 49999 = (z 0).val
    rw [hz0]
    exact Nat.min_eq_left (by have := htbl (ValueIdx.ix1 (⟨8 * (i 0).val + (y 0).val, hp'⟩ : Fin 85000)); omega)
  | ⟨1, _⟩ => exact Fin.ext hz1.symm
variable (V : (c : Dev nD) → (b : Ref sig .tc) → Buf (Elt F) ((c : Thread nD τ).loc b))
variable (a9 : (pcfg9 (F := F)).Adm)

/-- The region's index table, as the pipeline holds it. -/
abbrev tblw9 : Vec F S85000 .i32 := a9.1 0

/-- The gathered block of grid point t on core c. -/
def gblk9 (c : Dev nD) (t : Fin (cfg9 a9).N) : S8x128.Idx → Elt F .f32 :=
  gath9 ((cfg9 a9).grid.coords t) (tblw9 a9) (V c main_v33)

/-- The point's number is its one coordinate. -/
theorem coords9_val (t : Fin (cfg9 a9).N) : ((cfg9 a9).grid.coords t 0).val = t.val := by
  have ht : t.val < 10625 := t.isLt
  show t.val / 1 % 10625 = t.val
  rw [Nat.div_one, Nat.mod_eq_of_lt ht]

/-- The gathered block read at row j, column l: the array at the row table word 8 t + j names. -/
theorem gblk9_apply (hlt : ∀ k : S85000.Idx, (tblw9 a9 k).toNat < 50000) (c : Dev nD) (t : Fin (cfg9 a9).N) (j : Fin 8) (l : Fin 128) :
    gblk9 V a9 c t (ValueIdx.ix2 j l)
      = V c main_v33 (ValueIdx.ix2 (⟨(tblw9 a9 (ValueIdx.ix1 (⟨8 * t.val + j.val, by
          have ht : t.val < 10625 := t.isLt
          omega⟩ : Fin 85000))).toNat, hlt _⟩ : Fin 50000) l) :=
  gath9_apply ((cfg9 a9).grid.coords t) (tblw9 a9) (V c main_v33) hlt j l (8 * t.val + j.val) (by rw [coords9_val]) _

end Cert.KernelIdeal.Hand

end
-- ==== Proof.KI.GatherDef10.lean ====
/-
  Region 10's gathered block, as a function.

  At grid point i region 10 leaves in its 8 x 128 output block, at row j and column l, the 50000 x 128 array's element at
  row (table word 8 i + j) and column l. gath10 is that block as a function of the point, the table and the array (total:
  a word is clamped to the array's last row, which changes nothing when every word is a row); gblk10 is the block of point
  t at the region's own table and array; gblk10_apply reads it at a row and a column.
-/
import proofs.«402049_j87351044866139_2_alg».proof.Proof.KI.Gather10
import Idealize.ShloMosaic.Lib.ValueIdx

set_option maxRecDepth 16384

noncomputable section

namespace Cert.KernelIdeal.Hand

open Idealize.ShloMosaic Idealize.ShloMosaic.TcCoe
open Idealize.ShloMosaic.Pipeline (Dat Cfg Window)
open Cert.KernelIdeal Cert.KernelIdeal.Gen

variable {F : FTy → Type} [FloatOps F]

/-! ## What the point writes -/

/-- The block the body leaves at grid point i: row j, column l is the array's row named by table word 8 i + j, column l.
    The word is clamped to the array's last row, so that the block is a total function of the table; under the table's
    range hypothesis the clamp does nothing. -/
def gath10 (i : grid10.Coords) (tbl : Vec F S85000 .i32) (A : Vec F S50000x128 .f32) : Vec F S8x128 .f32 := fun y =>
  A (ValueIdx.ix2 (⟨min (tbl (ValueIdx.ix1 (⟨8 * (i 0).val + (y 0).val, by
      have hi : (i 0).val < 10625 := (i 0).isLt
      have hy : (y 0).val < 8 := (y 0).isLt
      omega⟩ : Fin 85000))).toNat 49999, by omega⟩ : Fin 50000) (y 1 : Fin 128))

/-- The block at row j, column l, when the table's words are rows of the array: the array at that row and column. The
    table position is given as p with its equation, so that a caller states it in its own spelling. -/
theorem gath10_apply (i : grid10.Coords) (tbl : Vec F S85000 .i32) (A : Vec F S50000x128 .f32)
    (htbl : ∀ k, (tbl k).toNat < 50000) (j : Fin 8) (l : Fin 128) (p : ℕ) (hp : p = 8 * (i 0).val + j.val) (hp' : p < 85000) :
    gath10 i tbl A (ValueIdx.ix2 j l)
      = A (ValueIdx.ix2 (⟨(tbl (ValueIdx.ix1 (⟨p, hp'⟩ : Fin 85000))).toNat, htbl _⟩ : Fin 50000) l) := by
  subst hp
  have hm : min (tbl (ValueIdx.ix1 (⟨8 * (i 0).val + j.val, hp'⟩ : Fin 85000))).toNat 49999
      = (tbl (ValueIdx.ix1 (⟨8 * (i 0).val + j.val, hp'⟩ : Fin 85000))).toNat :=
    Nat.min_eq_left (by have := htbl (ValueIdx.ix1 (⟨8 * (i 0).val + j.val, hp'⟩ : Fin 85000)); omega)
  exact congrArg A (congrArg (fun r : Fin 50000 => ValueIdx.ix2 r l) (Fin.ext hm))

/-- The block on row j is the array on the row table word 8 i + j names: an element of the block on that row and an
    element of the array on that row, in the same column, are equal. -/
theorem gath10_row (i : grid10.Coords) (tbl : Vec F S85000 .i32) (A : Vec F S50000x128 .f32)
    (htbl : ∀ k, (tbl k).toNat < 50000) (j p : ℕ) (hp : p = 8 * (i 0).val + j) (hp' : p < 85000)
    (y : S8x128.Idx) (z : S50000x128.Idx) (hy : (y 0).val = j)
    (hz0 : (z 0).val = (tbl (ValueIdx.ix1 (⟨p, hp'⟩ : Fin 85000))).toNat) (hz1 : (z 1).val = (y 1).val) :
    gath10 i tbl A y = A z := by
  subst hp
  subst hy
  unfold gath10
  refine congrArg A (funext fun a => ?_)
  match a with
  | ⟨0, _⟩ =>
    refine Fin.ext ?_
    show min (tbl (ValueIdx.ix1 (⟨8 * (i 0).val + (y 0).val, _⟩ : Fin 85000))).toNat 49999 = (z 0).val
    rw [hz0]
    exact Nat.min_eq_left (by have := htbl (ValueIdx.ix1 (⟨8 * (i 0).val + (y 0).val, hp'⟩ : Fin 85000)); omega)
  | ⟨1, _⟩ => exact Fin.ext hz1.symm
variable (V : (c : Dev nD) → (b : Ref sig .tc) → Buf (Elt F) ((c : Thread nD τ).loc b))
variable (a10 : (pcfg10 (F := F)).Adm)

/-- The region's index table, as the pipeline holds it. -/
abbrev tblw10 : Vec F S85000 .i32 := a10.1 0

/-- The gathered block of grid point t on core c. -/
def gblk10 (c : Dev nD) (t : Fin (cfg10 a10).N) : S8x128.Idx → Elt F .f32 :=
  gath10 ((cfg10 a10).grid.coords t) (tblw10 a10) (V c main_v33)

/-- The point's number is its one coordinate. -/
theorem coords10_val (t : Fin (cfg10 a10).N) : ((cfg10 a10).grid.coords t 0).val = t.val := by
  have ht : t.val < 10625 := t.isLt
  show t.val / 1 % 10625 = t.val
  rw [Nat.div_one, Nat.mod_eq_of_lt ht]

/-- The gathered block read at row j, column l: the array at the row table word 8 t + j names. -/
theorem gblk10_apply (hlt : ∀ k : S85000.Idx, (tblw10 a10 k).toNat < 50000) (c : Dev nD) (t : Fin (cfg10 a10).N) (j : Fin 8) (l : Fin 128) :
    gblk10 V a10 c t (ValueIdx.ix2 j l)
      = V c main_v33 (ValueIdx.ix2 (⟨(tblw10 a10 (ValueIdx.ix1 (⟨8 * t.val + j.val, by
          have ht : t.val < 10625 := t.isLt
          omega⟩ : Fin 85000))).toNat, hlt _⟩ : Fin 50000) l) :=
  gath10_apply ((cfg10 a10).grid.coords t) (tblw10 a10) (V c main_v33) hlt j l (8 * t.val + j.val) (by rw [coords10_val]) _

end Cert.KernelIdeal.Hand

end
-- ==== Proof.KI.GatherDef12.lean ====
/-
  Region 12's gathered block, as a function.

  At grid point i region 12 leaves in its 8 x 128 output block, at row j and column l, the 50000 x 128 array's element at
  row (table word 8 i + j) and column l. gath12 is that block as a function of the point, the table and the array (total:
  a word is clamped to the array's last row, which changes nothing when every word is a row); gblk12 is the block of point
  t at the region's own table and array; gblk12_apply reads it at a row and a column.
-/
import proofs.«402049_j87351044866139_2_alg».proof.Proof.KI.Gather12
import Idealize.ShloMosaic.Lib.ValueIdx

set_option maxRecDepth 16384

noncomputable section

namespace Cert.KernelIdeal.Hand

open Idealize.ShloMosaic Idealize.ShloMosaic.TcCoe
open Idealize.ShloMosaic.Pipeline (Dat Cfg Window)
open Cert.KernelIdeal Cert.KernelIdeal.Gen

variable {F : FTy → Type} [FloatOps F]

/-! ## What the point writes -/

/-- The block the body leaves at grid point i: row j, column l is the array's row named by table word 8 i + j, column l.
    The word is clamped to the array's last row, so that the block is a total function of the table; under the table's
    range hypothesis the clamp does nothing. -/
def gath12 (i : grid12.Coords) (tbl : Vec F S85000 .i32) (A : Vec F S50000x128 .f32) : Vec F S8x128 .f32 := fun y =>
  A (ValueIdx.ix2 (⟨min (tbl (ValueIdx.ix1 (⟨8 * (i 0).val + (y 0).val, by
      have hi : (i 0).val < 10625 := (i 0).isLt
      have hy : (y 0).val < 8 := (y 0).isLt
      omega⟩ : Fin 85000))).toNat 49999, by omega⟩ : Fin 50000) (y 1 : Fin 128))

/-- The block at row j, column l, when the table's words are rows of the array: the array at that row and column. The
    table position is given as p with its equation, so that a caller states it in its own spelling. -/
theorem gath12_apply (i : grid12.Coords) (tbl : Vec F S85000 .i32) (A : Vec F S50000x128 .f32)
    (htbl : ∀ k, (tbl k).toNat < 50000) (j : Fin 8) (l : Fin 128) (p : ℕ) (hp : p = 8 * (i 0).val + j.val) (hp' : p < 85000) :
    gath12 i tbl A (ValueIdx.ix2 j l)
      = A (ValueIdx.ix2 (⟨(tbl (ValueIdx.ix1 (⟨p, hp'⟩ : Fin 85000))).toNat, htbl _⟩ : Fin 50000) l) := by
  subst hp
  have hm : min (tbl (ValueIdx.ix1 (⟨8 * (i 0).val + j.val, hp'⟩ : Fin 85000))).toNat 49999
      = (tbl (ValueIdx.ix1 (⟨8 * (i 0).val + j.val, hp'⟩ : Fin 85000))).toNat :=
    Nat.min_eq_left (by have := htbl (ValueIdx.ix1 (⟨8 * (i 0).val + j.val, hp'⟩ : Fin 85000)); omega)
  exact congrArg A (congrArg (fun r : Fin 50000 => ValueIdx.ix2 r l) (Fin.ext hm))

/-- The block on row j is the array on the row table word 8 i + j names: an element of the block on that row and an
    element of the array on that row, in the same column, are equal. -/
theorem gath12_row (i : grid12.Coords) (tbl : Vec F S85000 .i32) (A : Vec F S50000x128 .f32)
    (htbl : ∀ k, (tbl k).toNat < 50000) (j p : ℕ) (hp : p = 8 * (i 0).val + j) (hp' : p < 85000)
    (y : S8x128.Idx) (z : S50000x128.Idx) (hy : (y 0).val = j)
    (hz0 : (z 0).val = (tbl (ValueIdx.ix1 (⟨p, hp'⟩ : Fin 85000))).toNat) (hz1 : (z 1).val = (y 1).val) :
    gath12 i tbl A y = A z := by
  subst hp
  subst hy
  unfold gath12
  refine congrArg A (funext fun a => ?_)
  match a with
  | ⟨0, _⟩ =>
    refine Fin.ext ?_
    show min (tbl (ValueIdx.ix1 (⟨8 * (i 0).val + (y 0).val, _⟩ : Fin 85000))).toNat 49999 = (z 0).val
    rw [hz0]
    exact Nat.min_eq_left (by have := htbl (ValueIdx.ix1 (⟨8 * (i 0).val + (y 0).val, hp'⟩ : Fin 85000)); omega)
  | ⟨1, _⟩ => exact Fin.ext hz1.symm
variable (V : (c : Dev nD) → (b : Ref sig .tc) → Buf (Elt F) ((c : Thread nD τ).loc b))
variable (a12 : (pcfg12 (F := F)).Adm)

/-- The region's index table, as the pipeline holds it. -/
abbrev tblw12 : Vec F S85000 .i32 := a12.1 0

/-- The gathered block of grid point t on core c. -/
def gblk12 (c : Dev nD) (t : Fin (cfg12 a12).N) : S8x128.Idx → Elt F .f32 :=
  gath12 ((cfg12 a12).grid.coords t) (tblw12 a12) (V c main_v61)

/-- The point's number is its one coordinate. -/
theorem coords12_val (t : Fin (cfg12 a12).N) : ((cfg12 a12).grid.coords t 0).val = t.val := by
  have ht : t.val < 10625 := t.isLt
  show t.val / 1 % 10625 = t.val
  rw [Nat.div_one, Nat.mod_eq_of_lt ht]

/-- The gathered block read at row j, column l: the array at the row table word 8 t + j names. -/
theorem gblk12_apply (hlt : ∀ k : S85000.Idx, (tblw12 a12 k).toNat < 50000) (c : Dev nD) (t : Fin (cfg12 a12).N) (j : Fin 8) (l : Fin 128) :
    gblk12 V a12 c t (ValueIdx.ix2 j l)
      = V c main_v61 (ValueIdx.ix2 (⟨(tblw12 a12 (ValueIdx.ix1 (⟨8 * t.val + j.val, by
          have ht : t.val < 10625 := t.isLt
          omega⟩ : Fin 85000))).toNat, hlt _⟩ : Fin 50000) l) :=
  gath12_apply ((cfg12 a12).grid.coords t) (tblw12 a12) (V c main_v61) hlt j l (8 * t.val + j.val) (by rw [coords12_val]) _

end Cert.KernelIdeal.Hand

end
-- ==== Proof.KI.GatherDef13.lean ====
/-
  Region 13's gathered block, as a function.

  At grid point i region 13 leaves in its 8 x 128 output block, at row j and column l, the 50000 x 128 array's element at
  row (table word 8 i + j) and column l. gath13 is that block as a function of the point, the table and the array (total:
  a word is clamped to the array's last row, which changes nothing when every word is a row); gblk13 is the block of point
  t at the region's own table and array; gblk13_apply reads it at a row and a column.
-/
import proofs.«402049_j87351044866139_2_alg».proof.Proof.KI.Gather13
import Idealize.ShloMosaic.Lib.ValueIdx

set_option maxRecDepth 16384

noncomputable section

namespace Cert.KernelIdeal.Hand

open Idealize.ShloMosaic Idealize.ShloMosaic.TcCoe
open Idealize.ShloMosaic.Pipeline (Dat Cfg Window)
open Cert.KernelIdeal Cert.KernelIdeal.Gen

variable {F : FTy → Type} [FloatOps F]

/-! ## What the point writes -/

/-- The block the body leaves at grid point i: row j, column l is the array's row named by table word 8 i + j, column l.
    The word is clamped to the array's last row, so that the block is a total function of the table; under the table's
    range hypothesis the clamp does nothing. -/
def gath13 (i : grid13.Coords) (tbl : Vec F S85000 .i32) (A : Vec F S50000x128 .f32) : Vec F S8x128 .f32 := fun y =>
  A (ValueIdx.ix2 (⟨min (tbl (ValueIdx.ix1 (⟨8 * (i 0).val + (y 0).val, by
      have hi : (i 0).val < 10625 := (i 0).isLt
      have hy : (y 0).val < 8 := (y 0).isLt
      omega⟩ : Fin 85000))).toNat 49999, by omega⟩ : Fin 50000) (y 1 : Fin 128))

/-- The block at row j, column l, when the table's words are rows of the array: the array at that row and column. The
    table position is given as p with its equation, so that a caller states it in its own spelling. -/
theorem gath13_apply (i : grid13.Coords) (tbl : Vec F S85000 .i32) (A : Vec F S50000x128 .f32)
    (htbl : ∀ k, (tbl k).toNat < 50000) (j : Fin 8) (l : Fin 128) (p : ℕ) (hp : p = 8 * (i 0).val + j.val) (hp' : p < 85000) :
    gath13 i tbl A (ValueIdx.ix2 j l)
      = A (ValueIdx.ix2 (⟨(tbl (ValueIdx.ix1 (⟨p, hp'⟩ : Fin 85000))).toNat, htbl _⟩ : Fin 50000) l) := by
  subst hp
  have hm : min (tbl (ValueIdx.ix1 (⟨8 * (i 0).val + j.val, hp'⟩ : Fin 85000))).toNat 49999
      = (tbl (ValueIdx.ix1 (⟨8 * (i 0).val + j.val, hp'⟩ : Fin 85000))).toNat :=
    Nat.min_eq_left (by have := htbl (ValueIdx.ix1 (⟨8 * (i 0).val + j.val, hp'⟩ : Fin 85000)); omega)
  exact congrArg A (congrArg (fun r : Fin 50000 => ValueIdx.ix2 r l) (Fin.ext hm))

/-- The block on row j is the array on the row table word 8 i + j names: an element of the block on that row and an
    element of the array on that row, in the same column, are equal. -/
theorem gath13_row (i : grid13.Coords) (tbl : Vec F S85000 .i32) (A : Vec F S50000x128 .f32)
    (htbl : ∀ k, (tbl k).toNat < 50000) (j p : ℕ) (hp : p = 8 * (i 0).val + j) (hp' : p < 85000)
    (y : S8x128.Idx) (z : S50000x128.Idx) (hy : (y 0).val = j)
    (hz0 : (z 0).val = (tbl (ValueIdx.ix1 (⟨p, hp'⟩ : Fin 85000))).toNat) (hz1 : (z 1).val = (y 1).val) :
    gath13 i tbl A y = A z := by
  subst hp
  subst hy
  unfold gath13
  refine congrArg A (funext fun a => ?_)
  match a with
  | ⟨0, _⟩ =>
    refine Fin.ext ?_
    show min (tbl (ValueIdx.ix1 (⟨8 * (i 0).val + (y 0).val, _⟩ : Fin 85000))).toNat 49999 = (z 0).val
    rw [hz0]
    exact Nat.min_eq_left (by have := htbl (ValueIdx.ix1 (⟨8 * (i 0).val + (y 0).val, hp'⟩ : Fin 85000)); omega)
  | ⟨1, _⟩ => exact Fin.ext hz1.symm
variable (V : (c : Dev nD) → (b : Ref sig .tc) → Buf (Elt F) ((c : Thread nD τ).loc b))
variable (a13 : (pcfg13 (F := F)).Adm)

/-- The region's index table, as the pipeline holds it. -/
abbrev tblw13 : Vec F S85000 .i32 := a13.1 0

/-- The gathered block of grid point t on core c. -/
def gblk13 (c : Dev nD) (t : Fin (cfg13 a13).N) : S8x128.Idx → Elt F .f32 :=
  gath13 ((cfg13 a13).grid.coords t) (tblw13 a13) (V c main_v61)

/-- The point's number is its one coordinate. -/
theorem coords13_val (t : Fin (cfg13 a13).N) : ((cfg13 a13).grid.coords t 0).val = t.val := by
  have ht : t.val < 10625 := t.isLt
  show t.val / 1 % 10625 = t.val
  rw [Nat.div_one, Nat.mod_eq_of_lt ht]

/-- The gathered block read at row j, column l: the array at the row table word 8 t + j names. -/
theorem gblk13_apply (hlt : ∀ k : S85000.Idx, (tblw13 a13 k).toNat < 50000) (c : Dev nD) (t : Fin (cfg13 a13).N) (j : Fin 8) (l : Fin 128) :
    gblk13 V a13 c t (ValueIdx.ix2 j l)
      = V c main_v61 (ValueIdx.ix2 (⟨(tblw13 a13 (ValueIdx.ix1 (⟨8 * t.val + j.val, by
          have ht : t.val < 10625 := t.isLt
          omega⟩ : Fin 85000))).toNat, hlt _⟩ : Fin 50000) l) :=
  gath13_apply ((cfg13 a13).grid.coords t) (tblw13 a13) (V c main_v61) hlt j l (8 * t.val + j.val) (by rw [coords13_val]) _

end Cert.KernelIdeal.Hand

end
-- ==== Proof.KI.GatherDef14.lean ====
/-
  Region 14's gathered block, as a function.

  At grid point i region 14 leaves in its 8 x 128 output block, at row j and column l, the 50000 x 128 array's element at
  row (table word 8 i + j) and column l. gath14 is that block as a function of the point, the table and the array (total:
  a word is clamped to the array's last row, which changes nothing when every word is a row); gblk14 is the block of point
  t at the region's own table and array; gblk14_apply reads it at a row and a column.
-/
import proofs.«402049_j87351044866139_2_alg».proof.Proof.KI.Gather14
import Idealize.ShloMosaic.Lib.ValueIdx

set_option maxRecDepth 16384

noncomputable section

namespace Cert.KernelIdeal.Hand

open Idealize.ShloMosaic Idealize.ShloMosaic.TcCoe
open Idealize.ShloMosaic.Pipeline (Dat Cfg Window)
open Cert.KernelIdeal Cert.KernelIdeal.Gen

variable {F : FTy → Type} [FloatOps F]

/-! ## What the point writes -/

/-- The block the body leaves at grid point i: row j, column l is the array's row named by table word 8 i + j, column l.
    The word is clamped to the array's last row, so that the block is a total function of the table; under the table's
    range hypothesis the clamp does nothing. -/
def gath14 (i : grid14.Coords) (tbl : Vec F S85000 .i32) (A : Vec F S50000x128 .f32) : Vec F S8x128 .f32 := fun y =>
  A (ValueIdx.ix2 (⟨min (tbl (ValueIdx.ix1 (⟨8 * (i 0).val + (y 0).val, by
      have hi : (i 0).val < 10625 := (i 0).isLt
      have hy : (y 0).val < 8 := (y 0).isLt
      omega⟩ : Fin 85000))).toNat 49999, by omega⟩ : Fin 50000) (y 1 : Fin 128))

/-- The block at row j, column l, when the table's words are rows of the array: the array at that row and column. The
    table position is given as p with its equation, so that a caller states it in its own spelling. -/
theorem gath14_apply (i : grid14.Coords) (tbl : Vec F S85000 .i32) (A : Vec F S50000x128 .f32)
    (htbl : ∀ k, (tbl k).toNat < 50000) (j : Fin 8) (l : Fin 128) (p : ℕ) (hp : p = 8 * (i 0).val + j.val) (hp' : p < 85000) :
    gath14 i tbl A (ValueIdx.ix2 j l)
      = A (ValueIdx.ix2 (⟨(tbl (ValueIdx.ix1 (⟨p, hp'⟩ : Fin 85000))).toNat, htbl _⟩ : Fin 50000) l) := by
  subst hp
  have hm : min (tbl (ValueIdx.ix1 (⟨8 * (i 0).val + j.val, hp'⟩ : Fin 85000))).toNat 49999
      = (tbl (ValueIdx.ix1 (⟨8 * (i 0).val + j.val, hp'⟩ : Fin 85000))).toNat :=
    Nat.min_eq_left (by have := htbl (ValueIdx.ix1 (⟨8 * (i 0).val + j.val, hp'⟩ : Fin 85000)); omega)
  exact congrArg A (congrArg (fun r : Fin 50000 => ValueIdx.ix2 r l) (Fin.ext hm))

/-- The block on row j is the array on the row table word 8 i + j names: an element of the block on that row and an
    element of the array on that row, in the same column, are equal. -/
theorem gath14_row (i : grid14.Coords) (tbl : Vec F S85000 .i32) (A : Vec F S50000x128 .f32)
    (htbl : ∀ k, (tbl k).toNat < 50000) (j p : ℕ) (hp : p = 8 * (i 0).val + j) (hp' : p < 85000)
    (y : S8x128.Idx) (z : S50000x128.Idx) (hy : (y 0).val = j)
    (hz0 : (z 0).val = (tbl (ValueIdx.ix1 (⟨p, hp'⟩ : Fin 85000))).toNat) (hz1 : (z 1).val = (y 1).val) :
    gath14 i tbl A y = A z := by
  subst hp
  subst hy
  unfold gath14
  refine congrArg A (funext fun a => ?_)
  match a with
  | ⟨0, _⟩ =>
    refine Fin.ext ?_
    show min (tbl (ValueIdx.ix1 (⟨8 * (i 0).val + (y 0).val, _⟩ : Fin 85000))).toNat 49999 = (z 0).val
    rw [hz0]
    exact Nat.min_eq_left (by have := htbl (ValueIdx.ix1 (⟨8 * (i 0).val + (y 0).val, hp'⟩ : Fin 85000)); omega)
  | ⟨1, _⟩ => exact Fin.ext hz1.symm
variable (V : (c : Dev nD) → (b : Ref sig .tc) → Buf (Elt F) ((c : Thread nD τ).loc b))
variable (a14 : (pcfg14 (F := F)).Adm)

/-- The region's index table, as the pipeline holds it. -/
abbrev tblw14 : Vec F S85000 .i32 := a14.1 0

/-- The gathered block of grid point t on core c. -/
def gblk14 (c : Dev nD) (t : Fin (cfg14 a14).N) : S8x128.Idx → Elt F .f32 :=
  gath14 ((cfg14 a14).grid.coords t) (tblw14 a14) (V c main_v61)

/-- The point's number is its one coordinate. -/
theorem coords14_val (t : Fin (cfg14 a14).N) : ((cfg14 a14).grid.coords t 0).val = t.val := by
  have ht : t.val < 10625 := t.isLt
  show t.val / 1 % 10625 = t.val
  rw [Nat.div_one, Nat.mod_eq_of_lt ht]

/-- The gathered block read at row j, column l: the array at the row table word 8 t + j names. -/
theorem gblk14_apply (hlt : ∀ k : S85000.Idx, (tblw14 a14 k).toNat < 50000) (c : Dev nD) (t : Fin (cfg14 a14).N) (j : Fin 8) (l : Fin 128) :
    gblk14 V a14 c t (ValueIdx.ix2 j l)
      = V c main_v61 (ValueIdx.ix2 (⟨(tblw14 a14 (ValueIdx.ix1 (⟨8 * t.val + j.val, by
          have ht : t.val < 10625 := t.isLt
          omega⟩ : Fin 85000))).toNat, hlt _⟩ : Fin 50000) l) :=
  gath14_apply ((cfg14 a14).grid.coords t) (tblw14 a14) (V c main_v61) hlt j l (8 * t.val + j.val) (by rw [coords14_val]) _

end Cert.KernelIdeal.Hand

end
-- ==== Proof.KI.GatherDef15.lean ====
/-
  Region 15's gathered block, as a function.

  At grid point i region 15 leaves in its 8 x 128 output block, at row j and column l, the 50000 x 128 array's element at
  row (table word 8 i + j) and column l. gath15 is that block as a function of the point, the table and the array (total:
  a word is clamped to the array's last row, which changes nothing when every word is a row); gblk15 is the block of point
  t at the region's own table and array; gblk15_apply reads it at a row and a column.
-/
import proofs.«402049_j87351044866139_2_alg».proof.Proof.KI.Gather15
import Idealize.ShloMosaic.Lib.ValueIdx

set_option maxRecDepth 16384

noncomputable section

namespace Cert.KernelIdeal.Hand

open Idealize.ShloMosaic Idealize.ShloMosaic.TcCoe
open Idealize.ShloMosaic.Pipeline (Dat Cfg Window)
open Cert.KernelIdeal Cert.KernelIdeal.Gen

variable {F : FTy → Type} [FloatOps F]

/-! ## What the point writes -/

/-- The block the body leaves at grid point i: row j, column l is the array's row named by table word 8 i + j, column l.
    The word is clamped to the array's last row, so that the block is a total function of the table; under the table's
    range hypothesis the clamp does nothing. -/
def gath15 (i : grid15.Coords) (tbl : Vec F S85000 .i32) (A : Vec F S50000x128 .f32) : Vec F S8x128 .f32 := fun y =>
  A (ValueIdx.ix2 (⟨min (tbl (ValueIdx.ix1 (⟨8 * (i 0).val + (y 0).val, by
      have hi : (i 0).val < 10625 := (i 0).isLt
      have hy : (y 0).val < 8 := (y 0).isLt
      omega⟩ : Fin 85000))).toNat 49999, by omega⟩ : Fin 50000) (y 1 : Fin 128))

/-- The block at row j, column l, when the table's words are rows of the array: the array at that row and column. The
    table position is given as p with its equation, so that a caller states it in its own spelling. -/
theorem gath15_apply (i : grid15.Coords) (tbl : Vec F S85000 .i32) (A : Vec F S50000x128 .f32)
    (htbl : ∀ k, (tbl k).toNat < 50000) (j : Fin 8) (l : Fin 128) (p : ℕ) (hp : p = 8 * (i 0).val + j.val) (hp' : p < 85000) :
    gath15 i tbl A (ValueIdx.ix2 j l)
      = A (ValueIdx.ix2 (⟨(tbl (ValueIdx.ix1 (⟨p, hp'⟩ : Fin 85000))).toNat, htbl _⟩ : Fin 50000) l) := by
  subst hp
  have hm : min (tbl (ValueIdx.ix1 (⟨8 * (i 0).val + j.val, hp'⟩ : Fin 85000))).toNat 49999
      = (tbl (ValueIdx.ix1 (⟨8 * (i 0).val + j.val, hp'⟩ : Fin 85000))).toNat :=
    Nat.min_eq_left (by have := htbl (ValueIdx.ix1 (⟨8 * (i 0).val + j.val, hp'⟩ : Fin 85000)); omega)
  exact congrArg A (congrArg (fun r : Fin 50000 => ValueIdx.ix2 r l) (Fin.ext hm))

/-- The block on row j is the array on the row table word 8 i + j names: an element of the block on that row and an
    element of the array on that row, in the same column, are equal. -/
theorem gath15_row (i : grid15.Coords) (tbl : Vec F S85000 .i32) (A : Vec F S50000x128 .f32)
    (htbl : ∀ k, (tbl k).toNat < 50000) (j p : ℕ) (hp : p = 8 * (i 0).val + j) (hp' : p < 85000)
    (y : S8x128.Idx) (z : S50000x128.Idx) (hy : (y 0).val = j)
    (hz0 : (z 0).val = (tbl (ValueIdx.ix1 (⟨p, hp'⟩ : Fin 85000))).toNat) (hz1 : (z 1).val = (y 1).val) :
    gath15 i tbl A y = A z := by
  subst hp
  subst hy
  unfold gath15
  refine congrArg A (funext fun a => ?_)
  match a with
  | ⟨0, _⟩ =>
    refine Fin.ext ?_
    show min (tbl (ValueIdx.ix1 (⟨8 * (i 0).val + (y 0).val, _⟩ : Fin 85000))).toNat 49999 = (z 0).val
    rw [hz0]
    exact Nat.min_eq_left (by have := htbl (ValueIdx.ix1 (⟨8 * (i 0).val + (y 0).val, hp'⟩ : Fin 85000)); omega)
  | ⟨1, _⟩ => exact Fin.ext hz1.symm
variable (V : (c : Dev nD) → (b : Ref sig .tc) → Buf (Elt F) ((c : Thread nD τ).loc b))
variable (a15 : (pcfg15 (F := F)).Adm)

/-- The region's index table, as the pipeline holds it. -/
abbrev tblw15 : Vec F S85000 .i32 := a15.1 0

/-- The gathered block of grid point t on core c. -/
def gblk15 (c : Dev nD) (t : Fin (cfg15 a15).N) : S8x128.Idx → Elt F .f32 :=
  gath15 ((cfg15 a15).grid.coords t) (tblw15 a15) (V c main_v61)

/-- The point's number is its one coordinate. -/
theorem coords15_val (t : Fin (cfg15 a15).N) : ((cfg15 a15).grid.coords t 0).val = t.val := by
  have ht : t.val < 10625 := t.isLt
  show t.val / 1 % 10625 = t.val
  rw [Nat.div_one, Nat.mod_eq_of_lt ht]

/-- The gathered block read at row j, column l: the array at the row table word 8 t + j names. -/
theorem gblk15_apply (hlt : ∀ k : S85000.Idx, (tblw15 a15 k).toNat < 50000) (c : Dev nD) (t : Fin (cfg15 a15).N) (j : Fin 8) (l : Fin 128) :
    gblk15 V a15 c t (ValueIdx.ix2 j l)
      = V c main_v61 (ValueIdx.ix2 (⟨(tblw15 a15 (ValueIdx.ix1 (⟨8 * t.val + j.val, by
          have ht : t.val < 10625 := t.isLt
          omega⟩ : Fin 85000))).toNat, hlt _⟩ : Fin 50000) l) :=
  gath15_apply ((cfg15 a15).grid.coords t) (tblw15 a15) (V c main_v61) hlt j l (8 * t.val + j.val) (by rw [coords15_val]) _

end Cert.KernelIdeal.Hand

end
-- ==== Proof.KI.GatherDef16.lean ====
/-
  Region 16's gathered block, as a function.

  At grid point i region 16 leaves in its 8 x 128 output block, at row j and column l, the 50000 x 128 array's element at
  row (table word 8 i + j) and column l. gath16 is that block as a function of the point, the table and the array (total:
  a word is clamped to the array's last row, which changes nothing when every word is a row); gblk16 is the block of point
  t at the region's own table and array; gblk16_apply reads it at a row and a column.
-/
import proofs.«402049_j87351044866139_2_alg».proof.Proof.KI.Gather16
import Idealize.ShloMosaic.Lib.ValueIdx

set_option maxRecDepth 16384

noncomputable section

namespace Cert.KernelIdeal.Hand

open Idealize.ShloMosaic Idealize.ShloMosaic.TcCoe
open Idealize.ShloMosaic.Pipeline (Dat Cfg Window)
open Cert.KernelIdeal Cert.KernelIdeal.Gen

variable {F : FTy → Type} [FloatOps F]

/-! ## What the point writes -/

/-- The block the body leaves at grid point i: row j, column l is the array's row named by table word 8 i + j, column l.
    The word is clamped to the array's last row, so that the block is a total function of the table; under the table's
    range hypothesis the clamp does nothing. -/
def gath16 (i : grid16.Coords) (tbl : Vec F S85000 .i32) (A : Vec F S50000x128 .f32) : Vec F S8x128 .f32 := fun y =>
  A (ValueIdx.ix2 (⟨min (tbl (ValueIdx.ix1 (⟨8 * (i 0).val + (y 0).val, by
      have hi : (i 0).val < 10625 := (i 0).isLt
      have hy : (y 0).val < 8 := (y 0).isLt
      omega⟩ : Fin 85000))).toNat 49999, by omega⟩ : Fin 50000) (y 1 : Fin 128))

/-- The block at row j, column l, when the table's words are rows of the array: the array at that row and column. The
    table position is given as p with its equation, so that a caller states it in its own spelling. -/
theorem gath16_apply (i : grid16.Coords) (tbl : Vec F S85000 .i32) (A : Vec F S50000x128 .f32)
    (htbl : ∀ k, (tbl k).toNat < 50000) (j : Fin 8) (l : Fin 128) (p : ℕ) (hp : p = 8 * (i 0).val + j.val) (hp' : p < 85000) :
    gath16 i tbl A (ValueIdx.ix2 j l)
      = A (ValueIdx.ix2 (⟨(tbl (ValueIdx.ix1 (⟨p, hp'⟩ : Fin 85000))).toNat, htbl _⟩ : Fin 50000) l) := by
  subst hp
  have hm : min (tbl (ValueIdx.ix1 (⟨8 * (i 0).val + j.val, hp'⟩ : Fin 85000))).toNat 49999
      = (tbl (ValueIdx.ix1 (⟨8 * (i 0).val + j.val, hp'⟩ : Fin 85000))).toNat :=
    Nat.min_eq_left (by have := htbl (ValueIdx.ix1 (⟨8 * (i 0).val + j.val, hp'⟩ : Fin 85000)); omega)
  exact congrArg A (congrArg (fun r : Fin 50000 => ValueIdx.ix2 r l) (Fin.ext hm))

/-- The block on row j is the array on the row table word 8 i + j names: an element of the block on that row and an
    element of the array on that row, in the same column, are equal. -/
theorem gath16_row (i : grid16.Coords) (tbl : Vec F S85000 .i32) (A : Vec F S50000x128 .f32)
    (htbl : ∀ k, (tbl k).toNat < 50000) (j p : ℕ) (hp : p = 8 * (i 0).val + j) (hp' : p < 85000)
    (y : S8x128.Idx) (z : S50000x128.Idx) (hy : (y 0).val = j)
    (hz0 : (z 0).val = (tbl (ValueIdx.ix1 (⟨p, hp'⟩ : Fin 85000))).toNat) (hz1 : (z 1).val = (y 1).val) :
    gath16 i tbl A y = A z := by
  subst hp
  subst hy
  unfold gath16
  refine congrArg A (funext fun a => ?_)
  match a with
  | ⟨0, _⟩ =>
    refine Fin.ext ?_
    show min (tbl (ValueIdx.ix1 (⟨8 * (i 0).val + (y 0).val, _⟩ : Fin 85000))).toNat 49999 = (z 0).val
    rw [hz0]
    exact Nat.min_eq_left (by have := htbl (ValueIdx.ix1 (⟨8 * (i 0).val + (y 0).val, hp'⟩ : Fin 85000)); omega)
  | ⟨1, _⟩ => exact Fin.ext hz1.symm
variable (V : (c : Dev nD) → (b : Ref sig .tc) → Buf (Elt F) ((c : Thread nD τ).loc b))
variable (a16 : (pcfg16 (F := F)).Adm)

/-- The region's index table, as the pipeline holds it. -/
abbrev tblw16 : Vec F S85000 .i32 := a16.1 0

/-- The gathered block of grid point t on core c. -/
def gblk16 (c : Dev nD) (t : Fin (cfg16 a16).N) : S8x128.Idx → Elt F .f32 :=
  gath16 ((cfg16 a16).grid.coords t) (tblw16 a16) (V c main_v61)

/-- The point's number is its one coordinate. -/
theorem coords16_val (t : Fin (cfg16 a16).N) : ((cfg16 a16).grid.coords t 0).val = t.val := by
  have ht : t.val < 10625 := t.isLt
  show t.val / 1 % 10625 = t.val
  rw [Nat.div_one, Nat.mod_eq_of_lt ht]

/-- The gathered block read at row j, column l: the array at the row table word 8 t + j names. -/
theorem gblk16_apply (hlt : ∀ k : S85000.Idx, (tblw16 a16 k).toNat < 50000) (c : Dev nD) (t : Fin (cfg16 a16).N) (j : Fin 8) (l : Fin 128) :
    gblk16 V a16 c t (ValueIdx.ix2 j l)
      = V c main_v61 (ValueIdx.ix2 (⟨(tblw16 a16 (ValueIdx.ix1 (⟨8 * t.val + j.val, by
          have ht : t.val < 10625 := t.isLt
          omega⟩ : Fin 85000))).toNat, hlt _⟩ : Fin 50000) l) :=
  gath16_apply ((cfg16 a16).grid.coords t) (tblw16 a16) (V c main_v61) hlt j l (8 * t.val + j.val) (by rw [coords16_val]) _

end Cert.KernelIdeal.Hand

end
-- ==== Proof.KI.GatherDef17.lean ====
/-
  Region 17's gathered block, as a function.

  At grid point i region 17 leaves in its 8 x 128 output block, at row j and column l, the 50000 x 128 array's element at
  row (table word 8 i + j) and column l. gath17 is that block as a function of the point, the table and the array (total:
  a word is clamped to the array's last row, which changes nothing when every word is a row); gblk17 is the block of point
  t at the region's own table and array; gblk17_apply reads it at a row and a column.
-/
import proofs.«402049_j87351044866139_2_alg».proof.Proof.KI.Gather17
import Idealize.ShloMosaic.Lib.ValueIdx

set_option maxRecDepth 16384

noncomputable section

namespace Cert.KernelIdeal.Hand

open Idealize.ShloMosaic Idealize.ShloMosaic.TcCoe
open Idealize.ShloMosaic.Pipeline (Dat Cfg Window)
open Cert.KernelIdeal Cert.KernelIdeal.Gen

variable {F : FTy → Type} [FloatOps F]

/-! ## What the point writes -/

/-- The block the body leaves at grid point i: row j, column l is the array's row named by table word 8 i + j, column l.
    The word is clamped to the array's last row, so that the block is a total function of the table; under the table's
    range hypothesis the clamp does nothing. -/
def gath17 (i : grid17.Coords) (tbl : Vec F S85000 .i32) (A : Vec F S50000x128 .f32) : Vec F S8x128 .f32 := fun y =>
  A (ValueIdx.ix2 (⟨min (tbl (ValueIdx.ix1 (⟨8 * (i 0).val + (y 0).val, by
      have hi : (i 0).val < 10625 := (i 0).isLt
      have hy : (y 0).val < 8 := (y 0).isLt
      omega⟩ : Fin 85000))).toNat 49999, by omega⟩ : Fin 50000) (y 1 : Fin 128))

/-- The block at row j, column l, when the table's words are rows of the array: the array at that row and column. The
    table position is given as p with its equation, so that a caller states it in its own spelling. -/
theorem gath17_apply (i : grid17.Coords) (tbl : Vec F S85000 .i32) (A : Vec F S50000x128 .f32)
    (htbl : ∀ k, (tbl k).toNat < 50000) (j : Fin 8) (l : Fin 128) (p : ℕ) (hp : p = 8 * (i 0).val + j.val) (hp' : p < 85000) :
    gath17 i tbl A (ValueIdx.ix2 j l)
      = A (ValueIdx.ix2 (⟨(tbl (ValueIdx.ix1 (⟨p, hp'⟩ : Fin 85000))).toNat, htbl _⟩ : Fin 50000) l) := by
  subst hp
  have hm : min (tbl (ValueIdx.ix1 (⟨8 * (i 0).val + j.val, hp'⟩ : Fin 85000))).toNat 49999
      = (tbl (ValueIdx.ix1 (⟨8 * (i 0).val + j.val, hp'⟩ : Fin 85000))).toNat :=
    Nat.min_eq_left (by have := htbl (ValueIdx.ix1 (⟨8 * (i 0).val + j.val, hp'⟩ : Fin 85000)); omega)
  exact congrArg A (congrArg (fun r : Fin 50000 => ValueIdx.ix2 r l) (Fin.ext hm))

/-- The block on row j is the array on the row table word 8 i + j names: an element of the block on that row and an
    element of the array on that row, in the same column, are equal. -/
theorem gath17_row (i : grid17.Coords) (tbl : Vec F S85000 .i32) (A : Vec F S50000x128 .f32)
    (htbl : ∀ k, (tbl k).toNat < 50000) (j p : ℕ) (hp : p = 8 * (i 0).val + j) (hp' : p < 85000)
    (y : S8x128.Idx) (z : S50000x128.Idx) (hy : (y 0).val = j)
    (hz0 : (z 0).val = (tbl (ValueIdx.ix1 (⟨p, hp'⟩ : Fin 85000))).toNat) (hz1 : (z 1).val = (y 1).val) :
    gath17 i tbl A y = A z := by
  subst hp
  subst hy
  unfold gath17
  refine congrArg A (funext fun a => ?_)
  match a with
  | ⟨0, _⟩ =>
    refine Fin.ext ?_
    show min (tbl (ValueIdx.ix1 (⟨8 * (i 0).val + (y 0).val, _⟩ : Fin 85000))).toNat 49999 = (z 0).val
    rw [hz0]
    exact Nat.min_eq_left (by have := htbl (ValueIdx.ix1 (⟨8 * (i 0).val + (y 0).val, hp'⟩ : Fin 85000)); omega)
  | ⟨1, _⟩ => exact Fin.ext hz1.symm
variable (V : (c : Dev nD) → (b : Ref sig .tc) → Buf (Elt F) ((c : Thread nD τ).loc b))
variable (a17 : (pcfg17 (F := F)).Adm)

/-- The region's index table, as the pipeline holds it. -/
abbrev tblw17 : Vec F S85000 .i32 := a17.1 0

/-- The gathered block of grid point t on core c. -/
def gblk17 (c : Dev nD) (t : Fin (cfg17 a17).N) : S8x128.Idx → Elt F .f32 :=
  gath17 ((cfg17 a17).grid.coords t) (tblw17 a17) (V c main_v61)

/-- The point's number is its one coordinate. -/
theorem coords17_val (t : Fin (cfg17 a17).N) : ((cfg17 a17).grid.coords t 0).val = t.val := by
  have ht : t.val < 10625 := t.isLt
  show t.val / 1 % 10625 = t.val
  rw [Nat.div_one, Nat.mod_eq_of_lt ht]

/-- The gathered block read at row j, column l: the array at the row table word 8 t + j names. -/
theorem gblk17_apply (hlt : ∀ k : S85000.Idx, (tblw17 a17 k).toNat < 50000) (c : Dev nD) (t : Fin (cfg17 a17).N) (j : Fin 8) (l : Fin 128) :
    gblk17 V a17 c t (ValueIdx.ix2 j l)
      = V c main_v61 (ValueIdx.ix2 (⟨(tblw17 a17 (ValueIdx.ix1 (⟨8 * t.val + j.val, by
          have ht : t.val < 10625 := t.isLt
          omega⟩ : Fin 85000))).toNat, hlt _⟩ : Fin 50000) l) :=
  gath17_apply ((cfg17 a17).grid.coords t) (tblw17 a17) (V c main_v61) hlt j l (8 * t.val + j.val) (by rw [coords17_val]) _

end Cert.KernelIdeal.Hand

end
-- ==== Proof.KI.GatherDef18.lean ====
/-
  Region 18's gathered block, as a function.

  At grid point i region 18 leaves in its 8 x 128 output block, at row j and column l, the 50000 x 128 array's element at
  row (table word 8 i + j) and column l. gath18 is that block as a function of the point, the table and the array (total:
  a word is clamped to the array's last row, which changes nothing when every word is a row); gblk18 is the block of point
  t at the region's own table and array; gblk18_apply reads it at a row and a column.
-/
import proofs.«402049_j87351044866139_2_alg».proof.Proof.KI.Gather18
import Idealize.ShloMosaic.Lib.ValueIdx

set_option maxRecDepth 16384

noncomputable section

namespace Cert.KernelIdeal.Hand

open Idealize.ShloMosaic Idealize.ShloMosaic.TcCoe
open Idealize.ShloMosaic.Pipeline (Dat Cfg Window)
open Cert.KernelIdeal Cert.KernelIdeal.Gen

variable {F : FTy → Type} [FloatOps F]

/-! ## What the point writes -/

/-- The block the body leaves at grid point i: row j, column l is the array's row named by table word 8 i + j, column l.
    The word is clamped to the array's last row, so that the block is a total function of the table; under the table's
    range hypothesis the clamp does nothing. -/
def gath18 (i : grid18.Coords) (tbl : Vec F S85000 .i32) (A : Vec F S50000x128 .f32) : Vec F S8x128 .f32 := fun y =>
  A (ValueIdx.ix2 (⟨min (tbl (ValueIdx.ix1 (⟨8 * (i 0).val + (y 0).val, by
      have hi : (i 0).val < 10625 := (i 0).isLt
      have hy : (y 0).val < 8 := (y 0).isLt
      omega⟩ : Fin 85000))).toNat 49999, by omega⟩ : Fin 50000) (y 1 : Fin 128))

/-- The block at row j, column l, when the table's words are rows of the array: the array at that row and column. The
    table position is given as p with its equation, so that a caller states it in its own spelling. -/
theorem gath18_apply (i : grid18.Coords) (tbl : Vec F S85000 .i32) (A : Vec F S50000x128 .f32)
    (htbl : ∀ k, (tbl k).toNat < 50000) (j : Fin 8) (l : Fin 128) (p : ℕ) (hp : p = 8 * (i 0).val + j.val) (hp' : p < 85000) :
    gath18 i tbl A (ValueIdx.ix2 j l)
      = A (ValueIdx.ix2 (⟨(tbl (ValueIdx.ix1 (⟨p, hp'⟩ : Fin 85000))).toNat, htbl _⟩ : Fin 50000) l) := by
  subst hp
  have hm : min (tbl (ValueIdx.ix1 (⟨8 * (i 0).val + j.val, hp'⟩ : Fin 85000))).toNat 49999
      = (tbl (ValueIdx.ix1 (⟨8 * (i 0).val + j.val, hp'⟩ : Fin 85000))).toNat :=
    Nat.min_eq_left (by have := htbl (ValueIdx.ix1 (⟨8 * (i 0).val + j.val, hp'⟩ : Fin 85000)); omega)
  exact congrArg A (congrArg (fun r : Fin 50000 => ValueIdx.ix2 r l) (Fin.ext hm))

/-- The block on row j is the array on the row table word 8 i + j names: an element of the block on that row and an
    element of the array on that row, in the same column, are equal. -/
theorem gath18_row (i : grid18.Coords) (tbl : Vec F S85000 .i32) (A : Vec F S50000x128 .f32)
    (htbl : ∀ k, (tbl k).toNat < 50000) (j p : ℕ) (hp : p = 8 * (i 0).val + j) (hp' : p < 85000)
    (y : S8x128.Idx) (z : S50000x128.Idx) (hy : (y 0).val = j)
    (hz0 : (z 0).val = (tbl (ValueIdx.ix1 (⟨p, hp'⟩ : Fin 85000))).toNat) (hz1 : (z 1).val = (y 1).val) :
    gath18 i tbl A y = A z := by
  subst hp
  subst hy
  unfold gath18
  refine congrArg A (funext fun a => ?_)
  match a with
  | ⟨0, _⟩ =>
    refine Fin.ext ?_
    show min (tbl (ValueIdx.ix1 (⟨8 * (i 0).val + (y 0).val, _⟩ : Fin 85000))).toNat 49999 = (z 0).val
    rw [hz0]
    exact Nat.min_eq_left (by have := htbl (ValueIdx.ix1 (⟨8 * (i 0).val + (y 0).val, hp'⟩ : Fin 85000)); omega)
  | ⟨1, _⟩ => exact Fin.ext hz1.symm
variable (V : (c : Dev nD) → (b : Ref sig .tc) → Buf (Elt F) ((c : Thread nD τ).loc b))
variable (a18 : (pcfg18 (F := F)).Adm)

/-- The region's index table, as the pipeline holds it. -/
abbrev tblw18 : Vec F S85000 .i32 := a18.1 0

/-- The gathered block of grid point t on core c. -/
def gblk18 (c : Dev nD) (t : Fin (cfg18 a18).N) : S8x128.Idx → Elt F .f32 :=
  gath18 ((cfg18 a18).grid.coords t) (tblw18 a18) (V c main_v61)

/-- The point's number is its one coordinate. -/
theorem coords18_val (t : Fin (cfg18 a18).N) : ((cfg18 a18).grid.coords t 0).val = t.val := by
  have ht : t.val < 10625 := t.isLt
  show t.val / 1 % 10625 = t.val
  rw [Nat.div_one, Nat.mod_eq_of_lt ht]

/-- The gathered block read at row j, column l: the array at the row table word 8 t + j names. -/
theorem gblk18_apply (hlt : ∀ k : S85000.Idx, (tblw18 a18 k).toNat < 50000) (c : Dev nD) (t : Fin (cfg18 a18).N) (j : Fin 8) (l : Fin 128) :
    gblk18 V a18 c t (ValueIdx.ix2 j l)
      = V c main_v61 (ValueIdx.ix2 (⟨(tblw18 a18 (ValueIdx.ix1 (⟨8 * t.val + j.val, by
          have ht : t.val < 10625 := t.isLt
          omega⟩ : Fin 85000))).toNat, hlt _⟩ : Fin 50000) l) :=
  gath18_apply ((cfg18 a18).grid.coords t) (tblw18 a18) (V c main_v61) hlt j l (8 * t.val + j.val) (by rw [coords18_val]) _

end Cert.KernelIdeal.Hand

end
-- ==== Proof.KI.GatherDef19.lean ====
/-
  Region 19's gathered block, as a function.

  At grid point i region 19 leaves in its 8 x 128 output block, at row j and column l, the 50000 x 128 array's element at
  row (table word 8 i + j) and column l. gath19 is that block as a function of the point, the table and the array (total:
  a word is clamped to the array's last row, which changes nothing when every word is a row); gblk19 is the block of point
  t at the region's own table and array; gblk19_apply reads it at a row and a column.
-/
import proofs.«402049_j87351044866139_2_alg».proof.Proof.KI.Gather19
import Idealize.ShloMosaic.Lib.ValueIdx

set_option maxRecDepth 16384

noncomputable section

namespace Cert.KernelIdeal.Hand

open Idealize.ShloMosaic Idealize.ShloMosaic.TcCoe
open Idealize.ShloMosaic.Pipeline (Dat Cfg Window)
open Cert.KernelIdeal Cert.KernelIdeal.Gen

variable {F : FTy → Type} [FloatOps F]

/-! ## What the point writes -/

/-- The block the body leaves at grid point i: row j, column l is the array's row named by table word 8 i + j, column l.
    The word is clamped to the array's last row, so that the block is a total function of the table; under the table's
    range hypothesis the clamp does nothing. -/
def gath19 (i : grid19.Coords) (tbl : Vec F S85000 .i32) (A : Vec F S50000x128 .f32) : Vec F S8x128 .f32 := fun y =>
  A (ValueIdx.ix2 (⟨min (tbl (ValueIdx.ix1 (⟨8 * (i 0).val + (y 0).val, by
      have hi : (i 0).val < 10625 := (i 0).isLt
      have hy : (y 0).val < 8 := (y 0).isLt
      omega⟩ : Fin 85000))).toNat 49999, by omega⟩ : Fin 50000) (y 1 : Fin 128))

/-- The block at row j, column l, when the table's words are rows of the array: the array at that row and column. The
    table position is given as p with its equation, so that a caller states it in its own spelling. -/
theorem gath19_apply (i : grid19.Coords) (tbl : Vec F S85000 .i32) (A : Vec F S50000x128 .f32)
    (htbl : ∀ k, (tbl k).toNat < 50000) (j : Fin 8) (l : Fin 128) (p : ℕ) (hp : p = 8 * (i 0).val + j.val) (hp' : p < 85000) :
    gath19 i tbl A (ValueIdx.ix2 j l)
      = A (ValueIdx.ix2 (⟨(tbl (ValueIdx.ix1 (⟨p, hp'⟩ : Fin 85000))).toNat, htbl _⟩ : Fin 50000) l) := by
  subst hp
  have hm : min (tbl (ValueIdx.ix1 (⟨8 * (i 0).val + j.val, hp'⟩ : Fin 85000))).toNat 49999
      = (tbl (ValueIdx.ix1 (⟨8 * (i 0).val + j.val, hp'⟩ : Fin 85000))).toNat :=
    Nat.min_eq_left (by have := htbl (ValueIdx.ix1 (⟨8 * (i 0).val + j.val, hp'⟩ : Fin 85000)); omega)
  exact congrArg A (congrArg (fun r : Fin 50000 => ValueIdx.ix2 r l) (Fin.ext hm))

/-- The block on row j is the array on the row table word 8 i + j names: an element of the block on that row and an
    element of the array on that row, in the same column, are equal. -/
theorem gath19_row (i : grid19.Coords) (tbl : Vec F S85000 .i32) (A : Vec F S50000x128 .f32)
    (htbl : ∀ k, (tbl k).toNat < 50000) (j p : ℕ) (hp : p = 8 * (i 0).val + j) (hp' : p < 85000)
    (y : S8x128.Idx) (z : S50000x128.Idx) (hy : (y 0).val = j)
    (hz0 : (z 0).val = (tbl (ValueIdx.ix1 (⟨p, hp'⟩ : Fin 85000))).toNat) (hz1 : (z 1).val = (y 1).val) :
    gath19 i tbl A y = A z := by
  subst hp
  subst hy
  unfold gath19
  refine congrArg A (funext fun a => ?_)
  match a with
  | ⟨0, _⟩ =>
    refine Fin.ext ?_
    show min (tbl (ValueIdx.ix1 (⟨8 * (i 0).val + (y 0).val, _⟩ : Fin 85000))).toNat 49999 = (z 0).val
    rw [hz0]
    exact Nat.min_eq_left (by have := htbl (ValueIdx.ix1 (⟨8 * (i 0).val + (y 0).val, hp'⟩ : Fin 85000)); omega)
  | ⟨1, _⟩ => exact Fin.ext hz1.symm
variable (V : (c : Dev nD) → (b : Ref sig .tc) → Buf (Elt F) ((c : Thread nD τ).loc b))
variable (a19 : (pcfg19 (F := F)).Adm)

/-- The region's index table, as the pipeline holds it. -/
abbrev tblw19 : Vec F S85000 .i32 := a19.1 0

/-- The gathered block of grid point t on core c. -/
def gblk19 (c : Dev nD) (t : Fin (cfg19 a19).N) : S8x128.Idx → Elt F .f32 :=
  gath19 ((cfg19 a19).grid.coords t) (tblw19 a19) (V c main_v61)

/-- The point's number is its one coordinate. -/
theorem coords19_val (t : Fin (cfg19 a19).N) : ((cfg19 a19).grid.coords t 0).val = t.val := by
  have ht : t.val < 10625 := t.isLt
  show t.val / 1 % 10625 = t.val
  rw [Nat.div_one, Nat.mod_eq_of_lt ht]

/-- The gathered block read at row j, column l: the array at the row table word 8 t + j names. -/
theorem gblk19_apply (hlt : ∀ k : S85000.Idx, (tblw19 a19 k).toNat < 50000) (c : Dev nD) (t : Fin (cfg19 a19).N) (j : Fin 8) (l : Fin 128) :
    gblk19 V a19 c t (ValueIdx.ix2 j l)
      = V c main_v61 (ValueIdx.ix2 (⟨(tblw19 a19 (ValueIdx.ix1 (⟨8 * t.val + j.val, by
          have ht : t.val < 10625 := t.isLt
          omega⟩ : Fin 85000))).toNat, hlt _⟩ : Fin 50000) l) :=
  gath19_apply ((cfg19 a19).grid.coords t) (tblw19 a19) (V c main_v61) hlt j l (8 * t.val + j.val) (by rw [coords19_val]) _

end Cert.KernelIdeal.Hand

end
-- ==== Proof.KI.GatherDef20.lean ====
/-
  Region 20's gathered block, as a function.

  At grid point i region 20 leaves in its 8 x 128 output block, at row j and column l, the 50000 x 128 array's element at
  row (table word 8 i + j) and column l. gath20 is that block as a function of the point, the table and the array (total:
  a word is clamped to the array's last row, which changes nothing when every word is a row); gblk20 is the block of point
  t at the region's own table and array; gblk20_apply reads it at a row and a column.
-/
import proofs.«402049_j87351044866139_2_alg».proof.Proof.KI.Gather20
import Idealize.ShloMosaic.Lib.ValueIdx

set_option maxRecDepth 16384

noncomputable section

namespace Cert.KernelIdeal.Hand

open Idealize.ShloMosaic Idealize.ShloMosaic.TcCoe
open Idealize.ShloMosaic.Pipeline (Dat Cfg Window)
open Cert.KernelIdeal Cert.KernelIdeal.Gen

variable {F : FTy → Type} [FloatOps F]

/-! ## What the point writes -/

/-- The block the body leaves at grid point i: row j, column l is the array's row named by table word 8 i + j, column l.
    The word is clamped to the array's last row, so that the block is a total function of the table; under the table's
    range hypothesis the clamp does nothing. -/
def gath20 (i : grid20.Coords) (tbl : Vec F S85000 .i32) (A : Vec F S50000x128 .f32) : Vec F S8x128 .f32 := fun y =>
  A (ValueIdx.ix2 (⟨min (tbl (ValueIdx.ix1 (⟨8 * (i 0).val + (y 0).val, by
      have hi : (i 0).val < 10625 := (i 0).isLt
      have hy : (y 0).val < 8 := (y 0).isLt
      omega⟩ : Fin 85000))).toNat 49999, by omega⟩ : Fin 50000) (y 1 : Fin 128))

/-- The block at row j, column l, when the table's words are rows of the array: the array at that row and column. The
    table position is given as p with its equation, so that a caller states it in its own spelling. -/
theorem gath20_apply (i : grid20.Coords) (tbl : Vec F S85000 .i32) (A : Vec F S50000x128 .f32)
    (htbl : ∀ k, (tbl k).toNat < 50000) (j : Fin 8) (l : Fin 128) (p : ℕ) (hp : p = 8 * (i 0).val + j.val) (hp' : p < 85000) :
    gath20 i tbl A (ValueIdx.ix2 j l)
      = A (ValueIdx.ix2 (⟨(tbl (ValueIdx.ix1 (⟨p, hp'⟩ : Fin 85000))).toNat, htbl _⟩ : Fin 50000) l) := by
  subst hp
  have hm : min (tbl (ValueIdx.ix1 (⟨8 * (i 0).val + j.val, hp'⟩ : Fin 85000))).toNat 49999
      = (tbl (ValueIdx.ix1 (⟨8 * (i 0).val + j.val, hp'⟩ : Fin 85000))).toNat :=
    Nat.min_eq_left (by have := htbl (ValueIdx.ix1 (⟨8 * (i 0).val + j.val, hp'⟩ : Fin 85000)); omega)
  exact congrArg A (congrArg (fun r : Fin 50000 => ValueIdx.ix2 r l) (Fin.ext hm))

/-- The block on row j is the array on the row table word 8 i + j names: an element of the block on that row and an
    element of the array on that row, in the same column, are equal. -/
theorem gath20_row (i : grid20.Coords) (tbl : Vec F S85000 .i32) (A : Vec F S50000x128 .f32)
    (htbl : ∀ k, (tbl k).toNat < 50000) (j p : ℕ) (hp : p = 8 * (i 0).val + j) (hp' : p < 85000)
    (y : S8x128.Idx) (z : S50000x128.Idx) (hy : (y 0).val = j)
    (hz0 : (z 0).val = (tbl (ValueIdx.ix1 (⟨p, hp'⟩ : Fin 85000))).toNat) (hz1 : (z 1).val = (y 1).val) :
    gath20 i tbl A y = A z := by
  subst hp
  subst hy
  unfold gath20
  refine congrArg A (funext fun a => ?_)
  match a with
  | ⟨0, _⟩ =>
    refine Fin.ext ?_
    show min (tbl (ValueIdx.ix1 (⟨8 * (i 0).val + (y 0).val, _⟩ : Fin 85000))).toNat 49999 = (z 0).val
    rw [hz0]
    exact Nat.min_eq_left (by have := htbl (ValueIdx.ix1 (⟨8 * (i 0).val + (y 0).val, hp'⟩ : Fin 85000)); omega)
  | ⟨1, _⟩ => exact Fin.ext hz1.symm
variable (V : (c : Dev nD) → (b : Ref sig .tc) → Buf (Elt F) ((c : Thread nD τ).loc b))
variable (a20 : (pcfg20 (F := F)).Adm)

/-- The region's index table, as the pipeline holds it. -/
abbrev tblw20 : Vec F S85000 .i32 := a20.1 0

/-- The gathered block of grid point t on core c. -/
def gblk20 (c : Dev nD) (t : Fin (cfg20 a20).N) : S8x128.Idx → Elt F .f32 :=
  gath20 ((cfg20 a20).grid.coords t) (tblw20 a20) (V c main_v61)

/-- The point's number is its one coordinate. -/
theorem coords20_val (t : Fin (cfg20 a20).N) : ((cfg20 a20).grid.coords t 0).val = t.val := by
  have ht : t.val < 10625 := t.isLt
  show t.val / 1 % 10625 = t.val
  rw [Nat.div_one, Nat.mod_eq_of_lt ht]

/-- The gathered block read at row j, column l: the array at the row table word 8 t + j names. -/
theorem gblk20_apply (hlt : ∀ k : S85000.Idx, (tblw20 a20 k).toNat < 50000) (c : Dev nD) (t : Fin (cfg20 a20).N) (j : Fin 8) (l : Fin 128) :
    gblk20 V a20 c t (ValueIdx.ix2 j l)
      = V c main_v61 (ValueIdx.ix2 (⟨(tblw20 a20 (ValueIdx.ix1 (⟨8 * t.val + j.val, by
          have ht : t.val < 10625 := t.isLt
          omega⟩ : Fin 85000))).toNat, hlt _⟩ : Fin 50000) l) :=
  gath20_apply ((cfg20 a20).grid.coords t) (tblw20 a20) (V c main_v61) hlt j l (8 * t.val + j.val) (by rw [coords20_val]) _

end Cert.KernelIdeal.Hand

end
-- ==== Proof.KI.GatherDef21.lean ====
/-
  Region 21's gathered block, as a function.

  At grid point i region 21 leaves in its 8 x 128 output block, at row j and column l, the 50000 x 128 array's element at
  row (table word 8 i + j) and column l. gath21 is that block as a function of the point, the table and the array (total:
  a word is clamped to the array's last row, which changes nothing when every word is a row); gblk21 is the block of point
  t at the region's own table and array; gblk21_apply reads it at a row and a column.
-/
import proofs.«402049_j87351044866139_2_alg».proof.Proof.KI.Gather21
import Idealize.ShloMosaic.Lib.ValueIdx

set_option maxRecDepth 16384

noncomputable section

namespace Cert.KernelIdeal.Hand

open Idealize.ShloMosaic Idealize.ShloMosaic.TcCoe
open Idealize.ShloMosaic.Pipeline (Dat Cfg Window)
open Cert.KernelIdeal Cert.KernelIdeal.Gen

variable {F : FTy → Type} [FloatOps F]

/-! ## What the point writes -/

/-- The block the body leaves at grid point i: row j, column l is the array's row named by table word 8 i + j, column l.
    The word is clamped to the array's last row, so that the block is a total function of the table; under the table's
    range hypothesis the clamp does nothing. -/
def gath21 (i : grid21.Coords) (tbl : Vec F S85000 .i32) (A : Vec F S50000x128 .f32) : Vec F S8x128 .f32 := fun y =>
  A (ValueIdx.ix2 (⟨min (tbl (ValueIdx.ix1 (⟨8 * (i 0).val + (y 0).val, by
      have hi : (i 0).val < 10625 := (i 0).isLt
      have hy : (y 0).val < 8 := (y 0).isLt
      omega⟩ : Fin 85000))).toNat 49999, by omega⟩ : Fin 50000) (y 1 : Fin 128))

/-- The block at row j, column l, when the table's words are rows of the array: the array at that row and column. The
    table position is given as p with its equation, so that a caller states it in its own spelling. -/
theorem gath21_apply (i : grid21.Coords) (tbl : Vec F S85000 .i32) (A : Vec F S50000x128 .f32)
    (htbl : ∀ k, (tbl k).toNat < 50000) (j : Fin 8) (l : Fin 128) (p : ℕ) (hp : p = 8 * (i 0).val + j.val) (hp' : p < 85000) :
    gath21 i tbl A (ValueIdx.ix2 j l)
      = A (ValueIdx.ix2 (⟨(tbl (ValueIdx.ix1 (⟨p, hp'⟩ : Fin 85000))).toNat, htbl _⟩ : Fin 50000) l) := by
  subst hp
  have hm : min (tbl (ValueIdx.ix1 (⟨8 * (i 0).val + j.val, hp'⟩ : Fin 85000))).toNat 49999
      = (tbl (ValueIdx.ix1 (⟨8 * (i 0).val + j.val, hp'⟩ : Fin 85000))).toNat :=
    Nat.min_eq_left (by have := htbl (ValueIdx.ix1 (⟨8 * (i 0).val + j.val, hp'⟩ : Fin 85000)); omega)
  exact congrArg A (congrArg (fun r : Fin 50000 => ValueIdx.ix2 r l) (Fin.ext hm))

/-- The block on row j is the array on the row table word 8 i + j names: an element of the block on that row and an
    element of the array on that row, in the same column, are equal. -/
theorem gath21_row (i : grid21.Coords) (tbl : Vec F S85000 .i32) (A : Vec F S50000x128 .f32)
    (htbl : ∀ k, (tbl k).toNat < 50000) (j p : ℕ) (hp : p = 8 * (i 0).val + j) (hp' : p < 85000)
    (y : S8x128.Idx) (z : S50000x128.Idx) (hy : (y 0).val = j)
    (hz0 : (z 0).val = (tbl (ValueIdx.ix1 (⟨p, hp'⟩ : Fin 85000))).toNat) (hz1 : (z 1).val = (y 1).val) :
    gath21 i tbl A y = A z := by
  subst hp
  subst hy
  unfold gath21
  refine congrArg A (funext fun a => ?_)
  match a with
  | ⟨0, _⟩ =>
    refine Fin.ext ?_
    show min (tbl (ValueIdx.ix1 (⟨8 * (i 0).val + (y 0).val, _⟩ : Fin 85000))).toNat 49999 = (z 0).val
    rw [hz0]
    exact Nat.min_eq_left (by have := htbl (ValueIdx.ix1 (⟨8 * (i 0).val + (y 0).val, hp'⟩ : Fin 85000)); omega)
  | ⟨1, _⟩ => exact Fin.ext hz1.symm
variable (V : (c : Dev nD) → (b : Ref sig .tc) → Buf (Elt F) ((c : Thread nD τ).loc b))
variable (a21 : (pcfg21 (F := F)).Adm)

/-- The region's index table, as the pipeline holds it. -/
abbrev tblw21 : Vec F S85000 .i32 := a21.1 0

/-- The gathered block of grid point t on core c. -/
def gblk21 (c : Dev nD) (t : Fin (cfg21 a21).N) : S8x128.Idx → Elt F .f32 :=
  gath21 ((cfg21 a21).grid.coords t) (tblw21 a21) (V c main_v61)

/-- The point's number is its one coordinate. -/
theorem coords21_val (t : Fin (cfg21 a21).N) : ((cfg21 a21).grid.coords t 0).val = t.val := by
  have ht : t.val < 10625 := t.isLt
  show t.val / 1 % 10625 = t.val
  rw [Nat.div_one, Nat.mod_eq_of_lt ht]

/-- The gathered block read at row j, column l: the array at the row table word 8 t + j names. -/
theorem gblk21_apply (hlt : ∀ k : S85000.Idx, (tblw21 a21 k).toNat < 50000) (c : Dev nD) (t : Fin (cfg21 a21).N) (j : Fin 8) (l : Fin 128) :
    gblk21 V a21 c t (ValueIdx.ix2 j l)
      = V c main_v61 (ValueIdx.ix2 (⟨(tblw21 a21 (ValueIdx.ix1 (⟨8 * t.val + j.val, by
          have ht : t.val < 10625 := t.isLt
          omega⟩ : Fin 85000))).toNat, hlt _⟩ : Fin 50000) l) :=
  gath21_apply ((cfg21 a21).grid.coords t) (tblw21 a21) (V c main_v61) hlt j l (8 * t.val + j.val) (by rw [coords21_val]) _

end Cert.KernelIdeal.Hand

end
-- ==== Proof.KI.GatherDef23.lean ====
/-
  Region 23's gathered block, as a function.

  At grid point i region 23 leaves in its 8 x 128 output block, at row j and column l, the 50000 x 128 array's element at
  row (table word 8 i + j) and column l. gath23 is that block as a function of the point, the table and the array (total:
  a word is clamped to the array's last row, which changes nothing when every word is a row); gblk23 is the block of point
  t at the region's own table and array; gblk23_apply reads it at a row and a column.
-/
import proofs.«402049_j87351044866139_2_alg».proof.Proof.KI.Gather23
import Idealize.ShloMosaic.Lib.ValueIdx

set_option maxRecDepth 16384

noncomputable section

namespace Cert.KernelIdeal.Hand

open Idealize.ShloMosaic Idealize.ShloMosaic.TcCoe
open Idealize.ShloMosaic.Pipeline (Dat Cfg Window)
open Cert.KernelIdeal Cert.KernelIdeal.Gen

variable {F : FTy → Type} [FloatOps F]

/-! ## What the point writes -/

/-- The block the body leaves at grid point i: row j, column l is the array's row named by table word 8 i + j, column l.
    The word is clamped to the array's last row, so that the block is a total function of the table; under the table's
    range hypothesis the clamp does nothing. -/
def gath23 (i : grid23.Coords) (tbl : Vec F S100000 .i32) (A : Vec F S50000x128 .f32) : Vec F S8x128 .f32 := fun y =>
  A (ValueIdx.ix2 (⟨min (tbl (ValueIdx.ix1 (⟨8 * (i 0).val + (y 0).val, by
      have hi : (i 0).val < 12500 := (i 0).isLt
      have hy : (y 0).val < 8 := (y 0).isLt
      omega⟩ : Fin 100000))).toNat 49999, by omega⟩ : Fin 50000) (y 1 : Fin 128))

/-- The block at row j, column l, when the table's words are rows of the array: the array at that row and column. The
    table position is given as p with its equation, so that a caller states it in its own spelling. -/
theorem gath23_apply (i : grid23.Coords) (tbl : Vec F S100000 .i32) (A : Vec F S50000x128 .f32)
    (htbl : ∀ k, (tbl k).toNat < 50000) (j : Fin 8) (l : Fin 128) (p : ℕ) (hp : p = 8 * (i 0).val + j.val) (hp' : p < 100000) :
    gath23 i tbl A (ValueIdx.ix2 j l)
      = A (ValueIdx.ix2 (⟨(tbl (ValueIdx.ix1 (⟨p, hp'⟩ : Fin 100000))).toNat, htbl _⟩ : Fin 50000) l) := by
  subst hp
  have hm : min (tbl (ValueIdx.ix1 (⟨8 * (i 0).val + j.val, hp'⟩ : Fin 100000))).toNat 49999
      = (tbl (ValueIdx.ix1 (⟨8 * (i 0).val + j.val, hp'⟩ : Fin 100000))).toNat :=
    Nat.min_eq_left (by have := htbl (ValueIdx.ix1 (⟨8 * (i 0).val + j.val, hp'⟩ : Fin 100000)); omega)
  exact congrArg A (congrArg (fun r : Fin 50000 => ValueIdx.ix2 r l) (Fin.ext hm))

/-- The block on row j is the array on the row table word 8 i + j names: an element of the block on that row and an
    element of the array on that row, in the same column, are equal. -/
theorem gath23_row (i : grid23.Coords) (tbl : Vec F S100000 .i32) (A : Vec F S50000x128 .f32)
    (htbl : ∀ k, (tbl k).toNat < 50000) (j p : ℕ) (hp : p = 8 * (i 0).val + j) (hp' : p < 100000)
    (y : S8x128.Idx) (z : S50000x128.Idx) (hy : (y 0).val = j)
    (hz0 : (z 0).val = (tbl (ValueIdx.ix1 (⟨p, hp'⟩ : Fin 100000))).toNat) (hz1 : (z 1).val = (y 1).val) :
    gath23 i tbl A y = A z := by
  subst hp
  subst hy
  unfold gath23
  refine congrArg A (funext fun a => ?_)
  match a with
  | ⟨0, _⟩ =>
    refine Fin.ext ?_
    show min (tbl (ValueIdx.ix1 (⟨8 * (i 0).val + (y 0).val, _⟩ : Fin 100000))).toNat 49999 = (z 0).val
    rw [hz0]
    exact Nat.min_eq_left (by have := htbl (ValueIdx.ix1 (⟨8 * (i 0).val + (y 0).val, hp'⟩ : Fin 100000)); omega)
  | ⟨1, _⟩ => exact Fin.ext hz1.symm
variable (V : (c : Dev nD) → (b : Ref sig .tc) → Buf (Elt F) ((c : Thread nD τ).loc b))
variable (a23 : (pcfg23 (F := F)).Adm)

/-- The region's index table, as the pipeline holds it. -/
abbrev tblw23 : Vec F S100000 .i32 := a23.1 0

/-- The gathered block of grid point t on core c. -/
def gblk23 (c : Dev nD) (t : Fin (cfg23 a23).N) : S8x128.Idx → Elt F .f32 :=
  gath23 ((cfg23 a23).grid.coords t) (tblw23 a23) (V c main_v89)

/-- The point's number is its one coordinate. -/
theorem coords23_val (t : Fin (cfg23 a23).N) : ((cfg23 a23).grid.coords t 0).val = t.val := by
  have ht : t.val < 12500 := t.isLt
  show t.val / 1 % 12500 = t.val
  rw [Nat.div_one, Nat.mod_eq_of_lt ht]

/-- The gathered block read at row j, column l: the array at the row table word 8 t + j names. -/
theorem gblk23_apply (hlt : ∀ k : S100000.Idx, (tblw23 a23 k).toNat < 50000) (c : Dev nD) (t : Fin (cfg23 a23).N) (j : Fin 8) (l : Fin 128) :
    gblk23 V a23 c t (ValueIdx.ix2 j l)
      = V c main_v89 (ValueIdx.ix2 (⟨(tblw23 a23 (ValueIdx.ix1 (⟨8 * t.val + j.val, by
          have ht : t.val < 12500 := t.isLt
          omega⟩ : Fin 100000))).toNat, hlt _⟩ : Fin 50000) l) :=
  gath23_apply ((cfg23 a23).grid.coords t) (tblw23 a23) (V c main_v89) hlt j l (8 * t.val + j.val) (by rw [coords23_val]) _

end Cert.KernelIdeal.Hand

end
-- ==== Proof.KI.GatherDef24.lean ====
/-
  Region 24's gathered block, as a function.

  At grid point i region 24 leaves in its 8 x 128 output block, at row j and column l, the 50000 x 128 array's element at
  row (table word 8 i + j) and column l. gath24 is that block as a function of the point, the table and the array (total:
  a word is clamped to the array's last row, which changes nothing when every word is a row); gblk24 is the block of point
  t at the region's own table and array; gblk24_apply reads it at a row and a column.
-/
import proofs.«402049_j87351044866139_2_alg».proof.Proof.KI.Gather24
import Idealize.ShloMosaic.Lib.ValueIdx

set_option maxRecDepth 16384

noncomputable section

namespace Cert.KernelIdeal.Hand

open Idealize.ShloMosaic Idealize.ShloMosaic.TcCoe
open Idealize.ShloMosaic.Pipeline (Dat Cfg Window)
open Cert.KernelIdeal Cert.KernelIdeal.Gen

variable {F : FTy → Type} [FloatOps F]

/-! ## What the point writes -/

/-- The block the body leaves at grid point i: row j, column l is the array's row named by table word 8 i + j, column l.
    The word is clamped to the array's last row, so that the block is a total function of the table; under the table's
    range hypothesis the clamp does nothing. -/
def gath24 (i : grid24.Coords) (tbl : Vec F S100000 .i32) (A : Vec F S50000x128 .f32) : Vec F S8x128 .f32 := fun y =>
  A (ValueIdx.ix2 (⟨min (tbl (ValueIdx.ix1 (⟨8 * (i 0).val + (y 0).val, by
      have hi : (i 0).val < 12500 := (i 0).isLt
      have hy : (y 0).val < 8 := (y 0).isLt
      omega⟩ : Fin 100000))).toNat 49999, by omega⟩ : Fin 50000) (y 1 : Fin 128))

/-- The block at row j, column l, when the table's words are rows of the array: the array at that row and column. The
    table position is given as p with its equation, so that a caller states it in its own spelling. -/
theorem gath24_apply (i : grid24.Coords) (tbl : Vec F S100000 .i32) (A : Vec F S50000x128 .f32)
    (htbl : ∀ k, (tbl k).toNat < 50000) (j : Fin 8) (l : Fin 128) (p : ℕ) (hp : p = 8 * (i 0).val + j.val) (hp' : p < 100000) :
    gath24 i tbl A (ValueIdx.ix2 j l)
      = A (ValueIdx.ix2 (⟨(tbl (ValueIdx.ix1 (⟨p, hp'⟩ : Fin 100000))).toNat, htbl _⟩ : Fin 50000) l) := by
  subst hp
  have hm : min (tbl (ValueIdx.ix1 (⟨8 * (i 0).val + j.val, hp'⟩ : Fin 100000))).toNat 49999
      = (tbl (ValueIdx.ix1 (⟨8 * (i 0).val + j.val, hp'⟩ : Fin 100000))).toNat :=
    Nat.min_eq_left (by have := htbl (ValueIdx.ix1 (⟨8 * (i 0).val + j.val, hp'⟩ : Fin 100000)); omega)
  exact congrArg A (congrArg (fun r : Fin 50000 => ValueIdx.ix2 r l) (Fin.ext hm))

/-- The block on row j is the array on the row table word 8 i + j names: an element of the block on that row and an
    element of the array on that row, in the same column, are equal. -/
theorem gath24_row (i : grid24.Coords) (tbl : Vec F S100000 .i32) (A : Vec F S50000x128 .f32)
    (htbl : ∀ k, (tbl k).toNat < 50000) (j p : ℕ) (hp : p = 8 * (i 0).val + j) (hp' : p < 100000)
    (y : S8x128.Idx) (z : S50000x128.Idx) (hy : (y 0).val = j)
    (hz0 : (z 0).val = (tbl (ValueIdx.ix1 (⟨p, hp'⟩ : Fin 100000))).toNat) (hz1 : (z 1).val = (y 1).val) :
    gath24 i tbl A y = A z := by
  subst hp
  subst hy
  unfold gath24
  refine congrArg A (funext fun a => ?_)
  match a with
  | ⟨0, _⟩ =>
    refine Fin.ext ?_
    show min (tbl (ValueIdx.ix1 (⟨8 * (i 0).val + (y 0).val, _⟩ : Fin 100000))).toNat 49999 = (z 0).val
    rw [hz0]
    exact Nat.min_eq_left (by have := htbl (ValueIdx.ix1 (⟨8 * (i 0).val + (y 0).val, hp'⟩ : Fin 100000)); omega)
  | ⟨1, _⟩ => exact Fin.ext hz1.symm
variable (V : (c : Dev nD) → (b : Ref sig .tc) → Buf (Elt F) ((c : Thread nD τ).loc b))
variable (a24 : (pcfg24 (F := F)).Adm)

/-- The region's index table, as the pipeline holds it. -/
abbrev tblw24 : Vec F S100000 .i32 := a24.1 0

/-- The gathered block of grid point t on core c. -/
def gblk24 (c : Dev nD) (t : Fin (cfg24 a24).N) : S8x128.Idx → Elt F .f32 :=
  gath24 ((cfg24 a24).grid.coords t) (tblw24 a24) (V c main_v89)

/-- The point's number is its one coordinate. -/
theorem coords24_val (t : Fin (cfg24 a24).N) : ((cfg24 a24).grid.coords t 0).val = t.val := by
  have ht : t.val < 12500 := t.isLt
  show t.val / 1 % 12500 = t.val
  rw [Nat.div_one, Nat.mod_eq_of_lt ht]

/-- The gathered block read at row j, column l: the array at the row table word 8 t + j names. -/
theorem gblk24_apply (hlt : ∀ k : S100000.Idx, (tblw24 a24 k).toNat < 50000) (c : Dev nD) (t : Fin (cfg24 a24).N) (j : Fin 8) (l : Fin 128) :
    gblk24 V a24 c t (ValueIdx.ix2 j l)
      = V c main_v89 (ValueIdx.ix2 (⟨(tblw24 a24 (ValueIdx.ix1 (⟨8 * t.val + j.val, by
          have ht : t.val < 12500 := t.isLt
          omega⟩ : Fin 100000))).toNat, hlt _⟩ : Fin 50000) l) :=
  gath24_apply ((cfg24 a24).grid.coords t) (tblw24 a24) (V c main_v89) hlt j l (8 * t.val + j.val) (by rw [coords24_val]) _

end Cert.KernelIdeal.Hand

end
-- ==== Proof.KI.GatherDef25.lean ====
/-
  Region 25's gathered block, as a function.

  At grid point i region 25 leaves in its 8 x 128 output block, at row j and column l, the 50000 x 128 array's element at
  row (table word 8 i + j) and column l. gath25 is that block as a function of the point, the table and the array (total:
  a word is clamped to the array's last row, which changes nothing when every word is a row); gblk25 is the block of point
  t at the region's own table and array; gblk25_apply reads it at a row and a column.
-/
import proofs.«402049_j87351044866139_2_alg».proof.Proof.KI.Gather25
import Idealize.ShloMosaic.Lib.ValueIdx

set_option maxRecDepth 16384

noncomputable section

namespace Cert.KernelIdeal.Hand

open Idealize.ShloMosaic Idealize.ShloMosaic.TcCoe
open Idealize.ShloMosaic.Pipeline (Dat Cfg Window)
open Cert.KernelIdeal Cert.KernelIdeal.Gen

variable {F : FTy → Type} [FloatOps F]

/-! ## What the point writes -/

/-- The block the body leaves at grid point i: row j, column l is the array's row named by table word 8 i + j, column l.
    The word is clamped to the array's last row, so that the block is a total function of the table; under the table's
    range hypothesis the clamp does nothing. -/
def gath25 (i : grid25.Coords) (tbl : Vec F S100000 .i32) (A : Vec F S50000x128 .f32) : Vec F S8x128 .f32 := fun y =>
  A (ValueIdx.ix2 (⟨min (tbl (ValueIdx.ix1 (⟨8 * (i 0).val + (y 0).val, by
      have hi : (i 0).val < 12500 := (i 0).isLt
      have hy : (y 0).val < 8 := (y 0).isLt
      omega⟩ : Fin 100000))).toNat 49999, by omega⟩ : Fin 50000) (y 1 : Fin 128))

/-- The block at row j, column l, when the table's words are rows of the array: the array at that row and column. The
    table position is given as p with its equation, so that a caller states it in its own spelling. -/
theorem gath25_apply (i : grid25.Coords) (tbl : Vec F S100000 .i32) (A : Vec F S50000x128 .f32)
    (htbl : ∀ k, (tbl k).toNat < 50000) (j : Fin 8) (l : Fin 128) (p : ℕ) (hp : p = 8 * (i 0).val + j.val) (hp' : p < 100000) :
    gath25 i tbl A (ValueIdx.ix2 j l)
      = A (ValueIdx.ix2 (⟨(tbl (ValueIdx.ix1 (⟨p, hp'⟩ : Fin 100000))).toNat, htbl _⟩ : Fin 50000) l) := by
  subst hp
  have hm : min (tbl (ValueIdx.ix1 (⟨8 * (i 0).val + j.val, hp'⟩ : Fin 100000))).toNat 49999
      = (tbl (ValueIdx.ix1 (⟨8 * (i 0).val + j.val, hp'⟩ : Fin 100000))).toNat :=
    Nat.min_eq_left (by have := htbl (ValueIdx.ix1 (⟨8 * (i 0).val + j.val, hp'⟩ : Fin 100000)); omega)
  exact congrArg A (congrArg (fun r : Fin 50000 => ValueIdx.ix2 r l) (Fin.ext hm))

/-- The block on row j is the array on the row table word 8 i + j names: an element of the block on that row and an
    element of the array on that row, in the same column, are equal. -/
theorem gath25_row (i : grid25.Coords) (tbl : Vec F S100000 .i32) (A : Vec F S50000x128 .f32)
    (htbl : ∀ k, (tbl k).toNat < 50000) (j p : ℕ) (hp : p = 8 * (i 0).val + j) (hp' : p < 100000)
    (y : S8x128.Idx) (z : S50000x128.Idx) (hy : (y 0).val = j)
    (hz0 : (z 0).val = (tbl (ValueIdx.ix1 (⟨p, hp'⟩ : Fin 100000))).toNat) (hz1 : (z 1).val = (y 1).val) :
    gath25 i tbl A y = A z := by
  subst hp
  subst hy
  unfold gath25
  refine congrArg A (funext fun a => ?_)
  match a with
  | ⟨0, _⟩ =>
    refine Fin.ext ?_
    show min (tbl (ValueIdx.ix1 (⟨8 * (i 0).val + (y 0).val, _⟩ : Fin 100000))).toNat 49999 = (z 0).val
    rw [hz0]
    exact Nat.min_eq_left (by have := htbl (ValueIdx.ix1 (⟨8 * (i 0).val + (y 0).val, hp'⟩ : Fin 100000)); omega)
  | ⟨1, _⟩ => exact Fin.ext hz1.symm
variable (V : (c : Dev nD) → (b : Ref sig .tc) → Buf (Elt F) ((c : Thread nD τ).loc b))
variable (a25 : (pcfg25 (F := F)).Adm)

/-- The region's index table, as the pipeline holds it. -/
abbrev tblw25 : Vec F S100000 .i32 := a25.1 0

/-- The gathered block of grid point t on core c. -/
def gblk25 (c : Dev nD) (t : Fin (cfg25 a25).N) : S8x128.Idx → Elt F .f32 :=
  gath25 ((cfg25 a25).grid.coords t) (tblw25 a25) (V c main_v89)

/-- The point's number is its one coordinate. -/
theorem coords25_val (t : Fin (cfg25 a25).N) : ((cfg25 a25).grid.coords t 0).val = t.val := by
  have ht : t.val < 12500 := t.isLt
  show t.val / 1 % 12500 = t.val
  rw [Nat.div_one, Nat.mod_eq_of_lt ht]

/-- The gathered block read at row j, column l: the array at the row table word 8 t + j names. -/
theorem gblk25_apply (hlt : ∀ k : S100000.Idx, (tblw25 a25 k).toNat < 50000) (c : Dev nD) (t : Fin (cfg25 a25).N) (j : Fin 8) (l : Fin 128) :
    gblk25 V a25 c t (ValueIdx.ix2 j l)
      = V c main_v89 (ValueIdx.ix2 (⟨(tblw25 a25 (ValueIdx.ix1 (⟨8 * t.val + j.val, by
          have ht : t.val < 12500 := t.isLt
          omega⟩ : Fin 100000))).toNat, hlt _⟩ : Fin 50000) l) :=
  gath25_apply ((cfg25 a25).grid.coords t) (tblw25 a25) (V c main_v89) hlt j l (8 * t.val + j.val) (by rw [coords25_val]) _

end Cert.KernelIdeal.Hand

end
-- ==== Proof.KI.GatherDef26.lean ====
/-
  Region 26's gathered block, as a function.

  At grid point i region 26 leaves in its 8 x 128 output block, at row j and column l, the 50000 x 128 array's element at
  row (table word 8 i + j) and column l. gath26 is that block as a function of the point, the table and the array (total:
  a word is clamped to the array's last row, which changes nothing when every word is a row); gblk26 is the block of point
  t at the region's own table and array; gblk26_apply reads it at a row and a column.
-/
import proofs.«402049_j87351044866139_2_alg».proof.Proof.KI.Gather26
import Idealize.ShloMosaic.Lib.ValueIdx

set_option maxRecDepth 16384

noncomputable section

namespace Cert.KernelIdeal.Hand

open Idealize.ShloMosaic Idealize.ShloMosaic.TcCoe
open Idealize.ShloMosaic.Pipeline (Dat Cfg Window)
open Cert.KernelIdeal Cert.KernelIdeal.Gen

variable {F : FTy → Type} [FloatOps F]

/-! ## What the point writes -/

/-- The block the body leaves at grid point i: row j, column l is the array's row named by table word 8 i + j, column l.
    The word is clamped to the array's last row, so that the block is a total function of the table; under the table's
    range hypothesis the clamp does nothing. -/
def gath26 (i : grid26.Coords) (tbl : Vec F S100000 .i32) (A : Vec F S50000x128 .f32) : Vec F S8x128 .f32 := fun y =>
  A (ValueIdx.ix2 (⟨min (tbl (ValueIdx.ix1 (⟨8 * (i 0).val + (y 0).val, by
      have hi : (i 0).val < 12500 := (i 0).isLt
      have hy : (y 0).val < 8 := (y 0).isLt
      omega⟩ : Fin 100000))).toNat 49999, by omega⟩ : Fin 50000) (y 1 : Fin 128))

/-- The block at row j, column l, when the table's words are rows of the array: the array at that row and column. The
    table position is given as p with its equation, so that a caller states it in its own spelling. -/
theorem gath26_apply (i : grid26.Coords) (tbl : Vec F S100000 .i32) (A : Vec F S50000x128 .f32)
    (htbl : ∀ k, (tbl k).toNat < 50000) (j : Fin 8) (l : Fin 128) (p : ℕ) (hp : p = 8 * (i 0).val + j.val) (hp' : p < 100000) :
    gath26 i tbl A (ValueIdx.ix2 j l)
      = A (ValueIdx.ix2 (⟨(tbl (ValueIdx.ix1 (⟨p, hp'⟩ : Fin 100000))).toNat, htbl _⟩ : Fin 50000) l) := by
  subst hp
  have hm : min (tbl (ValueIdx.ix1 (⟨8 * (i 0).val + j.val, hp'⟩ : Fin 100000))).toNat 49999
      = (tbl (ValueIdx.ix1 (⟨8 * (i 0).val + j.val, hp'⟩ : Fin 100000))).toNat :=
    Nat.min_eq_left (by have := htbl (ValueIdx.ix1 (⟨8 * (i 0).val + j.val, hp'⟩ : Fin 100000)); omega)
  exact congrArg A (congrArg (fun r : Fin 50000 => ValueIdx.ix2 r l) (Fin.ext hm))

/-- The block on row j is the array on the row table word 8 i + j names: an element of the block on that row and an
    element of the array on that row, in the same column, are equal. -/
theorem gath26_row (i : grid26.Coords) (tbl : Vec F S100000 .i32) (A : Vec F S50000x128 .f32)
    (htbl : ∀ k, (tbl k).toNat < 50000) (j p : ℕ) (hp : p = 8 * (i 0).val + j) (hp' : p < 100000)
    (y : S8x128.Idx) (z : S50000x128.Idx) (hy : (y 0).val = j)
    (hz0 : (z 0).val = (tbl (ValueIdx.ix1 (⟨p, hp'⟩ : Fin 100000))).toNat) (hz1 : (z 1).val = (y 1).val) :
    gath26 i tbl A y = A z := by
  subst hp
  subst hy
  unfold gath26
  refine congrArg A (funext fun a => ?_)
  match a with
  | ⟨0, _⟩ =>
    refine Fin.ext ?_
    show min (tbl (ValueIdx.ix1 (⟨8 * (i 0).val + (y 0).val, _⟩ : Fin 100000))).toNat 49999 = (z 0).val
    rw [hz0]
    exact Nat.min_eq_left (by have := htbl (ValueIdx.ix1 (⟨8 * (i 0).val + (y 0).val, hp'⟩ : Fin 100000)); omega)
  | ⟨1, _⟩ => exact Fin.ext hz1.symm
variable (V : (c : Dev nD) → (b : Ref sig .tc) → Buf (Elt F) ((c : Thread nD τ).loc b))
variable (a26 : (pcfg26 (F := F)).Adm)

/-- The region's index table, as the pipeline holds it. -/
abbrev tblw26 : Vec F S100000 .i32 := a26.1 0

/-- The gathered block of grid point t on core c. -/
def gblk26 (c : Dev nD) (t : Fin (cfg26 a26).N) : S8x128.Idx → Elt F .f32 :=
  gath26 ((cfg26 a26).grid.coords t) (tblw26 a26) (V c main_v89)

/-- The point's number is its one coordinate. -/
theorem coords26_val (t : Fin (cfg26 a26).N) : ((cfg26 a26).grid.coords t 0).val = t.val := by
  have ht : t.val < 12500 := t.isLt
  show t.val / 1 % 12500 = t.val
  rw [Nat.div_one, Nat.mod_eq_of_lt ht]

/-- The gathered block read at row j, column l: the array at the row table word 8 t + j names. -/
theorem gblk26_apply (hlt : ∀ k : S100000.Idx, (tblw26 a26 k).toNat < 50000) (c : Dev nD) (t : Fin (cfg26 a26).N) (j : Fin 8) (l : Fin 128) :
    gblk26 V a26 c t (ValueIdx.ix2 j l)
      = V c main_v89 (ValueIdx.ix2 (⟨(tblw26 a26 (ValueIdx.ix1 (⟨8 * t.val + j.val, by
          have ht : t.val < 12500 := t.isLt
          omega⟩ : Fin 100000))).toNat, hlt _⟩ : Fin 50000) l) :=
  gath26_apply ((cfg26 a26).grid.coords t) (tblw26 a26) (V c main_v89) hlt j l (8 * t.val + j.val) (by rw [coords26_val]) _

end Cert.KernelIdeal.Hand

end
-- ==== Proof.KI.GatherDef27.lean ====
/-
  Region 27's gathered block, as a function.

  At grid point i region 27 leaves in its 8 x 128 output block, at row j and column l, the 50000 x 128 array's element at
  row (table word 8 i + j) and column l. gath27 is that block as a function of the point, the table and the array (total:
  a word is clamped to the array's last row, which changes nothing when every word is a row); gblk27 is the block of point
  t at the region's own table and array; gblk27_apply reads it at a row and a column.
-/
import proofs.«402049_j87351044866139_2_alg».proof.Proof.KI.Gather27
import Idealize.ShloMosaic.Lib.ValueIdx

set_option maxRecDepth 16384

noncomputable section

namespace Cert.KernelIdeal.Hand

open Idealize.ShloMosaic Idealize.ShloMosaic.TcCoe
open Idealize.ShloMosaic.Pipeline (Dat Cfg Window)
open Cert.KernelIdeal Cert.KernelIdeal.Gen

variable {F : FTy → Type} [FloatOps F]

/-! ## What the point writes -/

/-- The block the body leaves at grid point i: row j, column l is the array's row named by table word 8 i + j, column l.
    The word is clamped to the array's last row, so that the block is a total function of the table; under the table's
    range hypothesis the clamp does nothing. -/
def gath27 (i : grid27.Coords) (tbl : Vec F S100000 .i32) (A : Vec F S50000x128 .f32) : Vec F S8x128 .f32 := fun y =>
  A (ValueIdx.ix2 (⟨min (tbl (ValueIdx.ix1 (⟨8 * (i 0).val + (y 0).val, by
      have hi : (i 0).val < 12500 := (i 0).isLt
      have hy : (y 0).val < 8 := (y 0).isLt
      omega⟩ : Fin 100000))).toNat 49999, by omega⟩ : Fin 50000) (y 1 : Fin 128))

/-- The block at row j, column l, when the table's words are rows of the array: the array at that row and column. The
    table position is given as p with its equation, so that a caller states it in its own spelling. -/
theorem gath27_apply (i : grid27.Coords) (tbl : Vec F S100000 .i32) (A : Vec F S50000x128 .f32)
    (htbl : ∀ k, (tbl k).toNat < 50000) (j : Fin 8) (l : Fin 128) (p : ℕ) (hp : p = 8 * (i 0).val + j.val) (hp' : p < 100000) :
    gath27 i tbl A (ValueIdx.ix2 j l)
      = A (ValueIdx.ix2 (⟨(tbl (ValueIdx.ix1 (⟨p, hp'⟩ : Fin 100000))).toNat, htbl _⟩ : Fin 50000) l) := by
  subst hp
  have hm : min (tbl (ValueIdx.ix1 (⟨8 * (i 0).val + j.val, hp'⟩ : Fin 100000))).toNat 49999
      = (tbl (ValueIdx.ix1 (⟨8 * (i 0).val + j.val, hp'⟩ : Fin 100000))).toNat :=
    Nat.min_eq_left (by have := htbl (ValueIdx.ix1 (⟨8 * (i 0).val + j.val, hp'⟩ : Fin 100000)); omega)
  exact congrArg A (congrArg (fun r : Fin 50000 => ValueIdx.ix2 r l) (Fin.ext hm))

/-- The block on row j is the array on the row table word 8 i + j names: an element of the block on that row and an
    element of the array on that row, in the same column, are equal. -/
theorem gath27_row (i : grid27.Coords) (tbl : Vec F S100000 .i32) (A : Vec F S50000x128 .f32)
    (htbl : ∀ k, (tbl k).toNat < 50000) (j p : ℕ) (hp : p = 8 * (i 0).val + j) (hp' : p < 100000)
    (y : S8x128.Idx) (z : S50000x128.Idx) (hy : (y 0).val = j)
    (hz0 : (z 0).val = (tbl (ValueIdx.ix1 (⟨p, hp'⟩ : Fin 100000))).toNat) (hz1 : (z 1).val = (y 1).val) :
    gath27 i tbl A y = A z := by
  subst hp
  subst hy
  unfold gath27
  refine congrArg A (funext fun a => ?_)
  match a with
  | ⟨0, _⟩ =>
    refine Fin.ext ?_
    show min (tbl (ValueIdx.ix1 (⟨8 * (i 0).val + (y 0).val, _⟩ : Fin 100000))).toNat 49999 = (z 0).val
    rw [hz0]
    exact Nat.min_eq_left (by have := htbl (ValueIdx.ix1 (⟨8 * (i 0).val + (y 0).val, hp'⟩ : Fin 100000)); omega)
  | ⟨1, _⟩ => exact Fin.ext hz1.symm
variable (V : (c : Dev nD) → (b : Ref sig .tc) → Buf (Elt F) ((c : Thread nD τ).loc b))
variable (a27 : (pcfg27 (F := F)).Adm)

/-- The region's index table, as the pipeline holds it. -/
abbrev tblw27 : Vec F S100000 .i32 := a27.1 0

/-- The gathered block of grid point t on core c. -/
def gblk27 (c : Dev nD) (t : Fin (cfg27 a27).N) : S8x128.Idx → Elt F .f32 :=
  gath27 ((cfg27 a27).grid.coords t) (tblw27 a27) (V c main_v89)

/-- The point's number is its one coordinate. -/
theorem coords27_val (t : Fin (cfg27 a27).N) : ((cfg27 a27).grid.coords t 0).val = t.val := by
  have ht : t.val < 12500 := t.isLt
  show t.val / 1 % 12500 = t.val
  rw [Nat.div_one, Nat.mod_eq_of_lt ht]

/-- The gathered block read at row j, column l: the array at the row table word 8 t + j names. -/
theorem gblk27_apply (hlt : ∀ k : S100000.Idx, (tblw27 a27 k).toNat < 50000) (c : Dev nD) (t : Fin (cfg27 a27).N) (j : Fin 8) (l : Fin 128) :
    gblk27 V a27 c t (ValueIdx.ix2 j l)
      = V c main_v89 (ValueIdx.ix2 (⟨(tblw27 a27 (ValueIdx.ix1 (⟨8 * t.val + j.val, by
          have ht : t.val < 12500 := t.isLt
          omega⟩ : Fin 100000))).toNat, hlt _⟩ : Fin 50000) l) :=
  gath27_apply ((cfg27 a27).grid.coords t) (tblw27 a27) (V c main_v89) hlt j l (8 * t.val + j.val) (by rw [coords27_val]) _

end Cert.KernelIdeal.Hand

end
-- ==== Proof.KI.GatherDef28.lean ====
/-
  Region 28's gathered block, as a function.

  At grid point i region 28 leaves in its 8 x 128 output block, at row j and column l, the 50000 x 128 array's element at
  row (table word 8 i + j) and column l. gath28 is that block as a function of the point, the table and the array (total:
  a word is clamped to the array's last row, which changes nothing when every word is a row); gblk28 is the block of point
  t at the region's own table and array; gblk28_apply reads it at a row and a column.
-/
import proofs.«402049_j87351044866139_2_alg».proof.Proof.KI.Gather28
import Idealize.ShloMosaic.Lib.ValueIdx

set_option maxRecDepth 16384

noncomputable section

namespace Cert.KernelIdeal.Hand

open Idealize.ShloMosaic Idealize.ShloMosaic.TcCoe
open Idealize.ShloMosaic.Pipeline (Dat Cfg Window)
open Cert.KernelIdeal Cert.KernelIdeal.Gen

variable {F : FTy → Type} [FloatOps F]

/-! ## What the point writes -/

/-- The block the body leaves at grid point i: row j, column l is the array's row named by table word 8 i + j, column l.
    The word is clamped to the array's last row, so that the block is a total function of the table; under the table's
    range hypothesis the clamp does nothing. -/
def gath28 (i : grid28.Coords) (tbl : Vec F S100000 .i32) (A : Vec F S50000x128 .f32) : Vec F S8x128 .f32 := fun y =>
  A (ValueIdx.ix2 (⟨min (tbl (ValueIdx.ix1 (⟨8 * (i 0).val + (y 0).val, by
      have hi : (i 0).val < 12500 := (i 0).isLt
      have hy : (y 0).val < 8 := (y 0).isLt
      omega⟩ : Fin 100000))).toNat 49999, by omega⟩ : Fin 50000) (y 1 : Fin 128))

/-- The block at row j, column l, when the table's words are rows of the array: the array at that row and column. The
    table position is given as p with its equation, so that a caller states it in its own spelling. -/
theorem gath28_apply (i : grid28.Coords) (tbl : Vec F S100000 .i32) (A : Vec F S50000x128 .f32)
    (htbl : ∀ k, (tbl k).toNat < 50000) (j : Fin 8) (l : Fin 128) (p : ℕ) (hp : p = 8 * (i 0).val + j.val) (hp' : p < 100000) :
    gath28 i tbl A (ValueIdx.ix2 j l)
      = A (ValueIdx.ix2 (⟨(tbl (ValueIdx.ix1 (⟨p, hp'⟩ : Fin 100000))).toNat, htbl _⟩ : Fin 50000) l) := by
  subst hp
  have hm : min (tbl (ValueIdx.ix1 (⟨8 * (i 0).val + j.val, hp'⟩ : Fin 100000))).toNat 49999
      = (tbl (ValueIdx.ix1 (⟨8 * (i 0).val + j.val, hp'⟩ : Fin 100000))).toNat :=
    Nat.min_eq_left (by have := htbl (ValueIdx.ix1 (⟨8 * (i 0).val + j.val, hp'⟩ : Fin 100000)); omega)
  exact congrArg A (congrArg (fun r : Fin 50000 => ValueIdx.ix2 r l) (Fin.ext hm))

/-- The block on row j is the array on the row table word 8 i + j names: an element of the block on that row and an
    element of the array on that row, in the same column, are equal. -/
theorem gath28_row (i : grid28.Coords) (tbl : Vec F S100000 .i32) (A : Vec F S50000x128 .f32)
    (htbl : ∀ k, (tbl k).toNat < 50000) (j p : ℕ) (hp : p = 8 * (i 0).val + j) (hp' : p < 100000)
    (y : S8x128.Idx) (z : S50000x128.Idx) (hy : (y 0).val = j)
    (hz0 : (z 0).val = (tbl (ValueIdx.ix1 (⟨p, hp'⟩ : Fin 100000))).toNat) (hz1 : (z 1).val = (y 1).val) :
    gath28 i tbl A y = A z := by
  subst hp
  subst hy
  unfold gath28
  refine congrArg A (funext fun a => ?_)
  match a with
  | ⟨0, _⟩ =>
    refine Fin.ext ?_
    show min (tbl (ValueIdx.ix1 (⟨8 * (i 0).val + (y 0).val, _⟩ : Fin 100000))).toNat 49999 = (z 0).val
    rw [hz0]
    exact Nat.min_eq_left (by have := htbl (ValueIdx.ix1 (⟨8 * (i 0).val + (y 0).val, hp'⟩ : Fin 100000)); omega)
  | ⟨1, _⟩ => exact Fin.ext hz1.symm
variable (V : (c : Dev nD) → (b : Ref sig .tc) → Buf (Elt F) ((c : Thread nD τ).loc b))
variable (a28 : (pcfg28 (F := F)).Adm)

/-- The region's index table, as the pipeline holds it. -/
abbrev tblw28 : Vec F S100000 .i32 := a28.1 0

/-- The gathered block of grid point t on core c. -/
def gblk28 (c : Dev nD) (t : Fin (cfg28 a28).N) : S8x128.Idx → Elt F .f32 :=
  gath28 ((cfg28 a28).grid.coords t) (tblw28 a28) (V c main_v89)

/-- The point's number is its one coordinate. -/
theorem coords28_val (t : Fin (cfg28 a28).N) : ((cfg28 a28).grid.coords t 0).val = t.val := by
  have ht : t.val < 12500 := t.isLt
  show t.val / 1 % 12500 = t.val
  rw [Nat.div_one, Nat.mod_eq_of_lt ht]

/-- The gathered block read at row j, column l: the array at the row table word 8 t + j names. -/
theorem gblk28_apply (hlt : ∀ k : S100000.Idx, (tblw28 a28 k).toNat < 50000) (c : Dev nD) (t : Fin (cfg28 a28).N) (j : Fin 8) (l : Fin 128) :
    gblk28 V a28 c t (ValueIdx.ix2 j l)
      = V c main_v89 (ValueIdx.ix2 (⟨(tblw28 a28 (ValueIdx.ix1 (⟨8 * t.val + j.val, by
          have ht : t.val < 12500 := t.isLt
          omega⟩ : Fin 100000))).toNat, hlt _⟩ : Fin 50000) l) :=
  gath28_apply ((cfg28 a28).grid.coords t) (tblw28 a28) (V c main_v89) hlt j l (8 * t.val + j.val) (by rw [coords28_val]) _

end Cert.KernelIdeal.Hand

end
-- ==== Proof.KI.GatherDef29.lean ====
/-
  Region 29's gathered block, as a function.

  At grid point i region 29 leaves in its 8 x 128 output block, at row j and column l, the 50000 x 128 array's element at
  row (table word 8 i + j) and column l. gath29 is that block as a function of the point, the table and the array (total:
  a word is clamped to the array's last row, which changes nothing when every word is a row); gblk29 is the block of point
  t at the region's own table and array; gblk29_apply reads it at a row and a column.
-/
import proofs.«402049_j87351044866139_2_alg».proof.Proof.KI.Gather29
import Idealize.ShloMosaic.Lib.ValueIdx

set_option maxRecDepth 16384

noncomputable section

namespace Cert.KernelIdeal.Hand

open Idealize.ShloMosaic Idealize.ShloMosaic.TcCoe
open Idealize.ShloMosaic.Pipeline (Dat Cfg Window)
open Cert.KernelIdeal Cert.KernelIdeal.Gen

variable {F : FTy → Type} [FloatOps F]

/-! ## What the point writes -/

/-- The block the body leaves at grid point i: row j, column l is the array's row named by table word 8 i + j, column l.
    The word is clamped to the array's last row, so that the block is a total function of the table; under the table's
    range hypothesis the clamp does nothing. -/
def gath29 (i : grid29.Coords) (tbl : Vec F S100000 .i32) (A : Vec F S50000x128 .f32) : Vec F S8x128 .f32 := fun y =>
  A (ValueIdx.ix2 (⟨min (tbl (ValueIdx.ix1 (⟨8 * (i 0).val + (y 0).val, by
      have hi : (i 0).val < 12500 := (i 0).isLt
      have hy : (y 0).val < 8 := (y 0).isLt
      omega⟩ : Fin 100000))).toNat 49999, by omega⟩ : Fin 50000) (y 1 : Fin 128))

/-- The block at row j, column l, when the table's words are rows of the array: the array at that row and column. The
    table position is given as p with its equation, so that a caller states it in its own spelling. -/
theorem gath29_apply (i : grid29.Coords) (tbl : Vec F S100000 .i32) (A : Vec F S50000x128 .f32)
    (htbl : ∀ k, (tbl k).toNat < 50000) (j : Fin 8) (l : Fin 128) (p : ℕ) (hp : p = 8 * (i 0).val + j.val) (hp' : p < 100000) :
    gath29 i tbl A (ValueIdx.ix2 j l)
      = A (ValueIdx.ix2 (⟨(tbl (ValueIdx.ix1 (⟨p, hp'⟩ : Fin 100000))).toNat, htbl _⟩ : Fin 50000) l) := by
  subst hp
  have hm : min (tbl (ValueIdx.ix1 (⟨8 * (i 0).val + j.val, hp'⟩ : Fin 100000))).toNat 49999
      = (tbl (ValueIdx.ix1 (⟨8 * (i 0).val + j.val, hp'⟩ : Fin 100000))).toNat :=
    Nat.min_eq_left (by have := htbl (ValueIdx.ix1 (⟨8 * (i 0).val + j.val, hp'⟩ : Fin 100000)); omega)
  exact congrArg A (congrArg (fun r : Fin 50000 => ValueIdx.ix2 r l) (Fin.ext hm))

/-- The block on row j is the array on the row table word 8 i + j names: an element of the block on that row and an
    element of the array on that row, in the same column, are equal. -/
theorem gath29_row (i : grid29.Coords) (tbl : Vec F S100000 .i32) (A : Vec F S50000x128 .f32)
    (htbl : ∀ k, (tbl k).toNat < 50000) (j p : ℕ) (hp : p = 8 * (i 0).val + j) (hp' : p < 100000)
    (y : S8x128.Idx) (z : S50000x128.Idx) (hy : (y 0).val = j)
    (hz0 : (z 0).val = (tbl (ValueIdx.ix1 (⟨p, hp'⟩ : Fin 100000))).toNat) (hz1 : (z 1).val = (y 1).val) :
    gath29 i tbl A y = A z := by
  subst hp
  subst hy
  unfold gath29
  refine congrArg A (funext fun a => ?_)
  match a with
  | ⟨0, _⟩ =>
    refine Fin.ext ?_
    show min (tbl (ValueIdx.ix1 (⟨8 * (i 0).val + (y 0).val, _⟩ : Fin 100000))).toNat 49999 = (z 0).val
    rw [hz0]
    exact Nat.min_eq_left (by have := htbl (ValueIdx.ix1 (⟨8 * (i 0).val + (y 0).val, hp'⟩ : Fin 100000)); omega)
  | ⟨1, _⟩ => exact Fin.ext hz1.symm
variable (V : (c : Dev nD) → (b : Ref sig .tc) → Buf (Elt F) ((c : Thread nD τ).loc b))
variable (a29 : (pcfg29 (F := F)).Adm)

/-- The region's index table, as the pipeline holds it. -/
abbrev tblw29 : Vec F S100000 .i32 := a29.1 0

/-- The gathered block of grid point t on core c. -/
def gblk29 (c : Dev nD) (t : Fin (cfg29 a29).N) : S8x128.Idx → Elt F .f32 :=
  gath29 ((cfg29 a29).grid.coords t) (tblw29 a29) (V c main_v89)

/-- The point's number is its one coordinate. -/
theorem coords29_val (t : Fin (cfg29 a29).N) : ((cfg29 a29).grid.coords t 0).val = t.val := by
  have ht : t.val < 12500 := t.isLt
  show t.val / 1 % 12500 = t.val
  rw [Nat.div_one, Nat.mod_eq_of_lt ht]

/-- The gathered block read at row j, column l: the array at the row table word 8 t + j names. -/
theorem gblk29_apply (hlt : ∀ k : S100000.Idx, (tblw29 a29 k).toNat < 50000) (c : Dev nD) (t : Fin (cfg29 a29).N) (j : Fin 8) (l : Fin 128) :
    gblk29 V a29 c t (ValueIdx.ix2 j l)
      = V c main_v89 (ValueIdx.ix2 (⟨(tblw29 a29 (ValueIdx.ix1 (⟨8 * t.val + j.val, by
          have ht : t.val < 12500 := t.isLt
          omega⟩ : Fin 100000))).toNat, hlt _⟩ : Fin 50000) l) :=
  gath29_apply ((cfg29 a29).grid.coords t) (tblw29 a29) (V c main_v89) hlt j l (8 * t.val + j.val) (by rw [coords29_val]) _

end Cert.KernelIdeal.Hand

end
-- ==== Proof.KI.GatherDef30.lean ====
/-
  Region 30's gathered block, as a function.

  At grid point i region 30 leaves in its 8 x 128 output block, at row j and column l, the 50000 x 128 array's element at
  row (table word 8 i + j) and column l. gath30 is that block as a function of the point, the table and the array (total:
  a word is clamped to the array's last row, which changes nothing when every word is a row); gblk30 is the block of point
  t at the region's own table and array; gblk30_apply reads it at a row and a column.
-/
import proofs.«402049_j87351044866139_2_alg».proof.Proof.KI.Gather30
import Idealize.ShloMosaic.Lib.ValueIdx

set_option maxRecDepth 16384

noncomputable section

namespace Cert.KernelIdeal.Hand

open Idealize.ShloMosaic Idealize.ShloMosaic.TcCoe
open Idealize.ShloMosaic.Pipeline (Dat Cfg Window)
open Cert.KernelIdeal Cert.KernelIdeal.Gen

variable {F : FTy → Type} [FloatOps F]

/-! ## What the point writes -/

/-- The block the body leaves at grid point i: row j, column l is the array's row named by table word 8 i + j, column l.
    The word is clamped to the array's last row, so that the block is a total function of the table; under the table's
    range hypothesis the clamp does nothing. -/
def gath30 (i : grid30.Coords) (tbl : Vec F S100000 .i32) (A : Vec F S50000x128 .f32) : Vec F S8x128 .f32 := fun y =>
  A (ValueIdx.ix2 (⟨min (tbl (ValueIdx.ix1 (⟨8 * (i 0).val + (y 0).val, by
      have hi : (i 0).val < 12500 := (i 0).isLt
      have hy : (y 0).val < 8 := (y 0).isLt
      omega⟩ : Fin 100000))).toNat 49999, by omega⟩ : Fin 50000) (y 1 : Fin 128))

/-- The block at row j, column l, when the table's words are rows of the array: the array at that row and column. The
    table position is given as p with its equation, so that a caller states it in its own spelling. -/
theorem gath30_apply (i : grid30.Coords) (tbl : Vec F S100000 .i32) (A : Vec F S50000x128 .f32)
    (htbl : ∀ k, (tbl k).toNat < 50000) (j : Fin 8) (l : Fin 128) (p : ℕ) (hp : p = 8 * (i 0).val + j.val) (hp' : p < 100000) :
    gath30 i tbl A (ValueIdx.ix2 j l)
      = A (ValueIdx.ix2 (⟨(tbl (ValueIdx.ix1 (⟨p, hp'⟩ : Fin 100000))).toNat, htbl _⟩ : Fin 50000) l) := by
  subst hp
  have hm : min (tbl (ValueIdx.ix1 (⟨8 * (i 0).val + j.val, hp'⟩ : Fin 100000))).toNat 49999
      = (tbl (ValueIdx.ix1 (⟨8 * (i 0).val + j.val, hp'⟩ : Fin 100000))).toNat :=
    Nat.min_eq_left (by have := htbl (ValueIdx.ix1 (⟨8 * (i 0).val + j.val, hp'⟩ : Fin 100000)); omega)
  exact congrArg A (congrArg (fun r : Fin 50000 => ValueIdx.ix2 r l) (Fin.ext hm))

/-- The block on row j is the array on the row table word 8 i + j names: an element of the block on that row and an
    element of the array on that row, in the same column, are equal. -/
theorem gath30_row (i : grid30.Coords) (tbl : Vec F S100000 .i32) (A : Vec F S50000x128 .f32)
    (htbl : ∀ k, (tbl k).toNat < 50000) (j p : ℕ) (hp : p = 8 * (i 0).val + j) (hp' : p < 100000)
    (y : S8x128.Idx) (z : S50000x128.Idx) (hy : (y 0).val = j)
    (hz0 : (z 0).val = (tbl (ValueIdx.ix1 (⟨p, hp'⟩ : Fin 100000))).toNat) (hz1 : (z 1).val = (y 1).val) :
    gath30 i tbl A y = A z := by
  subst hp
  subst hy
  unfold gath30
  refine congrArg A (funext fun a => ?_)
  match a with
  | ⟨0, _⟩ =>
    refine Fin.ext ?_
    show min (tbl (ValueIdx.ix1 (⟨8 * (i 0).val + (y 0).val, _⟩ : Fin 100000))).toNat 49999 = (z 0).val
    rw [hz0]
    exact Nat.min_eq_left (by have := htbl (ValueIdx.ix1 (⟨8 * (i 0).val + (y 0).val, hp'⟩ : Fin 100000)); omega)
  | ⟨1, _⟩ => exact Fin.ext hz1.symm
variable (V : (c : Dev nD) → (b : Ref sig .tc) → Buf (Elt F) ((c : Thread nD τ).loc b))
variable (a30 : (pcfg30 (F := F)).Adm)

/-- The region's index table, as the pipeline holds it. -/
abbrev tblw30 : Vec F S100000 .i32 := a30.1 0

/-- The gathered block of grid point t on core c. -/
def gblk30 (c : Dev nD) (t : Fin (cfg30 a30).N) : S8x128.Idx → Elt F .f32 :=
  gath30 ((cfg30 a30).grid.coords t) (tblw30 a30) (V c main_v89)

/-- The point's number is its one coordinate. -/
theorem coords30_val (t : Fin (cfg30 a30).N) : ((cfg30 a30).grid.coords t 0).val = t.val := by
  have ht : t.val < 12500 := t.isLt
  show t.val / 1 % 12500 = t.val
  rw [Nat.div_one, Nat.mod_eq_of_lt ht]

/-- The gathered block read at row j, column l: the array at the row table word 8 t + j names. -/
theorem gblk30_apply (hlt : ∀ k : S100000.Idx, (tblw30 a30 k).toNat < 50000) (c : Dev nD) (t : Fin (cfg30 a30).N) (j : Fin 8) (l : Fin 128) :
    gblk30 V a30 c t (ValueIdx.ix2 j l)
      = V c main_v89 (ValueIdx.ix2 (⟨(tblw30 a30 (ValueIdx.ix1 (⟨8 * t.val + j.val, by
          have ht : t.val < 12500 := t.isLt
          omega⟩ : Fin 100000))).toNat, hlt _⟩ : Fin 50000) l) :=
  gath30_apply ((cfg30 a30).grid.coords t) (tblw30 a30) (V c main_v89) hlt j l (8 * t.val + j.val) (by rw [coords30_val]) _

end Cert.KernelIdeal.Hand

end
-- ==== Proof.KI.GatherDef31.lean ====
/-
  Region 31's gathered block, as a function.

  At grid point i region 31 leaves in its 8 x 128 output block, at row j and column l, the 50000 x 128 array's element at
  row (table word 8 i + j) and column l. gath31 is that block as a function of the point, the table and the array (total:
  a word is clamped to the array's last row, which changes nothing when every word is a row); gblk31 is the block of point
  t at the region's own table and array; gblk31_apply reads it at a row and a column.
-/
import proofs.«402049_j87351044866139_2_alg».proof.Proof.KI.Gather31
import Idealize.ShloMosaic.Lib.ValueIdx

set_option maxRecDepth 16384

noncomputable section

namespace Cert.KernelIdeal.Hand

open Idealize.ShloMosaic Idealize.ShloMosaic.TcCoe
open Idealize.ShloMosaic.Pipeline (Dat Cfg Window)
open Cert.KernelIdeal Cert.KernelIdeal.Gen

variable {F : FTy → Type} [FloatOps F]

/-! ## What the point writes -/

/-- The block the body leaves at grid point i: row j, column l is the array's row named by table word 8 i + j, column l.
    The word is clamped to the array's last row, so that the block is a total function of the table; under the table's
    range hypothesis the clamp does nothing. -/
def gath31 (i : grid31.Coords) (tbl : Vec F S100000 .i32) (A : Vec F S50000x128 .f32) : Vec F S8x128 .f32 := fun y =>
  A (ValueIdx.ix2 (⟨min (tbl (ValueIdx.ix1 (⟨8 * (i 0).val + (y 0).val, by
      have hi : (i 0).val < 12500 := (i 0).isLt
      have hy : (y 0).val < 8 := (y 0).isLt
      omega⟩ : Fin 100000))).toNat 49999, by omega⟩ : Fin 50000) (y 1 : Fin 128))

/-- The block at row j, column l, when the table's words are rows of the array: the array at that row and column. The
    table position is given as p with its equation, so that a caller states it in its own spelling. -/
theorem gath31_apply (i : grid31.Coords) (tbl : Vec F S100000 .i32) (A : Vec F S50000x128 .f32)
    (htbl : ∀ k, (tbl k).toNat < 50000) (j : Fin 8) (l : Fin 128) (p : ℕ) (hp : p = 8 * (i 0).val + j.val) (hp' : p < 100000) :
    gath31 i tbl A (ValueIdx.ix2 j l)
      = A (ValueIdx.ix2 (⟨(tbl (ValueIdx.ix1 (⟨p, hp'⟩ : Fin 100000))).toNat, htbl _⟩ : Fin 50000) l) := by
  subst hp
  have hm : min (tbl (ValueIdx.ix1 (⟨8 * (i 0).val + j.val, hp'⟩ : Fin 100000))).toNat 49999
      = (tbl (ValueIdx.ix1 (⟨8 * (i 0).val + j.val, hp'⟩ : Fin 100000))).toNat :=
    Nat.min_eq_left (by have := htbl (ValueIdx.ix1 (⟨8 * (i 0).val + j.val, hp'⟩ : Fin 100000)); omega)
  exact congrArg A (congrArg (fun r : Fin 50000 => ValueIdx.ix2 r l) (Fin.ext hm))

/-- The block on row j is the array on the row table word 8 i + j names: an element of the block on that row and an
    element of the array on that row, in the same column, are equal. -/
theorem gath31_row (i : grid31.Coords) (tbl : Vec F S100000 .i32) (A : Vec F S50000x128 .f32)
    (htbl : ∀ k, (tbl k).toNat < 50000) (j p : ℕ) (hp : p = 8 * (i 0).val + j) (hp' : p < 100000)
    (y : S8x128.Idx) (z : S50000x128.Idx) (hy : (y 0).val = j)
    (hz0 : (z 0).val = (tbl (ValueIdx.ix1 (⟨p, hp'⟩ : Fin 100000))).toNat) (hz1 : (z 1).val = (y 1).val) :
    gath31 i tbl A y = A z := by
  subst hp
  subst hy
  unfold gath31
  refine congrArg A (funext fun a => ?_)
  match a with
  | ⟨0, _⟩ =>
    refine Fin.ext ?_
    show min (tbl (ValueIdx.ix1 (⟨8 * (i 0).val + (y 0).val, _⟩ : Fin 100000))).toNat 49999 = (z 0).val
    rw [hz0]
    exact Nat.min_eq_left (by have := htbl (ValueIdx.ix1 (⟨8 * (i 0).val + (y 0).val, hp'⟩ : Fin 100000)); omega)
  | ⟨1, _⟩ => exact Fin.ext hz1.symm
variable (V : (c : Dev nD) → (b : Ref sig .tc) → Buf (Elt F) ((c : Thread nD τ).loc b))
variable (a31 : (pcfg31 (F := F)).Adm)

/-- The region's index table, as the pipeline holds it. -/
abbrev tblw31 : Vec F S100000 .i32 := a31.1 0

/-- The gathered block of grid point t on core c. -/
def gblk31 (c : Dev nD) (t : Fin (cfg31 a31).N) : S8x128.Idx → Elt F .f32 :=
  gath31 ((cfg31 a31).grid.coords t) (tblw31 a31) (V c main_v89)

/-- The point's number is its one coordinate. -/
theorem coords31_val (t : Fin (cfg31 a31).N) : ((cfg31 a31).grid.coords t 0).val = t.val := by
  have ht : t.val < 12500 := t.isLt
  show t.val / 1 % 12500 = t.val
  rw [Nat.div_one, Nat.mod_eq_of_lt ht]

/-- The gathered block read at row j, column l: the array at the row table word 8 t + j names. -/
theorem gblk31_apply (hlt : ∀ k : S100000.Idx, (tblw31 a31 k).toNat < 50000) (c : Dev nD) (t : Fin (cfg31 a31).N) (j : Fin 8) (l : Fin 128) :
    gblk31 V a31 c t (ValueIdx.ix2 j l)
      = V c main_v89 (ValueIdx.ix2 (⟨(tblw31 a31 (ValueIdx.ix1 (⟨8 * t.val + j.val, by
          have ht : t.val < 12500 := t.isLt
          omega⟩ : Fin 100000))).toNat, hlt _⟩ : Fin 50000) l) :=
  gath31_apply ((cfg31 a31).grid.coords t) (tblw31 a31) (V c main_v89) hlt j l (8 * t.val + j.val) (by rw [coords31_val]) _

end Cert.KernelIdeal.Hand

end
-- ==== Proof.KI.GatherDef32.lean ====
/-
  Region 32's gathered block, as a function.

  At grid point i region 32 leaves in its 8 x 128 output block, at row j and column l, the 50000 x 128 array's element at
  row (table word 8 i + j) and column l. gath32 is that block as a function of the point, the table and the array (total:
  a word is clamped to the array's last row, which changes nothing when every word is a row); gblk32 is the block of point
  t at the region's own table and array; gblk32_apply reads it at a row and a column.
-/
import proofs.«402049_j87351044866139_2_alg».proof.Proof.KI.Gather32
import Idealize.ShloMosaic.Lib.ValueIdx

set_option maxRecDepth 16384

noncomputable section

namespace Cert.KernelIdeal.Hand

open Idealize.ShloMosaic Idealize.ShloMosaic.TcCoe
open Idealize.ShloMosaic.Pipeline (Dat Cfg Window)
open Cert.KernelIdeal Cert.KernelIdeal.Gen

variable {F : FTy → Type} [FloatOps F]

/-! ## What the point writes -/

/-- The block the body leaves at grid point i: row j, column l is the array's row named by table word 8 i + j, column l.
    The word is clamped to the array's last row, so that the block is a total function of the table; under the table's
    range hypothesis the clamp does nothing. -/
def gath32 (i : grid32.Coords) (tbl : Vec F S100000 .i32) (A : Vec F S50000x128 .f32) : Vec F S8x128 .f32 := fun y =>
  A (ValueIdx.ix2 (⟨min (tbl (ValueIdx.ix1 (⟨8 * (i 0).val + (y 0).val, by
      have hi : (i 0).val < 12500 := (i 0).isLt
      have hy : (y 0).val < 8 := (y 0).isLt
      omega⟩ : Fin 100000))).toNat 49999, by omega⟩ : Fin 50000) (y 1 : Fin 128))

/-- The block at row j, column l, when the table's words are rows of the array: the array at that row and column. The
    table position is given as p with its equation, so that a caller states it in its own spelling. -/
theorem gath32_apply (i : grid32.Coords) (tbl : Vec F S100000 .i32) (A : Vec F S50000x128 .f32)
    (htbl : ∀ k, (tbl k).toNat < 50000) (j : Fin 8) (l : Fin 128) (p : ℕ) (hp : p = 8 * (i 0).val + j.val) (hp' : p < 100000) :
    gath32 i tbl A (ValueIdx.ix2 j l)
      = A (ValueIdx.ix2 (⟨(tbl (ValueIdx.ix1 (⟨p, hp'⟩ : Fin 100000))).toNat, htbl _⟩ : Fin 50000) l) := by
  subst hp
  have hm : min (tbl (ValueIdx.ix1 (⟨8 * (i 0).val + j.val, hp'⟩ : Fin 100000))).toNat 49999
      = (tbl (ValueIdx.ix1 (⟨8 * (i 0).val + j.val, hp'⟩ : Fin 100000))).toNat :=
    Nat.min_eq_left (by have := htbl (ValueIdx.ix1 (⟨8 * (i 0).val + j.val, hp'⟩ : Fin 100000)); omega)
  exact congrArg A (congrArg (fun r : Fin 50000 => ValueIdx.ix2 r l) (Fin.ext hm))

/-- The block on row j is the array on the row table word 8 i + j names: an element of the block on that row and an
    element of the array on that row, in the same column, are equal. -/
theorem gath32_row (i : grid32.Coords) (tbl : Vec F S100000 .i32) (A : Vec F S50000x128 .f32)
    (htbl : ∀ k, (tbl k).toNat < 50000) (j p : ℕ) (hp : p = 8 * (i 0).val + j) (hp' : p < 100000)
    (y : S8x128.Idx) (z : S50000x128.Idx) (hy : (y 0).val = j)
    (hz0 : (z 0).val = (tbl (ValueIdx.ix1 (⟨p, hp'⟩ : Fin 100000))).toNat) (hz1 : (z 1).val = (y 1).val) :
    gath32 i tbl A y = A z := by
  subst hp
  subst hy
  unfold gath32
  refine congrArg A (funext fun a => ?_)
  match a with
  | ⟨0, _⟩ =>
    refine Fin.ext ?_
    show min (tbl (ValueIdx.ix1 (⟨8 * (i 0).val + (y 0).val, _⟩ : Fin 100000))).toNat 49999 = (z 0).val
    rw [hz0]
    exact Nat.min_eq_left (by have := htbl (ValueIdx.ix1 (⟨8 * (i 0).val + (y 0).val, hp'⟩ : Fin 100000)); omega)
  | ⟨1, _⟩ => exact Fin.ext hz1.symm
variable (V : (c : Dev nD) → (b : Ref sig .tc) → Buf (Elt F) ((c : Thread nD τ).loc b))
variable (a32 : (pcfg32 (F := F)).Adm)

/-- The region's index table, as the pipeline holds it. -/
abbrev tblw32 : Vec F S100000 .i32 := a32.1 0

/-- The gathered block of grid point t on core c. -/
def gblk32 (c : Dev nD) (t : Fin (cfg32 a32).N) : S8x128.Idx → Elt F .f32 :=
  gath32 ((cfg32 a32).grid.coords t) (tblw32 a32) (V c main_v89)

/-- The point's number is its one coordinate. -/
theorem coords32_val (t : Fin (cfg32 a32).N) : ((cfg32 a32).grid.coords t 0).val = t.val := by
  have ht : t.val < 12500 := t.isLt
  show t.val / 1 % 12500 = t.val
  rw [Nat.div_one, Nat.mod_eq_of_lt ht]

/-- The gathered block read at row j, column l: the array at the row table word 8 t + j names. -/
theorem gblk32_apply (hlt : ∀ k : S100000.Idx, (tblw32 a32 k).toNat < 50000) (c : Dev nD) (t : Fin (cfg32 a32).N) (j : Fin 8) (l : Fin 128) :
    gblk32 V a32 c t (ValueIdx.ix2 j l)
      = V c main_v89 (ValueIdx.ix2 (⟨(tblw32 a32 (ValueIdx.ix1 (⟨8 * t.val + j.val, by
          have ht : t.val < 12500 := t.isLt
          omega⟩ : Fin 100000))).toNat, hlt _⟩ : Fin 50000) l) :=
  gath32_apply ((cfg32 a32).grid.coords t) (tblw32 a32) (V c main_v89) hlt j l (8 * t.val + j.val) (by rw [coords32_val]) _

end Cert.KernelIdeal.Hand

end
-- ==== Proof.KI.GatherDef33.lean ====
/-
  Region 33's gathered block, as a function.

  At grid point i region 33 leaves in its 8 x 128 output block, at row j and column l, the 50000 x 128 array's element at
  row (table word 8 i + j) and column l. gath33 is that block as a function of the point, the table and the array (total:
  a word is clamped to the array's last row, which changes nothing when every word is a row); gblk33 is the block of point
  t at the region's own table and array; gblk33_apply reads it at a row and a column.
-/
import proofs.«402049_j87351044866139_2_alg».proof.Proof.KI.Gather33
import Idealize.ShloMosaic.Lib.ValueIdx

set_option maxRecDepth 16384

noncomputable section

namespace Cert.KernelIdeal.Hand

open Idealize.ShloMosaic Idealize.ShloMosaic.TcCoe
open Idealize.ShloMosaic.Pipeline (Dat Cfg Window)
open Cert.KernelIdeal Cert.KernelIdeal.Gen

variable {F : FTy → Type} [FloatOps F]

/-! ## What the point writes -/

/-- The block the body leaves at grid point i: row j, column l is the array's row named by table word 8 i + j, column l.
    The word is clamped to the array's last row, so that the block is a total function of the table; under the table's
    range hypothesis the clamp does nothing. -/
def gath33 (i : grid33.Coords) (tbl : Vec F S100000 .i32) (A : Vec F S50000x128 .f32) : Vec F S8x128 .f32 := fun y =>
  A (ValueIdx.ix2 (⟨min (tbl (ValueIdx.ix1 (⟨8 * (i 0).val + (y 0).val, by
      have hi : (i 0).val < 12500 := (i 0).isLt
      have hy : (y 0).val < 8 := (y 0).isLt
      omega⟩ : Fin 100000))).toNat 49999, by omega⟩ : Fin 50000) (y 1 : Fin 128))

/-- The block at row j, column l, when the table's words are rows of the array: the array at that row and column. The
    table position is given as p with its equation, so that a caller states it in its own spelling. -/
theorem gath33_apply (i : grid33.Coords) (tbl : Vec F S100000 .i32) (A : Vec F S50000x128 .f32)
    (htbl : ∀ k, (tbl k).toNat < 50000) (j : Fin 8) (l : Fin 128) (p : ℕ) (hp : p = 8 * (i 0).val + j.val) (hp' : p < 100000) :
    gath33 i tbl A (ValueIdx.ix2 j l)
      = A (ValueIdx.ix2 (⟨(tbl (ValueIdx.ix1 (⟨p, hp'⟩ : Fin 100000))).toNat, htbl _⟩ : Fin 50000) l) := by
  subst hp
  have hm : min (tbl (ValueIdx.ix1 (⟨8 * (i 0).val + j.val, hp'⟩ : Fin 100000))).toNat 49999
      = (tbl (ValueIdx.ix1 (⟨8 * (i 0).val + j.val, hp'⟩ : Fin 100000))).toNat :=
    Nat.min_eq_left (by have := htbl (ValueIdx.ix1 (⟨8 * (i 0).val + j.val, hp'⟩ : Fin 100000)); omega)
  exact congrArg A (congrArg (fun r : Fin 50000 => ValueIdx.ix2 r l) (Fin.ext hm))

/-- The block on row j is the array on the row table word 8 i + j names: an element of the block on that row and an
    element of the array on that row, in the same column, are equal. -/
theorem gath33_row (i : grid33.Coords) (tbl : Vec F S100000 .i32) (A : Vec F S50000x128 .f32)
    (htbl : ∀ k, (tbl k).toNat < 50000) (j p : ℕ) (hp : p = 8 * (i 0).val + j) (hp' : p < 100000)
    (y : S8x128.Idx) (z : S50000x128.Idx) (hy : (y 0).val = j)
    (hz0 : (z 0).val = (tbl (ValueIdx.ix1 (⟨p, hp'⟩ : Fin 100000))).toNat) (hz1 : (z 1).val = (y 1).val) :
    gath33 i tbl A y = A z := by
  subst hp
  subst hy
  unfold gath33
  refine congrArg A (funext fun a => ?_)
  match a with
  | ⟨0, _⟩ =>
    refine Fin.ext ?_
    show min (tbl (ValueIdx.ix1 (⟨8 * (i 0).val + (y 0).val, _⟩ : Fin 100000))).toNat 49999 = (z 0).val
    rw [hz0]
    exact Nat.min_eq_left (by have := htbl (ValueIdx.ix1 (⟨8 * (i 0).val + (y 0).val, hp'⟩ : Fin 100000)); omega)
  | ⟨1, _⟩ => exact Fin.ext hz1.symm
variable (V : (c : Dev nD) → (b : Ref sig .tc) → Buf (Elt F) ((c : Thread nD τ).loc b))
variable (a33 : (pcfg33 (F := F)).Adm)

/-- The region's index table, as the pipeline holds it. -/
abbrev tblw33 : Vec F S100000 .i32 := a33.1 0

/-- The gathered block of grid point t on core c. -/
def gblk33 (c : Dev nD) (t : Fin (cfg33 a33).N) : S8x128.Idx → Elt F .f32 :=
  gath33 ((cfg33 a33).grid.coords t) (tblw33 a33) (V c main_v89)

/-- The point's number is its one coordinate. -/
theorem coords33_val (t : Fin (cfg33 a33).N) : ((cfg33 a33).grid.coords t 0).val = t.val := by
  have ht : t.val < 12500 := t.isLt
  show t.val / 1 % 12500 = t.val
  rw [Nat.div_one, Nat.mod_eq_of_lt ht]

/-- The gathered block read at row j, column l: the array at the row table word 8 t + j names. -/
theorem gblk33_apply (hlt : ∀ k : S100000.Idx, (tblw33 a33 k).toNat < 50000) (c : Dev nD) (t : Fin (cfg33 a33).N) (j : Fin 8) (l : Fin 128) :
    gblk33 V a33 c t (ValueIdx.ix2 j l)
      = V c main_v89 (ValueIdx.ix2 (⟨(tblw33 a33 (ValueIdx.ix1 (⟨8 * t.val + j.val, by
          have ht : t.val < 12500 := t.isLt
          omega⟩ : Fin 100000))).toNat, hlt _⟩ : Fin 50000) l) :=
  gath33_apply ((cfg33 a33).grid.coords t) (tblw33 a33) (V c main_v89) hlt j l (8 * t.val + j.val) (by rw [coords33_val]) _

end Cert.KernelIdeal.Hand

end
-- ==== Proof.KI.GatherDef34.lean ====
/-
  Region 34's gathered block, as a function.

  At grid point i region 34 leaves in its 8 x 128 output block, at row j and column l, the 50000 x 128 array's element at
  row (table word 8 i + j) and column l. gath34 is that block as a function of the point, the table and the array (total:
  a word is clamped to the array's last row, which changes nothing when every word is a row); gblk34 is the block of point
  t at the region's own table and array; gblk34_apply reads it at a row and a column.
-/
import proofs.«402049_j87351044866139_2_alg».proof.Proof.KI.Gather34
import Idealize.ShloMosaic.Lib.ValueIdx

set_option maxRecDepth 16384

noncomputable section

namespace Cert.KernelIdeal.Hand

open Idealize.ShloMosaic Idealize.ShloMosaic.TcCoe
open Idealize.ShloMosaic.Pipeline (Dat Cfg Window)
open Cert.KernelIdeal Cert.KernelIdeal.Gen

variable {F : FTy → Type} [FloatOps F]

/-! ## What the point writes -/

/-- The block the body leaves at grid point i: row j, column l is the array's row named by table word 8 i + j, column l.
    The word is clamped to the array's last row, so that the block is a total function of the table; under the table's
    range hypothesis the clamp does nothing. -/
def gath34 (i : grid34.Coords) (tbl : Vec F S100000 .i32) (A : Vec F S50000x128 .f32) : Vec F S8x128 .f32 := fun y =>
  A (ValueIdx.ix2 (⟨min (tbl (ValueIdx.ix1 (⟨8 * (i 0).val + (y 0).val, by
      have hi : (i 0).val < 12500 := (i 0).isLt
      have hy : (y 0).val < 8 := (y 0).isLt
      omega⟩ : Fin 100000))).toNat 49999, by omega⟩ : Fin 50000) (y 1 : Fin 128))

/-- The block at row j, column l, when the table's words are rows of the array: the array at that row and column. The
    table position is given as p with its equation, so that a caller states it in its own spelling. -/
theorem gath34_apply (i : grid34.Coords) (tbl : Vec F S100000 .i32) (A : Vec F S50000x128 .f32)
    (htbl : ∀ k, (tbl k).toNat < 50000) (j : Fin 8) (l : Fin 128) (p : ℕ) (hp : p = 8 * (i 0).val + j.val) (hp' : p < 100000) :
    gath34 i tbl A (ValueIdx.ix2 j l)
      = A (ValueIdx.ix2 (⟨(tbl (ValueIdx.ix1 (⟨p, hp'⟩ : Fin 100000))).toNat, htbl _⟩ : Fin 50000) l) := by
  subst hp
  have hm : min (tbl (ValueIdx.ix1 (⟨8 * (i 0).val + j.val, hp'⟩ : Fin 100000))).toNat 49999
      = (tbl (ValueIdx.ix1 (⟨8 * (i 0).val + j.val, hp'⟩ : Fin 100000))).toNat :=
    Nat.min_eq_left (by have := htbl (ValueIdx.ix1 (⟨8 * (i 0).val + j.val, hp'⟩ : Fin 100000)); omega)
  exact congrArg A (congrArg (fun r : Fin 50000 => ValueIdx.ix2 r l) (Fin.ext hm))

/-- The block on row j is the array on the row table word 8 i + j names: an element of the block on that row and an
    element of the array on that row, in the same column, are equal. -/
theorem gath34_row (i : grid34.Coords) (tbl : Vec F S100000 .i32) (A : Vec F S50000x128 .f32)
    (htbl : ∀ k, (tbl k).toNat < 50000) (j p : ℕ) (hp : p = 8 * (i 0).val + j) (hp' : p < 100000)
    (y : S8x128.Idx) (z : S50000x128.Idx) (hy : (y 0).val = j)
    (hz0 : (z 0).val = (tbl (ValueIdx.ix1 (⟨p, hp'⟩ : Fin 100000))).toNat) (hz1 : (z 1).val = (y 1).val) :
    gath34 i tbl A y = A z := by
  subst hp
  subst hy
  unfold gath34
  refine congrArg A (funext fun a => ?_)
  match a with
  | ⟨0, _⟩ =>
    refine Fin.ext ?_
    show min (tbl (ValueIdx.ix1 (⟨8 * (i 0).val + (y 0).val, _⟩ : Fin 100000))).toNat 49999 = (z 0).val
    rw [hz0]
    exact Nat.min_eq_left (by have := htbl (ValueIdx.ix1 (⟨8 * (i 0).val + (y 0).val, hp'⟩ : Fin 100000)); omega)
  | ⟨1, _⟩ => exact Fin.ext hz1.symm
variable (V : (c : Dev nD) → (b : Ref sig .tc) → Buf (Elt F) ((c : Thread nD τ).loc b))
variable (a34 : (pcfg34 (F := F)).Adm)

/-- The region's index table, as the pipeline holds it. -/
abbrev tblw34 : Vec F S100000 .i32 := a34.1 0

/-- The gathered block of grid point t on core c. -/
def gblk34 (c : Dev nD) (t : Fin (cfg34 a34).N) : S8x128.Idx → Elt F .f32 :=
  gath34 ((cfg34 a34).grid.coords t) (tblw34 a34) (V c main_v89)

/-- The point's number is its one coordinate. -/
theorem coords34_val (t : Fin (cfg34 a34).N) : ((cfg34 a34).grid.coords t 0).val = t.val := by
  have ht : t.val < 12500 := t.isLt
  show t.val / 1 % 12500 = t.val
  rw [Nat.div_one, Nat.mod_eq_of_lt ht]

/-- The gathered block read at row j, column l: the array at the row table word 8 t + j names. -/
theorem gblk34_apply (hlt : ∀ k : S100000.Idx, (tblw34 a34 k).toNat < 50000) (c : Dev nD) (t : Fin (cfg34 a34).N) (j : Fin 8) (l : Fin 128) :
    gblk34 V a34 c t (ValueIdx.ix2 j l)
      = V c main_v89 (ValueIdx.ix2 (⟨(tblw34 a34 (ValueIdx.ix1 (⟨8 * t.val + j.val, by
          have ht : t.val < 12500 := t.isLt
          omega⟩ : Fin 100000))).toNat, hlt _⟩ : Fin 50000) l) :=
  gath34_apply ((cfg34 a34).grid.coords t) (tblw34 a34) (V c main_v89) hlt j l (8 * t.val + j.val) (by rw [coords34_val]) _

end Cert.KernelIdeal.Hand

end
-- ==== Proof.KI.GatherDef35.lean ====
/-
  Region 35's gathered block, as a function.

  At grid point i region 35 leaves in its 8 x 128 output block, at row j and column l, the 50000 x 128 array's element at
  row (table word 8 i + j) and column l. gath35 is that block as a function of the point, the table and the array (total:
  a word is clamped to the array's last row, which changes nothing when every word is a row); gblk35 is the block of point
  t at the region's own table and array; gblk35_apply reads it at a row and a column.
-/
import proofs.«402049_j87351044866139_2_alg».proof.Proof.KI.Gather35
import Idealize.ShloMosaic.Lib.ValueIdx

set_option maxRecDepth 16384

noncomputable section

namespace Cert.KernelIdeal.Hand

open Idealize.ShloMosaic Idealize.ShloMosaic.TcCoe
open Idealize.ShloMosaic.Pipeline (Dat Cfg Window)
open Cert.KernelIdeal Cert.KernelIdeal.Gen

variable {F : FTy → Type} [FloatOps F]

/-! ## What the point writes -/

/-- The block the body leaves at grid point i: row j, column l is the array's row named by table word 8 i + j, column l.
    The word is clamped to the array's last row, so that the block is a total function of the table; under the table's
    range hypothesis the clamp does nothing. -/
def gath35 (i : grid35.Coords) (tbl : Vec F S100000 .i32) (A : Vec F S50000x128 .f32) : Vec F S8x128 .f32 := fun y =>
  A (ValueIdx.ix2 (⟨min (tbl (ValueIdx.ix1 (⟨8 * (i 0).val + (y 0).val, by
      have hi : (i 0).val < 12500 := (i 0).isLt
      have hy : (y 0).val < 8 := (y 0).isLt
      omega⟩ : Fin 100000))).toNat 49999, by omega⟩ : Fin 50000) (y 1 : Fin 128))

/-- The block at row j, column l, when the table's words are rows of the array: the array at that row and column. The
    table position is given as p with its equation, so that a caller states it in its own spelling. -/
theorem gath35_apply (i : grid35.Coords) (tbl : Vec F S100000 .i32) (A : Vec F S50000x128 .f32)
    (htbl : ∀ k, (tbl k).toNat < 50000) (j : Fin 8) (l : Fin 128) (p : ℕ) (hp : p = 8 * (i 0).val + j.val) (hp' : p < 100000) :
    gath35 i tbl A (ValueIdx.ix2 j l)
      = A (ValueIdx.ix2 (⟨(tbl (ValueIdx.ix1 (⟨p, hp'⟩ : Fin 100000))).toNat, htbl _⟩ : Fin 50000) l) := by
  subst hp
  have hm : min (tbl (ValueIdx.ix1 (⟨8 * (i 0).val + j.val, hp'⟩ : Fin 100000))).toNat 49999
      = (tbl (ValueIdx.ix1 (⟨8 * (i 0).val + j.val, hp'⟩ : Fin 100000))).toNat :=
    Nat.min_eq_left (by have := htbl (ValueIdx.ix1 (⟨8 * (i 0).val + j.val, hp'⟩ : Fin 100000)); omega)
  exact congrArg A (congrArg (fun r : Fin 50000 => ValueIdx.ix2 r l) (Fin.ext hm))

/-- The block on row j is the array on the row table word 8 i + j names: an element of the block on that row and an
    element of the array on that row, in the same column, are equal. -/
theorem gath35_row (i : grid35.Coords) (tbl : Vec F S100000 .i32) (A : Vec F S50000x128 .f32)
    (htbl : ∀ k, (tbl k).toNat < 50000) (j p : ℕ) (hp : p = 8 * (i 0).val + j) (hp' : p < 100000)
    (y : S8x128.Idx) (z : S50000x128.Idx) (hy : (y 0).val = j)
    (hz0 : (z 0).val = (tbl (ValueIdx.ix1 (⟨p, hp'⟩ : Fin 100000))).toNat) (hz1 : (z 1).val = (y 1).val) :
    gath35 i tbl A y = A z := by
  subst hp
  subst hy
  unfold gath35
  refine congrArg A (funext fun a => ?_)
  match a with
  | ⟨0, _⟩ =>
    refine Fin.ext ?_
    show min (tbl (ValueIdx.ix1 (⟨8 * (i 0).val + (y 0).val, _⟩ : Fin 100000))).toNat 49999 = (z 0).val
    rw [hz0]
    exact Nat.min_eq_left (by have := htbl (ValueIdx.ix1 (⟨8 * (i 0).val + (y 0).val, hp'⟩ : Fin 100000)); omega)
  | ⟨1, _⟩ => exact Fin.ext hz1.symm
variable (V : (c : Dev nD) → (b : Ref sig .tc) → Buf (Elt F) ((c : Thread nD τ).loc b))
variable (a35 : (pcfg35 (F := F)).Adm)

/-- The region's index table, as the pipeline holds it. -/
abbrev tblw35 : Vec F S100000 .i32 := a35.1 0

/-- The gathered block of grid point t on core c. -/
def gblk35 (c : Dev nD) (t : Fin (cfg35 a35).N) : S8x128.Idx → Elt F .f32 :=
  gath35 ((cfg35 a35).grid.coords t) (tblw35 a35) (V c main_v89)

/-- The point's number is its one coordinate. -/
theorem coords35_val (t : Fin (cfg35 a35).N) : ((cfg35 a35).grid.coords t 0).val = t.val := by
  have ht : t.val < 12500 := t.isLt
  show t.val / 1 % 12500 = t.val
  rw [Nat.div_one, Nat.mod_eq_of_lt ht]

/-- The gathered block read at row j, column l: the array at the row table word 8 t + j names. -/
theorem gblk35_apply (hlt : ∀ k : S100000.Idx, (tblw35 a35 k).toNat < 50000) (c : Dev nD) (t : Fin (cfg35 a35).N) (j : Fin 8) (l : Fin 128) :
    gblk35 V a35 c t (ValueIdx.ix2 j l)
      = V c main_v89 (ValueIdx.ix2 (⟨(tblw35 a35 (ValueIdx.ix1 (⟨8 * t.val + j.val, by
          have ht : t.val < 12500 := t.isLt
          omega⟩ : Fin 100000))).toNat, hlt _⟩ : Fin 50000) l) :=
  gath35_apply ((cfg35 a35).grid.coords t) (tblw35 a35) (V c main_v89) hlt j l (8 * t.val + j.val) (by rw [coords35_val]) _

end Cert.KernelIdeal.Hand

end
-- ==== Proof.KI.GatherDef36.lean ====
/-
  Region 36's gathered block, as a function.

  At grid point i region 36 leaves in its 8 x 128 output block, at row j and column l, the 50000 x 128 array's element at
  row (table word 8 i + j) and column l. gath36 is that block as a function of the point, the table and the array (total:
  a word is clamped to the array's last row, which changes nothing when every word is a row); gblk36 is the block of point
  t at the region's own table and array; gblk36_apply reads it at a row and a column.
-/
import proofs.«402049_j87351044866139_2_alg».proof.Proof.KI.Gather36
import Idealize.ShloMosaic.Lib.ValueIdx

set_option maxRecDepth 16384

noncomputable section

namespace Cert.KernelIdeal.Hand

open Idealize.ShloMosaic Idealize.ShloMosaic.TcCoe
open Idealize.ShloMosaic.Pipeline (Dat Cfg Window)
open Cert.KernelIdeal Cert.KernelIdeal.Gen

variable {F : FTy → Type} [FloatOps F]

/-! ## What the point writes -/

/-- The block the body leaves at grid point i: row j, column l is the array's row named by table word 8 i + j, column l.
    The word is clamped to the array's last row, so that the block is a total function of the table; under the table's
    range hypothesis the clamp does nothing. -/
def gath36 (i : grid36.Coords) (tbl : Vec F S100000 .i32) (A : Vec F S50000x128 .f32) : Vec F S8x128 .f32 := fun y =>
  A (ValueIdx.ix2 (⟨min (tbl (ValueIdx.ix1 (⟨8 * (i 0).val + (y 0).val, by
      have hi : (i 0).val < 12500 := (i 0).isLt
      have hy : (y 0).val < 8 := (y 0).isLt
      omega⟩ : Fin 100000))).toNat 49999, by omega⟩ : Fin 50000) (y 1 : Fin 128))

/-- The block at row j, column l, when the table's words are rows of the array: the array at that row and column. The
    table position is given as p with its equation, so that a caller states it in its own spelling. -/
theorem gath36_apply (i : grid36.Coords) (tbl : Vec F S100000 .i32) (A : Vec F S50000x128 .f32)
    (htbl : ∀ k, (tbl k).toNat < 50000) (j : Fin 8) (l : Fin 128) (p : ℕ) (hp : p = 8 * (i 0).val + j.val) (hp' : p < 100000) :
    gath36 i tbl A (ValueIdx.ix2 j l)
      = A (ValueIdx.ix2 (⟨(tbl (ValueIdx.ix1 (⟨p, hp'⟩ : Fin 100000))).toNat, htbl _⟩ : Fin 50000) l) := by
  subst hp
  have hm : min (tbl (ValueIdx.ix1 (⟨8 * (i 0).val + j.val, hp'⟩ : Fin 100000))).toNat 49999
      = (tbl (ValueIdx.ix1 (⟨8 * (i 0).val + j.val, hp'⟩ : Fin 100000))).toNat :=
    Nat.min_eq_left (by have := htbl (ValueIdx.ix1 (⟨8 * (i 0).val + j.val, hp'⟩ : Fin 100000)); omega)
  exact congrArg A (congrArg (fun r : Fin 50000 => ValueIdx.ix2 r l) (Fin.ext hm))

/-- The block on row j is the array on the row table word 8 i + j names: an element of the block on that row and an
    element of the array on that row, in the same column, are equal. -/
theorem gath36_row (i : grid36.Coords) (tbl : Vec F S100000 .i32) (A : Vec F S50000x128 .f32)
    (htbl : ∀ k, (tbl k).toNat < 50000) (j p : ℕ) (hp : p = 8 * (i 0).val + j) (hp' : p < 100000)
    (y : S8x128.Idx) (z : S50000x128.Idx) (hy : (y 0).val = j)
    (hz0 : (z 0).val = (tbl (ValueIdx.ix1 (⟨p, hp'⟩ : Fin 100000))).toNat) (hz1 : (z 1).val = (y 1).val) :
    gath36 i tbl A y = A z := by
  subst hp
  subst hy
  unfold gath36
  refine congrArg A (funext fun a => ?_)
  match a with
  | ⟨0, _⟩ =>
    refine Fin.ext ?_
    show min (tbl (ValueIdx.ix1 (⟨8 * (i 0).val + (y 0).val, _⟩ : Fin 100000))).toNat 49999 = (z 0).val
    rw [hz0]
    exact Nat.min_eq_left (by have := htbl (ValueIdx.ix1 (⟨8 * (i 0).val + (y 0).val, hp'⟩ : Fin 100000)); omega)
  | ⟨1, _⟩ => exact Fin.ext hz1.symm
variable (V : (c : Dev nD) → (b : Ref sig .tc) → Buf (Elt F) ((c : Thread nD τ).loc b))
variable (a36 : (pcfg36 (F := F)).Adm)

/-- The region's index table, as the pipeline holds it. -/
abbrev tblw36 : Vec F S100000 .i32 := a36.1 0

/-- The gathered block of grid point t on core c. -/
def gblk36 (c : Dev nD) (t : Fin (cfg36 a36).N) : S8x128.Idx → Elt F .f32 :=
  gath36 ((cfg36 a36).grid.coords t) (tblw36 a36) (V c main_v89)

/-- The point's number is its one coordinate. -/
theorem coords36_val (t : Fin (cfg36 a36).N) : ((cfg36 a36).grid.coords t 0).val = t.val := by
  have ht : t.val < 12500 := t.isLt
  show t.val / 1 % 12500 = t.val
  rw [Nat.div_one, Nat.mod_eq_of_lt ht]

/-- The gathered block read at row j, column l: the array at the row table word 8 t + j names. -/
theorem gblk36_apply (hlt : ∀ k : S100000.Idx, (tblw36 a36 k).toNat < 50000) (c : Dev nD) (t : Fin (cfg36 a36).N) (j : Fin 8) (l : Fin 128) :
    gblk36 V a36 c t (ValueIdx.ix2 j l)
      = V c main_v89 (ValueIdx.ix2 (⟨(tblw36 a36 (ValueIdx.ix1 (⟨8 * t.val + j.val, by
          have ht : t.val < 12500 := t.isLt
          omega⟩ : Fin 100000))).toNat, hlt _⟩ : Fin 50000) l) :=
  gath36_apply ((cfg36 a36).grid.coords t) (tblw36 a36) (V c main_v89) hlt j l (8 * t.val + j.val) (by rw [coords36_val]) _

end Cert.KernelIdeal.Hand

end
-- ==== Proof.KI.GatherDef37.lean ====
/-
  Region 37's gathered block, as a function.

  At grid point i region 37 leaves in its 8 x 128 output block, at row j and column l, the 50000 x 128 array's element at
  row (table word 8 i + j) and column l. gath37 is that block as a function of the point, the table and the array (total:
  a word is clamped to the array's last row, which changes nothing when every word is a row); gblk37 is the block of point
  t at the region's own table and array; gblk37_apply reads it at a row and a column.
-/
import proofs.«402049_j87351044866139_2_alg».proof.Proof.KI.Gather37
import Idealize.ShloMosaic.Lib.ValueIdx

set_option maxRecDepth 16384

noncomputable section

namespace Cert.KernelIdeal.Hand

open Idealize.ShloMosaic Idealize.ShloMosaic.TcCoe
open Idealize.ShloMosaic.Pipeline (Dat Cfg Window)
open Cert.KernelIdeal Cert.KernelIdeal.Gen

variable {F : FTy → Type} [FloatOps F]

/-! ## What the point writes -/

/-- The block the body leaves at grid point i: row j, column l is the array's row named by table word 8 i + j, column l.
    The word is clamped to the array's last row, so that the block is a total function of the table; under the table's
    range hypothesis the clamp does nothing. -/
def gath37 (i : grid37.Coords) (tbl : Vec F S100000 .i32) (A : Vec F S50000x128 .f32) : Vec F S8x128 .f32 := fun y =>
  A (ValueIdx.ix2 (⟨min (tbl (ValueIdx.ix1 (⟨8 * (i 0).val + (y 0).val, by
      have hi : (i 0).val < 12500 := (i 0).isLt
      have hy : (y 0).val < 8 := (y 0).isLt
      omega⟩ : Fin 100000))).toNat 49999, by omega⟩ : Fin 50000) (y 1 : Fin 128))

/-- The block at row j, column l, when the table's words are rows of the array: the array at that row and column. The
    table position is given as p with its equation, so that a caller states it in its own spelling. -/
theorem gath37_apply (i : grid37.Coords) (tbl : Vec F S100000 .i32) (A : Vec F S50000x128 .f32)
    (htbl : ∀ k, (tbl k).toNat < 50000) (j : Fin 8) (l : Fin 128) (p : ℕ) (hp : p = 8 * (i 0).val + j.val) (hp' : p < 100000) :
    gath37 i tbl A (ValueIdx.ix2 j l)
      = A (ValueIdx.ix2 (⟨(tbl (ValueIdx.ix1 (⟨p, hp'⟩ : Fin 100000))).toNat, htbl _⟩ : Fin 50000) l) := by
  subst hp
  have hm : min (tbl (ValueIdx.ix1 (⟨8 * (i 0).val + j.val, hp'⟩ : Fin 100000))).toNat 49999
      = (tbl (ValueIdx.ix1 (⟨8 * (i 0).val + j.val, hp'⟩ : Fin 100000))).toNat :=
    Nat.min_eq_left (by have := htbl (ValueIdx.ix1 (⟨8 * (i 0).val + j.val, hp'⟩ : Fin 100000)); omega)
  exact congrArg A (congrArg (fun r : Fin 50000 => ValueIdx.ix2 r l) (Fin.ext hm))

/-- The block on row j is the array on the row table word 8 i + j names: an element of the block on that row and an
    element of the array on that row, in the same column, are equal. -/
theorem gath37_row (i : grid37.Coords) (tbl : Vec F S100000 .i32) (A : Vec F S50000x128 .f32)
    (htbl : ∀ k, (tbl k).toNat < 50000) (j p : ℕ) (hp : p = 8 * (i 0).val + j) (hp' : p < 100000)
    (y : S8x128.Idx) (z : S50000x128.Idx) (hy : (y 0).val = j)
    (hz0 : (z 0).val = (tbl (ValueIdx.ix1 (⟨p, hp'⟩ : Fin 100000))).toNat) (hz1 : (z 1).val = (y 1).val) :
    gath37 i tbl A y = A z := by
  subst hp
  subst hy
  unfold gath37
  refine congrArg A (funext fun a => ?_)
  match a with
  | ⟨0, _⟩ =>
    refine Fin.ext ?_
    show min (tbl (ValueIdx.ix1 (⟨8 * (i 0).val + (y 0).val, _⟩ : Fin 100000))).toNat 49999 = (z 0).val
    rw [hz0]
    exact Nat.min_eq_left (by have := htbl (ValueIdx.ix1 (⟨8 * (i 0).val + (y 0).val, hp'⟩ : Fin 100000)); omega)
  | ⟨1, _⟩ => exact Fin.ext hz1.symm
variable (V : (c : Dev nD) → (b : Ref sig .tc) → Buf (Elt F) ((c : Thread nD τ).loc b))
variable (a37 : (pcfg37 (F := F)).Adm)

/-- The region's index table, as the pipeline holds it. -/
abbrev tblw37 : Vec F S100000 .i32 := a37.1 0

/-- The gathered block of grid point t on core c. -/
def gblk37 (c : Dev nD) (t : Fin (cfg37 a37).N) : S8x128.Idx → Elt F .f32 :=
  gath37 ((cfg37 a37).grid.coords t) (tblw37 a37) (V c main_v89)

/-- The point's number is its one coordinate. -/
theorem coords37_val (t : Fin (cfg37 a37).N) : ((cfg37 a37).grid.coords t 0).val = t.val := by
  have ht : t.val < 12500 := t.isLt
  show t.val / 1 % 12500 = t.val
  rw [Nat.div_one, Nat.mod_eq_of_lt ht]

/-- The gathered block read at row j, column l: the array at the row table word 8 t + j names. -/
theorem gblk37_apply (hlt : ∀ k : S100000.Idx, (tblw37 a37 k).toNat < 50000) (c : Dev nD) (t : Fin (cfg37 a37).N) (j : Fin 8) (l : Fin 128) :
    gblk37 V a37 c t (ValueIdx.ix2 j l)
      = V c main_v89 (ValueIdx.ix2 (⟨(tblw37 a37 (ValueIdx.ix1 (⟨8 * t.val + j.val, by
          have ht : t.val < 12500 := t.isLt
          omega⟩ : Fin 100000))).toNat, hlt _⟩ : Fin 50000) l) :=
  gath37_apply ((cfg37 a37).grid.coords t) (tblw37 a37) (V c main_v89) hlt j l (8 * t.val + j.val) (by rw [coords37_val]) _

end Cert.KernelIdeal.Hand

end
-- ==== Proof.KI.GatherDef38.lean ====
/-
  Region 38's gathered block, as a function.

  At grid point i region 38 leaves in its 8 x 128 output block, at row j and column l, the 50000 x 128 array's element at
  row (table word 8 i + j) and column l. gath38 is that block as a function of the point, the table and the array (total:
  a word is clamped to the array's last row, which changes nothing when every word is a row); gblk38 is the block of point
  t at the region's own table and array; gblk38_apply reads it at a row and a column.
-/
import proofs.«402049_j87351044866139_2_alg».proof.Proof.KI.Gather38
import Idealize.ShloMosaic.Lib.ValueIdx

set_option maxRecDepth 16384

noncomputable section

namespace Cert.KernelIdeal.Hand

open Idealize.ShloMosaic Idealize.ShloMosaic.TcCoe
open Idealize.ShloMosaic.Pipeline (Dat Cfg Window)
open Cert.KernelIdeal Cert.KernelIdeal.Gen

variable {F : FTy → Type} [FloatOps F]

/-! ## What the point writes -/

/-- The block the body leaves at grid point i: row j, column l is the array's row named by table word 8 i + j, column l.
    The word is clamped to the array's last row, so that the block is a total function of the table; under the table's
    range hypothesis the clamp does nothing. -/
def gath38 (i : grid38.Coords) (tbl : Vec F S100000 .i32) (A : Vec F S50000x128 .f32) : Vec F S8x128 .f32 := fun y =>
  A (ValueIdx.ix2 (⟨min (tbl (ValueIdx.ix1 (⟨8 * (i 0).val + (y 0).val, by
      have hi : (i 0).val < 12500 := (i 0).isLt
      have hy : (y 0).val < 8 := (y 0).isLt
      omega⟩ : Fin 100000))).toNat 49999, by omega⟩ : Fin 50000) (y 1 : Fin 128))

/-- The block at row j, column l, when the table's words are rows of the array: the array at that row and column. The
    table position is given as p with its equation, so that a caller states it in its own spelling. -/
theorem gath38_apply (i : grid38.Coords) (tbl : Vec F S100000 .i32) (A : Vec F S50000x128 .f32)
    (htbl : ∀ k, (tbl k).toNat < 50000) (j : Fin 8) (l : Fin 128) (p : ℕ) (hp : p = 8 * (i 0).val + j.val) (hp' : p < 100000) :
    gath38 i tbl A (ValueIdx.ix2 j l)
      = A (ValueIdx.ix2 (⟨(tbl (ValueIdx.ix1 (⟨p, hp'⟩ : Fin 100000))).toNat, htbl _⟩ : Fin 50000) l) := by
  subst hp
  have hm : min (tbl (ValueIdx.ix1 (⟨8 * (i 0).val + j.val, hp'⟩ : Fin 100000))).toNat 49999
      = (tbl (ValueIdx.ix1 (⟨8 * (i 0).val + j.val, hp'⟩ : Fin 100000))).toNat :=
    Nat.min_eq_left (by have := htbl (ValueIdx.ix1 (⟨8 * (i 0).val + j.val, hp'⟩ : Fin 100000)); omega)
  exact congrArg A (congrArg (fun r : Fin 50000 => ValueIdx.ix2 r l) (Fin.ext hm))

/-- The block on row j is the array on the row table word 8 i + j names: an element of the block on that row and an
    element of the array on that row, in the same column, are equal. -/
theorem gath38_row (i : grid38.Coords) (tbl : Vec F S100000 .i32) (A : Vec F S50000x128 .f32)
    (htbl : ∀ k, (tbl k).toNat < 50000) (j p : ℕ) (hp : p = 8 * (i 0).val + j) (hp' : p < 100000)
    (y : S8x128.Idx) (z : S50000x128.Idx) (hy : (y 0).val = j)
    (hz0 : (z 0).val = (tbl (ValueIdx.ix1 (⟨p, hp'⟩ : Fin 100000))).toNat) (hz1 : (z 1).val = (y 1).val) :
    gath38 i tbl A y = A z := by
  subst hp
  subst hy
  unfold gath38
  refine congrArg A (funext fun a => ?_)
  match a with
  | ⟨0, _⟩ =>
    refine Fin.ext ?_
    show min (tbl (ValueIdx.ix1 (⟨8 * (i 0).val + (y 0).val, _⟩ : Fin 100000))).toNat 49999 = (z 0).val
    rw [hz0]
    exact Nat.min_eq_left (by have := htbl (ValueIdx.ix1 (⟨8 * (i 0).val + (y 0).val, hp'⟩ : Fin 100000)); omega)
  | ⟨1, _⟩ => exact Fin.ext hz1.symm
variable (V : (c : Dev nD) → (b : Ref sig .tc) → Buf (Elt F) ((c : Thread nD τ).loc b))
variable (a38 : (pcfg38 (F := F)).Adm)

/-- The region's index table, as the pipeline holds it. -/
abbrev tblw38 : Vec F S100000 .i32 := a38.1 0

/-- The gathered block of grid point t on core c. -/
def gblk38 (c : Dev nD) (t : Fin (cfg38 a38).N) : S8x128.Idx → Elt F .f32 :=
  gath38 ((cfg38 a38).grid.coords t) (tblw38 a38) (V c main_v89)

/-- The point's number is its one coordinate. -/
theorem coords38_val (t : Fin (cfg38 a38).N) : ((cfg38 a38).grid.coords t 0).val = t.val := by
  have ht : t.val < 12500 := t.isLt
  show t.val / 1 % 12500 = t.val
  rw [Nat.div_one, Nat.mod_eq_of_lt ht]

/-- The gathered block read at row j, column l: the array at the row table word 8 t + j names. -/
theorem gblk38_apply (hlt : ∀ k : S100000.Idx, (tblw38 a38 k).toNat < 50000) (c : Dev nD) (t : Fin (cfg38 a38).N) (j : Fin 8) (l : Fin 128) :
    gblk38 V a38 c t (ValueIdx.ix2 j l)
      = V c main_v89 (ValueIdx.ix2 (⟨(tblw38 a38 (ValueIdx.ix1 (⟨8 * t.val + j.val, by
          have ht : t.val < 12500 := t.isLt
          omega⟩ : Fin 100000))).toNat, hlt _⟩ : Fin 50000) l) :=
  gath38_apply ((cfg38 a38).grid.coords t) (tblw38 a38) (V c main_v89) hlt j l (8 * t.val + j.val) (by rw [coords38_val]) _

end Cert.KernelIdeal.Hand

end
-- ==== Proof.KI.Chain.lean ====
import proofs.«402049_j87351044866139_2_alg».proof.Proof.KI.RegionsP
import proofs.«402049_j87351044866139_2_alg».proof.Proof.KI.Inst
import proofs.«402049_j87351044866139_2_alg».proof.Proof.KI.Dense0
import proofs.«402049_j87351044866139_2_alg».proof.Proof.KI.Dense11
import proofs.«402049_j87351044866139_2_alg».proof.Proof.KI.Dense22
import proofs.«402049_j87351044866139_2_alg».proof.Proof.KI.Dense39
import proofs.«402049_j87351044866139_2_alg».proof.Proof.KI.Gather1
import proofs.«402049_j87351044866139_2_alg».proof.Proof.KI.Gather2
import proofs.«402049_j87351044866139_2_alg».proof.Proof.KI.Gather3
import proofs.«402049_j87351044866139_2_alg».proof.Proof.KI.Gather4
import proofs.«402049_j87351044866139_2_alg».proof.Proof.KI.Gather5
import proofs.«402049_j87351044866139_2_alg».proof.Proof.KI.Gather6
import proofs.«402049_j87351044866139_2_alg».proof.Proof.KI.Gather7
import proofs.«402049_j87351044866139_2_alg».proof.Proof.KI.Gather8
import proofs.«402049_j87351044866139_2_alg».proof.Proof.KI.Gather9
import proofs.«402049_j87351044866139_2_alg».proof.Proof.KI.Gather10
import proofs.«402049_j87351044866139_2_alg».proof.Proof.KI.Gather12
import proofs.«402049_j87351044866139_2_alg».proof.Proof.KI.Gather13
import proofs.«402049_j87351044866139_2_alg».proof.Proof.KI.Gather14
import proofs.«402049_j87351044866139_2_alg».proof.Proof.KI.Gather15
import proofs.«402049_j87351044866139_2_alg».proof.Proof.KI.Gather16
import proofs.«402049_j87351044866139_2_alg».proof.Proof.KI.Gather17
import proofs.«402049_j87351044866139_2_alg».proof.Proof.KI.Gather18
import proofs.«402049_j87351044866139_2_alg».proof.Proof.KI.Gather19
import proofs.«402049_j87351044866139_2_alg».proof.Proof.KI.Gather20
import proofs.«402049_j87351044866139_2_alg».proof.Proof.KI.Gather21
import proofs.«402049_j87351044866139_2_alg».proof.Proof.KI.Gather23
import proofs.«402049_j87351044866139_2_alg».proof.Proof.KI.Gather24
import proofs.«402049_j87351044866139_2_alg».proof.Proof.KI.Gather25
import proofs.«402049_j87351044866139_2_alg».proof.Proof.KI.Gather26
import proofs.«402049_j87351044866139_2_alg».proof.Proof.KI.Gather27
import proofs.«402049_j87351044866139_2_alg».proof.Proof.KI.Gather28
import proofs.«402049_j87351044866139_2_alg».proof.Proof.KI.Gather29
import proofs.«402049_j87351044866139_2_alg».proof.Proof.KI.Gather30
import proofs.«402049_j87351044866139_2_alg».proof.Proof.KI.Gather31
import proofs.«402049_j87351044866139_2_alg».proof.Proof.KI.Gather32
import proofs.«402049_j87351044866139_2_alg».proof.Proof.KI.Gather33
import proofs.«402049_j87351044866139_2_alg».proof.Proof.KI.Gather34
import proofs.«402049_j87351044866139_2_alg».proof.Proof.KI.Gather35
import proofs.«402049_j87351044866139_2_alg».proof.Proof.KI.Gather36
import proofs.«402049_j87351044866139_2_alg».proof.Proof.KI.Gather37
import proofs.«402049_j87351044866139_2_alg».proof.Proof.KI.Gather38
import proofs.«402049_j87351044866139_2_alg».proof.Proof.KI.GatherDef1
import proofs.«402049_j87351044866139_2_alg».proof.Proof.KI.GatherDef2
import proofs.«402049_j87351044866139_2_alg».proof.Proof.KI.GatherDef3
import proofs.«402049_j87351044866139_2_alg».proof.Proof.KI.GatherDef4
import proofs.«402049_j87351044866139_2_alg».proof.Proof.KI.GatherDef5
import proofs.«402049_j87351044866139_2_alg».proof.Proof.KI.GatherDef6
import proofs.«402049_j87351044866139_2_alg».proof.Proof.KI.GatherDef7
import proofs.«402049_j87351044866139_2_alg».proof.Proof.KI.GatherDef8
import proofs.«402049_j87351044866139_2_alg».proof.Proof.KI.GatherDef9
import proofs.«402049_j87351044866139_2_alg».proof.Proof.KI.GatherDef10
import proofs.«402049_j87351044866139_2_alg».proof.Proof.KI.GatherDef12
import proofs.«402049_j87351044866139_2_alg».proof.Proof.KI.GatherDef13
import proofs.«402049_j87351044866139_2_alg».proof.Proof.KI.GatherDef14
import proofs.«402049_j87351044866139_2_alg».proof.Proof.KI.GatherDef15
import proofs.«402049_j87351044866139_2_alg».proof.Proof.KI.GatherDef16
import proofs.«402049_j87351044866139_2_alg».proof.Proof.KI.GatherDef17
import proofs.«402049_j87351044866139_2_alg».proof.Proof.KI.GatherDef18
import proofs.«402049_j87351044866139_2_alg».proof.Proof.KI.GatherDef19
import proofs.«402049_j87351044866139_2_alg».proof.Proof.KI.GatherDef20
import proofs.«402049_j87351044866139_2_alg».proof.Proof.KI.GatherDef21
import proofs.«402049_j87351044866139_2_alg».proof.Proof.KI.GatherDef23
import proofs.«402049_j87351044866139_2_alg».proof.Proof.KI.GatherDef24
import proofs.«402049_j87351044866139_2_alg».proof.Proof.KI.GatherDef25
import proofs.«402049_j87351044866139_2_alg».proof.Proof.KI.GatherDef26
import proofs.«402049_j87351044866139_2_alg».proof.Proof.KI.GatherDef27
import proofs.«402049_j87351044866139_2_alg».proof.Proof.KI.GatherDef28
import proofs.«402049_j87351044866139_2_alg».proof.Proof.KI.GatherDef29
import proofs.«402049_j87351044866139_2_alg».proof.Proof.KI.GatherDef30
import proofs.«402049_j87351044866139_2_alg».proof.Proof.KI.GatherDef31
import proofs.«402049_j87351044866139_2_alg».proof.Proof.KI.GatherDef32
import proofs.«402049_j87351044866139_2_alg».proof.Proof.KI.GatherDef33
import proofs.«402049_j87351044866139_2_alg».proof.Proof.KI.GatherDef34
import proofs.«402049_j87351044866139_2_alg».proof.Proof.KI.GatherDef35
import proofs.«402049_j87351044866139_2_alg».proof.Proof.KI.GatherDef36
import proofs.«402049_j87351044866139_2_alg».proof.Proof.KI.GatherDef37
import proofs.«402049_j87351044866139_2_alg».proof.Proof.KI.GatherDef38
import Idealize.ShloMosaic.Lib.Pipeline.RegionsLoop

/-! The kernel side's spine: what core c's unscoped buffers really hold between the items of @main (the launch contents,
    each host stretch applied, each region's output array at what its pipeline's write-backs leave), those contents as
    the conditional frame's unknowns, every pipeline's tables and proof data, every region's record over the thread
    states, and the run with its results named at the last valuation. -/

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg BodyObligation BodyObligationLoose)

variable {F : FTy → Type} [FloatOps F]

local notation "𝕄" => MT nD τ sig Unit (Elt F) ℕ UU ℕ

/-! ## Moving between the thread state and a region's protocol

  Between two items core c holds every unscoped buffer whole at a valuation, beside its generator register and the
  record that it owes nothing. A region takes its arrays out of the buffers and the register into its invariant, and
  gives them back. -/

section Shuffle

variable (c : Dev nD)

/-- With no table there is nothing to hold. -/
theorem prefHeld_none_intro (q : Fin (Pipeline.Prefetch.none (sig := sig)).K → PosShare TreeShare)
    (v : (Pipeline.Prefetch.none (sig := sig)).Contents (Elt F)) :
    (BI.emp : sProp 𝕄) ⊢ Pipeline.prefHeld Pipeline.Prefetch.none c q v := by
  unfold Pipeline.prefHeld
  rw [show (Finset.univ : Finset (Fin 0)) = ∅ from rfl, BI.bigSep_empty]

/-- A core that owes nothing owes the first point's dues, when those are none and nothing is recorded against it. -/
theorem owesAt_first {cfg : Pipeline.Cfg sig Λ₀} (dat : Dat τ (Elt F) Unit ℕ UU ℕ cfg c)
    (h0 : dat.owed 0 = 0) (hrec : dat.recorded 0 = Set.univ) :
    (iprop(∃ Wd, owes (c : Thread nD τ) (0 : CellTallies nD τ sig Unit) Wd) : sProp 𝕄) ⊢ dat.owesAt () 0 := by
  unfold Pipeline.Dat.owesAt Pipeline.owesWithin
  rw [h0]
  iintro ⟨%Wd, HO⟩
  iexists Wd
  isplitr
  · ipureintro; intro x _; exact Or.inl (hrec ▸ Set.mem_univ x)
  iexact HO

/-- And at the last point, dues that are none leave the core owing nothing. -/
theorem owes_of_owesAt_last {cfg : Pipeline.Cfg sig Λ₀} (dat : Dat τ (Elt F) Unit ℕ UU ℕ cfg c)
    (hN : dat.owed (Fin.last cfg.N) = 0) :
    dat.owesAt () (Fin.last cfg.N) ⊢ (iprop(∃ Wd, owes (c : Thread nD τ) (0 : CellTallies nD τ sig Unit) Wd) : sProp 𝕄) := by
  unfold Pipeline.Dat.owesAt Pipeline.owesWithin
  rw [hN]
  iintro ⟨%Wd, -, HO⟩
  iexists Wd; iexact HO

/-- ENTRY of a region whose invariant keeps, of the thread state, only the generator register: the buffers split
    into the region's arrays and the rest, the dues handed over, the semaphores and level facts not needed. -/
theorem enterA (W : Valuation τ sig (Elt F)) {A T O Zr S Lv : sProp 𝕄}
    (hsplit : (StableHlo.held (c : Thread nD τ) (Pipeline.ucRefs τ sig) W : sProp 𝕄) ⊢ iprop(A ∗ Zr))
    (hT : (BI.emp : sProp 𝕄) ⊢ T)
    (hO : (iprop(∃ Wd, owes (c : Thread nD τ) (0 : CellTallies nD τ sig Unit) Wd) : sProp 𝕄) ⊢ O) :
    iprop((StableHlo.held (c : Thread nD τ) (Pipeline.ucRefs τ sig) W ∗ R (F := F) c) ∗ S ∗ Lv)
      ⊢ (|={Set.univ}=> iprop(A ∗ T ∗ O ∗ (∃ r, prngReg c r) ∗ Zr) : sProp 𝕄) := by
  iintro ⟨⟨Hh, Hp, HO⟩, -, -⟩
  ihave H := hsplit $$ Hh
  icases H with ⟨Ha, Hz⟩
  imodintro
  isplitl [Ha]; · iexact Ha
  isplitr; · iapply hT; iempintro
  isplitl [HO]; · iapply hO; iexact HO
  isplitl [Hp]; · iexact Hp
  iexact Hz

/-- EXIT of such a region: the arrays at their final contents rejoin the rest as the buffers at the next valuation. -/
theorem leaveA (W' : Valuation τ sig (Elt F)) {A O Zr : sProp 𝕄}
    (hjoin : iprop(A ∗ Zr) ⊢ (StableHlo.held (c : Thread nD τ) (Pipeline.ucRefs τ sig) W' : sProp 𝕄))
    (hO : O ⊢ (iprop(∃ Wd, owes (c : Thread nD τ) (0 : CellTallies nD τ sig Unit) Wd) : sProp 𝕄)) :
    iprop(A ∗ O ∗ (∃ r, prngReg c r) ∗ Zr)
      ⊢ (|={Set.univ}=> iprop(StableHlo.held (c : Thread nD τ) (Pipeline.ucRefs τ sig) W' ∗ R (F := F) c) : sProp 𝕄) := by
  iintro ⟨Ha, HO, Hp, Hz⟩
  imodintro
  isplitl [Ha Hz]
  · iapply hjoin; isplitl [Ha] <;> iassumption
  isplitl [Hp]; · iexact Hp
  iapply hO; iexact HO

end Shuffle

/-! ## A function updated at the values of another -/

section Upd

variable {α : Type} [DecidableEq α] {β : α → Type}

/-- A function updated at one point to a value that is another function's there is that function, if the two agree
    elsewhere. -/
theorem upd1_eq (g f : ∀ a, β a) (a : α) (va : β a) (ha : va = g a) (h : ∀ x, x ≠ a → f x = g x) :
    Function.update f a va = g := by
  subst ha
  funext x
  by_cases hx : x = a
  · subst hx; exact Function.update_self _ _ _
  · exact (Function.update_of_ne hx _ _).trans (h x hx)

/-- The same at two points. -/
theorem upd2_eq (g f : ∀ a, β a) (a b : α) (va : β a) (vb : β b) (ha : va = g a) (hb : vb = g b)
    (h : ∀ x, x ≠ a → x ≠ b → f x = g x) :
    Function.update (Function.update f a va) b vb = g :=
  upd1_eq g _ b vb hb fun x hxb => by
    by_cases hxa : x = a
    · subst hxa; exact (Function.update_self _ _ _).trans ha
    · exact (Function.update_of_ne hxa _ _).trans (h x hxa hxb)

end Upd

/-! ## The buffers' real contents between items -/

/-- A valuation read at the TensorCore's references: what a region's proof data take. -/
abbrev atTc (W : Dev nD → Valuation τ sig (Elt F)) : (c : Dev nD) → (b : Ref sig .tc) → Buf (Elt F) ((c : Thread nD τ).loc b) :=
  fun c b => W c b

/-- The one core. -/
abbrev c₀ : Dev nD := ⟨0, Nat.zero_lt_one⟩
theorem eq_c₀ (c : Dev nD) : c = c₀ := Subsingleton.elim _ _

def U0 (m : (ℓ : Loc nD τ sig) → Buf (Elt F) ℓ) (c : Dev nD) : Valuation τ sig (Elt F) := V0 m c
def U1 (m : (ℓ : Loc nD τ sig) → Buf (Elt F) ℓ) (c : Dev nD) : Valuation τ sig (Elt F) := StableHlo.after hostOps0 (U0 m c)
def U2 (m : (ℓ : Loc nD τ sig) → Buf (Elt F) ℓ) (c : Dev nD) : Valuation τ sig (Elt F) := StableHlo.after hostOps0_1 (U1 m c)
def U3 (m : (ℓ : Loc nD τ sig) → Buf (Elt F) ℓ) (c : Dev nD) : Valuation τ sig (Elt F) := StableHlo.after hostOps0_2 (U2 m c)
/-- After region 0: its output array at what the pipeline's write-backs leave. -/
def U4 (m : (ℓ : Loc nD τ sig) → Buf (Elt F) ℓ) (c : Dev nD) : Valuation τ sig (Elt F) :=
  Function.update (U3 m c) main_v33 ((dat0 (atTc (U3 m)) c).arrAt 2 cfg0.N)
def U5 (m : (ℓ : Loc nD τ sig) → Buf (Elt F) ℓ) (c : Dev nD) : Valuation τ sig (Elt F) := StableHlo.after hostOps1 (U4 m c)
/-- Region 1's index table: what the host stretch before it left in the table's buffer. -/
def a1 (m : (ℓ : Loc nD τ sig) → Buf (Elt F) ℓ) : (pcfg1 (F := F)).Adm := ⟨fun k => U5 m c₀ (pre1.ref k), trivial⟩
/-- After region 1: its output array at what the write-backs leave, the array it reads as it was. -/
def U6 (m : (ℓ : Loc nD τ sig) → Buf (Elt F) ℓ) (c : Dev nD) : Valuation τ sig (Elt F) :=
  Function.update (Function.update (U5 m c) main_v35
    ((datG1 (atTc (U5 m)) (a1 m) (gblk1 (atTc (U5 m)) (a1 m)) c).arrAt 0 (cfg1 (a1 m)).N)) main_v33 (U5 m c main_v33)
def U7 (m : (ℓ : Loc nD τ sig) → Buf (Elt F) ℓ) (c : Dev nD) : Valuation τ sig (Elt F) := StableHlo.after hostOps2 (U6 m c)
/-- Region 2's index table: what the host stretch before it left in the table's buffer. -/
def a2 (m : (ℓ : Loc nD τ sig) → Buf (Elt F) ℓ) : (pcfg2 (F := F)).Adm := ⟨fun k => U7 m c₀ (pre2.ref k), trivial⟩
/-- After region 2: its output array at what the write-backs leave, the array it reads as it was. -/
def U8 (m : (ℓ : Loc nD τ sig) → Buf (Elt F) ℓ) (c : Dev nD) : Valuation τ sig (Elt F) :=
  Function.update (Function.update (U7 m c) main_v37
    ((datG2 (atTc (U7 m)) (a2 m) (gblk2 (atTc (U7 m)) (a2 m)) c).arrAt 0 (cfg2 (a2 m)).N)) main_v33 (U7 m c main_v33)
def U9 (m : (ℓ : Loc nD τ sig) → Buf (Elt F) ℓ) (c : Dev nD) : Valuation τ sig (Elt F) := StableHlo.after hostOps3 (U8 m c)
/-- Region 3's index table: what the host stretch before it left in the table's buffer. -/
def a3 (m : (ℓ : Loc nD τ sig) → Buf (Elt F) ℓ) : (pcfg3 (F := F)).Adm := ⟨fun k => U9 m c₀ (pre3.ref k), trivial⟩
/-- After region 3: its output array at what the write-backs leave, the array it reads as it was. -/
def U10 (m : (ℓ : Loc nD τ sig) → Buf (Elt F) ℓ) (c : Dev nD) : Valuation τ sig (Elt F) :=
  Function.update (Function.update (U9 m c) main_v39
    ((datG3 (atTc (U9 m)) (a3 m) (gblk3 (atTc (U9 m)) (a3 m)) c).arrAt 0 (cfg3 (a3 m)).N)) main_v33 (U9 m c main_v33)
def U11 (m : (ℓ : Loc nD τ sig) → Buf (Elt F) ℓ) (c : Dev nD) : Valuation τ sig (Elt F) := StableHlo.after hostOps4 (U10 m c)
/-- Region 4's index table: what the host stretch before it left in the table's buffer. -/
def a4 (m : (ℓ : Loc nD τ sig) → Buf (Elt F) ℓ) : (pcfg4 (F := F)).Adm := ⟨fun k => U11 m c₀ (pre4.ref k), trivial⟩
/-- After region 4: its output array at what the write-backs leave, the array it reads as it was. -/
def U12 (m : (ℓ : Loc nD τ sig) → Buf (Elt F) ℓ) (c : Dev nD) : Valuation τ sig (Elt F) :=
  Function.update (Function.update (U11 m c) main_v41
    ((datG4 (atTc (U11 m)) (a4 m) (gblk4 (atTc (U11 m)) (a4 m)) c).arrAt 0 (cfg4 (a4 m)).N)) main_v33 (U11 m c main_v33)
def U13 (m : (ℓ : Loc nD τ sig) → Buf (Elt F) ℓ) (c : Dev nD) : Valuation τ sig (Elt F) := StableHlo.after hostOps5 (U12 m c)
/-- Region 5's index table: what the host stretch before it left in the table's buffer. -/
def a5 (m : (ℓ : Loc nD τ sig) → Buf (Elt F) ℓ) : (pcfg5 (F := F)).Adm := ⟨fun k => U13 m c₀ (pre5.ref k), trivial⟩
/-- After region 5: its output array at what the write-backs leave, the array it reads as it was. -/
def U14 (m : (ℓ : Loc nD τ sig) → Buf (Elt F) ℓ) (c : Dev nD) : Valuation τ sig (Elt F) :=
  Function.update (Function.update (U13 m c) main_v43
    ((datG5 (atTc (U13 m)) (a5 m) (gblk5 (atTc (U13 m)) (a5 m)) c).arrAt 0 (cfg5 (a5 m)).N)) main_v33 (U13 m c main_v33)
def U15 (m : (ℓ : Loc nD τ sig) → Buf (Elt F) ℓ) (c : Dev nD) : Valuation τ sig (Elt F) := StableHlo.after hostOps6 (U14 m c)
/-- Region 6's index table: what the host stretch before it left in the table's buffer. -/
def a6 (m : (ℓ : Loc nD τ sig) → Buf (Elt F) ℓ) : (pcfg6 (F := F)).Adm := ⟨fun k => U15 m c₀ (pre6.ref k), trivial⟩
/-- After region 6: its output array at what the write-backs leave, the array it reads as it was. -/
def U16 (m : (ℓ : Loc nD τ sig) → Buf (Elt F) ℓ) (c : Dev nD) : Valuation τ sig (Elt F) :=
  Function.update (Function.update (U15 m c) main_v45
    ((datG6 (atTc (U15 m)) (a6 m) (gblk6 (atTc (U15 m)) (a6 m)) c).arrAt 0 (cfg6 (a6 m)).N)) main_v33 (U15 m c main_v33)
def U17 (m : (ℓ : Loc nD τ sig) → Buf (Elt F) ℓ) (c : Dev nD) : Valuation τ sig (Elt F) := StableHlo.after hostOps7 (U16 m c)
/-- Region 7's index table: what the host stretch before it left in the table's buffer. -/
def a7 (m : (ℓ : Loc nD τ sig) → Buf (Elt F) ℓ) : (pcfg7 (F := F)).Adm := ⟨fun k => U17 m c₀ (pre7.ref k), trivial⟩
/-- After region 7: its output array at what the write-backs leave, the array it reads as it was. -/
def U18 (m : (ℓ : Loc nD τ sig) → Buf (Elt F) ℓ) (c : Dev nD) : Valuation τ sig (Elt F) :=
  Function.update (Function.update (U17 m c) main_v47
    ((datG7 (atTc (U17 m)) (a7 m) (gblk7 (atTc (U17 m)) (a7 m)) c).arrAt 0 (cfg7 (a7 m)).N)) main_v33 (U17 m c main_v33)
def U19 (m : (ℓ : Loc nD τ sig) → Buf (Elt F) ℓ) (c : Dev nD) : Valuation τ sig (Elt F) := StableHlo.after hostOps8 (U18 m c)
/-- Region 8's index table: what the host stretch before it left in the table's buffer. -/
def a8 (m : (ℓ : Loc nD τ sig) → Buf (Elt F) ℓ) : (pcfg8 (F := F)).Adm := ⟨fun k => U19 m c₀ (pre8.ref k), trivial⟩
/-- After region 8: its output array at what the write-backs leave, the array it reads as it was. -/
def U20 (m : (ℓ : Loc nD τ sig) → Buf (Elt F) ℓ) (c : Dev nD) : Valuation τ sig (Elt F) :=
  Function.update (Function.update (U19 m c) main_v49
    ((datG8 (atTc (U19 m)) (a8 m) (gblk8 (atTc (U19 m)) (a8 m)) c).arrAt 0 (cfg8 (a8 m)).N)) main_v33 (U19 m c main_v33)
def U21 (m : (ℓ : Loc nD τ sig) → Buf (Elt F) ℓ) (c : Dev nD) : Valuation τ sig (Elt F) := StableHlo.after hostOps9 (U20 m c)
/-- Region 9's index table: what the host stretch before it left in the table's buffer. -/
def a9 (m : (ℓ : Loc nD τ sig) → Buf (Elt F) ℓ) : (pcfg9 (F := F)).Adm := ⟨fun k => U21 m c₀ (pre9.ref k), trivial⟩
/-- After region 9: its output array at what the write-backs leave, the array it reads as it was. -/
def U22 (m : (ℓ : Loc nD τ sig) → Buf (Elt F) ℓ) (c : Dev nD) : Valuation τ sig (Elt F) :=
  Function.update (Function.update (U21 m c) main_v51
    ((datG9 (atTc (U21 m)) (a9 m) (gblk9 (atTc (U21 m)) (a9 m)) c).arrAt 0 (cfg9 (a9 m)).N)) main_v33 (U21 m c main_v33)
def U23 (m : (ℓ : Loc nD τ sig) → Buf (Elt F) ℓ) (c : Dev nD) : Valuation τ sig (Elt F) := StableHlo.after hostOps10 (U22 m c)
/-- Region 10's index table: what the host stretch before it left in the table's buffer. -/
def a10 (m : (ℓ : Loc nD τ sig) → Buf (Elt F) ℓ) : (pcfg10 (F := F)).Adm := ⟨fun k => U23 m c₀ (pre10.ref k), trivial⟩
/-- After region 10: its output array at what the write-backs leave, the array it reads as it was. -/
def U24 (m : (ℓ : Loc nD τ sig) → Buf (Elt F) ℓ) (c : Dev nD) : Valuation τ sig (Elt F) :=
  Function.update (Function.update (U23 m c) main_v53
    ((datG10 (atTc (U23 m)) (a10 m) (gblk10 (atTc (U23 m)) (a10 m)) c).arrAt 0 (cfg10 (a10 m)).N)) main_v33 (U23 m c main_v33)
def U25 (m : (ℓ : Loc nD τ sig) → Buf (Elt F) ℓ) (c : Dev nD) : Valuation τ sig (Elt F) := StableHlo.after hostOps11 (U24 m c)
/-- After region 11: its output array at what the pipeline's write-backs leave. -/
def U26 (m : (ℓ : Loc nD τ sig) → Buf (Elt F) ℓ) (c : Dev nD) : Valuation τ sig (Elt F) :=
  Function.update (U25 m c) main_v61 ((dat11 (atTc (U25 m)) c).arrAt 3 cfg11.N)
def U27 (m : (ℓ : Loc nD τ sig) → Buf (Elt F) ℓ) (c : Dev nD) : Valuation τ sig (Elt F) := StableHlo.after hostOps12 (U26 m c)
/-- Region 12's index table: what the host stretch before it left in the table's buffer. -/
def a12 (m : (ℓ : Loc nD τ sig) → Buf (Elt F) ℓ) : (pcfg12 (F := F)).Adm := ⟨fun k => U27 m c₀ (pre12.ref k), trivial⟩
/-- After region 12: its output array at what the write-backs leave, the array it reads as it was. -/
def U28 (m : (ℓ : Loc nD τ sig) → Buf (Elt F) ℓ) (c : Dev nD) : Valuation τ sig (Elt F) :=
  Function.update (Function.update (U27 m c) main_v63
    ((datG12 (atTc (U27 m)) (a12 m) (gblk12 (atTc (U27 m)) (a12 m)) c).arrAt 0 (cfg12 (a12 m)).N)) main_v61 (U27 m c main_v61)
def U29 (m : (ℓ : Loc nD τ sig) → Buf (Elt F) ℓ) (c : Dev nD) : Valuation τ sig (Elt F) := StableHlo.after hostOps13 (U28 m c)
/-- Region 13's index table: what the host stretch before it left in the table's buffer. -/
def a13 (m : (ℓ : Loc nD τ sig) → Buf (Elt F) ℓ) : (pcfg13 (F := F)).Adm := ⟨fun k => U29 m c₀ (pre13.ref k), trivial⟩
/-- After region 13: its output array at what the write-backs leave, the array it reads as it was. -/
def U30 (m : (ℓ : Loc nD τ sig) → Buf (Elt F) ℓ) (c : Dev nD) : Valuation τ sig (Elt F) :=
  Function.update (Function.update (U29 m c) main_v65
    ((datG13 (atTc (U29 m)) (a13 m) (gblk13 (atTc (U29 m)) (a13 m)) c).arrAt 0 (cfg13 (a13 m)).N)) main_v61 (U29 m c main_v61)
def U31 (m : (ℓ : Loc nD τ sig) → Buf (Elt F) ℓ) (c : Dev nD) : Valuation τ sig (Elt F) := StableHlo.after hostOps14 (U30 m c)
/-- Region 14's index table: what the host stretch before it left in the table's buffer. -/
def a14 (m : (ℓ : Loc nD τ sig) → Buf (Elt F) ℓ) : (pcfg14 (F := F)).Adm := ⟨fun k => U31 m c₀ (pre14.ref k), trivial⟩
/-- After region 14: its output array at what the write-backs leave, the array it reads as it was. -/
def U32 (m : (ℓ : Loc nD τ sig) → Buf (Elt F) ℓ) (c : Dev nD) : Valuation τ sig (Elt F) :=
  Function.update (Function.update (U31 m c) main_v67
    ((datG14 (atTc (U31 m)) (a14 m) (gblk14 (atTc (U31 m)) (a14 m)) c).arrAt 0 (cfg14 (a14 m)).N)) main_v61 (U31 m c main_v61)
def U33 (m : (ℓ : Loc nD τ sig) → Buf (Elt F) ℓ) (c : Dev nD) : Valuation τ sig (Elt F) := StableHlo.after hostOps15 (U32 m c)
/-- Region 15's index table: what the host stretch before it left in the table's buffer. -/
def a15 (m : (ℓ : Loc nD τ sig) → Buf (Elt F) ℓ) : (pcfg15 (F := F)).Adm := ⟨fun k => U33 m c₀ (pre15.ref k), trivial⟩
/-- After region 15: its output array at what the write-backs leave, the array it reads as it was. -/
def U34 (m : (ℓ : Loc nD τ sig) → Buf (Elt F) ℓ) (c : Dev nD) : Valuation τ sig (Elt F) :=
  Function.update (Function.update (U33 m c) main_v69
    ((datG15 (atTc (U33 m)) (a15 m) (gblk15 (atTc (U33 m)) (a15 m)) c).arrAt 0 (cfg15 (a15 m)).N)) main_v61 (U33 m c main_v61)
def U35 (m : (ℓ : Loc nD τ sig) → Buf (Elt F) ℓ) (c : Dev nD) : Valuation τ sig (Elt F) := StableHlo.after hostOps16 (U34 m c)
/-- Region 16's index table: what the host stretch before it left in the table's buffer. -/
def a16 (m : (ℓ : Loc nD τ sig) → Buf (Elt F) ℓ) : (pcfg16 (F := F)).Adm := ⟨fun k => U35 m c₀ (pre16.ref k), trivial⟩
/-- After region 16: its output array at what the write-backs leave, the array it reads as it was. -/
def U36 (m : (ℓ : Loc nD τ sig) → Buf (Elt F) ℓ) (c : Dev nD) : Valuation τ sig (Elt F) :=
  Function.update (Function.update (U35 m c) main_v71
    ((datG16 (atTc (U35 m)) (a16 m) (gblk16 (atTc (U35 m)) (a16 m)) c).arrAt 0 (cfg16 (a16 m)).N)) main_v61 (U35 m c main_v61)
def U37 (m : (ℓ : Loc nD τ sig) → Buf (Elt F) ℓ) (c : Dev nD) : Valuation τ sig (Elt F) := StableHlo.after hostOps17 (U36 m c)
/-- Region 17's index table: what the host stretch before it left in the table's buffer. -/
def a17 (m : (ℓ : Loc nD τ sig) → Buf (Elt F) ℓ) : (pcfg17 (F := F)).Adm := ⟨fun k => U37 m c₀ (pre17.ref k), trivial⟩
/-- After region 17: its output array at what the write-backs leave, the array it reads as it was. -/
def U38 (m : (ℓ : Loc nD τ sig) → Buf (Elt F) ℓ) (c : Dev nD) : Valuation τ sig (Elt F) :=
  Function.update (Function.update (U37 m c) main_v73
    ((datG17 (atTc (U37 m)) (a17 m) (gblk17 (atTc (U37 m)) (a17 m)) c).arrAt 0 (cfg17 (a17 m)).N)) main_v61 (U37 m c main_v61)
def U39 (m : (ℓ : Loc nD τ sig) → Buf (Elt F) ℓ) (c : Dev nD) : Valuation τ sig (Elt F) := StableHlo.after hostOps18 (U38 m c)
/-- Region 18's index table: what the host stretch before it left in the table's buffer. -/
def a18 (m : (ℓ : Loc nD τ sig) → Buf (Elt F) ℓ) : (pcfg18 (F := F)).Adm := ⟨fun k => U39 m c₀ (pre18.ref k), trivial⟩
/-- After region 18: its output array at what the write-backs leave, the array it reads as it was. -/
def U40 (m : (ℓ : Loc nD τ sig) → Buf (Elt F) ℓ) (c : Dev nD) : Valuation τ sig (Elt F) :=
  Function.update (Function.update (U39 m c) main_v75
    ((datG18 (atTc (U39 m)) (a18 m) (gblk18 (atTc (U39 m)) (a18 m)) c).arrAt 0 (cfg18 (a18 m)).N)) main_v61 (U39 m c main_v61)
def U41 (m : (ℓ : Loc nD τ sig) → Buf (Elt F) ℓ) (c : Dev nD) : Valuation τ sig (Elt F) := StableHlo.after hostOps19 (U40 m c)
/-- Region 19's index table: what the host stretch before it left in the table's buffer. -/
def a19 (m : (ℓ : Loc nD τ sig) → Buf (Elt F) ℓ) : (pcfg19 (F := F)).Adm := ⟨fun k => U41 m c₀ (pre19.ref k), trivial⟩
/-- After region 19: its output array at what the write-backs leave, the array it reads as it was. -/
def U42 (m : (ℓ : Loc nD τ sig) → Buf (Elt F) ℓ) (c : Dev nD) : Valuation τ sig (Elt F) :=
  Function.update (Function.update (U41 m c) main_v77
    ((datG19 (atTc (U41 m)) (a19 m) (gblk19 (atTc (U41 m)) (a19 m)) c).arrAt 0 (cfg19 (a19 m)).N)) main_v61 (U41 m c main_v61)
def U43 (m : (ℓ : Loc nD τ sig) → Buf (Elt F) ℓ) (c : Dev nD) : Valuation τ sig (Elt F) := StableHlo.after hostOps20 (U42 m c)
/-- Region 20's index table: what the host stretch before it left in the table's buffer. -/
def a20 (m : (ℓ : Loc nD τ sig) → Buf (Elt F) ℓ) : (pcfg20 (F := F)).Adm := ⟨fun k => U43 m c₀ (pre20.ref k), trivial⟩
/-- After region 20: its output array at what the write-backs leave, the array it reads as it was. -/
def U44 (m : (ℓ : Loc nD τ sig) → Buf (Elt F) ℓ) (c : Dev nD) : Valuation τ sig (Elt F) :=
  Function.update (Function.update (U43 m c) main_v79
    ((datG20 (atTc (U43 m)) (a20 m) (gblk20 (atTc (U43 m)) (a20 m)) c).arrAt 0 (cfg20 (a20 m)).N)) main_v61 (U43 m c main_v61)
def U45 (m : (ℓ : Loc nD τ sig) → Buf (Elt F) ℓ) (c : Dev nD) : Valuation τ sig (Elt F) := StableHlo.after hostOps21 (U44 m c)
/-- Region 21's index table: what the host stretch before it left in the table's buffer. -/
def a21 (m : (ℓ : Loc nD τ sig) → Buf (Elt F) ℓ) : (pcfg21 (F := F)).Adm := ⟨fun k => U45 m c₀ (pre21.ref k), trivial⟩
/-- After region 21: its output array at what the write-backs leave, the array it reads as it was. -/
def U46 (m : (ℓ : Loc nD τ sig) → Buf (Elt F) ℓ) (c : Dev nD) : Valuation τ sig (Elt F) :=
  Function.update (Function.update (U45 m c) main_v81
    ((datG21 (atTc (U45 m)) (a21 m) (gblk21 (atTc (U45 m)) (a21 m)) c).arrAt 0 (cfg21 (a21 m)).N)) main_v61 (U45 m c main_v61)
def U47 (m : (ℓ : Loc nD τ sig) → Buf (Elt F) ℓ) (c : Dev nD) : Valuation τ sig (Elt F) := StableHlo.after hostOps22 (U46 m c)
/-- After region 22: its output array at what the pipeline's write-backs leave. -/
def U48 (m : (ℓ : Loc nD τ sig) → Buf (Elt F) ℓ) (c : Dev nD) : Valuation τ sig (Elt F) :=
  Function.update (U47 m c) main_v89 ((dat22 (atTc (U47 m)) c).arrAt 2 cfg22.N)
def U49 (m : (ℓ : Loc nD τ sig) → Buf (Elt F) ℓ) (c : Dev nD) : Valuation τ sig (Elt F) := StableHlo.after hostOps23 (U48 m c)
/-- Region 23's index table: what the host stretch before it left in the table's buffer. -/
def a23 (m : (ℓ : Loc nD τ sig) → Buf (Elt F) ℓ) : (pcfg23 (F := F)).Adm := ⟨fun k => U49 m c₀ (pre23.ref k), trivial⟩
/-- After region 23: its output array at what the write-backs leave, the array it reads as it was. -/
def U50 (m : (ℓ : Loc nD τ sig) → Buf (Elt F) ℓ) (c : Dev nD) : Valuation τ sig (Elt F) :=
  Function.update (Function.update (U49 m c) main_v91
    ((datG23 (atTc (U49 m)) (a23 m) (gblk23 (atTc (U49 m)) (a23 m)) c).arrAt 0 (cfg23 (a23 m)).N)) main_v89 (U49 m c main_v89)
def U51 (m : (ℓ : Loc nD τ sig) → Buf (Elt F) ℓ) (c : Dev nD) : Valuation τ sig (Elt F) := StableHlo.after hostOps24 (U50 m c)
/-- Region 24's index table: what the host stretch before it left in the table's buffer. -/
def a24 (m : (ℓ : Loc nD τ sig) → Buf (Elt F) ℓ) : (pcfg24 (F := F)).Adm := ⟨fun k => U51 m c₀ (pre24.ref k), trivial⟩
/-- After region 24: its output array at what the write-backs leave, the array it reads as it was. -/
def U52 (m : (ℓ : Loc nD τ sig) → Buf (Elt F) ℓ) (c : Dev nD) : Valuation τ sig (Elt F) :=
  Function.update (Function.update (U51 m c) main_v93
    ((datG24 (atTc (U51 m)) (a24 m) (gblk24 (atTc (U51 m)) (a24 m)) c).arrAt 0 (cfg24 (a24 m)).N)) main_v89 (U51 m c main_v89)
def U53 (m : (ℓ : Loc nD τ sig) → Buf (Elt F) ℓ) (c : Dev nD) : Valuation τ sig (Elt F) := StableHlo.after hostOps25 (U52 m c)
/-- Region 25's index table: what the host stretch before it left in the table's buffer. -/
def a25 (m : (ℓ : Loc nD τ sig) → Buf (Elt F) ℓ) : (pcfg25 (F := F)).Adm := ⟨fun k => U53 m c₀ (pre25.ref k), trivial⟩
/-- After region 25: its output array at what the write-backs leave, the array it reads as it was. -/
def U54 (m : (ℓ : Loc nD τ sig) → Buf (Elt F) ℓ) (c : Dev nD) : Valuation τ sig (Elt F) :=
  Function.update (Function.update (U53 m c) main_v95
    ((datG25 (atTc (U53 m)) (a25 m) (gblk25 (atTc (U53 m)) (a25 m)) c).arrAt 0 (cfg25 (a25 m)).N)) main_v89 (U53 m c main_v89)
def U55 (m : (ℓ : Loc nD τ sig) → Buf (Elt F) ℓ) (c : Dev nD) : Valuation τ sig (Elt F) := StableHlo.after hostOps26 (U54 m c)
/-- Region 26's index table: what the host stretch before it left in the table's buffer. -/
def a26 (m : (ℓ : Loc nD τ sig) → Buf (Elt F) ℓ) : (pcfg26 (F := F)).Adm := ⟨fun k => U55 m c₀ (pre26.ref k), trivial⟩
/-- After region 26: its output array at what the write-backs leave, the array it reads as it was. -/
def U56 (m : (ℓ : Loc nD τ sig) → Buf (Elt F) ℓ) (c : Dev nD) : Valuation τ sig (Elt F) :=
  Function.update (Function.update (U55 m c) main_v97
    ((datG26 (atTc (U55 m)) (a26 m) (gblk26 (atTc (U55 m)) (a26 m)) c).arrAt 0 (cfg26 (a26 m)).N)) main_v89 (U55 m c main_v89)
def U57 (m : (ℓ : Loc nD τ sig) → Buf (Elt F) ℓ) (c : Dev nD) : Valuation τ sig (Elt F) := StableHlo.after hostOps27 (U56 m c)
/-- Region 27's index table: what the host stretch before it left in the table's buffer. -/
def a27 (m : (ℓ : Loc nD τ sig) → Buf (Elt F) ℓ) : (pcfg27 (F := F)).Adm := ⟨fun k => U57 m c₀ (pre27.ref k), trivial⟩
/-- After region 27: its output array at what the write-backs leave, the array it reads as it was. -/
def U58 (m : (ℓ : Loc nD τ sig) → Buf (Elt F) ℓ) (c : Dev nD) : Valuation τ sig (Elt F) :=
  Function.update (Function.update (U57 m c) main_v99
    ((datG27 (atTc (U57 m)) (a27 m) (gblk27 (atTc (U57 m)) (a27 m)) c).arrAt 0 (cfg27 (a27 m)).N)) main_v89 (U57 m c main_v89)
def U59 (m : (ℓ : Loc nD τ sig) → Buf (Elt F) ℓ) (c : Dev nD) : Valuation τ sig (Elt F) := StableHlo.after hostOps28 (U58 m c)
/-- Region 28's index table: what the host stretch before it left in the table's buffer. -/
def a28 (m : (ℓ : Loc nD τ sig) → Buf (Elt F) ℓ) : (pcfg28 (F := F)).Adm := ⟨fun k => U59 m c₀ (pre28.ref k), trivial⟩
/-- After region 28: its output array at what the write-backs leave, the array it reads as it was. -/
def U60 (m : (ℓ : Loc nD τ sig) → Buf (Elt F) ℓ) (c : Dev nD) : Valuation τ sig (Elt F) :=
  Function.update (Function.update (U59 m c) main_v101
    ((datG28 (atTc (U59 m)) (a28 m) (gblk28 (atTc (U59 m)) (a28 m)) c).arrAt 0 (cfg28 (a28 m)).N)) main_v89 (U59 m c main_v89)
def U61 (m : (ℓ : Loc nD τ sig) → Buf (Elt F) ℓ) (c : Dev nD) : Valuation τ sig (Elt F) := StableHlo.after hostOps29 (U60 m c)
/-- Region 29's index table: what the host stretch before it left in the table's buffer. -/
def a29 (m : (ℓ : Loc nD τ sig) → Buf (Elt F) ℓ) : (pcfg29 (F := F)).Adm := ⟨fun k => U61 m c₀ (pre29.ref k), trivial⟩
/-- After region 29: its output array at what the write-backs leave, the array it reads as it was. -/
def U62 (m : (ℓ : Loc nD τ sig) → Buf (Elt F) ℓ) (c : Dev nD) : Valuation τ sig (Elt F) :=
  Function.update (Function.update (U61 m c) main_v103
    ((datG29 (atTc (U61 m)) (a29 m) (gblk29 (atTc (U61 m)) (a29 m)) c).arrAt 0 (cfg29 (a29 m)).N)) main_v89 (U61 m c main_v89)
def U63 (m : (ℓ : Loc nD τ sig) → Buf (Elt F) ℓ) (c : Dev nD) : Valuation τ sig (Elt F) := StableHlo.after hostOps30 (U62 m c)
/-- Region 30's index table: what the host stretch before it left in the table's buffer. -/
def a30 (m : (ℓ : Loc nD τ sig) → Buf (Elt F) ℓ) : (pcfg30 (F := F)).Adm := ⟨fun k => U63 m c₀ (pre30.ref k), trivial⟩
/-- After region 30: its output array at what the write-backs leave, the array it reads as it was. -/
def U64 (m : (ℓ : Loc nD τ sig) → Buf (Elt F) ℓ) (c : Dev nD) : Valuation τ sig (Elt F) :=
  Function.update (Function.update (U63 m c) main_v105
    ((datG30 (atTc (U63 m)) (a30 m) (gblk30 (atTc (U63 m)) (a30 m)) c).arrAt 0 (cfg30 (a30 m)).N)) main_v89 (U63 m c main_v89)
def U65 (m : (ℓ : Loc nD τ sig) → Buf (Elt F) ℓ) (c : Dev nD) : Valuation τ sig (Elt F) := StableHlo.after hostOps31 (U64 m c)
/-- Region 31's index table: what the host stretch before it left in the table's buffer. -/
def a31 (m : (ℓ : Loc nD τ sig) → Buf (Elt F) ℓ) : (pcfg31 (F := F)).Adm := ⟨fun k => U65 m c₀ (pre31.ref k), trivial⟩
/-- After region 31: its output array at what the write-backs leave, the array it reads as it was. -/
def U66 (m : (ℓ : Loc nD τ sig) → Buf (Elt F) ℓ) (c : Dev nD) : Valuation τ sig (Elt F) :=
  Function.update (Function.update (U65 m c) main_v108
    ((datG31 (atTc (U65 m)) (a31 m) (gblk31 (atTc (U65 m)) (a31 m)) c).arrAt 0 (cfg31 (a31 m)).N)) main_v89 (U65 m c main_v89)
def U67 (m : (ℓ : Loc nD τ sig) → Buf (Elt F) ℓ) (c : Dev nD) : Valuation τ sig (Elt F) := StableHlo.after hostOps32 (U66 m c)
/-- Region 32's index table: what the host stretch before it left in the table's buffer. -/
def a32 (m : (ℓ : Loc nD τ sig) → Buf (Elt F) ℓ) : (pcfg32 (F := F)).Adm := ⟨fun k => U67 m c₀ (pre32.ref k), trivial⟩
/-- After region 32: its output array at what the write-backs leave, the array it reads as it was. -/
def U68 (m : (ℓ : Loc nD τ sig) → Buf (Elt F) ℓ) (c : Dev nD) : Valuation τ sig (Elt F) :=
  Function.update (Function.update (U67 m c) main_v110
    ((datG32 (atTc (U67 m)) (a32 m) (gblk32 (atTc (U67 m)) (a32 m)) c).arrAt 0 (cfg32 (a32 m)).N)) main_v89 (U67 m c main_v89)
def U69 (m : (ℓ : Loc nD τ sig) → Buf (Elt F) ℓ) (c : Dev nD) : Valuation τ sig (Elt F) := StableHlo.after hostOps33 (U68 m c)
/-- Region 33's index table: what the host stretch before it left in the table's buffer. -/
def a33 (m : (ℓ : Loc nD τ sig) → Buf (Elt F) ℓ) : (pcfg33 (F := F)).Adm := ⟨fun k => U69 m c₀ (pre33.ref k), trivial⟩
/-- After region 33: its output array at what the write-backs leave, the array it reads as it was. -/
def U70 (m : (ℓ : Loc nD τ sig) → Buf (Elt F) ℓ) (c : Dev nD) : Valuation τ sig (Elt F) :=
  Function.update (Function.update (U69 m c) main_v112
    ((datG33 (atTc (U69 m)) (a33 m) (gblk33 (atTc (U69 m)) (a33 m)) c).arrAt 0 (cfg33 (a33 m)).N)) main_v89 (U69 m c main_v89)
def U71 (m : (ℓ : Loc nD τ sig) → Buf (Elt F) ℓ) (c : Dev nD) : Valuation τ sig (Elt F) := StableHlo.after hostOps34 (U70 m c)
/-- Region 34's index table: what the host stretch before it left in the table's buffer. -/
def a34 (m : (ℓ : Loc nD τ sig) → Buf (Elt F) ℓ) : (pcfg34 (F := F)).Adm := ⟨fun k => U71 m c₀ (pre34.ref k), trivial⟩
/-- After region 34: its output array at what the write-backs leave, the array it reads as it was. -/
def U72 (m : (ℓ : Loc nD τ sig) → Buf (Elt F) ℓ) (c : Dev nD) : Valuation τ sig (Elt F) :=
  Function.update (Function.update (U71 m c) main_v114
    ((datG34 (atTc (U71 m)) (a34 m) (gblk34 (atTc (U71 m)) (a34 m)) c).arrAt 0 (cfg34 (a34 m)).N)) main_v89 (U71 m c main_v89)
def U73 (m : (ℓ : Loc nD τ sig) → Buf (Elt F) ℓ) (c : Dev nD) : Valuation τ sig (Elt F) := StableHlo.after hostOps35 (U72 m c)
/-- Region 35's index table: what the host stretch before it left in the table's buffer. -/
def a35 (m : (ℓ : Loc nD τ sig) → Buf (Elt F) ℓ) : (pcfg35 (F := F)).Adm := ⟨fun k => U73 m c₀ (pre35.ref k), trivial⟩
/-- After region 35: its output array at what the write-backs leave, the array it reads as it was. -/
def U74 (m : (ℓ : Loc nD τ sig) → Buf (Elt F) ℓ) (c : Dev nD) : Valuation τ sig (Elt F) :=
  Function.update (Function.update (U73 m c) main_v116
    ((datG35 (atTc (U73 m)) (a35 m) (gblk35 (atTc (U73 m)) (a35 m)) c).arrAt 0 (cfg35 (a35 m)).N)) main_v89 (U73 m c main_v89)
def U75 (m : (ℓ : Loc nD τ sig) → Buf (Elt F) ℓ) (c : Dev nD) : Valuation τ sig (Elt F) := StableHlo.after hostOps36 (U74 m c)
/-- Region 36's index table: what the host stretch before it left in the table's buffer. -/
def a36 (m : (ℓ : Loc nD τ sig) → Buf (Elt F) ℓ) : (pcfg36 (F := F)).Adm := ⟨fun k => U75 m c₀ (pre36.ref k), trivial⟩
/-- After region 36: its output array at what the write-backs leave, the array it reads as it was. -/
def U76 (m : (ℓ : Loc nD τ sig) → Buf (Elt F) ℓ) (c : Dev nD) : Valuation τ sig (Elt F) :=
  Function.update (Function.update (U75 m c) main_v118
    ((datG36 (atTc (U75 m)) (a36 m) (gblk36 (atTc (U75 m)) (a36 m)) c).arrAt 0 (cfg36 (a36 m)).N)) main_v89 (U75 m c main_v89)
def U77 (m : (ℓ : Loc nD τ sig) → Buf (Elt F) ℓ) (c : Dev nD) : Valuation τ sig (Elt F) := StableHlo.after hostOps37 (U76 m c)
/-- Region 37's index table: what the host stretch before it left in the table's buffer. -/
def a37 (m : (ℓ : Loc nD τ sig) → Buf (Elt F) ℓ) : (pcfg37 (F := F)).Adm := ⟨fun k => U77 m c₀ (pre37.ref k), trivial⟩
/-- After region 37: its output array at what the write-backs leave, the array it reads as it was. -/
def U78 (m : (ℓ : Loc nD τ sig) → Buf (Elt F) ℓ) (c : Dev nD) : Valuation τ sig (Elt F) :=
  Function.update (Function.update (U77 m c) main_v120
    ((datG37 (atTc (U77 m)) (a37 m) (gblk37 (atTc (U77 m)) (a37 m)) c).arrAt 0 (cfg37 (a37 m)).N)) main_v89 (U77 m c main_v89)
def U79 (m : (ℓ : Loc nD τ sig) → Buf (Elt F) ℓ) (c : Dev nD) : Valuation τ sig (Elt F) := StableHlo.after hostOps38 (U78 m c)
/-- Region 38's index table: what the host stretch before it left in the table's buffer. -/
def a38 (m : (ℓ : Loc nD τ sig) → Buf (Elt F) ℓ) : (pcfg38 (F := F)).Adm := ⟨fun k => U79 m c₀ (pre38.ref k), trivial⟩
/-- After region 38: its output array at what the write-backs leave, the array it reads as it was. -/
def U80 (m : (ℓ : Loc nD τ sig) → Buf (Elt F) ℓ) (c : Dev nD) : Valuation τ sig (Elt F) :=
  Function.update (Function.update (U79 m c) main_v122
    ((datG38 (atTc (U79 m)) (a38 m) (gblk38 (atTc (U79 m)) (a38 m)) c).arrAt 0 (cfg38 (a38 m)).N)) main_v89 (U79 m c main_v89)
def U81 (m : (ℓ : Loc nD τ sig) → Buf (Elt F) ℓ) (c : Dev nD) : Valuation τ sig (Elt F) := StableHlo.after hostOps39 (U80 m c)
/-- After region 39: its output array at what the pipeline's write-backs leave. -/
def U82 (m : (ℓ : Loc nD τ sig) → Buf (Elt F) ℓ) (c : Dev nD) : Valuation τ sig (Elt F) :=
  Function.update (U81 m c) main_v127 ((dat39 (atTc (U81 m)) c).arrAt 5 cfg39.N)

/-- What the regions leave, read off the real valuations: the conditional frame's unknowns. -/
def outsU (m : (ℓ : Loc nD τ sig) → Buf (Elt F) ℓ) : Outs (F := F) := fun J r c =>
  if J = 4 then U4 m c r else
  if J = 6 then U6 m c r else
  if J = 8 then U8 m c r else
  if J = 10 then U10 m c r else
  if J = 12 then U12 m c r else
  if J = 14 then U14 m c r else
  if J = 16 then U16 m c r else
  if J = 18 then U18 m c r else
  if J = 20 then U20 m c r else
  if J = 22 then U22 m c r else
  if J = 24 then U24 m c r else
  if J = 26 then U26 m c r else
  if J = 28 then U28 m c r else
  if J = 30 then U30 m c r else
  if J = 32 then U32 m c r else
  if J = 34 then U34 m c r else
  if J = 36 then U36 m c r else
  if J = 38 then U38 m c r else
  if J = 40 then U40 m c r else
  if J = 42 then U42 m c r else
  if J = 44 then U44 m c r else
  if J = 46 then U46 m c r else
  if J = 48 then U48 m c r else
  if J = 50 then U50 m c r else
  if J = 52 then U52 m c r else
  if J = 54 then U54 m c r else
  if J = 56 then U56 m c r else
  if J = 58 then U58 m c r else
  if J = 60 then U60 m c r else
  if J = 62 then U62 m c r else
  if J = 64 then U64 m c r else
  if J = 66 then U66 m c r else
  if J = 68 then U68 m c r else
  if J = 70 then U70 m c r else
  if J = 72 then U72 m c r else
  if J = 74 then U74 m c r else
  if J = 76 then U76 m c r else
  if J = 78 then U78 m c r else
  if J = 80 then U80 m c r else
  if J = 82 then U82 m c r else
  U0 m c r

theorem outsU_4 (m : (ℓ : Loc nD τ sig) → Buf (Elt F) ℓ) (r : Ref sig .tc) (c : Dev nD) : outsU m 4 r c = U4 m c r := by
  unfold outsU
  rw [if_pos rfl]
theorem outsU_6 (m : (ℓ : Loc nD τ sig) → Buf (Elt F) ℓ) (r : Ref sig .tc) (c : Dev nD) : outsU m 6 r c = U6 m c r := by
  unfold outsU
  rw [if_neg (by decide : ¬ ((6 : ℕ) = 4)), if_pos rfl]
theorem outsU_8 (m : (ℓ : Loc nD τ sig) → Buf (Elt F) ℓ) (r : Ref sig .tc) (c : Dev nD) : outsU m 8 r c = U8 m c r := by
  unfold outsU
  rw [if_neg (by decide : ¬ ((8 : ℕ) = 4)), if_neg (by decide : ¬ ((8 : ℕ) = 6)), if_pos rfl]
theorem outsU_10 (m : (ℓ : Loc nD τ sig) → Buf (Elt F) ℓ) (r : Ref sig .tc) (c : Dev nD) : outsU m 10 r c = U10 m c r := by
  unfold outsU
  rw [if_neg (by decide : ¬ ((10 : ℕ) = 4)), if_neg (by decide : ¬ ((10 : ℕ) = 6)), if_neg (by decide : ¬ ((10 : ℕ) = 8)), if_pos rfl]
theorem outsU_12 (m : (ℓ : Loc nD τ sig) → Buf (Elt F) ℓ) (r : Ref sig .tc) (c : Dev nD) : outsU m 12 r c = U12 m c r := by
  unfold outsU
  rw [if_neg (by decide : ¬ ((12 : ℕ) = 4)), if_neg (by decide : ¬ ((12 : ℕ) = 6)), if_neg (by decide : ¬ ((12 : ℕ) = 8)), if_neg (by decide : ¬ ((12 : ℕ) = 10)), if_pos rfl]
theorem outsU_14 (m : (ℓ : Loc nD τ sig) → Buf (Elt F) ℓ) (r : Ref sig .tc) (c : Dev nD) : outsU m 14 r c = U14 m c r := by
  unfold outsU
  rw [if_neg (by decide : ¬ ((14 : ℕ) = 4)), if_neg (by decide : ¬ ((14 : ℕ) = 6)), if_neg (by decide : ¬ ((14 : ℕ) = 8)), if_neg (by decide : ¬ ((14 : ℕ) = 10)), if_neg (by decide : ¬ ((14 : ℕ) = 12)), if_pos rfl]
theorem outsU_16 (m : (ℓ : Loc nD τ sig) → Buf (Elt F) ℓ) (r : Ref sig .tc) (c : Dev nD) : outsU m 16 r c = U16 m c r := by
  unfold outsU
  rw [if_neg (by decide : ¬ ((16 : ℕ) = 4)), if_neg (by decide : ¬ ((16 : ℕ) = 6)), if_neg (by decide : ¬ ((16 : ℕ) = 8)), if_neg (by decide : ¬ ((16 : ℕ) = 10)), if_neg (by decide : ¬ ((16 : ℕ) = 12)), if_neg (by decide : ¬ ((16 : ℕ) = 14)), if_pos rfl]
theorem outsU_18 (m : (ℓ : Loc nD τ sig) → Buf (Elt F) ℓ) (r : Ref sig .tc) (c : Dev nD) : outsU m 18 r c = U18 m c r := by
  unfold outsU
  rw [if_neg (by decide : ¬ ((18 : ℕ) = 4)), if_neg (by decide : ¬ ((18 : ℕ) = 6)), if_neg (by decide : ¬ ((18 : ℕ) = 8)), if_neg (by decide : ¬ ((18 : ℕ) = 10)), if_neg (by decide : ¬ ((18 : ℕ) = 12)), if_neg (by decide : ¬ ((18 : ℕ) = 14)), if_neg (by decide : ¬ ((18 : ℕ) = 16)), if_pos rfl]
theorem outsU_20 (m : (ℓ : Loc nD τ sig) → Buf (Elt F) ℓ) (r : Ref sig .tc) (c : Dev nD) : outsU m 20 r c = U20 m c r := by
  unfold outsU
  rw [if_neg (by decide : ¬ ((20 : ℕ) = 4)), if_neg (by decide : ¬ ((20 : ℕ) = 6)), if_neg (by decide : ¬ ((20 : ℕ) = 8)), if_neg (by decide : ¬ ((20 : ℕ) = 10)), if_neg (by decide : ¬ ((20 : ℕ) = 12)), if_neg (by decide : ¬ ((20 : ℕ) = 14)), if_neg (by decide : ¬ ((20 : ℕ) = 16)), if_neg (by decide : ¬ ((20 : ℕ) = 18)), if_pos rfl]
theorem outsU_22 (m : (ℓ : Loc nD τ sig) → Buf (Elt F) ℓ) (r : Ref sig .tc) (c : Dev nD) : outsU m 22 r c = U22 m c r := by
  unfold outsU
  rw [if_neg (by decide : ¬ ((22 : ℕ) = 4)), if_neg (by decide : ¬ ((22 : ℕ) = 6)), if_neg (by decide : ¬ ((22 : ℕ) = 8)), if_neg (by decide : ¬ ((22 : ℕ) = 10)), if_neg (by decide : ¬ ((22 : ℕ) = 12)), if_neg (by decide : ¬ ((22 : ℕ) = 14)), if_neg (by decide : ¬ ((22 : ℕ) = 16)), if_neg (by decide : ¬ ((22 : ℕ) = 18)), if_neg (by decide : ¬ ((22 : ℕ) = 20)), if_pos rfl]
theorem outsU_24 (m : (ℓ : Loc nD τ sig) → Buf (Elt F) ℓ) (r : Ref sig .tc) (c : Dev nD) : outsU m 24 r c = U24 m c r := by
  unfold outsU
  rw [if_neg (by decide : ¬ ((24 : ℕ) = 4)), if_neg (by decide : ¬ ((24 : ℕ) = 6)), if_neg (by decide : ¬ ((24 : ℕ) = 8)), if_neg (by decide : ¬ ((24 : ℕ) = 10)), if_neg (by decide : ¬ ((24 : ℕ) = 12)), if_neg (by decide : ¬ ((24 : ℕ) = 14)), if_neg (by decide : ¬ ((24 : ℕ) = 16)), if_neg (by decide : ¬ ((24 : ℕ) = 18)), if_neg (by decide : ¬ ((24 : ℕ) = 20)), if_neg (by decide : ¬ ((24 : ℕ) = 22)), if_pos rfl]
theorem outsU_26 (m : (ℓ : Loc nD τ sig) → Buf (Elt F) ℓ) (r : Ref sig .tc) (c : Dev nD) : outsU m 26 r c = U26 m c r := by
  unfold outsU
  rw [if_neg (by decide : ¬ ((26 : ℕ) = 4)), if_neg (by decide : ¬ ((26 : ℕ) = 6)), if_neg (by decide : ¬ ((26 : ℕ) = 8)), if_neg (by decide : ¬ ((26 : ℕ) = 10)), if_neg (by decide : ¬ ((26 : ℕ) = 12)), if_neg (by decide : ¬ ((26 : ℕ) = 14)), if_neg (by decide : ¬ ((26 : ℕ) = 16)), if_neg (by decide : ¬ ((26 : ℕ) = 18)), if_neg (by decide : ¬ ((26 : ℕ) = 20)), if_neg (by decide : ¬ ((26 : ℕ) = 22)), if_neg (by decide : ¬ ((26 : ℕ) = 24)), if_pos rfl]
theorem outsU_28 (m : (ℓ : Loc nD τ sig) → Buf (Elt F) ℓ) (r : Ref sig .tc) (c : Dev nD) : outsU m 28 r c = U28 m c r := by
  unfold outsU
  rw [if_neg (by decide : ¬ ((28 : ℕ) = 4)), if_neg (by decide : ¬ ((28 : ℕ) = 6)), if_neg (by decide : ¬ ((28 : ℕ) = 8)), if_neg (by decide : ¬ ((28 : ℕ) = 10)), if_neg (by decide : ¬ ((28 : ℕ) = 12)), if_neg (by decide : ¬ ((28 : ℕ) = 14)), if_neg (by decide : ¬ ((28 : ℕ) = 16)), if_neg (by decide : ¬ ((28 : ℕ) = 18)), if_neg (by decide : ¬ ((28 : ℕ) = 20)), if_neg (by decide : ¬ ((28 : ℕ) = 22)), if_neg (by decide : ¬ ((28 : ℕ) = 24)), if_neg (by decide : ¬ ((28 : ℕ) = 26)), if_pos rfl]
theorem outsU_30 (m : (ℓ : Loc nD τ sig) → Buf (Elt F) ℓ) (r : Ref sig .tc) (c : Dev nD) : outsU m 30 r c = U30 m c r := by
  unfold outsU
  rw [if_neg (by decide : ¬ ((30 : ℕ) = 4)), if_neg (by decide : ¬ ((30 : ℕ) = 6)), if_neg (by decide : ¬ ((30 : ℕ) = 8)), if_neg (by decide : ¬ ((30 : ℕ) = 10)), if_neg (by decide : ¬ ((30 : ℕ) = 12)), if_neg (by decide : ¬ ((30 : ℕ) = 14)), if_neg (by decide : ¬ ((30 : ℕ) = 16)), if_neg (by decide : ¬ ((30 : ℕ) = 18)), if_neg (by decide : ¬ ((30 : ℕ) = 20)), if_neg (by decide : ¬ ((30 : ℕ) = 22)), if_neg (by decide : ¬ ((30 : ℕ) = 24)), if_neg (by decide : ¬ ((30 : ℕ) = 26)), if_neg (by decide : ¬ ((30 : ℕ) = 28)), if_pos rfl]
theorem outsU_32 (m : (ℓ : Loc nD τ sig) → Buf (Elt F) ℓ) (r : Ref sig .tc) (c : Dev nD) : outsU m 32 r c = U32 m c r := by
  unfold outsU
  rw [if_neg (by decide : ¬ ((32 : ℕ) = 4)), if_neg (by decide : ¬ ((32 : ℕ) = 6)), if_neg (by decide : ¬ ((32 : ℕ) = 8)), if_neg (by decide : ¬ ((32 : ℕ) = 10)), if_neg (by decide : ¬ ((32 : ℕ) = 12)), if_neg (by decide : ¬ ((32 : ℕ) = 14)), if_neg (by decide : ¬ ((32 : ℕ) = 16)), if_neg (by decide : ¬ ((32 : ℕ) = 18)), if_neg (by decide : ¬ ((32 : ℕ) = 20)), if_neg (by decide : ¬ ((32 : ℕ) = 22)), if_neg (by decide : ¬ ((32 : ℕ) = 24)), if_neg (by decide : ¬ ((32 : ℕ) = 26)), if_neg (by decide : ¬ ((32 : ℕ) = 28)), if_neg (by decide : ¬ ((32 : ℕ) = 30)), if_pos rfl]
theorem outsU_34 (m : (ℓ : Loc nD τ sig) → Buf (Elt F) ℓ) (r : Ref sig .tc) (c : Dev nD) : outsU m 34 r c = U34 m c r := by
  unfold outsU
  rw [if_neg (by decide : ¬ ((34 : ℕ) = 4)), if_neg (by decide : ¬ ((34 : ℕ) = 6)), if_neg (by decide : ¬ ((34 : ℕ) = 8)), if_neg (by decide : ¬ ((34 : ℕ) = 10)), if_neg (by decide : ¬ ((34 : ℕ) = 12)), if_neg (by decide : ¬ ((34 : ℕ) = 14)), if_neg (by decide : ¬ ((34 : ℕ) = 16)), if_neg (by decide : ¬ ((34 : ℕ) = 18)), if_neg (by decide : ¬ ((34 : ℕ) = 20)), if_neg (by decide : ¬ ((34 : ℕ) = 22)), if_neg (by decide : ¬ ((34 : ℕ) = 24)), if_neg (by decide : ¬ ((34 : ℕ) = 26)), if_neg (by decide : ¬ ((34 : ℕ) = 28)), if_neg (by decide : ¬ ((34 : ℕ) = 30)), if_neg (by decide : ¬ ((34 : ℕ) = 32)), if_pos rfl]
theorem outsU_36 (m : (ℓ : Loc nD τ sig) → Buf (Elt F) ℓ) (r : Ref sig .tc) (c : Dev nD) : outsU m 36 r c = U36 m c r := by
  unfold outsU
  rw [if_neg (by decide : ¬ ((36 : ℕ) = 4)), if_neg (by decide : ¬ ((36 : ℕ) = 6)), if_neg (by decide : ¬ ((36 : ℕ) = 8)), if_neg (by decide : ¬ ((36 : ℕ) = 10)), if_neg (by decide : ¬ ((36 : ℕ) = 12)), if_neg (by decide : ¬ ((36 : ℕ) = 14)), if_neg (by decide : ¬ ((36 : ℕ) = 16)), if_neg (by decide : ¬ ((36 : ℕ) = 18)), if_neg (by decide : ¬ ((36 : ℕ) = 20)), if_neg (by decide : ¬ ((36 : ℕ) = 22)), if_neg (by decide : ¬ ((36 : ℕ) = 24)), if_neg (by decide : ¬ ((36 : ℕ) = 26)), if_neg (by decide : ¬ ((36 : ℕ) = 28)), if_neg (by decide : ¬ ((36 : ℕ) = 30)), if_neg (by decide : ¬ ((36 : ℕ) = 32)), if_neg (by decide : ¬ ((36 : ℕ) = 34)), if_pos rfl]
theorem outsU_38 (m : (ℓ : Loc nD τ sig) → Buf (Elt F) ℓ) (r : Ref sig .tc) (c : Dev nD) : outsU m 38 r c = U38 m c r := by
  unfold outsU
  rw [if_neg (by decide : ¬ ((38 : ℕ) = 4)), if_neg (by decide : ¬ ((38 : ℕ) = 6)), if_neg (by decide : ¬ ((38 : ℕ) = 8)), if_neg (by decide : ¬ ((38 : ℕ) = 10)), if_neg (by decide : ¬ ((38 : ℕ) = 12)), if_neg (by decide : ¬ ((38 : ℕ) = 14)), if_neg (by decide : ¬ ((38 : ℕ) = 16)), if_neg (by decide : ¬ ((38 : ℕ) = 18)), if_neg (by decide : ¬ ((38 : ℕ) = 20)), if_neg (by decide : ¬ ((38 : ℕ) = 22)), if_neg (by decide : ¬ ((38 : ℕ) = 24)), if_neg (by decide : ¬ ((38 : ℕ) = 26)), if_neg (by decide : ¬ ((38 : ℕ) = 28)), if_neg (by decide : ¬ ((38 : ℕ) = 30)), if_neg (by decide : ¬ ((38 : ℕ) = 32)), if_neg (by decide : ¬ ((38 : ℕ) = 34)), if_neg (by decide : ¬ ((38 : ℕ) = 36)), if_pos rfl]
theorem outsU_40 (m : (ℓ : Loc nD τ sig) → Buf (Elt F) ℓ) (r : Ref sig .tc) (c : Dev nD) : outsU m 40 r c = U40 m c r := by
  unfold outsU
  rw [if_neg (by decide : ¬ ((40 : ℕ) = 4)), if_neg (by decide : ¬ ((40 : ℕ) = 6)), if_neg (by decide : ¬ ((40 : ℕ) = 8)), if_neg (by decide : ¬ ((40 : ℕ) = 10)), if_neg (by decide : ¬ ((40 : ℕ) = 12)), if_neg (by decide : ¬ ((40 : ℕ) = 14)), if_neg (by decide : ¬ ((40 : ℕ) = 16)), if_neg (by decide : ¬ ((40 : ℕ) = 18)), if_neg (by decide : ¬ ((40 : ℕ) = 20)), if_neg (by decide : ¬ ((40 : ℕ) = 22)), if_neg (by decide : ¬ ((40 : ℕ) = 24)), if_neg (by decide : ¬ ((40 : ℕ) = 26)), if_neg (by decide : ¬ ((40 : ℕ) = 28)), if_neg (by decide : ¬ ((40 : ℕ) = 30)), if_neg (by decide : ¬ ((40 : ℕ) = 32)), if_neg (by decide : ¬ ((40 : ℕ) = 34)), if_neg (by decide : ¬ ((40 : ℕ) = 36)), if_neg (by decide : ¬ ((40 : ℕ) = 38)), if_pos rfl]
theorem outsU_42 (m : (ℓ : Loc nD τ sig) → Buf (Elt F) ℓ) (r : Ref sig .tc) (c : Dev nD) : outsU m 42 r c = U42 m c r := by
  unfold outsU
  rw [if_neg (by decide : ¬ ((42 : ℕ) = 4)), if_neg (by decide : ¬ ((42 : ℕ) = 6)), if_neg (by decide : ¬ ((42 : ℕ) = 8)), if_neg (by decide : ¬ ((42 : ℕ) = 10)), if_neg (by decide : ¬ ((42 : ℕ) = 12)), if_neg (by decide : ¬ ((42 : ℕ) = 14)), if_neg (by decide : ¬ ((42 : ℕ) = 16)), if_neg (by decide : ¬ ((42 : ℕ) = 18)), if_neg (by decide : ¬ ((42 : ℕ) = 20)), if_neg (by decide : ¬ ((42 : ℕ) = 22)), if_neg (by decide : ¬ ((42 : ℕ) = 24)), if_neg (by decide : ¬ ((42 : ℕ) = 26)), if_neg (by decide : ¬ ((42 : ℕ) = 28)), if_neg (by decide : ¬ ((42 : ℕ) = 30)), if_neg (by decide : ¬ ((42 : ℕ) = 32)), if_neg (by decide : ¬ ((42 : ℕ) = 34)), if_neg (by decide : ¬ ((42 : ℕ) = 36)), if_neg (by decide : ¬ ((42 : ℕ) = 38)), if_neg (by decide : ¬ ((42 : ℕ) = 40)), if_pos rfl]
theorem outsU_44 (m : (ℓ : Loc nD τ sig) → Buf (Elt F) ℓ) (r : Ref sig .tc) (c : Dev nD) : outsU m 44 r c = U44 m c r := by
  unfold outsU
  rw [if_neg (by decide : ¬ ((44 : ℕ) = 4)), if_neg (by decide : ¬ ((44 : ℕ) = 6)), if_neg (by decide : ¬ ((44 : ℕ) = 8)), if_neg (by decide : ¬ ((44 : ℕ) = 10)), if_neg (by decide : ¬ ((44 : ℕ) = 12)), if_neg (by decide : ¬ ((44 : ℕ) = 14)), if_neg (by decide : ¬ ((44 : ℕ) = 16)), if_neg (by decide : ¬ ((44 : ℕ) = 18)), if_neg (by decide : ¬ ((44 : ℕ) = 20)), if_neg (by decide : ¬ ((44 : ℕ) = 22)), if_neg (by decide : ¬ ((44 : ℕ) = 24)), if_neg (by decide : ¬ ((44 : ℕ) = 26)), if_neg (by decide : ¬ ((44 : ℕ) = 28)), if_neg (by decide : ¬ ((44 : ℕ) = 30)), if_neg (by decide : ¬ ((44 : ℕ) = 32)), if_neg (by decide : ¬ ((44 : ℕ) = 34)), if_neg (by decide : ¬ ((44 : ℕ) = 36)), if_neg (by decide : ¬ ((44 : ℕ) = 38)), if_neg (by decide : ¬ ((44 : ℕ) = 40)), if_neg (by decide : ¬ ((44 : ℕ) = 42)), if_pos rfl]
theorem outsU_46 (m : (ℓ : Loc nD τ sig) → Buf (Elt F) ℓ) (r : Ref sig .tc) (c : Dev nD) : outsU m 46 r c = U46 m c r := by
  unfold outsU
  rw [if_neg (by decide : ¬ ((46 : ℕ) = 4)), if_neg (by decide : ¬ ((46 : ℕ) = 6)), if_neg (by decide : ¬ ((46 : ℕ) = 8)), if_neg (by decide : ¬ ((46 : ℕ) = 10)), if_neg (by decide : ¬ ((46 : ℕ) = 12)), if_neg (by decide : ¬ ((46 : ℕ) = 14)), if_neg (by decide : ¬ ((46 : ℕ) = 16)), if_neg (by decide : ¬ ((46 : ℕ) = 18)), if_neg (by decide : ¬ ((46 : ℕ) = 20)), if_neg (by decide : ¬ ((46 : ℕ) = 22)), if_neg (by decide : ¬ ((46 : ℕ) = 24)), if_neg (by decide : ¬ ((46 : ℕ) = 26)), if_neg (by decide : ¬ ((46 : ℕ) = 28)), if_neg (by decide : ¬ ((46 : ℕ) = 30)), if_neg (by decide : ¬ ((46 : ℕ) = 32)), if_neg (by decide : ¬ ((46 : ℕ) = 34)), if_neg (by decide : ¬ ((46 : ℕ) = 36)), if_neg (by decide : ¬ ((46 : ℕ) = 38)), if_neg (by decide : ¬ ((46 : ℕ) = 40)), if_neg (by decide : ¬ ((46 : ℕ) = 42)), if_neg (by decide : ¬ ((46 : ℕ) = 44)), if_pos rfl]
theorem outsU_48 (m : (ℓ : Loc nD τ sig) → Buf (Elt F) ℓ) (r : Ref sig .tc) (c : Dev nD) : outsU m 48 r c = U48 m c r := by
  unfold outsU
  rw [if_neg (by decide : ¬ ((48 : ℕ) = 4)), if_neg (by decide : ¬ ((48 : ℕ) = 6)), if_neg (by decide : ¬ ((48 : ℕ) = 8)), if_neg (by decide : ¬ ((48 : ℕ) = 10)), if_neg (by decide : ¬ ((48 : ℕ) = 12)), if_neg (by decide : ¬ ((48 : ℕ) = 14)), if_neg (by decide : ¬ ((48 : ℕ) = 16)), if_neg (by decide : ¬ ((48 : ℕ) = 18)), if_neg (by decide : ¬ ((48 : ℕ) = 20)), if_neg (by decide : ¬ ((48 : ℕ) = 22)), if_neg (by decide : ¬ ((48 : ℕ) = 24)), if_neg (by decide : ¬ ((48 : ℕ) = 26)), if_neg (by decide : ¬ ((48 : ℕ) = 28)), if_neg (by decide : ¬ ((48 : ℕ) = 30)), if_neg (by decide : ¬ ((48 : ℕ) = 32)), if_neg (by decide : ¬ ((48 : ℕ) = 34)), if_neg (by decide : ¬ ((48 : ℕ) = 36)), if_neg (by decide : ¬ ((48 : ℕ) = 38)), if_neg (by decide : ¬ ((48 : ℕ) = 40)), if_neg (by decide : ¬ ((48 : ℕ) = 42)), if_neg (by decide : ¬ ((48 : ℕ) = 44)), if_neg (by decide : ¬ ((48 : ℕ) = 46)), if_pos rfl]
theorem outsU_50 (m : (ℓ : Loc nD τ sig) → Buf (Elt F) ℓ) (r : Ref sig .tc) (c : Dev nD) : outsU m 50 r c = U50 m c r := by
  unfold outsU
  rw [if_neg (by decide : ¬ ((50 : ℕ) = 4)), if_neg (by decide : ¬ ((50 : ℕ) = 6)), if_neg (by decide : ¬ ((50 : ℕ) = 8)), if_neg (by decide : ¬ ((50 : ℕ) = 10)), if_neg (by decide : ¬ ((50 : ℕ) = 12)), if_neg (by decide : ¬ ((50 : ℕ) = 14)), if_neg (by decide : ¬ ((50 : ℕ) = 16)), if_neg (by decide : ¬ ((50 : ℕ) = 18)), if_neg (by decide : ¬ ((50 : ℕ) = 20)), if_neg (by decide : ¬ ((50 : ℕ) = 22)), if_neg (by decide : ¬ ((50 : ℕ) = 24)), if_neg (by decide : ¬ ((50 : ℕ) = 26)), if_neg (by decide : ¬ ((50 : ℕ) = 28)), if_neg (by decide : ¬ ((50 : ℕ) = 30)), if_neg (by decide : ¬ ((50 : ℕ) = 32)), if_neg (by decide : ¬ ((50 : ℕ) = 34)), if_neg (by decide : ¬ ((50 : ℕ) = 36)), if_neg (by decide : ¬ ((50 : ℕ) = 38)), if_neg (by decide : ¬ ((50 : ℕ) = 40)), if_neg (by decide : ¬ ((50 : ℕ) = 42)), if_neg (by decide : ¬ ((50 : ℕ) = 44)), if_neg (by decide : ¬ ((50 : ℕ) = 46)), if_neg (by decide : ¬ ((50 : ℕ) = 48)), if_pos rfl]
theorem outsU_52 (m : (ℓ : Loc nD τ sig) → Buf (Elt F) ℓ) (r : Ref sig .tc) (c : Dev nD) : outsU m 52 r c = U52 m c r := by
  unfold outsU
  rw [if_neg (by decide : ¬ ((52 : ℕ) = 4)), if_neg (by decide : ¬ ((52 : ℕ) = 6)), if_neg (by decide : ¬ ((52 : ℕ) = 8)), if_neg (by decide : ¬ ((52 : ℕ) = 10)), if_neg (by decide : ¬ ((52 : ℕ) = 12)), if_neg (by decide : ¬ ((52 : ℕ) = 14)), if_neg (by decide : ¬ ((52 : ℕ) = 16)), if_neg (by decide : ¬ ((52 : ℕ) = 18)), if_neg (by decide : ¬ ((52 : ℕ) = 20)), if_neg (by decide : ¬ ((52 : ℕ) = 22)), if_neg (by decide : ¬ ((52 : ℕ) = 24)), if_neg (by decide : ¬ ((52 : ℕ) = 26)), if_neg (by decide : ¬ ((52 : ℕ) = 28)), if_neg (by decide : ¬ ((52 : ℕ) = 30)), if_neg (by decide : ¬ ((52 : ℕ) = 32)), if_neg (by decide : ¬ ((52 : ℕ) = 34)), if_neg (by decide : ¬ ((52 : ℕ) = 36)), if_neg (by decide : ¬ ((52 : ℕ) = 38)), if_neg (by decide : ¬ ((52 : ℕ) = 40)), if_neg (by decide : ¬ ((52 : ℕ) = 42)), if_neg (by decide : ¬ ((52 : ℕ) = 44)), if_neg (by decide : ¬ ((52 : ℕ) = 46)), if_neg (by decide : ¬ ((52 : ℕ) = 48)), if_neg (by decide : ¬ ((52 : ℕ) = 50)), if_pos rfl]
theorem outsU_54 (m : (ℓ : Loc nD τ sig) → Buf (Elt F) ℓ) (r : Ref sig .tc) (c : Dev nD) : outsU m 54 r c = U54 m c r := by
  unfold outsU
  rw [if_neg (by decide : ¬ ((54 : ℕ) = 4)), if_neg (by decide : ¬ ((54 : ℕ) = 6)), if_neg (by decide : ¬ ((54 : ℕ) = 8)), if_neg (by decide : ¬ ((54 : ℕ) = 10)), if_neg (by decide : ¬ ((54 : ℕ) = 12)), if_neg (by decide : ¬ ((54 : ℕ) = 14)), if_neg (by decide : ¬ ((54 : ℕ) = 16)), if_neg (by decide : ¬ ((54 : ℕ) = 18)), if_neg (by decide : ¬ ((54 : ℕ) = 20)), if_neg (by decide : ¬ ((54 : ℕ) = 22)), if_neg (by decide : ¬ ((54 : ℕ) = 24)), if_neg (by decide : ¬ ((54 : ℕ) = 26)), if_neg (by decide : ¬ ((54 : ℕ) = 28)), if_neg (by decide : ¬ ((54 : ℕ) = 30)), if_neg (by decide : ¬ ((54 : ℕ) = 32)), if_neg (by decide : ¬ ((54 : ℕ) = 34)), if_neg (by decide : ¬ ((54 : ℕ) = 36)), if_neg (by decide : ¬ ((54 : ℕ) = 38)), if_neg (by decide : ¬ ((54 : ℕ) = 40)), if_neg (by decide : ¬ ((54 : ℕ) = 42)), if_neg (by decide : ¬ ((54 : ℕ) = 44)), if_neg (by decide : ¬ ((54 : ℕ) = 46)), if_neg (by decide : ¬ ((54 : ℕ) = 48)), if_neg (by decide : ¬ ((54 : ℕ) = 50)), if_neg (by decide : ¬ ((54 : ℕ) = 52)), if_pos rfl]
theorem outsU_56 (m : (ℓ : Loc nD τ sig) → Buf (Elt F) ℓ) (r : Ref sig .tc) (c : Dev nD) : outsU m 56 r c = U56 m c r := by
  unfold outsU
  rw [if_neg (by decide : ¬ ((56 : ℕ) = 4)), if_neg (by decide : ¬ ((56 : ℕ) = 6)), if_neg (by decide : ¬ ((56 : ℕ) = 8)), if_neg (by decide : ¬ ((56 : ℕ) = 10)), if_neg (by decide : ¬ ((56 : ℕ) = 12)), if_neg (by decide : ¬ ((56 : ℕ) = 14)), if_neg (by decide : ¬ ((56 : ℕ) = 16)), if_neg (by decide : ¬ ((56 : ℕ) = 18)), if_neg (by decide : ¬ ((56 : ℕ) = 20)), if_neg (by decide : ¬ ((56 : ℕ) = 22)), if_neg (by decide : ¬ ((56 : ℕ) = 24)), if_neg (by decide : ¬ ((56 : ℕ) = 26)), if_neg (by decide : ¬ ((56 : ℕ) = 28)), if_neg (by decide : ¬ ((56 : ℕ) = 30)), if_neg (by decide : ¬ ((56 : ℕ) = 32)), if_neg (by decide : ¬ ((56 : ℕ) = 34)), if_neg (by decide : ¬ ((56 : ℕ) = 36)), if_neg (by decide : ¬ ((56 : ℕ) = 38)), if_neg (by decide : ¬ ((56 : ℕ) = 40)), if_neg (by decide : ¬ ((56 : ℕ) = 42)), if_neg (by decide : ¬ ((56 : ℕ) = 44)), if_neg (by decide : ¬ ((56 : ℕ) = 46)), if_neg (by decide : ¬ ((56 : ℕ) = 48)), if_neg (by decide : ¬ ((56 : ℕ) = 50)), if_neg (by decide : ¬ ((56 : ℕ) = 52)), if_neg (by decide : ¬ ((56 : ℕ) = 54)), if_pos rfl]
theorem outsU_58 (m : (ℓ : Loc nD τ sig) → Buf (Elt F) ℓ) (r : Ref sig .tc) (c : Dev nD) : outsU m 58 r c = U58 m c r := by
  unfold outsU
  rw [if_neg (by decide : ¬ ((58 : ℕ) = 4)), if_neg (by decide : ¬ ((58 : ℕ) = 6)), if_neg (by decide : ¬ ((58 : ℕ) = 8)), if_neg (by decide : ¬ ((58 : ℕ) = 10)), if_neg (by decide : ¬ ((58 : ℕ) = 12)), if_neg (by decide : ¬ ((58 : ℕ) = 14)), if_neg (by decide : ¬ ((58 : ℕ) = 16)), if_neg (by decide : ¬ ((58 : ℕ) = 18)), if_neg (by decide : ¬ ((58 : ℕ) = 20)), if_neg (by decide : ¬ ((58 : ℕ) = 22)), if_neg (by decide : ¬ ((58 : ℕ) = 24)), if_neg (by decide : ¬ ((58 : ℕ) = 26)), if_neg (by decide : ¬ ((58 : ℕ) = 28)), if_neg (by decide : ¬ ((58 : ℕ) = 30)), if_neg (by decide : ¬ ((58 : ℕ) = 32)), if_neg (by decide : ¬ ((58 : ℕ) = 34)), if_neg (by decide : ¬ ((58 : ℕ) = 36)), if_neg (by decide : ¬ ((58 : ℕ) = 38)), if_neg (by decide : ¬ ((58 : ℕ) = 40)), if_neg (by decide : ¬ ((58 : ℕ) = 42)), if_neg (by decide : ¬ ((58 : ℕ) = 44)), if_neg (by decide : ¬ ((58 : ℕ) = 46)), if_neg (by decide : ¬ ((58 : ℕ) = 48)), if_neg (by decide : ¬ ((58 : ℕ) = 50)), if_neg (by decide : ¬ ((58 : ℕ) = 52)), if_neg (by decide : ¬ ((58 : ℕ) = 54)), if_neg (by decide : ¬ ((58 : ℕ) = 56)), if_pos rfl]
theorem outsU_60 (m : (ℓ : Loc nD τ sig) → Buf (Elt F) ℓ) (r : Ref sig .tc) (c : Dev nD) : outsU m 60 r c = U60 m c r := by
  unfold outsU
  rw [if_neg (by decide : ¬ ((60 : ℕ) = 4)), if_neg (by decide : ¬ ((60 : ℕ) = 6)), if_neg (by decide : ¬ ((60 : ℕ) = 8)), if_neg (by decide : ¬ ((60 : ℕ) = 10)), if_neg (by decide : ¬ ((60 : ℕ) = 12)), if_neg (by decide : ¬ ((60 : ℕ) = 14)), if_neg (by decide : ¬ ((60 : ℕ) = 16)), if_neg (by decide : ¬ ((60 : ℕ) = 18)), if_neg (by decide : ¬ ((60 : ℕ) = 20)), if_neg (by decide : ¬ ((60 : ℕ) = 22)), if_neg (by decide : ¬ ((60 : ℕ) = 24)), if_neg (by decide : ¬ ((60 : ℕ) = 26)), if_neg (by decide : ¬ ((60 : ℕ) = 28)), if_neg (by decide : ¬ ((60 : ℕ) = 30)), if_neg (by decide : ¬ ((60 : ℕ) = 32)), if_neg (by decide : ¬ ((60 : ℕ) = 34)), if_neg (by decide : ¬ ((60 : ℕ) = 36)), if_neg (by decide : ¬ ((60 : ℕ) = 38)), if_neg (by decide : ¬ ((60 : ℕ) = 40)), if_neg (by decide : ¬ ((60 : ℕ) = 42)), if_neg (by decide : ¬ ((60 : ℕ) = 44)), if_neg (by decide : ¬ ((60 : ℕ) = 46)), if_neg (by decide : ¬ ((60 : ℕ) = 48)), if_neg (by decide : ¬ ((60 : ℕ) = 50)), if_neg (by decide : ¬ ((60 : ℕ) = 52)), if_neg (by decide : ¬ ((60 : ℕ) = 54)), if_neg (by decide : ¬ ((60 : ℕ) = 56)), if_neg (by decide : ¬ ((60 : ℕ) = 58)), if_pos rfl]
theorem outsU_62 (m : (ℓ : Loc nD τ sig) → Buf (Elt F) ℓ) (r : Ref sig .tc) (c : Dev nD) : outsU m 62 r c = U62 m c r := by
  unfold outsU
  rw [if_neg (by decide : ¬ ((62 : ℕ) = 4)), if_neg (by decide : ¬ ((62 : ℕ) = 6)), if_neg (by decide : ¬ ((62 : ℕ) = 8)), if_neg (by decide : ¬ ((62 : ℕ) = 10)), if_neg (by decide : ¬ ((62 : ℕ) = 12)), if_neg (by decide : ¬ ((62 : ℕ) = 14)), if_neg (by decide : ¬ ((62 : ℕ) = 16)), if_neg (by decide : ¬ ((62 : ℕ) = 18)), if_neg (by decide : ¬ ((62 : ℕ) = 20)), if_neg (by decide : ¬ ((62 : ℕ) = 22)), if_neg (by decide : ¬ ((62 : ℕ) = 24)), if_neg (by decide : ¬ ((62 : ℕ) = 26)), if_neg (by decide : ¬ ((62 : ℕ) = 28)), if_neg (by decide : ¬ ((62 : ℕ) = 30)), if_neg (by decide : ¬ ((62 : ℕ) = 32)), if_neg (by decide : ¬ ((62 : ℕ) = 34)), if_neg (by decide : ¬ ((62 : ℕ) = 36)), if_neg (by decide : ¬ ((62 : ℕ) = 38)), if_neg (by decide : ¬ ((62 : ℕ) = 40)), if_neg (by decide : ¬ ((62 : ℕ) = 42)), if_neg (by decide : ¬ ((62 : ℕ) = 44)), if_neg (by decide : ¬ ((62 : ℕ) = 46)), if_neg (by decide : ¬ ((62 : ℕ) = 48)), if_neg (by decide : ¬ ((62 : ℕ) = 50)), if_neg (by decide : ¬ ((62 : ℕ) = 52)), if_neg (by decide : ¬ ((62 : ℕ) = 54)), if_neg (by decide : ¬ ((62 : ℕ) = 56)), if_neg (by decide : ¬ ((62 : ℕ) = 58)), if_neg (by decide : ¬ ((62 : ℕ) = 60)), if_pos rfl]
theorem outsU_64 (m : (ℓ : Loc nD τ sig) → Buf (Elt F) ℓ) (r : Ref sig .tc) (c : Dev nD) : outsU m 64 r c = U64 m c r := by
  unfold outsU
  rw [if_neg (by decide : ¬ ((64 : ℕ) = 4)), if_neg (by decide : ¬ ((64 : ℕ) = 6)), if_neg (by decide : ¬ ((64 : ℕ) = 8)), if_neg (by decide : ¬ ((64 : ℕ) = 10)), if_neg (by decide : ¬ ((64 : ℕ) = 12)), if_neg (by decide : ¬ ((64 : ℕ) = 14)), if_neg (by decide : ¬ ((64 : ℕ) = 16)), if_neg (by decide : ¬ ((64 : ℕ) = 18)), if_neg (by decide : ¬ ((64 : ℕ) = 20)), if_neg (by decide : ¬ ((64 : ℕ) = 22)), if_neg (by decide : ¬ ((64 : ℕ) = 24)), if_neg (by decide : ¬ ((64 : ℕ) = 26)), if_neg (by decide : ¬ ((64 : ℕ) = 28)), if_neg (by decide : ¬ ((64 : ℕ) = 30)), if_neg (by decide : ¬ ((64 : ℕ) = 32)), if_neg (by decide : ¬ ((64 : ℕ) = 34)), if_neg (by decide : ¬ ((64 : ℕ) = 36)), if_neg (by decide : ¬ ((64 : ℕ) = 38)), if_neg (by decide : ¬ ((64 : ℕ) = 40)), if_neg (by decide : ¬ ((64 : ℕ) = 42)), if_neg (by decide : ¬ ((64 : ℕ) = 44)), if_neg (by decide : ¬ ((64 : ℕ) = 46)), if_neg (by decide : ¬ ((64 : ℕ) = 48)), if_neg (by decide : ¬ ((64 : ℕ) = 50)), if_neg (by decide : ¬ ((64 : ℕ) = 52)), if_neg (by decide : ¬ ((64 : ℕ) = 54)), if_neg (by decide : ¬ ((64 : ℕ) = 56)), if_neg (by decide : ¬ ((64 : ℕ) = 58)), if_neg (by decide : ¬ ((64 : ℕ) = 60)), if_neg (by decide : ¬ ((64 : ℕ) = 62)), if_pos rfl]
theorem outsU_66 (m : (ℓ : Loc nD τ sig) → Buf (Elt F) ℓ) (r : Ref sig .tc) (c : Dev nD) : outsU m 66 r c = U66 m c r := by
  unfold outsU
  rw [if_neg (by decide : ¬ ((66 : ℕ) = 4)), if_neg (by decide : ¬ ((66 : ℕ) = 6)), if_neg (by decide : ¬ ((66 : ℕ) = 8)), if_neg (by decide : ¬ ((66 : ℕ) = 10)), if_neg (by decide : ¬ ((66 : ℕ) = 12)), if_neg (by decide : ¬ ((66 : ℕ) = 14)), if_neg (by decide : ¬ ((66 : ℕ) = 16)), if_neg (by decide : ¬ ((66 : ℕ) = 18)), if_neg (by decide : ¬ ((66 : ℕ) = 20)), if_neg (by decide : ¬ ((66 : ℕ) = 22)), if_neg (by decide : ¬ ((66 : ℕ) = 24)), if_neg (by decide : ¬ ((66 : ℕ) = 26)), if_neg (by decide : ¬ ((66 : ℕ) = 28)), if_neg (by decide : ¬ ((66 : ℕ) = 30)), if_neg (by decide : ¬ ((66 : ℕ) = 32)), if_neg (by decide : ¬ ((66 : ℕ) = 34)), if_neg (by decide : ¬ ((66 : ℕ) = 36)), if_neg (by decide : ¬ ((66 : ℕ) = 38)), if_neg (by decide : ¬ ((66 : ℕ) = 40)), if_neg (by decide : ¬ ((66 : ℕ) = 42)), if_neg (by decide : ¬ ((66 : ℕ) = 44)), if_neg (by decide : ¬ ((66 : ℕ) = 46)), if_neg (by decide : ¬ ((66 : ℕ) = 48)), if_neg (by decide : ¬ ((66 : ℕ) = 50)), if_neg (by decide : ¬ ((66 : ℕ) = 52)), if_neg (by decide : ¬ ((66 : ℕ) = 54)), if_neg (by decide : ¬ ((66 : ℕ) = 56)), if_neg (by decide : ¬ ((66 : ℕ) = 58)), if_neg (by decide : ¬ ((66 : ℕ) = 60)), if_neg (by decide : ¬ ((66 : ℕ) = 62)), if_neg (by decide : ¬ ((66 : ℕ) = 64)), if_pos rfl]
theorem outsU_68 (m : (ℓ : Loc nD τ sig) → Buf (Elt F) ℓ) (r : Ref sig .tc) (c : Dev nD) : outsU m 68 r c = U68 m c r := by
  unfold outsU
  rw [if_neg (by decide : ¬ ((68 : ℕ) = 4)), if_neg (by decide : ¬ ((68 : ℕ) = 6)), if_neg (by decide : ¬ ((68 : ℕ) = 8)), if_neg (by decide : ¬ ((68 : ℕ) = 10)), if_neg (by decide : ¬ ((68 : ℕ) = 12)), if_neg (by decide : ¬ ((68 : ℕ) = 14)), if_neg (by decide : ¬ ((68 : ℕ) = 16)), if_neg (by decide : ¬ ((68 : ℕ) = 18)), if_neg (by decide : ¬ ((68 : ℕ) = 20)), if_neg (by decide : ¬ ((68 : ℕ) = 22)), if_neg (by decide : ¬ ((68 : ℕ) = 24)), if_neg (by decide : ¬ ((68 : ℕ) = 26)), if_neg (by decide : ¬ ((68 : ℕ) = 28)), if_neg (by decide : ¬ ((68 : ℕ) = 30)), if_neg (by decide : ¬ ((68 : ℕ) = 32)), if_neg (by decide : ¬ ((68 : ℕ) = 34)), if_neg (by decide : ¬ ((68 : ℕ) = 36)), if_neg (by decide : ¬ ((68 : ℕ) = 38)), if_neg (by decide : ¬ ((68 : ℕ) = 40)), if_neg (by decide : ¬ ((68 : ℕ) = 42)), if_neg (by decide : ¬ ((68 : ℕ) = 44)), if_neg (by decide : ¬ ((68 : ℕ) = 46)), if_neg (by decide : ¬ ((68 : ℕ) = 48)), if_neg (by decide : ¬ ((68 : ℕ) = 50)), if_neg (by decide : ¬ ((68 : ℕ) = 52)), if_neg (by decide : ¬ ((68 : ℕ) = 54)), if_neg (by decide : ¬ ((68 : ℕ) = 56)), if_neg (by decide : ¬ ((68 : ℕ) = 58)), if_neg (by decide : ¬ ((68 : ℕ) = 60)), if_neg (by decide : ¬ ((68 : ℕ) = 62)), if_neg (by decide : ¬ ((68 : ℕ) = 64)), if_neg (by decide : ¬ ((68 : ℕ) = 66)), if_pos rfl]
theorem outsU_70 (m : (ℓ : Loc nD τ sig) → Buf (Elt F) ℓ) (r : Ref sig .tc) (c : Dev nD) : outsU m 70 r c = U70 m c r := by
  unfold outsU
  rw [if_neg (by decide : ¬ ((70 : ℕ) = 4)), if_neg (by decide : ¬ ((70 : ℕ) = 6)), if_neg (by decide : ¬ ((70 : ℕ) = 8)), if_neg (by decide : ¬ ((70 : ℕ) = 10)), if_neg (by decide : ¬ ((70 : ℕ) = 12)), if_neg (by decide : ¬ ((70 : ℕ) = 14)), if_neg (by decide : ¬ ((70 : ℕ) = 16)), if_neg (by decide : ¬ ((70 : ℕ) = 18)), if_neg (by decide : ¬ ((70 : ℕ) = 20)), if_neg (by decide : ¬ ((70 : ℕ) = 22)), if_neg (by decide : ¬ ((70 : ℕ) = 24)), if_neg (by decide : ¬ ((70 : ℕ) = 26)), if_neg (by decide : ¬ ((70 : ℕ) = 28)), if_neg (by decide : ¬ ((70 : ℕ) = 30)), if_neg (by decide : ¬ ((70 : ℕ) = 32)), if_neg (by decide : ¬ ((70 : ℕ) = 34)), if_neg (by decide : ¬ ((70 : ℕ) = 36)), if_neg (by decide : ¬ ((70 : ℕ) = 38)), if_neg (by decide : ¬ ((70 : ℕ) = 40)), if_neg (by decide : ¬ ((70 : ℕ) = 42)), if_neg (by decide : ¬ ((70 : ℕ) = 44)), if_neg (by decide : ¬ ((70 : ℕ) = 46)), if_neg (by decide : ¬ ((70 : ℕ) = 48)), if_neg (by decide : ¬ ((70 : ℕ) = 50)), if_neg (by decide : ¬ ((70 : ℕ) = 52)), if_neg (by decide : ¬ ((70 : ℕ) = 54)), if_neg (by decide : ¬ ((70 : ℕ) = 56)), if_neg (by decide : ¬ ((70 : ℕ) = 58)), if_neg (by decide : ¬ ((70 : ℕ) = 60)), if_neg (by decide : ¬ ((70 : ℕ) = 62)), if_neg (by decide : ¬ ((70 : ℕ) = 64)), if_neg (by decide : ¬ ((70 : ℕ) = 66)), if_neg (by decide : ¬ ((70 : ℕ) = 68)), if_pos rfl]
theorem outsU_72 (m : (ℓ : Loc nD τ sig) → Buf (Elt F) ℓ) (r : Ref sig .tc) (c : Dev nD) : outsU m 72 r c = U72 m c r := by
  unfold outsU
  rw [if_neg (by decide : ¬ ((72 : ℕ) = 4)), if_neg (by decide : ¬ ((72 : ℕ) = 6)), if_neg (by decide : ¬ ((72 : ℕ) = 8)), if_neg (by decide : ¬ ((72 : ℕ) = 10)), if_neg (by decide : ¬ ((72 : ℕ) = 12)), if_neg (by decide : ¬ ((72 : ℕ) = 14)), if_neg (by decide : ¬ ((72 : ℕ) = 16)), if_neg (by decide : ¬ ((72 : ℕ) = 18)), if_neg (by decide : ¬ ((72 : ℕ) = 20)), if_neg (by decide : ¬ ((72 : ℕ) = 22)), if_neg (by decide : ¬ ((72 : ℕ) = 24)), if_neg (by decide : ¬ ((72 : ℕ) = 26)), if_neg (by decide : ¬ ((72 : ℕ) = 28)), if_neg (by decide : ¬ ((72 : ℕ) = 30)), if_neg (by decide : ¬ ((72 : ℕ) = 32)), if_neg (by decide : ¬ ((72 : ℕ) = 34)), if_neg (by decide : ¬ ((72 : ℕ) = 36)), if_neg (by decide : ¬ ((72 : ℕ) = 38)), if_neg (by decide : ¬ ((72 : ℕ) = 40)), if_neg (by decide : ¬ ((72 : ℕ) = 42)), if_neg (by decide : ¬ ((72 : ℕ) = 44)), if_neg (by decide : ¬ ((72 : ℕ) = 46)), if_neg (by decide : ¬ ((72 : ℕ) = 48)), if_neg (by decide : ¬ ((72 : ℕ) = 50)), if_neg (by decide : ¬ ((72 : ℕ) = 52)), if_neg (by decide : ¬ ((72 : ℕ) = 54)), if_neg (by decide : ¬ ((72 : ℕ) = 56)), if_neg (by decide : ¬ ((72 : ℕ) = 58)), if_neg (by decide : ¬ ((72 : ℕ) = 60)), if_neg (by decide : ¬ ((72 : ℕ) = 62)), if_neg (by decide : ¬ ((72 : ℕ) = 64)), if_neg (by decide : ¬ ((72 : ℕ) = 66)), if_neg (by decide : ¬ ((72 : ℕ) = 68)), if_neg (by decide : ¬ ((72 : ℕ) = 70)), if_pos rfl]
theorem outsU_74 (m : (ℓ : Loc nD τ sig) → Buf (Elt F) ℓ) (r : Ref sig .tc) (c : Dev nD) : outsU m 74 r c = U74 m c r := by
  unfold outsU
  rw [if_neg (by decide : ¬ ((74 : ℕ) = 4)), if_neg (by decide : ¬ ((74 : ℕ) = 6)), if_neg (by decide : ¬ ((74 : ℕ) = 8)), if_neg (by decide : ¬ ((74 : ℕ) = 10)), if_neg (by decide : ¬ ((74 : ℕ) = 12)), if_neg (by decide : ¬ ((74 : ℕ) = 14)), if_neg (by decide : ¬ ((74 : ℕ) = 16)), if_neg (by decide : ¬ ((74 : ℕ) = 18)), if_neg (by decide : ¬ ((74 : ℕ) = 20)), if_neg (by decide : ¬ ((74 : ℕ) = 22)), if_neg (by decide : ¬ ((74 : ℕ) = 24)), if_neg (by decide : ¬ ((74 : ℕ) = 26)), if_neg (by decide : ¬ ((74 : ℕ) = 28)), if_neg (by decide : ¬ ((74 : ℕ) = 30)), if_neg (by decide : ¬ ((74 : ℕ) = 32)), if_neg (by decide : ¬ ((74 : ℕ) = 34)), if_neg (by decide : ¬ ((74 : ℕ) = 36)), if_neg (by decide : ¬ ((74 : ℕ) = 38)), if_neg (by decide : ¬ ((74 : ℕ) = 40)), if_neg (by decide : ¬ ((74 : ℕ) = 42)), if_neg (by decide : ¬ ((74 : ℕ) = 44)), if_neg (by decide : ¬ ((74 : ℕ) = 46)), if_neg (by decide : ¬ ((74 : ℕ) = 48)), if_neg (by decide : ¬ ((74 : ℕ) = 50)), if_neg (by decide : ¬ ((74 : ℕ) = 52)), if_neg (by decide : ¬ ((74 : ℕ) = 54)), if_neg (by decide : ¬ ((74 : ℕ) = 56)), if_neg (by decide : ¬ ((74 : ℕ) = 58)), if_neg (by decide : ¬ ((74 : ℕ) = 60)), if_neg (by decide : ¬ ((74 : ℕ) = 62)), if_neg (by decide : ¬ ((74 : ℕ) = 64)), if_neg (by decide : ¬ ((74 : ℕ) = 66)), if_neg (by decide : ¬ ((74 : ℕ) = 68)), if_neg (by decide : ¬ ((74 : ℕ) = 70)), if_neg (by decide : ¬ ((74 : ℕ) = 72)), if_pos rfl]
theorem outsU_76 (m : (ℓ : Loc nD τ sig) → Buf (Elt F) ℓ) (r : Ref sig .tc) (c : Dev nD) : outsU m 76 r c = U76 m c r := by
  unfold outsU
  rw [if_neg (by decide : ¬ ((76 : ℕ) = 4)), if_neg (by decide : ¬ ((76 : ℕ) = 6)), if_neg (by decide : ¬ ((76 : ℕ) = 8)), if_neg (by decide : ¬ ((76 : ℕ) = 10)), if_neg (by decide : ¬ ((76 : ℕ) = 12)), if_neg (by decide : ¬ ((76 : ℕ) = 14)), if_neg (by decide : ¬ ((76 : ℕ) = 16)), if_neg (by decide : ¬ ((76 : ℕ) = 18)), if_neg (by decide : ¬ ((76 : ℕ) = 20)), if_neg (by decide : ¬ ((76 : ℕ) = 22)), if_neg (by decide : ¬ ((76 : ℕ) = 24)), if_neg (by decide : ¬ ((76 : ℕ) = 26)), if_neg (by decide : ¬ ((76 : ℕ) = 28)), if_neg (by decide : ¬ ((76 : ℕ) = 30)), if_neg (by decide : ¬ ((76 : ℕ) = 32)), if_neg (by decide : ¬ ((76 : ℕ) = 34)), if_neg (by decide : ¬ ((76 : ℕ) = 36)), if_neg (by decide : ¬ ((76 : ℕ) = 38)), if_neg (by decide : ¬ ((76 : ℕ) = 40)), if_neg (by decide : ¬ ((76 : ℕ) = 42)), if_neg (by decide : ¬ ((76 : ℕ) = 44)), if_neg (by decide : ¬ ((76 : ℕ) = 46)), if_neg (by decide : ¬ ((76 : ℕ) = 48)), if_neg (by decide : ¬ ((76 : ℕ) = 50)), if_neg (by decide : ¬ ((76 : ℕ) = 52)), if_neg (by decide : ¬ ((76 : ℕ) = 54)), if_neg (by decide : ¬ ((76 : ℕ) = 56)), if_neg (by decide : ¬ ((76 : ℕ) = 58)), if_neg (by decide : ¬ ((76 : ℕ) = 60)), if_neg (by decide : ¬ ((76 : ℕ) = 62)), if_neg (by decide : ¬ ((76 : ℕ) = 64)), if_neg (by decide : ¬ ((76 : ℕ) = 66)), if_neg (by decide : ¬ ((76 : ℕ) = 68)), if_neg (by decide : ¬ ((76 : ℕ) = 70)), if_neg (by decide : ¬ ((76 : ℕ) = 72)), if_neg (by decide : ¬ ((76 : ℕ) = 74)), if_pos rfl]
theorem outsU_78 (m : (ℓ : Loc nD τ sig) → Buf (Elt F) ℓ) (r : Ref sig .tc) (c : Dev nD) : outsU m 78 r c = U78 m c r := by
  unfold outsU
  rw [if_neg (by decide : ¬ ((78 : ℕ) = 4)), if_neg (by decide : ¬ ((78 : ℕ) = 6)), if_neg (by decide : ¬ ((78 : ℕ) = 8)), if_neg (by decide : ¬ ((78 : ℕ) = 10)), if_neg (by decide : ¬ ((78 : ℕ) = 12)), if_neg (by decide : ¬ ((78 : ℕ) = 14)), if_neg (by decide : ¬ ((78 : ℕ) = 16)), if_neg (by decide : ¬ ((78 : ℕ) = 18)), if_neg (by decide : ¬ ((78 : ℕ) = 20)), if_neg (by decide : ¬ ((78 : ℕ) = 22)), if_neg (by decide : ¬ ((78 : ℕ) = 24)), if_neg (by decide : ¬ ((78 : ℕ) = 26)), if_neg (by decide : ¬ ((78 : ℕ) = 28)), if_neg (by decide : ¬ ((78 : ℕ) = 30)), if_neg (by decide : ¬ ((78 : ℕ) = 32)), if_neg (by decide : ¬ ((78 : ℕ) = 34)), if_neg (by decide : ¬ ((78 : ℕ) = 36)), if_neg (by decide : ¬ ((78 : ℕ) = 38)), if_neg (by decide : ¬ ((78 : ℕ) = 40)), if_neg (by decide : ¬ ((78 : ℕ) = 42)), if_neg (by decide : ¬ ((78 : ℕ) = 44)), if_neg (by decide : ¬ ((78 : ℕ) = 46)), if_neg (by decide : ¬ ((78 : ℕ) = 48)), if_neg (by decide : ¬ ((78 : ℕ) = 50)), if_neg (by decide : ¬ ((78 : ℕ) = 52)), if_neg (by decide : ¬ ((78 : ℕ) = 54)), if_neg (by decide : ¬ ((78 : ℕ) = 56)), if_neg (by decide : ¬ ((78 : ℕ) = 58)), if_neg (by decide : ¬ ((78 : ℕ) = 60)), if_neg (by decide : ¬ ((78 : ℕ) = 62)), if_neg (by decide : ¬ ((78 : ℕ) = 64)), if_neg (by decide : ¬ ((78 : ℕ) = 66)), if_neg (by decide : ¬ ((78 : ℕ) = 68)), if_neg (by decide : ¬ ((78 : ℕ) = 70)), if_neg (by decide : ¬ ((78 : ℕ) = 72)), if_neg (by decide : ¬ ((78 : ℕ) = 74)), if_neg (by decide : ¬ ((78 : ℕ) = 76)), if_pos rfl]
theorem outsU_80 (m : (ℓ : Loc nD τ sig) → Buf (Elt F) ℓ) (r : Ref sig .tc) (c : Dev nD) : outsU m 80 r c = U80 m c r := by
  unfold outsU
  rw [if_neg (by decide : ¬ ((80 : ℕ) = 4)), if_neg (by decide : ¬ ((80 : ℕ) = 6)), if_neg (by decide : ¬ ((80 : ℕ) = 8)), if_neg (by decide : ¬ ((80 : ℕ) = 10)), if_neg (by decide : ¬ ((80 : ℕ) = 12)), if_neg (by decide : ¬ ((80 : ℕ) = 14)), if_neg (by decide : ¬ ((80 : ℕ) = 16)), if_neg (by decide : ¬ ((80 : ℕ) = 18)), if_neg (by decide : ¬ ((80 : ℕ) = 20)), if_neg (by decide : ¬ ((80 : ℕ) = 22)), if_neg (by decide : ¬ ((80 : ℕ) = 24)), if_neg (by decide : ¬ ((80 : ℕ) = 26)), if_neg (by decide : ¬ ((80 : ℕ) = 28)), if_neg (by decide : ¬ ((80 : ℕ) = 30)), if_neg (by decide : ¬ ((80 : ℕ) = 32)), if_neg (by decide : ¬ ((80 : ℕ) = 34)), if_neg (by decide : ¬ ((80 : ℕ) = 36)), if_neg (by decide : ¬ ((80 : ℕ) = 38)), if_neg (by decide : ¬ ((80 : ℕ) = 40)), if_neg (by decide : ¬ ((80 : ℕ) = 42)), if_neg (by decide : ¬ ((80 : ℕ) = 44)), if_neg (by decide : ¬ ((80 : ℕ) = 46)), if_neg (by decide : ¬ ((80 : ℕ) = 48)), if_neg (by decide : ¬ ((80 : ℕ) = 50)), if_neg (by decide : ¬ ((80 : ℕ) = 52)), if_neg (by decide : ¬ ((80 : ℕ) = 54)), if_neg (by decide : ¬ ((80 : ℕ) = 56)), if_neg (by decide : ¬ ((80 : ℕ) = 58)), if_neg (by decide : ¬ ((80 : ℕ) = 60)), if_neg (by decide : ¬ ((80 : ℕ) = 62)), if_neg (by decide : ¬ ((80 : ℕ) = 64)), if_neg (by decide : ¬ ((80 : ℕ) = 66)), if_neg (by decide : ¬ ((80 : ℕ) = 68)), if_neg (by decide : ¬ ((80 : ℕ) = 70)), if_neg (by decide : ¬ ((80 : ℕ) = 72)), if_neg (by decide : ¬ ((80 : ℕ) = 74)), if_neg (by decide : ¬ ((80 : ℕ) = 76)), if_neg (by decide : ¬ ((80 : ℕ) = 78)), if_pos rfl]
theorem outsU_82 (m : (ℓ : Loc nD τ sig) → Buf (Elt F) ℓ) (r : Ref sig .tc) (c : Dev nD) : outsU m 82 r c = U82 m c r := by
  unfold outsU
  rw [if_neg (by decide : ¬ ((82 : ℕ) = 4)), if_neg (by decide : ¬ ((82 : ℕ) = 6)), if_neg (by decide : ¬ ((82 : ℕ) = 8)), if_neg (by decide : ¬ ((82 : ℕ) = 10)), if_neg (by decide : ¬ ((82 : ℕ) = 12)), if_neg (by decide : ¬ ((82 : ℕ) = 14)), if_neg (by decide : ¬ ((82 : ℕ) = 16)), if_neg (by decide : ¬ ((82 : ℕ) = 18)), if_neg (by decide : ¬ ((82 : ℕ) = 20)), if_neg (by decide : ¬ ((82 : ℕ) = 22)), if_neg (by decide : ¬ ((82 : ℕ) = 24)), if_neg (by decide : ¬ ((82 : ℕ) = 26)), if_neg (by decide : ¬ ((82 : ℕ) = 28)), if_neg (by decide : ¬ ((82 : ℕ) = 30)), if_neg (by decide : ¬ ((82 : ℕ) = 32)), if_neg (by decide : ¬ ((82 : ℕ) = 34)), if_neg (by decide : ¬ ((82 : ℕ) = 36)), if_neg (by decide : ¬ ((82 : ℕ) = 38)), if_neg (by decide : ¬ ((82 : ℕ) = 40)), if_neg (by decide : ¬ ((82 : ℕ) = 42)), if_neg (by decide : ¬ ((82 : ℕ) = 44)), if_neg (by decide : ¬ ((82 : ℕ) = 46)), if_neg (by decide : ¬ ((82 : ℕ) = 48)), if_neg (by decide : ¬ ((82 : ℕ) = 50)), if_neg (by decide : ¬ ((82 : ℕ) = 52)), if_neg (by decide : ¬ ((82 : ℕ) = 54)), if_neg (by decide : ¬ ((82 : ℕ) = 56)), if_neg (by decide : ¬ ((82 : ℕ) = 58)), if_neg (by decide : ¬ ((82 : ℕ) = 60)), if_neg (by decide : ¬ ((82 : ℕ) = 62)), if_neg (by decide : ¬ ((82 : ℕ) = 64)), if_neg (by decide : ¬ ((82 : ℕ) = 66)), if_neg (by decide : ¬ ((82 : ℕ) = 68)), if_neg (by decide : ¬ ((82 : ℕ) = 70)), if_neg (by decide : ¬ ((82 : ℕ) = 72)), if_neg (by decide : ¬ ((82 : ℕ) = 74)), if_neg (by decide : ¬ ((82 : ℕ) = 76)), if_neg (by decide : ¬ ((82 : ℕ) = 78)), if_neg (by decide : ¬ ((82 : ℕ) = 80)), if_pos rfl]

theorem V0_eq (m : (ℓ : Loc nD τ sig) → Buf (Elt F) ℓ) (c : Dev nD) : V0 m c = U0 m c := rfl
theorem V1_eq (m : (ℓ : Loc nD τ sig) → Buf (Elt F) ℓ) (c : Dev nD) : V1 m c = U1 m c := by
  show StableHlo.after hostOps0 (V0 m c) = _; rw [V0_eq, U1]
theorem V2_eq (m : (ℓ : Loc nD τ sig) → Buf (Elt F) ℓ) (c : Dev nD) : V2 m c = U2 m c := by
  show StableHlo.after hostOps0_1 (V1 m c) = _; rw [V1_eq, U2]
theorem V3_eq (m : (ℓ : Loc nD τ sig) → Buf (Elt F) ℓ) (c : Dev nD) : V3 m c = U3 m c := by
  show StableHlo.after hostOps0_2 (V2 m c) = _; rw [V2_eq, U3]
theorem V4_eq (m : (ℓ : Loc nD τ sig) → Buf (Elt F) ℓ) (c : Dev nD) : V4 m (outsU m) c = U4 m c :=
  upd1_eq (U4 m c) (V3 m c) main_v33 (outsU m 4 main_v33 c) (outsU_4 m main_v33 c)
    fun x hx => (congrFun (V3_eq m c) x).trans (Function.update_of_ne hx _ _).symm
theorem V5_eq (m : (ℓ : Loc nD τ sig) → Buf (Elt F) ℓ) (c : Dev nD) : V5 m (outsU m) c = U5 m c := by
  show StableHlo.after hostOps1 (V4 m (outsU m) c) = _; rw [V4_eq, U5]
theorem V6_eq (m : (ℓ : Loc nD τ sig) → Buf (Elt F) ℓ) (c : Dev nD) : V6 m (outsU m) c = U6 m c :=
  upd2_eq (U6 m c) (V5 m (outsU m) c) main_v35 main_v33 (outsU m 6 main_v35 c) (outsU m 6 main_v33 c)
    (outsU_6 m main_v35 c) (outsU_6 m main_v33 c)
    fun x ha hb => (congrFun (V5_eq m c) x).trans ((Function.update_of_ne hb _ _).trans (Function.update_of_ne ha _ _)).symm
theorem V7_eq (m : (ℓ : Loc nD τ sig) → Buf (Elt F) ℓ) (c : Dev nD) : V7 m (outsU m) c = U7 m c := by
  show StableHlo.after hostOps2 (V6 m (outsU m) c) = _; rw [V6_eq, U7]
theorem V8_eq (m : (ℓ : Loc nD τ sig) → Buf (Elt F) ℓ) (c : Dev nD) : V8 m (outsU m) c = U8 m c :=
  upd2_eq (U8 m c) (V7 m (outsU m) c) main_v37 main_v33 (outsU m 8 main_v37 c) (outsU m 8 main_v33 c)
    (outsU_8 m main_v37 c) (outsU_8 m main_v33 c)
    fun x ha hb => (congrFun (V7_eq m c) x).trans ((Function.update_of_ne hb _ _).trans (Function.update_of_ne ha _ _)).symm
theorem V9_eq (m : (ℓ : Loc nD τ sig) → Buf (Elt F) ℓ) (c : Dev nD) : V9 m (outsU m) c = U9 m c := by
  show StableHlo.after hostOps3 (V8 m (outsU m) c) = _; rw [V8_eq, U9]
theorem V10_eq (m : (ℓ : Loc nD τ sig) → Buf (Elt F) ℓ) (c : Dev nD) : V10 m (outsU m) c = U10 m c :=
  upd2_eq (U10 m c) (V9 m (outsU m) c) main_v39 main_v33 (outsU m 10 main_v39 c) (outsU m 10 main_v33 c)
    (outsU_10 m main_v39 c) (outsU_10 m main_v33 c)
    fun x ha hb => (congrFun (V9_eq m c) x).trans ((Function.update_of_ne hb _ _).trans (Function.update_of_ne ha _ _)).symm
theorem V11_eq (m : (ℓ : Loc nD τ sig) → Buf (Elt F) ℓ) (c : Dev nD) : V11 m (outsU m) c = U11 m c := by
  show StableHlo.after hostOps4 (V10 m (outsU m) c) = _; rw [V10_eq, U11]
theorem V12_eq (m : (ℓ : Loc nD τ sig) → Buf (Elt F) ℓ) (c : Dev nD) : V12 m (outsU m) c = U12 m c :=
  upd2_eq (U12 m c) (V11 m (outsU m) c) main_v41 main_v33 (outsU m 12 main_v41 c) (outsU m 12 main_v33 c)
    (outsU_12 m main_v41 c) (outsU_12 m main_v33 c)
    fun x ha hb => (congrFun (V11_eq m c) x).trans ((Function.update_of_ne hb _ _).trans (Function.update_of_ne ha _ _)).symm
theorem V13_eq (m : (ℓ : Loc nD τ sig) → Buf (Elt F) ℓ) (c : Dev nD) : V13 m (outsU m) c = U13 m c := by
  show StableHlo.after hostOps5 (V12 m (outsU m) c) = _; rw [V12_eq, U13]
theorem V14_eq (m : (ℓ : Loc nD τ sig) → Buf (Elt F) ℓ) (c : Dev nD) : V14 m (outsU m) c = U14 m c :=
  upd2_eq (U14 m c) (V13 m (outsU m) c) main_v43 main_v33 (outsU m 14 main_v43 c) (outsU m 14 main_v33 c)
    (outsU_14 m main_v43 c) (outsU_14 m main_v33 c)
    fun x ha hb => (congrFun (V13_eq m c) x).trans ((Function.update_of_ne hb _ _).trans (Function.update_of_ne ha _ _)).symm
theorem V15_eq (m : (ℓ : Loc nD τ sig) → Buf (Elt F) ℓ) (c : Dev nD) : V15 m (outsU m) c = U15 m c := by
  show StableHlo.after hostOps6 (V14 m (outsU m) c) = _; rw [V14_eq, U15]
theorem V16_eq (m : (ℓ : Loc nD τ sig) → Buf (Elt F) ℓ) (c : Dev nD) : V16 m (outsU m) c = U16 m c :=
  upd2_eq (U16 m c) (V15 m (outsU m) c) main_v45 main_v33 (outsU m 16 main_v45 c) (outsU m 16 main_v33 c)
    (outsU_16 m main_v45 c) (outsU_16 m main_v33 c)
    fun x ha hb => (congrFun (V15_eq m c) x).trans ((Function.update_of_ne hb _ _).trans (Function.update_of_ne ha _ _)).symm
theorem V17_eq (m : (ℓ : Loc nD τ sig) → Buf (Elt F) ℓ) (c : Dev nD) : V17 m (outsU m) c = U17 m c := by
  show StableHlo.after hostOps7 (V16 m (outsU m) c) = _; rw [V16_eq, U17]
theorem V18_eq (m : (ℓ : Loc nD τ sig) → Buf (Elt F) ℓ) (c : Dev nD) : V18 m (outsU m) c = U18 m c :=
  upd2_eq (U18 m c) (V17 m (outsU m) c) main_v47 main_v33 (outsU m 18 main_v47 c) (outsU m 18 main_v33 c)
    (outsU_18 m main_v47 c) (outsU_18 m main_v33 c)
    fun x ha hb => (congrFun (V17_eq m c) x).trans ((Function.update_of_ne hb _ _).trans (Function.update_of_ne ha _ _)).symm
theorem V19_eq (m : (ℓ : Loc nD τ sig) → Buf (Elt F) ℓ) (c : Dev nD) : V19 m (outsU m) c = U19 m c := by
  show StableHlo.after hostOps8 (V18 m (outsU m) c) = _; rw [V18_eq, U19]
theorem V20_eq (m : (ℓ : Loc nD τ sig) → Buf (Elt F) ℓ) (c : Dev nD) : V20 m (outsU m) c = U20 m c :=
  upd2_eq (U20 m c) (V19 m (outsU m) c) main_v49 main_v33 (outsU m 20 main_v49 c) (outsU m 20 main_v33 c)
    (outsU_20 m main_v49 c) (outsU_20 m main_v33 c)
    fun x ha hb => (congrFun (V19_eq m c) x).trans ((Function.update_of_ne hb _ _).trans (Function.update_of_ne ha _ _)).symm
theorem V21_eq (m : (ℓ : Loc nD τ sig) → Buf (Elt F) ℓ) (c : Dev nD) : V21 m (outsU m) c = U21 m c := by
  show StableHlo.after hostOps9 (V20 m (outsU m) c) = _; rw [V20_eq, U21]
theorem V22_eq (m : (ℓ : Loc nD τ sig) → Buf (Elt F) ℓ) (c : Dev nD) : V22 m (outsU m) c = U22 m c :=
  upd2_eq (U22 m c) (V21 m (outsU m) c) main_v51 main_v33 (outsU m 22 main_v51 c) (outsU m 22 main_v33 c)
    (outsU_22 m main_v51 c) (outsU_22 m main_v33 c)
    fun x ha hb => (congrFun (V21_eq m c) x).trans ((Function.update_of_ne hb _ _).trans (Function.update_of_ne ha _ _)).symm
theorem V23_eq (m : (ℓ : Loc nD τ sig) → Buf (Elt F) ℓ) (c : Dev nD) : V23 m (outsU m) c = U23 m c := by
  show StableHlo.after hostOps10 (V22 m (outsU m) c) = _; rw [V22_eq, U23]
theorem V24_eq (m : (ℓ : Loc nD τ sig) → Buf (Elt F) ℓ) (c : Dev nD) : V24 m (outsU m) c = U24 m c :=
  upd2_eq (U24 m c) (V23 m (outsU m) c) main_v53 main_v33 (outsU m 24 main_v53 c) (outsU m 24 main_v33 c)
    (outsU_24 m main_v53 c) (outsU_24 m main_v33 c)
    fun x ha hb => (congrFun (V23_eq m c) x).trans ((Function.update_of_ne hb _ _).trans (Function.update_of_ne ha _ _)).symm
theorem V25_eq (m : (ℓ : Loc nD τ sig) → Buf (Elt F) ℓ) (c : Dev nD) : V25 m (outsU m) c = U25 m c := by
  show StableHlo.after hostOps11 (V24 m (outsU m) c) = _; rw [V24_eq, U25]
theorem V26_eq (m : (ℓ : Loc nD τ sig) → Buf (Elt F) ℓ) (c : Dev nD) : V26 m (outsU m) c = U26 m c :=
  upd1_eq (U26 m c) (V25 m (outsU m) c) main_v61 (outsU m 26 main_v61 c) (outsU_26 m main_v61 c)
    fun x hx => (congrFun (V25_eq m c) x).trans (Function.update_of_ne hx _ _).symm
theorem V27_eq (m : (ℓ : Loc nD τ sig) → Buf (Elt F) ℓ) (c : Dev nD) : V27 m (outsU m) c = U27 m c := by
  show StableHlo.after hostOps12 (V26 m (outsU m) c) = _; rw [V26_eq, U27]
theorem V28_eq (m : (ℓ : Loc nD τ sig) → Buf (Elt F) ℓ) (c : Dev nD) : V28 m (outsU m) c = U28 m c :=
  upd2_eq (U28 m c) (V27 m (outsU m) c) main_v63 main_v61 (outsU m 28 main_v63 c) (outsU m 28 main_v61 c)
    (outsU_28 m main_v63 c) (outsU_28 m main_v61 c)
    fun x ha hb => (congrFun (V27_eq m c) x).trans ((Function.update_of_ne hb _ _).trans (Function.update_of_ne ha _ _)).symm
theorem V29_eq (m : (ℓ : Loc nD τ sig) → Buf (Elt F) ℓ) (c : Dev nD) : V29 m (outsU m) c = U29 m c := by
  show StableHlo.after hostOps13 (V28 m (outsU m) c) = _; rw [V28_eq, U29]
theorem V30_eq (m : (ℓ : Loc nD τ sig) → Buf (Elt F) ℓ) (c : Dev nD) : V30 m (outsU m) c = U30 m c :=
  upd2_eq (U30 m c) (V29 m (outsU m) c) main_v65 main_v61 (outsU m 30 main_v65 c) (outsU m 30 main_v61 c)
    (outsU_30 m main_v65 c) (outsU_30 m main_v61 c)
    fun x ha hb => (congrFun (V29_eq m c) x).trans ((Function.update_of_ne hb _ _).trans (Function.update_of_ne ha _ _)).symm
theorem V31_eq (m : (ℓ : Loc nD τ sig) → Buf (Elt F) ℓ) (c : Dev nD) : V31 m (outsU m) c = U31 m c := by
  show StableHlo.after hostOps14 (V30 m (outsU m) c) = _; rw [V30_eq, U31]
theorem V32_eq (m : (ℓ : Loc nD τ sig) → Buf (Elt F) ℓ) (c : Dev nD) : V32 m (outsU m) c = U32 m c :=
  upd2_eq (U32 m c) (V31 m (outsU m) c) main_v67 main_v61 (outsU m 32 main_v67 c) (outsU m 32 main_v61 c)
    (outsU_32 m main_v67 c) (outsU_32 m main_v61 c)
    fun x ha hb => (congrFun (V31_eq m c) x).trans ((Function.update_of_ne hb _ _).trans (Function.update_of_ne ha _ _)).symm
theorem V33_eq (m : (ℓ : Loc nD τ sig) → Buf (Elt F) ℓ) (c : Dev nD) : V33 m (outsU m) c = U33 m c := by
  show StableHlo.after hostOps15 (V32 m (outsU m) c) = _; rw [V32_eq, U33]
theorem V34_eq (m : (ℓ : Loc nD τ sig) → Buf (Elt F) ℓ) (c : Dev nD) : V34 m (outsU m) c = U34 m c :=
  upd2_eq (U34 m c) (V33 m (outsU m) c) main_v69 main_v61 (outsU m 34 main_v69 c) (outsU m 34 main_v61 c)
    (outsU_34 m main_v69 c) (outsU_34 m main_v61 c)
    fun x ha hb => (congrFun (V33_eq m c) x).trans ((Function.update_of_ne hb _ _).trans (Function.update_of_ne ha _ _)).symm
theorem V35_eq (m : (ℓ : Loc nD τ sig) → Buf (Elt F) ℓ) (c : Dev nD) : V35 m (outsU m) c = U35 m c := by
  show StableHlo.after hostOps16 (V34 m (outsU m) c) = _; rw [V34_eq, U35]
theorem V36_eq (m : (ℓ : Loc nD τ sig) → Buf (Elt F) ℓ) (c : Dev nD) : V36 m (outsU m) c = U36 m c :=
  upd2_eq (U36 m c) (V35 m (outsU m) c) main_v71 main_v61 (outsU m 36 main_v71 c) (outsU m 36 main_v61 c)
    (outsU_36 m main_v71 c) (outsU_36 m main_v61 c)
    fun x ha hb => (congrFun (V35_eq m c) x).trans ((Function.update_of_ne hb _ _).trans (Function.update_of_ne ha _ _)).symm
theorem V37_eq (m : (ℓ : Loc nD τ sig) → Buf (Elt F) ℓ) (c : Dev nD) : V37 m (outsU m) c = U37 m c := by
  show StableHlo.after hostOps17 (V36 m (outsU m) c) = _; rw [V36_eq, U37]
theorem V38_eq (m : (ℓ : Loc nD τ sig) → Buf (Elt F) ℓ) (c : Dev nD) : V38 m (outsU m) c = U38 m c :=
  upd2_eq (U38 m c) (V37 m (outsU m) c) main_v73 main_v61 (outsU m 38 main_v73 c) (outsU m 38 main_v61 c)
    (outsU_38 m main_v73 c) (outsU_38 m main_v61 c)
    fun x ha hb => (congrFun (V37_eq m c) x).trans ((Function.update_of_ne hb _ _).trans (Function.update_of_ne ha _ _)).symm
theorem V39_eq (m : (ℓ : Loc nD τ sig) → Buf (Elt F) ℓ) (c : Dev nD) : V39 m (outsU m) c = U39 m c := by
  show StableHlo.after hostOps18 (V38 m (outsU m) c) = _; rw [V38_eq, U39]
theorem V40_eq (m : (ℓ : Loc nD τ sig) → Buf (Elt F) ℓ) (c : Dev nD) : V40 m (outsU m) c = U40 m c :=
  upd2_eq (U40 m c) (V39 m (outsU m) c) main_v75 main_v61 (outsU m 40 main_v75 c) (outsU m 40 main_v61 c)
    (outsU_40 m main_v75 c) (outsU_40 m main_v61 c)
    fun x ha hb => (congrFun (V39_eq m c) x).trans ((Function.update_of_ne hb _ _).trans (Function.update_of_ne ha _ _)).symm
theorem V41_eq (m : (ℓ : Loc nD τ sig) → Buf (Elt F) ℓ) (c : Dev nD) : V41 m (outsU m) c = U41 m c := by
  show StableHlo.after hostOps19 (V40 m (outsU m) c) = _; rw [V40_eq, U41]
theorem V42_eq (m : (ℓ : Loc nD τ sig) → Buf (Elt F) ℓ) (c : Dev nD) : V42 m (outsU m) c = U42 m c :=
  upd2_eq (U42 m c) (V41 m (outsU m) c) main_v77 main_v61 (outsU m 42 main_v77 c) (outsU m 42 main_v61 c)
    (outsU_42 m main_v77 c) (outsU_42 m main_v61 c)
    fun x ha hb => (congrFun (V41_eq m c) x).trans ((Function.update_of_ne hb _ _).trans (Function.update_of_ne ha _ _)).symm
theorem V43_eq (m : (ℓ : Loc nD τ sig) → Buf (Elt F) ℓ) (c : Dev nD) : V43 m (outsU m) c = U43 m c := by
  show StableHlo.after hostOps20 (V42 m (outsU m) c) = _; rw [V42_eq, U43]
theorem V44_eq (m : (ℓ : Loc nD τ sig) → Buf (Elt F) ℓ) (c : Dev nD) : V44 m (outsU m) c = U44 m c :=
  upd2_eq (U44 m c) (V43 m (outsU m) c) main_v79 main_v61 (outsU m 44 main_v79 c) (outsU m 44 main_v61 c)
    (outsU_44 m main_v79 c) (outsU_44 m main_v61 c)
    fun x ha hb => (congrFun (V43_eq m c) x).trans ((Function.update_of_ne hb _ _).trans (Function.update_of_ne ha _ _)).symm
theorem V45_eq (m : (ℓ : Loc nD τ sig) → Buf (Elt F) ℓ) (c : Dev nD) : V45 m (outsU m) c = U45 m c := by
  show StableHlo.after hostOps21 (V44 m (outsU m) c) = _; rw [V44_eq, U45]
theorem V46_eq (m : (ℓ : Loc nD τ sig) → Buf (Elt F) ℓ) (c : Dev nD) : V46 m (outsU m) c = U46 m c :=
  upd2_eq (U46 m c) (V45 m (outsU m) c) main_v81 main_v61 (outsU m 46 main_v81 c) (outsU m 46 main_v61 c)
    (outsU_46 m main_v81 c) (outsU_46 m main_v61 c)
    fun x ha hb => (congrFun (V45_eq m c) x).trans ((Function.update_of_ne hb _ _).trans (Function.update_of_ne ha _ _)).symm
theorem V47_eq (m : (ℓ : Loc nD τ sig) → Buf (Elt F) ℓ) (c : Dev nD) : V47 m (outsU m) c = U47 m c := by
  show StableHlo.after hostOps22 (V46 m (outsU m) c) = _; rw [V46_eq, U47]
theorem V48_eq (m : (ℓ : Loc nD τ sig) → Buf (Elt F) ℓ) (c : Dev nD) : V48 m (outsU m) c = U48 m c :=
  upd1_eq (U48 m c) (V47 m (outsU m) c) main_v89 (outsU m 48 main_v89 c) (outsU_48 m main_v89 c)
    fun x hx => (congrFun (V47_eq m c) x).trans (Function.update_of_ne hx _ _).symm
theorem V49_eq (m : (ℓ : Loc nD τ sig) → Buf (Elt F) ℓ) (c : Dev nD) : V49 m (outsU m) c = U49 m c := by
  show StableHlo.after hostOps23 (V48 m (outsU m) c) = _; rw [V48_eq, U49]
theorem V50_eq (m : (ℓ : Loc nD τ sig) → Buf (Elt F) ℓ) (c : Dev nD) : V50 m (outsU m) c = U50 m c :=
  upd2_eq (U50 m c) (V49 m (outsU m) c) main_v91 main_v89 (outsU m 50 main_v91 c) (outsU m 50 main_v89 c)
    (outsU_50 m main_v91 c) (outsU_50 m main_v89 c)
    fun x ha hb => (congrFun (V49_eq m c) x).trans ((Function.update_of_ne hb _ _).trans (Function.update_of_ne ha _ _)).symm
theorem V51_eq (m : (ℓ : Loc nD τ sig) → Buf (Elt F) ℓ) (c : Dev nD) : V51 m (outsU m) c = U51 m c := by
  show StableHlo.after hostOps24 (V50 m (outsU m) c) = _; rw [V50_eq, U51]
theorem V52_eq (m : (ℓ : Loc nD τ sig) → Buf (Elt F) ℓ) (c : Dev nD) : V52 m (outsU m) c = U52 m c :=
  upd2_eq (U52 m c) (V51 m (outsU m) c) main_v93 main_v89 (outsU m 52 main_v93 c) (outsU m 52 main_v89 c)
    (outsU_52 m main_v93 c) (outsU_52 m main_v89 c)
    fun x ha hb => (congrFun (V51_eq m c) x).trans ((Function.update_of_ne hb _ _).trans (Function.update_of_ne ha _ _)).symm
theorem V53_eq (m : (ℓ : Loc nD τ sig) → Buf (Elt F) ℓ) (c : Dev nD) : V53 m (outsU m) c = U53 m c := by
  show StableHlo.after hostOps25 (V52 m (outsU m) c) = _; rw [V52_eq, U53]
theorem V54_eq (m : (ℓ : Loc nD τ sig) → Buf (Elt F) ℓ) (c : Dev nD) : V54 m (outsU m) c = U54 m c :=
  upd2_eq (U54 m c) (V53 m (outsU m) c) main_v95 main_v89 (outsU m 54 main_v95 c) (outsU m 54 main_v89 c)
    (outsU_54 m main_v95 c) (outsU_54 m main_v89 c)
    fun x ha hb => (congrFun (V53_eq m c) x).trans ((Function.update_of_ne hb _ _).trans (Function.update_of_ne ha _ _)).symm
theorem V55_eq (m : (ℓ : Loc nD τ sig) → Buf (Elt F) ℓ) (c : Dev nD) : V55 m (outsU m) c = U55 m c := by
  show StableHlo.after hostOps26 (V54 m (outsU m) c) = _; rw [V54_eq, U55]
theorem V56_eq (m : (ℓ : Loc nD τ sig) → Buf (Elt F) ℓ) (c : Dev nD) : V56 m (outsU m) c = U56 m c :=
  upd2_eq (U56 m c) (V55 m (outsU m) c) main_v97 main_v89 (outsU m 56 main_v97 c) (outsU m 56 main_v89 c)
    (outsU_56 m main_v97 c) (outsU_56 m main_v89 c)
    fun x ha hb => (congrFun (V55_eq m c) x).trans ((Function.update_of_ne hb _ _).trans (Function.update_of_ne ha _ _)).symm
theorem V57_eq (m : (ℓ : Loc nD τ sig) → Buf (Elt F) ℓ) (c : Dev nD) : V57 m (outsU m) c = U57 m c := by
  show StableHlo.after hostOps27 (V56 m (outsU m) c) = _; rw [V56_eq, U57]
theorem V58_eq (m : (ℓ : Loc nD τ sig) → Buf (Elt F) ℓ) (c : Dev nD) : V58 m (outsU m) c = U58 m c :=
  upd2_eq (U58 m c) (V57 m (outsU m) c) main_v99 main_v89 (outsU m 58 main_v99 c) (outsU m 58 main_v89 c)
    (outsU_58 m main_v99 c) (outsU_58 m main_v89 c)
    fun x ha hb => (congrFun (V57_eq m c) x).trans ((Function.update_of_ne hb _ _).trans (Function.update_of_ne ha _ _)).symm
theorem V59_eq (m : (ℓ : Loc nD τ sig) → Buf (Elt F) ℓ) (c : Dev nD) : V59 m (outsU m) c = U59 m c := by
  show StableHlo.after hostOps28 (V58 m (outsU m) c) = _; rw [V58_eq, U59]
theorem V60_eq (m : (ℓ : Loc nD τ sig) → Buf (Elt F) ℓ) (c : Dev nD) : V60 m (outsU m) c = U60 m c :=
  upd2_eq (U60 m c) (V59 m (outsU m) c) main_v101 main_v89 (outsU m 60 main_v101 c) (outsU m 60 main_v89 c)
    (outsU_60 m main_v101 c) (outsU_60 m main_v89 c)
    fun x ha hb => (congrFun (V59_eq m c) x).trans ((Function.update_of_ne hb _ _).trans (Function.update_of_ne ha _ _)).symm
theorem V61_eq (m : (ℓ : Loc nD τ sig) → Buf (Elt F) ℓ) (c : Dev nD) : V61 m (outsU m) c = U61 m c := by
  show StableHlo.after hostOps29 (V60 m (outsU m) c) = _; rw [V60_eq, U61]
theorem V62_eq (m : (ℓ : Loc nD τ sig) → Buf (Elt F) ℓ) (c : Dev nD) : V62 m (outsU m) c = U62 m c :=
  upd2_eq (U62 m c) (V61 m (outsU m) c) main_v103 main_v89 (outsU m 62 main_v103 c) (outsU m 62 main_v89 c)
    (outsU_62 m main_v103 c) (outsU_62 m main_v89 c)
    fun x ha hb => (congrFun (V61_eq m c) x).trans ((Function.update_of_ne hb _ _).trans (Function.update_of_ne ha _ _)).symm
theorem V63_eq (m : (ℓ : Loc nD τ sig) → Buf (Elt F) ℓ) (c : Dev nD) : V63 m (outsU m) c = U63 m c := by
  show StableHlo.after hostOps30 (V62 m (outsU m) c) = _; rw [V62_eq, U63]
theorem V64_eq (m : (ℓ : Loc nD τ sig) → Buf (Elt F) ℓ) (c : Dev nD) : V64 m (outsU m) c = U64 m c :=
  upd2_eq (U64 m c) (V63 m (outsU m) c) main_v105 main_v89 (outsU m 64 main_v105 c) (outsU m 64 main_v89 c)
    (outsU_64 m main_v105 c) (outsU_64 m main_v89 c)
    fun x ha hb => (congrFun (V63_eq m c) x).trans ((Function.update_of_ne hb _ _).trans (Function.update_of_ne ha _ _)).symm
theorem V65_eq (m : (ℓ : Loc nD τ sig) → Buf (Elt F) ℓ) (c : Dev nD) : V65 m (outsU m) c = U65 m c := by
  show StableHlo.after hostOps31 (V64 m (outsU m) c) = _; rw [V64_eq, U65]
theorem V66_eq (m : (ℓ : Loc nD τ sig) → Buf (Elt F) ℓ) (c : Dev nD) : V66 m (outsU m) c = U66 m c :=
  upd2_eq (U66 m c) (V65 m (outsU m) c) main_v108 main_v89 (outsU m 66 main_v108 c) (outsU m 66 main_v89 c)
    (outsU_66 m main_v108 c) (outsU_66 m main_v89 c)
    fun x ha hb => (congrFun (V65_eq m c) x).trans ((Function.update_of_ne hb _ _).trans (Function.update_of_ne ha _ _)).symm
theorem V67_eq (m : (ℓ : Loc nD τ sig) → Buf (Elt F) ℓ) (c : Dev nD) : V67 m (outsU m) c = U67 m c := by
  show StableHlo.after hostOps32 (V66 m (outsU m) c) = _; rw [V66_eq, U67]
theorem V68_eq (m : (ℓ : Loc nD τ sig) → Buf (Elt F) ℓ) (c : Dev nD) : V68 m (outsU m) c = U68 m c :=
  upd2_eq (U68 m c) (V67 m (outsU m) c) main_v110 main_v89 (outsU m 68 main_v110 c) (outsU m 68 main_v89 c)
    (outsU_68 m main_v110 c) (outsU_68 m main_v89 c)
    fun x ha hb => (congrFun (V67_eq m c) x).trans ((Function.update_of_ne hb _ _).trans (Function.update_of_ne ha _ _)).symm
theorem V69_eq (m : (ℓ : Loc nD τ sig) → Buf (Elt F) ℓ) (c : Dev nD) : V69 m (outsU m) c = U69 m c := by
  show StableHlo.after hostOps33 (V68 m (outsU m) c) = _; rw [V68_eq, U69]
theorem V70_eq (m : (ℓ : Loc nD τ sig) → Buf (Elt F) ℓ) (c : Dev nD) : V70 m (outsU m) c = U70 m c :=
  upd2_eq (U70 m c) (V69 m (outsU m) c) main_v112 main_v89 (outsU m 70 main_v112 c) (outsU m 70 main_v89 c)
    (outsU_70 m main_v112 c) (outsU_70 m main_v89 c)
    fun x ha hb => (congrFun (V69_eq m c) x).trans ((Function.update_of_ne hb _ _).trans (Function.update_of_ne ha _ _)).symm
theorem V71_eq (m : (ℓ : Loc nD τ sig) → Buf (Elt F) ℓ) (c : Dev nD) : V71 m (outsU m) c = U71 m c := by
  show StableHlo.after hostOps34 (V70 m (outsU m) c) = _; rw [V70_eq, U71]
theorem V72_eq (m : (ℓ : Loc nD τ sig) → Buf (Elt F) ℓ) (c : Dev nD) : V72 m (outsU m) c = U72 m c :=
  upd2_eq (U72 m c) (V71 m (outsU m) c) main_v114 main_v89 (outsU m 72 main_v114 c) (outsU m 72 main_v89 c)
    (outsU_72 m main_v114 c) (outsU_72 m main_v89 c)
    fun x ha hb => (congrFun (V71_eq m c) x).trans ((Function.update_of_ne hb _ _).trans (Function.update_of_ne ha _ _)).symm
theorem V73_eq (m : (ℓ : Loc nD τ sig) → Buf (Elt F) ℓ) (c : Dev nD) : V73 m (outsU m) c = U73 m c := by
  show StableHlo.after hostOps35 (V72 m (outsU m) c) = _; rw [V72_eq, U73]
theorem V74_eq (m : (ℓ : Loc nD τ sig) → Buf (Elt F) ℓ) (c : Dev nD) : V74 m (outsU m) c = U74 m c :=
  upd2_eq (U74 m c) (V73 m (outsU m) c) main_v116 main_v89 (outsU m 74 main_v116 c) (outsU m 74 main_v89 c)
    (outsU_74 m main_v116 c) (outsU_74 m main_v89 c)
    fun x ha hb => (congrFun (V73_eq m c) x).trans ((Function.update_of_ne hb _ _).trans (Function.update_of_ne ha _ _)).symm
theorem V75_eq (m : (ℓ : Loc nD τ sig) → Buf (Elt F) ℓ) (c : Dev nD) : V75 m (outsU m) c = U75 m c := by
  show StableHlo.after hostOps36 (V74 m (outsU m) c) = _; rw [V74_eq, U75]
theorem V76_eq (m : (ℓ : Loc nD τ sig) → Buf (Elt F) ℓ) (c : Dev nD) : V76 m (outsU m) c = U76 m c :=
  upd2_eq (U76 m c) (V75 m (outsU m) c) main_v118 main_v89 (outsU m 76 main_v118 c) (outsU m 76 main_v89 c)
    (outsU_76 m main_v118 c) (outsU_76 m main_v89 c)
    fun x ha hb => (congrFun (V75_eq m c) x).trans ((Function.update_of_ne hb _ _).trans (Function.update_of_ne ha _ _)).symm
theorem V77_eq (m : (ℓ : Loc nD τ sig) → Buf (Elt F) ℓ) (c : Dev nD) : V77 m (outsU m) c = U77 m c := by
  show StableHlo.after hostOps37 (V76 m (outsU m) c) = _; rw [V76_eq, U77]
theorem V78_eq (m : (ℓ : Loc nD τ sig) → Buf (Elt F) ℓ) (c : Dev nD) : V78 m (outsU m) c = U78 m c :=
  upd2_eq (U78 m c) (V77 m (outsU m) c) main_v120 main_v89 (outsU m 78 main_v120 c) (outsU m 78 main_v89 c)
    (outsU_78 m main_v120 c) (outsU_78 m main_v89 c)
    fun x ha hb => (congrFun (V77_eq m c) x).trans ((Function.update_of_ne hb _ _).trans (Function.update_of_ne ha _ _)).symm
theorem V79_eq (m : (ℓ : Loc nD τ sig) → Buf (Elt F) ℓ) (c : Dev nD) : V79 m (outsU m) c = U79 m c := by
  show StableHlo.after hostOps38 (V78 m (outsU m) c) = _; rw [V78_eq, U79]
theorem V80_eq (m : (ℓ : Loc nD τ sig) → Buf (Elt F) ℓ) (c : Dev nD) : V80 m (outsU m) c = U80 m c :=
  upd2_eq (U80 m c) (V79 m (outsU m) c) main_v122 main_v89 (outsU m 80 main_v122 c) (outsU m 80 main_v89 c)
    (outsU_80 m main_v122 c) (outsU_80 m main_v89 c)
    fun x ha hb => (congrFun (V79_eq m c) x).trans ((Function.update_of_ne hb _ _).trans (Function.update_of_ne ha _ _)).symm
theorem V81_eq (m : (ℓ : Loc nD τ sig) → Buf (Elt F) ℓ) (c : Dev nD) : V81 m (outsU m) c = U81 m c := by
  show StableHlo.after hostOps39 (V80 m (outsU m) c) = _; rw [V80_eq, U81]
theorem V82_eq (m : (ℓ : Loc nD τ sig) → Buf (Elt F) ℓ) (c : Dev nD) : V82 m (outsU m) c = U82 m c :=
  upd1_eq (U82 m c) (V81 m (outsU m) c) main_v127 (outsU m 82 main_v127 c) (outsU_82 m main_v127 c)
    fun x hx => (congrFun (V81_eq m c) x).trans (Function.update_of_ne hx _ _).symm

/-! ## What a region's exit valuation holds -/

theorem U4_out (m : (ℓ : Loc nD τ sig) → Buf (Elt F) ℓ) (c : Dev nD) : U4 m c main_v33 = (dat0 (atTc (U3 m)) c).arrAt 2 cfg0.N := Function.update_self _ _ _
theorem U4_of_ne (m : (ℓ : Loc nD τ sig) → Buf (Elt F) ℓ) (c : Dev nD) (b : Ref sig .tc) (hb : b ≠ main_v33) : U4 m c b = U3 m c b :=
  Function.update_of_ne (StableHlo.devRef_ne_of_ne hb) _ _
theorem U6_out (m : (ℓ : Loc nD τ sig) → Buf (Elt F) ℓ) (c : Dev nD) : U6 m c main_v35
    = (datG1 (atTc (U5 m)) (a1 m) (gblk1 (atTc (U5 m)) (a1 m)) c).arrAt 0 (cfg1 (a1 m)).N :=
  (Function.update_of_ne (StableHlo.devRef_ne_of_ne (by decide : main_v35 ≠ main_v33)) _ _).trans (Function.update_self _ _ _)
theorem U6_hbm (m : (ℓ : Loc nD τ sig) → Buf (Elt F) ℓ) (c : Dev nD) : U6 m c main_v33 = U5 m c main_v33 := Function.update_self _ _ _
theorem U6_of_ne (m : (ℓ : Loc nD τ sig) → Buf (Elt F) ℓ) (c : Dev nD) (b : Ref sig .tc) (h1 : b ≠ main_v35) (h2 : b ≠ main_v33) : U6 m c b = U5 m c b :=
  (Function.update_of_ne (StableHlo.devRef_ne_of_ne h2) _ _).trans (Function.update_of_ne (StableHlo.devRef_ne_of_ne h1) _ _)
theorem U8_out (m : (ℓ : Loc nD τ sig) → Buf (Elt F) ℓ) (c : Dev nD) : U8 m c main_v37
    = (datG2 (atTc (U7 m)) (a2 m) (gblk2 (atTc (U7 m)) (a2 m)) c).arrAt 0 (cfg2 (a2 m)).N :=
  (Function.update_of_ne (StableHlo.devRef_ne_of_ne (by decide : main_v37 ≠ main_v33)) _ _).trans (Function.update_self _ _ _)
theorem U8_hbm (m : (ℓ : Loc nD τ sig) → Buf (Elt F) ℓ) (c : Dev nD) : U8 m c main_v33 = U7 m c main_v33 := Function.update_self _ _ _
theorem U8_of_ne (m : (ℓ : Loc nD τ sig) → Buf (Elt F) ℓ) (c : Dev nD) (b : Ref sig .tc) (h1 : b ≠ main_v37) (h2 : b ≠ main_v33) : U8 m c b = U7 m c b :=
  (Function.update_of_ne (StableHlo.devRef_ne_of_ne h2) _ _).trans (Function.update_of_ne (StableHlo.devRef_ne_of_ne h1) _ _)
theorem U10_out (m : (ℓ : Loc nD τ sig) → Buf (Elt F) ℓ) (c : Dev nD) : U10 m c main_v39
    = (datG3 (atTc (U9 m)) (a3 m) (gblk3 (atTc (U9 m)) (a3 m)) c).arrAt 0 (cfg3 (a3 m)).N :=
  (Function.update_of_ne (StableHlo.devRef_ne_of_ne (by decide : main_v39 ≠ main_v33)) _ _).trans (Function.update_self _ _ _)
theorem U10_hbm (m : (ℓ : Loc nD τ sig) → Buf (Elt F) ℓ) (c : Dev nD) : U10 m c main_v33 = U9 m c main_v33 := Function.update_self _ _ _
theorem U10_of_ne (m : (ℓ : Loc nD τ sig) → Buf (Elt F) ℓ) (c : Dev nD) (b : Ref sig .tc) (h1 : b ≠ main_v39) (h2 : b ≠ main_v33) : U10 m c b = U9 m c b :=
  (Function.update_of_ne (StableHlo.devRef_ne_of_ne h2) _ _).trans (Function.update_of_ne (StableHlo.devRef_ne_of_ne h1) _ _)
theorem U12_out (m : (ℓ : Loc nD τ sig) → Buf (Elt F) ℓ) (c : Dev nD) : U12 m c main_v41
    = (datG4 (atTc (U11 m)) (a4 m) (gblk4 (atTc (U11 m)) (a4 m)) c).arrAt 0 (cfg4 (a4 m)).N :=
  (Function.update_of_ne (StableHlo.devRef_ne_of_ne (by decide : main_v41 ≠ main_v33)) _ _).trans (Function.update_self _ _ _)
theorem U12_hbm (m : (ℓ : Loc nD τ sig) → Buf (Elt F) ℓ) (c : Dev nD) : U12 m c main_v33 = U11 m c main_v33 := Function.update_self _ _ _
theorem U12_of_ne (m : (ℓ : Loc nD τ sig) → Buf (Elt F) ℓ) (c : Dev nD) (b : Ref sig .tc) (h1 : b ≠ main_v41) (h2 : b ≠ main_v33) : U12 m c b = U11 m c b :=
  (Function.update_of_ne (StableHlo.devRef_ne_of_ne h2) _ _).trans (Function.update_of_ne (StableHlo.devRef_ne_of_ne h1) _ _)
theorem U14_out (m : (ℓ : Loc nD τ sig) → Buf (Elt F) ℓ) (c : Dev nD) : U14 m c main_v43
    = (datG5 (atTc (U13 m)) (a5 m) (gblk5 (atTc (U13 m)) (a5 m)) c).arrAt 0 (cfg5 (a5 m)).N :=
  (Function.update_of_ne (StableHlo.devRef_ne_of_ne (by decide : main_v43 ≠ main_v33)) _ _).trans (Function.update_self _ _ _)
theorem U14_hbm (m : (ℓ : Loc nD τ sig) → Buf (Elt F) ℓ) (c : Dev nD) : U14 m c main_v33 = U13 m c main_v33 := Function.update_self _ _ _
theorem U14_of_ne (m : (ℓ : Loc nD τ sig) → Buf (Elt F) ℓ) (c : Dev nD) (b : Ref sig .tc) (h1 : b ≠ main_v43) (h2 : b ≠ main_v33) : U14 m c b = U13 m c b :=
  (Function.update_of_ne (StableHlo.devRef_ne_of_ne h2) _ _).trans (Function.update_of_ne (StableHlo.devRef_ne_of_ne h1) _ _)
theorem U16_out (m : (ℓ : Loc nD τ sig) → Buf (Elt F) ℓ) (c : Dev nD) : U16 m c main_v45
    = (datG6 (atTc (U15 m)) (a6 m) (gblk6 (atTc (U15 m)) (a6 m)) c).arrAt 0 (cfg6 (a6 m)).N :=
  (Function.update_of_ne (StableHlo.devRef_ne_of_ne (by decide : main_v45 ≠ main_v33)) _ _).trans (Function.update_self _ _ _)
theorem U16_hbm (m : (ℓ : Loc nD τ sig) → Buf (Elt F) ℓ) (c : Dev nD) : U16 m c main_v33 = U15 m c main_v33 := Function.update_self _ _ _
theorem U16_of_ne (m : (ℓ : Loc nD τ sig) → Buf (Elt F) ℓ) (c : Dev nD) (b : Ref sig .tc) (h1 : b ≠ main_v45) (h2 : b ≠ main_v33) : U16 m c b = U15 m c b :=
  (Function.update_of_ne (StableHlo.devRef_ne_of_ne h2) _ _).trans (Function.update_of_ne (StableHlo.devRef_ne_of_ne h1) _ _)
theorem U18_out (m : (ℓ : Loc nD τ sig) → Buf (Elt F) ℓ) (c : Dev nD) : U18 m c main_v47
    = (datG7 (atTc (U17 m)) (a7 m) (gblk7 (atTc (U17 m)) (a7 m)) c).arrAt 0 (cfg7 (a7 m)).N :=
  (Function.update_of_ne (StableHlo.devRef_ne_of_ne (by decide : main_v47 ≠ main_v33)) _ _).trans (Function.update_self _ _ _)
theorem U18_hbm (m : (ℓ : Loc nD τ sig) → Buf (Elt F) ℓ) (c : Dev nD) : U18 m c main_v33 = U17 m c main_v33 := Function.update_self _ _ _
theorem U18_of_ne (m : (ℓ : Loc nD τ sig) → Buf (Elt F) ℓ) (c : Dev nD) (b : Ref sig .tc) (h1 : b ≠ main_v47) (h2 : b ≠ main_v33) : U18 m c b = U17 m c b :=
  (Function.update_of_ne (StableHlo.devRef_ne_of_ne h2) _ _).trans (Function.update_of_ne (StableHlo.devRef_ne_of_ne h1) _ _)
theorem U20_out (m : (ℓ : Loc nD τ sig) → Buf (Elt F) ℓ) (c : Dev nD) : U20 m c main_v49
    = (datG8 (atTc (U19 m)) (a8 m) (gblk8 (atTc (U19 m)) (a8 m)) c).arrAt 0 (cfg8 (a8 m)).N :=
  (Function.update_of_ne (StableHlo.devRef_ne_of_ne (by decide : main_v49 ≠ main_v33)) _ _).trans (Function.update_self _ _ _)
theorem U20_hbm (m : (ℓ : Loc nD τ sig) → Buf (Elt F) ℓ) (c : Dev nD) : U20 m c main_v33 = U19 m c main_v33 := Function.update_self _ _ _
theorem U20_of_ne (m : (ℓ : Loc nD τ sig) → Buf (Elt F) ℓ) (c : Dev nD) (b : Ref sig .tc) (h1 : b ≠ main_v49) (h2 : b ≠ main_v33) : U20 m c b = U19 m c b :=
  (Function.update_of_ne (StableHlo.devRef_ne_of_ne h2) _ _).trans (Function.update_of_ne (StableHlo.devRef_ne_of_ne h1) _ _)
theorem U22_out (m : (ℓ : Loc nD τ sig) → Buf (Elt F) ℓ) (c : Dev nD) : U22 m c main_v51
    = (datG9 (atTc (U21 m)) (a9 m) (gblk9 (atTc (U21 m)) (a9 m)) c).arrAt 0 (cfg9 (a9 m)).N :=
  (Function.update_of_ne (StableHlo.devRef_ne_of_ne (by decide : main_v51 ≠ main_v33)) _ _).trans (Function.update_self _ _ _)
theorem U22_hbm (m : (ℓ : Loc nD τ sig) → Buf (Elt F) ℓ) (c : Dev nD) : U22 m c main_v33 = U21 m c main_v33 := Function.update_self _ _ _
theorem U22_of_ne (m : (ℓ : Loc nD τ sig) → Buf (Elt F) ℓ) (c : Dev nD) (b : Ref sig .tc) (h1 : b ≠ main_v51) (h2 : b ≠ main_v33) : U22 m c b = U21 m c b :=
  (Function.update_of_ne (StableHlo.devRef_ne_of_ne h2) _ _).trans (Function.update_of_ne (StableHlo.devRef_ne_of_ne h1) _ _)
theorem U24_out (m : (ℓ : Loc nD τ sig) → Buf (Elt F) ℓ) (c : Dev nD) : U24 m c main_v53
    = (datG10 (atTc (U23 m)) (a10 m) (gblk10 (atTc (U23 m)) (a10 m)) c).arrAt 0 (cfg10 (a10 m)).N :=
  (Function.update_of_ne (StableHlo.devRef_ne_of_ne (by decide : main_v53 ≠ main_v33)) _ _).trans (Function.update_self _ _ _)
theorem U24_hbm (m : (ℓ : Loc nD τ sig) → Buf (Elt F) ℓ) (c : Dev nD) : U24 m c main_v33 = U23 m c main_v33 := Function.update_self _ _ _
theorem U24_of_ne (m : (ℓ : Loc nD τ sig) → Buf (Elt F) ℓ) (c : Dev nD) (b : Ref sig .tc) (h1 : b ≠ main_v53) (h2 : b ≠ main_v33) : U24 m c b = U23 m c b :=
  (Function.update_of_ne (StableHlo.devRef_ne_of_ne h2) _ _).trans (Function.update_of_ne (StableHlo.devRef_ne_of_ne h1) _ _)
theorem U26_out (m : (ℓ : Loc nD τ sig) → Buf (Elt F) ℓ) (c : Dev nD) : U26 m c main_v61 = (dat11 (atTc (U25 m)) c).arrAt 3 cfg11.N := Function.update_self _ _ _
theorem U26_of_ne (m : (ℓ : Loc nD τ sig) → Buf (Elt F) ℓ) (c : Dev nD) (b : Ref sig .tc) (hb : b ≠ main_v61) : U26 m c b = U25 m c b :=
  Function.update_of_ne (StableHlo.devRef_ne_of_ne hb) _ _
theorem U28_out (m : (ℓ : Loc nD τ sig) → Buf (Elt F) ℓ) (c : Dev nD) : U28 m c main_v63
    = (datG12 (atTc (U27 m)) (a12 m) (gblk12 (atTc (U27 m)) (a12 m)) c).arrAt 0 (cfg12 (a12 m)).N :=
  (Function.update_of_ne (StableHlo.devRef_ne_of_ne (by decide : main_v63 ≠ main_v61)) _ _).trans (Function.update_self _ _ _)
theorem U28_hbm (m : (ℓ : Loc nD τ sig) → Buf (Elt F) ℓ) (c : Dev nD) : U28 m c main_v61 = U27 m c main_v61 := Function.update_self _ _ _
theorem U28_of_ne (m : (ℓ : Loc nD τ sig) → Buf (Elt F) ℓ) (c : Dev nD) (b : Ref sig .tc) (h1 : b ≠ main_v63) (h2 : b ≠ main_v61) : U28 m c b = U27 m c b :=
  (Function.update_of_ne (StableHlo.devRef_ne_of_ne h2) _ _).trans (Function.update_of_ne (StableHlo.devRef_ne_of_ne h1) _ _)
theorem U30_out (m : (ℓ : Loc nD τ sig) → Buf (Elt F) ℓ) (c : Dev nD) : U30 m c main_v65
    = (datG13 (atTc (U29 m)) (a13 m) (gblk13 (atTc (U29 m)) (a13 m)) c).arrAt 0 (cfg13 (a13 m)).N :=
  (Function.update_of_ne (StableHlo.devRef_ne_of_ne (by decide : main_v65 ≠ main_v61)) _ _).trans (Function.update_self _ _ _)
theorem U30_hbm (m : (ℓ : Loc nD τ sig) → Buf (Elt F) ℓ) (c : Dev nD) : U30 m c main_v61 = U29 m c main_v61 := Function.update_self _ _ _
theorem U30_of_ne (m : (ℓ : Loc nD τ sig) → Buf (Elt F) ℓ) (c : Dev nD) (b : Ref sig .tc) (h1 : b ≠ main_v65) (h2 : b ≠ main_v61) : U30 m c b = U29 m c b :=
  (Function.update_of_ne (StableHlo.devRef_ne_of_ne h2) _ _).trans (Function.update_of_ne (StableHlo.devRef_ne_of_ne h1) _ _)
theorem U32_out (m : (ℓ : Loc nD τ sig) → Buf (Elt F) ℓ) (c : Dev nD) : U32 m c main_v67
    = (datG14 (atTc (U31 m)) (a14 m) (gblk14 (atTc (U31 m)) (a14 m)) c).arrAt 0 (cfg14 (a14 m)).N :=
  (Function.update_of_ne (StableHlo.devRef_ne_of_ne (by decide : main_v67 ≠ main_v61)) _ _).trans (Function.update_self _ _ _)
theorem U32_hbm (m : (ℓ : Loc nD τ sig) → Buf (Elt F) ℓ) (c : Dev nD) : U32 m c main_v61 = U31 m c main_v61 := Function.update_self _ _ _
theorem U32_of_ne (m : (ℓ : Loc nD τ sig) → Buf (Elt F) ℓ) (c : Dev nD) (b : Ref sig .tc) (h1 : b ≠ main_v67) (h2 : b ≠ main_v61) : U32 m c b = U31 m c b :=
  (Function.update_of_ne (StableHlo.devRef_ne_of_ne h2) _ _).trans (Function.update_of_ne (StableHlo.devRef_ne_of_ne h1) _ _)
theorem U34_out (m : (ℓ : Loc nD τ sig) → Buf (Elt F) ℓ) (c : Dev nD) : U34 m c main_v69
    = (datG15 (atTc (U33 m)) (a15 m) (gblk15 (atTc (U33 m)) (a15 m)) c).arrAt 0 (cfg15 (a15 m)).N :=
  (Function.update_of_ne (StableHlo.devRef_ne_of_ne (by decide : main_v69 ≠ main_v61)) _ _).trans (Function.update_self _ _ _)
theorem U34_hbm (m : (ℓ : Loc nD τ sig) → Buf (Elt F) ℓ) (c : Dev nD) : U34 m c main_v61 = U33 m c main_v61 := Function.update_self _ _ _
theorem U34_of_ne (m : (ℓ : Loc nD τ sig) → Buf (Elt F) ℓ) (c : Dev nD) (b : Ref sig .tc) (h1 : b ≠ main_v69) (h2 : b ≠ main_v61) : U34 m c b = U33 m c b :=
  (Function.update_of_ne (StableHlo.devRef_ne_of_ne h2) _ _).trans (Function.update_of_ne (StableHlo.devRef_ne_of_ne h1) _ _)
theorem U36_out (m : (ℓ : Loc nD τ sig) → Buf (Elt F) ℓ) (c : Dev nD) : U36 m c main_v71
    = (datG16 (atTc (U35 m)) (a16 m) (gblk16 (atTc (U35 m)) (a16 m)) c).arrAt 0 (cfg16 (a16 m)).N :=
  (Function.update_of_ne (StableHlo.devRef_ne_of_ne (by decide : main_v71 ≠ main_v61)) _ _).trans (Function.update_self _ _ _)
theorem U36_hbm (m : (ℓ : Loc nD τ sig) → Buf (Elt F) ℓ) (c : Dev nD) : U36 m c main_v61 = U35 m c main_v61 := Function.update_self _ _ _
theorem U36_of_ne (m : (ℓ : Loc nD τ sig) → Buf (Elt F) ℓ) (c : Dev nD) (b : Ref sig .tc) (h1 : b ≠ main_v71) (h2 : b ≠ main_v61) : U36 m c b = U35 m c b :=
  (Function.update_of_ne (StableHlo.devRef_ne_of_ne h2) _ _).trans (Function.update_of_ne (StableHlo.devRef_ne_of_ne h1) _ _)
theorem U38_out (m : (ℓ : Loc nD τ sig) → Buf (Elt F) ℓ) (c : Dev nD) : U38 m c main_v73
    = (datG17 (atTc (U37 m)) (a17 m) (gblk17 (atTc (U37 m)) (a17 m)) c).arrAt 0 (cfg17 (a17 m)).N :=
  (Function.update_of_ne (StableHlo.devRef_ne_of_ne (by decide : main_v73 ≠ main_v61)) _ _).trans (Function.update_self _ _ _)
theorem U38_hbm (m : (ℓ : Loc nD τ sig) → Buf (Elt F) ℓ) (c : Dev nD) : U38 m c main_v61 = U37 m c main_v61 := Function.update_self _ _ _
theorem U38_of_ne (m : (ℓ : Loc nD τ sig) → Buf (Elt F) ℓ) (c : Dev nD) (b : Ref sig .tc) (h1 : b ≠ main_v73) (h2 : b ≠ main_v61) : U38 m c b = U37 m c b :=
  (Function.update_of_ne (StableHlo.devRef_ne_of_ne h2) _ _).trans (Function.update_of_ne (StableHlo.devRef_ne_of_ne h1) _ _)
theorem U40_out (m : (ℓ : Loc nD τ sig) → Buf (Elt F) ℓ) (c : Dev nD) : U40 m c main_v75
    = (datG18 (atTc (U39 m)) (a18 m) (gblk18 (atTc (U39 m)) (a18 m)) c).arrAt 0 (cfg18 (a18 m)).N :=
  (Function.update_of_ne (StableHlo.devRef_ne_of_ne (by decide : main_v75 ≠ main_v61)) _ _).trans (Function.update_self _ _ _)
theorem U40_hbm (m : (ℓ : Loc nD τ sig) → Buf (Elt F) ℓ) (c : Dev nD) : U40 m c main_v61 = U39 m c main_v61 := Function.update_self _ _ _
theorem U40_of_ne (m : (ℓ : Loc nD τ sig) → Buf (Elt F) ℓ) (c : Dev nD) (b : Ref sig .tc) (h1 : b ≠ main_v75) (h2 : b ≠ main_v61) : U40 m c b = U39 m c b :=
  (Function.update_of_ne (StableHlo.devRef_ne_of_ne h2) _ _).trans (Function.update_of_ne (StableHlo.devRef_ne_of_ne h1) _ _)
theorem U42_out (m : (ℓ : Loc nD τ sig) → Buf (Elt F) ℓ) (c : Dev nD) : U42 m c main_v77
    = (datG19 (atTc (U41 m)) (a19 m) (gblk19 (atTc (U41 m)) (a19 m)) c).arrAt 0 (cfg19 (a19 m)).N :=
  (Function.update_of_ne (StableHlo.devRef_ne_of_ne (by decide : main_v77 ≠ main_v61)) _ _).trans (Function.update_self _ _ _)
theorem U42_hbm (m : (ℓ : Loc nD τ sig) → Buf (Elt F) ℓ) (c : Dev nD) : U42 m c main_v61 = U41 m c main_v61 := Function.update_self _ _ _
theorem U42_of_ne (m : (ℓ : Loc nD τ sig) → Buf (Elt F) ℓ) (c : Dev nD) (b : Ref sig .tc) (h1 : b ≠ main_v77) (h2 : b ≠ main_v61) : U42 m c b = U41 m c b :=
  (Function.update_of_ne (StableHlo.devRef_ne_of_ne h2) _ _).trans (Function.update_of_ne (StableHlo.devRef_ne_of_ne h1) _ _)
theorem U44_out (m : (ℓ : Loc nD τ sig) → Buf (Elt F) ℓ) (c : Dev nD) : U44 m c main_v79
    = (datG20 (atTc (U43 m)) (a20 m) (gblk20 (atTc (U43 m)) (a20 m)) c).arrAt 0 (cfg20 (a20 m)).N :=
  (Function.update_of_ne (StableHlo.devRef_ne_of_ne (by decide : main_v79 ≠ main_v61)) _ _).trans (Function.update_self _ _ _)
theorem U44_hbm (m : (ℓ : Loc nD τ sig) → Buf (Elt F) ℓ) (c : Dev nD) : U44 m c main_v61 = U43 m c main_v61 := Function.update_self _ _ _
theorem U44_of_ne (m : (ℓ : Loc nD τ sig) → Buf (Elt F) ℓ) (c : Dev nD) (b : Ref sig .tc) (h1 : b ≠ main_v79) (h2 : b ≠ main_v61) : U44 m c b = U43 m c b :=
  (Function.update_of_ne (StableHlo.devRef_ne_of_ne h2) _ _).trans (Function.update_of_ne (StableHlo.devRef_ne_of_ne h1) _ _)
theorem U46_out (m : (ℓ : Loc nD τ sig) → Buf (Elt F) ℓ) (c : Dev nD) : U46 m c main_v81
    = (datG21 (atTc (U45 m)) (a21 m) (gblk21 (atTc (U45 m)) (a21 m)) c).arrAt 0 (cfg21 (a21 m)).N :=
  (Function.update_of_ne (StableHlo.devRef_ne_of_ne (by decide : main_v81 ≠ main_v61)) _ _).trans (Function.update_self _ _ _)
theorem U46_hbm (m : (ℓ : Loc nD τ sig) → Buf (Elt F) ℓ) (c : Dev nD) : U46 m c main_v61 = U45 m c main_v61 := Function.update_self _ _ _
theorem U46_of_ne (m : (ℓ : Loc nD τ sig) → Buf (Elt F) ℓ) (c : Dev nD) (b : Ref sig .tc) (h1 : b ≠ main_v81) (h2 : b ≠ main_v61) : U46 m c b = U45 m c b :=
  (Function.update_of_ne (StableHlo.devRef_ne_of_ne h2) _ _).trans (Function.update_of_ne (StableHlo.devRef_ne_of_ne h1) _ _)
theorem U48_out (m : (ℓ : Loc nD τ sig) → Buf (Elt F) ℓ) (c : Dev nD) : U48 m c main_v89 = (dat22 (atTc (U47 m)) c).arrAt 2 cfg22.N := Function.update_self _ _ _
theorem U48_of_ne (m : (ℓ : Loc nD τ sig) → Buf (Elt F) ℓ) (c : Dev nD) (b : Ref sig .tc) (hb : b ≠ main_v89) : U48 m c b = U47 m c b :=
  Function.update_of_ne (StableHlo.devRef_ne_of_ne hb) _ _
theorem U50_out (m : (ℓ : Loc nD τ sig) → Buf (Elt F) ℓ) (c : Dev nD) : U50 m c main_v91
    = (datG23 (atTc (U49 m)) (a23 m) (gblk23 (atTc (U49 m)) (a23 m)) c).arrAt 0 (cfg23 (a23 m)).N :=
  (Function.update_of_ne (StableHlo.devRef_ne_of_ne (by decide : main_v91 ≠ main_v89)) _ _).trans (Function.update_self _ _ _)
theorem U50_hbm (m : (ℓ : Loc nD τ sig) → Buf (Elt F) ℓ) (c : Dev nD) : U50 m c main_v89 = U49 m c main_v89 := Function.update_self _ _ _
theorem U50_of_ne (m : (ℓ : Loc nD τ sig) → Buf (Elt F) ℓ) (c : Dev nD) (b : Ref sig .tc) (h1 : b ≠ main_v91) (h2 : b ≠ main_v89) : U50 m c b = U49 m c b :=
  (Function.update_of_ne (StableHlo.devRef_ne_of_ne h2) _ _).trans (Function.update_of_ne (StableHlo.devRef_ne_of_ne h1) _ _)
theorem U52_out (m : (ℓ : Loc nD τ sig) → Buf (Elt F) ℓ) (c : Dev nD) : U52 m c main_v93
    = (datG24 (atTc (U51 m)) (a24 m) (gblk24 (atTc (U51 m)) (a24 m)) c).arrAt 0 (cfg24 (a24 m)).N :=
  (Function.update_of_ne (StableHlo.devRef_ne_of_ne (by decide : main_v93 ≠ main_v89)) _ _).trans (Function.update_self _ _ _)
theorem U52_hbm (m : (ℓ : Loc nD τ sig) → Buf (Elt F) ℓ) (c : Dev nD) : U52 m c main_v89 = U51 m c main_v89 := Function.update_self _ _ _
theorem U52_of_ne (m : (ℓ : Loc nD τ sig) → Buf (Elt F) ℓ) (c : Dev nD) (b : Ref sig .tc) (h1 : b ≠ main_v93) (h2 : b ≠ main_v89) : U52 m c b = U51 m c b :=
  (Function.update_of_ne (StableHlo.devRef_ne_of_ne h2) _ _).trans (Function.update_of_ne (StableHlo.devRef_ne_of_ne h1) _ _)
theorem U54_out (m : (ℓ : Loc nD τ sig) → Buf (Elt F) ℓ) (c : Dev nD) : U54 m c main_v95
    = (datG25 (atTc (U53 m)) (a25 m) (gblk25 (atTc (U53 m)) (a25 m)) c).arrAt 0 (cfg25 (a25 m)).N :=
  (Function.update_of_ne (StableHlo.devRef_ne_of_ne (by decide : main_v95 ≠ main_v89)) _ _).trans (Function.update_self _ _ _)
theorem U54_hbm (m : (ℓ : Loc nD τ sig) → Buf (Elt F) ℓ) (c : Dev nD) : U54 m c main_v89 = U53 m c main_v89 := Function.update_self _ _ _
theorem U54_of_ne (m : (ℓ : Loc nD τ sig) → Buf (Elt F) ℓ) (c : Dev nD) (b : Ref sig .tc) (h1 : b ≠ main_v95) (h2 : b ≠ main_v89) : U54 m c b = U53 m c b :=
  (Function.update_of_ne (StableHlo.devRef_ne_of_ne h2) _ _).trans (Function.update_of_ne (StableHlo.devRef_ne_of_ne h1) _ _)
theorem U56_out (m : (ℓ : Loc nD τ sig) → Buf (Elt F) ℓ) (c : Dev nD) : U56 m c main_v97
    = (datG26 (atTc (U55 m)) (a26 m) (gblk26 (atTc (U55 m)) (a26 m)) c).arrAt 0 (cfg26 (a26 m)).N :=
  (Function.update_of_ne (StableHlo.devRef_ne_of_ne (by decide : main_v97 ≠ main_v89)) _ _).trans (Function.update_self _ _ _)
theorem U56_hbm (m : (ℓ : Loc nD τ sig) → Buf (Elt F) ℓ) (c : Dev nD) : U56 m c main_v89 = U55 m c main_v89 := Function.update_self _ _ _
theorem U56_of_ne (m : (ℓ : Loc nD τ sig) → Buf (Elt F) ℓ) (c : Dev nD) (b : Ref sig .tc) (h1 : b ≠ main_v97) (h2 : b ≠ main_v89) : U56 m c b = U55 m c b :=
  (Function.update_of_ne (StableHlo.devRef_ne_of_ne h2) _ _).trans (Function.update_of_ne (StableHlo.devRef_ne_of_ne h1) _ _)
theorem U58_out (m : (ℓ : Loc nD τ sig) → Buf (Elt F) ℓ) (c : Dev nD) : U58 m c main_v99
    = (datG27 (atTc (U57 m)) (a27 m) (gblk27 (atTc (U57 m)) (a27 m)) c).arrAt 0 (cfg27 (a27 m)).N :=
  (Function.update_of_ne (StableHlo.devRef_ne_of_ne (by decide : main_v99 ≠ main_v89)) _ _).trans (Function.update_self _ _ _)
theorem U58_hbm (m : (ℓ : Loc nD τ sig) → Buf (Elt F) ℓ) (c : Dev nD) : U58 m c main_v89 = U57 m c main_v89 := Function.update_self _ _ _
theorem U58_of_ne (m : (ℓ : Loc nD τ sig) → Buf (Elt F) ℓ) (c : Dev nD) (b : Ref sig .tc) (h1 : b ≠ main_v99) (h2 : b ≠ main_v89) : U58 m c b = U57 m c b :=
  (Function.update_of_ne (StableHlo.devRef_ne_of_ne h2) _ _).trans (Function.update_of_ne (StableHlo.devRef_ne_of_ne h1) _ _)
theorem U60_out (m : (ℓ : Loc nD τ sig) → Buf (Elt F) ℓ) (c : Dev nD) : U60 m c main_v101
    = (datG28 (atTc (U59 m)) (a28 m) (gblk28 (atTc (U59 m)) (a28 m)) c).arrAt 0 (cfg28 (a28 m)).N :=
  (Function.update_of_ne (StableHlo.devRef_ne_of_ne (by decide : main_v101 ≠ main_v89)) _ _).trans (Function.update_self _ _ _)
theorem U60_hbm (m : (ℓ : Loc nD τ sig) → Buf (Elt F) ℓ) (c : Dev nD) : U60 m c main_v89 = U59 m c main_v89 := Function.update_self _ _ _
theorem U60_of_ne (m : (ℓ : Loc nD τ sig) → Buf (Elt F) ℓ) (c : Dev nD) (b : Ref sig .tc) (h1 : b ≠ main_v101) (h2 : b ≠ main_v89) : U60 m c b = U59 m c b :=
  (Function.update_of_ne (StableHlo.devRef_ne_of_ne h2) _ _).trans (Function.update_of_ne (StableHlo.devRef_ne_of_ne h1) _ _)
theorem U62_out (m : (ℓ : Loc nD τ sig) → Buf (Elt F) ℓ) (c : Dev nD) : U62 m c main_v103
    = (datG29 (atTc (U61 m)) (a29 m) (gblk29 (atTc (U61 m)) (a29 m)) c).arrAt 0 (cfg29 (a29 m)).N :=
  (Function.update_of_ne (StableHlo.devRef_ne_of_ne (by decide : main_v103 ≠ main_v89)) _ _).trans (Function.update_self _ _ _)
theorem U62_hbm (m : (ℓ : Loc nD τ sig) → Buf (Elt F) ℓ) (c : Dev nD) : U62 m c main_v89 = U61 m c main_v89 := Function.update_self _ _ _
theorem U62_of_ne (m : (ℓ : Loc nD τ sig) → Buf (Elt F) ℓ) (c : Dev nD) (b : Ref sig .tc) (h1 : b ≠ main_v103) (h2 : b ≠ main_v89) : U62 m c b = U61 m c b :=
  (Function.update_of_ne (StableHlo.devRef_ne_of_ne h2) _ _).trans (Function.update_of_ne (StableHlo.devRef_ne_of_ne h1) _ _)
theorem U64_out (m : (ℓ : Loc nD τ sig) → Buf (Elt F) ℓ) (c : Dev nD) : U64 m c main_v105
    = (datG30 (atTc (U63 m)) (a30 m) (gblk30 (atTc (U63 m)) (a30 m)) c).arrAt 0 (cfg30 (a30 m)).N :=
  (Function.update_of_ne (StableHlo.devRef_ne_of_ne (by decide : main_v105 ≠ main_v89)) _ _).trans (Function.update_self _ _ _)
theorem U64_hbm (m : (ℓ : Loc nD τ sig) → Buf (Elt F) ℓ) (c : Dev nD) : U64 m c main_v89 = U63 m c main_v89 := Function.update_self _ _ _
theorem U64_of_ne (m : (ℓ : Loc nD τ sig) → Buf (Elt F) ℓ) (c : Dev nD) (b : Ref sig .tc) (h1 : b ≠ main_v105) (h2 : b ≠ main_v89) : U64 m c b = U63 m c b :=
  (Function.update_of_ne (StableHlo.devRef_ne_of_ne h2) _ _).trans (Function.update_of_ne (StableHlo.devRef_ne_of_ne h1) _ _)
theorem U66_out (m : (ℓ : Loc nD τ sig) → Buf (Elt F) ℓ) (c : Dev nD) : U66 m c main_v108
    = (datG31 (atTc (U65 m)) (a31 m) (gblk31 (atTc (U65 m)) (a31 m)) c).arrAt 0 (cfg31 (a31 m)).N :=
  (Function.update_of_ne (StableHlo.devRef_ne_of_ne (by decide : main_v108 ≠ main_v89)) _ _).trans (Function.update_self _ _ _)
theorem U66_hbm (m : (ℓ : Loc nD τ sig) → Buf (Elt F) ℓ) (c : Dev nD) : U66 m c main_v89 = U65 m c main_v89 := Function.update_self _ _ _
theorem U66_of_ne (m : (ℓ : Loc nD τ sig) → Buf (Elt F) ℓ) (c : Dev nD) (b : Ref sig .tc) (h1 : b ≠ main_v108) (h2 : b ≠ main_v89) : U66 m c b = U65 m c b :=
  (Function.update_of_ne (StableHlo.devRef_ne_of_ne h2) _ _).trans (Function.update_of_ne (StableHlo.devRef_ne_of_ne h1) _ _)
theorem U68_out (m : (ℓ : Loc nD τ sig) → Buf (Elt F) ℓ) (c : Dev nD) : U68 m c main_v110
    = (datG32 (atTc (U67 m)) (a32 m) (gblk32 (atTc (U67 m)) (a32 m)) c).arrAt 0 (cfg32 (a32 m)).N :=
  (Function.update_of_ne (StableHlo.devRef_ne_of_ne (by decide : main_v110 ≠ main_v89)) _ _).trans (Function.update_self _ _ _)
theorem U68_hbm (m : (ℓ : Loc nD τ sig) → Buf (Elt F) ℓ) (c : Dev nD) : U68 m c main_v89 = U67 m c main_v89 := Function.update_self _ _ _
theorem U68_of_ne (m : (ℓ : Loc nD τ sig) → Buf (Elt F) ℓ) (c : Dev nD) (b : Ref sig .tc) (h1 : b ≠ main_v110) (h2 : b ≠ main_v89) : U68 m c b = U67 m c b :=
  (Function.update_of_ne (StableHlo.devRef_ne_of_ne h2) _ _).trans (Function.update_of_ne (StableHlo.devRef_ne_of_ne h1) _ _)
theorem U70_out (m : (ℓ : Loc nD τ sig) → Buf (Elt F) ℓ) (c : Dev nD) : U70 m c main_v112
    = (datG33 (atTc (U69 m)) (a33 m) (gblk33 (atTc (U69 m)) (a33 m)) c).arrAt 0 (cfg33 (a33 m)).N :=
  (Function.update_of_ne (StableHlo.devRef_ne_of_ne (by decide : main_v112 ≠ main_v89)) _ _).trans (Function.update_self _ _ _)
theorem U70_hbm (m : (ℓ : Loc nD τ sig) → Buf (Elt F) ℓ) (c : Dev nD) : U70 m c main_v89 = U69 m c main_v89 := Function.update_self _ _ _
theorem U70_of_ne (m : (ℓ : Loc nD τ sig) → Buf (Elt F) ℓ) (c : Dev nD) (b : Ref sig .tc) (h1 : b ≠ main_v112) (h2 : b ≠ main_v89) : U70 m c b = U69 m c b :=
  (Function.update_of_ne (StableHlo.devRef_ne_of_ne h2) _ _).trans (Function.update_of_ne (StableHlo.devRef_ne_of_ne h1) _ _)
theorem U72_out (m : (ℓ : Loc nD τ sig) → Buf (Elt F) ℓ) (c : Dev nD) : U72 m c main_v114
    = (datG34 (atTc (U71 m)) (a34 m) (gblk34 (atTc (U71 m)) (a34 m)) c).arrAt 0 (cfg34 (a34 m)).N :=
  (Function.update_of_ne (StableHlo.devRef_ne_of_ne (by decide : main_v114 ≠ main_v89)) _ _).trans (Function.update_self _ _ _)
theorem U72_hbm (m : (ℓ : Loc nD τ sig) → Buf (Elt F) ℓ) (c : Dev nD) : U72 m c main_v89 = U71 m c main_v89 := Function.update_self _ _ _
theorem U72_of_ne (m : (ℓ : Loc nD τ sig) → Buf (Elt F) ℓ) (c : Dev nD) (b : Ref sig .tc) (h1 : b ≠ main_v114) (h2 : b ≠ main_v89) : U72 m c b = U71 m c b :=
  (Function.update_of_ne (StableHlo.devRef_ne_of_ne h2) _ _).trans (Function.update_of_ne (StableHlo.devRef_ne_of_ne h1) _ _)
theorem U74_out (m : (ℓ : Loc nD τ sig) → Buf (Elt F) ℓ) (c : Dev nD) : U74 m c main_v116
    = (datG35 (atTc (U73 m)) (a35 m) (gblk35 (atTc (U73 m)) (a35 m)) c).arrAt 0 (cfg35 (a35 m)).N :=
  (Function.update_of_ne (StableHlo.devRef_ne_of_ne (by decide : main_v116 ≠ main_v89)) _ _).trans (Function.update_self _ _ _)
theorem U74_hbm (m : (ℓ : Loc nD τ sig) → Buf (Elt F) ℓ) (c : Dev nD) : U74 m c main_v89 = U73 m c main_v89 := Function.update_self _ _ _
theorem U74_of_ne (m : (ℓ : Loc nD τ sig) → Buf (Elt F) ℓ) (c : Dev nD) (b : Ref sig .tc) (h1 : b ≠ main_v116) (h2 : b ≠ main_v89) : U74 m c b = U73 m c b :=
  (Function.update_of_ne (StableHlo.devRef_ne_of_ne h2) _ _).trans (Function.update_of_ne (StableHlo.devRef_ne_of_ne h1) _ _)
theorem U76_out (m : (ℓ : Loc nD τ sig) → Buf (Elt F) ℓ) (c : Dev nD) : U76 m c main_v118
    = (datG36 (atTc (U75 m)) (a36 m) (gblk36 (atTc (U75 m)) (a36 m)) c).arrAt 0 (cfg36 (a36 m)).N :=
  (Function.update_of_ne (StableHlo.devRef_ne_of_ne (by decide : main_v118 ≠ main_v89)) _ _).trans (Function.update_self _ _ _)
theorem U76_hbm (m : (ℓ : Loc nD τ sig) → Buf (Elt F) ℓ) (c : Dev nD) : U76 m c main_v89 = U75 m c main_v89 := Function.update_self _ _ _
theorem U76_of_ne (m : (ℓ : Loc nD τ sig) → Buf (Elt F) ℓ) (c : Dev nD) (b : Ref sig .tc) (h1 : b ≠ main_v118) (h2 : b ≠ main_v89) : U76 m c b = U75 m c b :=
  (Function.update_of_ne (StableHlo.devRef_ne_of_ne h2) _ _).trans (Function.update_of_ne (StableHlo.devRef_ne_of_ne h1) _ _)
theorem U78_out (m : (ℓ : Loc nD τ sig) → Buf (Elt F) ℓ) (c : Dev nD) : U78 m c main_v120
    = (datG37 (atTc (U77 m)) (a37 m) (gblk37 (atTc (U77 m)) (a37 m)) c).arrAt 0 (cfg37 (a37 m)).N :=
  (Function.update_of_ne (StableHlo.devRef_ne_of_ne (by decide : main_v120 ≠ main_v89)) _ _).trans (Function.update_self _ _ _)
theorem U78_hbm (m : (ℓ : Loc nD τ sig) → Buf (Elt F) ℓ) (c : Dev nD) : U78 m c main_v89 = U77 m c main_v89 := Function.update_self _ _ _
theorem U78_of_ne (m : (ℓ : Loc nD τ sig) → Buf (Elt F) ℓ) (c : Dev nD) (b : Ref sig .tc) (h1 : b ≠ main_v120) (h2 : b ≠ main_v89) : U78 m c b = U77 m c b :=
  (Function.update_of_ne (StableHlo.devRef_ne_of_ne h2) _ _).trans (Function.update_of_ne (StableHlo.devRef_ne_of_ne h1) _ _)
theorem U80_out (m : (ℓ : Loc nD τ sig) → Buf (Elt F) ℓ) (c : Dev nD) : U80 m c main_v122
    = (datG38 (atTc (U79 m)) (a38 m) (gblk38 (atTc (U79 m)) (a38 m)) c).arrAt 0 (cfg38 (a38 m)).N :=
  (Function.update_of_ne (StableHlo.devRef_ne_of_ne (by decide : main_v122 ≠ main_v89)) _ _).trans (Function.update_self _ _ _)
theorem U80_hbm (m : (ℓ : Loc nD τ sig) → Buf (Elt F) ℓ) (c : Dev nD) : U80 m c main_v89 = U79 m c main_v89 := Function.update_self _ _ _
theorem U80_of_ne (m : (ℓ : Loc nD τ sig) → Buf (Elt F) ℓ) (c : Dev nD) (b : Ref sig .tc) (h1 : b ≠ main_v122) (h2 : b ≠ main_v89) : U80 m c b = U79 m c b :=
  (Function.update_of_ne (StableHlo.devRef_ne_of_ne h2) _ _).trans (Function.update_of_ne (StableHlo.devRef_ne_of_ne h1) _ _)
theorem U82_out (m : (ℓ : Loc nD τ sig) → Buf (Elt F) ℓ) (c : Dev nD) : U82 m c main_v127 = (dat39 (atTc (U81 m)) c).arrAt 5 cfg39.N := Function.update_self _ _ _
theorem U82_of_ne (m : (ℓ : Loc nD τ sig) → Buf (Elt F) ℓ) (c : Dev nD) (b : Ref sig .tc) (hb : b ≠ main_v127) : U82 m c b = U81 m c b :=
  Function.update_of_ne (StableHlo.devRef_ne_of_ne hb) _ _

end Cert.KernelIdeal.Hand

end
-- ==== Proof.KI.Fam.lean ====
import proofs.«402049_j87351044866139_2_alg».proof.Proof.KI.Chain

/-! The tables' admissible contents and the pipelines' proof data over the real valuations, as literal matches on the
    pipeline's number. -/

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg BodyObligation BodyObligationLoose)

variable {F : FTy → Type} [FloatOps F]

local notation "𝕄" => MT nD τ sig Unit (Elt F) ℕ UU ℕ

set_option maxHeartbeats 2000000 in
theorem hF0 (m : (ℓ : Loc nD τ sig) → Buf (Elt F) ℓ) (c : Dev nD) : ∀ w : Fin cfg0.W,
    (dat0 (atTc (U3 m)) c).arrAt w cfg0.N = atTc (U4 m) c (Pipeline.arrRef spec0 w)
  | ⟨0, _⟩ => (((dat0 (atTc (U3 m)) c).arrAt_in 0 rfl _).trans (A_eq0 (atTc (U3 m)) c 0)).trans (U4_of_ne m c _ (by decide : Pipeline.arrRef spec0 0 ≠ main_v33)).symm
  | ⟨1, _⟩ => (((dat0 (atTc (U3 m)) c).arrAt_in 1 rfl _).trans (A_eq0 (atTc (U3 m)) c 1)).trans (U4_of_ne m c _ (by decide : Pipeline.arrRef spec0 1 ≠ main_v33)).symm
  | ⟨2, _⟩ => (U4_out m c).symm
  | ⟨_ + 3, h⟩ => absurd h (Nat.not_lt.2 (Nat.le_add_left _ _))
theorem hrest0 (m : (ℓ : Loc nD τ sig) → Buf (Elt F) ℓ) (c : Dev nD) (b : Ref sig .tc) (hb : b ∉ Finset.univ.image (Pipeline.arrRef spec0)) :
    atTc (U4 m) c b = atTc (U3 m) c b :=
  U4_of_ne m c b fun e => hb (Finset.mem_image.mpr ⟨2, Finset.mem_univ _, e.symm ▸ (by decide : Pipeline.arrRef spec0 2 = main_v33)⟩)
set_option maxHeartbeats 2000000 in
theorem hF1 (m : (ℓ : Loc nD τ sig) → Buf (Elt F) ℓ) (c : Dev nD) : ∀ w : Fin (cfg1 (a1 m)).W,
    (datG1 (atTc (U5 m)) (a1 m) (gblk1 (atTc (U5 m)) (a1 m)) c).arrAt w (cfg1 (a1 m)).N = atTc (U6 m) c (Pipeline.arrRef spec1 w)
  | ⟨0, _⟩ => (U6_out m c).symm
  | ⟨_ + 1, h⟩ => absurd h (Nat.not_lt.2 (Nat.le_add_left _ _))
theorem hrest1 (m : (ℓ : Loc nD τ sig) → Buf (Elt F) ℓ) (c : Dev nD) (b : Ref sig .tc) (hb : b ∉ Finset.univ.image (Pipeline.arrRef spec1)) :
    atTc (U6 m) c b = atTc (U5 m) c b := by
  by_cases e : b = main_v33
  · subst e; exact U6_hbm m c
  · exact U6_of_ne m c b (fun e' => hb (Finset.mem_image.mpr ⟨0, Finset.mem_univ _, e'.symm ▸ (by decide : Pipeline.arrRef spec1 0 = main_v35)⟩)) e
/-- The table region 1 is handed is what the buffers hold when it is entered. -/
theorem hpf1 (m : (ℓ : Loc nD τ sig) → Buf (Elt F) ℓ) (c : Dev nD) : (fun k => atTc (U5 m) c (pre1.ref k)) = (a1 m).1 := by
  rw [eq_c₀ c]; rfl
set_option maxHeartbeats 2000000 in
theorem hF2 (m : (ℓ : Loc nD τ sig) → Buf (Elt F) ℓ) (c : Dev nD) : ∀ w : Fin (cfg2 (a2 m)).W,
    (datG2 (atTc (U7 m)) (a2 m) (gblk2 (atTc (U7 m)) (a2 m)) c).arrAt w (cfg2 (a2 m)).N = atTc (U8 m) c (Pipeline.arrRef spec2 w)
  | ⟨0, _⟩ => (U8_out m c).symm
  | ⟨_ + 1, h⟩ => absurd h (Nat.not_lt.2 (Nat.le_add_left _ _))
theorem hrest2 (m : (ℓ : Loc nD τ sig) → Buf (Elt F) ℓ) (c : Dev nD) (b : Ref sig .tc) (hb : b ∉ Finset.univ.image (Pipeline.arrRef spec2)) :
    atTc (U8 m) c b = atTc (U7 m) c b := by
  by_cases e : b = main_v33
  · subst e; exact U8_hbm m c
  · exact U8_of_ne m c b (fun e' => hb (Finset.mem_image.mpr ⟨0, Finset.mem_univ _, e'.symm ▸ (by decide : Pipeline.arrRef spec2 0 = main_v37)⟩)) e
/-- The table region 2 is handed is what the buffers hold when it is entered. -/
theorem hpf2 (m : (ℓ : Loc nD τ sig) → Buf (Elt F) ℓ) (c : Dev nD) : (fun k => atTc (U7 m) c (pre2.ref k)) = (a2 m).1 := by
  rw [eq_c₀ c]; rfl
set_option maxHeartbeats 2000000 in
theorem hF3 (m : (ℓ : Loc nD τ sig) → Buf (Elt F) ℓ) (c : Dev nD) : ∀ w : Fin (cfg3 (a3 m)).W,
    (datG3 (atTc (U9 m)) (a3 m) (gblk3 (atTc (U9 m)) (a3 m)) c).arrAt w (cfg3 (a3 m)).N = atTc (U10 m) c (Pipeline.arrRef spec3 w)
  | ⟨0, _⟩ => (U10_out m c).symm
  | ⟨_ + 1, h⟩ => absurd h (Nat.not_lt.2 (Nat.le_add_left _ _))
theorem hrest3 (m : (ℓ : Loc nD τ sig) → Buf (Elt F) ℓ) (c : Dev nD) (b : Ref sig .tc) (hb : b ∉ Finset.univ.image (Pipeline.arrRef spec3)) :
    atTc (U10 m) c b = atTc (U9 m) c b := by
  by_cases e : b = main_v33
  · subst e; exact U10_hbm m c
  · exact U10_of_ne m c b (fun e' => hb (Finset.mem_image.mpr ⟨0, Finset.mem_univ _, e'.symm ▸ (by decide : Pipeline.arrRef spec3 0 = main_v39)⟩)) e
/-- The table region 3 is handed is what the buffers hold when it is entered. -/
theorem hpf3 (m : (ℓ : Loc nD τ sig) → Buf (Elt F) ℓ) (c : Dev nD) : (fun k => atTc (U9 m) c (pre3.ref k)) = (a3 m).1 := by
  rw [eq_c₀ c]; rfl
set_option maxHeartbeats 2000000 in
theorem hF4 (m : (ℓ : Loc nD τ sig) → Buf (Elt F) ℓ) (c : Dev nD) : ∀ w : Fin (cfg4 (a4 m)).W,
    (datG4 (atTc (U11 m)) (a4 m) (gblk4 (atTc (U11 m)) (a4 m)) c).arrAt w (cfg4 (a4 m)).N = atTc (U12 m) c (Pipeline.arrRef spec4 w)
  | ⟨0, _⟩ => (U12_out m c).symm
  | ⟨_ + 1, h⟩ => absurd h (Nat.not_lt.2 (Nat.le_add_left _ _))
theorem hrest4 (m : (ℓ : Loc nD τ sig) → Buf (Elt F) ℓ) (c : Dev nD) (b : Ref sig .tc) (hb : b ∉ Finset.univ.image (Pipeline.arrRef spec4)) :
    atTc (U12 m) c b = atTc (U11 m) c b := by
  by_cases e : b = main_v33
  · subst e; exact U12_hbm m c
  · exact U12_of_ne m c b (fun e' => hb (Finset.mem_image.mpr ⟨0, Finset.mem_univ _, e'.symm ▸ (by decide : Pipeline.arrRef spec4 0 = main_v41)⟩)) e
/-- The table region 4 is handed is what the buffers hold when it is entered. -/
theorem hpf4 (m : (ℓ : Loc nD τ sig) → Buf (Elt F) ℓ) (c : Dev nD) : (fun k => atTc (U11 m) c (pre4.ref k)) = (a4 m).1 := by
  rw [eq_c₀ c]; rfl
set_option maxHeartbeats 2000000 in
theorem hF5 (m : (ℓ : Loc nD τ sig) → Buf (Elt F) ℓ) (c : Dev nD) : ∀ w : Fin (cfg5 (a5 m)).W,
    (datG5 (atTc (U13 m)) (a5 m) (gblk5 (atTc (U13 m)) (a5 m)) c).arrAt w (cfg5 (a5 m)).N = atTc (U14 m) c (Pipeline.arrRef spec5 w)
  | ⟨0, _⟩ => (U14_out m c).symm
  | ⟨_ + 1, h⟩ => absurd h (Nat.not_lt.2 (Nat.le_add_left _ _))
theorem hrest5 (m : (ℓ : Loc nD τ sig) → Buf (Elt F) ℓ) (c : Dev nD) (b : Ref sig .tc) (hb : b ∉ Finset.univ.image (Pipeline.arrRef spec5)) :
    atTc (U14 m) c b = atTc (U13 m) c b := by
  by_cases e : b = main_v33
  · subst e; exact U14_hbm m c
  · exact U14_of_ne m c b (fun e' => hb (Finset.mem_image.mpr ⟨0, Finset.mem_univ _, e'.symm ▸ (by decide : Pipeline.arrRef spec5 0 = main_v43)⟩)) e
/-- The table region 5 is handed is what the buffers hold when it is entered. -/
theorem hpf5 (m : (ℓ : Loc nD τ sig) → Buf (Elt F) ℓ) (c : Dev nD) : (fun k => atTc (U13 m) c (pre5.ref k)) = (a5 m).1 := by
  rw [eq_c₀ c]; rfl
set_option maxHeartbeats 2000000 in
theorem hF6 (m : (ℓ : Loc nD τ sig) → Buf (Elt F) ℓ) (c : Dev nD) : ∀ w : Fin (cfg6 (a6 m)).W,
    (datG6 (atTc (U15 m)) (a6 m) (gblk6 (atTc (U15 m)) (a6 m)) c).arrAt w (cfg6 (a6 m)).N = atTc (U16 m) c (Pipeline.arrRef spec6 w)
  | ⟨0, _⟩ => (U16_out m c).symm
  | ⟨_ + 1, h⟩ => absurd h (Nat.not_lt.2 (Nat.le_add_left _ _))
theorem hrest6 (m : (ℓ : Loc nD τ sig) → Buf (Elt F) ℓ) (c : Dev nD) (b : Ref sig .tc) (hb : b ∉ Finset.univ.image (Pipeline.arrRef spec6)) :
    atTc (U16 m) c b = atTc (U15 m) c b := by
  by_cases e : b = main_v33
  · subst e; exact U16_hbm m c
  · exact U16_of_ne m c b (fun e' => hb (Finset.mem_image.mpr ⟨0, Finset.mem_univ _, e'.symm ▸ (by decide : Pipeline.arrRef spec6 0 = main_v45)⟩)) e
/-- The table region 6 is handed is what the buffers hold when it is entered. -/
theorem hpf6 (m : (ℓ : Loc nD τ sig) → Buf (Elt F) ℓ) (c : Dev nD) : (fun k => atTc (U15 m) c (pre6.ref k)) = (a6 m).1 := by
  rw [eq_c₀ c]; rfl
set_option maxHeartbeats 2000000 in
theorem hF7 (m : (ℓ : Loc nD τ sig) → Buf (Elt F) ℓ) (c : Dev nD) : ∀ w : Fin (cfg7 (a7 m)).W,
    (datG7 (atTc (U17 m)) (a7 m) (gblk7 (atTc (U17 m)) (a7 m)) c).arrAt w (cfg7 (a7 m)).N = atTc (U18 m) c (Pipeline.arrRef spec7 w)
  | ⟨0, _⟩ => (U18_out m c).symm
  | ⟨_ + 1, h⟩ => absurd h (Nat.not_lt.2 (Nat.le_add_left _ _))
theorem hrest7 (m : (ℓ : Loc nD τ sig) → Buf (Elt F) ℓ) (c : Dev nD) (b : Ref sig .tc) (hb : b ∉ Finset.univ.image (Pipeline.arrRef spec7)) :
    atTc (U18 m) c b = atTc (U17 m) c b := by
  by_cases e : b = main_v33
  · subst e; exact U18_hbm m c
  · exact U18_of_ne m c b (fun e' => hb (Finset.mem_image.mpr ⟨0, Finset.mem_univ _, e'.symm ▸ (by decide : Pipeline.arrRef spec7 0 = main_v47)⟩)) e
/-- The table region 7 is handed is what the buffers hold when it is entered. -/
theorem hpf7 (m : (ℓ : Loc nD τ sig) → Buf (Elt F) ℓ) (c : Dev nD) : (fun k => atTc (U17 m) c (pre7.ref k)) = (a7 m).1 := by
  rw [eq_c₀ c]; rfl
set_option maxHeartbeats 2000000 in
theorem hF8 (m : (ℓ : Loc nD τ sig) → Buf (Elt F) ℓ) (c : Dev nD) : ∀ w : Fin (cfg8 (a8 m)).W,
    (datG8 (atTc (U19 m)) (a8 m) (gblk8 (atTc (U19 m)) (a8 m)) c).arrAt w (cfg8 (a8 m)).N = atTc (U20 m) c (Pipeline.arrRef spec8 w)
  | ⟨0, _⟩ => (U20_out m c).symm
  | ⟨_ + 1, h⟩ => absurd h (Nat.not_lt.2 (Nat.le_add_left _ _))
theorem hrest8 (m : (ℓ : Loc nD τ sig) → Buf (Elt F) ℓ) (c : Dev nD) (b : Ref sig .tc) (hb : b ∉ Finset.univ.image (Pipeline.arrRef spec8)) :
    atTc (U20 m) c b = atTc (U19 m) c b := by
  by_cases e : b = main_v33
  · subst e; exact U20_hbm m c
  · exact U20_of_ne m c b (fun e' => hb (Finset.mem_image.mpr ⟨0, Finset.mem_univ _, e'.symm ▸ (by decide : Pipeline.arrRef spec8 0 = main_v49)⟩)) e
/-- The table region 8 is handed is what the buffers hold when it is entered. -/
theorem hpf8 (m : (ℓ : Loc nD τ sig) → Buf (Elt F) ℓ) (c : Dev nD) : (fun k => atTc (U19 m) c (pre8.ref k)) = (a8 m).1 := by
  rw [eq_c₀ c]; rfl
set_option maxHeartbeats 2000000 in
theorem hF9 (m : (ℓ : Loc nD τ sig) → Buf (Elt F) ℓ) (c : Dev nD) : ∀ w : Fin (cfg9 (a9 m)).W,
    (datG9 (atTc (U21 m)) (a9 m) (gblk9 (atTc (U21 m)) (a9 m)) c).arrAt w (cfg9 (a9 m)).N = atTc (U22 m) c (Pipeline.arrRef spec9 w)
  | ⟨0, _⟩ => (U22_out m c).symm
  | ⟨_ + 1, h⟩ => absurd h (Nat.not_lt.2 (Nat.le_add_left _ _))
theorem hrest9 (m : (ℓ : Loc nD τ sig) → Buf (Elt F) ℓ) (c : Dev nD) (b : Ref sig .tc) (hb : b ∉ Finset.univ.image (Pipeline.arrRef spec9)) :
    atTc (U22 m) c b = atTc (U21 m) c b := by
  by_cases e : b = main_v33
  · subst e; exact U22_hbm m c
  · exact U22_of_ne m c b (fun e' => hb (Finset.mem_image.mpr ⟨0, Finset.mem_univ _, e'.symm ▸ (by decide : Pipeline.arrRef spec9 0 = main_v51)⟩)) e
/-- The table region 9 is handed is what the buffers hold when it is entered. -/
theorem hpf9 (m : (ℓ : Loc nD τ sig) → Buf (Elt F) ℓ) (c : Dev nD) : (fun k => atTc (U21 m) c (pre9.ref k)) = (a9 m).1 := by
  rw [eq_c₀ c]; rfl
set_option maxHeartbeats 2000000 in
theorem hF10 (m : (ℓ : Loc nD τ sig) → Buf (Elt F) ℓ) (c : Dev nD) : ∀ w : Fin (cfg10 (a10 m)).W,
    (datG10 (atTc (U23 m)) (a10 m) (gblk10 (atTc (U23 m)) (a10 m)) c).arrAt w (cfg10 (a10 m)).N = atTc (U24 m) c (Pipeline.arrRef spec10 w)
  | ⟨0, _⟩ => (U24_out m c).symm
  | ⟨_ + 1, h⟩ => absurd h (Nat.not_lt.2 (Nat.le_add_left _ _))
theorem hrest10 (m : (ℓ : Loc nD τ sig) → Buf (Elt F) ℓ) (c : Dev nD) (b : Ref sig .tc) (hb : b ∉ Finset.univ.image (Pipeline.arrRef spec10)) :
    atTc (U24 m) c b = atTc (U23 m) c b := by
  by_cases e : b = main_v33
  · subst e; exact U24_hbm m c
  · exact U24_of_ne m c b (fun e' => hb (Finset.mem_image.mpr ⟨0, Finset.mem_univ _, e'.symm ▸ (by decide : Pipeline.arrRef spec10 0 = main_v53)⟩)) e
/-- The table region 10 is handed is what the buffers hold when it is entered. -/
theorem hpf10 (m : (ℓ : Loc nD τ sig) → Buf (Elt F) ℓ) (c : Dev nD) : (fun k => atTc (U23 m) c (pre10.ref k)) = (a10 m).1 := by
  rw [eq_c₀ c]; rfl
set_option maxHeartbeats 2000000 in
theorem hF11 (m : (ℓ : Loc nD τ sig) → Buf (Elt F) ℓ) (c : Dev nD) : ∀ w : Fin cfg11.W,
    (dat11 (atTc (U25 m)) c).arrAt w cfg11.N = atTc (U26 m) c (Pipeline.arrRef spec11 w)
  | ⟨0, _⟩ => (((dat11 (atTc (U25 m)) c).arrAt_in 0 rfl _).trans (A_eq11 (atTc (U25 m)) c 0)).trans (U26_of_ne m c _ (by decide : Pipeline.arrRef spec11 0 ≠ main_v61)).symm
  | ⟨1, _⟩ => (((dat11 (atTc (U25 m)) c).arrAt_in 1 rfl _).trans (A_eq11 (atTc (U25 m)) c 1)).trans (U26_of_ne m c _ (by decide : Pipeline.arrRef spec11 1 ≠ main_v61)).symm
  | ⟨2, _⟩ => (((dat11 (atTc (U25 m)) c).arrAt_in 2 rfl _).trans (A_eq11 (atTc (U25 m)) c 2)).trans (U26_of_ne m c _ (by decide : Pipeline.arrRef spec11 2 ≠ main_v61)).symm
  | ⟨3, _⟩ => (U26_out m c).symm
  | ⟨_ + 4, h⟩ => absurd h (Nat.not_lt.2 (Nat.le_add_left _ _))
theorem hrest11 (m : (ℓ : Loc nD τ sig) → Buf (Elt F) ℓ) (c : Dev nD) (b : Ref sig .tc) (hb : b ∉ Finset.univ.image (Pipeline.arrRef spec11)) :
    atTc (U26 m) c b = atTc (U25 m) c b :=
  U26_of_ne m c b fun e => hb (Finset.mem_image.mpr ⟨3, Finset.mem_univ _, e.symm ▸ (by decide : Pipeline.arrRef spec11 3 = main_v61)⟩)
set_option maxHeartbeats 2000000 in
theorem hF12 (m : (ℓ : Loc nD τ sig) → Buf (Elt F) ℓ) (c : Dev nD) : ∀ w : Fin (cfg12 (a12 m)).W,
    (datG12 (atTc (U27 m)) (a12 m) (gblk12 (atTc (U27 m)) (a12 m)) c).arrAt w (cfg12 (a12 m)).N = atTc (U28 m) c (Pipeline.arrRef spec12 w)
  | ⟨0, _⟩ => (U28_out m c).symm
  | ⟨_ + 1, h⟩ => absurd h (Nat.not_lt.2 (Nat.le_add_left _ _))
theorem hrest12 (m : (ℓ : Loc nD τ sig) → Buf (Elt F) ℓ) (c : Dev nD) (b : Ref sig .tc) (hb : b ∉ Finset.univ.image (Pipeline.arrRef spec12)) :
    atTc (U28 m) c b = atTc (U27 m) c b := by
  by_cases e : b = main_v61
  · subst e; exact U28_hbm m c
  · exact U28_of_ne m c b (fun e' => hb (Finset.mem_image.mpr ⟨0, Finset.mem_univ _, e'.symm ▸ (by decide : Pipeline.arrRef spec12 0 = main_v63)⟩)) e
/-- The table region 12 is handed is what the buffers hold when it is entered. -/
theorem hpf12 (m : (ℓ : Loc nD τ sig) → Buf (Elt F) ℓ) (c : Dev nD) : (fun k => atTc (U27 m) c (pre12.ref k)) = (a12 m).1 := by
  rw [eq_c₀ c]; rfl
set_option maxHeartbeats 2000000 in
theorem hF13 (m : (ℓ : Loc nD τ sig) → Buf (Elt F) ℓ) (c : Dev nD) : ∀ w : Fin (cfg13 (a13 m)).W,
    (datG13 (atTc (U29 m)) (a13 m) (gblk13 (atTc (U29 m)) (a13 m)) c).arrAt w (cfg13 (a13 m)).N = atTc (U30 m) c (Pipeline.arrRef spec13 w)
  | ⟨0, _⟩ => (U30_out m c).symm
  | ⟨_ + 1, h⟩ => absurd h (Nat.not_lt.2 (Nat.le_add_left _ _))
theorem hrest13 (m : (ℓ : Loc nD τ sig) → Buf (Elt F) ℓ) (c : Dev nD) (b : Ref sig .tc) (hb : b ∉ Finset.univ.image (Pipeline.arrRef spec13)) :
    atTc (U30 m) c b = atTc (U29 m) c b := by
  by_cases e : b = main_v61
  · subst e; exact U30_hbm m c
  · exact U30_of_ne m c b (fun e' => hb (Finset.mem_image.mpr ⟨0, Finset.mem_univ _, e'.symm ▸ (by decide : Pipeline.arrRef spec13 0 = main_v65)⟩)) e
/-- The table region 13 is handed is what the buffers hold when it is entered. -/
theorem hpf13 (m : (ℓ : Loc nD τ sig) → Buf (Elt F) ℓ) (c : Dev nD) : (fun k => atTc (U29 m) c (pre13.ref k)) = (a13 m).1 := by
  rw [eq_c₀ c]; rfl
set_option maxHeartbeats 2000000 in
theorem hF14 (m : (ℓ : Loc nD τ sig) → Buf (Elt F) ℓ) (c : Dev nD) : ∀ w : Fin (cfg14 (a14 m)).W,
    (datG14 (atTc (U31 m)) (a14 m) (gblk14 (atTc (U31 m)) (a14 m)) c).arrAt w (cfg14 (a14 m)).N = atTc (U32 m) c (Pipeline.arrRef spec14 w)
  | ⟨0, _⟩ => (U32_out m c).symm
  | ⟨_ + 1, h⟩ => absurd h (Nat.not_lt.2 (Nat.le_add_left _ _))
theorem hrest14 (m : (ℓ : Loc nD τ sig) → Buf (Elt F) ℓ) (c : Dev nD) (b : Ref sig .tc) (hb : b ∉ Finset.univ.image (Pipeline.arrRef spec14)) :
    atTc (U32 m) c b = atTc (U31 m) c b := by
  by_cases e : b = main_v61
  · subst e; exact U32_hbm m c
  · exact U32_of_ne m c b (fun e' => hb (Finset.mem_image.mpr ⟨0, Finset.mem_univ _, e'.symm ▸ (by decide : Pipeline.arrRef spec14 0 = main_v67)⟩)) e
/-- The table region 14 is handed is what the buffers hold when it is entered. -/
theorem hpf14 (m : (ℓ : Loc nD τ sig) → Buf (Elt F) ℓ) (c : Dev nD) : (fun k => atTc (U31 m) c (pre14.ref k)) = (a14 m).1 := by
  rw [eq_c₀ c]; rfl
set_option maxHeartbeats 2000000 in
theorem hF15 (m : (ℓ : Loc nD τ sig) → Buf (Elt F) ℓ) (c : Dev nD) : ∀ w : Fin (cfg15 (a15 m)).W,
    (datG15 (atTc (U33 m)) (a15 m) (gblk15 (atTc (U33 m)) (a15 m)) c).arrAt w (cfg15 (a15 m)).N = atTc (U34 m) c (Pipeline.arrRef spec15 w)
  | ⟨0, _⟩ => (U34_out m c).symm
  | ⟨_ + 1, h⟩ => absurd h (Nat.not_lt.2 (Nat.le_add_left _ _))
theorem hrest15 (m : (ℓ : Loc nD τ sig) → Buf (Elt F) ℓ) (c : Dev nD) (b : Ref sig .tc) (hb : b ∉ Finset.univ.image (Pipeline.arrRef spec15)) :
    atTc (U34 m) c b = atTc (U33 m) c b := by
  by_cases e : b = main_v61
  · subst e; exact U34_hbm m c
  · exact U34_of_ne m c b (fun e' => hb (Finset.mem_image.mpr ⟨0, Finset.mem_univ _, e'.symm ▸ (by decide : Pipeline.arrRef spec15 0 = main_v69)⟩)) e
/-- The table region 15 is handed is what the buffers hold when it is entered. -/
theorem hpf15 (m : (ℓ : Loc nD τ sig) → Buf (Elt F) ℓ) (c : Dev nD) : (fun k => atTc (U33 m) c (pre15.ref k)) = (a15 m).1 := by
  rw [eq_c₀ c]; rfl
set_option maxHeartbeats 2000000 in
theorem hF16 (m : (ℓ : Loc nD τ sig) → Buf (Elt F) ℓ) (c : Dev nD) : ∀ w : Fin (cfg16 (a16 m)).W,
    (datG16 (atTc (U35 m)) (a16 m) (gblk16 (atTc (U35 m)) (a16 m)) c).arrAt w (cfg16 (a16 m)).N = atTc (U36 m) c (Pipeline.arrRef spec16 w)
  | ⟨0, _⟩ => (U36_out m c).symm
  | ⟨_ + 1, h⟩ => absurd h (Nat.not_lt.2 (Nat.le_add_left _ _))
theorem hrest16 (m : (ℓ : Loc nD τ sig) → Buf (Elt F) ℓ) (c : Dev nD) (b : Ref sig .tc) (hb : b ∉ Finset.univ.image (Pipeline.arrRef spec16)) :
    atTc (U36 m) c b = atTc (U35 m) c b := by
  by_cases e : b = main_v61
  · subst e; exact U36_hbm m c
  · exact U36_of_ne m c b (fun e' => hb (Finset.mem_image.mpr ⟨0, Finset.mem_univ _, e'.symm ▸ (by decide : Pipeline.arrRef spec16 0 = main_v71)⟩)) e
/-- The table region 16 is handed is what the buffers hold when it is entered. -/
theorem hpf16 (m : (ℓ : Loc nD τ sig) → Buf (Elt F) ℓ) (c : Dev nD) : (fun k => atTc (U35 m) c (pre16.ref k)) = (a16 m).1 := by
  rw [eq_c₀ c]; rfl
set_option maxHeartbeats 2000000 in
theorem hF17 (m : (ℓ : Loc nD τ sig) → Buf (Elt F) ℓ) (c : Dev nD) : ∀ w : Fin (cfg17 (a17 m)).W,
    (datG17 (atTc (U37 m)) (a17 m) (gblk17 (atTc (U37 m)) (a17 m)) c).arrAt w (cfg17 (a17 m)).N = atTc (U38 m) c (Pipeline.arrRef spec17 w)
  | ⟨0, _⟩ => (U38_out m c).symm
  | ⟨_ + 1, h⟩ => absurd h (Nat.not_lt.2 (Nat.le_add_left _ _))
theorem hrest17 (m : (ℓ : Loc nD τ sig) → Buf (Elt F) ℓ) (c : Dev nD) (b : Ref sig .tc) (hb : b ∉ Finset.univ.image (Pipeline.arrRef spec17)) :
    atTc (U38 m) c b = atTc (U37 m) c b := by
  by_cases e : b = main_v61
  · subst e; exact U38_hbm m c
  · exact U38_of_ne m c b (fun e' => hb (Finset.mem_image.mpr ⟨0, Finset.mem_univ _, e'.symm ▸ (by decide : Pipeline.arrRef spec17 0 = main_v73)⟩)) e
/-- The table region 17 is handed is what the buffers hold when it is entered. -/
theorem hpf17 (m : (ℓ : Loc nD τ sig) → Buf (Elt F) ℓ) (c : Dev nD) : (fun k => atTc (U37 m) c (pre17.ref k)) = (a17 m).1 := by
  rw [eq_c₀ c]; rfl
set_option maxHeartbeats 2000000 in
theorem hF18 (m : (ℓ : Loc nD τ sig) → Buf (Elt F) ℓ) (c : Dev nD) : ∀ w : Fin (cfg18 (a18 m)).W,
    (datG18 (atTc (U39 m)) (a18 m) (gblk18 (atTc (U39 m)) (a18 m)) c).arrAt w (cfg18 (a18 m)).N = atTc (U40 m) c (Pipeline.arrRef spec18 w)
  | ⟨0, _⟩ => (U40_out m c).symm
  | ⟨_ + 1, h⟩ => absurd h (Nat.not_lt.2 (Nat.le_add_left _ _))
theorem hrest18 (m : (ℓ : Loc nD τ sig) → Buf (Elt F) ℓ) (c : Dev nD) (b : Ref sig .tc) (hb : b ∉ Finset.univ.image (Pipeline.arrRef spec18)) :
    atTc (U40 m) c b = atTc (U39 m) c b := by
  by_cases e : b = main_v61
  · subst e; exact U40_hbm m c
  · exact U40_of_ne m c b (fun e' => hb (Finset.mem_image.mpr ⟨0, Finset.mem_univ _, e'.symm ▸ (by decide : Pipeline.arrRef spec18 0 = main_v75)⟩)) e
/-- The table region 18 is handed is what the buffers hold when it is entered. -/
theorem hpf18 (m : (ℓ : Loc nD τ sig) → Buf (Elt F) ℓ) (c : Dev nD) : (fun k => atTc (U39 m) c (pre18.ref k)) = (a18 m).1 := by
  rw [eq_c₀ c]; rfl
set_option maxHeartbeats 2000000 in
theorem hF19 (m : (ℓ : Loc nD τ sig) → Buf (Elt F) ℓ) (c : Dev nD) : ∀ w : Fin (cfg19 (a19 m)).W,
    (datG19 (atTc (U41 m)) (a19 m) (gblk19 (atTc (U41 m)) (a19 m)) c).arrAt w (cfg19 (a19 m)).N = atTc (U42 m) c (Pipeline.arrRef spec19 w)
  | ⟨0, _⟩ => (U42_out m c).symm
  | ⟨_ + 1, h⟩ => absurd h (Nat.not_lt.2 (Nat.le_add_left _ _))
theorem hrest19 (m : (ℓ : Loc nD τ sig) → Buf (Elt F) ℓ) (c : Dev nD) (b : Ref sig .tc) (hb : b ∉ Finset.univ.image (Pipeline.arrRef spec19)) :
    atTc (U42 m) c b = atTc (U41 m) c b := by
  by_cases e : b = main_v61
  · subst e; exact U42_hbm m c
  · exact U42_of_ne m c b (fun e' => hb (Finset.mem_image.mpr ⟨0, Finset.mem_univ _, e'.symm ▸ (by decide : Pipeline.arrRef spec19 0 = main_v77)⟩)) e
/-- The table region 19 is handed is what the buffers hold when it is entered. -/
theorem hpf19 (m : (ℓ : Loc nD τ sig) → Buf (Elt F) ℓ) (c : Dev nD) : (fun k => atTc (U41 m) c (pre19.ref k)) = (a19 m).1 := by
  rw [eq_c₀ c]; rfl
set_option maxHeartbeats 2000000 in
theorem hF20 (m : (ℓ : Loc nD τ sig) → Buf (Elt F) ℓ) (c : Dev nD) : ∀ w : Fin (cfg20 (a20 m)).W,
    (datG20 (atTc (U43 m)) (a20 m) (gblk20 (atTc (U43 m)) (a20 m)) c).arrAt w (cfg20 (a20 m)).N = atTc (U44 m) c (Pipeline.arrRef spec20 w)
  | ⟨0, _⟩ => (U44_out m c).symm
  | ⟨_ + 1, h⟩ => absurd h (Nat.not_lt.2 (Nat.le_add_left _ _))
theorem hrest20 (m : (ℓ : Loc nD τ sig) → Buf (Elt F) ℓ) (c : Dev nD) (b : Ref sig .tc) (hb : b ∉ Finset.univ.image (Pipeline.arrRef spec20)) :
    atTc (U44 m) c b = atTc (U43 m) c b := by
  by_cases e : b = main_v61
  · subst e; exact U44_hbm m c
  · exact U44_of_ne m c b (fun e' => hb (Finset.mem_image.mpr ⟨0, Finset.mem_univ _, e'.symm ▸ (by decide : Pipeline.arrRef spec20 0 = main_v79)⟩)) e
/-- The table region 20 is handed is what the buffers hold when it is entered. -/
theorem hpf20 (m : (ℓ : Loc nD τ sig) → Buf (Elt F) ℓ) (c : Dev nD) : (fun k => atTc (U43 m) c (pre20.ref k)) = (a20 m).1 := by
  rw [eq_c₀ c]; rfl
set_option maxHeartbeats 2000000 in
theorem hF21 (m : (ℓ : Loc nD τ sig) → Buf (Elt F) ℓ) (c : Dev nD) : ∀ w : Fin (cfg21 (a21 m)).W,
    (datG21 (atTc (U45 m)) (a21 m) (gblk21 (atTc (U45 m)) (a21 m)) c).arrAt w (cfg21 (a21 m)).N = atTc (U46 m) c (Pipeline.arrRef spec21 w)
  | ⟨0, _⟩ => (U46_out m c).symm
  | ⟨_ + 1, h⟩ => absurd h (Nat.not_lt.2 (Nat.le_add_left _ _))
theorem hrest21 (m : (ℓ : Loc nD τ sig) → Buf (Elt F) ℓ) (c : Dev nD) (b : Ref sig .tc) (hb : b ∉ Finset.univ.image (Pipeline.arrRef spec21)) :
    atTc (U46 m) c b = atTc (U45 m) c b := by
  by_cases e : b = main_v61
  · subst e; exact U46_hbm m c
  · exact U46_of_ne m c b (fun e' => hb (Finset.mem_image.mpr ⟨0, Finset.mem_univ _, e'.symm ▸ (by decide : Pipeline.arrRef spec21 0 = main_v81)⟩)) e
/-- The table region 21 is handed is what the buffers hold when it is entered. -/
theorem hpf21 (m : (ℓ : Loc nD τ sig) → Buf (Elt F) ℓ) (c : Dev nD) : (fun k => atTc (U45 m) c (pre21.ref k)) = (a21 m).1 := by
  rw [eq_c₀ c]; rfl
set_option maxHeartbeats 2000000 in
theorem hF22 (m : (ℓ : Loc nD τ sig) → Buf (Elt F) ℓ) (c : Dev nD) : ∀ w : Fin cfg22.W,
    (dat22 (atTc (U47 m)) c).arrAt w cfg22.N = atTc (U48 m) c (Pipeline.arrRef spec22 w)
  | ⟨0, _⟩ => (((dat22 (atTc (U47 m)) c).arrAt_in 0 rfl _).trans (A_eq22 (atTc (U47 m)) c 0)).trans (U48_of_ne m c _ (by decide : Pipeline.arrRef spec22 0 ≠ main_v89)).symm
  | ⟨1, _⟩ => (((dat22 (atTc (U47 m)) c).arrAt_in 1 rfl _).trans (A_eq22 (atTc (U47 m)) c 1)).trans (U48_of_ne m c _ (by decide : Pipeline.arrRef spec22 1 ≠ main_v89)).symm
  | ⟨2, _⟩ => (U48_out m c).symm
  | ⟨_ + 3, h⟩ => absurd h (Nat.not_lt.2 (Nat.le_add_left _ _))
theorem hrest22 (m : (ℓ : Loc nD τ sig) → Buf (Elt F) ℓ) (c : Dev nD) (b : Ref sig .tc) (hb : b ∉ Finset.univ.image (Pipeline.arrRef spec22)) :
    atTc (U48 m) c b = atTc (U47 m) c b :=
  U48_of_ne m c b fun e => hb (Finset.mem_image.mpr ⟨2, Finset.mem_univ _, e.symm ▸ (by decide : Pipeline.arrRef spec22 2 = main_v89)⟩)
set_option maxHeartbeats 2000000 in
theorem hF23 (m : (ℓ : Loc nD τ sig) → Buf (Elt F) ℓ) (c : Dev nD) : ∀ w : Fin (cfg23 (a23 m)).W,
    (datG23 (atTc (U49 m)) (a23 m) (gblk23 (atTc (U49 m)) (a23 m)) c).arrAt w (cfg23 (a23 m)).N = atTc (U50 m) c (Pipeline.arrRef spec23 w)
  | ⟨0, _⟩ => (U50_out m c).symm
  | ⟨_ + 1, h⟩ => absurd h (Nat.not_lt.2 (Nat.le_add_left _ _))
theorem hrest23 (m : (ℓ : Loc nD τ sig) → Buf (Elt F) ℓ) (c : Dev nD) (b : Ref sig .tc) (hb : b ∉ Finset.univ.image (Pipeline.arrRef spec23)) :
    atTc (U50 m) c b = atTc (U49 m) c b := by
  by_cases e : b = main_v89
  · subst e; exact U50_hbm m c
  · exact U50_of_ne m c b (fun e' => hb (Finset.mem_image.mpr ⟨0, Finset.mem_univ _, e'.symm ▸ (by decide : Pipeline.arrRef spec23 0 = main_v91)⟩)) e
/-- The table region 23 is handed is what the buffers hold when it is entered. -/
theorem hpf23 (m : (ℓ : Loc nD τ sig) → Buf (Elt F) ℓ) (c : Dev nD) : (fun k => atTc (U49 m) c (pre23.ref k)) = (a23 m).1 := by
  rw [eq_c₀ c]; rfl
set_option maxHeartbeats 2000000 in
theorem hF24 (m : (ℓ : Loc nD τ sig) → Buf (Elt F) ℓ) (c : Dev nD) : ∀ w : Fin (cfg24 (a24 m)).W,
    (datG24 (atTc (U51 m)) (a24 m) (gblk24 (atTc (U51 m)) (a24 m)) c).arrAt w (cfg24 (a24 m)).N = atTc (U52 m) c (Pipeline.arrRef spec24 w)
  | ⟨0, _⟩ => (U52_out m c).symm
  | ⟨_ + 1, h⟩ => absurd h (Nat.not_lt.2 (Nat.le_add_left _ _))
theorem hrest24 (m : (ℓ : Loc nD τ sig) → Buf (Elt F) ℓ) (c : Dev nD) (b : Ref sig .tc) (hb : b ∉ Finset.univ.image (Pipeline.arrRef spec24)) :
    atTc (U52 m) c b = atTc (U51 m) c b := by
  by_cases e : b = main_v89
  · subst e; exact U52_hbm m c
  · exact U52_of_ne m c b (fun e' => hb (Finset.mem_image.mpr ⟨0, Finset.mem_univ _, e'.symm ▸ (by decide : Pipeline.arrRef spec24 0 = main_v93)⟩)) e
/-- The table region 24 is handed is what the buffers hold when it is entered. -/
theorem hpf24 (m : (ℓ : Loc nD τ sig) → Buf (Elt F) ℓ) (c : Dev nD) : (fun k => atTc (U51 m) c (pre24.ref k)) = (a24 m).1 := by
  rw [eq_c₀ c]; rfl
set_option maxHeartbeats 2000000 in
theorem hF25 (m : (ℓ : Loc nD τ sig) → Buf (Elt F) ℓ) (c : Dev nD) : ∀ w : Fin (cfg25 (a25 m)).W,
    (datG25 (atTc (U53 m)) (a25 m) (gblk25 (atTc (U53 m)) (a25 m)) c).arrAt w (cfg25 (a25 m)).N = atTc (U54 m) c (Pipeline.arrRef spec25 w)
  | ⟨0, _⟩ => (U54_out m c).symm
  | ⟨_ + 1, h⟩ => absurd h (Nat.not_lt.2 (Nat.le_add_left _ _))
theorem hrest25 (m : (ℓ : Loc nD τ sig) → Buf (Elt F) ℓ) (c : Dev nD) (b : Ref sig .tc) (hb : b ∉ Finset.univ.image (Pipeline.arrRef spec25)) :
    atTc (U54 m) c b = atTc (U53 m) c b := by
  by_cases e : b = main_v89
  · subst e; exact U54_hbm m c
  · exact U54_of_ne m c b (fun e' => hb (Finset.mem_image.mpr ⟨0, Finset.mem_univ _, e'.symm ▸ (by decide : Pipeline.arrRef spec25 0 = main_v95)⟩)) e
/-- The table region 25 is handed is what the buffers hold when it is entered. -/
theorem hpf25 (m : (ℓ : Loc nD τ sig) → Buf (Elt F) ℓ) (c : Dev nD) : (fun k => atTc (U53 m) c (pre25.ref k)) = (a25 m).1 := by
  rw [eq_c₀ c]; rfl
set_option maxHeartbeats 2000000 in
theorem hF26 (m : (ℓ : Loc nD τ sig) → Buf (Elt F) ℓ) (c : Dev nD) : ∀ w : Fin (cfg26 (a26 m)).W,
    (datG26 (atTc (U55 m)) (a26 m) (gblk26 (atTc (U55 m)) (a26 m)) c).arrAt w (cfg26 (a26 m)).N = atTc (U56 m) c (Pipeline.arrRef spec26 w)
  | ⟨0, _⟩ => (U56_out m c).symm
  | ⟨_ + 1, h⟩ => absurd h (Nat.not_lt.2 (Nat.le_add_left _ _))
theorem hrest26 (m : (ℓ : Loc nD τ sig) → Buf (Elt F) ℓ) (c : Dev nD) (b : Ref sig .tc) (hb : b ∉ Finset.univ.image (Pipeline.arrRef spec26)) :
    atTc (U56 m) c b = atTc (U55 m) c b := by
  by_cases e : b = main_v89
  · subst e; exact U56_hbm m c
  · exact U56_of_ne m c b (fun e' => hb (Finset.mem_image.mpr ⟨0, Finset.mem_univ _, e'.symm ▸ (by decide : Pipeline.arrRef spec26 0 = main_v97)⟩)) e
/-- The table region 26 is handed is what the buffers hold when it is entered. -/
theorem hpf26 (m : (ℓ : Loc nD τ sig) → Buf (Elt F) ℓ) (c : Dev nD) : (fun k => atTc (U55 m) c (pre26.ref k)) = (a26 m).1 := by
  rw [eq_c₀ c]; rfl
set_option maxHeartbeats 2000000 in
theorem hF27 (m : (ℓ : Loc nD τ sig) → Buf (Elt F) ℓ) (c : Dev nD) : ∀ w : Fin (cfg27 (a27 m)).W,
    (datG27 (atTc (U57 m)) (a27 m) (gblk27 (atTc (U57 m)) (a27 m)) c).arrAt w (cfg27 (a27 m)).N = atTc (U58 m) c (Pipeline.arrRef spec27 w)
  | ⟨0, _⟩ => (U58_out m c).symm
  | ⟨_ + 1, h⟩ => absurd h (Nat.not_lt.2 (Nat.le_add_left _ _))
theorem hrest27 (m : (ℓ : Loc nD τ sig) → Buf (Elt F) ℓ) (c : Dev nD) (b : Ref sig .tc) (hb : b ∉ Finset.univ.image (Pipeline.arrRef spec27)) :
    atTc (U58 m) c b = atTc (U57 m) c b := by
  by_cases e : b = main_v89
  · subst e; exact U58_hbm m c
  · exact U58_of_ne m c b (fun e' => hb (Finset.mem_image.mpr ⟨0, Finset.mem_univ _, e'.symm ▸ (by decide : Pipeline.arrRef spec27 0 = main_v99)⟩)) e
/-- The table region 27 is handed is what the buffers hold when it is entered. -/
theorem hpf27 (m : (ℓ : Loc nD τ sig) → Buf (Elt F) ℓ) (c : Dev nD) : (fun k => atTc (U57 m) c (pre27.ref k)) = (a27 m).1 := by
  rw [eq_c₀ c]; rfl
set_option maxHeartbeats 2000000 in
theorem hF28 (m : (ℓ : Loc nD τ sig) → Buf (Elt F) ℓ) (c : Dev nD) : ∀ w : Fin (cfg28 (a28 m)).W,
    (datG28 (atTc (U59 m)) (a28 m) (gblk28 (atTc (U59 m)) (a28 m)) c).arrAt w (cfg28 (a28 m)).N = atTc (U60 m) c (Pipeline.arrRef spec28 w)
  | ⟨0, _⟩ => (U60_out m c).symm
  | ⟨_ + 1, h⟩ => absurd h (Nat.not_lt.2 (Nat.le_add_left _ _))
theorem hrest28 (m : (ℓ : Loc nD τ sig) → Buf (Elt F) ℓ) (c : Dev nD) (b : Ref sig .tc) (hb : b ∉ Finset.univ.image (Pipeline.arrRef spec28)) :
    atTc (U60 m) c b = atTc (U59 m) c b := by
  by_cases e : b = main_v89
  · subst e; exact U60_hbm m c
  · exact U60_of_ne m c b (fun e' => hb (Finset.mem_image.mpr ⟨0, Finset.mem_univ _, e'.symm ▸ (by decide : Pipeline.arrRef spec28 0 = main_v101)⟩)) e
/-- The table region 28 is handed is what the buffers hold when it is entered. -/
theorem hpf28 (m : (ℓ : Loc nD τ sig) → Buf (Elt F) ℓ) (c : Dev nD) : (fun k => atTc (U59 m) c (pre28.ref k)) = (a28 m).1 := by
  rw [eq_c₀ c]; rfl
set_option maxHeartbeats 2000000 in
theorem hF29 (m : (ℓ : Loc nD τ sig) → Buf (Elt F) ℓ) (c : Dev nD) : ∀ w : Fin (cfg29 (a29 m)).W,
    (datG29 (atTc (U61 m)) (a29 m) (gblk29 (atTc (U61 m)) (a29 m)) c).arrAt w (cfg29 (a29 m)).N = atTc (U62 m) c (Pipeline.arrRef spec29 w)
  | ⟨0, _⟩ => (U62_out m c).symm
  | ⟨_ + 1, h⟩ => absurd h (Nat.not_lt.2 (Nat.le_add_left _ _))
theorem hrest29 (m : (ℓ : Loc nD τ sig) → Buf (Elt F) ℓ) (c : Dev nD) (b : Ref sig .tc) (hb : b ∉ Finset.univ.image (Pipeline.arrRef spec29)) :
    atTc (U62 m) c b = atTc (U61 m) c b := by
  by_cases e : b = main_v89
  · subst e; exact U62_hbm m c
  · exact U62_of_ne m c b (fun e' => hb (Finset.mem_image.mpr ⟨0, Finset.mem_univ _, e'.symm ▸ (by decide : Pipeline.arrRef spec29 0 = main_v103)⟩)) e
/-- The table region 29 is handed is what the buffers hold when it is entered. -/
theorem hpf29 (m : (ℓ : Loc nD τ sig) → Buf (Elt F) ℓ) (c : Dev nD) : (fun k => atTc (U61 m) c (pre29.ref k)) = (a29 m).1 := by
  rw [eq_c₀ c]; rfl
set_option maxHeartbeats 2000000 in
theorem hF30 (m : (ℓ : Loc nD τ sig) → Buf (Elt F) ℓ) (c : Dev nD) : ∀ w : Fin (cfg30 (a30 m)).W,
    (datG30 (atTc (U63 m)) (a30 m) (gblk30 (atTc (U63 m)) (a30 m)) c).arrAt w (cfg30 (a30 m)).N = atTc (U64 m) c (Pipeline.arrRef spec30 w)
  | ⟨0, _⟩ => (U64_out m c).symm
  | ⟨_ + 1, h⟩ => absurd h (Nat.not_lt.2 (Nat.le_add_left _ _))
theorem hrest30 (m : (ℓ : Loc nD τ sig) → Buf (Elt F) ℓ) (c : Dev nD) (b : Ref sig .tc) (hb : b ∉ Finset.univ.image (Pipeline.arrRef spec30)) :
    atTc (U64 m) c b = atTc (U63 m) c b := by
  by_cases e : b = main_v89
  · subst e; exact U64_hbm m c
  · exact U64_of_ne m c b (fun e' => hb (Finset.mem_image.mpr ⟨0, Finset.mem_univ _, e'.symm ▸ (by decide : Pipeline.arrRef spec30 0 = main_v105)⟩)) e
/-- The table region 30 is handed is what the buffers hold when it is entered. -/
theorem hpf30 (m : (ℓ : Loc nD τ sig) → Buf (Elt F) ℓ) (c : Dev nD) : (fun k => atTc (U63 m) c (pre30.ref k)) = (a30 m).1 := by
  rw [eq_c₀ c]; rfl
set_option maxHeartbeats 2000000 in
theorem hF31 (m : (ℓ : Loc nD τ sig) → Buf (Elt F) ℓ) (c : Dev nD) : ∀ w : Fin (cfg31 (a31 m)).W,
    (datG31 (atTc (U65 m)) (a31 m) (gblk31 (atTc (U65 m)) (a31 m)) c).arrAt w (cfg31 (a31 m)).N = atTc (U66 m) c (Pipeline.arrRef spec31 w)
  | ⟨0, _⟩ => (U66_out m c).symm
  | ⟨_ + 1, h⟩ => absurd h (Nat.not_lt.2 (Nat.le_add_left _ _))
theorem hrest31 (m : (ℓ : Loc nD τ sig) → Buf (Elt F) ℓ) (c : Dev nD) (b : Ref sig .tc) (hb : b ∉ Finset.univ.image (Pipeline.arrRef spec31)) :
    atTc (U66 m) c b = atTc (U65 m) c b := by
  by_cases e : b = main_v89
  · subst e; exact U66_hbm m c
  · exact U66_of_ne m c b (fun e' => hb (Finset.mem_image.mpr ⟨0, Finset.mem_univ _, e'.symm ▸ (by decide : Pipeline.arrRef spec31 0 = main_v108)⟩)) e
/-- The table region 31 is handed is what the buffers hold when it is entered. -/
theorem hpf31 (m : (ℓ : Loc nD τ sig) → Buf (Elt F) ℓ) (c : Dev nD) : (fun k => atTc (U65 m) c (pre31.ref k)) = (a31 m).1 := by
  rw [eq_c₀ c]; rfl
set_option maxHeartbeats 2000000 in
theorem hF32 (m : (ℓ : Loc nD τ sig) → Buf (Elt F) ℓ) (c : Dev nD) : ∀ w : Fin (cfg32 (a32 m)).W,
    (datG32 (atTc (U67 m)) (a32 m) (gblk32 (atTc (U67 m)) (a32 m)) c).arrAt w (cfg32 (a32 m)).N = atTc (U68 m) c (Pipeline.arrRef spec32 w)
  | ⟨0, _⟩ => (U68_out m c).symm
  | ⟨_ + 1, h⟩ => absurd h (Nat.not_lt.2 (Nat.le_add_left _ _))
theorem hrest32 (m : (ℓ : Loc nD τ sig) → Buf (Elt F) ℓ) (c : Dev nD) (b : Ref sig .tc) (hb : b ∉ Finset.univ.image (Pipeline.arrRef spec32)) :
    atTc (U68 m) c b = atTc (U67 m) c b := by
  by_cases e : b = main_v89
  · subst e; exact U68_hbm m c
  · exact U68_of_ne m c b (fun e' => hb (Finset.mem_image.mpr ⟨0, Finset.mem_univ _, e'.symm ▸ (by decide : Pipeline.arrRef spec32 0 = main_v110)⟩)) e
/-- The table region 32 is handed is what the buffers hold when it is entered. -/
theorem hpf32 (m : (ℓ : Loc nD τ sig) → Buf (Elt F) ℓ) (c : Dev nD) : (fun k => atTc (U67 m) c (pre32.ref k)) = (a32 m).1 := by
  rw [eq_c₀ c]; rfl
set_option maxHeartbeats 2000000 in
theorem hF33 (m : (ℓ : Loc nD τ sig) → Buf (Elt F) ℓ) (c : Dev nD) : ∀ w : Fin (cfg33 (a33 m)).W,
    (datG33 (atTc (U69 m)) (a33 m) (gblk33 (atTc (U69 m)) (a33 m)) c).arrAt w (cfg33 (a33 m)).N = atTc (U70 m) c (Pipeline.arrRef spec33 w)
  | ⟨0, _⟩ => (U70_out m c).symm
  | ⟨_ + 1, h⟩ => absurd h (Nat.not_lt.2 (Nat.le_add_left _ _))
theorem hrest33 (m : (ℓ : Loc nD τ sig) → Buf (Elt F) ℓ) (c : Dev nD) (b : Ref sig .tc) (hb : b ∉ Finset.univ.image (Pipeline.arrRef spec33)) :
    atTc (U70 m) c b = atTc (U69 m) c b := by
  by_cases e : b = main_v89
  · subst e; exact U70_hbm m c
  · exact U70_of_ne m c b (fun e' => hb (Finset.mem_image.mpr ⟨0, Finset.mem_univ _, e'.symm ▸ (by decide : Pipeline.arrRef spec33 0 = main_v112)⟩)) e
/-- The table region 33 is handed is what the buffers hold when it is entered. -/
theorem hpf33 (m : (ℓ : Loc nD τ sig) → Buf (Elt F) ℓ) (c : Dev nD) : (fun k => atTc (U69 m) c (pre33.ref k)) = (a33 m).1 := by
  rw [eq_c₀ c]; rfl
set_option maxHeartbeats 2000000 in
theorem hF34 (m : (ℓ : Loc nD τ sig) → Buf (Elt F) ℓ) (c : Dev nD) : ∀ w : Fin (cfg34 (a34 m)).W,
    (datG34 (atTc (U71 m)) (a34 m) (gblk34 (atTc (U71 m)) (a34 m)) c).arrAt w (cfg34 (a34 m)).N = atTc (U72 m) c (Pipeline.arrRef spec34 w)
  | ⟨0, _⟩ => (U72_out m c).symm
  | ⟨_ + 1, h⟩ => absurd h (Nat.not_lt.2 (Nat.le_add_left _ _))
theorem hrest34 (m : (ℓ : Loc nD τ sig) → Buf (Elt F) ℓ) (c : Dev nD) (b : Ref sig .tc) (hb : b ∉ Finset.univ.image (Pipeline.arrRef spec34)) :
    atTc (U72 m) c b = atTc (U71 m) c b := by
  by_cases e : b = main_v89
  · subst e; exact U72_hbm m c
  · exact U72_of_ne m c b (fun e' => hb (Finset.mem_image.mpr ⟨0, Finset.mem_univ _, e'.symm ▸ (by decide : Pipeline.arrRef spec34 0 = main_v114)⟩)) e
/-- The table region 34 is handed is what the buffers hold when it is entered. -/
theorem hpf34 (m : (ℓ : Loc nD τ sig) → Buf (Elt F) ℓ) (c : Dev nD) : (fun k => atTc (U71 m) c (pre34.ref k)) = (a34 m).1 := by
  rw [eq_c₀ c]; rfl
set_option maxHeartbeats 2000000 in
theorem hF35 (m : (ℓ : Loc nD τ sig) → Buf (Elt F) ℓ) (c : Dev nD) : ∀ w : Fin (cfg35 (a35 m)).W,
    (datG35 (atTc (U73 m)) (a35 m) (gblk35 (atTc (U73 m)) (a35 m)) c).arrAt w (cfg35 (a35 m)).N = atTc (U74 m) c (Pipeline.arrRef spec35 w)
  | ⟨0, _⟩ => (U74_out m c).symm
  | ⟨_ + 1, h⟩ => absurd h (Nat.not_lt.2 (Nat.le_add_left _ _))
theorem hrest35 (m : (ℓ : Loc nD τ sig) → Buf (Elt F) ℓ) (c : Dev nD) (b : Ref sig .tc) (hb : b ∉ Finset.univ.image (Pipeline.arrRef spec35)) :
    atTc (U74 m) c b = atTc (U73 m) c b := by
  by_cases e : b = main_v89
  · subst e; exact U74_hbm m c
  · exact U74_of_ne m c b (fun e' => hb (Finset.mem_image.mpr ⟨0, Finset.mem_univ _, e'.symm ▸ (by decide : Pipeline.arrRef spec35 0 = main_v116)⟩)) e
/-- The table region 35 is handed is what the buffers hold when it is entered. -/
theorem hpf35 (m : (ℓ : Loc nD τ sig) → Buf (Elt F) ℓ) (c : Dev nD) : (fun k => atTc (U73 m) c (pre35.ref k)) = (a35 m).1 := by
  rw [eq_c₀ c]; rfl
set_option maxHeartbeats 2000000 in
theorem hF36 (m : (ℓ : Loc nD τ sig) → Buf (Elt F) ℓ) (c : Dev nD) : ∀ w : Fin (cfg36 (a36 m)).W,
    (datG36 (atTc (U75 m)) (a36 m) (gblk36 (atTc (U75 m)) (a36 m)) c).arrAt w (cfg36 (a36 m)).N = atTc (U76 m) c (Pipeline.arrRef spec36 w)
  | ⟨0, _⟩ => (U76_out m c).symm
  | ⟨_ + 1, h⟩ => absurd h (Nat.not_lt.2 (Nat.le_add_left _ _))
theorem hrest36 (m : (ℓ : Loc nD τ sig) → Buf (Elt F) ℓ) (c : Dev nD) (b : Ref sig .tc) (hb : b ∉ Finset.univ.image (Pipeline.arrRef spec36)) :
    atTc (U76 m) c b = atTc (U75 m) c b := by
  by_cases e : b = main_v89
  · subst e; exact U76_hbm m c
  · exact U76_of_ne m c b (fun e' => hb (Finset.mem_image.mpr ⟨0, Finset.mem_univ _, e'.symm ▸ (by decide : Pipeline.arrRef spec36 0 = main_v118)⟩)) e
/-- The table region 36 is handed is what the buffers hold when it is entered. -/
theorem hpf36 (m : (ℓ : Loc nD τ sig) → Buf (Elt F) ℓ) (c : Dev nD) : (fun k => atTc (U75 m) c (pre36.ref k)) = (a36 m).1 := by
  rw [eq_c₀ c]; rfl
set_option maxHeartbeats 2000000 in
theorem hF37 (m : (ℓ : Loc nD τ sig) → Buf (Elt F) ℓ) (c : Dev nD) : ∀ w : Fin (cfg37 (a37 m)).W,
    (datG37 (atTc (U77 m)) (a37 m) (gblk37 (atTc (U77 m)) (a37 m)) c).arrAt w (cfg37 (a37 m)).N = atTc (U78 m) c (Pipeline.arrRef spec37 w)
  | ⟨0, _⟩ => (U78_out m c).symm
  | ⟨_ + 1, h⟩ => absurd h (Nat.not_lt.2 (Nat.le_add_left _ _))
theorem hrest37 (m : (ℓ : Loc nD τ sig) → Buf (Elt F) ℓ) (c : Dev nD) (b : Ref sig .tc) (hb : b ∉ Finset.univ.image (Pipeline.arrRef spec37)) :
    atTc (U78 m) c b = atTc (U77 m) c b := by
  by_cases e : b = main_v89
  · subst e; exact U78_hbm m c
  · exact U78_of_ne m c b (fun e' => hb (Finset.mem_image.mpr ⟨0, Finset.mem_univ _, e'.symm ▸ (by decide : Pipeline.arrRef spec37 0 = main_v120)⟩)) e
/-- The table region 37 is handed is what the buffers hold when it is entered. -/
theorem hpf37 (m : (ℓ : Loc nD τ sig) → Buf (Elt F) ℓ) (c : Dev nD) : (fun k => atTc (U77 m) c (pre37.ref k)) = (a37 m).1 := by
  rw [eq_c₀ c]; rfl
set_option maxHeartbeats 2000000 in
theorem hF38 (m : (ℓ : Loc nD τ sig) → Buf (Elt F) ℓ) (c : Dev nD) : ∀ w : Fin (cfg38 (a38 m)).W,
    (datG38 (atTc (U79 m)) (a38 m) (gblk38 (atTc (U79 m)) (a38 m)) c).arrAt w (cfg38 (a38 m)).N = atTc (U80 m) c (Pipeline.arrRef spec38 w)
  | ⟨0, _⟩ => (U80_out m c).symm
  | ⟨_ + 1, h⟩ => absurd h (Nat.not_lt.2 (Nat.le_add_left _ _))
theorem hrest38 (m : (ℓ : Loc nD τ sig) → Buf (Elt F) ℓ) (c : Dev nD) (b : Ref sig .tc) (hb : b ∉ Finset.univ.image (Pipeline.arrRef spec38)) :
    atTc (U80 m) c b = atTc (U79 m) c b := by
  by_cases e : b = main_v89
  · subst e; exact U80_hbm m c
  · exact U80_of_ne m c b (fun e' => hb (Finset.mem_image.mpr ⟨0, Finset.mem_univ _, e'.symm ▸ (by decide : Pipeline.arrRef spec38 0 = main_v122)⟩)) e
/-- The table region 38 is handed is what the buffers hold when it is entered. -/
theorem hpf38 (m : (ℓ : Loc nD τ sig) → Buf (Elt F) ℓ) (c : Dev nD) : (fun k => atTc (U79 m) c (pre38.ref k)) = (a38 m).1 := by
  rw [eq_c₀ c]; rfl
set_option maxHeartbeats 2000000 in
theorem hF39 (m : (ℓ : Loc nD τ sig) → Buf (Elt F) ℓ) (c : Dev nD) : ∀ w : Fin cfg39.W,
    (dat39 (atTc (U81 m)) c).arrAt w cfg39.N = atTc (U82 m) c (Pipeline.arrRef spec39 w)
  | ⟨0, _⟩ => (((dat39 (atTc (U81 m)) c).arrAt_in 0 rfl _).trans (A_eq39 (atTc (U81 m)) c 0)).trans (U82_of_ne m c _ (by decide : Pipeline.arrRef spec39 0 ≠ main_v127)).symm
  | ⟨1, _⟩ => (((dat39 (atTc (U81 m)) c).arrAt_in 1 rfl _).trans (A_eq39 (atTc (U81 m)) c 1)).trans (U82_of_ne m c _ (by decide : Pipeline.arrRef spec39 1 ≠ main_v127)).symm
  | ⟨2, _⟩ => (((dat39 (atTc (U81 m)) c).arrAt_in 2 rfl _).trans (A_eq39 (atTc (U81 m)) c 2)).trans (U82_of_ne m c _ (by decide : Pipeline.arrRef spec39 2 ≠ main_v127)).symm
  | ⟨3, _⟩ => (((dat39 (atTc (U81 m)) c).arrAt_in 3 rfl _).trans (A_eq39 (atTc (U81 m)) c 3)).trans (U82_of_ne m c _ (by decide : Pipeline.arrRef spec39 3 ≠ main_v127)).symm
  | ⟨4, _⟩ => (((dat39 (atTc (U81 m)) c).arrAt_in 4 rfl _).trans (A_eq39 (atTc (U81 m)) c 4)).trans (U82_of_ne m c _ (by decide : Pipeline.arrRef spec39 4 ≠ main_v127)).symm
  | ⟨5, _⟩ => (U82_out m c).symm
  | ⟨_ + 6, h⟩ => absurd h (Nat.not_lt.2 (Nat.le_add_left _ _))
theorem hrest39 (m : (ℓ : Loc nD τ sig) → Buf (Elt F) ℓ) (c : Dev nD) (b : Ref sig .tc) (hb : b ∉ Finset.univ.image (Pipeline.arrRef spec39)) :
    atTc (U82 m) c b = atTc (U81 m) c b :=
  U82_of_ne m c b fun e => hb (Finset.mem_image.mpr ⟨5, Finset.mem_univ _, e.symm ▸ (by decide : Pipeline.arrRef spec39 5 = main_v127)⟩)

/-! ## The tables and the proof data -/

set_option maxHeartbeats 8000000 in
/-- The tables' admissible contents, pipeline by pipeline. -/
def adm (m : (ℓ : Loc nD τ sig) → Buf (Elt F) ℓ) : (p : Fin 40) → (pcfgs (F := F) p).Adm
  | ⟨0, _⟩ => cfg0.toPCfg_adm
  | ⟨1, _⟩ => a1 m
  | ⟨2, _⟩ => a2 m
  | ⟨3, _⟩ => a3 m
  | ⟨4, _⟩ => a4 m
  | ⟨5, _⟩ => a5 m
  | ⟨6, _⟩ => a6 m
  | ⟨7, _⟩ => a7 m
  | ⟨8, _⟩ => a8 m
  | ⟨9, _⟩ => a9 m
  | ⟨10, _⟩ => a10 m
  | ⟨11, _⟩ => cfg11.toPCfg_adm
  | ⟨12, _⟩ => a12 m
  | ⟨13, _⟩ => a13 m
  | ⟨14, _⟩ => a14 m
  | ⟨15, _⟩ => a15 m
  | ⟨16, _⟩ => a16 m
  | ⟨17, _⟩ => a17 m
  | ⟨18, _⟩ => a18 m
  | ⟨19, _⟩ => a19 m
  | ⟨20, _⟩ => a20 m
  | ⟨21, _⟩ => a21 m
  | ⟨22, _⟩ => cfg22.toPCfg_adm
  | ⟨23, _⟩ => a23 m
  | ⟨24, _⟩ => a24 m
  | ⟨25, _⟩ => a25 m
  | ⟨26, _⟩ => a26 m
  | ⟨27, _⟩ => a27 m
  | ⟨28, _⟩ => a28 m
  | ⟨29, _⟩ => a29 m
  | ⟨30, _⟩ => a30 m
  | ⟨31, _⟩ => a31 m
  | ⟨32, _⟩ => a32 m
  | ⟨33, _⟩ => a33 m
  | ⟨34, _⟩ => a34 m
  | ⟨35, _⟩ => a35 m
  | ⟨36, _⟩ => a36 m
  | ⟨37, _⟩ => a37 m
  | ⟨38, _⟩ => a38 m
  | ⟨39, _⟩ => cfg39.toPCfg_adm
  | ⟨_ + 40, h⟩ => absurd h (Nat.not_lt.2 (Nat.le_add_left _ _))

set_option maxHeartbeats 8000000 in
/-- Every pipeline's proof data, each at its region's entry contents. -/
def pdats (m : (ℓ : Loc nD τ sig) → Buf (Elt F) ℓ) : (p : Fin 40) → (c : Dev nD) → Dat τ (Elt F) Unit ℕ UU ℕ (Pipeline.pin (pcfgs (F := F)) (adm m) p) c
  | ⟨0, _⟩ => fun c => dat0 (atTc (U3 m)) c
  | ⟨1, _⟩ => fun c => datG1 (atTc (U5 m)) (a1 m) (gblk1 (atTc (U5 m)) (a1 m)) c
  | ⟨2, _⟩ => fun c => datG2 (atTc (U7 m)) (a2 m) (gblk2 (atTc (U7 m)) (a2 m)) c
  | ⟨3, _⟩ => fun c => datG3 (atTc (U9 m)) (a3 m) (gblk3 (atTc (U9 m)) (a3 m)) c
  | ⟨4, _⟩ => fun c => datG4 (atTc (U11 m)) (a4 m) (gblk4 (atTc (U11 m)) (a4 m)) c
  | ⟨5, _⟩ => fun c => datG5 (atTc (U13 m)) (a5 m) (gblk5 (atTc (U13 m)) (a5 m)) c
  | ⟨6, _⟩ => fun c => datG6 (atTc (U15 m)) (a6 m) (gblk6 (atTc (U15 m)) (a6 m)) c
  | ⟨7, _⟩ => fun c => datG7 (atTc (U17 m)) (a7 m) (gblk7 (atTc (U17 m)) (a7 m)) c
  | ⟨8, _⟩ => fun c => datG8 (atTc (U19 m)) (a8 m) (gblk8 (atTc (U19 m)) (a8 m)) c
  | ⟨9, _⟩ => fun c => datG9 (atTc (U21 m)) (a9 m) (gblk9 (atTc (U21 m)) (a9 m)) c
  | ⟨10, _⟩ => fun c => datG10 (atTc (U23 m)) (a10 m) (gblk10 (atTc (U23 m)) (a10 m)) c
  | ⟨11, _⟩ => fun c => dat11 (atTc (U25 m)) c
  | ⟨12, _⟩ => fun c => datG12 (atTc (U27 m)) (a12 m) (gblk12 (atTc (U27 m)) (a12 m)) c
  | ⟨13, _⟩ => fun c => datG13 (atTc (U29 m)) (a13 m) (gblk13 (atTc (U29 m)) (a13 m)) c
  | ⟨14, _⟩ => fun c => datG14 (atTc (U31 m)) (a14 m) (gblk14 (atTc (U31 m)) (a14 m)) c
  | ⟨15, _⟩ => fun c => datG15 (atTc (U33 m)) (a15 m) (gblk15 (atTc (U33 m)) (a15 m)) c
  | ⟨16, _⟩ => fun c => datG16 (atTc (U35 m)) (a16 m) (gblk16 (atTc (U35 m)) (a16 m)) c
  | ⟨17, _⟩ => fun c => datG17 (atTc (U37 m)) (a17 m) (gblk17 (atTc (U37 m)) (a17 m)) c
  | ⟨18, _⟩ => fun c => datG18 (atTc (U39 m)) (a18 m) (gblk18 (atTc (U39 m)) (a18 m)) c
  | ⟨19, _⟩ => fun c => datG19 (atTc (U41 m)) (a19 m) (gblk19 (atTc (U41 m)) (a19 m)) c
  | ⟨20, _⟩ => fun c => datG20 (atTc (U43 m)) (a20 m) (gblk20 (atTc (U43 m)) (a20 m)) c
  | ⟨21, _⟩ => fun c => datG21 (atTc (U45 m)) (a21 m) (gblk21 (atTc (U45 m)) (a21 m)) c
  | ⟨22, _⟩ => fun c => dat22 (atTc (U47 m)) c
  | ⟨23, _⟩ => fun c => datG23 (atTc (U49 m)) (a23 m) (gblk23 (atTc (U49 m)) (a23 m)) c
  | ⟨24, _⟩ => fun c => datG24 (atTc (U51 m)) (a24 m) (gblk24 (atTc (U51 m)) (a24 m)) c
  | ⟨25, _⟩ => fun c => datG25 (atTc (U53 m)) (a25 m) (gblk25 (atTc (U53 m)) (a25 m)) c
  | ⟨26, _⟩ => fun c => datG26 (atTc (U55 m)) (a26 m) (gblk26 (atTc (U55 m)) (a26 m)) c
  | ⟨27, _⟩ => fun c => datG27 (atTc (U57 m)) (a27 m) (gblk27 (atTc (U57 m)) (a27 m)) c
  | ⟨28, _⟩ => fun c => datG28 (atTc (U59 m)) (a28 m) (gblk28 (atTc (U59 m)) (a28 m)) c
  | ⟨29, _⟩ => fun c => datG29 (atTc (U61 m)) (a29 m) (gblk29 (atTc (U61 m)) (a29 m)) c
  | ⟨30, _⟩ => fun c => datG30 (atTc (U63 m)) (a30 m) (gblk30 (atTc (U63 m)) (a30 m)) c
  | ⟨31, _⟩ => fun c => datG31 (atTc (U65 m)) (a31 m) (gblk31 (atTc (U65 m)) (a31 m)) c
  | ⟨32, _⟩ => fun c => datG32 (atTc (U67 m)) (a32 m) (gblk32 (atTc (U67 m)) (a32 m)) c
  | ⟨33, _⟩ => fun c => datG33 (atTc (U69 m)) (a33 m) (gblk33 (atTc (U69 m)) (a33 m)) c
  | ⟨34, _⟩ => fun c => datG34 (atTc (U71 m)) (a34 m) (gblk34 (atTc (U71 m)) (a34 m)) c
  | ⟨35, _⟩ => fun c => datG35 (atTc (U73 m)) (a35 m) (gblk35 (atTc (U73 m)) (a35 m)) c
  | ⟨36, _⟩ => fun c => datG36 (atTc (U75 m)) (a36 m) (gblk36 (atTc (U75 m)) (a36 m)) c
  | ⟨37, _⟩ => fun c => datG37 (atTc (U77 m)) (a37 m) (gblk37 (atTc (U77 m)) (a37 m)) c
  | ⟨38, _⟩ => fun c => datG38 (atTc (U79 m)) (a38 m) (gblk38 (atTc (U79 m)) (a38 m)) c
  | ⟨39, _⟩ => fun c => dat39 (atTc (U81 m)) c
  | ⟨_ + 40, h⟩ => absurd h (Nat.not_lt.2 (Nat.le_add_left _ _))

end Cert.KernelIdeal.Hand

end
-- ==== Proof.KI.Tables.lean ====
/-
  THE GATHER REGIONS' INDEX TABLES. Each of the 36 row-gather regions reads its row indices from a prefetched table that a
  host slice wrote just before it: 85000 words of the source row followed by the self-loop words 0 … 49999 (regions 1–10
  and 12–21), or 100000 words of the source row (regions 23–30) or of the destination row (regions 31–38). No region and
  no later host operation writes a table's buffer or the vectors it is cut from, so at its region's entry each table is a
  closed term of the launch memory: `tbl<K>_eq`. Read at a position it is the vector it was cut from, further along by
  its chunk's offset: `tbl<K>_apply`. And when every word of the edge table is below 50000, so is every word of every
  table (the self-loop words are below 50000 outright): `tbl<K>_lt`.
-/
import proofs.«402049_j87351044866139_2_alg».proof.Proof.KI.RegionsP
import Idealize.ShloMosaic.Lib.Pipeline.Value
import Idealize.ShloMosaic.Lib.StableHlo.Run
import Idealize.ShloMosaic.Lib.ValueLayout

set_option maxRecDepth 1496

noncomputable section

namespace Cert.KernelIdeal.Hand

open Cert.KernelIdeal Cert.KernelIdeal.Gen Cert.KernelIdeal.GenP
open Idealize.ShloMosaic Idealize.ShloMosaic.TcCoe Idealize.ShloMosaic.StableHlo
open Idealize.SL.Sem

variable {F : FTy → Type} [FloatOps F]
variable (m : (ℓ : Loc nD τ sig) → Buf (Elt F) ℓ) (outs : Outs (F := F))

/-- The edge table on core `c` at launch. -/
abbrev edges (c : Dev nD) : IVec S2x800000 32 := V0 m c main_arg1

/-- Row 0 of the edge table as a vector of 800000 words: the slice of the row, its unit axis dropped. -/
def src (c : Dev nD) : IVec S800000 32 :=
  shapeCast S800000 (extractStridedSlice S1x800000 ![0, 0] (edges m c) slices_S2x800000_S1x800000_0_0) shapeCasts_S1x800000_S800000

/-- Row 1 of the edge table, likewise. -/
def dst (c : Dev nD) : IVec S800000 32 :=
  shapeCast S800000 (extractStridedSlice S1x800000 ![1, 0] (edges m c) slices_S2x800000_S1x800000_1_0) shapeCasts_S1x800000_S800000

/-- The source row followed by the 50000 self-loop words 0, 1, …, 49999. -/
def srcSl (c : Dev nD) : IVec S850000 32 :=
  concatenate S850000 0 [⟨S800000, src m c⟩, ⟨S50000, iotaInDim S50000 32 0⟩] concatenates_S800000_S50000_S850000_d0

theorem V1_v1 (c : Dev nD) : (V1 m c main_v1 : IVec S800000 32) = src m c := by
  dsimp only [V1, hostOps0]; after_results; rfl

theorem V1_v3 (c : Dev nD) : (V1 m c main_v3 : IVec S800000 32) = dst m c := by
  dsimp only [V1, hostOps0]; after_results; rfl

theorem V1_v5 (c : Dev nD) : (V1 m c main_v5 : IVec S850000 32) = srcSl m c := by
  dsimp only [V1, hostOps0]; after_results; rfl

/-! ## Reads at a position -/

/-- Word `p` of the source row is the edge table at (0, p). -/
theorem src_apply (c : Dev nD) (p : Fin 800000) : src m c (ValueIdx.ix1 p) = edges m c (ValueIdx.ix2 (0 : Fin 2) p) := by
  unfold src
  rw [ValueIdx.shapeCast_1a_a_apply]
  exact extractStridedSlice_apply _ _ _ _ _ (fun a => match a with | ⟨0, _⟩ => rfl | ⟨1, _⟩ => (Nat.zero_add _).symm)

/-- Word `p` of the destination row is the edge table at (1, p). -/
theorem dst_apply (c : Dev nD) (p : Fin 800000) : dst m c (ValueIdx.ix1 p) = edges m c (ValueIdx.ix2 (1 : Fin 2) p) := by
  unfold dst
  rw [ValueIdx.shapeCast_1a_a_apply]
  exact extractStridedSlice_apply _ _ _ _ _ (fun a => match a with | ⟨0, _⟩ => rfl | ⟨1, _⟩ => (Nat.zero_add _).symm)

/-- Below 800000 the concatenation reads the source row. -/
theorem srcSl_apply_lt (c : Dev nD) (p : Fin 850000) (hp : p.val < 800000) :
    srcSl m c (ValueIdx.ix1 p) = src m c (ValueIdx.ix1 ⟨p.val, hp⟩) := by
  unfold srcSl
  exact concatenate_pair_apply_left (t := S850000) (s₁ := S800000) (s₂ := S50000) 0 _ _ _ _ rfl _
    (fun b => match b with | ⟨0, _⟩ => rfl)

/-- From 800000 on it reads the self-loop words: position p holds p − 800000. -/
theorem srcSl_apply_ge (c : Dev nD) (p : Fin 850000) (hp : 800000 ≤ p.val) :
    srcSl m c (ValueIdx.ix1 p) = BitVec.ofNat 32 (p.val - 800000) := by
  unfold srcSl
  rw [concatenate_pair_apply_right (t := S850000) (s₁ := S800000) (s₂ := S50000) 0 _ _ _ (ValueIdx.ix1 p) rfl rfl
    (ValueIdx.ix1 ⟨p.val - 800000, by have := p.isLt; omega⟩)
    (fun b hb => absurd (Subsingleton.elim _ _) hb) (by show (p.val - 800000) + 800000 = p.val; omega)]
  rfl

/-- A slice of a vector read at position `k` is the vector at `off + k`. -/
theorem slice1_apply {α : Type} {n N : Nat} (off : Nat) (x : (⟨1, ![N]⟩ : Shape).Idx → α)
    (h : (⟨1, ![N]⟩ : Shape).Slices ![off] ⟨1, ![n]⟩) (k : Fin n) (hb : off + k.val < N) :
    extractStridedSlice ⟨1, ![n]⟩ ![off] x h (ValueIdx.ix1 k) = x (ValueIdx.ix1 ⟨off + k.val, hb⟩) :=
  extractStridedSlice_apply _ _ _ _ _ (fun a => match a with | ⟨0, _⟩ => rfl)

/-! ## Every word names a node -/

section Range
variable (c : Dev nD) (hm : ∀ i : S2x800000.Idx, ((V0 m c main_arg1 : IVec S2x800000 32) i).toNat < 50000)
include hm

theorem src_lt (k : S800000.Idx) : (src m c k).toNat < 50000 := by
  obtain ⟨p, rfl⟩ : ∃ p : Fin 800000, k = ValueIdx.ix1 p := ⟨k 0, ValueIdx.eq_ix1 k⟩
  rw [src_apply]; exact hm _

theorem dst_lt (k : S800000.Idx) : (dst m c k).toNat < 50000 := by
  obtain ⟨p, rfl⟩ : ∃ p : Fin 800000, k = ValueIdx.ix1 p := ⟨k 0, ValueIdx.eq_ix1 k⟩
  rw [dst_apply]; exact hm _

theorem srcSl_lt (k : S850000.Idx) : (srcSl m c k).toNat < 50000 := by
  obtain ⟨p, rfl⟩ : ∃ p : Fin 850000, k = ValueIdx.ix1 p := ⟨k 0, ValueIdx.eq_ix1 k⟩
  by_cases hp : p.val < 800000
  · rw [srcSl_apply_lt m c p hp]; exact src_lt m c hm _
  · rw [srcSl_apply_ge m c p (Nat.le_of_not_lt hp), BitVec.toNat_ofNat]
    have := p.isLt; omega

end Range

/-! ## The three vectors reach every region unchanged

No host stretch after the first writes `main_v1`, `main_v3` or `main_v5`, and no region may change them: one step per
valuation, each from the one before. -/

theorem v5_at2 (c : Dev nD) : V2 m c main_v5 = V1 m c main_v5 := V2_of m c main_v5 (by decide)
theorem v5_at3 (c : Dev nD) : V3 m c main_v5 = V1 m c main_v5 := (V3_of m c main_v5 (by decide)).trans (v5_at2 m c)
theorem v5_at4 (c : Dev nD) : V4 m outs c main_v5 = V1 m c main_v5 := (V4_of m outs c main_v5 (by decide)).trans (v5_at3 m c)
theorem v5_at5 (c : Dev nD) : V5 m outs c main_v5 = V1 m c main_v5 := (V5_of m outs c main_v5 (by decide)).trans (v5_at4 m outs c)
theorem v5_at6 (c : Dev nD) : V6 m outs c main_v5 = V1 m c main_v5 := (V6_of m outs c main_v5 (by decide)).trans (v5_at5 m outs c)
theorem v5_at7 (c : Dev nD) : V7 m outs c main_v5 = V1 m c main_v5 := (V7_of m outs c main_v5 (by decide)).trans (v5_at6 m outs c)
theorem v5_at8 (c : Dev nD) : V8 m outs c main_v5 = V1 m c main_v5 := (V8_of m outs c main_v5 (by decide)).trans (v5_at7 m outs c)
theorem v5_at9 (c : Dev nD) : V9 m outs c main_v5 = V1 m c main_v5 := (V9_of m outs c main_v5 (by decide)).trans (v5_at8 m outs c)
theorem v5_at10 (c : Dev nD) : V10 m outs c main_v5 = V1 m c main_v5 := (V10_of m outs c main_v5 (by decide)).trans (v5_at9 m outs c)
theorem v5_at11 (c : Dev nD) : V11 m outs c main_v5 = V1 m c main_v5 := (V11_of m outs c main_v5 (by decide)).trans (v5_at10 m outs c)
theorem v5_at12 (c : Dev nD) : V12 m outs c main_v5 = V1 m c main_v5 := (V12_of m outs c main_v5 (by decide)).trans (v5_at11 m outs c)
theorem v5_at13 (c : Dev nD) : V13 m outs c main_v5 = V1 m c main_v5 := (V13_of m outs c main_v5 (by decide)).trans (v5_at12 m outs c)
theorem v5_at14 (c : Dev nD) : V14 m outs c main_v5 = V1 m c main_v5 := (V14_of m outs c main_v5 (by decide)).trans (v5_at13 m outs c)
theorem v5_at15 (c : Dev nD) : V15 m outs c main_v5 = V1 m c main_v5 := (V15_of m outs c main_v5 (by decide)).trans (v5_at14 m outs c)
theorem v5_at16 (c : Dev nD) : V16 m outs c main_v5 = V1 m c main_v5 := (V16_of m outs c main_v5 (by decide)).trans (v5_at15 m outs c)
theorem v5_at17 (c : Dev nD) : V17 m outs c main_v5 = V1 m c main_v5 := (V17_of m outs c main_v5 (by decide)).trans (v5_at16 m outs c)
theorem v5_at18 (c : Dev nD) : V18 m outs c main_v5 = V1 m c main_v5 := (V18_of m outs c main_v5 (by decide)).trans (v5_at17 m outs c)
theorem v5_at19 (c : Dev nD) : V19 m outs c main_v5 = V1 m c main_v5 := (V19_of m outs c main_v5 (by decide)).trans (v5_at18 m outs c)
theorem v5_at20 (c : Dev nD) : V20 m outs c main_v5 = V1 m c main_v5 := (V20_of m outs c main_v5 (by decide)).trans (v5_at19 m outs c)
theorem v5_at21 (c : Dev nD) : V21 m outs c main_v5 = V1 m c main_v5 := (V21_of m outs c main_v5 (by decide)).trans (v5_at20 m outs c)
theorem v5_at22 (c : Dev nD) : V22 m outs c main_v5 = V1 m c main_v5 := (V22_of m outs c main_v5 (by decide)).trans (v5_at21 m outs c)
theorem v5_at23 (c : Dev nD) : V23 m outs c main_v5 = V1 m c main_v5 := (V23_of m outs c main_v5 (by decide)).trans (v5_at22 m outs c)
theorem v5_at24 (c : Dev nD) : V24 m outs c main_v5 = V1 m c main_v5 := (V24_of m outs c main_v5 (by decide)).trans (v5_at23 m outs c)
theorem v5_at25 (c : Dev nD) : V25 m outs c main_v5 = V1 m c main_v5 := (V25_of m outs c main_v5 (by decide)).trans (v5_at24 m outs c)
theorem v5_at26 (c : Dev nD) : V26 m outs c main_v5 = V1 m c main_v5 := (V26_of m outs c main_v5 (by decide)).trans (v5_at25 m outs c)
theorem v5_at27 (c : Dev nD) : V27 m outs c main_v5 = V1 m c main_v5 := (V27_of m outs c main_v5 (by decide)).trans (v5_at26 m outs c)
theorem v5_at28 (c : Dev nD) : V28 m outs c main_v5 = V1 m c main_v5 := (V28_of m outs c main_v5 (by decide)).trans (v5_at27 m outs c)
theorem v5_at29 (c : Dev nD) : V29 m outs c main_v5 = V1 m c main_v5 := (V29_of m outs c main_v5 (by decide)).trans (v5_at28 m outs c)
theorem v5_at30 (c : Dev nD) : V30 m outs c main_v5 = V1 m c main_v5 := (V30_of m outs c main_v5 (by decide)).trans (v5_at29 m outs c)
theorem v5_at31 (c : Dev nD) : V31 m outs c main_v5 = V1 m c main_v5 := (V31_of m outs c main_v5 (by decide)).trans (v5_at30 m outs c)
theorem v5_at32 (c : Dev nD) : V32 m outs c main_v5 = V1 m c main_v5 := (V32_of m outs c main_v5 (by decide)).trans (v5_at31 m outs c)
theorem v5_at33 (c : Dev nD) : V33 m outs c main_v5 = V1 m c main_v5 := (V33_of m outs c main_v5 (by decide)).trans (v5_at32 m outs c)
theorem v5_at34 (c : Dev nD) : V34 m outs c main_v5 = V1 m c main_v5 := (V34_of m outs c main_v5 (by decide)).trans (v5_at33 m outs c)
theorem v5_at35 (c : Dev nD) : V35 m outs c main_v5 = V1 m c main_v5 := (V35_of m outs c main_v5 (by decide)).trans (v5_at34 m outs c)
theorem v5_at36 (c : Dev nD) : V36 m outs c main_v5 = V1 m c main_v5 := (V36_of m outs c main_v5 (by decide)).trans (v5_at35 m outs c)
theorem v5_at37 (c : Dev nD) : V37 m outs c main_v5 = V1 m c main_v5 := (V37_of m outs c main_v5 (by decide)).trans (v5_at36 m outs c)
theorem v5_at38 (c : Dev nD) : V38 m outs c main_v5 = V1 m c main_v5 := (V38_of m outs c main_v5 (by decide)).trans (v5_at37 m outs c)
theorem v5_at39 (c : Dev nD) : V39 m outs c main_v5 = V1 m c main_v5 := (V39_of m outs c main_v5 (by decide)).trans (v5_at38 m outs c)
theorem v5_at40 (c : Dev nD) : V40 m outs c main_v5 = V1 m c main_v5 := (V40_of m outs c main_v5 (by decide)).trans (v5_at39 m outs c)
theorem v5_at41 (c : Dev nD) : V41 m outs c main_v5 = V1 m c main_v5 := (V41_of m outs c main_v5 (by decide)).trans (v5_at40 m outs c)
theorem v5_at42 (c : Dev nD) : V42 m outs c main_v5 = V1 m c main_v5 := (V42_of m outs c main_v5 (by decide)).trans (v5_at41 m outs c)
theorem v5_at43 (c : Dev nD) : V43 m outs c main_v5 = V1 m c main_v5 := (V43_of m outs c main_v5 (by decide)).trans (v5_at42 m outs c)
theorem v5_at44 (c : Dev nD) : V44 m outs c main_v5 = V1 m c main_v5 := (V44_of m outs c main_v5 (by decide)).trans (v5_at43 m outs c)
theorem v1_at2 (c : Dev nD) : V2 m c main_v1 = V1 m c main_v1 := V2_of m c main_v1 (by decide)
theorem v1_at3 (c : Dev nD) : V3 m c main_v1 = V1 m c main_v1 := (V3_of m c main_v1 (by decide)).trans (v1_at2 m c)
theorem v1_at4 (c : Dev nD) : V4 m outs c main_v1 = V1 m c main_v1 := (V4_of m outs c main_v1 (by decide)).trans (v1_at3 m c)
theorem v1_at5 (c : Dev nD) : V5 m outs c main_v1 = V1 m c main_v1 := (V5_of m outs c main_v1 (by decide)).trans (v1_at4 m outs c)
theorem v1_at6 (c : Dev nD) : V6 m outs c main_v1 = V1 m c main_v1 := (V6_of m outs c main_v1 (by decide)).trans (v1_at5 m outs c)
theorem v1_at7 (c : Dev nD) : V7 m outs c main_v1 = V1 m c main_v1 := (V7_of m outs c main_v1 (by decide)).trans (v1_at6 m outs c)
theorem v1_at8 (c : Dev nD) : V8 m outs c main_v1 = V1 m c main_v1 := (V8_of m outs c main_v1 (by decide)).trans (v1_at7 m outs c)
theorem v1_at9 (c : Dev nD) : V9 m outs c main_v1 = V1 m c main_v1 := (V9_of m outs c main_v1 (by decide)).trans (v1_at8 m outs c)
theorem v1_at10 (c : Dev nD) : V10 m outs c main_v1 = V1 m c main_v1 := (V10_of m outs c main_v1 (by decide)).trans (v1_at9 m outs c)
theorem v1_at11 (c : Dev nD) : V11 m outs c main_v1 = V1 m c main_v1 := (V11_of m outs c main_v1 (by decide)).trans (v1_at10 m outs c)
theorem v1_at12 (c : Dev nD) : V12 m outs c main_v1 = V1 m c main_v1 := (V12_of m outs c main_v1 (by decide)).trans (v1_at11 m outs c)
theorem v1_at13 (c : Dev nD) : V13 m outs c main_v1 = V1 m c main_v1 := (V13_of m outs c main_v1 (by decide)).trans (v1_at12 m outs c)
theorem v1_at14 (c : Dev nD) : V14 m outs c main_v1 = V1 m c main_v1 := (V14_of m outs c main_v1 (by decide)).trans (v1_at13 m outs c)
theorem v1_at15 (c : Dev nD) : V15 m outs c main_v1 = V1 m c main_v1 := (V15_of m outs c main_v1 (by decide)).trans (v1_at14 m outs c)
theorem v1_at16 (c : Dev nD) : V16 m outs c main_v1 = V1 m c main_v1 := (V16_of m outs c main_v1 (by decide)).trans (v1_at15 m outs c)
theorem v1_at17 (c : Dev nD) : V17 m outs c main_v1 = V1 m c main_v1 := (V17_of m outs c main_v1 (by decide)).trans (v1_at16 m outs c)
theorem v1_at18 (c : Dev nD) : V18 m outs c main_v1 = V1 m c main_v1 := (V18_of m outs c main_v1 (by decide)).trans (v1_at17 m outs c)
theorem v1_at19 (c : Dev nD) : V19 m outs c main_v1 = V1 m c main_v1 := (V19_of m outs c main_v1 (by decide)).trans (v1_at18 m outs c)
theorem v1_at20 (c : Dev nD) : V20 m outs c main_v1 = V1 m c main_v1 := (V20_of m outs c main_v1 (by decide)).trans (v1_at19 m outs c)
theorem v1_at21 (c : Dev nD) : V21 m outs c main_v1 = V1 m c main_v1 := (V21_of m outs c main_v1 (by decide)).trans (v1_at20 m outs c)
theorem v1_at22 (c : Dev nD) : V22 m outs c main_v1 = V1 m c main_v1 := (V22_of m outs c main_v1 (by decide)).trans (v1_at21 m outs c)
theorem v1_at23 (c : Dev nD) : V23 m outs c main_v1 = V1 m c main_v1 := (V23_of m outs c main_v1 (by decide)).trans (v1_at22 m outs c)
theorem v1_at24 (c : Dev nD) : V24 m outs c main_v1 = V1 m c main_v1 := (V24_of m outs c main_v1 (by decide)).trans (v1_at23 m outs c)
theorem v1_at25 (c : Dev nD) : V25 m outs c main_v1 = V1 m c main_v1 := (V25_of m outs c main_v1 (by decide)).trans (v1_at24 m outs c)
theorem v1_at26 (c : Dev nD) : V26 m outs c main_v1 = V1 m c main_v1 := (V26_of m outs c main_v1 (by decide)).trans (v1_at25 m outs c)
theorem v1_at27 (c : Dev nD) : V27 m outs c main_v1 = V1 m c main_v1 := (V27_of m outs c main_v1 (by decide)).trans (v1_at26 m outs c)
theorem v1_at28 (c : Dev nD) : V28 m outs c main_v1 = V1 m c main_v1 := (V28_of m outs c main_v1 (by decide)).trans (v1_at27 m outs c)
theorem v1_at29 (c : Dev nD) : V29 m outs c main_v1 = V1 m c main_v1 := (V29_of m outs c main_v1 (by decide)).trans (v1_at28 m outs c)
theorem v1_at30 (c : Dev nD) : V30 m outs c main_v1 = V1 m c main_v1 := (V30_of m outs c main_v1 (by decide)).trans (v1_at29 m outs c)
theorem v1_at31 (c : Dev nD) : V31 m outs c main_v1 = V1 m c main_v1 := (V31_of m outs c main_v1 (by decide)).trans (v1_at30 m outs c)
theorem v1_at32 (c : Dev nD) : V32 m outs c main_v1 = V1 m c main_v1 := (V32_of m outs c main_v1 (by decide)).trans (v1_at31 m outs c)
theorem v1_at33 (c : Dev nD) : V33 m outs c main_v1 = V1 m c main_v1 := (V33_of m outs c main_v1 (by decide)).trans (v1_at32 m outs c)
theorem v1_at34 (c : Dev nD) : V34 m outs c main_v1 = V1 m c main_v1 := (V34_of m outs c main_v1 (by decide)).trans (v1_at33 m outs c)
theorem v1_at35 (c : Dev nD) : V35 m outs c main_v1 = V1 m c main_v1 := (V35_of m outs c main_v1 (by decide)).trans (v1_at34 m outs c)
theorem v1_at36 (c : Dev nD) : V36 m outs c main_v1 = V1 m c main_v1 := (V36_of m outs c main_v1 (by decide)).trans (v1_at35 m outs c)
theorem v1_at37 (c : Dev nD) : V37 m outs c main_v1 = V1 m c main_v1 := (V37_of m outs c main_v1 (by decide)).trans (v1_at36 m outs c)
theorem v1_at38 (c : Dev nD) : V38 m outs c main_v1 = V1 m c main_v1 := (V38_of m outs c main_v1 (by decide)).trans (v1_at37 m outs c)
theorem v1_at39 (c : Dev nD) : V39 m outs c main_v1 = V1 m c main_v1 := (V39_of m outs c main_v1 (by decide)).trans (v1_at38 m outs c)
theorem v1_at40 (c : Dev nD) : V40 m outs c main_v1 = V1 m c main_v1 := (V40_of m outs c main_v1 (by decide)).trans (v1_at39 m outs c)
theorem v1_at41 (c : Dev nD) : V41 m outs c main_v1 = V1 m c main_v1 := (V41_of m outs c main_v1 (by decide)).trans (v1_at40 m outs c)
theorem v1_at42 (c : Dev nD) : V42 m outs c main_v1 = V1 m c main_v1 := (V42_of m outs c main_v1 (by decide)).trans (v1_at41 m outs c)
theorem v1_at43 (c : Dev nD) : V43 m outs c main_v1 = V1 m c main_v1 := (V43_of m outs c main_v1 (by decide)).trans (v1_at42 m outs c)
theorem v1_at44 (c : Dev nD) : V44 m outs c main_v1 = V1 m c main_v1 := (V44_of m outs c main_v1 (by decide)).trans (v1_at43 m outs c)
theorem v1_at45 (c : Dev nD) : V45 m outs c main_v1 = V1 m c main_v1 := (V45_of m outs c main_v1 (by decide)).trans (v1_at44 m outs c)
theorem v1_at46 (c : Dev nD) : V46 m outs c main_v1 = V1 m c main_v1 := (V46_of m outs c main_v1 (by decide)).trans (v1_at45 m outs c)
theorem v1_at47 (c : Dev nD) : V47 m outs c main_v1 = V1 m c main_v1 := (V47_of m outs c main_v1 (by decide)).trans (v1_at46 m outs c)
theorem v1_at48 (c : Dev nD) : V48 m outs c main_v1 = V1 m c main_v1 := (V48_of m outs c main_v1 (by decide)).trans (v1_at47 m outs c)
theorem v1_at49 (c : Dev nD) : V49 m outs c main_v1 = V1 m c main_v1 := (V49_of m outs c main_v1 (by decide)).trans (v1_at48 m outs c)
theorem v1_at50 (c : Dev nD) : V50 m outs c main_v1 = V1 m c main_v1 := (V50_of m outs c main_v1 (by decide)).trans (v1_at49 m outs c)
theorem v1_at51 (c : Dev nD) : V51 m outs c main_v1 = V1 m c main_v1 := (V51_of m outs c main_v1 (by decide)).trans (v1_at50 m outs c)
theorem v1_at52 (c : Dev nD) : V52 m outs c main_v1 = V1 m c main_v1 := (V52_of m outs c main_v1 (by decide)).trans (v1_at51 m outs c)
theorem v1_at53 (c : Dev nD) : V53 m outs c main_v1 = V1 m c main_v1 := (V53_of m outs c main_v1 (by decide)).trans (v1_at52 m outs c)
theorem v1_at54 (c : Dev nD) : V54 m outs c main_v1 = V1 m c main_v1 := (V54_of m outs c main_v1 (by decide)).trans (v1_at53 m outs c)
theorem v1_at55 (c : Dev nD) : V55 m outs c main_v1 = V1 m c main_v1 := (V55_of m outs c main_v1 (by decide)).trans (v1_at54 m outs c)
theorem v1_at56 (c : Dev nD) : V56 m outs c main_v1 = V1 m c main_v1 := (V56_of m outs c main_v1 (by decide)).trans (v1_at55 m outs c)
theorem v1_at57 (c : Dev nD) : V57 m outs c main_v1 = V1 m c main_v1 := (V57_of m outs c main_v1 (by decide)).trans (v1_at56 m outs c)
theorem v1_at58 (c : Dev nD) : V58 m outs c main_v1 = V1 m c main_v1 := (V58_of m outs c main_v1 (by decide)).trans (v1_at57 m outs c)
theorem v1_at59 (c : Dev nD) : V59 m outs c main_v1 = V1 m c main_v1 := (V59_of m outs c main_v1 (by decide)).trans (v1_at58 m outs c)
theorem v1_at60 (c : Dev nD) : V60 m outs c main_v1 = V1 m c main_v1 := (V60_of m outs c main_v1 (by decide)).trans (v1_at59 m outs c)
theorem v1_at61 (c : Dev nD) : V61 m outs c main_v1 = V1 m c main_v1 := (V61_of m outs c main_v1 (by decide)).trans (v1_at60 m outs c)
theorem v1_at62 (c : Dev nD) : V62 m outs c main_v1 = V1 m c main_v1 := (V62_of m outs c main_v1 (by decide)).trans (v1_at61 m outs c)
theorem v3_at2 (c : Dev nD) : V2 m c main_v3 = V1 m c main_v3 := V2_of m c main_v3 (by decide)
theorem v3_at3 (c : Dev nD) : V3 m c main_v3 = V1 m c main_v3 := (V3_of m c main_v3 (by decide)).trans (v3_at2 m c)
theorem v3_at4 (c : Dev nD) : V4 m outs c main_v3 = V1 m c main_v3 := (V4_of m outs c main_v3 (by decide)).trans (v3_at3 m c)
theorem v3_at5 (c : Dev nD) : V5 m outs c main_v3 = V1 m c main_v3 := (V5_of m outs c main_v3 (by decide)).trans (v3_at4 m outs c)
theorem v3_at6 (c : Dev nD) : V6 m outs c main_v3 = V1 m c main_v3 := (V6_of m outs c main_v3 (by decide)).trans (v3_at5 m outs c)
theorem v3_at7 (c : Dev nD) : V7 m outs c main_v3 = V1 m c main_v3 := (V7_of m outs c main_v3 (by decide)).trans (v3_at6 m outs c)
theorem v3_at8 (c : Dev nD) : V8 m outs c main_v3 = V1 m c main_v3 := (V8_of m outs c main_v3 (by decide)).trans (v3_at7 m outs c)
theorem v3_at9 (c : Dev nD) : V9 m outs c main_v3 = V1 m c main_v3 := (V9_of m outs c main_v3 (by decide)).trans (v3_at8 m outs c)
theorem v3_at10 (c : Dev nD) : V10 m outs c main_v3 = V1 m c main_v3 := (V10_of m outs c main_v3 (by decide)).trans (v3_at9 m outs c)
theorem v3_at11 (c : Dev nD) : V11 m outs c main_v3 = V1 m c main_v3 := (V11_of m outs c main_v3 (by decide)).trans (v3_at10 m outs c)
theorem v3_at12 (c : Dev nD) : V12 m outs c main_v3 = V1 m c main_v3 := (V12_of m outs c main_v3 (by decide)).trans (v3_at11 m outs c)
theorem v3_at13 (c : Dev nD) : V13 m outs c main_v3 = V1 m c main_v3 := (V13_of m outs c main_v3 (by decide)).trans (v3_at12 m outs c)
theorem v3_at14 (c : Dev nD) : V14 m outs c main_v3 = V1 m c main_v3 := (V14_of m outs c main_v3 (by decide)).trans (v3_at13 m outs c)
theorem v3_at15 (c : Dev nD) : V15 m outs c main_v3 = V1 m c main_v3 := (V15_of m outs c main_v3 (by decide)).trans (v3_at14 m outs c)
theorem v3_at16 (c : Dev nD) : V16 m outs c main_v3 = V1 m c main_v3 := (V16_of m outs c main_v3 (by decide)).trans (v3_at15 m outs c)
theorem v3_at17 (c : Dev nD) : V17 m outs c main_v3 = V1 m c main_v3 := (V17_of m outs c main_v3 (by decide)).trans (v3_at16 m outs c)
theorem v3_at18 (c : Dev nD) : V18 m outs c main_v3 = V1 m c main_v3 := (V18_of m outs c main_v3 (by decide)).trans (v3_at17 m outs c)
theorem v3_at19 (c : Dev nD) : V19 m outs c main_v3 = V1 m c main_v3 := (V19_of m outs c main_v3 (by decide)).trans (v3_at18 m outs c)
theorem v3_at20 (c : Dev nD) : V20 m outs c main_v3 = V1 m c main_v3 := (V20_of m outs c main_v3 (by decide)).trans (v3_at19 m outs c)
theorem v3_at21 (c : Dev nD) : V21 m outs c main_v3 = V1 m c main_v3 := (V21_of m outs c main_v3 (by decide)).trans (v3_at20 m outs c)
theorem v3_at22 (c : Dev nD) : V22 m outs c main_v3 = V1 m c main_v3 := (V22_of m outs c main_v3 (by decide)).trans (v3_at21 m outs c)
theorem v3_at23 (c : Dev nD) : V23 m outs c main_v3 = V1 m c main_v3 := (V23_of m outs c main_v3 (by decide)).trans (v3_at22 m outs c)
theorem v3_at24 (c : Dev nD) : V24 m outs c main_v3 = V1 m c main_v3 := (V24_of m outs c main_v3 (by decide)).trans (v3_at23 m outs c)
theorem v3_at25 (c : Dev nD) : V25 m outs c main_v3 = V1 m c main_v3 := (V25_of m outs c main_v3 (by decide)).trans (v3_at24 m outs c)
theorem v3_at26 (c : Dev nD) : V26 m outs c main_v3 = V1 m c main_v3 := (V26_of m outs c main_v3 (by decide)).trans (v3_at25 m outs c)
theorem v3_at27 (c : Dev nD) : V27 m outs c main_v3 = V1 m c main_v3 := (V27_of m outs c main_v3 (by decide)).trans (v3_at26 m outs c)
theorem v3_at28 (c : Dev nD) : V28 m outs c main_v3 = V1 m c main_v3 := (V28_of m outs c main_v3 (by decide)).trans (v3_at27 m outs c)
theorem v3_at29 (c : Dev nD) : V29 m outs c main_v3 = V1 m c main_v3 := (V29_of m outs c main_v3 (by decide)).trans (v3_at28 m outs c)
theorem v3_at30 (c : Dev nD) : V30 m outs c main_v3 = V1 m c main_v3 := (V30_of m outs c main_v3 (by decide)).trans (v3_at29 m outs c)
theorem v3_at31 (c : Dev nD) : V31 m outs c main_v3 = V1 m c main_v3 := (V31_of m outs c main_v3 (by decide)).trans (v3_at30 m outs c)
theorem v3_at32 (c : Dev nD) : V32 m outs c main_v3 = V1 m c main_v3 := (V32_of m outs c main_v3 (by decide)).trans (v3_at31 m outs c)
theorem v3_at33 (c : Dev nD) : V33 m outs c main_v3 = V1 m c main_v3 := (V33_of m outs c main_v3 (by decide)).trans (v3_at32 m outs c)
theorem v3_at34 (c : Dev nD) : V34 m outs c main_v3 = V1 m c main_v3 := (V34_of m outs c main_v3 (by decide)).trans (v3_at33 m outs c)
theorem v3_at35 (c : Dev nD) : V35 m outs c main_v3 = V1 m c main_v3 := (V35_of m outs c main_v3 (by decide)).trans (v3_at34 m outs c)
theorem v3_at36 (c : Dev nD) : V36 m outs c main_v3 = V1 m c main_v3 := (V36_of m outs c main_v3 (by decide)).trans (v3_at35 m outs c)
theorem v3_at37 (c : Dev nD) : V37 m outs c main_v3 = V1 m c main_v3 := (V37_of m outs c main_v3 (by decide)).trans (v3_at36 m outs c)
theorem v3_at38 (c : Dev nD) : V38 m outs c main_v3 = V1 m c main_v3 := (V38_of m outs c main_v3 (by decide)).trans (v3_at37 m outs c)
theorem v3_at39 (c : Dev nD) : V39 m outs c main_v3 = V1 m c main_v3 := (V39_of m outs c main_v3 (by decide)).trans (v3_at38 m outs c)
theorem v3_at40 (c : Dev nD) : V40 m outs c main_v3 = V1 m c main_v3 := (V40_of m outs c main_v3 (by decide)).trans (v3_at39 m outs c)
theorem v3_at41 (c : Dev nD) : V41 m outs c main_v3 = V1 m c main_v3 := (V41_of m outs c main_v3 (by decide)).trans (v3_at40 m outs c)
theorem v3_at42 (c : Dev nD) : V42 m outs c main_v3 = V1 m c main_v3 := (V42_of m outs c main_v3 (by decide)).trans (v3_at41 m outs c)
theorem v3_at43 (c : Dev nD) : V43 m outs c main_v3 = V1 m c main_v3 := (V43_of m outs c main_v3 (by decide)).trans (v3_at42 m outs c)
theorem v3_at44 (c : Dev nD) : V44 m outs c main_v3 = V1 m c main_v3 := (V44_of m outs c main_v3 (by decide)).trans (v3_at43 m outs c)
theorem v3_at45 (c : Dev nD) : V45 m outs c main_v3 = V1 m c main_v3 := (V45_of m outs c main_v3 (by decide)).trans (v3_at44 m outs c)
theorem v3_at46 (c : Dev nD) : V46 m outs c main_v3 = V1 m c main_v3 := (V46_of m outs c main_v3 (by decide)).trans (v3_at45 m outs c)
theorem v3_at47 (c : Dev nD) : V47 m outs c main_v3 = V1 m c main_v3 := (V47_of m outs c main_v3 (by decide)).trans (v3_at46 m outs c)
theorem v3_at48 (c : Dev nD) : V48 m outs c main_v3 = V1 m c main_v3 := (V48_of m outs c main_v3 (by decide)).trans (v3_at47 m outs c)
theorem v3_at49 (c : Dev nD) : V49 m outs c main_v3 = V1 m c main_v3 := (V49_of m outs c main_v3 (by decide)).trans (v3_at48 m outs c)
theorem v3_at50 (c : Dev nD) : V50 m outs c main_v3 = V1 m c main_v3 := (V50_of m outs c main_v3 (by decide)).trans (v3_at49 m outs c)
theorem v3_at51 (c : Dev nD) : V51 m outs c main_v3 = V1 m c main_v3 := (V51_of m outs c main_v3 (by decide)).trans (v3_at50 m outs c)
theorem v3_at52 (c : Dev nD) : V52 m outs c main_v3 = V1 m c main_v3 := (V52_of m outs c main_v3 (by decide)).trans (v3_at51 m outs c)
theorem v3_at53 (c : Dev nD) : V53 m outs c main_v3 = V1 m c main_v3 := (V53_of m outs c main_v3 (by decide)).trans (v3_at52 m outs c)
theorem v3_at54 (c : Dev nD) : V54 m outs c main_v3 = V1 m c main_v3 := (V54_of m outs c main_v3 (by decide)).trans (v3_at53 m outs c)
theorem v3_at55 (c : Dev nD) : V55 m outs c main_v3 = V1 m c main_v3 := (V55_of m outs c main_v3 (by decide)).trans (v3_at54 m outs c)
theorem v3_at56 (c : Dev nD) : V56 m outs c main_v3 = V1 m c main_v3 := (V56_of m outs c main_v3 (by decide)).trans (v3_at55 m outs c)
theorem v3_at57 (c : Dev nD) : V57 m outs c main_v3 = V1 m c main_v3 := (V57_of m outs c main_v3 (by decide)).trans (v3_at56 m outs c)
theorem v3_at58 (c : Dev nD) : V58 m outs c main_v3 = V1 m c main_v3 := (V58_of m outs c main_v3 (by decide)).trans (v3_at57 m outs c)
theorem v3_at59 (c : Dev nD) : V59 m outs c main_v3 = V1 m c main_v3 := (V59_of m outs c main_v3 (by decide)).trans (v3_at58 m outs c)
theorem v3_at60 (c : Dev nD) : V60 m outs c main_v3 = V1 m c main_v3 := (V60_of m outs c main_v3 (by decide)).trans (v3_at59 m outs c)
theorem v3_at61 (c : Dev nD) : V61 m outs c main_v3 = V1 m c main_v3 := (V61_of m outs c main_v3 (by decide)).trans (v3_at60 m outs c)
theorem v3_at62 (c : Dev nD) : V62 m outs c main_v3 = V1 m c main_v3 := (V62_of m outs c main_v3 (by decide)).trans (v3_at61 m outs c)
theorem v3_at63 (c : Dev nD) : V63 m outs c main_v3 = V1 m c main_v3 := (V63_of m outs c main_v3 (by decide)).trans (v3_at62 m outs c)
theorem v3_at64 (c : Dev nD) : V64 m outs c main_v3 = V1 m c main_v3 := (V64_of m outs c main_v3 (by decide)).trans (v3_at63 m outs c)
theorem v3_at65 (c : Dev nD) : V65 m outs c main_v3 = V1 m c main_v3 := (V65_of m outs c main_v3 (by decide)).trans (v3_at64 m outs c)
theorem v3_at66 (c : Dev nD) : V66 m outs c main_v3 = V1 m c main_v3 := (V66_of m outs c main_v3 (by decide)).trans (v3_at65 m outs c)
theorem v3_at67 (c : Dev nD) : V67 m outs c main_v3 = V1 m c main_v3 := (V67_of m outs c main_v3 (by decide)).trans (v3_at66 m outs c)
theorem v3_at68 (c : Dev nD) : V68 m outs c main_v3 = V1 m c main_v3 := (V68_of m outs c main_v3 (by decide)).trans (v3_at67 m outs c)
theorem v3_at69 (c : Dev nD) : V69 m outs c main_v3 = V1 m c main_v3 := (V69_of m outs c main_v3 (by decide)).trans (v3_at68 m outs c)
theorem v3_at70 (c : Dev nD) : V70 m outs c main_v3 = V1 m c main_v3 := (V70_of m outs c main_v3 (by decide)).trans (v3_at69 m outs c)
theorem v3_at71 (c : Dev nD) : V71 m outs c main_v3 = V1 m c main_v3 := (V71_of m outs c main_v3 (by decide)).trans (v3_at70 m outs c)
theorem v3_at72 (c : Dev nD) : V72 m outs c main_v3 = V1 m c main_v3 := (V72_of m outs c main_v3 (by decide)).trans (v3_at71 m outs c)
theorem v3_at73 (c : Dev nD) : V73 m outs c main_v3 = V1 m c main_v3 := (V73_of m outs c main_v3 (by decide)).trans (v3_at72 m outs c)
theorem v3_at74 (c : Dev nD) : V74 m outs c main_v3 = V1 m c main_v3 := (V74_of m outs c main_v3 (by decide)).trans (v3_at73 m outs c)
theorem v3_at75 (c : Dev nD) : V75 m outs c main_v3 = V1 m c main_v3 := (V75_of m outs c main_v3 (by decide)).trans (v3_at74 m outs c)
theorem v3_at76 (c : Dev nD) : V76 m outs c main_v3 = V1 m c main_v3 := (V76_of m outs c main_v3 (by decide)).trans (v3_at75 m outs c)
theorem v3_at77 (c : Dev nD) : V77 m outs c main_v3 = V1 m c main_v3 := (V77_of m outs c main_v3 (by decide)).trans (v3_at76 m outs c)
theorem v3_at78 (c : Dev nD) : V78 m outs c main_v3 = V1 m c main_v3 := (V78_of m outs c main_v3 (by decide)).trans (v3_at77 m outs c)

/-! ## Region 1 -/

/-- What region 1's index table holds: words 0 … 84999 of the source row with self-loops. -/
def tbl1 (c : Dev nD) : IVec S85000 32 := extractStridedSlice S85000 ![0] (srcSl m c) slices_S850000_S85000_0

theorem tbl1_eq (c : Dev nD) : (V5 m outs c main_v34 : IVec S85000 32) = tbl1 m c := by
  have e : (V5 m outs c main_v34 : IVec S85000 32)
      = extractStridedSlice S85000 ![0] (V4 m outs c main_v5 : IVec S850000 32) slices_S850000_S85000_0 := by
    dsimp only [V5, hostOps1]; after_results <;> rfl
  rw [e, v5_at4, V1_v5]; rfl

theorem tbl1_apply (c : Dev nD) (k : Fin 85000) :
    tbl1 m c (ValueIdx.ix1 k) = srcSl m c (ValueIdx.ix1 ⟨0 + k.val, by have := k.isLt; omega⟩) :=
  slice1_apply 0 _ _ k _

theorem tbl1_lt (c : Dev nD) (hm : ∀ i : S2x800000.Idx, ((V0 m c main_arg1 : IVec S2x800000 32) i).toNat < 50000) :
    ∀ k, (tbl1 m c k).toNat < 50000 := by
  intro k
  obtain ⟨p, rfl⟩ : ∃ p : Fin 85000, k = ValueIdx.ix1 p := ⟨k 0, ValueIdx.eq_ix1 k⟩
  rw [tbl1_apply]; exact srcSl_lt m c hm _

/-! ## Region 2 -/

/-- What region 2's index table holds: words 85000 … 169999 of the source row with self-loops. -/
def tbl2 (c : Dev nD) : IVec S85000 32 := extractStridedSlice S85000 ![85000] (srcSl m c) slices_S850000_S85000_85000

theorem tbl2_eq (c : Dev nD) : (V7 m outs c main_v36 : IVec S85000 32) = tbl2 m c := by
  have e : (V7 m outs c main_v36 : IVec S85000 32)
      = extractStridedSlice S85000 ![85000] (V6 m outs c main_v5 : IVec S850000 32) slices_S850000_S85000_85000 := by
    dsimp only [V7, hostOps2]; after_results <;> rfl
  rw [e, v5_at6, V1_v5]; rfl

theorem tbl2_apply (c : Dev nD) (k : Fin 85000) :
    tbl2 m c (ValueIdx.ix1 k) = srcSl m c (ValueIdx.ix1 ⟨85000 + k.val, by have := k.isLt; omega⟩) :=
  slice1_apply 85000 _ _ k _

theorem tbl2_lt (c : Dev nD) (hm : ∀ i : S2x800000.Idx, ((V0 m c main_arg1 : IVec S2x800000 32) i).toNat < 50000) :
    ∀ k, (tbl2 m c k).toNat < 50000 := by
  intro k
  obtain ⟨p, rfl⟩ : ∃ p : Fin 85000, k = ValueIdx.ix1 p := ⟨k 0, ValueIdx.eq_ix1 k⟩
  rw [tbl2_apply]; exact srcSl_lt m c hm _

/-! ## Region 3 -/

/-- What region 3's index table holds: words 170000 … 254999 of the source row with self-loops. -/
def tbl3 (c : Dev nD) : IVec S85000 32 := extractStridedSlice S85000 ![170000] (srcSl m c) slices_S850000_S85000_170000

theorem tbl3_eq (c : Dev nD) : (V9 m outs c main_v38 : IVec S85000 32) = tbl3 m c := by
  have e : (V9 m outs c main_v38 : IVec S85000 32)
      = extractStridedSlice S85000 ![170000] (V8 m outs c main_v5 : IVec S850000 32) slices_S850000_S85000_170000 := by
    dsimp only [V9, hostOps3]; after_results <;> rfl
  rw [e, v5_at8, V1_v5]; rfl

theorem tbl3_apply (c : Dev nD) (k : Fin 85000) :
    tbl3 m c (ValueIdx.ix1 k) = srcSl m c (ValueIdx.ix1 ⟨170000 + k.val, by have := k.isLt; omega⟩) :=
  slice1_apply 170000 _ _ k _

theorem tbl3_lt (c : Dev nD) (hm : ∀ i : S2x800000.Idx, ((V0 m c main_arg1 : IVec S2x800000 32) i).toNat < 50000) :
    ∀ k, (tbl3 m c k).toNat < 50000 := by
  intro k
  obtain ⟨p, rfl⟩ : ∃ p : Fin 85000, k = ValueIdx.ix1 p := ⟨k 0, ValueIdx.eq_ix1 k⟩
  rw [tbl3_apply]; exact srcSl_lt m c hm _

/-! ## Region 4 -/

/-- What region 4's index table holds: words 255000 … 339999 of the source row with self-loops. -/
def tbl4 (c : Dev nD) : IVec S85000 32 := extractStridedSlice S85000 ![255000] (srcSl m c) slices_S850000_S85000_255000

theorem tbl4_eq (c : Dev nD) : (V11 m outs c main_v40 : IVec S85000 32) = tbl4 m c := by
  have e : (V11 m outs c main_v40 : IVec S85000 32)
      = extractStridedSlice S85000 ![255000] (V10 m outs c main_v5 : IVec S850000 32) slices_S850000_S85000_255000 := by
    dsimp only [V11, hostOps4]; after_results <;> rfl
  rw [e, v5_at10, V1_v5]; rfl

theorem tbl4_apply (c : Dev nD) (k : Fin 85000) :
    tbl4 m c (ValueIdx.ix1 k) = srcSl m c (ValueIdx.ix1 ⟨255000 + k.val, by have := k.isLt; omega⟩) :=
  slice1_apply 255000 _ _ k _

theorem tbl4_lt (c : Dev nD) (hm : ∀ i : S2x800000.Idx, ((V0 m c main_arg1 : IVec S2x800000 32) i).toNat < 50000) :
    ∀ k, (tbl4 m c k).toNat < 50000 := by
  intro k
  obtain ⟨p, rfl⟩ : ∃ p : Fin 85000, k = ValueIdx.ix1 p := ⟨k 0, ValueIdx.eq_ix1 k⟩
  rw [tbl4_apply]; exact srcSl_lt m c hm _

/-! ## Region 5 -/

/-- What region 5's index table holds: words 340000 … 424999 of the source row with self-loops. -/
def tbl5 (c : Dev nD) : IVec S85000 32 := extractStridedSlice S85000 ![340000] (srcSl m c) slices_S850000_S85000_340000

theorem tbl5_eq (c : Dev nD) : (V13 m outs c main_v42 : IVec S85000 32) = tbl5 m c := by
  have e : (V13 m outs c main_v42 : IVec S85000 32)
      = extractStridedSlice S85000 ![340000] (V12 m outs c main_v5 : IVec S850000 32) slices_S850000_S85000_340000 := by
    dsimp only [V13, hostOps5]; after_results <;> rfl
  rw [e, v5_at12, V1_v5]; rfl

theorem tbl5_apply (c : Dev nD) (k : Fin 85000) :
    tbl5 m c (ValueIdx.ix1 k) = srcSl m c (ValueIdx.ix1 ⟨340000 + k.val, by have := k.isLt; omega⟩) :=
  slice1_apply 340000 _ _ k _

theorem tbl5_lt (c : Dev nD) (hm : ∀ i : S2x800000.Idx, ((V0 m c main_arg1 : IVec S2x800000 32) i).toNat < 50000) :
    ∀ k, (tbl5 m c k).toNat < 50000 := by
  intro k
  obtain ⟨p, rfl⟩ : ∃ p : Fin 85000, k = ValueIdx.ix1 p := ⟨k 0, ValueIdx.eq_ix1 k⟩
  rw [tbl5_apply]; exact srcSl_lt m c hm _

/-! ## Region 6 -/

/-- What region 6's index table holds: words 425000 … 509999 of the source row with self-loops. -/
def tbl6 (c : Dev nD) : IVec S85000 32 := extractStridedSlice S85000 ![425000] (srcSl m c) slices_S850000_S85000_425000

theorem tbl6_eq (c : Dev nD) : (V15 m outs c main_v44 : IVec S85000 32) = tbl6 m c := by
  have e : (V15 m outs c main_v44 : IVec S85000 32)
      = extractStridedSlice S85000 ![425000] (V14 m outs c main_v5 : IVec S850000 32) slices_S850000_S85000_425000 := by
    dsimp only [V15, hostOps6]; after_results <;> rfl
  rw [e, v5_at14, V1_v5]; rfl

theorem tbl6_apply (c : Dev nD) (k : Fin 85000) :
    tbl6 m c (ValueIdx.ix1 k) = srcSl m c (ValueIdx.ix1 ⟨425000 + k.val, by have := k.isLt; omega⟩) :=
  slice1_apply 425000 _ _ k _

theorem tbl6_lt (c : Dev nD) (hm : ∀ i : S2x800000.Idx, ((V0 m c main_arg1 : IVec S2x800000 32) i).toNat < 50000) :
    ∀ k, (tbl6 m c k).toNat < 50000 := by
  intro k
  obtain ⟨p, rfl⟩ : ∃ p : Fin 85000, k = ValueIdx.ix1 p := ⟨k 0, ValueIdx.eq_ix1 k⟩
  rw [tbl6_apply]; exact srcSl_lt m c hm _

/-! ## Region 7 -/

/-- What region 7's index table holds: words 510000 … 594999 of the source row with self-loops. -/
def tbl7 (c : Dev nD) : IVec S85000 32 := extractStridedSlice S85000 ![510000] (srcSl m c) slices_S850000_S85000_510000

theorem tbl7_eq (c : Dev nD) : (V17 m outs c main_v46 : IVec S85000 32) = tbl7 m c := by
  have e : (V17 m outs c main_v46 : IVec S85000 32)
      = extractStridedSlice S85000 ![510000] (V16 m outs c main_v5 : IVec S850000 32) slices_S850000_S85000_510000 := by
    dsimp only [V17, hostOps7]; after_results <;> rfl
  rw [e, v5_at16, V1_v5]; rfl

theorem tbl7_apply (c : Dev nD) (k : Fin 85000) :
    tbl7 m c (ValueIdx.ix1 k) = srcSl m c (ValueIdx.ix1 ⟨510000 + k.val, by have := k.isLt; omega⟩) :=
  slice1_apply 510000 _ _ k _

theorem tbl7_lt (c : Dev nD) (hm : ∀ i : S2x800000.Idx, ((V0 m c main_arg1 : IVec S2x800000 32) i).toNat < 50000) :
    ∀ k, (tbl7 m c k).toNat < 50000 := by
  intro k
  obtain ⟨p, rfl⟩ : ∃ p : Fin 85000, k = ValueIdx.ix1 p := ⟨k 0, ValueIdx.eq_ix1 k⟩
  rw [tbl7_apply]; exact srcSl_lt m c hm _

/-! ## Region 8 -/

/-- What region 8's index table holds: words 595000 … 679999 of the source row with self-loops. -/
def tbl8 (c : Dev nD) : IVec S85000 32 := extractStridedSlice S85000 ![595000] (srcSl m c) slices_S850000_S85000_595000

theorem tbl8_eq (c : Dev nD) : (V19 m outs c main_v48 : IVec S85000 32) = tbl8 m c := by
  have e : (V19 m outs c main_v48 : IVec S85000 32)
      = extractStridedSlice S85000 ![595000] (V18 m outs c main_v5 : IVec S850000 32) slices_S850000_S85000_595000 := by
    dsimp only [V19, hostOps8]; after_results <;> rfl
  rw [e, v5_at18, V1_v5]; rfl

theorem tbl8_apply (c : Dev nD) (k : Fin 85000) :
    tbl8 m c (ValueIdx.ix1 k) = srcSl m c (ValueIdx.ix1 ⟨595000 + k.val, by have := k.isLt; omega⟩) :=
  slice1_apply 595000 _ _ k _

theorem tbl8_lt (c : Dev nD) (hm : ∀ i : S2x800000.Idx, ((V0 m c main_arg1 : IVec S2x800000 32) i).toNat < 50000) :
    ∀ k, (tbl8 m c k).toNat < 50000 := by
  intro k
  obtain ⟨p, rfl⟩ : ∃ p : Fin 85000, k = ValueIdx.ix1 p := ⟨k 0, ValueIdx.eq_ix1 k⟩
  rw [tbl8_apply]; exact srcSl_lt m c hm _

/-! ## Region 9 -/

/-- What region 9's index table holds: words 680000 … 764999 of the source row with self-loops. -/
def tbl9 (c : Dev nD) : IVec S85000 32 := extractStridedSlice S85000 ![680000] (srcSl m c) slices_S850000_S85000_680000

theorem tbl9_eq (c : Dev nD) : (V21 m outs c main_v50 : IVec S85000 32) = tbl9 m c := by
  have e : (V21 m outs c main_v50 : IVec S85000 32)
      = extractStridedSlice S85000 ![680000] (V20 m outs c main_v5 : IVec S850000 32) slices_S850000_S85000_680000 := by
    dsimp only [V21, hostOps9]; after_results <;> rfl
  rw [e, v5_at20, V1_v5]; rfl

theorem tbl9_apply (c : Dev nD) (k : Fin 85000) :
    tbl9 m c (ValueIdx.ix1 k) = srcSl m c (ValueIdx.ix1 ⟨680000 + k.val, by have := k.isLt; omega⟩) :=
  slice1_apply 680000 _ _ k _

theorem tbl9_lt (c : Dev nD) (hm : ∀ i : S2x800000.Idx, ((V0 m c main_arg1 : IVec S2x800000 32) i).toNat < 50000) :
    ∀ k, (tbl9 m c k).toNat < 50000 := by
  intro k
  obtain ⟨p, rfl⟩ : ∃ p : Fin 85000, k = ValueIdx.ix1 p := ⟨k 0, ValueIdx.eq_ix1 k⟩
  rw [tbl9_apply]; exact srcSl_lt m c hm _

/-! ## Region 10 -/

/-- What region 10's index table holds: words 765000 … 849999 of the source row with self-loops. -/
def tbl10 (c : Dev nD) : IVec S85000 32 := extractStridedSlice S85000 ![765000] (srcSl m c) slices_S850000_S85000_765000

theorem tbl10_eq (c : Dev nD) : (V23 m outs c main_v52 : IVec S85000 32) = tbl10 m c := by
  have e : (V23 m outs c main_v52 : IVec S85000 32)
      = extractStridedSlice S85000 ![765000] (V22 m outs c main_v5 : IVec S850000 32) slices_S850000_S85000_765000 := by
    dsimp only [V23, hostOps10]; after_results <;> rfl
  rw [e, v5_at22, V1_v5]; rfl

theorem tbl10_apply (c : Dev nD) (k : Fin 85000) :
    tbl10 m c (ValueIdx.ix1 k) = srcSl m c (ValueIdx.ix1 ⟨765000 + k.val, by have := k.isLt; omega⟩) :=
  slice1_apply 765000 _ _ k _

theorem tbl10_lt (c : Dev nD) (hm : ∀ i : S2x800000.Idx, ((V0 m c main_arg1 : IVec S2x800000 32) i).toNat < 50000) :
    ∀ k, (tbl10 m c k).toNat < 50000 := by
  intro k
  obtain ⟨p, rfl⟩ : ∃ p : Fin 85000, k = ValueIdx.ix1 p := ⟨k 0, ValueIdx.eq_ix1 k⟩
  rw [tbl10_apply]; exact srcSl_lt m c hm _

/-! ## Region 12 -/

/-- What region 12's index table holds: words 0 … 84999 of the source row with self-loops. -/
def tbl12 (c : Dev nD) : IVec S85000 32 := extractStridedSlice S85000 ![0] (srcSl m c) slices_S850000_S85000_0

theorem tbl12_eq (c : Dev nD) : (V27 m outs c main_v62 : IVec S85000 32) = tbl12 m c := by
  have e : (V27 m outs c main_v62 : IVec S85000 32)
      = extractStridedSlice S85000 ![0] (V26 m outs c main_v5 : IVec S850000 32) slices_S850000_S85000_0 := by
    dsimp only [V27, hostOps12]; after_results <;> rfl
  rw [e, v5_at26, V1_v5]; rfl

theorem tbl12_apply (c : Dev nD) (k : Fin 85000) :
    tbl12 m c (ValueIdx.ix1 k) = srcSl m c (ValueIdx.ix1 ⟨0 + k.val, by have := k.isLt; omega⟩) :=
  slice1_apply 0 _ _ k _

theorem tbl12_lt (c : Dev nD) (hm : ∀ i : S2x800000.Idx, ((V0 m c main_arg1 : IVec S2x800000 32) i).toNat < 50000) :
    ∀ k, (tbl12 m c k).toNat < 50000 := by
  intro k
  obtain ⟨p, rfl⟩ : ∃ p : Fin 85000, k = ValueIdx.ix1 p := ⟨k 0, ValueIdx.eq_ix1 k⟩
  rw [tbl12_apply]; exact srcSl_lt m c hm _

/-! ## Region 13 -/

/-- What region 13's index table holds: words 85000 … 169999 of the source row with self-loops. -/
def tbl13 (c : Dev nD) : IVec S85000 32 := extractStridedSlice S85000 ![85000] (srcSl m c) slices_S850000_S85000_85000

theorem tbl13_eq (c : Dev nD) : (V29 m outs c main_v64 : IVec S85000 32) = tbl13 m c := by
  have e : (V29 m outs c main_v64 : IVec S85000 32)
      = extractStridedSlice S85000 ![85000] (V28 m outs c main_v5 : IVec S850000 32) slices_S850000_S85000_85000 := by
    dsimp only [V29, hostOps13]; after_results <;> rfl
  rw [e, v5_at28, V1_v5]; rfl

theorem tbl13_apply (c : Dev nD) (k : Fin 85000) :
    tbl13 m c (ValueIdx.ix1 k) = srcSl m c (ValueIdx.ix1 ⟨85000 + k.val, by have := k.isLt; omega⟩) :=
  slice1_apply 85000 _ _ k _

theorem tbl13_lt (c : Dev nD) (hm : ∀ i : S2x800000.Idx, ((V0 m c main_arg1 : IVec S2x800000 32) i).toNat < 50000) :
    ∀ k, (tbl13 m c k).toNat < 50000 := by
  intro k
  obtain ⟨p, rfl⟩ : ∃ p : Fin 85000, k = ValueIdx.ix1 p := ⟨k 0, ValueIdx.eq_ix1 k⟩
  rw [tbl13_apply]; exact srcSl_lt m c hm _

/-! ## Region 14 -/

/-- What region 14's index table holds: words 170000 … 254999 of the source row with self-loops. -/
def tbl14 (c : Dev nD) : IVec S85000 32 := extractStridedSlice S85000 ![170000] (srcSl m c) slices_S850000_S85000_170000

theorem tbl14_eq (c : Dev nD) : (V31 m outs c main_v66 : IVec S85000 32) = tbl14 m c := by
  have e : (V31 m outs c main_v66 : IVec S85000 32)
      = extractStridedSlice S85000 ![170000] (V30 m outs c main_v5 : IVec S850000 32) slices_S850000_S85000_170000 := by
    dsimp only [V31, hostOps14]; after_results <;> rfl
  rw [e, v5_at30, V1_v5]; rfl

theorem tbl14_apply (c : Dev nD) (k : Fin 85000) :
    tbl14 m c (ValueIdx.ix1 k) = srcSl m c (ValueIdx.ix1 ⟨170000 + k.val, by have := k.isLt; omega⟩) :=
  slice1_apply 170000 _ _ k _

theorem tbl14_lt (c : Dev nD) (hm : ∀ i : S2x800000.Idx, ((V0 m c main_arg1 : IVec S2x800000 32) i).toNat < 50000) :
    ∀ k, (tbl14 m c k).toNat < 50000 := by
  intro k
  obtain ⟨p, rfl⟩ : ∃ p : Fin 85000, k = ValueIdx.ix1 p := ⟨k 0, ValueIdx.eq_ix1 k⟩
  rw [tbl14_apply]; exact srcSl_lt m c hm _

/-! ## Region 15 -/

/-- What region 15's index table holds: words 255000 … 339999 of the source row with self-loops. -/
def tbl15 (c : Dev nD) : IVec S85000 32 := extractStridedSlice S85000 ![255000] (srcSl m c) slices_S850000_S85000_255000

theorem tbl15_eq (c : Dev nD) : (V33 m outs c main_v68 : IVec S85000 32) = tbl15 m c := by
  have e : (V33 m outs c main_v68 : IVec S85000 32)
      = extractStridedSlice S85000 ![255000] (V32 m outs c main_v5 : IVec S850000 32) slices_S850000_S85000_255000 := by
    dsimp only [V33, hostOps15]; after_results <;> rfl
  rw [e, v5_at32, V1_v5]; rfl

theorem tbl15_apply (c : Dev nD) (k : Fin 85000) :
    tbl15 m c (ValueIdx.ix1 k) = srcSl m c (ValueIdx.ix1 ⟨255000 + k.val, by have := k.isLt; omega⟩) :=
  slice1_apply 255000 _ _ k _

theorem tbl15_lt (c : Dev nD) (hm : ∀ i : S2x800000.Idx, ((V0 m c main_arg1 : IVec S2x800000 32) i).toNat < 50000) :
    ∀ k, (tbl15 m c k).toNat < 50000 := by
  intro k
  obtain ⟨p, rfl⟩ : ∃ p : Fin 85000, k = ValueIdx.ix1 p := ⟨k 0, ValueIdx.eq_ix1 k⟩
  rw [tbl15_apply]; exact srcSl_lt m c hm _

/-! ## Region 16 -/

/-- What region 16's index table holds: words 340000 … 424999 of the source row with self-loops. -/
def tbl16 (c : Dev nD) : IVec S85000 32 := extractStridedSlice S85000 ![340000] (srcSl m c) slices_S850000_S85000_340000

theorem tbl16_eq (c : Dev nD) : (V35 m outs c main_v70 : IVec S85000 32) = tbl16 m c := by
  have e : (V35 m outs c main_v70 : IVec S85000 32)
      = extractStridedSlice S85000 ![340000] (V34 m outs c main_v5 : IVec S850000 32) slices_S850000_S85000_340000 := by
    dsimp only [V35, hostOps16]; after_results <;> rfl
  rw [e, v5_at34, V1_v5]; rfl

theorem tbl16_apply (c : Dev nD) (k : Fin 85000) :
    tbl16 m c (ValueIdx.ix1 k) = srcSl m c (ValueIdx.ix1 ⟨340000 + k.val, by have := k.isLt; omega⟩) :=
  slice1_apply 340000 _ _ k _

theorem tbl16_lt (c : Dev nD) (hm : ∀ i : S2x800000.Idx, ((V0 m c main_arg1 : IVec S2x800000 32) i).toNat < 50000) :
    ∀ k, (tbl16 m c k).toNat < 50000 := by
  intro k
  obtain ⟨p, rfl⟩ : ∃ p : Fin 85000, k = ValueIdx.ix1 p := ⟨k 0, ValueIdx.eq_ix1 k⟩
  rw [tbl16_apply]; exact srcSl_lt m c hm _

/-! ## Region 17 -/

/-- What region 17's index table holds: words 425000 … 509999 of the source row with self-loops. -/
def tbl17 (c : Dev nD) : IVec S85000 32 := extractStridedSlice S85000 ![425000] (srcSl m c) slices_S850000_S85000_425000

theorem tbl17_eq (c : Dev nD) : (V37 m outs c main_v72 : IVec S85000 32) = tbl17 m c := by
  have e : (V37 m outs c main_v72 : IVec S85000 32)
      = extractStridedSlice S85000 ![425000] (V36 m outs c main_v5 : IVec S850000 32) slices_S850000_S85000_425000 := by
    dsimp only [V37, hostOps17]; after_results <;> rfl
  rw [e, v5_at36, V1_v5]; rfl

theorem tbl17_apply (c : Dev nD) (k : Fin 85000) :
    tbl17 m c (ValueIdx.ix1 k) = srcSl m c (ValueIdx.ix1 ⟨425000 + k.val, by have := k.isLt; omega⟩) :=
  slice1_apply 425000 _ _ k _

theorem tbl17_lt (c : Dev nD) (hm : ∀ i : S2x800000.Idx, ((V0 m c main_arg1 : IVec S2x800000 32) i).toNat < 50000) :
    ∀ k, (tbl17 m c k).toNat < 50000 := by
  intro k
  obtain ⟨p, rfl⟩ : ∃ p : Fin 85000, k = ValueIdx.ix1 p := ⟨k 0, ValueIdx.eq_ix1 k⟩
  rw [tbl17_apply]; exact srcSl_lt m c hm _

/-! ## Region 18 -/

/-- What region 18's index table holds: words 510000 … 594999 of the source row with self-loops. -/
def tbl18 (c : Dev nD) : IVec S85000 32 := extractStridedSlice S85000 ![510000] (srcSl m c) slices_S850000_S85000_510000

theorem tbl18_eq (c : Dev nD) : (V39 m outs c main_v74 : IVec S85000 32) = tbl18 m c := by
  have e : (V39 m outs c main_v74 : IVec S85000 32)
      = extractStridedSlice S85000 ![510000] (V38 m outs c main_v5 : IVec S850000 32) slices_S850000_S85000_510000 := by
    dsimp only [V39, hostOps18]; after_results <;> rfl
  rw [e, v5_at38, V1_v5]; rfl

theorem tbl18_apply (c : Dev nD) (k : Fin 85000) :
    tbl18 m c (ValueIdx.ix1 k) = srcSl m c (ValueIdx.ix1 ⟨510000 + k.val, by have := k.isLt; omega⟩) :=
  slice1_apply 510000 _ _ k _

theorem tbl18_lt (c : Dev nD) (hm : ∀ i : S2x800000.Idx, ((V0 m c main_arg1 : IVec S2x800000 32) i).toNat < 50000) :
    ∀ k, (tbl18 m c k).toNat < 50000 := by
  intro k
  obtain ⟨p, rfl⟩ : ∃ p : Fin 85000, k = ValueIdx.ix1 p := ⟨k 0, ValueIdx.eq_ix1 k⟩
  rw [tbl18_apply]; exact srcSl_lt m c hm _

/-! ## Region 19 -/

/-- What region 19's index table holds: words 595000 … 679999 of the source row with self-loops. -/
def tbl19 (c : Dev nD) : IVec S85000 32 := extractStridedSlice S85000 ![595000] (srcSl m c) slices_S850000_S85000_595000

theorem tbl19_eq (c : Dev nD) : (V41 m outs c main_v76 : IVec S85000 32) = tbl19 m c := by
  have e : (V41 m outs c main_v76 : IVec S85000 32)
      = extractStridedSlice S85000 ![595000] (V40 m outs c main_v5 : IVec S850000 32) slices_S850000_S85000_595000 := by
    dsimp only [V41, hostOps19]; after_results <;> rfl
  rw [e, v5_at40, V1_v5]; rfl

theorem tbl19_apply (c : Dev nD) (k : Fin 85000) :
    tbl19 m c (ValueIdx.ix1 k) = srcSl m c (ValueIdx.ix1 ⟨595000 + k.val, by have := k.isLt; omega⟩) :=
  slice1_apply 595000 _ _ k _

theorem tbl19_lt (c : Dev nD) (hm : ∀ i : S2x800000.Idx, ((V0 m c main_arg1 : IVec S2x800000 32) i).toNat < 50000) :
    ∀ k, (tbl19 m c k).toNat < 50000 := by
  intro k
  obtain ⟨p, rfl⟩ : ∃ p : Fin 85000, k = ValueIdx.ix1 p := ⟨k 0, ValueIdx.eq_ix1 k⟩
  rw [tbl19_apply]; exact srcSl_lt m c hm _

/-! ## Region 20 -/

/-- What region 20's index table holds: words 680000 … 764999 of the source row with self-loops. -/
def tbl20 (c : Dev nD) : IVec S85000 32 := extractStridedSlice S85000 ![680000] (srcSl m c) slices_S850000_S85000_680000

theorem tbl20_eq (c : Dev nD) : (V43 m outs c main_v78 : IVec S85000 32) = tbl20 m c := by
  have e : (V43 m outs c main_v78 : IVec S85000 32)
      = extractStridedSlice S85000 ![680000] (V42 m outs c main_v5 : IVec S850000 32) slices_S850000_S85000_680000 := by
    dsimp only [V43, hostOps20]; after_results <;> rfl
  rw [e, v5_at42, V1_v5]; rfl

theorem tbl20_apply (c : Dev nD) (k : Fin 85000) :
    tbl20 m c (ValueIdx.ix1 k) = srcSl m c (ValueIdx.ix1 ⟨680000 + k.val, by have := k.isLt; omega⟩) :=
  slice1_apply 680000 _ _ k _

theorem tbl20_lt (c : Dev nD) (hm : ∀ i : S2x800000.Idx, ((V0 m c main_arg1 : IVec S2x800000 32) i).toNat < 50000) :
    ∀ k, (tbl20 m c k).toNat < 50000 := by
  intro k
  obtain ⟨p, rfl⟩ : ∃ p : Fin 85000, k = ValueIdx.ix1 p := ⟨k 0, ValueIdx.eq_ix1 k⟩
  rw [tbl20_apply]; exact srcSl_lt m c hm _

/-! ## Region 21 -/

/-- What region 21's index table holds: words 765000 … 849999 of the source row with self-loops. -/
def tbl21 (c : Dev nD) : IVec S85000 32 := extractStridedSlice S85000 ![765000] (srcSl m c) slices_S850000_S85000_765000

theorem tbl21_eq (c : Dev nD) : (V45 m outs c main_v80 : IVec S85000 32) = tbl21 m c := by
  have e : (V45 m outs c main_v80 : IVec S85000 32)
      = extractStridedSlice S85000 ![765000] (V44 m outs c main_v5 : IVec S850000 32) slices_S850000_S85000_765000 := by
    dsimp only [V45, hostOps21]; after_results <;> rfl
  rw [e, v5_at44, V1_v5]; rfl

theorem tbl21_apply (c : Dev nD) (k : Fin 85000) :
    tbl21 m c (ValueIdx.ix1 k) = srcSl m c (ValueIdx.ix1 ⟨765000 + k.val, by have := k.isLt; omega⟩) :=
  slice1_apply 765000 _ _ k _

theorem tbl21_lt (c : Dev nD) (hm : ∀ i : S2x800000.Idx, ((V0 m c main_arg1 : IVec S2x800000 32) i).toNat < 50000) :
    ∀ k, (tbl21 m c k).toNat < 50000 := by
  intro k
  obtain ⟨p, rfl⟩ : ∃ p : Fin 85000, k = ValueIdx.ix1 p := ⟨k 0, ValueIdx.eq_ix1 k⟩
  rw [tbl21_apply]; exact srcSl_lt m c hm _

/-! ## Region 23 -/

/-- What region 23's index table holds: words 0 … 99999 of the source row. -/
def tbl23 (c : Dev nD) : IVec S100000 32 := extractStridedSlice S100000 ![0] (src m c) slices_S800000_S100000_0

theorem tbl23_eq (c : Dev nD) : (V49 m outs c main_v90 : IVec S100000 32) = tbl23 m c := by
  have e : (V49 m outs c main_v90 : IVec S100000 32)
      = extractStridedSlice S100000 ![0] (V48 m outs c main_v1 : IVec S800000 32) slices_S800000_S100000_0 := by
    dsimp only [V49, hostOps23]; after_results <;> rfl
  rw [e, v1_at48, V1_v1]; rfl

theorem tbl23_apply (c : Dev nD) (k : Fin 100000) :
    tbl23 m c (ValueIdx.ix1 k) = src m c (ValueIdx.ix1 ⟨0 + k.val, by have := k.isLt; omega⟩) :=
  slice1_apply 0 _ _ k _

theorem tbl23_lt (c : Dev nD) (hm : ∀ i : S2x800000.Idx, ((V0 m c main_arg1 : IVec S2x800000 32) i).toNat < 50000) :
    ∀ k, (tbl23 m c k).toNat < 50000 := by
  intro k
  obtain ⟨p, rfl⟩ : ∃ p : Fin 100000, k = ValueIdx.ix1 p := ⟨k 0, ValueIdx.eq_ix1 k⟩
  rw [tbl23_apply]; exact src_lt m c hm _

/-! ## Region 24 -/

/-- What region 24's index table holds: words 100000 … 199999 of the source row. -/
def tbl24 (c : Dev nD) : IVec S100000 32 := extractStridedSlice S100000 ![100000] (src m c) slices_S800000_S100000_100000

theorem tbl24_eq (c : Dev nD) : (V51 m outs c main_v92 : IVec S100000 32) = tbl24 m c := by
  have e : (V51 m outs c main_v92 : IVec S100000 32)
      = extractStridedSlice S100000 ![100000] (V50 m outs c main_v1 : IVec S800000 32) slices_S800000_S100000_100000 := by
    dsimp only [V51, hostOps24]; after_results <;> rfl
  rw [e, v1_at50, V1_v1]; rfl

theorem tbl24_apply (c : Dev nD) (k : Fin 100000) :
    tbl24 m c (ValueIdx.ix1 k) = src m c (ValueIdx.ix1 ⟨100000 + k.val, by have := k.isLt; omega⟩) :=
  slice1_apply 100000 _ _ k _

theorem tbl24_lt (c : Dev nD) (hm : ∀ i : S2x800000.Idx, ((V0 m c main_arg1 : IVec S2x800000 32) i).toNat < 50000) :
    ∀ k, (tbl24 m c k).toNat < 50000 := by
  intro k
  obtain ⟨p, rfl⟩ : ∃ p : Fin 100000, k = ValueIdx.ix1 p := ⟨k 0, ValueIdx.eq_ix1 k⟩
  rw [tbl24_apply]; exact src_lt m c hm _

/-! ## Region 25 -/

/-- What region 25's index table holds: words 200000 … 299999 of the source row. -/
def tbl25 (c : Dev nD) : IVec S100000 32 := extractStridedSlice S100000 ![200000] (src m c) slices_S800000_S100000_200000

theorem tbl25_eq (c : Dev nD) : (V53 m outs c main_v94 : IVec S100000 32) = tbl25 m c := by
  have e : (V53 m outs c main_v94 : IVec S100000 32)
      = extractStridedSlice S100000 ![200000] (V52 m outs c main_v1 : IVec S800000 32) slices_S800000_S100000_200000 := by
    dsimp only [V53, hostOps25]; after_results <;> rfl
  rw [e, v1_at52, V1_v1]; rfl

theorem tbl25_apply (c : Dev nD) (k : Fin 100000) :
    tbl25 m c (ValueIdx.ix1 k) = src m c (ValueIdx.ix1 ⟨200000 + k.val, by have := k.isLt; omega⟩) :=
  slice1_apply 200000 _ _ k _

theorem tbl25_lt (c : Dev nD) (hm : ∀ i : S2x800000.Idx, ((V0 m c main_arg1 : IVec S2x800000 32) i).toNat < 50000) :
    ∀ k, (tbl25 m c k).toNat < 50000 := by
  intro k
  obtain ⟨p, rfl⟩ : ∃ p : Fin 100000, k = ValueIdx.ix1 p := ⟨k 0, ValueIdx.eq_ix1 k⟩
  rw [tbl25_apply]; exact src_lt m c hm _

/-! ## Region 26 -/

/-- What region 26's index table holds: words 300000 … 399999 of the source row. -/
def tbl26 (c : Dev nD) : IVec S100000 32 := extractStridedSlice S100000 ![300000] (src m c) slices_S800000_S100000_300000

theorem tbl26_eq (c : Dev nD) : (V55 m outs c main_v96 : IVec S100000 32) = tbl26 m c := by
  have e : (V55 m outs c main_v96 : IVec S100000 32)
      = extractStridedSlice S100000 ![300000] (V54 m outs c main_v1 : IVec S800000 32) slices_S800000_S100000_300000 := by
    dsimp only [V55, hostOps26]; after_results <;> rfl
  rw [e, v1_at54, V1_v1]; rfl

theorem tbl26_apply (c : Dev nD) (k : Fin 100000) :
    tbl26 m c (ValueIdx.ix1 k) = src m c (ValueIdx.ix1 ⟨300000 + k.val, by have := k.isLt; omega⟩) :=
  slice1_apply 300000 _ _ k _

theorem tbl26_lt (c : Dev nD) (hm : ∀ i : S2x800000.Idx, ((V0 m c main_arg1 : IVec S2x800000 32) i).toNat < 50000) :
    ∀ k, (tbl26 m c k).toNat < 50000 := by
  intro k
  obtain ⟨p, rfl⟩ : ∃ p : Fin 100000, k = ValueIdx.ix1 p := ⟨k 0, ValueIdx.eq_ix1 k⟩
  rw [tbl26_apply]; exact src_lt m c hm _

/-! ## Region 27 -/

/-- What region 27's index table holds: words 400000 … 499999 of the source row. -/
def tbl27 (c : Dev nD) : IVec S100000 32 := extractStridedSlice S100000 ![400000] (src m c) slices_S800000_S100000_400000

theorem tbl27_eq (c : Dev nD) : (V57 m outs c main_v98 : IVec S100000 32) = tbl27 m c := by
  have e : (V57 m outs c main_v98 : IVec S100000 32)
      = extractStridedSlice S100000 ![400000] (V56 m outs c main_v1 : IVec S800000 32) slices_S800000_S100000_400000 := by
    dsimp only [V57, hostOps27]; after_results <;> rfl
  rw [e, v1_at56, V1_v1]; rfl

theorem tbl27_apply (c : Dev nD) (k : Fin 100000) :
    tbl27 m c (ValueIdx.ix1 k) = src m c (ValueIdx.ix1 ⟨400000 + k.val, by have := k.isLt; omega⟩) :=
  slice1_apply 400000 _ _ k _

theorem tbl27_lt (c : Dev nD) (hm : ∀ i : S2x800000.Idx, ((V0 m c main_arg1 : IVec S2x800000 32) i).toNat < 50000) :
    ∀ k, (tbl27 m c k).toNat < 50000 := by
  intro k
  obtain ⟨p, rfl⟩ : ∃ p : Fin 100000, k = ValueIdx.ix1 p := ⟨k 0, ValueIdx.eq_ix1 k⟩
  rw [tbl27_apply]; exact src_lt m c hm _

/-! ## Region 28 -/

/-- What region 28's index table holds: words 500000 … 599999 of the source row. -/
def tbl28 (c : Dev nD) : IVec S100000 32 := extractStridedSlice S100000 ![500000] (src m c) slices_S800000_S100000_500000

theorem tbl28_eq (c : Dev nD) : (V59 m outs c main_v100 : IVec S100000 32) = tbl28 m c := by
  have e : (V59 m outs c main_v100 : IVec S100000 32)
      = extractStridedSlice S100000 ![500000] (V58 m outs c main_v1 : IVec S800000 32) slices_S800000_S100000_500000 := by
    dsimp only [V59, hostOps28]; after_results <;> rfl
  rw [e, v1_at58, V1_v1]; rfl

theorem tbl28_apply (c : Dev nD) (k : Fin 100000) :
    tbl28 m c (ValueIdx.ix1 k) = src m c (ValueIdx.ix1 ⟨500000 + k.val, by have := k.isLt; omega⟩) :=
  slice1_apply 500000 _ _ k _

theorem tbl28_lt (c : Dev nD) (hm : ∀ i : S2x800000.Idx, ((V0 m c main_arg1 : IVec S2x800000 32) i).toNat < 50000) :
    ∀ k, (tbl28 m c k).toNat < 50000 := by
  intro k
  obtain ⟨p, rfl⟩ : ∃ p : Fin 100000, k = ValueIdx.ix1 p := ⟨k 0, ValueIdx.eq_ix1 k⟩
  rw [tbl28_apply]; exact src_lt m c hm _

/-! ## Region 29 -/

/-- What region 29's index table holds: words 600000 … 699999 of the source row. -/
def tbl29 (c : Dev nD) : IVec S100000 32 := extractStridedSlice S100000 ![600000] (src m c) slices_S800000_S100000_600000

theorem tbl29_eq (c : Dev nD) : (V61 m outs c main_v102 : IVec S100000 32) = tbl29 m c := by
  have e : (V61 m outs c main_v102 : IVec S100000 32)
      = extractStridedSlice S100000 ![600000] (V60 m outs c main_v1 : IVec S800000 32) slices_S800000_S100000_600000 := by
    dsimp only [V61, hostOps29]; after_results <;> rfl
  rw [e, v1_at60, V1_v1]; rfl

theorem tbl29_apply (c : Dev nD) (k : Fin 100000) :
    tbl29 m c (ValueIdx.ix1 k) = src m c (ValueIdx.ix1 ⟨600000 + k.val, by have := k.isLt; omega⟩) :=
  slice1_apply 600000 _ _ k _

theorem tbl29_lt (c : Dev nD) (hm : ∀ i : S2x800000.Idx, ((V0 m c main_arg1 : IVec S2x800000 32) i).toNat < 50000) :
    ∀ k, (tbl29 m c k).toNat < 50000 := by
  intro k
  obtain ⟨p, rfl⟩ : ∃ p : Fin 100000, k = ValueIdx.ix1 p := ⟨k 0, ValueIdx.eq_ix1 k⟩
  rw [tbl29_apply]; exact src_lt m c hm _

/-! ## Region 30 -/

/-- What region 30's index table holds: words 700000 … 799999 of the source row. -/
def tbl30 (c : Dev nD) : IVec S100000 32 := extractStridedSlice S100000 ![700000] (src m c) slices_S800000_S100000_700000

theorem tbl30_eq (c : Dev nD) : (V63 m outs c main_v104 : IVec S100000 32) = tbl30 m c := by
  have e : (V63 m outs c main_v104 : IVec S100000 32)
      = extractStridedSlice S100000 ![700000] (V62 m outs c main_v1 : IVec S800000 32) slices_S800000_S100000_700000 := by
    dsimp only [V63, hostOps30]; after_results <;> rfl
  rw [e, v1_at62, V1_v1]; rfl

theorem tbl30_apply (c : Dev nD) (k : Fin 100000) :
    tbl30 m c (ValueIdx.ix1 k) = src m c (ValueIdx.ix1 ⟨700000 + k.val, by have := k.isLt; omega⟩) :=
  slice1_apply 700000 _ _ k _

theorem tbl30_lt (c : Dev nD) (hm : ∀ i : S2x800000.Idx, ((V0 m c main_arg1 : IVec S2x800000 32) i).toNat < 50000) :
    ∀ k, (tbl30 m c k).toNat < 50000 := by
  intro k
  obtain ⟨p, rfl⟩ : ∃ p : Fin 100000, k = ValueIdx.ix1 p := ⟨k 0, ValueIdx.eq_ix1 k⟩
  rw [tbl30_apply]; exact src_lt m c hm _

/-! ## Region 31 -/

/-- What region 31's index table holds: words 0 … 99999 of the destination row. -/
def tbl31 (c : Dev nD) : IVec S100000 32 := extractStridedSlice S100000 ![0] (dst m c) slices_S800000_S100000_0

theorem tbl31_eq (c : Dev nD) : (V65 m outs c main_v107 : IVec S100000 32) = tbl31 m c := by
  have e : (V65 m outs c main_v107 : IVec S100000 32)
      = extractStridedSlice S100000 ![0] (V64 m outs c main_v3 : IVec S800000 32) slices_S800000_S100000_0 := by
    dsimp only [V65, hostOps31]; after_results <;> rfl
  rw [e, v3_at64, V1_v3]; rfl

theorem tbl31_apply (c : Dev nD) (k : Fin 100000) :
    tbl31 m c (ValueIdx.ix1 k) = dst m c (ValueIdx.ix1 ⟨0 + k.val, by have := k.isLt; omega⟩) :=
  slice1_apply 0 _ _ k _

theorem tbl31_lt (c : Dev nD) (hm : ∀ i : S2x800000.Idx, ((V0 m c main_arg1 : IVec S2x800000 32) i).toNat < 50000) :
    ∀ k, (tbl31 m c k).toNat < 50000 := by
  intro k
  obtain ⟨p, rfl⟩ : ∃ p : Fin 100000, k = ValueIdx.ix1 p := ⟨k 0, ValueIdx.eq_ix1 k⟩
  rw [tbl31_apply]; exact dst_lt m c hm _

/-! ## Region 32 -/

/-- What region 32's index table holds: words 100000 … 199999 of the destination row. -/
def tbl32 (c : Dev nD) : IVec S100000 32 := extractStridedSlice S100000 ![100000] (dst m c) slices_S800000_S100000_100000

theorem tbl32_eq (c : Dev nD) : (V67 m outs c main_v109 : IVec S100000 32) = tbl32 m c := by
  have e : (V67 m outs c main_v109 : IVec S100000 32)
      = extractStridedSlice S100000 ![100000] (V66 m outs c main_v3 : IVec S800000 32) slices_S800000_S100000_100000 := by
    dsimp only [V67, hostOps32]; after_results <;> rfl
  rw [e, v3_at66, V1_v3]; rfl

theorem tbl32_apply (c : Dev nD) (k : Fin 100000) :
    tbl32 m c (ValueIdx.ix1 k) = dst m c (ValueIdx.ix1 ⟨100000 + k.val, by have := k.isLt; omega⟩) :=
  slice1_apply 100000 _ _ k _

theorem tbl32_lt (c : Dev nD) (hm : ∀ i : S2x800000.Idx, ((V0 m c main_arg1 : IVec S2x800000 32) i).toNat < 50000) :
    ∀ k, (tbl32 m c k).toNat < 50000 := by
  intro k
  obtain ⟨p, rfl⟩ : ∃ p : Fin 100000, k = ValueIdx.ix1 p := ⟨k 0, ValueIdx.eq_ix1 k⟩
  rw [tbl32_apply]; exact dst_lt m c hm _

/-! ## Region 33 -/

/-- What region 33's index table holds: words 200000 … 299999 of the destination row. -/
def tbl33 (c : Dev nD) : IVec S100000 32 := extractStridedSlice S100000 ![200000] (dst m c) slices_S800000_S100000_200000

theorem tbl33_eq (c : Dev nD) : (V69 m outs c main_v111 : IVec S100000 32) = tbl33 m c := by
  have e : (V69 m outs c main_v111 : IVec S100000 32)
      = extractStridedSlice S100000 ![200000] (V68 m outs c main_v3 : IVec S800000 32) slices_S800000_S100000_200000 := by
    dsimp only [V69, hostOps33]; after_results <;> rfl
  rw [e, v3_at68, V1_v3]; rfl

theorem tbl33_apply (c : Dev nD) (k : Fin 100000) :
    tbl33 m c (ValueIdx.ix1 k) = dst m c (ValueIdx.ix1 ⟨200000 + k.val, by have := k.isLt; omega⟩) :=
  slice1_apply 200000 _ _ k _

theorem tbl33_lt (c : Dev nD) (hm : ∀ i : S2x800000.Idx, ((V0 m c main_arg1 : IVec S2x800000 32) i).toNat < 50000) :
    ∀ k, (tbl33 m c k).toNat < 50000 := by
  intro k
  obtain ⟨p, rfl⟩ : ∃ p : Fin 100000, k = ValueIdx.ix1 p := ⟨k 0, ValueIdx.eq_ix1 k⟩
  rw [tbl33_apply]; exact dst_lt m c hm _

/-! ## Region 34 -/

/-- What region 34's index table holds: words 300000 … 399999 of the destination row. -/
def tbl34 (c : Dev nD) : IVec S100000 32 := extractStridedSlice S100000 ![300000] (dst m c) slices_S800000_S100000_300000

theorem tbl34_eq (c : Dev nD) : (V71 m outs c main_v113 : IVec S100000 32) = tbl34 m c := by
  have e : (V71 m outs c main_v113 : IVec S100000 32)
      = extractStridedSlice S100000 ![300000] (V70 m outs c main_v3 : IVec S800000 32) slices_S800000_S100000_300000 := by
    dsimp only [V71, hostOps34]; after_results <;> rfl
  rw [e, v3_at70, V1_v3]; rfl

theorem tbl34_apply (c : Dev nD) (k : Fin 100000) :
    tbl34 m c (ValueIdx.ix1 k) = dst m c (ValueIdx.ix1 ⟨300000 + k.val, by have := k.isLt; omega⟩) :=
  slice1_apply 300000 _ _ k _

theorem tbl34_lt (c : Dev nD) (hm : ∀ i : S2x800000.Idx, ((V0 m c main_arg1 : IVec S2x800000 32) i).toNat < 50000) :
    ∀ k, (tbl34 m c k).toNat < 50000 := by
  intro k
  obtain ⟨p, rfl⟩ : ∃ p : Fin 100000, k = ValueIdx.ix1 p := ⟨k 0, ValueIdx.eq_ix1 k⟩
  rw [tbl34_apply]; exact dst_lt m c hm _

/-! ## Region 35 -/

/-- What region 35's index table holds: words 400000 … 499999 of the destination row. -/
def tbl35 (c : Dev nD) : IVec S100000 32 := extractStridedSlice S100000 ![400000] (dst m c) slices_S800000_S100000_400000

theorem tbl35_eq (c : Dev nD) : (V73 m outs c main_v115 : IVec S100000 32) = tbl35 m c := by
  have e : (V73 m outs c main_v115 : IVec S100000 32)
      = extractStridedSlice S100000 ![400000] (V72 m outs c main_v3 : IVec S800000 32) slices_S800000_S100000_400000 := by
    dsimp only [V73, hostOps35]; after_results <;> rfl
  rw [e, v3_at72, V1_v3]; rfl

theorem tbl35_apply (c : Dev nD) (k : Fin 100000) :
    tbl35 m c (ValueIdx.ix1 k) = dst m c (ValueIdx.ix1 ⟨400000 + k.val, by have := k.isLt; omega⟩) :=
  slice1_apply 400000 _ _ k _

theorem tbl35_lt (c : Dev nD) (hm : ∀ i : S2x800000.Idx, ((V0 m c main_arg1 : IVec S2x800000 32) i).toNat < 50000) :
    ∀ k, (tbl35 m c k).toNat < 50000 := by
  intro k
  obtain ⟨p, rfl⟩ : ∃ p : Fin 100000, k = ValueIdx.ix1 p := ⟨k 0, ValueIdx.eq_ix1 k⟩
  rw [tbl35_apply]; exact dst_lt m c hm _

/-! ## Region 36 -/

/-- What region 36's index table holds: words 500000 … 599999 of the destination row. -/
def tbl36 (c : Dev nD) : IVec S100000 32 := extractStridedSlice S100000 ![500000] (dst m c) slices_S800000_S100000_500000

theorem tbl36_eq (c : Dev nD) : (V75 m outs c main_v117 : IVec S100000 32) = tbl36 m c := by
  have e : (V75 m outs c main_v117 : IVec S100000 32)
      = extractStridedSlice S100000 ![500000] (V74 m outs c main_v3 : IVec S800000 32) slices_S800000_S100000_500000 := by
    dsimp only [V75, hostOps36]; after_results <;> rfl
  rw [e, v3_at74, V1_v3]; rfl

theorem tbl36_apply (c : Dev nD) (k : Fin 100000) :
    tbl36 m c (ValueIdx.ix1 k) = dst m c (ValueIdx.ix1 ⟨500000 + k.val, by have := k.isLt; omega⟩) :=
  slice1_apply 500000 _ _ k _

theorem tbl36_lt (c : Dev nD) (hm : ∀ i : S2x800000.Idx, ((V0 m c main_arg1 : IVec S2x800000 32) i).toNat < 50000) :
    ∀ k, (tbl36 m c k).toNat < 50000 := by
  intro k
  obtain ⟨p, rfl⟩ : ∃ p : Fin 100000, k = ValueIdx.ix1 p := ⟨k 0, ValueIdx.eq_ix1 k⟩
  rw [tbl36_apply]; exact dst_lt m c hm _

/-! ## Region 37 -/

/-- What region 37's index table holds: words 600000 … 699999 of the destination row. -/
def tbl37 (c : Dev nD) : IVec S100000 32 := extractStridedSlice S100000 ![600000] (dst m c) slices_S800000_S100000_600000

theorem tbl37_eq (c : Dev nD) : (V77 m outs c main_v119 : IVec S100000 32) = tbl37 m c := by
  have e : (V77 m outs c main_v119 : IVec S100000 32)
      = extractStridedSlice S100000 ![600000] (V76 m outs c main_v3 : IVec S800000 32) slices_S800000_S100000_600000 := by
    dsimp only [V77, hostOps37]; after_results <;> rfl
  rw [e, v3_at76, V1_v3]; rfl

theorem tbl37_apply (c : Dev nD) (k : Fin 100000) :
    tbl37 m c (ValueIdx.ix1 k) = dst m c (ValueIdx.ix1 ⟨600000 + k.val, by have := k.isLt; omega⟩) :=
  slice1_apply 600000 _ _ k _

theorem tbl37_lt (c : Dev nD) (hm : ∀ i : S2x800000.Idx, ((V0 m c main_arg1 : IVec S2x800000 32) i).toNat < 50000) :
    ∀ k, (tbl37 m c k).toNat < 50000 := by
  intro k
  obtain ⟨p, rfl⟩ : ∃ p : Fin 100000, k = ValueIdx.ix1 p := ⟨k 0, ValueIdx.eq_ix1 k⟩
  rw [tbl37_apply]; exact dst_lt m c hm _

/-! ## Region 38 -/

/-- What region 38's index table holds: words 700000 … 799999 of the destination row. -/
def tbl38 (c : Dev nD) : IVec S100000 32 := extractStridedSlice S100000 ![700000] (dst m c) slices_S800000_S100000_700000

theorem tbl38_eq (c : Dev nD) : (V79 m outs c main_v121 : IVec S100000 32) = tbl38 m c := by
  have e : (V79 m outs c main_v121 : IVec S100000 32)
      = extractStridedSlice S100000 ![700000] (V78 m outs c main_v3 : IVec S800000 32) slices_S800000_S100000_700000 := by
    dsimp only [V79, hostOps38]; after_results <;> rfl
  rw [e, v3_at78, V1_v3]; rfl

theorem tbl38_apply (c : Dev nD) (k : Fin 100000) :
    tbl38 m c (ValueIdx.ix1 k) = dst m c (ValueIdx.ix1 ⟨700000 + k.val, by have := k.isLt; omega⟩) :=
  slice1_apply 700000 _ _ k _

theorem tbl38_lt (c : Dev nD) (hm : ∀ i : S2x800000.Idx, ((V0 m c main_arg1 : IVec S2x800000 32) i).toNat < 50000) :
    ∀ k, (tbl38 m c k).toNat < 50000 := by
  intro k
  obtain ⟨p, rfl⟩ : ∃ p : Fin 100000, k = ValueIdx.ix1 p := ⟨k 0, ValueIdx.eq_ix1 k⟩
  rw [tbl38_apply]; exact dst_lt m c hm _

end Cert.KernelIdeal.Hand

end
-- ==== Proof.KI.GatherLib.lean ====
/-
  Rows of a block moved one at a time: what the row-gather regions' bodies share.

  A gather body reads eight words of an index table, and for each word w copies row w of a 50000 x 128 array into one row
  of its 8 x 128 output block, all eight copies in flight at once. Three facts carry its proof and none depends on the
  region. (1) A share of a points-to can be cut into as many read shares as there are copies, so that two copies may read
  the same row. (2) Writes through the eight rows of the block, each row squeezed to its 128 words, are eight pieces that
  tile the block: rows are pairwise separated, so a row holds after all eight writes what its own write left, the eight
  rows held apart join to the block held whole, and the block then reads, row by row, the payloads. (3) A one-word load at
  offset p through a whole table reads the table at p, and a copy's payload read at a column is the array at the word's
  row and that column.
-/
import proofs.«402049_j87351044866139_2_alg».proof.Proof.Gen.KernelIdeal
import Idealize.ShloMosaic.Lib.Pipeline.Frame
import Idealize.ShloMosaic.Lib.Pipeline.FrameBody
import Idealize.ShloMosaic.Lib.WholeRead
import Idealize.ShloMosaic.Lib.ValueIdx
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Transfers (shareDrop shareTokN)
open Cert.KernelIdeal Cert.KernelIdeal.Gen

variable {F : FTy → Type} [FloatOps F]

local notation "𝕄" => MT nD τ sig Unit (Elt F) ℕ (Pipeline.UD sig nD τ) ℕ

/-! ## Read shares -/

/-- A points-to at share q is what is left after b + 8 read shares, the eight read shares b + 7 … b one by one, and the
    first b read shares together: the share halved b + 8 times, each right half split off. -/
theorem toks_at {ℓ : Loc nD τ sig} {S : Finset (Idx ℓ)} {f : Buf (Elt F) ℓ} (q : PosShare TreeShare) (b : ℕ) :
    (ℓ ↦[S]{q} f : sProp 𝕄) ⊣⊢ iprop((ℓ ↦[S]{shareDrop q (b + 8)} f)
      ∗ (ℓ ↦[S]{shareTokN q (b + 7)} f) ∗ (ℓ ↦[S]{shareTokN q (b + 6)} f) ∗ (ℓ ↦[S]{shareTokN q (b + 5)} f) ∗ (ℓ ↦[S]{shareTokN q (b + 4)} f)
      ∗ (ℓ ↦[S]{shareTokN q (b + 3)} f) ∗ (ℓ ↦[S]{shareTokN q (b + 2)} f) ∗ (ℓ ↦[S]{shareTokN q (b + 1)} f) ∗ (ℓ ↦[S]{shareTokN q b} f)
      ∗ BI.bigSep (Finset.range b) (fun i => ℓ ↦[S]{shareTokN q i} f)) := by
  have h : (ℓ ↦[S]{q} f : sProp 𝕄) ⊣⊢ iprop((ℓ ↦[S]{shareDrop q (b + 8)} f) ∗ BI.bigSep (Finset.range (b + 8)) (fun i => ℓ ↦[S]{shareTokN q i} f)) :=
    Transfers.pointsTo_toks_range q (b + 8)
  have hb : ∀ k : ℕ, BI.bigSep (Finset.range (k + 1)) (fun i => (ℓ ↦[S]{shareTokN q i} f : sProp 𝕄))
      = iprop((ℓ ↦[S]{shareTokN q k} f) ∗ BI.bigSep (Finset.range k) (fun i => ℓ ↦[S]{shareTokN q i} f)) := fun k => by
    rw [Finset.range_add_one, BI.bigSep_insert Finset.notMem_range_self]; rfl
  rw [(hb (b + 7) : BI.bigSep (Finset.range (b + 8)) _ = _), (hb (b + 6) : BI.bigSep (Finset.range (b + 7)) _ = _),
    (hb (b + 5) : BI.bigSep (Finset.range (b + 6)) _ = _), (hb (b + 4) : BI.bigSep (Finset.range (b + 5)) _ = _),
    (hb (b + 3) : BI.bigSep (Finset.range (b + 4)) _ = _), (hb (b + 2) : BI.bigSep (Finset.range (b + 3)) _ = _),
    (hb (b + 1) : BI.bigSep (Finset.range (b + 2)) _ = _), hb b] at h
  exact h

/-! ## Words and rows -/

/-- Memref M's raw buffer on core c. -/
abbrev Bf (c : Dev nD) {sp : Space} {S : Shape} {e : EltTy} (M : Memref sig .tc sp S e) : Type := Buf (Elt F) (M.view.loc (c : Thread nD τ))

/-- The one index of a one-word load. -/
abbrev i0 : S1.Idx := Shape.Idx.first (s := S1) (numel1_S1.symm ▸ Nat.one_pos)

/-- A row index below 50000 names a whole row inside the 50000 x 128 array: what the body assumes of each word it loads. -/
theorem row_inb (w : BitVec 32) (hw : w.toNat < 50000) : ∀ a, (![w.toNat, 0] : Fin 2 → ℕ) a + S1x128.size a ≤ S50000x128.size a := by
  intro a; fin_cases a
  · show w.toNat + 1 ≤ 50000; omega
  · show 0 + 128 ≤ 128; omega

/-! ## The block's eight rows as the transfers address them -/

section Rows

/-- A write through one rectangle of a view leaves the elements under a rectangle separated from it as they were. -/
theorem write_slice_of_disj {κ : Kind} {sp : Space} {s : Shape} {e : EltTy} (v : View sig κ sp s e) (R R' : Rect s)
    (h : LoadRect.disj R' R.toLoadRect = true) (g : v.ty.Contents (Elt F)) (w : R'.shape.Idx → Elt F e) {i : v.ty.Idx}
    (hi : i ∈ (v.slice R).set) : (v.slice R').write (Elt F) g w Finset.univ i = g i :=
  View.write_of_not_mem _ _ _ (by
    rw [View.setOn_univ]
    exact fun hm => Finset.disjoint_left.mp (View.disjoint_slice_of_disj v R' R h) hm hi)

/-- Later writes through rectangles all separated from R leave R's elements at what the earlier writes left. -/
theorem writes_append_of_disj {κ : Kind} {sp : Space} {s : Shape} {e : EltTy} (v : View sig κ sp s e) (f : v.ty.Contents (Elt F))
    (R : Rect s) (Q L : List (View.Piece (Elt F) s e)) (Rs : List (Rect s)) (hRs : Q.map Sigma.fst = Rs)
    (h : LoadRect.disjAll Rs R.toLoadRect = true) {i : v.ty.Idx}
    (hi : i ∈ (v.slice R).set) : v.writes (Elt F) f (Q ++ L) i = v.writes (Elt F) f L i := by
  subst hRs
  induction Q with
  | nil => rfl
  | cons q Q ih =>
    simp only [LoadRect.disjAll, List.map_cons, List.all_cons, Bool.and_eq_true] at h
    rw [List.cons_append, View.writes_cons, write_slice_of_disj v R q.1 h.1 _ _ hi]
    exact ih (by simpa only [LoadRect.disjAll] using h.2)

variable (arg3 : Memref sig .tc .vmem S8x128 .f32)

abbrev rowR0 : Rect S8x128 := Rect.unit (s := S8x128) ![0, 0] S1x128.size inb_S8x128_S1x128_0_0
abbrev rowM0 : Memref sig .tc .vmem S128 .f32 := (arg3.slice rowR0 (fun _ => rfl)).squeeze S128 squeezes_S1x128_S128
abbrev rowP0 (p : S128.Idx → Elt F .f32) : View.Piece (Elt F) S8x128 .f32 :=
  ⟨rowR0, fun x => p ((Shape.reshapeEquiv (squeezes_S1x128_S128.numel_eq : S128.numel = S1x128.numel)).symm x)⟩
abbrev rowR1 : Rect S8x128 := Rect.unit (s := S8x128) ![1, 0] S1x128.size inb_S8x128_S1x128_1_0
abbrev rowM1 : Memref sig .tc .vmem S128 .f32 := (arg3.slice rowR1 (fun _ => rfl)).squeeze S128 squeezes_S1x128_S128
abbrev rowP1 (p : S128.Idx → Elt F .f32) : View.Piece (Elt F) S8x128 .f32 :=
  ⟨rowR1, fun x => p ((Shape.reshapeEquiv (squeezes_S1x128_S128.numel_eq : S128.numel = S1x128.numel)).symm x)⟩
abbrev rowR2 : Rect S8x128 := Rect.unit (s := S8x128) ![2, 0] S1x128.size inb_S8x128_S1x128_2_0
abbrev rowM2 : Memref sig .tc .vmem S128 .f32 := (arg3.slice rowR2 (fun _ => rfl)).squeeze S128 squeezes_S1x128_S128
abbrev rowP2 (p : S128.Idx → Elt F .f32) : View.Piece (Elt F) S8x128 .f32 :=
  ⟨rowR2, fun x => p ((Shape.reshapeEquiv (squeezes_S1x128_S128.numel_eq : S128.numel = S1x128.numel)).symm x)⟩
abbrev rowR3 : Rect S8x128 := Rect.unit (s := S8x128) ![3, 0] S1x128.size inb_S8x128_S1x128_3_0
abbrev rowM3 : Memref sig .tc .vmem S128 .f32 := (arg3.slice rowR3 (fun _ => rfl)).squeeze S128 squeezes_S1x128_S128
abbrev rowP3 (p : S128.Idx → Elt F .f32) : View.Piece (Elt F) S8x128 .f32 :=
  ⟨rowR3, fun x => p ((Shape.reshapeEquiv (squeezes_S1x128_S128.numel_eq : S128.numel = S1x128.numel)).symm x)⟩
abbrev rowR4 : Rect S8x128 := Rect.unit (s := S8x128) ![4, 0] S1x128.size inb_S8x128_S1x128_4_0
abbrev rowM4 : Memref sig .tc .vmem S128 .f32 := (arg3.slice rowR4 (fun _ => rfl)).squeeze S128 squeezes_S1x128_S128
abbrev rowP4 (p : S128.Idx → Elt F .f32) : View.Piece (Elt F) S8x128 .f32 :=
  ⟨rowR4, fun x => p ((Shape.reshapeEquiv (squeezes_S1x128_S128.numel_eq : S128.numel = S1x128.numel)).symm x)⟩
abbrev rowR5 : Rect S8x128 := Rect.unit (s := S8x128) ![5, 0] S1x128.size inb_S8x128_S1x128_5_0
abbrev rowM5 : Memref sig .tc .vmem S128 .f32 := (arg3.slice rowR5 (fun _ => rfl)).squeeze S128 squeezes_S1x128_S128
abbrev rowP5 (p : S128.Idx → Elt F .f32) : View.Piece (Elt F) S8x128 .f32 :=
  ⟨rowR5, fun x => p ((Shape.reshapeEquiv (squeezes_S1x128_S128.numel_eq : S128.numel = S1x128.numel)).symm x)⟩
abbrev rowR6 : Rect S8x128 := Rect.unit (s := S8x128) ![6, 0] S1x128.size inb_S8x128_S1x128_6_0
abbrev rowM6 : Memref sig .tc .vmem S128 .f32 := (arg3.slice rowR6 (fun _ => rfl)).squeeze S128 squeezes_S1x128_S128
abbrev rowP6 (p : S128.Idx → Elt F .f32) : View.Piece (Elt F) S8x128 .f32 :=
  ⟨rowR6, fun x => p ((Shape.reshapeEquiv (squeezes_S1x128_S128.numel_eq : S128.numel = S1x128.numel)).symm x)⟩
abbrev rowR7 : Rect S8x128 := Rect.unit (s := S8x128) ![7, 0] S1x128.size inb_S8x128_S1x128_7_0
abbrev rowM7 : Memref sig .tc .vmem S128 .f32 := (arg3.slice rowR7 (fun _ => rfl)).squeeze S128 squeezes_S1x128_S128
abbrev rowP7 (p : S128.Idx → Elt F .f32) : View.Piece (Elt F) S8x128 .f32 :=
  ⟨rowR7, fun x => p ((Shape.reshapeEquiv (squeezes_S1x128_S128.numel_eq : S128.numel = S1x128.numel)).symm x)⟩

variable (f3 : arg3.view.ty.Contents (Elt F)) (p0 p1 p2 p3 p4 p5 p6 p7 : S128.Idx → Elt F .f32)

abbrev lay1 : arg3.view.ty.Contents (Elt F) := (rowM0 arg3).view.write (Elt F) f3 p0 Finset.univ
abbrev lay2 : arg3.view.ty.Contents (Elt F) := (rowM1 arg3).view.write (Elt F) (lay1 arg3 f3 p0) p1 Finset.univ
abbrev lay3 : arg3.view.ty.Contents (Elt F) := (rowM2 arg3).view.write (Elt F) (lay2 arg3 f3 p0 p1) p2 Finset.univ
abbrev lay4 : arg3.view.ty.Contents (Elt F) := (rowM3 arg3).view.write (Elt F) (lay3 arg3 f3 p0 p1 p2) p3 Finset.univ
abbrev lay5 : arg3.view.ty.Contents (Elt F) := (rowM4 arg3).view.write (Elt F) (lay4 arg3 f3 p0 p1 p2 p3) p4 Finset.univ
abbrev lay6 : arg3.view.ty.Contents (Elt F) := (rowM5 arg3).view.write (Elt F) (lay5 arg3 f3 p0 p1 p2 p3 p4) p5 Finset.univ
abbrev lay7 : arg3.view.ty.Contents (Elt F) := (rowM6 arg3).view.write (Elt F) (lay6 arg3 f3 p0 p1 p2 p3 p4 p5) p6 Finset.univ
abbrev lay8 : arg3.view.ty.Contents (Elt F) := (rowM7 arg3).view.write (Elt F) (lay7 arg3 f3 p0 p1 p2 p3 p4 p5 p6) p7 Finset.univ

end Rows

section RowsBack

variable (arg3 : Memref sig .tc .vmem S8x128 .f32) (f3 : arg3.view.ty.Contents (Elt F)) (p0 p1 p2 p3 p4 p5 p6 p7 : S128.Idx → Elt F .f32)

set_option maxHeartbeats 4000000 in
/-- The eight rows back together. After the eight transfers the block is held row by row, rows 0 to 6 each at what the
    transfers up to its own left, the rest at what all eight left. Rows are pairwise separated, so every row holds what
    all eight left; joined, the block is held whole at the eight writes, one piece a row. -/
theorem rows_join (c : Dev nD) :
    iprop((arg3.view.loc (c : Thread nD τ) ↦[(rowM0 arg3).view.set]{fullShare} lay1 arg3 f3 p0)
        ∗ (arg3.view.loc (c : Thread nD τ) ↦[(rowM1 arg3).view.set]{fullShare} lay2 arg3 f3 p0 p1)
        ∗ (arg3.view.loc (c : Thread nD τ) ↦[(rowM2 arg3).view.set]{fullShare} lay3 arg3 f3 p0 p1 p2)
        ∗ (arg3.view.loc (c : Thread nD τ) ↦[(rowM3 arg3).view.set]{fullShare} lay4 arg3 f3 p0 p1 p2 p3)
        ∗ (arg3.view.loc (c : Thread nD τ) ↦[(rowM4 arg3).view.set]{fullShare} lay5 arg3 f3 p0 p1 p2 p3 p4)
        ∗ (arg3.view.loc (c : Thread nD τ) ↦[(rowM5 arg3).view.set]{fullShare} lay6 arg3 f3 p0 p1 p2 p3 p4 p5)
        ∗ (arg3.view.loc (c : Thread nD τ) ↦[(rowM6 arg3).view.set]{fullShare} lay7 arg3 f3 p0 p1 p2 p3 p4 p5 p6)
        ∗ (arg3.view.loc (c : Thread nD τ) ↦[(((((((arg3.view.set \ (rowM0 arg3).view.set) \ (rowM1 arg3).view.set) \ (rowM2 arg3).view.set) \ (rowM3 arg3).view.set) \ (rowM4 arg3).view.set) \ (rowM5 arg3).view.set) \ (rowM6 arg3).view.set)]{fullShare} lay8 arg3 f3 p0 p1 p2 p3 p4 p5 p6 p7))
      ⊢ (arg3.view.loc (c : Thread nD τ) ↦[arg3.view.set]{fullShare} arg3.view.writes (Elt F) f3 [rowP7 p7, rowP6 p6, rowP5 p5, rowP4 p4, rowP3 p3, rowP2 p2, rowP1 p1, rowP0 p0] : sProp 𝕄) := by
  have e1 : lay1 arg3 f3 p0 = arg3.view.writes (Elt F) f3 [rowP0 p0] := View.write_reshape_univ (arg3.view.slice rowR0) (squeezes_S1x128_S128.numel_eq : S128.numel = S1x128.numel) f3 p0
  have e2 : lay2 arg3 f3 p0 p1 = arg3.view.writes (Elt F) f3 [rowP1 p1, rowP0 p0] :=
    (View.write_reshape_univ (arg3.view.slice rowR1) (squeezes_S1x128_S128.numel_eq : S128.numel = S1x128.numel) (lay1 arg3 f3 p0) p1).trans
      (congrArg (fun g => (arg3.view.slice rowR1).write (Elt F) g (rowP1 p1).2 Finset.univ) e1)
  have e3 : lay3 arg3 f3 p0 p1 p2 = arg3.view.writes (Elt F) f3 [rowP2 p2, rowP1 p1, rowP0 p0] :=
    (View.write_reshape_univ (arg3.view.slice rowR2) (squeezes_S1x128_S128.numel_eq : S128.numel = S1x128.numel) (lay2 arg3 f3 p0 p1) p2).trans
      (congrArg (fun g => (arg3.view.slice rowR2).write (Elt F) g (rowP2 p2).2 Finset.univ) e2)
  have e4 : lay4 arg3 f3 p0 p1 p2 p3 = arg3.view.writes (Elt F) f3 [rowP3 p3, rowP2 p2, rowP1 p1, rowP0 p0] :=
    (View.write_reshape_univ (arg3.view.slice rowR3) (squeezes_S1x128_S128.numel_eq : S128.numel = S1x128.numel) (lay3 arg3 f3 p0 p1 p2) p3).trans
      (congrArg (fun g => (arg3.view.slice rowR3).write (Elt F) g (rowP3 p3).2 Finset.univ) e3)
  have e5 : lay5 arg3 f3 p0 p1 p2 p3 p4 = arg3.view.writes (Elt F) f3 [rowP4 p4, rowP3 p3, rowP2 p2, rowP1 p1, rowP0 p0] :=
    (View.write_reshape_univ (arg3.view.slice rowR4) (squeezes_S1x128_S128.numel_eq : S128.numel = S1x128.numel) (lay4 arg3 f3 p0 p1 p2 p3) p4).trans
      (congrArg (fun g => (arg3.view.slice rowR4).write (Elt F) g (rowP4 p4).2 Finset.univ) e4)
  have e6 : lay6 arg3 f3 p0 p1 p2 p3 p4 p5 = arg3.view.writes (Elt F) f3 [rowP5 p5, rowP4 p4, rowP3 p3, rowP2 p2, rowP1 p1, rowP0 p0] :=
    (View.write_reshape_univ (arg3.view.slice rowR5) (squeezes_S1x128_S128.numel_eq : S128.numel = S1x128.numel) (lay5 arg3 f3 p0 p1 p2 p3 p4) p5).trans
      (congrArg (fun g => (arg3.view.slice rowR5).write (Elt F) g (rowP5 p5).2 Finset.univ) e5)
  have e7 : lay7 arg3 f3 p0 p1 p2 p3 p4 p5 p6 = arg3.view.writes (Elt F) f3 [rowP6 p6, rowP5 p5, rowP4 p4, rowP3 p3, rowP2 p2, rowP1 p1, rowP0 p0] :=
    (View.write_reshape_univ (arg3.view.slice rowR6) (squeezes_S1x128_S128.numel_eq : S128.numel = S1x128.numel) (lay6 arg3 f3 p0 p1 p2 p3 p4 p5) p6).trans
      (congrArg (fun g => (arg3.view.slice rowR6).write (Elt F) g (rowP6 p6).2 Finset.univ) e6)
  have e8 : lay8 arg3 f3 p0 p1 p2 p3 p4 p5 p6 p7 = arg3.view.writes (Elt F) f3 [rowP7 p7, rowP6 p6, rowP5 p5, rowP4 p4, rowP3 p3, rowP2 p2, rowP1 p1, rowP0 p0] :=
    (View.write_reshape_univ (arg3.view.slice rowR7) (squeezes_S1x128_S128.numel_eq : S128.numel = S1x128.numel) (lay7 arg3 f3 p0 p1 p2 p3 p4 p5 p6) p7).trans
      (congrArg (fun g => (arg3.view.slice rowR7).write (Elt F) g (rowP7 p7).2 Finset.univ) e7)
  have s0 : (rowM0 arg3).view.set = (arg3.view.slice rowR0).set :=
    View.set_reshape (arg3.view.slice rowR0) (squeezes_S1x128_S128.numel_eq : S128.numel = S1x128.numel)
  have s1 : (rowM1 arg3).view.set = (arg3.view.slice rowR1).set :=
    View.set_reshape (arg3.view.slice rowR1) (squeezes_S1x128_S128.numel_eq : S128.numel = S1x128.numel)
  have s2 : (rowM2 arg3).view.set = (arg3.view.slice rowR2).set :=
    View.set_reshape (arg3.view.slice rowR2) (squeezes_S1x128_S128.numel_eq : S128.numel = S1x128.numel)
  have s3 : (rowM3 arg3).view.set = (arg3.view.slice rowR3).set :=
    View.set_reshape (arg3.view.slice rowR3) (squeezes_S1x128_S128.numel_eq : S128.numel = S1x128.numel)
  have s4 : (rowM4 arg3).view.set = (arg3.view.slice rowR4).set :=
    View.set_reshape (arg3.view.slice rowR4) (squeezes_S1x128_S128.numel_eq : S128.numel = S1x128.numel)
  have s5 : (rowM5 arg3).view.set = (arg3.view.slice rowR5).set :=
    View.set_reshape (arg3.view.slice rowR5) (squeezes_S1x128_S128.numel_eq : S128.numel = S1x128.numel)
  have s6 : (rowM6 arg3).view.set = (arg3.view.slice rowR6).set :=
    View.set_reshape (arg3.view.slice rowR6) (squeezes_S1x128_S128.numel_eq : S128.numel = S1x128.numel)
  have sub0 := View.set_slice_subset arg3.view rowR0
  have sub1 := View.set_slice_subset_sdiff arg3.view rowR0 rowR1 (View.set_slice_subset arg3.view rowR1) (by decide)
  have sub2 := View.set_slice_subset_sdiff arg3.view rowR1 rowR2 (View.set_slice_subset_sdiff arg3.view rowR0 rowR2 (View.set_slice_subset arg3.view rowR2) (by decide)) (by decide)
  have sub3 := View.set_slice_subset_sdiff arg3.view rowR2 rowR3 (View.set_slice_subset_sdiff arg3.view rowR1 rowR3 (View.set_slice_subset_sdiff arg3.view rowR0 rowR3 (View.set_slice_subset arg3.view rowR3) (by decide)) (by decide)) (by decide)
  have sub4 := View.set_slice_subset_sdiff arg3.view rowR3 rowR4 (View.set_slice_subset_sdiff arg3.view rowR2 rowR4 (View.set_slice_subset_sdiff arg3.view rowR1 rowR4 (View.set_slice_subset_sdiff arg3.view rowR0 rowR4 (View.set_slice_subset arg3.view rowR4) (by decide)) (by decide)) (by decide)) (by decide)
  have sub5 := View.set_slice_subset_sdiff arg3.view rowR4 rowR5 (View.set_slice_subset_sdiff arg3.view rowR3 rowR5 (View.set_slice_subset_sdiff arg3.view rowR2 rowR5 (View.set_slice_subset_sdiff arg3.view rowR1 rowR5 (View.set_slice_subset_sdiff arg3.view rowR0 rowR5 (View.set_slice_subset arg3.view rowR5) (by decide)) (by decide)) (by decide)) (by decide)) (by decide)
  have sub6 := View.set_slice_subset_sdiff arg3.view rowR5 rowR6 (View.set_slice_subset_sdiff arg3.view rowR4 rowR6 (View.set_slice_subset_sdiff arg3.view rowR3 rowR6 (View.set_slice_subset_sdiff arg3.view rowR2 rowR6 (View.set_slice_subset_sdiff arg3.view rowR1 rowR6 (View.set_slice_subset_sdiff arg3.view rowR0 rowR6 (View.set_slice_subset arg3.view rowR6) (by decide)) (by decide)) (by decide)) (by decide)) (by decide)) (by decide)
  rw [e1, e2, e3, e4, e5, e6, e7, e8, s0, s1, s2, s3, s4, s5, s6]
  iintro ⟨H0, H1, H2, H3, H4, H5, H6, Hr⟩
  ihave H0 := (Entails.of_eq (show (arg3.view.loc (c : Thread nD τ) ↦[(arg3.view.slice rowR0).set]{fullShare} arg3.view.writes (Elt F) f3 [rowP0 p0] : sProp 𝕄)
      = (arg3.view.loc (c : Thread nD τ) ↦[(arg3.view.slice rowR0).set]{fullShare} arg3.view.writes (Elt F) f3 [rowP7 p7, rowP6 p6, rowP5 p5, rowP4 p4, rowP3 p3, rowP2 p2, rowP1 p1, rowP0 p0]) from
    pointsTo_congr fun i hi => (writes_append_of_disj arg3.view f3 rowR0 [rowP7 p7, rowP6 p6, rowP5 p5, rowP4 p4, rowP3 p3, rowP2 p2, rowP1 p1] [rowP0 p0] [rowR7, rowR6, rowR5, rowR4, rowR3, rowR2, rowR1] rfl (by decide) hi).symm)) $$ H0
  ihave H1 := (Entails.of_eq (show (arg3.view.loc (c : Thread nD τ) ↦[(arg3.view.slice rowR1).set]{fullShare} arg3.view.writes (Elt F) f3 [rowP1 p1, rowP0 p0] : sProp 𝕄)
      = (arg3.view.loc (c : Thread nD τ) ↦[(arg3.view.slice rowR1).set]{fullShare} arg3.view.writes (Elt F) f3 [rowP7 p7, rowP6 p6, rowP5 p5, rowP4 p4, rowP3 p3, rowP2 p2, rowP1 p1, rowP0 p0]) from
    pointsTo_congr fun i hi => (writes_append_of_disj arg3.view f3 rowR1 [rowP7 p7, rowP6 p6, rowP5 p5, rowP4 p4, rowP3 p3, rowP2 p2] [rowP1 p1, rowP0 p0] [rowR7, rowR6, rowR5, rowR4, rowR3, rowR2] rfl (by decide) hi).symm)) $$ H1
  ihave H2 := (Entails.of_eq (show (arg3.view.loc (c : Thread nD τ) ↦[(arg3.view.slice rowR2).set]{fullShare} arg3.view.writes (Elt F) f3 [rowP2 p2, rowP1 p1, rowP0 p0] : sProp 𝕄)
      = (arg3.view.loc (c : Thread nD τ) ↦[(arg3.view.slice rowR2).set]{fullShare} arg3.view.writes (Elt F) f3 [rowP7 p7, rowP6 p6, rowP5 p5, rowP4 p4, rowP3 p3, rowP2 p2, rowP1 p1, rowP0 p0]) from
    pointsTo_congr fun i hi => (writes_append_of_disj arg3.view f3 rowR2 [rowP7 p7, rowP6 p6, rowP5 p5, rowP4 p4, rowP3 p3] [rowP2 p2, rowP1 p1, rowP0 p0] [rowR7, rowR6, rowR5, rowR4, rowR3] rfl (by decide) hi).symm)) $$ H2
  ihave H3 := (Entails.of_eq (show (arg3.view.loc (c : Thread nD τ) ↦[(arg3.view.slice rowR3).set]{fullShare} arg3.view.writes (Elt F) f3 [rowP3 p3, rowP2 p2, rowP1 p1, rowP0 p0] : sProp 𝕄)
      = (arg3.view.loc (c : Thread nD τ) ↦[(arg3.view.slice rowR3).set]{fullShare} arg3.view.writes (Elt F) f3 [rowP7 p7, rowP6 p6, rowP5 p5, rowP4 p4, rowP3 p3, rowP2 p2, rowP1 p1, rowP0 p0]) from
    pointsTo_congr fun i hi => (writes_append_of_disj arg3.view f3 rowR3 [rowP7 p7, rowP6 p6, rowP5 p5, rowP4 p4] [rowP3 p3, rowP2 p2, rowP1 p1, rowP0 p0] [rowR7, rowR6, rowR5, rowR4] rfl (by decide) hi).symm)) $$ H3
  ihave H4 := (Entails.of_eq (show (arg3.view.loc (c : Thread nD τ) ↦[(arg3.view.slice rowR4).set]{fullShare} arg3.view.writes (Elt F) f3 [rowP4 p4, rowP3 p3, rowP2 p2, rowP1 p1, rowP0 p0] : sProp 𝕄)
      = (arg3.view.loc (c : Thread nD τ) ↦[(arg3.view.slice rowR4).set]{fullShare} arg3.view.writes (Elt F) f3 [rowP7 p7, rowP6 p6, rowP5 p5, rowP4 p4, rowP3 p3, rowP2 p2, rowP1 p1, rowP0 p0]) from
    pointsTo_congr fun i hi => (writes_append_of_disj arg3.view f3 rowR4 [rowP7 p7, rowP6 p6, rowP5 p5] [rowP4 p4, rowP3 p3, rowP2 p2, rowP1 p1, rowP0 p0] [rowR7, rowR6, rowR5] rfl (by decide) hi).symm)) $$ H4
  ihave H5 := (Entails.of_eq (show (arg3.view.loc (c : Thread nD τ) ↦[(arg3.view.slice rowR5).set]{fullShare} arg3.view.writes (Elt F) f3 [rowP5 p5, rowP4 p4, rowP3 p3, rowP2 p2, rowP1 p1, rowP0 p0] : sProp 𝕄)
      = (arg3.view.loc (c : Thread nD τ) ↦[(arg3.view.slice rowR5).set]{fullShare} arg3.view.writes (Elt F) f3 [rowP7 p7, rowP6 p6, rowP5 p5, rowP4 p4, rowP3 p3, rowP2 p2, rowP1 p1, rowP0 p0]) from
    pointsTo_congr fun i hi => (writes_append_of_disj arg3.view f3 rowR5 [rowP7 p7, rowP6 p6] [rowP5 p5, rowP4 p4, rowP3 p3, rowP2 p2, rowP1 p1, rowP0 p0] [rowR7, rowR6] rfl (by decide) hi).symm)) $$ H5
  ihave H6 := (Entails.of_eq (show (arg3.view.loc (c : Thread nD τ) ↦[(arg3.view.slice rowR6).set]{fullShare} arg3.view.writes (Elt F) f3 [rowP6 p6, rowP5 p5, rowP4 p4, rowP3 p3, rowP2 p2, rowP1 p1, rowP0 p0] : sProp 𝕄)
      = (arg3.view.loc (c : Thread nD τ) ↦[(arg3.view.slice rowR6).set]{fullShare} arg3.view.writes (Elt F) f3 [rowP7 p7, rowP6 p6, rowP5 p5, rowP4 p4, rowP3 p3, rowP2 p2, rowP1 p1, rowP0 p0]) from
    pointsTo_congr fun i hi => (writes_append_of_disj arg3.view f3 rowR6 [rowP7 p7] [rowP6 p6, rowP5 p5, rowP4 p4, rowP3 p3, rowP2 p2, rowP1 p1, rowP0 p0] [rowR7] rfl (by decide) hi).symm)) $$ H6
  iapply (pointsTo_split_subset sub0).2
  isplitl [H0]; · iexact H0
  iapply (pointsTo_split_subset sub1).2
  isplitl [H1]; · iexact H1
  iapply (pointsTo_split_subset sub2).2
  isplitl [H2]; · iexact H2
  iapply (pointsTo_split_subset sub3).2
  isplitl [H3]; · iexact H3
  iapply (pointsTo_split_subset sub4).2
  isplitl [H4]; · iexact H4
  iapply (pointsTo_split_subset sub5).2
  isplitl [H5]; · iexact H5
  iapply (pointsTo_split_subset sub6).2
  isplitl [H6]; · iexact H6
  iexact Hr

/-- What the block reads after the eight writes: the function G the eight payloads are the rows of. The rows tile the
    block, so every element is under exactly the piece of its row. -/
theorem rows_read [∀ e, Nonempty (Elt F e)] (G : Vec F S8x128 .f32)
    (hG0 : ∀ x : (rowR0).shape.Idx, (rowP0 p0).2 x = G ((rowR0).emb x))
    (hG1 : ∀ x : (rowR1).shape.Idx, (rowP1 p1).2 x = G ((rowR1).emb x))
    (hG2 : ∀ x : (rowR2).shape.Idx, (rowP2 p2).2 x = G ((rowR2).emb x))
    (hG3 : ∀ x : (rowR3).shape.Idx, (rowP3 p3).2 x = G ((rowR3).emb x))
    (hG4 : ∀ x : (rowR4).shape.Idx, (rowP4 p4).2 x = G ((rowR4).emb x))
    (hG5 : ∀ x : (rowR5).shape.Idx, (rowP5 p5).2 x = G ((rowR5).emb x))
    (hG6 : ∀ x : (rowR6).shape.Idx, (rowP6 p6).2 x = G ((rowR6).emb x))
    (hG7 : ∀ x : (rowR7).shape.Idx, (rowP7 p7).2 x = G ((rowR7).emb x)) :
    arg3.view.read (Elt F) (arg3.view.writes (Elt F) f3 [rowP7 p7, rowP6 p6, rowP5 p5, rowP4 p4, rowP3 p3, rowP2 p2, rowP1 p1, rowP0 p0]) = G := by
  funext y
  refine View.read_writes_apply_of_pieces arg3.view f3 G [rowP7 p7, rowP6 p6, rowP5 p5, rowP4 p4, rowP3 p3, rowP2 p2, rowP1 p1, rowP0 p0] ?_ y (View.cover_of_tiled [rowP7 p7, rowP6 p6, rowP5 p5, rowP4 p4, rowP3 p3, rowP2 p2, rowP1 p1, rowP0 p0] S1x128.size rfl y)
  intro p hp x
  simp only [List.mem_cons, List.not_mem_nil, _root_.or_false] at hp
  rcases hp with rfl | rfl | rfl | rfl | rfl | rfl | rfl | rfl
  · exact hG7 x
  · exact hG6 x
  · exact hG5 x
  · exact hG4 x
  · exact hG3 x
  · exact hG2 x
  · exact hG1 x
  · exact hG0 x

end RowsBack

/-! ## One word of the table, one row of the array -/

/-- The word a one-word load at offsets ![p] reads through a whole memref held at the contents that read tbl: tbl at p. -/
theorem word_at {n : ℕ} (arg1 : Memref sig .tc .smem (⟨1, ![n]⟩ : Shape) .i32) (harg1 : arg1.IsWhole) (tbl : Vec F (⟨1, ![n]⟩ : Shape) .i32)
    (off : Fin 1 → ℕ) (inb : ∀ a, off a + S1.size a ≤ (⟨1, ![n]⟩ : Shape).size a) (p : ℕ) (hoff : off = ![p]) (hp : p < n) :
    arg1.view.readAt (Elt F) (Rect.unit (s := (⟨1, ![n]⟩ : Shape)) off S1.size inb).toLoadRect (harg1.unread tbl) i0
      = tbl (ValueIdx.ix1 (⟨p, hp⟩ : Fin n)) := by
  subst hoff
  rw [Memref.IsWhole.readAt_unread harg1]
  refine congrArg tbl (funext fun a => ?_)
  match a with
  | ⟨0, _⟩ => exact Fin.ext (show p + 1 * 0 = p by omega)

/-- Row r of the block after a transfer of the array's row w. The transfer's payload — the array read through its row w,
    squeezed to 128 words — taken as a piece of the block at row r is the function G there, whenever G on row r is the
    array on row w, column by column. -/
theorem row_piece (arg2 : Memref sig .tc .hbm S50000x128 .f32) {c : Dev nD} (fA : Bf (F := F) c arg2) (w : BitVec 32)
    (hinb : ∀ a, (![w.toNat, 0] : Fin 2 → ℕ) a + S1x128.size a ≤ S50000x128.size a)
    (r : ℕ) (inbR : ∀ a, (![r, 0] : Fin 2 → ℕ) a + S1x128.size a ≤ S8x128.size a) (G : Vec F S8x128 .f32)
    (hG : ∀ (y : S8x128.Idx) (z : S50000x128.Idx), (y 0).val = r → (z 0).val = w.toNat → (z 1).val = (y 1).val →
      G y = arg2.view.read (Elt F) fA z)
    (x : (Rect.unit (s := S8x128) ![r, 0] S1x128.size inbR).shape.Idx) :
    ReadAs.same.apply (View.read (Elt F)
        ((arg2.slice (Rect.unit (s := S50000x128) ![w.toNat, 0] S1x128.size hinb) (fun _ => rfl)).squeeze S128 squeezes_S1x128_S128).view fA)
        ((Shape.reshapeEquiv (squeezes_S1x128_S128.numel_eq : S128.numel = S1x128.numel)).symm x)
      = G ((Rect.unit (s := S8x128) ![r, 0] S1x128.size inbR).emb x) := by
  have hx0 : (x 0).val = 0 := by
    have h : (x 0).val < 1 := (x 0).isLt
    omega
  have e : (Shape.reshapeEquiv (squeezes_S1x128_S128.numel_eq : S128.numel = S1x128.numel))
      ((Shape.reshapeEquiv (squeezes_S1x128_S128.numel_eq : S128.numel = S1x128.numel)).symm x) = x := Equiv.apply_symm_apply _ x
  show arg2.view.read (Elt F) fA ((Rect.unit (s := S50000x128) ![w.toNat, 0] S1x128.size hinb).emb
      ((Shape.reshapeEquiv (squeezes_S1x128_S128.numel_eq : S128.numel = S1x128.numel))
        ((Shape.reshapeEquiv (squeezes_S1x128_S128.numel_eq : S128.numel = S1x128.numel)).symm x))) = _
  rw [e]
  exact (hG _ _ (show r + 1 * (x 0).val = r by rw [hx0]; omega) (show w.toNat + 1 * (x 0).val = w.toNat by rw [hx0]; omega)
    (show 0 + 1 * (x 1).val = 0 + 1 * (x 1).val from rfl)).symm

end Cert.KernelIdeal.Hand

end
-- ==== Proof.KI.GatherBody1.lean ====
/-
  Region 1's body: eight rows gathered at every grid point.

  At grid point i the body loads the table's words 8 i … 8 i + 7, and for each word w copies row w of the 50000 x 128 array
  it finds in HBM into one row of its 8 x 128 output block, by eight transfers of its own on eight semaphores of its own,
  all waited for before the point ends. Every word is assumed a row of the array; the hypothesis on the table makes it so.
  So the point leaves the block reading, at row j and column l, the array at row (table word 8 i + j) and column l
  (gath1), the table and the array as they were, and the semaphores at zero (kernelRun1, stated for any array of eight semaphores: the regions that run the same body
  on other semaphores cite it). Read with the region's invariant
  that is the pipeline's body obligation for the region's proof data (hbodyG1), whose output block at point t is gblk1.
-/
import proofs.«402049_j87351044866139_2_alg».proof.Proof.KI.GatherDef1
import proofs.«402049_j87351044866139_2_alg».proof.Proof.KI.GatherLib

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Idealize.ShloMosaic.Transfers (shareDrop shareTokN)
open Cert.KernelIdeal Cert.KernelIdeal.Gen

variable {F : FTy → Type} [FloatOps F]

local notation "𝕄" => MT nD τ sig Unit (Elt F) ℕ (Pipeline.UD sig nD τ) ℕ

/-! ## The body's run -/

/-- Cell 0 of a body's eight semaphores, as the body names it. -/
abbrev cell1_0 (arg4 : DmaSems sig S8) : SemLoc sig := SemLoc.dma ((arg4.slice (Rect.unit (s := S8) ![0] S1.size inb_S8_S1_0)).squeeze S_ squeezes_S1_S_).sem
/-- Cell 1 of a body's eight semaphores, as the body names it. -/
abbrev cell1_1 (arg4 : DmaSems sig S8) : SemLoc sig := SemLoc.dma ((arg4.slice (Rect.unit (s := S8) ![1] S1.size inb_S8_S1_1)).squeeze S_ squeezes_S1_S_).sem
/-- Cell 2 of a body's eight semaphores, as the body names it. -/
abbrev cell1_2 (arg4 : DmaSems sig S8) : SemLoc sig := SemLoc.dma ((arg4.slice (Rect.unit (s := S8) ![2] S1.size inb_S8_S1_2)).squeeze S_ squeezes_S1_S_).sem
/-- Cell 3 of a body's eight semaphores, as the body names it. -/
abbrev cell1_3 (arg4 : DmaSems sig S8) : SemLoc sig := SemLoc.dma ((arg4.slice (Rect.unit (s := S8) ![3] S1.size inb_S8_S1_3)).squeeze S_ squeezes_S1_S_).sem
/-- Cell 4 of a body's eight semaphores, as the body names it. -/
abbrev cell1_4 (arg4 : DmaSems sig S8) : SemLoc sig := SemLoc.dma ((arg4.slice (Rect.unit (s := S8) ![4] S1.size inb_S8_S1_4)).squeeze S_ squeezes_S1_S_).sem
/-- Cell 5 of a body's eight semaphores, as the body names it. -/
abbrev cell1_5 (arg4 : DmaSems sig S8) : SemLoc sig := SemLoc.dma ((arg4.slice (Rect.unit (s := S8) ![5] S1.size inb_S8_S1_5)).squeeze S_ squeezes_S1_S_).sem
/-- Cell 6 of a body's eight semaphores, as the body names it. -/
abbrev cell1_6 (arg4 : DmaSems sig S8) : SemLoc sig := SemLoc.dma ((arg4.slice (Rect.unit (s := S8) ![6] S1.size inb_S8_S1_6)).squeeze S_ squeezes_S1_S_).sem
/-- Cell 7 of a body's eight semaphores, as the body names it. -/
abbrev cell1_7 (arg4 : DmaSems sig S8) : SemLoc sig := SemLoc.dma ((arg4.slice (Rect.unit (s := S8) ![7] S1.size inb_S8_S1_7)).squeeze S_ squeezes_S1_S_).sem

/-- Word 0 of the point's eight, as the body's load reads it off contents f1 of the table's memref. -/
abbrev wd1_0 (i : grid1.Coords) (arg1 : Memref sig .tc .smem S85000 .i32) (f1 : arg1.view.ty.Contents (Elt F)) : BitVec 32 :=
  arg1.view.readAt (Elt F) (Rect.unit (s := S85000) (k1_off1 i) S1.size (k1_off1_inb i)).toLoadRect f1 i0
/-- Word 1 of the point's eight, as the body's load reads it off contents f1 of the table's memref. -/
abbrev wd1_1 (i : grid1.Coords) (arg1 : Memref sig .tc .smem S85000 .i32) (f1 : arg1.view.ty.Contents (Elt F)) : BitVec 32 :=
  arg1.view.readAt (Elt F) (Rect.unit (s := S85000) (k1_off3 i) S1.size (k1_off3_inb i)).toLoadRect f1 i0
/-- Word 2 of the point's eight, as the body's load reads it off contents f1 of the table's memref. -/
abbrev wd1_2 (i : grid1.Coords) (arg1 : Memref sig .tc .smem S85000 .i32) (f1 : arg1.view.ty.Contents (Elt F)) : BitVec 32 :=
  arg1.view.readAt (Elt F) (Rect.unit (s := S85000) (k1_off5 i) S1.size (k1_off5_inb i)).toLoadRect f1 i0
/-- Word 3 of the point's eight, as the body's load reads it off contents f1 of the table's memref. -/
abbrev wd1_3 (i : grid1.Coords) (arg1 : Memref sig .tc .smem S85000 .i32) (f1 : arg1.view.ty.Contents (Elt F)) : BitVec 32 :=
  arg1.view.readAt (Elt F) (Rect.unit (s := S85000) (k1_off7 i) S1.size (k1_off7_inb i)).toLoadRect f1 i0
/-- Word 4 of the point's eight, as the body's load reads it off contents f1 of the table's memref. -/
abbrev wd1_4 (i : grid1.Coords) (arg1 : Memref sig .tc .smem S85000 .i32) (f1 : arg1.view.ty.Contents (Elt F)) : BitVec 32 :=
  arg1.view.readAt (Elt F) (Rect.unit (s := S85000) (k1_off9 i) S1.size (k1_off9_inb i)).toLoadRect f1 i0
/-- Word 5 of the point's eight, as the body's load reads it off contents f1 of the table's memref. -/
abbrev wd1_5 (i : grid1.Coords) (arg1 : Memref sig .tc .smem S85000 .i32) (f1 : arg1.view.ty.Contents (Elt F)) : BitVec 32 :=
  arg1.view.readAt (Elt F) (Rect.unit (s := S85000) (k1_off11 i) S1.size (k1_off11_inb i)).toLoadRect f1 i0
/-- Word 6 of the point's eight, as the body's load reads it off contents f1 of the table's memref. -/
abbrev wd1_6 (i : grid1.Coords) (arg1 : Memref sig .tc .smem S85000 .i32) (f1 : arg1.view.ty.Contents (Elt F)) : BitVec 32 :=
  arg1.view.readAt (Elt F) (Rect.unit (s := S85000) (k1_off13 i) S1.size (k1_off13_inb i)).toLoadRect f1 i0
/-- Word 7 of the point's eight, as the body's load reads it off contents f1 of the table's memref. -/
abbrev wd1_7 (i : grid1.Coords) (arg1 : Memref sig .tc .smem S85000 .i32) (f1 : arg1.view.ty.Contents (Elt F)) : BitVec 32 :=
  arg1.view.readAt (Elt F) (Rect.unit (s := S85000) (k1_off15 i) S1.size (k1_off15_inb i)).toLoadRect f1 i0

set_option sl_exec.dmaWindow true in
set_option sl_exec.dmaWindowSet true in
set_option sl_exec.rejoinHeartbeats 1 in
set_option maxHeartbeats 16000000 in
/-- THE BODY'S RUN at grid point i, on whole memrefs: the table held at contents that read tbl, every word of it a row of
    the array; the array held whole at any share; the output block at anything; the eight cells of ANY semaphore array at zero; the core's
    record of waits. Eight words are loaded, each assumed a row (it is), eight rows are sent for on the eight cells and all
    eight waited for. The array is read through eight shares of its share, one a cell, since two transfers in flight may
    read one row; the block is lent row by row and joined again. The run returns the table and the array as they were, the
    cells at zero, the eight waits recorded, and the block reading gath1. -/
theorem kernelRun1 [∀ e, Nonempty (Elt F e)] (c : Dev nD) (i : grid1.Coords)
    (arg1 : Memref sig .tc .smem S85000 .i32) (harg1 : arg1.IsWhole)
    (arg2 : Memref sig .tc .hbm S50000x128 .f32) (harg2 : arg2.IsWhole)
    (arg3 : Memref sig .tc .vmem S8x128 .f32) (harg3 : arg3.IsWhole)
    (tbl : Vec F S85000 .i32) (htbl : ∀ k, (tbl k).toNat < 50000)
    (q qA : PosShare TreeShare) (fA : Bf (F := F) c arg2) (arg4 : DmaSems sig S8)
    (W : Waits sig Unit) (K : PUnit → sProp 𝕄) :
    iprop(owns (c : Thread nD τ) arg1 q tbl ∗ (arg2.view.loc (c : Thread nD τ) ↦{qA} fA) ∗ (∃ d, owns (c : Thread nD τ) arg3 fullShare d)
        ∗ semVal ((c : Thread nD τ), cell1_0 arg4) 0 ∗ semVal ((c : Thread nD τ), cell1_1 arg4) 0 ∗ semVal ((c : Thread nD τ), cell1_2 arg4) 0 ∗ semVal ((c : Thread nD τ), cell1_3 arg4) 0 ∗ semVal ((c : Thread nD τ), cell1_4 arg4) 0 ∗ semVal ((c : Thread nD τ), cell1_5 arg4) 0 ∗ semVal ((c : Thread nD τ), cell1_6 arg4) 0 ∗ semVal ((c : Thread nD τ), cell1_7 arg4) 0
        ∗ owes (c : Thread nD τ) 0 W
        ∗ (iprop(owns (c : Thread nD τ) arg1 q tbl ∗ (arg2.view.loc (c : Thread nD τ) ↦{qA} fA)
              ∗ owns (c : Thread nD τ) arg3 fullShare (gath1 i tbl (arg2.view.read (Elt F) fA))
              ∗ semVal ((c : Thread nD τ), cell1_0 arg4) 0 ∗ semVal ((c : Thread nD τ), cell1_1 arg4) 0 ∗ semVal ((c : Thread nD τ), cell1_2 arg4) 0 ∗ semVal ((c : Thread nD τ), cell1_3 arg4) 0 ∗ semVal ((c : Thread nD τ), cell1_4 arg4) 0 ∗ semVal ((c : Thread nD τ), cell1_5 arg4) 0 ∗ semVal ((c : Thread nD τ), cell1_6 arg4) 0 ∗ semVal ((c : Thread nD τ), cell1_7 arg4) 0
              ∗ (∃ W', owes (c : Thread nD τ) 0 W')) -∗ K ⟨⟩))
      ⊢ wp frame (wpE (defs₀ (F := F)) Variants.none c none) Set.univ (cc1__gather_kernel i arg1 harg1 arg2 harg2 arg3 harg3 arg4) K := by
  have hi : (i 0).val < 10625 := (i 0).isLt
  have hw : ∀ (B : LoadRect S85000) (x : B.shape.Idx), (arg1.view.readAt (Elt F) B (harg1.unread tbl) x).toNat < 50000 := fun B x => by
    rw [Memref.IsWhole.readAt_unread harg1]; exact htbl _
  have hc1 : k1_chk1 (wd1_0 i arg1 (harg1.unread tbl)) := ⟨row_inb _ (hw _ _), row_inb _ (hw _ _)⟩
  have hc2 : k1_chk2 (wd1_1 i arg1 (harg1.unread tbl)) := ⟨row_inb _ (hw _ _), row_inb _ (hw _ _)⟩
  have hc3 : k1_chk3 (wd1_2 i arg1 (harg1.unread tbl)) := ⟨row_inb _ (hw _ _), row_inb _ (hw _ _)⟩
  have hc4 : k1_chk4 (wd1_3 i arg1 (harg1.unread tbl)) := ⟨row_inb _ (hw _ _), row_inb _ (hw _ _)⟩
  have hc5 : k1_chk5 (wd1_4 i arg1 (harg1.unread tbl)) := ⟨row_inb _ (hw _ _), row_inb _ (hw _ _)⟩
  have hc6 : k1_chk6 (wd1_5 i arg1 (harg1.unread tbl)) := ⟨row_inb _ (hw _ _), row_inb _ (hw _ _)⟩
  have hc7 : k1_chk7 (wd1_6 i arg1 (harg1.unread tbl)) := ⟨row_inb _ (hw _ _), row_inb _ (hw _ _)⟩
  have hc8 : k1_chk8 (wd1_7 i arg1 (harg1.unread tbl)) := row_inb _ (hw _ _)
  have hwd0 : wd1_0 i arg1 (harg1.unread tbl) = tbl (ValueIdx.ix1 (⟨8 * (i 0).val, by omega⟩ : Fin 85000)) :=
    word_at arg1 harg1 tbl (k1_off1 i) (k1_off1_inb i) (8 * (i 0).val) (Gen.k1_off1_eq i) (by omega)
  have hwd1 : wd1_1 i arg1 (harg1.unread tbl) = tbl (ValueIdx.ix1 (⟨8 * (i 0).val + 1, by omega⟩ : Fin 85000)) :=
    word_at arg1 harg1 tbl (k1_off3 i) (k1_off3_inb i) (8 * (i 0).val + 1) (Gen.k1_off3_eq i) (by omega)
  have hwd2 : wd1_2 i arg1 (harg1.unread tbl) = tbl (ValueIdx.ix1 (⟨8 * (i 0).val + 2, by omega⟩ : Fin 85000)) :=
    word_at arg1 harg1 tbl (k1_off5 i) (k1_off5_inb i) (8 * (i 0).val + 2) (Gen.k1_off5_eq i) (by omega)
  have hwd3 : wd1_3 i arg1 (harg1.unread tbl) = tbl (ValueIdx.ix1 (⟨8 * (i 0).val + 3, by omega⟩ : Fin 85000)) :=
    word_at arg1 harg1 tbl (k1_off7 i) (k1_off7_inb i) (8 * (i 0).val + 3) (Gen.k1_off7_eq i) (by omega)
  have hwd4 : wd1_4 i arg1 (harg1.unread tbl) = tbl (ValueIdx.ix1 (⟨8 * (i 0).val + 4, by omega⟩ : Fin 85000)) :=
    word_at arg1 harg1 tbl (k1_off9 i) (k1_off9_inb i) (8 * (i 0).val + 4) (Gen.k1_off9_eq i) (by omega)
  have hwd5 : wd1_5 i arg1 (harg1.unread tbl) = tbl (ValueIdx.ix1 (⟨8 * (i 0).val + 5, by omega⟩ : Fin 85000)) :=
    word_at arg1 harg1 tbl (k1_off11 i) (k1_off11_inb i) (8 * (i 0).val + 5) (Gen.k1_off11_eq i) (by omega)
  have hwd6 : wd1_6 i arg1 (harg1.unread tbl) = tbl (ValueIdx.ix1 (⟨8 * (i 0).val + 6, by omega⟩ : Fin 85000)) :=
    word_at arg1 harg1 tbl (k1_off13 i) (k1_off13_inb i) (8 * (i 0).val + 6) (Gen.k1_off13_eq i) (by omega)
  have hwd7 : wd1_7 i arg1 (harg1.unread tbl) = tbl (ValueIdx.ix1 (⟨8 * (i 0).val + 7, by omega⟩ : Fin 85000)) :=
    word_at arg1 harg1 tbl (k1_off15 i) (k1_off15_inb i) (8 * (i 0).val + 7) (Gen.k1_off15_eq i) (by omega)
  simp only [cc1__gather_kernel_eq_skeleton]; unfold cc1__gather_kernel_skel
  simp only [k1_part1_eq_skeleton, k1_part2_eq_skeleton, k1_part3_eq_skeleton]; unfold k1_part1_skel k1_part2_skel k1_part3_skel
  unfold owns
  iintro ⟨⟨%f1, %hf1, Htb⟩, HA, ⟨%d3, %f3, -, Hob⟩, Hq0, Hq1, Hq2, Hq3, Hq4, Hq5, Hq6, Hq7, HW, Hk⟩
  obtain rfl := harg1.eq_unread hf1
  ihave HA' := (toks_at (F := F) qA 7).1 $$ HA
  icases HA' with ⟨HAd, HA7, HA6, HA5, HA4, HA3, HA2, HA1, HA0, HAr⟩
  sl_exec (disch := first | exact hc1 | exact hc2 | exact hc3 | exact hc4 | exact hc5 | exact hc6 | exact hc7 | exact hc8)
  sl_step
  iapply Hk
  isplitl [Htb]
  · iexists _; isplitr; · ipureintro; exact harg1.read_unread _
    iexact Htb
  isplitl [HAd HA7 HA6 HA5 HA4 HA3 HA2 HA1 HA0 HAr]
  · iapply (toks_at (F := F) qA 7).2
    isplitl [HAd]; · iexact HAd
    isplitl [HA7]; · iexact HA7
    isplitl [HA6]; · iexact HA6
    isplitl [HA5]; · iexact HA5
    isplitl [HA4]; · iexact HA4
    isplitl [HA3]; · iexact HA3
    isplitl [HA2]; · iexact HA2
    isplitl [HA1]; · iexact HA1
    isplitl [HA0]; · iexact HA0
    iexact HAr
  isplitl [Hob_2 Hob_3 Hob_4 Hob_5 Hob_6 Hob_7 Hob_8 Hob]
  · iexists _
    isplitr
    swap
    · iapply (rows_join arg3 f3 _ _ _ _ _ _ _ _ c)
      isplitl [Hob_2]; · iexact Hob_2
      isplitl [Hob_3]; · iexact Hob_3
      isplitl [Hob_4]; · iexact Hob_4
      isplitl [Hob_5]; · iexact Hob_5
      isplitl [Hob_6]; · iexact Hob_6
      isplitl [Hob_7]; · iexact Hob_7
      isplitl [Hob_8]; · iexact Hob_8
      iexact Hob
    ipureintro
    refine rows_read arg3 f3 _ _ _ _ _ _ _ _ (gath1 i tbl (arg2.view.read (Elt F) fA)) ?_ ?_ ?_ ?_ ?_ ?_ ?_ ?_
    · intro x
      exact row_piece arg2 fA (wd1_0 i arg1 (harg1.unread tbl)) _ 0 _ (gath1 i tbl (arg2.view.read (Elt F) fA))
        (fun y z hy hz0 hz1 => gath1_row i tbl (arg2.view.read (Elt F) fA) htbl 0 (8 * (i 0).val) (Nat.add_zero _).symm (by omega) y z hy
          (hz0.trans (congrArg BitVec.toNat hwd0)) hz1) x
    · intro x
      exact row_piece arg2 fA (wd1_1 i arg1 (harg1.unread tbl)) _ 1 _ (gath1 i tbl (arg2.view.read (Elt F) fA))
        (fun y z hy hz0 hz1 => gath1_row i tbl (arg2.view.read (Elt F) fA) htbl 1 (8 * (i 0).val + 1) rfl (by omega) y z hy
          (hz0.trans (congrArg BitVec.toNat hwd1)) hz1) x
    · intro x
      exact row_piece arg2 fA (wd1_2 i arg1 (harg1.unread tbl)) _ 2 _ (gath1 i tbl (arg2.view.read (Elt F) fA))
        (fun y z hy hz0 hz1 => gath1_row i tbl (arg2.view.read (Elt F) fA) htbl 2 (8 * (i 0).val + 2) rfl (by omega) y z hy
          (hz0.trans (congrArg BitVec.toNat hwd2)) hz1) x
    · intro x
      exact row_piece arg2 fA (wd1_3 i arg1 (harg1.unread tbl)) _ 3 _ (gath1 i tbl (arg2.view.read (Elt F) fA))
        (fun y z hy hz0 hz1 => gath1_row i tbl (arg2.view.read (Elt F) fA) htbl 3 (8 * (i 0).val + 3) rfl (by omega) y z hy
          (hz0.trans (congrArg BitVec.toNat hwd3)) hz1) x
    · intro x
      exact row_piece arg2 fA (wd1_4 i arg1 (harg1.unread tbl)) _ 4 _ (gath1 i tbl (arg2.view.read (Elt F) fA))
        (fun y z hy hz0 hz1 => gath1_row i tbl (arg2.view.read (Elt F) fA) htbl 4 (8 * (i 0).val + 4) rfl (by omega) y z hy
          (hz0.trans (congrArg BitVec.toNat hwd4)) hz1) x
    · intro x
      exact row_piece arg2 fA (wd1_5 i arg1 (harg1.unread tbl)) _ 5 _ (gath1 i tbl (arg2.view.read (Elt F) fA))
        (fun y z hy hz0 hz1 => gath1_row i tbl (arg2.view.read (Elt F) fA) htbl 5 (8 * (i 0).val + 5) rfl (by omega) y z hy
          (hz0.trans (congrArg BitVec.toNat hwd5)) hz1) x
    · intro x
      exact row_piece arg2 fA (wd1_6 i arg1 (harg1.unread tbl)) _ 6 _ (gath1 i tbl (arg2.view.read (Elt F) fA))
        (fun y z hy hz0 hz1 => gath1_row i tbl (arg2.view.read (Elt F) fA) htbl 6 (8 * (i 0).val + 6) rfl (by omega) y z hy
          (hz0.trans (congrArg BitVec.toNat hwd6)) hz1) x
    · intro x
      exact row_piece arg2 fA (wd1_7 i arg1 (harg1.unread tbl)) _ 7 _ (gath1 i tbl (arg2.view.read (Elt F) fA))
        (fun y z hy hz0 hz1 => gath1_row i tbl (arg2.view.read (Elt F) fA) htbl 7 (8 * (i 0).val + 7) rfl (by omega) y z hy
          (hz0.trans (congrArg BitVec.toNat hwd7)) hz1) x
  isplitl [Hq0]; · iexact Hq0
  isplitl [Hq1]; · iexact Hq1
  isplitl [Hq2]; · iexact Hq2
  isplitl [Hq3]; · iexact Hq3
  isplitl [Hq4]; · iexact Hq4
  isplitl [Hq5]; · iexact Hq5
  isplitl [Hq6]; · iexact Hq6
  isplitl [Hq7]; · iexact Hq7
  iexists _; iexact HW

/-! ## The body obligation -/

variable (V : (c : Dev nD) → (b : Ref sig .tc) → Buf (Elt F) ((c : Thread nD τ).loc b))
variable (a1 : (pcfg1 (F := F)).Adm)

/-- The eight cells at zero, listed, each as the body names it. -/
theorem ownSems1_eq (c : Dev nD) :
    (Pipeline.ownSems0 (Ix := Unit) (Name := ℕ) (U := Pipeline.UD sig nD τ) (Lvl := ℕ) (Val := Elt F) (τ := τ) osem1 c : sProp 𝕄)
      = iprop(semVal ((c : Thread nD τ), cell1_0 cc1_scratch0) 0 ∗ semVal ((c : Thread nD τ), cell1_1 cc1_scratch0) 0 ∗ semVal ((c : Thread nD τ), cell1_2 cc1_scratch0) 0 ∗ semVal ((c : Thread nD τ), cell1_3 cc1_scratch0) 0 ∗ semVal ((c : Thread nD τ), cell1_4 cc1_scratch0) 0 ∗ semVal ((c : Thread nD τ), cell1_5 cc1_scratch0) 0 ∗ semVal ((c : Thread nD τ), cell1_6 cc1_scratch0) 0 ∗ semVal ((c : Thread nD τ), cell1_7 cc1_scratch0) 0) := by
  rw [Pipeline.ownSems0_eq_of_list c osem1 [0, 1, 2, 3, 4, 5, 6, 7] (by decide) (by decide)]; rfl

/-- The array the rows are read from, at the contents the region found it with. -/
theorem hbm1_eq (c : Dev nD) :
    (bigSep H1 (fun b => ((c : Thread nD τ).loc b) ↦{fullShare} V c b) : sProp 𝕄)
      = ((Memref.whole main_v33 : Memref sig .tc .hbm S50000x128 .f32).view.loc (c : Thread nD τ) ↦{fullShare} V c main_v33) := by
  unfold H1
  rw [BI.bigSep_eq_bigSepL_of_eq [main_v33] (by decide) (by decide)]; rfl

/-- The table, held whole at the full share, is owned at its contents. -/
theorem tblw1_eq (c : Dev nD) :
    (Pipeline.prefHeld pre1 c (fun _ => fullShare) a1.1 : sProp 𝕄)
      = owns (c : Thread nD τ) (Memref.whole main_v34 : Memref sig .tc .smem S85000 .i32) fullShare (tblw1 a1) := by
  unfold Pipeline.prefHeld
  rw [bigSep_W1, owns_whole]; rfl

set_option maxHeartbeats 4000000 in
/-- The body at every point: the invariant hands the run its table, the array, the eight cells at zero (the scoped rest and
    the generator register ride along), the core's record of waits goes in at whatever the points before left and comes
    back with this point's eight, and the output block, at anything, comes back reading the gathered rows. -/
theorem hbodyG1 [∀ e, Nonempty (Elt F e)] (hlt : ∀ k : S85000.Idx, (tblw1 a1 k).toNat < 50000) (c : Dev nD) :
    BodyObligationLoose (datG1 V a1 (gblk1 V a1) c) (defs₀ (F := F)) Variants.none () Set.univ := by
  refine BodyObligation.loose _ fun t => ?_
  rw [bigSep_W1, bigSep_W1]
  show iprop(iprop(Pipeline.ΦD osem1 spec1 H1 V c ∗ Pipeline.prefHeld pre1 c (fun _ => fullShare) a1.1)
        ∗ (datG1 V a1 (gblk1 V a1) c).owesAt () t.castSucc
        ∗ (∃ d, owns (c : Thread nD τ) (spec1_0.stage ((cfg1 a1).slots t 0)) fullShare ((datG1 V a1 (gblk1 V a1) c).before 0 t d)))
      ⊢ wp frame (wpE (defs₀ (F := F)) Variants.none c none) Set.univ
          (cc1__gather_kernel ((cfg1 a1).grid.coords t) (Memref.whole main_v34) (Memref.isWhole_whole _) (Memref.whole main_v33) (Memref.isWhole_whole _)
            (spec1_0.stage ((cfg1 a1).slots t 0)) (hstage1_0 (((cfg1 a1).slots t 0).cast nbuf1_0)) cc1_scratch0)
          (fun _ => iprop(iprop(Pipeline.ΦD osem1 spec1 H1 V c ∗ Pipeline.prefHeld pre1 c (fun _ => fullShare) a1.1)
            ∗ (datG1 V a1 (gblk1 V a1) c).owesAt () t.succ
            ∗ owns (c : Thread nD τ) (spec1_0.stage ((cfg1 a1).slots t 0)) fullShare (gblk1 V a1 c t)))
  rw [Pipeline.ΦD_eq, ownSems1_eq, hbm1_eq, tblw1_eq]
  unfold Dat.owesAt Pipeline.owesWithin
  rw [show (datG1 V a1 (gblk1 V a1) c).owed t.castSucc = 0 from rfl, show (datG1 V a1 (gblk1 V a1) c).owed t.succ = 0 from rfl]
  have hr : (Memref.whole main_v33 : Memref sig .tc .hbm S50000x128 .f32).view.read (Elt F) (V c main_v33) = V c main_v33 := by
    simp only [Memref.view_whole, View.read_whole]
  iintro ⟨⟨⟨Hsc, Hg, ⟨Hq0, Hq1, Hq2, Hq3, Hq4, Hq5, Hq6, Hq7⟩, Hh⟩, Ht⟩, ⟨%W, -, HW⟩, ⟨%d, Hob⟩⟩
  iapply (kernelRun1 c ((cfg1 a1).grid.coords t) (Memref.whole main_v34) (Memref.isWhole_whole _) (Memref.whole main_v33) (Memref.isWhole_whole _)
    (spec1_0.stage ((cfg1 a1).slots t 0)) (hstage1_0 (((cfg1 a1).slots t 0).cast nbuf1_0)) (tblw1 a1) hlt fullShare fullShare (V c main_v33) cc1_scratch0 W _)
  isplitl [Ht]; · iexact Ht
  isplitl [Hh]; · iexact Hh
  isplitl [Hob]; · iexists _; iexact Hob
  isplitl [Hq0]; · iexact Hq0
  isplitl [Hq1]; · iexact Hq1
  isplitl [Hq2]; · iexact Hq2
  isplitl [Hq3]; · iexact Hq3
  isplitl [Hq4]; · iexact Hq4
  isplitl [Hq5]; · iexact Hq5
  isplitl [Hq6]; · iexact Hq6
  isplitl [Hq7]; · iexact Hq7
  isplitl [HW]; · iexact HW
  iintro ⟨Ht, Hh, Hob, Hq0, Hq1, Hq2, Hq3, Hq4, Hq5, Hq6, Hq7, ⟨%W', HW'⟩⟩
  isplitl [Hsc Hg Hq0 Hq1 Hq2 Hq3 Hq4 Hq5 Hq6 Hq7 Hh Ht]
  · isplitl [Hsc Hg Hq0 Hq1 Hq2 Hq3 Hq4 Hq5 Hq6 Hq7 Hh]
    · isplitl [Hsc]; · iexact Hsc
      isplitl [Hg]; · iexact Hg
      isplitl [Hq0 Hq1 Hq2 Hq3 Hq4 Hq5 Hq6 Hq7]
      · isplitl [Hq0]; · iexact Hq0
        isplitl [Hq1]; · iexact Hq1
        isplitl [Hq2]; · iexact Hq2
        isplitl [Hq3]; · iexact Hq3
        isplitl [Hq4]; · iexact Hq4
        isplitl [Hq5]; · iexact Hq5
        isplitl [Hq6]; · iexact Hq6
        iexact Hq7
      iexact Hh
    iexact Ht
  isplitl [HW']
  · iexists W'; isplitr; · ipureintro; exact fun _ _ => Or.inl trivial
    iexact HW'
  rw [hr]
  iexact Hob

end Cert.KernelIdeal.Hand

end
-- ==== Proof.KI.GatherBody2.lean ====
/-
  Region 2's body obligation. The region runs the body of region 1 on its own table, array, output block and
  semaphores (the two kernel functions are one function), so the body's run is region 1's, cited at this region's eight
  semaphores; read with this region's invariant it is the pipeline's body obligation for the region's proof data.
-/
import proofs.«402049_j87351044866139_2_alg».proof.Proof.KI.GatherDef2
import proofs.«402049_j87351044866139_2_alg».proof.Proof.KI.GatherBody1

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Idealize.ShloMosaic.Transfers (shareDrop shareTokN)
open Cert.KernelIdeal Cert.KernelIdeal.Gen

variable {F : FTy → Type} [FloatOps F]

local notation "𝕄" => MT nD τ sig Unit (Elt F) ℕ (Pipeline.UD sig nD τ) ℕ

/-! ## The body obligation -/

variable (V : (c : Dev nD) → (b : Ref sig .tc) → Buf (Elt F) ((c : Thread nD τ).loc b))
variable (a1 : (pcfg2 (F := F)).Adm)

/-- The eight cells at zero, listed, each as the body names it. -/
theorem ownSems2_eq (c : Dev nD) :
    (Pipeline.ownSems0 (Ix := Unit) (Name := ℕ) (U := Pipeline.UD sig nD τ) (Lvl := ℕ) (Val := Elt F) (τ := τ) osem2 c : sProp 𝕄)
      = iprop(semVal ((c : Thread nD τ), cell1_0 cc2_scratch0) 0 ∗ semVal ((c : Thread nD τ), cell1_1 cc2_scratch0) 0 ∗ semVal ((c : Thread nD τ), cell1_2 cc2_scratch0) 0 ∗ semVal ((c : Thread nD τ), cell1_3 cc2_scratch0) 0 ∗ semVal ((c : Thread nD τ), cell1_4 cc2_scratch0) 0 ∗ semVal ((c : Thread nD τ), cell1_5 cc2_scratch0) 0 ∗ semVal ((c : Thread nD τ), cell1_6 cc2_scratch0) 0 ∗ semVal ((c : Thread nD τ), cell1_7 cc2_scratch0) 0) := by
  rw [Pipeline.ownSems0_eq_of_list c osem2 [0, 1, 2, 3, 4, 5, 6, 7] (by decide) (by decide)]; rfl

/-- The array the rows are read from, at the contents the region found it with. -/
theorem hbm2_eq (c : Dev nD) :
    (bigSep H2 (fun b => ((c : Thread nD τ).loc b) ↦{fullShare} V c b) : sProp 𝕄)
      = ((Memref.whole main_v33 : Memref sig .tc .hbm S50000x128 .f32).view.loc (c : Thread nD τ) ↦{fullShare} V c main_v33) := by
  unfold H2
  rw [BI.bigSep_eq_bigSepL_of_eq [main_v33] (by decide) (by decide)]; rfl

/-- The table, held whole at the full share, is owned at its contents. -/
theorem tblw2_eq (c : Dev nD) :
    (Pipeline.prefHeld pre2 c (fun _ => fullShare) a1.1 : sProp 𝕄)
      = owns (c : Thread nD τ) (Memref.whole main_v36 : Memref sig .tc .smem S85000 .i32) fullShare (tblw2 a1) := by
  unfold Pipeline.prefHeld
  rw [bigSep_W2, owns_whole]; rfl

set_option maxHeartbeats 4000000 in
/-- The body at every point: the invariant hands the run its table, the array, the eight cells at zero (the scoped rest and
    the generator register ride along), the core's record of waits goes in at whatever the points before left and comes
    back with this point's eight, and the output block, at anything, comes back reading the gathered rows. -/
theorem hbodyG2 [∀ e, Nonempty (Elt F e)] (hlt : ∀ k : S85000.Idx, (tblw2 a1 k).toNat < 50000) (c : Dev nD) :
    BodyObligationLoose (datG2 V a1 (gblk2 V a1) c) (defs₀ (F := F)) Variants.none () Set.univ := by
  refine BodyObligation.loose _ fun t => ?_
  rw [bigSep_W2, bigSep_W2]
  show iprop(iprop(Pipeline.ΦD osem2 spec2 H2 V c ∗ Pipeline.prefHeld pre2 c (fun _ => fullShare) a1.1)
        ∗ (datG2 V a1 (gblk2 V a1) c).owesAt () t.castSucc
        ∗ (∃ d, owns (c : Thread nD τ) (spec2_0.stage ((cfg2 a1).slots t 0)) fullShare ((datG2 V a1 (gblk2 V a1) c).before 0 t d)))
      ⊢ wp frame (wpE (defs₀ (F := F)) Variants.none c none) Set.univ
          (cc2__gather_kernel ((cfg2 a1).grid.coords t) (Memref.whole main_v36) (Memref.isWhole_whole _) (Memref.whole main_v33) (Memref.isWhole_whole _)
            (spec2_0.stage ((cfg2 a1).slots t 0)) (hstage2_0 (((cfg2 a1).slots t 0).cast nbuf2_0)) cc2_scratch0)
          (fun _ => iprop(iprop(Pipeline.ΦD osem2 spec2 H2 V c ∗ Pipeline.prefHeld pre2 c (fun _ => fullShare) a1.1)
            ∗ (datG2 V a1 (gblk2 V a1) c).owesAt () t.succ
            ∗ owns (c : Thread nD τ) (spec2_0.stage ((cfg2 a1).slots t 0)) fullShare (gblk2 V a1 c t)))
  rw [Pipeline.ΦD_eq, ownSems2_eq, hbm2_eq, tblw2_eq]
  unfold Dat.owesAt Pipeline.owesWithin
  rw [show (datG2 V a1 (gblk2 V a1) c).owed t.castSucc = 0 from rfl, show (datG2 V a1 (gblk2 V a1) c).owed t.succ = 0 from rfl]
  have hr : (Memref.whole main_v33 : Memref sig .tc .hbm S50000x128 .f32).view.read (Elt F) (V c main_v33) = V c main_v33 := by
    simp only [Memref.view_whole, View.read_whole]
  iintro ⟨⟨⟨Hsc, Hg, ⟨Hq0, Hq1, Hq2, Hq3, Hq4, Hq5, Hq6, Hq7⟩, Hh⟩, Ht⟩, ⟨%W, -, HW⟩, ⟨%d, Hob⟩⟩
  iapply (kernelRun1 c ((cfg2 a1).grid.coords t) (Memref.whole main_v36) (Memref.isWhole_whole _) (Memref.whole main_v33) (Memref.isWhole_whole _)
    (spec2_0.stage ((cfg2 a1).slots t 0)) (hstage2_0 (((cfg2 a1).slots t 0).cast nbuf2_0)) (tblw2 a1) hlt fullShare fullShare (V c main_v33) cc2_scratch0 W _)
  isplitl [Ht]; · iexact Ht
  isplitl [Hh]; · iexact Hh
  isplitl [Hob]; · iexists _; iexact Hob
  isplitl [Hq0]; · iexact Hq0
  isplitl [Hq1]; · iexact Hq1
  isplitl [Hq2]; · iexact Hq2
  isplitl [Hq3]; · iexact Hq3
  isplitl [Hq4]; · iexact Hq4
  isplitl [Hq5]; · iexact Hq5
  isplitl [Hq6]; · iexact Hq6
  isplitl [Hq7]; · iexact Hq7
  isplitl [HW]; · iexact HW
  iintro ⟨Ht, Hh, Hob, Hq0, Hq1, Hq2, Hq3, Hq4, Hq5, Hq6, Hq7, ⟨%W', HW'⟩⟩
  isplitl [Hsc Hg Hq0 Hq1 Hq2 Hq3 Hq4 Hq5 Hq6 Hq7 Hh Ht]
  · isplitl [Hsc Hg Hq0 Hq1 Hq2 Hq3 Hq4 Hq5 Hq6 Hq7 Hh]
    · isplitl [Hsc]; · iexact Hsc
      isplitl [Hg]; · iexact Hg
      isplitl [Hq0 Hq1 Hq2 Hq3 Hq4 Hq5 Hq6 Hq7]
      · isplitl [Hq0]; · iexact Hq0
        isplitl [Hq1]; · iexact Hq1
        isplitl [Hq2]; · iexact Hq2
        isplitl [Hq3]; · iexact Hq3
        isplitl [Hq4]; · iexact Hq4
        isplitl [Hq5]; · iexact Hq5
        isplitl [Hq6]; · iexact Hq6
        iexact Hq7
      iexact Hh
    iexact Ht
  isplitl [HW']
  · iexists W'; isplitr; · ipureintro; exact fun _ _ => Or.inl trivial
    iexact HW'
  rw [hr]
  iexact Hob

end Cert.KernelIdeal.Hand

end
-- ==== Proof.KI.GatherBody3.lean ====
/-
  Region 3's body obligation. The region runs the body of region 1 on its own table, array, output block and
  semaphores (the two kernel functions are one function), so the body's run is region 1's, cited at this region's eight
  semaphores; read with this region's invariant it is the pipeline's body obligation for the region's proof data.
-/
import proofs.«402049_j87351044866139_2_alg».proof.Proof.KI.GatherDef3
import proofs.«402049_j87351044866139_2_alg».proof.Proof.KI.GatherBody1

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Idealize.ShloMosaic.Transfers (shareDrop shareTokN)
open Cert.KernelIdeal Cert.KernelIdeal.Gen

variable {F : FTy → Type} [FloatOps F]

local notation "𝕄" => MT nD τ sig Unit (Elt F) ℕ (Pipeline.UD sig nD τ) ℕ

/-! ## The body obligation -/

variable (V : (c : Dev nD) → (b : Ref sig .tc) → Buf (Elt F) ((c : Thread nD τ).loc b))
variable (a1 : (pcfg3 (F := F)).Adm)

/-- The eight cells at zero, listed, each as the body names it. -/
theorem ownSems3_eq (c : Dev nD) :
    (Pipeline.ownSems0 (Ix := Unit) (Name := ℕ) (U := Pipeline.UD sig nD τ) (Lvl := ℕ) (Val := Elt F) (τ := τ) osem3 c : sProp 𝕄)
      = iprop(semVal ((c : Thread nD τ), cell1_0 cc3_scratch0) 0 ∗ semVal ((c : Thread nD τ), cell1_1 cc3_scratch0) 0 ∗ semVal ((c : Thread nD τ), cell1_2 cc3_scratch0) 0 ∗ semVal ((c : Thread nD τ), cell1_3 cc3_scratch0) 0 ∗ semVal ((c : Thread nD τ), cell1_4 cc3_scratch0) 0 ∗ semVal ((c : Thread nD τ), cell1_5 cc3_scratch0) 0 ∗ semVal ((c : Thread nD τ), cell1_6 cc3_scratch0) 0 ∗ semVal ((c : Thread nD τ), cell1_7 cc3_scratch0) 0) := by
  rw [Pipeline.ownSems0_eq_of_list c osem3 [0, 1, 2, 3, 4, 5, 6, 7] (by decide) (by decide)]; rfl

/-- The array the rows are read from, at the contents the region found it with. -/
theorem hbm3_eq (c : Dev nD) :
    (bigSep H3 (fun b => ((c : Thread nD τ).loc b) ↦{fullShare} V c b) : sProp 𝕄)
      = ((Memref.whole main_v33 : Memref sig .tc .hbm S50000x128 .f32).view.loc (c : Thread nD τ) ↦{fullShare} V c main_v33) := by
  unfold H3
  rw [BI.bigSep_eq_bigSepL_of_eq [main_v33] (by decide) (by decide)]; rfl

/-- The table, held whole at the full share, is owned at its contents. -/
theorem tblw3_eq (c : Dev nD) :
    (Pipeline.prefHeld pre3 c (fun _ => fullShare) a1.1 : sProp 𝕄)
      = owns (c : Thread nD τ) (Memref.whole main_v38 : Memref sig .tc .smem S85000 .i32) fullShare (tblw3 a1) := by
  unfold Pipeline.prefHeld
  rw [bigSep_W3, owns_whole]; rfl

set_option maxHeartbeats 4000000 in
/-- The body at every point: the invariant hands the run its table, the array, the eight cells at zero (the scoped rest and
    the generator register ride along), the core's record of waits goes in at whatever the points before left and comes
    back with this point's eight, and the output block, at anything, comes back reading the gathered rows. -/
theorem hbodyG3 [∀ e, Nonempty (Elt F e)] (hlt : ∀ k : S85000.Idx, (tblw3 a1 k).toNat < 50000) (c : Dev nD) :
    BodyObligationLoose (datG3 V a1 (gblk3 V a1) c) (defs₀ (F := F)) Variants.none () Set.univ := by
  refine BodyObligation.loose _ fun t => ?_
  rw [bigSep_W3, bigSep_W3]
  show iprop(iprop(Pipeline.ΦD osem3 spec3 H3 V c ∗ Pipeline.prefHeld pre3 c (fun _ => fullShare) a1.1)
        ∗ (datG3 V a1 (gblk3 V a1) c).owesAt () t.castSucc
        ∗ (∃ d, owns (c : Thread nD τ) (spec3_0.stage ((cfg3 a1).slots t 0)) fullShare ((datG3 V a1 (gblk3 V a1) c).before 0 t d)))
      ⊢ wp frame (wpE (defs₀ (F := F)) Variants.none c none) Set.univ
          (cc3__gather_kernel ((cfg3 a1).grid.coords t) (Memref.whole main_v38) (Memref.isWhole_whole _) (Memref.whole main_v33) (Memref.isWhole_whole _)
            (spec3_0.stage ((cfg3 a1).slots t 0)) (hstage3_0 (((cfg3 a1).slots t 0).cast nbuf3_0)) cc3_scratch0)
          (fun _ => iprop(iprop(Pipeline.ΦD osem3 spec3 H3 V c ∗ Pipeline.prefHeld pre3 c (fun _ => fullShare) a1.1)
            ∗ (datG3 V a1 (gblk3 V a1) c).owesAt () t.succ
            ∗ owns (c : Thread nD τ) (spec3_0.stage ((cfg3 a1).slots t 0)) fullShare (gblk3 V a1 c t)))
  rw [Pipeline.ΦD_eq, ownSems3_eq, hbm3_eq, tblw3_eq]
  unfold Dat.owesAt Pipeline.owesWithin
  rw [show (datG3 V a1 (gblk3 V a1) c).owed t.castSucc = 0 from rfl, show (datG3 V a1 (gblk3 V a1) c).owed t.succ = 0 from rfl]
  have hr : (Memref.whole main_v33 : Memref sig .tc .hbm S50000x128 .f32).view.read (Elt F) (V c main_v33) = V c main_v33 := by
    simp only [Memref.view_whole, View.read_whole]
  iintro ⟨⟨⟨Hsc, Hg, ⟨Hq0, Hq1, Hq2, Hq3, Hq4, Hq5, Hq6, Hq7⟩, Hh⟩, Ht⟩, ⟨%W, -, HW⟩, ⟨%d, Hob⟩⟩
  iapply (kernelRun1 c ((cfg3 a1).grid.coords t) (Memref.whole main_v38) (Memref.isWhole_whole _) (Memref.whole main_v33) (Memref.isWhole_whole _)
    (spec3_0.stage ((cfg3 a1).slots t 0)) (hstage3_0 (((cfg3 a1).slots t 0).cast nbuf3_0)) (tblw3 a1) hlt fullShare fullShare (V c main_v33) cc3_scratch0 W _)
  isplitl [Ht]; · iexact Ht
  isplitl [Hh]; · iexact Hh
  isplitl [Hob]; · iexists _; iexact Hob
  isplitl [Hq0]; · iexact Hq0
  isplitl [Hq1]; · iexact Hq1
  isplitl [Hq2]; · iexact Hq2
  isplitl [Hq3]; · iexact Hq3
  isplitl [Hq4]; · iexact Hq4
  isplitl [Hq5]; · iexact Hq5
  isplitl [Hq6]; · iexact Hq6
  isplitl [Hq7]; · iexact Hq7
  isplitl [HW]; · iexact HW
  iintro ⟨Ht, Hh, Hob, Hq0, Hq1, Hq2, Hq3, Hq4, Hq5, Hq6, Hq7, ⟨%W', HW'⟩⟩
  isplitl [Hsc Hg Hq0 Hq1 Hq2 Hq3 Hq4 Hq5 Hq6 Hq7 Hh Ht]
  · isplitl [Hsc Hg Hq0 Hq1 Hq2 Hq3 Hq4 Hq5 Hq6 Hq7 Hh]
    · isplitl [Hsc]; · iexact Hsc
      isplitl [Hg]; · iexact Hg
      isplitl [Hq0 Hq1 Hq2 Hq3 Hq4 Hq5 Hq6 Hq7]
      · isplitl [Hq0]; · iexact Hq0
        isplitl [Hq1]; · iexact Hq1
        isplitl [Hq2]; · iexact Hq2
        isplitl [Hq3]; · iexact Hq3
        isplitl [Hq4]; · iexact Hq4
        isplitl [Hq5]; · iexact Hq5
        isplitl [Hq6]; · iexact Hq6
        iexact Hq7
      iexact Hh
    iexact Ht
  isplitl [HW']
  · iexists W'; isplitr; · ipureintro; exact fun _ _ => Or.inl trivial
    iexact HW'
  rw [hr]
  iexact Hob

end Cert.KernelIdeal.Hand

end
-- ==== Proof.KI.GatherBody4.lean ====
/-
  Region 4's body obligation. The region runs the body of region 1 on its own table, array, output block and
  semaphores (the two kernel functions are one function), so the body's run is region 1's, cited at this region's eight
  semaphores; read with this region's invariant it is the pipeline's body obligation for the region's proof data.
-/
import proofs.«402049_j87351044866139_2_alg».proof.Proof.KI.GatherDef4
import proofs.«402049_j87351044866139_2_alg».proof.Proof.KI.GatherBody1

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Idealize.ShloMosaic.Transfers (shareDrop shareTokN)
open Cert.KernelIdeal Cert.KernelIdeal.Gen

variable {F : FTy → Type} [FloatOps F]

local notation "𝕄" => MT nD τ sig Unit (Elt F) ℕ (Pipeline.UD sig nD τ) ℕ

/-! ## The body obligation -/

variable (V : (c : Dev nD) → (b : Ref sig .tc) → Buf (Elt F) ((c : Thread nD τ).loc b))
variable (a1 : (pcfg4 (F := F)).Adm)

/-- The eight cells at zero, listed, each as the body names it. -/
theorem ownSems4_eq (c : Dev nD) :
    (Pipeline.ownSems0 (Ix := Unit) (Name := ℕ) (U := Pipeline.UD sig nD τ) (Lvl := ℕ) (Val := Elt F) (τ := τ) osem4 c : sProp 𝕄)
      = iprop(semVal ((c : Thread nD τ), cell1_0 cc4_scratch0) 0 ∗ semVal ((c : Thread nD τ), cell1_1 cc4_scratch0) 0 ∗ semVal ((c : Thread nD τ), cell1_2 cc4_scratch0) 0 ∗ semVal ((c : Thread nD τ), cell1_3 cc4_scratch0) 0 ∗ semVal ((c : Thread nD τ), cell1_4 cc4_scratch0) 0 ∗ semVal ((c : Thread nD τ), cell1_5 cc4_scratch0) 0 ∗ semVal ((c : Thread nD τ), cell1_6 cc4_scratch0) 0 ∗ semVal ((c : Thread nD τ), cell1_7 cc4_scratch0) 0) := by
  rw [Pipeline.ownSems0_eq_of_list c osem4 [0, 1, 2, 3, 4, 5, 6, 7] (by decide) (by decide)]; rfl

/-- The array the rows are read from, at the contents the region found it with. -/
theorem hbm4_eq (c : Dev nD) :
    (bigSep H4 (fun b => ((c : Thread nD τ).loc b) ↦{fullShare} V c b) : sProp 𝕄)
      = ((Memref.whole main_v33 : Memref sig .tc .hbm S50000x128 .f32).view.loc (c : Thread nD τ) ↦{fullShare} V c main_v33) := by
  unfold H4
  rw [BI.bigSep_eq_bigSepL_of_eq [main_v33] (by decide) (by decide)]; rfl

/-- The table, held whole at the full share, is owned at its contents. -/
theorem tblw4_eq (c : Dev nD) :
    (Pipeline.prefHeld pre4 c (fun _ => fullShare) a1.1 : sProp 𝕄)
      = owns (c : Thread nD τ) (Memref.whole main_v40 : Memref sig .tc .smem S85000 .i32) fullShare (tblw4 a1) := by
  unfold Pipeline.prefHeld
  rw [bigSep_W4, owns_whole]; rfl

set_option maxHeartbeats 4000000 in
/-- The body at every point: the invariant hands the run its table, the array, the eight cells at zero (the scoped rest and
    the generator register ride along), the core's record of waits goes in at whatever the points before left and comes
    back with this point's eight, and the output block, at anything, comes back reading the gathered rows. -/
theorem hbodyG4 [∀ e, Nonempty (Elt F e)] (hlt : ∀ k : S85000.Idx, (tblw4 a1 k).toNat < 50000) (c : Dev nD) :
    BodyObligationLoose (datG4 V a1 (gblk4 V a1) c) (defs₀ (F := F)) Variants.none () Set.univ := by
  refine BodyObligation.loose _ fun t => ?_
  rw [bigSep_W4, bigSep_W4]
  show iprop(iprop(Pipeline.ΦD osem4 spec4 H4 V c ∗ Pipeline.prefHeld pre4 c (fun _ => fullShare) a1.1)
        ∗ (datG4 V a1 (gblk4 V a1) c).owesAt () t.castSucc
        ∗ (∃ d, owns (c : Thread nD τ) (spec4_0.stage ((cfg4 a1).slots t 0)) fullShare ((datG4 V a1 (gblk4 V a1) c).before 0 t d)))
      ⊢ wp frame (wpE (defs₀ (F := F)) Variants.none c none) Set.univ
          (cc4__gather_kernel ((cfg4 a1).grid.coords t) (Memref.whole main_v40) (Memref.isWhole_whole _) (Memref.whole main_v33) (Memref.isWhole_whole _)
            (spec4_0.stage ((cfg4 a1).slots t 0)) (hstage4_0 (((cfg4 a1).slots t 0).cast nbuf4_0)) cc4_scratch0)
          (fun _ => iprop(iprop(Pipeline.ΦD osem4 spec4 H4 V c ∗ Pipeline.prefHeld pre4 c (fun _ => fullShare) a1.1)
            ∗ (datG4 V a1 (gblk4 V a1) c).owesAt () t.succ
            ∗ owns (c : Thread nD τ) (spec4_0.stage ((cfg4 a1).slots t 0)) fullShare (gblk4 V a1 c t)))
  rw [Pipeline.ΦD_eq, ownSems4_eq, hbm4_eq, tblw4_eq]
  unfold Dat.owesAt Pipeline.owesWithin
  rw [show (datG4 V a1 (gblk4 V a1) c).owed t.castSucc = 0 from rfl, show (datG4 V a1 (gblk4 V a1) c).owed t.succ = 0 from rfl]
  have hr : (Memref.whole main_v33 : Memref sig .tc .hbm S50000x128 .f32).view.read (Elt F) (V c main_v33) = V c main_v33 := by
    simp only [Memref.view_whole, View.read_whole]
  iintro ⟨⟨⟨Hsc, Hg, ⟨Hq0, Hq1, Hq2, Hq3, Hq4, Hq5, Hq6, Hq7⟩, Hh⟩, Ht⟩, ⟨%W, -, HW⟩, ⟨%d, Hob⟩⟩
  iapply (kernelRun1 c ((cfg4 a1).grid.coords t) (Memref.whole main_v40) (Memref.isWhole_whole _) (Memref.whole main_v33) (Memref.isWhole_whole _)
    (spec4_0.stage ((cfg4 a1).slots t 0)) (hstage4_0 (((cfg4 a1).slots t 0).cast nbuf4_0)) (tblw4 a1) hlt fullShare fullShare (V c main_v33) cc4_scratch0 W _)
  isplitl [Ht]; · iexact Ht
  isplitl [Hh]; · iexact Hh
  isplitl [Hob]; · iexists _; iexact Hob
  isplitl [Hq0]; · iexact Hq0
  isplitl [Hq1]; · iexact Hq1
  isplitl [Hq2]; · iexact Hq2
  isplitl [Hq3]; · iexact Hq3
  isplitl [Hq4]; · iexact Hq4
  isplitl [Hq5]; · iexact Hq5
  isplitl [Hq6]; · iexact Hq6
  isplitl [Hq7]; · iexact Hq7
  isplitl [HW]; · iexact HW
  iintro ⟨Ht, Hh, Hob, Hq0, Hq1, Hq2, Hq3, Hq4, Hq5, Hq6, Hq7, ⟨%W', HW'⟩⟩
  isplitl [Hsc Hg Hq0 Hq1 Hq2 Hq3 Hq4 Hq5 Hq6 Hq7 Hh Ht]
  · isplitl [Hsc Hg Hq0 Hq1 Hq2 Hq3 Hq4 Hq5 Hq6 Hq7 Hh]
    · isplitl [Hsc]; · iexact Hsc
      isplitl [Hg]; · iexact Hg
      isplitl [Hq0 Hq1 Hq2 Hq3 Hq4 Hq5 Hq6 Hq7]
      · isplitl [Hq0]; · iexact Hq0
        isplitl [Hq1]; · iexact Hq1
        isplitl [Hq2]; · iexact Hq2
        isplitl [Hq3]; · iexact Hq3
        isplitl [Hq4]; · iexact Hq4
        isplitl [Hq5]; · iexact Hq5
        isplitl [Hq6]; · iexact Hq6
        iexact Hq7
      iexact Hh
    iexact Ht
  isplitl [HW']
  · iexists W'; isplitr; · ipureintro; exact fun _ _ => Or.inl trivial
    iexact HW'
  rw [hr]
  iexact Hob

end Cert.KernelIdeal.Hand

end
-- ==== Proof.KI.Regs0.lean ====
import proofs.«402049_j87351044866139_2_alg».proof.Proof.KI.Fam
import proofs.«402049_j87351044866139_2_alg».proof.Proof.KI.Tables
import proofs.«402049_j87351044866139_2_alg».proof.Proof.KI.GatherBody1
import proofs.«402049_j87351044866139_2_alg».proof.Proof.KI.GatherBody2
import proofs.«402049_j87351044866139_2_alg».proof.Proof.KI.GatherBody3
import proofs.«402049_j87351044866139_2_alg».proof.Proof.KI.GatherBody4
import Idealize.ShloMosaic.Lib.Pipeline.RegionsLoop

/-! The records of regions 0 to 4 over the thread states: each entered from every unscoped buffer at the real valuation
    before it and left at the one after it; for a gather region, first that every word of its table is a node's number. -/

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg BodyObligation BodyObligationLoose)

variable {F : FTy → Type} [FloatOps F]

local notation "𝕄" => MT nD τ sig Unit (Elt F) ℕ UU ℕ

set_option maxHeartbeats 1000000 in
set_option backward.isDefEq.respectTransparency.types false in
/-- REGION 0 over the thread state: entered from every unscoped buffer at `U3`, left at `U4`. -/
def reg0 (m : (ℓ : Loc nD τ sig) → Buf (Elt F) ℓ) : RegionSeg (pcfgs (F := F)) (adm m) (pdats m) () defs₀ 𝒱₀ L lv 0 where
  win := (launch0 (F := F)).win.to₀
  block_pos := (launch0 (F := F)).block_pos
  stage_whole := (launch0 (F := F)).stage_whole
  K := PEmpty
  osem k := k.elim
  ho := Pipeline.OwnSemFacts.none _
  hbody c := (body_obligation0 (atTc (U3 m)) c).loose
  hwaits := Pipeline.hwaits_of_owed_zero _ _ _ _ L lv 0 fun _ _ => rfl
  pre c := iprop(StableHlo.held (c : Thread nD τ) (Pipeline.ucRefs τ sig) (U3 m c) ∗ R (F := F) c)
  post c := iprop(StableHlo.held (c : Thread nD τ) (Pipeline.ucRefs τ sig) (U4 m c) ∗ R (F := F) c)
  X c := iprop(∃ r, prngReg c r)
  Y c := iprop(∃ r, prngReg c r)
  Z c := Pipeline.unscopedRest (Ix := Unit) (Name := ℕ) (U := UU) (Lvl := ℕ) spec0 c (atTc (U3 m) c)
  hentry c := by
    have hsplit := Pipeline.arrays_of_unscopedBufs (p := 0) (pcfgs (F := F)) (adm m) (pdats m) (launch0 (F := F)).win (launch0 (F := F)).arr_whole c
      ((pdats m 0 c).share_full fun _ => rfl) (atTc (U3 m) c) (fun _ => rfl)
    rw [Pipeline.unscopedBufs_held] at hsplit
    exact enterA c (U3 m c) hsplit (prefHeld_none_intro c _ _) (owesAt_first c _ rfl rfl)
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) (adm m) (Ix := Unit) (Name := ℕ) (U := UU) (Lvl := ℕ)
      (launch0 (F := F)).win (launch0 (F := F)).arr_whole c (pdats m) ((pdats m 0 c).share_full fun _ => rfl)
      (atTc (U3 m) c) (atTc (U4 m) c) ((pdats m 0 c).arrAt · cfg0.N) (hF0 m c) (hrest0 m c)
    rw [Pipeline.unscopedBufs_held] at hjoin
    exact leaveA c (U4 m c) hjoin (owes_of_owesAt_last c _ rfl)

set_option maxHeartbeats 1000000 in
/-- Every word of region 1's table is a node's number: the data's table is what the real valuation at the region's entry
    holds in the table's buffer; that valuation is the run's own, whose table is the closed one of the launch memory. -/
theorem hlt1 (m : (ℓ : Loc nD τ sig) → Buf (Elt F) ℓ) (hm : ∀ i : S2x800000.Idx, ((V0 m c₀ main_arg1 : IVec S2x800000 32) i).toNat < 50000) :
    ∀ k : S85000.Idx, (tblw1 (a1 m) k).toNat < 50000 := by
  have h1 : tblw1 (a1 m) = (U5 m c₀ main_v34 : IVec S85000 32) := by
    unfold a1
    rfl
  have h2 : ∀ W : Valuation τ sig (Elt F), V5 m (outsU m) c₀ = W → (W main_v34 : IVec S85000 32) = tbl1 m c₀ :=
    fun W hW => by subst hW; exact tbl1_eq m (outsU m) c₀
  have e : tblw1 (a1 m) = tbl1 m c₀ := h1.trans (h2 (U5 m c₀) (V5_eq m c₀))
  intro k
  rw [e]; exact tbl1_lt m c₀ hm k
set_option maxHeartbeats 1000000 in
set_option backward.isDefEq.respectTransparency.types false in
/-- REGION 1 over the thread state: entered from every unscoped buffer at `U5`, left at `U6`. -/
def reg1 (m : (ℓ : Loc nD τ sig) → Buf (Elt F) ℓ) (hm : ∀ i : S2x800000.Idx, ((V0 m c₀ main_arg1 : IVec S2x800000 32) i).toNat < 50000) :
    RegionSeg (pcfgs (F := F)) (adm m) (pdats m) () defs₀ 𝒱₀ L lv 1 where
  win := (launch1 (F := F)).win.to₀
  block_pos := (launch1 (F := F)).block_pos
  stage_whole := (launch1 (F := F)).stage_whole
  K := Fin 8
  osem := osem1
  ho := ownSemFacts1
  hbody c := hbodyG1 (atTc (U5 m)) (a1 m) (hlt1 m hm) c
  hwaits := Pipeline.hwaits_of_owed_zero _ _ _ _ L lv 1 fun _ _ => rfl
  pre c := iprop(StableHlo.held (c : Thread nD τ) (Pipeline.ucRefs τ sig) (U5 m c) ∗ R (F := F) c)
  post c := iprop(StableHlo.held (c : Thread nD τ) (Pipeline.ucRefs τ sig) (U6 m c) ∗ R (F := F) c)
  X c := XG1 (atTc (U5 m)) c
  Y c := YG1 (atTc (U5 m)) (a1 m) c
  Z c := ZG1 (atTc (U5 m)) c
  hentry c := by
    have hsplit := Pipeline.arrays_of_unscopedBufs (p := 1) (pcfgs (F := F)) (adm m) (pdats m) (launch1 (F := F)).win (launch1 (F := F)).arr_whole c
      ((pdats m 1 c).share_full fun _ => rfl) (atTc (U5 m) c) (fun _ => rfl)
    have h := hentryG1 (atTc (U5 m)) (a1 m) (gblk1 (atTc (U5 m)) (a1 m)) c (hpf1 m c) hsplit
    rw [Pipeline.unscopedBufs_held] at h
    exact h
  hin c := hinG1 (atTc (U5 m)) (a1 m) (gblk1 (atTc (U5 m)) (a1 m)) c
  hout c := houtG1 (atTc (U5 m)) (a1 m) (gblk1 (atTc (U5 m)) (a1 m)) c
  hexit c := by
    have hjoin := Pipeline.unscopedBufs_of_arrays (p := 1) (pcfgs (F := F)) (adm m) (Ix := Unit) (Name := ℕ) (U := UU) (Lvl := ℕ)
      (launch1 (F := F)).win (launch1 (F := F)).arr_whole c (pdats m) ((pdats m 1 c).share_full fun _ => rfl)
      (atTc (U5 m) c) (atTc (U6 m) c) ((pdats m 1 c).arrAt · (cfg1 (a1 m)).N) (hF1 m c) (hrest1 m c)
    have h := hexitG1 (atTc (U5 m)) (a1 m) (gblk1 (atTc (U5 m)) (a1 m)) (atTc (U6 m)) c (hpf1 m c) hjoin
    rw [Pipeline.unscopedBufs_held] at h
    exact h

set_option maxHeartbeats 1000000 in
/-- Every word of region 2's table is a node's number: the data's table is what the real valuation at the region's entry
    holds in the table's buffer; that valuation is the run's own, whose table is the closed one of the launch memory. -/
theorem hlt2 (m : (ℓ : Loc nD τ sig) → Buf (Elt F) ℓ) (hm : ∀ i : S2x800000.Idx, ((V0 m c₀ main_arg1 : IVec S2x800000 32) i).toNat < 50000) :
    ∀ k : S85000.Idx, (tblw2 (a2 m) k).toNat < 50000 := by
  have h1 : tblw2 (a2 m) = (U7 m c₀ main_v36 : IVec S85000 32) := by
    unfold a2
    rfl
  have h2 : ∀ W : Valuation τ sig (Elt F), V7 m (outsU m) c₀ = W → (W main_v36 : IVec S85000 32) = tbl2 m c₀ :=
    fun W hW => by subst hW; exact tbl2_eq m (outsU m) c₀
  have e : tblw2 (a2 m) = tbl2 m c₀ := h1.trans (h2 (U7 m c₀) (V7_eq m c₀))
  intro k
  rw [e]; exact tbl2_lt m c₀ hm k
set_option maxHeartbeats 1000000 in
set_option backward.isDefEq.respectTransparency.types false in
/-- REGION 2 over the thread state: entered from every unscoped buffer at `U7`, left at `U8`. -/
def reg2 (m : (ℓ : Loc nD τ sig) → Buf (Elt F) ℓ) (hm : ∀ i : S2x800000.Idx, ((V0 m c₀ main_arg1 : IVec S2x800000 32) i).toNat < 50000) :
    RegionSeg (pcfgs (F := F)) (adm m) (pdats m) () defs₀ 𝒱₀ L lv 2 where
  win := (launch2 (F := F)).win.to₀
  block_pos := (launch2 (F := F)).block_pos
  stage_whole := (launch2 (F := F)).stage_whole
  K := Fin 8
  osem := osem2
  ho := ownSemFacts2
  hbody c := hbodyG2 (atTc (U7 m)) (a2 m) (hlt2 m hm) c
  hwaits := Pipeline.hwaits_of_owed_zero _ _ _ _ L lv 2 fun _ _ => rfl
  pre c := iprop(StableHlo.held (c : Thread nD τ) (Pipeline.ucRefs τ sig) (U7 m c) ∗ R (F := F) c)
  post c := iprop(StableHlo.held (c : Thread nD τ) (Pipeline.ucRefs τ sig) (U8 m c) ∗ R (F := F) c)
  X c := XG2 (atTc (U7 m)) c
  Y c := YG2 (atTc (U7 m)) (a2 m) c
  Z c := ZG2 (atTc (U7 m)) c
  hentry c := by
    have hsplit := Pipeline.arrays_of_unscopedBufs (p := 2) (pcfgs (F := F)) (adm m) (pdats m) (launch2 (F := F)).win (launch2 (F := F)).arr_whole c
      ((pdats m 2 c).share_full fun _ => rfl) (atTc (U7 m) c) (fun _ => rfl)
    have h := hentryG2 (atTc (U7 m)) (a2 m) (gblk2 (atTc (U7 m)) (a2 m)) c (hpf2 m c) hsplit
    rw [Pipeline.unscopedBufs_held] at h
    exact h
  hin c := hinG2 (atTc (U7 m)) (a2 m) (gblk2 (atTc (U7 m)) (a2 m)) c
  hout c := houtG2 (atTc (U7 m)) (a2 m) (gblk2 (atTc (U7 m)) (a2 m)) c
  hexit c := by
    have hjoin := Pipeline.unscopedBufs_of_arrays (p := 2) (pcfgs (F := F)) (adm m) (Ix := Unit) (Name := ℕ) (U := UU) (Lvl := ℕ)
      (launch2 (F := F)).win (launch2 (F := F)).arr_whole c (pdats m) ((pdats m 2 c).share_full fun _ => rfl)
      (atTc (U7 m) c) (atTc (U8 m) c) ((pdats m 2 c).arrAt · (cfg2 (a2 m)).N) (hF2 m c) (hrest2 m c)
    have h := hexitG2 (atTc (U7 m)) (a2 m) (gblk2 (atTc (U7 m)) (a2 m)) (atTc (U8 m)) c (hpf2 m c) hjoin
    rw [Pipeline.unscopedBufs_held] at h
    exact h

set_option maxHeartbeats 1000000 in
/-- Every word of region 3's table is a node's number: the data's table is what the real valuation at the region's entry
    holds in the table's buffer; that valuation is the run's own, whose table is the closed one of the launch memory. -/
theorem hlt3 (m : (ℓ : Loc nD τ sig) → Buf (Elt F) ℓ) (hm : ∀ i : S2x800000.Idx, ((V0 m c₀ main_arg1 : IVec S2x800000 32) i).toNat < 50000) :
    ∀ k : S85000.Idx, (tblw3 (a3 m) k).toNat < 50000 := by
  have h1 : tblw3 (a3 m) = (U9 m c₀ main_v38 : IVec S85000 32) := by
    unfold a3
    rfl
  have h2 : ∀ W : Valuation τ sig (Elt F), V9 m (outsU m) c₀ = W → (W main_v38 : IVec S85000 32) = tbl3 m c₀ :=
    fun W hW => by subst hW; exact tbl3_eq m (outsU m) c₀
  have e : tblw3 (a3 m) = tbl3 m c₀ := h1.trans (h2 (U9 m c₀) (V9_eq m c₀))
  intro k
  rw [e]; exact tbl3_lt m c₀ hm k
set_option maxHeartbeats 1000000 in
set_option backward.isDefEq.respectTransparency.types false in
/-- REGION 3 over the thread state: entered from every unscoped buffer at `U9`, left at `U10`. -/
def reg3 (m : (ℓ : Loc nD τ sig) → Buf (Elt F) ℓ) (hm : ∀ i : S2x800000.Idx, ((V0 m c₀ main_arg1 : IVec S2x800000 32) i).toNat < 50000) :
    RegionSeg (pcfgs (F := F)) (adm m) (pdats m) () defs₀ 𝒱₀ L lv 3 where
  win := (launch3 (F := F)).win.to₀
  block_pos := (launch3 (F := F)).block_pos
  stage_whole := (launch3 (F := F)).stage_whole
  K := Fin 8
  osem := osem3
  ho := ownSemFacts3
  hbody c := hbodyG3 (atTc (U9 m)) (a3 m) (hlt3 m hm) c
  hwaits := Pipeline.hwaits_of_owed_zero _ _ _ _ L lv 3 fun _ _ => rfl
  pre c := iprop(StableHlo.held (c : Thread nD τ) (Pipeline.ucRefs τ sig) (U9 m c) ∗ R (F := F) c)
  post c := iprop(StableHlo.held (c : Thread nD τ) (Pipeline.ucRefs τ sig) (U10 m c) ∗ R (F := F) c)
  X c := XG3 (atTc (U9 m)) c
  Y c := YG3 (atTc (U9 m)) (a3 m) c
  Z c := ZG3 (atTc (U9 m)) c
  hentry c := by
    have hsplit := Pipeline.arrays_of_unscopedBufs (p := 3) (pcfgs (F := F)) (adm m) (pdats m) (launch3 (F := F)).win (launch3 (F := F)).arr_whole c
      ((pdats m 3 c).share_full fun _ => rfl) (atTc (U9 m) c) (fun _ => rfl)
    have h := hentryG3 (atTc (U9 m)) (a3 m) (gblk3 (atTc (U9 m)) (a3 m)) c (hpf3 m c) hsplit
    rw [Pipeline.unscopedBufs_held] at h
    exact h
  hin c := hinG3 (atTc (U9 m)) (a3 m) (gblk3 (atTc (U9 m)) (a3 m)) c
  hout c := houtG3 (atTc (U9 m)) (a3 m) (gblk3 (atTc (U9 m)) (a3 m)) c
  hexit c := by
    have hjoin := Pipeline.unscopedBufs_of_arrays (p := 3) (pcfgs (F := F)) (adm m) (Ix := Unit) (Name := ℕ) (U := UU) (Lvl := ℕ)
      (launch3 (F := F)).win (launch3 (F := F)).arr_whole c (pdats m) ((pdats m 3 c).share_full fun _ => rfl)
      (atTc (U9 m) c) (atTc (U10 m) c) ((pdats m 3 c).arrAt · (cfg3 (a3 m)).N) (hF3 m c) (hrest3 m c)
    have h := hexitG3 (atTc (U9 m)) (a3 m) (gblk3 (atTc (U9 m)) (a3 m)) (atTc (U10 m)) c (hpf3 m c) hjoin
    rw [Pipeline.unscopedBufs_held] at h
    exact h

set_option maxHeartbeats 1000000 in
/-- Every word of region 4's table is a node's number: the data's table is what the real valuation at the region's entry
    holds in the table's buffer; that valuation is the run's own, whose table is the closed one of the launch memory. -/
theorem hlt4 (m : (ℓ : Loc nD τ sig) → Buf (Elt F) ℓ) (hm : ∀ i : S2x800000.Idx, ((V0 m c₀ main_arg1 : IVec S2x800000 32) i).toNat < 50000) :
    ∀ k : S85000.Idx, (tblw4 (a4 m) k).toNat < 50000 := by
  have h1 : tblw4 (a4 m) = (U11 m c₀ main_v40 : IVec S85000 32) := by
    unfold a4
    rfl
  have h2 : ∀ W : Valuation τ sig (Elt F), V11 m (outsU m) c₀ = W → (W main_v40 : IVec S85000 32) = tbl4 m c₀ :=
    fun W hW => by subst hW; exact tbl4_eq m (outsU m) c₀
  have e : tblw4 (a4 m) = tbl4 m c₀ := h1.trans (h2 (U11 m c₀) (V11_eq m c₀))
  intro k
  rw [e]; exact tbl4_lt m c₀ hm k
set_option maxHeartbeats 1000000 in
set_option backward.isDefEq.respectTransparency.types false in
/-- REGION 4 over the thread state: entered from every unscoped buffer at `U11`, left at `U12`. -/
def reg4 (m : (ℓ : Loc nD τ sig) → Buf (Elt F) ℓ) (hm : ∀ i : S2x800000.Idx, ((V0 m c₀ main_arg1 : IVec S2x800000 32) i).toNat < 50000) :
    RegionSeg (pcfgs (F := F)) (adm m) (pdats m) () defs₀ 𝒱₀ L lv 4 where
  win := (launch4 (F := F)).win.to₀
  block_pos := (launch4 (F := F)).block_pos
  stage_whole := (launch4 (F := F)).stage_whole
  K := Fin 8
  osem := osem4
  ho := ownSemFacts4
  hbody c := hbodyG4 (atTc (U11 m)) (a4 m) (hlt4 m hm) c
  hwaits := Pipeline.hwaits_of_owed_zero _ _ _ _ L lv 4 fun _ _ => rfl
  pre c := iprop(StableHlo.held (c : Thread nD τ) (Pipeline.ucRefs τ sig) (U11 m c) ∗ R (F := F) c)
  post c := iprop(StableHlo.held (c : Thread nD τ) (Pipeline.ucRefs τ sig) (U12 m c) ∗ R (F := F) c)
  X c := XG4 (atTc (U11 m)) c
  Y c := YG4 (atTc (U11 m)) (a4 m) c
  Z c := ZG4 (atTc (U11 m)) c
  hentry c := by
    have hsplit := Pipeline.arrays_of_unscopedBufs (p := 4) (pcfgs (F := F)) (adm m) (pdats m) (launch4 (F := F)).win (launch4 (F := F)).arr_whole c
      ((pdats m 4 c).share_full fun _ => rfl) (atTc (U11 m) c) (fun _ => rfl)
    have h := hentryG4 (atTc (U11 m)) (a4 m) (gblk4 (atTc (U11 m)) (a4 m)) c (hpf4 m c) hsplit
    rw [Pipeline.unscopedBufs_held] at h
    exact h
  hin c := hinG4 (atTc (U11 m)) (a4 m) (gblk4 (atTc (U11 m)) (a4 m)) c
  hout c := houtG4 (atTc (U11 m)) (a4 m) (gblk4 (atTc (U11 m)) (a4 m)) c
  hexit c := by
    have hjoin := Pipeline.unscopedBufs_of_arrays (p := 4) (pcfgs (F := F)) (adm m) (Ix := Unit) (Name := ℕ) (U := UU) (Lvl := ℕ)
      (launch4 (F := F)).win (launch4 (F := F)).arr_whole c (pdats m) ((pdats m 4 c).share_full fun _ => rfl)
      (atTc (U11 m) c) (atTc (U12 m) c) ((pdats m 4 c).arrAt · (cfg4 (a4 m)).N) (hF4 m c) (hrest4 m c)
    have h := hexitG4 (atTc (U11 m)) (a4 m) (gblk4 (atTc (U11 m)) (a4 m)) (atTc (U12 m)) c (hpf4 m c) hjoin
    rw [Pipeline.unscopedBufs_held] at h
    exact h

end Cert.KernelIdeal.Hand

end
-- ==== Proof.KI.GatherBody5.lean ====
/-
  Region 5's body obligation. The region runs the body of region 1 on its own table, array, output block and
  semaphores (the two kernel functions are one function), so the body's run is region 1's, cited at this region's eight
  semaphores; read with this region's invariant it is the pipeline's body obligation for the region's proof data.
-/
import proofs.«402049_j87351044866139_2_alg».proof.Proof.KI.GatherDef5
import proofs.«402049_j87351044866139_2_alg».proof.Proof.KI.GatherBody1

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Idealize.ShloMosaic.Transfers (shareDrop shareTokN)
open Cert.KernelIdeal Cert.KernelIdeal.Gen

variable {F : FTy → Type} [FloatOps F]

local notation "𝕄" => MT nD τ sig Unit (Elt F) ℕ (Pipeline.UD sig nD τ) ℕ

/-! ## The body obligation -/

variable (V : (c : Dev nD) → (b : Ref sig .tc) → Buf (Elt F) ((c : Thread nD τ).loc b))
variable (a1 : (pcfg5 (F := F)).Adm)

/-- The eight cells at zero, listed, each as the body names it. -/
theorem ownSems5_eq (c : Dev nD) :
    (Pipeline.ownSems0 (Ix := Unit) (Name := ℕ) (U := Pipeline.UD sig nD τ) (Lvl := ℕ) (Val := Elt F) (τ := τ) osem5 c : sProp 𝕄)
      = iprop(semVal ((c : Thread nD τ), cell1_0 cc5_scratch0) 0 ∗ semVal ((c : Thread nD τ), cell1_1 cc5_scratch0) 0 ∗ semVal ((c : Thread nD τ), cell1_2 cc5_scratch0) 0 ∗ semVal ((c : Thread nD τ), cell1_3 cc5_scratch0) 0 ∗ semVal ((c : Thread nD τ), cell1_4 cc5_scratch0) 0 ∗ semVal ((c : Thread nD τ), cell1_5 cc5_scratch0) 0 ∗ semVal ((c : Thread nD τ), cell1_6 cc5_scratch0) 0 ∗ semVal ((c : Thread nD τ), cell1_7 cc5_scratch0) 0) := by
  rw [Pipeline.ownSems0_eq_of_list c osem5 [0, 1, 2, 3, 4, 5, 6, 7] (by decide) (by decide)]; rfl

/-- The array the rows are read from, at the contents the region found it with. -/
theorem hbm5_eq (c : Dev nD) :
    (bigSep H5 (fun b => ((c : Thread nD τ).loc b) ↦{fullShare} V c b) : sProp 𝕄)
      = ((Memref.whole main_v33 : Memref sig .tc .hbm S50000x128 .f32).view.loc (c : Thread nD τ) ↦{fullShare} V c main_v33) := by
  unfold H5
  rw [BI.bigSep_eq_bigSepL_of_eq [main_v33] (by decide) (by decide)]; rfl

/-- The table, held whole at the full share, is owned at its contents. -/
theorem tblw5_eq (c : Dev nD) :
    (Pipeline.prefHeld pre5 c (fun _ => fullShare) a1.1 : sProp 𝕄)
      = owns (c : Thread nD τ) (Memref.whole main_v42 : Memref sig .tc .smem S85000 .i32) fullShare (tblw5 a1) := by
  unfold Pipeline.prefHeld
  rw [bigSep_W5, owns_whole]; rfl

set_option maxHeartbeats 4000000 in
/-- The body at every point: the invariant hands the run its table, the array, the eight cells at zero (the scoped rest and
    the generator register ride along), the core's record of waits goes in at whatever the points before left and comes
    back with this point's eight, and the output block, at anything, comes back reading the gathered rows. -/
theorem hbodyG5 [∀ e, Nonempty (Elt F e)] (hlt : ∀ k : S85000.Idx, (tblw5 a1 k).toNat < 50000) (c : Dev nD) :
    BodyObligationLoose (datG5 V a1 (gblk5 V a1) c) (defs₀ (F := F)) Variants.none () Set.univ := by
  refine BodyObligation.loose _ fun t => ?_
  rw [bigSep_W5, bigSep_W5]
  show iprop(iprop(Pipeline.ΦD osem5 spec5 H5 V c ∗ Pipeline.prefHeld pre5 c (fun _ => fullShare) a1.1)
        ∗ (datG5 V a1 (gblk5 V a1) c).owesAt () t.castSucc
        ∗ (∃ d, owns (c : Thread nD τ) (spec5_0.stage ((cfg5 a1).slots t 0)) fullShare ((datG5 V a1 (gblk5 V a1) c).before 0 t d)))
      ⊢ wp frame (wpE (defs₀ (F := F)) Variants.none c none) Set.univ
          (cc5__gather_kernel ((cfg5 a1).grid.coords t) (Memref.whole main_v42) (Memref.isWhole_whole _) (Memref.whole main_v33) (Memref.isWhole_whole _)
            (spec5_0.stage ((cfg5 a1).slots t 0)) (hstage5_0 (((cfg5 a1).slots t 0).cast nbuf5_0)) cc5_scratch0)
          (fun _ => iprop(iprop(Pipeline.ΦD osem5 spec5 H5 V c ∗ Pipeline.prefHeld pre5 c (fun _ => fullShare) a1.1)
            ∗ (datG5 V a1 (gblk5 V a1) c).owesAt () t.succ
            ∗ owns (c : Thread nD τ) (spec5_0.stage ((cfg5 a1).slots t 0)) fullShare (gblk5 V a1 c t)))
  rw [Pipeline.ΦD_eq, ownSems5_eq, hbm5_eq, tblw5_eq]
  unfold Dat.owesAt Pipeline.owesWithin
  rw [show (datG5 V a1 (gblk5 V a1) c).owed t.castSucc = 0 from rfl, show (datG5 V a1 (gblk5 V a1) c).owed t.succ = 0 from rfl]
  have hr : (Memref.whole main_v33 : Memref sig .tc .hbm S50000x128 .f32).view.read (Elt F) (V c main_v33) = V c main_v33 := by
    simp only [Memref.view_whole, View.read_whole]
  iintro ⟨⟨⟨Hsc, Hg, ⟨Hq0, Hq1, Hq2, Hq3, Hq4, Hq5, Hq6, Hq7⟩, Hh⟩, Ht⟩, ⟨%W, -, HW⟩, ⟨%d, Hob⟩⟩
  iapply (kernelRun1 c ((cfg5 a1).grid.coords t) (Memref.whole main_v42) (Memref.isWhole_whole _) (Memref.whole main_v33) (Memref.isWhole_whole _)
    (spec5_0.stage ((cfg5 a1).slots t 0)) (hstage5_0 (((cfg5 a1).slots t 0).cast nbuf5_0)) (tblw5 a1) hlt fullShare fullShare (V c main_v33) cc5_scratch0 W _)
  isplitl [Ht]; · iexact Ht
  isplitl [Hh]; · iexact Hh
  isplitl [Hob]; · iexists _; iexact Hob
  isplitl [Hq0]; · iexact Hq0
  isplitl [Hq1]; · iexact Hq1
  isplitl [Hq2]; · iexact Hq2
  isplitl [Hq3]; · iexact Hq3
  isplitl [Hq4]; · iexact Hq4
  isplitl [Hq5]; · iexact Hq5
  isplitl [Hq6]; · iexact Hq6
  isplitl [Hq7]; · iexact Hq7
  isplitl [HW]; · iexact HW
  iintro ⟨Ht, Hh, Hob, Hq0, Hq1, Hq2, Hq3, Hq4, Hq5, Hq6, Hq7, ⟨%W', HW'⟩⟩
  isplitl [Hsc Hg Hq0 Hq1 Hq2 Hq3 Hq4 Hq5 Hq6 Hq7 Hh Ht]
  · isplitl [Hsc Hg Hq0 Hq1 Hq2 Hq3 Hq4 Hq5 Hq6 Hq7 Hh]
    · isplitl [Hsc]; · iexact Hsc
      isplitl [Hg]; · iexact Hg
      isplitl [Hq0 Hq1 Hq2 Hq3 Hq4 Hq5 Hq6 Hq7]
      · isplitl [Hq0]; · iexact Hq0
        isplitl [Hq1]; · iexact Hq1
        isplitl [Hq2]; · iexact Hq2
        isplitl [Hq3]; · iexact Hq3
        isplitl [Hq4]; · iexact Hq4
        isplitl [Hq5]; · iexact Hq5
        isplitl [Hq6]; · iexact Hq6
        iexact Hq7
      iexact Hh
    iexact Ht
  isplitl [HW']
  · iexists W'; isplitr; · ipureintro; exact fun _ _ => Or.inl trivial
    iexact HW'
  rw [hr]
  iexact Hob

end Cert.KernelIdeal.Hand

end
-- ==== Proof.KI.GatherBody6.lean ====
/-
  Region 6's body obligation. The region runs the body of region 1 on its own table, array, output block and
  semaphores (the two kernel functions are one function), so the body's run is region 1's, cited at this region's eight
  semaphores; read with this region's invariant it is the pipeline's body obligation for the region's proof data.
-/
import proofs.«402049_j87351044866139_2_alg».proof.Proof.KI.GatherDef6
import proofs.«402049_j87351044866139_2_alg».proof.Proof.KI.GatherBody1

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Idealize.ShloMosaic.Transfers (shareDrop shareTokN)
open Cert.KernelIdeal Cert.KernelIdeal.Gen

variable {F : FTy → Type} [FloatOps F]

local notation "𝕄" => MT nD τ sig Unit (Elt F) ℕ (Pipeline.UD sig nD τ) ℕ

/-! ## The body obligation -/

variable (V : (c : Dev nD) → (b : Ref sig .tc) → Buf (Elt F) ((c : Thread nD τ).loc b))
variable (a1 : (pcfg6 (F := F)).Adm)

/-- The eight cells at zero, listed, each as the body names it. -/
theorem ownSems6_eq (c : Dev nD) :
    (Pipeline.ownSems0 (Ix := Unit) (Name := ℕ) (U := Pipeline.UD sig nD τ) (Lvl := ℕ) (Val := Elt F) (τ := τ) osem6 c : sProp 𝕄)
      = iprop(semVal ((c : Thread nD τ), cell1_0 cc6_scratch0) 0 ∗ semVal ((c : Thread nD τ), cell1_1 cc6_scratch0) 0 ∗ semVal ((c : Thread nD τ), cell1_2 cc6_scratch0) 0 ∗ semVal ((c : Thread nD τ), cell1_3 cc6_scratch0) 0 ∗ semVal ((c : Thread nD τ), cell1_4 cc6_scratch0) 0 ∗ semVal ((c : Thread nD τ), cell1_5 cc6_scratch0) 0 ∗ semVal ((c : Thread nD τ), cell1_6 cc6_scratch0) 0 ∗ semVal ((c : Thread nD τ), cell1_7 cc6_scratch0) 0) := by
  rw [Pipeline.ownSems0_eq_of_list c osem6 [0, 1, 2, 3, 4, 5, 6, 7] (by decide) (by decide)]; rfl

/-- The array the rows are read from, at the contents the region found it with. -/
theorem hbm6_eq (c : Dev nD) :
    (bigSep H6 (fun b => ((c : Thread nD τ).loc b) ↦{fullShare} V c b) : sProp 𝕄)
      = ((Memref.whole main_v33 : Memref sig .tc .hbm S50000x128 .f32).view.loc (c : Thread nD τ) ↦{fullShare} V c main_v33) := by
  unfold H6
  rw [BI.bigSep_eq_bigSepL_of_eq [main_v33] (by decide) (by decide)]; rfl

/-- The table, held whole at the full share, is owned at its contents. -/
theorem tblw6_eq (c : Dev nD) :
    (Pipeline.prefHeld pre6 c (fun _ => fullShare) a1.1 : sProp 𝕄)
      = owns (c : Thread nD τ) (Memref.whole main_v44 : Memref sig .tc .smem S85000 .i32) fullShare (tblw6 a1) := by
  unfold Pipeline.prefHeld
  rw [bigSep_W6, owns_whole]; rfl

set_option maxHeartbeats 4000000 in
/-- The body at every point: the invariant hands the run its table, the array, the eight cells at zero (the scoped rest and
    the generator register ride along), the core's record of waits goes in at whatever the points before left and comes
    back with this point's eight, and the output block, at anything, comes back reading the gathered rows. -/
theorem hbodyG6 [∀ e, Nonempty (Elt F e)] (hlt : ∀ k : S85000.Idx, (tblw6 a1 k).toNat < 50000) (c : Dev nD) :
    BodyObligationLoose (datG6 V a1 (gblk6 V a1) c) (defs₀ (F := F)) Variants.none () Set.univ := by
  refine BodyObligation.loose _ fun t => ?_
  rw [bigSep_W6, bigSep_W6]
  show iprop(iprop(Pipeline.ΦD osem6 spec6 H6 V c ∗ Pipeline.prefHeld pre6 c (fun _ => fullShare) a1.1)
        ∗ (datG6 V a1 (gblk6 V a1) c).owesAt () t.castSucc
        ∗ (∃ d, owns (c : Thread nD τ) (spec6_0.stage ((cfg6 a1).slots t 0)) fullShare ((datG6 V a1 (gblk6 V a1) c).before 0 t d)))
      ⊢ wp frame (wpE (defs₀ (F := F)) Variants.none c none) Set.univ
          (cc6__gather_kernel ((cfg6 a1).grid.coords t) (Memref.whole main_v44) (Memref.isWhole_whole _) (Memref.whole main_v33) (Memref.isWhole_whole _)
            (spec6_0.stage ((cfg6 a1).slots t 0)) (hstage6_0 (((cfg6 a1).slots t 0).cast nbuf6_0)) cc6_scratch0)
          (fun _ => iprop(iprop(Pipeline.ΦD osem6 spec6 H6 V c ∗ Pipeline.prefHeld pre6 c (fun _ => fullShare) a1.1)
            ∗ (datG6 V a1 (gblk6 V a1) c).owesAt () t.succ
            ∗ owns (c : Thread nD τ) (spec6_0.stage ((cfg6 a1).slots t 0)) fullShare (gblk6 V a1 c t)))
  rw [Pipeline.ΦD_eq, ownSems6_eq, hbm6_eq, tblw6_eq]
  unfold Dat.owesAt Pipeline.owesWithin
  rw [show (datG6 V a1 (gblk6 V a1) c).owed t.castSucc = 0 from rfl, show (datG6 V a1 (gblk6 V a1) c).owed t.succ = 0 from rfl]
  have hr : (Memref.whole main_v33 : Memref sig .tc .hbm S50000x128 .f32).view.read (Elt F) (V c main_v33) = V c main_v33 := by
    simp only [Memref.view_whole, View.read_whole]
  iintro ⟨⟨⟨Hsc, Hg, ⟨Hq0, Hq1, Hq2, Hq3, Hq4, Hq5, Hq6, Hq7⟩, Hh⟩, Ht⟩, ⟨%W, -, HW⟩, ⟨%d, Hob⟩⟩
  iapply (kernelRun1 c ((cfg6 a1).grid.coords t) (Memref.whole main_v44) (Memref.isWhole_whole _) (Memref.whole main_v33) (Memref.isWhole_whole _)
    (spec6_0.stage ((cfg6 a1).slots t 0)) (hstage6_0 (((cfg6 a1).slots t 0).cast nbuf6_0)) (tblw6 a1) hlt fullShare fullShare (V c main_v33) cc6_scratch0 W _)
  isplitl [Ht]; · iexact Ht
  isplitl [Hh]; · iexact Hh
  isplitl [Hob]; · iexists _; iexact Hob
  isplitl [Hq0]; · iexact Hq0
  isplitl [Hq1]; · iexact Hq1
  isplitl [Hq2]; · iexact Hq2
  isplitl [Hq3]; · iexact Hq3
  isplitl [Hq4]; · iexact Hq4
  isplitl [Hq5]; · iexact Hq5
  isplitl [Hq6]; · iexact Hq6
  isplitl [Hq7]; · iexact Hq7
  isplitl [HW]; · iexact HW
  iintro ⟨Ht, Hh, Hob, Hq0, Hq1, Hq2, Hq3, Hq4, Hq5, Hq6, Hq7, ⟨%W', HW'⟩⟩
  isplitl [Hsc Hg Hq0 Hq1 Hq2 Hq3 Hq4 Hq5 Hq6 Hq7 Hh Ht]
  · isplitl [Hsc Hg Hq0 Hq1 Hq2 Hq3 Hq4 Hq5 Hq6 Hq7 Hh]
    · isplitl [Hsc]; · iexact Hsc
      isplitl [Hg]; · iexact Hg
      isplitl [Hq0 Hq1 Hq2 Hq3 Hq4 Hq5 Hq6 Hq7]
      · isplitl [Hq0]; · iexact Hq0
        isplitl [Hq1]; · iexact Hq1
        isplitl [Hq2]; · iexact Hq2
        isplitl [Hq3]; · iexact Hq3
        isplitl [Hq4]; · iexact Hq4
        isplitl [Hq5]; · iexact Hq5
        isplitl [Hq6]; · iexact Hq6
        iexact Hq7
      iexact Hh
    iexact Ht
  isplitl [HW']
  · iexists W'; isplitr; · ipureintro; exact fun _ _ => Or.inl trivial
    iexact HW'
  rw [hr]
  iexact Hob

end Cert.KernelIdeal.Hand

end
-- ==== Proof.KI.GatherBody7.lean ====
/-
  Region 7's body obligation. The region runs the body of region 1 on its own table, array, output block and
  semaphores (the two kernel functions are one function), so the body's run is region 1's, cited at this region's eight
  semaphores; read with this region's invariant it is the pipeline's body obligation for the region's proof data.
-/
import proofs.«402049_j87351044866139_2_alg».proof.Proof.KI.GatherDef7
import proofs.«402049_j87351044866139_2_alg».proof.Proof.KI.GatherBody1

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Idealize.ShloMosaic.Transfers (shareDrop shareTokN)
open Cert.KernelIdeal Cert.KernelIdeal.Gen

variable {F : FTy → Type} [FloatOps F]

local notation "𝕄" => MT nD τ sig Unit (Elt F) ℕ (Pipeline.UD sig nD τ) ℕ

/-! ## The body obligation -/

variable (V : (c : Dev nD) → (b : Ref sig .tc) → Buf (Elt F) ((c : Thread nD τ).loc b))
variable (a1 : (pcfg7 (F := F)).Adm)

/-- The eight cells at zero, listed, each as the body names it. -/
theorem ownSems7_eq (c : Dev nD) :
    (Pipeline.ownSems0 (Ix := Unit) (Name := ℕ) (U := Pipeline.UD sig nD τ) (Lvl := ℕ) (Val := Elt F) (τ := τ) osem7 c : sProp 𝕄)
      = iprop(semVal ((c : Thread nD τ), cell1_0 cc7_scratch0) 0 ∗ semVal ((c : Thread nD τ), cell1_1 cc7_scratch0) 0 ∗ semVal ((c : Thread nD τ), cell1_2 cc7_scratch0) 0 ∗ semVal ((c : Thread nD τ), cell1_3 cc7_scratch0) 0 ∗ semVal ((c : Thread nD τ), cell1_4 cc7_scratch0) 0 ∗ semVal ((c : Thread nD τ), cell1_5 cc7_scratch0) 0 ∗ semVal ((c : Thread nD τ), cell1_6 cc7_scratch0) 0 ∗ semVal ((c : Thread nD τ), cell1_7 cc7_scratch0) 0) := by
  rw [Pipeline.ownSems0_eq_of_list c osem7 [0, 1, 2, 3, 4, 5, 6, 7] (by decide) (by decide)]; rfl

/-- The array the rows are read from, at the contents the region found it with. -/
theorem hbm7_eq (c : Dev nD) :
    (bigSep H7 (fun b => ((c : Thread nD τ).loc b) ↦{fullShare} V c b) : sProp 𝕄)
      = ((Memref.whole main_v33 : Memref sig .tc .hbm S50000x128 .f32).view.loc (c : Thread nD τ) ↦{fullShare} V c main_v33) := by
  unfold H7
  rw [BI.bigSep_eq_bigSepL_of_eq [main_v33] (by decide) (by decide)]; rfl

/-- The table, held whole at the full share, is owned at its contents. -/
theorem tblw7_eq (c : Dev nD) :
    (Pipeline.prefHeld pre7 c (fun _ => fullShare) a1.1 : sProp 𝕄)
      = owns (c : Thread nD τ) (Memref.whole main_v46 : Memref sig .tc .smem S85000 .i32) fullShare (tblw7 a1) := by
  unfold Pipeline.prefHeld
  rw [bigSep_W7, owns_whole]; rfl

set_option maxHeartbeats 4000000 in
/-- The body at every point: the invariant hands the run its table, the array, the eight cells at zero (the scoped rest and
    the generator register ride along), the core's record of waits goes in at whatever the points before left and comes
    back with this point's eight, and the output block, at anything, comes back reading the gathered rows. -/
theorem hbodyG7 [∀ e, Nonempty (Elt F e)] (hlt : ∀ k : S85000.Idx, (tblw7 a1 k).toNat < 50000) (c : Dev nD) :
    BodyObligationLoose (datG7 V a1 (gblk7 V a1) c) (defs₀ (F := F)) Variants.none () Set.univ := by
  refine BodyObligation.loose _ fun t => ?_
  rw [bigSep_W7, bigSep_W7]
  show iprop(iprop(Pipeline.ΦD osem7 spec7 H7 V c ∗ Pipeline.prefHeld pre7 c (fun _ => fullShare) a1.1)
        ∗ (datG7 V a1 (gblk7 V a1) c).owesAt () t.castSucc
        ∗ (∃ d, owns (c : Thread nD τ) (spec7_0.stage ((cfg7 a1).slots t 0)) fullShare ((datG7 V a1 (gblk7 V a1) c).before 0 t d)))
      ⊢ wp frame (wpE (defs₀ (F := F)) Variants.none c none) Set.univ
          (cc7__gather_kernel ((cfg7 a1).grid.coords t) (Memref.whole main_v46) (Memref.isWhole_whole _) (Memref.whole main_v33) (Memref.isWhole_whole _)
            (spec7_0.stage ((cfg7 a1).slots t 0)) (hstage7_0 (((cfg7 a1).slots t 0).cast nbuf7_0)) cc7_scratch0)
          (fun _ => iprop(iprop(Pipeline.ΦD osem7 spec7 H7 V c ∗ Pipeline.prefHeld pre7 c (fun _ => fullShare) a1.1)
            ∗ (datG7 V a1 (gblk7 V a1) c).owesAt () t.succ
            ∗ owns (c : Thread nD τ) (spec7_0.stage ((cfg7 a1).slots t 0)) fullShare (gblk7 V a1 c t)))
  rw [Pipeline.ΦD_eq, ownSems7_eq, hbm7_eq, tblw7_eq]
  unfold Dat.owesAt Pipeline.owesWithin
  rw [show (datG7 V a1 (gblk7 V a1) c).owed t.castSucc = 0 from rfl, show (datG7 V a1 (gblk7 V a1) c).owed t.succ = 0 from rfl]
  have hr : (Memref.whole main_v33 : Memref sig .tc .hbm S50000x128 .f32).view.read (Elt F) (V c main_v33) = V c main_v33 := by
    simp only [Memref.view_whole, View.read_whole]
  iintro ⟨⟨⟨Hsc, Hg, ⟨Hq0, Hq1, Hq2, Hq3, Hq4, Hq5, Hq6, Hq7⟩, Hh⟩, Ht⟩, ⟨%W, -, HW⟩, ⟨%d, Hob⟩⟩
  iapply (kernelRun1 c ((cfg7 a1).grid.coords t) (Memref.whole main_v46) (Memref.isWhole_whole _) (Memref.whole main_v33) (Memref.isWhole_whole _)
    (spec7_0.stage ((cfg7 a1).slots t 0)) (hstage7_0 (((cfg7 a1).slots t 0).cast nbuf7_0)) (tblw7 a1) hlt fullShare fullShare (V c main_v33) cc7_scratch0 W _)
  isplitl [Ht]; · iexact Ht
  isplitl [Hh]; · iexact Hh
  isplitl [Hob]; · iexists _; iexact Hob
  isplitl [Hq0]; · iexact Hq0
  isplitl [Hq1]; · iexact Hq1
  isplitl [Hq2]; · iexact Hq2
  isplitl [Hq3]; · iexact Hq3
  isplitl [Hq4]; · iexact Hq4
  isplitl [Hq5]; · iexact Hq5
  isplitl [Hq6]; · iexact Hq6
  isplitl [Hq7]; · iexact Hq7
  isplitl [HW]; · iexact HW
  iintro ⟨Ht, Hh, Hob, Hq0, Hq1, Hq2, Hq3, Hq4, Hq5, Hq6, Hq7, ⟨%W', HW'⟩⟩
  isplitl [Hsc Hg Hq0 Hq1 Hq2 Hq3 Hq4 Hq5 Hq6 Hq7 Hh Ht]
  · isplitl [Hsc Hg Hq0 Hq1 Hq2 Hq3 Hq4 Hq5 Hq6 Hq7 Hh]
    · isplitl [Hsc]; · iexact Hsc
      isplitl [Hg]; · iexact Hg
      isplitl [Hq0 Hq1 Hq2 Hq3 Hq4 Hq5 Hq6 Hq7]
      · isplitl [Hq0]; · iexact Hq0
        isplitl [Hq1]; · iexact Hq1
        isplitl [Hq2]; · iexact Hq2
        isplitl [Hq3]; · iexact Hq3
        isplitl [Hq4]; · iexact Hq4
        isplitl [Hq5]; · iexact Hq5
        isplitl [Hq6]; · iexact Hq6
        iexact Hq7
      iexact Hh
    iexact Ht
  isplitl [HW']
  · iexists W'; isplitr; · ipureintro; exact fun _ _ => Or.inl trivial
    iexact HW'
  rw [hr]
  iexact Hob

end Cert.KernelIdeal.Hand

end
-- ==== Proof.KI.GatherBody8.lean ====
/-
  Region 8's body obligation. The region runs the body of region 1 on its own table, array, output block and
  semaphores (the two kernel functions are one function), so the body's run is region 1's, cited at this region's eight
  semaphores; read with this region's invariant it is the pipeline's body obligation for the region's proof data.
-/
import proofs.«402049_j87351044866139_2_alg».proof.Proof.KI.GatherDef8
import proofs.«402049_j87351044866139_2_alg».proof.Proof.KI.GatherBody1

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Idealize.ShloMosaic.Transfers (shareDrop shareTokN)
open Cert.KernelIdeal Cert.KernelIdeal.Gen

variable {F : FTy → Type} [FloatOps F]

local notation "𝕄" => MT nD τ sig Unit (Elt F) ℕ (Pipeline.UD sig nD τ) ℕ

/-! ## The body obligation -/

variable (V : (c : Dev nD) → (b : Ref sig .tc) → Buf (Elt F) ((c : Thread nD τ).loc b))
variable (a1 : (pcfg8 (F := F)).Adm)

/-- The eight cells at zero, listed, each as the body names it. -/
theorem ownSems8_eq (c : Dev nD) :
    (Pipeline.ownSems0 (Ix := Unit) (Name := ℕ) (U := Pipeline.UD sig nD τ) (Lvl := ℕ) (Val := Elt F) (τ := τ) osem8 c : sProp 𝕄)
      = iprop(semVal ((c : Thread nD τ), cell1_0 cc8_scratch0) 0 ∗ semVal ((c : Thread nD τ), cell1_1 cc8_scratch0) 0 ∗ semVal ((c : Thread nD τ), cell1_2 cc8_scratch0) 0 ∗ semVal ((c : Thread nD τ), cell1_3 cc8_scratch0) 0 ∗ semVal ((c : Thread nD τ), cell1_4 cc8_scratch0) 0 ∗ semVal ((c : Thread nD τ), cell1_5 cc8_scratch0) 0 ∗ semVal ((c : Thread nD τ), cell1_6 cc8_scratch0) 0 ∗ semVal ((c : Thread nD τ), cell1_7 cc8_scratch0) 0) := by
  rw [Pipeline.ownSems0_eq_of_list c osem8 [0, 1, 2, 3, 4, 5, 6, 7] (by decide) (by decide)]; rfl

/-- The array the rows are read from, at the contents the region found it with. -/
theorem hbm8_eq (c : Dev nD) :
    (bigSep H8 (fun b => ((c : Thread nD τ).loc b) ↦{fullShare} V c b) : sProp 𝕄)
      = ((Memref.whole main_v33 : Memref sig .tc .hbm S50000x128 .f32).view.loc (c : Thread nD τ) ↦{fullShare} V c main_v33) := by
  unfold H8
  rw [BI.bigSep_eq_bigSepL_of_eq [main_v33] (by decide) (by decide)]; rfl

/-- The table, held whole at the full share, is owned at its contents. -/
theorem tblw8_eq (c : Dev nD) :
    (Pipeline.prefHeld pre8 c (fun _ => fullShare) a1.1 : sProp 𝕄)
      = owns (c : Thread nD τ) (Memref.whole main_v48 : Memref sig .tc .smem S85000 .i32) fullShare (tblw8 a1) := by
  unfold Pipeline.prefHeld
  rw [bigSep_W8, owns_whole]; rfl

set_option maxHeartbeats 4000000 in
/-- The body at every point: the invariant hands the run its table, the array, the eight cells at zero (the scoped rest and
    the generator register ride along), the core's record of waits goes in at whatever the points before left and comes
    back with this point's eight, and the output block, at anything, comes back reading the gathered rows. -/
theorem hbodyG8 [∀ e, Nonempty (Elt F e)] (hlt : ∀ k : S85000.Idx, (tblw8 a1 k).toNat < 50000) (c : Dev nD) :
    BodyObligationLoose (datG8 V a1 (gblk8 V a1) c) (defs₀ (F := F)) Variants.none () Set.univ := by
  refine BodyObligation.loose _ fun t => ?_
  rw [bigSep_W8, bigSep_W8]
  show iprop(iprop(Pipeline.ΦD osem8 spec8 H8 V c ∗ Pipeline.prefHeld pre8 c (fun _ => fullShare) a1.1)
        ∗ (datG8 V a1 (gblk8 V a1) c).owesAt () t.castSucc
        ∗ (∃ d, owns (c : Thread nD τ) (spec8_0.stage ((cfg8 a1).slots t 0)) fullShare ((datG8 V a1 (gblk8 V a1) c).before 0 t d)))
      ⊢ wp frame (wpE (defs₀ (F := F)) Variants.none c none) Set.univ
          (cc8__gather_kernel ((cfg8 a1).grid.coords t) (Memref.whole main_v48) (Memref.isWhole_whole _) (Memref.whole main_v33) (Memref.isWhole_whole _)
            (spec8_0.stage ((cfg8 a1).slots t 0)) (hstage8_0 (((cfg8 a1).slots t 0).cast nbuf8_0)) cc8_scratch0)
          (fun _ => iprop(iprop(Pipeline.ΦD osem8 spec8 H8 V c ∗ Pipeline.prefHeld pre8 c (fun _ => fullShare) a1.1)
            ∗ (datG8 V a1 (gblk8 V a1) c).owesAt () t.succ
            ∗ owns (c : Thread nD τ) (spec8_0.stage ((cfg8 a1).slots t 0)) fullShare (gblk8 V a1 c t)))
  rw [Pipeline.ΦD_eq, ownSems8_eq, hbm8_eq, tblw8_eq]
  unfold Dat.owesAt Pipeline.owesWithin
  rw [show (datG8 V a1 (gblk8 V a1) c).owed t.castSucc = 0 from rfl, show (datG8 V a1 (gblk8 V a1) c).owed t.succ = 0 from rfl]
  have hr : (Memref.whole main_v33 : Memref sig .tc .hbm S50000x128 .f32).view.read (Elt F) (V c main_v33) = V c main_v33 := by
    simp only [Memref.view_whole, View.read_whole]
  iintro ⟨⟨⟨Hsc, Hg, ⟨Hq0, Hq1, Hq2, Hq3, Hq4, Hq5, Hq6, Hq7⟩, Hh⟩, Ht⟩, ⟨%W, -, HW⟩, ⟨%d, Hob⟩⟩
  iapply (kernelRun1 c ((cfg8 a1).grid.coords t) (Memref.whole main_v48) (Memref.isWhole_whole _) (Memref.whole main_v33) (Memref.isWhole_whole _)
    (spec8_0.stage ((cfg8 a1).slots t 0)) (hstage8_0 (((cfg8 a1).slots t 0).cast nbuf8_0)) (tblw8 a1) hlt fullShare fullShare (V c main_v33) cc8_scratch0 W _)
  isplitl [Ht]; · iexact Ht
  isplitl [Hh]; · iexact Hh
  isplitl [Hob]; · iexists _; iexact Hob
  isplitl [Hq0]; · iexact Hq0
  isplitl [Hq1]; · iexact Hq1
  isplitl [Hq2]; · iexact Hq2
  isplitl [Hq3]; · iexact Hq3
  isplitl [Hq4]; · iexact Hq4
  isplitl [Hq5]; · iexact Hq5
  isplitl [Hq6]; · iexact Hq6
  isplitl [Hq7]; · iexact Hq7
  isplitl [HW]; · iexact HW
  iintro ⟨Ht, Hh, Hob, Hq0, Hq1, Hq2, Hq3, Hq4, Hq5, Hq6, Hq7, ⟨%W', HW'⟩⟩
  isplitl [Hsc Hg Hq0 Hq1 Hq2 Hq3 Hq4 Hq5 Hq6 Hq7 Hh Ht]
  · isplitl [Hsc Hg Hq0 Hq1 Hq2 Hq3 Hq4 Hq5 Hq6 Hq7 Hh]
    · isplitl [Hsc]; · iexact Hsc
      isplitl [Hg]; · iexact Hg
      isplitl [Hq0 Hq1 Hq2 Hq3 Hq4 Hq5 Hq6 Hq7]
      · isplitl [Hq0]; · iexact Hq0
        isplitl [Hq1]; · iexact Hq1
        isplitl [Hq2]; · iexact Hq2
        isplitl [Hq3]; · iexact Hq3
        isplitl [Hq4]; · iexact Hq4
        isplitl [Hq5]; · iexact Hq5
        isplitl [Hq6]; · iexact Hq6
        iexact Hq7
      iexact Hh
    iexact Ht
  isplitl [HW']
  · iexists W'; isplitr; · ipureintro; exact fun _ _ => Or.inl trivial
    iexact HW'
  rw [hr]
  iexact Hob

end Cert.KernelIdeal.Hand

end
-- ==== Proof.KI.GatherBody9.lean ====
/-
  Region 9's body obligation. The region runs the body of region 1 on its own table, array, output block and
  semaphores (the two kernel functions are one function), so the body's run is region 1's, cited at this region's eight
  semaphores; read with this region's invariant it is the pipeline's body obligation for the region's proof data.
-/
import proofs.«402049_j87351044866139_2_alg».proof.Proof.KI.GatherDef9
import proofs.«402049_j87351044866139_2_alg».proof.Proof.KI.GatherBody1

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Idealize.ShloMosaic.Transfers (shareDrop shareTokN)
open Cert.KernelIdeal Cert.KernelIdeal.Gen

variable {F : FTy → Type} [FloatOps F]

local notation "𝕄" => MT nD τ sig Unit (Elt F) ℕ (Pipeline.UD sig nD τ) ℕ

/-! ## The body obligation -/

variable (V : (c : Dev nD) → (b : Ref sig .tc) → Buf (Elt F) ((c : Thread nD τ).loc b))
variable (a1 : (pcfg9 (F := F)).Adm)

/-- The eight cells at zero, listed, each as the body names it. -/
theorem ownSems9_eq (c : Dev nD) :
    (Pipeline.ownSems0 (Ix := Unit) (Name := ℕ) (U := Pipeline.UD sig nD τ) (Lvl := ℕ) (Val := Elt F) (τ := τ) osem9 c : sProp 𝕄)
      = iprop(semVal ((c : Thread nD τ), cell1_0 cc9_scratch0) 0 ∗ semVal ((c : Thread nD τ), cell1_1 cc9_scratch0) 0 ∗ semVal ((c : Thread nD τ), cell1_2 cc9_scratch0) 0 ∗ semVal ((c : Thread nD τ), cell1_3 cc9_scratch0) 0 ∗ semVal ((c : Thread nD τ), cell1_4 cc9_scratch0) 0 ∗ semVal ((c : Thread nD τ), cell1_5 cc9_scratch0) 0 ∗ semVal ((c : Thread nD τ), cell1_6 cc9_scratch0) 0 ∗ semVal ((c : Thread nD τ), cell1_7 cc9_scratch0) 0) := by
  rw [Pipeline.ownSems0_eq_of_list c osem9 [0, 1, 2, 3, 4, 5, 6, 7] (by decide) (by decide)]; rfl

/-- The array the rows are read from, at the contents the region found it with. -/
theorem hbm9_eq (c : Dev nD) :
    (bigSep H9 (fun b => ((c : Thread nD τ).loc b) ↦{fullShare} V c b) : sProp 𝕄)
      = ((Memref.whole main_v33 : Memref sig .tc .hbm S50000x128 .f32).view.loc (c : Thread nD τ) ↦{fullShare} V c main_v33) := by
  unfold H9
  rw [BI.bigSep_eq_bigSepL_of_eq [main_v33] (by decide) (by decide)]; rfl

/-- The table, held whole at the full share, is owned at its contents. -/
theorem tblw9_eq (c : Dev nD) :
    (Pipeline.prefHeld pre9 c (fun _ => fullShare) a1.1 : sProp 𝕄)
      = owns (c : Thread nD τ) (Memref.whole main_v50 : Memref sig .tc .smem S85000 .i32) fullShare (tblw9 a1) := by
  unfold Pipeline.prefHeld
  rw [bigSep_W9, owns_whole]; rfl

set_option maxHeartbeats 4000000 in
/-- The body at every point: the invariant hands the run its table, the array, the eight cells at zero (the scoped rest and
    the generator register ride along), the core's record of waits goes in at whatever the points before left and comes
    back with this point's eight, and the output block, at anything, comes back reading the gathered rows. -/
theorem hbodyG9 [∀ e, Nonempty (Elt F e)] (hlt : ∀ k : S85000.Idx, (tblw9 a1 k).toNat < 50000) (c : Dev nD) :
    BodyObligationLoose (datG9 V a1 (gblk9 V a1) c) (defs₀ (F := F)) Variants.none () Set.univ := by
  refine BodyObligation.loose _ fun t => ?_
  rw [bigSep_W9, bigSep_W9]
  show iprop(iprop(Pipeline.ΦD osem9 spec9 H9 V c ∗ Pipeline.prefHeld pre9 c (fun _ => fullShare) a1.1)
        ∗ (datG9 V a1 (gblk9 V a1) c).owesAt () t.castSucc
        ∗ (∃ d, owns (c : Thread nD τ) (spec9_0.stage ((cfg9 a1).slots t 0)) fullShare ((datG9 V a1 (gblk9 V a1) c).before 0 t d)))
      ⊢ wp frame (wpE (defs₀ (F := F)) Variants.none c none) Set.univ
          (cc9__gather_kernel ((cfg9 a1).grid.coords t) (Memref.whole main_v50) (Memref.isWhole_whole _) (Memref.whole main_v33) (Memref.isWhole_whole _)
            (spec9_0.stage ((cfg9 a1).slots t 0)) (hstage9_0 (((cfg9 a1).slots t 0).cast nbuf9_0)) cc9_scratch0)
          (fun _ => iprop(iprop(Pipeline.ΦD osem9 spec9 H9 V c ∗ Pipeline.prefHeld pre9 c (fun _ => fullShare) a1.1)
            ∗ (datG9 V a1 (gblk9 V a1) c).owesAt () t.succ
            ∗ owns (c : Thread nD τ) (spec9_0.stage ((cfg9 a1).slots t 0)) fullShare (gblk9 V a1 c t)))
  rw [Pipeline.ΦD_eq, ownSems9_eq, hbm9_eq, tblw9_eq]
  unfold Dat.owesAt Pipeline.owesWithin
  rw [show (datG9 V a1 (gblk9 V a1) c).owed t.castSucc = 0 from rfl, show (datG9 V a1 (gblk9 V a1) c).owed t.succ = 0 from rfl]
  have hr : (Memref.whole main_v33 : Memref sig .tc .hbm S50000x128 .f32).view.read (Elt F) (V c main_v33) = V c main_v33 := by
    simp only [Memref.view_whole, View.read_whole]
  iintro ⟨⟨⟨Hsc, Hg, ⟨Hq0, Hq1, Hq2, Hq3, Hq4, Hq5, Hq6, Hq7⟩, Hh⟩, Ht⟩, ⟨%W, -, HW⟩, ⟨%d, Hob⟩⟩
  iapply (kernelRun1 c ((cfg9 a1).grid.coords t) (Memref.whole main_v50) (Memref.isWhole_whole _) (Memref.whole main_v33) (Memref.isWhole_whole _)
    (spec9_0.stage ((cfg9 a1).slots t 0)) (hstage9_0 (((cfg9 a1).slots t 0).cast nbuf9_0)) (tblw9 a1) hlt fullShare fullShare (V c main_v33) cc9_scratch0 W _)
  isplitl [Ht]; · iexact Ht
  isplitl [Hh]; · iexact Hh
  isplitl [Hob]; · iexists _; iexact Hob
  isplitl [Hq0]; · iexact Hq0
  isplitl [Hq1]; · iexact Hq1
  isplitl [Hq2]; · iexact Hq2
  isplitl [Hq3]; · iexact Hq3
  isplitl [Hq4]; · iexact Hq4
  isplitl [Hq5]; · iexact Hq5
  isplitl [Hq6]; · iexact Hq6
  isplitl [Hq7]; · iexact Hq7
  isplitl [HW]; · iexact HW
  iintro ⟨Ht, Hh, Hob, Hq0, Hq1, Hq2, Hq3, Hq4, Hq5, Hq6, Hq7, ⟨%W', HW'⟩⟩
  isplitl [Hsc Hg Hq0 Hq1 Hq2 Hq3 Hq4 Hq5 Hq6 Hq7 Hh Ht]
  · isplitl [Hsc Hg Hq0 Hq1 Hq2 Hq3 Hq4 Hq5 Hq6 Hq7 Hh]
    · isplitl [Hsc]; · iexact Hsc
      isplitl [Hg]; · iexact Hg
      isplitl [Hq0 Hq1 Hq2 Hq3 Hq4 Hq5 Hq6 Hq7]
      · isplitl [Hq0]; · iexact Hq0
        isplitl [Hq1]; · iexact Hq1
        isplitl [Hq2]; · iexact Hq2
        isplitl [Hq3]; · iexact Hq3
        isplitl [Hq4]; · iexact Hq4
        isplitl [Hq5]; · iexact Hq5
        isplitl [Hq6]; · iexact Hq6
        iexact Hq7
      iexact Hh
    iexact Ht
  isplitl [HW']
  · iexists W'; isplitr; · ipureintro; exact fun _ _ => Or.inl trivial
    iexact HW'
  rw [hr]
  iexact Hob

end Cert.KernelIdeal.Hand

end
-- ==== Proof.KI.Regs1.lean ====
import proofs.«402049_j87351044866139_2_alg».proof.Proof.KI.Fam
import proofs.«402049_j87351044866139_2_alg».proof.Proof.KI.Tables
import proofs.«402049_j87351044866139_2_alg».proof.Proof.KI.GatherBody5
import proofs.«402049_j87351044866139_2_alg».proof.Proof.KI.GatherBody6
import proofs.«402049_j87351044866139_2_alg».proof.Proof.KI.GatherBody7
import proofs.«402049_j87351044866139_2_alg».proof.Proof.KI.GatherBody8
import proofs.«402049_j87351044866139_2_alg».proof.Proof.KI.GatherBody9
import Idealize.ShloMosaic.Lib.Pipeline.RegionsLoop

/-! The records of regions 5 to 9 over the thread states: each entered from every unscoped buffer at the real valuation
    before it and left at the one after it; for a gather region, first that every word of its table is a node's number. -/

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg BodyObligation BodyObligationLoose)

variable {F : FTy → Type} [FloatOps F]

local notation "𝕄" => MT nD τ sig Unit (Elt F) ℕ UU ℕ

set_option maxHeartbeats 1000000 in
/-- Every word of region 5's table is a node's number: the data's table is what the real valuation at the region's entry
    holds in the table's buffer; that valuation is the run's own, whose table is the closed one of the launch memory. -/
theorem hlt5 (m : (ℓ : Loc nD τ sig) → Buf (Elt F) ℓ) (hm : ∀ i : S2x800000.Idx, ((V0 m c₀ main_arg1 : IVec S2x800000 32) i).toNat < 50000) :
    ∀ k : S85000.Idx, (tblw5 (a5 m) k).toNat < 50000 := by
  have h1 : tblw5 (a5 m) = (U13 m c₀ main_v42 : IVec S85000 32) := by
    unfold a5
    rfl
  have h2 : ∀ W : Valuation τ sig (Elt F), V13 m (outsU m) c₀ = W → (W main_v42 : IVec S85000 32) = tbl5 m c₀ :=
    fun W hW => by subst hW; exact tbl5_eq m (outsU m) c₀
  have e : tblw5 (a5 m) = tbl5 m c₀ := h1.trans (h2 (U13 m c₀) (V13_eq m c₀))
  intro k
  rw [e]; exact tbl5_lt m c₀ hm k
set_option maxHeartbeats 1000000 in
set_option backward.isDefEq.respectTransparency.types false in
/-- REGION 5 over the thread state: entered from every unscoped buffer at `U13`, left at `U14`. -/
def reg5 (m : (ℓ : Loc nD τ sig) → Buf (Elt F) ℓ) (hm : ∀ i : S2x800000.Idx, ((V0 m c₀ main_arg1 : IVec S2x800000 32) i).toNat < 50000) :
    RegionSeg (pcfgs (F := F)) (adm m) (pdats m) () defs₀ 𝒱₀ L lv 5 where
  win := (launch5 (F := F)).win.to₀
  block_pos := (launch5 (F := F)).block_pos
  stage_whole := (launch5 (F := F)).stage_whole
  K := Fin 8
  osem := osem5
  ho := ownSemFacts5
  hbody c := hbodyG5 (atTc (U13 m)) (a5 m) (hlt5 m hm) c
  hwaits := Pipeline.hwaits_of_owed_zero _ _ _ _ L lv 5 fun _ _ => rfl
  pre c := iprop(StableHlo.held (c : Thread nD τ) (Pipeline.ucRefs τ sig) (U13 m c) ∗ R (F := F) c)
  post c := iprop(StableHlo.held (c : Thread nD τ) (Pipeline.ucRefs τ sig) (U14 m c) ∗ R (F := F) c)
  X c := XG5 (atTc (U13 m)) c
  Y c := YG5 (atTc (U13 m)) (a5 m) c
  Z c := ZG5 (atTc (U13 m)) c
  hentry c := by
    have hsplit := Pipeline.arrays_of_unscopedBufs (p := 5) (pcfgs (F := F)) (adm m) (pdats m) (launch5 (F := F)).win (launch5 (F := F)).arr_whole c
      ((pdats m 5 c).share_full fun _ => rfl) (atTc (U13 m) c) (fun _ => rfl)
    have h := hentryG5 (atTc (U13 m)) (a5 m) (gblk5 (atTc (U13 m)) (a5 m)) c (hpf5 m c) hsplit
    rw [Pipeline.unscopedBufs_held] at h
    exact h
  hin c := hinG5 (atTc (U13 m)) (a5 m) (gblk5 (atTc (U13 m)) (a5 m)) c
  hout c := houtG5 (atTc (U13 m)) (a5 m) (gblk5 (atTc (U13 m)) (a5 m)) c
  hexit c := by
    have hjoin := Pipeline.unscopedBufs_of_arrays (p := 5) (pcfgs (F := F)) (adm m) (Ix := Unit) (Name := ℕ) (U := UU) (Lvl := ℕ)
      (launch5 (F := F)).win (launch5 (F := F)).arr_whole c (pdats m) ((pdats m 5 c).share_full fun _ => rfl)
      (atTc (U13 m) c) (atTc (U14 m) c) ((pdats m 5 c).arrAt · (cfg5 (a5 m)).N) (hF5 m c) (hrest5 m c)
    have h := hexitG5 (atTc (U13 m)) (a5 m) (gblk5 (atTc (U13 m)) (a5 m)) (atTc (U14 m)) c (hpf5 m c) hjoin
    rw [Pipeline.unscopedBufs_held] at h
    exact h

set_option maxHeartbeats 1000000 in
/-- Every word of region 6's table is a node's number: the data's table is what the real valuation at the region's entry
    holds in the table's buffer; that valuation is the run's own, whose table is the closed one of the launch memory. -/
theorem hlt6 (m : (ℓ : Loc nD τ sig) → Buf (Elt F) ℓ) (hm : ∀ i : S2x800000.Idx, ((V0 m c₀ main_arg1 : IVec S2x800000 32) i).toNat < 50000) :
    ∀ k : S85000.Idx, (tblw6 (a6 m) k).toNat < 50000 := by
  have h1 : tblw6 (a6 m) = (U15 m c₀ main_v44 : IVec S85000 32) := by
    unfold a6
    rfl
  have h2 : ∀ W : Valuation τ sig (Elt F), V15 m (outsU m) c₀ = W → (W main_v44 : IVec S85000 32) = tbl6 m c₀ :=
    fun W hW => by subst hW; exact tbl6_eq m (outsU m) c₀
  have e : tblw6 (a6 m) = tbl6 m c₀ := h1.trans (h2 (U15 m c₀) (V15_eq m c₀))
  intro k
  rw [e]; exact tbl6_lt m c₀ hm k
set_option maxHeartbeats 1000000 in
set_option backward.isDefEq.respectTransparency.types false in
/-- REGION 6 over the thread state: entered from every unscoped buffer at `U15`, left at `U16`. -/
def reg6 (m : (ℓ : Loc nD τ sig) → Buf (Elt F) ℓ) (hm : ∀ i : S2x800000.Idx, ((V0 m c₀ main_arg1 : IVec S2x800000 32) i).toNat < 50000) :
    RegionSeg (pcfgs (F := F)) (adm m) (pdats m) () defs₀ 𝒱₀ L lv 6 where
  win := (launch6 (F := F)).win.to₀
  block_pos := (launch6 (F := F)).block_pos
  stage_whole := (launch6 (F := F)).stage_whole
  K := Fin 8
  osem := osem6
  ho := ownSemFacts6
  hbody c := hbodyG6 (atTc (U15 m)) (a6 m) (hlt6 m hm) c
  hwaits := Pipeline.hwaits_of_owed_zero _ _ _ _ L lv 6 fun _ _ => rfl
  pre c := iprop(StableHlo.held (c : Thread nD τ) (Pipeline.ucRefs τ sig) (U15 m c) ∗ R (F := F) c)
  post c := iprop(StableHlo.held (c : Thread nD τ) (Pipeline.ucRefs τ sig) (U16 m c) ∗ R (F := F) c)
  X c := XG6 (atTc (U15 m)) c
  Y c := YG6 (atTc (U15 m)) (a6 m) c
  Z c := ZG6 (atTc (U15 m)) c
  hentry c := by
    have hsplit := Pipeline.arrays_of_unscopedBufs (p := 6) (pcfgs (F := F)) (adm m) (pdats m) (launch6 (F := F)).win (launch6 (F := F)).arr_whole c
      ((pdats m 6 c).share_full fun _ => rfl) (atTc (U15 m) c) (fun _ => rfl)
    have h := hentryG6 (atTc (U15 m)) (a6 m) (gblk6 (atTc (U15 m)) (a6 m)) c (hpf6 m c) hsplit
    rw [Pipeline.unscopedBufs_held] at h
    exact h
  hin c := hinG6 (atTc (U15 m)) (a6 m) (gblk6 (atTc (U15 m)) (a6 m)) c
  hout c := houtG6 (atTc (U15 m)) (a6 m) (gblk6 (atTc (U15 m)) (a6 m)) c
  hexit c := by
    have hjoin := Pipeline.unscopedBufs_of_arrays (p := 6) (pcfgs (F := F)) (adm m) (Ix := Unit) (Name := ℕ) (U := UU) (Lvl := ℕ)
      (launch6 (F := F)).win (launch6 (F := F)).arr_whole c (pdats m) ((pdats m 6 c).share_full fun _ => rfl)
      (atTc (U15 m) c) (atTc (U16 m) c) ((pdats m 6 c).arrAt · (cfg6 (a6 m)).N) (hF6 m c) (hrest6 m c)
    have h := hexitG6 (atTc (U15 m)) (a6 m) (gblk6 (atTc (U15 m)) (a6 m)) (atTc (U16 m)) c (hpf6 m c) hjoin
    rw [Pipeline.unscopedBufs_held] at h
    exact h

set_option maxHeartbeats 1000000 in
/-- Every word of region 7's table is a node's number: the data's table is what the real valuation at the region's entry
    holds in the table's buffer; that valuation is the run's own, whose table is the closed one of the launch memory. -/
theorem hlt7 (m : (ℓ : Loc nD τ sig) → Buf (Elt F) ℓ) (hm : ∀ i : S2x800000.Idx, ((V0 m c₀ main_arg1 : IVec S2x800000 32) i).toNat < 50000) :
    ∀ k : S85000.Idx, (tblw7 (a7 m) k).toNat < 50000 := by
  have h1 : tblw7 (a7 m) = (U17 m c₀ main_v46 : IVec S85000 32) := by
    unfold a7
    rfl
  have h2 : ∀ W : Valuation τ sig (Elt F), V17 m (outsU m) c₀ = W → (W main_v46 : IVec S85000 32) = tbl7 m c₀ :=
    fun W hW => by subst hW; exact tbl7_eq m (outsU m) c₀
  have e : tblw7 (a7 m) = tbl7 m c₀ := h1.trans (h2 (U17 m c₀) (V17_eq m c₀))
  intro k
  rw [e]; exact tbl7_lt m c₀ hm k
set_option maxHeartbeats 1000000 in
set_option backward.isDefEq.respectTransparency.types false in
/-- REGION 7 over the thread state: entered from every unscoped buffer at `U17`, left at `U18`. -/
def reg7 (m : (ℓ : Loc nD τ sig) → Buf (Elt F) ℓ) (hm : ∀ i : S2x800000.Idx, ((V0 m c₀ main_arg1 : IVec S2x800000 32) i).toNat < 50000) :
    RegionSeg (pcfgs (F := F)) (adm m) (pdats m) () defs₀ 𝒱₀ L lv 7 where
  win := (launch7 (F := F)).win.to₀
  block_pos := (launch7 (F := F)).block_pos
  stage_whole := (launch7 (F := F)).stage_whole
  K := Fin 8
  osem := osem7
  ho := ownSemFacts7
  hbody c := hbodyG7 (atTc (U17 m)) (a7 m) (hlt7 m hm) c
  hwaits := Pipeline.hwaits_of_owed_zero _ _ _ _ L lv 7 fun _ _ => rfl
  pre c := iprop(StableHlo.held (c : Thread nD τ) (Pipeline.ucRefs τ sig) (U17 m c) ∗ R (F := F) c)
  post c := iprop(StableHlo.held (c : Thread nD τ) (Pipeline.ucRefs τ sig) (U18 m c) ∗ R (F := F) c)
  X c := XG7 (atTc (U17 m)) c
  Y c := YG7 (atTc (U17 m)) (a7 m) c
  Z c := ZG7 (atTc (U17 m)) c
  hentry c := by
    have hsplit := Pipeline.arrays_of_unscopedBufs (p := 7) (pcfgs (F := F)) (adm m) (pdats m) (launch7 (F := F)).win (launch7 (F := F)).arr_whole c
      ((pdats m 7 c).share_full fun _ => rfl) (atTc (U17 m) c) (fun _ => rfl)
    have h := hentryG7 (atTc (U17 m)) (a7 m) (gblk7 (atTc (U17 m)) (a7 m)) c (hpf7 m c) hsplit
    rw [Pipeline.unscopedBufs_held] at h
    exact h
  hin c := hinG7 (atTc (U17 m)) (a7 m) (gblk7 (atTc (U17 m)) (a7 m)) c
  hout c := houtG7 (atTc (U17 m)) (a7 m) (gblk7 (atTc (U17 m)) (a7 m)) c
  hexit c := by
    have hjoin := Pipeline.unscopedBufs_of_arrays (p := 7) (pcfgs (F := F)) (adm m) (Ix := Unit) (Name := ℕ) (U := UU) (Lvl := ℕ)
      (launch7 (F := F)).win (launch7 (F := F)).arr_whole c (pdats m) ((pdats m 7 c).share_full fun _ => rfl)
      (atTc (U17 m) c) (atTc (U18 m) c) ((pdats m 7 c).arrAt · (cfg7 (a7 m)).N) (hF7 m c) (hrest7 m c)
    have h := hexitG7 (atTc (U17 m)) (a7 m) (gblk7 (atTc (U17 m)) (a7 m)) (atTc (U18 m)) c (hpf7 m c) hjoin
    rw [Pipeline.unscopedBufs_held] at h
    exact h

set_option maxHeartbeats 1000000 in
/-- Every word of region 8's table is a node's number: the data's table is what the real valuation at the region's entry
    holds in the table's buffer; that valuation is the run's own, whose table is the closed one of the launch memory. -/
theorem hlt8 (m : (ℓ : Loc nD τ sig) → Buf (Elt F) ℓ) (hm : ∀ i : S2x800000.Idx, ((V0 m c₀ main_arg1 : IVec S2x800000 32) i).toNat < 50000) :
    ∀ k : S85000.Idx, (tblw8 (a8 m) k).toNat < 50000 := by
  have h1 : tblw8 (a8 m) = (U19 m c₀ main_v48 : IVec S85000 32) := by
    unfold a8
    rfl
  have h2 : ∀ W : Valuation τ sig (Elt F), V19 m (outsU m) c₀ = W → (W main_v48 : IVec S85000 32) = tbl8 m c₀ :=
    fun W hW => by subst hW; exact tbl8_eq m (outsU m) c₀
  have e : tblw8 (a8 m) = tbl8 m c₀ := h1.trans (h2 (U19 m c₀) (V19_eq m c₀))
  intro k
  rw [e]; exact tbl8_lt m c₀ hm k
set_option maxHeartbeats 1000000 in
set_option backward.isDefEq.respectTransparency.types false in
/-- REGION 8 over the thread state: entered from every unscoped buffer at `U19`, left at `U20`. -/
def reg8 (m : (ℓ : Loc nD τ sig) → Buf (Elt F) ℓ) (hm : ∀ i : S2x800000.Idx, ((V0 m c₀ main_arg1 : IVec S2x800000 32) i).toNat < 50000) :
    RegionSeg (pcfgs (F := F)) (adm m) (pdats m) () defs₀ 𝒱₀ L lv 8 where
  win := (launch8 (F := F)).win.to₀
  block_pos := (launch8 (F := F)).block_pos
  stage_whole := (launch8 (F := F)).stage_whole
  K := Fin 8
  osem := osem8
  ho := ownSemFacts8
  hbody c := hbodyG8 (atTc (U19 m)) (a8 m) (hlt8 m hm) c
  hwaits := Pipeline.hwaits_of_owed_zero _ _ _ _ L lv 8 fun _ _ => rfl
  pre c := iprop(StableHlo.held (c : Thread nD τ) (Pipeline.ucRefs τ sig) (U19 m c) ∗ R (F := F) c)
  post c := iprop(StableHlo.held (c : Thread nD τ) (Pipeline.ucRefs τ sig) (U20 m c) ∗ R (F := F) c)
  X c := XG8 (atTc (U19 m)) c
  Y c := YG8 (atTc (U19 m)) (a8 m) c
  Z c := ZG8 (atTc (U19 m)) c
  hentry c := by
    have hsplit := Pipeline.arrays_of_unscopedBufs (p := 8) (pcfgs (F := F)) (adm m) (pdats m) (launch8 (F := F)).win (launch8 (F := F)).arr_whole c
      ((pdats m 8 c).share_full fun _ => rfl) (atTc (U19 m) c) (fun _ => rfl)
    have h := hentryG8 (atTc (U19 m)) (a8 m) (gblk8 (atTc (U19 m)) (a8 m)) c (hpf8 m c) hsplit
    rw [Pipeline.unscopedBufs_held] at h
    exact h
  hin c := hinG8 (atTc (U19 m)) (a8 m) (gblk8 (atTc (U19 m)) (a8 m)) c
  hout c := houtG8 (atTc (U19 m)) (a8 m) (gblk8 (atTc (U19 m)) (a8 m)) c
  hexit c := by
    have hjoin := Pipeline.unscopedBufs_of_arrays (p := 8) (pcfgs (F := F)) (adm m) (Ix := Unit) (Name := ℕ) (U := UU) (Lvl := ℕ)
      (launch8 (F := F)).win (launch8 (F := F)).arr_whole c (pdats m) ((pdats m 8 c).share_full fun _ => rfl)
      (atTc (U19 m) c) (atTc (U20 m) c) ((pdats m 8 c).arrAt · (cfg8 (a8 m)).N) (hF8 m c) (hrest8 m c)
    have h := hexitG8 (atTc (U19 m)) (a8 m) (gblk8 (atTc (U19 m)) (a8 m)) (atTc (U20 m)) c (hpf8 m c) hjoin
    rw [Pipeline.unscopedBufs_held] at h
    exact h

set_option maxHeartbeats 1000000 in
/-- Every word of region 9's table is a node's number: the data's table is what the real valuation at the region's entry
    holds in the table's buffer; that valuation is the run's own, whose table is the closed one of the launch memory. -/
theorem hlt9 (m : (ℓ : Loc nD τ sig) → Buf (Elt F) ℓ) (hm : ∀ i : S2x800000.Idx, ((V0 m c₀ main_arg1 : IVec S2x800000 32) i).toNat < 50000) :
    ∀ k : S85000.Idx, (tblw9 (a9 m) k).toNat < 50000 := by
  have h1 : tblw9 (a9 m) = (U21 m c₀ main_v50 : IVec S85000 32) := by
    unfold a9
    rfl
  have h2 : ∀ W : Valuation τ sig (Elt F), V21 m (outsU m) c₀ = W → (W main_v50 : IVec S85000 32) = tbl9 m c₀ :=
    fun W hW => by subst hW; exact tbl9_eq m (outsU m) c₀
  have e : tblw9 (a9 m) = tbl9 m c₀ := h1.trans (h2 (U21 m c₀) (V21_eq m c₀))
  intro k
  rw [e]; exact tbl9_lt m c₀ hm k
set_option maxHeartbeats 1000000 in
set_option backward.isDefEq.respectTransparency.types false in
/-- REGION 9 over the thread state: entered from every unscoped buffer at `U21`, left at `U22`. -/
def reg9 (m : (ℓ : Loc nD τ sig) → Buf (Elt F) ℓ) (hm : ∀ i : S2x800000.Idx, ((V0 m c₀ main_arg1 : IVec S2x800000 32) i).toNat < 50000) :
    RegionSeg (pcfgs (F := F)) (adm m) (pdats m) () defs₀ 𝒱₀ L lv 9 where
  win := (launch9 (F := F)).win.to₀
  block_pos := (launch9 (F := F)).block_pos
  stage_whole := (launch9 (F := F)).stage_whole
  K := Fin 8
  osem := osem9
  ho := ownSemFacts9
  hbody c := hbodyG9 (atTc (U21 m)) (a9 m) (hlt9 m hm) c
  hwaits := Pipeline.hwaits_of_owed_zero _ _ _ _ L lv 9 fun _ _ => rfl
  pre c := iprop(StableHlo.held (c : Thread nD τ) (Pipeline.ucRefs τ sig) (U21 m c) ∗ R (F := F) c)
  post c := iprop(StableHlo.held (c : Thread nD τ) (Pipeline.ucRefs τ sig) (U22 m c) ∗ R (F := F) c)
  X c := XG9 (atTc (U21 m)) c
  Y c := YG9 (atTc (U21 m)) (a9 m) c
  Z c := ZG9 (atTc (U21 m)) c
  hentry c := by
    have hsplit := Pipeline.arrays_of_unscopedBufs (p := 9) (pcfgs (F := F)) (adm m) (pdats m) (launch9 (F := F)).win (launch9 (F := F)).arr_whole c
      ((pdats m 9 c).share_full fun _ => rfl) (atTc (U21 m) c) (fun _ => rfl)
    have h := hentryG9 (atTc (U21 m)) (a9 m) (gblk9 (atTc (U21 m)) (a9 m)) c (hpf9 m c) hsplit
    rw [Pipeline.unscopedBufs_held] at h
    exact h
  hin c := hinG9 (atTc (U21 m)) (a9 m) (gblk9 (atTc (U21 m)) (a9 m)) c
  hout c := houtG9 (atTc (U21 m)) (a9 m) (gblk9 (atTc (U21 m)) (a9 m)) c
  hexit c := by
    have hjoin := Pipeline.unscopedBufs_of_arrays (p := 9) (pcfgs (F := F)) (adm m) (Ix := Unit) (Name := ℕ) (U := UU) (Lvl := ℕ)
      (launch9 (F := F)).win (launch9 (F := F)).arr_whole c (pdats m) ((pdats m 9 c).share_full fun _ => rfl)
      (atTc (U21 m) c) (atTc (U22 m) c) ((pdats m 9 c).arrAt · (cfg9 (a9 m)).N) (hF9 m c) (hrest9 m c)
    have h := hexitG9 (atTc (U21 m)) (a9 m) (gblk9 (atTc (U21 m)) (a9 m)) (atTc (U22 m)) c (hpf9 m c) hjoin
    rw [Pipeline.unscopedBufs_held] at h
    exact h

end Cert.KernelIdeal.Hand

end
-- ==== Proof.KI.GatherBody10.lean ====
/-
  Region 10's body obligation. The region runs the body of region 1 on its own table, array, output block and
  semaphores (the two kernel functions are one function), so the body's run is region 1's, cited at this region's eight
  semaphores; read with this region's invariant it is the pipeline's body obligation for the region's proof data.
-/
import proofs.«402049_j87351044866139_2_alg».proof.Proof.KI.GatherDef10
import proofs.«402049_j87351044866139_2_alg».proof.Proof.KI.GatherBody1

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Idealize.ShloMosaic.Transfers (shareDrop shareTokN)
open Cert.KernelIdeal Cert.KernelIdeal.Gen

variable {F : FTy → Type} [FloatOps F]

local notation "𝕄" => MT nD τ sig Unit (Elt F) ℕ (Pipeline.UD sig nD τ) ℕ

/-! ## The body obligation -/

variable (V : (c : Dev nD) → (b : Ref sig .tc) → Buf (Elt F) ((c : Thread nD τ).loc b))
variable (a1 : (pcfg10 (F := F)).Adm)

/-- The eight cells at zero, listed, each as the body names it. -/
theorem ownSems10_eq (c : Dev nD) :
    (Pipeline.ownSems0 (Ix := Unit) (Name := ℕ) (U := Pipeline.UD sig nD τ) (Lvl := ℕ) (Val := Elt F) (τ := τ) osem10 c : sProp 𝕄)
      = iprop(semVal ((c : Thread nD τ), cell1_0 cc10_scratch0) 0 ∗ semVal ((c : Thread nD τ), cell1_1 cc10_scratch0) 0 ∗ semVal ((c : Thread nD τ), cell1_2 cc10_scratch0) 0 ∗ semVal ((c : Thread nD τ), cell1_3 cc10_scratch0) 0 ∗ semVal ((c : Thread nD τ), cell1_4 cc10_scratch0) 0 ∗ semVal ((c : Thread nD τ), cell1_5 cc10_scratch0) 0 ∗ semVal ((c : Thread nD τ), cell1_6 cc10_scratch0) 0 ∗ semVal ((c : Thread nD τ), cell1_7 cc10_scratch0) 0) := by
  rw [Pipeline.ownSems0_eq_of_list c osem10 [0, 1, 2, 3, 4, 5, 6, 7] (by decide) (by decide)]; rfl

/-- The array the rows are read from, at the contents the region found it with. -/
theorem hbm10_eq (c : Dev nD) :
    (bigSep H10 (fun b => ((c : Thread nD τ).loc b) ↦{fullShare} V c b) : sProp 𝕄)
      = ((Memref.whole main_v33 : Memref sig .tc .hbm S50000x128 .f32).view.loc (c : Thread nD τ) ↦{fullShare} V c main_v33) := by
  unfold H10
  rw [BI.bigSep_eq_bigSepL_of_eq [main_v33] (by decide) (by decide)]; rfl

/-- The table, held whole at the full share, is owned at its contents. -/
theorem tblw10_eq (c : Dev nD) :
    (Pipeline.prefHeld pre10 c (fun _ => fullShare) a1.1 : sProp 𝕄)
      = owns (c : Thread nD τ) (Memref.whole main_v52 : Memref sig .tc .smem S85000 .i32) fullShare (tblw10 a1) := by
  unfold Pipeline.prefHeld
  rw [bigSep_W10, owns_whole]; rfl

set_option maxHeartbeats 4000000 in
/-- The body at every point: the invariant hands the run its table, the array, the eight cells at zero (the scoped rest and
    the generator register ride along), the core's record of waits goes in at whatever the points before left and comes
    back with this point's eight, and the output block, at anything, comes back reading the gathered rows. -/
theorem hbodyG10 [∀ e, Nonempty (Elt F e)] (hlt : ∀ k : S85000.Idx, (tblw10 a1 k).toNat < 50000) (c : Dev nD) :
    BodyObligationLoose (datG10 V a1 (gblk10 V a1) c) (defs₀ (F := F)) Variants.none () Set.univ := by
  refine BodyObligation.loose _ fun t => ?_
  rw [bigSep_W10, bigSep_W10]
  show iprop(iprop(Pipeline.ΦD osem10 spec10 H10 V c ∗ Pipeline.prefHeld pre10 c (fun _ => fullShare) a1.1)
        ∗ (datG10 V a1 (gblk10 V a1) c).owesAt () t.castSucc
        ∗ (∃ d, owns (c : Thread nD τ) (spec10_0.stage ((cfg10 a1).slots t 0)) fullShare ((datG10 V a1 (gblk10 V a1) c).before 0 t d)))
      ⊢ wp frame (wpE (defs₀ (F := F)) Variants.none c none) Set.univ
          (cc10__gather_kernel ((cfg10 a1).grid.coords t) (Memref.whole main_v52) (Memref.isWhole_whole _) (Memref.whole main_v33) (Memref.isWhole_whole _)
            (spec10_0.stage ((cfg10 a1).slots t 0)) (hstage10_0 (((cfg10 a1).slots t 0).cast nbuf10_0)) cc10_scratch0)
          (fun _ => iprop(iprop(Pipeline.ΦD osem10 spec10 H10 V c ∗ Pipeline.prefHeld pre10 c (fun _ => fullShare) a1.1)
            ∗ (datG10 V a1 (gblk10 V a1) c).owesAt () t.succ
            ∗ owns (c : Thread nD τ) (spec10_0.stage ((cfg10 a1).slots t 0)) fullShare (gblk10 V a1 c t)))
  rw [Pipeline.ΦD_eq, ownSems10_eq, hbm10_eq, tblw10_eq]
  unfold Dat.owesAt Pipeline.owesWithin
  rw [show (datG10 V a1 (gblk10 V a1) c).owed t.castSucc = 0 from rfl, show (datG10 V a1 (gblk10 V a1) c).owed t.succ = 0 from rfl]
  have hr : (Memref.whole main_v33 : Memref sig .tc .hbm S50000x128 .f32).view.read (Elt F) (V c main_v33) = V c main_v33 := by
    simp only [Memref.view_whole, View.read_whole]
  iintro ⟨⟨⟨Hsc, Hg, ⟨Hq0, Hq1, Hq2, Hq3, Hq4, Hq5, Hq6, Hq7⟩, Hh⟩, Ht⟩, ⟨%W, -, HW⟩, ⟨%d, Hob⟩⟩
  iapply (kernelRun1 c ((cfg10 a1).grid.coords t) (Memref.whole main_v52) (Memref.isWhole_whole _) (Memref.whole main_v33) (Memref.isWhole_whole _)
    (spec10_0.stage ((cfg10 a1).slots t 0)) (hstage10_0 (((cfg10 a1).slots t 0).cast nbuf10_0)) (tblw10 a1) hlt fullShare fullShare (V c main_v33) cc10_scratch0 W _)
  isplitl [Ht]; · iexact Ht
  isplitl [Hh]; · iexact Hh
  isplitl [Hob]; · iexists _; iexact Hob
  isplitl [Hq0]; · iexact Hq0
  isplitl [Hq1]; · iexact Hq1
  isplitl [Hq2]; · iexact Hq2
  isplitl [Hq3]; · iexact Hq3
  isplitl [Hq4]; · iexact Hq4
  isplitl [Hq5]; · iexact Hq5
  isplitl [Hq6]; · iexact Hq6
  isplitl [Hq7]; · iexact Hq7
  isplitl [HW]; · iexact HW
  iintro ⟨Ht, Hh, Hob, Hq0, Hq1, Hq2, Hq3, Hq4, Hq5, Hq6, Hq7, ⟨%W', HW'⟩⟩
  isplitl [Hsc Hg Hq0 Hq1 Hq2 Hq3 Hq4 Hq5 Hq6 Hq7 Hh Ht]
  · isplitl [Hsc Hg Hq0 Hq1 Hq2 Hq3 Hq4 Hq5 Hq6 Hq7 Hh]
    · isplitl [Hsc]; · iexact Hsc
      isplitl [Hg]; · iexact Hg
      isplitl [Hq0 Hq1 Hq2 Hq3 Hq4 Hq5 Hq6 Hq7]
      · isplitl [Hq0]; · iexact Hq0
        isplitl [Hq1]; · iexact Hq1
        isplitl [Hq2]; · iexact Hq2
        isplitl [Hq3]; · iexact Hq3
        isplitl [Hq4]; · iexact Hq4
        isplitl [Hq5]; · iexact Hq5
        isplitl [Hq6]; · iexact Hq6
        iexact Hq7
      iexact Hh
    iexact Ht
  isplitl [HW']
  · iexists W'; isplitr; · ipureintro; exact fun _ _ => Or.inl trivial
    iexact HW'
  rw [hr]
  iexact Hob

end Cert.KernelIdeal.Hand

end
-- ==== Proof.KI.GatherBody12.lean ====
/-
  Region 12's body obligation. The region runs the body of region 1 on its own table, array, output block and
  semaphores (the two kernel functions are one function), so the body's run is region 1's, cited at this region's eight
  semaphores; read with this region's invariant it is the pipeline's body obligation for the region's proof data.
-/
import proofs.«402049_j87351044866139_2_alg».proof.Proof.KI.GatherDef12
import proofs.«402049_j87351044866139_2_alg».proof.Proof.KI.GatherBody1

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Idealize.ShloMosaic.Transfers (shareDrop shareTokN)
open Cert.KernelIdeal Cert.KernelIdeal.Gen

variable {F : FTy → Type} [FloatOps F]

local notation "𝕄" => MT nD τ sig Unit (Elt F) ℕ (Pipeline.UD sig nD τ) ℕ

/-! ## The body obligation -/

variable (V : (c : Dev nD) → (b : Ref sig .tc) → Buf (Elt F) ((c : Thread nD τ).loc b))
variable (a1 : (pcfg12 (F := F)).Adm)

/-- The eight cells at zero, listed, each as the body names it. -/
theorem ownSems12_eq (c : Dev nD) :
    (Pipeline.ownSems0 (Ix := Unit) (Name := ℕ) (U := Pipeline.UD sig nD τ) (Lvl := ℕ) (Val := Elt F) (τ := τ) osem12 c : sProp 𝕄)
      = iprop(semVal ((c : Thread nD τ), cell1_0 cc12_scratch0) 0 ∗ semVal ((c : Thread nD τ), cell1_1 cc12_scratch0) 0 ∗ semVal ((c : Thread nD τ), cell1_2 cc12_scratch0) 0 ∗ semVal ((c : Thread nD τ), cell1_3 cc12_scratch0) 0 ∗ semVal ((c : Thread nD τ), cell1_4 cc12_scratch0) 0 ∗ semVal ((c : Thread nD τ), cell1_5 cc12_scratch0) 0 ∗ semVal ((c : Thread nD τ), cell1_6 cc12_scratch0) 0 ∗ semVal ((c : Thread nD τ), cell1_7 cc12_scratch0) 0) := by
  rw [Pipeline.ownSems0_eq_of_list c osem12 [0, 1, 2, 3, 4, 5, 6, 7] (by decide) (by decide)]; rfl

/-- The array the rows are read from, at the contents the region found it with. -/
theorem hbm12_eq (c : Dev nD) :
    (bigSep H12 (fun b => ((c : Thread nD τ).loc b) ↦{fullShare} V c b) : sProp 𝕄)
      = ((Memref.whole main_v61 : Memref sig .tc .hbm S50000x128 .f32).view.loc (c : Thread nD τ) ↦{fullShare} V c main_v61) := by
  unfold H12
  rw [BI.bigSep_eq_bigSepL_of_eq [main_v61] (by decide) (by decide)]; rfl

/-- The table, held whole at the full share, is owned at its contents. -/
theorem tblw12_eq (c : Dev nD) :
    (Pipeline.prefHeld pre12 c (fun _ => fullShare) a1.1 : sProp 𝕄)
      = owns (c : Thread nD τ) (Memref.whole main_v62 : Memref sig .tc .smem S85000 .i32) fullShare (tblw12 a1) := by
  unfold Pipeline.prefHeld
  rw [bigSep_W12, owns_whole]; rfl

set_option maxHeartbeats 4000000 in
/-- The body at every point: the invariant hands the run its table, the array, the eight cells at zero (the scoped rest and
    the generator register ride along), the core's record of waits goes in at whatever the points before left and comes
    back with this point's eight, and the output block, at anything, comes back reading the gathered rows. -/
theorem hbodyG12 [∀ e, Nonempty (Elt F e)] (hlt : ∀ k : S85000.Idx, (tblw12 a1 k).toNat < 50000) (c : Dev nD) :
    BodyObligationLoose (datG12 V a1 (gblk12 V a1) c) (defs₀ (F := F)) Variants.none () Set.univ := by
  refine BodyObligation.loose _ fun t => ?_
  rw [bigSep_W12, bigSep_W12]
  show iprop(iprop(Pipeline.ΦD osem12 spec12 H12 V c ∗ Pipeline.prefHeld pre12 c (fun _ => fullShare) a1.1)
        ∗ (datG12 V a1 (gblk12 V a1) c).owesAt () t.castSucc
        ∗ (∃ d, owns (c : Thread nD τ) (spec12_0.stage ((cfg12 a1).slots t 0)) fullShare ((datG12 V a1 (gblk12 V a1) c).before 0 t d)))
      ⊢ wp frame (wpE (defs₀ (F := F)) Variants.none c none) Set.univ
          (cc12__gather_kernel ((cfg12 a1).grid.coords t) (Memref.whole main_v62) (Memref.isWhole_whole _) (Memref.whole main_v61) (Memref.isWhole_whole _)
            (spec12_0.stage ((cfg12 a1).slots t 0)) (hstage12_0 (((cfg12 a1).slots t 0).cast nbuf12_0)) cc12_scratch0)
          (fun _ => iprop(iprop(Pipeline.ΦD osem12 spec12 H12 V c ∗ Pipeline.prefHeld pre12 c (fun _ => fullShare) a1.1)
            ∗ (datG12 V a1 (gblk12 V a1) c).owesAt () t.succ
            ∗ owns (c : Thread nD τ) (spec12_0.stage ((cfg12 a1).slots t 0)) fullShare (gblk12 V a1 c t)))
  rw [Pipeline.ΦD_eq, ownSems12_eq, hbm12_eq, tblw12_eq]
  unfold Dat.owesAt Pipeline.owesWithin
  rw [show (datG12 V a1 (gblk12 V a1) c).owed t.castSucc = 0 from rfl, show (datG12 V a1 (gblk12 V a1) c).owed t.succ = 0 from rfl]
  have hr : (Memref.whole main_v61 : Memref sig .tc .hbm S50000x128 .f32).view.read (Elt F) (V c main_v61) = V c main_v61 := by
    simp only [Memref.view_whole, View.read_whole]
  iintro ⟨⟨⟨Hsc, Hg, ⟨Hq0, Hq1, Hq2, Hq3, Hq4, Hq5, Hq6, Hq7⟩, Hh⟩, Ht⟩, ⟨%W, -, HW⟩, ⟨%d, Hob⟩⟩
  iapply (kernelRun1 c ((cfg12 a1).grid.coords t) (Memref.whole main_v62) (Memref.isWhole_whole _) (Memref.whole main_v61) (Memref.isWhole_whole _)
    (spec12_0.stage ((cfg12 a1).slots t 0)) (hstage12_0 (((cfg12 a1).slots t 0).cast nbuf12_0)) (tblw12 a1) hlt fullShare fullShare (V c main_v61) cc12_scratch0 W _)
  isplitl [Ht]; · iexact Ht
  isplitl [Hh]; · iexact Hh
  isplitl [Hob]; · iexists _; iexact Hob
  isplitl [Hq0]; · iexact Hq0
  isplitl [Hq1]; · iexact Hq1
  isplitl [Hq2]; · iexact Hq2
  isplitl [Hq3]; · iexact Hq3
  isplitl [Hq4]; · iexact Hq4
  isplitl [Hq5]; · iexact Hq5
  isplitl [Hq6]; · iexact Hq6
  isplitl [Hq7]; · iexact Hq7
  isplitl [HW]; · iexact HW
  iintro ⟨Ht, Hh, Hob, Hq0, Hq1, Hq2, Hq3, Hq4, Hq5, Hq6, Hq7, ⟨%W', HW'⟩⟩
  isplitl [Hsc Hg Hq0 Hq1 Hq2 Hq3 Hq4 Hq5 Hq6 Hq7 Hh Ht]
  · isplitl [Hsc Hg Hq0 Hq1 Hq2 Hq3 Hq4 Hq5 Hq6 Hq7 Hh]
    · isplitl [Hsc]; · iexact Hsc
      isplitl [Hg]; · iexact Hg
      isplitl [Hq0 Hq1 Hq2 Hq3 Hq4 Hq5 Hq6 Hq7]
      · isplitl [Hq0]; · iexact Hq0
        isplitl [Hq1]; · iexact Hq1
        isplitl [Hq2]; · iexact Hq2
        isplitl [Hq3]; · iexact Hq3
        isplitl [Hq4]; · iexact Hq4
        isplitl [Hq5]; · iexact Hq5
        isplitl [Hq6]; · iexact Hq6
        iexact Hq7
      iexact Hh
    iexact Ht
  isplitl [HW']
  · iexists W'; isplitr; · ipureintro; exact fun _ _ => Or.inl trivial
    iexact HW'
  rw [hr]
  iexact Hob

end Cert.KernelIdeal.Hand

end
-- ==== Proof.KI.GatherBody13.lean ====
/-
  Region 13's body obligation. The region runs the body of region 1 on its own table, array, output block and
  semaphores (the two kernel functions are one function), so the body's run is region 1's, cited at this region's eight
  semaphores; read with this region's invariant it is the pipeline's body obligation for the region's proof data.
-/
import proofs.«402049_j87351044866139_2_alg».proof.Proof.KI.GatherDef13
import proofs.«402049_j87351044866139_2_alg».proof.Proof.KI.GatherBody1

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Idealize.ShloMosaic.Transfers (shareDrop shareTokN)
open Cert.KernelIdeal Cert.KernelIdeal.Gen

variable {F : FTy → Type} [FloatOps F]

local notation "𝕄" => MT nD τ sig Unit (Elt F) ℕ (Pipeline.UD sig nD τ) ℕ

/-! ## The body obligation -/

variable (V : (c : Dev nD) → (b : Ref sig .tc) → Buf (Elt F) ((c : Thread nD τ).loc b))
variable (a1 : (pcfg13 (F := F)).Adm)

/-- The eight cells at zero, listed, each as the body names it. -/
theorem ownSems13_eq (c : Dev nD) :
    (Pipeline.ownSems0 (Ix := Unit) (Name := ℕ) (U := Pipeline.UD sig nD τ) (Lvl := ℕ) (Val := Elt F) (τ := τ) osem13 c : sProp 𝕄)
      = iprop(semVal ((c : Thread nD τ), cell1_0 cc13_scratch0) 0 ∗ semVal ((c : Thread nD τ), cell1_1 cc13_scratch0) 0 ∗ semVal ((c : Thread nD τ), cell1_2 cc13_scratch0) 0 ∗ semVal ((c : Thread nD τ), cell1_3 cc13_scratch0) 0 ∗ semVal ((c : Thread nD τ), cell1_4 cc13_scratch0) 0 ∗ semVal ((c : Thread nD τ), cell1_5 cc13_scratch0) 0 ∗ semVal ((c : Thread nD τ), cell1_6 cc13_scratch0) 0 ∗ semVal ((c : Thread nD τ), cell1_7 cc13_scratch0) 0) := by
  rw [Pipeline.ownSems0_eq_of_list c osem13 [0, 1, 2, 3, 4, 5, 6, 7] (by decide) (by decide)]; rfl

/-- The array the rows are read from, at the contents the region found it with. -/
theorem hbm13_eq (c : Dev nD) :
    (bigSep H13 (fun b => ((c : Thread nD τ).loc b) ↦{fullShare} V c b) : sProp 𝕄)
      = ((Memref.whole main_v61 : Memref sig .tc .hbm S50000x128 .f32).view.loc (c : Thread nD τ) ↦{fullShare} V c main_v61) := by
  unfold H13
  rw [BI.bigSep_eq_bigSepL_of_eq [main_v61] (by decide) (by decide)]; rfl

/-- The table, held whole at the full share, is owned at its contents. -/
theorem tblw13_eq (c : Dev nD) :
    (Pipeline.prefHeld pre13 c (fun _ => fullShare) a1.1 : sProp 𝕄)
      = owns (c : Thread nD τ) (Memref.whole main_v64 : Memref sig .tc .smem S85000 .i32) fullShare (tblw13 a1) := by
  unfold Pipeline.prefHeld
  rw [bigSep_W13, owns_whole]; rfl

set_option maxHeartbeats 4000000 in
/-- The body at every point: the invariant hands the run its table, the array, the eight cells at zero (the scoped rest and
    the generator register ride along), the core's record of waits goes in at whatever the points before left and comes
    back with this point's eight, and the output block, at anything, comes back reading the gathered rows. -/
theorem hbodyG13 [∀ e, Nonempty (Elt F e)] (hlt : ∀ k : S85000.Idx, (tblw13 a1 k).toNat < 50000) (c : Dev nD) :
    BodyObligationLoose (datG13 V a1 (gblk13 V a1) c) (defs₀ (F := F)) Variants.none () Set.univ := by
  refine BodyObligation.loose _ fun t => ?_
  rw [bigSep_W13, bigSep_W13]
  show iprop(iprop(Pipeline.ΦD osem13 spec13 H13 V c ∗ Pipeline.prefHeld pre13 c (fun _ => fullShare) a1.1)
        ∗ (datG13 V a1 (gblk13 V a1) c).owesAt () t.castSucc
        ∗ (∃ d, owns (c : Thread nD τ) (spec13_0.stage ((cfg13 a1).slots t 0)) fullShare ((datG13 V a1 (gblk13 V a1) c).before 0 t d)))
      ⊢ wp frame (wpE (defs₀ (F := F)) Variants.none c none) Set.univ
          (cc13__gather_kernel ((cfg13 a1).grid.coords t) (Memref.whole main_v64) (Memref.isWhole_whole _) (Memref.whole main_v61) (Memref.isWhole_whole _)
            (spec13_0.stage ((cfg13 a1).slots t 0)) (hstage13_0 (((cfg13 a1).slots t 0).cast nbuf13_0)) cc13_scratch0)
          (fun _ => iprop(iprop(Pipeline.ΦD osem13 spec13 H13 V c ∗ Pipeline.prefHeld pre13 c (fun _ => fullShare) a1.1)
            ∗ (datG13 V a1 (gblk13 V a1) c).owesAt () t.succ
            ∗ owns (c : Thread nD τ) (spec13_0.stage ((cfg13 a1).slots t 0)) fullShare (gblk13 V a1 c t)))
  rw [Pipeline.ΦD_eq, ownSems13_eq, hbm13_eq, tblw13_eq]
  unfold Dat.owesAt Pipeline.owesWithin
  rw [show (datG13 V a1 (gblk13 V a1) c).owed t.castSucc = 0 from rfl, show (datG13 V a1 (gblk13 V a1) c).owed t.succ = 0 from rfl]
  have hr : (Memref.whole main_v61 : Memref sig .tc .hbm S50000x128 .f32).view.read (Elt F) (V c main_v61) = V c main_v61 := by
    simp only [Memref.view_whole, View.read_whole]
  iintro ⟨⟨⟨Hsc, Hg, ⟨Hq0, Hq1, Hq2, Hq3, Hq4, Hq5, Hq6, Hq7⟩, Hh⟩, Ht⟩, ⟨%W, -, HW⟩, ⟨%d, Hob⟩⟩
  iapply (kernelRun1 c ((cfg13 a1).grid.coords t) (Memref.whole main_v64) (Memref.isWhole_whole _) (Memref.whole main_v61) (Memref.isWhole_whole _)
    (spec13_0.stage ((cfg13 a1).slots t 0)) (hstage13_0 (((cfg13 a1).slots t 0).cast nbuf13_0)) (tblw13 a1) hlt fullShare fullShare (V c main_v61) cc13_scratch0 W _)
  isplitl [Ht]; · iexact Ht
  isplitl [Hh]; · iexact Hh
  isplitl [Hob]; · iexists _; iexact Hob
  isplitl [Hq0]; · iexact Hq0
  isplitl [Hq1]; · iexact Hq1
  isplitl [Hq2]; · iexact Hq2
  isplitl [Hq3]; · iexact Hq3
  isplitl [Hq4]; · iexact Hq4
  isplitl [Hq5]; · iexact Hq5
  isplitl [Hq6]; · iexact Hq6
  isplitl [Hq7]; · iexact Hq7
  isplitl [HW]; · iexact HW
  iintro ⟨Ht, Hh, Hob, Hq0, Hq1, Hq2, Hq3, Hq4, Hq5, Hq6, Hq7, ⟨%W', HW'⟩⟩
  isplitl [Hsc Hg Hq0 Hq1 Hq2 Hq3 Hq4 Hq5 Hq6 Hq7 Hh Ht]
  · isplitl [Hsc Hg Hq0 Hq1 Hq2 Hq3 Hq4 Hq5 Hq6 Hq7 Hh]
    · isplitl [Hsc]; · iexact Hsc
      isplitl [Hg]; · iexact Hg
      isplitl [Hq0 Hq1 Hq2 Hq3 Hq4 Hq5 Hq6 Hq7]
      · isplitl [Hq0]; · iexact Hq0
        isplitl [Hq1]; · iexact Hq1
        isplitl [Hq2]; · iexact Hq2
        isplitl [Hq3]; · iexact Hq3
        isplitl [Hq4]; · iexact Hq4
        isplitl [Hq5]; · iexact Hq5
        isplitl [Hq6]; · iexact Hq6
        iexact Hq7
      iexact Hh
    iexact Ht
  isplitl [HW']
  · iexists W'; isplitr; · ipureintro; exact fun _ _ => Or.inl trivial
    iexact HW'
  rw [hr]
  iexact Hob

end Cert.KernelIdeal.Hand

end
-- ==== Proof.KI.GatherBody14.lean ====
/-
  Region 14's body obligation. The region runs the body of region 1 on its own table, array, output block and
  semaphores (the two kernel functions are one function), so the body's run is region 1's, cited at this region's eight
  semaphores; read with this region's invariant it is the pipeline's body obligation for the region's proof data.
-/
import proofs.«402049_j87351044866139_2_alg».proof.Proof.KI.GatherDef14
import proofs.«402049_j87351044866139_2_alg».proof.Proof.KI.GatherBody1

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Idealize.ShloMosaic.Transfers (shareDrop shareTokN)
open Cert.KernelIdeal Cert.KernelIdeal.Gen

variable {F : FTy → Type} [FloatOps F]

local notation "𝕄" => MT nD τ sig Unit (Elt F) ℕ (Pipeline.UD sig nD τ) ℕ

/-! ## The body obligation -/

variable (V : (c : Dev nD) → (b : Ref sig .tc) → Buf (Elt F) ((c : Thread nD τ).loc b))
variable (a1 : (pcfg14 (F := F)).Adm)

/-- The eight cells at zero, listed, each as the body names it. -/
theorem ownSems14_eq (c : Dev nD) :
    (Pipeline.ownSems0 (Ix := Unit) (Name := ℕ) (U := Pipeline.UD sig nD τ) (Lvl := ℕ) (Val := Elt F) (τ := τ) osem14 c : sProp 𝕄)
      = iprop(semVal ((c : Thread nD τ), cell1_0 cc14_scratch0) 0 ∗ semVal ((c : Thread nD τ), cell1_1 cc14_scratch0) 0 ∗ semVal ((c : Thread nD τ), cell1_2 cc14_scratch0) 0 ∗ semVal ((c : Thread nD τ), cell1_3 cc14_scratch0) 0 ∗ semVal ((c : Thread nD τ), cell1_4 cc14_scratch0) 0 ∗ semVal ((c : Thread nD τ), cell1_5 cc14_scratch0) 0 ∗ semVal ((c : Thread nD τ), cell1_6 cc14_scratch0) 0 ∗ semVal ((c : Thread nD τ), cell1_7 cc14_scratch0) 0) := by
  rw [Pipeline.ownSems0_eq_of_list c osem14 [0, 1, 2, 3, 4, 5, 6, 7] (by decide) (by decide)]; rfl

/-- The array the rows are read from, at the contents the region found it with. -/
theorem hbm14_eq (c : Dev nD) :
    (bigSep H14 (fun b => ((c : Thread nD τ).loc b) ↦{fullShare} V c b) : sProp 𝕄)
      = ((Memref.whole main_v61 : Memref sig .tc .hbm S50000x128 .f32).view.loc (c : Thread nD τ) ↦{fullShare} V c main_v61) := by
  unfold H14
  rw [BI.bigSep_eq_bigSepL_of_eq [main_v61] (by decide) (by decide)]; rfl

/-- The table, held whole at the full share, is owned at its contents. -/
theorem tblw14_eq (c : Dev nD) :
    (Pipeline.prefHeld pre14 c (fun _ => fullShare) a1.1 : sProp 𝕄)
      = owns (c : Thread nD τ) (Memref.whole main_v66 : Memref sig .tc .smem S85000 .i32) fullShare (tblw14 a1) := by
  unfold Pipeline.prefHeld
  rw [bigSep_W14, owns_whole]; rfl

set_option maxHeartbeats 4000000 in
/-- The body at every point: the invariant hands the run its table, the array, the eight cells at zero (the scoped rest and
    the generator register ride along), the core's record of waits goes in at whatever the points before left and comes
    back with this point's eight, and the output block, at anything, comes back reading the gathered rows. -/
theorem hbodyG14 [∀ e, Nonempty (Elt F e)] (hlt : ∀ k : S85000.Idx, (tblw14 a1 k).toNat < 50000) (c : Dev nD) :
    BodyObligationLoose (datG14 V a1 (gblk14 V a1) c) (defs₀ (F := F)) Variants.none () Set.univ := by
  refine BodyObligation.loose _ fun t => ?_
  rw [bigSep_W14, bigSep_W14]
  show iprop(iprop(Pipeline.ΦD osem14 spec14 H14 V c ∗ Pipeline.prefHeld pre14 c (fun _ => fullShare) a1.1)
        ∗ (datG14 V a1 (gblk14 V a1) c).owesAt () t.castSucc
        ∗ (∃ d, owns (c : Thread nD τ) (spec14_0.stage ((cfg14 a1).slots t 0)) fullShare ((datG14 V a1 (gblk14 V a1) c).before 0 t d)))
      ⊢ wp frame (wpE (defs₀ (F := F)) Variants.none c none) Set.univ
          (cc14__gather_kernel ((cfg14 a1).grid.coords t) (Memref.whole main_v66) (Memref.isWhole_whole _) (Memref.whole main_v61) (Memref.isWhole_whole _)
            (spec14_0.stage ((cfg14 a1).slots t 0)) (hstage14_0 (((cfg14 a1).slots t 0).cast nbuf14_0)) cc14_scratch0)
          (fun _ => iprop(iprop(Pipeline.ΦD osem14 spec14 H14 V c ∗ Pipeline.prefHeld pre14 c (fun _ => fullShare) a1.1)
            ∗ (datG14 V a1 (gblk14 V a1) c).owesAt () t.succ
            ∗ owns (c : Thread nD τ) (spec14_0.stage ((cfg14 a1).slots t 0)) fullShare (gblk14 V a1 c t)))
  rw [Pipeline.ΦD_eq, ownSems14_eq, hbm14_eq, tblw14_eq]
  unfold Dat.owesAt Pipeline.owesWithin
  rw [show (datG14 V a1 (gblk14 V a1) c).owed t.castSucc = 0 from rfl, show (datG14 V a1 (gblk14 V a1) c).owed t.succ = 0 from rfl]
  have hr : (Memref.whole main_v61 : Memref sig .tc .hbm S50000x128 .f32).view.read (Elt F) (V c main_v61) = V c main_v61 := by
    simp only [Memref.view_whole, View.read_whole]
  iintro ⟨⟨⟨Hsc, Hg, ⟨Hq0, Hq1, Hq2, Hq3, Hq4, Hq5, Hq6, Hq7⟩, Hh⟩, Ht⟩, ⟨%W, -, HW⟩, ⟨%d, Hob⟩⟩
  iapply (kernelRun1 c ((cfg14 a1).grid.coords t) (Memref.whole main_v66) (Memref.isWhole_whole _) (Memref.whole main_v61) (Memref.isWhole_whole _)
    (spec14_0.stage ((cfg14 a1).slots t 0)) (hstage14_0 (((cfg14 a1).slots t 0).cast nbuf14_0)) (tblw14 a1) hlt fullShare fullShare (V c main_v61) cc14_scratch0 W _)
  isplitl [Ht]; · iexact Ht
  isplitl [Hh]; · iexact Hh
  isplitl [Hob]; · iexists _; iexact Hob
  isplitl [Hq0]; · iexact Hq0
  isplitl [Hq1]; · iexact Hq1
  isplitl [Hq2]; · iexact Hq2
  isplitl [Hq3]; · iexact Hq3
  isplitl [Hq4]; · iexact Hq4
  isplitl [Hq5]; · iexact Hq5
  isplitl [Hq6]; · iexact Hq6
  isplitl [Hq7]; · iexact Hq7
  isplitl [HW]; · iexact HW
  iintro ⟨Ht, Hh, Hob, Hq0, Hq1, Hq2, Hq3, Hq4, Hq5, Hq6, Hq7, ⟨%W', HW'⟩⟩
  isplitl [Hsc Hg Hq0 Hq1 Hq2 Hq3 Hq4 Hq5 Hq6 Hq7 Hh Ht]
  · isplitl [Hsc Hg Hq0 Hq1 Hq2 Hq3 Hq4 Hq5 Hq6 Hq7 Hh]
    · isplitl [Hsc]; · iexact Hsc
      isplitl [Hg]; · iexact Hg
      isplitl [Hq0 Hq1 Hq2 Hq3 Hq4 Hq5 Hq6 Hq7]
      · isplitl [Hq0]; · iexact Hq0
        isplitl [Hq1]; · iexact Hq1
        isplitl [Hq2]; · iexact Hq2
        isplitl [Hq3]; · iexact Hq3
        isplitl [Hq4]; · iexact Hq4
        isplitl [Hq5]; · iexact Hq5
        isplitl [Hq6]; · iexact Hq6
        iexact Hq7
      iexact Hh
    iexact Ht
  isplitl [HW']
  · iexists W'; isplitr; · ipureintro; exact fun _ _ => Or.inl trivial
    iexact HW'
  rw [hr]
  iexact Hob

end Cert.KernelIdeal.Hand

end
-- ==== Proof.KI.Regs2.lean ====
import proofs.«402049_j87351044866139_2_alg».proof.Proof.KI.Fam
import proofs.«402049_j87351044866139_2_alg».proof.Proof.KI.Tables
import proofs.«402049_j87351044866139_2_alg».proof.Proof.KI.GatherBody10
import proofs.«402049_j87351044866139_2_alg».proof.Proof.KI.GatherBody12
import proofs.«402049_j87351044866139_2_alg».proof.Proof.KI.GatherBody13
import proofs.«402049_j87351044866139_2_alg».proof.Proof.KI.GatherBody14
import Idealize.ShloMosaic.Lib.Pipeline.RegionsLoop

/-! The records of regions 10 to 14 over the thread states: each entered from every unscoped buffer at the real valuation
    before it and left at the one after it; for a gather region, first that every word of its table is a node's number. -/

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg BodyObligation BodyObligationLoose)

variable {F : FTy → Type} [FloatOps F]

local notation "𝕄" => MT nD τ sig Unit (Elt F) ℕ UU ℕ

set_option maxHeartbeats 1000000 in
/-- Every word of region 10's table is a node's number: the data's table is what the real valuation at the region's entry
    holds in the table's buffer; that valuation is the run's own, whose table is the closed one of the launch memory. -/
theorem hlt10 (m : (ℓ : Loc nD τ sig) → Buf (Elt F) ℓ) (hm : ∀ i : S2x800000.Idx, ((V0 m c₀ main_arg1 : IVec S2x800000 32) i).toNat < 50000) :
    ∀ k : S85000.Idx, (tblw10 (a10 m) k).toNat < 50000 := by
  have h1 : tblw10 (a10 m) = (U23 m c₀ main_v52 : IVec S85000 32) := by
    unfold a10
    rfl
  have h2 : ∀ W : Valuation τ sig (Elt F), V23 m (outsU m) c₀ = W → (W main_v52 : IVec S85000 32) = tbl10 m c₀ :=
    fun W hW => by subst hW; exact tbl10_eq m (outsU m) c₀
  have e : tblw10 (a10 m) = tbl10 m c₀ := h1.trans (h2 (U23 m c₀) (V23_eq m c₀))
  intro k
  rw [e]; exact tbl10_lt m c₀ hm k
set_option maxHeartbeats 1000000 in
set_option backward.isDefEq.respectTransparency.types false in
/-- REGION 10 over the thread state: entered from every unscoped buffer at `U23`, left at `U24`. -/
def reg10 (m : (ℓ : Loc nD τ sig) → Buf (Elt F) ℓ) (hm : ∀ i : S2x800000.Idx, ((V0 m c₀ main_arg1 : IVec S2x800000 32) i).toNat < 50000) :
    RegionSeg (pcfgs (F := F)) (adm m) (pdats m) () defs₀ 𝒱₀ L lv 10 where
  win := (launch10 (F := F)).win.to₀
  block_pos := (launch10 (F := F)).block_pos
  stage_whole := (launch10 (F := F)).stage_whole
  K := Fin 8
  osem := osem10
  ho := ownSemFacts10
  hbody c := hbodyG10 (atTc (U23 m)) (a10 m) (hlt10 m hm) c
  hwaits := Pipeline.hwaits_of_owed_zero _ _ _ _ L lv 10 fun _ _ => rfl
  pre c := iprop(StableHlo.held (c : Thread nD τ) (Pipeline.ucRefs τ sig) (U23 m c) ∗ R (F := F) c)
  post c := iprop(StableHlo.held (c : Thread nD τ) (Pipeline.ucRefs τ sig) (U24 m c) ∗ R (F := F) c)
  X c := XG10 (atTc (U23 m)) c
  Y c := YG10 (atTc (U23 m)) (a10 m) c
  Z c := ZG10 (atTc (U23 m)) c
  hentry c := by
    have hsplit := Pipeline.arrays_of_unscopedBufs (p := 10) (pcfgs (F := F)) (adm m) (pdats m) (launch10 (F := F)).win (launch10 (F := F)).arr_whole c
      ((pdats m 10 c).share_full fun _ => rfl) (atTc (U23 m) c) (fun _ => rfl)
    have h := hentryG10 (atTc (U23 m)) (a10 m) (gblk10 (atTc (U23 m)) (a10 m)) c (hpf10 m c) hsplit
    rw [Pipeline.unscopedBufs_held] at h
    exact h
  hin c := hinG10 (atTc (U23 m)) (a10 m) (gblk10 (atTc (U23 m)) (a10 m)) c
  hout c := houtG10 (atTc (U23 m)) (a10 m) (gblk10 (atTc (U23 m)) (a10 m)) c
  hexit c := by
    have hjoin := Pipeline.unscopedBufs_of_arrays (p := 10) (pcfgs (F := F)) (adm m) (Ix := Unit) (Name := ℕ) (U := UU) (Lvl := ℕ)
      (launch10 (F := F)).win (launch10 (F := F)).arr_whole c (pdats m) ((pdats m 10 c).share_full fun _ => rfl)
      (atTc (U23 m) c) (atTc (U24 m) c) ((pdats m 10 c).arrAt · (cfg10 (a10 m)).N) (hF10 m c) (hrest10 m c)
    have h := hexitG10 (atTc (U23 m)) (a10 m) (gblk10 (atTc (U23 m)) (a10 m)) (atTc (U24 m)) c (hpf10 m c) hjoin
    rw [Pipeline.unscopedBufs_held] at h
    exact h

set_option maxHeartbeats 1000000 in
set_option backward.isDefEq.respectTransparency.types false in
/-- REGION 11 over the thread state: entered from every unscoped buffer at `U25`, left at `U26`. -/
def reg11 (m : (ℓ : Loc nD τ sig) → Buf (Elt F) ℓ) : RegionSeg (pcfgs (F := F)) (adm m) (pdats m) () defs₀ 𝒱₀ L lv 11 where
  win := (launch11 (F := F)).win.to₀
  block_pos := (launch11 (F := F)).block_pos
  stage_whole := (launch11 (F := F)).stage_whole
  K := PEmpty
  osem k := k.elim
  ho := Pipeline.OwnSemFacts.none _
  hbody c := (body_obligation11 (atTc (U25 m)) c).loose
  hwaits := Pipeline.hwaits_of_owed_zero _ _ _ _ L lv 11 fun _ _ => rfl
  pre c := iprop(StableHlo.held (c : Thread nD τ) (Pipeline.ucRefs τ sig) (U25 m c) ∗ R (F := F) c)
  post c := iprop(StableHlo.held (c : Thread nD τ) (Pipeline.ucRefs τ sig) (U26 m c) ∗ R (F := F) c)
  X c := iprop(∃ r, prngReg c r)
  Y c := iprop(∃ r, prngReg c r)
  Z c := Pipeline.unscopedRest (Ix := Unit) (Name := ℕ) (U := UU) (Lvl := ℕ) spec11 c (atTc (U25 m) c)
  hentry c := by
    have hsplit := Pipeline.arrays_of_unscopedBufs (p := 11) (pcfgs (F := F)) (adm m) (pdats m) (launch11 (F := F)).win (launch11 (F := F)).arr_whole c
      ((pdats m 11 c).share_full fun _ => rfl) (atTc (U25 m) c) (fun _ => rfl)
    rw [Pipeline.unscopedBufs_held] at hsplit
    exact enterA c (U25 m c) hsplit (prefHeld_none_intro c _ _) (owesAt_first c _ rfl rfl)
  hin c := by
    rw [show (pdats m 11 c).Φ 0 = Pipeline.ΦA spec11 c from rfl]; unfold Pipeline.ΦA
    iintro ⟨Hp, -, Hr⟩
    isplitl [Hr]; · iexact Hr
    iexact Hp
  hout c := by
    rw [Pipeline.ownSems0_none, show (pdats m 11 c).Φ (Fin.last _) = Pipeline.ΦA spec11 c from rfl]; unfold Pipeline.ΦA
    iintro ⟨Hr, Hp⟩
    isplitl [Hp]; · iexact Hp
    isplitr; · iempintro
    iexact Hr
  hexit c := by
    have hjoin := Pipeline.unscopedBufs_of_arrays (p := 11) (pcfgs (F := F)) (adm m) (Ix := Unit) (Name := ℕ) (U := UU) (Lvl := ℕ)
      (launch11 (F := F)).win (launch11 (F := F)).arr_whole c (pdats m) ((pdats m 11 c).share_full fun _ => rfl)
      (atTc (U25 m) c) (atTc (U26 m) c) ((pdats m 11 c).arrAt · cfg11.N) (hF11 m c) (hrest11 m c)
    rw [Pipeline.unscopedBufs_held] at hjoin
    exact leaveA c (U26 m c) hjoin (owes_of_owesAt_last c _ rfl)

set_option maxHeartbeats 1000000 in
/-- Every word of region 12's table is a node's number: the data's table is what the real valuation at the region's entry
    holds in the table's buffer; that valuation is the run's own, whose table is the closed one of the launch memory. -/
theorem hlt12 (m : (ℓ : Loc nD τ sig) → Buf (Elt F) ℓ) (hm : ∀ i : S2x800000.Idx, ((V0 m c₀ main_arg1 : IVec S2x800000 32) i).toNat < 50000) :
    ∀ k : S85000.Idx, (tblw12 (a12 m) k).toNat < 50000 := by
  have h1 : tblw12 (a12 m) = (U27 m c₀ main_v62 : IVec S85000 32) := by
    unfold a12
    rfl
  have h2 : ∀ W : Valuation τ sig (Elt F), V27 m (outsU m) c₀ = W → (W main_v62 : IVec S85000 32) = tbl12 m c₀ :=
    fun W hW => by subst hW; exact tbl12_eq m (outsU m) c₀
  have e : tblw12 (a12 m) = tbl12 m c₀ := h1.trans (h2 (U27 m c₀) (V27_eq m c₀))
  intro k
  rw [e]; exact tbl12_lt m c₀ hm k
set_option maxHeartbeats 1000000 in
set_option backward.isDefEq.respectTransparency.types false in
/-- REGION 12 over the thread state: entered from every unscoped buffer at `U27`, left at `U28`. -/
def reg12 (m : (ℓ : Loc nD τ sig) → Buf (Elt F) ℓ) (hm : ∀ i : S2x800000.Idx, ((V0 m c₀ main_arg1 : IVec S2x800000 32) i).toNat < 50000) :
    RegionSeg (pcfgs (F := F)) (adm m) (pdats m) () defs₀ 𝒱₀ L lv 12 where
  win := (launch12 (F := F)).win.to₀
  block_pos := (launch12 (F := F)).block_pos
  stage_whole := (launch12 (F := F)).stage_whole
  K := Fin 8
  osem := osem12
  ho := ownSemFacts12
  hbody c := hbodyG12 (atTc (U27 m)) (a12 m) (hlt12 m hm) c
  hwaits := Pipeline.hwaits_of_owed_zero _ _ _ _ L lv 12 fun _ _ => rfl
  pre c := iprop(StableHlo.held (c : Thread nD τ) (Pipeline.ucRefs τ sig) (U27 m c) ∗ R (F := F) c)
  post c := iprop(StableHlo.held (c : Thread nD τ) (Pipeline.ucRefs τ sig) (U28 m c) ∗ R (F := F) c)
  X c := XG12 (atTc (U27 m)) c
  Y c := YG12 (atTc (U27 m)) (a12 m) c
  Z c := ZG12 (atTc (U27 m)) c
  hentry c := by
    have hsplit := Pipeline.arrays_of_unscopedBufs (p := 12) (pcfgs (F := F)) (adm m) (pdats m) (launch12 (F := F)).win (launch12 (F := F)).arr_whole c
      ((pdats m 12 c).share_full fun _ => rfl) (atTc (U27 m) c) (fun _ => rfl)
    have h := hentryG12 (atTc (U27 m)) (a12 m) (gblk12 (atTc (U27 m)) (a12 m)) c (hpf12 m c) hsplit
    rw [Pipeline.unscopedBufs_held] at h
    exact h
  hin c := hinG12 (atTc (U27 m)) (a12 m) (gblk12 (atTc (U27 m)) (a12 m)) c
  hout c := houtG12 (atTc (U27 m)) (a12 m) (gblk12 (atTc (U27 m)) (a12 m)) c
  hexit c := by
    have hjoin := Pipeline.unscopedBufs_of_arrays (p := 12) (pcfgs (F := F)) (adm m) (Ix := Unit) (Name := ℕ) (U := UU) (Lvl := ℕ)
      (launch12 (F := F)).win (launch12 (F := F)).arr_whole c (pdats m) ((pdats m 12 c).share_full fun _ => rfl)
      (atTc (U27 m) c) (atTc (U28 m) c) ((pdats m 12 c).arrAt · (cfg12 (a12 m)).N) (hF12 m c) (hrest12 m c)
    have h := hexitG12 (atTc (U27 m)) (a12 m) (gblk12 (atTc (U27 m)) (a12 m)) (atTc (U28 m)) c (hpf12 m c) hjoin
    rw [Pipeline.unscopedBufs_held] at h
    exact h

set_option maxHeartbeats 1000000 in
/-- Every word of region 13's table is a node's number: the data's table is what the real valuation at the region's entry
    holds in the table's buffer; that valuation is the run's own, whose table is the closed one of the launch memory. -/
theorem hlt13 (m : (ℓ : Loc nD τ sig) → Buf (Elt F) ℓ) (hm : ∀ i : S2x800000.Idx, ((V0 m c₀ main_arg1 : IVec S2x800000 32) i).toNat < 50000) :
    ∀ k : S85000.Idx, (tblw13 (a13 m) k).toNat < 50000 := by
  have h1 : tblw13 (a13 m) = (U29 m c₀ main_v64 : IVec S85000 32) := by
    unfold a13
    rfl
  have h2 : ∀ W : Valuation τ sig (Elt F), V29 m (outsU m) c₀ = W → (W main_v64 : IVec S85000 32) = tbl13 m c₀ :=
    fun W hW => by subst hW; exact tbl13_eq m (outsU m) c₀
  have e : tblw13 (a13 m) = tbl13 m c₀ := h1.trans (h2 (U29 m c₀) (V29_eq m c₀))
  intro k
  rw [e]; exact tbl13_lt m c₀ hm k
set_option maxHeartbeats 1000000 in
set_option backward.isDefEq.respectTransparency.types false in
/-- REGION 13 over the thread state: entered from every unscoped buffer at `U29`, left at `U30`. -/
def reg13 (m : (ℓ : Loc nD τ sig) → Buf (Elt F) ℓ) (hm : ∀ i : S2x800000.Idx, ((V0 m c₀ main_arg1 : IVec S2x800000 32) i).toNat < 50000) :
    RegionSeg (pcfgs (F := F)) (adm m) (pdats m) () defs₀ 𝒱₀ L lv 13 where
  win := (launch13 (F := F)).win.to₀
  block_pos := (launch13 (F := F)).block_pos
  stage_whole := (launch13 (F := F)).stage_whole
  K := Fin 8
  osem := osem13
  ho := ownSemFacts13
  hbody c := hbodyG13 (atTc (U29 m)) (a13 m) (hlt13 m hm) c
  hwaits := Pipeline.hwaits_of_owed_zero _ _ _ _ L lv 13 fun _ _ => rfl
  pre c := iprop(StableHlo.held (c : Thread nD τ) (Pipeline.ucRefs τ sig) (U29 m c) ∗ R (F := F) c)
  post c := iprop(StableHlo.held (c : Thread nD τ) (Pipeline.ucRefs τ sig) (U30 m c) ∗ R (F := F) c)
  X c := XG13 (atTc (U29 m)) c
  Y c := YG13 (atTc (U29 m)) (a13 m) c
  Z c := ZG13 (atTc (U29 m)) c
  hentry c := by
    have hsplit := Pipeline.arrays_of_unscopedBufs (p := 13) (pcfgs (F := F)) (adm m) (pdats m) (launch13 (F := F)).win (launch13 (F := F)).arr_whole c
      ((pdats m 13 c).share_full fun _ => rfl) (atTc (U29 m) c) (fun _ => rfl)
    have h := hentryG13 (atTc (U29 m)) (a13 m) (gblk13 (atTc (U29 m)) (a13 m)) c (hpf13 m c) hsplit
    rw [Pipeline.unscopedBufs_held] at h
    exact h
  hin c := hinG13 (atTc (U29 m)) (a13 m) (gblk13 (atTc (U29 m)) (a13 m)) c
  hout c := houtG13 (atTc (U29 m)) (a13 m) (gblk13 (atTc (U29 m)) (a13 m)) c
  hexit c := by
    have hjoin := Pipeline.unscopedBufs_of_arrays (p := 13) (pcfgs (F := F)) (adm m) (Ix := Unit) (Name := ℕ) (U := UU) (Lvl := ℕ)
      (launch13 (F := F)).win (launch13 (F := F)).arr_whole c (pdats m) ((pdats m 13 c).share_full fun _ => rfl)
      (atTc (U29 m) c) (atTc (U30 m) c) ((pdats m 13 c).arrAt · (cfg13 (a13 m)).N) (hF13 m c) (hrest13 m c)
    have h := hexitG13 (atTc (U29 m)) (a13 m) (gblk13 (atTc (U29 m)) (a13 m)) (atTc (U30 m)) c (hpf13 m c) hjoin
    rw [Pipeline.unscopedBufs_held] at h
    exact h

set_option maxHeartbeats 1000000 in
/-- Every word of region 14's table is a node's number: the data's table is what the real valuation at the region's entry
    holds in the table's buffer; that valuation is the run's own, whose table is the closed one of the launch memory. -/
theorem hlt14 (m : (ℓ : Loc nD τ sig) → Buf (Elt F) ℓ) (hm : ∀ i : S2x800000.Idx, ((V0 m c₀ main_arg1 : IVec S2x800000 32) i).toNat < 50000) :
    ∀ k : S85000.Idx, (tblw14 (a14 m) k).toNat < 50000 := by
  have h1 : tblw14 (a14 m) = (U31 m c₀ main_v66 : IVec S85000 32) := by
    unfold a14
    rfl
  have h2 : ∀ W : Valuation τ sig (Elt F), V31 m (outsU m) c₀ = W → (W main_v66 : IVec S85000 32) = tbl14 m c₀ :=
    fun W hW => by subst hW; exact tbl14_eq m (outsU m) c₀
  have e : tblw14 (a14 m) = tbl14 m c₀ := h1.trans (h2 (U31 m c₀) (V31_eq m c₀))
  intro k
  rw [e]; exact tbl14_lt m c₀ hm k
set_option maxHeartbeats 1000000 in
set_option backward.isDefEq.respectTransparency.types false in
/-- REGION 14 over the thread state: entered from every unscoped buffer at `U31`, left at `U32`. -/
def reg14 (m : (ℓ : Loc nD τ sig) → Buf (Elt F) ℓ) (hm : ∀ i : S2x800000.Idx, ((V0 m c₀ main_arg1 : IVec S2x800000 32) i).toNat < 50000) :
    RegionSeg (pcfgs (F := F)) (adm m) (pdats m) () defs₀ 𝒱₀ L lv 14 where
  win := (launch14 (F := F)).win.to₀
  block_pos := (launch14 (F := F)).block_pos
  stage_whole := (launch14 (F := F)).stage_whole
  K := Fin 8
  osem := osem14
  ho := ownSemFacts14
  hbody c := hbodyG14 (atTc (U31 m)) (a14 m) (hlt14 m hm) c
  hwaits := Pipeline.hwaits_of_owed_zero _ _ _ _ L lv 14 fun _ _ => rfl
  pre c := iprop(StableHlo.held (c : Thread nD τ) (Pipeline.ucRefs τ sig) (U31 m c) ∗ R (F := F) c)
  post c := iprop(StableHlo.held (c : Thread nD τ) (Pipeline.ucRefs τ sig) (U32 m c) ∗ R (F := F) c)
  X c := XG14 (atTc (U31 m)) c
  Y c := YG14 (atTc (U31 m)) (a14 m) c
  Z c := ZG14 (atTc (U31 m)) c
  hentry c := by
    have hsplit := Pipeline.arrays_of_unscopedBufs (p := 14) (pcfgs (F := F)) (adm m) (pdats m) (launch14 (F := F)).win (launch14 (F := F)).arr_whole c
      ((pdats m 14 c).share_full fun _ => rfl) (atTc (U31 m) c) (fun _ => rfl)
    have h := hentryG14 (atTc (U31 m)) (a14 m) (gblk14 (atTc (U31 m)) (a14 m)) c (hpf14 m c) hsplit
    rw [Pipeline.unscopedBufs_held] at h
    exact h
  hin c := hinG14 (atTc (U31 m)) (a14 m) (gblk14 (atTc (U31 m)) (a14 m)) c
  hout c := houtG14 (atTc (U31 m)) (a14 m) (gblk14 (atTc (U31 m)) (a14 m)) c
  hexit c := by
    have hjoin := Pipeline.unscopedBufs_of_arrays (p := 14) (pcfgs (F := F)) (adm m) (Ix := Unit) (Name := ℕ) (U := UU) (Lvl := ℕ)
      (launch14 (F := F)).win (launch14 (F := F)).arr_whole c (pdats m) ((pdats m 14 c).share_full fun _ => rfl)
      (atTc (U31 m) c) (atTc (U32 m) c) ((pdats m 14 c).arrAt · (cfg14 (a14 m)).N) (hF14 m c) (hrest14 m c)
    have h := hexitG14 (atTc (U31 m)) (a14 m) (gblk14 (atTc (U31 m)) (a14 m)) (atTc (U32 m)) c (hpf14 m c) hjoin
    rw [Pipeline.unscopedBufs_held] at h
    exact h

end Cert.KernelIdeal.Hand

end
-- ==== Proof.KI.GatherBody15.lean ====
/-
  Region 15's body obligation. The region runs the body of region 1 on its own table, array, output block and
  semaphores (the two kernel functions are one function), so the body's run is region 1's, cited at this region's eight
  semaphores; read with this region's invariant it is the pipeline's body obligation for the region's proof data.
-/
import proofs.«402049_j87351044866139_2_alg».proof.Proof.KI.GatherDef15
import proofs.«402049_j87351044866139_2_alg».proof.Proof.KI.GatherBody1

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Idealize.ShloMosaic.Transfers (shareDrop shareTokN)
open Cert.KernelIdeal Cert.KernelIdeal.Gen

variable {F : FTy → Type} [FloatOps F]

local notation "𝕄" => MT nD τ sig Unit (Elt F) ℕ (Pipeline.UD sig nD τ) ℕ

/-! ## The body obligation -/

variable (V : (c : Dev nD) → (b : Ref sig .tc) → Buf (Elt F) ((c : Thread nD τ).loc b))
variable (a1 : (pcfg15 (F := F)).Adm)

/-- The eight cells at zero, listed, each as the body names it. -/
theorem ownSems15_eq (c : Dev nD) :
    (Pipeline.ownSems0 (Ix := Unit) (Name := ℕ) (U := Pipeline.UD sig nD τ) (Lvl := ℕ) (Val := Elt F) (τ := τ) osem15 c : sProp 𝕄)
      = iprop(semVal ((c : Thread nD τ), cell1_0 cc15_scratch0) 0 ∗ semVal ((c : Thread nD τ), cell1_1 cc15_scratch0) 0 ∗ semVal ((c : Thread nD τ), cell1_2 cc15_scratch0) 0 ∗ semVal ((c : Thread nD τ), cell1_3 cc15_scratch0) 0 ∗ semVal ((c : Thread nD τ), cell1_4 cc15_scratch0) 0 ∗ semVal ((c : Thread nD τ), cell1_5 cc15_scratch0) 0 ∗ semVal ((c : Thread nD τ), cell1_6 cc15_scratch0) 0 ∗ semVal ((c : Thread nD τ), cell1_7 cc15_scratch0) 0) := by
  rw [Pipeline.ownSems0_eq_of_list c osem15 [0, 1, 2, 3, 4, 5, 6, 7] (by decide) (by decide)]; rfl

/-- The array the rows are read from, at the contents the region found it with. -/
theorem hbm15_eq (c : Dev nD) :
    (bigSep H15 (fun b => ((c : Thread nD τ).loc b) ↦{fullShare} V c b) : sProp 𝕄)
      = ((Memref.whole main_v61 : Memref sig .tc .hbm S50000x128 .f32).view.loc (c : Thread nD τ) ↦{fullShare} V c main_v61) := by
  unfold H15
  rw [BI.bigSep_eq_bigSepL_of_eq [main_v61] (by decide) (by decide)]; rfl

/-- The table, held whole at the full share, is owned at its contents. -/
theorem tblw15_eq (c : Dev nD) :
    (Pipeline.prefHeld pre15 c (fun _ => fullShare) a1.1 : sProp 𝕄)
      = owns (c : Thread nD τ) (Memref.whole main_v68 : Memref sig .tc .smem S85000 .i32) fullShare (tblw15 a1) := by
  unfold Pipeline.prefHeld
  rw [bigSep_W15, owns_whole]; rfl

set_option maxHeartbeats 4000000 in
/-- The body at every point: the invariant hands the run its table, the array, the eight cells at zero (the scoped rest and
    the generator register ride along), the core's record of waits goes in at whatever the points before left and comes
    back with this point's eight, and the output block, at anything, comes back reading the gathered rows. -/
theorem hbodyG15 [∀ e, Nonempty (Elt F e)] (hlt : ∀ k : S85000.Idx, (tblw15 a1 k).toNat < 50000) (c : Dev nD) :
    BodyObligationLoose (datG15 V a1 (gblk15 V a1) c) (defs₀ (F := F)) Variants.none () Set.univ := by
  refine BodyObligation.loose _ fun t => ?_
  rw [bigSep_W15, bigSep_W15]
  show iprop(iprop(Pipeline.ΦD osem15 spec15 H15 V c ∗ Pipeline.prefHeld pre15 c (fun _ => fullShare) a1.1)
        ∗ (datG15 V a1 (gblk15 V a1) c).owesAt () t.castSucc
        ∗ (∃ d, owns (c : Thread nD τ) (spec15_0.stage ((cfg15 a1).slots t 0)) fullShare ((datG15 V a1 (gblk15 V a1) c).before 0 t d)))
      ⊢ wp frame (wpE (defs₀ (F := F)) Variants.none c none) Set.univ
          (cc15__gather_kernel ((cfg15 a1).grid.coords t) (Memref.whole main_v68) (Memref.isWhole_whole _) (Memref.whole main_v61) (Memref.isWhole_whole _)
            (spec15_0.stage ((cfg15 a1).slots t 0)) (hstage15_0 (((cfg15 a1).slots t 0).cast nbuf15_0)) cc15_scratch0)
          (fun _ => iprop(iprop(Pipeline.ΦD osem15 spec15 H15 V c ∗ Pipeline.prefHeld pre15 c (fun _ => fullShare) a1.1)
            ∗ (datG15 V a1 (gblk15 V a1) c).owesAt () t.succ
            ∗ owns (c : Thread nD τ) (spec15_0.stage ((cfg15 a1).slots t 0)) fullShare (gblk15 V a1 c t)))
  rw [Pipeline.ΦD_eq, ownSems15_eq, hbm15_eq, tblw15_eq]
  unfold Dat.owesAt Pipeline.owesWithin
  rw [show (datG15 V a1 (gblk15 V a1) c).owed t.castSucc = 0 from rfl, show (datG15 V a1 (gblk15 V a1) c).owed t.succ = 0 from rfl]
  have hr : (Memref.whole main_v61 : Memref sig .tc .hbm S50000x128 .f32).view.read (Elt F) (V c main_v61) = V c main_v61 := by
    simp only [Memref.view_whole, View.read_whole]
  iintro ⟨⟨⟨Hsc, Hg, ⟨Hq0, Hq1, Hq2, Hq3, Hq4, Hq5, Hq6, Hq7⟩, Hh⟩, Ht⟩, ⟨%W, -, HW⟩, ⟨%d, Hob⟩⟩
  iapply (kernelRun1 c ((cfg15 a1).grid.coords t) (Memref.whole main_v68) (Memref.isWhole_whole _) (Memref.whole main_v61) (Memref.isWhole_whole _)
    (spec15_0.stage ((cfg15 a1).slots t 0)) (hstage15_0 (((cfg15 a1).slots t 0).cast nbuf15_0)) (tblw15 a1) hlt fullShare fullShare (V c main_v61) cc15_scratch0 W _)
  isplitl [Ht]; · iexact Ht
  isplitl [Hh]; · iexact Hh
  isplitl [Hob]; · iexists _; iexact Hob
  isplitl [Hq0]; · iexact Hq0
  isplitl [Hq1]; · iexact Hq1
  isplitl [Hq2]; · iexact Hq2
  isplitl [Hq3]; · iexact Hq3
  isplitl [Hq4]; · iexact Hq4
  isplitl [Hq5]; · iexact Hq5
  isplitl [Hq6]; · iexact Hq6
  isplitl [Hq7]; · iexact Hq7
  isplitl [HW]; · iexact HW
  iintro ⟨Ht, Hh, Hob, Hq0, Hq1, Hq2, Hq3, Hq4, Hq5, Hq6, Hq7, ⟨%W', HW'⟩⟩
  isplitl [Hsc Hg Hq0 Hq1 Hq2 Hq3 Hq4 Hq5 Hq6 Hq7 Hh Ht]
  · isplitl [Hsc Hg Hq0 Hq1 Hq2 Hq3 Hq4 Hq5 Hq6 Hq7 Hh]
    · isplitl [Hsc]; · iexact Hsc
      isplitl [Hg]; · iexact Hg
      isplitl [Hq0 Hq1 Hq2 Hq3 Hq4 Hq5 Hq6 Hq7]
      · isplitl [Hq0]; · iexact Hq0
        isplitl [Hq1]; · iexact Hq1
        isplitl [Hq2]; · iexact Hq2
        isplitl [Hq3]; · iexact Hq3
        isplitl [Hq4]; · iexact Hq4
        isplitl [Hq5]; · iexact Hq5
        isplitl [Hq6]; · iexact Hq6
        iexact Hq7
      iexact Hh
    iexact Ht
  isplitl [HW']
  · iexists W'; isplitr; · ipureintro; exact fun _ _ => Or.inl trivial
    iexact HW'
  rw [hr]
  iexact Hob

end Cert.KernelIdeal.Hand

end
-- ==== Proof.KI.GatherBody16.lean ====
/-
  Region 16's body obligation. The region runs the body of region 1 on its own table, array, output block and
  semaphores (the two kernel functions are one function), so the body's run is region 1's, cited at this region's eight
  semaphores; read with this region's invariant it is the pipeline's body obligation for the region's proof data.
-/
import proofs.«402049_j87351044866139_2_alg».proof.Proof.KI.GatherDef16
import proofs.«402049_j87351044866139_2_alg».proof.Proof.KI.GatherBody1

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Idealize.ShloMosaic.Transfers (shareDrop shareTokN)
open Cert.KernelIdeal Cert.KernelIdeal.Gen

variable {F : FTy → Type} [FloatOps F]

local notation "𝕄" => MT nD τ sig Unit (Elt F) ℕ (Pipeline.UD sig nD τ) ℕ

/-! ## The body obligation -/

variable (V : (c : Dev nD) → (b : Ref sig .tc) → Buf (Elt F) ((c : Thread nD τ).loc b))
variable (a1 : (pcfg16 (F := F)).Adm)

/-- The eight cells at zero, listed, each as the body names it. -/
theorem ownSems16_eq (c : Dev nD) :
    (Pipeline.ownSems0 (Ix := Unit) (Name := ℕ) (U := Pipeline.UD sig nD τ) (Lvl := ℕ) (Val := Elt F) (τ := τ) osem16 c : sProp 𝕄)
      = iprop(semVal ((c : Thread nD τ), cell1_0 cc16_scratch0) 0 ∗ semVal ((c : Thread nD τ), cell1_1 cc16_scratch0) 0 ∗ semVal ((c : Thread nD τ), cell1_2 cc16_scratch0) 0 ∗ semVal ((c : Thread nD τ), cell1_3 cc16_scratch0) 0 ∗ semVal ((c : Thread nD τ), cell1_4 cc16_scratch0) 0 ∗ semVal ((c : Thread nD τ), cell1_5 cc16_scratch0) 0 ∗ semVal ((c : Thread nD τ), cell1_6 cc16_scratch0) 0 ∗ semVal ((c : Thread nD τ), cell1_7 cc16_scratch0) 0) := by
  rw [Pipeline.ownSems0_eq_of_list c osem16 [0, 1, 2, 3, 4, 5, 6, 7] (by decide) (by decide)]; rfl

/-- The array the rows are read from, at the contents the region found it with. -/
theorem hbm16_eq (c : Dev nD) :
    (bigSep H16 (fun b => ((c : Thread nD τ).loc b) ↦{fullShare} V c b) : sProp 𝕄)
      = ((Memref.whole main_v61 : Memref sig .tc .hbm S50000x128 .f32).view.loc (c : Thread nD τ) ↦{fullShare} V c main_v61) := by
  unfold H16
  rw [BI.bigSep_eq_bigSepL_of_eq [main_v61] (by decide) (by decide)]; rfl

/-- The table, held whole at the full share, is owned at its contents. -/
theorem tblw16_eq (c : Dev nD) :
    (Pipeline.prefHeld pre16 c (fun _ => fullShare) a1.1 : sProp 𝕄)
      = owns (c : Thread nD τ) (Memref.whole main_v70 : Memref sig .tc .smem S85000 .i32) fullShare (tblw16 a1) := by
  unfold Pipeline.prefHeld
  rw [bigSep_W16, owns_whole]; rfl

set_option maxHeartbeats 4000000 in
/-- The body at every point: the invariant hands the run its table, the array, the eight cells at zero (the scoped rest and
    the generator register ride along), the core's record of waits goes in at whatever the points before left and comes
    back with this point's eight, and the output block, at anything, comes back reading the gathered rows. -/
theorem hbodyG16 [∀ e, Nonempty (Elt F e)] (hlt : ∀ k : S85000.Idx, (tblw16 a1 k).toNat < 50000) (c : Dev nD) :
    BodyObligationLoose (datG16 V a1 (gblk16 V a1) c) (defs₀ (F := F)) Variants.none () Set.univ := by
  refine BodyObligation.loose _ fun t => ?_
  rw [bigSep_W16, bigSep_W16]
  show iprop(iprop(Pipeline.ΦD osem16 spec16 H16 V c ∗ Pipeline.prefHeld pre16 c (fun _ => fullShare) a1.1)
        ∗ (datG16 V a1 (gblk16 V a1) c).owesAt () t.castSucc
        ∗ (∃ d, owns (c : Thread nD τ) (spec16_0.stage ((cfg16 a1).slots t 0)) fullShare ((datG16 V a1 (gblk16 V a1) c).before 0 t d)))
      ⊢ wp frame (wpE (defs₀ (F := F)) Variants.none c none) Set.univ
          (cc16__gather_kernel ((cfg16 a1).grid.coords t) (Memref.whole main_v70) (Memref.isWhole_whole _) (Memref.whole main_v61) (Memref.isWhole_whole _)
            (spec16_0.stage ((cfg16 a1).slots t 0)) (hstage16_0 (((cfg16 a1).slots t 0).cast nbuf16_0)) cc16_scratch0)
          (fun _ => iprop(iprop(Pipeline.ΦD osem16 spec16 H16 V c ∗ Pipeline.prefHeld pre16 c (fun _ => fullShare) a1.1)
            ∗ (datG16 V a1 (gblk16 V a1) c).owesAt () t.succ
            ∗ owns (c : Thread nD τ) (spec16_0.stage ((cfg16 a1).slots t 0)) fullShare (gblk16 V a1 c t)))
  rw [Pipeline.ΦD_eq, ownSems16_eq, hbm16_eq, tblw16_eq]
  unfold Dat.owesAt Pipeline.owesWithin
  rw [show (datG16 V a1 (gblk16 V a1) c).owed t.castSucc = 0 from rfl, show (datG16 V a1 (gblk16 V a1) c).owed t.succ = 0 from rfl]
  have hr : (Memref.whole main_v61 : Memref sig .tc .hbm S50000x128 .f32).view.read (Elt F) (V c main_v61) = V c main_v61 := by
    simp only [Memref.view_whole, View.read_whole]
  iintro ⟨⟨⟨Hsc, Hg, ⟨Hq0, Hq1, Hq2, Hq3, Hq4, Hq5, Hq6, Hq7⟩, Hh⟩, Ht⟩, ⟨%W, -, HW⟩, ⟨%d, Hob⟩⟩
  iapply (kernelRun1 c ((cfg16 a1).grid.coords t) (Memref.whole main_v70) (Memref.isWhole_whole _) (Memref.whole main_v61) (Memref.isWhole_whole _)
    (spec16_0.stage ((cfg16 a1).slots t 0)) (hstage16_0 (((cfg16 a1).slots t 0).cast nbuf16_0)) (tblw16 a1) hlt fullShare fullShare (V c main_v61) cc16_scratch0 W _)
  isplitl [Ht]; · iexact Ht
  isplitl [Hh]; · iexact Hh
  isplitl [Hob]; · iexists _; iexact Hob
  isplitl [Hq0]; · iexact Hq0
  isplitl [Hq1]; · iexact Hq1
  isplitl [Hq2]; · iexact Hq2
  isplitl [Hq3]; · iexact Hq3
  isplitl [Hq4]; · iexact Hq4
  isplitl [Hq5]; · iexact Hq5
  isplitl [Hq6]; · iexact Hq6
  isplitl [Hq7]; · iexact Hq7
  isplitl [HW]; · iexact HW
  iintro ⟨Ht, Hh, Hob, Hq0, Hq1, Hq2, Hq3, Hq4, Hq5, Hq6, Hq7, ⟨%W', HW'⟩⟩
  isplitl [Hsc Hg Hq0 Hq1 Hq2 Hq3 Hq4 Hq5 Hq6 Hq7 Hh Ht]
  · isplitl [Hsc Hg Hq0 Hq1 Hq2 Hq3 Hq4 Hq5 Hq6 Hq7 Hh]
    · isplitl [Hsc]; · iexact Hsc
      isplitl [Hg]; · iexact Hg
      isplitl [Hq0 Hq1 Hq2 Hq3 Hq4 Hq5 Hq6 Hq7]
      · isplitl [Hq0]; · iexact Hq0
        isplitl [Hq1]; · iexact Hq1
        isplitl [Hq2]; · iexact Hq2
        isplitl [Hq3]; · iexact Hq3
        isplitl [Hq4]; · iexact Hq4
        isplitl [Hq5]; · iexact Hq5
        isplitl [Hq6]; · iexact Hq6
        iexact Hq7
      iexact Hh
    iexact Ht
  isplitl [HW']
  · iexists W'; isplitr; · ipureintro; exact fun _ _ => Or.inl trivial
    iexact HW'
  rw [hr]
  iexact Hob

end Cert.KernelIdeal.Hand

end
-- ==== Proof.KI.GatherBody17.lean ====
/-
  Region 17's body obligation. The region runs the body of region 1 on its own table, array, output block and
  semaphores (the two kernel functions are one function), so the body's run is region 1's, cited at this region's eight
  semaphores; read with this region's invariant it is the pipeline's body obligation for the region's proof data.
-/
import proofs.«402049_j87351044866139_2_alg».proof.Proof.KI.GatherDef17
import proofs.«402049_j87351044866139_2_alg».proof.Proof.KI.GatherBody1

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Idealize.ShloMosaic.Transfers (shareDrop shareTokN)
open Cert.KernelIdeal Cert.KernelIdeal.Gen

variable {F : FTy → Type} [FloatOps F]

local notation "𝕄" => MT nD τ sig Unit (Elt F) ℕ (Pipeline.UD sig nD τ) ℕ

/-! ## The body obligation -/

variable (V : (c : Dev nD) → (b : Ref sig .tc) → Buf (Elt F) ((c : Thread nD τ).loc b))
variable (a1 : (pcfg17 (F := F)).Adm)

/-- The eight cells at zero, listed, each as the body names it. -/
theorem ownSems17_eq (c : Dev nD) :
    (Pipeline.ownSems0 (Ix := Unit) (Name := ℕ) (U := Pipeline.UD sig nD τ) (Lvl := ℕ) (Val := Elt F) (τ := τ) osem17 c : sProp 𝕄)
      = iprop(semVal ((c : Thread nD τ), cell1_0 cc17_scratch0) 0 ∗ semVal ((c : Thread nD τ), cell1_1 cc17_scratch0) 0 ∗ semVal ((c : Thread nD τ), cell1_2 cc17_scratch0) 0 ∗ semVal ((c : Thread nD τ), cell1_3 cc17_scratch0) 0 ∗ semVal ((c : Thread nD τ), cell1_4 cc17_scratch0) 0 ∗ semVal ((c : Thread nD τ), cell1_5 cc17_scratch0) 0 ∗ semVal ((c : Thread nD τ), cell1_6 cc17_scratch0) 0 ∗ semVal ((c : Thread nD τ), cell1_7 cc17_scratch0) 0) := by
  rw [Pipeline.ownSems0_eq_of_list c osem17 [0, 1, 2, 3, 4, 5, 6, 7] (by decide) (by decide)]; rfl

/-- The array the rows are read from, at the contents the region found it with. -/
theorem hbm17_eq (c : Dev nD) :
    (bigSep H17 (fun b => ((c : Thread nD τ).loc b) ↦{fullShare} V c b) : sProp 𝕄)
      = ((Memref.whole main_v61 : Memref sig .tc .hbm S50000x128 .f32).view.loc (c : Thread nD τ) ↦{fullShare} V c main_v61) := by
  unfold H17
  rw [BI.bigSep_eq_bigSepL_of_eq [main_v61] (by decide) (by decide)]; rfl

/-- The table, held whole at the full share, is owned at its contents. -/
theorem tblw17_eq (c : Dev nD) :
    (Pipeline.prefHeld pre17 c (fun _ => fullShare) a1.1 : sProp 𝕄)
      = owns (c : Thread nD τ) (Memref.whole main_v72 : Memref sig .tc .smem S85000 .i32) fullShare (tblw17 a1) := by
  unfold Pipeline.prefHeld
  rw [bigSep_W17, owns_whole]; rfl

set_option maxHeartbeats 4000000 in
/-- The body at every point: the invariant hands the run its table, the array, the eight cells at zero (the scoped rest and
    the generator register ride along), the core's record of waits goes in at whatever the points before left and comes
    back with this point's eight, and the output block, at anything, comes back reading the gathered rows. -/
theorem hbodyG17 [∀ e, Nonempty (Elt F e)] (hlt : ∀ k : S85000.Idx, (tblw17 a1 k).toNat < 50000) (c : Dev nD) :
    BodyObligationLoose (datG17 V a1 (gblk17 V a1) c) (defs₀ (F := F)) Variants.none () Set.univ := by
  refine BodyObligation.loose _ fun t => ?_
  rw [bigSep_W17, bigSep_W17]
  show iprop(iprop(Pipeline.ΦD osem17 spec17 H17 V c ∗ Pipeline.prefHeld pre17 c (fun _ => fullShare) a1.1)
        ∗ (datG17 V a1 (gblk17 V a1) c).owesAt () t.castSucc
        ∗ (∃ d, owns (c : Thread nD τ) (spec17_0.stage ((cfg17 a1).slots t 0)) fullShare ((datG17 V a1 (gblk17 V a1) c).before 0 t d)))
      ⊢ wp frame (wpE (defs₀ (F := F)) Variants.none c none) Set.univ
          (cc17__gather_kernel ((cfg17 a1).grid.coords t) (Memref.whole main_v72) (Memref.isWhole_whole _) (Memref.whole main_v61) (Memref.isWhole_whole _)
            (spec17_0.stage ((cfg17 a1).slots t 0)) (hstage17_0 (((cfg17 a1).slots t 0).cast nbuf17_0)) cc17_scratch0)
          (fun _ => iprop(iprop(Pipeline.ΦD osem17 spec17 H17 V c ∗ Pipeline.prefHeld pre17 c (fun _ => fullShare) a1.1)
            ∗ (datG17 V a1 (gblk17 V a1) c).owesAt () t.succ
            ∗ owns (c : Thread nD τ) (spec17_0.stage ((cfg17 a1).slots t 0)) fullShare (gblk17 V a1 c t)))
  rw [Pipeline.ΦD_eq, ownSems17_eq, hbm17_eq, tblw17_eq]
  unfold Dat.owesAt Pipeline.owesWithin
  rw [show (datG17 V a1 (gblk17 V a1) c).owed t.castSucc = 0 from rfl, show (datG17 V a1 (gblk17 V a1) c).owed t.succ = 0 from rfl]
  have hr : (Memref.whole main_v61 : Memref sig .tc .hbm S50000x128 .f32).view.read (Elt F) (V c main_v61) = V c main_v61 := by
    simp only [Memref.view_whole, View.read_whole]
  iintro ⟨⟨⟨Hsc, Hg, ⟨Hq0, Hq1, Hq2, Hq3, Hq4, Hq5, Hq6, Hq7⟩, Hh⟩, Ht⟩, ⟨%W, -, HW⟩, ⟨%d, Hob⟩⟩
  iapply (kernelRun1 c ((cfg17 a1).grid.coords t) (Memref.whole main_v72) (Memref.isWhole_whole _) (Memref.whole main_v61) (Memref.isWhole_whole _)
    (spec17_0.stage ((cfg17 a1).slots t 0)) (hstage17_0 (((cfg17 a1).slots t 0).cast nbuf17_0)) (tblw17 a1) hlt fullShare fullShare (V c main_v61) cc17_scratch0 W _)
  isplitl [Ht]; · iexact Ht
  isplitl [Hh]; · iexact Hh
  isplitl [Hob]; · iexists _; iexact Hob
  isplitl [Hq0]; · iexact Hq0
  isplitl [Hq1]; · iexact Hq1
  isplitl [Hq2]; · iexact Hq2
  isplitl [Hq3]; · iexact Hq3
  isplitl [Hq4]; · iexact Hq4
  isplitl [Hq5]; · iexact Hq5
  isplitl [Hq6]; · iexact Hq6
  isplitl [Hq7]; · iexact Hq7
  isplitl [HW]; · iexact HW
  iintro ⟨Ht, Hh, Hob, Hq0, Hq1, Hq2, Hq3, Hq4, Hq5, Hq6, Hq7, ⟨%W', HW'⟩⟩
  isplitl [Hsc Hg Hq0 Hq1 Hq2 Hq3 Hq4 Hq5 Hq6 Hq7 Hh Ht]
  · isplitl [Hsc Hg Hq0 Hq1 Hq2 Hq3 Hq4 Hq5 Hq6 Hq7 Hh]
    · isplitl [Hsc]; · iexact Hsc
      isplitl [Hg]; · iexact Hg
      isplitl [Hq0 Hq1 Hq2 Hq3 Hq4 Hq5 Hq6 Hq7]
      · isplitl [Hq0]; · iexact Hq0
        isplitl [Hq1]; · iexact Hq1
        isplitl [Hq2]; · iexact Hq2
        isplitl [Hq3]; · iexact Hq3
        isplitl [Hq4]; · iexact Hq4
        isplitl [Hq5]; · iexact Hq5
        isplitl [Hq6]; · iexact Hq6
        iexact Hq7
      iexact Hh
    iexact Ht
  isplitl [HW']
  · iexists W'; isplitr; · ipureintro; exact fun _ _ => Or.inl trivial
    iexact HW'
  rw [hr]
  iexact Hob

end Cert.KernelIdeal.Hand

end
-- ==== Proof.KI.GatherBody18.lean ====
/-
  Region 18's body obligation. The region runs the body of region 1 on its own table, array, output block and
  semaphores (the two kernel functions are one function), so the body's run is region 1's, cited at this region's eight
  semaphores; read with this region's invariant it is the pipeline's body obligation for the region's proof data.
-/
import proofs.«402049_j87351044866139_2_alg».proof.Proof.KI.GatherDef18
import proofs.«402049_j87351044866139_2_alg».proof.Proof.KI.GatherBody1

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Idealize.ShloMosaic.Transfers (shareDrop shareTokN)
open Cert.KernelIdeal Cert.KernelIdeal.Gen

variable {F : FTy → Type} [FloatOps F]

local notation "𝕄" => MT nD τ sig Unit (Elt F) ℕ (Pipeline.UD sig nD τ) ℕ

/-! ## The body obligation -/

variable (V : (c : Dev nD) → (b : Ref sig .tc) → Buf (Elt F) ((c : Thread nD τ).loc b))
variable (a1 : (pcfg18 (F := F)).Adm)

/-- The eight cells at zero, listed, each as the body names it. -/
theorem ownSems18_eq (c : Dev nD) :
    (Pipeline.ownSems0 (Ix := Unit) (Name := ℕ) (U := Pipeline.UD sig nD τ) (Lvl := ℕ) (Val := Elt F) (τ := τ) osem18 c : sProp 𝕄)
      = iprop(semVal ((c : Thread nD τ), cell1_0 cc18_scratch0) 0 ∗ semVal ((c : Thread nD τ), cell1_1 cc18_scratch0) 0 ∗ semVal ((c : Thread nD τ), cell1_2 cc18_scratch0) 0 ∗ semVal ((c : Thread nD τ), cell1_3 cc18_scratch0) 0 ∗ semVal ((c : Thread nD τ), cell1_4 cc18_scratch0) 0 ∗ semVal ((c : Thread nD τ), cell1_5 cc18_scratch0) 0 ∗ semVal ((c : Thread nD τ), cell1_6 cc18_scratch0) 0 ∗ semVal ((c : Thread nD τ), cell1_7 cc18_scratch0) 0) := by
  rw [Pipeline.ownSems0_eq_of_list c osem18 [0, 1, 2, 3, 4, 5, 6, 7] (by decide) (by decide)]; rfl

/-- The array the rows are read from, at the contents the region found it with. -/
theorem hbm18_eq (c : Dev nD) :
    (bigSep H18 (fun b => ((c : Thread nD τ).loc b) ↦{fullShare} V c b) : sProp 𝕄)
      = ((Memref.whole main_v61 : Memref sig .tc .hbm S50000x128 .f32).view.loc (c : Thread nD τ) ↦{fullShare} V c main_v61) := by
  unfold H18
  rw [BI.bigSep_eq_bigSepL_of_eq [main_v61] (by decide) (by decide)]; rfl

/-- The table, held whole at the full share, is owned at its contents. -/
theorem tblw18_eq (c : Dev nD) :
    (Pipeline.prefHeld pre18 c (fun _ => fullShare) a1.1 : sProp 𝕄)
      = owns (c : Thread nD τ) (Memref.whole main_v74 : Memref sig .tc .smem S85000 .i32) fullShare (tblw18 a1) := by
  unfold Pipeline.prefHeld
  rw [bigSep_W18, owns_whole]; rfl

set_option maxHeartbeats 4000000 in
/-- The body at every point: the invariant hands the run its table, the array, the eight cells at zero (the scoped rest and
    the generator register ride along), the core's record of waits goes in at whatever the points before left and comes
    back with this point's eight, and the output block, at anything, comes back reading the gathered rows. -/
theorem hbodyG18 [∀ e, Nonempty (Elt F e)] (hlt : ∀ k : S85000.Idx, (tblw18 a1 k).toNat < 50000) (c : Dev nD) :
    BodyObligationLoose (datG18 V a1 (gblk18 V a1) c) (defs₀ (F := F)) Variants.none () Set.univ := by
  refine BodyObligation.loose _ fun t => ?_
  rw [bigSep_W18, bigSep_W18]
  show iprop(iprop(Pipeline.ΦD osem18 spec18 H18 V c ∗ Pipeline.prefHeld pre18 c (fun _ => fullShare) a1.1)
        ∗ (datG18 V a1 (gblk18 V a1) c).owesAt () t.castSucc
        ∗ (∃ d, owns (c : Thread nD τ) (spec18_0.stage ((cfg18 a1).slots t 0)) fullShare ((datG18 V a1 (gblk18 V a1) c).before 0 t d)))
      ⊢ wp frame (wpE (defs₀ (F := F)) Variants.none c none) Set.univ
          (cc18__gather_kernel ((cfg18 a1).grid.coords t) (Memref.whole main_v74) (Memref.isWhole_whole _) (Memref.whole main_v61) (Memref.isWhole_whole _)
            (spec18_0.stage ((cfg18 a1).slots t 0)) (hstage18_0 (((cfg18 a1).slots t 0).cast nbuf18_0)) cc18_scratch0)
          (fun _ => iprop(iprop(Pipeline.ΦD osem18 spec18 H18 V c ∗ Pipeline.prefHeld pre18 c (fun _ => fullShare) a1.1)
            ∗ (datG18 V a1 (gblk18 V a1) c).owesAt () t.succ
            ∗ owns (c : Thread nD τ) (spec18_0.stage ((cfg18 a1).slots t 0)) fullShare (gblk18 V a1 c t)))
  rw [Pipeline.ΦD_eq, ownSems18_eq, hbm18_eq, tblw18_eq]
  unfold Dat.owesAt Pipeline.owesWithin
  rw [show (datG18 V a1 (gblk18 V a1) c).owed t.castSucc = 0 from rfl, show (datG18 V a1 (gblk18 V a1) c).owed t.succ = 0 from rfl]
  have hr : (Memref.whole main_v61 : Memref sig .tc .hbm S50000x128 .f32).view.read (Elt F) (V c main_v61) = V c main_v61 := by
    simp only [Memref.view_whole, View.read_whole]
  iintro ⟨⟨⟨Hsc, Hg, ⟨Hq0, Hq1, Hq2, Hq3, Hq4, Hq5, Hq6, Hq7⟩, Hh⟩, Ht⟩, ⟨%W, -, HW⟩, ⟨%d, Hob⟩⟩
  iapply (kernelRun1 c ((cfg18 a1).grid.coords t) (Memref.whole main_v74) (Memref.isWhole_whole _) (Memref.whole main_v61) (Memref.isWhole_whole _)
    (spec18_0.stage ((cfg18 a1).slots t 0)) (hstage18_0 (((cfg18 a1).slots t 0).cast nbuf18_0)) (tblw18 a1) hlt fullShare fullShare (V c main_v61) cc18_scratch0 W _)
  isplitl [Ht]; · iexact Ht
  isplitl [Hh]; · iexact Hh
  isplitl [Hob]; · iexists _; iexact Hob
  isplitl [Hq0]; · iexact Hq0
  isplitl [Hq1]; · iexact Hq1
  isplitl [Hq2]; · iexact Hq2
  isplitl [Hq3]; · iexact Hq3
  isplitl [Hq4]; · iexact Hq4
  isplitl [Hq5]; · iexact Hq5
  isplitl [Hq6]; · iexact Hq6
  isplitl [Hq7]; · iexact Hq7
  isplitl [HW]; · iexact HW
  iintro ⟨Ht, Hh, Hob, Hq0, Hq1, Hq2, Hq3, Hq4, Hq5, Hq6, Hq7, ⟨%W', HW'⟩⟩
  isplitl [Hsc Hg Hq0 Hq1 Hq2 Hq3 Hq4 Hq5 Hq6 Hq7 Hh Ht]
  · isplitl [Hsc Hg Hq0 Hq1 Hq2 Hq3 Hq4 Hq5 Hq6 Hq7 Hh]
    · isplitl [Hsc]; · iexact Hsc
      isplitl [Hg]; · iexact Hg
      isplitl [Hq0 Hq1 Hq2 Hq3 Hq4 Hq5 Hq6 Hq7]
      · isplitl [Hq0]; · iexact Hq0
        isplitl [Hq1]; · iexact Hq1
        isplitl [Hq2]; · iexact Hq2
        isplitl [Hq3]; · iexact Hq3
        isplitl [Hq4]; · iexact Hq4
        isplitl [Hq5]; · iexact Hq5
        isplitl [Hq6]; · iexact Hq6
        iexact Hq7
      iexact Hh
    iexact Ht
  isplitl [HW']
  · iexists W'; isplitr; · ipureintro; exact fun _ _ => Or.inl trivial
    iexact HW'
  rw [hr]
  iexact Hob

end Cert.KernelIdeal.Hand

end
-- ==== Proof.KI.GatherBody19.lean ====
/-
  Region 19's body obligation. The region runs the body of region 1 on its own table, array, output block and
  semaphores (the two kernel functions are one function), so the body's run is region 1's, cited at this region's eight
  semaphores; read with this region's invariant it is the pipeline's body obligation for the region's proof data.
-/
import proofs.«402049_j87351044866139_2_alg».proof.Proof.KI.GatherDef19
import proofs.«402049_j87351044866139_2_alg».proof.Proof.KI.GatherBody1

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Idealize.ShloMosaic.Transfers (shareDrop shareTokN)
open Cert.KernelIdeal Cert.KernelIdeal.Gen

variable {F : FTy → Type} [FloatOps F]

local notation "𝕄" => MT nD τ sig Unit (Elt F) ℕ (Pipeline.UD sig nD τ) ℕ

/-! ## The body obligation -/

variable (V : (c : Dev nD) → (b : Ref sig .tc) → Buf (Elt F) ((c : Thread nD τ).loc b))
variable (a1 : (pcfg19 (F := F)).Adm)

/-- The eight cells at zero, listed, each as the body names it. -/
theorem ownSems19_eq (c : Dev nD) :
    (Pipeline.ownSems0 (Ix := Unit) (Name := ℕ) (U := Pipeline.UD sig nD τ) (Lvl := ℕ) (Val := Elt F) (τ := τ) osem19 c : sProp 𝕄)
      = iprop(semVal ((c : Thread nD τ), cell1_0 cc19_scratch0) 0 ∗ semVal ((c : Thread nD τ), cell1_1 cc19_scratch0) 0 ∗ semVal ((c : Thread nD τ), cell1_2 cc19_scratch0) 0 ∗ semVal ((c : Thread nD τ), cell1_3 cc19_scratch0) 0 ∗ semVal ((c : Thread nD τ), cell1_4 cc19_scratch0) 0 ∗ semVal ((c : Thread nD τ), cell1_5 cc19_scratch0) 0 ∗ semVal ((c : Thread nD τ), cell1_6 cc19_scratch0) 0 ∗ semVal ((c : Thread nD τ), cell1_7 cc19_scratch0) 0) := by
  rw [Pipeline.ownSems0_eq_of_list c osem19 [0, 1, 2, 3, 4, 5, 6, 7] (by decide) (by decide)]; rfl

/-- The array the rows are read from, at the contents the region found it with. -/
theorem hbm19_eq (c : Dev nD) :
    (bigSep H19 (fun b => ((c : Thread nD τ).loc b) ↦{fullShare} V c b) : sProp 𝕄)
      = ((Memref.whole main_v61 : Memref sig .tc .hbm S50000x128 .f32).view.loc (c : Thread nD τ) ↦{fullShare} V c main_v61) := by
  unfold H19
  rw [BI.bigSep_eq_bigSepL_of_eq [main_v61] (by decide) (by decide)]; rfl

/-- The table, held whole at the full share, is owned at its contents. -/
theorem tblw19_eq (c : Dev nD) :
    (Pipeline.prefHeld pre19 c (fun _ => fullShare) a1.1 : sProp 𝕄)
      = owns (c : Thread nD τ) (Memref.whole main_v76 : Memref sig .tc .smem S85000 .i32) fullShare (tblw19 a1) := by
  unfold Pipeline.prefHeld
  rw [bigSep_W19, owns_whole]; rfl

set_option maxHeartbeats 4000000 in
/-- The body at every point: the invariant hands the run its table, the array, the eight cells at zero (the scoped rest and
    the generator register ride along), the core's record of waits goes in at whatever the points before left and comes
    back with this point's eight, and the output block, at anything, comes back reading the gathered rows. -/
theorem hbodyG19 [∀ e, Nonempty (Elt F e)] (hlt : ∀ k : S85000.Idx, (tblw19 a1 k).toNat < 50000) (c : Dev nD) :
    BodyObligationLoose (datG19 V a1 (gblk19 V a1) c) (defs₀ (F := F)) Variants.none () Set.univ := by
  refine BodyObligation.loose _ fun t => ?_
  rw [bigSep_W19, bigSep_W19]
  show iprop(iprop(Pipeline.ΦD osem19 spec19 H19 V c ∗ Pipeline.prefHeld pre19 c (fun _ => fullShare) a1.1)
        ∗ (datG19 V a1 (gblk19 V a1) c).owesAt () t.castSucc
        ∗ (∃ d, owns (c : Thread nD τ) (spec19_0.stage ((cfg19 a1).slots t 0)) fullShare ((datG19 V a1 (gblk19 V a1) c).before 0 t d)))
      ⊢ wp frame (wpE (defs₀ (F := F)) Variants.none c none) Set.univ
          (cc19__gather_kernel ((cfg19 a1).grid.coords t) (Memref.whole main_v76) (Memref.isWhole_whole _) (Memref.whole main_v61) (Memref.isWhole_whole _)
            (spec19_0.stage ((cfg19 a1).slots t 0)) (hstage19_0 (((cfg19 a1).slots t 0).cast nbuf19_0)) cc19_scratch0)
          (fun _ => iprop(iprop(Pipeline.ΦD osem19 spec19 H19 V c ∗ Pipeline.prefHeld pre19 c (fun _ => fullShare) a1.1)
            ∗ (datG19 V a1 (gblk19 V a1) c).owesAt () t.succ
            ∗ owns (c : Thread nD τ) (spec19_0.stage ((cfg19 a1).slots t 0)) fullShare (gblk19 V a1 c t)))
  rw [Pipeline.ΦD_eq, ownSems19_eq, hbm19_eq, tblw19_eq]
  unfold Dat.owesAt Pipeline.owesWithin
  rw [show (datG19 V a1 (gblk19 V a1) c).owed t.castSucc = 0 from rfl, show (datG19 V a1 (gblk19 V a1) c).owed t.succ = 0 from rfl]
  have hr : (Memref.whole main_v61 : Memref sig .tc .hbm S50000x128 .f32).view.read (Elt F) (V c main_v61) = V c main_v61 := by
    simp only [Memref.view_whole, View.read_whole]
  iintro ⟨⟨⟨Hsc, Hg, ⟨Hq0, Hq1, Hq2, Hq3, Hq4, Hq5, Hq6, Hq7⟩, Hh⟩, Ht⟩, ⟨%W, -, HW⟩, ⟨%d, Hob⟩⟩
  iapply (kernelRun1 c ((cfg19 a1).grid.coords t) (Memref.whole main_v76) (Memref.isWhole_whole _) (Memref.whole main_v61) (Memref.isWhole_whole _)
    (spec19_0.stage ((cfg19 a1).slots t 0)) (hstage19_0 (((cfg19 a1).slots t 0).cast nbuf19_0)) (tblw19 a1) hlt fullShare fullShare (V c main_v61) cc19_scratch0 W _)
  isplitl [Ht]; · iexact Ht
  isplitl [Hh]; · iexact Hh
  isplitl [Hob]; · iexists _; iexact Hob
  isplitl [Hq0]; · iexact Hq0
  isplitl [Hq1]; · iexact Hq1
  isplitl [Hq2]; · iexact Hq2
  isplitl [Hq3]; · iexact Hq3
  isplitl [Hq4]; · iexact Hq4
  isplitl [Hq5]; · iexact Hq5
  isplitl [Hq6]; · iexact Hq6
  isplitl [Hq7]; · iexact Hq7
  isplitl [HW]; · iexact HW
  iintro ⟨Ht, Hh, Hob, Hq0, Hq1, Hq2, Hq3, Hq4, Hq5, Hq6, Hq7, ⟨%W', HW'⟩⟩
  isplitl [Hsc Hg Hq0 Hq1 Hq2 Hq3 Hq4 Hq5 Hq6 Hq7 Hh Ht]
  · isplitl [Hsc Hg Hq0 Hq1 Hq2 Hq3 Hq4 Hq5 Hq6 Hq7 Hh]
    · isplitl [Hsc]; · iexact Hsc
      isplitl [Hg]; · iexact Hg
      isplitl [Hq0 Hq1 Hq2 Hq3 Hq4 Hq5 Hq6 Hq7]
      · isplitl [Hq0]; · iexact Hq0
        isplitl [Hq1]; · iexact Hq1
        isplitl [Hq2]; · iexact Hq2
        isplitl [Hq3]; · iexact Hq3
        isplitl [Hq4]; · iexact Hq4
        isplitl [Hq5]; · iexact Hq5
        isplitl [Hq6]; · iexact Hq6
        iexact Hq7
      iexact Hh
    iexact Ht
  isplitl [HW']
  · iexists W'; isplitr; · ipureintro; exact fun _ _ => Or.inl trivial
    iexact HW'
  rw [hr]
  iexact Hob

end Cert.KernelIdeal.Hand

end
-- ==== Proof.KI.Regs3.lean ====
import proofs.«402049_j87351044866139_2_alg».proof.Proof.KI.Fam
import proofs.«402049_j87351044866139_2_alg».proof.Proof.KI.Tables
import proofs.«402049_j87351044866139_2_alg».proof.Proof.KI.GatherBody15
import proofs.«402049_j87351044866139_2_alg».proof.Proof.KI.GatherBody16
import proofs.«402049_j87351044866139_2_alg».proof.Proof.KI.GatherBody17
import proofs.«402049_j87351044866139_2_alg».proof.Proof.KI.GatherBody18
import proofs.«402049_j87351044866139_2_alg».proof.Proof.KI.GatherBody19
import Idealize.ShloMosaic.Lib.Pipeline.RegionsLoop

/-! The records of regions 15 to 19 over the thread states: each entered from every unscoped buffer at the real valuation
    before it and left at the one after it; for a gather region, first that every word of its table is a node's number. -/

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg BodyObligation BodyObligationLoose)

variable {F : FTy → Type} [FloatOps F]

local notation "𝕄" => MT nD τ sig Unit (Elt F) ℕ UU ℕ

set_option maxHeartbeats 1000000 in
/-- Every word of region 15's table is a node's number: the data's table is what the real valuation at the region's entry
    holds in the table's buffer; that valuation is the run's own, whose table is the closed one of the launch memory. -/
theorem hlt15 (m : (ℓ : Loc nD τ sig) → Buf (Elt F) ℓ) (hm : ∀ i : S2x800000.Idx, ((V0 m c₀ main_arg1 : IVec S2x800000 32) i).toNat < 50000) :
    ∀ k : S85000.Idx, (tblw15 (a15 m) k).toNat < 50000 := by
  have h1 : tblw15 (a15 m) = (U33 m c₀ main_v68 : IVec S85000 32) := by
    unfold a15
    rfl
  have h2 : ∀ W : Valuation τ sig (Elt F), V33 m (outsU m) c₀ = W → (W main_v68 : IVec S85000 32) = tbl15 m c₀ :=
    fun W hW => by subst hW; exact tbl15_eq m (outsU m) c₀
  have e : tblw15 (a15 m) = tbl15 m c₀ := h1.trans (h2 (U33 m c₀) (V33_eq m c₀))
  intro k
  rw [e]; exact tbl15_lt m c₀ hm k
set_option maxHeartbeats 1000000 in
set_option backward.isDefEq.respectTransparency.types false in
/-- REGION 15 over the thread state: entered from every unscoped buffer at `U33`, left at `U34`. -/
def reg15 (m : (ℓ : Loc nD τ sig) → Buf (Elt F) ℓ) (hm : ∀ i : S2x800000.Idx, ((V0 m c₀ main_arg1 : IVec S2x800000 32) i).toNat < 50000) :
    RegionSeg (pcfgs (F := F)) (adm m) (pdats m) () defs₀ 𝒱₀ L lv 15 where
  win := (launch15 (F := F)).win.to₀
  block_pos := (launch15 (F := F)).block_pos
  stage_whole := (launch15 (F := F)).stage_whole
  K := Fin 8
  osem := osem15
  ho := ownSemFacts15
  hbody c := hbodyG15 (atTc (U33 m)) (a15 m) (hlt15 m hm) c
  hwaits := Pipeline.hwaits_of_owed_zero _ _ _ _ L lv 15 fun _ _ => rfl
  pre c := iprop(StableHlo.held (c : Thread nD τ) (Pipeline.ucRefs τ sig) (U33 m c) ∗ R (F := F) c)
  post c := iprop(StableHlo.held (c : Thread nD τ) (Pipeline.ucRefs τ sig) (U34 m c) ∗ R (F := F) c)
  X c := XG15 (atTc (U33 m)) c
  Y c := YG15 (atTc (U33 m)) (a15 m) c
  Z c := ZG15 (atTc (U33 m)) c
  hentry c := by
    have hsplit := Pipeline.arrays_of_unscopedBufs (p := 15) (pcfgs (F := F)) (adm m) (pdats m) (launch15 (F := F)).win (launch15 (F := F)).arr_whole c
      ((pdats m 15 c).share_full fun _ => rfl) (atTc (U33 m) c) (fun _ => rfl)
    have h := hentryG15 (atTc (U33 m)) (a15 m) (gblk15 (atTc (U33 m)) (a15 m)) c (hpf15 m c) hsplit
    rw [Pipeline.unscopedBufs_held] at h
    exact h
  hin c := hinG15 (atTc (U33 m)) (a15 m) (gblk15 (atTc (U33 m)) (a15 m)) c
  hout c := houtG15 (atTc (U33 m)) (a15 m) (gblk15 (atTc (U33 m)) (a15 m)) c
  hexit c := by
    have hjoin := Pipeline.unscopedBufs_of_arrays (p := 15) (pcfgs (F := F)) (adm m) (Ix := Unit) (Name := ℕ) (U := UU) (Lvl := ℕ)
      (launch15 (F := F)).win (launch15 (F := F)).arr_whole c (pdats m) ((pdats m 15 c).share_full fun _ => rfl)
      (atTc (U33 m) c) (atTc (U34 m) c) ((pdats m 15 c).arrAt · (cfg15 (a15 m)).N) (hF15 m c) (hrest15 m c)
    have h := hexitG15 (atTc (U33 m)) (a15 m) (gblk15 (atTc (U33 m)) (a15 m)) (atTc (U34 m)) c (hpf15 m c) hjoin
    rw [Pipeline.unscopedBufs_held] at h
    exact h

set_option maxHeartbeats 1000000 in
/-- Every word of region 16's table is a node's number: the data's table is what the real valuation at the region's entry
    holds in the table's buffer; that valuation is the run's own, whose table is the closed one of the launch memory. -/
theorem hlt16 (m : (ℓ : Loc nD τ sig) → Buf (Elt F) ℓ) (hm : ∀ i : S2x800000.Idx, ((V0 m c₀ main_arg1 : IVec S2x800000 32) i).toNat < 50000) :
    ∀ k : S85000.Idx, (tblw16 (a16 m) k).toNat < 50000 := by
  have h1 : tblw16 (a16 m) = (U35 m c₀ main_v70 : IVec S85000 32) := by
    unfold a16
    rfl
  have h2 : ∀ W : Valuation τ sig (Elt F), V35 m (outsU m) c₀ = W → (W main_v70 : IVec S85000 32) = tbl16 m c₀ :=
    fun W hW => by subst hW; exact tbl16_eq m (outsU m) c₀
  have e : tblw16 (a16 m) = tbl16 m c₀ := h1.trans (h2 (U35 m c₀) (V35_eq m c₀))
  intro k
  rw [e]; exact tbl16_lt m c₀ hm k
set_option maxHeartbeats 1000000 in
set_option backward.isDefEq.respectTransparency.types false in
/-- REGION 16 over the thread state: entered from every unscoped buffer at `U35`, left at `U36`. -/
def reg16 (m : (ℓ : Loc nD τ sig) → Buf (Elt F) ℓ) (hm : ∀ i : S2x800000.Idx, ((V0 m c₀ main_arg1 : IVec S2x800000 32) i).toNat < 50000) :
    RegionSeg (pcfgs (F := F)) (adm m) (pdats m) () defs₀ 𝒱₀ L lv 16 where
  win := (launch16 (F := F)).win.to₀
  block_pos := (launch16 (F := F)).block_pos
  stage_whole := (launch16 (F := F)).stage_whole
  K := Fin 8
  osem := osem16
  ho := ownSemFacts16
  hbody c := hbodyG16 (atTc (U35 m)) (a16 m) (hlt16 m hm) c
  hwaits := Pipeline.hwaits_of_owed_zero _ _ _ _ L lv 16 fun _ _ => rfl
  pre c := iprop(StableHlo.held (c : Thread nD τ) (Pipeline.ucRefs τ sig) (U35 m c) ∗ R (F := F) c)
  post c := iprop(StableHlo.held (c : Thread nD τ) (Pipeline.ucRefs τ sig) (U36 m c) ∗ R (F := F) c)
  X c := XG16 (atTc (U35 m)) c
  Y c := YG16 (atTc (U35 m)) (a16 m) c
  Z c := ZG16 (atTc (U35 m)) c
  hentry c := by
    have hsplit := Pipeline.arrays_of_unscopedBufs (p := 16) (pcfgs (F := F)) (adm m) (pdats m) (launch16 (F := F)).win (launch16 (F := F)).arr_whole c
      ((pdats m 16 c).share_full fun _ => rfl) (atTc (U35 m) c) (fun _ => rfl)
    have h := hentryG16 (atTc (U35 m)) (a16 m) (gblk16 (atTc (U35 m)) (a16 m)) c (hpf16 m c) hsplit
    rw [Pipeline.unscopedBufs_held] at h
    exact h
  hin c := hinG16 (atTc (U35 m)) (a16 m) (gblk16 (atTc (U35 m)) (a16 m)) c
  hout c := houtG16 (atTc (U35 m)) (a16 m) (gblk16 (atTc (U35 m)) (a16 m)) c
  hexit c := by
    have hjoin := Pipeline.unscopedBufs_of_arrays (p := 16) (pcfgs (F := F)) (adm m) (Ix := Unit) (Name := ℕ) (U := UU) (Lvl := ℕ)
      (launch16 (F := F)).win (launch16 (F := F)).arr_whole c (pdats m) ((pdats m 16 c).share_full fun _ => rfl)
      (atTc (U35 m) c) (atTc (U36 m) c) ((pdats m 16 c).arrAt · (cfg16 (a16 m)).N) (hF16 m c) (hrest16 m c)
    have h := hexitG16 (atTc (U35 m)) (a16 m) (gblk16 (atTc (U35 m)) (a16 m)) (atTc (U36 m)) c (hpf16 m c) hjoin
    rw [Pipeline.unscopedBufs_held] at h
    exact h

set_option maxHeartbeats 1000000 in
/-- Every word of region 17's table is a node's number: the data's table is what the real valuation at the region's entry
    holds in the table's buffer; that valuation is the run's own, whose table is the closed one of the launch memory. -/
theorem hlt17 (m : (ℓ : Loc nD τ sig) → Buf (Elt F) ℓ) (hm : ∀ i : S2x800000.Idx, ((V0 m c₀ main_arg1 : IVec S2x800000 32) i).toNat < 50000) :
    ∀ k : S85000.Idx, (tblw17 (a17 m) k).toNat < 50000 := by
  have h1 : tblw17 (a17 m) = (U37 m c₀ main_v72 : IVec S85000 32) := by
    unfold a17
    rfl
  have h2 : ∀ W : Valuation τ sig (Elt F), V37 m (outsU m) c₀ = W → (W main_v72 : IVec S85000 32) = tbl17 m c₀ :=
    fun W hW => by subst hW; exact tbl17_eq m (outsU m) c₀
  have e : tblw17 (a17 m) = tbl17 m c₀ := h1.trans (h2 (U37 m c₀) (V37_eq m c₀))
  intro k
  rw [e]; exact tbl17_lt m c₀ hm k
set_option maxHeartbeats 1000000 in
set_option backward.isDefEq.respectTransparency.types false in
/-- REGION 17 over the thread state: entered from every unscoped buffer at `U37`, left at `U38`. -/
def reg17 (m : (ℓ : Loc nD τ sig) → Buf (Elt F) ℓ) (hm : ∀ i : S2x800000.Idx, ((V0 m c₀ main_arg1 : IVec S2x800000 32) i).toNat < 50000) :
    RegionSeg (pcfgs (F := F)) (adm m) (pdats m) () defs₀ 𝒱₀ L lv 17 where
  win := (launch17 (F := F)).win.to₀
  block_pos := (launch17 (F := F)).block_pos
  stage_whole := (launch17 (F := F)).stage_whole
  K := Fin 8
  osem := osem17
  ho := ownSemFacts17
  hbody c := hbodyG17 (atTc (U37 m)) (a17 m) (hlt17 m hm) c
  hwaits := Pipeline.hwaits_of_owed_zero _ _ _ _ L lv 17 fun _ _ => rfl
  pre c := iprop(StableHlo.held (c : Thread nD τ) (Pipeline.ucRefs τ sig) (U37 m c) ∗ R (F := F) c)
  post c := iprop(StableHlo.held (c : Thread nD τ) (Pipeline.ucRefs τ sig) (U38 m c) ∗ R (F := F) c)
  X c := XG17 (atTc (U37 m)) c
  Y c := YG17 (atTc (U37 m)) (a17 m) c
  Z c := ZG17 (atTc (U37 m)) c
  hentry c := by
    have hsplit := Pipeline.arrays_of_unscopedBufs (p := 17) (pcfgs (F := F)) (adm m) (pdats m) (launch17 (F := F)).win (launch17 (F := F)).arr_whole c
      ((pdats m 17 c).share_full fun _ => rfl) (atTc (U37 m) c) (fun _ => rfl)
    have h := hentryG17 (atTc (U37 m)) (a17 m) (gblk17 (atTc (U37 m)) (a17 m)) c (hpf17 m c) hsplit
    rw [Pipeline.unscopedBufs_held] at h
    exact h
  hin c := hinG17 (atTc (U37 m)) (a17 m) (gblk17 (atTc (U37 m)) (a17 m)) c
  hout c := houtG17 (atTc (U37 m)) (a17 m) (gblk17 (atTc (U37 m)) (a17 m)) c
  hexit c := by
    have hjoin := Pipeline.unscopedBufs_of_arrays (p := 17) (pcfgs (F := F)) (adm m) (Ix := Unit) (Name := ℕ) (U := UU) (Lvl := ℕ)
      (launch17 (F := F)).win (launch17 (F := F)).arr_whole c (pdats m) ((pdats m 17 c).share_full fun _ => rfl)
      (atTc (U37 m) c) (atTc (U38 m) c) ((pdats m 17 c).arrAt · (cfg17 (a17 m)).N) (hF17 m c) (hrest17 m c)
    have h := hexitG17 (atTc (U37 m)) (a17 m) (gblk17 (atTc (U37 m)) (a17 m)) (atTc (U38 m)) c (hpf17 m c) hjoin
    rw [Pipeline.unscopedBufs_held] at h
    exact h

set_option maxHeartbeats 1000000 in
/-- Every word of region 18's table is a node's number: the data's table is what the real valuation at the region's entry
    holds in the table's buffer; that valuation is the run's own, whose table is the closed one of the launch memory. -/
theorem hlt18 (m : (ℓ : Loc nD τ sig) → Buf (Elt F) ℓ) (hm : ∀ i : S2x800000.Idx, ((V0 m c₀ main_arg1 : IVec S2x800000 32) i).toNat < 50000) :
    ∀ k : S85000.Idx, (tblw18 (a18 m) k).toNat < 50000 := by
  have h1 : tblw18 (a18 m) = (U39 m c₀ main_v74 : IVec S85000 32) := by
    unfold a18
    rfl
  have h2 : ∀ W : Valuation τ sig (Elt F), V39 m (outsU m) c₀ = W → (W main_v74 : IVec S85000 32) = tbl18 m c₀ :=
    fun W hW => by subst hW; exact tbl18_eq m (outsU m) c₀
  have e : tblw18 (a18 m) = tbl18 m c₀ := h1.trans (h2 (U39 m c₀) (V39_eq m c₀))
  intro k
  rw [e]; exact tbl18_lt m c₀ hm k
set_option maxHeartbeats 1000000 in
set_option backward.isDefEq.respectTransparency.types false in
/-- REGION 18 over the thread state: entered from every unscoped buffer at `U39`, left at `U40`. -/
def reg18 (m : (ℓ : Loc nD τ sig) → Buf (Elt F) ℓ) (hm : ∀ i : S2x800000.Idx, ((V0 m c₀ main_arg1 : IVec S2x800000 32) i).toNat < 50000) :
    RegionSeg (pcfgs (F := F)) (adm m) (pdats m) () defs₀ 𝒱₀ L lv 18 where
  win := (launch18 (F := F)).win.to₀
  block_pos := (launch18 (F := F)).block_pos
  stage_whole := (launch18 (F := F)).stage_whole
  K := Fin 8
  osem := osem18
  ho := ownSemFacts18
  hbody c := hbodyG18 (atTc (U39 m)) (a18 m) (hlt18 m hm) c
  hwaits := Pipeline.hwaits_of_owed_zero _ _ _ _ L lv 18 fun _ _ => rfl
  pre c := iprop(StableHlo.held (c : Thread nD τ) (Pipeline.ucRefs τ sig) (U39 m c) ∗ R (F := F) c)
  post c := iprop(StableHlo.held (c : Thread nD τ) (Pipeline.ucRefs τ sig) (U40 m c) ∗ R (F := F) c)
  X c := XG18 (atTc (U39 m)) c
  Y c := YG18 (atTc (U39 m)) (a18 m) c
  Z c := ZG18 (atTc (U39 m)) c
  hentry c := by
    have hsplit := Pipeline.arrays_of_unscopedBufs (p := 18) (pcfgs (F := F)) (adm m) (pdats m) (launch18 (F := F)).win (launch18 (F := F)).arr_whole c
      ((pdats m 18 c).share_full fun _ => rfl) (atTc (U39 m) c) (fun _ => rfl)
    have h := hentryG18 (atTc (U39 m)) (a18 m) (gblk18 (atTc (U39 m)) (a18 m)) c (hpf18 m c) hsplit
    rw [Pipeline.unscopedBufs_held] at h
    exact h
  hin c := hinG18 (atTc (U39 m)) (a18 m) (gblk18 (atTc (U39 m)) (a18 m)) c
  hout c := houtG18 (atTc (U39 m)) (a18 m) (gblk18 (atTc (U39 m)) (a18 m)) c
  hexit c := by
    have hjoin := Pipeline.unscopedBufs_of_arrays (p := 18) (pcfgs (F := F)) (adm m) (Ix := Unit) (Name := ℕ) (U := UU) (Lvl := ℕ)
      (launch18 (F := F)).win (launch18 (F := F)).arr_whole c (pdats m) ((pdats m 18 c).share_full fun _ => rfl)
      (atTc (U39 m) c) (atTc (U40 m) c) ((pdats m 18 c).arrAt · (cfg18 (a18 m)).N) (hF18 m c) (hrest18 m c)
    have h := hexitG18 (atTc (U39 m)) (a18 m) (gblk18 (atTc (U39 m)) (a18 m)) (atTc (U40 m)) c (hpf18 m c) hjoin
    rw [Pipeline.unscopedBufs_held] at h
    exact h

set_option maxHeartbeats 1000000 in
/-- Every word of region 19's table is a node's number: the data's table is what the real valuation at the region's entry
    holds in the table's buffer; that valuation is the run's own, whose table is the closed one of the launch memory. -/
theorem hlt19 (m : (ℓ : Loc nD τ sig) → Buf (Elt F) ℓ) (hm : ∀ i : S2x800000.Idx, ((V0 m c₀ main_arg1 : IVec S2x800000 32) i).toNat < 50000) :
    ∀ k : S85000.Idx, (tblw19 (a19 m) k).toNat < 50000 := by
  have h1 : tblw19 (a19 m) = (U41 m c₀ main_v76 : IVec S85000 32) := by
    unfold a19
    rfl
  have h2 : ∀ W : Valuation τ sig (Elt F), V41 m (outsU m) c₀ = W → (W main_v76 : IVec S85000 32) = tbl19 m c₀ :=
    fun W hW => by subst hW; exact tbl19_eq m (outsU m) c₀
  have e : tblw19 (a19 m) = tbl19 m c₀ := h1.trans (h2 (U41 m c₀) (V41_eq m c₀))
  intro k
  rw [e]; exact tbl19_lt m c₀ hm k
set_option maxHeartbeats 1000000 in
set_option backward.isDefEq.respectTransparency.types false in
/-- REGION 19 over the thread state: entered from every unscoped buffer at `U41`, left at `U42`. -/
def reg19 (m : (ℓ : Loc nD τ sig) → Buf (Elt F) ℓ) (hm : ∀ i : S2x800000.Idx, ((V0 m c₀ main_arg1 : IVec S2x800000 32) i).toNat < 50000) :
    RegionSeg (pcfgs (F := F)) (adm m) (pdats m) () defs₀ 𝒱₀ L lv 19 where
  win := (launch19 (F := F)).win.to₀
  block_pos := (launch19 (F := F)).block_pos
  stage_whole := (launch19 (F := F)).stage_whole
  K := Fin 8
  osem := osem19
  ho := ownSemFacts19
  hbody c := hbodyG19 (atTc (U41 m)) (a19 m) (hlt19 m hm) c
  hwaits := Pipeline.hwaits_of_owed_zero _ _ _ _ L lv 19 fun _ _ => rfl
  pre c := iprop(StableHlo.held (c : Thread nD τ) (Pipeline.ucRefs τ sig) (U41 m c) ∗ R (F := F) c)
  post c := iprop(StableHlo.held (c : Thread nD τ) (Pipeline.ucRefs τ sig) (U42 m c) ∗ R (F := F) c)
  X c := XG19 (atTc (U41 m)) c
  Y c := YG19 (atTc (U41 m)) (a19 m) c
  Z c := ZG19 (atTc (U41 m)) c
  hentry c := by
    have hsplit := Pipeline.arrays_of_unscopedBufs (p := 19) (pcfgs (F := F)) (adm m) (pdats m) (launch19 (F := F)).win (launch19 (F := F)).arr_whole c
      ((pdats m 19 c).share_full fun _ => rfl) (atTc (U41 m) c) (fun _ => rfl)
    have h := hentryG19 (atTc (U41 m)) (a19 m) (gblk19 (atTc (U41 m)) (a19 m)) c (hpf19 m c) hsplit
    rw [Pipeline.unscopedBufs_held] at h
    exact h
  hin c := hinG19 (atTc (U41 m)) (a19 m) (gblk19 (atTc (U41 m)) (a19 m)) c
  hout c := houtG19 (atTc (U41 m)) (a19 m) (gblk19 (atTc (U41 m)) (a19 m)) c
  hexit c := by
    have hjoin := Pipeline.unscopedBufs_of_arrays (p := 19) (pcfgs (F := F)) (adm m) (Ix := Unit) (Name := ℕ) (U := UU) (Lvl := ℕ)
      (launch19 (F := F)).win (launch19 (F := F)).arr_whole c (pdats m) ((pdats m 19 c).share_full fun _ => rfl)
      (atTc (U41 m) c) (atTc (U42 m) c) ((pdats m 19 c).arrAt · (cfg19 (a19 m)).N) (hF19 m c) (hrest19 m c)
    have h := hexitG19 (atTc (U41 m)) (a19 m) (gblk19 (atTc (U41 m)) (a19 m)) (atTc (U42 m)) c (hpf19 m c) hjoin
    rw [Pipeline.unscopedBufs_held] at h
    exact h

end Cert.KernelIdeal.Hand

end
-- ==== Proof.KI.GatherBody20.lean ====
/-
  Region 20's body obligation. The region runs the body of region 1 on its own table, array, output block and
  semaphores (the two kernel functions are one function), so the body's run is region 1's, cited at this region's eight
  semaphores; read with this region's invariant it is the pipeline's body obligation for the region's proof data.
-/
import proofs.«402049_j87351044866139_2_alg».proof.Proof.KI.GatherDef20
import proofs.«402049_j87351044866139_2_alg».proof.Proof.KI.GatherBody1

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Idealize.ShloMosaic.Transfers (shareDrop shareTokN)
open Cert.KernelIdeal Cert.KernelIdeal.Gen

variable {F : FTy → Type} [FloatOps F]

local notation "𝕄" => MT nD τ sig Unit (Elt F) ℕ (Pipeline.UD sig nD τ) ℕ

/-! ## The body obligation -/

variable (V : (c : Dev nD) → (b : Ref sig .tc) → Buf (Elt F) ((c : Thread nD τ).loc b))
variable (a1 : (pcfg20 (F := F)).Adm)

/-- The eight cells at zero, listed, each as the body names it. -/
theorem ownSems20_eq (c : Dev nD) :
    (Pipeline.ownSems0 (Ix := Unit) (Name := ℕ) (U := Pipeline.UD sig nD τ) (Lvl := ℕ) (Val := Elt F) (τ := τ) osem20 c : sProp 𝕄)
      = iprop(semVal ((c : Thread nD τ), cell1_0 cc20_scratch0) 0 ∗ semVal ((c : Thread nD τ), cell1_1 cc20_scratch0) 0 ∗ semVal ((c : Thread nD τ), cell1_2 cc20_scratch0) 0 ∗ semVal ((c : Thread nD τ), cell1_3 cc20_scratch0) 0 ∗ semVal ((c : Thread nD τ), cell1_4 cc20_scratch0) 0 ∗ semVal ((c : Thread nD τ), cell1_5 cc20_scratch0) 0 ∗ semVal ((c : Thread nD τ), cell1_6 cc20_scratch0) 0 ∗ semVal ((c : Thread nD τ), cell1_7 cc20_scratch0) 0) := by
  rw [Pipeline.ownSems0_eq_of_list c osem20 [0, 1, 2, 3, 4, 5, 6, 7] (by decide) (by decide)]; rfl

/-- The array the rows are read from, at the contents the region found it with. -/
theorem hbm20_eq (c : Dev nD) :
    (bigSep H20 (fun b => ((c : Thread nD τ).loc b) ↦{fullShare} V c b) : sProp 𝕄)
      = ((Memref.whole main_v61 : Memref sig .tc .hbm S50000x128 .f32).view.loc (c : Thread nD τ) ↦{fullShare} V c main_v61) := by
  unfold H20
  rw [BI.bigSep_eq_bigSepL_of_eq [main_v61] (by decide) (by decide)]; rfl

/-- The table, held whole at the full share, is owned at its contents. -/
theorem tblw20_eq (c : Dev nD) :
    (Pipeline.prefHeld pre20 c (fun _ => fullShare) a1.1 : sProp 𝕄)
      = owns (c : Thread nD τ) (Memref.whole main_v78 : Memref sig .tc .smem S85000 .i32) fullShare (tblw20 a1) := by
  unfold Pipeline.prefHeld
  rw [bigSep_W20, owns_whole]; rfl

set_option maxHeartbeats 4000000 in
/-- The body at every point: the invariant hands the run its table, the array, the eight cells at zero (the scoped rest and
    the generator register ride along), the core's record of waits goes in at whatever the points before left and comes
    back with this point's eight, and the output block, at anything, comes back reading the gathered rows. -/
theorem hbodyG20 [∀ e, Nonempty (Elt F e)] (hlt : ∀ k : S85000.Idx, (tblw20 a1 k).toNat < 50000) (c : Dev nD) :
    BodyObligationLoose (datG20 V a1 (gblk20 V a1) c) (defs₀ (F := F)) Variants.none () Set.univ := by
  refine BodyObligation.loose _ fun t => ?_
  rw [bigSep_W20, bigSep_W20]
  show iprop(iprop(Pipeline.ΦD osem20 spec20 H20 V c ∗ Pipeline.prefHeld pre20 c (fun _ => fullShare) a1.1)
        ∗ (datG20 V a1 (gblk20 V a1) c).owesAt () t.castSucc
        ∗ (∃ d, owns (c : Thread nD τ) (spec20_0.stage ((cfg20 a1).slots t 0)) fullShare ((datG20 V a1 (gblk20 V a1) c).before 0 t d)))
      ⊢ wp frame (wpE (defs₀ (F := F)) Variants.none c none) Set.univ
          (cc20__gather_kernel ((cfg20 a1).grid.coords t) (Memref.whole main_v78) (Memref.isWhole_whole _) (Memref.whole main_v61) (Memref.isWhole_whole _)
            (spec20_0.stage ((cfg20 a1).slots t 0)) (hstage20_0 (((cfg20 a1).slots t 0).cast nbuf20_0)) cc20_scratch0)
          (fun _ => iprop(iprop(Pipeline.ΦD osem20 spec20 H20 V c ∗ Pipeline.prefHeld pre20 c (fun _ => fullShare) a1.1)
            ∗ (datG20 V a1 (gblk20 V a1) c).owesAt () t.succ
            ∗ owns (c : Thread nD τ) (spec20_0.stage ((cfg20 a1).slots t 0)) fullShare (gblk20 V a1 c t)))
  rw [Pipeline.ΦD_eq, ownSems20_eq, hbm20_eq, tblw20_eq]
  unfold Dat.owesAt Pipeline.owesWithin
  rw [show (datG20 V a1 (gblk20 V a1) c).owed t.castSucc = 0 from rfl, show (datG20 V a1 (gblk20 V a1) c).owed t.succ = 0 from rfl]
  have hr : (Memref.whole main_v61 : Memref sig .tc .hbm S50000x128 .f32).view.read (Elt F) (V c main_v61) = V c main_v61 := by
    simp only [Memref.view_whole, View.read_whole]
  iintro ⟨⟨⟨Hsc, Hg, ⟨Hq0, Hq1, Hq2, Hq3, Hq4, Hq5, Hq6, Hq7⟩, Hh⟩, Ht⟩, ⟨%W, -, HW⟩, ⟨%d, Hob⟩⟩
  iapply (kernelRun1 c ((cfg20 a1).grid.coords t) (Memref.whole main_v78) (Memref.isWhole_whole _) (Memref.whole main_v61) (Memref.isWhole_whole _)
    (spec20_0.stage ((cfg20 a1).slots t 0)) (hstage20_0 (((cfg20 a1).slots t 0).cast nbuf20_0)) (tblw20 a1) hlt fullShare fullShare (V c main_v61) cc20_scratch0 W _)
  isplitl [Ht]; · iexact Ht
  isplitl [Hh]; · iexact Hh
  isplitl [Hob]; · iexists _; iexact Hob
  isplitl [Hq0]; · iexact Hq0
  isplitl [Hq1]; · iexact Hq1
  isplitl [Hq2]; · iexact Hq2
  isplitl [Hq3]; · iexact Hq3
  isplitl [Hq4]; · iexact Hq4
  isplitl [Hq5]; · iexact Hq5
  isplitl [Hq6]; · iexact Hq6
  isplitl [Hq7]; · iexact Hq7
  isplitl [HW]; · iexact HW
  iintro ⟨Ht, Hh, Hob, Hq0, Hq1, Hq2, Hq3, Hq4, Hq5, Hq6, Hq7, ⟨%W', HW'⟩⟩
  isplitl [Hsc Hg Hq0 Hq1 Hq2 Hq3 Hq4 Hq5 Hq6 Hq7 Hh Ht]
  · isplitl [Hsc Hg Hq0 Hq1 Hq2 Hq3 Hq4 Hq5 Hq6 Hq7 Hh]
    · isplitl [Hsc]; · iexact Hsc
      isplitl [Hg]; · iexact Hg
      isplitl [Hq0 Hq1 Hq2 Hq3 Hq4 Hq5 Hq6 Hq7]
      · isplitl [Hq0]; · iexact Hq0
        isplitl [Hq1]; · iexact Hq1
        isplitl [Hq2]; · iexact Hq2
        isplitl [Hq3]; · iexact Hq3
        isplitl [Hq4]; · iexact Hq4
        isplitl [Hq5]; · iexact Hq5
        isplitl [Hq6]; · iexact Hq6
        iexact Hq7
      iexact Hh
    iexact Ht
  isplitl [HW']
  · iexists W'; isplitr; · ipureintro; exact fun _ _ => Or.inl trivial
    iexact HW'
  rw [hr]
  iexact Hob

end Cert.KernelIdeal.Hand

end
-- ==== Proof.KI.GatherBody21.lean ====
/-
  Region 21's body obligation. The region runs the body of region 1 on its own table, array, output block and
  semaphores (the two kernel functions are one function), so the body's run is region 1's, cited at this region's eight
  semaphores; read with this region's invariant it is the pipeline's body obligation for the region's proof data.
-/
import proofs.«402049_j87351044866139_2_alg».proof.Proof.KI.GatherDef21
import proofs.«402049_j87351044866139_2_alg».proof.Proof.KI.GatherBody1

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Idealize.ShloMosaic.Transfers (shareDrop shareTokN)
open Cert.KernelIdeal Cert.KernelIdeal.Gen

variable {F : FTy → Type} [FloatOps F]

local notation "𝕄" => MT nD τ sig Unit (Elt F) ℕ (Pipeline.UD sig nD τ) ℕ

/-! ## The body obligation -/

variable (V : (c : Dev nD) → (b : Ref sig .tc) → Buf (Elt F) ((c : Thread nD τ).loc b))
variable (a1 : (pcfg21 (F := F)).Adm)

/-- The eight cells at zero, listed, each as the body names it. -/
theorem ownSems21_eq (c : Dev nD) :
    (Pipeline.ownSems0 (Ix := Unit) (Name := ℕ) (U := Pipeline.UD sig nD τ) (Lvl := ℕ) (Val := Elt F) (τ := τ) osem21 c : sProp 𝕄)
      = iprop(semVal ((c : Thread nD τ), cell1_0 cc21_scratch0) 0 ∗ semVal ((c : Thread nD τ), cell1_1 cc21_scratch0) 0 ∗ semVal ((c : Thread nD τ), cell1_2 cc21_scratch0) 0 ∗ semVal ((c : Thread nD τ), cell1_3 cc21_scratch0) 0 ∗ semVal ((c : Thread nD τ), cell1_4 cc21_scratch0) 0 ∗ semVal ((c : Thread nD τ), cell1_5 cc21_scratch0) 0 ∗ semVal ((c : Thread nD τ), cell1_6 cc21_scratch0) 0 ∗ semVal ((c : Thread nD τ), cell1_7 cc21_scratch0) 0) := by
  rw [Pipeline.ownSems0_eq_of_list c osem21 [0, 1, 2, 3, 4, 5, 6, 7] (by decide) (by decide)]; rfl

/-- The array the rows are read from, at the contents the region found it with. -/
theorem hbm21_eq (c : Dev nD) :
    (bigSep H21 (fun b => ((c : Thread nD τ).loc b) ↦{fullShare} V c b) : sProp 𝕄)
      = ((Memref.whole main_v61 : Memref sig .tc .hbm S50000x128 .f32).view.loc (c : Thread nD τ) ↦{fullShare} V c main_v61) := by
  unfold H21
  rw [BI.bigSep_eq_bigSepL_of_eq [main_v61] (by decide) (by decide)]; rfl

/-- The table, held whole at the full share, is owned at its contents. -/
theorem tblw21_eq (c : Dev nD) :
    (Pipeline.prefHeld pre21 c (fun _ => fullShare) a1.1 : sProp 𝕄)
      = owns (c : Thread nD τ) (Memref.whole main_v80 : Memref sig .tc .smem S85000 .i32) fullShare (tblw21 a1) := by
  unfold Pipeline.prefHeld
  rw [bigSep_W21, owns_whole]; rfl

set_option maxHeartbeats 4000000 in
/-- The body at every point: the invariant hands the run its table, the array, the eight cells at zero (the scoped rest and
    the generator register ride along), the core's record of waits goes in at whatever the points before left and comes
    back with this point's eight, and the output block, at anything, comes back reading the gathered rows. -/
theorem hbodyG21 [∀ e, Nonempty (Elt F e)] (hlt : ∀ k : S85000.Idx, (tblw21 a1 k).toNat < 50000) (c : Dev nD) :
    BodyObligationLoose (datG21 V a1 (gblk21 V a1) c) (defs₀ (F := F)) Variants.none () Set.univ := by
  refine BodyObligation.loose _ fun t => ?_
  rw [bigSep_W21, bigSep_W21]
  show iprop(iprop(Pipeline.ΦD osem21 spec21 H21 V c ∗ Pipeline.prefHeld pre21 c (fun _ => fullShare) a1.1)
        ∗ (datG21 V a1 (gblk21 V a1) c).owesAt () t.castSucc
        ∗ (∃ d, owns (c : Thread nD τ) (spec21_0.stage ((cfg21 a1).slots t 0)) fullShare ((datG21 V a1 (gblk21 V a1) c).before 0 t d)))
      ⊢ wp frame (wpE (defs₀ (F := F)) Variants.none c none) Set.univ
          (cc21__gather_kernel ((cfg21 a1).grid.coords t) (Memref.whole main_v80) (Memref.isWhole_whole _) (Memref.whole main_v61) (Memref.isWhole_whole _)
            (spec21_0.stage ((cfg21 a1).slots t 0)) (hstage21_0 (((cfg21 a1).slots t 0).cast nbuf21_0)) cc21_scratch0)
          (fun _ => iprop(iprop(Pipeline.ΦD osem21 spec21 H21 V c ∗ Pipeline.prefHeld pre21 c (fun _ => fullShare) a1.1)
            ∗ (datG21 V a1 (gblk21 V a1) c).owesAt () t.succ
            ∗ owns (c : Thread nD τ) (spec21_0.stage ((cfg21 a1).slots t 0)) fullShare (gblk21 V a1 c t)))
  rw [Pipeline.ΦD_eq, ownSems21_eq, hbm21_eq, tblw21_eq]
  unfold Dat.owesAt Pipeline.owesWithin
  rw [show (datG21 V a1 (gblk21 V a1) c).owed t.castSucc = 0 from rfl, show (datG21 V a1 (gblk21 V a1) c).owed t.succ = 0 from rfl]
  have hr : (Memref.whole main_v61 : Memref sig .tc .hbm S50000x128 .f32).view.read (Elt F) (V c main_v61) = V c main_v61 := by
    simp only [Memref.view_whole, View.read_whole]
  iintro ⟨⟨⟨Hsc, Hg, ⟨Hq0, Hq1, Hq2, Hq3, Hq4, Hq5, Hq6, Hq7⟩, Hh⟩, Ht⟩, ⟨%W, -, HW⟩, ⟨%d, Hob⟩⟩
  iapply (kernelRun1 c ((cfg21 a1).grid.coords t) (Memref.whole main_v80) (Memref.isWhole_whole _) (Memref.whole main_v61) (Memref.isWhole_whole _)
    (spec21_0.stage ((cfg21 a1).slots t 0)) (hstage21_0 (((cfg21 a1).slots t 0).cast nbuf21_0)) (tblw21 a1) hlt fullShare fullShare (V c main_v61) cc21_scratch0 W _)
  isplitl [Ht]; · iexact Ht
  isplitl [Hh]; · iexact Hh
  isplitl [Hob]; · iexists _; iexact Hob
  isplitl [Hq0]; · iexact Hq0
  isplitl [Hq1]; · iexact Hq1
  isplitl [Hq2]; · iexact Hq2
  isplitl [Hq3]; · iexact Hq3
  isplitl [Hq4]; · iexact Hq4
  isplitl [Hq5]; · iexact Hq5
  isplitl [Hq6]; · iexact Hq6
  isplitl [Hq7]; · iexact Hq7
  isplitl [HW]; · iexact HW
  iintro ⟨Ht, Hh, Hob, Hq0, Hq1, Hq2, Hq3, Hq4, Hq5, Hq6, Hq7, ⟨%W', HW'⟩⟩
  isplitl [Hsc Hg Hq0 Hq1 Hq2 Hq3 Hq4 Hq5 Hq6 Hq7 Hh Ht]
  · isplitl [Hsc Hg Hq0 Hq1 Hq2 Hq3 Hq4 Hq5 Hq6 Hq7 Hh]
    · isplitl [Hsc]; · iexact Hsc
      isplitl [Hg]; · iexact Hg
      isplitl [Hq0 Hq1 Hq2 Hq3 Hq4 Hq5 Hq6 Hq7]
      · isplitl [Hq0]; · iexact Hq0
        isplitl [Hq1]; · iexact Hq1
        isplitl [Hq2]; · iexact Hq2
        isplitl [Hq3]; · iexact Hq3
        isplitl [Hq4]; · iexact Hq4
        isplitl [Hq5]; · iexact Hq5
        isplitl [Hq6]; · iexact Hq6
        iexact Hq7
      iexact Hh
    iexact Ht
  isplitl [HW']
  · iexists W'; isplitr; · ipureintro; exact fun _ _ => Or.inl trivial
    iexact HW'
  rw [hr]
  iexact Hob

end Cert.KernelIdeal.Hand

end
-- ==== Proof.KI.GatherBody23.lean ====
/-
  Region 23's body: eight rows gathered at every grid point.

  At grid point i the body loads the table's words 8 i … 8 i + 7, and for each word w copies row w of the 50000 x 128 array
  it finds in HBM into one row of its 8 x 128 output block, by eight transfers of its own on eight semaphores of its own,
  all waited for before the point ends. Every word is assumed a row of the array; the hypothesis on the table makes it so.
  So the point leaves the block reading, at row j and column l, the array at row (table word 8 i + j) and column l
  (gath23), the table and the array as they were, and the semaphores at zero (kernelRun23, stated for any array of eight semaphores: the regions that run the same body
  on other semaphores cite it). Read with the region's invariant
  that is the pipeline's body obligation for the region's proof data (hbodyG23), whose output block at point t is gblk23.
-/
import proofs.«402049_j87351044866139_2_alg».proof.Proof.KI.GatherDef23
import proofs.«402049_j87351044866139_2_alg».proof.Proof.KI.GatherLib

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Idealize.ShloMosaic.Transfers (shareDrop shareTokN)
open Cert.KernelIdeal Cert.KernelIdeal.Gen

variable {F : FTy → Type} [FloatOps F]

local notation "𝕄" => MT nD τ sig Unit (Elt F) ℕ (Pipeline.UD sig nD τ) ℕ

/-! ## The body's run -/

/-- Cell 0 of a body's eight semaphores, as the body names it. -/
abbrev cell23_0 (arg4 : DmaSems sig S8) : SemLoc sig := SemLoc.dma ((arg4.slice (Rect.unit (s := S8) ![0] S1.size inb_S8_S1_0)).squeeze S_ squeezes_S1_S_).sem
/-- Cell 1 of a body's eight semaphores, as the body names it. -/
abbrev cell23_1 (arg4 : DmaSems sig S8) : SemLoc sig := SemLoc.dma ((arg4.slice (Rect.unit (s := S8) ![1] S1.size inb_S8_S1_1)).squeeze S_ squeezes_S1_S_).sem
/-- Cell 2 of a body's eight semaphores, as the body names it. -/
abbrev cell23_2 (arg4 : DmaSems sig S8) : SemLoc sig := SemLoc.dma ((arg4.slice (Rect.unit (s := S8) ![2] S1.size inb_S8_S1_2)).squeeze S_ squeezes_S1_S_).sem
/-- Cell 3 of a body's eight semaphores, as the body names it. -/
abbrev cell23_3 (arg4 : DmaSems sig S8) : SemLoc sig := SemLoc.dma ((arg4.slice (Rect.unit (s := S8) ![3] S1.size inb_S8_S1_3)).squeeze S_ squeezes_S1_S_).sem
/-- Cell 4 of a body's eight semaphores, as the body names it. -/
abbrev cell23_4 (arg4 : DmaSems sig S8) : SemLoc sig := SemLoc.dma ((arg4.slice (Rect.unit (s := S8) ![4] S1.size inb_S8_S1_4)).squeeze S_ squeezes_S1_S_).sem
/-- Cell 5 of a body's eight semaphores, as the body names it. -/
abbrev cell23_5 (arg4 : DmaSems sig S8) : SemLoc sig := SemLoc.dma ((arg4.slice (Rect.unit (s := S8) ![5] S1.size inb_S8_S1_5)).squeeze S_ squeezes_S1_S_).sem
/-- Cell 6 of a body's eight semaphores, as the body names it. -/
abbrev cell23_6 (arg4 : DmaSems sig S8) : SemLoc sig := SemLoc.dma ((arg4.slice (Rect.unit (s := S8) ![6] S1.size inb_S8_S1_6)).squeeze S_ squeezes_S1_S_).sem
/-- Cell 7 of a body's eight semaphores, as the body names it. -/
abbrev cell23_7 (arg4 : DmaSems sig S8) : SemLoc sig := SemLoc.dma ((arg4.slice (Rect.unit (s := S8) ![7] S1.size inb_S8_S1_7)).squeeze S_ squeezes_S1_S_).sem

/-- Word 0 of the point's eight, as the body's load reads it off contents f1 of the table's memref. -/
abbrev wd23_0 (i : grid23.Coords) (arg1 : Memref sig .tc .smem S100000 .i32) (f1 : arg1.view.ty.Contents (Elt F)) : BitVec 32 :=
  arg1.view.readAt (Elt F) (Rect.unit (s := S100000) (k23_off1 i) S1.size (k23_off1_inb i)).toLoadRect f1 i0
/-- Word 1 of the point's eight, as the body's load reads it off contents f1 of the table's memref. -/
abbrev wd23_1 (i : grid23.Coords) (arg1 : Memref sig .tc .smem S100000 .i32) (f1 : arg1.view.ty.Contents (Elt F)) : BitVec 32 :=
  arg1.view.readAt (Elt F) (Rect.unit (s := S100000) (k23_off3 i) S1.size (k23_off3_inb i)).toLoadRect f1 i0
/-- Word 2 of the point's eight, as the body's load reads it off contents f1 of the table's memref. -/
abbrev wd23_2 (i : grid23.Coords) (arg1 : Memref sig .tc .smem S100000 .i32) (f1 : arg1.view.ty.Contents (Elt F)) : BitVec 32 :=
  arg1.view.readAt (Elt F) (Rect.unit (s := S100000) (k23_off5 i) S1.size (k23_off5_inb i)).toLoadRect f1 i0
/-- Word 3 of the point's eight, as the body's load reads it off contents f1 of the table's memref. -/
abbrev wd23_3 (i : grid23.Coords) (arg1 : Memref sig .tc .smem S100000 .i32) (f1 : arg1.view.ty.Contents (Elt F)) : BitVec 32 :=
  arg1.view.readAt (Elt F) (Rect.unit (s := S100000) (k23_off7 i) S1.size (k23_off7_inb i)).toLoadRect f1 i0
/-- Word 4 of the point's eight, as the body's load reads it off contents f1 of the table's memref. -/
abbrev wd23_4 (i : grid23.Coords) (arg1 : Memref sig .tc .smem S100000 .i32) (f1 : arg1.view.ty.Contents (Elt F)) : BitVec 32 :=
  arg1.view.readAt (Elt F) (Rect.unit (s := S100000) (k23_off9 i) S1.size (k23_off9_inb i)).toLoadRect f1 i0
/-- Word 5 of the point's eight, as the body's load reads it off contents f1 of the table's memref. -/
abbrev wd23_5 (i : grid23.Coords) (arg1 : Memref sig .tc .smem S100000 .i32) (f1 : arg1.view.ty.Contents (Elt F)) : BitVec 32 :=
  arg1.view.readAt (Elt F) (Rect.unit (s := S100000) (k23_off11 i) S1.size (k23_off11_inb i)).toLoadRect f1 i0
/-- Word 6 of the point's eight, as the body's load reads it off contents f1 of the table's memref. -/
abbrev wd23_6 (i : grid23.Coords) (arg1 : Memref sig .tc .smem S100000 .i32) (f1 : arg1.view.ty.Contents (Elt F)) : BitVec 32 :=
  arg1.view.readAt (Elt F) (Rect.unit (s := S100000) (k23_off13 i) S1.size (k23_off13_inb i)).toLoadRect f1 i0
/-- Word 7 of the point's eight, as the body's load reads it off contents f1 of the table's memref. -/
abbrev wd23_7 (i : grid23.Coords) (arg1 : Memref sig .tc .smem S100000 .i32) (f1 : arg1.view.ty.Contents (Elt F)) : BitVec 32 :=
  arg1.view.readAt (Elt F) (Rect.unit (s := S100000) (k23_off15 i) S1.size (k23_off15_inb i)).toLoadRect f1 i0

set_option sl_exec.dmaWindow true in
set_option sl_exec.dmaWindowSet true in
set_option sl_exec.rejoinHeartbeats 1 in
set_option maxHeartbeats 16000000 in
/-- THE BODY'S RUN at grid point i, on whole memrefs: the table held at contents that read tbl, every word of it a row of
    the array; the array held whole at any share; the output block at anything; the eight cells of ANY semaphore array at zero; the core's
    record of waits. Eight words are loaded, each assumed a row (it is), eight rows are sent for on the eight cells and all
    eight waited for. The array is read through eight shares of its share, one a cell, since two transfers in flight may
    read one row; the block is lent row by row and joined again. The run returns the table and the array as they were, the
    cells at zero, the eight waits recorded, and the block reading gath23. -/
theorem kernelRun23 [∀ e, Nonempty (Elt F e)] (c : Dev nD) (i : grid23.Coords)
    (arg1 : Memref sig .tc .smem S100000 .i32) (harg1 : arg1.IsWhole)
    (arg2 : Memref sig .tc .hbm S50000x128 .f32) (harg2 : arg2.IsWhole)
    (arg3 : Memref sig .tc .vmem S8x128 .f32) (harg3 : arg3.IsWhole)
    (tbl : Vec F S100000 .i32) (htbl : ∀ k, (tbl k).toNat < 50000)
    (q qA : PosShare TreeShare) (fA : Bf (F := F) c arg2) (arg4 : DmaSems sig S8)
    (W : Waits sig Unit) (K : PUnit → sProp 𝕄) :
    iprop(owns (c : Thread nD τ) arg1 q tbl ∗ (arg2.view.loc (c : Thread nD τ) ↦{qA} fA) ∗ (∃ d, owns (c : Thread nD τ) arg3 fullShare d)
        ∗ semVal ((c : Thread nD τ), cell23_0 arg4) 0 ∗ semVal ((c : Thread nD τ), cell23_1 arg4) 0 ∗ semVal ((c : Thread nD τ), cell23_2 arg4) 0 ∗ semVal ((c : Thread nD τ), cell23_3 arg4) 0 ∗ semVal ((c : Thread nD τ), cell23_4 arg4) 0 ∗ semVal ((c : Thread nD τ), cell23_5 arg4) 0 ∗ semVal ((c : Thread nD τ), cell23_6 arg4) 0 ∗ semVal ((c : Thread nD τ), cell23_7 arg4) 0
        ∗ owes (c : Thread nD τ) 0 W
        ∗ (iprop(owns (c : Thread nD τ) arg1 q tbl ∗ (arg2.view.loc (c : Thread nD τ) ↦{qA} fA)
              ∗ owns (c : Thread nD τ) arg3 fullShare (gath23 i tbl (arg2.view.read (Elt F) fA))
              ∗ semVal ((c : Thread nD τ), cell23_0 arg4) 0 ∗ semVal ((c : Thread nD τ), cell23_1 arg4) 0 ∗ semVal ((c : Thread nD τ), cell23_2 arg4) 0 ∗ semVal ((c : Thread nD τ), cell23_3 arg4) 0 ∗ semVal ((c : Thread nD τ), cell23_4 arg4) 0 ∗ semVal ((c : Thread nD τ), cell23_5 arg4) 0 ∗ semVal ((c : Thread nD τ), cell23_6 arg4) 0 ∗ semVal ((c : Thread nD τ), cell23_7 arg4) 0
              ∗ (∃ W', owes (c : Thread nD τ) 0 W')) -∗ K ⟨⟩))
      ⊢ wp frame (wpE (defs₀ (F := F)) Variants.none c none) Set.univ (cc23__gather_kernel i arg1 harg1 arg2 harg2 arg3 harg3 arg4) K := by
  have hi : (i 0).val < 12500 := (i 0).isLt
  have hw : ∀ (B : LoadRect S100000) (x : B.shape.Idx), (arg1.view.readAt (Elt F) B (harg1.unread tbl) x).toNat < 50000 := fun B x => by
    rw [Memref.IsWhole.readAt_unread harg1]; exact htbl _
  have hc1 : k23_chk1 (wd23_0 i arg1 (harg1.unread tbl)) := ⟨row_inb _ (hw _ _), row_inb _ (hw _ _)⟩
  have hc2 : k23_chk2 (wd23_1 i arg1 (harg1.unread tbl)) := ⟨row_inb _ (hw _ _), row_inb _ (hw _ _)⟩
  have hc3 : k23_chk3 (wd23_2 i arg1 (harg1.unread tbl)) := ⟨row_inb _ (hw _ _), row_inb _ (hw _ _)⟩
  have hc4 : k23_chk4 (wd23_3 i arg1 (harg1.unread tbl)) := ⟨row_inb _ (hw _ _), row_inb _ (hw _ _)⟩
  have hc5 : k23_chk5 (wd23_4 i arg1 (harg1.unread tbl)) := ⟨row_inb _ (hw _ _), row_inb _ (hw _ _)⟩
  have hc6 : k23_chk6 (wd23_5 i arg1 (harg1.unread tbl)) := ⟨row_inb _ (hw _ _), row_inb _ (hw _ _)⟩
  have hc7 : k23_chk7 (wd23_6 i arg1 (harg1.unread tbl)) := ⟨row_inb _ (hw _ _), row_inb _ (hw _ _)⟩
  have hc8 : k23_chk8 (wd23_7 i arg1 (harg1.unread tbl)) := row_inb _ (hw _ _)
  have hwd0 : wd23_0 i arg1 (harg1.unread tbl) = tbl (ValueIdx.ix1 (⟨8 * (i 0).val, by omega⟩ : Fin 100000)) :=
    word_at arg1 harg1 tbl (k23_off1 i) (k23_off1_inb i) (8 * (i 0).val) (Gen.k23_off1_eq i) (by omega)
  have hwd1 : wd23_1 i arg1 (harg1.unread tbl) = tbl (ValueIdx.ix1 (⟨8 * (i 0).val + 1, by omega⟩ : Fin 100000)) :=
    word_at arg1 harg1 tbl (k23_off3 i) (k23_off3_inb i) (8 * (i 0).val + 1) (Gen.k23_off3_eq i) (by omega)
  have hwd2 : wd23_2 i arg1 (harg1.unread tbl) = tbl (ValueIdx.ix1 (⟨8 * (i 0).val + 2, by omega⟩ : Fin 100000)) :=
    word_at arg1 harg1 tbl (k23_off5 i) (k23_off5_inb i) (8 * (i 0).val + 2) (Gen.k23_off5_eq i) (by omega)
  have hwd3 : wd23_3 i arg1 (harg1.unread tbl) = tbl (ValueIdx.ix1 (⟨8 * (i 0).val + 3, by omega⟩ : Fin 100000)) :=
    word_at arg1 harg1 tbl (k23_off7 i) (k23_off7_inb i) (8 * (i 0).val + 3) (Gen.k23_off7_eq i) (by omega)
  have hwd4 : wd23_4 i arg1 (harg1.unread tbl) = tbl (ValueIdx.ix1 (⟨8 * (i 0).val + 4, by omega⟩ : Fin 100000)) :=
    word_at arg1 harg1 tbl (k23_off9 i) (k23_off9_inb i) (8 * (i 0).val + 4) (Gen.k23_off9_eq i) (by omega)
  have hwd5 : wd23_5 i arg1 (harg1.unread tbl) = tbl (ValueIdx.ix1 (⟨8 * (i 0).val + 5, by omega⟩ : Fin 100000)) :=
    word_at arg1 harg1 tbl (k23_off11 i) (k23_off11_inb i) (8 * (i 0).val + 5) (Gen.k23_off11_eq i) (by omega)
  have hwd6 : wd23_6 i arg1 (harg1.unread tbl) = tbl (ValueIdx.ix1 (⟨8 * (i 0).val + 6, by omega⟩ : Fin 100000)) :=
    word_at arg1 harg1 tbl (k23_off13 i) (k23_off13_inb i) (8 * (i 0).val + 6) (Gen.k23_off13_eq i) (by omega)
  have hwd7 : wd23_7 i arg1 (harg1.unread tbl) = tbl (ValueIdx.ix1 (⟨8 * (i 0).val + 7, by omega⟩ : Fin 100000)) :=
    word_at arg1 harg1 tbl (k23_off15 i) (k23_off15_inb i) (8 * (i 0).val + 7) (Gen.k23_off15_eq i) (by omega)
  simp only [cc23__gather_kernel_eq_skeleton]; unfold cc23__gather_kernel_skel
  simp only [k23_part1_eq_skeleton, k23_part2_eq_skeleton, k23_part3_eq_skeleton]; unfold k23_part1_skel k23_part2_skel k23_part3_skel
  unfold owns
  iintro ⟨⟨%f1, %hf1, Htb⟩, HA, ⟨%d3, %f3, -, Hob⟩, Hq0, Hq1, Hq2, Hq3, Hq4, Hq5, Hq6, Hq7, HW, Hk⟩
  obtain rfl := harg1.eq_unread hf1
  ihave HA' := (toks_at (F := F) qA 7).1 $$ HA
  icases HA' with ⟨HAd, HA7, HA6, HA5, HA4, HA3, HA2, HA1, HA0, HAr⟩
  sl_exec (disch := first | exact hc1 | exact hc2 | exact hc3 | exact hc4 | exact hc5 | exact hc6 | exact hc7 | exact hc8)
  sl_step
  iapply Hk
  isplitl [Htb]
  · iexists _; isplitr; · ipureintro; exact harg1.read_unread _
    iexact Htb
  isplitl [HAd HA7 HA6 HA5 HA4 HA3 HA2 HA1 HA0 HAr]
  · iapply (toks_at (F := F) qA 7).2
    isplitl [HAd]; · iexact HAd
    isplitl [HA7]; · iexact HA7
    isplitl [HA6]; · iexact HA6
    isplitl [HA5]; · iexact HA5
    isplitl [HA4]; · iexact HA4
    isplitl [HA3]; · iexact HA3
    isplitl [HA2]; · iexact HA2
    isplitl [HA1]; · iexact HA1
    isplitl [HA0]; · iexact HA0
    iexact HAr
  isplitl [Hob_2 Hob_3 Hob_4 Hob_5 Hob_6 Hob_7 Hob_8 Hob]
  · iexists _
    isplitr
    swap
    · iapply (rows_join arg3 f3 _ _ _ _ _ _ _ _ c)
      isplitl [Hob_2]; · iexact Hob_2
      isplitl [Hob_3]; · iexact Hob_3
      isplitl [Hob_4]; · iexact Hob_4
      isplitl [Hob_5]; · iexact Hob_5
      isplitl [Hob_6]; · iexact Hob_6
      isplitl [Hob_7]; · iexact Hob_7
      isplitl [Hob_8]; · iexact Hob_8
      iexact Hob
    ipureintro
    refine rows_read arg3 f3 _ _ _ _ _ _ _ _ (gath23 i tbl (arg2.view.read (Elt F) fA)) ?_ ?_ ?_ ?_ ?_ ?_ ?_ ?_
    · intro x
      exact row_piece arg2 fA (wd23_0 i arg1 (harg1.unread tbl)) _ 0 _ (gath23 i tbl (arg2.view.read (Elt F) fA))
        (fun y z hy hz0 hz1 => gath23_row i tbl (arg2.view.read (Elt F) fA) htbl 0 (8 * (i 0).val) (Nat.add_zero _).symm (by omega) y z hy
          (hz0.trans (congrArg BitVec.toNat hwd0)) hz1) x
    · intro x
      exact row_piece arg2 fA (wd23_1 i arg1 (harg1.unread tbl)) _ 1 _ (gath23 i tbl (arg2.view.read (Elt F) fA))
        (fun y z hy hz0 hz1 => gath23_row i tbl (arg2.view.read (Elt F) fA) htbl 1 (8 * (i 0).val + 1) rfl (by omega) y z hy
          (hz0.trans (congrArg BitVec.toNat hwd1)) hz1) x
    · intro x
      exact row_piece arg2 fA (wd23_2 i arg1 (harg1.unread tbl)) _ 2 _ (gath23 i tbl (arg2.view.read (Elt F) fA))
        (fun y z hy hz0 hz1 => gath23_row i tbl (arg2.view.read (Elt F) fA) htbl 2 (8 * (i 0).val + 2) rfl (by omega) y z hy
          (hz0.trans (congrArg BitVec.toNat hwd2)) hz1) x
    · intro x
      exact row_piece arg2 fA (wd23_3 i arg1 (harg1.unread tbl)) _ 3 _ (gath23 i tbl (arg2.view.read (Elt F) fA))
        (fun y z hy hz0 hz1 => gath23_row i tbl (arg2.view.read (Elt F) fA) htbl 3 (8 * (i 0).val + 3) rfl (by omega) y z hy
          (hz0.trans (congrArg BitVec.toNat hwd3)) hz1) x
    · intro x
      exact row_piece arg2 fA (wd23_4 i arg1 (harg1.unread tbl)) _ 4 _ (gath23 i tbl (arg2.view.read (Elt F) fA))
        (fun y z hy hz0 hz1 => gath23_row i tbl (arg2.view.read (Elt F) fA) htbl 4 (8 * (i 0).val + 4) rfl (by omega) y z hy
          (hz0.trans (congrArg BitVec.toNat hwd4)) hz1) x
    · intro x
      exact row_piece arg2 fA (wd23_5 i arg1 (harg1.unread tbl)) _ 5 _ (gath23 i tbl (arg2.view.read (Elt F) fA))
        (fun y z hy hz0 hz1 => gath23_row i tbl (arg2.view.read (Elt F) fA) htbl 5 (8 * (i 0).val + 5) rfl (by omega) y z hy
          (hz0.trans (congrArg BitVec.toNat hwd5)) hz1) x
    · intro x
      exact row_piece arg2 fA (wd23_6 i arg1 (harg1.unread tbl)) _ 6 _ (gath23 i tbl (arg2.view.read (Elt F) fA))
        (fun y z hy hz0 hz1 => gath23_row i tbl (arg2.view.read (Elt F) fA) htbl 6 (8 * (i 0).val + 6) rfl (by omega) y z hy
          (hz0.trans (congrArg BitVec.toNat hwd6)) hz1) x
    · intro x
      exact row_piece arg2 fA (wd23_7 i arg1 (harg1.unread tbl)) _ 7 _ (gath23 i tbl (arg2.view.read (Elt F) fA))
        (fun y z hy hz0 hz1 => gath23_row i tbl (arg2.view.read (Elt F) fA) htbl 7 (8 * (i 0).val + 7) rfl (by omega) y z hy
          (hz0.trans (congrArg BitVec.toNat hwd7)) hz1) x
  isplitl [Hq0]; · iexact Hq0
  isplitl [Hq1]; · iexact Hq1
  isplitl [Hq2]; · iexact Hq2
  isplitl [Hq3]; · iexact Hq3
  isplitl [Hq4]; · iexact Hq4
  isplitl [Hq5]; · iexact Hq5
  isplitl [Hq6]; · iexact Hq6
  isplitl [Hq7]; · iexact Hq7
  iexists _; iexact HW

/-! ## The body obligation -/

variable (V : (c : Dev nD) → (b : Ref sig .tc) → Buf (Elt F) ((c : Thread nD τ).loc b))
variable (a1 : (pcfg23 (F := F)).Adm)

/-- The eight cells at zero, listed, each as the body names it. -/
theorem ownSems23_eq (c : Dev nD) :
    (Pipeline.ownSems0 (Ix := Unit) (Name := ℕ) (U := Pipeline.UD sig nD τ) (Lvl := ℕ) (Val := Elt F) (τ := τ) osem23 c : sProp 𝕄)
      = iprop(semVal ((c : Thread nD τ), cell23_0 cc23_scratch0) 0 ∗ semVal ((c : Thread nD τ), cell23_1 cc23_scratch0) 0 ∗ semVal ((c : Thread nD τ), cell23_2 cc23_scratch0) 0 ∗ semVal ((c : Thread nD τ), cell23_3 cc23_scratch0) 0 ∗ semVal ((c : Thread nD τ), cell23_4 cc23_scratch0) 0 ∗ semVal ((c : Thread nD τ), cell23_5 cc23_scratch0) 0 ∗ semVal ((c : Thread nD τ), cell23_6 cc23_scratch0) 0 ∗ semVal ((c : Thread nD τ), cell23_7 cc23_scratch0) 0) := by
  rw [Pipeline.ownSems0_eq_of_list c osem23 [0, 1, 2, 3, 4, 5, 6, 7] (by decide) (by decide)]; rfl

/-- The array the rows are read from, at the contents the region found it with. -/
theorem hbm23_eq (c : Dev nD) :
    (bigSep H23 (fun b => ((c : Thread nD τ).loc b) ↦{fullShare} V c b) : sProp 𝕄)
      = ((Memref.whole main_v89 : Memref sig .tc .hbm S50000x128 .f32).view.loc (c : Thread nD τ) ↦{fullShare} V c main_v89) := by
  unfold H23
  rw [BI.bigSep_eq_bigSepL_of_eq [main_v89] (by decide) (by decide)]; rfl

/-- The table, held whole at the full share, is owned at its contents. -/
theorem tblw23_eq (c : Dev nD) :
    (Pipeline.prefHeld pre23 c (fun _ => fullShare) a1.1 : sProp 𝕄)
      = owns (c : Thread nD τ) (Memref.whole main_v90 : Memref sig .tc .smem S100000 .i32) fullShare (tblw23 a1) := by
  unfold Pipeline.prefHeld
  rw [bigSep_W23, owns_whole]; rfl

set_option maxHeartbeats 4000000 in
/-- The body at every point: the invariant hands the run its table, the array, the eight cells at zero (the scoped rest and
    the generator register ride along), the core's record of waits goes in at whatever the points before left and comes
    back with this point's eight, and the output block, at anything, comes back reading the gathered rows. -/
theorem hbodyG23 [∀ e, Nonempty (Elt F e)] (hlt : ∀ k : S100000.Idx, (tblw23 a1 k).toNat < 50000) (c : Dev nD) :
    BodyObligationLoose (datG23 V a1 (gblk23 V a1) c) (defs₀ (F := F)) Variants.none () Set.univ := by
  refine BodyObligation.loose _ fun t => ?_
  rw [bigSep_W23, bigSep_W23]
  show iprop(iprop(Pipeline.ΦD osem23 spec23 H23 V c ∗ Pipeline.prefHeld pre23 c (fun _ => fullShare) a1.1)
        ∗ (datG23 V a1 (gblk23 V a1) c).owesAt () t.castSucc
        ∗ (∃ d, owns (c : Thread nD τ) (spec23_0.stage ((cfg23 a1).slots t 0)) fullShare ((datG23 V a1 (gblk23 V a1) c).before 0 t d)))
      ⊢ wp frame (wpE (defs₀ (F := F)) Variants.none c none) Set.univ
          (cc23__gather_kernel ((cfg23 a1).grid.coords t) (Memref.whole main_v90) (Memref.isWhole_whole _) (Memref.whole main_v89) (Memref.isWhole_whole _)
            (spec23_0.stage ((cfg23 a1).slots t 0)) (hstage23_0 (((cfg23 a1).slots t 0).cast nbuf23_0)) cc23_scratch0)
          (fun _ => iprop(iprop(Pipeline.ΦD osem23 spec23 H23 V c ∗ Pipeline.prefHeld pre23 c (fun _ => fullShare) a1.1)
            ∗ (datG23 V a1 (gblk23 V a1) c).owesAt () t.succ
            ∗ owns (c : Thread nD τ) (spec23_0.stage ((cfg23 a1).slots t 0)) fullShare (gblk23 V a1 c t)))
  rw [Pipeline.ΦD_eq, ownSems23_eq, hbm23_eq, tblw23_eq]
  unfold Dat.owesAt Pipeline.owesWithin
  rw [show (datG23 V a1 (gblk23 V a1) c).owed t.castSucc = 0 from rfl, show (datG23 V a1 (gblk23 V a1) c).owed t.succ = 0 from rfl]
  have hr : (Memref.whole main_v89 : Memref sig .tc .hbm S50000x128 .f32).view.read (Elt F) (V c main_v89) = V c main_v89 := by
    simp only [Memref.view_whole, View.read_whole]
  iintro ⟨⟨⟨Hsc, Hg, ⟨Hq0, Hq1, Hq2, Hq3, Hq4, Hq5, Hq6, Hq7⟩, Hh⟩, Ht⟩, ⟨%W, -, HW⟩, ⟨%d, Hob⟩⟩
  iapply (kernelRun23 c ((cfg23 a1).grid.coords t) (Memref.whole main_v90) (Memref.isWhole_whole _) (Memref.whole main_v89) (Memref.isWhole_whole _)
    (spec23_0.stage ((cfg23 a1).slots t 0)) (hstage23_0 (((cfg23 a1).slots t 0).cast nbuf23_0)) (tblw23 a1) hlt fullShare fullShare (V c main_v89) cc23_scratch0 W _)
  isplitl [Ht]; · iexact Ht
  isplitl [Hh]; · iexact Hh
  isplitl [Hob]; · iexists _; iexact Hob
  isplitl [Hq0]; · iexact Hq0
  isplitl [Hq1]; · iexact Hq1
  isplitl [Hq2]; · iexact Hq2
  isplitl [Hq3]; · iexact Hq3
  isplitl [Hq4]; · iexact Hq4
  isplitl [Hq5]; · iexact Hq5
  isplitl [Hq6]; · iexact Hq6
  isplitl [Hq7]; · iexact Hq7
  isplitl [HW]; · iexact HW
  iintro ⟨Ht, Hh, Hob, Hq0, Hq1, Hq2, Hq3, Hq4, Hq5, Hq6, Hq7, ⟨%W', HW'⟩⟩
  isplitl [Hsc Hg Hq0 Hq1 Hq2 Hq3 Hq4 Hq5 Hq6 Hq7 Hh Ht]
  · isplitl [Hsc Hg Hq0 Hq1 Hq2 Hq3 Hq4 Hq5 Hq6 Hq7 Hh]
    · isplitl [Hsc]; · iexact Hsc
      isplitl [Hg]; · iexact Hg
      isplitl [Hq0 Hq1 Hq2 Hq3 Hq4 Hq5 Hq6 Hq7]
      · isplitl [Hq0]; · iexact Hq0
        isplitl [Hq1]; · iexact Hq1
        isplitl [Hq2]; · iexact Hq2
        isplitl [Hq3]; · iexact Hq3
        isplitl [Hq4]; · iexact Hq4
        isplitl [Hq5]; · iexact Hq5
        isplitl [Hq6]; · iexact Hq6
        iexact Hq7
      iexact Hh
    iexact Ht
  isplitl [HW']
  · iexists W'; isplitr; · ipureintro; exact fun _ _ => Or.inl trivial
    iexact HW'
  rw [hr]
  iexact Hob

end Cert.KernelIdeal.Hand

end
-- ==== Proof.KI.GatherBody24.lean ====
/-
  Region 24's body obligation. The region runs the body of region 23 on its own table, array, output block and
  semaphores (the two kernel functions are one function), so the body's run is region 23's, cited at this region's eight
  semaphores; read with this region's invariant it is the pipeline's body obligation for the region's proof data.
-/
import proofs.«402049_j87351044866139_2_alg».proof.Proof.KI.GatherDef24
import proofs.«402049_j87351044866139_2_alg».proof.Proof.KI.GatherBody23

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Idealize.ShloMosaic.Transfers (shareDrop shareTokN)
open Cert.KernelIdeal Cert.KernelIdeal.Gen

variable {F : FTy → Type} [FloatOps F]

local notation "𝕄" => MT nD τ sig Unit (Elt F) ℕ (Pipeline.UD sig nD τ) ℕ

/-! ## The body obligation -/

variable (V : (c : Dev nD) → (b : Ref sig .tc) → Buf (Elt F) ((c : Thread nD τ).loc b))
variable (a1 : (pcfg24 (F := F)).Adm)

/-- The eight cells at zero, listed, each as the body names it. -/
theorem ownSems24_eq (c : Dev nD) :
    (Pipeline.ownSems0 (Ix := Unit) (Name := ℕ) (U := Pipeline.UD sig nD τ) (Lvl := ℕ) (Val := Elt F) (τ := τ) osem24 c : sProp 𝕄)
      = iprop(semVal ((c : Thread nD τ), cell23_0 cc24_scratch0) 0 ∗ semVal ((c : Thread nD τ), cell23_1 cc24_scratch0) 0 ∗ semVal ((c : Thread nD τ), cell23_2 cc24_scratch0) 0 ∗ semVal ((c : Thread nD τ), cell23_3 cc24_scratch0) 0 ∗ semVal ((c : Thread nD τ), cell23_4 cc24_scratch0) 0 ∗ semVal ((c : Thread nD τ), cell23_5 cc24_scratch0) 0 ∗ semVal ((c : Thread nD τ), cell23_6 cc24_scratch0) 0 ∗ semVal ((c : Thread nD τ), cell23_7 cc24_scratch0) 0) := by
  rw [Pipeline.ownSems0_eq_of_list c osem24 [0, 1, 2, 3, 4, 5, 6, 7] (by decide) (by decide)]; rfl

/-- The array the rows are read from, at the contents the region found it with. -/
theorem hbm24_eq (c : Dev nD) :
    (bigSep H24 (fun b => ((c : Thread nD τ).loc b) ↦{fullShare} V c b) : sProp 𝕄)
      = ((Memref.whole main_v89 : Memref sig .tc .hbm S50000x128 .f32).view.loc (c : Thread nD τ) ↦{fullShare} V c main_v89) := by
  unfold H24
  rw [BI.bigSep_eq_bigSepL_of_eq [main_v89] (by decide) (by decide)]; rfl

/-- The table, held whole at the full share, is owned at its contents. -/
theorem tblw24_eq (c : Dev nD) :
    (Pipeline.prefHeld pre24 c (fun _ => fullShare) a1.1 : sProp 𝕄)
      = owns (c : Thread nD τ) (Memref.whole main_v92 : Memref sig .tc .smem S100000 .i32) fullShare (tblw24 a1) := by
  unfold Pipeline.prefHeld
  rw [bigSep_W24, owns_whole]; rfl

set_option maxHeartbeats 4000000 in
/-- The body at every point: the invariant hands the run its table, the array, the eight cells at zero (the scoped rest and
    the generator register ride along), the core's record of waits goes in at whatever the points before left and comes
    back with this point's eight, and the output block, at anything, comes back reading the gathered rows. -/
theorem hbodyG24 [∀ e, Nonempty (Elt F e)] (hlt : ∀ k : S100000.Idx, (tblw24 a1 k).toNat < 50000) (c : Dev nD) :
    BodyObligationLoose (datG24 V a1 (gblk24 V a1) c) (defs₀ (F := F)) Variants.none () Set.univ := by
  refine BodyObligation.loose _ fun t => ?_
  rw [bigSep_W24, bigSep_W24]
  show iprop(iprop(Pipeline.ΦD osem24 spec24 H24 V c ∗ Pipeline.prefHeld pre24 c (fun _ => fullShare) a1.1)
        ∗ (datG24 V a1 (gblk24 V a1) c).owesAt () t.castSucc
        ∗ (∃ d, owns (c : Thread nD τ) (spec24_0.stage ((cfg24 a1).slots t 0)) fullShare ((datG24 V a1 (gblk24 V a1) c).before 0 t d)))
      ⊢ wp frame (wpE (defs₀ (F := F)) Variants.none c none) Set.univ
          (cc24__gather_kernel ((cfg24 a1).grid.coords t) (Memref.whole main_v92) (Memref.isWhole_whole _) (Memref.whole main_v89) (Memref.isWhole_whole _)
            (spec24_0.stage ((cfg24 a1).slots t 0)) (hstage24_0 (((cfg24 a1).slots t 0).cast nbuf24_0)) cc24_scratch0)
          (fun _ => iprop(iprop(Pipeline.ΦD osem24 spec24 H24 V c ∗ Pipeline.prefHeld pre24 c (fun _ => fullShare) a1.1)
            ∗ (datG24 V a1 (gblk24 V a1) c).owesAt () t.succ
            ∗ owns (c : Thread nD τ) (spec24_0.stage ((cfg24 a1).slots t 0)) fullShare (gblk24 V a1 c t)))
  rw [Pipeline.ΦD_eq, ownSems24_eq, hbm24_eq, tblw24_eq]
  unfold Dat.owesAt Pipeline.owesWithin
  rw [show (datG24 V a1 (gblk24 V a1) c).owed t.castSucc = 0 from rfl, show (datG24 V a1 (gblk24 V a1) c).owed t.succ = 0 from rfl]
  have hr : (Memref.whole main_v89 : Memref sig .tc .hbm S50000x128 .f32).view.read (Elt F) (V c main_v89) = V c main_v89 := by
    simp only [Memref.view_whole, View.read_whole]
  iintro ⟨⟨⟨Hsc, Hg, ⟨Hq0, Hq1, Hq2, Hq3, Hq4, Hq5, Hq6, Hq7⟩, Hh⟩, Ht⟩, ⟨%W, -, HW⟩, ⟨%d, Hob⟩⟩
  iapply (kernelRun23 c ((cfg24 a1).grid.coords t) (Memref.whole main_v92) (Memref.isWhole_whole _) (Memref.whole main_v89) (Memref.isWhole_whole _)
    (spec24_0.stage ((cfg24 a1).slots t 0)) (hstage24_0 (((cfg24 a1).slots t 0).cast nbuf24_0)) (tblw24 a1) hlt fullShare fullShare (V c main_v89) cc24_scratch0 W _)
  isplitl [Ht]; · iexact Ht
  isplitl [Hh]; · iexact Hh
  isplitl [Hob]; · iexists _; iexact Hob
  isplitl [Hq0]; · iexact Hq0
  isplitl [Hq1]; · iexact Hq1
  isplitl [Hq2]; · iexact Hq2
  isplitl [Hq3]; · iexact Hq3
  isplitl [Hq4]; · iexact Hq4
  isplitl [Hq5]; · iexact Hq5
  isplitl [Hq6]; · iexact Hq6
  isplitl [Hq7]; · iexact Hq7
  isplitl [HW]; · iexact HW
  iintro ⟨Ht, Hh, Hob, Hq0, Hq1, Hq2, Hq3, Hq4, Hq5, Hq6, Hq7, ⟨%W', HW'⟩⟩
  isplitl [Hsc Hg Hq0 Hq1 Hq2 Hq3 Hq4 Hq5 Hq6 Hq7 Hh Ht]
  · isplitl [Hsc Hg Hq0 Hq1 Hq2 Hq3 Hq4 Hq5 Hq6 Hq7 Hh]
    · isplitl [Hsc]; · iexact Hsc
      isplitl [Hg]; · iexact Hg
      isplitl [Hq0 Hq1 Hq2 Hq3 Hq4 Hq5 Hq6 Hq7]
      · isplitl [Hq0]; · iexact Hq0
        isplitl [Hq1]; · iexact Hq1
        isplitl [Hq2]; · iexact Hq2
        isplitl [Hq3]; · iexact Hq3
        isplitl [Hq4]; · iexact Hq4
        isplitl [Hq5]; · iexact Hq5
        isplitl [Hq6]; · iexact Hq6
        iexact Hq7
      iexact Hh
    iexact Ht
  isplitl [HW']
  · iexists W'; isplitr; · ipureintro; exact fun _ _ => Or.inl trivial
    iexact HW'
  rw [hr]
  iexact Hob

end Cert.KernelIdeal.Hand

end
-- ==== Proof.KI.Regs4.lean ====
import proofs.«402049_j87351044866139_2_alg».proof.Proof.KI.Fam
import proofs.«402049_j87351044866139_2_alg».proof.Proof.KI.Tables
import proofs.«402049_j87351044866139_2_alg».proof.Proof.KI.GatherBody20
import proofs.«402049_j87351044866139_2_alg».proof.Proof.KI.GatherBody21
import proofs.«402049_j87351044866139_2_alg».proof.Proof.KI.GatherBody23
import proofs.«402049_j87351044866139_2_alg».proof.Proof.KI.GatherBody24
import Idealize.ShloMosaic.Lib.Pipeline.RegionsLoop

/-! The records of regions 20 to 24 over the thread states: each entered from every unscoped buffer at the real valuation
    before it and left at the one after it; for a gather region, first that every word of its table is a node's number. -/

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg BodyObligation BodyObligationLoose)

variable {F : FTy → Type} [FloatOps F]

local notation "𝕄" => MT nD τ sig Unit (Elt F) ℕ UU ℕ

set_option maxHeartbeats 1000000 in
/-- Every word of region 20's table is a node's number: the data's table is what the real valuation at the region's entry
    holds in the table's buffer; that valuation is the run's own, whose table is the closed one of the launch memory. -/
theorem hlt20 (m : (ℓ : Loc nD τ sig) → Buf (Elt F) ℓ) (hm : ∀ i : S2x800000.Idx, ((V0 m c₀ main_arg1 : IVec S2x800000 32) i).toNat < 50000) :
    ∀ k : S85000.Idx, (tblw20 (a20 m) k).toNat < 50000 := by
  have h1 : tblw20 (a20 m) = (U43 m c₀ main_v78 : IVec S85000 32) := by
    unfold a20
    rfl
  have h2 : ∀ W : Valuation τ sig (Elt F), V43 m (outsU m) c₀ = W → (W main_v78 : IVec S85000 32) = tbl20 m c₀ :=
    fun W hW => by subst hW; exact tbl20_eq m (outsU m) c₀
  have e : tblw20 (a20 m) = tbl20 m c₀ := h1.trans (h2 (U43 m c₀) (V43_eq m c₀))
  intro k
  rw [e]; exact tbl20_lt m c₀ hm k
set_option maxHeartbeats 1000000 in
set_option backward.isDefEq.respectTransparency.types false in
/-- REGION 20 over the thread state: entered from every unscoped buffer at `U43`, left at `U44`. -/
def reg20 (m : (ℓ : Loc nD τ sig) → Buf (Elt F) ℓ) (hm : ∀ i : S2x800000.Idx, ((V0 m c₀ main_arg1 : IVec S2x800000 32) i).toNat < 50000) :
    RegionSeg (pcfgs (F := F)) (adm m) (pdats m) () defs₀ 𝒱₀ L lv 20 where
  win := (launch20 (F := F)).win.to₀
  block_pos := (launch20 (F := F)).block_pos
  stage_whole := (launch20 (F := F)).stage_whole
  K := Fin 8
  osem := osem20
  ho := ownSemFacts20
  hbody c := hbodyG20 (atTc (U43 m)) (a20 m) (hlt20 m hm) c
  hwaits := Pipeline.hwaits_of_owed_zero _ _ _ _ L lv 20 fun _ _ => rfl
  pre c := iprop(StableHlo.held (c : Thread nD τ) (Pipeline.ucRefs τ sig) (U43 m c) ∗ R (F := F) c)
  post c := iprop(StableHlo.held (c : Thread nD τ) (Pipeline.ucRefs τ sig) (U44 m c) ∗ R (F := F) c)
  X c := XG20 (atTc (U43 m)) c
  Y c := YG20 (atTc (U43 m)) (a20 m) c
  Z c := ZG20 (atTc (U43 m)) c
  hentry c := by
    have hsplit := Pipeline.arrays_of_unscopedBufs (p := 20) (pcfgs (F := F)) (adm m) (pdats m) (launch20 (F := F)).win (launch20 (F := F)).arr_whole c
      ((pdats m 20 c).share_full fun _ => rfl) (atTc (U43 m) c) (fun _ => rfl)
    have h := hentryG20 (atTc (U43 m)) (a20 m) (gblk20 (atTc (U43 m)) (a20 m)) c (hpf20 m c) hsplit
    rw [Pipeline.unscopedBufs_held] at h
    exact h
  hin c := hinG20 (atTc (U43 m)) (a20 m) (gblk20 (atTc (U43 m)) (a20 m)) c
  hout c := houtG20 (atTc (U43 m)) (a20 m) (gblk20 (atTc (U43 m)) (a20 m)) c
  hexit c := by
    have hjoin := Pipeline.unscopedBufs_of_arrays (p := 20) (pcfgs (F := F)) (adm m) (Ix := Unit) (Name := ℕ) (U := UU) (Lvl := ℕ)
      (launch20 (F := F)).win (launch20 (F := F)).arr_whole c (pdats m) ((pdats m 20 c).share_full fun _ => rfl)
      (atTc (U43 m) c) (atTc (U44 m) c) ((pdats m 20 c).arrAt · (cfg20 (a20 m)).N) (hF20 m c) (hrest20 m c)
    have h := hexitG20 (atTc (U43 m)) (a20 m) (gblk20 (atTc (U43 m)) (a20 m)) (atTc (U44 m)) c (hpf20 m c) hjoin
    rw [Pipeline.unscopedBufs_held] at h
    exact h

set_option maxHeartbeats 1000000 in
/-- Every word of region 21's table is a node's number: the data's table is what the real valuation at the region's entry
    holds in the table's buffer; that valuation is the run's own, whose table is the closed one of the launch memory. -/
theorem hlt21 (m : (ℓ : Loc nD τ sig) → Buf (Elt F) ℓ) (hm : ∀ i : S2x800000.Idx, ((V0 m c₀ main_arg1 : IVec S2x800000 32) i).toNat < 50000) :
    ∀ k : S85000.Idx, (tblw21 (a21 m) k).toNat < 50000 := by
  have h1 : tblw21 (a21 m) = (U45 m c₀ main_v80 : IVec S85000 32) := by
    unfold a21
    rfl
  have h2 : ∀ W : Valuation τ sig (Elt F), V45 m (outsU m) c₀ = W → (W main_v80 : IVec S85000 32) = tbl21 m c₀ :=
    fun W hW => by subst hW; exact tbl21_eq m (outsU m) c₀
  have e : tblw21 (a21 m) = tbl21 m c₀ := h1.trans (h2 (U45 m c₀) (V45_eq m c₀))
  intro k
  rw [e]; exact tbl21_lt m c₀ hm k
set_option maxHeartbeats 1000000 in
set_option backward.isDefEq.respectTransparency.types false in
/-- REGION 21 over the thread state: entered from every unscoped buffer at `U45`, left at `U46`. -/
def reg21 (m : (ℓ : Loc nD τ sig) → Buf (Elt F) ℓ) (hm : ∀ i : S2x800000.Idx, ((V0 m c₀ main_arg1 : IVec S2x800000 32) i).toNat < 50000) :
    RegionSeg (pcfgs (F := F)) (adm m) (pdats m) () defs₀ 𝒱₀ L lv 21 where
  win := (launch21 (F := F)).win.to₀
  block_pos := (launch21 (F := F)).block_pos
  stage_whole := (launch21 (F := F)).stage_whole
  K := Fin 8
  osem := osem21
  ho := ownSemFacts21
  hbody c := hbodyG21 (atTc (U45 m)) (a21 m) (hlt21 m hm) c
  hwaits := Pipeline.hwaits_of_owed_zero _ _ _ _ L lv 21 fun _ _ => rfl
  pre c := iprop(StableHlo.held (c : Thread nD τ) (Pipeline.ucRefs τ sig) (U45 m c) ∗ R (F := F) c)
  post c := iprop(StableHlo.held (c : Thread nD τ) (Pipeline.ucRefs τ sig) (U46 m c) ∗ R (F := F) c)
  X c := XG21 (atTc (U45 m)) c
  Y c := YG21 (atTc (U45 m)) (a21 m) c
  Z c := ZG21 (atTc (U45 m)) c
  hentry c := by
    have hsplit := Pipeline.arrays_of_unscopedBufs (p := 21) (pcfgs (F := F)) (adm m) (pdats m) (launch21 (F := F)).win (launch21 (F := F)).arr_whole c
      ((pdats m 21 c).share_full fun _ => rfl) (atTc (U45 m) c) (fun _ => rfl)
    have h := hentryG21 (atTc (U45 m)) (a21 m) (gblk21 (atTc (U45 m)) (a21 m)) c (hpf21 m c) hsplit
    rw [Pipeline.unscopedBufs_held] at h
    exact h
  hin c := hinG21 (atTc (U45 m)) (a21 m) (gblk21 (atTc (U45 m)) (a21 m)) c
  hout c := houtG21 (atTc (U45 m)) (a21 m) (gblk21 (atTc (U45 m)) (a21 m)) c
  hexit c := by
    have hjoin := Pipeline.unscopedBufs_of_arrays (p := 21) (pcfgs (F := F)) (adm m) (Ix := Unit) (Name := ℕ) (U := UU) (Lvl := ℕ)
      (launch21 (F := F)).win (launch21 (F := F)).arr_whole c (pdats m) ((pdats m 21 c).share_full fun _ => rfl)
      (atTc (U45 m) c) (atTc (U46 m) c) ((pdats m 21 c).arrAt · (cfg21 (a21 m)).N) (hF21 m c) (hrest21 m c)
    have h := hexitG21 (atTc (U45 m)) (a21 m) (gblk21 (atTc (U45 m)) (a21 m)) (atTc (U46 m)) c (hpf21 m c) hjoin
    rw [Pipeline.unscopedBufs_held] at h
    exact h

set_option maxHeartbeats 1000000 in
set_option backward.isDefEq.respectTransparency.types false in
/-- REGION 22 over the thread state: entered from every unscoped buffer at `U47`, left at `U48`. -/
def reg22 (m : (ℓ : Loc nD τ sig) → Buf (Elt F) ℓ) : RegionSeg (pcfgs (F := F)) (adm m) (pdats m) () defs₀ 𝒱₀ L lv 22 where
  win := (launch22 (F := F)).win.to₀
  block_pos := (launch22 (F := F)).block_pos
  stage_whole := (launch22 (F := F)).stage_whole
  K := PEmpty
  osem k := k.elim
  ho := Pipeline.OwnSemFacts.none _
  hbody c := (body_obligation22 (atTc (U47 m)) c).loose
  hwaits := Pipeline.hwaits_of_owed_zero _ _ _ _ L lv 22 fun _ _ => rfl
  pre c := iprop(StableHlo.held (c : Thread nD τ) (Pipeline.ucRefs τ sig) (U47 m c) ∗ R (F := F) c)
  post c := iprop(StableHlo.held (c : Thread nD τ) (Pipeline.ucRefs τ sig) (U48 m c) ∗ R (F := F) c)
  X c := iprop(∃ r, prngReg c r)
  Y c := iprop(∃ r, prngReg c r)
  Z c := Pipeline.unscopedRest (Ix := Unit) (Name := ℕ) (U := UU) (Lvl := ℕ) spec22 c (atTc (U47 m) c)
  hentry c := by
    have hsplit := Pipeline.arrays_of_unscopedBufs (p := 22) (pcfgs (F := F)) (adm m) (pdats m) (launch22 (F := F)).win (launch22 (F := F)).arr_whole c
      ((pdats m 22 c).share_full fun _ => rfl) (atTc (U47 m) c) (fun _ => rfl)
    rw [Pipeline.unscopedBufs_held] at hsplit
    exact enterA c (U47 m c) hsplit (prefHeld_none_intro c _ _) (owesAt_first c _ rfl rfl)
  hin c := by
    rw [show (pdats m 22 c).Φ 0 = Pipeline.ΦA spec22 c from rfl]; unfold Pipeline.ΦA
    iintro ⟨Hp, -, Hr⟩
    isplitl [Hr]; · iexact Hr
    iexact Hp
  hout c := by
    rw [Pipeline.ownSems0_none, show (pdats m 22 c).Φ (Fin.last _) = Pipeline.ΦA spec22 c from rfl]; unfold Pipeline.ΦA
    iintro ⟨Hr, Hp⟩
    isplitl [Hp]; · iexact Hp
    isplitr; · iempintro
    iexact Hr
  hexit c := by
    have hjoin := Pipeline.unscopedBufs_of_arrays (p := 22) (pcfgs (F := F)) (adm m) (Ix := Unit) (Name := ℕ) (U := UU) (Lvl := ℕ)
      (launch22 (F := F)).win (launch22 (F := F)).arr_whole c (pdats m) ((pdats m 22 c).share_full fun _ => rfl)
      (atTc (U47 m) c) (atTc (U48 m) c) ((pdats m 22 c).arrAt · cfg22.N) (hF22 m c) (hrest22 m c)
    rw [Pipeline.unscopedBufs_held] at hjoin
    exact leaveA c (U48 m c) hjoin (owes_of_owesAt_last c _ rfl)

set_option maxHeartbeats 1000000 in
/-- Every word of region 23's table is a node's number: the data's table is what the real valuation at the region's entry
    holds in the table's buffer; that valuation is the run's own, whose table is the closed one of the launch memory. -/
theorem hlt23 (m : (ℓ : Loc nD τ sig) → Buf (Elt F) ℓ) (hm : ∀ i : S2x800000.Idx, ((V0 m c₀ main_arg1 : IVec S2x800000 32) i).toNat < 50000) :
    ∀ k : S100000.Idx, (tblw23 (a23 m) k).toNat < 50000 := by
  have h1 : tblw23 (a23 m) = (U49 m c₀ main_v90 : IVec S100000 32) := by
    unfold a23
    rfl
  have h2 : ∀ W : Valuation τ sig (Elt F), V49 m (outsU m) c₀ = W → (W main_v90 : IVec S100000 32) = tbl23 m c₀ :=
    fun W hW => by subst hW; exact tbl23_eq m (outsU m) c₀
  have e : tblw23 (a23 m) = tbl23 m c₀ := h1.trans (h2 (U49 m c₀) (V49_eq m c₀))
  intro k
  rw [e]; exact tbl23_lt m c₀ hm k
set_option maxHeartbeats 1000000 in
set_option backward.isDefEq.respectTransparency.types false in
/-- REGION 23 over the thread state: entered from every unscoped buffer at `U49`, left at `U50`. -/
def reg23 (m : (ℓ : Loc nD τ sig) → Buf (Elt F) ℓ) (hm : ∀ i : S2x800000.Idx, ((V0 m c₀ main_arg1 : IVec S2x800000 32) i).toNat < 50000) :
    RegionSeg (pcfgs (F := F)) (adm m) (pdats m) () defs₀ 𝒱₀ L lv 23 where
  win := (launch23 (F := F)).win.to₀
  block_pos := (launch23 (F := F)).block_pos
  stage_whole := (launch23 (F := F)).stage_whole
  K := Fin 8
  osem := osem23
  ho := ownSemFacts23
  hbody c := hbodyG23 (atTc (U49 m)) (a23 m) (hlt23 m hm) c
  hwaits := Pipeline.hwaits_of_owed_zero _ _ _ _ L lv 23 fun _ _ => rfl
  pre c := iprop(StableHlo.held (c : Thread nD τ) (Pipeline.ucRefs τ sig) (U49 m c) ∗ R (F := F) c)
  post c := iprop(StableHlo.held (c : Thread nD τ) (Pipeline.ucRefs τ sig) (U50 m c) ∗ R (F := F) c)
  X c := XG23 (atTc (U49 m)) c
  Y c := YG23 (atTc (U49 m)) (a23 m) c
  Z c := ZG23 (atTc (U49 m)) c
  hentry c := by
    have hsplit := Pipeline.arrays_of_unscopedBufs (p := 23) (pcfgs (F := F)) (adm m) (pdats m) (launch23 (F := F)).win (launch23 (F := F)).arr_whole c
      ((pdats m 23 c).share_full fun _ => rfl) (atTc (U49 m) c) (fun _ => rfl)
    have h := hentryG23 (atTc (U49 m)) (a23 m) (gblk23 (atTc (U49 m)) (a23 m)) c (hpf23 m c) hsplit
    rw [Pipeline.unscopedBufs_held] at h
    exact h
  hin c := hinG23 (atTc (U49 m)) (a23 m) (gblk23 (atTc (U49 m)) (a23 m)) c
  hout c := houtG23 (atTc (U49 m)) (a23 m) (gblk23 (atTc (U49 m)) (a23 m)) c
  hexit c := by
    have hjoin := Pipeline.unscopedBufs_of_arrays (p := 23) (pcfgs (F := F)) (adm m) (Ix := Unit) (Name := ℕ) (U := UU) (Lvl := ℕ)
      (launch23 (F := F)).win (launch23 (F := F)).arr_whole c (pdats m) ((pdats m 23 c).share_full fun _ => rfl)
      (atTc (U49 m) c) (atTc (U50 m) c) ((pdats m 23 c).arrAt · (cfg23 (a23 m)).N) (hF23 m c) (hrest23 m c)
    have h := hexitG23 (atTc (U49 m)) (a23 m) (gblk23 (atTc (U49 m)) (a23 m)) (atTc (U50 m)) c (hpf23 m c) hjoin
    rw [Pipeline.unscopedBufs_held] at h
    exact h

set_option maxHeartbeats 1000000 in
/-- Every word of region 24's table is a node's number: the data's table is what the real valuation at the region's entry
    holds in the table's buffer; that valuation is the run's own, whose table is the closed one of the launch memory. -/
theorem hlt24 (m : (ℓ : Loc nD τ sig) → Buf (Elt F) ℓ) (hm : ∀ i : S2x800000.Idx, ((V0 m c₀ main_arg1 : IVec S2x800000 32) i).toNat < 50000) :
    ∀ k : S100000.Idx, (tblw24 (a24 m) k).toNat < 50000 := by
  have h1 : tblw24 (a24 m) = (U51 m c₀ main_v92 : IVec S100000 32) := by
    unfold a24
    rfl
  have h2 : ∀ W : Valuation τ sig (Elt F), V51 m (outsU m) c₀ = W → (W main_v92 : IVec S100000 32) = tbl24 m c₀ :=
    fun W hW => by subst hW; exact tbl24_eq m (outsU m) c₀
  have e : tblw24 (a24 m) = tbl24 m c₀ := h1.trans (h2 (U51 m c₀) (V51_eq m c₀))
  intro k
  rw [e]; exact tbl24_lt m c₀ hm k
set_option maxHeartbeats 1000000 in
set_option backward.isDefEq.respectTransparency.types false in
/-- REGION 24 over the thread state: entered from every unscoped buffer at `U51`, left at `U52`. -/
def reg24 (m : (ℓ : Loc nD τ sig) → Buf (Elt F) ℓ) (hm : ∀ i : S2x800000.Idx, ((V0 m c₀ main_arg1 : IVec S2x800000 32) i).toNat < 50000) :
    RegionSeg (pcfgs (F := F)) (adm m) (pdats m) () defs₀ 𝒱₀ L lv 24 where
  win := (launch24 (F := F)).win.to₀
  block_pos := (launch24 (F := F)).block_pos
  stage_whole := (launch24 (F := F)).stage_whole
  K := Fin 8
  osem := osem24
  ho := ownSemFacts24
  hbody c := hbodyG24 (atTc (U51 m)) (a24 m) (hlt24 m hm) c
  hwaits := Pipeline.hwaits_of_owed_zero _ _ _ _ L lv 24 fun _ _ => rfl
  pre c := iprop(StableHlo.held (c : Thread nD τ) (Pipeline.ucRefs τ sig) (U51 m c) ∗ R (F := F) c)
  post c := iprop(StableHlo.held (c : Thread nD τ) (Pipeline.ucRefs τ sig) (U52 m c) ∗ R (F := F) c)
  X c := XG24 (atTc (U51 m)) c
  Y c := YG24 (atTc (U51 m)) (a24 m) c
  Z c := ZG24 (atTc (U51 m)) c
  hentry c := by
    have hsplit := Pipeline.arrays_of_unscopedBufs (p := 24) (pcfgs (F := F)) (adm m) (pdats m) (launch24 (F := F)).win (launch24 (F := F)).arr_whole c
      ((pdats m 24 c).share_full fun _ => rfl) (atTc (U51 m) c) (fun _ => rfl)
    have h := hentryG24 (atTc (U51 m)) (a24 m) (gblk24 (atTc (U51 m)) (a24 m)) c (hpf24 m c) hsplit
    rw [Pipeline.unscopedBufs_held] at h
    exact h
  hin c := hinG24 (atTc (U51 m)) (a24 m) (gblk24 (atTc (U51 m)) (a24 m)) c
  hout c := houtG24 (atTc (U51 m)) (a24 m) (gblk24 (atTc (U51 m)) (a24 m)) c
  hexit c := by
    have hjoin := Pipeline.unscopedBufs_of_arrays (p := 24) (pcfgs (F := F)) (adm m) (Ix := Unit) (Name := ℕ) (U := UU) (Lvl := ℕ)
      (launch24 (F := F)).win (launch24 (F := F)).arr_whole c (pdats m) ((pdats m 24 c).share_full fun _ => rfl)
      (atTc (U51 m) c) (atTc (U52 m) c) ((pdats m 24 c).arrAt · (cfg24 (a24 m)).N) (hF24 m c) (hrest24 m c)
    have h := hexitG24 (atTc (U51 m)) (a24 m) (gblk24 (atTc (U51 m)) (a24 m)) (atTc (U52 m)) c (hpf24 m c) hjoin
    rw [Pipeline.unscopedBufs_held] at h
    exact h

end Cert.KernelIdeal.Hand

end
-- ==== Proof.KI.GatherBody25.lean ====
/-
  Region 25's body obligation. The region runs the body of region 23 on its own table, array, output block and
  semaphores (the two kernel functions are one function), so the body's run is region 23's, cited at this region's eight
  semaphores; read with this region's invariant it is the pipeline's body obligation for the region's proof data.
-/
import proofs.«402049_j87351044866139_2_alg».proof.Proof.KI.GatherDef25
import proofs.«402049_j87351044866139_2_alg».proof.Proof.KI.GatherBody23

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Idealize.ShloMosaic.Transfers (shareDrop shareTokN)
open Cert.KernelIdeal Cert.KernelIdeal.Gen

variable {F : FTy → Type} [FloatOps F]

local notation "𝕄" => MT nD τ sig Unit (Elt F) ℕ (Pipeline.UD sig nD τ) ℕ

/-! ## The body obligation -/

variable (V : (c : Dev nD) → (b : Ref sig .tc) → Buf (Elt F) ((c : Thread nD τ).loc b))
variable (a1 : (pcfg25 (F := F)).Adm)

/-- The eight cells at zero, listed, each as the body names it. -/
theorem ownSems25_eq (c : Dev nD) :
    (Pipeline.ownSems0 (Ix := Unit) (Name := ℕ) (U := Pipeline.UD sig nD τ) (Lvl := ℕ) (Val := Elt F) (τ := τ) osem25 c : sProp 𝕄)
      = iprop(semVal ((c : Thread nD τ), cell23_0 cc25_scratch0) 0 ∗ semVal ((c : Thread nD τ), cell23_1 cc25_scratch0) 0 ∗ semVal ((c : Thread nD τ), cell23_2 cc25_scratch0) 0 ∗ semVal ((c : Thread nD τ), cell23_3 cc25_scratch0) 0 ∗ semVal ((c : Thread nD τ), cell23_4 cc25_scratch0) 0 ∗ semVal ((c : Thread nD τ), cell23_5 cc25_scratch0) 0 ∗ semVal ((c : Thread nD τ), cell23_6 cc25_scratch0) 0 ∗ semVal ((c : Thread nD τ), cell23_7 cc25_scratch0) 0) := by
  rw [Pipeline.ownSems0_eq_of_list c osem25 [0, 1, 2, 3, 4, 5, 6, 7] (by decide) (by decide)]; rfl

/-- The array the rows are read from, at the contents the region found it with. -/
theorem hbm25_eq (c : Dev nD) :
    (bigSep H25 (fun b => ((c : Thread nD τ).loc b) ↦{fullShare} V c b) : sProp 𝕄)
      = ((Memref.whole main_v89 : Memref sig .tc .hbm S50000x128 .f32).view.loc (c : Thread nD τ) ↦{fullShare} V c main_v89) := by
  unfold H25
  rw [BI.bigSep_eq_bigSepL_of_eq [main_v89] (by decide) (by decide)]; rfl

/-- The table, held whole at the full share, is owned at its contents. -/
theorem tblw25_eq (c : Dev nD) :
    (Pipeline.prefHeld pre25 c (fun _ => fullShare) a1.1 : sProp 𝕄)
      = owns (c : Thread nD τ) (Memref.whole main_v94 : Memref sig .tc .smem S100000 .i32) fullShare (tblw25 a1) := by
  unfold Pipeline.prefHeld
  rw [bigSep_W25, owns_whole]; rfl

set_option maxHeartbeats 4000000 in
/-- The body at every point: the invariant hands the run its table, the array, the eight cells at zero (the scoped rest and
    the generator register ride along), the core's record of waits goes in at whatever the points before left and comes
    back with this point's eight, and the output block, at anything, comes back reading the gathered rows. -/
theorem hbodyG25 [∀ e, Nonempty (Elt F e)] (hlt : ∀ k : S100000.Idx, (tblw25 a1 k).toNat < 50000) (c : Dev nD) :
    BodyObligationLoose (datG25 V a1 (gblk25 V a1) c) (defs₀ (F := F)) Variants.none () Set.univ := by
  refine BodyObligation.loose _ fun t => ?_
  rw [bigSep_W25, bigSep_W25]
  show iprop(iprop(Pipeline.ΦD osem25 spec25 H25 V c ∗ Pipeline.prefHeld pre25 c (fun _ => fullShare) a1.1)
        ∗ (datG25 V a1 (gblk25 V a1) c).owesAt () t.castSucc
        ∗ (∃ d, owns (c : Thread nD τ) (spec25_0.stage ((cfg25 a1).slots t 0)) fullShare ((datG25 V a1 (gblk25 V a1) c).before 0 t d)))
      ⊢ wp frame (wpE (defs₀ (F := F)) Variants.none c none) Set.univ
          (cc25__gather_kernel ((cfg25 a1).grid.coords t) (Memref.whole main_v94) (Memref.isWhole_whole _) (Memref.whole main_v89) (Memref.isWhole_whole _)
            (spec25_0.stage ((cfg25 a1).slots t 0)) (hstage25_0 (((cfg25 a1).slots t 0).cast nbuf25_0)) cc25_scratch0)
          (fun _ => iprop(iprop(Pipeline.ΦD osem25 spec25 H25 V c ∗ Pipeline.prefHeld pre25 c (fun _ => fullShare) a1.1)
            ∗ (datG25 V a1 (gblk25 V a1) c).owesAt () t.succ
            ∗ owns (c : Thread nD τ) (spec25_0.stage ((cfg25 a1).slots t 0)) fullShare (gblk25 V a1 c t)))
  rw [Pipeline.ΦD_eq, ownSems25_eq, hbm25_eq, tblw25_eq]
  unfold Dat.owesAt Pipeline.owesWithin
  rw [show (datG25 V a1 (gblk25 V a1) c).owed t.castSucc = 0 from rfl, show (datG25 V a1 (gblk25 V a1) c).owed t.succ = 0 from rfl]
  have hr : (Memref.whole main_v89 : Memref sig .tc .hbm S50000x128 .f32).view.read (Elt F) (V c main_v89) = V c main_v89 := by
    simp only [Memref.view_whole, View.read_whole]
  iintro ⟨⟨⟨Hsc, Hg, ⟨Hq0, Hq1, Hq2, Hq3, Hq4, Hq5, Hq6, Hq7⟩, Hh⟩, Ht⟩, ⟨%W, -, HW⟩, ⟨%d, Hob⟩⟩
  iapply (kernelRun23 c ((cfg25 a1).grid.coords t) (Memref.whole main_v94) (Memref.isWhole_whole _) (Memref.whole main_v89) (Memref.isWhole_whole _)
    (spec25_0.stage ((cfg25 a1).slots t 0)) (hstage25_0 (((cfg25 a1).slots t 0).cast nbuf25_0)) (tblw25 a1) hlt fullShare fullShare (V c main_v89) cc25_scratch0 W _)
  isplitl [Ht]; · iexact Ht
  isplitl [Hh]; · iexact Hh
  isplitl [Hob]; · iexists _; iexact Hob
  isplitl [Hq0]; · iexact Hq0
  isplitl [Hq1]; · iexact Hq1
  isplitl [Hq2]; · iexact Hq2
  isplitl [Hq3]; · iexact Hq3
  isplitl [Hq4]; · iexact Hq4
  isplitl [Hq5]; · iexact Hq5
  isplitl [Hq6]; · iexact Hq6
  isplitl [Hq7]; · iexact Hq7
  isplitl [HW]; · iexact HW
  iintro ⟨Ht, Hh, Hob, Hq0, Hq1, Hq2, Hq3, Hq4, Hq5, Hq6, Hq7, ⟨%W', HW'⟩⟩
  isplitl [Hsc Hg Hq0 Hq1 Hq2 Hq3 Hq4 Hq5 Hq6 Hq7 Hh Ht]
  · isplitl [Hsc Hg Hq0 Hq1 Hq2 Hq3 Hq4 Hq5 Hq6 Hq7 Hh]
    · isplitl [Hsc]; · iexact Hsc
      isplitl [Hg]; · iexact Hg
      isplitl [Hq0 Hq1 Hq2 Hq3 Hq4 Hq5 Hq6 Hq7]
      · isplitl [Hq0]; · iexact Hq0
        isplitl [Hq1]; · iexact Hq1
        isplitl [Hq2]; · iexact Hq2
        isplitl [Hq3]; · iexact Hq3
        isplitl [Hq4]; · iexact Hq4
        isplitl [Hq5]; · iexact Hq5
        isplitl [Hq6]; · iexact Hq6
        iexact Hq7
      iexact Hh
    iexact Ht
  isplitl [HW']
  · iexists W'; isplitr; · ipureintro; exact fun _ _ => Or.inl trivial
    iexact HW'
  rw [hr]
  iexact Hob

end Cert.KernelIdeal.Hand

end
-- ==== Proof.KI.GatherBody26.lean ====
/-
  Region 26's body obligation. The region runs the body of region 23 on its own table, array, output block and
  semaphores (the two kernel functions are one function), so the body's run is region 23's, cited at this region's eight
  semaphores; read with this region's invariant it is the pipeline's body obligation for the region's proof data.
-/
import proofs.«402049_j87351044866139_2_alg».proof.Proof.KI.GatherDef26
import proofs.«402049_j87351044866139_2_alg».proof.Proof.KI.GatherBody23

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Idealize.ShloMosaic.Transfers (shareDrop shareTokN)
open Cert.KernelIdeal Cert.KernelIdeal.Gen

variable {F : FTy → Type} [FloatOps F]

local notation "𝕄" => MT nD τ sig Unit (Elt F) ℕ (Pipeline.UD sig nD τ) ℕ

/-! ## The body obligation -/

variable (V : (c : Dev nD) → (b : Ref sig .tc) → Buf (Elt F) ((c : Thread nD τ).loc b))
variable (a1 : (pcfg26 (F := F)).Adm)

/-- The eight cells at zero, listed, each as the body names it. -/
theorem ownSems26_eq (c : Dev nD) :
    (Pipeline.ownSems0 (Ix := Unit) (Name := ℕ) (U := Pipeline.UD sig nD τ) (Lvl := ℕ) (Val := Elt F) (τ := τ) osem26 c : sProp 𝕄)
      = iprop(semVal ((c : Thread nD τ), cell23_0 cc26_scratch0) 0 ∗ semVal ((c : Thread nD τ), cell23_1 cc26_scratch0) 0 ∗ semVal ((c : Thread nD τ), cell23_2 cc26_scratch0) 0 ∗ semVal ((c : Thread nD τ), cell23_3 cc26_scratch0) 0 ∗ semVal ((c : Thread nD τ), cell23_4 cc26_scratch0) 0 ∗ semVal ((c : Thread nD τ), cell23_5 cc26_scratch0) 0 ∗ semVal ((c : Thread nD τ), cell23_6 cc26_scratch0) 0 ∗ semVal ((c : Thread nD τ), cell23_7 cc26_scratch0) 0) := by
  rw [Pipeline.ownSems0_eq_of_list c osem26 [0, 1, 2, 3, 4, 5, 6, 7] (by decide) (by decide)]; rfl

/-- The array the rows are read from, at the contents the region found it with. -/
theorem hbm26_eq (c : Dev nD) :
    (bigSep H26 (fun b => ((c : Thread nD τ).loc b) ↦{fullShare} V c b) : sProp 𝕄)
      = ((Memref.whole main_v89 : Memref sig .tc .hbm S50000x128 .f32).view.loc (c : Thread nD τ) ↦{fullShare} V c main_v89) := by
  unfold H26
  rw [BI.bigSep_eq_bigSepL_of_eq [main_v89] (by decide) (by decide)]; rfl

/-- The table, held whole at the full share, is owned at its contents. -/
theorem tblw26_eq (c : Dev nD) :
    (Pipeline.prefHeld pre26 c (fun _ => fullShare) a1.1 : sProp 𝕄)
      = owns (c : Thread nD τ) (Memref.whole main_v96 : Memref sig .tc .smem S100000 .i32) fullShare (tblw26 a1) := by
  unfold Pipeline.prefHeld
  rw [bigSep_W26, owns_whole]; rfl

set_option maxHeartbeats 4000000 in
/-- The body at every point: the invariant hands the run its table, the array, the eight cells at zero (the scoped rest and
    the generator register ride along), the core's record of waits goes in at whatever the points before left and comes
    back with this point's eight, and the output block, at anything, comes back reading the gathered rows. -/
theorem hbodyG26 [∀ e, Nonempty (Elt F e)] (hlt : ∀ k : S100000.Idx, (tblw26 a1 k).toNat < 50000) (c : Dev nD) :
    BodyObligationLoose (datG26 V a1 (gblk26 V a1) c) (defs₀ (F := F)) Variants.none () Set.univ := by
  refine BodyObligation.loose _ fun t => ?_
  rw [bigSep_W26, bigSep_W26]
  show iprop(iprop(Pipeline.ΦD osem26 spec26 H26 V c ∗ Pipeline.prefHeld pre26 c (fun _ => fullShare) a1.1)
        ∗ (datG26 V a1 (gblk26 V a1) c).owesAt () t.castSucc
        ∗ (∃ d, owns (c : Thread nD τ) (spec26_0.stage ((cfg26 a1).slots t 0)) fullShare ((datG26 V a1 (gblk26 V a1) c).before 0 t d)))
      ⊢ wp frame (wpE (defs₀ (F := F)) Variants.none c none) Set.univ
          (cc26__gather_kernel ((cfg26 a1).grid.coords t) (Memref.whole main_v96) (Memref.isWhole_whole _) (Memref.whole main_v89) (Memref.isWhole_whole _)
            (spec26_0.stage ((cfg26 a1).slots t 0)) (hstage26_0 (((cfg26 a1).slots t 0).cast nbuf26_0)) cc26_scratch0)
          (fun _ => iprop(iprop(Pipeline.ΦD osem26 spec26 H26 V c ∗ Pipeline.prefHeld pre26 c (fun _ => fullShare) a1.1)
            ∗ (datG26 V a1 (gblk26 V a1) c).owesAt () t.succ
            ∗ owns (c : Thread nD τ) (spec26_0.stage ((cfg26 a1).slots t 0)) fullShare (gblk26 V a1 c t)))
  rw [Pipeline.ΦD_eq, ownSems26_eq, hbm26_eq, tblw26_eq]
  unfold Dat.owesAt Pipeline.owesWithin
  rw [show (datG26 V a1 (gblk26 V a1) c).owed t.castSucc = 0 from rfl, show (datG26 V a1 (gblk26 V a1) c).owed t.succ = 0 from rfl]
  have hr : (Memref.whole main_v89 : Memref sig .tc .hbm S50000x128 .f32).view.read (Elt F) (V c main_v89) = V c main_v89 := by
    simp only [Memref.view_whole, View.read_whole]
  iintro ⟨⟨⟨Hsc, Hg, ⟨Hq0, Hq1, Hq2, Hq3, Hq4, Hq5, Hq6, Hq7⟩, Hh⟩, Ht⟩, ⟨%W, -, HW⟩, ⟨%d, Hob⟩⟩
  iapply (kernelRun23 c ((cfg26 a1).grid.coords t) (Memref.whole main_v96) (Memref.isWhole_whole _) (Memref.whole main_v89) (Memref.isWhole_whole _)
    (spec26_0.stage ((cfg26 a1).slots t 0)) (hstage26_0 (((cfg26 a1).slots t 0).cast nbuf26_0)) (tblw26 a1) hlt fullShare fullShare (V c main_v89) cc26_scratch0 W _)
  isplitl [Ht]; · iexact Ht
  isplitl [Hh]; · iexact Hh
  isplitl [Hob]; · iexists _; iexact Hob
  isplitl [Hq0]; · iexact Hq0
  isplitl [Hq1]; · iexact Hq1
  isplitl [Hq2]; · iexact Hq2
  isplitl [Hq3]; · iexact Hq3
  isplitl [Hq4]; · iexact Hq4
  isplitl [Hq5]; · iexact Hq5
  isplitl [Hq6]; · iexact Hq6
  isplitl [Hq7]; · iexact Hq7
  isplitl [HW]; · iexact HW
  iintro ⟨Ht, Hh, Hob, Hq0, Hq1, Hq2, Hq3, Hq4, Hq5, Hq6, Hq7, ⟨%W', HW'⟩⟩
  isplitl [Hsc Hg Hq0 Hq1 Hq2 Hq3 Hq4 Hq5 Hq6 Hq7 Hh Ht]
  · isplitl [Hsc Hg Hq0 Hq1 Hq2 Hq3 Hq4 Hq5 Hq6 Hq7 Hh]
    · isplitl [Hsc]; · iexact Hsc
      isplitl [Hg]; · iexact Hg
      isplitl [Hq0 Hq1 Hq2 Hq3 Hq4 Hq5 Hq6 Hq7]
      · isplitl [Hq0]; · iexact Hq0
        isplitl [Hq1]; · iexact Hq1
        isplitl [Hq2]; · iexact Hq2
        isplitl [Hq3]; · iexact Hq3
        isplitl [Hq4]; · iexact Hq4
        isplitl [Hq5]; · iexact Hq5
        isplitl [Hq6]; · iexact Hq6
        iexact Hq7
      iexact Hh
    iexact Ht
  isplitl [HW']
  · iexists W'; isplitr; · ipureintro; exact fun _ _ => Or.inl trivial
    iexact HW'
  rw [hr]
  iexact Hob

end Cert.KernelIdeal.Hand

end
-- ==== Proof.KI.GatherBody27.lean ====
/-
  Region 27's body obligation. The region runs the body of region 23 on its own table, array, output block and
  semaphores (the two kernel functions are one function), so the body's run is region 23's, cited at this region's eight
  semaphores; read with this region's invariant it is the pipeline's body obligation for the region's proof data.
-/
import proofs.«402049_j87351044866139_2_alg».proof.Proof.KI.GatherDef27
import proofs.«402049_j87351044866139_2_alg».proof.Proof.KI.GatherBody23

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Idealize.ShloMosaic.Transfers (shareDrop shareTokN)
open Cert.KernelIdeal Cert.KernelIdeal.Gen

variable {F : FTy → Type} [FloatOps F]

local notation "𝕄" => MT nD τ sig Unit (Elt F) ℕ (Pipeline.UD sig nD τ) ℕ

/-! ## The body obligation -/

variable (V : (c : Dev nD) → (b : Ref sig .tc) → Buf (Elt F) ((c : Thread nD τ).loc b))
variable (a1 : (pcfg27 (F := F)).Adm)

/-- The eight cells at zero, listed, each as the body names it. -/
theorem ownSems27_eq (c : Dev nD) :
    (Pipeline.ownSems0 (Ix := Unit) (Name := ℕ) (U := Pipeline.UD sig nD τ) (Lvl := ℕ) (Val := Elt F) (τ := τ) osem27 c : sProp 𝕄)
      = iprop(semVal ((c : Thread nD τ), cell23_0 cc27_scratch0) 0 ∗ semVal ((c : Thread nD τ), cell23_1 cc27_scratch0) 0 ∗ semVal ((c : Thread nD τ), cell23_2 cc27_scratch0) 0 ∗ semVal ((c : Thread nD τ), cell23_3 cc27_scratch0) 0 ∗ semVal ((c : Thread nD τ), cell23_4 cc27_scratch0) 0 ∗ semVal ((c : Thread nD τ), cell23_5 cc27_scratch0) 0 ∗ semVal ((c : Thread nD τ), cell23_6 cc27_scratch0) 0 ∗ semVal ((c : Thread nD τ), cell23_7 cc27_scratch0) 0) := by
  rw [Pipeline.ownSems0_eq_of_list c osem27 [0, 1, 2, 3, 4, 5, 6, 7] (by decide) (by decide)]; rfl

/-- The array the rows are read from, at the contents the region found it with. -/
theorem hbm27_eq (c : Dev nD) :
    (bigSep H27 (fun b => ((c : Thread nD τ).loc b) ↦{fullShare} V c b) : sProp 𝕄)
      = ((Memref.whole main_v89 : Memref sig .tc .hbm S50000x128 .f32).view.loc (c : Thread nD τ) ↦{fullShare} V c main_v89) := by
  unfold H27
  rw [BI.bigSep_eq_bigSepL_of_eq [main_v89] (by decide) (by decide)]; rfl

/-- The table, held whole at the full share, is owned at its contents. -/
theorem tblw27_eq (c : Dev nD) :
    (Pipeline.prefHeld pre27 c (fun _ => fullShare) a1.1 : sProp 𝕄)
      = owns (c : Thread nD τ) (Memref.whole main_v98 : Memref sig .tc .smem S100000 .i32) fullShare (tblw27 a1) := by
  unfold Pipeline.prefHeld
  rw [bigSep_W27, owns_whole]; rfl

set_option maxHeartbeats 4000000 in
/-- The body at every point: the invariant hands the run its table, the array, the eight cells at zero (the scoped rest and
    the generator register ride along), the core's record of waits goes in at whatever the points before left and comes
    back with this point's eight, and the output block, at anything, comes back reading the gathered rows. -/
theorem hbodyG27 [∀ e, Nonempty (Elt F e)] (hlt : ∀ k : S100000.Idx, (tblw27 a1 k).toNat < 50000) (c : Dev nD) :
    BodyObligationLoose (datG27 V a1 (gblk27 V a1) c) (defs₀ (F := F)) Variants.none () Set.univ := by
  refine BodyObligation.loose _ fun t => ?_
  rw [bigSep_W27, bigSep_W27]
  show iprop(iprop(Pipeline.ΦD osem27 spec27 H27 V c ∗ Pipeline.prefHeld pre27 c (fun _ => fullShare) a1.1)
        ∗ (datG27 V a1 (gblk27 V a1) c).owesAt () t.castSucc
        ∗ (∃ d, owns (c : Thread nD τ) (spec27_0.stage ((cfg27 a1).slots t 0)) fullShare ((datG27 V a1 (gblk27 V a1) c).before 0 t d)))
      ⊢ wp frame (wpE (defs₀ (F := F)) Variants.none c none) Set.univ
          (cc27__gather_kernel ((cfg27 a1).grid.coords t) (Memref.whole main_v98) (Memref.isWhole_whole _) (Memref.whole main_v89) (Memref.isWhole_whole _)
            (spec27_0.stage ((cfg27 a1).slots t 0)) (hstage27_0 (((cfg27 a1).slots t 0).cast nbuf27_0)) cc27_scratch0)
          (fun _ => iprop(iprop(Pipeline.ΦD osem27 spec27 H27 V c ∗ Pipeline.prefHeld pre27 c (fun _ => fullShare) a1.1)
            ∗ (datG27 V a1 (gblk27 V a1) c).owesAt () t.succ
            ∗ owns (c : Thread nD τ) (spec27_0.stage ((cfg27 a1).slots t 0)) fullShare (gblk27 V a1 c t)))
  rw [Pipeline.ΦD_eq, ownSems27_eq, hbm27_eq, tblw27_eq]
  unfold Dat.owesAt Pipeline.owesWithin
  rw [show (datG27 V a1 (gblk27 V a1) c).owed t.castSucc = 0 from rfl, show (datG27 V a1 (gblk27 V a1) c).owed t.succ = 0 from rfl]
  have hr : (Memref.whole main_v89 : Memref sig .tc .hbm S50000x128 .f32).view.read (Elt F) (V c main_v89) = V c main_v89 := by
    simp only [Memref.view_whole, View.read_whole]
  iintro ⟨⟨⟨Hsc, Hg, ⟨Hq0, Hq1, Hq2, Hq3, Hq4, Hq5, Hq6, Hq7⟩, Hh⟩, Ht⟩, ⟨%W, -, HW⟩, ⟨%d, Hob⟩⟩
  iapply (kernelRun23 c ((cfg27 a1).grid.coords t) (Memref.whole main_v98) (Memref.isWhole_whole _) (Memref.whole main_v89) (Memref.isWhole_whole _)
    (spec27_0.stage ((cfg27 a1).slots t 0)) (hstage27_0 (((cfg27 a1).slots t 0).cast nbuf27_0)) (tblw27 a1) hlt fullShare fullShare (V c main_v89) cc27_scratch0 W _)
  isplitl [Ht]; · iexact Ht
  isplitl [Hh]; · iexact Hh
  isplitl [Hob]; · iexists _; iexact Hob
  isplitl [Hq0]; · iexact Hq0
  isplitl [Hq1]; · iexact Hq1
  isplitl [Hq2]; · iexact Hq2
  isplitl [Hq3]; · iexact Hq3
  isplitl [Hq4]; · iexact Hq4
  isplitl [Hq5]; · iexact Hq5
  isplitl [Hq6]; · iexact Hq6
  isplitl [Hq7]; · iexact Hq7
  isplitl [HW]; · iexact HW
  iintro ⟨Ht, Hh, Hob, Hq0, Hq1, Hq2, Hq3, Hq4, Hq5, Hq6, Hq7, ⟨%W', HW'⟩⟩
  isplitl [Hsc Hg Hq0 Hq1 Hq2 Hq3 Hq4 Hq5 Hq6 Hq7 Hh Ht]
  · isplitl [Hsc Hg Hq0 Hq1 Hq2 Hq3 Hq4 Hq5 Hq6 Hq7 Hh]
    · isplitl [Hsc]; · iexact Hsc
      isplitl [Hg]; · iexact Hg
      isplitl [Hq0 Hq1 Hq2 Hq3 Hq4 Hq5 Hq6 Hq7]
      · isplitl [Hq0]; · iexact Hq0
        isplitl [Hq1]; · iexact Hq1
        isplitl [Hq2]; · iexact Hq2
        isplitl [Hq3]; · iexact Hq3
        isplitl [Hq4]; · iexact Hq4
        isplitl [Hq5]; · iexact Hq5
        isplitl [Hq6]; · iexact Hq6
        iexact Hq7
      iexact Hh
    iexact Ht
  isplitl [HW']
  · iexists W'; isplitr; · ipureintro; exact fun _ _ => Or.inl trivial
    iexact HW'
  rw [hr]
  iexact Hob

end Cert.KernelIdeal.Hand

end
-- ==== Proof.KI.GatherBody28.lean ====
/-
  Region 28's body obligation. The region runs the body of region 23 on its own table, array, output block and
  semaphores (the two kernel functions are one function), so the body's run is region 23's, cited at this region's eight
  semaphores; read with this region's invariant it is the pipeline's body obligation for the region's proof data.
-/
import proofs.«402049_j87351044866139_2_alg».proof.Proof.KI.GatherDef28
import proofs.«402049_j87351044866139_2_alg».proof.Proof.KI.GatherBody23

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Idealize.ShloMosaic.Transfers (shareDrop shareTokN)
open Cert.KernelIdeal Cert.KernelIdeal.Gen

variable {F : FTy → Type} [FloatOps F]

local notation "𝕄" => MT nD τ sig Unit (Elt F) ℕ (Pipeline.UD sig nD τ) ℕ

/-! ## The body obligation -/

variable (V : (c : Dev nD) → (b : Ref sig .tc) → Buf (Elt F) ((c : Thread nD τ).loc b))
variable (a1 : (pcfg28 (F := F)).Adm)

/-- The eight cells at zero, listed, each as the body names it. -/
theorem ownSems28_eq (c : Dev nD) :
    (Pipeline.ownSems0 (Ix := Unit) (Name := ℕ) (U := Pipeline.UD sig nD τ) (Lvl := ℕ) (Val := Elt F) (τ := τ) osem28 c : sProp 𝕄)
      = iprop(semVal ((c : Thread nD τ), cell23_0 cc28_scratch0) 0 ∗ semVal ((c : Thread nD τ), cell23_1 cc28_scratch0) 0 ∗ semVal ((c : Thread nD τ), cell23_2 cc28_scratch0) 0 ∗ semVal ((c : Thread nD τ), cell23_3 cc28_scratch0) 0 ∗ semVal ((c : Thread nD τ), cell23_4 cc28_scratch0) 0 ∗ semVal ((c : Thread nD τ), cell23_5 cc28_scratch0) 0 ∗ semVal ((c : Thread nD τ), cell23_6 cc28_scratch0) 0 ∗ semVal ((c : Thread nD τ), cell23_7 cc28_scratch0) 0) := by
  rw [Pipeline.ownSems0_eq_of_list c osem28 [0, 1, 2, 3, 4, 5, 6, 7] (by decide) (by decide)]; rfl

/-- The array the rows are read from, at the contents the region found it with. -/
theorem hbm28_eq (c : Dev nD) :
    (bigSep H28 (fun b => ((c : Thread nD τ).loc b) ↦{fullShare} V c b) : sProp 𝕄)
      = ((Memref.whole main_v89 : Memref sig .tc .hbm S50000x128 .f32).view.loc (c : Thread nD τ) ↦{fullShare} V c main_v89) := by
  unfold H28
  rw [BI.bigSep_eq_bigSepL_of_eq [main_v89] (by decide) (by decide)]; rfl

/-- The table, held whole at the full share, is owned at its contents. -/
theorem tblw28_eq (c : Dev nD) :
    (Pipeline.prefHeld pre28 c (fun _ => fullShare) a1.1 : sProp 𝕄)
      = owns (c : Thread nD τ) (Memref.whole main_v100 : Memref sig .tc .smem S100000 .i32) fullShare (tblw28 a1) := by
  unfold Pipeline.prefHeld
  rw [bigSep_W28, owns_whole]; rfl

set_option maxHeartbeats 4000000 in
/-- The body at every point: the invariant hands the run its table, the array, the eight cells at zero (the scoped rest and
    the generator register ride along), the core's record of waits goes in at whatever the points before left and comes
    back with this point's eight, and the output block, at anything, comes back reading the gathered rows. -/
theorem hbodyG28 [∀ e, Nonempty (Elt F e)] (hlt : ∀ k : S100000.Idx, (tblw28 a1 k).toNat < 50000) (c : Dev nD) :
    BodyObligationLoose (datG28 V a1 (gblk28 V a1) c) (defs₀ (F := F)) Variants.none () Set.univ := by
  refine BodyObligation.loose _ fun t => ?_
  rw [bigSep_W28, bigSep_W28]
  show iprop(iprop(Pipeline.ΦD osem28 spec28 H28 V c ∗ Pipeline.prefHeld pre28 c (fun _ => fullShare) a1.1)
        ∗ (datG28 V a1 (gblk28 V a1) c).owesAt () t.castSucc
        ∗ (∃ d, owns (c : Thread nD τ) (spec28_0.stage ((cfg28 a1).slots t 0)) fullShare ((datG28 V a1 (gblk28 V a1) c).before 0 t d)))
      ⊢ wp frame (wpE (defs₀ (F := F)) Variants.none c none) Set.univ
          (cc28__gather_kernel ((cfg28 a1).grid.coords t) (Memref.whole main_v100) (Memref.isWhole_whole _) (Memref.whole main_v89) (Memref.isWhole_whole _)
            (spec28_0.stage ((cfg28 a1).slots t 0)) (hstage28_0 (((cfg28 a1).slots t 0).cast nbuf28_0)) cc28_scratch0)
          (fun _ => iprop(iprop(Pipeline.ΦD osem28 spec28 H28 V c ∗ Pipeline.prefHeld pre28 c (fun _ => fullShare) a1.1)
            ∗ (datG28 V a1 (gblk28 V a1) c).owesAt () t.succ
            ∗ owns (c : Thread nD τ) (spec28_0.stage ((cfg28 a1).slots t 0)) fullShare (gblk28 V a1 c t)))
  rw [Pipeline.ΦD_eq, ownSems28_eq, hbm28_eq, tblw28_eq]
  unfold Dat.owesAt Pipeline.owesWithin
  rw [show (datG28 V a1 (gblk28 V a1) c).owed t.castSucc = 0 from rfl, show (datG28 V a1 (gblk28 V a1) c).owed t.succ = 0 from rfl]
  have hr : (Memref.whole main_v89 : Memref sig .tc .hbm S50000x128 .f32).view.read (Elt F) (V c main_v89) = V c main_v89 := by
    simp only [Memref.view_whole, View.read_whole]
  iintro ⟨⟨⟨Hsc, Hg, ⟨Hq0, Hq1, Hq2, Hq3, Hq4, Hq5, Hq6, Hq7⟩, Hh⟩, Ht⟩, ⟨%W, -, HW⟩, ⟨%d, Hob⟩⟩
  iapply (kernelRun23 c ((cfg28 a1).grid.coords t) (Memref.whole main_v100) (Memref.isWhole_whole _) (Memref.whole main_v89) (Memref.isWhole_whole _)
    (spec28_0.stage ((cfg28 a1).slots t 0)) (hstage28_0 (((cfg28 a1).slots t 0).cast nbuf28_0)) (tblw28 a1) hlt fullShare fullShare (V c main_v89) cc28_scratch0 W _)
  isplitl [Ht]; · iexact Ht
  isplitl [Hh]; · iexact Hh
  isplitl [Hob]; · iexists _; iexact Hob
  isplitl [Hq0]; · iexact Hq0
  isplitl [Hq1]; · iexact Hq1
  isplitl [Hq2]; · iexact Hq2
  isplitl [Hq3]; · iexact Hq3
  isplitl [Hq4]; · iexact Hq4
  isplitl [Hq5]; · iexact Hq5
  isplitl [Hq6]; · iexact Hq6
  isplitl [Hq7]; · iexact Hq7
  isplitl [HW]; · iexact HW
  iintro ⟨Ht, Hh, Hob, Hq0, Hq1, Hq2, Hq3, Hq4, Hq5, Hq6, Hq7, ⟨%W', HW'⟩⟩
  isplitl [Hsc Hg Hq0 Hq1 Hq2 Hq3 Hq4 Hq5 Hq6 Hq7 Hh Ht]
  · isplitl [Hsc Hg Hq0 Hq1 Hq2 Hq3 Hq4 Hq5 Hq6 Hq7 Hh]
    · isplitl [Hsc]; · iexact Hsc
      isplitl [Hg]; · iexact Hg
      isplitl [Hq0 Hq1 Hq2 Hq3 Hq4 Hq5 Hq6 Hq7]
      · isplitl [Hq0]; · iexact Hq0
        isplitl [Hq1]; · iexact Hq1
        isplitl [Hq2]; · iexact Hq2
        isplitl [Hq3]; · iexact Hq3
        isplitl [Hq4]; · iexact Hq4
        isplitl [Hq5]; · iexact Hq5
        isplitl [Hq6]; · iexact Hq6
        iexact Hq7
      iexact Hh
    iexact Ht
  isplitl [HW']
  · iexists W'; isplitr; · ipureintro; exact fun _ _ => Or.inl trivial
    iexact HW'
  rw [hr]
  iexact Hob

end Cert.KernelIdeal.Hand

end
-- ==== Proof.KI.GatherBody29.lean ====
/-
  Region 29's body obligation. The region runs the body of region 23 on its own table, array, output block and
  semaphores (the two kernel functions are one function), so the body's run is region 23's, cited at this region's eight
  semaphores; read with this region's invariant it is the pipeline's body obligation for the region's proof data.
-/
import proofs.«402049_j87351044866139_2_alg».proof.Proof.KI.GatherDef29
import proofs.«402049_j87351044866139_2_alg».proof.Proof.KI.GatherBody23

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Idealize.ShloMosaic.Transfers (shareDrop shareTokN)
open Cert.KernelIdeal Cert.KernelIdeal.Gen

variable {F : FTy → Type} [FloatOps F]

local notation "𝕄" => MT nD τ sig Unit (Elt F) ℕ (Pipeline.UD sig nD τ) ℕ

/-! ## The body obligation -/

variable (V : (c : Dev nD) → (b : Ref sig .tc) → Buf (Elt F) ((c : Thread nD τ).loc b))
variable (a1 : (pcfg29 (F := F)).Adm)

/-- The eight cells at zero, listed, each as the body names it. -/
theorem ownSems29_eq (c : Dev nD) :
    (Pipeline.ownSems0 (Ix := Unit) (Name := ℕ) (U := Pipeline.UD sig nD τ) (Lvl := ℕ) (Val := Elt F) (τ := τ) osem29 c : sProp 𝕄)
      = iprop(semVal ((c : Thread nD τ), cell23_0 cc29_scratch0) 0 ∗ semVal ((c : Thread nD τ), cell23_1 cc29_scratch0) 0 ∗ semVal ((c : Thread nD τ), cell23_2 cc29_scratch0) 0 ∗ semVal ((c : Thread nD τ), cell23_3 cc29_scratch0) 0 ∗ semVal ((c : Thread nD τ), cell23_4 cc29_scratch0) 0 ∗ semVal ((c : Thread nD τ), cell23_5 cc29_scratch0) 0 ∗ semVal ((c : Thread nD τ), cell23_6 cc29_scratch0) 0 ∗ semVal ((c : Thread nD τ), cell23_7 cc29_scratch0) 0) := by
  rw [Pipeline.ownSems0_eq_of_list c osem29 [0, 1, 2, 3, 4, 5, 6, 7] (by decide) (by decide)]; rfl

/-- The array the rows are read from, at the contents the region found it with. -/
theorem hbm29_eq (c : Dev nD) :
    (bigSep H29 (fun b => ((c : Thread nD τ).loc b) ↦{fullShare} V c b) : sProp 𝕄)
      = ((Memref.whole main_v89 : Memref sig .tc .hbm S50000x128 .f32).view.loc (c : Thread nD τ) ↦{fullShare} V c main_v89) := by
  unfold H29
  rw [BI.bigSep_eq_bigSepL_of_eq [main_v89] (by decide) (by decide)]; rfl

/-- The table, held whole at the full share, is owned at its contents. -/
theorem tblw29_eq (c : Dev nD) :
    (Pipeline.prefHeld pre29 c (fun _ => fullShare) a1.1 : sProp 𝕄)
      = owns (c : Thread nD τ) (Memref.whole main_v102 : Memref sig .tc .smem S100000 .i32) fullShare (tblw29 a1) := by
  unfold Pipeline.prefHeld
  rw [bigSep_W29, owns_whole]; rfl

set_option maxHeartbeats 4000000 in
/-- The body at every point: the invariant hands the run its table, the array, the eight cells at zero (the scoped rest and
    the generator register ride along), the core's record of waits goes in at whatever the points before left and comes
    back with this point's eight, and the output block, at anything, comes back reading the gathered rows. -/
theorem hbodyG29 [∀ e, Nonempty (Elt F e)] (hlt : ∀ k : S100000.Idx, (tblw29 a1 k).toNat < 50000) (c : Dev nD) :
    BodyObligationLoose (datG29 V a1 (gblk29 V a1) c) (defs₀ (F := F)) Variants.none () Set.univ := by
  refine BodyObligation.loose _ fun t => ?_
  rw [bigSep_W29, bigSep_W29]
  show iprop(iprop(Pipeline.ΦD osem29 spec29 H29 V c ∗ Pipeline.prefHeld pre29 c (fun _ => fullShare) a1.1)
        ∗ (datG29 V a1 (gblk29 V a1) c).owesAt () t.castSucc
        ∗ (∃ d, owns (c : Thread nD τ) (spec29_0.stage ((cfg29 a1).slots t 0)) fullShare ((datG29 V a1 (gblk29 V a1) c).before 0 t d)))
      ⊢ wp frame (wpE (defs₀ (F := F)) Variants.none c none) Set.univ
          (cc29__gather_kernel ((cfg29 a1).grid.coords t) (Memref.whole main_v102) (Memref.isWhole_whole _) (Memref.whole main_v89) (Memref.isWhole_whole _)
            (spec29_0.stage ((cfg29 a1).slots t 0)) (hstage29_0 (((cfg29 a1).slots t 0).cast nbuf29_0)) cc29_scratch0)
          (fun _ => iprop(iprop(Pipeline.ΦD osem29 spec29 H29 V c ∗ Pipeline.prefHeld pre29 c (fun _ => fullShare) a1.1)
            ∗ (datG29 V a1 (gblk29 V a1) c).owesAt () t.succ
            ∗ owns (c : Thread nD τ) (spec29_0.stage ((cfg29 a1).slots t 0)) fullShare (gblk29 V a1 c t)))
  rw [Pipeline.ΦD_eq, ownSems29_eq, hbm29_eq, tblw29_eq]
  unfold Dat.owesAt Pipeline.owesWithin
  rw [show (datG29 V a1 (gblk29 V a1) c).owed t.castSucc = 0 from rfl, show (datG29 V a1 (gblk29 V a1) c).owed t.succ = 0 from rfl]
  have hr : (Memref.whole main_v89 : Memref sig .tc .hbm S50000x128 .f32).view.read (Elt F) (V c main_v89) = V c main_v89 := by
    simp only [Memref.view_whole, View.read_whole]
  iintro ⟨⟨⟨Hsc, Hg, ⟨Hq0, Hq1, Hq2, Hq3, Hq4, Hq5, Hq6, Hq7⟩, Hh⟩, Ht⟩, ⟨%W, -, HW⟩, ⟨%d, Hob⟩⟩
  iapply (kernelRun23 c ((cfg29 a1).grid.coords t) (Memref.whole main_v102) (Memref.isWhole_whole _) (Memref.whole main_v89) (Memref.isWhole_whole _)
    (spec29_0.stage ((cfg29 a1).slots t 0)) (hstage29_0 (((cfg29 a1).slots t 0).cast nbuf29_0)) (tblw29 a1) hlt fullShare fullShare (V c main_v89) cc29_scratch0 W _)
  isplitl [Ht]; · iexact Ht
  isplitl [Hh]; · iexact Hh
  isplitl [Hob]; · iexists _; iexact Hob
  isplitl [Hq0]; · iexact Hq0
  isplitl [Hq1]; · iexact Hq1
  isplitl [Hq2]; · iexact Hq2
  isplitl [Hq3]; · iexact Hq3
  isplitl [Hq4]; · iexact Hq4
  isplitl [Hq5]; · iexact Hq5
  isplitl [Hq6]; · iexact Hq6
  isplitl [Hq7]; · iexact Hq7
  isplitl [HW]; · iexact HW
  iintro ⟨Ht, Hh, Hob, Hq0, Hq1, Hq2, Hq3, Hq4, Hq5, Hq6, Hq7, ⟨%W', HW'⟩⟩
  isplitl [Hsc Hg Hq0 Hq1 Hq2 Hq3 Hq4 Hq5 Hq6 Hq7 Hh Ht]
  · isplitl [Hsc Hg Hq0 Hq1 Hq2 Hq3 Hq4 Hq5 Hq6 Hq7 Hh]
    · isplitl [Hsc]; · iexact Hsc
      isplitl [Hg]; · iexact Hg
      isplitl [Hq0 Hq1 Hq2 Hq3 Hq4 Hq5 Hq6 Hq7]
      · isplitl [Hq0]; · iexact Hq0
        isplitl [Hq1]; · iexact Hq1
        isplitl [Hq2]; · iexact Hq2
        isplitl [Hq3]; · iexact Hq3
        isplitl [Hq4]; · iexact Hq4
        isplitl [Hq5]; · iexact Hq5
        isplitl [Hq6]; · iexact Hq6
        iexact Hq7
      iexact Hh
    iexact Ht
  isplitl [HW']
  · iexists W'; isplitr; · ipureintro; exact fun _ _ => Or.inl trivial
    iexact HW'
  rw [hr]
  iexact Hob

end Cert.KernelIdeal.Hand

end
-- ==== Proof.KI.Regs5.lean ====
import proofs.«402049_j87351044866139_2_alg».proof.Proof.KI.Fam
import proofs.«402049_j87351044866139_2_alg».proof.Proof.KI.Tables
import proofs.«402049_j87351044866139_2_alg».proof.Proof.KI.GatherBody25
import proofs.«402049_j87351044866139_2_alg».proof.Proof.KI.GatherBody26
import proofs.«402049_j87351044866139_2_alg».proof.Proof.KI.GatherBody27
import proofs.«402049_j87351044866139_2_alg».proof.Proof.KI.GatherBody28
import proofs.«402049_j87351044866139_2_alg».proof.Proof.KI.GatherBody29
import Idealize.ShloMosaic.Lib.Pipeline.RegionsLoop

/-! The records of regions 25 to 29 over the thread states: each entered from every unscoped buffer at the real valuation
    before it and left at the one after it; for a gather region, first that every word of its table is a node's number. -/

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg BodyObligation BodyObligationLoose)

variable {F : FTy → Type} [FloatOps F]

local notation "𝕄" => MT nD τ sig Unit (Elt F) ℕ UU ℕ

set_option maxHeartbeats 1000000 in
/-- Every word of region 25's table is a node's number: the data's table is what the real valuation at the region's entry
    holds in the table's buffer; that valuation is the run's own, whose table is the closed one of the launch memory. -/
theorem hlt25 (m : (ℓ : Loc nD τ sig) → Buf (Elt F) ℓ) (hm : ∀ i : S2x800000.Idx, ((V0 m c₀ main_arg1 : IVec S2x800000 32) i).toNat < 50000) :
    ∀ k : S100000.Idx, (tblw25 (a25 m) k).toNat < 50000 := by
  have h1 : tblw25 (a25 m) = (U53 m c₀ main_v94 : IVec S100000 32) := by
    unfold a25
    rfl
  have h2 : ∀ W : Valuation τ sig (Elt F), V53 m (outsU m) c₀ = W → (W main_v94 : IVec S100000 32) = tbl25 m c₀ :=
    fun W hW => by subst hW; exact tbl25_eq m (outsU m) c₀
  have e : tblw25 (a25 m) = tbl25 m c₀ := h1.trans (h2 (U53 m c₀) (V53_eq m c₀))
  intro k
  rw [e]; exact tbl25_lt m c₀ hm k
set_option maxHeartbeats 1000000 in
set_option backward.isDefEq.respectTransparency.types false in
/-- REGION 25 over the thread state: entered from every unscoped buffer at `U53`, left at `U54`. -/
def reg25 (m : (ℓ : Loc nD τ sig) → Buf (Elt F) ℓ) (hm : ∀ i : S2x800000.Idx, ((V0 m c₀ main_arg1 : IVec S2x800000 32) i).toNat < 50000) :
    RegionSeg (pcfgs (F := F)) (adm m) (pdats m) () defs₀ 𝒱₀ L lv 25 where
  win := (launch25 (F := F)).win.to₀
  block_pos := (launch25 (F := F)).block_pos
  stage_whole := (launch25 (F := F)).stage_whole
  K := Fin 8
  osem := osem25
  ho := ownSemFacts25
  hbody c := hbodyG25 (atTc (U53 m)) (a25 m) (hlt25 m hm) c
  hwaits := Pipeline.hwaits_of_owed_zero _ _ _ _ L lv 25 fun _ _ => rfl
  pre c := iprop(StableHlo.held (c : Thread nD τ) (Pipeline.ucRefs τ sig) (U53 m c) ∗ R (F := F) c)
  post c := iprop(StableHlo.held (c : Thread nD τ) (Pipeline.ucRefs τ sig) (U54 m c) ∗ R (F := F) c)
  X c := XG25 (atTc (U53 m)) c
  Y c := YG25 (atTc (U53 m)) (a25 m) c
  Z c := ZG25 (atTc (U53 m)) c
  hentry c := by
    have hsplit := Pipeline.arrays_of_unscopedBufs (p := 25) (pcfgs (F := F)) (adm m) (pdats m) (launch25 (F := F)).win (launch25 (F := F)).arr_whole c
      ((pdats m 25 c).share_full fun _ => rfl) (atTc (U53 m) c) (fun _ => rfl)
    have h := hentryG25 (atTc (U53 m)) (a25 m) (gblk25 (atTc (U53 m)) (a25 m)) c (hpf25 m c) hsplit
    rw [Pipeline.unscopedBufs_held] at h
    exact h
  hin c := hinG25 (atTc (U53 m)) (a25 m) (gblk25 (atTc (U53 m)) (a25 m)) c
  hout c := houtG25 (atTc (U53 m)) (a25 m) (gblk25 (atTc (U53 m)) (a25 m)) c
  hexit c := by
    have hjoin := Pipeline.unscopedBufs_of_arrays (p := 25) (pcfgs (F := F)) (adm m) (Ix := Unit) (Name := ℕ) (U := UU) (Lvl := ℕ)
      (launch25 (F := F)).win (launch25 (F := F)).arr_whole c (pdats m) ((pdats m 25 c).share_full fun _ => rfl)
      (atTc (U53 m) c) (atTc (U54 m) c) ((pdats m 25 c).arrAt · (cfg25 (a25 m)).N) (hF25 m c) (hrest25 m c)
    have h := hexitG25 (atTc (U53 m)) (a25 m) (gblk25 (atTc (U53 m)) (a25 m)) (atTc (U54 m)) c (hpf25 m c) hjoin
    rw [Pipeline.unscopedBufs_held] at h
    exact h

set_option maxHeartbeats 1000000 in
/-- Every word of region 26's table is a node's number: the data's table is what the real valuation at the region's entry
    holds in the table's buffer; that valuation is the run's own, whose table is the closed one of the launch memory. -/
theorem hlt26 (m : (ℓ : Loc nD τ sig) → Buf (Elt F) ℓ) (hm : ∀ i : S2x800000.Idx, ((V0 m c₀ main_arg1 : IVec S2x800000 32) i).toNat < 50000) :
    ∀ k : S100000.Idx, (tblw26 (a26 m) k).toNat < 50000 := by
  have h1 : tblw26 (a26 m) = (U55 m c₀ main_v96 : IVec S100000 32) := by
    unfold a26
    rfl
  have h2 : ∀ W : Valuation τ sig (Elt F), V55 m (outsU m) c₀ = W → (W main_v96 : IVec S100000 32) = tbl26 m c₀ :=
    fun W hW => by subst hW; exact tbl26_eq m (outsU m) c₀
  have e : tblw26 (a26 m) = tbl26 m c₀ := h1.trans (h2 (U55 m c₀) (V55_eq m c₀))
  intro k
  rw [e]; exact tbl26_lt m c₀ hm k
set_option maxHeartbeats 1000000 in
set_option backward.isDefEq.respectTransparency.types false in
/-- REGION 26 over the thread state: entered from every unscoped buffer at `U55`, left at `U56`. -/
def reg26 (m : (ℓ : Loc nD τ sig) → Buf (Elt F) ℓ) (hm : ∀ i : S2x800000.Idx, ((V0 m c₀ main_arg1 : IVec S2x800000 32) i).toNat < 50000) :
    RegionSeg (pcfgs (F := F)) (adm m) (pdats m) () defs₀ 𝒱₀ L lv 26 where
  win := (launch26 (F := F)).win.to₀
  block_pos := (launch26 (F := F)).block_pos
  stage_whole := (launch26 (F := F)).stage_whole
  K := Fin 8
  osem := osem26
  ho := ownSemFacts26
  hbody c := hbodyG26 (atTc (U55 m)) (a26 m) (hlt26 m hm) c
  hwaits := Pipeline.hwaits_of_owed_zero _ _ _ _ L lv 26 fun _ _ => rfl
  pre c := iprop(StableHlo.held (c : Thread nD τ) (Pipeline.ucRefs τ sig) (U55 m c) ∗ R (F := F) c)
  post c := iprop(StableHlo.held (c : Thread nD τ) (Pipeline.ucRefs τ sig) (U56 m c) ∗ R (F := F) c)
  X c := XG26 (atTc (U55 m)) c
  Y c := YG26 (atTc (U55 m)) (a26 m) c
  Z c := ZG26 (atTc (U55 m)) c
  hentry c := by
    have hsplit := Pipeline.arrays_of_unscopedBufs (p := 26) (pcfgs (F := F)) (adm m) (pdats m) (launch26 (F := F)).win (launch26 (F := F)).arr_whole c
      ((pdats m 26 c).share_full fun _ => rfl) (atTc (U55 m) c) (fun _ => rfl)
    have h := hentryG26 (atTc (U55 m)) (a26 m) (gblk26 (atTc (U55 m)) (a26 m)) c (hpf26 m c) hsplit
    rw [Pipeline.unscopedBufs_held] at h
    exact h
  hin c := hinG26 (atTc (U55 m)) (a26 m) (gblk26 (atTc (U55 m)) (a26 m)) c
  hout c := houtG26 (atTc (U55 m)) (a26 m) (gblk26 (atTc (U55 m)) (a26 m)) c
  hexit c := by
    have hjoin := Pipeline.unscopedBufs_of_arrays (p := 26) (pcfgs (F := F)) (adm m) (Ix := Unit) (Name := ℕ) (U := UU) (Lvl := ℕ)
      (launch26 (F := F)).win (launch26 (F := F)).arr_whole c (pdats m) ((pdats m 26 c).share_full fun _ => rfl)
      (atTc (U55 m) c) (atTc (U56 m) c) ((pdats m 26 c).arrAt · (cfg26 (a26 m)).N) (hF26 m c) (hrest26 m c)
    have h := hexitG26 (atTc (U55 m)) (a26 m) (gblk26 (atTc (U55 m)) (a26 m)) (atTc (U56 m)) c (hpf26 m c) hjoin
    rw [Pipeline.unscopedBufs_held] at h
    exact h

set_option maxHeartbeats 1000000 in
/-- Every word of region 27's table is a node's number: the data's table is what the real valuation at the region's entry
    holds in the table's buffer; that valuation is the run's own, whose table is the closed one of the launch memory. -/
theorem hlt27 (m : (ℓ : Loc nD τ sig) → Buf (Elt F) ℓ) (hm : ∀ i : S2x800000.Idx, ((V0 m c₀ main_arg1 : IVec S2x800000 32) i).toNat < 50000) :
    ∀ k : S100000.Idx, (tblw27 (a27 m) k).toNat < 50000 := by
  have h1 : tblw27 (a27 m) = (U57 m c₀ main_v98 : IVec S100000 32) := by
    unfold a27
    rfl
  have h2 : ∀ W : Valuation τ sig (Elt F), V57 m (outsU m) c₀ = W → (W main_v98 : IVec S100000 32) = tbl27 m c₀ :=
    fun W hW => by subst hW; exact tbl27_eq m (outsU m) c₀
  have e : tblw27 (a27 m) = tbl27 m c₀ := h1.trans (h2 (U57 m c₀) (V57_eq m c₀))
  intro k
  rw [e]; exact tbl27_lt m c₀ hm k
set_option maxHeartbeats 1000000 in
set_option backward.isDefEq.respectTransparency.types false in
/-- REGION 27 over the thread state: entered from every unscoped buffer at `U57`, left at `U58`. -/
def reg27 (m : (ℓ : Loc nD τ sig) → Buf (Elt F) ℓ) (hm : ∀ i : S2x800000.Idx, ((V0 m c₀ main_arg1 : IVec S2x800000 32) i).toNat < 50000) :
    RegionSeg (pcfgs (F := F)) (adm m) (pdats m) () defs₀ 𝒱₀ L lv 27 where
  win := (launch27 (F := F)).win.to₀
  block_pos := (launch27 (F := F)).block_pos
  stage_whole := (launch27 (F := F)).stage_whole
  K := Fin 8
  osem := osem27
  ho := ownSemFacts27
  hbody c := hbodyG27 (atTc (U57 m)) (a27 m) (hlt27 m hm) c
  hwaits := Pipeline.hwaits_of_owed_zero _ _ _ _ L lv 27 fun _ _ => rfl
  pre c := iprop(StableHlo.held (c : Thread nD τ) (Pipeline.ucRefs τ sig) (U57 m c) ∗ R (F := F) c)
  post c := iprop(StableHlo.held (c : Thread nD τ) (Pipeline.ucRefs τ sig) (U58 m c) ∗ R (F := F) c)
  X c := XG27 (atTc (U57 m)) c
  Y c := YG27 (atTc (U57 m)) (a27 m) c
  Z c := ZG27 (atTc (U57 m)) c
  hentry c := by
    have hsplit := Pipeline.arrays_of_unscopedBufs (p := 27) (pcfgs (F := F)) (adm m) (pdats m) (launch27 (F := F)).win (launch27 (F := F)).arr_whole c
      ((pdats m 27 c).share_full fun _ => rfl) (atTc (U57 m) c) (fun _ => rfl)
    have h := hentryG27 (atTc (U57 m)) (a27 m) (gblk27 (atTc (U57 m)) (a27 m)) c (hpf27 m c) hsplit
    rw [Pipeline.unscopedBufs_held] at h
    exact h
  hin c := hinG27 (atTc (U57 m)) (a27 m) (gblk27 (atTc (U57 m)) (a27 m)) c
  hout c := houtG27 (atTc (U57 m)) (a27 m) (gblk27 (atTc (U57 m)) (a27 m)) c
  hexit c := by
    have hjoin := Pipeline.unscopedBufs_of_arrays (p := 27) (pcfgs (F := F)) (adm m) (Ix := Unit) (Name := ℕ) (U := UU) (Lvl := ℕ)
      (launch27 (F := F)).win (launch27 (F := F)).arr_whole c (pdats m) ((pdats m 27 c).share_full fun _ => rfl)
      (atTc (U57 m) c) (atTc (U58 m) c) ((pdats m 27 c).arrAt · (cfg27 (a27 m)).N) (hF27 m c) (hrest27 m c)
    have h := hexitG27 (atTc (U57 m)) (a27 m) (gblk27 (atTc (U57 m)) (a27 m)) (atTc (U58 m)) c (hpf27 m c) hjoin
    rw [Pipeline.unscopedBufs_held] at h
    exact h

set_option maxHeartbeats 1000000 in
/-- Every word of region 28's table is a node's number: the data's table is what the real valuation at the region's entry
    holds in the table's buffer; that valuation is the run's own, whose table is the closed one of the launch memory. -/
theorem hlt28 (m : (ℓ : Loc nD τ sig) → Buf (Elt F) ℓ) (hm : ∀ i : S2x800000.Idx, ((V0 m c₀ main_arg1 : IVec S2x800000 32) i).toNat < 50000) :
    ∀ k : S100000.Idx, (tblw28 (a28 m) k).toNat < 50000 := by
  have h1 : tblw28 (a28 m) = (U59 m c₀ main_v100 : IVec S100000 32) := by
    unfold a28
    rfl
  have h2 : ∀ W : Valuation τ sig (Elt F), V59 m (outsU m) c₀ = W → (W main_v100 : IVec S100000 32) = tbl28 m c₀ :=
    fun W hW => by subst hW; exact tbl28_eq m (outsU m) c₀
  have e : tblw28 (a28 m) = tbl28 m c₀ := h1.trans (h2 (U59 m c₀) (V59_eq m c₀))
  intro k
  rw [e]; exact tbl28_lt m c₀ hm k
set_option maxHeartbeats 1000000 in
set_option backward.isDefEq.respectTransparency.types false in
/-- REGION 28 over the thread state: entered from every unscoped buffer at `U59`, left at `U60`. -/
def reg28 (m : (ℓ : Loc nD τ sig) → Buf (Elt F) ℓ) (hm : ∀ i : S2x800000.Idx, ((V0 m c₀ main_arg1 : IVec S2x800000 32) i).toNat < 50000) :
    RegionSeg (pcfgs (F := F)) (adm m) (pdats m) () defs₀ 𝒱₀ L lv 28 where
  win := (launch28 (F := F)).win.to₀
  block_pos := (launch28 (F := F)).block_pos
  stage_whole := (launch28 (F := F)).stage_whole
  K := Fin 8
  osem := osem28
  ho := ownSemFacts28
  hbody c := hbodyG28 (atTc (U59 m)) (a28 m) (hlt28 m hm) c
  hwaits := Pipeline.hwaits_of_owed_zero _ _ _ _ L lv 28 fun _ _ => rfl
  pre c := iprop(StableHlo.held (c : Thread nD τ) (Pipeline.ucRefs τ sig) (U59 m c) ∗ R (F := F) c)
  post c := iprop(StableHlo.held (c : Thread nD τ) (Pipeline.ucRefs τ sig) (U60 m c) ∗ R (F := F) c)
  X c := XG28 (atTc (U59 m)) c
  Y c := YG28 (atTc (U59 m)) (a28 m) c
  Z c := ZG28 (atTc (U59 m)) c
  hentry c := by
    have hsplit := Pipeline.arrays_of_unscopedBufs (p := 28) (pcfgs (F := F)) (adm m) (pdats m) (launch28 (F := F)).win (launch28 (F := F)).arr_whole c
      ((pdats m 28 c).share_full fun _ => rfl) (atTc (U59 m) c) (fun _ => rfl)
    have h := hentryG28 (atTc (U59 m)) (a28 m) (gblk28 (atTc (U59 m)) (a28 m)) c (hpf28 m c) hsplit
    rw [Pipeline.unscopedBufs_held] at h
    exact h
  hin c := hinG28 (atTc (U59 m)) (a28 m) (gblk28 (atTc (U59 m)) (a28 m)) c
  hout c := houtG28 (atTc (U59 m)) (a28 m) (gblk28 (atTc (U59 m)) (a28 m)) c
  hexit c := by
    have hjoin := Pipeline.unscopedBufs_of_arrays (p := 28) (pcfgs (F := F)) (adm m) (Ix := Unit) (Name := ℕ) (U := UU) (Lvl := ℕ)
      (launch28 (F := F)).win (launch28 (F := F)).arr_whole c (pdats m) ((pdats m 28 c).share_full fun _ => rfl)
      (atTc (U59 m) c) (atTc (U60 m) c) ((pdats m 28 c).arrAt · (cfg28 (a28 m)).N) (hF28 m c) (hrest28 m c)
    have h := hexitG28 (atTc (U59 m)) (a28 m) (gblk28 (atTc (U59 m)) (a28 m)) (atTc (U60 m)) c (hpf28 m c) hjoin
    rw [Pipeline.unscopedBufs_held] at h
    exact h

set_option maxHeartbeats 1000000 in
/-- Every word of region 29's table is a node's number: the data's table is what the real valuation at the region's entry
    holds in the table's buffer; that valuation is the run's own, whose table is the closed one of the launch memory. -/
theorem hlt29 (m : (ℓ : Loc nD τ sig) → Buf (Elt F) ℓ) (hm : ∀ i : S2x800000.Idx, ((V0 m c₀ main_arg1 : IVec S2x800000 32) i).toNat < 50000) :
    ∀ k : S100000.Idx, (tblw29 (a29 m) k).toNat < 50000 := by
  have h1 : tblw29 (a29 m) = (U61 m c₀ main_v102 : IVec S100000 32) := by
    unfold a29
    rfl
  have h2 : ∀ W : Valuation τ sig (Elt F), V61 m (outsU m) c₀ = W → (W main_v102 : IVec S100000 32) = tbl29 m c₀ :=
    fun W hW => by subst hW; exact tbl29_eq m (outsU m) c₀
  have e : tblw29 (a29 m) = tbl29 m c₀ := h1.trans (h2 (U61 m c₀) (V61_eq m c₀))
  intro k
  rw [e]; exact tbl29_lt m c₀ hm k
set_option maxHeartbeats 1000000 in
set_option backward.isDefEq.respectTransparency.types false in
/-- REGION 29 over the thread state: entered from every unscoped buffer at `U61`, left at `U62`. -/
def reg29 (m : (ℓ : Loc nD τ sig) → Buf (Elt F) ℓ) (hm : ∀ i : S2x800000.Idx, ((V0 m c₀ main_arg1 : IVec S2x800000 32) i).toNat < 50000) :
    RegionSeg (pcfgs (F := F)) (adm m) (pdats m) () defs₀ 𝒱₀ L lv 29 where
  win := (launch29 (F := F)).win.to₀
  block_pos := (launch29 (F := F)).block_pos
  stage_whole := (launch29 (F := F)).stage_whole
  K := Fin 8
  osem := osem29
  ho := ownSemFacts29
  hbody c := hbodyG29 (atTc (U61 m)) (a29 m) (hlt29 m hm) c
  hwaits := Pipeline.hwaits_of_owed_zero _ _ _ _ L lv 29 fun _ _ => rfl
  pre c := iprop(StableHlo.held (c : Thread nD τ) (Pipeline.ucRefs τ sig) (U61 m c) ∗ R (F := F) c)
  post c := iprop(StableHlo.held (c : Thread nD τ) (Pipeline.ucRefs τ sig) (U62 m c) ∗ R (F := F) c)
  X c := XG29 (atTc (U61 m)) c
  Y c := YG29 (atTc (U61 m)) (a29 m) c
  Z c := ZG29 (atTc (U61 m)) c
  hentry c := by
    have hsplit := Pipeline.arrays_of_unscopedBufs (p := 29) (pcfgs (F := F)) (adm m) (pdats m) (launch29 (F := F)).win (launch29 (F := F)).arr_whole c
      ((pdats m 29 c).share_full fun _ => rfl) (atTc (U61 m) c) (fun _ => rfl)
    have h := hentryG29 (atTc (U61 m)) (a29 m) (gblk29 (atTc (U61 m)) (a29 m)) c (hpf29 m c) hsplit
    rw [Pipeline.unscopedBufs_held] at h
    exact h
  hin c := hinG29 (atTc (U61 m)) (a29 m) (gblk29 (atTc (U61 m)) (a29 m)) c
  hout c := houtG29 (atTc (U61 m)) (a29 m) (gblk29 (atTc (U61 m)) (a29 m)) c
  hexit c := by
    have hjoin := Pipeline.unscopedBufs_of_arrays (p := 29) (pcfgs (F := F)) (adm m) (Ix := Unit) (Name := ℕ) (U := UU) (Lvl := ℕ)
      (launch29 (F := F)).win (launch29 (F := F)).arr_whole c (pdats m) ((pdats m 29 c).share_full fun _ => rfl)
      (atTc (U61 m) c) (atTc (U62 m) c) ((pdats m 29 c).arrAt · (cfg29 (a29 m)).N) (hF29 m c) (hrest29 m c)
    have h := hexitG29 (atTc (U61 m)) (a29 m) (gblk29 (atTc (U61 m)) (a29 m)) (atTc (U62 m)) c (hpf29 m c) hjoin
    rw [Pipeline.unscopedBufs_held] at h
    exact h

end Cert.KernelIdeal.Hand

end
-- ==== Proof.KI.GatherBody30.lean ====
/-
  Region 30's body obligation. The region runs the body of region 23 on its own table, array, output block and
  semaphores (the two kernel functions are one function), so the body's run is region 23's, cited at this region's eight
  semaphores; read with this region's invariant it is the pipeline's body obligation for the region's proof data.
-/
import proofs.«402049_j87351044866139_2_alg».proof.Proof.KI.GatherDef30
import proofs.«402049_j87351044866139_2_alg».proof.Proof.KI.GatherBody23

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Idealize.ShloMosaic.Transfers (shareDrop shareTokN)
open Cert.KernelIdeal Cert.KernelIdeal.Gen

variable {F : FTy → Type} [FloatOps F]

local notation "𝕄" => MT nD τ sig Unit (Elt F) ℕ (Pipeline.UD sig nD τ) ℕ

/-! ## The body obligation -/

variable (V : (c : Dev nD) → (b : Ref sig .tc) → Buf (Elt F) ((c : Thread nD τ).loc b))
variable (a1 : (pcfg30 (F := F)).Adm)

/-- The eight cells at zero, listed, each as the body names it. -/
theorem ownSems30_eq (c : Dev nD) :
    (Pipeline.ownSems0 (Ix := Unit) (Name := ℕ) (U := Pipeline.UD sig nD τ) (Lvl := ℕ) (Val := Elt F) (τ := τ) osem30 c : sProp 𝕄)
      = iprop(semVal ((c : Thread nD τ), cell23_0 cc30_scratch0) 0 ∗ semVal ((c : Thread nD τ), cell23_1 cc30_scratch0) 0 ∗ semVal ((c : Thread nD τ), cell23_2 cc30_scratch0) 0 ∗ semVal ((c : Thread nD τ), cell23_3 cc30_scratch0) 0 ∗ semVal ((c : Thread nD τ), cell23_4 cc30_scratch0) 0 ∗ semVal ((c : Thread nD τ), cell23_5 cc30_scratch0) 0 ∗ semVal ((c : Thread nD τ), cell23_6 cc30_scratch0) 0 ∗ semVal ((c : Thread nD τ), cell23_7 cc30_scratch0) 0) := by
  rw [Pipeline.ownSems0_eq_of_list c osem30 [0, 1, 2, 3, 4, 5, 6, 7] (by decide) (by decide)]; rfl

/-- The array the rows are read from, at the contents the region found it with. -/
theorem hbm30_eq (c : Dev nD) :
    (bigSep H30 (fun b => ((c : Thread nD τ).loc b) ↦{fullShare} V c b) : sProp 𝕄)
      = ((Memref.whole main_v89 : Memref sig .tc .hbm S50000x128 .f32).view.loc (c : Thread nD τ) ↦{fullShare} V c main_v89) := by
  unfold H30
  rw [BI.bigSep_eq_bigSepL_of_eq [main_v89] (by decide) (by decide)]; rfl

/-- The table, held whole at the full share, is owned at its contents. -/
theorem tblw30_eq (c : Dev nD) :
    (Pipeline.prefHeld pre30 c (fun _ => fullShare) a1.1 : sProp 𝕄)
      = owns (c : Thread nD τ) (Memref.whole main_v104 : Memref sig .tc .smem S100000 .i32) fullShare (tblw30 a1) := by
  unfold Pipeline.prefHeld
  rw [bigSep_W30, owns_whole]; rfl

set_option maxHeartbeats 4000000 in
/-- The body at every point: the invariant hands the run its table, the array, the eight cells at zero (the scoped rest and
    the generator register ride along), the core's record of waits goes in at whatever the points before left and comes
    back with this point's eight, and the output block, at anything, comes back reading the gathered rows. -/
theorem hbodyG30 [∀ e, Nonempty (Elt F e)] (hlt : ∀ k : S100000.Idx, (tblw30 a1 k).toNat < 50000) (c : Dev nD) :
    BodyObligationLoose (datG30 V a1 (gblk30 V a1) c) (defs₀ (F := F)) Variants.none () Set.univ := by
  refine BodyObligation.loose _ fun t => ?_
  rw [bigSep_W30, bigSep_W30]
  show iprop(iprop(Pipeline.ΦD osem30 spec30 H30 V c ∗ Pipeline.prefHeld pre30 c (fun _ => fullShare) a1.1)
        ∗ (datG30 V a1 (gblk30 V a1) c).owesAt () t.castSucc
        ∗ (∃ d, owns (c : Thread nD τ) (spec30_0.stage ((cfg30 a1).slots t 0)) fullShare ((datG30 V a1 (gblk30 V a1) c).before 0 t d)))
      ⊢ wp frame (wpE (defs₀ (F := F)) Variants.none c none) Set.univ
          (cc30__gather_kernel ((cfg30 a1).grid.coords t) (Memref.whole main_v104) (Memref.isWhole_whole _) (Memref.whole main_v89) (Memref.isWhole_whole _)
            (spec30_0.stage ((cfg30 a1).slots t 0)) (hstage30_0 (((cfg30 a1).slots t 0).cast nbuf30_0)) cc30_scratch0)
          (fun _ => iprop(iprop(Pipeline.ΦD osem30 spec30 H30 V c ∗ Pipeline.prefHeld pre30 c (fun _ => fullShare) a1.1)
            ∗ (datG30 V a1 (gblk30 V a1) c).owesAt () t.succ
            ∗ owns (c : Thread nD τ) (spec30_0.stage ((cfg30 a1).slots t 0)) fullShare (gblk30 V a1 c t)))
  rw [Pipeline.ΦD_eq, ownSems30_eq, hbm30_eq, tblw30_eq]
  unfold Dat.owesAt Pipeline.owesWithin
  rw [show (datG30 V a1 (gblk30 V a1) c).owed t.castSucc = 0 from rfl, show (datG30 V a1 (gblk30 V a1) c).owed t.succ = 0 from rfl]
  have hr : (Memref.whole main_v89 : Memref sig .tc .hbm S50000x128 .f32).view.read (Elt F) (V c main_v89) = V c main_v89 := by
    simp only [Memref.view_whole, View.read_whole]
  iintro ⟨⟨⟨Hsc, Hg, ⟨Hq0, Hq1, Hq2, Hq3, Hq4, Hq5, Hq6, Hq7⟩, Hh⟩, Ht⟩, ⟨%W, -, HW⟩, ⟨%d, Hob⟩⟩
  iapply (kernelRun23 c ((cfg30 a1).grid.coords t) (Memref.whole main_v104) (Memref.isWhole_whole _) (Memref.whole main_v89) (Memref.isWhole_whole _)
    (spec30_0.stage ((cfg30 a1).slots t 0)) (hstage30_0 (((cfg30 a1).slots t 0).cast nbuf30_0)) (tblw30 a1) hlt fullShare fullShare (V c main_v89) cc30_scratch0 W _)
  isplitl [Ht]; · iexact Ht
  isplitl [Hh]; · iexact Hh
  isplitl [Hob]; · iexists _; iexact Hob
  isplitl [Hq0]; · iexact Hq0
  isplitl [Hq1]; · iexact Hq1
  isplitl [Hq2]; · iexact Hq2
  isplitl [Hq3]; · iexact Hq3
  isplitl [Hq4]; · iexact Hq4
  isplitl [Hq5]; · iexact Hq5
  isplitl [Hq6]; · iexact Hq6
  isplitl [Hq7]; · iexact Hq7
  isplitl [HW]; · iexact HW
  iintro ⟨Ht, Hh, Hob, Hq0, Hq1, Hq2, Hq3, Hq4, Hq5, Hq6, Hq7, ⟨%W', HW'⟩⟩
  isplitl [Hsc Hg Hq0 Hq1 Hq2 Hq3 Hq4 Hq5 Hq6 Hq7 Hh Ht]
  · isplitl [Hsc Hg Hq0 Hq1 Hq2 Hq3 Hq4 Hq5 Hq6 Hq7 Hh]
    · isplitl [Hsc]; · iexact Hsc
      isplitl [Hg]; · iexact Hg
      isplitl [Hq0 Hq1 Hq2 Hq3 Hq4 Hq5 Hq6 Hq7]
      · isplitl [Hq0]; · iexact Hq0
        isplitl [Hq1]; · iexact Hq1
        isplitl [Hq2]; · iexact Hq2
        isplitl [Hq3]; · iexact Hq3
        isplitl [Hq4]; · iexact Hq4
        isplitl [Hq5]; · iexact Hq5
        isplitl [Hq6]; · iexact Hq6
        iexact Hq7
      iexact Hh
    iexact Ht
  isplitl [HW']
  · iexists W'; isplitr; · ipureintro; exact fun _ _ => Or.inl trivial
    iexact HW'
  rw [hr]
  iexact Hob

end Cert.KernelIdeal.Hand

end
-- ==== Proof.KI.GatherBody31.lean ====
/-
  Region 31's body obligation. The region runs the body of region 23 on its own table, array, output block and
  semaphores (the two kernel functions are one function), so the body's run is region 23's, cited at this region's eight
  semaphores; read with this region's invariant it is the pipeline's body obligation for the region's proof data.
-/
import proofs.«402049_j87351044866139_2_alg».proof.Proof.KI.GatherDef31
import proofs.«402049_j87351044866139_2_alg».proof.Proof.KI.GatherBody23

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Idealize.ShloMosaic.Transfers (shareDrop shareTokN)
open Cert.KernelIdeal Cert.KernelIdeal.Gen

variable {F : FTy → Type} [FloatOps F]

local notation "𝕄" => MT nD τ sig Unit (Elt F) ℕ (Pipeline.UD sig nD τ) ℕ

/-! ## The body obligation -/

variable (V : (c : Dev nD) → (b : Ref sig .tc) → Buf (Elt F) ((c : Thread nD τ).loc b))
variable (a1 : (pcfg31 (F := F)).Adm)

/-- The eight cells at zero, listed, each as the body names it. -/
theorem ownSems31_eq (c : Dev nD) :
    (Pipeline.ownSems0 (Ix := Unit) (Name := ℕ) (U := Pipeline.UD sig nD τ) (Lvl := ℕ) (Val := Elt F) (τ := τ) osem31 c : sProp 𝕄)
      = iprop(semVal ((c : Thread nD τ), cell23_0 cc31_scratch0) 0 ∗ semVal ((c : Thread nD τ), cell23_1 cc31_scratch0) 0 ∗ semVal ((c : Thread nD τ), cell23_2 cc31_scratch0) 0 ∗ semVal ((c : Thread nD τ), cell23_3 cc31_scratch0) 0 ∗ semVal ((c : Thread nD τ), cell23_4 cc31_scratch0) 0 ∗ semVal ((c : Thread nD τ), cell23_5 cc31_scratch0) 0 ∗ semVal ((c : Thread nD τ), cell23_6 cc31_scratch0) 0 ∗ semVal ((c : Thread nD τ), cell23_7 cc31_scratch0) 0) := by
  rw [Pipeline.ownSems0_eq_of_list c osem31 [0, 1, 2, 3, 4, 5, 6, 7] (by decide) (by decide)]; rfl

/-- The array the rows are read from, at the contents the region found it with. -/
theorem hbm31_eq (c : Dev nD) :
    (bigSep H31 (fun b => ((c : Thread nD τ).loc b) ↦{fullShare} V c b) : sProp 𝕄)
      = ((Memref.whole main_v89 : Memref sig .tc .hbm S50000x128 .f32).view.loc (c : Thread nD τ) ↦{fullShare} V c main_v89) := by
  unfold H31
  rw [BI.bigSep_eq_bigSepL_of_eq [main_v89] (by decide) (by decide)]; rfl

/-- The table, held whole at the full share, is owned at its contents. -/
theorem tblw31_eq (c : Dev nD) :
    (Pipeline.prefHeld pre31 c (fun _ => fullShare) a1.1 : sProp 𝕄)
      = owns (c : Thread nD τ) (Memref.whole main_v107 : Memref sig .tc .smem S100000 .i32) fullShare (tblw31 a1) := by
  unfold Pipeline.prefHeld
  rw [bigSep_W31, owns_whole]; rfl

set_option maxHeartbeats 4000000 in
/-- The body at every point: the invariant hands the run its table, the array, the eight cells at zero (the scoped rest and
    the generator register ride along), the core's record of waits goes in at whatever the points before left and comes
    back with this point's eight, and the output block, at anything, comes back reading the gathered rows. -/
theorem hbodyG31 [∀ e, Nonempty (Elt F e)] (hlt : ∀ k : S100000.Idx, (tblw31 a1 k).toNat < 50000) (c : Dev nD) :
    BodyObligationLoose (datG31 V a1 (gblk31 V a1) c) (defs₀ (F := F)) Variants.none () Set.univ := by
  refine BodyObligation.loose _ fun t => ?_
  rw [bigSep_W31, bigSep_W31]
  show iprop(iprop(Pipeline.ΦD osem31 spec31 H31 V c ∗ Pipeline.prefHeld pre31 c (fun _ => fullShare) a1.1)
        ∗ (datG31 V a1 (gblk31 V a1) c).owesAt () t.castSucc
        ∗ (∃ d, owns (c : Thread nD τ) (spec31_0.stage ((cfg31 a1).slots t 0)) fullShare ((datG31 V a1 (gblk31 V a1) c).before 0 t d)))
      ⊢ wp frame (wpE (defs₀ (F := F)) Variants.none c none) Set.univ
          (cc31__gather_kernel ((cfg31 a1).grid.coords t) (Memref.whole main_v107) (Memref.isWhole_whole _) (Memref.whole main_v89) (Memref.isWhole_whole _)
            (spec31_0.stage ((cfg31 a1).slots t 0)) (hstage31_0 (((cfg31 a1).slots t 0).cast nbuf31_0)) cc31_scratch0)
          (fun _ => iprop(iprop(Pipeline.ΦD osem31 spec31 H31 V c ∗ Pipeline.prefHeld pre31 c (fun _ => fullShare) a1.1)
            ∗ (datG31 V a1 (gblk31 V a1) c).owesAt () t.succ
            ∗ owns (c : Thread nD τ) (spec31_0.stage ((cfg31 a1).slots t 0)) fullShare (gblk31 V a1 c t)))
  rw [Pipeline.ΦD_eq, ownSems31_eq, hbm31_eq, tblw31_eq]
  unfold Dat.owesAt Pipeline.owesWithin
  rw [show (datG31 V a1 (gblk31 V a1) c).owed t.castSucc = 0 from rfl, show (datG31 V a1 (gblk31 V a1) c).owed t.succ = 0 from rfl]
  have hr : (Memref.whole main_v89 : Memref sig .tc .hbm S50000x128 .f32).view.read (Elt F) (V c main_v89) = V c main_v89 := by
    simp only [Memref.view_whole, View.read_whole]
  iintro ⟨⟨⟨Hsc, Hg, ⟨Hq0, Hq1, Hq2, Hq3, Hq4, Hq5, Hq6, Hq7⟩, Hh⟩, Ht⟩, ⟨%W, -, HW⟩, ⟨%d, Hob⟩⟩
  iapply (kernelRun23 c ((cfg31 a1).grid.coords t) (Memref.whole main_v107) (Memref.isWhole_whole _) (Memref.whole main_v89) (Memref.isWhole_whole _)
    (spec31_0.stage ((cfg31 a1).slots t 0)) (hstage31_0 (((cfg31 a1).slots t 0).cast nbuf31_0)) (tblw31 a1) hlt fullShare fullShare (V c main_v89) cc31_scratch0 W _)
  isplitl [Ht]; · iexact Ht
  isplitl [Hh]; · iexact Hh
  isplitl [Hob]; · iexists _; iexact Hob
  isplitl [Hq0]; · iexact Hq0
  isplitl [Hq1]; · iexact Hq1
  isplitl [Hq2]; · iexact Hq2
  isplitl [Hq3]; · iexact Hq3
  isplitl [Hq4]; · iexact Hq4
  isplitl [Hq5]; · iexact Hq5
  isplitl [Hq6]; · iexact Hq6
  isplitl [Hq7]; · iexact Hq7
  isplitl [HW]; · iexact HW
  iintro ⟨Ht, Hh, Hob, Hq0, Hq1, Hq2, Hq3, Hq4, Hq5, Hq6, Hq7, ⟨%W', HW'⟩⟩
  isplitl [Hsc Hg Hq0 Hq1 Hq2 Hq3 Hq4 Hq5 Hq6 Hq7 Hh Ht]
  · isplitl [Hsc Hg Hq0 Hq1 Hq2 Hq3 Hq4 Hq5 Hq6 Hq7 Hh]
    · isplitl [Hsc]; · iexact Hsc
      isplitl [Hg]; · iexact Hg
      isplitl [Hq0 Hq1 Hq2 Hq3 Hq4 Hq5 Hq6 Hq7]
      · isplitl [Hq0]; · iexact Hq0
        isplitl [Hq1]; · iexact Hq1
        isplitl [Hq2]; · iexact Hq2
        isplitl [Hq3]; · iexact Hq3
        isplitl [Hq4]; · iexact Hq4
        isplitl [Hq5]; · iexact Hq5
        isplitl [Hq6]; · iexact Hq6
        iexact Hq7
      iexact Hh
    iexact Ht
  isplitl [HW']
  · iexists W'; isplitr; · ipureintro; exact fun _ _ => Or.inl trivial
    iexact HW'
  rw [hr]
  iexact Hob

end Cert.KernelIdeal.Hand

end
-- ==== Proof.KI.GatherBody32.lean ====
/-
  Region 32's body obligation. The region runs the body of region 23 on its own table, array, output block and
  semaphores (the two kernel functions are one function), so the body's run is region 23's, cited at this region's eight
  semaphores; read with this region's invariant it is the pipeline's body obligation for the region's proof data.
-/
import proofs.«402049_j87351044866139_2_alg».proof.Proof.KI.GatherDef32
import proofs.«402049_j87351044866139_2_alg».proof.Proof.KI.GatherBody23

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Idealize.ShloMosaic.Transfers (shareDrop shareTokN)
open Cert.KernelIdeal Cert.KernelIdeal.Gen

variable {F : FTy → Type} [FloatOps F]

local notation "𝕄" => MT nD τ sig Unit (Elt F) ℕ (Pipeline.UD sig nD τ) ℕ

/-! ## The body obligation -/

variable (V : (c : Dev nD) → (b : Ref sig .tc) → Buf (Elt F) ((c : Thread nD τ).loc b))
variable (a1 : (pcfg32 (F := F)).Adm)

/-- The eight cells at zero, listed, each as the body names it. -/
theorem ownSems32_eq (c : Dev nD) :
    (Pipeline.ownSems0 (Ix := Unit) (Name := ℕ) (U := Pipeline.UD sig nD τ) (Lvl := ℕ) (Val := Elt F) (τ := τ) osem32 c : sProp 𝕄)
      = iprop(semVal ((c : Thread nD τ), cell23_0 cc32_scratch0) 0 ∗ semVal ((c : Thread nD τ), cell23_1 cc32_scratch0) 0 ∗ semVal ((c : Thread nD τ), cell23_2 cc32_scratch0) 0 ∗ semVal ((c : Thread nD τ), cell23_3 cc32_scratch0) 0 ∗ semVal ((c : Thread nD τ), cell23_4 cc32_scratch0) 0 ∗ semVal ((c : Thread nD τ), cell23_5 cc32_scratch0) 0 ∗ semVal ((c : Thread nD τ), cell23_6 cc32_scratch0) 0 ∗ semVal ((c : Thread nD τ), cell23_7 cc32_scratch0) 0) := by
  rw [Pipeline.ownSems0_eq_of_list c osem32 [0, 1, 2, 3, 4, 5, 6, 7] (by decide) (by decide)]; rfl

/-- The array the rows are read from, at the contents the region found it with. -/
theorem hbm32_eq (c : Dev nD) :
    (bigSep H32 (fun b => ((c : Thread nD τ).loc b) ↦{fullShare} V c b) : sProp 𝕄)
      = ((Memref.whole main_v89 : Memref sig .tc .hbm S50000x128 .f32).view.loc (c : Thread nD τ) ↦{fullShare} V c main_v89) := by
  unfold H32
  rw [BI.bigSep_eq_bigSepL_of_eq [main_v89] (by decide) (by decide)]; rfl

/-- The table, held whole at the full share, is owned at its contents. -/
theorem tblw32_eq (c : Dev nD) :
    (Pipeline.prefHeld pre32 c (fun _ => fullShare) a1.1 : sProp 𝕄)
      = owns (c : Thread nD τ) (Memref.whole main_v109 : Memref sig .tc .smem S100000 .i32) fullShare (tblw32 a1) := by
  unfold Pipeline.prefHeld
  rw [bigSep_W32, owns_whole]; rfl

set_option maxHeartbeats 4000000 in
/-- The body at every point: the invariant hands the run its table, the array, the eight cells at zero (the scoped rest and
    the generator register ride along), the core's record of waits goes in at whatever the points before left and comes
    back with this point's eight, and the output block, at anything, comes back reading the gathered rows. -/
theorem hbodyG32 [∀ e, Nonempty (Elt F e)] (hlt : ∀ k : S100000.Idx, (tblw32 a1 k).toNat < 50000) (c : Dev nD) :
    BodyObligationLoose (datG32 V a1 (gblk32 V a1) c) (defs₀ (F := F)) Variants.none () Set.univ := by
  refine BodyObligation.loose _ fun t => ?_
  rw [bigSep_W32, bigSep_W32]
  show iprop(iprop(Pipeline.ΦD osem32 spec32 H32 V c ∗ Pipeline.prefHeld pre32 c (fun _ => fullShare) a1.1)
        ∗ (datG32 V a1 (gblk32 V a1) c).owesAt () t.castSucc
        ∗ (∃ d, owns (c : Thread nD τ) (spec32_0.stage ((cfg32 a1).slots t 0)) fullShare ((datG32 V a1 (gblk32 V a1) c).before 0 t d)))
      ⊢ wp frame (wpE (defs₀ (F := F)) Variants.none c none) Set.univ
          (cc32__gather_kernel ((cfg32 a1).grid.coords t) (Memref.whole main_v109) (Memref.isWhole_whole _) (Memref.whole main_v89) (Memref.isWhole_whole _)
            (spec32_0.stage ((cfg32 a1).slots t 0)) (hstage32_0 (((cfg32 a1).slots t 0).cast nbuf32_0)) cc32_scratch0)
          (fun _ => iprop(iprop(Pipeline.ΦD osem32 spec32 H32 V c ∗ Pipeline.prefHeld pre32 c (fun _ => fullShare) a1.1)
            ∗ (datG32 V a1 (gblk32 V a1) c).owesAt () t.succ
            ∗ owns (c : Thread nD τ) (spec32_0.stage ((cfg32 a1).slots t 0)) fullShare (gblk32 V a1 c t)))
  rw [Pipeline.ΦD_eq, ownSems32_eq, hbm32_eq, tblw32_eq]
  unfold Dat.owesAt Pipeline.owesWithin
  rw [show (datG32 V a1 (gblk32 V a1) c).owed t.castSucc = 0 from rfl, show (datG32 V a1 (gblk32 V a1) c).owed t.succ = 0 from rfl]
  have hr : (Memref.whole main_v89 : Memref sig .tc .hbm S50000x128 .f32).view.read (Elt F) (V c main_v89) = V c main_v89 := by
    simp only [Memref.view_whole, View.read_whole]
  iintro ⟨⟨⟨Hsc, Hg, ⟨Hq0, Hq1, Hq2, Hq3, Hq4, Hq5, Hq6, Hq7⟩, Hh⟩, Ht⟩, ⟨%W, -, HW⟩, ⟨%d, Hob⟩⟩
  iapply (kernelRun23 c ((cfg32 a1).grid.coords t) (Memref.whole main_v109) (Memref.isWhole_whole _) (Memref.whole main_v89) (Memref.isWhole_whole _)
    (spec32_0.stage ((cfg32 a1).slots t 0)) (hstage32_0 (((cfg32 a1).slots t 0).cast nbuf32_0)) (tblw32 a1) hlt fullShare fullShare (V c main_v89) cc32_scratch0 W _)
  isplitl [Ht]; · iexact Ht
  isplitl [Hh]; · iexact Hh
  isplitl [Hob]; · iexists _; iexact Hob
  isplitl [Hq0]; · iexact Hq0
  isplitl [Hq1]; · iexact Hq1
  isplitl [Hq2]; · iexact Hq2
  isplitl [Hq3]; · iexact Hq3
  isplitl [Hq4]; · iexact Hq4
  isplitl [Hq5]; · iexact Hq5
  isplitl [Hq6]; · iexact Hq6
  isplitl [Hq7]; · iexact Hq7
  isplitl [HW]; · iexact HW
  iintro ⟨Ht, Hh, Hob, Hq0, Hq1, Hq2, Hq3, Hq4, Hq5, Hq6, Hq7, ⟨%W', HW'⟩⟩
  isplitl [Hsc Hg Hq0 Hq1 Hq2 Hq3 Hq4 Hq5 Hq6 Hq7 Hh Ht]
  · isplitl [Hsc Hg Hq0 Hq1 Hq2 Hq3 Hq4 Hq5 Hq6 Hq7 Hh]
    · isplitl [Hsc]; · iexact Hsc
      isplitl [Hg]; · iexact Hg
      isplitl [Hq0 Hq1 Hq2 Hq3 Hq4 Hq5 Hq6 Hq7]
      · isplitl [Hq0]; · iexact Hq0
        isplitl [Hq1]; · iexact Hq1
        isplitl [Hq2]; · iexact Hq2
        isplitl [Hq3]; · iexact Hq3
        isplitl [Hq4]; · iexact Hq4
        isplitl [Hq5]; · iexact Hq5
        isplitl [Hq6]; · iexact Hq6
        iexact Hq7
      iexact Hh
    iexact Ht
  isplitl [HW']
  · iexists W'; isplitr; · ipureintro; exact fun _ _ => Or.inl trivial
    iexact HW'
  rw [hr]
  iexact Hob

end Cert.KernelIdeal.Hand

end
-- ==== Proof.KI.GatherBody33.lean ====
/-
  Region 33's body obligation. The region runs the body of region 23 on its own table, array, output block and
  semaphores (the two kernel functions are one function), so the body's run is region 23's, cited at this region's eight
  semaphores; read with this region's invariant it is the pipeline's body obligation for the region's proof data.
-/
import proofs.«402049_j87351044866139_2_alg».proof.Proof.KI.GatherDef33
import proofs.«402049_j87351044866139_2_alg».proof.Proof.KI.GatherBody23

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Idealize.ShloMosaic.Transfers (shareDrop shareTokN)
open Cert.KernelIdeal Cert.KernelIdeal.Gen

variable {F : FTy → Type} [FloatOps F]

local notation "𝕄" => MT nD τ sig Unit (Elt F) ℕ (Pipeline.UD sig nD τ) ℕ

/-! ## The body obligation -/

variable (V : (c : Dev nD) → (b : Ref sig .tc) → Buf (Elt F) ((c : Thread nD τ).loc b))
variable (a1 : (pcfg33 (F := F)).Adm)

/-- The eight cells at zero, listed, each as the body names it. -/
theorem ownSems33_eq (c : Dev nD) :
    (Pipeline.ownSems0 (Ix := Unit) (Name := ℕ) (U := Pipeline.UD sig nD τ) (Lvl := ℕ) (Val := Elt F) (τ := τ) osem33 c : sProp 𝕄)
      = iprop(semVal ((c : Thread nD τ), cell23_0 cc33_scratch0) 0 ∗ semVal ((c : Thread nD τ), cell23_1 cc33_scratch0) 0 ∗ semVal ((c : Thread nD τ), cell23_2 cc33_scratch0) 0 ∗ semVal ((c : Thread nD τ), cell23_3 cc33_scratch0) 0 ∗ semVal ((c : Thread nD τ), cell23_4 cc33_scratch0) 0 ∗ semVal ((c : Thread nD τ), cell23_5 cc33_scratch0) 0 ∗ semVal ((c : Thread nD τ), cell23_6 cc33_scratch0) 0 ∗ semVal ((c : Thread nD τ), cell23_7 cc33_scratch0) 0) := by
  rw [Pipeline.ownSems0_eq_of_list c osem33 [0, 1, 2, 3, 4, 5, 6, 7] (by decide) (by decide)]; rfl

/-- The array the rows are read from, at the contents the region found it with. -/
theorem hbm33_eq (c : Dev nD) :
    (bigSep H33 (fun b => ((c : Thread nD τ).loc b) ↦{fullShare} V c b) : sProp 𝕄)
      = ((Memref.whole main_v89 : Memref sig .tc .hbm S50000x128 .f32).view.loc (c : Thread nD τ) ↦{fullShare} V c main_v89) := by
  unfold H33
  rw [BI.bigSep_eq_bigSepL_of_eq [main_v89] (by decide) (by decide)]; rfl

/-- The table, held whole at the full share, is owned at its contents. -/
theorem tblw33_eq (c : Dev nD) :
    (Pipeline.prefHeld pre33 c (fun _ => fullShare) a1.1 : sProp 𝕄)
      = owns (c : Thread nD τ) (Memref.whole main_v111 : Memref sig .tc .smem S100000 .i32) fullShare (tblw33 a1) := by
  unfold Pipeline.prefHeld
  rw [bigSep_W33, owns_whole]; rfl

set_option maxHeartbeats 4000000 in
/-- The body at every point: the invariant hands the run its table, the array, the eight cells at zero (the scoped rest and
    the generator register ride along), the core's record of waits goes in at whatever the points before left and comes
    back with this point's eight, and the output block, at anything, comes back reading the gathered rows. -/
theorem hbodyG33 [∀ e, Nonempty (Elt F e)] (hlt : ∀ k : S100000.Idx, (tblw33 a1 k).toNat < 50000) (c : Dev nD) :
    BodyObligationLoose (datG33 V a1 (gblk33 V a1) c) (defs₀ (F := F)) Variants.none () Set.univ := by
  refine BodyObligation.loose _ fun t => ?_
  rw [bigSep_W33, bigSep_W33]
  show iprop(iprop(Pipeline.ΦD osem33 spec33 H33 V c ∗ Pipeline.prefHeld pre33 c (fun _ => fullShare) a1.1)
        ∗ (datG33 V a1 (gblk33 V a1) c).owesAt () t.castSucc
        ∗ (∃ d, owns (c : Thread nD τ) (spec33_0.stage ((cfg33 a1).slots t 0)) fullShare ((datG33 V a1 (gblk33 V a1) c).before 0 t d)))
      ⊢ wp frame (wpE (defs₀ (F := F)) Variants.none c none) Set.univ
          (cc33__gather_kernel ((cfg33 a1).grid.coords t) (Memref.whole main_v111) (Memref.isWhole_whole _) (Memref.whole main_v89) (Memref.isWhole_whole _)
            (spec33_0.stage ((cfg33 a1).slots t 0)) (hstage33_0 (((cfg33 a1).slots t 0).cast nbuf33_0)) cc33_scratch0)
          (fun _ => iprop(iprop(Pipeline.ΦD osem33 spec33 H33 V c ∗ Pipeline.prefHeld pre33 c (fun _ => fullShare) a1.1)
            ∗ (datG33 V a1 (gblk33 V a1) c).owesAt () t.succ
            ∗ owns (c : Thread nD τ) (spec33_0.stage ((cfg33 a1).slots t 0)) fullShare (gblk33 V a1 c t)))
  rw [Pipeline.ΦD_eq, ownSems33_eq, hbm33_eq, tblw33_eq]
  unfold Dat.owesAt Pipeline.owesWithin
  rw [show (datG33 V a1 (gblk33 V a1) c).owed t.castSucc = 0 from rfl, show (datG33 V a1 (gblk33 V a1) c).owed t.succ = 0 from rfl]
  have hr : (Memref.whole main_v89 : Memref sig .tc .hbm S50000x128 .f32).view.read (Elt F) (V c main_v89) = V c main_v89 := by
    simp only [Memref.view_whole, View.read_whole]
  iintro ⟨⟨⟨Hsc, Hg, ⟨Hq0, Hq1, Hq2, Hq3, Hq4, Hq5, Hq6, Hq7⟩, Hh⟩, Ht⟩, ⟨%W, -, HW⟩, ⟨%d, Hob⟩⟩
  iapply (kernelRun23 c ((cfg33 a1).grid.coords t) (Memref.whole main_v111) (Memref.isWhole_whole _) (Memref.whole main_v89) (Memref.isWhole_whole _)
    (spec33_0.stage ((cfg33 a1).slots t 0)) (hstage33_0 (((cfg33 a1).slots t 0).cast nbuf33_0)) (tblw33 a1) hlt fullShare fullShare (V c main_v89) cc33_scratch0 W _)
  isplitl [Ht]; · iexact Ht
  isplitl [Hh]; · iexact Hh
  isplitl [Hob]; · iexists _; iexact Hob
  isplitl [Hq0]; · iexact Hq0
  isplitl [Hq1]; · iexact Hq1
  isplitl [Hq2]; · iexact Hq2
  isplitl [Hq3]; · iexact Hq3
  isplitl [Hq4]; · iexact Hq4
  isplitl [Hq5]; · iexact Hq5
  isplitl [Hq6]; · iexact Hq6
  isplitl [Hq7]; · iexact Hq7
  isplitl [HW]; · iexact HW
  iintro ⟨Ht, Hh, Hob, Hq0, Hq1, Hq2, Hq3, Hq4, Hq5, Hq6, Hq7, ⟨%W', HW'⟩⟩
  isplitl [Hsc Hg Hq0 Hq1 Hq2 Hq3 Hq4 Hq5 Hq6 Hq7 Hh Ht]
  · isplitl [Hsc Hg Hq0 Hq1 Hq2 Hq3 Hq4 Hq5 Hq6 Hq7 Hh]
    · isplitl [Hsc]; · iexact Hsc
      isplitl [Hg]; · iexact Hg
      isplitl [Hq0 Hq1 Hq2 Hq3 Hq4 Hq5 Hq6 Hq7]
      · isplitl [Hq0]; · iexact Hq0
        isplitl [Hq1]; · iexact Hq1
        isplitl [Hq2]; · iexact Hq2
        isplitl [Hq3]; · iexact Hq3
        isplitl [Hq4]; · iexact Hq4
        isplitl [Hq5]; · iexact Hq5
        isplitl [Hq6]; · iexact Hq6
        iexact Hq7
      iexact Hh
    iexact Ht
  isplitl [HW']
  · iexists W'; isplitr; · ipureintro; exact fun _ _ => Or.inl trivial
    iexact HW'
  rw [hr]
  iexact Hob

end Cert.KernelIdeal.Hand

end
-- ==== Proof.KI.GatherBody34.lean ====
/-
  Region 34's body obligation. The region runs the body of region 23 on its own table, array, output block and
  semaphores (the two kernel functions are one function), so the body's run is region 23's, cited at this region's eight
  semaphores; read with this region's invariant it is the pipeline's body obligation for the region's proof data.
-/
import proofs.«402049_j87351044866139_2_alg».proof.Proof.KI.GatherDef34
import proofs.«402049_j87351044866139_2_alg».proof.Proof.KI.GatherBody23

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Idealize.ShloMosaic.Transfers (shareDrop shareTokN)
open Cert.KernelIdeal Cert.KernelIdeal.Gen

variable {F : FTy → Type} [FloatOps F]

local notation "𝕄" => MT nD τ sig Unit (Elt F) ℕ (Pipeline.UD sig nD τ) ℕ

/-! ## The body obligation -/

variable (V : (c : Dev nD) → (b : Ref sig .tc) → Buf (Elt F) ((c : Thread nD τ).loc b))
variable (a1 : (pcfg34 (F := F)).Adm)

/-- The eight cells at zero, listed, each as the body names it. -/
theorem ownSems34_eq (c : Dev nD) :
    (Pipeline.ownSems0 (Ix := Unit) (Name := ℕ) (U := Pipeline.UD sig nD τ) (Lvl := ℕ) (Val := Elt F) (τ := τ) osem34 c : sProp 𝕄)
      = iprop(semVal ((c : Thread nD τ), cell23_0 cc34_scratch0) 0 ∗ semVal ((c : Thread nD τ), cell23_1 cc34_scratch0) 0 ∗ semVal ((c : Thread nD τ), cell23_2 cc34_scratch0) 0 ∗ semVal ((c : Thread nD τ), cell23_3 cc34_scratch0) 0 ∗ semVal ((c : Thread nD τ), cell23_4 cc34_scratch0) 0 ∗ semVal ((c : Thread nD τ), cell23_5 cc34_scratch0) 0 ∗ semVal ((c : Thread nD τ), cell23_6 cc34_scratch0) 0 ∗ semVal ((c : Thread nD τ), cell23_7 cc34_scratch0) 0) := by
  rw [Pipeline.ownSems0_eq_of_list c osem34 [0, 1, 2, 3, 4, 5, 6, 7] (by decide) (by decide)]; rfl

/-- The array the rows are read from, at the contents the region found it with. -/
theorem hbm34_eq (c : Dev nD) :
    (bigSep H34 (fun b => ((c : Thread nD τ).loc b) ↦{fullShare} V c b) : sProp 𝕄)
      = ((Memref.whole main_v89 : Memref sig .tc .hbm S50000x128 .f32).view.loc (c : Thread nD τ) ↦{fullShare} V c main_v89) := by
  unfold H34
  rw [BI.bigSep_eq_bigSepL_of_eq [main_v89] (by decide) (by decide)]; rfl

/-- The table, held whole at the full share, is owned at its contents. -/
theorem tblw34_eq (c : Dev nD) :
    (Pipeline.prefHeld pre34 c (fun _ => fullShare) a1.1 : sProp 𝕄)
      = owns (c : Thread nD τ) (Memref.whole main_v113 : Memref sig .tc .smem S100000 .i32) fullShare (tblw34 a1) := by
  unfold Pipeline.prefHeld
  rw [bigSep_W34, owns_whole]; rfl

set_option maxHeartbeats 4000000 in
/-- The body at every point: the invariant hands the run its table, the array, the eight cells at zero (the scoped rest and
    the generator register ride along), the core's record of waits goes in at whatever the points before left and comes
    back with this point's eight, and the output block, at anything, comes back reading the gathered rows. -/
theorem hbodyG34 [∀ e, Nonempty (Elt F e)] (hlt : ∀ k : S100000.Idx, (tblw34 a1 k).toNat < 50000) (c : Dev nD) :
    BodyObligationLoose (datG34 V a1 (gblk34 V a1) c) (defs₀ (F := F)) Variants.none () Set.univ := by
  refine BodyObligation.loose _ fun t => ?_
  rw [bigSep_W34, bigSep_W34]
  show iprop(iprop(Pipeline.ΦD osem34 spec34 H34 V c ∗ Pipeline.prefHeld pre34 c (fun _ => fullShare) a1.1)
        ∗ (datG34 V a1 (gblk34 V a1) c).owesAt () t.castSucc
        ∗ (∃ d, owns (c : Thread nD τ) (spec34_0.stage ((cfg34 a1).slots t 0)) fullShare ((datG34 V a1 (gblk34 V a1) c).before 0 t d)))
      ⊢ wp frame (wpE (defs₀ (F := F)) Variants.none c none) Set.univ
          (cc34__gather_kernel ((cfg34 a1).grid.coords t) (Memref.whole main_v113) (Memref.isWhole_whole _) (Memref.whole main_v89) (Memref.isWhole_whole _)
            (spec34_0.stage ((cfg34 a1).slots t 0)) (hstage34_0 (((cfg34 a1).slots t 0).cast nbuf34_0)) cc34_scratch0)
          (fun _ => iprop(iprop(Pipeline.ΦD osem34 spec34 H34 V c ∗ Pipeline.prefHeld pre34 c (fun _ => fullShare) a1.1)
            ∗ (datG34 V a1 (gblk34 V a1) c).owesAt () t.succ
            ∗ owns (c : Thread nD τ) (spec34_0.stage ((cfg34 a1).slots t 0)) fullShare (gblk34 V a1 c t)))
  rw [Pipeline.ΦD_eq, ownSems34_eq, hbm34_eq, tblw34_eq]
  unfold Dat.owesAt Pipeline.owesWithin
  rw [show (datG34 V a1 (gblk34 V a1) c).owed t.castSucc = 0 from rfl, show (datG34 V a1 (gblk34 V a1) c).owed t.succ = 0 from rfl]
  have hr : (Memref.whole main_v89 : Memref sig .tc .hbm S50000x128 .f32).view.read (Elt F) (V c main_v89) = V c main_v89 := by
    simp only [Memref.view_whole, View.read_whole]
  iintro ⟨⟨⟨Hsc, Hg, ⟨Hq0, Hq1, Hq2, Hq3, Hq4, Hq5, Hq6, Hq7⟩, Hh⟩, Ht⟩, ⟨%W, -, HW⟩, ⟨%d, Hob⟩⟩
  iapply (kernelRun23 c ((cfg34 a1).grid.coords t) (Memref.whole main_v113) (Memref.isWhole_whole _) (Memref.whole main_v89) (Memref.isWhole_whole _)
    (spec34_0.stage ((cfg34 a1).slots t 0)) (hstage34_0 (((cfg34 a1).slots t 0).cast nbuf34_0)) (tblw34 a1) hlt fullShare fullShare (V c main_v89) cc34_scratch0 W _)
  isplitl [Ht]; · iexact Ht
  isplitl [Hh]; · iexact Hh
  isplitl [Hob]; · iexists _; iexact Hob
  isplitl [Hq0]; · iexact Hq0
  isplitl [Hq1]; · iexact Hq1
  isplitl [Hq2]; · iexact Hq2
  isplitl [Hq3]; · iexact Hq3
  isplitl [Hq4]; · iexact Hq4
  isplitl [Hq5]; · iexact Hq5
  isplitl [Hq6]; · iexact Hq6
  isplitl [Hq7]; · iexact Hq7
  isplitl [HW]; · iexact HW
  iintro ⟨Ht, Hh, Hob, Hq0, Hq1, Hq2, Hq3, Hq4, Hq5, Hq6, Hq7, ⟨%W', HW'⟩⟩
  isplitl [Hsc Hg Hq0 Hq1 Hq2 Hq3 Hq4 Hq5 Hq6 Hq7 Hh Ht]
  · isplitl [Hsc Hg Hq0 Hq1 Hq2 Hq3 Hq4 Hq5 Hq6 Hq7 Hh]
    · isplitl [Hsc]; · iexact Hsc
      isplitl [Hg]; · iexact Hg
      isplitl [Hq0 Hq1 Hq2 Hq3 Hq4 Hq5 Hq6 Hq7]
      · isplitl [Hq0]; · iexact Hq0
        isplitl [Hq1]; · iexact Hq1
        isplitl [Hq2]; · iexact Hq2
        isplitl [Hq3]; · iexact Hq3
        isplitl [Hq4]; · iexact Hq4
        isplitl [Hq5]; · iexact Hq5
        isplitl [Hq6]; · iexact Hq6
        iexact Hq7
      iexact Hh
    iexact Ht
  isplitl [HW']
  · iexists W'; isplitr; · ipureintro; exact fun _ _ => Or.inl trivial
    iexact HW'
  rw [hr]
  iexact Hob

end Cert.KernelIdeal.Hand

end
-- ==== Proof.KI.Regs6.lean ====
import proofs.«402049_j87351044866139_2_alg».proof.Proof.KI.Fam
import proofs.«402049_j87351044866139_2_alg».proof.Proof.KI.Tables
import proofs.«402049_j87351044866139_2_alg».proof.Proof.KI.GatherBody30
import proofs.«402049_j87351044866139_2_alg».proof.Proof.KI.GatherBody31
import proofs.«402049_j87351044866139_2_alg».proof.Proof.KI.GatherBody32
import proofs.«402049_j87351044866139_2_alg».proof.Proof.KI.GatherBody33
import proofs.«402049_j87351044866139_2_alg».proof.Proof.KI.GatherBody34
import Idealize.ShloMosaic.Lib.Pipeline.RegionsLoop

/-! The records of regions 30 to 34 over the thread states: each entered from every unscoped buffer at the real valuation
    before it and left at the one after it; for a gather region, first that every word of its table is a node's number. -/

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg BodyObligation BodyObligationLoose)

variable {F : FTy → Type} [FloatOps F]

local notation "𝕄" => MT nD τ sig Unit (Elt F) ℕ UU ℕ

set_option maxHeartbeats 1000000 in
/-- Every word of region 30's table is a node's number: the data's table is what the real valuation at the region's entry
    holds in the table's buffer; that valuation is the run's own, whose table is the closed one of the launch memory. -/
theorem hlt30 (m : (ℓ : Loc nD τ sig) → Buf (Elt F) ℓ) (hm : ∀ i : S2x800000.Idx, ((V0 m c₀ main_arg1 : IVec S2x800000 32) i).toNat < 50000) :
    ∀ k : S100000.Idx, (tblw30 (a30 m) k).toNat < 50000 := by
  have h1 : tblw30 (a30 m) = (U63 m c₀ main_v104 : IVec S100000 32) := by
    unfold a30
    rfl
  have h2 : ∀ W : Valuation τ sig (Elt F), V63 m (outsU m) c₀ = W → (W main_v104 : IVec S100000 32) = tbl30 m c₀ :=
    fun W hW => by subst hW; exact tbl30_eq m (outsU m) c₀
  have e : tblw30 (a30 m) = tbl30 m c₀ := h1.trans (h2 (U63 m c₀) (V63_eq m c₀))
  intro k
  rw [e]; exact tbl30_lt m c₀ hm k
set_option maxHeartbeats 1000000 in
set_option backward.isDefEq.respectTransparency.types false in
/-- REGION 30 over the thread state: entered from every unscoped buffer at `U63`, left at `U64`. -/
def reg30 (m : (ℓ : Loc nD τ sig) → Buf (Elt F) ℓ) (hm : ∀ i : S2x800000.Idx, ((V0 m c₀ main_arg1 : IVec S2x800000 32) i).toNat < 50000) :
    RegionSeg (pcfgs (F := F)) (adm m) (pdats m) () defs₀ 𝒱₀ L lv 30 where
  win := (launch30 (F := F)).win.to₀
  block_pos := (launch30 (F := F)).block_pos
  stage_whole := (launch30 (F := F)).stage_whole
  K := Fin 8
  osem := osem30
  ho := ownSemFacts30
  hbody c := hbodyG30 (atTc (U63 m)) (a30 m) (hlt30 m hm) c
  hwaits := Pipeline.hwaits_of_owed_zero _ _ _ _ L lv 30 fun _ _ => rfl
  pre c := iprop(StableHlo.held (c : Thread nD τ) (Pipeline.ucRefs τ sig) (U63 m c) ∗ R (F := F) c)
  post c := iprop(StableHlo.held (c : Thread nD τ) (Pipeline.ucRefs τ sig) (U64 m c) ∗ R (F := F) c)
  X c := XG30 (atTc (U63 m)) c
  Y c := YG30 (atTc (U63 m)) (a30 m) c
  Z c := ZG30 (atTc (U63 m)) c
  hentry c := by
    have hsplit := Pipeline.arrays_of_unscopedBufs (p := 30) (pcfgs (F := F)) (adm m) (pdats m) (launch30 (F := F)).win (launch30 (F := F)).arr_whole c
      ((pdats m 30 c).share_full fun _ => rfl) (atTc (U63 m) c) (fun _ => rfl)
    have h := hentryG30 (atTc (U63 m)) (a30 m) (gblk30 (atTc (U63 m)) (a30 m)) c (hpf30 m c) hsplit
    rw [Pipeline.unscopedBufs_held] at h
    exact h
  hin c := hinG30 (atTc (U63 m)) (a30 m) (gblk30 (atTc (U63 m)) (a30 m)) c
  hout c := houtG30 (atTc (U63 m)) (a30 m) (gblk30 (atTc (U63 m)) (a30 m)) c
  hexit c := by
    have hjoin := Pipeline.unscopedBufs_of_arrays (p := 30) (pcfgs (F := F)) (adm m) (Ix := Unit) (Name := ℕ) (U := UU) (Lvl := ℕ)
      (launch30 (F := F)).win (launch30 (F := F)).arr_whole c (pdats m) ((pdats m 30 c).share_full fun _ => rfl)
      (atTc (U63 m) c) (atTc (U64 m) c) ((pdats m 30 c).arrAt · (cfg30 (a30 m)).N) (hF30 m c) (hrest30 m c)
    have h := hexitG30 (atTc (U63 m)) (a30 m) (gblk30 (atTc (U63 m)) (a30 m)) (atTc (U64 m)) c (hpf30 m c) hjoin
    rw [Pipeline.unscopedBufs_held] at h
    exact h

set_option maxHeartbeats 1000000 in
/-- Every word of region 31's table is a node's number: the data's table is what the real valuation at the region's entry
    holds in the table's buffer; that valuation is the run's own, whose table is the closed one of the launch memory. -/
theorem hlt31 (m : (ℓ : Loc nD τ sig) → Buf (Elt F) ℓ) (hm : ∀ i : S2x800000.Idx, ((V0 m c₀ main_arg1 : IVec S2x800000 32) i).toNat < 50000) :
    ∀ k : S100000.Idx, (tblw31 (a31 m) k).toNat < 50000 := by
  have h1 : tblw31 (a31 m) = (U65 m c₀ main_v107 : IVec S100000 32) := by
    unfold a31
    rfl
  have h2 : ∀ W : Valuation τ sig (Elt F), V65 m (outsU m) c₀ = W → (W main_v107 : IVec S100000 32) = tbl31 m c₀ :=
    fun W hW => by subst hW; exact tbl31_eq m (outsU m) c₀
  have e : tblw31 (a31 m) = tbl31 m c₀ := h1.trans (h2 (U65 m c₀) (V65_eq m c₀))
  intro k
  rw [e]; exact tbl31_lt m c₀ hm k
set_option maxHeartbeats 1000000 in
set_option backward.isDefEq.respectTransparency.types false in
/-- REGION 31 over the thread state: entered from every unscoped buffer at `U65`, left at `U66`. -/
def reg31 (m : (ℓ : Loc nD τ sig) → Buf (Elt F) ℓ) (hm : ∀ i : S2x800000.Idx, ((V0 m c₀ main_arg1 : IVec S2x800000 32) i).toNat < 50000) :
    RegionSeg (pcfgs (F := F)) (adm m) (pdats m) () defs₀ 𝒱₀ L lv 31 where
  win := (launch31 (F := F)).win.to₀
  block_pos := (launch31 (F := F)).block_pos
  stage_whole := (launch31 (F := F)).stage_whole
  K := Fin 8
  osem := osem31
  ho := ownSemFacts31
  hbody c := hbodyG31 (atTc (U65 m)) (a31 m) (hlt31 m hm) c
  hwaits := Pipeline.hwaits_of_owed_zero _ _ _ _ L lv 31 fun _ _ => rfl
  pre c := iprop(StableHlo.held (c : Thread nD τ) (Pipeline.ucRefs τ sig) (U65 m c) ∗ R (F := F) c)
  post c := iprop(StableHlo.held (c : Thread nD τ) (Pipeline.ucRefs τ sig) (U66 m c) ∗ R (F := F) c)
  X c := XG31 (atTc (U65 m)) c
  Y c := YG31 (atTc (U65 m)) (a31 m) c
  Z c := ZG31 (atTc (U65 m)) c
  hentry c := by
    have hsplit := Pipeline.arrays_of_unscopedBufs (p := 31) (pcfgs (F := F)) (adm m) (pdats m) (launch31 (F := F)).win (launch31 (F := F)).arr_whole c
      ((pdats m 31 c).share_full fun _ => rfl) (atTc (U65 m) c) (fun _ => rfl)
    have h := hentryG31 (atTc (U65 m)) (a31 m) (gblk31 (atTc (U65 m)) (a31 m)) c (hpf31 m c) hsplit
    rw [Pipeline.unscopedBufs_held] at h
    exact h
  hin c := hinG31 (atTc (U65 m)) (a31 m) (gblk31 (atTc (U65 m)) (a31 m)) c
  hout c := houtG31 (atTc (U65 m)) (a31 m) (gblk31 (atTc (U65 m)) (a31 m)) c
  hexit c := by
    have hjoin := Pipeline.unscopedBufs_of_arrays (p := 31) (pcfgs (F := F)) (adm m) (Ix := Unit) (Name := ℕ) (U := UU) (Lvl := ℕ)
      (launch31 (F := F)).win (launch31 (F := F)).arr_whole c (pdats m) ((pdats m 31 c).share_full fun _ => rfl)
      (atTc (U65 m) c) (atTc (U66 m) c) ((pdats m 31 c).arrAt · (cfg31 (a31 m)).N) (hF31 m c) (hrest31 m c)
    have h := hexitG31 (atTc (U65 m)) (a31 m) (gblk31 (atTc (U65 m)) (a31 m)) (atTc (U66 m)) c (hpf31 m c) hjoin
    rw [Pipeline.unscopedBufs_held] at h
    exact h

set_option maxHeartbeats 1000000 in
/-- Every word of region 32's table is a node's number: the data's table is what the real valuation at the region's entry
    holds in the table's buffer; that valuation is the run's own, whose table is the closed one of the launch memory. -/
theorem hlt32 (m : (ℓ : Loc nD τ sig) → Buf (Elt F) ℓ) (hm : ∀ i : S2x800000.Idx, ((V0 m c₀ main_arg1 : IVec S2x800000 32) i).toNat < 50000) :
    ∀ k : S100000.Idx, (tblw32 (a32 m) k).toNat < 50000 := by
  have h1 : tblw32 (a32 m) = (U67 m c₀ main_v109 : IVec S100000 32) := by
    unfold a32
    rfl
  have h2 : ∀ W : Valuation τ sig (Elt F), V67 m (outsU m) c₀ = W → (W main_v109 : IVec S100000 32) = tbl32 m c₀ :=
    fun W hW => by subst hW; exact tbl32_eq m (outsU m) c₀
  have e : tblw32 (a32 m) = tbl32 m c₀ := h1.trans (h2 (U67 m c₀) (V67_eq m c₀))
  intro k
  rw [e]; exact tbl32_lt m c₀ hm k
set_option maxHeartbeats 1000000 in
set_option backward.isDefEq.respectTransparency.types false in
/-- REGION 32 over the thread state: entered from every unscoped buffer at `U67`, left at `U68`. -/
def reg32 (m : (ℓ : Loc nD τ sig) → Buf (Elt F) ℓ) (hm : ∀ i : S2x800000.Idx, ((V0 m c₀ main_arg1 : IVec S2x800000 32) i).toNat < 50000) :
    RegionSeg (pcfgs (F := F)) (adm m) (pdats m) () defs₀ 𝒱₀ L lv 32 where
  win := (launch32 (F := F)).win.to₀
  block_pos := (launch32 (F := F)).block_pos
  stage_whole := (launch32 (F := F)).stage_whole
  K := Fin 8
  osem := osem32
  ho := ownSemFacts32
  hbody c := hbodyG32 (atTc (U67 m)) (a32 m) (hlt32 m hm) c
  hwaits := Pipeline.hwaits_of_owed_zero _ _ _ _ L lv 32 fun _ _ => rfl
  pre c := iprop(StableHlo.held (c : Thread nD τ) (Pipeline.ucRefs τ sig) (U67 m c) ∗ R (F := F) c)
  post c := iprop(StableHlo.held (c : Thread nD τ) (Pipeline.ucRefs τ sig) (U68 m c) ∗ R (F := F) c)
  X c := XG32 (atTc (U67 m)) c
  Y c := YG32 (atTc (U67 m)) (a32 m) c
  Z c := ZG32 (atTc (U67 m)) c
  hentry c := by
    have hsplit := Pipeline.arrays_of_unscopedBufs (p := 32) (pcfgs (F := F)) (adm m) (pdats m) (launch32 (F := F)).win (launch32 (F := F)).arr_whole c
      ((pdats m 32 c).share_full fun _ => rfl) (atTc (U67 m) c) (fun _ => rfl)
    have h := hentryG32 (atTc (U67 m)) (a32 m) (gblk32 (atTc (U67 m)) (a32 m)) c (hpf32 m c) hsplit
    rw [Pipeline.unscopedBufs_held] at h
    exact h
  hin c := hinG32 (atTc (U67 m)) (a32 m) (gblk32 (atTc (U67 m)) (a32 m)) c
  hout c := houtG32 (atTc (U67 m)) (a32 m) (gblk32 (atTc (U67 m)) (a32 m)) c
  hexit c := by
    have hjoin := Pipeline.unscopedBufs_of_arrays (p := 32) (pcfgs (F := F)) (adm m) (Ix := Unit) (Name := ℕ) (U := UU) (Lvl := ℕ)
      (launch32 (F := F)).win (launch32 (F := F)).arr_whole c (pdats m) ((pdats m 32 c).share_full fun _ => rfl)
      (atTc (U67 m) c) (atTc (U68 m) c) ((pdats m 32 c).arrAt · (cfg32 (a32 m)).N) (hF32 m c) (hrest32 m c)
    have h := hexitG32 (atTc (U67 m)) (a32 m) (gblk32 (atTc (U67 m)) (a32 m)) (atTc (U68 m)) c (hpf32 m c) hjoin
    rw [Pipeline.unscopedBufs_held] at h
    exact h

set_option maxHeartbeats 1000000 in
/-- Every word of region 33's table is a node's number: the data's table is what the real valuation at the region's entry
    holds in the table's buffer; that valuation is the run's own, whose table is the closed one of the launch memory. -/
theorem hlt33 (m : (ℓ : Loc nD τ sig) → Buf (Elt F) ℓ) (hm : ∀ i : S2x800000.Idx, ((V0 m c₀ main_arg1 : IVec S2x800000 32) i).toNat < 50000) :
    ∀ k : S100000.Idx, (tblw33 (a33 m) k).toNat < 50000 := by
  have h1 : tblw33 (a33 m) = (U69 m c₀ main_v111 : IVec S100000 32) := by
    unfold a33
    rfl
  have h2 : ∀ W : Valuation τ sig (Elt F), V69 m (outsU m) c₀ = W → (W main_v111 : IVec S100000 32) = tbl33 m c₀ :=
    fun W hW => by subst hW; exact tbl33_eq m (outsU m) c₀
  have e : tblw33 (a33 m) = tbl33 m c₀ := h1.trans (h2 (U69 m c₀) (V69_eq m c₀))
  intro k
  rw [e]; exact tbl33_lt m c₀ hm k
set_option maxHeartbeats 1000000 in
set_option backward.isDefEq.respectTransparency.types false in
/-- REGION 33 over the thread state: entered from every unscoped buffer at `U69`, left at `U70`. -/
def reg33 (m : (ℓ : Loc nD τ sig) → Buf (Elt F) ℓ) (hm : ∀ i : S2x800000.Idx, ((V0 m c₀ main_arg1 : IVec S2x800000 32) i).toNat < 50000) :
    RegionSeg (pcfgs (F := F)) (adm m) (pdats m) () defs₀ 𝒱₀ L lv 33 where
  win := (launch33 (F := F)).win.to₀
  block_pos := (launch33 (F := F)).block_pos
  stage_whole := (launch33 (F := F)).stage_whole
  K := Fin 8
  osem := osem33
  ho := ownSemFacts33
  hbody c := hbodyG33 (atTc (U69 m)) (a33 m) (hlt33 m hm) c
  hwaits := Pipeline.hwaits_of_owed_zero _ _ _ _ L lv 33 fun _ _ => rfl
  pre c := iprop(StableHlo.held (c : Thread nD τ) (Pipeline.ucRefs τ sig) (U69 m c) ∗ R (F := F) c)
  post c := iprop(StableHlo.held (c : Thread nD τ) (Pipeline.ucRefs τ sig) (U70 m c) ∗ R (F := F) c)
  X c := XG33 (atTc (U69 m)) c
  Y c := YG33 (atTc (U69 m)) (a33 m) c
  Z c := ZG33 (atTc (U69 m)) c
  hentry c := by
    have hsplit := Pipeline.arrays_of_unscopedBufs (p := 33) (pcfgs (F := F)) (adm m) (pdats m) (launch33 (F := F)).win (launch33 (F := F)).arr_whole c
      ((pdats m 33 c).share_full fun _ => rfl) (atTc (U69 m) c) (fun _ => rfl)
    have h := hentryG33 (atTc (U69 m)) (a33 m) (gblk33 (atTc (U69 m)) (a33 m)) c (hpf33 m c) hsplit
    rw [Pipeline.unscopedBufs_held] at h
    exact h
  hin c := hinG33 (atTc (U69 m)) (a33 m) (gblk33 (atTc (U69 m)) (a33 m)) c
  hout c := houtG33 (atTc (U69 m)) (a33 m) (gblk33 (atTc (U69 m)) (a33 m)) c
  hexit c := by
    have hjoin := Pipeline.unscopedBufs_of_arrays (p := 33) (pcfgs (F := F)) (adm m) (Ix := Unit) (Name := ℕ) (U := UU) (Lvl := ℕ)
      (launch33 (F := F)).win (launch33 (F := F)).arr_whole c (pdats m) ((pdats m 33 c).share_full fun _ => rfl)
      (atTc (U69 m) c) (atTc (U70 m) c) ((pdats m 33 c).arrAt · (cfg33 (a33 m)).N) (hF33 m c) (hrest33 m c)
    have h := hexitG33 (atTc (U69 m)) (a33 m) (gblk33 (atTc (U69 m)) (a33 m)) (atTc (U70 m)) c (hpf33 m c) hjoin
    rw [Pipeline.unscopedBufs_held] at h
    exact h

set_option maxHeartbeats 1000000 in
/-- Every word of region 34's table is a node's number: the data's table is what the real valuation at the region's entry
    holds in the table's buffer; that valuation is the run's own, whose table is the closed one of the launch memory. -/
theorem hlt34 (m : (ℓ : Loc nD τ sig) → Buf (Elt F) ℓ) (hm : ∀ i : S2x800000.Idx, ((V0 m c₀ main_arg1 : IVec S2x800000 32) i).toNat < 50000) :
    ∀ k : S100000.Idx, (tblw34 (a34 m) k).toNat < 50000 := by
  have h1 : tblw34 (a34 m) = (U71 m c₀ main_v113 : IVec S100000 32) := by
    unfold a34
    rfl
  have h2 : ∀ W : Valuation τ sig (Elt F), V71 m (outsU m) c₀ = W → (W main_v113 : IVec S100000 32) = tbl34 m c₀ :=
    fun W hW => by subst hW; exact tbl34_eq m (outsU m) c₀
  have e : tblw34 (a34 m) = tbl34 m c₀ := h1.trans (h2 (U71 m c₀) (V71_eq m c₀))
  intro k
  rw [e]; exact tbl34_lt m c₀ hm k
set_option maxHeartbeats 1000000 in
set_option backward.isDefEq.respectTransparency.types false in
/-- REGION 34 over the thread state: entered from every unscoped buffer at `U71`, left at `U72`. -/
def reg34 (m : (ℓ : Loc nD τ sig) → Buf (Elt F) ℓ) (hm : ∀ i : S2x800000.Idx, ((V0 m c₀ main_arg1 : IVec S2x800000 32) i).toNat < 50000) :
    RegionSeg (pcfgs (F := F)) (adm m) (pdats m) () defs₀ 𝒱₀ L lv 34 where
  win := (launch34 (F := F)).win.to₀
  block_pos := (launch34 (F := F)).block_pos
  stage_whole := (launch34 (F := F)).stage_whole
  K := Fin 8
  osem := osem34
  ho := ownSemFacts34
  hbody c := hbodyG34 (atTc (U71 m)) (a34 m) (hlt34 m hm) c
  hwaits := Pipeline.hwaits_of_owed_zero _ _ _ _ L lv 34 fun _ _ => rfl
  pre c := iprop(StableHlo.held (c : Thread nD τ) (Pipeline.ucRefs τ sig) (U71 m c) ∗ R (F := F) c)
  post c := iprop(StableHlo.held (c : Thread nD τ) (Pipeline.ucRefs τ sig) (U72 m c) ∗ R (F := F) c)
  X c := XG34 (atTc (U71 m)) c
  Y c := YG34 (atTc (U71 m)) (a34 m) c
  Z c := ZG34 (atTc (U71 m)) c
  hentry c := by
    have hsplit := Pipeline.arrays_of_unscopedBufs (p := 34) (pcfgs (F := F)) (adm m) (pdats m) (launch34 (F := F)).win (launch34 (F := F)).arr_whole c
      ((pdats m 34 c).share_full fun _ => rfl) (atTc (U71 m) c) (fun _ => rfl)
    have h := hentryG34 (atTc (U71 m)) (a34 m) (gblk34 (atTc (U71 m)) (a34 m)) c (hpf34 m c) hsplit
    rw [Pipeline.unscopedBufs_held] at h
    exact h
  hin c := hinG34 (atTc (U71 m)) (a34 m) (gblk34 (atTc (U71 m)) (a34 m)) c
  hout c := houtG34 (atTc (U71 m)) (a34 m) (gblk34 (atTc (U71 m)) (a34 m)) c
  hexit c := by
    have hjoin := Pipeline.unscopedBufs_of_arrays (p := 34) (pcfgs (F := F)) (adm m) (Ix := Unit) (Name := ℕ) (U := UU) (Lvl := ℕ)
      (launch34 (F := F)).win (launch34 (F := F)).arr_whole c (pdats m) ((pdats m 34 c).share_full fun _ => rfl)
      (atTc (U71 m) c) (atTc (U72 m) c) ((pdats m 34 c).arrAt · (cfg34 (a34 m)).N) (hF34 m c) (hrest34 m c)
    have h := hexitG34 (atTc (U71 m)) (a34 m) (gblk34 (atTc (U71 m)) (a34 m)) (atTc (U72 m)) c (hpf34 m c) hjoin
    rw [Pipeline.unscopedBufs_held] at h
    exact h

end Cert.KernelIdeal.Hand

end
-- ==== Proof.KI.GatherBody35.lean ====
/-
  Region 35's body obligation. The region runs the body of region 23 on its own table, array, output block and
  semaphores (the two kernel functions are one function), so the body's run is region 23's, cited at this region's eight
  semaphores; read with this region's invariant it is the pipeline's body obligation for the region's proof data.
-/
import proofs.«402049_j87351044866139_2_alg».proof.Proof.KI.GatherDef35
import proofs.«402049_j87351044866139_2_alg».proof.Proof.KI.GatherBody23

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Idealize.ShloMosaic.Transfers (shareDrop shareTokN)
open Cert.KernelIdeal Cert.KernelIdeal.Gen

variable {F : FTy → Type} [FloatOps F]

local notation "𝕄" => MT nD τ sig Unit (Elt F) ℕ (Pipeline.UD sig nD τ) ℕ

/-! ## The body obligation -/

variable (V : (c : Dev nD) → (b : Ref sig .tc) → Buf (Elt F) ((c : Thread nD τ).loc b))
variable (a1 : (pcfg35 (F := F)).Adm)

/-- The eight cells at zero, listed, each as the body names it. -/
theorem ownSems35_eq (c : Dev nD) :
    (Pipeline.ownSems0 (Ix := Unit) (Name := ℕ) (U := Pipeline.UD sig nD τ) (Lvl := ℕ) (Val := Elt F) (τ := τ) osem35 c : sProp 𝕄)
      = iprop(semVal ((c : Thread nD τ), cell23_0 cc35_scratch0) 0 ∗ semVal ((c : Thread nD τ), cell23_1 cc35_scratch0) 0 ∗ semVal ((c : Thread nD τ), cell23_2 cc35_scratch0) 0 ∗ semVal ((c : Thread nD τ), cell23_3 cc35_scratch0) 0 ∗ semVal ((c : Thread nD τ), cell23_4 cc35_scratch0) 0 ∗ semVal ((c : Thread nD τ), cell23_5 cc35_scratch0) 0 ∗ semVal ((c : Thread nD τ), cell23_6 cc35_scratch0) 0 ∗ semVal ((c : Thread nD τ), cell23_7 cc35_scratch0) 0) := by
  rw [Pipeline.ownSems0_eq_of_list c osem35 [0, 1, 2, 3, 4, 5, 6, 7] (by decide) (by decide)]; rfl

/-- The array the rows are read from, at the contents the region found it with. -/
theorem hbm35_eq (c : Dev nD) :
    (bigSep H35 (fun b => ((c : Thread nD τ).loc b) ↦{fullShare} V c b) : sProp 𝕄)
      = ((Memref.whole main_v89 : Memref sig .tc .hbm S50000x128 .f32).view.loc (c : Thread nD τ) ↦{fullShare} V c main_v89) := by
  unfold H35
  rw [BI.bigSep_eq_bigSepL_of_eq [main_v89] (by decide) (by decide)]; rfl

/-- The table, held whole at the full share, is owned at its contents. -/
theorem tblw35_eq (c : Dev nD) :
    (Pipeline.prefHeld pre35 c (fun _ => fullShare) a1.1 : sProp 𝕄)
      = owns (c : Thread nD τ) (Memref.whole main_v115 : Memref sig .tc .smem S100000 .i32) fullShare (tblw35 a1) := by
  unfold Pipeline.prefHeld
  rw [bigSep_W35, owns_whole]; rfl

set_option maxHeartbeats 4000000 in
/-- The body at every point: the invariant hands the run its table, the array, the eight cells at zero (the scoped rest and
    the generator register ride along), the core's record of waits goes in at whatever the points before left and comes
    back with this point's eight, and the output block, at anything, comes back reading the gathered rows. -/
theorem hbodyG35 [∀ e, Nonempty (Elt F e)] (hlt : ∀ k : S100000.Idx, (tblw35 a1 k).toNat < 50000) (c : Dev nD) :
    BodyObligationLoose (datG35 V a1 (gblk35 V a1) c) (defs₀ (F := F)) Variants.none () Set.univ := by
  refine BodyObligation.loose _ fun t => ?_
  rw [bigSep_W35, bigSep_W35]
  show iprop(iprop(Pipeline.ΦD osem35 spec35 H35 V c ∗ Pipeline.prefHeld pre35 c (fun _ => fullShare) a1.1)
        ∗ (datG35 V a1 (gblk35 V a1) c).owesAt () t.castSucc
        ∗ (∃ d, owns (c : Thread nD τ) (spec35_0.stage ((cfg35 a1).slots t 0)) fullShare ((datG35 V a1 (gblk35 V a1) c).before 0 t d)))
      ⊢ wp frame (wpE (defs₀ (F := F)) Variants.none c none) Set.univ
          (cc35__gather_kernel ((cfg35 a1).grid.coords t) (Memref.whole main_v115) (Memref.isWhole_whole _) (Memref.whole main_v89) (Memref.isWhole_whole _)
            (spec35_0.stage ((cfg35 a1).slots t 0)) (hstage35_0 (((cfg35 a1).slots t 0).cast nbuf35_0)) cc35_scratch0)
          (fun _ => iprop(iprop(Pipeline.ΦD osem35 spec35 H35 V c ∗ Pipeline.prefHeld pre35 c (fun _ => fullShare) a1.1)
            ∗ (datG35 V a1 (gblk35 V a1) c).owesAt () t.succ
            ∗ owns (c : Thread nD τ) (spec35_0.stage ((cfg35 a1).slots t 0)) fullShare (gblk35 V a1 c t)))
  rw [Pipeline.ΦD_eq, ownSems35_eq, hbm35_eq, tblw35_eq]
  unfold Dat.owesAt Pipeline.owesWithin
  rw [show (datG35 V a1 (gblk35 V a1) c).owed t.castSucc = 0 from rfl, show (datG35 V a1 (gblk35 V a1) c).owed t.succ = 0 from rfl]
  have hr : (Memref.whole main_v89 : Memref sig .tc .hbm S50000x128 .f32).view.read (Elt F) (V c main_v89) = V c main_v89 := by
    simp only [Memref.view_whole, View.read_whole]
  iintro ⟨⟨⟨Hsc, Hg, ⟨Hq0, Hq1, Hq2, Hq3, Hq4, Hq5, Hq6, Hq7⟩, Hh⟩, Ht⟩, ⟨%W, -, HW⟩, ⟨%d, Hob⟩⟩
  iapply (kernelRun23 c ((cfg35 a1).grid.coords t) (Memref.whole main_v115) (Memref.isWhole_whole _) (Memref.whole main_v89) (Memref.isWhole_whole _)
    (spec35_0.stage ((cfg35 a1).slots t 0)) (hstage35_0 (((cfg35 a1).slots t 0).cast nbuf35_0)) (tblw35 a1) hlt fullShare fullShare (V c main_v89) cc35_scratch0 W _)
  isplitl [Ht]; · iexact Ht
  isplitl [Hh]; · iexact Hh
  isplitl [Hob]; · iexists _; iexact Hob
  isplitl [Hq0]; · iexact Hq0
  isplitl [Hq1]; · iexact Hq1
  isplitl [Hq2]; · iexact Hq2
  isplitl [Hq3]; · iexact Hq3
  isplitl [Hq4]; · iexact Hq4
  isplitl [Hq5]; · iexact Hq5
  isplitl [Hq6]; · iexact Hq6
  isplitl [Hq7]; · iexact Hq7
  isplitl [HW]; · iexact HW
  iintro ⟨Ht, Hh, Hob, Hq0, Hq1, Hq2, Hq3, Hq4, Hq5, Hq6, Hq7, ⟨%W', HW'⟩⟩
  isplitl [Hsc Hg Hq0 Hq1 Hq2 Hq3 Hq4 Hq5 Hq6 Hq7 Hh Ht]
  · isplitl [Hsc Hg Hq0 Hq1 Hq2 Hq3 Hq4 Hq5 Hq6 Hq7 Hh]
    · isplitl [Hsc]; · iexact Hsc
      isplitl [Hg]; · iexact Hg
      isplitl [Hq0 Hq1 Hq2 Hq3 Hq4 Hq5 Hq6 Hq7]
      · isplitl [Hq0]; · iexact Hq0
        isplitl [Hq1]; · iexact Hq1
        isplitl [Hq2]; · iexact Hq2
        isplitl [Hq3]; · iexact Hq3
        isplitl [Hq4]; · iexact Hq4
        isplitl [Hq5]; · iexact Hq5
        isplitl [Hq6]; · iexact Hq6
        iexact Hq7
      iexact Hh
    iexact Ht
  isplitl [HW']
  · iexists W'; isplitr; · ipureintro; exact fun _ _ => Or.inl trivial
    iexact HW'
  rw [hr]
  iexact Hob

end Cert.KernelIdeal.Hand

end
-- ==== Proof.KI.GatherBody36.lean ====
/-
  Region 36's body obligation. The region runs the body of region 23 on its own table, array, output block and
  semaphores (the two kernel functions are one function), so the body's run is region 23's, cited at this region's eight
  semaphores; read with this region's invariant it is the pipeline's body obligation for the region's proof data.
-/
import proofs.«402049_j87351044866139_2_alg».proof.Proof.KI.GatherDef36
import proofs.«402049_j87351044866139_2_alg».proof.Proof.KI.GatherBody23

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Idealize.ShloMosaic.Transfers (shareDrop shareTokN)
open Cert.KernelIdeal Cert.KernelIdeal.Gen

variable {F : FTy → Type} [FloatOps F]

local notation "𝕄" => MT nD τ sig Unit (Elt F) ℕ (Pipeline.UD sig nD τ) ℕ

/-! ## The body obligation -/

variable (V : (c : Dev nD) → (b : Ref sig .tc) → Buf (Elt F) ((c : Thread nD τ).loc b))
variable (a1 : (pcfg36 (F := F)).Adm)

/-- The eight cells at zero, listed, each as the body names it. -/
theorem ownSems36_eq (c : Dev nD) :
    (Pipeline.ownSems0 (Ix := Unit) (Name := ℕ) (U := Pipeline.UD sig nD τ) (Lvl := ℕ) (Val := Elt F) (τ := τ) osem36 c : sProp 𝕄)
      = iprop(semVal ((c : Thread nD τ), cell23_0 cc36_scratch0) 0 ∗ semVal ((c : Thread nD τ), cell23_1 cc36_scratch0) 0 ∗ semVal ((c : Thread nD τ), cell23_2 cc36_scratch0) 0 ∗ semVal ((c : Thread nD τ), cell23_3 cc36_scratch0) 0 ∗ semVal ((c : Thread nD τ), cell23_4 cc36_scratch0) 0 ∗ semVal ((c : Thread nD τ), cell23_5 cc36_scratch0) 0 ∗ semVal ((c : Thread nD τ), cell23_6 cc36_scratch0) 0 ∗ semVal ((c : Thread nD τ), cell23_7 cc36_scratch0) 0) := by
  rw [Pipeline.ownSems0_eq_of_list c osem36 [0, 1, 2, 3, 4, 5, 6, 7] (by decide) (by decide)]; rfl

/-- The array the rows are read from, at the contents the region found it with. -/
theorem hbm36_eq (c : Dev nD) :
    (bigSep H36 (fun b => ((c : Thread nD τ).loc b) ↦{fullShare} V c b) : sProp 𝕄)
      = ((Memref.whole main_v89 : Memref sig .tc .hbm S50000x128 .f32).view.loc (c : Thread nD τ) ↦{fullShare} V c main_v89) := by
  unfold H36
  rw [BI.bigSep_eq_bigSepL_of_eq [main_v89] (by decide) (by decide)]; rfl

/-- The table, held whole at the full share, is owned at its contents. -/
theorem tblw36_eq (c : Dev nD) :
    (Pipeline.prefHeld pre36 c (fun _ => fullShare) a1.1 : sProp 𝕄)
      = owns (c : Thread nD τ) (Memref.whole main_v117 : Memref sig .tc .smem S100000 .i32) fullShare (tblw36 a1) := by
  unfold Pipeline.prefHeld
  rw [bigSep_W36, owns_whole]; rfl

set_option maxHeartbeats 4000000 in
/-- The body at every point: the invariant hands the run its table, the array, the eight cells at zero (the scoped rest and
    the generator register ride along), the core's record of waits goes in at whatever the points before left and comes
    back with this point's eight, and the output block, at anything, comes back reading the gathered rows. -/
theorem hbodyG36 [∀ e, Nonempty (Elt F e)] (hlt : ∀ k : S100000.Idx, (tblw36 a1 k).toNat < 50000) (c : Dev nD) :
    BodyObligationLoose (datG36 V a1 (gblk36 V a1) c) (defs₀ (F := F)) Variants.none () Set.univ := by
  refine BodyObligation.loose _ fun t => ?_
  rw [bigSep_W36, bigSep_W36]
  show iprop(iprop(Pipeline.ΦD osem36 spec36 H36 V c ∗ Pipeline.prefHeld pre36 c (fun _ => fullShare) a1.1)
        ∗ (datG36 V a1 (gblk36 V a1) c).owesAt () t.castSucc
        ∗ (∃ d, owns (c : Thread nD τ) (spec36_0.stage ((cfg36 a1).slots t 0)) fullShare ((datG36 V a1 (gblk36 V a1) c).before 0 t d)))
      ⊢ wp frame (wpE (defs₀ (F := F)) Variants.none c none) Set.univ
          (cc36__gather_kernel ((cfg36 a1).grid.coords t) (Memref.whole main_v117) (Memref.isWhole_whole _) (Memref.whole main_v89) (Memref.isWhole_whole _)
            (spec36_0.stage ((cfg36 a1).slots t 0)) (hstage36_0 (((cfg36 a1).slots t 0).cast nbuf36_0)) cc36_scratch0)
          (fun _ => iprop(iprop(Pipeline.ΦD osem36 spec36 H36 V c ∗ Pipeline.prefHeld pre36 c (fun _ => fullShare) a1.1)
            ∗ (datG36 V a1 (gblk36 V a1) c).owesAt () t.succ
            ∗ owns (c : Thread nD τ) (spec36_0.stage ((cfg36 a1).slots t 0)) fullShare (gblk36 V a1 c t)))
  rw [Pipeline.ΦD_eq, ownSems36_eq, hbm36_eq, tblw36_eq]
  unfold Dat.owesAt Pipeline.owesWithin
  rw [show (datG36 V a1 (gblk36 V a1) c).owed t.castSucc = 0 from rfl, show (datG36 V a1 (gblk36 V a1) c).owed t.succ = 0 from rfl]
  have hr : (Memref.whole main_v89 : Memref sig .tc .hbm S50000x128 .f32).view.read (Elt F) (V c main_v89) = V c main_v89 := by
    simp only [Memref.view_whole, View.read_whole]
  iintro ⟨⟨⟨Hsc, Hg, ⟨Hq0, Hq1, Hq2, Hq3, Hq4, Hq5, Hq6, Hq7⟩, Hh⟩, Ht⟩, ⟨%W, -, HW⟩, ⟨%d, Hob⟩⟩
  iapply (kernelRun23 c ((cfg36 a1).grid.coords t) (Memref.whole main_v117) (Memref.isWhole_whole _) (Memref.whole main_v89) (Memref.isWhole_whole _)
    (spec36_0.stage ((cfg36 a1).slots t 0)) (hstage36_0 (((cfg36 a1).slots t 0).cast nbuf36_0)) (tblw36 a1) hlt fullShare fullShare (V c main_v89) cc36_scratch0 W _)
  isplitl [Ht]; · iexact Ht
  isplitl [Hh]; · iexact Hh
  isplitl [Hob]; · iexists _; iexact Hob
  isplitl [Hq0]; · iexact Hq0
  isplitl [Hq1]; · iexact Hq1
  isplitl [Hq2]; · iexact Hq2
  isplitl [Hq3]; · iexact Hq3
  isplitl [Hq4]; · iexact Hq4
  isplitl [Hq5]; · iexact Hq5
  isplitl [Hq6]; · iexact Hq6
  isplitl [Hq7]; · iexact Hq7
  isplitl [HW]; · iexact HW
  iintro ⟨Ht, Hh, Hob, Hq0, Hq1, Hq2, Hq3, Hq4, Hq5, Hq6, Hq7, ⟨%W', HW'⟩⟩
  isplitl [Hsc Hg Hq0 Hq1 Hq2 Hq3 Hq4 Hq5 Hq6 Hq7 Hh Ht]
  · isplitl [Hsc Hg Hq0 Hq1 Hq2 Hq3 Hq4 Hq5 Hq6 Hq7 Hh]
    · isplitl [Hsc]; · iexact Hsc
      isplitl [Hg]; · iexact Hg
      isplitl [Hq0 Hq1 Hq2 Hq3 Hq4 Hq5 Hq6 Hq7]
      · isplitl [Hq0]; · iexact Hq0
        isplitl [Hq1]; · iexact Hq1
        isplitl [Hq2]; · iexact Hq2
        isplitl [Hq3]; · iexact Hq3
        isplitl [Hq4]; · iexact Hq4
        isplitl [Hq5]; · iexact Hq5
        isplitl [Hq6]; · iexact Hq6
        iexact Hq7
      iexact Hh
    iexact Ht
  isplitl [HW']
  · iexists W'; isplitr; · ipureintro; exact fun _ _ => Or.inl trivial
    iexact HW'
  rw [hr]
  iexact Hob

end Cert.KernelIdeal.Hand

end
-- ==== Proof.KI.GatherBody37.lean ====
/-
  Region 37's body obligation. The region runs the body of region 23 on its own table, array, output block and
  semaphores (the two kernel functions are one function), so the body's run is region 23's, cited at this region's eight
  semaphores; read with this region's invariant it is the pipeline's body obligation for the region's proof data.
-/
import proofs.«402049_j87351044866139_2_alg».proof.Proof.KI.GatherDef37
import proofs.«402049_j87351044866139_2_alg».proof.Proof.KI.GatherBody23

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Idealize.ShloMosaic.Transfers (shareDrop shareTokN)
open Cert.KernelIdeal Cert.KernelIdeal.Gen

variable {F : FTy → Type} [FloatOps F]

local notation "𝕄" => MT nD τ sig Unit (Elt F) ℕ (Pipeline.UD sig nD τ) ℕ

/-! ## The body obligation -/

variable (V : (c : Dev nD) → (b : Ref sig .tc) → Buf (Elt F) ((c : Thread nD τ).loc b))
variable (a1 : (pcfg37 (F := F)).Adm)

/-- The eight cells at zero, listed, each as the body names it. -/
theorem ownSems37_eq (c : Dev nD) :
    (Pipeline.ownSems0 (Ix := Unit) (Name := ℕ) (U := Pipeline.UD sig nD τ) (Lvl := ℕ) (Val := Elt F) (τ := τ) osem37 c : sProp 𝕄)
      = iprop(semVal ((c : Thread nD τ), cell23_0 cc37_scratch0) 0 ∗ semVal ((c : Thread nD τ), cell23_1 cc37_scratch0) 0 ∗ semVal ((c : Thread nD τ), cell23_2 cc37_scratch0) 0 ∗ semVal ((c : Thread nD τ), cell23_3 cc37_scratch0) 0 ∗ semVal ((c : Thread nD τ), cell23_4 cc37_scratch0) 0 ∗ semVal ((c : Thread nD τ), cell23_5 cc37_scratch0) 0 ∗ semVal ((c : Thread nD τ), cell23_6 cc37_scratch0) 0 ∗ semVal ((c : Thread nD τ), cell23_7 cc37_scratch0) 0) := by
  rw [Pipeline.ownSems0_eq_of_list c osem37 [0, 1, 2, 3, 4, 5, 6, 7] (by decide) (by decide)]; rfl

/-- The array the rows are read from, at the contents the region found it with. -/
theorem hbm37_eq (c : Dev nD) :
    (bigSep H37 (fun b => ((c : Thread nD τ).loc b) ↦{fullShare} V c b) : sProp 𝕄)
      = ((Memref.whole main_v89 : Memref sig .tc .hbm S50000x128 .f32).view.loc (c : Thread nD τ) ↦{fullShare} V c main_v89) := by
  unfold H37
  rw [BI.bigSep_eq_bigSepL_of_eq [main_v89] (by decide) (by decide)]; rfl

/-- The table, held whole at the full share, is owned at its contents. -/
theorem tblw37_eq (c : Dev nD) :
    (Pipeline.prefHeld pre37 c (fun _ => fullShare) a1.1 : sProp 𝕄)
      = owns (c : Thread nD τ) (Memref.whole main_v119 : Memref sig .tc .smem S100000 .i32) fullShare (tblw37 a1) := by
  unfold Pipeline.prefHeld
  rw [bigSep_W37, owns_whole]; rfl

set_option maxHeartbeats 4000000 in
/-- The body at every point: the invariant hands the run its table, the array, the eight cells at zero (the scoped rest and
    the generator register ride along), the core's record of waits goes in at whatever the points before left and comes
    back with this point's eight, and the output block, at anything, comes back reading the gathered rows. -/
theorem hbodyG37 [∀ e, Nonempty (Elt F e)] (hlt : ∀ k : S100000.Idx, (tblw37 a1 k).toNat < 50000) (c : Dev nD) :
    BodyObligationLoose (datG37 V a1 (gblk37 V a1) c) (defs₀ (F := F)) Variants.none () Set.univ := by
  refine BodyObligation.loose _ fun t => ?_
  rw [bigSep_W37, bigSep_W37]
  show iprop(iprop(Pipeline.ΦD osem37 spec37 H37 V c ∗ Pipeline.prefHeld pre37 c (fun _ => fullShare) a1.1)
        ∗ (datG37 V a1 (gblk37 V a1) c).owesAt () t.castSucc
        ∗ (∃ d, owns (c : Thread nD τ) (spec37_0.stage ((cfg37 a1).slots t 0)) fullShare ((datG37 V a1 (gblk37 V a1) c).before 0 t d)))
      ⊢ wp frame (wpE (defs₀ (F := F)) Variants.none c none) Set.univ
          (cc37__gather_kernel ((cfg37 a1).grid.coords t) (Memref.whole main_v119) (Memref.isWhole_whole _) (Memref.whole main_v89) (Memref.isWhole_whole _)
            (spec37_0.stage ((cfg37 a1).slots t 0)) (hstage37_0 (((cfg37 a1).slots t 0).cast nbuf37_0)) cc37_scratch0)
          (fun _ => iprop(iprop(Pipeline.ΦD osem37 spec37 H37 V c ∗ Pipeline.prefHeld pre37 c (fun _ => fullShare) a1.1)
            ∗ (datG37 V a1 (gblk37 V a1) c).owesAt () t.succ
            ∗ owns (c : Thread nD τ) (spec37_0.stage ((cfg37 a1).slots t 0)) fullShare (gblk37 V a1 c t)))
  rw [Pipeline.ΦD_eq, ownSems37_eq, hbm37_eq, tblw37_eq]
  unfold Dat.owesAt Pipeline.owesWithin
  rw [show (datG37 V a1 (gblk37 V a1) c).owed t.castSucc = 0 from rfl, show (datG37 V a1 (gblk37 V a1) c).owed t.succ = 0 from rfl]
  have hr : (Memref.whole main_v89 : Memref sig .tc .hbm S50000x128 .f32).view.read (Elt F) (V c main_v89) = V c main_v89 := by
    simp only [Memref.view_whole, View.read_whole]
  iintro ⟨⟨⟨Hsc, Hg, ⟨Hq0, Hq1, Hq2, Hq3, Hq4, Hq5, Hq6, Hq7⟩, Hh⟩, Ht⟩, ⟨%W, -, HW⟩, ⟨%d, Hob⟩⟩
  iapply (kernelRun23 c ((cfg37 a1).grid.coords t) (Memref.whole main_v119) (Memref.isWhole_whole _) (Memref.whole main_v89) (Memref.isWhole_whole _)
    (spec37_0.stage ((cfg37 a1).slots t 0)) (hstage37_0 (((cfg37 a1).slots t 0).cast nbuf37_0)) (tblw37 a1) hlt fullShare fullShare (V c main_v89) cc37_scratch0 W _)
  isplitl [Ht]; · iexact Ht
  isplitl [Hh]; · iexact Hh
  isplitl [Hob]; · iexists _; iexact Hob
  isplitl [Hq0]; · iexact Hq0
  isplitl [Hq1]; · iexact Hq1
  isplitl [Hq2]; · iexact Hq2
  isplitl [Hq3]; · iexact Hq3
  isplitl [Hq4]; · iexact Hq4
  isplitl [Hq5]; · iexact Hq5
  isplitl [Hq6]; · iexact Hq6
  isplitl [Hq7]; · iexact Hq7
  isplitl [HW]; · iexact HW
  iintro ⟨Ht, Hh, Hob, Hq0, Hq1, Hq2, Hq3, Hq4, Hq5, Hq6, Hq7, ⟨%W', HW'⟩⟩
  isplitl [Hsc Hg Hq0 Hq1 Hq2 Hq3 Hq4 Hq5 Hq6 Hq7 Hh Ht]
  · isplitl [Hsc Hg Hq0 Hq1 Hq2 Hq3 Hq4 Hq5 Hq6 Hq7 Hh]
    · isplitl [Hsc]; · iexact Hsc
      isplitl [Hg]; · iexact Hg
      isplitl [Hq0 Hq1 Hq2 Hq3 Hq4 Hq5 Hq6 Hq7]
      · isplitl [Hq0]; · iexact Hq0
        isplitl [Hq1]; · iexact Hq1
        isplitl [Hq2]; · iexact Hq2
        isplitl [Hq3]; · iexact Hq3
        isplitl [Hq4]; · iexact Hq4
        isplitl [Hq5]; · iexact Hq5
        isplitl [Hq6]; · iexact Hq6
        iexact Hq7
      iexact Hh
    iexact Ht
  isplitl [HW']
  · iexists W'; isplitr; · ipureintro; exact fun _ _ => Or.inl trivial
    iexact HW'
  rw [hr]
  iexact Hob

end Cert.KernelIdeal.Hand

end
-- ==== Proof.KI.GatherBody38.lean ====
/-
  Region 38's body obligation. The region runs the body of region 23 on its own table, array, output block and
  semaphores (the two kernel functions are one function), so the body's run is region 23's, cited at this region's eight
  semaphores; read with this region's invariant it is the pipeline's body obligation for the region's proof data.
-/
import proofs.«402049_j87351044866139_2_alg».proof.Proof.KI.GatherDef38
import proofs.«402049_j87351044866139_2_alg».proof.Proof.KI.GatherBody23

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Idealize.ShloMosaic.Transfers (shareDrop shareTokN)
open Cert.KernelIdeal Cert.KernelIdeal.Gen

variable {F : FTy → Type} [FloatOps F]

local notation "𝕄" => MT nD τ sig Unit (Elt F) ℕ (Pipeline.UD sig nD τ) ℕ

/-! ## The body obligation -/

variable (V : (c : Dev nD) → (b : Ref sig .tc) → Buf (Elt F) ((c : Thread nD τ).loc b))
variable (a1 : (pcfg38 (F := F)).Adm)

/-- The eight cells at zero, listed, each as the body names it. -/
theorem ownSems38_eq (c : Dev nD) :
    (Pipeline.ownSems0 (Ix := Unit) (Name := ℕ) (U := Pipeline.UD sig nD τ) (Lvl := ℕ) (Val := Elt F) (τ := τ) osem38 c : sProp 𝕄)
      = iprop(semVal ((c : Thread nD τ), cell23_0 cc38_scratch0) 0 ∗ semVal ((c : Thread nD τ), cell23_1 cc38_scratch0) 0 ∗ semVal ((c : Thread nD τ), cell23_2 cc38_scratch0) 0 ∗ semVal ((c : Thread nD τ), cell23_3 cc38_scratch0) 0 ∗ semVal ((c : Thread nD τ), cell23_4 cc38_scratch0) 0 ∗ semVal ((c : Thread nD τ), cell23_5 cc38_scratch0) 0 ∗ semVal ((c : Thread nD τ), cell23_6 cc38_scratch0) 0 ∗ semVal ((c : Thread nD τ), cell23_7 cc38_scratch0) 0) := by
  rw [Pipeline.ownSems0_eq_of_list c osem38 [0, 1, 2, 3, 4, 5, 6, 7] (by decide) (by decide)]; rfl

/-- The array the rows are read from, at the contents the region found it with. -/
theorem hbm38_eq (c : Dev nD) :
    (bigSep H38 (fun b => ((c : Thread nD τ).loc b) ↦{fullShare} V c b) : sProp 𝕄)
      = ((Memref.whole main_v89 : Memref sig .tc .hbm S50000x128 .f32).view.loc (c : Thread nD τ) ↦{fullShare} V c main_v89) := by
  unfold H38
  rw [BI.bigSep_eq_bigSepL_of_eq [main_v89] (by decide) (by decide)]; rfl

/-- The table, held whole at the full share, is owned at its contents. -/
theorem tblw38_eq (c : Dev nD) :
    (Pipeline.prefHeld pre38 c (fun _ => fullShare) a1.1 : sProp 𝕄)
      = owns (c : Thread nD τ) (Memref.whole main_v121 : Memref sig .tc .smem S100000 .i32) fullShare (tblw38 a1) := by
  unfold Pipeline.prefHeld
  rw [bigSep_W38, owns_whole]; rfl

set_option maxHeartbeats 4000000 in
/-- The body at every point: the invariant hands the run its table, the array, the eight cells at zero (the scoped rest and
    the generator register ride along), the core's record of waits goes in at whatever the points before left and comes
    back with this point's eight, and the output block, at anything, comes back reading the gathered rows. -/
theorem hbodyG38 [∀ e, Nonempty (Elt F e)] (hlt : ∀ k : S100000.Idx, (tblw38 a1 k).toNat < 50000) (c : Dev nD) :
    BodyObligationLoose (datG38 V a1 (gblk38 V a1) c) (defs₀ (F := F)) Variants.none () Set.univ := by
  refine BodyObligation.loose _ fun t => ?_
  rw [bigSep_W38, bigSep_W38]
  show iprop(iprop(Pipeline.ΦD osem38 spec38 H38 V c ∗ Pipeline.prefHeld pre38 c (fun _ => fullShare) a1.1)
        ∗ (datG38 V a1 (gblk38 V a1) c).owesAt () t.castSucc
        ∗ (∃ d, owns (c : Thread nD τ) (spec38_0.stage ((cfg38 a1).slots t 0)) fullShare ((datG38 V a1 (gblk38 V a1) c).before 0 t d)))
      ⊢ wp frame (wpE (defs₀ (F := F)) Variants.none c none) Set.univ
          (cc38__gather_kernel ((cfg38 a1).grid.coords t) (Memref.whole main_v121) (Memref.isWhole_whole _) (Memref.whole main_v89) (Memref.isWhole_whole _)
            (spec38_0.stage ((cfg38 a1).slots t 0)) (hstage38_0 (((cfg38 a1).slots t 0).cast nbuf38_0)) cc38_scratch0)
          (fun _ => iprop(iprop(Pipeline.ΦD osem38 spec38 H38 V c ∗ Pipeline.prefHeld pre38 c (fun _ => fullShare) a1.1)
            ∗ (datG38 V a1 (gblk38 V a1) c).owesAt () t.succ
            ∗ owns (c : Thread nD τ) (spec38_0.stage ((cfg38 a1).slots t 0)) fullShare (gblk38 V a1 c t)))
  rw [Pipeline.ΦD_eq, ownSems38_eq, hbm38_eq, tblw38_eq]
  unfold Dat.owesAt Pipeline.owesWithin
  rw [show (datG38 V a1 (gblk38 V a1) c).owed t.castSucc = 0 from rfl, show (datG38 V a1 (gblk38 V a1) c).owed t.succ = 0 from rfl]
  have hr : (Memref.whole main_v89 : Memref sig .tc .hbm S50000x128 .f32).view.read (Elt F) (V c main_v89) = V c main_v89 := by
    simp only [Memref.view_whole, View.read_whole]
  iintro ⟨⟨⟨Hsc, Hg, ⟨Hq0, Hq1, Hq2, Hq3, Hq4, Hq5, Hq6, Hq7⟩, Hh⟩, Ht⟩, ⟨%W, -, HW⟩, ⟨%d, Hob⟩⟩
  iapply (kernelRun23 c ((cfg38 a1).grid.coords t) (Memref.whole main_v121) (Memref.isWhole_whole _) (Memref.whole main_v89) (Memref.isWhole_whole _)
    (spec38_0.stage ((cfg38 a1).slots t 0)) (hstage38_0 (((cfg38 a1).slots t 0).cast nbuf38_0)) (tblw38 a1) hlt fullShare fullShare (V c main_v89) cc38_scratch0 W _)
  isplitl [Ht]; · iexact Ht
  isplitl [Hh]; · iexact Hh
  isplitl [Hob]; · iexists _; iexact Hob
  isplitl [Hq0]; · iexact Hq0
  isplitl [Hq1]; · iexact Hq1
  isplitl [Hq2]; · iexact Hq2
  isplitl [Hq3]; · iexact Hq3
  isplitl [Hq4]; · iexact Hq4
  isplitl [Hq5]; · iexact Hq5
  isplitl [Hq6]; · iexact Hq6
  isplitl [Hq7]; · iexact Hq7
  isplitl [HW]; · iexact HW
  iintro ⟨Ht, Hh, Hob, Hq0, Hq1, Hq2, Hq3, Hq4, Hq5, Hq6, Hq7, ⟨%W', HW'⟩⟩
  isplitl [Hsc Hg Hq0 Hq1 Hq2 Hq3 Hq4 Hq5 Hq6 Hq7 Hh Ht]
  · isplitl [Hsc Hg Hq0 Hq1 Hq2 Hq3 Hq4 Hq5 Hq6 Hq7 Hh]
    · isplitl [Hsc]; · iexact Hsc
      isplitl [Hg]; · iexact Hg
      isplitl [Hq0 Hq1 Hq2 Hq3 Hq4 Hq5 Hq6 Hq7]
      · isplitl [Hq0]; · iexact Hq0
        isplitl [Hq1]; · iexact Hq1
        isplitl [Hq2]; · iexact Hq2
        isplitl [Hq3]; · iexact Hq3
        isplitl [Hq4]; · iexact Hq4
        isplitl [Hq5]; · iexact Hq5
        isplitl [Hq6]; · iexact Hq6
        iexact Hq7
      iexact Hh
    iexact Ht
  isplitl [HW']
  · iexists W'; isplitr; · ipureintro; exact fun _ _ => Or.inl trivial
    iexact HW'
  rw [hr]
  iexact Hob

end Cert.KernelIdeal.Hand

end
-- ==== Proof.KI.Regs7.lean ====
import proofs.«402049_j87351044866139_2_alg».proof.Proof.KI.Fam
import proofs.«402049_j87351044866139_2_alg».proof.Proof.KI.Tables
import proofs.«402049_j87351044866139_2_alg».proof.Proof.KI.GatherBody35
import proofs.«402049_j87351044866139_2_alg».proof.Proof.KI.GatherBody36
import proofs.«402049_j87351044866139_2_alg».proof.Proof.KI.GatherBody37
import proofs.«402049_j87351044866139_2_alg».proof.Proof.KI.GatherBody38
import Idealize.ShloMosaic.Lib.Pipeline.RegionsLoop

/-! The records of regions 35 to 39 over the thread states: each entered from every unscoped buffer at the real valuation
    before it and left at the one after it; for a gather region, first that every word of its table is a node's number. -/

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg BodyObligation BodyObligationLoose)

variable {F : FTy → Type} [FloatOps F]

local notation "𝕄" => MT nD τ sig Unit (Elt F) ℕ UU ℕ

set_option maxHeartbeats 1000000 in
/-- Every word of region 35's table is a node's number: the data's table is what the real valuation at the region's entry
    holds in the table's buffer; that valuation is the run's own, whose table is the closed one of the launch memory. -/
theorem hlt35 (m : (ℓ : Loc nD τ sig) → Buf (Elt F) ℓ) (hm : ∀ i : S2x800000.Idx, ((V0 m c₀ main_arg1 : IVec S2x800000 32) i).toNat < 50000) :
    ∀ k : S100000.Idx, (tblw35 (a35 m) k).toNat < 50000 := by
  have h1 : tblw35 (a35 m) = (U73 m c₀ main_v115 : IVec S100000 32) := by
    unfold a35
    rfl
  have h2 : ∀ W : Valuation τ sig (Elt F), V73 m (outsU m) c₀ = W → (W main_v115 : IVec S100000 32) = tbl35 m c₀ :=
    fun W hW => by subst hW; exact tbl35_eq m (outsU m) c₀
  have e : tblw35 (a35 m) = tbl35 m c₀ := h1.trans (h2 (U73 m c₀) (V73_eq m c₀))
  intro k
  rw [e]; exact tbl35_lt m c₀ hm k
set_option maxHeartbeats 1000000 in
set_option backward.isDefEq.respectTransparency.types false in
/-- REGION 35 over the thread state: entered from every unscoped buffer at `U73`, left at `U74`. -/
def reg35 (m : (ℓ : Loc nD τ sig) → Buf (Elt F) ℓ) (hm : ∀ i : S2x800000.Idx, ((V0 m c₀ main_arg1 : IVec S2x800000 32) i).toNat < 50000) :
    RegionSeg (pcfgs (F := F)) (adm m) (pdats m) () defs₀ 𝒱₀ L lv 35 where
  win := (launch35 (F := F)).win.to₀
  block_pos := (launch35 (F := F)).block_pos
  stage_whole := (launch35 (F := F)).stage_whole
  K := Fin 8
  osem := osem35
  ho := ownSemFacts35
  hbody c := hbodyG35 (atTc (U73 m)) (a35 m) (hlt35 m hm) c
  hwaits := Pipeline.hwaits_of_owed_zero _ _ _ _ L lv 35 fun _ _ => rfl
  pre c := iprop(StableHlo.held (c : Thread nD τ) (Pipeline.ucRefs τ sig) (U73 m c) ∗ R (F := F) c)
  post c := iprop(StableHlo.held (c : Thread nD τ) (Pipeline.ucRefs τ sig) (U74 m c) ∗ R (F := F) c)
  X c := XG35 (atTc (U73 m)) c
  Y c := YG35 (atTc (U73 m)) (a35 m) c
  Z c := ZG35 (atTc (U73 m)) c
  hentry c := by
    have hsplit := Pipeline.arrays_of_unscopedBufs (p := 35) (pcfgs (F := F)) (adm m) (pdats m) (launch35 (F := F)).win (launch35 (F := F)).arr_whole c
      ((pdats m 35 c).share_full fun _ => rfl) (atTc (U73 m) c) (fun _ => rfl)
    have h := hentryG35 (atTc (U73 m)) (a35 m) (gblk35 (atTc (U73 m)) (a35 m)) c (hpf35 m c) hsplit
    rw [Pipeline.unscopedBufs_held] at h
    exact h
  hin c := hinG35 (atTc (U73 m)) (a35 m) (gblk35 (atTc (U73 m)) (a35 m)) c
  hout c := houtG35 (atTc (U73 m)) (a35 m) (gblk35 (atTc (U73 m)) (a35 m)) c
  hexit c := by
    have hjoin := Pipeline.unscopedBufs_of_arrays (p := 35) (pcfgs (F := F)) (adm m) (Ix := Unit) (Name := ℕ) (U := UU) (Lvl := ℕ)
      (launch35 (F := F)).win (launch35 (F := F)).arr_whole c (pdats m) ((pdats m 35 c).share_full fun _ => rfl)
      (atTc (U73 m) c) (atTc (U74 m) c) ((pdats m 35 c).arrAt · (cfg35 (a35 m)).N) (hF35 m c) (hrest35 m c)
    have h := hexitG35 (atTc (U73 m)) (a35 m) (gblk35 (atTc (U73 m)) (a35 m)) (atTc (U74 m)) c (hpf35 m c) hjoin
    rw [Pipeline.unscopedBufs_held] at h
    exact h

set_option maxHeartbeats 1000000 in
/-- Every word of region 36's table is a node's number: the data's table is what the real valuation at the region's entry
    holds in the table's buffer; that valuation is the run's own, whose table is the closed one of the launch memory. -/
theorem hlt36 (m : (ℓ : Loc nD τ sig) → Buf (Elt F) ℓ) (hm : ∀ i : S2x800000.Idx, ((V0 m c₀ main_arg1 : IVec S2x800000 32) i).toNat < 50000) :
    ∀ k : S100000.Idx, (tblw36 (a36 m) k).toNat < 50000 := by
  have h1 : tblw36 (a36 m) = (U75 m c₀ main_v117 : IVec S100000 32) := by
    unfold a36
    rfl
  have h2 : ∀ W : Valuation τ sig (Elt F), V75 m (outsU m) c₀ = W → (W main_v117 : IVec S100000 32) = tbl36 m c₀ :=
    fun W hW => by subst hW; exact tbl36_eq m (outsU m) c₀
  have e : tblw36 (a36 m) = tbl36 m c₀ := h1.trans (h2 (U75 m c₀) (V75_eq m c₀))
  intro k
  rw [e]; exact tbl36_lt m c₀ hm k
set_option maxHeartbeats 1000000 in
set_option backward.isDefEq.respectTransparency.types false in
/-- REGION 36 over the thread state: entered from every unscoped buffer at `U75`, left at `U76`. -/
def reg36 (m : (ℓ : Loc nD τ sig) → Buf (Elt F) ℓ) (hm : ∀ i : S2x800000.Idx, ((V0 m c₀ main_arg1 : IVec S2x800000 32) i).toNat < 50000) :
    RegionSeg (pcfgs (F := F)) (adm m) (pdats m) () defs₀ 𝒱₀ L lv 36 where
  win := (launch36 (F := F)).win.to₀
  block_pos := (launch36 (F := F)).block_pos
  stage_whole := (launch36 (F := F)).stage_whole
  K := Fin 8
  osem := osem36
  ho := ownSemFacts36
  hbody c := hbodyG36 (atTc (U75 m)) (a36 m) (hlt36 m hm) c
  hwaits := Pipeline.hwaits_of_owed_zero _ _ _ _ L lv 36 fun _ _ => rfl
  pre c := iprop(StableHlo.held (c : Thread nD τ) (Pipeline.ucRefs τ sig) (U75 m c) ∗ R (F := F) c)
  post c := iprop(StableHlo.held (c : Thread nD τ) (Pipeline.ucRefs τ sig) (U76 m c) ∗ R (F := F) c)
  X c := XG36 (atTc (U75 m)) c
  Y c := YG36 (atTc (U75 m)) (a36 m) c
  Z c := ZG36 (atTc (U75 m)) c
  hentry c := by
    have hsplit := Pipeline.arrays_of_unscopedBufs (p := 36) (pcfgs (F := F)) (adm m) (pdats m) (launch36 (F := F)).win (launch36 (F := F)).arr_whole c
      ((pdats m 36 c).share_full fun _ => rfl) (atTc (U75 m) c) (fun _ => rfl)
    have h := hentryG36 (atTc (U75 m)) (a36 m) (gblk36 (atTc (U75 m)) (a36 m)) c (hpf36 m c) hsplit
    rw [Pipeline.unscopedBufs_held] at h
    exact h
  hin c := hinG36 (atTc (U75 m)) (a36 m) (gblk36 (atTc (U75 m)) (a36 m)) c
  hout c := houtG36 (atTc (U75 m)) (a36 m) (gblk36 (atTc (U75 m)) (a36 m)) c
  hexit c := by
    have hjoin := Pipeline.unscopedBufs_of_arrays (p := 36) (pcfgs (F := F)) (adm m) (Ix := Unit) (Name := ℕ) (U := UU) (Lvl := ℕ)
      (launch36 (F := F)).win (launch36 (F := F)).arr_whole c (pdats m) ((pdats m 36 c).share_full fun _ => rfl)
      (atTc (U75 m) c) (atTc (U76 m) c) ((pdats m 36 c).arrAt · (cfg36 (a36 m)).N) (hF36 m c) (hrest36 m c)
    have h := hexitG36 (atTc (U75 m)) (a36 m) (gblk36 (atTc (U75 m)) (a36 m)) (atTc (U76 m)) c (hpf36 m c) hjoin
    rw [Pipeline.unscopedBufs_held] at h
    exact h

set_option maxHeartbeats 1000000 in
/-- Every word of region 37's table is a node's number: the data's table is what the real valuation at the region's entry
    holds in the table's buffer; that valuation is the run's own, whose table is the closed one of the launch memory. -/
theorem hlt37 (m : (ℓ : Loc nD τ sig) → Buf (Elt F) ℓ) (hm : ∀ i : S2x800000.Idx, ((V0 m c₀ main_arg1 : IVec S2x800000 32) i).toNat < 50000) :
    ∀ k : S100000.Idx, (tblw37 (a37 m) k).toNat < 50000 := by
  have h1 : tblw37 (a37 m) = (U77 m c₀ main_v119 : IVec S100000 32) := by
    unfold a37
    rfl
  have h2 : ∀ W : Valuation τ sig (Elt F), V77 m (outsU m) c₀ = W → (W main_v119 : IVec S100000 32) = tbl37 m c₀ :=
    fun W hW => by subst hW; exact tbl37_eq m (outsU m) c₀
  have e : tblw37 (a37 m) = tbl37 m c₀ := h1.trans (h2 (U77 m c₀) (V77_eq m c₀))
  intro k
  rw [e]; exact tbl37_lt m c₀ hm k
set_option maxHeartbeats 1000000 in
set_option backward.isDefEq.respectTransparency.types false in
/-- REGION 37 over the thread state: entered from every unscoped buffer at `U77`, left at `U78`. -/
def reg37 (m : (ℓ : Loc nD τ sig) → Buf (Elt F) ℓ) (hm : ∀ i : S2x800000.Idx, ((V0 m c₀ main_arg1 : IVec S2x800000 32) i).toNat < 50000) :
    RegionSeg (pcfgs (F := F)) (adm m) (pdats m) () defs₀ 𝒱₀ L lv 37 where
  win := (launch37 (F := F)).win.to₀
  block_pos := (launch37 (F := F)).block_pos
  stage_whole := (launch37 (F := F)).stage_whole
  K := Fin 8
  osem := osem37
  ho := ownSemFacts37
  hbody c := hbodyG37 (atTc (U77 m)) (a37 m) (hlt37 m hm) c
  hwaits := Pipeline.hwaits_of_owed_zero _ _ _ _ L lv 37 fun _ _ => rfl
  pre c := iprop(StableHlo.held (c : Thread nD τ) (Pipeline.ucRefs τ sig) (U77 m c) ∗ R (F := F) c)
  post c := iprop(StableHlo.held (c : Thread nD τ) (Pipeline.ucRefs τ sig) (U78 m c) ∗ R (F := F) c)
  X c := XG37 (atTc (U77 m)) c
  Y c := YG37 (atTc (U77 m)) (a37 m) c
  Z c := ZG37 (atTc (U77 m)) c
  hentry c := by
    have hsplit := Pipeline.arrays_of_unscopedBufs (p := 37) (pcfgs (F := F)) (adm m) (pdats m) (launch37 (F := F)).win (launch37 (F := F)).arr_whole c
      ((pdats m 37 c).share_full fun _ => rfl) (atTc (U77 m) c) (fun _ => rfl)
    have h := hentryG37 (atTc (U77 m)) (a37 m) (gblk37 (atTc (U77 m)) (a37 m)) c (hpf37 m c) hsplit
    rw [Pipeline.unscopedBufs_held] at h
    exact h
  hin c := hinG37 (atTc (U77 m)) (a37 m) (gblk37 (atTc (U77 m)) (a37 m)) c
  hout c := houtG37 (atTc (U77 m)) (a37 m) (gblk37 (atTc (U77 m)) (a37 m)) c
  hexit c := by
    have hjoin := Pipeline.unscopedBufs_of_arrays (p := 37) (pcfgs (F := F)) (adm m) (Ix := Unit) (Name := ℕ) (U := UU) (Lvl := ℕ)
      (launch37 (F := F)).win (launch37 (F := F)).arr_whole c (pdats m) ((pdats m 37 c).share_full fun _ => rfl)
      (atTc (U77 m) c) (atTc (U78 m) c) ((pdats m 37 c).arrAt · (cfg37 (a37 m)).N) (hF37 m c) (hrest37 m c)
    have h := hexitG37 (atTc (U77 m)) (a37 m) (gblk37 (atTc (U77 m)) (a37 m)) (atTc (U78 m)) c (hpf37 m c) hjoin
    rw [Pipeline.unscopedBufs_held] at h
    exact h

set_option maxHeartbeats 1000000 in
/-- Every word of region 38's table is a node's number: the data's table is what the real valuation at the region's entry
    holds in the table's buffer; that valuation is the run's own, whose table is the closed one of the launch memory. -/
theorem hlt38 (m : (ℓ : Loc nD τ sig) → Buf (Elt F) ℓ) (hm : ∀ i : S2x800000.Idx, ((V0 m c₀ main_arg1 : IVec S2x800000 32) i).toNat < 50000) :
    ∀ k : S100000.Idx, (tblw38 (a38 m) k).toNat < 50000 := by
  have h1 : tblw38 (a38 m) = (U79 m c₀ main_v121 : IVec S100000 32) := by
    unfold a38
    rfl
  have h2 : ∀ W : Valuation τ sig (Elt F), V79 m (outsU m) c₀ = W → (W main_v121 : IVec S100000 32) = tbl38 m c₀ :=
    fun W hW => by subst hW; exact tbl38_eq m (outsU m) c₀
  have e : tblw38 (a38 m) = tbl38 m c₀ := h1.trans (h2 (U79 m c₀) (V79_eq m c₀))
  intro k
  rw [e]; exact tbl38_lt m c₀ hm k
set_option maxHeartbeats 1000000 in
set_option backward.isDefEq.respectTransparency.types false in
/-- REGION 38 over the thread state: entered from every unscoped buffer at `U79`, left at `U80`. -/
def reg38 (m : (ℓ : Loc nD τ sig) → Buf (Elt F) ℓ) (hm : ∀ i : S2x800000.Idx, ((V0 m c₀ main_arg1 : IVec S2x800000 32) i).toNat < 50000) :
    RegionSeg (pcfgs (F := F)) (adm m) (pdats m) () defs₀ 𝒱₀ L lv 38 where
  win := (launch38 (F := F)).win.to₀
  block_pos := (launch38 (F := F)).block_pos
  stage_whole := (launch38 (F := F)).stage_whole
  K := Fin 8
  osem := osem38
  ho := ownSemFacts38
  hbody c := hbodyG38 (atTc (U79 m)) (a38 m) (hlt38 m hm) c
  hwaits := Pipeline.hwaits_of_owed_zero _ _ _ _ L lv 38 fun _ _ => rfl
  pre c := iprop(StableHlo.held (c : Thread nD τ) (Pipeline.ucRefs τ sig) (U79 m c) ∗ R (F := F) c)
  post c := iprop(StableHlo.held (c : Thread nD τ) (Pipeline.ucRefs τ sig) (U80 m c) ∗ R (F := F) c)
  X c := XG38 (atTc (U79 m)) c
  Y c := YG38 (atTc (U79 m)) (a38 m) c
  Z c := ZG38 (atTc (U79 m)) c
  hentry c := by
    have hsplit := Pipeline.arrays_of_unscopedBufs (p := 38) (pcfgs (F := F)) (adm m) (pdats m) (launch38 (F := F)).win (launch38 (F := F)).arr_whole c
      ((pdats m 38 c).share_full fun _ => rfl) (atTc (U79 m) c) (fun _ => rfl)
    have h := hentryG38 (atTc (U79 m)) (a38 m) (gblk38 (atTc (U79 m)) (a38 m)) c (hpf38 m c) hsplit
    rw [Pipeline.unscopedBufs_held] at h
    exact h
  hin c := hinG38 (atTc (U79 m)) (a38 m) (gblk38 (atTc (U79 m)) (a38 m)) c
  hout c := houtG38 (atTc (U79 m)) (a38 m) (gblk38 (atTc (U79 m)) (a38 m)) c
  hexit c := by
    have hjoin := Pipeline.unscopedBufs_of_arrays (p := 38) (pcfgs (F := F)) (adm m) (Ix := Unit) (Name := ℕ) (U := UU) (Lvl := ℕ)
      (launch38 (F := F)).win (launch38 (F := F)).arr_whole c (pdats m) ((pdats m 38 c).share_full fun _ => rfl)
      (atTc (U79 m) c) (atTc (U80 m) c) ((pdats m 38 c).arrAt · (cfg38 (a38 m)).N) (hF38 m c) (hrest38 m c)
    have h := hexitG38 (atTc (U79 m)) (a38 m) (gblk38 (atTc (U79 m)) (a38 m)) (atTc (U80 m)) c (hpf38 m c) hjoin
    rw [Pipeline.unscopedBufs_held] at h
    exact h

set_option maxHeartbeats 1000000 in
set_option backward.isDefEq.respectTransparency.types false in
/-- REGION 39 over the thread state: entered from every unscoped buffer at `U81`, left at `U82`. -/
def reg39 (m : (ℓ : Loc nD τ sig) → Buf (Elt F) ℓ) : RegionSeg (pcfgs (F := F)) (adm m) (pdats m) () defs₀ 𝒱₀ L lv 39 where
  win := (launch39 (F := F)).win.to₀
  block_pos := (launch39 (F := F)).block_pos
  stage_whole := (launch39 (F := F)).stage_whole
  K := PEmpty
  osem k := k.elim
  ho := Pipeline.OwnSemFacts.none _
  hbody c := (body_obligation39 (atTc (U81 m)) c).loose
  hwaits := Pipeline.hwaits_of_owed_zero _ _ _ _ L lv 39 fun _ _ => rfl
  pre c := iprop(StableHlo.held (c : Thread nD τ) (Pipeline.ucRefs τ sig) (U81 m c) ∗ R (F := F) c)
  post c := iprop(StableHlo.held (c : Thread nD τ) (Pipeline.ucRefs τ sig) (U82 m c) ∗ R (F := F) c)
  X c := iprop(∃ r, prngReg c r)
  Y c := iprop(∃ r, prngReg c r)
  Z c := Pipeline.unscopedRest (Ix := Unit) (Name := ℕ) (U := UU) (Lvl := ℕ) spec39 c (atTc (U81 m) c)
  hentry c := by
    have hsplit := Pipeline.arrays_of_unscopedBufs (p := 39) (pcfgs (F := F)) (adm m) (pdats m) (launch39 (F := F)).win (launch39 (F := F)).arr_whole c
      ((pdats m 39 c).share_full fun _ => rfl) (atTc (U81 m) c) (fun _ => rfl)
    rw [Pipeline.unscopedBufs_held] at hsplit
    exact enterA c (U81 m c) hsplit (prefHeld_none_intro c _ _) (owesAt_first c _ rfl rfl)
  hin c := by
    rw [show (pdats m 39 c).Φ 0 = Pipeline.ΦA spec39 c from rfl]; unfold Pipeline.ΦA
    iintro ⟨Hp, -, Hr⟩
    isplitl [Hr]; · iexact Hr
    iexact Hp
  hout c := by
    rw [Pipeline.ownSems0_none, show (pdats m 39 c).Φ (Fin.last _) = Pipeline.ΦA spec39 c from rfl]; unfold Pipeline.ΦA
    iintro ⟨Hr, Hp⟩
    isplitl [Hp]; · iexact Hp
    isplitr; · iempintro
    iexact Hr
  hexit c := by
    have hjoin := Pipeline.unscopedBufs_of_arrays (p := 39) (pcfgs (F := F)) (adm m) (Ix := Unit) (Name := ℕ) (U := UU) (Lvl := ℕ)
      (launch39 (F := F)).win (launch39 (F := F)).arr_whole c (pdats m) ((pdats m 39 c).share_full fun _ => rfl)
      (atTc (U81 m) c) (atTc (U82 m) c) ((pdats m 39 c).arrAt · cfg39.N) (hF39 m c) (hrest39 m c)
    rw [Pipeline.unscopedBufs_held] at hjoin
    exact leaveA c (U82 m c) hjoin (owes_of_owesAt_last c _ rfl)

end Cert.KernelIdeal.Hand

end
-- ==== Proof.KI.RunAll.lean ====
import proofs.«402049_j87351044866139_2_alg».proof.Proof.KI.RunCond
import proofs.«402049_j87351044866139_2_alg».proof.Proof.KI.Regs0
import proofs.«402049_j87351044866139_2_alg».proof.Proof.KI.Regs1
import proofs.«402049_j87351044866139_2_alg».proof.Proof.KI.Regs2
import proofs.«402049_j87351044866139_2_alg».proof.Proof.KI.Regs3
import proofs.«402049_j87351044866139_2_alg».proof.Proof.KI.Regs4
import proofs.«402049_j87351044866139_2_alg».proof.Proof.KI.Regs5
import proofs.«402049_j87351044866139_2_alg».proof.Proof.KI.Regs6
import proofs.«402049_j87351044866139_2_alg».proof.Proof.KI.Regs7

/-! The run of @main on the kernel side, its two results named at the last real valuation. -/

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg BodyObligation BodyObligationLoose)

variable {F : FTy → Type} [FloatOps F]

local notation "𝕄" => MT nD τ sig Unit (Elt F) ℕ UU ℕ

/-! ## The run -/

set_option maxHeartbeats 4000000 in
/-- THE RUN. Every weakly fair execution of @main from memory `m` with zero counters terminates, and every final memory
    holds the two result buffers at the last real valuation and each argument as launched: the conditional run at the
    contents `outsU` names, every region's record entered from and left at this module's valuations. -/
theorem run_all (m : (ℓ : Loc nD τ sig) → Buf (Elt F) ℓ) (ρ : Dev nD → PrngReg)
    (hm : ∀ i : S2x800000.Idx, ((V0 m c₀ main_arg1 : IVec S2x800000 32) i).toNat < 50000)
    : θ_run defs (onTc (τ := τ) (main (F := F))) ⟨m, fun _ => 0, ρ⟩ (fun r => ∀ c : Dev nD,
      r.2.mem ((c.tc : Thread nD τ).loc main_v89) = U82 m c main_v89
      ∧ r.2.mem ((c.tc : Thread nD τ).loc main_v127) = U82 m c main_v127
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ) := by
  have h := run_cond m (EPd (F := F)) () 𝒱₀ L lv hL ρ (outsU m) (adm m) (pdats m) (fun _ => 0) (fun _ => iprop(emp))
    (u₀ (adm m)) (hu₀ (adm m)) (E (F := F)) (hE0 ρ) hE40
    (reg0 m) (fun c => by rw [V3_eq]; exact .rfl) (fun c => by rw [V4_eq]; exact .rfl)
    (reg1 m hm) (fun c => by rw [V5_eq]; exact .rfl) (fun c => by rw [V6_eq]; exact .rfl)
    (reg2 m hm) (fun c => by rw [V7_eq]; exact .rfl) (fun c => by rw [V8_eq]; exact .rfl)
    (reg3 m hm) (fun c => by rw [V9_eq]; exact .rfl) (fun c => by rw [V10_eq]; exact .rfl)
    (reg4 m hm) (fun c => by rw [V11_eq]; exact .rfl) (fun c => by rw [V12_eq]; exact .rfl)
    (reg5 m hm) (fun c => by rw [V13_eq]; exact .rfl) (fun c => by rw [V14_eq]; exact .rfl)
    (reg6 m hm) (fun c => by rw [V15_eq]; exact .rfl) (fun c => by rw [V16_eq]; exact .rfl)
    (reg7 m hm) (fun c => by rw [V17_eq]; exact .rfl) (fun c => by rw [V18_eq]; exact .rfl)
    (reg8 m hm) (fun c => by rw [V19_eq]; exact .rfl) (fun c => by rw [V20_eq]; exact .rfl)
    (reg9 m hm) (fun c => by rw [V21_eq]; exact .rfl) (fun c => by rw [V22_eq]; exact .rfl)
    (reg10 m hm) (fun c => by rw [V23_eq]; exact .rfl) (fun c => by rw [V24_eq]; exact .rfl)
    (reg11 m) (fun c => by rw [V25_eq]; exact .rfl) (fun c => by rw [V26_eq]; exact .rfl)
    (reg12 m hm) (fun c => by rw [V27_eq]; exact .rfl) (fun c => by rw [V28_eq]; exact .rfl)
    (reg13 m hm) (fun c => by rw [V29_eq]; exact .rfl) (fun c => by rw [V30_eq]; exact .rfl)
    (reg14 m hm) (fun c => by rw [V31_eq]; exact .rfl) (fun c => by rw [V32_eq]; exact .rfl)
    (reg15 m hm) (fun c => by rw [V33_eq]; exact .rfl) (fun c => by rw [V34_eq]; exact .rfl)
    (reg16 m hm) (fun c => by rw [V35_eq]; exact .rfl) (fun c => by rw [V36_eq]; exact .rfl)
    (reg17 m hm) (fun c => by rw [V37_eq]; exact .rfl) (fun c => by rw [V38_eq]; exact .rfl)
    (reg18 m hm) (fun c => by rw [V39_eq]; exact .rfl) (fun c => by rw [V40_eq]; exact .rfl)
    (reg19 m hm) (fun c => by rw [V41_eq]; exact .rfl) (fun c => by rw [V42_eq]; exact .rfl)
    (reg20 m hm) (fun c => by rw [V43_eq]; exact .rfl) (fun c => by rw [V44_eq]; exact .rfl)
    (reg21 m hm) (fun c => by rw [V45_eq]; exact .rfl) (fun c => by rw [V46_eq]; exact .rfl)
    (reg22 m) (fun c => by rw [V47_eq]; exact .rfl) (fun c => by rw [V48_eq]; exact .rfl)
    (reg23 m hm) (fun c => by rw [V49_eq]; exact .rfl) (fun c => by rw [V50_eq]; exact .rfl)
    (reg24 m hm) (fun c => by rw [V51_eq]; exact .rfl) (fun c => by rw [V52_eq]; exact .rfl)
    (reg25 m hm) (fun c => by rw [V53_eq]; exact .rfl) (fun c => by rw [V54_eq]; exact .rfl)
    (reg26 m hm) (fun c => by rw [V55_eq]; exact .rfl) (fun c => by rw [V56_eq]; exact .rfl)
    (reg27 m hm) (fun c => by rw [V57_eq]; exact .rfl) (fun c => by rw [V58_eq]; exact .rfl)
    (reg28 m hm) (fun c => by rw [V59_eq]; exact .rfl) (fun c => by rw [V60_eq]; exact .rfl)
    (reg29 m hm) (fun c => by rw [V61_eq]; exact .rfl) (fun c => by rw [V62_eq]; exact .rfl)
    (reg30 m hm) (fun c => by rw [V63_eq]; exact .rfl) (fun c => by rw [V64_eq]; exact .rfl)
    (reg31 m hm) (fun c => by rw [V65_eq]; exact .rfl) (fun c => by rw [V66_eq]; exact .rfl)
    (reg32 m hm) (fun c => by rw [V67_eq]; exact .rfl) (fun c => by rw [V68_eq]; exact .rfl)
    (reg33 m hm) (fun c => by rw [V69_eq]; exact .rfl) (fun c => by rw [V70_eq]; exact .rfl)
    (reg34 m hm) (fun c => by rw [V71_eq]; exact .rfl) (fun c => by rw [V72_eq]; exact .rfl)
    (reg35 m hm) (fun c => by rw [V73_eq]; exact .rfl) (fun c => by rw [V74_eq]; exact .rfl)
    (reg36 m hm) (fun c => by rw [V75_eq]; exact .rfl) (fun c => by rw [V76_eq]; exact .rfl)
    (reg37 m hm) (fun c => by rw [V77_eq]; exact .rfl) (fun c => by rw [V78_eq]; exact .rfl)
    (reg38 m hm) (fun c => by rw [V79_eq]; exact .rfl) (fun c => by rw [V80_eq]; exact .rfl)
    (reg39 m) (fun c => by rw [V81_eq]; exact .rfl) (fun c => by rw [V82_eq]; exact .rfl)
  exact (θ_run defs _ _).mono (fun r hr c => by have hc := hr c; rw [V82_eq] at hc; exact hc) h

end Cert.KernelIdeal.Hand

end
-- ==== Proof.KI.Carry.lean ====
/-
  THE GATHER OUTPUTS, CARRIED. A gather region's output array is written by that region alone; the later gather regions
  write their own output and put the array they read back as it was, and the host stretches in between write only the
  next index table. So the array reaches the stretch that concatenates it as its region left it. Likewise the second
  weight matrix, an argument that no item writes, is at region 11's entry what it was at launch.
-/
import proofs.«402049_j87351044866139_2_alg».proof.Proof.KI.RegionsP

set_option maxRecDepth 1496

noncomputable section

namespace Cert.KernelIdeal.Hand

open Cert.KernelIdeal Cert.KernelIdeal.Gen Cert.KernelIdeal.GenP
open Idealize.ShloMosaic Idealize.ShloMosaic.TcCoe
open Idealize.SL.Sem

variable {F : FTy → Type} [FloatOps F]
variable (m : (ℓ : Loc nD τ sig) → Buf (Elt F) ℓ) (outs : Outs (F := F))

/-- Region 1's output, at the entry of the stretch that reads it. -/
theorem carry1 (c : Dev nD) : V24 m outs c main_v35 = V6 m outs c main_v35 :=
  (V24_of m outs c main_v35 (by decide)).trans
    ((V23_of m outs c main_v35 (by decide)).trans
    ((V22_of m outs c main_v35 (by decide)).trans
    ((V21_of m outs c main_v35 (by decide)).trans
    ((V20_of m outs c main_v35 (by decide)).trans
    ((V19_of m outs c main_v35 (by decide)).trans
    ((V18_of m outs c main_v35 (by decide)).trans
    ((V17_of m outs c main_v35 (by decide)).trans
    ((V16_of m outs c main_v35 (by decide)).trans
    ((V15_of m outs c main_v35 (by decide)).trans
    ((V14_of m outs c main_v35 (by decide)).trans
    ((V13_of m outs c main_v35 (by decide)).trans
    ((V12_of m outs c main_v35 (by decide)).trans
    ((V11_of m outs c main_v35 (by decide)).trans
    ((V10_of m outs c main_v35 (by decide)).trans
    ((V9_of m outs c main_v35 (by decide)).trans
    ((V8_of m outs c main_v35 (by decide)).trans
    ((V7_of m outs c main_v35 (by decide)))))))))))))))))))

/-- Region 2's output, at the entry of the stretch that reads it. -/
theorem carry2 (c : Dev nD) : V24 m outs c main_v37 = V8 m outs c main_v37 :=
  (V24_of m outs c main_v37 (by decide)).trans
    ((V23_of m outs c main_v37 (by decide)).trans
    ((V22_of m outs c main_v37 (by decide)).trans
    ((V21_of m outs c main_v37 (by decide)).trans
    ((V20_of m outs c main_v37 (by decide)).trans
    ((V19_of m outs c main_v37 (by decide)).trans
    ((V18_of m outs c main_v37 (by decide)).trans
    ((V17_of m outs c main_v37 (by decide)).trans
    ((V16_of m outs c main_v37 (by decide)).trans
    ((V15_of m outs c main_v37 (by decide)).trans
    ((V14_of m outs c main_v37 (by decide)).trans
    ((V13_of m outs c main_v37 (by decide)).trans
    ((V12_of m outs c main_v37 (by decide)).trans
    ((V11_of m outs c main_v37 (by decide)).trans
    ((V10_of m outs c main_v37 (by decide)).trans
    ((V9_of m outs c main_v37 (by decide)))))))))))))))))

/-- Region 3's output, at the entry of the stretch that reads it. -/
theorem carry3 (c : Dev nD) : V24 m outs c main_v39 = V10 m outs c main_v39 :=
  (V24_of m outs c main_v39 (by decide)).trans
    ((V23_of m outs c main_v39 (by decide)).trans
    ((V22_of m outs c main_v39 (by decide)).trans
    ((V21_of m outs c main_v39 (by decide)).trans
    ((V20_of m outs c main_v39 (by decide)).trans
    ((V19_of m outs c main_v39 (by decide)).trans
    ((V18_of m outs c main_v39 (by decide)).trans
    ((V17_of m outs c main_v39 (by decide)).trans
    ((V16_of m outs c main_v39 (by decide)).trans
    ((V15_of m outs c main_v39 (by decide)).trans
    ((V14_of m outs c main_v39 (by decide)).trans
    ((V13_of m outs c main_v39 (by decide)).trans
    ((V12_of m outs c main_v39 (by decide)).trans
    ((V11_of m outs c main_v39 (by decide)))))))))))))))

/-- Region 4's output, at the entry of the stretch that reads it. -/
theorem carry4 (c : Dev nD) : V24 m outs c main_v41 = V12 m outs c main_v41 :=
  (V24_of m outs c main_v41 (by decide)).trans
    ((V23_of m outs c main_v41 (by decide)).trans
    ((V22_of m outs c main_v41 (by decide)).trans
    ((V21_of m outs c main_v41 (by decide)).trans
    ((V20_of m outs c main_v41 (by decide)).trans
    ((V19_of m outs c main_v41 (by decide)).trans
    ((V18_of m outs c main_v41 (by decide)).trans
    ((V17_of m outs c main_v41 (by decide)).trans
    ((V16_of m outs c main_v41 (by decide)).trans
    ((V15_of m outs c main_v41 (by decide)).trans
    ((V14_of m outs c main_v41 (by decide)).trans
    ((V13_of m outs c main_v41 (by decide)))))))))))))

/-- Region 5's output, at the entry of the stretch that reads it. -/
theorem carry5 (c : Dev nD) : V24 m outs c main_v43 = V14 m outs c main_v43 :=
  (V24_of m outs c main_v43 (by decide)).trans
    ((V23_of m outs c main_v43 (by decide)).trans
    ((V22_of m outs c main_v43 (by decide)).trans
    ((V21_of m outs c main_v43 (by decide)).trans
    ((V20_of m outs c main_v43 (by decide)).trans
    ((V19_of m outs c main_v43 (by decide)).trans
    ((V18_of m outs c main_v43 (by decide)).trans
    ((V17_of m outs c main_v43 (by decide)).trans
    ((V16_of m outs c main_v43 (by decide)).trans
    ((V15_of m outs c main_v43 (by decide)))))))))))

/-- Region 6's output, at the entry of the stretch that reads it. -/
theorem carry6 (c : Dev nD) : V24 m outs c main_v45 = V16 m outs c main_v45 :=
  (V24_of m outs c main_v45 (by decide)).trans
    ((V23_of m outs c main_v45 (by decide)).trans
    ((V22_of m outs c main_v45 (by decide)).trans
    ((V21_of m outs c main_v45 (by decide)).trans
    ((V20_of m outs c main_v45 (by decide)).trans
    ((V19_of m outs c main_v45 (by decide)).trans
    ((V18_of m outs c main_v45 (by decide)).trans
    ((V17_of m outs c main_v45 (by decide)))))))))

/-- Region 7's output, at the entry of the stretch that reads it. -/
theorem carry7 (c : Dev nD) : V24 m outs c main_v47 = V18 m outs c main_v47 :=
  (V24_of m outs c main_v47 (by decide)).trans
    ((V23_of m outs c main_v47 (by decide)).trans
    ((V22_of m outs c main_v47 (by decide)).trans
    ((V21_of m outs c main_v47 (by decide)).trans
    ((V20_of m outs c main_v47 (by decide)).trans
    ((V19_of m outs c main_v47 (by decide)))))))

/-- Region 8's output, at the entry of the stretch that reads it. -/
theorem carry8 (c : Dev nD) : V24 m outs c main_v49 = V20 m outs c main_v49 :=
  (V24_of m outs c main_v49 (by decide)).trans
    ((V23_of m outs c main_v49 (by decide)).trans
    ((V22_of m outs c main_v49 (by decide)).trans
    ((V21_of m outs c main_v49 (by decide)))))

/-- Region 9's output, at the entry of the stretch that reads it. -/
theorem carry9 (c : Dev nD) : V24 m outs c main_v51 = V22 m outs c main_v51 :=
  (V24_of m outs c main_v51 (by decide)).trans
    ((V23_of m outs c main_v51 (by decide)))

/-- Region 10's output, at the entry of the stretch that reads it. -/
theorem carry10 (c : Dev nD) : V24 m outs c main_v53 = V24 m outs c main_v53 :=
  rfl

/-- Region 12's output, at the entry of the stretch that reads it. -/
theorem carry12 (c : Dev nD) : V46 m outs c main_v63 = V28 m outs c main_v63 :=
  (V46_of m outs c main_v63 (by decide)).trans
    ((V45_of m outs c main_v63 (by decide)).trans
    ((V44_of m outs c main_v63 (by decide)).trans
    ((V43_of m outs c main_v63 (by decide)).trans
    ((V42_of m outs c main_v63 (by decide)).trans
    ((V41_of m outs c main_v63 (by decide)).trans
    ((V40_of m outs c main_v63 (by decide)).trans
    ((V39_of m outs c main_v63 (by decide)).trans
    ((V38_of m outs c main_v63 (by decide)).trans
    ((V37_of m outs c main_v63 (by decide)).trans
    ((V36_of m outs c main_v63 (by decide)).trans
    ((V35_of m outs c main_v63 (by decide)).trans
    ((V34_of m outs c main_v63 (by decide)).trans
    ((V33_of m outs c main_v63 (by decide)).trans
    ((V32_of m outs c main_v63 (by decide)).trans
    ((V31_of m outs c main_v63 (by decide)).trans
    ((V30_of m outs c main_v63 (by decide)).trans
    ((V29_of m outs c main_v63 (by decide)))))))))))))))))))

/-- Region 13's output, at the entry of the stretch that reads it. -/
theorem carry13 (c : Dev nD) : V46 m outs c main_v65 = V30 m outs c main_v65 :=
  (V46_of m outs c main_v65 (by decide)).trans
    ((V45_of m outs c main_v65 (by decide)).trans
    ((V44_of m outs c main_v65 (by decide)).trans
    ((V43_of m outs c main_v65 (by decide)).trans
    ((V42_of m outs c main_v65 (by decide)).trans
    ((V41_of m outs c main_v65 (by decide)).trans
    ((V40_of m outs c main_v65 (by decide)).trans
    ((V39_of m outs c main_v65 (by decide)).trans
    ((V38_of m outs c main_v65 (by decide)).trans
    ((V37_of m outs c main_v65 (by decide)).trans
    ((V36_of m outs c main_v65 (by decide)).trans
    ((V35_of m outs c main_v65 (by decide)).trans
    ((V34_of m outs c main_v65 (by decide)).trans
    ((V33_of m outs c main_v65 (by decide)).trans
    ((V32_of m outs c main_v65 (by decide)).trans
    ((V31_of m outs c main_v65 (by decide)))))))))))))))))

/-- Region 14's output, at the entry of the stretch that reads it. -/
theorem carry14 (c : Dev nD) : V46 m outs c main_v67 = V32 m outs c main_v67 :=
  (V46_of m outs c main_v67 (by decide)).trans
    ((V45_of m outs c main_v67 (by decide)).trans
    ((V44_of m outs c main_v67 (by decide)).trans
    ((V43_of m outs c main_v67 (by decide)).trans
    ((V42_of m outs c main_v67 (by decide)).trans
    ((V41_of m outs c main_v67 (by decide)).trans
    ((V40_of m outs c main_v67 (by decide)).trans
    ((V39_of m outs c main_v67 (by decide)).trans
    ((V38_of m outs c main_v67 (by decide)).trans
    ((V37_of m outs c main_v67 (by decide)).trans
    ((V36_of m outs c main_v67 (by decide)).trans
    ((V35_of m outs c main_v67 (by decide)).trans
    ((V34_of m outs c main_v67 (by decide)).trans
    ((V33_of m outs c main_v67 (by decide)))))))))))))))

/-- Region 15's output, at the entry of the stretch that reads it. -/
theorem carry15 (c : Dev nD) : V46 m outs c main_v69 = V34 m outs c main_v69 :=
  (V46_of m outs c main_v69 (by decide)).trans
    ((V45_of m outs c main_v69 (by decide)).trans
    ((V44_of m outs c main_v69 (by decide)).trans
    ((V43_of m outs c main_v69 (by decide)).trans
    ((V42_of m outs c main_v69 (by decide)).trans
    ((V41_of m outs c main_v69 (by decide)).trans
    ((V40_of m outs c main_v69 (by decide)).trans
    ((V39_of m outs c main_v69 (by decide)).trans
    ((V38_of m outs c main_v69 (by decide)).trans
    ((V37_of m outs c main_v69 (by decide)).trans
    ((V36_of m outs c main_v69 (by decide)).trans
    ((V35_of m outs c main_v69 (by decide)))))))))))))

/-- Region 16's output, at the entry of the stretch that reads it. -/
theorem carry16 (c : Dev nD) : V46 m outs c main_v71 = V36 m outs c main_v71 :=
  (V46_of m outs c main_v71 (by decide)).trans
    ((V45_of m outs c main_v71 (by decide)).trans
    ((V44_of m outs c main_v71 (by decide)).trans
    ((V43_of m outs c main_v71 (by decide)).trans
    ((V42_of m outs c main_v71 (by decide)).trans
    ((V41_of m outs c main_v71 (by decide)).trans
    ((V40_of m outs c main_v71 (by decide)).trans
    ((V39_of m outs c main_v71 (by decide)).trans
    ((V38_of m outs c main_v71 (by decide)).trans
    ((V37_of m outs c main_v71 (by decide)))))))))))

/-- Region 17's output, at the entry of the stretch that reads it. -/
theorem carry17 (c : Dev nD) : V46 m outs c main_v73 = V38 m outs c main_v73 :=
  (V46_of m outs c main_v73 (by decide)).trans
    ((V45_of m outs c main_v73 (by decide)).trans
    ((V44_of m outs c main_v73 (by decide)).trans
    ((V43_of m outs c main_v73 (by decide)).trans
    ((V42_of m outs c main_v73 (by decide)).trans
    ((V41_of m outs c main_v73 (by decide)).trans
    ((V40_of m outs c main_v73 (by decide)).trans
    ((V39_of m outs c main_v73 (by decide)))))))))

/-- Region 18's output, at the entry of the stretch that reads it. -/
theorem carry18 (c : Dev nD) : V46 m outs c main_v75 = V40 m outs c main_v75 :=
  (V46_of m outs c main_v75 (by decide)).trans
    ((V45_of m outs c main_v75 (by decide)).trans
    ((V44_of m outs c main_v75 (by decide)).trans
    ((V43_of m outs c main_v75 (by decide)).trans
    ((V42_of m outs c main_v75 (by decide)).trans
    ((V41_of m outs c main_v75 (by decide)))))))

/-- Region 19's output, at the entry of the stretch that reads it. -/
theorem carry19 (c : Dev nD) : V46 m outs c main_v77 = V42 m outs c main_v77 :=
  (V46_of m outs c main_v77 (by decide)).trans
    ((V45_of m outs c main_v77 (by decide)).trans
    ((V44_of m outs c main_v77 (by decide)).trans
    ((V43_of m outs c main_v77 (by decide)))))

/-- Region 20's output, at the entry of the stretch that reads it. -/
theorem carry20 (c : Dev nD) : V46 m outs c main_v79 = V44 m outs c main_v79 :=
  (V46_of m outs c main_v79 (by decide)).trans
    ((V45_of m outs c main_v79 (by decide)))

/-- Region 21's output, at the entry of the stretch that reads it. -/
theorem carry21 (c : Dev nD) : V46 m outs c main_v81 = V46 m outs c main_v81 :=
  rfl

/-- Region 23's output, at the entry of the stretch that reads it. -/
theorem carry23 (c : Dev nD) : V64 m outs c main_v91 = V50 m outs c main_v91 :=
  (V64_of m outs c main_v91 (by decide)).trans
    ((V63_of m outs c main_v91 (by decide)).trans
    ((V62_of m outs c main_v91 (by decide)).trans
    ((V61_of m outs c main_v91 (by decide)).trans
    ((V60_of m outs c main_v91 (by decide)).trans
    ((V59_of m outs c main_v91 (by decide)).trans
    ((V58_of m outs c main_v91 (by decide)).trans
    ((V57_of m outs c main_v91 (by decide)).trans
    ((V56_of m outs c main_v91 (by decide)).trans
    ((V55_of m outs c main_v91 (by decide)).trans
    ((V54_of m outs c main_v91 (by decide)).trans
    ((V53_of m outs c main_v91 (by decide)).trans
    ((V52_of m outs c main_v91 (by decide)).trans
    ((V51_of m outs c main_v91 (by decide)))))))))))))))

/-- Region 24's output, at the entry of the stretch that reads it. -/
theorem carry24 (c : Dev nD) : V64 m outs c main_v93 = V52 m outs c main_v93 :=
  (V64_of m outs c main_v93 (by decide)).trans
    ((V63_of m outs c main_v93 (by decide)).trans
    ((V62_of m outs c main_v93 (by decide)).trans
    ((V61_of m outs c main_v93 (by decide)).trans
    ((V60_of m outs c main_v93 (by decide)).trans
    ((V59_of m outs c main_v93 (by decide)).trans
    ((V58_of m outs c main_v93 (by decide)).trans
    ((V57_of m outs c main_v93 (by decide)).trans
    ((V56_of m outs c main_v93 (by decide)).trans
    ((V55_of m outs c main_v93 (by decide)).trans
    ((V54_of m outs c main_v93 (by decide)).trans
    ((V53_of m outs c main_v93 (by decide)))))))))))))

/-- Region 25's output, at the entry of the stretch that reads it. -/
theorem carry25 (c : Dev nD) : V64 m outs c main_v95 = V54 m outs c main_v95 :=
  (V64_of m outs c main_v95 (by decide)).trans
    ((V63_of m outs c main_v95 (by decide)).trans
    ((V62_of m outs c main_v95 (by decide)).trans
    ((V61_of m outs c main_v95 (by decide)).trans
    ((V60_of m outs c main_v95 (by decide)).trans
    ((V59_of m outs c main_v95 (by decide)).trans
    ((V58_of m outs c main_v95 (by decide)).trans
    ((V57_of m outs c main_v95 (by decide)).trans
    ((V56_of m outs c main_v95 (by decide)).trans
    ((V55_of m outs c main_v95 (by decide)))))))))))

/-- Region 26's output, at the entry of the stretch that reads it. -/
theorem carry26 (c : Dev nD) : V64 m outs c main_v97 = V56 m outs c main_v97 :=
  (V64_of m outs c main_v97 (by decide)).trans
    ((V63_of m outs c main_v97 (by decide)).trans
    ((V62_of m outs c main_v97 (by decide)).trans
    ((V61_of m outs c main_v97 (by decide)).trans
    ((V60_of m outs c main_v97 (by decide)).trans
    ((V59_of m outs c main_v97 (by decide)).trans
    ((V58_of m outs c main_v97 (by decide)).trans
    ((V57_of m outs c main_v97 (by decide)))))))))

/-- Region 27's output, at the entry of the stretch that reads it. -/
theorem carry27 (c : Dev nD) : V64 m outs c main_v99 = V58 m outs c main_v99 :=
  (V64_of m outs c main_v99 (by decide)).trans
    ((V63_of m outs c main_v99 (by decide)).trans
    ((V62_of m outs c main_v99 (by decide)).trans
    ((V61_of m outs c main_v99 (by decide)).trans
    ((V60_of m outs c main_v99 (by decide)).trans
    ((V59_of m outs c main_v99 (by decide)))))))

/-- Region 28's output, at the entry of the stretch that reads it. -/
theorem carry28 (c : Dev nD) : V64 m outs c main_v101 = V60 m outs c main_v101 :=
  (V64_of m outs c main_v101 (by decide)).trans
    ((V63_of m outs c main_v101 (by decide)).trans
    ((V62_of m outs c main_v101 (by decide)).trans
    ((V61_of m outs c main_v101 (by decide)))))

/-- Region 29's output, at the entry of the stretch that reads it. -/
theorem carry29 (c : Dev nD) : V64 m outs c main_v103 = V62 m outs c main_v103 :=
  (V64_of m outs c main_v103 (by decide)).trans
    ((V63_of m outs c main_v103 (by decide)))

/-- Region 30's output, at the entry of the stretch that reads it. -/
theorem carry30 (c : Dev nD) : V64 m outs c main_v105 = V64 m outs c main_v105 :=
  rfl

/-- Region 31's output, at the entry of the stretch that reads it. -/
theorem carry31 (c : Dev nD) : V80 m outs c main_v108 = V66 m outs c main_v108 :=
  (V80_of m outs c main_v108 (by decide)).trans
    ((V79_of m outs c main_v108 (by decide)).trans
    ((V78_of m outs c main_v108 (by decide)).trans
    ((V77_of m outs c main_v108 (by decide)).trans
    ((V76_of m outs c main_v108 (by decide)).trans
    ((V75_of m outs c main_v108 (by decide)).trans
    ((V74_of m outs c main_v108 (by decide)).trans
    ((V73_of m outs c main_v108 (by decide)).trans
    ((V72_of m outs c main_v108 (by decide)).trans
    ((V71_of m outs c main_v108 (by decide)).trans
    ((V70_of m outs c main_v108 (by decide)).trans
    ((V69_of m outs c main_v108 (by decide)).trans
    ((V68_of m outs c main_v108 (by decide)).trans
    ((V67_of m outs c main_v108 (by decide)))))))))))))))

/-- Region 32's output, at the entry of the stretch that reads it. -/
theorem carry32 (c : Dev nD) : V80 m outs c main_v110 = V68 m outs c main_v110 :=
  (V80_of m outs c main_v110 (by decide)).trans
    ((V79_of m outs c main_v110 (by decide)).trans
    ((V78_of m outs c main_v110 (by decide)).trans
    ((V77_of m outs c main_v110 (by decide)).trans
    ((V76_of m outs c main_v110 (by decide)).trans
    ((V75_of m outs c main_v110 (by decide)).trans
    ((V74_of m outs c main_v110 (by decide)).trans
    ((V73_of m outs c main_v110 (by decide)).trans
    ((V72_of m outs c main_v110 (by decide)).trans
    ((V71_of m outs c main_v110 (by decide)).trans
    ((V70_of m outs c main_v110 (by decide)).trans
    ((V69_of m outs c main_v110 (by decide)))))))))))))

/-- Region 33's output, at the entry of the stretch that reads it. -/
theorem carry33 (c : Dev nD) : V80 m outs c main_v112 = V70 m outs c main_v112 :=
  (V80_of m outs c main_v112 (by decide)).trans
    ((V79_of m outs c main_v112 (by decide)).trans
    ((V78_of m outs c main_v112 (by decide)).trans
    ((V77_of m outs c main_v112 (by decide)).trans
    ((V76_of m outs c main_v112 (by decide)).trans
    ((V75_of m outs c main_v112 (by decide)).trans
    ((V74_of m outs c main_v112 (by decide)).trans
    ((V73_of m outs c main_v112 (by decide)).trans
    ((V72_of m outs c main_v112 (by decide)).trans
    ((V71_of m outs c main_v112 (by decide)))))))))))

/-- Region 34's output, at the entry of the stretch that reads it. -/
theorem carry34 (c : Dev nD) : V80 m outs c main_v114 = V72 m outs c main_v114 :=
  (V80_of m outs c main_v114 (by decide)).trans
    ((V79_of m outs c main_v114 (by decide)).trans
    ((V78_of m outs c main_v114 (by decide)).trans
    ((V77_of m outs c main_v114 (by decide)).trans
    ((V76_of m outs c main_v114 (by decide)).trans
    ((V75_of m outs c main_v114 (by decide)).trans
    ((V74_of m outs c main_v114 (by decide)).trans
    ((V73_of m outs c main_v114 (by decide)))))))))

/-- Region 35's output, at the entry of the stretch that reads it. -/
theorem carry35 (c : Dev nD) : V80 m outs c main_v116 = V74 m outs c main_v116 :=
  (V80_of m outs c main_v116 (by decide)).trans
    ((V79_of m outs c main_v116 (by decide)).trans
    ((V78_of m outs c main_v116 (by decide)).trans
    ((V77_of m outs c main_v116 (by decide)).trans
    ((V76_of m outs c main_v116 (by decide)).trans
    ((V75_of m outs c main_v116 (by decide)))))))

/-- Region 36's output, at the entry of the stretch that reads it. -/
theorem carry36 (c : Dev nD) : V80 m outs c main_v118 = V76 m outs c main_v118 :=
  (V80_of m outs c main_v118 (by decide)).trans
    ((V79_of m outs c main_v118 (by decide)).trans
    ((V78_of m outs c main_v118 (by decide)).trans
    ((V77_of m outs c main_v118 (by decide)))))

/-- Region 37's output, at the entry of the stretch that reads it. -/
theorem carry37 (c : Dev nD) : V80 m outs c main_v120 = V78 m outs c main_v120 :=
  (V80_of m outs c main_v120 (by decide)).trans
    ((V79_of m outs c main_v120 (by decide)))

/-- Region 38's output, at the entry of the stretch that reads it. -/
theorem carry38 (c : Dev nD) : V80 m outs c main_v122 = V80 m outs c main_v122 :=
  rfl

/-- The second weight matrix, an argument no item writes, at region 11's entry. -/
theorem carryW2 (c : Dev nD) : V25 m outs c main_arg4 = V0 m c main_arg4 :=
  (V25_of m outs c main_arg4 (by decide)).trans
    ((V24_of m outs c main_arg4 (by decide)).trans
    ((V23_of m outs c main_arg4 (by decide)).trans
    ((V22_of m outs c main_arg4 (by decide)).trans
    ((V21_of m outs c main_arg4 (by decide)).trans
    ((V20_of m outs c main_arg4 (by decide)).trans
    ((V19_of m outs c main_arg4 (by decide)).trans
    ((V18_of m outs c main_arg4 (by decide)).trans
    ((V17_of m outs c main_arg4 (by decide)).trans
    ((V16_of m outs c main_arg4 (by decide)).trans
    ((V15_of m outs c main_arg4 (by decide)).trans
    ((V14_of m outs c main_arg4 (by decide)).trans
    ((V13_of m outs c main_arg4 (by decide)).trans
    ((V12_of m outs c main_arg4 (by decide)).trans
    ((V11_of m outs c main_arg4 (by decide)).trans
    ((V10_of m outs c main_arg4 (by decide)).trans
    ((V9_of m outs c main_arg4 (by decide)).trans
    ((V8_of m outs c main_arg4 (by decide)).trans
    ((V7_of m outs c main_arg4 (by decide)).trans
    ((V6_of m outs c main_arg4 (by decide)).trans
    ((V5_of m outs c main_arg4 (by decide)).trans
    ((V4_of m outs c main_arg4 (by decide)).trans
    ((V3_of m c main_arg4 (by decide)).trans
    ((V2_of m c main_arg4 (by decide)).trans
    ((V1_of m c main_arg4 (by decide))))))))))))))))))))))))))

end Cert.KernelIdeal.Hand

end
-- ==== Proof.KI.GatherVal1.lean ====
/-
  The value of the row-gather region 1: the array its output window leaves.

  At grid point t the region's output block holds, in its row j, the source's row  row (8 t + j).  The block sits at
  block index (t, 0) of the 85000 x 128 output array: it covers the rows 8 t … 8 t + 7 and all 128 columns. Every point
  writes its block back (the block index moves at every step), and row r of the array lies in the block of point r / 8,
  at the block's row r % 8. So the array ends with its row r equal to the source's row  row r,  for every r.

  The gathered block is taken abstractly here: any family of blocks that reads as above (the hypothesis of
  flushedG1_eq and finalG1) gives the array. When the row numbers are the words of an index table, each below 50000,
  row r of the array is the source's row at the node the table's word r names (finalG1_node).
-/
import proofs.«402049_j87351044866139_2_alg».proof.Proof.KI.Gather1
import proofs.«402049_j87351044866139_2_alg».proof.Proof.Spec
import Idealize.ShloMosaic.Lib.Pipeline.Value
import Idealize.ShloMosaic.Lib.ValueIdx

set_option maxRecDepth 16384

noncomputable section

namespace Cert.KernelIdeal.Hand

open Idealize.ShloMosaic Idealize.ShloMosaic.TcCoe
open Idealize.SL.Sem
open Idealize.ShloMosaic.Pipeline (Dat Cfg Window)
open Cert.KernelIdeal Cert.KernelIdeal.Gen

variable {F : FTy → Type} [FloatOps F]

variable (V : (c : Dev nD) → (b : Ref sig .tc) → Buf (Elt F) ((c : Thread nD τ).loc b))
variable (a1 : (pcfg1 (F := F)).Adm)
variable (gblk : (c : Dev nD) → Fin (cfg1 a1).N → S8x128.Idx → Elt F .f32)

/-! ## The grid and the output window's schedule -/

/-- The region's grid has 10625 points. -/
theorem ptsG1 (t : Fin (cfg1 a1).N) : t.val < 10625 := lt_of_lt_of_eq t.isLt N_1

/-- The grid has one axis, so point t has coordinate t. -/
theorem coordG1 (t : Fin (cfg1 a1).N) : (((cfg1 a1).grid.coords t) (0 : Fin 1)).val = t.val := by
  have hN := ptsG1 a1 t
  show t.val / (cfg1 a1).grid.stride (0 : Fin 1) % 10625 = t.val
  rw [show (cfg1 a1).grid.stride (0 : Fin 1) = 1 from rfl, Nat.div_one, Nat.mod_eq_of_lt hN]

/-- The output window's block index at point t is (t, 0). -/
theorem indexG1 (t : Fin (cfg1 a1).N) :
    ((cfg1 a1).win 0).index t (0 : Fin 2) = t.val ∧ ((cfg1 a1).win 0).index t (1 : Fin 2) = 0 := by
  have hN := ptsG1 a1 t
  refine ⟨?_, rfl⟩
  show (BitVec.ofNat 32 (((cfg1 a1).grid.coords t) (0 : Fin 1)).val).toNat = t.val
  rw [coordG1, BitVec.toNat_ofNat]
  exact Nat.mod_eq_of_lt (by omega)

/-- The block index moves at every step, so every point writes its block back. -/
theorem flushG1 (t : Fin (cfg1 a1).N) : ((cfg1 a1).win 0).flush t = true := by
  rw [Pipeline.Window.flush_out _ rfl]
  have ht : t.val < (cfg1 a1).grid.N := t.isLt
  by_cases h : t.val + 1 < (cfg1 a1).grid.N
  · refine .inr ⟨h, fun e => ?_⟩
    have e0 : ((cfg1 a1).win 0).index ⟨t.val + 1, h⟩ (0 : Fin 2) = ((cfg1 a1).win 0).index t (0 : Fin 2) :=
      congrFun e (0 : Fin 2)
    have e1 : ((cfg1 a1).win 0).index ⟨t.val + 1, h⟩ (0 : Fin 2) = t.val + 1 := (indexG1 a1 ⟨t.val + 1, h⟩).1
    have e2 : ((cfg1 a1).win 0).index t (0 : Fin 2) = t.val := (indexG1 a1 t).1
    omega
  · exact .inl (by omega)

/-! ## What a point writes back, and the array -/

variable (T : (c : Dev nD) → S50000x128.Idx → Elt F .f32) (row : (c : Dev nD) → Fin 85000 → Fin 50000)

/-- The array the region leaves on core c: its row r is the source's row  row r. -/
abbrev outG1 (c : Dev nD) : S85000x128.Idx → Elt F .f32 := fun i => T c (ValueIdx.ix2 (row c (i 0)) (i 1))

/-- One element of the block at point t is the array's element 8 t rows further down, in the same column. -/
theorem blockG1_apply
    (hblk : ∀ c (t : Fin (cfg1 a1).N) (j : Fin 8) (l : Fin 128) (h : 8 * t.val + j.val < 85000),
      gblk c t (ValueIdx.ix2 j l) = T c (ValueIdx.ix2 (row c ⟨8 * t.val + j.val, h⟩) l))
    (c : Dev nD) (t : Fin (cfg1 a1).N) (y : S8x128.Idx) (k : S85000x128.Idx)
    (hk0 : (k 0).val = 8 * t.val + (y 0).val) (hk1 : (k 1).val = (y 1).val) :
    gblk c t y = outG1 T row c k := by
  have hy0 : (y 0).val < 8 := (y 0).isLt
  have hN := ptsG1 a1 t
  have hb : 8 * t.val + (y 0).val < 85000 := by omega
  have h0 : (⟨8 * t.val + (y 0).val, hb⟩ : Fin 85000) = k 0 := Fin.ext hk0.symm
  have h1 : (y 1 : Fin 128) = k 1 := Fin.ext hk1.symm
  calc gblk c t y = gblk c t (ValueIdx.ix2 (y 0) (y 1)) := congrArg (gblk c t) (ValueIdx.eq_ix2 y)
    _ = T c (ValueIdx.ix2 (row c ⟨8 * t.val + (y 0).val, hb⟩) (y 1)) := hblk c t (y 0) (y 1) hb
    _ = outG1 T row c k := congrArg₂ (fun (p : Fin 85000) (l : Fin 128) => T c (ValueIdx.ix2 (row c p) l)) h0 h1

/-- WHAT POINT t WRITES BACK is block t of that array. -/
theorem flushedG1_eq
    (hblk : ∀ c (t : Fin (cfg1 a1).N) (j : Fin 8) (l : Fin 128) (h : 8 * t.val + j.val < 85000),
      gblk c t (ValueIdx.ix2 j l) = T c (ValueIdx.ix2 (row c ⟨8 * t.val + j.val, h⟩) l))
    (c : Dev nD) (t : Fin (cfg1 a1).N) :
    (datG1 V a1 gblk c).flushed 0 t = (((cfg1 a1).win 0).blk t).view.read (Elt F) (outG1 T row c) := by
  obtain ⟨e0, e1⟩ := indexG1 a1 t
  have key : ∀ y : S8x128.Idx, gblk c t y = outG1 T row c ((((cfg1 a1).win 0).blk t).view.emb y) := fun y =>
    blockG1_apply a1 gblk T row hblk c t y _
      (by show ((cfg1 a1).win 0).index t (0 : Fin 2) * 8 + 1 * (y 0).val = 8 * t.val + (y 0).val
          rw [e0]; omega)
      (by show ((cfg1 a1).win 0).index t (1 : Fin 2) * 128 + 1 * (y 1).val = (y 1).val
          rw [e1]; omega)
  exact funext key

/-- An index of the array whose row is among the rows 8 t … 8 t + 7 is in point t's block. -/
theorem mem_blkG1 (t : Fin (cfg1 a1).N) (i : S85000x128.Idx)
    (hi : 8 * t.val ≤ (i 0).val ∧ (i 0).val < 8 * t.val + 8) : i ∈ (((cfg1 a1).win 0).blk t).view.set := by
  obtain ⟨e0, e1⟩ := indexG1 a1 t
  have hi1 : (i 1).val < 128 := (i 1).isLt
  have hs : (((cfg1 a1).win 0).blk t).view.set = (((cfg1 a1).win 0).rect t).set :=
    View.set_slice_whole main_v35 (((cfg1 a1).win 0).rect t)
  have key : ∀ a : Fin 2, ((cfg1 a1).win 0).index t a * S8x128.size a ≤ (i a).val
      ∧ (i a).val < ((cfg1 a1).win 0).index t a * S8x128.size a + S8x128.size a := fun a =>
    match a with
    | ⟨0, _⟩ => by
      show ((cfg1 a1).win 0).index t (0 : Fin 2) * 8 ≤ (i 0).val ∧ (i 0).val < ((cfg1 a1).win 0).index t (0 : Fin 2) * 8 + 8
      rw [e0]; omega
    | ⟨1, _⟩ => by
      show ((cfg1 a1).win 0).index t (1 : Fin 2) * 128 ≤ (i 1).val ∧ (i 1).val < ((cfg1 a1).win 0).index t (1 : Fin 2) * 128 + 128
      rw [e1]; omega
  exact (Finset.ext_iff.mp hs i).mpr (Rect.mem_set_unit.mpr key)

/-- THE COVER: row r of the array lies in the block of point r / 8, and that point writes its block back. -/
theorem coverG1 (i : S85000x128.Idx) :
    ∃ t : Fin (cfg1 a1).N, ((cfg1 a1).win 0).flush t = true ∧ i ∈ (((cfg1 a1).win 0).blk t).view.set := by
  have hi0 : (i 0).val < 85000 := (i 0).isLt
  have ht : (i 0).val / 8 < (cfg1 a1).N := lt_of_lt_of_eq (by omega : (i 0).val / 8 < 10625) N_1.symm
  exact ⟨⟨(i 0).val / 8, ht⟩, flushG1 a1 _, mem_blkG1 a1 ⟨(i 0).val / 8, ht⟩ i
    (by show 8 * ((i 0).val / 8) ≤ (i 0).val ∧ (i 0).val < 8 * ((i 0).val / 8) + 8; omega)⟩

/-- THE ARRAY after the region: its row r is the source's row  row r. -/
theorem finalG1
    (hblk : ∀ c (t : Fin (cfg1 a1).N) (j : Fin 8) (l : Fin 128) (h : 8 * t.val + j.val < 85000),
      gblk c t (ValueIdx.ix2 j l) = T c (ValueIdx.ix2 (row c ⟨8 * t.val + j.val, h⟩) l))
    (c : Dev nD) :
    (datG1 V a1 gblk c).arrAt 0 (cfg1 a1).N
      = fun i : S85000x128.Idx => T c (ValueIdx.ix2 (row c (i 0)) (i 1)) :=
  (datG1 V a1 gblk c).arrAt_eq_of_cover 0 (outG1 T row c)
    (fun t _ => flushedG1_eq V a1 gblk T row hblk c t) (coverG1 a1)

/-- THE ARRAY, when the row numbers are the words of an index table tblw, each below 50000: row r is the source's row
    at the node that word r names (a word below 50000 names the node of that number). -/
theorem finalG1_node (tblw : IVec S85000 32) (hlt : ∀ k : S85000.Idx, (tblw k).toNat < 50000)
    (hblk : ∀ c (t : Fin (cfg1 a1).N) (j : Fin 8) (l : Fin 128) (h : 8 * t.val + j.val < 85000),
      gblk c t (ValueIdx.ix2 j l)
        = T c (ValueIdx.ix2 (⟨(tblw (ValueIdx.ix1 (⟨8 * t.val + j.val, h⟩ : Fin 85000))).toNat, hlt _⟩ : Fin 50000) l))
    (c : Dev nD) :
    (datG1 V a1 gblk c).arrAt 0 (cfg1 a1).N
      = fun i : S85000x128.Idx => T c (ValueIdx.ix2 (Cert.Spec.node (tblw (ValueIdx.ix1 (i 0)))) (i 1)) :=
  (finalG1 V a1 gblk T (fun _ p => ⟨(tblw (ValueIdx.ix1 p)).toNat, hlt _⟩) hblk c).trans
    (funext fun i => congrArg (fun p : Fin 50000 => T c (ValueIdx.ix2 p (i 1))) (Cert.Spec.node_of_lt (hlt _)).symm)

end Cert.KernelIdeal.Hand

end
-- ==== Proof.KI.GatherAt1.lean ====
/-
  Region 1 in the run: what it leaves, in terms of what the program's items before it left.

  Between the program's items core c's buffers hold the chain's valuations. Region 1's index table, as the region's
  proof data hold it, is the closed table of the launch memory, and every word of it is below 50000 when every word
  of the edge list is. So the region's output array holds, in its row r, the row — of the array the region reads — at
  the node that the table's word r names; and the array it reads is left as it was, which is as the item before the
  table's host stretch left it. No later item writes the output array before the host stretch that concatenates the
  gather outputs, so at that stretch's entry it holds the same rows (gat1: stated for whatever the array read holds).
-/
import proofs.«402049_j87351044866139_2_alg».proof.Proof.KI.Chain
import proofs.«402049_j87351044866139_2_alg».proof.Proof.KI.Carry
import proofs.«402049_j87351044866139_2_alg».proof.Proof.KI.GatherVal1
import proofs.«402049_j87351044866139_2_alg».proof.Proof.KI.Tables

set_option maxRecDepth 16384

noncomputable section

namespace Cert.KernelIdeal.Hand

open Cert.KernelIdeal Cert.KernelIdeal.Gen Cert.KernelIdeal.GenP
open Idealize.ShloMosaic Idealize.ShloMosaic.TcCoe
open Idealize.SL.Sem

variable {F : FTy → Type} [FloatOps F]
variable (m : (ℓ : Loc nD τ sig) → Buf (Elt F) ℓ)

/-- The index table the region's proof data hold is the closed table of the launch memory: the data hold what the
    chain's valuation at the region's entry has in the table's buffer, and that valuation is the run's own. -/
theorem tblwU1 : tblw1 (a1 m) = tbl1 m c₀ := by
  have h1 : tblw1 (a1 m) = (U5 m c₀ main_v34 : IVec S85000 32) := by
    unfold a1
    rfl
  have h2 : ∀ W : Valuation τ sig (Elt F), V5 m (outsU m) c₀ = W → (W main_v34 : IVec S85000 32) = tbl1 m c₀ :=
    fun W hW => by subst hW; exact tbl1_eq m (outsU m) c₀
  exact h1.trans (h2 (U5 m c₀) (V5_eq m c₀))

/-- The array the region reads, at the region's entry, is as the item before the table's host stretch left it. -/
theorem gin1 (c : Dev nD) : atTc (U5 m) c main_v33 = V4 m (outsU m) c main_v33 :=
  (congrFun (V5_eq m c) main_v33).symm.trans (V5_of m (outsU m) c main_v33 (by decide))

/-- THE ARRAY THE REGION READS is left as it was. -/
theorem gsrc1 (c : Dev nD) : V6 m (outsU m) c main_v33 = V4 m (outsU m) c main_v33 :=
  (congrFun (V6_eq m c) main_v33).trans ((U6_hbm m c).trans (gin1 m c))

/-- THE REGION'S OUTPUT: its row r is the row, of the array the region reads, at the node the table's word r names. -/
theorem g1_val (c : Dev nD) (hm : ∀ i : S2x800000.Idx, ((V0 m c main_arg1 : IVec S2x800000 32) i).toNat < 50000) :
    (V6 m (outsU m) c main_v35 : S85000x128.Idx → Elt F .f32)
      = fun i => (V4 m (outsU m) c main_v33 : S50000x128.Idx → Elt F .f32)
          (ValueIdx.ix2 (Cert.Spec.node (tbl1 m c (ValueIdx.ix1 (i 0)))) (i 1)) := by
  obtain rfl : c = c₀ := eq_c₀ c
  have hlt : ∀ k : S85000.Idx, (tblw1 (a1 m) k).toNat < 50000 := fun k => by
    rw [tblwU1]; exact tbl1_lt m c₀ hm k
  refine (congrFun (V6_eq m c₀) main_v35).trans ((U6_out m c₀).trans ?_)
  refine (finalG1_node (atTc (U5 m)) (a1 m) (gblk1 (atTc (U5 m)) (a1 m)) (fun c => V4 m (outsU m) c main_v33)
      (tblw1 (a1 m)) hlt
      (fun c t j l _ => (gblk1_apply (atTc (U5 m)) (a1 m) hlt c t j l).trans (congrFun (gin1 m c) _)) c₀).trans ?_
  rw [tblwU1]
  rfl

/-- THE REGION'S OUTPUT WHERE IT IS READ, at the entry of the host stretch that concatenates the gather outputs: the
    rows of T at the nodes the table names, when the array the region reads holds T. -/
theorem gat1 (c : Dev nD) (hm : ∀ i : S2x800000.Idx, ((V0 m c main_arg1 : IVec S2x800000 32) i).toNat < 50000)
    (T : S50000x128.Idx → Elt F .f32) (hT : V4 m (outsU m) c main_v33 = T) :
    (V24 m (outsU m) c main_v35 : S85000x128.Idx → Elt F .f32)
      = fun i => T (ValueIdx.ix2 (Cert.Spec.node (tbl1 m c (ValueIdx.ix1 (i 0)))) (i 1)) := by
  subst hT
  exact (carry1 m (outsU m) c).trans (g1_val m c hm)

end Cert.KernelIdeal.Hand

end
-- ==== Proof.KI.GatherVal2.lean ====
/-
  The value of the row-gather region 2: the array its output window leaves.

  At grid point t the region's output block holds, in its row j, the source's row  row (8 t + j).  The block sits at
  block index (t, 0) of the 85000 x 128 output array: it covers the rows 8 t … 8 t + 7 and all 128 columns. Every point
  writes its block back (the block index moves at every step), and row r of the array lies in the block of point r / 8,
  at the block's row r % 8. So the array ends with its row r equal to the source's row  row r,  for every r.

  The gathered block is taken abstractly here: any family of blocks that reads as above (the hypothesis of
  flushedG2_eq and finalG2) gives the array. When the row numbers are the words of an index table, each below 50000,
  row r of the array is the source's row at the node the table's word r names (finalG2_node).
-/
import proofs.«402049_j87351044866139_2_alg».proof.Proof.KI.Gather2
import proofs.«402049_j87351044866139_2_alg».proof.Proof.Spec
import Idealize.ShloMosaic.Lib.Pipeline.Value
import Idealize.ShloMosaic.Lib.ValueIdx

set_option maxRecDepth 16384

noncomputable section

namespace Cert.KernelIdeal.Hand

open Idealize.ShloMosaic Idealize.ShloMosaic.TcCoe
open Idealize.SL.Sem
open Idealize.ShloMosaic.Pipeline (Dat Cfg Window)
open Cert.KernelIdeal Cert.KernelIdeal.Gen

variable {F : FTy → Type} [FloatOps F]

variable (V : (c : Dev nD) → (b : Ref sig .tc) → Buf (Elt F) ((c : Thread nD τ).loc b))
variable (a2 : (pcfg2 (F := F)).Adm)
variable (gblk : (c : Dev nD) → Fin (cfg2 a2).N → S8x128.Idx → Elt F .f32)

/-! ## The grid and the output window's schedule -/

/-- The region's grid has 10625 points. -/
theorem ptsG2 (t : Fin (cfg2 a2).N) : t.val < 10625 := lt_of_lt_of_eq t.isLt N_2

/-- The grid has one axis, so point t has coordinate t. -/
theorem coordG2 (t : Fin (cfg2 a2).N) : (((cfg2 a2).grid.coords t) (0 : Fin 1)).val = t.val := by
  have hN := ptsG2 a2 t
  show t.val / (cfg2 a2).grid.stride (0 : Fin 1) % 10625 = t.val
  rw [show (cfg2 a2).grid.stride (0 : Fin 1) = 1 from rfl, Nat.div_one, Nat.mod_eq_of_lt hN]

/-- The output window's block index at point t is (t, 0). -/
theorem indexG2 (t : Fin (cfg2 a2).N) :
    ((cfg2 a2).win 0).index t (0 : Fin 2) = t.val ∧ ((cfg2 a2).win 0).index t (1 : Fin 2) = 0 := by
  have hN := ptsG2 a2 t
  refine ⟨?_, rfl⟩
  show (BitVec.ofNat 32 (((cfg2 a2).grid.coords t) (0 : Fin 1)).val).toNat = t.val
  rw [coordG2, BitVec.toNat_ofNat]
  exact Nat.mod_eq_of_lt (by omega)

/-- The block index moves at every step, so every point writes its block back. -/
theorem flushG2 (t : Fin (cfg2 a2).N) : ((cfg2 a2).win 0).flush t = true := by
  rw [Pipeline.Window.flush_out _ rfl]
  have ht : t.val < (cfg2 a2).grid.N := t.isLt
  by_cases h : t.val + 1 < (cfg2 a2).grid.N
  · refine .inr ⟨h, fun e => ?_⟩
    have e0 : ((cfg2 a2).win 0).index ⟨t.val + 1, h⟩ (0 : Fin 2) = ((cfg2 a2).win 0).index t (0 : Fin 2) :=
      congrFun e (0 : Fin 2)
    have e1 : ((cfg2 a2).win 0).index ⟨t.val + 1, h⟩ (0 : Fin 2) = t.val + 1 := (indexG2 a2 ⟨t.val + 1, h⟩).1
    have e2 : ((cfg2 a2).win 0).index t (0 : Fin 2) = t.val := (indexG2 a2 t).1
    omega
  · exact .inl (by omega)

/-! ## What a point writes back, and the array -/

variable (T : (c : Dev nD) → S50000x128.Idx → Elt F .f32) (row : (c : Dev nD) → Fin 85000 → Fin 50000)

/-- The array the region leaves on core c: its row r is the source's row  row r. -/
abbrev outG2 (c : Dev nD) : S85000x128.Idx → Elt F .f32 := fun i => T c (ValueIdx.ix2 (row c (i 0)) (i 1))

/-- One element of the block at point t is the array's element 8 t rows further down, in the same column. -/
theorem blockG2_apply
    (hblk : ∀ c (t : Fin (cfg2 a2).N) (j : Fin 8) (l : Fin 128) (h : 8 * t.val + j.val < 85000),
      gblk c t (ValueIdx.ix2 j l) = T c (ValueIdx.ix2 (row c ⟨8 * t.val + j.val, h⟩) l))
    (c : Dev nD) (t : Fin (cfg2 a2).N) (y : S8x128.Idx) (k : S85000x128.Idx)
    (hk0 : (k 0).val = 8 * t.val + (y 0).val) (hk1 : (k 1).val = (y 1).val) :
    gblk c t y = outG2 T row c k := by
  have hy0 : (y 0).val < 8 := (y 0).isLt
  have hN := ptsG2 a2 t
  have hb : 8 * t.val + (y 0).val < 85000 := by omega
  have h0 : (⟨8 * t.val + (y 0).val, hb⟩ : Fin 85000) = k 0 := Fin.ext hk0.symm
  have h1 : (y 1 : Fin 128) = k 1 := Fin.ext hk1.symm
  calc gblk c t y = gblk c t (ValueIdx.ix2 (y 0) (y 1)) := congrArg (gblk c t) (ValueIdx.eq_ix2 y)
    _ = T c (ValueIdx.ix2 (row c ⟨8 * t.val + (y 0).val, hb⟩) (y 1)) := hblk c t (y 0) (y 1) hb
    _ = outG2 T row c k := congrArg₂ (fun (p : Fin 85000) (l : Fin 128) => T c (ValueIdx.ix2 (row c p) l)) h0 h1

/-- WHAT POINT t WRITES BACK is block t of that array. -/
theorem flushedG2_eq
    (hblk : ∀ c (t : Fin (cfg2 a2).N) (j : Fin 8) (l : Fin 128) (h : 8 * t.val + j.val < 85000),
      gblk c t (ValueIdx.ix2 j l) = T c (ValueIdx.ix2 (row c ⟨8 * t.val + j.val, h⟩) l))
    (c : Dev nD) (t : Fin (cfg2 a2).N) :
    (datG2 V a2 gblk c).flushed 0 t = (((cfg2 a2).win 0).blk t).view.read (Elt F) (outG2 T row c) := by
  obtain ⟨e0, e1⟩ := indexG2 a2 t
  have key : ∀ y : S8x128.Idx, gblk c t y = outG2 T row c ((((cfg2 a2).win 0).blk t).view.emb y) := fun y =>
    blockG2_apply a2 gblk T row hblk c t y _
      (by show ((cfg2 a2).win 0).index t (0 : Fin 2) * 8 + 1 * (y 0).val = 8 * t.val + (y 0).val
          rw [e0]; omega)
      (by show ((cfg2 a2).win 0).index t (1 : Fin 2) * 128 + 1 * (y 1).val = (y 1).val
          rw [e1]; omega)
  exact funext key

/-- An index of the array whose row is among the rows 8 t … 8 t + 7 is in point t's block. -/
theorem mem_blkG2 (t : Fin (cfg2 a2).N) (i : S85000x128.Idx)
    (hi : 8 * t.val ≤ (i 0).val ∧ (i 0).val < 8 * t.val + 8) : i ∈ (((cfg2 a2).win 0).blk t).view.set := by
  obtain ⟨e0, e1⟩ := indexG2 a2 t
  have hi1 : (i 1).val < 128 := (i 1).isLt
  have hs : (((cfg2 a2).win 0).blk t).view.set = (((cfg2 a2).win 0).rect t).set :=
    View.set_slice_whole main_v37 (((cfg2 a2).win 0).rect t)
  have key : ∀ a : Fin 2, ((cfg2 a2).win 0).index t a * S8x128.size a ≤ (i a).val
      ∧ (i a).val < ((cfg2 a2).win 0).index t a * S8x128.size a + S8x128.size a := fun a =>
    match a with
    | ⟨0, _⟩ => by
      show ((cfg2 a2).win 0).index t (0 : Fin 2) * 8 ≤ (i 0).val ∧ (i 0).val < ((cfg2 a2).win 0).index t (0 : Fin 2) * 8 + 8
      rw [e0]; omega
    | ⟨1, _⟩ => by
      show ((cfg2 a2).win 0).index t (1 : Fin 2) * 128 ≤ (i 1).val ∧ (i 1).val < ((cfg2 a2).win 0).index t (1 : Fin 2) * 128 + 128
      rw [e1]; omega
  exact (Finset.ext_iff.mp hs i).mpr (Rect.mem_set_unit.mpr key)

/-- THE COVER: row r of the array lies in the block of point r / 8, and that point writes its block back. -/
theorem coverG2 (i : S85000x128.Idx) :
    ∃ t : Fin (cfg2 a2).N, ((cfg2 a2).win 0).flush t = true ∧ i ∈ (((cfg2 a2).win 0).blk t).view.set := by
  have hi0 : (i 0).val < 85000 := (i 0).isLt
  have ht : (i 0).val / 8 < (cfg2 a2).N := lt_of_lt_of_eq (by omega : (i 0).val / 8 < 10625) N_2.symm
  exact ⟨⟨(i 0).val / 8, ht⟩, flushG2 a2 _, mem_blkG2 a2 ⟨(i 0).val / 8, ht⟩ i
    (by show 8 * ((i 0).val / 8) ≤ (i 0).val ∧ (i 0).val < 8 * ((i 0).val / 8) + 8; omega)⟩

/-- THE ARRAY after the region: its row r is the source's row  row r. -/
theorem finalG2
    (hblk : ∀ c (t : Fin (cfg2 a2).N) (j : Fin 8) (l : Fin 128) (h : 8 * t.val + j.val < 85000),
      gblk c t (ValueIdx.ix2 j l) = T c (ValueIdx.ix2 (row c ⟨8 * t.val + j.val, h⟩) l))
    (c : Dev nD) :
    (datG2 V a2 gblk c).arrAt 0 (cfg2 a2).N
      = fun i : S85000x128.Idx => T c (ValueIdx.ix2 (row c (i 0)) (i 1)) :=
  (datG2 V a2 gblk c).arrAt_eq_of_cover 0 (outG2 T row c)
    (fun t _ => flushedG2_eq V a2 gblk T row hblk c t) (coverG2 a2)

/-- THE ARRAY, when the row numbers are the words of an index table tblw, each below 50000: row r is the source's row
    at the node that word r names (a word below 50000 names the node of that number). -/
theorem finalG2_node (tblw : IVec S85000 32) (hlt : ∀ k : S85000.Idx, (tblw k).toNat < 50000)
    (hblk : ∀ c (t : Fin (cfg2 a2).N) (j : Fin 8) (l : Fin 128) (h : 8 * t.val + j.val < 85000),
      gblk c t (ValueIdx.ix2 j l)
        = T c (ValueIdx.ix2 (⟨(tblw (ValueIdx.ix1 (⟨8 * t.val + j.val, h⟩ : Fin 85000))).toNat, hlt _⟩ : Fin 50000) l))
    (c : Dev nD) :
    (datG2 V a2 gblk c).arrAt 0 (cfg2 a2).N
      = fun i : S85000x128.Idx => T c (ValueIdx.ix2 (Cert.Spec.node (tblw (ValueIdx.ix1 (i 0)))) (i 1)) :=
  (finalG2 V a2 gblk T (fun _ p => ⟨(tblw (ValueIdx.ix1 p)).toNat, hlt _⟩) hblk c).trans
    (funext fun i => congrArg (fun p : Fin 50000 => T c (ValueIdx.ix2 p (i 1))) (Cert.Spec.node_of_lt (hlt _)).symm)

end Cert.KernelIdeal.Hand

end
-- ==== Proof.KI.GatherAt2.lean ====
/-
  Region 2 in the run: what it leaves, in terms of what the program's items before it left.

  Between the program's items core c's buffers hold the chain's valuations. Region 2's index table, as the region's
  proof data hold it, is the closed table of the launch memory, and every word of it is below 50000 when every word
  of the edge list is. So the region's output array holds, in its row r, the row — of the array the region reads — at
  the node that the table's word r names; and the array it reads is left as it was, which is as the item before the
  table's host stretch left it. No later item writes the output array before the host stretch that concatenates the
  gather outputs, so at that stretch's entry it holds the same rows (gat2: stated for whatever the array read holds).
-/
import proofs.«402049_j87351044866139_2_alg».proof.Proof.KI.Chain
import proofs.«402049_j87351044866139_2_alg».proof.Proof.KI.Carry
import proofs.«402049_j87351044866139_2_alg».proof.Proof.KI.GatherVal2
import proofs.«402049_j87351044866139_2_alg».proof.Proof.KI.Tables

set_option maxRecDepth 16384

noncomputable section

namespace Cert.KernelIdeal.Hand

open Cert.KernelIdeal Cert.KernelIdeal.Gen Cert.KernelIdeal.GenP
open Idealize.ShloMosaic Idealize.ShloMosaic.TcCoe
open Idealize.SL.Sem

variable {F : FTy → Type} [FloatOps F]
variable (m : (ℓ : Loc nD τ sig) → Buf (Elt F) ℓ)

/-- The index table the region's proof data hold is the closed table of the launch memory: the data hold what the
    chain's valuation at the region's entry has in the table's buffer, and that valuation is the run's own. -/
theorem tblwU2 : tblw2 (a2 m) = tbl2 m c₀ := by
  have h1 : tblw2 (a2 m) = (U7 m c₀ main_v36 : IVec S85000 32) := by
    unfold a2
    rfl
  have h2 : ∀ W : Valuation τ sig (Elt F), V7 m (outsU m) c₀ = W → (W main_v36 : IVec S85000 32) = tbl2 m c₀ :=
    fun W hW => by subst hW; exact tbl2_eq m (outsU m) c₀
  exact h1.trans (h2 (U7 m c₀) (V7_eq m c₀))

/-- The array the region reads, at the region's entry, is as the item before the table's host stretch left it. -/
theorem gin2 (c : Dev nD) : atTc (U7 m) c main_v33 = V6 m (outsU m) c main_v33 :=
  (congrFun (V7_eq m c) main_v33).symm.trans (V7_of m (outsU m) c main_v33 (by decide))

/-- THE ARRAY THE REGION READS is left as it was. -/
theorem gsrc2 (c : Dev nD) : V8 m (outsU m) c main_v33 = V6 m (outsU m) c main_v33 :=
  (congrFun (V8_eq m c) main_v33).trans ((U8_hbm m c).trans (gin2 m c))

/-- THE REGION'S OUTPUT: its row r is the row, of the array the region reads, at the node the table's word r names. -/
theorem g2_val (c : Dev nD) (hm : ∀ i : S2x800000.Idx, ((V0 m c main_arg1 : IVec S2x800000 32) i).toNat < 50000) :
    (V8 m (outsU m) c main_v37 : S85000x128.Idx → Elt F .f32)
      = fun i => (V6 m (outsU m) c main_v33 : S50000x128.Idx → Elt F .f32)
          (ValueIdx.ix2 (Cert.Spec.node (tbl2 m c (ValueIdx.ix1 (i 0)))) (i 1)) := by
  obtain rfl : c = c₀ := eq_c₀ c
  have hlt : ∀ k : S85000.Idx, (tblw2 (a2 m) k).toNat < 50000 := fun k => by
    rw [tblwU2]; exact tbl2_lt m c₀ hm k
  refine (congrFun (V8_eq m c₀) main_v37).trans ((U8_out m c₀).trans ?_)
  refine (finalG2_node (atTc (U7 m)) (a2 m) (gblk2 (atTc (U7 m)) (a2 m)) (fun c => V6 m (outsU m) c main_v33)
      (tblw2 (a2 m)) hlt
      (fun c t j l _ => (gblk2_apply (atTc (U7 m)) (a2 m) hlt c t j l).trans (congrFun (gin2 m c) _)) c₀).trans ?_
  rw [tblwU2]
  rfl

/-- THE REGION'S OUTPUT WHERE IT IS READ, at the entry of the host stretch that concatenates the gather outputs: the
    rows of T at the nodes the table names, when the array the region reads holds T. -/
theorem gat2 (c : Dev nD) (hm : ∀ i : S2x800000.Idx, ((V0 m c main_arg1 : IVec S2x800000 32) i).toNat < 50000)
    (T : S50000x128.Idx → Elt F .f32) (hT : V6 m (outsU m) c main_v33 = T) :
    (V24 m (outsU m) c main_v37 : S85000x128.Idx → Elt F .f32)
      = fun i => T (ValueIdx.ix2 (Cert.Spec.node (tbl2 m c (ValueIdx.ix1 (i 0)))) (i 1)) := by
  subst hT
  exact (carry2 m (outsU m) c).trans (g2_val m c hm)

end Cert.KernelIdeal.Hand

end
-- ==== Proof.KI.GatherVal3.lean ====
/-
  The value of the row-gather region 3: the array its output window leaves.

  At grid point t the region's output block holds, in its row j, the source's row  row (8 t + j).  The block sits at
  block index (t, 0) of the 85000 x 128 output array: it covers the rows 8 t … 8 t + 7 and all 128 columns. Every point
  writes its block back (the block index moves at every step), and row r of the array lies in the block of point r / 8,
  at the block's row r % 8. So the array ends with its row r equal to the source's row  row r,  for every r.

  The gathered block is taken abstractly here: any family of blocks that reads as above (the hypothesis of
  flushedG3_eq and finalG3) gives the array. When the row numbers are the words of an index table, each below 50000,
  row r of the array is the source's row at the node the table's word r names (finalG3_node).
-/
import proofs.«402049_j87351044866139_2_alg».proof.Proof.KI.Gather3
import proofs.«402049_j87351044866139_2_alg».proof.Proof.Spec
import Idealize.ShloMosaic.Lib.Pipeline.Value
import Idealize.ShloMosaic.Lib.ValueIdx

set_option maxRecDepth 16384

noncomputable section

namespace Cert.KernelIdeal.Hand

open Idealize.ShloMosaic Idealize.ShloMosaic.TcCoe
open Idealize.SL.Sem
open Idealize.ShloMosaic.Pipeline (Dat Cfg Window)
open Cert.KernelIdeal Cert.KernelIdeal.Gen

variable {F : FTy → Type} [FloatOps F]

variable (V : (c : Dev nD) → (b : Ref sig .tc) → Buf (Elt F) ((c : Thread nD τ).loc b))
variable (a3 : (pcfg3 (F := F)).Adm)
variable (gblk : (c : Dev nD) → Fin (cfg3 a3).N → S8x128.Idx → Elt F .f32)

/-! ## The grid and the output window's schedule -/

/-- The region's grid has 10625 points. -/
theorem ptsG3 (t : Fin (cfg3 a3).N) : t.val < 10625 := lt_of_lt_of_eq t.isLt N_3

/-- The grid has one axis, so point t has coordinate t. -/
theorem coordG3 (t : Fin (cfg3 a3).N) : (((cfg3 a3).grid.coords t) (0 : Fin 1)).val = t.val := by
  have hN := ptsG3 a3 t
  show t.val / (cfg3 a3).grid.stride (0 : Fin 1) % 10625 = t.val
  rw [show (cfg3 a3).grid.stride (0 : Fin 1) = 1 from rfl, Nat.div_one, Nat.mod_eq_of_lt hN]

/-- The output window's block index at point t is (t, 0). -/
theorem indexG3 (t : Fin (cfg3 a3).N) :
    ((cfg3 a3).win 0).index t (0 : Fin 2) = t.val ∧ ((cfg3 a3).win 0).index t (1 : Fin 2) = 0 := by
  have hN := ptsG3 a3 t
  refine ⟨?_, rfl⟩
  show (BitVec.ofNat 32 (((cfg3 a3).grid.coords t) (0 : Fin 1)).val).toNat = t.val
  rw [coordG3, BitVec.toNat_ofNat]
  exact Nat.mod_eq_of_lt (by omega)

/-- The block index moves at every step, so every point writes its block back. -/
theorem flushG3 (t : Fin (cfg3 a3).N) : ((cfg3 a3).win 0).flush t = true := by
  rw [Pipeline.Window.flush_out _ rfl]
  have ht : t.val < (cfg3 a3).grid.N := t.isLt
  by_cases h : t.val + 1 < (cfg3 a3).grid.N
  · refine .inr ⟨h, fun e => ?_⟩
    have e0 : ((cfg3 a3).win 0).index ⟨t.val + 1, h⟩ (0 : Fin 2) = ((cfg3 a3).win 0).index t (0 : Fin 2) :=
      congrFun e (0 : Fin 2)
    have e1 : ((cfg3 a3).win 0).index ⟨t.val + 1, h⟩ (0 : Fin 2) = t.val + 1 := (indexG3 a3 ⟨t.val + 1, h⟩).1
    have e2 : ((cfg3 a3).win 0).index t (0 : Fin 2) = t.val := (indexG3 a3 t).1
    omega
  · exact .inl (by omega)

/-! ## What a point writes back, and the array -/

variable (T : (c : Dev nD) → S50000x128.Idx → Elt F .f32) (row : (c : Dev nD) → Fin 85000 → Fin 50000)

/-- The array the region leaves on core c: its row r is the source's row  row r. -/
abbrev outG3 (c : Dev nD) : S85000x128.Idx → Elt F .f32 := fun i => T c (ValueIdx.ix2 (row c (i 0)) (i 1))

/-- One element of the block at point t is the array's element 8 t rows further down, in the same column. -/
theorem blockG3_apply
    (hblk : ∀ c (t : Fin (cfg3 a3).N) (j : Fin 8) (l : Fin 128) (h : 8 * t.val + j.val < 85000),
      gblk c t (ValueIdx.ix2 j l) = T c (ValueIdx.ix2 (row c ⟨8 * t.val + j.val, h⟩) l))
    (c : Dev nD) (t : Fin (cfg3 a3).N) (y : S8x128.Idx) (k : S85000x128.Idx)
    (hk0 : (k 0).val = 8 * t.val + (y 0).val) (hk1 : (k 1).val = (y 1).val) :
    gblk c t y = outG3 T row c k := by
  have hy0 : (y 0).val < 8 := (y 0).isLt
  have hN := ptsG3 a3 t
  have hb : 8 * t.val + (y 0).val < 85000 := by omega
  have h0 : (⟨8 * t.val + (y 0).val, hb⟩ : Fin 85000) = k 0 := Fin.ext hk0.symm
  have h1 : (y 1 : Fin 128) = k 1 := Fin.ext hk1.symm
  calc gblk c t y = gblk c t (ValueIdx.ix2 (y 0) (y 1)) := congrArg (gblk c t) (ValueIdx.eq_ix2 y)
    _ = T c (ValueIdx.ix2 (row c ⟨8 * t.val + (y 0).val, hb⟩) (y 1)) := hblk c t (y 0) (y 1) hb
    _ = outG3 T row c k := congrArg₂ (fun (p : Fin 85000) (l : Fin 128) => T c (ValueIdx.ix2 (row c p) l)) h0 h1

/-- WHAT POINT t WRITES BACK is block t of that array. -/
theorem flushedG3_eq
    (hblk : ∀ c (t : Fin (cfg3 a3).N) (j : Fin 8) (l : Fin 128) (h : 8 * t.val + j.val < 85000),
      gblk c t (ValueIdx.ix2 j l) = T c (ValueIdx.ix2 (row c ⟨8 * t.val + j.val, h⟩) l))
    (c : Dev nD) (t : Fin (cfg3 a3).N) :
    (datG3 V a3 gblk c).flushed 0 t = (((cfg3 a3).win 0).blk t).view.read (Elt F) (outG3 T row c) := by
  obtain ⟨e0, e1⟩ := indexG3 a3 t
  have key : ∀ y : S8x128.Idx, gblk c t y = outG3 T row c ((((cfg3 a3).win 0).blk t).view.emb y) := fun y =>
    blockG3_apply a3 gblk T row hblk c t y _
      (by show ((cfg3 a3).win 0).index t (0 : Fin 2) * 8 + 1 * (y 0).val = 8 * t.val + (y 0).val
          rw [e0]; omega)
      (by show ((cfg3 a3).win 0).index t (1 : Fin 2) * 128 + 1 * (y 1).val = (y 1).val
          rw [e1]; omega)
  exact funext key

/-- An index of the array whose row is among the rows 8 t … 8 t + 7 is in point t's block. -/
theorem mem_blkG3 (t : Fin (cfg3 a3).N) (i : S85000x128.Idx)
    (hi : 8 * t.val ≤ (i 0).val ∧ (i 0).val < 8 * t.val + 8) : i ∈ (((cfg3 a3).win 0).blk t).view.set := by
  obtain ⟨e0, e1⟩ := indexG3 a3 t
  have hi1 : (i 1).val < 128 := (i 1).isLt
  have hs : (((cfg3 a3).win 0).blk t).view.set = (((cfg3 a3).win 0).rect t).set :=
    View.set_slice_whole main_v39 (((cfg3 a3).win 0).rect t)
  have key : ∀ a : Fin 2, ((cfg3 a3).win 0).index t a * S8x128.size a ≤ (i a).val
      ∧ (i a).val < ((cfg3 a3).win 0).index t a * S8x128.size a + S8x128.size a := fun a =>
    match a with
    | ⟨0, _⟩ => by
      show ((cfg3 a3).win 0).index t (0 : Fin 2) * 8 ≤ (i 0).val ∧ (i 0).val < ((cfg3 a3).win 0).index t (0 : Fin 2) * 8 + 8
      rw [e0]; omega
    | ⟨1, _⟩ => by
      show ((cfg3 a3).win 0).index t (1 : Fin 2) * 128 ≤ (i 1).val ∧ (i 1).val < ((cfg3 a3).win 0).index t (1 : Fin 2) * 128 + 128
      rw [e1]; omega
  exact (Finset.ext_iff.mp hs i).mpr (Rect.mem_set_unit.mpr key)

/-- THE COVER: row r of the array lies in the block of point r / 8, and that point writes its block back. -/
theorem coverG3 (i : S85000x128.Idx) :
    ∃ t : Fin (cfg3 a3).N, ((cfg3 a3).win 0).flush t = true ∧ i ∈ (((cfg3 a3).win 0).blk t).view.set := by
  have hi0 : (i 0).val < 85000 := (i 0).isLt
  have ht : (i 0).val / 8 < (cfg3 a3).N := lt_of_lt_of_eq (by omega : (i 0).val / 8 < 10625) N_3.symm
  exact ⟨⟨(i 0).val / 8, ht⟩, flushG3 a3 _, mem_blkG3 a3 ⟨(i 0).val / 8, ht⟩ i
    (by show 8 * ((i 0).val / 8) ≤ (i 0).val ∧ (i 0).val < 8 * ((i 0).val / 8) + 8; omega)⟩

/-- THE ARRAY after the region: its row r is the source's row  row r. -/
theorem finalG3
    (hblk : ∀ c (t : Fin (cfg3 a3).N) (j : Fin 8) (l : Fin 128) (h : 8 * t.val + j.val < 85000),
      gblk c t (ValueIdx.ix2 j l) = T c (ValueIdx.ix2 (row c ⟨8 * t.val + j.val, h⟩) l))
    (c : Dev nD) :
    (datG3 V a3 gblk c).arrAt 0 (cfg3 a3).N
      = fun i : S85000x128.Idx => T c (ValueIdx.ix2 (row c (i 0)) (i 1)) :=
  (datG3 V a3 gblk c).arrAt_eq_of_cover 0 (outG3 T row c)
    (fun t _ => flushedG3_eq V a3 gblk T row hblk c t) (coverG3 a3)

/-- THE ARRAY, when the row numbers are the words of an index table tblw, each below 50000: row r is the source's row
    at the node that word r names (a word below 50000 names the node of that number). -/
theorem finalG3_node (tblw : IVec S85000 32) (hlt : ∀ k : S85000.Idx, (tblw k).toNat < 50000)
    (hblk : ∀ c (t : Fin (cfg3 a3).N) (j : Fin 8) (l : Fin 128) (h : 8 * t.val + j.val < 85000),
      gblk c t (ValueIdx.ix2 j l)
        = T c (ValueIdx.ix2 (⟨(tblw (ValueIdx.ix1 (⟨8 * t.val + j.val, h⟩ : Fin 85000))).toNat, hlt _⟩ : Fin 50000) l))
    (c : Dev nD) :
    (datG3 V a3 gblk c).arrAt 0 (cfg3 a3).N
      = fun i : S85000x128.Idx => T c (ValueIdx.ix2 (Cert.Spec.node (tblw (ValueIdx.ix1 (i 0)))) (i 1)) :=
  (finalG3 V a3 gblk T (fun _ p => ⟨(tblw (ValueIdx.ix1 p)).toNat, hlt _⟩) hblk c).trans
    (funext fun i => congrArg (fun p : Fin 50000 => T c (ValueIdx.ix2 p (i 1))) (Cert.Spec.node_of_lt (hlt _)).symm)

end Cert.KernelIdeal.Hand

end
-- ==== Proof.KI.GatherAt3.lean ====
/-
  Region 3 in the run: what it leaves, in terms of what the program's items before it left.

  Between the program's items core c's buffers hold the chain's valuations. Region 3's index table, as the region's
  proof data hold it, is the closed table of the launch memory, and every word of it is below 50000 when every word
  of the edge list is. So the region's output array holds, in its row r, the row — of the array the region reads — at
  the node that the table's word r names; and the array it reads is left as it was, which is as the item before the
  table's host stretch left it. No later item writes the output array before the host stretch that concatenates the
  gather outputs, so at that stretch's entry it holds the same rows (gat3: stated for whatever the array read holds).
-/
import proofs.«402049_j87351044866139_2_alg».proof.Proof.KI.Chain
import proofs.«402049_j87351044866139_2_alg».proof.Proof.KI.Carry
import proofs.«402049_j87351044866139_2_alg».proof.Proof.KI.GatherVal3
import proofs.«402049_j87351044866139_2_alg».proof.Proof.KI.Tables

set_option maxRecDepth 16384

noncomputable section

namespace Cert.KernelIdeal.Hand

open Cert.KernelIdeal Cert.KernelIdeal.Gen Cert.KernelIdeal.GenP
open Idealize.ShloMosaic Idealize.ShloMosaic.TcCoe
open Idealize.SL.Sem

variable {F : FTy → Type} [FloatOps F]
variable (m : (ℓ : Loc nD τ sig) → Buf (Elt F) ℓ)

/-- The index table the region's proof data hold is the closed table of the launch memory: the data hold what the
    chain's valuation at the region's entry has in the table's buffer, and that valuation is the run's own. -/
theorem tblwU3 : tblw3 (a3 m) = tbl3 m c₀ := by
  have h1 : tblw3 (a3 m) = (U9 m c₀ main_v38 : IVec S85000 32) := by
    unfold a3
    rfl
  have h2 : ∀ W : Valuation τ sig (Elt F), V9 m (outsU m) c₀ = W → (W main_v38 : IVec S85000 32) = tbl3 m c₀ :=
    fun W hW => by subst hW; exact tbl3_eq m (outsU m) c₀
  exact h1.trans (h2 (U9 m c₀) (V9_eq m c₀))

/-- The array the region reads, at the region's entry, is as the item before the table's host stretch left it. -/
theorem gin3 (c : Dev nD) : atTc (U9 m) c main_v33 = V8 m (outsU m) c main_v33 :=
  (congrFun (V9_eq m c) main_v33).symm.trans (V9_of m (outsU m) c main_v33 (by decide))

/-- THE ARRAY THE REGION READS is left as it was. -/
theorem gsrc3 (c : Dev nD) : V10 m (outsU m) c main_v33 = V8 m (outsU m) c main_v33 :=
  (congrFun (V10_eq m c) main_v33).trans ((U10_hbm m c).trans (gin3 m c))

/-- THE REGION'S OUTPUT: its row r is the row, of the array the region reads, at the node the table's word r names. -/
theorem g3_val (c : Dev nD) (hm : ∀ i : S2x800000.Idx, ((V0 m c main_arg1 : IVec S2x800000 32) i).toNat < 50000) :
    (V10 m (outsU m) c main_v39 : S85000x128.Idx → Elt F .f32)
      = fun i => (V8 m (outsU m) c main_v33 : S50000x128.Idx → Elt F .f32)
          (ValueIdx.ix2 (Cert.Spec.node (tbl3 m c (ValueIdx.ix1 (i 0)))) (i 1)) := by
  obtain rfl : c = c₀ := eq_c₀ c
  have hlt : ∀ k : S85000.Idx, (tblw3 (a3 m) k).toNat < 50000 := fun k => by
    rw [tblwU3]; exact tbl3_lt m c₀ hm k
  refine (congrFun (V10_eq m c₀) main_v39).trans ((U10_out m c₀).trans ?_)
  refine (finalG3_node (atTc (U9 m)) (a3 m) (gblk3 (atTc (U9 m)) (a3 m)) (fun c => V8 m (outsU m) c main_v33)
      (tblw3 (a3 m)) hlt
      (fun c t j l _ => (gblk3_apply (atTc (U9 m)) (a3 m) hlt c t j l).trans (congrFun (gin3 m c) _)) c₀).trans ?_
  rw [tblwU3]
  rfl

/-- THE REGION'S OUTPUT WHERE IT IS READ, at the entry of the host stretch that concatenates the gather outputs: the
    rows of T at the nodes the table names, when the array the region reads holds T. -/
theorem gat3 (c : Dev nD) (hm : ∀ i : S2x800000.Idx, ((V0 m c main_arg1 : IVec S2x800000 32) i).toNat < 50000)
    (T : S50000x128.Idx → Elt F .f32) (hT : V8 m (outsU m) c main_v33 = T) :
    (V24 m (outsU m) c main_v39 : S85000x128.Idx → Elt F .f32)
      = fun i => T (ValueIdx.ix2 (Cert.Spec.node (tbl3 m c (ValueIdx.ix1 (i 0)))) (i 1)) := by
  subst hT
  exact (carry3 m (outsU m) c).trans (g3_val m c hm)

end Cert.KernelIdeal.Hand

end
-- ==== Proof.KI.GatherVal4.lean ====
/-
  The value of the row-gather region 4: the array its output window leaves.

  At grid point t the region's output block holds, in its row j, the source's row  row (8 t + j).  The block sits at
  block index (t, 0) of the 85000 x 128 output array: it covers the rows 8 t … 8 t + 7 and all 128 columns. Every point
  writes its block back (the block index moves at every step), and row r of the array lies in the block of point r / 8,
  at the block's row r % 8. So the array ends with its row r equal to the source's row  row r,  for every r.

  The gathered block is taken abstractly here: any family of blocks that reads as above (the hypothesis of
  flushedG4_eq and finalG4) gives the array. When the row numbers are the words of an index table, each below 50000,
  row r of the array is the source's row at the node the table's word r names (finalG4_node).
-/
import proofs.«402049_j87351044866139_2_alg».proof.Proof.KI.Gather4
import proofs.«402049_j87351044866139_2_alg».proof.Proof.Spec
import Idealize.ShloMosaic.Lib.Pipeline.Value
import Idealize.ShloMosaic.Lib.ValueIdx

set_option maxRecDepth 16384

noncomputable section

namespace Cert.KernelIdeal.Hand

open Idealize.ShloMosaic Idealize.ShloMosaic.TcCoe
open Idealize.SL.Sem
open Idealize.ShloMosaic.Pipeline (Dat Cfg Window)
open Cert.KernelIdeal Cert.KernelIdeal.Gen

variable {F : FTy → Type} [FloatOps F]

variable (V : (c : Dev nD) → (b : Ref sig .tc) → Buf (Elt F) ((c : Thread nD τ).loc b))
variable (a4 : (pcfg4 (F := F)).Adm)
variable (gblk : (c : Dev nD) → Fin (cfg4 a4).N → S8x128.Idx → Elt F .f32)

/-! ## The grid and the output window's schedule -/

/-- The region's grid has 10625 points. -/
theorem ptsG4 (t : Fin (cfg4 a4).N) : t.val < 10625 := lt_of_lt_of_eq t.isLt N_4

/-- The grid has one axis, so point t has coordinate t. -/
theorem coordG4 (t : Fin (cfg4 a4).N) : (((cfg4 a4).grid.coords t) (0 : Fin 1)).val = t.val := by
  have hN := ptsG4 a4 t
  show t.val / (cfg4 a4).grid.stride (0 : Fin 1) % 10625 = t.val
  rw [show (cfg4 a4).grid.stride (0 : Fin 1) = 1 from rfl, Nat.div_one, Nat.mod_eq_of_lt hN]

/-- The output window's block index at point t is (t, 0). -/
theorem indexG4 (t : Fin (cfg4 a4).N) :
    ((cfg4 a4).win 0).index t (0 : Fin 2) = t.val ∧ ((cfg4 a4).win 0).index t (1 : Fin 2) = 0 := by
  have hN := ptsG4 a4 t
  refine ⟨?_, rfl⟩
  show (BitVec.ofNat 32 (((cfg4 a4).grid.coords t) (0 : Fin 1)).val).toNat = t.val
  rw [coordG4, BitVec.toNat_ofNat]
  exact Nat.mod_eq_of_lt (by omega)

/-- The block index moves at every step, so every point writes its block back. -/
theorem flushG4 (t : Fin (cfg4 a4).N) : ((cfg4 a4).win 0).flush t = true := by
  rw [Pipeline.Window.flush_out _ rfl]
  have ht : t.val < (cfg4 a4).grid.N := t.isLt
  by_cases h : t.val + 1 < (cfg4 a4).grid.N
  · refine .inr ⟨h, fun e => ?_⟩
    have e0 : ((cfg4 a4).win 0).index ⟨t.val + 1, h⟩ (0 : Fin 2) = ((cfg4 a4).win 0).index t (0 : Fin 2) :=
      congrFun e (0 : Fin 2)
    have e1 : ((cfg4 a4).win 0).index ⟨t.val + 1, h⟩ (0 : Fin 2) = t.val + 1 := (indexG4 a4 ⟨t.val + 1, h⟩).1
    have e2 : ((cfg4 a4).win 0).index t (0 : Fin 2) = t.val := (indexG4 a4 t).1
    omega
  · exact .inl (by omega)

/-! ## What a point writes back, and the array -/

variable (T : (c : Dev nD) → S50000x128.Idx → Elt F .f32) (row : (c : Dev nD) → Fin 85000 → Fin 50000)

/-- The array the region leaves on core c: its row r is the source's row  row r. -/
abbrev outG4 (c : Dev nD) : S85000x128.Idx → Elt F .f32 := fun i => T c (ValueIdx.ix2 (row c (i 0)) (i 1))

/-- One element of the block at point t is the array's element 8 t rows further down, in the same column. -/
theorem blockG4_apply
    (hblk : ∀ c (t : Fin (cfg4 a4).N) (j : Fin 8) (l : Fin 128) (h : 8 * t.val + j.val < 85000),
      gblk c t (ValueIdx.ix2 j l) = T c (ValueIdx.ix2 (row c ⟨8 * t.val + j.val, h⟩) l))
    (c : Dev nD) (t : Fin (cfg4 a4).N) (y : S8x128.Idx) (k : S85000x128.Idx)
    (hk0 : (k 0).val = 8 * t.val + (y 0).val) (hk1 : (k 1).val = (y 1).val) :
    gblk c t y = outG4 T row c k := by
  have hy0 : (y 0).val < 8 := (y 0).isLt
  have hN := ptsG4 a4 t
  have hb : 8 * t.val + (y 0).val < 85000 := by omega
  have h0 : (⟨8 * t.val + (y 0).val, hb⟩ : Fin 85000) = k 0 := Fin.ext hk0.symm
  have h1 : (y 1 : Fin 128) = k 1 := Fin.ext hk1.symm
  calc gblk c t y = gblk c t (ValueIdx.ix2 (y 0) (y 1)) := congrArg (gblk c t) (ValueIdx.eq_ix2 y)
    _ = T c (ValueIdx.ix2 (row c ⟨8 * t.val + (y 0).val, hb⟩) (y 1)) := hblk c t (y 0) (y 1) hb
    _ = outG4 T row c k := congrArg₂ (fun (p : Fin 85000) (l : Fin 128) => T c (ValueIdx.ix2 (row c p) l)) h0 h1

/-- WHAT POINT t WRITES BACK is block t of that array. -/
theorem flushedG4_eq
    (hblk : ∀ c (t : Fin (cfg4 a4).N) (j : Fin 8) (l : Fin 128) (h : 8 * t.val + j.val < 85000),
      gblk c t (ValueIdx.ix2 j l) = T c (ValueIdx.ix2 (row c ⟨8 * t.val + j.val, h⟩) l))
    (c : Dev nD) (t : Fin (cfg4 a4).N) :
    (datG4 V a4 gblk c).flushed 0 t = (((cfg4 a4).win 0).blk t).view.read (Elt F) (outG4 T row c) := by
  obtain ⟨e0, e1⟩ := indexG4 a4 t
  have key : ∀ y : S8x128.Idx, gblk c t y = outG4 T row c ((((cfg4 a4).win 0).blk t).view.emb y) := fun y =>
    blockG4_apply a4 gblk T row hblk c t y _
      (by show ((cfg4 a4).win 0).index t (0 : Fin 2) * 8 + 1 * (y 0).val = 8 * t.val + (y 0).val
          rw [e0]; omega)
      (by show ((cfg4 a4).win 0).index t (1 : Fin 2) * 128 + 1 * (y 1).val = (y 1).val
          rw [e1]; omega)
  exact funext key

/-- An index of the array whose row is among the rows 8 t … 8 t + 7 is in point t's block. -/
theorem mem_blkG4 (t : Fin (cfg4 a4).N) (i : S85000x128.Idx)
    (hi : 8 * t.val ≤ (i 0).val ∧ (i 0).val < 8 * t.val + 8) : i ∈ (((cfg4 a4).win 0).blk t).view.set := by
  obtain ⟨e0, e1⟩ := indexG4 a4 t
  have hi1 : (i 1).val < 128 := (i 1).isLt
  have hs : (((cfg4 a4).win 0).blk t).view.set = (((cfg4 a4).win 0).rect t).set :=
    View.set_slice_whole main_v41 (((cfg4 a4).win 0).rect t)
  have key : ∀ a : Fin 2, ((cfg4 a4).win 0).index t a * S8x128.size a ≤ (i a).val
      ∧ (i a).val < ((cfg4 a4).win 0).index t a * S8x128.size a + S8x128.size a := fun a =>
    match a with
    | ⟨0, _⟩ => by
      show ((cfg4 a4).win 0).index t (0 : Fin 2) * 8 ≤ (i 0).val ∧ (i 0).val < ((cfg4 a4).win 0).index t (0 : Fin 2) * 8 + 8
      rw [e0]; omega
    | ⟨1, _⟩ => by
      show ((cfg4 a4).win 0).index t (1 : Fin 2) * 128 ≤ (i 1).val ∧ (i 1).val < ((cfg4 a4).win 0).index t (1 : Fin 2) * 128 + 128
      rw [e1]; omega
  exact (Finset.ext_iff.mp hs i).mpr (Rect.mem_set_unit.mpr key)

/-- THE COVER: row r of the array lies in the block of point r / 8, and that point writes its block back. -/
theorem coverG4 (i : S85000x128.Idx) :
    ∃ t : Fin (cfg4 a4).N, ((cfg4 a4).win 0).flush t = true ∧ i ∈ (((cfg4 a4).win 0).blk t).view.set := by
  have hi0 : (i 0).val < 85000 := (i 0).isLt
  have ht : (i 0).val / 8 < (cfg4 a4).N := lt_of_lt_of_eq (by omega : (i 0).val / 8 < 10625) N_4.symm
  exact ⟨⟨(i 0).val / 8, ht⟩, flushG4 a4 _, mem_blkG4 a4 ⟨(i 0).val / 8, ht⟩ i
    (by show 8 * ((i 0).val / 8) ≤ (i 0).val ∧ (i 0).val < 8 * ((i 0).val / 8) + 8; omega)⟩

/-- THE ARRAY after the region: its row r is the source's row  row r. -/
theorem finalG4
    (hblk : ∀ c (t : Fin (cfg4 a4).N) (j : Fin 8) (l : Fin 128) (h : 8 * t.val + j.val < 85000),
      gblk c t (ValueIdx.ix2 j l) = T c (ValueIdx.ix2 (row c ⟨8 * t.val + j.val, h⟩) l))
    (c : Dev nD) :
    (datG4 V a4 gblk c).arrAt 0 (cfg4 a4).N
      = fun i : S85000x128.Idx => T c (ValueIdx.ix2 (row c (i 0)) (i 1)) :=
  (datG4 V a4 gblk c).arrAt_eq_of_cover 0 (outG4 T row c)
    (fun t _ => flushedG4_eq V a4 gblk T row hblk c t) (coverG4 a4)

/-- THE ARRAY, when the row numbers are the words of an index table tblw, each below 50000: row r is the source's row
    at the node that word r names (a word below 50000 names the node of that number). -/
theorem finalG4_node (tblw : IVec S85000 32) (hlt : ∀ k : S85000.Idx, (tblw k).toNat < 50000)
    (hblk : ∀ c (t : Fin (cfg4 a4).N) (j : Fin 8) (l : Fin 128) (h : 8 * t.val + j.val < 85000),
      gblk c t (ValueIdx.ix2 j l)
        = T c (ValueIdx.ix2 (⟨(tblw (ValueIdx.ix1 (⟨8 * t.val + j.val, h⟩ : Fin 85000))).toNat, hlt _⟩ : Fin 50000) l))
    (c : Dev nD) :
    (datG4 V a4 gblk c).arrAt 0 (cfg4 a4).N
      = fun i : S85000x128.Idx => T c (ValueIdx.ix2 (Cert.Spec.node (tblw (ValueIdx.ix1 (i 0)))) (i 1)) :=
  (finalG4 V a4 gblk T (fun _ p => ⟨(tblw (ValueIdx.ix1 p)).toNat, hlt _⟩) hblk c).trans
    (funext fun i => congrArg (fun p : Fin 50000 => T c (ValueIdx.ix2 p (i 1))) (Cert.Spec.node_of_lt (hlt _)).symm)

end Cert.KernelIdeal.Hand

end
-- ==== Proof.KI.GatherAt4.lean ====
/-
  Region 4 in the run: what it leaves, in terms of what the program's items before it left.

  Between the program's items core c's buffers hold the chain's valuations. Region 4's index table, as the region's
  proof data hold it, is the closed table of the launch memory, and every word of it is below 50000 when every word
  of the edge list is. So the region's output array holds, in its row r, the row — of the array the region reads — at
  the node that the table's word r names; and the array it reads is left as it was, which is as the item before the
  table's host stretch left it. No later item writes the output array before the host stretch that concatenates the
  gather outputs, so at that stretch's entry it holds the same rows (gat4: stated for whatever the array read holds).
-/
import proofs.«402049_j87351044866139_2_alg».proof.Proof.KI.Chain
import proofs.«402049_j87351044866139_2_alg».proof.Proof.KI.Carry
import proofs.«402049_j87351044866139_2_alg».proof.Proof.KI.GatherVal4
import proofs.«402049_j87351044866139_2_alg».proof.Proof.KI.Tables

set_option maxRecDepth 16384

noncomputable section

namespace Cert.KernelIdeal.Hand

open Cert.KernelIdeal Cert.KernelIdeal.Gen Cert.KernelIdeal.GenP
open Idealize.ShloMosaic Idealize.ShloMosaic.TcCoe
open Idealize.SL.Sem

variable {F : FTy → Type} [FloatOps F]
variable (m : (ℓ : Loc nD τ sig) → Buf (Elt F) ℓ)

/-- The index table the region's proof data hold is the closed table of the launch memory: the data hold what the
    chain's valuation at the region's entry has in the table's buffer, and that valuation is the run's own. -/
theorem tblwU4 : tblw4 (a4 m) = tbl4 m c₀ := by
  have h1 : tblw4 (a4 m) = (U11 m c₀ main_v40 : IVec S85000 32) := by
    unfold a4
    rfl
  have h2 : ∀ W : Valuation τ sig (Elt F), V11 m (outsU m) c₀ = W → (W main_v40 : IVec S85000 32) = tbl4 m c₀ :=
    fun W hW => by subst hW; exact tbl4_eq m (outsU m) c₀
  exact h1.trans (h2 (U11 m c₀) (V11_eq m c₀))

/-- The array the region reads, at the region's entry, is as the item before the table's host stretch left it. -/
theorem gin4 (c : Dev nD) : atTc (U11 m) c main_v33 = V10 m (outsU m) c main_v33 :=
  (congrFun (V11_eq m c) main_v33).symm.trans (V11_of m (outsU m) c main_v33 (by decide))

/-- THE ARRAY THE REGION READS is left as it was. -/
theorem gsrc4 (c : Dev nD) : V12 m (outsU m) c main_v33 = V10 m (outsU m) c main_v33 :=
  (congrFun (V12_eq m c) main_v33).trans ((U12_hbm m c).trans (gin4 m c))

/-- THE REGION'S OUTPUT: its row r is the row, of the array the region reads, at the node the table's word r names. -/
theorem g4_val (c : Dev nD) (hm : ∀ i : S2x800000.Idx, ((V0 m c main_arg1 : IVec S2x800000 32) i).toNat < 50000) :
    (V12 m (outsU m) c main_v41 : S85000x128.Idx → Elt F .f32)
      = fun i => (V10 m (outsU m) c main_v33 : S50000x128.Idx → Elt F .f32)
          (ValueIdx.ix2 (Cert.Spec.node (tbl4 m c (ValueIdx.ix1 (i 0)))) (i 1)) := by
  obtain rfl : c = c₀ := eq_c₀ c
  have hlt : ∀ k : S85000.Idx, (tblw4 (a4 m) k).toNat < 50000 := fun k => by
    rw [tblwU4]; exact tbl4_lt m c₀ hm k
  refine (congrFun (V12_eq m c₀) main_v41).trans ((U12_out m c₀).trans ?_)
  refine (finalG4_node (atTc (U11 m)) (a4 m) (gblk4 (atTc (U11 m)) (a4 m)) (fun c => V10 m (outsU m) c main_v33)
      (tblw4 (a4 m)) hlt
      (fun c t j l _ => (gblk4_apply (atTc (U11 m)) (a4 m) hlt c t j l).trans (congrFun (gin4 m c) _)) c₀).trans ?_
  rw [tblwU4]
  rfl

/-- THE REGION'S OUTPUT WHERE IT IS READ, at the entry of the host stretch that concatenates the gather outputs: the
    rows of T at the nodes the table names, when the array the region reads holds T. -/
theorem gat4 (c : Dev nD) (hm : ∀ i : S2x800000.Idx, ((V0 m c main_arg1 : IVec S2x800000 32) i).toNat < 50000)
    (T : S50000x128.Idx → Elt F .f32) (hT : V10 m (outsU m) c main_v33 = T) :
    (V24 m (outsU m) c main_v41 : S85000x128.Idx → Elt F .f32)
      = fun i => T (ValueIdx.ix2 (Cert.Spec.node (tbl4 m c (ValueIdx.ix1 (i 0)))) (i 1)) := by
  subst hT
  exact (carry4 m (outsU m) c).trans (g4_val m c hm)

end Cert.KernelIdeal.Hand

end
-- ==== Proof.KI.GatherVal5.lean ====
/-
  The value of the row-gather region 5: the array its output window leaves.

  At grid point t the region's output block holds, in its row j, the source's row  row (8 t + j).  The block sits at
  block index (t, 0) of the 85000 x 128 output array: it covers the rows 8 t … 8 t + 7 and all 128 columns. Every point
  writes its block back (the block index moves at every step), and row r of the array lies in the block of point r / 8,
  at the block's row r % 8. So the array ends with its row r equal to the source's row  row r,  for every r.

  The gathered block is taken abstractly here: any family of blocks that reads as above (the hypothesis of
  flushedG5_eq and finalG5) gives the array. When the row numbers are the words of an index table, each below 50000,
  row r of the array is the source's row at the node the table's word r names (finalG5_node).
-/
import proofs.«402049_j87351044866139_2_alg».proof.Proof.KI.Gather5
import proofs.«402049_j87351044866139_2_alg».proof.Proof.Spec
import Idealize.ShloMosaic.Lib.Pipeline.Value
import Idealize.ShloMosaic.Lib.ValueIdx

set_option maxRecDepth 16384

noncomputable section

namespace Cert.KernelIdeal.Hand

open Idealize.ShloMosaic Idealize.ShloMosaic.TcCoe
open Idealize.SL.Sem
open Idealize.ShloMosaic.Pipeline (Dat Cfg Window)
open Cert.KernelIdeal Cert.KernelIdeal.Gen

variable {F : FTy → Type} [FloatOps F]

variable (V : (c : Dev nD) → (b : Ref sig .tc) → Buf (Elt F) ((c : Thread nD τ).loc b))
variable (a5 : (pcfg5 (F := F)).Adm)
variable (gblk : (c : Dev nD) → Fin (cfg5 a5).N → S8x128.Idx → Elt F .f32)

/-! ## The grid and the output window's schedule -/

/-- The region's grid has 10625 points. -/
theorem ptsG5 (t : Fin (cfg5 a5).N) : t.val < 10625 := lt_of_lt_of_eq t.isLt N_5

/-- The grid has one axis, so point t has coordinate t. -/
theorem coordG5 (t : Fin (cfg5 a5).N) : (((cfg5 a5).grid.coords t) (0 : Fin 1)).val = t.val := by
  have hN := ptsG5 a5 t
  show t.val / (cfg5 a5).grid.stride (0 : Fin 1) % 10625 = t.val
  rw [show (cfg5 a5).grid.stride (0 : Fin 1) = 1 from rfl, Nat.div_one, Nat.mod_eq_of_lt hN]

/-- The output window's block index at point t is (t, 0). -/
theorem indexG5 (t : Fin (cfg5 a5).N) :
    ((cfg5 a5).win 0).index t (0 : Fin 2) = t.val ∧ ((cfg5 a5).win 0).index t (1 : Fin 2) = 0 := by
  have hN := ptsG5 a5 t
  refine ⟨?_, rfl⟩
  show (BitVec.ofNat 32 (((cfg5 a5).grid.coords t) (0 : Fin 1)).val).toNat = t.val
  rw [coordG5, BitVec.toNat_ofNat]
  exact Nat.mod_eq_of_lt (by omega)

/-- The block index moves at every step, so every point writes its block back. -/
theorem flushG5 (t : Fin (cfg5 a5).N) : ((cfg5 a5).win 0).flush t = true := by
  rw [Pipeline.Window.flush_out _ rfl]
  have ht : t.val < (cfg5 a5).grid.N := t.isLt
  by_cases h : t.val + 1 < (cfg5 a5).grid.N
  · refine .inr ⟨h, fun e => ?_⟩
    have e0 : ((cfg5 a5).win 0).index ⟨t.val + 1, h⟩ (0 : Fin 2) = ((cfg5 a5).win 0).index t (0 : Fin 2) :=
      congrFun e (0 : Fin 2)
    have e1 : ((cfg5 a5).win 0).index ⟨t.val + 1, h⟩ (0 : Fin 2) = t.val + 1 := (indexG5 a5 ⟨t.val + 1, h⟩).1
    have e2 : ((cfg5 a5).win 0).index t (0 : Fin 2) = t.val := (indexG5 a5 t).1
    omega
  · exact .inl (by omega)

/-! ## What a point writes back, and the array -/

variable (T : (c : Dev nD) → S50000x128.Idx → Elt F .f32) (row : (c : Dev nD) → Fin 85000 → Fin 50000)

/-- The array the region leaves on core c: its row r is the source's row  row r. -/
abbrev outG5 (c : Dev nD) : S85000x128.Idx → Elt F .f32 := fun i => T c (ValueIdx.ix2 (row c (i 0)) (i 1))

/-- One element of the block at point t is the array's element 8 t rows further down, in the same column. -/
theorem blockG5_apply
    (hblk : ∀ c (t : Fin (cfg5 a5).N) (j : Fin 8) (l : Fin 128) (h : 8 * t.val + j.val < 85000),
      gblk c t (ValueIdx.ix2 j l) = T c (ValueIdx.ix2 (row c ⟨8 * t.val + j.val, h⟩) l))
    (c : Dev nD) (t : Fin (cfg5 a5).N) (y : S8x128.Idx) (k : S85000x128.Idx)
    (hk0 : (k 0).val = 8 * t.val + (y 0).val) (hk1 : (k 1).val = (y 1).val) :
    gblk c t y = outG5 T row c k := by
  have hy0 : (y 0).val < 8 := (y 0).isLt
  have hN := ptsG5 a5 t
  have hb : 8 * t.val + (y 0).val < 85000 := by omega
  have h0 : (⟨8 * t.val + (y 0).val, hb⟩ : Fin 85000) = k 0 := Fin.ext hk0.symm
  have h1 : (y 1 : Fin 128) = k 1 := Fin.ext hk1.symm
  calc gblk c t y = gblk c t (ValueIdx.ix2 (y 0) (y 1)) := congrArg (gblk c t) (ValueIdx.eq_ix2 y)
    _ = T c (ValueIdx.ix2 (row c ⟨8 * t.val + (y 0).val, hb⟩) (y 1)) := hblk c t (y 0) (y 1) hb
    _ = outG5 T row c k := congrArg₂ (fun (p : Fin 85000) (l : Fin 128) => T c (ValueIdx.ix2 (row c p) l)) h0 h1

/-- WHAT POINT t WRITES BACK is block t of that array. -/
theorem flushedG5_eq
    (hblk : ∀ c (t : Fin (cfg5 a5).N) (j : Fin 8) (l : Fin 128) (h : 8 * t.val + j.val < 85000),
      gblk c t (ValueIdx.ix2 j l) = T c (ValueIdx.ix2 (row c ⟨8 * t.val + j.val, h⟩) l))
    (c : Dev nD) (t : Fin (cfg5 a5).N) :
    (datG5 V a5 gblk c).flushed 0 t = (((cfg5 a5).win 0).blk t).view.read (Elt F) (outG5 T row c) := by
  obtain ⟨e0, e1⟩ := indexG5 a5 t
  have key : ∀ y : S8x128.Idx, gblk c t y = outG5 T row c ((((cfg5 a5).win 0).blk t).view.emb y) := fun y =>
    blockG5_apply a5 gblk T row hblk c t y _
      (by show ((cfg5 a5).win 0).index t (0 : Fin 2) * 8 + 1 * (y 0).val = 8 * t.val + (y 0).val
          rw [e0]; omega)
      (by show ((cfg5 a5).win 0).index t (1 : Fin 2) * 128 + 1 * (y 1).val = (y 1).val
          rw [e1]; omega)
  exact funext key

/-- An index of the array whose row is among the rows 8 t … 8 t + 7 is in point t's block. -/
theorem mem_blkG5 (t : Fin (cfg5 a5).N) (i : S85000x128.Idx)
    (hi : 8 * t.val ≤ (i 0).val ∧ (i 0).val < 8 * t.val + 8) : i ∈ (((cfg5 a5).win 0).blk t).view.set := by
  obtain ⟨e0, e1⟩ := indexG5 a5 t
  have hi1 : (i 1).val < 128 := (i 1).isLt
  have hs : (((cfg5 a5).win 0).blk t).view.set = (((cfg5 a5).win 0).rect t).set :=
    View.set_slice_whole main_v43 (((cfg5 a5).win 0).rect t)
  have key : ∀ a : Fin 2, ((cfg5 a5).win 0).index t a * S8x128.size a ≤ (i a).val
      ∧ (i a).val < ((cfg5 a5).win 0).index t a * S8x128.size a + S8x128.size a := fun a =>
    match a with
    | ⟨0, _⟩ => by
      show ((cfg5 a5).win 0).index t (0 : Fin 2) * 8 ≤ (i 0).val ∧ (i 0).val < ((cfg5 a5).win 0).index t (0 : Fin 2) * 8 + 8
      rw [e0]; omega
    | ⟨1, _⟩ => by
      show ((cfg5 a5).win 0).index t (1 : Fin 2) * 128 ≤ (i 1).val ∧ (i 1).val < ((cfg5 a5).win 0).index t (1 : Fin 2) * 128 + 128
      rw [e1]; omega
  exact (Finset.ext_iff.mp hs i).mpr (Rect.mem_set_unit.mpr key)

/-- THE COVER: row r of the array lies in the block of point r / 8, and that point writes its block back. -/
theorem coverG5 (i : S85000x128.Idx) :
    ∃ t : Fin (cfg5 a5).N, ((cfg5 a5).win 0).flush t = true ∧ i ∈ (((cfg5 a5).win 0).blk t).view.set := by
  have hi0 : (i 0).val < 85000 := (i 0).isLt
  have ht : (i 0).val / 8 < (cfg5 a5).N := lt_of_lt_of_eq (by omega : (i 0).val / 8 < 10625) N_5.symm
  exact ⟨⟨(i 0).val / 8, ht⟩, flushG5 a5 _, mem_blkG5 a5 ⟨(i 0).val / 8, ht⟩ i
    (by show 8 * ((i 0).val / 8) ≤ (i 0).val ∧ (i 0).val < 8 * ((i 0).val / 8) + 8; omega)⟩

/-- THE ARRAY after the region: its row r is the source's row  row r. -/
theorem finalG5
    (hblk : ∀ c (t : Fin (cfg5 a5).N) (j : Fin 8) (l : Fin 128) (h : 8 * t.val + j.val < 85000),
      gblk c t (ValueIdx.ix2 j l) = T c (ValueIdx.ix2 (row c ⟨8 * t.val + j.val, h⟩) l))
    (c : Dev nD) :
    (datG5 V a5 gblk c).arrAt 0 (cfg5 a5).N
      = fun i : S85000x128.Idx => T c (ValueIdx.ix2 (row c (i 0)) (i 1)) :=
  (datG5 V a5 gblk c).arrAt_eq_of_cover 0 (outG5 T row c)
    (fun t _ => flushedG5_eq V a5 gblk T row hblk c t) (coverG5 a5)

/-- THE ARRAY, when the row numbers are the words of an index table tblw, each below 50000: row r is the source's row
    at the node that word r names (a word below 50000 names the node of that number). -/
theorem finalG5_node (tblw : IVec S85000 32) (hlt : ∀ k : S85000.Idx, (tblw k).toNat < 50000)
    (hblk : ∀ c (t : Fin (cfg5 a5).N) (j : Fin 8) (l : Fin 128) (h : 8 * t.val + j.val < 85000),
      gblk c t (ValueIdx.ix2 j l)
        = T c (ValueIdx.ix2 (⟨(tblw (ValueIdx.ix1 (⟨8 * t.val + j.val, h⟩ : Fin 85000))).toNat, hlt _⟩ : Fin 50000) l))
    (c : Dev nD) :
    (datG5 V a5 gblk c).arrAt 0 (cfg5 a5).N
      = fun i : S85000x128.Idx => T c (ValueIdx.ix2 (Cert.Spec.node (tblw (ValueIdx.ix1 (i 0)))) (i 1)) :=
  (finalG5 V a5 gblk T (fun _ p => ⟨(tblw (ValueIdx.ix1 p)).toNat, hlt _⟩) hblk c).trans
    (funext fun i => congrArg (fun p : Fin 50000 => T c (ValueIdx.ix2 p (i 1))) (Cert.Spec.node_of_lt (hlt _)).symm)

end Cert.KernelIdeal.Hand

end
-- ==== Proof.KI.GatherAt5.lean ====
/-
  Region 5 in the run: what it leaves, in terms of what the program's items before it left.

  Between the program's items core c's buffers hold the chain's valuations. Region 5's index table, as the region's
  proof data hold it, is the closed table of the launch memory, and every word of it is below 50000 when every word
  of the edge list is. So the region's output array holds, in its row r, the row — of the array the region reads — at
  the node that the table's word r names; and the array it reads is left as it was, which is as the item before the
  table's host stretch left it. No later item writes the output array before the host stretch that concatenates the
  gather outputs, so at that stretch's entry it holds the same rows (gat5: stated for whatever the array read holds).
-/
import proofs.«402049_j87351044866139_2_alg».proof.Proof.KI.Chain
import proofs.«402049_j87351044866139_2_alg».proof.Proof.KI.Carry
import proofs.«402049_j87351044866139_2_alg».proof.Proof.KI.GatherVal5
import proofs.«402049_j87351044866139_2_alg».proof.Proof.KI.Tables

set_option maxRecDepth 16384

noncomputable section

namespace Cert.KernelIdeal.Hand

open Cert.KernelIdeal Cert.KernelIdeal.Gen Cert.KernelIdeal.GenP
open Idealize.ShloMosaic Idealize.ShloMosaic.TcCoe
open Idealize.SL.Sem

variable {F : FTy → Type} [FloatOps F]
variable (m : (ℓ : Loc nD τ sig) → Buf (Elt F) ℓ)

/-- The index table the region's proof data hold is the closed table of the launch memory: the data hold what the
    chain's valuation at the region's entry has in the table's buffer, and that valuation is the run's own. -/
theorem tblwU5 : tblw5 (a5 m) = tbl5 m c₀ := by
  have h1 : tblw5 (a5 m) = (U13 m c₀ main_v42 : IVec S85000 32) := by
    unfold a5
    rfl
  have h2 : ∀ W : Valuation τ sig (Elt F), V13 m (outsU m) c₀ = W → (W main_v42 : IVec S85000 32) = tbl5 m c₀ :=
    fun W hW => by subst hW; exact tbl5_eq m (outsU m) c₀
  exact h1.trans (h2 (U13 m c₀) (V13_eq m c₀))

/-- The array the region reads, at the region's entry, is as the item before the table's host stretch left it. -/
theorem gin5 (c : Dev nD) : atTc (U13 m) c main_v33 = V12 m (outsU m) c main_v33 :=
  (congrFun (V13_eq m c) main_v33).symm.trans (V13_of m (outsU m) c main_v33 (by decide))

/-- THE ARRAY THE REGION READS is left as it was. -/
theorem gsrc5 (c : Dev nD) : V14 m (outsU m) c main_v33 = V12 m (outsU m) c main_v33 :=
  (congrFun (V14_eq m c) main_v33).trans ((U14_hbm m c).trans (gin5 m c))

/-- THE REGION'S OUTPUT: its row r is the row, of the array the region reads, at the node the table's word r names. -/
theorem g5_val (c : Dev nD) (hm : ∀ i : S2x800000.Idx, ((V0 m c main_arg1 : IVec S2x800000 32) i).toNat < 50000) :
    (V14 m (outsU m) c main_v43 : S85000x128.Idx → Elt F .f32)
      = fun i => (V12 m (outsU m) c main_v33 : S50000x128.Idx → Elt F .f32)
          (ValueIdx.ix2 (Cert.Spec.node (tbl5 m c (ValueIdx.ix1 (i 0)))) (i 1)) := by
  obtain rfl : c = c₀ := eq_c₀ c
  have hlt : ∀ k : S85000.Idx, (tblw5 (a5 m) k).toNat < 50000 := fun k => by
    rw [tblwU5]; exact tbl5_lt m c₀ hm k
  refine (congrFun (V14_eq m c₀) main_v43).trans ((U14_out m c₀).trans ?_)
  refine (finalG5_node (atTc (U13 m)) (a5 m) (gblk5 (atTc (U13 m)) (a5 m)) (fun c => V12 m (outsU m) c main_v33)
      (tblw5 (a5 m)) hlt
      (fun c t j l _ => (gblk5_apply (atTc (U13 m)) (a5 m) hlt c t j l).trans (congrFun (gin5 m c) _)) c₀).trans ?_
  rw [tblwU5]
  rfl

/-- THE REGION'S OUTPUT WHERE IT IS READ, at the entry of the host stretch that concatenates the gather outputs: the
    rows of T at the nodes the table names, when the array the region reads holds T. -/
theorem gat5 (c : Dev nD) (hm : ∀ i : S2x800000.Idx, ((V0 m c main_arg1 : IVec S2x800000 32) i).toNat < 50000)
    (T : S50000x128.Idx → Elt F .f32) (hT : V12 m (outsU m) c main_v33 = T) :
    (V24 m (outsU m) c main_v43 : S85000x128.Idx → Elt F .f32)
      = fun i => T (ValueIdx.ix2 (Cert.Spec.node (tbl5 m c (ValueIdx.ix1 (i 0)))) (i 1)) := by
  subst hT
  exact (carry5 m (outsU m) c).trans (g5_val m c hm)

end Cert.KernelIdeal.Hand

end
-- ==== Proof.KI.GatherVal6.lean ====
/-
  The value of the row-gather region 6: the array its output window leaves.

  At grid point t the region's output block holds, in its row j, the source's row  row (8 t + j).  The block sits at
  block index (t, 0) of the 85000 x 128 output array: it covers the rows 8 t … 8 t + 7 and all 128 columns. Every point
  writes its block back (the block index moves at every step), and row r of the array lies in the block of point r / 8,
  at the block's row r % 8. So the array ends with its row r equal to the source's row  row r,  for every r.

  The gathered block is taken abstractly here: any family of blocks that reads as above (the hypothesis of
  flushedG6_eq and finalG6) gives the array. When the row numbers are the words of an index table, each below 50000,
  row r of the array is the source's row at the node the table's word r names (finalG6_node).
-/
import proofs.«402049_j87351044866139_2_alg».proof.Proof.KI.Gather6
import proofs.«402049_j87351044866139_2_alg».proof.Proof.Spec
import Idealize.ShloMosaic.Lib.Pipeline.Value
import Idealize.ShloMosaic.Lib.ValueIdx

set_option maxRecDepth 16384

noncomputable section

namespace Cert.KernelIdeal.Hand

open Idealize.ShloMosaic Idealize.ShloMosaic.TcCoe
open Idealize.SL.Sem
open Idealize.ShloMosaic.Pipeline (Dat Cfg Window)
open Cert.KernelIdeal Cert.KernelIdeal.Gen

variable {F : FTy → Type} [FloatOps F]

variable (V : (c : Dev nD) → (b : Ref sig .tc) → Buf (Elt F) ((c : Thread nD τ).loc b))
variable (a6 : (pcfg6 (F := F)).Adm)
variable (gblk : (c : Dev nD) → Fin (cfg6 a6).N → S8x128.Idx → Elt F .f32)

/-! ## The grid and the output window's schedule -/

/-- The region's grid has 10625 points. -/
theorem ptsG6 (t : Fin (cfg6 a6).N) : t.val < 10625 := lt_of_lt_of_eq t.isLt N_6

/-- The grid has one axis, so point t has coordinate t. -/
theorem coordG6 (t : Fin (cfg6 a6).N) : (((cfg6 a6).grid.coords t) (0 : Fin 1)).val = t.val := by
  have hN := ptsG6 a6 t
  show t.val / (cfg6 a6).grid.stride (0 : Fin 1) % 10625 = t.val
  rw [show (cfg6 a6).grid.stride (0 : Fin 1) = 1 from rfl, Nat.div_one, Nat.mod_eq_of_lt hN]

/-- The output window's block index at point t is (t, 0). -/
theorem indexG6 (t : Fin (cfg6 a6).N) :
    ((cfg6 a6).win 0).index t (0 : Fin 2) = t.val ∧ ((cfg6 a6).win 0).index t (1 : Fin 2) = 0 := by
  have hN := ptsG6 a6 t
  refine ⟨?_, rfl⟩
  show (BitVec.ofNat 32 (((cfg6 a6).grid.coords t) (0 : Fin 1)).val).toNat = t.val
  rw [coordG6, BitVec.toNat_ofNat]
  exact Nat.mod_eq_of_lt (by omega)

/-- The block index moves at every step, so every point writes its block back. -/
theorem flushG6 (t : Fin (cfg6 a6).N) : ((cfg6 a6).win 0).flush t = true := by
  rw [Pipeline.Window.flush_out _ rfl]
  have ht : t.val < (cfg6 a6).grid.N := t.isLt
  by_cases h : t.val + 1 < (cfg6 a6).grid.N
  · refine .inr ⟨h, fun e => ?_⟩
    have e0 : ((cfg6 a6).win 0).index ⟨t.val + 1, h⟩ (0 : Fin 2) = ((cfg6 a6).win 0).index t (0 : Fin 2) :=
      congrFun e (0 : Fin 2)
    have e1 : ((cfg6 a6).win 0).index ⟨t.val + 1, h⟩ (0 : Fin 2) = t.val + 1 := (indexG6 a6 ⟨t.val + 1, h⟩).1
    have e2 : ((cfg6 a6).win 0).index t (0 : Fin 2) = t.val := (indexG6 a6 t).1
    omega
  · exact .inl (by omega)

/-! ## What a point writes back, and the array -/

variable (T : (c : Dev nD) → S50000x128.Idx → Elt F .f32) (row : (c : Dev nD) → Fin 85000 → Fin 50000)

/-- The array the region leaves on core c: its row r is the source's row  row r. -/
abbrev outG6 (c : Dev nD) : S85000x128.Idx → Elt F .f32 := fun i => T c (ValueIdx.ix2 (row c (i 0)) (i 1))

/-- One element of the block at point t is the array's element 8 t rows further down, in the same column. -/
theorem blockG6_apply
    (hblk : ∀ c (t : Fin (cfg6 a6).N) (j : Fin 8) (l : Fin 128) (h : 8 * t.val + j.val < 85000),
      gblk c t (ValueIdx.ix2 j l) = T c (ValueIdx.ix2 (row c ⟨8 * t.val + j.val, h⟩) l))
    (c : Dev nD) (t : Fin (cfg6 a6).N) (y : S8x128.Idx) (k : S85000x128.Idx)
    (hk0 : (k 0).val = 8 * t.val + (y 0).val) (hk1 : (k 1).val = (y 1).val) :
    gblk c t y = outG6 T row c k := by
  have hy0 : (y 0).val < 8 := (y 0).isLt
  have hN := ptsG6 a6 t
  have hb : 8 * t.val + (y 0).val < 85000 := by omega
  have h0 : (⟨8 * t.val + (y 0).val, hb⟩ : Fin 85000) = k 0 := Fin.ext hk0.symm
  have h1 : (y 1 : Fin 128) = k 1 := Fin.ext hk1.symm
  calc gblk c t y = gblk c t (ValueIdx.ix2 (y 0) (y 1)) := congrArg (gblk c t) (ValueIdx.eq_ix2 y)
    _ = T c (ValueIdx.ix2 (row c ⟨8 * t.val + (y 0).val, hb⟩) (y 1)) := hblk c t (y 0) (y 1) hb
    _ = outG6 T row c k := congrArg₂ (fun (p : Fin 85000) (l : Fin 128) => T c (ValueIdx.ix2 (row c p) l)) h0 h1

/-- WHAT POINT t WRITES BACK is block t of that array. -/
theorem flushedG6_eq
    (hblk : ∀ c (t : Fin (cfg6 a6).N) (j : Fin 8) (l : Fin 128) (h : 8 * t.val + j.val < 85000),
      gblk c t (ValueIdx.ix2 j l) = T c (ValueIdx.ix2 (row c ⟨8 * t.val + j.val, h⟩) l))
    (c : Dev nD) (t : Fin (cfg6 a6).N) :
    (datG6 V a6 gblk c).flushed 0 t = (((cfg6 a6).win 0).blk t).view.read (Elt F) (outG6 T row c) := by
  obtain ⟨e0, e1⟩ := indexG6 a6 t
  have key : ∀ y : S8x128.Idx, gblk c t y = outG6 T row c ((((cfg6 a6).win 0).blk t).view.emb y) := fun y =>
    blockG6_apply a6 gblk T row hblk c t y _
      (by show ((cfg6 a6).win 0).index t (0 : Fin 2) * 8 + 1 * (y 0).val = 8 * t.val + (y 0).val
          rw [e0]; omega)
      (by show ((cfg6 a6).win 0).index t (1 : Fin 2) * 128 + 1 * (y 1).val = (y 1).val
          rw [e1]; omega)
  exact funext key

/-- An index of the array whose row is among the rows 8 t … 8 t + 7 is in point t's block. -/
theorem mem_blkG6 (t : Fin (cfg6 a6).N) (i : S85000x128.Idx)
    (hi : 8 * t.val ≤ (i 0).val ∧ (i 0).val < 8 * t.val + 8) : i ∈ (((cfg6 a6).win 0).blk t).view.set := by
  obtain ⟨e0, e1⟩ := indexG6 a6 t
  have hi1 : (i 1).val < 128 := (i 1).isLt
  have hs : (((cfg6 a6).win 0).blk t).view.set = (((cfg6 a6).win 0).rect t).set :=
    View.set_slice_whole main_v45 (((cfg6 a6).win 0).rect t)
  have key : ∀ a : Fin 2, ((cfg6 a6).win 0).index t a * S8x128.size a ≤ (i a).val
      ∧ (i a).val < ((cfg6 a6).win 0).index t a * S8x128.size a + S8x128.size a := fun a =>
    match a with
    | ⟨0, _⟩ => by
      show ((cfg6 a6).win 0).index t (0 : Fin 2) * 8 ≤ (i 0).val ∧ (i 0).val < ((cfg6 a6).win 0).index t (0 : Fin 2) * 8 + 8
      rw [e0]; omega
    | ⟨1, _⟩ => by
      show ((cfg6 a6).win 0).index t (1 : Fin 2) * 128 ≤ (i 1).val ∧ (i 1).val < ((cfg6 a6).win 0).index t (1 : Fin 2) * 128 + 128
      rw [e1]; omega
  exact (Finset.ext_iff.mp hs i).mpr (Rect.mem_set_unit.mpr key)

/-- THE COVER: row r of the array lies in the block of point r / 8, and that point writes its block back. -/
theorem coverG6 (i : S85000x128.Idx) :
    ∃ t : Fin (cfg6 a6).N, ((cfg6 a6).win 0).flush t = true ∧ i ∈ (((cfg6 a6).win 0).blk t).view.set := by
  have hi0 : (i 0).val < 85000 := (i 0).isLt
  have ht : (i 0).val / 8 < (cfg6 a6).N := lt_of_lt_of_eq (by omega : (i 0).val / 8 < 10625) N_6.symm
  exact ⟨⟨(i 0).val / 8, ht⟩, flushG6 a6 _, mem_blkG6 a6 ⟨(i 0).val / 8, ht⟩ i
    (by show 8 * ((i 0).val / 8) ≤ (i 0).val ∧ (i 0).val < 8 * ((i 0).val / 8) + 8; omega)⟩

/-- THE ARRAY after the region: its row r is the source's row  row r. -/
theorem finalG6
    (hblk : ∀ c (t : Fin (cfg6 a6).N) (j : Fin 8) (l : Fin 128) (h : 8 * t.val + j.val < 85000),
      gblk c t (ValueIdx.ix2 j l) = T c (ValueIdx.ix2 (row c ⟨8 * t.val + j.val, h⟩) l))
    (c : Dev nD) :
    (datG6 V a6 gblk c).arrAt 0 (cfg6 a6).N
      = fun i : S85000x128.Idx => T c (ValueIdx.ix2 (row c (i 0)) (i 1)) :=
  (datG6 V a6 gblk c).arrAt_eq_of_cover 0 (outG6 T row c)
    (fun t _ => flushedG6_eq V a6 gblk T row hblk c t) (coverG6 a6)

/-- THE ARRAY, when the row numbers are the words of an index table tblw, each below 50000: row r is the source's row
    at the node that word r names (a word below 50000 names the node of that number). -/
theorem finalG6_node (tblw : IVec S85000 32) (hlt : ∀ k : S85000.Idx, (tblw k).toNat < 50000)
    (hblk : ∀ c (t : Fin (cfg6 a6).N) (j : Fin 8) (l : Fin 128) (h : 8 * t.val + j.val < 85000),
      gblk c t (ValueIdx.ix2 j l)
        = T c (ValueIdx.ix2 (⟨(tblw (ValueIdx.ix1 (⟨8 * t.val + j.val, h⟩ : Fin 85000))).toNat, hlt _⟩ : Fin 50000) l))
    (c : Dev nD) :
    (datG6 V a6 gblk c).arrAt 0 (cfg6 a6).N
      = fun i : S85000x128.Idx => T c (ValueIdx.ix2 (Cert.Spec.node (tblw (ValueIdx.ix1 (i 0)))) (i 1)) :=
  (finalG6 V a6 gblk T (fun _ p => ⟨(tblw (ValueIdx.ix1 p)).toNat, hlt _⟩) hblk c).trans
    (funext fun i => congrArg (fun p : Fin 50000 => T c (ValueIdx.ix2 p (i 1))) (Cert.Spec.node_of_lt (hlt _)).symm)

end Cert.KernelIdeal.Hand

end
-- ==== Proof.KI.GatherAt6.lean ====
/-
  Region 6 in the run: what it leaves, in terms of what the program's items before it left.

  Between the program's items core c's buffers hold the chain's valuations. Region 6's index table, as the region's
  proof data hold it, is the closed table of the launch memory, and every word of it is below 50000 when every word
  of the edge list is. So the region's output array holds, in its row r, the row — of the array the region reads — at
  the node that the table's word r names; and the array it reads is left as it was, which is as the item before the
  table's host stretch left it. No later item writes the output array before the host stretch that concatenates the
  gather outputs, so at that stretch's entry it holds the same rows (gat6: stated for whatever the array read holds).
-/
import proofs.«402049_j87351044866139_2_alg».proof.Proof.KI.Chain
import proofs.«402049_j87351044866139_2_alg».proof.Proof.KI.Carry
import proofs.«402049_j87351044866139_2_alg».proof.Proof.KI.GatherVal6
import proofs.«402049_j87351044866139_2_alg».proof.Proof.KI.Tables

set_option maxRecDepth 16384

noncomputable section

namespace Cert.KernelIdeal.Hand

open Cert.KernelIdeal Cert.KernelIdeal.Gen Cert.KernelIdeal.GenP
open Idealize.ShloMosaic Idealize.ShloMosaic.TcCoe
open Idealize.SL.Sem

variable {F : FTy → Type} [FloatOps F]
variable (m : (ℓ : Loc nD τ sig) → Buf (Elt F) ℓ)

/-- The index table the region's proof data hold is the closed table of the launch memory: the data hold what the
    chain's valuation at the region's entry has in the table's buffer, and that valuation is the run's own. -/
theorem tblwU6 : tblw6 (a6 m) = tbl6 m c₀ := by
  have h1 : tblw6 (a6 m) = (U15 m c₀ main_v44 : IVec S85000 32) := by
    unfold a6
    rfl
  have h2 : ∀ W : Valuation τ sig (Elt F), V15 m (outsU m) c₀ = W → (W main_v44 : IVec S85000 32) = tbl6 m c₀ :=
    fun W hW => by subst hW; exact tbl6_eq m (outsU m) c₀
  exact h1.trans (h2 (U15 m c₀) (V15_eq m c₀))

/-- The array the region reads, at the region's entry, is as the item before the table's host stretch left it. -/
theorem gin6 (c : Dev nD) : atTc (U15 m) c main_v33 = V14 m (outsU m) c main_v33 :=
  (congrFun (V15_eq m c) main_v33).symm.trans (V15_of m (outsU m) c main_v33 (by decide))

/-- THE ARRAY THE REGION READS is left as it was. -/
theorem gsrc6 (c : Dev nD) : V16 m (outsU m) c main_v33 = V14 m (outsU m) c main_v33 :=
  (congrFun (V16_eq m c) main_v33).trans ((U16_hbm m c).trans (gin6 m c))

/-- THE REGION'S OUTPUT: its row r is the row, of the array the region reads, at the node the table's word r names. -/
theorem g6_val (c : Dev nD) (hm : ∀ i : S2x800000.Idx, ((V0 m c main_arg1 : IVec S2x800000 32) i).toNat < 50000) :
    (V16 m (outsU m) c main_v45 : S85000x128.Idx → Elt F .f32)
      = fun i => (V14 m (outsU m) c main_v33 : S50000x128.Idx → Elt F .f32)
          (ValueIdx.ix2 (Cert.Spec.node (tbl6 m c (ValueIdx.ix1 (i 0)))) (i 1)) := by
  obtain rfl : c = c₀ := eq_c₀ c
  have hlt : ∀ k : S85000.Idx, (tblw6 (a6 m) k).toNat < 50000 := fun k => by
    rw [tblwU6]; exact tbl6_lt m c₀ hm k
  refine (congrFun (V16_eq m c₀) main_v45).trans ((U16_out m c₀).trans ?_)
  refine (finalG6_node (atTc (U15 m)) (a6 m) (gblk6 (atTc (U15 m)) (a6 m)) (fun c => V14 m (outsU m) c main_v33)
      (tblw6 (a6 m)) hlt
      (fun c t j l _ => (gblk6_apply (atTc (U15 m)) (a6 m) hlt c t j l).trans (congrFun (gin6 m c) _)) c₀).trans ?_
  rw [tblwU6]
  rfl

/-- THE REGION'S OUTPUT WHERE IT IS READ, at the entry of the host stretch that concatenates the gather outputs: the
    rows of T at the nodes the table names, when the array the region reads holds T. -/
theorem gat6 (c : Dev nD) (hm : ∀ i : S2x800000.Idx, ((V0 m c main_arg1 : IVec S2x800000 32) i).toNat < 50000)
    (T : S50000x128.Idx → Elt F .f32) (hT : V14 m (outsU m) c main_v33 = T) :
    (V24 m (outsU m) c main_v45 : S85000x128.Idx → Elt F .f32)
      = fun i => T (ValueIdx.ix2 (Cert.Spec.node (tbl6 m c (ValueIdx.ix1 (i 0)))) (i 1)) := by
  subst hT
  exact (carry6 m (outsU m) c).trans (g6_val m c hm)

end Cert.KernelIdeal.Hand

end
-- ==== Proof.KI.GatherVal7.lean ====
/-
  The value of the row-gather region 7: the array its output window leaves.

  At grid point t the region's output block holds, in its row j, the source's row  row (8 t + j).  The block sits at
  block index (t, 0) of the 85000 x 128 output array: it covers the rows 8 t … 8 t + 7 and all 128 columns. Every point
  writes its block back (the block index moves at every step), and row r of the array lies in the block of point r / 8,
  at the block's row r % 8. So the array ends with its row r equal to the source's row  row r,  for every r.

  The gathered block is taken abstractly here: any family of blocks that reads as above (the hypothesis of
  flushedG7_eq and finalG7) gives the array. When the row numbers are the words of an index table, each below 50000,
  row r of the array is the source's row at the node the table's word r names (finalG7_node).
-/
import proofs.«402049_j87351044866139_2_alg».proof.Proof.KI.Gather7
import proofs.«402049_j87351044866139_2_alg».proof.Proof.Spec
import Idealize.ShloMosaic.Lib.Pipeline.Value
import Idealize.ShloMosaic.Lib.ValueIdx

set_option maxRecDepth 16384

noncomputable section

namespace Cert.KernelIdeal.Hand

open Idealize.ShloMosaic Idealize.ShloMosaic.TcCoe
open Idealize.SL.Sem
open Idealize.ShloMosaic.Pipeline (Dat Cfg Window)
open Cert.KernelIdeal Cert.KernelIdeal.Gen

variable {F : FTy → Type} [FloatOps F]

variable (V : (c : Dev nD) → (b : Ref sig .tc) → Buf (Elt F) ((c : Thread nD τ).loc b))
variable (a7 : (pcfg7 (F := F)).Adm)
variable (gblk : (c : Dev nD) → Fin (cfg7 a7).N → S8x128.Idx → Elt F .f32)

/-! ## The grid and the output window's schedule -/

/-- The region's grid has 10625 points. -/
theorem ptsG7 (t : Fin (cfg7 a7).N) : t.val < 10625 := lt_of_lt_of_eq t.isLt N_7

/-- The grid has one axis, so point t has coordinate t. -/
theorem coordG7 (t : Fin (cfg7 a7).N) : (((cfg7 a7).grid.coords t) (0 : Fin 1)).val = t.val := by
  have hN := ptsG7 a7 t
  show t.val / (cfg7 a7).grid.stride (0 : Fin 1) % 10625 = t.val
  rw [show (cfg7 a7).grid.stride (0 : Fin 1) = 1 from rfl, Nat.div_one, Nat.mod_eq_of_lt hN]

/-- The output window's block index at point t is (t, 0). -/
theorem indexG7 (t : Fin (cfg7 a7).N) :
    ((cfg7 a7).win 0).index t (0 : Fin 2) = t.val ∧ ((cfg7 a7).win 0).index t (1 : Fin 2) = 0 := by
  have hN := ptsG7 a7 t
  refine ⟨?_, rfl⟩
  show (BitVec.ofNat 32 (((cfg7 a7).grid.coords t) (0 : Fin 1)).val).toNat = t.val
  rw [coordG7, BitVec.toNat_ofNat]
  exact Nat.mod_eq_of_lt (by omega)

/-- The block index moves at every step, so every point writes its block back. -/
theorem flushG7 (t : Fin (cfg7 a7).N) : ((cfg7 a7).win 0).flush t = true := by
  rw [Pipeline.Window.flush_out _ rfl]
  have ht : t.val < (cfg7 a7).grid.N := t.isLt
  by_cases h : t.val + 1 < (cfg7 a7).grid.N
  · refine .inr ⟨h, fun e => ?_⟩
    have e0 : ((cfg7 a7).win 0).index ⟨t.val + 1, h⟩ (0 : Fin 2) = ((cfg7 a7).win 0).index t (0 : Fin 2) :=
      congrFun e (0 : Fin 2)
    have e1 : ((cfg7 a7).win 0).index ⟨t.val + 1, h⟩ (0 : Fin 2) = t.val + 1 := (indexG7 a7 ⟨t.val + 1, h⟩).1
    have e2 : ((cfg7 a7).win 0).index t (0 : Fin 2) = t.val := (indexG7 a7 t).1
    omega
  · exact .inl (by omega)

/-! ## What a point writes back, and the array -/

variable (T : (c : Dev nD) → S50000x128.Idx → Elt F .f32) (row : (c : Dev nD) → Fin 85000 → Fin 50000)

/-- The array the region leaves on core c: its row r is the source's row  row r. -/
abbrev outG7 (c : Dev nD) : S85000x128.Idx → Elt F .f32 := fun i => T c (ValueIdx.ix2 (row c (i 0)) (i 1))

/-- One element of the block at point t is the array's element 8 t rows further down, in the same column. -/
theorem blockG7_apply
    (hblk : ∀ c (t : Fin (cfg7 a7).N) (j : Fin 8) (l : Fin 128) (h : 8 * t.val + j.val < 85000),
      gblk c t (ValueIdx.ix2 j l) = T c (ValueIdx.ix2 (row c ⟨8 * t.val + j.val, h⟩) l))
    (c : Dev nD) (t : Fin (cfg7 a7).N) (y : S8x128.Idx) (k : S85000x128.Idx)
    (hk0 : (k 0).val = 8 * t.val + (y 0).val) (hk1 : (k 1).val = (y 1).val) :
    gblk c t y = outG7 T row c k := by
  have hy0 : (y 0).val < 8 := (y 0).isLt
  have hN := ptsG7 a7 t
  have hb : 8 * t.val + (y 0).val < 85000 := by omega
  have h0 : (⟨8 * t.val + (y 0).val, hb⟩ : Fin 85000) = k 0 := Fin.ext hk0.symm
  have h1 : (y 1 : Fin 128) = k 1 := Fin.ext hk1.symm
  calc gblk c t y = gblk c t (ValueIdx.ix2 (y 0) (y 1)) := congrArg (gblk c t) (ValueIdx.eq_ix2 y)
    _ = T c (ValueIdx.ix2 (row c ⟨8 * t.val + (y 0).val, hb⟩) (y 1)) := hblk c t (y 0) (y 1) hb
    _ = outG7 T row c k := congrArg₂ (fun (p : Fin 85000) (l : Fin 128) => T c (ValueIdx.ix2 (row c p) l)) h0 h1

/-- WHAT POINT t WRITES BACK is block t of that array. -/
theorem flushedG7_eq
    (hblk : ∀ c (t : Fin (cfg7 a7).N) (j : Fin 8) (l : Fin 128) (h : 8 * t.val + j.val < 85000),
      gblk c t (ValueIdx.ix2 j l) = T c (ValueIdx.ix2 (row c ⟨8 * t.val + j.val, h⟩) l))
    (c : Dev nD) (t : Fin (cfg7 a7).N) :
    (datG7 V a7 gblk c).flushed 0 t = (((cfg7 a7).win 0).blk t).view.read (Elt F) (outG7 T row c) := by
  obtain ⟨e0, e1⟩ := indexG7 a7 t
  have key : ∀ y : S8x128.Idx, gblk c t y = outG7 T row c ((((cfg7 a7).win 0).blk t).view.emb y) := fun y =>
    blockG7_apply a7 gblk T row hblk c t y _
      (by show ((cfg7 a7).win 0).index t (0 : Fin 2) * 8 + 1 * (y 0).val = 8 * t.val + (y 0).val
          rw [e0]; omega)
      (by show ((cfg7 a7).win 0).index t (1 : Fin 2) * 128 + 1 * (y 1).val = (y 1).val
          rw [e1]; omega)
  exact funext key

/-- An index of the array whose row is among the rows 8 t … 8 t + 7 is in point t's block. -/
theorem mem_blkG7 (t : Fin (cfg7 a7).N) (i : S85000x128.Idx)
    (hi : 8 * t.val ≤ (i 0).val ∧ (i 0).val < 8 * t.val + 8) : i ∈ (((cfg7 a7).win 0).blk t).view.set := by
  obtain ⟨e0, e1⟩ := indexG7 a7 t
  have hi1 : (i 1).val < 128 := (i 1).isLt
  have hs : (((cfg7 a7).win 0).blk t).view.set = (((cfg7 a7).win 0).rect t).set :=
    View.set_slice_whole main_v47 (((cfg7 a7).win 0).rect t)
  have key : ∀ a : Fin 2, ((cfg7 a7).win 0).index t a * S8x128.size a ≤ (i a).val
      ∧ (i a).val < ((cfg7 a7).win 0).index t a * S8x128.size a + S8x128.size a := fun a =>
    match a with
    | ⟨0, _⟩ => by
      show ((cfg7 a7).win 0).index t (0 : Fin 2) * 8 ≤ (i 0).val ∧ (i 0).val < ((cfg7 a7).win 0).index t (0 : Fin 2) * 8 + 8
      rw [e0]; omega
    | ⟨1, _⟩ => by
      show ((cfg7 a7).win 0).index t (1 : Fin 2) * 128 ≤ (i 1).val ∧ (i 1).val < ((cfg7 a7).win 0).index t (1 : Fin 2) * 128 + 128
      rw [e1]; omega
  exact (Finset.ext_iff.mp hs i).mpr (Rect.mem_set_unit.mpr key)

/-- THE COVER: row r of the array lies in the block of point r / 8, and that point writes its block back. -/
theorem coverG7 (i : S85000x128.Idx) :
    ∃ t : Fin (cfg7 a7).N, ((cfg7 a7).win 0).flush t = true ∧ i ∈ (((cfg7 a7).win 0).blk t).view.set := by
  have hi0 : (i 0).val < 85000 := (i 0).isLt
  have ht : (i 0).val / 8 < (cfg7 a7).N := lt_of_lt_of_eq (by omega : (i 0).val / 8 < 10625) N_7.symm
  exact ⟨⟨(i 0).val / 8, ht⟩, flushG7 a7 _, mem_blkG7 a7 ⟨(i 0).val / 8, ht⟩ i
    (by show 8 * ((i 0).val / 8) ≤ (i 0).val ∧ (i 0).val < 8 * ((i 0).val / 8) + 8; omega)⟩

/-- THE ARRAY after the region: its row r is the source's row  row r. -/
theorem finalG7
    (hblk : ∀ c (t : Fin (cfg7 a7).N) (j : Fin 8) (l : Fin 128) (h : 8 * t.val + j.val < 85000),
      gblk c t (ValueIdx.ix2 j l) = T c (ValueIdx.ix2 (row c ⟨8 * t.val + j.val, h⟩) l))
    (c : Dev nD) :
    (datG7 V a7 gblk c).arrAt 0 (cfg7 a7).N
      = fun i : S85000x128.Idx => T c (ValueIdx.ix2 (row c (i 0)) (i 1)) :=
  (datG7 V a7 gblk c).arrAt_eq_of_cover 0 (outG7 T row c)
    (fun t _ => flushedG7_eq V a7 gblk T row hblk c t) (coverG7 a7)

/-- THE ARRAY, when the row numbers are the words of an index table tblw, each below 50000: row r is the source's row
    at the node that word r names (a word below 50000 names the node of that number). -/
theorem finalG7_node (tblw : IVec S85000 32) (hlt : ∀ k : S85000.Idx, (tblw k).toNat < 50000)
    (hblk : ∀ c (t : Fin (cfg7 a7).N) (j : Fin 8) (l : Fin 128) (h : 8 * t.val + j.val < 85000),
      gblk c t (ValueIdx.ix2 j l)
        = T c (ValueIdx.ix2 (⟨(tblw (ValueIdx.ix1 (⟨8 * t.val + j.val, h⟩ : Fin 85000))).toNat, hlt _⟩ : Fin 50000) l))
    (c : Dev nD) :
    (datG7 V a7 gblk c).arrAt 0 (cfg7 a7).N
      = fun i : S85000x128.Idx => T c (ValueIdx.ix2 (Cert.Spec.node (tblw (ValueIdx.ix1 (i 0)))) (i 1)) :=
  (finalG7 V a7 gblk T (fun _ p => ⟨(tblw (ValueIdx.ix1 p)).toNat, hlt _⟩) hblk c).trans
    (funext fun i => congrArg (fun p : Fin 50000 => T c (ValueIdx.ix2 p (i 1))) (Cert.Spec.node_of_lt (hlt _)).symm)

end Cert.KernelIdeal.Hand

end
-- ==== Proof.KI.GatherAt7.lean ====
/-
  Region 7 in the run: what it leaves, in terms of what the program's items before it left.

  Between the program's items core c's buffers hold the chain's valuations. Region 7's index table, as the region's
  proof data hold it, is the closed table of the launch memory, and every word of it is below 50000 when every word
  of the edge list is. So the region's output array holds, in its row r, the row — of the array the region reads — at
  the node that the table's word r names; and the array it reads is left as it was, which is as the item before the
  table's host stretch left it. No later item writes the output array before the host stretch that concatenates the
  gather outputs, so at that stretch's entry it holds the same rows (gat7: stated for whatever the array read holds).
-/
import proofs.«402049_j87351044866139_2_alg».proof.Proof.KI.Chain
import proofs.«402049_j87351044866139_2_alg».proof.Proof.KI.Carry
import proofs.«402049_j87351044866139_2_alg».proof.Proof.KI.GatherVal7
import proofs.«402049_j87351044866139_2_alg».proof.Proof.KI.Tables

set_option maxRecDepth 16384

noncomputable section

namespace Cert.KernelIdeal.Hand

open Cert.KernelIdeal Cert.KernelIdeal.Gen Cert.KernelIdeal.GenP
open Idealize.ShloMosaic Idealize.ShloMosaic.TcCoe
open Idealize.SL.Sem

variable {F : FTy → Type} [FloatOps F]
variable (m : (ℓ : Loc nD τ sig) → Buf (Elt F) ℓ)

/-- The index table the region's proof data hold is the closed table of the launch memory: the data hold what the
    chain's valuation at the region's entry has in the table's buffer, and that valuation is the run's own. -/
theorem tblwU7 : tblw7 (a7 m) = tbl7 m c₀ := by
  have h1 : tblw7 (a7 m) = (U17 m c₀ main_v46 : IVec S85000 32) := by
    unfold a7
    rfl
  have h2 : ∀ W : Valuation τ sig (Elt F), V17 m (outsU m) c₀ = W → (W main_v46 : IVec S85000 32) = tbl7 m c₀ :=
    fun W hW => by subst hW; exact tbl7_eq m (outsU m) c₀
  exact h1.trans (h2 (U17 m c₀) (V17_eq m c₀))

/-- The array the region reads, at the region's entry, is as the item before the table's host stretch left it. -/
theorem gin7 (c : Dev nD) : atTc (U17 m) c main_v33 = V16 m (outsU m) c main_v33 :=
  (congrFun (V17_eq m c) main_v33).symm.trans (V17_of m (outsU m) c main_v33 (by decide))

/-- THE ARRAY THE REGION READS is left as it was. -/
theorem gsrc7 (c : Dev nD) : V18 m (outsU m) c main_v33 = V16 m (outsU m) c main_v33 :=
  (congrFun (V18_eq m c) main_v33).trans ((U18_hbm m c).trans (gin7 m c))

/-- THE REGION'S OUTPUT: its row r is the row, of the array the region reads, at the node the table's word r names. -/
theorem g7_val (c : Dev nD) (hm : ∀ i : S2x800000.Idx, ((V0 m c main_arg1 : IVec S2x800000 32) i).toNat < 50000) :
    (V18 m (outsU m) c main_v47 : S85000x128.Idx → Elt F .f32)
      = fun i => (V16 m (outsU m) c main_v33 : S50000x128.Idx → Elt F .f32)
          (ValueIdx.ix2 (Cert.Spec.node (tbl7 m c (ValueIdx.ix1 (i 0)))) (i 1)) := by
  obtain rfl : c = c₀ := eq_c₀ c
  have hlt : ∀ k : S85000.Idx, (tblw7 (a7 m) k).toNat < 50000 := fun k => by
    rw [tblwU7]; exact tbl7_lt m c₀ hm k
  refine (congrFun (V18_eq m c₀) main_v47).trans ((U18_out m c₀).trans ?_)
  refine (finalG7_node (atTc (U17 m)) (a7 m) (gblk7 (atTc (U17 m)) (a7 m)) (fun c => V16 m (outsU m) c main_v33)
      (tblw7 (a7 m)) hlt
      (fun c t j l _ => (gblk7_apply (atTc (U17 m)) (a7 m) hlt c t j l).trans (congrFun (gin7 m c) _)) c₀).trans ?_
  rw [tblwU7]
  rfl

/-- THE REGION'S OUTPUT WHERE IT IS READ, at the entry of the host stretch that concatenates the gather outputs: the
    rows of T at the nodes the table names, when the array the region reads holds T. -/
theorem gat7 (c : Dev nD) (hm : ∀ i : S2x800000.Idx, ((V0 m c main_arg1 : IVec S2x800000 32) i).toNat < 50000)
    (T : S50000x128.Idx → Elt F .f32) (hT : V16 m (outsU m) c main_v33 = T) :
    (V24 m (outsU m) c main_v47 : S85000x128.Idx → Elt F .f32)
      = fun i => T (ValueIdx.ix2 (Cert.Spec.node (tbl7 m c (ValueIdx.ix1 (i 0)))) (i 1)) := by
  subst hT
  exact (carry7 m (outsU m) c).trans (g7_val m c hm)

end Cert.KernelIdeal.Hand

end
-- ==== Proof.KI.GatherVal8.lean ====
/-
  The value of the row-gather region 8: the array its output window leaves.

  At grid point t the region's output block holds, in its row j, the source's row  row (8 t + j).  The block sits at
  block index (t, 0) of the 85000 x 128 output array: it covers the rows 8 t … 8 t + 7 and all 128 columns. Every point
  writes its block back (the block index moves at every step), and row r of the array lies in the block of point r / 8,
  at the block's row r % 8. So the array ends with its row r equal to the source's row  row r,  for every r.

  The gathered block is taken abstractly here: any family of blocks that reads as above (the hypothesis of
  flushedG8_eq and finalG8) gives the array. When the row numbers are the words of an index table, each below 50000,
  row r of the array is the source's row at the node the table's word r names (finalG8_node).
-/
import proofs.«402049_j87351044866139_2_alg».proof.Proof.KI.Gather8
import proofs.«402049_j87351044866139_2_alg».proof.Proof.Spec
import Idealize.ShloMosaic.Lib.Pipeline.Value
import Idealize.ShloMosaic.Lib.ValueIdx

set_option maxRecDepth 16384

noncomputable section

namespace Cert.KernelIdeal.Hand

open Idealize.ShloMosaic Idealize.ShloMosaic.TcCoe
open Idealize.SL.Sem
open Idealize.ShloMosaic.Pipeline (Dat Cfg Window)
open Cert.KernelIdeal Cert.KernelIdeal.Gen

variable {F : FTy → Type} [FloatOps F]

variable (V : (c : Dev nD) → (b : Ref sig .tc) → Buf (Elt F) ((c : Thread nD τ).loc b))
variable (a8 : (pcfg8 (F := F)).Adm)
variable (gblk : (c : Dev nD) → Fin (cfg8 a8).N → S8x128.Idx → Elt F .f32)

/-! ## The grid and the output window's schedule -/

/-- The region's grid has 10625 points. -/
theorem ptsG8 (t : Fin (cfg8 a8).N) : t.val < 10625 := lt_of_lt_of_eq t.isLt N_8

/-- The grid has one axis, so point t has coordinate t. -/
theorem coordG8 (t : Fin (cfg8 a8).N) : (((cfg8 a8).grid.coords t) (0 : Fin 1)).val = t.val := by
  have hN := ptsG8 a8 t
  show t.val / (cfg8 a8).grid.stride (0 : Fin 1) % 10625 = t.val
  rw [show (cfg8 a8).grid.stride (0 : Fin 1) = 1 from rfl, Nat.div_one, Nat.mod_eq_of_lt hN]

/-- The output window's block index at point t is (t, 0). -/
theorem indexG8 (t : Fin (cfg8 a8).N) :
    ((cfg8 a8).win 0).index t (0 : Fin 2) = t.val ∧ ((cfg8 a8).win 0).index t (1 : Fin 2) = 0 := by
  have hN := ptsG8 a8 t
  refine ⟨?_, rfl⟩
  show (BitVec.ofNat 32 (((cfg8 a8).grid.coords t) (0 : Fin 1)).val).toNat = t.val
  rw [coordG8, BitVec.toNat_ofNat]
  exact Nat.mod_eq_of_lt (by omega)

/-- The block index moves at every step, so every point writes its block back. -/
theorem flushG8 (t : Fin (cfg8 a8).N) : ((cfg8 a8).win 0).flush t = true := by
  rw [Pipeline.Window.flush_out _ rfl]
  have ht : t.val < (cfg8 a8).grid.N := t.isLt
  by_cases h : t.val + 1 < (cfg8 a8).grid.N
  · refine .inr ⟨h, fun e => ?_⟩
    have e0 : ((cfg8 a8).win 0).index ⟨t.val + 1, h⟩ (0 : Fin 2) = ((cfg8 a8).win 0).index t (0 : Fin 2) :=
      congrFun e (0 : Fin 2)
    have e1 : ((cfg8 a8).win 0).index ⟨t.val + 1, h⟩ (0 : Fin 2) = t.val + 1 := (indexG8 a8 ⟨t.val + 1, h⟩).1
    have e2 : ((cfg8 a8).win 0).index t (0 : Fin 2) = t.val := (indexG8 a8 t).1
    omega
  · exact .inl (by omega)

/-! ## What a point writes back, and the array -/

variable (T : (c : Dev nD) → S50000x128.Idx → Elt F .f32) (row : (c : Dev nD) → Fin 85000 → Fin 50000)

/-- The array the region leaves on core c: its row r is the source's row  row r. -/
abbrev outG8 (c : Dev nD) : S85000x128.Idx → Elt F .f32 := fun i => T c (ValueIdx.ix2 (row c (i 0)) (i 1))

/-- One element of the block at point t is the array's element 8 t rows further down, in the same column. -/
theorem blockG8_apply
    (hblk : ∀ c (t : Fin (cfg8 a8).N) (j : Fin 8) (l : Fin 128) (h : 8 * t.val + j.val < 85000),
      gblk c t (ValueIdx.ix2 j l) = T c (ValueIdx.ix2 (row c ⟨8 * t.val + j.val, h⟩) l))
    (c : Dev nD) (t : Fin (cfg8 a8).N) (y : S8x128.Idx) (k : S85000x128.Idx)
    (hk0 : (k 0).val = 8 * t.val + (y 0).val) (hk1 : (k 1).val = (y 1).val) :
    gblk c t y = outG8 T row c k := by
  have hy0 : (y 0).val < 8 := (y 0).isLt
  have hN := ptsG8 a8 t
  have hb : 8 * t.val + (y 0).val < 85000 := by omega
  have h0 : (⟨8 * t.val + (y 0).val, hb⟩ : Fin 85000) = k 0 := Fin.ext hk0.symm
  have h1 : (y 1 : Fin 128) = k 1 := Fin.ext hk1.symm
  calc gblk c t y = gblk c t (ValueIdx.ix2 (y 0) (y 1)) := congrArg (gblk c t) (ValueIdx.eq_ix2 y)
    _ = T c (ValueIdx.ix2 (row c ⟨8 * t.val + (y 0).val, hb⟩) (y 1)) := hblk c t (y 0) (y 1) hb
    _ = outG8 T row c k := congrArg₂ (fun (p : Fin 85000) (l : Fin 128) => T c (ValueIdx.ix2 (row c p) l)) h0 h1

/-- WHAT POINT t WRITES BACK is block t of that array. -/
theorem flushedG8_eq
    (hblk : ∀ c (t : Fin (cfg8 a8).N) (j : Fin 8) (l : Fin 128) (h : 8 * t.val + j.val < 85000),
      gblk c t (ValueIdx.ix2 j l) = T c (ValueIdx.ix2 (row c ⟨8 * t.val + j.val, h⟩) l))
    (c : Dev nD) (t : Fin (cfg8 a8).N) :
    (datG8 V a8 gblk c).flushed 0 t = (((cfg8 a8).win 0).blk t).view.read (Elt F) (outG8 T row c) := by
  obtain ⟨e0, e1⟩ := indexG8 a8 t
  have key : ∀ y : S8x128.Idx, gblk c t y = outG8 T row c ((((cfg8 a8).win 0).blk t).view.emb y) := fun y =>
    blockG8_apply a8 gblk T row hblk c t y _
      (by show ((cfg8 a8).win 0).index t (0 : Fin 2) * 8 + 1 * (y 0).val = 8 * t.val + (y 0).val
          rw [e0]; omega)
      (by show ((cfg8 a8).win 0).index t (1 : Fin 2) * 128 + 1 * (y 1).val = (y 1).val
          rw [e1]; omega)
  exact funext key

/-- An index of the array whose row is among the rows 8 t … 8 t + 7 is in point t's block. -/
theorem mem_blkG8 (t : Fin (cfg8 a8).N) (i : S85000x128.Idx)
    (hi : 8 * t.val ≤ (i 0).val ∧ (i 0).val < 8 * t.val + 8) : i ∈ (((cfg8 a8).win 0).blk t).view.set := by
  obtain ⟨e0, e1⟩ := indexG8 a8 t
  have hi1 : (i 1).val < 128 := (i 1).isLt
  have hs : (((cfg8 a8).win 0).blk t).view.set = (((cfg8 a8).win 0).rect t).set :=
    View.set_slice_whole main_v49 (((cfg8 a8).win 0).rect t)
  have key : ∀ a : Fin 2, ((cfg8 a8).win 0).index t a * S8x128.size a ≤ (i a).val
      ∧ (i a).val < ((cfg8 a8).win 0).index t a * S8x128.size a + S8x128.size a := fun a =>
    match a with
    | ⟨0, _⟩ => by
      show ((cfg8 a8).win 0).index t (0 : Fin 2) * 8 ≤ (i 0).val ∧ (i 0).val < ((cfg8 a8).win 0).index t (0 : Fin 2) * 8 + 8
      rw [e0]; omega
    | ⟨1, _⟩ => by
      show ((cfg8 a8).win 0).index t (1 : Fin 2) * 128 ≤ (i 1).val ∧ (i 1).val < ((cfg8 a8).win 0).index t (1 : Fin 2) * 128 + 128
      rw [e1]; omega
  exact (Finset.ext_iff.mp hs i).mpr (Rect.mem_set_unit.mpr key)

/-- THE COVER: row r of the array lies in the block of point r / 8, and that point writes its block back. -/
theorem coverG8 (i : S85000x128.Idx) :
    ∃ t : Fin (cfg8 a8).N, ((cfg8 a8).win 0).flush t = true ∧ i ∈ (((cfg8 a8).win 0).blk t).view.set := by
  have hi0 : (i 0).val < 85000 := (i 0).isLt
  have ht : (i 0).val / 8 < (cfg8 a8).N := lt_of_lt_of_eq (by omega : (i 0).val / 8 < 10625) N_8.symm
  exact ⟨⟨(i 0).val / 8, ht⟩, flushG8 a8 _, mem_blkG8 a8 ⟨(i 0).val / 8, ht⟩ i
    (by show 8 * ((i 0).val / 8) ≤ (i 0).val ∧ (i 0).val < 8 * ((i 0).val / 8) + 8; omega)⟩

/-- THE ARRAY after the region: its row r is the source's row  row r. -/
theorem finalG8
    (hblk : ∀ c (t : Fin (cfg8 a8).N) (j : Fin 8) (l : Fin 128) (h : 8 * t.val + j.val < 85000),
      gblk c t (ValueIdx.ix2 j l) = T c (ValueIdx.ix2 (row c ⟨8 * t.val + j.val, h⟩) l))
    (c : Dev nD) :
    (datG8 V a8 gblk c).arrAt 0 (cfg8 a8).N
      = fun i : S85000x128.Idx => T c (ValueIdx.ix2 (row c (i 0)) (i 1)) :=
  (datG8 V a8 gblk c).arrAt_eq_of_cover 0 (outG8 T row c)
    (fun t _ => flushedG8_eq V a8 gblk T row hblk c t) (coverG8 a8)

/-- THE ARRAY, when the row numbers are the words of an index table tblw, each below 50000: row r is the source's row
    at the node that word r names (a word below 50000 names the node of that number). -/
theorem finalG8_node (tblw : IVec S85000 32) (hlt : ∀ k : S85000.Idx, (tblw k).toNat < 50000)
    (hblk : ∀ c (t : Fin (cfg8 a8).N) (j : Fin 8) (l : Fin 128) (h : 8 * t.val + j.val < 85000),
      gblk c t (ValueIdx.ix2 j l)
        = T c (ValueIdx.ix2 (⟨(tblw (ValueIdx.ix1 (⟨8 * t.val + j.val, h⟩ : Fin 85000))).toNat, hlt _⟩ : Fin 50000) l))
    (c : Dev nD) :
    (datG8 V a8 gblk c).arrAt 0 (cfg8 a8).N
      = fun i : S85000x128.Idx => T c (ValueIdx.ix2 (Cert.Spec.node (tblw (ValueIdx.ix1 (i 0)))) (i 1)) :=
  (finalG8 V a8 gblk T (fun _ p => ⟨(tblw (ValueIdx.ix1 p)).toNat, hlt _⟩) hblk c).trans
    (funext fun i => congrArg (fun p : Fin 50000 => T c (ValueIdx.ix2 p (i 1))) (Cert.Spec.node_of_lt (hlt _)).symm)

end Cert.KernelIdeal.Hand

end
-- ==== Proof.KI.GatherAt8.lean ====
/-
  Region 8 in the run: what it leaves, in terms of what the program's items before it left.

  Between the program's items core c's buffers hold the chain's valuations. Region 8's index table, as the region's
  proof data hold it, is the closed table of the launch memory, and every word of it is below 50000 when every word
  of the edge list is. So the region's output array holds, in its row r, the row — of the array the region reads — at
  the node that the table's word r names; and the array it reads is left as it was, which is as the item before the
  table's host stretch left it. No later item writes the output array before the host stretch that concatenates the
  gather outputs, so at that stretch's entry it holds the same rows (gat8: stated for whatever the array read holds).
-/
import proofs.«402049_j87351044866139_2_alg».proof.Proof.KI.Chain
import proofs.«402049_j87351044866139_2_alg».proof.Proof.KI.Carry
import proofs.«402049_j87351044866139_2_alg».proof.Proof.KI.GatherVal8
import proofs.«402049_j87351044866139_2_alg».proof.Proof.KI.Tables

set_option maxRecDepth 16384

noncomputable section

namespace Cert.KernelIdeal.Hand

open Cert.KernelIdeal Cert.KernelIdeal.Gen Cert.KernelIdeal.GenP
open Idealize.ShloMosaic Idealize.ShloMosaic.TcCoe
open Idealize.SL.Sem

variable {F : FTy → Type} [FloatOps F]
variable (m : (ℓ : Loc nD τ sig) → Buf (Elt F) ℓ)

/-- The index table the region's proof data hold is the closed table of the launch memory: the data hold what the
    chain's valuation at the region's entry has in the table's buffer, and that valuation is the run's own. -/
theorem tblwU8 : tblw8 (a8 m) = tbl8 m c₀ := by
  have h1 : tblw8 (a8 m) = (U19 m c₀ main_v48 : IVec S85000 32) := by
    unfold a8
    rfl
  have h2 : ∀ W : Valuation τ sig (Elt F), V19 m (outsU m) c₀ = W → (W main_v48 : IVec S85000 32) = tbl8 m c₀ :=
    fun W hW => by subst hW; exact tbl8_eq m (outsU m) c₀
  exact h1.trans (h2 (U19 m c₀) (V19_eq m c₀))

/-- The array the region reads, at the region's entry, is as the item before the table's host stretch left it. -/
theorem gin8 (c : Dev nD) : atTc (U19 m) c main_v33 = V18 m (outsU m) c main_v33 :=
  (congrFun (V19_eq m c) main_v33).symm.trans (V19_of m (outsU m) c main_v33 (by decide))

/-- THE ARRAY THE REGION READS is left as it was. -/
theorem gsrc8 (c : Dev nD) : V20 m (outsU m) c main_v33 = V18 m (outsU m) c main_v33 :=
  (congrFun (V20_eq m c) main_v33).trans ((U20_hbm m c).trans (gin8 m c))

/-- THE REGION'S OUTPUT: its row r is the row, of the array the region reads, at the node the table's word r names. -/
theorem g8_val (c : Dev nD) (hm : ∀ i : S2x800000.Idx, ((V0 m c main_arg1 : IVec S2x800000 32) i).toNat < 50000) :
    (V20 m (outsU m) c main_v49 : S85000x128.Idx → Elt F .f32)
      = fun i => (V18 m (outsU m) c main_v33 : S50000x128.Idx → Elt F .f32)
          (ValueIdx.ix2 (Cert.Spec.node (tbl8 m c (ValueIdx.ix1 (i 0)))) (i 1)) := by
  obtain rfl : c = c₀ := eq_c₀ c
  have hlt : ∀ k : S85000.Idx, (tblw8 (a8 m) k).toNat < 50000 := fun k => by
    rw [tblwU8]; exact tbl8_lt m c₀ hm k
  refine (congrFun (V20_eq m c₀) main_v49).trans ((U20_out m c₀).trans ?_)
  refine (finalG8_node (atTc (U19 m)) (a8 m) (gblk8 (atTc (U19 m)) (a8 m)) (fun c => V18 m (outsU m) c main_v33)
      (tblw8 (a8 m)) hlt
      (fun c t j l _ => (gblk8_apply (atTc (U19 m)) (a8 m) hlt c t j l).trans (congrFun (gin8 m c) _)) c₀).trans ?_
  rw [tblwU8]
  rfl

/-- THE REGION'S OUTPUT WHERE IT IS READ, at the entry of the host stretch that concatenates the gather outputs: the
    rows of T at the nodes the table names, when the array the region reads holds T. -/
theorem gat8 (c : Dev nD) (hm : ∀ i : S2x800000.Idx, ((V0 m c main_arg1 : IVec S2x800000 32) i).toNat < 50000)
    (T : S50000x128.Idx → Elt F .f32) (hT : V18 m (outsU m) c main_v33 = T) :
    (V24 m (outsU m) c main_v49 : S85000x128.Idx → Elt F .f32)
      = fun i => T (ValueIdx.ix2 (Cert.Spec.node (tbl8 m c (ValueIdx.ix1 (i 0)))) (i 1)) := by
  subst hT
  exact (carry8 m (outsU m) c).trans (g8_val m c hm)

end Cert.KernelIdeal.Hand

end
-- ==== Proof.KI.GatherVal9.lean ====
/-
  The value of the row-gather region 9: the array its output window leaves.

  At grid point t the region's output block holds, in its row j, the source's row  row (8 t + j).  The block sits at
  block index (t, 0) of the 85000 x 128 output array: it covers the rows 8 t … 8 t + 7 and all 128 columns. Every point
  writes its block back (the block index moves at every step), and row r of the array lies in the block of point r / 8,
  at the block's row r % 8. So the array ends with its row r equal to the source's row  row r,  for every r.

  The gathered block is taken abstractly here: any family of blocks that reads as above (the hypothesis of
  flushedG9_eq and finalG9) gives the array. When the row numbers are the words of an index table, each below 50000,
  row r of the array is the source's row at the node the table's word r names (finalG9_node).
-/
import proofs.«402049_j87351044866139_2_alg».proof.Proof.KI.Gather9
import proofs.«402049_j87351044866139_2_alg».proof.Proof.Spec
import Idealize.ShloMosaic.Lib.Pipeline.Value
import Idealize.ShloMosaic.Lib.ValueIdx

set_option maxRecDepth 16384

noncomputable section

namespace Cert.KernelIdeal.Hand

open Idealize.ShloMosaic Idealize.ShloMosaic.TcCoe
open Idealize.SL.Sem
open Idealize.ShloMosaic.Pipeline (Dat Cfg Window)
open Cert.KernelIdeal Cert.KernelIdeal.Gen

variable {F : FTy → Type} [FloatOps F]

variable (V : (c : Dev nD) → (b : Ref sig .tc) → Buf (Elt F) ((c : Thread nD τ).loc b))
variable (a9 : (pcfg9 (F := F)).Adm)
variable (gblk : (c : Dev nD) → Fin (cfg9 a9).N → S8x128.Idx → Elt F .f32)

/-! ## The grid and the output window's schedule -/

/-- The region's grid has 10625 points. -/
theorem ptsG9 (t : Fin (cfg9 a9).N) : t.val < 10625 := lt_of_lt_of_eq t.isLt N_9

/-- The grid has one axis, so point t has coordinate t. -/
theorem coordG9 (t : Fin (cfg9 a9).N) : (((cfg9 a9).grid.coords t) (0 : Fin 1)).val = t.val := by
  have hN := ptsG9 a9 t
  show t.val / (cfg9 a9).grid.stride (0 : Fin 1) % 10625 = t.val
  rw [show (cfg9 a9).grid.stride (0 : Fin 1) = 1 from rfl, Nat.div_one, Nat.mod_eq_of_lt hN]

/-- The output window's block index at point t is (t, 0). -/
theorem indexG9 (t : Fin (cfg9 a9).N) :
    ((cfg9 a9).win 0).index t (0 : Fin 2) = t.val ∧ ((cfg9 a9).win 0).index t (1 : Fin 2) = 0 := by
  have hN := ptsG9 a9 t
  refine ⟨?_, rfl⟩
  show (BitVec.ofNat 32 (((cfg9 a9).grid.coords t) (0 : Fin 1)).val).toNat = t.val
  rw [coordG9, BitVec.toNat_ofNat]
  exact Nat.mod_eq_of_lt (by omega)

/-- The block index moves at every step, so every point writes its block back. -/
theorem flushG9 (t : Fin (cfg9 a9).N) : ((cfg9 a9).win 0).flush t = true := by
  rw [Pipeline.Window.flush_out _ rfl]
  have ht : t.val < (cfg9 a9).grid.N := t.isLt
  by_cases h : t.val + 1 < (cfg9 a9).grid.N
  · refine .inr ⟨h, fun e => ?_⟩
    have e0 : ((cfg9 a9).win 0).index ⟨t.val + 1, h⟩ (0 : Fin 2) = ((cfg9 a9).win 0).index t (0 : Fin 2) :=
      congrFun e (0 : Fin 2)
    have e1 : ((cfg9 a9).win 0).index ⟨t.val + 1, h⟩ (0 : Fin 2) = t.val + 1 := (indexG9 a9 ⟨t.val + 1, h⟩).1
    have e2 : ((cfg9 a9).win 0).index t (0 : Fin 2) = t.val := (indexG9 a9 t).1
    omega
  · exact .inl (by omega)

/-! ## What a point writes back, and the array -/

variable (T : (c : Dev nD) → S50000x128.Idx → Elt F .f32) (row : (c : Dev nD) → Fin 85000 → Fin 50000)

/-- The array the region leaves on core c: its row r is the source's row  row r. -/
abbrev outG9 (c : Dev nD) : S85000x128.Idx → Elt F .f32 := fun i => T c (ValueIdx.ix2 (row c (i 0)) (i 1))

/-- One element of the block at point t is the array's element 8 t rows further down, in the same column. -/
theorem blockG9_apply
    (hblk : ∀ c (t : Fin (cfg9 a9).N) (j : Fin 8) (l : Fin 128) (h : 8 * t.val + j.val < 85000),
      gblk c t (ValueIdx.ix2 j l) = T c (ValueIdx.ix2 (row c ⟨8 * t.val + j.val, h⟩) l))
    (c : Dev nD) (t : Fin (cfg9 a9).N) (y : S8x128.Idx) (k : S85000x128.Idx)
    (hk0 : (k 0).val = 8 * t.val + (y 0).val) (hk1 : (k 1).val = (y 1).val) :
    gblk c t y = outG9 T row c k := by
  have hy0 : (y 0).val < 8 := (y 0).isLt
  have hN := ptsG9 a9 t
  have hb : 8 * t.val + (y 0).val < 85000 := by omega
  have h0 : (⟨8 * t.val + (y 0).val, hb⟩ : Fin 85000) = k 0 := Fin.ext hk0.symm
  have h1 : (y 1 : Fin 128) = k 1 := Fin.ext hk1.symm
  calc gblk c t y = gblk c t (ValueIdx.ix2 (y 0) (y 1)) := congrArg (gblk c t) (ValueIdx.eq_ix2 y)
    _ = T c (ValueIdx.ix2 (row c ⟨8 * t.val + (y 0).val, hb⟩) (y 1)) := hblk c t (y 0) (y 1) hb
    _ = outG9 T row c k := congrArg₂ (fun (p : Fin 85000) (l : Fin 128) => T c (ValueIdx.ix2 (row c p) l)) h0 h1

/-- WHAT POINT t WRITES BACK is block t of that array. -/
theorem flushedG9_eq
    (hblk : ∀ c (t : Fin (cfg9 a9).N) (j : Fin 8) (l : Fin 128) (h : 8 * t.val + j.val < 85000),
      gblk c t (ValueIdx.ix2 j l) = T c (ValueIdx.ix2 (row c ⟨8 * t.val + j.val, h⟩) l))
    (c : Dev nD) (t : Fin (cfg9 a9).N) :
    (datG9 V a9 gblk c).flushed 0 t = (((cfg9 a9).win 0).blk t).view.read (Elt F) (outG9 T row c) := by
  obtain ⟨e0, e1⟩ := indexG9 a9 t
  have key : ∀ y : S8x128.Idx, gblk c t y = outG9 T row c ((((cfg9 a9).win 0).blk t).view.emb y) := fun y =>
    blockG9_apply a9 gblk T row hblk c t y _
      (by show ((cfg9 a9).win 0).index t (0 : Fin 2) * 8 + 1 * (y 0).val = 8 * t.val + (y 0).val
          rw [e0]; omega)
      (by show ((cfg9 a9).win 0).index t (1 : Fin 2) * 128 + 1 * (y 1).val = (y 1).val
          rw [e1]; omega)
  exact funext key

/-- An index of the array whose row is among the rows 8 t … 8 t + 7 is in point t's block. -/
theorem mem_blkG9 (t : Fin (cfg9 a9).N) (i : S85000x128.Idx)
    (hi : 8 * t.val ≤ (i 0).val ∧ (i 0).val < 8 * t.val + 8) : i ∈ (((cfg9 a9).win 0).blk t).view.set := by
  obtain ⟨e0, e1⟩ := indexG9 a9 t
  have hi1 : (i 1).val < 128 := (i 1).isLt
  have hs : (((cfg9 a9).win 0).blk t).view.set = (((cfg9 a9).win 0).rect t).set :=
    View.set_slice_whole main_v51 (((cfg9 a9).win 0).rect t)
  have key : ∀ a : Fin 2, ((cfg9 a9).win 0).index t a * S8x128.size a ≤ (i a).val
      ∧ (i a).val < ((cfg9 a9).win 0).index t a * S8x128.size a + S8x128.size a := fun a =>
    match a with
    | ⟨0, _⟩ => by
      show ((cfg9 a9).win 0).index t (0 : Fin 2) * 8 ≤ (i 0).val ∧ (i 0).val < ((cfg9 a9).win 0).index t (0 : Fin 2) * 8 + 8
      rw [e0]; omega
    | ⟨1, _⟩ => by
      show ((cfg9 a9).win 0).index t (1 : Fin 2) * 128 ≤ (i 1).val ∧ (i 1).val < ((cfg9 a9).win 0).index t (1 : Fin 2) * 128 + 128
      rw [e1]; omega
  exact (Finset.ext_iff.mp hs i).mpr (Rect.mem_set_unit.mpr key)

/-- THE COVER: row r of the array lies in the block of point r / 8, and that point writes its block back. -/
theorem coverG9 (i : S85000x128.Idx) :
    ∃ t : Fin (cfg9 a9).N, ((cfg9 a9).win 0).flush t = true ∧ i ∈ (((cfg9 a9).win 0).blk t).view.set := by
  have hi0 : (i 0).val < 85000 := (i 0).isLt
  have ht : (i 0).val / 8 < (cfg9 a9).N := lt_of_lt_of_eq (by omega : (i 0).val / 8 < 10625) N_9.symm
  exact ⟨⟨(i 0).val / 8, ht⟩, flushG9 a9 _, mem_blkG9 a9 ⟨(i 0).val / 8, ht⟩ i
    (by show 8 * ((i 0).val / 8) ≤ (i 0).val ∧ (i 0).val < 8 * ((i 0).val / 8) + 8; omega)⟩

/-- THE ARRAY after the region: its row r is the source's row  row r. -/
theorem finalG9
    (hblk : ∀ c (t : Fin (cfg9 a9).N) (j : Fin 8) (l : Fin 128) (h : 8 * t.val + j.val < 85000),
      gblk c t (ValueIdx.ix2 j l) = T c (ValueIdx.ix2 (row c ⟨8 * t.val + j.val, h⟩) l))
    (c : Dev nD) :
    (datG9 V a9 gblk c).arrAt 0 (cfg9 a9).N
      = fun i : S85000x128.Idx => T c (ValueIdx.ix2 (row c (i 0)) (i 1)) :=
  (datG9 V a9 gblk c).arrAt_eq_of_cover 0 (outG9 T row c)
    (fun t _ => flushedG9_eq V a9 gblk T row hblk c t) (coverG9 a9)

/-- THE ARRAY, when the row numbers are the words of an index table tblw, each below 50000: row r is the source's row
    at the node that word r names (a word below 50000 names the node of that number). -/
theorem finalG9_node (tblw : IVec S85000 32) (hlt : ∀ k : S85000.Idx, (tblw k).toNat < 50000)
    (hblk : ∀ c (t : Fin (cfg9 a9).N) (j : Fin 8) (l : Fin 128) (h : 8 * t.val + j.val < 85000),
      gblk c t (ValueIdx.ix2 j l)
        = T c (ValueIdx.ix2 (⟨(tblw (ValueIdx.ix1 (⟨8 * t.val + j.val, h⟩ : Fin 85000))).toNat, hlt _⟩ : Fin 50000) l))
    (c : Dev nD) :
    (datG9 V a9 gblk c).arrAt 0 (cfg9 a9).N
      = fun i : S85000x128.Idx => T c (ValueIdx.ix2 (Cert.Spec.node (tblw (ValueIdx.ix1 (i 0)))) (i 1)) :=
  (finalG9 V a9 gblk T (fun _ p => ⟨(tblw (ValueIdx.ix1 p)).toNat, hlt _⟩) hblk c).trans
    (funext fun i => congrArg (fun p : Fin 50000 => T c (ValueIdx.ix2 p (i 1))) (Cert.Spec.node_of_lt (hlt _)).symm)

end Cert.KernelIdeal.Hand

end
-- ==== Proof.KI.GatherAt9.lean ====
/-
  Region 9 in the run: what it leaves, in terms of what the program's items before it left.

  Between the program's items core c's buffers hold the chain's valuations. Region 9's index table, as the region's
  proof data hold it, is the closed table of the launch memory, and every word of it is below 50000 when every word
  of the edge list is. So the region's output array holds, in its row r, the row — of the array the region reads — at
  the node that the table's word r names; and the array it reads is left as it was, which is as the item before the
  table's host stretch left it. No later item writes the output array before the host stretch that concatenates the
  gather outputs, so at that stretch's entry it holds the same rows (gat9: stated for whatever the array read holds).
-/
import proofs.«402049_j87351044866139_2_alg».proof.Proof.KI.Chain
import proofs.«402049_j87351044866139_2_alg».proof.Proof.KI.Carry
import proofs.«402049_j87351044866139_2_alg».proof.Proof.KI.GatherVal9
import proofs.«402049_j87351044866139_2_alg».proof.Proof.KI.Tables

set_option maxRecDepth 16384

noncomputable section

namespace Cert.KernelIdeal.Hand

open Cert.KernelIdeal Cert.KernelIdeal.Gen Cert.KernelIdeal.GenP
open Idealize.ShloMosaic Idealize.ShloMosaic.TcCoe
open Idealize.SL.Sem

variable {F : FTy → Type} [FloatOps F]
variable (m : (ℓ : Loc nD τ sig) → Buf (Elt F) ℓ)

/-- The index table the region's proof data hold is the closed table of the launch memory: the data hold what the
    chain's valuation at the region's entry has in the table's buffer, and that valuation is the run's own. -/
theorem tblwU9 : tblw9 (a9 m) = tbl9 m c₀ := by
  have h1 : tblw9 (a9 m) = (U21 m c₀ main_v50 : IVec S85000 32) := by
    unfold a9
    rfl
  have h2 : ∀ W : Valuation τ sig (Elt F), V21 m (outsU m) c₀ = W → (W main_v50 : IVec S85000 32) = tbl9 m c₀ :=
    fun W hW => by subst hW; exact tbl9_eq m (outsU m) c₀
  exact h1.trans (h2 (U21 m c₀) (V21_eq m c₀))

/-- The array the region reads, at the region's entry, is as the item before the table's host stretch left it. -/
theorem gin9 (c : Dev nD) : atTc (U21 m) c main_v33 = V20 m (outsU m) c main_v33 :=
  (congrFun (V21_eq m c) main_v33).symm.trans (V21_of m (outsU m) c main_v33 (by decide))

/-- THE ARRAY THE REGION READS is left as it was. -/
theorem gsrc9 (c : Dev nD) : V22 m (outsU m) c main_v33 = V20 m (outsU m) c main_v33 :=
  (congrFun (V22_eq m c) main_v33).trans ((U22_hbm m c).trans (gin9 m c))

/-- THE REGION'S OUTPUT: its row r is the row, of the array the region reads, at the node the table's word r names. -/
theorem g9_val (c : Dev nD) (hm : ∀ i : S2x800000.Idx, ((V0 m c main_arg1 : IVec S2x800000 32) i).toNat < 50000) :
    (V22 m (outsU m) c main_v51 : S85000x128.Idx → Elt F .f32)
      = fun i => (V20 m (outsU m) c main_v33 : S50000x128.Idx → Elt F .f32)
          (ValueIdx.ix2 (Cert.Spec.node (tbl9 m c (ValueIdx.ix1 (i 0)))) (i 1)) := by
  obtain rfl : c = c₀ := eq_c₀ c
  have hlt : ∀ k : S85000.Idx, (tblw9 (a9 m) k).toNat < 50000 := fun k => by
    rw [tblwU9]; exact tbl9_lt m c₀ hm k
  refine (congrFun (V22_eq m c₀) main_v51).trans ((U22_out m c₀).trans ?_)
  refine (finalG9_node (atTc (U21 m)) (a9 m) (gblk9 (atTc (U21 m)) (a9 m)) (fun c => V20 m (outsU m) c main_v33)
      (tblw9 (a9 m)) hlt
      (fun c t j l _ => (gblk9_apply (atTc (U21 m)) (a9 m) hlt c t j l).trans (congrFun (gin9 m c) _)) c₀).trans ?_
  rw [tblwU9]
  rfl

/-- THE REGION'S OUTPUT WHERE IT IS READ, at the entry of the host stretch that concatenates the gather outputs: the
    rows of T at the nodes the table names, when the array the region reads holds T. -/
theorem gat9 (c : Dev nD) (hm : ∀ i : S2x800000.Idx, ((V0 m c main_arg1 : IVec S2x800000 32) i).toNat < 50000)
    (T : S50000x128.Idx → Elt F .f32) (hT : V20 m (outsU m) c main_v33 = T) :
    (V24 m (outsU m) c main_v51 : S85000x128.Idx → Elt F .f32)
      = fun i => T (ValueIdx.ix2 (Cert.Spec.node (tbl9 m c (ValueIdx.ix1 (i 0)))) (i 1)) := by
  subst hT
  exact (carry9 m (outsU m) c).trans (g9_val m c hm)

end Cert.KernelIdeal.Hand

end
-- ==== Proof.KI.GatherVal10.lean ====
/-
  The value of the row-gather region 10: the array its output window leaves.

  At grid point t the region's output block holds, in its row j, the source's row  row (8 t + j).  The block sits at
  block index (t, 0) of the 85000 x 128 output array: it covers the rows 8 t … 8 t + 7 and all 128 columns. Every point
  writes its block back (the block index moves at every step), and row r of the array lies in the block of point r / 8,
  at the block's row r % 8. So the array ends with its row r equal to the source's row  row r,  for every r.

  The gathered block is taken abstractly here: any family of blocks that reads as above (the hypothesis of
  flushedG10_eq and finalG10) gives the array. When the row numbers are the words of an index table, each below 50000,
  row r of the array is the source's row at the node the table's word r names (finalG10_node).
-/
import proofs.«402049_j87351044866139_2_alg».proof.Proof.KI.Gather10
import proofs.«402049_j87351044866139_2_alg».proof.Proof.Spec
import Idealize.ShloMosaic.Lib.Pipeline.Value
import Idealize.ShloMosaic.Lib.ValueIdx

set_option maxRecDepth 16384

noncomputable section

namespace Cert.KernelIdeal.Hand

open Idealize.ShloMosaic Idealize.ShloMosaic.TcCoe
open Idealize.SL.Sem
open Idealize.ShloMosaic.Pipeline (Dat Cfg Window)
open Cert.KernelIdeal Cert.KernelIdeal.Gen

variable {F : FTy → Type} [FloatOps F]

variable (V : (c : Dev nD) → (b : Ref sig .tc) → Buf (Elt F) ((c : Thread nD τ).loc b))
variable (a10 : (pcfg10 (F := F)).Adm)
variable (gblk : (c : Dev nD) → Fin (cfg10 a10).N → S8x128.Idx → Elt F .f32)

/-! ## The grid and the output window's schedule -/

/-- The region's grid has 10625 points. -/
theorem ptsG10 (t : Fin (cfg10 a10).N) : t.val < 10625 := lt_of_lt_of_eq t.isLt N_10

/-- The grid has one axis, so point t has coordinate t. -/
theorem coordG10 (t : Fin (cfg10 a10).N) : (((cfg10 a10).grid.coords t) (0 : Fin 1)).val = t.val := by
  have hN := ptsG10 a10 t
  show t.val / (cfg10 a10).grid.stride (0 : Fin 1) % 10625 = t.val
  rw [show (cfg10 a10).grid.stride (0 : Fin 1) = 1 from rfl, Nat.div_one, Nat.mod_eq_of_lt hN]

/-- The output window's block index at point t is (t, 0). -/
theorem indexG10 (t : Fin (cfg10 a10).N) :
    ((cfg10 a10).win 0).index t (0 : Fin 2) = t.val ∧ ((cfg10 a10).win 0).index t (1 : Fin 2) = 0 := by
  have hN := ptsG10 a10 t
  refine ⟨?_, rfl⟩
  show (BitVec.ofNat 32 (((cfg10 a10).grid.coords t) (0 : Fin 1)).val).toNat = t.val
  rw [coordG10, BitVec.toNat_ofNat]
  exact Nat.mod_eq_of_lt (by omega)

/-- The block index moves at every step, so every point writes its block back. -/
theorem flushG10 (t : Fin (cfg10 a10).N) : ((cfg10 a10).win 0).flush t = true := by
  rw [Pipeline.Window.flush_out _ rfl]
  have ht : t.val < (cfg10 a10).grid.N := t.isLt
  by_cases h : t.val + 1 < (cfg10 a10).grid.N
  · refine .inr ⟨h, fun e => ?_⟩
    have e0 : ((cfg10 a10).win 0).index ⟨t.val + 1, h⟩ (0 : Fin 2) = ((cfg10 a10).win 0).index t (0 : Fin 2) :=
      congrFun e (0 : Fin 2)
    have e1 : ((cfg10 a10).win 0).index ⟨t.val + 1, h⟩ (0 : Fin 2) = t.val + 1 := (indexG10 a10 ⟨t.val + 1, h⟩).1
    have e2 : ((cfg10 a10).win 0).index t (0 : Fin 2) = t.val := (indexG10 a10 t).1
    omega
  · exact .inl (by omega)

/-! ## What a point writes back, and the array -/

variable (T : (c : Dev nD) → S50000x128.Idx → Elt F .f32) (row : (c : Dev nD) → Fin 85000 → Fin 50000)

/-- The array the region leaves on core c: its row r is the source's row  row r. -/
abbrev outG10 (c : Dev nD) : S85000x128.Idx → Elt F .f32 := fun i => T c (ValueIdx.ix2 (row c (i 0)) (i 1))

/-- One element of the block at point t is the array's element 8 t rows further down, in the same column. -/
theorem blockG10_apply
    (hblk : ∀ c (t : Fin (cfg10 a10).N) (j : Fin 8) (l : Fin 128) (h : 8 * t.val + j.val < 85000),
      gblk c t (ValueIdx.ix2 j l) = T c (ValueIdx.ix2 (row c ⟨8 * t.val + j.val, h⟩) l))
    (c : Dev nD) (t : Fin (cfg10 a10).N) (y : S8x128.Idx) (k : S85000x128.Idx)
    (hk0 : (k 0).val = 8 * t.val + (y 0).val) (hk1 : (k 1).val = (y 1).val) :
    gblk c t y = outG10 T row c k := by
  have hy0 : (y 0).val < 8 := (y 0).isLt
  have hN := ptsG10 a10 t
  have hb : 8 * t.val + (y 0).val < 85000 := by omega
  have h0 : (⟨8 * t.val + (y 0).val, hb⟩ : Fin 85000) = k 0 := Fin.ext hk0.symm
  have h1 : (y 1 : Fin 128) = k 1 := Fin.ext hk1.symm
  calc gblk c t y = gblk c t (ValueIdx.ix2 (y 0) (y 1)) := congrArg (gblk c t) (ValueIdx.eq_ix2 y)
    _ = T c (ValueIdx.ix2 (row c ⟨8 * t.val + (y 0).val, hb⟩) (y 1)) := hblk c t (y 0) (y 1) hb
    _ = outG10 T row c k := congrArg₂ (fun (p : Fin 85000) (l : Fin 128) => T c (ValueIdx.ix2 (row c p) l)) h0 h1

/-- WHAT POINT t WRITES BACK is block t of that array. -/
theorem flushedG10_eq
    (hblk : ∀ c (t : Fin (cfg10 a10).N) (j : Fin 8) (l : Fin 128) (h : 8 * t.val + j.val < 85000),
      gblk c t (ValueIdx.ix2 j l) = T c (ValueIdx.ix2 (row c ⟨8 * t.val + j.val, h⟩) l))
    (c : Dev nD) (t : Fin (cfg10 a10).N) :
    (datG10 V a10 gblk c).flushed 0 t = (((cfg10 a10).win 0).blk t).view.read (Elt F) (outG10 T row c) := by
  obtain ⟨e0, e1⟩ := indexG10 a10 t
  have key : ∀ y : S8x128.Idx, gblk c t y = outG10 T row c ((((cfg10 a10).win 0).blk t).view.emb y) := fun y =>
    blockG10_apply a10 gblk T row hblk c t y _
      (by show ((cfg10 a10).win 0).index t (0 : Fin 2) * 8 + 1 * (y 0).val = 8 * t.val + (y 0).val
          rw [e0]; omega)
      (by show ((cfg10 a10).win 0).index t (1 : Fin 2) * 128 + 1 * (y 1).val = (y 1).val
          rw [e1]; omega)
  exact funext key

/-- An index of the array whose row is among the rows 8 t … 8 t + 7 is in point t's block. -/
theorem mem_blkG10 (t : Fin (cfg10 a10).N) (i : S85000x128.Idx)
    (hi : 8 * t.val ≤ (i 0).val ∧ (i 0).val < 8 * t.val + 8) : i ∈ (((cfg10 a10).win 0).blk t).view.set := by
  obtain ⟨e0, e1⟩ := indexG10 a10 t
  have hi1 : (i 1).val < 128 := (i 1).isLt
  have hs : (((cfg10 a10).win 0).blk t).view.set = (((cfg10 a10).win 0).rect t).set :=
    View.set_slice_whole main_v53 (((cfg10 a10).win 0).rect t)
  have key : ∀ a : Fin 2, ((cfg10 a10).win 0).index t a * S8x128.size a ≤ (i a).val
      ∧ (i a).val < ((cfg10 a10).win 0).index t a * S8x128.size a + S8x128.size a := fun a =>
    match a with
    | ⟨0, _⟩ => by
      show ((cfg10 a10).win 0).index t (0 : Fin 2) * 8 ≤ (i 0).val ∧ (i 0).val < ((cfg10 a10).win 0).index t (0 : Fin 2) * 8 + 8
      rw [e0]; omega
    | ⟨1, _⟩ => by
      show ((cfg10 a10).win 0).index t (1 : Fin 2) * 128 ≤ (i 1).val ∧ (i 1).val < ((cfg10 a10).win 0).index t (1 : Fin 2) * 128 + 128
      rw [e1]; omega
  exact (Finset.ext_iff.mp hs i).mpr (Rect.mem_set_unit.mpr key)

/-- THE COVER: row r of the array lies in the block of point r / 8, and that point writes its block back. -/
theorem coverG10 (i : S85000x128.Idx) :
    ∃ t : Fin (cfg10 a10).N, ((cfg10 a10).win 0).flush t = true ∧ i ∈ (((cfg10 a10).win 0).blk t).view.set := by
  have hi0 : (i 0).val < 85000 := (i 0).isLt
  have ht : (i 0).val / 8 < (cfg10 a10).N := lt_of_lt_of_eq (by omega : (i 0).val / 8 < 10625) N_10.symm
  exact ⟨⟨(i 0).val / 8, ht⟩, flushG10 a10 _, mem_blkG10 a10 ⟨(i 0).val / 8, ht⟩ i
    (by show 8 * ((i 0).val / 8) ≤ (i 0).val ∧ (i 0).val < 8 * ((i 0).val / 8) + 8; omega)⟩

/-- THE ARRAY after the region: its row r is the source's row  row r. -/
theorem finalG10
    (hblk : ∀ c (t : Fin (cfg10 a10).N) (j : Fin 8) (l : Fin 128) (h : 8 * t.val + j.val < 85000),
      gblk c t (ValueIdx.ix2 j l) = T c (ValueIdx.ix2 (row c ⟨8 * t.val + j.val, h⟩) l))
    (c : Dev nD) :
    (datG10 V a10 gblk c).arrAt 0 (cfg10 a10).N
      = fun i : S85000x128.Idx => T c (ValueIdx.ix2 (row c (i 0)) (i 1)) :=
  (datG10 V a10 gblk c).arrAt_eq_of_cover 0 (outG10 T row c)
    (fun t _ => flushedG10_eq V a10 gblk T row hblk c t) (coverG10 a10)

/-- THE ARRAY, when the row numbers are the words of an index table tblw, each below 50000: row r is the source's row
    at the node that word r names (a word below 50000 names the node of that number). -/
theorem finalG10_node (tblw : IVec S85000 32) (hlt : ∀ k : S85000.Idx, (tblw k).toNat < 50000)
    (hblk : ∀ c (t : Fin (cfg10 a10).N) (j : Fin 8) (l : Fin 128) (h : 8 * t.val + j.val < 85000),
      gblk c t (ValueIdx.ix2 j l)
        = T c (ValueIdx.ix2 (⟨(tblw (ValueIdx.ix1 (⟨8 * t.val + j.val, h⟩ : Fin 85000))).toNat, hlt _⟩ : Fin 50000) l))
    (c : Dev nD) :
    (datG10 V a10 gblk c).arrAt 0 (cfg10 a10).N
      = fun i : S85000x128.Idx => T c (ValueIdx.ix2 (Cert.Spec.node (tblw (ValueIdx.ix1 (i 0)))) (i 1)) :=
  (finalG10 V a10 gblk T (fun _ p => ⟨(tblw (ValueIdx.ix1 p)).toNat, hlt _⟩) hblk c).trans
    (funext fun i => congrArg (fun p : Fin 50000 => T c (ValueIdx.ix2 p (i 1))) (Cert.Spec.node_of_lt (hlt _)).symm)

end Cert.KernelIdeal.Hand

end
-- ==== Proof.KI.GatherAt10.lean ====
/-
  Region 10 in the run: what it leaves, in terms of what the program's items before it left.

  Between the program's items core c's buffers hold the chain's valuations. Region 10's index table, as the region's
  proof data hold it, is the closed table of the launch memory, and every word of it is below 50000 when every word
  of the edge list is. So the region's output array holds, in its row r, the row — of the array the region reads — at
  the node that the table's word r names; and the array it reads is left as it was, which is as the item before the
  table's host stretch left it. No later item writes the output array before the host stretch that concatenates the
  gather outputs, so at that stretch's entry it holds the same rows (gat10: stated for whatever the array read holds).
-/
import proofs.«402049_j87351044866139_2_alg».proof.Proof.KI.Chain
import proofs.«402049_j87351044866139_2_alg».proof.Proof.KI.Carry
import proofs.«402049_j87351044866139_2_alg».proof.Proof.KI.GatherVal10
import proofs.«402049_j87351044866139_2_alg».proof.Proof.KI.Tables

set_option maxRecDepth 16384

noncomputable section

namespace Cert.KernelIdeal.Hand

open Cert.KernelIdeal Cert.KernelIdeal.Gen Cert.KernelIdeal.GenP
open Idealize.ShloMosaic Idealize.ShloMosaic.TcCoe
open Idealize.SL.Sem

variable {F : FTy → Type} [FloatOps F]
variable (m : (ℓ : Loc nD τ sig) → Buf (Elt F) ℓ)

/-- The index table the region's proof data hold is the closed table of the launch memory: the data hold what the
    chain's valuation at the region's entry has in the table's buffer, and that valuation is the run's own. -/
theorem tblwU10 : tblw10 (a10 m) = tbl10 m c₀ := by
  have h1 : tblw10 (a10 m) = (U23 m c₀ main_v52 : IVec S85000 32) := by
    unfold a10
    rfl
  have h2 : ∀ W : Valuation τ sig (Elt F), V23 m (outsU m) c₀ = W → (W main_v52 : IVec S85000 32) = tbl10 m c₀ :=
    fun W hW => by subst hW; exact tbl10_eq m (outsU m) c₀
  exact h1.trans (h2 (U23 m c₀) (V23_eq m c₀))

/-- The array the region reads, at the region's entry, is as the item before the table's host stretch left it. -/
theorem gin10 (c : Dev nD) : atTc (U23 m) c main_v33 = V22 m (outsU m) c main_v33 :=
  (congrFun (V23_eq m c) main_v33).symm.trans (V23_of m (outsU m) c main_v33 (by decide))

/-- THE ARRAY THE REGION READS is left as it was. -/
theorem gsrc10 (c : Dev nD) : V24 m (outsU m) c main_v33 = V22 m (outsU m) c main_v33 :=
  (congrFun (V24_eq m c) main_v33).trans ((U24_hbm m c).trans (gin10 m c))

/-- THE REGION'S OUTPUT: its row r is the row, of the array the region reads, at the node the table's word r names. -/
theorem g10_val (c : Dev nD) (hm : ∀ i : S2x800000.Idx, ((V0 m c main_arg1 : IVec S2x800000 32) i).toNat < 50000) :
    (V24 m (outsU m) c main_v53 : S85000x128.Idx → Elt F .f32)
      = fun i => (V22 m (outsU m) c main_v33 : S50000x128.Idx → Elt F .f32)
          (ValueIdx.ix2 (Cert.Spec.node (tbl10 m c (ValueIdx.ix1 (i 0)))) (i 1)) := by
  obtain rfl : c = c₀ := eq_c₀ c
  have hlt : ∀ k : S85000.Idx, (tblw10 (a10 m) k).toNat < 50000 := fun k => by
    rw [tblwU10]; exact tbl10_lt m c₀ hm k
  refine (congrFun (V24_eq m c₀) main_v53).trans ((U24_out m c₀).trans ?_)
  refine (finalG10_node (atTc (U23 m)) (a10 m) (gblk10 (atTc (U23 m)) (a10 m)) (fun c => V22 m (outsU m) c main_v33)
      (tblw10 (a10 m)) hlt
      (fun c t j l _ => (gblk10_apply (atTc (U23 m)) (a10 m) hlt c t j l).trans (congrFun (gin10 m c) _)) c₀).trans ?_
  rw [tblwU10]
  rfl

/-- THE REGION'S OUTPUT WHERE IT IS READ, at the entry of the host stretch that concatenates the gather outputs: the
    rows of T at the nodes the table names, when the array the region reads holds T. -/
theorem gat10 (c : Dev nD) (hm : ∀ i : S2x800000.Idx, ((V0 m c main_arg1 : IVec S2x800000 32) i).toNat < 50000)
    (T : S50000x128.Idx → Elt F .f32) (hT : V22 m (outsU m) c main_v33 = T) :
    (V24 m (outsU m) c main_v53 : S85000x128.Idx → Elt F .f32)
      = fun i => T (ValueIdx.ix2 (Cert.Spec.node (tbl10 m c (ValueIdx.ix1 (i 0)))) (i 1)) := by
  subst hT
  exact (carry10 m (outsU m) c).trans (g10_val m c hm)

end Cert.KernelIdeal.Hand

end
-- ==== Proof.KI.GatherVal12.lean ====
/-
  The value of the row-gather region 12: the array its output window leaves.

  At grid point t the region's output block holds, in its row j, the source's row  row (8 t + j).  The block sits at
  block index (t, 0) of the 85000 x 128 output array: it covers the rows 8 t … 8 t + 7 and all 128 columns. Every point
  writes its block back (the block index moves at every step), and row r of the array lies in the block of point r / 8,
  at the block's row r % 8. So the array ends with its row r equal to the source's row  row r,  for every r.

  The gathered block is taken abstractly here: any family of blocks that reads as above (the hypothesis of
  flushedG12_eq and finalG12) gives the array. When the row numbers are the words of an index table, each below 50000,
  row r of the array is the source's row at the node the table's word r names (finalG12_node).
-/
import proofs.«402049_j87351044866139_2_alg».proof.Proof.KI.Gather12
import proofs.«402049_j87351044866139_2_alg».proof.Proof.Spec
import Idealize.ShloMosaic.Lib.Pipeline.Value
import Idealize.ShloMosaic.Lib.ValueIdx

set_option maxRecDepth 16384

noncomputable section

namespace Cert.KernelIdeal.Hand

open Idealize.ShloMosaic Idealize.ShloMosaic.TcCoe
open Idealize.SL.Sem
open Idealize.ShloMosaic.Pipeline (Dat Cfg Window)
open Cert.KernelIdeal Cert.KernelIdeal.Gen

variable {F : FTy → Type} [FloatOps F]

variable (V : (c : Dev nD) → (b : Ref sig .tc) → Buf (Elt F) ((c : Thread nD τ).loc b))
variable (a12 : (pcfg12 (F := F)).Adm)
variable (gblk : (c : Dev nD) → Fin (cfg12 a12).N → S8x128.Idx → Elt F .f32)

/-! ## The grid and the output window's schedule -/

/-- The region's grid has 10625 points. -/
theorem ptsG12 (t : Fin (cfg12 a12).N) : t.val < 10625 := lt_of_lt_of_eq t.isLt N_12

/-- The grid has one axis, so point t has coordinate t. -/
theorem coordG12 (t : Fin (cfg12 a12).N) : (((cfg12 a12).grid.coords t) (0 : Fin 1)).val = t.val := by
  have hN := ptsG12 a12 t
  show t.val / (cfg12 a12).grid.stride (0 : Fin 1) % 10625 = t.val
  rw [show (cfg12 a12).grid.stride (0 : Fin 1) = 1 from rfl, Nat.div_one, Nat.mod_eq_of_lt hN]

/-- The output window's block index at point t is (t, 0). -/
theorem indexG12 (t : Fin (cfg12 a12).N) :
    ((cfg12 a12).win 0).index t (0 : Fin 2) = t.val ∧ ((cfg12 a12).win 0).index t (1 : Fin 2) = 0 := by
  have hN := ptsG12 a12 t
  refine ⟨?_, rfl⟩
  show (BitVec.ofNat 32 (((cfg12 a12).grid.coords t) (0 : Fin 1)).val).toNat = t.val
  rw [coordG12, BitVec.toNat_ofNat]
  exact Nat.mod_eq_of_lt (by omega)

/-- The block index moves at every step, so every point writes its block back. -/
theorem flushG12 (t : Fin (cfg12 a12).N) : ((cfg12 a12).win 0).flush t = true := by
  rw [Pipeline.Window.flush_out _ rfl]
  have ht : t.val < (cfg12 a12).grid.N := t.isLt
  by_cases h : t.val + 1 < (cfg12 a12).grid.N
  · refine .inr ⟨h, fun e => ?_⟩
    have e0 : ((cfg12 a12).win 0).index ⟨t.val + 1, h⟩ (0 : Fin 2) = ((cfg12 a12).win 0).index t (0 : Fin 2) :=
      congrFun e (0 : Fin 2)
    have e1 : ((cfg12 a12).win 0).index ⟨t.val + 1, h⟩ (0 : Fin 2) = t.val + 1 := (indexG12 a12 ⟨t.val + 1, h⟩).1
    have e2 : ((cfg12 a12).win 0).index t (0 : Fin 2) = t.val := (indexG12 a12 t).1
    omega
  · exact .inl (by omega)

/-! ## What a point writes back, and the array -/

variable (T : (c : Dev nD) → S50000x128.Idx → Elt F .f32) (row : (c : Dev nD) → Fin 85000 → Fin 50000)

/-- The array the region leaves on core c: its row r is the source's row  row r. -/
abbrev outG12 (c : Dev nD) : S85000x128.Idx → Elt F .f32 := fun i => T c (ValueIdx.ix2 (row c (i 0)) (i 1))

/-- One element of the block at point t is the array's element 8 t rows further down, in the same column. -/
theorem blockG12_apply
    (hblk : ∀ c (t : Fin (cfg12 a12).N) (j : Fin 8) (l : Fin 128) (h : 8 * t.val + j.val < 85000),
      gblk c t (ValueIdx.ix2 j l) = T c (ValueIdx.ix2 (row c ⟨8 * t.val + j.val, h⟩) l))
    (c : Dev nD) (t : Fin (cfg12 a12).N) (y : S8x128.Idx) (k : S85000x128.Idx)
    (hk0 : (k 0).val = 8 * t.val + (y 0).val) (hk1 : (k 1).val = (y 1).val) :
    gblk c t y = outG12 T row c k := by
  have hy0 : (y 0).val < 8 := (y 0).isLt
  have hN := ptsG12 a12 t
  have hb : 8 * t.val + (y 0).val < 85000 := by omega
  have h0 : (⟨8 * t.val + (y 0).val, hb⟩ : Fin 85000) = k 0 := Fin.ext hk0.symm
  have h1 : (y 1 : Fin 128) = k 1 := Fin.ext hk1.symm
  calc gblk c t y = gblk c t (ValueIdx.ix2 (y 0) (y 1)) := congrArg (gblk c t) (ValueIdx.eq_ix2 y)
    _ = T c (ValueIdx.ix2 (row c ⟨8 * t.val + (y 0).val, hb⟩) (y 1)) := hblk c t (y 0) (y 1) hb
    _ = outG12 T row c k := congrArg₂ (fun (p : Fin 85000) (l : Fin 128) => T c (ValueIdx.ix2 (row c p) l)) h0 h1

/-- WHAT POINT t WRITES BACK is block t of that array. -/
theorem flushedG12_eq
    (hblk : ∀ c (t : Fin (cfg12 a12).N) (j : Fin 8) (l : Fin 128) (h : 8 * t.val + j.val < 85000),
      gblk c t (ValueIdx.ix2 j l) = T c (ValueIdx.ix2 (row c ⟨8 * t.val + j.val, h⟩) l))
    (c : Dev nD) (t : Fin (cfg12 a12).N) :
    (datG12 V a12 gblk c).flushed 0 t = (((cfg12 a12).win 0).blk t).view.read (Elt F) (outG12 T row c) := by
  obtain ⟨e0, e1⟩ := indexG12 a12 t
  have key : ∀ y : S8x128.Idx, gblk c t y = outG12 T row c ((((cfg12 a12).win 0).blk t).view.emb y) := fun y =>
    blockG12_apply a12 gblk T row hblk c t y _
      (by show ((cfg12 a12).win 0).index t (0 : Fin 2) * 8 + 1 * (y 0).val = 8 * t.val + (y 0).val
          rw [e0]; omega)
      (by show ((cfg12 a12).win 0).index t (1 : Fin 2) * 128 + 1 * (y 1).val = (y 1).val
          rw [e1]; omega)
  exact funext key

/-- An index of the array whose row is among the rows 8 t … 8 t + 7 is in point t's block. -/
theorem mem_blkG12 (t : Fin (cfg12 a12).N) (i : S85000x128.Idx)
    (hi : 8 * t.val ≤ (i 0).val ∧ (i 0).val < 8 * t.val + 8) : i ∈ (((cfg12 a12).win 0).blk t).view.set := by
  obtain ⟨e0, e1⟩ := indexG12 a12 t
  have hi1 : (i 1).val < 128 := (i 1).isLt
  have hs : (((cfg12 a12).win 0).blk t).view.set = (((cfg12 a12).win 0).rect t).set :=
    View.set_slice_whole main_v63 (((cfg12 a12).win 0).rect t)
  have key : ∀ a : Fin 2, ((cfg12 a12).win 0).index t a * S8x128.size a ≤ (i a).val
      ∧ (i a).val < ((cfg12 a12).win 0).index t a * S8x128.size a + S8x128.size a := fun a =>
    match a with
    | ⟨0, _⟩ => by
      show ((cfg12 a12).win 0).index t (0 : Fin 2) * 8 ≤ (i 0).val ∧ (i 0).val < ((cfg12 a12).win 0).index t (0 : Fin 2) * 8 + 8
      rw [e0]; omega
    | ⟨1, _⟩ => by
      show ((cfg12 a12).win 0).index t (1 : Fin 2) * 128 ≤ (i 1).val ∧ (i 1).val < ((cfg12 a12).win 0).index t (1 : Fin 2) * 128 + 128
      rw [e1]; omega
  exact (Finset.ext_iff.mp hs i).mpr (Rect.mem_set_unit.mpr key)

/-- THE COVER: row r of the array lies in the block of point r / 8, and that point writes its block back. -/
theorem coverG12 (i : S85000x128.Idx) :
    ∃ t : Fin (cfg12 a12).N, ((cfg12 a12).win 0).flush t = true ∧ i ∈ (((cfg12 a12).win 0).blk t).view.set := by
  have hi0 : (i 0).val < 85000 := (i 0).isLt
  have ht : (i 0).val / 8 < (cfg12 a12).N := lt_of_lt_of_eq (by omega : (i 0).val / 8 < 10625) N_12.symm
  exact ⟨⟨(i 0).val / 8, ht⟩, flushG12 a12 _, mem_blkG12 a12 ⟨(i 0).val / 8, ht⟩ i
    (by show 8 * ((i 0).val / 8) ≤ (i 0).val ∧ (i 0).val < 8 * ((i 0).val / 8) + 8; omega)⟩

/-- THE ARRAY after the region: its row r is the source's row  row r. -/
theorem finalG12
    (hblk : ∀ c (t : Fin (cfg12 a12).N) (j : Fin 8) (l : Fin 128) (h : 8 * t.val + j.val < 85000),
      gblk c t (ValueIdx.ix2 j l) = T c (ValueIdx.ix2 (row c ⟨8 * t.val + j.val, h⟩) l))
    (c : Dev nD) :
    (datG12 V a12 gblk c).arrAt 0 (cfg12 a12).N
      = fun i : S85000x128.Idx => T c (ValueIdx.ix2 (row c (i 0)) (i 1)) :=
  (datG12 V a12 gblk c).arrAt_eq_of_cover 0 (outG12 T row c)
    (fun t _ => flushedG12_eq V a12 gblk T row hblk c t) (coverG12 a12)

/-- THE ARRAY, when the row numbers are the words of an index table tblw, each below 50000: row r is the source's row
    at the node that word r names (a word below 50000 names the node of that number). -/
theorem finalG12_node (tblw : IVec S85000 32) (hlt : ∀ k : S85000.Idx, (tblw k).toNat < 50000)
    (hblk : ∀ c (t : Fin (cfg12 a12).N) (j : Fin 8) (l : Fin 128) (h : 8 * t.val + j.val < 85000),
      gblk c t (ValueIdx.ix2 j l)
        = T c (ValueIdx.ix2 (⟨(tblw (ValueIdx.ix1 (⟨8 * t.val + j.val, h⟩ : Fin 85000))).toNat, hlt _⟩ : Fin 50000) l))
    (c : Dev nD) :
    (datG12 V a12 gblk c).arrAt 0 (cfg12 a12).N
      = fun i : S85000x128.Idx => T c (ValueIdx.ix2 (Cert.Spec.node (tblw (ValueIdx.ix1 (i 0)))) (i 1)) :=
  (finalG12 V a12 gblk T (fun _ p => ⟨(tblw (ValueIdx.ix1 p)).toNat, hlt _⟩) hblk c).trans
    (funext fun i => congrArg (fun p : Fin 50000 => T c (ValueIdx.ix2 p (i 1))) (Cert.Spec.node_of_lt (hlt _)).symm)

end Cert.KernelIdeal.Hand

end
-- ==== Proof.KI.GatherAt12.lean ====
/-
  Region 12 in the run: what it leaves, in terms of what the program's items before it left.

  Between the program's items core c's buffers hold the chain's valuations. Region 12's index table, as the region's
  proof data hold it, is the closed table of the launch memory, and every word of it is below 50000 when every word
  of the edge list is. So the region's output array holds, in its row r, the row — of the array the region reads — at
  the node that the table's word r names; and the array it reads is left as it was, which is as the item before the
  table's host stretch left it. No later item writes the output array before the host stretch that concatenates the
  gather outputs, so at that stretch's entry it holds the same rows (gat12: stated for whatever the array read holds).
-/
import proofs.«402049_j87351044866139_2_alg».proof.Proof.KI.Chain
import proofs.«402049_j87351044866139_2_alg».proof.Proof.KI.Carry
import proofs.«402049_j87351044866139_2_alg».proof.Proof.KI.GatherVal12
import proofs.«402049_j87351044866139_2_alg».proof.Proof.KI.Tables

set_option maxRecDepth 16384

noncomputable section

namespace Cert.KernelIdeal.Hand

open Cert.KernelIdeal Cert.KernelIdeal.Gen Cert.KernelIdeal.GenP
open Idealize.ShloMosaic Idealize.ShloMosaic.TcCoe
open Idealize.SL.Sem

variable {F : FTy → Type} [FloatOps F]
variable (m : (ℓ : Loc nD τ sig) → Buf (Elt F) ℓ)

/-- The index table the region's proof data hold is the closed table of the launch memory: the data hold what the
    chain's valuation at the region's entry has in the table's buffer, and that valuation is the run's own. -/
theorem tblwU12 : tblw12 (a12 m) = tbl12 m c₀ := by
  have h1 : tblw12 (a12 m) = (U27 m c₀ main_v62 : IVec S85000 32) := by
    unfold a12
    rfl
  have h2 : ∀ W : Valuation τ sig (Elt F), V27 m (outsU m) c₀ = W → (W main_v62 : IVec S85000 32) = tbl12 m c₀ :=
    fun W hW => by subst hW; exact tbl12_eq m (outsU m) c₀
  exact h1.trans (h2 (U27 m c₀) (V27_eq m c₀))

/-- The array the region reads, at the region's entry, is as the item before the table's host stretch left it. -/
theorem gin12 (c : Dev nD) : atTc (U27 m) c main_v61 = V26 m (outsU m) c main_v61 :=
  (congrFun (V27_eq m c) main_v61).symm.trans (V27_of m (outsU m) c main_v61 (by decide))

/-- THE ARRAY THE REGION READS is left as it was. -/
theorem gsrc12 (c : Dev nD) : V28 m (outsU m) c main_v61 = V26 m (outsU m) c main_v61 :=
  (congrFun (V28_eq m c) main_v61).trans ((U28_hbm m c).trans (gin12 m c))

/-- THE REGION'S OUTPUT: its row r is the row, of the array the region reads, at the node the table's word r names. -/
theorem g12_val (c : Dev nD) (hm : ∀ i : S2x800000.Idx, ((V0 m c main_arg1 : IVec S2x800000 32) i).toNat < 50000) :
    (V28 m (outsU m) c main_v63 : S85000x128.Idx → Elt F .f32)
      = fun i => (V26 m (outsU m) c main_v61 : S50000x128.Idx → Elt F .f32)
          (ValueIdx.ix2 (Cert.Spec.node (tbl12 m c (ValueIdx.ix1 (i 0)))) (i 1)) := by
  obtain rfl : c = c₀ := eq_c₀ c
  have hlt : ∀ k : S85000.Idx, (tblw12 (a12 m) k).toNat < 50000 := fun k => by
    rw [tblwU12]; exact tbl12_lt m c₀ hm k
  refine (congrFun (V28_eq m c₀) main_v63).trans ((U28_out m c₀).trans ?_)
  refine (finalG12_node (atTc (U27 m)) (a12 m) (gblk12 (atTc (U27 m)) (a12 m)) (fun c => V26 m (outsU m) c main_v61)
      (tblw12 (a12 m)) hlt
      (fun c t j l _ => (gblk12_apply (atTc (U27 m)) (a12 m) hlt c t j l).trans (congrFun (gin12 m c) _)) c₀).trans ?_
  rw [tblwU12]
  rfl

/-- THE REGION'S OUTPUT WHERE IT IS READ, at the entry of the host stretch that concatenates the gather outputs: the
    rows of T at the nodes the table names, when the array the region reads holds T. -/
theorem gat12 (c : Dev nD) (hm : ∀ i : S2x800000.Idx, ((V0 m c main_arg1 : IVec S2x800000 32) i).toNat < 50000)
    (T : S50000x128.Idx → Elt F .f32) (hT : V26 m (outsU m) c main_v61 = T) :
    (V46 m (outsU m) c main_v63 : S85000x128.Idx → Elt F .f32)
      = fun i => T (ValueIdx.ix2 (Cert.Spec.node (tbl12 m c (ValueIdx.ix1 (i 0)))) (i 1)) := by
  subst hT
  exact (carry12 m (outsU m) c).trans (g12_val m c hm)

end Cert.KernelIdeal.Hand

end
-- ==== Proof.KI.GatherVal13.lean ====
/-
  The value of the row-gather region 13: the array its output window leaves.

  At grid point t the region's output block holds, in its row j, the source's row  row (8 t + j).  The block sits at
  block index (t, 0) of the 85000 x 128 output array: it covers the rows 8 t … 8 t + 7 and all 128 columns. Every point
  writes its block back (the block index moves at every step), and row r of the array lies in the block of point r / 8,
  at the block's row r % 8. So the array ends with its row r equal to the source's row  row r,  for every r.

  The gathered block is taken abstractly here: any family of blocks that reads as above (the hypothesis of
  flushedG13_eq and finalG13) gives the array. When the row numbers are the words of an index table, each below 50000,
  row r of the array is the source's row at the node the table's word r names (finalG13_node).
-/
import proofs.«402049_j87351044866139_2_alg».proof.Proof.KI.Gather13
import proofs.«402049_j87351044866139_2_alg».proof.Proof.Spec
import Idealize.ShloMosaic.Lib.Pipeline.Value
import Idealize.ShloMosaic.Lib.ValueIdx

set_option maxRecDepth 16384

noncomputable section

namespace Cert.KernelIdeal.Hand

open Idealize.ShloMosaic Idealize.ShloMosaic.TcCoe
open Idealize.SL.Sem
open Idealize.ShloMosaic.Pipeline (Dat Cfg Window)
open Cert.KernelIdeal Cert.KernelIdeal.Gen

variable {F : FTy → Type} [FloatOps F]

variable (V : (c : Dev nD) → (b : Ref sig .tc) → Buf (Elt F) ((c : Thread nD τ).loc b))
variable (a13 : (pcfg13 (F := F)).Adm)
variable (gblk : (c : Dev nD) → Fin (cfg13 a13).N → S8x128.Idx → Elt F .f32)

/-! ## The grid and the output window's schedule -/

/-- The region's grid has 10625 points. -/
theorem ptsG13 (t : Fin (cfg13 a13).N) : t.val < 10625 := lt_of_lt_of_eq t.isLt N_13

/-- The grid has one axis, so point t has coordinate t. -/
theorem coordG13 (t : Fin (cfg13 a13).N) : (((cfg13 a13).grid.coords t) (0 : Fin 1)).val = t.val := by
  have hN := ptsG13 a13 t
  show t.val / (cfg13 a13).grid.stride (0 : Fin 1) % 10625 = t.val
  rw [show (cfg13 a13).grid.stride (0 : Fin 1) = 1 from rfl, Nat.div_one, Nat.mod_eq_of_lt hN]

/-- The output window's block index at point t is (t, 0). -/
theorem indexG13 (t : Fin (cfg13 a13).N) :
    ((cfg13 a13).win 0).index t (0 : Fin 2) = t.val ∧ ((cfg13 a13).win 0).index t (1 : Fin 2) = 0 := by
  have hN := ptsG13 a13 t
  refine ⟨?_, rfl⟩
  show (BitVec.ofNat 32 (((cfg13 a13).grid.coords t) (0 : Fin 1)).val).toNat = t.val
  rw [coordG13, BitVec.toNat_ofNat]
  exact Nat.mod_eq_of_lt (by omega)

/-- The block index moves at every step, so every point writes its block back. -/
theorem flushG13 (t : Fin (cfg13 a13).N) : ((cfg13 a13).win 0).flush t = true := by
  rw [Pipeline.Window.flush_out _ rfl]
  have ht : t.val < (cfg13 a13).grid.N := t.isLt
  by_cases h : t.val + 1 < (cfg13 a13).grid.N
  · refine .inr ⟨h, fun e => ?_⟩
    have e0 : ((cfg13 a13).win 0).index ⟨t.val + 1, h⟩ (0 : Fin 2) = ((cfg13 a13).win 0).index t (0 : Fin 2) :=
      congrFun e (0 : Fin 2)
    have e1 : ((cfg13 a13).win 0).index ⟨t.val + 1, h⟩ (0 : Fin 2) = t.val + 1 := (indexG13 a13 ⟨t.val + 1, h⟩).1
    have e2 : ((cfg13 a13).win 0).index t (0 : Fin 2) = t.val := (indexG13 a13 t).1
    omega
  · exact .inl (by omega)

/-! ## What a point writes back, and the array -/

variable (T : (c : Dev nD) → S50000x128.Idx → Elt F .f32) (row : (c : Dev nD) → Fin 85000 → Fin 50000)

/-- The array the region leaves on core c: its row r is the source's row  row r. -/
abbrev outG13 (c : Dev nD) : S85000x128.Idx → Elt F .f32 := fun i => T c (ValueIdx.ix2 (row c (i 0)) (i 1))

/-- One element of the block at point t is the array's element 8 t rows further down, in the same column. -/
theorem blockG13_apply
    (hblk : ∀ c (t : Fin (cfg13 a13).N) (j : Fin 8) (l : Fin 128) (h : 8 * t.val + j.val < 85000),
      gblk c t (ValueIdx.ix2 j l) = T c (ValueIdx.ix2 (row c ⟨8 * t.val + j.val, h⟩) l))
    (c : Dev nD) (t : Fin (cfg13 a13).N) (y : S8x128.Idx) (k : S85000x128.Idx)
    (hk0 : (k 0).val = 8 * t.val + (y 0).val) (hk1 : (k 1).val = (y 1).val) :
    gblk c t y = outG13 T row c k := by
  have hy0 : (y 0).val < 8 := (y 0).isLt
  have hN := ptsG13 a13 t
  have hb : 8 * t.val + (y 0).val < 85000 := by omega
  have h0 : (⟨8 * t.val + (y 0).val, hb⟩ : Fin 85000) = k 0 := Fin.ext hk0.symm
  have h1 : (y 1 : Fin 128) = k 1 := Fin.ext hk1.symm
  calc gblk c t y = gblk c t (ValueIdx.ix2 (y 0) (y 1)) := congrArg (gblk c t) (ValueIdx.eq_ix2 y)
    _ = T c (ValueIdx.ix2 (row c ⟨8 * t.val + (y 0).val, hb⟩) (y 1)) := hblk c t (y 0) (y 1) hb
    _ = outG13 T row c k := congrArg₂ (fun (p : Fin 85000) (l : Fin 128) => T c (ValueIdx.ix2 (row c p) l)) h0 h1

/-- WHAT POINT t WRITES BACK is block t of that array. -/
theorem flushedG13_eq
    (hblk : ∀ c (t : Fin (cfg13 a13).N) (j : Fin 8) (l : Fin 128) (h : 8 * t.val + j.val < 85000),
      gblk c t (ValueIdx.ix2 j l) = T c (ValueIdx.ix2 (row c ⟨8 * t.val + j.val, h⟩) l))
    (c : Dev nD) (t : Fin (cfg13 a13).N) :
    (datG13 V a13 gblk c).flushed 0 t = (((cfg13 a13).win 0).blk t).view.read (Elt F) (outG13 T row c) := by
  obtain ⟨e0, e1⟩ := indexG13 a13 t
  have key : ∀ y : S8x128.Idx, gblk c t y = outG13 T row c ((((cfg13 a13).win 0).blk t).view.emb y) := fun y =>
    blockG13_apply a13 gblk T row hblk c t y _
      (by show ((cfg13 a13).win 0).index t (0 : Fin 2) * 8 + 1 * (y 0).val = 8 * t.val + (y 0).val
          rw [e0]; omega)
      (by show ((cfg13 a13).win 0).index t (1 : Fin 2) * 128 + 1 * (y 1).val = (y 1).val
          rw [e1]; omega)
  exact funext key

/-- An index of the array whose row is among the rows 8 t … 8 t + 7 is in point t's block. -/
theorem mem_blkG13 (t : Fin (cfg13 a13).N) (i : S85000x128.Idx)
    (hi : 8 * t.val ≤ (i 0).val ∧ (i 0).val < 8 * t.val + 8) : i ∈ (((cfg13 a13).win 0).blk t).view.set := by
  obtain ⟨e0, e1⟩ := indexG13 a13 t
  have hi1 : (i 1).val < 128 := (i 1).isLt
  have hs : (((cfg13 a13).win 0).blk t).view.set = (((cfg13 a13).win 0).rect t).set :=
    View.set_slice_whole main_v65 (((cfg13 a13).win 0).rect t)
  have key : ∀ a : Fin 2, ((cfg13 a13).win 0).index t a * S8x128.size a ≤ (i a).val
      ∧ (i a).val < ((cfg13 a13).win 0).index t a * S8x128.size a + S8x128.size a := fun a =>
    match a with
    | ⟨0, _⟩ => by
      show ((cfg13 a13).win 0).index t (0 : Fin 2) * 8 ≤ (i 0).val ∧ (i 0).val < ((cfg13 a13).win 0).index t (0 : Fin 2) * 8 + 8
      rw [e0]; omega
    | ⟨1, _⟩ => by
      show ((cfg13 a13).win 0).index t (1 : Fin 2) * 128 ≤ (i 1).val ∧ (i 1).val < ((cfg13 a13).win 0).index t (1 : Fin 2) * 128 + 128
      rw [e1]; omega
  exact (Finset.ext_iff.mp hs i).mpr (Rect.mem_set_unit.mpr key)

/-- THE COVER: row r of the array lies in the block of point r / 8, and that point writes its block back. -/
theorem coverG13 (i : S85000x128.Idx) :
    ∃ t : Fin (cfg13 a13).N, ((cfg13 a13).win 0).flush t = true ∧ i ∈ (((cfg13 a13).win 0).blk t).view.set := by
  have hi0 : (i 0).val < 85000 := (i 0).isLt
  have ht : (i 0).val / 8 < (cfg13 a13).N := lt_of_lt_of_eq (by omega : (i 0).val / 8 < 10625) N_13.symm
  exact ⟨⟨(i 0).val / 8, ht⟩, flushG13 a13 _, mem_blkG13 a13 ⟨(i 0).val / 8, ht⟩ i
    (by show 8 * ((i 0).val / 8) ≤ (i 0).val ∧ (i 0).val < 8 * ((i 0).val / 8) + 8; omega)⟩

/-- THE ARRAY after the region: its row r is the source's row  row r. -/
theorem finalG13
    (hblk : ∀ c (t : Fin (cfg13 a13).N) (j : Fin 8) (l : Fin 128) (h : 8 * t.val + j.val < 85000),
      gblk c t (ValueIdx.ix2 j l) = T c (ValueIdx.ix2 (row c ⟨8 * t.val + j.val, h⟩) l))
    (c : Dev nD) :
    (datG13 V a13 gblk c).arrAt 0 (cfg13 a13).N
      = fun i : S85000x128.Idx => T c (ValueIdx.ix2 (row c (i 0)) (i 1)) :=
  (datG13 V a13 gblk c).arrAt_eq_of_cover 0 (outG13 T row c)
    (fun t _ => flushedG13_eq V a13 gblk T row hblk c t) (coverG13 a13)

/-- THE ARRAY, when the row numbers are the words of an index table tblw, each below 50000: row r is the source's row
    at the node that word r names (a word below 50000 names the node of that number). -/
theorem finalG13_node (tblw : IVec S85000 32) (hlt : ∀ k : S85000.Idx, (tblw k).toNat < 50000)
    (hblk : ∀ c (t : Fin (cfg13 a13).N) (j : Fin 8) (l : Fin 128) (h : 8 * t.val + j.val < 85000),
      gblk c t (ValueIdx.ix2 j l)
        = T c (ValueIdx.ix2 (⟨(tblw (ValueIdx.ix1 (⟨8 * t.val + j.val, h⟩ : Fin 85000))).toNat, hlt _⟩ : Fin 50000) l))
    (c : Dev nD) :
    (datG13 V a13 gblk c).arrAt 0 (cfg13 a13).N
      = fun i : S85000x128.Idx => T c (ValueIdx.ix2 (Cert.Spec.node (tblw (ValueIdx.ix1 (i 0)))) (i 1)) :=
  (finalG13 V a13 gblk T (fun _ p => ⟨(tblw (ValueIdx.ix1 p)).toNat, hlt _⟩) hblk c).trans
    (funext fun i => congrArg (fun p : Fin 50000 => T c (ValueIdx.ix2 p (i 1))) (Cert.Spec.node_of_lt (hlt _)).symm)

end Cert.KernelIdeal.Hand

end
-- ==== Proof.KI.GatherAt13.lean ====
/-
  Region 13 in the run: what it leaves, in terms of what the program's items before it left.

  Between the program's items core c's buffers hold the chain's valuations. Region 13's index table, as the region's
  proof data hold it, is the closed table of the launch memory, and every word of it is below 50000 when every word
  of the edge list is. So the region's output array holds, in its row r, the row — of the array the region reads — at
  the node that the table's word r names; and the array it reads is left as it was, which is as the item before the
  table's host stretch left it. No later item writes the output array before the host stretch that concatenates the
  gather outputs, so at that stretch's entry it holds the same rows (gat13: stated for whatever the array read holds).
-/
import proofs.«402049_j87351044866139_2_alg».proof.Proof.KI.Chain
import proofs.«402049_j87351044866139_2_alg».proof.Proof.KI.Carry
import proofs.«402049_j87351044866139_2_alg».proof.Proof.KI.GatherVal13
import proofs.«402049_j87351044866139_2_alg».proof.Proof.KI.Tables

set_option maxRecDepth 16384

noncomputable section

namespace Cert.KernelIdeal.Hand

open Cert.KernelIdeal Cert.KernelIdeal.Gen Cert.KernelIdeal.GenP
open Idealize.ShloMosaic Idealize.ShloMosaic.TcCoe
open Idealize.SL.Sem

variable {F : FTy → Type} [FloatOps F]
variable (m : (ℓ : Loc nD τ sig) → Buf (Elt F) ℓ)

/-- The index table the region's proof data hold is the closed table of the launch memory: the data hold what the
    chain's valuation at the region's entry has in the table's buffer, and that valuation is the run's own. -/
theorem tblwU13 : tblw13 (a13 m) = tbl13 m c₀ := by
  have h1 : tblw13 (a13 m) = (U29 m c₀ main_v64 : IVec S85000 32) := by
    unfold a13
    rfl
  have h2 : ∀ W : Valuation τ sig (Elt F), V29 m (outsU m) c₀ = W → (W main_v64 : IVec S85000 32) = tbl13 m c₀ :=
    fun W hW => by subst hW; exact tbl13_eq m (outsU m) c₀
  exact h1.trans (h2 (U29 m c₀) (V29_eq m c₀))

/-- The array the region reads, at the region's entry, is as the item before the table's host stretch left it. -/
theorem gin13 (c : Dev nD) : atTc (U29 m) c main_v61 = V28 m (outsU m) c main_v61 :=
  (congrFun (V29_eq m c) main_v61).symm.trans (V29_of m (outsU m) c main_v61 (by decide))

/-- THE ARRAY THE REGION READS is left as it was. -/
theorem gsrc13 (c : Dev nD) : V30 m (outsU m) c main_v61 = V28 m (outsU m) c main_v61 :=
  (congrFun (V30_eq m c) main_v61).trans ((U30_hbm m c).trans (gin13 m c))

/-- THE REGION'S OUTPUT: its row r is the row, of the array the region reads, at the node the table's word r names. -/
theorem g13_val (c : Dev nD) (hm : ∀ i : S2x800000.Idx, ((V0 m c main_arg1 : IVec S2x800000 32) i).toNat < 50000) :
    (V30 m (outsU m) c main_v65 : S85000x128.Idx → Elt F .f32)
      = fun i => (V28 m (outsU m) c main_v61 : S50000x128.Idx → Elt F .f32)
          (ValueIdx.ix2 (Cert.Spec.node (tbl13 m c (ValueIdx.ix1 (i 0)))) (i 1)) := by
  obtain rfl : c = c₀ := eq_c₀ c
  have hlt : ∀ k : S85000.Idx, (tblw13 (a13 m) k).toNat < 50000 := fun k => by
    rw [tblwU13]; exact tbl13_lt m c₀ hm k
  refine (congrFun (V30_eq m c₀) main_v65).trans ((U30_out m c₀).trans ?_)
  refine (finalG13_node (atTc (U29 m)) (a13 m) (gblk13 (atTc (U29 m)) (a13 m)) (fun c => V28 m (outsU m) c main_v61)
      (tblw13 (a13 m)) hlt
      (fun c t j l _ => (gblk13_apply (atTc (U29 m)) (a13 m) hlt c t j l).trans (congrFun (gin13 m c) _)) c₀).trans ?_
  rw [tblwU13]
  rfl

/-- THE REGION'S OUTPUT WHERE IT IS READ, at the entry of the host stretch that concatenates the gather outputs: the
    rows of T at the nodes the table names, when the array the region reads holds T. -/
theorem gat13 (c : Dev nD) (hm : ∀ i : S2x800000.Idx, ((V0 m c main_arg1 : IVec S2x800000 32) i).toNat < 50000)
    (T : S50000x128.Idx → Elt F .f32) (hT : V28 m (outsU m) c main_v61 = T) :
    (V46 m (outsU m) c main_v65 : S85000x128.Idx → Elt F .f32)
      = fun i => T (ValueIdx.ix2 (Cert.Spec.node (tbl13 m c (ValueIdx.ix1 (i 0)))) (i 1)) := by
  subst hT
  exact (carry13 m (outsU m) c).trans (g13_val m c hm)

end Cert.KernelIdeal.Hand

end
-- ==== Proof.KI.GatherVal14.lean ====
/-
  The value of the row-gather region 14: the array its output window leaves.

  At grid point t the region's output block holds, in its row j, the source's row  row (8 t + j).  The block sits at
  block index (t, 0) of the 85000 x 128 output array: it covers the rows 8 t … 8 t + 7 and all 128 columns. Every point
  writes its block back (the block index moves at every step), and row r of the array lies in the block of point r / 8,
  at the block's row r % 8. So the array ends with its row r equal to the source's row  row r,  for every r.

  The gathered block is taken abstractly here: any family of blocks that reads as above (the hypothesis of
  flushedG14_eq and finalG14) gives the array. When the row numbers are the words of an index table, each below 50000,
  row r of the array is the source's row at the node the table's word r names (finalG14_node).
-/
import proofs.«402049_j87351044866139_2_alg».proof.Proof.KI.Gather14
import proofs.«402049_j87351044866139_2_alg».proof.Proof.Spec
import Idealize.ShloMosaic.Lib.Pipeline.Value
import Idealize.ShloMosaic.Lib.ValueIdx

set_option maxRecDepth 16384

noncomputable section

namespace Cert.KernelIdeal.Hand

open Idealize.ShloMosaic Idealize.ShloMosaic.TcCoe
open Idealize.SL.Sem
open Idealize.ShloMosaic.Pipeline (Dat Cfg Window)
open Cert.KernelIdeal Cert.KernelIdeal.Gen

variable {F : FTy → Type} [FloatOps F]

variable (V : (c : Dev nD) → (b : Ref sig .tc) → Buf (Elt F) ((c : Thread nD τ).loc b))
variable (a14 : (pcfg14 (F := F)).Adm)
variable (gblk : (c : Dev nD) → Fin (cfg14 a14).N → S8x128.Idx → Elt F .f32)

/-! ## The grid and the output window's schedule -/

/-- The region's grid has 10625 points. -/
theorem ptsG14 (t : Fin (cfg14 a14).N) : t.val < 10625 := lt_of_lt_of_eq t.isLt N_14

/-- The grid has one axis, so point t has coordinate t. -/
theorem coordG14 (t : Fin (cfg14 a14).N) : (((cfg14 a14).grid.coords t) (0 : Fin 1)).val = t.val := by
  have hN := ptsG14 a14 t
  show t.val / (cfg14 a14).grid.stride (0 : Fin 1) % 10625 = t.val
  rw [show (cfg14 a14).grid.stride (0 : Fin 1) = 1 from rfl, Nat.div_one, Nat.mod_eq_of_lt hN]

/-- The output window's block index at point t is (t, 0). -/
theorem indexG14 (t : Fin (cfg14 a14).N) :
    ((cfg14 a14).win 0).index t (0 : Fin 2) = t.val ∧ ((cfg14 a14).win 0).index t (1 : Fin 2) = 0 := by
  have hN := ptsG14 a14 t
  refine ⟨?_, rfl⟩
  show (BitVec.ofNat 32 (((cfg14 a14).grid.coords t) (0 : Fin 1)).val).toNat = t.val
  rw [coordG14, BitVec.toNat_ofNat]
  exact Nat.mod_eq_of_lt (by omega)

/-- The block index moves at every step, so every point writes its block back. -/
theorem flushG14 (t : Fin (cfg14 a14).N) : ((cfg14 a14).win 0).flush t = true := by
  rw [Pipeline.Window.flush_out _ rfl]
  have ht : t.val < (cfg14 a14).grid.N := t.isLt
  by_cases h : t.val + 1 < (cfg14 a14).grid.N
  · refine .inr ⟨h, fun e => ?_⟩
    have e0 : ((cfg14 a14).win 0).index ⟨t.val + 1, h⟩ (0 : Fin 2) = ((cfg14 a14).win 0).index t (0 : Fin 2) :=
      congrFun e (0 : Fin 2)
    have e1 : ((cfg14 a14).win 0).index ⟨t.val + 1, h⟩ (0 : Fin 2) = t.val + 1 := (indexG14 a14 ⟨t.val + 1, h⟩).1
    have e2 : ((cfg14 a14).win 0).index t (0 : Fin 2) = t.val := (indexG14 a14 t).1
    omega
  · exact .inl (by omega)

/-! ## What a point writes back, and the array -/

variable (T : (c : Dev nD) → S50000x128.Idx → Elt F .f32) (row : (c : Dev nD) → Fin 85000 → Fin 50000)

/-- The array the region leaves on core c: its row r is the source's row  row r. -/
abbrev outG14 (c : Dev nD) : S85000x128.Idx → Elt F .f32 := fun i => T c (ValueIdx.ix2 (row c (i 0)) (i 1))

/-- One element of the block at point t is the array's element 8 t rows further down, in the same column. -/
theorem blockG14_apply
    (hblk : ∀ c (t : Fin (cfg14 a14).N) (j : Fin 8) (l : Fin 128) (h : 8 * t.val + j.val < 85000),
      gblk c t (ValueIdx.ix2 j l) = T c (ValueIdx.ix2 (row c ⟨8 * t.val + j.val, h⟩) l))
    (c : Dev nD) (t : Fin (cfg14 a14).N) (y : S8x128.Idx) (k : S85000x128.Idx)
    (hk0 : (k 0).val = 8 * t.val + (y 0).val) (hk1 : (k 1).val = (y 1).val) :
    gblk c t y = outG14 T row c k := by
  have hy0 : (y 0).val < 8 := (y 0).isLt
  have hN := ptsG14 a14 t
  have hb : 8 * t.val + (y 0).val < 85000 := by omega
  have h0 : (⟨8 * t.val + (y 0).val, hb⟩ : Fin 85000) = k 0 := Fin.ext hk0.symm
  have h1 : (y 1 : Fin 128) = k 1 := Fin.ext hk1.symm
  calc gblk c t y = gblk c t (ValueIdx.ix2 (y 0) (y 1)) := congrArg (gblk c t) (ValueIdx.eq_ix2 y)
    _ = T c (ValueIdx.ix2 (row c ⟨8 * t.val + (y 0).val, hb⟩) (y 1)) := hblk c t (y 0) (y 1) hb
    _ = outG14 T row c k := congrArg₂ (fun (p : Fin 85000) (l : Fin 128) => T c (ValueIdx.ix2 (row c p) l)) h0 h1

/-- WHAT POINT t WRITES BACK is block t of that array. -/
theorem flushedG14_eq
    (hblk : ∀ c (t : Fin (cfg14 a14).N) (j : Fin 8) (l : Fin 128) (h : 8 * t.val + j.val < 85000),
      gblk c t (ValueIdx.ix2 j l) = T c (ValueIdx.ix2 (row c ⟨8 * t.val + j.val, h⟩) l))
    (c : Dev nD) (t : Fin (cfg14 a14).N) :
    (datG14 V a14 gblk c).flushed 0 t = (((cfg14 a14).win 0).blk t).view.read (Elt F) (outG14 T row c) := by
  obtain ⟨e0, e1⟩ := indexG14 a14 t
  have key : ∀ y : S8x128.Idx, gblk c t y = outG14 T row c ((((cfg14 a14).win 0).blk t).view.emb y) := fun y =>
    blockG14_apply a14 gblk T row hblk c t y _
      (by show ((cfg14 a14).win 0).index t (0 : Fin 2) * 8 + 1 * (y 0).val = 8 * t.val + (y 0).val
          rw [e0]; omega)
      (by show ((cfg14 a14).win 0).index t (1 : Fin 2) * 128 + 1 * (y 1).val = (y 1).val
          rw [e1]; omega)
  exact funext key

/-- An index of the array whose row is among the rows 8 t … 8 t + 7 is in point t's block. -/
theorem mem_blkG14 (t : Fin (cfg14 a14).N) (i : S85000x128.Idx)
    (hi : 8 * t.val ≤ (i 0).val ∧ (i 0).val < 8 * t.val + 8) : i ∈ (((cfg14 a14).win 0).blk t).view.set := by
  obtain ⟨e0, e1⟩ := indexG14 a14 t
  have hi1 : (i 1).val < 128 := (i 1).isLt
  have hs : (((cfg14 a14).win 0).blk t).view.set = (((cfg14 a14).win 0).rect t).set :=
    View.set_slice_whole main_v67 (((cfg14 a14).win 0).rect t)
  have key : ∀ a : Fin 2, ((cfg14 a14).win 0).index t a * S8x128.size a ≤ (i a).val
      ∧ (i a).val < ((cfg14 a14).win 0).index t a * S8x128.size a + S8x128.size a := fun a =>
    match a with
    | ⟨0, _⟩ => by
      show ((cfg14 a14).win 0).index t (0 : Fin 2) * 8 ≤ (i 0).val ∧ (i 0).val < ((cfg14 a14).win 0).index t (0 : Fin 2) * 8 + 8
      rw [e0]; omega
    | ⟨1, _⟩ => by
      show ((cfg14 a14).win 0).index t (1 : Fin 2) * 128 ≤ (i 1).val ∧ (i 1).val < ((cfg14 a14).win 0).index t (1 : Fin 2) * 128 + 128
      rw [e1]; omega
  exact (Finset.ext_iff.mp hs i).mpr (Rect.mem_set_unit.mpr key)

/-- THE COVER: row r of the array lies in the block of point r / 8, and that point writes its block back. -/
theorem coverG14 (i : S85000x128.Idx) :
    ∃ t : Fin (cfg14 a14).N, ((cfg14 a14).win 0).flush t = true ∧ i ∈ (((cfg14 a14).win 0).blk t).view.set := by
  have hi0 : (i 0).val < 85000 := (i 0).isLt
  have ht : (i 0).val / 8 < (cfg14 a14).N := lt_of_lt_of_eq (by omega : (i 0).val / 8 < 10625) N_14.symm
  exact ⟨⟨(i 0).val / 8, ht⟩, flushG14 a14 _, mem_blkG14 a14 ⟨(i 0).val / 8, ht⟩ i
    (by show 8 * ((i 0).val / 8) ≤ (i 0).val ∧ (i 0).val < 8 * ((i 0).val / 8) + 8; omega)⟩

/-- THE ARRAY after the region: its row r is the source's row  row r. -/
theorem finalG14
    (hblk : ∀ c (t : Fin (cfg14 a14).N) (j : Fin 8) (l : Fin 128) (h : 8 * t.val + j.val < 85000),
      gblk c t (ValueIdx.ix2 j l) = T c (ValueIdx.ix2 (row c ⟨8 * t.val + j.val, h⟩) l))
    (c : Dev nD) :
    (datG14 V a14 gblk c).arrAt 0 (cfg14 a14).N
      = fun i : S85000x128.Idx => T c (ValueIdx.ix2 (row c (i 0)) (i 1)) :=
  (datG14 V a14 gblk c).arrAt_eq_of_cover 0 (outG14 T row c)
    (fun t _ => flushedG14_eq V a14 gblk T row hblk c t) (coverG14 a14)

/-- THE ARRAY, when the row numbers are the words of an index table tblw, each below 50000: row r is the source's row
    at the node that word r names (a word below 50000 names the node of that number). -/
theorem finalG14_node (tblw : IVec S85000 32) (hlt : ∀ k : S85000.Idx, (tblw k).toNat < 50000)
    (hblk : ∀ c (t : Fin (cfg14 a14).N) (j : Fin 8) (l : Fin 128) (h : 8 * t.val + j.val < 85000),
      gblk c t (ValueIdx.ix2 j l)
        = T c (ValueIdx.ix2 (⟨(tblw (ValueIdx.ix1 (⟨8 * t.val + j.val, h⟩ : Fin 85000))).toNat, hlt _⟩ : Fin 50000) l))
    (c : Dev nD) :
    (datG14 V a14 gblk c).arrAt 0 (cfg14 a14).N
      = fun i : S85000x128.Idx => T c (ValueIdx.ix2 (Cert.Spec.node (tblw (ValueIdx.ix1 (i 0)))) (i 1)) :=
  (finalG14 V a14 gblk T (fun _ p => ⟨(tblw (ValueIdx.ix1 p)).toNat, hlt _⟩) hblk c).trans
    (funext fun i => congrArg (fun p : Fin 50000 => T c (ValueIdx.ix2 p (i 1))) (Cert.Spec.node_of_lt (hlt _)).symm)

end Cert.KernelIdeal.Hand

end
-- ==== Proof.KI.GatherAt14.lean ====
/-
  Region 14 in the run: what it leaves, in terms of what the program's items before it left.

  Between the program's items core c's buffers hold the chain's valuations. Region 14's index table, as the region's
  proof data hold it, is the closed table of the launch memory, and every word of it is below 50000 when every word
  of the edge list is. So the region's output array holds, in its row r, the row — of the array the region reads — at
  the node that the table's word r names; and the array it reads is left as it was, which is as the item before the
  table's host stretch left it. No later item writes the output array before the host stretch that concatenates the
  gather outputs, so at that stretch's entry it holds the same rows (gat14: stated for whatever the array read holds).
-/
import proofs.«402049_j87351044866139_2_alg».proof.Proof.KI.Chain
import proofs.«402049_j87351044866139_2_alg».proof.Proof.KI.Carry
import proofs.«402049_j87351044866139_2_alg».proof.Proof.KI.GatherVal14
import proofs.«402049_j87351044866139_2_alg».proof.Proof.KI.Tables

set_option maxRecDepth 16384

noncomputable section

namespace Cert.KernelIdeal.Hand

open Cert.KernelIdeal Cert.KernelIdeal.Gen Cert.KernelIdeal.GenP
open Idealize.ShloMosaic Idealize.ShloMosaic.TcCoe
open Idealize.SL.Sem

variable {F : FTy → Type} [FloatOps F]
variable (m : (ℓ : Loc nD τ sig) → Buf (Elt F) ℓ)

/-- The index table the region's proof data hold is the closed table of the launch memory: the data hold what the
    chain's valuation at the region's entry has in the table's buffer, and that valuation is the run's own. -/
theorem tblwU14 : tblw14 (a14 m) = tbl14 m c₀ := by
  have h1 : tblw14 (a14 m) = (U31 m c₀ main_v66 : IVec S85000 32) := by
    unfold a14
    rfl
  have h2 : ∀ W : Valuation τ sig (Elt F), V31 m (outsU m) c₀ = W → (W main_v66 : IVec S85000 32) = tbl14 m c₀ :=
    fun W hW => by subst hW; exact tbl14_eq m (outsU m) c₀
  exact h1.trans (h2 (U31 m c₀) (V31_eq m c₀))

/-- The array the region reads, at the region's entry, is as the item before the table's host stretch left it. -/
theorem gin14 (c : Dev nD) : atTc (U31 m) c main_v61 = V30 m (outsU m) c main_v61 :=
  (congrFun (V31_eq m c) main_v61).symm.trans (V31_of m (outsU m) c main_v61 (by decide))

/-- THE ARRAY THE REGION READS is left as it was. -/
theorem gsrc14 (c : Dev nD) : V32 m (outsU m) c main_v61 = V30 m (outsU m) c main_v61 :=
  (congrFun (V32_eq m c) main_v61).trans ((U32_hbm m c).trans (gin14 m c))

/-- THE REGION'S OUTPUT: its row r is the row, of the array the region reads, at the node the table's word r names. -/
theorem g14_val (c : Dev nD) (hm : ∀ i : S2x800000.Idx, ((V0 m c main_arg1 : IVec S2x800000 32) i).toNat < 50000) :
    (V32 m (outsU m) c main_v67 : S85000x128.Idx → Elt F .f32)
      = fun i => (V30 m (outsU m) c main_v61 : S50000x128.Idx → Elt F .f32)
          (ValueIdx.ix2 (Cert.Spec.node (tbl14 m c (ValueIdx.ix1 (i 0)))) (i 1)) := by
  obtain rfl : c = c₀ := eq_c₀ c
  have hlt : ∀ k : S85000.Idx, (tblw14 (a14 m) k).toNat < 50000 := fun k => by
    rw [tblwU14]; exact tbl14_lt m c₀ hm k
  refine (congrFun (V32_eq m c₀) main_v67).trans ((U32_out m c₀).trans ?_)
  refine (finalG14_node (atTc (U31 m)) (a14 m) (gblk14 (atTc (U31 m)) (a14 m)) (fun c => V30 m (outsU m) c main_v61)
      (tblw14 (a14 m)) hlt
      (fun c t j l _ => (gblk14_apply (atTc (U31 m)) (a14 m) hlt c t j l).trans (congrFun (gin14 m c) _)) c₀).trans ?_
  rw [tblwU14]
  rfl

/-- THE REGION'S OUTPUT WHERE IT IS READ, at the entry of the host stretch that concatenates the gather outputs: the
    rows of T at the nodes the table names, when the array the region reads holds T. -/
theorem gat14 (c : Dev nD) (hm : ∀ i : S2x800000.Idx, ((V0 m c main_arg1 : IVec S2x800000 32) i).toNat < 50000)
    (T : S50000x128.Idx → Elt F .f32) (hT : V30 m (outsU m) c main_v61 = T) :
    (V46 m (outsU m) c main_v67 : S85000x128.Idx → Elt F .f32)
      = fun i => T (ValueIdx.ix2 (Cert.Spec.node (tbl14 m c (ValueIdx.ix1 (i 0)))) (i 1)) := by
  subst hT
  exact (carry14 m (outsU m) c).trans (g14_val m c hm)

end Cert.KernelIdeal.Hand

end
-- ==== Proof.KI.GatherVal15.lean ====
/-
  The value of the row-gather region 15: the array its output window leaves.

  At grid point t the region's output block holds, in its row j, the source's row  row (8 t + j).  The block sits at
  block index (t, 0) of the 85000 x 128 output array: it covers the rows 8 t … 8 t + 7 and all 128 columns. Every point
  writes its block back (the block index moves at every step), and row r of the array lies in the block of point r / 8,
  at the block's row r % 8. So the array ends with its row r equal to the source's row  row r,  for every r.

  The gathered block is taken abstractly here: any family of blocks that reads as above (the hypothesis of
  flushedG15_eq and finalG15) gives the array. When the row numbers are the words of an index table, each below 50000,
  row r of the array is the source's row at the node the table's word r names (finalG15_node).
-/
import proofs.«402049_j87351044866139_2_alg».proof.Proof.KI.Gather15
import proofs.«402049_j87351044866139_2_alg».proof.Proof.Spec
import Idealize.ShloMosaic.Lib.Pipeline.Value
import Idealize.ShloMosaic.Lib.ValueIdx

set_option maxRecDepth 16384

noncomputable section

namespace Cert.KernelIdeal.Hand

open Idealize.ShloMosaic Idealize.ShloMosaic.TcCoe
open Idealize.SL.Sem
open Idealize.ShloMosaic.Pipeline (Dat Cfg Window)
open Cert.KernelIdeal Cert.KernelIdeal.Gen

variable {F : FTy → Type} [FloatOps F]

variable (V : (c : Dev nD) → (b : Ref sig .tc) → Buf (Elt F) ((c : Thread nD τ).loc b))
variable (a15 : (pcfg15 (F := F)).Adm)
variable (gblk : (c : Dev nD) → Fin (cfg15 a15).N → S8x128.Idx → Elt F .f32)

/-! ## The grid and the output window's schedule -/

/-- The region's grid has 10625 points. -/
theorem ptsG15 (t : Fin (cfg15 a15).N) : t.val < 10625 := lt_of_lt_of_eq t.isLt N_15

/-- The grid has one axis, so point t has coordinate t. -/
theorem coordG15 (t : Fin (cfg15 a15).N) : (((cfg15 a15).grid.coords t) (0 : Fin 1)).val = t.val := by
  have hN := ptsG15 a15 t
  show t.val / (cfg15 a15).grid.stride (0 : Fin 1) % 10625 = t.val
  rw [show (cfg15 a15).grid.stride (0 : Fin 1) = 1 from rfl, Nat.div_one, Nat.mod_eq_of_lt hN]

/-- The output window's block index at point t is (t, 0). -/
theorem indexG15 (t : Fin (cfg15 a15).N) :
    ((cfg15 a15).win 0).index t (0 : Fin 2) = t.val ∧ ((cfg15 a15).win 0).index t (1 : Fin 2) = 0 := by
  have hN := ptsG15 a15 t
  refine ⟨?_, rfl⟩
  show (BitVec.ofNat 32 (((cfg15 a15).grid.coords t) (0 : Fin 1)).val).toNat = t.val
  rw [coordG15, BitVec.toNat_ofNat]
  exact Nat.mod_eq_of_lt (by omega)

/-- The block index moves at every step, so every point writes its block back. -/
theorem flushG15 (t : Fin (cfg15 a15).N) : ((cfg15 a15).win 0).flush t = true := by
  rw [Pipeline.Window.flush_out _ rfl]
  have ht : t.val < (cfg15 a15).grid.N := t.isLt
  by_cases h : t.val + 1 < (cfg15 a15).grid.N
  · refine .inr ⟨h, fun e => ?_⟩
    have e0 : ((cfg15 a15).win 0).index ⟨t.val + 1, h⟩ (0 : Fin 2) = ((cfg15 a15).win 0).index t (0 : Fin 2) :=
      congrFun e (0 : Fin 2)
    have e1 : ((cfg15 a15).win 0).index ⟨t.val + 1, h⟩ (0 : Fin 2) = t.val + 1 := (indexG15 a15 ⟨t.val + 1, h⟩).1
    have e2 : ((cfg15 a15).win 0).index t (0 : Fin 2) = t.val := (indexG15 a15 t).1
    omega
  · exact .inl (by omega)

/-! ## What a point writes back, and the array -/

variable (T : (c : Dev nD) → S50000x128.Idx → Elt F .f32) (row : (c : Dev nD) → Fin 85000 → Fin 50000)

/-- The array the region leaves on core c: its row r is the source's row  row r. -/
abbrev outG15 (c : Dev nD) : S85000x128.Idx → Elt F .f32 := fun i => T c (ValueIdx.ix2 (row c (i 0)) (i 1))

/-- One element of the block at point t is the array's element 8 t rows further down, in the same column. -/
theorem blockG15_apply
    (hblk : ∀ c (t : Fin (cfg15 a15).N) (j : Fin 8) (l : Fin 128) (h : 8 * t.val + j.val < 85000),
      gblk c t (ValueIdx.ix2 j l) = T c (ValueIdx.ix2 (row c ⟨8 * t.val + j.val, h⟩) l))
    (c : Dev nD) (t : Fin (cfg15 a15).N) (y : S8x128.Idx) (k : S85000x128.Idx)
    (hk0 : (k 0).val = 8 * t.val + (y 0).val) (hk1 : (k 1).val = (y 1).val) :
    gblk c t y = outG15 T row c k := by
  have hy0 : (y 0).val < 8 := (y 0).isLt
  have hN := ptsG15 a15 t
  have hb : 8 * t.val + (y 0).val < 85000 := by omega
  have h0 : (⟨8 * t.val + (y 0).val, hb⟩ : Fin 85000) = k 0 := Fin.ext hk0.symm
  have h1 : (y 1 : Fin 128) = k 1 := Fin.ext hk1.symm
  calc gblk c t y = gblk c t (ValueIdx.ix2 (y 0) (y 1)) := congrArg (gblk c t) (ValueIdx.eq_ix2 y)
    _ = T c (ValueIdx.ix2 (row c ⟨8 * t.val + (y 0).val, hb⟩) (y 1)) := hblk c t (y 0) (y 1) hb
    _ = outG15 T row c k := congrArg₂ (fun (p : Fin 85000) (l : Fin 128) => T c (ValueIdx.ix2 (row c p) l)) h0 h1

/-- WHAT POINT t WRITES BACK is block t of that array. -/
theorem flushedG15_eq
    (hblk : ∀ c (t : Fin (cfg15 a15).N) (j : Fin 8) (l : Fin 128) (h : 8 * t.val + j.val < 85000),
      gblk c t (ValueIdx.ix2 j l) = T c (ValueIdx.ix2 (row c ⟨8 * t.val + j.val, h⟩) l))
    (c : Dev nD) (t : Fin (cfg15 a15).N) :
    (datG15 V a15 gblk c).flushed 0 t = (((cfg15 a15).win 0).blk t).view.read (Elt F) (outG15 T row c) := by
  obtain ⟨e0, e1⟩ := indexG15 a15 t
  have key : ∀ y : S8x128.Idx, gblk c t y = outG15 T row c ((((cfg15 a15).win 0).blk t).view.emb y) := fun y =>
    blockG15_apply a15 gblk T row hblk c t y _
      (by show ((cfg15 a15).win 0).index t (0 : Fin 2) * 8 + 1 * (y 0).val = 8 * t.val + (y 0).val
          rw [e0]; omega)
      (by show ((cfg15 a15).win 0).index t (1 : Fin 2) * 128 + 1 * (y 1).val = (y 1).val
          rw [e1]; omega)
  exact funext key

/-- An index of the array whose row is among the rows 8 t … 8 t + 7 is in point t's block. -/
theorem mem_blkG15 (t : Fin (cfg15 a15).N) (i : S85000x128.Idx)
    (hi : 8 * t.val ≤ (i 0).val ∧ (i 0).val < 8 * t.val + 8) : i ∈ (((cfg15 a15).win 0).blk t).view.set := by
  obtain ⟨e0, e1⟩ := indexG15 a15 t
  have hi1 : (i 1).val < 128 := (i 1).isLt
  have hs : (((cfg15 a15).win 0).blk t).view.set = (((cfg15 a15).win 0).rect t).set :=
    View.set_slice_whole main_v69 (((cfg15 a15).win 0).rect t)
  have key : ∀ a : Fin 2, ((cfg15 a15).win 0).index t a * S8x128.size a ≤ (i a).val
      ∧ (i a).val < ((cfg15 a15).win 0).index t a * S8x128.size a + S8x128.size a := fun a =>
    match a with
    | ⟨0, _⟩ => by
      show ((cfg15 a15).win 0).index t (0 : Fin 2) * 8 ≤ (i 0).val ∧ (i 0).val < ((cfg15 a15).win 0).index t (0 : Fin 2) * 8 + 8
      rw [e0]; omega
    | ⟨1, _⟩ => by
      show ((cfg15 a15).win 0).index t (1 : Fin 2) * 128 ≤ (i 1).val ∧ (i 1).val < ((cfg15 a15).win 0).index t (1 : Fin 2) * 128 + 128
      rw [e1]; omega
  exact (Finset.ext_iff.mp hs i).mpr (Rect.mem_set_unit.mpr key)

/-- THE COVER: row r of the array lies in the block of point r / 8, and that point writes its block back. -/
theorem coverG15 (i : S85000x128.Idx) :
    ∃ t : Fin (cfg15 a15).N, ((cfg15 a15).win 0).flush t = true ∧ i ∈ (((cfg15 a15).win 0).blk t).view.set := by
  have hi0 : (i 0).val < 85000 := (i 0).isLt
  have ht : (i 0).val / 8 < (cfg15 a15).N := lt_of_lt_of_eq (by omega : (i 0).val / 8 < 10625) N_15.symm
  exact ⟨⟨(i 0).val / 8, ht⟩, flushG15 a15 _, mem_blkG15 a15 ⟨(i 0).val / 8, ht⟩ i
    (by show 8 * ((i 0).val / 8) ≤ (i 0).val ∧ (i 0).val < 8 * ((i 0).val / 8) + 8; omega)⟩

/-- THE ARRAY after the region: its row r is the source's row  row r. -/
theorem finalG15
    (hblk : ∀ c (t : Fin (cfg15 a15).N) (j : Fin 8) (l : Fin 128) (h : 8 * t.val + j.val < 85000),
      gblk c t (ValueIdx.ix2 j l) = T c (ValueIdx.ix2 (row c ⟨8 * t.val + j.val, h⟩) l))
    (c : Dev nD) :
    (datG15 V a15 gblk c).arrAt 0 (cfg15 a15).N
      = fun i : S85000x128.Idx => T c (ValueIdx.ix2 (row c (i 0)) (i 1)) :=
  (datG15 V a15 gblk c).arrAt_eq_of_cover 0 (outG15 T row c)
    (fun t _ => flushedG15_eq V a15 gblk T row hblk c t) (coverG15 a15)

/-- THE ARRAY, when the row numbers are the words of an index table tblw, each below 50000: row r is the source's row
    at the node that word r names (a word below 50000 names the node of that number). -/
theorem finalG15_node (tblw : IVec S85000 32) (hlt : ∀ k : S85000.Idx, (tblw k).toNat < 50000)
    (hblk : ∀ c (t : Fin (cfg15 a15).N) (j : Fin 8) (l : Fin 128) (h : 8 * t.val + j.val < 85000),
      gblk c t (ValueIdx.ix2 j l)
        = T c (ValueIdx.ix2 (⟨(tblw (ValueIdx.ix1 (⟨8 * t.val + j.val, h⟩ : Fin 85000))).toNat, hlt _⟩ : Fin 50000) l))
    (c : Dev nD) :
    (datG15 V a15 gblk c).arrAt 0 (cfg15 a15).N
      = fun i : S85000x128.Idx => T c (ValueIdx.ix2 (Cert.Spec.node (tblw (ValueIdx.ix1 (i 0)))) (i 1)) :=
  (finalG15 V a15 gblk T (fun _ p => ⟨(tblw (ValueIdx.ix1 p)).toNat, hlt _⟩) hblk c).trans
    (funext fun i => congrArg (fun p : Fin 50000 => T c (ValueIdx.ix2 p (i 1))) (Cert.Spec.node_of_lt (hlt _)).symm)

end Cert.KernelIdeal.Hand

end
-- ==== Proof.KI.GatherAt15.lean ====
/-
  Region 15 in the run: what it leaves, in terms of what the program's items before it left.

  Between the program's items core c's buffers hold the chain's valuations. Region 15's index table, as the region's
  proof data hold it, is the closed table of the launch memory, and every word of it is below 50000 when every word
  of the edge list is. So the region's output array holds, in its row r, the row — of the array the region reads — at
  the node that the table's word r names; and the array it reads is left as it was, which is as the item before the
  table's host stretch left it. No later item writes the output array before the host stretch that concatenates the
  gather outputs, so at that stretch's entry it holds the same rows (gat15: stated for whatever the array read holds).
-/
import proofs.«402049_j87351044866139_2_alg».proof.Proof.KI.Chain
import proofs.«402049_j87351044866139_2_alg».proof.Proof.KI.Carry
import proofs.«402049_j87351044866139_2_alg».proof.Proof.KI.GatherVal15
import proofs.«402049_j87351044866139_2_alg».proof.Proof.KI.Tables

set_option maxRecDepth 16384

noncomputable section

namespace Cert.KernelIdeal.Hand

open Cert.KernelIdeal Cert.KernelIdeal.Gen Cert.KernelIdeal.GenP
open Idealize.ShloMosaic Idealize.ShloMosaic.TcCoe
open Idealize.SL.Sem

variable {F : FTy → Type} [FloatOps F]
variable (m : (ℓ : Loc nD τ sig) → Buf (Elt F) ℓ)

/-- The index table the region's proof data hold is the closed table of the launch memory: the data hold what the
    chain's valuation at the region's entry has in the table's buffer, and that valuation is the run's own. -/
theorem tblwU15 : tblw15 (a15 m) = tbl15 m c₀ := by
  have h1 : tblw15 (a15 m) = (U33 m c₀ main_v68 : IVec S85000 32) := by
    unfold a15
    rfl
  have h2 : ∀ W : Valuation τ sig (Elt F), V33 m (outsU m) c₀ = W → (W main_v68 : IVec S85000 32) = tbl15 m c₀ :=
    fun W hW => by subst hW; exact tbl15_eq m (outsU m) c₀
  exact h1.trans (h2 (U33 m c₀) (V33_eq m c₀))

/-- The array the region reads, at the region's entry, is as the item before the table's host stretch left it. -/
theorem gin15 (c : Dev nD) : atTc (U33 m) c main_v61 = V32 m (outsU m) c main_v61 :=
  (congrFun (V33_eq m c) main_v61).symm.trans (V33_of m (outsU m) c main_v61 (by decide))

/-- THE ARRAY THE REGION READS is left as it was. -/
theorem gsrc15 (c : Dev nD) : V34 m (outsU m) c main_v61 = V32 m (outsU m) c main_v61 :=
  (congrFun (V34_eq m c) main_v61).trans ((U34_hbm m c).trans (gin15 m c))

/-- THE REGION'S OUTPUT: its row r is the row, of the array the region reads, at the node the table's word r names. -/
theorem g15_val (c : Dev nD) (hm : ∀ i : S2x800000.Idx, ((V0 m c main_arg1 : IVec S2x800000 32) i).toNat < 50000) :
    (V34 m (outsU m) c main_v69 : S85000x128.Idx → Elt F .f32)
      = fun i => (V32 m (outsU m) c main_v61 : S50000x128.Idx → Elt F .f32)
          (ValueIdx.ix2 (Cert.Spec.node (tbl15 m c (ValueIdx.ix1 (i 0)))) (i 1)) := by
  obtain rfl : c = c₀ := eq_c₀ c
  have hlt : ∀ k : S85000.Idx, (tblw15 (a15 m) k).toNat < 50000 := fun k => by
    rw [tblwU15]; exact tbl15_lt m c₀ hm k
  refine (congrFun (V34_eq m c₀) main_v69).trans ((U34_out m c₀).trans ?_)
  refine (finalG15_node (atTc (U33 m)) (a15 m) (gblk15 (atTc (U33 m)) (a15 m)) (fun c => V32 m (outsU m) c main_v61)
      (tblw15 (a15 m)) hlt
      (fun c t j l _ => (gblk15_apply (atTc (U33 m)) (a15 m) hlt c t j l).trans (congrFun (gin15 m c) _)) c₀).trans ?_
  rw [tblwU15]
  rfl

/-- THE REGION'S OUTPUT WHERE IT IS READ, at the entry of the host stretch that concatenates the gather outputs: the
    rows of T at the nodes the table names, when the array the region reads holds T. -/
theorem gat15 (c : Dev nD) (hm : ∀ i : S2x800000.Idx, ((V0 m c main_arg1 : IVec S2x800000 32) i).toNat < 50000)
    (T : S50000x128.Idx → Elt F .f32) (hT : V32 m (outsU m) c main_v61 = T) :
    (V46 m (outsU m) c main_v69 : S85000x128.Idx → Elt F .f32)
      = fun i => T (ValueIdx.ix2 (Cert.Spec.node (tbl15 m c (ValueIdx.ix1 (i 0)))) (i 1)) := by
  subst hT
  exact (carry15 m (outsU m) c).trans (g15_val m c hm)

end Cert.KernelIdeal.Hand

end
-- ==== Proof.KI.GatherVal16.lean ====
/-
  The value of the row-gather region 16: the array its output window leaves.

  At grid point t the region's output block holds, in its row j, the source's row  row (8 t + j).  The block sits at
  block index (t, 0) of the 85000 x 128 output array: it covers the rows 8 t … 8 t + 7 and all 128 columns. Every point
  writes its block back (the block index moves at every step), and row r of the array lies in the block of point r / 8,
  at the block's row r % 8. So the array ends with its row r equal to the source's row  row r,  for every r.

  The gathered block is taken abstractly here: any family of blocks that reads as above (the hypothesis of
  flushedG16_eq and finalG16) gives the array. When the row numbers are the words of an index table, each below 50000,
  row r of the array is the source's row at the node the table's word r names (finalG16_node).
-/
import proofs.«402049_j87351044866139_2_alg».proof.Proof.KI.Gather16
import proofs.«402049_j87351044866139_2_alg».proof.Proof.Spec
import Idealize.ShloMosaic.Lib.Pipeline.Value
import Idealize.ShloMosaic.Lib.ValueIdx

set_option maxRecDepth 16384

noncomputable section

namespace Cert.KernelIdeal.Hand

open Idealize.ShloMosaic Idealize.ShloMosaic.TcCoe
open Idealize.SL.Sem
open Idealize.ShloMosaic.Pipeline (Dat Cfg Window)
open Cert.KernelIdeal Cert.KernelIdeal.Gen

variable {F : FTy → Type} [FloatOps F]

variable (V : (c : Dev nD) → (b : Ref sig .tc) → Buf (Elt F) ((c : Thread nD τ).loc b))
variable (a16 : (pcfg16 (F := F)).Adm)
variable (gblk : (c : Dev nD) → Fin (cfg16 a16).N → S8x128.Idx → Elt F .f32)

/-! ## The grid and the output window's schedule -/

/-- The region's grid has 10625 points. -/
theorem ptsG16 (t : Fin (cfg16 a16).N) : t.val < 10625 := lt_of_lt_of_eq t.isLt N_16

/-- The grid has one axis, so point t has coordinate t. -/
theorem coordG16 (t : Fin (cfg16 a16).N) : (((cfg16 a16).grid.coords t) (0 : Fin 1)).val = t.val := by
  have hN := ptsG16 a16 t
  show t.val / (cfg16 a16).grid.stride (0 : Fin 1) % 10625 = t.val
  rw [show (cfg16 a16).grid.stride (0 : Fin 1) = 1 from rfl, Nat.div_one, Nat.mod_eq_of_lt hN]

/-- The output window's block index at point t is (t, 0). -/
theorem indexG16 (t : Fin (cfg16 a16).N) :
    ((cfg16 a16).win 0).index t (0 : Fin 2) = t.val ∧ ((cfg16 a16).win 0).index t (1 : Fin 2) = 0 := by
  have hN := ptsG16 a16 t
  refine ⟨?_, rfl⟩
  show (BitVec.ofNat 32 (((cfg16 a16).grid.coords t) (0 : Fin 1)).val).toNat = t.val
  rw [coordG16, BitVec.toNat_ofNat]
  exact Nat.mod_eq_of_lt (by omega)

/-- The block index moves at every step, so every point writes its block back. -/
theorem flushG16 (t : Fin (cfg16 a16).N) : ((cfg16 a16).win 0).flush t = true := by
  rw [Pipeline.Window.flush_out _ rfl]
  have ht : t.val < (cfg16 a16).grid.N := t.isLt
  by_cases h : t.val + 1 < (cfg16 a16).grid.N
  · refine .inr ⟨h, fun e => ?_⟩
    have e0 : ((cfg16 a16).win 0).index ⟨t.val + 1, h⟩ (0 : Fin 2) = ((cfg16 a16).win 0).index t (0 : Fin 2) :=
      congrFun e (0 : Fin 2)
    have e1 : ((cfg16 a16).win 0).index ⟨t.val + 1, h⟩ (0 : Fin 2) = t.val + 1 := (indexG16 a16 ⟨t.val + 1, h⟩).1
    have e2 : ((cfg16 a16).win 0).index t (0 : Fin 2) = t.val := (indexG16 a16 t).1
    omega
  · exact .inl (by omega)

/-! ## What a point writes back, and the array -/

variable (T : (c : Dev nD) → S50000x128.Idx → Elt F .f32) (row : (c : Dev nD) → Fin 85000 → Fin 50000)

/-- The array the region leaves on core c: its row r is the source's row  row r. -/
abbrev outG16 (c : Dev nD) : S85000x128.Idx → Elt F .f32 := fun i => T c (ValueIdx.ix2 (row c (i 0)) (i 1))

/-- One element of the block at point t is the array's element 8 t rows further down, in the same column. -/
theorem blockG16_apply
    (hblk : ∀ c (t : Fin (cfg16 a16).N) (j : Fin 8) (l : Fin 128) (h : 8 * t.val + j.val < 85000),
      gblk c t (ValueIdx.ix2 j l) = T c (ValueIdx.ix2 (row c ⟨8 * t.val + j.val, h⟩) l))
    (c : Dev nD) (t : Fin (cfg16 a16).N) (y : S8x128.Idx) (k : S85000x128.Idx)
    (hk0 : (k 0).val = 8 * t.val + (y 0).val) (hk1 : (k 1).val = (y 1).val) :
    gblk c t y = outG16 T row c k := by
  have hy0 : (y 0).val < 8 := (y 0).isLt
  have hN := ptsG16 a16 t
  have hb : 8 * t.val + (y 0).val < 85000 := by omega
  have h0 : (⟨8 * t.val + (y 0).val, hb⟩ : Fin 85000) = k 0 := Fin.ext hk0.symm
  have h1 : (y 1 : Fin 128) = k 1 := Fin.ext hk1.symm
  calc gblk c t y = gblk c t (ValueIdx.ix2 (y 0) (y 1)) := congrArg (gblk c t) (ValueIdx.eq_ix2 y)
    _ = T c (ValueIdx.ix2 (row c ⟨8 * t.val + (y 0).val, hb⟩) (y 1)) := hblk c t (y 0) (y 1) hb
    _ = outG16 T row c k := congrArg₂ (fun (p : Fin 85000) (l : Fin 128) => T c (ValueIdx.ix2 (row c p) l)) h0 h1

/-- WHAT POINT t WRITES BACK is block t of that array. -/
theorem flushedG16_eq
    (hblk : ∀ c (t : Fin (cfg16 a16).N) (j : Fin 8) (l : Fin 128) (h : 8 * t.val + j.val < 85000),
      gblk c t (ValueIdx.ix2 j l) = T c (ValueIdx.ix2 (row c ⟨8 * t.val + j.val, h⟩) l))
    (c : Dev nD) (t : Fin (cfg16 a16).N) :
    (datG16 V a16 gblk c).flushed 0 t = (((cfg16 a16).win 0).blk t).view.read (Elt F) (outG16 T row c) := by
  obtain ⟨e0, e1⟩ := indexG16 a16 t
  have key : ∀ y : S8x128.Idx, gblk c t y = outG16 T row c ((((cfg16 a16).win 0).blk t).view.emb y) := fun y =>
    blockG16_apply a16 gblk T row hblk c t y _
      (by show ((cfg16 a16).win 0).index t (0 : Fin 2) * 8 + 1 * (y 0).val = 8 * t.val + (y 0).val
          rw [e0]; omega)
      (by show ((cfg16 a16).win 0).index t (1 : Fin 2) * 128 + 1 * (y 1).val = (y 1).val
          rw [e1]; omega)
  exact funext key

/-- An index of the array whose row is among the rows 8 t … 8 t + 7 is in point t's block. -/
theorem mem_blkG16 (t : Fin (cfg16 a16).N) (i : S85000x128.Idx)
    (hi : 8 * t.val ≤ (i 0).val ∧ (i 0).val < 8 * t.val + 8) : i ∈ (((cfg16 a16).win 0).blk t).view.set := by
  obtain ⟨e0, e1⟩ := indexG16 a16 t
  have hi1 : (i 1).val < 128 := (i 1).isLt
  have hs : (((cfg16 a16).win 0).blk t).view.set = (((cfg16 a16).win 0).rect t).set :=
    View.set_slice_whole main_v71 (((cfg16 a16).win 0).rect t)
  have key : ∀ a : Fin 2, ((cfg16 a16).win 0).index t a * S8x128.size a ≤ (i a).val
      ∧ (i a).val < ((cfg16 a16).win 0).index t a * S8x128.size a + S8x128.size a := fun a =>
    match a with
    | ⟨0, _⟩ => by
      show ((cfg16 a16).win 0).index t (0 : Fin 2) * 8 ≤ (i 0).val ∧ (i 0).val < ((cfg16 a16).win 0).index t (0 : Fin 2) * 8 + 8
      rw [e0]; omega
    | ⟨1, _⟩ => by
      show ((cfg16 a16).win 0).index t (1 : Fin 2) * 128 ≤ (i 1).val ∧ (i 1).val < ((cfg16 a16).win 0).index t (1 : Fin 2) * 128 + 128
      rw [e1]; omega
  exact (Finset.ext_iff.mp hs i).mpr (Rect.mem_set_unit.mpr key)

/-- THE COVER: row r of the array lies in the block of point r / 8, and that point writes its block back. -/
theorem coverG16 (i : S85000x128.Idx) :
    ∃ t : Fin (cfg16 a16).N, ((cfg16 a16).win 0).flush t = true ∧ i ∈ (((cfg16 a16).win 0).blk t).view.set := by
  have hi0 : (i 0).val < 85000 := (i 0).isLt
  have ht : (i 0).val / 8 < (cfg16 a16).N := lt_of_lt_of_eq (by omega : (i 0).val / 8 < 10625) N_16.symm
  exact ⟨⟨(i 0).val / 8, ht⟩, flushG16 a16 _, mem_blkG16 a16 ⟨(i 0).val / 8, ht⟩ i
    (by show 8 * ((i 0).val / 8) ≤ (i 0).val ∧ (i 0).val < 8 * ((i 0).val / 8) + 8; omega)⟩

/-- THE ARRAY after the region: its row r is the source's row  row r. -/
theorem finalG16
    (hblk : ∀ c (t : Fin (cfg16 a16).N) (j : Fin 8) (l : Fin 128) (h : 8 * t.val + j.val < 85000),
      gblk c t (ValueIdx.ix2 j l) = T c (ValueIdx.ix2 (row c ⟨8 * t.val + j.val, h⟩) l))
    (c : Dev nD) :
    (datG16 V a16 gblk c).arrAt 0 (cfg16 a16).N
      = fun i : S85000x128.Idx => T c (ValueIdx.ix2 (row c (i 0)) (i 1)) :=
  (datG16 V a16 gblk c).arrAt_eq_of_cover 0 (outG16 T row c)
    (fun t _ => flushedG16_eq V a16 gblk T row hblk c t) (coverG16 a16)

/-- THE ARRAY, when the row numbers are the words of an index table tblw, each below 50000: row r is the source's row
    at the node that word r names (a word below 50000 names the node of that number). -/
theorem finalG16_node (tblw : IVec S85000 32) (hlt : ∀ k : S85000.Idx, (tblw k).toNat < 50000)
    (hblk : ∀ c (t : Fin (cfg16 a16).N) (j : Fin 8) (l : Fin 128) (h : 8 * t.val + j.val < 85000),
      gblk c t (ValueIdx.ix2 j l)
        = T c (ValueIdx.ix2 (⟨(tblw (ValueIdx.ix1 (⟨8 * t.val + j.val, h⟩ : Fin 85000))).toNat, hlt _⟩ : Fin 50000) l))
    (c : Dev nD) :
    (datG16 V a16 gblk c).arrAt 0 (cfg16 a16).N
      = fun i : S85000x128.Idx => T c (ValueIdx.ix2 (Cert.Spec.node (tblw (ValueIdx.ix1 (i 0)))) (i 1)) :=
  (finalG16 V a16 gblk T (fun _ p => ⟨(tblw (ValueIdx.ix1 p)).toNat, hlt _⟩) hblk c).trans
    (funext fun i => congrArg (fun p : Fin 50000 => T c (ValueIdx.ix2 p (i 1))) (Cert.Spec.node_of_lt (hlt _)).symm)

end Cert.KernelIdeal.Hand

end
-- ==== Proof.KI.GatherAt16.lean ====
/-
  Region 16 in the run: what it leaves, in terms of what the program's items before it left.

  Between the program's items core c's buffers hold the chain's valuations. Region 16's index table, as the region's
  proof data hold it, is the closed table of the launch memory, and every word of it is below 50000 when every word
  of the edge list is. So the region's output array holds, in its row r, the row — of the array the region reads — at
  the node that the table's word r names; and the array it reads is left as it was, which is as the item before the
  table's host stretch left it. No later item writes the output array before the host stretch that concatenates the
  gather outputs, so at that stretch's entry it holds the same rows (gat16: stated for whatever the array read holds).
-/
import proofs.«402049_j87351044866139_2_alg».proof.Proof.KI.Chain
import proofs.«402049_j87351044866139_2_alg».proof.Proof.KI.Carry
import proofs.«402049_j87351044866139_2_alg».proof.Proof.KI.GatherVal16
import proofs.«402049_j87351044866139_2_alg».proof.Proof.KI.Tables

set_option maxRecDepth 16384

noncomputable section

namespace Cert.KernelIdeal.Hand

open Cert.KernelIdeal Cert.KernelIdeal.Gen Cert.KernelIdeal.GenP
open Idealize.ShloMosaic Idealize.ShloMosaic.TcCoe
open Idealize.SL.Sem

variable {F : FTy → Type} [FloatOps F]
variable (m : (ℓ : Loc nD τ sig) → Buf (Elt F) ℓ)

/-- The index table the region's proof data hold is the closed table of the launch memory: the data hold what the
    chain's valuation at the region's entry has in the table's buffer, and that valuation is the run's own. -/
theorem tblwU16 : tblw16 (a16 m) = tbl16 m c₀ := by
  have h1 : tblw16 (a16 m) = (U35 m c₀ main_v70 : IVec S85000 32) := by
    unfold a16
    rfl
  have h2 : ∀ W : Valuation τ sig (Elt F), V35 m (outsU m) c₀ = W → (W main_v70 : IVec S85000 32) = tbl16 m c₀ :=
    fun W hW => by subst hW; exact tbl16_eq m (outsU m) c₀
  exact h1.trans (h2 (U35 m c₀) (V35_eq m c₀))

/-- The array the region reads, at the region's entry, is as the item before the table's host stretch left it. -/
theorem gin16 (c : Dev nD) : atTc (U35 m) c main_v61 = V34 m (outsU m) c main_v61 :=
  (congrFun (V35_eq m c) main_v61).symm.trans (V35_of m (outsU m) c main_v61 (by decide))

/-- THE ARRAY THE REGION READS is left as it was. -/
theorem gsrc16 (c : Dev nD) : V36 m (outsU m) c main_v61 = V34 m (outsU m) c main_v61 :=
  (congrFun (V36_eq m c) main_v61).trans ((U36_hbm m c).trans (gin16 m c))

/-- THE REGION'S OUTPUT: its row r is the row, of the array the region reads, at the node the table's word r names. -/
theorem g16_val (c : Dev nD) (hm : ∀ i : S2x800000.Idx, ((V0 m c main_arg1 : IVec S2x800000 32) i).toNat < 50000) :
    (V36 m (outsU m) c main_v71 : S85000x128.Idx → Elt F .f32)
      = fun i => (V34 m (outsU m) c main_v61 : S50000x128.Idx → Elt F .f32)
          (ValueIdx.ix2 (Cert.Spec.node (tbl16 m c (ValueIdx.ix1 (i 0)))) (i 1)) := by
  obtain rfl : c = c₀ := eq_c₀ c
  have hlt : ∀ k : S85000.Idx, (tblw16 (a16 m) k).toNat < 50000 := fun k => by
    rw [tblwU16]; exact tbl16_lt m c₀ hm k
  refine (congrFun (V36_eq m c₀) main_v71).trans ((U36_out m c₀).trans ?_)
  refine (finalG16_node (atTc (U35 m)) (a16 m) (gblk16 (atTc (U35 m)) (a16 m)) (fun c => V34 m (outsU m) c main_v61)
      (tblw16 (a16 m)) hlt
      (fun c t j l _ => (gblk16_apply (atTc (U35 m)) (a16 m) hlt c t j l).trans (congrFun (gin16 m c) _)) c₀).trans ?_
  rw [tblwU16]
  rfl

/-- THE REGION'S OUTPUT WHERE IT IS READ, at the entry of the host stretch that concatenates the gather outputs: the
    rows of T at the nodes the table names, when the array the region reads holds T. -/
theorem gat16 (c : Dev nD) (hm : ∀ i : S2x800000.Idx, ((V0 m c main_arg1 : IVec S2x800000 32) i).toNat < 50000)
    (T : S50000x128.Idx → Elt F .f32) (hT : V34 m (outsU m) c main_v61 = T) :
    (V46 m (outsU m) c main_v71 : S85000x128.Idx → Elt F .f32)
      = fun i => T (ValueIdx.ix2 (Cert.Spec.node (tbl16 m c (ValueIdx.ix1 (i 0)))) (i 1)) := by
  subst hT
  exact (carry16 m (outsU m) c).trans (g16_val m c hm)

end Cert.KernelIdeal.Hand

end
-- ==== Proof.KI.GatherVal17.lean ====
/-
  The value of the row-gather region 17: the array its output window leaves.

  At grid point t the region's output block holds, in its row j, the source's row  row (8 t + j).  The block sits at
  block index (t, 0) of the 85000 x 128 output array: it covers the rows 8 t … 8 t + 7 and all 128 columns. Every point
  writes its block back (the block index moves at every step), and row r of the array lies in the block of point r / 8,
  at the block's row r % 8. So the array ends with its row r equal to the source's row  row r,  for every r.

  The gathered block is taken abstractly here: any family of blocks that reads as above (the hypothesis of
  flushedG17_eq and finalG17) gives the array. When the row numbers are the words of an index table, each below 50000,
  row r of the array is the source's row at the node the table's word r names (finalG17_node).
-/
import proofs.«402049_j87351044866139_2_alg».proof.Proof.KI.Gather17
import proofs.«402049_j87351044866139_2_alg».proof.Proof.Spec
import Idealize.ShloMosaic.Lib.Pipeline.Value
import Idealize.ShloMosaic.Lib.ValueIdx

set_option maxRecDepth 16384

noncomputable section

namespace Cert.KernelIdeal.Hand

open Idealize.ShloMosaic Idealize.ShloMosaic.TcCoe
open Idealize.SL.Sem
open Idealize.ShloMosaic.Pipeline (Dat Cfg Window)
open Cert.KernelIdeal Cert.KernelIdeal.Gen

variable {F : FTy → Type} [FloatOps F]

variable (V : (c : Dev nD) → (b : Ref sig .tc) → Buf (Elt F) ((c : Thread nD τ).loc b))
variable (a17 : (pcfg17 (F := F)).Adm)
variable (gblk : (c : Dev nD) → Fin (cfg17 a17).N → S8x128.Idx → Elt F .f32)

/-! ## The grid and the output window's schedule -/

/-- The region's grid has 10625 points. -/
theorem ptsG17 (t : Fin (cfg17 a17).N) : t.val < 10625 := lt_of_lt_of_eq t.isLt N_17

/-- The grid has one axis, so point t has coordinate t. -/
theorem coordG17 (t : Fin (cfg17 a17).N) : (((cfg17 a17).grid.coords t) (0 : Fin 1)).val = t.val := by
  have hN := ptsG17 a17 t
  show t.val / (cfg17 a17).grid.stride (0 : Fin 1) % 10625 = t.val
  rw [show (cfg17 a17).grid.stride (0 : Fin 1) = 1 from rfl, Nat.div_one, Nat.mod_eq_of_lt hN]

/-- The output window's block index at point t is (t, 0). -/
theorem indexG17 (t : Fin (cfg17 a17).N) :
    ((cfg17 a17).win 0).index t (0 : Fin 2) = t.val ∧ ((cfg17 a17).win 0).index t (1 : Fin 2) = 0 := by
  have hN := ptsG17 a17 t
  refine ⟨?_, rfl⟩
  show (BitVec.ofNat 32 (((cfg17 a17).grid.coords t) (0 : Fin 1)).val).toNat = t.val
  rw [coordG17, BitVec.toNat_ofNat]
  exact Nat.mod_eq_of_lt (by omega)

/-- The block index moves at every step, so every point writes its block back. -/
theorem flushG17 (t : Fin (cfg17 a17).N) : ((cfg17 a17).win 0).flush t = true := by
  rw [Pipeline.Window.flush_out _ rfl]
  have ht : t.val < (cfg17 a17).grid.N := t.isLt
  by_cases h : t.val + 1 < (cfg17 a17).grid.N
  · refine .inr ⟨h, fun e => ?_⟩
    have e0 : ((cfg17 a17).win 0).index ⟨t.val + 1, h⟩ (0 : Fin 2) = ((cfg17 a17).win 0).index t (0 : Fin 2) :=
      congrFun e (0 : Fin 2)
    have e1 : ((cfg17 a17).win 0).index ⟨t.val + 1, h⟩ (0 : Fin 2) = t.val + 1 := (indexG17 a17 ⟨t.val + 1, h⟩).1
    have e2 : ((cfg17 a17).win 0).index t (0 : Fin 2) = t.val := (indexG17 a17 t).1
    omega
  · exact .inl (by omega)

/-! ## What a point writes back, and the array -/

variable (T : (c : Dev nD) → S50000x128.Idx → Elt F .f32) (row : (c : Dev nD) → Fin 85000 → Fin 50000)

/-- The array the region leaves on core c: its row r is the source's row  row r. -/
abbrev outG17 (c : Dev nD) : S85000x128.Idx → Elt F .f32 := fun i => T c (ValueIdx.ix2 (row c (i 0)) (i 1))

/-- One element of the block at point t is the array's element 8 t rows further down, in the same column. -/
theorem blockG17_apply
    (hblk : ∀ c (t : Fin (cfg17 a17).N) (j : Fin 8) (l : Fin 128) (h : 8 * t.val + j.val < 85000),
      gblk c t (ValueIdx.ix2 j l) = T c (ValueIdx.ix2 (row c ⟨8 * t.val + j.val, h⟩) l))
    (c : Dev nD) (t : Fin (cfg17 a17).N) (y : S8x128.Idx) (k : S85000x128.Idx)
    (hk0 : (k 0).val = 8 * t.val + (y 0).val) (hk1 : (k 1).val = (y 1).val) :
    gblk c t y = outG17 T row c k := by
  have hy0 : (y 0).val < 8 := (y 0).isLt
  have hN := ptsG17 a17 t
  have hb : 8 * t.val + (y 0).val < 85000 := by omega
  have h0 : (⟨8 * t.val + (y 0).val, hb⟩ : Fin 85000) = k 0 := Fin.ext hk0.symm
  have h1 : (y 1 : Fin 128) = k 1 := Fin.ext hk1.symm
  calc gblk c t y = gblk c t (ValueIdx.ix2 (y 0) (y 1)) := congrArg (gblk c t) (ValueIdx.eq_ix2 y)
    _ = T c (ValueIdx.ix2 (row c ⟨8 * t.val + (y 0).val, hb⟩) (y 1)) := hblk c t (y 0) (y 1) hb
    _ = outG17 T row c k := congrArg₂ (fun (p : Fin 85000) (l : Fin 128) => T c (ValueIdx.ix2 (row c p) l)) h0 h1

/-- WHAT POINT t WRITES BACK is block t of that array. -/
theorem flushedG17_eq
    (hblk : ∀ c (t : Fin (cfg17 a17).N) (j : Fin 8) (l : Fin 128) (h : 8 * t.val + j.val < 85000),
      gblk c t (ValueIdx.ix2 j l) = T c (ValueIdx.ix2 (row c ⟨8 * t.val + j.val, h⟩) l))
    (c : Dev nD) (t : Fin (cfg17 a17).N) :
    (datG17 V a17 gblk c).flushed 0 t = (((cfg17 a17).win 0).blk t).view.read (Elt F) (outG17 T row c) := by
  obtain ⟨e0, e1⟩ := indexG17 a17 t
  have key : ∀ y : S8x128.Idx, gblk c t y = outG17 T row c ((((cfg17 a17).win 0).blk t).view.emb y) := fun y =>
    blockG17_apply a17 gblk T row hblk c t y _
      (by show ((cfg17 a17).win 0).index t (0 : Fin 2) * 8 + 1 * (y 0).val = 8 * t.val + (y 0).val
          rw [e0]; omega)
      (by show ((cfg17 a17).win 0).index t (1 : Fin 2) * 128 + 1 * (y 1).val = (y 1).val
          rw [e1]; omega)
  exact funext key

/-- An index of the array whose row is among the rows 8 t … 8 t + 7 is in point t's block. -/
theorem mem_blkG17 (t : Fin (cfg17 a17).N) (i : S85000x128.Idx)
    (hi : 8 * t.val ≤ (i 0).val ∧ (i 0).val < 8 * t.val + 8) : i ∈ (((cfg17 a17).win 0).blk t).view.set := by
  obtain ⟨e0, e1⟩ := indexG17 a17 t
  have hi1 : (i 1).val < 128 := (i 1).isLt
  have hs : (((cfg17 a17).win 0).blk t).view.set = (((cfg17 a17).win 0).rect t).set :=
    View.set_slice_whole main_v73 (((cfg17 a17).win 0).rect t)
  have key : ∀ a : Fin 2, ((cfg17 a17).win 0).index t a * S8x128.size a ≤ (i a).val
      ∧ (i a).val < ((cfg17 a17).win 0).index t a * S8x128.size a + S8x128.size a := fun a =>
    match a with
    | ⟨0, _⟩ => by
      show ((cfg17 a17).win 0).index t (0 : Fin 2) * 8 ≤ (i 0).val ∧ (i 0).val < ((cfg17 a17).win 0).index t (0 : Fin 2) * 8 + 8
      rw [e0]; omega
    | ⟨1, _⟩ => by
      show ((cfg17 a17).win 0).index t (1 : Fin 2) * 128 ≤ (i 1).val ∧ (i 1).val < ((cfg17 a17).win 0).index t (1 : Fin 2) * 128 + 128
      rw [e1]; omega
  exact (Finset.ext_iff.mp hs i).mpr (Rect.mem_set_unit.mpr key)

/-- THE COVER: row r of the array lies in the block of point r / 8, and that point writes its block back. -/
theorem coverG17 (i : S85000x128.Idx) :
    ∃ t : Fin (cfg17 a17).N, ((cfg17 a17).win 0).flush t = true ∧ i ∈ (((cfg17 a17).win 0).blk t).view.set := by
  have hi0 : (i 0).val < 85000 := (i 0).isLt
  have ht : (i 0).val / 8 < (cfg17 a17).N := lt_of_lt_of_eq (by omega : (i 0).val / 8 < 10625) N_17.symm
  exact ⟨⟨(i 0).val / 8, ht⟩, flushG17 a17 _, mem_blkG17 a17 ⟨(i 0).val / 8, ht⟩ i
    (by show 8 * ((i 0).val / 8) ≤ (i 0).val ∧ (i 0).val < 8 * ((i 0).val / 8) + 8; omega)⟩

/-- THE ARRAY after the region: its row r is the source's row  row r. -/
theorem finalG17
    (hblk : ∀ c (t : Fin (cfg17 a17).N) (j : Fin 8) (l : Fin 128) (h : 8 * t.val + j.val < 85000),
      gblk c t (ValueIdx.ix2 j l) = T c (ValueIdx.ix2 (row c ⟨8 * t.val + j.val, h⟩) l))
    (c : Dev nD) :
    (datG17 V a17 gblk c).arrAt 0 (cfg17 a17).N
      = fun i : S85000x128.Idx => T c (ValueIdx.ix2 (row c (i 0)) (i 1)) :=
  (datG17 V a17 gblk c).arrAt_eq_of_cover 0 (outG17 T row c)
    (fun t _ => flushedG17_eq V a17 gblk T row hblk c t) (coverG17 a17)

/-- THE ARRAY, when the row numbers are the words of an index table tblw, each below 50000: row r is the source's row
    at the node that word r names (a word below 50000 names the node of that number). -/
theorem finalG17_node (tblw : IVec S85000 32) (hlt : ∀ k : S85000.Idx, (tblw k).toNat < 50000)
    (hblk : ∀ c (t : Fin (cfg17 a17).N) (j : Fin 8) (l : Fin 128) (h : 8 * t.val + j.val < 85000),
      gblk c t (ValueIdx.ix2 j l)
        = T c (ValueIdx.ix2 (⟨(tblw (ValueIdx.ix1 (⟨8 * t.val + j.val, h⟩ : Fin 85000))).toNat, hlt _⟩ : Fin 50000) l))
    (c : Dev nD) :
    (datG17 V a17 gblk c).arrAt 0 (cfg17 a17).N
      = fun i : S85000x128.Idx => T c (ValueIdx.ix2 (Cert.Spec.node (tblw (ValueIdx.ix1 (i 0)))) (i 1)) :=
  (finalG17 V a17 gblk T (fun _ p => ⟨(tblw (ValueIdx.ix1 p)).toNat, hlt _⟩) hblk c).trans
    (funext fun i => congrArg (fun p : Fin 50000 => T c (ValueIdx.ix2 p (i 1))) (Cert.Spec.node_of_lt (hlt _)).symm)

end Cert.KernelIdeal.Hand

end
-- ==== Proof.KI.GatherAt17.lean ====
/-
  Region 17 in the run: what it leaves, in terms of what the program's items before it left.

  Between the program's items core c's buffers hold the chain's valuations. Region 17's index table, as the region's
  proof data hold it, is the closed table of the launch memory, and every word of it is below 50000 when every word
  of the edge list is. So the region's output array holds, in its row r, the row — of the array the region reads — at
  the node that the table's word r names; and the array it reads is left as it was, which is as the item before the
  table's host stretch left it. No later item writes the output array before the host stretch that concatenates the
  gather outputs, so at that stretch's entry it holds the same rows (gat17: stated for whatever the array read holds).
-/
import proofs.«402049_j87351044866139_2_alg».proof.Proof.KI.Chain
import proofs.«402049_j87351044866139_2_alg».proof.Proof.KI.Carry
import proofs.«402049_j87351044866139_2_alg».proof.Proof.KI.GatherVal17
import proofs.«402049_j87351044866139_2_alg».proof.Proof.KI.Tables

set_option maxRecDepth 16384

noncomputable section

namespace Cert.KernelIdeal.Hand

open Cert.KernelIdeal Cert.KernelIdeal.Gen Cert.KernelIdeal.GenP
open Idealize.ShloMosaic Idealize.ShloMosaic.TcCoe
open Idealize.SL.Sem

variable {F : FTy → Type} [FloatOps F]
variable (m : (ℓ : Loc nD τ sig) → Buf (Elt F) ℓ)

/-- The index table the region's proof data hold is the closed table of the launch memory: the data hold what the
    chain's valuation at the region's entry has in the table's buffer, and that valuation is the run's own. -/
theorem tblwU17 : tblw17 (a17 m) = tbl17 m c₀ := by
  have h1 : tblw17 (a17 m) = (U37 m c₀ main_v72 : IVec S85000 32) := by
    unfold a17
    rfl
  have h2 : ∀ W : Valuation τ sig (Elt F), V37 m (outsU m) c₀ = W → (W main_v72 : IVec S85000 32) = tbl17 m c₀ :=
    fun W hW => by subst hW; exact tbl17_eq m (outsU m) c₀
  exact h1.trans (h2 (U37 m c₀) (V37_eq m c₀))

/-- The array the region reads, at the region's entry, is as the item before the table's host stretch left it. -/
theorem gin17 (c : Dev nD) : atTc (U37 m) c main_v61 = V36 m (outsU m) c main_v61 :=
  (congrFun (V37_eq m c) main_v61).symm.trans (V37_of m (outsU m) c main_v61 (by decide))

/-- THE ARRAY THE REGION READS is left as it was. -/
theorem gsrc17 (c : Dev nD) : V38 m (outsU m) c main_v61 = V36 m (outsU m) c main_v61 :=
  (congrFun (V38_eq m c) main_v61).trans ((U38_hbm m c).trans (gin17 m c))

/-- THE REGION'S OUTPUT: its row r is the row, of the array the region reads, at the node the table's word r names. -/
theorem g17_val (c : Dev nD) (hm : ∀ i : S2x800000.Idx, ((V0 m c main_arg1 : IVec S2x800000 32) i).toNat < 50000) :
    (V38 m (outsU m) c main_v73 : S85000x128.Idx → Elt F .f32)
      = fun i => (V36 m (outsU m) c main_v61 : S50000x128.Idx → Elt F .f32)
          (ValueIdx.ix2 (Cert.Spec.node (tbl17 m c (ValueIdx.ix1 (i 0)))) (i 1)) := by
  obtain rfl : c = c₀ := eq_c₀ c
  have hlt : ∀ k : S85000.Idx, (tblw17 (a17 m) k).toNat < 50000 := fun k => by
    rw [tblwU17]; exact tbl17_lt m c₀ hm k
  refine (congrFun (V38_eq m c₀) main_v73).trans ((U38_out m c₀).trans ?_)
  refine (finalG17_node (atTc (U37 m)) (a17 m) (gblk17 (atTc (U37 m)) (a17 m)) (fun c => V36 m (outsU m) c main_v61)
      (tblw17 (a17 m)) hlt
      (fun c t j l _ => (gblk17_apply (atTc (U37 m)) (a17 m) hlt c t j l).trans (congrFun (gin17 m c) _)) c₀).trans ?_
  rw [tblwU17]
  rfl

/-- THE REGION'S OUTPUT WHERE IT IS READ, at the entry of the host stretch that concatenates the gather outputs: the
    rows of T at the nodes the table names, when the array the region reads holds T. -/
theorem gat17 (c : Dev nD) (hm : ∀ i : S2x800000.Idx, ((V0 m c main_arg1 : IVec S2x800000 32) i).toNat < 50000)
    (T : S50000x128.Idx → Elt F .f32) (hT : V36 m (outsU m) c main_v61 = T) :
    (V46 m (outsU m) c main_v73 : S85000x128.Idx → Elt F .f32)
      = fun i => T (ValueIdx.ix2 (Cert.Spec.node (tbl17 m c (ValueIdx.ix1 (i 0)))) (i 1)) := by
  subst hT
  exact (carry17 m (outsU m) c).trans (g17_val m c hm)

end Cert.KernelIdeal.Hand

end
-- ==== Proof.KI.GatherVal18.lean ====
/-
  The value of the row-gather region 18: the array its output window leaves.

  At grid point t the region's output block holds, in its row j, the source's row  row (8 t + j).  The block sits at
  block index (t, 0) of the 85000 x 128 output array: it covers the rows 8 t … 8 t + 7 and all 128 columns. Every point
  writes its block back (the block index moves at every step), and row r of the array lies in the block of point r / 8,
  at the block's row r % 8. So the array ends with its row r equal to the source's row  row r,  for every r.

  The gathered block is taken abstractly here: any family of blocks that reads as above (the hypothesis of
  flushedG18_eq and finalG18) gives the array. When the row numbers are the words of an index table, each below 50000,
  row r of the array is the source's row at the node the table's word r names (finalG18_node).
-/
import proofs.«402049_j87351044866139_2_alg».proof.Proof.KI.Gather18
import proofs.«402049_j87351044866139_2_alg».proof.Proof.Spec
import Idealize.ShloMosaic.Lib.Pipeline.Value
import Idealize.ShloMosaic.Lib.ValueIdx

set_option maxRecDepth 16384

noncomputable section

namespace Cert.KernelIdeal.Hand

open Idealize.ShloMosaic Idealize.ShloMosaic.TcCoe
open Idealize.SL.Sem
open Idealize.ShloMosaic.Pipeline (Dat Cfg Window)
open Cert.KernelIdeal Cert.KernelIdeal.Gen

variable {F : FTy → Type} [FloatOps F]

variable (V : (c : Dev nD) → (b : Ref sig .tc) → Buf (Elt F) ((c : Thread nD τ).loc b))
variable (a18 : (pcfg18 (F := F)).Adm)
variable (gblk : (c : Dev nD) → Fin (cfg18 a18).N → S8x128.Idx → Elt F .f32)

/-! ## The grid and the output window's schedule -/

/-- The region's grid has 10625 points. -/
theorem ptsG18 (t : Fin (cfg18 a18).N) : t.val < 10625 := lt_of_lt_of_eq t.isLt N_18

/-- The grid has one axis, so point t has coordinate t. -/
theorem coordG18 (t : Fin (cfg18 a18).N) : (((cfg18 a18).grid.coords t) (0 : Fin 1)).val = t.val := by
  have hN := ptsG18 a18 t
  show t.val / (cfg18 a18).grid.stride (0 : Fin 1) % 10625 = t.val
  rw [show (cfg18 a18).grid.stride (0 : Fin 1) = 1 from rfl, Nat.div_one, Nat.mod_eq_of_lt hN]

/-- The output window's block index at point t is (t, 0). -/
theorem indexG18 (t : Fin (cfg18 a18).N) :
    ((cfg18 a18).win 0).index t (0 : Fin 2) = t.val ∧ ((cfg18 a18).win 0).index t (1 : Fin 2) = 0 := by
  have hN := ptsG18 a18 t
  refine ⟨?_, rfl⟩
  show (BitVec.ofNat 32 (((cfg18 a18).grid.coords t) (0 : Fin 1)).val).toNat = t.val
  rw [coordG18, BitVec.toNat_ofNat]
  exact Nat.mod_eq_of_lt (by omega)

/-- The block index moves at every step, so every point writes its block back. -/
theorem flushG18 (t : Fin (cfg18 a18).N) : ((cfg18 a18).win 0).flush t = true := by
  rw [Pipeline.Window.flush_out _ rfl]
  have ht : t.val < (cfg18 a18).grid.N := t.isLt
  by_cases h : t.val + 1 < (cfg18 a18).grid.N
  · refine .inr ⟨h, fun e => ?_⟩
    have e0 : ((cfg18 a18).win 0).index ⟨t.val + 1, h⟩ (0 : Fin 2) = ((cfg18 a18).win 0).index t (0 : Fin 2) :=
      congrFun e (0 : Fin 2)
    have e1 : ((cfg18 a18).win 0).index ⟨t.val + 1, h⟩ (0 : Fin 2) = t.val + 1 := (indexG18 a18 ⟨t.val + 1, h⟩).1
    have e2 : ((cfg18 a18).win 0).index t (0 : Fin 2) = t.val := (indexG18 a18 t).1
    omega
  · exact .inl (by omega)

/-! ## What a point writes back, and the array -/

variable (T : (c : Dev nD) → S50000x128.Idx → Elt F .f32) (row : (c : Dev nD) → Fin 85000 → Fin 50000)

/-- The array the region leaves on core c: its row r is the source's row  row r. -/
abbrev outG18 (c : Dev nD) : S85000x128.Idx → Elt F .f32 := fun i => T c (ValueIdx.ix2 (row c (i 0)) (i 1))

/-- One element of the block at point t is the array's element 8 t rows further down, in the same column. -/
theorem blockG18_apply
    (hblk : ∀ c (t : Fin (cfg18 a18).N) (j : Fin 8) (l : Fin 128) (h : 8 * t.val + j.val < 85000),
      gblk c t (ValueIdx.ix2 j l) = T c (ValueIdx.ix2 (row c ⟨8 * t.val + j.val, h⟩) l))
    (c : Dev nD) (t : Fin (cfg18 a18).N) (y : S8x128.Idx) (k : S85000x128.Idx)
    (hk0 : (k 0).val = 8 * t.val + (y 0).val) (hk1 : (k 1).val = (y 1).val) :
    gblk c t y = outG18 T row c k := by
  have hy0 : (y 0).val < 8 := (y 0).isLt
  have hN := ptsG18 a18 t
  have hb : 8 * t.val + (y 0).val < 85000 := by omega
  have h0 : (⟨8 * t.val + (y 0).val, hb⟩ : Fin 85000) = k 0 := Fin.ext hk0.symm
  have h1 : (y 1 : Fin 128) = k 1 := Fin.ext hk1.symm
  calc gblk c t y = gblk c t (ValueIdx.ix2 (y 0) (y 1)) := congrArg (gblk c t) (ValueIdx.eq_ix2 y)
    _ = T c (ValueIdx.ix2 (row c ⟨8 * t.val + (y 0).val, hb⟩) (y 1)) := hblk c t (y 0) (y 1) hb
    _ = outG18 T row c k := congrArg₂ (fun (p : Fin 85000) (l : Fin 128) => T c (ValueIdx.ix2 (row c p) l)) h0 h1

/-- WHAT POINT t WRITES BACK is block t of that array. -/
theorem flushedG18_eq
    (hblk : ∀ c (t : Fin (cfg18 a18).N) (j : Fin 8) (l : Fin 128) (h : 8 * t.val + j.val < 85000),
      gblk c t (ValueIdx.ix2 j l) = T c (ValueIdx.ix2 (row c ⟨8 * t.val + j.val, h⟩) l))
    (c : Dev nD) (t : Fin (cfg18 a18).N) :
    (datG18 V a18 gblk c).flushed 0 t = (((cfg18 a18).win 0).blk t).view.read (Elt F) (outG18 T row c) := by
  obtain ⟨e0, e1⟩ := indexG18 a18 t
  have key : ∀ y : S8x128.Idx, gblk c t y = outG18 T row c ((((cfg18 a18).win 0).blk t).view.emb y) := fun y =>
    blockG18_apply a18 gblk T row hblk c t y _
      (by show ((cfg18 a18).win 0).index t (0 : Fin 2) * 8 + 1 * (y 0).val = 8 * t.val + (y 0).val
          rw [e0]; omega)
      (by show ((cfg18 a18).win 0).index t (1 : Fin 2) * 128 + 1 * (y 1).val = (y 1).val
          rw [e1]; omega)
  exact funext key

/-- An index of the array whose row is among the rows 8 t … 8 t + 7 is in point t's block. -/
theorem mem_blkG18 (t : Fin (cfg18 a18).N) (i : S85000x128.Idx)
    (hi : 8 * t.val ≤ (i 0).val ∧ (i 0).val < 8 * t.val + 8) : i ∈ (((cfg18 a18).win 0).blk t).view.set := by
  obtain ⟨e0, e1⟩ := indexG18 a18 t
  have hi1 : (i 1).val < 128 := (i 1).isLt
  have hs : (((cfg18 a18).win 0).blk t).view.set = (((cfg18 a18).win 0).rect t).set :=
    View.set_slice_whole main_v75 (((cfg18 a18).win 0).rect t)
  have key : ∀ a : Fin 2, ((cfg18 a18).win 0).index t a * S8x128.size a ≤ (i a).val
      ∧ (i a).val < ((cfg18 a18).win 0).index t a * S8x128.size a + S8x128.size a := fun a =>
    match a with
    | ⟨0, _⟩ => by
      show ((cfg18 a18).win 0).index t (0 : Fin 2) * 8 ≤ (i 0).val ∧ (i 0).val < ((cfg18 a18).win 0).index t (0 : Fin 2) * 8 + 8
      rw [e0]; omega
    | ⟨1, _⟩ => by
      show ((cfg18 a18).win 0).index t (1 : Fin 2) * 128 ≤ (i 1).val ∧ (i 1).val < ((cfg18 a18).win 0).index t (1 : Fin 2) * 128 + 128
      rw [e1]; omega
  exact (Finset.ext_iff.mp hs i).mpr (Rect.mem_set_unit.mpr key)

/-- THE COVER: row r of the array lies in the block of point r / 8, and that point writes its block back. -/
theorem coverG18 (i : S85000x128.Idx) :
    ∃ t : Fin (cfg18 a18).N, ((cfg18 a18).win 0).flush t = true ∧ i ∈ (((cfg18 a18).win 0).blk t).view.set := by
  have hi0 : (i 0).val < 85000 := (i 0).isLt
  have ht : (i 0).val / 8 < (cfg18 a18).N := lt_of_lt_of_eq (by omega : (i 0).val / 8 < 10625) N_18.symm
  exact ⟨⟨(i 0).val / 8, ht⟩, flushG18 a18 _, mem_blkG18 a18 ⟨(i 0).val / 8, ht⟩ i
    (by show 8 * ((i 0).val / 8) ≤ (i 0).val ∧ (i 0).val < 8 * ((i 0).val / 8) + 8; omega)⟩

/-- THE ARRAY after the region: its row r is the source's row  row r. -/
theorem finalG18
    (hblk : ∀ c (t : Fin (cfg18 a18).N) (j : Fin 8) (l : Fin 128) (h : 8 * t.val + j.val < 85000),
      gblk c t (ValueIdx.ix2 j l) = T c (ValueIdx.ix2 (row c ⟨8 * t.val + j.val, h⟩) l))
    (c : Dev nD) :
    (datG18 V a18 gblk c).arrAt 0 (cfg18 a18).N
      = fun i : S85000x128.Idx => T c (ValueIdx.ix2 (row c (i 0)) (i 1)) :=
  (datG18 V a18 gblk c).arrAt_eq_of_cover 0 (outG18 T row c)
    (fun t _ => flushedG18_eq V a18 gblk T row hblk c t) (coverG18 a18)

/-- THE ARRAY, when the row numbers are the words of an index table tblw, each below 50000: row r is the source's row
    at the node that word r names (a word below 50000 names the node of that number). -/
theorem finalG18_node (tblw : IVec S85000 32) (hlt : ∀ k : S85000.Idx, (tblw k).toNat < 50000)
    (hblk : ∀ c (t : Fin (cfg18 a18).N) (j : Fin 8) (l : Fin 128) (h : 8 * t.val + j.val < 85000),
      gblk c t (ValueIdx.ix2 j l)
        = T c (ValueIdx.ix2 (⟨(tblw (ValueIdx.ix1 (⟨8 * t.val + j.val, h⟩ : Fin 85000))).toNat, hlt _⟩ : Fin 50000) l))
    (c : Dev nD) :
    (datG18 V a18 gblk c).arrAt 0 (cfg18 a18).N
      = fun i : S85000x128.Idx => T c (ValueIdx.ix2 (Cert.Spec.node (tblw (ValueIdx.ix1 (i 0)))) (i 1)) :=
  (finalG18 V a18 gblk T (fun _ p => ⟨(tblw (ValueIdx.ix1 p)).toNat, hlt _⟩) hblk c).trans
    (funext fun i => congrArg (fun p : Fin 50000 => T c (ValueIdx.ix2 p (i 1))) (Cert.Spec.node_of_lt (hlt _)).symm)

end Cert.KernelIdeal.Hand

end
-- ==== Proof.KI.GatherAt18.lean ====
/-
  Region 18 in the run: what it leaves, in terms of what the program's items before it left.

  Between the program's items core c's buffers hold the chain's valuations. Region 18's index table, as the region's
  proof data hold it, is the closed table of the launch memory, and every word of it is below 50000 when every word
  of the edge list is. So the region's output array holds, in its row r, the row — of the array the region reads — at
  the node that the table's word r names; and the array it reads is left as it was, which is as the item before the
  table's host stretch left it. No later item writes the output array before the host stretch that concatenates the
  gather outputs, so at that stretch's entry it holds the same rows (gat18: stated for whatever the array read holds).
-/
import proofs.«402049_j87351044866139_2_alg».proof.Proof.KI.Chain
import proofs.«402049_j87351044866139_2_alg».proof.Proof.KI.Carry
import proofs.«402049_j87351044866139_2_alg».proof.Proof.KI.GatherVal18
import proofs.«402049_j87351044866139_2_alg».proof.Proof.KI.Tables

set_option maxRecDepth 16384

noncomputable section

namespace Cert.KernelIdeal.Hand

open Cert.KernelIdeal Cert.KernelIdeal.Gen Cert.KernelIdeal.GenP
open Idealize.ShloMosaic Idealize.ShloMosaic.TcCoe
open Idealize.SL.Sem

variable {F : FTy → Type} [FloatOps F]
variable (m : (ℓ : Loc nD τ sig) → Buf (Elt F) ℓ)

/-- The index table the region's proof data hold is the closed table of the launch memory: the data hold what the
    chain's valuation at the region's entry has in the table's buffer, and that valuation is the run's own. -/
theorem tblwU18 : tblw18 (a18 m) = tbl18 m c₀ := by
  have h1 : tblw18 (a18 m) = (U39 m c₀ main_v74 : IVec S85000 32) := by
    unfold a18
    rfl
  have h2 : ∀ W : Valuation τ sig (Elt F), V39 m (outsU m) c₀ = W → (W main_v74 : IVec S85000 32) = tbl18 m c₀ :=
    fun W hW => by subst hW; exact tbl18_eq m (outsU m) c₀
  exact h1.trans (h2 (U39 m c₀) (V39_eq m c₀))

/-- The array the region reads, at the region's entry, is as the item before the table's host stretch left it. -/
theorem gin18 (c : Dev nD) : atTc (U39 m) c main_v61 = V38 m (outsU m) c main_v61 :=
  (congrFun (V39_eq m c) main_v61).symm.trans (V39_of m (outsU m) c main_v61 (by decide))

/-- THE ARRAY THE REGION READS is left as it was. -/
theorem gsrc18 (c : Dev nD) : V40 m (outsU m) c main_v61 = V38 m (outsU m) c main_v61 :=
  (congrFun (V40_eq m c) main_v61).trans ((U40_hbm m c).trans (gin18 m c))

/-- THE REGION'S OUTPUT: its row r is the row, of the array the region reads, at the node the table's word r names. -/
theorem g18_val (c : Dev nD) (hm : ∀ i : S2x800000.Idx, ((V0 m c main_arg1 : IVec S2x800000 32) i).toNat < 50000) :
    (V40 m (outsU m) c main_v75 : S85000x128.Idx → Elt F .f32)
      = fun i => (V38 m (outsU m) c main_v61 : S50000x128.Idx → Elt F .f32)
          (ValueIdx.ix2 (Cert.Spec.node (tbl18 m c (ValueIdx.ix1 (i 0)))) (i 1)) := by
  obtain rfl : c = c₀ := eq_c₀ c
  have hlt : ∀ k : S85000.Idx, (tblw18 (a18 m) k).toNat < 50000 := fun k => by
    rw [tblwU18]; exact tbl18_lt m c₀ hm k
  refine (congrFun (V40_eq m c₀) main_v75).trans ((U40_out m c₀).trans ?_)
  refine (finalG18_node (atTc (U39 m)) (a18 m) (gblk18 (atTc (U39 m)) (a18 m)) (fun c => V38 m (outsU m) c main_v61)
      (tblw18 (a18 m)) hlt
      (fun c t j l _ => (gblk18_apply (atTc (U39 m)) (a18 m) hlt c t j l).trans (congrFun (gin18 m c) _)) c₀).trans ?_
  rw [tblwU18]
  rfl

/-- THE REGION'S OUTPUT WHERE IT IS READ, at the entry of the host stretch that concatenates the gather outputs: the
    rows of T at the nodes the table names, when the array the region reads holds T. -/
theorem gat18 (c : Dev nD) (hm : ∀ i : S2x800000.Idx, ((V0 m c main_arg1 : IVec S2x800000 32) i).toNat < 50000)
    (T : S50000x128.Idx → Elt F .f32) (hT : V38 m (outsU m) c main_v61 = T) :
    (V46 m (outsU m) c main_v75 : S85000x128.Idx → Elt F .f32)
      = fun i => T (ValueIdx.ix2 (Cert.Spec.node (tbl18 m c (ValueIdx.ix1 (i 0)))) (i 1)) := by
  subst hT
  exact (carry18 m (outsU m) c).trans (g18_val m c hm)

end Cert.KernelIdeal.Hand

end
-- ==== Proof.KI.GatherVal19.lean ====
/-
  The value of the row-gather region 19: the array its output window leaves.

  At grid point t the region's output block holds, in its row j, the source's row  row (8 t + j).  The block sits at
  block index (t, 0) of the 85000 x 128 output array: it covers the rows 8 t … 8 t + 7 and all 128 columns. Every point
  writes its block back (the block index moves at every step), and row r of the array lies in the block of point r / 8,
  at the block's row r % 8. So the array ends with its row r equal to the source's row  row r,  for every r.

  The gathered block is taken abstractly here: any family of blocks that reads as above (the hypothesis of
  flushedG19_eq and finalG19) gives the array. When the row numbers are the words of an index table, each below 50000,
  row r of the array is the source's row at the node the table's word r names (finalG19_node).
-/
import proofs.«402049_j87351044866139_2_alg».proof.Proof.KI.Gather19
import proofs.«402049_j87351044866139_2_alg».proof.Proof.Spec
import Idealize.ShloMosaic.Lib.Pipeline.Value
import Idealize.ShloMosaic.Lib.ValueIdx

set_option maxRecDepth 16384

noncomputable section

namespace Cert.KernelIdeal.Hand

open Idealize.ShloMosaic Idealize.ShloMosaic.TcCoe
open Idealize.SL.Sem
open Idealize.ShloMosaic.Pipeline (Dat Cfg Window)
open Cert.KernelIdeal Cert.KernelIdeal.Gen

variable {F : FTy → Type} [FloatOps F]

variable (V : (c : Dev nD) → (b : Ref sig .tc) → Buf (Elt F) ((c : Thread nD τ).loc b))
variable (a19 : (pcfg19 (F := F)).Adm)
variable (gblk : (c : Dev nD) → Fin (cfg19 a19).N → S8x128.Idx → Elt F .f32)

/-! ## The grid and the output window's schedule -/

/-- The region's grid has 10625 points. -/
theorem ptsG19 (t : Fin (cfg19 a19).N) : t.val < 10625 := lt_of_lt_of_eq t.isLt N_19

/-- The grid has one axis, so point t has coordinate t. -/
theorem coordG19 (t : Fin (cfg19 a19).N) : (((cfg19 a19).grid.coords t) (0 : Fin 1)).val = t.val := by
  have hN := ptsG19 a19 t
  show t.val / (cfg19 a19).grid.stride (0 : Fin 1) % 10625 = t.val
  rw [show (cfg19 a19).grid.stride (0 : Fin 1) = 1 from rfl, Nat.div_one, Nat.mod_eq_of_lt hN]

/-- The output window's block index at point t is (t, 0). -/
theorem indexG19 (t : Fin (cfg19 a19).N) :
    ((cfg19 a19).win 0).index t (0 : Fin 2) = t.val ∧ ((cfg19 a19).win 0).index t (1 : Fin 2) = 0 := by
  have hN := ptsG19 a19 t
  refine ⟨?_, rfl⟩
  show (BitVec.ofNat 32 (((cfg19 a19).grid.coords t) (0 : Fin 1)).val).toNat = t.val
  rw [coordG19, BitVec.toNat_ofNat]
  exact Nat.mod_eq_of_lt (by omega)

/-- The block index moves at every step, so every point writes its block back. -/
theorem flushG19 (t : Fin (cfg19 a19).N) : ((cfg19 a19).win 0).flush t = true := by
  rw [Pipeline.Window.flush_out _ rfl]
  have ht : t.val < (cfg19 a19).grid.N := t.isLt
  by_cases h : t.val + 1 < (cfg19 a19).grid.N
  · refine .inr ⟨h, fun e => ?_⟩
    have e0 : ((cfg19 a19).win 0).index ⟨t.val + 1, h⟩ (0 : Fin 2) = ((cfg19 a19).win 0).index t (0 : Fin 2) :=
      congrFun e (0 : Fin 2)
    have e1 : ((cfg19 a19).win 0).index ⟨t.val + 1, h⟩ (0 : Fin 2) = t.val + 1 := (indexG19 a19 ⟨t.val + 1, h⟩).1
    have e2 : ((cfg19 a19).win 0).index t (0 : Fin 2) = t.val := (indexG19 a19 t).1
    omega
  · exact .inl (by omega)

/-! ## What a point writes back, and the array -/

variable (T : (c : Dev nD) → S50000x128.Idx → Elt F .f32) (row : (c : Dev nD) → Fin 85000 → Fin 50000)

/-- The array the region leaves on core c: its row r is the source's row  row r. -/
abbrev outG19 (c : Dev nD) : S85000x128.Idx → Elt F .f32 := fun i => T c (ValueIdx.ix2 (row c (i 0)) (i 1))

/-- One element of the block at point t is the array's element 8 t rows further down, in the same column. -/
theorem blockG19_apply
    (hblk : ∀ c (t : Fin (cfg19 a19).N) (j : Fin 8) (l : Fin 128) (h : 8 * t.val + j.val < 85000),
      gblk c t (ValueIdx.ix2 j l) = T c (ValueIdx.ix2 (row c ⟨8 * t.val + j.val, h⟩) l))
    (c : Dev nD) (t : Fin (cfg19 a19).N) (y : S8x128.Idx) (k : S85000x128.Idx)
    (hk0 : (k 0).val = 8 * t.val + (y 0).val) (hk1 : (k 1).val = (y 1).val) :
    gblk c t y = outG19 T row c k := by
  have hy0 : (y 0).val < 8 := (y 0).isLt
  have hN := ptsG19 a19 t
  have hb : 8 * t.val + (y 0).val < 85000 := by omega
  have h0 : (⟨8 * t.val + (y 0).val, hb⟩ : Fin 85000) = k 0 := Fin.ext hk0.symm
  have h1 : (y 1 : Fin 128) = k 1 := Fin.ext hk1.symm
  calc gblk c t y = gblk c t (ValueIdx.ix2 (y 0) (y 1)) := congrArg (gblk c t) (ValueIdx.eq_ix2 y)
    _ = T c (ValueIdx.ix2 (row c ⟨8 * t.val + (y 0).val, hb⟩) (y 1)) := hblk c t (y 0) (y 1) hb
    _ = outG19 T row c k := congrArg₂ (fun (p : Fin 85000) (l : Fin 128) => T c (ValueIdx.ix2 (row c p) l)) h0 h1

/-- WHAT POINT t WRITES BACK is block t of that array. -/
theorem flushedG19_eq
    (hblk : ∀ c (t : Fin (cfg19 a19).N) (j : Fin 8) (l : Fin 128) (h : 8 * t.val + j.val < 85000),
      gblk c t (ValueIdx.ix2 j l) = T c (ValueIdx.ix2 (row c ⟨8 * t.val + j.val, h⟩) l))
    (c : Dev nD) (t : Fin (cfg19 a19).N) :
    (datG19 V a19 gblk c).flushed 0 t = (((cfg19 a19).win 0).blk t).view.read (Elt F) (outG19 T row c) := by
  obtain ⟨e0, e1⟩ := indexG19 a19 t
  have key : ∀ y : S8x128.Idx, gblk c t y = outG19 T row c ((((cfg19 a19).win 0).blk t).view.emb y) := fun y =>
    blockG19_apply a19 gblk T row hblk c t y _
      (by show ((cfg19 a19).win 0).index t (0 : Fin 2) * 8 + 1 * (y 0).val = 8 * t.val + (y 0).val
          rw [e0]; omega)
      (by show ((cfg19 a19).win 0).index t (1 : Fin 2) * 128 + 1 * (y 1).val = (y 1).val
          rw [e1]; omega)
  exact funext key

/-- An index of the array whose row is among the rows 8 t … 8 t + 7 is in point t's block. -/
theorem mem_blkG19 (t : Fin (cfg19 a19).N) (i : S85000x128.Idx)
    (hi : 8 * t.val ≤ (i 0).val ∧ (i 0).val < 8 * t.val + 8) : i ∈ (((cfg19 a19).win 0).blk t).view.set := by
  obtain ⟨e0, e1⟩ := indexG19 a19 t
  have hi1 : (i 1).val < 128 := (i 1).isLt
  have hs : (((cfg19 a19).win 0).blk t).view.set = (((cfg19 a19).win 0).rect t).set :=
    View.set_slice_whole main_v77 (((cfg19 a19).win 0).rect t)
  have key : ∀ a : Fin 2, ((cfg19 a19).win 0).index t a * S8x128.size a ≤ (i a).val
      ∧ (i a).val < ((cfg19 a19).win 0).index t a * S8x128.size a + S8x128.size a := fun a =>
    match a with
    | ⟨0, _⟩ => by
      show ((cfg19 a19).win 0).index t (0 : Fin 2) * 8 ≤ (i 0).val ∧ (i 0).val < ((cfg19 a19).win 0).index t (0 : Fin 2) * 8 + 8
      rw [e0]; omega
    | ⟨1, _⟩ => by
      show ((cfg19 a19).win 0).index t (1 : Fin 2) * 128 ≤ (i 1).val ∧ (i 1).val < ((cfg19 a19).win 0).index t (1 : Fin 2) * 128 + 128
      rw [e1]; omega
  exact (Finset.ext_iff.mp hs i).mpr (Rect.mem_set_unit.mpr key)

/-- THE COVER: row r of the array lies in the block of point r / 8, and that point writes its block back. -/
theorem coverG19 (i : S85000x128.Idx) :
    ∃ t : Fin (cfg19 a19).N, ((cfg19 a19).win 0).flush t = true ∧ i ∈ (((cfg19 a19).win 0).blk t).view.set := by
  have hi0 : (i 0).val < 85000 := (i 0).isLt
  have ht : (i 0).val / 8 < (cfg19 a19).N := lt_of_lt_of_eq (by omega : (i 0).val / 8 < 10625) N_19.symm
  exact ⟨⟨(i 0).val / 8, ht⟩, flushG19 a19 _, mem_blkG19 a19 ⟨(i 0).val / 8, ht⟩ i
    (by show 8 * ((i 0).val / 8) ≤ (i 0).val ∧ (i 0).val < 8 * ((i 0).val / 8) + 8; omega)⟩

/-- THE ARRAY after the region: its row r is the source's row  row r. -/
theorem finalG19
    (hblk : ∀ c (t : Fin (cfg19 a19).N) (j : Fin 8) (l : Fin 128) (h : 8 * t.val + j.val < 85000),
      gblk c t (ValueIdx.ix2 j l) = T c (ValueIdx.ix2 (row c ⟨8 * t.val + j.val, h⟩) l))
    (c : Dev nD) :
    (datG19 V a19 gblk c).arrAt 0 (cfg19 a19).N
      = fun i : S85000x128.Idx => T c (ValueIdx.ix2 (row c (i 0)) (i 1)) :=
  (datG19 V a19 gblk c).arrAt_eq_of_cover 0 (outG19 T row c)
    (fun t _ => flushedG19_eq V a19 gblk T row hblk c t) (coverG19 a19)

/-- THE ARRAY, when the row numbers are the words of an index table tblw, each below 50000: row r is the source's row
    at the node that word r names (a word below 50000 names the node of that number). -/
theorem finalG19_node (tblw : IVec S85000 32) (hlt : ∀ k : S85000.Idx, (tblw k).toNat < 50000)
    (hblk : ∀ c (t : Fin (cfg19 a19).N) (j : Fin 8) (l : Fin 128) (h : 8 * t.val + j.val < 85000),
      gblk c t (ValueIdx.ix2 j l)
        = T c (ValueIdx.ix2 (⟨(tblw (ValueIdx.ix1 (⟨8 * t.val + j.val, h⟩ : Fin 85000))).toNat, hlt _⟩ : Fin 50000) l))
    (c : Dev nD) :
    (datG19 V a19 gblk c).arrAt 0 (cfg19 a19).N
      = fun i : S85000x128.Idx => T c (ValueIdx.ix2 (Cert.Spec.node (tblw (ValueIdx.ix1 (i 0)))) (i 1)) :=
  (finalG19 V a19 gblk T (fun _ p => ⟨(tblw (ValueIdx.ix1 p)).toNat, hlt _⟩) hblk c).trans
    (funext fun i => congrArg (fun p : Fin 50000 => T c (ValueIdx.ix2 p (i 1))) (Cert.Spec.node_of_lt (hlt _)).symm)

end Cert.KernelIdeal.Hand

end
-- ==== Proof.KI.GatherAt19.lean ====
/-
  Region 19 in the run: what it leaves, in terms of what the program's items before it left.

  Between the program's items core c's buffers hold the chain's valuations. Region 19's index table, as the region's
  proof data hold it, is the closed table of the launch memory, and every word of it is below 50000 when every word
  of the edge list is. So the region's output array holds, in its row r, the row — of the array the region reads — at
  the node that the table's word r names; and the array it reads is left as it was, which is as the item before the
  table's host stretch left it. No later item writes the output array before the host stretch that concatenates the
  gather outputs, so at that stretch's entry it holds the same rows (gat19: stated for whatever the array read holds).
-/
import proofs.«402049_j87351044866139_2_alg».proof.Proof.KI.Chain
import proofs.«402049_j87351044866139_2_alg».proof.Proof.KI.Carry
import proofs.«402049_j87351044866139_2_alg».proof.Proof.KI.GatherVal19
import proofs.«402049_j87351044866139_2_alg».proof.Proof.KI.Tables

set_option maxRecDepth 16384

noncomputable section

namespace Cert.KernelIdeal.Hand

open Cert.KernelIdeal Cert.KernelIdeal.Gen Cert.KernelIdeal.GenP
open Idealize.ShloMosaic Idealize.ShloMosaic.TcCoe
open Idealize.SL.Sem

variable {F : FTy → Type} [FloatOps F]
variable (m : (ℓ : Loc nD τ sig) → Buf (Elt F) ℓ)

/-- The index table the region's proof data hold is the closed table of the launch memory: the data hold what the
    chain's valuation at the region's entry has in the table's buffer, and that valuation is the run's own. -/
theorem tblwU19 : tblw19 (a19 m) = tbl19 m c₀ := by
  have h1 : tblw19 (a19 m) = (U41 m c₀ main_v76 : IVec S85000 32) := by
    unfold a19
    rfl
  have h2 : ∀ W : Valuation τ sig (Elt F), V41 m (outsU m) c₀ = W → (W main_v76 : IVec S85000 32) = tbl19 m c₀ :=
    fun W hW => by subst hW; exact tbl19_eq m (outsU m) c₀
  exact h1.trans (h2 (U41 m c₀) (V41_eq m c₀))

/-- The array the region reads, at the region's entry, is as the item before the table's host stretch left it. -/
theorem gin19 (c : Dev nD) : atTc (U41 m) c main_v61 = V40 m (outsU m) c main_v61 :=
  (congrFun (V41_eq m c) main_v61).symm.trans (V41_of m (outsU m) c main_v61 (by decide))

/-- THE ARRAY THE REGION READS is left as it was. -/
theorem gsrc19 (c : Dev nD) : V42 m (outsU m) c main_v61 = V40 m (outsU m) c main_v61 :=
  (congrFun (V42_eq m c) main_v61).trans ((U42_hbm m c).trans (gin19 m c))

/-- THE REGION'S OUTPUT: its row r is the row, of the array the region reads, at the node the table's word r names. -/
theorem g19_val (c : Dev nD) (hm : ∀ i : S2x800000.Idx, ((V0 m c main_arg1 : IVec S2x800000 32) i).toNat < 50000) :
    (V42 m (outsU m) c main_v77 : S85000x128.Idx → Elt F .f32)
      = fun i => (V40 m (outsU m) c main_v61 : S50000x128.Idx → Elt F .f32)
          (ValueIdx.ix2 (Cert.Spec.node (tbl19 m c (ValueIdx.ix1 (i 0)))) (i 1)) := by
  obtain rfl : c = c₀ := eq_c₀ c
  have hlt : ∀ k : S85000.Idx, (tblw19 (a19 m) k).toNat < 50000 := fun k => by
    rw [tblwU19]; exact tbl19_lt m c₀ hm k
  refine (congrFun (V42_eq m c₀) main_v77).trans ((U42_out m c₀).trans ?_)
  refine (finalG19_node (atTc (U41 m)) (a19 m) (gblk19 (atTc (U41 m)) (a19 m)) (fun c => V40 m (outsU m) c main_v61)
      (tblw19 (a19 m)) hlt
      (fun c t j l _ => (gblk19_apply (atTc (U41 m)) (a19 m) hlt c t j l).trans (congrFun (gin19 m c) _)) c₀).trans ?_
  rw [tblwU19]
  rfl

/-- THE REGION'S OUTPUT WHERE IT IS READ, at the entry of the host stretch that concatenates the gather outputs: the
    rows of T at the nodes the table names, when the array the region reads holds T. -/
theorem gat19 (c : Dev nD) (hm : ∀ i : S2x800000.Idx, ((V0 m c main_arg1 : IVec S2x800000 32) i).toNat < 50000)
    (T : S50000x128.Idx → Elt F .f32) (hT : V40 m (outsU m) c main_v61 = T) :
    (V46 m (outsU m) c main_v77 : S85000x128.Idx → Elt F .f32)
      = fun i => T (ValueIdx.ix2 (Cert.Spec.node (tbl19 m c (ValueIdx.ix1 (i 0)))) (i 1)) := by
  subst hT
  exact (carry19 m (outsU m) c).trans (g19_val m c hm)

end Cert.KernelIdeal.Hand

end
-- ==== Proof.KI.GatherVal20.lean ====
/-
  The value of the row-gather region 20: the array its output window leaves.

  At grid point t the region's output block holds, in its row j, the source's row  row (8 t + j).  The block sits at
  block index (t, 0) of the 85000 x 128 output array: it covers the rows 8 t … 8 t + 7 and all 128 columns. Every point
  writes its block back (the block index moves at every step), and row r of the array lies in the block of point r / 8,
  at the block's row r % 8. So the array ends with its row r equal to the source's row  row r,  for every r.

  The gathered block is taken abstractly here: any family of blocks that reads as above (the hypothesis of
  flushedG20_eq and finalG20) gives the array. When the row numbers are the words of an index table, each below 50000,
  row r of the array is the source's row at the node the table's word r names (finalG20_node).
-/
import proofs.«402049_j87351044866139_2_alg».proof.Proof.KI.Gather20
import proofs.«402049_j87351044866139_2_alg».proof.Proof.Spec
import Idealize.ShloMosaic.Lib.Pipeline.Value
import Idealize.ShloMosaic.Lib.ValueIdx

set_option maxRecDepth 16384

noncomputable section

namespace Cert.KernelIdeal.Hand

open Idealize.ShloMosaic Idealize.ShloMosaic.TcCoe
open Idealize.SL.Sem
open Idealize.ShloMosaic.Pipeline (Dat Cfg Window)
open Cert.KernelIdeal Cert.KernelIdeal.Gen

variable {F : FTy → Type} [FloatOps F]

variable (V : (c : Dev nD) → (b : Ref sig .tc) → Buf (Elt F) ((c : Thread nD τ).loc b))
variable (a20 : (pcfg20 (F := F)).Adm)
variable (gblk : (c : Dev nD) → Fin (cfg20 a20).N → S8x128.Idx → Elt F .f32)

/-! ## The grid and the output window's schedule -/

/-- The region's grid has 10625 points. -/
theorem ptsG20 (t : Fin (cfg20 a20).N) : t.val < 10625 := lt_of_lt_of_eq t.isLt N_20

/-- The grid has one axis, so point t has coordinate t. -/
theorem coordG20 (t : Fin (cfg20 a20).N) : (((cfg20 a20).grid.coords t) (0 : Fin 1)).val = t.val := by
  have hN := ptsG20 a20 t
  show t.val / (cfg20 a20).grid.stride (0 : Fin 1) % 10625 = t.val
  rw [show (cfg20 a20).grid.stride (0 : Fin 1) = 1 from rfl, Nat.div_one, Nat.mod_eq_of_lt hN]

/-- The output window's block index at point t is (t, 0). -/
theorem indexG20 (t : Fin (cfg20 a20).N) :
    ((cfg20 a20).win 0).index t (0 : Fin 2) = t.val ∧ ((cfg20 a20).win 0).index t (1 : Fin 2) = 0 := by
  have hN := ptsG20 a20 t
  refine ⟨?_, rfl⟩
  show (BitVec.ofNat 32 (((cfg20 a20).grid.coords t) (0 : Fin 1)).val).toNat = t.val
  rw [coordG20, BitVec.toNat_ofNat]
  exact Nat.mod_eq_of_lt (by omega)

/-- The block index moves at every step, so every point writes its block back. -/
theorem flushG20 (t : Fin (cfg20 a20).N) : ((cfg20 a20).win 0).flush t = true := by
  rw [Pipeline.Window.flush_out _ rfl]
  have ht : t.val < (cfg20 a20).grid.N := t.isLt
  by_cases h : t.val + 1 < (cfg20 a20).grid.N
  · refine .inr ⟨h, fun e => ?_⟩
    have e0 : ((cfg20 a20).win 0).index ⟨t.val + 1, h⟩ (0 : Fin 2) = ((cfg20 a20).win 0).index t (0 : Fin 2) :=
      congrFun e (0 : Fin 2)
    have e1 : ((cfg20 a20).win 0).index ⟨t.val + 1, h⟩ (0 : Fin 2) = t.val + 1 := (indexG20 a20 ⟨t.val + 1, h⟩).1
    have e2 : ((cfg20 a20).win 0).index t (0 : Fin 2) = t.val := (indexG20 a20 t).1
    omega
  · exact .inl (by omega)

/-! ## What a point writes back, and the array -/

variable (T : (c : Dev nD) → S50000x128.Idx → Elt F .f32) (row : (c : Dev nD) → Fin 85000 → Fin 50000)

/-- The array the region leaves on core c: its row r is the source's row  row r. -/
abbrev outG20 (c : Dev nD) : S85000x128.Idx → Elt F .f32 := fun i => T c (ValueIdx.ix2 (row c (i 0)) (i 1))

/-- One element of the block at point t is the array's element 8 t rows further down, in the same column. -/
theorem blockG20_apply
    (hblk : ∀ c (t : Fin (cfg20 a20).N) (j : Fin 8) (l : Fin 128) (h : 8 * t.val + j.val < 85000),
      gblk c t (ValueIdx.ix2 j l) = T c (ValueIdx.ix2 (row c ⟨8 * t.val + j.val, h⟩) l))
    (c : Dev nD) (t : Fin (cfg20 a20).N) (y : S8x128.Idx) (k : S85000x128.Idx)
    (hk0 : (k 0).val = 8 * t.val + (y 0).val) (hk1 : (k 1).val = (y 1).val) :
    gblk c t y = outG20 T row c k := by
  have hy0 : (y 0).val < 8 := (y 0).isLt
  have hN := ptsG20 a20 t
  have hb : 8 * t.val + (y 0).val < 85000 := by omega
  have h0 : (⟨8 * t.val + (y 0).val, hb⟩ : Fin 85000) = k 0 := Fin.ext hk0.symm
  have h1 : (y 1 : Fin 128) = k 1 := Fin.ext hk1.symm
  calc gblk c t y = gblk c t (ValueIdx.ix2 (y 0) (y 1)) := congrArg (gblk c t) (ValueIdx.eq_ix2 y)
    _ = T c (ValueIdx.ix2 (row c ⟨8 * t.val + (y 0).val, hb⟩) (y 1)) := hblk c t (y 0) (y 1) hb
    _ = outG20 T row c k := congrArg₂ (fun (p : Fin 85000) (l : Fin 128) => T c (ValueIdx.ix2 (row c p) l)) h0 h1

/-- WHAT POINT t WRITES BACK is block t of that array. -/
theorem flushedG20_eq
    (hblk : ∀ c (t : Fin (cfg20 a20).N) (j : Fin 8) (l : Fin 128) (h : 8 * t.val + j.val < 85000),
      gblk c t (ValueIdx.ix2 j l) = T c (ValueIdx.ix2 (row c ⟨8 * t.val + j.val, h⟩) l))
    (c : Dev nD) (t : Fin (cfg20 a20).N) :
    (datG20 V a20 gblk c).flushed 0 t = (((cfg20 a20).win 0).blk t).view.read (Elt F) (outG20 T row c) := by
  obtain ⟨e0, e1⟩ := indexG20 a20 t
  have key : ∀ y : S8x128.Idx, gblk c t y = outG20 T row c ((((cfg20 a20).win 0).blk t).view.emb y) := fun y =>
    blockG20_apply a20 gblk T row hblk c t y _
      (by show ((cfg20 a20).win 0).index t (0 : Fin 2) * 8 + 1 * (y 0).val = 8 * t.val + (y 0).val
          rw [e0]; omega)
      (by show ((cfg20 a20).win 0).index t (1 : Fin 2) * 128 + 1 * (y 1).val = (y 1).val
          rw [e1]; omega)
  exact funext key

/-- An index of the array whose row is among the rows 8 t … 8 t + 7 is in point t's block. -/
theorem mem_blkG20 (t : Fin (cfg20 a20).N) (i : S85000x128.Idx)
    (hi : 8 * t.val ≤ (i 0).val ∧ (i 0).val < 8 * t.val + 8) : i ∈ (((cfg20 a20).win 0).blk t).view.set := by
  obtain ⟨e0, e1⟩ := indexG20 a20 t
  have hi1 : (i 1).val < 128 := (i 1).isLt
  have hs : (((cfg20 a20).win 0).blk t).view.set = (((cfg20 a20).win 0).rect t).set :=
    View.set_slice_whole main_v79 (((cfg20 a20).win 0).rect t)
  have key : ∀ a : Fin 2, ((cfg20 a20).win 0).index t a * S8x128.size a ≤ (i a).val
      ∧ (i a).val < ((cfg20 a20).win 0).index t a * S8x128.size a + S8x128.size a := fun a =>
    match a with
    | ⟨0, _⟩ => by
      show ((cfg20 a20).win 0).index t (0 : Fin 2) * 8 ≤ (i 0).val ∧ (i 0).val < ((cfg20 a20).win 0).index t (0 : Fin 2) * 8 + 8
      rw [e0]; omega
    | ⟨1, _⟩ => by
      show ((cfg20 a20).win 0).index t (1 : Fin 2) * 128 ≤ (i 1).val ∧ (i 1).val < ((cfg20 a20).win 0).index t (1 : Fin 2) * 128 + 128
      rw [e1]; omega
  exact (Finset.ext_iff.mp hs i).mpr (Rect.mem_set_unit.mpr key)

/-- THE COVER: row r of the array lies in the block of point r / 8, and that point writes its block back. -/
theorem coverG20 (i : S85000x128.Idx) :
    ∃ t : Fin (cfg20 a20).N, ((cfg20 a20).win 0).flush t = true ∧ i ∈ (((cfg20 a20).win 0).blk t).view.set := by
  have hi0 : (i 0).val < 85000 := (i 0).isLt
  have ht : (i 0).val / 8 < (cfg20 a20).N := lt_of_lt_of_eq (by omega : (i 0).val / 8 < 10625) N_20.symm
  exact ⟨⟨(i 0).val / 8, ht⟩, flushG20 a20 _, mem_blkG20 a20 ⟨(i 0).val / 8, ht⟩ i
    (by show 8 * ((i 0).val / 8) ≤ (i 0).val ∧ (i 0).val < 8 * ((i 0).val / 8) + 8; omega)⟩

/-- THE ARRAY after the region: its row r is the source's row  row r. -/
theorem finalG20
    (hblk : ∀ c (t : Fin (cfg20 a20).N) (j : Fin 8) (l : Fin 128) (h : 8 * t.val + j.val < 85000),
      gblk c t (ValueIdx.ix2 j l) = T c (ValueIdx.ix2 (row c ⟨8 * t.val + j.val, h⟩) l))
    (c : Dev nD) :
    (datG20 V a20 gblk c).arrAt 0 (cfg20 a20).N
      = fun i : S85000x128.Idx => T c (ValueIdx.ix2 (row c (i 0)) (i 1)) :=
  (datG20 V a20 gblk c).arrAt_eq_of_cover 0 (outG20 T row c)
    (fun t _ => flushedG20_eq V a20 gblk T row hblk c t) (coverG20 a20)

/-- THE ARRAY, when the row numbers are the words of an index table tblw, each below 50000: row r is the source's row
    at the node that word r names (a word below 50000 names the node of that number). -/
theorem finalG20_node (tblw : IVec S85000 32) (hlt : ∀ k : S85000.Idx, (tblw k).toNat < 50000)
    (hblk : ∀ c (t : Fin (cfg20 a20).N) (j : Fin 8) (l : Fin 128) (h : 8 * t.val + j.val < 85000),
      gblk c t (ValueIdx.ix2 j l)
        = T c (ValueIdx.ix2 (⟨(tblw (ValueIdx.ix1 (⟨8 * t.val + j.val, h⟩ : Fin 85000))).toNat, hlt _⟩ : Fin 50000) l))
    (c : Dev nD) :
    (datG20 V a20 gblk c).arrAt 0 (cfg20 a20).N
      = fun i : S85000x128.Idx => T c (ValueIdx.ix2 (Cert.Spec.node (tblw (ValueIdx.ix1 (i 0)))) (i 1)) :=
  (finalG20 V a20 gblk T (fun _ p => ⟨(tblw (ValueIdx.ix1 p)).toNat, hlt _⟩) hblk c).trans
    (funext fun i => congrArg (fun p : Fin 50000 => T c (ValueIdx.ix2 p (i 1))) (Cert.Spec.node_of_lt (hlt _)).symm)

end Cert.KernelIdeal.Hand

end
-- ==== Proof.KI.GatherAt20.lean ====
/-
  Region 20 in the run: what it leaves, in terms of what the program's items before it left.

  Between the program's items core c's buffers hold the chain's valuations. Region 20's index table, as the region's
  proof data hold it, is the closed table of the launch memory, and every word of it is below 50000 when every word
  of the edge list is. So the region's output array holds, in its row r, the row — of the array the region reads — at
  the node that the table's word r names; and the array it reads is left as it was, which is as the item before the
  table's host stretch left it. No later item writes the output array before the host stretch that concatenates the
  gather outputs, so at that stretch's entry it holds the same rows (gat20: stated for whatever the array read holds).
-/
import proofs.«402049_j87351044866139_2_alg».proof.Proof.KI.Chain
import proofs.«402049_j87351044866139_2_alg».proof.Proof.KI.Carry
import proofs.«402049_j87351044866139_2_alg».proof.Proof.KI.GatherVal20
import proofs.«402049_j87351044866139_2_alg».proof.Proof.KI.Tables

set_option maxRecDepth 16384

noncomputable section

namespace Cert.KernelIdeal.Hand

open Cert.KernelIdeal Cert.KernelIdeal.Gen Cert.KernelIdeal.GenP
open Idealize.ShloMosaic Idealize.ShloMosaic.TcCoe
open Idealize.SL.Sem

variable {F : FTy → Type} [FloatOps F]
variable (m : (ℓ : Loc nD τ sig) → Buf (Elt F) ℓ)

/-- The index table the region's proof data hold is the closed table of the launch memory: the data hold what the
    chain's valuation at the region's entry has in the table's buffer, and that valuation is the run's own. -/
theorem tblwU20 : tblw20 (a20 m) = tbl20 m c₀ := by
  have h1 : tblw20 (a20 m) = (U43 m c₀ main_v78 : IVec S85000 32) := by
    unfold a20
    rfl
  have h2 : ∀ W : Valuation τ sig (Elt F), V43 m (outsU m) c₀ = W → (W main_v78 : IVec S85000 32) = tbl20 m c₀ :=
    fun W hW => by subst hW; exact tbl20_eq m (outsU m) c₀
  exact h1.trans (h2 (U43 m c₀) (V43_eq m c₀))

/-- The array the region reads, at the region's entry, is as the item before the table's host stretch left it. -/
theorem gin20 (c : Dev nD) : atTc (U43 m) c main_v61 = V42 m (outsU m) c main_v61 :=
  (congrFun (V43_eq m c) main_v61).symm.trans (V43_of m (outsU m) c main_v61 (by decide))

/-- THE ARRAY THE REGION READS is left as it was. -/
theorem gsrc20 (c : Dev nD) : V44 m (outsU m) c main_v61 = V42 m (outsU m) c main_v61 :=
  (congrFun (V44_eq m c) main_v61).trans ((U44_hbm m c).trans (gin20 m c))

/-- THE REGION'S OUTPUT: its row r is the row, of the array the region reads, at the node the table's word r names. -/
theorem g20_val (c : Dev nD) (hm : ∀ i : S2x800000.Idx, ((V0 m c main_arg1 : IVec S2x800000 32) i).toNat < 50000) :
    (V44 m (outsU m) c main_v79 : S85000x128.Idx → Elt F .f32)
      = fun i => (V42 m (outsU m) c main_v61 : S50000x128.Idx → Elt F .f32)
          (ValueIdx.ix2 (Cert.Spec.node (tbl20 m c (ValueIdx.ix1 (i 0)))) (i 1)) := by
  obtain rfl : c = c₀ := eq_c₀ c
  have hlt : ∀ k : S85000.Idx, (tblw20 (a20 m) k).toNat < 50000 := fun k => by
    rw [tblwU20]; exact tbl20_lt m c₀ hm k
  refine (congrFun (V44_eq m c₀) main_v79).trans ((U44_out m c₀).trans ?_)
  refine (finalG20_node (atTc (U43 m)) (a20 m) (gblk20 (atTc (U43 m)) (a20 m)) (fun c => V42 m (outsU m) c main_v61)
      (tblw20 (a20 m)) hlt
      (fun c t j l _ => (gblk20_apply (atTc (U43 m)) (a20 m) hlt c t j l).trans (congrFun (gin20 m c) _)) c₀).trans ?_
  rw [tblwU20]
  rfl

/-- THE REGION'S OUTPUT WHERE IT IS READ, at the entry of the host stretch that concatenates the gather outputs: the
    rows of T at the nodes the table names, when the array the region reads holds T. -/
theorem gat20 (c : Dev nD) (hm : ∀ i : S2x800000.Idx, ((V0 m c main_arg1 : IVec S2x800000 32) i).toNat < 50000)
    (T : S50000x128.Idx → Elt F .f32) (hT : V42 m (outsU m) c main_v61 = T) :
    (V46 m (outsU m) c main_v79 : S85000x128.Idx → Elt F .f32)
      = fun i => T (ValueIdx.ix2 (Cert.Spec.node (tbl20 m c (ValueIdx.ix1 (i 0)))) (i 1)) := by
  subst hT
  exact (carry20 m (outsU m) c).trans (g20_val m c hm)

end Cert.KernelIdeal.Hand

end
-- ==== Proof.KI.GatherVal21.lean ====
/-
  The value of the row-gather region 21: the array its output window leaves.

  At grid point t the region's output block holds, in its row j, the source's row  row (8 t + j).  The block sits at
  block index (t, 0) of the 85000 x 128 output array: it covers the rows 8 t … 8 t + 7 and all 128 columns. Every point
  writes its block back (the block index moves at every step), and row r of the array lies in the block of point r / 8,
  at the block's row r % 8. So the array ends with its row r equal to the source's row  row r,  for every r.

  The gathered block is taken abstractly here: any family of blocks that reads as above (the hypothesis of
  flushedG21_eq and finalG21) gives the array. When the row numbers are the words of an index table, each below 50000,
  row r of the array is the source's row at the node the table's word r names (finalG21_node).
-/
import proofs.«402049_j87351044866139_2_alg».proof.Proof.KI.Gather21
import proofs.«402049_j87351044866139_2_alg».proof.Proof.Spec
import Idealize.ShloMosaic.Lib.Pipeline.Value
import Idealize.ShloMosaic.Lib.ValueIdx

set_option maxRecDepth 16384

noncomputable section

namespace Cert.KernelIdeal.Hand

open Idealize.ShloMosaic Idealize.ShloMosaic.TcCoe
open Idealize.SL.Sem
open Idealize.ShloMosaic.Pipeline (Dat Cfg Window)
open Cert.KernelIdeal Cert.KernelIdeal.Gen

variable {F : FTy → Type} [FloatOps F]

variable (V : (c : Dev nD) → (b : Ref sig .tc) → Buf (Elt F) ((c : Thread nD τ).loc b))
variable (a21 : (pcfg21 (F := F)).Adm)
variable (gblk : (c : Dev nD) → Fin (cfg21 a21).N → S8x128.Idx → Elt F .f32)

/-! ## The grid and the output window's schedule -/

/-- The region's grid has 10625 points. -/
theorem ptsG21 (t : Fin (cfg21 a21).N) : t.val < 10625 := lt_of_lt_of_eq t.isLt N_21

/-- The grid has one axis, so point t has coordinate t. -/
theorem coordG21 (t : Fin (cfg21 a21).N) : (((cfg21 a21).grid.coords t) (0 : Fin 1)).val = t.val := by
  have hN := ptsG21 a21 t
  show t.val / (cfg21 a21).grid.stride (0 : Fin 1) % 10625 = t.val
  rw [show (cfg21 a21).grid.stride (0 : Fin 1) = 1 from rfl, Nat.div_one, Nat.mod_eq_of_lt hN]

/-- The output window's block index at point t is (t, 0). -/
theorem indexG21 (t : Fin (cfg21 a21).N) :
    ((cfg21 a21).win 0).index t (0 : Fin 2) = t.val ∧ ((cfg21 a21).win 0).index t (1 : Fin 2) = 0 := by
  have hN := ptsG21 a21 t
  refine ⟨?_, rfl⟩
  show (BitVec.ofNat 32 (((cfg21 a21).grid.coords t) (0 : Fin 1)).val).toNat = t.val
  rw [coordG21, BitVec.toNat_ofNat]
  exact Nat.mod_eq_of_lt (by omega)

/-- The block index moves at every step, so every point writes its block back. -/
theorem flushG21 (t : Fin (cfg21 a21).N) : ((cfg21 a21).win 0).flush t = true := by
  rw [Pipeline.Window.flush_out _ rfl]
  have ht : t.val < (cfg21 a21).grid.N := t.isLt
  by_cases h : t.val + 1 < (cfg21 a21).grid.N
  · refine .inr ⟨h, fun e => ?_⟩
    have e0 : ((cfg21 a21).win 0).index ⟨t.val + 1, h⟩ (0 : Fin 2) = ((cfg21 a21).win 0).index t (0 : Fin 2) :=
      congrFun e (0 : Fin 2)
    have e1 : ((cfg21 a21).win 0).index ⟨t.val + 1, h⟩ (0 : Fin 2) = t.val + 1 := (indexG21 a21 ⟨t.val + 1, h⟩).1
    have e2 : ((cfg21 a21).win 0).index t (0 : Fin 2) = t.val := (indexG21 a21 t).1
    omega
  · exact .inl (by omega)

/-! ## What a point writes back, and the array -/

variable (T : (c : Dev nD) → S50000x128.Idx → Elt F .f32) (row : (c : Dev nD) → Fin 85000 → Fin 50000)

/-- The array the region leaves on core c: its row r is the source's row  row r. -/
abbrev outG21 (c : Dev nD) : S85000x128.Idx → Elt F .f32 := fun i => T c (ValueIdx.ix2 (row c (i 0)) (i 1))

/-- One element of the block at point t is the array's element 8 t rows further down, in the same column. -/
theorem blockG21_apply
    (hblk : ∀ c (t : Fin (cfg21 a21).N) (j : Fin 8) (l : Fin 128) (h : 8 * t.val + j.val < 85000),
      gblk c t (ValueIdx.ix2 j l) = T c (ValueIdx.ix2 (row c ⟨8 * t.val + j.val, h⟩) l))
    (c : Dev nD) (t : Fin (cfg21 a21).N) (y : S8x128.Idx) (k : S85000x128.Idx)
    (hk0 : (k 0).val = 8 * t.val + (y 0).val) (hk1 : (k 1).val = (y 1).val) :
    gblk c t y = outG21 T row c k := by
  have hy0 : (y 0).val < 8 := (y 0).isLt
  have hN := ptsG21 a21 t
  have hb : 8 * t.val + (y 0).val < 85000 := by omega
  have h0 : (⟨8 * t.val + (y 0).val, hb⟩ : Fin 85000) = k 0 := Fin.ext hk0.symm
  have h1 : (y 1 : Fin 128) = k 1 := Fin.ext hk1.symm
  calc gblk c t y = gblk c t (ValueIdx.ix2 (y 0) (y 1)) := congrArg (gblk c t) (ValueIdx.eq_ix2 y)
    _ = T c (ValueIdx.ix2 (row c ⟨8 * t.val + (y 0).val, hb⟩) (y 1)) := hblk c t (y 0) (y 1) hb
    _ = outG21 T row c k := congrArg₂ (fun (p : Fin 85000) (l : Fin 128) => T c (ValueIdx.ix2 (row c p) l)) h0 h1

/-- WHAT POINT t WRITES BACK is block t of that array. -/
theorem flushedG21_eq
    (hblk : ∀ c (t : Fin (cfg21 a21).N) (j : Fin 8) (l : Fin 128) (h : 8 * t.val + j.val < 85000),
      gblk c t (ValueIdx.ix2 j l) = T c (ValueIdx.ix2 (row c ⟨8 * t.val + j.val, h⟩) l))
    (c : Dev nD) (t : Fin (cfg21 a21).N) :
    (datG21 V a21 gblk c).flushed 0 t = (((cfg21 a21).win 0).blk t).view.read (Elt F) (outG21 T row c) := by
  obtain ⟨e0, e1⟩ := indexG21 a21 t
  have key : ∀ y : S8x128.Idx, gblk c t y = outG21 T row c ((((cfg21 a21).win 0).blk t).view.emb y) := fun y =>
    blockG21_apply a21 gblk T row hblk c t y _
      (by show ((cfg21 a21).win 0).index t (0 : Fin 2) * 8 + 1 * (y 0).val = 8 * t.val + (y 0).val
          rw [e0]; omega)
      (by show ((cfg21 a21).win 0).index t (1 : Fin 2) * 128 + 1 * (y 1).val = (y 1).val
          rw [e1]; omega)
  exact funext key

/-- An index of the array whose row is among the rows 8 t … 8 t + 7 is in point t's block. -/
theorem mem_blkG21 (t : Fin (cfg21 a21).N) (i : S85000x128.Idx)
    (hi : 8 * t.val ≤ (i 0).val ∧ (i 0).val < 8 * t.val + 8) : i ∈ (((cfg21 a21).win 0).blk t).view.set := by
  obtain ⟨e0, e1⟩ := indexG21 a21 t
  have hi1 : (i 1).val < 128 := (i 1).isLt
  have hs : (((cfg21 a21).win 0).blk t).view.set = (((cfg21 a21).win 0).rect t).set :=
    View.set_slice_whole main_v81 (((cfg21 a21).win 0).rect t)
  have key : ∀ a : Fin 2, ((cfg21 a21).win 0).index t a * S8x128.size a ≤ (i a).val
      ∧ (i a).val < ((cfg21 a21).win 0).index t a * S8x128.size a + S8x128.size a := fun a =>
    match a with
    | ⟨0, _⟩ => by
      show ((cfg21 a21).win 0).index t (0 : Fin 2) * 8 ≤ (i 0).val ∧ (i 0).val < ((cfg21 a21).win 0).index t (0 : Fin 2) * 8 + 8
      rw [e0]; omega
    | ⟨1, _⟩ => by
      show ((cfg21 a21).win 0).index t (1 : Fin 2) * 128 ≤ (i 1).val ∧ (i 1).val < ((cfg21 a21).win 0).index t (1 : Fin 2) * 128 + 128
      rw [e1]; omega
  exact (Finset.ext_iff.mp hs i).mpr (Rect.mem_set_unit.mpr key)

/-- THE COVER: row r of the array lies in the block of point r / 8, and that point writes its block back. -/
theorem coverG21 (i : S85000x128.Idx) :
    ∃ t : Fin (cfg21 a21).N, ((cfg21 a21).win 0).flush t = true ∧ i ∈ (((cfg21 a21).win 0).blk t).view.set := by
  have hi0 : (i 0).val < 85000 := (i 0).isLt
  have ht : (i 0).val / 8 < (cfg21 a21).N := lt_of_lt_of_eq (by omega : (i 0).val / 8 < 10625) N_21.symm
  exact ⟨⟨(i 0).val / 8, ht⟩, flushG21 a21 _, mem_blkG21 a21 ⟨(i 0).val / 8, ht⟩ i
    (by show 8 * ((i 0).val / 8) ≤ (i 0).val ∧ (i 0).val < 8 * ((i 0).val / 8) + 8; omega)⟩

/-- THE ARRAY after the region: its row r is the source's row  row r. -/
theorem finalG21
    (hblk : ∀ c (t : Fin (cfg21 a21).N) (j : Fin 8) (l : Fin 128) (h : 8 * t.val + j.val < 85000),
      gblk c t (ValueIdx.ix2 j l) = T c (ValueIdx.ix2 (row c ⟨8 * t.val + j.val, h⟩) l))
    (c : Dev nD) :
    (datG21 V a21 gblk c).arrAt 0 (cfg21 a21).N
      = fun i : S85000x128.Idx => T c (ValueIdx.ix2 (row c (i 0)) (i 1)) :=
  (datG21 V a21 gblk c).arrAt_eq_of_cover 0 (outG21 T row c)
    (fun t _ => flushedG21_eq V a21 gblk T row hblk c t) (coverG21 a21)

/-- THE ARRAY, when the row numbers are the words of an index table tblw, each below 50000: row r is the source's row
    at the node that word r names (a word below 50000 names the node of that number). -/
theorem finalG21_node (tblw : IVec S85000 32) (hlt : ∀ k : S85000.Idx, (tblw k).toNat < 50000)
    (hblk : ∀ c (t : Fin (cfg21 a21).N) (j : Fin 8) (l : Fin 128) (h : 8 * t.val + j.val < 85000),
      gblk c t (ValueIdx.ix2 j l)
        = T c (ValueIdx.ix2 (⟨(tblw (ValueIdx.ix1 (⟨8 * t.val + j.val, h⟩ : Fin 85000))).toNat, hlt _⟩ : Fin 50000) l))
    (c : Dev nD) :
    (datG21 V a21 gblk c).arrAt 0 (cfg21 a21).N
      = fun i : S85000x128.Idx => T c (ValueIdx.ix2 (Cert.Spec.node (tblw (ValueIdx.ix1 (i 0)))) (i 1)) :=
  (finalG21 V a21 gblk T (fun _ p => ⟨(tblw (ValueIdx.ix1 p)).toNat, hlt _⟩) hblk c).trans
    (funext fun i => congrArg (fun p : Fin 50000 => T c (ValueIdx.ix2 p (i 1))) (Cert.Spec.node_of_lt (hlt _)).symm)

end Cert.KernelIdeal.Hand

end
-- ==== Proof.KI.GatherAt21.lean ====
/-
  Region 21 in the run: what it leaves, in terms of what the program's items before it left.

  Between the program's items core c's buffers hold the chain's valuations. Region 21's index table, as the region's
  proof data hold it, is the closed table of the launch memory, and every word of it is below 50000 when every word
  of the edge list is. So the region's output array holds, in its row r, the row — of the array the region reads — at
  the node that the table's word r names; and the array it reads is left as it was, which is as the item before the
  table's host stretch left it. No later item writes the output array before the host stretch that concatenates the
  gather outputs, so at that stretch's entry it holds the same rows (gat21: stated for whatever the array read holds).
-/
import proofs.«402049_j87351044866139_2_alg».proof.Proof.KI.Chain
import proofs.«402049_j87351044866139_2_alg».proof.Proof.KI.Carry
import proofs.«402049_j87351044866139_2_alg».proof.Proof.KI.GatherVal21
import proofs.«402049_j87351044866139_2_alg».proof.Proof.KI.Tables

set_option maxRecDepth 16384

noncomputable section

namespace Cert.KernelIdeal.Hand

open Cert.KernelIdeal Cert.KernelIdeal.Gen Cert.KernelIdeal.GenP
open Idealize.ShloMosaic Idealize.ShloMosaic.TcCoe
open Idealize.SL.Sem

variable {F : FTy → Type} [FloatOps F]
variable (m : (ℓ : Loc nD τ sig) → Buf (Elt F) ℓ)

/-- The index table the region's proof data hold is the closed table of the launch memory: the data hold what the
    chain's valuation at the region's entry has in the table's buffer, and that valuation is the run's own. -/
theorem tblwU21 : tblw21 (a21 m) = tbl21 m c₀ := by
  have h1 : tblw21 (a21 m) = (U45 m c₀ main_v80 : IVec S85000 32) := by
    unfold a21
    rfl
  have h2 : ∀ W : Valuation τ sig (Elt F), V45 m (outsU m) c₀ = W → (W main_v80 : IVec S85000 32) = tbl21 m c₀ :=
    fun W hW => by subst hW; exact tbl21_eq m (outsU m) c₀
  exact h1.trans (h2 (U45 m c₀) (V45_eq m c₀))

/-- The array the region reads, at the region's entry, is as the item before the table's host stretch left it. -/
theorem gin21 (c : Dev nD) : atTc (U45 m) c main_v61 = V44 m (outsU m) c main_v61 :=
  (congrFun (V45_eq m c) main_v61).symm.trans (V45_of m (outsU m) c main_v61 (by decide))

/-- THE ARRAY THE REGION READS is left as it was. -/
theorem gsrc21 (c : Dev nD) : V46 m (outsU m) c main_v61 = V44 m (outsU m) c main_v61 :=
  (congrFun (V46_eq m c) main_v61).trans ((U46_hbm m c).trans (gin21 m c))

/-- THE REGION'S OUTPUT: its row r is the row, of the array the region reads, at the node the table's word r names. -/
theorem g21_val (c : Dev nD) (hm : ∀ i : S2x800000.Idx, ((V0 m c main_arg1 : IVec S2x800000 32) i).toNat < 50000) :
    (V46 m (outsU m) c main_v81 : S85000x128.Idx → Elt F .f32)
      = fun i => (V44 m (outsU m) c main_v61 : S50000x128.Idx → Elt F .f32)
          (ValueIdx.ix2 (Cert.Spec.node (tbl21 m c (ValueIdx.ix1 (i 0)))) (i 1)) := by
  obtain rfl : c = c₀ := eq_c₀ c
  have hlt : ∀ k : S85000.Idx, (tblw21 (a21 m) k).toNat < 50000 := fun k => by
    rw [tblwU21]; exact tbl21_lt m c₀ hm k
  refine (congrFun (V46_eq m c₀) main_v81).trans ((U46_out m c₀).trans ?_)
  refine (finalG21_node (atTc (U45 m)) (a21 m) (gblk21 (atTc (U45 m)) (a21 m)) (fun c => V44 m (outsU m) c main_v61)
      (tblw21 (a21 m)) hlt
      (fun c t j l _ => (gblk21_apply (atTc (U45 m)) (a21 m) hlt c t j l).trans (congrFun (gin21 m c) _)) c₀).trans ?_
  rw [tblwU21]
  rfl

/-- THE REGION'S OUTPUT WHERE IT IS READ, at the entry of the host stretch that concatenates the gather outputs: the
    rows of T at the nodes the table names, when the array the region reads holds T. -/
theorem gat21 (c : Dev nD) (hm : ∀ i : S2x800000.Idx, ((V0 m c main_arg1 : IVec S2x800000 32) i).toNat < 50000)
    (T : S50000x128.Idx → Elt F .f32) (hT : V44 m (outsU m) c main_v61 = T) :
    (V46 m (outsU m) c main_v81 : S85000x128.Idx → Elt F .f32)
      = fun i => T (ValueIdx.ix2 (Cert.Spec.node (tbl21 m c (ValueIdx.ix1 (i 0)))) (i 1)) := by
  subst hT
  exact (carry21 m (outsU m) c).trans (g21_val m c hm)

end Cert.KernelIdeal.Hand

end
-- ==== Proof.KI.GatherVal23.lean ====
/-
  The value of the row-gather region 23: the array its output window leaves.

  At grid point t the region's output block holds, in its row j, the source's row  row (8 t + j).  The block sits at
  block index (t, 0) of the 100000 x 128 output array: it covers the rows 8 t … 8 t + 7 and all 128 columns. Every point
  writes its block back (the block index moves at every step), and row r of the array lies in the block of point r / 8,
  at the block's row r % 8. So the array ends with its row r equal to the source's row  row r,  for every r.

  The gathered block is taken abstractly here: any family of blocks that reads as above (the hypothesis of
  flushedG23_eq and finalG23) gives the array. When the row numbers are the words of an index table, each below 50000,
  row r of the array is the source's row at the node the table's word r names (finalG23_node).
-/
import proofs.«402049_j87351044866139_2_alg».proof.Proof.KI.Gather23
import proofs.«402049_j87351044866139_2_alg».proof.Proof.Spec
import Idealize.ShloMosaic.Lib.Pipeline.Value
import Idealize.ShloMosaic.Lib.ValueIdx

set_option maxRecDepth 16384

noncomputable section

namespace Cert.KernelIdeal.Hand

open Idealize.ShloMosaic Idealize.ShloMosaic.TcCoe
open Idealize.SL.Sem
open Idealize.ShloMosaic.Pipeline (Dat Cfg Window)
open Cert.KernelIdeal Cert.KernelIdeal.Gen

variable {F : FTy → Type} [FloatOps F]

variable (V : (c : Dev nD) → (b : Ref sig .tc) → Buf (Elt F) ((c : Thread nD τ).loc b))
variable (a23 : (pcfg23 (F := F)).Adm)
variable (gblk : (c : Dev nD) → Fin (cfg23 a23).N → S8x128.Idx → Elt F .f32)

/-! ## The grid and the output window's schedule -/

/-- The region's grid has 12500 points. -/
theorem ptsG23 (t : Fin (cfg23 a23).N) : t.val < 12500 := lt_of_lt_of_eq t.isLt N_23

/-- The grid has one axis, so point t has coordinate t. -/
theorem coordG23 (t : Fin (cfg23 a23).N) : (((cfg23 a23).grid.coords t) (0 : Fin 1)).val = t.val := by
  have hN := ptsG23 a23 t
  show t.val / (cfg23 a23).grid.stride (0 : Fin 1) % 12500 = t.val
  rw [show (cfg23 a23).grid.stride (0 : Fin 1) = 1 from rfl, Nat.div_one, Nat.mod_eq_of_lt hN]

/-- The output window's block index at point t is (t, 0). -/
theorem indexG23 (t : Fin (cfg23 a23).N) :
    ((cfg23 a23).win 0).index t (0 : Fin 2) = t.val ∧ ((cfg23 a23).win 0).index t (1 : Fin 2) = 0 := by
  have hN := ptsG23 a23 t
  refine ⟨?_, rfl⟩
  show (BitVec.ofNat 32 (((cfg23 a23).grid.coords t) (0 : Fin 1)).val).toNat = t.val
  rw [coordG23, BitVec.toNat_ofNat]
  exact Nat.mod_eq_of_lt (by omega)

/-- The block index moves at every step, so every point writes its block back. -/
theorem flushG23 (t : Fin (cfg23 a23).N) : ((cfg23 a23).win 0).flush t = true := by
  rw [Pipeline.Window.flush_out _ rfl]
  have ht : t.val < (cfg23 a23).grid.N := t.isLt
  by_cases h : t.val + 1 < (cfg23 a23).grid.N
  · refine .inr ⟨h, fun e => ?_⟩
    have e0 : ((cfg23 a23).win 0).index ⟨t.val + 1, h⟩ (0 : Fin 2) = ((cfg23 a23).win 0).index t (0 : Fin 2) :=
      congrFun e (0 : Fin 2)
    have e1 : ((cfg23 a23).win 0).index ⟨t.val + 1, h⟩ (0 : Fin 2) = t.val + 1 := (indexG23 a23 ⟨t.val + 1, h⟩).1
    have e2 : ((cfg23 a23).win 0).index t (0 : Fin 2) = t.val := (indexG23 a23 t).1
    omega
  · exact .inl (by omega)

/-! ## What a point writes back, and the array -/

variable (T : (c : Dev nD) → S50000x128.Idx → Elt F .f32) (row : (c : Dev nD) → Fin 100000 → Fin 50000)

/-- The array the region leaves on core c: its row r is the source's row  row r. -/
abbrev outG23 (c : Dev nD) : S100000x128.Idx → Elt F .f32 := fun i => T c (ValueIdx.ix2 (row c (i 0)) (i 1))

/-- One element of the block at point t is the array's element 8 t rows further down, in the same column. -/
theorem blockG23_apply
    (hblk : ∀ c (t : Fin (cfg23 a23).N) (j : Fin 8) (l : Fin 128) (h : 8 * t.val + j.val < 100000),
      gblk c t (ValueIdx.ix2 j l) = T c (ValueIdx.ix2 (row c ⟨8 * t.val + j.val, h⟩) l))
    (c : Dev nD) (t : Fin (cfg23 a23).N) (y : S8x128.Idx) (k : S100000x128.Idx)
    (hk0 : (k 0).val = 8 * t.val + (y 0).val) (hk1 : (k 1).val = (y 1).val) :
    gblk c t y = outG23 T row c k := by
  have hy0 : (y 0).val < 8 := (y 0).isLt
  have hN := ptsG23 a23 t
  have hb : 8 * t.val + (y 0).val < 100000 := by omega
  have h0 : (⟨8 * t.val + (y 0).val, hb⟩ : Fin 100000) = k 0 := Fin.ext hk0.symm
  have h1 : (y 1 : Fin 128) = k 1 := Fin.ext hk1.symm
  calc gblk c t y = gblk c t (ValueIdx.ix2 (y 0) (y 1)) := congrArg (gblk c t) (ValueIdx.eq_ix2 y)
    _ = T c (ValueIdx.ix2 (row c ⟨8 * t.val + (y 0).val, hb⟩) (y 1)) := hblk c t (y 0) (y 1) hb
    _ = outG23 T row c k := congrArg₂ (fun (p : Fin 100000) (l : Fin 128) => T c (ValueIdx.ix2 (row c p) l)) h0 h1

/-- WHAT POINT t WRITES BACK is block t of that array. -/
theorem flushedG23_eq
    (hblk : ∀ c (t : Fin (cfg23 a23).N) (j : Fin 8) (l : Fin 128) (h : 8 * t.val + j.val < 100000),
      gblk c t (ValueIdx.ix2 j l) = T c (ValueIdx.ix2 (row c ⟨8 * t.val + j.val, h⟩) l))
    (c : Dev nD) (t : Fin (cfg23 a23).N) :
    (datG23 V a23 gblk c).flushed 0 t = (((cfg23 a23).win 0).blk t).view.read (Elt F) (outG23 T row c) := by
  obtain ⟨e0, e1⟩ := indexG23 a23 t
  have key : ∀ y : S8x128.Idx, gblk c t y = outG23 T row c ((((cfg23 a23).win 0).blk t).view.emb y) := fun y =>
    blockG23_apply a23 gblk T row hblk c t y _
      (by show ((cfg23 a23).win 0).index t (0 : Fin 2) * 8 + 1 * (y 0).val = 8 * t.val + (y 0).val
          rw [e0]; omega)
      (by show ((cfg23 a23).win 0).index t (1 : Fin 2) * 128 + 1 * (y 1).val = (y 1).val
          rw [e1]; omega)
  exact funext key

/-- An index of the array whose row is among the rows 8 t … 8 t + 7 is in point t's block. -/
theorem mem_blkG23 (t : Fin (cfg23 a23).N) (i : S100000x128.Idx)
    (hi : 8 * t.val ≤ (i 0).val ∧ (i 0).val < 8 * t.val + 8) : i ∈ (((cfg23 a23).win 0).blk t).view.set := by
  obtain ⟨e0, e1⟩ := indexG23 a23 t
  have hi1 : (i 1).val < 128 := (i 1).isLt
  have hs : (((cfg23 a23).win 0).blk t).view.set = (((cfg23 a23).win 0).rect t).set :=
    View.set_slice_whole main_v91 (((cfg23 a23).win 0).rect t)
  have key : ∀ a : Fin 2, ((cfg23 a23).win 0).index t a * S8x128.size a ≤ (i a).val
      ∧ (i a).val < ((cfg23 a23).win 0).index t a * S8x128.size a + S8x128.size a := fun a =>
    match a with
    | ⟨0, _⟩ => by
      show ((cfg23 a23).win 0).index t (0 : Fin 2) * 8 ≤ (i 0).val ∧ (i 0).val < ((cfg23 a23).win 0).index t (0 : Fin 2) * 8 + 8
      rw [e0]; omega
    | ⟨1, _⟩ => by
      show ((cfg23 a23).win 0).index t (1 : Fin 2) * 128 ≤ (i 1).val ∧ (i 1).val < ((cfg23 a23).win 0).index t (1 : Fin 2) * 128 + 128
      rw [e1]; omega
  exact (Finset.ext_iff.mp hs i).mpr (Rect.mem_set_unit.mpr key)

/-- THE COVER: row r of the array lies in the block of point r / 8, and that point writes its block back. -/
theorem coverG23 (i : S100000x128.Idx) :
    ∃ t : Fin (cfg23 a23).N, ((cfg23 a23).win 0).flush t = true ∧ i ∈ (((cfg23 a23).win 0).blk t).view.set := by
  have hi0 : (i 0).val < 100000 := (i 0).isLt
  have ht : (i 0).val / 8 < (cfg23 a23).N := lt_of_lt_of_eq (by omega : (i 0).val / 8 < 12500) N_23.symm
  exact ⟨⟨(i 0).val / 8, ht⟩, flushG23 a23 _, mem_blkG23 a23 ⟨(i 0).val / 8, ht⟩ i
    (by show 8 * ((i 0).val / 8) ≤ (i 0).val ∧ (i 0).val < 8 * ((i 0).val / 8) + 8; omega)⟩

/-- THE ARRAY after the region: its row r is the source's row  row r. -/
theorem finalG23
    (hblk : ∀ c (t : Fin (cfg23 a23).N) (j : Fin 8) (l : Fin 128) (h : 8 * t.val + j.val < 100000),
      gblk c t (ValueIdx.ix2 j l) = T c (ValueIdx.ix2 (row c ⟨8 * t.val + j.val, h⟩) l))
    (c : Dev nD) :
    (datG23 V a23 gblk c).arrAt 0 (cfg23 a23).N
      = fun i : S100000x128.Idx => T c (ValueIdx.ix2 (row c (i 0)) (i 1)) :=
  (datG23 V a23 gblk c).arrAt_eq_of_cover 0 (outG23 T row c)
    (fun t _ => flushedG23_eq V a23 gblk T row hblk c t) (coverG23 a23)

/-- THE ARRAY, when the row numbers are the words of an index table tblw, each below 50000: row r is the source's row
    at the node that word r names (a word below 50000 names the node of that number). -/
theorem finalG23_node (tblw : IVec S100000 32) (hlt : ∀ k : S100000.Idx, (tblw k).toNat < 50000)
    (hblk : ∀ c (t : Fin (cfg23 a23).N) (j : Fin 8) (l : Fin 128) (h : 8 * t.val + j.val < 100000),
      gblk c t (ValueIdx.ix2 j l)
        = T c (ValueIdx.ix2 (⟨(tblw (ValueIdx.ix1 (⟨8 * t.val + j.val, h⟩ : Fin 100000))).toNat, hlt _⟩ : Fin 50000) l))
    (c : Dev nD) :
    (datG23 V a23 gblk c).arrAt 0 (cfg23 a23).N
      = fun i : S100000x128.Idx => T c (ValueIdx.ix2 (Cert.Spec.node (tblw (ValueIdx.ix1 (i 0)))) (i 1)) :=
  (finalG23 V a23 gblk T (fun _ p => ⟨(tblw (ValueIdx.ix1 p)).toNat, hlt _⟩) hblk c).trans
    (funext fun i => congrArg (fun p : Fin 50000 => T c (ValueIdx.ix2 p (i 1))) (Cert.Spec.node_of_lt (hlt _)).symm)

end Cert.KernelIdeal.Hand

end
-- ==== Proof.KI.GatherAt23.lean ====
/-
  Region 23 in the run: what it leaves, in terms of what the program's items before it left.

  Between the program's items core c's buffers hold the chain's valuations. Region 23's index table, as the region's
  proof data hold it, is the closed table of the launch memory, and every word of it is below 50000 when every word
  of the edge list is. So the region's output array holds, in its row r, the row — of the array the region reads — at
  the node that the table's word r names; and the array it reads is left as it was, which is as the item before the
  table's host stretch left it. No later item writes the output array before the host stretch that concatenates the
  gather outputs, so at that stretch's entry it holds the same rows (gat23: stated for whatever the array read holds).
-/
import proofs.«402049_j87351044866139_2_alg».proof.Proof.KI.Chain
import proofs.«402049_j87351044866139_2_alg».proof.Proof.KI.Carry
import proofs.«402049_j87351044866139_2_alg».proof.Proof.KI.GatherVal23
import proofs.«402049_j87351044866139_2_alg».proof.Proof.KI.Tables

set_option maxRecDepth 16384

noncomputable section

namespace Cert.KernelIdeal.Hand

open Cert.KernelIdeal Cert.KernelIdeal.Gen Cert.KernelIdeal.GenP
open Idealize.ShloMosaic Idealize.ShloMosaic.TcCoe
open Idealize.SL.Sem

variable {F : FTy → Type} [FloatOps F]
variable (m : (ℓ : Loc nD τ sig) → Buf (Elt F) ℓ)

/-- The index table the region's proof data hold is the closed table of the launch memory: the data hold what the
    chain's valuation at the region's entry has in the table's buffer, and that valuation is the run's own. -/
theorem tblwU23 : tblw23 (a23 m) = tbl23 m c₀ := by
  have h1 : tblw23 (a23 m) = (U49 m c₀ main_v90 : IVec S100000 32) := by
    unfold a23
    rfl
  have h2 : ∀ W : Valuation τ sig (Elt F), V49 m (outsU m) c₀ = W → (W main_v90 : IVec S100000 32) = tbl23 m c₀ :=
    fun W hW => by subst hW; exact tbl23_eq m (outsU m) c₀
  exact h1.trans (h2 (U49 m c₀) (V49_eq m c₀))

/-- The array the region reads, at the region's entry, is as the item before the table's host stretch left it. -/
theorem gin23 (c : Dev nD) : atTc (U49 m) c main_v89 = V48 m (outsU m) c main_v89 :=
  (congrFun (V49_eq m c) main_v89).symm.trans (V49_of m (outsU m) c main_v89 (by decide))

/-- THE ARRAY THE REGION READS is left as it was. -/
theorem gsrc23 (c : Dev nD) : V50 m (outsU m) c main_v89 = V48 m (outsU m) c main_v89 :=
  (congrFun (V50_eq m c) main_v89).trans ((U50_hbm m c).trans (gin23 m c))

/-- THE REGION'S OUTPUT: its row r is the row, of the array the region reads, at the node the table's word r names. -/
theorem g23_val (c : Dev nD) (hm : ∀ i : S2x800000.Idx, ((V0 m c main_arg1 : IVec S2x800000 32) i).toNat < 50000) :
    (V50 m (outsU m) c main_v91 : S100000x128.Idx → Elt F .f32)
      = fun i => (V48 m (outsU m) c main_v89 : S50000x128.Idx → Elt F .f32)
          (ValueIdx.ix2 (Cert.Spec.node (tbl23 m c (ValueIdx.ix1 (i 0)))) (i 1)) := by
  obtain rfl : c = c₀ := eq_c₀ c
  have hlt : ∀ k : S100000.Idx, (tblw23 (a23 m) k).toNat < 50000 := fun k => by
    rw [tblwU23]; exact tbl23_lt m c₀ hm k
  refine (congrFun (V50_eq m c₀) main_v91).trans ((U50_out m c₀).trans ?_)
  refine (finalG23_node (atTc (U49 m)) (a23 m) (gblk23 (atTc (U49 m)) (a23 m)) (fun c => V48 m (outsU m) c main_v89)
      (tblw23 (a23 m)) hlt
      (fun c t j l _ => (gblk23_apply (atTc (U49 m)) (a23 m) hlt c t j l).trans (congrFun (gin23 m c) _)) c₀).trans ?_
  rw [tblwU23]
  rfl

/-- THE REGION'S OUTPUT WHERE IT IS READ, at the entry of the host stretch that concatenates the gather outputs: the
    rows of T at the nodes the table names, when the array the region reads holds T. -/
theorem gat23 (c : Dev nD) (hm : ∀ i : S2x800000.Idx, ((V0 m c main_arg1 : IVec S2x800000 32) i).toNat < 50000)
    (T : S50000x128.Idx → Elt F .f32) (hT : V48 m (outsU m) c main_v89 = T) :
    (V64 m (outsU m) c main_v91 : S100000x128.Idx → Elt F .f32)
      = fun i => T (ValueIdx.ix2 (Cert.Spec.node (tbl23 m c (ValueIdx.ix1 (i 0)))) (i 1)) := by
  subst hT
  exact (carry23 m (outsU m) c).trans (g23_val m c hm)

end Cert.KernelIdeal.Hand

end
-- ==== Proof.KI.GatherVal24.lean ====
/-
  The value of the row-gather region 24: the array its output window leaves.

  At grid point t the region's output block holds, in its row j, the source's row  row (8 t + j).  The block sits at
  block index (t, 0) of the 100000 x 128 output array: it covers the rows 8 t … 8 t + 7 and all 128 columns. Every point
  writes its block back (the block index moves at every step), and row r of the array lies in the block of point r / 8,
  at the block's row r % 8. So the array ends with its row r equal to the source's row  row r,  for every r.

  The gathered block is taken abstractly here: any family of blocks that reads as above (the hypothesis of
  flushedG24_eq and finalG24) gives the array. When the row numbers are the words of an index table, each below 50000,
  row r of the array is the source's row at the node the table's word r names (finalG24_node).
-/
import proofs.«402049_j87351044866139_2_alg».proof.Proof.KI.Gather24
import proofs.«402049_j87351044866139_2_alg».proof.Proof.Spec
import Idealize.ShloMosaic.Lib.Pipeline.Value
import Idealize.ShloMosaic.Lib.ValueIdx

set_option maxRecDepth 16384

noncomputable section

namespace Cert.KernelIdeal.Hand

open Idealize.ShloMosaic Idealize.ShloMosaic.TcCoe
open Idealize.SL.Sem
open Idealize.ShloMosaic.Pipeline (Dat Cfg Window)
open Cert.KernelIdeal Cert.KernelIdeal.Gen

variable {F : FTy → Type} [FloatOps F]

variable (V : (c : Dev nD) → (b : Ref sig .tc) → Buf (Elt F) ((c : Thread nD τ).loc b))
variable (a24 : (pcfg24 (F := F)).Adm)
variable (gblk : (c : Dev nD) → Fin (cfg24 a24).N → S8x128.Idx → Elt F .f32)

/-! ## The grid and the output window's schedule -/

/-- The region's grid has 12500 points. -/
theorem ptsG24 (t : Fin (cfg24 a24).N) : t.val < 12500 := lt_of_lt_of_eq t.isLt N_24

/-- The grid has one axis, so point t has coordinate t. -/
theorem coordG24 (t : Fin (cfg24 a24).N) : (((cfg24 a24).grid.coords t) (0 : Fin 1)).val = t.val := by
  have hN := ptsG24 a24 t
  show t.val / (cfg24 a24).grid.stride (0 : Fin 1) % 12500 = t.val
  rw [show (cfg24 a24).grid.stride (0 : Fin 1) = 1 from rfl, Nat.div_one, Nat.mod_eq_of_lt hN]

/-- The output window's block index at point t is (t, 0). -/
theorem indexG24 (t : Fin (cfg24 a24).N) :
    ((cfg24 a24).win 0).index t (0 : Fin 2) = t.val ∧ ((cfg24 a24).win 0).index t (1 : Fin 2) = 0 := by
  have hN := ptsG24 a24 t
  refine ⟨?_, rfl⟩
  show (BitVec.ofNat 32 (((cfg24 a24).grid.coords t) (0 : Fin 1)).val).toNat = t.val
  rw [coordG24, BitVec.toNat_ofNat]
  exact Nat.mod_eq_of_lt (by omega)

/-- The block index moves at every step, so every point writes its block back. -/
theorem flushG24 (t : Fin (cfg24 a24).N) : ((cfg24 a24).win 0).flush t = true := by
  rw [Pipeline.Window.flush_out _ rfl]
  have ht : t.val < (cfg24 a24).grid.N := t.isLt
  by_cases h : t.val + 1 < (cfg24 a24).grid.N
  · refine .inr ⟨h, fun e => ?_⟩
    have e0 : ((cfg24 a24).win 0).index ⟨t.val + 1, h⟩ (0 : Fin 2) = ((cfg24 a24).win 0).index t (0 : Fin 2) :=
      congrFun e (0 : Fin 2)
    have e1 : ((cfg24 a24).win 0).index ⟨t.val + 1, h⟩ (0 : Fin 2) = t.val + 1 := (indexG24 a24 ⟨t.val + 1, h⟩).1
    have e2 : ((cfg24 a24).win 0).index t (0 : Fin 2) = t.val := (indexG24 a24 t).1
    omega
  · exact .inl (by omega)

/-! ## What a point writes back, and the array -/

variable (T : (c : Dev nD) → S50000x128.Idx → Elt F .f32) (row : (c : Dev nD) → Fin 100000 → Fin 50000)

/-- The array the region leaves on core c: its row r is the source's row  row r. -/
abbrev outG24 (c : Dev nD) : S100000x128.Idx → Elt F .f32 := fun i => T c (ValueIdx.ix2 (row c (i 0)) (i 1))

/-- One element of the block at point t is the array's element 8 t rows further down, in the same column. -/
theorem blockG24_apply
    (hblk : ∀ c (t : Fin (cfg24 a24).N) (j : Fin 8) (l : Fin 128) (h : 8 * t.val + j.val < 100000),
      gblk c t (ValueIdx.ix2 j l) = T c (ValueIdx.ix2 (row c ⟨8 * t.val + j.val, h⟩) l))
    (c : Dev nD) (t : Fin (cfg24 a24).N) (y : S8x128.Idx) (k : S100000x128.Idx)
    (hk0 : (k 0).val = 8 * t.val + (y 0).val) (hk1 : (k 1).val = (y 1).val) :
    gblk c t y = outG24 T row c k := by
  have hy0 : (y 0).val < 8 := (y 0).isLt
  have hN := ptsG24 a24 t
  have hb : 8 * t.val + (y 0).val < 100000 := by omega
  have h0 : (⟨8 * t.val + (y 0).val, hb⟩ : Fin 100000) = k 0 := Fin.ext hk0.symm
  have h1 : (y 1 : Fin 128) = k 1 := Fin.ext hk1.symm
  calc gblk c t y = gblk c t (ValueIdx.ix2 (y 0) (y 1)) := congrArg (gblk c t) (ValueIdx.eq_ix2 y)
    _ = T c (ValueIdx.ix2 (row c ⟨8 * t.val + (y 0).val, hb⟩) (y 1)) := hblk c t (y 0) (y 1) hb
    _ = outG24 T row c k := congrArg₂ (fun (p : Fin 100000) (l : Fin 128) => T c (ValueIdx.ix2 (row c p) l)) h0 h1

/-- WHAT POINT t WRITES BACK is block t of that array. -/
theorem flushedG24_eq
    (hblk : ∀ c (t : Fin (cfg24 a24).N) (j : Fin 8) (l : Fin 128) (h : 8 * t.val + j.val < 100000),
      gblk c t (ValueIdx.ix2 j l) = T c (ValueIdx.ix2 (row c ⟨8 * t.val + j.val, h⟩) l))
    (c : Dev nD) (t : Fin (cfg24 a24).N) :
    (datG24 V a24 gblk c).flushed 0 t = (((cfg24 a24).win 0).blk t).view.read (Elt F) (outG24 T row c) := by
  obtain ⟨e0, e1⟩ := indexG24 a24 t
  have key : ∀ y : S8x128.Idx, gblk c t y = outG24 T row c ((((cfg24 a24).win 0).blk t).view.emb y) := fun y =>
    blockG24_apply a24 gblk T row hblk c t y _
      (by show ((cfg24 a24).win 0).index t (0 : Fin 2) * 8 + 1 * (y 0).val = 8 * t.val + (y 0).val
          rw [e0]; omega)
      (by show ((cfg24 a24).win 0).index t (1 : Fin 2) * 128 + 1 * (y 1).val = (y 1).val
          rw [e1]; omega)
  exact funext key

/-- An index of the array whose row is among the rows 8 t … 8 t + 7 is in point t's block. -/
theorem mem_blkG24 (t : Fin (cfg24 a24).N) (i : S100000x128.Idx)
    (hi : 8 * t.val ≤ (i 0).val ∧ (i 0).val < 8 * t.val + 8) : i ∈ (((cfg24 a24).win 0).blk t).view.set := by
  obtain ⟨e0, e1⟩ := indexG24 a24 t
  have hi1 : (i 1).val < 128 := (i 1).isLt
  have hs : (((cfg24 a24).win 0).blk t).view.set = (((cfg24 a24).win 0).rect t).set :=
    View.set_slice_whole main_v93 (((cfg24 a24).win 0).rect t)
  have key : ∀ a : Fin 2, ((cfg24 a24).win 0).index t a * S8x128.size a ≤ (i a).val
      ∧ (i a).val < ((cfg24 a24).win 0).index t a * S8x128.size a + S8x128.size a := fun a =>
    match a with
    | ⟨0, _⟩ => by
      show ((cfg24 a24).win 0).index t (0 : Fin 2) * 8 ≤ (i 0).val ∧ (i 0).val < ((cfg24 a24).win 0).index t (0 : Fin 2) * 8 + 8
      rw [e0]; omega
    | ⟨1, _⟩ => by
      show ((cfg24 a24).win 0).index t (1 : Fin 2) * 128 ≤ (i 1).val ∧ (i 1).val < ((cfg24 a24).win 0).index t (1 : Fin 2) * 128 + 128
      rw [e1]; omega
  exact (Finset.ext_iff.mp hs i).mpr (Rect.mem_set_unit.mpr key)

/-- THE COVER: row r of the array lies in the block of point r / 8, and that point writes its block back. -/
theorem coverG24 (i : S100000x128.Idx) :
    ∃ t : Fin (cfg24 a24).N, ((cfg24 a24).win 0).flush t = true ∧ i ∈ (((cfg24 a24).win 0).blk t).view.set := by
  have hi0 : (i 0).val < 100000 := (i 0).isLt
  have ht : (i 0).val / 8 < (cfg24 a24).N := lt_of_lt_of_eq (by omega : (i 0).val / 8 < 12500) N_24.symm
  exact ⟨⟨(i 0).val / 8, ht⟩, flushG24 a24 _, mem_blkG24 a24 ⟨(i 0).val / 8, ht⟩ i
    (by show 8 * ((i 0).val / 8) ≤ (i 0).val ∧ (i 0).val < 8 * ((i 0).val / 8) + 8; omega)⟩

/-- THE ARRAY after the region: its row r is the source's row  row r. -/
theorem finalG24
    (hblk : ∀ c (t : Fin (cfg24 a24).N) (j : Fin 8) (l : Fin 128) (h : 8 * t.val + j.val < 100000),
      gblk c t (ValueIdx.ix2 j l) = T c (ValueIdx.ix2 (row c ⟨8 * t.val + j.val, h⟩) l))
    (c : Dev nD) :
    (datG24 V a24 gblk c).arrAt 0 (cfg24 a24).N
      = fun i : S100000x128.Idx => T c (ValueIdx.ix2 (row c (i 0)) (i 1)) :=
  (datG24 V a24 gblk c).arrAt_eq_of_cover 0 (outG24 T row c)
    (fun t _ => flushedG24_eq V a24 gblk T row hblk c t) (coverG24 a24)

/-- THE ARRAY, when the row numbers are the words of an index table tblw, each below 50000: row r is the source's row
    at the node that word r names (a word below 50000 names the node of that number). -/
theorem finalG24_node (tblw : IVec S100000 32) (hlt : ∀ k : S100000.Idx, (tblw k).toNat < 50000)
    (hblk : ∀ c (t : Fin (cfg24 a24).N) (j : Fin 8) (l : Fin 128) (h : 8 * t.val + j.val < 100000),
      gblk c t (ValueIdx.ix2 j l)
        = T c (ValueIdx.ix2 (⟨(tblw (ValueIdx.ix1 (⟨8 * t.val + j.val, h⟩ : Fin 100000))).toNat, hlt _⟩ : Fin 50000) l))
    (c : Dev nD) :
    (datG24 V a24 gblk c).arrAt 0 (cfg24 a24).N
      = fun i : S100000x128.Idx => T c (ValueIdx.ix2 (Cert.Spec.node (tblw (ValueIdx.ix1 (i 0)))) (i 1)) :=
  (finalG24 V a24 gblk T (fun _ p => ⟨(tblw (ValueIdx.ix1 p)).toNat, hlt _⟩) hblk c).trans
    (funext fun i => congrArg (fun p : Fin 50000 => T c (ValueIdx.ix2 p (i 1))) (Cert.Spec.node_of_lt (hlt _)).symm)

end Cert.KernelIdeal.Hand

end
-- ==== Proof.KI.GatherAt24.lean ====
/-
  Region 24 in the run: what it leaves, in terms of what the program's items before it left.

  Between the program's items core c's buffers hold the chain's valuations. Region 24's index table, as the region's
  proof data hold it, is the closed table of the launch memory, and every word of it is below 50000 when every word
  of the edge list is. So the region's output array holds, in its row r, the row — of the array the region reads — at
  the node that the table's word r names; and the array it reads is left as it was, which is as the item before the
  table's host stretch left it. No later item writes the output array before the host stretch that concatenates the
  gather outputs, so at that stretch's entry it holds the same rows (gat24: stated for whatever the array read holds).
-/
import proofs.«402049_j87351044866139_2_alg».proof.Proof.KI.Chain
import proofs.«402049_j87351044866139_2_alg».proof.Proof.KI.Carry
import proofs.«402049_j87351044866139_2_alg».proof.Proof.KI.GatherVal24
import proofs.«402049_j87351044866139_2_alg».proof.Proof.KI.Tables

set_option maxRecDepth 16384

noncomputable section

namespace Cert.KernelIdeal.Hand

open Cert.KernelIdeal Cert.KernelIdeal.Gen Cert.KernelIdeal.GenP
open Idealize.ShloMosaic Idealize.ShloMosaic.TcCoe
open Idealize.SL.Sem

variable {F : FTy → Type} [FloatOps F]
variable (m : (ℓ : Loc nD τ sig) → Buf (Elt F) ℓ)

/-- The index table the region's proof data hold is the closed table of the launch memory: the data hold what the
    chain's valuation at the region's entry has in the table's buffer, and that valuation is the run's own. -/
theorem tblwU24 : tblw24 (a24 m) = tbl24 m c₀ := by
  have h1 : tblw24 (a24 m) = (U51 m c₀ main_v92 : IVec S100000 32) := by
    unfold a24
    rfl
  have h2 : ∀ W : Valuation τ sig (Elt F), V51 m (outsU m) c₀ = W → (W main_v92 : IVec S100000 32) = tbl24 m c₀ :=
    fun W hW => by subst hW; exact tbl24_eq m (outsU m) c₀
  exact h1.trans (h2 (U51 m c₀) (V51_eq m c₀))

/-- The array the region reads, at the region's entry, is as the item before the table's host stretch left it. -/
theorem gin24 (c : Dev nD) : atTc (U51 m) c main_v89 = V50 m (outsU m) c main_v89 :=
  (congrFun (V51_eq m c) main_v89).symm.trans (V51_of m (outsU m) c main_v89 (by decide))

/-- THE ARRAY THE REGION READS is left as it was. -/
theorem gsrc24 (c : Dev nD) : V52 m (outsU m) c main_v89 = V50 m (outsU m) c main_v89 :=
  (congrFun (V52_eq m c) main_v89).trans ((U52_hbm m c).trans (gin24 m c))

/-- THE REGION'S OUTPUT: its row r is the row, of the array the region reads, at the node the table's word r names. -/
theorem g24_val (c : Dev nD) (hm : ∀ i : S2x800000.Idx, ((V0 m c main_arg1 : IVec S2x800000 32) i).toNat < 50000) :
    (V52 m (outsU m) c main_v93 : S100000x128.Idx → Elt F .f32)
      = fun i => (V50 m (outsU m) c main_v89 : S50000x128.Idx → Elt F .f32)
          (ValueIdx.ix2 (Cert.Spec.node (tbl24 m c (ValueIdx.ix1 (i 0)))) (i 1)) := by
  obtain rfl : c = c₀ := eq_c₀ c
  have hlt : ∀ k : S100000.Idx, (tblw24 (a24 m) k).toNat < 50000 := fun k => by
    rw [tblwU24]; exact tbl24_lt m c₀ hm k
  refine (congrFun (V52_eq m c₀) main_v93).trans ((U52_out m c₀).trans ?_)
  refine (finalG24_node (atTc (U51 m)) (a24 m) (gblk24 (atTc (U51 m)) (a24 m)) (fun c => V50 m (outsU m) c main_v89)
      (tblw24 (a24 m)) hlt
      (fun c t j l _ => (gblk24_apply (atTc (U51 m)) (a24 m) hlt c t j l).trans (congrFun (gin24 m c) _)) c₀).trans ?_
  rw [tblwU24]
  rfl

/-- THE REGION'S OUTPUT WHERE IT IS READ, at the entry of the host stretch that concatenates the gather outputs: the
    rows of T at the nodes the table names, when the array the region reads holds T. -/
theorem gat24 (c : Dev nD) (hm : ∀ i : S2x800000.Idx, ((V0 m c main_arg1 : IVec S2x800000 32) i).toNat < 50000)
    (T : S50000x128.Idx → Elt F .f32) (hT : V50 m (outsU m) c main_v89 = T) :
    (V64 m (outsU m) c main_v93 : S100000x128.Idx → Elt F .f32)
      = fun i => T (ValueIdx.ix2 (Cert.Spec.node (tbl24 m c (ValueIdx.ix1 (i 0)))) (i 1)) := by
  subst hT
  exact (carry24 m (outsU m) c).trans (g24_val m c hm)

end Cert.KernelIdeal.Hand

end
-- ==== Proof.KI.GatherVal25.lean ====
/-
  The value of the row-gather region 25: the array its output window leaves.

  At grid point t the region's output block holds, in its row j, the source's row  row (8 t + j).  The block sits at
  block index (t, 0) of the 100000 x 128 output array: it covers the rows 8 t … 8 t + 7 and all 128 columns. Every point
  writes its block back (the block index moves at every step), and row r of the array lies in the block of point r / 8,
  at the block's row r % 8. So the array ends with its row r equal to the source's row  row r,  for every r.

  The gathered block is taken abstractly here: any family of blocks that reads as above (the hypothesis of
  flushedG25_eq and finalG25) gives the array. When the row numbers are the words of an index table, each below 50000,
  row r of the array is the source's row at the node the table's word r names (finalG25_node).
-/
import proofs.«402049_j87351044866139_2_alg».proof.Proof.KI.Gather25
import proofs.«402049_j87351044866139_2_alg».proof.Proof.Spec
import Idealize.ShloMosaic.Lib.Pipeline.Value
import Idealize.ShloMosaic.Lib.ValueIdx

set_option maxRecDepth 16384

noncomputable section

namespace Cert.KernelIdeal.Hand

open Idealize.ShloMosaic Idealize.ShloMosaic.TcCoe
open Idealize.SL.Sem
open Idealize.ShloMosaic.Pipeline (Dat Cfg Window)
open Cert.KernelIdeal Cert.KernelIdeal.Gen

variable {F : FTy → Type} [FloatOps F]

variable (V : (c : Dev nD) → (b : Ref sig .tc) → Buf (Elt F) ((c : Thread nD τ).loc b))
variable (a25 : (pcfg25 (F := F)).Adm)
variable (gblk : (c : Dev nD) → Fin (cfg25 a25).N → S8x128.Idx → Elt F .f32)

/-! ## The grid and the output window's schedule -/

/-- The region's grid has 12500 points. -/
theorem ptsG25 (t : Fin (cfg25 a25).N) : t.val < 12500 := lt_of_lt_of_eq t.isLt N_25

/-- The grid has one axis, so point t has coordinate t. -/
theorem coordG25 (t : Fin (cfg25 a25).N) : (((cfg25 a25).grid.coords t) (0 : Fin 1)).val = t.val := by
  have hN := ptsG25 a25 t
  show t.val / (cfg25 a25).grid.stride (0 : Fin 1) % 12500 = t.val
  rw [show (cfg25 a25).grid.stride (0 : Fin 1) = 1 from rfl, Nat.div_one, Nat.mod_eq_of_lt hN]

/-- The output window's block index at point t is (t, 0). -/
theorem indexG25 (t : Fin (cfg25 a25).N) :
    ((cfg25 a25).win 0).index t (0 : Fin 2) = t.val ∧ ((cfg25 a25).win 0).index t (1 : Fin 2) = 0 := by
  have hN := ptsG25 a25 t
  refine ⟨?_, rfl⟩
  show (BitVec.ofNat 32 (((cfg25 a25).grid.coords t) (0 : Fin 1)).val).toNat = t.val
  rw [coordG25, BitVec.toNat_ofNat]
  exact Nat.mod_eq_of_lt (by omega)

/-- The block index moves at every step, so every point writes its block back. -/
theorem flushG25 (t : Fin (cfg25 a25).N) : ((cfg25 a25).win 0).flush t = true := by
  rw [Pipeline.Window.flush_out _ rfl]
  have ht : t.val < (cfg25 a25).grid.N := t.isLt
  by_cases h : t.val + 1 < (cfg25 a25).grid.N
  · refine .inr ⟨h, fun e => ?_⟩
    have e0 : ((cfg25 a25).win 0).index ⟨t.val + 1, h⟩ (0 : Fin 2) = ((cfg25 a25).win 0).index t (0 : Fin 2) :=
      congrFun e (0 : Fin 2)
    have e1 : ((cfg25 a25).win 0).index ⟨t.val + 1, h⟩ (0 : Fin 2) = t.val + 1 := (indexG25 a25 ⟨t.val + 1, h⟩).1
    have e2 : ((cfg25 a25).win 0).index t (0 : Fin 2) = t.val := (indexG25 a25 t).1
    omega
  · exact .inl (by omega)

/-! ## What a point writes back, and the array -/

variable (T : (c : Dev nD) → S50000x128.Idx → Elt F .f32) (row : (c : Dev nD) → Fin 100000 → Fin 50000)

/-- The array the region leaves on core c: its row r is the source's row  row r. -/
abbrev outG25 (c : Dev nD) : S100000x128.Idx → Elt F .f32 := fun i => T c (ValueIdx.ix2 (row c (i 0)) (i 1))

/-- One element of the block at point t is the array's element 8 t rows further down, in the same column. -/
theorem blockG25_apply
    (hblk : ∀ c (t : Fin (cfg25 a25).N) (j : Fin 8) (l : Fin 128) (h : 8 * t.val + j.val < 100000),
      gblk c t (ValueIdx.ix2 j l) = T c (ValueIdx.ix2 (row c ⟨8 * t.val + j.val, h⟩) l))
    (c : Dev nD) (t : Fin (cfg25 a25).N) (y : S8x128.Idx) (k : S100000x128.Idx)
    (hk0 : (k 0).val = 8 * t.val + (y 0).val) (hk1 : (k 1).val = (y 1).val) :
    gblk c t y = outG25 T row c k := by
  have hy0 : (y 0).val < 8 := (y 0).isLt
  have hN := ptsG25 a25 t
  have hb : 8 * t.val + (y 0).val < 100000 := by omega
  have h0 : (⟨8 * t.val + (y 0).val, hb⟩ : Fin 100000) = k 0 := Fin.ext hk0.symm
  have h1 : (y 1 : Fin 128) = k 1 := Fin.ext hk1.symm
  calc gblk c t y = gblk c t (ValueIdx.ix2 (y 0) (y 1)) := congrArg (gblk c t) (ValueIdx.eq_ix2 y)
    _ = T c (ValueIdx.ix2 (row c ⟨8 * t.val + (y 0).val, hb⟩) (y 1)) := hblk c t (y 0) (y 1) hb
    _ = outG25 T row c k := congrArg₂ (fun (p : Fin 100000) (l : Fin 128) => T c (ValueIdx.ix2 (row c p) l)) h0 h1

/-- WHAT POINT t WRITES BACK is block t of that array. -/
theorem flushedG25_eq
    (hblk : ∀ c (t : Fin (cfg25 a25).N) (j : Fin 8) (l : Fin 128) (h : 8 * t.val + j.val < 100000),
      gblk c t (ValueIdx.ix2 j l) = T c (ValueIdx.ix2 (row c ⟨8 * t.val + j.val, h⟩) l))
    (c : Dev nD) (t : Fin (cfg25 a25).N) :
    (datG25 V a25 gblk c).flushed 0 t = (((cfg25 a25).win 0).blk t).view.read (Elt F) (outG25 T row c) := by
  obtain ⟨e0, e1⟩ := indexG25 a25 t
  have key : ∀ y : S8x128.Idx, gblk c t y = outG25 T row c ((((cfg25 a25).win 0).blk t).view.emb y) := fun y =>
    blockG25_apply a25 gblk T row hblk c t y _
      (by show ((cfg25 a25).win 0).index t (0 : Fin 2) * 8 + 1 * (y 0).val = 8 * t.val + (y 0).val
          rw [e0]; omega)
      (by show ((cfg25 a25).win 0).index t (1 : Fin 2) * 128 + 1 * (y 1).val = (y 1).val
          rw [e1]; omega)
  exact funext key

/-- An index of the array whose row is among the rows 8 t … 8 t + 7 is in point t's block. -/
theorem mem_blkG25 (t : Fin (cfg25 a25).N) (i : S100000x128.Idx)
    (hi : 8 * t.val ≤ (i 0).val ∧ (i 0).val < 8 * t.val + 8) : i ∈ (((cfg25 a25).win 0).blk t).view.set := by
  obtain ⟨e0, e1⟩ := indexG25 a25 t
  have hi1 : (i 1).val < 128 := (i 1).isLt
  have hs : (((cfg25 a25).win 0).blk t).view.set = (((cfg25 a25).win 0).rect t).set :=
    View.set_slice_whole main_v95 (((cfg25 a25).win 0).rect t)
  have key : ∀ a : Fin 2, ((cfg25 a25).win 0).index t a * S8x128.size a ≤ (i a).val
      ∧ (i a).val < ((cfg25 a25).win 0).index t a * S8x128.size a + S8x128.size a := fun a =>
    match a with
    | ⟨0, _⟩ => by
      show ((cfg25 a25).win 0).index t (0 : Fin 2) * 8 ≤ (i 0).val ∧ (i 0).val < ((cfg25 a25).win 0).index t (0 : Fin 2) * 8 + 8
      rw [e0]; omega
    | ⟨1, _⟩ => by
      show ((cfg25 a25).win 0).index t (1 : Fin 2) * 128 ≤ (i 1).val ∧ (i 1).val < ((cfg25 a25).win 0).index t (1 : Fin 2) * 128 + 128
      rw [e1]; omega
  exact (Finset.ext_iff.mp hs i).mpr (Rect.mem_set_unit.mpr key)

/-- THE COVER: row r of the array lies in the block of point r / 8, and that point writes its block back. -/
theorem coverG25 (i : S100000x128.Idx) :
    ∃ t : Fin (cfg25 a25).N, ((cfg25 a25).win 0).flush t = true ∧ i ∈ (((cfg25 a25).win 0).blk t).view.set := by
  have hi0 : (i 0).val < 100000 := (i 0).isLt
  have ht : (i 0).val / 8 < (cfg25 a25).N := lt_of_lt_of_eq (by omega : (i 0).val / 8 < 12500) N_25.symm
  exact ⟨⟨(i 0).val / 8, ht⟩, flushG25 a25 _, mem_blkG25 a25 ⟨(i 0).val / 8, ht⟩ i
    (by show 8 * ((i 0).val / 8) ≤ (i 0).val ∧ (i 0).val < 8 * ((i 0).val / 8) + 8; omega)⟩

/-- THE ARRAY after the region: its row r is the source's row  row r. -/
theorem finalG25
    (hblk : ∀ c (t : Fin (cfg25 a25).N) (j : Fin 8) (l : Fin 128) (h : 8 * t.val + j.val < 100000),
      gblk c t (ValueIdx.ix2 j l) = T c (ValueIdx.ix2 (row c ⟨8 * t.val + j.val, h⟩) l))
    (c : Dev nD) :
    (datG25 V a25 gblk c).arrAt 0 (cfg25 a25).N
      = fun i : S100000x128.Idx => T c (ValueIdx.ix2 (row c (i 0)) (i 1)) :=
  (datG25 V a25 gblk c).arrAt_eq_of_cover 0 (outG25 T row c)
    (fun t _ => flushedG25_eq V a25 gblk T row hblk c t) (coverG25 a25)

/-- THE ARRAY, when the row numbers are the words of an index table tblw, each below 50000: row r is the source's row
    at the node that word r names (a word below 50000 names the node of that number). -/
theorem finalG25_node (tblw : IVec S100000 32) (hlt : ∀ k : S100000.Idx, (tblw k).toNat < 50000)
    (hblk : ∀ c (t : Fin (cfg25 a25).N) (j : Fin 8) (l : Fin 128) (h : 8 * t.val + j.val < 100000),
      gblk c t (ValueIdx.ix2 j l)
        = T c (ValueIdx.ix2 (⟨(tblw (ValueIdx.ix1 (⟨8 * t.val + j.val, h⟩ : Fin 100000))).toNat, hlt _⟩ : Fin 50000) l))
    (c : Dev nD) :
    (datG25 V a25 gblk c).arrAt 0 (cfg25 a25).N
      = fun i : S100000x128.Idx => T c (ValueIdx.ix2 (Cert.Spec.node (tblw (ValueIdx.ix1 (i 0)))) (i 1)) :=
  (finalG25 V a25 gblk T (fun _ p => ⟨(tblw (ValueIdx.ix1 p)).toNat, hlt _⟩) hblk c).trans
    (funext fun i => congrArg (fun p : Fin 50000 => T c (ValueIdx.ix2 p (i 1))) (Cert.Spec.node_of_lt (hlt _)).symm)

end Cert.KernelIdeal.Hand

end
-- ==== Proof.KI.GatherAt25.lean ====
/-
  Region 25 in the run: what it leaves, in terms of what the program's items before it left.

  Between the program's items core c's buffers hold the chain's valuations. Region 25's index table, as the region's
  proof data hold it, is the closed table of the launch memory, and every word of it is below 50000 when every word
  of the edge list is. So the region's output array holds, in its row r, the row — of the array the region reads — at
  the node that the table's word r names; and the array it reads is left as it was, which is as the item before the
  table's host stretch left it. No later item writes the output array before the host stretch that concatenates the
  gather outputs, so at that stretch's entry it holds the same rows (gat25: stated for whatever the array read holds).
-/
import proofs.«402049_j87351044866139_2_alg».proof.Proof.KI.Chain
import proofs.«402049_j87351044866139_2_alg».proof.Proof.KI.Carry
import proofs.«402049_j87351044866139_2_alg».proof.Proof.KI.GatherVal25
import proofs.«402049_j87351044866139_2_alg».proof.Proof.KI.Tables

set_option maxRecDepth 16384

noncomputable section

namespace Cert.KernelIdeal.Hand

open Cert.KernelIdeal Cert.KernelIdeal.Gen Cert.KernelIdeal.GenP
open Idealize.ShloMosaic Idealize.ShloMosaic.TcCoe
open Idealize.SL.Sem

variable {F : FTy → Type} [FloatOps F]
variable (m : (ℓ : Loc nD τ sig) → Buf (Elt F) ℓ)

/-- The index table the region's proof data hold is the closed table of the launch memory: the data hold what the
    chain's valuation at the region's entry has in the table's buffer, and that valuation is the run's own. -/
theorem tblwU25 : tblw25 (a25 m) = tbl25 m c₀ := by
  have h1 : tblw25 (a25 m) = (U53 m c₀ main_v94 : IVec S100000 32) := by
    unfold a25
    rfl
  have h2 : ∀ W : Valuation τ sig (Elt F), V53 m (outsU m) c₀ = W → (W main_v94 : IVec S100000 32) = tbl25 m c₀ :=
    fun W hW => by subst hW; exact tbl25_eq m (outsU m) c₀
  exact h1.trans (h2 (U53 m c₀) (V53_eq m c₀))

/-- The array the region reads, at the region's entry, is as the item before the table's host stretch left it. -/
theorem gin25 (c : Dev nD) : atTc (U53 m) c main_v89 = V52 m (outsU m) c main_v89 :=
  (congrFun (V53_eq m c) main_v89).symm.trans (V53_of m (outsU m) c main_v89 (by decide))

/-- THE ARRAY THE REGION READS is left as it was. -/
theorem gsrc25 (c : Dev nD) : V54 m (outsU m) c main_v89 = V52 m (outsU m) c main_v89 :=
  (congrFun (V54_eq m c) main_v89).trans ((U54_hbm m c).trans (gin25 m c))

/-- THE REGION'S OUTPUT: its row r is the row, of the array the region reads, at the node the table's word r names. -/
theorem g25_val (c : Dev nD) (hm : ∀ i : S2x800000.Idx, ((V0 m c main_arg1 : IVec S2x800000 32) i).toNat < 50000) :
    (V54 m (outsU m) c main_v95 : S100000x128.Idx → Elt F .f32)
      = fun i => (V52 m (outsU m) c main_v89 : S50000x128.Idx → Elt F .f32)
          (ValueIdx.ix2 (Cert.Spec.node (tbl25 m c (ValueIdx.ix1 (i 0)))) (i 1)) := by
  obtain rfl : c = c₀ := eq_c₀ c
  have hlt : ∀ k : S100000.Idx, (tblw25 (a25 m) k).toNat < 50000 := fun k => by
    rw [tblwU25]; exact tbl25_lt m c₀ hm k
  refine (congrFun (V54_eq m c₀) main_v95).trans ((U54_out m c₀).trans ?_)
  refine (finalG25_node (atTc (U53 m)) (a25 m) (gblk25 (atTc (U53 m)) (a25 m)) (fun c => V52 m (outsU m) c main_v89)
      (tblw25 (a25 m)) hlt
      (fun c t j l _ => (gblk25_apply (atTc (U53 m)) (a25 m) hlt c t j l).trans (congrFun (gin25 m c) _)) c₀).trans ?_
  rw [tblwU25]
  rfl

/-- THE REGION'S OUTPUT WHERE IT IS READ, at the entry of the host stretch that concatenates the gather outputs: the
    rows of T at the nodes the table names, when the array the region reads holds T. -/
theorem gat25 (c : Dev nD) (hm : ∀ i : S2x800000.Idx, ((V0 m c main_arg1 : IVec S2x800000 32) i).toNat < 50000)
    (T : S50000x128.Idx → Elt F .f32) (hT : V52 m (outsU m) c main_v89 = T) :
    (V64 m (outsU m) c main_v95 : S100000x128.Idx → Elt F .f32)
      = fun i => T (ValueIdx.ix2 (Cert.Spec.node (tbl25 m c (ValueIdx.ix1 (i 0)))) (i 1)) := by
  subst hT
  exact (carry25 m (outsU m) c).trans (g25_val m c hm)

end Cert.KernelIdeal.Hand

end
-- ==== Proof.KI.GatherVal26.lean ====
/-
  The value of the row-gather region 26: the array its output window leaves.

  At grid point t the region's output block holds, in its row j, the source's row  row (8 t + j).  The block sits at
  block index (t, 0) of the 100000 x 128 output array: it covers the rows 8 t … 8 t + 7 and all 128 columns. Every point
  writes its block back (the block index moves at every step), and row r of the array lies in the block of point r / 8,
  at the block's row r % 8. So the array ends with its row r equal to the source's row  row r,  for every r.

  The gathered block is taken abstractly here: any family of blocks that reads as above (the hypothesis of
  flushedG26_eq and finalG26) gives the array. When the row numbers are the words of an index table, each below 50000,
  row r of the array is the source's row at the node the table's word r names (finalG26_node).
-/
import proofs.«402049_j87351044866139_2_alg».proof.Proof.KI.Gather26
import proofs.«402049_j87351044866139_2_alg».proof.Proof.Spec
import Idealize.ShloMosaic.Lib.Pipeline.Value
import Idealize.ShloMosaic.Lib.ValueIdx

set_option maxRecDepth 16384

noncomputable section

namespace Cert.KernelIdeal.Hand

open Idealize.ShloMosaic Idealize.ShloMosaic.TcCoe
open Idealize.SL.Sem
open Idealize.ShloMosaic.Pipeline (Dat Cfg Window)
open Cert.KernelIdeal Cert.KernelIdeal.Gen

variable {F : FTy → Type} [FloatOps F]

variable (V : (c : Dev nD) → (b : Ref sig .tc) → Buf (Elt F) ((c : Thread nD τ).loc b))
variable (a26 : (pcfg26 (F := F)).Adm)
variable (gblk : (c : Dev nD) → Fin (cfg26 a26).N → S8x128.Idx → Elt F .f32)

/-! ## The grid and the output window's schedule -/

/-- The region's grid has 12500 points. -/
theorem ptsG26 (t : Fin (cfg26 a26).N) : t.val < 12500 := lt_of_lt_of_eq t.isLt N_26

/-- The grid has one axis, so point t has coordinate t. -/
theorem coordG26 (t : Fin (cfg26 a26).N) : (((cfg26 a26).grid.coords t) (0 : Fin 1)).val = t.val := by
  have hN := ptsG26 a26 t
  show t.val / (cfg26 a26).grid.stride (0 : Fin 1) % 12500 = t.val
  rw [show (cfg26 a26).grid.stride (0 : Fin 1) = 1 from rfl, Nat.div_one, Nat.mod_eq_of_lt hN]

/-- The output window's block index at point t is (t, 0). -/
theorem indexG26 (t : Fin (cfg26 a26).N) :
    ((cfg26 a26).win 0).index t (0 : Fin 2) = t.val ∧ ((cfg26 a26).win 0).index t (1 : Fin 2) = 0 := by
  have hN := ptsG26 a26 t
  refine ⟨?_, rfl⟩
  show (BitVec.ofNat 32 (((cfg26 a26).grid.coords t) (0 : Fin 1)).val).toNat = t.val
  rw [coordG26, BitVec.toNat_ofNat]
  exact Nat.mod_eq_of_lt (by omega)

/-- The block index moves at every step, so every point writes its block back. -/
theorem flushG26 (t : Fin (cfg26 a26).N) : ((cfg26 a26).win 0).flush t = true := by
  rw [Pipeline.Window.flush_out _ rfl]
  have ht : t.val < (cfg26 a26).grid.N := t.isLt
  by_cases h : t.val + 1 < (cfg26 a26).grid.N
  · refine .inr ⟨h, fun e => ?_⟩
    have e0 : ((cfg26 a26).win 0).index ⟨t.val + 1, h⟩ (0 : Fin 2) = ((cfg26 a26).win 0).index t (0 : Fin 2) :=
      congrFun e (0 : Fin 2)
    have e1 : ((cfg26 a26).win 0).index ⟨t.val + 1, h⟩ (0 : Fin 2) = t.val + 1 := (indexG26 a26 ⟨t.val + 1, h⟩).1
    have e2 : ((cfg26 a26).win 0).index t (0 : Fin 2) = t.val := (indexG26 a26 t).1
    omega
  · exact .inl (by omega)

/-! ## What a point writes back, and the array -/

variable (T : (c : Dev nD) → S50000x128.Idx → Elt F .f32) (row : (c : Dev nD) → Fin 100000 → Fin 50000)

/-- The array the region leaves on core c: its row r is the source's row  row r. -/
abbrev outG26 (c : Dev nD) : S100000x128.Idx → Elt F .f32 := fun i => T c (ValueIdx.ix2 (row c (i 0)) (i 1))

/-- One element of the block at point t is the array's element 8 t rows further down, in the same column. -/
theorem blockG26_apply
    (hblk : ∀ c (t : Fin (cfg26 a26).N) (j : Fin 8) (l : Fin 128) (h : 8 * t.val + j.val < 100000),
      gblk c t (ValueIdx.ix2 j l) = T c (ValueIdx.ix2 (row c ⟨8 * t.val + j.val, h⟩) l))
    (c : Dev nD) (t : Fin (cfg26 a26).N) (y : S8x128.Idx) (k : S100000x128.Idx)
    (hk0 : (k 0).val = 8 * t.val + (y 0).val) (hk1 : (k 1).val = (y 1).val) :
    gblk c t y = outG26 T row c k := by
  have hy0 : (y 0).val < 8 := (y 0).isLt
  have hN := ptsG26 a26 t
  have hb : 8 * t.val + (y 0).val < 100000 := by omega
  have h0 : (⟨8 * t.val + (y 0).val, hb⟩ : Fin 100000) = k 0 := Fin.ext hk0.symm
  have h1 : (y 1 : Fin 128) = k 1 := Fin.ext hk1.symm
  calc gblk c t y = gblk c t (ValueIdx.ix2 (y 0) (y 1)) := congrArg (gblk c t) (ValueIdx.eq_ix2 y)
    _ = T c (ValueIdx.ix2 (row c ⟨8 * t.val + (y 0).val, hb⟩) (y 1)) := hblk c t (y 0) (y 1) hb
    _ = outG26 T row c k := congrArg₂ (fun (p : Fin 100000) (l : Fin 128) => T c (ValueIdx.ix2 (row c p) l)) h0 h1

/-- WHAT POINT t WRITES BACK is block t of that array. -/
theorem flushedG26_eq
    (hblk : ∀ c (t : Fin (cfg26 a26).N) (j : Fin 8) (l : Fin 128) (h : 8 * t.val + j.val < 100000),
      gblk c t (ValueIdx.ix2 j l) = T c (ValueIdx.ix2 (row c ⟨8 * t.val + j.val, h⟩) l))
    (c : Dev nD) (t : Fin (cfg26 a26).N) :
    (datG26 V a26 gblk c).flushed 0 t = (((cfg26 a26).win 0).blk t).view.read (Elt F) (outG26 T row c) := by
  obtain ⟨e0, e1⟩ := indexG26 a26 t
  have key : ∀ y : S8x128.Idx, gblk c t y = outG26 T row c ((((cfg26 a26).win 0).blk t).view.emb y) := fun y =>
    blockG26_apply a26 gblk T row hblk c t y _
      (by show ((cfg26 a26).win 0).index t (0 : Fin 2) * 8 + 1 * (y 0).val = 8 * t.val + (y 0).val
          rw [e0]; omega)
      (by show ((cfg26 a26).win 0).index t (1 : Fin 2) * 128 + 1 * (y 1).val = (y 1).val
          rw [e1]; omega)
  exact funext key

/-- An index of the array whose row is among the rows 8 t … 8 t + 7 is in point t's block. -/
theorem mem_blkG26 (t : Fin (cfg26 a26).N) (i : S100000x128.Idx)
    (hi : 8 * t.val ≤ (i 0).val ∧ (i 0).val < 8 * t.val + 8) : i ∈ (((cfg26 a26).win 0).blk t).view.set := by
  obtain ⟨e0, e1⟩ := indexG26 a26 t
  have hi1 : (i 1).val < 128 := (i 1).isLt
  have hs : (((cfg26 a26).win 0).blk t).view.set = (((cfg26 a26).win 0).rect t).set :=
    View.set_slice_whole main_v97 (((cfg26 a26).win 0).rect t)
  have key : ∀ a : Fin 2, ((cfg26 a26).win 0).index t a * S8x128.size a ≤ (i a).val
      ∧ (i a).val < ((cfg26 a26).win 0).index t a * S8x128.size a + S8x128.size a := fun a =>
    match a with
    | ⟨0, _⟩ => by
      show ((cfg26 a26).win 0).index t (0 : Fin 2) * 8 ≤ (i 0).val ∧ (i 0).val < ((cfg26 a26).win 0).index t (0 : Fin 2) * 8 + 8
      rw [e0]; omega
    | ⟨1, _⟩ => by
      show ((cfg26 a26).win 0).index t (1 : Fin 2) * 128 ≤ (i 1).val ∧ (i 1).val < ((cfg26 a26).win 0).index t (1 : Fin 2) * 128 + 128
      rw [e1]; omega
  exact (Finset.ext_iff.mp hs i).mpr (Rect.mem_set_unit.mpr key)

/-- THE COVER: row r of the array lies in the block of point r / 8, and that point writes its block back. -/
theorem coverG26 (i : S100000x128.Idx) :
    ∃ t : Fin (cfg26 a26).N, ((cfg26 a26).win 0).flush t = true ∧ i ∈ (((cfg26 a26).win 0).blk t).view.set := by
  have hi0 : (i 0).val < 100000 := (i 0).isLt
  have ht : (i 0).val / 8 < (cfg26 a26).N := lt_of_lt_of_eq (by omega : (i 0).val / 8 < 12500) N_26.symm
  exact ⟨⟨(i 0).val / 8, ht⟩, flushG26 a26 _, mem_blkG26 a26 ⟨(i 0).val / 8, ht⟩ i
    (by show 8 * ((i 0).val / 8) ≤ (i 0).val ∧ (i 0).val < 8 * ((i 0).val / 8) + 8; omega)⟩

/-- THE ARRAY after the region: its row r is the source's row  row r. -/
theorem finalG26
    (hblk : ∀ c (t : Fin (cfg26 a26).N) (j : Fin 8) (l : Fin 128) (h : 8 * t.val + j.val < 100000),
      gblk c t (ValueIdx.ix2 j l) = T c (ValueIdx.ix2 (row c ⟨8 * t.val + j.val, h⟩) l))
    (c : Dev nD) :
    (datG26 V a26 gblk c).arrAt 0 (cfg26 a26).N
      = fun i : S100000x128.Idx => T c (ValueIdx.ix2 (row c (i 0)) (i 1)) :=
  (datG26 V a26 gblk c).arrAt_eq_of_cover 0 (outG26 T row c)
    (fun t _ => flushedG26_eq V a26 gblk T row hblk c t) (coverG26 a26)

/-- THE ARRAY, when the row numbers are the words of an index table tblw, each below 50000: row r is the source's row
    at the node that word r names (a word below 50000 names the node of that number). -/
theorem finalG26_node (tblw : IVec S100000 32) (hlt : ∀ k : S100000.Idx, (tblw k).toNat < 50000)
    (hblk : ∀ c (t : Fin (cfg26 a26).N) (j : Fin 8) (l : Fin 128) (h : 8 * t.val + j.val < 100000),
      gblk c t (ValueIdx.ix2 j l)
        = T c (ValueIdx.ix2 (⟨(tblw (ValueIdx.ix1 (⟨8 * t.val + j.val, h⟩ : Fin 100000))).toNat, hlt _⟩ : Fin 50000) l))
    (c : Dev nD) :
    (datG26 V a26 gblk c).arrAt 0 (cfg26 a26).N
      = fun i : S100000x128.Idx => T c (ValueIdx.ix2 (Cert.Spec.node (tblw (ValueIdx.ix1 (i 0)))) (i 1)) :=
  (finalG26 V a26 gblk T (fun _ p => ⟨(tblw (ValueIdx.ix1 p)).toNat, hlt _⟩) hblk c).trans
    (funext fun i => congrArg (fun p : Fin 50000 => T c (ValueIdx.ix2 p (i 1))) (Cert.Spec.node_of_lt (hlt _)).symm)

end Cert.KernelIdeal.Hand

end
-- ==== Proof.KI.GatherAt26.lean ====
/-
  Region 26 in the run: what it leaves, in terms of what the program's items before it left.

  Between the program's items core c's buffers hold the chain's valuations. Region 26's index table, as the region's
  proof data hold it, is the closed table of the launch memory, and every word of it is below 50000 when every word
  of the edge list is. So the region's output array holds, in its row r, the row — of the array the region reads — at
  the node that the table's word r names; and the array it reads is left as it was, which is as the item before the
  table's host stretch left it. No later item writes the output array before the host stretch that concatenates the
  gather outputs, so at that stretch's entry it holds the same rows (gat26: stated for whatever the array read holds).
-/
import proofs.«402049_j87351044866139_2_alg».proof.Proof.KI.Chain
import proofs.«402049_j87351044866139_2_alg».proof.Proof.KI.Carry
import proofs.«402049_j87351044866139_2_alg».proof.Proof.KI.GatherVal26
import proofs.«402049_j87351044866139_2_alg».proof.Proof.KI.Tables

set_option maxRecDepth 16384

noncomputable section

namespace Cert.KernelIdeal.Hand

open Cert.KernelIdeal Cert.KernelIdeal.Gen Cert.KernelIdeal.GenP
open Idealize.ShloMosaic Idealize.ShloMosaic.TcCoe
open Idealize.SL.Sem

variable {F : FTy → Type} [FloatOps F]
variable (m : (ℓ : Loc nD τ sig) → Buf (Elt F) ℓ)

/-- The index table the region's proof data hold is the closed table of the launch memory: the data hold what the
    chain's valuation at the region's entry has in the table's buffer, and that valuation is the run's own. -/
theorem tblwU26 : tblw26 (a26 m) = tbl26 m c₀ := by
  have h1 : tblw26 (a26 m) = (U55 m c₀ main_v96 : IVec S100000 32) := by
    unfold a26
    rfl
  have h2 : ∀ W : Valuation τ sig (Elt F), V55 m (outsU m) c₀ = W → (W main_v96 : IVec S100000 32) = tbl26 m c₀ :=
    fun W hW => by subst hW; exact tbl26_eq m (outsU m) c₀
  exact h1.trans (h2 (U55 m c₀) (V55_eq m c₀))

/-- The array the region reads, at the region's entry, is as the item before the table's host stretch left it. -/
theorem gin26 (c : Dev nD) : atTc (U55 m) c main_v89 = V54 m (outsU m) c main_v89 :=
  (congrFun (V55_eq m c) main_v89).symm.trans (V55_of m (outsU m) c main_v89 (by decide))

/-- THE ARRAY THE REGION READS is left as it was. -/
theorem gsrc26 (c : Dev nD) : V56 m (outsU m) c main_v89 = V54 m (outsU m) c main_v89 :=
  (congrFun (V56_eq m c) main_v89).trans ((U56_hbm m c).trans (gin26 m c))

/-- THE REGION'S OUTPUT: its row r is the row, of the array the region reads, at the node the table's word r names. -/
theorem g26_val (c : Dev nD) (hm : ∀ i : S2x800000.Idx, ((V0 m c main_arg1 : IVec S2x800000 32) i).toNat < 50000) :
    (V56 m (outsU m) c main_v97 : S100000x128.Idx → Elt F .f32)
      = fun i => (V54 m (outsU m) c main_v89 : S50000x128.Idx → Elt F .f32)
          (ValueIdx.ix2 (Cert.Spec.node (tbl26 m c (ValueIdx.ix1 (i 0)))) (i 1)) := by
  obtain rfl : c = c₀ := eq_c₀ c
  have hlt : ∀ k : S100000.Idx, (tblw26 (a26 m) k).toNat < 50000 := fun k => by
    rw [tblwU26]; exact tbl26_lt m c₀ hm k
  refine (congrFun (V56_eq m c₀) main_v97).trans ((U56_out m c₀).trans ?_)
  refine (finalG26_node (atTc (U55 m)) (a26 m) (gblk26 (atTc (U55 m)) (a26 m)) (fun c => V54 m (outsU m) c main_v89)
      (tblw26 (a26 m)) hlt
      (fun c t j l _ => (gblk26_apply (atTc (U55 m)) (a26 m) hlt c t j l).trans (congrFun (gin26 m c) _)) c₀).trans ?_
  rw [tblwU26]
  rfl

/-- THE REGION'S OUTPUT WHERE IT IS READ, at the entry of the host stretch that concatenates the gather outputs: the
    rows of T at the nodes the table names, when the array the region reads holds T. -/
theorem gat26 (c : Dev nD) (hm : ∀ i : S2x800000.Idx, ((V0 m c main_arg1 : IVec S2x800000 32) i).toNat < 50000)
    (T : S50000x128.Idx → Elt F .f32) (hT : V54 m (outsU m) c main_v89 = T) :
    (V64 m (outsU m) c main_v97 : S100000x128.Idx → Elt F .f32)
      = fun i => T (ValueIdx.ix2 (Cert.Spec.node (tbl26 m c (ValueIdx.ix1 (i 0)))) (i 1)) := by
  subst hT
  exact (carry26 m (outsU m) c).trans (g26_val m c hm)

end Cert.KernelIdeal.Hand

end
-- ==== Proof.KI.GatherVal27.lean ====
/-
  The value of the row-gather region 27: the array its output window leaves.

  At grid point t the region's output block holds, in its row j, the source's row  row (8 t + j).  The block sits at
  block index (t, 0) of the 100000 x 128 output array: it covers the rows 8 t … 8 t + 7 and all 128 columns. Every point
  writes its block back (the block index moves at every step), and row r of the array lies in the block of point r / 8,
  at the block's row r % 8. So the array ends with its row r equal to the source's row  row r,  for every r.

  The gathered block is taken abstractly here: any family of blocks that reads as above (the hypothesis of
  flushedG27_eq and finalG27) gives the array. When the row numbers are the words of an index table, each below 50000,
  row r of the array is the source's row at the node the table's word r names (finalG27_node).
-/
import proofs.«402049_j87351044866139_2_alg».proof.Proof.KI.Gather27
import proofs.«402049_j87351044866139_2_alg».proof.Proof.Spec
import Idealize.ShloMosaic.Lib.Pipeline.Value
import Idealize.ShloMosaic.Lib.ValueIdx

set_option maxRecDepth 16384

noncomputable section

namespace Cert.KernelIdeal.Hand

open Idealize.ShloMosaic Idealize.ShloMosaic.TcCoe
open Idealize.SL.Sem
open Idealize.ShloMosaic.Pipeline (Dat Cfg Window)
open Cert.KernelIdeal Cert.KernelIdeal.Gen

variable {F : FTy → Type} [FloatOps F]

variable (V : (c : Dev nD) → (b : Ref sig .tc) → Buf (Elt F) ((c : Thread nD τ).loc b))
variable (a27 : (pcfg27 (F := F)).Adm)
variable (gblk : (c : Dev nD) → Fin (cfg27 a27).N → S8x128.Idx → Elt F .f32)

/-! ## The grid and the output window's schedule -/

/-- The region's grid has 12500 points. -/
theorem ptsG27 (t : Fin (cfg27 a27).N) : t.val < 12500 := lt_of_lt_of_eq t.isLt N_27

/-- The grid has one axis, so point t has coordinate t. -/
theorem coordG27 (t : Fin (cfg27 a27).N) : (((cfg27 a27).grid.coords t) (0 : Fin 1)).val = t.val := by
  have hN := ptsG27 a27 t
  show t.val / (cfg27 a27).grid.stride (0 : Fin 1) % 12500 = t.val
  rw [show (cfg27 a27).grid.stride (0 : Fin 1) = 1 from rfl, Nat.div_one, Nat.mod_eq_of_lt hN]

/-- The output window's block index at point t is (t, 0). -/
theorem indexG27 (t : Fin (cfg27 a27).N) :
    ((cfg27 a27).win 0).index t (0 : Fin 2) = t.val ∧ ((cfg27 a27).win 0).index t (1 : Fin 2) = 0 := by
  have hN := ptsG27 a27 t
  refine ⟨?_, rfl⟩
  show (BitVec.ofNat 32 (((cfg27 a27).grid.coords t) (0 : Fin 1)).val).toNat = t.val
  rw [coordG27, BitVec.toNat_ofNat]
  exact Nat.mod_eq_of_lt (by omega)

/-- The block index moves at every step, so every point writes its block back. -/
theorem flushG27 (t : Fin (cfg27 a27).N) : ((cfg27 a27).win 0).flush t = true := by
  rw [Pipeline.Window.flush_out _ rfl]
  have ht : t.val < (cfg27 a27).grid.N := t.isLt
  by_cases h : t.val + 1 < (cfg27 a27).grid.N
  · refine .inr ⟨h, fun e => ?_⟩
    have e0 : ((cfg27 a27).win 0).index ⟨t.val + 1, h⟩ (0 : Fin 2) = ((cfg27 a27).win 0).index t (0 : Fin 2) :=
      congrFun e (0 : Fin 2)
    have e1 : ((cfg27 a27).win 0).index ⟨t.val + 1, h⟩ (0 : Fin 2) = t.val + 1 := (indexG27 a27 ⟨t.val + 1, h⟩).1
    have e2 : ((cfg27 a27).win 0).index t (0 : Fin 2) = t.val := (indexG27 a27 t).1
    omega
  · exact .inl (by omega)

/-! ## What a point writes back, and the array -/

variable (T : (c : Dev nD) → S50000x128.Idx → Elt F .f32) (row : (c : Dev nD) → Fin 100000 → Fin 50000)

/-- The array the region leaves on core c: its row r is the source's row  row r. -/
abbrev outG27 (c : Dev nD) : S100000x128.Idx → Elt F .f32 := fun i => T c (ValueIdx.ix2 (row c (i 0)) (i 1))

/-- One element of the block at point t is the array's element 8 t rows further down, in the same column. -/
theorem blockG27_apply
    (hblk : ∀ c (t : Fin (cfg27 a27).N) (j : Fin 8) (l : Fin 128) (h : 8 * t.val + j.val < 100000),
      gblk c t (ValueIdx.ix2 j l) = T c (ValueIdx.ix2 (row c ⟨8 * t.val + j.val, h⟩) l))
    (c : Dev nD) (t : Fin (cfg27 a27).N) (y : S8x128.Idx) (k : S100000x128.Idx)
    (hk0 : (k 0).val = 8 * t.val + (y 0).val) (hk1 : (k 1).val = (y 1).val) :
    gblk c t y = outG27 T row c k := by
  have hy0 : (y 0).val < 8 := (y 0).isLt
  have hN := ptsG27 a27 t
  have hb : 8 * t.val + (y 0).val < 100000 := by omega
  have h0 : (⟨8 * t.val + (y 0).val, hb⟩ : Fin 100000) = k 0 := Fin.ext hk0.symm
  have h1 : (y 1 : Fin 128) = k 1 := Fin.ext hk1.symm
  calc gblk c t y = gblk c t (ValueIdx.ix2 (y 0) (y 1)) := congrArg (gblk c t) (ValueIdx.eq_ix2 y)
    _ = T c (ValueIdx.ix2 (row c ⟨8 * t.val + (y 0).val, hb⟩) (y 1)) := hblk c t (y 0) (y 1) hb
    _ = outG27 T row c k := congrArg₂ (fun (p : Fin 100000) (l : Fin 128) => T c (ValueIdx.ix2 (row c p) l)) h0 h1

/-- WHAT POINT t WRITES BACK is block t of that array. -/
theorem flushedG27_eq
    (hblk : ∀ c (t : Fin (cfg27 a27).N) (j : Fin 8) (l : Fin 128) (h : 8 * t.val + j.val < 100000),
      gblk c t (ValueIdx.ix2 j l) = T c (ValueIdx.ix2 (row c ⟨8 * t.val + j.val, h⟩) l))
    (c : Dev nD) (t : Fin (cfg27 a27).N) :
    (datG27 V a27 gblk c).flushed 0 t = (((cfg27 a27).win 0).blk t).view.read (Elt F) (outG27 T row c) := by
  obtain ⟨e0, e1⟩ := indexG27 a27 t
  have key : ∀ y : S8x128.Idx, gblk c t y = outG27 T row c ((((cfg27 a27).win 0).blk t).view.emb y) := fun y =>
    blockG27_apply a27 gblk T row hblk c t y _
      (by show ((cfg27 a27).win 0).index t (0 : Fin 2) * 8 + 1 * (y 0).val = 8 * t.val + (y 0).val
          rw [e0]; omega)
      (by show ((cfg27 a27).win 0).index t (1 : Fin 2) * 128 + 1 * (y 1).val = (y 1).val
          rw [e1]; omega)
  exact funext key

/-- An index of the array whose row is among the rows 8 t … 8 t + 7 is in point t's block. -/
theorem mem_blkG27 (t : Fin (cfg27 a27).N) (i : S100000x128.Idx)
    (hi : 8 * t.val ≤ (i 0).val ∧ (i 0).val < 8 * t.val + 8) : i ∈ (((cfg27 a27).win 0).blk t).view.set := by
  obtain ⟨e0, e1⟩ := indexG27 a27 t
  have hi1 : (i 1).val < 128 := (i 1).isLt
  have hs : (((cfg27 a27).win 0).blk t).view.set = (((cfg27 a27).win 0).rect t).set :=
    View.set_slice_whole main_v99 (((cfg27 a27).win 0).rect t)
  have key : ∀ a : Fin 2, ((cfg27 a27).win 0).index t a * S8x128.size a ≤ (i a).val
      ∧ (i a).val < ((cfg27 a27).win 0).index t a * S8x128.size a + S8x128.size a := fun a =>
    match a with
    | ⟨0, _⟩ => by
      show ((cfg27 a27).win 0).index t (0 : Fin 2) * 8 ≤ (i 0).val ∧ (i 0).val < ((cfg27 a27).win 0).index t (0 : Fin 2) * 8 + 8
      rw [e0]; omega
    | ⟨1, _⟩ => by
      show ((cfg27 a27).win 0).index t (1 : Fin 2) * 128 ≤ (i 1).val ∧ (i 1).val < ((cfg27 a27).win 0).index t (1 : Fin 2) * 128 + 128
      rw [e1]; omega
  exact (Finset.ext_iff.mp hs i).mpr (Rect.mem_set_unit.mpr key)

/-- THE COVER: row r of the array lies in the block of point r / 8, and that point writes its block back. -/
theorem coverG27 (i : S100000x128.Idx) :
    ∃ t : Fin (cfg27 a27).N, ((cfg27 a27).win 0).flush t = true ∧ i ∈ (((cfg27 a27).win 0).blk t).view.set := by
  have hi0 : (i 0).val < 100000 := (i 0).isLt
  have ht : (i 0).val / 8 < (cfg27 a27).N := lt_of_lt_of_eq (by omega : (i 0).val / 8 < 12500) N_27.symm
  exact ⟨⟨(i 0).val / 8, ht⟩, flushG27 a27 _, mem_blkG27 a27 ⟨(i 0).val / 8, ht⟩ i
    (by show 8 * ((i 0).val / 8) ≤ (i 0).val ∧ (i 0).val < 8 * ((i 0).val / 8) + 8; omega)⟩

/-- THE ARRAY after the region: its row r is the source's row  row r. -/
theorem finalG27
    (hblk : ∀ c (t : Fin (cfg27 a27).N) (j : Fin 8) (l : Fin 128) (h : 8 * t.val + j.val < 100000),
      gblk c t (ValueIdx.ix2 j l) = T c (ValueIdx.ix2 (row c ⟨8 * t.val + j.val, h⟩) l))
    (c : Dev nD) :
    (datG27 V a27 gblk c).arrAt 0 (cfg27 a27).N
      = fun i : S100000x128.Idx => T c (ValueIdx.ix2 (row c (i 0)) (i 1)) :=
  (datG27 V a27 gblk c).arrAt_eq_of_cover 0 (outG27 T row c)
    (fun t _ => flushedG27_eq V a27 gblk T row hblk c t) (coverG27 a27)

/-- THE ARRAY, when the row numbers are the words of an index table tblw, each below 50000: row r is the source's row
    at the node that word r names (a word below 50000 names the node of that number). -/
theorem finalG27_node (tblw : IVec S100000 32) (hlt : ∀ k : S100000.Idx, (tblw k).toNat < 50000)
    (hblk : ∀ c (t : Fin (cfg27 a27).N) (j : Fin 8) (l : Fin 128) (h : 8 * t.val + j.val < 100000),
      gblk c t (ValueIdx.ix2 j l)
        = T c (ValueIdx.ix2 (⟨(tblw (ValueIdx.ix1 (⟨8 * t.val + j.val, h⟩ : Fin 100000))).toNat, hlt _⟩ : Fin 50000) l))
    (c : Dev nD) :
    (datG27 V a27 gblk c).arrAt 0 (cfg27 a27).N
      = fun i : S100000x128.Idx => T c (ValueIdx.ix2 (Cert.Spec.node (tblw (ValueIdx.ix1 (i 0)))) (i 1)) :=
  (finalG27 V a27 gblk T (fun _ p => ⟨(tblw (ValueIdx.ix1 p)).toNat, hlt _⟩) hblk c).trans
    (funext fun i => congrArg (fun p : Fin 50000 => T c (ValueIdx.ix2 p (i 1))) (Cert.Spec.node_of_lt (hlt _)).symm)

end Cert.KernelIdeal.Hand

end
-- ==== Proof.KI.GatherAt27.lean ====
/-
  Region 27 in the run: what it leaves, in terms of what the program's items before it left.

  Between the program's items core c's buffers hold the chain's valuations. Region 27's index table, as the region's
  proof data hold it, is the closed table of the launch memory, and every word of it is below 50000 when every word
  of the edge list is. So the region's output array holds, in its row r, the row — of the array the region reads — at
  the node that the table's word r names; and the array it reads is left as it was, which is as the item before the
  table's host stretch left it. No later item writes the output array before the host stretch that concatenates the
  gather outputs, so at that stretch's entry it holds the same rows (gat27: stated for whatever the array read holds).
-/
import proofs.«402049_j87351044866139_2_alg».proof.Proof.KI.Chain
import proofs.«402049_j87351044866139_2_alg».proof.Proof.KI.Carry
import proofs.«402049_j87351044866139_2_alg».proof.Proof.KI.GatherVal27
import proofs.«402049_j87351044866139_2_alg».proof.Proof.KI.Tables

set_option maxRecDepth 16384

noncomputable section

namespace Cert.KernelIdeal.Hand

open Cert.KernelIdeal Cert.KernelIdeal.Gen Cert.KernelIdeal.GenP
open Idealize.ShloMosaic Idealize.ShloMosaic.TcCoe
open Idealize.SL.Sem

variable {F : FTy → Type} [FloatOps F]
variable (m : (ℓ : Loc nD τ sig) → Buf (Elt F) ℓ)

/-- The index table the region's proof data hold is the closed table of the launch memory: the data hold what the
    chain's valuation at the region's entry has in the table's buffer, and that valuation is the run's own. -/
theorem tblwU27 : tblw27 (a27 m) = tbl27 m c₀ := by
  have h1 : tblw27 (a27 m) = (U57 m c₀ main_v98 : IVec S100000 32) := by
    unfold a27
    rfl
  have h2 : ∀ W : Valuation τ sig (Elt F), V57 m (outsU m) c₀ = W → (W main_v98 : IVec S100000 32) = tbl27 m c₀ :=
    fun W hW => by subst hW; exact tbl27_eq m (outsU m) c₀
  exact h1.trans (h2 (U57 m c₀) (V57_eq m c₀))

/-- The array the region reads, at the region's entry, is as the item before the table's host stretch left it. -/
theorem gin27 (c : Dev nD) : atTc (U57 m) c main_v89 = V56 m (outsU m) c main_v89 :=
  (congrFun (V57_eq m c) main_v89).symm.trans (V57_of m (outsU m) c main_v89 (by decide))

/-- THE ARRAY THE REGION READS is left as it was. -/
theorem gsrc27 (c : Dev nD) : V58 m (outsU m) c main_v89 = V56 m (outsU m) c main_v89 :=
  (congrFun (V58_eq m c) main_v89).trans ((U58_hbm m c).trans (gin27 m c))

/-- THE REGION'S OUTPUT: its row r is the row, of the array the region reads, at the node the table's word r names. -/
theorem g27_val (c : Dev nD) (hm : ∀ i : S2x800000.Idx, ((V0 m c main_arg1 : IVec S2x800000 32) i).toNat < 50000) :
    (V58 m (outsU m) c main_v99 : S100000x128.Idx → Elt F .f32)
      = fun i => (V56 m (outsU m) c main_v89 : S50000x128.Idx → Elt F .f32)
          (ValueIdx.ix2 (Cert.Spec.node (tbl27 m c (ValueIdx.ix1 (i 0)))) (i 1)) := by
  obtain rfl : c = c₀ := eq_c₀ c
  have hlt : ∀ k : S100000.Idx, (tblw27 (a27 m) k).toNat < 50000 := fun k => by
    rw [tblwU27]; exact tbl27_lt m c₀ hm k
  refine (congrFun (V58_eq m c₀) main_v99).trans ((U58_out m c₀).trans ?_)
  refine (finalG27_node (atTc (U57 m)) (a27 m) (gblk27 (atTc (U57 m)) (a27 m)) (fun c => V56 m (outsU m) c main_v89)
      (tblw27 (a27 m)) hlt
      (fun c t j l _ => (gblk27_apply (atTc (U57 m)) (a27 m) hlt c t j l).trans (congrFun (gin27 m c) _)) c₀).trans ?_
  rw [tblwU27]
  rfl

/-- THE REGION'S OUTPUT WHERE IT IS READ, at the entry of the host stretch that concatenates the gather outputs: the
    rows of T at the nodes the table names, when the array the region reads holds T. -/
theorem gat27 (c : Dev nD) (hm : ∀ i : S2x800000.Idx, ((V0 m c main_arg1 : IVec S2x800000 32) i).toNat < 50000)
    (T : S50000x128.Idx → Elt F .f32) (hT : V56 m (outsU m) c main_v89 = T) :
    (V64 m (outsU m) c main_v99 : S100000x128.Idx → Elt F .f32)
      = fun i => T (ValueIdx.ix2 (Cert.Spec.node (tbl27 m c (ValueIdx.ix1 (i 0)))) (i 1)) := by
  subst hT
  exact (carry27 m (outsU m) c).trans (g27_val m c hm)

end Cert.KernelIdeal.Hand

end
-- ==== Proof.KI.GatherVal28.lean ====
/-
  The value of the row-gather region 28: the array its output window leaves.

  At grid point t the region's output block holds, in its row j, the source's row  row (8 t + j).  The block sits at
  block index (t, 0) of the 100000 x 128 output array: it covers the rows 8 t … 8 t + 7 and all 128 columns. Every point
  writes its block back (the block index moves at every step), and row r of the array lies in the block of point r / 8,
  at the block's row r % 8. So the array ends with its row r equal to the source's row  row r,  for every r.

  The gathered block is taken abstractly here: any family of blocks that reads as above (the hypothesis of
  flushedG28_eq and finalG28) gives the array. When the row numbers are the words of an index table, each below 50000,
  row r of the array is the source's row at the node the table's word r names (finalG28_node).
-/
import proofs.«402049_j87351044866139_2_alg».proof.Proof.KI.Gather28
import proofs.«402049_j87351044866139_2_alg».proof.Proof.Spec
import Idealize.ShloMosaic.Lib.Pipeline.Value
import Idealize.ShloMosaic.Lib.ValueIdx

set_option maxRecDepth 16384

noncomputable section

namespace Cert.KernelIdeal.Hand

open Idealize.ShloMosaic Idealize.ShloMosaic.TcCoe
open Idealize.SL.Sem
open Idealize.ShloMosaic.Pipeline (Dat Cfg Window)
open Cert.KernelIdeal Cert.KernelIdeal.Gen

variable {F : FTy → Type} [FloatOps F]

variable (V : (c : Dev nD) → (b : Ref sig .tc) → Buf (Elt F) ((c : Thread nD τ).loc b))
variable (a28 : (pcfg28 (F := F)).Adm)
variable (gblk : (c : Dev nD) → Fin (cfg28 a28).N → S8x128.Idx → Elt F .f32)

/-! ## The grid and the output window's schedule -/

/-- The region's grid has 12500 points. -/
theorem ptsG28 (t : Fin (cfg28 a28).N) : t.val < 12500 := lt_of_lt_of_eq t.isLt N_28

/-- The grid has one axis, so point t has coordinate t. -/
theorem coordG28 (t : Fin (cfg28 a28).N) : (((cfg28 a28).grid.coords t) (0 : Fin 1)).val = t.val := by
  have hN := ptsG28 a28 t
  show t.val / (cfg28 a28).grid.stride (0 : Fin 1) % 12500 = t.val
  rw [show (cfg28 a28).grid.stride (0 : Fin 1) = 1 from rfl, Nat.div_one, Nat.mod_eq_of_lt hN]

/-- The output window's block index at point t is (t, 0). -/
theorem indexG28 (t : Fin (cfg28 a28).N) :
    ((cfg28 a28).win 0).index t (0 : Fin 2) = t.val ∧ ((cfg28 a28).win 0).index t (1 : Fin 2) = 0 := by
  have hN := ptsG28 a28 t
  refine ⟨?_, rfl⟩
  show (BitVec.ofNat 32 (((cfg28 a28).grid.coords t) (0 : Fin 1)).val).toNat = t.val
  rw [coordG28, BitVec.toNat_ofNat]
  exact Nat.mod_eq_of_lt (by omega)

/-- The block index moves at every step, so every point writes its block back. -/
theorem flushG28 (t : Fin (cfg28 a28).N) : ((cfg28 a28).win 0).flush t = true := by
  rw [Pipeline.Window.flush_out _ rfl]
  have ht : t.val < (cfg28 a28).grid.N := t.isLt
  by_cases h : t.val + 1 < (cfg28 a28).grid.N
  · refine .inr ⟨h, fun e => ?_⟩
    have e0 : ((cfg28 a28).win 0).index ⟨t.val + 1, h⟩ (0 : Fin 2) = ((cfg28 a28).win 0).index t (0 : Fin 2) :=
      congrFun e (0 : Fin 2)
    have e1 : ((cfg28 a28).win 0).index ⟨t.val + 1, h⟩ (0 : Fin 2) = t.val + 1 := (indexG28 a28 ⟨t.val + 1, h⟩).1
    have e2 : ((cfg28 a28).win 0).index t (0 : Fin 2) = t.val := (indexG28 a28 t).1
    omega
  · exact .inl (by omega)

/-! ## What a point writes back, and the array -/

variable (T : (c : Dev nD) → S50000x128.Idx → Elt F .f32) (row : (c : Dev nD) → Fin 100000 → Fin 50000)

/-- The array the region leaves on core c: its row r is the source's row  row r. -/
abbrev outG28 (c : Dev nD) : S100000x128.Idx → Elt F .f32 := fun i => T c (ValueIdx.ix2 (row c (i 0)) (i 1))

/-- One element of the block at point t is the array's element 8 t rows further down, in the same column. -/
theorem blockG28_apply
    (hblk : ∀ c (t : Fin (cfg28 a28).N) (j : Fin 8) (l : Fin 128) (h : 8 * t.val + j.val < 100000),
      gblk c t (ValueIdx.ix2 j l) = T c (ValueIdx.ix2 (row c ⟨8 * t.val + j.val, h⟩) l))
    (c : Dev nD) (t : Fin (cfg28 a28).N) (y : S8x128.Idx) (k : S100000x128.Idx)
    (hk0 : (k 0).val = 8 * t.val + (y 0).val) (hk1 : (k 1).val = (y 1).val) :
    gblk c t y = outG28 T row c k := by
  have hy0 : (y 0).val < 8 := (y 0).isLt
  have hN := ptsG28 a28 t
  have hb : 8 * t.val + (y 0).val < 100000 := by omega
  have h0 : (⟨8 * t.val + (y 0).val, hb⟩ : Fin 100000) = k 0 := Fin.ext hk0.symm
  have h1 : (y 1 : Fin 128) = k 1 := Fin.ext hk1.symm
  calc gblk c t y = gblk c t (ValueIdx.ix2 (y 0) (y 1)) := congrArg (gblk c t) (ValueIdx.eq_ix2 y)
    _ = T c (ValueIdx.ix2 (row c ⟨8 * t.val + (y 0).val, hb⟩) (y 1)) := hblk c t (y 0) (y 1) hb
    _ = outG28 T row c k := congrArg₂ (fun (p : Fin 100000) (l : Fin 128) => T c (ValueIdx.ix2 (row c p) l)) h0 h1

/-- WHAT POINT t WRITES BACK is block t of that array. -/
theorem flushedG28_eq
    (hblk : ∀ c (t : Fin (cfg28 a28).N) (j : Fin 8) (l : Fin 128) (h : 8 * t.val + j.val < 100000),
      gblk c t (ValueIdx.ix2 j l) = T c (ValueIdx.ix2 (row c ⟨8 * t.val + j.val, h⟩) l))
    (c : Dev nD) (t : Fin (cfg28 a28).N) :
    (datG28 V a28 gblk c).flushed 0 t = (((cfg28 a28).win 0).blk t).view.read (Elt F) (outG28 T row c) := by
  obtain ⟨e0, e1⟩ := indexG28 a28 t
  have key : ∀ y : S8x128.Idx, gblk c t y = outG28 T row c ((((cfg28 a28).win 0).blk t).view.emb y) := fun y =>
    blockG28_apply a28 gblk T row hblk c t y _
      (by show ((cfg28 a28).win 0).index t (0 : Fin 2) * 8 + 1 * (y 0).val = 8 * t.val + (y 0).val
          rw [e0]; omega)
      (by show ((cfg28 a28).win 0).index t (1 : Fin 2) * 128 + 1 * (y 1).val = (y 1).val
          rw [e1]; omega)
  exact funext key

/-- An index of the array whose row is among the rows 8 t … 8 t + 7 is in point t's block. -/
theorem mem_blkG28 (t : Fin (cfg28 a28).N) (i : S100000x128.Idx)
    (hi : 8 * t.val ≤ (i 0).val ∧ (i 0).val < 8 * t.val + 8) : i ∈ (((cfg28 a28).win 0).blk t).view.set := by
  obtain ⟨e0, e1⟩ := indexG28 a28 t
  have hi1 : (i 1).val < 128 := (i 1).isLt
  have hs : (((cfg28 a28).win 0).blk t).view.set = (((cfg28 a28).win 0).rect t).set :=
    View.set_slice_whole main_v101 (((cfg28 a28).win 0).rect t)
  have key : ∀ a : Fin 2, ((cfg28 a28).win 0).index t a * S8x128.size a ≤ (i a).val
      ∧ (i a).val < ((cfg28 a28).win 0).index t a * S8x128.size a + S8x128.size a := fun a =>
    match a with
    | ⟨0, _⟩ => by
      show ((cfg28 a28).win 0).index t (0 : Fin 2) * 8 ≤ (i 0).val ∧ (i 0).val < ((cfg28 a28).win 0).index t (0 : Fin 2) * 8 + 8
      rw [e0]; omega
    | ⟨1, _⟩ => by
      show ((cfg28 a28).win 0).index t (1 : Fin 2) * 128 ≤ (i 1).val ∧ (i 1).val < ((cfg28 a28).win 0).index t (1 : Fin 2) * 128 + 128
      rw [e1]; omega
  exact (Finset.ext_iff.mp hs i).mpr (Rect.mem_set_unit.mpr key)

/-- THE COVER: row r of the array lies in the block of point r / 8, and that point writes its block back. -/
theorem coverG28 (i : S100000x128.Idx) :
    ∃ t : Fin (cfg28 a28).N, ((cfg28 a28).win 0).flush t = true ∧ i ∈ (((cfg28 a28).win 0).blk t).view.set := by
  have hi0 : (i 0).val < 100000 := (i 0).isLt
  have ht : (i 0).val / 8 < (cfg28 a28).N := lt_of_lt_of_eq (by omega : (i 0).val / 8 < 12500) N_28.symm
  exact ⟨⟨(i 0).val / 8, ht⟩, flushG28 a28 _, mem_blkG28 a28 ⟨(i 0).val / 8, ht⟩ i
    (by show 8 * ((i 0).val / 8) ≤ (i 0).val ∧ (i 0).val < 8 * ((i 0).val / 8) + 8; omega)⟩

/-- THE ARRAY after the region: its row r is the source's row  row r. -/
theorem finalG28
    (hblk : ∀ c (t : Fin (cfg28 a28).N) (j : Fin 8) (l : Fin 128) (h : 8 * t.val + j.val < 100000),
      gblk c t (ValueIdx.ix2 j l) = T c (ValueIdx.ix2 (row c ⟨8 * t.val + j.val, h⟩) l))
    (c : Dev nD) :
    (datG28 V a28 gblk c).arrAt 0 (cfg28 a28).N
      = fun i : S100000x128.Idx => T c (ValueIdx.ix2 (row c (i 0)) (i 1)) :=
  (datG28 V a28 gblk c).arrAt_eq_of_cover 0 (outG28 T row c)
    (fun t _ => flushedG28_eq V a28 gblk T row hblk c t) (coverG28 a28)

/-- THE ARRAY, when the row numbers are the words of an index table tblw, each below 50000: row r is the source's row
    at the node that word r names (a word below 50000 names the node of that number). -/
theorem finalG28_node (tblw : IVec S100000 32) (hlt : ∀ k : S100000.Idx, (tblw k).toNat < 50000)
    (hblk : ∀ c (t : Fin (cfg28 a28).N) (j : Fin 8) (l : Fin 128) (h : 8 * t.val + j.val < 100000),
      gblk c t (ValueIdx.ix2 j l)
        = T c (ValueIdx.ix2 (⟨(tblw (ValueIdx.ix1 (⟨8 * t.val + j.val, h⟩ : Fin 100000))).toNat, hlt _⟩ : Fin 50000) l))
    (c : Dev nD) :
    (datG28 V a28 gblk c).arrAt 0 (cfg28 a28).N
      = fun i : S100000x128.Idx => T c (ValueIdx.ix2 (Cert.Spec.node (tblw (ValueIdx.ix1 (i 0)))) (i 1)) :=
  (finalG28 V a28 gblk T (fun _ p => ⟨(tblw (ValueIdx.ix1 p)).toNat, hlt _⟩) hblk c).trans
    (funext fun i => congrArg (fun p : Fin 50000 => T c (ValueIdx.ix2 p (i 1))) (Cert.Spec.node_of_lt (hlt _)).symm)

end Cert.KernelIdeal.Hand

end
-- ==== Proof.KI.GatherAt28.lean ====
/-
  Region 28 in the run: what it leaves, in terms of what the program's items before it left.

  Between the program's items core c's buffers hold the chain's valuations. Region 28's index table, as the region's
  proof data hold it, is the closed table of the launch memory, and every word of it is below 50000 when every word
  of the edge list is. So the region's output array holds, in its row r, the row — of the array the region reads — at
  the node that the table's word r names; and the array it reads is left as it was, which is as the item before the
  table's host stretch left it. No later item writes the output array before the host stretch that concatenates the
  gather outputs, so at that stretch's entry it holds the same rows (gat28: stated for whatever the array read holds).
-/
import proofs.«402049_j87351044866139_2_alg».proof.Proof.KI.Chain
import proofs.«402049_j87351044866139_2_alg».proof.Proof.KI.Carry
import proofs.«402049_j87351044866139_2_alg».proof.Proof.KI.GatherVal28
import proofs.«402049_j87351044866139_2_alg».proof.Proof.KI.Tables

set_option maxRecDepth 16384

noncomputable section

namespace Cert.KernelIdeal.Hand

open Cert.KernelIdeal Cert.KernelIdeal.Gen Cert.KernelIdeal.GenP
open Idealize.ShloMosaic Idealize.ShloMosaic.TcCoe
open Idealize.SL.Sem

variable {F : FTy → Type} [FloatOps F]
variable (m : (ℓ : Loc nD τ sig) → Buf (Elt F) ℓ)

/-- The index table the region's proof data hold is the closed table of the launch memory: the data hold what the
    chain's valuation at the region's entry has in the table's buffer, and that valuation is the run's own. -/
theorem tblwU28 : tblw28 (a28 m) = tbl28 m c₀ := by
  have h1 : tblw28 (a28 m) = (U59 m c₀ main_v100 : IVec S100000 32) := by
    unfold a28
    rfl
  have h2 : ∀ W : Valuation τ sig (Elt F), V59 m (outsU m) c₀ = W → (W main_v100 : IVec S100000 32) = tbl28 m c₀ :=
    fun W hW => by subst hW; exact tbl28_eq m (outsU m) c₀
  exact h1.trans (h2 (U59 m c₀) (V59_eq m c₀))

/-- The array the region reads, at the region's entry, is as the item before the table's host stretch left it. -/
theorem gin28 (c : Dev nD) : atTc (U59 m) c main_v89 = V58 m (outsU m) c main_v89 :=
  (congrFun (V59_eq m c) main_v89).symm.trans (V59_of m (outsU m) c main_v89 (by decide))

/-- THE ARRAY THE REGION READS is left as it was. -/
theorem gsrc28 (c : Dev nD) : V60 m (outsU m) c main_v89 = V58 m (outsU m) c main_v89 :=
  (congrFun (V60_eq m c) main_v89).trans ((U60_hbm m c).trans (gin28 m c))

/-- THE REGION'S OUTPUT: its row r is the row, of the array the region reads, at the node the table's word r names. -/
theorem g28_val (c : Dev nD) (hm : ∀ i : S2x800000.Idx, ((V0 m c main_arg1 : IVec S2x800000 32) i).toNat < 50000) :
    (V60 m (outsU m) c main_v101 : S100000x128.Idx → Elt F .f32)
      = fun i => (V58 m (outsU m) c main_v89 : S50000x128.Idx → Elt F .f32)
          (ValueIdx.ix2 (Cert.Spec.node (tbl28 m c (ValueIdx.ix1 (i 0)))) (i 1)) := by
  obtain rfl : c = c₀ := eq_c₀ c
  have hlt : ∀ k : S100000.Idx, (tblw28 (a28 m) k).toNat < 50000 := fun k => by
    rw [tblwU28]; exact tbl28_lt m c₀ hm k
  refine (congrFun (V60_eq m c₀) main_v101).trans ((U60_out m c₀).trans ?_)
  refine (finalG28_node (atTc (U59 m)) (a28 m) (gblk28 (atTc (U59 m)) (a28 m)) (fun c => V58 m (outsU m) c main_v89)
      (tblw28 (a28 m)) hlt
      (fun c t j l _ => (gblk28_apply (atTc (U59 m)) (a28 m) hlt c t j l).trans (congrFun (gin28 m c) _)) c₀).trans ?_
  rw [tblwU28]
  rfl

/-- THE REGION'S OUTPUT WHERE IT IS READ, at the entry of the host stretch that concatenates the gather outputs: the
    rows of T at the nodes the table names, when the array the region reads holds T. -/
theorem gat28 (c : Dev nD) (hm : ∀ i : S2x800000.Idx, ((V0 m c main_arg1 : IVec S2x800000 32) i).toNat < 50000)
    (T : S50000x128.Idx → Elt F .f32) (hT : V58 m (outsU m) c main_v89 = T) :
    (V64 m (outsU m) c main_v101 : S100000x128.Idx → Elt F .f32)
      = fun i => T (ValueIdx.ix2 (Cert.Spec.node (tbl28 m c (ValueIdx.ix1 (i 0)))) (i 1)) := by
  subst hT
  exact (carry28 m (outsU m) c).trans (g28_val m c hm)

end Cert.KernelIdeal.Hand

end
-- ==== Proof.KI.GatherVal29.lean ====
/-
  The value of the row-gather region 29: the array its output window leaves.

  At grid point t the region's output block holds, in its row j, the source's row  row (8 t + j).  The block sits at
  block index (t, 0) of the 100000 x 128 output array: it covers the rows 8 t … 8 t + 7 and all 128 columns. Every point
  writes its block back (the block index moves at every step), and row r of the array lies in the block of point r / 8,
  at the block's row r % 8. So the array ends with its row r equal to the source's row  row r,  for every r.

  The gathered block is taken abstractly here: any family of blocks that reads as above (the hypothesis of
  flushedG29_eq and finalG29) gives the array. When the row numbers are the words of an index table, each below 50000,
  row r of the array is the source's row at the node the table's word r names (finalG29_node).
-/
import proofs.«402049_j87351044866139_2_alg».proof.Proof.KI.Gather29
import proofs.«402049_j87351044866139_2_alg».proof.Proof.Spec
import Idealize.ShloMosaic.Lib.Pipeline.Value
import Idealize.ShloMosaic.Lib.ValueIdx

set_option maxRecDepth 16384

noncomputable section

namespace Cert.KernelIdeal.Hand

open Idealize.ShloMosaic Idealize.ShloMosaic.TcCoe
open Idealize.SL.Sem
open Idealize.ShloMosaic.Pipeline (Dat Cfg Window)
open Cert.KernelIdeal Cert.KernelIdeal.Gen

variable {F : FTy → Type} [FloatOps F]

variable (V : (c : Dev nD) → (b : Ref sig .tc) → Buf (Elt F) ((c : Thread nD τ).loc b))
variable (a29 : (pcfg29 (F := F)).Adm)
variable (gblk : (c : Dev nD) → Fin (cfg29 a29).N → S8x128.Idx → Elt F .f32)

/-! ## The grid and the output window's schedule -/

/-- The region's grid has 12500 points. -/
theorem ptsG29 (t : Fin (cfg29 a29).N) : t.val < 12500 := lt_of_lt_of_eq t.isLt N_29

/-- The grid has one axis, so point t has coordinate t. -/
theorem coordG29 (t : Fin (cfg29 a29).N) : (((cfg29 a29).grid.coords t) (0 : Fin 1)).val = t.val := by
  have hN := ptsG29 a29 t
  show t.val / (cfg29 a29).grid.stride (0 : Fin 1) % 12500 = t.val
  rw [show (cfg29 a29).grid.stride (0 : Fin 1) = 1 from rfl, Nat.div_one, Nat.mod_eq_of_lt hN]

/-- The output window's block index at point t is (t, 0). -/
theorem indexG29 (t : Fin (cfg29 a29).N) :
    ((cfg29 a29).win 0).index t (0 : Fin 2) = t.val ∧ ((cfg29 a29).win 0).index t (1 : Fin 2) = 0 := by
  have hN := ptsG29 a29 t
  refine ⟨?_, rfl⟩
  show (BitVec.ofNat 32 (((cfg29 a29).grid.coords t) (0 : Fin 1)).val).toNat = t.val
  rw [coordG29, BitVec.toNat_ofNat]
  exact Nat.mod_eq_of_lt (by omega)

/-- The block index moves at every step, so every point writes its block back. -/
theorem flushG29 (t : Fin (cfg29 a29).N) : ((cfg29 a29).win 0).flush t = true := by
  rw [Pipeline.Window.flush_out _ rfl]
  have ht : t.val < (cfg29 a29).grid.N := t.isLt
  by_cases h : t.val + 1 < (cfg29 a29).grid.N
  · refine .inr ⟨h, fun e => ?_⟩
    have e0 : ((cfg29 a29).win 0).index ⟨t.val + 1, h⟩ (0 : Fin 2) = ((cfg29 a29).win 0).index t (0 : Fin 2) :=
      congrFun e (0 : Fin 2)
    have e1 : ((cfg29 a29).win 0).index ⟨t.val + 1, h⟩ (0 : Fin 2) = t.val + 1 := (indexG29 a29 ⟨t.val + 1, h⟩).1
    have e2 : ((cfg29 a29).win 0).index t (0 : Fin 2) = t.val := (indexG29 a29 t).1
    omega
  · exact .inl (by omega)

/-! ## What a point writes back, and the array -/

variable (T : (c : Dev nD) → S50000x128.Idx → Elt F .f32) (row : (c : Dev nD) → Fin 100000 → Fin 50000)

/-- The array the region leaves on core c: its row r is the source's row  row r. -/
abbrev outG29 (c : Dev nD) : S100000x128.Idx → Elt F .f32 := fun i => T c (ValueIdx.ix2 (row c (i 0)) (i 1))

/-- One element of the block at point t is the array's element 8 t rows further down, in the same column. -/
theorem blockG29_apply
    (hblk : ∀ c (t : Fin (cfg29 a29).N) (j : Fin 8) (l : Fin 128) (h : 8 * t.val + j.val < 100000),
      gblk c t (ValueIdx.ix2 j l) = T c (ValueIdx.ix2 (row c ⟨8 * t.val + j.val, h⟩) l))
    (c : Dev nD) (t : Fin (cfg29 a29).N) (y : S8x128.Idx) (k : S100000x128.Idx)
    (hk0 : (k 0).val = 8 * t.val + (y 0).val) (hk1 : (k 1).val = (y 1).val) :
    gblk c t y = outG29 T row c k := by
  have hy0 : (y 0).val < 8 := (y 0).isLt
  have hN := ptsG29 a29 t
  have hb : 8 * t.val + (y 0).val < 100000 := by omega
  have h0 : (⟨8 * t.val + (y 0).val, hb⟩ : Fin 100000) = k 0 := Fin.ext hk0.symm
  have h1 : (y 1 : Fin 128) = k 1 := Fin.ext hk1.symm
  calc gblk c t y = gblk c t (ValueIdx.ix2 (y 0) (y 1)) := congrArg (gblk c t) (ValueIdx.eq_ix2 y)
    _ = T c (ValueIdx.ix2 (row c ⟨8 * t.val + (y 0).val, hb⟩) (y 1)) := hblk c t (y 0) (y 1) hb
    _ = outG29 T row c k := congrArg₂ (fun (p : Fin 100000) (l : Fin 128) => T c (ValueIdx.ix2 (row c p) l)) h0 h1

/-- WHAT POINT t WRITES BACK is block t of that array. -/
theorem flushedG29_eq
    (hblk : ∀ c (t : Fin (cfg29 a29).N) (j : Fin 8) (l : Fin 128) (h : 8 * t.val + j.val < 100000),
      gblk c t (ValueIdx.ix2 j l) = T c (ValueIdx.ix2 (row c ⟨8 * t.val + j.val, h⟩) l))
    (c : Dev nD) (t : Fin (cfg29 a29).N) :
    (datG29 V a29 gblk c).flushed 0 t = (((cfg29 a29).win 0).blk t).view.read (Elt F) (outG29 T row c) := by
  obtain ⟨e0, e1⟩ := indexG29 a29 t
  have key : ∀ y : S8x128.Idx, gblk c t y = outG29 T row c ((((cfg29 a29).win 0).blk t).view.emb y) := fun y =>
    blockG29_apply a29 gblk T row hblk c t y _
      (by show ((cfg29 a29).win 0).index t (0 : Fin 2) * 8 + 1 * (y 0).val = 8 * t.val + (y 0).val
          rw [e0]; omega)
      (by show ((cfg29 a29).win 0).index t (1 : Fin 2) * 128 + 1 * (y 1).val = (y 1).val
          rw [e1]; omega)
  exact funext key

/-- An index of the array whose row is among the rows 8 t … 8 t + 7 is in point t's block. -/
theorem mem_blkG29 (t : Fin (cfg29 a29).N) (i : S100000x128.Idx)
    (hi : 8 * t.val ≤ (i 0).val ∧ (i 0).val < 8 * t.val + 8) : i ∈ (((cfg29 a29).win 0).blk t).view.set := by
  obtain ⟨e0, e1⟩ := indexG29 a29 t
  have hi1 : (i 1).val < 128 := (i 1).isLt
  have hs : (((cfg29 a29).win 0).blk t).view.set = (((cfg29 a29).win 0).rect t).set :=
    View.set_slice_whole main_v103 (((cfg29 a29).win 0).rect t)
  have key : ∀ a : Fin 2, ((cfg29 a29).win 0).index t a * S8x128.size a ≤ (i a).val
      ∧ (i a).val < ((cfg29 a29).win 0).index t a * S8x128.size a + S8x128.size a := fun a =>
    match a with
    | ⟨0, _⟩ => by
      show ((cfg29 a29).win 0).index t (0 : Fin 2) * 8 ≤ (i 0).val ∧ (i 0).val < ((cfg29 a29).win 0).index t (0 : Fin 2) * 8 + 8
      rw [e0]; omega
    | ⟨1, _⟩ => by
      show ((cfg29 a29).win 0).index t (1 : Fin 2) * 128 ≤ (i 1).val ∧ (i 1).val < ((cfg29 a29).win 0).index t (1 : Fin 2) * 128 + 128
      rw [e1]; omega
  exact (Finset.ext_iff.mp hs i).mpr (Rect.mem_set_unit.mpr key)

/-- THE COVER: row r of the array lies in the block of point r / 8, and that point writes its block back. -/
theorem coverG29 (i : S100000x128.Idx) :
    ∃ t : Fin (cfg29 a29).N, ((cfg29 a29).win 0).flush t = true ∧ i ∈ (((cfg29 a29).win 0).blk t).view.set := by
  have hi0 : (i 0).val < 100000 := (i 0).isLt
  have ht : (i 0).val / 8 < (cfg29 a29).N := lt_of_lt_of_eq (by omega : (i 0).val / 8 < 12500) N_29.symm
  exact ⟨⟨(i 0).val / 8, ht⟩, flushG29 a29 _, mem_blkG29 a29 ⟨(i 0).val / 8, ht⟩ i
    (by show 8 * ((i 0).val / 8) ≤ (i 0).val ∧ (i 0).val < 8 * ((i 0).val / 8) + 8; omega)⟩

/-- THE ARRAY after the region: its row r is the source's row  row r. -/
theorem finalG29
    (hblk : ∀ c (t : Fin (cfg29 a29).N) (j : Fin 8) (l : Fin 128) (h : 8 * t.val + j.val < 100000),
      gblk c t (ValueIdx.ix2 j l) = T c (ValueIdx.ix2 (row c ⟨8 * t.val + j.val, h⟩) l))
    (c : Dev nD) :
    (datG29 V a29 gblk c).arrAt 0 (cfg29 a29).N
      = fun i : S100000x128.Idx => T c (ValueIdx.ix2 (row c (i 0)) (i 1)) :=
  (datG29 V a29 gblk c).arrAt_eq_of_cover 0 (outG29 T row c)
    (fun t _ => flushedG29_eq V a29 gblk T row hblk c t) (coverG29 a29)

/-- THE ARRAY, when the row numbers are the words of an index table tblw, each below 50000: row r is the source's row
    at the node that word r names (a word below 50000 names the node of that number). -/
theorem finalG29_node (tblw : IVec S100000 32) (hlt : ∀ k : S100000.Idx, (tblw k).toNat < 50000)
    (hblk : ∀ c (t : Fin (cfg29 a29).N) (j : Fin 8) (l : Fin 128) (h : 8 * t.val + j.val < 100000),
      gblk c t (ValueIdx.ix2 j l)
        = T c (ValueIdx.ix2 (⟨(tblw (ValueIdx.ix1 (⟨8 * t.val + j.val, h⟩ : Fin 100000))).toNat, hlt _⟩ : Fin 50000) l))
    (c : Dev nD) :
    (datG29 V a29 gblk c).arrAt 0 (cfg29 a29).N
      = fun i : S100000x128.Idx => T c (ValueIdx.ix2 (Cert.Spec.node (tblw (ValueIdx.ix1 (i 0)))) (i 1)) :=
  (finalG29 V a29 gblk T (fun _ p => ⟨(tblw (ValueIdx.ix1 p)).toNat, hlt _⟩) hblk c).trans
    (funext fun i => congrArg (fun p : Fin 50000 => T c (ValueIdx.ix2 p (i 1))) (Cert.Spec.node_of_lt (hlt _)).symm)

end Cert.KernelIdeal.Hand

end
-- ==== Proof.KI.GatherAt29.lean ====
/-
  Region 29 in the run: what it leaves, in terms of what the program's items before it left.

  Between the program's items core c's buffers hold the chain's valuations. Region 29's index table, as the region's
  proof data hold it, is the closed table of the launch memory, and every word of it is below 50000 when every word
  of the edge list is. So the region's output array holds, in its row r, the row — of the array the region reads — at
  the node that the table's word r names; and the array it reads is left as it was, which is as the item before the
  table's host stretch left it. No later item writes the output array before the host stretch that concatenates the
  gather outputs, so at that stretch's entry it holds the same rows (gat29: stated for whatever the array read holds).
-/
import proofs.«402049_j87351044866139_2_alg».proof.Proof.KI.Chain
import proofs.«402049_j87351044866139_2_alg».proof.Proof.KI.Carry
import proofs.«402049_j87351044866139_2_alg».proof.Proof.KI.GatherVal29
import proofs.«402049_j87351044866139_2_alg».proof.Proof.KI.Tables

set_option maxRecDepth 16384

noncomputable section

namespace Cert.KernelIdeal.Hand

open Cert.KernelIdeal Cert.KernelIdeal.Gen Cert.KernelIdeal.GenP
open Idealize.ShloMosaic Idealize.ShloMosaic.TcCoe
open Idealize.SL.Sem

variable {F : FTy → Type} [FloatOps F]
variable (m : (ℓ : Loc nD τ sig) → Buf (Elt F) ℓ)

/-- The index table the region's proof data hold is the closed table of the launch memory: the data hold what the
    chain's valuation at the region's entry has in the table's buffer, and that valuation is the run's own. -/
theorem tblwU29 : tblw29 (a29 m) = tbl29 m c₀ := by
  have h1 : tblw29 (a29 m) = (U61 m c₀ main_v102 : IVec S100000 32) := by
    unfold a29
    rfl
  have h2 : ∀ W : Valuation τ sig (Elt F), V61 m (outsU m) c₀ = W → (W main_v102 : IVec S100000 32) = tbl29 m c₀ :=
    fun W hW => by subst hW; exact tbl29_eq m (outsU m) c₀
  exact h1.trans (h2 (U61 m c₀) (V61_eq m c₀))

/-- The array the region reads, at the region's entry, is as the item before the table's host stretch left it. -/
theorem gin29 (c : Dev nD) : atTc (U61 m) c main_v89 = V60 m (outsU m) c main_v89 :=
  (congrFun (V61_eq m c) main_v89).symm.trans (V61_of m (outsU m) c main_v89 (by decide))

/-- THE ARRAY THE REGION READS is left as it was. -/
theorem gsrc29 (c : Dev nD) : V62 m (outsU m) c main_v89 = V60 m (outsU m) c main_v89 :=
  (congrFun (V62_eq m c) main_v89).trans ((U62_hbm m c).trans (gin29 m c))

/-- THE REGION'S OUTPUT: its row r is the row, of the array the region reads, at the node the table's word r names. -/
theorem g29_val (c : Dev nD) (hm : ∀ i : S2x800000.Idx, ((V0 m c main_arg1 : IVec S2x800000 32) i).toNat < 50000) :
    (V62 m (outsU m) c main_v103 : S100000x128.Idx → Elt F .f32)
      = fun i => (V60 m (outsU m) c main_v89 : S50000x128.Idx → Elt F .f32)
          (ValueIdx.ix2 (Cert.Spec.node (tbl29 m c (ValueIdx.ix1 (i 0)))) (i 1)) := by
  obtain rfl : c = c₀ := eq_c₀ c
  have hlt : ∀ k : S100000.Idx, (tblw29 (a29 m) k).toNat < 50000 := fun k => by
    rw [tblwU29]; exact tbl29_lt m c₀ hm k
  refine (congrFun (V62_eq m c₀) main_v103).trans ((U62_out m c₀).trans ?_)
  refine (finalG29_node (atTc (U61 m)) (a29 m) (gblk29 (atTc (U61 m)) (a29 m)) (fun c => V60 m (outsU m) c main_v89)
      (tblw29 (a29 m)) hlt
      (fun c t j l _ => (gblk29_apply (atTc (U61 m)) (a29 m) hlt c t j l).trans (congrFun (gin29 m c) _)) c₀).trans ?_
  rw [tblwU29]
  rfl

/-- THE REGION'S OUTPUT WHERE IT IS READ, at the entry of the host stretch that concatenates the gather outputs: the
    rows of T at the nodes the table names, when the array the region reads holds T. -/
theorem gat29 (c : Dev nD) (hm : ∀ i : S2x800000.Idx, ((V0 m c main_arg1 : IVec S2x800000 32) i).toNat < 50000)
    (T : S50000x128.Idx → Elt F .f32) (hT : V60 m (outsU m) c main_v89 = T) :
    (V64 m (outsU m) c main_v103 : S100000x128.Idx → Elt F .f32)
      = fun i => T (ValueIdx.ix2 (Cert.Spec.node (tbl29 m c (ValueIdx.ix1 (i 0)))) (i 1)) := by
  subst hT
  exact (carry29 m (outsU m) c).trans (g29_val m c hm)

end Cert.KernelIdeal.Hand

end
-- ==== Proof.KI.GatherVal30.lean ====
/-
  The value of the row-gather region 30: the array its output window leaves.

  At grid point t the region's output block holds, in its row j, the source's row  row (8 t + j).  The block sits at
  block index (t, 0) of the 100000 x 128 output array: it covers the rows 8 t … 8 t + 7 and all 128 columns. Every point
  writes its block back (the block index moves at every step), and row r of the array lies in the block of point r / 8,
  at the block's row r % 8. So the array ends with its row r equal to the source's row  row r,  for every r.

  The gathered block is taken abstractly here: any family of blocks that reads as above (the hypothesis of
  flushedG30_eq and finalG30) gives the array. When the row numbers are the words of an index table, each below 50000,
  row r of the array is the source's row at the node the table's word r names (finalG30_node).
-/
import proofs.«402049_j87351044866139_2_alg».proof.Proof.KI.Gather30
import proofs.«402049_j87351044866139_2_alg».proof.Proof.Spec
import Idealize.ShloMosaic.Lib.Pipeline.Value
import Idealize.ShloMosaic.Lib.ValueIdx

set_option maxRecDepth 16384

noncomputable section

namespace Cert.KernelIdeal.Hand

open Idealize.ShloMosaic Idealize.ShloMosaic.TcCoe
open Idealize.SL.Sem
open Idealize.ShloMosaic.Pipeline (Dat Cfg Window)
open Cert.KernelIdeal Cert.KernelIdeal.Gen

variable {F : FTy → Type} [FloatOps F]

variable (V : (c : Dev nD) → (b : Ref sig .tc) → Buf (Elt F) ((c : Thread nD τ).loc b))
variable (a30 : (pcfg30 (F := F)).Adm)
variable (gblk : (c : Dev nD) → Fin (cfg30 a30).N → S8x128.Idx → Elt F .f32)

/-! ## The grid and the output window's schedule -/

/-- The region's grid has 12500 points. -/
theorem ptsG30 (t : Fin (cfg30 a30).N) : t.val < 12500 := lt_of_lt_of_eq t.isLt N_30

/-- The grid has one axis, so point t has coordinate t. -/
theorem coordG30 (t : Fin (cfg30 a30).N) : (((cfg30 a30).grid.coords t) (0 : Fin 1)).val = t.val := by
  have hN := ptsG30 a30 t
  show t.val / (cfg30 a30).grid.stride (0 : Fin 1) % 12500 = t.val
  rw [show (cfg30 a30).grid.stride (0 : Fin 1) = 1 from rfl, Nat.div_one, Nat.mod_eq_of_lt hN]

/-- The output window's block index at point t is (t, 0). -/
theorem indexG30 (t : Fin (cfg30 a30).N) :
    ((cfg30 a30).win 0).index t (0 : Fin 2) = t.val ∧ ((cfg30 a30).win 0).index t (1 : Fin 2) = 0 := by
  have hN := ptsG30 a30 t
  refine ⟨?_, rfl⟩
  show (BitVec.ofNat 32 (((cfg30 a30).grid.coords t) (0 : Fin 1)).val).toNat = t.val
  rw [coordG30, BitVec.toNat_ofNat]
  exact Nat.mod_eq_of_lt (by omega)

/-- The block index moves at every step, so every point writes its block back. -/
theorem flushG30 (t : Fin (cfg30 a30).N) : ((cfg30 a30).win 0).flush t = true := by
  rw [Pipeline.Window.flush_out _ rfl]
  have ht : t.val < (cfg30 a30).grid.N := t.isLt
  by_cases h : t.val + 1 < (cfg30 a30).grid.N
  · refine .inr ⟨h, fun e => ?_⟩
    have e0 : ((cfg30 a30).win 0).index ⟨t.val + 1, h⟩ (0 : Fin 2) = ((cfg30 a30).win 0).index t (0 : Fin 2) :=
      congrFun e (0 : Fin 2)
    have e1 : ((cfg30 a30).win 0).index ⟨t.val + 1, h⟩ (0 : Fin 2) = t.val + 1 := (indexG30 a30 ⟨t.val + 1, h⟩).1
    have e2 : ((cfg30 a30).win 0).index t (0 : Fin 2) = t.val := (indexG30 a30 t).1
    omega
  · exact .inl (by omega)

/-! ## What a point writes back, and the array -/

variable (T : (c : Dev nD) → S50000x128.Idx → Elt F .f32) (row : (c : Dev nD) → Fin 100000 → Fin 50000)

/-- The array the region leaves on core c: its row r is the source's row  row r. -/
abbrev outG30 (c : Dev nD) : S100000x128.Idx → Elt F .f32 := fun i => T c (ValueIdx.ix2 (row c (i 0)) (i 1))

/-- One element of the block at point t is the array's element 8 t rows further down, in the same column. -/
theorem blockG30_apply
    (hblk : ∀ c (t : Fin (cfg30 a30).N) (j : Fin 8) (l : Fin 128) (h : 8 * t.val + j.val < 100000),
      gblk c t (ValueIdx.ix2 j l) = T c (ValueIdx.ix2 (row c ⟨8 * t.val + j.val, h⟩) l))
    (c : Dev nD) (t : Fin (cfg30 a30).N) (y : S8x128.Idx) (k : S100000x128.Idx)
    (hk0 : (k 0).val = 8 * t.val + (y 0).val) (hk1 : (k 1).val = (y 1).val) :
    gblk c t y = outG30 T row c k := by
  have hy0 : (y 0).val < 8 := (y 0).isLt
  have hN := ptsG30 a30 t
  have hb : 8 * t.val + (y 0).val < 100000 := by omega
  have h0 : (⟨8 * t.val + (y 0).val, hb⟩ : Fin 100000) = k 0 := Fin.ext hk0.symm
  have h1 : (y 1 : Fin 128) = k 1 := Fin.ext hk1.symm
  calc gblk c t y = gblk c t (ValueIdx.ix2 (y 0) (y 1)) := congrArg (gblk c t) (ValueIdx.eq_ix2 y)
    _ = T c (ValueIdx.ix2 (row c ⟨8 * t.val + (y 0).val, hb⟩) (y 1)) := hblk c t (y 0) (y 1) hb
    _ = outG30 T row c k := congrArg₂ (fun (p : Fin 100000) (l : Fin 128) => T c (ValueIdx.ix2 (row c p) l)) h0 h1

/-- WHAT POINT t WRITES BACK is block t of that array. -/
theorem flushedG30_eq
    (hblk : ∀ c (t : Fin (cfg30 a30).N) (j : Fin 8) (l : Fin 128) (h : 8 * t.val + j.val < 100000),
      gblk c t (ValueIdx.ix2 j l) = T c (ValueIdx.ix2 (row c ⟨8 * t.val + j.val, h⟩) l))
    (c : Dev nD) (t : Fin (cfg30 a30).N) :
    (datG30 V a30 gblk c).flushed 0 t = (((cfg30 a30).win 0).blk t).view.read (Elt F) (outG30 T row c) := by
  obtain ⟨e0, e1⟩ := indexG30 a30 t
  have key : ∀ y : S8x128.Idx, gblk c t y = outG30 T row c ((((cfg30 a30).win 0).blk t).view.emb y) := fun y =>
    blockG30_apply a30 gblk T row hblk c t y _
      (by show ((cfg30 a30).win 0).index t (0 : Fin 2) * 8 + 1 * (y 0).val = 8 * t.val + (y 0).val
          rw [e0]; omega)
      (by show ((cfg30 a30).win 0).index t (1 : Fin 2) * 128 + 1 * (y 1).val = (y 1).val
          rw [e1]; omega)
  exact funext key

/-- An index of the array whose row is among the rows 8 t … 8 t + 7 is in point t's block. -/
theorem mem_blkG30 (t : Fin (cfg30 a30).N) (i : S100000x128.Idx)
    (hi : 8 * t.val ≤ (i 0).val ∧ (i 0).val < 8 * t.val + 8) : i ∈ (((cfg30 a30).win 0).blk t).view.set := by
  obtain ⟨e0, e1⟩ := indexG30 a30 t
  have hi1 : (i 1).val < 128 := (i 1).isLt
  have hs : (((cfg30 a30).win 0).blk t).view.set = (((cfg30 a30).win 0).rect t).set :=
    View.set_slice_whole main_v105 (((cfg30 a30).win 0).rect t)
  have key : ∀ a : Fin 2, ((cfg30 a30).win 0).index t a * S8x128.size a ≤ (i a).val
      ∧ (i a).val < ((cfg30 a30).win 0).index t a * S8x128.size a + S8x128.size a := fun a =>
    match a with
    | ⟨0, _⟩ => by
      show ((cfg30 a30).win 0).index t (0 : Fin 2) * 8 ≤ (i 0).val ∧ (i 0).val < ((cfg30 a30).win 0).index t (0 : Fin 2) * 8 + 8
      rw [e0]; omega
    | ⟨1, _⟩ => by
      show ((cfg30 a30).win 0).index t (1 : Fin 2) * 128 ≤ (i 1).val ∧ (i 1).val < ((cfg30 a30).win 0).index t (1 : Fin 2) * 128 + 128
      rw [e1]; omega
  exact (Finset.ext_iff.mp hs i).mpr (Rect.mem_set_unit.mpr key)

/-- THE COVER: row r of the array lies in the block of point r / 8, and that point writes its block back. -/
theorem coverG30 (i : S100000x128.Idx) :
    ∃ t : Fin (cfg30 a30).N, ((cfg30 a30).win 0).flush t = true ∧ i ∈ (((cfg30 a30).win 0).blk t).view.set := by
  have hi0 : (i 0).val < 100000 := (i 0).isLt
  have ht : (i 0).val / 8 < (cfg30 a30).N := lt_of_lt_of_eq (by omega : (i 0).val / 8 < 12500) N_30.symm
  exact ⟨⟨(i 0).val / 8, ht⟩, flushG30 a30 _, mem_blkG30 a30 ⟨(i 0).val / 8, ht⟩ i
    (by show 8 * ((i 0).val / 8) ≤ (i 0).val ∧ (i 0).val < 8 * ((i 0).val / 8) + 8; omega)⟩

/-- THE ARRAY after the region: its row r is the source's row  row r. -/
theorem finalG30
    (hblk : ∀ c (t : Fin (cfg30 a30).N) (j : Fin 8) (l : Fin 128) (h : 8 * t.val + j.val < 100000),
      gblk c t (ValueIdx.ix2 j l) = T c (ValueIdx.ix2 (row c ⟨8 * t.val + j.val, h⟩) l))
    (c : Dev nD) :
    (datG30 V a30 gblk c).arrAt 0 (cfg30 a30).N
      = fun i : S100000x128.Idx => T c (ValueIdx.ix2 (row c (i 0)) (i 1)) :=
  (datG30 V a30 gblk c).arrAt_eq_of_cover 0 (outG30 T row c)
    (fun t _ => flushedG30_eq V a30 gblk T row hblk c t) (coverG30 a30)

/-- THE ARRAY, when the row numbers are the words of an index table tblw, each below 50000: row r is the source's row
    at the node that word r names (a word below 50000 names the node of that number). -/
theorem finalG30_node (tblw : IVec S100000 32) (hlt : ∀ k : S100000.Idx, (tblw k).toNat < 50000)
    (hblk : ∀ c (t : Fin (cfg30 a30).N) (j : Fin 8) (l : Fin 128) (h : 8 * t.val + j.val < 100000),
      gblk c t (ValueIdx.ix2 j l)
        = T c (ValueIdx.ix2 (⟨(tblw (ValueIdx.ix1 (⟨8 * t.val + j.val, h⟩ : Fin 100000))).toNat, hlt _⟩ : Fin 50000) l))
    (c : Dev nD) :
    (datG30 V a30 gblk c).arrAt 0 (cfg30 a30).N
      = fun i : S100000x128.Idx => T c (ValueIdx.ix2 (Cert.Spec.node (tblw (ValueIdx.ix1 (i 0)))) (i 1)) :=
  (finalG30 V a30 gblk T (fun _ p => ⟨(tblw (ValueIdx.ix1 p)).toNat, hlt _⟩) hblk c).trans
    (funext fun i => congrArg (fun p : Fin 50000 => T c (ValueIdx.ix2 p (i 1))) (Cert.Spec.node_of_lt (hlt _)).symm)

end Cert.KernelIdeal.Hand

end
-- ==== Proof.KI.GatherAt30.lean ====
/-
  Region 30 in the run: what it leaves, in terms of what the program's items before it left.

  Between the program's items core c's buffers hold the chain's valuations. Region 30's index table, as the region's
  proof data hold it, is the closed table of the launch memory, and every word of it is below 50000 when every word
  of the edge list is. So the region's output array holds, in its row r, the row — of the array the region reads — at
  the node that the table's word r names; and the array it reads is left as it was, which is as the item before the
  table's host stretch left it. No later item writes the output array before the host stretch that concatenates the
  gather outputs, so at that stretch's entry it holds the same rows (gat30: stated for whatever the array read holds).
-/
import proofs.«402049_j87351044866139_2_alg».proof.Proof.KI.Chain
import proofs.«402049_j87351044866139_2_alg».proof.Proof.KI.Carry
import proofs.«402049_j87351044866139_2_alg».proof.Proof.KI.GatherVal30
import proofs.«402049_j87351044866139_2_alg».proof.Proof.KI.Tables

set_option maxRecDepth 16384

noncomputable section

namespace Cert.KernelIdeal.Hand

open Cert.KernelIdeal Cert.KernelIdeal.Gen Cert.KernelIdeal.GenP
open Idealize.ShloMosaic Idealize.ShloMosaic.TcCoe
open Idealize.SL.Sem

variable {F : FTy → Type} [FloatOps F]
variable (m : (ℓ : Loc nD τ sig) → Buf (Elt F) ℓ)

/-- The index table the region's proof data hold is the closed table of the launch memory: the data hold what the
    chain's valuation at the region's entry has in the table's buffer, and that valuation is the run's own. -/
theorem tblwU30 : tblw30 (a30 m) = tbl30 m c₀ := by
  have h1 : tblw30 (a30 m) = (U63 m c₀ main_v104 : IVec S100000 32) := by
    unfold a30
    rfl
  have h2 : ∀ W : Valuation τ sig (Elt F), V63 m (outsU m) c₀ = W → (W main_v104 : IVec S100000 32) = tbl30 m c₀ :=
    fun W hW => by subst hW; exact tbl30_eq m (outsU m) c₀
  exact h1.trans (h2 (U63 m c₀) (V63_eq m c₀))

/-- The array the region reads, at the region's entry, is as the item before the table's host stretch left it. -/
theorem gin30 (c : Dev nD) : atTc (U63 m) c main_v89 = V62 m (outsU m) c main_v89 :=
  (congrFun (V63_eq m c) main_v89).symm.trans (V63_of m (outsU m) c main_v89 (by decide))

/-- THE ARRAY THE REGION READS is left as it was. -/
theorem gsrc30 (c : Dev nD) : V64 m (outsU m) c main_v89 = V62 m (outsU m) c main_v89 :=
  (congrFun (V64_eq m c) main_v89).trans ((U64_hbm m c).trans (gin30 m c))

/-- THE REGION'S OUTPUT: its row r is the row, of the array the region reads, at the node the table's word r names. -/
theorem g30_val (c : Dev nD) (hm : ∀ i : S2x800000.Idx, ((V0 m c main_arg1 : IVec S2x800000 32) i).toNat < 50000) :
    (V64 m (outsU m) c main_v105 : S100000x128.Idx → Elt F .f32)
      = fun i => (V62 m (outsU m) c main_v89 : S50000x128.Idx → Elt F .f32)
          (ValueIdx.ix2 (Cert.Spec.node (tbl30 m c (ValueIdx.ix1 (i 0)))) (i 1)) := by
  obtain rfl : c = c₀ := eq_c₀ c
  have hlt : ∀ k : S100000.Idx, (tblw30 (a30 m) k).toNat < 50000 := fun k => by
    rw [tblwU30]; exact tbl30_lt m c₀ hm k
  refine (congrFun (V64_eq m c₀) main_v105).trans ((U64_out m c₀).trans ?_)
  refine (finalG30_node (atTc (U63 m)) (a30 m) (gblk30 (atTc (U63 m)) (a30 m)) (fun c => V62 m (outsU m) c main_v89)
      (tblw30 (a30 m)) hlt
      (fun c t j l _ => (gblk30_apply (atTc (U63 m)) (a30 m) hlt c t j l).trans (congrFun (gin30 m c) _)) c₀).trans ?_
  rw [tblwU30]
  rfl

/-- THE REGION'S OUTPUT WHERE IT IS READ, at the entry of the host stretch that concatenates the gather outputs: the
    rows of T at the nodes the table names, when the array the region reads holds T. -/
theorem gat30 (c : Dev nD) (hm : ∀ i : S2x800000.Idx, ((V0 m c main_arg1 : IVec S2x800000 32) i).toNat < 50000)
    (T : S50000x128.Idx → Elt F .f32) (hT : V62 m (outsU m) c main_v89 = T) :
    (V64 m (outsU m) c main_v105 : S100000x128.Idx → Elt F .f32)
      = fun i => T (ValueIdx.ix2 (Cert.Spec.node (tbl30 m c (ValueIdx.ix1 (i 0)))) (i 1)) := by
  subst hT
  exact (carry30 m (outsU m) c).trans (g30_val m c hm)

end Cert.KernelIdeal.Hand

end
-- ==== Proof.KI.GatherVal31.lean ====
/-
  The value of the row-gather region 31: the array its output window leaves.

  At grid point t the region's output block holds, in its row j, the source's row  row (8 t + j).  The block sits at
  block index (t, 0) of the 100000 x 128 output array: it covers the rows 8 t … 8 t + 7 and all 128 columns. Every point
  writes its block back (the block index moves at every step), and row r of the array lies in the block of point r / 8,
  at the block's row r % 8. So the array ends with its row r equal to the source's row  row r,  for every r.

  The gathered block is taken abstractly here: any family of blocks that reads as above (the hypothesis of
  flushedG31_eq and finalG31) gives the array. When the row numbers are the words of an index table, each below 50000,
  row r of the array is the source's row at the node the table's word r names (finalG31_node).
-/
import proofs.«402049_j87351044866139_2_alg».proof.Proof.KI.Gather31
import proofs.«402049_j87351044866139_2_alg».proof.Proof.Spec
import Idealize.ShloMosaic.Lib.Pipeline.Value
import Idealize.ShloMosaic.Lib.ValueIdx

set_option maxRecDepth 16384

noncomputable section

namespace Cert.KernelIdeal.Hand

open Idealize.ShloMosaic Idealize.ShloMosaic.TcCoe
open Idealize.SL.Sem
open Idealize.ShloMosaic.Pipeline (Dat Cfg Window)
open Cert.KernelIdeal Cert.KernelIdeal.Gen

variable {F : FTy → Type} [FloatOps F]

variable (V : (c : Dev nD) → (b : Ref sig .tc) → Buf (Elt F) ((c : Thread nD τ).loc b))
variable (a31 : (pcfg31 (F := F)).Adm)
variable (gblk : (c : Dev nD) → Fin (cfg31 a31).N → S8x128.Idx → Elt F .f32)

/-! ## The grid and the output window's schedule -/

/-- The region's grid has 12500 points. -/
theorem ptsG31 (t : Fin (cfg31 a31).N) : t.val < 12500 := lt_of_lt_of_eq t.isLt N_31

/-- The grid has one axis, so point t has coordinate t. -/
theorem coordG31 (t : Fin (cfg31 a31).N) : (((cfg31 a31).grid.coords t) (0 : Fin 1)).val = t.val := by
  have hN := ptsG31 a31 t
  show t.val / (cfg31 a31).grid.stride (0 : Fin 1) % 12500 = t.val
  rw [show (cfg31 a31).grid.stride (0 : Fin 1) = 1 from rfl, Nat.div_one, Nat.mod_eq_of_lt hN]

/-- The output window's block index at point t is (t, 0). -/
theorem indexG31 (t : Fin (cfg31 a31).N) :
    ((cfg31 a31).win 0).index t (0 : Fin 2) = t.val ∧ ((cfg31 a31).win 0).index t (1 : Fin 2) = 0 := by
  have hN := ptsG31 a31 t
  refine ⟨?_, rfl⟩
  show (BitVec.ofNat 32 (((cfg31 a31).grid.coords t) (0 : Fin 1)).val).toNat = t.val
  rw [coordG31, BitVec.toNat_ofNat]
  exact Nat.mod_eq_of_lt (by omega)

/-- The block index moves at every step, so every point writes its block back. -/
theorem flushG31 (t : Fin (cfg31 a31).N) : ((cfg31 a31).win 0).flush t = true := by
  rw [Pipeline.Window.flush_out _ rfl]
  have ht : t.val < (cfg31 a31).grid.N := t.isLt
  by_cases h : t.val + 1 < (cfg31 a31).grid.N
  · refine .inr ⟨h, fun e => ?_⟩
    have e0 : ((cfg31 a31).win 0).index ⟨t.val + 1, h⟩ (0 : Fin 2) = ((cfg31 a31).win 0).index t (0 : Fin 2) :=
      congrFun e (0 : Fin 2)
    have e1 : ((cfg31 a31).win 0).index ⟨t.val + 1, h⟩ (0 : Fin 2) = t.val + 1 := (indexG31 a31 ⟨t.val + 1, h⟩).1
    have e2 : ((cfg31 a31).win 0).index t (0 : Fin 2) = t.val := (indexG31 a31 t).1
    omega
  · exact .inl (by omega)

/-! ## What a point writes back, and the array -/

variable (T : (c : Dev nD) → S50000x128.Idx → Elt F .f32) (row : (c : Dev nD) → Fin 100000 → Fin 50000)

/-- The array the region leaves on core c: its row r is the source's row  row r. -/
abbrev outG31 (c : Dev nD) : S100000x128.Idx → Elt F .f32 := fun i => T c (ValueIdx.ix2 (row c (i 0)) (i 1))

/-- One element of the block at point t is the array's element 8 t rows further down, in the same column. -/
theorem blockG31_apply
    (hblk : ∀ c (t : Fin (cfg31 a31).N) (j : Fin 8) (l : Fin 128) (h : 8 * t.val + j.val < 100000),
      gblk c t (ValueIdx.ix2 j l) = T c (ValueIdx.ix2 (row c ⟨8 * t.val + j.val, h⟩) l))
    (c : Dev nD) (t : Fin (cfg31 a31).N) (y : S8x128.Idx) (k : S100000x128.Idx)
    (hk0 : (k 0).val = 8 * t.val + (y 0).val) (hk1 : (k 1).val = (y 1).val) :
    gblk c t y = outG31 T row c k := by
  have hy0 : (y 0).val < 8 := (y 0).isLt
  have hN := ptsG31 a31 t
  have hb : 8 * t.val + (y 0).val < 100000 := by omega
  have h0 : (⟨8 * t.val + (y 0).val, hb⟩ : Fin 100000) = k 0 := Fin.ext hk0.symm
  have h1 : (y 1 : Fin 128) = k 1 := Fin.ext hk1.symm
  calc gblk c t y = gblk c t (ValueIdx.ix2 (y 0) (y 1)) := congrArg (gblk c t) (ValueIdx.eq_ix2 y)
    _ = T c (ValueIdx.ix2 (row c ⟨8 * t.val + (y 0).val, hb⟩) (y 1)) := hblk c t (y 0) (y 1) hb
    _ = outG31 T row c k := congrArg₂ (fun (p : Fin 100000) (l : Fin 128) => T c (ValueIdx.ix2 (row c p) l)) h0 h1

/-- WHAT POINT t WRITES BACK is block t of that array. -/
theorem flushedG31_eq
    (hblk : ∀ c (t : Fin (cfg31 a31).N) (j : Fin 8) (l : Fin 128) (h : 8 * t.val + j.val < 100000),
      gblk c t (ValueIdx.ix2 j l) = T c (ValueIdx.ix2 (row c ⟨8 * t.val + j.val, h⟩) l))
    (c : Dev nD) (t : Fin (cfg31 a31).N) :
    (datG31 V a31 gblk c).flushed 0 t = (((cfg31 a31).win 0).blk t).view.read (Elt F) (outG31 T row c) := by
  obtain ⟨e0, e1⟩ := indexG31 a31 t
  have key : ∀ y : S8x128.Idx, gblk c t y = outG31 T row c ((((cfg31 a31).win 0).blk t).view.emb y) := fun y =>
    blockG31_apply a31 gblk T row hblk c t y _
      (by show ((cfg31 a31).win 0).index t (0 : Fin 2) * 8 + 1 * (y 0).val = 8 * t.val + (y 0).val
          rw [e0]; omega)
      (by show ((cfg31 a31).win 0).index t (1 : Fin 2) * 128 + 1 * (y 1).val = (y 1).val
          rw [e1]; omega)
  exact funext key

/-- An index of the array whose row is among the rows 8 t … 8 t + 7 is in point t's block. -/
theorem mem_blkG31 (t : Fin (cfg31 a31).N) (i : S100000x128.Idx)
    (hi : 8 * t.val ≤ (i 0).val ∧ (i 0).val < 8 * t.val + 8) : i ∈ (((cfg31 a31).win 0).blk t).view.set := by
  obtain ⟨e0, e1⟩ := indexG31 a31 t
  have hi1 : (i 1).val < 128 := (i 1).isLt
  have hs : (((cfg31 a31).win 0).blk t).view.set = (((cfg31 a31).win 0).rect t).set :=
    View.set_slice_whole main_v108 (((cfg31 a31).win 0).rect t)
  have key : ∀ a : Fin 2, ((cfg31 a31).win 0).index t a * S8x128.size a ≤ (i a).val
      ∧ (i a).val < ((cfg31 a31).win 0).index t a * S8x128.size a + S8x128.size a := fun a =>
    match a with
    | ⟨0, _⟩ => by
      show ((cfg31 a31).win 0).index t (0 : Fin 2) * 8 ≤ (i 0).val ∧ (i 0).val < ((cfg31 a31).win 0).index t (0 : Fin 2) * 8 + 8
      rw [e0]; omega
    | ⟨1, _⟩ => by
      show ((cfg31 a31).win 0).index t (1 : Fin 2) * 128 ≤ (i 1).val ∧ (i 1).val < ((cfg31 a31).win 0).index t (1 : Fin 2) * 128 + 128
      rw [e1]; omega
  exact (Finset.ext_iff.mp hs i).mpr (Rect.mem_set_unit.mpr key)

/-- THE COVER: row r of the array lies in the block of point r / 8, and that point writes its block back. -/
theorem coverG31 (i : S100000x128.Idx) :
    ∃ t : Fin (cfg31 a31).N, ((cfg31 a31).win 0).flush t = true ∧ i ∈ (((cfg31 a31).win 0).blk t).view.set := by
  have hi0 : (i 0).val < 100000 := (i 0).isLt
  have ht : (i 0).val / 8 < (cfg31 a31).N := lt_of_lt_of_eq (by omega : (i 0).val / 8 < 12500) N_31.symm
  exact ⟨⟨(i 0).val / 8, ht⟩, flushG31 a31 _, mem_blkG31 a31 ⟨(i 0).val / 8, ht⟩ i
    (by show 8 * ((i 0).val / 8) ≤ (i 0).val ∧ (i 0).val < 8 * ((i 0).val / 8) + 8; omega)⟩

/-- THE ARRAY after the region: its row r is the source's row  row r. -/
theorem finalG31
    (hblk : ∀ c (t : Fin (cfg31 a31).N) (j : Fin 8) (l : Fin 128) (h : 8 * t.val + j.val < 100000),
      gblk c t (ValueIdx.ix2 j l) = T c (ValueIdx.ix2 (row c ⟨8 * t.val + j.val, h⟩) l))
    (c : Dev nD) :
    (datG31 V a31 gblk c).arrAt 0 (cfg31 a31).N
      = fun i : S100000x128.Idx => T c (ValueIdx.ix2 (row c (i 0)) (i 1)) :=
  (datG31 V a31 gblk c).arrAt_eq_of_cover 0 (outG31 T row c)
    (fun t _ => flushedG31_eq V a31 gblk T row hblk c t) (coverG31 a31)

/-- THE ARRAY, when the row numbers are the words of an index table tblw, each below 50000: row r is the source's row
    at the node that word r names (a word below 50000 names the node of that number). -/
theorem finalG31_node (tblw : IVec S100000 32) (hlt : ∀ k : S100000.Idx, (tblw k).toNat < 50000)
    (hblk : ∀ c (t : Fin (cfg31 a31).N) (j : Fin 8) (l : Fin 128) (h : 8 * t.val + j.val < 100000),
      gblk c t (ValueIdx.ix2 j l)
        = T c (ValueIdx.ix2 (⟨(tblw (ValueIdx.ix1 (⟨8 * t.val + j.val, h⟩ : Fin 100000))).toNat, hlt _⟩ : Fin 50000) l))
    (c : Dev nD) :
    (datG31 V a31 gblk c).arrAt 0 (cfg31 a31).N
      = fun i : S100000x128.Idx => T c (ValueIdx.ix2 (Cert.Spec.node (tblw (ValueIdx.ix1 (i 0)))) (i 1)) :=
  (finalG31 V a31 gblk T (fun _ p => ⟨(tblw (ValueIdx.ix1 p)).toNat, hlt _⟩) hblk c).trans
    (funext fun i => congrArg (fun p : Fin 50000 => T c (ValueIdx.ix2 p (i 1))) (Cert.Spec.node_of_lt (hlt _)).symm)

end Cert.KernelIdeal.Hand

end
-- ==== Proof.KI.GatherAt31.lean ====
/-
  Region 31 in the run: what it leaves, in terms of what the program's items before it left.

  Between the program's items core c's buffers hold the chain's valuations. Region 31's index table, as the region's
  proof data hold it, is the closed table of the launch memory, and every word of it is below 50000 when every word
  of the edge list is. So the region's output array holds, in its row r, the row — of the array the region reads — at
  the node that the table's word r names; and the array it reads is left as it was, which is as the item before the
  table's host stretch left it. No later item writes the output array before the host stretch that concatenates the
  gather outputs, so at that stretch's entry it holds the same rows (gat31: stated for whatever the array read holds).
-/
import proofs.«402049_j87351044866139_2_alg».proof.Proof.KI.Chain
import proofs.«402049_j87351044866139_2_alg».proof.Proof.KI.Carry
import proofs.«402049_j87351044866139_2_alg».proof.Proof.KI.GatherVal31
import proofs.«402049_j87351044866139_2_alg».proof.Proof.KI.Tables

set_option maxRecDepth 16384

noncomputable section

namespace Cert.KernelIdeal.Hand

open Cert.KernelIdeal Cert.KernelIdeal.Gen Cert.KernelIdeal.GenP
open Idealize.ShloMosaic Idealize.ShloMosaic.TcCoe
open Idealize.SL.Sem

variable {F : FTy → Type} [FloatOps F]
variable (m : (ℓ : Loc nD τ sig) → Buf (Elt F) ℓ)

/-- The index table the region's proof data hold is the closed table of the launch memory: the data hold what the
    chain's valuation at the region's entry has in the table's buffer, and that valuation is the run's own. -/
theorem tblwU31 : tblw31 (a31 m) = tbl31 m c₀ := by
  have h1 : tblw31 (a31 m) = (U65 m c₀ main_v107 : IVec S100000 32) := by
    unfold a31
    rfl
  have h2 : ∀ W : Valuation τ sig (Elt F), V65 m (outsU m) c₀ = W → (W main_v107 : IVec S100000 32) = tbl31 m c₀ :=
    fun W hW => by subst hW; exact tbl31_eq m (outsU m) c₀
  exact h1.trans (h2 (U65 m c₀) (V65_eq m c₀))

/-- The array the region reads, at the region's entry, is as the item before the table's host stretch left it. -/
theorem gin31 (c : Dev nD) : atTc (U65 m) c main_v89 = V64 m (outsU m) c main_v89 :=
  (congrFun (V65_eq m c) main_v89).symm.trans (V65_of m (outsU m) c main_v89 (by decide))

/-- THE ARRAY THE REGION READS is left as it was. -/
theorem gsrc31 (c : Dev nD) : V66 m (outsU m) c main_v89 = V64 m (outsU m) c main_v89 :=
  (congrFun (V66_eq m c) main_v89).trans ((U66_hbm m c).trans (gin31 m c))

/-- THE REGION'S OUTPUT: its row r is the row, of the array the region reads, at the node the table's word r names. -/
theorem g31_val (c : Dev nD) (hm : ∀ i : S2x800000.Idx, ((V0 m c main_arg1 : IVec S2x800000 32) i).toNat < 50000) :
    (V66 m (outsU m) c main_v108 : S100000x128.Idx → Elt F .f32)
      = fun i => (V64 m (outsU m) c main_v89 : S50000x128.Idx → Elt F .f32)
          (ValueIdx.ix2 (Cert.Spec.node (tbl31 m c (ValueIdx.ix1 (i 0)))) (i 1)) := by
  obtain rfl : c = c₀ := eq_c₀ c
  have hlt : ∀ k : S100000.Idx, (tblw31 (a31 m) k).toNat < 50000 := fun k => by
    rw [tblwU31]; exact tbl31_lt m c₀ hm k
  refine (congrFun (V66_eq m c₀) main_v108).trans ((U66_out m c₀).trans ?_)
  refine (finalG31_node (atTc (U65 m)) (a31 m) (gblk31 (atTc (U65 m)) (a31 m)) (fun c => V64 m (outsU m) c main_v89)
      (tblw31 (a31 m)) hlt
      (fun c t j l _ => (gblk31_apply (atTc (U65 m)) (a31 m) hlt c t j l).trans (congrFun (gin31 m c) _)) c₀).trans ?_
  rw [tblwU31]
  rfl

/-- THE REGION'S OUTPUT WHERE IT IS READ, at the entry of the host stretch that concatenates the gather outputs: the
    rows of T at the nodes the table names, when the array the region reads holds T. -/
theorem gat31 (c : Dev nD) (hm : ∀ i : S2x800000.Idx, ((V0 m c main_arg1 : IVec S2x800000 32) i).toNat < 50000)
    (T : S50000x128.Idx → Elt F .f32) (hT : V64 m (outsU m) c main_v89 = T) :
    (V80 m (outsU m) c main_v108 : S100000x128.Idx → Elt F .f32)
      = fun i => T (ValueIdx.ix2 (Cert.Spec.node (tbl31 m c (ValueIdx.ix1 (i 0)))) (i 1)) := by
  subst hT
  exact (carry31 m (outsU m) c).trans (g31_val m c hm)

end Cert.KernelIdeal.Hand

end
-- ==== Proof.KI.GatherVal32.lean ====
/-
  The value of the row-gather region 32: the array its output window leaves.

  At grid point t the region's output block holds, in its row j, the source's row  row (8 t + j).  The block sits at
  block index (t, 0) of the 100000 x 128 output array: it covers the rows 8 t … 8 t + 7 and all 128 columns. Every point
  writes its block back (the block index moves at every step), and row r of the array lies in the block of point r / 8,
  at the block's row r % 8. So the array ends with its row r equal to the source's row  row r,  for every r.

  The gathered block is taken abstractly here: any family of blocks that reads as above (the hypothesis of
  flushedG32_eq and finalG32) gives the array. When the row numbers are the words of an index table, each below 50000,
  row r of the array is the source's row at the node the table's word r names (finalG32_node).
-/
import proofs.«402049_j87351044866139_2_alg».proof.Proof.KI.Gather32
import proofs.«402049_j87351044866139_2_alg».proof.Proof.Spec
import Idealize.ShloMosaic.Lib.Pipeline.Value
import Idealize.ShloMosaic.Lib.ValueIdx

set_option maxRecDepth 16384

noncomputable section

namespace Cert.KernelIdeal.Hand

open Idealize.ShloMosaic Idealize.ShloMosaic.TcCoe
open Idealize.SL.Sem
open Idealize.ShloMosaic.Pipeline (Dat Cfg Window)
open Cert.KernelIdeal Cert.KernelIdeal.Gen

variable {F : FTy → Type} [FloatOps F]

variable (V : (c : Dev nD) → (b : Ref sig .tc) → Buf (Elt F) ((c : Thread nD τ).loc b))
variable (a32 : (pcfg32 (F := F)).Adm)
variable (gblk : (c : Dev nD) → Fin (cfg32 a32).N → S8x128.Idx → Elt F .f32)

/-! ## The grid and the output window's schedule -/

/-- The region's grid has 12500 points. -/
theorem ptsG32 (t : Fin (cfg32 a32).N) : t.val < 12500 := lt_of_lt_of_eq t.isLt N_32

/-- The grid has one axis, so point t has coordinate t. -/
theorem coordG32 (t : Fin (cfg32 a32).N) : (((cfg32 a32).grid.coords t) (0 : Fin 1)).val = t.val := by
  have hN := ptsG32 a32 t
  show t.val / (cfg32 a32).grid.stride (0 : Fin 1) % 12500 = t.val
  rw [show (cfg32 a32).grid.stride (0 : Fin 1) = 1 from rfl, Nat.div_one, Nat.mod_eq_of_lt hN]

/-- The output window's block index at point t is (t, 0). -/
theorem indexG32 (t : Fin (cfg32 a32).N) :
    ((cfg32 a32).win 0).index t (0 : Fin 2) = t.val ∧ ((cfg32 a32).win 0).index t (1 : Fin 2) = 0 := by
  have hN := ptsG32 a32 t
  refine ⟨?_, rfl⟩
  show (BitVec.ofNat 32 (((cfg32 a32).grid.coords t) (0 : Fin 1)).val).toNat = t.val
  rw [coordG32, BitVec.toNat_ofNat]
  exact Nat.mod_eq_of_lt (by omega)

/-- The block index moves at every step, so every point writes its block back. -/
theorem flushG32 (t : Fin (cfg32 a32).N) : ((cfg32 a32).win 0).flush t = true := by
  rw [Pipeline.Window.flush_out _ rfl]
  have ht : t.val < (cfg32 a32).grid.N := t.isLt
  by_cases h : t.val + 1 < (cfg32 a32).grid.N
  · refine .inr ⟨h, fun e => ?_⟩
    have e0 : ((cfg32 a32).win 0).index ⟨t.val + 1, h⟩ (0 : Fin 2) = ((cfg32 a32).win 0).index t (0 : Fin 2) :=
      congrFun e (0 : Fin 2)
    have e1 : ((cfg32 a32).win 0).index ⟨t.val + 1, h⟩ (0 : Fin 2) = t.val + 1 := (indexG32 a32 ⟨t.val + 1, h⟩).1
    have e2 : ((cfg32 a32).win 0).index t (0 : Fin 2) = t.val := (indexG32 a32 t).1
    omega
  · exact .inl (by omega)

/-! ## What a point writes back, and the array -/

variable (T : (c : Dev nD) → S50000x128.Idx → Elt F .f32) (row : (c : Dev nD) → Fin 100000 → Fin 50000)

/-- The array the region leaves on core c: its row r is the source's row  row r. -/
abbrev outG32 (c : Dev nD) : S100000x128.Idx → Elt F .f32 := fun i => T c (ValueIdx.ix2 (row c (i 0)) (i 1))

/-- One element of the block at point t is the array's element 8 t rows further down, in the same column. -/
theorem blockG32_apply
    (hblk : ∀ c (t : Fin (cfg32 a32).N) (j : Fin 8) (l : Fin 128) (h : 8 * t.val + j.val < 100000),
      gblk c t (ValueIdx.ix2 j l) = T c (ValueIdx.ix2 (row c ⟨8 * t.val + j.val, h⟩) l))
    (c : Dev nD) (t : Fin (cfg32 a32).N) (y : S8x128.Idx) (k : S100000x128.Idx)
    (hk0 : (k 0).val = 8 * t.val + (y 0).val) (hk1 : (k 1).val = (y 1).val) :
    gblk c t y = outG32 T row c k := by
  have hy0 : (y 0).val < 8 := (y 0).isLt
  have hN := ptsG32 a32 t
  have hb : 8 * t.val + (y 0).val < 100000 := by omega
  have h0 : (⟨8 * t.val + (y 0).val, hb⟩ : Fin 100000) = k 0 := Fin.ext hk0.symm
  have h1 : (y 1 : Fin 128) = k 1 := Fin.ext hk1.symm
  calc gblk c t y = gblk c t (ValueIdx.ix2 (y 0) (y 1)) := congrArg (gblk c t) (ValueIdx.eq_ix2 y)
    _ = T c (ValueIdx.ix2 (row c ⟨8 * t.val + (y 0).val, hb⟩) (y 1)) := hblk c t (y 0) (y 1) hb
    _ = outG32 T row c k := congrArg₂ (fun (p : Fin 100000) (l : Fin 128) => T c (ValueIdx.ix2 (row c p) l)) h0 h1

/-- WHAT POINT t WRITES BACK is block t of that array. -/
theorem flushedG32_eq
    (hblk : ∀ c (t : Fin (cfg32 a32).N) (j : Fin 8) (l : Fin 128) (h : 8 * t.val + j.val < 100000),
      gblk c t (ValueIdx.ix2 j l) = T c (ValueIdx.ix2 (row c ⟨8 * t.val + j.val, h⟩) l))
    (c : Dev nD) (t : Fin (cfg32 a32).N) :
    (datG32 V a32 gblk c).flushed 0 t = (((cfg32 a32).win 0).blk t).view.read (Elt F) (outG32 T row c) := by
  obtain ⟨e0, e1⟩ := indexG32 a32 t
  have key : ∀ y : S8x128.Idx, gblk c t y = outG32 T row c ((((cfg32 a32).win 0).blk t).view.emb y) := fun y =>
    blockG32_apply a32 gblk T row hblk c t y _
      (by show ((cfg32 a32).win 0).index t (0 : Fin 2) * 8 + 1 * (y 0).val = 8 * t.val + (y 0).val
          rw [e0]; omega)
      (by show ((cfg32 a32).win 0).index t (1 : Fin 2) * 128 + 1 * (y 1).val = (y 1).val
          rw [e1]; omega)
  exact funext key

/-- An index of the array whose row is among the rows 8 t … 8 t + 7 is in point t's block. -/
theorem mem_blkG32 (t : Fin (cfg32 a32).N) (i : S100000x128.Idx)
    (hi : 8 * t.val ≤ (i 0).val ∧ (i 0).val < 8 * t.val + 8) : i ∈ (((cfg32 a32).win 0).blk t).view.set := by
  obtain ⟨e0, e1⟩ := indexG32 a32 t
  have hi1 : (i 1).val < 128 := (i 1).isLt
  have hs : (((cfg32 a32).win 0).blk t).view.set = (((cfg32 a32).win 0).rect t).set :=
    View.set_slice_whole main_v110 (((cfg32 a32).win 0).rect t)
  have key : ∀ a : Fin 2, ((cfg32 a32).win 0).index t a * S8x128.size a ≤ (i a).val
      ∧ (i a).val < ((cfg32 a32).win 0).index t a * S8x128.size a + S8x128.size a := fun a =>
    match a with
    | ⟨0, _⟩ => by
      show ((cfg32 a32).win 0).index t (0 : Fin 2) * 8 ≤ (i 0).val ∧ (i 0).val < ((cfg32 a32).win 0).index t (0 : Fin 2) * 8 + 8
      rw [e0]; omega
    | ⟨1, _⟩ => by
      show ((cfg32 a32).win 0).index t (1 : Fin 2) * 128 ≤ (i 1).val ∧ (i 1).val < ((cfg32 a32).win 0).index t (1 : Fin 2) * 128 + 128
      rw [e1]; omega
  exact (Finset.ext_iff.mp hs i).mpr (Rect.mem_set_unit.mpr key)

/-- THE COVER: row r of the array lies in the block of point r / 8, and that point writes its block back. -/
theorem coverG32 (i : S100000x128.Idx) :
    ∃ t : Fin (cfg32 a32).N, ((cfg32 a32).win 0).flush t = true ∧ i ∈ (((cfg32 a32).win 0).blk t).view.set := by
  have hi0 : (i 0).val < 100000 := (i 0).isLt
  have ht : (i 0).val / 8 < (cfg32 a32).N := lt_of_lt_of_eq (by omega : (i 0).val / 8 < 12500) N_32.symm
  exact ⟨⟨(i 0).val / 8, ht⟩, flushG32 a32 _, mem_blkG32 a32 ⟨(i 0).val / 8, ht⟩ i
    (by show 8 * ((i 0).val / 8) ≤ (i 0).val ∧ (i 0).val < 8 * ((i 0).val / 8) + 8; omega)⟩

/-- THE ARRAY after the region: its row r is the source's row  row r. -/
theorem finalG32
    (hblk : ∀ c (t : Fin (cfg32 a32).N) (j : Fin 8) (l : Fin 128) (h : 8 * t.val + j.val < 100000),
      gblk c t (ValueIdx.ix2 j l) = T c (ValueIdx.ix2 (row c ⟨8 * t.val + j.val, h⟩) l))
    (c : Dev nD) :
    (datG32 V a32 gblk c).arrAt 0 (cfg32 a32).N
      = fun i : S100000x128.Idx => T c (ValueIdx.ix2 (row c (i 0)) (i 1)) :=
  (datG32 V a32 gblk c).arrAt_eq_of_cover 0 (outG32 T row c)
    (fun t _ => flushedG32_eq V a32 gblk T row hblk c t) (coverG32 a32)

/-- THE ARRAY, when the row numbers are the words of an index table tblw, each below 50000: row r is the source's row
    at the node that word r names (a word below 50000 names the node of that number). -/
theorem finalG32_node (tblw : IVec S100000 32) (hlt : ∀ k : S100000.Idx, (tblw k).toNat < 50000)
    (hblk : ∀ c (t : Fin (cfg32 a32).N) (j : Fin 8) (l : Fin 128) (h : 8 * t.val + j.val < 100000),
      gblk c t (ValueIdx.ix2 j l)
        = T c (ValueIdx.ix2 (⟨(tblw (ValueIdx.ix1 (⟨8 * t.val + j.val, h⟩ : Fin 100000))).toNat, hlt _⟩ : Fin 50000) l))
    (c : Dev nD) :
    (datG32 V a32 gblk c).arrAt 0 (cfg32 a32).N
      = fun i : S100000x128.Idx => T c (ValueIdx.ix2 (Cert.Spec.node (tblw (ValueIdx.ix1 (i 0)))) (i 1)) :=
  (finalG32 V a32 gblk T (fun _ p => ⟨(tblw (ValueIdx.ix1 p)).toNat, hlt _⟩) hblk c).trans
    (funext fun i => congrArg (fun p : Fin 50000 => T c (ValueIdx.ix2 p (i 1))) (Cert.Spec.node_of_lt (hlt _)).symm)

end Cert.KernelIdeal.Hand

end
-- ==== Proof.KI.GatherAt32.lean ====
/-
  Region 32 in the run: what it leaves, in terms of what the program's items before it left.

  Between the program's items core c's buffers hold the chain's valuations. Region 32's index table, as the region's
  proof data hold it, is the closed table of the launch memory, and every word of it is below 50000 when every word
  of the edge list is. So the region's output array holds, in its row r, the row — of the array the region reads — at
  the node that the table's word r names; and the array it reads is left as it was, which is as the item before the
  table's host stretch left it. No later item writes the output array before the host stretch that concatenates the
  gather outputs, so at that stretch's entry it holds the same rows (gat32: stated for whatever the array read holds).
-/
import proofs.«402049_j87351044866139_2_alg».proof.Proof.KI.Chain
import proofs.«402049_j87351044866139_2_alg».proof.Proof.KI.Carry
import proofs.«402049_j87351044866139_2_alg».proof.Proof.KI.GatherVal32
import proofs.«402049_j87351044866139_2_alg».proof.Proof.KI.Tables

set_option maxRecDepth 16384

noncomputable section

namespace Cert.KernelIdeal.Hand

open Cert.KernelIdeal Cert.KernelIdeal.Gen Cert.KernelIdeal.GenP
open Idealize.ShloMosaic Idealize.ShloMosaic.TcCoe
open Idealize.SL.Sem

variable {F : FTy → Type} [FloatOps F]
variable (m : (ℓ : Loc nD τ sig) → Buf (Elt F) ℓ)

/-- The index table the region's proof data hold is the closed table of the launch memory: the data hold what the
    chain's valuation at the region's entry has in the table's buffer, and that valuation is the run's own. -/
theorem tblwU32 : tblw32 (a32 m) = tbl32 m c₀ := by
  have h1 : tblw32 (a32 m) = (U67 m c₀ main_v109 : IVec S100000 32) := by
    unfold a32
    rfl
  have h2 : ∀ W : Valuation τ sig (Elt F), V67 m (outsU m) c₀ = W → (W main_v109 : IVec S100000 32) = tbl32 m c₀ :=
    fun W hW => by subst hW; exact tbl32_eq m (outsU m) c₀
  exact h1.trans (h2 (U67 m c₀) (V67_eq m c₀))

/-- The array the region reads, at the region's entry, is as the item before the table's host stretch left it. -/
theorem gin32 (c : Dev nD) : atTc (U67 m) c main_v89 = V66 m (outsU m) c main_v89 :=
  (congrFun (V67_eq m c) main_v89).symm.trans (V67_of m (outsU m) c main_v89 (by decide))

/-- THE ARRAY THE REGION READS is left as it was. -/
theorem gsrc32 (c : Dev nD) : V68 m (outsU m) c main_v89 = V66 m (outsU m) c main_v89 :=
  (congrFun (V68_eq m c) main_v89).trans ((U68_hbm m c).trans (gin32 m c))

/-- THE REGION'S OUTPUT: its row r is the row, of the array the region reads, at the node the table's word r names. -/
theorem g32_val (c : Dev nD) (hm : ∀ i : S2x800000.Idx, ((V0 m c main_arg1 : IVec S2x800000 32) i).toNat < 50000) :
    (V68 m (outsU m) c main_v110 : S100000x128.Idx → Elt F .f32)
      = fun i => (V66 m (outsU m) c main_v89 : S50000x128.Idx → Elt F .f32)
          (ValueIdx.ix2 (Cert.Spec.node (tbl32 m c (ValueIdx.ix1 (i 0)))) (i 1)) := by
  obtain rfl : c = c₀ := eq_c₀ c
  have hlt : ∀ k : S100000.Idx, (tblw32 (a32 m) k).toNat < 50000 := fun k => by
    rw [tblwU32]; exact tbl32_lt m c₀ hm k
  refine (congrFun (V68_eq m c₀) main_v110).trans ((U68_out m c₀).trans ?_)
  refine (finalG32_node (atTc (U67 m)) (a32 m) (gblk32 (atTc (U67 m)) (a32 m)) (fun c => V66 m (outsU m) c main_v89)
      (tblw32 (a32 m)) hlt
      (fun c t j l _ => (gblk32_apply (atTc (U67 m)) (a32 m) hlt c t j l).trans (congrFun (gin32 m c) _)) c₀).trans ?_
  rw [tblwU32]
  rfl

/-- THE REGION'S OUTPUT WHERE IT IS READ, at the entry of the host stretch that concatenates the gather outputs: the
    rows of T at the nodes the table names, when the array the region reads holds T. -/
theorem gat32 (c : Dev nD) (hm : ∀ i : S2x800000.Idx, ((V0 m c main_arg1 : IVec S2x800000 32) i).toNat < 50000)
    (T : S50000x128.Idx → Elt F .f32) (hT : V66 m (outsU m) c main_v89 = T) :
    (V80 m (outsU m) c main_v110 : S100000x128.Idx → Elt F .f32)
      = fun i => T (ValueIdx.ix2 (Cert.Spec.node (tbl32 m c (ValueIdx.ix1 (i 0)))) (i 1)) := by
  subst hT
  exact (carry32 m (outsU m) c).trans (g32_val m c hm)

end Cert.KernelIdeal.Hand

end
-- ==== Proof.KI.GatherVal33.lean ====
/-
  The value of the row-gather region 33: the array its output window leaves.

  At grid point t the region's output block holds, in its row j, the source's row  row (8 t + j).  The block sits at
  block index (t, 0) of the 100000 x 128 output array: it covers the rows 8 t … 8 t + 7 and all 128 columns. Every point
  writes its block back (the block index moves at every step), and row r of the array lies in the block of point r / 8,
  at the block's row r % 8. So the array ends with its row r equal to the source's row  row r,  for every r.

  The gathered block is taken abstractly here: any family of blocks that reads as above (the hypothesis of
  flushedG33_eq and finalG33) gives the array. When the row numbers are the words of an index table, each below 50000,
  row r of the array is the source's row at the node the table's word r names (finalG33_node).
-/
import proofs.«402049_j87351044866139_2_alg».proof.Proof.KI.Gather33
import proofs.«402049_j87351044866139_2_alg».proof.Proof.Spec
import Idealize.ShloMosaic.Lib.Pipeline.Value
import Idealize.ShloMosaic.Lib.ValueIdx

set_option maxRecDepth 16384

noncomputable section

namespace Cert.KernelIdeal.Hand

open Idealize.ShloMosaic Idealize.ShloMosaic.TcCoe
open Idealize.SL.Sem
open Idealize.ShloMosaic.Pipeline (Dat Cfg Window)
open Cert.KernelIdeal Cert.KernelIdeal.Gen

variable {F : FTy → Type} [FloatOps F]

variable (V : (c : Dev nD) → (b : Ref sig .tc) → Buf (Elt F) ((c : Thread nD τ).loc b))
variable (a33 : (pcfg33 (F := F)).Adm)
variable (gblk : (c : Dev nD) → Fin (cfg33 a33).N → S8x128.Idx → Elt F .f32)

/-! ## The grid and the output window's schedule -/

/-- The region's grid has 12500 points. -/
theorem ptsG33 (t : Fin (cfg33 a33).N) : t.val < 12500 := lt_of_lt_of_eq t.isLt N_33

/-- The grid has one axis, so point t has coordinate t. -/
theorem coordG33 (t : Fin (cfg33 a33).N) : (((cfg33 a33).grid.coords t) (0 : Fin 1)).val = t.val := by
  have hN := ptsG33 a33 t
  show t.val / (cfg33 a33).grid.stride (0 : Fin 1) % 12500 = t.val
  rw [show (cfg33 a33).grid.stride (0 : Fin 1) = 1 from rfl, Nat.div_one, Nat.mod_eq_of_lt hN]

/-- The output window's block index at point t is (t, 0). -/
theorem indexG33 (t : Fin (cfg33 a33).N) :
    ((cfg33 a33).win 0).index t (0 : Fin 2) = t.val ∧ ((cfg33 a33).win 0).index t (1 : Fin 2) = 0 := by
  have hN := ptsG33 a33 t
  refine ⟨?_, rfl⟩
  show (BitVec.ofNat 32 (((cfg33 a33).grid.coords t) (0 : Fin 1)).val).toNat = t.val
  rw [coordG33, BitVec.toNat_ofNat]
  exact Nat.mod_eq_of_lt (by omega)

/-- The block index moves at every step, so every point writes its block back. -/
theorem flushG33 (t : Fin (cfg33 a33).N) : ((cfg33 a33).win 0).flush t = true := by
  rw [Pipeline.Window.flush_out _ rfl]
  have ht : t.val < (cfg33 a33).grid.N := t.isLt
  by_cases h : t.val + 1 < (cfg33 a33).grid.N
  · refine .inr ⟨h, fun e => ?_⟩
    have e0 : ((cfg33 a33).win 0).index ⟨t.val + 1, h⟩ (0 : Fin 2) = ((cfg33 a33).win 0).index t (0 : Fin 2) :=
      congrFun e (0 : Fin 2)
    have e1 : ((cfg33 a33).win 0).index ⟨t.val + 1, h⟩ (0 : Fin 2) = t.val + 1 := (indexG33 a33 ⟨t.val + 1, h⟩).1
    have e2 : ((cfg33 a33).win 0).index t (0 : Fin 2) = t.val := (indexG33 a33 t).1
    omega
  · exact .inl (by omega)

/-! ## What a point writes back, and the array -/

variable (T : (c : Dev nD) → S50000x128.Idx → Elt F .f32) (row : (c : Dev nD) → Fin 100000 → Fin 50000)

/-- The array the region leaves on core c: its row r is the source's row  row r. -/
abbrev outG33 (c : Dev nD) : S100000x128.Idx → Elt F .f32 := fun i => T c (ValueIdx.ix2 (row c (i 0)) (i 1))

/-- One element of the block at point t is the array's element 8 t rows further down, in the same column. -/
theorem blockG33_apply
    (hblk : ∀ c (t : Fin (cfg33 a33).N) (j : Fin 8) (l : Fin 128) (h : 8 * t.val + j.val < 100000),
      gblk c t (ValueIdx.ix2 j l) = T c (ValueIdx.ix2 (row c ⟨8 * t.val + j.val, h⟩) l))
    (c : Dev nD) (t : Fin (cfg33 a33).N) (y : S8x128.Idx) (k : S100000x128.Idx)
    (hk0 : (k 0).val = 8 * t.val + (y 0).val) (hk1 : (k 1).val = (y 1).val) :
    gblk c t y = outG33 T row c k := by
  have hy0 : (y 0).val < 8 := (y 0).isLt
  have hN := ptsG33 a33 t
  have hb : 8 * t.val + (y 0).val < 100000 := by omega
  have h0 : (⟨8 * t.val + (y 0).val, hb⟩ : Fin 100000) = k 0 := Fin.ext hk0.symm
  have h1 : (y 1 : Fin 128) = k 1 := Fin.ext hk1.symm
  calc gblk c t y = gblk c t (ValueIdx.ix2 (y 0) (y 1)) := congrArg (gblk c t) (ValueIdx.eq_ix2 y)
    _ = T c (ValueIdx.ix2 (row c ⟨8 * t.val + (y 0).val, hb⟩) (y 1)) := hblk c t (y 0) (y 1) hb
    _ = outG33 T row c k := congrArg₂ (fun (p : Fin 100000) (l : Fin 128) => T c (ValueIdx.ix2 (row c p) l)) h0 h1

/-- WHAT POINT t WRITES BACK is block t of that array. -/
theorem flushedG33_eq
    (hblk : ∀ c (t : Fin (cfg33 a33).N) (j : Fin 8) (l : Fin 128) (h : 8 * t.val + j.val < 100000),
      gblk c t (ValueIdx.ix2 j l) = T c (ValueIdx.ix2 (row c ⟨8 * t.val + j.val, h⟩) l))
    (c : Dev nD) (t : Fin (cfg33 a33).N) :
    (datG33 V a33 gblk c).flushed 0 t = (((cfg33 a33).win 0).blk t).view.read (Elt F) (outG33 T row c) := by
  obtain ⟨e0, e1⟩ := indexG33 a33 t
  have key : ∀ y : S8x128.Idx, gblk c t y = outG33 T row c ((((cfg33 a33).win 0).blk t).view.emb y) := fun y =>
    blockG33_apply a33 gblk T row hblk c t y _
      (by show ((cfg33 a33).win 0).index t (0 : Fin 2) * 8 + 1 * (y 0).val = 8 * t.val + (y 0).val
          rw [e0]; omega)
      (by show ((cfg33 a33).win 0).index t (1 : Fin 2) * 128 + 1 * (y 1).val = (y 1).val
          rw [e1]; omega)
  exact funext key

/-- An index of the array whose row is among the rows 8 t … 8 t + 7 is in point t's block. -/
theorem mem_blkG33 (t : Fin (cfg33 a33).N) (i : S100000x128.Idx)
    (hi : 8 * t.val ≤ (i 0).val ∧ (i 0).val < 8 * t.val + 8) : i ∈ (((cfg33 a33).win 0).blk t).view.set := by
  obtain ⟨e0, e1⟩ := indexG33 a33 t
  have hi1 : (i 1).val < 128 := (i 1).isLt
  have hs : (((cfg33 a33).win 0).blk t).view.set = (((cfg33 a33).win 0).rect t).set :=
    View.set_slice_whole main_v112 (((cfg33 a33).win 0).rect t)
  have key : ∀ a : Fin 2, ((cfg33 a33).win 0).index t a * S8x128.size a ≤ (i a).val
      ∧ (i a).val < ((cfg33 a33).win 0).index t a * S8x128.size a + S8x128.size a := fun a =>
    match a with
    | ⟨0, _⟩ => by
      show ((cfg33 a33).win 0).index t (0 : Fin 2) * 8 ≤ (i 0).val ∧ (i 0).val < ((cfg33 a33).win 0).index t (0 : Fin 2) * 8 + 8
      rw [e0]; omega
    | ⟨1, _⟩ => by
      show ((cfg33 a33).win 0).index t (1 : Fin 2) * 128 ≤ (i 1).val ∧ (i 1).val < ((cfg33 a33).win 0).index t (1 : Fin 2) * 128 + 128
      rw [e1]; omega
  exact (Finset.ext_iff.mp hs i).mpr (Rect.mem_set_unit.mpr key)

/-- THE COVER: row r of the array lies in the block of point r / 8, and that point writes its block back. -/
theorem coverG33 (i : S100000x128.Idx) :
    ∃ t : Fin (cfg33 a33).N, ((cfg33 a33).win 0).flush t = true ∧ i ∈ (((cfg33 a33).win 0).blk t).view.set := by
  have hi0 : (i 0).val < 100000 := (i 0).isLt
  have ht : (i 0).val / 8 < (cfg33 a33).N := lt_of_lt_of_eq (by omega : (i 0).val / 8 < 12500) N_33.symm
  exact ⟨⟨(i 0).val / 8, ht⟩, flushG33 a33 _, mem_blkG33 a33 ⟨(i 0).val / 8, ht⟩ i
    (by show 8 * ((i 0).val / 8) ≤ (i 0).val ∧ (i 0).val < 8 * ((i 0).val / 8) + 8; omega)⟩

/-- THE ARRAY after the region: its row r is the source's row  row r. -/
theorem finalG33
    (hblk : ∀ c (t : Fin (cfg33 a33).N) (j : Fin 8) (l : Fin 128) (h : 8 * t.val + j.val < 100000),
      gblk c t (ValueIdx.ix2 j l) = T c (ValueIdx.ix2 (row c ⟨8 * t.val + j.val, h⟩) l))
    (c : Dev nD) :
    (datG33 V a33 gblk c).arrAt 0 (cfg33 a33).N
      = fun i : S100000x128.Idx => T c (ValueIdx.ix2 (row c (i 0)) (i 1)) :=
  (datG33 V a33 gblk c).arrAt_eq_of_cover 0 (outG33 T row c)
    (fun t _ => flushedG33_eq V a33 gblk T row hblk c t) (coverG33 a33)

/-- THE ARRAY, when the row numbers are the words of an index table tblw, each below 50000: row r is the source's row
    at the node that word r names (a word below 50000 names the node of that number). -/
theorem finalG33_node (tblw : IVec S100000 32) (hlt : ∀ k : S100000.Idx, (tblw k).toNat < 50000)
    (hblk : ∀ c (t : Fin (cfg33 a33).N) (j : Fin 8) (l : Fin 128) (h : 8 * t.val + j.val < 100000),
      gblk c t (ValueIdx.ix2 j l)
        = T c (ValueIdx.ix2 (⟨(tblw (ValueIdx.ix1 (⟨8 * t.val + j.val, h⟩ : Fin 100000))).toNat, hlt _⟩ : Fin 50000) l))
    (c : Dev nD) :
    (datG33 V a33 gblk c).arrAt 0 (cfg33 a33).N
      = fun i : S100000x128.Idx => T c (ValueIdx.ix2 (Cert.Spec.node (tblw (ValueIdx.ix1 (i 0)))) (i 1)) :=
  (finalG33 V a33 gblk T (fun _ p => ⟨(tblw (ValueIdx.ix1 p)).toNat, hlt _⟩) hblk c).trans
    (funext fun i => congrArg (fun p : Fin 50000 => T c (ValueIdx.ix2 p (i 1))) (Cert.Spec.node_of_lt (hlt _)).symm)

end Cert.KernelIdeal.Hand

end
-- ==== Proof.KI.GatherAt33.lean ====
/-
  Region 33 in the run: what it leaves, in terms of what the program's items before it left.

  Between the program's items core c's buffers hold the chain's valuations. Region 33's index table, as the region's
  proof data hold it, is the closed table of the launch memory, and every word of it is below 50000 when every word
  of the edge list is. So the region's output array holds, in its row r, the row — of the array the region reads — at
  the node that the table's word r names; and the array it reads is left as it was, which is as the item before the
  table's host stretch left it. No later item writes the output array before the host stretch that concatenates the
  gather outputs, so at that stretch's entry it holds the same rows (gat33: stated for whatever the array read holds).
-/
import proofs.«402049_j87351044866139_2_alg».proof.Proof.KI.Chain
import proofs.«402049_j87351044866139_2_alg».proof.Proof.KI.Carry
import proofs.«402049_j87351044866139_2_alg».proof.Proof.KI.GatherVal33
import proofs.«402049_j87351044866139_2_alg».proof.Proof.KI.Tables

set_option maxRecDepth 16384

noncomputable section

namespace Cert.KernelIdeal.Hand

open Cert.KernelIdeal Cert.KernelIdeal.Gen Cert.KernelIdeal.GenP
open Idealize.ShloMosaic Idealize.ShloMosaic.TcCoe
open Idealize.SL.Sem

variable {F : FTy → Type} [FloatOps F]
variable (m : (ℓ : Loc nD τ sig) → Buf (Elt F) ℓ)

/-- The index table the region's proof data hold is the closed table of the launch memory: the data hold what the
    chain's valuation at the region's entry has in the table's buffer, and that valuation is the run's own. -/
theorem tblwU33 : tblw33 (a33 m) = tbl33 m c₀ := by
  have h1 : tblw33 (a33 m) = (U69 m c₀ main_v111 : IVec S100000 32) := by
    unfold a33
    rfl
  have h2 : ∀ W : Valuation τ sig (Elt F), V69 m (outsU m) c₀ = W → (W main_v111 : IVec S100000 32) = tbl33 m c₀ :=
    fun W hW => by subst hW; exact tbl33_eq m (outsU m) c₀
  exact h1.trans (h2 (U69 m c₀) (V69_eq m c₀))

/-- The array the region reads, at the region's entry, is as the item before the table's host stretch left it. -/
theorem gin33 (c : Dev nD) : atTc (U69 m) c main_v89 = V68 m (outsU m) c main_v89 :=
  (congrFun (V69_eq m c) main_v89).symm.trans (V69_of m (outsU m) c main_v89 (by decide))

/-- THE ARRAY THE REGION READS is left as it was. -/
theorem gsrc33 (c : Dev nD) : V70 m (outsU m) c main_v89 = V68 m (outsU m) c main_v89 :=
  (congrFun (V70_eq m c) main_v89).trans ((U70_hbm m c).trans (gin33 m c))

/-- THE REGION'S OUTPUT: its row r is the row, of the array the region reads, at the node the table's word r names. -/
theorem g33_val (c : Dev nD) (hm : ∀ i : S2x800000.Idx, ((V0 m c main_arg1 : IVec S2x800000 32) i).toNat < 50000) :
    (V70 m (outsU m) c main_v112 : S100000x128.Idx → Elt F .f32)
      = fun i => (V68 m (outsU m) c main_v89 : S50000x128.Idx → Elt F .f32)
          (ValueIdx.ix2 (Cert.Spec.node (tbl33 m c (ValueIdx.ix1 (i 0)))) (i 1)) := by
  obtain rfl : c = c₀ := eq_c₀ c
  have hlt : ∀ k : S100000.Idx, (tblw33 (a33 m) k).toNat < 50000 := fun k => by
    rw [tblwU33]; exact tbl33_lt m c₀ hm k
  refine (congrFun (V70_eq m c₀) main_v112).trans ((U70_out m c₀).trans ?_)
  refine (finalG33_node (atTc (U69 m)) (a33 m) (gblk33 (atTc (U69 m)) (a33 m)) (fun c => V68 m (outsU m) c main_v89)
      (tblw33 (a33 m)) hlt
      (fun c t j l _ => (gblk33_apply (atTc (U69 m)) (a33 m) hlt c t j l).trans (congrFun (gin33 m c) _)) c₀).trans ?_
  rw [tblwU33]
  rfl

/-- THE REGION'S OUTPUT WHERE IT IS READ, at the entry of the host stretch that concatenates the gather outputs: the
    rows of T at the nodes the table names, when the array the region reads holds T. -/
theorem gat33 (c : Dev nD) (hm : ∀ i : S2x800000.Idx, ((V0 m c main_arg1 : IVec S2x800000 32) i).toNat < 50000)
    (T : S50000x128.Idx → Elt F .f32) (hT : V68 m (outsU m) c main_v89 = T) :
    (V80 m (outsU m) c main_v112 : S100000x128.Idx → Elt F .f32)
      = fun i => T (ValueIdx.ix2 (Cert.Spec.node (tbl33 m c (ValueIdx.ix1 (i 0)))) (i 1)) := by
  subst hT
  exact (carry33 m (outsU m) c).trans (g33_val m c hm)

end Cert.KernelIdeal.Hand

end
-- ==== Proof.KI.GatherVal34.lean ====
/-
  The value of the row-gather region 34: the array its output window leaves.

  At grid point t the region's output block holds, in its row j, the source's row  row (8 t + j).  The block sits at
  block index (t, 0) of the 100000 x 128 output array: it covers the rows 8 t … 8 t + 7 and all 128 columns. Every point
  writes its block back (the block index moves at every step), and row r of the array lies in the block of point r / 8,
  at the block's row r % 8. So the array ends with its row r equal to the source's row  row r,  for every r.

  The gathered block is taken abstractly here: any family of blocks that reads as above (the hypothesis of
  flushedG34_eq and finalG34) gives the array. When the row numbers are the words of an index table, each below 50000,
  row r of the array is the source's row at the node the table's word r names (finalG34_node).
-/
import proofs.«402049_j87351044866139_2_alg».proof.Proof.KI.Gather34
import proofs.«402049_j87351044866139_2_alg».proof.Proof.Spec
import Idealize.ShloMosaic.Lib.Pipeline.Value
import Idealize.ShloMosaic.Lib.ValueIdx

set_option maxRecDepth 16384

noncomputable section

namespace Cert.KernelIdeal.Hand

open Idealize.ShloMosaic Idealize.ShloMosaic.TcCoe
open Idealize.SL.Sem
open Idealize.ShloMosaic.Pipeline (Dat Cfg Window)
open Cert.KernelIdeal Cert.KernelIdeal.Gen

variable {F : FTy → Type} [FloatOps F]

variable (V : (c : Dev nD) → (b : Ref sig .tc) → Buf (Elt F) ((c : Thread nD τ).loc b))
variable (a34 : (pcfg34 (F := F)).Adm)
variable (gblk : (c : Dev nD) → Fin (cfg34 a34).N → S8x128.Idx → Elt F .f32)

/-! ## The grid and the output window's schedule -/

/-- The region's grid has 12500 points. -/
theorem ptsG34 (t : Fin (cfg34 a34).N) : t.val < 12500 := lt_of_lt_of_eq t.isLt N_34

/-- The grid has one axis, so point t has coordinate t. -/
theorem coordG34 (t : Fin (cfg34 a34).N) : (((cfg34 a34).grid.coords t) (0 : Fin 1)).val = t.val := by
  have hN := ptsG34 a34 t
  show t.val / (cfg34 a34).grid.stride (0 : Fin 1) % 12500 = t.val
  rw [show (cfg34 a34).grid.stride (0 : Fin 1) = 1 from rfl, Nat.div_one, Nat.mod_eq_of_lt hN]

/-- The output window's block index at point t is (t, 0). -/
theorem indexG34 (t : Fin (cfg34 a34).N) :
    ((cfg34 a34).win 0).index t (0 : Fin 2) = t.val ∧ ((cfg34 a34).win 0).index t (1 : Fin 2) = 0 := by
  have hN := ptsG34 a34 t
  refine ⟨?_, rfl⟩
  show (BitVec.ofNat 32 (((cfg34 a34).grid.coords t) (0 : Fin 1)).val).toNat = t.val
  rw [coordG34, BitVec.toNat_ofNat]
  exact Nat.mod_eq_of_lt (by omega)

/-- The block index moves at every step, so every point writes its block back. -/
theorem flushG34 (t : Fin (cfg34 a34).N) : ((cfg34 a34).win 0).flush t = true := by
  rw [Pipeline.Window.flush_out _ rfl]
  have ht : t.val < (cfg34 a34).grid.N := t.isLt
  by_cases h : t.val + 1 < (cfg34 a34).grid.N
  · refine .inr ⟨h, fun e => ?_⟩
    have e0 : ((cfg34 a34).win 0).index ⟨t.val + 1, h⟩ (0 : Fin 2) = ((cfg34 a34).win 0).index t (0 : Fin 2) :=
      congrFun e (0 : Fin 2)
    have e1 : ((cfg34 a34).win 0).index ⟨t.val + 1, h⟩ (0 : Fin 2) = t.val + 1 := (indexG34 a34 ⟨t.val + 1, h⟩).1
    have e2 : ((cfg34 a34).win 0).index t (0 : Fin 2) = t.val := (indexG34 a34 t).1
    omega
  · exact .inl (by omega)

/-! ## What a point writes back, and the array -/

variable (T : (c : Dev nD) → S50000x128.Idx → Elt F .f32) (row : (c : Dev nD) → Fin 100000 → Fin 50000)

/-- The array the region leaves on core c: its row r is the source's row  row r. -/
abbrev outG34 (c : Dev nD) : S100000x128.Idx → Elt F .f32 := fun i => T c (ValueIdx.ix2 (row c (i 0)) (i 1))

/-- One element of the block at point t is the array's element 8 t rows further down, in the same column. -/
theorem blockG34_apply
    (hblk : ∀ c (t : Fin (cfg34 a34).N) (j : Fin 8) (l : Fin 128) (h : 8 * t.val + j.val < 100000),
      gblk c t (ValueIdx.ix2 j l) = T c (ValueIdx.ix2 (row c ⟨8 * t.val + j.val, h⟩) l))
    (c : Dev nD) (t : Fin (cfg34 a34).N) (y : S8x128.Idx) (k : S100000x128.Idx)
    (hk0 : (k 0).val = 8 * t.val + (y 0).val) (hk1 : (k 1).val = (y 1).val) :
    gblk c t y = outG34 T row c k := by
  have hy0 : (y 0).val < 8 := (y 0).isLt
  have hN := ptsG34 a34 t
  have hb : 8 * t.val + (y 0).val < 100000 := by omega
  have h0 : (⟨8 * t.val + (y 0).val, hb⟩ : Fin 100000) = k 0 := Fin.ext hk0.symm
  have h1 : (y 1 : Fin 128) = k 1 := Fin.ext hk1.symm
  calc gblk c t y = gblk c t (ValueIdx.ix2 (y 0) (y 1)) := congrArg (gblk c t) (ValueIdx.eq_ix2 y)
    _ = T c (ValueIdx.ix2 (row c ⟨8 * t.val + (y 0).val, hb⟩) (y 1)) := hblk c t (y 0) (y 1) hb
    _ = outG34 T row c k := congrArg₂ (fun (p : Fin 100000) (l : Fin 128) => T c (ValueIdx.ix2 (row c p) l)) h0 h1

/-- WHAT POINT t WRITES BACK is block t of that array. -/
theorem flushedG34_eq
    (hblk : ∀ c (t : Fin (cfg34 a34).N) (j : Fin 8) (l : Fin 128) (h : 8 * t.val + j.val < 100000),
      gblk c t (ValueIdx.ix2 j l) = T c (ValueIdx.ix2 (row c ⟨8 * t.val + j.val, h⟩) l))
    (c : Dev nD) (t : Fin (cfg34 a34).N) :
    (datG34 V a34 gblk c).flushed 0 t = (((cfg34 a34).win 0).blk t).view.read (Elt F) (outG34 T row c) := by
  obtain ⟨e0, e1⟩ := indexG34 a34 t
  have key : ∀ y : S8x128.Idx, gblk c t y = outG34 T row c ((((cfg34 a34).win 0).blk t).view.emb y) := fun y =>
    blockG34_apply a34 gblk T row hblk c t y _
      (by show ((cfg34 a34).win 0).index t (0 : Fin 2) * 8 + 1 * (y 0).val = 8 * t.val + (y 0).val
          rw [e0]; omega)
      (by show ((cfg34 a34).win 0).index t (1 : Fin 2) * 128 + 1 * (y 1).val = (y 1).val
          rw [e1]; omega)
  exact funext key

/-- An index of the array whose row is among the rows 8 t … 8 t + 7 is in point t's block. -/
theorem mem_blkG34 (t : Fin (cfg34 a34).N) (i : S100000x128.Idx)
    (hi : 8 * t.val ≤ (i 0).val ∧ (i 0).val < 8 * t.val + 8) : i ∈ (((cfg34 a34).win 0).blk t).view.set := by
  obtain ⟨e0, e1⟩ := indexG34 a34 t
  have hi1 : (i 1).val < 128 := (i 1).isLt
  have hs : (((cfg34 a34).win 0).blk t).view.set = (((cfg34 a34).win 0).rect t).set :=
    View.set_slice_whole main_v114 (((cfg34 a34).win 0).rect t)
  have key : ∀ a : Fin 2, ((cfg34 a34).win 0).index t a * S8x128.size a ≤ (i a).val
      ∧ (i a).val < ((cfg34 a34).win 0).index t a * S8x128.size a + S8x128.size a := fun a =>
    match a with
    | ⟨0, _⟩ => by
      show ((cfg34 a34).win 0).index t (0 : Fin 2) * 8 ≤ (i 0).val ∧ (i 0).val < ((cfg34 a34).win 0).index t (0 : Fin 2) * 8 + 8
      rw [e0]; omega
    | ⟨1, _⟩ => by
      show ((cfg34 a34).win 0).index t (1 : Fin 2) * 128 ≤ (i 1).val ∧ (i 1).val < ((cfg34 a34).win 0).index t (1 : Fin 2) * 128 + 128
      rw [e1]; omega
  exact (Finset.ext_iff.mp hs i).mpr (Rect.mem_set_unit.mpr key)

/-- THE COVER: row r of the array lies in the block of point r / 8, and that point writes its block back. -/
theorem coverG34 (i : S100000x128.Idx) :
    ∃ t : Fin (cfg34 a34).N, ((cfg34 a34).win 0).flush t = true ∧ i ∈ (((cfg34 a34).win 0).blk t).view.set := by
  have hi0 : (i 0).val < 100000 := (i 0).isLt
  have ht : (i 0).val / 8 < (cfg34 a34).N := lt_of_lt_of_eq (by omega : (i 0).val / 8 < 12500) N_34.symm
  exact ⟨⟨(i 0).val / 8, ht⟩, flushG34 a34 _, mem_blkG34 a34 ⟨(i 0).val / 8, ht⟩ i
    (by show 8 * ((i 0).val / 8) ≤ (i 0).val ∧ (i 0).val < 8 * ((i 0).val / 8) + 8; omega)⟩

/-- THE ARRAY after the region: its row r is the source's row  row r. -/
theorem finalG34
    (hblk : ∀ c (t : Fin (cfg34 a34).N) (j : Fin 8) (l : Fin 128) (h : 8 * t.val + j.val < 100000),
      gblk c t (ValueIdx.ix2 j l) = T c (ValueIdx.ix2 (row c ⟨8 * t.val + j.val, h⟩) l))
    (c : Dev nD) :
    (datG34 V a34 gblk c).arrAt 0 (cfg34 a34).N
      = fun i : S100000x128.Idx => T c (ValueIdx.ix2 (row c (i 0)) (i 1)) :=
  (datG34 V a34 gblk c).arrAt_eq_of_cover 0 (outG34 T row c)
    (fun t _ => flushedG34_eq V a34 gblk T row hblk c t) (coverG34 a34)

/-- THE ARRAY, when the row numbers are the words of an index table tblw, each below 50000: row r is the source's row
    at the node that word r names (a word below 50000 names the node of that number). -/
theorem finalG34_node (tblw : IVec S100000 32) (hlt : ∀ k : S100000.Idx, (tblw k).toNat < 50000)
    (hblk : ∀ c (t : Fin (cfg34 a34).N) (j : Fin 8) (l : Fin 128) (h : 8 * t.val + j.val < 100000),
      gblk c t (ValueIdx.ix2 j l)
        = T c (ValueIdx.ix2 (⟨(tblw (ValueIdx.ix1 (⟨8 * t.val + j.val, h⟩ : Fin 100000))).toNat, hlt _⟩ : Fin 50000) l))
    (c : Dev nD) :
    (datG34 V a34 gblk c).arrAt 0 (cfg34 a34).N
      = fun i : S100000x128.Idx => T c (ValueIdx.ix2 (Cert.Spec.node (tblw (ValueIdx.ix1 (i 0)))) (i 1)) :=
  (finalG34 V a34 gblk T (fun _ p => ⟨(tblw (ValueIdx.ix1 p)).toNat, hlt _⟩) hblk c).trans
    (funext fun i => congrArg (fun p : Fin 50000 => T c (ValueIdx.ix2 p (i 1))) (Cert.Spec.node_of_lt (hlt _)).symm)

end Cert.KernelIdeal.Hand

end
-- ==== Proof.KI.GatherAt34.lean ====
/-
  Region 34 in the run: what it leaves, in terms of what the program's items before it left.

  Between the program's items core c's buffers hold the chain's valuations. Region 34's index table, as the region's
  proof data hold it, is the closed table of the launch memory, and every word of it is below 50000 when every word
  of the edge list is. So the region's output array holds, in its row r, the row — of the array the region reads — at
  the node that the table's word r names; and the array it reads is left as it was, which is as the item before the
  table's host stretch left it. No later item writes the output array before the host stretch that concatenates the
  gather outputs, so at that stretch's entry it holds the same rows (gat34: stated for whatever the array read holds).
-/
import proofs.«402049_j87351044866139_2_alg».proof.Proof.KI.Chain
import proofs.«402049_j87351044866139_2_alg».proof.Proof.KI.Carry
import proofs.«402049_j87351044866139_2_alg».proof.Proof.KI.GatherVal34
import proofs.«402049_j87351044866139_2_alg».proof.Proof.KI.Tables

set_option maxRecDepth 16384

noncomputable section

namespace Cert.KernelIdeal.Hand

open Cert.KernelIdeal Cert.KernelIdeal.Gen Cert.KernelIdeal.GenP
open Idealize.ShloMosaic Idealize.ShloMosaic.TcCoe
open Idealize.SL.Sem

variable {F : FTy → Type} [FloatOps F]
variable (m : (ℓ : Loc nD τ sig) → Buf (Elt F) ℓ)

/-- The index table the region's proof data hold is the closed table of the launch memory: the data hold what the
    chain's valuation at the region's entry has in the table's buffer, and that valuation is the run's own. -/
theorem tblwU34 : tblw34 (a34 m) = tbl34 m c₀ := by
  have h1 : tblw34 (a34 m) = (U71 m c₀ main_v113 : IVec S100000 32) := by
    unfold a34
    rfl
  have h2 : ∀ W : Valuation τ sig (Elt F), V71 m (outsU m) c₀ = W → (W main_v113 : IVec S100000 32) = tbl34 m c₀ :=
    fun W hW => by subst hW; exact tbl34_eq m (outsU m) c₀
  exact h1.trans (h2 (U71 m c₀) (V71_eq m c₀))

/-- The array the region reads, at the region's entry, is as the item before the table's host stretch left it. -/
theorem gin34 (c : Dev nD) : atTc (U71 m) c main_v89 = V70 m (outsU m) c main_v89 :=
  (congrFun (V71_eq m c) main_v89).symm.trans (V71_of m (outsU m) c main_v89 (by decide))

/-- THE ARRAY THE REGION READS is left as it was. -/
theorem gsrc34 (c : Dev nD) : V72 m (outsU m) c main_v89 = V70 m (outsU m) c main_v89 :=
  (congrFun (V72_eq m c) main_v89).trans ((U72_hbm m c).trans (gin34 m c))

/-- THE REGION'S OUTPUT: its row r is the row, of the array the region reads, at the node the table's word r names. -/
theorem g34_val (c : Dev nD) (hm : ∀ i : S2x800000.Idx, ((V0 m c main_arg1 : IVec S2x800000 32) i).toNat < 50000) :
    (V72 m (outsU m) c main_v114 : S100000x128.Idx → Elt F .f32)
      = fun i => (V70 m (outsU m) c main_v89 : S50000x128.Idx → Elt F .f32)
          (ValueIdx.ix2 (Cert.Spec.node (tbl34 m c (ValueIdx.ix1 (i 0)))) (i 1)) := by
  obtain rfl : c = c₀ := eq_c₀ c
  have hlt : ∀ k : S100000.Idx, (tblw34 (a34 m) k).toNat < 50000 := fun k => by
    rw [tblwU34]; exact tbl34_lt m c₀ hm k
  refine (congrFun (V72_eq m c₀) main_v114).trans ((U72_out m c₀).trans ?_)
  refine (finalG34_node (atTc (U71 m)) (a34 m) (gblk34 (atTc (U71 m)) (a34 m)) (fun c => V70 m (outsU m) c main_v89)
      (tblw34 (a34 m)) hlt
      (fun c t j l _ => (gblk34_apply (atTc (U71 m)) (a34 m) hlt c t j l).trans (congrFun (gin34 m c) _)) c₀).trans ?_
  rw [tblwU34]
  rfl

/-- THE REGION'S OUTPUT WHERE IT IS READ, at the entry of the host stretch that concatenates the gather outputs: the
    rows of T at the nodes the table names, when the array the region reads holds T. -/
theorem gat34 (c : Dev nD) (hm : ∀ i : S2x800000.Idx, ((V0 m c main_arg1 : IVec S2x800000 32) i).toNat < 50000)
    (T : S50000x128.Idx → Elt F .f32) (hT : V70 m (outsU m) c main_v89 = T) :
    (V80 m (outsU m) c main_v114 : S100000x128.Idx → Elt F .f32)
      = fun i => T (ValueIdx.ix2 (Cert.Spec.node (tbl34 m c (ValueIdx.ix1 (i 0)))) (i 1)) := by
  subst hT
  exact (carry34 m (outsU m) c).trans (g34_val m c hm)

end Cert.KernelIdeal.Hand

end
-- ==== Proof.KI.GatherVal35.lean ====
/-
  The value of the row-gather region 35: the array its output window leaves.

  At grid point t the region's output block holds, in its row j, the source's row  row (8 t + j).  The block sits at
  block index (t, 0) of the 100000 x 128 output array: it covers the rows 8 t … 8 t + 7 and all 128 columns. Every point
  writes its block back (the block index moves at every step), and row r of the array lies in the block of point r / 8,
  at the block's row r % 8. So the array ends with its row r equal to the source's row  row r,  for every r.

  The gathered block is taken abstractly here: any family of blocks that reads as above (the hypothesis of
  flushedG35_eq and finalG35) gives the array. When the row numbers are the words of an index table, each below 50000,
  row r of the array is the source's row at the node the table's word r names (finalG35_node).
-/
import proofs.«402049_j87351044866139_2_alg».proof.Proof.KI.Gather35
import proofs.«402049_j87351044866139_2_alg».proof.Proof.Spec
import Idealize.ShloMosaic.Lib.Pipeline.Value
import Idealize.ShloMosaic.Lib.ValueIdx

set_option maxRecDepth 16384

noncomputable section

namespace Cert.KernelIdeal.Hand

open Idealize.ShloMosaic Idealize.ShloMosaic.TcCoe
open Idealize.SL.Sem
open Idealize.ShloMosaic.Pipeline (Dat Cfg Window)
open Cert.KernelIdeal Cert.KernelIdeal.Gen

variable {F : FTy → Type} [FloatOps F]

variable (V : (c : Dev nD) → (b : Ref sig .tc) → Buf (Elt F) ((c : Thread nD τ).loc b))
variable (a35 : (pcfg35 (F := F)).Adm)
variable (gblk : (c : Dev nD) → Fin (cfg35 a35).N → S8x128.Idx → Elt F .f32)

/-! ## The grid and the output window's schedule -/

/-- The region's grid has 12500 points. -/
theorem ptsG35 (t : Fin (cfg35 a35).N) : t.val < 12500 := lt_of_lt_of_eq t.isLt N_35

/-- The grid has one axis, so point t has coordinate t. -/
theorem coordG35 (t : Fin (cfg35 a35).N) : (((cfg35 a35).grid.coords t) (0 : Fin 1)).val = t.val := by
  have hN := ptsG35 a35 t
  show t.val / (cfg35 a35).grid.stride (0 : Fin 1) % 12500 = t.val
  rw [show (cfg35 a35).grid.stride (0 : Fin 1) = 1 from rfl, Nat.div_one, Nat.mod_eq_of_lt hN]

/-- The output window's block index at point t is (t, 0). -/
theorem indexG35 (t : Fin (cfg35 a35).N) :
    ((cfg35 a35).win 0).index t (0 : Fin 2) = t.val ∧ ((cfg35 a35).win 0).index t (1 : Fin 2) = 0 := by
  have hN := ptsG35 a35 t
  refine ⟨?_, rfl⟩
  show (BitVec.ofNat 32 (((cfg35 a35).grid.coords t) (0 : Fin 1)).val).toNat = t.val
  rw [coordG35, BitVec.toNat_ofNat]
  exact Nat.mod_eq_of_lt (by omega)

/-- The block index moves at every step, so every point writes its block back. -/
theorem flushG35 (t : Fin (cfg35 a35).N) : ((cfg35 a35).win 0).flush t = true := by
  rw [Pipeline.Window.flush_out _ rfl]
  have ht : t.val < (cfg35 a35).grid.N := t.isLt
  by_cases h : t.val + 1 < (cfg35 a35).grid.N
  · refine .inr ⟨h, fun e => ?_⟩
    have e0 : ((cfg35 a35).win 0).index ⟨t.val + 1, h⟩ (0 : Fin 2) = ((cfg35 a35).win 0).index t (0 : Fin 2) :=
      congrFun e (0 : Fin 2)
    have e1 : ((cfg35 a35).win 0).index ⟨t.val + 1, h⟩ (0 : Fin 2) = t.val + 1 := (indexG35 a35 ⟨t.val + 1, h⟩).1
    have e2 : ((cfg35 a35).win 0).index t (0 : Fin 2) = t.val := (indexG35 a35 t).1
    omega
  · exact .inl (by omega)

/-! ## What a point writes back, and the array -/

variable (T : (c : Dev nD) → S50000x128.Idx → Elt F .f32) (row : (c : Dev nD) → Fin 100000 → Fin 50000)

/-- The array the region leaves on core c: its row r is the source's row  row r. -/
abbrev outG35 (c : Dev nD) : S100000x128.Idx → Elt F .f32 := fun i => T c (ValueIdx.ix2 (row c (i 0)) (i 1))

/-- One element of the block at point t is the array's element 8 t rows further down, in the same column. -/
theorem blockG35_apply
    (hblk : ∀ c (t : Fin (cfg35 a35).N) (j : Fin 8) (l : Fin 128) (h : 8 * t.val + j.val < 100000),
      gblk c t (ValueIdx.ix2 j l) = T c (ValueIdx.ix2 (row c ⟨8 * t.val + j.val, h⟩) l))
    (c : Dev nD) (t : Fin (cfg35 a35).N) (y : S8x128.Idx) (k : S100000x128.Idx)
    (hk0 : (k 0).val = 8 * t.val + (y 0).val) (hk1 : (k 1).val = (y 1).val) :
    gblk c t y = outG35 T row c k := by
  have hy0 : (y 0).val < 8 := (y 0).isLt
  have hN := ptsG35 a35 t
  have hb : 8 * t.val + (y 0).val < 100000 := by omega
  have h0 : (⟨8 * t.val + (y 0).val, hb⟩ : Fin 100000) = k 0 := Fin.ext hk0.symm
  have h1 : (y 1 : Fin 128) = k 1 := Fin.ext hk1.symm
  calc gblk c t y = gblk c t (ValueIdx.ix2 (y 0) (y 1)) := congrArg (gblk c t) (ValueIdx.eq_ix2 y)
    _ = T c (ValueIdx.ix2 (row c ⟨8 * t.val + (y 0).val, hb⟩) (y 1)) := hblk c t (y 0) (y 1) hb
    _ = outG35 T row c k := congrArg₂ (fun (p : Fin 100000) (l : Fin 128) => T c (ValueIdx.ix2 (row c p) l)) h0 h1

/-- WHAT POINT t WRITES BACK is block t of that array. -/
theorem flushedG35_eq
    (hblk : ∀ c (t : Fin (cfg35 a35).N) (j : Fin 8) (l : Fin 128) (h : 8 * t.val + j.val < 100000),
      gblk c t (ValueIdx.ix2 j l) = T c (ValueIdx.ix2 (row c ⟨8 * t.val + j.val, h⟩) l))
    (c : Dev nD) (t : Fin (cfg35 a35).N) :
    (datG35 V a35 gblk c).flushed 0 t = (((cfg35 a35).win 0).blk t).view.read (Elt F) (outG35 T row c) := by
  obtain ⟨e0, e1⟩ := indexG35 a35 t
  have key : ∀ y : S8x128.Idx, gblk c t y = outG35 T row c ((((cfg35 a35).win 0).blk t).view.emb y) := fun y =>
    blockG35_apply a35 gblk T row hblk c t y _
      (by show ((cfg35 a35).win 0).index t (0 : Fin 2) * 8 + 1 * (y 0).val = 8 * t.val + (y 0).val
          rw [e0]; omega)
      (by show ((cfg35 a35).win 0).index t (1 : Fin 2) * 128 + 1 * (y 1).val = (y 1).val
          rw [e1]; omega)
  exact funext key

/-- An index of the array whose row is among the rows 8 t … 8 t + 7 is in point t's block. -/
theorem mem_blkG35 (t : Fin (cfg35 a35).N) (i : S100000x128.Idx)
    (hi : 8 * t.val ≤ (i 0).val ∧ (i 0).val < 8 * t.val + 8) : i ∈ (((cfg35 a35).win 0).blk t).view.set := by
  obtain ⟨e0, e1⟩ := indexG35 a35 t
  have hi1 : (i 1).val < 128 := (i 1).isLt
  have hs : (((cfg35 a35).win 0).blk t).view.set = (((cfg35 a35).win 0).rect t).set :=
    View.set_slice_whole main_v116 (((cfg35 a35).win 0).rect t)
  have key : ∀ a : Fin 2, ((cfg35 a35).win 0).index t a * S8x128.size a ≤ (i a).val
      ∧ (i a).val < ((cfg35 a35).win 0).index t a * S8x128.size a + S8x128.size a := fun a =>
    match a with
    | ⟨0, _⟩ => by
      show ((cfg35 a35).win 0).index t (0 : Fin 2) * 8 ≤ (i 0).val ∧ (i 0).val < ((cfg35 a35).win 0).index t (0 : Fin 2) * 8 + 8
      rw [e0]; omega
    | ⟨1, _⟩ => by
      show ((cfg35 a35).win 0).index t (1 : Fin 2) * 128 ≤ (i 1).val ∧ (i 1).val < ((cfg35 a35).win 0).index t (1 : Fin 2) * 128 + 128
      rw [e1]; omega
  exact (Finset.ext_iff.mp hs i).mpr (Rect.mem_set_unit.mpr key)

/-- THE COVER: row r of the array lies in the block of point r / 8, and that point writes its block back. -/
theorem coverG35 (i : S100000x128.Idx) :
    ∃ t : Fin (cfg35 a35).N, ((cfg35 a35).win 0).flush t = true ∧ i ∈ (((cfg35 a35).win 0).blk t).view.set := by
  have hi0 : (i 0).val < 100000 := (i 0).isLt
  have ht : (i 0).val / 8 < (cfg35 a35).N := lt_of_lt_of_eq (by omega : (i 0).val / 8 < 12500) N_35.symm
  exact ⟨⟨(i 0).val / 8, ht⟩, flushG35 a35 _, mem_blkG35 a35 ⟨(i 0).val / 8, ht⟩ i
    (by show 8 * ((i 0).val / 8) ≤ (i 0).val ∧ (i 0).val < 8 * ((i 0).val / 8) + 8; omega)⟩

/-- THE ARRAY after the region: its row r is the source's row  row r. -/
theorem finalG35
    (hblk : ∀ c (t : Fin (cfg35 a35).N) (j : Fin 8) (l : Fin 128) (h : 8 * t.val + j.val < 100000),
      gblk c t (ValueIdx.ix2 j l) = T c (ValueIdx.ix2 (row c ⟨8 * t.val + j.val, h⟩) l))
    (c : Dev nD) :
    (datG35 V a35 gblk c).arrAt 0 (cfg35 a35).N
      = fun i : S100000x128.Idx => T c (ValueIdx.ix2 (row c (i 0)) (i 1)) :=
  (datG35 V a35 gblk c).arrAt_eq_of_cover 0 (outG35 T row c)
    (fun t _ => flushedG35_eq V a35 gblk T row hblk c t) (coverG35 a35)

/-- THE ARRAY, when the row numbers are the words of an index table tblw, each below 50000: row r is the source's row
    at the node that word r names (a word below 50000 names the node of that number). -/
theorem finalG35_node (tblw : IVec S100000 32) (hlt : ∀ k : S100000.Idx, (tblw k).toNat < 50000)
    (hblk : ∀ c (t : Fin (cfg35 a35).N) (j : Fin 8) (l : Fin 128) (h : 8 * t.val + j.val < 100000),
      gblk c t (ValueIdx.ix2 j l)
        = T c (ValueIdx.ix2 (⟨(tblw (ValueIdx.ix1 (⟨8 * t.val + j.val, h⟩ : Fin 100000))).toNat, hlt _⟩ : Fin 50000) l))
    (c : Dev nD) :
    (datG35 V a35 gblk c).arrAt 0 (cfg35 a35).N
      = fun i : S100000x128.Idx => T c (ValueIdx.ix2 (Cert.Spec.node (tblw (ValueIdx.ix1 (i 0)))) (i 1)) :=
  (finalG35 V a35 gblk T (fun _ p => ⟨(tblw (ValueIdx.ix1 p)).toNat, hlt _⟩) hblk c).trans
    (funext fun i => congrArg (fun p : Fin 50000 => T c (ValueIdx.ix2 p (i 1))) (Cert.Spec.node_of_lt (hlt _)).symm)

end Cert.KernelIdeal.Hand

end
-- ==== Proof.KI.GatherAt35.lean ====
/-
  Region 35 in the run: what it leaves, in terms of what the program's items before it left.

  Between the program's items core c's buffers hold the chain's valuations. Region 35's index table, as the region's
  proof data hold it, is the closed table of the launch memory, and every word of it is below 50000 when every word
  of the edge list is. So the region's output array holds, in its row r, the row — of the array the region reads — at
  the node that the table's word r names; and the array it reads is left as it was, which is as the item before the
  table's host stretch left it. No later item writes the output array before the host stretch that concatenates the
  gather outputs, so at that stretch's entry it holds the same rows (gat35: stated for whatever the array read holds).
-/
import proofs.«402049_j87351044866139_2_alg».proof.Proof.KI.Chain
import proofs.«402049_j87351044866139_2_alg».proof.Proof.KI.Carry
import proofs.«402049_j87351044866139_2_alg».proof.Proof.KI.GatherVal35
import proofs.«402049_j87351044866139_2_alg».proof.Proof.KI.Tables

set_option maxRecDepth 16384

noncomputable section

namespace Cert.KernelIdeal.Hand

open Cert.KernelIdeal Cert.KernelIdeal.Gen Cert.KernelIdeal.GenP
open Idealize.ShloMosaic Idealize.ShloMosaic.TcCoe
open Idealize.SL.Sem

variable {F : FTy → Type} [FloatOps F]
variable (m : (ℓ : Loc nD τ sig) → Buf (Elt F) ℓ)

/-- The index table the region's proof data hold is the closed table of the launch memory: the data hold what the
    chain's valuation at the region's entry has in the table's buffer, and that valuation is the run's own. -/
theorem tblwU35 : tblw35 (a35 m) = tbl35 m c₀ := by
  have h1 : tblw35 (a35 m) = (U73 m c₀ main_v115 : IVec S100000 32) := by
    unfold a35
    rfl
  have h2 : ∀ W : Valuation τ sig (Elt F), V73 m (outsU m) c₀ = W → (W main_v115 : IVec S100000 32) = tbl35 m c₀ :=
    fun W hW => by subst hW; exact tbl35_eq m (outsU m) c₀
  exact h1.trans (h2 (U73 m c₀) (V73_eq m c₀))

/-- The array the region reads, at the region's entry, is as the item before the table's host stretch left it. -/
theorem gin35 (c : Dev nD) : atTc (U73 m) c main_v89 = V72 m (outsU m) c main_v89 :=
  (congrFun (V73_eq m c) main_v89).symm.trans (V73_of m (outsU m) c main_v89 (by decide))

/-- THE ARRAY THE REGION READS is left as it was. -/
theorem gsrc35 (c : Dev nD) : V74 m (outsU m) c main_v89 = V72 m (outsU m) c main_v89 :=
  (congrFun (V74_eq m c) main_v89).trans ((U74_hbm m c).trans (gin35 m c))

/-- THE REGION'S OUTPUT: its row r is the row, of the array the region reads, at the node the table's word r names. -/
theorem g35_val (c : Dev nD) (hm : ∀ i : S2x800000.Idx, ((V0 m c main_arg1 : IVec S2x800000 32) i).toNat < 50000) :
    (V74 m (outsU m) c main_v116 : S100000x128.Idx → Elt F .f32)
      = fun i => (V72 m (outsU m) c main_v89 : S50000x128.Idx → Elt F .f32)
          (ValueIdx.ix2 (Cert.Spec.node (tbl35 m c (ValueIdx.ix1 (i 0)))) (i 1)) := by
  obtain rfl : c = c₀ := eq_c₀ c
  have hlt : ∀ k : S100000.Idx, (tblw35 (a35 m) k).toNat < 50000 := fun k => by
    rw [tblwU35]; exact tbl35_lt m c₀ hm k
  refine (congrFun (V74_eq m c₀) main_v116).trans ((U74_out m c₀).trans ?_)
  refine (finalG35_node (atTc (U73 m)) (a35 m) (gblk35 (atTc (U73 m)) (a35 m)) (fun c => V72 m (outsU m) c main_v89)
      (tblw35 (a35 m)) hlt
      (fun c t j l _ => (gblk35_apply (atTc (U73 m)) (a35 m) hlt c t j l).trans (congrFun (gin35 m c) _)) c₀).trans ?_
  rw [tblwU35]
  rfl

/-- THE REGION'S OUTPUT WHERE IT IS READ, at the entry of the host stretch that concatenates the gather outputs: the
    rows of T at the nodes the table names, when the array the region reads holds T. -/
theorem gat35 (c : Dev nD) (hm : ∀ i : S2x800000.Idx, ((V0 m c main_arg1 : IVec S2x800000 32) i).toNat < 50000)
    (T : S50000x128.Idx → Elt F .f32) (hT : V72 m (outsU m) c main_v89 = T) :
    (V80 m (outsU m) c main_v116 : S100000x128.Idx → Elt F .f32)
      = fun i => T (ValueIdx.ix2 (Cert.Spec.node (tbl35 m c (ValueIdx.ix1 (i 0)))) (i 1)) := by
  subst hT
  exact (carry35 m (outsU m) c).trans (g35_val m c hm)

end Cert.KernelIdeal.Hand

end
-- ==== Proof.KI.GatherVal36.lean ====
/-
  The value of the row-gather region 36: the array its output window leaves.

  At grid point t the region's output block holds, in its row j, the source's row  row (8 t + j).  The block sits at
  block index (t, 0) of the 100000 x 128 output array: it covers the rows 8 t … 8 t + 7 and all 128 columns. Every point
  writes its block back (the block index moves at every step), and row r of the array lies in the block of point r / 8,
  at the block's row r % 8. So the array ends with its row r equal to the source's row  row r,  for every r.

  The gathered block is taken abstractly here: any family of blocks that reads as above (the hypothesis of
  flushedG36_eq and finalG36) gives the array. When the row numbers are the words of an index table, each below 50000,
  row r of the array is the source's row at the node the table's word r names (finalG36_node).
-/
import proofs.«402049_j87351044866139_2_alg».proof.Proof.KI.Gather36
import proofs.«402049_j87351044866139_2_alg».proof.Proof.Spec
import Idealize.ShloMosaic.Lib.Pipeline.Value
import Idealize.ShloMosaic.Lib.ValueIdx

set_option maxRecDepth 16384

noncomputable section

namespace Cert.KernelIdeal.Hand

open Idealize.ShloMosaic Idealize.ShloMosaic.TcCoe
open Idealize.SL.Sem
open Idealize.ShloMosaic.Pipeline (Dat Cfg Window)
open Cert.KernelIdeal Cert.KernelIdeal.Gen

variable {F : FTy → Type} [FloatOps F]

variable (V : (c : Dev nD) → (b : Ref sig .tc) → Buf (Elt F) ((c : Thread nD τ).loc b))
variable (a36 : (pcfg36 (F := F)).Adm)
variable (gblk : (c : Dev nD) → Fin (cfg36 a36).N → S8x128.Idx → Elt F .f32)

/-! ## The grid and the output window's schedule -/

/-- The region's grid has 12500 points. -/
theorem ptsG36 (t : Fin (cfg36 a36).N) : t.val < 12500 := lt_of_lt_of_eq t.isLt N_36

/-- The grid has one axis, so point t has coordinate t. -/
theorem coordG36 (t : Fin (cfg36 a36).N) : (((cfg36 a36).grid.coords t) (0 : Fin 1)).val = t.val := by
  have hN := ptsG36 a36 t
  show t.val / (cfg36 a36).grid.stride (0 : Fin 1) % 12500 = t.val
  rw [show (cfg36 a36).grid.stride (0 : Fin 1) = 1 from rfl, Nat.div_one, Nat.mod_eq_of_lt hN]

/-- The output window's block index at point t is (t, 0). -/
theorem indexG36 (t : Fin (cfg36 a36).N) :
    ((cfg36 a36).win 0).index t (0 : Fin 2) = t.val ∧ ((cfg36 a36).win 0).index t (1 : Fin 2) = 0 := by
  have hN := ptsG36 a36 t
  refine ⟨?_, rfl⟩
  show (BitVec.ofNat 32 (((cfg36 a36).grid.coords t) (0 : Fin 1)).val).toNat = t.val
  rw [coordG36, BitVec.toNat_ofNat]
  exact Nat.mod_eq_of_lt (by omega)

/-- The block index moves at every step, so every point writes its block back. -/
theorem flushG36 (t : Fin (cfg36 a36).N) : ((cfg36 a36).win 0).flush t = true := by
  rw [Pipeline.Window.flush_out _ rfl]
  have ht : t.val < (cfg36 a36).grid.N := t.isLt
  by_cases h : t.val + 1 < (cfg36 a36).grid.N
  · refine .inr ⟨h, fun e => ?_⟩
    have e0 : ((cfg36 a36).win 0).index ⟨t.val + 1, h⟩ (0 : Fin 2) = ((cfg36 a36).win 0).index t (0 : Fin 2) :=
      congrFun e (0 : Fin 2)
    have e1 : ((cfg36 a36).win 0).index ⟨t.val + 1, h⟩ (0 : Fin 2) = t.val + 1 := (indexG36 a36 ⟨t.val + 1, h⟩).1
    have e2 : ((cfg36 a36).win 0).index t (0 : Fin 2) = t.val := (indexG36 a36 t).1
    omega
  · exact .inl (by omega)

/-! ## What a point writes back, and the array -/

variable (T : (c : Dev nD) → S50000x128.Idx → Elt F .f32) (row : (c : Dev nD) → Fin 100000 → Fin 50000)

/-- The array the region leaves on core c: its row r is the source's row  row r. -/
abbrev outG36 (c : Dev nD) : S100000x128.Idx → Elt F .f32 := fun i => T c (ValueIdx.ix2 (row c (i 0)) (i 1))

/-- One element of the block at point t is the array's element 8 t rows further down, in the same column. -/
theorem blockG36_apply
    (hblk : ∀ c (t : Fin (cfg36 a36).N) (j : Fin 8) (l : Fin 128) (h : 8 * t.val + j.val < 100000),
      gblk c t (ValueIdx.ix2 j l) = T c (ValueIdx.ix2 (row c ⟨8 * t.val + j.val, h⟩) l))
    (c : Dev nD) (t : Fin (cfg36 a36).N) (y : S8x128.Idx) (k : S100000x128.Idx)
    (hk0 : (k 0).val = 8 * t.val + (y 0).val) (hk1 : (k 1).val = (y 1).val) :
    gblk c t y = outG36 T row c k := by
  have hy0 : (y 0).val < 8 := (y 0).isLt
  have hN := ptsG36 a36 t
  have hb : 8 * t.val + (y 0).val < 100000 := by omega
  have h0 : (⟨8 * t.val + (y 0).val, hb⟩ : Fin 100000) = k 0 := Fin.ext hk0.symm
  have h1 : (y 1 : Fin 128) = k 1 := Fin.ext hk1.symm
  calc gblk c t y = gblk c t (ValueIdx.ix2 (y 0) (y 1)) := congrArg (gblk c t) (ValueIdx.eq_ix2 y)
    _ = T c (ValueIdx.ix2 (row c ⟨8 * t.val + (y 0).val, hb⟩) (y 1)) := hblk c t (y 0) (y 1) hb
    _ = outG36 T row c k := congrArg₂ (fun (p : Fin 100000) (l : Fin 128) => T c (ValueIdx.ix2 (row c p) l)) h0 h1

/-- WHAT POINT t WRITES BACK is block t of that array. -/
theorem flushedG36_eq
    (hblk : ∀ c (t : Fin (cfg36 a36).N) (j : Fin 8) (l : Fin 128) (h : 8 * t.val + j.val < 100000),
      gblk c t (ValueIdx.ix2 j l) = T c (ValueIdx.ix2 (row c ⟨8 * t.val + j.val, h⟩) l))
    (c : Dev nD) (t : Fin (cfg36 a36).N) :
    (datG36 V a36 gblk c).flushed 0 t = (((cfg36 a36).win 0).blk t).view.read (Elt F) (outG36 T row c) := by
  obtain ⟨e0, e1⟩ := indexG36 a36 t
  have key : ∀ y : S8x128.Idx, gblk c t y = outG36 T row c ((((cfg36 a36).win 0).blk t).view.emb y) := fun y =>
    blockG36_apply a36 gblk T row hblk c t y _
      (by show ((cfg36 a36).win 0).index t (0 : Fin 2) * 8 + 1 * (y 0).val = 8 * t.val + (y 0).val
          rw [e0]; omega)
      (by show ((cfg36 a36).win 0).index t (1 : Fin 2) * 128 + 1 * (y 1).val = (y 1).val
          rw [e1]; omega)
  exact funext key

/-- An index of the array whose row is among the rows 8 t … 8 t + 7 is in point t's block. -/
theorem mem_blkG36 (t : Fin (cfg36 a36).N) (i : S100000x128.Idx)
    (hi : 8 * t.val ≤ (i 0).val ∧ (i 0).val < 8 * t.val + 8) : i ∈ (((cfg36 a36).win 0).blk t).view.set := by
  obtain ⟨e0, e1⟩ := indexG36 a36 t
  have hi1 : (i 1).val < 128 := (i 1).isLt
  have hs : (((cfg36 a36).win 0).blk t).view.set = (((cfg36 a36).win 0).rect t).set :=
    View.set_slice_whole main_v118 (((cfg36 a36).win 0).rect t)
  have key : ∀ a : Fin 2, ((cfg36 a36).win 0).index t a * S8x128.size a ≤ (i a).val
      ∧ (i a).val < ((cfg36 a36).win 0).index t a * S8x128.size a + S8x128.size a := fun a =>
    match a with
    | ⟨0, _⟩ => by
      show ((cfg36 a36).win 0).index t (0 : Fin 2) * 8 ≤ (i 0).val ∧ (i 0).val < ((cfg36 a36).win 0).index t (0 : Fin 2) * 8 + 8
      rw [e0]; omega
    | ⟨1, _⟩ => by
      show ((cfg36 a36).win 0).index t (1 : Fin 2) * 128 ≤ (i 1).val ∧ (i 1).val < ((cfg36 a36).win 0).index t (1 : Fin 2) * 128 + 128
      rw [e1]; omega
  exact (Finset.ext_iff.mp hs i).mpr (Rect.mem_set_unit.mpr key)

/-- THE COVER: row r of the array lies in the block of point r / 8, and that point writes its block back. -/
theorem coverG36 (i : S100000x128.Idx) :
    ∃ t : Fin (cfg36 a36).N, ((cfg36 a36).win 0).flush t = true ∧ i ∈ (((cfg36 a36).win 0).blk t).view.set := by
  have hi0 : (i 0).val < 100000 := (i 0).isLt
  have ht : (i 0).val / 8 < (cfg36 a36).N := lt_of_lt_of_eq (by omega : (i 0).val / 8 < 12500) N_36.symm
  exact ⟨⟨(i 0).val / 8, ht⟩, flushG36 a36 _, mem_blkG36 a36 ⟨(i 0).val / 8, ht⟩ i
    (by show 8 * ((i 0).val / 8) ≤ (i 0).val ∧ (i 0).val < 8 * ((i 0).val / 8) + 8; omega)⟩

/-- THE ARRAY after the region: its row r is the source's row  row r. -/
theorem finalG36
    (hblk : ∀ c (t : Fin (cfg36 a36).N) (j : Fin 8) (l : Fin 128) (h : 8 * t.val + j.val < 100000),
      gblk c t (ValueIdx.ix2 j l) = T c (ValueIdx.ix2 (row c ⟨8 * t.val + j.val, h⟩) l))
    (c : Dev nD) :
    (datG36 V a36 gblk c).arrAt 0 (cfg36 a36).N
      = fun i : S100000x128.Idx => T c (ValueIdx.ix2 (row c (i 0)) (i 1)) :=
  (datG36 V a36 gblk c).arrAt_eq_of_cover 0 (outG36 T row c)
    (fun t _ => flushedG36_eq V a36 gblk T row hblk c t) (coverG36 a36)

/-- THE ARRAY, when the row numbers are the words of an index table tblw, each below 50000: row r is the source's row
    at the node that word r names (a word below 50000 names the node of that number). -/
theorem finalG36_node (tblw : IVec S100000 32) (hlt : ∀ k : S100000.Idx, (tblw k).toNat < 50000)
    (hblk : ∀ c (t : Fin (cfg36 a36).N) (j : Fin 8) (l : Fin 128) (h : 8 * t.val + j.val < 100000),
      gblk c t (ValueIdx.ix2 j l)
        = T c (ValueIdx.ix2 (⟨(tblw (ValueIdx.ix1 (⟨8 * t.val + j.val, h⟩ : Fin 100000))).toNat, hlt _⟩ : Fin 50000) l))
    (c : Dev nD) :
    (datG36 V a36 gblk c).arrAt 0 (cfg36 a36).N
      = fun i : S100000x128.Idx => T c (ValueIdx.ix2 (Cert.Spec.node (tblw (ValueIdx.ix1 (i 0)))) (i 1)) :=
  (finalG36 V a36 gblk T (fun _ p => ⟨(tblw (ValueIdx.ix1 p)).toNat, hlt _⟩) hblk c).trans
    (funext fun i => congrArg (fun p : Fin 50000 => T c (ValueIdx.ix2 p (i 1))) (Cert.Spec.node_of_lt (hlt _)).symm)

end Cert.KernelIdeal.Hand

end
-- ==== Proof.KI.GatherAt36.lean ====
/-
  Region 36 in the run: what it leaves, in terms of what the program's items before it left.

  Between the program's items core c's buffers hold the chain's valuations. Region 36's index table, as the region's
  proof data hold it, is the closed table of the launch memory, and every word of it is below 50000 when every word
  of the edge list is. So the region's output array holds, in its row r, the row — of the array the region reads — at
  the node that the table's word r names; and the array it reads is left as it was, which is as the item before the
  table's host stretch left it. No later item writes the output array before the host stretch that concatenates the
  gather outputs, so at that stretch's entry it holds the same rows (gat36: stated for whatever the array read holds).
-/
import proofs.«402049_j87351044866139_2_alg».proof.Proof.KI.Chain
import proofs.«402049_j87351044866139_2_alg».proof.Proof.KI.Carry
import proofs.«402049_j87351044866139_2_alg».proof.Proof.KI.GatherVal36
import proofs.«402049_j87351044866139_2_alg».proof.Proof.KI.Tables

set_option maxRecDepth 16384

noncomputable section

namespace Cert.KernelIdeal.Hand

open Cert.KernelIdeal Cert.KernelIdeal.Gen Cert.KernelIdeal.GenP
open Idealize.ShloMosaic Idealize.ShloMosaic.TcCoe
open Idealize.SL.Sem

variable {F : FTy → Type} [FloatOps F]
variable (m : (ℓ : Loc nD τ sig) → Buf (Elt F) ℓ)

/-- The index table the region's proof data hold is the closed table of the launch memory: the data hold what the
    chain's valuation at the region's entry has in the table's buffer, and that valuation is the run's own. -/
theorem tblwU36 : tblw36 (a36 m) = tbl36 m c₀ := by
  have h1 : tblw36 (a36 m) = (U75 m c₀ main_v117 : IVec S100000 32) := by
    unfold a36
    rfl
  have h2 : ∀ W : Valuation τ sig (Elt F), V75 m (outsU m) c₀ = W → (W main_v117 : IVec S100000 32) = tbl36 m c₀ :=
    fun W hW => by subst hW; exact tbl36_eq m (outsU m) c₀
  exact h1.trans (h2 (U75 m c₀) (V75_eq m c₀))

/-- The array the region reads, at the region's entry, is as the item before the table's host stretch left it. -/
theorem gin36 (c : Dev nD) : atTc (U75 m) c main_v89 = V74 m (outsU m) c main_v89 :=
  (congrFun (V75_eq m c) main_v89).symm.trans (V75_of m (outsU m) c main_v89 (by decide))

/-- THE ARRAY THE REGION READS is left as it was. -/
theorem gsrc36 (c : Dev nD) : V76 m (outsU m) c main_v89 = V74 m (outsU m) c main_v89 :=
  (congrFun (V76_eq m c) main_v89).trans ((U76_hbm m c).trans (gin36 m c))

/-- THE REGION'S OUTPUT: its row r is the row, of the array the region reads, at the node the table's word r names. -/
theorem g36_val (c : Dev nD) (hm : ∀ i : S2x800000.Idx, ((V0 m c main_arg1 : IVec S2x800000 32) i).toNat < 50000) :
    (V76 m (outsU m) c main_v118 : S100000x128.Idx → Elt F .f32)
      = fun i => (V74 m (outsU m) c main_v89 : S50000x128.Idx → Elt F .f32)
          (ValueIdx.ix2 (Cert.Spec.node (tbl36 m c (ValueIdx.ix1 (i 0)))) (i 1)) := by
  obtain rfl : c = c₀ := eq_c₀ c
  have hlt : ∀ k : S100000.Idx, (tblw36 (a36 m) k).toNat < 50000 := fun k => by
    rw [tblwU36]; exact tbl36_lt m c₀ hm k
  refine (congrFun (V76_eq m c₀) main_v118).trans ((U76_out m c₀).trans ?_)
  refine (finalG36_node (atTc (U75 m)) (a36 m) (gblk36 (atTc (U75 m)) (a36 m)) (fun c => V74 m (outsU m) c main_v89)
      (tblw36 (a36 m)) hlt
      (fun c t j l _ => (gblk36_apply (atTc (U75 m)) (a36 m) hlt c t j l).trans (congrFun (gin36 m c) _)) c₀).trans ?_
  rw [tblwU36]
  rfl

/-- THE REGION'S OUTPUT WHERE IT IS READ, at the entry of the host stretch that concatenates the gather outputs: the
    rows of T at the nodes the table names, when the array the region reads holds T. -/
theorem gat36 (c : Dev nD) (hm : ∀ i : S2x800000.Idx, ((V0 m c main_arg1 : IVec S2x800000 32) i).toNat < 50000)
    (T : S50000x128.Idx → Elt F .f32) (hT : V74 m (outsU m) c main_v89 = T) :
    (V80 m (outsU m) c main_v118 : S100000x128.Idx → Elt F .f32)
      = fun i => T (ValueIdx.ix2 (Cert.Spec.node (tbl36 m c (ValueIdx.ix1 (i 0)))) (i 1)) := by
  subst hT
  exact (carry36 m (outsU m) c).trans (g36_val m c hm)

end Cert.KernelIdeal.Hand

end
-- ==== Proof.KI.GatherVal37.lean ====
/-
  The value of the row-gather region 37: the array its output window leaves.

  At grid point t the region's output block holds, in its row j, the source's row  row (8 t + j).  The block sits at
  block index (t, 0) of the 100000 x 128 output array: it covers the rows 8 t … 8 t + 7 and all 128 columns. Every point
  writes its block back (the block index moves at every step), and row r of the array lies in the block of point r / 8,
  at the block's row r % 8. So the array ends with its row r equal to the source's row  row r,  for every r.

  The gathered block is taken abstractly here: any family of blocks that reads as above (the hypothesis of
  flushedG37_eq and finalG37) gives the array. When the row numbers are the words of an index table, each below 50000,
  row r of the array is the source's row at the node the table's word r names (finalG37_node).
-/
import proofs.«402049_j87351044866139_2_alg».proof.Proof.KI.Gather37
import proofs.«402049_j87351044866139_2_alg».proof.Proof.Spec
import Idealize.ShloMosaic.Lib.Pipeline.Value
import Idealize.ShloMosaic.Lib.ValueIdx

set_option maxRecDepth 16384

noncomputable section

namespace Cert.KernelIdeal.Hand

open Idealize.ShloMosaic Idealize.ShloMosaic.TcCoe
open Idealize.SL.Sem
open Idealize.ShloMosaic.Pipeline (Dat Cfg Window)
open Cert.KernelIdeal Cert.KernelIdeal.Gen

variable {F : FTy → Type} [FloatOps F]

variable (V : (c : Dev nD) → (b : Ref sig .tc) → Buf (Elt F) ((c : Thread nD τ).loc b))
variable (a37 : (pcfg37 (F := F)).Adm)
variable (gblk : (c : Dev nD) → Fin (cfg37 a37).N → S8x128.Idx → Elt F .f32)

/-! ## The grid and the output window's schedule -/

/-- The region's grid has 12500 points. -/
theorem ptsG37 (t : Fin (cfg37 a37).N) : t.val < 12500 := lt_of_lt_of_eq t.isLt N_37

/-- The grid has one axis, so point t has coordinate t. -/
theorem coordG37 (t : Fin (cfg37 a37).N) : (((cfg37 a37).grid.coords t) (0 : Fin 1)).val = t.val := by
  have hN := ptsG37 a37 t
  show t.val / (cfg37 a37).grid.stride (0 : Fin 1) % 12500 = t.val
  rw [show (cfg37 a37).grid.stride (0 : Fin 1) = 1 from rfl, Nat.div_one, Nat.mod_eq_of_lt hN]

/-- The output window's block index at point t is (t, 0). -/
theorem indexG37 (t : Fin (cfg37 a37).N) :
    ((cfg37 a37).win 0).index t (0 : Fin 2) = t.val ∧ ((cfg37 a37).win 0).index t (1 : Fin 2) = 0 := by
  have hN := ptsG37 a37 t
  refine ⟨?_, rfl⟩
  show (BitVec.ofNat 32 (((cfg37 a37).grid.coords t) (0 : Fin 1)).val).toNat = t.val
  rw [coordG37, BitVec.toNat_ofNat]
  exact Nat.mod_eq_of_lt (by omega)

/-- The block index moves at every step, so every point writes its block back. -/
theorem flushG37 (t : Fin (cfg37 a37).N) : ((cfg37 a37).win 0).flush t = true := by
  rw [Pipeline.Window.flush_out _ rfl]
  have ht : t.val < (cfg37 a37).grid.N := t.isLt
  by_cases h : t.val + 1 < (cfg37 a37).grid.N
  · refine .inr ⟨h, fun e => ?_⟩
    have e0 : ((cfg37 a37).win 0).index ⟨t.val + 1, h⟩ (0 : Fin 2) = ((cfg37 a37).win 0).index t (0 : Fin 2) :=
      congrFun e (0 : Fin 2)
    have e1 : ((cfg37 a37).win 0).index ⟨t.val + 1, h⟩ (0 : Fin 2) = t.val + 1 := (indexG37 a37 ⟨t.val + 1, h⟩).1
    have e2 : ((cfg37 a37).win 0).index t (0 : Fin 2) = t.val := (indexG37 a37 t).1
    omega
  · exact .inl (by omega)

/-! ## What a point writes back, and the array -/

variable (T : (c : Dev nD) → S50000x128.Idx → Elt F .f32) (row : (c : Dev nD) → Fin 100000 → Fin 50000)

/-- The array the region leaves on core c: its row r is the source's row  row r. -/
abbrev outG37 (c : Dev nD) : S100000x128.Idx → Elt F .f32 := fun i => T c (ValueIdx.ix2 (row c (i 0)) (i 1))

/-- One element of the block at point t is the array's element 8 t rows further down, in the same column. -/
theorem blockG37_apply
    (hblk : ∀ c (t : Fin (cfg37 a37).N) (j : Fin 8) (l : Fin 128) (h : 8 * t.val + j.val < 100000),
      gblk c t (ValueIdx.ix2 j l) = T c (ValueIdx.ix2 (row c ⟨8 * t.val + j.val, h⟩) l))
    (c : Dev nD) (t : Fin (cfg37 a37).N) (y : S8x128.Idx) (k : S100000x128.Idx)
    (hk0 : (k 0).val = 8 * t.val + (y 0).val) (hk1 : (k 1).val = (y 1).val) :
    gblk c t y = outG37 T row c k := by
  have hy0 : (y 0).val < 8 := (y 0).isLt
  have hN := ptsG37 a37 t
  have hb : 8 * t.val + (y 0).val < 100000 := by omega
  have h0 : (⟨8 * t.val + (y 0).val, hb⟩ : Fin 100000) = k 0 := Fin.ext hk0.symm
  have h1 : (y 1 : Fin 128) = k 1 := Fin.ext hk1.symm
  calc gblk c t y = gblk c t (ValueIdx.ix2 (y 0) (y 1)) := congrArg (gblk c t) (ValueIdx.eq_ix2 y)
    _ = T c (ValueIdx.ix2 (row c ⟨8 * t.val + (y 0).val, hb⟩) (y 1)) := hblk c t (y 0) (y 1) hb
    _ = outG37 T row c k := congrArg₂ (fun (p : Fin 100000) (l : Fin 128) => T c (ValueIdx.ix2 (row c p) l)) h0 h1

/-- WHAT POINT t WRITES BACK is block t of that array. -/
theorem flushedG37_eq
    (hblk : ∀ c (t : Fin (cfg37 a37).N) (j : Fin 8) (l : Fin 128) (h : 8 * t.val + j.val < 100000),
      gblk c t (ValueIdx.ix2 j l) = T c (ValueIdx.ix2 (row c ⟨8 * t.val + j.val, h⟩) l))
    (c : Dev nD) (t : Fin (cfg37 a37).N) :
    (datG37 V a37 gblk c).flushed 0 t = (((cfg37 a37).win 0).blk t).view.read (Elt F) (outG37 T row c) := by
  obtain ⟨e0, e1⟩ := indexG37 a37 t
  have key : ∀ y : S8x128.Idx, gblk c t y = outG37 T row c ((((cfg37 a37).win 0).blk t).view.emb y) := fun y =>
    blockG37_apply a37 gblk T row hblk c t y _
      (by show ((cfg37 a37).win 0).index t (0 : Fin 2) * 8 + 1 * (y 0).val = 8 * t.val + (y 0).val
          rw [e0]; omega)
      (by show ((cfg37 a37).win 0).index t (1 : Fin 2) * 128 + 1 * (y 1).val = (y 1).val
          rw [e1]; omega)
  exact funext key

/-- An index of the array whose row is among the rows 8 t … 8 t + 7 is in point t's block. -/
theorem mem_blkG37 (t : Fin (cfg37 a37).N) (i : S100000x128.Idx)
    (hi : 8 * t.val ≤ (i 0).val ∧ (i 0).val < 8 * t.val + 8) : i ∈ (((cfg37 a37).win 0).blk t).view.set := by
  obtain ⟨e0, e1⟩ := indexG37 a37 t
  have hi1 : (i 1).val < 128 := (i 1).isLt
  have hs : (((cfg37 a37).win 0).blk t).view.set = (((cfg37 a37).win 0).rect t).set :=
    View.set_slice_whole main_v120 (((cfg37 a37).win 0).rect t)
  have key : ∀ a : Fin 2, ((cfg37 a37).win 0).index t a * S8x128.size a ≤ (i a).val
      ∧ (i a).val < ((cfg37 a37).win 0).index t a * S8x128.size a + S8x128.size a := fun a =>
    match a with
    | ⟨0, _⟩ => by
      show ((cfg37 a37).win 0).index t (0 : Fin 2) * 8 ≤ (i 0).val ∧ (i 0).val < ((cfg37 a37).win 0).index t (0 : Fin 2) * 8 + 8
      rw [e0]; omega
    | ⟨1, _⟩ => by
      show ((cfg37 a37).win 0).index t (1 : Fin 2) * 128 ≤ (i 1).val ∧ (i 1).val < ((cfg37 a37).win 0).index t (1 : Fin 2) * 128 + 128
      rw [e1]; omega
  exact (Finset.ext_iff.mp hs i).mpr (Rect.mem_set_unit.mpr key)

/-- THE COVER: row r of the array lies in the block of point r / 8, and that point writes its block back. -/
theorem coverG37 (i : S100000x128.Idx) :
    ∃ t : Fin (cfg37 a37).N, ((cfg37 a37).win 0).flush t = true ∧ i ∈ (((cfg37 a37).win 0).blk t).view.set := by
  have hi0 : (i 0).val < 100000 := (i 0).isLt
  have ht : (i 0).val / 8 < (cfg37 a37).N := lt_of_lt_of_eq (by omega : (i 0).val / 8 < 12500) N_37.symm
  exact ⟨⟨(i 0).val / 8, ht⟩, flushG37 a37 _, mem_blkG37 a37 ⟨(i 0).val / 8, ht⟩ i
    (by show 8 * ((i 0).val / 8) ≤ (i 0).val ∧ (i 0).val < 8 * ((i 0).val / 8) + 8; omega)⟩

/-- THE ARRAY after the region: its row r is the source's row  row r. -/
theorem finalG37
    (hblk : ∀ c (t : Fin (cfg37 a37).N) (j : Fin 8) (l : Fin 128) (h : 8 * t.val + j.val < 100000),
      gblk c t (ValueIdx.ix2 j l) = T c (ValueIdx.ix2 (row c ⟨8 * t.val + j.val, h⟩) l))
    (c : Dev nD) :
    (datG37 V a37 gblk c).arrAt 0 (cfg37 a37).N
      = fun i : S100000x128.Idx => T c (ValueIdx.ix2 (row c (i 0)) (i 1)) :=
  (datG37 V a37 gblk c).arrAt_eq_of_cover 0 (outG37 T row c)
    (fun t _ => flushedG37_eq V a37 gblk T row hblk c t) (coverG37 a37)

/-- THE ARRAY, when the row numbers are the words of an index table tblw, each below 50000: row r is the source's row
    at the node that word r names (a word below 50000 names the node of that number). -/
theorem finalG37_node (tblw : IVec S100000 32) (hlt : ∀ k : S100000.Idx, (tblw k).toNat < 50000)
    (hblk : ∀ c (t : Fin (cfg37 a37).N) (j : Fin 8) (l : Fin 128) (h : 8 * t.val + j.val < 100000),
      gblk c t (ValueIdx.ix2 j l)
        = T c (ValueIdx.ix2 (⟨(tblw (ValueIdx.ix1 (⟨8 * t.val + j.val, h⟩ : Fin 100000))).toNat, hlt _⟩ : Fin 50000) l))
    (c : Dev nD) :
    (datG37 V a37 gblk c).arrAt 0 (cfg37 a37).N
      = fun i : S100000x128.Idx => T c (ValueIdx.ix2 (Cert.Spec.node (tblw (ValueIdx.ix1 (i 0)))) (i 1)) :=
  (finalG37 V a37 gblk T (fun _ p => ⟨(tblw (ValueIdx.ix1 p)).toNat, hlt _⟩) hblk c).trans
    (funext fun i => congrArg (fun p : Fin 50000 => T c (ValueIdx.ix2 p (i 1))) (Cert.Spec.node_of_lt (hlt _)).symm)

end Cert.KernelIdeal.Hand

end
-- ==== Proof.KI.GatherAt37.lean ====
/-
  Region 37 in the run: what it leaves, in terms of what the program's items before it left.

  Between the program's items core c's buffers hold the chain's valuations. Region 37's index table, as the region's
  proof data hold it, is the closed table of the launch memory, and every word of it is below 50000 when every word
  of the edge list is. So the region's output array holds, in its row r, the row — of the array the region reads — at
  the node that the table's word r names; and the array it reads is left as it was, which is as the item before the
  table's host stretch left it. No later item writes the output array before the host stretch that concatenates the
  gather outputs, so at that stretch's entry it holds the same rows (gat37: stated for whatever the array read holds).
-/
import proofs.«402049_j87351044866139_2_alg».proof.Proof.KI.Chain
import proofs.«402049_j87351044866139_2_alg».proof.Proof.KI.Carry
import proofs.«402049_j87351044866139_2_alg».proof.Proof.KI.GatherVal37
import proofs.«402049_j87351044866139_2_alg».proof.Proof.KI.Tables

set_option maxRecDepth 16384

noncomputable section

namespace Cert.KernelIdeal.Hand

open Cert.KernelIdeal Cert.KernelIdeal.Gen Cert.KernelIdeal.GenP
open Idealize.ShloMosaic Idealize.ShloMosaic.TcCoe
open Idealize.SL.Sem

variable {F : FTy → Type} [FloatOps F]
variable (m : (ℓ : Loc nD τ sig) → Buf (Elt F) ℓ)

/-- The index table the region's proof data hold is the closed table of the launch memory: the data hold what the
    chain's valuation at the region's entry has in the table's buffer, and that valuation is the run's own. -/
theorem tblwU37 : tblw37 (a37 m) = tbl37 m c₀ := by
  have h1 : tblw37 (a37 m) = (U77 m c₀ main_v119 : IVec S100000 32) := by
    unfold a37
    rfl
  have h2 : ∀ W : Valuation τ sig (Elt F), V77 m (outsU m) c₀ = W → (W main_v119 : IVec S100000 32) = tbl37 m c₀ :=
    fun W hW => by subst hW; exact tbl37_eq m (outsU m) c₀
  exact h1.trans (h2 (U77 m c₀) (V77_eq m c₀))

/-- The array the region reads, at the region's entry, is as the item before the table's host stretch left it. -/
theorem gin37 (c : Dev nD) : atTc (U77 m) c main_v89 = V76 m (outsU m) c main_v89 :=
  (congrFun (V77_eq m c) main_v89).symm.trans (V77_of m (outsU m) c main_v89 (by decide))

/-- THE ARRAY THE REGION READS is left as it was. -/
theorem gsrc37 (c : Dev nD) : V78 m (outsU m) c main_v89 = V76 m (outsU m) c main_v89 :=
  (congrFun (V78_eq m c) main_v89).trans ((U78_hbm m c).trans (gin37 m c))

/-- THE REGION'S OUTPUT: its row r is the row, of the array the region reads, at the node the table's word r names. -/
theorem g37_val (c : Dev nD) (hm : ∀ i : S2x800000.Idx, ((V0 m c main_arg1 : IVec S2x800000 32) i).toNat < 50000) :
    (V78 m (outsU m) c main_v120 : S100000x128.Idx → Elt F .f32)
      = fun i => (V76 m (outsU m) c main_v89 : S50000x128.Idx → Elt F .f32)
          (ValueIdx.ix2 (Cert.Spec.node (tbl37 m c (ValueIdx.ix1 (i 0)))) (i 1)) := by
  obtain rfl : c = c₀ := eq_c₀ c
  have hlt : ∀ k : S100000.Idx, (tblw37 (a37 m) k).toNat < 50000 := fun k => by
    rw [tblwU37]; exact tbl37_lt m c₀ hm k
  refine (congrFun (V78_eq m c₀) main_v120).trans ((U78_out m c₀).trans ?_)
  refine (finalG37_node (atTc (U77 m)) (a37 m) (gblk37 (atTc (U77 m)) (a37 m)) (fun c => V76 m (outsU m) c main_v89)
      (tblw37 (a37 m)) hlt
      (fun c t j l _ => (gblk37_apply (atTc (U77 m)) (a37 m) hlt c t j l).trans (congrFun (gin37 m c) _)) c₀).trans ?_
  rw [tblwU37]
  rfl

/-- THE REGION'S OUTPUT WHERE IT IS READ, at the entry of the host stretch that concatenates the gather outputs: the
    rows of T at the nodes the table names, when the array the region reads holds T. -/
theorem gat37 (c : Dev nD) (hm : ∀ i : S2x800000.Idx, ((V0 m c main_arg1 : IVec S2x800000 32) i).toNat < 50000)
    (T : S50000x128.Idx → Elt F .f32) (hT : V76 m (outsU m) c main_v89 = T) :
    (V80 m (outsU m) c main_v120 : S100000x128.Idx → Elt F .f32)
      = fun i => T (ValueIdx.ix2 (Cert.Spec.node (tbl37 m c (ValueIdx.ix1 (i 0)))) (i 1)) := by
  subst hT
  exact (carry37 m (outsU m) c).trans (g37_val m c hm)

end Cert.KernelIdeal.Hand

end
-- ==== Proof.KI.GatherVal38.lean ====
/-
  The value of the row-gather region 38: the array its output window leaves.

  At grid point t the region's output block holds, in its row j, the source's row  row (8 t + j).  The block sits at
  block index (t, 0) of the 100000 x 128 output array: it covers the rows 8 t … 8 t + 7 and all 128 columns. Every point
  writes its block back (the block index moves at every step), and row r of the array lies in the block of point r / 8,
  at the block's row r % 8. So the array ends with its row r equal to the source's row  row r,  for every r.

  The gathered block is taken abstractly here: any family of blocks that reads as above (the hypothesis of
  flushedG38_eq and finalG38) gives the array. When the row numbers are the words of an index table, each below 50000,
  row r of the array is the source's row at the node the table's word r names (finalG38_node).
-/
import proofs.«402049_j87351044866139_2_alg».proof.Proof.KI.Gather38
import proofs.«402049_j87351044866139_2_alg».proof.Proof.Spec
import Idealize.ShloMosaic.Lib.Pipeline.Value
import Idealize.ShloMosaic.Lib.ValueIdx

set_option maxRecDepth 16384

noncomputable section

namespace Cert.KernelIdeal.Hand

open Idealize.ShloMosaic Idealize.ShloMosaic.TcCoe
open Idealize.SL.Sem
open Idealize.ShloMosaic.Pipeline (Dat Cfg Window)
open Cert.KernelIdeal Cert.KernelIdeal.Gen

variable {F : FTy → Type} [FloatOps F]

variable (V : (c : Dev nD) → (b : Ref sig .tc) → Buf (Elt F) ((c : Thread nD τ).loc b))
variable (a38 : (pcfg38 (F := F)).Adm)
variable (gblk : (c : Dev nD) → Fin (cfg38 a38).N → S8x128.Idx → Elt F .f32)

/-! ## The grid and the output window's schedule -/

/-- The region's grid has 12500 points. -/
theorem ptsG38 (t : Fin (cfg38 a38).N) : t.val < 12500 := lt_of_lt_of_eq t.isLt N_38

/-- The grid has one axis, so point t has coordinate t. -/
theorem coordG38 (t : Fin (cfg38 a38).N) : (((cfg38 a38).grid.coords t) (0 : Fin 1)).val = t.val := by
  have hN := ptsG38 a38 t
  show t.val / (cfg38 a38).grid.stride (0 : Fin 1) % 12500 = t.val
  rw [show (cfg38 a38).grid.stride (0 : Fin 1) = 1 from rfl, Nat.div_one, Nat.mod_eq_of_lt hN]

/-- The output window's block index at point t is (t, 0). -/
theorem indexG38 (t : Fin (cfg38 a38).N) :
    ((cfg38 a38).win 0).index t (0 : Fin 2) = t.val ∧ ((cfg38 a38).win 0).index t (1 : Fin 2) = 0 := by
  have hN := ptsG38 a38 t
  refine ⟨?_, rfl⟩
  show (BitVec.ofNat 32 (((cfg38 a38).grid.coords t) (0 : Fin 1)).val).toNat = t.val
  rw [coordG38, BitVec.toNat_ofNat]
  exact Nat.mod_eq_of_lt (by omega)

/-- The block index moves at every step, so every point writes its block back. -/
theorem flushG38 (t : Fin (cfg38 a38).N) : ((cfg38 a38).win 0).flush t = true := by
  rw [Pipeline.Window.flush_out _ rfl]
  have ht : t.val < (cfg38 a38).grid.N := t.isLt
  by_cases h : t.val + 1 < (cfg38 a38).grid.N
  · refine .inr ⟨h, fun e => ?_⟩
    have e0 : ((cfg38 a38).win 0).index ⟨t.val + 1, h⟩ (0 : Fin 2) = ((cfg38 a38).win 0).index t (0 : Fin 2) :=
      congrFun e (0 : Fin 2)
    have e1 : ((cfg38 a38).win 0).index ⟨t.val + 1, h⟩ (0 : Fin 2) = t.val + 1 := (indexG38 a38 ⟨t.val + 1, h⟩).1
    have e2 : ((cfg38 a38).win 0).index t (0 : Fin 2) = t.val := (indexG38 a38 t).1
    omega
  · exact .inl (by omega)

/-! ## What a point writes back, and the array -/

variable (T : (c : Dev nD) → S50000x128.Idx → Elt F .f32) (row : (c : Dev nD) → Fin 100000 → Fin 50000)

/-- The array the region leaves on core c: its row r is the source's row  row r. -/
abbrev outG38 (c : Dev nD) : S100000x128.Idx → Elt F .f32 := fun i => T c (ValueIdx.ix2 (row c (i 0)) (i 1))

/-- One element of the block at point t is the array's element 8 t rows further down, in the same column. -/
theorem blockG38_apply
    (hblk : ∀ c (t : Fin (cfg38 a38).N) (j : Fin 8) (l : Fin 128) (h : 8 * t.val + j.val < 100000),
      gblk c t (ValueIdx.ix2 j l) = T c (ValueIdx.ix2 (row c ⟨8 * t.val + j.val, h⟩) l))
    (c : Dev nD) (t : Fin (cfg38 a38).N) (y : S8x128.Idx) (k : S100000x128.Idx)
    (hk0 : (k 0).val = 8 * t.val + (y 0).val) (hk1 : (k 1).val = (y 1).val) :
    gblk c t y = outG38 T row c k := by
  have hy0 : (y 0).val < 8 := (y 0).isLt
  have hN := ptsG38 a38 t
  have hb : 8 * t.val + (y 0).val < 100000 := by omega
  have h0 : (⟨8 * t.val + (y 0).val, hb⟩ : Fin 100000) = k 0 := Fin.ext hk0.symm
  have h1 : (y 1 : Fin 128) = k 1 := Fin.ext hk1.symm
  calc gblk c t y = gblk c t (ValueIdx.ix2 (y 0) (y 1)) := congrArg (gblk c t) (ValueIdx.eq_ix2 y)
    _ = T c (ValueIdx.ix2 (row c ⟨8 * t.val + (y 0).val, hb⟩) (y 1)) := hblk c t (y 0) (y 1) hb
    _ = outG38 T row c k := congrArg₂ (fun (p : Fin 100000) (l : Fin 128) => T c (ValueIdx.ix2 (row c p) l)) h0 h1

/-- WHAT POINT t WRITES BACK is block t of that array. -/
theorem flushedG38_eq
    (hblk : ∀ c (t : Fin (cfg38 a38).N) (j : Fin 8) (l : Fin 128) (h : 8 * t.val + j.val < 100000),
      gblk c t (ValueIdx.ix2 j l) = T c (ValueIdx.ix2 (row c ⟨8 * t.val + j.val, h⟩) l))
    (c : Dev nD) (t : Fin (cfg38 a38).N) :
    (datG38 V a38 gblk c).flushed 0 t = (((cfg38 a38).win 0).blk t).view.read (Elt F) (outG38 T row c) := by
  obtain ⟨e0, e1⟩ := indexG38 a38 t
  have key : ∀ y : S8x128.Idx, gblk c t y = outG38 T row c ((((cfg38 a38).win 0).blk t).view.emb y) := fun y =>
    blockG38_apply a38 gblk T row hblk c t y _
      (by show ((cfg38 a38).win 0).index t (0 : Fin 2) * 8 + 1 * (y 0).val = 8 * t.val + (y 0).val
          rw [e0]; omega)
      (by show ((cfg38 a38).win 0).index t (1 : Fin 2) * 128 + 1 * (y 1).val = (y 1).val
          rw [e1]; omega)
  exact funext key

/-- An index of the array whose row is among the rows 8 t … 8 t + 7 is in point t's block. -/
theorem mem_blkG38 (t : Fin (cfg38 a38).N) (i : S100000x128.Idx)
    (hi : 8 * t.val ≤ (i 0).val ∧ (i 0).val < 8 * t.val + 8) : i ∈ (((cfg38 a38).win 0).blk t).view.set := by
  obtain ⟨e0, e1⟩ := indexG38 a38 t
  have hi1 : (i 1).val < 128 := (i 1).isLt
  have hs : (((cfg38 a38).win 0).blk t).view.set = (((cfg38 a38).win 0).rect t).set :=
    View.set_slice_whole main_v122 (((cfg38 a38).win 0).rect t)
  have key : ∀ a : Fin 2, ((cfg38 a38).win 0).index t a * S8x128.size a ≤ (i a).val
      ∧ (i a).val < ((cfg38 a38).win 0).index t a * S8x128.size a + S8x128.size a := fun a =>
    match a with
    | ⟨0, _⟩ => by
      show ((cfg38 a38).win 0).index t (0 : Fin 2) * 8 ≤ (i 0).val ∧ (i 0).val < ((cfg38 a38).win 0).index t (0 : Fin 2) * 8 + 8
      rw [e0]; omega
    | ⟨1, _⟩ => by
      show ((cfg38 a38).win 0).index t (1 : Fin 2) * 128 ≤ (i 1).val ∧ (i 1).val < ((cfg38 a38).win 0).index t (1 : Fin 2) * 128 + 128
      rw [e1]; omega
  exact (Finset.ext_iff.mp hs i).mpr (Rect.mem_set_unit.mpr key)

/-- THE COVER: row r of the array lies in the block of point r / 8, and that point writes its block back. -/
theorem coverG38 (i : S100000x128.Idx) :
    ∃ t : Fin (cfg38 a38).N, ((cfg38 a38).win 0).flush t = true ∧ i ∈ (((cfg38 a38).win 0).blk t).view.set := by
  have hi0 : (i 0).val < 100000 := (i 0).isLt
  have ht : (i 0).val / 8 < (cfg38 a38).N := lt_of_lt_of_eq (by omega : (i 0).val / 8 < 12500) N_38.symm
  exact ⟨⟨(i 0).val / 8, ht⟩, flushG38 a38 _, mem_blkG38 a38 ⟨(i 0).val / 8, ht⟩ i
    (by show 8 * ((i 0).val / 8) ≤ (i 0).val ∧ (i 0).val < 8 * ((i 0).val / 8) + 8; omega)⟩

/-- THE ARRAY after the region: its row r is the source's row  row r. -/
theorem finalG38
    (hblk : ∀ c (t : Fin (cfg38 a38).N) (j : Fin 8) (l : Fin 128) (h : 8 * t.val + j.val < 100000),
      gblk c t (ValueIdx.ix2 j l) = T c (ValueIdx.ix2 (row c ⟨8 * t.val + j.val, h⟩) l))
    (c : Dev nD) :
    (datG38 V a38 gblk c).arrAt 0 (cfg38 a38).N
      = fun i : S100000x128.Idx => T c (ValueIdx.ix2 (row c (i 0)) (i 1)) :=
  (datG38 V a38 gblk c).arrAt_eq_of_cover 0 (outG38 T row c)
    (fun t _ => flushedG38_eq V a38 gblk T row hblk c t) (coverG38 a38)

/-- THE ARRAY, when the row numbers are the words of an index table tblw, each below 50000: row r is the source's row
    at the node that word r names (a word below 50000 names the node of that number). -/
theorem finalG38_node (tblw : IVec S100000 32) (hlt : ∀ k : S100000.Idx, (tblw k).toNat < 50000)
    (hblk : ∀ c (t : Fin (cfg38 a38).N) (j : Fin 8) (l : Fin 128) (h : 8 * t.val + j.val < 100000),
      gblk c t (ValueIdx.ix2 j l)
        = T c (ValueIdx.ix2 (⟨(tblw (ValueIdx.ix1 (⟨8 * t.val + j.val, h⟩ : Fin 100000))).toNat, hlt _⟩ : Fin 50000) l))
    (c : Dev nD) :
    (datG38 V a38 gblk c).arrAt 0 (cfg38 a38).N
      = fun i : S100000x128.Idx => T c (ValueIdx.ix2 (Cert.Spec.node (tblw (ValueIdx.ix1 (i 0)))) (i 1)) :=
  (finalG38 V a38 gblk T (fun _ p => ⟨(tblw (ValueIdx.ix1 p)).toNat, hlt _⟩) hblk c).trans
    (funext fun i => congrArg (fun p : Fin 50000 => T c (ValueIdx.ix2 p (i 1))) (Cert.Spec.node_of_lt (hlt _)).symm)

end Cert.KernelIdeal.Hand

end
-- ==== Proof.KI.GatherAt38.lean ====
/-
  Region 38 in the run: what it leaves, in terms of what the program's items before it left.

  Between the program's items core c's buffers hold the chain's valuations. Region 38's index table, as the region's
  proof data hold it, is the closed table of the launch memory, and every word of it is below 50000 when every word
  of the edge list is. So the region's output array holds, in its row r, the row — of the array the region reads — at
  the node that the table's word r names; and the array it reads is left as it was, which is as the item before the
  table's host stretch left it. No later item writes the output array before the host stretch that concatenates the
  gather outputs, so at that stretch's entry it holds the same rows (gat38: stated for whatever the array read holds).
-/
import proofs.«402049_j87351044866139_2_alg».proof.Proof.KI.Chain
import proofs.«402049_j87351044866139_2_alg».proof.Proof.KI.Carry
import proofs.«402049_j87351044866139_2_alg».proof.Proof.KI.GatherVal38
import proofs.«402049_j87351044866139_2_alg».proof.Proof.KI.Tables

set_option maxRecDepth 16384

noncomputable section

namespace Cert.KernelIdeal.Hand

open Cert.KernelIdeal Cert.KernelIdeal.Gen Cert.KernelIdeal.GenP
open Idealize.ShloMosaic Idealize.ShloMosaic.TcCoe
open Idealize.SL.Sem

variable {F : FTy → Type} [FloatOps F]
variable (m : (ℓ : Loc nD τ sig) → Buf (Elt F) ℓ)

/-- The index table the region's proof data hold is the closed table of the launch memory: the data hold what the
    chain's valuation at the region's entry has in the table's buffer, and that valuation is the run's own. -/
theorem tblwU38 : tblw38 (a38 m) = tbl38 m c₀ := by
  have h1 : tblw38 (a38 m) = (U79 m c₀ main_v121 : IVec S100000 32) := by
    unfold a38
    rfl
  have h2 : ∀ W : Valuation τ sig (Elt F), V79 m (outsU m) c₀ = W → (W main_v121 : IVec S100000 32) = tbl38 m c₀ :=
    fun W hW => by subst hW; exact tbl38_eq m (outsU m) c₀
  exact h1.trans (h2 (U79 m c₀) (V79_eq m c₀))

/-- The array the region reads, at the region's entry, is as the item before the table's host stretch left it. -/
theorem gin38 (c : Dev nD) : atTc (U79 m) c main_v89 = V78 m (outsU m) c main_v89 :=
  (congrFun (V79_eq m c) main_v89).symm.trans (V79_of m (outsU m) c main_v89 (by decide))

/-- THE ARRAY THE REGION READS is left as it was. -/
theorem gsrc38 (c : Dev nD) : V80 m (outsU m) c main_v89 = V78 m (outsU m) c main_v89 :=
  (congrFun (V80_eq m c) main_v89).trans ((U80_hbm m c).trans (gin38 m c))

/-- THE REGION'S OUTPUT: its row r is the row, of the array the region reads, at the node the table's word r names. -/
theorem g38_val (c : Dev nD) (hm : ∀ i : S2x800000.Idx, ((V0 m c main_arg1 : IVec S2x800000 32) i).toNat < 50000) :
    (V80 m (outsU m) c main_v122 : S100000x128.Idx → Elt F .f32)
      = fun i => (V78 m (outsU m) c main_v89 : S50000x128.Idx → Elt F .f32)
          (ValueIdx.ix2 (Cert.Spec.node (tbl38 m c (ValueIdx.ix1 (i 0)))) (i 1)) := by
  obtain rfl : c = c₀ := eq_c₀ c
  have hlt : ∀ k : S100000.Idx, (tblw38 (a38 m) k).toNat < 50000 := fun k => by
    rw [tblwU38]; exact tbl38_lt m c₀ hm k
  refine (congrFun (V80_eq m c₀) main_v122).trans ((U80_out m c₀).trans ?_)
  refine (finalG38_node (atTc (U79 m)) (a38 m) (gblk38 (atTc (U79 m)) (a38 m)) (fun c => V78 m (outsU m) c main_v89)
      (tblw38 (a38 m)) hlt
      (fun c t j l _ => (gblk38_apply (atTc (U79 m)) (a38 m) hlt c t j l).trans (congrFun (gin38 m c) _)) c₀).trans ?_
  rw [tblwU38]
  rfl

/-- THE REGION'S OUTPUT WHERE IT IS READ, at the entry of the host stretch that concatenates the gather outputs: the
    rows of T at the nodes the table names, when the array the region reads holds T. -/
theorem gat38 (c : Dev nD) (hm : ∀ i : S2x800000.Idx, ((V0 m c main_arg1 : IVec S2x800000 32) i).toNat < 50000)
    (T : S50000x128.Idx → Elt F .f32) (hT : V78 m (outsU m) c main_v89 = T) :
    (V80 m (outsU m) c main_v122 : S100000x128.Idx → Elt F .f32)
      = fun i => T (ValueIdx.ix2 (Cert.Spec.node (tbl38 m c (ValueIdx.ix1 (i 0)))) (i 1)) := by
  subst hT
  exact (carry38 m (outsU m) c).trans (g38_val m c hm)

end Cert.KernelIdeal.Hand

end
-- ==== Proof.KI.GlueVal.lean ====
/-
  THE VALUES OF THE HOST STRETCHES BETWEEN THE REGIONS, against the specification. Over the valuation chain, for any
  contents the regions may leave: the first three stretches compute the degree (a scatter-add of ones at the targets of
  the extended edges), 1/sqrt(deg) with its floor and its zero case, and the edge weights (the product of two gathers of
  1/sqrt(deg)): the same operations as the specification's `deg`, `dinv`, `norm`, read at any float instance as closed
  terms and folded at the extended reals. Each aggregation stretch stacks the ten gather regions' blocks, scales every row
  by its weight and scatter-adds at the targets: when block q holds the node table's rows at its index table's words, the
  stack is the rows at the extended sources (row r of the stack is block r / 85000 at row r % 85000, and table q is the
  chunk of the extended sources at offset 85000 q), so the stretch is the specification's `agg`. The scatter-add, the
  gathers and the weights are never opened.
-/
import proofs.«402049_j87351044866139_2_alg».proof.Proof.KI.RegionsP
import proofs.«402049_j87351044866139_2_alg».proof.Proof.KI.Tables
import proofs.«402049_j87351044866139_2_alg».proof.Proof.Spec
import Idealize.ShloMosaic.Lib.Pipeline.Value
import Idealize.ShloMosaic.Lib.StableHlo.Run
import Idealize.ShloMosaic.Lib.ValueLayout

set_option maxRecDepth 1496

noncomputable section

namespace Cert.KernelIdeal.Hand

open Cert.KernelIdeal Cert.KernelIdeal.Gen Cert.KernelIdeal.GenP
open Idealize.ShloMosaic Idealize.ShloMosaic.TcCoe Idealize.ShloMosaic.StableHlo
open Idealize.SL.Sem

section Generic

variable {F : FTy → Type} [FloatOps F]
variable (m : (ℓ : Loc nD τ sig) → Buf (Elt F) ℓ) (outs : Outs (F := F))

/-! ## The first host stretches, as closed terms of the edge table (any float instance) -/

/-- The destination row followed by the 50000 self-loop words. -/
def dstSl (c : Dev nD) : IVec S850000 32 :=
  concatenate S850000 0 [⟨S800000, dst m c⟩, ⟨S50000, iotaInDim S50000 32 0⟩] concatenates_S800000_S50000_S850000_d0

theorem V1_v6 (c : Dev nD) : (V1 m c main_v6 : IVec S850000 32) = dstSl m c := by
  dsimp only [V1, hostOps0]; after_results; rfl

/-- The degree: one for every extended edge, scatter-added at its target. -/
def degG (c : Dev nD) : FVec F S50000 .f32 :=
  Host.scatterAdd scatter_S50000_S850000x1_S850000_n_0_0_1
    (broadcastInDim S50000 ![] bcast_S_S50000 (constant (F := F) S_ .f32 0x00000000#32))
    (broadcastInDim S850000x1 ![0] bcast_S850000_S850000x1_0 (dstSl m c))
    (broadcastInDim S850000 ![] bcast_S_S850000 (constant (F := F) S_ .f32 0x3F800000#32))

theorem V1_v10 (c : Dev nD) : (V1 m c main_v10 : FVec F S50000 .f32) = degG m c := by
  dsimp only [V1, hostOps0]; after_results; rfl

theorem V1_v12 (c : Dev nD) : (V1 m c main_v12 : IVec S50000 1)
    = cmpf .ogt (degG m c) (broadcastInDim S50000 ![] bcast_S_S50000 (constant (F := F) S_ .f32 0x00000000#32)) := by
  dsimp only [V1, hostOps0]; after_results; rfl

theorem V1_v15 (c : Dev nD) : (V1 m c main_v15 : FVec F S50000 .f32)
    = Host.rsqrt (maximumf (degG m c) (broadcastInDim S50000 ![] bcast_S_S50000 (constant (F := F) S_ .f32 0x2B8CBCCC#32))) := by
  dsimp only [V1, hostOps0]; after_results; rfl

theorem V1_cst3 (c : Dev nD) : (V1 m c main_cst_3 : FVec F S_ .f32) = constant (F := F) S_ .f32 0x00000000#32 := by
  dsimp only [V1, hostOps0]; after_results <;> rfl

theorem V2_v16_raw (c : Dev nD) : (V2 m c main_v16 : FVec F S50000 .f32)
    = select (V1 m c main_v12 : IVec S50000 1) (V1 m c main_v15 : FVec F S50000 .f32)
        (broadcastInDim S50000 ![] bcast_S_S50000 (V1 m c main_cst_3 : FVec F S_ .f32)) := by
  dsimp only [V2, hostOps0_1]
  after_results_simp <;> (try simp only [TRef.ofBuf, TRef.toBuf, cast_eq]) <;> rfl

/-- The edge weights as the stretch computes them from 1/sqrt(deg) and the two extended index lists: the product of
    the two gathers at the wrapped words. -/
def normK (dv : FVec F S50000 .f32) (s d : IVec S850000 32) : FVec F S850000 .f32 :=
  mulf (Host.gather gather_S50000_S850000x1_S850000_n_0_n_n_0_1_1 dv
      (broadcastInDim S850000x1 ![0] bcast_S850000_S850000x1_0
        (select (cmpi .slt s (broadcastInDim S850000 ![] bcast_S_S850000 (constantI S_ 32 0#32)))
          (addi s (broadcastInDim S850000 ![] bcast_S_S850000 (constantI S_ 32 50000#32))) s)))
    (Host.gather gather_S50000_S850000x1_S850000_n_0_n_n_0_1_1 dv
      (broadcastInDim S850000x1 ![0] bcast_S850000_S850000x1_0
        (select (cmpi .slt d (broadcastInDim S850000 ![] bcast_S_S850000 (constantI S_ 32 0#32)))
          (addi d (broadcastInDim S850000 ![] bcast_S_S850000 (constantI S_ 32 50000#32))) d)))

theorem V3_v31_raw (c : Dev nD) : (V3 m c main_v31 : FVec F S850000 .f32)
    = normK (V2 m c main_v16 : FVec F S50000 .f32) (V2 m c main_v5 : IVec S850000 32) (V2 m c main_v6 : IVec S850000 32) := by
  dsimp only [V3, hostOps0_2]; after_results_simp <;> rfl

theorem V3_v32_raw (c : Dev nD) : (V3 m c main_v32 : FVec F S850000x1 .f32)
    = broadcastInDim S850000x1 ![0] bcast_S850000_S850000x1_0
        (normK (V2 m c main_v16 : FVec F S50000 .f32) (V2 m c main_v5 : IVec S850000 32) (V2 m c main_v6 : IVec S850000 32)) := by
  dsimp only [V3, hostOps0_2]; after_results_simp <;> rfl

/-- 1/sqrt(deg) read at a node, as the callee's select spells it. -/
theorem dinv_pt (D : FVec F S50000 .f32) (i : S50000.Idx) :
    select (cmpf .ogt D (broadcastInDim S50000 ![] bcast_S_S50000 (constant (F := F) S_ .f32 0x00000000#32)))
      (Host.rsqrt (maximumf D (broadcastInDim S50000 ![] bcast_S_S50000 (constant (F := F) S_ .f32 0x2B8CBCCC#32))))
      (broadcastInDim S50000 ![] bcast_S_S50000 (constant (F := F) S_ .f32 0x00000000#32)) i
    = Scalar.select (FloatOps.cmpf .ogt (D i) (FloatOps.ofBits (F := F) .f32 0x00000000#32))
        (FloatOps.hostUnary .rsqrt (FloatOps.maximumf (D i) (FloatOps.ofBits (F := F) .f32 0x2B8CBCCC#32)))
        (FloatOps.ofBits (F := F) .f32 0x00000000#32) := rfl

/-! ## The aggregation stretch -/

/-- The aggregation stretch as a function of the ten gathered blocks, the weights' column and the targets: the blocks
    stacked, each row scaled by its weight, summed into the rows the targets name. -/
def aggOf (g : Fin 10 → FVec F S85000x128 .f32) (w : FVec F S850000x1 .f32) (d : IVec S850000 32) :
    FVec F S50000x128 .f32 :=
  Host.scatterAdd scatter_S50000x128_S850000x1_S850000x128_1_0_0_1
    (broadcastInDim S50000x128 ![] bcast_S_S50000x128 (constant (F := F) S_ .f32 0x00000000#32))
    (broadcastInDim S850000x1 ![0] bcast_S850000_S850000x1_0 d)
    (mulf (concatenate S850000x128 0 [⟨S85000x128, g 0⟩, ⟨S85000x128, g 1⟩, ⟨S85000x128, g 2⟩, ⟨S85000x128, g 3⟩, ⟨S85000x128, g 4⟩, ⟨S85000x128, g 5⟩, ⟨S85000x128, g 6⟩, ⟨S85000x128, g 7⟩, ⟨S85000x128, g 8⟩, ⟨S85000x128, g 9⟩]
        concatenates_S85000x128_S85000x128_S85000x128_S85000x128_S85000x128_S85000x128_S85000x128_S85000x128_S85000x128_S85000x128_S850000x128_d0)
      (broadcastInDim S850000x128 ![0, 1] bcast_S850000x1_S850000x128_0_1 w))

theorem agg1_raw (c : Dev nD) : (V25 m outs c main_v59 : FVec F S50000x128 .f32)
    = aggOf ![(V24 m outs c main_v35 : FVec F S85000x128 .f32), V24 m outs c main_v37, V24 m outs c main_v39, V24 m outs c main_v41, V24 m outs c main_v43, V24 m outs c main_v45, V24 m outs c main_v47, V24 m outs c main_v49, V24 m outs c main_v51, V24 m outs c main_v53]
        (V24 m outs c main_v32 : FVec F S850000x1 .f32) (V24 m outs c main_v6 : IVec S850000 32) := by
  dsimp only [V25, hostOps11]; after_results_simp <;> rfl

theorem agg2_raw (c : Dev nD) : (V47 m outs c main_v87 : FVec F S50000x128 .f32)
    = aggOf ![(V46 m outs c main_v63 : FVec F S85000x128 .f32), V46 m outs c main_v65, V46 m outs c main_v67, V46 m outs c main_v69, V46 m outs c main_v71, V46 m outs c main_v73, V46 m outs c main_v75, V46 m outs c main_v77, V46 m outs c main_v79, V46 m outs c main_v81]
        (V46 m outs c main_v32 : FVec F S850000x1 .f32) (V46 m outs c main_v6 : IVec S850000 32) := by
  dsimp only [V47, hostOps22]; after_results_simp <;> rfl

/-! ## The targets and the weights' column reach both aggregation stretches unchanged

No host stretch after the first writes `main_v6`, none after the third writes `main_v32`, and no region may change
either: one step per valuation, each from the one before. -/

theorem v6_at2 (c : Dev nD) : V2 m c main_v6 = V1 m c main_v6 := V2_of m c main_v6 (by decide)
theorem v6_at3 (c : Dev nD) : V3 m c main_v6 = V1 m c main_v6 := (V3_of m c main_v6 (by decide)).trans (v6_at2 m c)
theorem v6_at4 (c : Dev nD) : V4 m outs c main_v6 = V1 m c main_v6 := (V4_of m outs c main_v6 (by decide)).trans (v6_at3 m c)
theorem v6_at5 (c : Dev nD) : V5 m outs c main_v6 = V1 m c main_v6 := (V5_of m outs c main_v6 (by decide)).trans (v6_at4 m outs c)
theorem v6_at6 (c : Dev nD) : V6 m outs c main_v6 = V1 m c main_v6 := (V6_of m outs c main_v6 (by decide)).trans (v6_at5 m outs c)
theorem v6_at7 (c : Dev nD) : V7 m outs c main_v6 = V1 m c main_v6 := (V7_of m outs c main_v6 (by decide)).trans (v6_at6 m outs c)
theorem v6_at8 (c : Dev nD) : V8 m outs c main_v6 = V1 m c main_v6 := (V8_of m outs c main_v6 (by decide)).trans (v6_at7 m outs c)
theorem v6_at9 (c : Dev nD) : V9 m outs c main_v6 = V1 m c main_v6 := (V9_of m outs c main_v6 (by decide)).trans (v6_at8 m outs c)
theorem v6_at10 (c : Dev nD) : V10 m outs c main_v6 = V1 m c main_v6 := (V10_of m outs c main_v6 (by decide)).trans (v6_at9 m outs c)
theorem v6_at11 (c : Dev nD) : V11 m outs c main_v6 = V1 m c main_v6 := (V11_of m outs c main_v6 (by decide)).trans (v6_at10 m outs c)
theorem v6_at12 (c : Dev nD) : V12 m outs c main_v6 = V1 m c main_v6 := (V12_of m outs c main_v6 (by decide)).trans (v6_at11 m outs c)
theorem v6_at13 (c : Dev nD) : V13 m outs c main_v6 = V1 m c main_v6 := (V13_of m outs c main_v6 (by decide)).trans (v6_at12 m outs c)
theorem v6_at14 (c : Dev nD) : V14 m outs c main_v6 = V1 m c main_v6 := (V14_of m outs c main_v6 (by decide)).trans (v6_at13 m outs c)
theorem v6_at15 (c : Dev nD) : V15 m outs c main_v6 = V1 m c main_v6 := (V15_of m outs c main_v6 (by decide)).trans (v6_at14 m outs c)
theorem v6_at16 (c : Dev nD) : V16 m outs c main_v6 = V1 m c main_v6 := (V16_of m outs c main_v6 (by decide)).trans (v6_at15 m outs c)
theorem v6_at17 (c : Dev nD) : V17 m outs c main_v6 = V1 m c main_v6 := (V17_of m outs c main_v6 (by decide)).trans (v6_at16 m outs c)
theorem v6_at18 (c : Dev nD) : V18 m outs c main_v6 = V1 m c main_v6 := (V18_of m outs c main_v6 (by decide)).trans (v6_at17 m outs c)
theorem v6_at19 (c : Dev nD) : V19 m outs c main_v6 = V1 m c main_v6 := (V19_of m outs c main_v6 (by decide)).trans (v6_at18 m outs c)
theorem v6_at20 (c : Dev nD) : V20 m outs c main_v6 = V1 m c main_v6 := (V20_of m outs c main_v6 (by decide)).trans (v6_at19 m outs c)
theorem v6_at21 (c : Dev nD) : V21 m outs c main_v6 = V1 m c main_v6 := (V21_of m outs c main_v6 (by decide)).trans (v6_at20 m outs c)
theorem v6_at22 (c : Dev nD) : V22 m outs c main_v6 = V1 m c main_v6 := (V22_of m outs c main_v6 (by decide)).trans (v6_at21 m outs c)
theorem v6_at23 (c : Dev nD) : V23 m outs c main_v6 = V1 m c main_v6 := (V23_of m outs c main_v6 (by decide)).trans (v6_at22 m outs c)
theorem v6_at24 (c : Dev nD) : V24 m outs c main_v6 = V1 m c main_v6 := (V24_of m outs c main_v6 (by decide)).trans (v6_at23 m outs c)
theorem v6_at25 (c : Dev nD) : V25 m outs c main_v6 = V1 m c main_v6 := (V25_of m outs c main_v6 (by decide)).trans (v6_at24 m outs c)
theorem v6_at26 (c : Dev nD) : V26 m outs c main_v6 = V1 m c main_v6 := (V26_of m outs c main_v6 (by decide)).trans (v6_at25 m outs c)
theorem v6_at27 (c : Dev nD) : V27 m outs c main_v6 = V1 m c main_v6 := (V27_of m outs c main_v6 (by decide)).trans (v6_at26 m outs c)
theorem v6_at28 (c : Dev nD) : V28 m outs c main_v6 = V1 m c main_v6 := (V28_of m outs c main_v6 (by decide)).trans (v6_at27 m outs c)
theorem v6_at29 (c : Dev nD) : V29 m outs c main_v6 = V1 m c main_v6 := (V29_of m outs c main_v6 (by decide)).trans (v6_at28 m outs c)
theorem v6_at30 (c : Dev nD) : V30 m outs c main_v6 = V1 m c main_v6 := (V30_of m outs c main_v6 (by decide)).trans (v6_at29 m outs c)
theorem v6_at31 (c : Dev nD) : V31 m outs c main_v6 = V1 m c main_v6 := (V31_of m outs c main_v6 (by decide)).trans (v6_at30 m outs c)
theorem v6_at32 (c : Dev nD) : V32 m outs c main_v6 = V1 m c main_v6 := (V32_of m outs c main_v6 (by decide)).trans (v6_at31 m outs c)
theorem v6_at33 (c : Dev nD) : V33 m outs c main_v6 = V1 m c main_v6 := (V33_of m outs c main_v6 (by decide)).trans (v6_at32 m outs c)
theorem v6_at34 (c : Dev nD) : V34 m outs c main_v6 = V1 m c main_v6 := (V34_of m outs c main_v6 (by decide)).trans (v6_at33 m outs c)
theorem v6_at35 (c : Dev nD) : V35 m outs c main_v6 = V1 m c main_v6 := (V35_of m outs c main_v6 (by decide)).trans (v6_at34 m outs c)
theorem v6_at36 (c : Dev nD) : V36 m outs c main_v6 = V1 m c main_v6 := (V36_of m outs c main_v6 (by decide)).trans (v6_at35 m outs c)
theorem v6_at37 (c : Dev nD) : V37 m outs c main_v6 = V1 m c main_v6 := (V37_of m outs c main_v6 (by decide)).trans (v6_at36 m outs c)
theorem v6_at38 (c : Dev nD) : V38 m outs c main_v6 = V1 m c main_v6 := (V38_of m outs c main_v6 (by decide)).trans (v6_at37 m outs c)
theorem v6_at39 (c : Dev nD) : V39 m outs c main_v6 = V1 m c main_v6 := (V39_of m outs c main_v6 (by decide)).trans (v6_at38 m outs c)
theorem v6_at40 (c : Dev nD) : V40 m outs c main_v6 = V1 m c main_v6 := (V40_of m outs c main_v6 (by decide)).trans (v6_at39 m outs c)
theorem v6_at41 (c : Dev nD) : V41 m outs c main_v6 = V1 m c main_v6 := (V41_of m outs c main_v6 (by decide)).trans (v6_at40 m outs c)
theorem v6_at42 (c : Dev nD) : V42 m outs c main_v6 = V1 m c main_v6 := (V42_of m outs c main_v6 (by decide)).trans (v6_at41 m outs c)
theorem v6_at43 (c : Dev nD) : V43 m outs c main_v6 = V1 m c main_v6 := (V43_of m outs c main_v6 (by decide)).trans (v6_at42 m outs c)
theorem v6_at44 (c : Dev nD) : V44 m outs c main_v6 = V1 m c main_v6 := (V44_of m outs c main_v6 (by decide)).trans (v6_at43 m outs c)
theorem v6_at45 (c : Dev nD) : V45 m outs c main_v6 = V1 m c main_v6 := (V45_of m outs c main_v6 (by decide)).trans (v6_at44 m outs c)
theorem v6_at46 (c : Dev nD) : V46 m outs c main_v6 = V1 m c main_v6 := (V46_of m outs c main_v6 (by decide)).trans (v6_at45 m outs c)
theorem v32_at4 (c : Dev nD) : V4 m outs c main_v32 = V3 m c main_v32 := V4_of m outs c main_v32 (by decide)
theorem v32_at5 (c : Dev nD) : V5 m outs c main_v32 = V3 m c main_v32 := (V5_of m outs c main_v32 (by decide)).trans (v32_at4 m outs c)
theorem v32_at6 (c : Dev nD) : V6 m outs c main_v32 = V3 m c main_v32 := (V6_of m outs c main_v32 (by decide)).trans (v32_at5 m outs c)
theorem v32_at7 (c : Dev nD) : V7 m outs c main_v32 = V3 m c main_v32 := (V7_of m outs c main_v32 (by decide)).trans (v32_at6 m outs c)
theorem v32_at8 (c : Dev nD) : V8 m outs c main_v32 = V3 m c main_v32 := (V8_of m outs c main_v32 (by decide)).trans (v32_at7 m outs c)
theorem v32_at9 (c : Dev nD) : V9 m outs c main_v32 = V3 m c main_v32 := (V9_of m outs c main_v32 (by decide)).trans (v32_at8 m outs c)
theorem v32_at10 (c : Dev nD) : V10 m outs c main_v32 = V3 m c main_v32 := (V10_of m outs c main_v32 (by decide)).trans (v32_at9 m outs c)
theorem v32_at11 (c : Dev nD) : V11 m outs c main_v32 = V3 m c main_v32 := (V11_of m outs c main_v32 (by decide)).trans (v32_at10 m outs c)
theorem v32_at12 (c : Dev nD) : V12 m outs c main_v32 = V3 m c main_v32 := (V12_of m outs c main_v32 (by decide)).trans (v32_at11 m outs c)
theorem v32_at13 (c : Dev nD) : V13 m outs c main_v32 = V3 m c main_v32 := (V13_of m outs c main_v32 (by decide)).trans (v32_at12 m outs c)
theorem v32_at14 (c : Dev nD) : V14 m outs c main_v32 = V3 m c main_v32 := (V14_of m outs c main_v32 (by decide)).trans (v32_at13 m outs c)
theorem v32_at15 (c : Dev nD) : V15 m outs c main_v32 = V3 m c main_v32 := (V15_of m outs c main_v32 (by decide)).trans (v32_at14 m outs c)
theorem v32_at16 (c : Dev nD) : V16 m outs c main_v32 = V3 m c main_v32 := (V16_of m outs c main_v32 (by decide)).trans (v32_at15 m outs c)
theorem v32_at17 (c : Dev nD) : V17 m outs c main_v32 = V3 m c main_v32 := (V17_of m outs c main_v32 (by decide)).trans (v32_at16 m outs c)
theorem v32_at18 (c : Dev nD) : V18 m outs c main_v32 = V3 m c main_v32 := (V18_of m outs c main_v32 (by decide)).trans (v32_at17 m outs c)
theorem v32_at19 (c : Dev nD) : V19 m outs c main_v32 = V3 m c main_v32 := (V19_of m outs c main_v32 (by decide)).trans (v32_at18 m outs c)
theorem v32_at20 (c : Dev nD) : V20 m outs c main_v32 = V3 m c main_v32 := (V20_of m outs c main_v32 (by decide)).trans (v32_at19 m outs c)
theorem v32_at21 (c : Dev nD) : V21 m outs c main_v32 = V3 m c main_v32 := (V21_of m outs c main_v32 (by decide)).trans (v32_at20 m outs c)
theorem v32_at22 (c : Dev nD) : V22 m outs c main_v32 = V3 m c main_v32 := (V22_of m outs c main_v32 (by decide)).trans (v32_at21 m outs c)
theorem v32_at23 (c : Dev nD) : V23 m outs c main_v32 = V3 m c main_v32 := (V23_of m outs c main_v32 (by decide)).trans (v32_at22 m outs c)
theorem v32_at24 (c : Dev nD) : V24 m outs c main_v32 = V3 m c main_v32 := (V24_of m outs c main_v32 (by decide)).trans (v32_at23 m outs c)
theorem v32_at25 (c : Dev nD) : V25 m outs c main_v32 = V3 m c main_v32 := (V25_of m outs c main_v32 (by decide)).trans (v32_at24 m outs c)
theorem v32_at26 (c : Dev nD) : V26 m outs c main_v32 = V3 m c main_v32 := (V26_of m outs c main_v32 (by decide)).trans (v32_at25 m outs c)
theorem v32_at27 (c : Dev nD) : V27 m outs c main_v32 = V3 m c main_v32 := (V27_of m outs c main_v32 (by decide)).trans (v32_at26 m outs c)
theorem v32_at28 (c : Dev nD) : V28 m outs c main_v32 = V3 m c main_v32 := (V28_of m outs c main_v32 (by decide)).trans (v32_at27 m outs c)
theorem v32_at29 (c : Dev nD) : V29 m outs c main_v32 = V3 m c main_v32 := (V29_of m outs c main_v32 (by decide)).trans (v32_at28 m outs c)
theorem v32_at30 (c : Dev nD) : V30 m outs c main_v32 = V3 m c main_v32 := (V30_of m outs c main_v32 (by decide)).trans (v32_at29 m outs c)
theorem v32_at31 (c : Dev nD) : V31 m outs c main_v32 = V3 m c main_v32 := (V31_of m outs c main_v32 (by decide)).trans (v32_at30 m outs c)
theorem v32_at32 (c : Dev nD) : V32 m outs c main_v32 = V3 m c main_v32 := (V32_of m outs c main_v32 (by decide)).trans (v32_at31 m outs c)
theorem v32_at33 (c : Dev nD) : V33 m outs c main_v32 = V3 m c main_v32 := (V33_of m outs c main_v32 (by decide)).trans (v32_at32 m outs c)
theorem v32_at34 (c : Dev nD) : V34 m outs c main_v32 = V3 m c main_v32 := (V34_of m outs c main_v32 (by decide)).trans (v32_at33 m outs c)
theorem v32_at35 (c : Dev nD) : V35 m outs c main_v32 = V3 m c main_v32 := (V35_of m outs c main_v32 (by decide)).trans (v32_at34 m outs c)
theorem v32_at36 (c : Dev nD) : V36 m outs c main_v32 = V3 m c main_v32 := (V36_of m outs c main_v32 (by decide)).trans (v32_at35 m outs c)
theorem v32_at37 (c : Dev nD) : V37 m outs c main_v32 = V3 m c main_v32 := (V37_of m outs c main_v32 (by decide)).trans (v32_at36 m outs c)
theorem v32_at38 (c : Dev nD) : V38 m outs c main_v32 = V3 m c main_v32 := (V38_of m outs c main_v32 (by decide)).trans (v32_at37 m outs c)
theorem v32_at39 (c : Dev nD) : V39 m outs c main_v32 = V3 m c main_v32 := (V39_of m outs c main_v32 (by decide)).trans (v32_at38 m outs c)
theorem v32_at40 (c : Dev nD) : V40 m outs c main_v32 = V3 m c main_v32 := (V40_of m outs c main_v32 (by decide)).trans (v32_at39 m outs c)
theorem v32_at41 (c : Dev nD) : V41 m outs c main_v32 = V3 m c main_v32 := (V41_of m outs c main_v32 (by decide)).trans (v32_at40 m outs c)
theorem v32_at42 (c : Dev nD) : V42 m outs c main_v32 = V3 m c main_v32 := (V42_of m outs c main_v32 (by decide)).trans (v32_at41 m outs c)
theorem v32_at43 (c : Dev nD) : V43 m outs c main_v32 = V3 m c main_v32 := (V43_of m outs c main_v32 (by decide)).trans (v32_at42 m outs c)
theorem v32_at44 (c : Dev nD) : V44 m outs c main_v32 = V3 m c main_v32 := (V44_of m outs c main_v32 (by decide)).trans (v32_at43 m outs c)
theorem v32_at45 (c : Dev nD) : V45 m outs c main_v32 = V3 m c main_v32 := (V45_of m outs c main_v32 (by decide)).trans (v32_at44 m outs c)
theorem v32_at46 (c : Dev nD) : V46 m outs c main_v32 = V3 m c main_v32 := (V46_of m outs c main_v32 (by decide)).trans (v32_at45 m outs c)

end Generic

section AtIdeal

variable (m : (ℓ : Loc nD τ sig) → Buf (Elt Ideal) ℓ) (outs : Outs (F := Ideal))

/-! ## The closed terms are the specification's -/

theorem srcSl_spec (c : Dev nD) : srcSl m c = Cert.Spec.srcSl (edges m c) := rfl
theorem dstSl_spec (c : Dev nD) : dstSl m c = Cert.Spec.dstSl (edges m c) := rfl
theorem degG_spec (c : Dev nD) : degG m c = Cert.Spec.deg (edges m c) := rfl

/-- 1/sqrt(deg): the callee's select read at a node, its float operations the extended reals' own. -/
theorem dinv_spec (c : Dev nD) : (V2 m c main_v16 : FVec Ideal S50000 .f32) = Cert.Spec.dinv (edges m c) := by
  rw [V2_v16_raw, V1_v12, V1_v15, V1_cst3, degG_spec]
  funext i
  rw [dinv_pt]
  unfold Cert.Spec.dinv
  simp only [Ideal.cmpf_def, Ideal.hostUnary_rsqrt_def, Ideal.maximumf_def, Ideal.ofBits_def]

theorem normK_spec (e : IVec S2x800000 32) :
    normK (Cert.Spec.dinv e) (Cert.Spec.srcSl e) (Cert.Spec.dstSl e) = Cert.Spec.norm e := rfl

/-- THE EDGE WEIGHTS: what the first host stretches leave in `main_v31` is the specification's `norm`. -/
theorem norm_val (c : Dev nD) : (V3 m c main_v31 : FVec Ideal S850000 .f32) = Cert.Spec.norm (edges m c) := by
  rw [V3_v31_raw, dinv_spec, V2_of m c main_v5 (by decide), V2_of m c main_v6 (by decide), V1_v5, V1_v6, srcSl_spec,
    dstSl_spec, normK_spec]

/-- The weights as the one-column array the aggregation stretches read (`main_v32`). -/
theorem normCol_val (c : Dev nD) :
    (V3 m c main_v32 : FVec Ideal S850000x1 .f32) = Cert.Spec.col (Cert.Spec.norm (edges m c)) := by
  rw [V3_v32_raw, dinv_spec, V2_of m c main_v5 (by decide), V2_of m c main_v6 (by decide), V1_v5, V1_v6, srcSl_spec,
    dstSl_spec, normK_spec]
  rfl

/-! ## Blocks of rows stacked, read at a row -/

/-- Ten blocks of 85000 rows stacked: row `r` is block `r / 85000` at its row `r % 85000`. -/
theorem stack10_apply {α : Type} (g : Fin 10 → (S85000x128.Idx → α)) (r : Fin 850000) (cc : Fin 128) :
    concatenate S850000x128 0 [⟨S85000x128, g 0⟩, ⟨S85000x128, g 1⟩, ⟨S85000x128, g 2⟩, ⟨S85000x128, g 3⟩, ⟨S85000x128, g 4⟩, ⟨S85000x128, g 5⟩, ⟨S85000x128, g 6⟩, ⟨S85000x128, g 7⟩, ⟨S85000x128, g 8⟩, ⟨S85000x128, g 9⟩]
        concatenates_S85000x128_S85000x128_S85000x128_S85000x128_S85000x128_S85000x128_S85000x128_S85000x128_S85000x128_S85000x128_S850000x128_d0 (ValueIdx.ix2 r cc)
      = g ⟨r.val / 85000, by have := r.isLt; omega⟩ (ValueIdx.ix2 ⟨r.val % 85000, Nat.mod_lt _ (by decide)⟩ cc) :=
  concatenate_ofFn_apply (N := 10) 0 g concatenates_S85000x128_S85000x128_S85000x128_S85000x128_S85000x128_S85000x128_S85000x128_S85000x128_S85000x128_S85000x128_S850000x128_d0 rfl 85000 rfl (ValueIdx.ix2 r cc)
    ⟨r.val / 85000, by have := r.isLt; omega⟩ rfl (ValueIdx.ix2 ⟨r.val % 85000, Nat.mod_lt _ (by decide)⟩ cc) rfl
    (fun b hb => match b with | ⟨0, _⟩ => absurd rfl hb | ⟨1, _⟩ => rfl)

/-- When block `q`'s row `r` is the node table's row at the extended source list's word `85000 q + r`, the stretch
    is the specification's aggregation: the stack is then the rows at the extended sources; the scatter-add, the weights
    and the targets are the specification's own terms. -/
theorem aggOf_spec (g : Fin 10 → FVec Ideal S85000x128 .f32) (e : IVec S2x800000 32) (T : FVec Ideal S50000x128 .f32)
    (hg : ∀ (q : Fin 10) (r : Fin 85000) (cc : Fin 128), g q (ValueIdx.ix2 r cc)
      = T (ValueIdx.ix2 (Cert.Spec.node (Cert.Spec.srcSl e (ValueIdx.ix1 ⟨85000 * q.val + r.val, by have := q.isLt; have := r.isLt; omega⟩))) cc)) :
    aggOf g (Cert.Spec.col (Cert.Spec.norm e)) (Cert.Spec.dstSl e) = Cert.Spec.agg e T := by
  have hcat : concatenate S850000x128 0 [⟨S85000x128, g 0⟩, ⟨S85000x128, g 1⟩, ⟨S85000x128, g 2⟩, ⟨S85000x128, g 3⟩, ⟨S85000x128, g 4⟩, ⟨S85000x128, g 5⟩, ⟨S85000x128, g 6⟩, ⟨S85000x128, g 7⟩, ⟨S85000x128, g 8⟩, ⟨S85000x128, g 9⟩]
      concatenates_S85000x128_S85000x128_S85000x128_S85000x128_S85000x128_S85000x128_S85000x128_S85000x128_S85000x128_S85000x128_S850000x128_d0 = Cert.Spec.rowsL T (Cert.Spec.srcSl e) := by
    funext j
    obtain ⟨r, cc, rfl⟩ : ∃ (r : Fin 850000) (cc : Fin 128), j = ValueIdx.ix2 r cc := ⟨j 0, j 1, ValueIdx.eq_ix2 j⟩
    rw [stack10_apply, hg]
    have hr : (⟨85000 * (r.val / 85000) + r.val % 85000, by have := r.isLt; omega⟩ : Fin 850000) = r :=
      Fin.ext (Nat.div_add_mod r.val 85000)
    rw [hr]; rfl
  unfold aggOf
  rw [hcat]; rfl

/-- A gathered block whose rows are the node table's rows at a table's words, the table a chunk of the extended sources
    at offset `off`: its row `r` is the node table's row at the extended source list's word `off + r`. -/
theorem blk_row (c : Dev nD) (T : FVec Ideal S50000x128 .f32) (G : FVec Ideal S85000x128 .f32) (tb : IVec S85000 32)
    (off : Nat) (hoff : off + 85000 ≤ 850000)
    (hG : G = fun i => T (ValueIdx.ix2 (Cert.Spec.node (tb (ValueIdx.ix1 (i 0)))) (i 1)))
    (htb : ∀ k : Fin 85000, tb (ValueIdx.ix1 k) = srcSl m c (ValueIdx.ix1 ⟨off + k.val, by have := k.isLt; omega⟩))
    (r : Fin 85000) (cc : Fin 128) :
    G (ValueIdx.ix2 r cc)
      = T (ValueIdx.ix2 (Cert.Spec.node (Cert.Spec.srcSl (edges m c) (ValueIdx.ix1 ⟨off + r.val, by have := r.isLt; omega⟩))) cc) := by
  rw [hG]
  show T (ValueIdx.ix2 (Cert.Spec.node (tb (ValueIdx.ix1 r))) cc) = _
  rw [htb r, srcSl_spec]

/-! ## The two aggregations -/

/-- LAYER 1'S AGGREGATION: when each of the ten gather regions left in its output the node table's rows at its index
    table's words, the stretch that follows leaves in `main_v59` the specification's aggregation of that table. -/
theorem agg1_val (c : Dev nD) (T : FVec Ideal S50000x128 .f32)
    (hg1 : (V24 m outs c main_v35 : FVec Ideal S85000x128 .f32)
      = fun i => T (ValueIdx.ix2 (Cert.Spec.node (tbl1 m c (ValueIdx.ix1 (i 0)))) (i 1)))
    (hg2 : (V24 m outs c main_v37 : FVec Ideal S85000x128 .f32)
      = fun i => T (ValueIdx.ix2 (Cert.Spec.node (tbl2 m c (ValueIdx.ix1 (i 0)))) (i 1)))
    (hg3 : (V24 m outs c main_v39 : FVec Ideal S85000x128 .f32)
      = fun i => T (ValueIdx.ix2 (Cert.Spec.node (tbl3 m c (ValueIdx.ix1 (i 0)))) (i 1)))
    (hg4 : (V24 m outs c main_v41 : FVec Ideal S85000x128 .f32)
      = fun i => T (ValueIdx.ix2 (Cert.Spec.node (tbl4 m c (ValueIdx.ix1 (i 0)))) (i 1)))
    (hg5 : (V24 m outs c main_v43 : FVec Ideal S85000x128 .f32)
      = fun i => T (ValueIdx.ix2 (Cert.Spec.node (tbl5 m c (ValueIdx.ix1 (i 0)))) (i 1)))
    (hg6 : (V24 m outs c main_v45 : FVec Ideal S85000x128 .f32)
      = fun i => T (ValueIdx.ix2 (Cert.Spec.node (tbl6 m c (ValueIdx.ix1 (i 0)))) (i 1)))
    (hg7 : (V24 m outs c main_v47 : FVec Ideal S85000x128 .f32)
      = fun i => T (ValueIdx.ix2 (Cert.Spec.node (tbl7 m c (ValueIdx.ix1 (i 0)))) (i 1)))
    (hg8 : (V24 m outs c main_v49 : FVec Ideal S85000x128 .f32)
      = fun i => T (ValueIdx.ix2 (Cert.Spec.node (tbl8 m c (ValueIdx.ix1 (i 0)))) (i 1)))
    (hg9 : (V24 m outs c main_v51 : FVec Ideal S85000x128 .f32)
      = fun i => T (ValueIdx.ix2 (Cert.Spec.node (tbl9 m c (ValueIdx.ix1 (i 0)))) (i 1)))
    (hg10 : (V24 m outs c main_v53 : FVec Ideal S85000x128 .f32)
      = fun i => T (ValueIdx.ix2 (Cert.Spec.node (tbl10 m c (ValueIdx.ix1 (i 0)))) (i 1))) :
    (V25 m outs c main_v59 : FVec Ideal S50000x128 .f32) = Cert.Spec.agg (edges m c) T := by
  rw [agg1_raw, v32_at24, normCol_val, v6_at24, V1_v6, dstSl_spec]
  refine aggOf_spec _ (edges m c) T (fun q r cc => ?_)
  match q with
  | ⟨0, _⟩ => exact blk_row m c T _ (tbl1 m c) 0 (by decide) hg1 (tbl1_apply m c) r cc
  | ⟨1, _⟩ => exact blk_row m c T _ (tbl2 m c) 85000 (by decide) hg2 (tbl2_apply m c) r cc
  | ⟨2, _⟩ => exact blk_row m c T _ (tbl3 m c) 170000 (by decide) hg3 (tbl3_apply m c) r cc
  | ⟨3, _⟩ => exact blk_row m c T _ (tbl4 m c) 255000 (by decide) hg4 (tbl4_apply m c) r cc
  | ⟨4, _⟩ => exact blk_row m c T _ (tbl5 m c) 340000 (by decide) hg5 (tbl5_apply m c) r cc
  | ⟨5, _⟩ => exact blk_row m c T _ (tbl6 m c) 425000 (by decide) hg6 (tbl6_apply m c) r cc
  | ⟨6, _⟩ => exact blk_row m c T _ (tbl7 m c) 510000 (by decide) hg7 (tbl7_apply m c) r cc
  | ⟨7, _⟩ => exact blk_row m c T _ (tbl8 m c) 595000 (by decide) hg8 (tbl8_apply m c) r cc
  | ⟨8, _⟩ => exact blk_row m c T _ (tbl9 m c) 680000 (by decide) hg9 (tbl9_apply m c) r cc
  | ⟨9, _⟩ => exact blk_row m c T _ (tbl10 m c) 765000 (by decide) hg10 (tbl10_apply m c) r cc
  | ⟨n + 10, h⟩ => exact absurd h (by omega)

/-- LAYER 2'S AGGREGATION, likewise, into `main_v87`. -/
theorem agg2_val (c : Dev nD) (T : FVec Ideal S50000x128 .f32)
    (hg12 : (V46 m outs c main_v63 : FVec Ideal S85000x128 .f32)
      = fun i => T (ValueIdx.ix2 (Cert.Spec.node (tbl12 m c (ValueIdx.ix1 (i 0)))) (i 1)))
    (hg13 : (V46 m outs c main_v65 : FVec Ideal S85000x128 .f32)
      = fun i => T (ValueIdx.ix2 (Cert.Spec.node (tbl13 m c (ValueIdx.ix1 (i 0)))) (i 1)))
    (hg14 : (V46 m outs c main_v67 : FVec Ideal S85000x128 .f32)
      = fun i => T (ValueIdx.ix2 (Cert.Spec.node (tbl14 m c (ValueIdx.ix1 (i 0)))) (i 1)))
    (hg15 : (V46 m outs c main_v69 : FVec Ideal S85000x128 .f32)
      = fun i => T (ValueIdx.ix2 (Cert.Spec.node (tbl15 m c (ValueIdx.ix1 (i 0)))) (i 1)))
    (hg16 : (V46 m outs c main_v71 : FVec Ideal S85000x128 .f32)
      = fun i => T (ValueIdx.ix2 (Cert.Spec.node (tbl16 m c (ValueIdx.ix1 (i 0)))) (i 1)))
    (hg17 : (V46 m outs c main_v73 : FVec Ideal S85000x128 .f32)
      = fun i => T (ValueIdx.ix2 (Cert.Spec.node (tbl17 m c (ValueIdx.ix1 (i 0)))) (i 1)))
    (hg18 : (V46 m outs c main_v75 : FVec Ideal S85000x128 .f32)
      = fun i => T (ValueIdx.ix2 (Cert.Spec.node (tbl18 m c (ValueIdx.ix1 (i 0)))) (i 1)))
    (hg19 : (V46 m outs c main_v77 : FVec Ideal S85000x128 .f32)
      = fun i => T (ValueIdx.ix2 (Cert.Spec.node (tbl19 m c (ValueIdx.ix1 (i 0)))) (i 1)))
    (hg20 : (V46 m outs c main_v79 : FVec Ideal S85000x128 .f32)
      = fun i => T (ValueIdx.ix2 (Cert.Spec.node (tbl20 m c (ValueIdx.ix1 (i 0)))) (i 1)))
    (hg21 : (V46 m outs c main_v81 : FVec Ideal S85000x128 .f32)
      = fun i => T (ValueIdx.ix2 (Cert.Spec.node (tbl21 m c (ValueIdx.ix1 (i 0)))) (i 1))) :
    (V47 m outs c main_v87 : FVec Ideal S50000x128 .f32) = Cert.Spec.agg (edges m c) T := by
  rw [agg2_raw, v32_at46, normCol_val, v6_at46, V1_v6, dstSl_spec]
  refine aggOf_spec _ (edges m c) T (fun q r cc => ?_)
  match q with
  | ⟨0, _⟩ => exact blk_row m c T _ (tbl12 m c) 0 (by decide) hg12 (tbl12_apply m c) r cc
  | ⟨1, _⟩ => exact blk_row m c T _ (tbl13 m c) 85000 (by decide) hg13 (tbl13_apply m c) r cc
  | ⟨2, _⟩ => exact blk_row m c T _ (tbl14 m c) 170000 (by decide) hg14 (tbl14_apply m c) r cc
  | ⟨3, _⟩ => exact blk_row m c T _ (tbl15 m c) 255000 (by decide) hg15 (tbl15_apply m c) r cc
  | ⟨4, _⟩ => exact blk_row m c T _ (tbl16 m c) 340000 (by decide) hg16 (tbl16_apply m c) r cc
  | ⟨5, _⟩ => exact blk_row m c T _ (tbl17 m c) 425000 (by decide) hg17 (tbl17_apply m c) r cc
  | ⟨6, _⟩ => exact blk_row m c T _ (tbl18 m c) 510000 (by decide) hg18 (tbl18_apply m c) r cc
  | ⟨7, _⟩ => exact blk_row m c T _ (tbl19 m c) 595000 (by decide) hg19 (tbl19_apply m c) r cc
  | ⟨8, _⟩ => exact blk_row m c T _ (tbl20 m c) 680000 (by decide) hg20 (tbl20_apply m c) r cc
  | ⟨9, _⟩ => exact blk_row m c T _ (tbl21 m c) 765000 (by decide) hg21 (tbl21_apply m c) r cc
  | ⟨n + 10, h⟩ => exact absurd h (by omega)

end AtIdeal

end Cert.KernelIdeal.Hand

end
-- ==== Proof.KI.GlueTab2.lean ====
/-
  CASE TABLES for the classifier's host glue. The eight source gathers (regions 23 to 30) read their row indices from
  tables cut from the source row of the edge table, 100000 words each; the eight target gathers (regions 31 to 38)
  likewise from the target row. Chunk by chunk: word `k` of the `n`-th table is word 100000 n + k of its row
  (`tblSrc_apply`, `tblDst_apply`). And the stacked source rows, written by the host stretch between regions 30 and
  31, reach the last host stretch unchanged: no item in between writes their buffer (`v106_at81`). Likewise the two
  layers' bias vectors reach the host stretches that reshape them as launched (`arg3_at24`, `arg5_at46`).
-/
import proofs.«402049_j87351044866139_2_alg».proof.Proof.KI.RegionsP
import proofs.«402049_j87351044866139_2_alg».proof.Proof.KI.Tables
import Idealize.ShloMosaic.Lib.ValueIdx

set_option maxRecDepth 1496

noncomputable section

namespace Cert.KernelIdeal.Hand

open Cert.KernelIdeal Cert.KernelIdeal.Gen Cert.KernelIdeal.GenP
open Idealize.ShloMosaic Idealize.ShloMosaic.TcCoe Idealize.ShloMosaic.StableHlo
open Idealize.SL.Sem

variable {F : FTy → Type} [FloatOps F]
variable (m : (ℓ : Loc nD τ sig) → Buf (Elt F) ℓ) (outs : Outs (F := F))

/-- Word `k` of the table of the `n`-th source gather is word 100000 n + k of the source row. -/
theorem tblSrc_apply (c : Dev nD) : ∀ (n : Fin 8) (k : Fin 100000),
    (![tbl23 m c, tbl24 m c, tbl25 m c, tbl26 m c, tbl27 m c, tbl28 m c, tbl29 m c, tbl30 m c] : Fin 8 → IVec S100000 32) n (ValueIdx.ix1 k)
      = src m c (ValueIdx.ix1 ⟨100000 * n.val + k.val, by have := n.isLt; have := k.isLt; omega⟩)
  | 0, k => (tbl23_apply m c k).trans (congrArg (fun p => src m c (ValueIdx.ix1 p)) (Fin.ext (by show 0 + k.val = 100000 * 0 + k.val; omega)))
  | 1, k => (tbl24_apply m c k).trans (congrArg (fun p => src m c (ValueIdx.ix1 p)) (Fin.ext (by show 100000 + k.val = 100000 * 1 + k.val; omega)))
  | 2, k => (tbl25_apply m c k).trans (congrArg (fun p => src m c (ValueIdx.ix1 p)) (Fin.ext (by show 200000 + k.val = 100000 * 2 + k.val; omega)))
  | 3, k => (tbl26_apply m c k).trans (congrArg (fun p => src m c (ValueIdx.ix1 p)) (Fin.ext (by show 300000 + k.val = 100000 * 3 + k.val; omega)))
  | 4, k => (tbl27_apply m c k).trans (congrArg (fun p => src m c (ValueIdx.ix1 p)) (Fin.ext (by show 400000 + k.val = 100000 * 4 + k.val; omega)))
  | 5, k => (tbl28_apply m c k).trans (congrArg (fun p => src m c (ValueIdx.ix1 p)) (Fin.ext (by show 500000 + k.val = 100000 * 5 + k.val; omega)))
  | 6, k => (tbl29_apply m c k).trans (congrArg (fun p => src m c (ValueIdx.ix1 p)) (Fin.ext (by show 600000 + k.val = 100000 * 6 + k.val; omega)))
  | 7, k => (tbl30_apply m c k).trans (congrArg (fun p => src m c (ValueIdx.ix1 p)) (Fin.ext (by show 700000 + k.val = 100000 * 7 + k.val; omega)))
  | ⟨_ + 8, h⟩, _ => absurd h (Nat.not_lt.2 (Nat.le_add_left _ _))

/-- Word `k` of the table of the `n`-th target gather is word 100000 n + k of the target row. -/
theorem tblDst_apply (c : Dev nD) : ∀ (n : Fin 8) (k : Fin 100000),
    (![tbl31 m c, tbl32 m c, tbl33 m c, tbl34 m c, tbl35 m c, tbl36 m c, tbl37 m c, tbl38 m c] : Fin 8 → IVec S100000 32) n (ValueIdx.ix1 k)
      = dst m c (ValueIdx.ix1 ⟨100000 * n.val + k.val, by have := n.isLt; have := k.isLt; omega⟩)
  | 0, k => (tbl31_apply m c k).trans (congrArg (fun p => dst m c (ValueIdx.ix1 p)) (Fin.ext (by show 0 + k.val = 100000 * 0 + k.val; omega)))
  | 1, k => (tbl32_apply m c k).trans (congrArg (fun p => dst m c (ValueIdx.ix1 p)) (Fin.ext (by show 100000 + k.val = 100000 * 1 + k.val; omega)))
  | 2, k => (tbl33_apply m c k).trans (congrArg (fun p => dst m c (ValueIdx.ix1 p)) (Fin.ext (by show 200000 + k.val = 100000 * 2 + k.val; omega)))
  | 3, k => (tbl34_apply m c k).trans (congrArg (fun p => dst m c (ValueIdx.ix1 p)) (Fin.ext (by show 300000 + k.val = 100000 * 3 + k.val; omega)))
  | 4, k => (tbl35_apply m c k).trans (congrArg (fun p => dst m c (ValueIdx.ix1 p)) (Fin.ext (by show 400000 + k.val = 100000 * 4 + k.val; omega)))
  | 5, k => (tbl36_apply m c k).trans (congrArg (fun p => dst m c (ValueIdx.ix1 p)) (Fin.ext (by show 500000 + k.val = 100000 * 5 + k.val; omega)))
  | 6, k => (tbl37_apply m c k).trans (congrArg (fun p => dst m c (ValueIdx.ix1 p)) (Fin.ext (by show 600000 + k.val = 100000 * 6 + k.val; omega)))
  | 7, k => (tbl38_apply m c k).trans (congrArg (fun p => dst m c (ValueIdx.ix1 p)) (Fin.ext (by show 700000 + k.val = 100000 * 7 + k.val; omega)))
  | ⟨_ + 8, h⟩, _ => absurd h (Nat.not_lt.2 (Nat.le_add_left _ _))

/-- No item after the stretch that writes it touches the stacked source rows. -/
theorem v106_at81 (c : Dev nD) : V81 m outs c main_v106 = V65 m outs c main_v106 :=
  (V81_of m outs c main_v106 (by decide)).trans <|
    (V80_of m outs c main_v106 (by decide)).trans <|
    (V79_of m outs c main_v106 (by decide)).trans <|
    (V78_of m outs c main_v106 (by decide)).trans <|
    (V77_of m outs c main_v106 (by decide)).trans <|
    (V76_of m outs c main_v106 (by decide)).trans <|
    (V75_of m outs c main_v106 (by decide)).trans <|
    (V74_of m outs c main_v106 (by decide)).trans <|
    (V73_of m outs c main_v106 (by decide)).trans <|
    (V72_of m outs c main_v106 (by decide)).trans <|
    (V71_of m outs c main_v106 (by decide)).trans <|
    (V70_of m outs c main_v106 (by decide)).trans <|
    (V69_of m outs c main_v106 (by decide)).trans <|
    (V68_of m outs c main_v106 (by decide)).trans <|
    (V67_of m outs c main_v106 (by decide)).trans <|
    (V66_of m outs c main_v106 (by decide))

/-- The first layer's bias reaches the host stretch before region 11 as launched: no item before it writes it. -/
theorem arg3_at24 (c : Dev nD) : V24 m outs c main_arg3 = V0 m c main_arg3 :=
  (V24_of m outs c main_arg3 (by decide)).trans <|
    (V23_of m outs c main_arg3 (by decide)).trans <|
    (V22_of m outs c main_arg3 (by decide)).trans <|
    (V21_of m outs c main_arg3 (by decide)).trans <|
    (V20_of m outs c main_arg3 (by decide)).trans <|
    (V19_of m outs c main_arg3 (by decide)).trans <|
    (V18_of m outs c main_arg3 (by decide)).trans <|
    (V17_of m outs c main_arg3 (by decide)).trans <|
    (V16_of m outs c main_arg3 (by decide)).trans <|
    (V15_of m outs c main_arg3 (by decide)).trans <|
    (V14_of m outs c main_arg3 (by decide)).trans <|
    (V13_of m outs c main_arg3 (by decide)).trans <|
    (V12_of m outs c main_arg3 (by decide)).trans <|
    (V11_of m outs c main_arg3 (by decide)).trans <|
    (V10_of m outs c main_arg3 (by decide)).trans <|
    (V9_of m outs c main_arg3 (by decide)).trans <|
    (V8_of m outs c main_arg3 (by decide)).trans <|
    (V7_of m outs c main_arg3 (by decide)).trans <|
    (V6_of m outs c main_arg3 (by decide)).trans <|
    (V5_of m outs c main_arg3 (by decide)).trans <|
    (V4_of m outs c main_arg3 (by decide)).trans <|
    (V3_of m c main_arg3 (by decide)).trans <|
    (V2_of m c main_arg3 (by decide)).trans <|
    (V1_of m c main_arg3 (by decide))

/-- The second layer's bias reaches the host stretch before region 22 as launched. -/
theorem arg5_at46 (c : Dev nD) : V46 m outs c main_arg5 = V0 m c main_arg5 :=
  (V46_of m outs c main_arg5 (by decide)).trans <|
    (V45_of m outs c main_arg5 (by decide)).trans <|
    (V44_of m outs c main_arg5 (by decide)).trans <|
    (V43_of m outs c main_arg5 (by decide)).trans <|
    (V42_of m outs c main_arg5 (by decide)).trans <|
    (V41_of m outs c main_arg5 (by decide)).trans <|
    (V40_of m outs c main_arg5 (by decide)).trans <|
    (V39_of m outs c main_arg5 (by decide)).trans <|
    (V38_of m outs c main_arg5 (by decide)).trans <|
    (V37_of m outs c main_arg5 (by decide)).trans <|
    (V36_of m outs c main_arg5 (by decide)).trans <|
    (V35_of m outs c main_arg5 (by decide)).trans <|
    (V34_of m outs c main_arg5 (by decide)).trans <|
    (V33_of m outs c main_arg5 (by decide)).trans <|
    (V32_of m outs c main_arg5 (by decide)).trans <|
    (V31_of m outs c main_arg5 (by decide)).trans <|
    (V30_of m outs c main_arg5 (by decide)).trans <|
    (V29_of m outs c main_arg5 (by decide)).trans <|
    (V28_of m outs c main_arg5 (by decide)).trans <|
    (V27_of m outs c main_arg5 (by decide)).trans <|
    (V26_of m outs c main_arg5 (by decide)).trans <|
    (V25_of m outs c main_arg5 (by decide)).trans <|
    (V24_of m outs c main_arg5 (by decide)).trans <|
    (V23_of m outs c main_arg5 (by decide)).trans <|
    (V22_of m outs c main_arg5 (by decide)).trans <|
    (V21_of m outs c main_arg5 (by decide)).trans <|
    (V20_of m outs c main_arg5 (by decide)).trans <|
    (V19_of m outs c main_arg5 (by decide)).trans <|
    (V18_of m outs c main_arg5 (by decide)).trans <|
    (V17_of m outs c main_arg5 (by decide)).trans <|
    (V16_of m outs c main_arg5 (by decide)).trans <|
    (V15_of m outs c main_arg5 (by decide)).trans <|
    (V14_of m outs c main_arg5 (by decide)).trans <|
    (V13_of m outs c main_arg5 (by decide)).trans <|
    (V12_of m outs c main_arg5 (by decide)).trans <|
    (V11_of m outs c main_arg5 (by decide)).trans <|
    (V10_of m outs c main_arg5 (by decide)).trans <|
    (V9_of m outs c main_arg5 (by decide)).trans <|
    (V8_of m outs c main_arg5 (by decide)).trans <|
    (V7_of m outs c main_arg5 (by decide)).trans <|
    (V6_of m outs c main_arg5 (by decide)).trans <|
    (V5_of m outs c main_arg5 (by decide)).trans <|
    (V4_of m outs c main_arg5 (by decide)).trans <|
    (V3_of m c main_arg5 (by decide)).trans <|
    (V2_of m c main_arg5 (by decide)).trans <|
    (V1_of m c main_arg5 (by decide))

end Cert.KernelIdeal.Hand

end
-- ==== Proof.KI.GlueVal2.lean ====
/-
  HALF OF THE HOST GLUE, read over the extended reals: what the two host stretches around the sixteen edge gathers
  hand to the classifier (region 39), as functions of the launch memory.

  * `src_eq_srcRow`, `dst_eq_dstRow`: the two rows of the edge table are the specification's.
  * `stack8_apply`: eight arrays of 100000 rows stacked along the rows, read at row 100000 n + k.
  * `rows_stack8`: if chunk `n` holds the rows of a node table `T` named by words 100000 n … 100000 n + 99999 of
    an index row, the stack holds the rows of `T` named by the whole index row.
  * `rowsSrc_val`: the classifier's source operand, when each source gather (regions 23 to 30) left the rows of `T` its
    table names, is the rows of `T` at the sources of the edges; `rowsDst_val`: the target operand likewise
    (regions 31 to 38). Each gather's output is read at the entry of the host stretch that stacks it.
  * `wcTop_val`, `wcBot_val`: the two halves of the classifier's weights, rows 0 to 127 and 128 to 255 of the launch
    matrix; `bcrow_val`: the classifier's bias as a one-row array.
  * `b1row_val`, `b2row_val`: the two layers' bias vectors as the one-row arrays regions 11 and 22 read.
-/
import proofs.«402049_j87351044866139_2_alg».proof.Proof.KI.RegionsP
import proofs.«402049_j87351044866139_2_alg».proof.Proof.KI.Tables
import proofs.«402049_j87351044866139_2_alg».proof.Proof.KI.GlueTab2
import proofs.«402049_j87351044866139_2_alg».proof.Proof.Spec
import Idealize.ShloMosaic.Lib.Pipeline.Value
import Idealize.ShloMosaic.Lib.StableHlo.Run
import Idealize.ShloMosaic.Lib.ValueLayout
import Idealize.ShloMosaic.Lib.ValueIdx

set_option maxRecDepth 1496

noncomputable section

namespace Cert.KernelIdeal.Hand

open Cert.KernelIdeal Cert.KernelIdeal.Gen Cert.KernelIdeal.GenP
open Idealize.ShloMosaic Idealize.ShloMosaic.TcCoe Idealize.ShloMosaic.StableHlo
open Idealize.SL.Sem

variable (m : (ℓ : Loc nD τ sig) → Buf (Elt Ideal) ℓ) (outs : Outs (F := Ideal))

/-! ## The two rows of the edge table -/

/-- Row 0 of the edge table is the specification's source row: the same slice and the same cast. -/
theorem src_eq_srcRow (c : Dev nD) : src m c = Cert.Spec.srcRow (edges m c) := rfl
/-- Row 1 of the edge table is the specification's target row. -/
theorem dst_eq_dstRow (c : Dev nD) : dst m c = Cert.Spec.dstRow (edges m c) := rfl

/-! ## Eight chunks of 100000 rows, stacked -/

/-- Eight arrays of 100000 rows stacked along the rows, read at row 100000 n + k: chunk `n` at row `k`, same column. -/
theorem stack8_apply {α : Type} (u : Fin 8 → (S100000x128.Idx → α))
    (h : Shape.Concatenates ((List.ofFn fun n : Fin 8 => (⟨S100000x128, u n⟩ : (s : Shape) × (s.Idx → α))).map (·.1)) S800000x128 0)
    (j : S800000x128.Idx) (n : Fin 8) (k : Fin 100000) (hj : (j 0).val = 100000 * n.val + k.val) :
    concatenate S800000x128 0 (List.ofFn fun n : Fin 8 => (⟨S100000x128, u n⟩ : (s : Shape) × (s.Idx → α))) h j
      = u n (ValueIdx.ix2 k (j 1)) :=
  concatenate_ofFn_apply (t := S800000x128) (s₁ := S100000x128) 0 u h rfl 100000 rfl j n
    (by have := k.isLt; omega) (ValueIdx.ix2 k (j 1)) (by show k.val = (j 0).val % 100000; have := k.isLt; omega)
    (fun b hb => match b with
      | ⟨0, _⟩ => absurd rfl hb
      | ⟨1, _⟩ => rfl)

/-- Eight chunks, chunk `n` holding the rows of a node table `T` that words 100000 n … 100000 n + 99999 of an index
    row name, stack to the rows of `T` that the whole index row names: row `r` of the stack is row `r % 100000` of chunk
    `r / 100000`, and 100000 (r / 100000) + r % 100000 = r. -/
theorem rows_stack8 (T : FVec Ideal S50000x128 .f32) (row : IVec S800000 32) (tb : Fin 8 → IVec S100000 32)
    (htb : ∀ (n : Fin 8) (k : Fin 100000),
      tb n (ValueIdx.ix1 k) = row (ValueIdx.ix1 ⟨100000 * n.val + k.val, by have := n.isLt; have := k.isLt; omega⟩))
    (u : Fin 8 → FVec Ideal S100000x128 .f32)
    (hu : ∀ n, u n = fun i => T (ValueIdx.ix2 (Cert.Spec.node (tb n (ValueIdx.ix1 (i 0)))) (i 1)))
    (h : Shape.Concatenates ((List.ofFn fun n : Fin 8 => (⟨S100000x128, u n⟩ : (s : Shape) × (s.Idx → Ideal .f32))).map (·.1)) S800000x128 0) :
    concatenate S800000x128 0 (List.ofFn fun n : Fin 8 => (⟨S100000x128, u n⟩ : (s : Shape) × (s.Idx → Ideal .f32))) h
      = Cert.Spec.rowsE T row := by
  funext j
  have hj : (j 0).val < 800000 := (j 0).isLt
  rw [stack8_apply u h j ⟨(j 0).val / 100000, by omega⟩ ⟨(j 0).val % 100000, Nat.mod_lt _ (by decide)⟩
    (by show (j 0).val = 100000 * ((j 0).val / 100000) + (j 0).val % 100000; omega), hu]
  show T (ValueIdx.ix2 (Cert.Spec.node (tb _ (ValueIdx.ix1 _))) (j 1)) = T (ValueIdx.ix2 (Cert.Spec.node (row (ValueIdx.ix1 (j 0)))) (j 1))
  rw [htb]
  exact congrArg (fun p : Fin 800000 => T (ValueIdx.ix2 (Cert.Spec.node (row (ValueIdx.ix1 p))) (j 1)))
    (Fin.ext (Nat.div_add_mod (j 0).val 100000))

/-! ## The classifier's source operand -/

set_option maxHeartbeats 2000000 in
/-- THE SOURCE OPERAND of the classifier, when each of the eight source gathers left the rows of `T` its table names:
    the rows of `T` at the sources of the edges. The host stretch between regions 30 and 31 stacks the eight outputs,
    and nothing later writes the stack. -/
theorem rowsSrc_val (c : Dev nD) (T : FVec Ideal S50000x128 .f32)
    (hg23 : (V64 m outs c main_v91 : FVec Ideal S100000x128 .f32)
      = fun i => T (ValueIdx.ix2 (Cert.Spec.node (tbl23 m c (ValueIdx.ix1 (i 0)))) (i 1)))
    (hg24 : (V64 m outs c main_v93 : FVec Ideal S100000x128 .f32)
      = fun i => T (ValueIdx.ix2 (Cert.Spec.node (tbl24 m c (ValueIdx.ix1 (i 0)))) (i 1)))
    (hg25 : (V64 m outs c main_v95 : FVec Ideal S100000x128 .f32)
      = fun i => T (ValueIdx.ix2 (Cert.Spec.node (tbl25 m c (ValueIdx.ix1 (i 0)))) (i 1)))
    (hg26 : (V64 m outs c main_v97 : FVec Ideal S100000x128 .f32)
      = fun i => T (ValueIdx.ix2 (Cert.Spec.node (tbl26 m c (ValueIdx.ix1 (i 0)))) (i 1)))
    (hg27 : (V64 m outs c main_v99 : FVec Ideal S100000x128 .f32)
      = fun i => T (ValueIdx.ix2 (Cert.Spec.node (tbl27 m c (ValueIdx.ix1 (i 0)))) (i 1)))
    (hg28 : (V64 m outs c main_v101 : FVec Ideal S100000x128 .f32)
      = fun i => T (ValueIdx.ix2 (Cert.Spec.node (tbl28 m c (ValueIdx.ix1 (i 0)))) (i 1)))
    (hg29 : (V64 m outs c main_v103 : FVec Ideal S100000x128 .f32)
      = fun i => T (ValueIdx.ix2 (Cert.Spec.node (tbl29 m c (ValueIdx.ix1 (i 0)))) (i 1)))
    (hg30 : (V64 m outs c main_v105 : FVec Ideal S100000x128 .f32)
      = fun i => T (ValueIdx.ix2 (Cert.Spec.node (tbl30 m c (ValueIdx.ix1 (i 0)))) (i 1))) :
    (V81 m outs c main_v106 : FVec Ideal S800000x128 .f32) = Cert.Spec.rowsE T (Cert.Spec.srcRow (edges m c)) := by
  rw [v106_at81]
  have e : (V65 m outs c main_v106 : FVec Ideal S800000x128 .f32)
      = concatenate S800000x128 0
          [⟨S100000x128, (V64 m outs c main_v91 : FVec Ideal S100000x128 .f32)⟩, ⟨S100000x128, (V64 m outs c main_v93 : FVec Ideal S100000x128 .f32)⟩,
           ⟨S100000x128, (V64 m outs c main_v95 : FVec Ideal S100000x128 .f32)⟩, ⟨S100000x128, (V64 m outs c main_v97 : FVec Ideal S100000x128 .f32)⟩,
           ⟨S100000x128, (V64 m outs c main_v99 : FVec Ideal S100000x128 .f32)⟩, ⟨S100000x128, (V64 m outs c main_v101 : FVec Ideal S100000x128 .f32)⟩,
           ⟨S100000x128, (V64 m outs c main_v103 : FVec Ideal S100000x128 .f32)⟩, ⟨S100000x128, (V64 m outs c main_v105 : FVec Ideal S100000x128 .f32)⟩]
          concatenates_S100000x128_S100000x128_S100000x128_S100000x128_S100000x128_S100000x128_S100000x128_S100000x128_S800000x128_d0 := by
    dsimp only [V65, hostOps31]; after_results <;> rfl
  rw [e]
  exact rows_stack8 T (src m c)
    ![tbl23 m c, tbl24 m c, tbl25 m c, tbl26 m c, tbl27 m c, tbl28 m c, tbl29 m c, tbl30 m c] (tblSrc_apply m c)
    ![(V64 m outs c main_v91 : FVec Ideal S100000x128 .f32), (V64 m outs c main_v93 : FVec Ideal S100000x128 .f32),
      (V64 m outs c main_v95 : FVec Ideal S100000x128 .f32), (V64 m outs c main_v97 : FVec Ideal S100000x128 .f32),
      (V64 m outs c main_v99 : FVec Ideal S100000x128 .f32), (V64 m outs c main_v101 : FVec Ideal S100000x128 .f32),
      (V64 m outs c main_v103 : FVec Ideal S100000x128 .f32), (V64 m outs c main_v105 : FVec Ideal S100000x128 .f32)]
    (fun n => match n with
      | 0 => hg23 | 1 => hg24 | 2 => hg25 | 3 => hg26 | 4 => hg27 | 5 => hg28 | 6 => hg29 | 7 => hg30
      | ⟨_ + 8, h⟩ => absurd h (Nat.not_lt.2 (Nat.le_add_left _ _)))
    concatenates_S100000x128_S100000x128_S100000x128_S100000x128_S100000x128_S100000x128_S100000x128_S100000x128_S800000x128_d0

/-! ## The classifier's target operand -/

set_option maxHeartbeats 2000000 in
/-- THE TARGET OPERAND of the classifier, when each of the eight target gathers left the rows of `T` its table names:
    the rows of `T` at the targets of the edges. The last host stretch stacks the eight outputs. -/
theorem rowsDst_val (c : Dev nD) (T : FVec Ideal S50000x128 .f32)
    (hg31 : (V80 m outs c main_v108 : FVec Ideal S100000x128 .f32)
      = fun i => T (ValueIdx.ix2 (Cert.Spec.node (tbl31 m c (ValueIdx.ix1 (i 0)))) (i 1)))
    (hg32 : (V80 m outs c main_v110 : FVec Ideal S100000x128 .f32)
      = fun i => T (ValueIdx.ix2 (Cert.Spec.node (tbl32 m c (ValueIdx.ix1 (i 0)))) (i 1)))
    (hg33 : (V80 m outs c main_v112 : FVec Ideal S100000x128 .f32)
      = fun i => T (ValueIdx.ix2 (Cert.Spec.node (tbl33 m c (ValueIdx.ix1 (i 0)))) (i 1)))
    (hg34 : (V80 m outs c main_v114 : FVec Ideal S100000x128 .f32)
      = fun i => T (ValueIdx.ix2 (Cert.Spec.node (tbl34 m c (ValueIdx.ix1 (i 0)))) (i 1)))
    (hg35 : (V80 m outs c main_v116 : FVec Ideal S100000x128 .f32)
      = fun i => T (ValueIdx.ix2 (Cert.Spec.node (tbl35 m c (ValueIdx.ix1 (i 0)))) (i 1)))
    (hg36 : (V80 m outs c main_v118 : FVec Ideal S100000x128 .f32)
      = fun i => T (ValueIdx.ix2 (Cert.Spec.node (tbl36 m c (ValueIdx.ix1 (i 0)))) (i 1)))
    (hg37 : (V80 m outs c main_v120 : FVec Ideal S100000x128 .f32)
      = fun i => T (ValueIdx.ix2 (Cert.Spec.node (tbl37 m c (ValueIdx.ix1 (i 0)))) (i 1)))
    (hg38 : (V80 m outs c main_v122 : FVec Ideal S100000x128 .f32)
      = fun i => T (ValueIdx.ix2 (Cert.Spec.node (tbl38 m c (ValueIdx.ix1 (i 0)))) (i 1))) :
    (V81 m outs c main_v123 : FVec Ideal S800000x128 .f32) = Cert.Spec.rowsE T (Cert.Spec.dstRow (edges m c)) := by
  have e : (V81 m outs c main_v123 : FVec Ideal S800000x128 .f32)
      = concatenate S800000x128 0
          [⟨S100000x128, (V80 m outs c main_v108 : FVec Ideal S100000x128 .f32)⟩, ⟨S100000x128, (V80 m outs c main_v110 : FVec Ideal S100000x128 .f32)⟩,
           ⟨S100000x128, (V80 m outs c main_v112 : FVec Ideal S100000x128 .f32)⟩, ⟨S100000x128, (V80 m outs c main_v114 : FVec Ideal S100000x128 .f32)⟩,
           ⟨S100000x128, (V80 m outs c main_v116 : FVec Ideal S100000x128 .f32)⟩, ⟨S100000x128, (V80 m outs c main_v118 : FVec Ideal S100000x128 .f32)⟩,
           ⟨S100000x128, (V80 m outs c main_v120 : FVec Ideal S100000x128 .f32)⟩, ⟨S100000x128, (V80 m outs c main_v122 : FVec Ideal S100000x128 .f32)⟩]
          concatenates_S100000x128_S100000x128_S100000x128_S100000x128_S100000x128_S100000x128_S100000x128_S100000x128_S800000x128_d0 := by
    dsimp only [V81, hostOps39]; after_results <;> rfl
  rw [e]
  exact rows_stack8 T (dst m c)
    ![tbl31 m c, tbl32 m c, tbl33 m c, tbl34 m c, tbl35 m c, tbl36 m c, tbl37 m c, tbl38 m c] (tblDst_apply m c)
    ![(V80 m outs c main_v108 : FVec Ideal S100000x128 .f32), (V80 m outs c main_v110 : FVec Ideal S100000x128 .f32),
      (V80 m outs c main_v112 : FVec Ideal S100000x128 .f32), (V80 m outs c main_v114 : FVec Ideal S100000x128 .f32),
      (V80 m outs c main_v116 : FVec Ideal S100000x128 .f32), (V80 m outs c main_v118 : FVec Ideal S100000x128 .f32),
      (V80 m outs c main_v120 : FVec Ideal S100000x128 .f32), (V80 m outs c main_v122 : FVec Ideal S100000x128 .f32)]
    (fun n => match n with
      | 0 => hg31 | 1 => hg32 | 2 => hg33 | 3 => hg34 | 4 => hg35 | 5 => hg36 | 6 => hg37 | 7 => hg38
      | ⟨_ + 8, h⟩ => absurd h (Nat.not_lt.2 (Nat.le_add_left _ _)))
    concatenates_S100000x128_S100000x128_S100000x128_S100000x128_S100000x128_S100000x128_S100000x128_S100000x128_S800000x128_d0

/-! ## The classifier's weights and bias, as the last host stretch lays them out -/

/-- The classifier's weight matrix reaches the last host stretch as launched. -/
theorem arg6_at80 (c : Dev nD) : V80 m outs c main_arg6 = V0 m c main_arg6 :=
  (V81_of m outs c main_arg6 (by decide)).symm.trans <| (V82_of m outs c main_arg6 (by decide)).symm.trans <|
    V82_main_arg6 m outs c

/-- The classifier's bias reaches the last host stretch as launched. -/
theorem arg7_at80 (c : Dev nD) : V80 m outs c main_arg7 = V0 m c main_arg7 :=
  (V81_of m outs c main_arg7 (by decide)).symm.trans <| (V82_of m outs c main_arg7 (by decide)).symm.trans <|
    V82_main_arg7 m outs c

/-- The upper half of the classifier's weights: rows 0 to 127 of the launch matrix. -/
theorem wcTop_val (c : Dev nD) (k : Fin 128) (q : Fin 2) :
    (V81 m outs c main_v124 : FVec Ideal S128x2 .f32) (ValueIdx.ix2 k q)
      = (V0 m c main_arg6 : FVec Ideal Cert.Spec.ShWc .f32) (ValueIdx.ix2 (Fin.castAdd 128 k) q) := by
  have e : (V81 m outs c main_v124 : FVec Ideal S128x2 .f32)
      = extractStridedSlice S128x2 ![0, 0] (V80 m outs c main_arg6 : FVec Ideal S256x2 .f32) slices_S256x2_S128x2_0_0 := by
    dsimp only [V81, hostOps39]; after_results <;> rfl
  rw [e, arg6_at80]
  exact extractStridedSlice_apply _ _ _ _ _ (fun a => match a with
    | ⟨0, _⟩ => (Nat.zero_add _).symm
    | ⟨1, _⟩ => (Nat.zero_add _).symm)

/-- The lower half of the classifier's weights: rows 128 to 255 of the launch matrix. -/
theorem wcBot_val (c : Dev nD) (k : Fin 128) (q : Fin 2) :
    (V81 m outs c main_v125 : FVec Ideal S128x2 .f32) (ValueIdx.ix2 k q)
      = (V0 m c main_arg6 : FVec Ideal Cert.Spec.ShWc .f32) (ValueIdx.ix2 (Fin.natAdd 128 k) q) := by
  have e : (V81 m outs c main_v125 : FVec Ideal S128x2 .f32)
      = extractStridedSlice S128x2 ![128, 0] (V80 m outs c main_arg6 : FVec Ideal S256x2 .f32) slices_S256x2_S128x2_128_0 := by
    dsimp only [V81, hostOps39]; after_results <;> rfl
  rw [e, arg6_at80]
  exact extractStridedSlice_apply _ _ _ _ _ (fun a => match a with
    | ⟨0, _⟩ => rfl
    | ⟨1, _⟩ => (Nat.zero_add _).symm)

/-- The classifier's bias as a one-row array: entry (0, q) is the launch vector's entry q. -/
theorem bcrow_val (c : Dev nD) (q : Fin 2) :
    (V81 m outs c main_v126 : FVec Ideal S1x2 .f32) (ValueIdx.ix2 (0 : Fin 1) q)
      = (V0 m c main_arg7 : FVec Ideal Cert.Spec.ShBc .f32) (ValueIdx.ix1 q) := by
  have e : (V81 m outs c main_v126 : FVec Ideal S1x2 .f32)
      = shapeCast S1x2 (V80 m outs c main_arg7 : FVec Ideal S2 .f32) shapeCasts_S2_S1x2 := by
    dsimp only [V81, hostOps39]; after_results <;> rfl
  rw [e, arg7_at80]
  exact ValueIdx.shapeCast_a_1a_apply _ _ _ _

/-! ## The two layers' bias rows -/

/-- The first layer's bias as the one-row array region 11 reads: entry (0, j) is the launch vector's entry j. -/
theorem b1row_val (c : Dev nD) (j : Fin 128) :
    (V25 m outs c main_v60 : FVec Ideal S1x128 .f32) (ValueIdx.ix2 (0 : Fin 1) j)
      = (V0 m c main_arg3 : FVec Ideal Cert.Spec.ShB .f32) (ValueIdx.ix1 j) := by
  have e : (V25 m outs c main_v60 : FVec Ideal S1x128 .f32)
      = shapeCast S1x128 (V24 m outs c main_arg3 : FVec Ideal S128 .f32) shapeCasts_S128_S1x128 := by
    dsimp only [V25, hostOps11]; after_results <;> rfl
  rw [e, arg3_at24]
  exact ValueIdx.shapeCast_a_1a_apply _ _ _ _

/-- The second layer's bias as the one-row array region 22 reads. -/
theorem b2row_val (c : Dev nD) (j : Fin 128) :
    (V47 m outs c main_v88 : FVec Ideal S1x128 .f32) (ValueIdx.ix2 (0 : Fin 1) j)
      = (V0 m c main_arg5 : FVec Ideal Cert.Spec.ShB .f32) (ValueIdx.ix1 j) := by
  have e : (V47 m outs c main_v88 : FVec Ideal S1x128 .f32)
      = shapeCast S1x128 (V46 m outs c main_arg5 : FVec Ideal S128 .f32) shapeCasts_S128_S1x128 := by
    dsimp only [V47, hostOps22]; after_results <;> rfl
  rw [e, arg5_at46]
  exact ValueIdx.shapeCast_a_1a_apply _ _ _ _

end Cert.KernelIdeal.Hand

end
-- ==== Proof.KI.DenseMM.lean ====
/-
  The matrix unit's product of a 5000 x 128 block and a 128 x 128 matrix, accumulated from zero, read at one element
  over the extended reals: the sum, over the 128 shared coordinates, of the products of the left operand's row and the
  right operand's column. Two regions of @main (the two feature transforms) end in this product; each reads its payload
  at an index through `mm5000_apply`.

  The product's dimension numbers contract the left operand's axis 1 with the right operand's axis 0 and keep the left
  operand's axis 0 and the right operand's axis 1, with no batch axis: the four axis lemmas read the operands' indices
  off the output's index and the contraction's one coordinate, and the sum is re-indexed along the bijection between the
  contraction's index set and `Fin 128`.
-/
import proofs.«402049_j87351044866139_2_alg».proof.Proof.Gen.KernelIdeal
import Idealize.ShloMosaic.Lib.ValueIdx
import Idealize.ShloMosaic.PureOps.Ideal.Laws

noncomputable section

open scoped BigOperators

namespace Cert.KernelIdeal.Hand

open Cert.KernelIdeal Cert.KernelIdeal.Gen
open Idealize.ShloMosaic Idealize.ShloMosaic.ValueIdx

/-! ## The operands' indices, axis by axis -/

/-- The left operand's row is the output's row. -/
theorem lhs_mm5000_0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
/-- The left operand's column is the contraction's coordinate. -/
theorem lhs_mm5000_1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
/-- The right operand's row is the contraction's coordinate. -/
theorem rhs_mm5000_0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
/-- The right operand's column is the output's column. -/
theorem rhs_mm5000_1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The matrix unit's product into a zero accumulator, at row `p` and column `q`: the sum over the 128 shared
    coordinates of the left operand's row `p` times the right operand's column `q`. -/
theorem mm5000_apply {φ₁ φ₂ : FTy} (a : FVec Ideal S5000x128 φ₁) (b : FVec Ideal S128x128 φ₂) (p : Fin 5000) (q : Fin 128) :
    matmul dot_S5000x128_S128x128_S5000x128_1_0_0_1_n_n none a b (constant (F := Ideal) S5000x128 .f32 0x00000000#32) (ValueIdx.ix2 p q)
      = ∑ k : Fin 128, a (ValueIdx.ix2 p k) * b (ValueIdx.ix2 k q) := by
  simp only [matmul]
  rw [Ideal.matmul_constant_zero_apply, ← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ValueIdx.ix2 p q) ((contrEquiv1 dot_S5000x128_S128x128_S5000x128_1_0_0_1_n_n 128 rfl rfl).symm k) = ValueIdx.ix2 p k := funext fun a => Fin.ext (by
    match a with
    | ⟨0, _⟩ => exact lhs_mm5000_0 _ _
    | ⟨1, _⟩ => exact (lhs_mm5000_1 _ _).trans hk)
  have er : dot_S5000x128_S128x128_S5000x128_1_0_0_1_n_n.rhsIdx (ValueIdx.ix2 p q) ((contrEquiv1 dot_S5000x128_S128x128_S5000x128_1_0_0_1_n_n 128 rfl rfl).symm k) = ValueIdx.ix2 k q := funext fun a => Fin.ext (by
    match a with
    | ⟨0, _⟩ => exact (rhs_mm5000_0 _ _).trans hk
    | ⟨1, _⟩ => exact rhs_mm5000_1 _ _)
  rw [el, er]

end Cert.KernelIdeal.Hand

end
-- ==== Proof.KI.DenseVal0.lean ====
/-
  The VALUE of region 0 of @main — the first feature transform — over the extended reals: the array the region leaves
  is the product of the feature matrix and the first weight matrix as the region finds them,
      out (r, q) = the sum over k of X (r, k) * W (k, q),
  index by index (`final0`).

  * `pay0_apply`: the body's one payload at row `p`, column `q` of a block. Over the extended reals the two roundings
    to bf16 are the identity, and the matrix unit's product into a zero accumulator is the plain sum.
  * `pay0_eq_matmul`: so the payload at `j` is the product of two arrays at `i` as soon as the feature block's row of
    `j` is the first array's row of `i` and the weight block's column of `j` is the second array's column of `i`.
  * `idx_facts0`: the printed index maps over the 10 grid points — the feature window and the output window at
    block row `t`, the weight window at its one block.
  * `flushed0_eq`: what point `t` writes back is block `t` of the product. A block's element sits in its array, on
    each axis, at block index x block extent + its own coordinate; rows 5000 t + (j 0) of the feature matrix meet
    the whole weight matrix.
  * `cover0`: row `r` of the output lies in the block of point `r / 5000`, so the 10 blocks cover the array.
  * `final0`: the array after the region's last point.
-/
import proofs.«402049_j87351044866139_2_alg».proof.Proof.KI.Dense0
import proofs.«402049_j87351044866139_2_alg».proof.Proof.KI.DenseMM
import proofs.«402049_j87351044866139_2_alg».proof.Proof.Spec
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat)

variable (V : (c : Dev nD) → (b : Ref sig .tc) → Buf (Elt Ideal) ((c : Thread nD τ).loc b))

/-! ## The body's payload at an index -/

/-- The payload of the one store, at row `p` and column `q` of the block: the roundings to bf16 are the identity on
    the extended reals, and the product into the zero accumulator is the plain sum. -/
theorem pay0_apply (x0 : Vec Ideal S5000x128 .f32) (x1 : Vec Ideal S128x128 .f32) (p : Fin 5000) (q : Fin 128) :
    k0_pay1 (F := Ideal) x0 x1 (ValueIdx.ix2 p q) = ∑ k : Fin 128, x0 (ValueIdx.ix2 p k) * x1 (ValueIdx.ix2 k q) := by
  unfold k0_pay1
  exact mm5000_apply _ _ p q

/-- So a block's payload at `j` is the product of two arrays `X` and `W` at `i`, when the feature block's row of `j`
    is `X`'s row of `i` and the weight block's column of `j` is `W`'s column of `i`. -/
theorem pay0_eq_matmul (X : FVec Ideal Cert.Spec.ShX .f32) (W : FVec Ideal Cert.Spec.ShW .f32)
    (x0 : Vec Ideal S5000x128 .f32) (x1 : Vec Ideal S128x128 .f32) (j : S5000x128.Idx) (i : S50000x128.Idx)
    (h0 : ∀ k : Fin 128, x0 (ValueIdx.ix2 (j 0) k) = X (ValueIdx.ix2 (i 0) k))
    (h1 : ∀ k : Fin 128, x1 (ValueIdx.ix2 k (j 1)) = W (ValueIdx.ix2 k (i 1))) :
    k0_pay1 (F := Ideal) x0 x1 j = Cert.Spec.matmul X W i := by
  obtain ⟨p, q, rfl⟩ : ∃ (p : Fin 5000) (q : Fin 128), j = ValueIdx.ix2 p q := ⟨j 0, j 1, eq_ix2 j⟩
  rw [pay0_apply]
  exact Finset.sum_congr rfl fun k _ => by rw [h0 k, h1 k]

/-! ## From blocks to the array -/

theorem hz0 : (![0, 0] : Fin 2 → Nat) = fun _ => 0 := funext fun a => by fin_cases a <;> rfl

/-- The printed index maps over the 10 points: the feature window and the output window sit at block row `t`, block
    column 0; the weight window at block 0, 0. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point `t` writes back is block `t` of the product of the two input arrays. -/
theorem flushed0_eq (c : Dev nD) (t : Fin cfg0.N) :
    (dat0 (F := Ideal) V c).flushed 2 t
      = ((cfg0.win 2).blk t).view.read (Elt Ideal) (Cert.Spec.matmul (V c (Pipeline.arrRef spec0 0)) (V c (Pipeline.arrRef spec0 1))) := by
  show (cfg0.win 2).cut (grid0.coords t) ((dat0 V c).after 2 t) = _
  rw [after0_2]
  unfold out0_2
  rw [View.canon_unit_zero hz0]
  simp only [View.ld_unit_zero (S := S5000x128) hz0, View.ld_unit_zero (S := S128x128) hz0]
  obtain ⟨e00, e01, e10, e11, e20, e21⟩ := idx_facts0 t
  funext j
  show k0_pay1 (F := Ideal) (iblk0 V c 0 t) (iblk0 V c 1 t) j
    = Cert.Spec.matmul (V c (Pipeline.arrRef spec0 0)) (V c (Pipeline.arrRef spec0 1)) (((cfg0.win 2).blk t).view.emb j)
  refine pay0_eq_matmul _ _ _ _ j _ (fun k => ?_) (fun k => ?_)
  · show V c (Pipeline.arrRef spec0 0) (((cfg0.win 0).blk t).view.emb (ValueIdx.ix2 (j 0) k)) = _
    congr 1
    funext a; apply Fin.ext
    match a with
    | ⟨0, _⟩ => show win0_0.index t (0 : Fin 2) * 5000 + 1 * (j 0).val = win0_2.index t (0 : Fin 2) * 5000 + 1 * (j 0).val; omega
    | ⟨1, _⟩ => show win0_0.index t (1 : Fin 2) * 128 + 1 * k.val = k.val; omega
  · show V c (Pipeline.arrRef spec0 1) (((cfg0.win 1).blk t).view.emb (ValueIdx.ix2 k (j 1))) = _
    congr 1
    funext a; apply Fin.ext
    match a with
    | ⟨0, _⟩ => show win0_1.index t (0 : Fin 2) * 128 + 1 * k.val = k.val; omega
    | ⟨1, _⟩ => show win0_1.index t (1 : Fin 2) * 128 + 1 * (j 1).val = win0_2.index t (1 : Fin 2) * 128 + 1 * (j 1).val; omega

/-- An index of the output array is in point `t`'s block iff each coordinate is in the block's range on its axis. -/
theorem mem_blk0 (t : Fin cfg0.N) (i : S50000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v33).slice (win0_2.rect t)).set ↔ _
  rw [View.set_slice_whole, Rect.mem_set_unit]
  exact Iff.rfl

/-- Every index of the output array is in some point's block: row `r` is in block `r / 5000`. -/
theorem cover0 (i : S50000x128.Idx) : ∃ t : Fin cfg0.N, (cfg0.win 2).flush t = true ∧ i ∈ ((cfg0.win 2).blk t).view.set := by
  have hi0 : (i 0).val < 50000 := (i 0).isLt
  have hi1 : (i 1).val < 128 := (i 1).isLt
  let t : Fin cfg0.N := ⟨(i 0).val / 5000, by rw [show cfg0.N = 10 from N_0]; omega⟩
  obtain ⟨e00, e01, e10, e11, e20, e21⟩ := idx_facts0 t
  have ht : t.val = (i 0).val / 5000 := rfl
  refine ⟨t, flush0_2 t, ?_⟩
  rw [mem_blk0]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 128 ≤ (i 1).val ∧ (i 1).val < win0_2.index t (1 : Fin 2) * 128 + 128; omega

/-- THE ARRAY region 0 leaves: the product of the feature matrix and the first weight matrix as the region finds
    them, index by index. -/
theorem final0 (c : Dev nD) :
    (dat0 (F := Ideal) V c).arrAt 2 cfg0.N = Cert.Spec.matmul (V c (Pipeline.arrRef spec0 0)) (V c (Pipeline.arrRef spec0 1)) :=
  (dat0 (F := Ideal) V c).arrAt_eq_of_cover 2 _ (fun t _ => flushed0_eq V c t) cover0

end Cert.KernelIdeal.Hand

end
-- ==== Proof.KI.DenseVal11.lean ====
/-
  The VALUE of region 11 of @main — the first layer's bias and rectifier fused with the second feature transform —
  over the extended reals: the array the region leaves is the product of the rectified biased features and the second
  weight matrix as the region finds them,
      out (r, q) = the sum over k of max (A (r, k) + b (0, k)) 0 * W (k, q),
  index by index (`final11`); the bias is a one-row array.

  * `rowBiasRelu`: a node table plus a one-row bias array repeated down its rows, then the positive part.
  * `bias11_apply`, `pay11_apply`: the body's one payload at row `p`, column `q` of a block. The bias row is repeated
    down the block's rows; over the extended reals the two roundings to bf16 are the identity, and the matrix unit's
    product into a zero accumulator is the plain sum.
  * `pay11_eq_matmul`: so the payload at `j` is the product at `i` as soon as the feature block's row of `j` is the
    feature array's row of `i`, the bias block and the weight block are their arrays, and `j` and `i` share a column.
  * `idx_facts11`: the printed index maps over the 10 grid points — the feature window and the output window at
    block row `t`, the bias window and the weight window at their one block.
  * `iblk11_0_apply`, `iblk11_1_apply`, `iblk11_2_apply`: each input window's block read off its array. A block's
    element sits in its array, on each axis, at block index x block extent + its own coordinate.
  * `flushed11_eq`: what point `t` writes back is block `t` of the product.
  * `cover11`: row `r` of the output lies in the block of point `r / 5000`, so the 10 blocks cover the array.
  * `final11`: the array after the region's last point.
-/
import proofs.«402049_j87351044866139_2_alg».proof.Proof.KI.Dense11
import proofs.«402049_j87351044866139_2_alg».proof.Proof.KI.DenseMM
import proofs.«402049_j87351044866139_2_alg».proof.Proof.Spec
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat)

/-! ## Bias along the rows, then the positive part -/

/-- A node table plus a one-row bias array repeated down its rows, then the larger of that and zero. -/
abbrev rowBiasRelu (A : FVec Ideal S50000x128 .f32) (b : FVec Ideal S1x128 .f32) : FVec Ideal S50000x128 .f32 :=
  fun i => max (A i + b (ValueIdx.ix2 (0 : Fin 1) (i 1))) (Ideal.ofBits .f32 0x00000000#32)

variable (V : (c : Dev nD) → (b : Ref sig .tc) → Buf (Elt Ideal) ((c : Thread nD τ).loc b))

/-! ## The body's payload at an index -/

/-- The bias row repeated down the block's rows, at row `p` and column `k`: the row's entry `k`. -/
theorem bias11_apply (x1 : Vec Ideal S1x128 .f32) (p : Fin 5000) (k : Fin 128) :
    broadcastTo S5000x128 (shapeCast S1x128 x1 shapeCasts_S1x128_S1x128) broadcasts_S1x128_S5000x128 (ValueIdx.ix2 p k)
      = x1 (ValueIdx.ix2 (0 : Fin 1) k) := by
  rw [shapeCast_self]
  refine broadcastTo_apply _ _ _ (ValueIdx.ix2 (0 : Fin 1) k) fun a => ?_
  match a with
  | ⟨0, _⟩ => rfl
  | ⟨1, _⟩ => rfl

/-- The payload of the one store, at row `p` and column `q` of the block: the sum over `k` of the rectified biased
    feature entry (p, k) times the weight entry (k, q). The roundings to bf16 are the identity on the extended reals, and
    the product into the zero accumulator is the plain sum. -/
theorem pay11_apply (x0 : Vec Ideal S5000x128 .f32) (x1 : Vec Ideal S1x128 .f32) (x2 : Vec Ideal S128x128 .f32)
    (p : Fin 5000) (q : Fin 128) :
    k11_pay1 (F := Ideal) x0 x1 x2 (ValueIdx.ix2 p q)
      = ∑ k : Fin 128, max (x0 (ValueIdx.ix2 p k) + x1 (ValueIdx.ix2 (0 : Fin 1) k)) (Ideal.ofBits .f32 0x00000000#32) * x2 (ValueIdx.ix2 k q) := by
  unfold k11_pay1
  refine (mm5000_apply _ _ p q).trans (Finset.sum_congr rfl fun k _ => ?_)
  show max (shapeCast S5000x128 x0 shapeCasts_S5000x128_S5000x128 (ValueIdx.ix2 p k)
      + broadcastTo S5000x128 (shapeCast S1x128 x1 shapeCasts_S1x128_S1x128) broadcasts_S1x128_S5000x128 (ValueIdx.ix2 p k))
      (Ideal.ofBits .f32 0x00000000#32) * x2 (ValueIdx.ix2 k q) = _
  rw [shapeCast_self, bias11_apply]

/-- So a block's payload at `j` is the product at `i` of the rectified biased array `A` + `b` and the array `W`, when
    the feature block's row of `j` is `A`'s row of `i`, the bias block is `b`, the weight block is `W`, and `j` and `i`
    are in the same column. -/
theorem pay11_eq_matmul (A : FVec Ideal S50000x128 .f32) (b : FVec Ideal S1x128 .f32) (W : FVec Ideal S128x128 .f32)
    (x0 : Vec Ideal S5000x128 .f32) (x1 : Vec Ideal S1x128 .f32) (x2 : Vec Ideal S128x128 .f32)
    (j : S5000x128.Idx) (i : S50000x128.Idx)
    (h0 : ∀ k : Fin 128, x0 (ValueIdx.ix2 (j 0) k) = A (ValueIdx.ix2 (i 0) k))
    (h1 : ∀ y : S1x128.Idx, x1 y = b y)
    (h2 : ∀ y : S128x128.Idx, x2 y = W y)
    (hq : (j 1).val = (i 1).val) :
    k11_pay1 (F := Ideal) x0 x1 x2 j = Cert.Spec.matmul (rowBiasRelu A b) W i := by
  obtain ⟨p, q, rfl⟩ : ∃ (p : Fin 5000) (q : Fin 128), j = ValueIdx.ix2 p q := ⟨j 0, j 1, eq_ix2 j⟩
  have eq : q = i 1 := Fin.ext hq
  rw [pay11_apply]
  show _ = ∑ k : Fin 128, max (A (ValueIdx.ix2 (i 0) k) + b (ValueIdx.ix2 (0 : Fin 1) k)) (Ideal.ofBits .f32 0x00000000#32) * W (ValueIdx.ix2 k (i 1))
  exact Finset.sum_congr rfl fun k _ => by rw [h0 k, h1, h2, eq]

/-! ## The input windows' blocks, read off their arrays -/

/-- The printed index maps over the 10 points: the feature window and the output window sit at block row `t`, block
    column 0; the bias window and the weight window at block 0, 0. -/
theorem idx_facts11 : ∀ t : Fin cfg11.N, win11_0.index t (0 : Fin 2) = t.val ∧ win11_0.index t (1 : Fin 2) = 0
    ∧ win11_1.index t (0 : Fin 2) = 0 ∧ win11_1.index t (1 : Fin 2) = 0
    ∧ win11_2.index t (0 : Fin 2) = 0 ∧ win11_2.index t (1 : Fin 2) = 0
    ∧ win11_3.index t (0 : Fin 2) = t.val ∧ win11_3.index t (1 : Fin 2) = 0 :=
  (by decide +kernel : ∀ t : Fin grid11.N, _)

set_option maxHeartbeats 1000000 in
/-- The feature window's block at point `t` holds rows 5000 t onward of the feature array. -/
theorem iblk11_0_apply (c : Dev nD) (t : Fin cfg11.N) (y : S5000x128.Idx) (i : S50000x128.Idx)
    (h0 : (i 0).val = t.val * 5000 + (y 0).val) (h1 : (i 1).val = (y 1).val) :
    iblk11 V c 0 t y = V c (Pipeline.arrRef spec11 0) i := by
  obtain ⟨e00, e01, e10, e11, e20, e21, e30, e31⟩ := idx_facts11 t
  show V c (Pipeline.arrRef spec11 0) (((cfg11.win 0).blk t).view.emb y) = _
  congr 1
  funext a; apply Fin.ext
  match a with
  | ⟨0, _⟩ => show win11_0.index t (0 : Fin 2) * 5000 + 1 * (y 0).val = (i 0).val; omega
  | ⟨1, _⟩ => show win11_0.index t (1 : Fin 2) * 128 + 1 * (y 1).val = (i 1).val; omega

set_option maxHeartbeats 1000000 in
/-- The bias window's block at every point is the whole bias array. -/
theorem iblk11_1_apply (c : Dev nD) (t : Fin cfg11.N) (y : S1x128.Idx) :
    iblk11 V c 1 t y = V c (Pipeline.arrRef spec11 1) y := by
  obtain ⟨e00, e01, e10, e11, e20, e21, e30, e31⟩ := idx_facts11 t
  show V c (Pipeline.arrRef spec11 1) (((cfg11.win 1).blk t).view.emb y) = _
  congr 1
  funext a; apply Fin.ext
  match a with
  | ⟨0, _⟩ => show win11_1.index t (0 : Fin 2) * 1 + 1 * (y 0).val = (y 0).val; omega
  | ⟨1, _⟩ => show win11_1.index t (1 : Fin 2) * 128 + 1 * (y 1).val = (y 1).val; omega

set_option maxHeartbeats 1000000 in
/-- The weight window's block at every point is the whole weight matrix. -/
theorem iblk11_2_apply (c : Dev nD) (t : Fin cfg11.N) (y : S128x128.Idx) :
    iblk11 V c 2 t y = V c (Pipeline.arrRef spec11 2) y := by
  obtain ⟨e00, e01, e10, e11, e20, e21, e30, e31⟩ := idx_facts11 t
  show V c (Pipeline.arrRef spec11 2) (((cfg11.win 2).blk t).view.emb y) = _
  congr 1
  funext a; apply Fin.ext
  match a with
  | ⟨0, _⟩ => show win11_2.index t (0 : Fin 2) * 128 + 1 * (y 0).val = (y 0).val; omega
  | ⟨1, _⟩ => show win11_2.index t (1 : Fin 2) * 128 + 1 * (y 1).val = (y 1).val; omega

/-! ## From blocks to the array -/

theorem hz11 : (![0, 0] : Fin 2 → Nat) = fun _ => 0 := funext fun a => by fin_cases a <;> rfl

set_option maxHeartbeats 1000000 in
/-- What point `t` writes back is block `t` of the product of the rectified biased features and the weight matrix. -/
theorem flushed11_eq (c : Dev nD) (t : Fin cfg11.N) :
    (dat11 (F := Ideal) V c).flushed 3 t
      = ((cfg11.win 3).blk t).view.read (Elt Ideal)
          (Cert.Spec.matmul (rowBiasRelu (V c (Pipeline.arrRef spec11 0)) (V c (Pipeline.arrRef spec11 1)))
            (V c (Pipeline.arrRef spec11 2))) := by
  show (cfg11.win 3).cut (grid11.coords t) ((dat11 V c).after 3 t) = _
  rw [after11_3]
  unfold out11_3
  rw [View.canon_unit_zero hz11]
  simp only [View.ld_unit_zero (S := S5000x128) hz11, View.ld_unit_zero (S := S1x128) hz11, View.ld_unit_zero (S := S128x128) hz11]
  obtain ⟨e00, e01, e10, e11, e20, e21, e30, e31⟩ := idx_facts11 t
  funext j
  show k11_pay1 (F := Ideal) (iblk11 V c 0 t) (iblk11 V c 1 t) (iblk11 V c 2 t) j
    = Cert.Spec.matmul _ _ (((cfg11.win 3).blk t).view.emb j)
  refine pay11_eq_matmul (V c (Pipeline.arrRef spec11 0)) (V c (Pipeline.arrRef spec11 1)) (V c (Pipeline.arrRef spec11 2)) _ _ _ j _
    (fun k => ?_) (fun y => iblk11_1_apply V c t y) (fun y => iblk11_2_apply V c t y) ?_
  · refine iblk11_0_apply V c t _ _ ?_ ?_
    · show win11_3.index t (0 : Fin 2) * 5000 + 1 * (j 0).val = t.val * 5000 + (j 0).val; omega
    · show k.val = k.val; rfl
  · show (j 1).val = win11_3.index t (1 : Fin 2) * 128 + 1 * (j 1).val; omega

/-- An index of the output array is in point `t`'s block iff each coordinate is in the block's range on its axis. -/
theorem mem_blk11 (t : Fin cfg11.N) (i : S50000x128.Idx) :
    i ∈ ((cfg11.win 3).blk t).view.set ↔ ∀ a : Fin 2, win11_3.index t a * S5000x128.size a ≤ (i a).val ∧ (i a).val < win11_3.index t a * S5000x128.size a + S5000x128.size a := by
  show i ∈ ((View.whole main_v61).slice (win11_3.rect t)).set ↔ _
  rw [View.set_slice_whole, Rect.mem_set_unit]
  exact Iff.rfl

/-- Every index of the output array is in some point's block: row `r` is in block `r / 5000`. -/
theorem cover11 (i : S50000x128.Idx) : ∃ t : Fin cfg11.N, (cfg11.win 3).flush t = true ∧ i ∈ ((cfg11.win 3).blk t).view.set := by
  have hi0 : (i 0).val < 50000 := (i 0).isLt
  have hi1 : (i 1).val < 128 := (i 1).isLt
  let t : Fin cfg11.N := ⟨(i 0).val / 5000, by rw [show cfg11.N = 10 from N_11]; omega⟩
  obtain ⟨e00, e01, e10, e11, e20, e21, e30, e31⟩ := idx_facts11 t
  have ht : t.val = (i 0).val / 5000 := rfl
  refine ⟨t, flush11_3 t, ?_⟩
  rw [mem_blk11]
  intro a
  match a with
  | ⟨0, _⟩ => show win11_3.index t (0 : Fin 2) * 5000 ≤ (i 0).val ∧ (i 0).val < win11_3.index t (0 : Fin 2) * 5000 + 5000; omega
  | ⟨1, _⟩ => show win11_3.index t (1 : Fin 2) * 128 ≤ (i 1).val ∧ (i 1).val < win11_3.index t (1 : Fin 2) * 128 + 128; omega

/-- THE ARRAY region 11 leaves: the product of the rectified biased features and the second weight matrix as the
    region finds them, index by index. -/
theorem final11 (c : Dev nD) :
    (dat11 (F := Ideal) V c).arrAt 3 cfg11.N
      = Cert.Spec.matmul (rowBiasRelu (V c (Pipeline.arrRef spec11 0)) (V c (Pipeline.arrRef spec11 1)))
          (V c (Pipeline.arrRef spec11 2)) :=
  (dat11 (F := Ideal) V c).arrAt_eq_of_cover 3 _ (fun t _ => flushed11_eq V c t) cover11

end Cert.KernelIdeal.Hand

end
-- ==== Proof.KI.DenseVal22.lean ====
/-
  The value of region 22 of @main over the extended reals: after the region the output array holds, at every index,
  the larger of zero and the input array's element there plus the bias of its column,

      out (r, c) = max (A (r, c) + b (0, c)) 0,

  `A` the 50000 x 128 array of aggregated features and `b` the 1 x 128 bias row as the region finds them.

  * `pay22_apply`: the body's payload read at an index of the block — the broadcast of the bias row down the rows
    read at (p, q) is the row's element q; the other operations act element by element.
  * `point22`: the same with the block's and the row's elements named as elements of the arrays.
  * `idx_facts22`: at grid point t the feature and the output windows sit at block (t, 0), the bias window at (0, 0).
  * `flushed22_eq`: what point t writes back is block t of the function above of the two arrays — the element (p, q)
    of block t is the arrays' element (5000 t + p, q).
  * `cover22`: row r of the output lies in the block of point r / 5000.
  * `final22`: so the array after the region is that function, everywhere.
-/
import proofs.«402049_j87351044866139_2_alg».proof.Proof.KI.Dense22
import Idealize.ShloMosaic.Lib.Pipeline.Value
import Idealize.ShloMosaic.Lib.ValueIdx
import Idealize.ShloMosaic.Lib.ValueLayout
import Idealize.ShloMosaic.PureOps.Ideal.Laws

-- a block's extent (5000 rows) is the depth of the structural checks on its rectangle
set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.Pipeline (Dat)

/-! # The value of region 22 -/

section Value22

-- the core's buffer contents when the region is entered, over the extended reals
variable (V : (c : Dev nD) → (b : Ref sig .tc) → Buf (Elt Ideal) ((c : Thread nD τ).loc b))

/-- The offsets of a whole-block access are zero on both axes. -/
theorem hz22 : (![0, 0] : Fin 2 → Nat) = fun _ => 0 := funext fun a => by fin_cases a <;> rfl

/-- Bias along the rows, then the positive part: the region's result as a function of its two input arrays. -/
abbrev biasRelu22 (A : S50000x128.Idx → Ideal .f32) (b : S1x128.Idx → Ideal .f32) : S50000x128.Idx → Ideal .f32 :=
  fun i => max (A i + b (ValueIdx.ix2 0 (i 1))) (Ideal.ofBits .f32 0x00000000#32)

/-- The body's payload at element (p, q) of the block: the block's element plus the bias row's element q, or zero if
    that is larger. -/
theorem pay22_apply (x0 : Vec Ideal S5000x128 .f32) (x1 : Vec Ideal S1x128 .f32) (p : Fin 5000) (q : Fin 128) :
    k22_pay1 x0 x1 (ValueIdx.ix2 p q) = max (x0 (ValueIdx.ix2 p q) + x1 (ValueIdx.ix2 0 q)) (Ideal.ofBits .f32 0x00000000#32) := by
  unfold k22_pay1
  simp only [ValueIdx.maximumf_apply, ValueIdx.addf_apply, ValueIdx.broadcast_apply, shapeCast_self]
  rw [ValueIdx.broadcastTo_1b_ab_apply]
  rfl

/-- The payload at a block index `j` is the result at an array index `i`, when the block's element at `j` is the
    feature array's at `i` and the staged row's element in `j`'s column is the bias array's in `i`'s column. -/
theorem point22 (A : S50000x128.Idx → Ideal .f32) (b : S1x128.Idx → Ideal .f32)
    (x0 : Vec Ideal S5000x128 .f32) (x1 : Vec Ideal S1x128 .f32) (j : S5000x128.Idx) (i : S50000x128.Idx)
    (h0 : x0 j = A i) (h1 : x1 (ValueIdx.ix2 0 (j 1)) = b (ValueIdx.ix2 0 (i 1))) :
    k22_pay1 x0 x1 j = biasRelu22 A b i := by
  obtain ⟨p, q, rfl⟩ : ∃ (p : Fin 5000) (q : Fin 128), j = ValueIdx.ix2 p q := ⟨j 0, j 1, ValueIdx.eq_ix2 j⟩
  have h1' : x1 (ValueIdx.ix2 0 q) = b (ValueIdx.ix2 0 (i 1)) := h1
  rw [pay22_apply, h0, h1']

/-- The windows' block indices at grid point `t`: the feature and the output windows move down the rows with the
    point, the bias window stays. -/
theorem idx_facts22 : ∀ t : Fin cfg22.N, win22_0.index t (0 : Fin 2) = t.val ∧ win22_0.index t (1 : Fin 2) = 0
    ∧ win22_1.index t (0 : Fin 2) = 0 ∧ win22_1.index t (1 : Fin 2) = 0
    ∧ win22_2.index t (0 : Fin 2) = t.val ∧ win22_2.index t (1 : Fin 2) = 0 :=
  (by decide +kernel : ∀ t : Fin grid22.N, _)

/-- What point `t` writes back is block `t` of `biasRelu22` of the two input arrays as the region finds them. -/
theorem flushed22_eq (c : Dev nD) (t : Fin cfg22.N) :
    (dat22 (F := Ideal) V c).flushed 2 t
      = ((cfg22.win 2).blk t).view.read (Elt Ideal) (biasRelu22 (V c main_v87) (V c main_v88)) := by
  show (cfg22.win 2).cut (grid22.coords t) ((dat22 V c).after 2 t) = _
  rw [after22_2]
  unfold out22_2
  rw [View.canon_unit_zero hz22]
  simp only [View.ld_unit_zero (S := S5000x128) hz22, View.ld_unit_zero (S := S1x128) hz22]
  obtain ⟨e0, e1, e2, e3, e4, e5⟩ := idx_facts22 t
  funext j
  show k22_pay1 (iblk22 V c 0 t) (iblk22 V c 1 t) j
    = biasRelu22 (V c main_v87) (V c main_v88) (((cfg22.win 2).blk t).view.emb j)
  refine point22 (V c main_v87) (V c main_v88) (iblk22 V c 0 t) (iblk22 V c 1 t) j _ ?_ ?_
  · show V c main_v87 (((cfg22.win 0).blk t).view.emb j) = V c main_v87 (((cfg22.win 2).blk t).view.emb j)
    refine congrArg _ (funext fun a => Fin.ext ?_)
    match a with
    | ⟨0, _⟩ =>
      show win22_0.index t (0 : Fin 2) * 5000 + 1 * (j 0).val = win22_2.index t (0 : Fin 2) * 5000 + 1 * (j 0).val
      omega
    | ⟨1, _⟩ =>
      show win22_0.index t (1 : Fin 2) * 128 + 1 * (j 1).val = win22_2.index t (1 : Fin 2) * 128 + 1 * (j 1).val
      omega
  · show V c main_v88 (((cfg22.win 1).blk t).view.emb (ValueIdx.ix2 0 (j 1)))
      = V c main_v88 (ValueIdx.ix2 0 ((((cfg22.win 2).blk t).view.emb j) 1))
    refine congrArg _ (funext fun a => Fin.ext ?_)
    match a with
    | ⟨0, _⟩ =>
      show win22_1.index t (0 : Fin 2) * 1 + 1 * 0 = 0
      omega
    | ⟨1, _⟩ =>
      show win22_1.index t (1 : Fin 2) * 128 + 1 * (j 1).val = win22_2.index t (1 : Fin 2) * 128 + 1 * (j 1).val
      omega

/-- An index of the output array is in point `t`'s block iff each coordinate is in the block's range on its axis. -/
theorem mem_blk22 (t : Fin cfg22.N) (i : S50000x128.Idx) :
    i ∈ ((cfg22.win 2).blk t).view.set ↔ ∀ a : Fin 2, win22_2.index t a * S5000x128.size a ≤ (i a).val ∧ (i a).val < win22_2.index t a * S5000x128.size a + S5000x128.size a := by
  show i ∈ ((View.whole main_v89).slice (win22_2.rect t)).set ↔ _
  rw [View.set_slice_whole, Rect.mem_set_unit]
  exact Iff.rfl

/-- Every index of the output array is in some point's block: row `r` in the block of point `r / 5000`. -/
theorem cover22 (i : S50000x128.Idx) : ∃ t : Fin cfg22.N, (cfg22.win 2).flush t = true ∧ i ∈ ((cfg22.win 2).blk t).view.set := by
  have hi0 : (i 0).val < 50000 := (i 0).isLt
  have hi1 : (i 1).val < 128 := (i 1).isLt
  have hN : (i 0).val / 5000 < cfg22.N := by show (i 0).val / 5000 < grid22.N; rw [N_22]; omega
  refine ⟨⟨(i 0).val / 5000, hN⟩, flush22_2 _, ?_⟩
  rw [mem_blk22]
  obtain ⟨-, -, -, -, e4, e5⟩ := idx_facts22 ⟨(i 0).val / 5000, hN⟩
  intro a
  match a with
  | ⟨0, _⟩ =>
    show win22_2.index ⟨(i 0).val / 5000, hN⟩ (0 : Fin 2) * 5000 ≤ (i 0).val ∧ (i 0).val < win22_2.index ⟨(i 0).val / 5000, hN⟩ (0 : Fin 2) * 5000 + 5000
    rw [e4]; show (i 0).val / 5000 * 5000 ≤ (i 0).val ∧ (i 0).val < (i 0).val / 5000 * 5000 + 5000; omega
  | ⟨1, _⟩ =>
    show win22_2.index ⟨(i 0).val / 5000, hN⟩ (1 : Fin 2) * 128 ≤ (i 1).val ∧ (i 1).val < win22_2.index ⟨(i 0).val / 5000, hN⟩ (1 : Fin 2) * 128 + 128
    rw [e5]; omega

/-- THE OUTPUT ARRAY after the region: at every index the larger of zero and the feature array's element plus the bias
    of its column — `biasRelu22` of the two input arrays as the region finds them. -/
theorem final22 (c : Dev nD) :
    (dat22 (F := Ideal) V c).arrAt 2 cfg22.N
      = biasRelu22 (V c (Pipeline.arrRef spec22 0)) (V c (Pipeline.arrRef spec22 1)) :=
  (dat22 V c).arrAt_eq_of_cover 2 (biasRelu22 (V c main_v87) (V c main_v88)) (fun t _ => flushed22_eq V c t) cover22

end Value22

end Cert.KernelIdeal.Hand

end
-- ==== Proof.KI.DenseVal39.lean ====
/-
  The value of region 39 of @main over the extended reals: after the region the output array holds, for every edge r
  and class c, the logistic function of a linear form in the two feature rows of the edge,

      out (r, c) = logistic ((Σ k, hs (r, k) · wt (k, c)) + (Σ k, hd (r, k) · wb (k, c)) + bc (0, c)),

  `hs` and `hd` the 800000 x 128 arrays of source and destination features, `wt` and `wb` the two 128 x 2 halves
  of the classifier's weights and `bc` its 1 x 2 bias row, as the region finds them; k runs over the 128 features.

  * `lhs39_0` … `rhs39_1`, `matmul39_apply`: a 6400 x 128 by 128 x 2 product accumulated from zero, read at (p, q),
    is the sum over k of the left operand at (p, k) times the right at (k, q).
  * `pay39_apply`: the body's payload read at an index of the block — rounding to bf16 is the identity on the
    extended reals, the broadcast of the bias row read at (p, q) is the row's element q.
  * `point39`: the same with the blocks' elements named as elements of the arrays.
  * `idx_facts39`: at grid point t the two feature windows and the output window sit at block (t, 0), the weight
    and bias windows at (0, 0).
  * `src39_at`, `dst39_at`, `wt39_at`, `wb39_at`, `bc39_at`: each staged block's element as the element of its array —
    row p of a feature block at point t is row 6400 t + p of the array; the weight halves and the bias row are whole.
  * `flushed39_eq`: so what point t writes back is block t of the function above of the five arrays.
  * `cover39`: row r of the output lies in the block of point r / 6400.
  * `final39`: so the array after the region is that function, everywhere.
-/
import proofs.«402049_j87351044866139_2_alg».proof.Proof.KI.Dense39
import Idealize.ShloMosaic.Lib.Pipeline.Value
import Idealize.ShloMosaic.Lib.ValueIdx
import Idealize.ShloMosaic.Lib.ValueLayout
import Idealize.ShloMosaic.PureOps.Ideal.Laws

-- a block's extent (6400 rows) is the depth of the structural checks on its rectangle
set_option maxRecDepth 16384

noncomputable section

open scoped BigOperators

namespace Cert.KernelIdeal.Hand

open Cert.KernelIdeal Cert.KernelIdeal.Gen
open Idealize.ShloMosaic Idealize.ShloMosaic.TcCoe Idealize.SL.Sem
open Idealize.ShloMosaic.Pipeline (Dat)

/-! # The value of region 39 -/

section Value39

-- the core's buffer contents when the region is entered, over the extended reals
variable (V : (c : Dev nD) → (b : Ref sig .tc) → Buf (Elt Ideal) ((c : Thread nD τ).loc b))

/-- The offsets of a whole-block access are zero on both axes. -/
theorem hz39 : (![0, 0] : Fin 2 → Nat) = fun _ => 0 := funext fun a => by fin_cases a <;> rfl

/-- The logistic of the linear form in an edge's two feature rows: the region's result as a function of its five input
    arrays. -/
abbrev classify39 (hs hd : S800000x128.Idx → Ideal .f32) (wt wb : S128x2.Idx → Ideal .f32) (bc : S1x2.Idx → Ideal .f32) :
    S800000x2.Idx → Ideal .f32 :=
  fun i => Ideal.logistic (((∑ k : Fin 128, hs (ValueIdx.ix2 (i 0) k) * wt (ValueIdx.ix2 k (i 1)))
      + (∑ k : Fin 128, hd (ValueIdx.ix2 (i 0) k) * wb (ValueIdx.ix2 k (i 1)))) + bc (ValueIdx.ix2 0 (i 1)))

/-! ## The matrix product read at an index -/

/-- The left operand's row is the output's row. -/
theorem lhs39_0 (i : S6400x2.Idx) (q : dot_S6400x128_S128x2_S6400x2_1_0_0_1_n_n.contr.Idx) :
    (dot_S6400x128_S128x2_S6400x2_1_0_0_1_n_n.lhsIdx i q 0).val = (i 0).val := by
  unfold DotDims.lhsIdx
  rw [dif_neg (show ¬(0 : Fin S6400x128.rank) ∈ dot_S6400x128_S128x2_S6400x2_1_0_0_1_n_n.lhsBatch by decide), dif_pos (show (0 : Fin S6400x128.rank) ∈ dot_S6400x128_S128x2_S6400x2_1_0_0_1_n_n.lhsNonContracting by decide)]
  rfl
/-- Its column is the contraction index. -/
theorem lhs39_1 (i : S6400x2.Idx) (q : dot_S6400x128_S128x2_S6400x2_1_0_0_1_n_n.contr.Idx) :
    (dot_S6400x128_S128x2_S6400x2_1_0_0_1_n_n.lhsIdx i q 1).val = (q ⟨0, by decide⟩).val :=
  dot_S6400x128_S128x2_S6400x2_1_0_0_1_n_n.lhsIdx_val_of_single rfl i q
/-- The right operand's row is the contraction index. -/
theorem rhs39_0 (i : S6400x2.Idx) (q : dot_S6400x128_S128x2_S6400x2_1_0_0_1_n_n.contr.Idx) :
    (dot_S6400x128_S128x2_S6400x2_1_0_0_1_n_n.rhsIdx i q 0).val = (q ⟨0, by decide⟩).val :=
  dot_S6400x128_S128x2_S6400x2_1_0_0_1_n_n.rhsIdx_val_of_single rfl i q
/-- Its column is the output's column. -/
theorem rhs39_1 (i : S6400x2.Idx) (q : dot_S6400x128_S128x2_S6400x2_1_0_0_1_n_n.contr.Idx) :
    (dot_S6400x128_S128x2_S6400x2_1_0_0_1_n_n.rhsIdx i q 1).val = (i 1).val := by
  unfold DotDims.rhsIdx
  rw [dif_neg (show ¬(1 : Fin S128x2.rank) ∈ dot_S6400x128_S128x2_S6400x2_1_0_0_1_n_n.rhsBatch by decide), dif_pos (show (1 : Fin S128x2.rank) ∈ dot_S6400x128_S128x2_S6400x2_1_0_0_1_n_n.rhsNonContracting by decide)]
  rfl

/-- The product accumulated from zero, at (p, q): the sum over the 128 features of the left operand at (p, k) times the
    right at (k, q). -/
theorem matmul39_apply {φ₁ φ₂ : FTy} (l : FVec Ideal S6400x128 φ₁) (r : FVec Ideal S128x2 φ₂) (p : Fin 6400) (q : Fin 2) :
    matmul dot_S6400x128_S128x2_S6400x2_1_0_0_1_n_n none l r (constant S6400x2 .f32 0x00000000#32) (ValueIdx.ix2 p q)
      = ∑ k : Fin 128, l (ValueIdx.ix2 p k) * r (ValueIdx.ix2 k q) := by
  simp only [matmul]
  rw [Ideal.matmul_constant_zero_apply, ← Equiv.sum_comp (ValueIdx.contrEquiv1 dot_S6400x128_S128x2_S6400x2_1_0_0_1_n_n 128 rfl rfl).symm]
  refine Finset.sum_congr rfl fun k _ => ?_
  have hk := ValueIdx.contrEquiv1_symm_val dot_S6400x128_S128x2_S6400x2_1_0_0_1_n_n 128 rfl rfl k
  have el : dot_S6400x128_S128x2_S6400x2_1_0_0_1_n_n.lhsIdx (ValueIdx.ix2 p q) ((ValueIdx.contrEquiv1 dot_S6400x128_S128x2_S6400x2_1_0_0_1_n_n 128 rfl rfl).symm k) = ValueIdx.ix2 p k := funext fun a => Fin.ext (by
    match a with
    | ⟨0, _⟩ => exact lhs39_0 _ _
    | ⟨1, _⟩ => exact (lhs39_1 _ _).trans hk)
  have er : dot_S6400x128_S128x2_S6400x2_1_0_0_1_n_n.rhsIdx (ValueIdx.ix2 p q) ((ValueIdx.contrEquiv1 dot_S6400x128_S128x2_S6400x2_1_0_0_1_n_n 128 rfl rfl).symm k) = ValueIdx.ix2 k q := funext fun a => Fin.ext (by
    match a with
    | ⟨0, _⟩ => exact (rhs39_0 _ _).trans hk
    | ⟨1, _⟩ => exact rhs39_1 _ _)
  rw [el, er]

/-! ## The payload read at an index -/

/-- The body's payload at element (p, q) of the block: the logistic of the two products' sum plus the bias row's
    element q. -/
theorem pay39_apply (x0 x1 : Vec Ideal S6400x128 .f32) (x2 x3 : Vec Ideal S128x2 .f32) (x4 : Vec Ideal S1x2 .f32)
    (p : Fin 6400) (q : Fin 2) :
    k39_pay1 x0 x1 x2 x3 x4 (ValueIdx.ix2 p q)
      = Ideal.logistic (((∑ k : Fin 128, x0 (ValueIdx.ix2 p k) * x2 (ValueIdx.ix2 k q))
          + (∑ k : Fin 128, x1 (ValueIdx.ix2 p k) * x3 (ValueIdx.ix2 k q))) + x4 (ValueIdx.ix2 0 q)) := by
  unfold k39_pay1
  simp only [shapeCast_self]
  show Ideal.logistic ((matmul (F := Ideal) dot_S6400x128_S128x2_S6400x2_1_0_0_1_n_n none (truncf .bf16 x0 bitsLt_bf16_f32) (truncf .bf16 x2 bitsLt_bf16_f32) (constant S6400x2 .f32 0x00000000#32) (ValueIdx.ix2 p q)
      + matmul (F := Ideal) dot_S6400x128_S128x2_S6400x2_1_0_0_1_n_n none (truncf .bf16 x1 bitsLt_bf16_f32) (truncf .bf16 x3 bitsLt_bf16_f32) (constant S6400x2 .f32 0x00000000#32) (ValueIdx.ix2 p q))
      + broadcastTo S6400x2 x4 broadcasts_S1x2_S6400x2 (ValueIdx.ix2 p q)) = _
  rw [matmul39_apply, matmul39_apply, ValueIdx.broadcastTo_1b_ab_apply]
  rfl

/-- The payload at a block index `j` is the result at an array index `i`, when row `j 0` of each staged feature block
    is row `i 0` of its array, column `j 1` of each staged weight half and of the staged bias row is column `i 1` of its
    array. -/
theorem point39 (hs hd : S800000x128.Idx → Ideal .f32) (wt wb : S128x2.Idx → Ideal .f32) (bc : S1x2.Idx → Ideal .f32)
    (x0 x1 : Vec Ideal S6400x128 .f32) (x2 x3 : Vec Ideal S128x2 .f32) (x4 : Vec Ideal S1x2 .f32)
    (j : S6400x2.Idx) (i : S800000x2.Idx)
    (h0 : ∀ k : Fin 128, x0 (ValueIdx.ix2 (j 0) k) = hs (ValueIdx.ix2 (i 0) k))
    (h1 : ∀ k : Fin 128, x1 (ValueIdx.ix2 (j 0) k) = hd (ValueIdx.ix2 (i 0) k))
    (h2 : ∀ k : Fin 128, x2 (ValueIdx.ix2 k (j 1)) = wt (ValueIdx.ix2 k (i 1)))
    (h3 : ∀ k : Fin 128, x3 (ValueIdx.ix2 k (j 1)) = wb (ValueIdx.ix2 k (i 1)))
    (h4 : x4 (ValueIdx.ix2 0 (j 1)) = bc (ValueIdx.ix2 0 (i 1))) :
    k39_pay1 x0 x1 x2 x3 x4 j = classify39 hs hd wt wb bc i := by
  obtain ⟨p, q, rfl⟩ : ∃ (p : Fin 6400) (q : Fin 2), j = ValueIdx.ix2 p q := ⟨j 0, j 1, ValueIdx.eq_ix2 j⟩
  obtain ⟨r, s, rfl⟩ : ∃ (r : Fin 800000) (s : Fin 2), i = ValueIdx.ix2 r s := ⟨i 0, i 1, ValueIdx.eq_ix2 i⟩
  have h0' : ∀ k : Fin 128, x0 (ValueIdx.ix2 p k) = hs (ValueIdx.ix2 r k) := h0
  have h1' : ∀ k : Fin 128, x1 (ValueIdx.ix2 p k) = hd (ValueIdx.ix2 r k) := h1
  have h2' : ∀ k : Fin 128, x2 (ValueIdx.ix2 k q) = wt (ValueIdx.ix2 k s) := h2
  have h3' : ∀ k : Fin 128, x3 (ValueIdx.ix2 k q) = wb (ValueIdx.ix2 k s) := h3
  have h4' : x4 (ValueIdx.ix2 0 q) = bc (ValueIdx.ix2 0 s) := h4
  show k39_pay1 x0 x1 x2 x3 x4 (ValueIdx.ix2 p q)
    = Ideal.logistic (((∑ k : Fin 128, hs (ValueIdx.ix2 r k) * wt (ValueIdx.ix2 k s))
        + (∑ k : Fin 128, hd (ValueIdx.ix2 r k) * wb (ValueIdx.ix2 k s))) + bc (ValueIdx.ix2 0 s))
  rw [pay39_apply, h4']
  simp only [h0', h1', h2', h3']

/-! ## From the blocks to the array -/

/-- The windows' block indices at grid point `t`: the two feature windows and the output window move down the rows
    with the point, the weight and bias windows stay. -/
theorem idx_facts39 : ∀ t : Fin cfg39.N, win39_0.index t (0 : Fin 2) = t.val ∧ win39_0.index t (1 : Fin 2) = 0
    ∧ win39_1.index t (0 : Fin 2) = t.val ∧ win39_1.index t (1 : Fin 2) = 0
    ∧ win39_2.index t (0 : Fin 2) = 0 ∧ win39_2.index t (1 : Fin 2) = 0
    ∧ win39_3.index t (0 : Fin 2) = 0 ∧ win39_3.index t (1 : Fin 2) = 0
    ∧ win39_4.index t (0 : Fin 2) = 0 ∧ win39_4.index t (1 : Fin 2) = 0
    ∧ win39_5.index t (0 : Fin 2) = t.val ∧ win39_5.index t (1 : Fin 2) = 0 :=
  (by decide +kernel : ∀ t : Fin grid39.N, _)

/-- Row `j 0` of the source window's block at point `t` is the source array's row under the output block's row `j 0`. -/
theorem src39_at (c : Dev nD) (t : Fin cfg39.N) (j : S6400x2.Idx) (k : Fin 128) :
    iblk39 V c 0 t (ValueIdx.ix2 (j 0) k) = V c main_v106 (ValueIdx.ix2 ((((cfg39.win 5).blk t).view.emb j) 0) k) := by
  obtain ⟨e0, e1, -, -, -, -, -, -, -, -, e10, -⟩ := idx_facts39 t
  show V c main_v106 (((cfg39.win 0).blk t).view.emb (ValueIdx.ix2 (j 0) k))
    = V c main_v106 (ValueIdx.ix2 ((((cfg39.win 5).blk t).view.emb j) 0) k)
  refine congrArg _ (funext fun a => Fin.ext ?_)
  match a with
  | ⟨0, _⟩ =>
    show win39_0.index t (0 : Fin 2) * 6400 + 1 * (j 0).val = win39_5.index t (0 : Fin 2) * 6400 + 1 * (j 0).val
    omega
  | ⟨1, _⟩ =>
    show win39_0.index t (1 : Fin 2) * 128 + 1 * k.val = k.val
    omega

/-- The destination window's likewise. -/
theorem dst39_at (c : Dev nD) (t : Fin cfg39.N) (j : S6400x2.Idx) (k : Fin 128) :
    iblk39 V c 1 t (ValueIdx.ix2 (j 0) k) = V c main_v123 (ValueIdx.ix2 ((((cfg39.win 5).blk t).view.emb j) 0) k) := by
  obtain ⟨-, -, e2, e3, -, -, -, -, -, -, e10, -⟩ := idx_facts39 t
  show V c main_v123 (((cfg39.win 1).blk t).view.emb (ValueIdx.ix2 (j 0) k))
    = V c main_v123 (ValueIdx.ix2 ((((cfg39.win 5).blk t).view.emb j) 0) k)
  refine congrArg _ (funext fun a => Fin.ext ?_)
  match a with
  | ⟨0, _⟩ =>
    show win39_1.index t (0 : Fin 2) * 6400 + 1 * (j 0).val = win39_5.index t (0 : Fin 2) * 6400 + 1 * (j 0).val
    omega
  | ⟨1, _⟩ =>
    show win39_1.index t (1 : Fin 2) * 128 + 1 * k.val = k.val
    omega

/-- Column `j 1` of the first weight half's staged block is the array's column under the output block's column `j 1`. -/
theorem wt39_at (c : Dev nD) (t : Fin cfg39.N) (j : S6400x2.Idx) (k : Fin 128) :
    iblk39 V c 2 t (ValueIdx.ix2 k (j 1)) = V c main_v124 (ValueIdx.ix2 k ((((cfg39.win 5).blk t).view.emb j) 1)) := by
  obtain ⟨-, -, -, -, e4, e5, -, -, -, -, -, e11⟩ := idx_facts39 t
  show V c main_v124 (((cfg39.win 2).blk t).view.emb (ValueIdx.ix2 k (j 1)))
    = V c main_v124 (ValueIdx.ix2 k ((((cfg39.win 5).blk t).view.emb j) 1))
  refine congrArg _ (funext fun a => Fin.ext ?_)
  match a with
  | ⟨0, _⟩ =>
    show win39_2.index t (0 : Fin 2) * 128 + 1 * k.val = k.val
    omega
  | ⟨1, _⟩ =>
    show win39_2.index t (1 : Fin 2) * 2 + 1 * (j 1).val = win39_5.index t (1 : Fin 2) * 2 + 1 * (j 1).val
    omega

/-- The second weight half's likewise. -/
theorem wb39_at (c : Dev nD) (t : Fin cfg39.N) (j : S6400x2.Idx) (k : Fin 128) :
    iblk39 V c 3 t (ValueIdx.ix2 k (j 1)) = V c main_v125 (ValueIdx.ix2 k ((((cfg39.win 5).blk t).view.emb j) 1)) := by
  obtain ⟨-, -, -, -, -, -, e6, e7, -, -, -, e11⟩ := idx_facts39 t
  show V c main_v125 (((cfg39.win 3).blk t).view.emb (ValueIdx.ix2 k (j 1)))
    = V c main_v125 (ValueIdx.ix2 k ((((cfg39.win 5).blk t).view.emb j) 1))
  refine congrArg _ (funext fun a => Fin.ext ?_)
  match a with
  | ⟨0, _⟩ =>
    show win39_3.index t (0 : Fin 2) * 128 + 1 * k.val = k.val
    omega
  | ⟨1, _⟩ =>
    show win39_3.index t (1 : Fin 2) * 2 + 1 * (j 1).val = win39_5.index t (1 : Fin 2) * 2 + 1 * (j 1).val
    omega

/-- The bias row's likewise. -/
theorem bc39_at (c : Dev nD) (t : Fin cfg39.N) (j : S6400x2.Idx) :
    iblk39 V c 4 t (ValueIdx.ix2 0 (j 1)) = V c main_v126 (ValueIdx.ix2 0 ((((cfg39.win 5).blk t).view.emb j) 1)) := by
  obtain ⟨-, -, -, -, -, -, -, -, e8, e9, -, e11⟩ := idx_facts39 t
  show V c main_v126 (((cfg39.win 4).blk t).view.emb (ValueIdx.ix2 0 (j 1)))
    = V c main_v126 (ValueIdx.ix2 0 ((((cfg39.win 5).blk t).view.emb j) 1))
  refine congrArg _ (funext fun a => Fin.ext ?_)
  match a with
  | ⟨0, _⟩ =>
    show win39_4.index t (0 : Fin 2) * 1 + 1 * 0 = 0
    omega
  | ⟨1, _⟩ =>
    show win39_4.index t (1 : Fin 2) * 2 + 1 * (j 1).val = win39_5.index t (1 : Fin 2) * 2 + 1 * (j 1).val
    omega

/-- What point `t` writes back is block `t` of `classify39` of the five input arrays as the region finds them. -/
theorem flushed39_eq (c : Dev nD) (t : Fin cfg39.N) :
    (dat39 (F := Ideal) V c).flushed 5 t
      = ((cfg39.win 5).blk t).view.read (Elt Ideal)
          (classify39 (V c main_v106) (V c main_v123) (V c main_v124) (V c main_v125) (V c main_v126)) := by
  show (cfg39.win 5).cut (grid39.coords t) ((dat39 V c).after 5 t) = _
  rw [after39_5]
  unfold out39_5
  rw [View.canon_unit_zero hz39]
  simp only [View.ld_unit_zero (S := S6400x128) hz39, View.ld_unit_zero (S := S128x2) hz39, View.ld_unit_zero (S := S1x2) hz39]
  funext j
  show k39_pay1 (iblk39 V c 0 t) (iblk39 V c 1 t) (iblk39 V c 2 t) (iblk39 V c 3 t) (iblk39 V c 4 t) j
    = classify39 (V c main_v106) (V c main_v123) (V c main_v124) (V c main_v125) (V c main_v126) (((cfg39.win 5).blk t).view.emb j)
  exact point39 (V c main_v106) (V c main_v123) (V c main_v124) (V c main_v125) (V c main_v126)
    (iblk39 V c 0 t) (iblk39 V c 1 t) (iblk39 V c 2 t) (iblk39 V c 3 t) (iblk39 V c 4 t) j _
    (fun k => src39_at V c t j k) (fun k => dst39_at V c t j k) (fun k => wt39_at V c t j k) (fun k => wb39_at V c t j k)
    (bc39_at V c t j)

/-- An index of the output array is in point `t`'s block iff each coordinate is in the block's range on its axis. -/
theorem mem_blk39 (t : Fin cfg39.N) (i : S800000x2.Idx) :
    i ∈ ((cfg39.win 5).blk t).view.set ↔ ∀ a : Fin 2, win39_5.index t a * S6400x2.size a ≤ (i a).val ∧ (i a).val < win39_5.index t a * S6400x2.size a + S6400x2.size a := by
  show i ∈ ((View.whole main_v127).slice (win39_5.rect t)).set ↔ _
  rw [View.set_slice_whole, Rect.mem_set_unit]
  exact Iff.rfl

/-- Every index of the output array is in some point's block: row `r` in the block of point `r / 6400`. -/
theorem cover39 (i : S800000x2.Idx) : ∃ t : Fin cfg39.N, (cfg39.win 5).flush t = true ∧ i ∈ ((cfg39.win 5).blk t).view.set := by
  have hi0 : (i 0).val < 800000 := (i 0).isLt
  have hi1 : (i 1).val < 2 := (i 1).isLt
  have hN : (i 0).val / 6400 < cfg39.N := by show (i 0).val / 6400 < grid39.N; rw [N_39]; omega
  refine ⟨⟨(i 0).val / 6400, hN⟩, flush39_5 _, ?_⟩
  rw [mem_blk39]
  obtain ⟨-, -, -, -, -, -, -, -, -, -, e10, e11⟩ := idx_facts39 ⟨(i 0).val / 6400, hN⟩
  intro a
  match a with
  | ⟨0, _⟩ =>
    show win39_5.index ⟨(i 0).val / 6400, hN⟩ (0 : Fin 2) * 6400 ≤ (i 0).val ∧ (i 0).val < win39_5.index ⟨(i 0).val / 6400, hN⟩ (0 : Fin 2) * 6400 + 6400
    rw [e10]; show (i 0).val / 6400 * 6400 ≤ (i 0).val ∧ (i 0).val < (i 0).val / 6400 * 6400 + 6400; omega
  | ⟨1, _⟩ =>
    show win39_5.index ⟨(i 0).val / 6400, hN⟩ (1 : Fin 2) * 2 ≤ (i 1).val ∧ (i 1).val < win39_5.index ⟨(i 0).val / 6400, hN⟩ (1 : Fin 2) * 2 + 2
    rw [e11]; omega

/-- THE OUTPUT ARRAY after the region: for every edge and class the logistic of the source row times the first weight
    half plus the destination row times the second plus the class's bias. -/
theorem final39 (c : Dev nD) :
    (dat39 (F := Ideal) V c).arrAt 5 cfg39.N
      = classify39 (V c (Pipeline.arrRef spec39 0)) (V c (Pipeline.arrRef spec39 1)) (V c (Pipeline.arrRef spec39 2))
          (V c (Pipeline.arrRef spec39 3)) (V c (Pipeline.arrRef spec39 4)) :=
  (dat39 V c).arrAt_eq_of_cover 5 (classify39 (V c main_v106) (V c main_v123) (V c main_v124) (V c main_v125) (V c main_v126))
    (fun t _ => flushed39_eq V c t) cover39

end Value39

end Cert.KernelIdeal.Hand

end
-- ==== Proof.KI.ValueAll.lean ====
/-
  THE VALUE OF THE KERNEL'S PROGRAM over the extended reals: after the run the two result arrays hold the two functions
  of proof/Proof/Spec.lean of the eight arguments (val_h2, val_probs).

  The program is two graph-convolution layers and an edge classifier. Each layer is: a matrix product on the matrix
  unit (regions 0 and 11; region 11 first adds the previous layer's bias and takes the positive part), ten row-gather
  regions that read that product's rows at the nodes named by ten slices of the source list with self loops, a host
  stretch that concatenates the ten outputs, weighs them and scatter-adds them into the target nodes, and the bias and
  positive part (inside region 11 for the first layer, region 22 for the second). The classifier gathers the second
  layer's rows at the edges' two ends (regions 23 to 38, eight slices of each end's list), concatenates them, and region
  39 takes the logistic of the linear form.

  Every piece is proved in its own module over an arbitrary valuation of the buffers: the dense regions' arrays
  (final0, final11, final22, final39), the gather regions' arrays in the run (g<K>_val, gat<K>, gsrc<K>), the index
  tables, the host stretches' results as the specification's scatter-add and row selections, and the carrying of an
  array across the items that do not write it. Here they are chained along the program: each stage's array is named as
  the specification's stage, starting from the arguments, and the next piece is applied to it. The chain speaks of the
  valuations V<J> m (outsU m) c, which are the run's own (V<J>_eq); the last two statements restate the results over
  the run's final valuation.
-/
import proofs.«402049_j87351044866139_2_alg».proof.Proof.KI.Chain
import proofs.«402049_j87351044866139_2_alg».proof.Proof.KI.Carry
import proofs.«402049_j87351044866139_2_alg».proof.Proof.KI.GatherAt1
import proofs.«402049_j87351044866139_2_alg».proof.Proof.KI.GatherAt2
import proofs.«402049_j87351044866139_2_alg».proof.Proof.KI.GatherAt3
import proofs.«402049_j87351044866139_2_alg».proof.Proof.KI.GatherAt4
import proofs.«402049_j87351044866139_2_alg».proof.Proof.KI.GatherAt5
import proofs.«402049_j87351044866139_2_alg».proof.Proof.KI.GatherAt6
import proofs.«402049_j87351044866139_2_alg».proof.Proof.KI.GatherAt7
import proofs.«402049_j87351044866139_2_alg».proof.Proof.KI.GatherAt8
import proofs.«402049_j87351044866139_2_alg».proof.Proof.KI.GatherAt9
import proofs.«402049_j87351044866139_2_alg».proof.Proof.KI.GatherAt10
import proofs.«402049_j87351044866139_2_alg».proof.Proof.KI.GatherAt12
import proofs.«402049_j87351044866139_2_alg».proof.Proof.KI.GatherAt13
import proofs.«402049_j87351044866139_2_alg».proof.Proof.KI.GatherAt14
import proofs.«402049_j87351044866139_2_alg».proof.Proof.KI.GatherAt15
import proofs.«402049_j87351044866139_2_alg».proof.Proof.KI.GatherAt16
import proofs.«402049_j87351044866139_2_alg».proof.Proof.KI.GatherAt17
import proofs.«402049_j87351044866139_2_alg».proof.Proof.KI.GatherAt18
import proofs.«402049_j87351044866139_2_alg».proof.Proof.KI.GatherAt19
import proofs.«402049_j87351044866139_2_alg».proof.Proof.KI.GatherAt20
import proofs.«402049_j87351044866139_2_alg».proof.Proof.KI.GatherAt21
import proofs.«402049_j87351044866139_2_alg».proof.Proof.KI.GatherAt23
import proofs.«402049_j87351044866139_2_alg».proof.Proof.KI.GatherAt24
import proofs.«402049_j87351044866139_2_alg».proof.Proof.KI.GatherAt25
import proofs.«402049_j87351044866139_2_alg».proof.Proof.KI.GatherAt26
import proofs.«402049_j87351044866139_2_alg».proof.Proof.KI.GatherAt27
import proofs.«402049_j87351044866139_2_alg».proof.Proof.KI.GatherAt28
import proofs.«402049_j87351044866139_2_alg».proof.Proof.KI.GatherAt29
import proofs.«402049_j87351044866139_2_alg».proof.Proof.KI.GatherAt30
import proofs.«402049_j87351044866139_2_alg».proof.Proof.KI.GatherAt31
import proofs.«402049_j87351044866139_2_alg».proof.Proof.KI.GatherAt32
import proofs.«402049_j87351044866139_2_alg».proof.Proof.KI.GatherAt33
import proofs.«402049_j87351044866139_2_alg».proof.Proof.KI.GatherAt34
import proofs.«402049_j87351044866139_2_alg».proof.Proof.KI.GatherAt35
import proofs.«402049_j87351044866139_2_alg».proof.Proof.KI.GatherAt36
import proofs.«402049_j87351044866139_2_alg».proof.Proof.KI.GatherAt37
import proofs.«402049_j87351044866139_2_alg».proof.Proof.KI.GatherAt38
import proofs.«402049_j87351044866139_2_alg».proof.Proof.KI.GlueVal
import proofs.«402049_j87351044866139_2_alg».proof.Proof.KI.GlueVal2
import proofs.«402049_j87351044866139_2_alg».proof.Proof.KI.DenseVal0
import proofs.«402049_j87351044866139_2_alg».proof.Proof.KI.DenseVal11
import proofs.«402049_j87351044866139_2_alg».proof.Proof.KI.DenseVal22
import proofs.«402049_j87351044866139_2_alg».proof.Proof.KI.DenseVal39
import proofs.«402049_j87351044866139_2_alg».proof.Proof.KI.Tables
import proofs.«402049_j87351044866139_2_alg».proof.Proof.Spec
import Idealize.ShloMosaic.Lib.ValueIdx

set_option maxRecDepth 16384

noncomputable section

open scoped BigOperators

namespace Cert.KernelIdeal.Hand

open Cert.KernelIdeal Cert.KernelIdeal.Gen Cert.KernelIdeal.GenP
open Idealize.ShloMosaic Idealize.ShloMosaic.TcCoe Idealize.ShloMosaic.ValueIdx
open Idealize.SL.Sem

/-! ## Two small facts that set a region's result beside the specification's stage -/

/-- A bias held as a one-row array and repeated down the rows is the bias vector added along the rows. -/
theorem rowBias_eq (A : FVec Ideal Cert.Spec.ShX .f32) (b' : (⟨2, ![1, 128]⟩ : Shape).Idx → Ideal .f32)
    (b : FVec Ideal Cert.Spec.ShB .f32) (hb : ∀ l : Fin 128, b' (ValueIdx.ix2 (0 : Fin 1) l) = b (ValueIdx.ix1 l)) :
    (fun i : Cert.Spec.ShX.Idx => max (A i + b' (ValueIdx.ix2 (0 : Fin 1) (i 1))) (Ideal.ofBits .f32 0x00000000#32))
      = Cert.Spec.biasRelu A b :=
  funext fun i => congrArg (fun z => max (A i + z) (Ideal.ofBits .f32 0x00000000#32)) (hb (i 1))

/-- The classifier's linear form over the two halves of the weight matrix held apart, and its bias held as a one-row
    array, is the specification's linear form. -/
theorem logits_eq (hs hd : (⟨2, ![800000, 128]⟩ : Shape).Idx → Ideal .f32) (wt wb : (⟨2, ![128, 2]⟩ : Shape).Idx → Ideal .f32)
    (bc' : (⟨2, ![1, 2]⟩ : Shape).Idx → Ideal .f32)
    (H : FVec Ideal Cert.Spec.ShX .f32) (e : IVec Cert.Spec.ShE2 32) (Wc : FVec Ideal Cert.Spec.ShWc .f32) (bc : FVec Ideal Cert.Spec.ShBc .f32)
    (hhs : hs = Cert.Spec.rowsE H (Cert.Spec.srcRow e)) (hhd : hd = Cert.Spec.rowsE H (Cert.Spec.dstRow e))
    (hwt : ∀ (k : Fin 128) (q : Fin 2), wt (ValueIdx.ix2 k q) = Wc (ValueIdx.ix2 (Fin.castAdd 128 k) q))
    (hwb : ∀ (k : Fin 128) (q : Fin 2), wb (ValueIdx.ix2 k q) = Wc (ValueIdx.ix2 (Fin.natAdd 128 k) q))
    (hbc : ∀ q : Fin 2, bc' (ValueIdx.ix2 (0 : Fin 1) q) = bc (ValueIdx.ix1 q)) :
    (fun i : Cert.Spec.ShP.Idx => Ideal.logistic (((∑ k : Fin 128, hs (ValueIdx.ix2 (i 0) k) * wt (ValueIdx.ix2 k (i 1)))
        + (∑ k : Fin 128, hd (ValueIdx.ix2 (i 0) k) * wb (ValueIdx.ix2 k (i 1)))) + bc' (ValueIdx.ix2 (0 : Fin 1) (i 1))))
      = fun i => Ideal.logistic (Cert.Spec.logits H e Wc bc i) := by
  subst hhs; subst hhd
  funext i
  show Ideal.logistic ((_ + _) + _) = Ideal.logistic ((_ + _) + _)
  exact congrArg Ideal.logistic (congrArg₂ (· + ·)
    (congrArg₂ (· + ·) (Finset.sum_congr rfl fun k _ => congrArg (fun z => _ * z) (hwt k (i 1)))
      (Finset.sum_congr rfl fun k _ => congrArg (fun z => _ * z) (hwb k (i 1))))
    (hbc (i 1)))

/-! ## The arguments, and the specification's stages -/

variable (m : (ℓ : Loc nD τ sig) → Buf (Elt Ideal) ℓ)

/-- The node features. -/
abbrev argX (c : Dev nD) : FVec Ideal Cert.Spec.ShX .f32 := V0 m c main_arg0
/-- The two layers' weight matrices and biases. -/
abbrev argW1 (c : Dev nD) : FVec Ideal Cert.Spec.ShW .f32 := V0 m c main_arg2
abbrev argB1 (c : Dev nD) : FVec Ideal Cert.Spec.ShB .f32 := V0 m c main_arg3
abbrev argW2 (c : Dev nD) : FVec Ideal Cert.Spec.ShW .f32 := V0 m c main_arg4
abbrev argB2 (c : Dev nD) : FVec Ideal Cert.Spec.ShB .f32 := V0 m c main_arg5
/-- The classifier's weight matrix and bias. -/
abbrev argWc (c : Dev nD) : FVec Ideal Cert.Spec.ShWc .f32 := V0 m c main_arg6
abbrev argBc (c : Dev nD) : FVec Ideal Cert.Spec.ShBc .f32 := V0 m c main_arg7

/-- The first layer's product, the first layer, the second layer's product, the second layer. -/
abbrev st1pre (c : Dev nD) : FVec Ideal Cert.Spec.ShX .f32 := Cert.Spec.matmul (argX m c) (argW1 m c)
abbrev st1 (c : Dev nD) : FVec Ideal Cert.Spec.ShX .f32 := Cert.Spec.conv (edges m c) (argX m c) (argW1 m c) (argB1 m c)
abbrev st2pre (c : Dev nD) : FVec Ideal Cert.Spec.ShX .f32 := Cert.Spec.matmul (st1 m c) (argW2 m c)
abbrev st2 (c : Dev nD) : FVec Ideal Cert.Spec.ShX .f32 :=
  Cert.Spec.h2 (argX m c) (edges m c) (argW1 m c) (argB1 m c) (argW2 m c) (argB2 m c)

/-! ## Layer 1 -/

/-- An argument that the first three host stretches do not write is, at region 0's entry, the launch's. -/
theorem arg_at3 (c : Dev nD) (r : Ref sig .tc) (h1 : r ∉ hostOps0_W) (h2 : r ∉ hostOps0_1_W) (h3 : r ∉ hostOps0_2_W) :
    U3 m c r = V0 m c r := by
  rw [← V3_eq m c]
  exact (V3_of m c r h3).trans ((V2_of m c r h2).trans (V1_of m c r h1))

/-- REGION 0 leaves the features times the first weight matrix. -/
theorem h1pre_val (c : Dev nD) : (V4 m (outsU m) c main_v33 : FVec Ideal S50000x128 .f32) = st1pre m c := by
  refine (congrFun (V4_eq m c) main_v33).trans ?_
  rw [U4_out, final0 (atTc (U3 m)) c]
  show Cert.Spec.matmul (U3 m c main_arg0) (U3 m c main_arg2) = _
  rw [arg_at3 m c main_arg0 (by decide) (by decide) (by decide), arg_at3 m c main_arg2 (by decide) (by decide) (by decide)]

/-- The product stays in its array while the ten gather regions read it. -/
theorem s33_4 (c : Dev nD) : V4 m (outsU m) c main_v33 = st1pre m c := h1pre_val m c
theorem s33_6 (c : Dev nD) : V6 m (outsU m) c main_v33 = st1pre m c := (gsrc1 m c).trans (s33_4 m c)
theorem s33_8 (c : Dev nD) : V8 m (outsU m) c main_v33 = st1pre m c := (gsrc2 m c).trans (s33_6 m c)
theorem s33_10 (c : Dev nD) : V10 m (outsU m) c main_v33 = st1pre m c := (gsrc3 m c).trans (s33_8 m c)
theorem s33_12 (c : Dev nD) : V12 m (outsU m) c main_v33 = st1pre m c := (gsrc4 m c).trans (s33_10 m c)
theorem s33_14 (c : Dev nD) : V14 m (outsU m) c main_v33 = st1pre m c := (gsrc5 m c).trans (s33_12 m c)
theorem s33_16 (c : Dev nD) : V16 m (outsU m) c main_v33 = st1pre m c := (gsrc6 m c).trans (s33_14 m c)
theorem s33_18 (c : Dev nD) : V18 m (outsU m) c main_v33 = st1pre m c := (gsrc7 m c).trans (s33_16 m c)
theorem s33_20 (c : Dev nD) : V20 m (outsU m) c main_v33 = st1pre m c := (gsrc8 m c).trans (s33_18 m c)
theorem s33_22 (c : Dev nD) : V22 m (outsU m) c main_v33 = st1pre m c := (gsrc9 m c).trans (s33_20 m c)

/-- THE FIRST AGGREGATION: the ten gather outputs, concatenated, weighed and scatter-added, are the specification's
    aggregation of the product. -/
theorem agg1_val' (c : Dev nD) (hm : ∀ i : S2x800000.Idx, ((V0 m c main_arg1 : IVec S2x800000 32) i).toNat < 50000) :
    (V25 m (outsU m) c main_v59 : FVec Ideal S50000x128 .f32) = Cert.Spec.agg (edges m c) (st1pre m c) :=
  agg1_val m (outsU m) c (st1pre m c)
    (gat1 m c hm _ (s33_4 m c)) (gat2 m c hm _ (s33_6 m c)) (gat3 m c hm _ (s33_8 m c)) (gat4 m c hm _ (s33_10 m c))
    (gat5 m c hm _ (s33_12 m c)) (gat6 m c hm _ (s33_14 m c)) (gat7 m c hm _ (s33_16 m c)) (gat8 m c hm _ (s33_18 m c))
    (gat9 m c hm _ (s33_20 m c)) (gat10 m c hm _ (s33_22 m c))

/-! ## Layer 2 -/

/-- REGION 11 adds the first bias, takes the positive part — that is the first layer — and multiplies by the second
    weight matrix. -/
theorem h2pre_val (c : Dev nD) (hm : ∀ i : S2x800000.Idx, ((V0 m c main_arg1 : IVec S2x800000 32) i).toNat < 50000) :
    (V26 m (outsU m) c main_v61 : FVec Ideal S50000x128 .f32) = st2pre m c := by
  have e : ∀ r : Ref sig .tc, atTc (U25 m) c r = V25 m (outsU m) c r := fun r => (congrFun (V25_eq m c) r).symm
  refine (congrFun (V26_eq m c) main_v61).trans ?_
  rw [U26_out, final11 (atTc (U25 m)) c]
  show Cert.Spec.matmul (rowBiasRelu (atTc (U25 m) c main_v59) (atTc (U25 m) c main_v60)) (atTc (U25 m) c main_arg4) = _
  rw [e main_v59, e main_v60, e main_arg4, agg1_val' m c hm, carryW2 m (outsU m) c]
  exact congrArg (fun Z => Cert.Spec.matmul Z (argW2 m c))
    (rowBias_eq _ _ (argB1 m c) (b1row_val m (outsU m) c))

theorem s61_26 (c : Dev nD) (hm : ∀ i : S2x800000.Idx, ((V0 m c main_arg1 : IVec S2x800000 32) i).toNat < 50000) : V26 m (outsU m) c main_v61 = st2pre m c := h2pre_val m c hm
theorem s61_28 (c : Dev nD) (hm : ∀ i : S2x800000.Idx, ((V0 m c main_arg1 : IVec S2x800000 32) i).toNat < 50000) : V28 m (outsU m) c main_v61 = st2pre m c := (gsrc12 m c).trans (s61_26 m c hm)
theorem s61_30 (c : Dev nD) (hm : ∀ i : S2x800000.Idx, ((V0 m c main_arg1 : IVec S2x800000 32) i).toNat < 50000) : V30 m (outsU m) c main_v61 = st2pre m c := (gsrc13 m c).trans (s61_28 m c hm)
theorem s61_32 (c : Dev nD) (hm : ∀ i : S2x800000.Idx, ((V0 m c main_arg1 : IVec S2x800000 32) i).toNat < 50000) : V32 m (outsU m) c main_v61 = st2pre m c := (gsrc14 m c).trans (s61_30 m c hm)
theorem s61_34 (c : Dev nD) (hm : ∀ i : S2x800000.Idx, ((V0 m c main_arg1 : IVec S2x800000 32) i).toNat < 50000) : V34 m (outsU m) c main_v61 = st2pre m c := (gsrc15 m c).trans (s61_32 m c hm)
theorem s61_36 (c : Dev nD) (hm : ∀ i : S2x800000.Idx, ((V0 m c main_arg1 : IVec S2x800000 32) i).toNat < 50000) : V36 m (outsU m) c main_v61 = st2pre m c := (gsrc16 m c).trans (s61_34 m c hm)
theorem s61_38 (c : Dev nD) (hm : ∀ i : S2x800000.Idx, ((V0 m c main_arg1 : IVec S2x800000 32) i).toNat < 50000) : V38 m (outsU m) c main_v61 = st2pre m c := (gsrc17 m c).trans (s61_36 m c hm)
theorem s61_40 (c : Dev nD) (hm : ∀ i : S2x800000.Idx, ((V0 m c main_arg1 : IVec S2x800000 32) i).toNat < 50000) : V40 m (outsU m) c main_v61 = st2pre m c := (gsrc18 m c).trans (s61_38 m c hm)
theorem s61_42 (c : Dev nD) (hm : ∀ i : S2x800000.Idx, ((V0 m c main_arg1 : IVec S2x800000 32) i).toNat < 50000) : V42 m (outsU m) c main_v61 = st2pre m c := (gsrc19 m c).trans (s61_40 m c hm)
theorem s61_44 (c : Dev nD) (hm : ∀ i : S2x800000.Idx, ((V0 m c main_arg1 : IVec S2x800000 32) i).toNat < 50000) : V44 m (outsU m) c main_v61 = st2pre m c := (gsrc20 m c).trans (s61_42 m c hm)

/-- THE SECOND AGGREGATION. -/
theorem agg2_val' (c : Dev nD) (hm : ∀ i : S2x800000.Idx, ((V0 m c main_arg1 : IVec S2x800000 32) i).toNat < 50000) :
    (V47 m (outsU m) c main_v87 : FVec Ideal S50000x128 .f32) = Cert.Spec.agg (edges m c) (st2pre m c) :=
  agg2_val m (outsU m) c (st2pre m c)
    (gat12 m c hm _ (s61_26 m c hm)) (gat13 m c hm _ (s61_28 m c hm)) (gat14 m c hm _ (s61_30 m c hm))
    (gat15 m c hm _ (s61_32 m c hm)) (gat16 m c hm _ (s61_34 m c hm)) (gat17 m c hm _ (s61_36 m c hm))
    (gat18 m c hm _ (s61_38 m c hm)) (gat19 m c hm _ (s61_40 m c hm)) (gat20 m c hm _ (s61_42 m c hm))
    (gat21 m c hm _ (s61_44 m c hm))

/-- REGION 22 adds the second bias and takes the positive part: the second layer, the first result. -/
theorem hfinal_val (c : Dev nD) (hm : ∀ i : S2x800000.Idx, ((V0 m c main_arg1 : IVec S2x800000 32) i).toNat < 50000) :
    (V48 m (outsU m) c main_v89 : FVec Ideal S50000x128 .f32) = st2 m c := by
  have e : ∀ r : Ref sig .tc, atTc (U47 m) c r = V47 m (outsU m) c r := fun r => (congrFun (V47_eq m c) r).symm
  refine (congrFun (V48_eq m c) main_v89).trans ?_
  rw [U48_out, final22 (atTc (U47 m)) c]
  show biasRelu22 (atTc (U47 m) c main_v87) (atTc (U47 m) c main_v88) = _
  rw [e main_v87, e main_v88, agg2_val' m c hm]
  exact rowBias_eq _ _ (argB2 m c) (b2row_val m (outsU m) c)

/-! ## The first result stays; the classifier -/

theorem s89_48 (c : Dev nD) (hm : ∀ i : S2x800000.Idx, ((V0 m c main_arg1 : IVec S2x800000 32) i).toNat < 50000) : V48 m (outsU m) c main_v89 = st2 m c := hfinal_val m c hm
theorem s89_50 (c : Dev nD) (hm : ∀ i : S2x800000.Idx, ((V0 m c main_arg1 : IVec S2x800000 32) i).toNat < 50000) : V50 m (outsU m) c main_v89 = st2 m c := (gsrc23 m c).trans (s89_48 m c hm)
theorem s89_52 (c : Dev nD) (hm : ∀ i : S2x800000.Idx, ((V0 m c main_arg1 : IVec S2x800000 32) i).toNat < 50000) : V52 m (outsU m) c main_v89 = st2 m c := (gsrc24 m c).trans (s89_50 m c hm)
theorem s89_54 (c : Dev nD) (hm : ∀ i : S2x800000.Idx, ((V0 m c main_arg1 : IVec S2x800000 32) i).toNat < 50000) : V54 m (outsU m) c main_v89 = st2 m c := (gsrc25 m c).trans (s89_52 m c hm)
theorem s89_56 (c : Dev nD) (hm : ∀ i : S2x800000.Idx, ((V0 m c main_arg1 : IVec S2x800000 32) i).toNat < 50000) : V56 m (outsU m) c main_v89 = st2 m c := (gsrc26 m c).trans (s89_54 m c hm)
theorem s89_58 (c : Dev nD) (hm : ∀ i : S2x800000.Idx, ((V0 m c main_arg1 : IVec S2x800000 32) i).toNat < 50000) : V58 m (outsU m) c main_v89 = st2 m c := (gsrc27 m c).trans (s89_56 m c hm)
theorem s89_60 (c : Dev nD) (hm : ∀ i : S2x800000.Idx, ((V0 m c main_arg1 : IVec S2x800000 32) i).toNat < 50000) : V60 m (outsU m) c main_v89 = st2 m c := (gsrc28 m c).trans (s89_58 m c hm)
theorem s89_62 (c : Dev nD) (hm : ∀ i : S2x800000.Idx, ((V0 m c main_arg1 : IVec S2x800000 32) i).toNat < 50000) : V62 m (outsU m) c main_v89 = st2 m c := (gsrc29 m c).trans (s89_60 m c hm)
theorem s89_64 (c : Dev nD) (hm : ∀ i : S2x800000.Idx, ((V0 m c main_arg1 : IVec S2x800000 32) i).toNat < 50000) : V64 m (outsU m) c main_v89 = st2 m c := (gsrc30 m c).trans (s89_62 m c hm)
theorem s89_66 (c : Dev nD) (hm : ∀ i : S2x800000.Idx, ((V0 m c main_arg1 : IVec S2x800000 32) i).toNat < 50000) : V66 m (outsU m) c main_v89 = st2 m c := (gsrc31 m c).trans (s89_64 m c hm)
theorem s89_68 (c : Dev nD) (hm : ∀ i : S2x800000.Idx, ((V0 m c main_arg1 : IVec S2x800000 32) i).toNat < 50000) : V68 m (outsU m) c main_v89 = st2 m c := (gsrc32 m c).trans (s89_66 m c hm)
theorem s89_70 (c : Dev nD) (hm : ∀ i : S2x800000.Idx, ((V0 m c main_arg1 : IVec S2x800000 32) i).toNat < 50000) : V70 m (outsU m) c main_v89 = st2 m c := (gsrc33 m c).trans (s89_68 m c hm)
theorem s89_72 (c : Dev nD) (hm : ∀ i : S2x800000.Idx, ((V0 m c main_arg1 : IVec S2x800000 32) i).toNat < 50000) : V72 m (outsU m) c main_v89 = st2 m c := (gsrc34 m c).trans (s89_70 m c hm)
theorem s89_74 (c : Dev nD) (hm : ∀ i : S2x800000.Idx, ((V0 m c main_arg1 : IVec S2x800000 32) i).toNat < 50000) : V74 m (outsU m) c main_v89 = st2 m c := (gsrc35 m c).trans (s89_72 m c hm)
theorem s89_76 (c : Dev nD) (hm : ∀ i : S2x800000.Idx, ((V0 m c main_arg1 : IVec S2x800000 32) i).toNat < 50000) : V76 m (outsU m) c main_v89 = st2 m c := (gsrc36 m c).trans (s89_74 m c hm)
theorem s89_78 (c : Dev nD) (hm : ∀ i : S2x800000.Idx, ((V0 m c main_arg1 : IVec S2x800000 32) i).toNat < 50000) : V78 m (outsU m) c main_v89 = st2 m c := (gsrc37 m c).trans (s89_76 m c hm)
theorem s89_80 (c : Dev nD) (hm : ∀ i : S2x800000.Idx, ((V0 m c main_arg1 : IVec S2x800000 32) i).toNat < 50000) : V80 m (outsU m) c main_v89 = st2 m c := (gsrc38 m c).trans (s89_78 m c hm)
/-- The last host stretch and region 39 do not write the first result's array. -/
theorem s89_82 (c : Dev nD) (hm : ∀ i : S2x800000.Idx, ((V0 m c main_arg1 : IVec S2x800000 32) i).toNat < 50000) : V82 m (outsU m) c main_v89 = st2 m c :=
  (V82_of m (outsU m) c main_v89 (by decide)).trans ((V81_of m (outsU m) c main_v89 (by decide)).trans (s89_80 m c hm))

/-- The second layer's rows at the edges' sources, and at their targets. -/
theorem hsrc_val (c : Dev nD) (hm : ∀ i : S2x800000.Idx, ((V0 m c main_arg1 : IVec S2x800000 32) i).toNat < 50000) :
    (V81 m (outsU m) c main_v106 : FVec Ideal S800000x128 .f32) = Cert.Spec.rowsE (st2 m c) (Cert.Spec.srcRow (edges m c)) :=
  rowsSrc_val m (outsU m) c (st2 m c)
    (gat23 m c hm _ (s89_48 m c hm)) (gat24 m c hm _ (s89_50 m c hm)) (gat25 m c hm _ (s89_52 m c hm))
    (gat26 m c hm _ (s89_54 m c hm)) (gat27 m c hm _ (s89_56 m c hm)) (gat28 m c hm _ (s89_58 m c hm))
    (gat29 m c hm _ (s89_60 m c hm)) (gat30 m c hm _ (s89_62 m c hm))
theorem hdst_val (c : Dev nD) (hm : ∀ i : S2x800000.Idx, ((V0 m c main_arg1 : IVec S2x800000 32) i).toNat < 50000) :
    (V81 m (outsU m) c main_v123 : FVec Ideal S800000x128 .f32) = Cert.Spec.rowsE (st2 m c) (Cert.Spec.dstRow (edges m c)) :=
  rowsDst_val m (outsU m) c (st2 m c)
    (gat31 m c hm _ (s89_64 m c hm)) (gat32 m c hm _ (s89_66 m c hm)) (gat33 m c hm _ (s89_68 m c hm))
    (gat34 m c hm _ (s89_70 m c hm)) (gat35 m c hm _ (s89_72 m c hm)) (gat36 m c hm _ (s89_74 m c hm))
    (gat37 m c hm _ (s89_76 m c hm)) (gat38 m c hm _ (s89_78 m c hm))

/-- REGION 39 takes the logistic of the linear form in the two end rows: the second result. -/
theorem probs_val (c : Dev nD) (hm : ∀ i : S2x800000.Idx, ((V0 m c main_arg1 : IVec S2x800000 32) i).toNat < 50000) :
    (V82 m (outsU m) c main_v127 : FVec Ideal S800000x2 .f32)
      = Cert.Spec.probs (argX m c) (edges m c) (argW1 m c) (argB1 m c) (argW2 m c) (argB2 m c) (argWc m c) (argBc m c) := by
  have e : ∀ r : Ref sig .tc, atTc (U81 m) c r = V81 m (outsU m) c r := fun r => (congrFun (V81_eq m c) r).symm
  refine (congrFun (V82_eq m c) main_v127).trans ?_
  rw [U82_out, final39 (atTc (U81 m)) c]
  show classify39 (atTc (U81 m) c main_v106) (atTc (U81 m) c main_v123) (atTc (U81 m) c main_v124)
    (atTc (U81 m) c main_v125) (atTc (U81 m) c main_v126) = _
  rw [e main_v106, e main_v123, e main_v124, e main_v125, e main_v126]
  exact logits_eq _ _ _ _ _ (st2 m c) (edges m c) (argWc m c) (argBc m c) (hsrc_val m c hm) (hdst_val m c hm)
    (wcTop_val m (outsU m) c) (wcBot_val m (outsU m) c) (bcrow_val m (outsU m) c)

/-! ## The two results, over the run's final valuation -/

/-- THE FIRST RESULT. -/
theorem val_h2 (c : Dev nD) (hm : ∀ i : S2x800000.Idx, ((V0 m c main_arg1 : IVec S2x800000 32) i).toNat < 50000) :
    (U82 m c main_v89 : FVec Ideal S50000x128 .f32)
      = Cert.Spec.h2 (argX m c) (edges m c) (argW1 m c) (argB1 m c) (argW2 m c) (argB2 m c) :=
  (congrFun (V82_eq m c) main_v89).symm.trans (s89_82 m c hm)

/-- THE SECOND RESULT. -/
theorem val_probs (c : Dev nD) (hm : ∀ i : S2x800000.Idx, ((V0 m c main_arg1 : IVec S2x800000 32) i).toNat < 50000) :
    (U82 m c main_v127 : FVec Ideal S800000x2 .f32)
      = Cert.Spec.probs (argX m c) (edges m c) (argW1 m c) (argB1 m c) (argW2 m c) (argB2 m c) (argWc m c) (argBc m c) :=
  (congrFun (V82_eq m c) main_v127).symm.trans (probs_val m c hm)

end Cert.KernelIdeal.Hand

end
-- ==== Proof.RefRunHOps.lean ====
/- TABLES ONLY, for proof/Proof/RefRunH.lean: the reference's 120 host operations re-cut into 5 chunks (cuts before each
   concatenate and after the values main_v31 and main_v67), per chunk the references it writes and one library fact per
   operation (its buffers are TensorCore references; it determines its results; it writes only its result), and the two
   results' composed terms as that module states them. -/
import proofs.«402049_j87351044866139_2_alg».proof.Proof.Gen.ReferenceIdeal
import Idealize.ShloMosaic.Lib.StableHlo.Run

noncomputable section

namespace Cert.ReferenceIdeal.Value

open Cert.ReferenceIdeal Cert.ReferenceIdeal.Gen Idealize.ShloMosaic Idealize.ShloMosaic.TcCoe Idealize.SL.Sem Idealize.ShloMosaic.StableHlo

variable {F : FTy → Type} [FloatOps F]

/-- One operation writes only its result reference, which is in the list. -/
local macro "writes_in" : tactic =>
  `(tactic| (simp only [nullary_writes, unary_writes, binary_writes, ternary_writes, quaternary_writes, reshape_writes, binaryIndexed_writes, nary_writes, unaryIndexed_writes, Finset.singleton_subset_iff, List.mem_toFinset]; exact List.mem_map_of_mem (by decide)))

/-- @main's operations 1 … 5 of 120. -/
abbrev ops_c0 : List (HloOp τ sig (Elt F)) :=
  [ unary main_arg1 main_v0 ((extractStridedSlice S1x800000 ![0, 0] · slices_S2x800000_S1x800000_0_0) : (⟨S2x800000, .i32⟩ : BufTy).Contents (Elt F) → (⟨S1x800000, .i32⟩ : BufTy).Contents (Elt F)),
    reshape main_v0 main_v1 rfl shapeCasts_S1x800000_S800000,
    unary main_arg1 main_v2 ((extractStridedSlice S1x800000 ![1, 0] · slices_S2x800000_S1x800000_1_0) : (⟨S2x800000, .i32⟩ : BufTy).Contents (Elt F) → (⟨S1x800000, .i32⟩ : BufTy).Contents (Elt F)),
    reshape main_v2 main_v3 rfl shapeCasts_S1x800000_S800000,
    nullary main_v4 (iotaInDim S50000 32 0) ]

/-- The references they write. -/
abbrev ops_c0_W : List (Ref sig .tc) := [main_v0, main_v1, main_v2, main_v3, main_v4]

set_option maxRecDepth 8192 in
theorem ops_c0_sub : (ops_c0 : List (HloOp τ sig (Elt F))).Forall fun op => op.bufs ⊆ tcRefs τ sig :=
  ⟨unary_bufs_sub .., reshape_bufs_sub .., unary_bufs_sub .., reshape_bufs_sub .., nullary_bufs_sub ..⟩

set_option maxRecDepth 8192 in
theorem ops_c0_fresh : (ops_c0 : List (HloOp τ sig (Elt F))).Forall fun op => op.fresh = ∅ := by
  simp only [List.Forall]; repeat' constructor

set_option maxRecDepth 8192 in
theorem ops_c0_writes : (ops_c0 : List (HloOp τ sig (Elt F))).Forall fun op => op.writes ⊆ (ops_c0_W.map (Proc.devRef (τ := τ) .tc)).toFinset := by
  simp only [List.Forall]; exact ⟨by writes_in, by writes_in, by writes_in, by writes_in, by writes_in⟩

/-- @main's operations 6 … 43 of 120. -/
abbrev ops_c1 : List (HloOp τ sig (Elt F)) :=
  [ binary main_v1 main_v4 main_v5 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    binary main_v3 main_v4 main_v6 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    nullary main_cst (constant S_ .f32 0x3F800000#32),
    unary main_cst main_v7 (broadcastInDim S850000 ![] bcast_S_S850000 : (⟨S_, .f32⟩ : BufTy).Contents (Elt F) → (⟨S850000, .f32⟩ : BufTy).Contents (Elt F)),
    nullary main_cst_0 (constant S_ .f32 0x00000000#32),
    unary main_cst_0 main_v8 (broadcastInDim S50000 ![] bcast_S_S50000 : (⟨S_, .f32⟩ : BufTy).Contents (Elt F) → (⟨S50000, .f32⟩ : BufTy).Contents (Elt F)),
    unary main_v6 main_v9 (broadcastInDim S850000x1 ![0] bcast_S850000_S850000x1_0 : (⟨S850000, .i32⟩ : BufTy).Contents (Elt F) → (⟨S850000x1, .i32⟩ : BufTy).Contents (Elt F)),
    ternary main_v8 main_v9 main_v7 main_v10 ((fun x i u => Host.scatterAdd scatter_S50000_S850000x1_S850000_n_0_0_1 x i u) : (⟨S50000, .f32⟩ : BufTy).Contents (Elt F) → (⟨S850000x1, .i32⟩ : BufTy).Contents (Elt F) → (⟨S850000, .f32⟩ : BufTy).Contents (Elt F) → (⟨S50000, .f32⟩ : BufTy).Contents (Elt F)),
    nullary main_cst_1 (constant S_ .f32 0x00000000#32),
    unary main_cst_1 main_v11 (broadcastInDim S50000 ![] bcast_S_S50000 : (⟨S_, .f32⟩ : BufTy).Contents (Elt F) → (⟨S50000, .f32⟩ : BufTy).Contents (Elt F)),
    binary main_v10 main_v11 main_v12 (cmpf (F := F) .ogt : (⟨S50000, .f32⟩ : BufTy).Contents (Elt F) → (⟨S50000, .f32⟩ : BufTy).Contents (Elt F) → (⟨S50000, .i1⟩ : BufTy).Contents (Elt F)),
    nullary main_cst_2 (constant S_ .f32 0x2B8CBCCC#32),
    unary main_cst_2 main_v13 (broadcastInDim S50000 ![] bcast_S_S50000 : (⟨S_, .f32⟩ : BufTy).Contents (Elt F) → (⟨S50000, .f32⟩ : BufTy).Contents (Elt F)),
    binary main_v10 main_v13 main_v14 (maximumf : (⟨S50000, .f32⟩ : BufTy).Contents (Elt F) → (⟨S50000, .f32⟩ : BufTy).Contents (Elt F) → (⟨S50000, .f32⟩ : BufTy).Contents (Elt F)),
    unary main_v14 main_v15 (Host.rsqrt : (⟨S50000, .f32⟩ : BufTy).Contents (Elt F) → (⟨S50000, .f32⟩ : BufTy).Contents (Elt F)),
    nullary main_cst_3 (constant S_ .f32 0x00000000#32),
    TRef.unary (TRef.of (T := ⟨S_, .f32⟩) main_cst_3) (TRef.of (T := ⟨S_, .f32⟩) main_call0_v0) id,
    TRef.unary (TRef.of (T := ⟨S_, .f32⟩) main_call0_v0) (TRef.of (T := ⟨S50000, .f32⟩) main_call0_v1) (broadcastInDim S50000 ![] bcast_S_S50000),
    TRef.ternary (TRef.of (T := ⟨S50000, .i1⟩) main_v12) (TRef.of (T := ⟨S50000, .f32⟩) main_v15) (TRef.of (T := ⟨S50000, .f32⟩) main_call0_v1) (TRef.of (T := ⟨S50000, .f32⟩) main_v16) select,
    nullary main_c (constantI S_ 32 0#32),
    unary main_c main_v17 (broadcastInDim S850000 ![] bcast_S_S850000 : (⟨S_, .i32⟩ : BufTy).Contents (Elt F) → (⟨S850000, .i32⟩ : BufTy).Contents (Elt F)),
    binary main_v5 main_v17 main_v18 (cmpi .slt : (⟨S850000, .i32⟩ : BufTy).Contents (Elt F) → (⟨S850000, .i32⟩ : BufTy).Contents (Elt F) → (⟨S850000, .i1⟩ : BufTy).Contents (Elt F)),
    nullary main_c_4 (constantI S_ 32 50000#32),
    unary main_c_4 main_v19 (broadcastInDim S850000 ![] bcast_S_S850000 : (⟨S_, .i32⟩ : BufTy).Contents (Elt F) → (⟨S850000, .i32⟩ : BufTy).Contents (Elt F)),
    binary main_v5 main_v19 main_v20 (addi : (⟨S850000, .i32⟩ : BufTy).Contents (Elt F) → (⟨S850000, .i32⟩ : BufTy).Contents (Elt F) → (⟨S850000, .i32⟩ : BufTy).Contents (Elt F)),
    ternary main_v18 main_v20 main_v5 main_v21 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v21 main_v22 (broadcastInDim S850000x1 ![0] bcast_S850000_S850000x1_0 : (⟨S850000, .i32⟩ : BufTy).Contents (Elt F) → (⟨S850000x1, .i32⟩ : BufTy).Contents (Elt F)),
    binary main_v16 main_v22 main_v23 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    nullary main_c_5 (constantI S_ 32 0#32),
    unary main_c_5 main_v24 (broadcastInDim S850000 ![] bcast_S_S850000 : (⟨S_, .i32⟩ : BufTy).Contents (Elt F) → (⟨S850000, .i32⟩ : BufTy).Contents (Elt F)),
    binary main_v6 main_v24 main_v25 (cmpi .slt : (⟨S850000, .i32⟩ : BufTy).Contents (Elt F) → (⟨S850000, .i32⟩ : BufTy).Contents (Elt F) → (⟨S850000, .i1⟩ : BufTy).Contents (Elt F)),
    nullary main_c_6 (constantI S_ 32 50000#32),
    unary main_c_6 main_v26 (broadcastInDim S850000 ![] bcast_S_S850000 : (⟨S_, .i32⟩ : BufTy).Contents (Elt F) → (⟨S850000, .i32⟩ : BufTy).Contents (Elt F)),
    binary main_v6 main_v26 main_v27 (addi : (⟨S850000, .i32⟩ : BufTy).Contents (Elt F) → (⟨S850000, .i32⟩ : BufTy).Contents (Elt F) → (⟨S850000, .i32⟩ : BufTy).Contents (Elt F)),
    ternary main_v25 main_v27 main_v6 main_v28 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v28 main_v29 (broadcastInDim S850000x1 ![0] bcast_S850000_S850000x1_0 : (⟨S850000, .i32⟩ : BufTy).Contents (Elt F) → (⟨S850000x1, .i32⟩ : BufTy).Contents (Elt F)),
    binary main_v16 main_v29 main_v30 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    binary main_v23 main_v30 main_v31 (mulf : (⟨S850000, .f32⟩ : BufTy).Contents (Elt F) → (⟨S850000, .f32⟩ : BufTy).Contents (Elt F) → (⟨S850000, .f32⟩ : BufTy).Contents (Elt F)) ]

/-- The references they write. -/
abbrev ops_c1_W : List (Ref sig .tc) := [main_v5, main_v6, main_cst, main_v7, main_cst_0, main_v8, main_v9, main_v10, main_cst_1, main_v11, main_v12, main_cst_2, main_v13, main_v14, main_v15, main_cst_3, main_call0_v0, main_call0_v1, main_v16, main_c, main_v17, main_v18, main_c_4, main_v19, main_v20, main_v21, main_v22, main_v23, main_c_5, main_v24, main_v25, main_c_6, main_v26, main_v27, main_v28, main_v29, main_v30, main_v31]

set_option maxRecDepth 8192 in
theorem ops_c1_sub : (ops_c1 : List (HloOp τ sig (Elt F))).Forall fun op => op.bufs ⊆ tcRefs τ sig :=
  ⟨binary_bufs_sub .., binary_bufs_sub .., nullary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub ..⟩

set_option maxRecDepth 8192 in
theorem ops_c1_fresh : (ops_c1 : List (HloOp τ sig (Elt F))).Forall fun op => op.fresh = ∅ := by
  simp only [List.Forall]; repeat' constructor

set_option maxRecDepth 8192 in
theorem ops_c1_writes : (ops_c1 : List (HloOp τ sig (Elt F))).Forall fun op => op.writes ⊆ (ops_c1_W.map (Proc.devRef (τ := τ) .tc)).toFinset := by
  simp only [List.Forall]; exact ⟨by writes_in, by writes_in, by writes_in, by writes_in, by writes_in, by writes_in, by writes_in, by writes_in, by writes_in, by writes_in, by writes_in, by writes_in, by writes_in, by writes_in, by writes_in, by writes_in, by writes_in, by writes_in, by writes_in, by writes_in, by writes_in, by writes_in, by writes_in, by writes_in, by writes_in, by writes_in, by writes_in, by writes_in, by writes_in, by writes_in, by writes_in, by writes_in, by writes_in, by writes_in, by writes_in, by writes_in, by writes_in, by writes_in⟩

/-- @main's operations 44 … 89 of 120. -/
abbrev ops_c2 : List (HloOp τ sig (Elt F)) :=
  [ binary main_arg0 main_arg2 main_v32 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    nullary main_c_7 (constantI S_ 32 0#32),
    unary main_c_7 main_v33 (broadcastInDim S850000 ![] bcast_S_S850000 : (⟨S_, .i32⟩ : BufTy).Contents (Elt F) → (⟨S850000, .i32⟩ : BufTy).Contents (Elt F)),
    binary main_v5 main_v33 main_v34 (cmpi .slt : (⟨S850000, .i32⟩ : BufTy).Contents (Elt F) → (⟨S850000, .i32⟩ : BufTy).Contents (Elt F) → (⟨S850000, .i1⟩ : BufTy).Contents (Elt F)),
    nullary main_c_8 (constantI S_ 32 50000#32),
    unary main_c_8 main_v35 (broadcastInDim S850000 ![] bcast_S_S850000 : (⟨S_, .i32⟩ : BufTy).Contents (Elt F) → (⟨S850000, .i32⟩ : BufTy).Contents (Elt F)),
    binary main_v5 main_v35 main_v36 (addi : (⟨S850000, .i32⟩ : BufTy).Contents (Elt F) → (⟨S850000, .i32⟩ : BufTy).Contents (Elt F) → (⟨S850000, .i32⟩ : BufTy).Contents (Elt F)),
    ternary main_v34 main_v36 main_v5 main_v37 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v37 main_v38 (broadcastInDim S850000x1 ![0] bcast_S850000_S850000x1_0 : (⟨S850000, .i32⟩ : BufTy).Contents (Elt F) → (⟨S850000x1, .i32⟩ : BufTy).Contents (Elt F)),
    binary main_v32 main_v38 main_v39 ((fun x i => Host.gather gather_S50000x128_S850000x1_S850000x128_1_0_n_n_0_1_1128 x i) : (⟨S50000x128, .f32⟩ : BufTy).Contents (Elt F) → (⟨S850000x1, .i32⟩ : BufTy).Contents (Elt F) → (⟨S850000x128, .f32⟩ : BufTy).Contents (Elt F)),
    unary main_v31 main_v40 (broadcastInDim S850000x1 ![0] bcast_S850000_S850000x1_0 : (⟨S850000, .f32⟩ : BufTy).Contents (Elt F) → (⟨S850000x1, .f32⟩ : BufTy).Contents (Elt F)),
    unary main_v40 main_v41 (broadcastInDim S850000x128 ![0, 1] bcast_S850000x1_S850000x128_0_1 : (⟨S850000x1, .f32⟩ : BufTy).Contents (Elt F) → (⟨S850000x128, .f32⟩ : BufTy).Contents (Elt F)),
    binary main_v39 main_v41 main_v42 (mulf : (⟨S850000x128, .f32⟩ : BufTy).Contents (Elt F) → (⟨S850000x128, .f32⟩ : BufTy).Contents (Elt F) → (⟨S850000x128, .f32⟩ : BufTy).Contents (Elt F)),
    nullary main_cst_9 (constant S_ .f32 0x00000000#32),
    unary main_cst_9 main_v43 (broadcastInDim S50000x128 ![] bcast_S_S50000x128 : (⟨S_, .f32⟩ : BufTy).Contents (Elt F) → (⟨S50000x128, .f32⟩ : BufTy).Contents (Elt F)),
    unary main_v6 main_v44 (broadcastInDim S850000x1 ![0] bcast_S850000_S850000x1_0 : (⟨S850000, .i32⟩ : BufTy).Contents (Elt F) → (⟨S850000x1, .i32⟩ : BufTy).Contents (Elt F)),
    ternary main_v43 main_v44 main_v42 main_v45 ((fun x i u => Host.scatterAdd scatter_S50000x128_S850000x1_S850000x128_1_0_0_1 x i u) : (⟨S50000x128, .f32⟩ : BufTy).Contents (Elt F) → (⟨S850000x1, .i32⟩ : BufTy).Contents (Elt F) → (⟨S850000x128, .f32⟩ : BufTy).Contents (Elt F) → (⟨S50000x128, .f32⟩ : BufTy).Contents (Elt F)),
    unary main_arg3 main_v46 (broadcastInDim S1x128 ![1] bcast_S128_S1x128_1 : (⟨S128, .f32⟩ : BufTy).Contents (Elt F) → (⟨S1x128, .f32⟩ : BufTy).Contents (Elt F)),
    unary main_v46 main_v47 (broadcastInDim S50000x128 ![0, 1] bcast_S1x128_S50000x128_0_1 : (⟨S1x128, .f32⟩ : BufTy).Contents (Elt F) → (⟨S50000x128, .f32⟩ : BufTy).Contents (Elt F)),
    binary main_v45 main_v47 main_v48 (addf : (⟨S50000x128, .f32⟩ : BufTy).Contents (Elt F) → (⟨S50000x128, .f32⟩ : BufTy).Contents (Elt F) → (⟨S50000x128, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S50000x128, .f32⟩) main_call1_v0) (broadcastInDim S50000x128 ![] bcast_S_S50000x128),
    TRef.binary (TRef.of (T := ⟨S50000x128, .f32⟩) main_v48) (TRef.of (T := ⟨S50000x128, .f32⟩) main_call1_v0) (TRef.of (T := ⟨S50000x128, .f32⟩) main_v49) maximumf,
    binary main_v49 main_arg4 main_v50 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    nullary main_c_10 (constantI S_ 32 0#32),
    unary main_c_10 main_v51 (broadcastInDim S850000 ![] bcast_S_S850000 : (⟨S_, .i32⟩ : BufTy).Contents (Elt F) → (⟨S850000, .i32⟩ : BufTy).Contents (Elt F)),
    binary main_v5 main_v51 main_v52 (cmpi .slt : (⟨S850000, .i32⟩ : BufTy).Contents (Elt F) → (⟨S850000, .i32⟩ : BufTy).Contents (Elt F) → (⟨S850000, .i1⟩ : BufTy).Contents (Elt F)),
    nullary main_c_11 (constantI S_ 32 50000#32),
    unary main_c_11 main_v53 (broadcastInDim S850000 ![] bcast_S_S850000 : (⟨S_, .i32⟩ : BufTy).Contents (Elt F) → (⟨S850000, .i32⟩ : BufTy).Contents (Elt F)),
    binary main_v5 main_v53 main_v54 (addi : (⟨S850000, .i32⟩ : BufTy).Contents (Elt F) → (⟨S850000, .i32⟩ : BufTy).Contents (Elt F) → (⟨S850000, .i32⟩ : BufTy).Contents (Elt F)),
    ternary main_v52 main_v54 main_v5 main_v55 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v55 main_v56 (broadcastInDim S850000x1 ![0] bcast_S850000_S850000x1_0 : (⟨S850000, .i32⟩ : BufTy).Contents (Elt F) → (⟨S850000x1, .i32⟩ : BufTy).Contents (Elt F)),
    binary main_v50 main_v56 main_v57 ((fun x i => Host.gather gather_S50000x128_S850000x1_S850000x128_1_0_n_n_0_1_1128 x i) : (⟨S50000x128, .f32⟩ : BufTy).Contents (Elt F) → (⟨S850000x1, .i32⟩ : BufTy).Contents (Elt F) → (⟨S850000x128, .f32⟩ : BufTy).Contents (Elt F)),
    unary main_v31 main_v58 (broadcastInDim S850000x1 ![0] bcast_S850000_S850000x1_0 : (⟨S850000, .f32⟩ : BufTy).Contents (Elt F) → (⟨S850000x1, .f32⟩ : BufTy).Contents (Elt F)),
    unary main_v58 main_v59 (broadcastInDim S850000x128 ![0, 1] bcast_S850000x1_S850000x128_0_1 : (⟨S850000x1, .f32⟩ : BufTy).Contents (Elt F) → (⟨S850000x128, .f32⟩ : BufTy).Contents (Elt F)),
    binary main_v57 main_v59 main_v60 (mulf : (⟨S850000x128, .f32⟩ : BufTy).Contents (Elt F) → (⟨S850000x128, .f32⟩ : BufTy).Contents (Elt F) → (⟨S850000x128, .f32⟩ : BufTy).Contents (Elt F)),
    nullary main_cst_12 (constant S_ .f32 0x00000000#32),
    unary main_cst_12 main_v61 (broadcastInDim S50000x128 ![] bcast_S_S50000x128 : (⟨S_, .f32⟩ : BufTy).Contents (Elt F) → (⟨S50000x128, .f32⟩ : BufTy).Contents (Elt F)),
    unary main_v6 main_v62 (broadcastInDim S850000x1 ![0] bcast_S850000_S850000x1_0 : (⟨S850000, .i32⟩ : BufTy).Contents (Elt F) → (⟨S850000x1, .i32⟩ : BufTy).Contents (Elt F)),
    ternary main_v61 main_v62 main_v60 main_v63 ((fun x i u => Host.scatterAdd scatter_S50000x128_S850000x1_S850000x128_1_0_0_1 x i u) : (⟨S50000x128, .f32⟩ : BufTy).Contents (Elt F) → (⟨S850000x1, .i32⟩ : BufTy).Contents (Elt F) → (⟨S850000x128, .f32⟩ : BufTy).Contents (Elt F) → (⟨S50000x128, .f32⟩ : BufTy).Contents (Elt F)),
    unary main_arg5 main_v64 (broadcastInDim S1x128 ![1] bcast_S128_S1x128_1 : (⟨S128, .f32⟩ : BufTy).Contents (Elt F) → (⟨S1x128, .f32⟩ : BufTy).Contents (Elt F)),
    unary main_v64 main_v65 (broadcastInDim S50000x128 ![0, 1] bcast_S1x128_S50000x128_0_1 : (⟨S1x128, .f32⟩ : BufTy).Contents (Elt F) → (⟨S50000x128, .f32⟩ : BufTy).Contents (Elt F)),
    binary main_v63 main_v65 main_v66 (addf : (⟨S50000x128, .f32⟩ : BufTy).Contents (Elt F) → (⟨S50000x128, .f32⟩ : BufTy).Contents (Elt F) → (⟨S50000x128, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S50000x128, .f32⟩) main_call2_v0) (broadcastInDim S50000x128 ![] bcast_S_S50000x128),
    TRef.binary (TRef.of (T := ⟨S50000x128, .f32⟩) main_v66) (TRef.of (T := ⟨S50000x128, .f32⟩) main_call2_v0) (TRef.of (T := ⟨S50000x128, .f32⟩) main_v67) maximumf ]

/-- The references they write. -/
abbrev ops_c2_W : List (Ref sig .tc) := [main_v32, main_c_7, main_v33, main_v34, main_c_8, main_v35, main_v36, main_v37, main_v38, main_v39, main_v40, main_v41, main_v42, main_cst_9, main_v43, main_v44, main_v45, main_v46, main_v47, main_v48, main_call1_cst, main_call1_v0, main_v49, main_v50, main_c_10, main_v51, main_v52, main_c_11, main_v53, main_v54, main_v55, main_v56, main_v57, main_v58, main_v59, main_v60, main_cst_12, main_v61, main_v62, main_v63, main_v64, main_v65, main_v66, main_call2_cst, main_call2_v0, main_v67]

set_option maxRecDepth 8192 in
theorem ops_c2_sub : (ops_c2 : List (HloOp τ sig (Elt F))).Forall fun op => op.bufs ⊆ tcRefs τ sig :=
  ⟨binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub ..⟩

set_option maxRecDepth 8192 in
theorem ops_c2_fresh : (ops_c2 : List (HloOp τ sig (Elt F))).Forall fun op => op.fresh = ∅ := by
  simp only [List.Forall]; repeat' constructor

set_option maxRecDepth 8192 in
theorem ops_c2_writes : (ops_c2 : List (HloOp τ sig (Elt F))).Forall fun op => op.writes ⊆ (ops_c2_W.map (Proc.devRef (τ := τ) .tc)).toFinset := by
  simp only [List.Forall]; exact ⟨by writes_in, by writes_in, by writes_in, by writes_in, by writes_in, by writes_in, by writes_in, by writes_in, by writes_in, by writes_in, by writes_in, by writes_in, by writes_in, by writes_in, by writes_in, by writes_in, by writes_in, by writes_in, by writes_in, by writes_in, by writes_in, by writes_in, by writes_in, by writes_in, by writes_in, by writes_in, by writes_in, by writes_in, by writes_in, by writes_in, by writes_in, by writes_in, by writes_in, by writes_in, by writes_in, by writes_in, by writes_in, by writes_in, by writes_in, by writes_in, by writes_in, by writes_in, by writes_in, by writes_in, by writes_in, by writes_in⟩

/-- @main's operations 90 … 107 of 120. -/
abbrev ops_c3 : List (HloOp τ sig (Elt F)) :=
  [ nullary main_c_13 (constantI S_ 32 0#32),
    unary main_c_13 main_v68 (broadcastInDim S800000 ![] bcast_S_S800000 : (⟨S_, .i32⟩ : BufTy).Contents (Elt F) → (⟨S800000, .i32⟩ : BufTy).Contents (Elt F)),
    binary main_v1 main_v68 main_v69 (cmpi .slt : (⟨S800000, .i32⟩ : BufTy).Contents (Elt F) → (⟨S800000, .i32⟩ : BufTy).Contents (Elt F) → (⟨S800000, .i1⟩ : BufTy).Contents (Elt F)),
    nullary main_c_14 (constantI S_ 32 50000#32),
    unary main_c_14 main_v70 (broadcastInDim S800000 ![] bcast_S_S800000 : (⟨S_, .i32⟩ : BufTy).Contents (Elt F) → (⟨S800000, .i32⟩ : BufTy).Contents (Elt F)),
    binary main_v1 main_v70 main_v71 (addi : (⟨S800000, .i32⟩ : BufTy).Contents (Elt F) → (⟨S800000, .i32⟩ : BufTy).Contents (Elt F) → (⟨S800000, .i32⟩ : BufTy).Contents (Elt F)),
    ternary main_v69 main_v71 main_v1 main_v72 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v72 main_v73 (broadcastInDim S800000x1 ![0] bcast_S800000_S800000x1_0 : (⟨S800000, .i32⟩ : BufTy).Contents (Elt F) → (⟨S800000x1, .i32⟩ : BufTy).Contents (Elt F)),
    binary main_v67 main_v73 main_v74 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    nullary main_c_15 (constantI S_ 32 0#32),
    unary main_c_15 main_v75 (broadcastInDim S800000 ![] bcast_S_S800000 : (⟨S_, .i32⟩ : BufTy).Contents (Elt F) → (⟨S800000, .i32⟩ : BufTy).Contents (Elt F)),
    binary main_v3 main_v75 main_v76 (cmpi .slt : (⟨S800000, .i32⟩ : BufTy).Contents (Elt F) → (⟨S800000, .i32⟩ : BufTy).Contents (Elt F) → (⟨S800000, .i1⟩ : BufTy).Contents (Elt F)),
    nullary main_c_16 (constantI S_ 32 50000#32),
    unary main_c_16 main_v77 (broadcastInDim S800000 ![] bcast_S_S800000 : (⟨S_, .i32⟩ : BufTy).Contents (Elt F) → (⟨S800000, .i32⟩ : BufTy).Contents (Elt F)),
    binary main_v3 main_v77 main_v78 (addi : (⟨S800000, .i32⟩ : BufTy).Contents (Elt F) → (⟨S800000, .i32⟩ : BufTy).Contents (Elt F) → (⟨S800000, .i32⟩ : BufTy).Contents (Elt F)),
    ternary main_v76 main_v78 main_v3 main_v79 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v79 main_v80 (broadcastInDim S800000x1 ![0] bcast_S800000_S800000x1_0 : (⟨S800000, .i32⟩ : BufTy).Contents (Elt F) → (⟨S800000x1, .i32⟩ : BufTy).Contents (Elt F)),
    binary main_v67 main_v80 main_v81 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)) ]

/-- The references they write. -/
abbrev ops_c3_W : List (Ref sig .tc) := [main_c_13, main_v68, main_v69, main_c_14, main_v70, main_v71, main_v72, main_v73, main_v74, main_c_15, main_v75, main_v76, main_c_16, main_v77, main_v78, main_v79, main_v80, main_v81]

set_option maxRecDepth 8192 in
theorem ops_c3_sub : (ops_c3 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub ..⟩

set_option maxRecDepth 8192 in
theorem ops_c3_fresh : (ops_c3 : List (HloOp τ sig (Elt F))).Forall fun op => op.fresh = ∅ := by
  simp only [List.Forall]; repeat' constructor

set_option maxRecDepth 8192 in
theorem ops_c3_writes : (ops_c3 : List (HloOp τ sig (Elt F))).Forall fun op => op.writes ⊆ (ops_c3_W.map (Proc.devRef (τ := τ) .tc)).toFinset := by
  simp only [List.Forall]; exact ⟨by writes_in, by writes_in, by writes_in, by writes_in, by writes_in, by writes_in, by writes_in, by writes_in, by writes_in, by writes_in, by writes_in, by writes_in, by writes_in, by writes_in, by writes_in, by writes_in, by writes_in, by writes_in⟩

/-- @main's operations 108 … 120 of 120. -/
abbrev ops_c4 : List (HloOp τ sig (Elt F)) :=
  [ binary main_v74 main_v81 main_v82 ((fun a b => concatenate S800000x256 1 [⟨S800000x128, a⟩, ⟨S800000x128, b⟩] concatenates_S800000x128_S800000x128_S800000x256_d1) : (⟨S800000x128, .f32⟩ : BufTy).Contents (Elt F) → (⟨S800000x128, .f32⟩ : BufTy).Contents (Elt F) → (⟨S800000x256, .f32⟩ : BufTy).Contents (Elt F)),
    binary main_v82 main_arg6 main_v83 ((fun l r => Host.dotGeneral dot_S800000x256_S256x2_S800000x2_1_0_0_1_n_n none l r) : (⟨S800000x256, .f32⟩ : BufTy).Contents (Elt F) → (⟨S256x2, .f32⟩ : BufTy).Contents (Elt F) → (⟨S800000x2, .f32⟩ : BufTy).Contents (Elt F)),
    unary main_arg7 main_v84 (broadcastInDim S1x2 ![1] bcast_S2_S1x2_1 : (⟨S2, .f32⟩ : BufTy).Contents (Elt F) → (⟨S1x2, .f32⟩ : BufTy).Contents (Elt F)),
    unary main_v84 main_v85 (broadcastInDim S800000x2 ![0, 1] bcast_S1x2_S800000x2_0_1 : (⟨S1x2, .f32⟩ : BufTy).Contents (Elt F) → (⟨S800000x2, .f32⟩ : BufTy).Contents (Elt F)),
    binary main_v83 main_v85 main_v86 (addf : (⟨S800000x2, .f32⟩ : BufTy).Contents (Elt F) → (⟨S800000x2, .f32⟩ : BufTy).Contents (Elt F) → (⟨S800000x2, .f32⟩ : BufTy).Contents (Elt F)),
    unary main_v86 main_v87 (Host.negf : (⟨S800000x2, .f32⟩ : BufTy).Contents (Elt F) → (⟨S800000x2, .f32⟩ : BufTy).Contents (Elt F)),
    unary main_v87 main_v88 (Host.exp : (⟨S800000x2, .f32⟩ : BufTy).Contents (Elt F) → (⟨S800000x2, .f32⟩ : BufTy).Contents (Elt F)),
    nullary main_cst_17 (constant S_ .f32 0x3F800000#32),
    unary main_cst_17 main_v89 (broadcastInDim S800000x2 ![] bcast_S_S800000x2 : (⟨S_, .f32⟩ : BufTy).Contents (Elt F) → (⟨S800000x2, .f32⟩ : BufTy).Contents (Elt F)),
    binary main_v89 main_v88 main_v90 (addf : (⟨S800000x2, .f32⟩ : BufTy).Contents (Elt F) → (⟨S800000x2, .f32⟩ : BufTy).Contents (Elt F) → (⟨S800000x2, .f32⟩ : BufTy).Contents (Elt F)),
    nullary main_cst_18 (constant S_ .f32 0x3F800000#32),
    unary main_cst_18 main_v91 (broadcastInDim S800000x2 ![] bcast_S_S800000x2 : (⟨S_, .f32⟩ : BufTy).Contents (Elt F) → (⟨S800000x2, .f32⟩ : BufTy).Contents (Elt F)),
    binary main_v91 main_v90 main_v92 (Host.divf : (⟨S800000x2, .f32⟩ : BufTy).Contents (Elt F) → (⟨S800000x2, .f32⟩ : BufTy).Contents (Elt F) → (⟨S800000x2, .f32⟩ : BufTy).Contents (Elt F)) ]

/-- The references they write. -/
abbrev ops_c4_W : List (Ref sig .tc) := [main_v82, main_v83, main_v84, main_v85, main_v86, main_v87, main_v88, main_cst_17, main_v89, main_v90, main_cst_18, main_v91, main_v92]

set_option maxRecDepth 8192 in
theorem ops_c4_sub : (ops_c4 : List (HloOp τ sig (Elt F))).Forall fun op => op.bufs ⊆ tcRefs τ sig :=
  ⟨binary_bufs_sub .., binary_bufs_sub .., unary_bufs_sub .., unary_bufs_sub .., binary_bufs_sub .., unary_bufs_sub .., unary_bufs_sub .., nullary_bufs_sub .., unary_bufs_sub .., binary_bufs_sub .., nullary_bufs_sub .., unary_bufs_sub .., binary_bufs_sub ..⟩

set_option maxRecDepth 8192 in
theorem ops_c4_fresh : (ops_c4 : List (HloOp τ sig (Elt F))).Forall fun op => op.fresh = ∅ := by
  simp only [List.Forall]; repeat' constructor

set_option maxRecDepth 8192 in
theorem ops_c4_writes : (ops_c4 : List (HloOp τ sig (Elt F))).Forall fun op => op.writes ⊆ (ops_c4_W.map (Proc.devRef (τ := τ) .tc)).toFinset := by
  simp only [List.Forall]; exact ⟨by writes_in, by writes_in, by writes_in, by writes_in, by writes_in, by writes_in, by writes_in, by writes_in, by writes_in, by writes_in, by writes_in, by writes_in, by writes_in⟩

/-! ## The two results' composed terms -/

set_option maxRecDepth 8192 in
/-- `main_v92`'s composed term of the arguments (named: it is long). -/
def res_main_v92 (m : (ℓ : Loc nD τ sig) → Buf (Elt F) ℓ) (c : Dev nD) : Buf (Elt F) ((c.tc : Thread nD τ).loc main_v92) :=
  Host.divf (broadcastInDim S800000x2 ![] bcast_S_S800000x2 (constant S_ .f32 0x3F800000#32)) (addf (broadcastInDim S800000x2 ![] bcast_S_S800000x2 (constant S_ .f32 0x3F800000#32)) (Host.exp (Host.negf (addf (Host.dotGeneral dot_S800000x256_S256x2_S800000x2_1_0_0_1_n_n none (concatenate S800000x256 1 [⟨S800000x128, (Host.gather gather_S50000x128_S800000x1_S800000x128_1_0_n_n_0_1_1128 (maximumf (addf (Host.scatterAdd scatter_S50000x128_S850000x1_S850000x128_1_0_0_1 (broadcastInDim S50000x128 ![] bcast_S_S50000x128 (constant S_ .f32 0x00000000#32)) (broadcastInDim S850000x1 ![0] bcast_S850000_S850000x1_0 (concatenate S850000 0 [⟨S800000, (shapeCast _ (extractStridedSlice S1x800000 ![1, 0] (m ((c.tc : Thread nD τ).loc main_arg1)) slices_S2x800000_S1x800000_1_0) shapeCasts_S1x800000_S800000)⟩, ⟨S50000, (iotaInDim S50000 32 0)⟩] concatenates_S800000_S50000_S850000_d0)) (mulf (Host.gather gather_S50000x128_S850000x1_S850000x128_1_0_n_n_0_1_1128 (Host.dotGeneral dot_S50000x128_S128x128_S50000x128_1_0_0_1_n_n none (maximumf (addf (Host.scatterAdd scatter_S50000x128_S850000x1_S850000x128_1_0_0_1 (broadcastInDim S50000x128 ![] bcast_S_S50000x128 (constant S_ .f32 0x00000000#32)) (broadcastInDim S850000x1 ![0] bcast_S850000_S850000x1_0 (concatenate S850000 0 [⟨S800000, (shapeCast _ (extractStridedSlice S1x800000 ![1, 0] (m ((c.tc : Thread nD τ).loc main_arg1)) slices_S2x800000_S1x800000_1_0) shapeCasts_S1x800000_S800000)⟩, ⟨S50000, (iotaInDim S50000 32 0)⟩] concatenates_S800000_S50000_S850000_d0)) (mulf (Host.gather gather_S50000x128_S850000x1_S850000x128_1_0_n_n_0_1_1128 (Host.dotGeneral dot_S50000x128_S128x128_S50000x128_1_0_0_1_n_n none (m ((c.tc : Thread nD τ).loc main_arg0)) (m ((c.tc : Thread nD τ).loc main_arg2))) (broadcastInDim S850000x1 ![0] bcast_S850000_S850000x1_0 (select (cmpi .slt (concatenate S850000 0 [⟨S800000, (shapeCast _ (extractStridedSlice S1x800000 ![0, 0] (m ((c.tc : Thread nD τ).loc main_arg1)) slices_S2x800000_S1x800000_0_0) shapeCasts_S1x800000_S800000)⟩, ⟨S50000, (iotaInDim S50000 32 0)⟩] concatenates_S800000_S50000_S850000_d0) (broadcastInDim S850000 ![] bcast_S_S850000 (constantI S_ 32 0#32))) (addi (concatenate S850000 0 [⟨S800000, (shapeCast _ (extractStridedSlice S1x800000 ![0, 0] (m ((c.tc : Thread nD τ).loc main_arg1)) slices_S2x800000_S1x800000_0_0) shapeCasts_S1x800000_S800000)⟩, ⟨S50000, (iotaInDim S50000 32 0)⟩] concatenates_S800000_S50000_S850000_d0) (broadcastInDim S850000 ![] bcast_S_S850000 (constantI S_ 32 50000#32))) (concatenate S850000 0 [⟨S800000, (shapeCast _ (extractStridedSlice S1x800000 ![0, 0] (m ((c.tc : Thread nD τ).loc main_arg1)) slices_S2x800000_S1x800000_0_0) shapeCasts_S1x800000_S800000)⟩, ⟨S50000, (iotaInDim S50000 32 0)⟩] concatenates_S800000_S50000_S850000_d0)))) (broadcastInDim S850000x128 ![0, 1] bcast_S850000x1_S850000x128_0_1 (broadcastInDim S850000x1 ![0] bcast_S850000_S850000x1_0 (mulf (Host.gather gather_S50000_S850000x1_S850000_n_0_n_n_0_1_1 (select (cmpf (F := F) .ogt (Host.scatterAdd scatter_S50000_S850000x1_S850000_n_0_0_1 (broadcastInDim S50000 ![] bcast_S_S50000 (constant S_ .f32 0x00000000#32)) (broadcastInDim S850000x1 ![0] bcast_S850000_S850000x1_0 (concatenate S850000 0 [⟨S800000, (shapeCast _ (extractStridedSlice S1x800000 ![1, 0] (m ((c.tc : Thread nD τ).loc main_arg1)) slices_S2x800000_S1x800000_1_0) shapeCasts_S1x800000_S800000)⟩, ⟨S50000, (iotaInDim S50000 32 0)⟩] concatenates_S800000_S50000_S850000_d0)) (broadcastInDim S850000 ![] bcast_S_S850000 (constant S_ .f32 0x3F800000#32))) (broadcastInDim S50000 ![] bcast_S_S50000 (constant S_ .f32 0x00000000#32))) (Host.rsqrt (maximumf (Host.scatterAdd scatter_S50000_S850000x1_S850000_n_0_0_1 (broadcastInDim S50000 ![] bcast_S_S50000 (constant S_ .f32 0x00000000#32)) (broadcastInDim S850000x1 ![0] bcast_S850000_S850000x1_0 (concatenate S850000 0 [⟨S800000, (shapeCast _ (extractStridedSlice S1x800000 ![1, 0] (m ((c.tc : Thread nD τ).loc main_arg1)) slices_S2x800000_S1x800000_1_0) shapeCasts_S1x800000_S800000)⟩, ⟨S50000, (iotaInDim S50000 32 0)⟩] concatenates_S800000_S50000_S850000_d0)) (broadcastInDim S850000 ![] bcast_S_S850000 (constant S_ .f32 0x3F800000#32))) (broadcastInDim S50000 ![] bcast_S_S50000 (constant S_ .f32 0x2B8CBCCC#32)))) (broadcastInDim S50000 ![] bcast_S_S50000 (id (constant S_ .f32 0x00000000#32)))) (broadcastInDim S850000x1 ![0] bcast_S850000_S850000x1_0 (select (cmpi .slt (concatenate S850000 0 [⟨S800000, (shapeCast _ (extractStridedSlice S1x800000 ![0, 0] (m ((c.tc : Thread nD τ).loc main_arg1)) slices_S2x800000_S1x800000_0_0) shapeCasts_S1x800000_S800000)⟩, ⟨S50000, (iotaInDim S50000 32 0)⟩] concatenates_S800000_S50000_S850000_d0) (broadcastInDim S850000 ![] bcast_S_S850000 (constantI S_ 32 0#32))) (addi (concatenate S850000 0 [⟨S800000, (shapeCast _ (extractStridedSlice S1x800000 ![0, 0] (m ((c.tc : Thread nD τ).loc main_arg1)) slices_S2x800000_S1x800000_0_0) shapeCasts_S1x800000_S800000)⟩, ⟨S50000, (iotaInDim S50000 32 0)⟩] concatenates_S800000_S50000_S850000_d0) (broadcastInDim S850000 ![] bcast_S_S850000 (constantI S_ 32 50000#32))) (concatenate S850000 0 [⟨S800000, (shapeCast _ (extractStridedSlice S1x800000 ![0, 0] (m ((c.tc : Thread nD τ).loc main_arg1)) slices_S2x800000_S1x800000_0_0) shapeCasts_S1x800000_S800000)⟩, ⟨S50000, (iotaInDim S50000 32 0)⟩] concatenates_S800000_S50000_S850000_d0)))) (Host.gather gather_S50000_S850000x1_S850000_n_0_n_n_0_1_1 (select (cmpf (F := F) .ogt (Host.scatterAdd scatter_S50000_S850000x1_S850000_n_0_0_1 (broadcastInDim S50000 ![] bcast_S_S50000 (constant S_ .f32 0x00000000#32)) (broadcastInDim S850000x1 ![0] bcast_S850000_S850000x1_0 (concatenate S850000 0 [⟨S800000, (shapeCast _ (extractStridedSlice S1x800000 ![1, 0] (m ((c.tc : Thread nD τ).loc main_arg1)) slices_S2x800000_S1x800000_1_0) shapeCasts_S1x800000_S800000)⟩, ⟨S50000, (iotaInDim S50000 32 0)⟩] concatenates_S800000_S50000_S850000_d0)) (broadcastInDim S850000 ![] bcast_S_S850000 (constant S_ .f32 0x3F800000#32))) (broadcastInDim S50000 ![] bcast_S_S50000 (constant S_ .f32 0x00000000#32))) (Host.rsqrt (maximumf (Host.scatterAdd scatter_S50000_S850000x1_S850000_n_0_0_1 (broadcastInDim S50000 ![] bcast_S_S50000 (constant S_ .f32 0x00000000#32)) (broadcastInDim S850000x1 ![0] bcast_S850000_S850000x1_0 (concatenate S850000 0 [⟨S800000, (shapeCast _ (extractStridedSlice S1x800000 ![1, 0] (m ((c.tc : Thread nD τ).loc main_arg1)) slices_S2x800000_S1x800000_1_0) shapeCasts_S1x800000_S800000)⟩, ⟨S50000, (iotaInDim S50000 32 0)⟩] concatenates_S800000_S50000_S850000_d0)) (broadcastInDim S850000 ![] bcast_S_S850000 (constant S_ .f32 0x3F800000#32))) (broadcastInDim S50000 ![] bcast_S_S50000 (constant S_ .f32 0x2B8CBCCC#32)))) (broadcastInDim S50000 ![] bcast_S_S50000 (id (constant S_ .f32 0x00000000#32)))) (broadcastInDim S850000x1 ![0] bcast_S850000_S850000x1_0 (select (cmpi .slt (concatenate S850000 0 [⟨S800000, (shapeCast _ (extractStridedSlice S1x800000 ![1, 0] (m ((c.tc : Thread nD τ).loc main_arg1)) slices_S2x800000_S1x800000_1_0) shapeCasts_S1x800000_S800000)⟩, ⟨S50000, (iotaInDim S50000 32 0)⟩] concatenates_S800000_S50000_S850000_d0) (broadcastInDim S850000 ![] bcast_S_S850000 (constantI S_ 32 0#32))) (addi (concatenate S850000 0 [⟨S800000, (shapeCast _ (extractStridedSlice S1x800000 ![1, 0] (m ((c.tc : Thread nD τ).loc main_arg1)) slices_S2x800000_S1x800000_1_0) shapeCasts_S1x800000_S800000)⟩, ⟨S50000, (iotaInDim S50000 32 0)⟩] concatenates_S800000_S50000_S850000_d0) (broadcastInDim S850000 ![] bcast_S_S850000 (constantI S_ 32 50000#32))) (concatenate S850000 0 [⟨S800000, (shapeCast _ (extractStridedSlice S1x800000 ![1, 0] (m ((c.tc : Thread nD τ).loc main_arg1)) slices_S2x800000_S1x800000_1_0) shapeCasts_S1x800000_S800000)⟩, ⟨S50000, (iotaInDim S50000 32 0)⟩] concatenates_S800000_S50000_S850000_d0))))))))) (broadcastInDim S50000x128 ![0, 1] bcast_S1x128_S50000x128_0_1 (broadcastInDim S1x128 ![1] bcast_S128_S1x128_1 (m ((c.tc : Thread nD τ).loc main_arg3))))) (broadcastInDim S50000x128 ![] bcast_S_S50000x128 (constant S_ .f32 0x00000000#32))) (m ((c.tc : Thread nD τ).loc main_arg4))) (broadcastInDim S850000x1 ![0] bcast_S850000_S850000x1_0 (select (cmpi .slt (concatenate S850000 0 [⟨S800000, (shapeCast _ (extractStridedSlice S1x800000 ![0, 0] (m ((c.tc : Thread nD τ).loc main_arg1)) slices_S2x800000_S1x800000_0_0) shapeCasts_S1x800000_S800000)⟩, ⟨S50000, (iotaInDim S50000 32 0)⟩] concatenates_S800000_S50000_S850000_d0) (broadcastInDim S850000 ![] bcast_S_S850000 (constantI S_ 32 0#32))) (addi (concatenate S850000 0 [⟨S800000, (shapeCast _ (extractStridedSlice S1x800000 ![0, 0] (m ((c.tc : Thread nD τ).loc main_arg1)) slices_S2x800000_S1x800000_0_0) shapeCasts_S1x800000_S800000)⟩, ⟨S50000, (iotaInDim S50000 32 0)⟩] concatenates_S800000_S50000_S850000_d0) (broadcastInDim S850000 ![] bcast_S_S850000 (constantI S_ 32 50000#32))) (concatenate S850000 0 [⟨S800000, (shapeCast _ (extractStridedSlice S1x800000 ![0, 0] (m ((c.tc : Thread nD τ).loc main_arg1)) slices_S2x800000_S1x800000_0_0) shapeCasts_S1x800000_S800000)⟩, ⟨S50000, (iotaInDim S50000 32 0)⟩] concatenates_S800000_S50000_S850000_d0)))) (broadcastInDim S850000x128 ![0, 1] bcast_S850000x1_S850000x128_0_1 (broadcastInDim S850000x1 ![0] bcast_S850000_S850000x1_0 (mulf (Host.gather gather_S50000_S850000x1_S850000_n_0_n_n_0_1_1 (select (cmpf (F := F) .ogt (Host.scatterAdd scatter_S50000_S850000x1_S850000_n_0_0_1 (broadcastInDim S50000 ![] bcast_S_S50000 (constant S_ .f32 0x00000000#32)) (broadcastInDim S850000x1 ![0] bcast_S850000_S850000x1_0 (concatenate S850000 0 [⟨S800000, (shapeCast _ (extractStridedSlice S1x800000 ![1, 0] (m ((c.tc : Thread nD τ).loc main_arg1)) slices_S2x800000_S1x800000_1_0) shapeCasts_S1x800000_S800000)⟩, ⟨S50000, (iotaInDim S50000 32 0)⟩] concatenates_S800000_S50000_S850000_d0)) (broadcastInDim S850000 ![] bcast_S_S850000 (constant S_ .f32 0x3F800000#32))) (broadcastInDim S50000 ![] bcast_S_S50000 (constant S_ .f32 0x00000000#32))) (Host.rsqrt (maximumf (Host.scatterAdd scatter_S50000_S850000x1_S850000_n_0_0_1 (broadcastInDim S50000 ![] bcast_S_S50000 (constant S_ .f32 0x00000000#32)) (broadcastInDim S850000x1 ![0] bcast_S850000_S850000x1_0 (concatenate S850000 0 [⟨S800000, (shapeCast _ (extractStridedSlice S1x800000 ![1, 0] (m ((c.tc : Thread nD τ).loc main_arg1)) slices_S2x800000_S1x800000_1_0) shapeCasts_S1x800000_S800000)⟩, ⟨S50000, (iotaInDim S50000 32 0)⟩] concatenates_S800000_S50000_S850000_d0)) (broadcastInDim S850000 ![] bcast_S_S850000 (constant S_ .f32 0x3F800000#32))) (broadcastInDim S50000 ![] bcast_S_S50000 (constant S_ .f32 0x2B8CBCCC#32)))) (broadcastInDim S50000 ![] bcast_S_S50000 (id (constant S_ .f32 0x00000000#32)))) (broadcastInDim S850000x1 ![0] bcast_S850000_S850000x1_0 (select (cmpi .slt (concatenate S850000 0 [⟨S800000, (shapeCast _ (extractStridedSlice S1x800000 ![0, 0] (m ((c.tc : Thread nD τ).loc main_arg1)) slices_S2x800000_S1x800000_0_0) shapeCasts_S1x800000_S800000)⟩, ⟨S50000, (iotaInDim S50000 32 0)⟩] concatenates_S800000_S50000_S850000_d0) (broadcastInDim S850000 ![] bcast_S_S850000 (constantI S_ 32 0#32))) (addi (concatenate S850000 0 [⟨S800000, (shapeCast _ (extractStridedSlice S1x800000 ![0, 0] (m ((c.tc : Thread nD τ).loc main_arg1)) slices_S2x800000_S1x800000_0_0) shapeCasts_S1x800000_S800000)⟩, ⟨S50000, (iotaInDim S50000 32 0)⟩] concatenates_S800000_S50000_S850000_d0) (broadcastInDim S850000 ![] bcast_S_S850000 (constantI S_ 32 50000#32))) (concatenate S850000 0 [⟨S800000, (shapeCast _ (extractStridedSlice S1x800000 ![0, 0] (m ((c.tc : Thread nD τ).loc main_arg1)) slices_S2x800000_S1x800000_0_0) shapeCasts_S1x800000_S800000)⟩, ⟨S50000, (iotaInDim S50000 32 0)⟩] concatenates_S800000_S50000_S850000_d0)))) (Host.gather gather_S50000_S850000x1_S850000_n_0_n_n_0_1_1 (select (cmpf (F := F) .ogt (Host.scatterAdd scatter_S50000_S850000x1_S850000_n_0_0_1 (broadcastInDim S50000 ![] bcast_S_S50000 (constant S_ .f32 0x00000000#32)) (broadcastInDim S850000x1 ![0] bcast_S850000_S850000x1_0 (concatenate S850000 0 [⟨S800000, (shapeCast _ (extractStridedSlice S1x800000 ![1, 0] (m ((c.tc : Thread nD τ).loc main_arg1)) slices_S2x800000_S1x800000_1_0) shapeCasts_S1x800000_S800000)⟩, ⟨S50000, (iotaInDim S50000 32 0)⟩] concatenates_S800000_S50000_S850000_d0)) (broadcastInDim S850000 ![] bcast_S_S850000 (constant S_ .f32 0x3F800000#32))) (broadcastInDim S50000 ![] bcast_S_S50000 (constant S_ .f32 0x00000000#32))) (Host.rsqrt (maximumf (Host.scatterAdd scatter_S50000_S850000x1_S850000_n_0_0_1 (broadcastInDim S50000 ![] bcast_S_S50000 (constant S_ .f32 0x00000000#32)) (broadcastInDim S850000x1 ![0] bcast_S850000_S850000x1_0 (concatenate S850000 0 [⟨S800000, (shapeCast _ (extractStridedSlice S1x800000 ![1, 0] (m ((c.tc : Thread nD τ).loc main_arg1)) slices_S2x800000_S1x800000_1_0) shapeCasts_S1x800000_S800000)⟩, ⟨S50000, (iotaInDim S50000 32 0)⟩] concatenates_S800000_S50000_S850000_d0)) (broadcastInDim S850000 ![] bcast_S_S850000 (constant S_ .f32 0x3F800000#32))) (broadcastInDim S50000 ![] bcast_S_S50000 (constant S_ .f32 0x2B8CBCCC#32)))) (broadcastInDim S50000 ![] bcast_S_S50000 (id (constant S_ .f32 0x00000000#32)))) (broadcastInDim S850000x1 ![0] bcast_S850000_S850000x1_0 (select (cmpi .slt (concatenate S850000 0 [⟨S800000, (shapeCast _ (extractStridedSlice S1x800000 ![1, 0] (m ((c.tc : Thread nD τ).loc main_arg1)) slices_S2x800000_S1x800000_1_0) shapeCasts_S1x800000_S800000)⟩, ⟨S50000, (iotaInDim S50000 32 0)⟩] concatenates_S800000_S50000_S850000_d0) (broadcastInDim S850000 ![] bcast_S_S850000 (constantI S_ 32 0#32))) (addi (concatenate S850000 0 [⟨S800000, (shapeCast _ (extractStridedSlice S1x800000 ![1, 0] (m ((c.tc : Thread nD τ).loc main_arg1)) slices_S2x800000_S1x800000_1_0) shapeCasts_S1x800000_S800000)⟩, ⟨S50000, (iotaInDim S50000 32 0)⟩] concatenates_S800000_S50000_S850000_d0) (broadcastInDim S850000 ![] bcast_S_S850000 (constantI S_ 32 50000#32))) (concatenate S850000 0 [⟨S800000, (shapeCast _ (extractStridedSlice S1x800000 ![1, 0] (m ((c.tc : Thread nD τ).loc main_arg1)) slices_S2x800000_S1x800000_1_0) shapeCasts_S1x800000_S800000)⟩, ⟨S50000, (iotaInDim S50000 32 0)⟩] concatenates_S800000_S50000_S850000_d0))))))))) (broadcastInDim S50000x128 ![0, 1] bcast_S1x128_S50000x128_0_1 (broadcastInDim S1x128 ![1] bcast_S128_S1x128_1 (m ((c.tc : Thread nD τ).loc main_arg5))))) (broadcastInDim S50000x128 ![] bcast_S_S50000x128 (constant S_ .f32 0x00000000#32))) (broadcastInDim S800000x1 ![0] bcast_S800000_S800000x1_0 (select (cmpi .slt (shapeCast _ (extractStridedSlice S1x800000 ![0, 0] (m ((c.tc : Thread nD τ).loc main_arg1)) slices_S2x800000_S1x800000_0_0) shapeCasts_S1x800000_S800000) (broadcastInDim S800000 ![] bcast_S_S800000 (constantI S_ 32 0#32))) (addi (shapeCast _ (extractStridedSlice S1x800000 ![0, 0] (m ((c.tc : Thread nD τ).loc main_arg1)) slices_S2x800000_S1x800000_0_0) shapeCasts_S1x800000_S800000) (broadcastInDim S800000 ![] bcast_S_S800000 (constantI S_ 32 50000#32))) (shapeCast _ (extractStridedSlice S1x800000 ![0, 0] (m ((c.tc : Thread nD τ).loc main_arg1)) slices_S2x800000_S1x800000_0_0) shapeCasts_S1x800000_S800000))))⟩, ⟨S800000x128, (Host.gather gather_S50000x128_S800000x1_S800000x128_1_0_n_n_0_1_1128 (maximumf (addf (Host.scatterAdd scatter_S50000x128_S850000x1_S850000x128_1_0_0_1 (broadcastInDim S50000x128 ![] bcast_S_S50000x128 (constant S_ .f32 0x00000000#32)) (broadcastInDim S850000x1 ![0] bcast_S850000_S850000x1_0 (concatenate S850000 0 [⟨S800000, (shapeCast _ (extractStridedSlice S1x800000 ![1, 0] (m ((c.tc : Thread nD τ).loc main_arg1)) slices_S2x800000_S1x800000_1_0) shapeCasts_S1x800000_S800000)⟩, ⟨S50000, (iotaInDim S50000 32 0)⟩] concatenates_S800000_S50000_S850000_d0)) (mulf (Host.gather gather_S50000x128_S850000x1_S850000x128_1_0_n_n_0_1_1128 (Host.dotGeneral dot_S50000x128_S128x128_S50000x128_1_0_0_1_n_n none (maximumf (addf (Host.scatterAdd scatter_S50000x128_S850000x1_S850000x128_1_0_0_1 (broadcastInDim S50000x128 ![] bcast_S_S50000x128 (constant S_ .f32 0x00000000#32)) (broadcastInDim S850000x1 ![0] bcast_S850000_S850000x1_0 (concatenate S850000 0 [⟨S800000, (shapeCast _ (extractStridedSlice S1x800000 ![1, 0] (m ((c.tc : Thread nD τ).loc main_arg1)) slices_S2x800000_S1x800000_1_0) shapeCasts_S1x800000_S800000)⟩, ⟨S50000, (iotaInDim S50000 32 0)⟩] concatenates_S800000_S50000_S850000_d0)) (mulf (Host.gather gather_S50000x128_S850000x1_S850000x128_1_0_n_n_0_1_1128 (Host.dotGeneral dot_S50000x128_S128x128_S50000x128_1_0_0_1_n_n none (m ((c.tc : Thread nD τ).loc main_arg0)) (m ((c.tc : Thread nD τ).loc main_arg2))) (broadcastInDim S850000x1 ![0] bcast_S850000_S850000x1_0 (select (cmpi .slt (concatenate S850000 0 [⟨S800000, (shapeCast _ (extractStridedSlice S1x800000 ![0, 0] (m ((c.tc : Thread nD τ).loc main_arg1)) slices_S2x800000_S1x800000_0_0) shapeCasts_S1x800000_S800000)⟩, ⟨S50000, (iotaInDim S50000 32 0)⟩] concatenates_S800000_S50000_S850000_d0) (broadcastInDim S850000 ![] bcast_S_S850000 (constantI S_ 32 0#32))) (addi (concatenate S850000 0 [⟨S800000, (shapeCast _ (extractStridedSlice S1x800000 ![0, 0] (m ((c.tc : Thread nD τ).loc main_arg1)) slices_S2x800000_S1x800000_0_0) shapeCasts_S1x800000_S800000)⟩, ⟨S50000, (iotaInDim S50000 32 0)⟩] concatenates_S800000_S50000_S850000_d0) (broadcastInDim S850000 ![] bcast_S_S850000 (constantI S_ 32 50000#32))) (concatenate S850000 0 [⟨S800000, (shapeCast _ (extractStridedSlice S1x800000 ![0, 0] (m ((c.tc : Thread nD τ).loc main_arg1)) slices_S2x800000_S1x800000_0_0) shapeCasts_S1x800000_S800000)⟩, ⟨S50000, (iotaInDim S50000 32 0)⟩] concatenates_S800000_S50000_S850000_d0)))) (broadcastInDim S850000x128 ![0, 1] bcast_S850000x1_S850000x128_0_1 (broadcastInDim S850000x1 ![0] bcast_S850000_S850000x1_0 (mulf (Host.gather gather_S50000_S850000x1_S850000_n_0_n_n_0_1_1 (select (cmpf (F := F) .ogt (Host.scatterAdd scatter_S50000_S850000x1_S850000_n_0_0_1 (broadcastInDim S50000 ![] bcast_S_S50000 (constant S_ .f32 0x00000000#32)) (broadcastInDim S850000x1 ![0] bcast_S850000_S850000x1_0 (concatenate S850000 0 [⟨S800000, (shapeCast _ (extractStridedSlice S1x800000 ![1, 0] (m ((c.tc : Thread nD τ).loc main_arg1)) slices_S2x800000_S1x800000_1_0) shapeCasts_S1x800000_S800000)⟩, ⟨S50000, (iotaInDim S50000 32 0)⟩] concatenates_S800000_S50000_S850000_d0)) (broadcastInDim S850000 ![] bcast_S_S850000 (constant S_ .f32 0x3F800000#32))) (broadcastInDim S50000 ![] bcast_S_S50000 (constant S_ .f32 0x00000000#32))) (Host.rsqrt (maximumf (Host.scatterAdd scatter_S50000_S850000x1_S850000_n_0_0_1 (broadcastInDim S50000 ![] bcast_S_S50000 (constant S_ .f32 0x00000000#32)) (broadcastInDim S850000x1 ![0] bcast_S850000_S850000x1_0 (concatenate S850000 0 [⟨S800000, (shapeCast _ (extractStridedSlice S1x800000 ![1, 0] (m ((c.tc : Thread nD τ).loc main_arg1)) slices_S2x800000_S1x800000_1_0) shapeCasts_S1x800000_S800000)⟩, ⟨S50000, (iotaInDim S50000 32 0)⟩] concatenates_S800000_S50000_S850000_d0)) (broadcastInDim S850000 ![] bcast_S_S850000 (constant S_ .f32 0x3F800000#32))) (broadcastInDim S50000 ![] bcast_S_S50000 (constant S_ .f32 0x2B8CBCCC#32)))) (broadcastInDim S50000 ![] bcast_S_S50000 (id (constant S_ .f32 0x00000000#32)))) (broadcastInDim S850000x1 ![0] bcast_S850000_S850000x1_0 (select (cmpi .slt (concatenate S850000 0 [⟨S800000, (shapeCast _ (extractStridedSlice S1x800000 ![0, 0] (m ((c.tc : Thread nD τ).loc main_arg1)) slices_S2x800000_S1x800000_0_0) shapeCasts_S1x800000_S800000)⟩, ⟨S50000, (iotaInDim S50000 32 0)⟩] concatenates_S800000_S50000_S850000_d0) (broadcastInDim S850000 ![] bcast_S_S850000 (constantI S_ 32 0#32))) (addi (concatenate S850000 0 [⟨S800000, (shapeCast _ (extractStridedSlice S1x800000 ![0, 0] (m ((c.tc : Thread nD τ).loc main_arg1)) slices_S2x800000_S1x800000_0_0) shapeCasts_S1x800000_S800000)⟩, ⟨S50000, (iotaInDim S50000 32 0)⟩] concatenates_S800000_S50000_S850000_d0) (broadcastInDim S850000 ![] bcast_S_S850000 (constantI S_ 32 50000#32))) (concatenate S850000 0 [⟨S800000, (shapeCast _ (extractStridedSlice S1x800000 ![0, 0] (m ((c.tc : Thread nD τ).loc main_arg1)) slices_S2x800000_S1x800000_0_0) shapeCasts_S1x800000_S800000)⟩, ⟨S50000, (iotaInDim S50000 32 0)⟩] concatenates_S800000_S50000_S850000_d0)))) (Host.gather gather_S50000_S850000x1_S850000_n_0_n_n_0_1_1 (select (cmpf (F := F) .ogt (Host.scatterAdd scatter_S50000_S850000x1_S850000_n_0_0_1 (broadcastInDim S50000 ![] bcast_S_S50000 (constant S_ .f32 0x00000000#32)) (broadcastInDim S850000x1 ![0] bcast_S850000_S850000x1_0 (concatenate S850000 0 [⟨S800000, (shapeCast _ (extractStridedSlice S1x800000 ![1, 0] (m ((c.tc : Thread nD τ).loc main_arg1)) slices_S2x800000_S1x800000_1_0) shapeCasts_S1x800000_S800000)⟩, ⟨S50000, (iotaInDim S50000 32 0)⟩] concatenates_S800000_S50000_S850000_d0)) (broadcastInDim S850000 ![] bcast_S_S850000 (constant S_ .f32 0x3F800000#32))) (broadcastInDim S50000 ![] bcast_S_S50000 (constant S_ .f32 0x00000000#32))) (Host.rsqrt (maximumf (Host.scatterAdd scatter_S50000_S850000x1_S850000_n_0_0_1 (broadcastInDim S50000 ![] bcast_S_S50000 (constant S_ .f32 0x00000000#32)) (broadcastInDim S850000x1 ![0] bcast_S850000_S850000x1_0 (concatenate S850000 0 [⟨S800000, (shapeCast _ (extractStridedSlice S1x800000 ![1, 0] (m ((c.tc : Thread nD τ).loc main_arg1)) slices_S2x800000_S1x800000_1_0) shapeCasts_S1x800000_S800000)⟩, ⟨S50000, (iotaInDim S50000 32 0)⟩] concatenates_S800000_S50000_S850000_d0)) (broadcastInDim S850000 ![] bcast_S_S850000 (constant S_ .f32 0x3F800000#32))) (broadcastInDim S50000 ![] bcast_S_S50000 (constant S_ .f32 0x2B8CBCCC#32)))) (broadcastInDim S50000 ![] bcast_S_S50000 (id (constant S_ .f32 0x00000000#32)))) (broadcastInDim S850000x1 ![0] bcast_S850000_S850000x1_0 (select (cmpi .slt (concatenate S850000 0 [⟨S800000, (shapeCast _ (extractStridedSlice S1x800000 ![1, 0] (m ((c.tc : Thread nD τ).loc main_arg1)) slices_S2x800000_S1x800000_1_0) shapeCasts_S1x800000_S800000)⟩, ⟨S50000, (iotaInDim S50000 32 0)⟩] concatenates_S800000_S50000_S850000_d0) (broadcastInDim S850000 ![] bcast_S_S850000 (constantI S_ 32 0#32))) (addi (concatenate S850000 0 [⟨S800000, (shapeCast _ (extractStridedSlice S1x800000 ![1, 0] (m ((c.tc : Thread nD τ).loc main_arg1)) slices_S2x800000_S1x800000_1_0) shapeCasts_S1x800000_S800000)⟩, ⟨S50000, (iotaInDim S50000 32 0)⟩] concatenates_S800000_S50000_S850000_d0) (broadcastInDim S850000 ![] bcast_S_S850000 (constantI S_ 32 50000#32))) (concatenate S850000 0 [⟨S800000, (shapeCast _ (extractStridedSlice S1x800000 ![1, 0] (m ((c.tc : Thread nD τ).loc main_arg1)) slices_S2x800000_S1x800000_1_0) shapeCasts_S1x800000_S800000)⟩, ⟨S50000, (iotaInDim S50000 32 0)⟩] concatenates_S800000_S50000_S850000_d0))))))))) (broadcastInDim S50000x128 ![0, 1] bcast_S1x128_S50000x128_0_1 (broadcastInDim S1x128 ![1] bcast_S128_S1x128_1 (m ((c.tc : Thread nD τ).loc main_arg3))))) (broadcastInDim S50000x128 ![] bcast_S_S50000x128 (constant S_ .f32 0x00000000#32))) (m ((c.tc : Thread nD τ).loc main_arg4))) (broadcastInDim S850000x1 ![0] bcast_S850000_S850000x1_0 (select (cmpi .slt (concatenate S850000 0 [⟨S800000, (shapeCast _ (extractStridedSlice S1x800000 ![0, 0] (m ((c.tc : Thread nD τ).loc main_arg1)) slices_S2x800000_S1x800000_0_0) shapeCasts_S1x800000_S800000)⟩, ⟨S50000, (iotaInDim S50000 32 0)⟩] concatenates_S800000_S50000_S850000_d0) (broadcastInDim S850000 ![] bcast_S_S850000 (constantI S_ 32 0#32))) (addi (concatenate S850000 0 [⟨S800000, (shapeCast _ (extractStridedSlice S1x800000 ![0, 0] (m ((c.tc : Thread nD τ).loc main_arg1)) slices_S2x800000_S1x800000_0_0) shapeCasts_S1x800000_S800000)⟩, ⟨S50000, (iotaInDim S50000 32 0)⟩] concatenates_S800000_S50000_S850000_d0) (broadcastInDim S850000 ![] bcast_S_S850000 (constantI S_ 32 50000#32))) (concatenate S850000 0 [⟨S800000, (shapeCast _ (extractStridedSlice S1x800000 ![0, 0] (m ((c.tc : Thread nD τ).loc main_arg1)) slices_S2x800000_S1x800000_0_0) shapeCasts_S1x800000_S800000)⟩, ⟨S50000, (iotaInDim S50000 32 0)⟩] concatenates_S800000_S50000_S850000_d0)))) (broadcastInDim S850000x128 ![0, 1] bcast_S850000x1_S850000x128_0_1 (broadcastInDim S850000x1 ![0] bcast_S850000_S850000x1_0 (mulf (Host.gather gather_S50000_S850000x1_S850000_n_0_n_n_0_1_1 (select (cmpf (F := F) .ogt (Host.scatterAdd scatter_S50000_S850000x1_S850000_n_0_0_1 (broadcastInDim S50000 ![] bcast_S_S50000 (constant S_ .f32 0x00000000#32)) (broadcastInDim S850000x1 ![0] bcast_S850000_S850000x1_0 (concatenate S850000 0 [⟨S800000, (shapeCast _ (extractStridedSlice S1x800000 ![1, 0] (m ((c.tc : Thread nD τ).loc main_arg1)) slices_S2x800000_S1x800000_1_0) shapeCasts_S1x800000_S800000)⟩, ⟨S50000, (iotaInDim S50000 32 0)⟩] concatenates_S800000_S50000_S850000_d0)) (broadcastInDim S850000 ![] bcast_S_S850000 (constant S_ .f32 0x3F800000#32))) (broadcastInDim S50000 ![] bcast_S_S50000 (constant S_ .f32 0x00000000#32))) (Host.rsqrt (maximumf (Host.scatterAdd scatter_S50000_S850000x1_S850000_n_0_0_1 (broadcastInDim S50000 ![] bcast_S_S50000 (constant S_ .f32 0x00000000#32)) (broadcastInDim S850000x1 ![0] bcast_S850000_S850000x1_0 (concatenate S850000 0 [⟨S800000, (shapeCast _ (extractStridedSlice S1x800000 ![1, 0] (m ((c.tc : Thread nD τ).loc main_arg1)) slices_S2x800000_S1x800000_1_0) shapeCasts_S1x800000_S800000)⟩, ⟨S50000, (iotaInDim S50000 32 0)⟩] concatenates_S800000_S50000_S850000_d0)) (broadcastInDim S850000 ![] bcast_S_S850000 (constant S_ .f32 0x3F800000#32))) (broadcastInDim S50000 ![] bcast_S_S50000 (constant S_ .f32 0x2B8CBCCC#32)))) (broadcastInDim S50000 ![] bcast_S_S50000 (id (constant S_ .f32 0x00000000#32)))) (broadcastInDim S850000x1 ![0] bcast_S850000_S850000x1_0 (select (cmpi .slt (concatenate S850000 0 [⟨S800000, (shapeCast _ (extractStridedSlice S1x800000 ![0, 0] (m ((c.tc : Thread nD τ).loc main_arg1)) slices_S2x800000_S1x800000_0_0) shapeCasts_S1x800000_S800000)⟩, ⟨S50000, (iotaInDim S50000 32 0)⟩] concatenates_S800000_S50000_S850000_d0) (broadcastInDim S850000 ![] bcast_S_S850000 (constantI S_ 32 0#32))) (addi (concatenate S850000 0 [⟨S800000, (shapeCast _ (extractStridedSlice S1x800000 ![0, 0] (m ((c.tc : Thread nD τ).loc main_arg1)) slices_S2x800000_S1x800000_0_0) shapeCasts_S1x800000_S800000)⟩, ⟨S50000, (iotaInDim S50000 32 0)⟩] concatenates_S800000_S50000_S850000_d0) (broadcastInDim S850000 ![] bcast_S_S850000 (constantI S_ 32 50000#32))) (concatenate S850000 0 [⟨S800000, (shapeCast _ (extractStridedSlice S1x800000 ![0, 0] (m ((c.tc : Thread nD τ).loc main_arg1)) slices_S2x800000_S1x800000_0_0) shapeCasts_S1x800000_S800000)⟩, ⟨S50000, (iotaInDim S50000 32 0)⟩] concatenates_S800000_S50000_S850000_d0)))) (Host.gather gather_S50000_S850000x1_S850000_n_0_n_n_0_1_1 (select (cmpf (F := F) .ogt (Host.scatterAdd scatter_S50000_S850000x1_S850000_n_0_0_1 (broadcastInDim S50000 ![] bcast_S_S50000 (constant S_ .f32 0x00000000#32)) (broadcastInDim S850000x1 ![0] bcast_S850000_S850000x1_0 (concatenate S850000 0 [⟨S800000, (shapeCast _ (extractStridedSlice S1x800000 ![1, 0] (m ((c.tc : Thread nD τ).loc main_arg1)) slices_S2x800000_S1x800000_1_0) shapeCasts_S1x800000_S800000)⟩, ⟨S50000, (iotaInDim S50000 32 0)⟩] concatenates_S800000_S50000_S850000_d0)) (broadcastInDim S850000 ![] bcast_S_S850000 (constant S_ .f32 0x3F800000#32))) (broadcastInDim S50000 ![] bcast_S_S50000 (constant S_ .f32 0x00000000#32))) (Host.rsqrt (maximumf (Host.scatterAdd scatter_S50000_S850000x1_S850000_n_0_0_1 (broadcastInDim S50000 ![] bcast_S_S50000 (constant S_ .f32 0x00000000#32)) (broadcastInDim S850000x1 ![0] bcast_S850000_S850000x1_0 (concatenate S850000 0 [⟨S800000, (shapeCast _ (extractStridedSlice S1x800000 ![1, 0] (m ((c.tc : Thread nD τ).loc main_arg1)) slices_S2x800000_S1x800000_1_0) shapeCasts_S1x800000_S800000)⟩, ⟨S50000, (iotaInDim S50000 32 0)⟩] concatenates_S800000_S50000_S850000_d0)) (broadcastInDim S850000 ![] bcast_S_S850000 (constant S_ .f32 0x3F800000#32))) (broadcastInDim S50000 ![] bcast_S_S50000 (constant S_ .f32 0x2B8CBCCC#32)))) (broadcastInDim S50000 ![] bcast_S_S50000 (id (constant S_ .f32 0x00000000#32)))) (broadcastInDim S850000x1 ![0] bcast_S850000_S850000x1_0 (select (cmpi .slt (concatenate S850000 0 [⟨S800000, (shapeCast _ (extractStridedSlice S1x800000 ![1, 0] (m ((c.tc : Thread nD τ).loc main_arg1)) slices_S2x800000_S1x800000_1_0) shapeCasts_S1x800000_S800000)⟩, ⟨S50000, (iotaInDim S50000 32 0)⟩] concatenates_S800000_S50000_S850000_d0) (broadcastInDim S850000 ![] bcast_S_S850000 (constantI S_ 32 0#32))) (addi (concatenate S850000 0 [⟨S800000, (shapeCast _ (extractStridedSlice S1x800000 ![1, 0] (m ((c.tc : Thread nD τ).loc main_arg1)) slices_S2x800000_S1x800000_1_0) shapeCasts_S1x800000_S800000)⟩, ⟨S50000, (iotaInDim S50000 32 0)⟩] concatenates_S800000_S50000_S850000_d0) (broadcastInDim S850000 ![] bcast_S_S850000 (constantI S_ 32 50000#32))) (concatenate S850000 0 [⟨S800000, (shapeCast _ (extractStridedSlice S1x800000 ![1, 0] (m ((c.tc : Thread nD τ).loc main_arg1)) slices_S2x800000_S1x800000_1_0) shapeCasts_S1x800000_S800000)⟩, ⟨S50000, (iotaInDim S50000 32 0)⟩] concatenates_S800000_S50000_S850000_d0))))))))) (broadcastInDim S50000x128 ![0, 1] bcast_S1x128_S50000x128_0_1 (broadcastInDim S1x128 ![1] bcast_S128_S1x128_1 (m ((c.tc : Thread nD τ).loc main_arg5))))) (broadcastInDim S50000x128 ![] bcast_S_S50000x128 (constant S_ .f32 0x00000000#32))) (broadcastInDim S800000x1 ![0] bcast_S800000_S800000x1_0 (select (cmpi .slt (shapeCast _ (extractStridedSlice S1x800000 ![1, 0] (m ((c.tc : Thread nD τ).loc main_arg1)) slices_S2x800000_S1x800000_1_0) shapeCasts_S1x800000_S800000) (broadcastInDim S800000 ![] bcast_S_S800000 (constantI S_ 32 0#32))) (addi (shapeCast _ (extractStridedSlice S1x800000 ![1, 0] (m ((c.tc : Thread nD τ).loc main_arg1)) slices_S2x800000_S1x800000_1_0) shapeCasts_S1x800000_S800000) (broadcastInDim S800000 ![] bcast_S_S800000 (constantI S_ 32 50000#32))) (shapeCast _ (extractStridedSlice S1x800000 ![1, 0] (m ((c.tc : Thread nD τ).loc main_arg1)) slices_S2x800000_S1x800000_1_0) shapeCasts_S1x800000_S800000))))⟩] concatenates_S800000x128_S800000x128_S800000x256_d1) (m ((c.tc : Thread nD τ).loc main_arg6))) (broadcastInDim S800000x2 ![0, 1] bcast_S1x2_S800000x2_0_1 (broadcastInDim S1x2 ![1] bcast_S2_S1x2_1 (m ((c.tc : Thread nD τ).loc main_arg7))))))))

/-- `res_main_v92` by its position among the values @main returns, 1 counting from 0: the name for hand proofs to cite, since
    a re-print renumbers `main_v92`. An abbreviation: it unfolds to the `res_main_v92` that `run` states. -/
abbrev res_out1 (m : (ℓ : Loc nD τ sig) → Buf (Elt F) ℓ) (c : Dev nD) : Buf (Elt F) ((c.tc : Thread nD τ).loc main_v92) := res_main_v92 m c

set_option maxRecDepth 8192 in
/-- `main_v67`'s composed term of the arguments (named: it is long). -/
def res_main_v67 (m : (ℓ : Loc nD τ sig) → Buf (Elt F) ℓ) (c : Dev nD) : Buf (Elt F) ((c.tc : Thread nD τ).loc main_v67) :=
  maximumf (addf (Host.scatterAdd scatter_S50000x128_S850000x1_S850000x128_1_0_0_1 (broadcastInDim S50000x128 ![] bcast_S_S50000x128 (constant S_ .f32 0x00000000#32)) (broadcastInDim S850000x1 ![0] bcast_S850000_S850000x1_0 (concatenate S850000 0 [⟨S800000, (shapeCast _ (extractStridedSlice S1x800000 ![1, 0] (m ((c.tc : Thread nD τ).loc main_arg1)) slices_S2x800000_S1x800000_1_0) shapeCasts_S1x800000_S800000)⟩, ⟨S50000, (iotaInDim S50000 32 0)⟩] concatenates_S800000_S50000_S850000_d0)) (mulf (Host.gather gather_S50000x128_S850000x1_S850000x128_1_0_n_n_0_1_1128 (Host.dotGeneral dot_S50000x128_S128x128_S50000x128_1_0_0_1_n_n none (maximumf (addf (Host.scatterAdd scatter_S50000x128_S850000x1_S850000x128_1_0_0_1 (broadcastInDim S50000x128 ![] bcast_S_S50000x128 (constant S_ .f32 0x00000000#32)) (broadcastInDim S850000x1 ![0] bcast_S850000_S850000x1_0 (concatenate S850000 0 [⟨S800000, (shapeCast _ (extractStridedSlice S1x800000 ![1, 0] (m ((c.tc : Thread nD τ).loc main_arg1)) slices_S2x800000_S1x800000_1_0) shapeCasts_S1x800000_S800000)⟩, ⟨S50000, (iotaInDim S50000 32 0)⟩] concatenates_S800000_S50000_S850000_d0)) (mulf (Host.gather gather_S50000x128_S850000x1_S850000x128_1_0_n_n_0_1_1128 (Host.dotGeneral dot_S50000x128_S128x128_S50000x128_1_0_0_1_n_n none (m ((c.tc : Thread nD τ).loc main_arg0)) (m ((c.tc : Thread nD τ).loc main_arg2))) (broadcastInDim S850000x1 ![0] bcast_S850000_S850000x1_0 (select (cmpi .slt (concatenate S850000 0 [⟨S800000, (shapeCast _ (extractStridedSlice S1x800000 ![0, 0] (m ((c.tc : Thread nD τ).loc main_arg1)) slices_S2x800000_S1x800000_0_0) shapeCasts_S1x800000_S800000)⟩, ⟨S50000, (iotaInDim S50000 32 0)⟩] concatenates_S800000_S50000_S850000_d0) (broadcastInDim S850000 ![] bcast_S_S850000 (constantI S_ 32 0#32))) (addi (concatenate S850000 0 [⟨S800000, (shapeCast _ (extractStridedSlice S1x800000 ![0, 0] (m ((c.tc : Thread nD τ).loc main_arg1)) slices_S2x800000_S1x800000_0_0) shapeCasts_S1x800000_S800000)⟩, ⟨S50000, (iotaInDim S50000 32 0)⟩] concatenates_S800000_S50000_S850000_d0) (broadcastInDim S850000 ![] bcast_S_S850000 (constantI S_ 32 50000#32))) (concatenate S850000 0 [⟨S800000, (shapeCast _ (extractStridedSlice S1x800000 ![0, 0] (m ((c.tc : Thread nD τ).loc main_arg1)) slices_S2x800000_S1x800000_0_0) shapeCasts_S1x800000_S800000)⟩, ⟨S50000, (iotaInDim S50000 32 0)⟩] concatenates_S800000_S50000_S850000_d0)))) (broadcastInDim S850000x128 ![0, 1] bcast_S850000x1_S850000x128_0_1 (broadcastInDim S850000x1 ![0] bcast_S850000_S850000x1_0 (mulf (Host.gather gather_S50000_S850000x1_S850000_n_0_n_n_0_1_1 (select (cmpf (F := F) .ogt (Host.scatterAdd scatter_S50000_S850000x1_S850000_n_0_0_1 (broadcastInDim S50000 ![] bcast_S_S50000 (constant S_ .f32 0x00000000#32)) (broadcastInDim S850000x1 ![0] bcast_S850000_S850000x1_0 (concatenate S850000 0 [⟨S800000, (shapeCast _ (extractStridedSlice S1x800000 ![1, 0] (m ((c.tc : Thread nD τ).loc main_arg1)) slices_S2x800000_S1x800000_1_0) shapeCasts_S1x800000_S800000)⟩, ⟨S50000, (iotaInDim S50000 32 0)⟩] concatenates_S800000_S50000_S850000_d0)) (broadcastInDim S850000 ![] bcast_S_S850000 (constant S_ .f32 0x3F800000#32))) (broadcastInDim S50000 ![] bcast_S_S50000 (constant S_ .f32 0x00000000#32))) (Host.rsqrt (maximumf (Host.scatterAdd scatter_S50000_S850000x1_S850000_n_0_0_1 (broadcastInDim S50000 ![] bcast_S_S50000 (constant S_ .f32 0x00000000#32)) (broadcastInDim S850000x1 ![0] bcast_S850000_S850000x1_0 (concatenate S850000 0 [⟨S800000, (shapeCast _ (extractStridedSlice S1x800000 ![1, 0] (m ((c.tc : Thread nD τ).loc main_arg1)) slices_S2x800000_S1x800000_1_0) shapeCasts_S1x800000_S800000)⟩, ⟨S50000, (iotaInDim S50000 32 0)⟩] concatenates_S800000_S50000_S850000_d0)) (broadcastInDim S850000 ![] bcast_S_S850000 (constant S_ .f32 0x3F800000#32))) (broadcastInDim S50000 ![] bcast_S_S50000 (constant S_ .f32 0x2B8CBCCC#32)))) (broadcastInDim S50000 ![] bcast_S_S50000 (id (constant S_ .f32 0x00000000#32)))) (broadcastInDim S850000x1 ![0] bcast_S850000_S850000x1_0 (select (cmpi .slt (concatenate S850000 0 [⟨S800000, (shapeCast _ (extractStridedSlice S1x800000 ![0, 0] (m ((c.tc : Thread nD τ).loc main_arg1)) slices_S2x800000_S1x800000_0_0) shapeCasts_S1x800000_S800000)⟩, ⟨S50000, (iotaInDim S50000 32 0)⟩] concatenates_S800000_S50000_S850000_d0) (broadcastInDim S850000 ![] bcast_S_S850000 (constantI S_ 32 0#32))) (addi (concatenate S850000 0 [⟨S800000, (shapeCast _ (extractStridedSlice S1x800000 ![0, 0] (m ((c.tc : Thread nD τ).loc main_arg1)) slices_S2x800000_S1x800000_0_0) shapeCasts_S1x800000_S800000)⟩, ⟨S50000, (iotaInDim S50000 32 0)⟩] concatenates_S800000_S50000_S850000_d0) (broadcastInDim S850000 ![] bcast_S_S850000 (constantI S_ 32 50000#32))) (concatenate S850000 0 [⟨S800000, (shapeCast _ (extractStridedSlice S1x800000 ![0, 0] (m ((c.tc : Thread nD τ).loc main_arg1)) slices_S2x800000_S1x800000_0_0) shapeCasts_S1x800000_S800000)⟩, ⟨S50000, (iotaInDim S50000 32 0)⟩] concatenates_S800000_S50000_S850000_d0)))) (Host.gather gather_S50000_S850000x1_S850000_n_0_n_n_0_1_1 (select (cmpf (F := F) .ogt (Host.scatterAdd scatter_S50000_S850000x1_S850000_n_0_0_1 (broadcastInDim S50000 ![] bcast_S_S50000 (constant S_ .f32 0x00000000#32)) (broadcastInDim S850000x1 ![0] bcast_S850000_S850000x1_0 (concatenate S850000 0 [⟨S800000, (shapeCast _ (extractStridedSlice S1x800000 ![1, 0] (m ((c.tc : Thread nD τ).loc main_arg1)) slices_S2x800000_S1x800000_1_0) shapeCasts_S1x800000_S800000)⟩, ⟨S50000, (iotaInDim S50000 32 0)⟩] concatenates_S800000_S50000_S850000_d0)) (broadcastInDim S850000 ![] bcast_S_S850000 (constant S_ .f32 0x3F800000#32))) (broadcastInDim S50000 ![] bcast_S_S50000 (constant S_ .f32 0x00000000#32))) (Host.rsqrt (maximumf (Host.scatterAdd scatter_S50000_S850000x1_S850000_n_0_0_1 (broadcastInDim S50000 ![] bcast_S_S50000 (constant S_ .f32 0x00000000#32)) (broadcastInDim S850000x1 ![0] bcast_S850000_S850000x1_0 (concatenate S850000 0 [⟨S800000, (shapeCast _ (extractStridedSlice S1x800000 ![1, 0] (m ((c.tc : Thread nD τ).loc main_arg1)) slices_S2x800000_S1x800000_1_0) shapeCasts_S1x800000_S800000)⟩, ⟨S50000, (iotaInDim S50000 32 0)⟩] concatenates_S800000_S50000_S850000_d0)) (broadcastInDim S850000 ![] bcast_S_S850000 (constant S_ .f32 0x3F800000#32))) (broadcastInDim S50000 ![] bcast_S_S50000 (constant S_ .f32 0x2B8CBCCC#32)))) (broadcastInDim S50000 ![] bcast_S_S50000 (id (constant S_ .f32 0x00000000#32)))) (broadcastInDim S850000x1 ![0] bcast_S850000_S850000x1_0 (select (cmpi .slt (concatenate S850000 0 [⟨S800000, (shapeCast _ (extractStridedSlice S1x800000 ![1, 0] (m ((c.tc : Thread nD τ).loc main_arg1)) slices_S2x800000_S1x800000_1_0) shapeCasts_S1x800000_S800000)⟩, ⟨S50000, (iotaInDim S50000 32 0)⟩] concatenates_S800000_S50000_S850000_d0) (broadcastInDim S850000 ![] bcast_S_S850000 (constantI S_ 32 0#32))) (addi (concatenate S850000 0 [⟨S800000, (shapeCast _ (extractStridedSlice S1x800000 ![1, 0] (m ((c.tc : Thread nD τ).loc main_arg1)) slices_S2x800000_S1x800000_1_0) shapeCasts_S1x800000_S800000)⟩, ⟨S50000, (iotaInDim S50000 32 0)⟩] concatenates_S800000_S50000_S850000_d0) (broadcastInDim S850000 ![] bcast_S_S850000 (constantI S_ 32 50000#32))) (concatenate S850000 0 [⟨S800000, (shapeCast _ (extractStridedSlice S1x800000 ![1, 0] (m ((c.tc : Thread nD τ).loc main_arg1)) slices_S2x800000_S1x800000_1_0) shapeCasts_S1x800000_S800000)⟩, ⟨S50000, (iotaInDim S50000 32 0)⟩] concatenates_S800000_S50000_S850000_d0))))))))) (broadcastInDim S50000x128 ![0, 1] bcast_S1x128_S50000x128_0_1 (broadcastInDim S1x128 ![1] bcast_S128_S1x128_1 (m ((c.tc : Thread nD τ).loc main_arg3))))) (broadcastInDim S50000x128 ![] bcast_S_S50000x128 (constant S_ .f32 0x00000000#32))) (m ((c.tc : Thread nD τ).loc main_arg4))) (broadcastInDim S850000x1 ![0] bcast_S850000_S850000x1_0 (select (cmpi .slt (concatenate S850000 0 [⟨S800000, (shapeCast _ (extractStridedSlice S1x800000 ![0, 0] (m ((c.tc : Thread nD τ).loc main_arg1)) slices_S2x800000_S1x800000_0_0) shapeCasts_S1x800000_S800000)⟩, ⟨S50000, (iotaInDim S50000 32 0)⟩] concatenates_S800000_S50000_S850000_d0) (broadcastInDim S850000 ![] bcast_S_S850000 (constantI S_ 32 0#32))) (addi (concatenate S850000 0 [⟨S800000, (shapeCast _ (extractStridedSlice S1x800000 ![0, 0] (m ((c.tc : Thread nD τ).loc main_arg1)) slices_S2x800000_S1x800000_0_0) shapeCasts_S1x800000_S800000)⟩, ⟨S50000, (iotaInDim S50000 32 0)⟩] concatenates_S800000_S50000_S850000_d0) (broadcastInDim S850000 ![] bcast_S_S850000 (constantI S_ 32 50000#32))) (concatenate S850000 0 [⟨S800000, (shapeCast _ (extractStridedSlice S1x800000 ![0, 0] (m ((c.tc : Thread nD τ).loc main_arg1)) slices_S2x800000_S1x800000_0_0) shapeCasts_S1x800000_S800000)⟩, ⟨S50000, (iotaInDim S50000 32 0)⟩] concatenates_S800000_S50000_S850000_d0)))) (broadcastInDim S850000x128 ![0, 1] bcast_S850000x1_S850000x128_0_1 (broadcastInDim S850000x1 ![0] bcast_S850000_S850000x1_0 (mulf (Host.gather gather_S50000_S850000x1_S850000_n_0_n_n_0_1_1 (select (cmpf (F := F) .ogt (Host.scatterAdd scatter_S50000_S850000x1_S850000_n_0_0_1 (broadcastInDim S50000 ![] bcast_S_S50000 (constant S_ .f32 0x00000000#32)) (broadcastInDim S850000x1 ![0] bcast_S850000_S850000x1_0 (concatenate S850000 0 [⟨S800000, (shapeCast _ (extractStridedSlice S1x800000 ![1, 0] (m ((c.tc : Thread nD τ).loc main_arg1)) slices_S2x800000_S1x800000_1_0) shapeCasts_S1x800000_S800000)⟩, ⟨S50000, (iotaInDim S50000 32 0)⟩] concatenates_S800000_S50000_S850000_d0)) (broadcastInDim S850000 ![] bcast_S_S850000 (constant S_ .f32 0x3F800000#32))) (broadcastInDim S50000 ![] bcast_S_S50000 (constant S_ .f32 0x00000000#32))) (Host.rsqrt (maximumf (Host.scatterAdd scatter_S50000_S850000x1_S850000_n_0_0_1 (broadcastInDim S50000 ![] bcast_S_S50000 (constant S_ .f32 0x00000000#32)) (broadcastInDim S850000x1 ![0] bcast_S850000_S850000x1_0 (concatenate S850000 0 [⟨S800000, (shapeCast _ (extractStridedSlice S1x800000 ![1, 0] (m ((c.tc : Thread nD τ).loc main_arg1)) slices_S2x800000_S1x800000_1_0) shapeCasts_S1x800000_S800000)⟩, ⟨S50000, (iotaInDim S50000 32 0)⟩] concatenates_S800000_S50000_S850000_d0)) (broadcastInDim S850000 ![] bcast_S_S850000 (constant S_ .f32 0x3F800000#32))) (broadcastInDim S50000 ![] bcast_S_S50000 (constant S_ .f32 0x2B8CBCCC#32)))) (broadcastInDim S50000 ![] bcast_S_S50000 (id (constant S_ .f32 0x00000000#32)))) (broadcastInDim S850000x1 ![0] bcast_S850000_S850000x1_0 (select (cmpi .slt (concatenate S850000 0 [⟨S800000, (shapeCast _ (extractStridedSlice S1x800000 ![0, 0] (m ((c.tc : Thread nD τ).loc main_arg1)) slices_S2x800000_S1x800000_0_0) shapeCasts_S1x800000_S800000)⟩, ⟨S50000, (iotaInDim S50000 32 0)⟩] concatenates_S800000_S50000_S850000_d0) (broadcastInDim S850000 ![] bcast_S_S850000 (constantI S_ 32 0#32))) (addi (concatenate S850000 0 [⟨S800000, (shapeCast _ (extractStridedSlice S1x800000 ![0, 0] (m ((c.tc : Thread nD τ).loc main_arg1)) slices_S2x800000_S1x800000_0_0) shapeCasts_S1x800000_S800000)⟩, ⟨S50000, (iotaInDim S50000 32 0)⟩] concatenates_S800000_S50000_S850000_d0) (broadcastInDim S850000 ![] bcast_S_S850000 (constantI S_ 32 50000#32))) (concatenate S850000 0 [⟨S800000, (shapeCast _ (extractStridedSlice S1x800000 ![0, 0] (m ((c.tc : Thread nD τ).loc main_arg1)) slices_S2x800000_S1x800000_0_0) shapeCasts_S1x800000_S800000)⟩, ⟨S50000, (iotaInDim S50000 32 0)⟩] concatenates_S800000_S50000_S850000_d0)))) (Host.gather gather_S50000_S850000x1_S850000_n_0_n_n_0_1_1 (select (cmpf (F := F) .ogt (Host.scatterAdd scatter_S50000_S850000x1_S850000_n_0_0_1 (broadcastInDim S50000 ![] bcast_S_S50000 (constant S_ .f32 0x00000000#32)) (broadcastInDim S850000x1 ![0] bcast_S850000_S850000x1_0 (concatenate S850000 0 [⟨S800000, (shapeCast _ (extractStridedSlice S1x800000 ![1, 0] (m ((c.tc : Thread nD τ).loc main_arg1)) slices_S2x800000_S1x800000_1_0) shapeCasts_S1x800000_S800000)⟩, ⟨S50000, (iotaInDim S50000 32 0)⟩] concatenates_S800000_S50000_S850000_d0)) (broadcastInDim S850000 ![] bcast_S_S850000 (constant S_ .f32 0x3F800000#32))) (broadcastInDim S50000 ![] bcast_S_S50000 (constant S_ .f32 0x00000000#32))) (Host.rsqrt (maximumf (Host.scatterAdd scatter_S50000_S850000x1_S850000_n_0_0_1 (broadcastInDim S50000 ![] bcast_S_S50000 (constant S_ .f32 0x00000000#32)) (broadcastInDim S850000x1 ![0] bcast_S850000_S850000x1_0 (concatenate S850000 0 [⟨S800000, (shapeCast _ (extractStridedSlice S1x800000 ![1, 0] (m ((c.tc : Thread nD τ).loc main_arg1)) slices_S2x800000_S1x800000_1_0) shapeCasts_S1x800000_S800000)⟩, ⟨S50000, (iotaInDim S50000 32 0)⟩] concatenates_S800000_S50000_S850000_d0)) (broadcastInDim S850000 ![] bcast_S_S850000 (constant S_ .f32 0x3F800000#32))) (broadcastInDim S50000 ![] bcast_S_S50000 (constant S_ .f32 0x2B8CBCCC#32)))) (broadcastInDim S50000 ![] bcast_S_S50000 (id (constant S_ .f32 0x00000000#32)))) (broadcastInDim S850000x1 ![0] bcast_S850000_S850000x1_0 (select (cmpi .slt (concatenate S850000 0 [⟨S800000, (shapeCast _ (extractStridedSlice S1x800000 ![1, 0] (m ((c.tc : Thread nD τ).loc main_arg1)) slices_S2x800000_S1x800000_1_0) shapeCasts_S1x800000_S800000)⟩, ⟨S50000, (iotaInDim S50000 32 0)⟩] concatenates_S800000_S50000_S850000_d0) (broadcastInDim S850000 ![] bcast_S_S850000 (constantI S_ 32 0#32))) (addi (concatenate S850000 0 [⟨S800000, (shapeCast _ (extractStridedSlice S1x800000 ![1, 0] (m ((c.tc : Thread nD τ).loc main_arg1)) slices_S2x800000_S1x800000_1_0) shapeCasts_S1x800000_S800000)⟩, ⟨S50000, (iotaInDim S50000 32 0)⟩] concatenates_S800000_S50000_S850000_d0) (broadcastInDim S850000 ![] bcast_S_S850000 (constantI S_ 32 50000#32))) (concatenate S850000 0 [⟨S800000, (shapeCast _ (extractStridedSlice S1x800000 ![1, 0] (m ((c.tc : Thread nD τ).loc main_arg1)) slices_S2x800000_S1x800000_1_0) shapeCasts_S1x800000_S800000)⟩, ⟨S50000, (iotaInDim S50000 32 0)⟩] concatenates_S800000_S50000_S850000_d0))))))))) (broadcastInDim S50000x128 ![0, 1] bcast_S1x128_S50000x128_0_1 (broadcastInDim S1x128 ![1] bcast_S128_S1x128_1 (m ((c.tc : Thread nD τ).loc main_arg5))))) (broadcastInDim S50000x128 ![] bcast_S_S50000x128 (constant S_ .f32 0x00000000#32))

/-- `res_main_v67` by its position among the values @main returns, 0 counting from 0: the name for hand proofs to cite, since
    a re-print renumbers `main_v67`. An abbreviation: it unfolds to the `res_main_v67` that `run` states. -/
abbrev res_out0 (m : (ℓ : Loc nD τ sig) → Buf (Elt F) ℓ) (c : Dev nD) : Buf (Elt F) ((c.tc : Thread nD τ).loc main_v67) := res_main_v67 m c

end Cert.ReferenceIdeal.Value

end
-- ==== Proof.RefRunH.lean ====
/-
  The run of the reference's @main read back, chunk by chunk.

  @main is a straight line of 120 host operations (two called functions' operations standing in their calls' places).
  The line is cut into five chunks — before each concatenate, and after the values `main_v31` and `main_v67` — listed
  with their per-operation facts in proof/Proof/RefRunHOps.lean. Here:
  * `ops` is the chunks one after the other, and @main is the line of them (`main_eq`);
  * every operation touches TensorCore references only (`ops_sub`) and determines its results (`ops_fresh`), chunk
    by chunk;
  * `lev1` … `lev5` are the device's buffer contents after one, two, … five chunks, and the contents after the whole
    line are `lev5` (`after_ops`); a reference a chunk does not write passes through it unchanged (`levK_keep`);
  * no operation writes an argument (`lev5_arg`), and the two results' buffers end at their composed terms of the
    arguments (`lev5_main_v67`, `lev5_main_v92`);
  * `run`: every weakly fair execution of @main terminates with the two results at those terms and the eight arguments
    unchanged.
-/
import proofs.«402049_j87351044866139_2_alg».proof.Proof.RefRunHOps
import Idealize.ShloMosaic.Lib.StableHlo.Run
import Idealize.ShloMosaic.Lib.Pipeline.Frame
import Idealize.ShloMosaic.Lib.Pipeline.Regions

noncomputable section

namespace Cert.ReferenceIdeal.Value

open Cert.ReferenceIdeal Cert.ReferenceIdeal.Gen Idealize.ShloMosaic Idealize.ShloMosaic.TcCoe Idealize.SL.Sem Idealize.ShloMosaic.StableHlo

variable {F : FTy → Type} [FloatOps F]

/-! ## The line -/

/-- @main's 120 operations, in order: the five chunks one after the other. -/
abbrev ops : List (HloOp τ sig (Elt F)) :=
  ops_c0 ++ (ops_c1 ++ (ops_c2 ++ (ops_c3 ++ ops_c4)))

set_option maxRecDepth 8192 in
set_option maxHeartbeats 4000000 in
/-- @main is the line of its operations. -/
theorem main_eq (c : Dev nD) : main (F := F) c = seq ops := by chain_rfl

theorem scopedRefs_eq : (Finset.univ.filter fun b : Ref sig .tc => b.isScoped) = ∅ := by decide
theorem scopedSems_eq : (Finset.univ.filter fun sm : SemLoc sig => sm.isScoped .tc) = ∅ := by decide

/-- Every operation touches TensorCore references only: chunk by chunk. -/
theorem ops_sub : (ops : List (HloOp τ sig (Elt F))).Forall fun op => op.bufs ⊆ tcRefs τ sig :=
  List.forall_iff_forall_mem.mpr fun op h => by
    simp only [ops, List.mem_append] at h
    rcases h with h | h | h | h | h
    exacts [List.forall_iff_forall_mem.mp ops_c0_sub op h, List.forall_iff_forall_mem.mp ops_c1_sub op h,
      List.forall_iff_forall_mem.mp ops_c2_sub op h, List.forall_iff_forall_mem.mp ops_c3_sub op h,
      List.forall_iff_forall_mem.mp ops_c4_sub op h]

/-- Every operation determines its results: chunk by chunk. -/
theorem ops_fresh : ∀ op ∈ (ops : List (HloOp τ sig (Elt F))), op.fresh = ∅ := fun op h => by
  simp only [ops, List.mem_append] at h
  rcases h with h | h | h | h | h
  exacts [List.forall_iff_forall_mem.mp ops_c0_fresh op h, List.forall_iff_forall_mem.mp ops_c1_fresh op h,
    List.forall_iff_forall_mem.mp ops_c2_fresh op h, List.forall_iff_forall_mem.mp ops_c3_fresh op h,
    List.forall_iff_forall_mem.mp ops_c4_fresh op h]

/-! ## The buffer contents after each chunk -/

def lev1 (V0 : Valuation τ sig (Elt F)) : Valuation τ sig (Elt F) := after ops_c0 V0
def lev2 (V0 : Valuation τ sig (Elt F)) : Valuation τ sig (Elt F) := after ops_c1 (lev1 V0)
def lev3 (V0 : Valuation τ sig (Elt F)) : Valuation τ sig (Elt F) := after ops_c2 (lev2 V0)
def lev4 (V0 : Valuation τ sig (Elt F)) : Valuation τ sig (Elt F) := after ops_c3 (lev3 V0)
def lev5 (V0 : Valuation τ sig (Elt F)) : Valuation τ sig (Elt F) := after ops_c4 (lev4 V0)

/-- The contents after the whole line are the contents after the fifth chunk. -/
theorem after_ops (V0 : Valuation τ sig (Elt F)) : after ops V0 = lev5 V0 := by
  simp only [ops, StableHlo.after_append]
  rfl

/-- A reference a chunk does not write keeps its contents through it. -/
theorem lev1_keep (V0 : Valuation τ sig (Elt F)) (r : Ref sig .tc) (h : r ∉ ops_c0_W) :
    lev1 V0 (Proc.devRef .tc r) = V0 (Proc.devRef .tc r) := after_of_writes_sub ops_c0 _ ops_c0_writes h
theorem lev2_keep (V0 : Valuation τ sig (Elt F)) (r : Ref sig .tc) (h : r ∉ ops_c1_W) :
    lev2 V0 (Proc.devRef .tc r) = lev1 V0 (Proc.devRef .tc r) := after_of_writes_sub ops_c1 _ ops_c1_writes h
theorem lev3_keep (V0 : Valuation τ sig (Elt F)) (r : Ref sig .tc) (h : r ∉ ops_c2_W) :
    lev3 V0 (Proc.devRef .tc r) = lev2 V0 (Proc.devRef .tc r) := after_of_writes_sub ops_c2 _ ops_c2_writes h
theorem lev4_keep (V0 : Valuation τ sig (Elt F)) (r : Ref sig .tc) (h : r ∉ ops_c3_W) :
    lev4 V0 (Proc.devRef .tc r) = lev3 V0 (Proc.devRef .tc r) := after_of_writes_sub ops_c3 _ ops_c3_writes h
theorem lev5_keep (V0 : Valuation τ sig (Elt F)) (r : Ref sig .tc) (h : r ∉ ops_c4_W) :
    lev5 V0 (Proc.devRef .tc r) = lev4 V0 (Proc.devRef .tc r) := after_of_writes_sub ops_c4 _ ops_c4_writes h

/-- A reference no chunk writes — every argument — ends as it started. -/
theorem lev5_arg (V0 : Valuation τ sig (Elt F)) (r : Ref sig .tc) (h0 : r ∉ ops_c0_W) (h1 : r ∉ ops_c1_W) (h2 : r ∉ ops_c2_W)
    (h3 : r ∉ ops_c3_W) (h4 : r ∉ ops_c4_W) : lev5 V0 (Proc.devRef .tc r) = V0 (Proc.devRef .tc r) :=
  (lev5_keep V0 r h4).trans ((lev4_keep V0 r h3).trans ((lev3_keep V0 r h2).trans ((lev2_keep V0 r h1).trans (lev1_keep V0 r h0))))

/-! ## The two results -/

set_option maxRecDepth 65536 in
set_option maxHeartbeats 4000000 in
/-- The first result's buffer ends at its composed term of the arguments: the fold of the operations' results, evaluated. -/
theorem lev5_main_v67 (m : (ℓ : Loc nD τ sig) → Buf (Elt F) ℓ) (c : Dev nD) :
    lev5 (launchContents m c) (Proc.devRef .tc main_v67) = res_main_v67 m c := by
  unfold res_main_v67; chain_rfl

set_option maxRecDepth 65536 in
set_option maxHeartbeats 4000000 in
/-- The second result's likewise. -/
theorem lev5_main_v92 (m : (ℓ : Loc nD τ sig) → Buf (Elt F) ℓ) (c : Dev nD) :
    lev5 (launchContents m c) (Proc.devRef .tc main_v92) = res_main_v92 m c := by
  unfold res_main_v92; chain_rfl

/-! ## The run -/

set_option maxRecDepth 8192 in
/-- On every device, for any float values, from any memory with zero counters: every weakly fair execution of
    @main terminates with each result at the operations' composed term of the arguments and the arguments
    unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v67) = res_main_v67 m c
      ∧ r.2.mem ((c.tc : Thread nD τ).loc main_v92) = res_main_v92 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => ⟨(h c main_v67).trans ((congrFun (after_ops _) _).trans (lev5_main_v67 m c)),
      (h c main_v92).trans ((congrFun (after_ops _) _).trans (lev5_main_v92 m c)),
      (h c main_arg0).trans ((congrFun (after_ops _) _).trans (lev5_arg _ main_arg0 (by decide) (by decide) (by decide) (by decide) (by decide))),
      (h c main_arg1).trans ((congrFun (after_ops _) _).trans (lev5_arg _ main_arg1 (by decide) (by decide) (by decide) (by decide) (by decide))),
      (h c main_arg2).trans ((congrFun (after_ops _) _).trans (lev5_arg _ main_arg2 (by decide) (by decide) (by decide) (by decide) (by decide))),
      (h c main_arg3).trans ((congrFun (after_ops _) _).trans (lev5_arg _ main_arg3 (by decide) (by decide) (by decide) (by decide) (by decide))),
      (h c main_arg4).trans ((congrFun (after_ops _) _).trans (lev5_arg _ main_arg4 (by decide) (by decide) (by decide) (by decide) (by decide))),
      (h c main_arg5).trans ((congrFun (after_ops _) _).trans (lev5_arg _ main_arg5 (by decide) (by decide) (by decide) (by decide) (by decide))),
      (h c main_arg6).trans ((congrFun (after_ops _) _).trans (lev5_arg _ main_arg6 (by decide) (by decide) (by decide) (by decide) (by decide))),
      (h c main_arg7).trans ((congrFun (after_ops _) _).trans (lev5_arg _ main_arg7 (by decide) (by decide) (by decide) (by decide) (by decide)))⟩)
    (run_seq scopedRefs_eq scopedSems_eq defs main (fun _ => ops) main_eq (fun _ => ops_sub) m ρ (fun _ => ops_fresh))

end Cert.ReferenceIdeal.Value

end
-- ==== Proof.GatherRead.lean ====
/- A gather along the leading axis, read at an index.

   The operand is a vector of N entries, or a table of N rows of C entries; the start indices are one column of R
   words; entry r (row r) of the result is the operand's entry (row) at the r-th word, the word read as a signed
   number and clamped into [0, N - 1]. -/
import Idealize.ShloMosaic.PureOps
import Idealize.ShloMosaic.Lib.ValueIdx

noncomputable section

namespace Cert.GatherRead

open Idealize.ShloMosaic Idealize.ShloMosaic.ValueIdx

variable {α : Type}

/-- The dimension numbers of a vector read at a column of index words. -/
abbrev vecDims (N R : Nat) (wf : GatherDims.WF ⟨1, ![N]⟩ ⟨2, ![R, 1]⟩ ⟨1, ![R]⟩ [] [0] [] [0] [] 1 ![1]) :
    GatherDims ⟨1, ![N]⟩ ⟨2, ![R, 1]⟩ ⟨1, ![R]⟩ where
  offsetDims := []
  collapsedSliceDims := [0]
  operandBatchingDims := []
  startIndicesBatchingDims := []
  startIndexMap := [0]
  indexVectorDim := 1
  sliceSizes := ![1]
  wf := wf

/-- The dimension numbers of a table's rows read at a column of index words. -/
abbrev rowDims (N C R : Nat) (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- Entry r of the gathered vector: the operand at the r-th word. -/
theorem gather_vec_apply {N R w : Nat} (hN : 0 < N)
    (wf : GatherDims.WF ⟨1, ![N]⟩ ⟨2, ![R, 1]⟩ ⟨1, ![R]⟩ [] [0] [] [0] [] 1 ![1])
    (x : (⟨1, ![N]⟩ : Shape).Idx → α) (idx : IVec ⟨2, ![R, 1]⟩ w) (r : Fin R) :
    Host.gather (vecDims N R wf) x idx (ix1 r) = x (ix1 ⟨min (idx (ix2 r 0)).toInt.toNat (N - 1), by omega⟩) := by
  unfold Host.gather
  congr 1
  funext a
  obtain rfl : a = 0 := Subsingleton.elim _ _
  refine Fin.ext ?_
  show (vecDims N R wf).start (ix1 r) idx 0 + (vecDims N R wf).batchCoord (ix1 r) 0 + (vecDims N R wf).offCoord (ix1 r) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecDims N R wf).startIndexMap from List.mem_singleton.mpr rfl)]
  have hsi : (vecDims N R wf).siIdx (ix1 r) ⟨List.idxOf (0 : Fin 1) (vecDims N R wf).startIndexMap,
      List.idxOf_lt_length_iff.2 (List.mem_singleton.mpr rfl)⟩ = ix2 r 0 := by
    funext b; refine Fin.ext ?_
    match b with
    | ⟨0, _⟩ => rfl
    | ⟨1, _⟩ => rfl
  rw [hsi]
  rfl

/-- The row coordinate of the operand index: the r-th word, clamped. -/
theorem rows_axis0 {N C R w : Nat}
    (wf : GatherDims.WF ⟨2, ![N, C]⟩ ⟨2, ![R, 1]⟩ ⟨2, ![R, C]⟩ [1] [0] [] [0] [] 1 ![1, C])
    (idx : IVec ⟨2, ![R, 1]⟩ w) (r : Fin R) (c : Fin C) :
    ((rowDims N C R wf).operandIdx (ix2 r c) idx 0).val = min (idx (ix2 r 0)).toInt.toNat (N - 1) := by
  show (rowDims N C R wf).start (ix2 r c) idx 0 + (rowDims N C R wf).batchCoord (ix2 r c) 0 + (rowDims N C R wf).offCoord (ix2 r c) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 2) ∈ (rowDims N C R wf).startIndexMap from List.mem_singleton.mpr rfl)]
  have hsi : (rowDims N C R wf).siIdx (ix2 r c) ⟨List.idxOf (0 : Fin 2) (rowDims N C R wf).startIndexMap,
      List.idxOf_lt_length_iff.2 (List.mem_singleton.mpr rfl)⟩ = ix2 r 0 := by
    funext b; refine Fin.ext ?_
    match b with
    | ⟨0, _⟩ => rfl
    | ⟨1, _⟩ => rfl
  rw [hsi]
  rfl

/-- The column coordinate of the operand index: the result's own. -/
theorem rows_axis1 {N C R w : Nat}
    (wf : GatherDims.WF ⟨2, ![N, C]⟩ ⟨2, ![R, 1]⟩ ⟨2, ![R, C]⟩ [1] [0] [] [0] [] 1 ![1, C])
    (idx : IVec ⟨2, ![R, 1]⟩ w) (r : Fin R) (c : Fin C) :
    ((rowDims N C R wf).operandIdx (ix2 r c) idx 1).val = c.val := by
  show (rowDims N C R wf).start (ix2 r c) idx 1 + (rowDims N C R wf).batchCoord (ix2 r c) 1 + (rowDims N C R wf).offCoord (ix2 r c) 1 = _
  rw [GatherDims.batchCoord_eq_zero _ _ _ List.not_mem_nil]
  have hs : (rowDims N C R wf).start (ix2 r c) idx 1 = 0 := by
    unfold GatherDims.start
    rw [dif_neg (show ¬ (1 : Fin 2) ∈ (rowDims N C R wf).startIndexMap from (by decide : ¬ (1 : Fin 2) ∈ ([0] : List (Fin 2))))]
  rw [hs]
  simp only [Nat.zero_add, Nat.add_zero]
  unfold GatherDims.offCoord
  rw [dif_pos (show (1 : Fin 2) ∈ (rowDims N C R wf).sKept from
    (GatherDims.mem_sKept _ _).mpr ⟨(by decide : ¬ (1 : Fin 2) ∈ ([0] : List (Fin 2))), List.not_mem_nil⟩)]
  rfl

/-- Entry (r, c) of the gathered rows: the operand's row at the r-th word, at column c. -/
theorem gather_rows_apply {N C R w : Nat} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (r : Fin R) (c : Fin C) :
    Host.gather (rowDims N C R wf) x idx (ix2 r c) = x (ix2 ⟨min (idx (ix2 r 0)).toInt.toNat (N - 1), by omega⟩ c) := by
  unfold Host.gather
  congr 1
  funext a
  refine Fin.ext ?_
  match a with
  | ⟨0, _⟩ => exact rows_axis0 wf idx r c
  | ⟨1, _⟩ => exact rows_axis1 wf idx r c

end Cert.GatherRead

end
-- ==== Proof.RefValue.lean ====
/- The reference program computes the specification.

   Its index, degree and weight stages are the specification's own terms. What differs is read at an index:
   a product of matrices is the sum over the contracted axis; a gather of rows at the index words, when every
   word names a node, is the table's row at that node (the wrap of negative words changes nothing and the clamp
   is idle); the bias is spread along the rows; the contraction with the stacked pair of end rows splits into
   the upper and the lower half of the weights; 1 / (1 + exp (-x)) is the logistic function. -/
import proofs.«402049_j87351044866139_2_alg».proof.Proof.RefReadP
import proofs.«402049_j87351044866139_2_alg».proof.Proof.Spec
import proofs.«402049_j87351044866139_2_alg».proof.Proof.GatherRead

noncomputable section

open scoped BigOperators

namespace Cert.ReferenceIdeal.RefValue

open Cert.ReferenceIdeal Cert.ReferenceIdeal.Gen Cert.ReferenceIdeal.Read Idealize.ShloMosaic Idealize.ShloMosaic.ValueIdx Idealize.ShloMosaic.TcCoe Idealize.SL.Sem

/-! ## The shared stages: the same terms -/

theorem srcRow_eq (x1 : IVec S2x800000 32) : val_main_v1 (F := Ideal) x1 = Cert.Spec.srcRow x1 := rfl
theorem dstRow_eq (x1 : IVec S2x800000 32) : val_main_v3 (F := Ideal) x1 = Cert.Spec.dstRow x1 := rfl
theorem srcSl_eq (x1 : IVec S2x800000 32) : val_main_v5 (F := Ideal) x1 = Cert.Spec.srcSl x1 := rfl
theorem dstSl_eq (x1 : IVec S2x800000 32) : val_main_v6 (F := Ideal) x1 = Cert.Spec.dstSl x1 := rfl
theorem deg_eq (x1 : IVec S2x800000 32) : val_main_v10 (F := Ideal) x1 = Cert.Spec.deg x1 := rfl
theorem dinv_eq (x1 : IVec S2x800000 32) : val_main_v16 (F := Ideal) x1 = Cert.Spec.dinv x1 := by
  funext i
  rw [val_main_v16_apply, val_main_v12_apply, val_main_v15_apply, val_main_v14_apply, val_main_v11_apply, val_main_v13_apply,
    val_main_call0_v1_apply, val_main_call0_v0_apply, val_main_cst_1_apply, val_main_cst_2_apply, val_main_cst_3_apply, deg_eq]
  simp only [Cert.Spec.dinv, Ideal.cmpf_def, Ideal.hostUnary_rsqrt_def, Ideal.maximumf_def, Ideal.ofBits_def]
theorem norm_eq (x1 : IVec S2x800000 32) : val_main_v31 (F := Ideal) x1 = Cert.Spec.norm x1 := by
  unfold val_main_v31 val_main_v23 val_main_v30 val_main_v22 val_main_v29
  rw [dinv_eq]
  rfl

/-! ## A product of matrices at an index -/

theorem matmul_eq (X : FVec Ideal S50000x128 .f32) (W : FVec Ideal S128x128 .f32) :
    Host.dotGeneral dot_S50000x128_S128x128_S50000x128_1_0_0_1_n_n none X W = Cert.Spec.matmul X W := by
  funext i
  refine (val_main_v32_apply X W i).trans ?_
  refine Finset.sum_congr rfl fun k _ => ?_
  have el : lidx_main_v32 i k = ix2 (i 0) k := funext fun a => match a with
    | ⟨0, _⟩ => rfl
    | ⟨1, _⟩ => rfl
  have er : ridx_main_v32 i k = ix2 k (i 1) := funext fun a => match a with
    | ⟨0, _⟩ => rfl
    | ⟨1, _⟩ => rfl
  rw [el, er]
  rfl

/-! ## The gathers of rows at an index -/

theorem col_L_apply {α : Type} (v : S850000.Idx → α) (r : Fin 850000) :
    broadcastInDim S850000x1 ![0] bcast_S850000_S850000x1_0 v (ix2 r 0) = v (ix1 r) :=
  broadcastInDim_apply _ bcast_S850000_S850000x1_0 v (ix2 r 0) (ix1 r) (fun a => match a with
    | ⟨0, _⟩ => by show r.val = if (850000 : Nat) = 1 then 0 else r.val; rw [if_neg (by decide)])

theorem col_E_apply {α : Type} (v : S800000.Idx → α) (r : Fin 800000) :
    broadcastInDim S800000x1 ![0] bcast_S800000_S800000x1_0 v (ix2 r 0) = v (ix1 r) :=
  broadcastInDim_apply _ bcast_S800000_S800000x1_0 v (ix2 r 0) (ix1 r) (fun a => match a with
    | ⟨0, _⟩ => by show r.val = if (800000 : Nat) = 1 then 0 else r.val; rw [if_neg (by decide)])

/-- The rows at the extended edges' words. -/
theorem rowsL_eq (T : FVec Ideal S50000x128 .f32) (idx : IVec S850000 32) (hv : ∀ i, (idx i).toNat < 50000) :
    Host.gather gather_S50000x128_S850000x1_S850000x128_1_0_n_n_0_1_1128 T
      (broadcastInDim S850000x1 ![0] bcast_S850000_S850000x1_0 (Cert.Spec.wrap bcast_S_S850000 idx)) = Cert.Spec.rowsL T idx := by
  rw [Cert.Spec.wrap_eq _ _ hv]
  funext j
  obtain ⟨r, c, rfl⟩ : ∃ (r : Fin 850000) (c : Fin 128), j = ix2 r c := ⟨j 0, j 1, eq_ix2 j⟩
  refine (Cert.GatherRead.gather_rows_apply (N := 50000) (C := 128) (R := 850000) (by decide)
    gather_S50000x128_S850000x1_S850000x128_1_0_n_n_0_1_1128_wf T _ r c).trans ?_
  exact congrArg (fun w : BitVec 32 => T (ix2 (Cert.Spec.node w) c)) (col_L_apply idx r)

/-- The rows at the edges' words. -/
theorem rowsE_eq (T : FVec Ideal S50000x128 .f32) (idx : IVec S800000 32) (hv : ∀ i, (idx i).toNat < 50000) :
    Host.gather gather_S50000x128_S800000x1_S800000x128_1_0_n_n_0_1_1128 T
      (broadcastInDim S800000x1 ![0] bcast_S800000_S800000x1_0 (Cert.Spec.wrap bcast_S_S800000 idx)) = Cert.Spec.rowsE T idx := by
  rw [Cert.Spec.wrap_eq _ _ hv]
  funext j
  obtain ⟨r, c, rfl⟩ : ∃ (r : Fin 800000) (c : Fin 128), j = ix2 r c := ⟨j 0, j 1, eq_ix2 j⟩
  refine (Cert.GatherRead.gather_rows_apply (N := 50000) (C := 128) (R := 800000) (by decide)
    gather_S50000x128_S800000x1_S800000x128_1_0_n_n_0_1_1128_wf T _ r c).trans ?_
  exact congrArg (fun w : BitVec 32 => T (ix2 (Cert.Spec.node w) c)) (col_E_apply idx r)

/-! ## One layer -/

/-- The bias spread along the rows, read at an index. -/
theorem bias_apply (b : FVec Ideal S128 .f32) (i : S50000x128.Idx) :
    broadcastInDim S50000x128 ![0, 1] bcast_S1x128_S50000x128_0_1 (broadcastInDim S1x128 ![1] bcast_S128_S1x128_1 b) i
      = b (ix1 (i 1)) :=
  (val_main_v47_apply (F := Ideal) b i).trans ((val_main_v46_apply (F := Ideal) b _).trans
    (congrArg b (funext fun a => match a with | ⟨0, _⟩ => rfl)))

theorem biasRelu_eq (A : FVec Ideal S50000x128 .f32) (b : FVec Ideal S128 .f32) :
    maximumf (addf A (broadcastInDim S50000x128 ![0, 1] bcast_S1x128_S50000x128_0_1 (broadcastInDim S1x128 ![1] bcast_S128_S1x128_1 b)))
      (broadcastInDim S50000x128 ![] bcast_S_S50000x128 (constant (F := Ideal) S_ .f32 0x00000000#32)) = Cert.Spec.biasRelu A b := by
  funext i
  show max (A i + broadcastInDim S50000x128 ![0, 1] bcast_S1x128_S50000x128_0_1 (broadcastInDim S1x128 ![1] bcast_S128_S1x128_1 b) i)
    (Ideal.ofBits .f32 0x00000000#32) = max (A i + b (ix1 (i 1))) (Ideal.ofBits .f32 0x00000000#32)
  rw [bias_apply]

/-- The aggregation over any table of node rows. -/
theorem agg_eq (x1 : IVec S2x800000 32) (hb : ∀ i, (x1 i).toNat < 50000) (T : FVec Ideal S50000x128 .f32) :
    Host.scatterAdd scatter_S50000x128_S850000x1_S850000x128_1_0_0_1
      (broadcastInDim S50000x128 ![] bcast_S_S50000x128 (constant (F := Ideal) S_ .f32 0x00000000#32))
      (broadcastInDim S850000x1 ![0] bcast_S850000_S850000x1_0 (Cert.Spec.dstSl x1))
      (mulf (Host.gather gather_S50000x128_S850000x1_S850000x128_1_0_n_n_0_1_1128 T
          (broadcastInDim S850000x1 ![0] bcast_S850000_S850000x1_0 (Cert.Spec.wrap bcast_S_S850000 (Cert.Spec.srcSl x1))))
        (broadcastInDim S850000x128 ![0, 1] bcast_S850000x1_S850000x128_0_1
          (broadcastInDim S850000x1 ![0] bcast_S850000_S850000x1_0 (Cert.Spec.norm x1))))
      = Cert.Spec.agg x1 T := by
  rw [rowsL_eq T _ (Cert.Spec.srcSl_lt x1 hb)]
  rfl

/-- One layer of the reference over any table of node rows. -/
theorem conv_eq (x1 : IVec S2x800000 32) (hb : ∀ i, (x1 i).toNat < 50000)
    (X : FVec Ideal S50000x128 .f32) (W : FVec Ideal S128x128 .f32) (b : FVec Ideal S128 .f32) :
    maximumf (addf (Host.scatterAdd scatter_S50000x128_S850000x1_S850000x128_1_0_0_1
      (broadcastInDim S50000x128 ![] bcast_S_S50000x128 (constant (F := Ideal) S_ .f32 0x00000000#32))
      (broadcastInDim S850000x1 ![0] bcast_S850000_S850000x1_0 (val_main_v6 (F := Ideal) x1))
      (mulf (Host.gather gather_S50000x128_S850000x1_S850000x128_1_0_n_n_0_1_1128
          (Host.dotGeneral dot_S50000x128_S128x128_S50000x128_1_0_0_1_n_n none X W)
          (broadcastInDim S850000x1 ![0] bcast_S850000_S850000x1_0 (Cert.Spec.wrap bcast_S_S850000 (val_main_v5 (F := Ideal) x1))))
        (broadcastInDim S850000x128 ![0, 1] bcast_S850000x1_S850000x128_0_1
          (broadcastInDim S850000x1 ![0] bcast_S850000_S850000x1_0 (val_main_v31 (F := Ideal) x1)))))
      (broadcastInDim S50000x128 ![0, 1] bcast_S1x128_S50000x128_0_1 (broadcastInDim S1x128 ![1] bcast_S128_S1x128_1 b)))
      (broadcastInDim S50000x128 ![] bcast_S_S50000x128 (constant (F := Ideal) S_ .f32 0x00000000#32))
      = Cert.Spec.conv x1 X W b := by
  rw [srcSl_eq, dstSl_eq, norm_eq, biasRelu_eq, agg_eq x1 hb, matmul_eq]
  rfl

/-- The first layer. -/
theorem h1_eq (x0 : FVec Ideal S50000x128 .f32) (x1 : IVec S2x800000 32) (x2 : FVec Ideal S128x128 .f32) (x3 : FVec Ideal S128 .f32)
    (hb : ∀ i, (x1 i).toNat < 50000) :
    val_main_v49 (F := Ideal) x0 x1 x2 x3 = Cert.Spec.conv x1 x0 x2 x3 :=
  conv_eq x1 hb x0 x2 x3

/-- THE FIRST RESULT. -/
theorem h2_eq (x0 : FVec Ideal S50000x128 .f32) (x1 : IVec S2x800000 32) (x2 : FVec Ideal S128x128 .f32) (x3 : FVec Ideal S128 .f32)
    (x4 : FVec Ideal S128x128 .f32) (x5 : FVec Ideal S128 .f32) (hb : ∀ i, (x1 i).toNat < 50000) :
    val_main_v67 (F := Ideal) x0 x1 x2 x3 x4 x5 = Cert.Spec.h2 x0 x1 x2 x3 x4 x5 := by
  refine (conv_eq x1 hb (val_main_v49 (F := Ideal) x0 x1 x2 x3) x4 x5).trans ?_
  rw [h1_eq x0 x1 x2 x3 hb]
  rfl

/-! ## The classifier -/

theorem pair_left (A B : FVec Ideal S800000x128 .f32) (r : Fin 800000) (k : Fin 128) :
    concatenate S800000x256 1 [⟨S800000x128, A⟩, ⟨S800000x128, B⟩] concatenates_S800000x128_S800000x128_S800000x256_d1
      (ix2 r (Fin.castAdd 128 k)) = A (ix2 r k) :=
  concatenate_pair_apply_left 1 A B concatenates_S800000x128_S800000x128_S800000x256_d1 (ix2 r (Fin.castAdd 128 k)) rfl (ix2 r k)
    (fun b => match b with
      | ⟨0, _⟩ => rfl
      | ⟨1, _⟩ => rfl)

theorem pair_right (A B : FVec Ideal S800000x128 .f32) (r : Fin 800000) (k : Fin 128) :
    concatenate S800000x256 1 [⟨S800000x128, A⟩, ⟨S800000x128, B⟩] concatenates_S800000x128_S800000x128_S800000x256_d1
      (ix2 r (Fin.natAdd 128 k)) = B (ix2 r k) :=
  concatenate_pair_apply_right 1 A B concatenates_S800000x128_S800000x128_S800000x256_d1 (ix2 r (Fin.natAdd 128 k)) rfl rfl (ix2 r k)
    (fun b hb => match b, hb with
      | ⟨0, _⟩, _ => rfl
      | ⟨1, _⟩, hb => absurd rfl hb)
    (by show k.val + 128 = 128 + k.val; omega)

/-- The bias of the classifier spread along the rows, read at an index. -/
theorem cbias_apply (b : FVec Ideal S2 .f32) (i : S800000x2.Idx) :
    val_main_v85 (F := Ideal) b i = b (ix1 (i 1)) :=
  (val_main_v85_apply (F := Ideal) b i).trans ((val_main_v84_apply (F := Ideal) b _).trans
    (congrArg b (funext fun a => match a with | ⟨0, _⟩ => rfl)))

/-- The linear form. -/
theorem logits_eq (x0 : FVec Ideal S50000x128 .f32) (x1 : IVec S2x800000 32) (x2 : FVec Ideal S128x128 .f32) (x3 : FVec Ideal S128 .f32)
    (x4 : FVec Ideal S128x128 .f32) (x5 : FVec Ideal S128 .f32) (x6 : FVec Ideal S256x2 .f32) (x7 : FVec Ideal S2 .f32)
    (hb : ∀ i, (x1 i).toNat < 50000) :
    val_main_v86 (F := Ideal) x0 x1 x2 x3 x4 x5 x6 x7 = Cert.Spec.logits (Cert.Spec.h2 x0 x1 x2 x3 x4 x5) x1 x6 x7 := by
  have hs : val_main_v74 (F := Ideal) x0 x1 x2 x3 x4 x5 = Cert.Spec.rowsE (Cert.Spec.h2 x0 x1 x2 x3 x4 x5) (Cert.Spec.srcRow x1) := by
    rw [← h2_eq x0 x1 x2 x3 x4 x5 hb]
    exact rowsE_eq _ _ (Cert.Spec.srcRow_lt x1 hb)
  have hd : val_main_v81 (F := Ideal) x0 x1 x2 x3 x4 x5 = Cert.Spec.rowsE (Cert.Spec.h2 x0 x1 x2 x3 x4 x5) (Cert.Spec.dstRow x1) := by
    rw [← h2_eq x0 x1 x2 x3 x4 x5 hb]
    exact rowsE_eq _ _ (Cert.Spec.dstRow_lt x1 hb)
  funext i
  obtain ⟨r, c, rfl⟩ : ∃ (r : Fin 800000) (c : Fin 2), i = ix2 r c := ⟨i 0, i 1, eq_ix2 i⟩
  have hsum : (∑ k : Fin 256, val_main_v82 (F := Ideal) x0 x1 x2 x3 x4 x5 (lidx_main_v83 (ix2 r c) k) * x6 (ridx_main_v83 (ix2 r c) k))
      = (∑ k : Fin 128, Cert.Spec.rowsE (Cert.Spec.h2 x0 x1 x2 x3 x4 x5) (Cert.Spec.srcRow x1) (ix2 r k) * x6 (ix2 (Fin.castAdd 128 k) c))
        + (∑ k : Fin 128, Cert.Spec.rowsE (Cert.Spec.h2 x0 x1 x2 x3 x4 x5) (Cert.Spec.dstRow x1) (ix2 r k) * x6 (ix2 (Fin.natAdd 128 k) c)) := by
    refine (Fin.sum_univ_add (a := 128) (b := 128)
      (fun k : Fin (128 + 128) => val_main_v82 (F := Ideal) x0 x1 x2 x3 x4 x5 (lidx_main_v83 (ix2 r c) k) * x6 (ridx_main_v83 (ix2 r c) k))).trans ?_
    refine congrArg₂ (· + ·) (Finset.sum_congr rfl fun k _ => ?_) (Finset.sum_congr rfl fun k _ => ?_)
    · have el : lidx_main_v83 (ix2 r c) (Fin.castAdd 128 k) = ix2 r (Fin.castAdd 128 k) := funext fun a => match a with
        | ⟨0, _⟩ => rfl
        | ⟨1, _⟩ => rfl
      have er : ridx_main_v83 (ix2 r c) (Fin.castAdd 128 k) = ix2 (Fin.castAdd 128 k) c := funext fun a => match a with
        | ⟨0, _⟩ => rfl
        | ⟨1, _⟩ => rfl
      show val_main_v82 (F := Ideal) x0 x1 x2 x3 x4 x5 (lidx_main_v83 (ix2 r c) (Fin.castAdd 128 k)) * x6 (ridx_main_v83 (ix2 r c) (Fin.castAdd 128 k)) = _
      rw [el, er]
      unfold val_main_v82
      rw [pair_left, hs]
    · have el : lidx_main_v83 (ix2 r c) (Fin.natAdd 128 k) = ix2 r (Fin.natAdd 128 k) := funext fun a => match a with
        | ⟨0, _⟩ => rfl
        | ⟨1, _⟩ => rfl
      have er : ridx_main_v83 (ix2 r c) (Fin.natAdd 128 k) = ix2 (Fin.natAdd 128 k) c := funext fun a => match a with
        | ⟨0, _⟩ => rfl
        | ⟨1, _⟩ => rfl
      show val_main_v82 (F := Ideal) x0 x1 x2 x3 x4 x5 (lidx_main_v83 (ix2 r c) (Fin.natAdd 128 k)) * x6 (ridx_main_v83 (ix2 r c) (Fin.natAdd 128 k)) = _
      rw [el, er]
      unfold val_main_v82
      rw [pair_right, hd]
  rw [val_main_v86_apply, val_main_v83_apply, cbias_apply, hsum]
  rfl

/-- THE SECOND RESULT. -/
theorem probs_eq (x0 : FVec Ideal S50000x128 .f32) (x1 : IVec S2x800000 32) (x2 : FVec Ideal S128x128 .f32) (x3 : FVec Ideal S128 .f32)
    (x4 : FVec Ideal S128x128 .f32) (x5 : FVec Ideal S128 .f32) (x6 : FVec Ideal S256x2 .f32) (x7 : FVec Ideal S2 .f32)
    (hb : ∀ i, (x1 i).toNat < 50000) :
    val_main_v92 (F := Ideal) x0 x1 x2 x3 x4 x5 x6 x7 = Cert.Spec.probs x0 x1 x2 x3 x4 x5 x6 x7 := by
  funext i
  rw [val_main_v92_apply, val_main_v91_apply, val_main_cst_18_apply, val_main_v90_apply, val_main_v89_apply, val_main_cst_17_apply,
    val_main_v88_apply, val_main_v87_apply, logits_eq x0 x1 x2 x3 x4 x5 x6 x7 hb]
  simp only [Cert.Spec.probs, Ideal.hostDivf_def, Ideal.addf_def, Ideal.hostUnary_exp_def, Ideal.hostNegf_def, Ideal.negf_def,
    Ideal.ofBits_def, Cert.Spec.ofBits_one_f32, Ideal.logistic]

/-! ## The run's two results -/

/-- The reference's run ends with the specification's two results, when every word of the edge list names a node. -/
theorem results (m : (ℓ : Loc nD τ sig) → Buf (Elt Ideal) ℓ) (c : Dev nD)
    (hb : ∀ i : S2x800000.Idx, BitVec.toNat (w := 32) (m ((c.tc : Thread nD τ).loc main_arg1) i) < 50000) :
    Cert.ReferenceIdeal.Value.res_main_v67 m c
        = Cert.Spec.h2 (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4)) (m ((c.tc : Thread nD τ).loc main_arg5))
      ∧ Cert.ReferenceIdeal.Value.res_main_v92 m c
        = Cert.Spec.probs (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4)) (m ((c.tc : Thread nD τ).loc main_arg5))
            (m ((c.tc : Thread nD τ).loc main_arg6)) (m ((c.tc : Thread nD τ).loc main_arg7)) :=
  ⟨(val_main_v67_eq (F := Ideal) m c).trans (h2_eq _ _ _ _ _ _ hb), (val_main_v92_eq (F := Ideal) m c).trans (probs_eq _ _ _ _ _ _ _ _ hb)⟩

/-- The reference's run, with its two results named by the specification: every execution ends with the first
    result the two-layer table and the second the edge probabilities, the arguments unchanged. -/
theorem run_spec (m : (ℓ : Loc nD τ sig) → Buf (Elt Ideal) ℓ) (ρ : Dev nD → PrngReg)
    (hb : ∀ (c : Dev nD) (i : S2x800000.Idx), BitVec.toNat (w := 32) (m ((c.tc : Thread nD τ).loc main_arg1) i) < 50000) :
    θ_run (defs (F := Ideal)) (onTc (τ := τ) (main (F := Ideal))) ⟨m, fun _ => 0, ρ⟩ fun r => ∀ c : Dev nD,
      r.2.mem ((c.tc : Thread nD τ).loc main_v67)
          = Cert.Spec.h2 (m ((c.tc : Thread nD τ).loc main_arg0)) (m ((c.tc : Thread nD τ).loc main_arg1)) (m ((c.tc : Thread nD τ).loc main_arg2))
              (m ((c.tc : Thread nD τ).loc main_arg3)) (m ((c.tc : Thread nD τ).loc main_arg4)) (m ((c.tc : Thread nD τ).loc main_arg5))
      ∧ r.2.mem ((c.tc : Thread nD τ).loc main_v92)
          = Cert.Spec.probs (m ((c.tc : Thread nD τ).loc main_arg0)) (m ((c.tc : Thread nD τ).loc main_arg1)) (m ((c.tc : Thread nD τ).loc main_arg2))
              (m ((c.tc : Thread nD τ).loc main_arg3)) (m ((c.tc : Thread nD τ).loc main_arg4)) (m ((c.tc : Thread nD τ).loc main_arg5))
              (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => ⟨(h c).1.trans (results m c (hb c)).1, (h c).2.1.trans (results m c (hb c)).2, (h c).2.2⟩)
    (Cert.ReferenceIdeal.Value.run (F := Ideal) m ρ)

end Cert.ReferenceIdeal.RefValue

end
-- ==== Proof.lean ====
/-
  The proof of the claim: the kernel — two graph-convolution layers and an edge classifier over 50000 nodes and 800000
  edges, run as forty kernel regions among host stretches — runs, leaves its eight arguments as they were, and over the
  extended reals computes the two results the plain reference computes.

  What joins the two programs. Both compute, layer by layer, relu (A + b) with A the scatter-add, over the edges and one
  self loop per node, of the weighted rows of (input × weights); the kernel reads those rows by gathers of eight rows at a
  time where the reference gathers them at once, and the same rows result. They differ in one arrangement: the classifier's
  linear form. The reference joins the two end rows of an edge into one 256-vector and takes one 256-term sum against the
  256 × 2 weights; the kernel takes two 128-term sums, the source row against the upper half of the weights and the
  destination row against the lower half, and adds them. A sum over 256 = 128 + 128 terms split at 128 is the sum of its
  two halves; everything else is the same operations on the same values. Both sides are stated as the two functions
  `Cert.Spec.h2` and `Cert.Spec.probs` of the eight arguments.

  What both frames need. A row gather assumes each index word it loads names one of the 50000 rows; a word that does not
  leaves the kernel without a step. The precondition's last two conjuncts say every word of the edge table is in
  [0, 50000), and every index table the kernel builds holds edge words or node numbers, so the runs go through; the
  reference's value needs the same range for its gathers to read the rows the specification names.

  * `edges_Kernel`, `edges_KernelIdeal`: the precondition gives the range of the edge words.
  * `frame_p`, `frame_pi`: each kernel program's chained run with the two results dropped; `frame_ri`: the reference's
    run likewise.
  * `preserves`: the ideal pass rewrote nothing.
  * `algebraic`: both runs' results are `Cert.Spec.h2` and `Cert.Spec.probs` of the kernel's arguments, the
    reference's arguments rewritten by the agreement hypothesis.
-/
import proofs.«402049_j87351044866139_2_alg».proof.Defs
import proofs.«402049_j87351044866139_2_alg».proof.Proof.Gen.Kernel
import proofs.«402049_j87351044866139_2_alg».proof.Proof.Gen.KernelIdeal
import proofs.«402049_j87351044866139_2_alg».proof.Proof.Gen.ReferenceIdeal
import proofs.«402049_j87351044866139_2_alg».proof.Proof.Gen.Pre_finite_inputs
import proofs.«402049_j87351044866139_2_alg».proof.Proof.PreRange
import proofs.«402049_j87351044866139_2_alg».proof.Proof.Spec
import proofs.«402049_j87351044866139_2_alg».proof.Proof.K.RunAll
import proofs.«402049_j87351044866139_2_alg».proof.Proof.KI.RunAll
import proofs.«402049_j87351044866139_2_alg».proof.Proof.KI.ValueAll
import proofs.«402049_j87351044866139_2_alg».proof.Proof.RefRunH
import proofs.«402049_j87351044866139_2_alg».proof.Proof.RefValue

noncomputable section

namespace Cert.Proof

open Idealize.ShloMosaic Idealize.ShloMosaic.TcCoe Idealize.SL.Sem

/-! ## Every edge word names a node -/

/-- Under the precondition the kernel's edge table, as the run's first valuation reads it on the device, holds words
    below 50000: the precondition's last two conjuncts, decoded. -/
theorem edges_Kernel (m : (ℓ : Loc Cert.Kernel.nD Cert.Kernel.τ Cert.Kernel.sig) → Buf (Elt Bits) ℓ) (hpre : Cert.Pre_Kernel m)
    (c : Dev Cert.Kernel.nD) :
    ∀ i : Cert.Kernel.S2x800000.Idx, ((Cert.Kernel.GenP.V0 m c Cert.Kernel.main_arg1 : IVec Cert.Kernel.S2x800000 32) i).toNat < 50000 :=
  Cert.PreRange.edge_lt _ _ _ _ _ _ _ _ (hpre c)

/-- The same of the idealized kernel's. -/
theorem edges_KernelIdeal (m : (ℓ : Loc Cert.KernelIdeal.nD Cert.KernelIdeal.τ Cert.KernelIdeal.sig) → Buf (Elt Ideal) ℓ)
    (hpre : Cert.Pre_KernelIdeal m) (c : Dev Cert.KernelIdeal.nD) :
    ∀ i : Cert.KernelIdeal.S2x800000.Idx, ((Cert.KernelIdeal.GenP.V0 m c Cert.KernelIdeal.main_arg1 : IVec Cert.KernelIdeal.S2x800000 32) i).toNat < 50000 :=
  Cert.PreRange.edge_lt _ _ _ _ _ _ _ _ (hpre c)

/-! ## The three frames -/

/-- The kernel as printed runs and leaves its arguments: its chained run, the two results dropped. -/
theorem frame_p : Cert.frame_Kernel := fun m ρ hpre =>
  (θ_run (Cert.Kernel.defs (F := Bits)) _ _).mono (fun _ h c => (h c).2.2)
    (Cert.Kernel.Hand.run_all (F := Bits) m ρ (edges_Kernel m hpre Cert.Kernel.Hand.c₀))

/-- The idealized kernel likewise. -/
theorem frame_pi : Cert.frame_KernelIdeal := fun m ρ hpre =>
  (θ_run (Cert.KernelIdeal.defs (F := Ideal)) _ _).mono (fun _ h c => (h c).2.2)
    (Cert.KernelIdeal.Hand.run_all (F := Ideal) m ρ (edges_KernelIdeal m hpre Cert.KernelIdeal.Hand.c₀))

/-- The reference runs and leaves its arguments: its run, the two results dropped. -/
theorem frame_ri : Cert.frame_ReferenceIdeal := fun m ρ _ =>
  (θ_run (Cert.ReferenceIdeal.defs (F := Ideal)) _ _).mono (fun _ h c => (h c).2.2)
    (Cert.ReferenceIdeal.Value.run (F := Ideal) m ρ)

/-- The ideal pass rewrote no operation. -/
theorem preserves : Cert.preserves_Kernel_KernelIdeal := trivial

/-! ## The two programs compute the same two functions -/

/-- Over the extended reals, from memories that agree on the eight arguments, both programs end with the two-layer node
    table and the edge probabilities of the specification, as functions of the kernel's arguments. -/
theorem algebraic : Cert.algebraic_KernelIdeal_ReferenceIdeal := by
  intro m ρ m' ρ' hpre hagree
  have hm := edges_KernelIdeal m hpre
  refine ⟨fun c => Cert.Spec.h2 (Cert.KernelIdeal.Hand.argX m c) (Cert.KernelIdeal.Hand.edges m c) (Cert.KernelIdeal.Hand.argW1 m c)
      (Cert.KernelIdeal.Hand.argB1 m c) (Cert.KernelIdeal.Hand.argW2 m c) (Cert.KernelIdeal.Hand.argB2 m c),
    fun c => Cert.Spec.probs (Cert.KernelIdeal.Hand.argX m c) (Cert.KernelIdeal.Hand.edges m c) (Cert.KernelIdeal.Hand.argW1 m c)
      (Cert.KernelIdeal.Hand.argB1 m c) (Cert.KernelIdeal.Hand.argW2 m c) (Cert.KernelIdeal.Hand.argB2 m c)
      (Cert.KernelIdeal.Hand.argWc m c) (Cert.KernelIdeal.Hand.argBc m c), ?_, ?_⟩
  · exact (θ_run (Cert.KernelIdeal.defs (F := Ideal)) _ _).mono
      (fun _ h c => ⟨(h c).1.trans (Cert.KernelIdeal.Hand.val_h2 m c (hm c)),
        (h c).2.1.trans (Cert.KernelIdeal.Hand.val_probs m c (hm c)), (h c).2.2⟩)
      (Cert.KernelIdeal.Hand.run_all (F := Ideal) m ρ (hm Cert.KernelIdeal.Hand.c₀))
  · refine (θ_run (Cert.ReferenceIdeal.defs (F := Ideal)) _ _).mono (fun _ h c => ?_)
      (Cert.ReferenceIdeal.Value.run (F := Ideal) m' ρ')
    obtain ⟨a0, a1, a2, a3, a4, a5, a6, a7⟩ := hagree c
    have hb : ∀ i : Cert.ReferenceIdeal.S2x800000.Idx,
        BitVec.toNat (w := 32) (m' ((c.tc : Thread Cert.ReferenceIdeal.nD Cert.ReferenceIdeal.τ).loc Cert.ReferenceIdeal.main_arg1) i) < 50000 := by
      rw [a1]; exact hm c
    obtain ⟨e1, e2⟩ := Cert.ReferenceIdeal.RefValue.results m' c hb
    refine ⟨(h c).1.trans (e1.trans ?_), (h c).2.1.trans (e2.trans ?_), (h c).2.2⟩
    · rw [a0, a1, a2, a3, a4, a5]
    · rw [a0, a1, a2, a3, a4, a5, a6, a7]

/-! ## The claim -/

theorem claim : Cert.Claim :=
  ⟨Cert.Kernel.Gen.facts, Cert.KernelIdeal.Gen.facts, Cert.ReferenceIdeal.Gen.facts, Cert.Pre_finite_inputs.Gen.facts,
    frame_p, frame_pi, frame_ri, preserves, algebraic⟩

end Cert.Proof

end
